-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v483)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v483) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v543) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1100000 : Shape := ⟨2, ![2, 1100000]⟩
abbrev S1100000x1 : Shape := ⟨2, ![1100000, 1]⟩
abbrev S2x3x26x32 : Shape := ⟨4, ![2, 3, 26, 32]⟩
abbrev S2x3x32 : Shape := ⟨3, ![2, 3, 32]⟩
abbrev S2x3x32x1 : Shape := ⟨4, ![2, 3, 32, 1]⟩
abbrev S2x3x1 : Shape := ⟨3, ![2, 3, 1]⟩
abbrev S2x3x17x32 : Shape := ⟨4, ![2, 3, 17, 32]⟩
abbrev S2x3x32x8 : Shape := ⟨4, ![2, 3, 32, 8]⟩
abbrev S2x3x8 : Shape := ⟨3, ![2, 3, 8]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S1100000x1 : S_.BroadcastsInDim S1100000x1 (![] : Fin 0 → Fin S1100000x1.rank)
  reducesTo_S1100000x1_S_d0_1 : S1100000x1.ReducesTo [0, 1] S_
  bcast_S_S2x3x26x32 : S_.BroadcastsInDim S2x3x26x32 (![] : Fin 0 → Fin S2x3x26x32.rank)
  reducesTo_S2x3x26x32_S_d0_1_2_3 : S2x3x26x32.ReducesTo [0, 1, 2, 3] S_
  bcast_S_S2x3x32 : S_.BroadcastsInDim S2x3x32 (![] : Fin 0 → Fin S2x3x32.rank)
  reducesTo_S2x3x32_S_d0_1_2 : S2x3x32.ReducesTo [0, 1, 2] S_
  bcast_S_S2x3x32x1 : S_.BroadcastsInDim S2x3x32x1 (![] : Fin 0 → Fin S2x3x32x1.rank)
  reducesTo_S2x3x32x1_S_d0_1_2_3 : S2x3x32x1.ReducesTo [0, 1, 2, 3] S_
  bcast_S_S2x3x1 : S_.BroadcastsInDim S2x3x1 (![] : Fin 0 → Fin S2x3x1.rank)
  reducesTo_S2x3x1_S_d0_1_2 : S2x3x1.ReducesTo [0, 1, 2] S_
  bcast_S_S2x3x17x32 : S_.BroadcastsInDim S2x3x17x32 (![] : Fin 0 → Fin S2x3x17x32.rank)
  reducesTo_S2x3x17x32_S_d0_1_2_3 : S2x3x17x32.ReducesTo [0, 1, 2, 3] S_
  bcast_S_S2x3x32x8 : S_.BroadcastsInDim S2x3x32x8 (![] : Fin 0 → Fin S2x3x32x8.rank)
  reducesTo_S2x3x32x8_S_d0_1_2_3 : S2x3x32x8.ReducesTo [0, 1, 2, 3] S_
  bcast_S_S2x3x8 : S_.BroadcastsInDim S2x3x8 (![] : Fin 0 → Fin S2x3x8.rank)
  reducesTo_S2x3x8_S_d0_1_2 : S2x3x8.ReducesTo [0, 1, 2] S_
  bcast_S_S2x1100000 : S_.BroadcastsInDim S2x1100000 (![] : Fin 0 → Fin S2x1100000.rank)
  reducesTo_S2x1100000_S_d0_1 : S2x1100000.ReducesTo [0, 1] S_

variable [Facts]

def fn_part5 {F : FTy → Type} [FloatOps F] (main_v80 : IVec S_ 1) (main_v82 : IVec S2x1100000 1) (main_v84 : IVec S2x1100000 1) : IVec S_ 1 :=
  let main_v85 : IVec S2x1100000 1 := andi main_v82 main_v84
  let main_c_33 : IVec S_ 1 := constantI S_ 1 1#1
  let main_v86 : IVec S_ 1 := (fun x v => Host.reduce IntOp.andi x v reducesTo_S2x1100000_S_d0_1 h_S_) main_v85 main_c_33
  let main_v87 : IVec S_ 1 := andi main_v80 main_v86
  main_v87

def fn_part4 {F : FTy → Type} [FloatOps F] (main_arg1 : IVec S2x1100000 32) (main_arg2 : IVec S2x1100000 32) (main_arg16 : FVec F S2x3x8 .f32) (main_v63 : IVec S_ 1) (main_v67 : IVec S_ 1) : IVec S_ 1 :=
  let main_v68 : IVec S_ 1 := andi main_v63 main_v67
  let main_v69 : FVec F S2x3x8 .f32 := Host.absf main_arg16
  let main_cst_26 : FVec F S_ .f32 := constant S_ .f32 0x7F800000#32
  let main_v70 : FVec F S2x3x8 .f32 := broadcastInDim S2x3x8 ![] bcast_S_S2x3x8 main_cst_26
  let main_v71 : IVec S2x3x8 1 := cmpf .olt main_v69 main_v70
  let main_c_27 : IVec S_ 1 := constantI S_ 1 1#1
  let main_v72 : IVec S_ 1 := (fun x v => Host.reduce IntOp.andi x v reducesTo_S2x3x8_S_d0_1_2 h_S_) main_v71 main_c_27
  let main_v73 : IVec S_ 1 := andi main_v68 main_v72
  let main_c_28 : IVec S_ 32 := constantI S_ 32 0#32
  let main_v74 : IVec S2x1100000 32 := broadcastInDim S2x1100000 ![] bcast_S_S2x1100000 main_c_28
  let main_v75 : IVec S2x1100000 1 := cmpi .sge main_arg1 main_v74
  let main_c_29 : IVec S_ 32 := constantI S_ 32 100000#32
  let main_v76 : IVec S2x1100000 32 := broadcastInDim S2x1100000 ![] bcast_S_S2x1100000 main_c_29
  let main_v77 : IVec S2x1100000 1 := cmpi .slt main_arg1 main_v76
  let main_v78 : IVec S2x1100000 1 := andi main_v75 main_v77
  let main_c_30 : IVec S_ 1 := constantI S_ 1 1#1
  let main_v79 : IVec S_ 1 := (fun x v => Host.reduce IntOp.andi x v reducesTo_S2x1100000_S_d0_1 h_S_) main_v78 main_c_30
  let main_v80 : IVec S_ 1 := andi main_v73 main_v79
  let main_c_31 : IVec S_ 32 := constantI S_ 32 0#32
  let main_v81 : IVec S2x1100000 32 := broadcastInDim S2x1100000 ![] bcast_S_S2x1100000 main_c_31
  let main_v82 : IVec S2x1100000 1 := cmpi .sge main_arg2 main_v81
  let main_c_32 : IVec S_ 32 := constantI S_ 32 100000#32
  let main_v83 : IVec S2x1100000 32 := broadcastInDim S2x1100000 ![] bcast_S_S2x1100000 main_c_32
  let main_v84 : IVec S2x1100000 1 := cmpi .slt main_arg2 main_v83
  fn_part5 (F := F) main_v80 main_v82 main_v84

def fn_part3 {F : FTy → Type} [FloatOps F] (main_arg1 : IVec S2x1100000 32) (main_arg2 : IVec S2x1100000 32) (main_arg13 : FVec F S2x3x17x32 .f32) (main_arg14 : FVec F S2x3x32 .f32) (main_arg15 : FVec F S2x3x32x8 .f32) (main_arg16 : FVec F S2x3x8 .f32) (main_v48 : IVec S_ 1) (main_v49 : FVec F S2x3x8 .f32) (main_v50 : FVec F S2x3x8 .f32) : IVec S_ 1 :=
  let main_v51 : IVec S2x3x8 1 := cmpf .olt main_v49 main_v50
  let main_c_19 : IVec S_ 1 := constantI S_ 1 1#1
  let main_v52 : IVec S_ 1 := (fun x v => Host.reduce IntOp.andi x v reducesTo_S2x3x8_S_d0_1_2 h_S_) main_v51 main_c_19
  let main_v53 : IVec S_ 1 := andi main_v48 main_v52
  let main_v54 : FVec F S2x3x17x32 .f32 := Host.absf main_arg13
  let main_cst_20 : FVec F S_ .f32 := constant S_ .f32 0x7F800000#32
  let main_v55 : FVec F S2x3x17x32 .f32 := broadcastInDim S2x3x17x32 ![] bcast_S_S2x3x17x32 main_cst_20
  let main_v56 : IVec S2x3x17x32 1 := cmpf .olt main_v54 main_v55
  let main_c_21 : IVec S_ 1 := constantI S_ 1 1#1
  let main_v57 : IVec S_ 1 := (fun x v => Host.reduce IntOp.andi x v reducesTo_S2x3x17x32_S_d0_1_2_3 h_S_) main_v56 main_c_21
  let main_v58 : IVec S_ 1 := andi main_v53 main_v57
  let main_v59 : FVec F S2x3x32 .f32 := Host.absf main_arg14
  let main_cst_22 : FVec F S_ .f32 := constant S_ .f32 0x7F800000#32
  let main_v60 : FVec F S2x3x32 .f32 := broadcastInDim S2x3x32 ![] bcast_S_S2x3x32 main_cst_22
  let main_v61 : IVec S2x3x32 1 := cmpf .olt main_v59 main_v60
  let main_c_23 : IVec S_ 1 := constantI S_ 1 1#1
  let main_v62 : IVec S_ 1 := (fun x v => Host.reduce IntOp.andi x v reducesTo_S2x3x32_S_d0_1_2 h_S_) main_v61 main_c_23
  let main_v63 : IVec S_ 1 := andi main_v58 main_v62
  let main_v64 : FVec F S2x3x32x8 .f32 := Host.absf main_arg15
  let main_cst_24 : FVec F S_ .f32 := constant S_ .f32 0x7F800000#32
  let main_v65 : FVec F S2x3x32x8 .f32 := broadcastInDim S2x3x32x8 ![] bcast_S_S2x3x32x8 main_cst_24
  let main_v66 : IVec S2x3x32x8 1 := cmpf .olt main_v64 main_v65
  let main_c_25 : IVec S_ 1 := constantI S_ 1 1#1
  let main_v67 : IVec S_ 1 := (fun x v => Host.reduce IntOp.andi x v reducesTo_S2x3x32x8_S_d0_1_2_3 h_S_) main_v66 main_c_25
  fn_part4 (F := F) main_arg1 main_arg2 main_arg16 main_v63 main_v67

def fn_part2 {F : FTy → Type} [FloatOps F] (main_arg1 : IVec S2x1100000 32) (main_arg2 : IVec S2x1100000 32) (main_arg9 : FVec F S2x3x17x32 .f32) (main_arg10 : FVec F S2x3x32 .f32) (main_arg11 : FVec F S2x3x32x8 .f32) (main_arg12 : FVec F S2x3x8 .f32) (main_arg13 : FVec F S2x3x17x32 .f32) (main_arg14 : FVec F S2x3x32 .f32) (main_arg15 : FVec F S2x3x32x8 .f32) (main_arg16 : FVec F S2x3x8 .f32) (main_v33 : IVec S_ 1) : IVec S_ 1 :=
  let main_v34 : FVec F S2x3x17x32 .f32 := Host.absf main_arg9
  let main_cst_12 : FVec F S_ .f32 := constant S_ .f32 0x7F800000#32
  let main_v35 : FVec F S2x3x17x32 .f32 := broadcastInDim S2x3x17x32 ![] bcast_S_S2x3x17x32 main_cst_12
  let main_v36 : IVec S2x3x17x32 1 := cmpf .olt main_v34 main_v35
  let main_c_13 : IVec S_ 1 := constantI S_ 1 1#1
  let main_v37 : IVec S_ 1 := (fun x v => Host.reduce IntOp.andi x v reducesTo_S2x3x17x32_S_d0_1_2_3 h_S_) main_v36 main_c_13
  let main_v38 : IVec S_ 1 := andi main_v33 main_v37
  let main_v39 : FVec F S2x3x32 .f32 := Host.absf main_arg10
  let main_cst_14 : FVec F S_ .f32 := constant S_ .f32 0x7F800000#32
  let main_v40 : FVec F S2x3x32 .f32 := broadcastInDim S2x3x32 ![] bcast_S_S2x3x32 main_cst_14
  let main_v41 : IVec S2x3x32 1 := cmpf .olt main_v39 main_v40
  let main_c_15 : IVec S_ 1 := constantI S_ 1 1#1
  let main_v42 : IVec S_ 1 := (fun x v => Host.reduce IntOp.andi x v reducesTo_S2x3x32_S_d0_1_2 h_S_) main_v41 main_c_15
  let main_v43 : IVec S_ 1 := andi main_v38 main_v42
  let main_v44 : FVec F S2x3x32x8 .f32 := Host.absf main_arg11
  let main_cst_16 : FVec F S_ .f32 := constant S_ .f32 0x7F800000#32
  let main_v45 : FVec F S2x3x32x8 .f32 := broadcastInDim S2x3x32x8 ![] bcast_S_S2x3x32x8 main_cst_16
  let main_v46 : IVec S2x3x32x8 1 := cmpf .olt main_v44 main_v45
  let main_c_17 : IVec S_ 1 := constantI S_ 1 1#1
  let main_v47 : IVec S_ 1 := (fun x v => Host.reduce IntOp.andi x v reducesTo_S2x3x32x8_S_d0_1_2_3 h_S_) main_v46 main_c_17
  let main_v48 : IVec S_ 1 := andi main_v43 main_v47
  let main_v49 : FVec F S2x3x8 .f32 := Host.absf main_arg12
  let main_cst_18 : FVec F S_ .f32 := constant S_ .f32 0x7F800000#32
  let main_v50 : FVec F S2x3x8 .f32 := broadcastInDim S2x3x8 ![] bcast_S_S2x3x8 main_cst_18
  fn_part3 (F := F) main_arg1 main_arg2 main_arg13 main_arg14 main_arg15 main_arg16 main_v48 main_v49 main_v50

def fn_part1 {F : FTy → Type} [FloatOps F] (main_arg1 : IVec S2x1100000 32) (main_arg2 : IVec S2x1100000 32) (main_arg6 : FVec F S2x3x32 .f32) (main_arg7 : FVec F S2x3x32x1 .f32) (main_arg8 : FVec F S2x3x1 .f32) (main_arg9 : FVec F S2x3x17x32 .f32) (main_arg10 : FVec F S2x3x32 .f32) (main_arg11 : FVec F S2x3x32x8 .f32) (main_arg12 : FVec F S2x3x8 .f32) (main_arg13 : FVec F S2x3x17x32 .f32) (main_arg14 : FVec F S2x3x32 .f32) (main_arg15 : FVec F S2x3x32x8 .f32) (main_arg16 : FVec F S2x3x8 .f32) (main_v13 : IVec S_ 1) (main_v16 : IVec S2x3x26x32 1) : IVec S_ 1 :=
  let main_c_5 : IVec S_ 1 := constantI S_ 1 1#1
  let main_v17 : IVec S_ 1 := (fun x v => Host.reduce IntOp.andi x v reducesTo_S2x3x26x32_S_d0_1_2_3 h_S_) main_v16 main_c_5
  let main_v18 : IVec S_ 1 := andi main_v13 main_v17
  let main_v19 : FVec F S2x3x32 .f32 := Host.absf main_arg6
  let main_cst_6 : FVec F S_ .f32 := constant S_ .f32 0x7F800000#32
  let main_v20 : FVec F S2x3x32 .f32 := broadcastInDim S2x3x32 ![] bcast_S_S2x3x32 main_cst_6
  let main_v21 : IVec S2x3x32 1 := cmpf .olt main_v19 main_v20
  let main_c_7 : IVec S_ 1 := constantI S_ 1 1#1
  let main_v22 : IVec S_ 1 := (fun x v => Host.reduce IntOp.andi x v reducesTo_S2x3x32_S_d0_1_2 h_S_) main_v21 main_c_7
  let main_v23 : IVec S_ 1 := andi main_v18 main_v22
  let main_v24 : FVec F S2x3x32x1 .f32 := Host.absf main_arg7
  let main_cst_8 : FVec F S_ .f32 := constant S_ .f32 0x7F800000#32
  let main_v25 : FVec F S2x3x32x1 .f32 := broadcastInDim S2x3x32x1 ![] bcast_S_S2x3x32x1 main_cst_8
  let main_v26 : IVec S2x3x32x1 1 := cmpf .olt main_v24 main_v25
  let main_c_9 : IVec S_ 1 := constantI S_ 1 1#1
  let main_v27 : IVec S_ 1 := (fun x v => Host.reduce IntOp.andi x v reducesTo_S2x3x32x1_S_d0_1_2_3 h_S_) main_v26 main_c_9
  let main_v28 : IVec S_ 1 := andi main_v23 main_v27
  let main_v29 : FVec F S2x3x1 .f32 := Host.absf main_arg8
  let main_cst_10 : FVec F S_ .f32 := constant S_ .f32 0x7F800000#32
  let main_v30 : FVec F S2x3x1 .f32 := broadcastInDim S2x3x1 ![] bcast_S_S2x3x1 main_cst_10
  let main_v31 : IVec S2x3x1 1 := cmpf .olt main_v29 main_v30
  let main_c_11 : IVec S_ 1 := constantI S_ 1 1#1
  let main_v32 : IVec S_ 1 := (fun x v => Host.reduce IntOp.andi x v reducesTo_S2x3x1_S_d0_1_2 h_S_) main_v31 main_c_11
  let main_v33 : IVec S_ 1 := andi main_v28 main_v32
  fn_part2 (F := F) main_arg1 main_arg2 main_arg9 main_arg10 main_arg11 main_arg12 main_arg13 main_arg14 main_arg15 main_arg16 main_v33

def fn {F : FTy → Type} [FloatOps F] (main_arg0 : FVec F S100000x8 .f32) (main_arg1 : IVec S2x1100000 32) (main_arg2 : IVec S2x1100000 32) (main_arg3 : FVec F S1100000x1 .f32) (main_arg4 : FVec F S1100000x1 .f32) (main_arg5 : FVec F S2x3x26x32 .f32) (main_arg6 : FVec F S2x3x32 .f32) (main_arg7 : FVec F S2x3x32x1 .f32) (main_arg8 : FVec F S2x3x1 .f32) (main_arg9 : FVec F S2x3x17x32 .f32) (main_arg10 : FVec F S2x3x32 .f32) (main_arg11 : FVec F S2x3x32x8 .f32) (main_arg12 : FVec F S2x3x8 .f32) (main_arg13 : FVec F S2x3x17x32 .f32) (main_arg14 : FVec F S2x3x32 .f32) (main_arg15 : FVec F S2x3x32x8 .f32) (main_arg16 : FVec F S2x3x8 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S1100000x1 .f32 := Host.absf main_arg3
  let main_cst_0 : FVec F S_ .f32 := constant S_ .f32 0x7F800000#32
  let main_v5 : FVec F S1100000x1 .f32 := broadcastInDim S1100000x1 ![] bcast_S_S1100000x1 main_cst_0
  let main_v6 : IVec S1100000x1 1 := cmpf .olt main_v4 main_v5
  let main_c_1 : IVec S_ 1 := constantI S_ 1 1#1
  let main_v7 : IVec S_ 1 := (fun x v => Host.reduce IntOp.andi x v reducesTo_S1100000x1_S_d0_1 h_S_) main_v6 main_c_1
  let main_v8 : IVec S_ 1 := andi main_v3 main_v7
  let main_v9 : FVec F S1100000x1 .f32 := Host.absf main_arg4
  let main_cst_2 : FVec F S_ .f32 := constant S_ .f32 0x7F800000#32
  let main_v10 : FVec F S1100000x1 .f32 := broadcastInDim S1100000x1 ![] bcast_S_S1100000x1 main_cst_2
  let main_v11 : IVec S1100000x1 1 := cmpf .olt main_v9 main_v10
  let main_c_3 : IVec S_ 1 := constantI S_ 1 1#1
  let main_v12 : IVec S_ 1 := (fun x v => Host.reduce IntOp.andi x v reducesTo_S1100000x1_S_d0_1 h_S_) main_v11 main_c_3
  let main_v13 : IVec S_ 1 := andi main_v8 main_v12
  let main_v14 : FVec F S2x3x26x32 .f32 := Host.absf main_arg5
  let main_cst_4 : FVec F S_ .f32 := constant S_ .f32 0x7F800000#32
  let main_v15 : FVec F S2x3x26x32 .f32 := broadcastInDim S2x3x26x32 ![] bcast_S_S2x3x26x32 main_cst_4
  let main_v16 : IVec S2x3x26x32 1 := cmpf .olt main_v14 main_v15
  fn_part1 (F := F) main_arg1 main_arg2 main_arg6 main_arg7 main_arg8 main_arg9 main_arg10 main_arg11 main_arg12 main_arg13 main_arg14 main_arg15 main_arg16 main_v13 main_v16
-- ==== Kernel.lean ====
abbrev S100000x8 : Shape := ⟨2, ![100000, 8]⟩
abbrev S2x1100000 : Shape := ⟨2, ![2, 1100000]⟩
abbrev S1100000x1 : Shape := ⟨2, ![1100000, 1]⟩
abbrev S2x3x26x32 : Shape := ⟨4, ![2, 3, 26, 32]⟩
abbrev S2x3x32 : Shape := ⟨3, ![2, 3, 32]⟩
abbrev S2x3x32x1 : Shape := ⟨4, ![2, 3, 32, 1]⟩
abbrev S2x3x1 : Shape := ⟨3, ![2, 3, 1]⟩
abbrev S2x3x17x32 : Shape := ⟨4, ![2, 3, 17, 32]⟩
abbrev S2x3x32x8 : Shape := ⟨4, ![2, 3, 32, 8]⟩
abbrev S2x3x8 : Shape := ⟨3, ![2, 3, 8]⟩
abbrev S1x1100000 : Shape := ⟨2, ![1, 1100000]⟩
abbrev S1100000 : Shape := ⟨1, ![1100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S1100000x8 : Shape := ⟨2, ![1100000, 8]⟩
abbrev S1x8 : Shape := ⟨2, ![1, 8]⟩
abbrev S1x1x26x32 : Shape := ⟨4, ![1, 1, 26, 32]⟩
abbrev S26x32 : Shape := ⟨2, ![26, 32]⟩
abbrev S1x1x32 : Shape := ⟨3, ![1, 1, 32]⟩
abbrev S32 : Shape := ⟨1, ![32]⟩
abbrev S1x1x32x1 : Shape := ⟨4, ![1, 1, 32, 1]⟩
abbrev S32x1 : Shape := ⟨2, ![32, 1]⟩
abbrev S1x1x1 : Shape := ⟨3, ![1, 1, 1]⟩
abbrev S1x1x17x32 : Shape := ⟨4, ![1, 1, 17, 32]⟩
abbrev S17x32 : Shape := ⟨2, ![17, 32]⟩
abbrev S1x1x32x8 : Shape := ⟨4, ![1, 1, 32, 8]⟩
abbrev S32x8 : Shape := ⟨2, ![32, 8]⟩
abbrev S1x1x8 : Shape := ⟨3, ![1, 1, 8]⟩
abbrev S8 : Shape := ⟨1, ![8]⟩
abbrev S1100000x2 : Shape := ⟨2, ![1100000, 2]⟩
abbrev S8x32 : Shape := ⟨2, ![8, 32]⟩
abbrev S2x32 : Shape := ⟨2, ![2, 32]⟩
abbrev S1x32 : Shape := ⟨2, ![1, 32]⟩
abbrev S1105920x8 : Shape := ⟨2, ![1105920, 8]⟩
abbrev S1105920x2 : Shape := ⟨2, ![1105920, 2]⟩
abbrev S1105920x1 : Shape := ⟨2, ![1105920, 1]⟩
abbrev S8192x8 : Shape := ⟨2, ![8192, 8]⟩
abbrev S8192x2 : Shape := ⟨2, ![8192, 2]⟩
abbrev S8192x1 : Shape := ⟨2, ![8192, 1]⟩
abbrev S8192x32 : Shape := ⟨2, ![8192, 32]⟩
abbrev S106496x8 : Shape := ⟨2, ![106496, 8]⟩
abbrev S106496x1 : Shape := ⟨2, ![106496, 1]⟩
abbrev S1x17 : Shape := ⟨2, ![1, 17]⟩
abbrev S2200000 : Shape := ⟨1, ![2200000]⟩

abbrev nBuf : Space → Nat
  | .hbm => 790
  | .vmem => 150
  | .smem => 0
  | _ => 0

abbrev hbmTy0_0 (i : Nat) : BufTy := match i % 128 with
  | 0 => ⟨S100000x8, .f32⟩
  | 1 => ⟨S2x1100000, .i32⟩
  | 2 => ⟨S2x1100000, .i32⟩
  | 3 => ⟨S1100000x1, .f32⟩
  | 4 => ⟨S1100000x1, .f32⟩
  | 5 => ⟨S2x3x26x32, .f32⟩
  | 6 => ⟨S2x3x32, .f32⟩
  | 7 => ⟨S2x3x32x1, .f32⟩
  | 8 => ⟨S2x3x1, .f32⟩
  | 9 => ⟨S2x3x17x32, .f32⟩
  | 10 => ⟨S2x3x32, .f32⟩
  | 11 => ⟨S2x3x32x8, .f32⟩
  | 12 => ⟨S2x3x8, .f32⟩
  | 13 => ⟨S2x3x17x32, .f32⟩
  | 14 => ⟨S2x3x32, .f32⟩
  | 15 => ⟨S2x3x32x8, .f32⟩
  | 16 => ⟨S2x3x8, .f32⟩
  | 17 => ⟨S1x1100000, .i32⟩
  | 18 => ⟨S1100000, .i32⟩
  | 19 => ⟨S1x1100000, .i32⟩
  | 20 => ⟨S1100000, .i32⟩
  | 21 => ⟨S1x1100000, .i32⟩
  | 22 => ⟨S1100000, .i32⟩
  | 23 => ⟨S1x1100000, .i32⟩
  | 24 => ⟨S1100000, .i32⟩
  | 25 => ⟨S_, .f32⟩
  | 26 => ⟨S1100000x1, .f32⟩
  | 27 => ⟨S_, .f32⟩
  | 28 => ⟨S1100000x1, .f32⟩
  | 29 => ⟨S_, .f32⟩
  | 30 => ⟨S100000x1, .f32⟩
  | 31 => ⟨S1100000x1, .i32⟩
  | 32 => ⟨S100000x1, .f32⟩
  | 33 => ⟨S_, .f32⟩
  | 34 => ⟨S100000x1, .f32⟩
  | 35 => ⟨S100000x1, .f32⟩
  | 36 => ⟨S_, .f32⟩
  | 37 => ⟨S100000x1, .f32⟩
  | 38 => ⟨S100000x1, .f32⟩
  | 39 => ⟨S_, .f32⟩
  | 40 => ⟨S100000x1, .f32⟩
  | 41 => ⟨S1100000x1, .i32⟩
  | 42 => ⟨S100000x1, .f32⟩
  | 43 => ⟨S_, .f32⟩
  | 44 => ⟨S100000x1, .f32⟩
  | 45 => ⟨S100000x1, .f32⟩
  | 46 => ⟨S_, .f32⟩
  | 47 => ⟨S100000x1, .f32⟩
  | 48 => ⟨S100000x1, .f32⟩
  | 49 => ⟨S100000x8, .bf16⟩
  | 50 => ⟨S_, .i32⟩
  | 51 => ⟨S1100000, .i32⟩
  | 52 => ⟨S1100000, .i1⟩
  | 53 => ⟨S_, .i32⟩
  | 54 => ⟨S1100000, .i32⟩
  | 55 => ⟨S1100000, .i32⟩
  | 56 => ⟨S1100000, .i32⟩
  | 57 => ⟨S1100000x1, .i32⟩
  | 58 => ⟨S1, .i32⟩
  | 59 => ⟨S_, .i32⟩
  | 60 => ⟨S1100000x1, .i32⟩
  | 61 => ⟨S1100000x1, .i1⟩
  | 62 => ⟨S1x1, .i32⟩
  | 63 => ⟨S1100000x1, .i32⟩
  | 64 => ⟨S1100000x1, .i1⟩
  | 65 => ⟨S1100000x1, .i1⟩
  | 66 => ⟨S_, .i1⟩
  | 67 => ⟨S1100000, .i1⟩
  | 68 => ⟨S1100000x8, .f32⟩
  | 69 => ⟨S1100000x8, .i1⟩
  | 70 => ⟨S_, .f32⟩
  | 71 => ⟨S1100000x8, .f32⟩
  | 72 => ⟨S1100000x8, .f32⟩
  | 73 => ⟨S1100000x8, .bf16⟩
  | 74 => ⟨S_, .i32⟩
  | 75 => ⟨S1100000, .i32⟩
  | 76 => ⟨S1100000, .i1⟩
  | 77 => ⟨S_, .i32⟩
  | 78 => ⟨S1100000, .i32⟩
  | 79 => ⟨S1100000, .i32⟩
  | 80 => ⟨S1100000, .i32⟩
  | 81 => ⟨S1100000x1, .i32⟩
  | 82 => ⟨S1, .i32⟩
  | 83 => ⟨S_, .i32⟩
  | 84 => ⟨S1100000x1, .i32⟩
  | 85 => ⟨S1100000x1, .i1⟩
  | 86 => ⟨S1x1, .i32⟩
  | 87 => ⟨S1100000x1, .i32⟩
  | 88 => ⟨S1100000x1, .i1⟩
  | 89 => ⟨S1100000x1, .i1⟩
  | 90 => ⟨S_, .i1⟩
  | 91 => ⟨S1100000, .i1⟩
  | 92 => ⟨S1100000x8, .f32⟩
  | 93 => ⟨S1100000x8, .i1⟩
  | 94 => ⟨S_, .f32⟩
  | 95 => ⟨S1100000x8, .f32⟩
  | 96 => ⟨S1100000x8, .f32⟩
  | 97 => ⟨S1100000x8, .bf16⟩
  | 98 => ⟨S_, .f32⟩
  | 99 => ⟨S1x8, .f32⟩
  | 100 => ⟨S_, .f32⟩
  | 101 => ⟨S1100000x1, .f32⟩
  | 102 => ⟨S_, .f32⟩
  | 103 => ⟨S1100000x1, .f32⟩
  | 104 => ⟨S1x1x26x32, .f32⟩
  | 105 => ⟨S26x32, .f32⟩
  | 106 => ⟨S1x1x32, .f32⟩
  | 107 => ⟨S32, .f32⟩
  | 108 => ⟨S1x1x32x1, .f32⟩
  | 109 => ⟨S32x1, .f32⟩
  | 110 => ⟨S1x1x1, .f32⟩
  | 111 => ⟨S1, .f32⟩
  | 112 => ⟨S1x1x17x32, .f32⟩
  | 113 => ⟨S17x32, .f32⟩
  | 114 => ⟨S1x1x32, .f32⟩
  | 115 => ⟨S32, .f32⟩
  | 116 => ⟨S1x1x32x8, .f32⟩
  | 117 => ⟨S32x8, .f32⟩
  | 118 => ⟨S1x1x8, .f32⟩
  | 119 => ⟨S8, .f32⟩
  | 120 => ⟨S1x1x17x32, .f32⟩
  | 121 => ⟨S17x32, .f32⟩
  | 122 => ⟨S1x1x32, .f32⟩
  | 123 => ⟨S32, .f32⟩
  | 124 => ⟨S1x1x32x8, .f32⟩
  | 125 => ⟨S32x8, .f32⟩
  | 126 => ⟨S1x1x8, .f32⟩
  | 127 => ⟨S8, .f32⟩
  | _ => ⟨S100000x8, .f32⟩

abbrev hbmTy0_1 (i : Nat) : BufTy := match i % 128 with
  | 0 => ⟨S1x1x26x32, .f32⟩
  | 1 => ⟨S26x32, .f32⟩
  | 2 => ⟨S1x1x32, .f32⟩
  | 3 => ⟨S32, .f32⟩
  | 4 => ⟨S1x1x32x1, .f32⟩
  | 5 => ⟨S32x1, .f32⟩
  | 6 => ⟨S1x1x1, .f32⟩
  | 7 => ⟨S1, .f32⟩
  | 8 => ⟨S1x1x17x32, .f32⟩
  | 9 => ⟨S17x32, .f32⟩
  | 10 => ⟨S1x1x32, .f32⟩
  | 11 => ⟨S32, .f32⟩
  | 12 => ⟨S1x1x32x8, .f32⟩
  | 13 => ⟨S32x8, .f32⟩
  | 14 => ⟨S1x1x8, .f32⟩
  | 15 => ⟨S8, .f32⟩
  | 16 => ⟨S1x1x17x32, .f32⟩
  | 17 => ⟨S17x32, .f32⟩
  | 18 => ⟨S1x1x32, .f32⟩
  | 19 => ⟨S32, .f32⟩
  | 20 => ⟨S1x1x32x8, .f32⟩
  | 21 => ⟨S32x8, .f32⟩
  | 22 => ⟨S1x1x8, .f32⟩
  | 23 => ⟨S8, .f32⟩
  | 24 => ⟨S1100000x2, .f32⟩
  | 25 => ⟨S1100000x2, .bf16⟩
  | 26 => ⟨S8x32, .f32⟩
  | 27 => ⟨S8x32, .f32⟩
  | 28 => ⟨S8x32, .f32⟩
  | 29 => ⟨S2x32, .f32⟩
  | 30 => ⟨S1x32, .f32⟩
  | 31 => ⟨S1x32, .f32⟩
  | 32 => ⟨S1x32, .f32⟩
  | 33 => ⟨S1x1, .f32⟩
  | 34 => ⟨S_, .i32⟩
  | 35 => ⟨S_, .bf16⟩
  | 36 => ⟨S1105920x8, .bf16⟩
  | 37 => ⟨S_, .i32⟩
  | 38 => ⟨S_, .bf16⟩
  | 39 => ⟨S1105920x8, .bf16⟩
  | 40 => ⟨S_, .i32⟩
  | 41 => ⟨S_, .bf16⟩
  | 42 => ⟨S1105920x2, .bf16⟩
  | 43 => ⟨S1105920x1, .f32⟩
  | 44 => ⟨S1100000x1, .f32⟩
  | 45 => ⟨S_, .f32⟩
  | 46 => ⟨S100000x1, .f32⟩
  | 47 => ⟨S1100000x1, .i32⟩
  | 48 => ⟨S100000x1, .f32⟩
  | 49 => ⟨S100000x1, .f32⟩
  | 50 => ⟨S100000x1, .bf16⟩
  | 51 => ⟨S8x32, .f32⟩
  | 52 => ⟨S8x32, .f32⟩
  | 53 => ⟨S1x32, .f32⟩
  | 54 => ⟨S1x32, .f32⟩
  | 55 => ⟨S1x32, .f32⟩
  | 56 => ⟨S1x32, .f32⟩
  | 57 => ⟨S1x8, .f32⟩
  | 58 => ⟨S_, .i32⟩
  | 59 => ⟨S_, .bf16⟩
  | 60 => ⟨S106496x8, .bf16⟩
  | 61 => ⟨S_, .i32⟩
  | 62 => ⟨S_, .bf16⟩
  | 63 => ⟨S106496x1, .bf16⟩
  | 64 => ⟨S106496x8, .f32⟩
  | 65 => ⟨S100000x8, .f32⟩
  | 66 => ⟨S_, .f32⟩
  | 67 => ⟨S8, .f32⟩
  | 68 => ⟨S1x8, .f32⟩
  | 69 => ⟨S_, .f32⟩
  | 70 => ⟨S1x8, .f32⟩
  | 71 => ⟨S1x8, .f32⟩
  | 72 => ⟨S_, .f32⟩
  | 73 => ⟨S1, .f32⟩
  | 74 => ⟨S1x1, .f32⟩
  | 75 => ⟨S_, .f32⟩
  | 76 => ⟨S1x1, .f32⟩
  | 77 => ⟨S1x1, .f32⟩
  | 78 => ⟨S1x17, .f32⟩
  | 79 => ⟨S1x32, .f32⟩
  | 80 => ⟨S1x8, .f32⟩
  | 81 => ⟨S1x32, .f32⟩
  | 82 => ⟨S1x32, .f32⟩
  | 83 => ⟨S_, .f32⟩
  | 84 => ⟨S1x32, .f32⟩
  | 85 => ⟨S1x32, .f32⟩
  | 86 => ⟨S1x8, .f32⟩
  | 87 => ⟨S1x8, .f32⟩
  | 88 => ⟨S1100000x2, .f32⟩
  | 89 => ⟨S100000x8, .bf16⟩
  | 90 => ⟨S_, .i32⟩
  | 91 => ⟨S1100000, .i32⟩
  | 92 => ⟨S1100000, .i1⟩
  | 93 => ⟨S_, .i32⟩
  | 94 => ⟨S1100000, .i32⟩
  | 95 => ⟨S1100000, .i32⟩
  | 96 => ⟨S1100000, .i32⟩
  | 97 => ⟨S1100000x1, .i32⟩
  | 98 => ⟨S1, .i32⟩
  | 99 => ⟨S_, .i32⟩
  | 100 => ⟨S1100000x1, .i32⟩
  | 101 => ⟨S1100000x1, .i1⟩
  | 102 => ⟨S1x1, .i32⟩
  | 103 => ⟨S1100000x1, .i32⟩
  | 104 => ⟨S1100000x1, .i1⟩
  | 105 => ⟨S1100000x1, .i1⟩
  | 106 => ⟨S_, .i1⟩
  | 107 => ⟨S1100000, .i1⟩
  | 108 => ⟨S1100000x8, .f32⟩
  | 109 => ⟨S1100000x8, .i1⟩
  | 110 => ⟨S_, .f32⟩
  | 111 => ⟨S1100000x8, .f32⟩
  | 112 => ⟨S1100000x8, .f32⟩
  | 113 => ⟨S1100000x8, .bf16⟩
  | 114 => ⟨S_, .i32⟩
  | 115 => ⟨S1100000, .i32⟩
  | 116 => ⟨S1100000, .i1⟩
  | 117 => ⟨S_, .i32⟩
  | 118 => ⟨S1100000, .i32⟩
  | 119 => ⟨S1100000, .i32⟩
  | 120 => ⟨S1100000, .i32⟩
  | 121 => ⟨S1100000x1, .i32⟩
  | 122 => ⟨S1, .i32⟩
  | 123 => ⟨S_, .i32⟩
  | 124 => ⟨S1100000x1, .i32⟩
  | 125 => ⟨S1100000x1, .i1⟩
  | 126 => ⟨S1x1, .i32⟩
  | 127 => ⟨S1100000x1, .i32⟩
  | _ => ⟨S100000x8, .f32⟩

abbrev hbmTy0_2 (i : Nat) : BufTy := match i % 128 with
  | 0 => ⟨S1100000x1, .i1⟩
  | 1 => ⟨S1100000x1, .i1⟩
  | 2 => ⟨S_, .i1⟩
  | 3 => ⟨S1100000, .i1⟩
  | 4 => ⟨S1100000x8, .f32⟩
  | 5 => ⟨S1100000x8, .i1⟩
  | 6 => ⟨S_, .f32⟩
  | 7 => ⟨S1100000x8, .f32⟩
  | 8 => ⟨S1100000x8, .f32⟩
  | 9 => ⟨S1100000x8, .bf16⟩
  | 10 => ⟨S1100000x2, .bf16⟩
  | 11 => ⟨S8x32, .f32⟩
  | 12 => ⟨S8x32, .f32⟩
  | 13 => ⟨S8x32, .f32⟩
  | 14 => ⟨S2x32, .f32⟩
  | 15 => ⟨S1x32, .f32⟩
  | 16 => ⟨S1x32, .f32⟩
  | 17 => ⟨S1x32, .f32⟩
  | 18 => ⟨S1x1, .f32⟩
  | 19 => ⟨S_, .i32⟩
  | 20 => ⟨S_, .bf16⟩
  | 21 => ⟨S1105920x8, .bf16⟩
  | 22 => ⟨S_, .i32⟩
  | 23 => ⟨S_, .bf16⟩
  | 24 => ⟨S1105920x8, .bf16⟩
  | 25 => ⟨S_, .i32⟩
  | 26 => ⟨S_, .bf16⟩
  | 27 => ⟨S1105920x2, .bf16⟩
  | 28 => ⟨S1105920x1, .f32⟩
  | 29 => ⟨S1100000x1, .f32⟩
  | 30 => ⟨S_, .f32⟩
  | 31 => ⟨S100000x1, .f32⟩
  | 32 => ⟨S1100000x1, .i32⟩
  | 33 => ⟨S100000x1, .f32⟩
  | 34 => ⟨S100000x1, .f32⟩
  | 35 => ⟨S100000x1, .bf16⟩
  | 36 => ⟨S8x32, .f32⟩
  | 37 => ⟨S8x32, .f32⟩
  | 38 => ⟨S1x32, .f32⟩
  | 39 => ⟨S1x32, .f32⟩
  | 40 => ⟨S1x32, .f32⟩
  | 41 => ⟨S1x32, .f32⟩
  | 42 => ⟨S1x8, .f32⟩
  | 43 => ⟨S_, .i32⟩
  | 44 => ⟨S_, .bf16⟩
  | 45 => ⟨S106496x8, .bf16⟩
  | 46 => ⟨S_, .i32⟩
  | 47 => ⟨S_, .bf16⟩
  | 48 => ⟨S106496x1, .bf16⟩
  | 49 => ⟨S106496x8, .f32⟩
  | 50 => ⟨S100000x8, .f32⟩
  | 51 => ⟨S_, .f32⟩
  | 52 => ⟨S8, .f32⟩
  | 53 => ⟨S1x8, .f32⟩
  | 54 => ⟨S_, .f32⟩
  | 55 => ⟨S1x8, .f32⟩
  | 56 => ⟨S1x8, .f32⟩
  | 57 => ⟨S_, .f32⟩
  | 58 => ⟨S1, .f32⟩
  | 59 => ⟨S1x1, .f32⟩
  | 60 => ⟨S_, .f32⟩
  | 61 => ⟨S1x1, .f32⟩
  | 62 => ⟨S1x1, .f32⟩
  | 63 => ⟨S1x17, .f32⟩
  | 64 => ⟨S1x32, .f32⟩
  | 65 => ⟨S1x8, .f32⟩
  | 66 => ⟨S1x32, .f32⟩
  | 67 => ⟨S1x32, .f32⟩
  | 68 => ⟨S_, .f32⟩
  | 69 => ⟨S1x32, .f32⟩
  | 70 => ⟨S1x32, .f32⟩
  | 71 => ⟨S1x8, .f32⟩
  | 72 => ⟨S1x8, .f32⟩
  | 73 => ⟨S1x1x26x32, .f32⟩
  | 74 => ⟨S26x32, .f32⟩
  | 75 => ⟨S1x1x32, .f32⟩
  | 76 => ⟨S32, .f32⟩
  | 77 => ⟨S1x1x32x1, .f32⟩
  | 78 => ⟨S32x1, .f32⟩
  | 79 => ⟨S1x1x1, .f32⟩
  | 80 => ⟨S1, .f32⟩
  | 81 => ⟨S1x1x17x32, .f32⟩
  | 82 => ⟨S17x32, .f32⟩
  | 83 => ⟨S1x1x32, .f32⟩
  | 84 => ⟨S32, .f32⟩
  | 85 => ⟨S1x1x32x8, .f32⟩
  | 86 => ⟨S32x8, .f32⟩
  | 87 => ⟨S1x1x8, .f32⟩
  | 88 => ⟨S8, .f32⟩
  | 89 => ⟨S1x1x17x32, .f32⟩
  | 90 => ⟨S17x32, .f32⟩
  | 91 => ⟨S1x1x32, .f32⟩
  | 92 => ⟨S32, .f32⟩
  | 93 => ⟨S1x1x32x8, .f32⟩
  | 94 => ⟨S32x8, .f32⟩
  | 95 => ⟨S1x1x8, .f32⟩
  | 96 => ⟨S8, .f32⟩
  | 97 => ⟨S1x1x26x32, .f32⟩
  | 98 => ⟨S26x32, .f32⟩
  | 99 => ⟨S1x1x32, .f32⟩
  | 100 => ⟨S32, .f32⟩
  | 101 => ⟨S1x1x32x1, .f32⟩
  | 102 => ⟨S32x1, .f32⟩
  | 103 => ⟨S1x1x1, .f32⟩
  | 104 => ⟨S1, .f32⟩
  | 105 => ⟨S1x1x17x32, .f32⟩
  | 106 => ⟨S17x32, .f32⟩
  | 107 => ⟨S1x1x32, .f32⟩
  | 108 => ⟨S32, .f32⟩
  | 109 => ⟨S1x1x32x8, .f32⟩
  | 110 => ⟨S32x8, .f32⟩
  | 111 => ⟨S1x1x8, .f32⟩
  | 112 => ⟨S8, .f32⟩
  | 113 => ⟨S1x1x17x32, .f32⟩
  | 114 => ⟨S17x32, .f32⟩
  | 115 => ⟨S1x1x32, .f32⟩
  | 116 => ⟨S32, .f32⟩
  | 117 => ⟨S1x1x32x8, .f32⟩
  | 118 => ⟨S32x8, .f32⟩
  | 119 => ⟨S1x1x8, .f32⟩
  | 120 => ⟨S8, .f32⟩
  | 121 => ⟨S1100000x2, .f32⟩
  | 122 => ⟨S1100000x2, .bf16⟩
  | 123 => ⟨S8x32, .f32⟩
  | 124 => ⟨S8x32, .f32⟩
  | 125 => ⟨S8x32, .f32⟩
  | 126 => ⟨S2x32, .f32⟩
  | 127 => ⟨S1x32, .f32⟩
  | _ => ⟨S100000x8, .f32⟩

abbrev hbmTy0_3 (i : Nat) : BufTy := match i % 128 with
  | 0 => ⟨S1x32, .f32⟩
  | 1 => ⟨S1x32, .f32⟩
  | 2 => ⟨S1x1, .f32⟩
  | 3 => ⟨S_, .i32⟩
  | 4 => ⟨S_, .bf16⟩
  | 5 => ⟨S1105920x8, .bf16⟩
  | 6 => ⟨S_, .i32⟩
  | 7 => ⟨S_, .bf16⟩
  | 8 => ⟨S1105920x8, .bf16⟩
  | 9 => ⟨S_, .i32⟩
  | 10 => ⟨S_, .bf16⟩
  | 11 => ⟨S1105920x2, .bf16⟩
  | 12 => ⟨S1105920x1, .f32⟩
  | 13 => ⟨S1100000x1, .f32⟩
  | 14 => ⟨S_, .f32⟩
  | 15 => ⟨S100000x1, .f32⟩
  | 16 => ⟨S1100000x1, .i32⟩
  | 17 => ⟨S100000x1, .f32⟩
  | 18 => ⟨S100000x1, .f32⟩
  | 19 => ⟨S100000x1, .bf16⟩
  | 20 => ⟨S8x32, .f32⟩
  | 21 => ⟨S8x32, .f32⟩
  | 22 => ⟨S1x32, .f32⟩
  | 23 => ⟨S1x32, .f32⟩
  | 24 => ⟨S1x32, .f32⟩
  | 25 => ⟨S1x32, .f32⟩
  | 26 => ⟨S1x8, .f32⟩
  | 27 => ⟨S_, .i32⟩
  | 28 => ⟨S_, .bf16⟩
  | 29 => ⟨S106496x8, .bf16⟩
  | 30 => ⟨S_, .i32⟩
  | 31 => ⟨S_, .bf16⟩
  | 32 => ⟨S106496x1, .bf16⟩
  | 33 => ⟨S106496x8, .f32⟩
  | 34 => ⟨S100000x8, .f32⟩
  | 35 => ⟨S_, .f32⟩
  | 36 => ⟨S8, .f32⟩
  | 37 => ⟨S1x8, .f32⟩
  | 38 => ⟨S_, .f32⟩
  | 39 => ⟨S1x8, .f32⟩
  | 40 => ⟨S1x8, .f32⟩
  | 41 => ⟨S_, .f32⟩
  | 42 => ⟨S1, .f32⟩
  | 43 => ⟨S1x1, .f32⟩
  | 44 => ⟨S_, .f32⟩
  | 45 => ⟨S1x1, .f32⟩
  | 46 => ⟨S1x1, .f32⟩
  | 47 => ⟨S1x17, .f32⟩
  | 48 => ⟨S1x32, .f32⟩
  | 49 => ⟨S1x8, .f32⟩
  | 50 => ⟨S1x32, .f32⟩
  | 51 => ⟨S1x32, .f32⟩
  | 52 => ⟨S_, .f32⟩
  | 53 => ⟨S1x32, .f32⟩
  | 54 => ⟨S1x32, .f32⟩
  | 55 => ⟨S1x8, .f32⟩
  | 56 => ⟨S1x8, .f32⟩
  | 57 => ⟨S1100000x2, .f32⟩
  | 58 => ⟨S100000x8, .bf16⟩
  | 59 => ⟨S_, .i32⟩
  | 60 => ⟨S1100000, .i32⟩
  | 61 => ⟨S1100000, .i1⟩
  | 62 => ⟨S_, .i32⟩
  | 63 => ⟨S1100000, .i32⟩
  | 64 => ⟨S1100000, .i32⟩
  | 65 => ⟨S1100000, .i32⟩
  | 66 => ⟨S1100000x1, .i32⟩
  | 67 => ⟨S1, .i32⟩
  | 68 => ⟨S_, .i32⟩
  | 69 => ⟨S1100000x1, .i32⟩
  | 70 => ⟨S1100000x1, .i1⟩
  | 71 => ⟨S1x1, .i32⟩
  | 72 => ⟨S1100000x1, .i32⟩
  | 73 => ⟨S1100000x1, .i1⟩
  | 74 => ⟨S1100000x1, .i1⟩
  | 75 => ⟨S_, .i1⟩
  | 76 => ⟨S1100000, .i1⟩
  | 77 => ⟨S1100000x8, .f32⟩
  | 78 => ⟨S1100000x8, .i1⟩
  | 79 => ⟨S_, .f32⟩
  | 80 => ⟨S1100000x8, .f32⟩
  | 81 => ⟨S1100000x8, .f32⟩
  | 82 => ⟨S1100000x8, .bf16⟩
  | 83 => ⟨S_, .i32⟩
  | 84 => ⟨S1100000, .i32⟩
  | 85 => ⟨S1100000, .i1⟩
  | 86 => ⟨S_, .i32⟩
  | 87 => ⟨S1100000, .i32⟩
  | 88 => ⟨S1100000, .i32⟩
  | 89 => ⟨S1100000, .i32⟩
  | 90 => ⟨S1100000x1, .i32⟩
  | 91 => ⟨S1, .i32⟩
  | 92 => ⟨S_, .i32⟩
  | 93 => ⟨S1100000x1, .i32⟩
  | 94 => ⟨S1100000x1, .i1⟩
  | 95 => ⟨S1x1, .i32⟩
  | 96 => ⟨S1100000x1, .i32⟩
  | 97 => ⟨S1100000x1, .i1⟩
  | 98 => ⟨S1100000x1, .i1⟩
  | 99 => ⟨S_, .i1⟩
  | 100 => ⟨S1100000, .i1⟩
  | 101 => ⟨S1100000x8, .f32⟩
  | 102 => ⟨S1100000x8, .i1⟩
  | 103 => ⟨S_, .f32⟩
  | 104 => ⟨S1100000x8, .f32⟩
  | 105 => ⟨S1100000x8, .f32⟩
  | 106 => ⟨S1100000x8, .bf16⟩
  | 107 => ⟨S1100000x2, .bf16⟩
  | 108 => ⟨S8x32, .f32⟩
  | 109 => ⟨S8x32, .f32⟩
  | 110 => ⟨S8x32, .f32⟩
  | 111 => ⟨S2x32, .f32⟩
  | 112 => ⟨S1x32, .f32⟩
  | 113 => ⟨S1x32, .f32⟩
  | 114 => ⟨S1x32, .f32⟩
  | 115 => ⟨S1x1, .f32⟩
  | 116 => ⟨S_, .i32⟩
  | 117 => ⟨S_, .bf16⟩
  | 118 => ⟨S1105920x8, .bf16⟩
  | 119 => ⟨S_, .i32⟩
  | 120 => ⟨S_, .bf16⟩
  | 121 => ⟨S1105920x8, .bf16⟩
  | 122 => ⟨S_, .i32⟩
  | 123 => ⟨S_, .bf16⟩
  | 124 => ⟨S1105920x2, .bf16⟩
  | 125 => ⟨S1105920x1, .f32⟩
  | 126 => ⟨S1100000x1, .f32⟩
  | 127 => ⟨S_, .f32⟩
  | _ => ⟨S100000x8, .f32⟩

abbrev hbmTy0_4 (i : Nat) : BufTy := match i % 128 with
  | 0 => ⟨S100000x1, .f32⟩
  | 1 => ⟨S1100000x1, .i32⟩
  | 2 => ⟨S100000x1, .f32⟩
  | 3 => ⟨S100000x1, .f32⟩
  | 4 => ⟨S100000x1, .bf16⟩
  | 5 => ⟨S8x32, .f32⟩
  | 6 => ⟨S8x32, .f32⟩
  | 7 => ⟨S1x32, .f32⟩
  | 8 => ⟨S1x32, .f32⟩
  | 9 => ⟨S1x32, .f32⟩
  | 10 => ⟨S1x32, .f32⟩
  | 11 => ⟨S1x8, .f32⟩
  | 12 => ⟨S_, .i32⟩
  | 13 => ⟨S_, .bf16⟩
  | 14 => ⟨S106496x8, .bf16⟩
  | 15 => ⟨S_, .i32⟩
  | 16 => ⟨S_, .bf16⟩
  | 17 => ⟨S106496x1, .bf16⟩
  | 18 => ⟨S106496x8, .f32⟩
  | 19 => ⟨S100000x8, .f32⟩
  | 20 => ⟨S_, .f32⟩
  | 21 => ⟨S8, .f32⟩
  | 22 => ⟨S1x8, .f32⟩
  | 23 => ⟨S_, .f32⟩
  | 24 => ⟨S1x8, .f32⟩
  | 25 => ⟨S1x8, .f32⟩
  | 26 => ⟨S_, .f32⟩
  | 27 => ⟨S1, .f32⟩
  | 28 => ⟨S1x1, .f32⟩
  | 29 => ⟨S_, .f32⟩
  | 30 => ⟨S1x1, .f32⟩
  | 31 => ⟨S1x1, .f32⟩
  | 32 => ⟨S1x17, .f32⟩
  | 33 => ⟨S1x32, .f32⟩
  | 34 => ⟨S1x8, .f32⟩
  | 35 => ⟨S1x32, .f32⟩
  | 36 => ⟨S1x32, .f32⟩
  | 37 => ⟨S_, .f32⟩
  | 38 => ⟨S1x32, .f32⟩
  | 39 => ⟨S1x32, .f32⟩
  | 40 => ⟨S1x8, .f32⟩
  | 41 => ⟨S1x8, .f32⟩
  | 42 => ⟨S1x1x26x32, .f32⟩
  | 43 => ⟨S26x32, .f32⟩
  | 44 => ⟨S1x1x32, .f32⟩
  | 45 => ⟨S32, .f32⟩
  | 46 => ⟨S1x1x32x1, .f32⟩
  | 47 => ⟨S32x1, .f32⟩
  | 48 => ⟨S1x1x1, .f32⟩
  | 49 => ⟨S1, .f32⟩
  | 50 => ⟨S1x1x17x32, .f32⟩
  | 51 => ⟨S17x32, .f32⟩
  | 52 => ⟨S1x1x32, .f32⟩
  | 53 => ⟨S32, .f32⟩
  | 54 => ⟨S1x1x32x8, .f32⟩
  | 55 => ⟨S32x8, .f32⟩
  | 56 => ⟨S1x1x8, .f32⟩
  | 57 => ⟨S8, .f32⟩
  | 58 => ⟨S1x1x17x32, .f32⟩
  | 59 => ⟨S17x32, .f32⟩
  | 60 => ⟨S1x1x32, .f32⟩
  | 61 => ⟨S32, .f32⟩
  | 62 => ⟨S1x1x32x8, .f32⟩
  | 63 => ⟨S32x8, .f32⟩
  | 64 => ⟨S1x1x8, .f32⟩
  | 65 => ⟨S8, .f32⟩
  | 66 => ⟨S1x1x26x32, .f32⟩
  | 67 => ⟨S26x32, .f32⟩
  | 68 => ⟨S1x1x32, .f32⟩
  | 69 => ⟨S32, .f32⟩
  | 70 => ⟨S1x1x32x1, .f32⟩
  | 71 => ⟨S32x1, .f32⟩
  | 72 => ⟨S1x1x1, .f32⟩
  | 73 => ⟨S1, .f32⟩
  | 74 => ⟨S1x1x17x32, .f32⟩
  | 75 => ⟨S17x32, .f32⟩
  | 76 => ⟨S1x1x32, .f32⟩
  | 77 => ⟨S32, .f32⟩
  | 78 => ⟨S1x1x32x8, .f32⟩
  | 79 => ⟨S32x8, .f32⟩
  | 80 => ⟨S1x1x8, .f32⟩
  | 81 => ⟨S8, .f32⟩
  | 82 => ⟨S1x1x17x32, .f32⟩
  | 83 => ⟨S17x32, .f32⟩
  | 84 => ⟨S1x1x32, .f32⟩
  | 85 => ⟨S32, .f32⟩
  | 86 => ⟨S1x1x32x8, .f32⟩
  | 87 => ⟨S32x8, .f32⟩
  | 88 => ⟨S1x1x8, .f32⟩
  | 89 => ⟨S8, .f32⟩
  | 90 => ⟨S1100000x2, .f32⟩
  | 91 => ⟨S1100000x2, .bf16⟩
  | 92 => ⟨S8x32, .f32⟩
  | 93 => ⟨S8x32, .f32⟩
  | 94 => ⟨S8x32, .f32⟩
  | 95 => ⟨S2x32, .f32⟩
  | 96 => ⟨S1x32, .f32⟩
  | 97 => ⟨S1x32, .f32⟩
  | 98 => ⟨S1x32, .f32⟩
  | 99 => ⟨S1x1, .f32⟩
  | 100 => ⟨S_, .i32⟩
  | 101 => ⟨S_, .bf16⟩
  | 102 => ⟨S1105920x8, .bf16⟩
  | 103 => ⟨S_, .i32⟩
  | 104 => ⟨S_, .bf16⟩
  | 105 => ⟨S1105920x8, .bf16⟩
  | 106 => ⟨S_, .i32⟩
  | 107 => ⟨S_, .bf16⟩
  | 108 => ⟨S1105920x2, .bf16⟩
  | 109 => ⟨S1105920x1, .f32⟩
  | 110 => ⟨S1100000x1, .f32⟩
  | 111 => ⟨S_, .f32⟩
  | 112 => ⟨S100000x1, .f32⟩
  | 113 => ⟨S1100000x1, .i32⟩
  | 114 => ⟨S100000x1, .f32⟩
  | 115 => ⟨S100000x1, .f32⟩
  | 116 => ⟨S100000x1, .bf16⟩
  | 117 => ⟨S8x32, .f32⟩
  | 118 => ⟨S8x32, .f32⟩
  | 119 => ⟨S1x32, .f32⟩
  | 120 => ⟨S1x32, .f32⟩
  | 121 => ⟨S1x32, .f32⟩
  | 122 => ⟨S1x32, .f32⟩
  | 123 => ⟨S1x8, .f32⟩
  | 124 => ⟨S_, .i32⟩
  | 125 => ⟨S_, .bf16⟩
  | 126 => ⟨S106496x8, .bf16⟩
  | 127 => ⟨S_, .i32⟩
  | _ => ⟨S100000x8, .f32⟩

abbrev hbmTy0_5 (i : Nat) : BufTy := match i % 128 with
  | 0 => ⟨S_, .bf16⟩
  | 1 => ⟨S106496x1, .bf16⟩
  | 2 => ⟨S106496x8, .f32⟩
  | 3 => ⟨S100000x8, .f32⟩
  | 4 => ⟨S_, .f32⟩
  | 5 => ⟨S8, .f32⟩
  | 6 => ⟨S1x8, .f32⟩
  | 7 => ⟨S_, .f32⟩
  | 8 => ⟨S1x8, .f32⟩
  | 9 => ⟨S1x8, .f32⟩
  | 10 => ⟨S_, .f32⟩
  | 11 => ⟨S1, .f32⟩
  | 12 => ⟨S1x1, .f32⟩
  | 13 => ⟨S_, .f32⟩
  | 14 => ⟨S1x1, .f32⟩
  | 15 => ⟨S1x1, .f32⟩
  | 16 => ⟨S1x17, .f32⟩
  | 17 => ⟨S1x32, .f32⟩
  | 18 => ⟨S1x8, .f32⟩
  | 19 => ⟨S1x32, .f32⟩
  | 20 => ⟨S1x32, .f32⟩
  | 21 => ⟨S_, .f32⟩
  | 22 => ⟨S1x32, .f32⟩
  | 23 => ⟨S1x32, .f32⟩
  | 24 => ⟨S1x8, .f32⟩
  | 25 => ⟨S1x8, .f32⟩
  | 26 => ⟨S1100000x2, .f32⟩
  | 27 => ⟨S100000x8, .bf16⟩
  | 28 => ⟨S_, .i32⟩
  | 29 => ⟨S1100000, .i32⟩
  | 30 => ⟨S1100000, .i1⟩
  | 31 => ⟨S_, .i32⟩
  | 32 => ⟨S1100000, .i32⟩
  | 33 => ⟨S1100000, .i32⟩
  | 34 => ⟨S1100000, .i32⟩
  | 35 => ⟨S1100000x1, .i32⟩
  | 36 => ⟨S1, .i32⟩
  | 37 => ⟨S_, .i32⟩
  | 38 => ⟨S1100000x1, .i32⟩
  | 39 => ⟨S1100000x1, .i1⟩
  | 40 => ⟨S1x1, .i32⟩
  | 41 => ⟨S1100000x1, .i32⟩
  | 42 => ⟨S1100000x1, .i1⟩
  | 43 => ⟨S1100000x1, .i1⟩
  | 44 => ⟨S_, .i1⟩
  | 45 => ⟨S1100000, .i1⟩
  | 46 => ⟨S1100000x8, .f32⟩
  | 47 => ⟨S1100000x8, .i1⟩
  | 48 => ⟨S_, .f32⟩
  | 49 => ⟨S1100000x8, .f32⟩
  | 50 => ⟨S1100000x8, .f32⟩
  | 51 => ⟨S1100000x8, .bf16⟩
  | 52 => ⟨S_, .i32⟩
  | 53 => ⟨S1100000, .i32⟩
  | 54 => ⟨S1100000, .i1⟩
  | 55 => ⟨S_, .i32⟩
  | 56 => ⟨S1100000, .i32⟩
  | 57 => ⟨S1100000, .i32⟩
  | 58 => ⟨S1100000, .i32⟩
  | 59 => ⟨S1100000x1, .i32⟩
  | 60 => ⟨S1, .i32⟩
  | 61 => ⟨S_, .i32⟩
  | 62 => ⟨S1100000x1, .i32⟩
  | 63 => ⟨S1100000x1, .i1⟩
  | 64 => ⟨S1x1, .i32⟩
  | 65 => ⟨S1100000x1, .i32⟩
  | 66 => ⟨S1100000x1, .i1⟩
  | 67 => ⟨S1100000x1, .i1⟩
  | 68 => ⟨S_, .i1⟩
  | 69 => ⟨S1100000, .i1⟩
  | 70 => ⟨S1100000x8, .f32⟩
  | 71 => ⟨S1100000x8, .i1⟩
  | 72 => ⟨S_, .f32⟩
  | 73 => ⟨S1100000x8, .f32⟩
  | 74 => ⟨S1100000x8, .f32⟩
  | 75 => ⟨S1100000x8, .bf16⟩
  | 76 => ⟨S1100000x2, .bf16⟩
  | 77 => ⟨S8x32, .f32⟩
  | 78 => ⟨S8x32, .f32⟩
  | 79 => ⟨S8x32, .f32⟩
  | 80 => ⟨S2x32, .f32⟩
  | 81 => ⟨S1x32, .f32⟩
  | 82 => ⟨S1x32, .f32⟩
  | 83 => ⟨S1x32, .f32⟩
  | 84 => ⟨S1x1, .f32⟩
  | 85 => ⟨S_, .i32⟩
  | 86 => ⟨S_, .bf16⟩
  | 87 => ⟨S1105920x8, .bf16⟩
  | 88 => ⟨S_, .i32⟩
  | 89 => ⟨S_, .bf16⟩
  | 90 => ⟨S1105920x8, .bf16⟩
  | 91 => ⟨S_, .i32⟩
  | 92 => ⟨S_, .bf16⟩
  | 93 => ⟨S1105920x2, .bf16⟩
  | 94 => ⟨S1105920x1, .f32⟩
  | 95 => ⟨S1100000x1, .f32⟩
  | 96 => ⟨S_, .f32⟩
  | 97 => ⟨S100000x1, .f32⟩
  | 98 => ⟨S1100000x1, .i32⟩
  | 99 => ⟨S100000x1, .f32⟩
  | 100 => ⟨S100000x1, .f32⟩
  | 101 => ⟨S100000x1, .bf16⟩
  | 102 => ⟨S8x32, .f32⟩
  | 103 => ⟨S8x32, .f32⟩
  | 104 => ⟨S1x32, .f32⟩
  | 105 => ⟨S1x32, .f32⟩
  | 106 => ⟨S1x32, .f32⟩
  | 107 => ⟨S1x32, .f32⟩
  | 108 => ⟨S1x8, .f32⟩
  | 109 => ⟨S_, .i32⟩
  | 110 => ⟨S_, .bf16⟩
  | 111 => ⟨S106496x8, .bf16⟩
  | 112 => ⟨S_, .i32⟩
  | 113 => ⟨S_, .bf16⟩
  | 114 => ⟨S106496x1, .bf16⟩
  | 115 => ⟨S106496x8, .f32⟩
  | 116 => ⟨S100000x8, .f32⟩
  | 117 => ⟨S_, .f32⟩
  | 118 => ⟨S8, .f32⟩
  | 119 => ⟨S1x8, .f32⟩
  | 120 => ⟨S_, .f32⟩
  | 121 => ⟨S1x8, .f32⟩
  | 122 => ⟨S1x8, .f32⟩
  | 123 => ⟨S_, .f32⟩
  | 124 => ⟨S1, .f32⟩
  | 125 => ⟨S1x1, .f32⟩
  | 126 => ⟨S_, .f32⟩
  | 127 => ⟨S1x1, .f32⟩
  | _ => ⟨S100000x8, .f32⟩

abbrev hbmTy0_6 (i : Nat) : BufTy := match i % 128 with
  | 0 => ⟨S1x1, .f32⟩
  | 1 => ⟨S1x17, .f32⟩
  | 2 => ⟨S1x32, .f32⟩
  | 3 => ⟨S1x8, .f32⟩
  | 4 => ⟨S1x32, .f32⟩
  | 5 => ⟨S1x32, .f32⟩
  | 6 => ⟨S_, .f32⟩
  | 7 => ⟨S1x32, .f32⟩
  | 8 => ⟨S1x32, .f32⟩
  | 9 => ⟨S1x8, .f32⟩
  | 10 => ⟨S1x8, .f32⟩
  | 11 => ⟨S1100000, .i1⟩
  | 12 => ⟨S1100000, .f32⟩
  | 13 => ⟨S1100000, .f32⟩
  | 14 => ⟨S1100000, .f32⟩
  | 15 => ⟨S1100000, .f32⟩
  | 16 => ⟨S1100000, .i1⟩
  | 17 => ⟨S1100000, .f32⟩
  | 18 => ⟨S1100000, .f32⟩
  | 19 => ⟨S1100000, .f32⟩
  | 20 => ⟨S1100000, .f32⟩
  | 21 => ⟨S2200000, .f32⟩
  | _ => ⟨S100000x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x8, .f32⟩

abbrev vmemTy0_0 (i : Nat) : BufTy := match i % 128 with
  | 0 => ⟨S8192x8, .bf16⟩
  | 1 => ⟨S8192x8, .bf16⟩
  | 2 => ⟨S8192x8, .bf16⟩
  | 3 => ⟨S8192x8, .bf16⟩
  | 4 => ⟨S8192x2, .bf16⟩
  | 5 => ⟨S8192x2, .bf16⟩
  | 6 => ⟨S8x32, .f32⟩
  | 7 => ⟨S8x32, .f32⟩
  | 8 => ⟨S2x32, .f32⟩
  | 9 => ⟨S1x32, .f32⟩
  | 10 => ⟨S32x1, .f32⟩
  | 11 => ⟨S1x1, .f32⟩
  | 12 => ⟨S8192x1, .f32⟩
  | 13 => ⟨S8192x1, .f32⟩
  | 14 => ⟨S8192x8, .bf16⟩
  | 15 => ⟨S8192x8, .bf16⟩
  | 16 => ⟨S8192x1, .bf16⟩
  | 17 => ⟨S8192x1, .bf16⟩
  | 18 => ⟨S8x32, .f32⟩
  | 19 => ⟨S1x32, .f32⟩
  | 20 => ⟨S1x32, .f32⟩
  | 21 => ⟨S32x8, .f32⟩
  | 22 => ⟨S1x8, .f32⟩
  | 23 => ⟨S8192x8, .f32⟩
  | 24 => ⟨S8192x8, .f32⟩
  | 25 => ⟨S8192x8, .bf16⟩
  | 26 => ⟨S8192x8, .bf16⟩
  | 27 => ⟨S8192x8, .bf16⟩
  | 28 => ⟨S8192x8, .bf16⟩
  | 29 => ⟨S8192x2, .bf16⟩
  | 30 => ⟨S8192x2, .bf16⟩
  | 31 => ⟨S8x32, .f32⟩
  | 32 => ⟨S8x32, .f32⟩
  | 33 => ⟨S2x32, .f32⟩
  | 34 => ⟨S1x32, .f32⟩
  | 35 => ⟨S32x1, .f32⟩
  | 36 => ⟨S1x1, .f32⟩
  | 37 => ⟨S8192x1, .f32⟩
  | 38 => ⟨S8192x1, .f32⟩
  | 39 => ⟨S8192x8, .bf16⟩
  | 40 => ⟨S8192x8, .bf16⟩
  | 41 => ⟨S8192x1, .bf16⟩
  | 42 => ⟨S8192x1, .bf16⟩
  | 43 => ⟨S8x32, .f32⟩
  | 44 => ⟨S1x32, .f32⟩
  | 45 => ⟨S1x32, .f32⟩
  | 46 => ⟨S32x8, .f32⟩
  | 47 => ⟨S1x8, .f32⟩
  | 48 => ⟨S8192x8, .f32⟩
  | 49 => ⟨S8192x8, .f32⟩
  | 50 => ⟨S8192x8, .bf16⟩
  | 51 => ⟨S8192x8, .bf16⟩
  | 52 => ⟨S8192x8, .bf16⟩
  | 53 => ⟨S8192x8, .bf16⟩
  | 54 => ⟨S8192x2, .bf16⟩
  | 55 => ⟨S8192x2, .bf16⟩
  | 56 => ⟨S8x32, .f32⟩
  | 57 => ⟨S8x32, .f32⟩
  | 58 => ⟨S2x32, .f32⟩
  | 59 => ⟨S1x32, .f32⟩
  | 60 => ⟨S32x1, .f32⟩
  | 61 => ⟨S1x1, .f32⟩
  | 62 => ⟨S8192x1, .f32⟩
  | 63 => ⟨S8192x1, .f32⟩
  | 64 => ⟨S8192x8, .bf16⟩
  | 65 => ⟨S8192x8, .bf16⟩
  | 66 => ⟨S8192x1, .bf16⟩
  | 67 => ⟨S8192x1, .bf16⟩
  | 68 => ⟨S8x32, .f32⟩
  | 69 => ⟨S1x32, .f32⟩
  | 70 => ⟨S1x32, .f32⟩
  | 71 => ⟨S32x8, .f32⟩
  | 72 => ⟨S1x8, .f32⟩
  | 73 => ⟨S8192x8, .f32⟩
  | 74 => ⟨S8192x8, .f32⟩
  | 75 => ⟨S8192x8, .bf16⟩
  | 76 => ⟨S8192x8, .bf16⟩
  | 77 => ⟨S8192x8, .bf16⟩
  | 78 => ⟨S8192x8, .bf16⟩
  | 79 => ⟨S8192x2, .bf16⟩
  | 80 => ⟨S8192x2, .bf16⟩
  | 81 => ⟨S8x32, .f32⟩
  | 82 => ⟨S8x32, .f32⟩
  | 83 => ⟨S2x32, .f32⟩
  | 84 => ⟨S1x32, .f32⟩
  | 85 => ⟨S32x1, .f32⟩
  | 86 => ⟨S1x1, .f32⟩
  | 87 => ⟨S8192x1, .f32⟩
  | 88 => ⟨S8192x1, .f32⟩
  | 89 => ⟨S8192x8, .bf16⟩
  | 90 => ⟨S8192x8, .bf16⟩
  | 91 => ⟨S8192x1, .bf16⟩
  | 92 => ⟨S8192x1, .bf16⟩
  | 93 => ⟨S8x32, .f32⟩
  | 94 => ⟨S1x32, .f32⟩
  | 95 => ⟨S1x32, .f32⟩
  | 96 => ⟨S32x8, .f32⟩
  | 97 => ⟨S1x8, .f32⟩
  | 98 => ⟨S8192x8, .f32⟩
  | 99 => ⟨S8192x8, .f32⟩
  | 100 => ⟨S8192x8, .bf16⟩
  | 101 => ⟨S8192x8, .bf16⟩
  | 102 => ⟨S8192x8, .bf16⟩
  | 103 => ⟨S8192x8, .bf16⟩
  | 104 => ⟨S8192x2, .bf16⟩
  | 105 => ⟨S8192x2, .bf16⟩
  | 106 => ⟨S8x32, .f32⟩
  | 107 => ⟨S8x32, .f32⟩
  | 108 => ⟨S2x32, .f32⟩
  | 109 => ⟨S1x32, .f32⟩
  | 110 => ⟨S32x1, .f32⟩
  | 111 => ⟨S1x1, .f32⟩
  | 112 => ⟨S8192x1, .f32⟩
  | 113 => ⟨S8192x1, .f32⟩
  | 114 => ⟨S8192x8, .bf16⟩
  | 115 => ⟨S8192x8, .bf16⟩
  | 116 => ⟨S8192x1, .bf16⟩
  | 117 => ⟨S8192x1, .bf16⟩
  | 118 => ⟨S8x32, .f32⟩
  | 119 => ⟨S1x32, .f32⟩
  | 120 => ⟨S1x32, .f32⟩
  | 121 => ⟨S32x8, .f32⟩
  | 122 => ⟨S1x8, .f32⟩
  | 123 => ⟨S8192x8, .f32⟩
  | 124 => ⟨S8192x8, .f32⟩
  | 125 => ⟨S8192x8, .bf16⟩
  | 126 => ⟨S8192x8, .bf16⟩
  | 127 => ⟨S8192x8, .bf16⟩
  | _ => ⟨S100000x8, .f32⟩

abbrev vmemTy0_1 (i : Nat) : BufTy := match i % 128 with
  | 0 => ⟨S8192x8, .bf16⟩
  | 1 => ⟨S8192x2, .bf16⟩
  | 2 => ⟨S8192x2, .bf16⟩
  | 3 => ⟨S8x32, .f32⟩
  | 4 => ⟨S8x32, .f32⟩
  | 5 => ⟨S2x32, .f32⟩
  | 6 => ⟨S1x32, .f32⟩
  | 7 => ⟨S32x1, .f32⟩
  | 8 => ⟨S1x1, .f32⟩
  | 9 => ⟨S8192x1, .f32⟩
  | 10 => ⟨S8192x1, .f32⟩
  | 11 => ⟨S8192x8, .bf16⟩
  | 12 => ⟨S8192x8, .bf16⟩
  | 13 => ⟨S8192x1, .bf16⟩
  | 14 => ⟨S8192x1, .bf16⟩
  | 15 => ⟨S8x32, .f32⟩
  | 16 => ⟨S1x32, .f32⟩
  | 17 => ⟨S1x32, .f32⟩
  | 18 => ⟨S32x8, .f32⟩
  | 19 => ⟨S1x8, .f32⟩
  | 20 => ⟨S8192x8, .f32⟩
  | 21 => ⟨S8192x8, .f32⟩
  | _ => ⟨S100000x8, .f32⟩

abbrev vmemTy (i : Nat) : BufTy := match i / 128 with
  | 0 => vmemTy0_0 i
  | 1 => vmemTy0_1 i
  | _ => ⟨S100000x8, .f32⟩

abbrev bufTy : (tb : Table) → Fin (tcTables nBuf tb) → BufTy
  | .hbm, ⟨i, _⟩ => hbmTy i
  | .local _ .vmem, ⟨i, _⟩ => vmemTy i
  | _, _ => ⟨S100000x8, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 150 → Bool
  | ⟨i, _⟩ => dmaSemScopedAt i

abbrev sig : RefSig :=
  ofTc nBuf bufTy 0 150 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v25 : Ref sig .tc := ⟨.hbm, 72, rfl⟩
abbrev main_v26 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_c_1 : Ref sig .tc := ⟨.hbm, 82, rfl⟩
abbrev main_call1_c_2 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_3 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_call1_cst : Ref sig .tc := ⟨.hbm, 94, rfl⟩
abbrev main_call1_v15 : Ref sig .tc := ⟨.hbm, 95, rfl⟩
abbrev main_v27 : Ref sig .tc := ⟨.hbm, 96, rfl⟩
abbrev main_v28 : Ref sig .tc := ⟨.hbm, 97, rfl⟩
abbrev main_cst_7 : Ref sig .tc := ⟨.hbm, 98, rfl⟩
abbrev main_v29 : Ref sig .tc := ⟨.hbm, 99, rfl⟩
abbrev main_cst_8 : Ref sig .tc := ⟨.hbm, 100, rfl⟩
abbrev main_v30 : Ref sig .tc := ⟨.hbm, 101, rfl⟩
abbrev main_cst_9 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_c : Ref sig .tc := ⟨.hbm, 162, rfl⟩
abbrev main_call2_v0 : Ref sig .tc := ⟨.hbm, 163, rfl⟩
abbrev main_v90 : Ref sig .tc := ⟨.hbm, 164, rfl⟩
abbrev main_c_10 : Ref sig .tc := ⟨.hbm, 165, rfl⟩
abbrev main_call3_v0 : Ref sig .tc := ⟨.hbm, 166, rfl⟩
abbrev main_v91 : Ref sig .tc := ⟨.hbm, 167, rfl⟩
abbrev main_c_11 : Ref sig .tc := ⟨.hbm, 168, rfl⟩
abbrev main_call4_v0 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_cst_12 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_c_13 : Ref sig .tc := ⟨.hbm, 186, rfl⟩
abbrev main_call5_v0 : Ref sig .tc := ⟨.hbm, 187, rfl⟩
abbrev main_v107 : Ref sig .tc := ⟨.hbm, 188, rfl⟩
abbrev main_c_14 : Ref sig .tc := ⟨.hbm, 189, rfl⟩
abbrev main_call6_v0 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_cst_15 : Ref sig .tc := ⟨.hbm, 194, rfl⟩
abbrev main_v111 : Ref sig .tc := ⟨.hbm, 195, rfl⟩
abbrev main_v112 : Ref sig .tc := ⟨.hbm, 196, rfl⟩
abbrev main_cst_16 : Ref sig .tc := ⟨.hbm, 197, rfl⟩
abbrev main_v113 : Ref sig .tc := ⟨.hbm, 198, rfl⟩
abbrev main_v114 : Ref sig .tc := ⟨.hbm, 199, rfl⟩
abbrev main_cst_17 : Ref sig .tc := ⟨.hbm, 200, rfl⟩
abbrev main_v115 : Ref sig .tc := ⟨.hbm, 201, rfl⟩
abbrev main_v116 : Ref sig .tc := ⟨.hbm, 202, rfl⟩
abbrev main_cst_18 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_call7_cst : Ref sig .tc := ⟨.hbm, 211, rfl⟩
abbrev main_call7_v0 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_call8_c : Ref sig .tc := ⟨.hbm, 218, rfl⟩
abbrev main_call8_v0 : Ref sig .tc := ⟨.hbm, 219, rfl⟩
abbrev main_call8_v1 : Ref sig .tc := ⟨.hbm, 220, rfl⟩
abbrev main_call8_c_0 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_call8_v5 : Ref sig .tc := ⟨.hbm, 225, rfl⟩
abbrev main_call8_c_1 : Ref sig .tc := ⟨.hbm, 226, rfl⟩
abbrev main_call8_c_2 : Ref sig .tc := ⟨.hbm, 227, rfl⟩
abbrev main_call8_v6 : Ref sig .tc := ⟨.hbm, 228, rfl⟩
abbrev main_call8_v7 : Ref sig .tc := ⟨.hbm, 229, rfl⟩
abbrev main_call8_v8 : Ref sig .tc := ⟨.hbm, 230, rfl⟩
abbrev main_call8_v9 : Ref sig .tc := ⟨.hbm, 231, rfl⟩
abbrev main_call8_v10 : Ref sig .tc := ⟨.hbm, 232, rfl⟩
abbrev main_call8_v11 : Ref sig .tc := ⟨.hbm, 233, rfl⟩
abbrev main_call8_c_3 : Ref sig .tc := ⟨.hbm, 234, rfl⟩
abbrev main_call8_v12 : Ref sig .tc := ⟨.hbm, 235, rfl⟩
abbrev main_call8_v13 : Ref sig .tc := ⟨.hbm, 236, rfl⟩
abbrev main_call8_v14 : Ref sig .tc := ⟨.hbm, 237, rfl⟩
abbrev main_call8_cst : Ref sig .tc := ⟨.hbm, 238, rfl⟩
abbrev main_call8_v15 : Ref sig .tc := ⟨.hbm, 239, rfl⟩
abbrev main_v129 : Ref sig .tc := ⟨.hbm, 240, rfl⟩
abbrev main_v130 : Ref sig .tc := ⟨.hbm, 241, rfl⟩
abbrev main_call9_c : Ref sig .tc := ⟨.hbm, 242, rfl⟩
abbrev main_call9_v0 : Ref sig .tc := ⟨.hbm, 243, rfl⟩
abbrev main_call9_v1 : Ref sig .tc := ⟨.hbm, 244, rfl⟩
abbrev main_call9_c_0 : Ref sig .tc := ⟨.hbm, 245, rfl⟩
abbrev main_call9_v2 : Ref sig .tc := ⟨.hbm, 246, rfl⟩
abbrev main_call9_v3 : Ref sig .tc := ⟨.hbm, 247, rfl⟩
abbrev main_call9_v4 : Ref sig .tc := ⟨.hbm, 248, rfl⟩
abbrev main_call9_v5 : Ref sig .tc := ⟨.hbm, 249, rfl⟩
abbrev main_call9_c_1 : Ref sig .tc := ⟨.hbm, 250, rfl⟩
abbrev main_call9_c_2 : Ref sig .tc := ⟨.hbm, 251, rfl⟩
abbrev main_call9_v6 : Ref sig .tc := ⟨.hbm, 252, rfl⟩
abbrev main_call9_v7 : Ref sig .tc := ⟨.hbm, 253, rfl⟩
abbrev main_call9_v8 : Ref sig .tc := ⟨.hbm, 254, rfl⟩
abbrev main_call9_v9 : Ref sig .tc := ⟨.hbm, 255, rfl⟩
abbrev main_call9_v10 : Ref sig .tc := ⟨.hbm, 256, rfl⟩
abbrev main_call9_v11 : Ref sig .tc := ⟨.hbm, 257, rfl⟩
abbrev main_call9_c_3 : Ref sig .tc := ⟨.hbm, 258, rfl⟩
abbrev main_call9_v12 : Ref sig .tc := ⟨.hbm, 259, rfl⟩
abbrev main_call9_v13 : Ref sig .tc := ⟨.hbm, 260, rfl⟩
abbrev main_call9_v14 : Ref sig .tc := ⟨.hbm, 261, rfl⟩
abbrev main_call9_cst : Ref sig .tc := ⟨.hbm, 262, rfl⟩
abbrev main_call9_v15 : Ref sig .tc := ⟨.hbm, 263, rfl⟩
abbrev main_v131 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_v138 : Ref sig .tc := ⟨.hbm, 271, rfl⟩
abbrev main_v139 : Ref sig .tc := ⟨.hbm, 272, rfl⟩
abbrev main_v140 : Ref sig .tc := ⟨.hbm, 273, rfl⟩
abbrev main_v141 : Ref sig .tc := ⟨.hbm, 274, rfl⟩
abbrev main_c_19 : Ref sig .tc := ⟨.hbm, 275, rfl⟩
abbrev main_call10_v0 : Ref sig .tc := ⟨.hbm, 276, rfl⟩
abbrev main_v142 : Ref sig .tc := ⟨.hbm, 277, rfl⟩
abbrev main_c_20 : Ref sig .tc := ⟨.hbm, 278, rfl⟩
abbrev main_call11_v0 : Ref sig .tc := ⟨.hbm, 279, rfl⟩
abbrev main_v143 : Ref sig .tc := ⟨.hbm, 280, rfl⟩
abbrev main_c_21 : Ref sig .tc := ⟨.hbm, 281, rfl⟩
abbrev main_call12_v0 : Ref sig .tc := ⟨.hbm, 282, rfl⟩
abbrev main_v144 : Ref sig .tc := ⟨.hbm, 283, rfl⟩
abbrev main_v145 : Ref sig .tc := ⟨.hbm, 284, rfl⟩
abbrev main_v146 : Ref sig .tc := ⟨.hbm, 285, rfl⟩
abbrev main_cst_22 : Ref sig .tc := ⟨.hbm, 286, rfl⟩
abbrev main_v147 : Ref sig .tc := ⟨.hbm, 287, rfl⟩
abbrev main_v148 : Ref sig .tc := ⟨.hbm, 288, rfl⟩
abbrev main_v149 : Ref sig .tc := ⟨.hbm, 289, rfl⟩
abbrev main_v150 : Ref sig .tc := ⟨.hbm, 290, rfl⟩
abbrev main_v151 : Ref sig .tc := ⟨.hbm, 291, rfl⟩
abbrev main_v152 : Ref sig .tc := ⟨.hbm, 292, rfl⟩
abbrev main_v153 : Ref sig .tc := ⟨.hbm, 293, rfl⟩
abbrev main_v154 : Ref sig .tc := ⟨.hbm, 294, rfl⟩
abbrev main_v155 : Ref sig .tc := ⟨.hbm, 295, rfl⟩
abbrev main_v156 : Ref sig .tc := ⟨.hbm, 296, rfl⟩
abbrev main_v157 : Ref sig .tc := ⟨.hbm, 297, rfl⟩
abbrev main_v158 : Ref sig .tc := ⟨.hbm, 298, rfl⟩
abbrev main_c_23 : Ref sig .tc := ⟨.hbm, 299, rfl⟩
abbrev main_call13_v0 : Ref sig .tc := ⟨.hbm, 300, rfl⟩
abbrev main_v159 : Ref sig .tc := ⟨.hbm, 301, rfl⟩
abbrev main_c_24 : Ref sig .tc := ⟨.hbm, 302, rfl⟩
abbrev main_call14_v0 : Ref sig .tc := ⟨.hbm, 303, rfl⟩
abbrev main_v160 : Ref sig .tc := ⟨.hbm, 304, rfl⟩
abbrev main_v161 : Ref sig .tc := ⟨.hbm, 305, rfl⟩
abbrev main_v162 : Ref sig .tc := ⟨.hbm, 306, rfl⟩
abbrev main_cst_25 : Ref sig .tc := ⟨.hbm, 307, rfl⟩
abbrev main_v163 : Ref sig .tc := ⟨.hbm, 308, rfl⟩
abbrev main_v164 : Ref sig .tc := ⟨.hbm, 309, rfl⟩
abbrev main_cst_26 : Ref sig .tc := ⟨.hbm, 310, rfl⟩
abbrev main_v165 : Ref sig .tc := ⟨.hbm, 311, rfl⟩
abbrev main_v166 : Ref sig .tc := ⟨.hbm, 312, rfl⟩
abbrev main_cst_27 : Ref sig .tc := ⟨.hbm, 313, rfl⟩
abbrev main_v167 : Ref sig .tc := ⟨.hbm, 314, rfl⟩
abbrev main_v168 : Ref sig .tc := ⟨.hbm, 315, rfl⟩
abbrev main_cst_28 : Ref sig .tc := ⟨.hbm, 316, rfl⟩
abbrev main_v169 : Ref sig .tc := ⟨.hbm, 317, rfl⟩
abbrev main_v170 : Ref sig .tc := ⟨.hbm, 318, rfl⟩
abbrev main_v171 : Ref sig .tc := ⟨.hbm, 319, rfl⟩
abbrev main_v172 : Ref sig .tc := ⟨.hbm, 320, rfl⟩
abbrev main_v173 : Ref sig .tc := ⟨.hbm, 321, rfl⟩
abbrev main_v174 : Ref sig .tc := ⟨.hbm, 322, rfl⟩
abbrev main_v175 : Ref sig .tc := ⟨.hbm, 323, rfl⟩
abbrev main_call15_cst : Ref sig .tc := ⟨.hbm, 324, rfl⟩
abbrev main_call15_v0 : Ref sig .tc := ⟨.hbm, 325, rfl⟩
abbrev main_v176 : Ref sig .tc := ⟨.hbm, 326, rfl⟩
abbrev main_v177 : Ref sig .tc := ⟨.hbm, 327, rfl⟩
abbrev main_v178 : Ref sig .tc := ⟨.hbm, 328, rfl⟩
abbrev main_v179 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_v184 : Ref sig .tc := ⟨.hbm, 334, rfl⟩
abbrev main_v185 : Ref sig .tc := ⟨.hbm, 335, rfl⟩
abbrev main_v186 : Ref sig .tc := ⟨.hbm, 336, rfl⟩
abbrev main_v187 : Ref sig .tc := ⟨.hbm, 337, rfl⟩
abbrev main_v188 : Ref sig .tc := ⟨.hbm, 338, rfl⟩
abbrev main_v189 : Ref sig .tc := ⟨.hbm, 339, rfl⟩
abbrev main_v190 : Ref sig .tc := ⟨.hbm, 340, rfl⟩
abbrev main_v191 : Ref sig .tc := ⟨.hbm, 341, rfl⟩
abbrev main_v192 : Ref sig .tc := ⟨.hbm, 342, rfl⟩
abbrev main_v193 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_v198 : Ref sig .tc := ⟨.hbm, 348, rfl⟩
abbrev main_v199 : Ref sig .tc := ⟨.hbm, 349, rfl⟩
abbrev main_v200 : Ref sig .tc := ⟨.hbm, 350, rfl⟩
abbrev main_v201 : Ref sig .tc := ⟨.hbm, 351, rfl⟩
abbrev main_v202 : Ref sig .tc := ⟨.hbm, 352, rfl⟩
abbrev main_v203 : Ref sig .tc := ⟨.hbm, 353, rfl⟩
abbrev main_v204 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_v208 : Ref sig .tc := ⟨.hbm, 358, rfl⟩
abbrev main_v209 : Ref sig .tc := ⟨.hbm, 359, rfl⟩
abbrev main_v210 : Ref sig .tc := ⟨.hbm, 360, rfl⟩
abbrev main_v211 : Ref sig .tc := ⟨.hbm, 361, rfl⟩
abbrev main_v212 : Ref sig .tc := ⟨.hbm, 362, rfl⟩
abbrev main_v213 : Ref sig .tc := ⟨.hbm, 363, rfl⟩
abbrev main_v214 : Ref sig .tc := ⟨.hbm, 364, rfl⟩
abbrev main_v215 : Ref sig .tc := ⟨.hbm, 365, rfl⟩
abbrev main_v216 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_v220 : Ref sig .tc := ⟨.hbm, 370, rfl⟩
abbrev main_v221 : Ref sig .tc := ⟨.hbm, 371, rfl⟩
abbrev main_v222 : Ref sig .tc := ⟨.hbm, 372, rfl⟩
abbrev main_v223 : Ref sig .tc := ⟨.hbm, 373, rfl⟩
abbrev main_v224 : Ref sig .tc := ⟨.hbm, 374, rfl⟩
abbrev main_v225 : Ref sig .tc := ⟨.hbm, 375, rfl⟩
abbrev main_v226 : Ref sig .tc := ⟨.hbm, 376, rfl⟩
abbrev main_v227 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_v231 : Ref sig .tc := ⟨.hbm, 381, rfl⟩
abbrev main_v232 : Ref sig .tc := ⟨.hbm, 382, rfl⟩
abbrev main_v233 : Ref sig .tc := ⟨.hbm, 383, rfl⟩
abbrev main_v234 : Ref sig .tc := ⟨.hbm, 384, rfl⟩
abbrev main_v235 : Ref sig .tc := ⟨.hbm, 385, rfl⟩
abbrev main_v236 : Ref sig .tc := ⟨.hbm, 386, rfl⟩
abbrev main_c_29 : Ref sig .tc := ⟨.hbm, 387, rfl⟩
abbrev main_call16_v0 : Ref sig .tc := ⟨.hbm, 388, rfl⟩
abbrev main_v237 : Ref sig .tc := ⟨.hbm, 389, rfl⟩
abbrev main_c_30 : Ref sig .tc := ⟨.hbm, 390, rfl⟩
abbrev main_call17_v0 : Ref sig .tc := ⟨.hbm, 391, rfl⟩
abbrev main_v238 : Ref sig .tc := ⟨.hbm, 392, rfl⟩
abbrev main_c_31 : Ref sig .tc := ⟨.hbm, 393, rfl⟩
abbrev main_call18_v0 : Ref sig .tc := ⟨.hbm, 394, rfl⟩
abbrev main_v239 : Ref sig .tc := ⟨.hbm, 395, rfl⟩
abbrev main_v240 : Ref sig .tc := ⟨.hbm, 396, rfl⟩
abbrev main_v241 : Ref sig .tc := ⟨.hbm, 397, rfl⟩
abbrev main_cst_32 : Ref sig .tc := ⟨.hbm, 398, rfl⟩
abbrev main_v242 : Ref sig .tc := ⟨.hbm, 399, rfl⟩
abbrev main_v243 : Ref sig .tc := ⟨.hbm, 400, rfl⟩
abbrev main_v244 : Ref sig .tc := ⟨.hbm, 401, rfl⟩
abbrev main_v245 : Ref sig .tc := ⟨.hbm, 402, rfl⟩
abbrev main_v246 : Ref sig .tc := ⟨.hbm, 403, rfl⟩
abbrev main_v247 : Ref sig .tc := ⟨.hbm, 404, rfl⟩
abbrev main_v248 : Ref sig .tc := ⟨.hbm, 405, rfl⟩
abbrev main_v249 : Ref sig .tc := ⟨.hbm, 406, rfl⟩
abbrev main_v250 : Ref sig .tc := ⟨.hbm, 407, rfl⟩
abbrev main_v251 : Ref sig .tc := ⟨.hbm, 408, rfl⟩
abbrev main_v252 : Ref sig .tc := ⟨.hbm, 409, rfl⟩
abbrev main_v253 : Ref sig .tc := ⟨.hbm, 410, rfl⟩
abbrev main_c_33 : Ref sig .tc := ⟨.hbm, 411, rfl⟩
abbrev main_call19_v0 : Ref sig .tc := ⟨.hbm, 412, rfl⟩
abbrev main_v254 : Ref sig .tc := ⟨.hbm, 413, rfl⟩
abbrev main_c_34 : Ref sig .tc := ⟨.hbm, 414, rfl⟩
abbrev main_call20_v0 : Ref sig .tc := ⟨.hbm, 415, rfl⟩
abbrev main_v255 : Ref sig .tc := ⟨.hbm, 416, rfl⟩
abbrev main_v256 : Ref sig .tc := ⟨.hbm, 417, rfl⟩
abbrev main_v257 : Ref sig .tc := ⟨.hbm, 418, rfl⟩
abbrev main_cst_35 : Ref sig .tc := ⟨.hbm, 419, rfl⟩
abbrev main_v258 : Ref sig .tc := ⟨.hbm, 420, rfl⟩
abbrev main_v259 : Ref sig .tc := ⟨.hbm, 421, rfl⟩
abbrev main_cst_36 : Ref sig .tc := ⟨.hbm, 422, rfl⟩
abbrev main_v260 : Ref sig .tc := ⟨.hbm, 423, rfl⟩
abbrev main_v261 : Ref sig .tc := ⟨.hbm, 424, rfl⟩
abbrev main_cst_37 : Ref sig .tc := ⟨.hbm, 425, rfl⟩
abbrev main_v262 : Ref sig .tc := ⟨.hbm, 426, rfl⟩
abbrev main_v263 : Ref sig .tc := ⟨.hbm, 427, rfl⟩
abbrev main_cst_38 : Ref sig .tc := ⟨.hbm, 428, rfl⟩
abbrev main_v264 : Ref sig .tc := ⟨.hbm, 429, rfl⟩
abbrev main_v265 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_v270 : Ref sig .tc := ⟨.hbm, 435, rfl⟩
abbrev main_call21_cst : Ref sig .tc := ⟨.hbm, 436, rfl⟩
abbrev main_call21_v0 : Ref sig .tc := ⟨.hbm, 437, rfl⟩
abbrev main_v271 : Ref sig .tc := ⟨.hbm, 438, rfl⟩
abbrev main_v272 : Ref sig .tc := ⟨.hbm, 439, rfl⟩
abbrev main_v273 : Ref sig .tc := ⟨.hbm, 440, rfl⟩
abbrev main_v274 : Ref sig .tc := ⟨.hbm, 441, rfl⟩
abbrev main_v275 : Ref sig .tc := ⟨.hbm, 442, rfl⟩
abbrev main_call22_c : Ref sig .tc := ⟨.hbm, 443, rfl⟩
abbrev main_call22_v0 : Ref sig .tc := ⟨.hbm, 444, rfl⟩
abbrev main_call22_v1 : Ref sig .tc := ⟨.hbm, 445, rfl⟩
abbrev main_call22_c_0 : Ref sig .tc := ⟨.hbm, 446, rfl⟩
abbrev main_call22_v2 : Ref sig .tc := ⟨.hbm, 447, rfl⟩
abbrev main_call22_v3 : Ref sig .tc := ⟨.hbm, 448, rfl⟩
abbrev main_call22_v4 : Ref sig .tc := ⟨.hbm, 449, rfl⟩
abbrev main_call22_v5 : Ref sig .tc := ⟨.hbm, 450, rfl⟩
abbrev main_call22_c_1 : Ref sig .tc := ⟨.hbm, 451, rfl⟩
abbrev main_call22_c_2 : Ref sig .tc := ⟨.hbm, 452, rfl⟩
abbrev main_call22_v6 : Ref sig .tc := ⟨.hbm, 453, rfl⟩
abbrev main_call22_v7 : Ref sig .tc := ⟨.hbm, 454, rfl⟩
abbrev main_call22_v8 : Ref sig .tc := ⟨.hbm, 455, rfl⟩
abbrev main_call22_v9 : Ref sig .tc := ⟨.hbm, 456, rfl⟩
abbrev main_call22_v10 : Ref sig .tc := ⟨.hbm, 457, rfl⟩
abbrev main_call22_v11 : Ref sig .tc := ⟨.hbm, 458, rfl⟩
abbrev main_call22_c_3 : Ref sig .tc := ⟨.hbm, 459, rfl⟩
abbrev main_call22_v12 : Ref sig .tc := ⟨.hbm, 460, rfl⟩
abbrev main_call22_v13 : Ref sig .tc := ⟨.hbm, 461, rfl⟩
abbrev main_call22_v14 : Ref sig .tc := ⟨.hbm, 462, rfl⟩
abbrev main_call22_cst : Ref sig .tc := ⟨.hbm, 463, rfl⟩
abbrev main_call22_v15 : Ref sig .tc := ⟨.hbm, 464, rfl⟩
abbrev main_v276 : Ref sig .tc := ⟨.hbm, 465, rfl⟩
abbrev main_v277 : Ref sig .tc := ⟨.hbm, 466, rfl⟩
abbrev main_call23_c : Ref sig .tc := ⟨.hbm, 467, rfl⟩
abbrev main_call23_v0 : Ref sig .tc := ⟨.hbm, 468, rfl⟩
abbrev main_call23_v1 : Ref sig .tc := ⟨.hbm, 469, rfl⟩
abbrev main_call23_c_0 : Ref sig .tc := ⟨.hbm, 470, rfl⟩
abbrev main_call23_v2 : Ref sig .tc := ⟨.hbm, 471, rfl⟩
abbrev main_call23_v3 : Ref sig .tc := ⟨.hbm, 472, rfl⟩
abbrev main_call23_v4 : Ref sig .tc := ⟨.hbm, 473, rfl⟩
abbrev main_call23_v5 : Ref sig .tc := ⟨.hbm, 474, rfl⟩
abbrev main_call23_c_1 : Ref sig .tc := ⟨.hbm, 475, rfl⟩
abbrev main_call23_c_2 : Ref sig .tc := ⟨.hbm, 476, rfl⟩
abbrev main_call23_v6 : Ref sig .tc := ⟨.hbm, 477, rfl⟩
abbrev main_call23_v7 : Ref sig .tc := ⟨.hbm, 478, rfl⟩
abbrev main_call23_v8 : Ref sig .tc := ⟨.hbm, 479, rfl⟩
abbrev main_call23_v9 : Ref sig .tc := ⟨.hbm, 480, rfl⟩
abbrev main_call23_v10 : Ref sig .tc := ⟨.hbm, 481, rfl⟩
abbrev main_call23_v11 : Ref sig .tc := ⟨.hbm, 482, rfl⟩
abbrev main_call23_c_3 : Ref sig .tc := ⟨.hbm, 483, rfl⟩
abbrev main_call23_v12 : Ref sig .tc := ⟨.hbm, 484, rfl⟩
abbrev main_call23_v13 : Ref sig .tc := ⟨.hbm, 485, rfl⟩
abbrev main_call23_v14 : Ref sig .tc := ⟨.hbm, 486, rfl⟩
abbrev main_call23_cst : Ref sig .tc := ⟨.hbm, 487, rfl⟩
abbrev main_call23_v15 : Ref sig .tc := ⟨.hbm, 488, rfl⟩
abbrev main_v278 : Ref sig .tc := ⟨.hbm, 489, rfl⟩
abbrev main_v279 : Ref sig .tc := ⟨.hbm, 490, rfl⟩
abbrev main_v280 : Ref sig .tc := ⟨.hbm, 491, rfl⟩
abbrev main_v281 : Ref sig .tc := ⟨.hbm, 492, rfl⟩
abbrev main_v282 : Ref sig .tc := ⟨.hbm, 493, rfl⟩
abbrev main_v283 : Ref sig .tc := ⟨.hbm, 494, rfl⟩
abbrev main_v284 : Ref sig .tc := ⟨.hbm, 495, rfl⟩
abbrev main_v285 : Ref sig .tc := ⟨.hbm, 496, rfl⟩
abbrev main_v286 : Ref sig .tc := ⟨.hbm, 497, rfl⟩
abbrev main_v287 : Ref sig .tc := ⟨.hbm, 498, rfl⟩
abbrev main_v288 : Ref sig .tc := ⟨.hbm, 499, rfl⟩
abbrev main_c_39 : Ref sig .tc := ⟨.hbm, 500, rfl⟩
abbrev main_call24_v0 : Ref sig .tc := ⟨.hbm, 501, rfl⟩
abbrev main_v289 : Ref sig .tc := ⟨.hbm, 502, rfl⟩
abbrev main_c_40 : Ref sig .tc := ⟨.hbm, 503, rfl⟩
abbrev main_call25_v0 : Ref sig .tc := ⟨.hbm, 504, rfl⟩
abbrev main_v290 : Ref sig .tc := ⟨.hbm, 505, rfl⟩
abbrev main_c_41 : Ref sig .tc := ⟨.hbm, 506, rfl⟩
abbrev main_call26_v0 : Ref sig .tc := ⟨.hbm, 507, rfl⟩
abbrev main_v291 : Ref sig .tc := ⟨.hbm, 508, rfl⟩
abbrev main_v292 : Ref sig .tc := ⟨.hbm, 509, rfl⟩
abbrev main_v293 : Ref sig .tc := ⟨.hbm, 510, rfl⟩
abbrev main_cst_42 : Ref sig .tc := ⟨.hbm, 511, rfl⟩
abbrev main_v294 : Ref sig .tc := ⟨.hbm, 512, rfl⟩
abbrev main_v295 : Ref sig .tc := ⟨.hbm, 513, rfl⟩
abbrev main_v296 : Ref sig .tc := ⟨.hbm, 514, rfl⟩
abbrev main_v297 : Ref sig .tc := ⟨.hbm, 515, rfl⟩
abbrev main_v298 : Ref sig .tc := ⟨.hbm, 516, rfl⟩
abbrev main_v299 : Ref sig .tc := ⟨.hbm, 517, rfl⟩
abbrev main_v300 : Ref sig .tc := ⟨.hbm, 518, rfl⟩
abbrev main_v301 : Ref sig .tc := ⟨.hbm, 519, rfl⟩
abbrev main_v302 : Ref sig .tc := ⟨.hbm, 520, rfl⟩
abbrev main_v303 : Ref sig .tc := ⟨.hbm, 521, rfl⟩
abbrev main_v304 : Ref sig .tc := ⟨.hbm, 522, rfl⟩
abbrev main_v305 : Ref sig .tc := ⟨.hbm, 523, rfl⟩
abbrev main_c_43 : Ref sig .tc := ⟨.hbm, 524, rfl⟩
abbrev main_call27_v0 : Ref sig .tc := ⟨.hbm, 525, rfl⟩
abbrev main_v306 : Ref sig .tc := ⟨.hbm, 526, rfl⟩
abbrev main_c_44 : Ref sig .tc := ⟨.hbm, 527, rfl⟩
abbrev main_call28_v0 : Ref sig .tc := ⟨.hbm, 528, rfl⟩
abbrev main_v307 : Ref sig .tc := ⟨.hbm, 529, rfl⟩
abbrev main_v308 : Ref sig .tc := ⟨.hbm, 530, rfl⟩
abbrev main_v309 : Ref sig .tc := ⟨.hbm, 531, rfl⟩
abbrev main_cst_45 : Ref sig .tc := ⟨.hbm, 532, rfl⟩
abbrev main_v310 : Ref sig .tc := ⟨.hbm, 533, rfl⟩
abbrev main_v311 : Ref sig .tc := ⟨.hbm, 534, rfl⟩
abbrev main_cst_46 : Ref sig .tc := ⟨.hbm, 535, rfl⟩
abbrev main_v312 : Ref sig .tc := ⟨.hbm, 536, rfl⟩
abbrev main_v313 : Ref sig .tc := ⟨.hbm, 537, rfl⟩
abbrev main_cst_47 : Ref sig .tc := ⟨.hbm, 538, rfl⟩
abbrev main_v314 : Ref sig .tc := ⟨.hbm, 539, rfl⟩
abbrev main_v315 : Ref sig .tc := ⟨.hbm, 540, rfl⟩
abbrev main_cst_48 : Ref sig .tc := ⟨.hbm, 541, rfl⟩
abbrev main_v316 : Ref sig .tc := ⟨.hbm, 542, rfl⟩
abbrev main_v317 : Ref sig .tc := ⟨.hbm, 543, rfl⟩
abbrev main_v318 : Ref sig .tc := ⟨.hbm, 544, rfl⟩
abbrev main_v319 : Ref sig .tc := ⟨.hbm, 545, rfl⟩
abbrev main_v320 : Ref sig .tc := ⟨.hbm, 546, rfl⟩
abbrev main_v321 : Ref sig .tc := ⟨.hbm, 547, rfl⟩
abbrev main_v322 : Ref sig .tc := ⟨.hbm, 548, rfl⟩
abbrev main_call29_cst : Ref sig .tc := ⟨.hbm, 549, rfl⟩
abbrev main_call29_v0 : Ref sig .tc := ⟨.hbm, 550, rfl⟩
abbrev main_v323 : Ref sig .tc := ⟨.hbm, 551, rfl⟩
abbrev main_v324 : Ref sig .tc := ⟨.hbm, 552, rfl⟩
abbrev main_v325 : Ref sig .tc := ⟨.hbm, 553, rfl⟩
abbrev main_v326 : Ref sig .tc := ⟨.hbm, 554, rfl⟩
abbrev main_v327 : Ref sig .tc := ⟨.hbm, 555, rfl⟩
abbrev main_v328 : Ref sig .tc := ⟨.hbm, 556, rfl⟩
abbrev main_v329 : Ref sig .tc := ⟨.hbm, 557, rfl⟩
abbrev main_v330 : Ref sig .tc := ⟨.hbm, 558, rfl⟩
abbrev main_v331 : Ref sig .tc := ⟨.hbm, 559, rfl⟩
abbrev main_v332 : Ref sig .tc := ⟨.hbm, 560, rfl⟩
abbrev main_v333 : Ref sig .tc := ⟨.hbm, 561, rfl⟩
abbrev main_v334 : Ref sig .tc := ⟨.hbm, 562, rfl⟩
abbrev main_v335 : Ref sig .tc := ⟨.hbm, 563, rfl⟩
abbrev main_v336 : Ref sig .tc := ⟨.hbm, 564, rfl⟩
abbrev main_v337 : Ref sig .tc := ⟨.hbm, 565, rfl⟩
abbrev main_v338 : Ref sig .tc := ⟨.hbm, 566, rfl⟩
abbrev main_v339 : Ref sig .tc := ⟨.hbm, 567, rfl⟩
abbrev main_v340 : Ref sig .tc := ⟨.hbm, 568, rfl⟩
abbrev main_v341 : Ref sig .tc := ⟨.hbm, 569, rfl⟩
abbrev main_v342 : Ref sig .tc := ⟨.hbm, 570, rfl⟩
abbrev main_v343 : Ref sig .tc := ⟨.hbm, 571, rfl⟩
abbrev main_v344 : Ref sig .tc := ⟨.hbm, 572, rfl⟩
abbrev main_v345 : Ref sig .tc := ⟨.hbm, 573, rfl⟩
abbrev main_v346 : Ref sig .tc := ⟨.hbm, 574, rfl⟩
abbrev main_v347 : Ref sig .tc := ⟨.hbm, 575, rfl⟩
abbrev main_v348 : Ref sig .tc := ⟨.hbm, 576, rfl⟩
abbrev main_v349 : Ref sig .tc := ⟨.hbm, 577, rfl⟩
abbrev main_v350 : Ref sig .tc := ⟨.hbm, 578, rfl⟩
abbrev main_v351 : Ref sig .tc := ⟨.hbm, 579, rfl⟩
abbrev main_v352 : Ref sig .tc := ⟨.hbm, 580, rfl⟩
abbrev main_v353 : Ref sig .tc := ⟨.hbm, 581, rfl⟩
abbrev main_v354 : Ref sig .tc := ⟨.hbm, 582, rfl⟩
abbrev main_v355 : Ref sig .tc := ⟨.hbm, 583, rfl⟩
abbrev main_v356 : Ref sig .tc := ⟨.hbm, 584, rfl⟩
abbrev main_v357 : Ref sig .tc := ⟨.hbm, 585, rfl⟩
abbrev main_v358 : Ref sig .tc := ⟨.hbm, 586, rfl⟩
abbrev main_v359 : Ref sig .tc := ⟨.hbm, 587, rfl⟩
abbrev main_v360 : Ref sig .tc := ⟨.hbm, 588, rfl⟩
abbrev main_v361 : Ref sig .tc := ⟨.hbm, 589, rfl⟩
abbrev main_v362 : Ref sig .tc := ⟨.hbm, 590, rfl⟩
abbrev main_v363 : Ref sig .tc := ⟨.hbm, 591, rfl⟩
abbrev main_v364 : Ref sig .tc := ⟨.hbm, 592, rfl⟩
abbrev main_v365 : Ref sig .tc := ⟨.hbm, 593, rfl⟩
abbrev main_v366 : Ref sig .tc := ⟨.hbm, 594, rfl⟩
abbrev main_v367 : Ref sig .tc := ⟨.hbm, 595, rfl⟩
abbrev main_v368 : Ref sig .tc := ⟨.hbm, 596, rfl⟩
abbrev main_v369 : Ref sig .tc := ⟨.hbm, 597, rfl⟩
abbrev main_v370 : Ref sig .tc := ⟨.hbm, 598, rfl⟩
abbrev main_v371 : Ref sig .tc := ⟨.hbm, 599, rfl⟩
abbrev main_v372 : Ref sig .tc := ⟨.hbm, 600, rfl⟩
abbrev main_v373 : Ref sig .tc := ⟨.hbm, 601, rfl⟩
abbrev main_v374 : Ref sig .tc := ⟨.hbm, 602, rfl⟩
abbrev main_v375 : Ref sig .tc := ⟨.hbm, 603, rfl⟩
abbrev main_v376 : Ref sig .tc := ⟨.hbm, 604, rfl⟩
abbrev main_v377 : Ref sig .tc := ⟨.hbm, 605, rfl⟩
abbrev main_v378 : Ref sig .tc := ⟨.hbm, 606, rfl⟩
abbrev main_v379 : Ref sig .tc := ⟨.hbm, 607, rfl⟩
abbrev main_v380 : Ref sig .tc := ⟨.hbm, 608, rfl⟩
abbrev main_v381 : Ref sig .tc := ⟨.hbm, 609, rfl⟩
abbrev main_v382 : Ref sig .tc := ⟨.hbm, 610, rfl⟩
abbrev main_v383 : Ref sig .tc := ⟨.hbm, 611, rfl⟩
abbrev main_c_49 : Ref sig .tc := ⟨.hbm, 612, rfl⟩
abbrev main_call30_v0 : Ref sig .tc := ⟨.hbm, 613, rfl⟩
abbrev main_v384 : Ref sig .tc := ⟨.hbm, 614, rfl⟩
abbrev main_c_50 : Ref sig .tc := ⟨.hbm, 615, rfl⟩
abbrev main_call31_v0 : Ref sig .tc := ⟨.hbm, 616, rfl⟩
abbrev main_v385 : Ref sig .tc := ⟨.hbm, 617, rfl⟩
abbrev main_c_51 : Ref sig .tc := ⟨.hbm, 618, rfl⟩
abbrev main_call32_v0 : Ref sig .tc := ⟨.hbm, 619, rfl⟩
abbrev main_v386 : Ref sig .tc := ⟨.hbm, 620, rfl⟩
abbrev main_v387 : Ref sig .tc := ⟨.hbm, 621, rfl⟩
abbrev main_v388 : Ref sig .tc := ⟨.hbm, 622, rfl⟩
abbrev main_cst_52 : Ref sig .tc := ⟨.hbm, 623, rfl⟩
abbrev main_v389 : Ref sig .tc := ⟨.hbm, 624, rfl⟩
abbrev main_v390 : Ref sig .tc := ⟨.hbm, 625, rfl⟩
abbrev main_v391 : Ref sig .tc := ⟨.hbm, 626, rfl⟩
abbrev main_v392 : Ref sig .tc := ⟨.hbm, 627, rfl⟩
abbrev main_v393 : Ref sig .tc := ⟨.hbm, 628, rfl⟩
abbrev main_v394 : Ref sig .tc := ⟨.hbm, 629, rfl⟩
abbrev main_v395 : Ref sig .tc := ⟨.hbm, 630, rfl⟩
abbrev main_v396 : Ref sig .tc := ⟨.hbm, 631, rfl⟩
abbrev main_v397 : Ref sig .tc := ⟨.hbm, 632, rfl⟩
abbrev main_v398 : Ref sig .tc := ⟨.hbm, 633, rfl⟩
abbrev main_v399 : Ref sig .tc := ⟨.hbm, 634, rfl⟩
abbrev main_v400 : Ref sig .tc := ⟨.hbm, 635, rfl⟩
abbrev main_c_53 : Ref sig .tc := ⟨.hbm, 636, rfl⟩
abbrev main_call33_v0 : Ref sig .tc := ⟨.hbm, 637, rfl⟩
abbrev main_v401 : Ref sig .tc := ⟨.hbm, 638, rfl⟩
abbrev main_c_54 : Ref sig .tc := ⟨.hbm, 639, rfl⟩
abbrev main_call34_v0 : Ref sig .tc := ⟨.hbm, 640, rfl⟩
abbrev main_v402 : Ref sig .tc := ⟨.hbm, 641, rfl⟩
abbrev main_v403 : Ref sig .tc := ⟨.hbm, 642, rfl⟩
abbrev main_v404 : Ref sig .tc := ⟨.hbm, 643, rfl⟩
abbrev main_cst_55 : Ref sig .tc := ⟨.hbm, 644, rfl⟩
abbrev main_v405 : Ref sig .tc := ⟨.hbm, 645, rfl⟩
abbrev main_v406 : Ref sig .tc := ⟨.hbm, 646, rfl⟩
abbrev main_cst_56 : Ref sig .tc := ⟨.hbm, 647, rfl⟩
abbrev main_v407 : Ref sig .tc := ⟨.hbm, 648, rfl⟩
abbrev main_v408 : Ref sig .tc := ⟨.hbm, 649, rfl⟩
abbrev main_cst_57 : Ref sig .tc := ⟨.hbm, 650, rfl⟩
abbrev main_v409 : Ref sig .tc := ⟨.hbm, 651, rfl⟩
abbrev main_v410 : Ref sig .tc := ⟨.hbm, 652, rfl⟩
abbrev main_cst_58 : Ref sig .tc := ⟨.hbm, 653, rfl⟩
abbrev main_v411 : Ref sig .tc := ⟨.hbm, 654, rfl⟩
abbrev main_v412 : Ref sig .tc := ⟨.hbm, 655, rfl⟩
abbrev main_v413 : Ref sig .tc := ⟨.hbm, 656, rfl⟩
abbrev main_v414 : Ref sig .tc := ⟨.hbm, 657, rfl⟩
abbrev main_v415 : Ref sig .tc := ⟨.hbm, 658, rfl⟩
abbrev main_v416 : Ref sig .tc := ⟨.hbm, 659, rfl⟩
abbrev main_v417 : Ref sig .tc := ⟨.hbm, 660, rfl⟩
abbrev main_call35_cst : Ref sig .tc := ⟨.hbm, 661, rfl⟩
abbrev main_call35_v0 : Ref sig .tc := ⟨.hbm, 662, rfl⟩
abbrev main_v418 : Ref sig .tc := ⟨.hbm, 663, rfl⟩
abbrev main_v419 : Ref sig .tc := ⟨.hbm, 664, rfl⟩
abbrev main_v420 : Ref sig .tc := ⟨.hbm, 665, rfl⟩
abbrev main_v421 : Ref sig .tc := ⟨.hbm, 666, rfl⟩
abbrev main_v422 : Ref sig .tc := ⟨.hbm, 667, rfl⟩
abbrev main_call36_c : Ref sig .tc := ⟨.hbm, 668, rfl⟩
abbrev main_call36_v0 : Ref sig .tc := ⟨.hbm, 669, rfl⟩
abbrev main_call36_v1 : Ref sig .tc := ⟨.hbm, 670, rfl⟩
abbrev main_call36_c_0 : Ref sig .tc := ⟨.hbm, 671, rfl⟩
abbrev main_call36_v2 : Ref sig .tc := ⟨.hbm, 672, rfl⟩
abbrev main_call36_v3 : Ref sig .tc := ⟨.hbm, 673, rfl⟩
abbrev main_call36_v4 : Ref sig .tc := ⟨.hbm, 674, rfl⟩
abbrev main_call36_v5 : Ref sig .tc := ⟨.hbm, 675, rfl⟩
abbrev main_call36_c_1 : Ref sig .tc := ⟨.hbm, 676, rfl⟩
abbrev main_call36_c_2 : Ref sig .tc := ⟨.hbm, 677, rfl⟩
abbrev main_call36_v6 : Ref sig .tc := ⟨.hbm, 678, rfl⟩
abbrev main_call36_v7 : Ref sig .tc := ⟨.hbm, 679, rfl⟩
abbrev main_call36_v8 : Ref sig .tc := ⟨.hbm, 680, rfl⟩
abbrev main_call36_v9 : Ref sig .tc := ⟨.hbm, 681, rfl⟩
abbrev main_call36_v10 : Ref sig .tc := ⟨.hbm, 682, rfl⟩
abbrev main_call36_v11 : Ref sig .tc := ⟨.hbm, 683, rfl⟩
abbrev main_call36_c_3 : Ref sig .tc := ⟨.hbm, 684, rfl⟩
abbrev main_call36_v12 : Ref sig .tc := ⟨.hbm, 685, rfl⟩
abbrev main_call36_v13 : Ref sig .tc := ⟨.hbm, 686, rfl⟩
abbrev main_call36_v14 : Ref sig .tc := ⟨.hbm, 687, rfl⟩
abbrev main_call36_cst : Ref sig .tc := ⟨.hbm, 688, rfl⟩
abbrev main_call36_v15 : Ref sig .tc := ⟨.hbm, 689, rfl⟩
abbrev main_v423 : Ref sig .tc := ⟨.hbm, 690, rfl⟩
abbrev main_v424 : Ref sig .tc := ⟨.hbm, 691, rfl⟩
abbrev main_call37_c : Ref sig .tc := ⟨.hbm, 692, rfl⟩
abbrev main_call37_v0 : Ref sig .tc := ⟨.hbm, 693, rfl⟩
abbrev main_call37_v1 : Ref sig .tc := ⟨.hbm, 694, rfl⟩
abbrev main_call37_c_0 : Ref sig .tc := ⟨.hbm, 695, rfl⟩
abbrev main_call37_v2 : Ref sig .tc := ⟨.hbm, 696, rfl⟩
abbrev main_call37_v3 : Ref sig .tc := ⟨.hbm, 697, rfl⟩
abbrev main_call37_v4 : Ref sig .tc := ⟨.hbm, 698, rfl⟩
abbrev main_call37_v5 : Ref sig .tc := ⟨.hbm, 699, rfl⟩
abbrev main_call37_c_1 : Ref sig .tc := ⟨.hbm, 700, rfl⟩
abbrev main_call37_c_2 : Ref sig .tc := ⟨.hbm, 701, rfl⟩
abbrev main_call37_v6 : Ref sig .tc := ⟨.hbm, 702, rfl⟩
abbrev main_call37_v7 : Ref sig .tc := ⟨.hbm, 703, rfl⟩
abbrev main_call37_v8 : Ref sig .tc := ⟨.hbm, 704, rfl⟩
abbrev main_call37_v9 : Ref sig .tc := ⟨.hbm, 705, rfl⟩
abbrev main_call37_v10 : Ref sig .tc := ⟨.hbm, 706, rfl⟩
abbrev main_call37_v11 : Ref sig .tc := ⟨.hbm, 707, rfl⟩
abbrev main_call37_c_3 : Ref sig .tc := ⟨.hbm, 708, rfl⟩
abbrev main_call37_v12 : Ref sig .tc := ⟨.hbm, 709, rfl⟩
abbrev main_call37_v13 : Ref sig .tc := ⟨.hbm, 710, rfl⟩
abbrev main_call37_v14 : Ref sig .tc := ⟨.hbm, 711, rfl⟩
abbrev main_call37_cst : Ref sig .tc := ⟨.hbm, 712, rfl⟩
abbrev main_call37_v15 : Ref sig .tc := ⟨.hbm, 713, rfl⟩
abbrev main_v425 : Ref sig .tc := ⟨.hbm, 714, rfl⟩
abbrev main_v426 : Ref sig .tc := ⟨.hbm, 715, rfl⟩
abbrev main_v427 : Ref sig .tc := ⟨.hbm, 716, rfl⟩
abbrev main_v428 : Ref sig .tc := ⟨.hbm, 717, rfl⟩
abbrev main_v429 : Ref sig .tc := ⟨.hbm, 718, rfl⟩
abbrev main_v430 : Ref sig .tc := ⟨.hbm, 719, rfl⟩
abbrev main_v431 : Ref sig .tc := ⟨.hbm, 720, rfl⟩
abbrev main_v432 : Ref sig .tc := ⟨.hbm, 721, rfl⟩
abbrev main_v433 : Ref sig .tc := ⟨.hbm, 722, rfl⟩
abbrev main_v434 : Ref sig .tc := ⟨.hbm, 723, rfl⟩
abbrev main_v435 : Ref sig .tc := ⟨.hbm, 724, rfl⟩
abbrev main_c_59 : Ref sig .tc := ⟨.hbm, 725, rfl⟩
abbrev main_call38_v0 : Ref sig .tc := ⟨.hbm, 726, rfl⟩
abbrev main_v436 : Ref sig .tc := ⟨.hbm, 727, rfl⟩
abbrev main_c_60 : Ref sig .tc := ⟨.hbm, 728, rfl⟩
abbrev main_call39_v0 : Ref sig .tc := ⟨.hbm, 729, rfl⟩
abbrev main_v437 : Ref sig .tc := ⟨.hbm, 730, rfl⟩
abbrev main_c_61 : Ref sig .tc := ⟨.hbm, 731, rfl⟩
abbrev main_call40_v0 : Ref sig .tc := ⟨.hbm, 732, rfl⟩
abbrev main_v438 : Ref sig .tc := ⟨.hbm, 733, rfl⟩
abbrev main_v439 : Ref sig .tc := ⟨.hbm, 734, rfl⟩
abbrev main_v440 : Ref sig .tc := ⟨.hbm, 735, rfl⟩
abbrev main_cst_62 : Ref sig .tc := ⟨.hbm, 736, rfl⟩
abbrev main_v441 : Ref sig .tc := ⟨.hbm, 737, rfl⟩
abbrev main_v442 : Ref sig .tc := ⟨.hbm, 738, rfl⟩
abbrev main_v443 : Ref sig .tc := ⟨.hbm, 739, rfl⟩
abbrev main_v444 : Ref sig .tc := ⟨.hbm, 740, rfl⟩
abbrev main_v445 : Ref sig .tc := ⟨.hbm, 741, rfl⟩
abbrev main_v446 : Ref sig .tc := ⟨.hbm, 742, rfl⟩
abbrev main_v447 : Ref sig .tc := ⟨.hbm, 743, rfl⟩
abbrev main_v448 : Ref sig .tc := ⟨.hbm, 744, rfl⟩
abbrev main_v449 : Ref sig .tc := ⟨.hbm, 745, rfl⟩
abbrev main_v450 : Ref sig .tc := ⟨.hbm, 746, rfl⟩
abbrev main_v451 : Ref sig .tc := ⟨.hbm, 747, rfl⟩
abbrev main_v452 : Ref sig .tc := ⟨.hbm, 748, rfl⟩
abbrev main_c_63 : Ref sig .tc := ⟨.hbm, 749, rfl⟩
abbrev main_call41_v0 : Ref sig .tc := ⟨.hbm, 750, rfl⟩
abbrev main_v453 : Ref sig .tc := ⟨.hbm, 751, rfl⟩
abbrev main_c_64 : Ref sig .tc := ⟨.hbm, 752, rfl⟩
abbrev main_call42_v0 : Ref sig .tc := ⟨.hbm, 753, rfl⟩
abbrev main_v454 : Ref sig .tc := ⟨.hbm, 754, rfl⟩
abbrev main_v455 : Ref sig .tc := ⟨.hbm, 755, rfl⟩
abbrev main_v456 : Ref sig .tc := ⟨.hbm, 756, rfl⟩
abbrev main_cst_65 : Ref sig .tc := ⟨.hbm, 757, rfl⟩
abbrev main_v457 : Ref sig .tc := ⟨.hbm, 758, rfl⟩
abbrev main_v458 : Ref sig .tc := ⟨.hbm, 759, rfl⟩
abbrev main_cst_66 : Ref sig .tc := ⟨.hbm, 760, rfl⟩
abbrev main_v459 : Ref sig .tc := ⟨.hbm, 761, rfl⟩
abbrev main_v460 : Ref sig .tc := ⟨.hbm, 762, rfl⟩
abbrev main_cst_67 : Ref sig .tc := ⟨.hbm, 763, rfl⟩
abbrev main_v461 : Ref sig .tc := ⟨.hbm, 764, rfl⟩
abbrev main_v462 : Ref sig .tc := ⟨.hbm, 765, rfl⟩
abbrev main_cst_68 : Ref sig .tc := ⟨.hbm, 766, rfl⟩
abbrev main_v463 : Ref sig .tc := ⟨.hbm, 767, rfl⟩
abbrev main_v464 : Ref sig .tc := ⟨.hbm, 768, rfl⟩
abbrev main_v465 : Ref sig .tc := ⟨.hbm, 769, rfl⟩
abbrev main_v466 : Ref sig .tc := ⟨.hbm, 770, rfl⟩
abbrev main_v467 : Ref sig .tc := ⟨.hbm, 771, rfl⟩
abbrev main_v468 : Ref sig .tc := ⟨.hbm, 772, rfl⟩
abbrev main_v469 : Ref sig .tc := ⟨.hbm, 773, rfl⟩
abbrev main_call43_cst : Ref sig .tc := ⟨.hbm, 774, rfl⟩
abbrev main_call43_v0 : Ref sig .tc := ⟨.hbm, 775, rfl⟩
abbrev main_v470 : Ref sig .tc := ⟨.hbm, 776, rfl⟩
abbrev main_v471 : Ref sig .tc := ⟨.hbm, 777, rfl⟩
abbrev main_v472 : Ref sig .tc := ⟨.hbm, 778, rfl⟩
abbrev main_v473 : Ref sig .tc := ⟨.hbm, 779, rfl⟩
abbrev main_v474 : Ref sig .tc := ⟨.hbm, 780, rfl⟩
abbrev main_v475 : Ref sig .tc := ⟨.hbm, 781, rfl⟩
abbrev main_v476 : Ref sig .tc := ⟨.hbm, 782, rfl⟩
abbrev main_v477 : Ref sig .tc := ⟨.hbm, 783, rfl⟩
abbrev main_v478 : Ref sig .tc := ⟨.hbm, 784, rfl⟩
abbrev main_v479 : Ref sig .tc := ⟨.hbm, 785, rfl⟩
abbrev main_v480 : Ref sig .tc := ⟨.hbm, 786, rfl⟩
abbrev main_v481 : Ref sig .tc := ⟨.hbm, 787, rfl⟩
abbrev main_v482 : Ref sig .tc := ⟨.hbm, 788, rfl⟩
abbrev main_v483 : Ref sig .tc := ⟨.hbm, 789, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg7_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg2_1 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc4_stg8_0 : Ref sig .tc := ⟨.vmem, 61, rfl⟩
abbrev cc4_stg9_0 : Ref sig .tc := ⟨.vmem, 62, rfl⟩
abbrev cc4_stg9_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg3_0 : Ref sig .tc := ⟨.vmem, 69, rfl⟩
abbrev cc5_stg4_0 : Ref sig .tc := ⟨.vmem, 70, rfl⟩
abbrev cc5_stg5_0 : Ref sig .tc := ⟨.vmem, 71, rfl⟩
abbrev cc5_stg6_0 : Ref sig .tc := ⟨.vmem, 72, rfl⟩
abbrev cc5_stg7_0 : Ref sig .tc := ⟨.vmem, 73, rfl⟩
abbrev cc5_stg7_1 : Ref sig .tc := ⟨.vmem, 74, rfl⟩
abbrev cc6_stg0_0 : Ref sig .tc := ⟨.vmem, 75, rfl⟩
abbrev cc6_stg0_1 : Ref sig .tc := ⟨.vmem, 76, rfl⟩
abbrev cc6_stg1_0 : Ref sig .tc := ⟨.vmem, 77, rfl⟩
abbrev cc6_stg1_1 : Ref sig .tc := ⟨.vmem, 78, rfl⟩
abbrev cc6_stg2_0 : Ref sig .tc := ⟨.vmem, 79, rfl⟩
abbrev cc6_stg2_1 : Ref sig .tc := ⟨.vmem, 80, rfl⟩
abbrev cc6_stg3_0 : Ref sig .tc := ⟨.vmem, 81, rfl⟩
abbrev cc6_stg4_0 : Ref sig .tc := ⟨.vmem, 82, rfl⟩
abbrev cc6_stg5_0 : Ref sig .tc := ⟨.vmem, 83, rfl⟩
abbrev cc6_stg6_0 : Ref sig .tc := ⟨.vmem, 84, rfl⟩
abbrev cc6_stg7_0 : Ref sig .tc := ⟨.vmem, 85, rfl⟩
abbrev cc6_stg8_0 : Ref sig .tc := ⟨.vmem, 86, rfl⟩
abbrev cc6_stg9_0 : Ref sig .tc := ⟨.vmem, 87, rfl⟩
abbrev cc6_stg9_1 : Ref sig .tc := ⟨.vmem, 88, rfl⟩
abbrev cc7_stg0_0 : Ref sig .tc := ⟨.vmem, 89, rfl⟩
abbrev cc7_stg0_1 : Ref sig .tc := ⟨.vmem, 90, rfl⟩
abbrev cc7_stg1_0 : Ref sig .tc := ⟨.vmem, 91, rfl⟩
abbrev cc7_stg1_1 : Ref sig .tc := ⟨.vmem, 92, rfl⟩
abbrev cc7_stg2_0 : Ref sig .tc := ⟨.vmem, 93, rfl⟩
abbrev cc7_stg3_0 : Ref sig .tc := ⟨.vmem, 94, rfl⟩
abbrev cc7_stg4_0 : Ref sig .tc := ⟨.vmem, 95, rfl⟩
abbrev cc7_stg5_0 : Ref sig .tc := ⟨.vmem, 96, rfl⟩
abbrev cc7_stg6_0 : Ref sig .tc := ⟨.vmem, 97, rfl⟩
abbrev cc7_stg7_0 : Ref sig .tc := ⟨.vmem, 98, rfl⟩
abbrev cc7_stg7_1 : Ref sig .tc := ⟨.vmem, 99, rfl⟩
abbrev cc8_stg0_0 : Ref sig .tc := ⟨.vmem, 100, rfl⟩
abbrev cc8_stg0_1 : Ref sig .tc := ⟨.vmem, 101, rfl⟩
abbrev cc8_stg1_0 : Ref sig .tc := ⟨.vmem, 102, rfl⟩
abbrev cc8_stg1_1 : Ref sig .tc := ⟨.vmem, 103, rfl⟩
abbrev cc8_stg2_0 : Ref sig .tc := ⟨.vmem, 104, rfl⟩
abbrev cc8_stg2_1 : Ref sig .tc := ⟨.vmem, 105, rfl⟩
abbrev cc8_stg3_0 : Ref sig .tc := ⟨.vmem, 106, rfl⟩
abbrev cc8_stg4_0 : Ref sig .tc := ⟨.vmem, 107, rfl⟩
abbrev cc8_stg5_0 : Ref sig .tc := ⟨.vmem, 108, rfl⟩
abbrev cc8_stg6_0 : Ref sig .tc := ⟨.vmem, 109, rfl⟩
abbrev cc8_stg7_0 : Ref sig .tc := ⟨.vmem, 110, rfl⟩
abbrev cc8_stg8_0 : Ref sig .tc := ⟨.vmem, 111, rfl⟩
abbrev cc8_stg9_0 : Ref sig .tc := ⟨.vmem, 112, rfl⟩
abbrev cc8_stg9_1 : Ref sig .tc := ⟨.vmem, 113, rfl⟩
abbrev cc9_stg0_0 : Ref sig .tc := ⟨.vmem, 114, rfl⟩
abbrev cc9_stg0_1 : Ref sig .tc := ⟨.vmem, 115, rfl⟩
abbrev cc9_stg1_0 : Ref sig .tc := ⟨.vmem, 116, rfl⟩
abbrev cc9_stg1_1 : Ref sig .tc := ⟨.vmem, 117, rfl⟩
abbrev cc9_stg2_0 : Ref sig .tc := ⟨.vmem, 118, rfl⟩
abbrev cc9_stg3_0 : Ref sig .tc := ⟨.vmem, 119, rfl⟩
abbrev cc9_stg4_0 : Ref sig .tc := ⟨.vmem, 120, rfl⟩
abbrev cc9_stg5_0 : Ref sig .tc := ⟨.vmem, 121, rfl⟩
abbrev cc9_stg6_0 : Ref sig .tc := ⟨.vmem, 122, rfl⟩
abbrev cc9_stg7_0 : Ref sig .tc := ⟨.vmem, 123, rfl⟩
abbrev cc9_stg7_1 : Ref sig .tc := ⟨.vmem, 124, rfl⟩
abbrev cc10_stg0_0 : Ref sig .tc := ⟨.vmem, 125, rfl⟩
abbrev cc10_stg0_1 : Ref sig .tc := ⟨.vmem, 126, rfl⟩
abbrev cc10_stg1_0 : Ref sig .tc := ⟨.vmem, 127, rfl⟩
abbrev cc10_stg1_1 : Ref sig .tc := ⟨.vmem, 128, rfl⟩
abbrev cc10_stg2_0 : Ref sig .tc := ⟨.vmem, 129, rfl⟩
abbrev cc10_stg2_1 : Ref sig .tc := ⟨.vmem, 130, rfl⟩
abbrev cc10_stg3_0 : Ref sig .tc := ⟨.vmem, 131, rfl⟩
abbrev cc10_stg4_0 : Ref sig .tc := ⟨.vmem, 132, rfl⟩
abbrev cc10_stg5_0 : Ref sig .tc := ⟨.vmem, 133, rfl⟩
abbrev cc10_stg6_0 : Ref sig .tc := ⟨.vmem, 134, rfl⟩
abbrev cc10_stg7_0 : Ref sig .tc := ⟨.vmem, 135, rfl⟩
abbrev cc10_stg8_0 : Ref sig .tc := ⟨.vmem, 136, rfl⟩
abbrev cc10_stg9_0 : Ref sig .tc := ⟨.vmem, 137, rfl⟩
abbrev cc10_stg9_1 : Ref sig .tc := ⟨.vmem, 138, rfl⟩
abbrev cc11_stg0_0 : Ref sig .tc := ⟨.vmem, 139, rfl⟩
abbrev cc11_stg0_1 : Ref sig .tc := ⟨.vmem, 140, rfl⟩
abbrev cc11_stg1_0 : Ref sig .tc := ⟨.vmem, 141, rfl⟩
abbrev cc11_stg1_1 : Ref sig .tc := ⟨.vmem, 142, rfl⟩
abbrev cc11_stg2_0 : Ref sig .tc := ⟨.vmem, 143, rfl⟩
abbrev cc11_stg3_0 : Ref sig .tc := ⟨.vmem, 144, rfl⟩
abbrev cc11_stg4_0 : Ref sig .tc := ⟨.vmem, 145, rfl⟩
abbrev cc11_stg5_0 : Ref sig .tc := ⟨.vmem, 146, rfl⟩
abbrev cc11_stg6_0 : Ref sig .tc := ⟨.vmem, 147, rfl⟩
abbrev cc11_stg7_0 : Ref sig .tc := ⟨.vmem, 148, rfl⟩
abbrev cc11_stg7_1 : Ref sig .tc := ⟨.vmem, 149, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem7_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem8_0 : DmaSem sig := 61
abbrev cc4_sem9_0 : DmaSem sig := 62
abbrev cc4_sem9_1 : DmaSem sig := 63
abbrev cc5_sem0_0 : DmaSem sig := 64
abbrev cc5_sem0_1 : DmaSem sig := 65
abbrev cc5_sem1_0 : DmaSem sig := 66
abbrev cc5_sem1_1 : DmaSem sig := 67
abbrev cc5_sem2_0 : DmaSem sig := 68
abbrev cc5_sem3_0 : DmaSem sig := 69
abbrev cc5_sem4_0 : DmaSem sig := 70
abbrev cc5_sem5_0 : DmaSem sig := 71
abbrev cc5_sem6_0 : DmaSem sig := 72
abbrev cc5_sem7_0 : DmaSem sig := 73
abbrev cc5_sem7_1 : DmaSem sig := 74
abbrev cc6_sem0_0 : DmaSem sig := 75
abbrev cc6_sem0_1 : DmaSem sig := 76
abbrev cc6_sem1_0 : DmaSem sig := 77
abbrev cc6_sem1_1 : DmaSem sig := 78
abbrev cc6_sem2_0 : DmaSem sig := 79
abbrev cc6_sem2_1 : DmaSem sig := 80
abbrev cc6_sem3_0 : DmaSem sig := 81
abbrev cc6_sem4_0 : DmaSem sig := 82
abbrev cc6_sem5_0 : DmaSem sig := 83
abbrev cc6_sem6_0 : DmaSem sig := 84
abbrev cc6_sem7_0 : DmaSem sig := 85
abbrev cc6_sem8_0 : DmaSem sig := 86
abbrev cc6_sem9_0 : DmaSem sig := 87
abbrev cc6_sem9_1 : DmaSem sig := 88
abbrev cc7_sem0_0 : DmaSem sig := 89
abbrev cc7_sem0_1 : DmaSem sig := 90
abbrev cc7_sem1_0 : DmaSem sig := 91
abbrev cc7_sem1_1 : DmaSem sig := 92
abbrev cc7_sem2_0 : DmaSem sig := 93
abbrev cc7_sem3_0 : DmaSem sig := 94
abbrev cc7_sem4_0 : DmaSem sig := 95
abbrev cc7_sem5_0 : DmaSem sig := 96
abbrev cc7_sem6_0 : DmaSem sig := 97
abbrev cc7_sem7_0 : DmaSem sig := 98
abbrev cc7_sem7_1 : DmaSem sig := 99
abbrev cc8_sem0_0 : DmaSem sig := 100
abbrev cc8_sem0_1 : DmaSem sig := 101
abbrev cc8_sem1_0 : DmaSem sig := 102
abbrev cc8_sem1_1 : DmaSem sig := 103
abbrev cc8_sem2_0 : DmaSem sig := 104
abbrev cc8_sem2_1 : DmaSem sig := 105
abbrev cc8_sem3_0 : DmaSem sig := 106
abbrev cc8_sem4_0 : DmaSem sig := 107
abbrev cc8_sem5_0 : DmaSem sig := 108
abbrev cc8_sem6_0 : DmaSem sig := 109
abbrev cc8_sem7_0 : DmaSem sig := 110
abbrev cc8_sem8_0 : DmaSem sig := 111
abbrev cc8_sem9_0 : DmaSem sig := 112
abbrev cc8_sem9_1 : DmaSem sig := 113
abbrev cc9_sem0_0 : DmaSem sig := 114
abbrev cc9_sem0_1 : DmaSem sig := 115
abbrev cc9_sem1_0 : DmaSem sig := 116
abbrev cc9_sem1_1 : DmaSem sig := 117
abbrev cc9_sem2_0 : DmaSem sig := 118
abbrev cc9_sem3_0 : DmaSem sig := 119
abbrev cc9_sem4_0 : DmaSem sig := 120
abbrev cc9_sem5_0 : DmaSem sig := 121
abbrev cc9_sem6_0 : DmaSem sig := 122
abbrev cc9_sem7_0 : DmaSem sig := 123
abbrev cc9_sem7_1 : DmaSem sig := 124
abbrev cc10_sem0_0 : DmaSem sig := 125
abbrev cc10_sem0_1 : DmaSem sig := 126
abbrev cc10_sem1_0 : DmaSem sig := 127
abbrev cc10_sem1_1 : DmaSem sig := 128
abbrev cc10_sem2_0 : DmaSem sig := 129
abbrev cc10_sem2_1 : DmaSem sig := 130
abbrev cc10_sem3_0 : DmaSem sig := 131
abbrev cc10_sem4_0 : DmaSem sig := 132
abbrev cc10_sem5_0 : DmaSem sig := 133
abbrev cc10_sem6_0 : DmaSem sig := 134
abbrev cc10_sem7_0 : DmaSem sig := 135
abbrev cc10_sem8_0 : DmaSem sig := 136
abbrev cc10_sem9_0 : DmaSem sig := 137
abbrev cc10_sem9_1 : DmaSem sig := 138
abbrev cc11_sem0_0 : DmaSem sig := 139
abbrev cc11_sem0_1 : DmaSem sig := 140
abbrev cc11_sem1_0 : DmaSem sig := 141
abbrev cc11_sem1_1 : DmaSem sig := 142
abbrev cc11_sem2_0 : DmaSem sig := 143
abbrev cc11_sem3_0 : DmaSem sig := 144
abbrev cc11_sem4_0 : DmaSem sig := 145
abbrev cc11_sem5_0 : DmaSem sig := 146
abbrev cc11_sem6_0 : DmaSem sig := 147
abbrev cc11_sem7_0 : DmaSem sig := 148
abbrev cc11_sem7_1 : DmaSem sig := 149

abbrev nD : Nat := 1
abbrev τ : Topo := Topo.v7x

variable {F : FTy → Type} [FloatOps F]

abbrev grid0 : Pipeline.Grid := ⟨1, ![135], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x8 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x2 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x8 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![135], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x8 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x8 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x2 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8192x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x8 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8192x8 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![135], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x8 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x8 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x2 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S8x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S8x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S32x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S8192x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![13], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x8 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x1 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S8x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x8 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x8 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S8192x8 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![135], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x8 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8192x8 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8192x2 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S8x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S8x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S32x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S8192x1 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![13], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x8 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8192x1 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S8x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S32x8 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x8 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S8192x8 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![135], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x8 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8192x8 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8192x2 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S8x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S8x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S2x32 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x32 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S32x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x1 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S8192x1 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![13], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x8 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8192x1 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S8x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S32x8 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x8 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S8192x8 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![135], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8192x8 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8192x8 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8192x2 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S8x32 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S8x32 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S2x32 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x32 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S32x1 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x1 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 2 → Memref sig .tc .vmem S8192x1 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![13], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8192x8 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8192x1 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S8x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x32 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x32 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S32x8 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x8 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S8192x8 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

class Facts₀ : Prop where
  slices_S2x1100000_S1x1100000_0_0 : S2x1100000.Slices ![0, 0] S1x1100000
  shapeCasts_S1x1100000_S1100000 : S1x1100000.ShapeCasts S1100000
  slices_S2x1100000_S1x1100000_1_0 : S2x1100000.Slices ![1, 0] S1x1100000
  bcast_S_S1100000x1 : S_.BroadcastsInDim S1100000x1 (![] : Fin 0 → Fin S1100000x1.rank)
  bcast_S_S100000x1 : S_.BroadcastsInDim S100000x1 (![] : Fin 0 → Fin S100000x1.rank)
  bcast_S1100000_S1100000x1_0 : S1100000.BroadcastsInDim S1100000x1 (![0] : Fin 1 → Fin S1100000x1.rank)
  bitsLt_bf16_f32 : FTy.bits .bf16 < FTy.bits .f32
  bcast_S_S1100000 : S_.BroadcastsInDim S1100000 (![] : Fin 0 → Fin S1100000.rank)
  bcast_S1_S1x1_1 : S1.BroadcastsInDim S1x1 (![1] : Fin 1 → Fin S1x1.rank)
  bcast_S1x1_S1100000x1_0_1 : S1x1.BroadcastsInDim S1100000x1 (![0, 1] : Fin 2 → Fin S1100000x1.rank)
  reducesTo_S1100000x1_S1100000_d1 : S1100000x1.ReducesTo [1] S1100000
  h_S_ : 0 < S_.numel
  bcast_S1100000_S1100000x8_0 : S1100000.BroadcastsInDim S1100000x8 (![0] : Fin 1 → Fin S1100000x8.rank)
  bcast_S_S1100000x8 : S_.BroadcastsInDim S1100000x8 (![] : Fin 0 → Fin S1100000x8.rank)
  bcast_S_S1x8 : S_.BroadcastsInDim S1x8 (![] : Fin 0 → Fin S1x8.rank)
  slices_S2x3x26x32_S1x1x26x32_0_0_0_0 : S2x3x26x32.Slices ![0, 0, 0, 0] S1x1x26x32
  shapeCasts_S1x1x26x32_S26x32 : S1x1x26x32.ShapeCasts S26x32
  slices_S2x3x32_S1x1x32_0_0_0 : S2x3x32.Slices ![0, 0, 0] S1x1x32
  shapeCasts_S1x1x32_S32 : S1x1x32.ShapeCasts S32
  slices_S2x3x32x1_S1x1x32x1_0_0_0_0 : S2x3x32x1.Slices ![0, 0, 0, 0] S1x1x32x1
  shapeCasts_S1x1x32x1_S32x1 : S1x1x32x1.ShapeCasts S32x1
  slices_S2x3x1_S1x1x1_0_0_0 : S2x3x1.Slices ![0, 0, 0] S1x1x1
  shapeCasts_S1x1x1_S1 : S1x1x1.ShapeCasts S1
  slices_S2x3x17x32_S1x1x17x32_0_0_0_0 : S2x3x17x32.Slices ![0, 0, 0, 0] S1x1x17x32
  shapeCasts_S1x1x17x32_S17x32 : S1x1x17x32.ShapeCasts S17x32
  slices_S2x3x32x8_S1x1x32x8_0_0_0_0 : S2x3x32x8.Slices ![0, 0, 0, 0] S1x1x32x8
  shapeCasts_S1x1x32x8_S32x8 : S1x1x32x8.ShapeCasts S32x8
  slices_S2x3x8_S1x1x8_0_0_0 : S2x3x8.Slices ![0, 0, 0] S1x1x8
  shapeCasts_S1x1x8_S8 : S1x1x8.ShapeCasts S8
  slices_S2x3x26x32_S1x1x26x32_1_0_0_0 : S2x3x26x32.Slices ![1, 0, 0, 0] S1x1x26x32
  slices_S2x3x32_S1x1x32_1_0_0 : S2x3x32.Slices ![1, 0, 0] S1x1x32
  slices_S2x3x32x1_S1x1x32x1_1_0_0_0 : S2x3x32x1.Slices ![1, 0, 0, 0] S1x1x32x1
  slices_S2x3x1_S1x1x1_1_0_0 : S2x3x1.Slices ![1, 0, 0] S1x1x1
  slices_S2x3x17x32_S1x1x17x32_1_0_0_0 : S2x3x17x32.Slices ![1, 0, 0, 0] S1x1x17x32
  slices_S2x3x32x8_S1x1x32x8_1_0_0_0 : S2x3x32x8.Slices ![1, 0, 0, 0] S1x1x32x8
  slices_S2x3x8_S1x1x8_1_0_0 : S2x3x8.Slices ![1, 0, 0] S1x1x8
  concatenates_S1100000x1_S1100000x1_S1100000x2_d1 : Shape.Concatenates [S1100000x1, S1100000x1] S1100000x2 1
  slices_S26x32_S8x32_0_0 : S26x32.Slices ![0, 0] S8x32
  slices_S26x32_S8x32_8_0 : S26x32.Slices ![8, 0] S8x32
  slices_S26x32_S8x32_16_0 : S26x32.Slices ![16, 0] S8x32
  slices_S26x32_S2x32_24_0 : S26x32.Slices ![24, 0] S2x32
  shapeCasts_S32_S1x32 : S32.ShapeCasts S1x32
  shapeCasts_S1_S1x1 : S1.ShapeCasts S1x1
  pads_S1100000x8_S1105920x8_059200_000 : S1100000x8.Pads (![0, 0] : Fin 2 → Nat) ![5920, 0] ![0, 0] S1105920x8
  pads_S1100000x2_S1105920x2_059200_000 : S1100000x2.Pads (![0, 0] : Fin 2 → Nat) ![5920, 0] ![0, 0] S1105920x2
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  slices_S1105920x1_S1100000x1_0_0 : S1105920x1.Slices ![0, 0] S1100000x1
  slices_S17x32_S8x32_0_0 : S17x32.Slices ![0, 0] S8x32
  slices_S17x32_S8x32_8_0 : S17x32.Slices ![8, 0] S8x32
  slices_S17x32_S1x32_16_0 : S17x32.Slices ![16, 0] S1x32
  shapeCasts_S8_S1x8 : S8.ShapeCasts S1x8
  pads_S100000x8_S106496x8_064960_000 : S100000x8.Pads (![0, 0] : Fin 2 → Nat) ![6496, 0] ![0, 0] S106496x8
  pads_S100000x1_S106496x1_064960_000 : S100000x1.Pads (![0, 0] : Fin 2 → Nat) ![6496, 0] ![0, 0] S106496x1
  shapeCasts_S8192x1_S8192x1 : S8192x1.ShapeCasts S8192x1
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  slices_S106496x8_S100000x8_0_0 : S106496x8.Slices ![0, 0] S100000x8
  reducesTo_S100000x8_S8_d0 : S100000x8.ReducesTo [0] S8
  bcast_S8_S1x8_1 : S8.BroadcastsInDim S1x8 (![1] : Fin 1 → Fin S1x8.rank)
  reducesTo_S1100000x1_S1_d0 : S1100000x1.ReducesTo [0] S1
  bcast_S_S1x1 : S_.BroadcastsInDim S1x1 (![] : Fin 0 → Fin S1x1.rank)
  concatenates_S1x8_S1x1_S1x8_S1x17_d1 : Shape.Concatenates [S1x8, S1x1, S1x8] S1x17 1
  bcast_S_S1x32 : S_.BroadcastsInDim S1x32 (![] : Fin 0 → Fin S1x32.rank)
  slices_S2x3x26x32_S1x1x26x32_0_1_0_0 : S2x3x26x32.Slices ![0, 1, 0, 0] S1x1x26x32
  slices_S2x3x32_S1x1x32_0_1_0 : S2x3x32.Slices ![0, 1, 0] S1x1x32
  slices_S2x3x32x1_S1x1x32x1_0_1_0_0 : S2x3x32x1.Slices ![0, 1, 0, 0] S1x1x32x1
  slices_S2x3x1_S1x1x1_0_1_0 : S2x3x1.Slices ![0, 1, 0] S1x1x1
  slices_S2x3x17x32_S1x1x17x32_0_1_0_0 : S2x3x17x32.Slices ![0, 1, 0, 0] S1x1x17x32
  slices_S2x3x32x8_S1x1x32x8_0_1_0_0 : S2x3x32x8.Slices ![0, 1, 0, 0] S1x1x32x8
  slices_S2x3x8_S1x1x8_0_1_0 : S2x3x8.Slices ![0, 1, 0] S1x1x8
  slices_S2x3x26x32_S1x1x26x32_1_1_0_0 : S2x3x26x32.Slices ![1, 1, 0, 0] S1x1x26x32
  slices_S2x3x32_S1x1x32_1_1_0 : S2x3x32.Slices ![1, 1, 0] S1x1x32
  slices_S2x3x32x1_S1x1x32x1_1_1_0_0 : S2x3x32x1.Slices ![1, 1, 0, 0] S1x1x32x1
  slices_S2x3x1_S1x1x1_1_1_0 : S2x3x1.Slices ![1, 1, 0] S1x1x1
  slices_S2x3x17x32_S1x1x17x32_1_1_0_0 : S2x3x17x32.Slices ![1, 1, 0, 0] S1x1x17x32
  slices_S2x3x32x8_S1x1x32x8_1_1_0_0 : S2x3x32x8.Slices ![1, 1, 0, 0] S1x1x32x8
  slices_S2x3x8_S1x1x8_1_1_0 : S2x3x8.Slices ![1, 1, 0] S1x1x8
  slices_S2x3x26x32_S1x1x26x32_0_2_0_0 : S2x3x26x32.Slices ![0, 2, 0, 0] S1x1x26x32
  slices_S2x3x32_S1x1x32_0_2_0 : S2x3x32.Slices ![0, 2, 0] S1x1x32
  slices_S2x3x32x1_S1x1x32x1_0_2_0_0 : S2x3x32x1.Slices ![0, 2, 0, 0] S1x1x32x1
  slices_S2x3x1_S1x1x1_0_2_0 : S2x3x1.Slices ![0, 2, 0] S1x1x1
  slices_S2x3x17x32_S1x1x17x32_0_2_0_0 : S2x3x17x32.Slices ![0, 2, 0, 0] S1x1x17x32
  slices_S2x3x32x8_S1x1x32x8_0_2_0_0 : S2x3x32x8.Slices ![0, 2, 0, 0] S1x1x32x8
  slices_S2x3x8_S1x1x8_0_2_0 : S2x3x8.Slices ![0, 2, 0] S1x1x8
  slices_S2x3x26x32_S1x1x26x32_1_2_0_0 : S2x3x26x32.Slices ![1, 2, 0, 0] S1x1x26x32
  slices_S2x3x32_S1x1x32_1_2_0 : S2x3x32.Slices ![1, 2, 0] S1x1x32
  slices_S2x3x32x1_S1x1x32x1_1_2_0_0 : S2x3x32x1.Slices ![1, 2, 0, 0] S1x1x32x1
  slices_S2x3x1_S1x1x1_1_2_0 : S2x3x1.Slices ![1, 2, 0] S1x1x1
  slices_S2x3x17x32_S1x1x17x32_1_2_0_0 : S2x3x17x32.Slices ![1, 2, 0, 0] S1x1x17x32
  slices_S2x3x32x8_S1x1x32x8_1_2_0_0 : S2x3x32x8.Slices ![1, 2, 0, 0] S1x1x32x8
  slices_S2x3x8_S1x1x8_1_2_0 : S2x3x8.Slices ![1, 2, 0] S1x1x8
  shapeCasts_S1100000x1_S1100000 : S1100000x1.ShapeCasts S1100000
  concatenates_S1100000_S1100000_S2200000_d0 : Shape.Concatenates [S1100000, S1100000] S2200000 0
  scatter_S100000x1_S1100000x1_S1100000x1_1_0_0_1_wf : ScatterDims.WF S100000x1 S1100000x1 S1100000x1 [1] [0] [0] 1
  gather_S100000x8_S1100000x1_S1100000x8_1_0_n_n_0_1_18_wf : GatherDims.WF S100000x8 S1100000x1 S1100000x8 [1] [0] [] [0] [] 1 ![1, 8]
  dot_S1x8_S8x32_S1x32_1_0_0_1_n_n_wf : DotDims.WF S1x8 S8x32 S1x32 [1] [0] [0] [1] [] []
  dot_S8192x8_S8x32_S8192x32_1_0_0_1_n_n_wf : DotDims.WF S8192x8 S8x32 S8192x32 [1] [0] [0] [1] [] []
  dot_S8192x2_S2x32_S8192x32_1_0_0_1_n_n_wf : DotDims.WF S8192x2 S2x32 S8192x32 [1] [0] [0] [1] [] []
  dot_S8192x32_S32x1_S8192x1_1_0_0_1_n_n_wf : DotDims.WF S8192x32 S32x1 S8192x1 [1] [0] [0] [1] [] []
  dot_S8192x1_S1x32_S8192x32_1_0_0_1_n_n_wf : DotDims.WF S8192x1 S1x32 S8192x32 [1] [0] [0] [1] [] []
  dot_S8192x32_S32x8_S8192x8_1_0_0_1_n_n_wf : DotDims.WF S8192x32 S32x8 S8192x8 [1] [0] [0] [1] [] []
  dot_S1x17_S17x32_S1x32_1_0_0_1_n_n_wf : DotDims.WF S1x17 S17x32 S1x32 [1] [0] [0] [1] [] []
  dot_S1x32_S32x8_S1x8_1_0_0_1_n_n_wf : DotDims.WF S1x32 S32x8 S1x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S1105920x8.size a
  hwx0_0 : ∀ i : grid0.Coords, EltTy.bits .bf16 = 32 ∨ (Rect.block (s := S1105920x8) S8192x8.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x8.size a ≤ S1105920x8.size a
  hwx0_1 : ∀ i : grid0.Coords, EltTy.bits .bf16 = 32 ∨ (Rect.block (s := S1105920x8) S8192x8.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x2.size a ≤ S1105920x2.size a
  hwx0_2 : ∀ i : grid0.Coords, EltTy.bits .bf16 = 32 ∨ (Rect.block (s := S1105920x2) S8192x2.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32.size a ≤ S8x32.size a
  hwx0_3 : ∀ i : grid0.Coords, EltTy.bits .f32 = 32 ∨ (Rect.block (s := S8x32) S8x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x32.size a ≤ S8x32.size a
  hwx0_4 : ∀ i : grid0.Coords, EltTy.bits .f32 = 32 ∨ (Rect.block (s := S8x32) S8x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x32.size a ≤ S2x32.size a
  hwx0_5 : ∀ i : grid0.Coords, EltTy.bits .f32 = 32 ∨ (Rect.block (s := S2x32) S2x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x1.size a ≤ S1105920x1.size a
  hwx0_9 : ∀ i : grid0.Coords, EltTy.bits .f32 = 32 ∨ (Rect.block (s := S1105920x1) S8192x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x8.size a ≤ S106496x8.size a
  hwx1_0 : ∀ i : grid1.Coords, EltTy.bits .bf16 = 32 ∨ (Rect.block (s := S106496x8) S8192x8.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S106496x1.size a
  hwx1_1 : ∀ i : grid1.Coords, EltTy.bits .bf16 = 32 ∨ (Rect.block (s := S106496x1) S8192x1.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x32.size a ≤ S8x32.size a
  hwx1_2 : ∀ i : grid1.Coords, EltTy.bits .f32 = 32 ∨ (Rect.block (s := S8x32) S8x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x8.size a ≤ S32x8.size a
  hwx1_5 : ∀ i : grid1.Coords, EltTy.bits .f32 = 32 ∨ (Rect.block (s := S32x8) S32x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x8.size a ≤ S1x8.size a
  hwx1_6 : ∀ i : grid1.Coords, EltTy.bits .f32 = 32 ∨ (Rect.block (s := S1x8) S1x8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8192x8.size a ≤ S106496x8.size a
  hwx1_7 : ∀ i : grid1.Coords, EltTy.bits .f32 = 32 ∨ (Rect.block (s := S106496x8) S8192x8.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x8.size a ≤ S1105920x8.size a
  hwx2_0 : ∀ i : grid2.Coords, EltTy.bits .bf16 = 32 ∨ (Rect.block (s := S1105920x8) S8192x8.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x8.size a ≤ S1105920x8.size a
  hwx2_1 : ∀ i : grid2.Coords, EltTy.bits .bf16 = 32 ∨ (Rect.block (s := S1105920x8) S8192x8.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x2.size a ≤ S1105920x2.size a
  hwx2_2 : ∀ i : grid2.Coords, EltTy.bits .bf16 = 32 ∨ (Rect.block (s := S1105920x2) S8192x2.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x32.size a ≤ S8x32.size a
  hwx2_3 : ∀ i : grid2.Coords, EltTy.bits .f32 = 32 ∨ (Rect.block (s := S8x32) S8x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x32.size a ≤ S8x32.size a
  hwx2_4 : ∀ i : grid2.Coords, EltTy.bits .f32 = 32 ∨ (Rect.block (s := S8x32) S8x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2x32.size a ≤ S2x32.size a
  hwx2_5 : ∀ i : grid2.Coords, EltTy.bits .f32 = 32 ∨ (Rect.block (s := S2x32) S2x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x1.size a ≤ S32x1.size a
  hwx2_7 : ∀ i : grid2.Coords, EltTy.bits .f32 = 32 ∨ (Rect.block (s := S32x1) S32x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8192x1.size a ≤ S1105920x1.size a
  hwx2_9 : ∀ i : grid2.Coords, EltTy.bits .f32 = 32 ∨ (Rect.block (s := S1105920x1) S8192x1.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x8.size a ≤ S106496x8.size a
  hwx3_0 : ∀ i : grid3.Coords, EltTy.bits .bf16 = 32 ∨ (Rect.block (s := S106496x8) S8192x8.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x1.size a ≤ S106496x1.size a
  hwx3_1 : ∀ i : grid3.Coords, EltTy.bits .bf16 = 32 ∨ (Rect.block (s := S106496x1) S8192x1.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x32.size a ≤ S8x32.size a
  hwx3_2 : ∀ i : grid3.Coords, EltTy.bits .f32 = 32 ∨ (Rect.block (s := S8x32) S8x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x8.size a ≤ S32x8.size a
  hwx3_5 : ∀ i : grid3.Coords, EltTy.bits .f32 = 32 ∨ (Rect.block (s := S32x8) S32x8.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x8.size a ≤ S1x8.size a
  hwx3_6 : ∀ i : grid3.Coords, EltTy.bits .f32 = 32 ∨ (Rect.block (s := S1x8) S1x8.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8192x8.size a ≤ S106496x8.size a
  hwx3_7 : ∀ i : grid3.Coords, EltTy.bits .f32 = 32 ∨ (Rect.block (s := S106496x8) S8192x8.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x8.size a ≤ S1105920x8.size a
  hwx4_0 : ∀ i : grid4.Coords, EltTy.bits .bf16 = 32 ∨ (Rect.block (s := S1105920x8) S8192x8.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x8.size a ≤ S1105920x8.size a
  hwx4_1 : ∀ i : grid4.Coords, EltTy.bits .bf16 = 32 ∨ (Rect.block (s := S1105920x8) S8192x8.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x2.size a ≤ S1105920x2.size a
  hwx4_2 : ∀ i : grid4.Coords, EltTy.bits .bf16 = 32 ∨ (Rect.block (s := S1105920x2) S8192x2.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S8x32.size a ≤ S8x32.size a
  hwx4_3 : ∀ i : grid4.Coords, EltTy.bits .f32 = 32 ∨ (Rect.block (s := S8x32) S8x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S8x32.size a ≤ S8x32.size a
  hwx4_4 : ∀ i : grid4.Coords, EltTy.bits .f32 = 32 ∨ (Rect.block (s := S8x32) S8x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2x32.size a ≤ S2x32.size a
  hwx4_5 : ∀ i : grid4.Coords, EltTy.bits .f32 = 32 ∨ (Rect.block (s := S2x32) S2x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S32x1.size a ≤ S32x1.size a
  hwx4_7 : ∀ i : grid4.Coords, EltTy.bits .f32 = 32 ∨ (Rect.block (s := S32x1) S32x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S8192x1.size a ≤ S1105920x1.size a
  hwx4_9 : ∀ i : grid4.Coords, EltTy.bits .f32 = 32 ∨ (Rect.block (s := S1105920x1) S8192x1.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x8.size a ≤ S106496x8.size a
  hwx5_0 : ∀ i : grid5.Coords, EltTy.bits .bf16 = 32 ∨ (Rect.block (s := S106496x8) S8192x8.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x1.size a ≤ S106496x1.size a
  hwx5_1 : ∀ i : grid5.Coords, EltTy.bits .bf16 = 32 ∨ (Rect.block (s := S106496x1) S8192x1.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8x32.size a ≤ S8x32.size a
  hwx5_2 : ∀ i : grid5.Coords, EltTy.bits .f32 = 32 ∨ (Rect.block (s := S8x32) S8x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x8.size a ≤ S32x8.size a
  hwx5_5 : ∀ i : grid5.Coords, EltTy.bits .f32 = 32 ∨ (Rect.block (s := S32x8) S32x8.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x8.size a ≤ S1x8.size a
  hwx5_6 : ∀ i : grid5.Coords, EltTy.bits .f32 = 32 ∨ (Rect.block (s := S1x8) S1x8.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8192x8.size a ≤ S106496x8.size a
  hwx5_7 : ∀ i : grid5.Coords, EltTy.bits .f32 = 32 ∨ (Rect.block (s := S106496x8) S8192x8.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x8.size a ≤ S1105920x8.size a
  hwx6_0 : ∀ i : grid6.Coords, EltTy.bits .bf16 = 32 ∨ (Rect.block (s := S1105920x8) S8192x8.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8192x8.size a ≤ S1105920x8.size a
  hwx6_1 : ∀ i : grid6.Coords, EltTy.bits .bf16 = 32 ∨ (Rect.block (s := S1105920x8) S8192x8.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8192x2.size a ≤ S1105920x2.size a
  hwx6_2 : ∀ i : grid6.Coords, EltTy.bits .bf16 = 32 ∨ (Rect.block (s := S1105920x2) S8192x2.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S8x32.size a ≤ S8x32.size a
  hwx6_3 : ∀ i : grid6.Coords, EltTy.bits .f32 = 32 ∨ (Rect.block (s := S8x32) S8x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S8x32.size a ≤ S8x32.size a
  hwx6_4 : ∀ i : grid6.Coords, EltTy.bits .f32 = 32 ∨ (Rect.block (s := S8x32) S8x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2x32.size a ≤ S2x32.size a
  hwx6_5 : ∀ i : grid6.Coords, EltTy.bits .f32 = 32 ∨ (Rect.block (s := S2x32) S2x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x32.size a ≤ S1x32.size a
  hwx6_6 : ∀ i : grid6.Coords, EltTy.bits .f32 = 32 ∨ (Rect.block (s := S1x32) S1x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S32x1.size a ≤ S32x1.size a
  hwx6_7 : ∀ i : grid6.Coords, EltTy.bits .f32 = 32 ∨ (Rect.block (s := S32x1) S32x1.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x1.size a ≤ S1x1.size a
  hwx6_8 : ∀ i : grid6.Coords, EltTy.bits .f32 = 32 ∨ (Rect.block (s := S1x1) S1x1.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S8192x1.size a ≤ S1105920x1.size a
  hwx6_9 : ∀ i : grid6.Coords, EltTy.bits .f32 = 32 ∨ (Rect.block (s := S1105920x1) S8192x1.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x8.size a ≤ S106496x8.size a
  hwx7_0 : ∀ i : grid7.Coords, EltTy.bits .bf16 = 32 ∨ (Rect.block (s := S106496x8) S8192x8.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8192x1.size a ≤ S106496x1.size a
  hwx7_1 : ∀ i : grid7.Coords, EltTy.bits .bf16 = 32 ∨ (Rect.block (s := S106496x1) S8192x1.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S8x32.size a ≤ S8x32.size a
  hwx7_2 : ∀ i : grid7.Coords, EltTy.bits .f32 = 32 ∨ (Rect.block (s := S8x32) S8x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S32x8.size a ≤ S32x8.size a
  hwx7_5 : ∀ i : grid7.Coords, EltTy.bits .f32 = 32 ∨ (Rect.block (s := S32x8) S32x8.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x8.size a ≤ S1x8.size a
  hwx7_6 : ∀ i : grid7.Coords, EltTy.bits .f32 = 32 ∨ (Rect.block (s := S1x8) S1x8.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S8192x8.size a ≤ S106496x8.size a
  hwx7_7 : ∀ i : grid7.Coords, EltTy.bits .f32 = 32 ∨ (Rect.block (s := S106496x8) S8192x8.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8192x8.size a ≤ S1105920x8.size a
  hwx8_0 : ∀ i : grid8.Coords, EltTy.bits .bf16 = 32 ∨ (Rect.block (s := S1105920x8) S8192x8.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8192x8.size a ≤ S1105920x8.size a
  hwx8_1 : ∀ i : grid8.Coords, EltTy.bits .bf16 = 32 ∨ (Rect.block (s := S1105920x8) S8192x8.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8192x2.size a ≤ S1105920x2.size a
  hwx8_2 : ∀ i : grid8.Coords, EltTy.bits .bf16 = 32 ∨ (Rect.block (s := S1105920x2) S8192x2.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S8x32.size a ≤ S8x32.size a
  hwx8_3 : ∀ i : grid8.Coords, EltTy.bits .f32 = 32 ∨ (Rect.block (s := S8x32) S8x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S8x32.size a ≤ S8x32.size a
  hwx8_4 : ∀ i : grid8.Coords, EltTy.bits .f32 = 32 ∨ (Rect.block (s := S8x32) S8x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S2x32.size a ≤ S2x32.size a
  hwx8_5 : ∀ i : grid8.Coords, EltTy.bits .f32 = 32 ∨ (Rect.block (s := S2x32) S2x32.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x32.size a ≤ S1x32.size a
  hwx8_6 : ∀ i : grid8.Coords, EltTy.bits .f32 = 32 ∨ (Rect.block (s := S1x32) S1x32.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S32x1.size a ≤ S32x1.size a
  hwx8_7 : ∀ i : grid8.Coords, EltTy.bits .f32 = 32 ∨ (Rect.block (s := S32x1) S32x1.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x1.size a ≤ S1x1.size a
  hwx8_8 : ∀ i : grid8.Coords, EltTy.bits .f32 = 32 ∨ (Rect.block (s := S1x1) S1x1.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S8192x1.size a ≤ S1105920x1.size a
  hwx8_9 : ∀ i : grid8.Coords, EltTy.bits .f32 = 32 ∨ (Rect.block (s := S1105920x1) S8192x1.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x8.size a ≤ S106496x8.size a
  hwx9_0 : ∀ i : grid9.Coords, EltTy.bits .bf16 = 32 ∨ (Rect.block (s := S106496x8) S8192x8.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8192x1.size a ≤ S106496x1.size a
  hwx9_1 : ∀ i : grid9.Coords, EltTy.bits .bf16 = 32 ∨ (Rect.block (s := S106496x1) S8192x1.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S8x32.size a ≤ S8x32.size a
  hwx9_2 : ∀ i : grid9.Coords, EltTy.bits .f32 = 32 ∨ (Rect.block (s := S8x32) S8x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x32.size a ≤ S1x32.size a
  hwx9_3 : ∀ i : grid9.Coords, EltTy.bits .f32 = 32 ∨ (Rect.block (s := S1x32) S1x32.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x32.size a ≤ S1x32.size a
  hwx9_4 : ∀ i : grid9.Coords, EltTy.bits .f32 = 32 ∨ (Rect.block (s := S1x32) S1x32.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S32x8.size a ≤ S32x8.size a
  hwx9_5 : ∀ i : grid9.Coords, EltTy.bits .f32 = 32 ∨ (Rect.block (s := S32x8) S32x8.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x8.size a ≤ S1x8.size a
  hwx9_6 : ∀ i : grid9.Coords, EltTy.bits .f32 = 32 ∨ (Rect.block (s := S1x8) S1x8.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S8192x8.size a ≤ S106496x8.size a
  hwx9_7 : ∀ i : grid9.Coords, EltTy.bits .f32 = 32 ∨ (Rect.block (s := S106496x8) S8192x8.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8192x8.size a ≤ S1105920x8.size a
  hwx10_0 : ∀ i : grid10.Coords, EltTy.bits .bf16 = 32 ∨ (Rect.block (s := S1105920x8) S8192x8.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8192x8.size a ≤ S1105920x8.size a
  hwx10_1 : ∀ i : grid10.Coords, EltTy.bits .bf16 = 32 ∨ (Rect.block (s := S1105920x8) S8192x8.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8192x2.size a ≤ S1105920x2.size a
  hwx10_2 : ∀ i : grid10.Coords, EltTy.bits .bf16 = 32 ∨ (Rect.block (s := S1105920x2) S8192x2.size (cc10_transform_2 i) (hinb10_2 i)).WholeWords (EltTy.packing .bf16)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S8x32.size a ≤ S8x32.size a
  hwx10_3 : ∀ i : grid10.Coords, EltTy.bits .f32 = 32 ∨ (Rect.block (s := S8x32) S8x32.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S8x32.size a ≤ S8x32.size a
  hwx10_4 : ∀ i : grid10.Coords, EltTy.bits .f32 = 32 ∨ (Rect.block (s := S8x32) S8x32.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S2x32.size a ≤ S2x32.size a
  hwx10_5 : ∀ i : grid10.Coords, EltTy.bits .f32 = 32 ∨ (Rect.block (s := S2x32) S2x32.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x32.size a ≤ S1x32.size a
  hwx10_6 : ∀ i : grid10.Coords, EltTy.bits .f32 = 32 ∨ (Rect.block (s := S1x32) S1x32.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S32x1.size a ≤ S32x1.size a
  hwx10_7 : ∀ i : grid10.Coords, EltTy.bits .f32 = 32 ∨ (Rect.block (s := S32x1) S32x1.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x1.size a ≤ S1x1.size a
  hwx10_8 : ∀ i : grid10.Coords, EltTy.bits .f32 = 32 ∨ (Rect.block (s := S1x1) S1x1.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S8192x1.size a ≤ S1105920x1.size a
  hwx10_9 : ∀ i : grid10.Coords, EltTy.bits .f32 = 32 ∨ (Rect.block (s := S1105920x1) S8192x1.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8192x8.size a ≤ S106496x8.size a
  hwx11_0 : ∀ i : grid11.Coords, EltTy.bits .bf16 = 32 ∨ (Rect.block (s := S106496x8) S8192x8.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8192x1.size a ≤ S106496x1.size a
  hwx11_1 : ∀ i : grid11.Coords, EltTy.bits .bf16 = 32 ∨ (Rect.block (s := S106496x1) S8192x1.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S8x32.size a ≤ S8x32.size a
  hwx11_2 : ∀ i : grid11.Coords, EltTy.bits .f32 = 32 ∨ (Rect.block (s := S8x32) S8x32.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x32.size a ≤ S1x32.size a
  hwx11_3 : ∀ i : grid11.Coords, EltTy.bits .f32 = 32 ∨ (Rect.block (s := S1x32) S1x32.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x32.size a ≤ S1x32.size a
  hwx11_4 : ∀ i : grid11.Coords, EltTy.bits .f32 = 32 ∨ (Rect.block (s := S1x32) S1x32.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S32x8.size a ≤ S32x8.size a
  hwx11_5 : ∀ i : grid11.Coords, EltTy.bits .f32 = 32 ∨ (Rect.block (s := S32x8) S32x8.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x8.size a ≤ S1x8.size a
  hwx11_6 : ∀ i : grid11.Coords, EltTy.bits .f32 = 32 ∨ (Rect.block (s := S1x8) S1x8.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S8192x8.size a ≤ S106496x8.size a
  hwx11_7 : ∀ i : grid11.Coords, EltTy.bits .f32 = 32 ∨ (Rect.block (s := S106496x8) S8192x8.size (cc11_transform_7 i) (hinb11_7 i)).WholeWords (EltTy.packing .f32)

variable [Facts₀]

def scatter_S100000x1_S1100000x1_S1100000x1_1_0_0_1 : ScatterDims S100000x1 S1100000x1 S1100000x1 where
  updateWindowDims := [1]
  insertedWindowDims := [0]
  scatterDimsToOperandDims := [0]
  indexVectorDim := 1
  wf := scatter_S100000x1_S1100000x1_S1100000x1_1_0_0_1_wf
def gather_S100000x8_S1100000x1_S1100000x8_1_0_n_n_0_1_18 : GatherDims S100000x8 S1100000x1 S1100000x8 where
  offsetDims := [1]
  collapsedSliceDims := [0]
  operandBatchingDims := []
  startIndicesBatchingDims := []
  startIndexMap := [0]
  indexVectorDim := 1
  sliceSizes := ![1, 8]
  wf := gather_S100000x8_S1100000x1_S1100000x8_1_0_n_n_0_1_18_wf
def dot_S1x8_S8x32_S1x32_1_0_0_1_n_n : DotDims S1x8 S8x32 S1x32 where
  lhsContracting := [1]
  rhsContracting := [0]
  lhsNonContracting := [0]
  rhsNonContracting := [1]
  lhsBatch := []
  rhsBatch := []
  wf := dot_S1x8_S8x32_S1x32_1_0_0_1_n_n_wf
def dot_S8192x8_S8x32_S8192x32_1_0_0_1_n_n : DotDims S8192x8 S8x32 S8192x32 where
  lhsContracting := [1]
  rhsContracting := [0]
  lhsNonContracting := [0]
  rhsNonContracting := [1]
  lhsBatch := []
  rhsBatch := []
  wf := dot_S8192x8_S8x32_S8192x32_1_0_0_1_n_n_wf
def dot_S8192x2_S2x32_S8192x32_1_0_0_1_n_n : DotDims S8192x2 S2x32 S8192x32 where
  lhsContracting := [1]
  rhsContracting := [0]
  lhsNonContracting := [0]
  rhsNonContracting := [1]
  lhsBatch := []
  rhsBatch := []
  wf := dot_S8192x2_S2x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf
def dot_S8192x1_S1x32_S8192x32_1_0_0_1_n_n : DotDims S8192x1 S1x32 S8192x32 where
  lhsContracting := [1]
  rhsContracting := [0]
  lhsNonContracting := [0]
  rhsNonContracting := [1]
  lhsBatch := []
  rhsBatch := []
  wf := dot_S8192x1_S1x32_S8192x32_1_0_0_1_n_n_wf
def dot_S8192x32_S32x8_S8192x8_1_0_0_1_n_n : DotDims S8192x32 S32x8 S8192x8 where
  lhsContracting := [1]
  rhsContracting := [0]
  lhsNonContracting := [0]
  rhsNonContracting := [1]
  lhsBatch := []
  rhsBatch := []
  wf := dot_S8192x32_S32x8_S8192x8_1_0_0_1_n_n_wf
def dot_S1x17_S17x32_S1x32_1_0_0_1_n_n : DotDims S1x17 S17x32 S1x32 where
  lhsContracting := [1]
  rhsContracting := [0]
  lhsNonContracting := [0]
  rhsNonContracting := [1]
  lhsBatch := []
  rhsBatch := []
  wf := dot_S1x17_S17x32_S1x32_1_0_0_1_n_n_wf
def dot_S1x32_S32x8_S1x8_1_0_0_1_n_n : DotDims S1x32 S32x8 S1x8 where
  lhsContracting := [1]
  rhsContracting := [0]
  lhsNonContracting := [0]
  rhsNonContracting := [1]
  lhsBatch := []
  rhsBatch := []
  wf := dot_S1x32_S32x8_S1x8_1_0_0_1_n_n_wf

abbrev win0_0 : Pipeline.Window sig grid0 :=
  Pipeline.Window.ofSpec (Memref.whole main_v90) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v91) S8192x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v92) S8192x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v83) S8x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v84) S8x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v85) S2x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v88) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v89) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v93) S8192x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v107) S8192x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v108) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v101) S8x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v102) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v105) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S32x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v106) S1x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v109) S8192x8.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v142) S8192x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v143) S8192x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v144) S8192x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v135) S8x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S8x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v137) S2x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v140) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S32x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v141) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v145) S8192x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v159) S8192x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v160) S8192x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v153) S8x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v154) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v157) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S32x8.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v158) S1x8.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v161) S8192x8.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v237) S8192x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v238) S8192x8.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v239) S8192x2.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v230) S8x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v231) S8x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v232) S2x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v235) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v184) S32x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v236) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v240) S8192x1.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v254) S8192x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v255) S8192x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v248) S8x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v249) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v252) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v192) S32x8.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v253) S1x8.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v256) S8192x8.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v289) S8192x8.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v290) S8192x8.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v291) S8192x2.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v282) S8x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v283) S8x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v284) S2x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v287) S1x32.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v208) S32x1.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v288) S1x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v292) S8192x1.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v306) S8192x8.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v307) S8192x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v300) S8x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v301) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v304) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v216) S32x8.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v305) S1x8.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v308) S8192x8.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v384) S8192x8.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v385) S8192x8.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v386) S8192x2.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v377) S8x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v378) S8x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v379) S2x32.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v382) S1x32.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v331) S32x1.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v383) S1x1.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v387) S8192x1.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v401) S8192x8.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v402) S8192x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v395) S8x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v396) S1x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v399) S1x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v339) S32x8.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v400) S1x8.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v403) S8192x8.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v436) S8192x8.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v437) S8192x8.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v438) S8192x2.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v429) S8x32.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v430) S8x32.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v431) S2x32.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v434) S1x32.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v355) S32x1.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v435) S1x1.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v439) S8192x1.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v453) S8192x8.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v454) S8192x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v447) S8x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v448) S1x32.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v451) S1x32.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v363) S32x8.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v452) S1x8.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v455) S8192x8.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

class Facts : Prop extends Facts₀ where

variable [Facts]
-- ==== ReferenceIdeal.lean ====
abbrev S100000x8 : Shape := ⟨2, ![100000, 8]⟩
abbrev S2x1100000 : Shape := ⟨2, ![2, 1100000]⟩
abbrev S1100000x1 : Shape := ⟨2, ![1100000, 1]⟩
abbrev S2x3x26x32 : Shape := ⟨4, ![2, 3, 26, 32]⟩
abbrev S2x3x32 : Shape := ⟨3, ![2, 3, 32]⟩
abbrev S2x3x32x1 : Shape := ⟨4, ![2, 3, 32, 1]⟩
abbrev S2x3x1 : Shape := ⟨3, ![2, 3, 1]⟩
abbrev S2x3x17x32 : Shape := ⟨4, ![2, 3, 17, 32]⟩
abbrev S2x3x32x8 : Shape := ⟨4, ![2, 3, 32, 8]⟩
abbrev S2x3x8 : Shape := ⟨3, ![2, 3, 8]⟩
abbrev S1x1100000 : Shape := ⟨2, ![1, 1100000]⟩
abbrev S1100000 : Shape := ⟨1, ![1100000]⟩
abbrev S_ : Shape := ⟨0, ![]⟩
abbrev S1x8 : Shape := ⟨2, ![1, 8]⟩
abbrev S1x1x26x32 : Shape := ⟨4, ![1, 1, 26, 32]⟩
abbrev S26x32 : Shape := ⟨2, ![26, 32]⟩
abbrev S1x1x32 : Shape := ⟨3, ![1, 1, 32]⟩
abbrev S32 : Shape := ⟨1, ![32]⟩
abbrev S1x1x32x1 : Shape := ⟨4, ![1, 1, 32, 1]⟩
abbrev S32x1 : Shape := ⟨2, ![32, 1]⟩
abbrev S1x1x1 : Shape := ⟨3, ![1, 1, 1]⟩
abbrev S1 : Shape := ⟨1, ![1]⟩
abbrev S1x1x17x32 : Shape := ⟨4, ![1, 1, 17, 32]⟩
abbrev S17x32 : Shape := ⟨2, ![17, 32]⟩
abbrev S1x1x32x8 : Shape := ⟨4, ![1, 1, 32, 8]⟩
abbrev S32x8 : Shape := ⟨2, ![32, 8]⟩
abbrev S1x1x8 : Shape := ⟨3, ![1, 1, 8]⟩
abbrev S8 : Shape := ⟨1, ![8]⟩
abbrev S1100000x2 : Shape := ⟨2, ![1100000, 2]⟩
abbrev S1100000x8 : Shape := ⟨2, ![1100000, 8]⟩
abbrev S1100000x26 : Shape := ⟨2, ![1100000, 26]⟩
abbrev S1100000x32 : Shape := ⟨2, ![1100000, 32]⟩
abbrev S1x32 : Shape := ⟨2, ![1, 32]⟩
abbrev S1x1 : Shape := ⟨2, ![1, 1]⟩
abbrev S100000x1 : Shape := ⟨2, ![100000, 1]⟩
abbrev S100000x17 : Shape := ⟨2, ![100000, 17]⟩
abbrev S100000x32 : Shape := ⟨2, ![100000, 32]⟩
abbrev S1x17 : Shape := ⟨2, ![1, 17]⟩
abbrev S2200000 : Shape := ⟨1, ![2200000]⟩

abbrev nBuf : Space → Nat
  | .hbm => 672
  | .vmem => 0
  | .smem => 0
  | _ => 0

abbrev hbmTy0_0 (i : Nat) : BufTy := match i % 128 with
  | 0 => ⟨S100000x8, .f32⟩
  | 1 => ⟨S2x1100000, .i32⟩
  | 2 => ⟨S2x1100000, .i32⟩
  | 3 => ⟨S1100000x1, .f32⟩
  | 4 => ⟨S1100000x1, .f32⟩
  | 5 => ⟨S2x3x26x32, .f32⟩
  | 6 => ⟨S2x3x32, .f32⟩
  | 7 => ⟨S2x3x32x1, .f32⟩
  | 8 => ⟨S2x3x1, .f32⟩
  | 9 => ⟨S2x3x17x32, .f32⟩
  | 10 => ⟨S2x3x32, .f32⟩
  | 11 => ⟨S2x3x32x8, .f32⟩
  | 12 => ⟨S2x3x8, .f32⟩
  | 13 => ⟨S2x3x17x32, .f32⟩
  | 14 => ⟨S2x3x32, .f32⟩
  | 15 => ⟨S2x3x32x8, .f32⟩
  | 16 => ⟨S2x3x8, .f32⟩
  | 17 => ⟨S1x1100000, .i32⟩
  | 18 => ⟨S1100000, .i32⟩
  | 19 => ⟨S1x1100000, .i32⟩
  | 20 => ⟨S1100000, .i32⟩
  | 21 => ⟨S1x1100000, .i32⟩
  | 22 => ⟨S1100000, .i32⟩
  | 23 => ⟨S1x1100000, .i32⟩
  | 24 => ⟨S1100000, .i32⟩
  | 25 => ⟨S_, .f32⟩
  | 26 => ⟨S1x8, .f32⟩
  | 27 => ⟨S_, .f32⟩
  | 28 => ⟨S1100000x1, .f32⟩
  | 29 => ⟨S_, .f32⟩
  | 30 => ⟨S1100000x1, .f32⟩
  | 31 => ⟨S1x1x26x32, .f32⟩
  | 32 => ⟨S26x32, .f32⟩
  | 33 => ⟨S1x1x32, .f32⟩
  | 34 => ⟨S32, .f32⟩
  | 35 => ⟨S1x1x32x1, .f32⟩
  | 36 => ⟨S32x1, .f32⟩
  | 37 => ⟨S1x1x1, .f32⟩
  | 38 => ⟨S1, .f32⟩
  | 39 => ⟨S1x1x17x32, .f32⟩
  | 40 => ⟨S17x32, .f32⟩
  | 41 => ⟨S1x1x32, .f32⟩
  | 42 => ⟨S32, .f32⟩
  | 43 => ⟨S1x1x32x8, .f32⟩
  | 44 => ⟨S32x8, .f32⟩
  | 45 => ⟨S1x1x8, .f32⟩
  | 46 => ⟨S8, .f32⟩
  | 47 => ⟨S1x1x17x32, .f32⟩
  | 48 => ⟨S17x32, .f32⟩
  | 49 => ⟨S1x1x32, .f32⟩
  | 50 => ⟨S32, .f32⟩
  | 51 => ⟨S1x1x32x8, .f32⟩
  | 52 => ⟨S32x8, .f32⟩
  | 53 => ⟨S1x1x8, .f32⟩
  | 54 => ⟨S8, .f32⟩
  | 55 => ⟨S1x1x26x32, .f32⟩
  | 56 => ⟨S26x32, .f32⟩
  | 57 => ⟨S1x1x32, .f32⟩
  | 58 => ⟨S32, .f32⟩
  | 59 => ⟨S1x1x32x1, .f32⟩
  | 60 => ⟨S32x1, .f32⟩
  | 61 => ⟨S1x1x1, .f32⟩
  | 62 => ⟨S1, .f32⟩
  | 63 => ⟨S1x1x17x32, .f32⟩
  | 64 => ⟨S17x32, .f32⟩
  | 65 => ⟨S1x1x32, .f32⟩
  | 66 => ⟨S32, .f32⟩
  | 67 => ⟨S1x1x32x8, .f32⟩
  | 68 => ⟨S32x8, .f32⟩
  | 69 => ⟨S1x1x8, .f32⟩
  | 70 => ⟨S8, .f32⟩
  | 71 => ⟨S1x1x17x32, .f32⟩
  | 72 => ⟨S17x32, .f32⟩
  | 73 => ⟨S1x1x32, .f32⟩
  | 74 => ⟨S32, .f32⟩
  | 75 => ⟨S1x1x32x8, .f32⟩
  | 76 => ⟨S32x8, .f32⟩
  | 77 => ⟨S1x1x8, .f32⟩
  | 78 => ⟨S8, .f32⟩
  | 79 => ⟨S1100000x2, .f32⟩
  | 80 => ⟨S1100000x8, .f32⟩
  | 81 => ⟨S_, .i32⟩
  | 82 => ⟨S1100000, .i32⟩
  | 83 => ⟨S1100000, .i1⟩
  | 84 => ⟨S_, .i32⟩
  | 85 => ⟨S1100000, .i32⟩
  | 86 => ⟨S1100000, .i32⟩
  | 87 => ⟨S1100000, .i32⟩
  | 88 => ⟨S1100000x1, .i32⟩
  | 89 => ⟨S1100000x8, .f32⟩
  | 90 => ⟨S_, .i32⟩
  | 91 => ⟨S1100000, .i32⟩
  | 92 => ⟨S1100000, .i1⟩
  | 93 => ⟨S_, .i32⟩
  | 94 => ⟨S1100000, .i32⟩
  | 95 => ⟨S1100000, .i32⟩
  | 96 => ⟨S1100000, .i32⟩
  | 97 => ⟨S1100000x1, .i32⟩
  | 98 => ⟨S1100000x8, .f32⟩
  | 99 => ⟨S1100000x26, .f32⟩
  | 100 => ⟨S1100000x32, .f32⟩
  | 101 => ⟨S1x32, .f32⟩
  | 102 => ⟨S1100000x32, .f32⟩
  | 103 => ⟨S1100000x32, .f32⟩
  | 104 => ⟨S_, .f32⟩
  | 105 => ⟨S1100000x32, .f32⟩
  | 106 => ⟨S1100000x32, .f32⟩
  | 107 => ⟨S1100000x1, .f32⟩
  | 108 => ⟨S1x1, .f32⟩
  | 109 => ⟨S1100000x1, .f32⟩
  | 110 => ⟨S1100000x1, .f32⟩
  | 111 => ⟨S_, .f32⟩
  | 112 => ⟨S100000x1, .f32⟩
  | 113 => ⟨S1100000x1, .i32⟩
  | 114 => ⟨S100000x1, .f32⟩
  | 115 => ⟨S_, .f32⟩
  | 116 => ⟨S1100000x1, .f32⟩
  | 117 => ⟨S_, .f32⟩
  | 118 => ⟨S100000x1, .f32⟩
  | 119 => ⟨S1100000x1, .i32⟩
  | 120 => ⟨S100000x1, .f32⟩
  | 121 => ⟨S_, .f32⟩
  | 122 => ⟨S100000x1, .f32⟩
  | 123 => ⟨S100000x1, .f32⟩
  | 124 => ⟨S100000x1, .f32⟩
  | 125 => ⟨S100000x8, .f32⟩
  | 126 => ⟨S100000x17, .f32⟩
  | 127 => ⟨S100000x32, .f32⟩
  | _ => ⟨S100000x8, .f32⟩

abbrev hbmTy0_1 (i : Nat) : BufTy := match i % 128 with
  | 0 => ⟨S1x32, .f32⟩
  | 1 => ⟨S100000x32, .f32⟩
  | 2 => ⟨S100000x32, .f32⟩
  | 3 => ⟨S_, .f32⟩
  | 4 => ⟨S100000x32, .f32⟩
  | 5 => ⟨S100000x32, .f32⟩
  | 6 => ⟨S100000x8, .f32⟩
  | 7 => ⟨S1x8, .f32⟩
  | 8 => ⟨S100000x8, .f32⟩
  | 9 => ⟨S100000x8, .f32⟩
  | 10 => ⟨S_, .f32⟩
  | 11 => ⟨S8, .f32⟩
  | 12 => ⟨S1x8, .f32⟩
  | 13 => ⟨S_, .f32⟩
  | 14 => ⟨S1x8, .f32⟩
  | 15 => ⟨S1x8, .f32⟩
  | 16 => ⟨S_, .f32⟩
  | 17 => ⟨S1, .f32⟩
  | 18 => ⟨S1x1, .f32⟩
  | 19 => ⟨S_, .f32⟩
  | 20 => ⟨S1x1, .f32⟩
  | 21 => ⟨S1x1, .f32⟩
  | 22 => ⟨S1x17, .f32⟩
  | 23 => ⟨S1x32, .f32⟩
  | 24 => ⟨S1x32, .f32⟩
  | 25 => ⟨S1x32, .f32⟩
  | 26 => ⟨S_, .f32⟩
  | 27 => ⟨S1x32, .f32⟩
  | 28 => ⟨S1x32, .f32⟩
  | 29 => ⟨S1x8, .f32⟩
  | 30 => ⟨S1x8, .f32⟩
  | 31 => ⟨S1x8, .f32⟩
  | 32 => ⟨S1100000x2, .f32⟩
  | 33 => ⟨S1100000x8, .f32⟩
  | 34 => ⟨S_, .i32⟩
  | 35 => ⟨S1100000, .i32⟩
  | 36 => ⟨S1100000, .i1⟩
  | 37 => ⟨S_, .i32⟩
  | 38 => ⟨S1100000, .i32⟩
  | 39 => ⟨S1100000, .i32⟩
  | 40 => ⟨S1100000, .i32⟩
  | 41 => ⟨S1100000x1, .i32⟩
  | 42 => ⟨S1100000x8, .f32⟩
  | 43 => ⟨S_, .i32⟩
  | 44 => ⟨S1100000, .i32⟩
  | 45 => ⟨S1100000, .i1⟩
  | 46 => ⟨S_, .i32⟩
  | 47 => ⟨S1100000, .i32⟩
  | 48 => ⟨S1100000, .i32⟩
  | 49 => ⟨S1100000, .i32⟩
  | 50 => ⟨S1100000x1, .i32⟩
  | 51 => ⟨S1100000x8, .f32⟩
  | 52 => ⟨S1100000x26, .f32⟩
  | 53 => ⟨S1100000x32, .f32⟩
  | 54 => ⟨S1x32, .f32⟩
  | 55 => ⟨S1100000x32, .f32⟩
  | 56 => ⟨S1100000x32, .f32⟩
  | 57 => ⟨S_, .f32⟩
  | 58 => ⟨S1100000x32, .f32⟩
  | 59 => ⟨S1100000x32, .f32⟩
  | 60 => ⟨S1100000x1, .f32⟩
  | 61 => ⟨S1x1, .f32⟩
  | 62 => ⟨S1100000x1, .f32⟩
  | 63 => ⟨S1100000x1, .f32⟩
  | 64 => ⟨S_, .f32⟩
  | 65 => ⟨S100000x1, .f32⟩
  | 66 => ⟨S1100000x1, .i32⟩
  | 67 => ⟨S100000x1, .f32⟩
  | 68 => ⟨S_, .f32⟩
  | 69 => ⟨S1100000x1, .f32⟩
  | 70 => ⟨S_, .f32⟩
  | 71 => ⟨S100000x1, .f32⟩
  | 72 => ⟨S1100000x1, .i32⟩
  | 73 => ⟨S100000x1, .f32⟩
  | 74 => ⟨S_, .f32⟩
  | 75 => ⟨S100000x1, .f32⟩
  | 76 => ⟨S100000x1, .f32⟩
  | 77 => ⟨S100000x1, .f32⟩
  | 78 => ⟨S100000x8, .f32⟩
  | 79 => ⟨S100000x17, .f32⟩
  | 80 => ⟨S100000x32, .f32⟩
  | 81 => ⟨S1x32, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S100000x8, .f32⟩
  | 88 => ⟨S1x8, .f32⟩
  | 89 => ⟨S100000x8, .f32⟩
  | 90 => ⟨S100000x8, .f32⟩
  | 91 => ⟨S_, .f32⟩
  | 92 => ⟨S8, .f32⟩
  | 93 => ⟨S1x8, .f32⟩
  | 94 => ⟨S_, .f32⟩
  | 95 => ⟨S1x8, .f32⟩
  | 96 => ⟨S1x8, .f32⟩
  | 97 => ⟨S_, .f32⟩
  | 98 => ⟨S1, .f32⟩
  | 99 => ⟨S1x1, .f32⟩
  | 100 => ⟨S_, .f32⟩
  | 101 => ⟨S1x1, .f32⟩
  | 102 => ⟨S1x1, .f32⟩
  | 103 => ⟨S1x17, .f32⟩
  | 104 => ⟨S1x32, .f32⟩
  | 105 => ⟨S1x32, .f32⟩
  | 106 => ⟨S1x32, .f32⟩
  | 107 => ⟨S_, .f32⟩
  | 108 => ⟨S1x32, .f32⟩
  | 109 => ⟨S1x32, .f32⟩
  | 110 => ⟨S1x8, .f32⟩
  | 111 => ⟨S1x8, .f32⟩
  | 112 => ⟨S1x8, .f32⟩
  | 113 => ⟨S1x1x26x32, .f32⟩
  | 114 => ⟨S26x32, .f32⟩
  | 115 => ⟨S1x1x32, .f32⟩
  | 116 => ⟨S32, .f32⟩
  | 117 => ⟨S1x1x32x1, .f32⟩
  | 118 => ⟨S32x1, .f32⟩
  | 119 => ⟨S1x1x1, .f32⟩
  | 120 => ⟨S1, .f32⟩
  | 121 => ⟨S1x1x17x32, .f32⟩
  | 122 => ⟨S17x32, .f32⟩
  | 123 => ⟨S1x1x32, .f32⟩
  | 124 => ⟨S32, .f32⟩
  | 125 => ⟨S1x1x32x8, .f32⟩
  | 126 => ⟨S32x8, .f32⟩
  | 127 => ⟨S1x1x8, .f32⟩
  | _ => ⟨S100000x8, .f32⟩

abbrev hbmTy0_2 (i : Nat) : BufTy := match i % 128 with
  | 0 => ⟨S8, .f32⟩
  | 1 => ⟨S1x1x17x32, .f32⟩
  | 2 => ⟨S17x32, .f32⟩
  | 3 => ⟨S1x1x32, .f32⟩
  | 4 => ⟨S32, .f32⟩
  | 5 => ⟨S1x1x32x8, .f32⟩
  | 6 => ⟨S32x8, .f32⟩
  | 7 => ⟨S1x1x8, .f32⟩
  | 8 => ⟨S8, .f32⟩
  | 9 => ⟨S1x1x26x32, .f32⟩
  | 10 => ⟨S26x32, .f32⟩
  | 11 => ⟨S1x1x32, .f32⟩
  | 12 => ⟨S32, .f32⟩
  | 13 => ⟨S1x1x32x1, .f32⟩
  | 14 => ⟨S32x1, .f32⟩
  | 15 => ⟨S1x1x1, .f32⟩
  | 16 => ⟨S1, .f32⟩
  | 17 => ⟨S1x1x17x32, .f32⟩
  | 18 => ⟨S17x32, .f32⟩
  | 19 => ⟨S1x1x32, .f32⟩
  | 20 => ⟨S32, .f32⟩
  | 21 => ⟨S1x1x32x8, .f32⟩
  | 22 => ⟨S32x8, .f32⟩
  | 23 => ⟨S1x1x8, .f32⟩
  | 24 => ⟨S8, .f32⟩
  | 25 => ⟨S1x1x17x32, .f32⟩
  | 26 => ⟨S17x32, .f32⟩
  | 27 => ⟨S1x1x32, .f32⟩
  | 28 => ⟨S32, .f32⟩
  | 29 => ⟨S1x1x32x8, .f32⟩
  | 30 => ⟨S32x8, .f32⟩
  | 31 => ⟨S1x1x8, .f32⟩
  | 32 => ⟨S8, .f32⟩
  | 33 => ⟨S1100000x2, .f32⟩
  | 34 => ⟨S1100000x8, .f32⟩
  | 35 => ⟨S_, .i32⟩
  | 36 => ⟨S1100000, .i32⟩
  | 37 => ⟨S1100000, .i1⟩
  | 38 => ⟨S_, .i32⟩
  | 39 => ⟨S1100000, .i32⟩
  | 40 => ⟨S1100000, .i32⟩
  | 41 => ⟨S1100000, .i32⟩
  | 42 => ⟨S1100000x1, .i32⟩
  | 43 => ⟨S1100000x8, .f32⟩
  | 44 => ⟨S_, .i32⟩
  | 45 => ⟨S1100000, .i32⟩
  | 46 => ⟨S1100000, .i1⟩
  | 47 => ⟨S_, .i32⟩
  | 48 => ⟨S1100000, .i32⟩
  | 49 => ⟨S1100000, .i32⟩
  | 50 => ⟨S1100000, .i32⟩
  | 51 => ⟨S1100000x1, .i32⟩
  | 52 => ⟨S1100000x8, .f32⟩
  | 53 => ⟨S1100000x26, .f32⟩
  | 54 => ⟨S1100000x32, .f32⟩
  | 55 => ⟨S1x32, .f32⟩
  | 56 => ⟨S1100000x32, .f32⟩
  | 57 => ⟨S1100000x32, .f32⟩
  | 58 => ⟨S_, .f32⟩
  | 59 => ⟨S1100000x32, .f32⟩
  | 60 => ⟨S1100000x32, .f32⟩
  | 61 => ⟨S1100000x1, .f32⟩
  | 62 => ⟨S1x1, .f32⟩
  | 63 => ⟨S1100000x1, .f32⟩
  | 64 => ⟨S1100000x1, .f32⟩
  | 65 => ⟨S_, .f32⟩
  | 66 => ⟨S100000x1, .f32⟩
  | 67 => ⟨S1100000x1, .i32⟩
  | 68 => ⟨S100000x1, .f32⟩
  | 69 => ⟨S_, .f32⟩
  | 70 => ⟨S1100000x1, .f32⟩
  | 71 => ⟨S_, .f32⟩
  | 72 => ⟨S100000x1, .f32⟩
  | 73 => ⟨S1100000x1, .i32⟩
  | 74 => ⟨S100000x1, .f32⟩
  | 75 => ⟨S_, .f32⟩
  | 76 => ⟨S100000x1, .f32⟩
  | 77 => ⟨S100000x1, .f32⟩
  | 78 => ⟨S100000x1, .f32⟩
  | 79 => ⟨S100000x8, .f32⟩
  | 80 => ⟨S100000x17, .f32⟩
  | 81 => ⟨S100000x32, .f32⟩
  | 82 => ⟨S1x32, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S100000x8, .f32⟩
  | 89 => ⟨S1x8, .f32⟩
  | 90 => ⟨S100000x8, .f32⟩
  | 91 => ⟨S100000x8, .f32⟩
  | 92 => ⟨S_, .f32⟩
  | 93 => ⟨S8, .f32⟩
  | 94 => ⟨S1x8, .f32⟩
  | 95 => ⟨S_, .f32⟩
  | 96 => ⟨S1x8, .f32⟩
  | 97 => ⟨S1x8, .f32⟩
  | 98 => ⟨S_, .f32⟩
  | 99 => ⟨S1, .f32⟩
  | 100 => ⟨S1x1, .f32⟩
  | 101 => ⟨S_, .f32⟩
  | 102 => ⟨S1x1, .f32⟩
  | 103 => ⟨S1x1, .f32⟩
  | 104 => ⟨S1x17, .f32⟩
  | 105 => ⟨S1x32, .f32⟩
  | 106 => ⟨S1x32, .f32⟩
  | 107 => ⟨S1x32, .f32⟩
  | 108 => ⟨S_, .f32⟩
  | 109 => ⟨S1x32, .f32⟩
  | 110 => ⟨S1x32, .f32⟩
  | 111 => ⟨S1x8, .f32⟩
  | 112 => ⟨S1x8, .f32⟩
  | 113 => ⟨S1x8, .f32⟩
  | 114 => ⟨S1100000x2, .f32⟩
  | 115 => ⟨S1100000x8, .f32⟩
  | 116 => ⟨S_, .i32⟩
  | 117 => ⟨S1100000, .i32⟩
  | 118 => ⟨S1100000, .i1⟩
  | 119 => ⟨S_, .i32⟩
  | 120 => ⟨S1100000, .i32⟩
  | 121 => ⟨S1100000, .i32⟩
  | 122 => ⟨S1100000, .i32⟩
  | 123 => ⟨S1100000x1, .i32⟩
  | 124 => ⟨S1100000x8, .f32⟩
  | 125 => ⟨S_, .i32⟩
  | 126 => ⟨S1100000, .i32⟩
  | 127 => ⟨S1100000, .i1⟩
  | _ => ⟨S100000x8, .f32⟩

abbrev hbmTy0_3 (i : Nat) : BufTy := match i % 128 with
  | 0 => ⟨S_, .i32⟩
  | 1 => ⟨S1100000, .i32⟩
  | 2 => ⟨S1100000, .i32⟩
  | 3 => ⟨S1100000, .i32⟩
  | 4 => ⟨S1100000x1, .i32⟩
  | 5 => ⟨S1100000x8, .f32⟩
  | 6 => ⟨S1100000x26, .f32⟩
  | 7 => ⟨S1100000x32, .f32⟩
  | 8 => ⟨S1x32, .f32⟩
  | 9 => ⟨S1100000x32, .f32⟩
  | 10 => ⟨S1100000x32, .f32⟩
  | 11 => ⟨S_, .f32⟩
  | 12 => ⟨S1100000x32, .f32⟩
  | 13 => ⟨S1100000x32, .f32⟩
  | 14 => ⟨S1100000x1, .f32⟩
  | 15 => ⟨S1x1, .f32⟩
  | 16 => ⟨S1100000x1, .f32⟩
  | 17 => ⟨S1100000x1, .f32⟩
  | 18 => ⟨S_, .f32⟩
  | 19 => ⟨S100000x1, .f32⟩
  | 20 => ⟨S1100000x1, .i32⟩
  | 21 => ⟨S100000x1, .f32⟩
  | 22 => ⟨S_, .f32⟩
  | 23 => ⟨S1100000x1, .f32⟩
  | 24 => ⟨S_, .f32⟩
  | 25 => ⟨S100000x1, .f32⟩
  | 26 => ⟨S1100000x1, .i32⟩
  | 27 => ⟨S100000x1, .f32⟩
  | 28 => ⟨S_, .f32⟩
  | 29 => ⟨S100000x1, .f32⟩
  | 30 => ⟨S100000x1, .f32⟩
  | 31 => ⟨S100000x1, .f32⟩
  | 32 => ⟨S100000x8, .f32⟩
  | 33 => ⟨S100000x17, .f32⟩
  | 34 => ⟨S100000x32, .f32⟩
  | 35 => ⟨S1x32, .f32⟩
  | 36 => ⟨S100000x32, .f32⟩
  | 37 => ⟨S100000x32, .f32⟩
  | 38 => ⟨S_, .f32⟩
  | 39 => ⟨S100000x32, .f32⟩
  | 40 => ⟨S100000x32, .f32⟩
  | 41 => ⟨S100000x8, .f32⟩
  | 42 => ⟨S1x8, .f32⟩
  | 43 => ⟨S100000x8, .f32⟩
  | 44 => ⟨S100000x8, .f32⟩
  | 45 => ⟨S_, .f32⟩
  | 46 => ⟨S8, .f32⟩
  | 47 => ⟨S1x8, .f32⟩
  | 48 => ⟨S_, .f32⟩
  | 49 => ⟨S1x8, .f32⟩
  | 50 => ⟨S1x8, .f32⟩
  | 51 => ⟨S_, .f32⟩
  | 52 => ⟨S1, .f32⟩
  | 53 => ⟨S1x1, .f32⟩
  | 54 => ⟨S_, .f32⟩
  | 55 => ⟨S1x1, .f32⟩
  | 56 => ⟨S1x1, .f32⟩
  | 57 => ⟨S1x17, .f32⟩
  | 58 => ⟨S1x32, .f32⟩
  | 59 => ⟨S1x32, .f32⟩
  | 60 => ⟨S1x32, .f32⟩
  | 61 => ⟨S_, .f32⟩
  | 62 => ⟨S1x32, .f32⟩
  | 63 => ⟨S1x32, .f32⟩
  | 64 => ⟨S1x8, .f32⟩
  | 65 => ⟨S1x8, .f32⟩
  | 66 => ⟨S1x8, .f32⟩
  | 67 => ⟨S1x1x26x32, .f32⟩
  | 68 => ⟨S26x32, .f32⟩
  | 69 => ⟨S1x1x32, .f32⟩
  | 70 => ⟨S32, .f32⟩
  | 71 => ⟨S1x1x32x1, .f32⟩
  | 72 => ⟨S32x1, .f32⟩
  | 73 => ⟨S1x1x1, .f32⟩
  | 74 => ⟨S1, .f32⟩
  | 75 => ⟨S1x1x17x32, .f32⟩
  | 76 => ⟨S17x32, .f32⟩
  | 77 => ⟨S1x1x32, .f32⟩
  | 78 => ⟨S32, .f32⟩
  | 79 => ⟨S1x1x32x8, .f32⟩
  | 80 => ⟨S32x8, .f32⟩
  | 81 => ⟨S1x1x8, .f32⟩
  | 82 => ⟨S8, .f32⟩
  | 83 => ⟨S1x1x17x32, .f32⟩
  | 84 => ⟨S17x32, .f32⟩
  | 85 => ⟨S1x1x32, .f32⟩
  | 86 => ⟨S32, .f32⟩
  | 87 => ⟨S1x1x32x8, .f32⟩
  | 88 => ⟨S32x8, .f32⟩
  | 89 => ⟨S1x1x8, .f32⟩
  | 90 => ⟨S8, .f32⟩
  | 91 => ⟨S1x1x26x32, .f32⟩
  | 92 => ⟨S26x32, .f32⟩
  | 93 => ⟨S1x1x32, .f32⟩
  | 94 => ⟨S32, .f32⟩
  | 95 => ⟨S1x1x32x1, .f32⟩
  | 96 => ⟨S32x1, .f32⟩
  | 97 => ⟨S1x1x1, .f32⟩
  | 98 => ⟨S1, .f32⟩
  | 99 => ⟨S1x1x17x32, .f32⟩
  | 100 => ⟨S17x32, .f32⟩
  | 101 => ⟨S1x1x32, .f32⟩
  | 102 => ⟨S32, .f32⟩
  | 103 => ⟨S1x1x32x8, .f32⟩
  | 104 => ⟨S32x8, .f32⟩
  | 105 => ⟨S1x1x8, .f32⟩
  | 106 => ⟨S8, .f32⟩
  | 107 => ⟨S1x1x17x32, .f32⟩
  | 108 => ⟨S17x32, .f32⟩
  | 109 => ⟨S1x1x32, .f32⟩
  | 110 => ⟨S32, .f32⟩
  | 111 => ⟨S1x1x32x8, .f32⟩
  | 112 => ⟨S32x8, .f32⟩
  | 113 => ⟨S1x1x8, .f32⟩
  | 114 => ⟨S8, .f32⟩
  | 115 => ⟨S1100000x2, .f32⟩
  | 116 => ⟨S1100000x8, .f32⟩
  | 117 => ⟨S_, .i32⟩
  | 118 => ⟨S1100000, .i32⟩
  | 119 => ⟨S1100000, .i1⟩
  | 120 => ⟨S_, .i32⟩
  | 121 => ⟨S1100000, .i32⟩
  | 122 => ⟨S1100000, .i32⟩
  | 123 => ⟨S1100000, .i32⟩
  | 124 => ⟨S1100000x1, .i32⟩
  | 125 => ⟨S1100000x8, .f32⟩
  | 126 => ⟨S_, .i32⟩
  | 127 => ⟨S1100000, .i32⟩
  | _ => ⟨S100000x8, .f32⟩

abbrev hbmTy0_4 (i : Nat) : BufTy := match i % 128 with
  | 0 => ⟨S1100000, .i1⟩
  | 1 => ⟨S_, .i32⟩
  | 2 => ⟨S1100000, .i32⟩
  | 3 => ⟨S1100000, .i32⟩
  | 4 => ⟨S1100000, .i32⟩
  | 5 => ⟨S1100000x1, .i32⟩
  | 6 => ⟨S1100000x8, .f32⟩
  | 7 => ⟨S1100000x26, .f32⟩
  | 8 => ⟨S1100000x32, .f32⟩
  | 9 => ⟨S1x32, .f32⟩
  | 10 => ⟨S1100000x32, .f32⟩
  | 11 => ⟨S1100000x32, .f32⟩
  | 12 => ⟨S_, .f32⟩
  | 13 => ⟨S1100000x32, .f32⟩
  | 14 => ⟨S1100000x32, .f32⟩
  | 15 => ⟨S1100000x1, .f32⟩
  | 16 => ⟨S1x1, .f32⟩
  | 17 => ⟨S1100000x1, .f32⟩
  | 18 => ⟨S1100000x1, .f32⟩
  | 19 => ⟨S_, .f32⟩
  | 20 => ⟨S100000x1, .f32⟩
  | 21 => ⟨S1100000x1, .i32⟩
  | 22 => ⟨S100000x1, .f32⟩
  | 23 => ⟨S_, .f32⟩
  | 24 => ⟨S1100000x1, .f32⟩
  | 25 => ⟨S_, .f32⟩
  | 26 => ⟨S100000x1, .f32⟩
  | 27 => ⟨S1100000x1, .i32⟩
  | 28 => ⟨S100000x1, .f32⟩
  | 29 => ⟨S_, .f32⟩
  | 30 => ⟨S100000x1, .f32⟩
  | 31 => ⟨S100000x1, .f32⟩
  | 32 => ⟨S100000x1, .f32⟩
  | 33 => ⟨S100000x8, .f32⟩
  | 34 => ⟨S100000x17, .f32⟩
  | 35 => ⟨S100000x32, .f32⟩
  | 36 => ⟨S1x32, .f32⟩
  | 37 => ⟨S100000x32, .f32⟩
  | 38 => ⟨S100000x32, .f32⟩
  | 39 => ⟨S_, .f32⟩
  | 40 => ⟨S100000x32, .f32⟩
  | 41 => ⟨S100000x32, .f32⟩
  | 42 => ⟨S100000x8, .f32⟩
  | 43 => ⟨S1x8, .f32⟩
  | 44 => ⟨S100000x8, .f32⟩
  | 45 => ⟨S100000x8, .f32⟩
  | 46 => ⟨S_, .f32⟩
  | 47 => ⟨S8, .f32⟩
  | 48 => ⟨S1x8, .f32⟩
  | 49 => ⟨S_, .f32⟩
  | 50 => ⟨S1x8, .f32⟩
  | 51 => ⟨S1x8, .f32⟩
  | 52 => ⟨S_, .f32⟩
  | 53 => ⟨S1, .f32⟩
  | 54 => ⟨S1x1, .f32⟩
  | 55 => ⟨S_, .f32⟩
  | 56 => ⟨S1x1, .f32⟩
  | 57 => ⟨S1x1, .f32⟩
  | 58 => ⟨S1x17, .f32⟩
  | 59 => ⟨S1x32, .f32⟩
  | 60 => ⟨S1x32, .f32⟩
  | 61 => ⟨S1x32, .f32⟩
  | 62 => ⟨S_, .f32⟩
  | 63 => ⟨S1x32, .f32⟩
  | 64 => ⟨S1x32, .f32⟩
  | 65 => ⟨S1x8, .f32⟩
  | 66 => ⟨S1x8, .f32⟩
  | 67 => ⟨S1x8, .f32⟩
  | 68 => ⟨S1100000x2, .f32⟩
  | 69 => ⟨S1100000x8, .f32⟩
  | 70 => ⟨S_, .i32⟩
  | 71 => ⟨S1100000, .i32⟩
  | 72 => ⟨S1100000, .i1⟩
  | 73 => ⟨S_, .i32⟩
  | 74 => ⟨S1100000, .i32⟩
  | 75 => ⟨S1100000, .i32⟩
  | 76 => ⟨S1100000, .i32⟩
  | 77 => ⟨S1100000x1, .i32⟩
  | 78 => ⟨S1100000x8, .f32⟩
  | 79 => ⟨S_, .i32⟩
  | 80 => ⟨S1100000, .i32⟩
  | 81 => ⟨S1100000, .i1⟩
  | 82 => ⟨S_, .i32⟩
  | 83 => ⟨S1100000, .i32⟩
  | 84 => ⟨S1100000, .i32⟩
  | 85 => ⟨S1100000, .i32⟩
  | 86 => ⟨S1100000x1, .i32⟩
  | 87 => ⟨S1100000x8, .f32⟩
  | 88 => ⟨S1100000x26, .f32⟩
  | 89 => ⟨S1100000x32, .f32⟩
  | 90 => ⟨S1x32, .f32⟩
  | 91 => ⟨S1100000x32, .f32⟩
  | 92 => ⟨S1100000x32, .f32⟩
  | 93 => ⟨S_, .f32⟩
  | 94 => ⟨S1100000x32, .f32⟩
  | 95 => ⟨S1100000x32, .f32⟩
  | 96 => ⟨S1100000x1, .f32⟩
  | 97 => ⟨S1x1, .f32⟩
  | 98 => ⟨S1100000x1, .f32⟩
  | 99 => ⟨S1100000x1, .f32⟩
  | 100 => ⟨S_, .f32⟩
  | 101 => ⟨S100000x1, .f32⟩
  | 102 => ⟨S1100000x1, .i32⟩
  | 103 => ⟨S100000x1, .f32⟩
  | 104 => ⟨S_, .f32⟩
  | 105 => ⟨S1100000x1, .f32⟩
  | 106 => ⟨S_, .f32⟩
  | 107 => ⟨S100000x1, .f32⟩
  | 108 => ⟨S1100000x1, .i32⟩
  | 109 => ⟨S100000x1, .f32⟩
  | 110 => ⟨S_, .f32⟩
  | 111 => ⟨S100000x1, .f32⟩
  | 112 => ⟨S100000x1, .f32⟩
  | 113 => ⟨S100000x1, .f32⟩
  | 114 => ⟨S100000x8, .f32⟩
  | 115 => ⟨S100000x17, .f32⟩
  | 116 => ⟨S100000x32, .f32⟩
  | 117 => ⟨S1x32, .f32⟩
  | 118 => ⟨S100000x32, .f32⟩
  | 119 => ⟨S100000x32, .f32⟩
  | 120 => ⟨S_, .f32⟩
  | 121 => ⟨S100000x32, .f32⟩
  | 122 => ⟨S100000x32, .f32⟩
  | 123 => ⟨S100000x8, .f32⟩
  | 124 => ⟨S1x8, .f32⟩
  | 125 => ⟨S100000x8, .f32⟩
  | 126 => ⟨S100000x8, .f32⟩
  | 127 => ⟨S_, .f32⟩
  | _ => ⟨S100000x8, .f32⟩

abbrev hbmTy0_5 (i : Nat) : BufTy := match i % 128 with
  | 0 => ⟨S8, .f32⟩
  | 1 => ⟨S1x8, .f32⟩
  | 2 => ⟨S_, .f32⟩
  | 3 => ⟨S1x8, .f32⟩
  | 4 => ⟨S1x8, .f32⟩
  | 5 => ⟨S_, .f32⟩
  | 6 => ⟨S1, .f32⟩
  | 7 => ⟨S1x1, .f32⟩
  | 8 => ⟨S_, .f32⟩
  | 9 => ⟨S1x1, .f32⟩
  | 10 => ⟨S1x1, .f32⟩
  | 11 => ⟨S1x17, .f32⟩
  | 12 => ⟨S1x32, .f32⟩
  | 13 => ⟨S1x32, .f32⟩
  | 14 => ⟨S1x32, .f32⟩
  | 15 => ⟨S_, .f32⟩
  | 16 => ⟨S1x32, .f32⟩
  | 17 => ⟨S1x32, .f32⟩
  | 18 => ⟨S1x8, .f32⟩
  | 19 => ⟨S1x8, .f32⟩
  | 20 => ⟨S1x8, .f32⟩
  | 21 => ⟨S1100000, .i1⟩
  | 22 => ⟨S1100000, .f32⟩
  | 23 => ⟨S1100000, .f32⟩
  | 24 => ⟨S1100000, .f32⟩
  | 25 => ⟨S1100000, .f32⟩
  | 26 => ⟨S1100000, .i1⟩
  | 27 => ⟨S1100000, .f32⟩
  | 28 => ⟨S1100000, .f32⟩
  | 29 => ⟨S1100000, .f32⟩
  | 30 => ⟨S1100000, .f32⟩
  | 31 => ⟨S2200000, .f32⟩
  | _ => ⟨S100000x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c : Ref sig .tc := ⟨.hbm, 81, rfl⟩
abbrev main_v61 : Ref sig .tc := ⟨.hbm, 82, rfl⟩
abbrev main_v62 : Ref sig .tc := ⟨.hbm, 83, rfl⟩
abbrev main_c_2 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_3 : Ref sig .tc := ⟨.hbm, 90, rfl⟩
abbrev main_v68 : Ref sig .tc := ⟨.hbm, 91, rfl⟩
abbrev main_v69 : Ref sig .tc := ⟨.hbm, 92, rfl⟩
abbrev main_c_4 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_call0_cst : Ref sig .tc := ⟨.hbm, 104, rfl⟩
abbrev main_call0_v0 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_5 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_6 : Ref sig .tc := ⟨.hbm, 115, rfl⟩
abbrev main_v88 : Ref sig .tc := ⟨.hbm, 116, rfl⟩
abbrev main_cst_7 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_8 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_call1_cst : Ref sig .tc := ⟨.hbm, 131, rfl⟩
abbrev main_call1_v0 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_9 : Ref sig .tc := ⟨.hbm, 138, rfl⟩
abbrev main_v106 : Ref sig .tc := ⟨.hbm, 139, rfl⟩
abbrev main_v107 : Ref sig .tc := ⟨.hbm, 140, rfl⟩
abbrev main_cst_10 : Ref sig .tc := ⟨.hbm, 141, rfl⟩
abbrev main_v108 : Ref sig .tc := ⟨.hbm, 142, rfl⟩
abbrev main_v109 : Ref sig .tc := ⟨.hbm, 143, rfl⟩
abbrev main_cst_11 : Ref sig .tc := ⟨.hbm, 144, rfl⟩
abbrev main_v110 : Ref sig .tc := ⟨.hbm, 145, rfl⟩
abbrev main_v111 : Ref sig .tc := ⟨.hbm, 146, rfl⟩
abbrev main_cst_12 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_call2_cst : Ref sig .tc := ⟨.hbm, 154, rfl⟩
abbrev main_call2_v0 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_13 : Ref sig .tc := ⟨.hbm, 162, rfl⟩
abbrev main_v124 : Ref sig .tc := ⟨.hbm, 163, rfl⟩
abbrev main_v125 : Ref sig .tc := ⟨.hbm, 164, rfl⟩
abbrev main_c_14 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_c_15 : Ref sig .tc := ⟨.hbm, 171, rfl⟩
abbrev main_v131 : Ref sig .tc := ⟨.hbm, 172, rfl⟩
abbrev main_v132 : Ref sig .tc := ⟨.hbm, 173, rfl⟩
abbrev main_c_16 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_call3_cst : Ref sig .tc := ⟨.hbm, 185, rfl⟩
abbrev main_call3_v0 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_17 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_18 : Ref sig .tc := ⟨.hbm, 196, rfl⟩
abbrev main_v151 : Ref sig .tc := ⟨.hbm, 197, rfl⟩
abbrev main_cst_19 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_20 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_call4_cst : Ref sig .tc := ⟨.hbm, 212, rfl⟩
abbrev main_call4_v0 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_cst_21 : Ref sig .tc := ⟨.hbm, 219, rfl⟩
abbrev main_v169 : Ref sig .tc := ⟨.hbm, 220, rfl⟩
abbrev main_v170 : Ref sig .tc := ⟨.hbm, 221, rfl⟩
abbrev main_cst_22 : Ref sig .tc := ⟨.hbm, 222, rfl⟩
abbrev main_v171 : Ref sig .tc := ⟨.hbm, 223, rfl⟩
abbrev main_v172 : Ref sig .tc := ⟨.hbm, 224, rfl⟩
abbrev main_cst_23 : Ref sig .tc := ⟨.hbm, 225, rfl⟩
abbrev main_v173 : Ref sig .tc := ⟨.hbm, 226, rfl⟩
abbrev main_v174 : Ref sig .tc := ⟨.hbm, 227, rfl⟩
abbrev main_cst_24 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_call5_cst : Ref sig .tc := ⟨.hbm, 235, rfl⟩
abbrev main_call5_v0 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_c_25 : Ref sig .tc := ⟨.hbm, 291, rfl⟩
abbrev main_v235 : Ref sig .tc := ⟨.hbm, 292, rfl⟩
abbrev main_v236 : Ref sig .tc := ⟨.hbm, 293, rfl⟩
abbrev main_c_26 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_c_27 : Ref sig .tc := ⟨.hbm, 300, rfl⟩
abbrev main_v242 : Ref sig .tc := ⟨.hbm, 301, rfl⟩
abbrev main_v243 : Ref sig .tc := ⟨.hbm, 302, rfl⟩
abbrev main_c_28 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_call6_cst : Ref sig .tc := ⟨.hbm, 314, rfl⟩
abbrev main_call6_v0 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_cst_29 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_cst_30 : Ref sig .tc := ⟨.hbm, 325, rfl⟩
abbrev main_v262 : Ref sig .tc := ⟨.hbm, 326, rfl⟩
abbrev main_cst_31 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_cst_32 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_call7_cst : Ref sig .tc := ⟨.hbm, 341, rfl⟩
abbrev main_call7_v0 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_cst_33 : Ref sig .tc := ⟨.hbm, 348, rfl⟩
abbrev main_v280 : Ref sig .tc := ⟨.hbm, 349, rfl⟩
abbrev main_v281 : Ref sig .tc := ⟨.hbm, 350, rfl⟩
abbrev main_cst_34 : Ref sig .tc := ⟨.hbm, 351, rfl⟩
abbrev main_v282 : Ref sig .tc := ⟨.hbm, 352, rfl⟩
abbrev main_v283 : Ref sig .tc := ⟨.hbm, 353, rfl⟩
abbrev main_cst_35 : Ref sig .tc := ⟨.hbm, 354, rfl⟩
abbrev main_v284 : Ref sig .tc := ⟨.hbm, 355, rfl⟩
abbrev main_v285 : Ref sig .tc := ⟨.hbm, 356, rfl⟩
abbrev main_cst_36 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_call8_cst : Ref sig .tc := ⟨.hbm, 364, rfl⟩
abbrev main_call8_v0 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_c_37 : Ref sig .tc := ⟨.hbm, 372, rfl⟩
abbrev main_v298 : Ref sig .tc := ⟨.hbm, 373, rfl⟩
abbrev main_v299 : Ref sig .tc := ⟨.hbm, 374, rfl⟩
abbrev main_c_38 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_c_39 : Ref sig .tc := ⟨.hbm, 381, rfl⟩
abbrev main_v305 : Ref sig .tc := ⟨.hbm, 382, rfl⟩
abbrev main_v306 : Ref sig .tc := ⟨.hbm, 383, rfl⟩
abbrev main_c_40 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_call9_cst : Ref sig .tc := ⟨.hbm, 395, rfl⟩
abbrev main_call9_v0 : Ref sig .tc := ⟨.hbm, 396, rfl⟩
abbrev main_v317 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_v321 : Ref sig .tc := ⟨.hbm, 401, rfl⟩
abbrev main_cst_41 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_cst_42 : Ref sig .tc := ⟨.hbm, 406, rfl⟩
abbrev main_v325 : Ref sig .tc := ⟨.hbm, 407, rfl⟩
abbrev main_cst_43 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_cst_44 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_call10_cst : Ref sig .tc := ⟨.hbm, 422, rfl⟩
abbrev main_call10_v0 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_v341 : Ref sig .tc := ⟨.hbm, 427, rfl⟩
abbrev main_v342 : Ref sig .tc := ⟨.hbm, 428, rfl⟩
abbrev main_cst_45 : Ref sig .tc := ⟨.hbm, 429, rfl⟩
abbrev main_v343 : Ref sig .tc := ⟨.hbm, 430, rfl⟩
abbrev main_v344 : Ref sig .tc := ⟨.hbm, 431, rfl⟩
abbrev main_cst_46 : Ref sig .tc := ⟨.hbm, 432, rfl⟩
abbrev main_v345 : Ref sig .tc := ⟨.hbm, 433, rfl⟩
abbrev main_v346 : Ref sig .tc := ⟨.hbm, 434, rfl⟩
abbrev main_cst_47 : Ref sig .tc := ⟨.hbm, 435, rfl⟩
abbrev main_v347 : Ref sig .tc := ⟨.hbm, 436, rfl⟩
abbrev main_v348 : Ref sig .tc := ⟨.hbm, 437, rfl⟩
abbrev main_cst_48 : Ref sig .tc := ⟨.hbm, 438, rfl⟩
abbrev main_v349 : Ref sig .tc := ⟨.hbm, 439, rfl⟩
abbrev main_v350 : Ref sig .tc := ⟨.hbm, 440, rfl⟩
abbrev main_v351 : Ref sig .tc := ⟨.hbm, 441, rfl⟩
abbrev main_v352 : Ref sig .tc := ⟨.hbm, 442, rfl⟩
abbrev main_v353 : Ref sig .tc := ⟨.hbm, 443, rfl⟩
abbrev main_v354 : Ref sig .tc := ⟨.hbm, 444, rfl⟩
abbrev main_call11_cst : Ref sig .tc := ⟨.hbm, 445, rfl⟩
abbrev main_call11_v0 : Ref sig .tc := ⟨.hbm, 446, rfl⟩
abbrev main_v355 : Ref sig .tc := ⟨.hbm, 447, rfl⟩
abbrev main_v356 : Ref sig .tc := ⟨.hbm, 448, rfl⟩
abbrev main_v357 : Ref sig .tc := ⟨.hbm, 449, rfl⟩
abbrev main_v358 : Ref sig .tc := ⟨.hbm, 450, rfl⟩
abbrev main_v359 : Ref sig .tc := ⟨.hbm, 451, rfl⟩
abbrev main_v360 : Ref sig .tc := ⟨.hbm, 452, rfl⟩
abbrev main_v361 : Ref sig .tc := ⟨.hbm, 453, rfl⟩
abbrev main_v362 : Ref sig .tc := ⟨.hbm, 454, rfl⟩
abbrev main_v363 : Ref sig .tc := ⟨.hbm, 455, rfl⟩
abbrev main_v364 : Ref sig .tc := ⟨.hbm, 456, rfl⟩
abbrev main_v365 : Ref sig .tc := ⟨.hbm, 457, rfl⟩
abbrev main_v366 : Ref sig .tc := ⟨.hbm, 458, rfl⟩
abbrev main_v367 : Ref sig .tc := ⟨.hbm, 459, rfl⟩
abbrev main_v368 : Ref sig .tc := ⟨.hbm, 460, rfl⟩
abbrev main_v369 : Ref sig .tc := ⟨.hbm, 461, rfl⟩
abbrev main_v370 : Ref sig .tc := ⟨.hbm, 462, rfl⟩
abbrev main_v371 : Ref sig .tc := ⟨.hbm, 463, rfl⟩
abbrev main_v372 : Ref sig .tc := ⟨.hbm, 464, rfl⟩
abbrev main_v373 : Ref sig .tc := ⟨.hbm, 465, rfl⟩
abbrev main_v374 : Ref sig .tc := ⟨.hbm, 466, rfl⟩
abbrev main_v375 : Ref sig .tc := ⟨.hbm, 467, rfl⟩
abbrev main_v376 : Ref sig .tc := ⟨.hbm, 468, rfl⟩
abbrev main_v377 : Ref sig .tc := ⟨.hbm, 469, rfl⟩
abbrev main_v378 : Ref sig .tc := ⟨.hbm, 470, rfl⟩
abbrev main_v379 : Ref sig .tc := ⟨.hbm, 471, rfl⟩
abbrev main_v380 : Ref sig .tc := ⟨.hbm, 472, rfl⟩
abbrev main_v381 : Ref sig .tc := ⟨.hbm, 473, rfl⟩
abbrev main_v382 : Ref sig .tc := ⟨.hbm, 474, rfl⟩
abbrev main_v383 : Ref sig .tc := ⟨.hbm, 475, rfl⟩
abbrev main_v384 : Ref sig .tc := ⟨.hbm, 476, rfl⟩
abbrev main_v385 : Ref sig .tc := ⟨.hbm, 477, rfl⟩
abbrev main_v386 : Ref sig .tc := ⟨.hbm, 478, rfl⟩
abbrev main_v387 : Ref sig .tc := ⟨.hbm, 479, rfl⟩
abbrev main_v388 : Ref sig .tc := ⟨.hbm, 480, rfl⟩
abbrev main_v389 : Ref sig .tc := ⟨.hbm, 481, rfl⟩
abbrev main_v390 : Ref sig .tc := ⟨.hbm, 482, rfl⟩
abbrev main_v391 : Ref sig .tc := ⟨.hbm, 483, rfl⟩
abbrev main_v392 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_v396 : Ref sig .tc := ⟨.hbm, 488, rfl⟩
abbrev main_v397 : Ref sig .tc := ⟨.hbm, 489, rfl⟩
abbrev main_v398 : Ref sig .tc := ⟨.hbm, 490, rfl⟩
abbrev main_v399 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_v404 : Ref sig .tc := ⟨.hbm, 496, rfl⟩
abbrev main_v405 : Ref sig .tc := ⟨.hbm, 497, rfl⟩
abbrev main_v406 : Ref sig .tc := ⟨.hbm, 498, rfl⟩
abbrev main_v407 : Ref sig .tc := ⟨.hbm, 499, rfl⟩
abbrev main_v408 : Ref sig .tc := ⟨.hbm, 500, rfl⟩
abbrev main_c_49 : Ref sig .tc := ⟨.hbm, 501, rfl⟩
abbrev main_v409 : Ref sig .tc := ⟨.hbm, 502, rfl⟩
abbrev main_v410 : Ref sig .tc := ⟨.hbm, 503, rfl⟩
abbrev main_c_50 : Ref sig .tc := ⟨.hbm, 504, rfl⟩
abbrev main_v411 : Ref sig .tc := ⟨.hbm, 505, rfl⟩
abbrev main_v412 : Ref sig .tc := ⟨.hbm, 506, rfl⟩
abbrev main_v413 : Ref sig .tc := ⟨.hbm, 507, rfl⟩
abbrev main_v414 : Ref sig .tc := ⟨.hbm, 508, rfl⟩
abbrev main_v415 : Ref sig .tc := ⟨.hbm, 509, rfl⟩
abbrev main_c_51 : Ref sig .tc := ⟨.hbm, 510, rfl⟩
abbrev main_v416 : Ref sig .tc := ⟨.hbm, 511, rfl⟩
abbrev main_v417 : Ref sig .tc := ⟨.hbm, 512, rfl⟩
abbrev main_c_52 : Ref sig .tc := ⟨.hbm, 513, rfl⟩
abbrev main_v418 : Ref sig .tc := ⟨.hbm, 514, rfl⟩
abbrev main_v419 : Ref sig .tc := ⟨.hbm, 515, rfl⟩
abbrev main_v420 : Ref sig .tc := ⟨.hbm, 516, rfl⟩
abbrev main_v421 : Ref sig .tc := ⟨.hbm, 517, rfl⟩
abbrev main_v422 : Ref sig .tc := ⟨.hbm, 518, rfl⟩
abbrev main_v423 : Ref sig .tc := ⟨.hbm, 519, rfl⟩
abbrev main_v424 : Ref sig .tc := ⟨.hbm, 520, rfl⟩
abbrev main_v425 : Ref sig .tc := ⟨.hbm, 521, rfl⟩
abbrev main_v426 : Ref sig .tc := ⟨.hbm, 522, rfl⟩
abbrev main_v427 : Ref sig .tc := ⟨.hbm, 523, rfl⟩
abbrev main_call12_cst : Ref sig .tc := ⟨.hbm, 524, rfl⟩
abbrev main_call12_v0 : Ref sig .tc := ⟨.hbm, 525, rfl⟩
abbrev main_v428 : Ref sig .tc := ⟨.hbm, 526, rfl⟩
abbrev main_v429 : Ref sig .tc := ⟨.hbm, 527, rfl⟩
abbrev main_v430 : Ref sig .tc := ⟨.hbm, 528, rfl⟩
abbrev main_v431 : Ref sig .tc := ⟨.hbm, 529, rfl⟩
abbrev main_v432 : Ref sig .tc := ⟨.hbm, 530, rfl⟩
abbrev main_cst_53 : Ref sig .tc := ⟨.hbm, 531, rfl⟩
abbrev main_v433 : Ref sig .tc := ⟨.hbm, 532, rfl⟩
abbrev main_v434 : Ref sig .tc := ⟨.hbm, 533, rfl⟩
abbrev main_v435 : Ref sig .tc := ⟨.hbm, 534, rfl⟩
abbrev main_cst_54 : Ref sig .tc := ⟨.hbm, 535, rfl⟩
abbrev main_v436 : Ref sig .tc := ⟨.hbm, 536, rfl⟩
abbrev main_cst_55 : Ref sig .tc := ⟨.hbm, 537, rfl⟩
abbrev main_v437 : Ref sig .tc := ⟨.hbm, 538, rfl⟩
abbrev main_v438 : Ref sig .tc := ⟨.hbm, 539, rfl⟩
abbrev main_v439 : Ref sig .tc := ⟨.hbm, 540, rfl⟩
abbrev main_cst_56 : Ref sig .tc := ⟨.hbm, 541, rfl⟩
abbrev main_v440 : Ref sig .tc := ⟨.hbm, 542, rfl⟩
abbrev main_v441 : Ref sig .tc := ⟨.hbm, 543, rfl⟩
abbrev main_v442 : Ref sig .tc := ⟨.hbm, 544, rfl⟩
abbrev main_v443 : Ref sig .tc := ⟨.hbm, 545, rfl⟩
abbrev main_v444 : Ref sig .tc := ⟨.hbm, 546, rfl⟩
abbrev main_v445 : Ref sig .tc := ⟨.hbm, 547, rfl⟩
abbrev main_v446 : Ref sig .tc := ⟨.hbm, 548, rfl⟩
abbrev main_v447 : Ref sig .tc := ⟨.hbm, 549, rfl⟩
abbrev main_v448 : Ref sig .tc := ⟨.hbm, 550, rfl⟩
abbrev main_call13_cst : Ref sig .tc := ⟨.hbm, 551, rfl⟩
abbrev main_call13_v0 : Ref sig .tc := ⟨.hbm, 552, rfl⟩
abbrev main_v449 : Ref sig .tc := ⟨.hbm, 553, rfl⟩
abbrev main_v450 : Ref sig .tc := ⟨.hbm, 554, rfl⟩
abbrev main_v451 : Ref sig .tc := ⟨.hbm, 555, rfl⟩
abbrev main_v452 : Ref sig .tc := ⟨.hbm, 556, rfl⟩
abbrev main_v453 : Ref sig .tc := ⟨.hbm, 557, rfl⟩
abbrev main_cst_57 : Ref sig .tc := ⟨.hbm, 558, rfl⟩
abbrev main_v454 : Ref sig .tc := ⟨.hbm, 559, rfl⟩
abbrev main_v455 : Ref sig .tc := ⟨.hbm, 560, rfl⟩
abbrev main_cst_58 : Ref sig .tc := ⟨.hbm, 561, rfl⟩
abbrev main_v456 : Ref sig .tc := ⟨.hbm, 562, rfl⟩
abbrev main_v457 : Ref sig .tc := ⟨.hbm, 563, rfl⟩
abbrev main_cst_59 : Ref sig .tc := ⟨.hbm, 564, rfl⟩
abbrev main_v458 : Ref sig .tc := ⟨.hbm, 565, rfl⟩
abbrev main_v459 : Ref sig .tc := ⟨.hbm, 566, rfl⟩
abbrev main_cst_60 : Ref sig .tc := ⟨.hbm, 567, rfl⟩
abbrev main_v460 : Ref sig .tc := ⟨.hbm, 568, rfl⟩
abbrev main_v461 : Ref sig .tc := ⟨.hbm, 569, rfl⟩
abbrev main_v462 : Ref sig .tc := ⟨.hbm, 570, rfl⟩
abbrev main_v463 : Ref sig .tc := ⟨.hbm, 571, rfl⟩
abbrev main_v464 : Ref sig .tc := ⟨.hbm, 572, rfl⟩
abbrev main_v465 : Ref sig .tc := ⟨.hbm, 573, rfl⟩
abbrev main_call14_cst : Ref sig .tc := ⟨.hbm, 574, rfl⟩
abbrev main_call14_v0 : Ref sig .tc := ⟨.hbm, 575, rfl⟩
abbrev main_v466 : Ref sig .tc := ⟨.hbm, 576, rfl⟩
abbrev main_v467 : Ref sig .tc := ⟨.hbm, 577, rfl⟩
abbrev main_v468 : Ref sig .tc := ⟨.hbm, 578, rfl⟩
abbrev main_v469 : Ref sig .tc := ⟨.hbm, 579, rfl⟩
abbrev main_v470 : Ref sig .tc := ⟨.hbm, 580, rfl⟩
abbrev main_v471 : Ref sig .tc := ⟨.hbm, 581, rfl⟩
abbrev main_c_61 : Ref sig .tc := ⟨.hbm, 582, rfl⟩
abbrev main_v472 : Ref sig .tc := ⟨.hbm, 583, rfl⟩
abbrev main_v473 : Ref sig .tc := ⟨.hbm, 584, rfl⟩
abbrev main_c_62 : Ref sig .tc := ⟨.hbm, 585, rfl⟩
abbrev main_v474 : Ref sig .tc := ⟨.hbm, 586, rfl⟩
abbrev main_v475 : Ref sig .tc := ⟨.hbm, 587, rfl⟩
abbrev main_v476 : Ref sig .tc := ⟨.hbm, 588, rfl⟩
abbrev main_v477 : Ref sig .tc := ⟨.hbm, 589, rfl⟩
abbrev main_v478 : Ref sig .tc := ⟨.hbm, 590, rfl⟩
abbrev main_c_63 : Ref sig .tc := ⟨.hbm, 591, rfl⟩
abbrev main_v479 : Ref sig .tc := ⟨.hbm, 592, rfl⟩
abbrev main_v480 : Ref sig .tc := ⟨.hbm, 593, rfl⟩
abbrev main_c_64 : Ref sig .tc := ⟨.hbm, 594, rfl⟩
abbrev main_v481 : Ref sig .tc := ⟨.hbm, 595, rfl⟩
abbrev main_v482 : Ref sig .tc := ⟨.hbm, 596, rfl⟩
abbrev main_v483 : Ref sig .tc := ⟨.hbm, 597, rfl⟩
abbrev main_v484 : Ref sig .tc := ⟨.hbm, 598, rfl⟩
abbrev main_v485 : Ref sig .tc := ⟨.hbm, 599, rfl⟩
abbrev main_v486 : Ref sig .tc := ⟨.hbm, 600, rfl⟩
abbrev main_v487 : Ref sig .tc := ⟨.hbm, 601, rfl⟩
abbrev main_v488 : Ref sig .tc := ⟨.hbm, 602, rfl⟩
abbrev main_v489 : Ref sig .tc := ⟨.hbm, 603, rfl⟩
abbrev main_v490 : Ref sig .tc := ⟨.hbm, 604, rfl⟩
abbrev main_call15_cst : Ref sig .tc := ⟨.hbm, 605, rfl⟩
abbrev main_call15_v0 : Ref sig .tc := ⟨.hbm, 606, rfl⟩
abbrev main_v491 : Ref sig .tc := ⟨.hbm, 607, rfl⟩
abbrev main_v492 : Ref sig .tc := ⟨.hbm, 608, rfl⟩
abbrev main_v493 : Ref sig .tc := ⟨.hbm, 609, rfl⟩
abbrev main_v494 : Ref sig .tc := ⟨.hbm, 610, rfl⟩
abbrev main_v495 : Ref sig .tc := ⟨.hbm, 611, rfl⟩
abbrev main_cst_65 : Ref sig .tc := ⟨.hbm, 612, rfl⟩
abbrev main_v496 : Ref sig .tc := ⟨.hbm, 613, rfl⟩
abbrev main_v497 : Ref sig .tc := ⟨.hbm, 614, rfl⟩
abbrev main_v498 : Ref sig .tc := ⟨.hbm, 615, rfl⟩
abbrev main_cst_66 : Ref sig .tc := ⟨.hbm, 616, rfl⟩
abbrev main_v499 : Ref sig .tc := ⟨.hbm, 617, rfl⟩
abbrev main_cst_67 : Ref sig .tc := ⟨.hbm, 618, rfl⟩
abbrev main_v500 : Ref sig .tc := ⟨.hbm, 619, rfl⟩
abbrev main_v501 : Ref sig .tc := ⟨.hbm, 620, rfl⟩
abbrev main_v502 : Ref sig .tc := ⟨.hbm, 621, rfl⟩
abbrev main_cst_68 : Ref sig .tc := ⟨.hbm, 622, rfl⟩
abbrev main_v503 : Ref sig .tc := ⟨.hbm, 623, rfl⟩
abbrev main_v504 : Ref sig .tc := ⟨.hbm, 624, rfl⟩
abbrev main_v505 : Ref sig .tc := ⟨.hbm, 625, rfl⟩
abbrev main_v506 : Ref sig .tc := ⟨.hbm, 626, rfl⟩
abbrev main_v507 : Ref sig .tc := ⟨.hbm, 627, rfl⟩
abbrev main_v508 : Ref sig .tc := ⟨.hbm, 628, rfl⟩
abbrev main_v509 : Ref sig .tc := ⟨.hbm, 629, rfl⟩
abbrev main_v510 : Ref sig .tc := ⟨.hbm, 630, rfl⟩
abbrev main_v511 : Ref sig .tc := ⟨.hbm, 631, rfl⟩
abbrev main_call16_cst : Ref sig .tc := ⟨.hbm, 632, rfl⟩
abbrev main_call16_v0 : Ref sig .tc := ⟨.hbm, 633, rfl⟩
abbrev main_v512 : Ref sig .tc := ⟨.hbm, 634, rfl⟩
abbrev main_v513 : Ref sig .tc := ⟨.hbm, 635, rfl⟩
abbrev main_v514 : Ref sig .tc := ⟨.hbm, 636, rfl⟩
abbrev main_v515 : Ref sig .tc := ⟨.hbm, 637, rfl⟩
abbrev main_v516 : Ref sig .tc := ⟨.hbm, 638, rfl⟩
abbrev main_cst_69 : Ref sig .tc := ⟨.hbm, 639, rfl⟩
abbrev main_v517 : Ref sig .tc := ⟨.hbm, 640, rfl⟩
abbrev main_v518 : Ref sig .tc := ⟨.hbm, 641, rfl⟩
abbrev main_cst_70 : Ref sig .tc := ⟨.hbm, 642, rfl⟩
abbrev main_v519 : Ref sig .tc := ⟨.hbm, 643, rfl⟩
abbrev main_v520 : Ref sig .tc := ⟨.hbm, 644, rfl⟩
abbrev main_cst_71 : Ref sig .tc := ⟨.hbm, 645, rfl⟩
abbrev main_v521 : Ref sig .tc := ⟨.hbm, 646, rfl⟩
abbrev main_v522 : Ref sig .tc := ⟨.hbm, 647, rfl⟩
abbrev main_cst_72 : Ref sig .tc := ⟨.hbm, 648, rfl⟩
abbrev main_v523 : Ref sig .tc := ⟨.hbm, 649, rfl⟩
abbrev main_v524 : Ref sig .tc := ⟨.hbm, 650, rfl⟩
abbrev main_v525 : Ref sig .tc := ⟨.hbm, 651, rfl⟩
abbrev main_v526 : Ref sig .tc := ⟨.hbm, 652, rfl⟩
abbrev main_v527 : Ref sig .tc := ⟨.hbm, 653, rfl⟩
abbrev main_v528 : Ref sig .tc := ⟨.hbm, 654, rfl⟩
abbrev main_call17_cst : Ref sig .tc := ⟨.hbm, 655, rfl⟩
abbrev main_call17_v0 : Ref sig .tc := ⟨.hbm, 656, rfl⟩
abbrev main_v529 : Ref sig .tc := ⟨.hbm, 657, rfl⟩
abbrev main_v530 : Ref sig .tc := ⟨.hbm, 658, rfl⟩
abbrev main_v531 : Ref sig .tc := ⟨.hbm, 659, rfl⟩
abbrev main_v532 : Ref sig .tc := ⟨.hbm, 660, rfl⟩
abbrev main_v533 : Ref sig .tc := ⟨.hbm, 661, rfl⟩
abbrev main_v534 : Ref sig .tc := ⟨.hbm, 662, rfl⟩
abbrev main_v535 : Ref sig .tc := ⟨.hbm, 663, rfl⟩
abbrev main_v536 : Ref sig .tc := ⟨.hbm, 664, rfl⟩
abbrev main_v537 : Ref sig .tc := ⟨.hbm, 665, rfl⟩
abbrev main_v538 : Ref sig .tc := ⟨.hbm, 666, rfl⟩
abbrev main_v539 : Ref sig .tc := ⟨.hbm, 667, rfl⟩
abbrev main_v540 : Ref sig .tc := ⟨.hbm, 668, rfl⟩
abbrev main_v541 : Ref sig .tc := ⟨.hbm, 669, rfl⟩
abbrev main_v542 : Ref sig .tc := ⟨.hbm, 670, rfl⟩
abbrev main_v543 : Ref sig .tc := ⟨.hbm, 671, rfl⟩

abbrev nD : Nat := 1
abbrev τ : Topo := Topo.v7x

variable {F : FTy → Type} [FloatOps F]

class Facts₀ : Prop where
  slices_S2x1100000_S1x1100000_0_0 : S2x1100000.Slices ![0, 0] S1x1100000
  shapeCasts_S1x1100000_S1100000 : S1x1100000.ShapeCasts S1100000
  slices_S2x1100000_S1x1100000_1_0 : S2x1100000.Slices ![1, 0] S1x1100000
  bcast_S_S1x8 : S_.BroadcastsInDim S1x8 (![] : Fin 0 → Fin S1x8.rank)
  bcast_S_S1100000x1 : S_.BroadcastsInDim S1100000x1 (![] : Fin 0 → Fin S1100000x1.rank)
  slices_S2x3x26x32_S1x1x26x32_0_0_0_0 : S2x3x26x32.Slices ![0, 0, 0, 0] S1x1x26x32
  shapeCasts_S1x1x26x32_S26x32 : S1x1x26x32.ShapeCasts S26x32
  slices_S2x3x32_S1x1x32_0_0_0 : S2x3x32.Slices ![0, 0, 0] S1x1x32
  shapeCasts_S1x1x32_S32 : S1x1x32.ShapeCasts S32
  slices_S2x3x32x1_S1x1x32x1_0_0_0_0 : S2x3x32x1.Slices ![0, 0, 0, 0] S1x1x32x1
  shapeCasts_S1x1x32x1_S32x1 : S1x1x32x1.ShapeCasts S32x1
  slices_S2x3x1_S1x1x1_0_0_0 : S2x3x1.Slices ![0, 0, 0] S1x1x1
  shapeCasts_S1x1x1_S1 : S1x1x1.ShapeCasts S1
  slices_S2x3x17x32_S1x1x17x32_0_0_0_0 : S2x3x17x32.Slices ![0, 0, 0, 0] S1x1x17x32
  shapeCasts_S1x1x17x32_S17x32 : S1x1x17x32.ShapeCasts S17x32
  slices_S2x3x32x8_S1x1x32x8_0_0_0_0 : S2x3x32x8.Slices ![0, 0, 0, 0] S1x1x32x8
  shapeCasts_S1x1x32x8_S32x8 : S1x1x32x8.ShapeCasts S32x8
  slices_S2x3x8_S1x1x8_0_0_0 : S2x3x8.Slices ![0, 0, 0] S1x1x8
  shapeCasts_S1x1x8_S8 : S1x1x8.ShapeCasts S8
  slices_S2x3x26x32_S1x1x26x32_1_0_0_0 : S2x3x26x32.Slices ![1, 0, 0, 0] S1x1x26x32
  slices_S2x3x32_S1x1x32_1_0_0 : S2x3x32.Slices ![1, 0, 0] S1x1x32
  slices_S2x3x32x1_S1x1x32x1_1_0_0_0 : S2x3x32x1.Slices ![1, 0, 0, 0] S1x1x32x1
  slices_S2x3x1_S1x1x1_1_0_0 : S2x3x1.Slices ![1, 0, 0] S1x1x1
  slices_S2x3x17x32_S1x1x17x32_1_0_0_0 : S2x3x17x32.Slices ![1, 0, 0, 0] S1x1x17x32
  slices_S2x3x32x8_S1x1x32x8_1_0_0_0 : S2x3x32x8.Slices ![1, 0, 0, 0] S1x1x32x8
  slices_S2x3x8_S1x1x8_1_0_0 : S2x3x8.Slices ![1, 0, 0] S1x1x8
  concatenates_S1100000x1_S1100000x1_S1100000x2_d1 : Shape.Concatenates [S1100000x1, S1100000x1] S1100000x2 1
  bcast_S1x8_S1100000x8_0_1 : S1x8.BroadcastsInDim S1100000x8 (![0, 1] : Fin 2 → Fin S1100000x8.rank)
  bcast_S_S1100000 : S_.BroadcastsInDim S1100000 (![] : Fin 0 → Fin S1100000.rank)
  bcast_S1100000_S1100000x1_0 : S1100000.BroadcastsInDim S1100000x1 (![0] : Fin 1 → Fin S1100000x1.rank)
  concatenates_S1100000x8_S1100000x8_S1100000x8_S1100000x2_S1100000x26_d1 : Shape.Concatenates [S1100000x8, S1100000x8, S1100000x8, S1100000x2] S1100000x26 1
  bcast_S32_S1x32_1 : S32.BroadcastsInDim S1x32 (![1] : Fin 1 → Fin S1x32.rank)
  bcast_S1x32_S1100000x32_0_1 : S1x32.BroadcastsInDim S1100000x32 (![0, 1] : Fin 2 → Fin S1100000x32.rank)
  bcast_S_S1100000x32 : S_.BroadcastsInDim S1100000x32 (![] : Fin 0 → Fin S1100000x32.rank)
  bcast_S1_S1x1_1 : S1.BroadcastsInDim S1x1 (![1] : Fin 1 → Fin S1x1.rank)
  bcast_S1x1_S1100000x1_0_1 : S1x1.BroadcastsInDim S1100000x1 (![0, 1] : Fin 2 → Fin S1100000x1.rank)
  bcast_S_S100000x1 : S_.BroadcastsInDim S100000x1 (![] : Fin 0 → Fin S100000x1.rank)
  bcast_S1x8_S100000x8_0_1 : S1x8.BroadcastsInDim S100000x8 (![0, 1] : Fin 2 → Fin S100000x8.rank)
  concatenates_S100000x8_S100000x8_S100000x1_S100000x17_d1 : Shape.Concatenates [S100000x8, S100000x8, S100000x1] S100000x17 1
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S8_S1x8_1 : S8.BroadcastsInDim S1x8 (![1] : Fin 1 → Fin S1x8.rank)
  reducesTo_S100000x8_S8_d0 : S100000x8.ReducesTo [0] S8
  h_S_ : 0 < S_.numel
  reducesTo_S1100000x1_S1_d0 : S1100000x1.ReducesTo [0] S1
  bcast_S_S1x1 : S_.BroadcastsInDim S1x1 (![] : Fin 0 → Fin S1x1.rank)
  concatenates_S1x8_S1x1_S1x8_S1x17_d1 : Shape.Concatenates [S1x8, S1x1, S1x8] S1x17 1
  bcast_S_S1x32 : S_.BroadcastsInDim S1x32 (![] : Fin 0 → Fin S1x32.rank)
  slices_S2x3x26x32_S1x1x26x32_0_1_0_0 : S2x3x26x32.Slices ![0, 1, 0, 0] S1x1x26x32
  slices_S2x3x32_S1x1x32_0_1_0 : S2x3x32.Slices ![0, 1, 0] S1x1x32
  slices_S2x3x32x1_S1x1x32x1_0_1_0_0 : S2x3x32x1.Slices ![0, 1, 0, 0] S1x1x32x1
  slices_S2x3x1_S1x1x1_0_1_0 : S2x3x1.Slices ![0, 1, 0] S1x1x1
  slices_S2x3x17x32_S1x1x17x32_0_1_0_0 : S2x3x17x32.Slices ![0, 1, 0, 0] S1x1x17x32
  slices_S2x3x32x8_S1x1x32x8_0_1_0_0 : S2x3x32x8.Slices ![0, 1, 0, 0] S1x1x32x8
  slices_S2x3x8_S1x1x8_0_1_0 : S2x3x8.Slices ![0, 1, 0] S1x1x8
  slices_S2x3x26x32_S1x1x26x32_1_1_0_0 : S2x3x26x32.Slices ![1, 1, 0, 0] S1x1x26x32
  slices_S2x3x32_S1x1x32_1_1_0 : S2x3x32.Slices ![1, 1, 0] S1x1x32
  slices_S2x3x32x1_S1x1x32x1_1_1_0_0 : S2x3x32x1.Slices ![1, 1, 0, 0] S1x1x32x1
  slices_S2x3x1_S1x1x1_1_1_0 : S2x3x1.Slices ![1, 1, 0] S1x1x1
  slices_S2x3x17x32_S1x1x17x32_1_1_0_0 : S2x3x17x32.Slices ![1, 1, 0, 0] S1x1x17x32
  slices_S2x3x32x8_S1x1x32x8_1_1_0_0 : S2x3x32x8.Slices ![1, 1, 0, 0] S1x1x32x8
  slices_S2x3x8_S1x1x8_1_1_0 : S2x3x8.Slices ![1, 1, 0] S1x1x8
  slices_S2x3x26x32_S1x1x26x32_0_2_0_0 : S2x3x26x32.Slices ![0, 2, 0, 0] S1x1x26x32
  slices_S2x3x32_S1x1x32_0_2_0 : S2x3x32.Slices ![0, 2, 0] S1x1x32
  slices_S2x3x32x1_S1x1x32x1_0_2_0_0 : S2x3x32x1.Slices ![0, 2, 0, 0] S1x1x32x1
  slices_S2x3x1_S1x1x1_0_2_0 : S2x3x1.Slices ![0, 2, 0] S1x1x1
  slices_S2x3x17x32_S1x1x17x32_0_2_0_0 : S2x3x17x32.Slices ![0, 2, 0, 0] S1x1x17x32
  slices_S2x3x32x8_S1x1x32x8_0_2_0_0 : S2x3x32x8.Slices ![0, 2, 0, 0] S1x1x32x8
  slices_S2x3x8_S1x1x8_0_2_0 : S2x3x8.Slices ![0, 2, 0] S1x1x8
  slices_S2x3x26x32_S1x1x26x32_1_2_0_0 : S2x3x26x32.Slices ![1, 2, 0, 0] S1x1x26x32
  slices_S2x3x32_S1x1x32_1_2_0 : S2x3x32.Slices ![1, 2, 0] S1x1x32
  slices_S2x3x32x1_S1x1x32x1_1_2_0_0 : S2x3x32x1.Slices ![1, 2, 0, 0] S1x1x32x1
  slices_S2x3x1_S1x1x1_1_2_0 : S2x3x1.Slices ![1, 2, 0] S1x1x1
  slices_S2x3x17x32_S1x1x17x32_1_2_0_0 : S2x3x17x32.Slices ![1, 2, 0, 0] S1x1x17x32
  slices_S2x3x32x8_S1x1x32x8_1_2_0_0 : S2x3x32x8.Slices ![1, 2, 0, 0] S1x1x32x8
  slices_S2x3x8_S1x1x8_1_2_0 : S2x3x8.Slices ![1, 2, 0] S1x1x8
  shapeCasts_S1100000x1_S1100000 : S1100000x1.ShapeCasts S1100000
  concatenates_S1100000_S1100000_S2200000_d0 : Shape.Concatenates [S1100000, S1100000] S2200000 0
  gather_S100000x8_S1100000x1_S1100000x8_1_0_n_n_0_1_18_wf : GatherDims.WF S100000x8 S1100000x1 S1100000x8 [1] [0] [] [0] [] 1 ![1, 8]
  dot_S1100000x26_S26x32_S1100000x32_1_0_0_1_n_n_wf : DotDims.WF S1100000x26 S26x32 S1100000x32 [1] [0] [0] [1] [] []
  dot_S1100000x32_S32x1_S1100000x1_1_0_0_1_n_n_wf : DotDims.WF S1100000x32 S32x1 S1100000x1 [1] [0] [0] [1] [] []
  scatter_S100000x1_S1100000x1_S1100000x1_1_0_0_1_wf : ScatterDims.WF S100000x1 S1100000x1 S1100000x1 [1] [0] [0] 1
  dot_S100000x17_S17x32_S100000x32_1_0_0_1_n_n_wf : DotDims.WF S100000x17 S17x32 S100000x32 [1] [0] [0] [1] [] []
  dot_S100000x32_S32x8_S100000x8_1_0_0_1_n_n_wf : DotDims.WF S100000x32 S32x8 S100000x8 [1] [0] [0] [1] [] []
  dot_S1x17_S17x32_S1x32_1_0_0_1_n_n_wf : DotDims.WF S1x17 S17x32 S1x32 [1] [0] [0] [1] [] []
  dot_S1x32_S32x8_S1x8_1_0_0_1_n_n_wf : DotDims.WF S1x32 S32x8 S1x8 [1] [0] [0] [1] [] []

variable [Facts₀]

def gather_S100000x8_S1100000x1_S1100000x8_1_0_n_n_0_1_18 : GatherDims S100000x8 S1100000x1 S1100000x8 where
  offsetDims := [1]
  collapsedSliceDims := [0]
  operandBatchingDims := []
  startIndicesBatchingDims := []
  startIndexMap := [0]
  indexVectorDim := 1
  sliceSizes := ![1, 8]
  wf := gather_S100000x8_S1100000x1_S1100000x8_1_0_n_n_0_1_18_wf
def dot_S1100000x26_S26x32_S1100000x32_1_0_0_1_n_n : DotDims S1100000x26 S26x32 S1100000x32 where
  lhsContracting := [1]
  rhsContracting := [0]
  lhsNonContracting := [0]
  rhsNonContracting := [1]
  lhsBatch := []
  rhsBatch := []
  wf := dot_S1100000x26_S26x32_S1100000x32_1_0_0_1_n_n_wf
def dot_S1100000x32_S32x1_S1100000x1_1_0_0_1_n_n : DotDims S1100000x32 S32x1 S1100000x1 where
  lhsContracting := [1]
  rhsContracting := [0]
  lhsNonContracting := [0]
  rhsNonContracting := [1]
  lhsBatch := []
  rhsBatch := []
  wf := dot_S1100000x32_S32x1_S1100000x1_1_0_0_1_n_n_wf
def scatter_S100000x1_S1100000x1_S1100000x1_1_0_0_1 : ScatterDims S100000x1 S1100000x1 S1100000x1 where
  updateWindowDims := [1]
  insertedWindowDims := [0]
  scatterDimsToOperandDims := [0]
  indexVectorDim := 1
  wf := scatter_S100000x1_S1100000x1_S1100000x1_1_0_0_1_wf
def dot_S100000x17_S17x32_S100000x32_1_0_0_1_n_n : DotDims S100000x17 S17x32 S100000x32 where
  lhsContracting := [1]
  rhsContracting := [0]
  lhsNonContracting := [0]
  rhsNonContracting := [1]
  lhsBatch := []
  rhsBatch := []
  wf := dot_S100000x17_S17x32_S100000x32_1_0_0_1_n_n_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def dot_S1x17_S17x32_S1x32_1_0_0_1_n_n : DotDims S1x17 S17x32 S1x32 where
  lhsContracting := [1]
  rhsContracting := [0]
  lhsNonContracting := [0]
  rhsNonContracting := [1]
  lhsBatch := []
  rhsBatch := []
  wf := dot_S1x17_S17x32_S1x32_1_0_0_1_n_n_wf
def dot_S1x32_S32x8_S1x8_1_0_0_1_n_n : DotDims S1x32 S32x8 S1x8 where
  lhsContracting := [1]
  rhsContracting := [0]
  lhsNonContracting := [0]
  rhsNonContracting := [1]
  lhsBatch := []
  rhsBatch := []
  wf := dot_S1x32_S32x8_S1x8_1_0_0_1_n_n_wf

class Facts : Prop extends Facts₀ where

variable [Facts]
-- ==== Proof.KI.Reg0.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 0 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k0_pay1` of the nine input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads its inputs through: each input block whole. -/
abbrev r0_i0 : Rect S8192x8 := Rect.unit (s := S8192x8) ![0, 0] S8192x8.size inb_S8192x8_S8192x8_0_0
abbrev r0_i1 : Rect S8192x8 := Rect.unit (s := S8192x8) ![0, 0] S8192x8.size inb_S8192x8_S8192x8_0_0
abbrev r0_i2 : Rect S8192x2 := Rect.unit (s := S8192x2) ![0, 0] S8192x2.size inb_S8192x2_S8192x2_0_0
abbrev r0_i3 : Rect S8x32 := Rect.unit (s := S8x32) ![0, 0] S8x32.size inb_S8x32_S8x32_0_0
abbrev r0_i4 : Rect S8x32 := Rect.unit (s := S8x32) ![0, 0] S8x32.size inb_S8x32_S8x32_0_0
abbrev r0_i5 : Rect S2x32 := Rect.unit (s := S2x32) ![0, 0] S2x32.size inb_S2x32_S2x32_0_0
abbrev r0_i6 : Rect S1x32 := Rect.unit (s := S1x32) ![0, 0] S1x32.size inb_S1x32_S1x32_0_0
abbrev r0_i7 : Rect S32x1 := Rect.unit (s := S32x1) ![0, 0] S32x1.size inb_S32x1_S32x1_0_0
abbrev r0_i8 : Rect S1x1 := Rect.unit (s := S1x1) ![0, 0] S1x1.size inb_S1x1_S1x1_0_0

/-- The one rectangle the body stores through: the whole result block. -/
abbrev r0_out : Rect S8192x1 := Rect.unit (s := S8192x1) ![0, 0] S8192x1.size inb_S8192x1_S8192x1_0_0

/-- The result's staging buffer after the body, from the nine input blocks. -/
def out0_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r0_out, k0_pay1 (View.ld x0 r0_i0) (View.ld x1 r0_i1) (View.ld x2 r0_i2) (View.ld x3 r0_i3) (View.ld x4 r0_i4) (View.ld x5 r0_i5) (View.ld x6 r0_i6) (View.ld x7 r0_i7) (View.ld x8 r0_i8)⟩]

/-- The one store covers the buffer. -/
theorem cover0_9 (p0 : Vec F S8192x1 .f32) (y : S8192x1.Idx) :
    ∃ pc ∈ ([⟨r0_out, p0⟩] : List (View.Piece (Elt F) S8192x1 .f32)), y ∈ pc.1.set :=
  View.cover_of_tiled [⟨r0_out, p0⟩] S8192x1.size (by rfl) y

set_option maxHeartbeats 4000000 in
/-- The body on whole staging memrefs, the inputs' at read contents and the result's at anything, runs to the
    continuation holding the inputs' as they were and the result's at `out0_9` of the inputs'. -/
theorem sound_kernel0 (c : Dev nD) (E : Set ℕ) (i : grid0.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-- The proof data of pipeline 0 on core `c`: the arrays as the pipeline finds them; after the body at point `t`
    each input's buffer at its block and the result's at `out0_9` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Reg1.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 1 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k1_pay1` of the seven input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads its inputs through: each input block whole. -/
abbrev r1_i0 : Rect S8192x8 := Rect.unit (s := S8192x8) ![0, 0] S8192x8.size inb_S8192x8_S8192x8_0_0
abbrev r1_i1 : Rect S8192x1 := Rect.unit (s := S8192x1) ![0, 0] S8192x1.size inb_S8192x1_S8192x1_0_0
abbrev r1_i2 : Rect S8x32 := Rect.unit (s := S8x32) ![0, 0] S8x32.size inb_S8x32_S8x32_0_0
abbrev r1_i3 : Rect S1x32 := Rect.unit (s := S1x32) ![0, 0] S1x32.size inb_S1x32_S1x32_0_0
abbrev r1_i4 : Rect S1x32 := Rect.unit (s := S1x32) ![0, 0] S1x32.size inb_S1x32_S1x32_0_0
abbrev r1_i5 : Rect S32x8 := Rect.unit (s := S32x8) ![0, 0] S32x8.size inb_S32x8_S32x8_0_0
abbrev r1_i6 : Rect S1x8 := Rect.unit (s := S1x8) ![0, 0] S1x8.size inb_S1x8_S1x8_0_0

/-- The one rectangle the body stores through: the whole result block. -/
abbrev r1_out : Rect S8192x8 := Rect.unit (s := S8192x8) ![0, 0] S8192x8.size inb_S8192x8_S8192x8_0_0

/-- The result's staging buffer after the body, from the input blocks. -/
def out1_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r1_out, k1_pay1 (View.ld x0 r1_i0) (View.ld x1 r1_i1) (View.ld x2 r1_i2) (View.ld x3 r1_i3) (View.ld x4 r1_i4) (View.ld x5 r1_i5) (View.ld x6 r1_i6)⟩]

/-- The one store covers the buffer. -/
theorem cover1_7 (p0 : Vec F S8192x8 .f32) (y : S8192x8.Idx) :
    ∃ pc ∈ ([⟨r1_out, p0⟩] : List (View.Piece (Elt F) S8192x8 .f32)), y ∈ pc.1.set :=
  View.cover_of_tiled [⟨r1_out, p0⟩] S8192x8.size (by rfl) y

set_option maxHeartbeats 4000000 in
/-- The body on whole staging memrefs, the inputs' at read contents and the result's at anything, runs to the
    continuation holding the inputs' as they were and the result's at `out1_7` of the inputs'. -/
theorem sound_kernel1 (c : Dev nD) (E : Set ℕ) (i : grid1.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of pipeline 1 on core `c`: the arrays as the pipeline finds them; after the body at point `t`
    each input's buffer at its block and the result's at `out1_7` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Reg2.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 2 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k2_pay1` of the nine input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads its inputs through: each input block whole. -/
abbrev r2_i0 : Rect S8192x8 := Rect.unit (s := S8192x8) ![0, 0] S8192x8.size inb_S8192x8_S8192x8_0_0
abbrev r2_i1 : Rect S8192x8 := Rect.unit (s := S8192x8) ![0, 0] S8192x8.size inb_S8192x8_S8192x8_0_0
abbrev r2_i2 : Rect S8192x2 := Rect.unit (s := S8192x2) ![0, 0] S8192x2.size inb_S8192x2_S8192x2_0_0
abbrev r2_i3 : Rect S8x32 := Rect.unit (s := S8x32) ![0, 0] S8x32.size inb_S8x32_S8x32_0_0
abbrev r2_i4 : Rect S8x32 := Rect.unit (s := S8x32) ![0, 0] S8x32.size inb_S8x32_S8x32_0_0
abbrev r2_i5 : Rect S2x32 := Rect.unit (s := S2x32) ![0, 0] S2x32.size inb_S2x32_S2x32_0_0
abbrev r2_i6 : Rect S1x32 := Rect.unit (s := S1x32) ![0, 0] S1x32.size inb_S1x32_S1x32_0_0
abbrev r2_i7 : Rect S32x1 := Rect.unit (s := S32x1) ![0, 0] S32x1.size inb_S32x1_S32x1_0_0
abbrev r2_i8 : Rect S1x1 := Rect.unit (s := S1x1) ![0, 0] S1x1.size inb_S1x1_S1x1_0_0

/-- The one rectangle the body stores through: the whole result block. -/
abbrev r2_out : Rect S8192x1 := Rect.unit (s := S8192x1) ![0, 0] S8192x1.size inb_S8192x1_S8192x1_0_0

/-- The result's staging buffer after the body, from the nine input blocks. -/
def out2_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r2_out, k2_pay1 (View.ld x0 r2_i0) (View.ld x1 r2_i1) (View.ld x2 r2_i2) (View.ld x3 r2_i3) (View.ld x4 r2_i4) (View.ld x5 r2_i5) (View.ld x6 r2_i6) (View.ld x7 r2_i7) (View.ld x8 r2_i8)⟩]

/-- The one store covers the buffer. -/
theorem cover2_9 (p0 : Vec F S8192x1 .f32) (y : S8192x1.Idx) :
    ∃ pc ∈ ([⟨r2_out, p0⟩] : List (View.Piece (Elt F) S8192x1 .f32)), y ∈ pc.1.set :=
  View.cover_of_tiled [⟨r2_out, p0⟩] S8192x1.size (by rfl) y

set_option maxHeartbeats 4000000 in
/-- The body on whole staging memrefs, the inputs' at read contents and the result's at anything, runs to the
    continuation holding the inputs' as they were and the result's at `out2_9` of the inputs'. -/
theorem sound_kernel2 (c : Dev nD) (E : Set ℕ) (i : grid2.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__edge_mlp_kernel i arg1 harg1 arg2 harg2 arg3 harg3 arg4 harg4 arg5 harg5 arg6 harg6 arg7 harg7 arg8 harg8 arg9 harg9 arg10 harg10) K := by
  simp only [cc2__edge_mlp_kernel_eq_skeleton]; unfold cc2__edge_mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-- The proof data of pipeline 2 on core `c`: the arrays as the pipeline finds them; after the body at point `t`
    each input's buffer at its block and the result's at `out2_9` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Reg3.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 3 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k3_pay1` of the seven input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads its inputs through: each input block whole. -/
abbrev r3_i0 : Rect S8192x8 := Rect.unit (s := S8192x8) ![0, 0] S8192x8.size inb_S8192x8_S8192x8_0_0
abbrev r3_i1 : Rect S8192x1 := Rect.unit (s := S8192x1) ![0, 0] S8192x1.size inb_S8192x1_S8192x1_0_0
abbrev r3_i2 : Rect S8x32 := Rect.unit (s := S8x32) ![0, 0] S8x32.size inb_S8x32_S8x32_0_0
abbrev r3_i3 : Rect S1x32 := Rect.unit (s := S1x32) ![0, 0] S1x32.size inb_S1x32_S1x32_0_0
abbrev r3_i4 : Rect S1x32 := Rect.unit (s := S1x32) ![0, 0] S1x32.size inb_S1x32_S1x32_0_0
abbrev r3_i5 : Rect S32x8 := Rect.unit (s := S32x8) ![0, 0] S32x8.size inb_S32x8_S32x8_0_0
abbrev r3_i6 : Rect S1x8 := Rect.unit (s := S1x8) ![0, 0] S1x8.size inb_S1x8_S1x8_0_0

/-- The one rectangle the body stores through: the whole result block. -/
abbrev r3_out : Rect S8192x8 := Rect.unit (s := S8192x8) ![0, 0] S8192x8.size inb_S8192x8_S8192x8_0_0

/-- The result's staging buffer after the body, from the input blocks. -/
def out3_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r3_out, k3_pay1 (View.ld x0 r3_i0) (View.ld x1 r3_i1) (View.ld x2 r3_i2) (View.ld x3 r3_i3) (View.ld x4 r3_i4) (View.ld x5 r3_i5) (View.ld x6 r3_i6)⟩]

/-- The one store covers the buffer. -/
theorem cover3_7 (p0 : Vec F S8192x8 .f32) (y : S8192x8.Idx) :
    ∃ pc ∈ ([⟨r3_out, p0⟩] : List (View.Piece (Elt F) S8192x8 .f32)), y ∈ pc.1.set :=
  View.cover_of_tiled [⟨r3_out, p0⟩] S8192x8.size (by rfl) y

set_option maxHeartbeats 4000000 in
/-- The body on whole staging memrefs, the inputs' at read contents and the result's at anything, runs to the
    continuation holding the inputs' as they were and the result's at `out3_7` of the inputs'. -/
theorem sound_kernel3 (c : Dev nD) (E : Set ℕ) (i : grid3.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__node_mlp_kernel i arg1 harg1 arg2 harg2 arg3 harg3 arg4 harg4 arg5 harg5 arg6 harg6 arg7 harg7 arg8 harg8) K := by
  simp only [cc3__node_mlp_kernel_eq_skeleton]; unfold cc3__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The proof data of pipeline 3 on core `c`: the arrays as the pipeline finds them; after the body at point `t`
    each input's buffer at its block and the result's at `out3_7` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Reg4.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 4 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k4_pay1` of the nine input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads its inputs through: each input block whole. -/
abbrev r4_i0 : Rect S8192x8 := Rect.unit (s := S8192x8) ![0, 0] S8192x8.size inb_S8192x8_S8192x8_0_0
abbrev r4_i1 : Rect S8192x8 := Rect.unit (s := S8192x8) ![0, 0] S8192x8.size inb_S8192x8_S8192x8_0_0
abbrev r4_i2 : Rect S8192x2 := Rect.unit (s := S8192x2) ![0, 0] S8192x2.size inb_S8192x2_S8192x2_0_0
abbrev r4_i3 : Rect S8x32 := Rect.unit (s := S8x32) ![0, 0] S8x32.size inb_S8x32_S8x32_0_0
abbrev r4_i4 : Rect S8x32 := Rect.unit (s := S8x32) ![0, 0] S8x32.size inb_S8x32_S8x32_0_0
abbrev r4_i5 : Rect S2x32 := Rect.unit (s := S2x32) ![0, 0] S2x32.size inb_S2x32_S2x32_0_0
abbrev r4_i6 : Rect S1x32 := Rect.unit (s := S1x32) ![0, 0] S1x32.size inb_S1x32_S1x32_0_0
abbrev r4_i7 : Rect S32x1 := Rect.unit (s := S32x1) ![0, 0] S32x1.size inb_S32x1_S32x1_0_0
abbrev r4_i8 : Rect S1x1 := Rect.unit (s := S1x1) ![0, 0] S1x1.size inb_S1x1_S1x1_0_0

/-- The one rectangle the body stores through: the whole result block. -/
abbrev r4_out : Rect S8192x1 := Rect.unit (s := S8192x1) ![0, 0] S8192x1.size inb_S8192x1_S8192x1_0_0

/-- The result's staging buffer after the body, from the nine input blocks. -/
def out4_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r4_out, k4_pay1 (View.ld x0 r4_i0) (View.ld x1 r4_i1) (View.ld x2 r4_i2) (View.ld x3 r4_i3) (View.ld x4 r4_i4) (View.ld x5 r4_i5) (View.ld x6 r4_i6) (View.ld x7 r4_i7) (View.ld x8 r4_i8)⟩]

/-- The one store covers the buffer. -/
theorem cover4_9 (p0 : Vec F S8192x1 .f32) (y : S8192x1.Idx) :
    ∃ pc ∈ ([⟨r4_out, p0⟩] : List (View.Piece (Elt F) S8192x1 .f32)), y ∈ pc.1.set :=
  View.cover_of_tiled [⟨r4_out, p0⟩] S8192x1.size (by rfl) y

set_option maxHeartbeats 4000000 in
/-- The body on whole staging memrefs, the inputs' at read contents and the result's at anything, runs to the
    continuation holding the inputs' as they were and the result's at `out4_9` of the inputs'. -/
theorem sound_kernel4 (c : Dev nD) (E : Set ℕ) (i : grid4.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__edge_mlp_kernel i arg1 harg1 arg2 harg2 arg3 harg3 arg4 harg4 arg5 harg5 arg6 harg6 arg7 harg7 arg8 harg8 arg9 harg9 arg10 harg10) K := by
  simp only [cc4__edge_mlp_kernel_eq_skeleton]; unfold cc4__edge_mlp_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4_9 _)

/-- The proof data of pipeline 4 on core `c`: the arrays as the pipeline finds them; after the body at point `t`
    each input's buffer at its block and the result's at `out4_9` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.Reg5.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 5 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k5_pay1` of the seven input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body loads its inputs through: each input block whole. -/
abbrev r5_i0 : Rect S8192x8 := Rect.unit (s := S8192x8) ![0, 0] S8192x8.size inb_S8192x8_S8192x8_0_0
abbrev r5_i1 : Rect S8192x1 := Rect.unit (s := S8192x1) ![0, 0] S8192x1.size inb_S8192x1_S8192x1_0_0
abbrev r5_i2 : Rect S8x32 := Rect.unit (s := S8x32) ![0, 0] S8x32.size inb_S8x32_S8x32_0_0
abbrev r5_i3 : Rect S1x32 := Rect.unit (s := S1x32) ![0, 0] S1x32.size inb_S1x32_S1x32_0_0
abbrev r5_i4 : Rect S1x32 := Rect.unit (s := S1x32) ![0, 0] S1x32.size inb_S1x32_S1x32_0_0
abbrev r5_i5 : Rect S32x8 := Rect.unit (s := S32x8) ![0, 0] S32x8.size inb_S32x8_S32x8_0_0
abbrev r5_i6 : Rect S1x8 := Rect.unit (s := S1x8) ![0, 0] S1x8.size inb_S1x8_S1x8_0_0

/-- The one rectangle the body stores through: the whole result block. -/
abbrev r5_out : Rect S8192x8 := Rect.unit (s := S8192x8) ![0, 0] S8192x8.size inb_S8192x8_S8192x8_0_0

/-- The result's staging buffer after the body, from the input blocks. -/
def out5_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r5_out, k5_pay1 (View.ld x0 r5_i0) (View.ld x1 r5_i1) (View.ld x2 r5_i2) (View.ld x3 r5_i3) (View.ld x4 r5_i4) (View.ld x5 r5_i5) (View.ld x6 r5_i6)⟩]

/-- The one store covers the buffer. -/
theorem cover5_7 (p0 : Vec F S8192x8 .f32) (y : S8192x8.Idx) :
    ∃ pc ∈ ([⟨r5_out, p0⟩] : List (View.Piece (Elt F) S8192x8 .f32)), y ∈ pc.1.set :=
  View.cover_of_tiled [⟨r5_out, p0⟩] S8192x8.size (by rfl) y

set_option maxHeartbeats 4000000 in
/-- The body on whole staging memrefs, the inputs' at read contents and the result's at anything, runs to the
    continuation holding the inputs' as they were and the result's at `out5_7` of the inputs'. -/
theorem sound_kernel5 (c : Dev nD) (E : Set ℕ) (i : grid5.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__node_mlp_kernel i arg1 harg1 arg2 harg2 arg3 harg3 arg4 harg4 arg5 harg5 arg6 harg6 arg7 harg7 arg8 harg8) K := by
  simp only [cc5__node_mlp_kernel_eq_skeleton]; unfold cc5__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-- The proof data of pipeline 5 on core `c`: the arrays as the pipeline finds them; after the body at point `t`
    each input's buffer at its block and the result's at `out5_7` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.KI.Reg6.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 6 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k6_pay1` of the nine input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body loads its inputs through: each input block whole. -/
abbrev r6_i0 : Rect S8192x8 := Rect.unit (s := S8192x8) ![0, 0] S8192x8.size inb_S8192x8_S8192x8_0_0
abbrev r6_i1 : Rect S8192x8 := Rect.unit (s := S8192x8) ![0, 0] S8192x8.size inb_S8192x8_S8192x8_0_0
abbrev r6_i2 : Rect S8192x2 := Rect.unit (s := S8192x2) ![0, 0] S8192x2.size inb_S8192x2_S8192x2_0_0
abbrev r6_i3 : Rect S8x32 := Rect.unit (s := S8x32) ![0, 0] S8x32.size inb_S8x32_S8x32_0_0
abbrev r6_i4 : Rect S8x32 := Rect.unit (s := S8x32) ![0, 0] S8x32.size inb_S8x32_S8x32_0_0
abbrev r6_i5 : Rect S2x32 := Rect.unit (s := S2x32) ![0, 0] S2x32.size inb_S2x32_S2x32_0_0
abbrev r6_i6 : Rect S1x32 := Rect.unit (s := S1x32) ![0, 0] S1x32.size inb_S1x32_S1x32_0_0
abbrev r6_i7 : Rect S32x1 := Rect.unit (s := S32x1) ![0, 0] S32x1.size inb_S32x1_S32x1_0_0
abbrev r6_i8 : Rect S1x1 := Rect.unit (s := S1x1) ![0, 0] S1x1.size inb_S1x1_S1x1_0_0

/-- The one rectangle the body stores through: the whole result block. -/
abbrev r6_out : Rect S8192x1 := Rect.unit (s := S8192x1) ![0, 0] S8192x1.size inb_S8192x1_S8192x1_0_0

/-- The result's staging buffer after the body, from the nine input blocks. -/
def out6_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r6_out, k6_pay1 (View.ld x0 r6_i0) (View.ld x1 r6_i1) (View.ld x2 r6_i2) (View.ld x3 r6_i3) (View.ld x4 r6_i4) (View.ld x5 r6_i5) (View.ld x6 r6_i6) (View.ld x7 r6_i7) (View.ld x8 r6_i8)⟩]

/-- The one store covers the buffer. -/
theorem cover6_9 (p0 : Vec F S8192x1 .f32) (y : S8192x1.Idx) :
    ∃ pc ∈ ([⟨r6_out, p0⟩] : List (View.Piece (Elt F) S8192x1 .f32)), y ∈ pc.1.set :=
  View.cover_of_tiled [⟨r6_out, p0⟩] S8192x1.size (by rfl) y

set_option maxHeartbeats 4000000 in
/-- The body on whole staging memrefs, the inputs' at read contents and the result's at anything, runs to the
    continuation holding the inputs' as they were and the result's at `out6_9` of the inputs'. -/
theorem sound_kernel6 (c : Dev nD) (E : Set ℕ) (i : grid6.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out6_9 x0 x1 x2 x3 x4 x5 x6 x7 x8)) -∗ K ⟨⟩))
      ⊢ wp frame (wpE (defs₀ (F := F)) Variants.none c none) E (cc6__edge_mlp_kernel i arg1 harg1 arg2 harg2 arg3 harg3 arg4 harg4 arg5 harg5 arg6 harg6 arg7 harg7 arg8 harg8 arg9 harg9 arg10 harg10) K := by
  simp only [cc6__edge_mlp_kernel_eq_skeleton]; unfold cc6__edge_mlp_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6_9 _)

/-- The proof data of pipeline 6 on core `c`: the arrays as the pipeline finds them; after the body at point `t`
    each input's buffer at its block and the result's at `out6_9` of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.KI.Reg7.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 7 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k7_pay1` of the seven input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body loads its inputs through: each input block whole. -/
abbrev r7_i0 : Rect S8192x8 := Rect.unit (s := S8192x8) ![0, 0] S8192x8.size inb_S8192x8_S8192x8_0_0
abbrev r7_i1 : Rect S8192x1 := Rect.unit (s := S8192x1) ![0, 0] S8192x1.size inb_S8192x1_S8192x1_0_0
abbrev r7_i2 : Rect S8x32 := Rect.unit (s := S8x32) ![0, 0] S8x32.size inb_S8x32_S8x32_0_0
abbrev r7_i3 : Rect S1x32 := Rect.unit (s := S1x32) ![0, 0] S1x32.size inb_S1x32_S1x32_0_0
abbrev r7_i4 : Rect S1x32 := Rect.unit (s := S1x32) ![0, 0] S1x32.size inb_S1x32_S1x32_0_0
abbrev r7_i5 : Rect S32x8 := Rect.unit (s := S32x8) ![0, 0] S32x8.size inb_S32x8_S32x8_0_0
abbrev r7_i6 : Rect S1x8 := Rect.unit (s := S1x8) ![0, 0] S1x8.size inb_S1x8_S1x8_0_0

/-- The one rectangle the body stores through: the whole result block. -/
abbrev r7_out : Rect S8192x8 := Rect.unit (s := S8192x8) ![0, 0] S8192x8.size inb_S8192x8_S8192x8_0_0

/-- The result's staging buffer after the body, from the input blocks. -/
def out7_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r7_out, k7_pay1 (View.ld x0 r7_i0) (View.ld x1 r7_i1) (View.ld x2 r7_i2) (View.ld x3 r7_i3) (View.ld x4 r7_i4) (View.ld x5 r7_i5) (View.ld x6 r7_i6)⟩]

/-- The one store covers the buffer. -/
theorem cover7_7 (p0 : Vec F S8192x8 .f32) (y : S8192x8.Idx) :
    ∃ pc ∈ ([⟨r7_out, p0⟩] : List (View.Piece (Elt F) S8192x8 .f32)), y ∈ pc.1.set :=
  View.cover_of_tiled [⟨r7_out, p0⟩] S8192x8.size (by rfl) y

set_option maxHeartbeats 4000000 in
/-- The body on whole staging memrefs, the inputs' at read contents and the result's at anything, runs to the
    continuation holding the inputs' as they were and the result's at `out7_7` of the inputs'. -/
theorem sound_kernel7 (c : Dev nD) (E : Set ℕ) (i : grid7.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__node_mlp_kernel i arg1 harg1 arg2 harg2 arg3 harg3 arg4 harg4 arg5 harg5 arg6 harg6 arg7 harg7 arg8 harg8) K := by
  simp only [cc7__node_mlp_kernel_eq_skeleton]; unfold cc7__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-- The proof data of pipeline 7 on core `c`: the arrays as the pipeline finds them; after the body at point `t`
    each input's buffer at its block and the result's at `out7_7` of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Gen

end
-- ==== Proof.KI.Reg8.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 8 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k8_pay1` of the nine input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, fetched there or not. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current staging buffer holds its block at every point, fetched there or not. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- The rectangles the body loads its inputs through: each input block whole. -/
abbrev r8_i0 : Rect S8192x8 := Rect.unit (s := S8192x8) ![0, 0] S8192x8.size inb_S8192x8_S8192x8_0_0
abbrev r8_i1 : Rect S8192x8 := Rect.unit (s := S8192x8) ![0, 0] S8192x8.size inb_S8192x8_S8192x8_0_0
abbrev r8_i2 : Rect S8192x2 := Rect.unit (s := S8192x2) ![0, 0] S8192x2.size inb_S8192x2_S8192x2_0_0
abbrev r8_i3 : Rect S8x32 := Rect.unit (s := S8x32) ![0, 0] S8x32.size inb_S8x32_S8x32_0_0
abbrev r8_i4 : Rect S8x32 := Rect.unit (s := S8x32) ![0, 0] S8x32.size inb_S8x32_S8x32_0_0
abbrev r8_i5 : Rect S2x32 := Rect.unit (s := S2x32) ![0, 0] S2x32.size inb_S2x32_S2x32_0_0
abbrev r8_i6 : Rect S1x32 := Rect.unit (s := S1x32) ![0, 0] S1x32.size inb_S1x32_S1x32_0_0
abbrev r8_i7 : Rect S32x1 := Rect.unit (s := S32x1) ![0, 0] S32x1.size inb_S32x1_S32x1_0_0
abbrev r8_i8 : Rect S1x1 := Rect.unit (s := S1x1) ![0, 0] S1x1.size inb_S1x1_S1x1_0_0

/-- The one rectangle the body stores through: the whole result block. -/
abbrev r8_out : Rect S8192x1 := Rect.unit (s := S8192x1) ![0, 0] S8192x1.size inb_S8192x1_S8192x1_0_0

/-- The result's staging buffer after the body, from the nine input blocks. -/
def out8_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r8_out, k8_pay1 (View.ld x0 r8_i0) (View.ld x1 r8_i1) (View.ld x2 r8_i2) (View.ld x3 r8_i3) (View.ld x4 r8_i4) (View.ld x5 r8_i5) (View.ld x6 r8_i6) (View.ld x7 r8_i7) (View.ld x8 r8_i8)⟩]

/-- The one store covers the buffer. -/
theorem cover8_9 (p0 : Vec F S8192x1 .f32) (y : S8192x1.Idx) :
    ∃ pc ∈ ([⟨r8_out, p0⟩] : List (View.Piece (Elt F) S8192x1 .f32)), y ∈ pc.1.set :=
  View.cover_of_tiled [⟨r8_out, p0⟩] S8192x1.size (by rfl) y

set_option maxHeartbeats 4000000 in
/-- The body on whole staging memrefs, the inputs' at read contents and the result's at anything, runs to the
    continuation holding the inputs' as they were and the result's at `out8_9` of the inputs'. -/
theorem sound_kernel8 (c : Dev nD) (E : Set ℕ) (i : grid8.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out8_9 x0 x1 x2 x3 x4 x5 x6 x7 x8)) -∗ K ⟨⟩))
      ⊢ wp frame (wpE (defs₀ (F := F)) Variants.none c none) E (cc8__edge_mlp_kernel i arg1 harg1 arg2 harg2 arg3 harg3 arg4 harg4 arg5 harg5 arg6 harg6 arg7 harg7 arg8 harg8 arg9 harg9 arg10 harg10) K := by
  simp only [cc8__edge_mlp_kernel_eq_skeleton]; unfold cc8__edge_mlp_kernel_skel
  simp only [k8_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8_9 _)

/-- The proof data of pipeline 8 on core `c`: the arrays as the pipeline finds them; after the body at point `t`
    each input's buffer at its block and the result's at `out8_9` of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Gen

end
-- ==== Proof.KI.Reg9.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 9 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k9_pay1` of the seven input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's current staging buffer holds its block at every point, fetched there or not. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- The rectangles the body loads its inputs through: each input block whole. -/
abbrev r9_i0 : Rect S8192x8 := Rect.unit (s := S8192x8) ![0, 0] S8192x8.size inb_S8192x8_S8192x8_0_0
abbrev r9_i1 : Rect S8192x1 := Rect.unit (s := S8192x1) ![0, 0] S8192x1.size inb_S8192x1_S8192x1_0_0
abbrev r9_i2 : Rect S8x32 := Rect.unit (s := S8x32) ![0, 0] S8x32.size inb_S8x32_S8x32_0_0
abbrev r9_i3 : Rect S1x32 := Rect.unit (s := S1x32) ![0, 0] S1x32.size inb_S1x32_S1x32_0_0
abbrev r9_i4 : Rect S1x32 := Rect.unit (s := S1x32) ![0, 0] S1x32.size inb_S1x32_S1x32_0_0
abbrev r9_i5 : Rect S32x8 := Rect.unit (s := S32x8) ![0, 0] S32x8.size inb_S32x8_S32x8_0_0
abbrev r9_i6 : Rect S1x8 := Rect.unit (s := S1x8) ![0, 0] S1x8.size inb_S1x8_S1x8_0_0

/-- The one rectangle the body stores through: the whole result block. -/
abbrev r9_out : Rect S8192x8 := Rect.unit (s := S8192x8) ![0, 0] S8192x8.size inb_S8192x8_S8192x8_0_0

/-- The result's staging buffer after the body, from the input blocks. -/
def out9_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r9_out, k9_pay1 (View.ld x0 r9_i0) (View.ld x1 r9_i1) (View.ld x2 r9_i2) (View.ld x3 r9_i3) (View.ld x4 r9_i4) (View.ld x5 r9_i5) (View.ld x6 r9_i6)⟩]

/-- The one store covers the buffer. -/
theorem cover9_7 (p0 : Vec F S8192x8 .f32) (y : S8192x8.Idx) :
    ∃ pc ∈ ([⟨r9_out, p0⟩] : List (View.Piece (Elt F) S8192x8 .f32)), y ∈ pc.1.set :=
  View.cover_of_tiled [⟨r9_out, p0⟩] S8192x8.size (by rfl) y

set_option maxHeartbeats 4000000 in
/-- The body on whole staging memrefs, the inputs' at read contents and the result's at anything, runs to the
    continuation holding the inputs' as they were and the result's at `out9_7` of the inputs'. -/
theorem sound_kernel9 (c : Dev nD) (E : Set ℕ) (i : grid9.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9__node_mlp_kernel i arg1 harg1 arg2 harg2 arg3 harg3 arg4 harg4 arg5 harg5 arg6 harg6 arg7 harg7 arg8 harg8) K := by
  simp only [cc9__node_mlp_kernel_eq_skeleton]; unfold cc9__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-- The proof data of pipeline 9 on core `c`: the arrays as the pipeline finds them; after the body at point `t`
    each input's buffer at its block and the result's at `out9_7` of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Gen

end
-- ==== Proof.KI.Reg10.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 10 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k10_pay1` of the nine input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- Input window 7's current staging buffer holds its block at every point, fetched there or not. -/
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-- Input window 8's current staging buffer holds its block at every point, fetched there or not. -/
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

/-- The rectangles the body loads its inputs through: each input block whole. -/
abbrev r10_i0 : Rect S8192x8 := Rect.unit (s := S8192x8) ![0, 0] S8192x8.size inb_S8192x8_S8192x8_0_0
abbrev r10_i1 : Rect S8192x8 := Rect.unit (s := S8192x8) ![0, 0] S8192x8.size inb_S8192x8_S8192x8_0_0
abbrev r10_i2 : Rect S8192x2 := Rect.unit (s := S8192x2) ![0, 0] S8192x2.size inb_S8192x2_S8192x2_0_0
abbrev r10_i3 : Rect S8x32 := Rect.unit (s := S8x32) ![0, 0] S8x32.size inb_S8x32_S8x32_0_0
abbrev r10_i4 : Rect S8x32 := Rect.unit (s := S8x32) ![0, 0] S8x32.size inb_S8x32_S8x32_0_0
abbrev r10_i5 : Rect S2x32 := Rect.unit (s := S2x32) ![0, 0] S2x32.size inb_S2x32_S2x32_0_0
abbrev r10_i6 : Rect S1x32 := Rect.unit (s := S1x32) ![0, 0] S1x32.size inb_S1x32_S1x32_0_0
abbrev r10_i7 : Rect S32x1 := Rect.unit (s := S32x1) ![0, 0] S32x1.size inb_S32x1_S32x1_0_0
abbrev r10_i8 : Rect S1x1 := Rect.unit (s := S1x1) ![0, 0] S1x1.size inb_S1x1_S1x1_0_0

/-- The one rectangle the body stores through: the whole result block. -/
abbrev r10_out : Rect S8192x1 := Rect.unit (s := S8192x1) ![0, 0] S8192x1.size inb_S8192x1_S8192x1_0_0

/-- The result's staging buffer after the body, from the nine input blocks. -/
def out10_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r10_out, k10_pay1 (View.ld x0 r10_i0) (View.ld x1 r10_i1) (View.ld x2 r10_i2) (View.ld x3 r10_i3) (View.ld x4 r10_i4) (View.ld x5 r10_i5) (View.ld x6 r10_i6) (View.ld x7 r10_i7) (View.ld x8 r10_i8)⟩]

/-- The one store covers the buffer. -/
theorem cover10_9 (p0 : Vec F S8192x1 .f32) (y : S8192x1.Idx) :
    ∃ pc ∈ ([⟨r10_out, p0⟩] : List (View.Piece (Elt F) S8192x1 .f32)), y ∈ pc.1.set :=
  View.cover_of_tiled [⟨r10_out, p0⟩] S8192x1.size (by rfl) y

set_option maxHeartbeats 4000000 in
/-- The body on whole staging memrefs, the inputs' at read contents and the result's at anything, runs to the
    continuation holding the inputs' as they were and the result's at `out10_9` of the inputs'. -/
theorem sound_kernel10 (c : Dev nD) (E : Set ℕ) (i : grid10.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out10_9 x0 x1 x2 x3 x4 x5 x6 x7 x8)) -∗ K ⟨⟩))
      ⊢ wp frame (wpE (defs₀ (F := F)) Variants.none c none) E (cc10__edge_mlp_kernel i arg1 harg1 arg2 harg2 arg3 harg3 arg4 harg4 arg5 harg5 arg6 harg6 arg7 harg7 arg8 harg8 arg9 harg9 arg10 harg10) K := by
  simp only [cc10__edge_mlp_kernel_eq_skeleton]; unfold cc10__edge_mlp_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover10_9 _)

/-- The proof data of pipeline 10 on core `c`: the arrays as the pipeline finds them; after the body at point `t`
    each input's buffer at its block and the result's at `out10_9` of the input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => out10_9 (iblk10 V c 0 t) (iblk10 V c 1 t) (iblk10 V c 2 t) (iblk10 V c 3 t) (iblk10 V c 4 t) (iblk10 V c 5 t) (iblk10 V c 6 t) (iblk10 V c 7 t) (iblk10 V c 8 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) (iblk10 V c 7 t) (iblk10 V c 8 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) (iblk10 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Gen

end
-- ==== Proof.KI.Reg11.lean ====
import proofs.«426760_j80470507258346_3_alg».proof.Proof.Gen.KernelIdeal.Launch
import proofs.«426760_j80470507258346_3_alg».proof.Proof.Gen.KernelIdeal.Skeleton
import proofs.«426760_j80470507258346_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 11 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k11_pay1` of the seven input blocks. From that: the proof data
    (every input's buffer at its block, the result's at that value), and the body's obligation at every point. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-- Input window 6's current staging buffer holds its block at every point, fetched there or not. -/
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

/-- The rectangles the body loads its inputs through: each input block whole. -/
abbrev r11_i0 : Rect S8192x8 := Rect.unit (s := S8192x8) ![0, 0] S8192x8.size inb_S8192x8_S8192x8_0_0
abbrev r11_i1 : Rect S8192x1 := Rect.unit (s := S8192x1) ![0, 0] S8192x1.size inb_S8192x1_S8192x1_0_0
abbrev r11_i2 : Rect S8x32 := Rect.unit (s := S8x32) ![0, 0] S8x32.size inb_S8x32_S8x32_0_0
abbrev r11_i3 : Rect S1x32 := Rect.unit (s := S1x32) ![0, 0] S1x32.size inb_S1x32_S1x32_0_0
abbrev r11_i4 : Rect S1x32 := Rect.unit (s := S1x32) ![0, 0] S1x32.size inb_S1x32_S1x32_0_0
abbrev r11_i5 : Rect S32x8 := Rect.unit (s := S32x8) ![0, 0] S32x8.size inb_S32x8_S32x8_0_0
abbrev r11_i6 : Rect S1x8 := Rect.unit (s := S1x8) ![0, 0] S1x8.size inb_S1x8_S1x8_0_0

/-- The one rectangle the body stores through: the whole result block. -/
abbrev r11_out : Rect S8192x8 := Rect.unit (s := S8192x8) ![0, 0] S8192x8.size inb_S8192x8_S8192x8_0_0

/-- The result's staging buffer after the body, from the input blocks. -/
def out11_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r11_out, k11_pay1 (View.ld x0 r11_i0) (View.ld x1 r11_i1) (View.ld x2 r11_i2) (View.ld x3 r11_i3) (View.ld x4 r11_i4) (View.ld x5 r11_i5) (View.ld x6 r11_i6)⟩]

/-- The one store covers the buffer. -/
theorem cover11_7 (p0 : Vec F S8192x8 .f32) (y : S8192x8.Idx) :
    ∃ pc ∈ ([⟨r11_out, p0⟩] : List (View.Piece (Elt F) S8192x8 .f32)), y ∈ pc.1.set :=
  View.cover_of_tiled [⟨r11_out, p0⟩] S8192x8.size (by rfl) y

set_option maxHeartbeats 4000000 in
/-- The body on whole staging memrefs, the inputs' at read contents and the result's at anything, runs to the
    continuation holding the inputs' as they were and the result's at `out11_7` of the inputs'. -/
theorem sound_kernel11 (c : Dev nD) (E : Set ℕ) (i : grid11.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out11_7 x0 x1 x2 x3 x4 x5 x6)) -∗ K ⟨⟩))
      ⊢ wp frame (wpE (defs₀ (F := F)) Variants.none c none) E (cc11__node_mlp_kernel i arg1 harg1 arg2 harg2 arg3 harg3 arg4 harg4 arg5 harg5 arg6 harg6 arg7 harg7 arg8 harg8) K := by
  simp only [cc11__node_mlp_kernel_eq_skeleton]; unfold cc11__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover11_7 _)

/-- The proof data of pipeline 11 on core `c`: the arrays as the pipeline finds them; after the body at point `t`
    each input's buffer at its block and the result's at `out11_7` of the input blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => out11_7 (iblk11 V c 0 t) (iblk11 V c 1 t) (iblk11 V c 2 t) (iblk11 V c 3 t) (iblk11 V c 4 t) (iblk11 V c 5 t) (iblk11 V c 6 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = out11_7 (iblk11 V c 0 t) (iblk11 V c 1 t) (iblk11 V c 2 t) (iblk11 V c 3 t) (iblk11 V c 4 t) (iblk11 V c 5 t) (iblk11 V c 6 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t))

/-- The body at any point: the inputs' memrefs hold their blocks, so `sound_kernel11` applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel11 c Set.univ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Gen

end
-- ==== Proof.KI.Fold.lean ====
import proofs.«426760_j80470507258346_3_alg».proof.Proof.KI.Reg0
import proofs.«426760_j80470507258346_3_alg».proof.Proof.KI.Reg1
import proofs.«426760_j80470507258346_3_alg».proof.Proof.KI.Reg2
import proofs.«426760_j80470507258346_3_alg».proof.Proof.KI.Reg3
import proofs.«426760_j80470507258346_3_alg».proof.Proof.KI.Reg4
import proofs.«426760_j80470507258346_3_alg».proof.Proof.KI.Reg5
import proofs.«426760_j80470507258346_3_alg».proof.Proof.KI.Reg6
import proofs.«426760_j80470507258346_3_alg».proof.Proof.KI.Reg7
import proofs.«426760_j80470507258346_3_alg».proof.Proof.KI.Reg8
import proofs.«426760_j80470507258346_3_alg».proof.Proof.KI.Reg9
import proofs.«426760_j80470507258346_3_alg».proof.Proof.KI.Reg10
import proofs.«426760_j80470507258346_3_alg».proof.Proof.KI.Reg11

/-! The buffer contents of a TensorCore at every boundary between two items of @main, folded from the launch
    memory: a host item rewrites the buffers its operations write (`StableHlo.after`); a kernel region leaves each
    of its arrays at what its write-backs make of it and every other buffer as it was entered (`Pipeline.withArrays`). -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` at launch. -/
abbrev W0 : Dev nD → Valuation τ sig (Elt F) := fun c b => (s₀ m ρ).mem ((c : Dev nD), b)
/-- After item 0, the host operations `hostOps0`. -/
abbrev W1 : Dev nD → Valuation τ sig (Elt F) := fun c => StableHlo.after hostOps0 (W0 m ρ c)
/-- After item 1, the host operations `hostOps0_1`. -/
abbrev W2 : Dev nD → Valuation τ sig (Elt F) := fun c => StableHlo.after hostOps0_1 (W1 m ρ c)
/-- After item 2, the host operations `hostOps0_2`. -/
abbrev W3 : Dev nD → Valuation τ sig (Elt F) := fun c => StableHlo.after hostOps0_2 (W2 m ρ c)
/-- After item 3, the host operations `hostOps0_3`. -/
abbrev W4 : Dev nD → Valuation τ sig (Elt F) := fun c => StableHlo.after hostOps0_3 (W3 m ρ c)
/-- After item 4, the host operations `hostOps0_4`. -/
abbrev W5 : Dev nD → Valuation τ sig (Elt F) := fun c => StableHlo.after hostOps0_4 (W4 m ρ c)
/-- After item 5, the host operations `hostOps0_5`. -/
abbrev W6 : Dev nD → Valuation τ sig (Elt F) := fun c => StableHlo.after hostOps0_5 (W5 m ρ c)
/-- After item 6, the host operations `hostOps0_6`. -/
abbrev W7 : Dev nD → Valuation τ sig (Elt F) := fun c => StableHlo.after hostOps0_6 (W6 m ρ c)
/-- After item 7, the host operations `hostOps0_7`. -/
abbrev W8 : Dev nD → Valuation τ sig (Elt F) := fun c => StableHlo.after hostOps0_7 (W7 m ρ c)
/-- After item 8, the host operations `hostOps0_8`. -/
abbrev W9 : Dev nD → Valuation τ sig (Elt F) := fun c => StableHlo.after hostOps0_8 (W8 m ρ c)
/-- After item 9, the host operations `hostOps0_9`. -/
abbrev W10 : Dev nD → Valuation τ sig (Elt F) := fun c => StableHlo.after hostOps0_9 (W9 m ρ c)

/-- The contents region 0 is entered from, read at the references of the TensorCore. -/
abbrev V10 : (c : Dev nD) → (b : Ref sig .tc) → Buf (Elt F) ((c : Thread nD τ).loc b) := fun c b => W10 m ρ c b
/-- After item 10, region 0: its arrays at what the pipeline leaves (an input as entered, the result with its
    write-backs folded in), every other buffer as entered. -/
def W11 (c : Dev nD) : Valuation τ sig (Elt F) :=
  Pipeline.withArrays spec0 c (W10 m ρ c) fun w => (dat0 (V10 m ρ) c).arrAt w cfg0.N
theorem W11_arr (c : Dev nD) (w : Fin cfg0.W) :
    W11 m ρ c (Proc.devRef .tc (Pipeline.arrRef spec0 w)) = (dat0 (V10 m ρ) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m ρ c (Proc.devRef .tc b) = W10 m ρ c (Proc.devRef .tc b) := by
  unfold W11; exact Pipeline.withArrays_of_ne spec0 c _ _ b hb
/-- The contents region 0 leaves, read at the references of the TensorCore. -/
abbrev V11 : (c : Dev nD) → (b : Ref sig .tc) → Buf (Elt F) ((c : Thread nD τ).loc b) := fun c b => W11 m ρ c b
/-- Each array of region 0 ends at what the pipeline leaves, and every other buffer at what it held at entry. -/
theorem hF0 (c : Dev nD) (w : Fin cfg0.W) : (dat0 (V10 m ρ) c).arrAt w cfg0.N = V11 m ρ c (Pipeline.arrRef spec0 w) :=
  (W11_arr m ρ c w).symm
theorem hrest0 (c : Dev nD) : ∀ b, b ∉ Finset.univ.image (Pipeline.arrRef spec0) → V11 m ρ c b = V10 m ρ c b :=
  fun b hb => W11_of_ne m ρ c b fun w e => hb (Finset.mem_image.mpr ⟨w, Finset.mem_univ _, e⟩)

/-- After item 11, the host operations `hostOps1`. -/
abbrev W12 : Dev nD → Valuation τ sig (Elt F) := fun c => StableHlo.after hostOps1 (W11 m ρ c)
/-- After item 12, the host operations `hostOps1_1`. -/
abbrev W13 : Dev nD → Valuation τ sig (Elt F) := fun c => StableHlo.after hostOps1_1 (W12 m ρ c)
/-- After item 13, the host operations `hostOps1_2`. -/
abbrev W14 : Dev nD → Valuation τ sig (Elt F) := fun c => StableHlo.after hostOps1_2 (W13 m ρ c)
/-- After item 14, the host operations `hostOps1_3`. -/
abbrev W15 : Dev nD → Valuation τ sig (Elt F) := fun c => StableHlo.after hostOps1_3 (W14 m ρ c)

/-- The contents region 1 is entered from, read at the references of the TensorCore. -/
abbrev V15 : (c : Dev nD) → (b : Ref sig .tc) → Buf (Elt F) ((c : Thread nD τ).loc b) := fun c b => W15 m ρ c b
/-- After item 15, region 1: its arrays at what the pipeline leaves (an input as entered, the result with its
    write-backs folded in), every other buffer as entered. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
/-- The contents region 1 leaves, read at the references of the TensorCore. -/
abbrev V16 : (c : Dev nD) → (b : Ref sig .tc) → Buf (Elt F) ((c : Thread nD τ).loc b) := fun c b => W16 m ρ c b
/-- Each array of region 1 ends at what the pipeline leaves, and every other buffer at what it held at entry. -/
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

/-- After item 16, the host operations `hostOps2`. -/
abbrev W17 : Dev nD → Valuation τ sig (Elt F) := fun c => StableHlo.after hostOps2 (W16 m ρ c)
/-- After item 17, the host operations `hostOps2_1`. -/
abbrev W18 : Dev nD → Valuation τ sig (Elt F) := fun c => StableHlo.after hostOps2_1 (W17 m ρ c)
/-- After item 18, the host operations `hostOps2_2`. -/
abbrev W19 : Dev nD → Valuation τ sig (Elt F) := fun c => StableHlo.after hostOps2_2 (W18 m ρ c)
/-- After item 19, the host operations `hostOps2_3`. -/
abbrev W20 : Dev nD → Valuation τ sig (Elt F) := fun c => StableHlo.after hostOps2_3 (W19 m ρ c)
/-- After item 20, the host operations `hostOps2_4`. -/
abbrev W21 : Dev nD → Valuation τ sig (Elt F) := fun c => StableHlo.after hostOps2_4 (W20 m ρ c)
/-- After item 21, the host operations `hostOps2_5`. -/
abbrev W22 : Dev nD → Valuation τ sig (Elt F) := fun c => StableHlo.after hostOps2_5 (W21 m ρ c)
/-- After item 22, the host operations `hostOps2_6`. -/
abbrev W23 : Dev nD → Valuation τ sig (Elt F) := fun c => StableHlo.after hostOps2_6 (W22 m ρ c)
/-- After item 23, the host operations `hostOps2_7`. -/
abbrev W24 : Dev nD → Valuation τ sig (Elt F) := fun c => StableHlo.after hostOps2_7 (W23 m ρ c)
/-- After item 24, the host operations `hostOps2_8`. -/
abbrev W25 : Dev nD → Valuation τ sig (Elt F) := fun c => StableHlo.after hostOps2_8 (W24 m ρ c)
/-- After item 25, the host operations `hostOps2_9`. -/
abbrev W26 : Dev nD → Valuation τ sig (Elt F) := fun c => StableHlo.after hostOps2_9 (W25 m ρ c)
/-- After item 26, the host operations `hostOps2_10`. -/
abbrev W27 : Dev nD → Valuation τ sig (Elt F) := fun c => StableHlo.after hostOps2_10 (W26 m ρ c)
/-- After item 27, the host operations `hostOps2_11`. -/
abbrev W28 : Dev nD → Valuation τ sig (Elt F) := fun c => StableHlo.after hostOps2_11 (W27 m ρ c)

/-- The contents region 2 is entered from, read at the references of the TensorCore. -/
abbrev V28 : (c : Dev nD) → (b : Ref sig .tc) → Buf (Elt F) ((c : Thread nD τ).loc b) := fun c b => W28 m ρ c b
/-- After item 28, region 2: its arrays at what the pipeline leaves (an input as entered, the result with its
    write-backs folded in), every other buffer as entered. -/
def W29 (c : Dev nD) : Valuation τ sig (Elt F) :=
  Pipeline.withArrays spec2 c (W28 m ρ c) fun w => (dat2 (V28 m ρ) c).arrAt w cfg2.N
theorem W29_arr (c : Dev nD) (w : Fin cfg2.W) :
    W29 m ρ c (Proc.devRef .tc (Pipeline.arrRef spec2 w)) = (dat2 (V28 m ρ) c).arrAt w cfg2.N := by
  unfold W29; exact Pipeline.withArrays_arr spec2 launch2.win.arr_inj c _ _ w
theorem W29_of_ne (c : Dev nD) (b : Ref sig .tc) (hb : ∀ w, Pipeline.arrRef spec2 w ≠ b) :
    W29 m ρ c (Proc.devRef .tc b) = W28 m ρ c (Proc.devRef .tc b) := by
  unfold W29; exact Pipeline.withArrays_of_ne spec2 c _ _ b hb
/-- The contents region 2 leaves, read at the references of the TensorCore. -/
abbrev V29 : (c : Dev nD) → (b : Ref sig .tc) → Buf (Elt F) ((c : Thread nD τ).loc b) := fun c b => W29 m ρ c b
/-- Each array of region 2 ends at what the pipeline leaves, and every other buffer at what it held at entry. -/
theorem hF2 (c : Dev nD) (w : Fin cfg2.W) : (dat2 (V28 m ρ) c).arrAt w cfg2.N = V29 m ρ c (Pipeline.arrRef spec2 w) :=
  (W29_arr m ρ c w).symm
theorem hrest2 (c : Dev nD) : ∀ b, b ∉ Finset.univ.image (Pipeline.arrRef spec2) → V29 m ρ c b = V28 m ρ c b :=
  fun b hb => W29_of_ne m ρ c b fun w e => hb (Finset.mem_image.mpr ⟨w, Finset.mem_univ _, e⟩)

/-- After item 29, the host operations `hostOps3`. -/
abbrev W30 : Dev nD → Valuation τ sig (Elt F) := fun c => StableHlo.after hostOps3 (W29 m ρ c)
/-- After item 30, the host operations `hostOps3_1`. -/
abbrev W31 : Dev nD → Valuation τ sig (Elt F) := fun c => StableHlo.after hostOps3_1 (W30 m ρ c)
/-- After item 31, the host operations `hostOps3_2`. -/
abbrev W32 : Dev nD → Valuation τ sig (Elt F) := fun c => StableHlo.after hostOps3_2 (W31 m ρ c)
/-- After item 32, the host operations `hostOps3_3`. -/
abbrev W33 : Dev nD → Valuation τ sig (Elt F) := fun c => StableHlo.after hostOps3_3 (W32 m ρ c)

/-- The contents region 3 is entered from, read at the references of the TensorCore. -/
abbrev V33 : (c : Dev nD) → (b : Ref sig .tc) → Buf (Elt F) ((c : Thread nD τ).loc b) := fun c b => W33 m ρ c b
/-- After item 33, region 3: its arrays at what the pipeline leaves (an input as entered, the result with its
    write-backs folded in), every other buffer as entered. -/
def W34 (c : Dev nD) : Valuation τ sig (Elt F) :=
  Pipeline.withArrays spec3 c (W33 m ρ c) fun w => (dat3 (V33 m ρ) c).arrAt w cfg3.N
theorem W34_arr (c : Dev nD) (w : Fin cfg3.W) :
    W34 m ρ c (Proc.devRef .tc (Pipeline.arrRef spec3 w)) = (dat3 (V33 m ρ) c).arrAt w cfg3.N := by
  unfold W34; exact Pipeline.withArrays_arr spec3 launch3.win.arr_inj c _ _ w
theorem W34_of_ne (c : Dev nD) (b : Ref sig .tc) (hb : ∀ w, Pipeline.arrRef spec3 w ≠ b) :
    W34 m ρ c (Proc.devRef .tc b) = W33 m ρ c (Proc.devRef .tc b) := by
  unfold W34; exact Pipeline.withArrays_of_ne spec3 c _ _ b hb
/-- The contents region 3 leaves, read at the references of the TensorCore. -/
abbrev V34 : (c : Dev nD) → (b : Ref sig .tc) → Buf (Elt F) ((c : Thread nD τ).loc b) := fun c b => W34 m ρ c b
/-- Each array of region 3 ends at what the pipeline leaves, and every other buffer at what it held at entry. -/
theorem hF3 (c : Dev nD) (w : Fin cfg3.W) : (dat3 (V33 m ρ) c).arrAt w cfg3.N = V34 m ρ c (Pipeline.arrRef spec3 w) :=
  (W34_arr m ρ c w).symm
theorem hrest3 (c : Dev nD) : ∀ b, b ∉ Finset.univ.image (Pipeline.arrRef spec3) → V34 m ρ c b = V33 m ρ c b :=
  fun b hb => W34_of_ne m ρ c b fun w e => hb (Finset.mem_image.mpr ⟨w, Finset.mem_univ _, e⟩)

/-- After item 34, the host operations `hostOps4`. -/
abbrev W35 : Dev nD → Valuation τ sig (Elt F) := fun c => StableHlo.after hostOps4 (W34 m ρ c)
/-- After item 35, the host operations `hostOps4_1`. -/
abbrev W36 : Dev nD → Valuation τ sig (Elt F) := fun c => StableHlo.after hostOps4_1 (W35 m ρ c)
/-- After item 36, the host operations `hostOps4_2`. -/
abbrev W37 : Dev nD → Valuation τ sig (Elt F) := fun c => StableHlo.after hostOps4_2 (W36 m ρ c)
/-- After item 37, the host operations `hostOps4_3`. -/
abbrev W38 : Dev nD → Valuation τ sig (Elt F) := fun c => StableHlo.after hostOps4_3 (W37 m ρ c)
/-- After item 38, the host operations `hostOps4_4`. -/
abbrev W39 : Dev nD → Valuation τ sig (Elt F) := fun c => StableHlo.after hostOps4_4 (W38 m ρ c)
/-- After item 39, the host operations `hostOps4_5`. -/
abbrev W40 : Dev nD → Valuation τ sig (Elt F) := fun c => StableHlo.after hostOps4_5 (W39 m ρ c)
/-- After item 40, the host operations `hostOps4_6`. -/
abbrev W41 : Dev nD → Valuation τ sig (Elt F) := fun c => StableHlo.after hostOps4_6 (W40 m ρ c)
/-- After item 41, the host operations `hostOps4_7`. -/
abbrev W42 : Dev nD → Valuation τ sig (Elt F) := fun c => StableHlo.after hostOps4_7 (W41 m ρ c)

/-- The contents region 4 is entered from, read at the references of the TensorCore. -/
abbrev V42 : (c : Dev nD) → (b : Ref sig .tc) → Buf (Elt F) ((c : Thread nD τ).loc b) := fun c b => W42 m ρ c b
/-- After item 42, region 4: its arrays at what the pipeline leaves (an input as entered, the result with its
    write-backs folded in), every other buffer as entered. -/
def W43 (c : Dev nD) : Valuation τ sig (Elt F) :=
  Pipeline.withArrays spec4 c (W42 m ρ c) fun w => (dat4 (V42 m ρ) c).arrAt w cfg4.N
theorem W43_arr (c : Dev nD) (w : Fin cfg4.W) :
    W43 m ρ c (Proc.devRef .tc (Pipeline.arrRef spec4 w)) = (dat4 (V42 m ρ) c).arrAt w cfg4.N := by
  unfold W43; exact Pipeline.withArrays_arr spec4 launch4.win.arr_inj c _ _ w
theorem W43_of_ne (c : Dev nD) (b : Ref sig .tc) (hb : ∀ w, Pipeline.arrRef spec4 w ≠ b) :
    W43 m ρ c (Proc.devRef .tc b) = W42 m ρ c (Proc.devRef .tc b) := by
  unfold W43; exact Pipeline.withArrays_of_ne spec4 c _ _ b hb
/-- The contents region 4 leaves, read at the references of the TensorCore. -/
abbrev V43 : (c : Dev nD) → (b : Ref sig .tc) → Buf (Elt F) ((c : Thread nD τ).loc b) := fun c b => W43 m ρ c b
/-- Each array of region 4 ends at what the pipeline leaves, and every other buffer at what it held at entry. -/
theorem hF4 (c : Dev nD) (w : Fin cfg4.W) : (dat4 (V42 m ρ) c).arrAt w cfg4.N = V43 m ρ c (Pipeline.arrRef spec4 w) :=
  (W43_arr m ρ c w).symm
theorem hrest4 (c : Dev nD) : ∀ b, b ∉ Finset.univ.image (Pipeline.arrRef spec4) → V43 m ρ c b = V42 m ρ c b :=
  fun b hb => W43_of_ne m ρ c b fun w e => hb (Finset.mem_image.mpr ⟨w, Finset.mem_univ _, e⟩)

/-- After item 43, the host operations `hostOps5`. -/
abbrev W44 : Dev nD → Valuation τ sig (Elt F) := fun c => StableHlo.after hostOps5 (W43 m ρ c)
/-- After item 44, the host operations `hostOps5_1`. -/
abbrev W45 : Dev nD → Valuation τ sig (Elt F) := fun c => StableHlo.after hostOps5_1 (W44 m ρ c)
/-- After item 45, the host operations `hostOps5_2`. -/
abbrev W46 : Dev nD → Valuation τ sig (Elt F) := fun c => StableHlo.after hostOps5_2 (W45 m ρ c)
/-- After item 46, the host operations `hostOps5_3`. -/
abbrev W47 : Dev nD → Valuation τ sig (Elt F) := fun c => StableHlo.after hostOps5_3 (W46 m ρ c)

/-- The contents region 5 is entered from, read at the references of the TensorCore. -/
abbrev V47 : (c : Dev nD) → (b : Ref sig .tc) → Buf (Elt F) ((c : Thread nD τ).loc b) := fun c b => W47 m ρ c b
/-- After item 47, region 5: its arrays at what the pipeline leaves (an input as entered, the result with its
    write-backs folded in), every other buffer as entered. -/
def W48 (c : Dev nD) : Valuation τ sig (Elt F) :=
  Pipeline.withArrays spec5 c (W47 m ρ c) fun w => (dat5 (V47 m ρ) c).arrAt w cfg5.N
theorem W48_arr (c : Dev nD) (w : Fin cfg5.W) :
    W48 m ρ c (Proc.devRef .tc (Pipeline.arrRef spec5 w)) = (dat5 (V47 m ρ) c).arrAt w cfg5.N := by
  unfold W48; exact Pipeline.withArrays_arr spec5 launch5.win.arr_inj c _ _ w
theorem W48_of_ne (c : Dev nD) (b : Ref sig .tc) (hb : ∀ w, Pipeline.arrRef spec5 w ≠ b) :
    W48 m ρ c (Proc.devRef .tc b) = W47 m ρ c (Proc.devRef .tc b) := by
  unfold W48; exact Pipeline.withArrays_of_ne spec5 c _ _ b hb
/-- The contents region 5 leaves, read at the references of the TensorCore. -/
abbrev V48 : (c : Dev nD) → (b : Ref sig .tc) → Buf (Elt F) ((c : Thread nD τ).loc b) := fun c b => W48 m ρ c b
/-- Each array of region 5 ends at what the pipeline leaves, and every other buffer at what it held at entry. -/
theorem hF5 (c : Dev nD) (w : Fin cfg5.W) : (dat5 (V47 m ρ) c).arrAt w cfg5.N = V48 m ρ c (Pipeline.arrRef spec5 w) :=
  (W48_arr m ρ c w).symm
theorem hrest5 (c : Dev nD) : ∀ b, b ∉ Finset.univ.image (Pipeline.arrRef spec5) → V48 m ρ c b = V47 m ρ c b :=
  fun b hb => W48_of_ne m ρ c b fun w e => hb (Finset.mem_image.mpr ⟨w, Finset.mem_univ _, e⟩)

/-- After item 48, the host operations `hostOps6`. -/
abbrev W49 : Dev nD → Valuation τ sig (Elt F) := fun c => StableHlo.after hostOps6 (W48 m ρ c)
/-- After item 49, the host operations `hostOps6_1`. -/
abbrev W50 : Dev nD → Valuation τ sig (Elt F) := fun c => StableHlo.after hostOps6_1 (W49 m ρ c)
/-- After item 50, the host operations `hostOps6_2`. -/
abbrev W51 : Dev nD → Valuation τ sig (Elt F) := fun c => StableHlo.after hostOps6_2 (W50 m ρ c)
/-- After item 51, the host operations `hostOps6_3`. -/
abbrev W52 : Dev nD → Valuation τ sig (Elt F) := fun c => StableHlo.after hostOps6_3 (W51 m ρ c)
/-- After item 52, the host operations `hostOps6_4`. -/
abbrev W53 : Dev nD → Valuation τ sig (Elt F) := fun c => StableHlo.after hostOps6_4 (W52 m ρ c)
/-- After item 53, the host operations `hostOps6_5`. -/
abbrev W54 : Dev nD → Valuation τ sig (Elt F) := fun c => StableHlo.after hostOps6_5 (W53 m ρ c)
/-- After item 54, the host operations `hostOps6_6`. -/
abbrev W55 : Dev nD → Valuation τ sig (Elt F) := fun c => StableHlo.after hostOps6_6 (W54 m ρ c)
/-- After item 55, the host operations `hostOps6_7`. -/
abbrev W56 : Dev nD → Valuation τ sig (Elt F) := fun c => StableHlo.after hostOps6_7 (W55 m ρ c)
/-- After item 56, the host operations `hostOps6_8`. -/
abbrev W57 : Dev nD → Valuation τ sig (Elt F) := fun c => StableHlo.after hostOps6_8 (W56 m ρ c)
/-- After item 57, the host operations `hostOps6_9`. -/
abbrev W58 : Dev nD → Valuation τ sig (Elt F) := fun c => StableHlo.after hostOps6_9 (W57 m ρ c)
/-- After item 58, the host operations `hostOps6_10`. -/
abbrev W59 : Dev nD → Valuation τ sig (Elt F) := fun c => StableHlo.after hostOps6_10 (W58 m ρ c)
/-- After item 59, the host operations `hostOps6_11`. -/
abbrev W60 : Dev nD → Valuation τ sig (Elt F) := fun c => StableHlo.after hostOps6_11 (W59 m ρ c)

/-- The contents region 6 is entered from, read at the references of the TensorCore. -/
abbrev V60 : (c : Dev nD) → (b : Ref sig .tc) → Buf (Elt F) ((c : Thread nD τ).loc b) := fun c b => W60 m ρ c b
/-- After item 60, region 6: its arrays at what the pipeline leaves (an input as entered, the result with its
    write-backs folded in), every other buffer as entered. -/
def W61 (c : Dev nD) : Valuation τ sig (Elt F) :=
  Pipeline.withArrays spec6 c (W60 m ρ c) fun w => (dat6 (V60 m ρ) c).arrAt w cfg6.N
theorem W61_arr (c : Dev nD) (w : Fin cfg6.W) :
    W61 m ρ c (Proc.devRef .tc (Pipeline.arrRef spec6 w)) = (dat6 (V60 m ρ) c).arrAt w cfg6.N := by
  unfold W61; exact Pipeline.withArrays_arr spec6 launch6.win.arr_inj c _ _ w
theorem W61_of_ne (c : Dev nD) (b : Ref sig .tc) (hb : ∀ w, Pipeline.arrRef spec6 w ≠ b) :
    W61 m ρ c (Proc.devRef .tc b) = W60 m ρ c (Proc.devRef .tc b) := by
  unfold W61; exact Pipeline.withArrays_of_ne spec6 c _ _ b hb
/-- The contents region 6 leaves, read at the references of the TensorCore. -/
abbrev V61 : (c : Dev nD) → (b : Ref sig .tc) → Buf (Elt F) ((c : Thread nD τ).loc b) := fun c b => W61 m ρ c b
/-- Each array of region 6 ends at what the pipeline leaves, and every other buffer at what it held at entry. -/
theorem hF6 (c : Dev nD) (w : Fin cfg6.W) : (dat6 (V60 m ρ) c).arrAt w cfg6.N = V61 m ρ c (Pipeline.arrRef spec6 w) :=
  (W61_arr m ρ c w).symm
theorem hrest6 (c : Dev nD) : ∀ b, b ∉ Finset.univ.image (Pipeline.arrRef spec6) → V61 m ρ c b = V60 m ρ c b :=
  fun b hb => W61_of_ne m ρ c b fun w e => hb (Finset.mem_image.mpr ⟨w, Finset.mem_univ _, e⟩)

/-- After item 61, the host operations `hostOps7`. -/
abbrev W62 : Dev nD → Valuation τ sig (Elt F) := fun c => StableHlo.after hostOps7 (W61 m ρ c)
/-- After item 62, the host operations `hostOps7_1`. -/
abbrev W63 : Dev nD → Valuation τ sig (Elt F) := fun c => StableHlo.after hostOps7_1 (W62 m ρ c)
/-- After item 63, the host operations `hostOps7_2`. -/
abbrev W64 : Dev nD → Valuation τ sig (Elt F) := fun c => StableHlo.after hostOps7_2 (W63 m ρ c)
/-- After item 64, the host operations `hostOps7_3`. -/
abbrev W65 : Dev nD → Valuation τ sig (Elt F) := fun c => StableHlo.after hostOps7_3 (W64 m ρ c)

/-- The contents region 7 is entered from, read at the references of the TensorCore. -/
abbrev V65 : (c : Dev nD) → (b : Ref sig .tc) → Buf (Elt F) ((c : Thread nD τ).loc b) := fun c b => W65 m ρ c b
/-- After item 65, region 7: its arrays at what the pipeline leaves (an input as entered, the result with its
    write-backs folded in), every other buffer as entered. -/
def W66 (c : Dev nD) : Valuation τ sig (Elt F) :=
  Pipeline.withArrays spec7 c (W65 m ρ c) fun w => (dat7 (V65 m ρ) c).arrAt w cfg7.N
theorem W66_arr (c : Dev nD) (w : Fin cfg7.W) :
    W66 m ρ c (Proc.devRef .tc (Pipeline.arrRef spec7 w)) = (dat7 (V65 m ρ) c).arrAt w cfg7.N := by
  unfold W66; exact Pipeline.withArrays_arr spec7 launch7.win.arr_inj c _ _ w
theorem W66_of_ne (c : Dev nD) (b : Ref sig .tc) (hb : ∀ w, Pipeline.arrRef spec7 w ≠ b) :
    W66 m ρ c (Proc.devRef .tc b) = W65 m ρ c (Proc.devRef .tc b) := by
  unfold W66; exact Pipeline.withArrays_of_ne spec7 c _ _ b hb
/-- The contents region 7 leaves, read at the references of the TensorCore. -/
abbrev V66 : (c : Dev nD) → (b : Ref sig .tc) → Buf (Elt F) ((c : Thread nD τ).loc b) := fun c b => W66 m ρ c b
/-- Each array of region 7 ends at what the pipeline leaves, and every other buffer at what it held at entry. -/
theorem hF7 (c : Dev nD) (w : Fin cfg7.W) : (dat7 (V65 m ρ) c).arrAt w cfg7.N = V66 m ρ c (Pipeline.arrRef spec7 w) :=
  (W66_arr m ρ c w).symm
theorem hrest7 (c : Dev nD) : ∀ b, b ∉ Finset.univ.image (Pipeline.arrRef spec7) → V66 m ρ c b = V65 m ρ c b :=
  fun b hb => W66_of_ne m ρ c b fun w e => hb (Finset.mem_image.mpr ⟨w, Finset.mem_univ _, e⟩)

/-- After item 66, the host operations `hostOps8`. -/
abbrev W67 : Dev nD → Valuation τ sig (Elt F) := fun c => StableHlo.after hostOps8 (W66 m ρ c)
/-- After item 67, the host operations `hostOps8_1`. -/
abbrev W68 : Dev nD → Valuation τ sig (Elt F) := fun c => StableHlo.after hostOps8_1 (W67 m ρ c)
/-- After item 68, the host operations `hostOps8_2`. -/
abbrev W69 : Dev nD → Valuation τ sig (Elt F) := fun c => StableHlo.after hostOps8_2 (W68 m ρ c)
/-- After item 69, the host operations `hostOps8_3`. -/
abbrev W70 : Dev nD → Valuation τ sig (Elt F) := fun c => StableHlo.after hostOps8_3 (W69 m ρ c)
/-- After item 70, the host operations `hostOps8_4`. -/
abbrev W71 : Dev nD → Valuation τ sig (Elt F) := fun c => StableHlo.after hostOps8_4 (W70 m ρ c)
/-- After item 71, the host operations `hostOps8_5`. -/
abbrev W72 : Dev nD → Valuation τ sig (Elt F) := fun c => StableHlo.after hostOps8_5 (W71 m ρ c)
/-- After item 72, the host operations `hostOps8_6`. -/
abbrev W73 : Dev nD → Valuation τ sig (Elt F) := fun c => StableHlo.after hostOps8_6 (W72 m ρ c)
/-- After item 73, the host operations `hostOps8_7`. -/
abbrev W74 : Dev nD → Valuation τ sig (Elt F) := fun c => StableHlo.after hostOps8_7 (W73 m ρ c)

/-- The contents region 8 is entered from, read at the references of the TensorCore. -/
abbrev V74 : (c : Dev nD) → (b : Ref sig .tc) → Buf (Elt F) ((c : Thread nD τ).loc b) := fun c b => W74 m ρ c b
/-- After item 74, region 8: its arrays at what the pipeline leaves (an input as entered, the result with its
    write-backs folded in), every other buffer as entered. -/
def W75 (c : Dev nD) : Valuation τ sig (Elt F) :=
  Pipeline.withArrays spec8 c (W74 m ρ c) fun w => (dat8 (V74 m ρ) c).arrAt w cfg8.N
theorem W75_arr (c : Dev nD) (w : Fin cfg8.W) :
    W75 m ρ c (Proc.devRef .tc (Pipeline.arrRef spec8 w)) = (dat8 (V74 m ρ) c).arrAt w cfg8.N := by
  unfold W75; exact Pipeline.withArrays_arr spec8 launch8.win.arr_inj c _ _ w
theorem W75_of_ne (c : Dev nD) (b : Ref sig .tc) (hb : ∀ w, Pipeline.arrRef spec8 w ≠ b) :
    W75 m ρ c (Proc.devRef .tc b) = W74 m ρ c (Proc.devRef .tc b) := by
  unfold W75; exact Pipeline.withArrays_of_ne spec8 c _ _ b hb
/-- The contents region 8 leaves, read at the references of the TensorCore. -/
abbrev V75 : (c : Dev nD) → (b : Ref sig .tc) → Buf (Elt F) ((c : Thread nD τ).loc b) := fun c b => W75 m ρ c b
/-- Each array of region 8 ends at what the pipeline leaves, and every other buffer at what it held at entry. -/
theorem hF8 (c : Dev nD) (w : Fin cfg8.W) : (dat8 (V74 m ρ) c).arrAt w cfg8.N = V75 m ρ c (Pipeline.arrRef spec8 w) :=
  (W75_arr m ρ c w).symm
theorem hrest8 (c : Dev nD) : ∀ b, b ∉ Finset.univ.image (Pipeline.arrRef spec8) → V75 m ρ c b = V74 m ρ c b :=
  fun b hb => W75_of_ne m ρ c b fun w e => hb (Finset.mem_image.mpr ⟨w, Finset.mem_univ _, e⟩)

/-- After item 75, the host operations `hostOps9`. -/
abbrev W76 : Dev nD → Valuation τ sig (Elt F) := fun c => StableHlo.after hostOps9 (W75 m ρ c)
/-- After item 76, the host operations `hostOps9_1`. -/
abbrev W77 : Dev nD → Valuation τ sig (Elt F) := fun c => StableHlo.after hostOps9_1 (W76 m ρ c)
/-- After item 77, the host operations `hostOps9_2`. -/
abbrev W78 : Dev nD → Valuation τ sig (Elt F) := fun c => StableHlo.after hostOps9_2 (W77 m ρ c)
/-- After item 78, the host operations `hostOps9_3`. -/
abbrev W79 : Dev nD → Valuation τ sig (Elt F) := fun c => StableHlo.after hostOps9_3 (W78 m ρ c)

/-- The contents region 9 is entered from, read at the references of the TensorCore. -/
abbrev V79 : (c : Dev nD) → (b : Ref sig .tc) → Buf (Elt F) ((c : Thread nD τ).loc b) := fun c b => W79 m ρ c b
/-- After item 79, region 9: its arrays at what the pipeline leaves (an input as entered, the result with its
    write-backs folded in), every other buffer as entered. -/
def W80 (c : Dev nD) : Valuation τ sig (Elt F) :=
  Pipeline.withArrays spec9 c (W79 m ρ c) fun w => (dat9 (V79 m ρ) c).arrAt w cfg9.N
theorem W80_arr (c : Dev nD) (w : Fin cfg9.W) :
    W80 m ρ c (Proc.devRef .tc (Pipeline.arrRef spec9 w)) = (dat9 (V79 m ρ) c).arrAt w cfg9.N := by
  unfold W80; exact Pipeline.withArrays_arr spec9 launch9.win.arr_inj c _ _ w
theorem W80_of_ne (c : Dev nD) (b : Ref sig .tc) (hb : ∀ w, Pipeline.arrRef spec9 w ≠ b) :
    W80 m ρ c (Proc.devRef .tc b) = W79 m ρ c (Proc.devRef .tc b) := by
  unfold W80; exact Pipeline.withArrays_of_ne spec9 c _ _ b hb
/-- The contents region 9 leaves, read at the references of the TensorCore. -/
abbrev V80 : (c : Dev nD) → (b : Ref sig .tc) → Buf (Elt F) ((c : Thread nD τ).loc b) := fun c b => W80 m ρ c b
/-- Each array of region 9 ends at what the pipeline leaves, and every other buffer at what it held at entry. -/
theorem hF9 (c : Dev nD) (w : Fin cfg9.W) : (dat9 (V79 m ρ) c).arrAt w cfg9.N = V80 m ρ c (Pipeline.arrRef spec9 w) :=
  (W80_arr m ρ c w).symm
theorem hrest9 (c : Dev nD) : ∀ b, b ∉ Finset.univ.image (Pipeline.arrRef spec9) → V80 m ρ c b = V79 m ρ c b :=
  fun b hb => W80_of_ne m ρ c b fun w e => hb (Finset.mem_image.mpr ⟨w, Finset.mem_univ _, e⟩)

/-- After item 80, the host operations `hostOps10`. -/
abbrev W81 : Dev nD → Valuation τ sig (Elt F) := fun c => StableHlo.after hostOps10 (W80 m ρ c)
/-- After item 81, the host operations `hostOps10_1`. -/
abbrev W82 : Dev nD → Valuation τ sig (Elt F) := fun c => StableHlo.after hostOps10_1 (W81 m ρ c)
/-- After item 82, the host operations `hostOps10_2`. -/
abbrev W83 : Dev nD → Valuation τ sig (Elt F) := fun c => StableHlo.after hostOps10_2 (W82 m ρ c)
/-- After item 83, the host operations `hostOps10_3`. -/
abbrev W84 : Dev nD → Valuation τ sig (Elt F) := fun c => StableHlo.after hostOps10_3 (W83 m ρ c)
/-- After item 84, the host operations `hostOps10_4`. -/
abbrev W85 : Dev nD → Valuation τ sig (Elt F) := fun c => StableHlo.after hostOps10_4 (W84 m ρ c)
/-- After item 85, the host operations `hostOps10_5`. -/
abbrev W86 : Dev nD → Valuation τ sig (Elt F) := fun c => StableHlo.after hostOps10_5 (W85 m ρ c)
/-- After item 86, the host operations `hostOps10_6`. -/
abbrev W87 : Dev nD → Valuation τ sig (Elt F) := fun c => StableHlo.after hostOps10_6 (W86 m ρ c)
/-- After item 87, the host operations `hostOps10_7`. -/
abbrev W88 : Dev nD → Valuation τ sig (Elt F) := fun c => StableHlo.after hostOps10_7 (W87 m ρ c)
/-- After item 88, the host operations `hostOps10_8`. -/
abbrev W89 : Dev nD → Valuation τ sig (Elt F) := fun c => StableHlo.after hostOps10_8 (W88 m ρ c)
/-- After item 89, the host operations `hostOps10_9`. -/
abbrev W90 : Dev nD → Valuation τ sig (Elt F) := fun c => StableHlo.after hostOps10_9 (W89 m ρ c)
/-- After item 90, the host operations `hostOps10_10`. -/
abbrev W91 : Dev nD → Valuation τ sig (Elt F) := fun c => StableHlo.after hostOps10_10 (W90 m ρ c)
/-- After item 91, the host operations `hostOps10_11`. -/
abbrev W92 : Dev nD → Valuation τ sig (Elt F) := fun c => StableHlo.after hostOps10_11 (W91 m ρ c)

/-- The contents region 10 is entered from, read at the references of the TensorCore. -/
abbrev V92 : (c : Dev nD) → (b : Ref sig .tc) → Buf (Elt F) ((c : Thread nD τ).loc b) := fun c b => W92 m ρ c b
/-- After item 92, region 10: its arrays at what the pipeline leaves (an input as entered, the result with its
    write-backs folded in), every other buffer as entered. -/
def W93 (c : Dev nD) : Valuation τ sig (Elt F) :=
  Pipeline.withArrays spec10 c (W92 m ρ c) fun w => (dat10 (V92 m ρ) c).arrAt w cfg10.N
theorem W93_arr (c : Dev nD) (w : Fin cfg10.W) :
    W93 m ρ c (Proc.devRef .tc (Pipeline.arrRef spec10 w)) = (dat10 (V92 m ρ) c).arrAt w cfg10.N := by
  unfold W93; exact Pipeline.withArrays_arr spec10 launch10.win.arr_inj c _ _ w
theorem W93_of_ne (c : Dev nD) (b : Ref sig .tc) (hb : ∀ w, Pipeline.arrRef spec10 w ≠ b) :
    W93 m ρ c (Proc.devRef .tc b) = W92 m ρ c (Proc.devRef .tc b) := by
  unfold W93; exact Pipeline.withArrays_of_ne spec10 c _ _ b hb
/-- The contents region 10 leaves, read at the references of the TensorCore. -/
abbrev V93 : (c : Dev nD) → (b : Ref sig .tc) → Buf (Elt F) ((c : Thread nD τ).loc b) := fun c b => W93 m ρ c b
/-- Each array of region 10 ends at what the pipeline leaves, and every other buffer at what it held at entry. -/
theorem hF10 (c : Dev nD) (w : Fin cfg10.W) : (dat10 (V92 m ρ) c).arrAt w cfg10.N = V93 m ρ c (Pipeline.arrRef spec10 w) :=
  (W93_arr m ρ c w).symm
theorem hrest10 (c : Dev nD) : ∀ b, b ∉ Finset.univ.image (Pipeline.arrRef spec10) → V93 m ρ c b = V92 m ρ c b :=
  fun b hb => W93_of_ne m ρ c b fun w e => hb (Finset.mem_image.mpr ⟨w, Finset.mem_univ _, e⟩)

/-- After item 93, the host operations `hostOps11`. -/
abbrev W94 : Dev nD → Valuation τ sig (Elt F) := fun c => StableHlo.after hostOps11 (W93 m ρ c)
/-- After item 94, the host operations `hostOps11_1`. -/
abbrev W95 : Dev nD → Valuation τ sig (Elt F) := fun c => StableHlo.after hostOps11_1 (W94 m ρ c)
/-- After item 95, the host operations `hostOps11_2`. -/
abbrev W96 : Dev nD → Valuation τ sig (Elt F) := fun c => StableHlo.after hostOps11_2 (W95 m ρ c)
/-- After item 96, the host operations `hostOps11_3`. -/
abbrev W97 : Dev nD → Valuation τ sig (Elt F) := fun c => StableHlo.after hostOps11_3 (W96 m ρ c)

/-- The contents region 11 is entered from, read at the references of the TensorCore. -/
abbrev V97 : (c : Dev nD) → (b : Ref sig .tc) → Buf (Elt F) ((c : Thread nD τ).loc b) := fun c b => W97 m ρ c b
/-- After item 97, region 11: its arrays at what the pipeline leaves (an input as entered, the result with its
    write-backs folded in), every other buffer as entered. -/
def W98 (c : Dev nD) : Valuation τ sig (Elt F) :=
  Pipeline.withArrays spec11 c (W97 m ρ c) fun w => (dat11 (V97 m ρ) c).arrAt w cfg11.N
theorem W98_arr (c : Dev nD) (w : Fin cfg11.W) :
    W98 m ρ c (Proc.devRef .tc (Pipeline.arrRef spec11 w)) = (dat11 (V97 m ρ) c).arrAt w cfg11.N := by
  unfold W98; exact Pipeline.withArrays_arr spec11 launch11.win.arr_inj c _ _ w
theorem W98_of_ne (c : Dev nD) (b : Ref sig .tc) (hb : ∀ w, Pipeline.arrRef spec11 w ≠ b) :
    W98 m ρ c (Proc.devRef .tc b) = W97 m ρ c (Proc.devRef .tc b) := by
  unfold W98; exact Pipeline.withArrays_of_ne spec11 c _ _ b hb
/-- The contents region 11 leaves, read at the references of the TensorCore. -/
abbrev V98 : (c : Dev nD) → (b : Ref sig .tc) → Buf (Elt F) ((c : Thread nD τ).loc b) := fun c b => W98 m ρ c b
/-- Each array of region 11 ends at what the pipeline leaves, and every other buffer at what it held at entry. -/
theorem hF11 (c : Dev nD) (w : Fin cfg11.W) : (dat11 (V97 m ρ) c).arrAt w cfg11.N = V98 m ρ c (Pipeline.arrRef spec11 w) :=
  (W98_arr m ρ c w).symm
theorem hrest11 (c : Dev nD) : ∀ b, b ∉ Finset.univ.image (Pipeline.arrRef spec11) → V98 m ρ c b = V97 m ρ c b :=
  fun b hb => W98_of_ne m ρ c b fun w e => hb (Finset.mem_image.mpr ⟨w, Finset.mem_univ _, e⟩)

/-- After item 98, the host operations `hostOps12`. -/
abbrev W99 : Dev nD → Valuation τ sig (Elt F) := fun c => StableHlo.after hostOps12 (W98 m ρ c)
/-- After item 99, the host operations `hostOps12_1`. -/
abbrev W100 : Dev nD → Valuation τ sig (Elt F) := fun c => StableHlo.after hostOps12_1 (W99 m ρ c)
/-- After item 100, the host operations `hostOps12_2`. -/
abbrev W101 : Dev nD → Valuation τ sig (Elt F) := fun c => StableHlo.after hostOps12_2 (W100 m ρ c)
/-- After item 101, the host operations `hostOps12_3`. -/
abbrev W102 : Dev nD → Valuation τ sig (Elt F) := fun c => StableHlo.after hostOps12_3 (W101 m ρ c)
/-- After item 102, the host operations `hostOps12_4`. -/
abbrev W103 : Dev nD → Valuation τ sig (Elt F) := fun c => StableHlo.after hostOps12_4 (W102 m ρ c)
/-- After item 103, the host operations `hostOps12_5`. -/
abbrev W104 : Dev nD → Valuation τ sig (Elt F) := fun c => StableHlo.after hostOps12_5 (W103 m ρ c)
/-- After item 104, the host operations `hostOps12_6`. -/
abbrev W105 : Dev nD → Valuation τ sig (Elt F) := fun c => StableHlo.after hostOps12_6 (W104 m ρ c)

end Cert.KernelIdeal.Gen

end
-- ==== Proof.KI.SegDefs.lean ====
import proofs.«426760_j80470507258346_3_alg».proof.Proof.KI.Fold

/-! The proof data of the twelve pipelines, each at the buffer contents its region is entered from, and the state a core
    carries between two items of @main: every unscoped buffer at the boundary's contents, the generator register, nothing owed. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 12) → (pcfgs (F := F) p).Adm := fun p => (cfgs p).toPCfg_adm
/-- Every pipeline's proof data, each at the contents its region is entered from. -/
def pdats : (p : Fin 12) → (c : Dev nD) → Dat τ (Elt F) Unit ℕ (UR sig nD τ) ℕ (Pipeline.pin (pcfgs (F := F)) adm p) c
  | ⟨0, _⟩ => fun c => dat0 (V10 m ρ) c
  | ⟨1, _⟩ => fun c => dat1 (V15 m ρ) c
  | ⟨2, _⟩ => fun c => dat2 (V28 m ρ) c
  | ⟨3, _⟩ => fun c => dat3 (V33 m ρ) c
  | ⟨4, _⟩ => fun c => dat4 (V42 m ρ) c
  | ⟨5, _⟩ => fun c => dat5 (V47 m ρ) c
  | ⟨6, _⟩ => fun c => dat6 (V60 m ρ) c
  | ⟨7, _⟩ => fun c => dat7 (V65 m ρ) c
  | ⟨8, _⟩ => fun c => dat8 (V74 m ρ) c
  | ⟨9, _⟩ => fun c => dat9 (V79 m ρ) c
  | ⟨10, _⟩ => fun c => dat10 (V92 m ρ) c
  | ⟨11, _⟩ => fun c => dat11 (V97 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host item as a segment: from the unscoped buffers at `W` to them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Gen

end
-- ==== Proof.KI.RegSeg0.lean ====
import proofs.«426760_j80470507258346_3_alg».proof.Proof.KI.SegDefs

/-! Region 0 of @main (item 10) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 0 over the thread state: entered with every unscoped buffer at W10, left with them at W11. Its arrays are
    split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V10 m ρ) c).loose
  hwaits := Pipeline.hwaits_of_owed_zero _ _ _ _ L lv 0 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec0 c (V10 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V10 m ρ c) (V11 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg1.lean ====
import proofs.«426760_j80470507258346_3_alg».proof.Proof.KI.SegDefs

/-! Region 1 of @main (item 15) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 1 over the thread state: entered with every unscoped buffer at W15, left with them at W16. Its arrays are
    split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg2.lean ====
import proofs.«426760_j80470507258346_3_alg».proof.Proof.KI.SegDefs

/-! Region 2 of @main (item 28) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 2 over the thread state: entered with every unscoped buffer at W28, left with them at W29. Its arrays are
    split out of the unscoped buffers and put back at the exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V28 m ρ) c).loose
  hwaits := Pipeline.hwaits_of_owed_zero _ _ _ _ L lv 2 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec2 c (V28 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V28 m ρ c) (V29 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg3.lean ====
import proofs.«426760_j80470507258346_3_alg».proof.Proof.KI.SegDefs

/-! Region 3 of @main (item 33) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 3 over the thread state: entered with every unscoped buffer at W33, left with them at W34. Its arrays are
    split out of the unscoped buffers and put back at the exit contents; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V33 m ρ) c).loose
  hwaits := Pipeline.hwaits_of_owed_zero _ _ _ _ L lv 3 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec3 c (V33 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V33 m ρ c) (V34 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg4.lean ====
import proofs.«426760_j80470507258346_3_alg».proof.Proof.KI.SegDefs

/-! Region 4 of @main (item 42) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 4 over the thread state: entered with every unscoped buffer at W42, left with them at W43. Its arrays are
    split out of the unscoped buffers and put back at the exit contents; the generator register goes into the
    pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V42 m ρ) c).loose
  hwaits := Pipeline.hwaits_of_owed_zero _ _ _ _ L lv 4 fun _ _ => rfl
  pre c := iprop(StableHlo.held (c : Thread nD τ) (Pipeline.ucRefs τ sig) (W42 m ρ c) ∗ R c)
  post c := iprop(StableHlo.held (c : Thread nD τ) (Pipeline.ucRefs τ sig) (W43 m ρ c) ∗ R c)
  X c := iprop(∃ r, prngReg c r)
  Y c := iprop(∃ r, prngReg c r)
  Z c := Pipeline.unscopedRest (Ix := Unit) (Name := ℕ) (U := UR sig nD τ) (Lvl := ℕ) spec4 c (V42 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V42 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V42 m ρ c) (V43 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg5.lean ====
import proofs.«426760_j80470507258346_3_alg».proof.Proof.KI.SegDefs

/-! Region 5 of @main (item 47) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 5 over the thread state: entered with every unscoped buffer at W47, left with them at W48. Its arrays are
    split out of the unscoped buffers and put back at the exit contents; the generator register goes into the
    pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V47 m ρ) c).loose
  hwaits := Pipeline.hwaits_of_owed_zero _ _ _ _ L lv 5 fun _ _ => rfl
  pre c := iprop(StableHlo.held (c : Thread nD τ) (Pipeline.ucRefs τ sig) (W47 m ρ c) ∗ R c)
  post c := iprop(StableHlo.held (c : Thread nD τ) (Pipeline.ucRefs τ sig) (W48 m ρ c) ∗ R c)
  X c := iprop(∃ r, prngReg c r)
  Y c := iprop(∃ r, prngReg c r)
  Z c := Pipeline.unscopedRest (Ix := Unit) (Name := ℕ) (U := UR sig nD τ) (Lvl := ℕ) spec5 c (V47 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V47 m ρ c) (V48 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg6.lean ====
import proofs.«426760_j80470507258346_3_alg».proof.Proof.KI.SegDefs

/-! Region 6 of @main (item 60) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 6 over the thread state: entered with every unscoped buffer at W60, left with them at W61. Its arrays are
    split out of the unscoped buffers and put back at the exit contents; the generator register goes into the
    pipeline's invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V60 m ρ) c).loose
  hwaits := Pipeline.hwaits_of_owed_zero _ _ _ _ L lv 6 fun _ _ => rfl
  pre c := iprop(StableHlo.held (c : Thread nD τ) (Pipeline.ucRefs τ sig) (W60 m ρ c) ∗ R c)
  post c := iprop(StableHlo.held (c : Thread nD τ) (Pipeline.ucRefs τ sig) (W61 m ρ c) ∗ R c)
  X c := iprop(∃ r, prngReg c r)
  Y c := iprop(∃ r, prngReg c r)
  Z c := Pipeline.unscopedRest (Ix := Unit) (Name := ℕ) (U := UR sig nD τ) (Lvl := ℕ) spec6 c (V60 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V60 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V60 m ρ c) (V61 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg7.lean ====
import proofs.«426760_j80470507258346_3_alg».proof.Proof.KI.SegDefs

/-! Region 7 of @main (item 65) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 7 over the thread state: entered with every unscoped buffer at W65, left with them at W66. Its arrays are
    split out of the unscoped buffers and put back at the exit contents; the generator register goes into the
    pipeline's invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V65 m ρ) c).loose
  hwaits := Pipeline.hwaits_of_owed_zero _ _ _ _ L lv 7 fun _ _ => rfl
  pre c := iprop(StableHlo.held (c : Thread nD τ) (Pipeline.ucRefs τ sig) (W65 m ρ c) ∗ R c)
  post c := iprop(StableHlo.held (c : Thread nD τ) (Pipeline.ucRefs τ sig) (W66 m ρ c) ∗ R c)
  X c := iprop(∃ r, prngReg c r)
  Y c := iprop(∃ r, prngReg c r)
  Z c := Pipeline.unscopedRest (Ix := Unit) (Name := ℕ) (U := UR sig nD τ) (Lvl := ℕ) spec7 c (V65 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V65 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V65 m ρ c) (V66 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg8.lean ====
import proofs.«426760_j80470507258346_3_alg».proof.Proof.KI.SegDefs

/-! Region 8 of @main (item 74) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 8 over the thread state: entered with every unscoped buffer at W74, left with them at W75. Its arrays are
    split out of the unscoped buffers and put back at the exit contents; the generator register goes into the
    pipeline's invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V74 m ρ) c).loose
  hwaits := Pipeline.hwaits_of_owed_zero _ _ _ _ L lv 8 fun _ _ => rfl
  pre c := iprop(StableHlo.held (c : Thread nD τ) (Pipeline.ucRefs τ sig) (W74 m ρ c) ∗ R c)
  post c := iprop(StableHlo.held (c : Thread nD τ) (Pipeline.ucRefs τ sig) (W75 m ρ c) ∗ R c)
  X c := iprop(∃ r, prngReg c r)
  Y c := iprop(∃ r, prngReg c r)
  Z c := Pipeline.unscopedRest (Ix := Unit) (Name := ℕ) (U := UR sig nD τ) (Lvl := ℕ) spec8 c (V74 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V74 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V74 m ρ c) (V75 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg9.lean ====
import proofs.«426760_j80470507258346_3_alg».proof.Proof.KI.SegDefs

/-! Region 9 of @main (item 79) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 9 over the thread state: entered with every unscoped buffer at W79, left with them at W80. Its arrays are
    split out of the unscoped buffers and put back at the exit contents; the generator register goes into the
    pipeline's invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V79 m ρ) c).loose
  hwaits := Pipeline.hwaits_of_owed_zero _ _ _ _ L lv 9 fun _ _ => rfl
  pre c := iprop(StableHlo.held (c : Thread nD τ) (Pipeline.ucRefs τ sig) (W79 m ρ c) ∗ R c)
  post c := iprop(StableHlo.held (c : Thread nD τ) (Pipeline.ucRefs τ sig) (W80 m ρ c) ∗ R c)
  X c := iprop(∃ r, prngReg c r)
  Y c := iprop(∃ r, prngReg c r)
  Z c := Pipeline.unscopedRest (Ix := Unit) (Name := ℕ) (U := UR sig nD τ) (Lvl := ℕ) spec9 c (V79 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V79 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V79 m ρ c) (V80 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg10.lean ====
import proofs.«426760_j80470507258346_3_alg».proof.Proof.KI.SegDefs

/-! Region 10 of @main (item 92) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 10 over the thread state: entered with every unscoped buffer at W92, left with them at W93. Its arrays are
    split out of the unscoped buffers and put back at the exit contents; the generator register goes into the
    pipeline's invariant and comes out; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V92 m ρ) c).loose
  hwaits := Pipeline.hwaits_of_owed_zero _ _ _ _ L lv 10 fun _ _ => rfl
  pre c := iprop(StableHlo.held (c : Thread nD τ) (Pipeline.ucRefs τ sig) (W92 m ρ c) ∗ R c)
  post c := iprop(StableHlo.held (c : Thread nD τ) (Pipeline.ucRefs τ sig) (W93 m ρ c) ∗ R c)
  X c := iprop(∃ r, prngReg c r)
  Y c := iprop(∃ r, prngReg c r)
  Z c := Pipeline.unscopedRest (Ix := Unit) (Name := ℕ) (U := UR sig nD τ) (Lvl := ℕ) spec10 c (V92 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V92 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V92 m ρ c) (V93 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.RegSeg11.lean ====
import proofs.«426760_j80470507258346_3_alg».proof.Proof.KI.SegDefs

/-! Region 11 of @main (item 97) as a segment of the run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 11 over the thread state: entered with every unscoped buffer at W97, left with them at W98. Its arrays are
    split out of the unscoped buffers and put back at the exit contents; the generator register goes into the
    pipeline's invariant and comes out; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V97 m ρ) c).loose
  hwaits := Pipeline.hwaits_of_owed_zero _ _ _ _ L lv 11 fun _ _ => rfl
  pre c := iprop(StableHlo.held (c : Thread nD τ) (Pipeline.ucRefs τ sig) (W97 m ρ c) ∗ R c)
  post c := iprop(StableHlo.held (c : Thread nD τ) (Pipeline.ucRefs τ sig) (W98 m ρ c) ∗ R c)
  X c := iprop(∃ r, prngReg c r)
  Y c := iprop(∃ r, prngReg c r)
  Z c := Pipeline.unscopedRest (Ix := Unit) (Name := ℕ) (U := UR sig nD τ) (Lvl := ℕ) spec11 c (V97 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V97 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V97 m ρ c) (V98 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Writes.lean ====
import proofs.«426760_j80470507258346_3_alg».proof.Proof.Gen.KernelIdeal.Launch

/-! For each host item of @main: the references its operations write, listed in order (`_W`, `_writes`),
    and that none of its operations allocates a buffer (`_fresh`). -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No operation of `hostOps0` allocates a buffer. -/
theorem hostOps0_fresh : (hostOps0 : List (HloOp τ sig (Elt F))).Forall fun op => op.fresh = ∅ := by
  simp only [List.Forall]; repeat' constructor
/-- The references the operations of `hostOps0` write. -/
abbrev hostOps0_W : List (Ref sig .tc) := [main_v0, main_v1, main_v2, main_v3, main_v4, main_v5, main_v6, main_v7, main_cst, main_v8, main_cst_0, main_v9, main_cst_1, main_v10, main_v11, main_v12, main_cst_2, main_v13, main_v14, main_cst_3, main_v15, main_v16, main_cst_4, main_v17, main_v18, main_v19, main_cst_5, main_v20, main_v21, main_cst_6, main_v22, main_v23, main_v24]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_1` allocates a buffer. -/
theorem hostOps0_1_fresh : (hostOps0_1 : List (HloOp τ sig (Elt F))).Forall fun op => op.fresh = ∅ := by
  simp only [List.Forall]; repeat' constructor
/-- The references the operations of `hostOps0_1` write. -/
abbrev hostOps0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v25]
theorem hostOps0_1_writes : (hostOps0_1 : List (HloOp τ sig (Elt F))).Forall fun op => op.writes ⊆ (hostOps0_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_2` allocates a buffer. -/
theorem hostOps0_2_fresh : (hostOps0_2 : List (HloOp τ sig (Elt F))).Forall fun op => op.fresh = ∅ := by
  simp only [List.Forall]; repeat' constructor
/-- The references the operations of `hostOps0_2` write. -/
abbrev hostOps0_2_W : List (Ref sig .tc) := [main_v26]
theorem hostOps0_2_writes : (hostOps0_2 : List (HloOp τ sig (Elt F))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_3` allocates a buffer. -/
theorem hostOps0_3_fresh : (hostOps0_3 : List (HloOp τ sig (Elt F))).Forall fun op => op.fresh = ∅ := by
  simp only [List.Forall]; repeat' constructor
/-- The references the operations of `hostOps0_3` write. -/
abbrev hostOps0_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v27]
theorem hostOps0_3_writes : (hostOps0_3 : List (HloOp τ sig (Elt F))).Forall fun op => op.writes ⊆ (hostOps0_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_4` allocates a buffer. -/
theorem hostOps0_4_fresh : (hostOps0_4 : List (HloOp τ sig (Elt F))).Forall fun op => op.fresh = ∅ := by
  simp only [List.Forall]; repeat' constructor
/-- The references the operations of `hostOps0_4` write. -/
abbrev hostOps0_4_W : List (Ref sig .tc) := [main_v28, main_cst_7, main_v29, main_cst_8, main_v30, main_cst_9, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_c]
theorem hostOps0_4_writes : (hostOps0_4 : List (HloOp τ sig (Elt F))).Forall fun op => op.writes ⊆ (hostOps0_4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_5` allocates a buffer. -/
theorem hostOps0_5_fresh : (hostOps0_5 : List (HloOp τ sig (Elt F))).Forall fun op => op.fresh = ∅ := by
  simp only [List.Forall]; repeat' constructor
/-- The references the operations of `hostOps0_5` write. -/
abbrev hostOps0_5_W : List (Ref sig .tc) := [main_call2_v0, main_v90]
theorem hostOps0_5_writes : (hostOps0_5 : List (HloOp τ sig (Elt F))).Forall fun op => op.writes ⊆ (hostOps0_5_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_6` allocates a buffer. -/
theorem hostOps0_6_fresh : (hostOps0_6 : List (HloOp τ sig (Elt F))).Forall fun op => op.fresh = ∅ := by
  simp only [List.Forall]; repeat' constructor
/-- The references the operations of `hostOps0_6` write. -/
abbrev hostOps0_6_W : List (Ref sig .tc) := [main_c_10]
theorem hostOps0_6_writes : (hostOps0_6 : List (HloOp τ sig (Elt F))).Forall fun op => op.writes ⊆ (hostOps0_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_7` allocates a buffer. -/
theorem hostOps0_7_fresh : (hostOps0_7 : List (HloOp τ sig (Elt F))).Forall fun op => op.fresh = ∅ := by
  simp only [List.Forall]; repeat' constructor
/-- The references the operations of `hostOps0_7` write. -/
abbrev hostOps0_7_W : List (Ref sig .tc) := [main_call3_v0, main_v91]
theorem hostOps0_7_writes : (hostOps0_7 : List (HloOp τ sig (Elt F))).Forall fun op => op.writes ⊆ (hostOps0_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_8` allocates a buffer. -/
theorem hostOps0_8_fresh : (hostOps0_8 : List (HloOp τ sig (Elt F))).Forall fun op => op.fresh = ∅ := by
  simp only [List.Forall]; repeat' constructor
/-- The references the operations of `hostOps0_8` write. -/
abbrev hostOps0_8_W : List (Ref sig .tc) := [main_c_11]
theorem hostOps0_8_writes : (hostOps0_8 : List (HloOp τ sig (Elt F))).Forall fun op => op.writes ⊆ (hostOps0_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_9` allocates a buffer. -/
theorem hostOps0_9_fresh : (hostOps0_9 : List (HloOp τ sig (Elt F))).Forall fun op => op.fresh = ∅ := by
  simp only [List.Forall]; repeat' constructor
/-- The references the operations of `hostOps0_9` write. -/
abbrev hostOps0_9_W : List (Ref sig .tc) := [main_call4_v0, main_v92]
theorem hostOps0_9_writes : (hostOps0_9 : List (HloOp τ sig (Elt F))).Forall fun op => op.writes ⊆ (hostOps0_9_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The references the operations of `hostOps1` write. -/
abbrev hostOps1_W : List (Ref sig .tc) := [main_v94, main_cst_12, main_v95, main_v96, main_v97, main_v98, main_v99, main_v100, main_v101, main_v102, main_v103, main_v104, main_v105, main_v106, main_c_13]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_1` allocates a buffer. -/
theorem hostOps1_1_fresh : (hostOps1_1 : List (HloOp τ sig (Elt F))).Forall fun op => op.fresh = ∅ := by
  simp only [List.Forall]; repeat' constructor
/-- The references the operations of `hostOps1_1` write. -/
abbrev hostOps1_1_W : List (Ref sig .tc) := [main_call5_v0, main_v107]
theorem hostOps1_1_writes : (hostOps1_1 : List (HloOp τ sig (Elt F))).Forall fun op => op.writes ⊆ (hostOps1_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_2` allocates a buffer. -/
theorem hostOps1_2_fresh : (hostOps1_2 : List (HloOp τ sig (Elt F))).Forall fun op => op.fresh = ∅ := by
  simp only [List.Forall]; repeat' constructor
/-- The references the operations of `hostOps1_2` write. -/
abbrev hostOps1_2_W : List (Ref sig .tc) := [main_c_14]
theorem hostOps1_2_writes : (hostOps1_2 : List (HloOp τ sig (Elt F))).Forall fun op => op.writes ⊆ (hostOps1_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_3` allocates a buffer. -/
theorem hostOps1_3_fresh : (hostOps1_3 : List (HloOp τ sig (Elt F))).Forall fun op => op.fresh = ∅ := by
  simp only [List.Forall]; repeat' constructor
/-- The references the operations of `hostOps1_3` write. -/
abbrev hostOps1_3_W : List (Ref sig .tc) := [main_call6_v0, main_v108]
theorem hostOps1_3_writes : (hostOps1_3 : List (HloOp τ sig (Elt F))).Forall fun op => op.writes ⊆ (hostOps1_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2` allocates a buffer. -/
theorem hostOps2_fresh : (hostOps2 : List (HloOp τ sig (Elt F))).Forall fun op => op.fresh = ∅ := by
  simp only [List.Forall]; repeat' constructor
/-- The references the operations of `hostOps2` write. -/
abbrev hostOps2_W : List (Ref sig .tc) := [main_v110, main_cst_15, main_v111, main_v112, main_cst_16, main_v113, main_v114, main_cst_17, main_v115, main_v116, main_cst_18, main_v117, main_v118, main_v119, main_v120, main_v121, main_v122, main_v123]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_1` allocates a buffer. -/
theorem hostOps2_1_fresh : (hostOps2_1 : List (HloOp τ sig (Elt F))).Forall fun op => op.fresh = ∅ := by
  simp only [List.Forall]; repeat' constructor
/-- The references the operations of `hostOps2_1` write. -/
abbrev hostOps2_1_W : List (Ref sig .tc) := [main_call7_cst, main_call7_v0, main_v124]
theorem hostOps2_1_writes : (hostOps2_1 : List (HloOp τ sig (Elt F))).Forall fun op => op.writes ⊆ (hostOps2_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_2` allocates a buffer. -/
theorem hostOps2_2_fresh : (hostOps2_2 : List (HloOp τ sig (Elt F))).Forall fun op => op.fresh = ∅ := by
  simp only [List.Forall]; repeat' constructor
/-- The references the operations of `hostOps2_2` write. -/
abbrev hostOps2_2_W : List (Ref sig .tc) := [main_v125, main_v126, main_v127, main_v128]
theorem hostOps2_2_writes : (hostOps2_2 : List (HloOp τ sig (Elt F))).Forall fun op => op.writes ⊆ (hostOps2_2_W.map (Proc.devRef (τ := τ) .tc)).toFinset := by
  simp only [List.Forall]
  refine ⟨?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_3` allocates a buffer. -/
theorem hostOps2_3_fresh : (hostOps2_3 : List (HloOp τ sig (Elt F))).Forall fun op => op.fresh = ∅ := by
  simp only [List.Forall]; repeat' constructor
/-- The references the operations of `hostOps2_3` write. -/
abbrev hostOps2_3_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v129]
theorem hostOps2_3_writes : (hostOps2_3 : List (HloOp τ sig (Elt F))).Forall fun op => op.writes ⊆ (hostOps2_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_4` allocates a buffer. -/
theorem hostOps2_4_fresh : (hostOps2_4 : List (HloOp τ sig (Elt F))).Forall fun op => op.fresh = ∅ := by
  simp only [List.Forall]; repeat' constructor
/-- The references the operations of `hostOps2_4` write. -/
abbrev hostOps2_4_W : List (Ref sig .tc) := [main_v130]
theorem hostOps2_4_writes : (hostOps2_4 : List (HloOp τ sig (Elt F))).Forall fun op => op.writes ⊆ (hostOps2_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_5` allocates a buffer. -/
theorem hostOps2_5_fresh : (hostOps2_5 : List (HloOp τ sig (Elt F))).Forall fun op => op.fresh = ∅ := by
  simp only [List.Forall]; repeat' constructor
/-- The references the operations of `hostOps2_5` write. -/
abbrev hostOps2_5_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v131]
theorem hostOps2_5_writes : (hostOps2_5 : List (HloOp τ sig (Elt F))).Forall fun op => op.writes ⊆ (hostOps2_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_6` allocates a buffer. -/
theorem hostOps2_6_fresh : (hostOps2_6 : List (HloOp τ sig (Elt F))).Forall fun op => op.fresh = ∅ := by
  simp only [List.Forall]; repeat' constructor
/-- The references the operations of `hostOps2_6` write. -/
abbrev hostOps2_6_W : List (Ref sig .tc) := [main_v132, main_v133, main_v134, main_v135, main_v136, main_v137, main_v138, main_v139, main_v140, main_v141, main_c_19]
theorem hostOps2_6_writes : (hostOps2_6 : List (HloOp τ sig (Elt F))).Forall fun op => op.writes ⊆ (hostOps2_6_W.map (Proc.devRef (τ := τ) .tc)).toFinset := by
  simp only [List.Forall]
  refine ⟨?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_7` allocates a buffer. -/
theorem hostOps2_7_fresh : (hostOps2_7 : List (HloOp τ sig (Elt F))).Forall fun op => op.fresh = ∅ := by
  simp only [List.Forall]; repeat' constructor
/-- The references the operations of `hostOps2_7` write. -/
abbrev hostOps2_7_W : List (Ref sig .tc) := [main_call10_v0, main_v142]
theorem hostOps2_7_writes : (hostOps2_7 : List (HloOp τ sig (Elt F))).Forall fun op => op.writes ⊆ (hostOps2_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_8` allocates a buffer. -/
theorem hostOps2_8_fresh : (hostOps2_8 : List (HloOp τ sig (Elt F))).Forall fun op => op.fresh = ∅ := by
  simp only [List.Forall]; repeat' constructor
/-- The references the operations of `hostOps2_8` write. -/
abbrev hostOps2_8_W : List (Ref sig .tc) := [main_c_20]
theorem hostOps2_8_writes : (hostOps2_8 : List (HloOp τ sig (Elt F))).Forall fun op => op.writes ⊆ (hostOps2_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_9` allocates a buffer. -/
theorem hostOps2_9_fresh : (hostOps2_9 : List (HloOp τ sig (Elt F))).Forall fun op => op.fresh = ∅ := by
  simp only [List.Forall]; repeat' constructor
/-- The references the operations of `hostOps2_9` write. -/
abbrev hostOps2_9_W : List (Ref sig .tc) := [main_call11_v0, main_v143]
theorem hostOps2_9_writes : (hostOps2_9 : List (HloOp τ sig (Elt F))).Forall fun op => op.writes ⊆ (hostOps2_9_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_10` allocates a buffer. -/
theorem hostOps2_10_fresh : (hostOps2_10 : List (HloOp τ sig (Elt F))).Forall fun op => op.fresh = ∅ := by
  simp only [List.Forall]; repeat' constructor
/-- The references the operations of `hostOps2_10` write. -/
abbrev hostOps2_10_W : List (Ref sig .tc) := [main_c_21]
theorem hostOps2_10_writes : (hostOps2_10 : List (HloOp τ sig (Elt F))).Forall fun op => op.writes ⊆ (hostOps2_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_11` allocates a buffer. -/
theorem hostOps2_11_fresh : (hostOps2_11 : List (HloOp τ sig (Elt F))).Forall fun op => op.fresh = ∅ := by
  simp only [List.Forall]; repeat' constructor
/-- The references the operations of `hostOps2_11` write. -/
abbrev hostOps2_11_W : List (Ref sig .tc) := [main_call12_v0, main_v144]
theorem hostOps2_11_writes : (hostOps2_11 : List (HloOp τ sig (Elt F))).Forall fun op => op.writes ⊆ (hostOps2_11_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3` allocates a buffer. -/
theorem hostOps3_fresh : (hostOps3 : List (HloOp τ sig (Elt F))).Forall fun op => op.fresh = ∅ := by
  simp only [List.Forall]; repeat' constructor
/-- The references the operations of `hostOps3` write. -/
abbrev hostOps3_W : List (Ref sig .tc) := [main_v146, main_cst_22, main_v147, main_v148, main_v149, main_v150, main_v151, main_v152, main_v153, main_v154, main_v155, main_v156, main_v157, main_v158, main_c_23]
theorem hostOps3_writes : (hostOps3 : List (HloOp τ sig (Elt F))).Forall fun op => op.writes ⊆ (hostOps3_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_1` allocates a buffer. -/
theorem hostOps3_1_fresh : (hostOps3_1 : List (HloOp τ sig (Elt F))).Forall fun op => op.fresh = ∅ := by
  simp only [List.Forall]; repeat' constructor
/-- The references the operations of `hostOps3_1` write. -/
abbrev hostOps3_1_W : List (Ref sig .tc) := [main_call13_v0, main_v159]
theorem hostOps3_1_writes : (hostOps3_1 : List (HloOp τ sig (Elt F))).Forall fun op => op.writes ⊆ (hostOps3_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_2` allocates a buffer. -/
theorem hostOps3_2_fresh : (hostOps3_2 : List (HloOp τ sig (Elt F))).Forall fun op => op.fresh = ∅ := by
  simp only [List.Forall]; repeat' constructor
/-- The references the operations of `hostOps3_2` write. -/
abbrev hostOps3_2_W : List (Ref sig .tc) := [main_c_24]
theorem hostOps3_2_writes : (hostOps3_2 : List (HloOp τ sig (Elt F))).Forall fun op => op.writes ⊆ (hostOps3_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_3` allocates a buffer. -/
theorem hostOps3_3_fresh : (hostOps3_3 : List (HloOp τ sig (Elt F))).Forall fun op => op.fresh = ∅ := by
  simp only [List.Forall]; repeat' constructor
/-- The references the operations of `hostOps3_3` write. -/
abbrev hostOps3_3_W : List (Ref sig .tc) := [main_call14_v0, main_v160]
theorem hostOps3_3_writes : (hostOps3_3 : List (HloOp τ sig (Elt F))).Forall fun op => op.writes ⊆ (hostOps3_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4` allocates a buffer. -/
theorem hostOps4_fresh : (hostOps4 : List (HloOp τ sig (Elt F))).Forall fun op => op.fresh = ∅ := by
  simp only [List.Forall]; repeat' constructor
/-- The references the operations of `hostOps4` write. -/
abbrev hostOps4_W : List (Ref sig .tc) := [main_v162, main_cst_25, main_v163, main_v164, main_cst_26, main_v165, main_v166, main_cst_27, main_v167, main_v168, main_cst_28, main_v169, main_v170, main_v171, main_v172, main_v173, main_v174, main_v175]
theorem hostOps4_writes : (hostOps4 : List (HloOp τ sig (Elt F))).Forall fun op => op.writes ⊆ (hostOps4_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_1` allocates a buffer. -/
theorem hostOps4_1_fresh : (hostOps4_1 : List (HloOp τ sig (Elt F))).Forall fun op => op.fresh = ∅ := by
  simp only [List.Forall]; repeat' constructor
/-- The references the operations of `hostOps4_1` write. -/
abbrev hostOps4_1_W : List (Ref sig .tc) := [main_call15_cst, main_call15_v0, main_v176]
theorem hostOps4_1_writes : (hostOps4_1 : List (HloOp τ sig (Elt F))).Forall fun op => op.writes ⊆ (hostOps4_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_2` allocates a buffer. -/
theorem hostOps4_2_fresh : (hostOps4_2 : List (HloOp τ sig (Elt F))).Forall fun op => op.fresh = ∅ := by
  simp only [List.Forall]; repeat' constructor
/-- The references the operations of `hostOps4_2` write. -/
abbrev hostOps4_2_W : List (Ref sig .tc) := [main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_c_29]
theorem hostOps4_2_writes : (hostOps4_2 : List (HloOp τ sig (Elt F))).Forall fun op => op.writes ⊆ (hostOps4_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_3` allocates a buffer. -/
theorem hostOps4_3_fresh : (hostOps4_3 : List (HloOp τ sig (Elt F))).Forall fun op => op.fresh = ∅ := by
  simp only [List.Forall]; repeat' constructor
/-- The references the operations of `hostOps4_3` write. -/
abbrev hostOps4_3_W : List (Ref sig .tc) := [main_call16_v0, main_v237]
theorem hostOps4_3_writes : (hostOps4_3 : List (HloOp τ sig (Elt F))).Forall fun op => op.writes ⊆ (hostOps4_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_4` allocates a buffer. -/
theorem hostOps4_4_fresh : (hostOps4_4 : List (HloOp τ sig (Elt F))).Forall fun op => op.fresh = ∅ := by
  simp only [List.Forall]; repeat' constructor
/-- The references the operations of `hostOps4_4` write. -/
abbrev hostOps4_4_W : List (Ref sig .tc) := [main_c_30]
theorem hostOps4_4_writes : (hostOps4_4 : List (HloOp τ sig (Elt F))).Forall fun op => op.writes ⊆ (hostOps4_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_5` allocates a buffer. -/
theorem hostOps4_5_fresh : (hostOps4_5 : List (HloOp τ sig (Elt F))).Forall fun op => op.fresh = ∅ := by
  simp only [List.Forall]; repeat' constructor
/-- The references the operations of `hostOps4_5` write. -/
abbrev hostOps4_5_W : List (Ref sig .tc) := [main_call17_v0, main_v238]
theorem hostOps4_5_writes : (hostOps4_5 : List (HloOp τ sig (Elt F))).Forall fun op => op.writes ⊆ (hostOps4_5_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_6` allocates a buffer. -/
theorem hostOps4_6_fresh : (hostOps4_6 : List (HloOp τ sig (Elt F))).Forall fun op => op.fresh = ∅ := by
  simp only [List.Forall]; repeat' constructor
/-- The references the operations of `hostOps4_6` write. -/
abbrev hostOps4_6_W : List (Ref sig .tc) := [main_c_31]
theorem hostOps4_6_writes : (hostOps4_6 : List (HloOp τ sig (Elt F))).Forall fun op => op.writes ⊆ (hostOps4_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_7` allocates a buffer. -/
theorem hostOps4_7_fresh : (hostOps4_7 : List (HloOp τ sig (Elt F))).Forall fun op => op.fresh = ∅ := by
  simp only [List.Forall]; repeat' constructor
/-- The references the operations of `hostOps4_7` write. -/
abbrev hostOps4_7_W : List (Ref sig .tc) := [main_call18_v0, main_v239]
theorem hostOps4_7_writes : (hostOps4_7 : List (HloOp τ sig (Elt F))).Forall fun op => op.writes ⊆ (hostOps4_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5` allocates a buffer. -/
theorem hostOps5_fresh : (hostOps5 : List (HloOp τ sig (Elt F))).Forall fun op => op.fresh = ∅ := by
  simp only [List.Forall]; repeat' constructor
/-- The references the operations of `hostOps5` write. -/
abbrev hostOps5_W : List (Ref sig .tc) := [main_v241, main_cst_32, main_v242, main_v243, main_v244, main_v245, main_v246, main_v247, main_v248, main_v249, main_v250, main_v251, main_v252, main_v253, main_c_33]
theorem hostOps5_writes : (hostOps5 : List (HloOp τ sig (Elt F))).Forall fun op => op.writes ⊆ (hostOps5_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5_1` allocates a buffer. -/
theorem hostOps5_1_fresh : (hostOps5_1 : List (HloOp τ sig (Elt F))).Forall fun op => op.fresh = ∅ := by
  simp only [List.Forall]; repeat' constructor
/-- The references the operations of `hostOps5_1` write. -/
abbrev hostOps5_1_W : List (Ref sig .tc) := [main_call19_v0, main_v254]
theorem hostOps5_1_writes : (hostOps5_1 : List (HloOp τ sig (Elt F))).Forall fun op => op.writes ⊆ (hostOps5_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5_2` allocates a buffer. -/
theorem hostOps5_2_fresh : (hostOps5_2 : List (HloOp τ sig (Elt F))).Forall fun op => op.fresh = ∅ := by
  simp only [List.Forall]; repeat' constructor
/-- The references the operations of `hostOps5_2` write. -/
abbrev hostOps5_2_W : List (Ref sig .tc) := [main_c_34]
theorem hostOps5_2_writes : (hostOps5_2 : List (HloOp τ sig (Elt F))).Forall fun op => op.writes ⊆ (hostOps5_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5_3` allocates a buffer. -/
theorem hostOps5_3_fresh : (hostOps5_3 : List (HloOp τ sig (Elt F))).Forall fun op => op.fresh = ∅ := by
  simp only [List.Forall]; repeat' constructor
/-- The references the operations of `hostOps5_3` write. -/
abbrev hostOps5_3_W : List (Ref sig .tc) := [main_call20_v0, main_v255]
theorem hostOps5_3_writes : (hostOps5_3 : List (HloOp τ sig (Elt F))).Forall fun op => op.writes ⊆ (hostOps5_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6` allocates a buffer. -/
theorem hostOps6_fresh : (hostOps6 : List (HloOp τ sig (Elt F))).Forall fun op => op.fresh = ∅ := by
  simp only [List.Forall]; repeat' constructor
/-- The references the operations of `hostOps6` write. -/
abbrev hostOps6_W : List (Ref sig .tc) := [main_v257, main_cst_35, main_v258, main_v259, main_cst_36, main_v260, main_v261, main_cst_37, main_v262, main_v263, main_cst_38, main_v264, main_v265, main_v266, main_v267, main_v268, main_v269, main_v270]
theorem hostOps6_writes : (hostOps6 : List (HloOp τ sig (Elt F))).Forall fun op => op.writes ⊆ (hostOps6_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_1` allocates a buffer. -/
theorem hostOps6_1_fresh : (hostOps6_1 : List (HloOp τ sig (Elt F))).Forall fun op => op.fresh = ∅ := by
  simp only [List.Forall]; repeat' constructor
/-- The references the operations of `hostOps6_1` write. -/
abbrev hostOps6_1_W : List (Ref sig .tc) := [main_call21_cst, main_call21_v0, main_v271]
theorem hostOps6_1_writes : (hostOps6_1 : List (HloOp τ sig (Elt F))).Forall fun op => op.writes ⊆ (hostOps6_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_2` allocates a buffer. -/
theorem hostOps6_2_fresh : (hostOps6_2 : List (HloOp τ sig (Elt F))).Forall fun op => op.fresh = ∅ := by
  simp only [List.Forall]; repeat' constructor
/-- The references the operations of `hostOps6_2` write. -/
abbrev hostOps6_2_W : List (Ref sig .tc) := [main_v272, main_v273, main_v274, main_v275]
theorem hostOps6_2_writes : (hostOps6_2 : List (HloOp τ sig (Elt F))).Forall fun op => op.writes ⊆ (hostOps6_2_W.map (Proc.devRef (τ := τ) .tc)).toFinset := by
  simp only [List.Forall]
  refine ⟨?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_3` allocates a buffer. -/
theorem hostOps6_3_fresh : (hostOps6_3 : List (HloOp τ sig (Elt F))).Forall fun op => op.fresh = ∅ := by
  simp only [List.Forall]; repeat' constructor
/-- The references the operations of `hostOps6_3` write. -/
abbrev hostOps6_3_W : List (Ref sig .tc) := [main_call22_c, main_call22_v0, main_call22_v1, main_call22_c_0, main_call22_v2, main_call22_v3, main_call22_v4, main_call22_v5, main_call22_c_1, main_call22_c_2, main_call22_v6, main_call22_v7, main_call22_v8, main_call22_v9, main_call22_v10, main_call22_v11, main_call22_c_3, main_call22_v12, main_call22_v13, main_call22_v14, main_call22_cst, main_call22_v15, main_v276]
theorem hostOps6_3_writes : (hostOps6_3 : List (HloOp τ sig (Elt F))).Forall fun op => op.writes ⊆ (hostOps6_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_4` allocates a buffer. -/
theorem hostOps6_4_fresh : (hostOps6_4 : List (HloOp τ sig (Elt F))).Forall fun op => op.fresh = ∅ := by
  simp only [List.Forall]; repeat' constructor
/-- The references the operations of `hostOps6_4` write. -/
abbrev hostOps6_4_W : List (Ref sig .tc) := [main_v277]
theorem hostOps6_4_writes : (hostOps6_4 : List (HloOp τ sig (Elt F))).Forall fun op => op.writes ⊆ (hostOps6_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_5` allocates a buffer. -/
theorem hostOps6_5_fresh : (hostOps6_5 : List (HloOp τ sig (Elt F))).Forall fun op => op.fresh = ∅ := by
  simp only [List.Forall]; repeat' constructor
/-- The references the operations of `hostOps6_5` write. -/
abbrev hostOps6_5_W : List (Ref sig .tc) := [main_call23_c, main_call23_v0, main_call23_v1, main_call23_c_0, main_call23_v2, main_call23_v3, main_call23_v4, main_call23_v5, main_call23_c_1, main_call23_c_2, main_call23_v6, main_call23_v7, main_call23_v8, main_call23_v9, main_call23_v10, main_call23_v11, main_call23_c_3, main_call23_v12, main_call23_v13, main_call23_v14, main_call23_cst, main_call23_v15, main_v278]
theorem hostOps6_5_writes : (hostOps6_5 : List (HloOp τ sig (Elt F))).Forall fun op => op.writes ⊆ (hostOps6_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_6` allocates a buffer. -/
theorem hostOps6_6_fresh : (hostOps6_6 : List (HloOp τ sig (Elt F))).Forall fun op => op.fresh = ∅ := by
  simp only [List.Forall]; repeat' constructor
/-- The references the operations of `hostOps6_6` write. -/
abbrev hostOps6_6_W : List (Ref sig .tc) := [main_v279, main_v280, main_v281, main_v282, main_v283, main_v284, main_v285, main_v286, main_v287, main_v288, main_c_39]
theorem hostOps6_6_writes : (hostOps6_6 : List (HloOp τ sig (Elt F))).Forall fun op => op.writes ⊆ (hostOps6_6_W.map (Proc.devRef (τ := τ) .tc)).toFinset := by
  simp only [List.Forall]
  refine ⟨?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_7` allocates a buffer. -/
theorem hostOps6_7_fresh : (hostOps6_7 : List (HloOp τ sig (Elt F))).Forall fun op => op.fresh = ∅ := by
  simp only [List.Forall]; repeat' constructor
/-- The references the operations of `hostOps6_7` write. -/
abbrev hostOps6_7_W : List (Ref sig .tc) := [main_call24_v0, main_v289]
theorem hostOps6_7_writes : (hostOps6_7 : List (HloOp τ sig (Elt F))).Forall fun op => op.writes ⊆ (hostOps6_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_8` allocates a buffer. -/
theorem hostOps6_8_fresh : (hostOps6_8 : List (HloOp τ sig (Elt F))).Forall fun op => op.fresh = ∅ := by
  simp only [List.Forall]; repeat' constructor
/-- The references the operations of `hostOps6_8` write. -/
abbrev hostOps6_8_W : List (Ref sig .tc) := [main_c_40]
theorem hostOps6_8_writes : (hostOps6_8 : List (HloOp τ sig (Elt F))).Forall fun op => op.writes ⊆ (hostOps6_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_9` allocates a buffer. -/
theorem hostOps6_9_fresh : (hostOps6_9 : List (HloOp τ sig (Elt F))).Forall fun op => op.fresh = ∅ := by
  simp only [List.Forall]; repeat' constructor
/-- The references the operations of `hostOps6_9` write. -/
abbrev hostOps6_9_W : List (Ref sig .tc) := [main_call25_v0, main_v290]
theorem hostOps6_9_writes : (hostOps6_9 : List (HloOp τ sig (Elt F))).Forall fun op => op.writes ⊆ (hostOps6_9_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_10` allocates a buffer. -/
theorem hostOps6_10_fresh : (hostOps6_10 : List (HloOp τ sig (Elt F))).Forall fun op => op.fresh = ∅ := by
  simp only [List.Forall]; repeat' constructor
/-- The references the operations of `hostOps6_10` write. -/
abbrev hostOps6_10_W : List (Ref sig .tc) := [main_c_41]
theorem hostOps6_10_writes : (hostOps6_10 : List (HloOp τ sig (Elt F))).Forall fun op => op.writes ⊆ (hostOps6_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_11` allocates a buffer. -/
theorem hostOps6_11_fresh : (hostOps6_11 : List (HloOp τ sig (Elt F))).Forall fun op => op.fresh = ∅ := by
  simp only [List.Forall]; repeat' constructor
/-- The references the operations of `hostOps6_11` write. -/
abbrev hostOps6_11_W : List (Ref sig .tc) := [main_call26_v0, main_v291]
theorem hostOps6_11_writes : (hostOps6_11 : List (HloOp τ sig (Elt F))).Forall fun op => op.writes ⊆ (hostOps6_11_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7` allocates a buffer. -/
theorem hostOps7_fresh : (hostOps7 : List (HloOp τ sig (Elt F))).Forall fun op => op.fresh = ∅ := by
  simp only [List.Forall]; repeat' constructor
/-- The references the operations of `hostOps7` write. -/
abbrev hostOps7_W : List (Ref sig .tc) := [main_v293, main_cst_42, main_v294, main_v295, main_v296, main_v297, main_v298, main_v299, main_v300, main_v301, main_v302, main_v303, main_v304, main_v305, main_c_43]
theorem hostOps7_writes : (hostOps7 : List (HloOp τ sig (Elt F))).Forall fun op => op.writes ⊆ (hostOps7_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7_1` allocates a buffer. -/
theorem hostOps7_1_fresh : (hostOps7_1 : List (HloOp τ sig (Elt F))).Forall fun op => op.fresh = ∅ := by
  simp only [List.Forall]; repeat' constructor
/-- The references the operations of `hostOps7_1` write. -/
abbrev hostOps7_1_W : List (Ref sig .tc) := [main_call27_v0, main_v306]
theorem hostOps7_1_writes : (hostOps7_1 : List (HloOp τ sig (Elt F))).Forall fun op => op.writes ⊆ (hostOps7_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7_2` allocates a buffer. -/
theorem hostOps7_2_fresh : (hostOps7_2 : List (HloOp τ sig (Elt F))).Forall fun op => op.fresh = ∅ := by
  simp only [List.Forall]; repeat' constructor
/-- The references the operations of `hostOps7_2` write. -/
abbrev hostOps7_2_W : List (Ref sig .tc) := [main_c_44]
theorem hostOps7_2_writes : (hostOps7_2 : List (HloOp τ sig (Elt F))).Forall fun op => op.writes ⊆ (hostOps7_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7_3` allocates a buffer. -/
theorem hostOps7_3_fresh : (hostOps7_3 : List (HloOp τ sig (Elt F))).Forall fun op => op.fresh = ∅ := by
  simp only [List.Forall]; repeat' constructor
/-- The references the operations of `hostOps7_3` write. -/
abbrev hostOps7_3_W : List (Ref sig .tc) := [main_call28_v0, main_v307]
theorem hostOps7_3_writes : (hostOps7_3 : List (HloOp τ sig (Elt F))).Forall fun op => op.writes ⊆ (hostOps7_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8` allocates a buffer. -/
theorem hostOps8_fresh : (hostOps8 : List (HloOp τ sig (Elt F))).Forall fun op => op.fresh = ∅ := by
  simp only [List.Forall]; repeat' constructor
/-- The references the operations of `hostOps8` write. -/
abbrev hostOps8_W : List (Ref sig .tc) := [main_v309, main_cst_45, main_v310, main_v311, main_cst_46, main_v312, main_v313, main_cst_47, main_v314, main_v315, main_cst_48, main_v316, main_v317, main_v318, main_v319, main_v320, main_v321, main_v322]
theorem hostOps8_writes : (hostOps8 : List (HloOp τ sig (Elt F))).Forall fun op => op.writes ⊆ (hostOps8_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_1` allocates a buffer. -/
theorem hostOps8_1_fresh : (hostOps8_1 : List (HloOp τ sig (Elt F))).Forall fun op => op.fresh = ∅ := by
  simp only [List.Forall]; repeat' constructor
/-- The references the operations of `hostOps8_1` write. -/
abbrev hostOps8_1_W : List (Ref sig .tc) := [main_call29_cst, main_call29_v0, main_v323]
theorem hostOps8_1_writes : (hostOps8_1 : List (HloOp τ sig (Elt F))).Forall fun op => op.writes ⊆ (hostOps8_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_2` allocates a buffer. -/
theorem hostOps8_2_fresh : (hostOps8_2 : List (HloOp τ sig (Elt F))).Forall fun op => op.fresh = ∅ := by
  simp only [List.Forall]; repeat' constructor
/-- The references the operations of `hostOps8_2` write. -/
abbrev hostOps8_2_W : List (Ref sig .tc) := [main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_c_49]
theorem hostOps8_2_writes : (hostOps8_2 : List (HloOp τ sig (Elt F))).Forall fun op => op.writes ⊆ (hostOps8_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_3` allocates a buffer. -/
theorem hostOps8_3_fresh : (hostOps8_3 : List (HloOp τ sig (Elt F))).Forall fun op => op.fresh = ∅ := by
  simp only [List.Forall]; repeat' constructor
/-- The references the operations of `hostOps8_3` write. -/
abbrev hostOps8_3_W : List (Ref sig .tc) := [main_call30_v0, main_v384]
theorem hostOps8_3_writes : (hostOps8_3 : List (HloOp τ sig (Elt F))).Forall fun op => op.writes ⊆ (hostOps8_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_4` allocates a buffer. -/
theorem hostOps8_4_fresh : (hostOps8_4 : List (HloOp τ sig (Elt F))).Forall fun op => op.fresh = ∅ := by
  simp only [List.Forall]; repeat' constructor
/-- The references the operations of `hostOps8_4` write. -/
abbrev hostOps8_4_W : List (Ref sig .tc) := [main_c_50]
theorem hostOps8_4_writes : (hostOps8_4 : List (HloOp τ sig (Elt F))).Forall fun op => op.writes ⊆ (hostOps8_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_5` allocates a buffer. -/
theorem hostOps8_5_fresh : (hostOps8_5 : List (HloOp τ sig (Elt F))).Forall fun op => op.fresh = ∅ := by
  simp only [List.Forall]; repeat' constructor
/-- The references the operations of `hostOps8_5` write. -/
abbrev hostOps8_5_W : List (Ref sig .tc) := [main_call31_v0, main_v385]
theorem hostOps8_5_writes : (hostOps8_5 : List (HloOp τ sig (Elt F))).Forall fun op => op.writes ⊆ (hostOps8_5_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_6` allocates a buffer. -/
theorem hostOps8_6_fresh : (hostOps8_6 : List (HloOp τ sig (Elt F))).Forall fun op => op.fresh = ∅ := by
  simp only [List.Forall]; repeat' constructor
/-- The references the operations of `hostOps8_6` write. -/
abbrev hostOps8_6_W : List (Ref sig .tc) := [main_c_51]
theorem hostOps8_6_writes : (hostOps8_6 : List (HloOp τ sig (Elt F))).Forall fun op => op.writes ⊆ (hostOps8_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_7` allocates a buffer. -/
theorem hostOps8_7_fresh : (hostOps8_7 : List (HloOp τ sig (Elt F))).Forall fun op => op.fresh = ∅ := by
  simp only [List.Forall]; repeat' constructor
/-- The references the operations of `hostOps8_7` write. -/
abbrev hostOps8_7_W : List (Ref sig .tc) := [main_call32_v0, main_v386]
theorem hostOps8_7_writes : (hostOps8_7 : List (HloOp τ sig (Elt F))).Forall fun op => op.writes ⊆ (hostOps8_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps9` allocates a buffer. -/
theorem hostOps9_fresh : (hostOps9 : List (HloOp τ sig (Elt F))).Forall fun op => op.fresh = ∅ := by
  simp only [List.Forall]; repeat' constructor
/-- The references the operations of `hostOps9` write. -/
abbrev hostOps9_W : List (Ref sig .tc) := [main_v388, main_cst_52, main_v389, main_v390, main_v391, main_v392, main_v393, main_v394, main_v395, main_v396, main_v397, main_v398, main_v399, main_v400, main_c_53]
theorem hostOps9_writes : (hostOps9 : List (HloOp τ sig (Elt F))).Forall fun op => op.writes ⊆ (hostOps9_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps9_1` allocates a buffer. -/
theorem hostOps9_1_fresh : (hostOps9_1 : List (HloOp τ sig (Elt F))).Forall fun op => op.fresh = ∅ := by
  simp only [List.Forall]; repeat' constructor
/-- The references the operations of `hostOps9_1` write. -/
abbrev hostOps9_1_W : List (Ref sig .tc) := [main_call33_v0, main_v401]
theorem hostOps9_1_writes : (hostOps9_1 : List (HloOp τ sig (Elt F))).Forall fun op => op.writes ⊆ (hostOps9_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps9_2` allocates a buffer. -/
theorem hostOps9_2_fresh : (hostOps9_2 : List (HloOp τ sig (Elt F))).Forall fun op => op.fresh = ∅ := by
  simp only [List.Forall]; repeat' constructor
/-- The references the operations of `hostOps9_2` write. -/
abbrev hostOps9_2_W : List (Ref sig .tc) := [main_c_54]
theorem hostOps9_2_writes : (hostOps9_2 : List (HloOp τ sig (Elt F))).Forall fun op => op.writes ⊆ (hostOps9_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps9_3` allocates a buffer. -/
theorem hostOps9_3_fresh : (hostOps9_3 : List (HloOp τ sig (Elt F))).Forall fun op => op.fresh = ∅ := by
  simp only [List.Forall]; repeat' constructor
/-- The references the operations of `hostOps9_3` write. -/
abbrev hostOps9_3_W : List (Ref sig .tc) := [main_call34_v0, main_v402]
theorem hostOps9_3_writes : (hostOps9_3 : List (HloOp τ sig (Elt F))).Forall fun op => op.writes ⊆ (hostOps9_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10` allocates a buffer. -/
theorem hostOps10_fresh : (hostOps10 : List (HloOp τ sig (Elt F))).Forall fun op => op.fresh = ∅ := by
  simp only [List.Forall]; repeat' constructor
/-- The references the operations of `hostOps10` write. -/
abbrev hostOps10_W : List (Ref sig .tc) := [main_v404, main_cst_55, main_v405, main_v406, main_cst_56, main_v407, main_v408, main_cst_57, main_v409, main_v410, main_cst_58, main_v411, main_v412, main_v413, main_v414, main_v415, main_v416, main_v417]
theorem hostOps10_writes : (hostOps10 : List (HloOp τ sig (Elt F))).Forall fun op => op.writes ⊆ (hostOps10_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_1` allocates a buffer. -/
theorem hostOps10_1_fresh : (hostOps10_1 : List (HloOp τ sig (Elt F))).Forall fun op => op.fresh = ∅ := by
  simp only [List.Forall]; repeat' constructor
/-- The references the operations of `hostOps10_1` write. -/
abbrev hostOps10_1_W : List (Ref sig .tc) := [main_call35_cst, main_call35_v0, main_v418]
theorem hostOps10_1_writes : (hostOps10_1 : List (HloOp τ sig (Elt F))).Forall fun op => op.writes ⊆ (hostOps10_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_2` allocates a buffer. -/
theorem hostOps10_2_fresh : (hostOps10_2 : List (HloOp τ sig (Elt F))).Forall fun op => op.fresh = ∅ := by
  simp only [List.Forall]; repeat' constructor
/-- The references the operations of `hostOps10_2` write. -/
abbrev hostOps10_2_W : List (Ref sig .tc) := [main_v419, main_v420, main_v421, main_v422]
theorem hostOps10_2_writes : (hostOps10_2 : List (HloOp τ sig (Elt F))).Forall fun op => op.writes ⊆ (hostOps10_2_W.map (Proc.devRef (τ := τ) .tc)).toFinset := by
  simp only [List.Forall]
  refine ⟨?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_3` allocates a buffer. -/
theorem hostOps10_3_fresh : (hostOps10_3 : List (HloOp τ sig (Elt F))).Forall fun op => op.fresh = ∅ := by
  simp only [List.Forall]; repeat' constructor
/-- The references the operations of `hostOps10_3` write. -/
abbrev hostOps10_3_W : List (Ref sig .tc) := [main_call36_c, main_call36_v0, main_call36_v1, main_call36_c_0, main_call36_v2, main_call36_v3, main_call36_v4, main_call36_v5, main_call36_c_1, main_call36_c_2, main_call36_v6, main_call36_v7, main_call36_v8, main_call36_v9, main_call36_v10, main_call36_v11, main_call36_c_3, main_call36_v12, main_call36_v13, main_call36_v14, main_call36_cst, main_call36_v15, main_v423]
theorem hostOps10_3_writes : (hostOps10_3 : List (HloOp τ sig (Elt F))).Forall fun op => op.writes ⊆ (hostOps10_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_4` allocates a buffer. -/
theorem hostOps10_4_fresh : (hostOps10_4 : List (HloOp τ sig (Elt F))).Forall fun op => op.fresh = ∅ := by
  simp only [List.Forall]; repeat' constructor
/-- The references the operations of `hostOps10_4` write. -/
abbrev hostOps10_4_W : List (Ref sig .tc) := [main_v424]
theorem hostOps10_4_writes : (hostOps10_4 : List (HloOp τ sig (Elt F))).Forall fun op => op.writes ⊆ (hostOps10_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_5` allocates a buffer. -/
theorem hostOps10_5_fresh : (hostOps10_5 : List (HloOp τ sig (Elt F))).Forall fun op => op.fresh = ∅ := by
  simp only [List.Forall]; repeat' constructor
/-- The references the operations of `hostOps10_5` write. -/
abbrev hostOps10_5_W : List (Ref sig .tc) := [main_call37_c, main_call37_v0, main_call37_v1, main_call37_c_0, main_call37_v2, main_call37_v3, main_call37_v4, main_call37_v5, main_call37_c_1, main_call37_c_2, main_call37_v6, main_call37_v7, main_call37_v8, main_call37_v9, main_call37_v10, main_call37_v11, main_call37_c_3, main_call37_v12, main_call37_v13, main_call37_v14, main_call37_cst, main_call37_v15, main_v425]
theorem hostOps10_5_writes : (hostOps10_5 : List (HloOp τ sig (Elt F))).Forall fun op => op.writes ⊆ (hostOps10_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_6` allocates a buffer. -/
theorem hostOps10_6_fresh : (hostOps10_6 : List (HloOp τ sig (Elt F))).Forall fun op => op.fresh = ∅ := by
  simp only [List.Forall]; repeat' constructor
/-- The references the operations of `hostOps10_6` write. -/
abbrev hostOps10_6_W : List (Ref sig .tc) := [main_v426, main_v427, main_v428, main_v429, main_v430, main_v431, main_v432, main_v433, main_v434, main_v435, main_c_59]
theorem hostOps10_6_writes : (hostOps10_6 : List (HloOp τ sig (Elt F))).Forall fun op => op.writes ⊆ (hostOps10_6_W.map (Proc.devRef (τ := τ) .tc)).toFinset := by
  simp only [List.Forall]
  refine ⟨?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_7` allocates a buffer. -/
theorem hostOps10_7_fresh : (hostOps10_7 : List (HloOp τ sig (Elt F))).Forall fun op => op.fresh = ∅ := by
  simp only [List.Forall]; repeat' constructor
/-- The references the operations of `hostOps10_7` write. -/
abbrev hostOps10_7_W : List (Ref sig .tc) := [main_call38_v0, main_v436]
theorem hostOps10_7_writes : (hostOps10_7 : List (HloOp τ sig (Elt F))).Forall fun op => op.writes ⊆ (hostOps10_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_8` allocates a buffer. -/
theorem hostOps10_8_fresh : (hostOps10_8 : List (HloOp τ sig (Elt F))).Forall fun op => op.fresh = ∅ := by
  simp only [List.Forall]; repeat' constructor
/-- The references the operations of `hostOps10_8` write. -/
abbrev hostOps10_8_W : List (Ref sig .tc) := [main_c_60]
theorem hostOps10_8_writes : (hostOps10_8 : List (HloOp τ sig (Elt F))).Forall fun op => op.writes ⊆ (hostOps10_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_9` allocates a buffer. -/
theorem hostOps10_9_fresh : (hostOps10_9 : List (HloOp τ sig (Elt F))).Forall fun op => op.fresh = ∅ := by
  simp only [List.Forall]; repeat' constructor
/-- The references the operations of `hostOps10_9` write. -/
abbrev hostOps10_9_W : List (Ref sig .tc) := [main_call39_v0, main_v437]
theorem hostOps10_9_writes : (hostOps10_9 : List (HloOp τ sig (Elt F))).Forall fun op => op.writes ⊆ (hostOps10_9_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_10` allocates a buffer. -/
theorem hostOps10_10_fresh : (hostOps10_10 : List (HloOp τ sig (Elt F))).Forall fun op => op.fresh = ∅ := by
  simp only [List.Forall]; repeat' constructor
/-- The references the operations of `hostOps10_10` write. -/
abbrev hostOps10_10_W : List (Ref sig .tc) := [main_c_61]
theorem hostOps10_10_writes : (hostOps10_10 : List (HloOp τ sig (Elt F))).Forall fun op => op.writes ⊆ (hostOps10_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_11` allocates a buffer. -/
theorem hostOps10_11_fresh : (hostOps10_11 : List (HloOp τ sig (Elt F))).Forall fun op => op.fresh = ∅ := by
  simp only [List.Forall]; repeat' constructor
/-- The references the operations of `hostOps10_11` write. -/
abbrev hostOps10_11_W : List (Ref sig .tc) := [main_call40_v0, main_v438]
theorem hostOps10_11_writes : (hostOps10_11 : List (HloOp τ sig (Elt F))).Forall fun op => op.writes ⊆ (hostOps10_11_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps11` allocates a buffer. -/
theorem hostOps11_fresh : (hostOps11 : List (HloOp τ sig (Elt F))).Forall fun op => op.fresh = ∅ := by
  simp only [List.Forall]; repeat' constructor
/-- The references the operations of `hostOps11` write. -/
abbrev hostOps11_W : List (Ref sig .tc) := [main_v440, main_cst_62, main_v441, main_v442, main_v443, main_v444, main_v445, main_v446, main_v447, main_v448, main_v449, main_v450, main_v451, main_v452, main_c_63]
theorem hostOps11_writes : (hostOps11 : List (HloOp τ sig (Elt F))).Forall fun op => op.writes ⊆ (hostOps11_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps11_1` allocates a buffer. -/
theorem hostOps11_1_fresh : (hostOps11_1 : List (HloOp τ sig (Elt F))).Forall fun op => op.fresh = ∅ := by
  simp only [List.Forall]; repeat' constructor
/-- The references the operations of `hostOps11_1` write. -/
abbrev hostOps11_1_W : List (Ref sig .tc) := [main_call41_v0, main_v453]
theorem hostOps11_1_writes : (hostOps11_1 : List (HloOp τ sig (Elt F))).Forall fun op => op.writes ⊆ (hostOps11_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps11_2` allocates a buffer. -/
theorem hostOps11_2_fresh : (hostOps11_2 : List (HloOp τ sig (Elt F))).Forall fun op => op.fresh = ∅ := by
  simp only [List.Forall]; repeat' constructor
/-- The references the operations of `hostOps11_2` write. -/
abbrev hostOps11_2_W : List (Ref sig .tc) := [main_c_64]
theorem hostOps11_2_writes : (hostOps11_2 : List (HloOp τ sig (Elt F))).Forall fun op => op.writes ⊆ (hostOps11_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps11_3` allocates a buffer. -/
theorem hostOps11_3_fresh : (hostOps11_3 : List (HloOp τ sig (Elt F))).Forall fun op => op.fresh = ∅ := by
  simp only [List.Forall]; repeat' constructor
/-- The references the operations of `hostOps11_3` write. -/
abbrev hostOps11_3_W : List (Ref sig .tc) := [main_call42_v0, main_v454]
theorem hostOps11_3_writes : (hostOps11_3 : List (HloOp τ sig (Elt F))).Forall fun op => op.writes ⊆ (hostOps11_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12` allocates a buffer. -/
theorem hostOps12_fresh : (hostOps12 : List (HloOp τ sig (Elt F))).Forall fun op => op.fresh = ∅ := by
  simp only [List.Forall]; repeat' constructor
/-- The references the operations of `hostOps12` write. -/
abbrev hostOps12_W : List (Ref sig .tc) := [main_v456, main_cst_65, main_v457, main_v458, main_cst_66, main_v459, main_v460, main_cst_67, main_v461, main_v462, main_cst_68, main_v463, main_v464, main_v465, main_v466, main_v467, main_v468, main_v469]
theorem hostOps12_writes : (hostOps12 : List (HloOp τ sig (Elt F))).Forall fun op => op.writes ⊆ (hostOps12_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_1` allocates a buffer. -/
theorem hostOps12_1_fresh : (hostOps12_1 : List (HloOp τ sig (Elt F))).Forall fun op => op.fresh = ∅ := by
  simp only [List.Forall]; repeat' constructor
/-- The references the operations of `hostOps12_1` write. -/
abbrev hostOps12_1_W : List (Ref sig .tc) := [main_call43_cst, main_call43_v0, main_v470]
theorem hostOps12_1_writes : (hostOps12_1 : List (HloOp τ sig (Elt F))).Forall fun op => op.writes ⊆ (hostOps12_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_2` allocates a buffer. -/
theorem hostOps12_2_fresh : (hostOps12_2 : List (HloOp τ sig (Elt F))).Forall fun op => op.fresh = ∅ := by
  simp only [List.Forall]; repeat' constructor
/-- The references the operations of `hostOps12_2` write. -/
abbrev hostOps12_2_W : List (Ref sig .tc) := [main_v471, main_v472, main_v473, main_v474, main_v475, main_v476]
theorem hostOps12_2_writes : (hostOps12_2 : List (HloOp τ sig (Elt F))).Forall fun op => op.writes ⊆ (hostOps12_2_W.map (Proc.devRef (τ := τ) .tc)).toFinset := by
  simp only [List.Forall]
  refine ⟨?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_3` allocates a buffer. -/
theorem hostOps12_3_fresh : (hostOps12_3 : List (HloOp τ sig (Elt F))).Forall fun op => op.fresh = ∅ := by
  simp only [List.Forall]; repeat' constructor
/-- The references the operations of `hostOps12_3` write. -/
abbrev hostOps12_3_W : List (Ref sig .tc) := [main_v477]
theorem hostOps12_3_writes : (hostOps12_3 : List (HloOp τ sig (Elt F))).Forall fun op => op.writes ⊆ (hostOps12_3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_4` allocates a buffer. -/
theorem hostOps12_4_fresh : (hostOps12_4 : List (HloOp τ sig (Elt F))).Forall fun op => op.fresh = ∅ := by
  simp only [List.Forall]; repeat' constructor
/-- The references the operations of `hostOps12_4` write. -/
abbrev hostOps12_4_W : List (Ref sig .tc) := [main_v478, main_v479, main_v480, main_v481]
theorem hostOps12_4_writes : (hostOps12_4 : List (HloOp τ sig (Elt F))).Forall fun op => op.writes ⊆ (hostOps12_4_W.map (Proc.devRef (τ := τ) .tc)).toFinset := by
  simp only [List.Forall]
  refine ⟨?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_5` allocates a buffer. -/
theorem hostOps12_5_fresh : (hostOps12_5 : List (HloOp τ sig (Elt F))).Forall fun op => op.fresh = ∅ := by
  simp only [List.Forall]; repeat' constructor
/-- The references the operations of `hostOps12_5` write. -/
abbrev hostOps12_5_W : List (Ref sig .tc) := [main_v482]
theorem hostOps12_5_writes : (hostOps12_5 : List (HloOp τ sig (Elt F))).Forall fun op => op.writes ⊆ (hostOps12_5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_6` allocates a buffer. -/
theorem hostOps12_6_fresh : (hostOps12_6 : List (HloOp τ sig (Elt F))).Forall fun op => op.fresh = ∅ := by
  simp only [List.Forall]; repeat' constructor
/-- The references the operations of `hostOps12_6` write. -/
abbrev hostOps12_6_W : List (Ref sig .tc) := [main_v483]
theorem hostOps12_6_writes : (hostOps12_6 : List (HloOp τ sig (Elt F))).Forall fun op => op.writes ⊆ (hostOps12_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.KernelIdeal.Gen

end
-- ==== Proof.KI.Segs.lean ====
import proofs.«426760_j80470507258346_3_alg».proof.Proof.KI.RegSeg0
import proofs.«426760_j80470507258346_3_alg».proof.Proof.KI.RegSeg1
import proofs.«426760_j80470507258346_3_alg».proof.Proof.KI.RegSeg2
import proofs.«426760_j80470507258346_3_alg».proof.Proof.KI.RegSeg3
import proofs.«426760_j80470507258346_3_alg».proof.Proof.KI.RegSeg4
import proofs.«426760_j80470507258346_3_alg».proof.Proof.KI.RegSeg5
import proofs.«426760_j80470507258346_3_alg».proof.Proof.KI.RegSeg6
import proofs.«426760_j80470507258346_3_alg».proof.Proof.KI.RegSeg7
import proofs.«426760_j80470507258346_3_alg».proof.Proof.KI.RegSeg8
import proofs.«426760_j80470507258346_3_alg».proof.Proof.KI.RegSeg9
import proofs.«426760_j80470507258346_3_alg».proof.Proof.KI.RegSeg10
import proofs.«426760_j80470507258346_3_alg».proof.Proof.KI.RegSeg11
import proofs.«426760_j80470507258346_3_alg».proof.Proof.KI.Writes

/-! @main as the list of its segments, and that it IS their run. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The items of @main in order: a host segment per host item from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .region (reg0 m ρ),
    .host (hseg hostOps1 hostOps1_sub hostOps1_fresh (W11 m ρ)),
    .host (hseg hostOps1_1 hostOps1_1_sub hostOps1_1_fresh (W12 m ρ)),
    .host (hseg hostOps1_2 hostOps1_2_sub hostOps1_2_fresh (W13 m ρ)),
    .host (hseg hostOps1_3 hostOps1_3_sub hostOps1_3_fresh (W14 m ρ)),
    .region (reg1 m ρ),
    .host (hseg hostOps2 hostOps2_sub hostOps2_fresh (W16 m ρ)),
    .host (hseg hostOps2_1 hostOps2_1_sub hostOps2_1_fresh (W17 m ρ)),
    .host (hseg hostOps2_2 hostOps2_2_sub hostOps2_2_fresh (W18 m ρ)),
    .host (hseg hostOps2_3 hostOps2_3_sub hostOps2_3_fresh (W19 m ρ)),
    .host (hseg hostOps2_4 hostOps2_4_sub hostOps2_4_fresh (W20 m ρ)),
    .host (hseg hostOps2_5 hostOps2_5_sub hostOps2_5_fresh (W21 m ρ)),
    .host (hseg hostOps2_6 hostOps2_6_sub hostOps2_6_fresh (W22 m ρ)),
    .host (hseg hostOps2_7 hostOps2_7_sub hostOps2_7_fresh (W23 m ρ)),
    .host (hseg hostOps2_8 hostOps2_8_sub hostOps2_8_fresh (W24 m ρ)),
    .host (hseg hostOps2_9 hostOps2_9_sub hostOps2_9_fresh (W25 m ρ)),
    .host (hseg hostOps2_10 hostOps2_10_sub hostOps2_10_fresh (W26 m ρ)),
    .host (hseg hostOps2_11 hostOps2_11_sub hostOps2_11_fresh (W27 m ρ)),
    .region (reg2 m ρ),
    .host (hseg hostOps3 hostOps3_sub hostOps3_fresh (W29 m ρ)),
    .host (hseg hostOps3_1 hostOps3_1_sub hostOps3_1_fresh (W30 m ρ)),
    .host (hseg hostOps3_2 hostOps3_2_sub hostOps3_2_fresh (W31 m ρ)),
    .host (hseg hostOps3_3 hostOps3_3_sub hostOps3_3_fresh (W32 m ρ)),
    .region (reg3 m ρ),
    .host (hseg hostOps4 hostOps4_sub hostOps4_fresh (W34 m ρ)),
    .host (hseg hostOps4_1 hostOps4_1_sub hostOps4_1_fresh (W35 m ρ)),
    .host (hseg hostOps4_2 hostOps4_2_sub hostOps4_2_fresh (W36 m ρ)),
    .host (hseg hostOps4_3 hostOps4_3_sub hostOps4_3_fresh (W37 m ρ)),
    .host (hseg hostOps4_4 hostOps4_4_sub hostOps4_4_fresh (W38 m ρ)),
    .host (hseg hostOps4_5 hostOps4_5_sub hostOps4_5_fresh (W39 m ρ)),
    .host (hseg hostOps4_6 hostOps4_6_sub hostOps4_6_fresh (W40 m ρ)),
    .host (hseg hostOps4_7 hostOps4_7_sub hostOps4_7_fresh (W41 m ρ)),
    .region (reg4 m ρ),
    .host (hseg hostOps5 hostOps5_sub hostOps5_fresh (W43 m ρ)),
    .host (hseg hostOps5_1 hostOps5_1_sub hostOps5_1_fresh (W44 m ρ)),
    .host (hseg hostOps5_2 hostOps5_2_sub hostOps5_2_fresh (W45 m ρ)),
    .host (hseg hostOps5_3 hostOps5_3_sub hostOps5_3_fresh (W46 m ρ)),
    .region (reg5 m ρ),
    .host (hseg hostOps6 hostOps6_sub hostOps6_fresh (W48 m ρ)),
    .host (hseg hostOps6_1 hostOps6_1_sub hostOps6_1_fresh (W49 m ρ)),
    .host (hseg hostOps6_2 hostOps6_2_sub hostOps6_2_fresh (W50 m ρ)),
    .host (hseg hostOps6_3 hostOps6_3_sub hostOps6_3_fresh (W51 m ρ)),
    .host (hseg hostOps6_4 hostOps6_4_sub hostOps6_4_fresh (W52 m ρ)),
    .host (hseg hostOps6_5 hostOps6_5_sub hostOps6_5_fresh (W53 m ρ)),
    .host (hseg hostOps6_6 hostOps6_6_sub hostOps6_6_fresh (W54 m ρ)),
    .host (hseg hostOps6_7 hostOps6_7_sub hostOps6_7_fresh (W55 m ρ)),
    .host (hseg hostOps6_8 hostOps6_8_sub hostOps6_8_fresh (W56 m ρ)),
    .host (hseg hostOps6_9 hostOps6_9_sub hostOps6_9_fresh (W57 m ρ)),
    .host (hseg hostOps6_10 hostOps6_10_sub hostOps6_10_fresh (W58 m ρ)),
    .host (hseg hostOps6_11 hostOps6_11_sub hostOps6_11_fresh (W59 m ρ)),
    .region (reg6 m ρ),
    .host (hseg hostOps7 hostOps7_sub hostOps7_fresh (W61 m ρ)),
    .host (hseg hostOps7_1 hostOps7_1_sub hostOps7_1_fresh (W62 m ρ)),
    .host (hseg hostOps7_2 hostOps7_2_sub hostOps7_2_fresh (W63 m ρ)),
    .host (hseg hostOps7_3 hostOps7_3_sub hostOps7_3_fresh (W64 m ρ)),
    .region (reg7 m ρ),
    .host (hseg hostOps8 hostOps8_sub hostOps8_fresh (W66 m ρ)),
    .host (hseg hostOps8_1 hostOps8_1_sub hostOps8_1_fresh (W67 m ρ)),
    .host (hseg hostOps8_2 hostOps8_2_sub hostOps8_2_fresh (W68 m ρ)),
    .host (hseg hostOps8_3 hostOps8_3_sub hostOps8_3_fresh (W69 m ρ)),
    .host (hseg hostOps8_4 hostOps8_4_sub hostOps8_4_fresh (W70 m ρ)),
    .host (hseg hostOps8_5 hostOps8_5_sub hostOps8_5_fresh (W71 m ρ)),
    .host (hseg hostOps8_6 hostOps8_6_sub hostOps8_6_fresh (W72 m ρ)),
    .host (hseg hostOps8_7 hostOps8_7_sub hostOps8_7_fresh (W73 m ρ)),
    .region (reg8 m ρ),
    .host (hseg hostOps9 hostOps9_sub hostOps9_fresh (W75 m ρ)),
    .host (hseg hostOps9_1 hostOps9_1_sub hostOps9_1_fresh (W76 m ρ)),
    .host (hseg hostOps9_2 hostOps9_2_sub hostOps9_2_fresh (W77 m ρ)),
    .host (hseg hostOps9_3 hostOps9_3_sub hostOps9_3_fresh (W78 m ρ)),
    .region (reg9 m ρ),
    .host (hseg hostOps10 hostOps10_sub hostOps10_fresh (W80 m ρ)),
    .host (hseg hostOps10_1 hostOps10_1_sub hostOps10_1_fresh (W81 m ρ)),
    .host (hseg hostOps10_2 hostOps10_2_sub hostOps10_2_fresh (W82 m ρ)),
    .host (hseg hostOps10_3 hostOps10_3_sub hostOps10_3_fresh (W83 m ρ)),
    .host (hseg hostOps10_4 hostOps10_4_sub hostOps10_4_fresh (W84 m ρ)),
    .host (hseg hostOps10_5 hostOps10_5_sub hostOps10_5_fresh (W85 m ρ)),
    .host (hseg hostOps10_6 hostOps10_6_sub hostOps10_6_fresh (W86 m ρ)),
    .host (hseg hostOps10_7 hostOps10_7_sub hostOps10_7_fresh (W87 m ρ)),
    .host (hseg hostOps10_8 hostOps10_8_sub hostOps10_8_fresh (W88 m ρ)),
    .host (hseg hostOps10_9 hostOps10_9_sub hostOps10_9_fresh (W89 m ρ)),
    .host (hseg hostOps10_10 hostOps10_10_sub hostOps10_10_fresh (W90 m ρ)),
    .host (hseg hostOps10_11 hostOps10_11_sub hostOps10_11_fresh (W91 m ρ)),
    .region (reg10 m ρ),
    .host (hseg hostOps11 hostOps11_sub hostOps11_fresh (W93 m ρ)),
    .host (hseg hostOps11_1 hostOps11_1_sub hostOps11_1_fresh (W94 m ρ)),
    .host (hseg hostOps11_2 hostOps11_2_sub hostOps11_2_fresh (W95 m ρ)),
    .host (hseg hostOps11_3 hostOps11_3_sub hostOps11_3_fresh (W96 m ρ)),
    .region (reg11 m ρ),
    .host (hseg hostOps12 hostOps12_sub hostOps12_fresh (W98 m ρ)),
    .host (hseg hostOps12_1 hostOps12_1_sub hostOps12_1_fresh (W99 m ρ)),
    .host (hseg hostOps12_2 hostOps12_2_sub hostOps12_2_fresh (W100 m ρ)),
    .host (hseg hostOps12_3 hostOps12_3_sub hostOps12_3_fresh (W101 m ρ)),
    .host (hseg hostOps12_4 hostOps12_4_sub hostOps12_4_fresh (W102 m ρ)),
    .host (hseg hostOps12_5 hostOps12_5_sub hostOps12_5_fresh (W103 m ρ)),
    .host (hseg hostOps12_6 hostOps12_6_sub hostOps12_6_fresh (W104 m ρ)) ]
/-- @main is the run of the segments: the chain of its items, then the segments' run against that chain. -/
theorem main_run (c : Dev nD) : main (F := F) c = Pipeline.Seg.run (segs m ρ) := (main_chain c).trans (by chain_rfl)

end Cert.KernelIdeal.Gen

end
-- ==== Proof.KI.Args.lean ====
import proofs.«426760_j80470507258346_3_alg».proof.Proof.KI.Fold
import proofs.«426760_j80470507258346_3_alg».proof.Proof.KI.Writes

/-! No item of @main writes an argument array: a host item writes the results of its operations, a kernel region
    its result array. So the fold of the buffer contents, read at an argument, walks back to the launch memory. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h
theorem W8_of (c : Dev nD) (r : Ref sig .tc) (h : r ∉ hostOps0_7_W) :
    W8 m ρ c (Proc.devRef .tc r) = W7 m ρ c (Proc.devRef .tc r) :=
  StableHlo.after_of_writes_sub hostOps0_7 _ hostOps0_7_writes h
theorem W9_of (c : Dev nD) (r : Ref sig .tc) (h : r ∉ hostOps0_8_W) :
    W9 m ρ c (Proc.devRef .tc r) = W8 m ρ c (Proc.devRef .tc r) :=
  StableHlo.after_of_writes_sub hostOps0_8 _ hostOps0_8_writes h
theorem W10_of (c : Dev nD) (r : Ref sig .tc) (h : r ∉ hostOps0_9_W) :
    W10 m ρ c (Proc.devRef .tc r) = W9 m ρ c (Proc.devRef .tc r) :=
  StableHlo.after_of_writes_sub hostOps0_9 _ hostOps0_9_writes h
/-- Every window of pipeline 0 but the last is an input. -/
theorem isIn0 : ∀ w : Fin cfg0.W, w ≠ (9 : Fin 10) → (cfg0.win w).isOut = false := by decide
/-- Region 0 changes its result array only: an input array ends as entered, a buffer it does not move too. -/
theorem W11_of (c : Dev nD) (r : Ref sig .tc) (h : r ∉ [Pipeline.arrRef spec0 (9 : Fin 10)]) :
    W11 m ρ c (Proc.devRef .tc r) = W10 m ρ c (Proc.devRef .tc r) := by
  by_cases hr : ∃ w, Pipeline.arrRef spec0 w = r
  · obtain ⟨w, rfl⟩ := hr
    have hw : w ≠ (9 : Fin 10) := fun e => h (by rw [e]; exact List.mem_singleton_self _)
    exact (W11_arr m ρ c w).trans (((dat0 (V10 m ρ) c).arrAt_in w (isIn0 w hw) _).trans (A_eq0 (V10 m ρ) c w))
  · exact W11_of_ne m ρ c r fun w e => hr ⟨w, e⟩
theorem W12_of (c : Dev nD) (r : Ref sig .tc) (h : r ∉ hostOps1_W) :
    W12 m ρ c (Proc.devRef .tc r) = W11 m ρ c (Proc.devRef .tc r) :=
  StableHlo.after_of_writes_sub hostOps1 _ hostOps1_writes h
theorem W13_of (c : Dev nD) (r : Ref sig .tc) (h : r ∉ hostOps1_1_W) :
    W13 m ρ c (Proc.devRef .tc r) = W12 m ρ c (Proc.devRef .tc r) :=
  StableHlo.after_of_writes_sub hostOps1_1 _ hostOps1_1_writes h
theorem W14_of (c : Dev nD) (r : Ref sig .tc) (h : r ∉ hostOps1_2_W) :
    W14 m ρ c (Proc.devRef .tc r) = W13 m ρ c (Proc.devRef .tc r) :=
  StableHlo.after_of_writes_sub hostOps1_2 _ hostOps1_2_writes h
theorem W15_of (c : Dev nD) (r : Ref sig .tc) (h : r ∉ hostOps1_3_W) :
    W15 m ρ c (Proc.devRef .tc r) = W14 m ρ c (Proc.devRef .tc r) :=
  StableHlo.after_of_writes_sub hostOps1_3 _ hostOps1_3_writes h
/-- Every window of pipeline 1 but the last is an input. -/
theorem isIn1 : ∀ w : Fin cfg1.W, w ≠ (7 : Fin 8) → (cfg1.win w).isOut = false := by decide
/-- Region 1 changes its result array only: an input array ends as entered, a buffer it does not move too. -/
theorem W16_of (c : Dev nD) (r : Ref sig .tc) (h : r ∉ [Pipeline.arrRef spec1 (7 : Fin 8)]) :
    W16 m ρ c (Proc.devRef .tc r) = W15 m ρ c (Proc.devRef .tc r) := by
  by_cases hr : ∃ w, Pipeline.arrRef spec1 w = r
  · obtain ⟨w, rfl⟩ := hr
    have hw : w ≠ (7 : Fin 8) := fun e => h (by rw [e]; exact List.mem_singleton_self _)
    exact (W16_arr m ρ c w).trans (((dat1 (V15 m ρ) c).arrAt_in w (isIn1 w hw) _).trans (A_eq1 (V15 m ρ) c w))
  · exact W16_of_ne m ρ c r fun w e => hr ⟨w, e⟩
theorem W17_of (c : Dev nD) (r : Ref sig .tc) (h : r ∉ hostOps2_W) :
    W17 m ρ c (Proc.devRef .tc r) = W16 m ρ c (Proc.devRef .tc r) :=
  StableHlo.after_of_writes_sub hostOps2 _ hostOps2_writes h
theorem W18_of (c : Dev nD) (r : Ref sig .tc) (h : r ∉ hostOps2_1_W) :
    W18 m ρ c (Proc.devRef .tc r) = W17 m ρ c (Proc.devRef .tc r) :=
  StableHlo.after_of_writes_sub hostOps2_1 _ hostOps2_1_writes h
theorem W19_of (c : Dev nD) (r : Ref sig .tc) (h : r ∉ hostOps2_2_W) :
    W19 m ρ c (Proc.devRef .tc r) = W18 m ρ c (Proc.devRef .tc r) :=
  StableHlo.after_of_writes_sub hostOps2_2 _ hostOps2_2_writes h
theorem W20_of (c : Dev nD) (r : Ref sig .tc) (h : r ∉ hostOps2_3_W) :
    W20 m ρ c (Proc.devRef .tc r) = W19 m ρ c (Proc.devRef .tc r) :=
  StableHlo.after_of_writes_sub hostOps2_3 _ hostOps2_3_writes h
theorem W21_of (c : Dev nD) (r : Ref sig .tc) (h : r ∉ hostOps2_4_W) :
    W21 m ρ c (Proc.devRef .tc r) = W20 m ρ c (Proc.devRef .tc r) :=
  StableHlo.after_of_writes_sub hostOps2_4 _ hostOps2_4_writes h
theorem W22_of (c : Dev nD) (r : Ref sig .tc) (h : r ∉ hostOps2_5_W) :
    W22 m ρ c (Proc.devRef .tc r) = W21 m ρ c (Proc.devRef .tc r) :=
  StableHlo.after_of_writes_sub hostOps2_5 _ hostOps2_5_writes h
theorem W23_of (c : Dev nD) (r : Ref sig .tc) (h : r ∉ hostOps2_6_W) :
    W23 m ρ c (Proc.devRef .tc r) = W22 m ρ c (Proc.devRef .tc r) :=
  StableHlo.after_of_writes_sub hostOps2_6 _ hostOps2_6_writes h
theorem W24_of (c : Dev nD) (r : Ref sig .tc) (h : r ∉ hostOps2_7_W) :
    W24 m ρ c (Proc.devRef .tc r) = W23 m ρ c (Proc.devRef .tc r) :=
  StableHlo.after_of_writes_sub hostOps2_7 _ hostOps2_7_writes h
theorem W25_of (c : Dev nD) (r : Ref sig .tc) (h : r ∉ hostOps2_8_W) :
    W25 m ρ c (Proc.devRef .tc r) = W24 m ρ c (Proc.devRef .tc r) :=
  StableHlo.after_of_writes_sub hostOps2_8 _ hostOps2_8_writes h
theorem W26_of (c : Dev nD) (r : Ref sig .tc) (h : r ∉ hostOps2_9_W) :
    W26 m ρ c (Proc.devRef .tc r) = W25 m ρ c (Proc.devRef .tc r) :=
  StableHlo.after_of_writes_sub hostOps2_9 _ hostOps2_9_writes h
theorem W27_of (c : Dev nD) (r : Ref sig .tc) (h : r ∉ hostOps2_10_W) :
    W27 m ρ c (Proc.devRef .tc r) = W26 m ρ c (Proc.devRef .tc r) :=
  StableHlo.after_of_writes_sub hostOps2_10 _ hostOps2_10_writes h
theorem W28_of (c : Dev nD) (r : Ref sig .tc) (h : r ∉ hostOps2_11_W) :
    W28 m ρ c (Proc.devRef .tc r) = W27 m ρ c (Proc.devRef .tc r) :=
  StableHlo.after_of_writes_sub hostOps2_11 _ hostOps2_11_writes h
/-- Every window of pipeline 2 but the last is an input. -/
theorem isIn2 : ∀ w : Fin cfg2.W, w ≠ (9 : Fin 10) → (cfg2.win w).isOut = false := by decide
/-- Region 2 changes its result array only: an input array ends as entered, a buffer it does not move too. -/
theorem W29_of (c : Dev nD) (r : Ref sig .tc) (h : r ∉ [Pipeline.arrRef spec2 (9 : Fin 10)]) :
    W29 m ρ c (Proc.devRef .tc r) = W28 m ρ c (Proc.devRef .tc r) := by
  by_cases hr : ∃ w, Pipeline.arrRef spec2 w = r
  · obtain ⟨w, rfl⟩ := hr
    have hw : w ≠ (9 : Fin 10) := fun e => h (by rw [e]; exact List.mem_singleton_self _)
    exact (W29_arr m ρ c w).trans (((dat2 (V28 m ρ) c).arrAt_in w (isIn2 w hw) _).trans (A_eq2 (V28 m ρ) c w))
  · exact W29_of_ne m ρ c r fun w e => hr ⟨w, e⟩
theorem W30_of (c : Dev nD) (r : Ref sig .tc) (h : r ∉ hostOps3_W) :
    W30 m ρ c (Proc.devRef .tc r) = W29 m ρ c (Proc.devRef .tc r) :=
  StableHlo.after_of_writes_sub hostOps3 _ hostOps3_writes h
theorem W31_of (c : Dev nD) (r : Ref sig .tc) (h : r ∉ hostOps3_1_W) :
    W31 m ρ c (Proc.devRef .tc r) = W30 m ρ c (Proc.devRef .tc r) :=
  StableHlo.after_of_writes_sub hostOps3_1 _ hostOps3_1_writes h
theorem W32_of (c : Dev nD) (r : Ref sig .tc) (h : r ∉ hostOps3_2_W) :
    W32 m ρ c (Proc.devRef .tc r) = W31 m ρ c (Proc.devRef .tc r) :=
  StableHlo.after_of_writes_sub hostOps3_2 _ hostOps3_2_writes h
theorem W33_of (c : Dev nD) (r : Ref sig .tc) (h : r ∉ hostOps3_3_W) :
    W33 m ρ c (Proc.devRef .tc r) = W32 m ρ c (Proc.devRef .tc r) :=
  StableHlo.after_of_writes_sub hostOps3_3 _ hostOps3_3_writes h
/-- Every window of pipeline 3 but the last is an input. -/
theorem isIn3 : ∀ w : Fin cfg3.W, w ≠ (7 : Fin 8) → (cfg3.win w).isOut = false := by decide
/-- Region 3 changes its result array only: an input array ends as entered, a buffer it does not move too. -/
theorem W34_of (c : Dev nD) (r : Ref sig .tc) (h : r ∉ [Pipeline.arrRef spec3 (7 : Fin 8)]) :
    W34 m ρ c (Proc.devRef .tc r) = W33 m ρ c (Proc.devRef .tc r) := by
  by_cases hr : ∃ w, Pipeline.arrRef spec3 w = r
  · obtain ⟨w, rfl⟩ := hr
    have hw : w ≠ (7 : Fin 8) := fun e => h (by rw [e]; exact List.mem_singleton_self _)
    exact (W34_arr m ρ c w).trans (((dat3 (V33 m ρ) c).arrAt_in w (isIn3 w hw) _).trans (A_eq3 (V33 m ρ) c w))
  · exact W34_of_ne m ρ c r fun w e => hr ⟨w, e⟩
theorem W35_of (c : Dev nD) (r : Ref sig .tc) (h : r ∉ hostOps4_W) :
    W35 m ρ c (Proc.devRef .tc r) = W34 m ρ c (Proc.devRef .tc r) :=
  StableHlo.after_of_writes_sub hostOps4 _ hostOps4_writes h
theorem W36_of (c : Dev nD) (r : Ref sig .tc) (h : r ∉ hostOps4_1_W) :
    W36 m ρ c (Proc.devRef .tc r) = W35 m ρ c (Proc.devRef .tc r) :=
  StableHlo.after_of_writes_sub hostOps4_1 _ hostOps4_1_writes h
theorem W37_of (c : Dev nD) (r : Ref sig .tc) (h : r ∉ hostOps4_2_W) :
    W37 m ρ c (Proc.devRef .tc r) = W36 m ρ c (Proc.devRef .tc r) :=
  StableHlo.after_of_writes_sub hostOps4_2 _ hostOps4_2_writes h
theorem W38_of (c : Dev nD) (r : Ref sig .tc) (h : r ∉ hostOps4_3_W) :
    W38 m ρ c (Proc.devRef .tc r) = W37 m ρ c (Proc.devRef .tc r) :=
  StableHlo.after_of_writes_sub hostOps4_3 _ hostOps4_3_writes h
theorem W39_of (c : Dev nD) (r : Ref sig .tc) (h : r ∉ hostOps4_4_W) :
    W39 m ρ c (Proc.devRef .tc r) = W38 m ρ c (Proc.devRef .tc r) :=
  StableHlo.after_of_writes_sub hostOps4_4 _ hostOps4_4_writes h
theorem W40_of (c : Dev nD) (r : Ref sig .tc) (h : r ∉ hostOps4_5_W) :
    W40 m ρ c (Proc.devRef .tc r) = W39 m ρ c (Proc.devRef .tc r) :=
  StableHlo.after_of_writes_sub hostOps4_5 _ hostOps4_5_writes h
theorem W41_of (c : Dev nD) (r : Ref sig .tc) (h : r ∉ hostOps4_6_W) :
    W41 m ρ c (Proc.devRef .tc r) = W40 m ρ c (Proc.devRef .tc r) :=
  StableHlo.after_of_writes_sub hostOps4_6 _ hostOps4_6_writes h
theorem W42_of (c : Dev nD) (r : Ref sig .tc) (h : r ∉ hostOps4_7_W) :
    W42 m ρ c (Proc.devRef .tc r) = W41 m ρ c (Proc.devRef .tc r) :=
  StableHlo.after_of_writes_sub hostOps4_7 _ hostOps4_7_writes h
/-- Every window of pipeline 4 but the last is an input. -/
theorem isIn4 : ∀ w : Fin cfg4.W, w ≠ (9 : Fin 10) → (cfg4.win w).isOut = false := by decide
/-- Region 4 changes its result array only: an input array ends as entered, a buffer it does not move too. -/
theorem W43_of (c : Dev nD) (r : Ref sig .tc) (h : r ∉ [Pipeline.arrRef spec4 (9 : Fin 10)]) :
    W43 m ρ c (Proc.devRef .tc r) = W42 m ρ c (Proc.devRef .tc r) := by
  by_cases hr : ∃ w, Pipeline.arrRef spec4 w = r
  · obtain ⟨w, rfl⟩ := hr
    have hw : w ≠ (9 : Fin 10) := fun e => h (by rw [e]; exact List.mem_singleton_self _)
    exact (W43_arr m ρ c w).trans (((dat4 (V42 m ρ) c).arrAt_in w (isIn4 w hw) _).trans (A_eq4 (V42 m ρ) c w))
  · exact W43_of_ne m ρ c r fun w e => hr ⟨w, e⟩
theorem W44_of (c : Dev nD) (r : Ref sig .tc) (h : r ∉ hostOps5_W) :
    W44 m ρ c (Proc.devRef .tc r) = W43 m ρ c (Proc.devRef .tc r) :=
  StableHlo.after_of_writes_sub hostOps5 _ hostOps5_writes h
theorem W45_of (c : Dev nD) (r : Ref sig .tc) (h : r ∉ hostOps5_1_W) :
    W45 m ρ c (Proc.devRef .tc r) = W44 m ρ c (Proc.devRef .tc r) :=
  StableHlo.after_of_writes_sub hostOps5_1 _ hostOps5_1_writes h
theorem W46_of (c : Dev nD) (r : Ref sig .tc) (h : r ∉ hostOps5_2_W) :
    W46 m ρ c (Proc.devRef .tc r) = W45 m ρ c (Proc.devRef .tc r) :=
  StableHlo.after_of_writes_sub hostOps5_2 _ hostOps5_2_writes h
theorem W47_of (c : Dev nD) (r : Ref sig .tc) (h : r ∉ hostOps5_3_W) :
    W47 m ρ c (Proc.devRef .tc r) = W46 m ρ c (Proc.devRef .tc r) :=
  StableHlo.after_of_writes_sub hostOps5_3 _ hostOps5_3_writes h
/-- Every window of pipeline 5 but the last is an input. -/
theorem isIn5 : ∀ w : Fin cfg5.W, w ≠ (7 : Fin 8) → (cfg5.win w).isOut = false := by decide
/-- Region 5 changes its result array only: an input array ends as entered, a buffer it does not move too. -/
theorem W48_of (c : Dev nD) (r : Ref sig .tc) (h : r ∉ [Pipeline.arrRef spec5 (7 : Fin 8)]) :
    W48 m ρ c (Proc.devRef .tc r) = W47 m ρ c (Proc.devRef .tc r) := by
  by_cases hr : ∃ w, Pipeline.arrRef spec5 w = r
  · obtain ⟨w, rfl⟩ := hr
    have hw : w ≠ (7 : Fin 8) := fun e => h (by rw [e]; exact List.mem_singleton_self _)
    exact (W48_arr m ρ c w).trans (((dat5 (V47 m ρ) c).arrAt_in w (isIn5 w hw) _).trans (A_eq5 (V47 m ρ) c w))
  · exact W48_of_ne m ρ c r fun w e => hr ⟨w, e⟩
theorem W49_of (c : Dev nD) (r : Ref sig .tc) (h : r ∉ hostOps6_W) :
    W49 m ρ c (Proc.devRef .tc r) = W48 m ρ c (Proc.devRef .tc r) :=
  StableHlo.after_of_writes_sub hostOps6 _ hostOps6_writes h
theorem W50_of (c : Dev nD) (r : Ref sig .tc) (h : r ∉ hostOps6_1_W) :
    W50 m ρ c (Proc.devRef .tc r) = W49 m ρ c (Proc.devRef .tc r) :=
  StableHlo.after_of_writes_sub hostOps6_1 _ hostOps6_1_writes h
theorem W51_of (c : Dev nD) (r : Ref sig .tc) (h : r ∉ hostOps6_2_W) :
    W51 m ρ c (Proc.devRef .tc r) = W50 m ρ c (Proc.devRef .tc r) :=
  StableHlo.after_of_writes_sub hostOps6_2 _ hostOps6_2_writes h
theorem W52_of (c : Dev nD) (r : Ref sig .tc) (h : r ∉ hostOps6_3_W) :
    W52 m ρ c (Proc.devRef .tc r) = W51 m ρ c (Proc.devRef .tc r) :=
  StableHlo.after_of_writes_sub hostOps6_3 _ hostOps6_3_writes h
theorem W53_of (c : Dev nD) (r : Ref sig .tc) (h : r ∉ hostOps6_4_W) :
    W53 m ρ c (Proc.devRef .tc r) = W52 m ρ c (Proc.devRef .tc r) :=
  StableHlo.after_of_writes_sub hostOps6_4 _ hostOps6_4_writes h
theorem W54_of (c : Dev nD) (r : Ref sig .tc) (h : r ∉ hostOps6_5_W) :
    W54 m ρ c (Proc.devRef .tc r) = W53 m ρ c (Proc.devRef .tc r) :=
  StableHlo.after_of_writes_sub hostOps6_5 _ hostOps6_5_writes h
theorem W55_of (c : Dev nD) (r : Ref sig .tc) (h : r ∉ hostOps6_6_W) :
    W55 m ρ c (Proc.devRef .tc r) = W54 m ρ c (Proc.devRef .tc r) :=
  StableHlo.after_of_writes_sub hostOps6_6 _ hostOps6_6_writes h
theorem W56_of (c : Dev nD) (r : Ref sig .tc) (h : r ∉ hostOps6_7_W) :
    W56 m ρ c (Proc.devRef .tc r) = W55 m ρ c (Proc.devRef .tc r) :=
  StableHlo.after_of_writes_sub hostOps6_7 _ hostOps6_7_writes h
theorem W57_of (c : Dev nD) (r : Ref sig .tc) (h : r ∉ hostOps6_8_W) :
    W57 m ρ c (Proc.devRef .tc r) = W56 m ρ c (Proc.devRef .tc r) :=
  StableHlo.after_of_writes_sub hostOps6_8 _ hostOps6_8_writes h
theorem W58_of (c : Dev nD) (r : Ref sig .tc) (h : r ∉ hostOps6_9_W) :
    W58 m ρ c (Proc.devRef .tc r) = W57 m ρ c (Proc.devRef .tc r) :=
  StableHlo.after_of_writes_sub hostOps6_9 _ hostOps6_9_writes h
theorem W59_of (c : Dev nD) (r : Ref sig .tc) (h : r ∉ hostOps6_10_W) :
    W59 m ρ c (Proc.devRef .tc r) = W58 m ρ c (Proc.devRef .tc r) :=
  StableHlo.after_of_writes_sub hostOps6_10 _ hostOps6_10_writes h
theorem W60_of (c : Dev nD) (r : Ref sig .tc) (h : r ∉ hostOps6_11_W) :
    W60 m ρ c (Proc.devRef .tc r) = W59 m ρ c (Proc.devRef .tc r) :=
  StableHlo.after_of_writes_sub hostOps6_11 _ hostOps6_11_writes h
/-- Every window of pipeline 6 but the last is an input. -/
theorem isIn6 : ∀ w : Fin cfg6.W, w ≠ (9 : Fin 10) → (cfg6.win w).isOut = false := by decide
/-- Region 6 changes its result array only: an input array ends as entered, a buffer it does not move too. -/
theorem W61_of (c : Dev nD) (r : Ref sig .tc) (h : r ∉ [Pipeline.arrRef spec6 (9 : Fin 10)]) :
    W61 m ρ c (Proc.devRef .tc r) = W60 m ρ c (Proc.devRef .tc r) := by
  by_cases hr : ∃ w, Pipeline.arrRef spec6 w = r
  · obtain ⟨w, rfl⟩ := hr
    have hw : w ≠ (9 : Fin 10) := fun e => h (by rw [e]; exact List.mem_singleton_self _)
    exact (W61_arr m ρ c w).trans (((dat6 (V60 m ρ) c).arrAt_in w (isIn6 w hw) _).trans (A_eq6 (V60 m ρ) c w))
  · exact W61_of_ne m ρ c r fun w e => hr ⟨w, e⟩
theorem W62_of (c : Dev nD) (r : Ref sig .tc) (h : r ∉ hostOps7_W) :
    W62 m ρ c (Proc.devRef .tc r) = W61 m ρ c (Proc.devRef .tc r) :=
  StableHlo.after_of_writes_sub hostOps7 _ hostOps7_writes h
theorem W63_of (c : Dev nD) (r : Ref sig .tc) (h : r ∉ hostOps7_1_W) :
    W63 m ρ c (Proc.devRef .tc r) = W62 m ρ c (Proc.devRef .tc r) :=
  StableHlo.after_of_writes_sub hostOps7_1 _ hostOps7_1_writes h
theorem W64_of (c : Dev nD) (r : Ref sig .tc) (h : r ∉ hostOps7_2_W) :
    W64 m ρ c (Proc.devRef .tc r) = W63 m ρ c (Proc.devRef .tc r) :=
  StableHlo.after_of_writes_sub hostOps7_2 _ hostOps7_2_writes h
theorem W65_of (c : Dev nD) (r : Ref sig .tc) (h : r ∉ hostOps7_3_W) :
    W65 m ρ c (Proc.devRef .tc r) = W64 m ρ c (Proc.devRef .tc r) :=
  StableHlo.after_of_writes_sub hostOps7_3 _ hostOps7_3_writes h
/-- Every window of pipeline 7 but the last is an input. -/
theorem isIn7 : ∀ w : Fin cfg7.W, w ≠ (7 : Fin 8) → (cfg7.win w).isOut = false := by decide
/-- Region 7 changes its result array only: an input array ends as entered, a buffer it does not move too. -/
theorem W66_of (c : Dev nD) (r : Ref sig .tc) (h : r ∉ [Pipeline.arrRef spec7 (7 : Fin 8)]) :
    W66 m ρ c (Proc.devRef .tc r) = W65 m ρ c (Proc.devRef .tc r) := by
  by_cases hr : ∃ w, Pipeline.arrRef spec7 w = r
  · obtain ⟨w, rfl⟩ := hr
    have hw : w ≠ (7 : Fin 8) := fun e => h (by rw [e]; exact List.mem_singleton_self _)
    exact (W66_arr m ρ c w).trans (((dat7 (V65 m ρ) c).arrAt_in w (isIn7 w hw) _).trans (A_eq7 (V65 m ρ) c w))
  · exact W66_of_ne m ρ c r fun w e => hr ⟨w, e⟩
theorem W67_of (c : Dev nD) (r : Ref sig .tc) (h : r ∉ hostOps8_W) :
    W67 m ρ c (Proc.devRef .tc r) = W66 m ρ c (Proc.devRef .tc r) :=
  StableHlo.after_of_writes_sub hostOps8 _ hostOps8_writes h
theorem W68_of (c : Dev nD) (r : Ref sig .tc) (h : r ∉ hostOps8_1_W) :
    W68 m ρ c (Proc.devRef .tc r) = W67 m ρ c (Proc.devRef .tc r) :=
  StableHlo.after_of_writes_sub hostOps8_1 _ hostOps8_1_writes h
theorem W69_of (c : Dev nD) (r : Ref sig .tc) (h : r ∉ hostOps8_2_W) :
    W69 m ρ c (Proc.devRef .tc r) = W68 m ρ c (Proc.devRef .tc r) :=
  StableHlo.after_of_writes_sub hostOps8_2 _ hostOps8_2_writes h
theorem W70_of (c : Dev nD) (r : Ref sig .tc) (h : r ∉ hostOps8_3_W) :
    W70 m ρ c (Proc.devRef .tc r) = W69 m ρ c (Proc.devRef .tc r) :=
  StableHlo.after_of_writes_sub hostOps8_3 _ hostOps8_3_writes h
theorem W71_of (c : Dev nD) (r : Ref sig .tc) (h : r ∉ hostOps8_4_W) :
    W71 m ρ c (Proc.devRef .tc r) = W70 m ρ c (Proc.devRef .tc r) :=
  StableHlo.after_of_writes_sub hostOps8_4 _ hostOps8_4_writes h
theorem W72_of (c : Dev nD) (r : Ref sig .tc) (h : r ∉ hostOps8_5_W) :
    W72 m ρ c (Proc.devRef .tc r) = W71 m ρ c (Proc.devRef .tc r) :=
  StableHlo.after_of_writes_sub hostOps8_5 _ hostOps8_5_writes h
theorem W73_of (c : Dev nD) (r : Ref sig .tc) (h : r ∉ hostOps8_6_W) :
    W73 m ρ c (Proc.devRef .tc r) = W72 m ρ c (Proc.devRef .tc r) :=
  StableHlo.after_of_writes_sub hostOps8_6 _ hostOps8_6_writes h
theorem W74_of (c : Dev nD) (r : Ref sig .tc) (h : r ∉ hostOps8_7_W) :
    W74 m ρ c (Proc.devRef .tc r) = W73 m ρ c (Proc.devRef .tc r) :=
  StableHlo.after_of_writes_sub hostOps8_7 _ hostOps8_7_writes h
/-- Every window of pipeline 8 but the last is an input. -/
theorem isIn8 : ∀ w : Fin cfg8.W, w ≠ (9 : Fin 10) → (cfg8.win w).isOut = false := by decide
/-- Region 8 changes its result array only: an input array ends as entered, a buffer it does not move too. -/
theorem W75_of (c : Dev nD) (r : Ref sig .tc) (h : r ∉ [Pipeline.arrRef spec8 (9 : Fin 10)]) :
    W75 m ρ c (Proc.devRef .tc r) = W74 m ρ c (Proc.devRef .tc r) := by
  by_cases hr : ∃ w, Pipeline.arrRef spec8 w = r
  · obtain ⟨w, rfl⟩ := hr
    have hw : w ≠ (9 : Fin 10) := fun e => h (by rw [e]; exact List.mem_singleton_self _)
    exact (W75_arr m ρ c w).trans (((dat8 (V74 m ρ) c).arrAt_in w (isIn8 w hw) _).trans (A_eq8 (V74 m ρ) c w))
  · exact W75_of_ne m ρ c r fun w e => hr ⟨w, e⟩
theorem W76_of (c : Dev nD) (r : Ref sig .tc) (h : r ∉ hostOps9_W) :
    W76 m ρ c (Proc.devRef .tc r) = W75 m ρ c (Proc.devRef .tc r) :=
  StableHlo.after_of_writes_sub hostOps9 _ hostOps9_writes h
theorem W77_of (c : Dev nD) (r : Ref sig .tc) (h : r ∉ hostOps9_1_W) :
    W77 m ρ c (Proc.devRef .tc r) = W76 m ρ c (Proc.devRef .tc r) :=
  StableHlo.after_of_writes_sub hostOps9_1 _ hostOps9_1_writes h
theorem W78_of (c : Dev nD) (r : Ref sig .tc) (h : r ∉ hostOps9_2_W) :
    W78 m ρ c (Proc.devRef .tc r) = W77 m ρ c (Proc.devRef .tc r) :=
  StableHlo.after_of_writes_sub hostOps9_2 _ hostOps9_2_writes h
theorem W79_of (c : Dev nD) (r : Ref sig .tc) (h : r ∉ hostOps9_3_W) :
    W79 m ρ c (Proc.devRef .tc r) = W78 m ρ c (Proc.devRef .tc r) :=
  StableHlo.after_of_writes_sub hostOps9_3 _ hostOps9_3_writes h
/-- Every window of pipeline 9 but the last is an input. -/
theorem isIn9 : ∀ w : Fin cfg9.W, w ≠ (7 : Fin 8) → (cfg9.win w).isOut = false := by decide
/-- Region 9 changes its result array only: an input array ends as entered, a buffer it does not move too. -/
theorem W80_of (c : Dev nD) (r : Ref sig .tc) (h : r ∉ [Pipeline.arrRef spec9 (7 : Fin 8)]) :
    W80 m ρ c (Proc.devRef .tc r) = W79 m ρ c (Proc.devRef .tc r) := by
  by_cases hr : ∃ w, Pipeline.arrRef spec9 w = r
  · obtain ⟨w, rfl⟩ := hr
    have hw : w ≠ (7 : Fin 8) := fun e => h (by rw [e]; exact List.mem_singleton_self _)
    exact (W80_arr m ρ c w).trans (((dat9 (V79 m ρ) c).arrAt_in w (isIn9 w hw) _).trans (A_eq9 (V79 m ρ) c w))
  · exact W80_of_ne m ρ c r fun w e => hr ⟨w, e⟩
theorem W81_of (c : Dev nD) (r : Ref sig .tc) (h : r ∉ hostOps10_W) :
    W81 m ρ c (Proc.devRef .tc r) = W80 m ρ c (Proc.devRef .tc r) :=
  StableHlo.after_of_writes_sub hostOps10 _ hostOps10_writes h
theorem W82_of (c : Dev nD) (r : Ref sig .tc) (h : r ∉ hostOps10_1_W) :
    W82 m ρ c (Proc.devRef .tc r) = W81 m ρ c (Proc.devRef .tc r) :=
  StableHlo.after_of_writes_sub hostOps10_1 _ hostOps10_1_writes h
theorem W83_of (c : Dev nD) (r : Ref sig .tc) (h : r ∉ hostOps10_2_W) :
    W83 m ρ c (Proc.devRef .tc r) = W82 m ρ c (Proc.devRef .tc r) :=
  StableHlo.after_of_writes_sub hostOps10_2 _ hostOps10_2_writes h
theorem W84_of (c : Dev nD) (r : Ref sig .tc) (h : r ∉ hostOps10_3_W) :
    W84 m ρ c (Proc.devRef .tc r) = W83 m ρ c (Proc.devRef .tc r) :=
  StableHlo.after_of_writes_sub hostOps10_3 _ hostOps10_3_writes h
theorem W85_of (c : Dev nD) (r : Ref sig .tc) (h : r ∉ hostOps10_4_W) :
    W85 m ρ c (Proc.devRef .tc r) = W84 m ρ c (Proc.devRef .tc r) :=
  StableHlo.after_of_writes_sub hostOps10_4 _ hostOps10_4_writes h
theorem W86_of (c : Dev nD) (r : Ref sig .tc) (h : r ∉ hostOps10_5_W) :
    W86 m ρ c (Proc.devRef .tc r) = W85 m ρ c (Proc.devRef .tc r) :=
  StableHlo.after_of_writes_sub hostOps10_5 _ hostOps10_5_writes h
theorem W87_of (c : Dev nD) (r : Ref sig .tc) (h : r ∉ hostOps10_6_W) :
    W87 m ρ c (Proc.devRef .tc r) = W86 m ρ c (Proc.devRef .tc r) :=
  StableHlo.after_of_writes_sub hostOps10_6 _ hostOps10_6_writes h
theorem W88_of (c : Dev nD) (r : Ref sig .tc) (h : r ∉ hostOps10_7_W) :
    W88 m ρ c (Proc.devRef .tc r) = W87 m ρ c (Proc.devRef .tc r) :=
  StableHlo.after_of_writes_sub hostOps10_7 _ hostOps10_7_writes h
theorem W89_of (c : Dev nD) (r : Ref sig .tc) (h : r ∉ hostOps10_8_W) :
    W89 m ρ c (Proc.devRef .tc r) = W88 m ρ c (Proc.devRef .tc r) :=
  StableHlo.after_of_writes_sub hostOps10_8 _ hostOps10_8_writes h
theorem W90_of (c : Dev nD) (r : Ref sig .tc) (h : r ∉ hostOps10_9_W) :
    W90 m ρ c (Proc.devRef .tc r) = W89 m ρ c (Proc.devRef .tc r) :=
  StableHlo.after_of_writes_sub hostOps10_9 _ hostOps10_9_writes h
theorem W91_of (c : Dev nD) (r : Ref sig .tc) (h : r ∉ hostOps10_10_W) :
    W91 m ρ c (Proc.devRef .tc r) = W90 m ρ c (Proc.devRef .tc r) :=
  StableHlo.after_of_writes_sub hostOps10_10 _ hostOps10_10_writes h
theorem W92_of (c : Dev nD) (r : Ref sig .tc) (h : r ∉ hostOps10_11_W) :
    W92 m ρ c (Proc.devRef .tc r) = W91 m ρ c (Proc.devRef .tc r) :=
  StableHlo.after_of_writes_sub hostOps10_11 _ hostOps10_11_writes h
/-- Every window of pipeline 10 but the last is an input. -/
theorem isIn10 : ∀ w : Fin cfg10.W, w ≠ (9 : Fin 10) → (cfg10.win w).isOut = false := by decide
/-- Region 10 changes its result array only: an input array ends as entered, a buffer it does not move too. -/
theorem W93_of (c : Dev nD) (r : Ref sig .tc) (h : r ∉ [Pipeline.arrRef spec10 (9 : Fin 10)]) :
    W93 m ρ c (Proc.devRef .tc r) = W92 m ρ c (Proc.devRef .tc r) := by
  by_cases hr : ∃ w, Pipeline.arrRef spec10 w = r
  · obtain ⟨w, rfl⟩ := hr
    have hw : w ≠ (9 : Fin 10) := fun e => h (by rw [e]; exact List.mem_singleton_self _)
    exact (W93_arr m ρ c w).trans (((dat10 (V92 m ρ) c).arrAt_in w (isIn10 w hw) _).trans (A_eq10 (V92 m ρ) c w))
  · exact W93_of_ne m ρ c r fun w e => hr ⟨w, e⟩
theorem W94_of (c : Dev nD) (r : Ref sig .tc) (h : r ∉ hostOps11_W) :
    W94 m ρ c (Proc.devRef .tc r) = W93 m ρ c (Proc.devRef .tc r) :=
  StableHlo.after_of_writes_sub hostOps11 _ hostOps11_writes h
theorem W95_of (c : Dev nD) (r : Ref sig .tc) (h : r ∉ hostOps11_1_W) :
    W95 m ρ c (Proc.devRef .tc r) = W94 m ρ c (Proc.devRef .tc r) :=
  StableHlo.after_of_writes_sub hostOps11_1 _ hostOps11_1_writes h
theorem W96_of (c : Dev nD) (r : Ref sig .tc) (h : r ∉ hostOps11_2_W) :
    W96 m ρ c (Proc.devRef .tc r) = W95 m ρ c (Proc.devRef .tc r) :=
  StableHlo.after_of_writes_sub hostOps11_2 _ hostOps11_2_writes h
theorem W97_of (c : Dev nD) (r : Ref sig .tc) (h : r ∉ hostOps11_3_W) :
    W97 m ρ c (Proc.devRef .tc r) = W96 m ρ c (Proc.devRef .tc r) :=
  StableHlo.after_of_writes_sub hostOps11_3 _ hostOps11_3_writes h
/-- Every window of pipeline 11 but the last is an input. -/
theorem isIn11 : ∀ w : Fin cfg11.W, w ≠ (7 : Fin 8) → (cfg11.win w).isOut = false := by decide
/-- Region 11 changes its result array only: an input array ends as entered, a buffer it does not move too. -/
theorem W98_of (c : Dev nD) (r : Ref sig .tc) (h : r ∉ [Pipeline.arrRef spec11 (7 : Fin 8)]) :
    W98 m ρ c (Proc.devRef .tc r) = W97 m ρ c (Proc.devRef .tc r) := by
  by_cases hr : ∃ w, Pipeline.arrRef spec11 w = r
  · obtain ⟨w, rfl⟩ := hr
    have hw : w ≠ (7 : Fin 8) := fun e => h (by rw [e]; exact List.mem_singleton_self _)
    exact (W98_arr m ρ c w).trans (((dat11 (V97 m ρ) c).arrAt_in w (isIn11 w hw) _).trans (A_eq11 (V97 m ρ) c w))
  · exact W98_of_ne m ρ c r fun w e => hr ⟨w, e⟩
theorem W99_of (c : Dev nD) (r : Ref sig .tc) (h : r ∉ hostOps12_W) :
    W99 m ρ c (Proc.devRef .tc r) = W98 m ρ c (Proc.devRef .tc r) :=
  StableHlo.after_of_writes_sub hostOps12 _ hostOps12_writes h
theorem W100_of (c : Dev nD) (r : Ref sig .tc) (h : r ∉ hostOps12_1_W) :
    W100 m ρ c (Proc.devRef .tc r) = W99 m ρ c (Proc.devRef .tc r) :=
  StableHlo.after_of_writes_sub hostOps12_1 _ hostOps12_1_writes h
theorem W101_of (c : Dev nD) (r : Ref sig .tc) (h : r ∉ hostOps12_2_W) :
    W101 m ρ c (Proc.devRef .tc r) = W100 m ρ c (Proc.devRef .tc r) :=
  StableHlo.after_of_writes_sub hostOps12_2 _ hostOps12_2_writes h
theorem W102_of (c : Dev nD) (r : Ref sig .tc) (h : r ∉ hostOps12_3_W) :
    W102 m ρ c (Proc.devRef .tc r) = W101 m ρ c (Proc.devRef .tc r) :=
  StableHlo.after_of_writes_sub hostOps12_3 _ hostOps12_3_writes h
theorem W103_of (c : Dev nD) (r : Ref sig .tc) (h : r ∉ hostOps12_4_W) :
    W103 m ρ c (Proc.devRef .tc r) = W102 m ρ c (Proc.devRef .tc r) :=
  StableHlo.after_of_writes_sub hostOps12_4 _ hostOps12_4_writes h
theorem W104_of (c : Dev nD) (r : Ref sig .tc) (h : r ∉ hostOps12_5_W) :
    W104 m ρ c (Proc.devRef .tc r) = W103 m ρ c (Proc.devRef .tc r) :=
  StableHlo.after_of_writes_sub hostOps12_5 _ hostOps12_5_writes h
theorem W105_of (c : Dev nD) (r : Ref sig .tc) (h : r ∉ hostOps12_6_W) :
    W105 m ρ c (Proc.devRef .tc r) = W104 m ρ c (Proc.devRef .tc r) :=
  StableHlo.after_of_writes_sub hostOps12_6 _ hostOps12_6_writes h

/-! ## Everything written up to an item, and what is outside it -/

abbrev wr0 : List (Ref sig .tc) := []
theorem W0_keep (c : Dev nD) (r : Ref sig .tc) (h : r ∉ wr0) : W0 m ρ c (Proc.devRef .tc r) = W0 m ρ c (Proc.devRef .tc r) := rfl
abbrev wr1 : List (Ref sig .tc) := wr0 ++ hostOps0_W
theorem W1_keep (c : Dev nD) (r : Ref sig .tc) (h : r ∉ wr1) : W1 m ρ c (Proc.devRef .tc r) = W0 m ρ c (Proc.devRef .tc r) :=
  (W1_of m ρ c r fun hm => h (List.mem_append_right _ hm)).trans (W0_keep m ρ c r fun hm => h (List.mem_append_left _ hm))
abbrev wr2 : List (Ref sig .tc) := wr1 ++ hostOps0_1_W
theorem W2_keep (c : Dev nD) (r : Ref sig .tc) (h : r ∉ wr2) : W2 m ρ c (Proc.devRef .tc r) = W0 m ρ c (Proc.devRef .tc r) :=
  (W2_of m ρ c r fun hm => h (List.mem_append_right _ hm)).trans (W1_keep m ρ c r fun hm => h (List.mem_append_left _ hm))
abbrev wr3 : List (Ref sig .tc) := wr2 ++ hostOps0_2_W
theorem W3_keep (c : Dev nD) (r : Ref sig .tc) (h : r ∉ wr3) : W3 m ρ c (Proc.devRef .tc r) = W0 m ρ c (Proc.devRef .tc r) :=
  (W3_of m ρ c r fun hm => h (List.mem_append_right _ hm)).trans (W2_keep m ρ c r fun hm => h (List.mem_append_left _ hm))
abbrev wr4 : List (Ref sig .tc) := wr3 ++ hostOps0_3_W
theorem W4_keep (c : Dev nD) (r : Ref sig .tc) (h : r ∉ wr4) : W4 m ρ c (Proc.devRef .tc r) = W0 m ρ c (Proc.devRef .tc r) :=
  (W4_of m ρ c r fun hm => h (List.mem_append_right _ hm)).trans (W3_keep m ρ c r fun hm => h (List.mem_append_left _ hm))
abbrev wr5 : List (Ref sig .tc) := wr4 ++ hostOps0_4_W
theorem W5_keep (c : Dev nD) (r : Ref sig .tc) (h : r ∉ wr5) : W5 m ρ c (Proc.devRef .tc r) = W0 m ρ c (Proc.devRef .tc r) :=
  (W5_of m ρ c r fun hm => h (List.mem_append_right _ hm)).trans (W4_keep m ρ c r fun hm => h (List.mem_append_left _ hm))
abbrev wr6 : List (Ref sig .tc) := wr5 ++ hostOps0_5_W
theorem W6_keep (c : Dev nD) (r : Ref sig .tc) (h : r ∉ wr6) : W6 m ρ c (Proc.devRef .tc r) = W0 m ρ c (Proc.devRef .tc r) :=
  (W6_of m ρ c r fun hm => h (List.mem_append_right _ hm)).trans (W5_keep m ρ c r fun hm => h (List.mem_append_left _ hm))
abbrev wr7 : List (Ref sig .tc) := wr6 ++ hostOps0_6_W
theorem W7_keep (c : Dev nD) (r : Ref sig .tc) (h : r ∉ wr7) : W7 m ρ c (Proc.devRef .tc r) = W0 m ρ c (Proc.devRef .tc r) :=
  (W7_of m ρ c r fun hm => h (List.mem_append_right _ hm)).trans (W6_keep m ρ c r fun hm => h (List.mem_append_left _ hm))
abbrev wr8 : List (Ref sig .tc) := wr7 ++ hostOps0_7_W
theorem W8_keep (c : Dev nD) (r : Ref sig .tc) (h : r ∉ wr8) : W8 m ρ c (Proc.devRef .tc r) = W0 m ρ c (Proc.devRef .tc r) :=
  (W8_of m ρ c r fun hm => h (List.mem_append_right _ hm)).trans (W7_keep m ρ c r fun hm => h (List.mem_append_left _ hm))
abbrev wr9 : List (Ref sig .tc) := wr8 ++ hostOps0_8_W
theorem W9_keep (c : Dev nD) (r : Ref sig .tc) (h : r ∉ wr9) : W9 m ρ c (Proc.devRef .tc r) = W0 m ρ c (Proc.devRef .tc r) :=
  (W9_of m ρ c r fun hm => h (List.mem_append_right _ hm)).trans (W8_keep m ρ c r fun hm => h (List.mem_append_left _ hm))
abbrev wr10 : List (Ref sig .tc) := wr9 ++ hostOps0_9_W
theorem W10_keep (c : Dev nD) (r : Ref sig .tc) (h : r ∉ wr10) : W10 m ρ c (Proc.devRef .tc r) = W0 m ρ c (Proc.devRef .tc r) :=
  (W10_of m ρ c r fun hm => h (List.mem_append_right _ hm)).trans (W9_keep m ρ c r fun hm => h (List.mem_append_left _ hm))
abbrev wr11 : List (Ref sig .tc) := wr10 ++ [Pipeline.arrRef spec0 (9 : Fin 10)]
theorem W11_keep (c : Dev nD) (r : Ref sig .tc) (h : r ∉ wr11) : W11 m ρ c (Proc.devRef .tc r) = W0 m ρ c (Proc.devRef .tc r) :=
  (W11_of m ρ c r fun hm => h (List.mem_append_right _ hm)).trans (W10_keep m ρ c r fun hm => h (List.mem_append_left _ hm))
abbrev wr12 : List (Ref sig .tc) := wr11 ++ hostOps1_W
theorem W12_keep (c : Dev nD) (r : Ref sig .tc) (h : r ∉ wr12) : W12 m ρ c (Proc.devRef .tc r) = W0 m ρ c (Proc.devRef .tc r) :=
  (W12_of m ρ c r fun hm => h (List.mem_append_right _ hm)).trans (W11_keep m ρ c r fun hm => h (List.mem_append_left _ hm))
abbrev wr13 : List (Ref sig .tc) := wr12 ++ hostOps1_1_W
theorem W13_keep (c : Dev nD) (r : Ref sig .tc) (h : r ∉ wr13) : W13 m ρ c (Proc.devRef .tc r) = W0 m ρ c (Proc.devRef .tc r) :=
  (W13_of m ρ c r fun hm => h (List.mem_append_right _ hm)).trans (W12_keep m ρ c r fun hm => h (List.mem_append_left _ hm))
abbrev wr14 : List (Ref sig .tc) := wr13 ++ hostOps1_2_W
theorem W14_keep (c : Dev nD) (r : Ref sig .tc) (h : r ∉ wr14) : W14 m ρ c (Proc.devRef .tc r) = W0 m ρ c (Proc.devRef .tc r) :=
  (W14_of m ρ c r fun hm => h (List.mem_append_right _ hm)).trans (W13_keep m ρ c r fun hm => h (List.mem_append_left _ hm))
abbrev wr15 : List (Ref sig .tc) := wr14 ++ hostOps1_3_W
theorem W15_keep (c : Dev nD) (r : Ref sig .tc) (h : r ∉ wr15) : W15 m ρ c (Proc.devRef .tc r) = W0 m ρ c (Proc.devRef .tc r) :=
  (W15_of m ρ c r fun hm => h (List.mem_append_right _ hm)).trans (W14_keep m ρ c r fun hm => h (List.mem_append_left _ hm))
abbrev wr16 : List (Ref sig .tc) := wr15 ++ [Pipeline.arrRef spec1 (7 : Fin 8)]
theorem W16_keep (c : Dev nD) (r : Ref sig .tc) (h : r ∉ wr16) : W16 m ρ c (Proc.devRef .tc r) = W0 m ρ c (Proc.devRef .tc r) :=
  (W16_of m ρ c r fun hm => h (List.mem_append_right _ hm)).trans (W15_keep m ρ c r fun hm => h (List.mem_append_left _ hm))
abbrev wr17 : List (Ref sig .tc) := wr16 ++ hostOps2_W
theorem W17_keep (c : Dev nD) (r : Ref sig .tc) (h : r ∉ wr17) : W17 m ρ c (Proc.devRef .tc r) = W0 m ρ c (Proc.devRef .tc r) :=
  (W17_of m ρ c r fun hm => h (List.mem_append_right _ hm)).trans (W16_keep m ρ c r fun hm => h (List.mem_append_left _ hm))
abbrev wr18 : List (Ref sig .tc) := wr17 ++ hostOps2_1_W
theorem W18_keep (c : Dev nD) (r : Ref sig .tc) (h : r ∉ wr18) : W18 m ρ c (Proc.devRef .tc r) = W0 m ρ c (Proc.devRef .tc r) :=
  (W18_of m ρ c r fun hm => h (List.mem_append_right _ hm)).trans (W17_keep m ρ c r fun hm => h (List.mem_append_left _ hm))
abbrev wr19 : List (Ref sig .tc) := wr18 ++ hostOps2_2_W
theorem W19_keep (c : Dev nD) (r : Ref sig .tc) (h : r ∉ wr19) : W19 m ρ c (Proc.devRef .tc r) = W0 m ρ c (Proc.devRef .tc r) :=
  (W19_of m ρ c r fun hm => h (List.mem_append_right _ hm)).trans (W18_keep m ρ c r fun hm => h (List.mem_append_left _ hm))
abbrev wr20 : List (Ref sig .tc) := wr19 ++ hostOps2_3_W
theorem W20_keep (c : Dev nD) (r : Ref sig .tc) (h : r ∉ wr20) : W20 m ρ c (Proc.devRef .tc r) = W0 m ρ c (Proc.devRef .tc r) :=
  (W20_of m ρ c r fun hm => h (List.mem_append_right _ hm)).trans (W19_keep m ρ c r fun hm => h (List.mem_append_left _ hm))
abbrev wr21 : List (Ref sig .tc) := wr20 ++ hostOps2_4_W
theorem W21_keep (c : Dev nD) (r : Ref sig .tc) (h : r ∉ wr21) : W21 m ρ c (Proc.devRef .tc r) = W0 m ρ c (Proc.devRef .tc r) :=
  (W21_of m ρ c r fun hm => h (List.mem_append_right _ hm)).trans (W20_keep m ρ c r fun hm => h (List.mem_append_left _ hm))
abbrev wr22 : List (Ref sig .tc) := wr21 ++ hostOps2_5_W
theorem W22_keep (c : Dev nD) (r : Ref sig .tc) (h : r ∉ wr22) : W22 m ρ c (Proc.devRef .tc r) = W0 m ρ c (Proc.devRef .tc r) :=
  (W22_of m ρ c r fun hm => h (List.mem_append_right _ hm)).trans (W21_keep m ρ c r fun hm => h (List.mem_append_left _ hm))
abbrev wr23 : List (Ref sig .tc) := wr22 ++ hostOps2_6_W
theorem W23_keep (c : Dev nD) (r : Ref sig .tc) (h : r ∉ wr23) : W23 m ρ c (Proc.devRef .tc r) = W0 m ρ c (Proc.devRef .tc r) :=
  (W23_of m ρ c r fun hm => h (List.mem_append_right _ hm)).trans (W22_keep m ρ c r fun hm => h (List.mem_append_left _ hm))
abbrev wr24 : List (Ref sig .tc) := wr23 ++ hostOps2_7_W
theorem W24_keep (c : Dev nD) (r : Ref sig .tc) (h : r ∉ wr24) : W24 m ρ c (Proc.devRef .tc r) = W0 m ρ c (Proc.devRef .tc r) :=
  (W24_of m ρ c r fun hm => h (List.mem_append_right _ hm)).trans (W23_keep m ρ c r fun hm => h (List.mem_append_left _ hm))
abbrev wr25 : List (Ref sig .tc) := wr24 ++ hostOps2_8_W
theorem W25_keep (c : Dev nD) (r : Ref sig .tc) (h : r ∉ wr25) : W25 m ρ c (Proc.devRef .tc r) = W0 m ρ c (Proc.devRef .tc r) :=
  (W25_of m ρ c r fun hm => h (List.mem_append_right _ hm)).trans (W24_keep m ρ c r fun hm => h (List.mem_append_left _ hm))
abbrev wr26 : List (Ref sig .tc) := wr25 ++ hostOps2_9_W
theorem W26_keep (c : Dev nD) (r : Ref sig .tc) (h : r ∉ wr26) : W26 m ρ c (Proc.devRef .tc r) = W0 m ρ c (Proc.devRef .tc r) :=
  (W26_of m ρ c r fun hm => h (List.mem_append_right _ hm)).trans (W25_keep m ρ c r fun hm => h (List.mem_append_left _ hm))
abbrev wr27 : List (Ref sig .tc) := wr26 ++ hostOps2_10_W
theorem W27_keep (c : Dev nD) (r : Ref sig .tc) (h : r ∉ wr27) : W27 m ρ c (Proc.devRef .tc r) = W0 m ρ c (Proc.devRef .tc r) :=
  (W27_of m ρ c r fun hm => h (List.mem_append_right _ hm)).trans (W26_keep m ρ c r fun hm => h (List.mem_append_left _ hm))
abbrev wr28 : List (Ref sig .tc) := wr27 ++ hostOps2_11_W
theorem W28_keep (c : Dev nD) (r : Ref sig .tc) (h : r ∉ wr28) : W28 m ρ c (Proc.devRef .tc r) = W0 m ρ c (Proc.devRef .tc r) :=
  (W28_of m ρ c r fun hm => h (List.mem_append_right _ hm)).trans (W27_keep m ρ c r fun hm => h (List.mem_append_left _ hm))
abbrev wr29 : List (Ref sig .tc) := wr28 ++ [Pipeline.arrRef spec2 (9 : Fin 10)]
theorem W29_keep (c : Dev nD) (r : Ref sig .tc) (h : r ∉ wr29) : W29 m ρ c (Proc.devRef .tc r) = W0 m ρ c (Proc.devRef .tc r) :=
  (W29_of m ρ c r fun hm => h (List.mem_append_right _ hm)).trans (W28_keep m ρ c r fun hm => h (List.mem_append_left _ hm))
abbrev wr30 : List (Ref sig .tc) := wr29 ++ hostOps3_W
theorem W30_keep (c : Dev nD) (r : Ref sig .tc) (h : r ∉ wr30) : W30 m ρ c (Proc.devRef .tc r) = W0 m ρ c (Proc.devRef .tc r) :=
  (W30_of m ρ c r fun hm => h (List.mem_append_right _ hm)).trans (W29_keep m ρ c r fun hm => h (List.mem_append_left _ hm))
abbrev wr31 : List (Ref sig .tc) := wr30 ++ hostOps3_1_W
theorem W31_keep (c : Dev nD) (r : Ref sig .tc) (h : r ∉ wr31) : W31 m ρ c (Proc.devRef .tc r) = W0 m ρ c (Proc.devRef .tc r) :=
  (W31_of m ρ c r fun hm => h (List.mem_append_right _ hm)).trans (W30_keep m ρ c r fun hm => h (List.mem_append_left _ hm))
abbrev wr32 : List (Ref sig .tc) := wr31 ++ hostOps3_2_W
theorem W32_keep (c : Dev nD) (r : Ref sig .tc) (h : r ∉ wr32) : W32 m ρ c (Proc.devRef .tc r) = W0 m ρ c (Proc.devRef .tc r) :=
  (W32_of m ρ c r fun hm => h (List.mem_append_right _ hm)).trans (W31_keep m ρ c r fun hm => h (List.mem_append_left _ hm))
abbrev wr33 : List (Ref sig .tc) := wr32 ++ hostOps3_3_W
theorem W33_keep (c : Dev nD) (r : Ref sig .tc) (h : r ∉ wr33) : W33 m ρ c (Proc.devRef .tc r) = W0 m ρ c (Proc.devRef .tc r) :=
  (W33_of m ρ c r fun hm => h (List.mem_append_right _ hm)).trans (W32_keep m ρ c r fun hm => h (List.mem_append_left _ hm))
abbrev wr34 : List (Ref sig .tc) := wr33 ++ [Pipeline.arrRef spec3 (7 : Fin 8)]
theorem W34_keep (c : Dev nD) (r : Ref sig .tc) (h : r ∉ wr34) : W34 m ρ c (Proc.devRef .tc r) = W0 m ρ c (Proc.devRef .tc r) :=
  (W34_of m ρ c r fun hm => h (List.mem_append_right _ hm)).trans (W33_keep m ρ c r fun hm => h (List.mem_append_left _ hm))
abbrev wr35 : List (Ref sig .tc) := wr34 ++ hostOps4_W
theorem W35_keep (c : Dev nD) (r : Ref sig .tc) (h : r ∉ wr35) : W35 m ρ c (Proc.devRef .tc r) = W0 m ρ c (Proc.devRef .tc r) :=
  (W35_of m ρ c r fun hm => h (List.mem_append_right _ hm)).trans (W34_keep m ρ c r fun hm => h (List.mem_append_left _ hm))
abbrev wr36 : List (Ref sig .tc) := wr35 ++ hostOps4_1_W
theorem W36_keep (c : Dev nD) (r : Ref sig .tc) (h : r ∉ wr36) : W36 m ρ c (Proc.devRef .tc r) = W0 m ρ c (Proc.devRef .tc r) :=
  (W36_of m ρ c r fun hm => h (List.mem_append_right _ hm)).trans (W35_keep m ρ c r fun hm => h (List.mem_append_left _ hm))
abbrev wr37 : List (Ref sig .tc) := wr36 ++ hostOps4_2_W
theorem W37_keep (c : Dev nD) (r : Ref sig .tc) (h : r ∉ wr37) : W37 m ρ c (Proc.devRef .tc r) = W0 m ρ c (Proc.devRef .tc r) :=
  (W37_of m ρ c r fun hm => h (List.mem_append_right _ hm)).trans (W36_keep m ρ c r fun hm => h (List.mem_append_left _ hm))
abbrev wr38 : List (Ref sig .tc) := wr37 ++ hostOps4_3_W
theorem W38_keep (c : Dev nD) (r : Ref sig .tc) (h : r ∉ wr38) : W38 m ρ c (Proc.devRef .tc r) = W0 m ρ c (Proc.devRef .tc r) :=
  (W38_of m ρ c r fun hm => h (List.mem_append_right _ hm)).trans (W37_keep m ρ c r fun hm => h (List.mem_append_left _ hm))
abbrev wr39 : List (Ref sig .tc) := wr38 ++ hostOps4_4_W
theorem W39_keep (c : Dev nD) (r : Ref sig .tc) (h : r ∉ wr39) : W39 m ρ c (Proc.devRef .tc r) = W0 m ρ c (Proc.devRef .tc r) :=
  (W39_of m ρ c r fun hm => h (List.mem_append_right _ hm)).trans (W38_keep m ρ c r fun hm => h (List.mem_append_left _ hm))
abbrev wr40 : List (Ref sig .tc) := wr39 ++ hostOps4_5_W
theorem W40_keep (c : Dev nD) (r : Ref sig .tc) (h : r ∉ wr40) : W40 m ρ c (Proc.devRef .tc r) = W0 m ρ c (Proc.devRef .tc r) :=
  (W40_of m ρ c r fun hm => h (List.mem_append_right _ hm)).trans (W39_keep m ρ c r fun hm => h (List.mem_append_left _ hm))
abbrev wr41 : List (Ref sig .tc) := wr40 ++ hostOps4_6_W
theorem W41_keep (c : Dev nD) (r : Ref sig .tc) (h : r ∉ wr41) : W41 m ρ c (Proc.devRef .tc r) = W0 m ρ c (Proc.devRef .tc r) :=
  (W41_of m ρ c r fun hm => h (List.mem_append_right _ hm)).trans (W40_keep m ρ c r fun hm => h (List.mem_append_left _ hm))
abbrev wr42 : List (Ref sig .tc) := wr41 ++ hostOps4_7_W
theorem W42_keep (c : Dev nD) (r : Ref sig .tc) (h : r ∉ wr42) : W42 m ρ c (Proc.devRef .tc r) = W0 m ρ c (Proc.devRef .tc r) :=
  (W42_of m ρ c r fun hm => h (List.mem_append_right _ hm)).trans (W41_keep m ρ c r fun hm => h (List.mem_append_left _ hm))
abbrev wr43 : List (Ref sig .tc) := wr42 ++ [Pipeline.arrRef spec4 (9 : Fin 10)]
theorem W43_keep (c : Dev nD) (r : Ref sig .tc) (h : r ∉ wr43) : W43 m ρ c (Proc.devRef .tc r) = W0 m ρ c (Proc.devRef .tc r) :=
  (W43_of m ρ c r fun hm => h (List.mem_append_right _ hm)).trans (W42_keep m ρ c r fun hm => h (List.mem_append_left _ hm))
abbrev wr44 : List (Ref sig .tc) := wr43 ++ hostOps5_W
theorem W44_keep (c : Dev nD) (r : Ref sig .tc) (h : r ∉ wr44) : W44 m ρ c (Proc.devRef .tc r) = W0 m ρ c (Proc.devRef .tc r) :=
  (W44_of m ρ c r fun hm => h (List.mem_append_right _ hm)).trans (W43_keep m ρ c r fun hm => h (List.mem_append_left _ hm))
abbrev wr45 : List (Ref sig .tc) := wr44 ++ hostOps5_1_W
theorem W45_keep (c : Dev nD) (r : Ref sig .tc) (h : r ∉ wr45) : W45 m ρ c (Proc.devRef .tc r) = W0 m ρ c (Proc.devRef .tc r) :=
  (W45_of m ρ c r fun hm => h (List.mem_append_right _ hm)).trans (W44_keep m ρ c r fun hm => h (List.mem_append_left _ hm))
abbrev wr46 : List (Ref sig .tc) := wr45 ++ hostOps5_2_W
theorem W46_keep (c : Dev nD) (r : Ref sig .tc) (h : r ∉ wr46) : W46 m ρ c (Proc.devRef .tc r) = W0 m ρ c (Proc.devRef .tc r) :=
  (W46_of m ρ c r fun hm => h (List.mem_append_right _ hm)).trans (W45_keep m ρ c r fun hm => h (List.mem_append_left _ hm))
abbrev wr47 : List (Ref sig .tc) := wr46 ++ hostOps5_3_W
theorem W47_keep (c : Dev nD) (r : Ref sig .tc) (h : r ∉ wr47) : W47 m ρ c (Proc.devRef .tc r) = W0 m ρ c (Proc.devRef .tc r) :=
  (W47_of m ρ c r fun hm => h (List.mem_append_right _ hm)).trans (W46_keep m ρ c r fun hm => h (List.mem_append_left _ hm))
abbrev wr48 : List (Ref sig .tc) := wr47 ++ [Pipeline.arrRef spec5 (7 : Fin 8)]
theorem W48_keep (c : Dev nD) (r : Ref sig .tc) (h : r ∉ wr48) : W48 m ρ c (Proc.devRef .tc r) = W0 m ρ c (Proc.devRef .tc r) :=
  (W48_of m ρ c r fun hm => h (List.mem_append_right _ hm)).trans (W47_keep m ρ c r fun hm => h (List.mem_append_left _ hm))
abbrev wr49 : List (Ref sig .tc) := wr48 ++ hostOps6_W
theorem W49_keep (c : Dev nD) (r : Ref sig .tc) (h : r ∉ wr49) : W49 m ρ c (Proc.devRef .tc r) = W0 m ρ c (Proc.devRef .tc r) :=
  (W49_of m ρ c r fun hm => h (List.mem_append_right _ hm)).trans (W48_keep m ρ c r fun hm => h (List.mem_append_left _ hm))
abbrev wr50 : List (Ref sig .tc) := wr49 ++ hostOps6_1_W
theorem W50_keep (c : Dev nD) (r : Ref sig .tc) (h : r ∉ wr50) : W50 m ρ c (Proc.devRef .tc r) = W0 m ρ c (Proc.devRef .tc r) :=
  (W50_of m ρ c r fun hm => h (List.mem_append_right _ hm)).trans (W49_keep m ρ c r fun hm => h (List.mem_append_left _ hm))
abbrev wr51 : List (Ref sig .tc) := wr50 ++ hostOps6_2_W
theorem W51_keep (c : Dev nD) (r : Ref sig .tc) (h : r ∉ wr51) : W51 m ρ c (Proc.devRef .tc r) = W0 m ρ c (Proc.devRef .tc r) :=
  (W51_of m ρ c r fun hm => h (List.mem_append_right _ hm)).trans (W50_keep m ρ c r fun hm => h (List.mem_append_left _ hm))
abbrev wr52 : List (Ref sig .tc) := wr51 ++ hostOps6_3_W
theorem W52_keep (c : Dev nD) (r : Ref sig .tc) (h : r ∉ wr52) : W52 m ρ c (Proc.devRef .tc r) = W0 m ρ c (Proc.devRef .tc r) :=
  (W52_of m ρ c r fun hm => h (List.mem_append_right _ hm)).trans (W51_keep m ρ c r fun hm => h (List.mem_append_left _ hm))
abbrev wr53 : List (Ref sig .tc) := wr52 ++ hostOps6_4_W
theorem W53_keep (c : Dev nD) (r : Ref sig .tc) (h : r ∉ wr53) : W53 m ρ c (Proc.devRef .tc r) = W0 m ρ c (Proc.devRef .tc r) :=
  (W53_of m ρ c r fun hm => h (List.mem_append_right _ hm)).trans (W52_keep m ρ c r fun hm => h (List.mem_append_left _ hm))
abbrev wr54 : List (Ref sig .tc) := wr53 ++ hostOps6_5_W
theorem W54_keep (c : Dev nD) (r : Ref sig .tc) (h : r ∉ wr54) : W54 m ρ c (Proc.devRef .tc r) = W0 m ρ c (Proc.devRef .tc r) :=
  (W54_of m ρ c r fun hm => h (List.mem_append_right _ hm)).trans (W53_keep m ρ c r fun hm => h (List.mem_append_left _ hm))
abbrev wr55 : List (Ref sig .tc) := wr54 ++ hostOps6_6_W
theorem W55_keep (c : Dev nD) (r : Ref sig .tc) (h : r ∉ wr55) : W55 m ρ c (Proc.devRef .tc r) = W0 m ρ c (Proc.devRef .tc r) :=
  (W55_of m ρ c r fun hm => h (List.mem_append_right _ hm)).trans (W54_keep m ρ c r fun hm => h (List.mem_append_left _ hm))
abbrev wr56 : List (Ref sig .tc) := wr55 ++ hostOps6_7_W
theorem W56_keep (c : Dev nD) (r : Ref sig .tc) (h : r ∉ wr56) : W56 m ρ c (Proc.devRef .tc r) = W0 m ρ c (Proc.devRef .tc r) :=
  (W56_of m ρ c r fun hm => h (List.mem_append_right _ hm)).trans (W55_keep m ρ c r fun hm => h (List.mem_append_left _ hm))
abbrev wr57 : List (Ref sig .tc) := wr56 ++ hostOps6_8_W
theorem W57_keep (c : Dev nD) (r : Ref sig .tc) (h : r ∉ wr57) : W57 m ρ c (Proc.devRef .tc r) = W0 m ρ c (Proc.devRef .tc r) :=
  (W57_of m ρ c r fun hm => h (List.mem_append_right _ hm)).trans (W56_keep m ρ c r fun hm => h (List.mem_append_left _ hm))
abbrev wr58 : List (Ref sig .tc) := wr57 ++ hostOps6_9_W
theorem W58_keep (c : Dev nD) (r : Ref sig .tc) (h : r ∉ wr58) : W58 m ρ c (Proc.devRef .tc r) = W0 m ρ c (Proc.devRef .tc r) :=
  (W58_of m ρ c r fun hm => h (List.mem_append_right _ hm)).trans (W57_keep m ρ c r fun hm => h (List.mem_append_left _ hm))
abbrev wr59 : List (Ref sig .tc) := wr58 ++ hostOps6_10_W
theorem W59_keep (c : Dev nD) (r : Ref sig .tc) (h : r ∉ wr59) : W59 m ρ c (Proc.devRef .tc r) = W0 m ρ c (Proc.devRef .tc r) :=
  (W59_of m ρ c r fun hm => h (List.mem_append_right _ hm)).trans (W58_keep m ρ c r fun hm => h (List.mem_append_left _ hm))
abbrev wr60 : List (Ref sig .tc) := wr59 ++ hostOps6_11_W
theorem W60_keep (c : Dev nD) (r : Ref sig .tc) (h : r ∉ wr60) : W60 m ρ c (Proc.devRef .tc r) = W0 m ρ c (Proc.devRef .tc r) :=
  (W60_of m ρ c r fun hm => h (List.mem_append_right _ hm)).trans (W59_keep m ρ c r fun hm => h (List.mem_append_left _ hm))
abbrev wr61 : List (Ref sig .tc) := wr60 ++ [Pipeline.arrRef spec6 (9 : Fin 10)]
theorem W61_keep (c : Dev nD) (r : Ref sig .tc) (h : r ∉ wr61) : W61 m ρ c (Proc.devRef .tc r) = W0 m ρ c (Proc.devRef .tc r) :=
  (W61_of m ρ c r fun hm => h (List.mem_append_right _ hm)).trans (W60_keep m ρ c r fun hm => h (List.mem_append_left _ hm))
abbrev wr62 : List (Ref sig .tc) := wr61 ++ hostOps7_W
theorem W62_keep (c : Dev nD) (r : Ref sig .tc) (h : r ∉ wr62) : W62 m ρ c (Proc.devRef .tc r) = W0 m ρ c (Proc.devRef .tc r) :=
  (W62_of m ρ c r fun hm => h (List.mem_append_right _ hm)).trans (W61_keep m ρ c r fun hm => h (List.mem_append_left _ hm))
abbrev wr63 : List (Ref sig .tc) := wr62 ++ hostOps7_1_W
theorem W63_keep (c : Dev nD) (r : Ref sig .tc) (h : r ∉ wr63) : W63 m ρ c (Proc.devRef .tc r) = W0 m ρ c (Proc.devRef .tc r) :=
  (W63_of m ρ c r fun hm => h (List.mem_append_right _ hm)).trans (W62_keep m ρ c r fun hm => h (List.mem_append_left _ hm))
abbrev wr64 : List (Ref sig .tc) := wr63 ++ hostOps7_2_W
theorem W64_keep (c : Dev nD) (r : Ref sig .tc) (h : r ∉ wr64) : W64 m ρ c (Proc.devRef .tc r) = W0 m ρ c (Proc.devRef .tc r) :=
  (W64_of m ρ c r fun hm => h (List.mem_append_right _ hm)).trans (W63_keep m ρ c r fun hm => h (List.mem_append_left _ hm))
abbrev wr65 : List (Ref sig .tc) := wr64 ++ hostOps7_3_W
theorem W65_keep (c : Dev nD) (r : Ref sig .tc) (h : r ∉ wr65) : W65 m ρ c (Proc.devRef .tc r) = W0 m ρ c (Proc.devRef .tc r) :=
  (W65_of m ρ c r fun hm => h (List.mem_append_right _ hm)).trans (W64_keep m ρ c r fun hm => h (List.mem_append_left _ hm))
abbrev wr66 : List (Ref sig .tc) := wr65 ++ [Pipeline.arrRef spec7 (7 : Fin 8)]
theorem W66_keep (c : Dev nD) (r : Ref sig .tc) (h : r ∉ wr66) : W66 m ρ c (Proc.devRef .tc r) = W0 m ρ c (Proc.devRef .tc r) :=
  (W66_of m ρ c r fun hm => h (List.mem_append_right _ hm)).trans (W65_keep m ρ c r fun hm => h (List.mem_append_left _ hm))
abbrev wr67 : List (Ref sig .tc) := wr66 ++ hostOps8_W
theorem W67_keep (c : Dev nD) (r : Ref sig .tc) (h : r ∉ wr67) : W67 m ρ c (Proc.devRef .tc r) = W0 m ρ c (Proc.devRef .tc r) :=
  (W67_of m ρ c r fun hm => h (List.mem_append_right _ hm)).trans (W66_keep m ρ c r fun hm => h (List.mem_append_left _ hm))
abbrev wr68 : List (Ref sig .tc) := wr67 ++ hostOps8_1_W
theorem W68_keep (c : Dev nD) (r : Ref sig .tc) (h : r ∉ wr68) : W68 m ρ c (Proc.devRef .tc r) = W0 m ρ c (Proc.devRef .tc r) :=
  (W68_of m ρ c r fun hm => h (List.mem_append_right _ hm)).trans (W67_keep m ρ c r fun hm => h (List.mem_append_left _ hm))
abbrev wr69 : List (Ref sig .tc) := wr68 ++ hostOps8_2_W
theorem W69_keep (c : Dev nD) (r : Ref sig .tc) (h : r ∉ wr69) : W69 m ρ c (Proc.devRef .tc r) = W0 m ρ c (Proc.devRef .tc r) :=
  (W69_of m ρ c r fun hm => h (List.mem_append_right _ hm)).trans (W68_keep m ρ c r fun hm => h (List.mem_append_left _ hm))
abbrev wr70 : List (Ref sig .tc) := wr69 ++ hostOps8_3_W
theorem W70_keep (c : Dev nD) (r : Ref sig .tc) (h : r ∉ wr70) : W70 m ρ c (Proc.devRef .tc r) = W0 m ρ c (Proc.devRef .tc r) :=
  (W70_of m ρ c r fun hm => h (List.mem_append_right _ hm)).trans (W69_keep m ρ c r fun hm => h (List.mem_append_left _ hm))
abbrev wr71 : List (Ref sig .tc) := wr70 ++ hostOps8_4_W
theorem W71_keep (c : Dev nD) (r : Ref sig .tc) (h : r ∉ wr71) : W71 m ρ c (Proc.devRef .tc r) = W0 m ρ c (Proc.devRef .tc r) :=
  (W71_of m ρ c r fun hm => h (List.mem_append_right _ hm)).trans (W70_keep m ρ c r fun hm => h (List.mem_append_left _ hm))
abbrev wr72 : List (Ref sig .tc) := wr71 ++ hostOps8_5_W
theorem W72_keep (c : Dev nD) (r : Ref sig .tc) (h : r ∉ wr72) : W72 m ρ c (Proc.devRef .tc r) = W0 m ρ c (Proc.devRef .tc r) :=
  (W72_of m ρ c r fun hm => h (List.mem_append_right _ hm)).trans (W71_keep m ρ c r fun hm => h (List.mem_append_left _ hm))
abbrev wr73 : List (Ref sig .tc) := wr72 ++ hostOps8_6_W
theorem W73_keep (c : Dev nD) (r : Ref sig .tc) (h : r ∉ wr73) : W73 m ρ c (Proc.devRef .tc r) = W0 m ρ c (Proc.devRef .tc r) :=
  (W73_of m ρ c r fun hm => h (List.mem_append_right _ hm)).trans (W72_keep m ρ c r fun hm => h (List.mem_append_left _ hm))
abbrev wr74 : List (Ref sig .tc) := wr73 ++ hostOps8_7_W
theorem W74_keep (c : Dev nD) (r : Ref sig .tc) (h : r ∉ wr74) : W74 m ρ c (Proc.devRef .tc r) = W0 m ρ c (Proc.devRef .tc r) :=
  (W74_of m ρ c r fun hm => h (List.mem_append_right _ hm)).trans (W73_keep m ρ c r fun hm => h (List.mem_append_left _ hm))
abbrev wr75 : List (Ref sig .tc) := wr74 ++ [Pipeline.arrRef spec8 (9 : Fin 10)]
theorem W75_keep (c : Dev nD) (r : Ref sig .tc) (h : r ∉ wr75) : W75 m ρ c (Proc.devRef .tc r) = W0 m ρ c (Proc.devRef .tc r) :=
  (W75_of m ρ c r fun hm => h (List.mem_append_right _ hm)).trans (W74_keep m ρ c r fun hm => h (List.mem_append_left _ hm))
abbrev wr76 : List (Ref sig .tc) := wr75 ++ hostOps9_W
theorem W76_keep (c : Dev nD) (r : Ref sig .tc) (h : r ∉ wr76) : W76 m ρ c (Proc.devRef .tc r) = W0 m ρ c (Proc.devRef .tc r) :=
  (W76_of m ρ c r fun hm => h (List.mem_append_right _ hm)).trans (W75_keep m ρ c r fun hm => h (List.mem_append_left _ hm))
abbrev wr77 : List (Ref sig .tc) := wr76 ++ hostOps9_1_W
theorem W77_keep (c : Dev nD) (r : Ref sig .tc) (h : r ∉ wr77) : W77 m ρ c (Proc.devRef .tc r) = W0 m ρ c (Proc.devRef .tc r) :=
  (W77_of m ρ c r fun hm => h (List.mem_append_right _ hm)).trans (W76_keep m ρ c r fun hm => h (List.mem_append_left _ hm))
abbrev wr78 : List (Ref sig .tc) := wr77 ++ hostOps9_2_W
theorem W78_keep (c : Dev nD) (r : Ref sig .tc) (h : r ∉ wr78) : W78 m ρ c (Proc.devRef .tc r) = W0 m ρ c (Proc.devRef .tc r) :=
  (W78_of m ρ c r fun hm => h (List.mem_append_right _ hm)).trans (W77_keep m ρ c r fun hm => h (List.mem_append_left _ hm))
abbrev wr79 : List (Ref sig .tc) := wr78 ++ hostOps9_3_W
theorem W79_keep (c : Dev nD) (r : Ref sig .tc) (h : r ∉ wr79) : W79 m ρ c (Proc.devRef .tc r) = W0 m ρ c (Proc.devRef .tc r) :=
  (W79_of m ρ c r fun hm => h (List.mem_append_right _ hm)).trans (W78_keep m ρ c r fun hm => h (List.mem_append_left _ hm))
abbrev wr80 : List (Ref sig .tc) := wr79 ++ [Pipeline.arrRef spec9 (7 : Fin 8)]
theorem W80_keep (c : Dev nD) (r : Ref sig .tc) (h : r ∉ wr80) : W80 m ρ c (Proc.devRef .tc r) = W0 m ρ c (Proc.devRef .tc r) :=
  (W80_of m ρ c r fun hm => h (List.mem_append_right _ hm)).trans (W79_keep m ρ c r fun hm => h (List.mem_append_left _ hm))
abbrev wr81 : List (Ref sig .tc) := wr80 ++ hostOps10_W
theorem W81_keep (c : Dev nD) (r : Ref sig .tc) (h : r ∉ wr81) : W81 m ρ c (Proc.devRef .tc r) = W0 m ρ c (Proc.devRef .tc r) :=
  (W81_of m ρ c r fun hm => h (List.mem_append_right _ hm)).trans (W80_keep m ρ c r fun hm => h (List.mem_append_left _ hm))
abbrev wr82 : List (Ref sig .tc) := wr81 ++ hostOps10_1_W
theorem W82_keep (c : Dev nD) (r : Ref sig .tc) (h : r ∉ wr82) : W82 m ρ c (Proc.devRef .tc r) = W0 m ρ c (Proc.devRef .tc r) :=
  (W82_of m ρ c r fun hm => h (List.mem_append_right _ hm)).trans (W81_keep m ρ c r fun hm => h (List.mem_append_left _ hm))
abbrev wr83 : List (Ref sig .tc) := wr82 ++ hostOps10_2_W
theorem W83_keep (c : Dev nD) (r : Ref sig .tc) (h : r ∉ wr83) : W83 m ρ c (Proc.devRef .tc r) = W0 m ρ c (Proc.devRef .tc r) :=
  (W83_of m ρ c r fun hm => h (List.mem_append_right _ hm)).trans (W82_keep m ρ c r fun hm => h (List.mem_append_left _ hm))
abbrev wr84 : List (Ref sig .tc) := wr83 ++ hostOps10_3_W
theorem W84_keep (c : Dev nD) (r : Ref sig .tc) (h : r ∉ wr84) : W84 m ρ c (Proc.devRef .tc r) = W0 m ρ c (Proc.devRef .tc r) :=
  (W84_of m ρ c r fun hm => h (List.mem_append_right _ hm)).trans (W83_keep m ρ c r fun hm => h (List.mem_append_left _ hm))
abbrev wr85 : List (Ref sig .tc) := wr84 ++ hostOps10_4_W
theorem W85_keep (c : Dev nD) (r : Ref sig .tc) (h : r ∉ wr85) : W85 m ρ c (Proc.devRef .tc r) = W0 m ρ c (Proc.devRef .tc r) :=
  (W85_of m ρ c r fun hm => h (List.mem_append_right _ hm)).trans (W84_keep m ρ c r fun hm => h (List.mem_append_left _ hm))
abbrev wr86 : List (Ref sig .tc) := wr85 ++ hostOps10_5_W
theorem W86_keep (c : Dev nD) (r : Ref sig .tc) (h : r ∉ wr86) : W86 m ρ c (Proc.devRef .tc r) = W0 m ρ c (Proc.devRef .tc r) :=
  (W86_of m ρ c r fun hm => h (List.mem_append_right _ hm)).trans (W85_keep m ρ c r fun hm => h (List.mem_append_left _ hm))
abbrev wr87 : List (Ref sig .tc) := wr86 ++ hostOps10_6_W
theorem W87_keep (c : Dev nD) (r : Ref sig .tc) (h : r ∉ wr87) : W87 m ρ c (Proc.devRef .tc r) = W0 m ρ c (Proc.devRef .tc r) :=
  (W87_of m ρ c r fun hm => h (List.mem_append_right _ hm)).trans (W86_keep m ρ c r fun hm => h (List.mem_append_left _ hm))
abbrev wr88 : List (Ref sig .tc) := wr87 ++ hostOps10_7_W
theorem W88_keep (c : Dev nD) (r : Ref sig .tc) (h : r ∉ wr88) : W88 m ρ c (Proc.devRef .tc r) = W0 m ρ c (Proc.devRef .tc r) :=
  (W88_of m ρ c r fun hm => h (List.mem_append_right _ hm)).trans (W87_keep m ρ c r fun hm => h (List.mem_append_left _ hm))
abbrev wr89 : List (Ref sig .tc) := wr88 ++ hostOps10_8_W
theorem W89_keep (c : Dev nD) (r : Ref sig .tc) (h : r ∉ wr89) : W89 m ρ c (Proc.devRef .tc r) = W0 m ρ c (Proc.devRef .tc r) :=
  (W89_of m ρ c r fun hm => h (List.mem_append_right _ hm)).trans (W88_keep m ρ c r fun hm => h (List.mem_append_left _ hm))
abbrev wr90 : List (Ref sig .tc) := wr89 ++ hostOps10_9_W
theorem W90_keep (c : Dev nD) (r : Ref sig .tc) (h : r ∉ wr90) : W90 m ρ c (Proc.devRef .tc r) = W0 m ρ c (Proc.devRef .tc r) :=
  (W90_of m ρ c r fun hm => h (List.mem_append_right _ hm)).trans (W89_keep m ρ c r fun hm => h (List.mem_append_left _ hm))
abbrev wr91 : List (Ref sig .tc) := wr90 ++ hostOps10_10_W
theorem W91_keep (c : Dev nD) (r : Ref sig .tc) (h : r ∉ wr91) : W91 m ρ c (Proc.devRef .tc r) = W0 m ρ c (Proc.devRef .tc r) :=
  (W91_of m ρ c r fun hm => h (List.mem_append_right _ hm)).trans (W90_keep m ρ c r fun hm => h (List.mem_append_left _ hm))
abbrev wr92 : List (Ref sig .tc) := wr91 ++ hostOps10_11_W
theorem W92_keep (c : Dev nD) (r : Ref sig .tc) (h : r ∉ wr92) : W92 m ρ c (Proc.devRef .tc r) = W0 m ρ c (Proc.devRef .tc r) :=
  (W92_of m ρ c r fun hm => h (List.mem_append_right _ hm)).trans (W91_keep m ρ c r fun hm => h (List.mem_append_left _ hm))
abbrev wr93 : List (Ref sig .tc) := wr92 ++ [Pipeline.arrRef spec10 (9 : Fin 10)]
theorem W93_keep (c : Dev nD) (r : Ref sig .tc) (h : r ∉ wr93) : W93 m ρ c (Proc.devRef .tc r) = W0 m ρ c (Proc.devRef .tc r) :=
  (W93_of m ρ c r fun hm => h (List.mem_append_right _ hm)).trans (W92_keep m ρ c r fun hm => h (List.mem_append_left _ hm))
abbrev wr94 : List (Ref sig .tc) := wr93 ++ hostOps11_W
theorem W94_keep (c : Dev nD) (r : Ref sig .tc) (h : r ∉ wr94) : W94 m ρ c (Proc.devRef .tc r) = W0 m ρ c (Proc.devRef .tc r) :=
  (W94_of m ρ c r fun hm => h (List.mem_append_right _ hm)).trans (W93_keep m ρ c r fun hm => h (List.mem_append_left _ hm))
abbrev wr95 : List (Ref sig .tc) := wr94 ++ hostOps11_1_W
theorem W95_keep (c : Dev nD) (r : Ref sig .tc) (h : r ∉ wr95) : W95 m ρ c (Proc.devRef .tc r) = W0 m ρ c (Proc.devRef .tc r) :=
  (W95_of m ρ c r fun hm => h (List.mem_append_right _ hm)).trans (W94_keep m ρ c r fun hm => h (List.mem_append_left _ hm))
abbrev wr96 : List (Ref sig .tc) := wr95 ++ hostOps11_2_W
theorem W96_keep (c : Dev nD) (r : Ref sig .tc) (h : r ∉ wr96) : W96 m ρ c (Proc.devRef .tc r) = W0 m ρ c (Proc.devRef .tc r) :=
  (W96_of m ρ c r fun hm => h (List.mem_append_right _ hm)).trans (W95_keep m ρ c r fun hm => h (List.mem_append_left _ hm))
abbrev wr97 : List (Ref sig .tc) := wr96 ++ hostOps11_3_W
theorem W97_keep (c : Dev nD) (r : Ref sig .tc) (h : r ∉ wr97) : W97 m ρ c (Proc.devRef .tc r) = W0 m ρ c (Proc.devRef .tc r) :=
  (W97_of m ρ c r fun hm => h (List.mem_append_right _ hm)).trans (W96_keep m ρ c r fun hm => h (List.mem_append_left _ hm))
abbrev wr98 : List (Ref sig .tc) := wr97 ++ [Pipeline.arrRef spec11 (7 : Fin 8)]
theorem W98_keep (c : Dev nD) (r : Ref sig .tc) (h : r ∉ wr98) : W98 m ρ c (Proc.devRef .tc r) = W0 m ρ c (Proc.devRef .tc r) :=
  (W98_of m ρ c r fun hm => h (List.mem_append_right _ hm)).trans (W97_keep m ρ c r fun hm => h (List.mem_append_left _ hm))
abbrev wr99 : List (Ref sig .tc) := wr98 ++ hostOps12_W
theorem W99_keep (c : Dev nD) (r : Ref sig .tc) (h : r ∉ wr99) : W99 m ρ c (Proc.devRef .tc r) = W0 m ρ c (Proc.devRef .tc r) :=
  (W99_of m ρ c r fun hm => h (List.mem_append_right _ hm)).trans (W98_keep m ρ c r fun hm => h (List.mem_append_left _ hm))
abbrev wr100 : List (Ref sig .tc) := wr99 ++ hostOps12_1_W
theorem W100_keep (c : Dev nD) (r : Ref sig .tc) (h : r ∉ wr100) : W100 m ρ c (Proc.devRef .tc r) = W0 m ρ c (Proc.devRef .tc r) :=
  (W100_of m ρ c r fun hm => h (List.mem_append_right _ hm)).trans (W99_keep m ρ c r fun hm => h (List.mem_append_left _ hm))
abbrev wr101 : List (Ref sig .tc) := wr100 ++ hostOps12_2_W
theorem W101_keep (c : Dev nD) (r : Ref sig .tc) (h : r ∉ wr101) : W101 m ρ c (Proc.devRef .tc r) = W0 m ρ c (Proc.devRef .tc r) :=
  (W101_of m ρ c r fun hm => h (List.mem_append_right _ hm)).trans (W100_keep m ρ c r fun hm => h (List.mem_append_left _ hm))
abbrev wr102 : List (Ref sig .tc) := wr101 ++ hostOps12_3_W
theorem W102_keep (c : Dev nD) (r : Ref sig .tc) (h : r ∉ wr102) : W102 m ρ c (Proc.devRef .tc r) = W0 m ρ c (Proc.devRef .tc r) :=
  (W102_of m ρ c r fun hm => h (List.mem_append_right _ hm)).trans (W101_keep m ρ c r fun hm => h (List.mem_append_left _ hm))
abbrev wr103 : List (Ref sig .tc) := wr102 ++ hostOps12_4_W
theorem W103_keep (c : Dev nD) (r : Ref sig .tc) (h : r ∉ wr103) : W103 m ρ c (Proc.devRef .tc r) = W0 m ρ c (Proc.devRef .tc r) :=
  (W103_of m ρ c r fun hm => h (List.mem_append_right _ hm)).trans (W102_keep m ρ c r fun hm => h (List.mem_append_left _ hm))
abbrev wr104 : List (Ref sig .tc) := wr103 ++ hostOps12_5_W
theorem W104_keep (c : Dev nD) (r : Ref sig .tc) (h : r ∉ wr104) : W104 m ρ c (Proc.devRef .tc r) = W0 m ρ c (Proc.devRef .tc r) :=
  (W104_of m ρ c r fun hm => h (List.mem_append_right _ hm)).trans (W103_keep m ρ c r fun hm => h (List.mem_append_left _ hm))
abbrev wr105 : List (Ref sig .tc) := wr104 ++ hostOps12_6_W
theorem W105_keep (c : Dev nD) (r : Ref sig .tc) (h : r ∉ wr105) : W105 m ρ c (Proc.devRef .tc r) = W0 m ρ c (Proc.devRef .tc r) :=
  (W105_of m ρ c r fun hm => h (List.mem_append_right _ hm)).trans (W104_keep m ρ c r fun hm => h (List.mem_append_left _ hm))

/-! ## The arguments end as launched: no item writes one -/

theorem W105_main_arg0 (c : Dev nD) : W105 m ρ c (Proc.devRef .tc main_arg0) = m ((c : Thread nD τ).loc main_arg0) :=
  W105_keep m ρ c main_arg0 (by decide)
theorem W105_main_arg1 (c : Dev nD) : W105 m ρ c (Proc.devRef .tc main_arg1) = m ((c : Thread nD τ).loc main_arg1) :=
  W105_keep m ρ c main_arg1 (by decide)
theorem W105_main_arg2 (c : Dev nD) : W105 m ρ c (Proc.devRef .tc main_arg2) = m ((c : Thread nD τ).loc main_arg2) :=
  W105_keep m ρ c main_arg2 (by decide)
theorem W105_main_arg3 (c : Dev nD) : W105 m ρ c (Proc.devRef .tc main_arg3) = m ((c : Thread nD τ).loc main_arg3) :=
  W105_keep m ρ c main_arg3 (by decide)
theorem W105_main_arg4 (c : Dev nD) : W105 m ρ c (Proc.devRef .tc main_arg4) = m ((c : Thread nD τ).loc main_arg4) :=
  W105_keep m ρ c main_arg4 (by decide)
theorem W105_main_arg5 (c : Dev nD) : W105 m ρ c (Proc.devRef .tc main_arg5) = m ((c : Thread nD τ).loc main_arg5) :=
  W105_keep m ρ c main_arg5 (by decide)
theorem W105_main_arg6 (c : Dev nD) : W105 m ρ c (Proc.devRef .tc main_arg6) = m ((c : Thread nD τ).loc main_arg6) :=
  W105_keep m ρ c main_arg6 (by decide)
theorem W105_main_arg7 (c : Dev nD) : W105 m ρ c (Proc.devRef .tc main_arg7) = m ((c : Thread nD τ).loc main_arg7) :=
  W105_keep m ρ c main_arg7 (by decide)
theorem W105_main_arg8 (c : Dev nD) : W105 m ρ c (Proc.devRef .tc main_arg8) = m ((c : Thread nD τ).loc main_arg8) :=
  W105_keep m ρ c main_arg8 (by decide)
theorem W105_main_arg9 (c : Dev nD) : W105 m ρ c (Proc.devRef .tc main_arg9) = m ((c : Thread nD τ).loc main_arg9) :=
  W105_keep m ρ c main_arg9 (by decide)
theorem W105_main_arg10 (c : Dev nD) : W105 m ρ c (Proc.devRef .tc main_arg10) = m ((c : Thread nD τ).loc main_arg10) :=
  W105_keep m ρ c main_arg10 (by decide)
theorem W105_main_arg11 (c : Dev nD) : W105 m ρ c (Proc.devRef .tc main_arg11) = m ((c : Thread nD τ).loc main_arg11) :=
  W105_keep m ρ c main_arg11 (by decide)
theorem W105_main_arg12 (c : Dev nD) : W105 m ρ c (Proc.devRef .tc main_arg12) = m ((c : Thread nD τ).loc main_arg12) :=
  W105_keep m ρ c main_arg12 (by decide)
theorem W105_main_arg13 (c : Dev nD) : W105 m ρ c (Proc.devRef .tc main_arg13) = m ((c : Thread nD τ).loc main_arg13) :=
  W105_keep m ρ c main_arg13 (by decide)
theorem W105_main_arg14 (c : Dev nD) : W105 m ρ c (Proc.devRef .tc main_arg14) = m ((c : Thread nD τ).loc main_arg14) :=
  W105_keep m ρ c main_arg14 (by decide)
theorem W105_main_arg15 (c : Dev nD) : W105 m ρ c (Proc.devRef .tc main_arg15) = m ((c : Thread nD τ).loc main_arg15) :=
  W105_keep m ρ c main_arg15 (by decide)
theorem W105_main_arg16 (c : Dev nD) : W105 m ρ c (Proc.devRef .tc main_arg16) = m ((c : Thread nD τ).loc main_arg16) :=
  W105_keep m ρ c main_arg16 (by decide)

end Cert.KernelIdeal.Gen

end
-- ==== Proof.KI.Run.lean ====
import proofs.«426760_j80470507258346_3_alg».proof.Proof.KI.Segs
import proofs.«426760_j80470507258346_3_alg».proof.Proof.KI.Args

/-! The run of @main from the launch to the return, and from it the frame claim: every argument array ends as launched. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state beside the core owing nothing: every unscoped buffer at the last contents, the generator register at some state. -/
abbrev Tₙ (c : Dev nD) : sProp 𝕄 := iprop(StableHlo.held (c : Thread nD τ) (Pipeline.ucRefs τ sig) (W105 m ρ c) ∗ ∃ r, prngReg c r)

-- the launch theorem's implicit arguments are found by unifying its conclusion with this one, which unfolds definitions in a type
set_option backward.isDefEq.respectTransparency.types false in
/-- From any memory with zero counters, every weakly fair execution of @main on the TensorCores terminates, nothing
    faulting, and every final state has each unscoped buffer of each core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W105 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W105 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W105 m ρ c b)
    (hfin := fun c s' => by
      iintro ⟨⟨Hh, -⟩, HSI⟩
      unfold StableHlo.held
      imodintro
      iapply (pointsTo_read_all (Pipeline.ucRefs τ sig) (fun b => (((c : Thread nD τ)).1, b)) (W105 m ρ c) s')
      isplitl [Hh] <;> iassumption)
    (hQ := fun _ h => h)

/-- The frame claim of the program at any float instance: @main terminates from any memory with zero counters, and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (run_all m ρ).mono fun r h c =>
    ⟨(h c _ (mem_uc main_arg0 (by decide))).trans (W105_main_arg0 m ρ c),
     (h c _ (mem_uc main_arg1 (by decide))).trans (W105_main_arg1 m ρ c),
     (h c _ (mem_uc main_arg2 (by decide))).trans (W105_main_arg2 m ρ c),
     (h c _ (mem_uc main_arg3 (by decide))).trans (W105_main_arg3 m ρ c),
     (h c _ (mem_uc main_arg4 (by decide))).trans (W105_main_arg4 m ρ c),
     (h c _ (mem_uc main_arg5 (by decide))).trans (W105_main_arg5 m ρ c),
     (h c _ (mem_uc main_arg6 (by decide))).trans (W105_main_arg6 m ρ c),
     (h c _ (mem_uc main_arg7 (by decide))).trans (W105_main_arg7 m ρ c),
     (h c _ (mem_uc main_arg8 (by decide))).trans (W105_main_arg8 m ρ c),
     (h c _ (mem_uc main_arg9 (by decide))).trans (W105_main_arg9 m ρ c),
     (h c _ (mem_uc main_arg10 (by decide))).trans (W105_main_arg10 m ρ c),
     (h c _ (mem_uc main_arg11 (by decide))).trans (W105_main_arg11 m ρ c),
     (h c _ (mem_uc main_arg12 (by decide))).trans (W105_main_arg12 m ρ c),
     (h c _ (mem_uc main_arg13 (by decide))).trans (W105_main_arg13 m ρ c),
     (h c _ (mem_uc main_arg14 (by decide))).trans (W105_main_arg14 m ρ c),
     (h c _ (mem_uc main_arg15 (by decide))).trans (W105_main_arg15 m ρ c),
     (h c _ (mem_uc main_arg16 (by decide))).trans (W105_main_arg16 m ρ c)⟩

/-- The same run read at the result buffer as well: it ends at the last contents of the fold there, and every argument
    array ends as launched. -/
theorem run_val : θ_run defs (onTc (τ := τ) (main (F := F))) ⟨m, fun _ => 0, ρ⟩ (fun r => ∀ c : Dev nD,
      r.2.mem ((c.tc : Thread nD τ).loc main_v483) = W105 m ρ c (Proc.devRef .tc main_v483)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (run_all m ρ).mono fun r h c =>
    ⟨h c _ (mem_uc main_v483 (by decide)),
     (h c _ (mem_uc main_arg0 (by decide))).trans (W105_main_arg0 m ρ c),
     (h c _ (mem_uc main_arg1 (by decide))).trans (W105_main_arg1 m ρ c),
     (h c _ (mem_uc main_arg2 (by decide))).trans (W105_main_arg2 m ρ c),
     (h c _ (mem_uc main_arg3 (by decide))).trans (W105_main_arg3 m ρ c),
     (h c _ (mem_uc main_arg4 (by decide))).trans (W105_main_arg4 m ρ c),
     (h c _ (mem_uc main_arg5 (by decide))).trans (W105_main_arg5 m ρ c),
     (h c _ (mem_uc main_arg6 (by decide))).trans (W105_main_arg6 m ρ c),
     (h c _ (mem_uc main_arg7 (by decide))).trans (W105_main_arg7 m ρ c),
     (h c _ (mem_uc main_arg8 (by decide))).trans (W105_main_arg8 m ρ c),
     (h c _ (mem_uc main_arg9 (by decide))).trans (W105_main_arg9 m ρ c),
     (h c _ (mem_uc main_arg10 (by decide))).trans (W105_main_arg10 m ρ c),
     (h c _ (mem_uc main_arg11 (by decide))).trans (W105_main_arg11 m ρ c),
     (h c _ (mem_uc main_arg12 (by decide))).trans (W105_main_arg12 m ρ c),
     (h c _ (mem_uc main_arg13 (by decide))).trans (W105_main_arg13 m ρ c),
     (h c _ (mem_uc main_arg14 (by decide))).trans (W105_main_arg14 m ρ c),
     (h c _ (mem_uc main_arg15 (by decide))).trans (W105_main_arg15 m ρ c),
     (h c _ (mem_uc main_arg16 (by decide))).trans (W105_main_arg16 m ρ c)⟩

end Cert.KernelIdeal.Gen

end
-- ==== Proof.KB.Reg0.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 0 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k0_pay1` of the nine input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads its inputs through: each input block whole. -/
abbrev r0_i0 : Rect S8192x8 := Rect.unit (s := S8192x8) ![0, 0] S8192x8.size inb_S8192x8_S8192x8_0_0
abbrev r0_i1 : Rect S8192x8 := Rect.unit (s := S8192x8) ![0, 0] S8192x8.size inb_S8192x8_S8192x8_0_0
abbrev r0_i2 : Rect S8192x2 := Rect.unit (s := S8192x2) ![0, 0] S8192x2.size inb_S8192x2_S8192x2_0_0
abbrev r0_i3 : Rect S8x32 := Rect.unit (s := S8x32) ![0, 0] S8x32.size inb_S8x32_S8x32_0_0
abbrev r0_i4 : Rect S8x32 := Rect.unit (s := S8x32) ![0, 0] S8x32.size inb_S8x32_S8x32_0_0
abbrev r0_i5 : Rect S2x32 := Rect.unit (s := S2x32) ![0, 0] S2x32.size inb_S2x32_S2x32_0_0
abbrev r0_i6 : Rect S1x32 := Rect.unit (s := S1x32) ![0, 0] S1x32.size inb_S1x32_S1x32_0_0
abbrev r0_i7 : Rect S32x1 := Rect.unit (s := S32x1) ![0, 0] S32x1.size inb_S32x1_S32x1_0_0
abbrev r0_i8 : Rect S1x1 := Rect.unit (s := S1x1) ![0, 0] S1x1.size inb_S1x1_S1x1_0_0

/-- The one rectangle the body stores through: the whole result block. -/
abbrev r0_out : Rect S8192x1 := Rect.unit (s := S8192x1) ![0, 0] S8192x1.size inb_S8192x1_S8192x1_0_0

/-- The result's staging buffer after the body, from the nine input blocks. -/
def out0_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r0_out, k0_pay1 (View.ld x0 r0_i0) (View.ld x1 r0_i1) (View.ld x2 r0_i2) (View.ld x3 r0_i3) (View.ld x4 r0_i4) (View.ld x5 r0_i5) (View.ld x6 r0_i6) (View.ld x7 r0_i7) (View.ld x8 r0_i8)⟩]

/-- The one store covers the buffer. -/
theorem cover0_9 (p0 : Vec F S8192x1 .f32) (y : S8192x1.Idx) :
    ∃ pc ∈ ([⟨r0_out, p0⟩] : List (View.Piece (Elt F) S8192x1 .f32)), y ∈ pc.1.set :=
  View.cover_of_tiled [⟨r0_out, p0⟩] S8192x1.size (by rfl) y

set_option maxHeartbeats 4000000 in
/-- The body on whole staging memrefs, the inputs' at read contents and the result's at anything, runs to the
    continuation holding the inputs' as they were and the result's at `out0_9` of the inputs'. -/
theorem sound_kernel0 (c : Dev nD) (E : Set ℕ) (i : grid0.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-- The proof data of pipeline 0 on core `c`: the arrays as the pipeline finds them; after the body at point `t`
    each input's buffer at its block and the result's at `out0_9` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KB.Reg1.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 1 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k1_pay1` of the seven input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads its inputs through: each input block whole. -/
abbrev r1_i0 : Rect S8192x8 := Rect.unit (s := S8192x8) ![0, 0] S8192x8.size inb_S8192x8_S8192x8_0_0
abbrev r1_i1 : Rect S8192x1 := Rect.unit (s := S8192x1) ![0, 0] S8192x1.size inb_S8192x1_S8192x1_0_0
abbrev r1_i2 : Rect S8x32 := Rect.unit (s := S8x32) ![0, 0] S8x32.size inb_S8x32_S8x32_0_0
abbrev r1_i3 : Rect S1x32 := Rect.unit (s := S1x32) ![0, 0] S1x32.size inb_S1x32_S1x32_0_0
abbrev r1_i4 : Rect S1x32 := Rect.unit (s := S1x32) ![0, 0] S1x32.size inb_S1x32_S1x32_0_0
abbrev r1_i5 : Rect S32x8 := Rect.unit (s := S32x8) ![0, 0] S32x8.size inb_S32x8_S32x8_0_0
abbrev r1_i6 : Rect S1x8 := Rect.unit (s := S1x8) ![0, 0] S1x8.size inb_S1x8_S1x8_0_0

/-- The one rectangle the body stores through: the whole result block. -/
abbrev r1_out : Rect S8192x8 := Rect.unit (s := S8192x8) ![0, 0] S8192x8.size inb_S8192x8_S8192x8_0_0

/-- The result's staging buffer after the body, from the input blocks. -/
def out1_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r1_out, k1_pay1 (View.ld x0 r1_i0) (View.ld x1 r1_i1) (View.ld x2 r1_i2) (View.ld x3 r1_i3) (View.ld x4 r1_i4) (View.ld x5 r1_i5) (View.ld x6 r1_i6)⟩]

/-- The one store covers the buffer. -/
theorem cover1_7 (p0 : Vec F S8192x8 .f32) (y : S8192x8.Idx) :
    ∃ pc ∈ ([⟨r1_out, p0⟩] : List (View.Piece (Elt F) S8192x8 .f32)), y ∈ pc.1.set :=
  View.cover_of_tiled [⟨r1_out, p0⟩] S8192x8.size (by rfl) y

set_option maxHeartbeats 4000000 in
/-- The body on whole staging memrefs, the inputs' at read contents and the result's at anything, runs to the
    continuation holding the inputs' as they were and the result's at `out1_7` of the inputs'. -/
theorem sound_kernel1 (c : Dev nD) (E : Set ℕ) (i : grid1.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of pipeline 1 on core `c`: the arrays as the pipeline finds them; after the body at point `t`
    each input's buffer at its block and the result's at `out1_7` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KB.Reg2.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 2 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k2_pay1` of the nine input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads its inputs through: each input block whole. -/
abbrev r2_i0 : Rect S8192x8 := Rect.unit (s := S8192x8) ![0, 0] S8192x8.size inb_S8192x8_S8192x8_0_0
abbrev r2_i1 : Rect S8192x8 := Rect.unit (s := S8192x8) ![0, 0] S8192x8.size inb_S8192x8_S8192x8_0_0
abbrev r2_i2 : Rect S8192x2 := Rect.unit (s := S8192x2) ![0, 0] S8192x2.size inb_S8192x2_S8192x2_0_0
abbrev r2_i3 : Rect S8x32 := Rect.unit (s := S8x32) ![0, 0] S8x32.size inb_S8x32_S8x32_0_0
abbrev r2_i4 : Rect S8x32 := Rect.unit (s := S8x32) ![0, 0] S8x32.size inb_S8x32_S8x32_0_0
abbrev r2_i5 : Rect S2x32 := Rect.unit (s := S2x32) ![0, 0] S2x32.size inb_S2x32_S2x32_0_0
abbrev r2_i6 : Rect S1x32 := Rect.unit (s := S1x32) ![0, 0] S1x32.size inb_S1x32_S1x32_0_0
abbrev r2_i7 : Rect S32x1 := Rect.unit (s := S32x1) ![0, 0] S32x1.size inb_S32x1_S32x1_0_0
abbrev r2_i8 : Rect S1x1 := Rect.unit (s := S1x1) ![0, 0] S1x1.size inb_S1x1_S1x1_0_0

/-- The one rectangle the body stores through: the whole result block. -/
abbrev r2_out : Rect S8192x1 := Rect.unit (s := S8192x1) ![0, 0] S8192x1.size inb_S8192x1_S8192x1_0_0

/-- The result's staging buffer after the body, from the nine input blocks. -/
def out2_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r2_out, k2_pay1 (View.ld x0 r2_i0) (View.ld x1 r2_i1) (View.ld x2 r2_i2) (View.ld x3 r2_i3) (View.ld x4 r2_i4) (View.ld x5 r2_i5) (View.ld x6 r2_i6) (View.ld x7 r2_i7) (View.ld x8 r2_i8)⟩]

/-- The one store covers the buffer. -/
theorem cover2_9 (p0 : Vec F S8192x1 .f32) (y : S8192x1.Idx) :
    ∃ pc ∈ ([⟨r2_out, p0⟩] : List (View.Piece (Elt F) S8192x1 .f32)), y ∈ pc.1.set :=
  View.cover_of_tiled [⟨r2_out, p0⟩] S8192x1.size (by rfl) y

set_option maxHeartbeats 4000000 in
/-- The body on whole staging memrefs, the inputs' at read contents and the result's at anything, runs to the
    continuation holding the inputs' as they were and the result's at `out2_9` of the inputs'. -/
theorem sound_kernel2 (c : Dev nD) (E : Set ℕ) (i : grid2.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__edge_mlp_kernel i arg1 harg1 arg2 harg2 arg3 harg3 arg4 harg4 arg5 harg5 arg6 harg6 arg7 harg7 arg8 harg8 arg9 harg9 arg10 harg10) K := by
  simp only [cc2__edge_mlp_kernel_eq_skeleton]; unfold cc2__edge_mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-- The proof data of pipeline 2 on core `c`: the arrays as the pipeline finds them; after the body at point `t`
    each input's buffer at its block and the result's at `out2_9` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KB.Reg3.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 3 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k3_pay1` of the seven input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads its inputs through: each input block whole. -/
abbrev r3_i0 : Rect S8192x8 := Rect.unit (s := S8192x8) ![0, 0] S8192x8.size inb_S8192x8_S8192x8_0_0
abbrev r3_i1 : Rect S8192x1 := Rect.unit (s := S8192x1) ![0, 0] S8192x1.size inb_S8192x1_S8192x1_0_0
abbrev r3_i2 : Rect S8x32 := Rect.unit (s := S8x32) ![0, 0] S8x32.size inb_S8x32_S8x32_0_0
abbrev r3_i3 : Rect S1x32 := Rect.unit (s := S1x32) ![0, 0] S1x32.size inb_S1x32_S1x32_0_0
abbrev r3_i4 : Rect S1x32 := Rect.unit (s := S1x32) ![0, 0] S1x32.size inb_S1x32_S1x32_0_0
abbrev r3_i5 : Rect S32x8 := Rect.unit (s := S32x8) ![0, 0] S32x8.size inb_S32x8_S32x8_0_0
abbrev r3_i6 : Rect S1x8 := Rect.unit (s := S1x8) ![0, 0] S1x8.size inb_S1x8_S1x8_0_0

/-- The one rectangle the body stores through: the whole result block. -/
abbrev r3_out : Rect S8192x8 := Rect.unit (s := S8192x8) ![0, 0] S8192x8.size inb_S8192x8_S8192x8_0_0

/-- The result's staging buffer after the body, from the input blocks. -/
def out3_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r3_out, k3_pay1 (View.ld x0 r3_i0) (View.ld x1 r3_i1) (View.ld x2 r3_i2) (View.ld x3 r3_i3) (View.ld x4 r3_i4) (View.ld x5 r3_i5) (View.ld x6 r3_i6)⟩]

/-- The one store covers the buffer. -/
theorem cover3_7 (p0 : Vec F S8192x8 .f32) (y : S8192x8.Idx) :
    ∃ pc ∈ ([⟨r3_out, p0⟩] : List (View.Piece (Elt F) S8192x8 .f32)), y ∈ pc.1.set :=
  View.cover_of_tiled [⟨r3_out, p0⟩] S8192x8.size (by rfl) y

set_option maxHeartbeats 4000000 in
/-- The body on whole staging memrefs, the inputs' at read contents and the result's at anything, runs to the
    continuation holding the inputs' as they were and the result's at `out3_7` of the inputs'. -/
theorem sound_kernel3 (c : Dev nD) (E : Set ℕ) (i : grid3.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__node_mlp_kernel i arg1 harg1 arg2 harg2 arg3 harg3 arg4 harg4 arg5 harg5 arg6 harg6 arg7 harg7 arg8 harg8) K := by
  simp only [cc3__node_mlp_kernel_eq_skeleton]; unfold cc3__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The proof data of pipeline 3 on core `c`: the arrays as the pipeline finds them; after the body at point `t`
    each input's buffer at its block and the result's at `out3_7` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KB.Reg4.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 4 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k4_pay1` of the nine input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads its inputs through: each input block whole. -/
abbrev r4_i0 : Rect S8192x8 := Rect.unit (s := S8192x8) ![0, 0] S8192x8.size inb_S8192x8_S8192x8_0_0
abbrev r4_i1 : Rect S8192x8 := Rect.unit (s := S8192x8) ![0, 0] S8192x8.size inb_S8192x8_S8192x8_0_0
abbrev r4_i2 : Rect S8192x2 := Rect.unit (s := S8192x2) ![0, 0] S8192x2.size inb_S8192x2_S8192x2_0_0
abbrev r4_i3 : Rect S8x32 := Rect.unit (s := S8x32) ![0, 0] S8x32.size inb_S8x32_S8x32_0_0
abbrev r4_i4 : Rect S8x32 := Rect.unit (s := S8x32) ![0, 0] S8x32.size inb_S8x32_S8x32_0_0
abbrev r4_i5 : Rect S2x32 := Rect.unit (s := S2x32) ![0, 0] S2x32.size inb_S2x32_S2x32_0_0
abbrev r4_i6 : Rect S1x32 := Rect.unit (s := S1x32) ![0, 0] S1x32.size inb_S1x32_S1x32_0_0
abbrev r4_i7 : Rect S32x1 := Rect.unit (s := S32x1) ![0, 0] S32x1.size inb_S32x1_S32x1_0_0
abbrev r4_i8 : Rect S1x1 := Rect.unit (s := S1x1) ![0, 0] S1x1.size inb_S1x1_S1x1_0_0

/-- The one rectangle the body stores through: the whole result block. -/
abbrev r4_out : Rect S8192x1 := Rect.unit (s := S8192x1) ![0, 0] S8192x1.size inb_S8192x1_S8192x1_0_0

/-- The result's staging buffer after the body, from the nine input blocks. -/
def out4_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r4_out, k4_pay1 (View.ld x0 r4_i0) (View.ld x1 r4_i1) (View.ld x2 r4_i2) (View.ld x3 r4_i3) (View.ld x4 r4_i4) (View.ld x5 r4_i5) (View.ld x6 r4_i6) (View.ld x7 r4_i7) (View.ld x8 r4_i8)⟩]

/-- The one store covers the buffer. -/
theorem cover4_9 (p0 : Vec F S8192x1 .f32) (y : S8192x1.Idx) :
    ∃ pc ∈ ([⟨r4_out, p0⟩] : List (View.Piece (Elt F) S8192x1 .f32)), y ∈ pc.1.set :=
  View.cover_of_tiled [⟨r4_out, p0⟩] S8192x1.size (by rfl) y

set_option maxHeartbeats 4000000 in
/-- The body on whole staging memrefs, the inputs' at read contents and the result's at anything, runs to the
    continuation holding the inputs' as they were and the result's at `out4_9` of the inputs'. -/
theorem sound_kernel4 (c : Dev nD) (E : Set ℕ) (i : grid4.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__edge_mlp_kernel i arg1 harg1 arg2 harg2 arg3 harg3 arg4 harg4 arg5 harg5 arg6 harg6 arg7 harg7 arg8 harg8 arg9 harg9 arg10 harg10) K := by
  simp only [cc4__edge_mlp_kernel_eq_skeleton]; unfold cc4__edge_mlp_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4_9 _)

/-- The proof data of pipeline 4 on core `c`: the arrays as the pipeline finds them; after the body at point `t`
    each input's buffer at its block and the result's at `out4_9` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.KB.Reg5.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 5 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k5_pay1` of the seven input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body loads its inputs through: each input block whole. -/
abbrev r5_i0 : Rect S8192x8 := Rect.unit (s := S8192x8) ![0, 0] S8192x8.size inb_S8192x8_S8192x8_0_0
abbrev r5_i1 : Rect S8192x1 := Rect.unit (s := S8192x1) ![0, 0] S8192x1.size inb_S8192x1_S8192x1_0_0
abbrev r5_i2 : Rect S8x32 := Rect.unit (s := S8x32) ![0, 0] S8x32.size inb_S8x32_S8x32_0_0
abbrev r5_i3 : Rect S1x32 := Rect.unit (s := S1x32) ![0, 0] S1x32.size inb_S1x32_S1x32_0_0
abbrev r5_i4 : Rect S1x32 := Rect.unit (s := S1x32) ![0, 0] S1x32.size inb_S1x32_S1x32_0_0
abbrev r5_i5 : Rect S32x8 := Rect.unit (s := S32x8) ![0, 0] S32x8.size inb_S32x8_S32x8_0_0
abbrev r5_i6 : Rect S1x8 := Rect.unit (s := S1x8) ![0, 0] S1x8.size inb_S1x8_S1x8_0_0

/-- The one rectangle the body stores through: the whole result block. -/
abbrev r5_out : Rect S8192x8 := Rect.unit (s := S8192x8) ![0, 0] S8192x8.size inb_S8192x8_S8192x8_0_0

/-- The result's staging buffer after the body, from the input blocks. -/
def out5_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r5_out, k5_pay1 (View.ld x0 r5_i0) (View.ld x1 r5_i1) (View.ld x2 r5_i2) (View.ld x3 r5_i3) (View.ld x4 r5_i4) (View.ld x5 r5_i5) (View.ld x6 r5_i6)⟩]

/-- The one store covers the buffer. -/
theorem cover5_7 (p0 : Vec F S8192x8 .f32) (y : S8192x8.Idx) :
    ∃ pc ∈ ([⟨r5_out, p0⟩] : List (View.Piece (Elt F) S8192x8 .f32)), y ∈ pc.1.set :=
  View.cover_of_tiled [⟨r5_out, p0⟩] S8192x8.size (by rfl) y

set_option maxHeartbeats 4000000 in
/-- The body on whole staging memrefs, the inputs' at read contents and the result's at anything, runs to the
    continuation holding the inputs' as they were and the result's at `out5_7` of the inputs'. -/
theorem sound_kernel5 (c : Dev nD) (E : Set ℕ) (i : grid5.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__node_mlp_kernel i arg1 harg1 arg2 harg2 arg3 harg3 arg4 harg4 arg5 harg5 arg6 harg6 arg7 harg7 arg8 harg8) K := by
  simp only [cc5__node_mlp_kernel_eq_skeleton]; unfold cc5__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-- The proof data of pipeline 5 on core `c`: the arrays as the pipeline finds them; after the body at point `t`
    each input's buffer at its block and the result's at `out5_7` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.KB.Reg6.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 6 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k6_pay1` of the nine input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body loads its inputs through: each input block whole. -/
abbrev r6_i0 : Rect S8192x8 := Rect.unit (s := S8192x8) ![0, 0] S8192x8.size inb_S8192x8_S8192x8_0_0
abbrev r6_i1 : Rect S8192x8 := Rect.unit (s := S8192x8) ![0, 0] S8192x8.size inb_S8192x8_S8192x8_0_0
abbrev r6_i2 : Rect S8192x2 := Rect.unit (s := S8192x2) ![0, 0] S8192x2.size inb_S8192x2_S8192x2_0_0
abbrev r6_i3 : Rect S8x32 := Rect.unit (s := S8x32) ![0, 0] S8x32.size inb_S8x32_S8x32_0_0
abbrev r6_i4 : Rect S8x32 := Rect.unit (s := S8x32) ![0, 0] S8x32.size inb_S8x32_S8x32_0_0
abbrev r6_i5 : Rect S2x32 := Rect.unit (s := S2x32) ![0, 0] S2x32.size inb_S2x32_S2x32_0_0
abbrev r6_i6 : Rect S1x32 := Rect.unit (s := S1x32) ![0, 0] S1x32.size inb_S1x32_S1x32_0_0
abbrev r6_i7 : Rect S32x1 := Rect.unit (s := S32x1) ![0, 0] S32x1.size inb_S32x1_S32x1_0_0
abbrev r6_i8 : Rect S1x1 := Rect.unit (s := S1x1) ![0, 0] S1x1.size inb_S1x1_S1x1_0_0

/-- The one rectangle the body stores through: the whole result block. -/
abbrev r6_out : Rect S8192x1 := Rect.unit (s := S8192x1) ![0, 0] S8192x1.size inb_S8192x1_S8192x1_0_0

/-- The result's staging buffer after the body, from the nine input blocks. -/
def out6_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r6_out, k6_pay1 (View.ld x0 r6_i0) (View.ld x1 r6_i1) (View.ld x2 r6_i2) (View.ld x3 r6_i3) (View.ld x4 r6_i4) (View.ld x5 r6_i5) (View.ld x6 r6_i6) (View.ld x7 r6_i7) (View.ld x8 r6_i8)⟩]

/-- The one store covers the buffer. -/
theorem cover6_9 (p0 : Vec F S8192x1 .f32) (y : S8192x1.Idx) :
    ∃ pc ∈ ([⟨r6_out, p0⟩] : List (View.Piece (Elt F) S8192x1 .f32)), y ∈ pc.1.set :=
  View.cover_of_tiled [⟨r6_out, p0⟩] S8192x1.size (by rfl) y

set_option maxHeartbeats 4000000 in
/-- The body on whole staging memrefs, the inputs' at read contents and the result's at anything, runs to the
    continuation holding the inputs' as they were and the result's at `out6_9` of the inputs'. -/
theorem sound_kernel6 (c : Dev nD) (E : Set ℕ) (i : grid6.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out6_9 x0 x1 x2 x3 x4 x5 x6 x7 x8)) -∗ K ⟨⟩))
      ⊢ wp frame (wpE (defs₀ (F := F)) Variants.none c none) E (cc6__edge_mlp_kernel i arg1 harg1 arg2 harg2 arg3 harg3 arg4 harg4 arg5 harg5 arg6 harg6 arg7 harg7 arg8 harg8 arg9 harg9 arg10 harg10) K := by
  simp only [cc6__edge_mlp_kernel_eq_skeleton]; unfold cc6__edge_mlp_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6_9 _)

/-- The proof data of pipeline 6 on core `c`: the arrays as the pipeline finds them; after the body at point `t`
    each input's buffer at its block and the result's at `out6_9` of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.KB.Reg7.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 7 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k7_pay1` of the seven input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body loads its inputs through: each input block whole. -/
abbrev r7_i0 : Rect S8192x8 := Rect.unit (s := S8192x8) ![0, 0] S8192x8.size inb_S8192x8_S8192x8_0_0
abbrev r7_i1 : Rect S8192x1 := Rect.unit (s := S8192x1) ![0, 0] S8192x1.size inb_S8192x1_S8192x1_0_0
abbrev r7_i2 : Rect S8x32 := Rect.unit (s := S8x32) ![0, 0] S8x32.size inb_S8x32_S8x32_0_0
abbrev r7_i3 : Rect S1x32 := Rect.unit (s := S1x32) ![0, 0] S1x32.size inb_S1x32_S1x32_0_0
abbrev r7_i4 : Rect S1x32 := Rect.unit (s := S1x32) ![0, 0] S1x32.size inb_S1x32_S1x32_0_0
abbrev r7_i5 : Rect S32x8 := Rect.unit (s := S32x8) ![0, 0] S32x8.size inb_S32x8_S32x8_0_0
abbrev r7_i6 : Rect S1x8 := Rect.unit (s := S1x8) ![0, 0] S1x8.size inb_S1x8_S1x8_0_0

/-- The one rectangle the body stores through: the whole result block. -/
abbrev r7_out : Rect S8192x8 := Rect.unit (s := S8192x8) ![0, 0] S8192x8.size inb_S8192x8_S8192x8_0_0

/-- The result's staging buffer after the body, from the input blocks. -/
def out7_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r7_out, k7_pay1 (View.ld x0 r7_i0) (View.ld x1 r7_i1) (View.ld x2 r7_i2) (View.ld x3 r7_i3) (View.ld x4 r7_i4) (View.ld x5 r7_i5) (View.ld x6 r7_i6)⟩]

/-- The one store covers the buffer. -/
theorem cover7_7 (p0 : Vec F S8192x8 .f32) (y : S8192x8.Idx) :
    ∃ pc ∈ ([⟨r7_out, p0⟩] : List (View.Piece (Elt F) S8192x8 .f32)), y ∈ pc.1.set :=
  View.cover_of_tiled [⟨r7_out, p0⟩] S8192x8.size (by rfl) y

set_option maxHeartbeats 4000000 in
/-- The body on whole staging memrefs, the inputs' at read contents and the result's at anything, runs to the
    continuation holding the inputs' as they were and the result's at `out7_7` of the inputs'. -/
theorem sound_kernel7 (c : Dev nD) (E : Set ℕ) (i : grid7.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__node_mlp_kernel i arg1 harg1 arg2 harg2 arg3 harg3 arg4 harg4 arg5 harg5 arg6 harg6 arg7 harg7 arg8 harg8) K := by
  simp only [cc7__node_mlp_kernel_eq_skeleton]; unfold cc7__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-- The proof data of pipeline 7 on core `c`: the arrays as the pipeline finds them; after the body at point `t`
    each input's buffer at its block and the result's at `out7_7` of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Gen

end
-- ==== Proof.KB.Reg8.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 8 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k8_pay1` of the nine input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, fetched there or not. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current staging buffer holds its block at every point, fetched there or not. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- The rectangles the body loads its inputs through: each input block whole. -/
abbrev r8_i0 : Rect S8192x8 := Rect.unit (s := S8192x8) ![0, 0] S8192x8.size inb_S8192x8_S8192x8_0_0
abbrev r8_i1 : Rect S8192x8 := Rect.unit (s := S8192x8) ![0, 0] S8192x8.size inb_S8192x8_S8192x8_0_0
abbrev r8_i2 : Rect S8192x2 := Rect.unit (s := S8192x2) ![0, 0] S8192x2.size inb_S8192x2_S8192x2_0_0
abbrev r8_i3 : Rect S8x32 := Rect.unit (s := S8x32) ![0, 0] S8x32.size inb_S8x32_S8x32_0_0
abbrev r8_i4 : Rect S8x32 := Rect.unit (s := S8x32) ![0, 0] S8x32.size inb_S8x32_S8x32_0_0
abbrev r8_i5 : Rect S2x32 := Rect.unit (s := S2x32) ![0, 0] S2x32.size inb_S2x32_S2x32_0_0
abbrev r8_i6 : Rect S1x32 := Rect.unit (s := S1x32) ![0, 0] S1x32.size inb_S1x32_S1x32_0_0
abbrev r8_i7 : Rect S32x1 := Rect.unit (s := S32x1) ![0, 0] S32x1.size inb_S32x1_S32x1_0_0
abbrev r8_i8 : Rect S1x1 := Rect.unit (s := S1x1) ![0, 0] S1x1.size inb_S1x1_S1x1_0_0

/-- The one rectangle the body stores through: the whole result block. -/
abbrev r8_out : Rect S8192x1 := Rect.unit (s := S8192x1) ![0, 0] S8192x1.size inb_S8192x1_S8192x1_0_0

/-- The result's staging buffer after the body, from the nine input blocks. -/
def out8_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r8_out, k8_pay1 (View.ld x0 r8_i0) (View.ld x1 r8_i1) (View.ld x2 r8_i2) (View.ld x3 r8_i3) (View.ld x4 r8_i4) (View.ld x5 r8_i5) (View.ld x6 r8_i6) (View.ld x7 r8_i7) (View.ld x8 r8_i8)⟩]

/-- The one store covers the buffer. -/
theorem cover8_9 (p0 : Vec F S8192x1 .f32) (y : S8192x1.Idx) :
    ∃ pc ∈ ([⟨r8_out, p0⟩] : List (View.Piece (Elt F) S8192x1 .f32)), y ∈ pc.1.set :=
  View.cover_of_tiled [⟨r8_out, p0⟩] S8192x1.size (by rfl) y

set_option maxHeartbeats 4000000 in
/-- The body on whole staging memrefs, the inputs' at read contents and the result's at anything, runs to the
    continuation holding the inputs' as they were and the result's at `out8_9` of the inputs'. -/
theorem sound_kernel8 (c : Dev nD) (E : Set ℕ) (i : grid8.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out8_9 x0 x1 x2 x3 x4 x5 x6 x7 x8)) -∗ K ⟨⟩))
      ⊢ wp frame (wpE (defs₀ (F := F)) Variants.none c none) E (cc8__edge_mlp_kernel i arg1 harg1 arg2 harg2 arg3 harg3 arg4 harg4 arg5 harg5 arg6 harg6 arg7 harg7 arg8 harg8 arg9 harg9 arg10 harg10) K := by
  simp only [cc8__edge_mlp_kernel_eq_skeleton]; unfold cc8__edge_mlp_kernel_skel
  simp only [k8_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8_9 _)

/-- The proof data of pipeline 8 on core `c`: the arrays as the pipeline finds them; after the body at point `t`
    each input's buffer at its block and the result's at `out8_9` of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Gen

end
-- ==== Proof.KB.Reg9.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 9 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k9_pay1` of the seven input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's current staging buffer holds its block at every point, fetched there or not. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- The rectangles the body loads its inputs through: each input block whole. -/
abbrev r9_i0 : Rect S8192x8 := Rect.unit (s := S8192x8) ![0, 0] S8192x8.size inb_S8192x8_S8192x8_0_0
abbrev r9_i1 : Rect S8192x1 := Rect.unit (s := S8192x1) ![0, 0] S8192x1.size inb_S8192x1_S8192x1_0_0
abbrev r9_i2 : Rect S8x32 := Rect.unit (s := S8x32) ![0, 0] S8x32.size inb_S8x32_S8x32_0_0
abbrev r9_i3 : Rect S1x32 := Rect.unit (s := S1x32) ![0, 0] S1x32.size inb_S1x32_S1x32_0_0
abbrev r9_i4 : Rect S1x32 := Rect.unit (s := S1x32) ![0, 0] S1x32.size inb_S1x32_S1x32_0_0
abbrev r9_i5 : Rect S32x8 := Rect.unit (s := S32x8) ![0, 0] S32x8.size inb_S32x8_S32x8_0_0
abbrev r9_i6 : Rect S1x8 := Rect.unit (s := S1x8) ![0, 0] S1x8.size inb_S1x8_S1x8_0_0

/-- The one rectangle the body stores through: the whole result block. -/
abbrev r9_out : Rect S8192x8 := Rect.unit (s := S8192x8) ![0, 0] S8192x8.size inb_S8192x8_S8192x8_0_0

/-- The result's staging buffer after the body, from the input blocks. -/
def out9_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r9_out, k9_pay1 (View.ld x0 r9_i0) (View.ld x1 r9_i1) (View.ld x2 r9_i2) (View.ld x3 r9_i3) (View.ld x4 r9_i4) (View.ld x5 r9_i5) (View.ld x6 r9_i6)⟩]

/-- The one store covers the buffer. -/
theorem cover9_7 (p0 : Vec F S8192x8 .f32) (y : S8192x8.Idx) :
    ∃ pc ∈ ([⟨r9_out, p0⟩] : List (View.Piece (Elt F) S8192x8 .f32)), y ∈ pc.1.set :=
  View.cover_of_tiled [⟨r9_out, p0⟩] S8192x8.size (by rfl) y

set_option maxHeartbeats 4000000 in
/-- The body on whole staging memrefs, the inputs' at read contents and the result's at anything, runs to the
    continuation holding the inputs' as they were and the result's at `out9_7` of the inputs'. -/
theorem sound_kernel9 (c : Dev nD) (E : Set ℕ) (i : grid9.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9__node_mlp_kernel i arg1 harg1 arg2 harg2 arg3 harg3 arg4 harg4 arg5 harg5 arg6 harg6 arg7 harg7 arg8 harg8) K := by
  simp only [cc9__node_mlp_kernel_eq_skeleton]; unfold cc9__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-- The proof data of pipeline 9 on core `c`: the arrays as the pipeline finds them; after the body at point `t`
    each input's buffer at its block and the result's at `out9_7` of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Gen

end
-- ==== Proof.KB.Reg10.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 10 (an edge network: two layers over three row blocks and a folded bias), at ANY contents `V` of the
    TensorCore's buffers when the pipeline is entered. A grid point `t` reads rows `8192 t … 8192 t + 8191` of the
    three row operands and the six small operands whole, and writes those rows of the result: the staging buffer of
    the result after the body is the body's one value `k10_pay1` of the nine input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- Input window 7's current staging buffer holds its block at every point, fetched there or not. -/
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-- Input window 8's current staging buffer holds its block at every point, fetched there or not. -/
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

/-- The rectangles the body loads its inputs through: each input block whole. -/
abbrev r10_i0 : Rect S8192x8 := Rect.unit (s := S8192x8) ![0, 0] S8192x8.size inb_S8192x8_S8192x8_0_0
abbrev r10_i1 : Rect S8192x8 := Rect.unit (s := S8192x8) ![0, 0] S8192x8.size inb_S8192x8_S8192x8_0_0
abbrev r10_i2 : Rect S8192x2 := Rect.unit (s := S8192x2) ![0, 0] S8192x2.size inb_S8192x2_S8192x2_0_0
abbrev r10_i3 : Rect S8x32 := Rect.unit (s := S8x32) ![0, 0] S8x32.size inb_S8x32_S8x32_0_0
abbrev r10_i4 : Rect S8x32 := Rect.unit (s := S8x32) ![0, 0] S8x32.size inb_S8x32_S8x32_0_0
abbrev r10_i5 : Rect S2x32 := Rect.unit (s := S2x32) ![0, 0] S2x32.size inb_S2x32_S2x32_0_0
abbrev r10_i6 : Rect S1x32 := Rect.unit (s := S1x32) ![0, 0] S1x32.size inb_S1x32_S1x32_0_0
abbrev r10_i7 : Rect S32x1 := Rect.unit (s := S32x1) ![0, 0] S32x1.size inb_S32x1_S32x1_0_0
abbrev r10_i8 : Rect S1x1 := Rect.unit (s := S1x1) ![0, 0] S1x1.size inb_S1x1_S1x1_0_0

/-- The one rectangle the body stores through: the whole result block. -/
abbrev r10_out : Rect S8192x1 := Rect.unit (s := S8192x1) ![0, 0] S8192x1.size inb_S8192x1_S8192x1_0_0

/-- The result's staging buffer after the body, from the nine input blocks. -/
def out10_9 (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) : Vec F S8192x1 .f32 :=
  View.canon [⟨r10_out, k10_pay1 (View.ld x0 r10_i0) (View.ld x1 r10_i1) (View.ld x2 r10_i2) (View.ld x3 r10_i3) (View.ld x4 r10_i4) (View.ld x5 r10_i5) (View.ld x6 r10_i6) (View.ld x7 r10_i7) (View.ld x8 r10_i8)⟩]

/-- The one store covers the buffer. -/
theorem cover10_9 (p0 : Vec F S8192x1 .f32) (y : S8192x1.Idx) :
    ∃ pc ∈ ([⟨r10_out, p0⟩] : List (View.Piece (Elt F) S8192x1 .f32)), y ∈ pc.1.set :=
  View.cover_of_tiled [⟨r10_out, p0⟩] S8192x1.size (by rfl) y

set_option maxHeartbeats 4000000 in
/-- The body on whole staging memrefs, the inputs' at read contents and the result's at anything, runs to the
    continuation holding the inputs' as they were and the result's at `out10_9` of the inputs'. -/
theorem sound_kernel10 (c : Dev nD) (E : Set ℕ) (i : grid10.Coords) (arg1 : Memref sig .tc .vmem S8192x8 .bf16) (harg1 : arg1.IsWhole) (arg2 : Memref sig .tc .vmem S8192x8 .bf16) (harg2 : arg2.IsWhole) (arg3 : Memref sig .tc .vmem S8192x2 .bf16) (harg3 : arg3.IsWhole) (arg4 : Memref sig .tc .vmem S8x32 .f32) (harg4 : arg4.IsWhole) (arg5 : Memref sig .tc .vmem S8x32 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S8192x1 .f32) (harg10 : arg10.IsWhole)
    (x0 : Vec F S8192x8 .bf16) (x1 : Vec F S8192x8 .bf16) (x2 : Vec F S8192x2 .bf16) (x3 : Vec F S8x32 .f32) (x4 : Vec F S8x32 .f32) (x5 : Vec F S2x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out10_9 x0 x1 x2 x3 x4 x5 x6 x7 x8)) -∗ K ⟨⟩))
      ⊢ wp frame (wpE (defs₀ (F := F)) Variants.none c none) E (cc10__edge_mlp_kernel i arg1 harg1 arg2 harg2 arg3 harg3 arg4 harg4 arg5 harg5 arg6 harg6 arg7 harg7 arg8 harg8 arg9 harg9 arg10 harg10) K := by
  simp only [cc10__edge_mlp_kernel_eq_skeleton]; unfold cc10__edge_mlp_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover10_9 _)

/-- The proof data of pipeline 10 on core `c`: the arrays as the pipeline finds them; after the body at point `t`
    each input's buffer at its block and the result's at `out10_9` of the input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => out10_9 (iblk10 V c 0 t) (iblk10 V c 1 t) (iblk10 V c 2 t) (iblk10 V c 3 t) (iblk10 V c 4 t) (iblk10 V c 5 t) (iblk10 V c 6 t) (iblk10 V c 7 t) (iblk10 V c 8 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) (iblk10 V c 7 t) (iblk10 V c 8 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) (iblk10 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Gen

end
-- ==== Proof.KB.Reg11.lean ====
import proofs.«426760_j80470507258346_3_alg».proof.Proof.Gen.Kernel.Launch
import proofs.«426760_j80470507258346_3_alg».proof.Proof.Gen.Kernel.Skeleton
import proofs.«426760_j80470507258346_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pipeline 11 (a node network: two layers over two row blocks and a folded bias), at ANY contents `V` of the
    TensorCore's buffers when the pipeline is entered. A grid point `t` reads rows `8192 t … 8192 t + 8191` of the
    two row operands and the five small operands whole, and writes those rows of the result: the staging buffer of
    the result after the body is the body's one value `k11_pay1` of the seven input blocks. From that: the proof data
    (every input's buffer at its block, the result's at that value), and the body's obligation at every point. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-- Input window 6's current staging buffer holds its block at every point, fetched there or not. -/
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

/-- The rectangles the body loads its inputs through: each input block whole. -/
abbrev r11_i0 : Rect S8192x8 := Rect.unit (s := S8192x8) ![0, 0] S8192x8.size inb_S8192x8_S8192x8_0_0
abbrev r11_i1 : Rect S8192x1 := Rect.unit (s := S8192x1) ![0, 0] S8192x1.size inb_S8192x1_S8192x1_0_0
abbrev r11_i2 : Rect S8x32 := Rect.unit (s := S8x32) ![0, 0] S8x32.size inb_S8x32_S8x32_0_0
abbrev r11_i3 : Rect S1x32 := Rect.unit (s := S1x32) ![0, 0] S1x32.size inb_S1x32_S1x32_0_0
abbrev r11_i4 : Rect S1x32 := Rect.unit (s := S1x32) ![0, 0] S1x32.size inb_S1x32_S1x32_0_0
abbrev r11_i5 : Rect S32x8 := Rect.unit (s := S32x8) ![0, 0] S32x8.size inb_S32x8_S32x8_0_0
abbrev r11_i6 : Rect S1x8 := Rect.unit (s := S1x8) ![0, 0] S1x8.size inb_S1x8_S1x8_0_0

/-- The one rectangle the body stores through: the whole result block. -/
abbrev r11_out : Rect S8192x8 := Rect.unit (s := S8192x8) ![0, 0] S8192x8.size inb_S8192x8_S8192x8_0_0

/-- The result's staging buffer after the body, from the input blocks. -/
def out11_7 (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) : Vec F S8192x8 .f32 :=
  View.canon [⟨r11_out, k11_pay1 (View.ld x0 r11_i0) (View.ld x1 r11_i1) (View.ld x2 r11_i2) (View.ld x3 r11_i3) (View.ld x4 r11_i4) (View.ld x5 r11_i5) (View.ld x6 r11_i6)⟩]

/-- The one store covers the buffer. -/
theorem cover11_7 (p0 : Vec F S8192x8 .f32) (y : S8192x8.Idx) :
    ∃ pc ∈ ([⟨r11_out, p0⟩] : List (View.Piece (Elt F) S8192x8 .f32)), y ∈ pc.1.set :=
  View.cover_of_tiled [⟨r11_out, p0⟩] S8192x8.size (by rfl) y

set_option maxHeartbeats 4000000 in
/-- The body on whole staging memrefs, the inputs' at read contents and the result's at anything, runs to the
    continuation holding the inputs' as they were and the result's at `out11_7` of the inputs'. -/
theorem sound_kernel11 (c : Dev nD) (E : Set ℕ) (i : grid11.Coords) (arg1 : Memref sig .tc .vmem S8192x8 .bf16) (harg1 : arg1.IsWhole) (arg2 : Memref sig .tc .vmem S8192x1 .bf16) (harg2 : arg2.IsWhole) (arg3 : Memref sig .tc .vmem S8x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x8 .f32) (harg6 : arg6.IsWhole) (arg7 : Memref sig .tc .vmem S1x8 .f32) (harg7 : arg7.IsWhole) (arg8 : Memref sig .tc .vmem S8192x8 .f32) (harg8 : arg8.IsWhole)
    (x0 : Vec F S8192x8 .bf16) (x1 : Vec F S8192x1 .bf16) (x2 : Vec F S8x32 .f32) (x3 : Vec F S1x32 .f32) (x4 : Vec F S1x32 .f32) (x5 : Vec F S32x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out11_7 x0 x1 x2 x3 x4 x5 x6)) -∗ K ⟨⟩))
      ⊢ wp frame (wpE (defs₀ (F := F)) Variants.none c none) E (cc11__node_mlp_kernel i arg1 harg1 arg2 harg2 arg3 harg3 arg4 harg4 arg5 harg5 arg6 harg6 arg7 harg7 arg8 harg8) K := by
  simp only [cc11__node_mlp_kernel_eq_skeleton]; unfold cc11__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover11_7 _)

/-- The proof data of pipeline 11 on core `c`: the arrays as the pipeline finds them; after the body at point `t`
    each input's buffer at its block and the result's at `out11_7` of the input blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => out11_7 (iblk11 V c 0 t) (iblk11 V c 1 t) (iblk11 V c 2 t) (iblk11 V c 3 t) (iblk11 V c 4 t) (iblk11 V c 5 t) (iblk11 V c 6 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = out11_7 (iblk11 V c 0 t) (iblk11 V c 1 t) (iblk11 V c 2 t) (iblk11 V c 3 t) (iblk11 V c 4 t) (iblk11 V c 5 t) (iblk11 V c 6 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t))

/-- The body at any point: the inputs' memrefs hold their blocks, so `sound_kernel11` applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel11 c Set.univ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Gen

end
-- ==== Proof.KB.Fold.lean ====
import proofs.«426760_j80470507258346_3_alg».proof.Proof.KB.Reg0
import proofs.«426760_j80470507258346_3_alg».proof.Proof.KB.Reg1
import proofs.«426760_j80470507258346_3_alg».proof.Proof.KB.Reg2
import proofs.«426760_j80470507258346_3_alg».proof.Proof.KB.Reg3
import proofs.«426760_j80470507258346_3_alg».proof.Proof.KB.Reg4
import proofs.«426760_j80470507258346_3_alg».proof.Proof.KB.Reg5
import proofs.«426760_j80470507258346_3_alg».proof.Proof.KB.Reg6
import proofs.«426760_j80470507258346_3_alg».proof.Proof.KB.Reg7
import proofs.«426760_j80470507258346_3_alg».proof.Proof.KB.Reg8
import proofs.«426760_j80470507258346_3_alg».proof.Proof.KB.Reg9
import proofs.«426760_j80470507258346_3_alg».proof.Proof.KB.Reg10
import proofs.«426760_j80470507258346_3_alg».proof.Proof.KB.Reg11

/-! The buffer contents of a TensorCore at every boundary between two items of @main, folded from the launch
    memory: a host item rewrites the buffers its operations write (`StableHlo.after`); a kernel region leaves each
    of its arrays at what its write-backs make of it and every other buffer as it was entered (`Pipeline.withArrays`). -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` at launch. -/
abbrev W0 : Dev nD → Valuation τ sig (Elt F) := fun c b => (s₀ m ρ).mem ((c : Dev nD), b)
/-- After item 0, the host operations `hostOps0`. -/
abbrev W1 : Dev nD → Valuation τ sig (Elt F) := fun c => StableHlo.after hostOps0 (W0 m ρ c)
/-- After item 1, the host operations `hostOps0_1`. -/
abbrev W2 : Dev nD → Valuation τ sig (Elt F) := fun c => StableHlo.after hostOps0_1 (W1 m ρ c)
/-- After item 2, the host operations `hostOps0_2`. -/
abbrev W3 : Dev nD → Valuation τ sig (Elt F) := fun c => StableHlo.after hostOps0_2 (W2 m ρ c)
/-- After item 3, the host operations `hostOps0_3`. -/
abbrev W4 : Dev nD → Valuation τ sig (Elt F) := fun c => StableHlo.after hostOps0_3 (W3 m ρ c)
/-- After item 4, the host operations `hostOps0_4`. -/
abbrev W5 : Dev nD → Valuation τ sig (Elt F) := fun c => StableHlo.after hostOps0_4 (W4 m ρ c)
/-- After item 5, the host operations `hostOps0_5`. -/
abbrev W6 : Dev nD → Valuation τ sig (Elt F) := fun c => StableHlo.after hostOps0_5 (W5 m ρ c)
/-- After item 6, the host operations `hostOps0_6`. -/
abbrev W7 : Dev nD → Valuation τ sig (Elt F) := fun c => StableHlo.after hostOps0_6 (W6 m ρ c)
/-- After item 7, the host operations `hostOps0_7`. -/
abbrev W8 : Dev nD → Valuation τ sig (Elt F) := fun c => StableHlo.after hostOps0_7 (W7 m ρ c)
/-- After item 8, the host operations `hostOps0_8`. -/
abbrev W9 : Dev nD → Valuation τ sig (Elt F) := fun c => StableHlo.after hostOps0_8 (W8 m ρ c)
/-- After item 9, the host operations `hostOps0_9`. -/
abbrev W10 : Dev nD → Valuation τ sig (Elt F) := fun c => StableHlo.after hostOps0_9 (W9 m ρ c)

/-- The contents region 0 is entered from, read at the references of the TensorCore. -/
abbrev V10 : (c : Dev nD) → (b : Ref sig .tc) → Buf (Elt F) ((c : Thread nD τ).loc b) := fun c b => W10 m ρ c b
/-- After item 10, region 0: its arrays at what the pipeline leaves (an input as entered, the result with its
    write-backs folded in), every other buffer as entered. -/
def W11 (c : Dev nD) : Valuation τ sig (Elt F) :=
  Pipeline.withArrays spec0 c (W10 m ρ c) fun w => (dat0 (V10 m ρ) c).arrAt w cfg0.N
theorem W11_arr (c : Dev nD) (w : Fin cfg0.W) :
    W11 m ρ c (Proc.devRef .tc (Pipeline.arrRef spec0 w)) = (dat0 (V10 m ρ) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m ρ c (Proc.devRef .tc b) = W10 m ρ c (Proc.devRef .tc b) := by
  unfold W11; exact Pipeline.withArrays_of_ne spec0 c _ _ b hb
/-- The contents region 0 leaves, read at the references of the TensorCore. -/
abbrev V11 : (c : Dev nD) → (b : Ref sig .tc) → Buf (Elt F) ((c : Thread nD τ).loc b) := fun c b => W11 m ρ c b
/-- Each array of region 0 ends at what the pipeline leaves, and every other buffer at what it held at entry. -/
theorem hF0 (c : Dev nD) (w : Fin cfg0.W) : (dat0 (V10 m ρ) c).arrAt w cfg0.N = V11 m ρ c (Pipeline.arrRef spec0 w) :=
  (W11_arr m ρ c w).symm
theorem hrest0 (c : Dev nD) : ∀ b, b ∉ Finset.univ.image (Pipeline.arrRef spec0) → V11 m ρ c b = V10 m ρ c b :=
  fun b hb => W11_of_ne m ρ c b fun w e => hb (Finset.mem_image.mpr ⟨w, Finset.mem_univ _, e⟩)

/-- After item 11, the host operations `hostOps1`. -/
abbrev W12 : Dev nD → Valuation τ sig (Elt F) := fun c => StableHlo.after hostOps1 (W11 m ρ c)
/-- After item 12, the host operations `hostOps1_1`. -/
abbrev W13 : Dev nD → Valuation τ sig (Elt F) := fun c => StableHlo.after hostOps1_1 (W12 m ρ c)
/-- After item 13, the host operations `hostOps1_2`. -/
abbrev W14 : Dev nD → Valuation τ sig (Elt F) := fun c => StableHlo.after hostOps1_2 (W13 m ρ c)
/-- After item 14, the host operations `hostOps1_3`. -/
abbrev W15 : Dev nD → Valuation τ sig (Elt F) := fun c => StableHlo.after hostOps1_3 (W14 m ρ c)

/-- The contents region 1 is entered from, read at the references of the TensorCore. -/
abbrev V15 : (c : Dev nD) → (b : Ref sig .tc) → Buf (Elt F) ((c : Thread nD τ).loc b) := fun c b => W15 m ρ c b
/-- After item 15, region 1: its arrays at what the pipeline leaves (an input as entered, the result with its
    write-backs folded in), every other buffer as entered. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
/-- The contents region 1 leaves, read at the references of the TensorCore. -/
abbrev V16 : (c : Dev nD) → (b : Ref sig .tc) → Buf (Elt F) ((c : Thread nD τ).loc b) := fun c b => W16 m ρ c b
/-- Each array of region 1 ends at what the pipeline leaves, and every other buffer at what it held at entry. -/
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

/-- After item 16, the host operations `hostOps2`. -/
abbrev W17 : Dev nD → Valuation τ sig (Elt F) := fun c => StableHlo.after hostOps2 (W16 m ρ c)
/-- After item 17, the host operations `hostOps2_1`. -/
abbrev W18 : Dev nD → Valuation τ sig (Elt F) := fun c => StableHlo.after hostOps2_1 (W17 m ρ c)
/-- After item 18, the host operations `hostOps2_2`. -/
abbrev W19 : Dev nD → Valuation τ sig (Elt F) := fun c => StableHlo.after hostOps2_2 (W18 m ρ c)
/-- After item 19, the host operations `hostOps2_3`. -/
abbrev W20 : Dev nD → Valuation τ sig (Elt F) := fun c => StableHlo.after hostOps2_3 (W19 m ρ c)
/-- After item 20, the host operations `hostOps2_4`. -/
abbrev W21 : Dev nD → Valuation τ sig (Elt F) := fun c => StableHlo.after hostOps2_4 (W20 m ρ c)
/-- After item 21, the host operations `hostOps2_5`. -/
abbrev W22 : Dev nD → Valuation τ sig (Elt F) := fun c => StableHlo.after hostOps2_5 (W21 m ρ c)
/-- After item 22, the host operations `hostOps2_6`. -/
abbrev W23 : Dev nD → Valuation τ sig (Elt F) := fun c => StableHlo.after hostOps2_6 (W22 m ρ c)
/-- After item 23, the host operations `hostOps2_7`. -/
abbrev W24 : Dev nD → Valuation τ sig (Elt F) := fun c => StableHlo.after hostOps2_7 (W23 m ρ c)
/-- After item 24, the host operations `hostOps2_8`. -/
abbrev W25 : Dev nD → Valuation τ sig (Elt F) := fun c => StableHlo.after hostOps2_8 (W24 m ρ c)
/-- After item 25, the host operations `hostOps2_9`. -/
abbrev W26 : Dev nD → Valuation τ sig (Elt F) := fun c => StableHlo.after hostOps2_9 (W25 m ρ c)
/-- After item 26, the host operations `hostOps2_10`. -/
abbrev W27 : Dev nD → Valuation τ sig (Elt F) := fun c => StableHlo.after hostOps2_10 (W26 m ρ c)
/-- After item 27, the host operations `hostOps2_11`. -/
abbrev W28 : Dev nD → Valuation τ sig (Elt F) := fun c => StableHlo.after hostOps2_11 (W27 m ρ c)

/-- The contents region 2 is entered from, read at the references of the TensorCore. -/
abbrev V28 : (c : Dev nD) → (b : Ref sig .tc) → Buf (Elt F) ((c : Thread nD τ).loc b) := fun c b => W28 m ρ c b
/-- After item 28, region 2: its arrays at what the pipeline leaves (an input as entered, the result with its
    write-backs folded in), every other buffer as entered. -/
def W29 (c : Dev nD) : Valuation τ sig (Elt F) :=
  Pipeline.withArrays spec2 c (W28 m ρ c) fun w => (dat2 (V28 m ρ) c).arrAt w cfg2.N
theorem W29_arr (c : Dev nD) (w : Fin cfg2.W) :
    W29 m ρ c (Proc.devRef .tc (Pipeline.arrRef spec2 w)) = (dat2 (V28 m ρ) c).arrAt w cfg2.N := by
  unfold W29; exact Pipeline.withArrays_arr spec2 launch2.win.arr_inj c _ _ w
theorem W29_of_ne (c : Dev nD) (b : Ref sig .tc) (hb : ∀ w, Pipeline.arrRef spec2 w ≠ b) :
    W29 m ρ c (Proc.devRef .tc b) = W28 m ρ c (Proc.devRef .tc b) := by
  unfold W29; exact Pipeline.withArrays_of_ne spec2 c _ _ b hb
/-- The contents region 2 leaves, read at the references of the TensorCore. -/
abbrev V29 : (c : Dev nD) → (b : Ref sig .tc) → Buf (Elt F) ((c : Thread nD τ).loc b) := fun c b => W29 m ρ c b
/-- Each array of region 2 ends at what the pipeline leaves, and every other buffer at what it held at entry. -/
theorem hF2 (c : Dev nD) (w : Fin cfg2.W) : (dat2 (V28 m ρ) c).arrAt w cfg2.N = V29 m ρ c (Pipeline.arrRef spec2 w) :=
  (W29_arr m ρ c w).symm
theorem hrest2 (c : Dev nD) : ∀ b, b ∉ Finset.univ.image (Pipeline.arrRef spec2) → V29 m ρ c b = V28 m ρ c b :=
  fun b hb => W29_of_ne m ρ c b fun w e => hb (Finset.mem_image.mpr ⟨w, Finset.mem_univ _, e⟩)

/-- After item 29, the host operations `hostOps3`. -/
abbrev W30 : Dev nD → Valuation τ sig (Elt F) := fun c => StableHlo.after hostOps3 (W29 m ρ c)
/-- After item 30, the host operations `hostOps3_1`. -/
abbrev W31 : Dev nD → Valuation τ sig (Elt F) := fun c => StableHlo.after hostOps3_1 (W30 m ρ c)
/-- After item 31, the host operations `hostOps3_2`. -/
abbrev W32 : Dev nD → Valuation τ sig (Elt F) := fun c => StableHlo.after hostOps3_2 (W31 m ρ c)
/-- After item 32, the host operations `hostOps3_3`. -/
abbrev W33 : Dev nD → Valuation τ sig (Elt F) := fun c => StableHlo.after hostOps3_3 (W32 m ρ c)

/-- The contents region 3 is entered from, read at the references of the TensorCore. -/
abbrev V33 : (c : Dev nD) → (b : Ref sig .tc) → Buf (Elt F) ((c : Thread nD τ).loc b) := fun c b => W33 m ρ c b
/-- After item 33, region 3: its arrays at what the pipeline leaves (an input as entered, the result with its
    write-backs folded in), every other buffer as entered. -/
def W34 (c : Dev nD) : Valuation τ sig (Elt F) :=
  Pipeline.withArrays spec3 c (W33 m ρ c) fun w => (dat3 (V33 m ρ) c).arrAt w cfg3.N
theorem W34_arr (c : Dev nD) (w : Fin cfg3.W) :
    W34 m ρ c (Proc.devRef .tc (Pipeline.arrRef spec3 w)) = (dat3 (V33 m ρ) c).arrAt w cfg3.N := by
  unfold W34; exact Pipeline.withArrays_arr spec3 launch3.win.arr_inj c _ _ w
theorem W34_of_ne (c : Dev nD) (b : Ref sig .tc) (hb : ∀ w, Pipeline.arrRef spec3 w ≠ b) :
    W34 m ρ c (Proc.devRef .tc b) = W33 m ρ c (Proc.devRef .tc b) := by
  unfold W34; exact Pipeline.withArrays_of_ne spec3 c _ _ b hb
/-- The contents region 3 leaves, read at the references of the TensorCore. -/
abbrev V34 : (c : Dev nD) → (b : Ref sig .tc) → Buf (Elt F) ((c : Thread nD τ).loc b) := fun c b => W34 m ρ c b
/-- Each array of region 3 ends at what the pipeline leaves, and every other buffer at what it held at entry. -/
theorem hF3 (c : Dev nD) (w : Fin cfg3.W) : (dat3 (V33 m ρ) c).arrAt w cfg3.N = V34 m ρ c (Pipeline.arrRef spec3 w) :=
  (W34_arr m ρ c w).symm
theorem hrest3 (c : Dev nD) : ∀ b, b ∉ Finset.univ.image (Pipeline.arrRef spec3) → V34 m ρ c b = V33 m ρ c b :=
  fun b hb => W34_of_ne m ρ c b fun w e => hb (Finset.mem_image.mpr ⟨w, Finset.mem_univ _, e⟩)

/-- After item 34, the host operations `hostOps4`. -/
abbrev W35 : Dev nD → Valuation τ sig (Elt F) := fun c => StableHlo.after hostOps4 (W34 m ρ c)
/-- After item 35, the host operations `hostOps4_1`. -/
abbrev W36 : Dev nD → Valuation τ sig (Elt F) := fun c => StableHlo.after hostOps4_1 (W35 m ρ c)
/-- After item 36, the host operations `hostOps4_2`. -/
abbrev W37 : Dev nD → Valuation τ sig (Elt F) := fun c => StableHlo.after hostOps4_2 (W36 m ρ c)
/-- After item 37, the host operations `hostOps4_3`. -/
abbrev W38 : Dev nD → Valuation τ sig (Elt F) := fun c => StableHlo.after hostOps4_3 (W37 m ρ c)
/-- After item 38, the host operations `hostOps4_4`. -/
abbrev W39 : Dev nD → Valuation τ sig (Elt F) := fun c => StableHlo.after hostOps4_4 (W38 m ρ c)
/-- After item 39, the host operations `hostOps4_5`. -/
abbrev W40 : Dev nD → Valuation τ sig (Elt F) := fun c => StableHlo.after hostOps4_5 (W39 m ρ c)
/-- After item 40, the host operations `hostOps4_6`. -/
abbrev W41 : Dev nD → Valuation τ sig (Elt F) := fun c => StableHlo.after hostOps4_6 (W40 m ρ c)
/-- After item 41, the host operations `hostOps4_7`. -/
abbrev W42 : Dev nD → Valuation τ sig (Elt F) := fun c => StableHlo.after hostOps4_7 (W41 m ρ c)

/-- The contents region 4 is entered from, read at the references of the TensorCore. -/
abbrev V42 : (c : Dev nD) → (b : Ref sig .tc) → Buf (Elt F) ((c : Thread nD τ).loc b) := fun c b => W42 m ρ c b
/-- After item 42, region 4: its arrays at what the pipeline leaves (an input as entered, the result with its
    write-backs folded in), every other buffer as entered. -/
def W43 (c : Dev nD) : Valuation τ sig (Elt F) :=
  Pipeline.withArrays spec4 c (W42 m ρ c) fun w => (dat4 (V42 m ρ) c).arrAt w cfg4.N
theorem W43_arr (c : Dev nD) (w : Fin cfg4.W) :
    W43 m ρ c (Proc.devRef .tc (Pipeline.arrRef spec4 w)) = (dat4 (V42 m ρ) c).arrAt w cfg4.N := by
  unfold W43; exact Pipeline.withArrays_arr spec4 launch4.win.arr_inj c _ _ w
theorem W43_of_ne (c : Dev nD) (b : Ref sig .tc) (hb : ∀ w, Pipeline.arrRef spec4 w ≠ b) :
    W43 m ρ c (Proc.devRef .tc b) = W42 m ρ c (Proc.devRef .tc b) := by
  unfold W43; exact Pipeline.withArrays_of_ne spec4 c _ _ b hb
/-- The contents region 4 leaves, read at the references of the TensorCore. -/
abbrev V43 : (c : Dev nD) → (b : Ref sig .tc) → Buf (Elt F) ((c : Thread nD τ).loc b) := fun c b => W43 m ρ c b
/-- Each array of region 4 ends at what the pipeline leaves, and every other buffer at what it held at entry. -/
theorem hF4 (c : Dev nD) (w : Fin cfg4.W) : (dat4 (V42 m ρ) c).arrAt w cfg4.N = V43 m ρ c (Pipeline.arrRef spec4 w) :=
  (W43_arr m ρ c w).symm
theorem hrest4 (c : Dev nD) : ∀ b, b ∉ Finset.univ.image (Pipeline.arrRef spec4) → V43 m ρ c b = V42 m ρ c b :=
  fun b hb => W43_of_ne m ρ c b fun w e => hb (Finset.mem_image.mpr ⟨w, Finset.mem_univ _, e⟩)

/-- After item 43, the host operations `hostOps5`. -/
abbrev W44 : Dev nD → Valuation τ sig (Elt F) := fun c => StableHlo.after hostOps5 (W43 m ρ c)
/-- After item 44, the host operations `hostOps5_1`. -/
abbrev W45 : Dev nD → Valuation τ sig (Elt F) := fun c => StableHlo.after hostOps5_1 (W44 m ρ c)
/-- After item 45, the host operations `hostOps5_2`. -/
abbrev W46 : Dev nD → Valuation τ sig (Elt F) := fun c => StableHlo.after hostOps5_2 (W45 m ρ c)
/-- After item 46, the host operations `hostOps5_3`. -/
abbrev W47 : Dev nD → Valuation τ sig (Elt F) := fun c => StableHlo.after hostOps5_3 (W46 m ρ c)

/-- The contents region 5 is entered from, read at the references of the TensorCore. -/
abbrev V47 : (c : Dev nD) → (b : Ref sig .tc) → Buf (Elt F) ((c : Thread nD τ).loc b) := fun c b => W47 m ρ c b
/-- After item 47, region 5: its arrays at what the pipeline leaves (an input as entered, the result with its
    write-backs folded in), every other buffer as entered. -/
def W48 (c : Dev nD) : Valuation τ sig (Elt F) :=
  Pipeline.withArrays spec5 c (W47 m ρ c) fun w => (dat5 (V47 m ρ) c).arrAt w cfg5.N
theorem W48_arr (c : Dev nD) (w : Fin cfg5.W) :
    W48 m ρ c (Proc.devRef .tc (Pipeline.arrRef spec5 w)) = (dat5 (V47 m ρ) c).arrAt w cfg5.N := by
  unfold W48; exact Pipeline.withArrays_arr spec5 launch5.win.arr_inj c _ _ w
theorem W48_of_ne (c : Dev nD) (b : Ref sig .tc) (hb : ∀ w, Pipeline.arrRef spec5 w ≠ b) :
    W48 m ρ c (Proc.devRef .tc b) = W47 m ρ c (Proc.devRef .tc b) := by
  unfold W48; exact Pipeline.withArrays_of_ne spec5 c _ _ b hb
/-- The contents region 5 leaves, read at the references of the TensorCore. -/
abbrev V48 : (c : Dev nD) → (b : Ref sig .tc) → Buf (Elt F) ((c : Thread nD τ).loc b) := fun c b => W48 m ρ c b
/-- Each array of region 5 ends at what the pipeline leaves, and every other buffer at what it held at entry. -/
theorem hF5 (c : Dev nD) (w : Fin cfg5.W) : (dat5 (V47 m ρ) c).arrAt w cfg5.N = V48 m ρ c (Pipeline.arrRef spec5 w) :=
  (W48_arr m ρ c w).symm
theorem hrest5 (c : Dev nD) : ∀ b, b ∉ Finset.univ.image (Pipeline.arrRef spec5) → V48 m ρ c b = V47 m ρ c b :=
  fun b hb => W48_of_ne m ρ c b fun w e => hb (Finset.mem_image.mpr ⟨w, Finset.mem_univ _, e⟩)

/-- After item 48, the host operations `hostOps6`. -/
abbrev W49 : Dev nD → Valuation τ sig (Elt F) := fun c => StableHlo.after hostOps6 (W48 m ρ c)
/-- After item 49, the host operations `hostOps6_1`. -/
abbrev W50 : Dev nD → Valuation τ sig (Elt F) := fun c => StableHlo.after hostOps6_1 (W49 m ρ c)
/-- After item 50, the host operations `hostOps6_2`. -/
abbrev W51 : Dev nD → Valuation τ sig (Elt F) := fun c => StableHlo.after hostOps6_2 (W50 m ρ c)
/-- After item 51, the host operations `hostOps6_3`. -/
abbrev W52 : Dev nD → Valuation τ sig (Elt F) := fun c => StableHlo.after hostOps6_3 (W51 m ρ c)
/-- After item 52, the host operations `hostOps6_4`. -/
abbrev W53 : Dev nD → Valuation τ sig (Elt F) := fun c => StableHlo.after hostOps6_4 (W52 m ρ c)
/-- After item 53, the host operations `hostOps6_5`. -/
abbrev W54 : Dev nD → Valuation τ sig (Elt F) := fun c => StableHlo.after hostOps6_5 (W53 m ρ c)
/-- After item 54, the host operations `hostOps6_6`. -/
abbrev W55 : Dev nD → Valuation τ sig (Elt F) := fun c => StableHlo.after hostOps6_6 (W54 m ρ c)
/-- After item 55, the host operations `hostOps6_7`. -/
abbrev W56 : Dev nD → Valuation τ sig (Elt F) := fun c => StableHlo.after hostOps6_7 (W55 m ρ c)
/-- After item 56, the host operations `hostOps6_8`. -/
abbrev W57 : Dev nD → Valuation τ sig (Elt F) := fun c => StableHlo.after hostOps6_8 (W56 m ρ c)
/-- After item 57, the host operations `hostOps6_9`. -/
abbrev W58 : Dev nD → Valuation τ sig (Elt F) := fun c => StableHlo.after hostOps6_9 (W57 m ρ c)
/-- After item 58, the host operations `hostOps6_10`. -/
abbrev W59 : Dev nD → Valuation τ sig (Elt F) := fun c => StableHlo.after hostOps6_10 (W58 m ρ c)
/-- After item 59, the host operations `hostOps6_11`. -/
abbrev W60 : Dev nD → Valuation τ sig (Elt F) := fun c => StableHlo.after hostOps6_11 (W59 m ρ c)

/-- The contents region 6 is entered from, read at the references of the TensorCore. -/
abbrev V60 : (c : Dev nD) → (b : Ref sig .tc) → Buf (Elt F) ((c : Thread nD τ).loc b) := fun c b => W60 m ρ c b
/-- After item 60, region 6: its arrays at what the pipeline leaves (an input as entered, the result with its
    write-backs folded in), every other buffer as entered. -/
def W61 (c : Dev nD) : Valuation τ sig (Elt F) :=
  Pipeline.withArrays spec6 c (W60 m ρ c) fun w => (dat6 (V60 m ρ) c).arrAt w cfg6.N
theorem W61_arr (c : Dev nD) (w : Fin cfg6.W) :
    W61 m ρ c (Proc.devRef .tc (Pipeline.arrRef spec6 w)) = (dat6 (V60 m ρ) c).arrAt w cfg6.N := by
  unfold W61; exact Pipeline.withArrays_arr spec6 launch6.win.arr_inj c _ _ w
theorem W61_of_ne (c : Dev nD) (b : Ref sig .tc) (hb : ∀ w, Pipeline.arrRef spec6 w ≠ b) :
    W61 m ρ c (Proc.devRef .tc b) = W60 m ρ c (Proc.devRef .tc b) := by
  unfold W61; exact Pipeline.withArrays_of_ne spec6 c _ _ b hb
/-- The contents region 6 leaves, read at the references of the TensorCore. -/
abbrev V61 : (c : Dev nD) → (b : Ref sig .tc) → Buf (Elt F) ((c : Thread nD τ).loc b) := fun c b => W61 m ρ c b
/-- Each array of region 6 ends at what the pipeline leaves, and every other buffer at what it held at entry. -/
theorem hF6 (c : Dev nD) (w : Fin cfg6.W) : (dat6 (V60 m ρ) c).arrAt w cfg6.N = V61 m ρ c (Pipeline.arrRef spec6 w) :=
  (W61_arr m ρ c w).symm
theorem hrest6 (c : Dev nD) : ∀ b, b ∉ Finset.univ.image (Pipeline.arrRef spec6) → V61 m ρ c b = V60 m ρ c b :=
  fun b hb => W61_of_ne m ρ c b fun w e => hb (Finset.mem_image.mpr ⟨w, Finset.mem_univ _, e⟩)

/-- After item 61, the host operations `hostOps7`. -/
abbrev W62 : Dev nD → Valuation τ sig (Elt F) := fun c => StableHlo.after hostOps7 (W61 m ρ c)
/-- After item 62, the host operations `hostOps7_1`. -/
abbrev W63 : Dev nD → Valuation τ sig (Elt F) := fun c => StableHlo.after hostOps7_1 (W62 m ρ c)
/-- After item 63, the host operations `hostOps7_2`. -/
abbrev W64 : Dev nD → Valuation τ sig (Elt F) := fun c => StableHlo.after hostOps7_2 (W63 m ρ c)
/-- After item 64, the host operations `hostOps7_3`. -/
abbrev W65 : Dev nD → Valuation τ sig (Elt F) := fun c => StableHlo.after hostOps7_3 (W64 m ρ c)

/-- The contents region 7 is entered from, read at the references of the TensorCore. -/
abbrev V65 : (c : Dev nD) → (b : Ref sig .tc) → Buf (Elt F) ((c : Thread nD τ).loc b) := fun c b => W65 m ρ c b
/-- After item 65, region 7: its arrays at what the pipeline leaves (an input as entered, the result with its
    write-backs folded in), every other buffer as entered. -/
def W66 (c : Dev nD) : Valuation τ sig (Elt F) :=
  Pipeline.withArrays spec7 c (W65 m ρ c) fun w => (dat7 (V65 m ρ) c).arrAt w cfg7.N
theorem W66_arr (c : Dev nD) (w : Fin cfg7.W) :
    W66 m ρ c (Proc.devRef .tc (Pipeline.arrRef spec7 w)) = (dat7 (V65 m ρ) c).arrAt w cfg7.N := by
  unfold W66; exact Pipeline.withArrays_arr spec7 launch7.win.arr_inj c _ _ w
theorem W66_of_ne (c : Dev nD) (b : Ref sig .tc) (hb : ∀ w, Pipeline.arrRef spec7 w ≠ b) :
    W66 m ρ c (Proc.devRef .tc b) = W65 m ρ c (Proc.devRef .tc b) := by
  unfold W66; exact Pipeline.withArrays_of_ne spec7 c _ _ b hb
/-- The contents region 7 leaves, read at the references of the TensorCore. -/
abbrev V66 : (c : Dev nD) → (b : Ref sig .tc) → Buf (Elt F) ((c : Thread nD τ).loc b) := fun c b => W66 m ρ c b
/-- Each array of region 7 ends at what the pipeline leaves, and every other buffer at what it held at entry. -/
theorem hF7 (c : Dev nD) (w : Fin cfg7.W) : (dat7 (V65 m ρ) c).arrAt w cfg7.N = V66 m ρ c (Pipeline.arrRef spec7 w) :=
  (W66_arr m ρ c w).symm
theorem hrest7 (c : Dev nD) : ∀ b, b ∉ Finset.univ.image (Pipeline.arrRef spec7) → V66 m ρ c b = V65 m ρ c b :=
  fun b hb => W66_of_ne m ρ c b fun w e => hb (Finset.mem_image.mpr ⟨w, Finset.mem_univ _, e⟩)

/-- After item 66, the host operations `hostOps8`. -/
abbrev W67 : Dev nD → Valuation τ sig (Elt F) := fun c => StableHlo.after hostOps8 (W66 m ρ c)
/-- After item 67, the host operations `hostOps8_1`. -/
abbrev W68 : Dev nD → Valuation τ sig (Elt F) := fun c => StableHlo.after hostOps8_1 (W67 m ρ c)
/-- After item 68, the host operations `hostOps8_2`. -/
abbrev W69 : Dev nD → Valuation τ sig (Elt F) := fun c => StableHlo.after hostOps8_2 (W68 m ρ c)
/-- After item 69, the host operations `hostOps8_3`. -/
abbrev W70 : Dev nD → Valuation τ sig (Elt F) := fun c => StableHlo.after hostOps8_3 (W69 m ρ c)
/-- After item 70, the host operations `hostOps8_4`. -/
abbrev W71 : Dev nD → Valuation τ sig (Elt F) := fun c => StableHlo.after hostOps8_4 (W70 m ρ c)
/-- After item 71, the host operations `hostOps8_5`. -/
abbrev W72 : Dev nD → Valuation τ sig (Elt F) := fun c => StableHlo.after hostOps8_5 (W71 m ρ c)
/-- After item 72, the host operations `hostOps8_6`. -/
abbrev W73 : Dev nD → Valuation τ sig (Elt F) := fun c => StableHlo.after hostOps8_6 (W72 m ρ c)
/-- After item 73, the host operations `hostOps8_7`. -/
abbrev W74 : Dev nD → Valuation τ sig (Elt F) := fun c => StableHlo.after hostOps8_7 (W73 m ρ c)

/-- The contents region 8 is entered from, read at the references of the TensorCore. -/
abbrev V74 : (c : Dev nD) → (b : Ref sig .tc) → Buf (Elt F) ((c : Thread nD τ).loc b) := fun c b => W74 m ρ c b
/-- After item 74, region 8: its arrays at what the pipeline leaves (an input as entered, the result with its
    write-backs folded in), every other buffer as entered. -/
def W75 (c : Dev nD) : Valuation τ sig (Elt F) :=
  Pipeline.withArrays spec8 c (W74 m ρ c) fun w => (dat8 (V74 m ρ) c).arrAt w cfg8.N
theorem W75_arr (c : Dev nD) (w : Fin cfg8.W) :
    W75 m ρ c (Proc.devRef .tc (Pipeline.arrRef spec8 w)) = (dat8 (V74 m ρ) c).arrAt w cfg8.N := by
  unfold W75; exact Pipeline.withArrays_arr spec8 launch8.win.arr_inj c _ _ w
theorem W75_of_ne (c : Dev nD) (b : Ref sig .tc) (hb : ∀ w, Pipeline.arrRef spec8 w ≠ b) :
    W75 m ρ c (Proc.devRef .tc b) = W74 m ρ c (Proc.devRef .tc b) := by
  unfold W75; exact Pipeline.withArrays_of_ne spec8 c _ _ b hb
/-- The contents region 8 leaves, read at the references of the TensorCore. -/
abbrev V75 : (c : Dev nD) → (b : Ref sig .tc) → Buf (Elt F) ((c : Thread nD τ).loc b) := fun c b => W75 m ρ c b
/-- Each array of region 8 ends at what the pipeline leaves, and every other buffer at what it held at entry. -/
theorem hF8 (c : Dev nD) (w : Fin cfg8.W) : (dat8 (V74 m ρ) c).arrAt w cfg8.N = V75 m ρ c (Pipeline.arrRef spec8 w) :=
  (W75_arr m ρ c w).symm
theorem hrest8 (c : Dev nD) : ∀ b, b ∉ Finset.univ.image (Pipeline.arrRef spec8) → V75 m ρ c b = V74 m ρ c b :=
  fun b hb => W75_of_ne m ρ c b fun w e => hb (Finset.mem_image.mpr ⟨w, Finset.mem_univ _, e⟩)

/-- After item 75, the host operations `hostOps9`. -/
abbrev W76 : Dev nD → Valuation τ sig (Elt F) := fun c => StableHlo.after hostOps9 (W75 m ρ c)
/-- After item 76, the host operations `hostOps9_1`. -/
abbrev W77 : Dev nD → Valuation τ sig (Elt F) := fun c => StableHlo.after hostOps9_1 (W76 m ρ c)
/-- After item 77, the host operations `hostOps9_2`. -/
abbrev W78 : Dev nD → Valuation τ sig (Elt F) := fun c => StableHlo.after hostOps9_2 (W77 m ρ c)
/-- After item 78, the host operations `hostOps9_3`. -/
abbrev W79 : Dev nD → Valuation τ sig (Elt F) := fun c => StableHlo.after hostOps9_3 (W78 m ρ c)

/-- The contents region 9 is entered from, read at the references of the TensorCore. -/
abbrev V79 : (c : Dev nD) → (b : Ref sig .tc) → Buf (Elt F) ((c : Thread nD τ).loc b) := fun c b => W79 m ρ c b
/-- After item 79, region 9: its arrays at what the pipeline leaves (an input as entered, the result with its
    write-backs folded in), every other buffer as entered. -/
def W80 (c : Dev nD) : Valuation τ sig (Elt F) :=
  Pipeline.withArrays spec9 c (W79 m ρ c) fun w => (dat9 (V79 m ρ) c).arrAt w cfg9.N
theorem W80_arr (c : Dev nD) (w : Fin cfg9.W) :
    W80 m ρ c (Proc.devRef .tc (Pipeline.arrRef spec9 w)) = (dat9 (V79 m ρ) c).arrAt w cfg9.N := by
  unfold W80; exact Pipeline.withArrays_arr spec9 launch9.win.arr_inj c _ _ w
theorem W80_of_ne (c : Dev nD) (b : Ref sig .tc) (hb : ∀ w, Pipeline.arrRef spec9 w ≠ b) :
    W80 m ρ c (Proc.devRef .tc b) = W79 m ρ c (Proc.devRef .tc b) := by
  unfold W80; exact Pipeline.withArrays_of_ne spec9 c _ _ b hb
/-- The contents region 9 leaves, read at the references of the TensorCore. -/
abbrev V80 : (c : Dev nD) → (b : Ref sig .tc) → Buf (Elt F) ((c : Thread nD τ).loc b) := fun c b => W80 m ρ c b
/-- Each array of region 9 ends at what the pipeline leaves, and every other buffer at what it held at entry. -/
theorem hF9 (c : Dev nD) (w : Fin cfg9.W) : (dat9 (V79 m ρ) c).arrAt w cfg9.N = V80 m ρ c (Pipeline.arrRef spec9 w) :=
  (W80_arr m ρ c w).symm
theorem hrest9 (c : Dev nD) : ∀ b, b ∉ Finset.univ.image (Pipeline.arrRef spec9) → V80 m ρ c b = V79 m ρ c b :=
  fun b hb => W80_of_ne m ρ c b fun w e => hb (Finset.mem_image.mpr ⟨w, Finset.mem_univ _, e⟩)

/-- After item 80, the host operations `hostOps10`. -/
abbrev W81 : Dev nD → Valuation τ sig (Elt F) := fun c => StableHlo.after hostOps10 (W80 m ρ c)
/-- After item 81, the host operations `hostOps10_1`. -/
abbrev W82 : Dev nD → Valuation τ sig (Elt F) := fun c => StableHlo.after hostOps10_1 (W81 m ρ c)
/-- After item 82, the host operations `hostOps10_2`. -/
abbrev W83 : Dev nD → Valuation τ sig (Elt F) := fun c => StableHlo.after hostOps10_2 (W82 m ρ c)
/-- After item 83, the host operations `hostOps10_3`. -/
abbrev W84 : Dev nD → Valuation τ sig (Elt F) := fun c => StableHlo.after hostOps10_3 (W83 m ρ c)
/-- After item 84, the host operations `hostOps10_4`. -/
abbrev W85 : Dev nD → Valuation τ sig (Elt F) := fun c => StableHlo.after hostOps10_4 (W84 m ρ c)
/-- After item 85, the host operations `hostOps10_5`. -/
abbrev W86 : Dev nD → Valuation τ sig (Elt F) := fun c => StableHlo.after hostOps10_5 (W85 m ρ c)
/-- After item 86, the host operations `hostOps10_6`. -/
abbrev W87 : Dev nD → Valuation τ sig (Elt F) := fun c => StableHlo.after hostOps10_6 (W86 m ρ c)
/-- After item 87, the host operations `hostOps10_7`. -/
abbrev W88 : Dev nD → Valuation τ sig (Elt F) := fun c => StableHlo.after hostOps10_7 (W87 m ρ c)
/-- After item 88, the host operations `hostOps10_8`. -/
abbrev W89 : Dev nD → Valuation τ sig (Elt F) := fun c => StableHlo.after hostOps10_8 (W88 m ρ c)
/-- After item 89, the host operations `hostOps10_9`. -/
abbrev W90 : Dev nD → Valuation τ sig (Elt F) := fun c => StableHlo.after hostOps10_9 (W89 m ρ c)
/-- After item 90, the host operations `hostOps10_10`. -/
abbrev W91 : Dev nD → Valuation τ sig (Elt F) := fun c => StableHlo.after hostOps10_10 (W90 m ρ c)
/-- After item 91, the host operations `hostOps10_11`. -/
abbrev W92 : Dev nD → Valuation τ sig (Elt F) := fun c => StableHlo.after hostOps10_11 (W91 m ρ c)

/-- The contents region 10 is entered from, read at the references of the TensorCore. -/
abbrev V92 : (c : Dev nD) → (b : Ref sig .tc) → Buf (Elt F) ((c : Thread nD τ).loc b) := fun c b => W92 m ρ c b
/-- After item 92, region 10: its arrays at what the pipeline leaves (an input as entered, the result with its
    write-backs folded in), every other buffer as entered. -/
def W93 (c : Dev nD) : Valuation τ sig (Elt F) :=
  Pipeline.withArrays spec10 c (W92 m ρ c) fun w => (dat10 (V92 m ρ) c).arrAt w cfg10.N
theorem W93_arr (c : Dev nD) (w : Fin cfg10.W) :
    W93 m ρ c (Proc.devRef .tc (Pipeline.arrRef spec10 w)) = (dat10 (V92 m ρ) c).arrAt w cfg10.N := by
  unfold W93; exact Pipeline.withArrays_arr spec10 launch10.win.arr_inj c _ _ w
theorem W93_of_ne (c : Dev nD) (b : Ref sig .tc) (hb : ∀ w, Pipeline.arrRef spec10 w ≠ b) :
    W93 m ρ c (Proc.devRef .tc b) = W92 m ρ c (Proc.devRef .tc b) := by
  unfold W93; exact Pipeline.withArrays_of_ne spec10 c _ _ b hb
/-- The contents region 10 leaves, read at the references of the TensorCore. -/
abbrev V93 : (c : Dev nD) → (b : Ref sig .tc) → Buf (Elt F) ((c : Thread nD τ).loc b) := fun c b => W93 m ρ c b
/-- Each array of region 10 ends at what the pipeline leaves, and every other buffer at what it held at entry. -/
theorem hF10 (c : Dev nD) (w : Fin cfg10.W) : (dat10 (V92 m ρ) c).arrAt w cfg10.N = V93 m ρ c (Pipeline.arrRef spec10 w) :=
  (W93_arr m ρ c w).symm
theorem hrest10 (c : Dev nD) : ∀ b, b ∉ Finset.univ.image (Pipeline.arrRef spec10) → V93 m ρ c b = V92 m ρ c b :=
  fun b hb => W93_of_ne m ρ c b fun w e => hb (Finset.mem_image.mpr ⟨w, Finset.mem_univ _, e⟩)

/-- After item 93, the host operations `hostOps11`. -/
abbrev W94 : Dev nD → Valuation τ sig (Elt F) := fun c => StableHlo.after hostOps11 (W93 m ρ c)
/-- After item 94, the host operations `hostOps11_1`. -/
abbrev W95 : Dev nD → Valuation τ sig (Elt F) := fun c => StableHlo.after hostOps11_1 (W94 m ρ c)
/-- After item 95, the host operations `hostOps11_2`. -/
abbrev W96 : Dev nD → Valuation τ sig (Elt F) := fun c => StableHlo.after hostOps11_2 (W95 m ρ c)
/-- After item 96, the host operations `hostOps11_3`. -/
abbrev W97 : Dev nD → Valuation τ sig (Elt F) := fun c => StableHlo.after hostOps11_3 (W96 m ρ c)

/-- The contents region 11 is entered from, read at the references of the TensorCore. -/
abbrev V97 : (c : Dev nD) → (b : Ref sig .tc) → Buf (Elt F) ((c : Thread nD τ).loc b) := fun c b => W97 m ρ c b
/-- After item 97, region 11: its arrays at what the pipeline leaves (an input as entered, the result with its
    write-backs folded in), every other buffer as entered. -/
def W98 (c : Dev nD) : Valuation τ sig (Elt F) :=
  Pipeline.withArrays spec11 c (W97 m ρ c) fun w => (dat11 (V97 m ρ) c).arrAt w cfg11.N
theorem W98_arr (c : Dev nD) (w : Fin cfg11.W) :
    W98 m ρ c (Proc.devRef .tc (Pipeline.arrRef spec11 w)) = (dat11 (V97 m ρ) c).arrAt w cfg11.N := by
  unfold W98; exact Pipeline.withArrays_arr spec11 launch11.win.arr_inj c _ _ w
theorem W98_of_ne (c : Dev nD) (b : Ref sig .tc) (hb : ∀ w, Pipeline.arrRef spec11 w ≠ b) :
    W98 m ρ c (Proc.devRef .tc b) = W97 m ρ c (Proc.devRef .tc b) := by
  unfold W98; exact Pipeline.withArrays_of_ne spec11 c _ _ b hb
/-- The contents region 11 leaves, read at the references of the TensorCore. -/
abbrev V98 : (c : Dev nD) → (b : Ref sig .tc) → Buf (Elt F) ((c : Thread nD τ).loc b) := fun c b => W98 m ρ c b
/-- Each array of region 11 ends at what the pipeline leaves, and every other buffer at what it held at entry. -/
theorem hF11 (c : Dev nD) (w : Fin cfg11.W) : (dat11 (V97 m ρ) c).arrAt w cfg11.N = V98 m ρ c (Pipeline.arrRef spec11 w) :=
  (W98_arr m ρ c w).symm
theorem hrest11 (c : Dev nD) : ∀ b, b ∉ Finset.univ.image (Pipeline.arrRef spec11) → V98 m ρ c b = V97 m ρ c b :=
  fun b hb => W98_of_ne m ρ c b fun w e => hb (Finset.mem_image.mpr ⟨w, Finset.mem_univ _, e⟩)

/-- After item 98, the host operations `hostOps12`. -/
abbrev W99 : Dev nD → Valuation τ sig (Elt F) := fun c => StableHlo.after hostOps12 (W98 m ρ c)
/-- After item 99, the host operations `hostOps12_1`. -/
abbrev W100 : Dev nD → Valuation τ sig (Elt F) := fun c => StableHlo.after hostOps12_1 (W99 m ρ c)
/-- After item 100, the host operations `hostOps12_2`. -/
abbrev W101 : Dev nD → Valuation τ sig (Elt F) := fun c => StableHlo.after hostOps12_2 (W100 m ρ c)
/-- After item 101, the host operations `hostOps12_3`. -/
abbrev W102 : Dev nD → Valuation τ sig (Elt F) := fun c => StableHlo.after hostOps12_3 (W101 m ρ c)
/-- After item 102, the host operations `hostOps12_4`. -/
abbrev W103 : Dev nD → Valuation τ sig (Elt F) := fun c => StableHlo.after hostOps12_4 (W102 m ρ c)
/-- After item 103, the host operations `hostOps12_5`. -/
abbrev W104 : Dev nD → Valuation τ sig (Elt F) := fun c => StableHlo.after hostOps12_5 (W103 m ρ c)
/-- After item 104, the host operations `hostOps12_6`. -/
abbrev W105 : Dev nD → Valuation τ sig (Elt F) := fun c => StableHlo.after hostOps12_6 (W104 m ρ c)

end Cert.Kernel.Gen

end
-- ==== Proof.KB.SegDefs.lean ====
import proofs.«426760_j80470507258346_3_alg».proof.Proof.KB.Fold

/-! The proof data of the twelve pipelines, each at the buffer contents its region is entered from, and the state a core
    carries between two items of @main: every unscoped buffer at the boundary's contents, the generator register, nothing owed. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 12) → (pcfgs (F := F) p).Adm := fun p => (cfgs p).toPCfg_adm
/-- Every pipeline's proof data, each at the contents its region is entered from. -/
def pdats : (p : Fin 12) → (c : Dev nD) → Dat τ (Elt F) Unit ℕ (UR sig nD τ) ℕ (Pipeline.pin (pcfgs (F := F)) adm p) c
  | ⟨0, _⟩ => fun c => dat0 (V10 m ρ) c
  | ⟨1, _⟩ => fun c => dat1 (V15 m ρ) c
  | ⟨2, _⟩ => fun c => dat2 (V28 m ρ) c
  | ⟨3, _⟩ => fun c => dat3 (V33 m ρ) c
  | ⟨4, _⟩ => fun c => dat4 (V42 m ρ) c
  | ⟨5, _⟩ => fun c => dat5 (V47 m ρ) c
  | ⟨6, _⟩ => fun c => dat6 (V60 m ρ) c
  | ⟨7, _⟩ => fun c => dat7 (V65 m ρ) c
  | ⟨8, _⟩ => fun c => dat8 (V74 m ρ) c
  | ⟨9, _⟩ => fun c => dat9 (V79 m ρ) c
  | ⟨10, _⟩ => fun c => dat10 (V92 m ρ) c
  | ⟨11, _⟩ => fun c => dat11 (V97 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host item as a segment: from the unscoped buffers at `W` to them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Gen

end
-- ==== Proof.KB.RegSeg0.lean ====
import proofs.«426760_j80470507258346_3_alg».proof.Proof.KB.SegDefs

/-! Region 0 of @main (item 10) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 0 over the thread state: entered with every unscoped buffer at W10, left with them at W11. Its arrays are
    split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V10 m ρ) c).loose
  hwaits := Pipeline.hwaits_of_owed_zero _ _ _ _ L lv 0 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec0 c (V10 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V10 m ρ c) (V11 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg1.lean ====
import proofs.«426760_j80470507258346_3_alg».proof.Proof.KB.SegDefs

/-! Region 1 of @main (item 15) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 1 over the thread state: entered with every unscoped buffer at W15, left with them at W16. Its arrays are
    split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg2.lean ====
import proofs.«426760_j80470507258346_3_alg».proof.Proof.KB.SegDefs

/-! Region 2 of @main (item 28) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 2 over the thread state: entered with every unscoped buffer at W28, left with them at W29. Its arrays are
    split out of the unscoped buffers and put back at the exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V28 m ρ) c).loose
  hwaits := Pipeline.hwaits_of_owed_zero _ _ _ _ L lv 2 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec2 c (V28 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V28 m ρ c) (V29 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg3.lean ====
import proofs.«426760_j80470507258346_3_alg».proof.Proof.KB.SegDefs

/-! Region 3 of @main (item 33) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 3 over the thread state: entered with every unscoped buffer at W33, left with them at W34. Its arrays are
    split out of the unscoped buffers and put back at the exit contents; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V33 m ρ) c).loose
  hwaits := Pipeline.hwaits_of_owed_zero _ _ _ _ L lv 3 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec3 c (V33 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V33 m ρ c) (V34 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg4.lean ====
import proofs.«426760_j80470507258346_3_alg».proof.Proof.KB.SegDefs

/-! Region 4 of @main (item 42) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 4 over the thread state: entered with every unscoped buffer at W42, left with them at W43. Its arrays are
    split out of the unscoped buffers and put back at the exit contents; the generator register goes into the
    pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V42 m ρ) c).loose
  hwaits := Pipeline.hwaits_of_owed_zero _ _ _ _ L lv 4 fun _ _ => rfl
  pre c := iprop(StableHlo.held (c : Thread nD τ) (Pipeline.ucRefs τ sig) (W42 m ρ c) ∗ R c)
  post c := iprop(StableHlo.held (c : Thread nD τ) (Pipeline.ucRefs τ sig) (W43 m ρ c) ∗ R c)
  X c := iprop(∃ r, prngReg c r)
  Y c := iprop(∃ r, prngReg c r)
  Z c := Pipeline.unscopedRest (Ix := Unit) (Name := ℕ) (U := UR sig nD τ) (Lvl := ℕ) spec4 c (V42 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V42 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V42 m ρ c) (V43 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg5.lean ====
import proofs.«426760_j80470507258346_3_alg».proof.Proof.KB.SegDefs

/-! Region 5 of @main (item 47) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 5 over the thread state: entered with every unscoped buffer at W47, left with them at W48. Its arrays are
    split out of the unscoped buffers and put back at the exit contents; the generator register goes into the
    pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V47 m ρ) c).loose
  hwaits := Pipeline.hwaits_of_owed_zero _ _ _ _ L lv 5 fun _ _ => rfl
  pre c := iprop(StableHlo.held (c : Thread nD τ) (Pipeline.ucRefs τ sig) (W47 m ρ c) ∗ R c)
  post c := iprop(StableHlo.held (c : Thread nD τ) (Pipeline.ucRefs τ sig) (W48 m ρ c) ∗ R c)
  X c := iprop(∃ r, prngReg c r)
  Y c := iprop(∃ r, prngReg c r)
  Z c := Pipeline.unscopedRest (Ix := Unit) (Name := ℕ) (U := UR sig nD τ) (Lvl := ℕ) spec5 c (V47 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V47 m ρ c) (V48 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg6.lean ====
import proofs.«426760_j80470507258346_3_alg».proof.Proof.KB.SegDefs

/-! Region 6 of @main (item 60) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 6 over the thread state: entered with every unscoped buffer at W60, left with them at W61. Its arrays are
    split out of the unscoped buffers and put back at the exit contents; the generator register goes into the
    pipeline's invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V60 m ρ) c).loose
  hwaits := Pipeline.hwaits_of_owed_zero _ _ _ _ L lv 6 fun _ _ => rfl
  pre c := iprop(StableHlo.held (c : Thread nD τ) (Pipeline.ucRefs τ sig) (W60 m ρ c) ∗ R c)
  post c := iprop(StableHlo.held (c : Thread nD τ) (Pipeline.ucRefs τ sig) (W61 m ρ c) ∗ R c)
  X c := iprop(∃ r, prngReg c r)
  Y c := iprop(∃ r, prngReg c r)
  Z c := Pipeline.unscopedRest (Ix := Unit) (Name := ℕ) (U := UR sig nD τ) (Lvl := ℕ) spec6 c (V60 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V60 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V60 m ρ c) (V61 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg7.lean ====
import proofs.«426760_j80470507258346_3_alg».proof.Proof.KB.SegDefs

/-! Region 7 of @main (item 65) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 7 over the thread state: entered with every unscoped buffer at W65, left with them at W66. Its arrays are
    split out of the unscoped buffers and put back at the exit contents; the generator register goes into the
    pipeline's invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V65 m ρ) c).loose
  hwaits := Pipeline.hwaits_of_owed_zero _ _ _ _ L lv 7 fun _ _ => rfl
  pre c := iprop(StableHlo.held (c : Thread nD τ) (Pipeline.ucRefs τ sig) (W65 m ρ c) ∗ R c)
  post c := iprop(StableHlo.held (c : Thread nD τ) (Pipeline.ucRefs τ sig) (W66 m ρ c) ∗ R c)
  X c := iprop(∃ r, prngReg c r)
  Y c := iprop(∃ r, prngReg c r)
  Z c := Pipeline.unscopedRest (Ix := Unit) (Name := ℕ) (U := UR sig nD τ) (Lvl := ℕ) spec7 c (V65 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V65 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V65 m ρ c) (V66 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg8.lean ====
import proofs.«426760_j80470507258346_3_alg».proof.Proof.KB.SegDefs

/-! Region 8 of @main (item 74) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 8 over the thread state: entered with every unscoped buffer at W74, left with them at W75. Its arrays are
    split out of the unscoped buffers and put back at the exit contents; the generator register goes into the
    pipeline's invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V74 m ρ) c).loose
  hwaits := Pipeline.hwaits_of_owed_zero _ _ _ _ L lv 8 fun _ _ => rfl
  pre c := iprop(StableHlo.held (c : Thread nD τ) (Pipeline.ucRefs τ sig) (W74 m ρ c) ∗ R c)
  post c := iprop(StableHlo.held (c : Thread nD τ) (Pipeline.ucRefs τ sig) (W75 m ρ c) ∗ R c)
  X c := iprop(∃ r, prngReg c r)
  Y c := iprop(∃ r, prngReg c r)
  Z c := Pipeline.unscopedRest (Ix := Unit) (Name := ℕ) (U := UR sig nD τ) (Lvl := ℕ) spec8 c (V74 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V74 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V74 m ρ c) (V75 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg9.lean ====
import proofs.«426760_j80470507258346_3_alg».proof.Proof.KB.SegDefs

/-! Region 9 of @main (item 79) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 9 over the thread state: entered with every unscoped buffer at W79, left with them at W80. Its arrays are
    split out of the unscoped buffers and put back at the exit contents; the generator register goes into the
    pipeline's invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V79 m ρ) c).loose
  hwaits := Pipeline.hwaits_of_owed_zero _ _ _ _ L lv 9 fun _ _ => rfl
  pre c := iprop(StableHlo.held (c : Thread nD τ) (Pipeline.ucRefs τ sig) (W79 m ρ c) ∗ R c)
  post c := iprop(StableHlo.held (c : Thread nD τ) (Pipeline.ucRefs τ sig) (W80 m ρ c) ∗ R c)
  X c := iprop(∃ r, prngReg c r)
  Y c := iprop(∃ r, prngReg c r)
  Z c := Pipeline.unscopedRest (Ix := Unit) (Name := ℕ) (U := UR sig nD τ) (Lvl := ℕ) spec9 c (V79 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V79 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V79 m ρ c) (V80 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg10.lean ====
import proofs.«426760_j80470507258346_3_alg».proof.Proof.KB.SegDefs

/-! Region 10 of @main (item 92) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 10 over the thread state: entered with every unscoped buffer at W92, left with them at W93. Its arrays are
    split out of the unscoped buffers and put back at the exit contents; the generator register goes into the
    pipeline's invariant and comes out; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V92 m ρ) c).loose
  hwaits := Pipeline.hwaits_of_owed_zero _ _ _ _ L lv 10 fun _ _ => rfl
  pre c := iprop(StableHlo.held (c : Thread nD τ) (Pipeline.ucRefs τ sig) (W92 m ρ c) ∗ R c)
  post c := iprop(StableHlo.held (c : Thread nD τ) (Pipeline.ucRefs τ sig) (W93 m ρ c) ∗ R c)
  X c := iprop(∃ r, prngReg c r)
  Y c := iprop(∃ r, prngReg c r)
  Z c := Pipeline.unscopedRest (Ix := Unit) (Name := ℕ) (U := UR sig nD τ) (Lvl := ℕ) spec10 c (V92 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V92 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V92 m ρ c) (V93 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.RegSeg11.lean ====
import proofs.«426760_j80470507258346_3_alg».proof.Proof.KB.SegDefs

/-! Region 11 of @main (item 97) as a segment of the run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over the pinned configuration with the printed one unfolds definitions in a type
set_option backward.isDefEq.respectTransparency.types false in
/-- Region 11 over the thread state: entered with every unscoped buffer at W97, left with them at W98. Its arrays are
    split out of the unscoped buffers and put back at the exit contents; the generator register goes into the
    pipeline's invariant and comes out; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V97 m ρ) c).loose
  hwaits := Pipeline.hwaits_of_owed_zero _ _ _ _ L lv 11 fun _ _ => rfl
  pre c := iprop(StableHlo.held (c : Thread nD τ) (Pipeline.ucRefs τ sig) (W97 m ρ c) ∗ R c)
  post c := iprop(StableHlo.held (c : Thread nD τ) (Pipeline.ucRefs τ sig) (W98 m ρ c) ∗ R c)
  X c := iprop(∃ r, prngReg c r)
  Y c := iprop(∃ r, prngReg c r)
  Z c := Pipeline.unscopedRest (Ix := Unit) (Name := ℕ) (U := UR sig nD τ) (Lvl := ℕ) spec11 c (V97 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V97 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V97 m ρ c) (V98 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Writes.lean ====
import proofs.«426760_j80470507258346_3_alg».proof.Proof.Gen.Kernel.Launch

/-! For each host item of @main: the references its operations write, listed in order (`_W`, `_writes`),
    and that none of its operations allocates a buffer (`_fresh`). -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No operation of `hostOps0` allocates a buffer. -/
theorem hostOps0_fresh : (hostOps0 : List (HloOp τ sig (Elt F))).Forall fun op => op.fresh = ∅ := by
  simp only [List.Forall]; repeat' constructor
/-- The references the operations of `hostOps0` write. -/
abbrev hostOps0_W : List (Ref sig .tc) := [main_v0, main_v1, main_v2, main_v3, main_v4, main_v5, main_v6, main_v7, main_cst, main_v8, main_cst_0, main_v9, main_cst_1, main_v10, main_v11, main_v12, main_cst_2, main_v13, main_v14, main_cst_3, main_v15, main_v16, main_cst_4, main_v17, main_v18, main_v19, main_cst_5, main_v20, main_v21, main_cst_6, main_v22, main_v23, main_v24]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_1` allocates a buffer. -/
theorem hostOps0_1_fresh : (hostOps0_1 : List (HloOp τ sig (Elt F))).Forall fun op => op.fresh = ∅ := by
  simp only [List.Forall]; repeat' constructor
/-- The references the operations of `hostOps0_1` write. -/
abbrev hostOps0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v25]
theorem hostOps0_1_writes : (hostOps0_1 : List (HloOp τ sig (Elt F))).Forall fun op => op.writes ⊆ (hostOps0_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_2` allocates a buffer. -/
theorem hostOps0_2_fresh : (hostOps0_2 : List (HloOp τ sig (Elt F))).Forall fun op => op.fresh = ∅ := by
  simp only [List.Forall]; repeat' constructor
/-- The references the operations of `hostOps0_2` write. -/
abbrev hostOps0_2_W : List (Ref sig .tc) := [main_v26]
theorem hostOps0_2_writes : (hostOps0_2 : List (HloOp τ sig (Elt F))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_3` allocates a buffer. -/
theorem hostOps0_3_fresh : (hostOps0_3 : List (HloOp τ sig (Elt F))).Forall fun op => op.fresh = ∅ := by
  simp only [List.Forall]; repeat' constructor
/-- The references the operations of `hostOps0_3` write. -/
abbrev hostOps0_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v27]
theorem hostOps0_3_writes : (hostOps0_3 : List (HloOp τ sig (Elt F))).Forall fun op => op.writes ⊆ (hostOps0_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_4` allocates a buffer. -/
theorem hostOps0_4_fresh : (hostOps0_4 : List (HloOp τ sig (Elt F))).Forall fun op => op.fresh = ∅ := by
  simp only [List.Forall]; repeat' constructor
/-- The references the operations of `hostOps0_4` write. -/
abbrev hostOps0_4_W : List (Ref sig .tc) := [main_v28, main_cst_7, main_v29, main_cst_8, main_v30, main_cst_9, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_c]
theorem hostOps0_4_writes : (hostOps0_4 : List (HloOp τ sig (Elt F))).Forall fun op => op.writes ⊆ (hostOps0_4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_5` allocates a buffer. -/
theorem hostOps0_5_fresh : (hostOps0_5 : List (HloOp τ sig (Elt F))).Forall fun op => op.fresh = ∅ := by
  simp only [List.Forall]; repeat' constructor
/-- The references the operations of `hostOps0_5` write. -/
abbrev hostOps0_5_W : List (Ref sig .tc) := [main_call2_v0, main_v90]
theorem hostOps0_5_writes : (hostOps0_5 : List (HloOp τ sig (Elt F))).Forall fun op => op.writes ⊆ (hostOps0_5_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_6` allocates a buffer. -/
theorem hostOps0_6_fresh : (hostOps0_6 : List (HloOp τ sig (Elt F))).Forall fun op => op.fresh = ∅ := by
  simp only [List.Forall]; repeat' constructor
/-- The references the operations of `hostOps0_6` write. -/
abbrev hostOps0_6_W : List (Ref sig .tc) := [main_c_10]
theorem hostOps0_6_writes : (hostOps0_6 : List (HloOp τ sig (Elt F))).Forall fun op => op.writes ⊆ (hostOps0_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_7` allocates a buffer. -/
theorem hostOps0_7_fresh : (hostOps0_7 : List (HloOp τ sig (Elt F))).Forall fun op => op.fresh = ∅ := by
  simp only [List.Forall]; repeat' constructor
/-- The references the operations of `hostOps0_7` write. -/
abbrev hostOps0_7_W : List (Ref sig .tc) := [main_call3_v0, main_v91]
theorem hostOps0_7_writes : (hostOps0_7 : List (HloOp τ sig (Elt F))).Forall fun op => op.writes ⊆ (hostOps0_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_8` allocates a buffer. -/
theorem hostOps0_8_fresh : (hostOps0_8 : List (HloOp τ sig (Elt F))).Forall fun op => op.fresh = ∅ := by
  simp only [List.Forall]; repeat' constructor
/-- The references the operations of `hostOps0_8` write. -/
abbrev hostOps0_8_W : List (Ref sig .tc) := [main_c_11]
theorem hostOps0_8_writes : (hostOps0_8 : List (HloOp τ sig (Elt F))).Forall fun op => op.writes ⊆ (hostOps0_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_9` allocates a buffer. -/
theorem hostOps0_9_fresh : (hostOps0_9 : List (HloOp τ sig (Elt F))).Forall fun op => op.fresh = ∅ := by
  simp only [List.Forall]; repeat' constructor
/-- The references the operations of `hostOps0_9` write. -/
abbrev hostOps0_9_W : List (Ref sig .tc) := [main_call4_v0, main_v92]
theorem hostOps0_9_writes : (hostOps0_9 : List (HloOp τ sig (Elt F))).Forall fun op => op.writes ⊆ (hostOps0_9_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The references the operations of `hostOps1` write. -/
abbrev hostOps1_W : List (Ref sig .tc) := [main_v94, main_cst_12, main_v95, main_v96, main_v97, main_v98, main_v99, main_v100, main_v101, main_v102, main_v103, main_v104, main_v105, main_v106, main_c_13]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_1` allocates a buffer. -/
theorem hostOps1_1_fresh : (hostOps1_1 : List (HloOp τ sig (Elt F))).Forall fun op => op.fresh = ∅ := by
  simp only [List.Forall]; repeat' constructor
/-- The references the operations of `hostOps1_1` write. -/
abbrev hostOps1_1_W : List (Ref sig .tc) := [main_call5_v0, main_v107]
theorem hostOps1_1_writes : (hostOps1_1 : List (HloOp τ sig (Elt F))).Forall fun op => op.writes ⊆ (hostOps1_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_2` allocates a buffer. -/
theorem hostOps1_2_fresh : (hostOps1_2 : List (HloOp τ sig (Elt F))).Forall fun op => op.fresh = ∅ := by
  simp only [List.Forall]; repeat' constructor
/-- The references the operations of `hostOps1_2` write. -/
abbrev hostOps1_2_W : List (Ref sig .tc) := [main_c_14]
theorem hostOps1_2_writes : (hostOps1_2 : List (HloOp τ sig (Elt F))).Forall fun op => op.writes ⊆ (hostOps1_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_3` allocates a buffer. -/
theorem hostOps1_3_fresh : (hostOps1_3 : List (HloOp τ sig (Elt F))).Forall fun op => op.fresh = ∅ := by
  simp only [List.Forall]; repeat' constructor
/-- The references the operations of `hostOps1_3` write. -/
abbrev hostOps1_3_W : List (Ref sig .tc) := [main_call6_v0, main_v108]
theorem hostOps1_3_writes : (hostOps1_3 : List (HloOp τ sig (Elt F))).Forall fun op => op.writes ⊆ (hostOps1_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2` allocates a buffer. -/
theorem hostOps2_fresh : (hostOps2 : List (HloOp τ sig (Elt F))).Forall fun op => op.fresh = ∅ := by
  simp only [List.Forall]; repeat' constructor
/-- The references the operations of `hostOps2` write. -/
abbrev hostOps2_W : List (Ref sig .tc) := [main_v110, main_cst_15, main_v111, main_v112, main_cst_16, main_v113, main_v114, main_cst_17, main_v115, main_v116, main_cst_18, main_v117, main_v118, main_v119, main_v120, main_v121, main_v122, main_v123]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_1` allocates a buffer. -/
theorem hostOps2_1_fresh : (hostOps2_1 : List (HloOp τ sig (Elt F))).Forall fun op => op.fresh = ∅ := by
  simp only [List.Forall]; repeat' constructor
/-- The references the operations of `hostOps2_1` write. -/
abbrev hostOps2_1_W : List (Ref sig .tc) := [main_call7_cst, main_call7_v0, main_v124]
theorem hostOps2_1_writes : (hostOps2_1 : List (HloOp τ sig (Elt F))).Forall fun op => op.writes ⊆ (hostOps2_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_2` allocates a buffer. -/
theorem hostOps2_2_fresh : (hostOps2_2 : List (HloOp τ sig (Elt F))).Forall fun op => op.fresh = ∅ := by
  simp only [List.Forall]; repeat' constructor
/-- The references the operations of `hostOps2_2` write. -/
abbrev hostOps2_2_W : List (Ref sig .tc) := [main_v125, main_v126, main_v127, main_v128]
theorem hostOps2_2_writes : (hostOps2_2 : List (HloOp τ sig (Elt F))).Forall fun op => op.writes ⊆ (hostOps2_2_W.map (Proc.devRef (τ := τ) .tc)).toFinset := by
  simp only [List.Forall]
  refine ⟨?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_3` allocates a buffer. -/
theorem hostOps2_3_fresh : (hostOps2_3 : List (HloOp τ sig (Elt F))).Forall fun op => op.fresh = ∅ := by
  simp only [List.Forall]; repeat' constructor
/-- The references the operations of `hostOps2_3` write. -/
abbrev hostOps2_3_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v129]
theorem hostOps2_3_writes : (hostOps2_3 : List (HloOp τ sig (Elt F))).Forall fun op => op.writes ⊆ (hostOps2_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_4` allocates a buffer. -/
theorem hostOps2_4_fresh : (hostOps2_4 : List (HloOp τ sig (Elt F))).Forall fun op => op.fresh = ∅ := by
  simp only [List.Forall]; repeat' constructor
/-- The references the operations of `hostOps2_4` write. -/
abbrev hostOps2_4_W : List (Ref sig .tc) := [main_v130]
theorem hostOps2_4_writes : (hostOps2_4 : List (HloOp τ sig (Elt F))).Forall fun op => op.writes ⊆ (hostOps2_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_5` allocates a buffer. -/
theorem hostOps2_5_fresh : (hostOps2_5 : List (HloOp τ sig (Elt F))).Forall fun op => op.fresh = ∅ := by
  simp only [List.Forall]; repeat' constructor
/-- The references the operations of `hostOps2_5` write. -/
abbrev hostOps2_5_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v131]
theorem hostOps2_5_writes : (hostOps2_5 : List (HloOp τ sig (Elt F))).Forall fun op => op.writes ⊆ (hostOps2_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_6` allocates a buffer. -/
theorem hostOps2_6_fresh : (hostOps2_6 : List (HloOp τ sig (Elt F))).Forall fun op => op.fresh = ∅ := by
  simp only [List.Forall]; repeat' constructor
/-- The references the operations of `hostOps2_6` write. -/
abbrev hostOps2_6_W : List (Ref sig .tc) := [main_v132, main_v133, main_v134, main_v135, main_v136, main_v137, main_v138, main_v139, main_v140, main_v141, main_c_19]
theorem hostOps2_6_writes : (hostOps2_6 : List (HloOp τ sig (Elt F))).Forall fun op => op.writes ⊆ (hostOps2_6_W.map (Proc.devRef (τ := τ) .tc)).toFinset := by
  simp only [List.Forall]
  refine ⟨?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_7` allocates a buffer. -/
theorem hostOps2_7_fresh : (hostOps2_7 : List (HloOp τ sig (Elt F))).Forall fun op => op.fresh = ∅ := by
  simp only [List.Forall]; repeat' constructor
/-- The references the operations of `hostOps2_7` write. -/
abbrev hostOps2_7_W : List (Ref sig .tc) := [main_call10_v0, main_v142]
theorem hostOps2_7_writes : (hostOps2_7 : List (HloOp τ sig (Elt F))).Forall fun op => op.writes ⊆ (hostOps2_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_8` allocates a buffer. -/
theorem hostOps2_8_fresh : (hostOps2_8 : List (HloOp τ sig (Elt F))).Forall fun op => op.fresh = ∅ := by
  simp only [List.Forall]; repeat' constructor
/-- The references the operations of `hostOps2_8` write. -/
abbrev hostOps2_8_W : List (Ref sig .tc) := [main_c_20]
theorem hostOps2_8_writes : (hostOps2_8 : List (HloOp τ sig (Elt F))).Forall fun op => op.writes ⊆ (hostOps2_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_9` allocates a buffer. -/
theorem hostOps2_9_fresh : (hostOps2_9 : List (HloOp τ sig (Elt F))).Forall fun op => op.fresh = ∅ := by
  simp only [List.Forall]; repeat' constructor
/-- The references the operations of `hostOps2_9` write. -/
abbrev hostOps2_9_W : List (Ref sig .tc) := [main_call11_v0, main_v143]
theorem hostOps2_9_writes : (hostOps2_9 : List (HloOp τ sig (Elt F))).Forall fun op => op.writes ⊆ (hostOps2_9_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_10` allocates a buffer. -/
theorem hostOps2_10_fresh : (hostOps2_10 : List (HloOp τ sig (Elt F))).Forall fun op => op.fresh = ∅ := by
  simp only [List.Forall]; repeat' constructor
/-- The references the operations of `hostOps2_10` write. -/
abbrev hostOps2_10_W : List (Ref sig .tc) := [main_c_21]
theorem hostOps2_10_writes : (hostOps2_10 : List (HloOp τ sig (Elt F))).Forall fun op => op.writes ⊆ (hostOps2_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_11` allocates a buffer. -/
theorem hostOps2_11_fresh : (hostOps2_11 : List (HloOp τ sig (Elt F))).Forall fun op => op.fresh = ∅ := by
  simp only [List.Forall]; repeat' constructor
/-- The references the operations of `hostOps2_11` write. -/
abbrev hostOps2_11_W : List (Ref sig .tc) := [main_call12_v0, main_v144]
theorem hostOps2_11_writes : (hostOps2_11 : List (HloOp τ sig (Elt F))).Forall fun op => op.writes ⊆ (hostOps2_11_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3` allocates a buffer. -/
theorem hostOps3_fresh : (hostOps3 : List (HloOp τ sig (Elt F))).Forall fun op => op.fresh = ∅ := by
  simp only [List.Forall]; repeat' constructor
/-- The references the operations of `hostOps3` write. -/
abbrev hostOps3_W : List (Ref sig .tc) := [main_v146, main_cst_22, main_v147, main_v148, main_v149, main_v150, main_v151, main_v152, main_v153, main_v154, main_v155, main_v156, main_v157, main_v158, main_c_23]
theorem hostOps3_writes : (hostOps3 : List (HloOp τ sig (Elt F))).Forall fun op => op.writes ⊆ (hostOps3_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_1` allocates a buffer. -/
theorem hostOps3_1_fresh : (hostOps3_1 : List (HloOp τ sig (Elt F))).Forall fun op => op.fresh = ∅ := by
  simp only [List.Forall]; repeat' constructor
/-- The references the operations of `hostOps3_1` write. -/
abbrev hostOps3_1_W : List (Ref sig .tc) := [main_call13_v0, main_v159]
theorem hostOps3_1_writes : (hostOps3_1 : List (HloOp τ sig (Elt F))).Forall fun op => op.writes ⊆ (hostOps3_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_2` allocates a buffer. -/
theorem hostOps3_2_fresh : (hostOps3_2 : List (HloOp τ sig (Elt F))).Forall fun op => op.fresh = ∅ := by
  simp only [List.Forall]; repeat' constructor
/-- The references the operations of `hostOps3_2` write. -/
abbrev hostOps3_2_W : List (Ref sig .tc) := [main_c_24]
theorem hostOps3_2_writes : (hostOps3_2 : List (HloOp τ sig (Elt F))).Forall fun op => op.writes ⊆ (hostOps3_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_3` allocates a buffer. -/
theorem hostOps3_3_fresh : (hostOps3_3 : List (HloOp τ sig (Elt F))).Forall fun op => op.fresh = ∅ := by
  simp only [List.Forall]; repeat' constructor
/-- The references the operations of `hostOps3_3` write. -/
abbrev hostOps3_3_W : List (Ref sig .tc) := [main_call14_v0, main_v160]
theorem hostOps3_3_writes : (hostOps3_3 : List (HloOp τ sig (Elt F))).Forall fun op => op.writes ⊆ (hostOps3_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4` allocates a buffer. -/
theorem hostOps4_fresh : (hostOps4 : List (HloOp τ sig (Elt F))).Forall fun op => op.fresh = ∅ := by
  simp only [List.Forall]; repeat' constructor
/-- The references the operations of `hostOps4` write. -/
abbrev hostOps4_W : List (Ref sig .tc) := [main_v162, main_cst_25, main_v163, main_v164, main_cst_26, main_v165, main_v166, main_cst_27, main_v167, main_v168, main_cst_28, main_v169, main_v170, main_v171, main_v172, main_v173, main_v174, main_v175]
theorem hostOps4_writes : (hostOps4 : List (HloOp τ sig (Elt F))).Forall fun op => op.writes ⊆ (hostOps4_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_1` allocates a buffer. -/
theorem hostOps4_1_fresh : (hostOps4_1 : List (HloOp τ sig (Elt F))).Forall fun op => op.fresh = ∅ := by
  simp only [List.Forall]; repeat' constructor
/-- The references the operations of `hostOps4_1` write. -/
abbrev hostOps4_1_W : List (Ref sig .tc) := [main_call15_cst, main_call15_v0, main_v176]
theorem hostOps4_1_writes : (hostOps4_1 : List (HloOp τ sig (Elt F))).Forall fun op => op.writes ⊆ (hostOps4_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_2` allocates a buffer. -/
theorem hostOps4_2_fresh : (hostOps4_2 : List (HloOp τ sig (Elt F))).Forall fun op => op.fresh = ∅ := by
  simp only [List.Forall]; repeat' constructor
/-- The references the operations of `hostOps4_2` write. -/
abbrev hostOps4_2_W : List (Ref sig .tc) := [main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_c_29]
theorem hostOps4_2_writes : (hostOps4_2 : List (HloOp τ sig (Elt F))).Forall fun op => op.writes ⊆ (hostOps4_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_3` allocates a buffer. -/
theorem hostOps4_3_fresh : (hostOps4_3 : List (HloOp τ sig (Elt F))).Forall fun op => op.fresh = ∅ := by
  simp only [List.Forall]; repeat' constructor
/-- The references the operations of `hostOps4_3` write. -/
abbrev hostOps4_3_W : List (Ref sig .tc) := [main_call16_v0, main_v237]
theorem hostOps4_3_writes : (hostOps4_3 : List (HloOp τ sig (Elt F))).Forall fun op => op.writes ⊆ (hostOps4_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_4` allocates a buffer. -/
theorem hostOps4_4_fresh : (hostOps4_4 : List (HloOp τ sig (Elt F))).Forall fun op => op.fresh = ∅ := by
  simp only [List.Forall]; repeat' constructor
/-- The references the operations of `hostOps4_4` write. -/
abbrev hostOps4_4_W : List (Ref sig .tc) := [main_c_30]
theorem hostOps4_4_writes : (hostOps4_4 : List (HloOp τ sig (Elt F))).Forall fun op => op.writes ⊆ (hostOps4_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_5` allocates a buffer. -/
theorem hostOps4_5_fresh : (hostOps4_5 : List (HloOp τ sig (Elt F))).Forall fun op => op.fresh = ∅ := by
  simp only [List.Forall]; repeat' constructor
/-- The references the operations of `hostOps4_5` write. -/
abbrev hostOps4_5_W : List (Ref sig .tc) := [main_call17_v0, main_v238]
theorem hostOps4_5_writes : (hostOps4_5 : List (HloOp τ sig (Elt F))).Forall fun op => op.writes ⊆ (hostOps4_5_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_6` allocates a buffer. -/
theorem hostOps4_6_fresh : (hostOps4_6 : List (HloOp τ sig (Elt F))).Forall fun op => op.fresh = ∅ := by
  simp only [List.Forall]; repeat' constructor
/-- The references the operations of `hostOps4_6` write. -/
abbrev hostOps4_6_W : List (Ref sig .tc) := [main_c_31]
theorem hostOps4_6_writes : (hostOps4_6 : List (HloOp τ sig (Elt F))).Forall fun op => op.writes ⊆ (hostOps4_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4_7` allocates a buffer. -/
theorem hostOps4_7_fresh : (hostOps4_7 : List (HloOp τ sig (Elt F))).Forall fun op => op.fresh = ∅ := by
  simp only [List.Forall]; repeat' constructor
/-- The references the operations of `hostOps4_7` write. -/
abbrev hostOps4_7_W : List (Ref sig .tc) := [main_call18_v0, main_v239]
theorem hostOps4_7_writes : (hostOps4_7 : List (HloOp τ sig (Elt F))).Forall fun op => op.writes ⊆ (hostOps4_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5` allocates a buffer. -/
theorem hostOps5_fresh : (hostOps5 : List (HloOp τ sig (Elt F))).Forall fun op => op.fresh = ∅ := by
  simp only [List.Forall]; repeat' constructor
/-- The references the operations of `hostOps5` write. -/
abbrev hostOps5_W : List (Ref sig .tc) := [main_v241, main_cst_32, main_v242, main_v243, main_v244, main_v245, main_v246, main_v247, main_v248, main_v249, main_v250, main_v251, main_v252, main_v253, main_c_33]
theorem hostOps5_writes : (hostOps5 : List (HloOp τ sig (Elt F))).Forall fun op => op.writes ⊆ (hostOps5_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5_1` allocates a buffer. -/
theorem hostOps5_1_fresh : (hostOps5_1 : List (HloOp τ sig (Elt F))).Forall fun op => op.fresh = ∅ := by
  simp only [List.Forall]; repeat' constructor
/-- The references the operations of `hostOps5_1` write. -/
abbrev hostOps5_1_W : List (Ref sig .tc) := [main_call19_v0, main_v254]
theorem hostOps5_1_writes : (hostOps5_1 : List (HloOp τ sig (Elt F))).Forall fun op => op.writes ⊆ (hostOps5_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5_2` allocates a buffer. -/
theorem hostOps5_2_fresh : (hostOps5_2 : List (HloOp τ sig (Elt F))).Forall fun op => op.fresh = ∅ := by
  simp only [List.Forall]; repeat' constructor
/-- The references the operations of `hostOps5_2` write. -/
abbrev hostOps5_2_W : List (Ref sig .tc) := [main_c_34]
theorem hostOps5_2_writes : (hostOps5_2 : List (HloOp τ sig (Elt F))).Forall fun op => op.writes ⊆ (hostOps5_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5_3` allocates a buffer. -/
theorem hostOps5_3_fresh : (hostOps5_3 : List (HloOp τ sig (Elt F))).Forall fun op => op.fresh = ∅ := by
  simp only [List.Forall]; repeat' constructor
/-- The references the operations of `hostOps5_3` write. -/
abbrev hostOps5_3_W : List (Ref sig .tc) := [main_call20_v0, main_v255]
theorem hostOps5_3_writes : (hostOps5_3 : List (HloOp τ sig (Elt F))).Forall fun op => op.writes ⊆ (hostOps5_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6` allocates a buffer. -/
theorem hostOps6_fresh : (hostOps6 : List (HloOp τ sig (Elt F))).Forall fun op => op.fresh = ∅ := by
  simp only [List.Forall]; repeat' constructor
/-- The references the operations of `hostOps6` write. -/
abbrev hostOps6_W : List (Ref sig .tc) := [main_v257, main_cst_35, main_v258, main_v259, main_cst_36, main_v260, main_v261, main_cst_37, main_v262, main_v263, main_cst_38, main_v264, main_v265, main_v266, main_v267, main_v268, main_v269, main_v270]
theorem hostOps6_writes : (hostOps6 : List (HloOp τ sig (Elt F))).Forall fun op => op.writes ⊆ (hostOps6_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_1` allocates a buffer. -/
theorem hostOps6_1_fresh : (hostOps6_1 : List (HloOp τ sig (Elt F))).Forall fun op => op.fresh = ∅ := by
  simp only [List.Forall]; repeat' constructor
/-- The references the operations of `hostOps6_1` write. -/
abbrev hostOps6_1_W : List (Ref sig .tc) := [main_call21_cst, main_call21_v0, main_v271]
theorem hostOps6_1_writes : (hostOps6_1 : List (HloOp τ sig (Elt F))).Forall fun op => op.writes ⊆ (hostOps6_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_2` allocates a buffer. -/
theorem hostOps6_2_fresh : (hostOps6_2 : List (HloOp τ sig (Elt F))).Forall fun op => op.fresh = ∅ := by
  simp only [List.Forall]; repeat' constructor
/-- The references the operations of `hostOps6_2` write. -/
abbrev hostOps6_2_W : List (Ref sig .tc) := [main_v272, main_v273, main_v274, main_v275]
theorem hostOps6_2_writes : (hostOps6_2 : List (HloOp τ sig (Elt F))).Forall fun op => op.writes ⊆ (hostOps6_2_W.map (Proc.devRef (τ := τ) .tc)).toFinset := by
  simp only [List.Forall]
  refine ⟨?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_3` allocates a buffer. -/
theorem hostOps6_3_fresh : (hostOps6_3 : List (HloOp τ sig (Elt F))).Forall fun op => op.fresh = ∅ := by
  simp only [List.Forall]; repeat' constructor
/-- The references the operations of `hostOps6_3` write. -/
abbrev hostOps6_3_W : List (Ref sig .tc) := [main_call22_c, main_call22_v0, main_call22_v1, main_call22_c_0, main_call22_v2, main_call22_v3, main_call22_v4, main_call22_v5, main_call22_c_1, main_call22_c_2, main_call22_v6, main_call22_v7, main_call22_v8, main_call22_v9, main_call22_v10, main_call22_v11, main_call22_c_3, main_call22_v12, main_call22_v13, main_call22_v14, main_call22_cst, main_call22_v15, main_v276]
theorem hostOps6_3_writes : (hostOps6_3 : List (HloOp τ sig (Elt F))).Forall fun op => op.writes ⊆ (hostOps6_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_4` allocates a buffer. -/
theorem hostOps6_4_fresh : (hostOps6_4 : List (HloOp τ sig (Elt F))).Forall fun op => op.fresh = ∅ := by
  simp only [List.Forall]; repeat' constructor
/-- The references the operations of `hostOps6_4` write. -/
abbrev hostOps6_4_W : List (Ref sig .tc) := [main_v277]
theorem hostOps6_4_writes : (hostOps6_4 : List (HloOp τ sig (Elt F))).Forall fun op => op.writes ⊆ (hostOps6_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_5` allocates a buffer. -/
theorem hostOps6_5_fresh : (hostOps6_5 : List (HloOp τ sig (Elt F))).Forall fun op => op.fresh = ∅ := by
  simp only [List.Forall]; repeat' constructor
/-- The references the operations of `hostOps6_5` write. -/
abbrev hostOps6_5_W : List (Ref sig .tc) := [main_call23_c, main_call23_v0, main_call23_v1, main_call23_c_0, main_call23_v2, main_call23_v3, main_call23_v4, main_call23_v5, main_call23_c_1, main_call23_c_2, main_call23_v6, main_call23_v7, main_call23_v8, main_call23_v9, main_call23_v10, main_call23_v11, main_call23_c_3, main_call23_v12, main_call23_v13, main_call23_v14, main_call23_cst, main_call23_v15, main_v278]
theorem hostOps6_5_writes : (hostOps6_5 : List (HloOp τ sig (Elt F))).Forall fun op => op.writes ⊆ (hostOps6_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_6` allocates a buffer. -/
theorem hostOps6_6_fresh : (hostOps6_6 : List (HloOp τ sig (Elt F))).Forall fun op => op.fresh = ∅ := by
  simp only [List.Forall]; repeat' constructor
/-- The references the operations of `hostOps6_6` write. -/
abbrev hostOps6_6_W : List (Ref sig .tc) := [main_v279, main_v280, main_v281, main_v282, main_v283, main_v284, main_v285, main_v286, main_v287, main_v288, main_c_39]
theorem hostOps6_6_writes : (hostOps6_6 : List (HloOp τ sig (Elt F))).Forall fun op => op.writes ⊆ (hostOps6_6_W.map (Proc.devRef (τ := τ) .tc)).toFinset := by
  simp only [List.Forall]
  refine ⟨?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_7` allocates a buffer. -/
theorem hostOps6_7_fresh : (hostOps6_7 : List (HloOp τ sig (Elt F))).Forall fun op => op.fresh = ∅ := by
  simp only [List.Forall]; repeat' constructor
/-- The references the operations of `hostOps6_7` write. -/
abbrev hostOps6_7_W : List (Ref sig .tc) := [main_call24_v0, main_v289]
theorem hostOps6_7_writes : (hostOps6_7 : List (HloOp τ sig (Elt F))).Forall fun op => op.writes ⊆ (hostOps6_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_8` allocates a buffer. -/
theorem hostOps6_8_fresh : (hostOps6_8 : List (HloOp τ sig (Elt F))).Forall fun op => op.fresh = ∅ := by
  simp only [List.Forall]; repeat' constructor
/-- The references the operations of `hostOps6_8` write. -/
abbrev hostOps6_8_W : List (Ref sig .tc) := [main_c_40]
theorem hostOps6_8_writes : (hostOps6_8 : List (HloOp τ sig (Elt F))).Forall fun op => op.writes ⊆ (hostOps6_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_9` allocates a buffer. -/
theorem hostOps6_9_fresh : (hostOps6_9 : List (HloOp τ sig (Elt F))).Forall fun op => op.fresh = ∅ := by
  simp only [List.Forall]; repeat' constructor
/-- The references the operations of `hostOps6_9` write. -/
abbrev hostOps6_9_W : List (Ref sig .tc) := [main_call25_v0, main_v290]
theorem hostOps6_9_writes : (hostOps6_9 : List (HloOp τ sig (Elt F))).Forall fun op => op.writes ⊆ (hostOps6_9_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_10` allocates a buffer. -/
theorem hostOps6_10_fresh : (hostOps6_10 : List (HloOp τ sig (Elt F))).Forall fun op => op.fresh = ∅ := by
  simp only [List.Forall]; repeat' constructor
/-- The references the operations of `hostOps6_10` write. -/
abbrev hostOps6_10_W : List (Ref sig .tc) := [main_c_41]
theorem hostOps6_10_writes : (hostOps6_10 : List (HloOp τ sig (Elt F))).Forall fun op => op.writes ⊆ (hostOps6_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6_11` allocates a buffer. -/
theorem hostOps6_11_fresh : (hostOps6_11 : List (HloOp τ sig (Elt F))).Forall fun op => op.fresh = ∅ := by
  simp only [List.Forall]; repeat' constructor
/-- The references the operations of `hostOps6_11` write. -/
abbrev hostOps6_11_W : List (Ref sig .tc) := [main_call26_v0, main_v291]
theorem hostOps6_11_writes : (hostOps6_11 : List (HloOp τ sig (Elt F))).Forall fun op => op.writes ⊆ (hostOps6_11_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7` allocates a buffer. -/
theorem hostOps7_fresh : (hostOps7 : List (HloOp τ sig (Elt F))).Forall fun op => op.fresh = ∅ := by
  simp only [List.Forall]; repeat' constructor
/-- The references the operations of `hostOps7` write. -/
abbrev hostOps7_W : List (Ref sig .tc) := [main_v293, main_cst_42, main_v294, main_v295, main_v296, main_v297, main_v298, main_v299, main_v300, main_v301, main_v302, main_v303, main_v304, main_v305, main_c_43]
theorem hostOps7_writes : (hostOps7 : List (HloOp τ sig (Elt F))).Forall fun op => op.writes ⊆ (hostOps7_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7_1` allocates a buffer. -/
theorem hostOps7_1_fresh : (hostOps7_1 : List (HloOp τ sig (Elt F))).Forall fun op => op.fresh = ∅ := by
  simp only [List.Forall]; repeat' constructor
/-- The references the operations of `hostOps7_1` write. -/
abbrev hostOps7_1_W : List (Ref sig .tc) := [main_call27_v0, main_v306]
theorem hostOps7_1_writes : (hostOps7_1 : List (HloOp τ sig (Elt F))).Forall fun op => op.writes ⊆ (hostOps7_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7_2` allocates a buffer. -/
theorem hostOps7_2_fresh : (hostOps7_2 : List (HloOp τ sig (Elt F))).Forall fun op => op.fresh = ∅ := by
  simp only [List.Forall]; repeat' constructor
/-- The references the operations of `hostOps7_2` write. -/
abbrev hostOps7_2_W : List (Ref sig .tc) := [main_c_44]
theorem hostOps7_2_writes : (hostOps7_2 : List (HloOp τ sig (Elt F))).Forall fun op => op.writes ⊆ (hostOps7_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7_3` allocates a buffer. -/
theorem hostOps7_3_fresh : (hostOps7_3 : List (HloOp τ sig (Elt F))).Forall fun op => op.fresh = ∅ := by
  simp only [List.Forall]; repeat' constructor
/-- The references the operations of `hostOps7_3` write. -/
abbrev hostOps7_3_W : List (Ref sig .tc) := [main_call28_v0, main_v307]
theorem hostOps7_3_writes : (hostOps7_3 : List (HloOp τ sig (Elt F))).Forall fun op => op.writes ⊆ (hostOps7_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8` allocates a buffer. -/
theorem hostOps8_fresh : (hostOps8 : List (HloOp τ sig (Elt F))).Forall fun op => op.fresh = ∅ := by
  simp only [List.Forall]; repeat' constructor
/-- The references the operations of `hostOps8` write. -/
abbrev hostOps8_W : List (Ref sig .tc) := [main_v309, main_cst_45, main_v310, main_v311, main_cst_46, main_v312, main_v313, main_cst_47, main_v314, main_v315, main_cst_48, main_v316, main_v317, main_v318, main_v319, main_v320, main_v321, main_v322]
theorem hostOps8_writes : (hostOps8 : List (HloOp τ sig (Elt F))).Forall fun op => op.writes ⊆ (hostOps8_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_1` allocates a buffer. -/
theorem hostOps8_1_fresh : (hostOps8_1 : List (HloOp τ sig (Elt F))).Forall fun op => op.fresh = ∅ := by
  simp only [List.Forall]; repeat' constructor
/-- The references the operations of `hostOps8_1` write. -/
abbrev hostOps8_1_W : List (Ref sig .tc) := [main_call29_cst, main_call29_v0, main_v323]
theorem hostOps8_1_writes : (hostOps8_1 : List (HloOp τ sig (Elt F))).Forall fun op => op.writes ⊆ (hostOps8_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_2` allocates a buffer. -/
theorem hostOps8_2_fresh : (hostOps8_2 : List (HloOp τ sig (Elt F))).Forall fun op => op.fresh = ∅ := by
  simp only [List.Forall]; repeat' constructor
/-- The references the operations of `hostOps8_2` write. -/
abbrev hostOps8_2_W : List (Ref sig .tc) := [main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_c_49]
theorem hostOps8_2_writes : (hostOps8_2 : List (HloOp τ sig (Elt F))).Forall fun op => op.writes ⊆ (hostOps8_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_3` allocates a buffer. -/
theorem hostOps8_3_fresh : (hostOps8_3 : List (HloOp τ sig (Elt F))).Forall fun op => op.fresh = ∅ := by
  simp only [List.Forall]; repeat' constructor
/-- The references the operations of `hostOps8_3` write. -/
abbrev hostOps8_3_W : List (Ref sig .tc) := [main_call30_v0, main_v384]
theorem hostOps8_3_writes : (hostOps8_3 : List (HloOp τ sig (Elt F))).Forall fun op => op.writes ⊆ (hostOps8_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_4` allocates a buffer. -/
theorem hostOps8_4_fresh : (hostOps8_4 : List (HloOp τ sig (Elt F))).Forall fun op => op.fresh = ∅ := by
  simp only [List.Forall]; repeat' constructor
/-- The references the operations of `hostOps8_4` write. -/
abbrev hostOps8_4_W : List (Ref sig .tc) := [main_c_50]
theorem hostOps8_4_writes : (hostOps8_4 : List (HloOp τ sig (Elt F))).Forall fun op => op.writes ⊆ (hostOps8_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_5` allocates a buffer. -/
theorem hostOps8_5_fresh : (hostOps8_5 : List (HloOp τ sig (Elt F))).Forall fun op => op.fresh = ∅ := by
  simp only [List.Forall]; repeat' constructor
/-- The references the operations of `hostOps8_5` write. -/
abbrev hostOps8_5_W : List (Ref sig .tc) := [main_call31_v0, main_v385]
theorem hostOps8_5_writes : (hostOps8_5 : List (HloOp τ sig (Elt F))).Forall fun op => op.writes ⊆ (hostOps8_5_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_6` allocates a buffer. -/
theorem hostOps8_6_fresh : (hostOps8_6 : List (HloOp τ sig (Elt F))).Forall fun op => op.fresh = ∅ := by
  simp only [List.Forall]; repeat' constructor
/-- The references the operations of `hostOps8_6` write. -/
abbrev hostOps8_6_W : List (Ref sig .tc) := [main_c_51]
theorem hostOps8_6_writes : (hostOps8_6 : List (HloOp τ sig (Elt F))).Forall fun op => op.writes ⊆ (hostOps8_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8_7` allocates a buffer. -/
theorem hostOps8_7_fresh : (hostOps8_7 : List (HloOp τ sig (Elt F))).Forall fun op => op.fresh = ∅ := by
  simp only [List.Forall]; repeat' constructor
/-- The references the operations of `hostOps8_7` write. -/
abbrev hostOps8_7_W : List (Ref sig .tc) := [main_call32_v0, main_v386]
theorem hostOps8_7_writes : (hostOps8_7 : List (HloOp τ sig (Elt F))).Forall fun op => op.writes ⊆ (hostOps8_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps9` allocates a buffer. -/
theorem hostOps9_fresh : (hostOps9 : List (HloOp τ sig (Elt F))).Forall fun op => op.fresh = ∅ := by
  simp only [List.Forall]; repeat' constructor
/-- The references the operations of `hostOps9` write. -/
abbrev hostOps9_W : List (Ref sig .tc) := [main_v388, main_cst_52, main_v389, main_v390, main_v391, main_v392, main_v393, main_v394, main_v395, main_v396, main_v397, main_v398, main_v399, main_v400, main_c_53]
theorem hostOps9_writes : (hostOps9 : List (HloOp τ sig (Elt F))).Forall fun op => op.writes ⊆ (hostOps9_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps9_1` allocates a buffer. -/
theorem hostOps9_1_fresh : (hostOps9_1 : List (HloOp τ sig (Elt F))).Forall fun op => op.fresh = ∅ := by
  simp only [List.Forall]; repeat' constructor
/-- The references the operations of `hostOps9_1` write. -/
abbrev hostOps9_1_W : List (Ref sig .tc) := [main_call33_v0, main_v401]
theorem hostOps9_1_writes : (hostOps9_1 : List (HloOp τ sig (Elt F))).Forall fun op => op.writes ⊆ (hostOps9_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps9_2` allocates a buffer. -/
theorem hostOps9_2_fresh : (hostOps9_2 : List (HloOp τ sig (Elt F))).Forall fun op => op.fresh = ∅ := by
  simp only [List.Forall]; repeat' constructor
/-- The references the operations of `hostOps9_2` write. -/
abbrev hostOps9_2_W : List (Ref sig .tc) := [main_c_54]
theorem hostOps9_2_writes : (hostOps9_2 : List (HloOp τ sig (Elt F))).Forall fun op => op.writes ⊆ (hostOps9_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps9_3` allocates a buffer. -/
theorem hostOps9_3_fresh : (hostOps9_3 : List (HloOp τ sig (Elt F))).Forall fun op => op.fresh = ∅ := by
  simp only [List.Forall]; repeat' constructor
/-- The references the operations of `hostOps9_3` write. -/
abbrev hostOps9_3_W : List (Ref sig .tc) := [main_call34_v0, main_v402]
theorem hostOps9_3_writes : (hostOps9_3 : List (HloOp τ sig (Elt F))).Forall fun op => op.writes ⊆ (hostOps9_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10` allocates a buffer. -/
theorem hostOps10_fresh : (hostOps10 : List (HloOp τ sig (Elt F))).Forall fun op => op.fresh = ∅ := by
  simp only [List.Forall]; repeat' constructor
/-- The references the operations of `hostOps10` write. -/
abbrev hostOps10_W : List (Ref sig .tc) := [main_v404, main_cst_55, main_v405, main_v406, main_cst_56, main_v407, main_v408, main_cst_57, main_v409, main_v410, main_cst_58, main_v411, main_v412, main_v413, main_v414, main_v415, main_v416, main_v417]
theorem hostOps10_writes : (hostOps10 : List (HloOp τ sig (Elt F))).Forall fun op => op.writes ⊆ (hostOps10_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_1` allocates a buffer. -/
theorem hostOps10_1_fresh : (hostOps10_1 : List (HloOp τ sig (Elt F))).Forall fun op => op.fresh = ∅ := by
  simp only [List.Forall]; repeat' constructor
/-- The references the operations of `hostOps10_1` write. -/
abbrev hostOps10_1_W : List (Ref sig .tc) := [main_call35_cst, main_call35_v0, main_v418]
theorem hostOps10_1_writes : (hostOps10_1 : List (HloOp τ sig (Elt F))).Forall fun op => op.writes ⊆ (hostOps10_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_2` allocates a buffer. -/
theorem hostOps10_2_fresh : (hostOps10_2 : List (HloOp τ sig (Elt F))).Forall fun op => op.fresh = ∅ := by
  simp only [List.Forall]; repeat' constructor
/-- The references the operations of `hostOps10_2` write. -/
abbrev hostOps10_2_W : List (Ref sig .tc) := [main_v419, main_v420, main_v421, main_v422]
theorem hostOps10_2_writes : (hostOps10_2 : List (HloOp τ sig (Elt F))).Forall fun op => op.writes ⊆ (hostOps10_2_W.map (Proc.devRef (τ := τ) .tc)).toFinset := by
  simp only [List.Forall]
  refine ⟨?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_3` allocates a buffer. -/
theorem hostOps10_3_fresh : (hostOps10_3 : List (HloOp τ sig (Elt F))).Forall fun op => op.fresh = ∅ := by
  simp only [List.Forall]; repeat' constructor
/-- The references the operations of `hostOps10_3` write. -/
abbrev hostOps10_3_W : List (Ref sig .tc) := [main_call36_c, main_call36_v0, main_call36_v1, main_call36_c_0, main_call36_v2, main_call36_v3, main_call36_v4, main_call36_v5, main_call36_c_1, main_call36_c_2, main_call36_v6, main_call36_v7, main_call36_v8, main_call36_v9, main_call36_v10, main_call36_v11, main_call36_c_3, main_call36_v12, main_call36_v13, main_call36_v14, main_call36_cst, main_call36_v15, main_v423]
theorem hostOps10_3_writes : (hostOps10_3 : List (HloOp τ sig (Elt F))).Forall fun op => op.writes ⊆ (hostOps10_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_4` allocates a buffer. -/
theorem hostOps10_4_fresh : (hostOps10_4 : List (HloOp τ sig (Elt F))).Forall fun op => op.fresh = ∅ := by
  simp only [List.Forall]; repeat' constructor
/-- The references the operations of `hostOps10_4` write. -/
abbrev hostOps10_4_W : List (Ref sig .tc) := [main_v424]
theorem hostOps10_4_writes : (hostOps10_4 : List (HloOp τ sig (Elt F))).Forall fun op => op.writes ⊆ (hostOps10_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_5` allocates a buffer. -/
theorem hostOps10_5_fresh : (hostOps10_5 : List (HloOp τ sig (Elt F))).Forall fun op => op.fresh = ∅ := by
  simp only [List.Forall]; repeat' constructor
/-- The references the operations of `hostOps10_5` write. -/
abbrev hostOps10_5_W : List (Ref sig .tc) := [main_call37_c, main_call37_v0, main_call37_v1, main_call37_c_0, main_call37_v2, main_call37_v3, main_call37_v4, main_call37_v5, main_call37_c_1, main_call37_c_2, main_call37_v6, main_call37_v7, main_call37_v8, main_call37_v9, main_call37_v10, main_call37_v11, main_call37_c_3, main_call37_v12, main_call37_v13, main_call37_v14, main_call37_cst, main_call37_v15, main_v425]
theorem hostOps10_5_writes : (hostOps10_5 : List (HloOp τ sig (Elt F))).Forall fun op => op.writes ⊆ (hostOps10_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_6` allocates a buffer. -/
theorem hostOps10_6_fresh : (hostOps10_6 : List (HloOp τ sig (Elt F))).Forall fun op => op.fresh = ∅ := by
  simp only [List.Forall]; repeat' constructor
/-- The references the operations of `hostOps10_6` write. -/
abbrev hostOps10_6_W : List (Ref sig .tc) := [main_v426, main_v427, main_v428, main_v429, main_v430, main_v431, main_v432, main_v433, main_v434, main_v435, main_c_59]
theorem hostOps10_6_writes : (hostOps10_6 : List (HloOp τ sig (Elt F))).Forall fun op => op.writes ⊆ (hostOps10_6_W.map (Proc.devRef (τ := τ) .tc)).toFinset := by
  simp only [List.Forall]
  refine ⟨?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_7` allocates a buffer. -/
theorem hostOps10_7_fresh : (hostOps10_7 : List (HloOp τ sig (Elt F))).Forall fun op => op.fresh = ∅ := by
  simp only [List.Forall]; repeat' constructor
/-- The references the operations of `hostOps10_7` write. -/
abbrev hostOps10_7_W : List (Ref sig .tc) := [main_call38_v0, main_v436]
theorem hostOps10_7_writes : (hostOps10_7 : List (HloOp τ sig (Elt F))).Forall fun op => op.writes ⊆ (hostOps10_7_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_8` allocates a buffer. -/
theorem hostOps10_8_fresh : (hostOps10_8 : List (HloOp τ sig (Elt F))).Forall fun op => op.fresh = ∅ := by
  simp only [List.Forall]; repeat' constructor
/-- The references the operations of `hostOps10_8` write. -/
abbrev hostOps10_8_W : List (Ref sig .tc) := [main_c_60]
theorem hostOps10_8_writes : (hostOps10_8 : List (HloOp τ sig (Elt F))).Forall fun op => op.writes ⊆ (hostOps10_8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_9` allocates a buffer. -/
theorem hostOps10_9_fresh : (hostOps10_9 : List (HloOp τ sig (Elt F))).Forall fun op => op.fresh = ∅ := by
  simp only [List.Forall]; repeat' constructor
/-- The references the operations of `hostOps10_9` write. -/
abbrev hostOps10_9_W : List (Ref sig .tc) := [main_call39_v0, main_v437]
theorem hostOps10_9_writes : (hostOps10_9 : List (HloOp τ sig (Elt F))).Forall fun op => op.writes ⊆ (hostOps10_9_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_10` allocates a buffer. -/
theorem hostOps10_10_fresh : (hostOps10_10 : List (HloOp τ sig (Elt F))).Forall fun op => op.fresh = ∅ := by
  simp only [List.Forall]; repeat' constructor
/-- The references the operations of `hostOps10_10` write. -/
abbrev hostOps10_10_W : List (Ref sig .tc) := [main_c_61]
theorem hostOps10_10_writes : (hostOps10_10 : List (HloOp τ sig (Elt F))).Forall fun op => op.writes ⊆ (hostOps10_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps10_11` allocates a buffer. -/
theorem hostOps10_11_fresh : (hostOps10_11 : List (HloOp τ sig (Elt F))).Forall fun op => op.fresh = ∅ := by
  simp only [List.Forall]; repeat' constructor
/-- The references the operations of `hostOps10_11` write. -/
abbrev hostOps10_11_W : List (Ref sig .tc) := [main_call40_v0, main_v438]
theorem hostOps10_11_writes : (hostOps10_11 : List (HloOp τ sig (Elt F))).Forall fun op => op.writes ⊆ (hostOps10_11_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps11` allocates a buffer. -/
theorem hostOps11_fresh : (hostOps11 : List (HloOp τ sig (Elt F))).Forall fun op => op.fresh = ∅ := by
  simp only [List.Forall]; repeat' constructor
/-- The references the operations of `hostOps11` write. -/
abbrev hostOps11_W : List (Ref sig .tc) := [main_v440, main_cst_62, main_v441, main_v442, main_v443, main_v444, main_v445, main_v446, main_v447, main_v448, main_v449, main_v450, main_v451, main_v452, main_c_63]
theorem hostOps11_writes : (hostOps11 : List (HloOp τ sig (Elt F))).Forall fun op => op.writes ⊆ (hostOps11_W.map (Proc.devRef (τ := τ) .tc)).toFinset := by
  simp only [List.Forall]
  refine ⟨?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps11_1` allocates a buffer. -/
theorem hostOps11_1_fresh : (hostOps11_1 : List (HloOp τ sig (Elt F))).Forall fun op => op.fresh = ∅ := by
  simp only [List.Forall]; repeat' constructor
/-- The references the operations of `hostOps11_1` write. -/
abbrev hostOps11_1_W : List (Ref sig .tc) := [main_call41_v0, main_v453]
theorem hostOps11_1_writes : (hostOps11_1 : List (HloOp τ sig (Elt F))).Forall fun op => op.writes ⊆ (hostOps11_1_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps11_2` allocates a buffer. -/
theorem hostOps11_2_fresh : (hostOps11_2 : List (HloOp τ sig (Elt F))).Forall fun op => op.fresh = ∅ := by
  simp only [List.Forall]; repeat' constructor
/-- The references the operations of `hostOps11_2` write. -/
abbrev hostOps11_2_W : List (Ref sig .tc) := [main_c_64]
theorem hostOps11_2_writes : (hostOps11_2 : List (HloOp τ sig (Elt F))).Forall fun op => op.writes ⊆ (hostOps11_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps11_3` allocates a buffer. -/
theorem hostOps11_3_fresh : (hostOps11_3 : List (HloOp τ sig (Elt F))).Forall fun op => op.fresh = ∅ := by
  simp only [List.Forall]; repeat' constructor
/-- The references the operations of `hostOps11_3` write. -/
abbrev hostOps11_3_W : List (Ref sig .tc) := [main_call42_v0, main_v454]
theorem hostOps11_3_writes : (hostOps11_3 : List (HloOp τ sig (Elt F))).Forall fun op => op.writes ⊆ (hostOps11_3_W.map (Proc.devRef (τ := τ) .tc)).toFinset := by
  simp only [List.Forall]
  refine ⟨?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12` allocates a buffer. -/
theorem hostOps12_fresh : (hostOps12 : List (HloOp τ sig (Elt F))).Forall fun op => op.fresh = ∅ := by
  simp only [List.Forall]; repeat' constructor
/-- The references the operations of `hostOps12` write. -/
abbrev hostOps12_W : List (Ref sig .tc) := [main_v456, main_cst_65, main_v457, main_v458, main_cst_66, main_v459, main_v460, main_cst_67, main_v461, main_v462, main_cst_68, main_v463, main_v464, main_v465, main_v466, main_v467, main_v468, main_v469]
theorem hostOps12_writes : (hostOps12 : List (HloOp τ sig (Elt F))).Forall fun op => op.writes ⊆ (hostOps12_W.map (Proc.devRef (τ := τ) .tc)).toFinset := by
  simp only [List.Forall]
  refine ⟨?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_1` allocates a buffer. -/
theorem hostOps12_1_fresh : (hostOps12_1 : List (HloOp τ sig (Elt F))).Forall fun op => op.fresh = ∅ := by
  simp only [List.Forall]; repeat' constructor
/-- The references the operations of `hostOps12_1` write. -/
abbrev hostOps12_1_W : List (Ref sig .tc) := [main_call43_cst, main_call43_v0, main_v470]
theorem hostOps12_1_writes : (hostOps12_1 : List (HloOp τ sig (Elt F))).Forall fun op => op.writes ⊆ (hostOps12_1_W.map (Proc.devRef (τ := τ) .tc)).toFinset := by
  simp only [List.Forall]
  refine ⟨?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_2` allocates a buffer. -/
theorem hostOps12_2_fresh : (hostOps12_2 : List (HloOp τ sig (Elt F))).Forall fun op => op.fresh = ∅ := by
  simp only [List.Forall]; repeat' constructor
/-- The references the operations of `hostOps12_2` write. -/
abbrev hostOps12_2_W : List (Ref sig .tc) := [main_v471, main_v472, main_v473, main_v474, main_v475, main_v476]
theorem hostOps12_2_writes : (hostOps12_2 : List (HloOp τ sig (Elt F))).Forall fun op => op.writes ⊆ (hostOps12_2_W.map (Proc.devRef (τ := τ) .tc)).toFinset := by
  simp only [List.Forall]
  refine ⟨?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_3` allocates a buffer. -/
theorem hostOps12_3_fresh : (hostOps12_3 : List (HloOp τ sig (Elt F))).Forall fun op => op.fresh = ∅ := by
  simp only [List.Forall]; repeat' constructor
/-- The references the operations of `hostOps12_3` write. -/
abbrev hostOps12_3_W : List (Ref sig .tc) := [main_v477]
theorem hostOps12_3_writes : (hostOps12_3 : List (HloOp τ sig (Elt F))).Forall fun op => op.writes ⊆ (hostOps12_3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_4` allocates a buffer. -/
theorem hostOps12_4_fresh : (hostOps12_4 : List (HloOp τ sig (Elt F))).Forall fun op => op.fresh = ∅ := by
  simp only [List.Forall]; repeat' constructor
/-- The references the operations of `hostOps12_4` write. -/
abbrev hostOps12_4_W : List (Ref sig .tc) := [main_v478, main_v479, main_v480, main_v481]
theorem hostOps12_4_writes : (hostOps12_4 : List (HloOp τ sig (Elt F))).Forall fun op => op.writes ⊆ (hostOps12_4_W.map (Proc.devRef (τ := τ) .tc)).toFinset := by
  simp only [List.Forall]
  refine ⟨?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_5` allocates a buffer. -/
theorem hostOps12_5_fresh : (hostOps12_5 : List (HloOp τ sig (Elt F))).Forall fun op => op.fresh = ∅ := by
  simp only [List.Forall]; repeat' constructor
/-- The references the operations of `hostOps12_5` write. -/
abbrev hostOps12_5_W : List (Ref sig .tc) := [main_v482]
theorem hostOps12_5_writes : (hostOps12_5 : List (HloOp τ sig (Elt F))).Forall fun op => op.writes ⊆ (hostOps12_5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps12_6` allocates a buffer. -/
theorem hostOps12_6_fresh : (hostOps12_6 : List (HloOp τ sig (Elt F))).Forall fun op => op.fresh = ∅ := by
  simp only [List.Forall]; repeat' constructor
/-- The references the operations of `hostOps12_6` write. -/
abbrev hostOps12_6_W : List (Ref sig .tc) := [main_v483]
theorem hostOps12_6_writes : (hostOps12_6 : List (HloOp τ sig (Elt F))).Forall fun op => op.writes ⊆ (hostOps12_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.Kernel.Gen

end
-- ==== Proof.KB.Segs.lean ====
import proofs.«426760_j80470507258346_3_alg».proof.Proof.KB.RegSeg0
import proofs.«426760_j80470507258346_3_alg».proof.Proof.KB.RegSeg1
import proofs.«426760_j80470507258346_3_alg».proof.Proof.KB.RegSeg2
import proofs.«426760_j80470507258346_3_alg».proof.Proof.KB.RegSeg3
import proofs.«426760_j80470507258346_3_alg».proof.Proof.KB.RegSeg4
import proofs.«426760_j80470507258346_3_alg».proof.Proof.KB.RegSeg5
import proofs.«426760_j80470507258346_3_alg».proof.Proof.KB.RegSeg6
import proofs.«426760_j80470507258346_3_alg».proof.Proof.KB.RegSeg7
import proofs.«426760_j80470507258346_3_alg».proof.Proof.KB.RegSeg8
import proofs.«426760_j80470507258346_3_alg».proof.Proof.KB.RegSeg9
import proofs.«426760_j80470507258346_3_alg».proof.Proof.KB.RegSeg10
import proofs.«426760_j80470507258346_3_alg».proof.Proof.KB.RegSeg11
import proofs.«426760_j80470507258346_3_alg».proof.Proof.KB.Writes

/-! @main as the list of its segments, and that it IS their run. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The items of @main in order: a host segment per host item from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .region (reg0 m ρ),
    .host (hseg hostOps1 hostOps1_sub hostOps1_fresh (W11 m ρ)),
    .host (hseg hostOps1_1 hostOps1_1_sub hostOps1_1_fresh (W12 m ρ)),
    .host (hseg hostOps1_2 hostOps1_2_sub hostOps1_2_fresh (W13 m ρ)),
    .host (hseg hostOps1_3 hostOps1_3_sub hostOps1_3_fresh (W14 m ρ)),
    .region (reg1 m ρ),
    .host (hseg hostOps2 hostOps2_sub hostOps2_fresh (W16 m ρ)),
    .host (hseg hostOps2_1 hostOps2_1_sub hostOps2_1_fresh (W17 m ρ)),
    .host (hseg hostOps2_2 hostOps2_2_sub hostOps2_2_fresh (W18 m ρ)),
    .host (hseg hostOps2_3 hostOps2_3_sub hostOps2_3_fresh (W19 m ρ)),
    .host (hseg hostOps2_4 hostOps2_4_sub hostOps2_4_fresh (W20 m ρ)),
    .host (hseg hostOps2_5 hostOps2_5_sub hostOps2_5_fresh (W21 m ρ)),
    .host (hseg hostOps2_6 hostOps2_6_sub hostOps2_6_fresh (W22 m ρ)),
    .host (hseg hostOps2_7 hostOps2_7_sub hostOps2_7_fresh (W23 m ρ)),
    .host (hseg hostOps2_8 hostOps2_8_sub hostOps2_8_fresh (W24 m ρ)),
    .host (hseg hostOps2_9 hostOps2_9_sub hostOps2_9_fresh (W25 m ρ)),
    .host (hseg hostOps2_10 hostOps2_10_sub hostOps2_10_fresh (W26 m ρ)),
    .host (hseg hostOps2_11 hostOps2_11_sub hostOps2_11_fresh (W27 m ρ)),
    .region (reg2 m ρ),
    .host (hseg hostOps3 hostOps3_sub hostOps3_fresh (W29 m ρ)),
    .host (hseg hostOps3_1 hostOps3_1_sub hostOps3_1_fresh (W30 m ρ)),
    .host (hseg hostOps3_2 hostOps3_2_sub hostOps3_2_fresh (W31 m ρ)),
    .host (hseg hostOps3_3 hostOps3_3_sub hostOps3_3_fresh (W32 m ρ)),
    .region (reg3 m ρ),
    .host (hseg hostOps4 hostOps4_sub hostOps4_fresh (W34 m ρ)),
    .host (hseg hostOps4_1 hostOps4_1_sub hostOps4_1_fresh (W35 m ρ)),
    .host (hseg hostOps4_2 hostOps4_2_sub hostOps4_2_fresh (W36 m ρ)),
    .host (hseg hostOps4_3 hostOps4_3_sub hostOps4_3_fresh (W37 m ρ)),
    .host (hseg hostOps4_4 hostOps4_4_sub hostOps4_4_fresh (W38 m ρ)),
    .host (hseg hostOps4_5 hostOps4_5_sub hostOps4_5_fresh (W39 m ρ)),
    .host (hseg hostOps4_6 hostOps4_6_sub hostOps4_6_fresh (W40 m ρ)),
    .host (hseg hostOps4_7 hostOps4_7_sub hostOps4_7_fresh (W41 m ρ)),
    .region (reg4 m ρ),
    .host (hseg hostOps5 hostOps5_sub hostOps5_fresh (W43 m ρ)),
    .host (hseg hostOps5_1 hostOps5_1_sub hostOps5_1_fresh (W44 m ρ)),
    .host (hseg hostOps5_2 hostOps5_2_sub hostOps5_2_fresh (W45 m ρ)),
    .host (hseg hostOps5_3 hostOps5_3_sub hostOps5_3_fresh (W46 m ρ)),
    .region (reg5 m ρ),
    .host (hseg hostOps6 hostOps6_sub hostOps6_fresh (W48 m ρ)),
    .host (hseg hostOps6_1 hostOps6_1_sub hostOps6_1_fresh (W49 m ρ)),
    .host (hseg hostOps6_2 hostOps6_2_sub hostOps6_2_fresh (W50 m ρ)),
    .host (hseg hostOps6_3 hostOps6_3_sub hostOps6_3_fresh (W51 m ρ)),
    .host (hseg hostOps6_4 hostOps6_4_sub hostOps6_4_fresh (W52 m ρ)),
    .host (hseg hostOps6_5 hostOps6_5_sub hostOps6_5_fresh (W53 m ρ)),
    .host (hseg hostOps6_6 hostOps6_6_sub hostOps6_6_fresh (W54 m ρ)),
    .host (hseg hostOps6_7 hostOps6_7_sub hostOps6_7_fresh (W55 m ρ)),
    .host (hseg hostOps6_8 hostOps6_8_sub hostOps6_8_fresh (W56 m ρ)),
    .host (hseg hostOps6_9 hostOps6_9_sub hostOps6_9_fresh (W57 m ρ)),
    .host (hseg hostOps6_10 hostOps6_10_sub hostOps6_10_fresh (W58 m ρ)),
    .host (hseg hostOps6_11 hostOps6_11_sub hostOps6_11_fresh (W59 m ρ)),
    .region (reg6 m ρ),
    .host (hseg hostOps7 hostOps7_sub hostOps7_fresh (W61 m ρ)),
    .host (hseg hostOps7_1 hostOps7_1_sub hostOps7_1_fresh (W62 m ρ)),
    .host (hseg hostOps7_2 hostOps7_2_sub hostOps7_2_fresh (W63 m ρ)),
    .host (hseg hostOps7_3 hostOps7_3_sub hostOps7_3_fresh (W64 m ρ)),
    .region (reg7 m ρ),
    .host (hseg hostOps8 hostOps8_sub hostOps8_fresh (W66 m ρ)),
    .host (hseg hostOps8_1 hostOps8_1_sub hostOps8_1_fresh (W67 m ρ)),
    .host (hseg hostOps8_2 hostOps8_2_sub hostOps8_2_fresh (W68 m ρ)),
    .host (hseg hostOps8_3 hostOps8_3_sub hostOps8_3_fresh (W69 m ρ)),
    .host (hseg hostOps8_4 hostOps8_4_sub hostOps8_4_fresh (W70 m ρ)),
    .host (hseg hostOps8_5 hostOps8_5_sub hostOps8_5_fresh (W71 m ρ)),
    .host (hseg hostOps8_6 hostOps8_6_sub hostOps8_6_fresh (W72 m ρ)),
    .host (hseg hostOps8_7 hostOps8_7_sub hostOps8_7_fresh (W73 m ρ)),
    .region (reg8 m ρ),
    .host (hseg hostOps9 hostOps9_sub hostOps9_fresh (W75 m ρ)),
    .host (hseg hostOps9_1 hostOps9_1_sub hostOps9_1_fresh (W76 m ρ)),
    .host (hseg hostOps9_2 hostOps9_2_sub hostOps9_2_fresh (W77 m ρ)),
    .host (hseg hostOps9_3 hostOps9_3_sub hostOps9_3_fresh (W78 m ρ)),
    .region (reg9 m ρ),
    .host (hseg hostOps10 hostOps10_sub hostOps10_fresh (W80 m ρ)),
    .host (hseg hostOps10_1 hostOps10_1_sub hostOps10_1_fresh (W81 m ρ)),
    .host (hseg hostOps10_2 hostOps10_2_sub hostOps10_2_fresh (W82 m ρ)),
    .host (hseg hostOps10_3 hostOps10_3_sub hostOps10_3_fresh (W83 m ρ)),
    .host (hseg hostOps10_4 hostOps10_4_sub hostOps10_4_fresh (W84 m ρ)),
    .host (hseg hostOps10_5 hostOps10_5_sub hostOps10_5_fresh (W85 m ρ)),
    .host (hseg hostOps10_6 hostOps10_6_sub hostOps10_6_fresh (W86 m ρ)),
    .host (hseg hostOps10_7 hostOps10_7_sub hostOps10_7_fresh (W87 m ρ)),
    .host (hseg hostOps10_8 hostOps10_8_sub hostOps10_8_fresh (W88 m ρ)),
    .host (hseg hostOps10_9 hostOps10_9_sub hostOps10_9_fresh (W89 m ρ)),
    .host (hseg hostOps10_10 hostOps10_10_sub hostOps10_10_fresh (W90 m ρ)),
    .host (hseg hostOps10_11 hostOps10_11_sub hostOps10_11_fresh (W91 m ρ)),
    .region (reg10 m ρ),
    .host (hseg hostOps11 hostOps11_sub hostOps11_fresh (W93 m ρ)),
    .host (hseg hostOps11_1 hostOps11_1_sub hostOps11_1_fresh (W94 m ρ)),
    .host (hseg hostOps11_2 hostOps11_2_sub hostOps11_2_fresh (W95 m ρ)),
    .host (hseg hostOps11_3 hostOps11_3_sub hostOps11_3_fresh (W96 m ρ)),
    .region (reg11 m ρ),
    .host (hseg hostOps12 hostOps12_sub hostOps12_fresh (W98 m ρ)),
    .host (hseg hostOps12_1 hostOps12_1_sub hostOps12_1_fresh (W99 m ρ)),
    .host (hseg hostOps12_2 hostOps12_2_sub hostOps12_2_fresh (W100 m ρ)),
    .host (hseg hostOps12_3 hostOps12_3_sub hostOps12_3_fresh (W101 m ρ)),
    .host (hseg hostOps12_4 hostOps12_4_sub hostOps12_4_fresh (W102 m ρ)),
    .host (hseg hostOps12_5 hostOps12_5_sub hostOps12_5_fresh (W103 m ρ)),
    .host (hseg hostOps12_6 hostOps12_6_sub hostOps12_6_fresh (W104 m ρ)) ]
/-- @main is the run of the segments: the chain of its items, then the segments' run against that chain. -/
theorem main_run (c : Dev nD) : main (F := F) c = Pipeline.Seg.run (segs m ρ) := (main_chain c).trans (by chain_rfl)

end Cert.Kernel.Gen

end
-- ==== Proof.KB.Args.lean ====
import proofs.«426760_j80470507258346_3_alg».proof.Proof.KB.Fold
import proofs.«426760_j80470507258346_3_alg».proof.Proof.KB.Writes

/-! No item of @main writes an argument array: a host item writes the results of its operations, a kernel region
    its result array. So the fold of the buffer contents, read at an argument, walks back to the launch memory. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h
theorem W8_of (c : Dev nD) (r : Ref sig .tc) (h : r ∉ hostOps0_7_W) :
    W8 m ρ c (Proc.devRef .tc r) = W7 m ρ c (Proc.devRef .tc r) :=
  StableHlo.after_of_writes_sub hostOps0_7 _ hostOps0_7_writes h
theorem W9_of (c : Dev nD) (r : Ref sig .tc) (h : r ∉ hostOps0_8_W) :
    W9 m ρ c (Proc.devRef .tc r) = W8 m ρ c (Proc.devRef .tc r) :=
  StableHlo.after_of_writes_sub hostOps0_8 _ hostOps0_8_writes h
theorem W10_of (c : Dev nD) (r : Ref sig .tc) (h : r ∉ hostOps0_9_W) :
    W10 m ρ c (Proc.devRef .tc r) = W9 m ρ c (Proc.devRef .tc r) :=
  StableHlo.after_of_writes_sub hostOps0_9 _ hostOps0_9_writes h
/-- Every window of pipeline 0 but the last is an input. -/
theorem isIn0 : ∀ w : Fin cfg0.W, w ≠ (9 : Fin 10) → (cfg0.win w).isOut = false := by decide
/-- Region 0 changes its result array only: an input array ends as entered, a buffer it does not move too. -/
theorem W11_of (c : Dev nD) (r : Ref sig .tc) (h : r ∉ [Pipeline.arrRef spec0 (9 : Fin 10)]) :
    W11 m ρ c (Proc.devRef .tc r) = W10 m ρ c (Proc.devRef .tc r) := by
  by_cases hr : ∃ w, Pipeline.arrRef spec0 w = r
  · obtain ⟨w, rfl⟩ := hr
    have hw : w ≠ (9 : Fin 10) := fun e => h (by rw [e]; exact List.mem_singleton_self _)
    exact (W11_arr m ρ c w).trans (((dat0 (V10 m ρ) c).arrAt_in w (isIn0 w hw) _).trans (A_eq0 (V10 m ρ) c w))
  · exact W11_of_ne m ρ c r fun w e => hr ⟨w, e⟩
theorem W12_of (c : Dev nD) (r : Ref sig .tc) (h : r ∉ hostOps1_W) :
    W12 m ρ c (Proc.devRef .tc r) = W11 m ρ c (Proc.devRef .tc r) :=
  StableHlo.after_of_writes_sub hostOps1 _ hostOps1_writes h
theorem W13_of (c : Dev nD) (r : Ref sig .tc) (h : r ∉ hostOps1_1_W) :
    W13 m ρ c (Proc.devRef .tc r) = W12 m ρ c (Proc.devRef .tc r) :=
  StableHlo.after_of_writes_sub hostOps1_1 _ hostOps1_1_writes h
theorem W14_of (c : Dev nD) (r : Ref sig .tc) (h : r ∉ hostOps1_2_W) :
    W14 m ρ c (Proc.devRef .tc r) = W13 m ρ c (Proc.devRef .tc r) :=
  StableHlo.after_of_writes_sub hostOps1_2 _ hostOps1_2_writes h
theorem W15_of (c : Dev nD) (r : Ref sig .tc) (h : r ∉ hostOps1_3_W) :
    W15 m ρ c (Proc.devRef .tc r) = W14 m ρ c (Proc.devRef .tc r) :=
  StableHlo.after_of_writes_sub hostOps1_3 _ hostOps1_3_writes h
/-- Every window of pipeline 1 but the last is an input. -/
theorem isIn1 : ∀ w : Fin cfg1.W, w ≠ (7 : Fin 8) → (cfg1.win w).isOut = false := by decide
/-- Region 1 changes its result array only: an input array ends as entered, a buffer it does not move too. -/
theorem W16_of (c : Dev nD) (r : Ref sig .tc) (h : r ∉ [Pipeline.arrRef spec1 (7 : Fin 8)]) :
    W16 m ρ c (Proc.devRef .tc r) = W15 m ρ c (Proc.devRef .tc r) := by
  by_cases hr : ∃ w, Pipeline.arrRef spec1 w = r
  · obtain ⟨w, rfl⟩ := hr
    have hw : w ≠ (7 : Fin 8) := fun e => h (by rw [e]; exact List.mem_singleton_self _)
    exact (W16_arr m ρ c w).trans (((dat1 (V15 m ρ) c).arrAt_in w (isIn1 w hw) _).trans (A_eq1 (V15 m ρ) c w))
  · exact W16_of_ne m ρ c r fun w e => hr ⟨w, e⟩
theorem W17_of (c : Dev nD) (r : Ref sig .tc) (h : r ∉ hostOps2_W) :
    W17 m ρ c (Proc.devRef .tc r) = W16 m ρ c (Proc.devRef .tc r) :=
  StableHlo.after_of_writes_sub hostOps2 _ hostOps2_writes h
theorem W18_of (c : Dev nD) (r : Ref sig .tc) (h : r ∉ hostOps2_1_W) :
    W18 m ρ c (Proc.devRef .tc r) = W17 m ρ c (Proc.devRef .tc r) :=
  StableHlo.after_of_writes_sub hostOps2_1 _ hostOps2_1_writes h
theorem W19_of (c : Dev nD) (r : Ref sig .tc) (h : r ∉ hostOps2_2_W) :
    W19 m ρ c (Proc.devRef .tc r) = W18 m ρ c (Proc.devRef .tc r) :=
  StableHlo.after_of_writes_sub hostOps2_2 _ hostOps2_2_writes h
theorem W20_of (c : Dev nD) (r : Ref sig .tc) (h : r ∉ hostOps2_3_W) :
    W20 m ρ c (Proc.devRef .tc r) = W19 m ρ c (Proc.devRef .tc r) :=
  StableHlo.after_of_writes_sub hostOps2_3 _ hostOps2_3_writes h
theorem W21_of (c : Dev nD) (r : Ref sig .tc) (h : r ∉ hostOps2_4_W) :
    W21 m ρ c (Proc.devRef .tc r) = W20 m ρ c (Proc.devRef .tc r) :=
  StableHlo.after_of_writes_sub hostOps2_4 _ hostOps2_4_writes h
theorem W22_of (c : Dev nD) (r : Ref sig .tc) (h : r ∉ hostOps2_5_W) :
    W22 m ρ c (Proc.devRef .tc r) = W21 m ρ c (Proc.devRef .tc r) :=
  StableHlo.after_of_writes_sub hostOps2_5 _ hostOps2_5_writes h
theorem W23_of (c : Dev nD) (r : Ref sig .tc) (h : r ∉ hostOps2_6_W) :
    W23 m ρ c (Proc.devRef .tc r) = W22 m ρ c (Proc.devRef .tc r) :=
  StableHlo.after_of_writes_sub hostOps2_6 _ hostOps2_6_writes h
theorem W24_of (c : Dev nD) (r : Ref sig .tc) (h : r ∉ hostOps2_7_W) :
    W24 m ρ c (Proc.devRef .tc r) = W23 m ρ c (Proc.devRef .tc r) :=
  StableHlo.after_of_writes_sub hostOps2_7 _ hostOps2_7_writes h
theorem W25_of (c : Dev nD) (r : Ref sig .tc) (h : r ∉ hostOps2_8_W) :
    W25 m ρ c (Proc.devRef .tc r) = W24 m ρ c (Proc.devRef .tc r) :=
  StableHlo.after_of_writes_sub hostOps2_8 _ hostOps2_8_writes h
theorem W26_of (c : Dev nD) (r : Ref sig .tc) (h : r ∉ hostOps2_9_W) :
    W26 m ρ c (Proc.devRef .tc r) = W25 m ρ c (Proc.devRef .tc r) :=
  StableHlo.after_of_writes_sub hostOps2_9 _ hostOps2_9_writes h
theorem W27_of (c : Dev nD) (r : Ref sig .tc) (h : r ∉ hostOps2_10_W) :
    W27 m ρ c (Proc.devRef .tc r) = W26 m ρ c (Proc.devRef .tc r) :=
  StableHlo.after_of_writes_sub hostOps2_10 _ hostOps2_10_writes h
theorem W28_of (c : Dev nD) (r : Ref sig .tc) (h : r ∉ hostOps2_11_W) :
    W28 m ρ c (Proc.devRef .tc r) = W27 m ρ c (Proc.devRef .tc r) :=
  StableHlo.after_of_writes_sub hostOps2_11 _ hostOps2_11_writes h
/-- Every window of pipeline 2 but the last is an input. -/
theorem isIn2 : ∀ w : Fin cfg2.W, w ≠ (9 : Fin 10) → (cfg2.win w).isOut = false := by decide
/-- Region 2 changes its result array only: an input array ends as entered, a buffer it does not move too. -/
theorem W29_of (c : Dev nD) (r : Ref sig .tc) (h : r ∉ [Pipeline.arrRef spec2 (9 : Fin 10)]) :
    W29 m ρ c (Proc.devRef .tc r) = W28 m ρ c (Proc.devRef .tc r) := by
  by_cases hr : ∃ w, Pipeline.arrRef spec2 w = r
  · obtain ⟨w, rfl⟩ := hr
    have hw : w ≠ (9 : Fin 10) := fun e => h (by rw [e]; exact List.mem_singleton_self _)
    exact (W29_arr m ρ c w).trans (((dat2 (V28 m ρ) c).arrAt_in w (isIn2 w hw) _).trans (A_eq2 (V28 m ρ) c w))
  · exact W29_of_ne m ρ c r fun w e => hr ⟨w, e⟩
theorem W30_of (c : Dev nD) (r : Ref sig .tc) (h : r ∉ hostOps3_W) :
    W30 m ρ c (Proc.devRef .tc r) = W29 m ρ c (Proc.devRef .tc r) :=
  StableHlo.after_of_writes_sub hostOps3 _ hostOps3_writes h
theorem W31_of (c : Dev nD) (r : Ref sig .tc) (h : r ∉ hostOps3_1_W) :
    W31 m ρ c (Proc.devRef .tc r) = W30 m ρ c (Proc.devRef .tc r) :=
  StableHlo.after_of_writes_sub hostOps3_1 _ hostOps3_1_writes h
theorem W32_of (c : Dev nD) (r : Ref sig .tc) (h : r ∉ hostOps3_2_W) :
    W32 m ρ c (Proc.devRef .tc r) = W31 m ρ c (Proc.devRef .tc r) :=
  StableHlo.after_of_writes_sub hostOps3_2 _ hostOps3_2_writes h
theorem W33_of (c : Dev nD) (r : Ref sig .tc) (h : r ∉ hostOps3_3_W) :
    W33 m ρ c (Proc.devRef .tc r) = W32 m ρ c (Proc.devRef .tc r) :=
  StableHlo.after_of_writes_sub hostOps3_3 _ hostOps3_3_writes h
/-- Every window of pipeline 3 but the last is an input. -/
theorem isIn3 : ∀ w : Fin cfg3.W, w ≠ (7 : Fin 8) → (cfg3.win w).isOut = false := by decide
/-- Region 3 changes its result array only: an input array ends as entered, a buffer it does not move too. -/
theorem W34_of (c : Dev nD) (r : Ref sig .tc) (h : r ∉ [Pipeline.arrRef spec3 (7 : Fin 8)]) :
    W34 m ρ c (Proc.devRef .tc r) = W33 m ρ c (Proc.devRef .tc r) := by
  by_cases hr : ∃ w, Pipeline.arrRef spec3 w = r
  · obtain ⟨w, rfl⟩ := hr
    have hw : w ≠ (7 : Fin 8) := fun e => h (by rw [e]; exact List.mem_singleton_self _)
    exact (W34_arr m ρ c w).trans (((dat3 (V33 m ρ) c).arrAt_in w (isIn3 w hw) _).trans (A_eq3 (V33 m ρ) c w))
  · exact W34_of_ne m ρ c r fun w e => hr ⟨w, e⟩
theorem W35_of (c : Dev nD) (r : Ref sig .tc) (h : r ∉ hostOps4_W) :
    W35 m ρ c (Proc.devRef .tc r) = W34 m ρ c (Proc.devRef .tc r) :=
  StableHlo.after_of_writes_sub hostOps4 _ hostOps4_writes h
theorem W36_of (c : Dev nD) (r : Ref sig .tc) (h : r ∉ hostOps4_1_W) :
    W36 m ρ c (Proc.devRef .tc r) = W35 m ρ c (Proc.devRef .tc r) :=
  StableHlo.after_of_writes_sub hostOps4_1 _ hostOps4_1_writes h
theorem W37_of (c : Dev nD) (r : Ref sig .tc) (h : r ∉ hostOps4_2_W) :
    W37 m ρ c (Proc.devRef .tc r) = W36 m ρ c (Proc.devRef .tc r) :=
  StableHlo.after_of_writes_sub hostOps4_2 _ hostOps4_2_writes h
theorem W38_of (c : Dev nD) (r : Ref sig .tc) (h : r ∉ hostOps4_3_W) :
    W38 m ρ c (Proc.devRef .tc r) = W37 m ρ c (Proc.devRef .tc r) :=
  StableHlo.after_of_writes_sub hostOps4_3 _ hostOps4_3_writes h
theorem W39_of (c : Dev nD) (r : Ref sig .tc) (h : r ∉ hostOps4_4_W) :
    W39 m ρ c (Proc.devRef .tc r) = W38 m ρ c (Proc.devRef .tc r) :=
  StableHlo.after_of_writes_sub hostOps4_4 _ hostOps4_4_writes h
theorem W40_of (c : Dev nD) (r : Ref sig .tc) (h : r ∉ hostOps4_5_W) :
    W40 m ρ c (Proc.devRef .tc r) = W39 m ρ c (Proc.devRef .tc r) :=
  StableHlo.after_of_writes_sub hostOps4_5 _ hostOps4_5_writes h
theorem W41_of (c : Dev nD) (r : Ref sig .tc) (h : r ∉ hostOps4_6_W) :
    W41 m ρ c (Proc.devRef .tc r) = W40 m ρ c (Proc.devRef .tc r) :=
  StableHlo.after_of_writes_sub hostOps4_6 _ hostOps4_6_writes h
theorem W42_of (c : Dev nD) (r : Ref sig .tc) (h : r ∉ hostOps4_7_W) :
    W42 m ρ c (Proc.devRef .tc r) = W41 m ρ c (Proc.devRef .tc r) :=
  StableHlo.after_of_writes_sub hostOps4_7 _ hostOps4_7_writes h
/-- Every window of pipeline 4 but the last is an input. -/
theorem isIn4 : ∀ w : Fin cfg4.W, w ≠ (9 : Fin 10) → (cfg4.win w).isOut = false := by decide
/-- Region 4 changes its result array only: an input array ends as entered, a buffer it does not move too. -/
theorem W43_of (c : Dev nD) (r : Ref sig .tc) (h : r ∉ [Pipeline.arrRef spec4 (9 : Fin 10)]) :
    W43 m ρ c (Proc.devRef .tc r) = W42 m ρ c (Proc.devRef .tc r) := by
  by_cases hr : ∃ w, Pipeline.arrRef spec4 w = r
  · obtain ⟨w, rfl⟩ := hr
    have hw : w ≠ (9 : Fin 10) := fun e => h (by rw [e]; exact List.mem_singleton_self _)
    exact (W43_arr m ρ c w).trans (((dat4 (V42 m ρ) c).arrAt_in w (isIn4 w hw) _).trans (A_eq4 (V42 m ρ) c w))
  · exact W43_of_ne m ρ c r fun w e => hr ⟨w, e⟩
theorem W44_of (c : Dev nD) (r : Ref sig .tc) (h : r ∉ hostOps5_W) :
    W44 m ρ c (Proc.devRef .tc r) = W43 m ρ c (Proc.devRef .tc r) :=
  StableHlo.after_of_writes_sub hostOps5 _ hostOps5_writes h
theorem W45_of (c : Dev nD) (r : Ref sig .tc) (h : r ∉ hostOps5_1_W) :
    W45 m ρ c (Proc.devRef .tc r) = W44 m ρ c (Proc.devRef .tc r) :=
  StableHlo.after_of_writes_sub hostOps5_1 _ hostOps5_1_writes h
theorem W46_of (c : Dev nD) (r : Ref sig .tc) (h : r ∉ hostOps5_2_W) :
    W46 m ρ c (Proc.devRef .tc r) = W45 m ρ c (Proc.devRef .tc r) :=
  StableHlo.after_of_writes_sub hostOps5_2 _ hostOps5_2_writes h
theorem W47_of (c : Dev nD) (r : Ref sig .tc) (h : r ∉ hostOps5_3_W) :
    W47 m ρ c (Proc.devRef .tc r) = W46 m ρ c (Proc.devRef .tc r) :=
  StableHlo.after_of_writes_sub hostOps5_3 _ hostOps5_3_writes h
/-- Every window of pipeline 5 but the last is an input. -/
theorem isIn5 : ∀ w : Fin cfg5.W, w ≠ (7 : Fin 8) → (cfg5.win w).isOut = false := by decide
/-- Region 5 changes its result array only: an input array ends as entered, a buffer it does not move too. -/
theorem W48_of (c : Dev nD) (r : Ref sig .tc) (h : r ∉ [Pipeline.arrRef spec5 (7 : Fin 8)]) :
    W48 m ρ c (Proc.devRef .tc r) = W47 m ρ c (Proc.devRef .tc r) := by
  by_cases hr : ∃ w, Pipeline.arrRef spec5 w = r
  · obtain ⟨w, rfl⟩ := hr
    have hw : w ≠ (7 : Fin 8) := fun e => h (by rw [e]; exact List.mem_singleton_self _)
    exact (W48_arr m ρ c w).trans (((dat5 (V47 m ρ) c).arrAt_in w (isIn5 w hw) _).trans (A_eq5 (V47 m ρ) c w))
  · exact W48_of_ne m ρ c r fun w e => hr ⟨w, e⟩
theorem W49_of (c : Dev nD) (r : Ref sig .tc) (h : r ∉ hostOps6_W) :
    W49 m ρ c (Proc.devRef .tc r) = W48 m ρ c (Proc.devRef .tc r) :=
  StableHlo.after_of_writes_sub hostOps6 _ hostOps6_writes h
theorem W50_of (c : Dev nD) (r : Ref sig .tc) (h : r ∉ hostOps6_1_W) :
    W50 m ρ c (Proc.devRef .tc r) = W49 m ρ c (Proc.devRef .tc r) :=
  StableHlo.after_of_writes_sub hostOps6_1 _ hostOps6_1_writes h
theorem W51_of (c : Dev nD) (r : Ref sig .tc) (h : r ∉ hostOps6_2_W) :
    W51 m ρ c (Proc.devRef .tc r) = W50 m ρ c (Proc.devRef .tc r) :=
  StableHlo.after_of_writes_sub hostOps6_2 _ hostOps6_2_writes h
theorem W52_of (c : Dev nD) (r : Ref sig .tc) (h : r ∉ hostOps6_3_W) :
    W52 m ρ c (Proc.devRef .tc r) = W51 m ρ c (Proc.devRef .tc r) :=
  StableHlo.after_of_writes_sub hostOps6_3 _ hostOps6_3_writes h
theorem W53_of (c : Dev nD) (r : Ref sig .tc) (h : r ∉ hostOps6_4_W) :
    W53 m ρ c (Proc.devRef .tc r) = W52 m ρ c (Proc.devRef .tc r) :=
  StableHlo.after_of_writes_sub hostOps6_4 _ hostOps6_4_writes h
theorem W54_of (c : Dev nD) (r : Ref sig .tc) (h : r ∉ hostOps6_5_W) :
    W54 m ρ c (Proc.devRef .tc r) = W53 m ρ c (Proc.devRef .tc r) :=
  StableHlo.after_of_writes_sub hostOps6_5 _ hostOps6_5_writes h
theorem W55_of (c : Dev nD) (r : Ref sig .tc) (h : r ∉ hostOps6_6_W) :
    W55 m ρ c (Proc.devRef .tc r) = W54 m ρ c (Proc.devRef .tc r) :=
  StableHlo.after_of_writes_sub hostOps6_6 _ hostOps6_6_writes h
theorem W56_of (c : Dev nD) (r : Ref sig .tc) (h : r ∉ hostOps6_7_W) :
    W56 m ρ c (Proc.devRef .tc r) = W55 m ρ c (Proc.devRef .tc r) :=
  StableHlo.after_of_writes_sub hostOps6_7 _ hostOps6_7_writes h
theorem W57_of (c : Dev nD) (r : Ref sig .tc) (h : r ∉ hostOps6_8_W) :
    W57 m ρ c (Proc.devRef .tc r) = W56 m ρ c (Proc.devRef .tc r) :=
  StableHlo.after_of_writes_sub hostOps6_8 _ hostOps6_8_writes h
theorem W58_of (c : Dev nD) (r : Ref sig .tc) (h : r ∉ hostOps6_9_W) :
    W58 m ρ c (Proc.devRef .tc r) = W57 m ρ c (Proc.devRef .tc r) :=
  StableHlo.after_of_writes_sub hostOps6_9 _ hostOps6_9_writes h
theorem W59_of (c : Dev nD) (r : Ref sig .tc) (h : r ∉ hostOps6_10_W) :
    W59 m ρ c (Proc.devRef .tc r) = W58 m ρ c (Proc.devRef .tc r) :=
  StableHlo.after_of_writes_sub hostOps6_10 _ hostOps6_10_writes h
theorem W60_of (c : Dev nD) (r : Ref sig .tc) (h : r ∉ hostOps6_11_W) :
    W60 m ρ c (Proc.devRef .tc r) = W59 m ρ c (Proc.devRef .tc r) :=
  StableHlo.after_of_writes_sub hostOps6_11 _ hostOps6_11_writes h
/-- Every window of pipeline 6 but the last is an input. -/
theorem isIn6 : ∀ w : Fin cfg6.W, w ≠ (9 : Fin 10) → (cfg6.win w).isOut = false := by decide
/-- Region 6 changes its result array only: an input array ends as entered, a buffer it does not move too. -/
theorem W61_of (c : Dev nD) (r : Ref sig .tc) (h : r ∉ [Pipeline.arrRef spec6 (9 : Fin 10)]) :
    W61 m ρ c (Proc.devRef .tc r) = W60 m ρ c (Proc.devRef .tc r) := by
  by_cases hr : ∃ w, Pipeline.arrRef spec6 w = r
  · obtain ⟨w, rfl⟩ := hr
    have hw : w ≠ (9 : Fin 10) := fun e => h (by rw [e]; exact List.mem_singleton_self _)
    exact (W61_arr m ρ c w).trans (((dat6 (V60 m ρ) c).arrAt_in w (isIn6 w hw) _).trans (A_eq6 (V60 m ρ) c w))
  · exact W61_of_ne m ρ c r fun w e => hr ⟨w, e⟩
theorem W62_of (c : Dev nD) (r : Ref sig .tc) (h : r ∉ hostOps7_W) :
    W62 m ρ c (Proc.devRef .tc r) = W61 m ρ c (Proc.devRef .tc r) :=
  StableHlo.after_of_writes_sub hostOps7 _ hostOps7_writes h
theorem W63_of (c : Dev nD) (r : Ref sig .tc) (h : r ∉ hostOps7_1_W) :
    W63 m ρ c (Proc.devRef .tc r) = W62 m ρ c (Proc.devRef .tc r) :=
  StableHlo.after_of_writes_sub hostOps7_1 _ hostOps7_1_writes h
theorem W64_of (c : Dev nD) (r : Ref sig .tc) (h : r ∉ hostOps7_2_W) :
    W64 m ρ c (Proc.devRef .tc r) = W63 m ρ c (Proc.devRef .tc r) :=
  StableHlo.after_of_writes_sub hostOps7_2 _ hostOps7_2_writes h
theorem W65_of (c : Dev nD) (r : Ref sig .tc) (h : r ∉ hostOps7_3_W) :
    W65 m ρ c (Proc.devRef .tc r) = W64 m ρ c (Proc.devRef .tc r) :=
  StableHlo.after_of_writes_sub hostOps7_3 _ hostOps7_3_writes h
/-- Every window of pipeline 7 but the last is an input. -/
theorem isIn7 : ∀ w : Fin cfg7.W, w ≠ (7 : Fin 8) → (cfg7.win w).isOut = false := by decide
/-- Region 7 changes its result array only: an input array ends as entered, a buffer it does not move too. -/
theorem W66_of (c : Dev nD) (r : Ref sig .tc) (h : r ∉ [Pipeline.arrRef spec7 (7 : Fin 8)]) :
    W66 m ρ c (Proc.devRef .tc r) = W65 m ρ c (Proc.devRef .tc r) := by
  by_cases hr : ∃ w, Pipeline.arrRef spec7 w = r
  · obtain ⟨w, rfl⟩ := hr
    have hw : w ≠ (7 : Fin 8) := fun e => h (by rw [e]; exact List.mem_singleton_self _)
    exact (W66_arr m ρ c w).trans (((dat7 (V65 m ρ) c).arrAt_in w (isIn7 w hw) _).trans (A_eq7 (V65 m ρ) c w))
  · exact W66_of_ne m ρ c r fun w e => hr ⟨w, e⟩
theorem W67_of (c : Dev nD) (r : Ref sig .tc) (h : r ∉ hostOps8_W) :
    W67 m ρ c (Proc.devRef .tc r) = W66 m ρ c (Proc.devRef .tc r) :=
  StableHlo.after_of_writes_sub hostOps8 _ hostOps8_writes h
theorem W68_of (c : Dev nD) (r : Ref sig .tc) (h : r ∉ hostOps8_1_W) :
    W68 m ρ c (Proc.devRef .tc r) = W67 m ρ c (Proc.devRef .tc r) :=
  StableHlo.after_of_writes_sub hostOps8_1 _ hostOps8_1_writes h
theorem W69_of (c : Dev nD) (r : Ref sig .tc) (h : r ∉ hostOps8_2_W) :
    W69 m ρ c (Proc.devRef .tc r) = W68 m ρ c (Proc.devRef .tc r) :=
  StableHlo.after_of_writes_sub hostOps8_2 _ hostOps8_2_writes h
theorem W70_of (c : Dev nD) (r : Ref sig .tc) (h : r ∉ hostOps8_3_W) :
    W70 m ρ c (Proc.devRef .tc r) = W69 m ρ c (Proc.devRef .tc r) :=
  StableHlo.after_of_writes_sub hostOps8_3 _ hostOps8_3_writes h
theorem W71_of (c : Dev nD) (r : Ref sig .tc) (h : r ∉ hostOps8_4_W) :
    W71 m ρ c (Proc.devRef .tc r) = W70 m ρ c (Proc.devRef .tc r) :=
  StableHlo.after_of_writes_sub hostOps8_4 _ hostOps8_4_writes h
theorem W72_of (c : Dev nD) (r : Ref sig .tc) (h : r ∉ hostOps8_5_W) :
    W72 m ρ c (Proc.devRef .tc r) = W71 m ρ c (Proc.devRef .tc r) :=
  StableHlo.after_of_writes_sub hostOps8_5 _ hostOps8_5_writes h
theorem W73_of (c : Dev nD) (r : Ref sig .tc) (h : r ∉ hostOps8_6_W) :
    W73 m ρ c (Proc.devRef .tc r) = W72 m ρ c (Proc.devRef .tc r) :=
  StableHlo.after_of_writes_sub hostOps8_6 _ hostOps8_6_writes h
theorem W74_of (c : Dev nD) (r : Ref sig .tc) (h : r ∉ hostOps8_7_W) :
    W74 m ρ c (Proc.devRef .tc r) = W73 m ρ c (Proc.devRef .tc r) :=
  StableHlo.after_of_writes_sub hostOps8_7 _ hostOps8_7_writes h
/-- Every window of pipeline 8 but the last is an input. -/
theorem isIn8 : ∀ w : Fin cfg8.W, w ≠ (9 : Fin 10) → (cfg8.win w).isOut = false := by decide
/-- Region 8 changes its result array only: an input array ends as entered, a buffer it does not move too. -/
theorem W75_of (c : Dev nD) (r : Ref sig .tc) (h : r ∉ [Pipeline.arrRef spec8 (9 : Fin 10)]) :
    W75 m ρ c (Proc.devRef .tc r) = W74 m ρ c (Proc.devRef .tc r) := by
  by_cases hr : ∃ w, Pipeline.arrRef spec8 w = r
  · obtain ⟨w, rfl⟩ := hr
    have hw : w ≠ (9 : Fin 10) := fun e => h (by rw [e]; exact List.mem_singleton_self _)
    exact (W75_arr m ρ c w).trans (((dat8 (V74 m ρ) c).arrAt_in w (isIn8 w hw) _).trans (A_eq8 (V74 m ρ) c w))
  · exact W75_of_ne m ρ c r fun w e => hr ⟨w, e⟩
theorem W76_of (c : Dev nD) (r : Ref sig .tc) (h : r ∉ hostOps9_W) :
    W76 m ρ c (Proc.devRef .tc r) = W75 m ρ c (Proc.devRef .tc r) :=
  StableHlo.after_of_writes_sub hostOps9 _ hostOps9_writes h
theorem W77_of (c : Dev nD) (r : Ref sig .tc) (h : r ∉ hostOps9_1_W) :
    W77 m ρ c (Proc.devRef .tc r) = W76 m ρ c (Proc.devRef .tc r) :=
  StableHlo.after_of_writes_sub hostOps9_1 _ hostOps9_1_writes h
theorem W78_of (c : Dev nD) (r : Ref sig .tc) (h : r ∉ hostOps9_2_W) :
    W78 m ρ c (Proc.devRef .tc r) = W77 m ρ c (Proc.devRef .tc r) :=
  StableHlo.after_of_writes_sub hostOps9_2 _ hostOps9_2_writes h
theorem W79_of (c : Dev nD) (r : Ref sig .tc) (h : r ∉ hostOps9_3_W) :
    W79 m ρ c (Proc.devRef .tc r) = W78 m ρ c (Proc.devRef .tc r) :=
  StableHlo.after_of_writes_sub hostOps9_3 _ hostOps9_3_writes h
/-- Every window of pipeline 9 but the last is an input. -/
theorem isIn9 : ∀ w : Fin cfg9.W, w ≠ (7 : Fin 8) → (cfg9.win w).isOut = false := by decide
/-- Region 9 changes its result array only: an input array ends as entered, a buffer it does not move too. -/
theorem W80_of (c : Dev nD) (r : Ref sig .tc) (h : r ∉ [Pipeline.arrRef spec9 (7 : Fin 8)]) :
    W80 m ρ c (Proc.devRef .tc r) = W79 m ρ c (Proc.devRef .tc r) := by
  by_cases hr : ∃ w, Pipeline.arrRef spec9 w = r
  · obtain ⟨w, rfl⟩ := hr
    have hw : w ≠ (7 : Fin 8) := fun e => h (by rw [e]; exact List.mem_singleton_self _)
    exact (W80_arr m ρ c w).trans (((dat9 (V79 m ρ) c).arrAt_in w (isIn9 w hw) _).trans (A_eq9 (V79 m ρ) c w))
  · exact W80_of_ne m ρ c r fun w e => hr ⟨w, e⟩
theorem W81_of (c : Dev nD) (r : Ref sig .tc) (h : r ∉ hostOps10_W) :
    W81 m ρ c (Proc.devRef .tc r) = W80 m ρ c (Proc.devRef .tc r) :=
  StableHlo.after_of_writes_sub hostOps10 _ hostOps10_writes h
theorem W82_of (c : Dev nD) (r : Ref sig .tc) (h : r ∉ hostOps10_1_W) :
    W82 m ρ c (Proc.devRef .tc r) = W81 m ρ c (Proc.devRef .tc r) :=
  StableHlo.after_of_writes_sub hostOps10_1 _ hostOps10_1_writes h
theorem W83_of (c : Dev nD) (r : Ref sig .tc) (h : r ∉ hostOps10_2_W) :
    W83 m ρ c (Proc.devRef .tc r) = W82 m ρ c (Proc.devRef .tc r) :=
  StableHlo.after_of_writes_sub hostOps10_2 _ hostOps10_2_writes h
theorem W84_of (c : Dev nD) (r : Ref sig .tc) (h : r ∉ hostOps10_3_W) :
    W84 m ρ c (Proc.devRef .tc r) = W83 m ρ c (Proc.devRef .tc r) :=
  StableHlo.after_of_writes_sub hostOps10_3 _ hostOps10_3_writes h
theorem W85_of (c : Dev nD) (r : Ref sig .tc) (h : r ∉ hostOps10_4_W) :
    W85 m ρ c (Proc.devRef .tc r) = W84 m ρ c (Proc.devRef .tc r) :=
  StableHlo.after_of_writes_sub hostOps10_4 _ hostOps10_4_writes h
theorem W86_of (c : Dev nD) (r : Ref sig .tc) (h : r ∉ hostOps10_5_W) :
    W86 m ρ c (Proc.devRef .tc r) = W85 m ρ c (Proc.devRef .tc r) :=
  StableHlo.after_of_writes_sub hostOps10_5 _ hostOps10_5_writes h
theorem W87_of (c : Dev nD) (r : Ref sig .tc) (h : r ∉ hostOps10_6_W) :
    W87 m ρ c (Proc.devRef .tc r) = W86 m ρ c (Proc.devRef .tc r) :=
  StableHlo.after_of_writes_sub hostOps10_6 _ hostOps10_6_writes h
theorem W88_of (c : Dev nD) (r : Ref sig .tc) (h : r ∉ hostOps10_7_W) :
    W88 m ρ c (Proc.devRef .tc r) = W87 m ρ c (Proc.devRef .tc r) :=
  StableHlo.after_of_writes_sub hostOps10_7 _ hostOps10_7_writes h
theorem W89_of (c : Dev nD) (r : Ref sig .tc) (h : r ∉ hostOps10_8_W) :
    W89 m ρ c (Proc.devRef .tc r) = W88 m ρ c (Proc.devRef .tc r) :=
  StableHlo.after_of_writes_sub hostOps10_8 _ hostOps10_8_writes h
theorem W90_of (c : Dev nD) (r : Ref sig .tc) (h : r ∉ hostOps10_9_W) :
    W90 m ρ c (Proc.devRef .tc r) = W89 m ρ c (Proc.devRef .tc r) :=
  StableHlo.after_of_writes_sub hostOps10_9 _ hostOps10_9_writes h
theorem W91_of (c : Dev nD) (r : Ref sig .tc) (h : r ∉ hostOps10_10_W) :
    W91 m ρ c (Proc.devRef .tc r) = W90 m ρ c (Proc.devRef .tc r) :=
  StableHlo.after_of_writes_sub hostOps10_10 _ hostOps10_10_writes h
theorem W92_of (c : Dev nD) (r : Ref sig .tc) (h : r ∉ hostOps10_11_W) :
    W92 m ρ c (Proc.devRef .tc r) = W91 m ρ c (Proc.devRef .tc r) :=
  StableHlo.after_of_writes_sub hostOps10_11 _ hostOps10_11_writes h
/-- Every window of pipeline 10 but the last is an input. -/
theorem isIn10 : ∀ w : Fin cfg10.W, w ≠ (9 : Fin 10) → (cfg10.win w).isOut = false := by decide
/-- Region 10 changes its result array only: an input array ends as entered, a buffer it does not move too. -/
theorem W93_of (c : Dev nD) (r : Ref sig .tc) (h : r ∉ [Pipeline.arrRef spec10 (9 : Fin 10)]) :
    W93 m ρ c (Proc.devRef .tc r) = W92 m ρ c (Proc.devRef .tc r) := by
  by_cases hr : ∃ w, Pipeline.arrRef spec10 w = r
  · obtain ⟨w, rfl⟩ := hr
    have hw : w ≠ (9 : Fin 10) := fun e => h (by rw [e]; exact List.mem_singleton_self _)
    exact (W93_arr m ρ c w).trans (((dat10 (V92 m ρ) c).arrAt_in w (isIn10 w hw) _).trans (A_eq10 (V92 m ρ) c w))
  · exact W93_of_ne m ρ c r fun w e => hr ⟨w, e⟩
theorem W94_of (c : Dev nD) (r : Ref sig .tc) (h : r ∉ hostOps11_W) :
    W94 m ρ c (Proc.devRef .tc r) = W93 m ρ c (Proc.devRef .tc r) :=
  StableHlo.after_of_writes_sub hostOps11 _ hostOps11_writes h
theorem W95_of (c : Dev nD) (r : Ref sig .tc) (h : r ∉ hostOps11_1_W) :
    W95 m ρ c (Proc.devRef .tc r) = W94 m ρ c (Proc.devRef .tc r) :=
  StableHlo.after_of_writes_sub hostOps11_1 _ hostOps11_1_writes h
theorem W96_of (c : Dev nD) (r : Ref sig .tc) (h : r ∉ hostOps11_2_W) :
    W96 m ρ c (Proc.devRef .tc r) = W95 m ρ c (Proc.devRef .tc r) :=
  StableHlo.after_of_writes_sub hostOps11_2 _ hostOps11_2_writes h
theorem W97_of (c : Dev nD) (r : Ref sig .tc) (h : r ∉ hostOps11_3_W) :
    W97 m ρ c (Proc.devRef .tc r) = W96 m ρ c (Proc.devRef .tc r) :=
  StableHlo.after_of_writes_sub hostOps11_3 _ hostOps11_3_writes h
/-- Every window of pipeline 11 but the last is an input. -/
theorem isIn11 : ∀ w : Fin cfg11.W, w ≠ (7 : Fin 8) → (cfg11.win w).isOut = false := by decide
/-- Region 11 changes its result array only: an input array ends as entered, a buffer it does not move too. -/
theorem W98_of (c : Dev nD) (r : Ref sig .tc) (h : r ∉ [Pipeline.arrRef spec11 (7 : Fin 8)]) :
    W98 m ρ c (Proc.devRef .tc r) = W97 m ρ c (Proc.devRef .tc r) := by
  by_cases hr : ∃ w, Pipeline.arrRef spec11 w = r
  · obtain ⟨w, rfl⟩ := hr
    have hw : w ≠ (7 : Fin 8) := fun e => h (by rw [e]; exact List.mem_singleton_self _)
    exact (W98_arr m ρ c w).trans (((dat11 (V97 m ρ) c).arrAt_in w (isIn11 w hw) _).trans (A_eq11 (V97 m ρ) c w))
  · exact W98_of_ne m ρ c r fun w e => hr ⟨w, e⟩
theorem W99_of (c : Dev nD) (r : Ref sig .tc) (h : r ∉ hostOps12_W) :
    W99 m ρ c (Proc.devRef .tc r) = W98 m ρ c (Proc.devRef .tc r) :=
  StableHlo.after_of_writes_sub hostOps12 _ hostOps12_writes h
theorem W100_of (c : Dev nD) (r : Ref sig .tc) (h : r ∉ hostOps12_1_W) :
    W100 m ρ c (Proc.devRef .tc r) = W99 m ρ c (Proc.devRef .tc r) :=
  StableHlo.after_of_writes_sub hostOps12_1 _ hostOps12_1_writes h
theorem W101_of (c : Dev nD) (r : Ref sig .tc) (h : r ∉ hostOps12_2_W) :
    W101 m ρ c (Proc.devRef .tc r) = W100 m ρ c (Proc.devRef .tc r) :=
  StableHlo.after_of_writes_sub hostOps12_2 _ hostOps12_2_writes h
theorem W102_of (c : Dev nD) (r : Ref sig .tc) (h : r ∉ hostOps12_3_W) :
    W102 m ρ c (Proc.devRef .tc r) = W101 m ρ c (Proc.devRef .tc r) :=
  StableHlo.after_of_writes_sub hostOps12_3 _ hostOps12_3_writes h
theorem W103_of (c : Dev nD) (r : Ref sig .tc) (h : r ∉ hostOps12_4_W) :
    W103 m ρ c (Proc.devRef .tc r) = W102 m ρ c (Proc.devRef .tc r) :=
  StableHlo.after_of_writes_sub hostOps12_4 _ hostOps12_4_writes h
theorem W104_of (c : Dev nD) (r : Ref sig .tc) (h : r ∉ hostOps12_5_W) :
    W104 m ρ c (Proc.devRef .tc r) = W103 m ρ c (Proc.devRef .tc r) :=
  StableHlo.after_of_writes_sub hostOps12_5 _ hostOps12_5_writes h
theorem W105_of (c : Dev nD) (r : Ref sig .tc) (h : r ∉ hostOps12_6_W) :
    W105 m ρ c (Proc.devRef .tc r) = W104 m ρ c (Proc.devRef .tc r) :=
  StableHlo.after_of_writes_sub hostOps12_6 _ hostOps12_6_writes h

/-! ## Everything written up to an item, and what is outside it -/

abbrev wr0 : List (Ref sig .tc) := []
theorem W0_keep (c : Dev nD) (r : Ref sig .tc) (h : r ∉ wr0) : W0 m ρ c (Proc.devRef .tc r) = W0 m ρ c (Proc.devRef .tc r) := rfl
abbrev wr1 : List (Ref sig .tc) := wr0 ++ hostOps0_W
theorem W1_keep (c : Dev nD) (r : Ref sig .tc) (h : r ∉ wr1) : W1 m ρ c (Proc.devRef .tc r) = W0 m ρ c (Proc.devRef .tc r) :=
  (W1_of m ρ c r fun hm => h (List.mem_append_right _ hm)).trans (W0_keep m ρ c r fun hm => h (List.mem_append_left _ hm))
abbrev wr2 : List (Ref sig .tc) := wr1 ++ hostOps0_1_W
theorem W2_keep (c : Dev nD) (r : Ref sig .tc) (h : r ∉ wr2) : W2 m ρ c (Proc.devRef .tc r) = W0 m ρ c (Proc.devRef .tc r) :=
  (W2_of m ρ c r fun hm => h (List.mem_append_right _ hm)).trans (W1_keep m ρ c r fun hm => h (List.mem_append_left _ hm))
abbrev wr3 : List (Ref sig .tc) := wr2 ++ hostOps0_2_W
theorem W3_keep (c : Dev nD) (r : Ref sig .tc) (h : r ∉ wr3) : W3 m ρ c (Proc.devRef .tc r) = W0 m ρ c (Proc.devRef .tc r) :=
  (W3_of m ρ c r fun hm => h (List.mem_append_right _ hm)).trans (W2_keep m ρ c r fun hm => h (List.mem_append_left _ hm))
abbrev wr4 : List (Ref sig .tc) := wr3 ++ hostOps0_3_W
theorem W4_keep (c : Dev nD) (r : Ref sig .tc) (h : r ∉ wr4) : W4 m ρ c (Proc.devRef .tc r) = W0 m ρ c (Proc.devRef .tc r) :=
  (W4_of m ρ c r fun hm => h (List.mem_append_right _ hm)).trans (W3_keep m ρ c r fun hm => h (List.mem_append_left _ hm))
abbrev wr5 : List (Ref sig .tc) := wr4 ++ hostOps0_4_W
theorem W5_keep (c : Dev nD) (r : Ref sig .tc) (h : r ∉ wr5) : W5 m ρ c (Proc.devRef .tc r) = W0 m ρ c (Proc.devRef .tc r) :=
  (W5_of m ρ c r fun hm => h (List.mem_append_right _ hm)).trans (W4_keep m ρ c r fun hm => h (List.mem_append_left _ hm))
abbrev wr6 : List (Ref sig .tc) := wr5 ++ hostOps0_5_W
theorem W6_keep (c : Dev nD) (r : Ref sig .tc) (h : r ∉ wr6) : W6 m ρ c (Proc.devRef .tc r) = W0 m ρ c (Proc.devRef .tc r) :=
  (W6_of m ρ c r fun hm => h (List.mem_append_right _ hm)).trans (W5_keep m ρ c r fun hm => h (List.mem_append_left _ hm))
abbrev wr7 : List (Ref sig .tc) := wr6 ++ hostOps0_6_W
theorem W7_keep (c : Dev nD) (r : Ref sig .tc) (h : r ∉ wr7) : W7 m ρ c (Proc.devRef .tc r) = W0 m ρ c (Proc.devRef .tc r) :=
  (W7_of m ρ c r fun hm => h (List.mem_append_right _ hm)).trans (W6_keep m ρ c r fun hm => h (List.mem_append_left _ hm))
abbrev wr8 : List (Ref sig .tc) := wr7 ++ hostOps0_7_W
theorem W8_keep (c : Dev nD) (r : Ref sig .tc) (h : r ∉ wr8) : W8 m ρ c (Proc.devRef .tc r) = W0 m ρ c (Proc.devRef .tc r) :=
  (W8_of m ρ c r fun hm => h (List.mem_append_right _ hm)).trans (W7_keep m ρ c r fun hm => h (List.mem_append_left _ hm))
abbrev wr9 : List (Ref sig .tc) := wr8 ++ hostOps0_8_W
theorem W9_keep (c : Dev nD) (r : Ref sig .tc) (h : r ∉ wr9) : W9 m ρ c (Proc.devRef .tc r) = W0 m ρ c (Proc.devRef .tc r) :=
  (W9_of m ρ c r fun hm => h (List.mem_append_right _ hm)).trans (W8_keep m ρ c r fun hm => h (List.mem_append_left _ hm))
abbrev wr10 : List (Ref sig .tc) := wr9 ++ hostOps0_9_W
theorem W10_keep (c : Dev nD) (r : Ref sig .tc) (h : r ∉ wr10) : W10 m ρ c (Proc.devRef .tc r) = W0 m ρ c (Proc.devRef .tc r) :=
  (W10_of m ρ c r fun hm => h (List.mem_append_right _ hm)).trans (W9_keep m ρ c r fun hm => h (List.mem_append_left _ hm))
abbrev wr11 : List (Ref sig .tc) := wr10 ++ [Pipeline.arrRef spec0 (9 : Fin 10)]
theorem W11_keep (c : Dev nD) (r : Ref sig .tc) (h : r ∉ wr11) : W11 m ρ c (Proc.devRef .tc r) = W0 m ρ c (Proc.devRef .tc r) :=
  (W11_of m ρ c r fun hm => h (List.mem_append_right _ hm)).trans (W10_keep m ρ c r fun hm => h (List.mem_append_left _ hm))
abbrev wr12 : List (Ref sig .tc) := wr11 ++ hostOps1_W
theorem W12_keep (c : Dev nD) (r : Ref sig .tc) (h : r ∉ wr12) : W12 m ρ c (Proc.devRef .tc r) = W0 m ρ c (Proc.devRef .tc r) :=
  (W12_of m ρ c r fun hm => h (List.mem_append_right _ hm)).trans (W11_keep m ρ c r fun hm => h (List.mem_append_left _ hm))
abbrev wr13 : List (Ref sig .tc) := wr12 ++ hostOps1_1_W
theorem W13_keep (c : Dev nD) (r : Ref sig .tc) (h : r ∉ wr13) : W13 m ρ c (Proc.devRef .tc r) = W0 m ρ c (Proc.devRef .tc r) :=
  (W13_of m ρ c r fun hm => h (List.mem_append_right _ hm)).trans (W12_keep m ρ c r fun hm => h (List.mem_append_left _ hm))
abbrev wr14 : List (Ref sig .tc) := wr13 ++ hostOps1_2_W
theorem W14_keep (c : Dev nD) (r : Ref sig .tc) (h : r ∉ wr14) : W14 m ρ c (Proc.devRef .tc r) = W0 m ρ c (Proc.devRef .tc r) :=
  (W14_of m ρ c r fun hm => h (List.mem_append_right _ hm)).trans (W13_keep m ρ c r fun hm => h (List.mem_append_left _ hm))
abbrev wr15 : List (Ref sig .tc) := wr14 ++ hostOps1_3_W
theorem W15_keep (c : Dev nD) (r : Ref sig .tc) (h : r ∉ wr15) : W15 m ρ c (Proc.devRef .tc r) = W0 m ρ c (Proc.devRef .tc r) :=
  (W15_of m ρ c r fun hm => h (List.mem_append_right _ hm)).trans (W14_keep m ρ c r fun hm => h (List.mem_append_left _ hm))
abbrev wr16 : List (Ref sig .tc) := wr15 ++ [Pipeline.arrRef spec1 (7 : Fin 8)]
theorem W16_keep (c : Dev nD) (r : Ref sig .tc) (h : r ∉ wr16) : W16 m ρ c (Proc.devRef .tc r) = W0 m ρ c (Proc.devRef .tc r) :=
  (W16_of m ρ c r fun hm => h (List.mem_append_right _ hm)).trans (W15_keep m ρ c r fun hm => h (List.mem_append_left _ hm))
abbrev wr17 : List (Ref sig .tc) := wr16 ++ hostOps2_W
theorem W17_keep (c : Dev nD) (r : Ref sig .tc) (h : r ∉ wr17) : W17 m ρ c (Proc.devRef .tc r) = W0 m ρ c (Proc.devRef .tc r) :=
  (W17_of m ρ c r fun hm => h (List.mem_append_right _ hm)).trans (W16_keep m ρ c r fun hm => h (List.mem_append_left _ hm))
abbrev wr18 : List (Ref sig .tc) := wr17 ++ hostOps2_1_W
theorem W18_keep (c : Dev nD) (r : Ref sig .tc) (h : r ∉ wr18) : W18 m ρ c (Proc.devRef .tc r) = W0 m ρ c (Proc.devRef .tc r) :=
  (W18_of m ρ c r fun hm => h (List.mem_append_right _ hm)).trans (W17_keep m ρ c r fun hm => h (List.mem_append_left _ hm))
abbrev wr19 : List (Ref sig .tc) := wr18 ++ hostOps2_2_W
theorem W19_keep (c : Dev nD) (r : Ref sig .tc) (h : r ∉ wr19) : W19 m ρ c (Proc.devRef .tc r) = W0 m ρ c (Proc.devRef .tc r) :=
  (W19_of m ρ c r fun hm => h (List.mem_append_right _ hm)).trans (W18_keep m ρ c r fun hm => h (List.mem_append_left _ hm))
abbrev wr20 : List (Ref sig .tc) := wr19 ++ hostOps2_3_W
theorem W20_keep (c : Dev nD) (r : Ref sig .tc) (h : r ∉ wr20) : W20 m ρ c (Proc.devRef .tc r) = W0 m ρ c (Proc.devRef .tc r) :=
  (W20_of m ρ c r fun hm => h (List.mem_append_right _ hm)).trans (W19_keep m ρ c r fun hm => h (List.mem_append_left _ hm))
abbrev wr21 : List (Ref sig .tc) := wr20 ++ hostOps2_4_W
theorem W21_keep (c : Dev nD) (r : Ref sig .tc) (h : r ∉ wr21) : W21 m ρ c (Proc.devRef .tc r) = W0 m ρ c (Proc.devRef .tc r) :=
  (W21_of m ρ c r fun hm => h (List.mem_append_right _ hm)).trans (W20_keep m ρ c r fun hm => h (List.mem_append_left _ hm))
abbrev wr22 : List (Ref sig .tc) := wr21 ++ hostOps2_5_W
theorem W22_keep (c : Dev nD) (r : Ref sig .tc) (h : r ∉ wr22) : W22 m ρ c (Proc.devRef .tc r) = W0 m ρ c (Proc.devRef .tc r) :=
  (W22_of m ρ c r fun hm => h (List.mem_append_right _ hm)).trans (W21_keep m ρ c r fun hm => h (List.mem_append_left _ hm))
abbrev wr23 : List (Ref sig .tc) := wr22 ++ hostOps2_6_W
theorem W23_keep (c : Dev nD) (r : Ref sig .tc) (h : r ∉ wr23) : W23 m ρ c (Proc.devRef .tc r) = W0 m ρ c (Proc.devRef .tc r) :=
  (W23_of m ρ c r fun hm => h (List.mem_append_right _ hm)).trans (W22_keep m ρ c r fun hm => h (List.mem_append_left _ hm))
abbrev wr24 : List (Ref sig .tc) := wr23 ++ hostOps2_7_W
theorem W24_keep (c : Dev nD) (r : Ref sig .tc) (h : r ∉ wr24) : W24 m ρ c (Proc.devRef .tc r) = W0 m ρ c (Proc.devRef .tc r) :=
  (W24_of m ρ c r fun hm => h (List.mem_append_right _ hm)).trans (W23_keep m ρ c r fun hm => h (List.mem_append_left _ hm))
abbrev wr25 : List (Ref sig .tc) := wr24 ++ hostOps2_8_W
theorem W25_keep (c : Dev nD) (r : Ref sig .tc) (h : r ∉ wr25) : W25 m ρ c (Proc.devRef .tc r) = W0 m ρ c (Proc.devRef .tc r) :=
  (W25_of m ρ c r fun hm => h (List.mem_append_right _ hm)).trans (W24_keep m ρ c r fun hm => h (List.mem_append_left _ hm))
abbrev wr26 : List (Ref sig .tc) := wr25 ++ hostOps2_9_W
theorem W26_keep (c : Dev nD) (r : Ref sig .tc) (h : r ∉ wr26) : W26 m ρ c (Proc.devRef .tc r) = W0 m ρ c (Proc.devRef .tc r) :=
  (W26_of m ρ c r fun hm => h (List.mem_append_right _ hm)).trans (W25_keep m ρ c r fun hm => h (List.mem_append_left _ hm))
abbrev wr27 : List (Ref sig .tc) := wr26 ++ hostOps2_10_W
theorem W27_keep (c : Dev nD) (r : Ref sig .tc) (h : r ∉ wr27) : W27 m ρ c (Proc.devRef .tc r) = W0 m ρ c (Proc.devRef .tc r) :=
  (W27_of m ρ c r fun hm => h (List.mem_append_right _ hm)).trans (W26_keep m ρ c r fun hm => h (List.mem_append_left _ hm))
abbrev wr28 : List (Ref sig .tc) := wr27 ++ hostOps2_11_W
theorem W28_keep (c : Dev nD) (r : Ref sig .tc) (h : r ∉ wr28) : W28 m ρ c (Proc.devRef .tc r) = W0 m ρ c (Proc.devRef .tc r) :=
  (W28_of m ρ c r fun hm => h (List.mem_append_right _ hm)).trans (W27_keep m ρ c r fun hm => h (List.mem_append_left _ hm))
abbrev wr29 : List (Ref sig .tc) := wr28 ++ [Pipeline.arrRef spec2 (9 : Fin 10)]
theorem W29_keep (c : Dev nD) (r : Ref sig .tc) (h : r ∉ wr29) : W29 m ρ c (Proc.devRef .tc r) = W0 m ρ c (Proc.devRef .tc r) :=
  (W29_of m ρ c r fun hm => h (List.mem_append_right _ hm)).trans (W28_keep m ρ c r fun hm => h (List.mem_append_left _ hm))
abbrev wr30 : List (Ref sig .tc) := wr29 ++ hostOps3_W
theorem W30_keep (c : Dev nD) (r : Ref sig .tc) (h : r ∉ wr30) : W30 m ρ c (Proc.devRef .tc r) = W0 m ρ c (Proc.devRef .tc r) :=
  (W30_of m ρ c r fun hm => h (List.mem_append_right _ hm)).trans (W29_keep m ρ c r fun hm => h (List.mem_append_left _ hm))
abbrev wr31 : List (Ref sig .tc) := wr30 ++ hostOps3_1_W
theorem W31_keep (c : Dev nD) (r : Ref sig .tc) (h : r ∉ wr31) : W31 m ρ c (Proc.devRef .tc r) = W0 m ρ c (Proc.devRef .tc r) :=
  (W31_of m ρ c r fun hm => h (List.mem_append_right _ hm)).trans (W30_keep m ρ c r fun hm => h (List.mem_append_left _ hm))
abbrev wr32 : List (Ref sig .tc) := wr31 ++ hostOps3_2_W
theorem W32_keep (c : Dev nD) (r : Ref sig .tc) (h : r ∉ wr32) : W32 m ρ c (Proc.devRef .tc r) = W0 m ρ c (Proc.devRef .tc r) :=
  (W32_of m ρ c r fun hm => h (List.mem_append_right _ hm)).trans (W31_keep m ρ c r fun hm => h (List.mem_append_left _ hm))
abbrev wr33 : List (Ref sig .tc) := wr32 ++ hostOps3_3_W
theorem W33_keep (c : Dev nD) (r : Ref sig .tc) (h : r ∉ wr33) : W33 m ρ c (Proc.devRef .tc r) = W0 m ρ c (Proc.devRef .tc r) :=
  (W33_of m ρ c r fun hm => h (List.mem_append_right _ hm)).trans (W32_keep m ρ c r fun hm => h (List.mem_append_left _ hm))
abbrev wr34 : List (Ref sig .tc) := wr33 ++ [Pipeline.arrRef spec3 (7 : Fin 8)]
theorem W34_keep (c : Dev nD) (r : Ref sig .tc) (h : r ∉ wr34) : W34 m ρ c (Proc.devRef .tc r) = W0 m ρ c (Proc.devRef .tc r) :=
  (W34_of m ρ c r fun hm => h (List.mem_append_right _ hm)).trans (W33_keep m ρ c r fun hm => h (List.mem_append_left _ hm))
abbrev wr35 : List (Ref sig .tc) := wr34 ++ hostOps4_W
theorem W35_keep (c : Dev nD) (r : Ref sig .tc) (h : r ∉ wr35) : W35 m ρ c (Proc.devRef .tc r) = W0 m ρ c (Proc.devRef .tc r) :=
  (W35_of m ρ c r fun hm => h (List.mem_append_right _ hm)).trans (W34_keep m ρ c r fun hm => h (List.mem_append_left _ hm))
abbrev wr36 : List (Ref sig .tc) := wr35 ++ hostOps4_1_W
theorem W36_keep (c : Dev nD) (r : Ref sig .tc) (h : r ∉ wr36) : W36 m ρ c (Proc.devRef .tc r) = W0 m ρ c (Proc.devRef .tc r) :=
  (W36_of m ρ c r fun hm => h (List.mem_append_right _ hm)).trans (W35_keep m ρ c r fun hm => h (List.mem_append_left _ hm))
abbrev wr37 : List (Ref sig .tc) := wr36 ++ hostOps4_2_W
theorem W37_keep (c : Dev nD) (r : Ref sig .tc) (h : r ∉ wr37) : W37 m ρ c (Proc.devRef .tc r) = W0 m ρ c (Proc.devRef .tc r) :=
  (W37_of m ρ c r fun hm => h (List.mem_append_right _ hm)).trans (W36_keep m ρ c r fun hm => h (List.mem_append_left _ hm))
abbrev wr38 : List (Ref sig .tc) := wr37 ++ hostOps4_3_W
theorem W38_keep (c : Dev nD) (r : Ref sig .tc) (h : r ∉ wr38) : W38 m ρ c (Proc.devRef .tc r) = W0 m ρ c (Proc.devRef .tc r) :=
  (W38_of m ρ c r fun hm => h (List.mem_append_right _ hm)).trans (W37_keep m ρ c r fun hm => h (List.mem_append_left _ hm))
abbrev wr39 : List (Ref sig .tc) := wr38 ++ hostOps4_4_W
theorem W39_keep (c : Dev nD) (r : Ref sig .tc) (h : r ∉ wr39) : W39 m ρ c (Proc.devRef .tc r) = W0 m ρ c (Proc.devRef .tc r) :=
  (W39_of m ρ c r fun hm => h (List.mem_append_right _ hm)).trans (W38_keep m ρ c r fun hm => h (List.mem_append_left _ hm))
abbrev wr40 : List (Ref sig .tc) := wr39 ++ hostOps4_5_W
theorem W40_keep (c : Dev nD) (r : Ref sig .tc) (h : r ∉ wr40) : W40 m ρ c (Proc.devRef .tc r) = W0 m ρ c (Proc.devRef .tc r) :=
  (W40_of m ρ c r fun hm => h (List.mem_append_right _ hm)).trans (W39_keep m ρ c r fun hm => h (List.mem_append_left _ hm))
abbrev wr41 : List (Ref sig .tc) := wr40 ++ hostOps4_6_W
theorem W41_keep (c : Dev nD) (r : Ref sig .tc) (h : r ∉ wr41) : W41 m ρ c (Proc.devRef .tc r) = W0 m ρ c (Proc.devRef .tc r) :=
  (W41_of m ρ c r fun hm => h (List.mem_append_right _ hm)).trans (W40_keep m ρ c r fun hm => h (List.mem_append_left _ hm))
abbrev wr42 : List (Ref sig .tc) := wr41 ++ hostOps4_7_W
theorem W42_keep (c : Dev nD) (r : Ref sig .tc) (h : r ∉ wr42) : W42 m ρ c (Proc.devRef .tc r) = W0 m ρ c (Proc.devRef .tc r) :=
  (W42_of m ρ c r fun hm => h (List.mem_append_right _ hm)).trans (W41_keep m ρ c r fun hm => h (List.mem_append_left _ hm))
abbrev wr43 : List (Ref sig .tc) := wr42 ++ [Pipeline.arrRef spec4 (9 : Fin 10)]
theorem W43_keep (c : Dev nD) (r : Ref sig .tc) (h : r ∉ wr43) : W43 m ρ c (Proc.devRef .tc r) = W0 m ρ c (Proc.devRef .tc r) :=
  (W43_of m ρ c r fun hm => h (List.mem_append_right _ hm)).trans (W42_keep m ρ c r fun hm => h (List.mem_append_left _ hm))
abbrev wr44 : List (Ref sig .tc) := wr43 ++ hostOps5_W
theorem W44_keep (c : Dev nD) (r : Ref sig .tc) (h : r ∉ wr44) : W44 m ρ c (Proc.devRef .tc r) = W0 m ρ c (Proc.devRef .tc r) :=
  (W44_of m ρ c r fun hm => h (List.mem_append_right _ hm)).trans (W43_keep m ρ c r fun hm => h (List.mem_append_left _ hm))
abbrev wr45 : List (Ref sig .tc) := wr44 ++ hostOps5_1_W
theorem W45_keep (c : Dev nD) (r : Ref sig .tc) (h : r ∉ wr45) : W45 m ρ c (Proc.devRef .tc r) = W0 m ρ c (Proc.devRef .tc r) :=
  (W45_of m ρ c r fun hm => h (List.mem_append_right _ hm)).trans (W44_keep m ρ c r fun hm => h (List.mem_append_left _ hm))
abbrev wr46 : List (Ref sig .tc) := wr45 ++ hostOps5_2_W
theorem W46_keep (c : Dev nD) (r : Ref sig .tc) (h : r ∉ wr46) : W46 m ρ c (Proc.devRef .tc r) = W0 m ρ c (Proc.devRef .tc r) :=
  (W46_of m ρ c r fun hm => h (List.mem_append_right _ hm)).trans (W45_keep m ρ c r fun hm => h (List.mem_append_left _ hm))
abbrev wr47 : List (Ref sig .tc) := wr46 ++ hostOps5_3_W
theorem W47_keep (c : Dev nD) (r : Ref sig .tc) (h : r ∉ wr47) : W47 m ρ c (Proc.devRef .tc r) = W0 m ρ c (Proc.devRef .tc r) :=
  (W47_of m ρ c r fun hm => h (List.mem_append_right _ hm)).trans (W46_keep m ρ c r fun hm => h (List.mem_append_left _ hm))
abbrev wr48 : List (Ref sig .tc) := wr47 ++ [Pipeline.arrRef spec5 (7 : Fin 8)]
theorem W48_keep (c : Dev nD) (r : Ref sig .tc) (h : r ∉ wr48) : W48 m ρ c (Proc.devRef .tc r) = W0 m ρ c (Proc.devRef .tc r) :=
  (W48_of m ρ c r fun hm => h (List.mem_append_right _ hm)).trans (W47_keep m ρ c r fun hm => h (List.mem_append_left _ hm))
abbrev wr49 : List (Ref sig .tc) := wr48 ++ hostOps6_W
theorem W49_keep (c : Dev nD) (r : Ref sig .tc) (h : r ∉ wr49) : W49 m ρ c (Proc.devRef .tc r) = W0 m ρ c (Proc.devRef .tc r) :=
  (W49_of m ρ c r fun hm => h (List.mem_append_right _ hm)).trans (W48_keep m ρ c r fun hm => h (List.mem_append_left _ hm))
abbrev wr50 : List (Ref sig .tc) := wr49 ++ hostOps6_1_W
theorem W50_keep (c : Dev nD) (r : Ref sig .tc) (h : r ∉ wr50) : W50 m ρ c (Proc.devRef .tc r) = W0 m ρ c (Proc.devRef .tc r) :=
  (W50_of m ρ c r fun hm => h (List.mem_append_right _ hm)).trans (W49_keep m ρ c r fun hm => h (List.mem_append_left _ hm))
abbrev wr51 : List (Ref sig .tc) := wr50 ++ hostOps6_2_W
theorem W51_keep (c : Dev nD) (r : Ref sig .tc) (h : r ∉ wr51) : W51 m ρ c (Proc.devRef .tc r) = W0 m ρ c (Proc.devRef .tc r) :=
  (W51_of m ρ c r fun hm => h (List.mem_append_right _ hm)).trans (W50_keep m ρ c r fun hm => h (List.mem_append_left _ hm))
abbrev wr52 : List (Ref sig .tc) := wr51 ++ hostOps6_3_W
theorem W52_keep (c : Dev nD) (r : Ref sig .tc) (h : r ∉ wr52) : W52 m ρ c (Proc.devRef .tc r) = W0 m ρ c (Proc.devRef .tc r) :=
  (W52_of m ρ c r fun hm => h (List.mem_append_right _ hm)).trans (W51_keep m ρ c r fun hm => h (List.mem_append_left _ hm))
abbrev wr53 : List (Ref sig .tc) := wr52 ++ hostOps6_4_W
theorem W53_keep (c : Dev nD) (r : Ref sig .tc) (h : r ∉ wr53) : W53 m ρ c (Proc.devRef .tc r) = W0 m ρ c (Proc.devRef .tc r) :=
  (W53_of m ρ c r fun hm => h (List.mem_append_right _ hm)).trans (W52_keep m ρ c r fun hm => h (List.mem_append_left _ hm))
abbrev wr54 : List (Ref sig .tc) := wr53 ++ hostOps6_5_W
theorem W54_keep (c : Dev nD) (r : Ref sig .tc) (h : r ∉ wr54) : W54 m ρ c (Proc.devRef .tc r) = W0 m ρ c (Proc.devRef .tc r) :=
  (W54_of m ρ c r fun hm => h (List.mem_append_right _ hm)).trans (W53_keep m ρ c r fun hm => h (List.mem_append_left _ hm))
abbrev wr55 : List (Ref sig .tc) := wr54 ++ hostOps6_6_W
theorem W55_keep (c : Dev nD) (r : Ref sig .tc) (h : r ∉ wr55) : W55 m ρ c (Proc.devRef .tc r) = W0 m ρ c (Proc.devRef .tc r) :=
  (W55_of m ρ c r fun hm => h (List.mem_append_right _ hm)).trans (W54_keep m ρ c r fun hm => h (List.mem_append_left _ hm))
abbrev wr56 : List (Ref sig .tc) := wr55 ++ hostOps6_7_W
theorem W56_keep (c : Dev nD) (r : Ref sig .tc) (h : r ∉ wr56) : W56 m ρ c (Proc.devRef .tc r) = W0 m ρ c (Proc.devRef .tc r) :=
  (W56_of m ρ c r fun hm => h (List.mem_append_right _ hm)).trans (W55_keep m ρ c r fun hm => h (List.mem_append_left _ hm))
abbrev wr57 : List (Ref sig .tc) := wr56 ++ hostOps6_8_W
theorem W57_keep (c : Dev nD) (r : Ref sig .tc) (h : r ∉ wr57) : W57 m ρ c (Proc.devRef .tc r) = W0 m ρ c (Proc.devRef .tc r) :=
  (W57_of m ρ c r fun hm => h (List.mem_append_right _ hm)).trans (W56_keep m ρ c r fun hm => h (List.mem_append_left _ hm))
abbrev wr58 : List (Ref sig .tc) := wr57 ++ hostOps6_9_W
theorem W58_keep (c : Dev nD) (r : Ref sig .tc) (h : r ∉ wr58) : W58 m ρ c (Proc.devRef .tc r) = W0 m ρ c (Proc.devRef .tc r) :=
  (W58_of m ρ c r fun hm => h (List.mem_append_right _ hm)).trans (W57_keep m ρ c r fun hm => h (List.mem_append_left _ hm))
abbrev wr59 : List (Ref sig .tc) := wr58 ++ hostOps6_10_W
theorem W59_keep (c : Dev nD) (r : Ref sig .tc) (h : r ∉ wr59) : W59 m ρ c (Proc.devRef .tc r) = W0 m ρ c (Proc.devRef .tc r) :=
  (W59_of m ρ c r fun hm => h (List.mem_append_right _ hm)).trans (W58_keep m ρ c r fun hm => h (List.mem_append_left _ hm))
abbrev wr60 : List (Ref sig .tc) := wr59 ++ hostOps6_11_W
theorem W60_keep (c : Dev nD) (r : Ref sig .tc) (h : r ∉ wr60) : W60 m ρ c (Proc.devRef .tc r) = W0 m ρ c (Proc.devRef .tc r) :=
  (W60_of m ρ c r fun hm => h (List.mem_append_right _ hm)).trans (W59_keep m ρ c r fun hm => h (List.mem_append_left _ hm))
abbrev wr61 : List (Ref sig .tc) := wr60 ++ [Pipeline.arrRef spec6 (9 : Fin 10)]
theorem W61_keep (c : Dev nD) (r : Ref sig .tc) (h : r ∉ wr61) : W61 m ρ c (Proc.devRef .tc r) = W0 m ρ c (Proc.devRef .tc r) :=
  (W61_of m ρ c r fun hm => h (List.mem_append_right _ hm)).trans (W60_keep m ρ c r fun hm => h (List.mem_append_left _ hm))
abbrev wr62 : List (Ref sig .tc) := wr61 ++ hostOps7_W
theorem W62_keep (c : Dev nD) (r : Ref sig .tc) (h : r ∉ wr62) : W62 m ρ c (Proc.devRef .tc r) = W0 m ρ c (Proc.devRef .tc r) :=
  (W62_of m ρ c r fun hm => h (List.mem_append_right _ hm)).trans (W61_keep m ρ c r fun hm => h (List.mem_append_left _ hm))
abbrev wr63 : List (Ref sig .tc) := wr62 ++ hostOps7_1_W
theorem W63_keep (c : Dev nD) (r : Ref sig .tc) (h : r ∉ wr63) : W63 m ρ c (Proc.devRef .tc r) = W0 m ρ c (Proc.devRef .tc r) :=
  (W63_of m ρ c r fun hm => h (List.mem_append_right _ hm)).trans (W62_keep m ρ c r fun hm => h (List.mem_append_left _ hm))
abbrev wr64 : List (Ref sig .tc) := wr63 ++ hostOps7_2_W
theorem W64_keep (c : Dev nD) (r : Ref sig .tc) (h : r ∉ wr64) : W64 m ρ c (Proc.devRef .tc r) = W0 m ρ c (Proc.devRef .tc r) :=
  (W64_of m ρ c r fun hm => h (List.mem_append_right _ hm)).trans (W63_keep m ρ c r fun hm => h (List.mem_append_left _ hm))
abbrev wr65 : List (Ref sig .tc) := wr64 ++ hostOps7_3_W
theorem W65_keep (c : Dev nD) (r : Ref sig .tc) (h : r ∉ wr65) : W65 m ρ c (Proc.devRef .tc r) = W0 m ρ c (Proc.devRef .tc r) :=
  (W65_of m ρ c r fun hm => h (List.mem_append_right _ hm)).trans (W64_keep m ρ c r fun hm => h (List.mem_append_left _ hm))
abbrev wr66 : List (Ref sig .tc) := wr65 ++ [Pipeline.arrRef spec7 (7 : Fin 8)]
theorem W66_keep (c : Dev nD) (r : Ref sig .tc) (h : r ∉ wr66) : W66 m ρ c (Proc.devRef .tc r) = W0 m ρ c (Proc.devRef .tc r) :=
  (W66_of m ρ c r fun hm => h (List.mem_append_right _ hm)).trans (W65_keep m ρ c r fun hm => h (List.mem_append_left _ hm))
abbrev wr67 : List (Ref sig .tc) := wr66 ++ hostOps8_W
theorem W67_keep (c : Dev nD) (r : Ref sig .tc) (h : r ∉ wr67) : W67 m ρ c (Proc.devRef .tc r) = W0 m ρ c (Proc.devRef .tc r) :=
  (W67_of m ρ c r fun hm => h (List.mem_append_right _ hm)).trans (W66_keep m ρ c r fun hm => h (List.mem_append_left _ hm))
abbrev wr68 : List (Ref sig .tc) := wr67 ++ hostOps8_1_W
theorem W68_keep (c : Dev nD) (r : Ref sig .tc) (h : r ∉ wr68) : W68 m ρ c (Proc.devRef .tc r) = W0 m ρ c (Proc.devRef .tc r) :=
  (W68_of m ρ c r fun hm => h (List.mem_append_right _ hm)).trans (W67_keep m ρ c r fun hm => h (List.mem_append_left _ hm))
abbrev wr69 : List (Ref sig .tc) := wr68 ++ hostOps8_2_W
theorem W69_keep (c : Dev nD) (r : Ref sig .tc) (h : r ∉ wr69) : W69 m ρ c (Proc.devRef .tc r) = W0 m ρ c (Proc.devRef .tc r) :=
  (W69_of m ρ c r fun hm => h (List.mem_append_right _ hm)).trans (W68_keep m ρ c r fun hm => h (List.mem_append_left _ hm))
abbrev wr70 : List (Ref sig .tc) := wr69 ++ hostOps8_3_W
theorem W70_keep (c : Dev nD) (r : Ref sig .tc) (h : r ∉ wr70) : W70 m ρ c (Proc.devRef .tc r) = W0 m ρ c (Proc.devRef .tc r) :=
  (W70_of m ρ c r fun hm => h (List.mem_append_right _ hm)).trans (W69_keep m ρ c r fun hm => h (List.mem_append_left _ hm))
abbrev wr71 : List (Ref sig .tc) := wr70 ++ hostOps8_4_W
theorem W71_keep (c : Dev nD) (r : Ref sig .tc) (h : r ∉ wr71) : W71 m ρ c (Proc.devRef .tc r) = W0 m ρ c (Proc.devRef .tc r) :=
  (W71_of m ρ c r fun hm => h (List.mem_append_right _ hm)).trans (W70_keep m ρ c r fun hm => h (List.mem_append_left _ hm))
abbrev wr72 : List (Ref sig .tc) := wr71 ++ hostOps8_5_W
theorem W72_keep (c : Dev nD) (r : Ref sig .tc) (h : r ∉ wr72) : W72 m ρ c (Proc.devRef .tc r) = W0 m ρ c (Proc.devRef .tc r) :=
  (W72_of m ρ c r fun hm => h (List.mem_append_right _ hm)).trans (W71_keep m ρ c r fun hm => h (List.mem_append_left _ hm))
abbrev wr73 : List (Ref sig .tc) := wr72 ++ hostOps8_6_W
theorem W73_keep (c : Dev nD) (r : Ref sig .tc) (h : r ∉ wr73) : W73 m ρ c (Proc.devRef .tc r) = W0 m ρ c (Proc.devRef .tc r) :=
  (W73_of m ρ c r fun hm => h (List.mem_append_right _ hm)).trans (W72_keep m ρ c r fun hm => h (List.mem_append_left _ hm))
abbrev wr74 : List (Ref sig .tc) := wr73 ++ hostOps8_7_W
theorem W74_keep (c : Dev nD) (r : Ref sig .tc) (h : r ∉ wr74) : W74 m ρ c (Proc.devRef .tc r) = W0 m ρ c (Proc.devRef .tc r) :=
  (W74_of m ρ c r fun hm => h (List.mem_append_right _ hm)).trans (W73_keep m ρ c r fun hm => h (List.mem_append_left _ hm))
abbrev wr75 : List (Ref sig .tc) := wr74 ++ [Pipeline.arrRef spec8 (9 : Fin 10)]
theorem W75_keep (c : Dev nD) (r : Ref sig .tc) (h : r ∉ wr75) : W75 m ρ c (Proc.devRef .tc r) = W0 m ρ c (Proc.devRef .tc r) :=
  (W75_of m ρ c r fun hm => h (List.mem_append_right _ hm)).trans (W74_keep m ρ c r fun hm => h (List.mem_append_left _ hm))
abbrev wr76 : List (Ref sig .tc) := wr75 ++ hostOps9_W
theorem W76_keep (c : Dev nD) (r : Ref sig .tc) (h : r ∉ wr76) : W76 m ρ c (Proc.devRef .tc r) = W0 m ρ c (Proc.devRef .tc r) :=
  (W76_of m ρ c r fun hm => h (List.mem_append_right _ hm)).trans (W75_keep m ρ c r fun hm => h (List.mem_append_left _ hm))
abbrev wr77 : List (Ref sig .tc) := wr76 ++ hostOps9_1_W
theorem W77_keep (c : Dev nD) (r : Ref sig .tc) (h : r ∉ wr77) : W77 m ρ c (Proc.devRef .tc r) = W0 m ρ c (Proc.devRef .tc r) :=
  (W77_of m ρ c r fun hm => h (List.mem_append_right _ hm)).trans (W76_keep m ρ c r fun hm => h (List.mem_append_left _ hm))
abbrev wr78 : List (Ref sig .tc) := wr77 ++ hostOps9_2_W
theorem W78_keep (c : Dev nD) (r : Ref sig .tc) (h : r ∉ wr78) : W78 m ρ c (Proc.devRef .tc r) = W0 m ρ c (Proc.devRef .tc r) :=
  (W78_of m ρ c r fun hm => h (List.mem_append_right _ hm)).trans (W77_keep m ρ c r fun hm => h (List.mem_append_left _ hm))
abbrev wr79 : List (Ref sig .tc) := wr78 ++ hostOps9_3_W
theorem W79_keep (c : Dev nD) (r : Ref sig .tc) (h : r ∉ wr79) : W79 m ρ c (Proc.devRef .tc r) = W0 m ρ c (Proc.devRef .tc r) :=
  (W79_of m ρ c r fun hm => h (List.mem_append_right _ hm)).trans (W78_keep m ρ c r fun hm => h (List.mem_append_left _ hm))
abbrev wr80 : List (Ref sig .tc) := wr79 ++ [Pipeline.arrRef spec9 (7 : Fin 8)]
theorem W80_keep (c : Dev nD) (r : Ref sig .tc) (h : r ∉ wr80) : W80 m ρ c (Proc.devRef .tc r) = W0 m ρ c (Proc.devRef .tc r) :=
  (W80_of m ρ c r fun hm => h (List.mem_append_right _ hm)).trans (W79_keep m ρ c r fun hm => h (List.mem_append_left _ hm))
abbrev wr81 : List (Ref sig .tc) := wr80 ++ hostOps10_W
theorem W81_keep (c : Dev nD) (r : Ref sig .tc) (h : r ∉ wr81) : W81 m ρ c (Proc.devRef .tc r) = W0 m ρ c (Proc.devRef .tc r) :=
  (W81_of m ρ c r fun hm => h (List.mem_append_right _ hm)).trans (W80_keep m ρ c r fun hm => h (List.mem_append_left _ hm))
abbrev wr82 : List (Ref sig .tc) := wr81 ++ hostOps10_1_W
theorem W82_keep (c : Dev nD) (r : Ref sig .tc) (h : r ∉ wr82) : W82 m ρ c (Proc.devRef .tc r) = W0 m ρ c (Proc.devRef .tc r) :=
  (W82_of m ρ c r fun hm => h (List.mem_append_right _ hm)).trans (W81_keep m ρ c r fun hm => h (List.mem_append_left _ hm))
abbrev wr83 : List (Ref sig .tc) := wr82 ++ hostOps10_2_W
theorem W83_keep (c : Dev nD) (r : Ref sig .tc) (h : r ∉ wr83) : W83 m ρ c (Proc.devRef .tc r) = W0 m ρ c (Proc.devRef .tc r) :=
  (W83_of m ρ c r fun hm => h (List.mem_append_right _ hm)).trans (W82_keep m ρ c r fun hm => h (List.mem_append_left _ hm))
abbrev wr84 : List (Ref sig .tc) := wr83 ++ hostOps10_3_W
theorem W84_keep (c : Dev nD) (r : Ref sig .tc) (h : r ∉ wr84) : W84 m ρ c (Proc.devRef .tc r) = W0 m ρ c (Proc.devRef .tc r) :=
  (W84_of m ρ c r fun hm => h (List.mem_append_right _ hm)).trans (W83_keep m ρ c r fun hm => h (List.mem_append_left _ hm))
abbrev wr85 : List (Ref sig .tc) := wr84 ++ hostOps10_4_W
theorem W85_keep (c : Dev nD) (r : Ref sig .tc) (h : r ∉ wr85) : W85 m ρ c (Proc.devRef .tc r) = W0 m ρ c (Proc.devRef .tc r) :=
  (W85_of m ρ c r fun hm => h (List.mem_append_right _ hm)).trans (W84_keep m ρ c r fun hm => h (List.mem_append_left _ hm))
abbrev wr86 : List (Ref sig .tc) := wr85 ++ hostOps10_5_W
theorem W86_keep (c : Dev nD) (r : Ref sig .tc) (h : r ∉ wr86) : W86 m ρ c (Proc.devRef .tc r) = W0 m ρ c (Proc.devRef .tc r) :=
  (W86_of m ρ c r fun hm => h (List.mem_append_right _ hm)).trans (W85_keep m ρ c r fun hm => h (List.mem_append_left _ hm))
abbrev wr87 : List (Ref sig .tc) := wr86 ++ hostOps10_6_W
theorem W87_keep (c : Dev nD) (r : Ref sig .tc) (h : r ∉ wr87) : W87 m ρ c (Proc.devRef .tc r) = W0 m ρ c (Proc.devRef .tc r) :=
  (W87_of m ρ c r fun hm => h (List.mem_append_right _ hm)).trans (W86_keep m ρ c r fun hm => h (List.mem_append_left _ hm))
abbrev wr88 : List (Ref sig .tc) := wr87 ++ hostOps10_7_W
theorem W88_keep (c : Dev nD) (r : Ref sig .tc) (h : r ∉ wr88) : W88 m ρ c (Proc.devRef .tc r) = W0 m ρ c (Proc.devRef .tc r) :=
  (W88_of m ρ c r fun hm => h (List.mem_append_right _ hm)).trans (W87_keep m ρ c r fun hm => h (List.mem_append_left _ hm))
abbrev wr89 : List (Ref sig .tc) := wr88 ++ hostOps10_8_W
theorem W89_keep (c : Dev nD) (r : Ref sig .tc) (h : r ∉ wr89) : W89 m ρ c (Proc.devRef .tc r) = W0 m ρ c (Proc.devRef .tc r) :=
  (W89_of m ρ c r fun hm => h (List.mem_append_right _ hm)).trans (W88_keep m ρ c r fun hm => h (List.mem_append_left _ hm))
abbrev wr90 : List (Ref sig .tc) := wr89 ++ hostOps10_9_W
theorem W90_keep (c : Dev nD) (r : Ref sig .tc) (h : r ∉ wr90) : W90 m ρ c (Proc.devRef .tc r) = W0 m ρ c (Proc.devRef .tc r) :=
  (W90_of m ρ c r fun hm => h (List.mem_append_right _ hm)).trans (W89_keep m ρ c r fun hm => h (List.mem_append_left _ hm))
abbrev wr91 : List (Ref sig .tc) := wr90 ++ hostOps10_10_W
theorem W91_keep (c : Dev nD) (r : Ref sig .tc) (h : r ∉ wr91) : W91 m ρ c (Proc.devRef .tc r) = W0 m ρ c (Proc.devRef .tc r) :=
  (W91_of m ρ c r fun hm => h (List.mem_append_right _ hm)).trans (W90_keep m ρ c r fun hm => h (List.mem_append_left _ hm))
abbrev wr92 : List (Ref sig .tc) := wr91 ++ hostOps10_11_W
theorem W92_keep (c : Dev nD) (r : Ref sig .tc) (h : r ∉ wr92) : W92 m ρ c (Proc.devRef .tc r) = W0 m ρ c (Proc.devRef .tc r) :=
  (W92_of m ρ c r fun hm => h (List.mem_append_right _ hm)).trans (W91_keep m ρ c r fun hm => h (List.mem_append_left _ hm))
abbrev wr93 : List (Ref sig .tc) := wr92 ++ [Pipeline.arrRef spec10 (9 : Fin 10)]
theorem W93_keep (c : Dev nD) (r : Ref sig .tc) (h : r ∉ wr93) : W93 m ρ c (Proc.devRef .tc r) = W0 m ρ c (Proc.devRef .tc r) :=
  (W93_of m ρ c r fun hm => h (List.mem_append_right _ hm)).trans (W92_keep m ρ c r fun hm => h (List.mem_append_left _ hm))
abbrev wr94 : List (Ref sig .tc) := wr93 ++ hostOps11_W
theorem W94_keep (c : Dev nD) (r : Ref sig .tc) (h : r ∉ wr94) : W94 m ρ c (Proc.devRef .tc r) = W0 m ρ c (Proc.devRef .tc r) :=
  (W94_of m ρ c r fun hm => h (List.mem_append_right _ hm)).trans (W93_keep m ρ c r fun hm => h (List.mem_append_left _ hm))
abbrev wr95 : List (Ref sig .tc) := wr94 ++ hostOps11_1_W
theorem W95_keep (c : Dev nD) (r : Ref sig .tc) (h : r ∉ wr95) : W95 m ρ c (Proc.devRef .tc r) = W0 m ρ c (Proc.devRef .tc r) :=
  (W95_of m ρ c r fun hm => h (List.mem_append_right _ hm)).trans (W94_keep m ρ c r fun hm => h (List.mem_append_left _ hm))
abbrev wr96 : List (Ref sig .tc) := wr95 ++ hostOps11_2_W
theorem W96_keep (c : Dev nD) (r : Ref sig .tc) (h : r ∉ wr96) : W96 m ρ c (Proc.devRef .tc r) = W0 m ρ c (Proc.devRef .tc r) :=
  (W96_of m ρ c r fun hm => h (List.mem_append_right _ hm)).trans (W95_keep m ρ c r fun hm => h (List.mem_append_left _ hm))
abbrev wr97 : List (Ref sig .tc) := wr96 ++ hostOps11_3_W
theorem W97_keep (c : Dev nD) (r : Ref sig .tc) (h : r ∉ wr97) : W97 m ρ c (Proc.devRef .tc r) = W0 m ρ c (Proc.devRef .tc r) :=
  (W97_of m ρ c r fun hm => h (List.mem_append_right _ hm)).trans (W96_keep m ρ c r fun hm => h (List.mem_append_left _ hm))
abbrev wr98 : List (Ref sig .tc) := wr97 ++ [Pipeline.arrRef spec11 (7 : Fin 8)]
theorem W98_keep (c : Dev nD) (r : Ref sig .tc) (h : r ∉ wr98) : W98 m ρ c (Proc.devRef .tc r) = W0 m ρ c (Proc.devRef .tc r) :=
  (W98_of m ρ c r fun hm => h (List.mem_append_right _ hm)).trans (W97_keep m ρ c r fun hm => h (List.mem_append_left _ hm))
abbrev wr99 : List (Ref sig .tc) := wr98 ++ hostOps12_W
theorem W99_keep (c : Dev nD) (r : Ref sig .tc) (h : r ∉ wr99) : W99 m ρ c (Proc.devRef .tc r) = W0 m ρ c (Proc.devRef .tc r) :=
  (W99_of m ρ c r fun hm => h (List.mem_append_right _ hm)).trans (W98_keep m ρ c r fun hm => h (List.mem_append_left _ hm))
abbrev wr100 : List (Ref sig .tc) := wr99 ++ hostOps12_1_W
theorem W100_keep (c : Dev nD) (r : Ref sig .tc) (h : r ∉ wr100) : W100 m ρ c (Proc.devRef .tc r) = W0 m ρ c (Proc.devRef .tc r) :=
  (W100_of m ρ c r fun hm => h (List.mem_append_right _ hm)).trans (W99_keep m ρ c r fun hm => h (List.mem_append_left _ hm))
abbrev wr101 : List (Ref sig .tc) := wr100 ++ hostOps12_2_W
theorem W101_keep (c : Dev nD) (r : Ref sig .tc) (h : r ∉ wr101) : W101 m ρ c (Proc.devRef .tc r) = W0 m ρ c (Proc.devRef .tc r) :=
  (W101_of m ρ c r fun hm => h (List.mem_append_right _ hm)).trans (W100_keep m ρ c r fun hm => h (List.mem_append_left _ hm))
abbrev wr102 : List (Ref sig .tc) := wr101 ++ hostOps12_3_W
theorem W102_keep (c : Dev nD) (r : Ref sig .tc) (h : r ∉ wr102) : W102 m ρ c (Proc.devRef .tc r) = W0 m ρ c (Proc.devRef .tc r) :=
  (W102_of m ρ c r fun hm => h (List.mem_append_right _ hm)).trans (W101_keep m ρ c r fun hm => h (List.mem_append_left _ hm))
abbrev wr103 : List (Ref sig .tc) := wr102 ++ hostOps12_4_W
theorem W103_keep (c : Dev nD) (r : Ref sig .tc) (h : r ∉ wr103) : W103 m ρ c (Proc.devRef .tc r) = W0 m ρ c (Proc.devRef .tc r) :=
  (W103_of m ρ c r fun hm => h (List.mem_append_right _ hm)).trans (W102_keep m ρ c r fun hm => h (List.mem_append_left _ hm))
abbrev wr104 : List (Ref sig .tc) := wr103 ++ hostOps12_5_W
theorem W104_keep (c : Dev nD) (r : Ref sig .tc) (h : r ∉ wr104) : W104 m ρ c (Proc.devRef .tc r) = W0 m ρ c (Proc.devRef .tc r) :=
  (W104_of m ρ c r fun hm => h (List.mem_append_right _ hm)).trans (W103_keep m ρ c r fun hm => h (List.mem_append_left _ hm))
abbrev wr105 : List (Ref sig .tc) := wr104 ++ hostOps12_6_W
theorem W105_keep (c : Dev nD) (r : Ref sig .tc) (h : r ∉ wr105) : W105 m ρ c (Proc.devRef .tc r) = W0 m ρ c (Proc.devRef .tc r) :=
  (W105_of m ρ c r fun hm => h (List.mem_append_right _ hm)).trans (W104_keep m ρ c r fun hm => h (List.mem_append_left _ hm))

/-! ## The arguments end as launched: no item writes one -/

theorem W105_main_arg0 (c : Dev nD) : W105 m ρ c (Proc.devRef .tc main_arg0) = m ((c : Thread nD τ).loc main_arg0) :=
  W105_keep m ρ c main_arg0 (by decide)
theorem W105_main_arg1 (c : Dev nD) : W105 m ρ c (Proc.devRef .tc main_arg1) = m ((c : Thread nD τ).loc main_arg1) :=
  W105_keep m ρ c main_arg1 (by decide)
theorem W105_main_arg2 (c : Dev nD) : W105 m ρ c (Proc.devRef .tc main_arg2) = m ((c : Thread nD τ).loc main_arg2) :=
  W105_keep m ρ c main_arg2 (by decide)
theorem W105_main_arg3 (c : Dev nD) : W105 m ρ c (Proc.devRef .tc main_arg3) = m ((c : Thread nD τ).loc main_arg3) :=
  W105_keep m ρ c main_arg3 (by decide)
theorem W105_main_arg4 (c : Dev nD) : W105 m ρ c (Proc.devRef .tc main_arg4) = m ((c : Thread nD τ).loc main_arg4) :=
  W105_keep m ρ c main_arg4 (by decide)
theorem W105_main_arg5 (c : Dev nD) : W105 m ρ c (Proc.devRef .tc main_arg5) = m ((c : Thread nD τ).loc main_arg5) :=
  W105_keep m ρ c main_arg5 (by decide)
theorem W105_main_arg6 (c : Dev nD) : W105 m ρ c (Proc.devRef .tc main_arg6) = m ((c : Thread nD τ).loc main_arg6) :=
  W105_keep m ρ c main_arg6 (by decide)
theorem W105_main_arg7 (c : Dev nD) : W105 m ρ c (Proc.devRef .tc main_arg7) = m ((c : Thread nD τ).loc main_arg7) :=
  W105_keep m ρ c main_arg7 (by decide)
theorem W105_main_arg8 (c : Dev nD) : W105 m ρ c (Proc.devRef .tc main_arg8) = m ((c : Thread nD τ).loc main_arg8) :=
  W105_keep m ρ c main_arg8 (by decide)
theorem W105_main_arg9 (c : Dev nD) : W105 m ρ c (Proc.devRef .tc main_arg9) = m ((c : Thread nD τ).loc main_arg9) :=
  W105_keep m ρ c main_arg9 (by decide)
theorem W105_main_arg10 (c : Dev nD) : W105 m ρ c (Proc.devRef .tc main_arg10) = m ((c : Thread nD τ).loc main_arg10) :=
  W105_keep m ρ c main_arg10 (by decide)
theorem W105_main_arg11 (c : Dev nD) : W105 m ρ c (Proc.devRef .tc main_arg11) = m ((c : Thread nD τ).loc main_arg11) :=
  W105_keep m ρ c main_arg11 (by decide)
theorem W105_main_arg12 (c : Dev nD) : W105 m ρ c (Proc.devRef .tc main_arg12) = m ((c : Thread nD τ).loc main_arg12) :=
  W105_keep m ρ c main_arg12 (by decide)
theorem W105_main_arg13 (c : Dev nD) : W105 m ρ c (Proc.devRef .tc main_arg13) = m ((c : Thread nD τ).loc main_arg13) :=
  W105_keep m ρ c main_arg13 (by decide)
theorem W105_main_arg14 (c : Dev nD) : W105 m ρ c (Proc.devRef .tc main_arg14) = m ((c : Thread nD τ).loc main_arg14) :=
  W105_keep m ρ c main_arg14 (by decide)
theorem W105_main_arg15 (c : Dev nD) : W105 m ρ c (Proc.devRef .tc main_arg15) = m ((c : Thread nD τ).loc main_arg15) :=
  W105_keep m ρ c main_arg15 (by decide)
theorem W105_main_arg16 (c : Dev nD) : W105 m ρ c (Proc.devRef .tc main_arg16) = m ((c : Thread nD τ).loc main_arg16) :=
  W105_keep m ρ c main_arg16 (by decide)

end Cert.Kernel.Gen

end
-- ==== Proof.KB.Run.lean ====
import proofs.«426760_j80470507258346_3_alg».proof.Proof.KB.Segs
import proofs.«426760_j80470507258346_3_alg».proof.Proof.KB.Args

/-! The run of @main from the launch to the return, and from it the frame claim: every argument array ends as launched. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state beside the core owing nothing: every unscoped buffer at the last contents, the generator register at some state. -/
abbrev Tₙ (c : Dev nD) : sProp 𝕄 := iprop(StableHlo.held (c : Thread nD τ) (Pipeline.ucRefs τ sig) (W105 m ρ c) ∗ ∃ r, prngReg c r)

-- the launch theorem's implicit arguments are found by unifying its conclusion with this one, which unfolds definitions in a type
set_option backward.isDefEq.respectTransparency.types false in
/-- From any memory with zero counters, every weakly fair execution of @main on the TensorCores terminates, nothing
    faulting, and every final state has each unscoped buffer of each core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W105 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W105 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W105 m ρ c b)
    (hfin := fun c s' => by
      iintro ⟨⟨Hh, -⟩, HSI⟩
      unfold StableHlo.held
      imodintro
      iapply (pointsTo_read_all (Pipeline.ucRefs τ sig) (fun b => (((c : Thread nD τ)).1, b)) (W105 m ρ c) s')
      isplitl [Hh] <;> iassumption)
    (hQ := fun _ h => h)

/-- The frame claim of the program at any float instance: @main terminates from any memory with zero counters, and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (run_all m ρ).mono fun r h c =>
    ⟨(h c _ (mem_uc main_arg0 (by decide))).trans (W105_main_arg0 m ρ c),
     (h c _ (mem_uc main_arg1 (by decide))).trans (W105_main_arg1 m ρ c),
     (h c _ (mem_uc main_arg2 (by decide))).trans (W105_main_arg2 m ρ c),
     (h c _ (mem_uc main_arg3 (by decide))).trans (W105_main_arg3 m ρ c),
     (h c _ (mem_uc main_arg4 (by decide))).trans (W105_main_arg4 m ρ c),
     (h c _ (mem_uc main_arg5 (by decide))).trans (W105_main_arg5 m ρ c),
     (h c _ (mem_uc main_arg6 (by decide))).trans (W105_main_arg6 m ρ c),
     (h c _ (mem_uc main_arg7 (by decide))).trans (W105_main_arg7 m ρ c),
     (h c _ (mem_uc main_arg8 (by decide))).trans (W105_main_arg8 m ρ c),
     (h c _ (mem_uc main_arg9 (by decide))).trans (W105_main_arg9 m ρ c),
     (h c _ (mem_uc main_arg10 (by decide))).trans (W105_main_arg10 m ρ c),
     (h c _ (mem_uc main_arg11 (by decide))).trans (W105_main_arg11 m ρ c),
     (h c _ (mem_uc main_arg12 (by decide))).trans (W105_main_arg12 m ρ c),
     (h c _ (mem_uc main_arg13 (by decide))).trans (W105_main_arg13 m ρ c),
     (h c _ (mem_uc main_arg14 (by decide))).trans (W105_main_arg14 m ρ c),
     (h c _ (mem_uc main_arg15 (by decide))).trans (W105_main_arg15 m ρ c),
     (h c _ (mem_uc main_arg16 (by decide))).trans (W105_main_arg16 m ρ c)⟩

/-- The same run read at the result buffer as well: it ends at the last contents of the fold there, and every argument
    array ends as launched. -/
theorem run_val : θ_run defs (onTc (τ := τ) (main (F := F))) ⟨m, fun _ => 0, ρ⟩ (fun r => ∀ c : Dev nD,
      r.2.mem ((c.tc : Thread nD τ).loc main_v483) = W105 m ρ c (Proc.devRef .tc main_v483)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (run_all m ρ).mono fun r h c =>
    ⟨h c _ (mem_uc main_v483 (by decide)),
     (h c _ (mem_uc main_arg0 (by decide))).trans (W105_main_arg0 m ρ c),
     (h c _ (mem_uc main_arg1 (by decide))).trans (W105_main_arg1 m ρ c),
     (h c _ (mem_uc main_arg2 (by decide))).trans (W105_main_arg2 m ρ c),
     (h c _ (mem_uc main_arg3 (by decide))).trans (W105_main_arg3 m ρ c),
     (h c _ (mem_uc main_arg4 (by decide))).trans (W105_main_arg4 m ρ c),
     (h c _ (mem_uc main_arg5 (by decide))).trans (W105_main_arg5 m ρ c),
     (h c _ (mem_uc main_arg6 (by decide))).trans (W105_main_arg6 m ρ c),
     (h c _ (mem_uc main_arg7 (by decide))).trans (W105_main_arg7 m ρ c),
     (h c _ (mem_uc main_arg8 (by decide))).trans (W105_main_arg8 m ρ c),
     (h c _ (mem_uc main_arg9 (by decide))).trans (W105_main_arg9 m ρ c),
     (h c _ (mem_uc main_arg10 (by decide))).trans (W105_main_arg10 m ρ c),
     (h c _ (mem_uc main_arg11 (by decide))).trans (W105_main_arg11 m ρ c),
     (h c _ (mem_uc main_arg12 (by decide))).trans (W105_main_arg12 m ρ c),
     (h c _ (mem_uc main_arg13 (by decide))).trans (W105_main_arg13 m ρ c),
     (h c _ (mem_uc main_arg14 (by decide))).trans (W105_main_arg14 m ρ c),
     (h c _ (mem_uc main_arg15 (by decide))).trans (W105_main_arg15 m ρ c),
     (h c _ (mem_uc main_arg16 (by decide))).trans (W105_main_arg16 m ρ c)⟩

end Cert.Kernel.Gen

end
-- ==== Proof.Ref.Chunks0.lean ====
import proofs.«426760_j80470507258346_3_alg».proof.Proof.Gen.ReferenceIdeal
import Idealize.ShloMosaic.Lib.StableHlo.Run
import Idealize.ShloMosaic.Lib.Pipeline.Frame

/-! Operations 1 … 60 of the 655 of the reference program (the window `main_part0` of @main), in 1 chunks `ops0` … `ops0`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 1 … 60 of the 655 of @main, which write `main_v0` … `main_v56` (the index rows and the parameters of layer 0). -/
abbrev ops0 : List (HloOp τ sig (Elt F)) :=
  [ unary main_arg1 main_v0 ((extractStridedSlice S1x1100000 ![0, 0] · slices_S2x1100000_S1x1100000_0_0) : (⟨S2x1100000, .i32⟩ : BufTy).Contents (Elt F) → (⟨S1x1100000, .i32⟩ : BufTy).Contents (Elt F)),
    reshape main_v0 main_v1 rfl shapeCasts_S1x1100000_S1100000,
    unary main_arg1 main_v2 ((extractStridedSlice S1x1100000 ![1, 0] · slices_S2x1100000_S1x1100000_1_0) : (⟨S2x1100000, .i32⟩ : BufTy).Contents (Elt F) → (⟨S1x1100000, .i32⟩ : BufTy).Contents (Elt F)),
    reshape main_v2 main_v3 rfl shapeCasts_S1x1100000_S1100000,
    unary main_arg2 main_v4 ((extractStridedSlice S1x1100000 ![0, 0] · slices_S2x1100000_S1x1100000_0_0) : (⟨S2x1100000, .i32⟩ : BufTy).Contents (Elt F) → (⟨S1x1100000, .i32⟩ : BufTy).Contents (Elt F)),
    reshape main_v4 main_v5 rfl shapeCasts_S1x1100000_S1100000,
    unary main_arg2 main_v6 ((extractStridedSlice S1x1100000 ![1, 0] · slices_S2x1100000_S1x1100000_1_0) : (⟨S2x1100000, .i32⟩ : BufTy).Contents (Elt F) → (⟨S1x1100000, .i32⟩ : BufTy).Contents (Elt F)),
    reshape main_v6 main_v7 rfl shapeCasts_S1x1100000_S1100000,
    nullary main_cst (constant S_ .f32 0x00000000#32),
    unary main_cst main_v8 (broadcastInDim S1x8 ![] bcast_S_S1x8 : (⟨S_, .f32⟩ : BufTy).Contents (Elt F) → (⟨S1x8, .f32⟩ : BufTy).Contents (Elt F)),
    nullary main_cst_0 (constant S_ .f32 0x00000000#32),
    unary main_cst_0 main_v9 (broadcastInDim S1100000x1 ![] bcast_S_S1100000x1 : (⟨S_, .f32⟩ : BufTy).Contents (Elt F) → (⟨S1100000x1, .f32⟩ : BufTy).Contents (Elt F)),
    nullary main_cst_1 (constant S_ .f32 0x00000000#32),
    unary main_cst_1 main_v10 (broadcastInDim S1100000x1 ![] bcast_S_S1100000x1 : (⟨S_, .f32⟩ : BufTy).Contents (Elt F) → (⟨S1100000x1, .f32⟩ : BufTy).Contents (Elt F)),
    unary main_arg5 main_v11 ((extractStridedSlice S1x1x26x32 ![0, 0, 0, 0] · slices_S2x3x26x32_S1x1x26x32_0_0_0_0) : (⟨S2x3x26x32, .f32⟩ : BufTy).Contents (Elt F) → (⟨S1x1x26x32, .f32⟩ : BufTy).Contents (Elt F)),
    reshape main_v11 main_v12 rfl shapeCasts_S1x1x26x32_S26x32,
    unary main_arg6 main_v13 ((extractStridedSlice S1x1x32 ![0, 0, 0] · slices_S2x3x32_S1x1x32_0_0_0) : (⟨S2x3x32, .f32⟩ : BufTy).Contents (Elt F) → (⟨S1x1x32, .f32⟩ : BufTy).Contents (Elt F)),
    reshape main_v13 main_v14 rfl shapeCasts_S1x1x32_S32,
    unary main_arg7 main_v15 ((extractStridedSlice S1x1x32x1 ![0, 0, 0, 0] · slices_S2x3x32x1_S1x1x32x1_0_0_0_0) : (⟨S2x3x32x1, .f32⟩ : BufTy).Contents (Elt F) → (⟨S1x1x32x1, .f32⟩ : BufTy).Contents (Elt F)),
    reshape main_v15 main_v16 rfl shapeCasts_S1x1x32x1_S32x1,
    unary main_arg8 main_v17 ((extractStridedSlice S1x1x1 ![0, 0, 0] · slices_S2x3x1_S1x1x1_0_0_0) : (⟨S2x3x1, .f32⟩ : BufTy).Contents (Elt F) → (⟨S1x1x1, .f32⟩ : BufTy).Contents (Elt F)),
    reshape main_v17 main_v18 rfl shapeCasts_S1x1x1_S1,
    unary main_arg9 main_v19 ((extractStridedSlice S1x1x17x32 ![0, 0, 0, 0] · slices_S2x3x17x32_S1x1x17x32_0_0_0_0) : (⟨S2x3x17x32, .f32⟩ : BufTy).Contents (Elt F) → (⟨S1x1x17x32, .f32⟩ : BufTy).Contents (Elt F)),
    reshape main_v19 main_v20 rfl shapeCasts_S1x1x17x32_S17x32,
    unary main_arg10 main_v21 ((extractStridedSlice S1x1x32 ![0, 0, 0] · slices_S2x3x32_S1x1x32_0_0_0) : (⟨S2x3x32, .f32⟩ : BufTy).Contents (Elt F) → (⟨S1x1x32, .f32⟩ : BufTy).Contents (Elt F)),
    reshape main_v21 main_v22 rfl shapeCasts_S1x1x32_S32,
    unary main_arg11 main_v23 ((extractStridedSlice S1x1x32x8 ![0, 0, 0, 0] · slices_S2x3x32x8_S1x1x32x8_0_0_0_0) : (⟨S2x3x32x8, .f32⟩ : BufTy).Contents (Elt F) → (⟨S1x1x32x8, .f32⟩ : BufTy).Contents (Elt F)),
    reshape main_v23 main_v24 rfl shapeCasts_S1x1x32x8_S32x8,
    unary main_arg12 main_v25 ((extractStridedSlice S1x1x8 ![0, 0, 0] · slices_S2x3x8_S1x1x8_0_0_0) : (⟨S2x3x8, .f32⟩ : BufTy).Contents (Elt F) → (⟨S1x1x8, .f32⟩ : BufTy).Contents (Elt F)),
    reshape main_v25 main_v26 rfl shapeCasts_S1x1x8_S8,
    unary main_arg13 main_v27 ((extractStridedSlice S1x1x17x32 ![0, 0, 0, 0] · slices_S2x3x17x32_S1x1x17x32_0_0_0_0) : (⟨S2x3x17x32, .f32⟩ : BufTy).Contents (Elt F) → (⟨S1x1x17x32, .f32⟩ : BufTy).Contents (Elt F)),
    reshape main_v27 main_v28 rfl shapeCasts_S1x1x17x32_S17x32,
    unary main_arg14 main_v29 ((extractStridedSlice S1x1x32 ![0, 0, 0] · slices_S2x3x32_S1x1x32_0_0_0) : (⟨S2x3x32, .f32⟩ : BufTy).Contents (Elt F) → (⟨S1x1x32, .f32⟩ : BufTy).Contents (Elt F)),
    reshape main_v29 main_v30 rfl shapeCasts_S1x1x32_S32,
    unary main_arg15 main_v31 ((extractStridedSlice S1x1x32x8 ![0, 0, 0, 0] · slices_S2x3x32x8_S1x1x32x8_0_0_0_0) : (⟨S2x3x32x8, .f32⟩ : BufTy).Contents (Elt F) → (⟨S1x1x32x8, .f32⟩ : BufTy).Contents (Elt F)),
    reshape main_v31 main_v32 rfl shapeCasts_S1x1x32x8_S32x8,
    unary main_arg16 main_v33 ((extractStridedSlice S1x1x8 ![0, 0, 0] · slices_S2x3x8_S1x1x8_0_0_0) : (⟨S2x3x8, .f32⟩ : BufTy).Contents (Elt F) → (⟨S1x1x8, .f32⟩ : BufTy).Contents (Elt F)),
    reshape main_v33 main_v34 rfl shapeCasts_S1x1x8_S8,
    unary main_arg5 main_v35 ((extractStridedSlice S1x1x26x32 ![1, 0, 0, 0] · slices_S2x3x26x32_S1x1x26x32_1_0_0_0) : (⟨S2x3x26x32, .f32⟩ : BufTy).Contents (Elt F) → (⟨S1x1x26x32, .f32⟩ : BufTy).Contents (Elt F)),
    reshape main_v35 main_v36 rfl shapeCasts_S1x1x26x32_S26x32,
    unary main_arg6 main_v37 ((extractStridedSlice S1x1x32 ![1, 0, 0] · slices_S2x3x32_S1x1x32_1_0_0) : (⟨S2x3x32, .f32⟩ : BufTy).Contents (Elt F) → (⟨S1x1x32, .f32⟩ : BufTy).Contents (Elt F)),
    reshape main_v37 main_v38 rfl shapeCasts_S1x1x32_S32,
    unary main_arg7 main_v39 ((extractStridedSlice S1x1x32x1 ![1, 0, 0, 0] · slices_S2x3x32x1_S1x1x32x1_1_0_0_0) : (⟨S2x3x32x1, .f32⟩ : BufTy).Contents (Elt F) → (⟨S1x1x32x1, .f32⟩ : BufTy).Contents (Elt F)),
    reshape main_v39 main_v40 rfl shapeCasts_S1x1x32x1_S32x1,
    unary main_arg8 main_v41 ((extractStridedSlice S1x1x1 ![1, 0, 0] · slices_S2x3x1_S1x1x1_1_0_0) : (⟨S2x3x1, .f32⟩ : BufTy).Contents (Elt F) → (⟨S1x1x1, .f32⟩ : BufTy).Contents (Elt F)),
    reshape main_v41 main_v42 rfl shapeCasts_S1x1x1_S1,
    unary main_arg9 main_v43 ((extractStridedSlice S1x1x17x32 ![1, 0, 0, 0] · slices_S2x3x17x32_S1x1x17x32_1_0_0_0) : (⟨S2x3x17x32, .f32⟩ : BufTy).Contents (Elt F) → (⟨S1x1x17x32, .f32⟩ : BufTy).Contents (Elt F)),
    reshape main_v43 main_v44 rfl shapeCasts_S1x1x17x32_S17x32,
    unary main_arg10 main_v45 ((extractStridedSlice S1x1x32 ![1, 0, 0] · slices_S2x3x32_S1x1x32_1_0_0) : (⟨S2x3x32, .f32⟩ : BufTy).Contents (Elt F) → (⟨S1x1x32, .f32⟩ : BufTy).Contents (Elt F)),
    reshape main_v45 main_v46 rfl shapeCasts_S1x1x32_S32,
    unary main_arg11 main_v47 ((extractStridedSlice S1x1x32x8 ![1, 0, 0, 0] · slices_S2x3x32x8_S1x1x32x8_1_0_0_0) : (⟨S2x3x32x8, .f32⟩ : BufTy).Contents (Elt F) → (⟨S1x1x32x8, .f32⟩ : BufTy).Contents (Elt F)),
    reshape main_v47 main_v48 rfl shapeCasts_S1x1x32x8_S32x8,
    unary main_arg12 main_v49 ((extractStridedSlice S1x1x8 ![1, 0, 0] · slices_S2x3x8_S1x1x8_1_0_0) : (⟨S2x3x8, .f32⟩ : BufTy).Contents (Elt F) → (⟨S1x1x8, .f32⟩ : BufTy).Contents (Elt F)),
    reshape main_v49 main_v50 rfl shapeCasts_S1x1x8_S8,
    unary main_arg13 main_v51 ((extractStridedSlice S1x1x17x32 ![1, 0, 0, 0] · slices_S2x3x17x32_S1x1x17x32_1_0_0_0) : (⟨S2x3x17x32, .f32⟩ : BufTy).Contents (Elt F) → (⟨S1x1x17x32, .f32⟩ : BufTy).Contents (Elt F)),
    reshape main_v51 main_v52 rfl shapeCasts_S1x1x17x32_S17x32,
    unary main_arg14 main_v53 ((extractStridedSlice S1x1x32 ![1, 0, 0] · slices_S2x3x32_S1x1x32_1_0_0) : (⟨S2x3x32, .f32⟩ : BufTy).Contents (Elt F) → (⟨S1x1x32, .f32⟩ : BufTy).Contents (Elt F)),
    reshape main_v53 main_v54 rfl shapeCasts_S1x1x32_S32,
    unary main_arg15 main_v55 ((extractStridedSlice S1x1x32x8 ![1, 0, 0, 0] · slices_S2x3x32x8_S1x1x32x8_1_0_0_0) : (⟨S2x3x32x8, .f32⟩ : BufTy).Contents (Elt F) → (⟨S1x1x32x8, .f32⟩ : BufTy).Contents (Elt F)),
    reshape main_v55 main_v56 rfl shapeCasts_S1x1x32x8_S32x8 ]
/-- Every buffer these operations touch is a TensorCore reference. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., nullary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
/-- Each of them determines its result. -/
theorem ops0_fresh : ∀ op ∈ (ops0 : List (HloOp τ sig (Elt F))), op.fresh = ∅ :=
  List.forall_iff_forall_mem.mp (show (ops0 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
/-- The buffers they write, in order. -/
abbrev ops0_W : List (Ref sig .tc) := [main_v0, main_v1, main_v2, main_v3, main_v4, main_v5, main_v6, main_v7, main_cst, main_v8, main_cst_0, main_v9, main_cst_1, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]
theorem ops0_writes : (ops0 : List (HloOp τ sig (Elt F))).Forall fun op => op.writes ⊆ (ops0_W.map (Proc.devRef (τ := τ) .tc)).toFinset :=
  ⟨wsub main_v0 (by decide) rfl, wsub main_v1 (by decide) rfl, wsub main_v2 (by decide) rfl, wsub main_v3 (by decide) rfl, wsub main_v4 (by decide) rfl, wsub main_v5 (by decide) rfl, wsub main_v6 (by decide) rfl, wsub main_v7 (by decide) rfl, wsub main_cst (by decide) rfl, wsub main_v8 (by decide) rfl, wsub main_cst_0 (by decide) rfl, wsub main_v9 (by decide) rfl, wsub main_cst_1 (by decide) rfl, wsub main_v10 (by decide) rfl, wsub main_v11 (by decide) rfl, wsub main_v12 (by decide) rfl, wsub main_v13 (by decide) rfl, wsub main_v14 (by decide) rfl, wsub main_v15 (by decide) rfl, wsub main_v16 (by decide) rfl, wsub main_v17 (by decide) rfl, wsub main_v18 (by decide) rfl, wsub main_v19 (by decide) rfl, wsub main_v20 (by decide) rfl, wsub main_v21 (by decide) rfl, wsub main_v22 (by decide) rfl, wsub main_v23 (by decide) rfl, wsub main_v24 (by decide) rfl, wsub main_v25 (by decide) rfl, wsub main_v26 (by decide) rfl, wsub main_v27 (by decide) rfl, wsub main_v28 (by decide) rfl, wsub main_v29 (by decide) rfl, wsub main_v30 (by decide) rfl, wsub main_v31 (by decide) rfl, wsub main_v32 (by decide) rfl, wsub main_v33 (by decide) rfl, wsub main_v34 (by decide) rfl, wsub main_v35 (by decide) rfl, wsub main_v36 (by decide) rfl, wsub main_v37 (by decide) rfl, wsub main_v38 (by decide) rfl, wsub main_v39 (by decide) rfl, wsub main_v40 (by decide) rfl, wsub main_v41 (by decide) rfl, wsub main_v42 (by decide) rfl, wsub main_v43 (by decide) rfl, wsub main_v44 (by decide) rfl, wsub main_v45 (by decide) rfl, wsub main_v46 (by decide) rfl, wsub main_v47 (by decide) rfl, wsub main_v48 (by decide) rfl, wsub main_v49 (by decide) rfl, wsub main_v50 (by decide) rfl, wsub main_v51 (by decide) rfl, wsub main_v52 (by decide) rfl, wsub main_v53 (by decide) rfl, wsub main_v54 (by decide) rfl, wsub main_v55 (by decide) rfl, wsub main_v56 (by decide) rfl⟩
/-- A buffer they do not write keeps its contents through them. -/
theorem ops0_keep (V : Valuation τ sig (Elt F)) {r : Ref sig .tc} (h : r ∉ ops0_W) :
    after (ops0 : List (HloOp τ sig (Elt F))) V (Proc.devRef .tc r) = V (Proc.devRef .tc r) :=
  after_of_writes_sub _ V ops0_writes h
/-- They write none of the arguments of @main. -/
theorem ops0_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops0_W := by decide

/-- The operations of the window: its chunks in order. -/
abbrev win0 : List (HloOp τ sig (Elt F)) := ops0
set_option maxHeartbeats 4000000 in
/-- The window of @main is the straight line of these operations. -/
theorem main_part0_eq (c : Dev nD) : main_part0 (F := F) c = seq win0 := rfl
theorem win0_sub : ∀ op ∈ (win0 : List (HloOp τ sig (Elt F))), op.bufs ⊆ tcRefs τ sig :=
  List.forall_iff_forall_mem.mp ops0_sub
theorem win0_fresh : ∀ op ∈ (win0 : List (HloOp τ sig (Elt F))), op.fresh = ∅ :=
  ops0_fresh

end Cert.ReferenceIdeal.RunFold

end
-- ==== Proof.Ref.Chunks1.lean ====
import proofs.«426760_j80470507258346_3_alg».proof.Proof.Gen.ReferenceIdeal
import Idealize.ShloMosaic.Lib.StableHlo.Run
import Idealize.ShloMosaic.Lib.Pipeline.Frame

/-! Operations 61 … 124 of the 655 of the reference program (the window `main_part1` of @main), in 7 chunks `ops1` … `ops7`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 61 … 62 of the 655 of @main, which write `main_v57` … `main_v58` (the index rows and the parameters of layer 0). -/
abbrev ops1 : List (HloOp τ sig (Elt F)) :=
  [ unary main_arg16 main_v57 ((extractStridedSlice S1x1x8 ![1, 0, 0] · slices_S2x3x8_S1x1x8_1_0_0) : (⟨S2x3x8, .f32⟩ : BufTy).Contents (Elt F) → (⟨S1x1x8, .f32⟩ : BufTy).Contents (Elt F)),
    reshape main_v57 main_v58 rfl shapeCasts_S1x1x8_S8 ]
/-- Every buffer these operations touch is a TensorCore reference. -/
theorem ops1_sub : (ops1 : List (HloOp τ sig (Elt F))).Forall fun op => op.bufs ⊆ tcRefs τ sig :=
  ⟨unary_bufs_sub .., reshape_bufs_sub ..⟩
/-- Each of them determines its result. -/
theorem ops1_fresh : ∀ op ∈ (ops1 : List (HloOp τ sig (Elt F))), op.fresh = ∅ :=
  List.forall_iff_forall_mem.mp (show (ops1 : List (HloOp τ sig (Elt F))).Forall (fun op => op.fresh = ∅) from ⟨rfl, rfl⟩)
/-- The buffers they write, in order. -/
abbrev ops1_W : List (Ref sig .tc) := [main_v57, main_v58]
theorem ops1_writes : (ops1 : List (HloOp τ sig (Elt F))).Forall fun op => op.writes ⊆ (ops1_W.map (Proc.devRef (τ := τ) .tc)).toFinset :=
  ⟨wsub main_v57 (by decide) rfl, wsub main_v58 (by decide) rfl⟩
/-- A buffer they do not write keeps its contents through them. -/
theorem ops1_keep (V : Valuation τ sig (Elt F)) {r : Ref sig .tc} (h : r ∉ ops1_W) :
    after (ops1 : List (HloOp τ sig (Elt F))) V (Proc.devRef .tc r) = V (Proc.devRef .tc r) :=
  after_of_writes_sub _ V ops1_writes h
/-- They write none of the arguments of @main. -/
theorem ops1_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops1_W := by decide

/-- Operations 63 … 82 of the 655 of @main, which write `main_v59` … `main_v74` (layer 0, lower graph: edge embedding). -/
abbrev ops2 : List (HloOp τ sig (Elt F)) :=
  [ binary main_arg3 main_v9 main_v59 ((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)),
    unary main_v8 main_v60 (broadcastInDim S1100000x8 ![0, 1] bcast_S1x8_S1100000x8_0_1 : (⟨S1x8, .f32⟩ : BufTy).Contents (Elt F) → (⟨S1100000x8, .f32⟩ : BufTy).Contents (Elt F)),
    nullary main_c (constantI S_ 32 0#32),
    unary main_c main_v61 (broadcastInDim S1100000 ![] bcast_S_S1100000 : (⟨S_, .i32⟩ : BufTy).Contents (Elt F) → (⟨S1100000, .i32⟩ : BufTy).Contents (Elt F)),
    binary main_v1 main_v61 main_v62 (cmpi .slt : (⟨S1100000, .i32⟩ : BufTy).Contents (Elt F) → (⟨S1100000, .i32⟩ : BufTy).Contents (Elt F) → (⟨S1100000, .i1⟩ : BufTy).Contents (Elt F)),
    nullary main_c_2 (constantI S_ 32 100000#32),
    unary main_c_2 main_v63 (broadcastInDim S1100000 ![] bcast_S_S1100000 : (⟨S_, .i32⟩ : BufTy).Contents (Elt F) → (⟨S1100000, .i32⟩ : BufTy).Contents (Elt F)),
    binary main_v1 main_v63 main_v64 (addi : (⟨S1100000, .i32⟩ : BufTy).Contents (Elt F) → (⟨S1100000, .i32⟩ : BufTy).Contents (Elt F) → (⟨S1100000, .i32⟩ : BufTy).Contents (Elt F)),
    ternary main_v62 main_v64 main_v1 main_v65 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v65 main_v66 (broadcastInDim S1100000x1 ![0] bcast_S1100000_S1100000x1_0 : (⟨S1100000, .i32⟩ : BufTy).Contents (Elt F) → (⟨S1100000x1, .i32⟩ : BufTy).Contents (Elt F)),
    binary main_arg0 main_v66 main_v67 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    nullary main_c_3 (constantI S_ 32 0#32),
    unary main_c_3 main_v68 (broadcastInDim S1100000 ![] bcast_S_S1100000 : (⟨S_, .i32⟩ : BufTy).Contents (Elt F) → (⟨S1100000, .i32⟩ : BufTy).Contents (Elt F)),
    binary main_v3 main_v68 main_v69 (cmpi .slt : (⟨S1100000, .i32⟩ : BufTy).Contents (Elt F) → (⟨S1100000, .i32⟩ : BufTy).Contents (Elt F) → (⟨S1100000, .i1⟩ : BufTy).Contents (Elt F)),
    nullary main_c_4 (constantI S_ 32 100000#32),
    unary main_c_4 main_v70 (broadcastInDim S1100000 ![] bcast_S_S1100000 : (⟨S_, .i32⟩ : BufTy).Contents (Elt F) → (⟨S1100000, .i32⟩ : BufTy).Contents (Elt F)),
    binary main_v3 main_v70 main_v71 (addi : (⟨S1100000, .i32⟩ : BufTy).Contents (Elt F) → (⟨S1100000, .i32⟩ : BufTy).Contents (Elt F) → (⟨S1100000, .i32⟩ : BufTy).Contents (Elt F)),
    ternary main_v69 main_v71 main_v3 main_v72 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v72 main_v73 (broadcastInDim S1100000x1 ![0] bcast_S1100000_S1100000x1_0 : (⟨S1100000, .i32⟩ : BufTy).Contents (Elt F) → (⟨S1100000x1, .i32⟩ : BufTy).Contents (Elt F)),
    binary main_arg0 main_v73 main_v74 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) ]
/-- Every buffer these operations touch is a TensorCore reference. -/
theorem ops2_sub : (ops2 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
/-- Each of them determines its result. -/
theorem ops2_fresh : ∀ op ∈ (ops2 : List (HloOp τ sig (Elt F))), op.fresh = ∅ :=
  List.forall_iff_forall_mem.mp (show (ops2 : List (HloOp τ sig (Elt F))).Forall (fun op => op.fresh = ∅) from ⟨rfl, rfl, rfl, rfl, rfl, rfl, rfl, rfl, rfl, rfl, rfl, rfl, rfl, rfl, rfl, rfl, rfl, rfl, rfl, rfl⟩)
/-- The buffers they write, in order. -/
abbrev ops2_W : List (Ref sig .tc) := [main_v59, main_v60, main_c, main_v61, main_v62, main_c_2, main_v63, main_v64, main_v65, main_v66, main_v67, main_c_3, main_v68, main_v69, main_c_4, main_v70, main_v71, main_v72, main_v73, main_v74]
theorem ops2_writes : (ops2 : List (HloOp τ sig (Elt F))).Forall fun op => op.writes ⊆ (ops2_W.map (Proc.devRef (τ := τ) .tc)).toFinset :=
  ⟨wsub main_v59 (by decide) rfl, wsub main_v60 (by decide) rfl, wsub main_c (by decide) rfl, wsub main_v61 (by decide) rfl, wsub main_v62 (by decide) rfl, wsub main_c_2 (by decide) rfl, wsub main_v63 (by decide) rfl, wsub main_v64 (by decide) rfl, wsub main_v65 (by decide) rfl, wsub main_v66 (by decide) rfl, wsub main_v67 (by decide) rfl, wsub main_c_3 (by decide) rfl, wsub main_v68 (by decide) rfl, wsub main_v69 (by decide) rfl, wsub main_c_4 (by decide) rfl, wsub main_v70 (by decide) rfl, wsub main_v71 (by decide) rfl, wsub main_v72 (by decide) rfl, wsub main_v73 (by decide) rfl, wsub main_v74 (by decide) rfl⟩
/-- A buffer they do not write keeps its contents through them. -/
theorem ops2_keep (V : Valuation τ sig (Elt F)) {r : Ref sig .tc} (h : r ∉ ops2_W) :
    after (ops2 : List (HloOp τ sig (Elt F))) V (Proc.devRef .tc r) = V (Proc.devRef .tc r) :=
  after_of_writes_sub _ V ops2_writes h
/-- They write none of the arguments of @main. -/
theorem ops2_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops2_W := by decide

/-- Operations 83 … 94 of the 655 of @main, which write `main_v75` … `main_v84` (layer 0, lower graph: edge embedding). -/
abbrev ops3 : List (HloOp τ sig (Elt F)) :=
  [ nary ![main_v60, main_v67, main_v74, main_v59] main_v75 (fun u => concatenate S1100000x26 1 [⟨S1100000x8, u 0⟩, ⟨S1100000x8, u 1⟩, ⟨S1100000x8, u 2⟩, ⟨S1100000x2, u 3⟩] concatenates_S1100000x8_S1100000x8_S1100000x8_S1100000x2_S1100000x26_d1),
    binary main_v75 main_v12 main_v76 ((fun l r => Host.dotGeneral dot_S1100000x26_S26x32_S1100000x32_1_0_0_1_n_n none l r) : (⟨S1100000x26, .f32⟩ : BufTy).Contents (Elt F) → (⟨S26x32, .f32⟩ : BufTy).Contents (Elt F) → (⟨S1100000x32, .f32⟩ : BufTy).Contents (Elt F)),
    unary main_v14 main_v77 (broadcastInDim S1x32 ![1] bcast_S32_S1x32_1 : (⟨S32, .f32⟩ : BufTy).Contents (Elt F) → (⟨S1x32, .f32⟩ : BufTy).Contents (Elt F)),
    unary main_v77 main_v78 (broadcastInDim S1100000x32 ![0, 1] bcast_S1x32_S1100000x32_0_1 : (⟨S1x32, .f32⟩ : BufTy).Contents (Elt F) → (⟨S1100000x32, .f32⟩ : BufTy).Contents (Elt F)),
    binary main_v76 main_v78 main_v79 (addf : (⟨S1100000x32, .f32⟩ : BufTy).Contents (Elt F) → (⟨S1100000x32, .f32⟩ : BufTy).Contents (Elt F) → (⟨S1100000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1100000x32, .f32⟩) main_call0_v0) (broadcastInDim S1100000x32 ![] bcast_S_S1100000x32),
    TRef.binary (TRef.of (T := ⟨S1100000x32, .f32⟩) main_v79) (TRef.of (T := ⟨S1100000x32, .f32⟩) main_call0_v0) (TRef.of (T := ⟨S1100000x32, .f32⟩) main_v80) maximumf,
    binary main_v80 main_v16 main_v81 ((fun l r => Host.dotGeneral dot_S1100000x32_S32x1_S1100000x1_1_0_0_1_n_n none l r) : (⟨S1100000x32, .f32⟩ : BufTy).Contents (Elt F) → (⟨S32x1, .f32⟩ : BufTy).Contents (Elt F) → (⟨S1100000x1, .f32⟩ : BufTy).Contents (Elt F)),
    unary main_v18 main_v82 (broadcastInDim S1x1 ![1] bcast_S1_S1x1_1 : (⟨S1, .f32⟩ : BufTy).Contents (Elt F) → (⟨S1x1, .f32⟩ : BufTy).Contents (Elt F)),
    unary main_v82 main_v83 (broadcastInDim S1100000x1 ![0, 1] bcast_S1x1_S1100000x1_0_1 : (⟨S1x1, .f32⟩ : BufTy).Contents (Elt F) → (⟨S1100000x1, .f32⟩ : BufTy).Contents (Elt F)),
    binary main_v81 main_v83 main_v84 (addf : (⟨S1100000x1, .f32⟩ : BufTy).Contents (Elt F) → (⟨S1100000x1, .f32⟩ : BufTy).Contents (Elt F) → (⟨S1100000x1, .f32⟩ : BufTy).Contents (Elt F)) ]
/-- Every buffer these operations touch is a TensorCore reference. -/
theorem ops3_sub : (ops3 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops3_fresh : ∀ op ∈ (ops3 : List (HloOp τ sig (Elt F))), op.fresh = ∅ :=
  List.forall_iff_forall_mem.mp (show (ops3 : List (HloOp τ sig (Elt F))).Forall (fun op => op.fresh = ∅) from ⟨rfl, rfl, rfl, rfl, rfl, rfl, rfl, rfl, rfl, rfl, rfl, rfl⟩)
/-- The buffers they write, in order. -/
abbrev ops3_W : List (Ref sig .tc) := [main_v75, main_v76, main_v77, main_v78, main_v79, main_call0_cst, main_call0_v0, main_v80, main_v81, main_v82, main_v83, main_v84]
theorem ops3_writes : (ops3 : List (HloOp τ sig (Elt F))).Forall fun op => op.writes ⊆ (ops3_W.map (Proc.devRef (τ := τ) .tc)).toFinset :=
  ⟨wsub main_v75 (by decide) rfl, wsub main_v76 (by decide) rfl, wsub main_v77 (by decide) rfl, wsub main_v78 (by decide) rfl, wsub main_v79 (by decide) rfl, wsub main_call0_cst (by decide) rfl, wsub main_call0_v0 (by decide) rfl, wsub main_v80 (by decide) rfl, wsub main_v81 (by decide) rfl, wsub main_v82 (by decide) rfl, wsub main_v83 (by decide) rfl, wsub main_v84 (by decide) rfl⟩
/-- A buffer they do not write keeps its contents through them. -/
theorem ops3_keep (V : Valuation τ sig (Elt F)) {r : Ref sig .tc} (h : r ∉ ops3_W) :
    after (ops3 : List (HloOp τ sig (Elt F))) V (Proc.devRef .tc r) = V (Proc.devRef .tc r) :=
  after_of_writes_sub _ V ops3_writes h
/-- They write none of the arguments of @main. -/
theorem ops3_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops3_W := by decide

/-- Operations 95 … 108 of the 655 of @main, which write `main_cst_5` … `main_v94` (layer 0, lower graph: mean aggregation). -/
abbrev ops4 : List (HloOp τ sig (Elt F)) :=
  [ nullary main_cst_5 (constant S_ .f32 0x00000000#32),
    unary main_cst_5 main_v85 (broadcastInDim S100000x1 ![] bcast_S_S100000x1 : (⟨S_, .f32⟩ : BufTy).Contents (Elt F) → (⟨S100000x1, .f32⟩ : BufTy).Contents (Elt F)),
    unary main_v1 main_v86 (broadcastInDim S1100000x1 ![0] bcast_S1100000_S1100000x1_0 : (⟨S1100000, .i32⟩ : BufTy).Contents (Elt F) → (⟨S1100000x1, .i32⟩ : BufTy).Contents (Elt F)),
    ternary main_v85 main_v86 main_v84 main_v87 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_6 (constant S_ .f32 0x3F800000#32),
    unary main_cst_6 main_v88 (broadcastInDim S1100000x1 ![] bcast_S_S1100000x1 : (⟨S_, .f32⟩ : BufTy).Contents (Elt F) → (⟨S1100000x1, .f32⟩ : BufTy).Contents (Elt F)),
    nullary main_cst_7 (constant S_ .f32 0x00000000#32),
    unary main_cst_7 main_v89 (broadcastInDim S100000x1 ![] bcast_S_S100000x1 : (⟨S_, .f32⟩ : BufTy).Contents (Elt F) → (⟨S100000x1, .f32⟩ : BufTy).Contents (Elt F)),
    unary main_v1 main_v90 (broadcastInDim S1100000x1 ![0] bcast_S1100000_S1100000x1_0 : (⟨S1100000, .i32⟩ : BufTy).Contents (Elt F) → (⟨S1100000x1, .i32⟩ : BufTy).Contents (Elt F)),
    ternary main_v89 main_v90 main_v88 main_v91 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_8 (constant S_ .f32 0x3F800000#32),
    unary main_cst_8 main_v92 (broadcastInDim S100000x1 ![] bcast_S_S100000x1 : (⟨S_, .f32⟩ : BufTy).Contents (Elt F) → (⟨S100000x1, .f32⟩ : BufTy).Contents (Elt F)),
    binary main_v91 main_v92 main_v93 (maximumf : (⟨S100000x1, .f32⟩ : BufTy).Contents (Elt F) → (⟨S100000x1, .f32⟩ : BufTy).Contents (Elt F) → (⟨S100000x1, .f32⟩ : BufTy).Contents (Elt F)),
    binary main_v87 main_v93 main_v94 (Host.divf : (⟨S100000x1, .f32⟩ : BufTy).Contents (Elt F) → (⟨S100000x1, .f32⟩ : BufTy).Contents (Elt F) → (⟨S100000x1, .f32⟩ : BufTy).Contents (Elt F)) ]
/-- Every buffer these operations touch is a TensorCore reference. -/
theorem ops4_sub : (ops4 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub ..⟩
/-- Each of them determines its result. -/
theorem ops4_fresh : ∀ op ∈ (ops4 : List (HloOp τ sig (Elt F))), op.fresh = ∅ :=
  List.forall_iff_forall_mem.mp (show (ops4 : List (HloOp τ sig (Elt F))).Forall (fun op => op.fresh = ∅) from ⟨rfl, rfl, rfl, rfl, rfl, rfl, rfl, rfl, rfl, rfl, rfl, rfl, rfl, rfl⟩)
/-- The buffers they write, in order. -/
abbrev ops4_W : List (Ref sig .tc) := [main_cst_5, main_v85, main_v86, main_v87, main_cst_6, main_v88, main_cst_7, main_v89, main_v90, main_v91, main_cst_8, main_v92, main_v93, main_v94]
theorem ops4_writes : (ops4 : List (HloOp τ sig (Elt F))).Forall fun op => op.writes ⊆ (ops4_W.map (Proc.devRef (τ := τ) .tc)).toFinset :=
  ⟨wsub main_cst_5 (by decide) rfl, wsub main_v85 (by decide) rfl, wsub main_v86 (by decide) rfl, wsub main_v87 (by decide) rfl, wsub main_cst_6 (by decide) rfl, wsub main_v88 (by decide) rfl, wsub main_cst_7 (by decide) rfl, wsub main_v89 (by decide) rfl, wsub main_v90 (by decide) rfl, wsub main_v91 (by decide) rfl, wsub main_cst_8 (by decide) rfl, wsub main_v92 (by decide) rfl, wsub main_v93 (by decide) rfl, wsub main_v94 (by decide) rfl⟩
/-- A buffer they do not write keeps its contents through them. -/
theorem ops4_keep (V : Valuation τ sig (Elt F)) {r : Ref sig .tc} (h : r ∉ ops4_W) :
    after (ops4 : List (HloOp τ sig (Elt F))) V (Proc.devRef .tc r) = V (Proc.devRef .tc r) :=
  after_of_writes_sub _ V ops4_writes h
/-- They write none of the arguments of @main. -/
theorem ops4_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops4_W := by decide

/-- Operations 109 … 109 of the 655 of @main, which write `main_v95` … `main_v95` (layer 0, lower graph: node embedding). -/
abbrev ops5 : List (HloOp τ sig (Elt F)) :=
  [ unary main_v8 main_v95 (broadcastInDim S100000x8 ![0, 1] bcast_S1x8_S100000x8_0_1 : (⟨S1x8, .f32⟩ : BufTy).Contents (Elt F) → (⟨S100000x8, .f32⟩ : BufTy).Contents (Elt F)) ]
/-- Every buffer these operations touch is a TensorCore reference. -/
theorem ops5_sub : (ops5 : List (HloOp τ sig (Elt F))).Forall fun op => op.bufs ⊆ tcRefs τ sig :=
  unary_bufs_sub ..
/-- Each of them determines its result. -/
theorem ops5_fresh : ∀ op ∈ (ops5 : List (HloOp τ sig (Elt F))), op.fresh = ∅ :=
  List.forall_iff_forall_mem.mp (show (ops5 : List (HloOp τ sig (Elt F))).Forall (fun op => op.fresh = ∅) from rfl)
/-- The buffers they write, in order. -/
abbrev ops5_W : List (Ref sig .tc) := [main_v95]
theorem ops5_writes : (ops5 : List (HloOp τ sig (Elt F))).Forall fun op => op.writes ⊆ (ops5_W.map (Proc.devRef (τ := τ) .tc)).toFinset :=
  wsub main_v95 (by decide) rfl
/-- A buffer they do not write keeps its contents through them. -/
theorem ops5_keep (V : Valuation τ sig (Elt F)) {r : Ref sig .tc} (h : r ∉ ops5_W) :
    after (ops5 : List (HloOp τ sig (Elt F))) V (Proc.devRef .tc r) = V (Proc.devRef .tc r) :=
  after_of_writes_sub _ V ops5_writes h
/-- They write none of the arguments of @main. -/
theorem ops5_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops5_W := by decide

/-- Operations 110 … 121 of the 655 of @main, which write `main_v96` … `main_v105` (layer 0, lower graph: node embedding). -/
abbrev ops6 : List (HloOp τ sig (Elt F)) :=
  [ nary ![main_v95, main_arg0, main_v94] main_v96 (fun u => concatenate S100000x17 1 [⟨S100000x8, u 0⟩, ⟨S100000x8, u 1⟩, ⟨S100000x1, u 2⟩] concatenates_S100000x8_S100000x8_S100000x1_S100000x17_d1),
    binary main_v96 main_v20 main_v97 ((fun l r => Host.dotGeneral dot_S100000x17_S17x32_S100000x32_1_0_0_1_n_n none l r) : (⟨S100000x17, .f32⟩ : BufTy).Contents (Elt F) → (⟨S17x32, .f32⟩ : BufTy).Contents (Elt F) → (⟨S100000x32, .f32⟩ : BufTy).Contents (Elt F)),
    unary main_v22 main_v98 (broadcastInDim S1x32 ![1] bcast_S32_S1x32_1 : (⟨S32, .f32⟩ : BufTy).Contents (Elt F) → (⟨S1x32, .f32⟩ : BufTy).Contents (Elt F)),
    unary main_v98 main_v99 (broadcastInDim S100000x32 ![0, 1] bcast_S1x32_S100000x32_0_1 : (⟨S1x32, .f32⟩ : BufTy).Contents (Elt F) → (⟨S100000x32, .f32⟩ : BufTy).Contents (Elt F)),
    binary main_v97 main_v99 main_v100 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v100) (TRef.of (T := ⟨S100000x32, .f32⟩) main_call1_v0) (TRef.of (T := ⟨S100000x32, .f32⟩) main_v101) maximumf,
    binary main_v101 main_v24 main_v102 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)),
    unary main_v26 main_v103 (broadcastInDim S1x8 ![1] bcast_S8_S1x8_1 : (⟨S8, .f32⟩ : BufTy).Contents (Elt F) → (⟨S1x8, .f32⟩ : BufTy).Contents (Elt F)),
    unary main_v103 main_v104 (broadcastInDim S100000x8 ![0, 1] bcast_S1x8_S100000x8_0_1 : (⟨S1x8, .f32⟩ : BufTy).Contents (Elt F) → (⟨S100000x8, .f32⟩ : BufTy).Contents (Elt F)),
    binary main_v102 main_v104 main_v105 (addf : (⟨S100000x8, .f32⟩ : BufTy).Contents (Elt F) → (⟨S100000x8, .f32⟩ : BufTy).Contents (Elt F) → (⟨S100000x8, .f32⟩ : BufTy).Contents (Elt F)) ]
/-- Every buffer these operations touch is a TensorCore reference. -/
theorem ops6_sub : (ops6 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops6_fresh : ∀ op ∈ (ops6 : List (HloOp τ sig (Elt F))), op.fresh = ∅ :=
  List.forall_iff_forall_mem.mp (show (ops6 : List (HloOp τ sig (Elt F))).Forall (fun op => op.fresh = ∅) from ⟨rfl, rfl, rfl, rfl, rfl, rfl, rfl, rfl, rfl, rfl, rfl, rfl⟩)
/-- The buffers they write, in order. -/
abbrev ops6_W : List (Ref sig .tc) := [main_v96, main_v97, main_v98, main_v99, main_v100, main_call1_cst, main_call1_v0, main_v101, main_v102, main_v103, main_v104, main_v105]
theorem ops6_writes : (ops6 : List (HloOp τ sig (Elt F))).Forall fun op => op.writes ⊆ (ops6_W.map (Proc.devRef (τ := τ) .tc)).toFinset :=
  ⟨wsub main_v96 (by decide) rfl, wsub main_v97 (by decide) rfl, wsub main_v98 (by decide) rfl, wsub main_v99 (by decide) rfl, wsub main_v100 (by decide) rfl, wsub main_call1_cst (by decide) rfl, wsub main_call1_v0 (by decide) rfl, wsub main_v101 (by decide) rfl, wsub main_v102 (by decide) rfl, wsub main_v103 (by decide) rfl, wsub main_v104 (by decide) rfl, wsub main_v105 (by decide) rfl⟩
/-- A buffer they do not write keeps its contents through them. -/
theorem ops6_keep (V : Valuation τ sig (Elt F)) {r : Ref sig .tc} (h : r ∉ ops6_W) :
    after (ops6 : List (HloOp τ sig (Elt F))) V (Proc.devRef .tc r) = V (Proc.devRef .tc r) :=
  after_of_writes_sub _ V ops6_writes h
/-- They write none of the arguments of @main. -/
theorem ops6_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops6_W := by decide

/-- Operations 122 … 124 of the 655 of @main, which write `main_cst_9` … `main_v107` (layer 0, lower graph: global update). -/
abbrev ops7 : List (HloOp τ sig (Elt F)) :=
  [ nullary main_cst_9 (constant S_ .f32 0x00000000#32),
    binary main_v105 main_cst_9 main_v106 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v106 main_v107 (broadcastInDim S1x8 ![1] bcast_S8_S1x8_1 : (⟨S8, .f32⟩ : BufTy).Contents (Elt F) → (⟨S1x8, .f32⟩ : BufTy).Contents (Elt F)) ]
/-- Every buffer these operations touch is a TensorCore reference. -/
theorem ops7_sub : (ops7 : List (HloOp τ sig (Elt F))).Forall fun op => op.bufs ⊆ tcRefs τ sig :=
  ⟨nullary_bufs_sub .., binary_bufs_sub .., unary_bufs_sub ..⟩
/-- Each of them determines its result. -/
theorem ops7_fresh : ∀ op ∈ (ops7 : List (HloOp τ sig (Elt F))), op.fresh = ∅ :=
  List.forall_iff_forall_mem.mp (show (ops7 : List (HloOp τ sig (Elt F))).Forall (fun op => op.fresh = ∅) from ⟨rfl, rfl, rfl⟩)
/-- The buffers they write, in order. -/
abbrev ops7_W : List (Ref sig .tc) := [main_cst_9, main_v106, main_v107]
theorem ops7_writes : (ops7 : List (HloOp τ sig (Elt F))).Forall fun op => op.writes ⊆ (ops7_W.map (Proc.devRef (τ := τ) .tc)).toFinset :=
  ⟨wsub main_cst_9 (by decide) rfl, wsub main_v106 (by decide) rfl, wsub main_v107 (by decide) rfl⟩
/-- A buffer they do not write keeps its contents through them. -/
theorem ops7_keep (V : Valuation τ sig (Elt F)) {r : Ref sig .tc} (h : r ∉ ops7_W) :
    after (ops7 : List (HloOp τ sig (Elt F))) V (Proc.devRef .tc r) = V (Proc.devRef .tc r) :=
  after_of_writes_sub _ V ops7_writes h
/-- They write none of the arguments of @main. -/
theorem ops7_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops7_W := by decide

/-- The operations of the window: its chunks in order. -/
abbrev win1 : List (HloOp τ sig (Elt F)) := ops1 ++ (ops2 ++ (ops3 ++ (ops4 ++ (ops5 ++ (ops6 ++ (ops7))))))
set_option maxHeartbeats 4000000 in
/-- The window of @main is the straight line of these operations. -/
theorem main_part1_eq (c : Dev nD) : main_part1 (F := F) c = seq win1 := rfl
theorem win1_sub : ∀ op ∈ (win1 : List (HloOp τ sig (Elt F))), op.bufs ⊆ tcRefs τ sig :=
  List.forall_mem_append.mpr ⟨List.forall_iff_forall_mem.mp ops1_sub, List.forall_mem_append.mpr ⟨List.forall_iff_forall_mem.mp ops2_sub, List.forall_mem_append.mpr ⟨List.forall_iff_forall_mem.mp ops3_sub, List.forall_mem_append.mpr ⟨List.forall_iff_forall_mem.mp ops4_sub, List.forall_mem_append.mpr ⟨List.forall_iff_forall_mem.mp ops5_sub, List.forall_mem_append.mpr ⟨List.forall_iff_forall_mem.mp ops6_sub, List.forall_iff_forall_mem.mp ops7_sub⟩⟩⟩⟩⟩⟩
theorem win1_fresh : ∀ op ∈ (win1 : List (HloOp τ sig (Elt F))), op.fresh = ∅ :=
  List.forall_mem_append.mpr ⟨ops1_fresh, List.forall_mem_append.mpr ⟨ops2_fresh, List.forall_mem_append.mpr ⟨ops3_fresh, List.forall_mem_append.mpr ⟨ops4_fresh, List.forall_mem_append.mpr ⟨ops5_fresh, List.forall_mem_append.mpr ⟨ops6_fresh, ops7_fresh⟩⟩⟩⟩⟩⟩

end Cert.ReferenceIdeal.RunFold

end
-- ==== Proof.Ref.Chunks2.lean ====
import proofs.«426760_j80470507258346_3_alg».proof.Proof.Gen.ReferenceIdeal
import Idealize.ShloMosaic.Lib.StableHlo.Run
import Idealize.ShloMosaic.Lib.Pipeline.Frame

/-! Operations 125 … 188 of the 655 of the reference program (the window `main_part2` of @main), in 5 chunks `ops8` … `ops12`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 125 … 133 of the 655 of @main, which write `main_cst_10` … `main_v113` (layer 0, lower graph: global update). -/
abbrev ops8 : List (HloOp τ sig (Elt F)) :=
  [ nullary main_cst_10 (constant S_ .f32 0x47C35000#32),
    unary main_cst_10 main_v108 (broadcastInDim S1x8 ![] bcast_S_S1x8 : (⟨S_, .f32⟩ : BufTy).Contents (Elt F) → (⟨S1x8, .f32⟩ : BufTy).Contents (Elt F)),
    binary main_v107 main_v108 main_v109 (Host.divf : (⟨S1x8, .f32⟩ : BufTy).Contents (Elt F) → (⟨S1x8, .f32⟩ : BufTy).Contents (Elt F) → (⟨S1x8, .f32⟩ : BufTy).Contents (Elt F)),
    nullary main_cst_11 (constant S_ .f32 0x00000000#32),
    binary main_v84 main_cst_11 main_v110 ((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)),
    unary main_v110 main_v111 (broadcastInDim S1x1 ![1] bcast_S1_S1x1_1 : (⟨S1, .f32⟩ : BufTy).Contents (Elt F) → (⟨S1x1, .f32⟩ : BufTy).Contents (Elt F)),
    nullary main_cst_12 (constant S_ .f32 0x49864700#32),
    unary main_cst_12 main_v112 (broadcastInDim S1x1 ![] bcast_S_S1x1 : (⟨S_, .f32⟩ : BufTy).Contents (Elt F) → (⟨S1x1, .f32⟩ : BufTy).Contents (Elt F)),
    binary main_v111 main_v112 main_v113 (Host.divf : (⟨S1x1, .f32⟩ : BufTy).Contents (Elt F) → (⟨S1x1, .f32⟩ : BufTy).Contents (Elt F) → (⟨S1x1, .f32⟩ : BufTy).Contents (Elt F)) ]
/-- Every buffer these operations touch is a TensorCore reference. -/
theorem ops8_sub : (ops8 : List (HloOp τ sig (Elt F))).Forall fun op => op.bufs ⊆ tcRefs τ sig :=
  ⟨nullary_bufs_sub .., unary_bufs_sub .., binary_bufs_sub .., nullary_bufs_sub .., binary_bufs_sub .., unary_bufs_sub .., nullary_bufs_sub .., unary_bufs_sub .., binary_bufs_sub ..⟩
/-- Each of them determines its result. -/
theorem ops8_fresh : ∀ op ∈ (ops8 : List (HloOp τ sig (Elt F))), op.fresh = ∅ :=
  List.forall_iff_forall_mem.mp (show (ops8 : List (HloOp τ sig (Elt F))).Forall (fun op => op.fresh = ∅) from ⟨rfl, rfl, rfl, rfl, rfl, rfl, rfl, rfl, rfl⟩)
/-- The buffers they write, in order. -/
abbrev ops8_W : List (Ref sig .tc) := [main_cst_10, main_v108, main_v109, main_cst_11, main_v110, main_v111, main_cst_12, main_v112, main_v113]
theorem ops8_writes : (ops8 : List (HloOp τ sig (Elt F))).Forall fun op => op.writes ⊆ (ops8_W.map (Proc.devRef (τ := τ) .tc)).toFinset :=
  ⟨wsub main_cst_10 (by decide) rfl, wsub main_v108 (by decide) rfl, wsub main_v109 (by decide) rfl, wsub main_cst_11 (by decide) rfl, wsub main_v110 (by decide) rfl, wsub main_v111 (by decide) rfl, wsub main_cst_12 (by decide) rfl, wsub main_v112 (by decide) rfl, wsub main_v113 (by decide) rfl⟩
/-- A buffer they do not write keeps its contents through them. -/
theorem ops8_keep (V : Valuation τ sig (Elt F)) {r : Ref sig .tc} (h : r ∉ ops8_W) :
    after (ops8 : List (HloOp τ sig (Elt F))) V (Proc.devRef .tc r) = V (Proc.devRef .tc r) :=
  after_of_writes_sub _ V ops8_writes h
/-- They write none of the arguments of @main. -/
theorem ops8_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops8_W := by decide

/-- Operations 134 … 143 of the 655 of @main, which write `main_v114` … `main_v121` (layer 0, lower graph: global update). -/
abbrev ops9 : List (HloOp τ sig (Elt F)) :=
  [ nary ![main_v109, main_v113, main_v8] main_v114 (fun u => concatenate S1x17 1 [⟨S1x8, u 0⟩, ⟨S1x1, u 1⟩, ⟨S1x8, u 2⟩] concatenates_S1x8_S1x1_S1x8_S1x17_d1),
    binary main_v114 main_v28 main_v115 ((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)),
    unary main_v30 main_v116 (broadcastInDim S1x32 ![1] bcast_S32_S1x32_1 : (⟨S32, .f32⟩ : BufTy).Contents (Elt F) → (⟨S1x32, .f32⟩ : BufTy).Contents (Elt F)),
    binary main_v115 main_v116 main_v117 (addf : (⟨S1x32, .f32⟩ : BufTy).Contents (Elt F) → (⟨S1x32, .f32⟩ : BufTy).Contents (Elt F) → (⟨S1x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1x32, .f32⟩) main_call2_v0) (broadcastInDim S1x32 ![] bcast_S_S1x32),
    TRef.binary (TRef.of (T := ⟨S1x32, .f32⟩) main_v117) (TRef.of (T := ⟨S1x32, .f32⟩) main_call2_v0) (TRef.of (T := ⟨S1x32, .f32⟩) main_v118) maximumf,
    binary main_v118 main_v32 main_v119 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)),
    unary main_v34 main_v120 (broadcastInDim S1x8 ![1] bcast_S8_S1x8_1 : (⟨S8, .f32⟩ : BufTy).Contents (Elt F) → (⟨S1x8, .f32⟩ : BufTy).Contents (Elt F)),
    binary main_v119 main_v120 main_v121 (addf : (⟨S1x8, .f32⟩ : BufTy).Contents (Elt F) → (⟨S1x8, .f32⟩ : BufTy).Contents (Elt F) → (⟨S1x8, .f32⟩ : BufTy).Contents (Elt F)) ]
/-- Every buffer these operations touch is a TensorCore reference. -/
theorem ops9_sub : (ops9 : List (HloOp τ sig (Elt F))).Forall fun op => op.bufs ⊆ tcRefs τ sig :=
  ⟨nary_bufs_sub .., binary_bufs_sub .., unary_bufs_sub .., binary_bufs_sub .., nullary_bufs_sub .., unary_bufs_sub .., binary_bufs_sub .., binary_bufs_sub .., unary_bufs_sub .., binary_bufs_sub ..⟩
/-- Each of them determines its result. -/
theorem ops9_fresh : ∀ op ∈ (ops9 : List (HloOp τ sig (Elt F))), op.fresh = ∅ :=
  List.forall_iff_forall_mem.mp (show (ops9 : List (HloOp τ sig (Elt F))).Forall (fun op => op.fresh = ∅) from ⟨rfl, rfl, rfl, rfl, rfl, rfl, rfl, rfl, rfl, rfl⟩)
/-- The buffers they write, in order. -/
abbrev ops9_W : List (Ref sig .tc) := [main_v114, main_v115, main_v116, main_v117, main_call2_cst, main_call2_v0, main_v118, main_v119, main_v120, main_v121]
theorem ops9_writes : (ops9 : List (HloOp τ sig (Elt F))).Forall fun op => op.writes ⊆ (ops9_W.map (Proc.devRef (τ := τ) .tc)).toFinset :=
  ⟨wsub main_v114 (by decide) rfl, wsub main_v115 (by decide) rfl, wsub main_v116 (by decide) rfl, wsub main_v117 (by decide) rfl, wsub main_call2_cst (by decide) rfl, wsub main_call2_v0 (by decide) rfl, wsub main_v118 (by decide) rfl, wsub main_v119 (by decide) rfl, wsub main_v120 (by decide) rfl, wsub main_v121 (by decide) rfl⟩
/-- A buffer they do not write keeps its contents through them. -/
theorem ops9_keep (V : Valuation τ sig (Elt F)) {r : Ref sig .tc} (h : r ∉ ops9_W) :
    after (ops9 : List (HloOp τ sig (Elt F))) V (Proc.devRef .tc r) = V (Proc.devRef .tc r) :=
  after_of_writes_sub _ V ops9_writes h
/-- They write none of the arguments of @main. -/
theorem ops9_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops9_W := by decide

/-- Operations 144 … 163 of the 655 of @main, which write `main_v122` … `main_v137` (layer 0, upper graph: edge embedding). -/
abbrev ops10 : List (HloOp τ sig (Elt F)) :=
  [ binary main_arg4 main_v10 main_v122 ((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)),
    unary main_v121 main_v123 (broadcastInDim S1100000x8 ![0, 1] bcast_S1x8_S1100000x8_0_1 : (⟨S1x8, .f32⟩ : BufTy).Contents (Elt F) → (⟨S1100000x8, .f32⟩ : BufTy).Contents (Elt F)),
    nullary main_c_13 (constantI S_ 32 0#32),
    unary main_c_13 main_v124 (broadcastInDim S1100000 ![] bcast_S_S1100000 : (⟨S_, .i32⟩ : BufTy).Contents (Elt F) → (⟨S1100000, .i32⟩ : BufTy).Contents (Elt F)),
    binary main_v5 main_v124 main_v125 (cmpi .slt : (⟨S1100000, .i32⟩ : BufTy).Contents (Elt F) → (⟨S1100000, .i32⟩ : BufTy).Contents (Elt F) → (⟨S1100000, .i1⟩ : BufTy).Contents (Elt F)),
    nullary main_c_14 (constantI S_ 32 100000#32),
    unary main_c_14 main_v126 (broadcastInDim S1100000 ![] bcast_S_S1100000 : (⟨S_, .i32⟩ : BufTy).Contents (Elt F) → (⟨S1100000, .i32⟩ : BufTy).Contents (Elt F)),
    binary main_v5 main_v126 main_v127 (addi : (⟨S1100000, .i32⟩ : BufTy).Contents (Elt F) → (⟨S1100000, .i32⟩ : BufTy).Contents (Elt F) → (⟨S1100000, .i32⟩ : BufTy).Contents (Elt F)),
    ternary main_v125 main_v127 main_v5 main_v128 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v128 main_v129 (broadcastInDim S1100000x1 ![0] bcast_S1100000_S1100000x1_0 : (⟨S1100000, .i32⟩ : BufTy).Contents (Elt F) → (⟨S1100000x1, .i32⟩ : BufTy).Contents (Elt F)),
    binary main_v105 main_v129 main_v130 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    nullary main_c_15 (constantI S_ 32 0#32),
    unary main_c_15 main_v131 (broadcastInDim S1100000 ![] bcast_S_S1100000 : (⟨S_, .i32⟩ : BufTy).Contents (Elt F) → (⟨S1100000, .i32⟩ : BufTy).Contents (Elt F)),
    binary main_v7 main_v131 main_v132 (cmpi .slt : (⟨S1100000, .i32⟩ : BufTy).Contents (Elt F) → (⟨S1100000, .i32⟩ : BufTy).Contents (Elt F) → (⟨S1100000, .i1⟩ : BufTy).Contents (Elt F)),
    nullary main_c_16 (constantI S_ 32 100000#32),
    unary main_c_16 main_v133 (broadcastInDim S1100000 ![] bcast_S_S1100000 : (⟨S_, .i32⟩ : BufTy).Contents (Elt F) → (⟨S1100000, .i32⟩ : BufTy).Contents (Elt F)),
    binary main_v7 main_v133 main_v134 (addi : (⟨S1100000, .i32⟩ : BufTy).Contents (Elt F) → (⟨S1100000, .i32⟩ : BufTy).Contents (Elt F) → (⟨S1100000, .i32⟩ : BufTy).Contents (Elt F)),
    ternary main_v132 main_v134 main_v7 main_v135 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v135 main_v136 (broadcastInDim S1100000x1 ![0] bcast_S1100000_S1100000x1_0 : (⟨S1100000, .i32⟩ : BufTy).Contents (Elt F) → (⟨S1100000x1, .i32⟩ : BufTy).Contents (Elt F)),
    binary main_v105 main_v136 main_v137 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) ]
/-- Every buffer these operations touch is a TensorCore reference. -/
theorem ops10_sub : (ops10 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
/-- Each of them determines its result. -/
theorem ops10_fresh : ∀ op ∈ (ops10 : List (HloOp τ sig (Elt F))), op.fresh = ∅ :=
  List.forall_iff_forall_mem.mp (show (ops10 : List (HloOp τ sig (Elt F))).Forall (fun op => op.fresh = ∅) from ⟨rfl, rfl, rfl, rfl, rfl, rfl, rfl, rfl, rfl, rfl, rfl, rfl, rfl, rfl, rfl, rfl, rfl, rfl, rfl, rfl⟩)
/-- The buffers they write, in order. -/
abbrev ops10_W : List (Ref sig .tc) := [main_v122, main_v123, main_c_13, main_v124, main_v125, main_c_14, main_v126, main_v127, main_v128, main_v129, main_v130, main_c_15, main_v131, main_v132, main_c_16, main_v133, main_v134, main_v135, main_v136, main_v137]
theorem ops10_writes : (ops10 : List (HloOp τ sig (Elt F))).Forall fun op => op.writes ⊆ (ops10_W.map (Proc.devRef (τ := τ) .tc)).toFinset :=
  ⟨wsub main_v122 (by decide) rfl, wsub main_v123 (by decide) rfl, wsub main_c_13 (by decide) rfl, wsub main_v124 (by decide) rfl, wsub main_v125 (by decide) rfl, wsub main_c_14 (by decide) rfl, wsub main_v126 (by decide) rfl, wsub main_v127 (by decide) rfl, wsub main_v128 (by decide) rfl, wsub main_v129 (by decide) rfl, wsub main_v130 (by decide) rfl, wsub main_c_15 (by decide) rfl, wsub main_v131 (by decide) rfl, wsub main_v132 (by decide) rfl, wsub main_c_16 (by decide) rfl, wsub main_v133 (by decide) rfl, wsub main_v134 (by decide) rfl, wsub main_v135 (by decide) rfl, wsub main_v136 (by decide) rfl, wsub main_v137 (by decide) rfl⟩
/-- A buffer they do not write keeps its contents through them. -/
theorem ops10_keep (V : Valuation τ sig (Elt F)) {r : Ref sig .tc} (h : r ∉ ops10_W) :
    after (ops10 : List (HloOp τ sig (Elt F))) V (Proc.devRef .tc r) = V (Proc.devRef .tc r) :=
  after_of_writes_sub _ V ops10_writes h
/-- They write none of the arguments of @main. -/
theorem ops10_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops10_W := by decide

/-- Operations 164 … 175 of the 655 of @main, which write `main_v138` … `main_v147` (layer 0, upper graph: edge embedding). -/
abbrev ops11 : List (HloOp τ sig (Elt F)) :=
  [ nary ![main_v123, main_v130, main_v137, main_v122] main_v138 (fun u => concatenate S1100000x26 1 [⟨S1100000x8, u 0⟩, ⟨S1100000x8, u 1⟩, ⟨S1100000x8, u 2⟩, ⟨S1100000x2, u 3⟩] concatenates_S1100000x8_S1100000x8_S1100000x8_S1100000x2_S1100000x26_d1),
    binary main_v138 main_v36 main_v139 ((fun l r => Host.dotGeneral dot_S1100000x26_S26x32_S1100000x32_1_0_0_1_n_n none l r) : (⟨S1100000x26, .f32⟩ : BufTy).Contents (Elt F) → (⟨S26x32, .f32⟩ : BufTy).Contents (Elt F) → (⟨S1100000x32, .f32⟩ : BufTy).Contents (Elt F)),
    unary main_v38 main_v140 (broadcastInDim S1x32 ![1] bcast_S32_S1x32_1 : (⟨S32, .f32⟩ : BufTy).Contents (Elt F) → (⟨S1x32, .f32⟩ : BufTy).Contents (Elt F)),
    unary main_v140 main_v141 (broadcastInDim S1100000x32 ![0, 1] bcast_S1x32_S1100000x32_0_1 : (⟨S1x32, .f32⟩ : BufTy).Contents (Elt F) → (⟨S1100000x32, .f32⟩ : BufTy).Contents (Elt F)),
    binary main_v139 main_v141 main_v142 (addf : (⟨S1100000x32, .f32⟩ : BufTy).Contents (Elt F) → (⟨S1100000x32, .f32⟩ : BufTy).Contents (Elt F) → (⟨S1100000x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1100000x32, .f32⟩) main_call3_v0) (broadcastInDim S1100000x32 ![] bcast_S_S1100000x32),
    TRef.binary (TRef.of (T := ⟨S1100000x32, .f32⟩) main_v142) (TRef.of (T := ⟨S1100000x32, .f32⟩) main_call3_v0) (TRef.of (T := ⟨S1100000x32, .f32⟩) main_v143) maximumf,
    binary main_v143 main_v40 main_v144 ((fun l r => Host.dotGeneral dot_S1100000x32_S32x1_S1100000x1_1_0_0_1_n_n none l r) : (⟨S1100000x32, .f32⟩ : BufTy).Contents (Elt F) → (⟨S32x1, .f32⟩ : BufTy).Contents (Elt F) → (⟨S1100000x1, .f32⟩ : BufTy).Contents (Elt F)),
    unary main_v42 main_v145 (broadcastInDim S1x1 ![1] bcast_S1_S1x1_1 : (⟨S1, .f32⟩ : BufTy).Contents (Elt F) → (⟨S1x1, .f32⟩ : BufTy).Contents (Elt F)),
    unary main_v145 main_v146 (broadcastInDim S1100000x1 ![0, 1] bcast_S1x1_S1100000x1_0_1 : (⟨S1x1, .f32⟩ : BufTy).Contents (Elt F) → (⟨S1100000x1, .f32⟩ : BufTy).Contents (Elt F)),
    binary main_v144 main_v146 main_v147 (addf : (⟨S1100000x1, .f32⟩ : BufTy).Contents (Elt F) → (⟨S1100000x1, .f32⟩ : BufTy).Contents (Elt F) → (⟨S1100000x1, .f32⟩ : BufTy).Contents (Elt F)) ]
/-- Every buffer these operations touch is a TensorCore reference. -/
theorem ops11_sub : (ops11 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops11_fresh : ∀ op ∈ (ops11 : List (HloOp τ sig (Elt F))), op.fresh = ∅ :=
  List.forall_iff_forall_mem.mp (show (ops11 : List (HloOp τ sig (Elt F))).Forall (fun op => op.fresh = ∅) from ⟨rfl, rfl, rfl, rfl, rfl, rfl, rfl, rfl, rfl, rfl, rfl, rfl⟩)
/-- The buffers they write, in order. -/
abbrev ops11_W : List (Ref sig .tc) := [main_v138, main_v139, main_v140, main_v141, main_v142, main_call3_cst, main_call3_v0, main_v143, main_v144, main_v145, main_v146, main_v147]
theorem ops11_writes : (ops11 : List (HloOp τ sig (Elt F))).Forall fun op => op.writes ⊆ (ops11_W.map (Proc.devRef (τ := τ) .tc)).toFinset :=
  ⟨wsub main_v138 (by decide) rfl, wsub main_v139 (by decide) rfl, wsub main_v140 (by decide) rfl, wsub main_v141 (by decide) rfl, wsub main_v142 (by decide) rfl, wsub main_call3_cst (by decide) rfl, wsub main_call3_v0 (by decide) rfl, wsub main_v143 (by decide) rfl, wsub main_v144 (by decide) rfl, wsub main_v145 (by decide) rfl, wsub main_v146 (by decide) rfl, wsub main_v147 (by decide) rfl⟩
/-- A buffer they do not write keeps its contents through them. -/
theorem ops11_keep (V : Valuation τ sig (Elt F)) {r : Ref sig .tc} (h : r ∉ ops11_W) :
    after (ops11 : List (HloOp τ sig (Elt F))) V (Proc.devRef .tc r) = V (Proc.devRef .tc r) :=
  after_of_writes_sub _ V ops11_writes h
/-- They write none of the arguments of @main. -/
theorem ops11_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops11_W := by decide

/-- Operations 176 … 188 of the 655 of @main, which write `main_cst_17` … `main_v156` (layer 0, upper graph: mean aggregation). -/
abbrev ops12 : List (HloOp τ sig (Elt F)) :=
  [ nullary main_cst_17 (constant S_ .f32 0x00000000#32),
    unary main_cst_17 main_v148 (broadcastInDim S100000x1 ![] bcast_S_S100000x1 : (⟨S_, .f32⟩ : BufTy).Contents (Elt F) → (⟨S100000x1, .f32⟩ : BufTy).Contents (Elt F)),
    unary main_v5 main_v149 (broadcastInDim S1100000x1 ![0] bcast_S1100000_S1100000x1_0 : (⟨S1100000, .i32⟩ : BufTy).Contents (Elt F) → (⟨S1100000x1, .i32⟩ : BufTy).Contents (Elt F)),
    ternary main_v148 main_v149 main_v147 main_v150 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_18 (constant S_ .f32 0x3F800000#32),
    unary main_cst_18 main_v151 (broadcastInDim S1100000x1 ![] bcast_S_S1100000x1 : (⟨S_, .f32⟩ : BufTy).Contents (Elt F) → (⟨S1100000x1, .f32⟩ : BufTy).Contents (Elt F)),
    nullary main_cst_19 (constant S_ .f32 0x00000000#32),
    unary main_cst_19 main_v152 (broadcastInDim S100000x1 ![] bcast_S_S100000x1 : (⟨S_, .f32⟩ : BufTy).Contents (Elt F) → (⟨S100000x1, .f32⟩ : BufTy).Contents (Elt F)),
    unary main_v5 main_v153 (broadcastInDim S1100000x1 ![0] bcast_S1100000_S1100000x1_0 : (⟨S1100000, .i32⟩ : BufTy).Contents (Elt F) → (⟨S1100000x1, .i32⟩ : BufTy).Contents (Elt F)),
    ternary main_v152 main_v153 main_v151 main_v154 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_20 (constant S_ .f32 0x3F800000#32),
    unary main_cst_20 main_v155 (broadcastInDim S100000x1 ![] bcast_S_S100000x1 : (⟨S_, .f32⟩ : BufTy).Contents (Elt F) → (⟨S100000x1, .f32⟩ : BufTy).Contents (Elt F)),
    binary main_v154 main_v155 main_v156 (maximumf : (⟨S100000x1, .f32⟩ : BufTy).Contents (Elt F) → (⟨S100000x1, .f32⟩ : BufTy).Contents (Elt F) → (⟨S100000x1, .f32⟩ : BufTy).Contents (Elt F)) ]
/-- Every buffer these operations touch is a TensorCore reference. -/
theorem ops12_sub : (ops12 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub ..⟩
/-- Each of them determines its result. -/
theorem ops12_fresh : ∀ op ∈ (ops12 : List (HloOp τ sig (Elt F))), op.fresh = ∅ :=
  List.forall_iff_forall_mem.mp (show (ops12 : List (HloOp τ sig (Elt F))).Forall (fun op => op.fresh = ∅) from ⟨rfl, rfl, rfl, rfl, rfl, rfl, rfl, rfl, rfl, rfl, rfl, rfl, rfl⟩)
/-- The buffers they write, in order. -/
abbrev ops12_W : List (Ref sig .tc) := [main_cst_17, main_v148, main_v149, main_v150, main_cst_18, main_v151, main_cst_19, main_v152, main_v153, main_v154, main_cst_20, main_v155, main_v156]
theorem ops12_writes : (ops12 : List (HloOp τ sig (Elt F))).Forall fun op => op.writes ⊆ (ops12_W.map (Proc.devRef (τ := τ) .tc)).toFinset :=
  ⟨wsub main_cst_17 (by decide) rfl, wsub main_v148 (by decide) rfl, wsub main_v149 (by decide) rfl, wsub main_v150 (by decide) rfl, wsub main_cst_18 (by decide) rfl, wsub main_v151 (by decide) rfl, wsub main_cst_19 (by decide) rfl, wsub main_v152 (by decide) rfl, wsub main_v153 (by decide) rfl, wsub main_v154 (by decide) rfl, wsub main_cst_20 (by decide) rfl, wsub main_v155 (by decide) rfl, wsub main_v156 (by decide) rfl⟩
/-- A buffer they do not write keeps its contents through them. -/
theorem ops12_keep (V : Valuation τ sig (Elt F)) {r : Ref sig .tc} (h : r ∉ ops12_W) :
    after (ops12 : List (HloOp τ sig (Elt F))) V (Proc.devRef .tc r) = V (Proc.devRef .tc r) :=
  after_of_writes_sub _ V ops12_writes h
/-- They write none of the arguments of @main. -/
theorem ops12_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops12_W := by decide

/-- The operations of the window: its chunks in order. -/
abbrev win2 : List (HloOp τ sig (Elt F)) := ops8 ++ (ops9 ++ (ops10 ++ (ops11 ++ (ops12))))
set_option maxHeartbeats 4000000 in
/-- The window of @main is the straight line of these operations. -/
theorem main_part2_eq (c : Dev nD) : main_part2 (F := F) c = seq win2 := rfl
theorem win2_sub : ∀ op ∈ (win2 : List (HloOp τ sig (Elt F))), op.bufs ⊆ tcRefs τ sig :=
  List.forall_mem_append.mpr ⟨List.forall_iff_forall_mem.mp ops8_sub, List.forall_mem_append.mpr ⟨List.forall_iff_forall_mem.mp ops9_sub, List.forall_mem_append.mpr ⟨List.forall_iff_forall_mem.mp ops10_sub, List.forall_mem_append.mpr ⟨List.forall_iff_forall_mem.mp ops11_sub, List.forall_iff_forall_mem.mp ops12_sub⟩⟩⟩⟩
theorem win2_fresh : ∀ op ∈ (win2 : List (HloOp τ sig (Elt F))), op.fresh = ∅ :=
  List.forall_mem_append.mpr ⟨ops8_fresh, List.forall_mem_append.mpr ⟨ops9_fresh, List.forall_mem_append.mpr ⟨ops10_fresh, List.forall_mem_append.mpr ⟨ops11_fresh, ops12_fresh⟩⟩⟩⟩

end Cert.ReferenceIdeal.RunFold

end
-- ==== Proof.Ref.Chunks3.lean ====
import proofs.«426760_j80470507258346_3_alg».proof.Proof.Gen.ReferenceIdeal
import Idealize.ShloMosaic.Lib.StableHlo.Run
import Idealize.ShloMosaic.Lib.Pipeline.Frame

/-! Operations 189 … 252 of the 655 of the reference program (the window `main_part3` of @main), in 6 chunks `ops13` … `ops18`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 189 … 189 of the 655 of @main, which write `main_v157` … `main_v157` (layer 0, upper graph: mean aggregation). -/
abbrev ops13 : List (HloOp τ sig (Elt F)) :=
  [ binary main_v150 main_v156 main_v157 (Host.divf : (⟨S100000x1, .f32⟩ : BufTy).Contents (Elt F) → (⟨S100000x1, .f32⟩ : BufTy).Contents (Elt F) → (⟨S100000x1, .f32⟩ : BufTy).Contents (Elt F)) ]
/-- Every buffer these operations touch is a TensorCore reference. -/
theorem ops13_sub : (ops13 : List (HloOp τ sig (Elt F))).Forall fun op => op.bufs ⊆ tcRefs τ sig :=
  binary_bufs_sub ..
/-- Each of them determines its result. -/
theorem ops13_fresh : ∀ op ∈ (ops13 : List (HloOp τ sig (Elt F))), op.fresh = ∅ :=
  List.forall_iff_forall_mem.mp (show (ops13 : List (HloOp τ sig (Elt F))).Forall (fun op => op.fresh = ∅) from rfl)
/-- The buffers they write, in order. -/
abbrev ops13_W : List (Ref sig .tc) := [main_v157]
theorem ops13_writes : (ops13 : List (HloOp τ sig (Elt F))).Forall fun op => op.writes ⊆ (ops13_W.map (Proc.devRef (τ := τ) .tc)).toFinset :=
  wsub main_v157 (by decide) rfl
/-- A buffer they do not write keeps its contents through them. -/
theorem ops13_keep (V : Valuation τ sig (Elt F)) {r : Ref sig .tc} (h : r ∉ ops13_W) :
    after (ops13 : List (HloOp τ sig (Elt F))) V (Proc.devRef .tc r) = V (Proc.devRef .tc r) :=
  after_of_writes_sub _ V ops13_writes h
/-- They write none of the arguments of @main. -/
theorem ops13_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops13_W := by decide

/-- Operations 190 … 190 of the 655 of @main, which write `main_v158` … `main_v158` (layer 0, upper graph: node embedding). -/
abbrev ops14 : List (HloOp τ sig (Elt F)) :=
  [ unary main_v121 main_v158 (broadcastInDim S100000x8 ![0, 1] bcast_S1x8_S100000x8_0_1 : (⟨S1x8, .f32⟩ : BufTy).Contents (Elt F) → (⟨S100000x8, .f32⟩ : BufTy).Contents (Elt F)) ]
/-- Every buffer these operations touch is a TensorCore reference. -/
theorem ops14_sub : (ops14 : List (HloOp τ sig (Elt F))).Forall fun op => op.bufs ⊆ tcRefs τ sig :=
  unary_bufs_sub ..
/-- Each of them determines its result. -/
theorem ops14_fresh : ∀ op ∈ (ops14 : List (HloOp τ sig (Elt F))), op.fresh = ∅ :=
  List.forall_iff_forall_mem.mp (show (ops14 : List (HloOp τ sig (Elt F))).Forall (fun op => op.fresh = ∅) from rfl)
/-- The buffers they write, in order. -/
abbrev ops14_W : List (Ref sig .tc) := [main_v158]
theorem ops14_writes : (ops14 : List (HloOp τ sig (Elt F))).Forall fun op => op.writes ⊆ (ops14_W.map (Proc.devRef (τ := τ) .tc)).toFinset :=
  wsub main_v158 (by decide) rfl
/-- A buffer they do not write keeps its contents through them. -/
theorem ops14_keep (V : Valuation τ sig (Elt F)) {r : Ref sig .tc} (h : r ∉ ops14_W) :
    after (ops14 : List (HloOp τ sig (Elt F))) V (Proc.devRef .tc r) = V (Proc.devRef .tc r) :=
  after_of_writes_sub _ V ops14_writes h
/-- They write none of the arguments of @main. -/
theorem ops14_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops14_W := by decide

/-- Operations 191 … 202 of the 655 of @main, which write `main_v159` … `main_v168` (layer 0, upper graph: node embedding). -/
abbrev ops15 : List (HloOp τ sig (Elt F)) :=
  [ nary ![main_v158, main_v105, main_v157] main_v159 (fun u => concatenate S100000x17 1 [⟨S100000x8, u 0⟩, ⟨S100000x8, u 1⟩, ⟨S100000x1, u 2⟩] concatenates_S100000x8_S100000x8_S100000x1_S100000x17_d1),
    binary main_v159 main_v44 main_v160 ((fun l r => Host.dotGeneral dot_S100000x17_S17x32_S100000x32_1_0_0_1_n_n none l r) : (⟨S100000x17, .f32⟩ : BufTy).Contents (Elt F) → (⟨S17x32, .f32⟩ : BufTy).Contents (Elt F) → (⟨S100000x32, .f32⟩ : BufTy).Contents (Elt F)),
    unary main_v46 main_v161 (broadcastInDim S1x32 ![1] bcast_S32_S1x32_1 : (⟨S32, .f32⟩ : BufTy).Contents (Elt F) → (⟨S1x32, .f32⟩ : BufTy).Contents (Elt F)),
    unary main_v161 main_v162 (broadcastInDim S100000x32 ![0, 1] bcast_S1x32_S100000x32_0_1 : (⟨S1x32, .f32⟩ : BufTy).Contents (Elt F) → (⟨S100000x32, .f32⟩ : BufTy).Contents (Elt F)),
    binary main_v160 main_v162 main_v163 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x32, .f32⟩) main_call4_v0) (broadcastInDim S100000x32 ![] bcast_S_S100000x32),
    TRef.binary (TRef.of (T := ⟨S100000x32, .f32⟩) main_v163) (TRef.of (T := ⟨S100000x32, .f32⟩) main_call4_v0) (TRef.of (T := ⟨S100000x32, .f32⟩) main_v164) maximumf,
    binary main_v164 main_v48 main_v165 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)),
    unary main_v50 main_v166 (broadcastInDim S1x8 ![1] bcast_S8_S1x8_1 : (⟨S8, .f32⟩ : BufTy).Contents (Elt F) → (⟨S1x8, .f32⟩ : BufTy).Contents (Elt F)),
    unary main_v166 main_v167 (broadcastInDim S100000x8 ![0, 1] bcast_S1x8_S100000x8_0_1 : (⟨S1x8, .f32⟩ : BufTy).Contents (Elt F) → (⟨S100000x8, .f32⟩ : BufTy).Contents (Elt F)),
    binary main_v165 main_v167 main_v168 (addf : (⟨S100000x8, .f32⟩ : BufTy).Contents (Elt F) → (⟨S100000x8, .f32⟩ : BufTy).Contents (Elt F) → (⟨S100000x8, .f32⟩ : BufTy).Contents (Elt F)) ]
/-- Every buffer these operations touch is a TensorCore reference. -/
theorem ops15_sub : (ops15 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops15_fresh : ∀ op ∈ (ops15 : List (HloOp τ sig (Elt F))), op.fresh = ∅ :=
  List.forall_iff_forall_mem.mp (show (ops15 : List (HloOp τ sig (Elt F))).Forall (fun op => op.fresh = ∅) from ⟨rfl, rfl, rfl, rfl, rfl, rfl, rfl, rfl, rfl, rfl, rfl, rfl⟩)
/-- The buffers they write, in order. -/
abbrev ops15_W : List (Ref sig .tc) := [main_v159, main_v160, main_v161, main_v162, main_v163, main_call4_cst, main_call4_v0, main_v164, main_v165, main_v166, main_v167, main_v168]
theorem ops15_writes : (ops15 : List (HloOp τ sig (Elt F))).Forall fun op => op.writes ⊆ (ops15_W.map (Proc.devRef (τ := τ) .tc)).toFinset :=
  ⟨wsub main_v159 (by decide) rfl, wsub main_v160 (by decide) rfl, wsub main_v161 (by decide) rfl, wsub main_v162 (by decide) rfl, wsub main_v163 (by decide) rfl, wsub main_call4_cst (by decide) rfl, wsub main_call4_v0 (by decide) rfl, wsub main_v164 (by decide) rfl, wsub main_v165 (by decide) rfl, wsub main_v166 (by decide) rfl, wsub main_v167 (by decide) rfl, wsub main_v168 (by decide) rfl⟩
/-- A buffer they do not write keeps its contents through them. -/
theorem ops15_keep (V : Valuation τ sig (Elt F)) {r : Ref sig .tc} (h : r ∉ ops15_W) :
    after (ops15 : List (HloOp τ sig (Elt F))) V (Proc.devRef .tc r) = V (Proc.devRef .tc r) :=
  after_of_writes_sub _ V ops15_writes h
/-- They write none of the arguments of @main. -/
theorem ops15_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops15_W := by decide

/-- Operations 203 … 214 of the 655 of @main, which write `main_cst_21` … `main_v176` (layer 0, upper graph: global update). -/
abbrev ops16 : List (HloOp τ sig (Elt F)) :=
  [ nullary main_cst_21 (constant S_ .f32 0x00000000#32),
    binary main_v168 main_cst_21 main_v169 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v169 main_v170 (broadcastInDim S1x8 ![1] bcast_S8_S1x8_1 : (⟨S8, .f32⟩ : BufTy).Contents (Elt F) → (⟨S1x8, .f32⟩ : BufTy).Contents (Elt F)),
    nullary main_cst_22 (constant S_ .f32 0x47C35000#32),
    unary main_cst_22 main_v171 (broadcastInDim S1x8 ![] bcast_S_S1x8 : (⟨S_, .f32⟩ : BufTy).Contents (Elt F) → (⟨S1x8, .f32⟩ : BufTy).Contents (Elt F)),
    binary main_v170 main_v171 main_v172 (Host.divf : (⟨S1x8, .f32⟩ : BufTy).Contents (Elt F) → (⟨S1x8, .f32⟩ : BufTy).Contents (Elt F) → (⟨S1x8, .f32⟩ : BufTy).Contents (Elt F)),
    nullary main_cst_23 (constant S_ .f32 0x00000000#32),
    binary main_v147 main_cst_23 main_v173 ((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)),
    unary main_v173 main_v174 (broadcastInDim S1x1 ![1] bcast_S1_S1x1_1 : (⟨S1, .f32⟩ : BufTy).Contents (Elt F) → (⟨S1x1, .f32⟩ : BufTy).Contents (Elt F)),
    nullary main_cst_24 (constant S_ .f32 0x49864700#32),
    unary main_cst_24 main_v175 (broadcastInDim S1x1 ![] bcast_S_S1x1 : (⟨S_, .f32⟩ : BufTy).Contents (Elt F) → (⟨S1x1, .f32⟩ : BufTy).Contents (Elt F)),
    binary main_v174 main_v175 main_v176 (Host.divf : (⟨S1x1, .f32⟩ : BufTy).Contents (Elt F) → (⟨S1x1, .f32⟩ : BufTy).Contents (Elt F) → (⟨S1x1, .f32⟩ : BufTy).Contents (Elt F)) ]
/-- Every buffer these operations touch is a TensorCore reference. -/
theorem ops16_sub : (ops16 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub ..⟩
/-- Each of them determines its result. -/
theorem ops16_fresh : ∀ op ∈ (ops16 : List (HloOp τ sig (Elt F))), op.fresh = ∅ :=
  List.forall_iff_forall_mem.mp (show (ops16 : List (HloOp τ sig (Elt F))).Forall (fun op => op.fresh = ∅) from ⟨rfl, rfl, rfl, rfl, rfl, rfl, rfl, rfl, rfl, rfl, rfl, rfl⟩)
/-- The buffers they write, in order. -/
abbrev ops16_W : List (Ref sig .tc) := [main_cst_21, main_v169, main_v170, main_cst_22, main_v171, main_v172, main_cst_23, main_v173, main_v174, main_cst_24, main_v175, main_v176]
theorem ops16_writes : (ops16 : List (HloOp τ sig (Elt F))).Forall fun op => op.writes ⊆ (ops16_W.map (Proc.devRef (τ := τ) .tc)).toFinset :=
  ⟨wsub main_cst_21 (by decide) rfl, wsub main_v169 (by decide) rfl, wsub main_v170 (by decide) rfl, wsub main_cst_22 (by decide) rfl, wsub main_v171 (by decide) rfl, wsub main_v172 (by decide) rfl, wsub main_cst_23 (by decide) rfl, wsub main_v173 (by decide) rfl, wsub main_v174 (by decide) rfl, wsub main_cst_24 (by decide) rfl, wsub main_v175 (by decide) rfl, wsub main_v176 (by decide) rfl⟩
/-- A buffer they do not write keeps its contents through them. -/
theorem ops16_keep (V : Valuation τ sig (Elt F)) {r : Ref sig .tc} (h : r ∉ ops16_W) :
    after (ops16 : List (HloOp τ sig (Elt F))) V (Proc.devRef .tc r) = V (Proc.devRef .tc r) :=
  after_of_writes_sub _ V ops16_writes h
/-- They write none of the arguments of @main. -/
theorem ops16_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops16_W := by decide

/-- Operations 215 … 224 of the 655 of @main, which write `main_v177` … `main_v184` (layer 0, upper graph: global update). -/
abbrev ops17 : List (HloOp τ sig (Elt F)) :=
  [ nary ![main_v172, main_v176, main_v121] main_v177 (fun u => concatenate S1x17 1 [⟨S1x8, u 0⟩, ⟨S1x1, u 1⟩, ⟨S1x8, u 2⟩] concatenates_S1x8_S1x1_S1x8_S1x17_d1),
    binary main_v177 main_v52 main_v178 ((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)),
    unary main_v54 main_v179 (broadcastInDim S1x32 ![1] bcast_S32_S1x32_1 : (⟨S32, .f32⟩ : BufTy).Contents (Elt F) → (⟨S1x32, .f32⟩ : BufTy).Contents (Elt F)),
    binary main_v178 main_v179 main_v180 (addf : (⟨S1x32, .f32⟩ : BufTy).Contents (Elt F) → (⟨S1x32, .f32⟩ : BufTy).Contents (Elt F) → (⟨S1x32, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1x32, .f32⟩) main_call5_v0) (broadcastInDim S1x32 ![] bcast_S_S1x32),
    TRef.binary (TRef.of (T := ⟨S1x32, .f32⟩) main_v180) (TRef.of (T := ⟨S1x32, .f32⟩) main_call5_v0) (TRef.of (T := ⟨S1x32, .f32⟩) main_v181) maximumf,
    binary main_v181 main_v56 main_v182 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)),
    unary main_v58 main_v183 (broadcastInDim S1x8 ![1] bcast_S8_S1x8_1 : (⟨S8, .f32⟩ : BufTy).Contents (Elt F) → (⟨S1x8, .f32⟩ : BufTy).Contents (Elt F)),
    binary main_v182 main_v183 main_v184 (addf : (⟨S1x8, .f32⟩ : BufTy).Contents (Elt F) → (⟨S1x8, .f32⟩ : BufTy).Contents (Elt F) → (⟨S1x8, .f32⟩ : BufTy).Contents (Elt F)) ]
/-- Every buffer these operations touch is a TensorCore reference. -/
theorem ops17_sub : (ops17 : List (HloOp τ sig (Elt F))).Forall fun op => op.bufs ⊆ tcRefs τ sig :=
  ⟨nary_bufs_sub .., binary_bufs_sub .., unary_bufs_sub .., binary_bufs_sub .., nullary_bufs_sub .., unary_bufs_sub .., binary_bufs_sub .., binary_bufs_sub .., unary_bufs_sub .., binary_bufs_sub ..⟩
/-- Each of them determines its result. -/
theorem ops17_fresh : ∀ op ∈ (ops17 : List (HloOp τ sig (Elt F))), op.fresh = ∅ :=
  List.forall_iff_forall_mem.mp (show (ops17 : List (HloOp τ sig (Elt F))).Forall (fun op => op.fresh = ∅) from ⟨rfl, rfl, rfl, rfl, rfl, rfl, rfl, rfl, rfl, rfl⟩)
/-- The buffers they write, in order. -/
abbrev ops17_W : List (Ref sig .tc) := [main_v177, main_v178, main_v179, main_v180, main_call5_cst, main_call5_v0, main_v181, main_v182, main_v183, main_v184]
theorem ops17_writes : (ops17 : List (HloOp τ sig (Elt F))).Forall fun op => op.writes ⊆ (ops17_W.map (Proc.devRef (τ := τ) .tc)).toFinset :=
  ⟨wsub main_v177 (by decide) rfl, wsub main_v178 (by decide) rfl, wsub main_v179 (by decide) rfl, wsub main_v180 (by decide) rfl, wsub main_call5_cst (by decide) rfl, wsub main_call5_v0 (by decide) rfl, wsub main_v181 (by decide) rfl, wsub main_v182 (by decide) rfl, wsub main_v183 (by decide) rfl, wsub main_v184 (by decide) rfl⟩
/-- A buffer they do not write keeps its contents through them. -/
theorem ops17_keep (V : Valuation τ sig (Elt F)) {r : Ref sig .tc} (h : r ∉ ops17_W) :
    after (ops17 : List (HloOp τ sig (Elt F))) V (Proc.devRef .tc r) = V (Proc.devRef .tc r) :=
  after_of_writes_sub _ V ops17_writes h
/-- They write none of the arguments of @main. -/
theorem ops17_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops17_W := by decide

/-- Operations 225 … 252 of the 655 of @main, which write `main_v185` … `main_v212` (the parameters of layer 1). -/
abbrev ops18 : List (HloOp τ sig (Elt F)) :=
  [ unary main_arg5 main_v185 ((extractStridedSlice S1x1x26x32 ![0, 1, 0, 0] · slices_S2x3x26x32_S1x1x26x32_0_1_0_0) : (⟨S2x3x26x32, .f32⟩ : BufTy).Contents (Elt F) → (⟨S1x1x26x32, .f32⟩ : BufTy).Contents (Elt F)),
    reshape main_v185 main_v186 rfl shapeCasts_S1x1x26x32_S26x32,
    unary main_arg6 main_v187 ((extractStridedSlice S1x1x32 ![0, 1, 0] · slices_S2x3x32_S1x1x32_0_1_0) : (⟨S2x3x32, .f32⟩ : BufTy).Contents (Elt F) → (⟨S1x1x32, .f32⟩ : BufTy).Contents (Elt F)),
    reshape main_v187 main_v188 rfl shapeCasts_S1x1x32_S32,
    unary main_arg7 main_v189 ((extractStridedSlice S1x1x32x1 ![0, 1, 0, 0] · slices_S2x3x32x1_S1x1x32x1_0_1_0_0) : (⟨S2x3x32x1, .f32⟩ : BufTy).Contents (Elt F) → (⟨S1x1x32x1, .f32⟩ : BufTy).Contents (Elt F)),
    reshape main_v189 main_v190 rfl shapeCasts_S1x1x32x1_S32x1,
    unary main_arg8 main_v191 ((extractStridedSlice S1x1x1 ![0, 1, 0] · slices_S2x3x1_S1x1x1_0_1_0) : (⟨S2x3x1, .f32⟩ : BufTy).Contents (Elt F) → (⟨S1x1x1, .f32⟩ : BufTy).Contents (Elt F)),
    reshape main_v191 main_v192 rfl shapeCasts_S1x1x1_S1,
    unary main_arg9 main_v193 ((extractStridedSlice S1x1x17x32 ![0, 1, 0, 0] · slices_S2x3x17x32_S1x1x17x32_0_1_0_0) : (⟨S2x3x17x32, .f32⟩ : BufTy).Contents (Elt F) → (⟨S1x1x17x32, .f32⟩ : BufTy).Contents (Elt F)),
    reshape main_v193 main_v194 rfl shapeCasts_S1x1x17x32_S17x32,
    unary main_arg10 main_v195 ((extractStridedSlice S1x1x32 ![0, 1, 0] · slices_S2x3x32_S1x1x32_0_1_0) : (⟨S2x3x32, .f32⟩ : BufTy).Contents (Elt F) → (⟨S1x1x32, .f32⟩ : BufTy).Contents (Elt F)),
    reshape main_v195 main_v196 rfl shapeCasts_S1x1x32_S32,
    unary main_arg11 main_v197 ((extractStridedSlice S1x1x32x8 ![0, 1, 0, 0] · slices_S2x3x32x8_S1x1x32x8_0_1_0_0) : (⟨S2x3x32x8, .f32⟩ : BufTy).Contents (Elt F) → (⟨S1x1x32x8, .f32⟩ : BufTy).Contents (Elt F)),
    reshape main_v197 main_v198 rfl shapeCasts_S1x1x32x8_S32x8,
    unary main_arg12 main_v199 ((extractStridedSlice S1x1x8 ![0, 1, 0] · slices_S2x3x8_S1x1x8_0_1_0) : (⟨S2x3x8, .f32⟩ : BufTy).Contents (Elt F) → (⟨S1x1x8, .f32⟩ : BufTy).Contents (Elt F)),
    reshape main_v199 main_v200 rfl shapeCasts_S1x1x8_S8,
    unary main_arg13 main_v201 ((extractStridedSlice S1x1x17x32 ![0, 1, 0, 0] · slices_S2x3x17x32_S1x1x17x32_0_1_0_0) : (⟨S2x3x17x32, .f32⟩ : BufTy).Contents (Elt F) → (⟨S1x1x17x32, .f32⟩ : BufTy).Contents (Elt F)),
    reshape main_v201 main_v202 rfl shapeCasts_S1x1x17x32_S17x32,
    unary main_arg14 main_v203 ((extractStridedSlice S1x1x32 ![0, 1, 0] · slices_S2x3x32_S1x1x32_0_1_0) : (⟨S2x3x32, .f32⟩ : BufTy).Contents (Elt F) → (⟨S1x1x32, .f32⟩ : BufTy).Contents (Elt F)),
    reshape main_v203 main_v204 rfl shapeCasts_S1x1x32_S32,
    unary main_arg15 main_v205 ((extractStridedSlice S1x1x32x8 ![0, 1, 0, 0] · slices_S2x3x32x8_S1x1x32x8_0_1_0_0) : (⟨S2x3x32x8, .f32⟩ : BufTy).Contents (Elt F) → (⟨S1x1x32x8, .f32⟩ : BufTy).Contents (Elt F)),
    reshape main_v205 main_v206 rfl shapeCasts_S1x1x32x8_S32x8,
    unary main_arg16 main_v207 ((extractStridedSlice S1x1x8 ![0, 1, 0] · slices_S2x3x8_S1x1x8_0_1_0) : (⟨S2x3x8, .f32⟩ : BufTy).Contents (Elt F) → (⟨S1x1x8, .f32⟩ : BufTy).Contents (Elt F)),
    reshape main_v207 main_v208 rfl shapeCasts_S1x1x8_S8,
    unary main_arg5 main_v209 ((extractStridedSlice S1x1x26x32 ![1, 1, 0, 0] · slices_S2x3x26x32_S1x1x26x32_1_1_0_0) : (⟨S2x3x26x32, .f32⟩ : BufTy).Contents (Elt F) → (⟨S1x1x26x32, .f32⟩ : BufTy).Contents (Elt F)),
    reshape main_v209 main_v210 rfl shapeCasts_S1x1x26x32_S26x32,
    unary main_arg6 main_v211 ((extractStridedSlice S1x1x32 ![1, 1, 0] · slices_S2x3x32_S1x1x32_1_1_0) : (⟨S2x3x32, .f32⟩ : BufTy).Contents (Elt F) → (⟨S1x1x32, .f32⟩ : BufTy).Contents (Elt F)),
    reshape main_v211 main_v212 rfl shapeCasts_S1x1x32_S32 ]
/-- Every buffer these operations touch is a TensorCore reference. -/
theorem ops18_sub : (ops18 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
/-- Each of them determines its result. -/
theorem ops18_fresh : ∀ op ∈ (ops18 : List (HloOp τ sig (Elt F))), op.fresh = ∅ :=
  List.forall_iff_forall_mem.mp (show (ops18 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl⟩)
/-- The buffers they write, in order. -/
abbrev ops18_W : List (Ref sig .tc) := [main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212]
theorem ops18_writes : (ops18 : List (HloOp τ sig (Elt F))).Forall fun op => op.writes ⊆ (ops18_W.map (Proc.devRef (τ := τ) .tc)).toFinset :=
  ⟨wsub main_v185 (by decide) rfl, wsub main_v186 (by decide) rfl, wsub main_v187 (by decide) rfl, wsub main_v188 (by decide) rfl, wsub main_v189 (by decide) rfl, wsub main_v190 (by decide) rfl, wsub main_v191 (by decide) rfl, wsub main_v192 (by decide) rfl, wsub main_v193 (by decide) rfl, wsub main_v194 (by decide) rfl, wsub main_v195 (by decide) rfl, wsub main_v196 (by decide) rfl, wsub main_v197 (by decide) rfl, wsub main_v198 (by decide) rfl, wsub main_v199 (by decide) rfl, wsub main_v200 (by decide) rfl, wsub main_v201 (by decide) rfl, wsub main_v202 (by decide) rfl, wsub main_v203 (by decide) rfl, wsub main_v204 (by decide) rfl, wsub main_v205 (by decide) rfl, wsub main_v206 (by decide) rfl, wsub main_v207 (by decide) rfl, wsub main_v208 (by decide) rfl, wsub main_v209 (by decide) rfl, wsub main_v210 (by decide) rfl, wsub main_v211 (by decide) rfl, wsub main_v212 (by decide) rfl⟩
/-- A buffer they do not write keeps its contents through them. -/
theorem ops18_keep (V : Valuation τ sig (Elt F)) {r : Ref sig .tc} (h : r ∉ ops18_W) :
    after (ops18 : List (HloOp τ sig (Elt F))) V (Proc.devRef .tc r) = V (Proc.devRef .tc r) :=
  after_of_writes_sub _ V ops18_writes h
/-- They write none of the arguments of @main. -/
theorem ops18_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops18_W := by decide

/-- The operations of the window: its chunks in order. -/
abbrev win3 : List (HloOp τ sig (Elt F)) := ops13 ++ (ops14 ++ (ops15 ++ (ops16 ++ (ops17 ++ (ops18)))))
set_option maxHeartbeats 4000000 in
/-- The window of @main is the straight line of these operations. -/
theorem main_part3_eq (c : Dev nD) : main_part3 (F := F) c = seq win3 := rfl
theorem win3_sub : ∀ op ∈ (win3 : List (HloOp τ sig (Elt F))), op.bufs ⊆ tcRefs τ sig :=
  List.forall_mem_append.mpr ⟨List.forall_iff_forall_mem.mp ops13_sub, List.forall_mem_append.mpr ⟨List.forall_iff_forall_mem.mp ops14_sub, List.forall_mem_append.mpr ⟨List.forall_iff_forall_mem.mp ops15_sub, List.forall_mem_append.mpr ⟨List.forall_iff_forall_mem.mp ops16_sub, List.forall_mem_append.mpr ⟨List.forall_iff_forall_mem.mp ops17_sub, List.forall_iff_forall_mem.mp ops18_sub⟩⟩⟩⟩⟩
theorem win3_fresh : ∀ op ∈ (win3 : List (HloOp τ sig (Elt F))), op.fresh = ∅ :=
  List.forall_mem_append.mpr ⟨ops13_fresh, List.forall_mem_append.mpr ⟨ops14_fresh, List.forall_mem_append.mpr ⟨ops15_fresh, List.forall_mem_append.mpr ⟨ops16_fresh, List.forall_mem_append.mpr ⟨ops17_fresh, ops18_fresh⟩⟩⟩⟩⟩

end Cert.ReferenceIdeal.RunFold

end
-- ==== Proof.Ref.Chunks4.lean ====
import proofs.«426760_j80470507258346_3_alg».proof.Proof.Gen.ReferenceIdeal
import Idealize.ShloMosaic.Lib.StableHlo.Run
import Idealize.ShloMosaic.Lib.Pipeline.Frame

/-! Operations 253 … 314 of the 655 of the reference program (the window `main_part4` of @main), in 4 chunks `ops19` … `ops22`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 253 … 272 of the 655 of @main, which write `main_v213` … `main_v232` (the parameters of layer 1). -/
abbrev ops19 : List (HloOp τ sig (Elt F)) :=
  [ unary main_arg7 main_v213 ((extractStridedSlice S1x1x32x1 ![1, 1, 0, 0] · slices_S2x3x32x1_S1x1x32x1_1_1_0_0) : (⟨S2x3x32x1, .f32⟩ : BufTy).Contents (Elt F) → (⟨S1x1x32x1, .f32⟩ : BufTy).Contents (Elt F)),
    reshape main_v213 main_v214 rfl shapeCasts_S1x1x32x1_S32x1,
    unary main_arg8 main_v215 ((extractStridedSlice S1x1x1 ![1, 1, 0] · slices_S2x3x1_S1x1x1_1_1_0) : (⟨S2x3x1, .f32⟩ : BufTy).Contents (Elt F) → (⟨S1x1x1, .f32⟩ : BufTy).Contents (Elt F)),
    reshape main_v215 main_v216 rfl shapeCasts_S1x1x1_S1,
    unary main_arg9 main_v217 ((extractStridedSlice S1x1x17x32 ![1, 1, 0, 0] · slices_S2x3x17x32_S1x1x17x32_1_1_0_0) : (⟨S2x3x17x32, .f32⟩ : BufTy).Contents (Elt F) → (⟨S1x1x17x32, .f32⟩ : BufTy).Contents (Elt F)),
    reshape main_v217 main_v218 rfl shapeCasts_S1x1x17x32_S17x32,
    unary main_arg10 main_v219 ((extractStridedSlice S1x1x32 ![1, 1, 0] · slices_S2x3x32_S1x1x32_1_1_0) : (⟨S2x3x32, .f32⟩ : BufTy).Contents (Elt F) → (⟨S1x1x32, .f32⟩ : BufTy).Contents (Elt F)),
    reshape main_v219 main_v220 rfl shapeCasts_S1x1x32_S32,
    unary main_arg11 main_v221 ((extractStridedSlice S1x1x32x8 ![1, 1, 0, 0] · slices_S2x3x32x8_S1x1x32x8_1_1_0_0) : (⟨S2x3x32x8, .f32⟩ : BufTy).Contents (Elt F) → (⟨S1x1x32x8, .f32⟩ : BufTy).Contents (Elt F)),
    reshape main_v221 main_v222 rfl shapeCasts_S1x1x32x8_S32x8,
    unary main_arg12 main_v223 ((extractStridedSlice S1x1x8 ![1, 1, 0] · slices_S2x3x8_S1x1x8_1_1_0) : (⟨S2x3x8, .f32⟩ : BufTy).Contents (Elt F) → (⟨S1x1x8, .f32⟩ : BufTy).Contents (Elt F)),
    reshape main_v223 main_v224 rfl shapeCasts_S1x1x8_S8,
    unary main_arg13 main_v225 ((extractStridedSlice S1x1x17x32 ![1, 1, 0, 0] · slices_S2x3x17x32_S1x1x17x32_1_1_0_0) : (⟨S2x3x17x32, .f32⟩ : BufTy).Contents (Elt F) → (⟨S1x1x17x32, .f32⟩ : BufTy).Contents (Elt F)),
    reshape main_v225 main_v226 rfl shapeCasts_S1x1x17x32_S17x32,
    unary main_arg14 main_v227 ((extractStridedSlice S1x1x32 ![1, 1, 0] · slices_S2x3x32_S1x1x32_1_1_0) : (⟨S2x3x32, .f32⟩ : BufTy).Contents (Elt F) → (⟨S1x1x32, .f32⟩ : BufTy).Contents (Elt F)),
    reshape main_v227 main_v228 rfl shapeCasts_S1x1x32_S32,
    unary main_arg15 main_v229 ((extractStridedSlice S1x1x32x8 ![1, 1, 0, 0] · slices_S2x3x32x8_S1x1x32x8_1_1_0_0) : (⟨S2x3x32x8, .f32⟩ : BufTy).Contents (Elt F) → (⟨S1x1x32x8, .f32⟩ : BufTy).Contents (Elt F)),
    reshape main_v229 main_v230 rfl shapeCasts_S1x1x32x8_S32x8,
    unary main_arg16 main_v231 ((extractStridedSlice S1x1x8 ![1, 1, 0] · slices_S2x3x8_S1x1x8_1_1_0) : (⟨S2x3x8, .f32⟩ : BufTy).Contents (Elt F) → (⟨S1x1x8, .f32⟩ : BufTy).Contents (Elt F)),
    reshape main_v231 main_v232 rfl shapeCasts_S1x1x8_S8 ]
/-- Every buffer these operations touch is a TensorCore reference. -/
theorem ops19_sub : (ops19 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
/-- Each of them determines its result. -/
theorem ops19_fresh : ∀ op ∈ (ops19 : List (HloOp τ sig (Elt F))), op.fresh = ∅ :=
  List.forall_iff_forall_mem.mp (show (ops19 : List (HloOp τ sig (Elt F))).Forall (fun op => op.fresh = ∅) from ⟨rfl, rfl, rfl, rfl, rfl, rfl, rfl, rfl, rfl, rfl, rfl, rfl, rfl, rfl, rfl, rfl, rfl, rfl, rfl, rfl⟩)
/-- The buffers they write, in order. -/
abbrev ops19_W : List (Ref sig .tc) := [main_v213, main_v214, main_v215, main_v216, main_v217, main_v218, main_v219, main_v220, main_v221, main_v222, main_v223, main_v224, main_v225, main_v226, main_v227, main_v228, main_v229, main_v230, main_v231, main_v232]
theorem ops19_writes : (ops19 : List (HloOp τ sig (Elt F))).Forall fun op => op.writes ⊆ (ops19_W.map (Proc.devRef (τ := τ) .tc)).toFinset :=
  ⟨wsub main_v213 (by decide) rfl, wsub main_v214 (by decide) rfl, wsub main_v215 (by decide) rfl, wsub main_v216 (by decide) rfl, wsub main_v217 (by decide) rfl, wsub main_v218 (by decide) rfl, wsub main_v219 (by decide) rfl, wsub main_v220 (by decide) rfl, wsub main_v221 (by decide) rfl, wsub main_v222 (by decide) rfl, wsub main_v223 (by decide) rfl, wsub main_v224 (by decide) rfl, wsub main_v225 (by decide) rfl, wsub main_v226 (by decide) rfl, wsub main_v227 (by decide) rfl, wsub main_v228 (by decide) rfl, wsub main_v229 (by decide) rfl, wsub main_v230 (by decide) rfl, wsub main_v231 (by decide) rfl, wsub main_v232 (by decide) rfl⟩
/-- A buffer they do not write keeps its contents through them. -/
theorem ops19_keep (V : Valuation τ sig (Elt F)) {r : Ref sig .tc} (h : r ∉ ops19_W) :
    after (ops19 : List (HloOp τ sig (Elt F))) V (Proc.devRef .tc r) = V (Proc.devRef .tc r) :=
  after_of_writes_sub _ V ops19_writes h
/-- They write none of the arguments of @main. -/
theorem ops19_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops19_W := by decide

/-- Operations 273 … 292 of the 655 of @main, which write `main_v233` … `main_v248` (layer 1, lower graph: edge embedding). -/
abbrev ops20 : List (HloOp τ sig (Elt F)) :=
  [ binary main_v84 main_arg3 main_v233 ((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)),
    unary main_v184 main_v234 (broadcastInDim S1100000x8 ![0, 1] bcast_S1x8_S1100000x8_0_1 : (⟨S1x8, .f32⟩ : BufTy).Contents (Elt F) → (⟨S1100000x8, .f32⟩ : BufTy).Contents (Elt F)),
    nullary main_c_25 (constantI S_ 32 0#32),
    unary main_c_25 main_v235 (broadcastInDim S1100000 ![] bcast_S_S1100000 : (⟨S_, .i32⟩ : BufTy).Contents (Elt F) → (⟨S1100000, .i32⟩ : BufTy).Contents (Elt F)),
    binary main_v1 main_v235 main_v236 (cmpi .slt : (⟨S1100000, .i32⟩ : BufTy).Contents (Elt F) → (⟨S1100000, .i32⟩ : BufTy).Contents (Elt F) → (⟨S1100000, .i1⟩ : BufTy).Contents (Elt F)),
    nullary main_c_26 (constantI S_ 32 100000#32),
    unary main_c_26 main_v237 (broadcastInDim S1100000 ![] bcast_S_S1100000 : (⟨S_, .i32⟩ : BufTy).Contents (Elt F) → (⟨S1100000, .i32⟩ : BufTy).Contents (Elt F)),
    binary main_v1 main_v237 main_v238 (addi : (⟨S1100000, .i32⟩ : BufTy).Contents (Elt F) → (⟨S1100000, .i32⟩ : BufTy).Contents (Elt F) → (⟨S1100000, .i32⟩ : BufTy).Contents (Elt F)),
    ternary main_v236 main_v238 main_v1 main_v239 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v239 main_v240 (broadcastInDim S1100000x1 ![0] bcast_S1100000_S1100000x1_0 : (⟨S1100000, .i32⟩ : BufTy).Contents (Elt F) → (⟨S1100000x1, .i32⟩ : BufTy).Contents (Elt F)),
    binary main_arg0 main_v240 main_v241 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    nullary main_c_27 (constantI S_ 32 0#32),
    unary main_c_27 main_v242 (broadcastInDim S1100000 ![] bcast_S_S1100000 : (⟨S_, .i32⟩ : BufTy).Contents (Elt F) → (⟨S1100000, .i32⟩ : BufTy).Contents (Elt F)),
    binary main_v3 main_v242 main_v243 (cmpi .slt : (⟨S1100000, .i32⟩ : BufTy).Contents (Elt F) → (⟨S1100000, .i32⟩ : BufTy).Contents (Elt F) → (⟨S1100000, .i1⟩ : BufTy).Contents (Elt F)),
    nullary main_c_28 (constantI S_ 32 100000#32),
    unary main_c_28 main_v244 (broadcastInDim S1100000 ![] bcast_S_S1100000 : (⟨S_, .i32⟩ : BufTy).Contents (Elt F) → (⟨S1100000, .i32⟩ : BufTy).Contents (Elt F)),
    binary main_v3 main_v244 main_v245 (addi : (⟨S1100000, .i32⟩ : BufTy).Contents (Elt F) → (⟨S1100000, .i32⟩ : BufTy).Contents (Elt F) → (⟨S1100000, .i32⟩ : BufTy).Contents (Elt F)),
    ternary main_v243 main_v245 main_v3 main_v246 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v246 main_v247 (broadcastInDim S1100000x1 ![0] bcast_S1100000_S1100000x1_0 : (⟨S1100000, .i32⟩ : BufTy).Contents (Elt F) → (⟨S1100000x1, .i32⟩ : BufTy).Contents (Elt F)),
    binary main_arg0 main_v247 main_v248 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) ]
/-- Every buffer these operations touch is a TensorCore reference. -/
theorem ops20_sub : (ops20 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
/-- Each of them determines its result. -/
theorem ops20_fresh : ∀ op ∈ (ops20 : List (HloOp τ sig (Elt F))), op.fresh = ∅ :=
  List.forall_iff_forall_mem.mp (show (ops20 : List (HloOp τ sig (Elt F))).Forall (fun op => op.fresh = ∅) from ⟨rfl, rfl, rfl, rfl, rfl, rfl, rfl, rfl, rfl, rfl, rfl, rfl, rfl, rfl, rfl, rfl, rfl, rfl, rfl, rfl⟩)
/-- The buffers they write, in order. -/
abbrev ops20_W : List (Ref sig .tc) := [main_v233, main_v234, main_c_25, main_v235, main_v236, main_c_26, main_v237, main_v238, main_v239, main_v240, main_v241, main_c_27, main_v242, main_v243, main_c_28, main_v244, main_v245, main_v246, main_v247, main_v248]
theorem ops20_writes : (ops20 : List (HloOp τ sig (Elt F))).Forall fun op => op.writes ⊆ (ops20_W.map (Proc.devRef (τ := τ) .tc)).toFinset :=
  ⟨wsub main_v233 (by decide) rfl, wsub main_v234 (by decide) rfl, wsub main_c_25 (by decide) rfl, wsub main_v235 (by decide) rfl, wsub main_v236 (by decide) rfl, wsub main_c_26 (by decide) rfl, wsub main_v237 (by decide) rfl, wsub main_v238 (by decide) rfl, wsub main_v239 (by decide) rfl, wsub main_v240 (by decide) rfl, wsub main_v241 (by decide) rfl, wsub main_c_27 (by decide) rfl, wsub main_v242 (by decide) rfl, wsub main_v243 (by decide) rfl, wsub main_c_28 (by decide) rfl, wsub main_v244 (by decide) rfl, wsub main_v245 (by decide) rfl, wsub main_v246 (by decide) rfl, wsub main_v247 (by decide) rfl, wsub main_v248 (by decide) rfl⟩
/-- A buffer they do not write keeps its contents through them. -/
theorem ops20_keep (V : Valuation τ sig (Elt F)) {r : Ref sig .tc} (h : r ∉ ops20_W) :
    after (ops20 : List (HloOp τ sig (Elt F))) V (Proc.devRef .tc r) = V (Proc.devRef .tc r) :=
  after_of_writes_sub _ V ops20_writes h
/-- They write none of the arguments of @main. -/
theorem ops20_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops20_W := by decide

/-- Operations 293 … 304 of the 655 of @main, which write `main_v249` … `main_v258` (layer 1, lower graph: edge embedding). -/
abbrev ops21 : List (HloOp τ sig (Elt F)) :=
  [ nary ![main_v234, main_v241, main_v248, main_v233] main_v249 (fun u => concatenate S1100000x26 1 [⟨S1100000x8, u 0⟩, ⟨S1100000x8, u 1⟩, ⟨S1100000x8, u 2⟩, ⟨S1100000x2, u 3⟩] concatenates_S1100000x8_S1100000x8_S1100000x8_S1100000x2_S1100000x26_d1),
    binary main_v249 main_v186 main_v250 ((fun l r => Host.dotGeneral dot_S1100000x26_S26x32_S1100000x32_1_0_0_1_n_n none l r) : (⟨S1100000x26, .f32⟩ : BufTy).Contents (Elt F) → (⟨S26x32, .f32⟩ : BufTy).Contents (Elt F) → (⟨S1100000x32, .f32⟩ : BufTy).Contents (Elt F)),
    unary main_v188 main_v251 (broadcastInDim S1x32 ![1] bcast_S32_S1x32_1 : (⟨S32, .f32⟩ : BufTy).Contents (Elt F) → (⟨S1x32, .f32⟩ : BufTy).Contents (Elt F)),
    unary main_v251 main_v252 (broadcastInDim S1100000x32 ![0, 1] bcast_S1x32_S1100000x32_0_1 : (⟨S1x32, .f32⟩ : BufTy).Contents (Elt F) → (⟨S1100000x32, .f32⟩ : BufTy).Contents (Elt F)),
    binary main_v250 main_v252 main_v253 (addf : (⟨S1100000x32, .f32⟩ : BufTy).Contents (Elt F) → (⟨S1100000x32, .f32⟩ : BufTy).Contents (Elt F) → (⟨S1100000x32, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1100000x32, .f32⟩) main_call6_v0) (broadcastInDim S1100000x32 ![] bcast_S_S1100000x32),
    TRef.binary (TRef.of (T := ⟨S1100000x32, .f32⟩) main_v253) (TRef.of (T := ⟨S1100000x32, .f32⟩) main_call6_v0) (TRef.of (T := ⟨S1100000x32, .f32⟩) main_v254) maximumf,
    binary main_v254 main_v190 main_v255 ((fun l r => Host.dotGeneral dot_S1100000x32_S32x1_S1100000x1_1_0_0_1_n_n none l r) : (⟨S1100000x32, .f32⟩ : BufTy).Contents (Elt F) → (⟨S32x1, .f32⟩ : BufTy).Contents (Elt F) → (⟨S1100000x1, .f32⟩ : BufTy).Contents (Elt F)),
    unary main_v192 main_v256 (broadcastInDim S1x1 ![1] bcast_S1_S1x1_1 : (⟨S1, .f32⟩ : BufTy).Contents (Elt F) → (⟨S1x1, .f32⟩ : BufTy).Contents (Elt F)),
    unary main_v256 main_v257 (broadcastInDim S1100000x1 ![0, 1] bcast_S1x1_S1100000x1_0_1 : (⟨S1x1, .f32⟩ : BufTy).Contents (Elt F) → (⟨S1100000x1, .f32⟩ : BufTy).Contents (Elt F)),
    binary main_v255 main_v257 main_v258 (addf : (⟨S1100000x1, .f32⟩ : BufTy).Contents (Elt F) → (⟨S1100000x1, .f32⟩ : BufTy).Contents (Elt F) → (⟨S1100000x1, .f32⟩ : BufTy).Contents (Elt F)) ]
/-- Every buffer these operations touch is a TensorCore reference. -/
theorem ops21_sub : (ops21 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops21_fresh : ∀ op ∈ (ops21 : List (HloOp τ sig (Elt F))), op.fresh = ∅ :=
  List.forall_iff_forall_mem.mp (show (ops21 : List (HloOp τ sig (Elt F))).Forall (fun op => op.fresh = ∅) from ⟨rfl, rfl, rfl, rfl, rfl, rfl, rfl, rfl, rfl, rfl, rfl, rfl⟩)
/-- The buffers they write, in order. -/
abbrev ops21_W : List (Ref sig .tc) := [main_v249, main_v250, main_v251, main_v252, main_v253, main_call6_cst, main_call6_v0, main_v254, main_v255, main_v256, main_v257, main_v258]
theorem ops21_writes : (ops21 : List (HloOp τ sig (Elt F))).Forall fun op => op.writes ⊆ (ops21_W.map (Proc.devRef (τ := τ) .tc)).toFinset :=
  ⟨wsub main_v249 (by decide) rfl, wsub main_v250 (by decide) rfl, wsub main_v251 (by decide) rfl, wsub main_v252 (by decide) rfl, wsub main_v253 (by decide) rfl, wsub main_call6_cst (by decide) rfl, wsub main_call6_v0 (by decide) rfl, wsub main_v254 (by decide) rfl, wsub main_v255 (by decide) rfl, wsub main_v256 (by decide) rfl, wsub main_v257 (by decide) rfl, wsub main_v258 (by decide) rfl⟩
/-- A buffer they do not write keeps its contents through them. -/
theorem ops21_keep (V : Valuation τ sig (Elt F)) {r : Ref sig .tc} (h : r ∉ ops21_W) :
    after (ops21 : List (HloOp τ sig (Elt F))) V (Proc.devRef .tc r) = V (Proc.devRef .tc r) :=
  after_of_writes_sub _ V ops21_writes h
/-- They write none of the arguments of @main. -/
theorem ops21_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops21_W := by decide

/-- Operations 305 … 314 of the 655 of @main, which write `main_cst_29` … `main_v265` (layer 1, lower graph: mean aggregation). -/
abbrev ops22 : List (HloOp τ sig (Elt F)) :=
  [ nullary main_cst_29 (constant S_ .f32 0x00000000#32),
    unary main_cst_29 main_v259 (broadcastInDim S100000x1 ![] bcast_S_S100000x1 : (⟨S_, .f32⟩ : BufTy).Contents (Elt F) → (⟨S100000x1, .f32⟩ : BufTy).Contents (Elt F)),
    unary main_v1 main_v260 (broadcastInDim S1100000x1 ![0] bcast_S1100000_S1100000x1_0 : (⟨S1100000, .i32⟩ : BufTy).Contents (Elt F) → (⟨S1100000x1, .i32⟩ : BufTy).Contents (Elt F)),
    ternary main_v259 main_v260 main_v258 main_v261 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_30 (constant S_ .f32 0x3F800000#32),
    unary main_cst_30 main_v262 (broadcastInDim S1100000x1 ![] bcast_S_S1100000x1 : (⟨S_, .f32⟩ : BufTy).Contents (Elt F) → (⟨S1100000x1, .f32⟩ : BufTy).Contents (Elt F)),
    nullary main_cst_31 (constant S_ .f32 0x00000000#32),
    unary main_cst_31 main_v263 (broadcastInDim S100000x1 ![] bcast_S_S100000x1 : (⟨S_, .f32⟩ : BufTy).Contents (Elt F) → (⟨S100000x1, .f32⟩ : BufTy).Contents (Elt F)),
    unary main_v1 main_v264 (broadcastInDim S1100000x1 ![0] bcast_S1100000_S1100000x1_0 : (⟨S1100000, .i32⟩ : BufTy).Contents (Elt F) → (⟨S1100000x1, .i32⟩ : BufTy).Contents (Elt F)),
    ternary main_v263 main_v264 main_v262 main_v265 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ]
/-- Every buffer these operations touch is a TensorCore reference. -/
theorem ops22_sub : (ops22 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub ..⟩
/-- Each of them determines its result. -/
theorem ops22_fresh : ∀ op ∈ (ops22 : List (HloOp τ sig (Elt F))), op.fresh = ∅ :=
  List.forall_iff_forall_mem.mp (show (ops22 : List (HloOp τ sig (Elt F))).Forall (fun op => op.fresh = ∅) from ⟨rfl, rfl, rfl, rfl, rfl, rfl, rfl, rfl, rfl, rfl⟩)
/-- The buffers they write, in order. -/
abbrev ops22_W : List (Ref sig .tc) := [main_cst_29, main_v259, main_v260, main_v261, main_cst_30, main_v262, main_cst_31, main_v263, main_v264, main_v265]
theorem ops22_writes : (ops22 : List (HloOp τ sig (Elt F))).Forall fun op => op.writes ⊆ (ops22_W.map (Proc.devRef (τ := τ) .tc)).toFinset :=
  ⟨wsub main_cst_29 (by decide) rfl, wsub main_v259 (by decide) rfl, wsub main_v260 (by decide) rfl, wsub main_v261 (by decide) rfl, wsub main_cst_30 (by decide) rfl, wsub main_v262 (by decide) rfl, wsub main_cst_31 (by decide) rfl, wsub main_v263 (by decide) rfl, wsub main_v264 (by decide) rfl, wsub main_v265 (by decide) rfl⟩
/-- A buffer they do not write keeps its contents through them. -/
theorem ops22_keep (V : Valuation τ sig (Elt F)) {r : Ref sig .tc} (h : r ∉ ops22_W) :
    after (ops22 : List (HloOp τ sig (Elt F))) V (Proc.devRef .tc r) = V (Proc.devRef .tc r) :=
  after_of_writes_sub _ V ops22_writes h
/-- They write none of the arguments of @main. -/
theorem ops22_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops22_W := by decide

/-- The operations of the window: its chunks in order. -/
abbrev win4 : List (HloOp τ sig (Elt F)) := ops19 ++ (ops20 ++ (ops21 ++ (ops22)))
set_option maxHeartbeats 4000000 in
/-- The window of @main is the straight line of these operations. -/
theorem main_part4_eq (c : Dev nD) : main_part4 (F := F) c = seq win4 := rfl
theorem win4_sub : ∀ op ∈ (win4 : List (HloOp τ sig (Elt F))), op.bufs ⊆ tcRefs τ sig :=
  List.forall_mem_append.mpr ⟨List.forall_iff_forall_mem.mp ops19_sub, List.forall_mem_append.mpr ⟨List.forall_iff_forall_mem.mp ops20_sub, List.forall_mem_append.mpr ⟨List.forall_iff_forall_mem.mp ops21_sub, List.forall_iff_forall_mem.mp ops22_sub⟩⟩⟩
theorem win4_fresh : ∀ op ∈ (win4 : List (HloOp τ sig (Elt F))), op.fresh = ∅ :=
  List.forall_mem_append.mpr ⟨ops19_fresh, List.forall_mem_append.mpr ⟨ops20_fresh, List.forall_mem_append.mpr ⟨ops21_fresh, ops22_fresh⟩⟩⟩

end Cert.ReferenceIdeal.RunFold

end
-- ==== Proof.Ref.Chunks5.lean ====
import proofs.«426760_j80470507258346_3_alg».proof.Proof.Gen.ReferenceIdeal
import Idealize.ShloMosaic.Lib.StableHlo.Run
import Idealize.ShloMosaic.Lib.Pipeline.Frame

/-! Operations 315 … 378 of the 655 of the reference program (the window `main_part5` of @main), in 7 chunks `ops23` … `ops29`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 315 … 318 of the 655 of @main, which write `main_cst_32` … `main_v268` (layer 1, lower graph: mean aggregation). -/
abbrev ops23 : List (HloOp τ sig (Elt F)) :=
  [ nullary main_cst_32 (constant S_ .f32 0x3F800000#32),
    unary main_cst_32 main_v266 (broadcastInDim S100000x1 ![] bcast_S_S100000x1 : (⟨S_, .f32⟩ : BufTy).Contents (Elt F) → (⟨S100000x1, .f32⟩ : BufTy).Contents (Elt F)),
    binary main_v265 main_v266 main_v267 (maximumf : (⟨S100000x1, .f32⟩ : BufTy).Contents (Elt F) → (⟨S100000x1, .f32⟩ : BufTy).Contents (Elt F) → (⟨S100000x1, .f32⟩ : BufTy).Contents (Elt F)),
    binary main_v261 main_v267 main_v268 (Host.divf : (⟨S100000x1, .f32⟩ : BufTy).Contents (Elt F) → (⟨S100000x1, .f32⟩ : BufTy).Contents (Elt F) → (⟨S100000x1, .f32⟩ : BufTy).Contents (Elt F)) ]
/-- Every buffer these operations touch is a TensorCore reference. -/
theorem ops23_sub : (ops23 : List (HloOp τ sig (Elt F))).Forall fun op => op.bufs ⊆ tcRefs τ sig :=
  ⟨nullary_bufs_sub .., unary_bufs_sub .., binary_bufs_sub .., binary_bufs_sub ..⟩
/-- Each of them determines its result. -/
theorem ops23_fresh : ∀ op ∈ (ops23 : List (HloOp τ sig (Elt F))), op.fresh = ∅ :=
  List.forall_iff_forall_mem.mp (show (ops23 : List (HloOp τ sig (Elt F))).Forall (fun op => op.fresh = ∅) from ⟨rfl, rfl, rfl, rfl⟩)
/-- The buffers they write, in order. -/
abbrev ops23_W : List (Ref sig .tc) := [main_cst_32, main_v266, main_v267, main_v268]
theorem ops23_writes : (ops23 : List (HloOp τ sig (Elt F))).Forall fun op => op.writes ⊆ (ops23_W.map (Proc.devRef (τ := τ) .tc)).toFinset :=
  ⟨wsub main_cst_32 (by decide) rfl, wsub main_v266 (by decide) rfl, wsub main_v267 (by decide) rfl, wsub main_v268 (by decide) rfl⟩
/-- A buffer they do not write keeps its contents through them. -/
theorem ops23_keep (V : Valuation τ sig (Elt F)) {r : Ref sig .tc} (h : r ∉ ops23_W) :
    after (ops23 : List (HloOp τ sig (Elt F))) V (Proc.devRef .tc r) = V (Proc.devRef .tc r) :=
  after_of_writes_sub _ V ops23_writes h
/-- They write none of the arguments of @main. -/
theorem ops23_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops23_W := by decide

/-- Operations 319 … 319 of the 655 of @main, which write `main_v269` … `main_v269` (layer 1, lower graph: node embedding). -/
abbrev ops24 : List (HloOp τ sig (Elt F)) :=
  [ unary main_v184 main_v269 (broadcastInDim S100000x8 ![0, 1] bcast_S1x8_S100000x8_0_1 : (⟨S1x8, .f32⟩ : BufTy).Contents (Elt F) → (⟨S100000x8, .f32⟩ : BufTy).Contents (Elt F)) ]
/-- Every buffer these operations touch is a TensorCore reference. -/
theorem ops24_sub : (ops24 : List (HloOp τ sig (Elt F))).Forall fun op => op.bufs ⊆ tcRefs τ sig :=
  unary_bufs_sub ..
/-- Each of them determines its result. -/
theorem ops24_fresh : ∀ op ∈ (ops24 : List (HloOp τ sig (Elt F))), op.fresh = ∅ :=
  List.forall_iff_forall_mem.mp (show (ops24 : List (HloOp τ sig (Elt F))).Forall (fun op => op.fresh = ∅) from rfl)
/-- The buffers they write, in order. -/
abbrev ops24_W : List (Ref sig .tc) := [main_v269]
theorem ops24_writes : (ops24 : List (HloOp τ sig (Elt F))).Forall fun op => op.writes ⊆ (ops24_W.map (Proc.devRef (τ := τ) .tc)).toFinset :=
  wsub main_v269 (by decide) rfl
/-- A buffer they do not write keeps its contents through them. -/
theorem ops24_keep (V : Valuation τ sig (Elt F)) {r : Ref sig .tc} (h : r ∉ ops24_W) :
    after (ops24 : List (HloOp τ sig (Elt F))) V (Proc.devRef .tc r) = V (Proc.devRef .tc r) :=
  after_of_writes_sub _ V ops24_writes h
/-- They write none of the arguments of @main. -/
theorem ops24_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops24_W := by decide

/-- Operations 320 … 331 of the 655 of @main, which write `main_v270` … `main_v279` (layer 1, lower graph: node embedding). -/
abbrev ops25 : List (HloOp τ sig (Elt F)) :=
  [ nary ![main_v269, main_arg0, main_v268] main_v270 (fun u => concatenate S100000x17 1 [⟨S100000x8, u 0⟩, ⟨S100000x8, u 1⟩, ⟨S100000x1, u 2⟩] concatenates_S100000x8_S100000x8_S100000x1_S100000x17_d1),
    binary main_v270 main_v194 main_v271 ((fun l r => Host.dotGeneral dot_S100000x17_S17x32_S100000x32_1_0_0_1_n_n none l r) : (⟨S100000x17, .f32⟩ : BufTy).Contents (Elt F) → (⟨S17x32, .f32⟩ : BufTy).Contents (Elt F) → (⟨S100000x32, .f32⟩ : BufTy).Contents (Elt F)),
    unary main_v196 main_v272 (broadcastInDim S1x32 ![1] bcast_S32_S1x32_1 : (⟨S32, .f32⟩ : BufTy).Contents (Elt F) → (⟨S1x32, .f32⟩ : BufTy).Contents (Elt F)),
    unary main_v272 main_v273 (broadcastInDim S100000x32 ![0, 1] bcast_S1x32_S100000x32_0_1 : (⟨S1x32, .f32⟩ : BufTy).Contents (Elt F) → (⟨S100000x32, .f32⟩ : BufTy).Contents (Elt F)),
    binary main_v271 main_v273 main_v274 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x32, .f32⟩) main_call7_v0) (broadcastInDim S100000x32 ![] bcast_S_S100000x32),
    TRef.binary (TRef.of (T := ⟨S100000x32, .f32⟩) main_v274) (TRef.of (T := ⟨S100000x32, .f32⟩) main_call7_v0) (TRef.of (T := ⟨S100000x32, .f32⟩) main_v275) maximumf,
    binary main_v275 main_v198 main_v276 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)),
    unary main_v200 main_v277 (broadcastInDim S1x8 ![1] bcast_S8_S1x8_1 : (⟨S8, .f32⟩ : BufTy).Contents (Elt F) → (⟨S1x8, .f32⟩ : BufTy).Contents (Elt F)),
    unary main_v277 main_v278 (broadcastInDim S100000x8 ![0, 1] bcast_S1x8_S100000x8_0_1 : (⟨S1x8, .f32⟩ : BufTy).Contents (Elt F) → (⟨S100000x8, .f32⟩ : BufTy).Contents (Elt F)),
    binary main_v276 main_v278 main_v279 (addf : (⟨S100000x8, .f32⟩ : BufTy).Contents (Elt F) → (⟨S100000x8, .f32⟩ : BufTy).Contents (Elt F) → (⟨S100000x8, .f32⟩ : BufTy).Contents (Elt F)) ]
/-- Every buffer these operations touch is a TensorCore reference. -/
theorem ops25_sub : (ops25 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops25_fresh : ∀ op ∈ (ops25 : List (HloOp τ sig (Elt F))), op.fresh = ∅ :=
  List.forall_iff_forall_mem.mp (show (ops25 : List (HloOp τ sig (Elt F))).Forall (fun op => op.fresh = ∅) from ⟨rfl, rfl, rfl, rfl, rfl, rfl, rfl, rfl, rfl, rfl, rfl, rfl⟩)
/-- The buffers they write, in order. -/
abbrev ops25_W : List (Ref sig .tc) := [main_v270, main_v271, main_v272, main_v273, main_v274, main_call7_cst, main_call7_v0, main_v275, main_v276, main_v277, main_v278, main_v279]
theorem ops25_writes : (ops25 : List (HloOp τ sig (Elt F))).Forall fun op => op.writes ⊆ (ops25_W.map (Proc.devRef (τ := τ) .tc)).toFinset :=
  ⟨wsub main_v270 (by decide) rfl, wsub main_v271 (by decide) rfl, wsub main_v272 (by decide) rfl, wsub main_v273 (by decide) rfl, wsub main_v274 (by decide) rfl, wsub main_call7_cst (by decide) rfl, wsub main_call7_v0 (by decide) rfl, wsub main_v275 (by decide) rfl, wsub main_v276 (by decide) rfl, wsub main_v277 (by decide) rfl, wsub main_v278 (by decide) rfl, wsub main_v279 (by decide) rfl⟩
/-- A buffer they do not write keeps its contents through them. -/
theorem ops25_keep (V : Valuation τ sig (Elt F)) {r : Ref sig .tc} (h : r ∉ ops25_W) :
    after (ops25 : List (HloOp τ sig (Elt F))) V (Proc.devRef .tc r) = V (Proc.devRef .tc r) :=
  after_of_writes_sub _ V ops25_writes h
/-- They write none of the arguments of @main. -/
theorem ops25_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops25_W := by decide

/-- Operations 332 … 343 of the 655 of @main, which write `main_cst_33` … `main_v287` (layer 1, lower graph: global update). -/
abbrev ops26 : List (HloOp τ sig (Elt F)) :=
  [ nullary main_cst_33 (constant S_ .f32 0x00000000#32),
    binary main_v279 main_cst_33 main_v280 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v280 main_v281 (broadcastInDim S1x8 ![1] bcast_S8_S1x8_1 : (⟨S8, .f32⟩ : BufTy).Contents (Elt F) → (⟨S1x8, .f32⟩ : BufTy).Contents (Elt F)),
    nullary main_cst_34 (constant S_ .f32 0x47C35000#32),
    unary main_cst_34 main_v282 (broadcastInDim S1x8 ![] bcast_S_S1x8 : (⟨S_, .f32⟩ : BufTy).Contents (Elt F) → (⟨S1x8, .f32⟩ : BufTy).Contents (Elt F)),
    binary main_v281 main_v282 main_v283 (Host.divf : (⟨S1x8, .f32⟩ : BufTy).Contents (Elt F) → (⟨S1x8, .f32⟩ : BufTy).Contents (Elt F) → (⟨S1x8, .f32⟩ : BufTy).Contents (Elt F)),
    nullary main_cst_35 (constant S_ .f32 0x00000000#32),
    binary main_v258 main_cst_35 main_v284 ((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)),
    unary main_v284 main_v285 (broadcastInDim S1x1 ![1] bcast_S1_S1x1_1 : (⟨S1, .f32⟩ : BufTy).Contents (Elt F) → (⟨S1x1, .f32⟩ : BufTy).Contents (Elt F)),
    nullary main_cst_36 (constant S_ .f32 0x49864700#32),
    unary main_cst_36 main_v286 (broadcastInDim S1x1 ![] bcast_S_S1x1 : (⟨S_, .f32⟩ : BufTy).Contents (Elt F) → (⟨S1x1, .f32⟩ : BufTy).Contents (Elt F)),
    binary main_v285 main_v286 main_v287 (Host.divf : (⟨S1x1, .f32⟩ : BufTy).Contents (Elt F) → (⟨S1x1, .f32⟩ : BufTy).Contents (Elt F) → (⟨S1x1, .f32⟩ : BufTy).Contents (Elt F)) ]
/-- Every buffer these operations touch is a TensorCore reference. -/
theorem ops26_sub : (ops26 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub ..⟩
/-- Each of them determines its result. -/
theorem ops26_fresh : ∀ op ∈ (ops26 : List (HloOp τ sig (Elt F))), op.fresh = ∅ :=
  List.forall_iff_forall_mem.mp (show (ops26 : List (HloOp τ sig (Elt F))).Forall (fun op => op.fresh = ∅) from ⟨rfl, rfl, rfl, rfl, rfl, rfl, rfl, rfl, rfl, rfl, rfl, rfl⟩)
/-- The buffers they write, in order. -/
abbrev ops26_W : List (Ref sig .tc) := [main_cst_33, main_v280, main_v281, main_cst_34, main_v282, main_v283, main_cst_35, main_v284, main_v285, main_cst_36, main_v286, main_v287]
theorem ops26_writes : (ops26 : List (HloOp τ sig (Elt F))).Forall fun op => op.writes ⊆ (ops26_W.map (Proc.devRef (τ := τ) .tc)).toFinset :=
  ⟨wsub main_cst_33 (by decide) rfl, wsub main_v280 (by decide) rfl, wsub main_v281 (by decide) rfl, wsub main_cst_34 (by decide) rfl, wsub main_v282 (by decide) rfl, wsub main_v283 (by decide) rfl, wsub main_cst_35 (by decide) rfl, wsub main_v284 (by decide) rfl, wsub main_v285 (by decide) rfl, wsub main_cst_36 (by decide) rfl, wsub main_v286 (by decide) rfl, wsub main_v287 (by decide) rfl⟩
/-- A buffer they do not write keeps its contents through them. -/
theorem ops26_keep (V : Valuation τ sig (Elt F)) {r : Ref sig .tc} (h : r ∉ ops26_W) :
    after (ops26 : List (HloOp τ sig (Elt F))) V (Proc.devRef .tc r) = V (Proc.devRef .tc r) :=
  after_of_writes_sub _ V ops26_writes h
/-- They write none of the arguments of @main. -/
theorem ops26_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops26_W := by decide

/-- Operations 344 … 353 of the 655 of @main, which write `main_v288` … `main_v295` (layer 1, lower graph: global update). -/
abbrev ops27 : List (HloOp τ sig (Elt F)) :=
  [ nary ![main_v283, main_v287, main_v184] main_v288 (fun u => concatenate S1x17 1 [⟨S1x8, u 0⟩, ⟨S1x1, u 1⟩, ⟨S1x8, u 2⟩] concatenates_S1x8_S1x1_S1x8_S1x17_d1),
    binary main_v288 main_v202 main_v289 ((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)),
    unary main_v204 main_v290 (broadcastInDim S1x32 ![1] bcast_S32_S1x32_1 : (⟨S32, .f32⟩ : BufTy).Contents (Elt F) → (⟨S1x32, .f32⟩ : BufTy).Contents (Elt F)),
    binary main_v289 main_v290 main_v291 (addf : (⟨S1x32, .f32⟩ : BufTy).Contents (Elt F) → (⟨S1x32, .f32⟩ : BufTy).Contents (Elt F) → (⟨S1x32, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1x32, .f32⟩) main_call8_v0) (broadcastInDim S1x32 ![] bcast_S_S1x32),
    TRef.binary (TRef.of (T := ⟨S1x32, .f32⟩) main_v291) (TRef.of (T := ⟨S1x32, .f32⟩) main_call8_v0) (TRef.of (T := ⟨S1x32, .f32⟩) main_v292) maximumf,
    binary main_v292 main_v206 main_v293 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)),
    unary main_v208 main_v294 (broadcastInDim S1x8 ![1] bcast_S8_S1x8_1 : (⟨S8, .f32⟩ : BufTy).Contents (Elt F) → (⟨S1x8, .f32⟩ : BufTy).Contents (Elt F)),
    binary main_v293 main_v294 main_v295 (addf : (⟨S1x8, .f32⟩ : BufTy).Contents (Elt F) → (⟨S1x8, .f32⟩ : BufTy).Contents (Elt F) → (⟨S1x8, .f32⟩ : BufTy).Contents (Elt F)) ]
/-- Every buffer these operations touch is a TensorCore reference. -/
theorem ops27_sub : (ops27 : List (HloOp τ sig (Elt F))).Forall fun op => op.bufs ⊆ tcRefs τ sig :=
  ⟨nary_bufs_sub .., binary_bufs_sub .., unary_bufs_sub .., binary_bufs_sub .., nullary_bufs_sub .., unary_bufs_sub .., binary_bufs_sub .., binary_bufs_sub .., unary_bufs_sub .., binary_bufs_sub ..⟩
/-- Each of them determines its result. -/
theorem ops27_fresh : ∀ op ∈ (ops27 : List (HloOp τ sig (Elt F))), op.fresh = ∅ :=
  List.forall_iff_forall_mem.mp (show (ops27 : List (HloOp τ sig (Elt F))).Forall (fun op => op.fresh = ∅) from ⟨rfl, rfl, rfl, rfl, rfl, rfl, rfl, rfl, rfl, rfl⟩)
/-- The buffers they write, in order. -/
abbrev ops27_W : List (Ref sig .tc) := [main_v288, main_v289, main_v290, main_v291, main_call8_cst, main_call8_v0, main_v292, main_v293, main_v294, main_v295]
theorem ops27_writes : (ops27 : List (HloOp τ sig (Elt F))).Forall fun op => op.writes ⊆ (ops27_W.map (Proc.devRef (τ := τ) .tc)).toFinset :=
  ⟨wsub main_v288 (by decide) rfl, wsub main_v289 (by decide) rfl, wsub main_v290 (by decide) rfl, wsub main_v291 (by decide) rfl, wsub main_call8_cst (by decide) rfl, wsub main_call8_v0 (by decide) rfl, wsub main_v292 (by decide) rfl, wsub main_v293 (by decide) rfl, wsub main_v294 (by decide) rfl, wsub main_v295 (by decide) rfl⟩
/-- A buffer they do not write keeps its contents through them. -/
theorem ops27_keep (V : Valuation τ sig (Elt F)) {r : Ref sig .tc} (h : r ∉ ops27_W) :
    after (ops27 : List (HloOp τ sig (Elt F))) V (Proc.devRef .tc r) = V (Proc.devRef .tc r) :=
  after_of_writes_sub _ V ops27_writes h
/-- They write none of the arguments of @main. -/
theorem ops27_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops27_W := by decide

/-- Operations 354 … 373 of the 655 of @main, which write `main_v296` … `main_v311` (layer 1, upper graph: edge embedding). -/
abbrev ops28 : List (HloOp τ sig (Elt F)) :=
  [ binary main_v147 main_v10 main_v296 ((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)),
    unary main_v295 main_v297 (broadcastInDim S1100000x8 ![0, 1] bcast_S1x8_S1100000x8_0_1 : (⟨S1x8, .f32⟩ : BufTy).Contents (Elt F) → (⟨S1100000x8, .f32⟩ : BufTy).Contents (Elt F)),
    nullary main_c_37 (constantI S_ 32 0#32),
    unary main_c_37 main_v298 (broadcastInDim S1100000 ![] bcast_S_S1100000 : (⟨S_, .i32⟩ : BufTy).Contents (Elt F) → (⟨S1100000, .i32⟩ : BufTy).Contents (Elt F)),
    binary main_v5 main_v298 main_v299 (cmpi .slt : (⟨S1100000, .i32⟩ : BufTy).Contents (Elt F) → (⟨S1100000, .i32⟩ : BufTy).Contents (Elt F) → (⟨S1100000, .i1⟩ : BufTy).Contents (Elt F)),
    nullary main_c_38 (constantI S_ 32 100000#32),
    unary main_c_38 main_v300 (broadcastInDim S1100000 ![] bcast_S_S1100000 : (⟨S_, .i32⟩ : BufTy).Contents (Elt F) → (⟨S1100000, .i32⟩ : BufTy).Contents (Elt F)),
    binary main_v5 main_v300 main_v301 (addi : (⟨S1100000, .i32⟩ : BufTy).Contents (Elt F) → (⟨S1100000, .i32⟩ : BufTy).Contents (Elt F) → (⟨S1100000, .i32⟩ : BufTy).Contents (Elt F)),
    ternary main_v299 main_v301 main_v5 main_v302 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v302 main_v303 (broadcastInDim S1100000x1 ![0] bcast_S1100000_S1100000x1_0 : (⟨S1100000, .i32⟩ : BufTy).Contents (Elt F) → (⟨S1100000x1, .i32⟩ : BufTy).Contents (Elt F)),
    binary main_v279 main_v303 main_v304 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    nullary main_c_39 (constantI S_ 32 0#32),
    unary main_c_39 main_v305 (broadcastInDim S1100000 ![] bcast_S_S1100000 : (⟨S_, .i32⟩ : BufTy).Contents (Elt F) → (⟨S1100000, .i32⟩ : BufTy).Contents (Elt F)),
    binary main_v7 main_v305 main_v306 (cmpi .slt : (⟨S1100000, .i32⟩ : BufTy).Contents (Elt F) → (⟨S1100000, .i32⟩ : BufTy).Contents (Elt F) → (⟨S1100000, .i1⟩ : BufTy).Contents (Elt F)),
    nullary main_c_40 (constantI S_ 32 100000#32),
    unary main_c_40 main_v307 (broadcastInDim S1100000 ![] bcast_S_S1100000 : (⟨S_, .i32⟩ : BufTy).Contents (Elt F) → (⟨S1100000, .i32⟩ : BufTy).Contents (Elt F)),
    binary main_v7 main_v307 main_v308 (addi : (⟨S1100000, .i32⟩ : BufTy).Contents (Elt F) → (⟨S1100000, .i32⟩ : BufTy).Contents (Elt F) → (⟨S1100000, .i32⟩ : BufTy).Contents (Elt F)),
    ternary main_v306 main_v308 main_v7 main_v309 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v309 main_v310 (broadcastInDim S1100000x1 ![0] bcast_S1100000_S1100000x1_0 : (⟨S1100000, .i32⟩ : BufTy).Contents (Elt F) → (⟨S1100000x1, .i32⟩ : BufTy).Contents (Elt F)),
    binary main_v279 main_v310 main_v311 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) ]
/-- Every buffer these operations touch is a TensorCore reference. -/
theorem ops28_sub : (ops28 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
/-- Each of them determines its result. -/
theorem ops28_fresh : ∀ op ∈ (ops28 : List (HloOp τ sig (Elt F))), op.fresh = ∅ :=
  List.forall_iff_forall_mem.mp (show (ops28 : List (HloOp τ sig (Elt F))).Forall (fun op => op.fresh = ∅) from ⟨rfl, rfl, rfl, rfl, rfl, rfl, rfl, rfl, rfl, rfl, rfl, rfl, rfl, rfl, rfl, rfl, rfl, rfl, rfl, rfl⟩)
/-- The buffers they write, in order. -/
abbrev ops28_W : List (Ref sig .tc) := [main_v296, main_v297, main_c_37, main_v298, main_v299, main_c_38, main_v300, main_v301, main_v302, main_v303, main_v304, main_c_39, main_v305, main_v306, main_c_40, main_v307, main_v308, main_v309, main_v310, main_v311]
theorem ops28_writes : (ops28 : List (HloOp τ sig (Elt F))).Forall fun op => op.writes ⊆ (ops28_W.map (Proc.devRef (τ := τ) .tc)).toFinset :=
  ⟨wsub main_v296 (by decide) rfl, wsub main_v297 (by decide) rfl, wsub main_c_37 (by decide) rfl, wsub main_v298 (by decide) rfl, wsub main_v299 (by decide) rfl, wsub main_c_38 (by decide) rfl, wsub main_v300 (by decide) rfl, wsub main_v301 (by decide) rfl, wsub main_v302 (by decide) rfl, wsub main_v303 (by decide) rfl, wsub main_v304 (by decide) rfl, wsub main_c_39 (by decide) rfl, wsub main_v305 (by decide) rfl, wsub main_v306 (by decide) rfl, wsub main_c_40 (by decide) rfl, wsub main_v307 (by decide) rfl, wsub main_v308 (by decide) rfl, wsub main_v309 (by decide) rfl, wsub main_v310 (by decide) rfl, wsub main_v311 (by decide) rfl⟩
/-- A buffer they do not write keeps its contents through them. -/
theorem ops28_keep (V : Valuation τ sig (Elt F)) {r : Ref sig .tc} (h : r ∉ ops28_W) :
    after (ops28 : List (HloOp τ sig (Elt F))) V (Proc.devRef .tc r) = V (Proc.devRef .tc r) :=
  after_of_writes_sub _ V ops28_writes h
/-- They write none of the arguments of @main. -/
theorem ops28_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops28_W := by decide

/-- Operations 374 … 378 of the 655 of @main, which write `main_v312` … `main_v316` (layer 1, upper graph: edge embedding). -/
abbrev ops29 : List (HloOp τ sig (Elt F)) :=
  [ nary ![main_v297, main_v304, main_v311, main_v296] main_v312 (fun u => concatenate S1100000x26 1 [⟨S1100000x8, u 0⟩, ⟨S1100000x8, u 1⟩, ⟨S1100000x8, u 2⟩, ⟨S1100000x2, u 3⟩] concatenates_S1100000x8_S1100000x8_S1100000x8_S1100000x2_S1100000x26_d1),
    binary main_v312 main_v210 main_v313 ((fun l r => Host.dotGeneral dot_S1100000x26_S26x32_S1100000x32_1_0_0_1_n_n none l r) : (⟨S1100000x26, .f32⟩ : BufTy).Contents (Elt F) → (⟨S26x32, .f32⟩ : BufTy).Contents (Elt F) → (⟨S1100000x32, .f32⟩ : BufTy).Contents (Elt F)),
    unary main_v212 main_v314 (broadcastInDim S1x32 ![1] bcast_S32_S1x32_1 : (⟨S32, .f32⟩ : BufTy).Contents (Elt F) → (⟨S1x32, .f32⟩ : BufTy).Contents (Elt F)),
    unary main_v314 main_v315 (broadcastInDim S1100000x32 ![0, 1] bcast_S1x32_S1100000x32_0_1 : (⟨S1x32, .f32⟩ : BufTy).Contents (Elt F) → (⟨S1100000x32, .f32⟩ : BufTy).Contents (Elt F)),
    binary main_v313 main_v315 main_v316 (addf : (⟨S1100000x32, .f32⟩ : BufTy).Contents (Elt F) → (⟨S1100000x32, .f32⟩ : BufTy).Contents (Elt F) → (⟨S1100000x32, .f32⟩ : BufTy).Contents (Elt F)) ]
/-- Every buffer these operations touch is a TensorCore reference. -/
theorem ops29_sub : (ops29 : List (HloOp τ sig (Elt F))).Forall fun op => op.bufs ⊆ tcRefs τ sig :=
  ⟨nary_bufs_sub .., binary_bufs_sub .., unary_bufs_sub .., unary_bufs_sub .., binary_bufs_sub ..⟩
/-- Each of them determines its result. -/
theorem ops29_fresh : ∀ op ∈ (ops29 : List (HloOp τ sig (Elt F))), op.fresh = ∅ :=
  List.forall_iff_forall_mem.mp (show (ops29 : List (HloOp τ sig (Elt F))).Forall (fun op => op.fresh = ∅) from ⟨rfl, rfl, rfl, rfl, rfl⟩)
/-- The buffers they write, in order. -/
abbrev ops29_W : List (Ref sig .tc) := [main_v312, main_v313, main_v314, main_v315, main_v316]
theorem ops29_writes : (ops29 : List (HloOp τ sig (Elt F))).Forall fun op => op.writes ⊆ (ops29_W.map (Proc.devRef (τ := τ) .tc)).toFinset :=
  ⟨wsub main_v312 (by decide) rfl, wsub main_v313 (by decide) rfl, wsub main_v314 (by decide) rfl, wsub main_v315 (by decide) rfl, wsub main_v316 (by decide) rfl⟩
/-- A buffer they do not write keeps its contents through them. -/
theorem ops29_keep (V : Valuation τ sig (Elt F)) {r : Ref sig .tc} (h : r ∉ ops29_W) :
    after (ops29 : List (HloOp τ sig (Elt F))) V (Proc.devRef .tc r) = V (Proc.devRef .tc r) :=
  after_of_writes_sub _ V ops29_writes h
/-- They write none of the arguments of @main. -/
theorem ops29_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops29_W := by decide

/-- The operations of the window: its chunks in order. -/
abbrev win5 : List (HloOp τ sig (Elt F)) := ops23 ++ (ops24 ++ (ops25 ++ (ops26 ++ (ops27 ++ (ops28 ++ (ops29))))))
set_option maxHeartbeats 4000000 in
/-- The window of @main is the straight line of these operations. -/
theorem main_part5_eq (c : Dev nD) : main_part5 (F := F) c = seq win5 := rfl
theorem win5_sub : ∀ op ∈ (win5 : List (HloOp τ sig (Elt F))), op.bufs ⊆ tcRefs τ sig :=
  List.forall_mem_append.mpr ⟨List.forall_iff_forall_mem.mp ops23_sub, List.forall_mem_append.mpr ⟨List.forall_iff_forall_mem.mp ops24_sub, List.forall_mem_append.mpr ⟨List.forall_iff_forall_mem.mp ops25_sub, List.forall_mem_append.mpr ⟨List.forall_iff_forall_mem.mp ops26_sub, List.forall_mem_append.mpr ⟨List.forall_iff_forall_mem.mp ops27_sub, List.forall_mem_append.mpr ⟨List.forall_iff_forall_mem.mp ops28_sub, List.forall_iff_forall_mem.mp ops29_sub⟩⟩⟩⟩⟩⟩
theorem win5_fresh : ∀ op ∈ (win5 : List (HloOp τ sig (Elt F))), op.fresh = ∅ :=
  List.forall_mem_append.mpr ⟨ops23_fresh, List.forall_mem_append.mpr ⟨ops24_fresh, List.forall_mem_append.mpr ⟨ops25_fresh, List.forall_mem_append.mpr ⟨ops26_fresh, List.forall_mem_append.mpr ⟨ops27_fresh, List.forall_mem_append.mpr ⟨ops28_fresh, ops29_fresh⟩⟩⟩⟩⟩⟩

end Cert.ReferenceIdeal.RunFold

end
-- ==== Proof.Ref.Chunks6.lean ====
import proofs.«426760_j80470507258346_3_alg».proof.Proof.Gen.ReferenceIdeal
import Idealize.ShloMosaic.Lib.StableHlo.Run
import Idealize.ShloMosaic.Lib.Pipeline.Frame

/-! Operations 379 … 444 of the 655 of the reference program (the window `main_part6` of @main), in 7 chunks `ops30` … `ops36`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 379 … 385 of the 655 of @main, which write `main_call9_cst` … `main_v321` (layer 1, upper graph: edge embedding). -/
abbrev ops30 : List (HloOp τ sig (Elt F)) :=
  [ TRef.nullary (TRef.of (T := ⟨S_, .f32⟩) main_call9_cst) (constant S_ .f32 0x00000000#32),
    TRef.unary (TRef.of (T := ⟨S_, .f32⟩) main_call9_cst) (TRef.of (T := ⟨S1100000x32, .f32⟩) main_call9_v0) (broadcastInDim S1100000x32 ![] bcast_S_S1100000x32),
    TRef.binary (TRef.of (T := ⟨S1100000x32, .f32⟩) main_v316) (TRef.of (T := ⟨S1100000x32, .f32⟩) main_call9_v0) (TRef.of (T := ⟨S1100000x32, .f32⟩) main_v317) maximumf,
    binary main_v317 main_v214 main_v318 ((fun l r => Host.dotGeneral dot_S1100000x32_S32x1_S1100000x1_1_0_0_1_n_n none l r) : (⟨S1100000x32, .f32⟩ : BufTy).Contents (Elt F) → (⟨S32x1, .f32⟩ : BufTy).Contents (Elt F) → (⟨S1100000x1, .f32⟩ : BufTy).Contents (Elt F)),
    unary main_v216 main_v319 (broadcastInDim S1x1 ![1] bcast_S1_S1x1_1 : (⟨S1, .f32⟩ : BufTy).Contents (Elt F) → (⟨S1x1, .f32⟩ : BufTy).Contents (Elt F)),
    unary main_v319 main_v320 (broadcastInDim S1100000x1 ![0, 1] bcast_S1x1_S1100000x1_0_1 : (⟨S1x1, .f32⟩ : BufTy).Contents (Elt F) → (⟨S1100000x1, .f32⟩ : BufTy).Contents (Elt F)),
    binary main_v318 main_v320 main_v321 (addf : (⟨S1100000x1, .f32⟩ : BufTy).Contents (Elt F) → (⟨S1100000x1, .f32⟩ : BufTy).Contents (Elt F) → (⟨S1100000x1, .f32⟩ : BufTy).Contents (Elt F)) ]
/-- Every buffer these operations touch is a TensorCore reference. -/
theorem ops30_sub : (ops30 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub ..⟩
/-- Each of them determines its result. -/
theorem ops30_fresh : ∀ op ∈ (ops30 : List (HloOp τ sig (Elt F))), op.fresh = ∅ :=
  List.forall_iff_forall_mem.mp (show (ops30 : List (HloOp τ sig (Elt F))).Forall (fun op => op.fresh = ∅) from ⟨rfl, rfl, rfl, rfl, rfl, rfl, rfl⟩)
/-- The buffers they write, in order. -/
abbrev ops30_W : List (Ref sig .tc) := [main_call9_cst, main_call9_v0, main_v317, main_v318, main_v319, main_v320, main_v321]
theorem ops30_writes : (ops30 : List (HloOp τ sig (Elt F))).Forall fun op => op.writes ⊆ (ops30_W.map (Proc.devRef (τ := τ) .tc)).toFinset :=
  ⟨wsub main_call9_cst (by decide) rfl, wsub main_call9_v0 (by decide) rfl, wsub main_v317 (by decide) rfl, wsub main_v318 (by decide) rfl, wsub main_v319 (by decide) rfl, wsub main_v320 (by decide) rfl, wsub main_v321 (by decide) rfl⟩
/-- A buffer they do not write keeps its contents through them. -/
theorem ops30_keep (V : Valuation τ sig (Elt F)) {r : Ref sig .tc} (h : r ∉ ops30_W) :
    after (ops30 : List (HloOp τ sig (Elt F))) V (Proc.devRef .tc r) = V (Proc.devRef .tc r) :=
  after_of_writes_sub _ V ops30_writes h
/-- They write none of the arguments of @main. -/
theorem ops30_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops30_W := by decide

/-- Operations 386 … 399 of the 655 of @main, which write `main_cst_41` … `main_v331` (layer 1, upper graph: mean aggregation). -/
abbrev ops31 : List (HloOp τ sig (Elt F)) :=
  [ nullary main_cst_41 (constant S_ .f32 0x00000000#32),
    unary main_cst_41 main_v322 (broadcastInDim S100000x1 ![] bcast_S_S100000x1 : (⟨S_, .f32⟩ : BufTy).Contents (Elt F) → (⟨S100000x1, .f32⟩ : BufTy).Contents (Elt F)),
    unary main_v5 main_v323 (broadcastInDim S1100000x1 ![0] bcast_S1100000_S1100000x1_0 : (⟨S1100000, .i32⟩ : BufTy).Contents (Elt F) → (⟨S1100000x1, .i32⟩ : BufTy).Contents (Elt F)),
    ternary main_v322 main_v323 main_v321 main_v324 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_42 (constant S_ .f32 0x3F800000#32),
    unary main_cst_42 main_v325 (broadcastInDim S1100000x1 ![] bcast_S_S1100000x1 : (⟨S_, .f32⟩ : BufTy).Contents (Elt F) → (⟨S1100000x1, .f32⟩ : BufTy).Contents (Elt F)),
    nullary main_cst_43 (constant S_ .f32 0x00000000#32),
    unary main_cst_43 main_v326 (broadcastInDim S100000x1 ![] bcast_S_S100000x1 : (⟨S_, .f32⟩ : BufTy).Contents (Elt F) → (⟨S100000x1, .f32⟩ : BufTy).Contents (Elt F)),
    unary main_v5 main_v327 (broadcastInDim S1100000x1 ![0] bcast_S1100000_S1100000x1_0 : (⟨S1100000, .i32⟩ : BufTy).Contents (Elt F) → (⟨S1100000x1, .i32⟩ : BufTy).Contents (Elt F)),
    ternary main_v326 main_v327 main_v325 main_v328 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_44 (constant S_ .f32 0x3F800000#32),
    unary main_cst_44 main_v329 (broadcastInDim S100000x1 ![] bcast_S_S100000x1 : (⟨S_, .f32⟩ : BufTy).Contents (Elt F) → (⟨S100000x1, .f32⟩ : BufTy).Contents (Elt F)),
    binary main_v328 main_v329 main_v330 (maximumf : (⟨S100000x1, .f32⟩ : BufTy).Contents (Elt F) → (⟨S100000x1, .f32⟩ : BufTy).Contents (Elt F) → (⟨S100000x1, .f32⟩ : BufTy).Contents (Elt F)),
    binary main_v324 main_v330 main_v331 (Host.divf : (⟨S100000x1, .f32⟩ : BufTy).Contents (Elt F) → (⟨S100000x1, .f32⟩ : BufTy).Contents (Elt F) → (⟨S100000x1, .f32⟩ : BufTy).Contents (Elt F)) ]
/-- Every buffer these operations touch is a TensorCore reference. -/
theorem ops31_sub : (ops31 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub ..⟩
/-- Each of them determines its result. -/
theorem ops31_fresh : ∀ op ∈ (ops31 : List (HloOp τ sig (Elt F))), op.fresh = ∅ :=
  List.forall_iff_forall_mem.mp (show (ops31 : List (HloOp τ sig (Elt F))).Forall (fun op => op.fresh = ∅) from ⟨rfl, rfl, rfl, rfl, rfl, rfl, rfl, rfl, rfl, rfl, rfl, rfl, rfl, rfl⟩)
/-- The buffers they write, in order. -/
abbrev ops31_W : List (Ref sig .tc) := [main_cst_41, main_v322, main_v323, main_v324, main_cst_42, main_v325, main_cst_43, main_v326, main_v327, main_v328, main_cst_44, main_v329, main_v330, main_v331]
theorem ops31_writes : (ops31 : List (HloOp τ sig (Elt F))).Forall fun op => op.writes ⊆ (ops31_W.map (Proc.devRef (τ := τ) .tc)).toFinset :=
  ⟨wsub main_cst_41 (by decide) rfl, wsub main_v322 (by decide) rfl, wsub main_v323 (by decide) rfl, wsub main_v324 (by decide) rfl, wsub main_cst_42 (by decide) rfl, wsub main_v325 (by decide) rfl, wsub main_cst_43 (by decide) rfl, wsub main_v326 (by decide) rfl, wsub main_v327 (by decide) rfl, wsub main_v328 (by decide) rfl, wsub main_cst_44 (by decide) rfl, wsub main_v329 (by decide) rfl, wsub main_v330 (by decide) rfl, wsub main_v331 (by decide) rfl⟩
/-- A buffer they do not write keeps its contents through them. -/
theorem ops31_keep (V : Valuation τ sig (Elt F)) {r : Ref sig .tc} (h : r ∉ ops31_W) :
    after (ops31 : List (HloOp τ sig (Elt F))) V (Proc.devRef .tc r) = V (Proc.devRef .tc r) :=
  after_of_writes_sub _ V ops31_writes h
/-- They write none of the arguments of @main. -/
theorem ops31_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops31_W := by decide

/-- Operations 400 … 400 of the 655 of @main, which write `main_v332` … `main_v332` (layer 1, upper graph: node embedding). -/
abbrev ops32 : List (HloOp τ sig (Elt F)) :=
  [ unary main_v295 main_v332 (broadcastInDim S100000x8 ![0, 1] bcast_S1x8_S100000x8_0_1 : (⟨S1x8, .f32⟩ : BufTy).Contents (Elt F) → (⟨S100000x8, .f32⟩ : BufTy).Contents (Elt F)) ]
/-- Every buffer these operations touch is a TensorCore reference. -/
theorem ops32_sub : (ops32 : List (HloOp τ sig (Elt F))).Forall fun op => op.bufs ⊆ tcRefs τ sig :=
  unary_bufs_sub ..
/-- Each of them determines its result. -/
theorem ops32_fresh : ∀ op ∈ (ops32 : List (HloOp τ sig (Elt F))), op.fresh = ∅ :=
  List.forall_iff_forall_mem.mp (show (ops32 : List (HloOp τ sig (Elt F))).Forall (fun op => op.fresh = ∅) from rfl)
/-- The buffers they write, in order. -/
abbrev ops32_W : List (Ref sig .tc) := [main_v332]
theorem ops32_writes : (ops32 : List (HloOp τ sig (Elt F))).Forall fun op => op.writes ⊆ (ops32_W.map (Proc.devRef (τ := τ) .tc)).toFinset :=
  wsub main_v332 (by decide) rfl
/-- A buffer they do not write keeps its contents through them. -/
theorem ops32_keep (V : Valuation τ sig (Elt F)) {r : Ref sig .tc} (h : r ∉ ops32_W) :
    after (ops32 : List (HloOp τ sig (Elt F))) V (Proc.devRef .tc r) = V (Proc.devRef .tc r) :=
  after_of_writes_sub _ V ops32_writes h
/-- They write none of the arguments of @main. -/
theorem ops32_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops32_W := by decide

/-- Operations 401 … 412 of the 655 of @main, which write `main_v333` … `main_v342` (layer 1, upper graph: node embedding). -/
abbrev ops33 : List (HloOp τ sig (Elt F)) :=
  [ nary ![main_v332, main_v279, main_v331] main_v333 (fun u => concatenate S100000x17 1 [⟨S100000x8, u 0⟩, ⟨S100000x8, u 1⟩, ⟨S100000x1, u 2⟩] concatenates_S100000x8_S100000x8_S100000x1_S100000x17_d1),
    binary main_v333 main_v218 main_v334 ((fun l r => Host.dotGeneral dot_S100000x17_S17x32_S100000x32_1_0_0_1_n_n none l r) : (⟨S100000x17, .f32⟩ : BufTy).Contents (Elt F) → (⟨S17x32, .f32⟩ : BufTy).Contents (Elt F) → (⟨S100000x32, .f32⟩ : BufTy).Contents (Elt F)),
    unary main_v220 main_v335 (broadcastInDim S1x32 ![1] bcast_S32_S1x32_1 : (⟨S32, .f32⟩ : BufTy).Contents (Elt F) → (⟨S1x32, .f32⟩ : BufTy).Contents (Elt F)),
    unary main_v335 main_v336 (broadcastInDim S100000x32 ![0, 1] bcast_S1x32_S100000x32_0_1 : (⟨S1x32, .f32⟩ : BufTy).Contents (Elt F) → (⟨S100000x32, .f32⟩ : BufTy).Contents (Elt F)),
    binary main_v334 main_v336 main_v337 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x32, .f32⟩) main_call10_v0) (broadcastInDim S100000x32 ![] bcast_S_S100000x32),
    TRef.binary (TRef.of (T := ⟨S100000x32, .f32⟩) main_v337) (TRef.of (T := ⟨S100000x32, .f32⟩) main_call10_v0) (TRef.of (T := ⟨S100000x32, .f32⟩) main_v338) maximumf,
    binary main_v338 main_v222 main_v339 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)),
    unary main_v224 main_v340 (broadcastInDim S1x8 ![1] bcast_S8_S1x8_1 : (⟨S8, .f32⟩ : BufTy).Contents (Elt F) → (⟨S1x8, .f32⟩ : BufTy).Contents (Elt F)),
    unary main_v340 main_v341 (broadcastInDim S100000x8 ![0, 1] bcast_S1x8_S100000x8_0_1 : (⟨S1x8, .f32⟩ : BufTy).Contents (Elt F) → (⟨S100000x8, .f32⟩ : BufTy).Contents (Elt F)),
    binary main_v339 main_v341 main_v342 (addf : (⟨S100000x8, .f32⟩ : BufTy).Contents (Elt F) → (⟨S100000x8, .f32⟩ : BufTy).Contents (Elt F) → (⟨S100000x8, .f32⟩ : BufTy).Contents (Elt F)) ]
/-- Every buffer these operations touch is a TensorCore reference. -/
theorem ops33_sub : (ops33 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops33_fresh : ∀ op ∈ (ops33 : List (HloOp τ sig (Elt F))), op.fresh = ∅ :=
  List.forall_iff_forall_mem.mp (show (ops33 : List (HloOp τ sig (Elt F))).Forall (fun op => op.fresh = ∅) from ⟨rfl, rfl, rfl, rfl, rfl, rfl, rfl, rfl, rfl, rfl, rfl, rfl⟩)
/-- The buffers they write, in order. -/
abbrev ops33_W : List (Ref sig .tc) := [main_v333, main_v334, main_v335, main_v336, main_v337, main_call10_cst, main_call10_v0, main_v338, main_v339, main_v340, main_v341, main_v342]
theorem ops33_writes : (ops33 : List (HloOp τ sig (Elt F))).Forall fun op => op.writes ⊆ (ops33_W.map (Proc.devRef (τ := τ) .tc)).toFinset :=
  ⟨wsub main_v333 (by decide) rfl, wsub main_v334 (by decide) rfl, wsub main_v335 (by decide) rfl, wsub main_v336 (by decide) rfl, wsub main_v337 (by decide) rfl, wsub main_call10_cst (by decide) rfl, wsub main_call10_v0 (by decide) rfl, wsub main_v338 (by decide) rfl, wsub main_v339 (by decide) rfl, wsub main_v340 (by decide) rfl, wsub main_v341 (by decide) rfl, wsub main_v342 (by decide) rfl⟩
/-- A buffer they do not write keeps its contents through them. -/
theorem ops33_keep (V : Valuation τ sig (Elt F)) {r : Ref sig .tc} (h : r ∉ ops33_W) :
    after (ops33 : List (HloOp τ sig (Elt F))) V (Proc.devRef .tc r) = V (Proc.devRef .tc r) :=
  after_of_writes_sub _ V ops33_writes h
/-- They write none of the arguments of @main. -/
theorem ops33_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops33_W := by decide

/-- Operations 413 … 424 of the 655 of @main, which write `main_cst_45` … `main_v350` (layer 1, upper graph: global update). -/
abbrev ops34 : List (HloOp τ sig (Elt F)) :=
  [ nullary main_cst_45 (constant S_ .f32 0x00000000#32),
    binary main_v342 main_cst_45 main_v343 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v343 main_v344 (broadcastInDim S1x8 ![1] bcast_S8_S1x8_1 : (⟨S8, .f32⟩ : BufTy).Contents (Elt F) → (⟨S1x8, .f32⟩ : BufTy).Contents (Elt F)),
    nullary main_cst_46 (constant S_ .f32 0x47C35000#32),
    unary main_cst_46 main_v345 (broadcastInDim S1x8 ![] bcast_S_S1x8 : (⟨S_, .f32⟩ : BufTy).Contents (Elt F) → (⟨S1x8, .f32⟩ : BufTy).Contents (Elt F)),
    binary main_v344 main_v345 main_v346 (Host.divf : (⟨S1x8, .f32⟩ : BufTy).Contents (Elt F) → (⟨S1x8, .f32⟩ : BufTy).Contents (Elt F) → (⟨S1x8, .f32⟩ : BufTy).Contents (Elt F)),
    nullary main_cst_47 (constant S_ .f32 0x00000000#32),
    binary main_v321 main_cst_47 main_v347 ((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)),
    unary main_v347 main_v348 (broadcastInDim S1x1 ![1] bcast_S1_S1x1_1 : (⟨S1, .f32⟩ : BufTy).Contents (Elt F) → (⟨S1x1, .f32⟩ : BufTy).Contents (Elt F)),
    nullary main_cst_48 (constant S_ .f32 0x49864700#32),
    unary main_cst_48 main_v349 (broadcastInDim S1x1 ![] bcast_S_S1x1 : (⟨S_, .f32⟩ : BufTy).Contents (Elt F) → (⟨S1x1, .f32⟩ : BufTy).Contents (Elt F)),
    binary main_v348 main_v349 main_v350 (Host.divf : (⟨S1x1, .f32⟩ : BufTy).Contents (Elt F) → (⟨S1x1, .f32⟩ : BufTy).Contents (Elt F) → (⟨S1x1, .f32⟩ : BufTy).Contents (Elt F)) ]
/-- Every buffer these operations touch is a TensorCore reference. -/
theorem ops34_sub : (ops34 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub ..⟩
/-- Each of them determines its result. -/
theorem ops34_fresh : ∀ op ∈ (ops34 : List (HloOp τ sig (Elt F))), op.fresh = ∅ :=
  List.forall_iff_forall_mem.mp (show (ops34 : List (HloOp τ sig (Elt F))).Forall (fun op => op.fresh = ∅) from ⟨rfl, rfl, rfl, rfl, rfl, rfl, rfl, rfl, rfl, rfl, rfl, rfl⟩)
/-- The buffers they write, in order. -/
abbrev ops34_W : List (Ref sig .tc) := [main_cst_45, main_v343, main_v344, main_cst_46, main_v345, main_v346, main_cst_47, main_v347, main_v348, main_cst_48, main_v349, main_v350]
theorem ops34_writes : (ops34 : List (HloOp τ sig (Elt F))).Forall fun op => op.writes ⊆ (ops34_W.map (Proc.devRef (τ := τ) .tc)).toFinset :=
  ⟨wsub main_cst_45 (by decide) rfl, wsub main_v343 (by decide) rfl, wsub main_v344 (by decide) rfl, wsub main_cst_46 (by decide) rfl, wsub main_v345 (by decide) rfl, wsub main_v346 (by decide) rfl, wsub main_cst_47 (by decide) rfl, wsub main_v347 (by decide) rfl, wsub main_v348 (by decide) rfl, wsub main_cst_48 (by decide) rfl, wsub main_v349 (by decide) rfl, wsub main_v350 (by decide) rfl⟩
/-- A buffer they do not write keeps its contents through them. -/
theorem ops34_keep (V : Valuation τ sig (Elt F)) {r : Ref sig .tc} (h : r ∉ ops34_W) :
    after (ops34 : List (HloOp τ sig (Elt F))) V (Proc.devRef .tc r) = V (Proc.devRef .tc r) :=
  after_of_writes_sub _ V ops34_writes h
/-- They write none of the arguments of @main. -/
theorem ops34_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops34_W := by decide

/-- Operations 425 … 434 of the 655 of @main, which write `main_v351` … `main_v358` (layer 1, upper graph: global update). -/
abbrev ops35 : List (HloOp τ sig (Elt F)) :=
  [ nary ![main_v346, main_v350, main_v295] main_v351 (fun u => concatenate S1x17 1 [⟨S1x8, u 0⟩, ⟨S1x1, u 1⟩, ⟨S1x8, u 2⟩] concatenates_S1x8_S1x1_S1x8_S1x17_d1),
    binary main_v351 main_v226 main_v352 ((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)),
    unary main_v228 main_v353 (broadcastInDim S1x32 ![1] bcast_S32_S1x32_1 : (⟨S32, .f32⟩ : BufTy).Contents (Elt F) → (⟨S1x32, .f32⟩ : BufTy).Contents (Elt F)),
    binary main_v352 main_v353 main_v354 (addf : (⟨S1x32, .f32⟩ : BufTy).Contents (Elt F) → (⟨S1x32, .f32⟩ : BufTy).Contents (Elt F) → (⟨S1x32, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S1x32, .f32⟩) main_call11_v0) (broadcastInDim S1x32 ![] bcast_S_S1x32),
    TRef.binary (TRef.of (T := ⟨S1x32, .f32⟩) main_v354) (TRef.of (T := ⟨S1x32, .f32⟩) main_call11_v0) (TRef.of (T := ⟨S1x32, .f32⟩) main_v355) maximumf,
    binary main_v355 main_v230 main_v356 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)),
    unary main_v232 main_v357 (broadcastInDim S1x8 ![1] bcast_S8_S1x8_1 : (⟨S8, .f32⟩ : BufTy).Contents (Elt F) → (⟨S1x8, .f32⟩ : BufTy).Contents (Elt F)),
    binary main_v356 main_v357 main_v358 (addf : (⟨S1x8, .f32⟩ : BufTy).Contents (Elt F) → (⟨S1x8, .f32⟩ : BufTy).Contents (Elt F) → (⟨S1x8, .f32⟩ : BufTy).Contents (Elt F)) ]
/-- Every buffer these operations touch is a TensorCore reference. -/
theorem ops35_sub : (ops35 : List (HloOp τ sig (Elt F))).Forall fun op => op.bufs ⊆ tcRefs τ sig :=
  ⟨nary_bufs_sub .., binary_bufs_sub .., unary_bufs_sub .., binary_bufs_sub .., nullary_bufs_sub .., unary_bufs_sub .., binary_bufs_sub .., binary_bufs_sub .., unary_bufs_sub .., binary_bufs_sub ..⟩
/-- Each of them determines its result. -/
theorem ops35_fresh : ∀ op ∈ (ops35 : List (HloOp τ sig (Elt F))), op.fresh = ∅ :=
  List.forall_iff_forall_mem.mp (show (ops35 : List (HloOp τ sig (Elt F))).Forall (fun op => op.fresh = ∅) from ⟨rfl, rfl, rfl, rfl, rfl, rfl, rfl, rfl, rfl, rfl⟩)
/-- The buffers they write, in order. -/
abbrev ops35_W : List (Ref sig .tc) := [main_v351, main_v352, main_v353, main_v354, main_call11_cst, main_call11_v0, main_v355, main_v356, main_v357, main_v358]
theorem ops35_writes : (ops35 : List (HloOp τ sig (Elt F))).Forall fun op => op.writes ⊆ (ops35_W.map (Proc.devRef (τ := τ) .tc)).toFinset :=
  ⟨wsub main_v351 (by decide) rfl, wsub main_v352 (by decide) rfl, wsub main_v353 (by decide) rfl, wsub main_v354 (by decide) rfl, wsub main_call11_cst (by decide) rfl, wsub main_call11_v0 (by decide) rfl, wsub main_v355 (by decide) rfl, wsub main_v356 (by decide) rfl, wsub main_v357 (by decide) rfl, wsub main_v358 (by decide) rfl⟩
/-- A buffer they do not write keeps its contents through them. -/
theorem ops35_keep (V : Valuation τ sig (Elt F)) {r : Ref sig .tc} (h : r ∉ ops35_W) :
    after (ops35 : List (HloOp τ sig (Elt F))) V (Proc.devRef .tc r) = V (Proc.devRef .tc r) :=
  after_of_writes_sub _ V ops35_writes h
/-- They write none of the arguments of @main. -/
theorem ops35_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops35_W := by decide

/-- Operations 435 … 444 of the 655 of @main, which write `main_v359` … `main_v368` (the parameters of layer 2). -/
abbrev ops36 : List (HloOp τ sig (Elt F)) :=
  [ unary main_arg5 main_v359 ((extractStridedSlice S1x1x26x32 ![0, 2, 0, 0] · slices_S2x3x26x32_S1x1x26x32_0_2_0_0) : (⟨S2x3x26x32, .f32⟩ : BufTy).Contents (Elt F) → (⟨S1x1x26x32, .f32⟩ : BufTy).Contents (Elt F)),
    reshape main_v359 main_v360 rfl shapeCasts_S1x1x26x32_S26x32,
    unary main_arg6 main_v361 ((extractStridedSlice S1x1x32 ![0, 2, 0] · slices_S2x3x32_S1x1x32_0_2_0) : (⟨S2x3x32, .f32⟩ : BufTy).Contents (Elt F) → (⟨S1x1x32, .f32⟩ : BufTy).Contents (Elt F)),
    reshape main_v361 main_v362 rfl shapeCasts_S1x1x32_S32,
    unary main_arg7 main_v363 ((extractStridedSlice S1x1x32x1 ![0, 2, 0, 0] · slices_S2x3x32x1_S1x1x32x1_0_2_0_0) : (⟨S2x3x32x1, .f32⟩ : BufTy).Contents (Elt F) → (⟨S1x1x32x1, .f32⟩ : BufTy).Contents (Elt F)),
    reshape main_v363 main_v364 rfl shapeCasts_S1x1x32x1_S32x1,
    unary main_arg8 main_v365 ((extractStridedSlice S1x1x1 ![0, 2, 0] · slices_S2x3x1_S1x1x1_0_2_0) : (⟨S2x3x1, .f32⟩ : BufTy).Contents (Elt F) → (⟨S1x1x1, .f32⟩ : BufTy).Contents (Elt F)),
    reshape main_v365 main_v366 rfl shapeCasts_S1x1x1_S1,
    unary main_arg9 main_v367 ((extractStridedSlice S1x1x17x32 ![0, 2, 0, 0] · slices_S2x3x17x32_S1x1x17x32_0_2_0_0) : (⟨S2x3x17x32, .f32⟩ : BufTy).Contents (Elt F) → (⟨S1x1x17x32, .f32⟩ : BufTy).Contents (Elt F)),
    reshape main_v367 main_v368 rfl shapeCasts_S1x1x17x32_S17x32 ]
/-- Every buffer these operations touch is a TensorCore reference. -/
theorem ops36_sub : (ops36 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub ..⟩
/-- Each of them determines its result. -/
theorem ops36_fresh : ∀ op ∈ (ops36 : List (HloOp τ sig (Elt F))), op.fresh = ∅ :=
  List.forall_iff_forall_mem.mp (show (ops36 : List (HloOp τ sig (Elt F))).Forall (fun op => op.fresh = ∅) from ⟨rfl, rfl, rfl, rfl, rfl, rfl, rfl, rfl, rfl, rfl⟩)
/-- The buffers they write, in order. -/
abbrev ops36_W : List (Ref sig .tc) := [main_v359, main_v360, main_v361, main_v362, main_v363, main_v364, main_v365, main_v366, main_v367, main_v368]
theorem ops36_writes : (ops36 : List (HloOp τ sig (Elt F))).Forall fun op => op.writes ⊆ (ops36_W.map (Proc.devRef (τ := τ) .tc)).toFinset :=
  ⟨wsub main_v359 (by decide) rfl, wsub main_v360 (by decide) rfl, wsub main_v361 (by decide) rfl, wsub main_v362 (by decide) rfl, wsub main_v363 (by decide) rfl, wsub main_v364 (by decide) rfl, wsub main_v365 (by decide) rfl, wsub main_v366 (by decide) rfl, wsub main_v367 (by decide) rfl, wsub main_v368 (by decide) rfl⟩
/-- A buffer they do not write keeps its contents through them. -/
theorem ops36_keep (V : Valuation τ sig (Elt F)) {r : Ref sig .tc} (h : r ∉ ops36_W) :
    after (ops36 : List (HloOp τ sig (Elt F))) V (Proc.devRef .tc r) = V (Proc.devRef .tc r) :=
  after_of_writes_sub _ V ops36_writes h
/-- They write none of the arguments of @main. -/
theorem ops36_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops36_W := by decide

/-- The operations of the window: its chunks in order. -/
abbrev win6 : List (HloOp τ sig (Elt F)) := ops30 ++ (ops31 ++ (ops32 ++ (ops33 ++ (ops34 ++ (ops35 ++ (ops36))))))
set_option maxHeartbeats 4000000 in
/-- The window of @main is the straight line of these operations. -/
theorem main_part6_eq (c : Dev nD) : main_part6 (F := F) c = seq win6 := rfl
theorem win6_sub : ∀ op ∈ (win6 : List (HloOp τ sig (Elt F))), op.bufs ⊆ tcRefs τ sig :=
  List.forall_mem_append.mpr ⟨List.forall_iff_forall_mem.mp ops30_sub, List.forall_mem_append.mpr ⟨List.forall_iff_forall_mem.mp ops31_sub, List.forall_mem_append.mpr ⟨List.forall_iff_forall_mem.mp ops32_sub, List.forall_mem_append.mpr ⟨List.forall_iff_forall_mem.mp ops33_sub, List.forall_mem_append.mpr ⟨List.forall_iff_forall_mem.mp ops34_sub, List.forall_mem_append.mpr ⟨List.forall_iff_forall_mem.mp ops35_sub, List.forall_iff_forall_mem.mp ops36_sub⟩⟩⟩⟩⟩⟩
theorem win6_fresh : ∀ op ∈ (win6 : List (HloOp τ sig (Elt F))), op.fresh = ∅ :=
  List.forall_mem_append.mpr ⟨ops30_fresh, List.forall_mem_append.mpr ⟨ops31_fresh, List.forall_mem_append.mpr ⟨ops32_fresh, List.forall_mem_append.mpr ⟨ops33_fresh, List.forall_mem_append.mpr ⟨ops34_fresh, List.forall_mem_append.mpr ⟨ops35_fresh, ops36_fresh⟩⟩⟩⟩⟩⟩

end Cert.ReferenceIdeal.RunFold

end
-- ==== Proof.Ref.Chunks7.lean ====
import proofs.«426760_j80470507258346_3_alg».proof.Proof.Gen.ReferenceIdeal
import Idealize.ShloMosaic.Lib.StableHlo.Run
import Idealize.ShloMosaic.Lib.Pipeline.Frame

/-! Operations 445 … 504 of the 655 of the reference program (the window `main_part7` of @main), in 3 chunks `ops37` … `ops39`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 445 … 482 of the 655 of @main, which write `main_v369` … `main_v406` (the parameters of layer 2). -/
abbrev ops37 : List (HloOp τ sig (Elt F)) :=
  [ unary main_arg10 main_v369 ((extractStridedSlice S1x1x32 ![0, 2, 0] · slices_S2x3x32_S1x1x32_0_2_0) : (⟨S2x3x32, .f32⟩ : BufTy).Contents (Elt F) → (⟨S1x1x32, .f32⟩ : BufTy).Contents (Elt F)),
    reshape main_v369 main_v370 rfl shapeCasts_S1x1x32_S32,
    unary main_arg11 main_v371 ((extractStridedSlice S1x1x32x8 ![0, 2, 0, 0] · slices_S2x3x32x8_S1x1x32x8_0_2_0_0) : (⟨S2x3x32x8, .f32⟩ : BufTy).Contents (Elt F) → (⟨S1x1x32x8, .f32⟩ : BufTy).Contents (Elt F)),
    reshape main_v371 main_v372 rfl shapeCasts_S1x1x32x8_S32x8,
    unary main_arg12 main_v373 ((extractStridedSlice S1x1x8 ![0, 2, 0] · slices_S2x3x8_S1x1x8_0_2_0) : (⟨S2x3x8, .f32⟩ : BufTy).Contents (Elt F) → (⟨S1x1x8, .f32⟩ : BufTy).Contents (Elt F)),
    reshape main_v373 main_v374 rfl shapeCasts_S1x1x8_S8,
    unary main_arg13 main_v375 ((extractStridedSlice S1x1x17x32 ![0, 2, 0, 0] · slices_S2x3x17x32_S1x1x17x32_0_2_0_0) : (⟨S2x3x17x32, .f32⟩ : BufTy).Contents (Elt F) → (⟨S1x1x17x32, .f32⟩ : BufTy).Contents (Elt F)),
    reshape main_v375 main_v376 rfl shapeCasts_S1x1x17x32_S17x32,
    unary main_arg14 main_v377 ((extractStridedSlice S1x1x32 ![0, 2, 0] · slices_S2x3x32_S1x1x32_0_2_0) : (⟨S2x3x32, .f32⟩ : BufTy).Contents (Elt F) → (⟨S1x1x32, .f32⟩ : BufTy).Contents (Elt F)),
    reshape main_v377 main_v378 rfl shapeCasts_S1x1x32_S32,
    unary main_arg15 main_v379 ((extractStridedSlice S1x1x32x8 ![0, 2, 0, 0] · slices_S2x3x32x8_S1x1x32x8_0_2_0_0) : (⟨S2x3x32x8, .f32⟩ : BufTy).Contents (Elt F) → (⟨S1x1x32x8, .f32⟩ : BufTy).Contents (Elt F)),
    reshape main_v379 main_v380 rfl shapeCasts_S1x1x32x8_S32x8,
    unary main_arg16 main_v381 ((extractStridedSlice S1x1x8 ![0, 2, 0] · slices_S2x3x8_S1x1x8_0_2_0) : (⟨S2x3x8, .f32⟩ : BufTy).Contents (Elt F) → (⟨S1x1x8, .f32⟩ : BufTy).Contents (Elt F)),
    reshape main_v381 main_v382 rfl shapeCasts_S1x1x8_S8,
    unary main_arg5 main_v383 ((extractStridedSlice S1x1x26x32 ![1, 2, 0, 0] · slices_S2x3x26x32_S1x1x26x32_1_2_0_0) : (⟨S2x3x26x32, .f32⟩ : BufTy).Contents (Elt F) → (⟨S1x1x26x32, .f32⟩ : BufTy).Contents (Elt F)),
    reshape main_v383 main_v384 rfl shapeCasts_S1x1x26x32_S26x32,
    unary main_arg6 main_v385 ((extractStridedSlice S1x1x32 ![1, 2, 0] · slices_S2x3x32_S1x1x32_1_2_0) : (⟨S2x3x32, .f32⟩ : BufTy).Contents (Elt F) → (⟨S1x1x32, .f32⟩ : BufTy).Contents (Elt F)),
    reshape main_v385 main_v386 rfl shapeCasts_S1x1x32_S32,
    unary main_arg7 main_v387 ((extractStridedSlice S1x1x32x1 ![1, 2, 0, 0] · slices_S2x3x32x1_S1x1x32x1_1_2_0_0) : (⟨S2x3x32x1, .f32⟩ : BufTy).Contents (Elt F) → (⟨S1x1x32x1, .f32⟩ : BufTy).Contents (Elt F)),
    reshape main_v387 main_v388 rfl shapeCasts_S1x1x32x1_S32x1,
    unary main_arg8 main_v389 ((extractStridedSlice S1x1x1 ![1, 2, 0] · slices_S2x3x1_S1x1x1_1_2_0) : (⟨S2x3x1, .f32⟩ : BufTy).Contents (Elt F) → (⟨S1x1x1, .f32⟩ : BufTy).Contents (Elt F)),
    reshape main_v389 main_v390 rfl shapeCasts_S1x1x1_S1,
    unary main_arg9 main_v391 ((extractStridedSlice S1x1x17x32 ![1, 2, 0, 0] · slices_S2x3x17x32_S1x1x17x32_1_2_0_0) : (⟨S2x3x17x32, .f32⟩ : BufTy).Contents (Elt F) → (⟨S1x1x17x32, .f32⟩ : BufTy).Contents (Elt F)),
    reshape main_v391 main_v392 rfl shapeCasts_S1x1x17x32_S17x32,
    unary main_arg10 main_v393 ((extractStridedSlice S1x1x32 ![1, 2, 0] · slices_S2x3x32_S1x1x32_1_2_0) : (⟨S2x3x32, .f32⟩ : BufTy).Contents (Elt F) → (⟨S1x1x32, .f32⟩ : BufTy).Contents (Elt F)),
    reshape main_v393 main_v394 rfl shapeCasts_S1x1x32_S32,
    unary main_arg11 main_v395 ((extractStridedSlice S1x1x32x8 ![1, 2, 0, 0] · slices_S2x3x32x8_S1x1x32x8_1_2_0_0) : (⟨S2x3x32x8, .f32⟩ : BufTy).Contents (Elt F) → (⟨S1x1x32x8, .f32⟩ : BufTy).Contents (Elt F)),
    reshape main_v395 main_v396 rfl shapeCasts_S1x1x32x8_S32x8,
    unary main_arg12 main_v397 ((extractStridedSlice S1x1x8 ![1, 2, 0] · slices_S2x3x8_S1x1x8_1_2_0) : (⟨S2x3x8, .f32⟩ : BufTy).Contents (Elt F) → (⟨S1x1x8, .f32⟩ : BufTy).Contents (Elt F)),
    reshape main_v397 main_v398 rfl shapeCasts_S1x1x8_S8,
    unary main_arg13 main_v399 ((extractStridedSlice S1x1x17x32 ![1, 2, 0, 0] · slices_S2x3x17x32_S1x1x17x32_1_2_0_0) : (⟨S2x3x17x32, .f32⟩ : BufTy).Contents (Elt F) → (⟨S1x1x17x32, .f32⟩ : BufTy).Contents (Elt F)),
    reshape main_v399 main_v400 rfl shapeCasts_S1x1x17x32_S17x32,
    unary main_arg14 main_v401 ((extractStridedSlice S1x1x32 ![1, 2, 0] · slices_S2x3x32_S1x1x32_1_2_0) : (⟨S2x3x32, .f32⟩ : BufTy).Contents (Elt F) → (⟨S1x1x32, .f32⟩ : BufTy).Contents (Elt F)),
    reshape main_v401 main_v402 rfl shapeCasts_S1x1x32_S32,
    unary main_arg15 main_v403 ((extractStridedSlice S1x1x32x8 ![1, 2, 0, 0] · slices_S2x3x32x8_S1x1x32x8_1_2_0_0) : (⟨S2x3x32x8, .f32⟩ : BufTy).Contents (Elt F) → (⟨S1x1x32x8, .f32⟩ : BufTy).Contents (Elt F)),
    reshape main_v403 main_v404 rfl shapeCasts_S1x1x32x8_S32x8,
    unary main_arg16 main_v405 ((extractStridedSlice S1x1x8 ![1, 2, 0] · slices_S2x3x8_S1x1x8_1_2_0) : (⟨S2x3x8, .f32⟩ : BufTy).Contents (Elt F) → (⟨S1x1x8, .f32⟩ : BufTy).Contents (Elt F)),
    reshape main_v405 main_v406 rfl shapeCasts_S1x1x8_S8 ]
/-- Every buffer these operations touch is a TensorCore reference. -/
theorem ops37_sub : (ops37 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
/-- Each of them determines its result. -/
theorem ops37_fresh : ∀ op ∈ (ops37 : List (HloOp τ sig (Elt F))), op.fresh = ∅ :=
  List.forall_iff_forall_mem.mp (show (ops37 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
/-- The buffers they write, in order. -/
abbrev ops37_W : List (Ref sig .tc) := [main_v369, main_v370, main_v371, main_v372, main_v373, main_v374, main_v375, main_v376, main_v377, main_v378, main_v379, main_v380, main_v381, main_v382, main_v383, main_v384, main_v385, main_v386, main_v387, main_v388, main_v389, main_v390, main_v391, main_v392, main_v393, main_v394, main_v395, main_v396, main_v397, main_v398, main_v399, main_v400, main_v401, main_v402, main_v403, main_v404, main_v405, main_v406]
theorem ops37_writes : (ops37 : List (HloOp τ sig (Elt F))).Forall fun op => op.writes ⊆ (ops37_W.map (Proc.devRef (τ := τ) .tc)).toFinset :=
  ⟨wsub main_v369 (by decide) rfl, wsub main_v370 (by decide) rfl, wsub main_v371 (by decide) rfl, wsub main_v372 (by decide) rfl, wsub main_v373 (by decide) rfl, wsub main_v374 (by decide) rfl, wsub main_v375 (by decide) rfl, wsub main_v376 (by decide) rfl, wsub main_v377 (by decide) rfl, wsub main_v378 (by decide) rfl, wsub main_v379 (by decide) rfl, wsub main_v380 (by decide) rfl, wsub main_v381 (by decide) rfl, wsub main_v382 (by decide) rfl, wsub main_v383 (by decide) rfl, wsub main_v384 (by decide) rfl, wsub main_v385 (by decide) rfl, wsub main_v386 (by decide) rfl, wsub main_v387 (by decide) rfl, wsub main_v388 (by decide) rfl, wsub main_v389 (by decide) rfl, wsub main_v390 (by decide) rfl, wsub main_v391 (by decide) rfl, wsub main_v392 (by decide) rfl, wsub main_v393 (by decide) rfl, wsub main_v394 (by decide) rfl, wsub main_v395 (by decide) rfl, wsub main_v396 (by decide) rfl, wsub main_v397 (by decide) rfl, wsub main_v398 (by decide) rfl, wsub main_v399 (by decide) rfl, wsub main_v400 (by decide) rfl, wsub main_v401 (by decide) rfl, wsub main_v402 (by decide) rfl, wsub main_v403 (by decide) rfl, wsub main_v404 (by decide) rfl, wsub main_v405 (by decide) rfl, wsub main_v406 (by decide) rfl⟩
/-- A buffer they do not write keeps its contents through them. -/
theorem ops37_keep (V : Valuation τ sig (Elt F)) {r : Ref sig .tc} (h : r ∉ ops37_W) :
    after (ops37 : List (HloOp τ sig (Elt F))) V (Proc.devRef .tc r) = V (Proc.devRef .tc r) :=
  after_of_writes_sub _ V ops37_writes h
/-- They write none of the arguments of @main. -/
theorem ops37_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops37_W := by decide

/-- Operations 483 … 502 of the 655 of @main, which write `main_v407` … `main_v422` (layer 2, lower graph: edge embedding). -/
abbrev ops38 : List (HloOp τ sig (Elt F)) :=
  [ binary main_v258 main_arg3 main_v407 ((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)),
    unary main_v358 main_v408 (broadcastInDim S1100000x8 ![0, 1] bcast_S1x8_S1100000x8_0_1 : (⟨S1x8, .f32⟩ : BufTy).Contents (Elt F) → (⟨S1100000x8, .f32⟩ : BufTy).Contents (Elt F)),
    nullary main_c_49 (constantI S_ 32 0#32),
    unary main_c_49 main_v409 (broadcastInDim S1100000 ![] bcast_S_S1100000 : (⟨S_, .i32⟩ : BufTy).Contents (Elt F) → (⟨S1100000, .i32⟩ : BufTy).Contents (Elt F)),
    binary main_v1 main_v409 main_v410 (cmpi .slt : (⟨S1100000, .i32⟩ : BufTy).Contents (Elt F) → (⟨S1100000, .i32⟩ : BufTy).Contents (Elt F) → (⟨S1100000, .i1⟩ : BufTy).Contents (Elt F)),
    nullary main_c_50 (constantI S_ 32 100000#32),
    unary main_c_50 main_v411 (broadcastInDim S1100000 ![] bcast_S_S1100000 : (⟨S_, .i32⟩ : BufTy).Contents (Elt F) → (⟨S1100000, .i32⟩ : BufTy).Contents (Elt F)),
    binary main_v1 main_v411 main_v412 (addi : (⟨S1100000, .i32⟩ : BufTy).Contents (Elt F) → (⟨S1100000, .i32⟩ : BufTy).Contents (Elt F) → (⟨S1100000, .i32⟩ : BufTy).Contents (Elt F)),
    ternary main_v410 main_v412 main_v1 main_v413 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v413 main_v414 (broadcastInDim S1100000x1 ![0] bcast_S1100000_S1100000x1_0 : (⟨S1100000, .i32⟩ : BufTy).Contents (Elt F) → (⟨S1100000x1, .i32⟩ : BufTy).Contents (Elt F)),
    binary main_arg0 main_v414 main_v415 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    nullary main_c_51 (constantI S_ 32 0#32),
    unary main_c_51 main_v416 (broadcastInDim S1100000 ![] bcast_S_S1100000 : (⟨S_, .i32⟩ : BufTy).Contents (Elt F) → (⟨S1100000, .i32⟩ : BufTy).Contents (Elt F)),
    binary main_v3 main_v416 main_v417 (cmpi .slt : (⟨S1100000, .i32⟩ : BufTy).Contents (Elt F) → (⟨S1100000, .i32⟩ : BufTy).Contents (Elt F) → (⟨S1100000, .i1⟩ : BufTy).Contents (Elt F)),
    nullary main_c_52 (constantI S_ 32 100000#32),
    unary main_c_52 main_v418 (broadcastInDim S1100000 ![] bcast_S_S1100000 : (⟨S_, .i32⟩ : BufTy).Contents (Elt F) → (⟨S1100000, .i32⟩ : BufTy).Contents (Elt F)),
    binary main_v3 main_v418 main_v419 (addi : (⟨S1100000, .i32⟩ : BufTy).Contents (Elt F) → (⟨S1100000, .i32⟩ : BufTy).Contents (Elt F) → (⟨S1100000, .i32⟩ : BufTy).Contents (Elt F)),
    ternary main_v417 main_v419 main_v3 main_v420 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v420 main_v421 (broadcastInDim S1100000x1 ![0] bcast_S1100000_S1100000x1_0 : (⟨S1100000, .i32⟩ : BufTy).Contents (Elt F) → (⟨S1100000x1, .i32⟩ : BufTy).Contents (Elt F)),
    binary main_arg0 main_v421 main_v422 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) ]
/-- Every buffer these operations touch is a TensorCore reference. -/
theorem ops38_sub : (ops38 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
/-- Each of them determines its result. -/
theorem ops38_fresh : ∀ op ∈ (ops38 : List (HloOp τ sig (Elt F))), op.fresh = ∅ :=
  List.forall_iff_forall_mem.mp (show (ops38 : List (HloOp τ sig (Elt F))).Forall (fun op => op.fresh = ∅) from ⟨rfl, rfl, rfl, rfl, rfl, rfl, rfl, rfl, rfl, rfl, rfl, rfl, rfl, rfl, rfl, rfl, rfl, rfl, rfl, rfl⟩)
/-- The buffers they write, in order. -/
abbrev ops38_W : List (Ref sig .tc) := [main_v407, main_v408, main_c_49, main_v409, main_v410, main_c_50, main_v411, main_v412, main_v413, main_v414, main_v415, main_c_51, main_v416, main_v417, main_c_52, main_v418, main_v419, main_v420, main_v421, main_v422]
theorem ops38_writes : (ops38 : List (HloOp τ sig (Elt F))).Forall fun op => op.writes ⊆ (ops38_W.map (Proc.devRef (τ := τ) .tc)).toFinset :=
  ⟨wsub main_v407 (by decide) rfl, wsub main_v408 (by decide) rfl, wsub main_c_49 (by decide) rfl, wsub main_v409 (by decide) rfl, wsub main_v410 (by decide) rfl, wsub main_c_50 (by decide) rfl, wsub main_v411 (by decide) rfl, wsub main_v412 (by decide) rfl, wsub main_v413 (by decide) rfl, wsub main_v414 (by decide) rfl, wsub main_v415 (by decide) rfl, wsub main_c_51 (by decide) rfl, wsub main_v416 (by decide) rfl, wsub main_v417 (by decide) rfl, wsub main_c_52 (by decide) rfl, wsub main_v418 (by decide) rfl, wsub main_v419 (by decide) rfl, wsub main_v420 (by decide) rfl, wsub main_v421 (by decide) rfl, wsub main_v422 (by decide) rfl⟩
/-- A buffer they do not write keeps its contents through them. -/
theorem ops38_keep (V : Valuation τ sig (Elt F)) {r : Ref sig .tc} (h : r ∉ ops38_W) :
    after (ops38 : List (HloOp τ sig (Elt F))) V (Proc.devRef .tc r) = V (Proc.devRef .tc r) :=
  after_of_writes_sub _ V ops38_writes h
/-- They write none of the arguments of @main. -/
theorem ops38_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops38_W := by decide

/-- Operations 503 … 504 of the 655 of @main, which write `main_v423` … `main_v424` (layer 2, lower graph: edge embedding). -/
abbrev ops39 : List (HloOp τ sig (Elt F)) :=
  [ nary ![main_v408, main_v415, main_v422, main_v407] main_v423 (fun u => concatenate S1100000x26 1 [⟨S1100000x8, u 0⟩, ⟨S1100000x8, u 1⟩, ⟨S1100000x8, u 2⟩, ⟨S1100000x2, u 3⟩] concatenates_S1100000x8_S1100000x8_S1100000x8_S1100000x2_S1100000x26_d1),
    binary main_v423 main_v360 main_v424 ((fun l r => Host.dotGeneral dot_S1100000x26_S26x32_S1100000x32_1_0_0_1_n_n none l r) : (⟨S1100000x26, .f32⟩ : BufTy).Contents (Elt F) → (⟨S26x32, .f32⟩ : BufTy).Contents (Elt F) → (⟨S1100000x32, .f32⟩ : BufTy).Contents (Elt F)) ]
/-- Every buffer these operations touch is a TensorCore reference. -/
theorem ops39_sub : (ops39 : List (HloOp τ sig (Elt F))).Forall fun op => op.bufs ⊆ tcRefs τ sig :=
  ⟨nary_bufs_sub .., binary_bufs_sub ..⟩
/-- Each of them determines its result. -/
theorem ops39_fresh : ∀ op ∈ (ops39 : List (HloOp τ sig (Elt F))), op.fresh = ∅ :=
  List.forall_iff_forall_mem.mp (show (ops39 : List (HloOp τ sig (Elt F))).Forall (fun op => op.fresh = ∅) from ⟨rfl, rfl⟩)
/-- The buffers they write, in order. -/
abbrev ops39_W : List (Ref sig .tc) := [main_v423, main_v424]
theorem ops39_writes : (ops39 : List (HloOp τ sig (Elt F))).Forall fun op => op.writes ⊆ (ops39_W.map (Proc.devRef (τ := τ) .tc)).toFinset :=
  ⟨wsub main_v423 (by decide) rfl, wsub main_v424 (by decide) rfl⟩
/-- A buffer they do not write keeps its contents through them. -/
theorem ops39_keep (V : Valuation τ sig (Elt F)) {r : Ref sig .tc} (h : r ∉ ops39_W) :
    after (ops39 : List (HloOp τ sig (Elt F))) V (Proc.devRef .tc r) = V (Proc.devRef .tc r) :=
  after_of_writes_sub _ V ops39_writes h
/-- They write none of the arguments of @main. -/
theorem ops39_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops39_W := by decide

/-- The operations of the window: its chunks in order. -/
abbrev win7 : List (HloOp τ sig (Elt F)) := ops37 ++ (ops38 ++ (ops39))
set_option maxHeartbeats 4000000 in
/-- The window of @main is the straight line of these operations. -/
theorem main_part7_eq (c : Dev nD) : main_part7 (F := F) c = seq win7 := rfl
theorem win7_sub : ∀ op ∈ (win7 : List (HloOp τ sig (Elt F))), op.bufs ⊆ tcRefs τ sig :=
  List.forall_mem_append.mpr ⟨List.forall_iff_forall_mem.mp ops37_sub, List.forall_mem_append.mpr ⟨List.forall_iff_forall_mem.mp ops38_sub, List.forall_iff_forall_mem.mp ops39_sub⟩⟩
theorem win7_fresh : ∀ op ∈ (win7 : List (HloOp τ sig (Elt F))), op.fresh = ∅ :=
  List.forall_mem_append.mpr ⟨ops37_fresh, List.forall_mem_append.mpr ⟨ops38_fresh, ops39_fresh⟩⟩

end Cert.ReferenceIdeal.RunFold

end
-- ==== Proof.Ref.Chunks8.lean ====
import proofs.«426760_j80470507258346_3_alg».proof.Proof.Gen.ReferenceIdeal
import Idealize.ShloMosaic.Lib.StableHlo.Run
import Idealize.ShloMosaic.Lib.Pipeline.Frame

/-! Operations 505 … 570 of the 655 of the reference program (the window `main_part8` of @main), in 7 chunks `ops40` … `ops46`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 505 … 514 of the 655 of @main, which write `main_v425` … `main_v432` (layer 2, lower graph: edge embedding). -/
abbrev ops40 : List (HloOp τ sig (Elt F)) :=
  [ unary main_v362 main_v425 (broadcastInDim S1x32 ![1] bcast_S32_S1x32_1 : (⟨S32, .f32⟩ : BufTy).Contents (Elt F) → (⟨S1x32, .f32⟩ : BufTy).Contents (Elt F)),
    unary main_v425 main_v426 (broadcastInDim S1100000x32 ![0, 1] bcast_S1x32_S1100000x32_0_1 : (⟨S1x32, .f32⟩ : BufTy).Contents (Elt F) → (⟨S1100000x32, .f32⟩ : BufTy).Contents (Elt F)),
    binary main_v424 main_v426 main_v427 (addf : (⟨S1100000x32, .f32⟩ : BufTy).Contents (Elt F) → (⟨S1100000x32, .f32⟩ : BufTy).Contents (Elt F) → (⟨S1100000x32, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S1100000x32, .f32⟩) main_call12_v0) (broadcastInDim S1100000x32 ![] bcast_S_S1100000x32),
    TRef.binary (TRef.of (T := ⟨S1100000x32, .f32⟩) main_v427) (TRef.of (T := ⟨S1100000x32, .f32⟩) main_call12_v0) (TRef.of (T := ⟨S1100000x32, .f32⟩) main_v428) maximumf,
    binary main_v428 main_v364 main_v429 ((fun l r => Host.dotGeneral dot_S1100000x32_S32x1_S1100000x1_1_0_0_1_n_n none l r) : (⟨S1100000x32, .f32⟩ : BufTy).Contents (Elt F) → (⟨S32x1, .f32⟩ : BufTy).Contents (Elt F) → (⟨S1100000x1, .f32⟩ : BufTy).Contents (Elt F)),
    unary main_v366 main_v430 (broadcastInDim S1x1 ![1] bcast_S1_S1x1_1 : (⟨S1, .f32⟩ : BufTy).Contents (Elt F) → (⟨S1x1, .f32⟩ : BufTy).Contents (Elt F)),
    unary main_v430 main_v431 (broadcastInDim S1100000x1 ![0, 1] bcast_S1x1_S1100000x1_0_1 : (⟨S1x1, .f32⟩ : BufTy).Contents (Elt F) → (⟨S1100000x1, .f32⟩ : BufTy).Contents (Elt F)),
    binary main_v429 main_v431 main_v432 (addf : (⟨S1100000x1, .f32⟩ : BufTy).Contents (Elt F) → (⟨S1100000x1, .f32⟩ : BufTy).Contents (Elt F) → (⟨S1100000x1, .f32⟩ : BufTy).Contents (Elt F)) ]
/-- Every buffer these operations touch is a TensorCore reference. -/
theorem ops40_sub : (ops40 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops40_fresh : ∀ op ∈ (ops40 : List (HloOp τ sig (Elt F))), op.fresh = ∅ :=
  List.forall_iff_forall_mem.mp (show (ops40 : List (HloOp τ sig (Elt F))).Forall (fun op => op.fresh = ∅) from ⟨rfl, rfl, rfl, rfl, rfl, rfl, rfl, rfl, rfl, rfl⟩)
/-- The buffers they write, in order. -/
abbrev ops40_W : List (Ref sig .tc) := [main_v425, main_v426, main_v427, main_call12_cst, main_call12_v0, main_v428, main_v429, main_v430, main_v431, main_v432]
theorem ops40_writes : (ops40 : List (HloOp τ sig (Elt F))).Forall fun op => op.writes ⊆ (ops40_W.map (Proc.devRef (τ := τ) .tc)).toFinset :=
  ⟨wsub main_v425 (by decide) rfl, wsub main_v426 (by decide) rfl, wsub main_v427 (by decide) rfl, wsub main_call12_cst (by decide) rfl, wsub main_call12_v0 (by decide) rfl, wsub main_v428 (by decide) rfl, wsub main_v429 (by decide) rfl, wsub main_v430 (by decide) rfl, wsub main_v431 (by decide) rfl, wsub main_v432 (by decide) rfl⟩
/-- A buffer they do not write keeps its contents through them. -/
theorem ops40_keep (V : Valuation τ sig (Elt F)) {r : Ref sig .tc} (h : r ∉ ops40_W) :
    after (ops40 : List (HloOp τ sig (Elt F))) V (Proc.devRef .tc r) = V (Proc.devRef .tc r) :=
  after_of_writes_sub _ V ops40_writes h
/-- They write none of the arguments of @main. -/
theorem ops40_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops40_W := by decide

/-- Operations 515 … 528 of the 655 of @main, which write `main_cst_53` … `main_v442` (layer 2, lower graph: mean aggregation). -/
abbrev ops41 : List (HloOp τ sig (Elt F)) :=
  [ nullary main_cst_53 (constant S_ .f32 0x00000000#32),
    unary main_cst_53 main_v433 (broadcastInDim S100000x1 ![] bcast_S_S100000x1 : (⟨S_, .f32⟩ : BufTy).Contents (Elt F) → (⟨S100000x1, .f32⟩ : BufTy).Contents (Elt F)),
    unary main_v1 main_v434 (broadcastInDim S1100000x1 ![0] bcast_S1100000_S1100000x1_0 : (⟨S1100000, .i32⟩ : BufTy).Contents (Elt F) → (⟨S1100000x1, .i32⟩ : BufTy).Contents (Elt F)),
    ternary main_v433 main_v434 main_v432 main_v435 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_54 (constant S_ .f32 0x3F800000#32),
    unary main_cst_54 main_v436 (broadcastInDim S1100000x1 ![] bcast_S_S1100000x1 : (⟨S_, .f32⟩ : BufTy).Contents (Elt F) → (⟨S1100000x1, .f32⟩ : BufTy).Contents (Elt F)),
    nullary main_cst_55 (constant S_ .f32 0x00000000#32),
    unary main_cst_55 main_v437 (broadcastInDim S100000x1 ![] bcast_S_S100000x1 : (⟨S_, .f32⟩ : BufTy).Contents (Elt F) → (⟨S100000x1, .f32⟩ : BufTy).Contents (Elt F)),
    unary main_v1 main_v438 (broadcastInDim S1100000x1 ![0] bcast_S1100000_S1100000x1_0 : (⟨S1100000, .i32⟩ : BufTy).Contents (Elt F) → (⟨S1100000x1, .i32⟩ : BufTy).Contents (Elt F)),
    ternary main_v437 main_v438 main_v436 main_v439 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_56 (constant S_ .f32 0x3F800000#32),
    unary main_cst_56 main_v440 (broadcastInDim S100000x1 ![] bcast_S_S100000x1 : (⟨S_, .f32⟩ : BufTy).Contents (Elt F) → (⟨S100000x1, .f32⟩ : BufTy).Contents (Elt F)),
    binary main_v439 main_v440 main_v441 (maximumf : (⟨S100000x1, .f32⟩ : BufTy).Contents (Elt F) → (⟨S100000x1, .f32⟩ : BufTy).Contents (Elt F) → (⟨S100000x1, .f32⟩ : BufTy).Contents (Elt F)),
    binary main_v435 main_v441 main_v442 (Host.divf : (⟨S100000x1, .f32⟩ : BufTy).Contents (Elt F) → (⟨S100000x1, .f32⟩ : BufTy).Contents (Elt F) → (⟨S100000x1, .f32⟩ : BufTy).Contents (Elt F)) ]
/-- Every buffer these operations touch is a TensorCore reference. -/
theorem ops41_sub : (ops41 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub ..⟩
/-- Each of them determines its result. -/
theorem ops41_fresh : ∀ op ∈ (ops41 : List (HloOp τ sig (Elt F))), op.fresh = ∅ :=
  List.forall_iff_forall_mem.mp (show (ops41 : List (HloOp τ sig (Elt F))).Forall (fun op => op.fresh = ∅) from ⟨rfl, rfl, rfl, rfl, rfl, rfl, rfl, rfl, rfl, rfl, rfl, rfl, rfl, rfl⟩)
/-- The buffers they write, in order. -/
abbrev ops41_W : List (Ref sig .tc) := [main_cst_53, main_v433, main_v434, main_v435, main_cst_54, main_v436, main_cst_55, main_v437, main_v438, main_v439, main_cst_56, main_v440, main_v441, main_v442]
theorem ops41_writes : (ops41 : List (HloOp τ sig (Elt F))).Forall fun op => op.writes ⊆ (ops41_W.map (Proc.devRef (τ := τ) .tc)).toFinset :=
  ⟨wsub main_cst_53 (by decide) rfl, wsub main_v433 (by decide) rfl, wsub main_v434 (by decide) rfl, wsub main_v435 (by decide) rfl, wsub main_cst_54 (by decide) rfl, wsub main_v436 (by decide) rfl, wsub main_cst_55 (by decide) rfl, wsub main_v437 (by decide) rfl, wsub main_v438 (by decide) rfl, wsub main_v439 (by decide) rfl, wsub main_cst_56 (by decide) rfl, wsub main_v440 (by decide) rfl, wsub main_v441 (by decide) rfl, wsub main_v442 (by decide) rfl⟩
/-- A buffer they do not write keeps its contents through them. -/
theorem ops41_keep (V : Valuation τ sig (Elt F)) {r : Ref sig .tc} (h : r ∉ ops41_W) :
    after (ops41 : List (HloOp τ sig (Elt F))) V (Proc.devRef .tc r) = V (Proc.devRef .tc r) :=
  after_of_writes_sub _ V ops41_writes h
/-- They write none of the arguments of @main. -/
theorem ops41_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops41_W := by decide

/-- Operations 529 … 529 of the 655 of @main, which write `main_v443` … `main_v443` (layer 2, lower graph: node embedding). -/
abbrev ops42 : List (HloOp τ sig (Elt F)) :=
  [ unary main_v358 main_v443 (broadcastInDim S100000x8 ![0, 1] bcast_S1x8_S100000x8_0_1 : (⟨S1x8, .f32⟩ : BufTy).Contents (Elt F) → (⟨S100000x8, .f32⟩ : BufTy).Contents (Elt F)) ]
/-- Every buffer these operations touch is a TensorCore reference. -/
theorem ops42_sub : (ops42 : List (HloOp τ sig (Elt F))).Forall fun op => op.bufs ⊆ tcRefs τ sig :=
  unary_bufs_sub ..
/-- Each of them determines its result. -/
theorem ops42_fresh : ∀ op ∈ (ops42 : List (HloOp τ sig (Elt F))), op.fresh = ∅ :=
  List.forall_iff_forall_mem.mp (show (ops42 : List (HloOp τ sig (Elt F))).Forall (fun op => op.fresh = ∅) from rfl)
/-- The buffers they write, in order. -/
abbrev ops42_W : List (Ref sig .tc) := [main_v443]
theorem ops42_writes : (ops42 : List (HloOp τ sig (Elt F))).Forall fun op => op.writes ⊆ (ops42_W.map (Proc.devRef (τ := τ) .tc)).toFinset :=
  wsub main_v443 (by decide) rfl
/-- A buffer they do not write keeps its contents through them. -/
theorem ops42_keep (V : Valuation τ sig (Elt F)) {r : Ref sig .tc} (h : r ∉ ops42_W) :
    after (ops42 : List (HloOp τ sig (Elt F))) V (Proc.devRef .tc r) = V (Proc.devRef .tc r) :=
  after_of_writes_sub _ V ops42_writes h
/-- They write none of the arguments of @main. -/
theorem ops42_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops42_W := by decide

/-- Operations 530 … 541 of the 655 of @main, which write `main_v444` … `main_v453` (layer 2, lower graph: node embedding). -/
abbrev ops43 : List (HloOp τ sig (Elt F)) :=
  [ nary ![main_v443, main_arg0, main_v442] main_v444 (fun u => concatenate S100000x17 1 [⟨S100000x8, u 0⟩, ⟨S100000x8, u 1⟩, ⟨S100000x1, u 2⟩] concatenates_S100000x8_S100000x8_S100000x1_S100000x17_d1),
    binary main_v444 main_v368 main_v445 ((fun l r => Host.dotGeneral dot_S100000x17_S17x32_S100000x32_1_0_0_1_n_n none l r) : (⟨S100000x17, .f32⟩ : BufTy).Contents (Elt F) → (⟨S17x32, .f32⟩ : BufTy).Contents (Elt F) → (⟨S100000x32, .f32⟩ : BufTy).Contents (Elt F)),
    unary main_v370 main_v446 (broadcastInDim S1x32 ![1] bcast_S32_S1x32_1 : (⟨S32, .f32⟩ : BufTy).Contents (Elt F) → (⟨S1x32, .f32⟩ : BufTy).Contents (Elt F)),
    unary main_v446 main_v447 (broadcastInDim S100000x32 ![0, 1] bcast_S1x32_S100000x32_0_1 : (⟨S1x32, .f32⟩ : BufTy).Contents (Elt F) → (⟨S100000x32, .f32⟩ : BufTy).Contents (Elt F)),
    binary main_v445 main_v447 main_v448 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x32, .f32⟩) main_call13_v0) (broadcastInDim S100000x32 ![] bcast_S_S100000x32),
    TRef.binary (TRef.of (T := ⟨S100000x32, .f32⟩) main_v448) (TRef.of (T := ⟨S100000x32, .f32⟩) main_call13_v0) (TRef.of (T := ⟨S100000x32, .f32⟩) main_v449) maximumf,
    binary main_v449 main_v372 main_v450 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)),
    unary main_v374 main_v451 (broadcastInDim S1x8 ![1] bcast_S8_S1x8_1 : (⟨S8, .f32⟩ : BufTy).Contents (Elt F) → (⟨S1x8, .f32⟩ : BufTy).Contents (Elt F)),
    unary main_v451 main_v452 (broadcastInDim S100000x8 ![0, 1] bcast_S1x8_S100000x8_0_1 : (⟨S1x8, .f32⟩ : BufTy).Contents (Elt F) → (⟨S100000x8, .f32⟩ : BufTy).Contents (Elt F)),
    binary main_v450 main_v452 main_v453 (addf : (⟨S100000x8, .f32⟩ : BufTy).Contents (Elt F) → (⟨S100000x8, .f32⟩ : BufTy).Contents (Elt F) → (⟨S100000x8, .f32⟩ : BufTy).Contents (Elt F)) ]
/-- Every buffer these operations touch is a TensorCore reference. -/
theorem ops43_sub : (ops43 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops43_fresh : ∀ op ∈ (ops43 : List (HloOp τ sig (Elt F))), op.fresh = ∅ :=
  List.forall_iff_forall_mem.mp (show (ops43 : List (HloOp τ sig (Elt F))).Forall (fun op => op.fresh = ∅) from ⟨rfl, rfl, rfl, rfl, rfl, rfl, rfl, rfl, rfl, rfl, rfl, rfl⟩)
/-- The buffers they write, in order. -/
abbrev ops43_W : List (Ref sig .tc) := [main_v444, main_v445, main_v446, main_v447, main_v448, main_call13_cst, main_call13_v0, main_v449, main_v450, main_v451, main_v452, main_v453]
theorem ops43_writes : (ops43 : List (HloOp τ sig (Elt F))).Forall fun op => op.writes ⊆ (ops43_W.map (Proc.devRef (τ := τ) .tc)).toFinset :=
  ⟨wsub main_v444 (by decide) rfl, wsub main_v445 (by decide) rfl, wsub main_v446 (by decide) rfl, wsub main_v447 (by decide) rfl, wsub main_v448 (by decide) rfl, wsub main_call13_cst (by decide) rfl, wsub main_call13_v0 (by decide) rfl, wsub main_v449 (by decide) rfl, wsub main_v450 (by decide) rfl, wsub main_v451 (by decide) rfl, wsub main_v452 (by decide) rfl, wsub main_v453 (by decide) rfl⟩
/-- A buffer they do not write keeps its contents through them. -/
theorem ops43_keep (V : Valuation τ sig (Elt F)) {r : Ref sig .tc} (h : r ∉ ops43_W) :
    after (ops43 : List (HloOp τ sig (Elt F))) V (Proc.devRef .tc r) = V (Proc.devRef .tc r) :=
  after_of_writes_sub _ V ops43_writes h
/-- They write none of the arguments of @main. -/
theorem ops43_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops43_W := by decide

/-- Operations 542 … 553 of the 655 of @main, which write `main_cst_57` … `main_v461` (layer 2, lower graph: global update). -/
abbrev ops44 : List (HloOp τ sig (Elt F)) :=
  [ nullary main_cst_57 (constant S_ .f32 0x00000000#32),
    binary main_v453 main_cst_57 main_v454 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v454 main_v455 (broadcastInDim S1x8 ![1] bcast_S8_S1x8_1 : (⟨S8, .f32⟩ : BufTy).Contents (Elt F) → (⟨S1x8, .f32⟩ : BufTy).Contents (Elt F)),
    nullary main_cst_58 (constant S_ .f32 0x47C35000#32),
    unary main_cst_58 main_v456 (broadcastInDim S1x8 ![] bcast_S_S1x8 : (⟨S_, .f32⟩ : BufTy).Contents (Elt F) → (⟨S1x8, .f32⟩ : BufTy).Contents (Elt F)),
    binary main_v455 main_v456 main_v457 (Host.divf : (⟨S1x8, .f32⟩ : BufTy).Contents (Elt F) → (⟨S1x8, .f32⟩ : BufTy).Contents (Elt F) → (⟨S1x8, .f32⟩ : BufTy).Contents (Elt F)),
    nullary main_cst_59 (constant S_ .f32 0x00000000#32),
    binary main_v432 main_cst_59 main_v458 ((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)),
    unary main_v458 main_v459 (broadcastInDim S1x1 ![1] bcast_S1_S1x1_1 : (⟨S1, .f32⟩ : BufTy).Contents (Elt F) → (⟨S1x1, .f32⟩ : BufTy).Contents (Elt F)),
    nullary main_cst_60 (constant S_ .f32 0x49864700#32),
    unary main_cst_60 main_v460 (broadcastInDim S1x1 ![] bcast_S_S1x1 : (⟨S_, .f32⟩ : BufTy).Contents (Elt F) → (⟨S1x1, .f32⟩ : BufTy).Contents (Elt F)),
    binary main_v459 main_v460 main_v461 (Host.divf : (⟨S1x1, .f32⟩ : BufTy).Contents (Elt F) → (⟨S1x1, .f32⟩ : BufTy).Contents (Elt F) → (⟨S1x1, .f32⟩ : BufTy).Contents (Elt F)) ]
/-- Every buffer these operations touch is a TensorCore reference. -/
theorem ops44_sub : (ops44 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub ..⟩
/-- Each of them determines its result. -/
theorem ops44_fresh : ∀ op ∈ (ops44 : List (HloOp τ sig (Elt F))), op.fresh = ∅ :=
  List.forall_iff_forall_mem.mp (show (ops44 : List (HloOp τ sig (Elt F))).Forall (fun op => op.fresh = ∅) from ⟨rfl, rfl, rfl, rfl, rfl, rfl, rfl, rfl, rfl, rfl, rfl, rfl⟩)
/-- The buffers they write, in order. -/
abbrev ops44_W : List (Ref sig .tc) := [main_cst_57, main_v454, main_v455, main_cst_58, main_v456, main_v457, main_cst_59, main_v458, main_v459, main_cst_60, main_v460, main_v461]
theorem ops44_writes : (ops44 : List (HloOp τ sig (Elt F))).Forall fun op => op.writes ⊆ (ops44_W.map (Proc.devRef (τ := τ) .tc)).toFinset :=
  ⟨wsub main_cst_57 (by decide) rfl, wsub main_v454 (by decide) rfl, wsub main_v455 (by decide) rfl, wsub main_cst_58 (by decide) rfl, wsub main_v456 (by decide) rfl, wsub main_v457 (by decide) rfl, wsub main_cst_59 (by decide) rfl, wsub main_v458 (by decide) rfl, wsub main_v459 (by decide) rfl, wsub main_cst_60 (by decide) rfl, wsub main_v460 (by decide) rfl, wsub main_v461 (by decide) rfl⟩
/-- A buffer they do not write keeps its contents through them. -/
theorem ops44_keep (V : Valuation τ sig (Elt F)) {r : Ref sig .tc} (h : r ∉ ops44_W) :
    after (ops44 : List (HloOp τ sig (Elt F))) V (Proc.devRef .tc r) = V (Proc.devRef .tc r) :=
  after_of_writes_sub _ V ops44_writes h
/-- They write none of the arguments of @main. -/
theorem ops44_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops44_W := by decide

/-- Operations 554 … 563 of the 655 of @main, which write `main_v462` … `main_v469` (layer 2, lower graph: global update). -/
abbrev ops45 : List (HloOp τ sig (Elt F)) :=
  [ nary ![main_v457, main_v461, main_v358] main_v462 (fun u => concatenate S1x17 1 [⟨S1x8, u 0⟩, ⟨S1x1, u 1⟩, ⟨S1x8, u 2⟩] concatenates_S1x8_S1x1_S1x8_S1x17_d1),
    binary main_v462 main_v376 main_v463 ((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)),
    unary main_v378 main_v464 (broadcastInDim S1x32 ![1] bcast_S32_S1x32_1 : (⟨S32, .f32⟩ : BufTy).Contents (Elt F) → (⟨S1x32, .f32⟩ : BufTy).Contents (Elt F)),
    binary main_v463 main_v464 main_v465 (addf : (⟨S1x32, .f32⟩ : BufTy).Contents (Elt F) → (⟨S1x32, .f32⟩ : BufTy).Contents (Elt F) → (⟨S1x32, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S1x32, .f32⟩) main_call14_v0) (broadcastInDim S1x32 ![] bcast_S_S1x32),
    TRef.binary (TRef.of (T := ⟨S1x32, .f32⟩) main_v465) (TRef.of (T := ⟨S1x32, .f32⟩) main_call14_v0) (TRef.of (T := ⟨S1x32, .f32⟩) main_v466) maximumf,
    binary main_v466 main_v380 main_v467 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)),
    unary main_v382 main_v468 (broadcastInDim S1x8 ![1] bcast_S8_S1x8_1 : (⟨S8, .f32⟩ : BufTy).Contents (Elt F) → (⟨S1x8, .f32⟩ : BufTy).Contents (Elt F)),
    binary main_v467 main_v468 main_v469 (addf : (⟨S1x8, .f32⟩ : BufTy).Contents (Elt F) → (⟨S1x8, .f32⟩ : BufTy).Contents (Elt F) → (⟨S1x8, .f32⟩ : BufTy).Contents (Elt F)) ]
/-- Every buffer these operations touch is a TensorCore reference. -/
theorem ops45_sub : (ops45 : List (HloOp τ sig (Elt F))).Forall fun op => op.bufs ⊆ tcRefs τ sig :=
  ⟨nary_bufs_sub .., binary_bufs_sub .., unary_bufs_sub .., binary_bufs_sub .., nullary_bufs_sub .., unary_bufs_sub .., binary_bufs_sub .., binary_bufs_sub .., unary_bufs_sub .., binary_bufs_sub ..⟩
/-- Each of them determines its result. -/
theorem ops45_fresh : ∀ op ∈ (ops45 : List (HloOp τ sig (Elt F))), op.fresh = ∅ :=
  List.forall_iff_forall_mem.mp (show (ops45 : List (HloOp τ sig (Elt F))).Forall (fun op => op.fresh = ∅) from ⟨rfl, rfl, rfl, rfl, rfl, rfl, rfl, rfl, rfl, rfl⟩)
/-- The buffers they write, in order. -/
abbrev ops45_W : List (Ref sig .tc) := [main_v462, main_v463, main_v464, main_v465, main_call14_cst, main_call14_v0, main_v466, main_v467, main_v468, main_v469]
theorem ops45_writes : (ops45 : List (HloOp τ sig (Elt F))).Forall fun op => op.writes ⊆ (ops45_W.map (Proc.devRef (τ := τ) .tc)).toFinset :=
  ⟨wsub main_v462 (by decide) rfl, wsub main_v463 (by decide) rfl, wsub main_v464 (by decide) rfl, wsub main_v465 (by decide) rfl, wsub main_call14_cst (by decide) rfl, wsub main_call14_v0 (by decide) rfl, wsub main_v466 (by decide) rfl, wsub main_v467 (by decide) rfl, wsub main_v468 (by decide) rfl, wsub main_v469 (by decide) rfl⟩
/-- A buffer they do not write keeps its contents through them. -/
theorem ops45_keep (V : Valuation τ sig (Elt F)) {r : Ref sig .tc} (h : r ∉ ops45_W) :
    after (ops45 : List (HloOp τ sig (Elt F))) V (Proc.devRef .tc r) = V (Proc.devRef .tc r) :=
  after_of_writes_sub _ V ops45_writes h
/-- They write none of the arguments of @main. -/
theorem ops45_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops45_W := by decide

/-- Operations 564 … 570 of the 655 of @main, which write `main_v470` … `main_v474` (layer 2, upper graph: edge embedding). -/
abbrev ops46 : List (HloOp τ sig (Elt F)) :=
  [ binary main_v321 main_v10 main_v470 ((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)),
    unary main_v469 main_v471 (broadcastInDim S1100000x8 ![0, 1] bcast_S1x8_S1100000x8_0_1 : (⟨S1x8, .f32⟩ : BufTy).Contents (Elt F) → (⟨S1100000x8, .f32⟩ : BufTy).Contents (Elt F)),
    nullary main_c_61 (constantI S_ 32 0#32),
    unary main_c_61 main_v472 (broadcastInDim S1100000 ![] bcast_S_S1100000 : (⟨S_, .i32⟩ : BufTy).Contents (Elt F) → (⟨S1100000, .i32⟩ : BufTy).Contents (Elt F)),
    binary main_v5 main_v472 main_v473 (cmpi .slt : (⟨S1100000, .i32⟩ : BufTy).Contents (Elt F) → (⟨S1100000, .i32⟩ : BufTy).Contents (Elt F) → (⟨S1100000, .i1⟩ : BufTy).Contents (Elt F)),
    nullary main_c_62 (constantI S_ 32 100000#32),
    unary main_c_62 main_v474 (broadcastInDim S1100000 ![] bcast_S_S1100000 : (⟨S_, .i32⟩ : BufTy).Contents (Elt F) → (⟨S1100000, .i32⟩ : BufTy).Contents (Elt F)) ]
/-- Every buffer these operations touch is a TensorCore reference. -/
theorem ops46_sub : (ops46 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub ..⟩
/-- Each of them determines its result. -/
theorem ops46_fresh : ∀ op ∈ (ops46 : List (HloOp τ sig (Elt F))), op.fresh = ∅ :=
  List.forall_iff_forall_mem.mp (show (ops46 : List (HloOp τ sig (Elt F))).Forall (fun op => op.fresh = ∅) from ⟨rfl, rfl, rfl, rfl, rfl, rfl, rfl⟩)
/-- The buffers they write, in order. -/
abbrev ops46_W : List (Ref sig .tc) := [main_v470, main_v471, main_c_61, main_v472, main_v473, main_c_62, main_v474]
theorem ops46_writes : (ops46 : List (HloOp τ sig (Elt F))).Forall fun op => op.writes ⊆ (ops46_W.map (Proc.devRef (τ := τ) .tc)).toFinset :=
  ⟨wsub main_v470 (by decide) rfl, wsub main_v471 (by decide) rfl, wsub main_c_61 (by decide) rfl, wsub main_v472 (by decide) rfl, wsub main_v473 (by decide) rfl, wsub main_c_62 (by decide) rfl, wsub main_v474 (by decide) rfl⟩
/-- A buffer they do not write keeps its contents through them. -/
theorem ops46_keep (V : Valuation τ sig (Elt F)) {r : Ref sig .tc} (h : r ∉ ops46_W) :
    after (ops46 : List (HloOp τ sig (Elt F))) V (Proc.devRef .tc r) = V (Proc.devRef .tc r) :=
  after_of_writes_sub _ V ops46_writes h
/-- They write none of the arguments of @main. -/
theorem ops46_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops46_W := by decide

/-- The operations of the window: its chunks in order. -/
abbrev win8 : List (HloOp τ sig (Elt F)) := ops40 ++ (ops41 ++ (ops42 ++ (ops43 ++ (ops44 ++ (ops45 ++ (ops46))))))
set_option maxHeartbeats 4000000 in
/-- The window of @main is the straight line of these operations. -/
theorem main_part8_eq (c : Dev nD) : main_part8 (F := F) c = seq win8 := rfl
theorem win8_sub : ∀ op ∈ (win8 : List (HloOp τ sig (Elt F))), op.bufs ⊆ tcRefs τ sig :=
  List.forall_mem_append.mpr ⟨List.forall_iff_forall_mem.mp ops40_sub, List.forall_mem_append.mpr ⟨List.forall_iff_forall_mem.mp ops41_sub, List.forall_mem_append.mpr ⟨List.forall_iff_forall_mem.mp ops42_sub, List.forall_mem_append.mpr ⟨List.forall_iff_forall_mem.mp ops43_sub, List.forall_mem_append.mpr ⟨List.forall_iff_forall_mem.mp ops44_sub, List.forall_mem_append.mpr ⟨List.forall_iff_forall_mem.mp ops45_sub, List.forall_iff_forall_mem.mp ops46_sub⟩⟩⟩⟩⟩⟩
theorem win8_fresh : ∀ op ∈ (win8 : List (HloOp τ sig (Elt F))), op.fresh = ∅ :=
  List.forall_mem_append.mpr ⟨ops40_fresh, List.forall_mem_append.mpr ⟨ops41_fresh, List.forall_mem_append.mpr ⟨ops42_fresh, List.forall_mem_append.mpr ⟨ops43_fresh, List.forall_mem_append.mpr ⟨ops44_fresh, List.forall_mem_append.mpr ⟨ops45_fresh, ops46_fresh⟩⟩⟩⟩⟩⟩

end Cert.ReferenceIdeal.RunFold

end
-- ==== Proof.Ref.Chunks9.lean ====
import proofs.«426760_j80470507258346_3_alg».proof.Proof.Gen.ReferenceIdeal
import Idealize.ShloMosaic.Lib.StableHlo.Run
import Idealize.ShloMosaic.Lib.Pipeline.Frame

/-! Operations 571 … 634 of the 655 of the reference program (the window `main_part9` of @main), in 6 chunks `ops47` … `ops52`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 571 … 583 of the 655 of @main, which write `main_v475` … `main_v485` (layer 2, upper graph: edge embedding). -/
abbrev ops47 : List (HloOp τ sig (Elt F)) :=
  [ binary main_v5 main_v474 main_v475 (addi : (⟨S1100000, .i32⟩ : BufTy).Contents (Elt F) → (⟨S1100000, .i32⟩ : BufTy).Contents (Elt F) → (⟨S1100000, .i32⟩ : BufTy).Contents (Elt F)),
    ternary main_v473 main_v475 main_v5 main_v476 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v476 main_v477 (broadcastInDim S1100000x1 ![0] bcast_S1100000_S1100000x1_0 : (⟨S1100000, .i32⟩ : BufTy).Contents (Elt F) → (⟨S1100000x1, .i32⟩ : BufTy).Contents (Elt F)),
    binary main_v453 main_v477 main_v478 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    nullary main_c_63 (constantI S_ 32 0#32),
    unary main_c_63 main_v479 (broadcastInDim S1100000 ![] bcast_S_S1100000 : (⟨S_, .i32⟩ : BufTy).Contents (Elt F) → (⟨S1100000, .i32⟩ : BufTy).Contents (Elt F)),
    binary main_v7 main_v479 main_v480 (cmpi .slt : (⟨S1100000, .i32⟩ : BufTy).Contents (Elt F) → (⟨S1100000, .i32⟩ : BufTy).Contents (Elt F) → (⟨S1100000, .i1⟩ : BufTy).Contents (Elt F)),
    nullary main_c_64 (constantI S_ 32 100000#32),
    unary main_c_64 main_v481 (broadcastInDim S1100000 ![] bcast_S_S1100000 : (⟨S_, .i32⟩ : BufTy).Contents (Elt F) → (⟨S1100000, .i32⟩ : BufTy).Contents (Elt F)),
    binary main_v7 main_v481 main_v482 (addi : (⟨S1100000, .i32⟩ : BufTy).Contents (Elt F) → (⟨S1100000, .i32⟩ : BufTy).Contents (Elt F) → (⟨S1100000, .i32⟩ : BufTy).Contents (Elt F)),
    ternary main_v480 main_v482 main_v7 main_v483 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v483 main_v484 (broadcastInDim S1100000x1 ![0] bcast_S1100000_S1100000x1_0 : (⟨S1100000, .i32⟩ : BufTy).Contents (Elt F) → (⟨S1100000x1, .i32⟩ : BufTy).Contents (Elt F)),
    binary main_v453 main_v484 main_v485 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) ]
/-- Every buffer these operations touch is a TensorCore reference. -/
theorem ops47_sub : (ops47 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
/-- Each of them determines its result. -/
theorem ops47_fresh : ∀ op ∈ (ops47 : List (HloOp τ sig (Elt F))), op.fresh = ∅ :=
  List.forall_iff_forall_mem.mp (show (ops47 : List (HloOp τ sig (Elt F))).Forall (fun op => op.fresh = ∅) from ⟨rfl, rfl, rfl, rfl, rfl, rfl, rfl, rfl, rfl, rfl, rfl, rfl, rfl⟩)
/-- The buffers they write, in order. -/
abbrev ops47_W : List (Ref sig .tc) := [main_v475, main_v476, main_v477, main_v478, main_c_63, main_v479, main_v480, main_c_64, main_v481, main_v482, main_v483, main_v484, main_v485]
theorem ops47_writes : (ops47 : List (HloOp τ sig (Elt F))).Forall fun op => op.writes ⊆ (ops47_W.map (Proc.devRef (τ := τ) .tc)).toFinset :=
  ⟨wsub main_v475 (by decide) rfl, wsub main_v476 (by decide) rfl, wsub main_v477 (by decide) rfl, wsub main_v478 (by decide) rfl, wsub main_c_63 (by decide) rfl, wsub main_v479 (by decide) rfl, wsub main_v480 (by decide) rfl, wsub main_c_64 (by decide) rfl, wsub main_v481 (by decide) rfl, wsub main_v482 (by decide) rfl, wsub main_v483 (by decide) rfl, wsub main_v484 (by decide) rfl, wsub main_v485 (by decide) rfl⟩
/-- A buffer they do not write keeps its contents through them. -/
theorem ops47_keep (V : Valuation τ sig (Elt F)) {r : Ref sig .tc} (h : r ∉ ops47_W) :
    after (ops47 : List (HloOp τ sig (Elt F))) V (Proc.devRef .tc r) = V (Proc.devRef .tc r) :=
  after_of_writes_sub _ V ops47_writes h
/-- They write none of the arguments of @main. -/
theorem ops47_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops47_W := by decide

/-- Operations 584 … 595 of the 655 of @main, which write `main_v486` … `main_v495` (layer 2, upper graph: edge embedding). -/
abbrev ops48 : List (HloOp τ sig (Elt F)) :=
  [ nary ![main_v471, main_v478, main_v485, main_v470] main_v486 (fun u => concatenate S1100000x26 1 [⟨S1100000x8, u 0⟩, ⟨S1100000x8, u 1⟩, ⟨S1100000x8, u 2⟩, ⟨S1100000x2, u 3⟩] concatenates_S1100000x8_S1100000x8_S1100000x8_S1100000x2_S1100000x26_d1),
    binary main_v486 main_v384 main_v487 ((fun l r => Host.dotGeneral dot_S1100000x26_S26x32_S1100000x32_1_0_0_1_n_n none l r) : (⟨S1100000x26, .f32⟩ : BufTy).Contents (Elt F) → (⟨S26x32, .f32⟩ : BufTy).Contents (Elt F) → (⟨S1100000x32, .f32⟩ : BufTy).Contents (Elt F)),
    unary main_v386 main_v488 (broadcastInDim S1x32 ![1] bcast_S32_S1x32_1 : (⟨S32, .f32⟩ : BufTy).Contents (Elt F) → (⟨S1x32, .f32⟩ : BufTy).Contents (Elt F)),
    unary main_v488 main_v489 (broadcastInDim S1100000x32 ![0, 1] bcast_S1x32_S1100000x32_0_1 : (⟨S1x32, .f32⟩ : BufTy).Contents (Elt F) → (⟨S1100000x32, .f32⟩ : BufTy).Contents (Elt F)),
    binary main_v487 main_v489 main_v490 (addf : (⟨S1100000x32, .f32⟩ : BufTy).Contents (Elt F) → (⟨S1100000x32, .f32⟩ : BufTy).Contents (Elt F) → (⟨S1100000x32, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S1100000x32, .f32⟩) main_call15_v0) (broadcastInDim S1100000x32 ![] bcast_S_S1100000x32),
    TRef.binary (TRef.of (T := ⟨S1100000x32, .f32⟩) main_v490) (TRef.of (T := ⟨S1100000x32, .f32⟩) main_call15_v0) (TRef.of (T := ⟨S1100000x32, .f32⟩) main_v491) maximumf,
    binary main_v491 main_v388 main_v492 ((fun l r => Host.dotGeneral dot_S1100000x32_S32x1_S1100000x1_1_0_0_1_n_n none l r) : (⟨S1100000x32, .f32⟩ : BufTy).Contents (Elt F) → (⟨S32x1, .f32⟩ : BufTy).Contents (Elt F) → (⟨S1100000x1, .f32⟩ : BufTy).Contents (Elt F)),
    unary main_v390 main_v493 (broadcastInDim S1x1 ![1] bcast_S1_S1x1_1 : (⟨S1, .f32⟩ : BufTy).Contents (Elt F) → (⟨S1x1, .f32⟩ : BufTy).Contents (Elt F)),
    unary main_v493 main_v494 (broadcastInDim S1100000x1 ![0, 1] bcast_S1x1_S1100000x1_0_1 : (⟨S1x1, .f32⟩ : BufTy).Contents (Elt F) → (⟨S1100000x1, .f32⟩ : BufTy).Contents (Elt F)),
    binary main_v492 main_v494 main_v495 (addf : (⟨S1100000x1, .f32⟩ : BufTy).Contents (Elt F) → (⟨S1100000x1, .f32⟩ : BufTy).Contents (Elt F) → (⟨S1100000x1, .f32⟩ : BufTy).Contents (Elt F)) ]
/-- Every buffer these operations touch is a TensorCore reference. -/
theorem ops48_sub : (ops48 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops48_fresh : ∀ op ∈ (ops48 : List (HloOp τ sig (Elt F))), op.fresh = ∅ :=
  List.forall_iff_forall_mem.mp (show (ops48 : List (HloOp τ sig (Elt F))).Forall (fun op => op.fresh = ∅) from ⟨rfl, rfl, rfl, rfl, rfl, rfl, rfl, rfl, rfl, rfl, rfl, rfl⟩)
/-- The buffers they write, in order. -/
abbrev ops48_W : List (Ref sig .tc) := [main_v486, main_v487, main_v488, main_v489, main_v490, main_call15_cst, main_call15_v0, main_v491, main_v492, main_v493, main_v494, main_v495]
theorem ops48_writes : (ops48 : List (HloOp τ sig (Elt F))).Forall fun op => op.writes ⊆ (ops48_W.map (Proc.devRef (τ := τ) .tc)).toFinset :=
  ⟨wsub main_v486 (by decide) rfl, wsub main_v487 (by decide) rfl, wsub main_v488 (by decide) rfl, wsub main_v489 (by decide) rfl, wsub main_v490 (by decide) rfl, wsub main_call15_cst (by decide) rfl, wsub main_call15_v0 (by decide) rfl, wsub main_v491 (by decide) rfl, wsub main_v492 (by decide) rfl, wsub main_v493 (by decide) rfl, wsub main_v494 (by decide) rfl, wsub main_v495 (by decide) rfl⟩
/-- A buffer they do not write keeps its contents through them. -/
theorem ops48_keep (V : Valuation τ sig (Elt F)) {r : Ref sig .tc} (h : r ∉ ops48_W) :
    after (ops48 : List (HloOp τ sig (Elt F))) V (Proc.devRef .tc r) = V (Proc.devRef .tc r) :=
  after_of_writes_sub _ V ops48_writes h
/-- They write none of the arguments of @main. -/
theorem ops48_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops48_W := by decide

/-- Operations 596 … 609 of the 655 of @main, which write `main_cst_65` … `main_v505` (layer 2, upper graph: mean aggregation). -/
abbrev ops49 : List (HloOp τ sig (Elt F)) :=
  [ nullary main_cst_65 (constant S_ .f32 0x00000000#32),
    unary main_cst_65 main_v496 (broadcastInDim S100000x1 ![] bcast_S_S100000x1 : (⟨S_, .f32⟩ : BufTy).Contents (Elt F) → (⟨S100000x1, .f32⟩ : BufTy).Contents (Elt F)),
    unary main_v5 main_v497 (broadcastInDim S1100000x1 ![0] bcast_S1100000_S1100000x1_0 : (⟨S1100000, .i32⟩ : BufTy).Contents (Elt F) → (⟨S1100000x1, .i32⟩ : BufTy).Contents (Elt F)),
    ternary main_v496 main_v497 main_v495 main_v498 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_66 (constant S_ .f32 0x3F800000#32),
    unary main_cst_66 main_v499 (broadcastInDim S1100000x1 ![] bcast_S_S1100000x1 : (⟨S_, .f32⟩ : BufTy).Contents (Elt F) → (⟨S1100000x1, .f32⟩ : BufTy).Contents (Elt F)),
    nullary main_cst_67 (constant S_ .f32 0x00000000#32),
    unary main_cst_67 main_v500 (broadcastInDim S100000x1 ![] bcast_S_S100000x1 : (⟨S_, .f32⟩ : BufTy).Contents (Elt F) → (⟨S100000x1, .f32⟩ : BufTy).Contents (Elt F)),
    unary main_v5 main_v501 (broadcastInDim S1100000x1 ![0] bcast_S1100000_S1100000x1_0 : (⟨S1100000, .i32⟩ : BufTy).Contents (Elt F) → (⟨S1100000x1, .i32⟩ : BufTy).Contents (Elt F)),
    ternary main_v500 main_v501 main_v499 main_v502 ((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)),
    nullary main_cst_68 (constant S_ .f32 0x3F800000#32),
    unary main_cst_68 main_v503 (broadcastInDim S100000x1 ![] bcast_S_S100000x1 : (⟨S_, .f32⟩ : BufTy).Contents (Elt F) → (⟨S100000x1, .f32⟩ : BufTy).Contents (Elt F)),
    binary main_v502 main_v503 main_v504 (maximumf : (⟨S100000x1, .f32⟩ : BufTy).Contents (Elt F) → (⟨S100000x1, .f32⟩ : BufTy).Contents (Elt F) → (⟨S100000x1, .f32⟩ : BufTy).Contents (Elt F)),
    binary main_v498 main_v504 main_v505 (Host.divf : (⟨S100000x1, .f32⟩ : BufTy).Contents (Elt F) → (⟨S100000x1, .f32⟩ : BufTy).Contents (Elt F) → (⟨S100000x1, .f32⟩ : BufTy).Contents (Elt F)) ]
/-- Every buffer these operations touch is a TensorCore reference. -/
theorem ops49_sub : (ops49 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub ..⟩
/-- Each of them determines its result. -/
theorem ops49_fresh : ∀ op ∈ (ops49 : List (HloOp τ sig (Elt F))), op.fresh = ∅ :=
  List.forall_iff_forall_mem.mp (show (ops49 : List (HloOp τ sig (Elt F))).Forall (fun op => op.fresh = ∅) from ⟨rfl, rfl, rfl, rfl, rfl, rfl, rfl, rfl, rfl, rfl, rfl, rfl, rfl, rfl⟩)
/-- The buffers they write, in order. -/
abbrev ops49_W : List (Ref sig .tc) := [main_cst_65, main_v496, main_v497, main_v498, main_cst_66, main_v499, main_cst_67, main_v500, main_v501, main_v502, main_cst_68, main_v503, main_v504, main_v505]
theorem ops49_writes : (ops49 : List (HloOp τ sig (Elt F))).Forall fun op => op.writes ⊆ (ops49_W.map (Proc.devRef (τ := τ) .tc)).toFinset :=
  ⟨wsub main_cst_65 (by decide) rfl, wsub main_v496 (by decide) rfl, wsub main_v497 (by decide) rfl, wsub main_v498 (by decide) rfl, wsub main_cst_66 (by decide) rfl, wsub main_v499 (by decide) rfl, wsub main_cst_67 (by decide) rfl, wsub main_v500 (by decide) rfl, wsub main_v501 (by decide) rfl, wsub main_v502 (by decide) rfl, wsub main_cst_68 (by decide) rfl, wsub main_v503 (by decide) rfl, wsub main_v504 (by decide) rfl, wsub main_v505 (by decide) rfl⟩
/-- A buffer they do not write keeps its contents through them. -/
theorem ops49_keep (V : Valuation τ sig (Elt F)) {r : Ref sig .tc} (h : r ∉ ops49_W) :
    after (ops49 : List (HloOp τ sig (Elt F))) V (Proc.devRef .tc r) = V (Proc.devRef .tc r) :=
  after_of_writes_sub _ V ops49_writes h
/-- They write none of the arguments of @main. -/
theorem ops49_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops49_W := by decide

/-- Operations 610 … 610 of the 655 of @main, which write `main_v506` … `main_v506` (layer 2, upper graph: node embedding). -/
abbrev ops50 : List (HloOp τ sig (Elt F)) :=
  [ unary main_v469 main_v506 (broadcastInDim S100000x8 ![0, 1] bcast_S1x8_S100000x8_0_1 : (⟨S1x8, .f32⟩ : BufTy).Contents (Elt F) → (⟨S100000x8, .f32⟩ : BufTy).Contents (Elt F)) ]
/-- Every buffer these operations touch is a TensorCore reference. -/
theorem ops50_sub : (ops50 : List (HloOp τ sig (Elt F))).Forall fun op => op.bufs ⊆ tcRefs τ sig :=
  unary_bufs_sub ..
/-- Each of them determines its result. -/
theorem ops50_fresh : ∀ op ∈ (ops50 : List (HloOp τ sig (Elt F))), op.fresh = ∅ :=
  List.forall_iff_forall_mem.mp (show (ops50 : List (HloOp τ sig (Elt F))).Forall (fun op => op.fresh = ∅) from rfl)
/-- The buffers they write, in order. -/
abbrev ops50_W : List (Ref sig .tc) := [main_v506]
theorem ops50_writes : (ops50 : List (HloOp τ sig (Elt F))).Forall fun op => op.writes ⊆ (ops50_W.map (Proc.devRef (τ := τ) .tc)).toFinset :=
  wsub main_v506 (by decide) rfl
/-- A buffer they do not write keeps its contents through them. -/
theorem ops50_keep (V : Valuation τ sig (Elt F)) {r : Ref sig .tc} (h : r ∉ ops50_W) :
    after (ops50 : List (HloOp τ sig (Elt F))) V (Proc.devRef .tc r) = V (Proc.devRef .tc r) :=
  after_of_writes_sub _ V ops50_writes h
/-- They write none of the arguments of @main. -/
theorem ops50_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops50_W := by decide

/-- Operations 611 … 622 of the 655 of @main, which write `main_v507` … `main_v516` (layer 2, upper graph: node embedding). -/
abbrev ops51 : List (HloOp τ sig (Elt F)) :=
  [ nary ![main_v506, main_v453, main_v505] main_v507 (fun u => concatenate S100000x17 1 [⟨S100000x8, u 0⟩, ⟨S100000x8, u 1⟩, ⟨S100000x1, u 2⟩] concatenates_S100000x8_S100000x8_S100000x1_S100000x17_d1),
    binary main_v507 main_v392 main_v508 ((fun l r => Host.dotGeneral dot_S100000x17_S17x32_S100000x32_1_0_0_1_n_n none l r) : (⟨S100000x17, .f32⟩ : BufTy).Contents (Elt F) → (⟨S17x32, .f32⟩ : BufTy).Contents (Elt F) → (⟨S100000x32, .f32⟩ : BufTy).Contents (Elt F)),
    unary main_v394 main_v509 (broadcastInDim S1x32 ![1] bcast_S32_S1x32_1 : (⟨S32, .f32⟩ : BufTy).Contents (Elt F) → (⟨S1x32, .f32⟩ : BufTy).Contents (Elt F)),
    unary main_v509 main_v510 (broadcastInDim S100000x32 ![0, 1] bcast_S1x32_S100000x32_0_1 : (⟨S1x32, .f32⟩ : BufTy).Contents (Elt F) → (⟨S100000x32, .f32⟩ : BufTy).Contents (Elt F)),
    binary main_v508 main_v510 main_v511 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S100000x32, .f32⟩) main_call16_v0) (broadcastInDim S100000x32 ![] bcast_S_S100000x32),
    TRef.binary (TRef.of (T := ⟨S100000x32, .f32⟩) main_v511) (TRef.of (T := ⟨S100000x32, .f32⟩) main_call16_v0) (TRef.of (T := ⟨S100000x32, .f32⟩) main_v512) maximumf,
    binary main_v512 main_v396 main_v513 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)),
    unary main_v398 main_v514 (broadcastInDim S1x8 ![1] bcast_S8_S1x8_1 : (⟨S8, .f32⟩ : BufTy).Contents (Elt F) → (⟨S1x8, .f32⟩ : BufTy).Contents (Elt F)),
    unary main_v514 main_v515 (broadcastInDim S100000x8 ![0, 1] bcast_S1x8_S100000x8_0_1 : (⟨S1x8, .f32⟩ : BufTy).Contents (Elt F) → (⟨S100000x8, .f32⟩ : BufTy).Contents (Elt F)),
    binary main_v513 main_v515 main_v516 (addf : (⟨S100000x8, .f32⟩ : BufTy).Contents (Elt F) → (⟨S100000x8, .f32⟩ : BufTy).Contents (Elt F) → (⟨S100000x8, .f32⟩ : BufTy).Contents (Elt F)) ]
/-- Every buffer these operations touch is a TensorCore reference. -/
theorem ops51_sub : (ops51 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each of them determines its result. -/
theorem ops51_fresh : ∀ op ∈ (ops51 : List (HloOp τ sig (Elt F))), op.fresh = ∅ :=
  List.forall_iff_forall_mem.mp (show (ops51 : List (HloOp τ sig (Elt F))).Forall (fun op => op.fresh = ∅) from ⟨rfl, rfl, rfl, rfl, rfl, rfl, rfl, rfl, rfl, rfl, rfl, rfl⟩)
/-- The buffers they write, in order. -/
abbrev ops51_W : List (Ref sig .tc) := [main_v507, main_v508, main_v509, main_v510, main_v511, main_call16_cst, main_call16_v0, main_v512, main_v513, main_v514, main_v515, main_v516]
theorem ops51_writes : (ops51 : List (HloOp τ sig (Elt F))).Forall fun op => op.writes ⊆ (ops51_W.map (Proc.devRef (τ := τ) .tc)).toFinset :=
  ⟨wsub main_v507 (by decide) rfl, wsub main_v508 (by decide) rfl, wsub main_v509 (by decide) rfl, wsub main_v510 (by decide) rfl, wsub main_v511 (by decide) rfl, wsub main_call16_cst (by decide) rfl, wsub main_call16_v0 (by decide) rfl, wsub main_v512 (by decide) rfl, wsub main_v513 (by decide) rfl, wsub main_v514 (by decide) rfl, wsub main_v515 (by decide) rfl, wsub main_v516 (by decide) rfl⟩
/-- A buffer they do not write keeps its contents through them. -/
theorem ops51_keep (V : Valuation τ sig (Elt F)) {r : Ref sig .tc} (h : r ∉ ops51_W) :
    after (ops51 : List (HloOp τ sig (Elt F))) V (Proc.devRef .tc r) = V (Proc.devRef .tc r) :=
  after_of_writes_sub _ V ops51_writes h
/-- They write none of the arguments of @main. -/
theorem ops51_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops51_W := by decide

/-- Operations 623 … 634 of the 655 of @main, which write `main_cst_69` … `main_v524` (layer 2, upper graph: global update). -/
abbrev ops52 : List (HloOp τ sig (Elt F)) :=
  [ nullary main_cst_69 (constant S_ .f32 0x00000000#32),
    binary main_v516 main_cst_69 main_v517 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v517 main_v518 (broadcastInDim S1x8 ![1] bcast_S8_S1x8_1 : (⟨S8, .f32⟩ : BufTy).Contents (Elt F) → (⟨S1x8, .f32⟩ : BufTy).Contents (Elt F)),
    nullary main_cst_70 (constant S_ .f32 0x47C35000#32),
    unary main_cst_70 main_v519 (broadcastInDim S1x8 ![] bcast_S_S1x8 : (⟨S_, .f32⟩ : BufTy).Contents (Elt F) → (⟨S1x8, .f32⟩ : BufTy).Contents (Elt F)),
    binary main_v518 main_v519 main_v520 (Host.divf : (⟨S1x8, .f32⟩ : BufTy).Contents (Elt F) → (⟨S1x8, .f32⟩ : BufTy).Contents (Elt F) → (⟨S1x8, .f32⟩ : BufTy).Contents (Elt F)),
    nullary main_cst_71 (constant S_ .f32 0x00000000#32),
    binary main_v495 main_cst_71 main_v521 ((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)),
    unary main_v521 main_v522 (broadcastInDim S1x1 ![1] bcast_S1_S1x1_1 : (⟨S1, .f32⟩ : BufTy).Contents (Elt F) → (⟨S1x1, .f32⟩ : BufTy).Contents (Elt F)),
    nullary main_cst_72 (constant S_ .f32 0x49864700#32),
    unary main_cst_72 main_v523 (broadcastInDim S1x1 ![] bcast_S_S1x1 : (⟨S_, .f32⟩ : BufTy).Contents (Elt F) → (⟨S1x1, .f32⟩ : BufTy).Contents (Elt F)),
    binary main_v522 main_v523 main_v524 (Host.divf : (⟨S1x1, .f32⟩ : BufTy).Contents (Elt F) → (⟨S1x1, .f32⟩ : BufTy).Contents (Elt F) → (⟨S1x1, .f32⟩ : BufTy).Contents (Elt F)) ]
/-- Every buffer these operations touch is a TensorCore reference. -/
theorem ops52_sub : (ops52 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub ..⟩
/-- Each of them determines its result. -/
theorem ops52_fresh : ∀ op ∈ (ops52 : List (HloOp τ sig (Elt F))), op.fresh = ∅ :=
  List.forall_iff_forall_mem.mp (show (ops52 : List (HloOp τ sig (Elt F))).Forall (fun op => op.fresh = ∅) from ⟨rfl, rfl, rfl, rfl, rfl, rfl, rfl, rfl, rfl, rfl, rfl, rfl⟩)
/-- The buffers they write, in order. -/
abbrev ops52_W : List (Ref sig .tc) := [main_cst_69, main_v517, main_v518, main_cst_70, main_v519, main_v520, main_cst_71, main_v521, main_v522, main_cst_72, main_v523, main_v524]
theorem ops52_writes : (ops52 : List (HloOp τ sig (Elt F))).Forall fun op => op.writes ⊆ (ops52_W.map (Proc.devRef (τ := τ) .tc)).toFinset :=
  ⟨wsub main_cst_69 (by decide) rfl, wsub main_v517 (by decide) rfl, wsub main_v518 (by decide) rfl, wsub main_cst_70 (by decide) rfl, wsub main_v519 (by decide) rfl, wsub main_v520 (by decide) rfl, wsub main_cst_71 (by decide) rfl, wsub main_v521 (by decide) rfl, wsub main_v522 (by decide) rfl, wsub main_cst_72 (by decide) rfl, wsub main_v523 (by decide) rfl, wsub main_v524 (by decide) rfl⟩
/-- A buffer they do not write keeps its contents through them. -/
theorem ops52_keep (V : Valuation τ sig (Elt F)) {r : Ref sig .tc} (h : r ∉ ops52_W) :
    after (ops52 : List (HloOp τ sig (Elt F))) V (Proc.devRef .tc r) = V (Proc.devRef .tc r) :=
  after_of_writes_sub _ V ops52_writes h
/-- They write none of the arguments of @main. -/
theorem ops52_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops52_W := by decide

/-- The operations of the window: its chunks in order. -/
abbrev win9 : List (HloOp τ sig (Elt F)) := ops47 ++ (ops48 ++ (ops49 ++ (ops50 ++ (ops51 ++ (ops52)))))
set_option maxHeartbeats 4000000 in
/-- The window of @main is the straight line of these operations. -/
theorem main_part9_eq (c : Dev nD) : main_part9 (F := F) c = seq win9 := rfl
theorem win9_sub : ∀ op ∈ (win9 : List (HloOp τ sig (Elt F))), op.bufs ⊆ tcRefs τ sig :=
  List.forall_mem_append.mpr ⟨List.forall_iff_forall_mem.mp ops47_sub, List.forall_mem_append.mpr ⟨List.forall_iff_forall_mem.mp ops48_sub, List.forall_mem_append.mpr ⟨List.forall_iff_forall_mem.mp ops49_sub, List.forall_mem_append.mpr ⟨List.forall_iff_forall_mem.mp ops50_sub, List.forall_mem_append.mpr ⟨List.forall_iff_forall_mem.mp ops51_sub, List.forall_iff_forall_mem.mp ops52_sub⟩⟩⟩⟩⟩
theorem win9_fresh : ∀ op ∈ (win9 : List (HloOp τ sig (Elt F))), op.fresh = ∅ :=
  List.forall_mem_append.mpr ⟨ops47_fresh, List.forall_mem_append.mpr ⟨ops48_fresh, List.forall_mem_append.mpr ⟨ops49_fresh, List.forall_mem_append.mpr ⟨ops50_fresh, List.forall_mem_append.mpr ⟨ops51_fresh, ops52_fresh⟩⟩⟩⟩⟩

end Cert.ReferenceIdeal.RunFold

end
-- ==== Proof.Ref.Chunks10.lean ====
import proofs.«426760_j80470507258346_3_alg».proof.Proof.Gen.ReferenceIdeal
import Idealize.ShloMosaic.Lib.StableHlo.Run
import Idealize.ShloMosaic.Lib.Pipeline.Frame

/-! Operations 635 … 655 of the 655 of the reference program (the window `main_part10` of @main), in 3 chunks `ops53` … `ops55`:
    each chunk a list of operations with the three facts the run asks of it (its buffers are TensorCore references, it
    allocates nothing, which buffers it writes), and the window of @main as the chunks run in order. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- An operation whose write set is the one buffer `y`, a member of the list `W`, writes inside `W`. -/
private theorem wsub {W : List (Ref sig .tc)} {s : Finset (DevRef τ sig)} (y : Ref sig .tc) (hy : y ∈ W)
    (hs : s = {Proc.devRef .tc y}) : s ⊆ (W.map (Proc.devRef (τ := τ) .tc)).toFinset := by
  subst hs
  exact Finset.singleton_subset_iff.mpr (List.mem_toFinset.mpr (List.mem_map_of_mem hy))

/-- Operations 635 … 644 of the 655 of @main, which write `main_v525` … `main_v532` (layer 2, upper graph: global update). -/
abbrev ops53 : List (HloOp τ sig (Elt F)) :=
  [ nary ![main_v520, main_v524, main_v469] main_v525 (fun u => concatenate S1x17 1 [⟨S1x8, u 0⟩, ⟨S1x1, u 1⟩, ⟨S1x8, u 2⟩] concatenates_S1x8_S1x1_S1x8_S1x17_d1),
    binary main_v525 main_v400 main_v526 ((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)),
    unary main_v402 main_v527 (broadcastInDim S1x32 ![1] bcast_S32_S1x32_1 : (⟨S32, .f32⟩ : BufTy).Contents (Elt F) → (⟨S1x32, .f32⟩ : BufTy).Contents (Elt F)),
    binary main_v526 main_v527 main_v528 (addf : (⟨S1x32, .f32⟩ : BufTy).Contents (Elt F) → (⟨S1x32, .f32⟩ : BufTy).Contents (Elt F) → (⟨S1x32, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S1x32, .f32⟩) main_call17_v0) (broadcastInDim S1x32 ![] bcast_S_S1x32),
    TRef.binary (TRef.of (T := ⟨S1x32, .f32⟩) main_v528) (TRef.of (T := ⟨S1x32, .f32⟩) main_call17_v0) (TRef.of (T := ⟨S1x32, .f32⟩) main_v529) maximumf,
    binary main_v529 main_v404 main_v530 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)),
    unary main_v406 main_v531 (broadcastInDim S1x8 ![1] bcast_S8_S1x8_1 : (⟨S8, .f32⟩ : BufTy).Contents (Elt F) → (⟨S1x8, .f32⟩ : BufTy).Contents (Elt F)),
    binary main_v530 main_v531 main_v532 (addf : (⟨S1x8, .f32⟩ : BufTy).Contents (Elt F) → (⟨S1x8, .f32⟩ : BufTy).Contents (Elt F) → (⟨S1x8, .f32⟩ : BufTy).Contents (Elt F)) ]
/-- Every buffer these operations touch is a TensorCore reference. -/
theorem ops53_sub : (ops53 : List (HloOp τ sig (Elt F))).Forall fun op => op.bufs ⊆ tcRefs τ sig :=
  ⟨nary_bufs_sub .., binary_bufs_sub .., unary_bufs_sub .., binary_bufs_sub .., nullary_bufs_sub .., unary_bufs_sub .., binary_bufs_sub .., binary_bufs_sub .., unary_bufs_sub .., binary_bufs_sub ..⟩
/-- Each of them determines its result. -/
theorem ops53_fresh : ∀ op ∈ (ops53 : List (HloOp τ sig (Elt F))), op.fresh = ∅ :=
  List.forall_iff_forall_mem.mp (show (ops53 : List (HloOp τ sig (Elt F))).Forall (fun op => op.fresh = ∅) from ⟨rfl, rfl, rfl, rfl, rfl, rfl, rfl, rfl, rfl, rfl⟩)
/-- The buffers they write, in order. -/
abbrev ops53_W : List (Ref sig .tc) := [main_v525, main_v526, main_v527, main_v528, main_call17_cst, main_call17_v0, main_v529, main_v530, main_v531, main_v532]
theorem ops53_writes : (ops53 : List (HloOp τ sig (Elt F))).Forall fun op => op.writes ⊆ (ops53_W.map (Proc.devRef (τ := τ) .tc)).toFinset :=
  ⟨wsub main_v525 (by decide) rfl, wsub main_v526 (by decide) rfl, wsub main_v527 (by decide) rfl, wsub main_v528 (by decide) rfl, wsub main_call17_cst (by decide) rfl, wsub main_call17_v0 (by decide) rfl, wsub main_v529 (by decide) rfl, wsub main_v530 (by decide) rfl, wsub main_v531 (by decide) rfl, wsub main_v532 (by decide) rfl⟩
/-- A buffer they do not write keeps its contents through them. -/
theorem ops53_keep (V : Valuation τ sig (Elt F)) {r : Ref sig .tc} (h : r ∉ ops53_W) :
    after (ops53 : List (HloOp τ sig (Elt F))) V (Proc.devRef .tc r) = V (Proc.devRef .tc r) :=
  after_of_writes_sub _ V ops53_writes h
/-- They write none of the arguments of @main. -/
theorem ops53_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops53_W := by decide

/-- Operations 645 … 654 of the 655 of @main, which write `main_v533` … `main_v542` (the lower and the upper edge values, exponentiated where the two endpoints are equal, side by side). -/
abbrev ops54 : List (HloOp τ sig (Elt F)) :=
  [ binary main_v1 main_v3 main_v533 (cmpi .eq : (⟨S1100000, .i32⟩ : BufTy).Contents (Elt F) → (⟨S1100000, .i32⟩ : BufTy).Contents (Elt F) → (⟨S1100000, .i1⟩ : BufTy).Contents (Elt F)),
    reshape main_v432 main_v534 rfl shapeCasts_S1100000x1_S1100000,
    unary main_v534 main_v535 (Host.exp : (⟨S1100000, .f32⟩ : BufTy).Contents (Elt F) → (⟨S1100000, .f32⟩ : BufTy).Contents (Elt F)),
    reshape main_v432 main_v536 rfl shapeCasts_S1100000x1_S1100000,
    TRef.ternary (TRef.of (T := ⟨S1100000, .i1⟩) main_v533) (TRef.of (T := ⟨S1100000, .f32⟩) main_v535) (TRef.of (T := ⟨S1100000, .f32⟩) main_v536) (TRef.of (T := ⟨S1100000, .f32⟩) main_v537) select,
    binary main_v5 main_v7 main_v538 (cmpi .eq : (⟨S1100000, .i32⟩ : BufTy).Contents (Elt F) → (⟨S1100000, .i32⟩ : BufTy).Contents (Elt F) → (⟨S1100000, .i1⟩ : BufTy).Contents (Elt F)),
    reshape main_v495 main_v539 rfl shapeCasts_S1100000x1_S1100000,
    unary main_v539 main_v540 (Host.exp : (⟨S1100000, .f32⟩ : BufTy).Contents (Elt F) → (⟨S1100000, .f32⟩ : BufTy).Contents (Elt F)),
    reshape main_v495 main_v541 rfl shapeCasts_S1100000x1_S1100000,
    TRef.ternary (TRef.of (T := ⟨S1100000, .i1⟩) main_v538) (TRef.of (T := ⟨S1100000, .f32⟩) main_v540) (TRef.of (T := ⟨S1100000, .f32⟩) main_v541) (TRef.of (T := ⟨S1100000, .f32⟩) main_v542) select ]
/-- Every buffer these operations touch is a TensorCore reference. -/
theorem ops54_sub : (ops54 : List (HloOp τ sig (Elt F))).Forall fun op => op.bufs ⊆ tcRefs τ sig :=
  ⟨binary_bufs_sub .., reshape_bufs_sub .., unary_bufs_sub .., reshape_bufs_sub .., ternary_bufs_sub .., binary_bufs_sub .., reshape_bufs_sub .., unary_bufs_sub .., reshape_bufs_sub .., ternary_bufs_sub ..⟩
/-- Each of them determines its result. -/
theorem ops54_fresh : ∀ op ∈ (ops54 : List (HloOp τ sig (Elt F))), op.fresh = ∅ :=
  List.forall_iff_forall_mem.mp (show (ops54 : List (HloOp τ sig (Elt F))).Forall (fun op => op.fresh = ∅) from ⟨rfl, rfl, rfl, rfl, rfl, rfl, rfl, rfl, rfl, rfl⟩)
/-- The buffers they write, in order. -/
abbrev ops54_W : List (Ref sig .tc) := [main_v533, main_v534, main_v535, main_v536, main_v537, main_v538, main_v539, main_v540, main_v541, main_v542]
theorem ops54_writes : (ops54 : List (HloOp τ sig (Elt F))).Forall fun op => op.writes ⊆ (ops54_W.map (Proc.devRef (τ := τ) .tc)).toFinset :=
  ⟨wsub main_v533 (by decide) rfl, wsub main_v534 (by decide) rfl, wsub main_v535 (by decide) rfl, wsub main_v536 (by decide) rfl, wsub main_v537 (by decide) rfl, wsub main_v538 (by decide) rfl, wsub main_v539 (by decide) rfl, wsub main_v540 (by decide) rfl, wsub main_v541 (by decide) rfl, wsub main_v542 (by decide) rfl⟩
/-- A buffer they do not write keeps its contents through them. -/
theorem ops54_keep (V : Valuation τ sig (Elt F)) {r : Ref sig .tc} (h : r ∉ ops54_W) :
    after (ops54 : List (HloOp τ sig (Elt F))) V (Proc.devRef .tc r) = V (Proc.devRef .tc r) :=
  after_of_writes_sub _ V ops54_writes h
/-- They write none of the arguments of @main. -/
theorem ops54_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops54_W := by decide

/-- Operations 655 … 655 of the 655 of @main, which write `main_v543` … `main_v543` (the lower and the upper edge values, exponentiated where the two endpoints are equal, side by side). -/
abbrev ops55 : List (HloOp τ sig (Elt F)) :=
  [ binary main_v537 main_v542 main_v543 ((fun a b => concatenate S2200000 0 [⟨S1100000, a⟩, ⟨S1100000, b⟩] concatenates_S1100000_S1100000_S2200000_d0) : (⟨S1100000, .f32⟩ : BufTy).Contents (Elt F) → (⟨S1100000, .f32⟩ : BufTy).Contents (Elt F) → (⟨S2200000, .f32⟩ : BufTy).Contents (Elt F)) ]
/-- Every buffer these operations touch is a TensorCore reference. -/
theorem ops55_sub : (ops55 : List (HloOp τ sig (Elt F))).Forall fun op => op.bufs ⊆ tcRefs τ sig :=
  binary_bufs_sub ..
/-- Each of them determines its result. -/
theorem ops55_fresh : ∀ op ∈ (ops55 : List (HloOp τ sig (Elt F))), op.fresh = ∅ :=
  List.forall_iff_forall_mem.mp (show (ops55 : List (HloOp τ sig (Elt F))).Forall (fun op => op.fresh = ∅) from rfl)
/-- The buffers they write, in order. -/
abbrev ops55_W : List (Ref sig .tc) := [main_v543]
theorem ops55_writes : (ops55 : List (HloOp τ sig (Elt F))).Forall fun op => op.writes ⊆ (ops55_W.map (Proc.devRef (τ := τ) .tc)).toFinset :=
  wsub main_v543 (by decide) rfl
/-- A buffer they do not write keeps its contents through them. -/
theorem ops55_keep (V : Valuation τ sig (Elt F)) {r : Ref sig .tc} (h : r ∉ ops55_W) :
    after (ops55 : List (HloOp τ sig (Elt F))) V (Proc.devRef .tc r) = V (Proc.devRef .tc r) :=
  after_of_writes_sub _ V ops55_writes h
/-- They write none of the arguments of @main. -/
theorem ops55_args : ∀ r ∈ ([main_arg0, main_arg1, main_arg2, main_arg3, main_arg4, main_arg5, main_arg6, main_arg7, main_arg8, main_arg9, main_arg10, main_arg11, main_arg12, main_arg13, main_arg14, main_arg15, main_arg16] : List (Ref sig .tc)), r ∉ ops55_W := by decide

/-- The operations of the window: its chunks in order. -/
abbrev win10 : List (HloOp τ sig (Elt F)) := ops53 ++ (ops54 ++ (ops55))
set_option maxHeartbeats 4000000 in
/-- The window of @main is the straight line of these operations. -/
theorem main_part10_eq (c : Dev nD) : main_part10 (F := F) c = seq win10 := rfl
theorem win10_sub : ∀ op ∈ (win10 : List (HloOp τ sig (Elt F))), op.bufs ⊆ tcRefs τ sig :=
  List.forall_mem_append.mpr ⟨List.forall_iff_forall_mem.mp ops53_sub, List.forall_mem_append.mpr ⟨List.forall_iff_forall_mem.mp ops54_sub, List.forall_iff_forall_mem.mp ops55_sub⟩⟩
theorem win10_fresh : ∀ op ∈ (win10 : List (HloOp τ sig (Elt F))), op.fresh = ∅ :=
  List.forall_mem_append.mpr ⟨ops53_fresh, List.forall_mem_append.mpr ⟨ops54_fresh, ops55_fresh⟩⟩

end Cert.ReferenceIdeal.RunFold

end
-- ==== Proof.Ref.Run.lean ====
import proofs.«426760_j80470507258346_3_alg».proof.Proof.Ref.Chunks0
import proofs.«426760_j80470507258346_3_alg».proof.Proof.Ref.Chunks1
import proofs.«426760_j80470507258346_3_alg».proof.Proof.Ref.Chunks2
import proofs.«426760_j80470507258346_3_alg».proof.Proof.Ref.Chunks3
import proofs.«426760_j80470507258346_3_alg».proof.Proof.Ref.Chunks4
import proofs.«426760_j80470507258346_3_alg».proof.Proof.Ref.Chunks5
import proofs.«426760_j80470507258346_3_alg».proof.Proof.Ref.Chunks6
import proofs.«426760_j80470507258346_3_alg».proof.Proof.Ref.Chunks7
import proofs.«426760_j80470507258346_3_alg».proof.Proof.Ref.Chunks8
import proofs.«426760_j80470507258346_3_alg».proof.Proof.Ref.Chunks9
import proofs.«426760_j80470507258346_3_alg».proof.Proof.Ref.Chunks10

/-! The run of the reference program: @main is the straight line of its 655 operations (the windows of @main one after the other,
    each the chunks of its module), so every weakly fair execution terminates with each TensorCore buffer at the fold of the
    operations over its launch contents. The fold is kept chunk by chunk: `RW0` is the launch contents and `RW(k+1)` is `RWk`
    after chunk `k`. No chunk writes an argument of @main, so the last level reads every argument as launched. -/

set_option maxRecDepth 8192

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- Two programs that are straight lines, run one after the other, are the straight line of the two lists. -/
theorem seq_bind_eq {Λ : Labels} {p q : Prog (TpuEff nD τ sig (Elt F) Λ .tc) PUnit} {l₁ l₂ : List (HloOp τ sig (Elt F))}
    (h₁ : p = seq l₁) (h₂ : q = seq l₂) : (p >>= fun _ => q) = seq (l₁ ++ l₂) := by
  rw [seq_append, h₁, h₂]

/-- The 655 operations of @main: its windows in order. -/
abbrev opsAll : List (HloOp τ sig (Elt F)) := win0 ++ (win1 ++ (win2 ++ (win3 ++ (win4 ++ (win5 ++ (win6 ++ (win7 ++ (win8 ++ (win9 ++ (win10))))))))))
theorem main_eq (c : Dev nD) : main (F := F) c = seq opsAll :=
  seq_bind_eq (main_part0_eq c) (seq_bind_eq (main_part1_eq c) (seq_bind_eq (main_part2_eq c) (seq_bind_eq (main_part3_eq c) (seq_bind_eq (main_part4_eq c) (seq_bind_eq (main_part5_eq c) (seq_bind_eq (main_part6_eq c) (seq_bind_eq (main_part7_eq c) (seq_bind_eq (main_part8_eq c) (seq_bind_eq (main_part9_eq c) (main_part10_eq c))))))))))
theorem scopedRefs_eq : (Finset.univ.filter fun b : Ref sig .tc => b.isScoped) = ∅ := by decide
theorem scopedSems_eq : (Finset.univ.filter fun sm : SemLoc sig => sm.isScoped .tc) = ∅ := by decide
theorem opsAll_sub : (opsAll : List (HloOp τ sig (Elt F))).Forall fun op => op.bufs ⊆ tcRefs τ sig :=
  List.forall_iff_forall_mem.mpr (List.forall_mem_append.mpr ⟨win0_sub, List.forall_mem_append.mpr ⟨win1_sub, List.forall_mem_append.mpr ⟨win2_sub, List.forall_mem_append.mpr ⟨win3_sub, List.forall_mem_append.mpr ⟨win4_sub, List.forall_mem_append.mpr ⟨win5_sub, List.forall_mem_append.mpr ⟨win6_sub, List.forall_mem_append.mpr ⟨win7_sub, List.forall_mem_append.mpr ⟨win8_sub, List.forall_mem_append.mpr ⟨win9_sub, win10_sub⟩⟩⟩⟩⟩⟩⟩⟩⟩⟩)
theorem opsAll_fresh : ∀ op ∈ (opsAll : List (HloOp τ sig (Elt F))), op.fresh = ∅ :=
  List.forall_mem_append.mpr ⟨win0_fresh, List.forall_mem_append.mpr ⟨win1_fresh, List.forall_mem_append.mpr ⟨win2_fresh, List.forall_mem_append.mpr ⟨win3_fresh, List.forall_mem_append.mpr ⟨win4_fresh, List.forall_mem_append.mpr ⟨win5_fresh, List.forall_mem_append.mpr ⟨win6_fresh, List.forall_mem_append.mpr ⟨win7_fresh, List.forall_mem_append.mpr ⟨win8_fresh, List.forall_mem_append.mpr ⟨win9_fresh, win10_fresh⟩⟩⟩⟩⟩⟩⟩⟩⟩⟩

variable (m : (ℓ : Loc nD τ sig) → Buf (Elt F) ℓ)

/-- The contents of the buffers of device `c` at launch. -/
abbrev RW0 (c : Dev nD) : Valuation τ sig (Elt F) := launchContents m c
/-- The contents after operations 1 … 60 (through `main_v56`). -/
abbrev RW1 (c : Dev nD) : Valuation τ sig (Elt F) := after ops0 (RW0 m c)
/-- The contents after operations 1 … 62 (through `main_v58`). -/
abbrev RW2 (c : Dev nD) : Valuation τ sig (Elt F) := after ops1 (RW1 m c)
/-- The contents after operations 1 … 82 (through `main_v74`). -/
abbrev RW3 (c : Dev nD) : Valuation τ sig (Elt F) := after ops2 (RW2 m c)
/-- The contents after operations 1 … 94 (through `main_v84`). -/
abbrev RW4 (c : Dev nD) : Valuation τ sig (Elt F) := after ops3 (RW3 m c)
/-- The contents after operations 1 … 108 (through `main_v94`). -/
abbrev RW5 (c : Dev nD) : Valuation τ sig (Elt F) := after ops4 (RW4 m c)
/-- The contents after operations 1 … 109 (through `main_v95`). -/
abbrev RW6 (c : Dev nD) : Valuation τ sig (Elt F) := after ops5 (RW5 m c)
/-- The contents after operations 1 … 121 (through `main_v105`). -/
abbrev RW7 (c : Dev nD) : Valuation τ sig (Elt F) := after ops6 (RW6 m c)
/-- The contents after operations 1 … 124 (through `main_v107`). -/
abbrev RW8 (c : Dev nD) : Valuation τ sig (Elt F) := after ops7 (RW7 m c)
/-- The contents after operations 1 … 133 (through `main_v113`). -/
abbrev RW9 (c : Dev nD) : Valuation τ sig (Elt F) := after ops8 (RW8 m c)
/-- The contents after operations 1 … 143 (through `main_v121`). -/
abbrev RW10 (c : Dev nD) : Valuation τ sig (Elt F) := after ops9 (RW9 m c)
/-- The contents after operations 1 … 163 (through `main_v137`). -/
abbrev RW11 (c : Dev nD) : Valuation τ sig (Elt F) := after ops10 (RW10 m c)
/-- The contents after operations 1 … 175 (through `main_v147`). -/
abbrev RW12 (c : Dev nD) : Valuation τ sig (Elt F) := after ops11 (RW11 m c)
/-- The contents after operations 1 … 188 (through `main_v156`). -/
abbrev RW13 (c : Dev nD) : Valuation τ sig (Elt F) := after ops12 (RW12 m c)
/-- The contents after operations 1 … 189 (through `main_v157`). -/
abbrev RW14 (c : Dev nD) : Valuation τ sig (Elt F) := after ops13 (RW13 m c)
/-- The contents after operations 1 … 190 (through `main_v158`). -/
abbrev RW15 (c : Dev nD) : Valuation τ sig (Elt F) := after ops14 (RW14 m c)
/-- The contents after operations 1 … 202 (through `main_v168`). -/
abbrev RW16 (c : Dev nD) : Valuation τ sig (Elt F) := after ops15 (RW15 m c)
/-- The contents after operations 1 … 214 (through `main_v176`). -/
abbrev RW17 (c : Dev nD) : Valuation τ sig (Elt F) := after ops16 (RW16 m c)
/-- The contents after operations 1 … 224 (through `main_v184`). -/
abbrev RW18 (c : Dev nD) : Valuation τ sig (Elt F) := after ops17 (RW17 m c)
/-- The contents after operations 1 … 252 (through `main_v212`). -/
abbrev RW19 (c : Dev nD) : Valuation τ sig (Elt F) := after ops18 (RW18 m c)
/-- The contents after operations 1 … 272 (through `main_v232`). -/
abbrev RW20 (c : Dev nD) : Valuation τ sig (Elt F) := after ops19 (RW19 m c)
/-- The contents after operations 1 … 292 (through `main_v248`). -/
abbrev RW21 (c : Dev nD) : Valuation τ sig (Elt F) := after ops20 (RW20 m c)
/-- The contents after operations 1 … 304 (through `main_v258`). -/
abbrev RW22 (c : Dev nD) : Valuation τ sig (Elt F) := after ops21 (RW21 m c)
/-- The contents after operations 1 … 314 (through `main_v265`). -/
abbrev RW23 (c : Dev nD) : Valuation τ sig (Elt F) := after ops22 (RW22 m c)
/-- The contents after operations 1 … 318 (through `main_v268`). -/
abbrev RW24 (c : Dev nD) : Valuation τ sig (Elt F) := after ops23 (RW23 m c)
/-- The contents after operations 1 … 319 (through `main_v269`). -/
abbrev RW25 (c : Dev nD) : Valuation τ sig (Elt F) := after ops24 (RW24 m c)
/-- The contents after operations 1 … 331 (through `main_v279`). -/
abbrev RW26 (c : Dev nD) : Valuation τ sig (Elt F) := after ops25 (RW25 m c)
/-- The contents after operations 1 … 343 (through `main_v287`). -/
abbrev RW27 (c : Dev nD) : Valuation τ sig (Elt F) := after ops26 (RW26 m c)
/-- The contents after operations 1 … 353 (through `main_v295`). -/
abbrev RW28 (c : Dev nD) : Valuation τ sig (Elt F) := after ops27 (RW27 m c)
/-- The contents after operations 1 … 373 (through `main_v311`). -/
abbrev RW29 (c : Dev nD) : Valuation τ sig (Elt F) := after ops28 (RW28 m c)
/-- The contents after operations 1 … 378 (through `main_v316`). -/
abbrev RW30 (c : Dev nD) : Valuation τ sig (Elt F) := after ops29 (RW29 m c)
/-- The contents after operations 1 … 385 (through `main_v321`). -/
abbrev RW31 (c : Dev nD) : Valuation τ sig (Elt F) := after ops30 (RW30 m c)
/-- The contents after operations 1 … 399 (through `main_v331`). -/
abbrev RW32 (c : Dev nD) : Valuation τ sig (Elt F) := after ops31 (RW31 m c)
/-- The contents after operations 1 … 400 (through `main_v332`). -/
abbrev RW33 (c : Dev nD) : Valuation τ sig (Elt F) := after ops32 (RW32 m c)
/-- The contents after operations 1 … 412 (through `main_v342`). -/
abbrev RW34 (c : Dev nD) : Valuation τ sig (Elt F) := after ops33 (RW33 m c)
/-- The contents after operations 1 … 424 (through `main_v350`). -/
abbrev RW35 (c : Dev nD) : Valuation τ sig (Elt F) := after ops34 (RW34 m c)
/-- The contents after operations 1 … 434 (through `main_v358`). -/
abbrev RW36 (c : Dev nD) : Valuation τ sig (Elt F) := after ops35 (RW35 m c)
/-- The contents after operations 1 … 444 (through `main_v368`). -/
abbrev RW37 (c : Dev nD) : Valuation τ sig (Elt F) := after ops36 (RW36 m c)
/-- The contents after operations 1 … 482 (through `main_v406`). -/
abbrev RW38 (c : Dev nD) : Valuation τ sig (Elt F) := after ops37 (RW37 m c)
/-- The contents after operations 1 … 502 (through `main_v422`). -/
abbrev RW39 (c : Dev nD) : Valuation τ sig (Elt F) := after ops38 (RW38 m c)
/-- The contents after operations 1 … 504 (through `main_v424`). -/
abbrev RW40 (c : Dev nD) : Valuation τ sig (Elt F) := after ops39 (RW39 m c)
/-- The contents after operations 1 … 514 (through `main_v432`). -/
abbrev RW41 (c : Dev nD) : Valuation τ sig (Elt F) := after ops40 (RW40 m c)
/-- The contents after operations 1 … 528 (through `main_v442`). -/
abbrev RW42 (c : Dev nD) : Valuation τ sig (Elt F) := after ops41 (RW41 m c)
/-- The contents after operations 1 … 529 (through `main_v443`). -/
abbrev RW43 (c : Dev nD) : Valuation τ sig (Elt F) := after ops42 (RW42 m c)
/-- The contents after operations 1 … 541 (through `main_v453`). -/
abbrev RW44 (c : Dev nD) : Valuation τ sig (Elt F) := after ops43 (RW43 m c)
/-- The contents after operations 1 … 553 (through `main_v461`). -/
abbrev RW45 (c : Dev nD) : Valuation τ sig (Elt F) := after ops44 (RW44 m c)
/-- The contents after operations 1 … 563 (through `main_v469`). -/
abbrev RW46 (c : Dev nD) : Valuation τ sig (Elt F) := after ops45 (RW45 m c)
/-- The contents after operations 1 … 570 (through `main_v474`). -/
abbrev RW47 (c : Dev nD) : Valuation τ sig (Elt F) := after ops46 (RW46 m c)
/-- The contents after operations 1 … 583 (through `main_v485`). -/
abbrev RW48 (c : Dev nD) : Valuation τ sig (Elt F) := after ops47 (RW47 m c)
/-- The contents after operations 1 … 595 (through `main_v495`). -/
abbrev RW49 (c : Dev nD) : Valuation τ sig (Elt F) := after ops48 (RW48 m c)
/-- The contents after operations 1 … 609 (through `main_v505`). -/
abbrev RW50 (c : Dev nD) : Valuation τ sig (Elt F) := after ops49 (RW49 m c)
/-- The contents after operations 1 … 610 (through `main_v506`). -/
abbrev RW51 (c : Dev nD) : Valuation τ sig (Elt F) := after ops50 (RW50 m c)
/-- The contents after operations 1 … 622 (through `main_v516`). -/
abbrev RW52 (c : Dev nD) : Valuation τ sig (Elt F) := after ops51 (RW51 m c)
/-- The contents after operations 1 … 634 (through `main_v524`). -/
abbrev RW53 (c : Dev nD) : Valuation τ sig (Elt F) := after ops52 (RW52 m c)
/-- The contents after operations 1 … 644 (through `main_v532`). -/
abbrev RW54 (c : Dev nD) : Valuation τ sig (Elt F) := after ops53 (RW53 m c)
/-- The contents after operations 1 … 654 (through `main_v542`). -/
abbrev RW55 (c : Dev nD) : Valuation τ sig (Elt F) := after ops54 (RW54 m c)
/-- The contents after operations 1 … 655 (through `main_v543`). -/
abbrev RW56 (c : Dev nD) : Valuation τ sig (Elt F) := after ops55 (RW55 m c)

/-- The fold of all the operations over the launch contents is the last level. -/
theorem after_opsAll (c : Dev nD) : after (opsAll (F := F)) (launchContents m c) = RW56 m c := by
  simp only [opsAll, win0, win1, win2, win3, win4, win5, win6, win7, win8, win9, win10, after_append]

/-- On every device, from any memory with zero counters: every weakly fair execution of @main terminates, and every
    final state has each TensorCore buffer at the last level of the fold. -/
theorem run_fold (ρ : Dev nD → PrngReg) :
    θ_run defs (onTc (τ := τ) (main (F := F))) ⟨m, fun _ => 0, ρ⟩ fun r =>
      ∀ (c : Dev nD) (b : Ref sig .tc), r.2.mem ((c.tc : Thread nD τ).loc b) = RW56 m c (Proc.devRef .tc b) :=
  (θ_run defs _ _).mono (fun _ h c b => (h c b).trans (congrFun (after_opsAll m c) _))
    (run_seq scopedRefs_eq scopedSems_eq defs main (fun _ => opsAll) main_eq (fun _ => opsAll_sub) m ρ (fun _ => opsAll_fresh))

/-! ## What a level keeps -/

theorem RW1_keep (c : Dev nD) {r : Ref sig .tc} (h : r ∉ ops0_W) : RW1 m c (Proc.devRef .tc r) = RW0 m c (Proc.devRef .tc r) :=
  ops0_keep _ h
theorem RW2_keep (c : Dev nD) {r : Ref sig .tc} (h : r ∉ ops1_W) : RW2 m c (Proc.devRef .tc r) = RW1 m c (Proc.devRef .tc r) :=
  ops1_keep _ h
theorem RW3_keep (c : Dev nD) {r : Ref sig .tc} (h : r ∉ ops2_W) : RW3 m c (Proc.devRef .tc r) = RW2 m c (Proc.devRef .tc r) :=
  ops2_keep _ h
theorem RW4_keep (c : Dev nD) {r : Ref sig .tc} (h : r ∉ ops3_W) : RW4 m c (Proc.devRef .tc r) = RW3 m c (Proc.devRef .tc r) :=
  ops3_keep _ h
theorem RW5_keep (c : Dev nD) {r : Ref sig .tc} (h : r ∉ ops4_W) : RW5 m c (Proc.devRef .tc r) = RW4 m c (Proc.devRef .tc r) :=
  ops4_keep _ h
theorem RW6_keep (c : Dev nD) {r : Ref sig .tc} (h : r ∉ ops5_W) : RW6 m c (Proc.devRef .tc r) = RW5 m c (Proc.devRef .tc r) :=
  ops5_keep _ h
theorem RW7_keep (c : Dev nD) {r : Ref sig .tc} (h : r ∉ ops6_W) : RW7 m c (Proc.devRef .tc r) = RW6 m c (Proc.devRef .tc r) :=
  ops6_keep _ h
theorem RW8_keep (c : Dev nD) {r : Ref sig .tc} (h : r ∉ ops7_W) : RW8 m c (Proc.devRef .tc r) = RW7 m c (Proc.devRef .tc r) :=
  ops7_keep _ h
theorem RW9_keep (c : Dev nD) {r : Ref sig .tc} (h : r ∉ ops8_W) : RW9 m c (Proc.devRef .tc r) = RW8 m c (Proc.devRef .tc r) :=
  ops8_keep _ h
theorem RW10_keep (c : Dev nD) {r : Ref sig .tc} (h : r ∉ ops9_W) : RW10 m c (Proc.devRef .tc r) = RW9 m c (Proc.devRef .tc r) :=
  ops9_keep _ h
theorem RW11_keep (c : Dev nD) {r : Ref sig .tc} (h : r ∉ ops10_W) : RW11 m c (Proc.devRef .tc r) = RW10 m c (Proc.devRef .tc r) :=
  ops10_keep _ h
theorem RW12_keep (c : Dev nD) {r : Ref sig .tc} (h : r ∉ ops11_W) : RW12 m c (Proc.devRef .tc r) = RW11 m c (Proc.devRef .tc r) :=
  ops11_keep _ h
theorem RW13_keep (c : Dev nD) {r : Ref sig .tc} (h : r ∉ ops12_W) : RW13 m c (Proc.devRef .tc r) = RW12 m c (Proc.devRef .tc r) :=
  ops12_keep _ h
theorem RW14_keep (c : Dev nD) {r : Ref sig .tc} (h : r ∉ ops13_W) : RW14 m c (Proc.devRef .tc r) = RW13 m c (Proc.devRef .tc r) :=
  ops13_keep _ h
theorem RW15_keep (c : Dev nD) {r : Ref sig .tc} (h : r ∉ ops14_W) : RW15 m c (Proc.devRef .tc r) = RW14 m c (Proc.devRef .tc r) :=
  ops14_keep _ h
theorem RW16_keep (c : Dev nD) {r : Ref sig .tc} (h : r ∉ ops15_W) : RW16 m c (Proc.devRef .tc r) = RW15 m c (Proc.devRef .tc r) :=
  ops15_keep _ h
theorem RW17_keep (c : Dev nD) {r : Ref sig .tc} (h : r ∉ ops16_W) : RW17 m c (Proc.devRef .tc r) = RW16 m c (Proc.devRef .tc r) :=
  ops16_keep _ h
theorem RW18_keep (c : Dev nD) {r : Ref sig .tc} (h : r ∉ ops17_W) : RW18 m c (Proc.devRef .tc r) = RW17 m c (Proc.devRef .tc r) :=
  ops17_keep _ h
theorem RW19_keep (c : Dev nD) {r : Ref sig .tc} (h : r ∉ ops18_W) : RW19 m c (Proc.devRef .tc r) = RW18 m c (Proc.devRef .tc r) :=
  ops18_keep _ h
theorem RW20_keep (c : Dev nD) {r : Ref sig .tc} (h : r ∉ ops19_W) : RW20 m c (Proc.devRef .tc r) = RW19 m c (Proc.devRef .tc r) :=
  ops19_keep _ h
theorem RW21_keep (c : Dev nD) {r : Ref sig .tc} (h : r ∉ ops20_W) : RW21 m c (Proc.devRef .tc r) = RW20 m c (Proc.devRef .tc r) :=
  ops20_keep _ h
theorem RW22_keep (c : Dev nD) {r : Ref sig .tc} (h : r ∉ ops21_W) : RW22 m c (Proc.devRef .tc r) = RW21 m c (Proc.devRef .tc r) :=
  ops21_keep _ h
theorem RW23_keep (c : Dev nD) {r : Ref sig .tc} (h : r ∉ ops22_W) : RW23 m c (Proc.devRef .tc r) = RW22 m c (Proc.devRef .tc r) :=
  ops22_keep _ h
theorem RW24_keep (c : Dev nD) {r : Ref sig .tc} (h : r ∉ ops23_W) : RW24 m c (Proc.devRef .tc r) = RW23 m c (Proc.devRef .tc r) :=
  ops23_keep _ h
theorem RW25_keep (c : Dev nD) {r : Ref sig .tc} (h : r ∉ ops24_W) : RW25 m c (Proc.devRef .tc r) = RW24 m c (Proc.devRef .tc r) :=
  ops24_keep _ h
theorem RW26_keep (c : Dev nD) {r : Ref sig .tc} (h : r ∉ ops25_W) : RW26 m c (Proc.devRef .tc r) = RW25 m c (Proc.devRef .tc r) :=
  ops25_keep _ h
theorem RW27_keep (c : Dev nD) {r : Ref sig .tc} (h : r ∉ ops26_W) : RW27 m c (Proc.devRef .tc r) = RW26 m c (Proc.devRef .tc r) :=
  ops26_keep _ h
theorem RW28_keep (c : Dev nD) {r : Ref sig .tc} (h : r ∉ ops27_W) : RW28 m c (Proc.devRef .tc r) = RW27 m c (Proc.devRef .tc r) :=
  ops27_keep _ h
theorem RW29_keep (c : Dev nD) {r : Ref sig .tc} (h : r ∉ ops28_W) : RW29 m c (Proc.devRef .tc r) = RW28 m c (Proc.devRef .tc r) :=
  ops28_keep _ h
theorem RW30_keep (c : Dev nD) {r : Ref sig .tc} (h : r ∉ ops29_W) : RW30 m c (Proc.devRef .tc r) = RW29 m c (Proc.devRef .tc r) :=
  ops29_keep _ h
theorem RW31_keep (c : Dev nD) {r : Ref sig .tc} (h : r ∉ ops30_W) : RW31 m c (Proc.devRef .tc r) = RW30 m c (Proc.devRef .tc r) :=
  ops30_keep _ h
theorem RW32_keep (c : Dev nD) {r : Ref sig .tc} (h : r ∉ ops31_W) : RW32 m c (Proc.devRef .tc r) = RW31 m c (Proc.devRef .tc r) :=
  ops31_keep _ h
theorem RW33_keep (c : Dev nD) {r : Ref sig .tc} (h : r ∉ ops32_W) : RW33 m c (Proc.devRef .tc r) = RW32 m c (Proc.devRef .tc r) :=
  ops32_keep _ h
theorem RW34_keep (c : Dev nD) {r : Ref sig .tc} (h : r ∉ ops33_W) : RW34 m c (Proc.devRef .tc r) = RW33 m c (Proc.devRef .tc r) :=
  ops33_keep _ h
theorem RW35_keep (c : Dev nD) {r : Ref sig .tc} (h : r ∉ ops34_W) : RW35 m c (Proc.devRef .tc r) = RW34 m c (Proc.devRef .tc r) :=
  ops34_keep _ h
theorem RW36_keep (c : Dev nD) {r : Ref sig .tc} (h : r ∉ ops35_W) : RW36 m c (Proc.devRef .tc r) = RW35 m c (Proc.devRef .tc r) :=
  ops35_keep _ h
theorem RW37_keep (c : Dev nD) {r : Ref sig .tc} (h : r ∉ ops36_W) : RW37 m c (Proc.devRef .tc r) = RW36 m c (Proc.devRef .tc r) :=
  ops36_keep _ h
theorem RW38_keep (c : Dev nD) {r : Ref sig .tc} (h : r ∉ ops37_W) : RW38 m c (Proc.devRef .tc r) = RW37 m c (Proc.devRef .tc r) :=
  ops37_keep _ h
theorem RW39_keep (c : Dev nD) {r : Ref sig .tc} (h : r ∉ ops38_W) : RW39 m c (Proc.devRef .tc r) = RW38 m c (Proc.devRef .tc r) :=
  ops38_keep _ h
theorem RW40_keep (c : Dev nD) {r : Ref sig .tc} (h : r ∉ ops39_W) : RW40 m c (Proc.devRef .tc r) = RW39 m c (Proc.devRef .tc r) :=
  ops39_keep _ h
theorem RW41_keep (c : Dev nD) {r : Ref sig .tc} (h : r ∉ ops40_W) : RW41 m c (Proc.devRef .tc r) = RW40 m c (Proc.devRef .tc r) :=
  ops40_keep _ h
theorem RW42_keep (c : Dev nD) {r : Ref sig .tc} (h : r ∉ ops41_W) : RW42 m c (Proc.devRef .tc r) = RW41 m c (Proc.devRef .tc r) :=
  ops41_keep _ h
theorem RW43_keep (c : Dev nD) {r : Ref sig .tc} (h : r ∉ ops42_W) : RW43 m c (Proc.devRef .tc r) = RW42 m c (Proc.devRef .tc r) :=
  ops42_keep _ h
theorem RW44_keep (c : Dev nD) {r : Ref sig .tc} (h : r ∉ ops43_W) : RW44 m c (Proc.devRef .tc r) = RW43 m c (Proc.devRef .tc r) :=
  ops43_keep _ h
theorem RW45_keep (c : Dev nD) {r : Ref sig .tc} (h : r ∉ ops44_W) : RW45 m c (Proc.devRef .tc r) = RW44 m c (Proc.devRef .tc r) :=
  ops44_keep _ h
theorem RW46_keep (c : Dev nD) {r : Ref sig .tc} (h : r ∉ ops45_W) : RW46 m c (Proc.devRef .tc r) = RW45 m c (Proc.devRef .tc r) :=
  ops45_keep _ h
theorem RW47_keep (c : Dev nD) {r : Ref sig .tc} (h : r ∉ ops46_W) : RW47 m c (Proc.devRef .tc r) = RW46 m c (Proc.devRef .tc r) :=
  ops46_keep _ h
theorem RW48_keep (c : Dev nD) {r : Ref sig .tc} (h : r ∉ ops47_W) : RW48 m c (Proc.devRef .tc r) = RW47 m c (Proc.devRef .tc r) :=
  ops47_keep _ h
theorem RW49_keep (c : Dev nD) {r : Ref sig .tc} (h : r ∉ ops48_W) : RW49 m c (Proc.devRef .tc r) = RW48 m c (Proc.devRef .tc r) :=
  ops48_keep _ h
theorem RW50_keep (c : Dev nD) {r : Ref sig .tc} (h : r ∉ ops49_W) : RW50 m c (Proc.devRef .tc r) = RW49 m c (Proc.devRef .tc r) :=
  ops49_keep _ h
theorem RW51_keep (c : Dev nD) {r : Ref sig .tc} (h : r ∉ ops50_W) : RW51 m c (Proc.devRef .tc r) = RW50 m c (Proc.devRef .tc r) :=
  ops50_keep _ h
theorem RW52_keep (c : Dev nD) {r : Ref sig .tc} (h : r ∉ ops51_W) : RW52 m c (Proc.devRef .tc r) = RW51 m c (Proc.devRef .tc r) :=
  ops51_keep _ h
theorem RW53_keep (c : Dev nD) {r : Ref sig .tc} (h : r ∉ ops52_W) : RW53 m c (Proc.devRef .tc r) = RW52 m c (Proc.devRef .tc r) :=
  ops52_keep _ h
theorem RW54_keep (c : Dev nD) {r : Ref sig .tc} (h : r ∉ ops53_W) : RW54 m c (Proc.devRef .tc r) = RW53 m c (Proc.devRef .tc r) :=
  ops53_keep _ h
theorem RW55_keep (c : Dev nD) {r : Ref sig .tc} (h : r ∉ ops54_W) : RW55 m c (Proc.devRef .tc r) = RW54 m c (Proc.devRef .tc r) :=
  ops54_keep _ h
theorem RW56_keep (c : Dev nD) {r : Ref sig .tc} (h : r ∉ ops55_W) : RW56 m c (Proc.devRef .tc r) = RW55 m c (Proc.devRef .tc r) :=
  ops55_keep _ h

/-! ## The arguments -/

/-- The arguments of @main. -/
abbrev mainArgs : List (Ref sig .tc) := [main_arg0, main_arg1, main_arg2, main_arg3, main_arg4, main_arg5, main_arg6, main_arg7, main_arg8, main_arg9, main_arg10, main_arg11, main_arg12, main_arg13, main_arg14, main_arg15, main_arg16]
theorem RW0_arg (c : Dev nD) {r : Ref sig .tc} (hr : r ∈ mainArgs) : RW0 m c (Proc.devRef .tc r) = launchContents m c (Proc.devRef .tc r) := rfl
theorem RW1_arg (c : Dev nD) {r : Ref sig .tc} (hr : r ∈ mainArgs) : RW1 m c (Proc.devRef .tc r) = launchContents m c (Proc.devRef .tc r) :=
  (RW1_keep m c (ops0_args r hr)).trans (RW0_arg m c hr)
theorem RW2_arg (c : Dev nD) {r : Ref sig .tc} (hr : r ∈ mainArgs) : RW2 m c (Proc.devRef .tc r) = launchContents m c (Proc.devRef .tc r) :=
  (RW2_keep m c (ops1_args r hr)).trans (RW1_arg m c hr)
theorem RW3_arg (c : Dev nD) {r : Ref sig .tc} (hr : r ∈ mainArgs) : RW3 m c (Proc.devRef .tc r) = launchContents m c (Proc.devRef .tc r) :=
  (RW3_keep m c (ops2_args r hr)).trans (RW2_arg m c hr)
theorem RW4_arg (c : Dev nD) {r : Ref sig .tc} (hr : r ∈ mainArgs) : RW4 m c (Proc.devRef .tc r) = launchContents m c (Proc.devRef .tc r) :=
  (RW4_keep m c (ops3_args r hr)).trans (RW3_arg m c hr)
theorem RW5_arg (c : Dev nD) {r : Ref sig .tc} (hr : r ∈ mainArgs) : RW5 m c (Proc.devRef .tc r) = launchContents m c (Proc.devRef .tc r) :=
  (RW5_keep m c (ops4_args r hr)).trans (RW4_arg m c hr)
theorem RW6_arg (c : Dev nD) {r : Ref sig .tc} (hr : r ∈ mainArgs) : RW6 m c (Proc.devRef .tc r) = launchContents m c (Proc.devRef .tc r) :=
  (RW6_keep m c (ops5_args r hr)).trans (RW5_arg m c hr)
theorem RW7_arg (c : Dev nD) {r : Ref sig .tc} (hr : r ∈ mainArgs) : RW7 m c (Proc.devRef .tc r) = launchContents m c (Proc.devRef .tc r) :=
  (RW7_keep m c (ops6_args r hr)).trans (RW6_arg m c hr)
theorem RW8_arg (c : Dev nD) {r : Ref sig .tc} (hr : r ∈ mainArgs) : RW8 m c (Proc.devRef .tc r) = launchContents m c (Proc.devRef .tc r) :=
  (RW8_keep m c (ops7_args r hr)).trans (RW7_arg m c hr)
theorem RW9_arg (c : Dev nD) {r : Ref sig .tc} (hr : r ∈ mainArgs) : RW9 m c (Proc.devRef .tc r) = launchContents m c (Proc.devRef .tc r) :=
  (RW9_keep m c (ops8_args r hr)).trans (RW8_arg m c hr)
theorem RW10_arg (c : Dev nD) {r : Ref sig .tc} (hr : r ∈ mainArgs) : RW10 m c (Proc.devRef .tc r) = launchContents m c (Proc.devRef .tc r) :=
  (RW10_keep m c (ops9_args r hr)).trans (RW9_arg m c hr)
theorem RW11_arg (c : Dev nD) {r : Ref sig .tc} (hr : r ∈ mainArgs) : RW11 m c (Proc.devRef .tc r) = launchContents m c (Proc.devRef .tc r) :=
  (RW11_keep m c (ops10_args r hr)).trans (RW10_arg m c hr)
theorem RW12_arg (c : Dev nD) {r : Ref sig .tc} (hr : r ∈ mainArgs) : RW12 m c (Proc.devRef .tc r) = launchContents m c (Proc.devRef .tc r) :=
  (RW12_keep m c (ops11_args r hr)).trans (RW11_arg m c hr)
theorem RW13_arg (c : Dev nD) {r : Ref sig .tc} (hr : r ∈ mainArgs) : RW13 m c (Proc.devRef .tc r) = launchContents m c (Proc.devRef .tc r) :=
  (RW13_keep m c (ops12_args r hr)).trans (RW12_arg m c hr)
theorem RW14_arg (c : Dev nD) {r : Ref sig .tc} (hr : r ∈ mainArgs) : RW14 m c (Proc.devRef .tc r) = launchContents m c (Proc.devRef .tc r) :=
  (RW14_keep m c (ops13_args r hr)).trans (RW13_arg m c hr)
theorem RW15_arg (c : Dev nD) {r : Ref sig .tc} (hr : r ∈ mainArgs) : RW15 m c (Proc.devRef .tc r) = launchContents m c (Proc.devRef .tc r) :=
  (RW15_keep m c (ops14_args r hr)).trans (RW14_arg m c hr)
theorem RW16_arg (c : Dev nD) {r : Ref sig .tc} (hr : r ∈ mainArgs) : RW16 m c (Proc.devRef .tc r) = launchContents m c (Proc.devRef .tc r) :=
  (RW16_keep m c (ops15_args r hr)).trans (RW15_arg m c hr)
theorem RW17_arg (c : Dev nD) {r : Ref sig .tc} (hr : r ∈ mainArgs) : RW17 m c (Proc.devRef .tc r) = launchContents m c (Proc.devRef .tc r) :=
  (RW17_keep m c (ops16_args r hr)).trans (RW16_arg m c hr)
theorem RW18_arg (c : Dev nD) {r : Ref sig .tc} (hr : r ∈ mainArgs) : RW18 m c (Proc.devRef .tc r) = launchContents m c (Proc.devRef .tc r) :=
  (RW18_keep m c (ops17_args r hr)).trans (RW17_arg m c hr)
theorem RW19_arg (c : Dev nD) {r : Ref sig .tc} (hr : r ∈ mainArgs) : RW19 m c (Proc.devRef .tc r) = launchContents m c (Proc.devRef .tc r) :=
  (RW19_keep m c (ops18_args r hr)).trans (RW18_arg m c hr)
theorem RW20_arg (c : Dev nD) {r : Ref sig .tc} (hr : r ∈ mainArgs) : RW20 m c (Proc.devRef .tc r) = launchContents m c (Proc.devRef .tc r) :=
  (RW20_keep m c (ops19_args r hr)).trans (RW19_arg m c hr)
theorem RW21_arg (c : Dev nD) {r : Ref sig .tc} (hr : r ∈ mainArgs) : RW21 m c (Proc.devRef .tc r) = launchContents m c (Proc.devRef .tc r) :=
  (RW21_keep m c (ops20_args r hr)).trans (RW20_arg m c hr)
theorem RW22_arg (c : Dev nD) {r : Ref sig .tc} (hr : r ∈ mainArgs) : RW22 m c (Proc.devRef .tc r) = launchContents m c (Proc.devRef .tc r) :=
  (RW22_keep m c (ops21_args r hr)).trans (RW21_arg m c hr)
theorem RW23_arg (c : Dev nD) {r : Ref sig .tc} (hr : r ∈ mainArgs) : RW23 m c (Proc.devRef .tc r) = launchContents m c (Proc.devRef .tc r) :=
  (RW23_keep m c (ops22_args r hr)).trans (RW22_arg m c hr)
theorem RW24_arg (c : Dev nD) {r : Ref sig .tc} (hr : r ∈ mainArgs) : RW24 m c (Proc.devRef .tc r) = launchContents m c (Proc.devRef .tc r) :=
  (RW24_keep m c (ops23_args r hr)).trans (RW23_arg m c hr)
theorem RW25_arg (c : Dev nD) {r : Ref sig .tc} (hr : r ∈ mainArgs) : RW25 m c (Proc.devRef .tc r) = launchContents m c (Proc.devRef .tc r) :=
  (RW25_keep m c (ops24_args r hr)).trans (RW24_arg m c hr)
theorem RW26_arg (c : Dev nD) {r : Ref sig .tc} (hr : r ∈ mainArgs) : RW26 m c (Proc.devRef .tc r) = launchContents m c (Proc.devRef .tc r) :=
  (RW26_keep m c (ops25_args r hr)).trans (RW25_arg m c hr)
theorem RW27_arg (c : Dev nD) {r : Ref sig .tc} (hr : r ∈ mainArgs) : RW27 m c (Proc.devRef .tc r) = launchContents m c (Proc.devRef .tc r) :=
  (RW27_keep m c (ops26_args r hr)).trans (RW26_arg m c hr)
theorem RW28_arg (c : Dev nD) {r : Ref sig .tc} (hr : r ∈ mainArgs) : RW28 m c (Proc.devRef .tc r) = launchContents m c (Proc.devRef .tc r) :=
  (RW28_keep m c (ops27_args r hr)).trans (RW27_arg m c hr)
theorem RW29_arg (c : Dev nD) {r : Ref sig .tc} (hr : r ∈ mainArgs) : RW29 m c (Proc.devRef .tc r) = launchContents m c (Proc.devRef .tc r) :=
  (RW29_keep m c (ops28_args r hr)).trans (RW28_arg m c hr)
theorem RW30_arg (c : Dev nD) {r : Ref sig .tc} (hr : r ∈ mainArgs) : RW30 m c (Proc.devRef .tc r) = launchContents m c (Proc.devRef .tc r) :=
  (RW30_keep m c (ops29_args r hr)).trans (RW29_arg m c hr)
theorem RW31_arg (c : Dev nD) {r : Ref sig .tc} (hr : r ∈ mainArgs) : RW31 m c (Proc.devRef .tc r) = launchContents m c (Proc.devRef .tc r) :=
  (RW31_keep m c (ops30_args r hr)).trans (RW30_arg m c hr)
theorem RW32_arg (c : Dev nD) {r : Ref sig .tc} (hr : r ∈ mainArgs) : RW32 m c (Proc.devRef .tc r) = launchContents m c (Proc.devRef .tc r) :=
  (RW32_keep m c (ops31_args r hr)).trans (RW31_arg m c hr)
theorem RW33_arg (c : Dev nD) {r : Ref sig .tc} (hr : r ∈ mainArgs) : RW33 m c (Proc.devRef .tc r) = launchContents m c (Proc.devRef .tc r) :=
  (RW33_keep m c (ops32_args r hr)).trans (RW32_arg m c hr)
theorem RW34_arg (c : Dev nD) {r : Ref sig .tc} (hr : r ∈ mainArgs) : RW34 m c (Proc.devRef .tc r) = launchContents m c (Proc.devRef .tc r) :=
  (RW34_keep m c (ops33_args r hr)).trans (RW33_arg m c hr)
theorem RW35_arg (c : Dev nD) {r : Ref sig .tc} (hr : r ∈ mainArgs) : RW35 m c (Proc.devRef .tc r) = launchContents m c (Proc.devRef .tc r) :=
  (RW35_keep m c (ops34_args r hr)).trans (RW34_arg m c hr)
theorem RW36_arg (c : Dev nD) {r : Ref sig .tc} (hr : r ∈ mainArgs) : RW36 m c (Proc.devRef .tc r) = launchContents m c (Proc.devRef .tc r) :=
  (RW36_keep m c (ops35_args r hr)).trans (RW35_arg m c hr)
theorem RW37_arg (c : Dev nD) {r : Ref sig .tc} (hr : r ∈ mainArgs) : RW37 m c (Proc.devRef .tc r) = launchContents m c (Proc.devRef .tc r) :=
  (RW37_keep m c (ops36_args r hr)).trans (RW36_arg m c hr)
theorem RW38_arg (c : Dev nD) {r : Ref sig .tc} (hr : r ∈ mainArgs) : RW38 m c (Proc.devRef .tc r) = launchContents m c (Proc.devRef .tc r) :=
  (RW38_keep m c (ops37_args r hr)).trans (RW37_arg m c hr)
theorem RW39_arg (c : Dev nD) {r : Ref sig .tc} (hr : r ∈ mainArgs) : RW39 m c (Proc.devRef .tc r) = launchContents m c (Proc.devRef .tc r) :=
  (RW39_keep m c (ops38_args r hr)).trans (RW38_arg m c hr)
theorem RW40_arg (c : Dev nD) {r : Ref sig .tc} (hr : r ∈ mainArgs) : RW40 m c (Proc.devRef .tc r) = launchContents m c (Proc.devRef .tc r) :=
  (RW40_keep m c (ops39_args r hr)).trans (RW39_arg m c hr)
theorem RW41_arg (c : Dev nD) {r : Ref sig .tc} (hr : r ∈ mainArgs) : RW41 m c (Proc.devRef .tc r) = launchContents m c (Proc.devRef .tc r) :=
  (RW41_keep m c (ops40_args r hr)).trans (RW40_arg m c hr)
theorem RW42_arg (c : Dev nD) {r : Ref sig .tc} (hr : r ∈ mainArgs) : RW42 m c (Proc.devRef .tc r) = launchContents m c (Proc.devRef .tc r) :=
  (RW42_keep m c (ops41_args r hr)).trans (RW41_arg m c hr)
theorem RW43_arg (c : Dev nD) {r : Ref sig .tc} (hr : r ∈ mainArgs) : RW43 m c (Proc.devRef .tc r) = launchContents m c (Proc.devRef .tc r) :=
  (RW43_keep m c (ops42_args r hr)).trans (RW42_arg m c hr)
theorem RW44_arg (c : Dev nD) {r : Ref sig .tc} (hr : r ∈ mainArgs) : RW44 m c (Proc.devRef .tc r) = launchContents m c (Proc.devRef .tc r) :=
  (RW44_keep m c (ops43_args r hr)).trans (RW43_arg m c hr)
theorem RW45_arg (c : Dev nD) {r : Ref sig .tc} (hr : r ∈ mainArgs) : RW45 m c (Proc.devRef .tc r) = launchContents m c (Proc.devRef .tc r) :=
  (RW45_keep m c (ops44_args r hr)).trans (RW44_arg m c hr)
theorem RW46_arg (c : Dev nD) {r : Ref sig .tc} (hr : r ∈ mainArgs) : RW46 m c (Proc.devRef .tc r) = launchContents m c (Proc.devRef .tc r) :=
  (RW46_keep m c (ops45_args r hr)).trans (RW45_arg m c hr)
theorem RW47_arg (c : Dev nD) {r : Ref sig .tc} (hr : r ∈ mainArgs) : RW47 m c (Proc.devRef .tc r) = launchContents m c (Proc.devRef .tc r) :=
  (RW47_keep m c (ops46_args r hr)).trans (RW46_arg m c hr)
theorem RW48_arg (c : Dev nD) {r : Ref sig .tc} (hr : r ∈ mainArgs) : RW48 m c (Proc.devRef .tc r) = launchContents m c (Proc.devRef .tc r) :=
  (RW48_keep m c (ops47_args r hr)).trans (RW47_arg m c hr)
theorem RW49_arg (c : Dev nD) {r : Ref sig .tc} (hr : r ∈ mainArgs) : RW49 m c (Proc.devRef .tc r) = launchContents m c (Proc.devRef .tc r) :=
  (RW49_keep m c (ops48_args r hr)).trans (RW48_arg m c hr)
theorem RW50_arg (c : Dev nD) {r : Ref sig .tc} (hr : r ∈ mainArgs) : RW50 m c (Proc.devRef .tc r) = launchContents m c (Proc.devRef .tc r) :=
  (RW50_keep m c (ops49_args r hr)).trans (RW49_arg m c hr)
theorem RW51_arg (c : Dev nD) {r : Ref sig .tc} (hr : r ∈ mainArgs) : RW51 m c (Proc.devRef .tc r) = launchContents m c (Proc.devRef .tc r) :=
  (RW51_keep m c (ops50_args r hr)).trans (RW50_arg m c hr)
theorem RW52_arg (c : Dev nD) {r : Ref sig .tc} (hr : r ∈ mainArgs) : RW52 m c (Proc.devRef .tc r) = launchContents m c (Proc.devRef .tc r) :=
  (RW52_keep m c (ops51_args r hr)).trans (RW51_arg m c hr)
theorem RW53_arg (c : Dev nD) {r : Ref sig .tc} (hr : r ∈ mainArgs) : RW53 m c (Proc.devRef .tc r) = launchContents m c (Proc.devRef .tc r) :=
  (RW53_keep m c (ops52_args r hr)).trans (RW52_arg m c hr)
theorem RW54_arg (c : Dev nD) {r : Ref sig .tc} (hr : r ∈ mainArgs) : RW54 m c (Proc.devRef .tc r) = launchContents m c (Proc.devRef .tc r) :=
  (RW54_keep m c (ops53_args r hr)).trans (RW53_arg m c hr)
theorem RW55_arg (c : Dev nD) {r : Ref sig .tc} (hr : r ∈ mainArgs) : RW55 m c (Proc.devRef .tc r) = launchContents m c (Proc.devRef .tc r) :=
  (RW55_keep m c (ops54_args r hr)).trans (RW54_arg m c hr)
theorem RW56_arg (c : Dev nD) {r : Ref sig .tc} (hr : r ∈ mainArgs) : RW56 m c (Proc.devRef .tc r) = launchContents m c (Proc.devRef .tc r) :=
  (RW56_keep m c (ops55_args r hr)).trans (RW55_arg m c hr)

theorem RW56_main_arg0 (c : Dev nD) : RW56 m c (Proc.devRef .tc main_arg0) = m ((c.tc : Thread nD τ).loc main_arg0) :=
  RW56_arg m c (by decide)
theorem RW56_main_arg1 (c : Dev nD) : RW56 m c (Proc.devRef .tc main_arg1) = m ((c.tc : Thread nD τ).loc main_arg1) :=
  RW56_arg m c (by decide)
theorem RW56_main_arg2 (c : Dev nD) : RW56 m c (Proc.devRef .tc main_arg2) = m ((c.tc : Thread nD τ).loc main_arg2) :=
  RW56_arg m c (by decide)
theorem RW56_main_arg3 (c : Dev nD) : RW56 m c (Proc.devRef .tc main_arg3) = m ((c.tc : Thread nD τ).loc main_arg3) :=
  RW56_arg m c (by decide)
theorem RW56_main_arg4 (c : Dev nD) : RW56 m c (Proc.devRef .tc main_arg4) = m ((c.tc : Thread nD τ).loc main_arg4) :=
  RW56_arg m c (by decide)
theorem RW56_main_arg5 (c : Dev nD) : RW56 m c (Proc.devRef .tc main_arg5) = m ((c.tc : Thread nD τ).loc main_arg5) :=
  RW56_arg m c (by decide)
theorem RW56_main_arg6 (c : Dev nD) : RW56 m c (Proc.devRef .tc main_arg6) = m ((c.tc : Thread nD τ).loc main_arg6) :=
  RW56_arg m c (by decide)
theorem RW56_main_arg7 (c : Dev nD) : RW56 m c (Proc.devRef .tc main_arg7) = m ((c.tc : Thread nD τ).loc main_arg7) :=
  RW56_arg m c (by decide)
theorem RW56_main_arg8 (c : Dev nD) : RW56 m c (Proc.devRef .tc main_arg8) = m ((c.tc : Thread nD τ).loc main_arg8) :=
  RW56_arg m c (by decide)
theorem RW56_main_arg9 (c : Dev nD) : RW56 m c (Proc.devRef .tc main_arg9) = m ((c.tc : Thread nD τ).loc main_arg9) :=
  RW56_arg m c (by decide)
theorem RW56_main_arg10 (c : Dev nD) : RW56 m c (Proc.devRef .tc main_arg10) = m ((c.tc : Thread nD τ).loc main_arg10) :=
  RW56_arg m c (by decide)
theorem RW56_main_arg11 (c : Dev nD) : RW56 m c (Proc.devRef .tc main_arg11) = m ((c.tc : Thread nD τ).loc main_arg11) :=
  RW56_arg m c (by decide)
theorem RW56_main_arg12 (c : Dev nD) : RW56 m c (Proc.devRef .tc main_arg12) = m ((c.tc : Thread nD τ).loc main_arg12) :=
  RW56_arg m c (by decide)
theorem RW56_main_arg13 (c : Dev nD) : RW56 m c (Proc.devRef .tc main_arg13) = m ((c.tc : Thread nD τ).loc main_arg13) :=
  RW56_arg m c (by decide)
theorem RW56_main_arg14 (c : Dev nD) : RW56 m c (Proc.devRef .tc main_arg14) = m ((c.tc : Thread nD τ).loc main_arg14) :=
  RW56_arg m c (by decide)
theorem RW56_main_arg15 (c : Dev nD) : RW56 m c (Proc.devRef .tc main_arg15) = m ((c.tc : Thread nD τ).loc main_arg15) :=
  RW56_arg m c (by decide)
theorem RW56_main_arg16 (c : Dev nD) : RW56 m c (Proc.devRef .tc main_arg16) = m ((c.tc : Thread nD τ).loc main_arg16) :=
  RW56_arg m c (by decide)

/-- On every device, from any memory with zero counters: every weakly fair execution of @main terminates with every argument
    as launched. -/
theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_arg0).trans (RW56_main_arg0 m c),
      (h c main_arg1).trans (RW56_main_arg1 m c),
      (h c main_arg2).trans (RW56_main_arg2 m c),
      (h c main_arg3).trans (RW56_main_arg3 m c),
      (h c main_arg4).trans (RW56_main_arg4 m c),
      (h c main_arg5).trans (RW56_main_arg5 m c),
      (h c main_arg6).trans (RW56_main_arg6 m c),
      (h c main_arg7).trans (RW56_main_arg7 m c),
      (h c main_arg8).trans (RW56_main_arg8 m c),
      (h c main_arg9).trans (RW56_main_arg9 m c),
      (h c main_arg10).trans (RW56_main_arg10 m c),
      (h c main_arg11).trans (RW56_main_arg11 m c),
      (h c main_arg12).trans (RW56_main_arg12 m c),
      (h c main_arg13).trans (RW56_main_arg13 m c),
      (h c main_arg14).trans (RW56_main_arg14 m c),
      (h c main_arg15).trans (RW56_main_arg15 m c),
      (h c main_arg16).trans (RW56_main_arg16 m c)⟩)
    (run_fold m ρ)

/-- On every device, from any memory with zero counters: every weakly fair execution of @main terminates with the result at the
    last level of the fold and every argument as launched. -/
theorem run_val (ρ : Dev nD → PrngReg) :
    θ_run (defs (F := F)) (onTc (τ := τ) (main (F := F))) ⟨m, fun _ => 0, ρ⟩ (fun r => ∀ c : Dev nD,
      r.2.mem ((c.tc : Thread nD τ).loc main_v543) = RW56 m c (Proc.devRef .tc main_v543)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨h c main_v543,
      (h c main_arg0).trans (RW56_main_arg0 m c),
      (h c main_arg1).trans (RW56_main_arg1 m c),
      (h c main_arg2).trans (RW56_main_arg2 m c),
      (h c main_arg3).trans (RW56_main_arg3 m c),
      (h c main_arg4).trans (RW56_main_arg4 m c),
      (h c main_arg5).trans (RW56_main_arg5 m c),
      (h c main_arg6).trans (RW56_main_arg6 m c),
      (h c main_arg7).trans (RW56_main_arg7 m c),
      (h c main_arg8).trans (RW56_main_arg8 m c),
      (h c main_arg9).trans (RW56_main_arg9 m c),
      (h c main_arg10).trans (RW56_main_arg10 m c),
      (h c main_arg11).trans (RW56_main_arg11 m c),
      (h c main_arg12).trans (RW56_main_arg12 m c),
      (h c main_arg13).trans (RW56_main_arg13 m c),
      (h c main_arg14).trans (RW56_main_arg14 m c),
      (h c main_arg15).trans (RW56_main_arg15 m c),
      (h c main_arg16).trans (RW56_main_arg16 m c)⟩)
    (run_fold m ρ)

end Cert.ReferenceIdeal.RunFold

end
-- ==== Proof.Val.PreIdx.lean ====
import proofs.«426760_j80470507258346_3_alg».proof.Defs
import Idealize.ShloMosaic.Lib.ReduceAll

noncomputable section

namespace Cert.PreIdx

open Idealize.ShloMosaic

/-- Every word of an index array lies in [0, 100000), read signed. -/
abbrev InRange {s : Shape} (a : IVec s 32) : Prop := ∀ i, 0 ≤ (a i).toInt ∧ (a i).toInt < 100000

/-- A word that compares ≥ 0 and < 100000, signed, lies in [0, 100000). -/
theorem word_range (w : BitVec 32) (h0 : IntOp.cmpi .sge w 0#32 = 1#1) (h1 : IntOp.cmpi .slt w 100000#32 = 1#1) :
    0 ≤ w.toInt ∧ w.toInt < 100000 := by
  have h0' : BitVec.ofBool ((0#32 : BitVec 32).sle w) = 1#1 := h0
  have h1' : BitVec.ofBool (w.slt 100000#32) = 1#1 := h1
  have e0 : (0#32 : BitVec 32).toInt = 0 := by decide
  have e1 : (100000#32 : BitVec 32).toInt = 100000 := by decide
  cases hb0 : (0#32 : BitVec 32).sle w
  · rw [hb0] at h0'; exact absurd h0' (by decide)
  cases hb1 : w.slt 100000#32
  · rw [hb1] at h1'; exact absurd h1' (by decide)
  simp only [BitVec.sle, BitVec.slt, decide_eq_true_eq, e0, e1] at hb0 hb1
  exact ⟨hb0, hb1⟩

/-! ## Words in range: the comparisons the take's mask makes -/

theorem cmpi_slt_zero_of_nonneg (w : BitVec 32) (h : 0 ≤ w.toInt) : IntOp.cmpi .slt w 0#32 = 0#1 := by
  show BitVec.ofBool (w.slt 0#32) = 0#1
  have e0 : (0#32 : BitVec 32).toInt = 0 := by decide
  have : w.slt 0#32 = false := by simp only [BitVec.slt, e0, decide_eq_false_iff_not]; omega
  rw [this]; rfl

theorem cmpi_sge_zero_of_nonneg (w : BitVec 32) (h : 0 ≤ w.toInt) : IntOp.cmpi .sge w 0#32 = 1#1 := by
  show BitVec.ofBool ((0#32 : BitVec 32).sle w) = 1#1
  have e0 : (0#32 : BitVec 32).toInt = 0 := by decide
  have : (0#32 : BitVec 32).sle w = true := by simp only [BitVec.sle, e0, decide_eq_true_eq]; exact h
  rw [this]; rfl

theorem cmpi_sle_last_of_lt (w : BitVec 32) (h : w.toInt < 100000) : IntOp.cmpi .sle w 99999#32 = 1#1 := by
  show BitVec.ofBool (w.sle 99999#32) = 1#1
  have e1 : (99999#32 : BitVec 32).toInt = 99999 := by decide
  have : w.sle 99999#32 = true := by simp only [BitVec.sle, e1, decide_eq_true_eq]; omega
  rw [this]; rfl

/-- A left fold by `and` from 1 over 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduce by `and` from the constant 1 of an all-ones mask is all ones. -/
theorem reduce_andi_of_all {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x _ (fun n _ => hx n)

section Pre
open Cert.Pre_finite_inputs
variable [Cert.Pre_finite_inputs.Facts] {F : FTy → Type} [FloatOps F]

/-- The rank-zero shape has one index. -/
instance : Subsingleton S_.Idx := ⟨fun a b => funext fun d => d.elim0⟩

/-- The last two conjuncts of the precondition, decoded: both index arrays in range. -/
theorem part4_range (a1 a2 : IVec S2x1100000 32) (a16 : FVec F S2x3x8 .f32) (v63 v67 : IVec S_ 1) (j : S_.Idx)
    (e : fn_part4 (F := F) a1 a2 a16 v63 v67 j = 1#1) : InRange a1 ∧ InRange a2 := by
  obtain ⟨h80, h86⟩ := IntOp.andi_eq_one.1 e
  obtain ⟨-, h79⟩ := IntOp.andi_eq_one.1 h80
  refine ⟨fun i => ?_, fun i => ?_⟩
  · obtain ⟨c0, c1⟩ := IntOp.andi_eq_one.1 (Host.reduce_andi_all _ _ _ _ j h79 i)
    exact word_range _ c0 c1
  · obtain ⟨c0, c1⟩ := IntOp.andi_eq_one.1 (Host.reduce_andi_all _ _ _ _ j h86 i)
    exact word_range _ c0 c1

/-- THE PRECONDITION DECODED at the index arrays: where the printed predicate of the seventeen argument arrays is all
    ones, every word of the two [2, 1100000] index arrays lies in [0, 100000). -/
theorem idx_range {a0 : FVec F S100000x8 .f32} {a1 a2 : IVec S2x1100000 32} {a3 a4 : FVec F S1100000x1 .f32}
    {a5 : FVec F S2x3x26x32 .f32} {a6 : FVec F S2x3x32 .f32} {a7 : FVec F S2x3x32x1 .f32} {a8 : FVec F S2x3x1 .f32}
    {a9 : FVec F S2x3x17x32 .f32} {a10 : FVec F S2x3x32 .f32} {a11 : FVec F S2x3x32x8 .f32} {a12 : FVec F S2x3x8 .f32}
    {a13 : FVec F S2x3x17x32 .f32} {a14 : FVec F S2x3x32 .f32} {a15 : FVec F S2x3x32x8 .f32} {a16 : FVec F S2x3x8 .f32}
    (h : fn (F := F) a0 a1 a2 a3 a4 a5 a6 a7 a8 a9 a10 a11 a12 a13 a14 a15 a16 = fun _ => 1#1) :
    InRange a1 ∧ InRange a2 := by
  have e := congrFun h (Shape.Idx.first Facts.h_S_)
  have e4 : fn_part4 (F := F) a1 a2 a16 _ _ (Shape.Idx.first Facts.h_S_) = 1#1 := e
  exact part4_range a1 a2 a16 _ _ _ e4

end Pre

section Take
open Cert.KernelIdeal Cert.KernelIdeal.Facts₀ Cert.KernelIdeal.Facts
variable [Cert.KernelIdeal.Facts] {F : FTy → Type} [FloatOps F]

/-- An index array normalised as a negative index is: idx + 100000 where idx < 0, else idx. -/
abbrev normIdx (idx : IVec S1100000 32) : IVec S1100000 32 :=
  select (cmpi .slt idx (broadcastInDim S1100000 ![] bcast_S_S1100000 (constantI S_ 32 0#32)))
    (addi idx (broadcastInDim S1100000 ![] bcast_S_S1100000 (constantI S_ 32 100000#32))) idx

/-- The row gather with fill: the result %16 of @_take (and of @_take_3, the same text) as a function of its two
    arguments, one `let` per operation of its body. -/
abbrev takeTerm (x : FVec F S100000x8 .f32) (idx : IVec S1100000 32) : FVec F S1100000x8 .f32 :=
  let c : IVec S_ 32 := constantI S_ 32 0#32
  let v0 : IVec S1100000 32 := broadcastInDim S1100000 ![] bcast_S_S1100000 c
  let v1 : IVec S1100000 1 := cmpi .slt idx v0
  let c_0 : IVec S_ 32 := constantI S_ 32 100000#32
  let v2 : IVec S1100000 32 := broadcastInDim S1100000 ![] bcast_S_S1100000 c_0
  let v3 : IVec S1100000 32 := addi idx v2
  let v4 : IVec S1100000 32 := select v1 v3 idx
  let v5 : IVec S1100000x1 32 := broadcastInDim S1100000x1 ![0] bcast_S1100000_S1100000x1_0 v4
  let c_1 : IVec S1 32 := constantI S1 32 99999#32
  let c_2 : IVec S_ 32 := constantI S_ 32 0#32
  let v6 : IVec S1100000x1 32 := broadcastInDim S1100000x1 ![] bcast_S_S1100000x1 c_2
  let v7 : IVec S1100000x1 1 := cmpi .sge v5 v6
  let v8 : IVec S1x1 32 := broadcastInDim S1x1 ![1] bcast_S1_S1x1_1 c_1
  let v9 : IVec S1100000x1 32 := broadcastInDim S1100000x1 ![0, 1] bcast_S1x1_S1100000x1_0_1 v8
  let v10 : IVec S1100000x1 1 := cmpi .sle v5 v9
  let v11 : IVec S1100000x1 1 := andi v7 v10
  let c_3 : IVec S_ 1 := constantI S_ 1 1#1
  let v12 : IVec S1100000 1 := Host.reduce IntOp.andi v11 c_3 reducesTo_S1100000x1_S1100000_d1 h_S_
  let v13 : FVec F S1100000x8 .f32 := Host.gather gather_S100000x8_S1100000x1_S1100000x8_1_0_n_n_0_1_18 x v5
  let v14 : IVec S1100000x8 1 := broadcastInDim S1100000x8 ![0] bcast_S1100000_S1100000x8_0 v12
  let cst : FVec F S_ .f32 := constant S_ .f32 0x7FC00000#32
  let v15 : FVec F S1100000x8 .f32 := broadcastInDim S1100000x8 ![] bcast_S_S1100000x8 cst
  select v14 v13 v15

/-- In range, normalising changes nothing. -/
theorem normIdx_eq (idx : IVec S1100000 32) (hr : InRange idx) : normIdx idx = idx := by
  funext k
  show Scalar.select (IntOp.cmpi .slt (idx k) 0#32) (IntOp.addi (idx k) 100000#32) (idx k) = idx k
  rw [cmpi_slt_zero_of_nonneg _ (hr k).1]; rfl

/-- THE TAKE IS THE GATHER where every index is in range: the fill mask is all ones, so the select returns the
    gathered rows, read at the normalised indices. -/
theorem take_eq_gather (x : FVec F S100000x8 .f32) (idx : IVec S1100000 32) (hr : InRange idx) :
    takeTerm x idx
      = Host.gather gather_S100000x8_S1100000x1_S1100000x8_1_0_n_n_0_1_18 x (broadcastInDim S1100000x1 ![0] bcast_S1100000_S1100000x1_0 (normIdx idx)) := by
  have hv11 : ∀ i : S1100000x1.Idx,
      andi (cmpi .sge (broadcastInDim S1100000x1 ![0] bcast_S1100000_S1100000x1_0 (normIdx idx))
              (broadcastInDim S1100000x1 ![] bcast_S_S1100000x1 (constantI S_ 32 0#32)))
           (cmpi .sle (broadcastInDim S1100000x1 ![0] bcast_S1100000_S1100000x1_0 (normIdx idx))
              (broadcastInDim S1100000x1 ![0, 1] bcast_S1x1_S1100000x1_0_1
                (broadcastInDim S1x1 ![1] bcast_S1_S1x1_1 (constantI S1 32 99999#32)))) i = 1#1 := by
    intro i
    rw [normIdx_eq idx hr]
    show IntOp.andi (IntOp.cmpi .sge (idx _) 0#32) (IntOp.cmpi .sle (idx _) 99999#32) = 1#1
    rw [cmpi_sge_zero_of_nonneg _ (hr _).1, cmpi_sle_last_of_lt _ (hr _).2]; rfl
  funext j
  show Scalar.select (Host.reduce IntOp.andi _ (constantI S_ 1 1#1) reducesTo_S1100000x1_S1100000_d1 h_S_ _) _ _ = _
  rw [reduce_andi_of_all _ _ _ hv11]
  rfl

/-- The same with the take's term written out, every value of the body in place. -/
theorem take_eq_gather_inlined (x : FVec F S100000x8 .f32) (idx : IVec S1100000 32) (hr : InRange idx) :
    select
      (broadcastInDim S1100000x8 ![0] bcast_S1100000_S1100000x8_0
        (Host.reduce IntOp.andi
          (andi
            (cmpi .sge (broadcastInDim S1100000x1 ![0] bcast_S1100000_S1100000x1_0 (normIdx idx))
              (broadcastInDim S1100000x1 ![] bcast_S_S1100000x1 (constantI S_ 32 0#32)))
            (cmpi .sle (broadcastInDim S1100000x1 ![0] bcast_S1100000_S1100000x1_0 (normIdx idx))
              (broadcastInDim S1100000x1 ![0, 1] bcast_S1x1_S1100000x1_0_1
                (broadcastInDim S1x1 ![1] bcast_S1_S1x1_1 (constantI S1 32 99999#32)))))
          (constantI S_ 1 1#1) reducesTo_S1100000x1_S1100000_d1 h_S_))
      (Host.gather gather_S100000x8_S1100000x1_S1100000x8_1_0_n_n_0_1_18 x (broadcastInDim S1100000x1 ![0] bcast_S1100000_S1100000x1_0 (normIdx idx)))
      (broadcastInDim S1100000x8 ![] bcast_S_S1100000x8 (constant (F := F) S_ .f32 0x7FC00000#32))
      = Host.gather gather_S100000x8_S1100000x1_S1100000x8_1_0_n_n_0_1_18 x (broadcastInDim S1100000x1 ![0] bcast_S1100000_S1100000x1_0 (normIdx idx)) :=
  take_eq_gather x idx hr

end Take

section Rows
open Cert.KernelIdeal Cert.KernelIdeal.Facts₀ Cert.KernelIdeal.Facts
variable [Cert.KernelIdeal.Facts] {F : FTy → Type} [FloatOps F]

/-- Row 0 of a [2, 1100000] index array as a [1100000] vector: the slice [0:1, :] reshaped. -/
abbrev row0 (a : IVec S2x1100000 32) : IVec S1100000 32 :=
  shapeCast S1100000 (extractStridedSlice S1x1100000 ![0, 0] a slices_S2x1100000_S1x1100000_0_0) shapeCasts_S1x1100000_S1100000

/-- Row 1: the slice [1:2, :] reshaped. -/
abbrev row1 (a : IVec S2x1100000 32) : IVec S1100000 32 :=
  shapeCast S1100000 (extractStridedSlice S1x1100000 ![1, 0] a slices_S2x1100000_S1x1100000_1_0) shapeCasts_S1x1100000_S1100000

/-- A row of an array in range is in range: each of its words is a word of the array. -/
theorem row0_range (a : IVec S2x1100000 32) (h : InRange a) : InRange (row0 a) := fun i => h _
theorem row1_range (a : IVec S2x1100000 32) (h : InRange a) : InRange (row1 a) := fun i => h _

/-- Under the precondition the four index rows are in range. -/
theorem rows_range [Cert.Pre_finite_inputs.Facts] {a0 : FVec F S100000x8 .f32} {a1 a2 : IVec S2x1100000 32}
    {a3 a4 : FVec F S1100000x1 .f32} {a5 : FVec F S2x3x26x32 .f32} {a6 : FVec F S2x3x32 .f32} {a7 : FVec F S2x3x32x1 .f32}
    {a8 : FVec F S2x3x1 .f32} {a9 : FVec F S2x3x17x32 .f32} {a10 : FVec F S2x3x32 .f32} {a11 : FVec F S2x3x32x8 .f32}
    {a12 : FVec F S2x3x8 .f32} {a13 : FVec F S2x3x17x32 .f32} {a14 : FVec F S2x3x32 .f32} {a15 : FVec F S2x3x32x8 .f32}
    {a16 : FVec F S2x3x8 .f32}
    (h : Cert.Pre_finite_inputs.fn (F := F) a0 a1 a2 a3 a4 a5 a6 a7 a8 a9 a10 a11 a12 a13 a14 a15 a16 = fun _ => 1#1) :
    InRange (row0 a1) ∧ InRange (row1 a1) ∧ InRange (row0 a2) ∧ InRange (row1 a2) :=
  have hr := idx_range h
  ⟨row0_range a1 hr.1, row1_range a1 hr.1, row0_range a2 hr.2, row1_range a2 hr.2⟩

/-- Under the precondition, the take of any table at each of the four index rows is the gather at the normalised row. -/
theorem take_rows_eq_gather [Cert.Pre_finite_inputs.Facts] {a0 : FVec F S100000x8 .f32} {a1 a2 : IVec S2x1100000 32}
    {a3 a4 : FVec F S1100000x1 .f32} {a5 : FVec F S2x3x26x32 .f32} {a6 : FVec F S2x3x32 .f32} {a7 : FVec F S2x3x32x1 .f32}
    {a8 : FVec F S2x3x1 .f32} {a9 : FVec F S2x3x17x32 .f32} {a10 : FVec F S2x3x32 .f32} {a11 : FVec F S2x3x32x8 .f32}
    {a12 : FVec F S2x3x8 .f32} {a13 : FVec F S2x3x17x32 .f32} {a14 : FVec F S2x3x32 .f32} {a15 : FVec F S2x3x32x8 .f32}
    {a16 : FVec F S2x3x8 .f32}
    (h : Cert.Pre_finite_inputs.fn (F := F) a0 a1 a2 a3 a4 a5 a6 a7 a8 a9 a10 a11 a12 a13 a14 a15 a16 = fun _ => 1#1)
    (x : FVec F S100000x8 .f32) :
    takeTerm x (row0 a1) = Host.gather gather_S100000x8_S1100000x1_S1100000x8_1_0_n_n_0_1_18 x (broadcastInDim S1100000x1 ![0] bcast_S1100000_S1100000x1_0 (normIdx (row0 a1)))
    ∧ takeTerm x (row1 a1) = Host.gather gather_S100000x8_S1100000x1_S1100000x8_1_0_n_n_0_1_18 x (broadcastInDim S1100000x1 ![0] bcast_S1100000_S1100000x1_0 (normIdx (row1 a1)))
    ∧ takeTerm x (row0 a2) = Host.gather gather_S100000x8_S1100000x1_S1100000x8_1_0_n_n_0_1_18 x (broadcastInDim S1100000x1 ![0] bcast_S1100000_S1100000x1_0 (normIdx (row0 a2)))
    ∧ takeTerm x (row1 a2) = Host.gather gather_S100000x8_S1100000x1_S1100000x8_1_0_n_n_0_1_18 x (broadcastInDim S1100000x1 ![0] bcast_S1100000_S1100000x1_0 (normIdx (row1 a2))) :=
  have hr := rows_range h
  ⟨take_eq_gather x _ hr.1, take_eq_gather x _ hr.2.1, take_eq_gather x _ hr.2.2.1, take_eq_gather x _ hr.2.2.2⟩

end Rows

section Ref
variable [Cert.KernelIdeal.Facts] [Cert.ReferenceIdeal.Facts] {F : FTy → Type} [FloatOps F]

/-- The two programs' gather records have the same fields. -/
theorem gatherDims_eq :
    Cert.KernelIdeal.gather_S100000x8_S1100000x1_S1100000x8_1_0_n_n_0_1_18 = Cert.ReferenceIdeal.gather_S100000x8_S1100000x1_S1100000x8_1_0_n_n_0_1_18 := rfl

/-- The reference's row gather: normalise a negative index, lay the indices as a column, gather (the operations from an
    index row to the gathered rows). -/
abbrev refGather (x : FVec F Cert.ReferenceIdeal.S100000x8 .f32) (idx : IVec Cert.ReferenceIdeal.S1100000 32) :
    FVec F Cert.ReferenceIdeal.S1100000x8 .f32 :=
  let v61 : IVec Cert.ReferenceIdeal.S1100000 32 :=
    broadcastInDim Cert.ReferenceIdeal.S1100000 ![] Cert.ReferenceIdeal.Facts₀.bcast_S_S1100000 (constantI Cert.ReferenceIdeal.S_ 32 0#32)
  let v62 : IVec Cert.ReferenceIdeal.S1100000 1 := cmpi .slt idx v61
  let v63 : IVec Cert.ReferenceIdeal.S1100000 32 :=
    broadcastInDim Cert.ReferenceIdeal.S1100000 ![] Cert.ReferenceIdeal.Facts₀.bcast_S_S1100000 (constantI Cert.ReferenceIdeal.S_ 32 100000#32)
  let v64 : IVec Cert.ReferenceIdeal.S1100000 32 := addi idx v63
  let v65 : IVec Cert.ReferenceIdeal.S1100000 32 := select v62 v64 idx
  let v66 : IVec Cert.ReferenceIdeal.S1100000x1 32 :=
    broadcastInDim Cert.ReferenceIdeal.S1100000x1 ![0] Cert.ReferenceIdeal.Facts₀.bcast_S1100000_S1100000x1_0 v65
  Host.gather Cert.ReferenceIdeal.gather_S100000x8_S1100000x1_S1100000x8_1_0_n_n_0_1_18 x v66

/-- The take, in range, is the reference's row gather. -/
theorem take_eq_refGather (x : FVec F Cert.KernelIdeal.S100000x8 .f32) (idx : IVec Cert.KernelIdeal.S1100000 32) (hr : InRange idx) :
    takeTerm x idx = refGather x idx :=
  take_eq_gather x idx hr

end Ref

section Mem
open Idealize.SL.Sem
variable [Cert.Pre_finite_inputs.Facts]

/-- The precondition at a launch memory: on every device the two index arrays are in range. -/
theorem idx_range_mem (m : (ℓ : Loc Cert.KernelIdeal.nD Cert.KernelIdeal.τ Cert.KernelIdeal.sig) → Buf (Elt Ideal) ℓ)
    (h : Cert.Pre_KernelIdeal m) (c : Dev Cert.KernelIdeal.nD) :
    InRange (s := Cert.KernelIdeal.S2x1100000) (m ((c.tc : Thread Cert.KernelIdeal.nD Cert.KernelIdeal.τ).loc Cert.KernelIdeal.main_arg1))
    ∧ InRange (s := Cert.KernelIdeal.S2x1100000) (m ((c.tc : Thread Cert.KernelIdeal.nD Cert.KernelIdeal.τ).loc Cert.KernelIdeal.main_arg2)) :=
  idx_range (h c)

/-- The precondition at a launch memory: on every device the four index rows are in range. -/
theorem rows_range_mem [Cert.KernelIdeal.Facts] (m : (ℓ : Loc Cert.KernelIdeal.nD Cert.KernelIdeal.τ Cert.KernelIdeal.sig) → Buf (Elt Ideal) ℓ)
    (h : Cert.Pre_KernelIdeal m) (c : Dev Cert.KernelIdeal.nD) :
    InRange (row0 (m ((c.tc : Thread Cert.KernelIdeal.nD Cert.KernelIdeal.τ).loc Cert.KernelIdeal.main_arg1)))
    ∧ InRange (row1 (m ((c.tc : Thread Cert.KernelIdeal.nD Cert.KernelIdeal.τ).loc Cert.KernelIdeal.main_arg1)))
    ∧ InRange (row0 (m ((c.tc : Thread Cert.KernelIdeal.nD Cert.KernelIdeal.τ).loc Cert.KernelIdeal.main_arg2)))
    ∧ InRange (row1 (m ((c.tc : Thread Cert.KernelIdeal.nD Cert.KernelIdeal.τ).loc Cert.KernelIdeal.main_arg2))) :=
  rows_range (h c)

end Mem

end Cert.PreIdx

end
-- ==== Proof.Val.EdgeDefs.lean ====
import proofs.«426760_j80470507258346_3_alg».proof.KernelIdeal
import proofs.«426760_j80470507258346_3_alg».proof.ReferenceIdeal
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws

noncomputable section

open scoped BigOperators

namespace Cert.Val

open Idealize.ShloMosaic Idealize.ShloMosaic.ValueIdx

/-! ## The edge embedding of one block: the two composed terms

Both programs compute, for every edge `e`, the two-layer perceptron
`relu ([g, x_row, x_col, ea] · W1 + b1) · W2 + b2` of the 26 features made of the global vector `g` (8),
the two gathered node rows (8 + 8) and the edge attributes (2). The reference concatenates the features and
multiplies once; the other program multiplies each group of features by its rows of `W1` and folds the global
vector's share into the bias. -/

section Kernel
open Cert.KernelIdeal Cert.KernelIdeal.Facts₀
variable [Cert.KernelIdeal.Facts]

/-- The whole-array function of the edge pipeline: nine arrays in, one column out. -/
abbrev EdgeFn : Type :=
  Vec Ideal S1105920x8 .bf16 → Vec Ideal S1105920x8 .bf16 → Vec Ideal S1105920x2 .bf16 →
    Vec Ideal S8x32 .f32 → Vec Ideal S8x32 .f32 → Vec Ideal S2x32 .f32 → Vec Ideal S1x32 .f32 →
    Vec Ideal S32x1 .f32 → Vec Ideal S1x1 .f32 → Vec Ideal S1105920x1 .f32

/-- The edge embedding as the pipelined program composes it: the three row arrays rounded to the short format and
    padded with 5920 zero rows, the weight matrix cut into its four row groups, the global vector's product with the
    first group added to the bias, the pipeline's function `E`, and the first 1100000 rows of its result. -/
def edgeK (E : EdgeFn) (xrT xcT : Vec Ideal S1100000x8 .f32) (ea2 : Vec Ideal S1100000x2 .f32)
    (g : Vec Ideal S1x8 .f32) (W1 : Vec Ideal S26x32 .f32) (b1 : Vec Ideal S32 .f32)
    (W2 : Vec Ideal S32x1 .f32) (b2 : Vec Ideal S1 .f32) : Vec Ideal S1100000x1 .f32 :=
  extractStridedSlice S1100000x1 ![0, 0]
    (E
      (pad S1105920x8 ![0, 0] ![5920, 0] ![0, 0] (truncf (F := Ideal) (φ := .f32) .bf16 xrT bitsLt_bf16_f32)
        (sitofp (F := Ideal) .bf16 (constantI S_ 32 0#32)) pads_S1100000x8_S1105920x8_059200_000 h_S_)
      (pad S1105920x8 ![0, 0] ![5920, 0] ![0, 0] (truncf (F := Ideal) (φ := .f32) .bf16 xcT bitsLt_bf16_f32)
        (sitofp (F := Ideal) .bf16 (constantI S_ 32 0#32)) pads_S1100000x8_S1105920x8_059200_000 h_S_)
      (pad S1105920x2 ![0, 0] ![5920, 0] ![0, 0] (truncf (F := Ideal) (φ := .f32) .bf16 ea2 bitsLt_bf16_f32)
        (sitofp (F := Ideal) .bf16 (constantI S_ 32 0#32)) pads_S1100000x2_S1105920x2_059200_000 h_S_)
      (extractStridedSlice S8x32 ![8, 0] W1 slices_S26x32_S8x32_8_0)
      (extractStridedSlice S8x32 ![16, 0] W1 slices_S26x32_S8x32_16_0)
      (extractStridedSlice S2x32 ![24, 0] W1 slices_S26x32_S2x32_24_0)
      (addf (F := Ideal) (φ := .f32) (shapeCast S1x32 b1 shapeCasts_S32_S1x32)
        (Host.dotGeneral (F := Ideal) (φ₁ := .f32) (φ₂ := .f32) dot_S1x8_S8x32_S1x32_1_0_0_1_n_n none g
          (extractStridedSlice S8x32 ![0, 0] W1 slices_S26x32_S8x32_0_0)))
      W2
      (shapeCast S1x1 b2 shapeCasts_S1_S1x1))
    slices_S1105920x1_S1100000x1_0_0

end Kernel

section Reference
open Cert.ReferenceIdeal Cert.ReferenceIdeal.Facts₀
variable [Cert.ReferenceIdeal.Facts]

/-- The edge embedding as the reference composes it: the global vector broadcast down the rows, the four feature
    groups concatenated into 26 columns, one product with `W1`, the bias, the rectifier, the product with `W2`
    and the second bias. -/
def edgeR (xrT xcT : Vec Ideal S1100000x8 .f32) (ea2 : Vec Ideal S1100000x2 .f32)
    (g : Vec Ideal S1x8 .f32) (W1 : Vec Ideal S26x32 .f32) (b1 : Vec Ideal S32 .f32)
    (W2 : Vec Ideal S32x1 .f32) (b2 : Vec Ideal S1 .f32) : Vec Ideal S1100000x1 .f32 :=
  addf (F := Ideal) (φ := .f32)
    (Host.dotGeneral (F := Ideal) (φ₁ := .f32) (φ₂ := .f32) dot_S1100000x32_S32x1_S1100000x1_1_0_0_1_n_n none
      (maximumf (F := Ideal) (φ := .f32)
        (addf (F := Ideal) (φ := .f32)
          (Host.dotGeneral (F := Ideal) (φ₁ := .f32) (φ₂ := .f32) dot_S1100000x26_S26x32_S1100000x32_1_0_0_1_n_n none
            (concatenate (α := Ideal .f32) S1100000x26 1
              [⟨S1100000x8, broadcastInDim S1100000x8 ![0, 1] bcast_S1x8_S1100000x8_0_1 g⟩, ⟨S1100000x8, xrT⟩,
                ⟨S1100000x8, xcT⟩, ⟨S1100000x2, ea2⟩]
              concatenates_S1100000x8_S1100000x8_S1100000x8_S1100000x2_S1100000x26_d1)
            W1)
          (broadcastInDim S1100000x32 ![0, 1] bcast_S1x32_S1100000x32_0_1
            (broadcastInDim S1x32 ![1] bcast_S32_S1x32_1 b1)))
        (broadcastInDim S1100000x32 ![] bcast_S_S1100000x32 (constant (F := Ideal) S_ .f32 0x00000000#32)))
      W2)
    (broadcastInDim S1100000x1 ![0, 1] bcast_S1x1_S1100000x1_0_1 (broadcastInDim S1x1 ![1] bcast_S1_S1x1_1 b2))

end Reference

end Cert.Val

end
-- ==== Proof.Val.NodeDefs.lean ====
import proofs.«426760_j80470507258346_3_alg».proof.KernelIdeal
import proofs.«426760_j80470507258346_3_alg».proof.ReferenceIdeal
import Idealize.ShloMosaic.Lib.ValueIdx

noncomputable section

open scoped BigOperators

namespace Cert.Val

open Idealize.ShloMosaic Idealize.ShloMosaic.ValueIdx

/-! ## The node embedding of one block: the two composed terms

Both programs compute, for every node `n`, the two-layer perceptron
`relu ([g, x, agg] · W1 + b1) · W2 + b2` of the 17 features made of the global vector `g` (8), the node's row
`x` (8) and its aggregated edge message `agg` (1). The reference concatenates the features and multiplies once; the
other program multiplies each group of features by its rows of `W1` and folds the global vector's share into the
bias. -/

section Kernel
open Cert.KernelIdeal Cert.KernelIdeal.Facts₀
variable [Cert.KernelIdeal.Facts]

/-- The whole-array function of the node pipeline: seven arrays in, eight columns out. -/
abbrev NodeFn : Type :=
  Vec Ideal S106496x8 .bf16 → Vec Ideal S106496x1 .bf16 → Vec Ideal S8x32 .f32 → Vec Ideal S1x32 .f32 →
    Vec Ideal S1x32 .f32 → Vec Ideal S32x8 .f32 → Vec Ideal S1x8 .f32 → Vec Ideal S106496x8 .f32

/-- The node embedding as the pipelined program composes it: the node rows rounded to the short format, they and the
    aggregated messages (already in the short format) padded with 6496 zero rows, the weight matrix cut into its three row groups, the global vector's product with the
    first group added to the bias, the pipeline's function `N`, and the first 100000 rows of its result. -/
def nodeK (N : NodeFn) (x : Vec Ideal S100000x8 .f32) (aggbf : Vec Ideal S100000x1 .bf16)
    (g : Vec Ideal S1x8 .f32) (W1 : Vec Ideal S17x32 .f32) (b1 : Vec Ideal S32 .f32)
    (W2 : Vec Ideal S32x8 .f32) (b2 : Vec Ideal S8 .f32) : Vec Ideal S100000x8 .f32 :=
  extractStridedSlice S100000x8 ![0, 0]
    (N
      (pad S106496x8 ![0, 0] ![6496, 0] ![0, 0] (truncf (F := Ideal) (φ := .f32) .bf16 x bitsLt_bf16_f32)
        (sitofp (F := Ideal) .bf16 (constantI S_ 32 0#32)) pads_S100000x8_S106496x8_064960_000 h_S_)
      (pad S106496x1 ![0, 0] ![6496, 0] ![0, 0] aggbf
        (sitofp (F := Ideal) .bf16 (constantI S_ 32 0#32)) pads_S100000x1_S106496x1_064960_000 h_S_)
      (extractStridedSlice S8x32 ![8, 0] W1 slices_S17x32_S8x32_8_0)
      (extractStridedSlice S1x32 ![16, 0] W1 slices_S17x32_S1x32_16_0)
      (addf (F := Ideal) (φ := .f32) (shapeCast S1x32 b1 shapeCasts_S32_S1x32)
        (Host.dotGeneral (F := Ideal) (φ₁ := .f32) (φ₂ := .f32) dot_S1x8_S8x32_S1x32_1_0_0_1_n_n none g
          (extractStridedSlice S8x32 ![0, 0] W1 slices_S17x32_S8x32_0_0)))
      W2
      (shapeCast S1x8 b2 shapeCasts_S8_S1x8))
    slices_S106496x8_S100000x8_0_0

end Kernel

section Reference
open Cert.ReferenceIdeal Cert.ReferenceIdeal.Facts₀
variable [Cert.ReferenceIdeal.Facts]

/-- The node embedding as the reference composes it: the global vector broadcast down the rows, the three feature
    groups concatenated into 17 columns, one product with `W1`, the bias, the rectifier, the product with `W2`
    and the second bias. -/
def nodeR (x : Vec Ideal S100000x8 .f32) (agg : Vec Ideal S100000x1 .f32)
    (g : Vec Ideal S1x8 .f32) (W1 : Vec Ideal S17x32 .f32) (b1 : Vec Ideal S32 .f32)
    (W2 : Vec Ideal S32x8 .f32) (b2 : Vec Ideal S8 .f32) : Vec Ideal S100000x8 .f32 :=
  addf (F := Ideal) (φ := .f32)
    (Host.dotGeneral (F := Ideal) (φ₁ := .f32) (φ₂ := .f32) dot_S100000x32_S32x8_S100000x8_1_0_0_1_n_n none
      (maximumf (F := Ideal) (φ := .f32)
        (addf (F := Ideal) (φ := .f32)
          (Host.dotGeneral (F := Ideal) (φ₁ := .f32) (φ₂ := .f32) dot_S100000x17_S17x32_S100000x32_1_0_0_1_n_n none
            (concatenate (α := Ideal .f32) S100000x17 1
              [⟨S100000x8, broadcastInDim S100000x8 ![0, 1] bcast_S1x8_S100000x8_0_1 g⟩, ⟨S100000x8, x⟩,
                ⟨S100000x1, agg⟩]
              concatenates_S100000x8_S100000x8_S100000x1_S100000x17_d1)
            W1)
          (broadcastInDim S100000x32 ![0, 1] bcast_S1x32_S100000x32_0_1
            (broadcastInDim S1x32 ![1] bcast_S32_S1x32_1 b1)))
        (broadcastInDim S100000x32 ![] bcast_S_S100000x32 (constant (F := Ideal) S_ .f32 0x00000000#32)))
      W2)
    (broadcastInDim S100000x8 ![0, 1] bcast_S1x8_S100000x8_0_1 (broadcastInDim S1x8 ![1] bcast_S8_S1x8_1 b2))

end Reference

end Cert.Val

end
-- ==== Proof.Val.AggStep.lean ====
import proofs.«426760_j80470507258346_3_alg».proof.KernelIdeal
import proofs.«426760_j80470507258346_3_alg».proof.ReferenceIdeal
import Idealize.ShloMosaic.PureOps.Ideal
import Idealize.ShloMosaic.Lib.IdealHost

noncomputable section

namespace Cert.Val

open Idealize.ShloMosaic

section AggK
open Cert.KernelIdeal Cert.KernelIdeal.Facts₀ Cert.KernelIdeal.Facts
variable [Cert.KernelIdeal.Facts] {F : FTy → Type} [FloatOps F]

/-- The mean aggregation as the kernel program spells it: the reciprocal of the clamped in-degree count (%8, %10 … %16,
    computed once per index row), then per layer the scattered sum times that reciprocal, converted to bf16 (%95 … %99). -/
abbrev aggK (e : FVec F S1100000x1 .f32) (idx : IVec S1100000 32) : FVec F S100000x1 .bf16 :=
  let cst : FVec F S_ .f32 := constant S_ .f32 0x3F800000#32
  let v8 : FVec F S1100000x1 .f32 := broadcastInDim S1100000x1 ![] bcast_S_S1100000x1 cst
  let cst_1 : FVec F S_ .f32 := constant S_ .f32 0x00000000#32
  let v10 : FVec F S100000x1 .f32 := broadcastInDim S100000x1 ![] bcast_S_S100000x1 cst_1
  let v11 : IVec S1100000x1 32 := broadcastInDim S1100000x1 ![0] bcast_S1100000_S1100000x1_0 idx
  let v12 : FVec F S100000x1 .f32 := Host.scatterAdd scatter_S100000x1_S1100000x1_S1100000x1_1_0_0_1 v10 v11 v8
  let cst_2 : FVec F S_ .f32 := constant S_ .f32 0x3F800000#32
  let v13 : FVec F S100000x1 .f32 := broadcastInDim S100000x1 ![] bcast_S_S100000x1 cst_2
  let v14 : FVec F S100000x1 .f32 := maximumf v12 v13
  let cst_3 : FVec F S_ .f32 := constant S_ .f32 0x3F800000#32
  let v15 : FVec F S100000x1 .f32 := broadcastInDim S100000x1 ![] bcast_S_S100000x1 cst_3
  let v16 : FVec F S100000x1 .f32 := Host.divf v15 v14
  let cst_12 : FVec F S_ .f32 := constant S_ .f32 0x00000000#32
  let v95 : FVec F S100000x1 .f32 := broadcastInDim S100000x1 ![] bcast_S_S100000x1 cst_12
  let v96 : IVec S1100000x1 32 := broadcastInDim S1100000x1 ![0] bcast_S1100000_S1100000x1_0 idx
  let v97 : FVec F S100000x1 .f32 := Host.scatterAdd scatter_S100000x1_S1100000x1_S1100000x1_1_0_0_1 v95 v96 e
  let v98 : FVec F S100000x1 .f32 := mulf v97 v16
  truncf .bf16 v98 bitsLt_bf16_f32

/-- The scattered sum of the edge column at the index row (%97), and the in-degree count (%12). -/
abbrev sumK (e : FVec F S1100000x1 .f32) (idx : IVec S1100000 32) : FVec F S100000x1 .f32 :=
  Host.scatterAdd scatter_S100000x1_S1100000x1_S1100000x1_1_0_0_1 (broadcastInDim S100000x1 ![] bcast_S_S100000x1 (constant S_ .f32 0x00000000#32))
    (broadcastInDim S1100000x1 ![0] bcast_S1100000_S1100000x1_0 idx) e
abbrev cntK (idx : IVec S1100000 32) : FVec F S100000x1 .f32 :=
  Host.scatterAdd scatter_S100000x1_S1100000x1_S1100000x1_1_0_0_1 (broadcastInDim S100000x1 ![] bcast_S_S100000x1 (constant S_ .f32 0x00000000#32))
    (broadcastInDim S1100000x1 ![0] bcast_S1100000_S1100000x1_0 idx)
    (broadcastInDim S1100000x1 ![] bcast_S_S1100000x1 (constant S_ .f32 0x3F800000#32))

/-- The kernel program's aggregate at one node: convert (sum · (1 / max count 1)). -/
theorem aggK_apply (e : FVec F S1100000x1 .f32) (idx : IVec S1100000 32) (j : S100000x1.Idx) :
    aggK e idx j = FloatOps.truncf .bf16 bitsLt_bf16_f32 (FloatOps.mulf (sumK e idx j)
      (FloatOps.hostDivf (FloatOps.ofBits .f32 0x3F800000#32)
        (FloatOps.maximumf (cntK (F := F) idx j) (FloatOps.ofBits .f32 0x3F800000#32)))) := rfl

end AggK

section AggR
open Cert.ReferenceIdeal Cert.ReferenceIdeal.Facts₀ Cert.ReferenceIdeal.Facts
variable [Cert.ReferenceIdeal.Facts] {F : FTy → Type} [FloatOps F]

/-- The mean aggregation as the reference spells it (%85 … %94): the scattered sum divided by the clamped count. -/
abbrev aggR (e : FVec F S1100000x1 .f32) (idx : IVec S1100000 32) : FVec F S100000x1 .f32 :=
  let cst_5 : FVec F S_ .f32 := constant S_ .f32 0x00000000#32
  let v85 : FVec F S100000x1 .f32 := broadcastInDim S100000x1 ![] bcast_S_S100000x1 cst_5
  let v86 : IVec S1100000x1 32 := broadcastInDim S1100000x1 ![0] bcast_S1100000_S1100000x1_0 idx
  let v87 : FVec F S100000x1 .f32 := Host.scatterAdd scatter_S100000x1_S1100000x1_S1100000x1_1_0_0_1 v85 v86 e
  let cst_6 : FVec F S_ .f32 := constant S_ .f32 0x3F800000#32
  let v88 : FVec F S1100000x1 .f32 := broadcastInDim S1100000x1 ![] bcast_S_S1100000x1 cst_6
  let cst_7 : FVec F S_ .f32 := constant S_ .f32 0x00000000#32
  let v89 : FVec F S100000x1 .f32 := broadcastInDim S100000x1 ![] bcast_S_S100000x1 cst_7
  let v90 : IVec S1100000x1 32 := broadcastInDim S1100000x1 ![0] bcast_S1100000_S1100000x1_0 idx
  let v91 : FVec F S100000x1 .f32 := Host.scatterAdd scatter_S100000x1_S1100000x1_S1100000x1_1_0_0_1 v89 v90 v88
  let cst_8 : FVec F S_ .f32 := constant S_ .f32 0x3F800000#32
  let v92 : FVec F S100000x1 .f32 := broadcastInDim S100000x1 ![] bcast_S_S100000x1 cst_8
  let v93 : FVec F S100000x1 .f32 := maximumf v91 v92
  Host.divf v87 v93

/-- The scattered sum (%87) and the in-degree count (%91). -/
abbrev sumR (e : FVec F S1100000x1 .f32) (idx : IVec S1100000 32) : FVec F S100000x1 .f32 :=
  Host.scatterAdd scatter_S100000x1_S1100000x1_S1100000x1_1_0_0_1 (broadcastInDim S100000x1 ![] bcast_S_S100000x1 (constant S_ .f32 0x00000000#32))
    (broadcastInDim S1100000x1 ![0] bcast_S1100000_S1100000x1_0 idx) e
abbrev cntR (idx : IVec S1100000 32) : FVec F S100000x1 .f32 :=
  Host.scatterAdd scatter_S100000x1_S1100000x1_S1100000x1_1_0_0_1 (broadcastInDim S100000x1 ![] bcast_S_S100000x1 (constant S_ .f32 0x00000000#32))
    (broadcastInDim S1100000x1 ![0] bcast_S1100000_S1100000x1_0 idx)
    (broadcastInDim S1100000x1 ![] bcast_S_S1100000x1 (constant S_ .f32 0x3F800000#32))

/-- The reference's aggregate at one node: sum / max count 1. -/
theorem aggR_apply (e : FVec F S1100000x1 .f32) (idx : IVec S1100000 32) (j : S100000x1.Idx) :
    aggR e idx j = FloatOps.hostDivf (sumR e idx j)
      (FloatOps.maximumf (cntR (F := F) idx j) (FloatOps.ofBits .f32 0x3F800000#32)) := rfl

end AggR

section AggStep
variable [Cert.KernelIdeal.Facts] [Cert.ReferenceIdeal.Facts]

/-- The two programs' sums and counts are the same terms: their records have the same fields. -/
theorem sumK_eq_sumR {F : FTy → Type} [FloatOps F] (e : FVec F Cert.KernelIdeal.S1100000x1 .f32)
    (idx : IVec Cert.KernelIdeal.S1100000 32) : sumK e idx = sumR e idx := rfl
theorem cntK_eq_cntR {F : FTy → Type} [FloatOps F] (idx : IVec Cert.KernelIdeal.S1100000 32) :
    cntK (F := F) idx = cntR (F := F) idx := rfl

/-- On extended reals, s · (1 / max c 1) = s / max c 1: the divisor is at least one, so it is not zero; and the
    conversion between formats is the identity. -/
theorem mul_recip_max (s c : EReal) :
    (FloatOps.truncf (F := Ideal) (φ := .f32) .bf16 (by decide) (FloatOps.mulf (F := Ideal) (φ := .f32) s
      (FloatOps.hostDivf (F := Ideal) (φ := .f32) (FloatOps.ofBits (F := Ideal) .f32 0x3F800000#32)
        (FloatOps.maximumf (F := Ideal) (φ := .f32) c (FloatOps.ofBits (F := Ideal) .f32 0x3F800000#32)))) : EReal)
    = FloatOps.hostDivf (F := Ideal) (φ := .f32) s
        (FloatOps.maximumf (F := Ideal) (φ := .f32) c (FloatOps.ofBits (F := Ideal) .f32 0x3F800000#32)) := by
  show s * Ideal.div (Ideal.ofBits .f32 0x3F800000#32) (max c (Ideal.ofBits .f32 0x3F800000#32))
    = Ideal.div s (max c (Ideal.ofBits .f32 0x3F800000#32))
  rw [Ideal.ofBits_one_f32]
  exact Ideal.mul_one_div (ne_of_gt (lt_of_lt_of_le zero_lt_one (le_max_right c 1)))

/-- THE MEAN AGGREGATION: the kernel program's sum times the reciprocal of the clamped count, converted, is the
    reference's sum divided by the clamped count. -/
theorem agg_step (e : FVec Ideal Cert.KernelIdeal.S1100000x1 .f32) (idx : IVec Cert.KernelIdeal.S1100000 32) :
    aggK (F := Ideal) e idx = aggR (F := Ideal) e idx := by
  funext j
  refine (aggK_apply (F := Ideal) e idx j).trans ?_
  refine Eq.trans ?_ (aggR_apply (F := Ideal) e idx j).symm
  rw [← sumK_eq_sumR (F := Ideal) e idx, ← cntK_eq_cntR (F := Ideal) idx]
  generalize sumK (F := Ideal) e idx j = s
  generalize cntK (F := Ideal) idx j = c
  exact mul_recip_max s c

end AggStep

end Cert.Val

end
-- ==== Proof.Val.GlobStep.lean ====
import proofs.«426760_j80470507258346_3_alg».proof.KernelIdeal
import proofs.«426760_j80470507258346_3_alg».proof.ReferenceIdeal
import Idealize.ShloMosaic.PureOps.Ideal
import Idealize.ShloMosaic.Lib.ValueLayout

noncomputable section

namespace Cert.Val

open Idealize.ShloMosaic

section GlobK
open Cert.KernelIdeal Cert.KernelIdeal.Facts₀ Cert.KernelIdeal.Facts
variable [Cert.KernelIdeal.Facts] {F : FTy → Type} [FloatOps F]

/-- The global update as the kernel program spells it (%111 … %126): the node and edge means and the global row
    concatenated, two dense layers with a relu between, each bias a reshape of its vector to one row. -/
abbrev gK (n : FVec F S100000x8 .f32) (e : FVec F S1100000x1 .f32) (g : FVec F S1x8 .f32) (W1 : FVec F S17x32 .f32)
    (b1 : FVec F S32 .f32) (W2 : FVec F S32x8 .f32) (b2 : FVec F S8 .f32) : FVec F S1x8 .f32 :=
  let cst_15 : FVec F S_ .f32 := constant S_ .f32 0x00000000#32
  let v111 : FVec F S8 .f32 := Host.reduceAdd n cst_15 reducesTo_S100000x8_S8_d0 h_S_
  let v112 : FVec F S1x8 .f32 := broadcastInDim S1x8 ![1] bcast_S8_S1x8_1 v111
  let cst_16 : FVec F S_ .f32 := constant S_ .f32 0x47C35000#32
  let v113 : FVec F S1x8 .f32 := broadcastInDim S1x8 ![] bcast_S_S1x8 cst_16
  let v114 : FVec F S1x8 .f32 := Host.divf v112 v113
  let cst_17 : FVec F S_ .f32 := constant S_ .f32 0x00000000#32
  let v115 : FVec F S1 .f32 := Host.reduceAdd e cst_17 reducesTo_S1100000x1_S1_d0 h_S_
  let v116 : FVec F S1x1 .f32 := broadcastInDim S1x1 ![1] bcast_S1_S1x1_1 v115
  let cst_18 : FVec F S_ .f32 := constant S_ .f32 0x49864700#32
  let v117 : FVec F S1x1 .f32 := broadcastInDim S1x1 ![] bcast_S_S1x1 cst_18
  let v118 : FVec F S1x1 .f32 := Host.divf v116 v117
  let v119 : FVec F S1x17 .f32 := concatenate S1x17 1 [⟨S1x8, v114⟩, ⟨S1x1, v118⟩, ⟨S1x8, g⟩] concatenates_S1x8_S1x1_S1x8_S1x17_d1
  let v120 : FVec F S1x32 .f32 := shapeCast S1x32 b1 shapeCasts_S32_S1x32
  let v121 : FVec F S1x8 .f32 := shapeCast S1x8 b2 shapeCasts_S8_S1x8
  let v122 : FVec F S1x32 .f32 := Host.dotGeneral dot_S1x17_S17x32_S1x32_1_0_0_1_n_n none v119 W1
  let v123 : FVec F S1x32 .f32 := addf v122 v120
  let r_cst : FVec F S_ .f32 := constant S_ .f32 0x00000000#32
  let r_v0 : FVec F S1x32 .f32 := broadcastInDim S1x32 ![] bcast_S_S1x32 r_cst
  let v124 : FVec F S1x32 .f32 := maximumf v123 r_v0
  let v125 : FVec F S1x8 .f32 := Host.dotGeneral dot_S1x32_S32x8_S1x8_1_0_0_1_n_n none v124 W2
  addf v125 v121

end GlobK

section GlobR
open Cert.ReferenceIdeal Cert.ReferenceIdeal.Facts₀ Cert.ReferenceIdeal.Facts
variable [Cert.ReferenceIdeal.Facts] {F : FTy → Type} [FloatOps F]

/-- The global update as the reference spells it (%106 … %121): the same, each bias a broadcast of its vector along
    the row axis. (The values are named by the kernel program's numbers where the operation is the same.) -/
abbrev gR (n : FVec F S100000x8 .f32) (e : FVec F S1100000x1 .f32) (g : FVec F S1x8 .f32) (W1 : FVec F S17x32 .f32)
    (b1 : FVec F S32 .f32) (W2 : FVec F S32x8 .f32) (b2 : FVec F S8 .f32) : FVec F S1x8 .f32 :=
  let cst_15 : FVec F S_ .f32 := constant S_ .f32 0x00000000#32
  let v111 : FVec F S8 .f32 := Host.reduceAdd n cst_15 reducesTo_S100000x8_S8_d0 h_S_
  let v112 : FVec F S1x8 .f32 := broadcastInDim S1x8 ![1] bcast_S8_S1x8_1 v111
  let cst_16 : FVec F S_ .f32 := constant S_ .f32 0x47C35000#32
  let v113 : FVec F S1x8 .f32 := broadcastInDim S1x8 ![] bcast_S_S1x8 cst_16
  let v114 : FVec F S1x8 .f32 := Host.divf v112 v113
  let cst_17 : FVec F S_ .f32 := constant S_ .f32 0x00000000#32
  let v115 : FVec F S1 .f32 := Host.reduceAdd e cst_17 reducesTo_S1100000x1_S1_d0 h_S_
  let v116 : FVec F S1x1 .f32 := broadcastInDim S1x1 ![1] bcast_S1_S1x1_1 v115
  let cst_18 : FVec F S_ .f32 := constant S_ .f32 0x49864700#32
  let v117 : FVec F S1x1 .f32 := broadcastInDim S1x1 ![] bcast_S_S1x1 cst_18
  let v118 : FVec F S1x1 .f32 := Host.divf v116 v117
  let v119 : FVec F S1x17 .f32 := concatenate S1x17 1 [⟨S1x8, v114⟩, ⟨S1x1, v118⟩, ⟨S1x8, g⟩] concatenates_S1x8_S1x1_S1x8_S1x17_d1
  let v122 : FVec F S1x32 .f32 := Host.dotGeneral dot_S1x17_S17x32_S1x32_1_0_0_1_n_n none v119 W1
  let v120 : FVec F S1x32 .f32 := broadcastInDim S1x32 ![1] bcast_S32_S1x32_1 b1
  let v123 : FVec F S1x32 .f32 := addf v122 v120
  let r_cst : FVec F S_ .f32 := constant S_ .f32 0x00000000#32
  let r_v0 : FVec F S1x32 .f32 := broadcastInDim S1x32 ![] bcast_S_S1x32 r_cst
  let v124 : FVec F S1x32 .f32 := maximumf v123 r_v0
  let v125 : FVec F S1x8 .f32 := Host.dotGeneral dot_S1x32_S32x8_S1x8_1_0_0_1_n_n none v124 W2
  let v121 : FVec F S1x8 .f32 := broadcastInDim S1x8 ![1] bcast_S8_S1x8_1 b2
  addf v125 v121

end GlobR

section GlobStep
variable [Cert.KernelIdeal.Facts] [Cert.ReferenceIdeal.Facts] {F : FTy → Type} [FloatOps F]

/-- A vector reshaped to one row reads, at (0, i), the vector at i: so does the vector broadcast along the row axis. -/
theorem shapeCast_row_eq_bcast {α : Type} {a : ℕ} (x : (⟨1, ![a]⟩ : Shape).Idx → α)
    (h : (⟨1, ![a]⟩ : Shape).ShapeCasts ⟨2, ![1, a]⟩) (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ u i, j = ValueIdx.ix2 u i := ⟨j 0, j 1, ValueIdx.eq_ix2 j⟩
  rw [ValueIdx.shapeCast_a_1a_apply]
  simp only [broadcastInDim]
  congr 1
  funext b
  have hb : b = 0 := Subsingleton.elim _ _
  subst hb
  apply Fin.ext
  have hi := i.isLt
  split
  · next h1 => change a = 1 at h1; show i.val = 0; omega
  · rfl

set_option maxRecDepth 16384 in
/-- A vector reshaped to one row and the vector broadcast along the row axis are the same row. -/
theorem glob_step (n : FVec F Cert.KernelIdeal.S100000x8 .f32) (e : FVec F Cert.KernelIdeal.S1100000x1 .f32)
    (g : FVec F Cert.KernelIdeal.S1x8 .f32) (W1 : FVec F Cert.KernelIdeal.S17x32 .f32) (b1 : FVec F Cert.KernelIdeal.S32 .f32)
    (W2 : FVec F Cert.KernelIdeal.S32x8 .f32) (b2 : FVec F Cert.KernelIdeal.S8 .f32) :
    gK n e g W1 b1 W2 b2 = gR n e g W1 b1 W2 b2 := by
  have h1 : shapeCast Cert.KernelIdeal.S1x32 b1 Cert.KernelIdeal.Facts₀.shapeCasts_S32_S1x32
      = broadcastInDim Cert.ReferenceIdeal.S1x32 ![1] Cert.ReferenceIdeal.Facts₀.bcast_S32_S1x32_1 b1 :=
    shapeCast_row_eq_bcast b1 _ _
  have h2 : shapeCast Cert.KernelIdeal.S1x8 b2 Cert.KernelIdeal.Facts₀.shapeCasts_S8_S1x8
      = broadcastInDim Cert.ReferenceIdeal.S1x8 ![1] Cert.ReferenceIdeal.Facts₀.bcast_S8_S1x8_1 b2 :=
    shapeCast_row_eq_bcast b2 _ _
  show addf (Host.dotGeneral _ none (maximumf (addf (Host.dotGeneral _ none _ W1)
      (shapeCast Cert.KernelIdeal.S1x32 b1 Cert.KernelIdeal.Facts₀.shapeCasts_S32_S1x32)) _) W2)
      (shapeCast Cert.KernelIdeal.S1x8 b2 Cert.KernelIdeal.Facts₀.shapeCasts_S8_S1x8) = _
  rw [h1, h2]
  rfl

end GlobStep

end Cert.Val

end
-- ==== Proof.Val.FinalStep.lean ====
import proofs.«426760_j80470507258346_3_alg».proof.KernelIdeal
import proofs.«426760_j80470507258346_3_alg».proof.ReferenceIdeal
import Idealize.ShloMosaic.PureOps.Ideal

noncomputable section

namespace Cert.Val

open Idealize.ShloMosaic

section FinalK
open Cert.KernelIdeal Cert.KernelIdeal.Facts₀ Cert.KernelIdeal.Facts
variable [Cert.KernelIdeal.Facts] {F : FTy → Type} [FloatOps F]

/-- The epilogue as the kernel program spells it (%473 … %483): on each block the edge column as a vector, its
    exponential where the edge's two end points coincide, and the two blocks concatenated. -/
abbrev finalK (lr lc ur uc : IVec S1100000 32) (le ue : FVec F S1100000x1 .f32) : FVec F S2200000 .f32 :=
  let v473 : IVec S1100000 1 := cmpi .eq lr lc
  let v474 : FVec F S1100000 .f32 := shapeCast S1100000 le shapeCasts_S1100000x1_S1100000
  let v475 : FVec F S1100000 .f32 := Host.exp v474
  let v476 : FVec F S1100000 .f32 := shapeCast S1100000 le shapeCasts_S1100000x1_S1100000
  let v477 : FVec F S1100000 .f32 := select v473 v475 v476
  let v478 : IVec S1100000 1 := cmpi .eq ur uc
  let v479 : FVec F S1100000 .f32 := shapeCast S1100000 ue shapeCasts_S1100000x1_S1100000
  let v480 : FVec F S1100000 .f32 := Host.exp v479
  let v481 : FVec F S1100000 .f32 := shapeCast S1100000 ue shapeCasts_S1100000x1_S1100000
  let v482 : FVec F S1100000 .f32 := select v478 v480 v481
  concatenate S2200000 0 [⟨S1100000, v477⟩, ⟨S1100000, v482⟩] concatenates_S1100000_S1100000_S2200000_d0

end FinalK

section FinalR
open Cert.ReferenceIdeal Cert.ReferenceIdeal.Facts₀ Cert.ReferenceIdeal.Facts
variable [Cert.ReferenceIdeal.Facts] {F : FTy → Type} [FloatOps F]

/-- The epilogue as the reference spells it (%533 … %543): the same operations. (The values are named by the kernel
    program's numbers.) -/
abbrev finalR (lr lc ur uc : IVec S1100000 32) (le ue : FVec F S1100000x1 .f32) : FVec F S2200000 .f32 :=
  let v473 : IVec S1100000 1 := cmpi .eq lr lc
  let v474 : FVec F S1100000 .f32 := shapeCast S1100000 le shapeCasts_S1100000x1_S1100000
  let v475 : FVec F S1100000 .f32 := Host.exp v474
  let v476 : FVec F S1100000 .f32 := shapeCast S1100000 le shapeCasts_S1100000x1_S1100000
  let v477 : FVec F S1100000 .f32 := select v473 v475 v476
  let v478 : IVec S1100000 1 := cmpi .eq ur uc
  let v479 : FVec F S1100000 .f32 := shapeCast S1100000 ue shapeCasts_S1100000x1_S1100000
  let v480 : FVec F S1100000 .f32 := Host.exp v479
  let v481 : FVec F S1100000 .f32 := shapeCast S1100000 ue shapeCasts_S1100000x1_S1100000
  let v482 : FVec F S1100000 .f32 := select v478 v480 v481
  concatenate S2200000 0 [⟨S1100000, v477⟩, ⟨S1100000, v482⟩] concatenates_S1100000_S1100000_S2200000_d0

end FinalR

section FinalStep
variable [Cert.KernelIdeal.Facts] [Cert.ReferenceIdeal.Facts] {F : FTy → Type} [FloatOps F]

/-- The two epilogues are one term: their records have the same fields. -/
theorem final_step (lr lc ur uc : IVec Cert.KernelIdeal.S1100000 32) (le ue : FVec F Cert.KernelIdeal.S1100000x1 .f32) :
    finalK lr lc ur uc le ue = finalR lr lc ur uc le ue := rfl

end FinalStep

end Cert.Val

end
-- ==== Proof.Val.DagK.lean ====
import proofs.«426760_j80470507258346_3_alg».proof.Proof.Val.PreIdx
import proofs.«426760_j80470507258346_3_alg».proof.Proof.Val.EdgeDefs
import proofs.«426760_j80470507258346_3_alg».proof.Proof.Val.NodeDefs
import proofs.«426760_j80470507258346_3_alg».proof.Proof.Val.AggStep
import proofs.«426760_j80470507258346_3_alg».proof.Proof.Val.GlobStep
import proofs.«426760_j80470507258346_3_alg».proof.Proof.Val.FinalStep

noncomputable section

open scoped BigOperators

namespace Cert.Val.K

open Idealize.ShloMosaic Idealize.ShloMosaic.ValueIdx Cert.PreIdx Cert.Val
open Cert.KernelIdeal Cert.KernelIdeal.Facts₀ Cert.KernelIdeal.Facts

/-! # The pipelined program's value as named stages

Each definition is one stage of the program's host computation as a function of the seventeen argument arrays, citing
only earlier stages: the four index rows, the 72 parameter slices, the two constants, and per layer and block the edge
embedding, its mean aggregate, the node embedding and the global vector; last the result. -/

/-- The seventeen argument arrays. -/
structure Args where
  a0 : FVec Ideal S100000x8 .f32
  a1 : IVec S2x1100000 32
  a2 : IVec S2x1100000 32
  a3 : FVec Ideal S1100000x1 .f32
  a4 : FVec Ideal S1100000x1 .f32
  a5 : FVec Ideal S2x3x26x32 .f32
  a6 : FVec Ideal S2x3x32 .f32
  a7 : FVec Ideal S2x3x32x1 .f32
  a8 : FVec Ideal S2x3x1 .f32
  a9 : FVec Ideal S2x3x17x32 .f32
  a10 : FVec Ideal S2x3x32 .f32
  a11 : FVec Ideal S2x3x32x8 .f32
  a12 : FVec Ideal S2x3x8 .f32
  a13 : FVec Ideal S2x3x17x32 .f32
  a14 : FVec Ideal S2x3x32 .f32
  a15 : FVec Ideal S2x3x32x8 .f32
  a16 : FVec Ideal S2x3x8 .f32

variable [Cert.KernelIdeal.Facts]

/-! ## The edge and node pipelines' whole-array functions -/

/-- The edge pipeline's function: in each row, the rectified hidden layer of the three row arrays against their weight
    groups plus the bias row, against the output weights, plus the output bias. -/
def edgeFn : EdgeFn := fun A0 A1 A2 A3 A4 A5 A6 A7 A8 i =>
  let r : Fin 1105920 := i 0
  (∑ h : Fin 32, max ((((∑ k : Fin 8, A0 (ix2 r k) * A3 (ix2 k h)) + (∑ k : Fin 8, A1 (ix2 r k) * A4 (ix2 k h)))
    + (∑ k : Fin 2, A2 (ix2 r k) * A5 (ix2 k h))) + A6 (ix2 0 h)) 0 * A7 (ix2 h 0)) + A8 (ix2 0 0)

theorem edgeFn_apply (A0 A1 : Vec Ideal S1105920x8 .bf16) (A2 : Vec Ideal S1105920x2 .bf16) (A3 A4 : Vec Ideal S8x32 .f32)
    (A5 : Vec Ideal S2x32 .f32) (A6 : Vec Ideal S1x32 .f32) (A7 : Vec Ideal S32x1 .f32) (A8 : Vec Ideal S1x1 .f32)
    (r : Fin 1105920) :
    edgeFn A0 A1 A2 A3 A4 A5 A6 A7 A8 (ix2 r 0) =
      (∑ h : Fin 32, max ((((∑ k : Fin 8, A0 (ix2 r k) * A3 (ix2 k h)) + (∑ k : Fin 8, A1 (ix2 r k) * A4 (ix2 k h)))
        + (∑ k : Fin 2, A2 (ix2 r k) * A5 (ix2 k h))) + A6 (ix2 0 h)) 0 * A7 (ix2 h 0)) + A8 (ix2 0 0) := rfl

/-- The node pipeline's function: at each row and column, the rectified hidden layer of the two row arrays against
    their weight groups plus the bias row, against that column of the output weights, plus the output bias there. -/
def nodeFn : NodeFn := fun A0 A1 A2 A3 A4 A5 A6 i =>
  let r : Fin 106496 := i 0
  let q : Fin 8 := i 1
  (∑ h : Fin 32, max (((∑ k : Fin 8, A0 (ix2 r k) * A2 (ix2 k h)) + (∑ k : Fin 1, A1 (ix2 r k) * A3 (ix2 k h)))
    + A4 (ix2 0 h)) 0 * A5 (ix2 h q)) + A6 (ix2 0 q)

theorem nodeFn_apply (A0 : Vec Ideal S106496x8 .bf16) (A1 : Vec Ideal S106496x1 .bf16) (A2 : Vec Ideal S8x32 .f32)
    (A3 A4 : Vec Ideal S1x32 .f32) (A5 : Vec Ideal S32x8 .f32) (A6 : Vec Ideal S1x8 .f32)
    (r : Fin 106496) (q : Fin 8) :
    nodeFn A0 A1 A2 A3 A4 A5 A6 (ix2 r q) =
      (∑ h : Fin 32, max (((∑ k : Fin 8, A0 (ix2 r k) * A2 (ix2 k h)) + (∑ k : Fin 1, A1 (ix2 r k) * A3 (ix2 k h)))
        + A4 (ix2 0 h)) 0 * A5 (ix2 h q)) + A6 (ix2 0 q) := rfl

/-! ## The index rows -/

def lr (A : Args) : IVec S1100000 32 := row0 A.a1
def lc (A : Args) : IVec S1100000 32 := row1 A.a1
def ur (A : Args) : IVec S1100000 32 := row0 A.a2
def uc (A : Args) : IVec S1100000 32 := row1 A.a2

/-! ## The parameter slices: block b, layer i of each of the twelve parameter arrays -/

/-- eW1[0, 0] (% %33). -/
def P00_eW1 (A : Args) : FVec Ideal S26x32 .f32 :=
  shapeCast S26x32 (extractStridedSlice S1x1x26x32 ![0, 0, 0, 0] A.a5 slices_S2x3x26x32_S1x1x26x32_0_0_0_0) shapeCasts_S1x1x26x32_S26x32
/-- eb1[0, 0] (% %35). -/
def P00_eb1 (A : Args) : FVec Ideal S32 .f32 :=
  shapeCast S32 (extractStridedSlice S1x1x32 ![0, 0, 0] A.a6 slices_S2x3x32_S1x1x32_0_0_0) shapeCasts_S1x1x32_S32
/-- eW2[0, 0] (% %37). -/
def P00_eW2 (A : Args) : FVec Ideal S32x1 .f32 :=
  shapeCast S32x1 (extractStridedSlice S1x1x32x1 ![0, 0, 0, 0] A.a7 slices_S2x3x32x1_S1x1x32x1_0_0_0_0) shapeCasts_S1x1x32x1_S32x1
/-- eb2[0, 0] (% %39). -/
def P00_eb2 (A : Args) : FVec Ideal S1 .f32 :=
  shapeCast S1 (extractStridedSlice S1x1x1 ![0, 0, 0] A.a8 slices_S2x3x1_S1x1x1_0_0_0) shapeCasts_S1x1x1_S1
/-- nW1[0, 0] (% %41). -/
def P00_nW1 (A : Args) : FVec Ideal S17x32 .f32 :=
  shapeCast S17x32 (extractStridedSlice S1x1x17x32 ![0, 0, 0, 0] A.a9 slices_S2x3x17x32_S1x1x17x32_0_0_0_0) shapeCasts_S1x1x17x32_S17x32
/-- nb1[0, 0] (% %43). -/
def P00_nb1 (A : Args) : FVec Ideal S32 .f32 :=
  shapeCast S32 (extractStridedSlice S1x1x32 ![0, 0, 0] A.a10 slices_S2x3x32_S1x1x32_0_0_0) shapeCasts_S1x1x32_S32
/-- nW2[0, 0] (% %45). -/
def P00_nW2 (A : Args) : FVec Ideal S32x8 .f32 :=
  shapeCast S32x8 (extractStridedSlice S1x1x32x8 ![0, 0, 0, 0] A.a11 slices_S2x3x32x8_S1x1x32x8_0_0_0_0) shapeCasts_S1x1x32x8_S32x8
/-- nb2[0, 0] (% %47). -/
def P00_nb2 (A : Args) : FVec Ideal S8 .f32 :=
  shapeCast S8 (extractStridedSlice S1x1x8 ![0, 0, 0] A.a12 slices_S2x3x8_S1x1x8_0_0_0) shapeCasts_S1x1x8_S8
/-- gW1[0, 0] (% %49). -/
def P00_gW1 (A : Args) : FVec Ideal S17x32 .f32 :=
  shapeCast S17x32 (extractStridedSlice S1x1x17x32 ![0, 0, 0, 0] A.a13 slices_S2x3x17x32_S1x1x17x32_0_0_0_0) shapeCasts_S1x1x17x32_S17x32
/-- gb1[0, 0] (% %51). -/
def P00_gb1 (A : Args) : FVec Ideal S32 .f32 :=
  shapeCast S32 (extractStridedSlice S1x1x32 ![0, 0, 0] A.a14 slices_S2x3x32_S1x1x32_0_0_0) shapeCasts_S1x1x32_S32
/-- gW2[0, 0] (% %53). -/
def P00_gW2 (A : Args) : FVec Ideal S32x8 .f32 :=
  shapeCast S32x8 (extractStridedSlice S1x1x32x8 ![0, 0, 0, 0] A.a15 slices_S2x3x32x8_S1x1x32x8_0_0_0_0) shapeCasts_S1x1x32x8_S32x8
/-- gb2[0, 0] (% %55). -/
def P00_gb2 (A : Args) : FVec Ideal S8 .f32 :=
  shapeCast S8 (extractStridedSlice S1x1x8 ![0, 0, 0] A.a16 slices_S2x3x8_S1x1x8_0_0_0) shapeCasts_S1x1x8_S8
/-- eW1[1, 0] (% %57). -/
def P10_eW1 (A : Args) : FVec Ideal S26x32 .f32 :=
  shapeCast S26x32 (extractStridedSlice S1x1x26x32 ![1, 0, 0, 0] A.a5 slices_S2x3x26x32_S1x1x26x32_1_0_0_0) shapeCasts_S1x1x26x32_S26x32
/-- eb1[1, 0] (% %59). -/
def P10_eb1 (A : Args) : FVec Ideal S32 .f32 :=
  shapeCast S32 (extractStridedSlice S1x1x32 ![1, 0, 0] A.a6 slices_S2x3x32_S1x1x32_1_0_0) shapeCasts_S1x1x32_S32
/-- eW2[1, 0] (% %61). -/
def P10_eW2 (A : Args) : FVec Ideal S32x1 .f32 :=
  shapeCast S32x1 (extractStridedSlice S1x1x32x1 ![1, 0, 0, 0] A.a7 slices_S2x3x32x1_S1x1x32x1_1_0_0_0) shapeCasts_S1x1x32x1_S32x1
/-- eb2[1, 0] (% %63). -/
def P10_eb2 (A : Args) : FVec Ideal S1 .f32 :=
  shapeCast S1 (extractStridedSlice S1x1x1 ![1, 0, 0] A.a8 slices_S2x3x1_S1x1x1_1_0_0) shapeCasts_S1x1x1_S1
/-- nW1[1, 0] (% %65). -/
def P10_nW1 (A : Args) : FVec Ideal S17x32 .f32 :=
  shapeCast S17x32 (extractStridedSlice S1x1x17x32 ![1, 0, 0, 0] A.a9 slices_S2x3x17x32_S1x1x17x32_1_0_0_0) shapeCasts_S1x1x17x32_S17x32
/-- nb1[1, 0] (% %67). -/
def P10_nb1 (A : Args) : FVec Ideal S32 .f32 :=
  shapeCast S32 (extractStridedSlice S1x1x32 ![1, 0, 0] A.a10 slices_S2x3x32_S1x1x32_1_0_0) shapeCasts_S1x1x32_S32
/-- nW2[1, 0] (% %69). -/
def P10_nW2 (A : Args) : FVec Ideal S32x8 .f32 :=
  shapeCast S32x8 (extractStridedSlice S1x1x32x8 ![1, 0, 0, 0] A.a11 slices_S2x3x32x8_S1x1x32x8_1_0_0_0) shapeCasts_S1x1x32x8_S32x8
/-- nb2[1, 0] (% %71). -/
def P10_nb2 (A : Args) : FVec Ideal S8 .f32 :=
  shapeCast S8 (extractStridedSlice S1x1x8 ![1, 0, 0] A.a12 slices_S2x3x8_S1x1x8_1_0_0) shapeCasts_S1x1x8_S8
/-- gW1[1, 0] (% %73). -/
def P10_gW1 (A : Args) : FVec Ideal S17x32 .f32 :=
  shapeCast S17x32 (extractStridedSlice S1x1x17x32 ![1, 0, 0, 0] A.a13 slices_S2x3x17x32_S1x1x17x32_1_0_0_0) shapeCasts_S1x1x17x32_S17x32
/-- gb1[1, 0] (% %75). -/
def P10_gb1 (A : Args) : FVec Ideal S32 .f32 :=
  shapeCast S32 (extractStridedSlice S1x1x32 ![1, 0, 0] A.a14 slices_S2x3x32_S1x1x32_1_0_0) shapeCasts_S1x1x32_S32
/-- gW2[1, 0] (% %77). -/
def P10_gW2 (A : Args) : FVec Ideal S32x8 .f32 :=
  shapeCast S32x8 (extractStridedSlice S1x1x32x8 ![1, 0, 0, 0] A.a15 slices_S2x3x32x8_S1x1x32x8_1_0_0_0) shapeCasts_S1x1x32x8_S32x8
/-- gb2[1, 0] (% %79). -/
def P10_gb2 (A : Args) : FVec Ideal S8 .f32 :=
  shapeCast S8 (extractStridedSlice S1x1x8 ![1, 0, 0] A.a16 slices_S2x3x8_S1x1x8_1_0_0) shapeCasts_S1x1x8_S8
/-- eW1[0, 1] (% %180). -/
def P01_eW1 (A : Args) : FVec Ideal S26x32 .f32 :=
  shapeCast S26x32 (extractStridedSlice S1x1x26x32 ![0, 1, 0, 0] A.a5 slices_S2x3x26x32_S1x1x26x32_0_1_0_0) shapeCasts_S1x1x26x32_S26x32
/-- eb1[0, 1] (% %182). -/
def P01_eb1 (A : Args) : FVec Ideal S32 .f32 :=
  shapeCast S32 (extractStridedSlice S1x1x32 ![0, 1, 0] A.a6 slices_S2x3x32_S1x1x32_0_1_0) shapeCasts_S1x1x32_S32
/-- eW2[0, 1] (% %184). -/
def P01_eW2 (A : Args) : FVec Ideal S32x1 .f32 :=
  shapeCast S32x1 (extractStridedSlice S1x1x32x1 ![0, 1, 0, 0] A.a7 slices_S2x3x32x1_S1x1x32x1_0_1_0_0) shapeCasts_S1x1x32x1_S32x1
/-- eb2[0, 1] (% %186). -/
def P01_eb2 (A : Args) : FVec Ideal S1 .f32 :=
  shapeCast S1 (extractStridedSlice S1x1x1 ![0, 1, 0] A.a8 slices_S2x3x1_S1x1x1_0_1_0) shapeCasts_S1x1x1_S1
/-- nW1[0, 1] (% %188). -/
def P01_nW1 (A : Args) : FVec Ideal S17x32 .f32 :=
  shapeCast S17x32 (extractStridedSlice S1x1x17x32 ![0, 1, 0, 0] A.a9 slices_S2x3x17x32_S1x1x17x32_0_1_0_0) shapeCasts_S1x1x17x32_S17x32
/-- nb1[0, 1] (% %190). -/
def P01_nb1 (A : Args) : FVec Ideal S32 .f32 :=
  shapeCast S32 (extractStridedSlice S1x1x32 ![0, 1, 0] A.a10 slices_S2x3x32_S1x1x32_0_1_0) shapeCasts_S1x1x32_S32
/-- nW2[0, 1] (% %192). -/
def P01_nW2 (A : Args) : FVec Ideal S32x8 .f32 :=
  shapeCast S32x8 (extractStridedSlice S1x1x32x8 ![0, 1, 0, 0] A.a11 slices_S2x3x32x8_S1x1x32x8_0_1_0_0) shapeCasts_S1x1x32x8_S32x8
/-- nb2[0, 1] (% %194). -/
def P01_nb2 (A : Args) : FVec Ideal S8 .f32 :=
  shapeCast S8 (extractStridedSlice S1x1x8 ![0, 1, 0] A.a12 slices_S2x3x8_S1x1x8_0_1_0) shapeCasts_S1x1x8_S8
/-- gW1[0, 1] (% %196). -/
def P01_gW1 (A : Args) : FVec Ideal S17x32 .f32 :=
  shapeCast S17x32 (extractStridedSlice S1x1x17x32 ![0, 1, 0, 0] A.a13 slices_S2x3x17x32_S1x1x17x32_0_1_0_0) shapeCasts_S1x1x17x32_S17x32
/-- gb1[0, 1] (% %198). -/
def P01_gb1 (A : Args) : FVec Ideal S32 .f32 :=
  shapeCast S32 (extractStridedSlice S1x1x32 ![0, 1, 0] A.a14 slices_S2x3x32_S1x1x32_0_1_0) shapeCasts_S1x1x32_S32
/-- gW2[0, 1] (% %200). -/
def P01_gW2 (A : Args) : FVec Ideal S32x8 .f32 :=
  shapeCast S32x8 (extractStridedSlice S1x1x32x8 ![0, 1, 0, 0] A.a15 slices_S2x3x32x8_S1x1x32x8_0_1_0_0) shapeCasts_S1x1x32x8_S32x8
/-- gb2[0, 1] (% %202). -/
def P01_gb2 (A : Args) : FVec Ideal S8 .f32 :=
  shapeCast S8 (extractStridedSlice S1x1x8 ![0, 1, 0] A.a16 slices_S2x3x8_S1x1x8_0_1_0) shapeCasts_S1x1x8_S8
/-- eW1[1, 1] (% %204). -/
def P11_eW1 (A : Args) : FVec Ideal S26x32 .f32 :=
  shapeCast S26x32 (extractStridedSlice S1x1x26x32 ![1, 1, 0, 0] A.a5 slices_S2x3x26x32_S1x1x26x32_1_1_0_0) shapeCasts_S1x1x26x32_S26x32
/-- eb1[1, 1] (% %206). -/
def P11_eb1 (A : Args) : FVec Ideal S32 .f32 :=
  shapeCast S32 (extractStridedSlice S1x1x32 ![1, 1, 0] A.a6 slices_S2x3x32_S1x1x32_1_1_0) shapeCasts_S1x1x32_S32
/-- eW2[1, 1] (% %208). -/
def P11_eW2 (A : Args) : FVec Ideal S32x1 .f32 :=
  shapeCast S32x1 (extractStridedSlice S1x1x32x1 ![1, 1, 0, 0] A.a7 slices_S2x3x32x1_S1x1x32x1_1_1_0_0) shapeCasts_S1x1x32x1_S32x1
/-- eb2[1, 1] (% %210). -/
def P11_eb2 (A : Args) : FVec Ideal S1 .f32 :=
  shapeCast S1 (extractStridedSlice S1x1x1 ![1, 1, 0] A.a8 slices_S2x3x1_S1x1x1_1_1_0) shapeCasts_S1x1x1_S1
/-- nW1[1, 1] (% %212). -/
def P11_nW1 (A : Args) : FVec Ideal S17x32 .f32 :=
  shapeCast S17x32 (extractStridedSlice S1x1x17x32 ![1, 1, 0, 0] A.a9 slices_S2x3x17x32_S1x1x17x32_1_1_0_0) shapeCasts_S1x1x17x32_S17x32
/-- nb1[1, 1] (% %214). -/
def P11_nb1 (A : Args) : FVec Ideal S32 .f32 :=
  shapeCast S32 (extractStridedSlice S1x1x32 ![1, 1, 0] A.a10 slices_S2x3x32_S1x1x32_1_1_0) shapeCasts_S1x1x32_S32
/-- nW2[1, 1] (% %216). -/
def P11_nW2 (A : Args) : FVec Ideal S32x8 .f32 :=
  shapeCast S32x8 (extractStridedSlice S1x1x32x8 ![1, 1, 0, 0] A.a11 slices_S2x3x32x8_S1x1x32x8_1_1_0_0) shapeCasts_S1x1x32x8_S32x8
/-- nb2[1, 1] (% %218). -/
def P11_nb2 (A : Args) : FVec Ideal S8 .f32 :=
  shapeCast S8 (extractStridedSlice S1x1x8 ![1, 1, 0] A.a12 slices_S2x3x8_S1x1x8_1_1_0) shapeCasts_S1x1x8_S8
/-- gW1[1, 1] (% %220). -/
def P11_gW1 (A : Args) : FVec Ideal S17x32 .f32 :=
  shapeCast S17x32 (extractStridedSlice S1x1x17x32 ![1, 1, 0, 0] A.a13 slices_S2x3x17x32_S1x1x17x32_1_1_0_0) shapeCasts_S1x1x17x32_S17x32
/-- gb1[1, 1] (% %222). -/
def P11_gb1 (A : Args) : FVec Ideal S32 .f32 :=
  shapeCast S32 (extractStridedSlice S1x1x32 ![1, 1, 0] A.a14 slices_S2x3x32_S1x1x32_1_1_0) shapeCasts_S1x1x32_S32
/-- gW2[1, 1] (% %224). -/
def P11_gW2 (A : Args) : FVec Ideal S32x8 .f32 :=
  shapeCast S32x8 (extractStridedSlice S1x1x32x8 ![1, 1, 0, 0] A.a15 slices_S2x3x32x8_S1x1x32x8_1_1_0_0) shapeCasts_S1x1x32x8_S32x8
/-- gb2[1, 1] (% %226). -/
def P11_gb2 (A : Args) : FVec Ideal S8 .f32 :=
  shapeCast S8 (extractStridedSlice S1x1x8 ![1, 1, 0] A.a16 slices_S2x3x8_S1x1x8_1_1_0) shapeCasts_S1x1x8_S8
/-- eW1[0, 2] (% %327). -/
def P02_eW1 (A : Args) : FVec Ideal S26x32 .f32 :=
  shapeCast S26x32 (extractStridedSlice S1x1x26x32 ![0, 2, 0, 0] A.a5 slices_S2x3x26x32_S1x1x26x32_0_2_0_0) shapeCasts_S1x1x26x32_S26x32
/-- eb1[0, 2] (% %329). -/
def P02_eb1 (A : Args) : FVec Ideal S32 .f32 :=
  shapeCast S32 (extractStridedSlice S1x1x32 ![0, 2, 0] A.a6 slices_S2x3x32_S1x1x32_0_2_0) shapeCasts_S1x1x32_S32
/-- eW2[0, 2] (% %331). -/
def P02_eW2 (A : Args) : FVec Ideal S32x1 .f32 :=
  shapeCast S32x1 (extractStridedSlice S1x1x32x1 ![0, 2, 0, 0] A.a7 slices_S2x3x32x1_S1x1x32x1_0_2_0_0) shapeCasts_S1x1x32x1_S32x1
/-- eb2[0, 2] (% %333). -/
def P02_eb2 (A : Args) : FVec Ideal S1 .f32 :=
  shapeCast S1 (extractStridedSlice S1x1x1 ![0, 2, 0] A.a8 slices_S2x3x1_S1x1x1_0_2_0) shapeCasts_S1x1x1_S1
/-- nW1[0, 2] (% %335). -/
def P02_nW1 (A : Args) : FVec Ideal S17x32 .f32 :=
  shapeCast S17x32 (extractStridedSlice S1x1x17x32 ![0, 2, 0, 0] A.a9 slices_S2x3x17x32_S1x1x17x32_0_2_0_0) shapeCasts_S1x1x17x32_S17x32
/-- nb1[0, 2] (% %337). -/
def P02_nb1 (A : Args) : FVec Ideal S32 .f32 :=
  shapeCast S32 (extractStridedSlice S1x1x32 ![0, 2, 0] A.a10 slices_S2x3x32_S1x1x32_0_2_0) shapeCasts_S1x1x32_S32
/-- nW2[0, 2] (% %339). -/
def P02_nW2 (A : Args) : FVec Ideal S32x8 .f32 :=
  shapeCast S32x8 (extractStridedSlice S1x1x32x8 ![0, 2, 0, 0] A.a11 slices_S2x3x32x8_S1x1x32x8_0_2_0_0) shapeCasts_S1x1x32x8_S32x8
/-- nb2[0, 2] (% %341). -/
def P02_nb2 (A : Args) : FVec Ideal S8 .f32 :=
  shapeCast S8 (extractStridedSlice S1x1x8 ![0, 2, 0] A.a12 slices_S2x3x8_S1x1x8_0_2_0) shapeCasts_S1x1x8_S8
/-- gW1[0, 2] (% %343). -/
def P02_gW1 (A : Args) : FVec Ideal S17x32 .f32 :=
  shapeCast S17x32 (extractStridedSlice S1x1x17x32 ![0, 2, 0, 0] A.a13 slices_S2x3x17x32_S1x1x17x32_0_2_0_0) shapeCasts_S1x1x17x32_S17x32
/-- gb1[0, 2] (% %345). -/
def P02_gb1 (A : Args) : FVec Ideal S32 .f32 :=
  shapeCast S32 (extractStridedSlice S1x1x32 ![0, 2, 0] A.a14 slices_S2x3x32_S1x1x32_0_2_0) shapeCasts_S1x1x32_S32
/-- gW2[0, 2] (% %347). -/
def P02_gW2 (A : Args) : FVec Ideal S32x8 .f32 :=
  shapeCast S32x8 (extractStridedSlice S1x1x32x8 ![0, 2, 0, 0] A.a15 slices_S2x3x32x8_S1x1x32x8_0_2_0_0) shapeCasts_S1x1x32x8_S32x8
/-- gb2[0, 2] (% %349). -/
def P02_gb2 (A : Args) : FVec Ideal S8 .f32 :=
  shapeCast S8 (extractStridedSlice S1x1x8 ![0, 2, 0] A.a16 slices_S2x3x8_S1x1x8_0_2_0) shapeCasts_S1x1x8_S8
/-- eW1[1, 2] (% %351). -/
def P12_eW1 (A : Args) : FVec Ideal S26x32 .f32 :=
  shapeCast S26x32 (extractStridedSlice S1x1x26x32 ![1, 2, 0, 0] A.a5 slices_S2x3x26x32_S1x1x26x32_1_2_0_0) shapeCasts_S1x1x26x32_S26x32
/-- eb1[1, 2] (% %353). -/
def P12_eb1 (A : Args) : FVec Ideal S32 .f32 :=
  shapeCast S32 (extractStridedSlice S1x1x32 ![1, 2, 0] A.a6 slices_S2x3x32_S1x1x32_1_2_0) shapeCasts_S1x1x32_S32
/-- eW2[1, 2] (% %355). -/
def P12_eW2 (A : Args) : FVec Ideal S32x1 .f32 :=
  shapeCast S32x1 (extractStridedSlice S1x1x32x1 ![1, 2, 0, 0] A.a7 slices_S2x3x32x1_S1x1x32x1_1_2_0_0) shapeCasts_S1x1x32x1_S32x1
/-- eb2[1, 2] (% %357). -/
def P12_eb2 (A : Args) : FVec Ideal S1 .f32 :=
  shapeCast S1 (extractStridedSlice S1x1x1 ![1, 2, 0] A.a8 slices_S2x3x1_S1x1x1_1_2_0) shapeCasts_S1x1x1_S1
/-- nW1[1, 2] (% %359). -/
def P12_nW1 (A : Args) : FVec Ideal S17x32 .f32 :=
  shapeCast S17x32 (extractStridedSlice S1x1x17x32 ![1, 2, 0, 0] A.a9 slices_S2x3x17x32_S1x1x17x32_1_2_0_0) shapeCasts_S1x1x17x32_S17x32
/-- nb1[1, 2] (% %361). -/
def P12_nb1 (A : Args) : FVec Ideal S32 .f32 :=
  shapeCast S32 (extractStridedSlice S1x1x32 ![1, 2, 0] A.a10 slices_S2x3x32_S1x1x32_1_2_0) shapeCasts_S1x1x32_S32
/-- nW2[1, 2] (% %363). -/
def P12_nW2 (A : Args) : FVec Ideal S32x8 .f32 :=
  shapeCast S32x8 (extractStridedSlice S1x1x32x8 ![1, 2, 0, 0] A.a11 slices_S2x3x32x8_S1x1x32x8_1_2_0_0) shapeCasts_S1x1x32x8_S32x8
/-- nb2[1, 2] (% %365). -/
def P12_nb2 (A : Args) : FVec Ideal S8 .f32 :=
  shapeCast S8 (extractStridedSlice S1x1x8 ![1, 2, 0] A.a12 slices_S2x3x8_S1x1x8_1_2_0) shapeCasts_S1x1x8_S8
/-- gW1[1, 2] (% %367). -/
def P12_gW1 (A : Args) : FVec Ideal S17x32 .f32 :=
  shapeCast S17x32 (extractStridedSlice S1x1x17x32 ![1, 2, 0, 0] A.a13 slices_S2x3x17x32_S1x1x17x32_1_2_0_0) shapeCasts_S1x1x17x32_S17x32
/-- gb1[1, 2] (% %369). -/
def P12_gb1 (A : Args) : FVec Ideal S32 .f32 :=
  shapeCast S32 (extractStridedSlice S1x1x32 ![1, 2, 0] A.a14 slices_S2x3x32_S1x1x32_1_2_0) shapeCasts_S1x1x32_S32
/-- gW2[1, 2] (% %371). -/
def P12_gW2 (A : Args) : FVec Ideal S32x8 .f32 :=
  shapeCast S32x8 (extractStridedSlice S1x1x32x8 ![1, 2, 0, 0] A.a15 slices_S2x3x32x8_S1x1x32x8_1_2_0_0) shapeCasts_S1x1x32x8_S32x8
/-- gb2[1, 2] (% %373). -/
def P12_gb2 (A : Args) : FVec Ideal S8 .f32 :=
  shapeCast S8 (extractStridedSlice S1x1x8 ![1, 2, 0] A.a16 slices_S2x3x8_S1x1x8_1_2_0) shapeCasts_S1x1x8_S8

/-! ## The constants -/

/-- The initial global vector: zero (%29). -/
def g0 : FVec Ideal S1x8 .f32 := broadcastInDim S1x8 ![] bcast_S_S1x8 (constant S_ .f32 0x00000000#32)
/-- A zero column (%30, %31). -/
def zcol : FVec Ideal S1100000x1 .f32 := broadcastInDim S1100000x1 ![] bcast_S_S1100000x1 (constant S_ .f32 0x00000000#32)

/-! ### Layer 0 -/

/-- The lower block's edge input: the running edge column beside a zero column. -/
def lin0 (A : Args) : FVec Ideal S1100000x2 .f32 := concatenate S1100000x2 1 [⟨S1100000x1, A.a3⟩, ⟨S1100000x1, zcol⟩] concatenates_S1100000x1_S1100000x1_S1100000x2_d1
/-- The lower block's edge embedding. -/
def le1 (A : Args) : FVec Ideal S1100000x1 .f32 :=
  edgeK edgeFn (takeTerm A.a0 (lr A)) (takeTerm A.a0 (lc A)) (lin0 A) g0 (P00_eW1 A) (P00_eb1 A) (P00_eW2 A) (P00_eb2 A)
/-- Its mean over each node's incoming edges, in the short format. -/
def la1 (A : Args) : FVec Ideal S100000x1 .bf16 := aggK (le1 A) (lr A)
/-- The lower block's node embedding. -/
def ln1 (A : Args) : FVec Ideal S100000x8 .f32 :=
  nodeK nodeFn A.a0 (la1 A) g0 (P00_nW1 A) (P00_nb1 A) (P00_nW2 A) (P00_nb2 A)
/-- The global vector after the lower block. -/
def g1 (A : Args) : FVec Ideal S1x8 .f32 :=
  gK (ln1 A) (le1 A) g0 (P00_gW1 A) (P00_gb1 A) (P00_gW2 A) (P00_gb2 A)
/-- The upper block's edge input: the running edge column beside a zero column. -/
def uin0 (A : Args) : FVec Ideal S1100000x2 .f32 := concatenate S1100000x2 1 [⟨S1100000x1, A.a4⟩, ⟨S1100000x1, zcol⟩] concatenates_S1100000x1_S1100000x1_S1100000x2_d1
/-- The upper block's edge embedding, over the lower block's node embedding. -/
def ue1 (A : Args) : FVec Ideal S1100000x1 .f32 :=
  edgeK edgeFn (takeTerm (ln1 A) (ur A)) (takeTerm (ln1 A) (uc A)) (uin0 A) (g1 A) (P10_eW1 A) (P10_eb1 A) (P10_eW2 A) (P10_eb2 A)
def ua1 (A : Args) : FVec Ideal S100000x1 .bf16 := aggK (ue1 A) (ur A)
def un1 (A : Args) : FVec Ideal S100000x8 .f32 :=
  nodeK nodeFn (ln1 A) (ua1 A) (g1 A) (P10_nW1 A) (P10_nb1 A) (P10_nW2 A) (P10_nb2 A)
/-- The global vector after the upper block. -/
def g2 (A : Args) : FVec Ideal S1x8 .f32 :=
  gK (un1 A) (ue1 A) (g1 A) (P10_gW1 A) (P10_gb1 A) (P10_gW2 A) (P10_gb2 A)

/-! ### Layer 1 -/

/-- The lower block's edge input: the running edge column beside the original attributes. -/
def lin1 (A : Args) : FVec Ideal S1100000x2 .f32 := concatenate S1100000x2 1 [⟨S1100000x1, le1 A⟩, ⟨S1100000x1, A.a3⟩] concatenates_S1100000x1_S1100000x1_S1100000x2_d1
/-- The lower block's edge embedding. -/
def le2 (A : Args) : FVec Ideal S1100000x1 .f32 :=
  edgeK edgeFn (takeTerm A.a0 (lr A)) (takeTerm A.a0 (lc A)) (lin1 A) (g2 A) (P01_eW1 A) (P01_eb1 A) (P01_eW2 A) (P01_eb2 A)
/-- Its mean over each node's incoming edges, in the short format. -/
def la2 (A : Args) : FVec Ideal S100000x1 .bf16 := aggK (le2 A) (lr A)
/-- The lower block's node embedding. -/
def ln2 (A : Args) : FVec Ideal S100000x8 .f32 :=
  nodeK nodeFn A.a0 (la2 A) (g2 A) (P01_nW1 A) (P01_nb1 A) (P01_nW2 A) (P01_nb2 A)
/-- The global vector after the lower block. -/
def g3 (A : Args) : FVec Ideal S1x8 .f32 :=
  gK (ln2 A) (le2 A) (g2 A) (P01_gW1 A) (P01_gb1 A) (P01_gW2 A) (P01_gb2 A)
/-- The upper block's edge input: the running edge column beside a zero column. -/
def uin1 (A : Args) : FVec Ideal S1100000x2 .f32 := concatenate S1100000x2 1 [⟨S1100000x1, ue1 A⟩, ⟨S1100000x1, zcol⟩] concatenates_S1100000x1_S1100000x1_S1100000x2_d1
/-- The upper block's edge embedding, over the lower block's node embedding. -/
def ue2 (A : Args) : FVec Ideal S1100000x1 .f32 :=
  edgeK edgeFn (takeTerm (ln2 A) (ur A)) (takeTerm (ln2 A) (uc A)) (uin1 A) (g3 A) (P11_eW1 A) (P11_eb1 A) (P11_eW2 A) (P11_eb2 A)
def ua2 (A : Args) : FVec Ideal S100000x1 .bf16 := aggK (ue2 A) (ur A)
def un2 (A : Args) : FVec Ideal S100000x8 .f32 :=
  nodeK nodeFn (ln2 A) (ua2 A) (g3 A) (P11_nW1 A) (P11_nb1 A) (P11_nW2 A) (P11_nb2 A)
/-- The global vector after the upper block. -/
def g4 (A : Args) : FVec Ideal S1x8 .f32 :=
  gK (un2 A) (ue2 A) (g3 A) (P11_gW1 A) (P11_gb1 A) (P11_gW2 A) (P11_gb2 A)

/-! ### Layer 2 -/

/-- The lower block's edge input: the running edge column beside the original attributes. -/
def lin2 (A : Args) : FVec Ideal S1100000x2 .f32 := concatenate S1100000x2 1 [⟨S1100000x1, le2 A⟩, ⟨S1100000x1, A.a3⟩] concatenates_S1100000x1_S1100000x1_S1100000x2_d1
/-- The lower block's edge embedding. -/
def le3 (A : Args) : FVec Ideal S1100000x1 .f32 :=
  edgeK edgeFn (takeTerm A.a0 (lr A)) (takeTerm A.a0 (lc A)) (lin2 A) (g4 A) (P02_eW1 A) (P02_eb1 A) (P02_eW2 A) (P02_eb2 A)
/-- Its mean over each node's incoming edges, in the short format. -/
def la3 (A : Args) : FVec Ideal S100000x1 .bf16 := aggK (le3 A) (lr A)
/-- The lower block's node embedding. -/
def ln3 (A : Args) : FVec Ideal S100000x8 .f32 :=
  nodeK nodeFn A.a0 (la3 A) (g4 A) (P02_nW1 A) (P02_nb1 A) (P02_nW2 A) (P02_nb2 A)
/-- The global vector after the lower block. -/
def g5 (A : Args) : FVec Ideal S1x8 .f32 :=
  gK (ln3 A) (le3 A) (g4 A) (P02_gW1 A) (P02_gb1 A) (P02_gW2 A) (P02_gb2 A)
/-- The upper block's edge input: the running edge column beside a zero column. -/
def uin2 (A : Args) : FVec Ideal S1100000x2 .f32 := concatenate S1100000x2 1 [⟨S1100000x1, ue2 A⟩, ⟨S1100000x1, zcol⟩] concatenates_S1100000x1_S1100000x1_S1100000x2_d1
/-- The upper block's edge embedding, over the lower block's node embedding. -/
def ue3 (A : Args) : FVec Ideal S1100000x1 .f32 :=
  edgeK edgeFn (takeTerm (ln3 A) (ur A)) (takeTerm (ln3 A) (uc A)) (uin2 A) (g5 A) (P12_eW1 A) (P12_eb1 A) (P12_eW2 A) (P12_eb2 A)
def ua3 (A : Args) : FVec Ideal S100000x1 .bf16 := aggK (ue3 A) (ur A)
def un3 (A : Args) : FVec Ideal S100000x8 .f32 :=
  nodeK nodeFn (ln3 A) (ua3 A) (g5 A) (P12_nW1 A) (P12_nb1 A) (P12_nW2 A) (P12_nb2 A)
/-- The global vector after the upper block. -/
def g6 (A : Args) : FVec Ideal S1x8 .f32 :=
  gK (un3 A) (ue3 A) (g5 A) (P12_gW1 A) (P12_gb1 A) (P12_gW2 A) (P12_gb2 A)

/-! ## The result -/

def result (A : Args) : FVec Ideal S2200000 .f32 := finalK (lr A) (lc A) (ur A) (uc A) (le3 A) (ue3 A)

end Cert.Val.K

end
-- ==== Proof.Val.DagR.lean ====
import proofs.«426760_j80470507258346_3_alg».proof.Proof.Val.PreIdx
import proofs.«426760_j80470507258346_3_alg».proof.Proof.Val.EdgeDefs
import proofs.«426760_j80470507258346_3_alg».proof.Proof.Val.NodeDefs
import proofs.«426760_j80470507258346_3_alg».proof.Proof.Val.AggStep
import proofs.«426760_j80470507258346_3_alg».proof.Proof.Val.GlobStep
import proofs.«426760_j80470507258346_3_alg».proof.Proof.Val.FinalStep

noncomputable section

open scoped BigOperators

namespace Cert.Val.R

open Idealize.ShloMosaic Idealize.ShloMosaic.ValueIdx Cert.PreIdx Cert.Val
open Cert.ReferenceIdeal Cert.ReferenceIdeal.Facts₀ Cert.ReferenceIdeal.Facts

/-! # The reference's value as named stages

Each definition is one stage of the reference's computation as a function of the seventeen argument arrays, citing only
earlier stages: the four index rows, the 72 parameter slices, the two constants, and per layer and block the edge
embedding, its mean aggregate, the node embedding and the global vector; last the result. -/

/-- The seventeen argument arrays. -/
structure Args where
  a0 : FVec Ideal S100000x8 .f32
  a1 : IVec S2x1100000 32
  a2 : IVec S2x1100000 32
  a3 : FVec Ideal S1100000x1 .f32
  a4 : FVec Ideal S1100000x1 .f32
  a5 : FVec Ideal S2x3x26x32 .f32
  a6 : FVec Ideal S2x3x32 .f32
  a7 : FVec Ideal S2x3x32x1 .f32
  a8 : FVec Ideal S2x3x1 .f32
  a9 : FVec Ideal S2x3x17x32 .f32
  a10 : FVec Ideal S2x3x32 .f32
  a11 : FVec Ideal S2x3x32x8 .f32
  a12 : FVec Ideal S2x3x8 .f32
  a13 : FVec Ideal S2x3x17x32 .f32
  a14 : FVec Ideal S2x3x32 .f32
  a15 : FVec Ideal S2x3x32x8 .f32
  a16 : FVec Ideal S2x3x8 .f32

variable [Cert.ReferenceIdeal.Facts]

/-! ## The index rows -/

def lr (A : Args) : IVec S1100000 32 :=
  shapeCast S1100000 (extractStridedSlice S1x1100000 ![0, 0] A.a1 slices_S2x1100000_S1x1100000_0_0) shapeCasts_S1x1100000_S1100000
def lc (A : Args) : IVec S1100000 32 :=
  shapeCast S1100000 (extractStridedSlice S1x1100000 ![1, 0] A.a1 slices_S2x1100000_S1x1100000_1_0) shapeCasts_S1x1100000_S1100000
def ur (A : Args) : IVec S1100000 32 :=
  shapeCast S1100000 (extractStridedSlice S1x1100000 ![0, 0] A.a2 slices_S2x1100000_S1x1100000_0_0) shapeCasts_S1x1100000_S1100000
def uc (A : Args) : IVec S1100000 32 :=
  shapeCast S1100000 (extractStridedSlice S1x1100000 ![1, 0] A.a2 slices_S2x1100000_S1x1100000_1_0) shapeCasts_S1x1100000_S1100000

/-! ## The parameter slices: block b, layer i of each of the twelve parameter arrays -/

/-- eW1[0, 0] (% %12). -/
def P00_eW1 (A : Args) : FVec Ideal S26x32 .f32 :=
  shapeCast S26x32 (extractStridedSlice S1x1x26x32 ![0, 0, 0, 0] A.a5 slices_S2x3x26x32_S1x1x26x32_0_0_0_0) shapeCasts_S1x1x26x32_S26x32
/-- eb1[0, 0] (% %14). -/
def P00_eb1 (A : Args) : FVec Ideal S32 .f32 :=
  shapeCast S32 (extractStridedSlice S1x1x32 ![0, 0, 0] A.a6 slices_S2x3x32_S1x1x32_0_0_0) shapeCasts_S1x1x32_S32
/-- eW2[0, 0] (% %16). -/
def P00_eW2 (A : Args) : FVec Ideal S32x1 .f32 :=
  shapeCast S32x1 (extractStridedSlice S1x1x32x1 ![0, 0, 0, 0] A.a7 slices_S2x3x32x1_S1x1x32x1_0_0_0_0) shapeCasts_S1x1x32x1_S32x1
/-- eb2[0, 0] (% %18). -/
def P00_eb2 (A : Args) : FVec Ideal S1 .f32 :=
  shapeCast S1 (extractStridedSlice S1x1x1 ![0, 0, 0] A.a8 slices_S2x3x1_S1x1x1_0_0_0) shapeCasts_S1x1x1_S1
/-- nW1[0, 0] (% %20). -/
def P00_nW1 (A : Args) : FVec Ideal S17x32 .f32 :=
  shapeCast S17x32 (extractStridedSlice S1x1x17x32 ![0, 0, 0, 0] A.a9 slices_S2x3x17x32_S1x1x17x32_0_0_0_0) shapeCasts_S1x1x17x32_S17x32
/-- nb1[0, 0] (% %22). -/
def P00_nb1 (A : Args) : FVec Ideal S32 .f32 :=
  shapeCast S32 (extractStridedSlice S1x1x32 ![0, 0, 0] A.a10 slices_S2x3x32_S1x1x32_0_0_0) shapeCasts_S1x1x32_S32
/-- nW2[0, 0] (% %24). -/
def P00_nW2 (A : Args) : FVec Ideal S32x8 .f32 :=
  shapeCast S32x8 (extractStridedSlice S1x1x32x8 ![0, 0, 0, 0] A.a11 slices_S2x3x32x8_S1x1x32x8_0_0_0_0) shapeCasts_S1x1x32x8_S32x8
/-- nb2[0, 0] (% %26). -/
def P00_nb2 (A : Args) : FVec Ideal S8 .f32 :=
  shapeCast S8 (extractStridedSlice S1x1x8 ![0, 0, 0] A.a12 slices_S2x3x8_S1x1x8_0_0_0) shapeCasts_S1x1x8_S8
/-- gW1[0, 0] (% %28). -/
def P00_gW1 (A : Args) : FVec Ideal S17x32 .f32 :=
  shapeCast S17x32 (extractStridedSlice S1x1x17x32 ![0, 0, 0, 0] A.a13 slices_S2x3x17x32_S1x1x17x32_0_0_0_0) shapeCasts_S1x1x17x32_S17x32
/-- gb1[0, 0] (% %30). -/
def P00_gb1 (A : Args) : FVec Ideal S32 .f32 :=
  shapeCast S32 (extractStridedSlice S1x1x32 ![0, 0, 0] A.a14 slices_S2x3x32_S1x1x32_0_0_0) shapeCasts_S1x1x32_S32
/-- gW2[0, 0] (% %32). -/
def P00_gW2 (A : Args) : FVec Ideal S32x8 .f32 :=
  shapeCast S32x8 (extractStridedSlice S1x1x32x8 ![0, 0, 0, 0] A.a15 slices_S2x3x32x8_S1x1x32x8_0_0_0_0) shapeCasts_S1x1x32x8_S32x8
/-- gb2[0, 0] (% %34). -/
def P00_gb2 (A : Args) : FVec Ideal S8 .f32 :=
  shapeCast S8 (extractStridedSlice S1x1x8 ![0, 0, 0] A.a16 slices_S2x3x8_S1x1x8_0_0_0) shapeCasts_S1x1x8_S8
/-- eW1[1, 0] (% %36). -/
def P10_eW1 (A : Args) : FVec Ideal S26x32 .f32 :=
  shapeCast S26x32 (extractStridedSlice S1x1x26x32 ![1, 0, 0, 0] A.a5 slices_S2x3x26x32_S1x1x26x32_1_0_0_0) shapeCasts_S1x1x26x32_S26x32
/-- eb1[1, 0] (% %38). -/
def P10_eb1 (A : Args) : FVec Ideal S32 .f32 :=
  shapeCast S32 (extractStridedSlice S1x1x32 ![1, 0, 0] A.a6 slices_S2x3x32_S1x1x32_1_0_0) shapeCasts_S1x1x32_S32
/-- eW2[1, 0] (% %40). -/
def P10_eW2 (A : Args) : FVec Ideal S32x1 .f32 :=
  shapeCast S32x1 (extractStridedSlice S1x1x32x1 ![1, 0, 0, 0] A.a7 slices_S2x3x32x1_S1x1x32x1_1_0_0_0) shapeCasts_S1x1x32x1_S32x1
/-- eb2[1, 0] (% %42). -/
def P10_eb2 (A : Args) : FVec Ideal S1 .f32 :=
  shapeCast S1 (extractStridedSlice S1x1x1 ![1, 0, 0] A.a8 slices_S2x3x1_S1x1x1_1_0_0) shapeCasts_S1x1x1_S1
/-- nW1[1, 0] (% %44). -/
def P10_nW1 (A : Args) : FVec Ideal S17x32 .f32 :=
  shapeCast S17x32 (extractStridedSlice S1x1x17x32 ![1, 0, 0, 0] A.a9 slices_S2x3x17x32_S1x1x17x32_1_0_0_0) shapeCasts_S1x1x17x32_S17x32
/-- nb1[1, 0] (% %46). -/
def P10_nb1 (A : Args) : FVec Ideal S32 .f32 :=
  shapeCast S32 (extractStridedSlice S1x1x32 ![1, 0, 0] A.a10 slices_S2x3x32_S1x1x32_1_0_0) shapeCasts_S1x1x32_S32
/-- nW2[1, 0] (% %48). -/
def P10_nW2 (A : Args) : FVec Ideal S32x8 .f32 :=
  shapeCast S32x8 (extractStridedSlice S1x1x32x8 ![1, 0, 0, 0] A.a11 slices_S2x3x32x8_S1x1x32x8_1_0_0_0) shapeCasts_S1x1x32x8_S32x8
/-- nb2[1, 0] (% %50). -/
def P10_nb2 (A : Args) : FVec Ideal S8 .f32 :=
  shapeCast S8 (extractStridedSlice S1x1x8 ![1, 0, 0] A.a12 slices_S2x3x8_S1x1x8_1_0_0) shapeCasts_S1x1x8_S8
/-- gW1[1, 0] (% %52). -/
def P10_gW1 (A : Args) : FVec Ideal S17x32 .f32 :=
  shapeCast S17x32 (extractStridedSlice S1x1x17x32 ![1, 0, 0, 0] A.a13 slices_S2x3x17x32_S1x1x17x32_1_0_0_0) shapeCasts_S1x1x17x32_S17x32
/-- gb1[1, 0] (% %54). -/
def P10_gb1 (A : Args) : FVec Ideal S32 .f32 :=
  shapeCast S32 (extractStridedSlice S1x1x32 ![1, 0, 0] A.a14 slices_S2x3x32_S1x1x32_1_0_0) shapeCasts_S1x1x32_S32
/-- gW2[1, 0] (% %56). -/
def P10_gW2 (A : Args) : FVec Ideal S32x8 .f32 :=
  shapeCast S32x8 (extractStridedSlice S1x1x32x8 ![1, 0, 0, 0] A.a15 slices_S2x3x32x8_S1x1x32x8_1_0_0_0) shapeCasts_S1x1x32x8_S32x8
/-- gb2[1, 0] (% %58). -/
def P10_gb2 (A : Args) : FVec Ideal S8 .f32 :=
  shapeCast S8 (extractStridedSlice S1x1x8 ![1, 0, 0] A.a16 slices_S2x3x8_S1x1x8_1_0_0) shapeCasts_S1x1x8_S8
/-- eW1[0, 1] (% %186). -/
def P01_eW1 (A : Args) : FVec Ideal S26x32 .f32 :=
  shapeCast S26x32 (extractStridedSlice S1x1x26x32 ![0, 1, 0, 0] A.a5 slices_S2x3x26x32_S1x1x26x32_0_1_0_0) shapeCasts_S1x1x26x32_S26x32
/-- eb1[0, 1] (% %188). -/
def P01_eb1 (A : Args) : FVec Ideal S32 .f32 :=
  shapeCast S32 (extractStridedSlice S1x1x32 ![0, 1, 0] A.a6 slices_S2x3x32_S1x1x32_0_1_0) shapeCasts_S1x1x32_S32
/-- eW2[0, 1] (% %190). -/
def P01_eW2 (A : Args) : FVec Ideal S32x1 .f32 :=
  shapeCast S32x1 (extractStridedSlice S1x1x32x1 ![0, 1, 0, 0] A.a7 slices_S2x3x32x1_S1x1x32x1_0_1_0_0) shapeCasts_S1x1x32x1_S32x1
/-- eb2[0, 1] (% %192). -/
def P01_eb2 (A : Args) : FVec Ideal S1 .f32 :=
  shapeCast S1 (extractStridedSlice S1x1x1 ![0, 1, 0] A.a8 slices_S2x3x1_S1x1x1_0_1_0) shapeCasts_S1x1x1_S1
/-- nW1[0, 1] (% %194). -/
def P01_nW1 (A : Args) : FVec Ideal S17x32 .f32 :=
  shapeCast S17x32 (extractStridedSlice S1x1x17x32 ![0, 1, 0, 0] A.a9 slices_S2x3x17x32_S1x1x17x32_0_1_0_0) shapeCasts_S1x1x17x32_S17x32
/-- nb1[0, 1] (% %196). -/
def P01_nb1 (A : Args) : FVec Ideal S32 .f32 :=
  shapeCast S32 (extractStridedSlice S1x1x32 ![0, 1, 0] A.a10 slices_S2x3x32_S1x1x32_0_1_0) shapeCasts_S1x1x32_S32
/-- nW2[0, 1] (% %198). -/
def P01_nW2 (A : Args) : FVec Ideal S32x8 .f32 :=
  shapeCast S32x8 (extractStridedSlice S1x1x32x8 ![0, 1, 0, 0] A.a11 slices_S2x3x32x8_S1x1x32x8_0_1_0_0) shapeCasts_S1x1x32x8_S32x8
/-- nb2[0, 1] (% %200). -/
def P01_nb2 (A : Args) : FVec Ideal S8 .f32 :=
  shapeCast S8 (extractStridedSlice S1x1x8 ![0, 1, 0] A.a12 slices_S2x3x8_S1x1x8_0_1_0) shapeCasts_S1x1x8_S8
/-- gW1[0, 1] (% %202). -/
def P01_gW1 (A : Args) : FVec Ideal S17x32 .f32 :=
  shapeCast S17x32 (extractStridedSlice S1x1x17x32 ![0, 1, 0, 0] A.a13 slices_S2x3x17x32_S1x1x17x32_0_1_0_0) shapeCasts_S1x1x17x32_S17x32
/-- gb1[0, 1] (% %204). -/
def P01_gb1 (A : Args) : FVec Ideal S32 .f32 :=
  shapeCast S32 (extractStridedSlice S1x1x32 ![0, 1, 0] A.a14 slices_S2x3x32_S1x1x32_0_1_0) shapeCasts_S1x1x32_S32
/-- gW2[0, 1] (% %206). -/
def P01_gW2 (A : Args) : FVec Ideal S32x8 .f32 :=
  shapeCast S32x8 (extractStridedSlice S1x1x32x8 ![0, 1, 0, 0] A.a15 slices_S2x3x32x8_S1x1x32x8_0_1_0_0) shapeCasts_S1x1x32x8_S32x8
/-- gb2[0, 1] (% %208). -/
def P01_gb2 (A : Args) : FVec Ideal S8 .f32 :=
  shapeCast S8 (extractStridedSlice S1x1x8 ![0, 1, 0] A.a16 slices_S2x3x8_S1x1x8_0_1_0) shapeCasts_S1x1x8_S8
/-- eW1[1, 1] (% %210). -/
def P11_eW1 (A : Args) : FVec Ideal S26x32 .f32 :=
  shapeCast S26x32 (extractStridedSlice S1x1x26x32 ![1, 1, 0, 0] A.a5 slices_S2x3x26x32_S1x1x26x32_1_1_0_0) shapeCasts_S1x1x26x32_S26x32
/-- eb1[1, 1] (% %212). -/
def P11_eb1 (A : Args) : FVec Ideal S32 .f32 :=
  shapeCast S32 (extractStridedSlice S1x1x32 ![1, 1, 0] A.a6 slices_S2x3x32_S1x1x32_1_1_0) shapeCasts_S1x1x32_S32
/-- eW2[1, 1] (% %214). -/
def P11_eW2 (A : Args) : FVec Ideal S32x1 .f32 :=
  shapeCast S32x1 (extractStridedSlice S1x1x32x1 ![1, 1, 0, 0] A.a7 slices_S2x3x32x1_S1x1x32x1_1_1_0_0) shapeCasts_S1x1x32x1_S32x1
/-- eb2[1, 1] (% %216). -/
def P11_eb2 (A : Args) : FVec Ideal S1 .f32 :=
  shapeCast S1 (extractStridedSlice S1x1x1 ![1, 1, 0] A.a8 slices_S2x3x1_S1x1x1_1_1_0) shapeCasts_S1x1x1_S1
/-- nW1[1, 1] (% %218). -/
def P11_nW1 (A : Args) : FVec Ideal S17x32 .f32 :=
  shapeCast S17x32 (extractStridedSlice S1x1x17x32 ![1, 1, 0, 0] A.a9 slices_S2x3x17x32_S1x1x17x32_1_1_0_0) shapeCasts_S1x1x17x32_S17x32
/-- nb1[1, 1] (% %220). -/
def P11_nb1 (A : Args) : FVec Ideal S32 .f32 :=
  shapeCast S32 (extractStridedSlice S1x1x32 ![1, 1, 0] A.a10 slices_S2x3x32_S1x1x32_1_1_0) shapeCasts_S1x1x32_S32
/-- nW2[1, 1] (% %222). -/
def P11_nW2 (A : Args) : FVec Ideal S32x8 .f32 :=
  shapeCast S32x8 (extractStridedSlice S1x1x32x8 ![1, 1, 0, 0] A.a11 slices_S2x3x32x8_S1x1x32x8_1_1_0_0) shapeCasts_S1x1x32x8_S32x8
/-- nb2[1, 1] (% %224). -/
def P11_nb2 (A : Args) : FVec Ideal S8 .f32 :=
  shapeCast S8 (extractStridedSlice S1x1x8 ![1, 1, 0] A.a12 slices_S2x3x8_S1x1x8_1_1_0) shapeCasts_S1x1x8_S8
/-- gW1[1, 1] (% %226). -/
def P11_gW1 (A : Args) : FVec Ideal S17x32 .f32 :=
  shapeCast S17x32 (extractStridedSlice S1x1x17x32 ![1, 1, 0, 0] A.a13 slices_S2x3x17x32_S1x1x17x32_1_1_0_0) shapeCasts_S1x1x17x32_S17x32
/-- gb1[1, 1] (% %228). -/
def P11_gb1 (A : Args) : FVec Ideal S32 .f32 :=
  shapeCast S32 (extractStridedSlice S1x1x32 ![1, 1, 0] A.a14 slices_S2x3x32_S1x1x32_1_1_0) shapeCasts_S1x1x32_S32
/-- gW2[1, 1] (% %230). -/
def P11_gW2 (A : Args) : FVec Ideal S32x8 .f32 :=
  shapeCast S32x8 (extractStridedSlice S1x1x32x8 ![1, 1, 0, 0] A.a15 slices_S2x3x32x8_S1x1x32x8_1_1_0_0) shapeCasts_S1x1x32x8_S32x8
/-- gb2[1, 1] (% %232). -/
def P11_gb2 (A : Args) : FVec Ideal S8 .f32 :=
  shapeCast S8 (extractStridedSlice S1x1x8 ![1, 1, 0] A.a16 slices_S2x3x8_S1x1x8_1_1_0) shapeCasts_S1x1x8_S8
/-- eW1[0, 2] (% %360). -/
def P02_eW1 (A : Args) : FVec Ideal S26x32 .f32 :=
  shapeCast S26x32 (extractStridedSlice S1x1x26x32 ![0, 2, 0, 0] A.a5 slices_S2x3x26x32_S1x1x26x32_0_2_0_0) shapeCasts_S1x1x26x32_S26x32
/-- eb1[0, 2] (% %362). -/
def P02_eb1 (A : Args) : FVec Ideal S32 .f32 :=
  shapeCast S32 (extractStridedSlice S1x1x32 ![0, 2, 0] A.a6 slices_S2x3x32_S1x1x32_0_2_0) shapeCasts_S1x1x32_S32
/-- eW2[0, 2] (% %364). -/
def P02_eW2 (A : Args) : FVec Ideal S32x1 .f32 :=
  shapeCast S32x1 (extractStridedSlice S1x1x32x1 ![0, 2, 0, 0] A.a7 slices_S2x3x32x1_S1x1x32x1_0_2_0_0) shapeCasts_S1x1x32x1_S32x1
/-- eb2[0, 2] (% %366). -/
def P02_eb2 (A : Args) : FVec Ideal S1 .f32 :=
  shapeCast S1 (extractStridedSlice S1x1x1 ![0, 2, 0] A.a8 slices_S2x3x1_S1x1x1_0_2_0) shapeCasts_S1x1x1_S1
/-- nW1[0, 2] (% %368). -/
def P02_nW1 (A : Args) : FVec Ideal S17x32 .f32 :=
  shapeCast S17x32 (extractStridedSlice S1x1x17x32 ![0, 2, 0, 0] A.a9 slices_S2x3x17x32_S1x1x17x32_0_2_0_0) shapeCasts_S1x1x17x32_S17x32
/-- nb1[0, 2] (% %370). -/
def P02_nb1 (A : Args) : FVec Ideal S32 .f32 :=
  shapeCast S32 (extractStridedSlice S1x1x32 ![0, 2, 0] A.a10 slices_S2x3x32_S1x1x32_0_2_0) shapeCasts_S1x1x32_S32
/-- nW2[0, 2] (% %372). -/
def P02_nW2 (A : Args) : FVec Ideal S32x8 .f32 :=
  shapeCast S32x8 (extractStridedSlice S1x1x32x8 ![0, 2, 0, 0] A.a11 slices_S2x3x32x8_S1x1x32x8_0_2_0_0) shapeCasts_S1x1x32x8_S32x8
/-- nb2[0, 2] (% %374). -/
def P02_nb2 (A : Args) : FVec Ideal S8 .f32 :=
  shapeCast S8 (extractStridedSlice S1x1x8 ![0, 2, 0] A.a12 slices_S2x3x8_S1x1x8_0_2_0) shapeCasts_S1x1x8_S8
/-- gW1[0, 2] (% %376). -/
def P02_gW1 (A : Args) : FVec Ideal S17x32 .f32 :=
  shapeCast S17x32 (extractStridedSlice S1x1x17x32 ![0, 2, 0, 0] A.a13 slices_S2x3x17x32_S1x1x17x32_0_2_0_0) shapeCasts_S1x1x17x32_S17x32
/-- gb1[0, 2] (% %378). -/
def P02_gb1 (A : Args) : FVec Ideal S32 .f32 :=
  shapeCast S32 (extractStridedSlice S1x1x32 ![0, 2, 0] A.a14 slices_S2x3x32_S1x1x32_0_2_0) shapeCasts_S1x1x32_S32
/-- gW2[0, 2] (% %380). -/
def P02_gW2 (A : Args) : FVec Ideal S32x8 .f32 :=
  shapeCast S32x8 (extractStridedSlice S1x1x32x8 ![0, 2, 0, 0] A.a15 slices_S2x3x32x8_S1x1x32x8_0_2_0_0) shapeCasts_S1x1x32x8_S32x8
/-- gb2[0, 2] (% %382). -/
def P02_gb2 (A : Args) : FVec Ideal S8 .f32 :=
  shapeCast S8 (extractStridedSlice S1x1x8 ![0, 2, 0] A.a16 slices_S2x3x8_S1x1x8_0_2_0) shapeCasts_S1x1x8_S8
/-- eW1[1, 2] (% %384). -/
def P12_eW1 (A : Args) : FVec Ideal S26x32 .f32 :=
  shapeCast S26x32 (extractStridedSlice S1x1x26x32 ![1, 2, 0, 0] A.a5 slices_S2x3x26x32_S1x1x26x32_1_2_0_0) shapeCasts_S1x1x26x32_S26x32
/-- eb1[1, 2] (% %386). -/
def P12_eb1 (A : Args) : FVec Ideal S32 .f32 :=
  shapeCast S32 (extractStridedSlice S1x1x32 ![1, 2, 0] A.a6 slices_S2x3x32_S1x1x32_1_2_0) shapeCasts_S1x1x32_S32
/-- eW2[1, 2] (% %388). -/
def P12_eW2 (A : Args) : FVec Ideal S32x1 .f32 :=
  shapeCast S32x1 (extractStridedSlice S1x1x32x1 ![1, 2, 0, 0] A.a7 slices_S2x3x32x1_S1x1x32x1_1_2_0_0) shapeCasts_S1x1x32x1_S32x1
/-- eb2[1, 2] (% %390). -/
def P12_eb2 (A : Args) : FVec Ideal S1 .f32 :=
  shapeCast S1 (extractStridedSlice S1x1x1 ![1, 2, 0] A.a8 slices_S2x3x1_S1x1x1_1_2_0) shapeCasts_S1x1x1_S1
/-- nW1[1, 2] (% %392). -/
def P12_nW1 (A : Args) : FVec Ideal S17x32 .f32 :=
  shapeCast S17x32 (extractStridedSlice S1x1x17x32 ![1, 2, 0, 0] A.a9 slices_S2x3x17x32_S1x1x17x32_1_2_0_0) shapeCasts_S1x1x17x32_S17x32
/-- nb1[1, 2] (% %394). -/
def P12_nb1 (A : Args) : FVec Ideal S32 .f32 :=
  shapeCast S32 (extractStridedSlice S1x1x32 ![1, 2, 0] A.a10 slices_S2x3x32_S1x1x32_1_2_0) shapeCasts_S1x1x32_S32
/-- nW2[1, 2] (% %396). -/
def P12_nW2 (A : Args) : FVec Ideal S32x8 .f32 :=
  shapeCast S32x8 (extractStridedSlice S1x1x32x8 ![1, 2, 0, 0] A.a11 slices_S2x3x32x8_S1x1x32x8_1_2_0_0) shapeCasts_S1x1x32x8_S32x8
/-- nb2[1, 2] (% %398). -/
def P12_nb2 (A : Args) : FVec Ideal S8 .f32 :=
  shapeCast S8 (extractStridedSlice S1x1x8 ![1, 2, 0] A.a12 slices_S2x3x8_S1x1x8_1_2_0) shapeCasts_S1x1x8_S8
/-- gW1[1, 2] (% %400). -/
def P12_gW1 (A : Args) : FVec Ideal S17x32 .f32 :=
  shapeCast S17x32 (extractStridedSlice S1x1x17x32 ![1, 2, 0, 0] A.a13 slices_S2x3x17x32_S1x1x17x32_1_2_0_0) shapeCasts_S1x1x17x32_S17x32
/-- gb1[1, 2] (% %402). -/
def P12_gb1 (A : Args) : FVec Ideal S32 .f32 :=
  shapeCast S32 (extractStridedSlice S1x1x32 ![1, 2, 0] A.a14 slices_S2x3x32_S1x1x32_1_2_0) shapeCasts_S1x1x32_S32
/-- gW2[1, 2] (% %404). -/
def P12_gW2 (A : Args) : FVec Ideal S32x8 .f32 :=
  shapeCast S32x8 (extractStridedSlice S1x1x32x8 ![1, 2, 0, 0] A.a15 slices_S2x3x32x8_S1x1x32x8_1_2_0_0) shapeCasts_S1x1x32x8_S32x8
/-- gb2[1, 2] (% %406). -/
def P12_gb2 (A : Args) : FVec Ideal S8 .f32 :=
  shapeCast S8 (extractStridedSlice S1x1x8 ![1, 2, 0] A.a16 slices_S2x3x8_S1x1x8_1_2_0) shapeCasts_S1x1x8_S8

/-! ## The constants -/

/-- The initial global vector: zero (%8). -/
def g0 : FVec Ideal S1x8 .f32 := broadcastInDim S1x8 ![] bcast_S_S1x8 (constant S_ .f32 0x00000000#32)
/-- A zero column (%9, %10). -/
def zcol : FVec Ideal S1100000x1 .f32 := broadcastInDim S1100000x1 ![] bcast_S_S1100000x1 (constant S_ .f32 0x00000000#32)

/-! ### Layer 0 -/

/-- The lower block's edge input: the running edge column beside a zero column. -/
def lin0 (A : Args) : FVec Ideal S1100000x2 .f32 := concatenate S1100000x2 1 [⟨S1100000x1, A.a3⟩, ⟨S1100000x1, zcol⟩] concatenates_S1100000x1_S1100000x1_S1100000x2_d1
/-- The lower block's edge embedding. -/
def le1 (A : Args) : FVec Ideal S1100000x1 .f32 :=
  edgeR (refGather A.a0 (lr A)) (refGather A.a0 (lc A)) (lin0 A) g0 (P00_eW1 A) (P00_eb1 A) (P00_eW2 A) (P00_eb2 A)
/-- Its mean over each node's incoming edges. -/
def la1 (A : Args) : FVec Ideal S100000x1 .f32 := aggR (le1 A) (lr A)
/-- The lower block's node embedding. -/
def ln1 (A : Args) : FVec Ideal S100000x8 .f32 :=
  nodeR A.a0 (la1 A) g0 (P00_nW1 A) (P00_nb1 A) (P00_nW2 A) (P00_nb2 A)
/-- The global vector after the lower block. -/
def g1 (A : Args) : FVec Ideal S1x8 .f32 :=
  gR (ln1 A) (le1 A) g0 (P00_gW1 A) (P00_gb1 A) (P00_gW2 A) (P00_gb2 A)
/-- The upper block's edge input: the running edge column beside a zero column. -/
def uin0 (A : Args) : FVec Ideal S1100000x2 .f32 := concatenate S1100000x2 1 [⟨S1100000x1, A.a4⟩, ⟨S1100000x1, zcol⟩] concatenates_S1100000x1_S1100000x1_S1100000x2_d1
/-- The upper block's edge embedding, over the lower block's node embedding. -/
def ue1 (A : Args) : FVec Ideal S1100000x1 .f32 :=
  edgeR (refGather (ln1 A) (ur A)) (refGather (ln1 A) (uc A)) (uin0 A) (g1 A) (P10_eW1 A) (P10_eb1 A) (P10_eW2 A) (P10_eb2 A)
def ua1 (A : Args) : FVec Ideal S100000x1 .f32 := aggR (ue1 A) (ur A)
def un1 (A : Args) : FVec Ideal S100000x8 .f32 :=
  nodeR (ln1 A) (ua1 A) (g1 A) (P10_nW1 A) (P10_nb1 A) (P10_nW2 A) (P10_nb2 A)
/-- The global vector after the upper block. -/
def g2 (A : Args) : FVec Ideal S1x8 .f32 :=
  gR (un1 A) (ue1 A) (g1 A) (P10_gW1 A) (P10_gb1 A) (P10_gW2 A) (P10_gb2 A)

/-! ### Layer 1 -/

/-- The lower block's edge input: the running edge column beside the original attributes. -/
def lin1 (A : Args) : FVec Ideal S1100000x2 .f32 := concatenate S1100000x2 1 [⟨S1100000x1, le1 A⟩, ⟨S1100000x1, A.a3⟩] concatenates_S1100000x1_S1100000x1_S1100000x2_d1
/-- The lower block's edge embedding. -/
def le2 (A : Args) : FVec Ideal S1100000x1 .f32 :=
  edgeR (refGather A.a0 (lr A)) (refGather A.a0 (lc A)) (lin1 A) (g2 A) (P01_eW1 A) (P01_eb1 A) (P01_eW2 A) (P01_eb2 A)
/-- Its mean over each node's incoming edges. -/
def la2 (A : Args) : FVec Ideal S100000x1 .f32 := aggR (le2 A) (lr A)
/-- The lower block's node embedding. -/
def ln2 (A : Args) : FVec Ideal S100000x8 .f32 :=
  nodeR A.a0 (la2 A) (g2 A) (P01_nW1 A) (P01_nb1 A) (P01_nW2 A) (P01_nb2 A)
/-- The global vector after the lower block. -/
def g3 (A : Args) : FVec Ideal S1x8 .f32 :=
  gR (ln2 A) (le2 A) (g2 A) (P01_gW1 A) (P01_gb1 A) (P01_gW2 A) (P01_gb2 A)
/-- The upper block's edge input: the running edge column beside a zero column. -/
def uin1 (A : Args) : FVec Ideal S1100000x2 .f32 := concatenate S1100000x2 1 [⟨S1100000x1, ue1 A⟩, ⟨S1100000x1, zcol⟩] concatenates_S1100000x1_S1100000x1_S1100000x2_d1
/-- The upper block's edge embedding, over the lower block's node embedding. -/
def ue2 (A : Args) : FVec Ideal S1100000x1 .f32 :=
  edgeR (refGather (ln2 A) (ur A)) (refGather (ln2 A) (uc A)) (uin1 A) (g3 A) (P11_eW1 A) (P11_eb1 A) (P11_eW2 A) (P11_eb2 A)
def ua2 (A : Args) : FVec Ideal S100000x1 .f32 := aggR (ue2 A) (ur A)
def un2 (A : Args) : FVec Ideal S100000x8 .f32 :=
  nodeR (ln2 A) (ua2 A) (g3 A) (P11_nW1 A) (P11_nb1 A) (P11_nW2 A) (P11_nb2 A)
/-- The global vector after the upper block. -/
def g4 (A : Args) : FVec Ideal S1x8 .f32 :=
  gR (un2 A) (ue2 A) (g3 A) (P11_gW1 A) (P11_gb1 A) (P11_gW2 A) (P11_gb2 A)

/-! ### Layer 2 -/

/-- The lower block's edge input: the running edge column beside the original attributes. -/
def lin2 (A : Args) : FVec Ideal S1100000x2 .f32 := concatenate S1100000x2 1 [⟨S1100000x1, le2 A⟩, ⟨S1100000x1, A.a3⟩] concatenates_S1100000x1_S1100000x1_S1100000x2_d1
/-- The lower block's edge embedding. -/
def le3 (A : Args) : FVec Ideal S1100000x1 .f32 :=
  edgeR (refGather A.a0 (lr A)) (refGather A.a0 (lc A)) (lin2 A) (g4 A) (P02_eW1 A) (P02_eb1 A) (P02_eW2 A) (P02_eb2 A)
/-- Its mean over each node's incoming edges. -/
def la3 (A : Args) : FVec Ideal S100000x1 .f32 := aggR (le3 A) (lr A)
/-- The lower block's node embedding. -/
def ln3 (A : Args) : FVec Ideal S100000x8 .f32 :=
  nodeR A.a0 (la3 A) (g4 A) (P02_nW1 A) (P02_nb1 A) (P02_nW2 A) (P02_nb2 A)
/-- The global vector after the lower block. -/
def g5 (A : Args) : FVec Ideal S1x8 .f32 :=
  gR (ln3 A) (le3 A) (g4 A) (P02_gW1 A) (P02_gb1 A) (P02_gW2 A) (P02_gb2 A)
/-- The upper block's edge input: the running edge column beside a zero column. -/
def uin2 (A : Args) : FVec Ideal S1100000x2 .f32 := concatenate S1100000x2 1 [⟨S1100000x1, ue2 A⟩, ⟨S1100000x1, zcol⟩] concatenates_S1100000x1_S1100000x1_S1100000x2_d1
/-- The upper block's edge embedding, over the lower block's node embedding. -/
def ue3 (A : Args) : FVec Ideal S1100000x1 .f32 :=
  edgeR (refGather (ln3 A) (ur A)) (refGather (ln3 A) (uc A)) (uin2 A) (g5 A) (P12_eW1 A) (P12_eb1 A) (P12_eW2 A) (P12_eb2 A)
def ua3 (A : Args) : FVec Ideal S100000x1 .f32 := aggR (ue3 A) (ur A)
def un3 (A : Args) : FVec Ideal S100000x8 .f32 :=
  nodeR (ln3 A) (ua3 A) (g5 A) (P12_nW1 A) (P12_nb1 A) (P12_nW2 A) (P12_nb2 A)
/-- The global vector after the upper block. -/
def g6 (A : Args) : FVec Ideal S1x8 .f32 :=
  gR (un3 A) (ue3 A) (g5 A) (P12_gW1 A) (P12_gb1 A) (P12_gW2 A) (P12_gb2 A)

/-! ## The result -/

def result (A : Args) : FVec Ideal S2200000 .f32 := finalR (lr A) (lc A) (ur A) (uc A) (le3 A) (ue3 A)

end Cert.Val.R

end
-- ==== Proof.Val.ArgsOf.lean ====
import proofs.«426760_j80470507258346_3_alg».proof.Proof.Val.DagK
import proofs.«426760_j80470507258346_3_alg».proof.Proof.Val.DagR

/-! The seventeen argument arrays of each program, read off a launch memory on a core. -/

noncomputable section

namespace Cert.Val

open Idealize.ShloMosaic Idealize.SL.Sem

/-- The kernel program's argument arrays in the memory `m`, on core `c`. -/
def K.argsOf [Cert.KernelIdeal.Facts] (m : (ℓ : Loc Cert.KernelIdeal.nD Cert.KernelIdeal.τ Cert.KernelIdeal.sig) → Buf (Elt Ideal) ℓ) (c : Dev Cert.KernelIdeal.nD) : K.Args where
  a0 := m ((c.tc : Thread Cert.KernelIdeal.nD Cert.KernelIdeal.τ).loc Cert.KernelIdeal.main_arg0)
  a1 := m ((c.tc : Thread Cert.KernelIdeal.nD Cert.KernelIdeal.τ).loc Cert.KernelIdeal.main_arg1)
  a2 := m ((c.tc : Thread Cert.KernelIdeal.nD Cert.KernelIdeal.τ).loc Cert.KernelIdeal.main_arg2)
  a3 := m ((c.tc : Thread Cert.KernelIdeal.nD Cert.KernelIdeal.τ).loc Cert.KernelIdeal.main_arg3)
  a4 := m ((c.tc : Thread Cert.KernelIdeal.nD Cert.KernelIdeal.τ).loc Cert.KernelIdeal.main_arg4)
  a5 := m ((c.tc : Thread Cert.KernelIdeal.nD Cert.KernelIdeal.τ).loc Cert.KernelIdeal.main_arg5)
  a6 := m ((c.tc : Thread Cert.KernelIdeal.nD Cert.KernelIdeal.τ).loc Cert.KernelIdeal.main_arg6)
  a7 := m ((c.tc : Thread Cert.KernelIdeal.nD Cert.KernelIdeal.τ).loc Cert.KernelIdeal.main_arg7)
  a8 := m ((c.tc : Thread Cert.KernelIdeal.nD Cert.KernelIdeal.τ).loc Cert.KernelIdeal.main_arg8)
  a9 := m ((c.tc : Thread Cert.KernelIdeal.nD Cert.KernelIdeal.τ).loc Cert.KernelIdeal.main_arg9)
  a10 := m ((c.tc : Thread Cert.KernelIdeal.nD Cert.KernelIdeal.τ).loc Cert.KernelIdeal.main_arg10)
  a11 := m ((c.tc : Thread Cert.KernelIdeal.nD Cert.KernelIdeal.τ).loc Cert.KernelIdeal.main_arg11)
  a12 := m ((c.tc : Thread Cert.KernelIdeal.nD Cert.KernelIdeal.τ).loc Cert.KernelIdeal.main_arg12)
  a13 := m ((c.tc : Thread Cert.KernelIdeal.nD Cert.KernelIdeal.τ).loc Cert.KernelIdeal.main_arg13)
  a14 := m ((c.tc : Thread Cert.KernelIdeal.nD Cert.KernelIdeal.τ).loc Cert.KernelIdeal.main_arg14)
  a15 := m ((c.tc : Thread Cert.KernelIdeal.nD Cert.KernelIdeal.τ).loc Cert.KernelIdeal.main_arg15)
  a16 := m ((c.tc : Thread Cert.KernelIdeal.nD Cert.KernelIdeal.τ).loc Cert.KernelIdeal.main_arg16)

/-- The reference program's argument arrays in the memory `m`, on core `c`. -/
def R.argsOf [Cert.ReferenceIdeal.Facts] (m : (ℓ : Loc Cert.ReferenceIdeal.nD Cert.ReferenceIdeal.τ Cert.ReferenceIdeal.sig) → Buf (Elt Ideal) ℓ) (c : Dev Cert.ReferenceIdeal.nD) : R.Args where
  a0 := m ((c.tc : Thread Cert.ReferenceIdeal.nD Cert.ReferenceIdeal.τ).loc Cert.ReferenceIdeal.main_arg0)
  a1 := m ((c.tc : Thread Cert.ReferenceIdeal.nD Cert.ReferenceIdeal.τ).loc Cert.ReferenceIdeal.main_arg1)
  a2 := m ((c.tc : Thread Cert.ReferenceIdeal.nD Cert.ReferenceIdeal.τ).loc Cert.ReferenceIdeal.main_arg2)
  a3 := m ((c.tc : Thread Cert.ReferenceIdeal.nD Cert.ReferenceIdeal.τ).loc Cert.ReferenceIdeal.main_arg3)
  a4 := m ((c.tc : Thread Cert.ReferenceIdeal.nD Cert.ReferenceIdeal.τ).loc Cert.ReferenceIdeal.main_arg4)
  a5 := m ((c.tc : Thread Cert.ReferenceIdeal.nD Cert.ReferenceIdeal.τ).loc Cert.ReferenceIdeal.main_arg5)
  a6 := m ((c.tc : Thread Cert.ReferenceIdeal.nD Cert.ReferenceIdeal.τ).loc Cert.ReferenceIdeal.main_arg6)
  a7 := m ((c.tc : Thread Cert.ReferenceIdeal.nD Cert.ReferenceIdeal.τ).loc Cert.ReferenceIdeal.main_arg7)
  a8 := m ((c.tc : Thread Cert.ReferenceIdeal.nD Cert.ReferenceIdeal.τ).loc Cert.ReferenceIdeal.main_arg8)
  a9 := m ((c.tc : Thread Cert.ReferenceIdeal.nD Cert.ReferenceIdeal.τ).loc Cert.ReferenceIdeal.main_arg9)
  a10 := m ((c.tc : Thread Cert.ReferenceIdeal.nD Cert.ReferenceIdeal.τ).loc Cert.ReferenceIdeal.main_arg10)
  a11 := m ((c.tc : Thread Cert.ReferenceIdeal.nD Cert.ReferenceIdeal.τ).loc Cert.ReferenceIdeal.main_arg11)
  a12 := m ((c.tc : Thread Cert.ReferenceIdeal.nD Cert.ReferenceIdeal.τ).loc Cert.ReferenceIdeal.main_arg12)
  a13 := m ((c.tc : Thread Cert.ReferenceIdeal.nD Cert.ReferenceIdeal.τ).loc Cert.ReferenceIdeal.main_arg13)
  a14 := m ((c.tc : Thread Cert.ReferenceIdeal.nD Cert.ReferenceIdeal.τ).loc Cert.ReferenceIdeal.main_arg14)
  a15 := m ((c.tc : Thread Cert.ReferenceIdeal.nD Cert.ReferenceIdeal.τ).loc Cert.ReferenceIdeal.main_arg15)
  a16 := m ((c.tc : Thread Cert.ReferenceIdeal.nD Cert.ReferenceIdeal.τ).loc Cert.ReferenceIdeal.main_arg16)

end Cert.Val

end
-- ==== Proof.Val.DagToR.lean ====
import proofs.«426760_j80470507258346_3_alg».proof.Proof.Val.DagK
import proofs.«426760_j80470507258346_3_alg».proof.Proof.Val.DagR

noncomputable section

namespace Cert.Val.K

/-- The same seventeen arrays as the reference's arguments: the two programs' shapes are the same literals. -/
def toR (A : Cert.Val.K.Args) : Cert.Val.R.Args where
  a0 := A.a0
  a1 := A.a1
  a2 := A.a2
  a3 := A.a3
  a4 := A.a4
  a5 := A.a5
  a6 := A.a6
  a7 := A.a7
  a8 := A.a8
  a9 := A.a9
  a10 := A.a10
  a11 := A.a11
  a12 := A.a12
  a13 := A.a13
  a14 := A.a14
  a15 := A.a15
  a16 := A.a16

end Cert.Val.K

end
-- ==== Proof.Val.LibSums.lean ====
import Mathlib.Algebra.BigOperators.Fin

open scoped BigOperators

namespace Cert.Val

/-! ## Finite sums cut into consecutive runs, and one regrouping

Small general facts about sums in a commutative additive monoid: a sum over `Fin 26` is the sum of its runs of
8, 8, 8 and 2 consecutive terms; a sum over `Fin 17` the sum of its runs of 8, 8 and 1; and five terms added in one
order are the same five added in another. No subtraction, no distributivity, no finiteness is used. -/

variable {M : Type*} [AddCommMonoid M]

/-- A sum over `Fin (a + b)` is the sum of the first `a` terms plus the sum of the last `b`, the terms named by
    their positions as naturals. -/
theorem sum_fin_add_val (a b : ℕ) (f : Fin (a + b) → M) :
    ∑ k, f k = (∑ k : Fin a, f ⟨k.val, by omega⟩) + ∑ k : Fin b, f ⟨a + k.val, by omega⟩ := by
  rw [Fin.sum_univ_add]
  rfl

/-- A sum of 26 terms is the sum of its runs of 8, 8, 8 and 2 consecutive terms. -/
theorem sum_fin26_split (f : Fin 26 → M) :
    ∑ k, f k = (((∑ k : Fin 8, f ⟨k.val, by omega⟩) + ∑ k : Fin 8, f ⟨8 + k.val, by omega⟩)
      + ∑ k : Fin 8, f ⟨16 + k.val, by omega⟩) + ∑ k : Fin 2, f ⟨24 + k.val, by omega⟩ := by
  rw [sum_fin_add_val 24 2 f, sum_fin_add_val 16 8 (fun k : Fin 24 => f ⟨k.val, by omega⟩),
    sum_fin_add_val 8 8 (fun k : Fin 16 => f ⟨k.val, by omega⟩)]

/-- A sum of 17 terms is the sum of its runs of 8, 8 and 1 consecutive terms. -/
theorem sum_fin17_split (f : Fin 17 → M) :
    ∑ k, f k = ((∑ k : Fin 8, f ⟨k.val, by omega⟩) + ∑ k : Fin 8, f ⟨8 + k.val, by omega⟩)
      + ∑ k : Fin 1, f ⟨16 + k.val, by omega⟩ := by
  rw [sum_fin_add_val 16 1 f, sum_fin_add_val 8 8 (fun k : Fin 16 => f ⟨k.val, by omega⟩)]

/-- Four partial sums and a bias: the first moved behind the bias. -/
theorem regroup_first_to_bias (G XR XC EA b : M) :
    (((G + XR) + XC) + EA) + b = ((XR + XC) + EA) + (b + G) := by
  ac_rfl

/-- Three partial sums and a bias: the first moved behind the bias. -/
theorem regroup3_first_to_bias (G X A b : M) :
    ((G + X) + A) + b = (X + A) + (b + G) := by
  ac_rfl

end Cert.Val
-- ==== Proof.Val.LibDot.lean ====
import Idealize.ShloMosaic.Lib.ValueIdx
import Idealize.ShloMosaic.PureOps.Ideal.Laws

noncomputable section

open scoped BigOperators

namespace Cert.Val

open Idealize.ShloMosaic Idealize.ShloMosaic.ValueIdx

/-! ## A plain matrix product read at an entry

For the dimension numbers of a plain product — an `M × K` matrix times a `K × N` matrix, the left operand contracted
on its columns and the right one on its rows — the operand indices at result entry `(i, j)` and contraction position
`k` are `(i, k)` and `(k, j)`, so over the extended reals the product's entry is `∑ k, l (i, k) * r (k, j)`. -/

section Dot
variable {M K N : ℕ} {φ₁ φ₂ : FTy}

/-- The dimension numbers of a plain matrix product: rows × contraction times contraction × columns. -/
abbrev plainDims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

variable (wf : DotDims.WF ⟨2, ![M, K]⟩ ⟨2, ![K, N]⟩ ⟨2, ![M, N]⟩ [1] [0] [0] [1] [] [])

/-- The left operand's row is the result's row. -/
theorem plain_lhs_0 (j : (⟨2, ![M, N]⟩ : Shape).Idx) (k : (plainDims wf).contr.Idx) :
    ((plainDims wf).lhsIdx j k 0).val = (j 0).val := rfl

/-- The right operand's column is the result's column. -/
theorem plain_rhs_1 (j : (⟨2, ![M, N]⟩ : Shape).Idx) (k : (plainDims wf).contr.Idx) :
    ((plainDims wf).rhsIdx j k 1).val = (j 1).val := rfl

/-- The left operand's column is the contraction position. -/
theorem plain_lhs_1 (j : (⟨2, ![M, N]⟩ : Shape).Idx) (k : (plainDims wf).contr.Idx) :
    ((plainDims wf).lhsIdx j k 1).val = (k ⟨0, Nat.one_pos⟩).val :=
  (plainDims wf).lhsIdx_val_of_single rfl j k

/-- The right operand's row is the contraction position. -/
theorem plain_rhs_0 (j : (⟨2, ![M, N]⟩ : Shape).Idx) (k : (plainDims wf).contr.Idx) :
    ((plainDims wf).rhsIdx j k 0).val = (k ⟨0, Nat.one_pos⟩).val :=
  (plainDims wf).rhsIdx_val_of_single rfl j k

/-- A plain matrix product over the extended reals, read at row `i` and column `j`: the sum over the contraction
    coordinate of the operands' products. -/
theorem dotGeneral_plain_apply (prec : Option ContractPrecision) (sched : HostSchedule)
    (l : FVec Ideal ⟨2, ![M, K]⟩ φ₁) (r : FVec Ideal ⟨2, ![K, N]⟩ φ₂) (i : Fin M) (j : Fin N) :
    FloatOps.dotGeneral (plainDims wf) prec sched l r (ix2 i j) = ∑ k : Fin K, l (ix2 i k) * r (ix2 k j) := by
  rw [Ideal.dotGeneral_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 i j) ((contrEquiv1 (plainDims wf) K rfl rfl).symm k) = ix2 i k := by
    funext a
    match a with
    | ⟨0, _⟩ => exact Fin.ext (plain_lhs_0 wf _ _)
    | ⟨1, _⟩ => exact Fin.ext ((plain_lhs_1 wf _ _).trans hk)
  have er : (plainDims wf).rhsIdx (ix2 i j) ((contrEquiv1 (plainDims wf) K rfl rfl).symm k) = ix2 k j := by
    funext a
    match a with
    | ⟨0, _⟩ => exact Fin.ext ((plain_rhs_0 wf _ _).trans hk)
    | ⟨1, _⟩ => exact Fin.ext (plain_rhs_1 wf _ _)
  rw [el, er]

end Dot

end Cert.Val

end
-- ==== Proof.Val.EdgeStep.lean ====
import proofs.«426760_j80470507258346_3_alg».proof.Proof.Val.EdgeDefs
import proofs.«426760_j80470507258346_3_alg».proof.Proof.Val.LibSums
import proofs.«426760_j80470507258346_3_alg».proof.Proof.Val.LibDot

noncomputable section

open scoped BigOperators

namespace Cert.Val

open Idealize.ShloMosaic Idealize.ShloMosaic.ValueIdx

/-! ## The edge step: the two composed terms are one function

Each side is read at an edge `e` down to sums of products of the arrays' entries — the pipelined side through its
padding, its slices of the weight matrix and the pipeline's row formula; the reference through its concatenation, its
two matrix products and its broadcasts — and the two closed forms differ by the order of five summands. -/

section Kernel
open Cert.KernelIdeal Cert.KernelIdeal.Facts₀
variable [Cert.KernelIdeal.Facts]

/-- What the edge pipeline's whole-array function computes in row `r`: the rectified hidden layer of the three
    row arrays against their weight groups plus the bias row, against the output weights, plus the output bias. -/
abbrev EdgeRow (E : EdgeFn) : Prop :=
  ∀ (A0 A1 : Vec Ideal S1105920x8 .bf16) (A2 : Vec Ideal S1105920x2 .bf16) (A3 A4 : Vec Ideal S8x32 .f32)
    (A5 : Vec Ideal S2x32 .f32) (A6 : Vec Ideal S1x32 .f32) (A7 : Vec Ideal S32x1 .f32) (A8 : Vec Ideal S1x1 .f32)
    (r : Fin 1105920),
    E A0 A1 A2 A3 A4 A5 A6 A7 A8 (ix2 r 0) =
      (∑ h : Fin 32, max ((((∑ k : Fin 8, A0 (ix2 r k) * A3 (ix2 k h)) + (∑ k : Fin 8, A1 (ix2 r k) * A4 (ix2 k h)))
        + (∑ k : Fin 2, A2 (ix2 r k) * A5 (ix2 k h))) + A6 (ix2 0 h)) 0 * A7 (ix2 h 0)) + A8 (ix2 0 0)

/-- The edge embedding at edge `e` in closed form: 32 rectified hidden units, each the two node rows and the edge
    attributes against their rows of `W1` plus the bias with the global vector's share, against `W2`, plus `b2`. -/
def edgeRow (xrT xcT : Vec Ideal S1100000x8 .f32) (ea2 : Vec Ideal S1100000x2 .f32)
    (g : Vec Ideal S1x8 .f32) (W1 : Vec Ideal S26x32 .f32) (b1 : Vec Ideal S32 .f32)
    (W2 : Vec Ideal S32x1 .f32) (b2 : Vec Ideal S1 .f32) (e : Fin 1100000) : EReal :=
  (∑ h : Fin 32, max ((((∑ k : Fin 8, xrT (ix2 e k) * W1 (ix2 ⟨8 + k.val, by omega⟩ h))
      + (∑ k : Fin 8, xcT (ix2 e k) * W1 (ix2 ⟨16 + k.val, by omega⟩ h)))
      + (∑ k : Fin 2, ea2 (ix2 e k) * W1 (ix2 ⟨24 + k.val, by omega⟩ h)))
      + (b1 (ix1 h) + ∑ k : Fin 8, g (ix2 0 k) * W1 (ix2 ⟨k.val, by omega⟩ h))) 0 * W2 (ix2 h 0)) + b2 (ix1 0)

theorem edgeK_apply (E : EdgeFn) (hE : EdgeRow E) (xrT xcT : Vec Ideal S1100000x8 .f32) (ea2 : Vec Ideal S1100000x2 .f32)
    (g : Vec Ideal S1x8 .f32) (W1 : Vec Ideal S26x32 .f32) (b1 : Vec Ideal S32 .f32)
    (W2 : Vec Ideal S32x1 .f32) (b2 : Vec Ideal S1 .f32) (e : Fin 1100000) :
    edgeK E xrT xcT ea2 g W1 b1 W2 b2 (ix2 e 0) = edgeRow xrT xcT ea2 g W1 b1 W2 b2 e := by
  unfold edgeK edgeRow
  rw [slice2_axis0_apply 0 _ slices_S1105920x1_S1100000x1_0_0 e 0 ⟨e.val, by omega⟩ (Nat.zero_add _).symm, hE]
  -- the three padded row arrays, read in a row below the padding
  have hA0 : ∀ k : Fin 8, pad S1105920x8 ![0, 0] ![5920, 0] ![0, 0] (truncf (F := Ideal) (φ := .f32) .bf16 xrT bitsLt_bf16_f32)
      (sitofp (F := Ideal) .bf16 (constantI S_ 32 0#32)) pads_S1100000x8_S1105920x8_059200_000 h_S_
      (ix2 (⟨e.val, by omega⟩ : Fin 1105920) k) = xrT (ix2 e k) := fun k =>
    pad_apply_of_inside _ _ _ _ _ _ _ _ (ix2 e k) (fun a => by
      match a with
      | ⟨0, _⟩ => show e.val = 0 + e.val * (0 + 1); omega
      | ⟨1, _⟩ => show k.val = 0 + k.val * (0 + 1); omega)
  have hA1 : ∀ k : Fin 8, pad S1105920x8 ![0, 0] ![5920, 0] ![0, 0] (truncf (F := Ideal) (φ := .f32) .bf16 xcT bitsLt_bf16_f32)
      (sitofp (F := Ideal) .bf16 (constantI S_ 32 0#32)) pads_S1100000x8_S1105920x8_059200_000 h_S_
      (ix2 (⟨e.val, by omega⟩ : Fin 1105920) k) = xcT (ix2 e k) := fun k =>
    pad_apply_of_inside _ _ _ _ _ _ _ _ (ix2 e k) (fun a => by
      match a with
      | ⟨0, _⟩ => show e.val = 0 + e.val * (0 + 1); omega
      | ⟨1, _⟩ => show k.val = 0 + k.val * (0 + 1); omega)
  have hA2 : ∀ k : Fin 2, pad S1105920x2 ![0, 0] ![5920, 0] ![0, 0] (truncf (F := Ideal) (φ := .f32) .bf16 ea2 bitsLt_bf16_f32)
      (sitofp (F := Ideal) .bf16 (constantI S_ 32 0#32)) pads_S1100000x2_S1105920x2_059200_000 h_S_
      (ix2 (⟨e.val, by omega⟩ : Fin 1105920) k) = ea2 (ix2 e k) := fun k =>
    pad_apply_of_inside _ _ _ _ _ _ _ _ (ix2 e k) (fun a => by
      match a with
      | ⟨0, _⟩ => show e.val = 0 + e.val * (0 + 1); omega
      | ⟨1, _⟩ => show k.val = 0 + k.val * (0 + 1); omega)
  -- the bias row: the bias plus the global vector against the first eight rows of the weights
  have hA6 : ∀ h : Fin 32, addf (F := Ideal) (φ := .f32) (shapeCast S1x32 b1 shapeCasts_S32_S1x32)
      (Host.dotGeneral (F := Ideal) (φ₁ := .f32) (φ₂ := .f32) dot_S1x8_S8x32_S1x32_1_0_0_1_n_n none g
        (extractStridedSlice S8x32 ![0, 0] W1 slices_S26x32_S8x32_0_0)) (ix2 0 h)
      = b1 (ix1 h) + ∑ k : Fin 8, g (ix2 0 k) * W1 (ix2 ⟨k.val, by omega⟩ h) := fun h => by
    show shapeCast S1x32 b1 shapeCasts_S32_S1x32 (ix2 0 h)
      + FloatOps.dotGeneral (F := Ideal) (φ₁ := .f32) (φ₂ := .f32) (plainDims dot_S1x8_S8x32_S1x32_1_0_0_1_n_n_wf) none .single g
        (extractStridedSlice S8x32 ![0, 0] W1 slices_S26x32_S8x32_0_0) (ix2 0 h) = _
    rw [shapeCast_a_1a_apply b1 _ 0 h, dotGeneral_plain_apply]
    refine congrArg (b1 (ix1 h) + ·) (Finset.sum_congr rfl fun k _ => ?_)
    rw [slice2_axis0_apply 0 W1 _ k h ⟨k.val, by omega⟩ (Nat.zero_add _).symm]
  simp only [hA0, hA1, hA2, hA6, slice2_axis0_eq 8 W1 slices_S26x32_S8x32_8_0, slice2_axis0_eq 16 W1 slices_S26x32_S8x32_16_0,
    slice2_axis0_eq 24 W1 slices_S26x32_S2x32_24_0, shapeCast_a_1a_apply b2 shapeCasts_S1_S1x1 0 0]

end Kernel

section Reference
open Cert.ReferenceIdeal Cert.ReferenceIdeal.Facts₀
variable [Cert.ReferenceIdeal.Facts]

/-- The 26 features of edge `e`, columns 0 to 7: the global vector. -/
theorem feat_g (xrT xcT : Vec Ideal S1100000x8 .f32) (ea2 : Vec Ideal S1100000x2 .f32) (g : Vec Ideal S1x8 .f32)
    (e : Fin 1100000) (k : Fin 8) :
    (concatenate (α := Ideal .f32) S1100000x26 1
      [⟨S1100000x8, broadcastInDim S1100000x8 ![0, 1] bcast_S1x8_S1100000x8_0_1 g⟩, ⟨S1100000x8, xrT⟩,
        ⟨S1100000x8, xcT⟩, ⟨S1100000x2, ea2⟩]
      concatenates_S1100000x8_S1100000x8_S1100000x8_S1100000x2_S1100000x26_d1) (ix2 e (⟨k.val, by omega⟩ : Fin 26)) = g (ix2 0 k) :=
  (concatenate_apply_piece (α := Ideal .f32) (t := S1100000x26) (1 : Fin 2)
    [⟨S1100000x8, broadcastInDim S1100000x8 ![0, 1] bcast_S1x8_S1100000x8_0_1 g⟩, ⟨S1100000x8, xrT⟩,
      ⟨S1100000x8, xcT⟩, ⟨S1100000x2, ea2⟩]
    concatenates_S1100000x8_S1100000x8_S1100000x8_S1100000x2_S1100000x26_d1 (ix2 e (⟨k.val, by omega⟩ : Fin 26)) 0 (by show (0 : ℕ) < 4; omega) S1100000x8 (broadcastInDim S1100000x8 ![0, 1] bcast_S1x8_S1100000x8_0_1 g) rfl rfl 0 rfl (ix2 e k)
    (fun b hb => by
      match b with
      | ⟨0, _⟩ => rfl
      | ⟨1, _⟩ => exact absurd rfl hb) (Nat.zero_add _)).trans
    (broadcastInDim_apply _ _ _ _ (ix2 0 k) (fun a => by
      match a with
      | ⟨0, _⟩ => rfl
      | ⟨1, _⟩ => rfl))

/-- Columns 8 to 15: the row gathered at the edge's first end. -/
theorem feat_xr (xrT xcT : Vec Ideal S1100000x8 .f32) (ea2 : Vec Ideal S1100000x2 .f32) (g : Vec Ideal S1x8 .f32)
    (e : Fin 1100000) (k : Fin 8) :
    (concatenate (α := Ideal .f32) S1100000x26 1
      [⟨S1100000x8, broadcastInDim S1100000x8 ![0, 1] bcast_S1x8_S1100000x8_0_1 g⟩, ⟨S1100000x8, xrT⟩,
        ⟨S1100000x8, xcT⟩, ⟨S1100000x2, ea2⟩]
      concatenates_S1100000x8_S1100000x8_S1100000x8_S1100000x2_S1100000x26_d1) (ix2 e (⟨8 + k.val, by omega⟩ : Fin 26)) = xrT (ix2 e k) :=
  concatenate_apply_piece (α := Ideal .f32) (t := S1100000x26) (1 : Fin 2)
    [⟨S1100000x8, broadcastInDim S1100000x8 ![0, 1] bcast_S1x8_S1100000x8_0_1 g⟩, ⟨S1100000x8, xrT⟩,
      ⟨S1100000x8, xcT⟩, ⟨S1100000x2, ea2⟩]
    concatenates_S1100000x8_S1100000x8_S1100000x8_S1100000x2_S1100000x26_d1 (ix2 e (⟨8 + k.val, by omega⟩ : Fin 26)) 1 (by show (1 : ℕ) < 4; omega) S1100000x8 xrT rfl rfl 8 rfl (ix2 e k)
    (fun b hb => by
      match b with
      | ⟨0, _⟩ => rfl
      | ⟨1, _⟩ => exact absurd rfl hb) rfl

/-- Columns 16 to 23: the row gathered at the edge's second end. -/
theorem feat_xc (xrT xcT : Vec Ideal S1100000x8 .f32) (ea2 : Vec Ideal S1100000x2 .f32) (g : Vec Ideal S1x8 .f32)
    (e : Fin 1100000) (k : Fin 8) :
    (concatenate (α := Ideal .f32) S1100000x26 1
      [⟨S1100000x8, broadcastInDim S1100000x8 ![0, 1] bcast_S1x8_S1100000x8_0_1 g⟩, ⟨S1100000x8, xrT⟩,
        ⟨S1100000x8, xcT⟩, ⟨S1100000x2, ea2⟩]
      concatenates_S1100000x8_S1100000x8_S1100000x8_S1100000x2_S1100000x26_d1) (ix2 e (⟨16 + k.val, by omega⟩ : Fin 26)) = xcT (ix2 e k) :=
  concatenate_apply_piece (α := Ideal .f32) (t := S1100000x26) (1 : Fin 2)
    [⟨S1100000x8, broadcastInDim S1100000x8 ![0, 1] bcast_S1x8_S1100000x8_0_1 g⟩, ⟨S1100000x8, xrT⟩,
      ⟨S1100000x8, xcT⟩, ⟨S1100000x2, ea2⟩]
    concatenates_S1100000x8_S1100000x8_S1100000x8_S1100000x2_S1100000x26_d1 (ix2 e (⟨16 + k.val, by omega⟩ : Fin 26)) 2 (by show (2 : ℕ) < 4; omega) S1100000x8 xcT rfl rfl 16 rfl (ix2 e k)
    (fun b hb => by
      match b with
      | ⟨0, _⟩ => rfl
      | ⟨1, _⟩ => exact absurd rfl hb) rfl

/-- Columns 24 and 25: the edge attributes. -/
theorem feat_ea (xrT xcT : Vec Ideal S1100000x8 .f32) (ea2 : Vec Ideal S1100000x2 .f32) (g : Vec Ideal S1x8 .f32)
    (e : Fin 1100000) (k : Fin 2) :
    (concatenate (α := Ideal .f32) S1100000x26 1
      [⟨S1100000x8, broadcastInDim S1100000x8 ![0, 1] bcast_S1x8_S1100000x8_0_1 g⟩, ⟨S1100000x8, xrT⟩,
        ⟨S1100000x8, xcT⟩, ⟨S1100000x2, ea2⟩]
      concatenates_S1100000x8_S1100000x8_S1100000x8_S1100000x2_S1100000x26_d1) (ix2 e (⟨24 + k.val, by omega⟩ : Fin 26)) = ea2 (ix2 e k) :=
  concatenate_apply_piece (α := Ideal .f32) (t := S1100000x26) (1 : Fin 2)
    [⟨S1100000x8, broadcastInDim S1100000x8 ![0, 1] bcast_S1x8_S1100000x8_0_1 g⟩, ⟨S1100000x8, xrT⟩,
      ⟨S1100000x8, xcT⟩, ⟨S1100000x2, ea2⟩]
    concatenates_S1100000x8_S1100000x8_S1100000x8_S1100000x2_S1100000x26_d1 (ix2 e (⟨24 + k.val, by omega⟩ : Fin 26)) 3 (by show (3 : ℕ) < 4; omega) S1100000x2 ea2 rfl rfl 24 rfl (ix2 e k)
    (fun b hb => by
      match b with
      | ⟨0, _⟩ => rfl
      | ⟨1, _⟩ => exact absurd rfl hb) rfl

/-- The rectifier at an index: the maximum with the zero constant broadcast to the array. -/
theorem relu_edge_apply (X : Vec Ideal S1100000x32 .f32) (j : S1100000x32.Idx) :
    maximumf (F := Ideal) (φ := .f32) X
      (broadcastInDim S1100000x32 ![] bcast_S_S1100000x32 (constant (F := Ideal) S_ .f32 0x00000000#32)) j = max (X j) 0 := by
  show max (X j) (broadcastInDim S1100000x32 ![] bcast_S_S1100000x32 (constant (F := Ideal) S_ .f32 0x00000000#32) j) = _
  rw [broadcastInDim_scalar_apply, constant_apply, Ideal.ofBits_zero_f32]

/-- The output layer at edge `e`: the hidden row against the one output column, plus the output bias. -/
theorem out_edge_apply (H : Vec Ideal S1100000x32 .f32) (W2 : Vec Ideal S32x1 .f32) (b2 : Vec Ideal S1 .f32) (e : Fin 1100000) :
    addf (F := Ideal) (φ := .f32)
      (Host.dotGeneral (F := Ideal) (φ₁ := .f32) (φ₂ := .f32) dot_S1100000x32_S32x1_S1100000x1_1_0_0_1_n_n none H W2)
      (broadcastInDim S1100000x1 ![0, 1] bcast_S1x1_S1100000x1_0_1 (broadcastInDim S1x1 ![1] bcast_S1_S1x1_1 b2)) (ix2 e 0)
      = (∑ h : Fin 32, H (ix2 e h) * W2 (ix2 h 0)) + b2 (ix1 0) := by
  show FloatOps.dotGeneral (F := Ideal) (φ₁ := .f32) (φ₂ := .f32) (plainDims dot_S1100000x32_S32x1_S1100000x1_1_0_0_1_n_n_wf) none .single
      H W2 (ix2 e 0)
    + broadcastInDim S1100000x1 ![0, 1] bcast_S1x1_S1100000x1_0_1 (broadcastInDim S1x1 ![1] bcast_S1_S1x1_1 b2) (ix2 e 0) = _
  rw [dotGeneral_plain_apply,
    broadcastInDim_apply _ bcast_S1x1_S1100000x1_0_1 _ (ix2 e 0) (ix2 0 0) (fun a => by
      match a with
      | ⟨0, _⟩ => rfl
      | ⟨1, _⟩ => rfl),
    broadcastInDim_apply _ bcast_S1_S1x1_1 _ (ix2 0 0) (ix1 0) (fun a => by
      match a with
      | ⟨0, _⟩ => rfl)]

theorem edgeR_apply (xrT xcT : Vec Ideal S1100000x8 .f32) (ea2 : Vec Ideal S1100000x2 .f32)
    (g : Vec Ideal S1x8 .f32) (W1 : Vec Ideal S26x32 .f32) (b1 : Vec Ideal S32 .f32)
    (W2 : Vec Ideal S32x1 .f32) (b2 : Vec Ideal S1 .f32) (e : Fin 1100000) :
    edgeR xrT xcT ea2 g W1 b1 W2 b2 (ix2 e 0) = edgeRow xrT xcT ea2 g W1 b1 W2 b2 e := by
  unfold edgeR edgeRow
  -- the hidden layer before the rectifier, unit h
  have hhid : ∀ h : Fin 32,
      addf (F := Ideal) (φ := .f32)
        (Host.dotGeneral (F := Ideal) (φ₁ := .f32) (φ₂ := .f32) dot_S1100000x26_S26x32_S1100000x32_1_0_0_1_n_n none
          (concatenate (α := Ideal .f32) S1100000x26 1
          [⟨S1100000x8, broadcastInDim S1100000x8 ![0, 1] bcast_S1x8_S1100000x8_0_1 g⟩, ⟨S1100000x8, xrT⟩,
            ⟨S1100000x8, xcT⟩, ⟨S1100000x2, ea2⟩]
          concatenates_S1100000x8_S1100000x8_S1100000x8_S1100000x2_S1100000x26_d1) W1)
        (broadcastInDim S1100000x32 ![0, 1] bcast_S1x32_S1100000x32_0_1 (broadcastInDim S1x32 ![1] bcast_S32_S1x32_1 b1))
        (ix2 e h)
      = (((∑ k : Fin 8, xrT (ix2 e k) * W1 (ix2 ⟨8 + k.val, by omega⟩ h))
          + (∑ k : Fin 8, xcT (ix2 e k) * W1 (ix2 ⟨16 + k.val, by omega⟩ h)))
          + (∑ k : Fin 2, ea2 (ix2 e k) * W1 (ix2 ⟨24 + k.val, by omega⟩ h)))
          + (b1 (ix1 h) + ∑ k : Fin 8, g (ix2 0 k) * W1 (ix2 ⟨k.val, by omega⟩ h)) := fun h => by
    show FloatOps.dotGeneral (F := Ideal) (φ₁ := .f32) (φ₂ := .f32) (plainDims dot_S1100000x26_S26x32_S1100000x32_1_0_0_1_n_n_wf) none .single
        (concatenate (α := Ideal .f32) S1100000x26 1
          [⟨S1100000x8, broadcastInDim S1100000x8 ![0, 1] bcast_S1x8_S1100000x8_0_1 g⟩, ⟨S1100000x8, xrT⟩,
            ⟨S1100000x8, xcT⟩, ⟨S1100000x2, ea2⟩]
          concatenates_S1100000x8_S1100000x8_S1100000x8_S1100000x2_S1100000x26_d1) W1 (ix2 e h)
      + broadcastInDim S1100000x32 ![0, 1] bcast_S1x32_S1100000x32_0_1 (broadcastInDim S1x32 ![1] bcast_S32_S1x32_1 b1) (ix2 e h) = _
    rw [dotGeneral_plain_apply, sum_fin26_split,
      broadcastInDim_apply _ bcast_S1x32_S1100000x32_0_1 _ (ix2 e h) (ix2 0 h) (fun a => by
        match a with
        | ⟨0, _⟩ => rfl
        | ⟨1, _⟩ => rfl),
      broadcastInDim_apply _ bcast_S32_S1x32_1 _ (ix2 0 h) (ix1 h) (fun a => by
        match a with
        | ⟨0, _⟩ => rfl)]
    have s0 : (∑ k : Fin 8, (concatenate (α := Ideal .f32) S1100000x26 1
          [⟨S1100000x8, broadcastInDim S1100000x8 ![0, 1] bcast_S1x8_S1100000x8_0_1 g⟩, ⟨S1100000x8, xrT⟩,
            ⟨S1100000x8, xcT⟩, ⟨S1100000x2, ea2⟩]
          concatenates_S1100000x8_S1100000x8_S1100000x8_S1100000x2_S1100000x26_d1) (ix2 e (⟨k.val, by omega⟩ : Fin 26)) * W1 (ix2 (⟨k.val, by omega⟩ : Fin 26) h))
        = ∑ k : Fin 8, g (ix2 0 k) * W1 (ix2 ⟨k.val, by omega⟩ h) :=
      Finset.sum_congr rfl fun k _ => by rw [feat_g]
    have s1 : (∑ k : Fin 8, (concatenate (α := Ideal .f32) S1100000x26 1
          [⟨S1100000x8, broadcastInDim S1100000x8 ![0, 1] bcast_S1x8_S1100000x8_0_1 g⟩, ⟨S1100000x8, xrT⟩,
            ⟨S1100000x8, xcT⟩, ⟨S1100000x2, ea2⟩]
          concatenates_S1100000x8_S1100000x8_S1100000x8_S1100000x2_S1100000x26_d1) (ix2 e (⟨8 + k.val, by omega⟩ : Fin 26)) * W1 (ix2 (⟨8 + k.val, by omega⟩ : Fin 26) h))
        = ∑ k : Fin 8, xrT (ix2 e k) * W1 (ix2 ⟨8 + k.val, by omega⟩ h) :=
      Finset.sum_congr rfl fun k _ => by rw [feat_xr]
    have s2 : (∑ k : Fin 8, (concatenate (α := Ideal .f32) S1100000x26 1
          [⟨S1100000x8, broadcastInDim S1100000x8 ![0, 1] bcast_S1x8_S1100000x8_0_1 g⟩, ⟨S1100000x8, xrT⟩,
            ⟨S1100000x8, xcT⟩, ⟨S1100000x2, ea2⟩]
          concatenates_S1100000x8_S1100000x8_S1100000x8_S1100000x2_S1100000x26_d1) (ix2 e (⟨16 + k.val, by omega⟩ : Fin 26)) * W1 (ix2 (⟨16 + k.val, by omega⟩ : Fin 26) h))
        = ∑ k : Fin 8, xcT (ix2 e k) * W1 (ix2 ⟨16 + k.val, by omega⟩ h) :=
      Finset.sum_congr rfl fun k _ => by rw [feat_xc]
    have s3 : (∑ k : Fin 2, (concatenate (α := Ideal .f32) S1100000x26 1
          [⟨S1100000x8, broadcastInDim S1100000x8 ![0, 1] bcast_S1x8_S1100000x8_0_1 g⟩, ⟨S1100000x8, xrT⟩,
            ⟨S1100000x8, xcT⟩, ⟨S1100000x2, ea2⟩]
          concatenates_S1100000x8_S1100000x8_S1100000x8_S1100000x2_S1100000x26_d1) (ix2 e (⟨24 + k.val, by omega⟩ : Fin 26)) * W1 (ix2 (⟨24 + k.val, by omega⟩ : Fin 26) h))
        = ∑ k : Fin 2, ea2 (ix2 e k) * W1 (ix2 ⟨24 + k.val, by omega⟩ h) :=
      Finset.sum_congr rfl fun k _ => by rw [feat_ea]
    rw [s0, s1, s2, s3]
    exact regroup_first_to_bias (M := EReal) _ _ _ _ _
  rw [out_edge_apply]
  refine congrArg (· + b2 (ix1 0)) (Finset.sum_congr rfl fun h _ => ?_)
  rw [relu_edge_apply, hhid h]

end Reference

section Step
variable [Cert.KernelIdeal.Facts] [Cert.ReferenceIdeal.Facts]
open Cert.KernelIdeal in
/-- THE EDGE STEP. Given the edge pipeline's whole-array function by its row formula, the edge embedding the
    pipelined program composes is the reference's: at every edge the reference's 26-term hidden sums split into the
    global vector's, the two node rows' and the attributes' shares, and commutativity and associativity of the sum
    move the global vector's share behind the bias. -/
theorem edge_step (E : EdgeFn) (hE : EdgeRow E) (xrT xcT : Vec Ideal S1100000x8 .f32) (ea2 : Vec Ideal S1100000x2 .f32)
    (g : Vec Ideal S1x8 .f32) (W1 : Vec Ideal S26x32 .f32) (b1 : Vec Ideal S32 .f32)
    (W2 : Vec Ideal S32x1 .f32) (b2 : Vec Ideal S1 .f32) :
    edgeK E xrT xcT ea2 g W1 b1 W2 b2 = edgeR xrT xcT ea2 g W1 b1 W2 b2 := by
  funext j
  obtain ⟨e, c, rfl⟩ : ∃ (e : Fin 1100000) (c : Fin 1), j = ix2 e c := ⟨j 0, j 1, eq_ix2 j⟩
  obtain rfl : c = 0 := Subsingleton.elim _ _
  exact (edgeK_apply E hE xrT xcT ea2 g W1 b1 W2 b2 e).trans (edgeR_apply xrT xcT ea2 g W1 b1 W2 b2 e).symm

end Step

end Cert.Val

end
-- ==== Proof.Val.NodeStep.lean ====
import proofs.«426760_j80470507258346_3_alg».proof.Proof.Val.NodeDefs
import proofs.«426760_j80470507258346_3_alg».proof.Proof.Val.LibSums
import proofs.«426760_j80470507258346_3_alg».proof.Proof.Val.LibDot
import Idealize.ShloMosaic.Lib.Pipeline.Value
import Idealize.ShloMosaic.Lib.ValueLayout
import Idealize.ShloMosaic.Lib.KernelVsHost
import Idealize.ShloMosaic.Lib.IdealHost

noncomputable section

open scoped BigOperators

namespace Cert.Val

open Idealize.ShloMosaic Idealize.ShloMosaic.ValueIdx

/-! ## The node step: the two composed terms are one function

Each side is read at a node `n` and a column `q` down to sums of products of the arrays' entries — the pipelined
side through its padding, its slices of the weight matrix and the pipeline's entry formula; the reference through its
concatenation, its two matrix products and its broadcasts — and the two closed forms differ by the order of four
summands. -/

section Kernel
open Cert.KernelIdeal Cert.KernelIdeal.Facts₀
variable [Cert.KernelIdeal.Facts]

/-- What the node pipeline's whole-array function computes at row `r` and column `q`: the rectified hidden layer
    of the two row arrays against their weight groups plus the bias row, against column `q` of the output weights,
    plus the output bias there. -/
abbrev NodeRow (N : NodeFn) : Prop :=
  ∀ (A0 : Vec Ideal S106496x8 .bf16) (A1 : Vec Ideal S106496x1 .bf16) (A2 : Vec Ideal S8x32 .f32)
    (A3 A4 : Vec Ideal S1x32 .f32) (A5 : Vec Ideal S32x8 .f32) (A6 : Vec Ideal S1x8 .f32)
    (r : Fin 106496) (q : Fin 8),
    N A0 A1 A2 A3 A4 A5 A6 (ix2 r q) =
      (∑ h : Fin 32, max (((∑ k : Fin 8, A0 (ix2 r k) * A2 (ix2 k h)) + (∑ k : Fin 1, A1 (ix2 r k) * A3 (ix2 k h)))
        + A4 (ix2 0 h)) 0 * A5 (ix2 h q)) + A6 (ix2 0 q)

/-- The node embedding at node `n`, column `q`, in closed form: 32 rectified hidden units, each the node's row and
    its aggregated message against their rows of `W1` plus the bias with the global vector's share, against column
    `q` of `W2`, plus `b2` there. -/
def nodeRow (x : Vec Ideal S100000x8 .f32) (a : Vec Ideal S100000x1 .bf16)
    (g : Vec Ideal S1x8 .f32) (W1 : Vec Ideal S17x32 .f32) (b1 : Vec Ideal S32 .f32)
    (W2 : Vec Ideal S32x8 .f32) (b2 : Vec Ideal S8 .f32) (n : Fin 100000) (q : Fin 8) : EReal :=
  (∑ h : Fin 32, max (((∑ k : Fin 8, x (ix2 n k) * W1 (ix2 ⟨8 + k.val, by omega⟩ h))
      + (∑ k : Fin 1, a (ix2 n k) * W1 (ix2 ⟨16 + k.val, by omega⟩ h)))
      + (b1 (ix1 h) + ∑ k : Fin 8, g (ix2 0 k) * W1 (ix2 ⟨k.val, by omega⟩ h))) 0 * W2 (ix2 h q)) + b2 (ix1 q)

theorem nodeK_apply (N : NodeFn) (hN : NodeRow N) (x : Vec Ideal S100000x8 .f32) (a : Vec Ideal S100000x1 .bf16)
    (g : Vec Ideal S1x8 .f32) (W1 : Vec Ideal S17x32 .f32) (b1 : Vec Ideal S32 .f32)
    (W2 : Vec Ideal S32x8 .f32) (b2 : Vec Ideal S8 .f32) (n : Fin 100000) (q : Fin 8) :
    nodeK N x a g W1 b1 W2 b2 (ix2 n q) = nodeRow x a g W1 b1 W2 b2 n q := by
  unfold nodeK nodeRow
  rw [slice2_axis0_apply 0 _ slices_S106496x8_S100000x8_0_0 n q ⟨n.val, by omega⟩ (Nat.zero_add _).symm, hN]
  -- the two padded row arrays, read in a row below the padding
  have hA0 : ∀ k : Fin 8, pad S106496x8 ![0, 0] ![6496, 0] ![0, 0] (truncf (F := Ideal) (φ := .f32) .bf16 x bitsLt_bf16_f32)
      (sitofp (F := Ideal) .bf16 (constantI S_ 32 0#32)) pads_S100000x8_S106496x8_064960_000 h_S_
      (ix2 (⟨n.val, by omega⟩ : Fin 106496) k) = x (ix2 n k) := fun k =>
    pad_apply_of_inside _ _ _ _ _ _ _ _ (ix2 n k) (fun a' => by
      match a' with
      | ⟨0, _⟩ => show n.val = 0 + n.val * (0 + 1); omega
      | ⟨1, _⟩ => show k.val = 0 + k.val * (0 + 1); omega)
  have hA1 : ∀ k : Fin 1, pad S106496x1 ![0, 0] ![6496, 0] ![0, 0] a
      (sitofp (F := Ideal) .bf16 (constantI S_ 32 0#32)) pads_S100000x1_S106496x1_064960_000 h_S_
      (ix2 (⟨n.val, by omega⟩ : Fin 106496) k) = a (ix2 n k) := fun k =>
    pad_apply_of_inside _ _ _ _ _ _ _ _ (ix2 n k) (fun a' => by
      match a' with
      | ⟨0, _⟩ => show n.val = 0 + n.val * (0 + 1); omega
      | ⟨1, _⟩ => show k.val = 0 + k.val * (0 + 1); omega)
  -- the bias row: the bias plus the global vector against the first eight rows of the weights
  have hA4 : ∀ h : Fin 32, addf (F := Ideal) (φ := .f32) (shapeCast S1x32 b1 shapeCasts_S32_S1x32)
      (Host.dotGeneral (F := Ideal) (φ₁ := .f32) (φ₂ := .f32) dot_S1x8_S8x32_S1x32_1_0_0_1_n_n none g
        (extractStridedSlice S8x32 ![0, 0] W1 slices_S17x32_S8x32_0_0)) (ix2 0 h)
      = b1 (ix1 h) + ∑ k : Fin 8, g (ix2 0 k) * W1 (ix2 ⟨k.val, by omega⟩ h) := fun h => by
    show shapeCast S1x32 b1 shapeCasts_S32_S1x32 (ix2 0 h)
      + FloatOps.dotGeneral (F := Ideal) (φ₁ := .f32) (φ₂ := .f32) (plainDims dot_S1x8_S8x32_S1x32_1_0_0_1_n_n_wf) none .single g
        (extractStridedSlice S8x32 ![0, 0] W1 slices_S17x32_S8x32_0_0) (ix2 0 h) = _
    rw [shapeCast_a_1a_apply b1 _ 0 h, dotGeneral_plain_apply]
    refine congrArg (b1 (ix1 h) + ·) (Finset.sum_congr rfl fun k _ => ?_)
    rw [slice2_axis0_apply 0 W1 _ k h ⟨k.val, by omega⟩ (Nat.zero_add _).symm]
  simp only [hA0, hA1, hA4, slice2_axis0_eq 8 W1 slices_S17x32_S8x32_8_0, slice2_axis0_eq 16 W1 slices_S17x32_S1x32_16_0,
    shapeCast_a_1a_apply b2 shapeCasts_S8_S1x8 0 q]

end Kernel

section Reference
open Cert.ReferenceIdeal Cert.ReferenceIdeal.Facts₀
variable [Cert.ReferenceIdeal.Facts]

/-- The 17 features of node `n`, columns 0 to 7: the global vector. -/
theorem nfeat_g (x : Vec Ideal S100000x8 .f32) (a : Vec Ideal S100000x1 .f32) (g : Vec Ideal S1x8 .f32)
    (n : Fin 100000) (k : Fin 8) :
    (concatenate (α := Ideal .f32) S100000x17 1
      [⟨S100000x8, broadcastInDim S100000x8 ![0, 1] bcast_S1x8_S100000x8_0_1 g⟩, ⟨S100000x8, x⟩,
        ⟨S100000x1, a⟩]
      concatenates_S100000x8_S100000x8_S100000x1_S100000x17_d1) (ix2 n (⟨k.val, by omega⟩ : Fin 17)) = g (ix2 0 k) :=
  (concatenate_apply_piece (α := Ideal .f32) (t := S100000x17) (1 : Fin 2)
    [⟨S100000x8, broadcastInDim S100000x8 ![0, 1] bcast_S1x8_S100000x8_0_1 g⟩, ⟨S100000x8, x⟩,
      ⟨S100000x1, a⟩]
    concatenates_S100000x8_S100000x8_S100000x1_S100000x17_d1 (ix2 n (⟨k.val, by omega⟩ : Fin 17)) 0 (by show (0 : ℕ) < 3; omega) S100000x8 (broadcastInDim S100000x8 ![0, 1] bcast_S1x8_S100000x8_0_1 g) rfl rfl 0 rfl (ix2 n k)
    (fun b hb => by
      match b with
      | ⟨0, _⟩ => rfl
      | ⟨1, _⟩ => exact absurd rfl hb) (Nat.zero_add _)).trans
    (broadcastInDim_apply _ _ _ _ (ix2 0 k) (fun a' => by
      match a' with
      | ⟨0, _⟩ => rfl
      | ⟨1, _⟩ => rfl))

/-- Columns 8 to 15: the node's own row. -/
theorem nfeat_x (x : Vec Ideal S100000x8 .f32) (a : Vec Ideal S100000x1 .f32) (g : Vec Ideal S1x8 .f32)
    (n : Fin 100000) (k : Fin 8) :
    (concatenate (α := Ideal .f32) S100000x17 1
      [⟨S100000x8, broadcastInDim S100000x8 ![0, 1] bcast_S1x8_S100000x8_0_1 g⟩, ⟨S100000x8, x⟩,
        ⟨S100000x1, a⟩]
      concatenates_S100000x8_S100000x8_S100000x1_S100000x17_d1) (ix2 n (⟨8 + k.val, by omega⟩ : Fin 17)) = x (ix2 n k) :=
  concatenate_apply_piece (α := Ideal .f32) (t := S100000x17) (1 : Fin 2)
    [⟨S100000x8, broadcastInDim S100000x8 ![0, 1] bcast_S1x8_S100000x8_0_1 g⟩, ⟨S100000x8, x⟩,
      ⟨S100000x1, a⟩]
    concatenates_S100000x8_S100000x8_S100000x1_S100000x17_d1 (ix2 n (⟨8 + k.val, by omega⟩ : Fin 17)) 1 (by show (1 : ℕ) < 3; omega) S100000x8 x rfl rfl 8 rfl (ix2 n k)
    (fun b hb => by
      match b with
      | ⟨0, _⟩ => rfl
      | ⟨1, _⟩ => exact absurd rfl hb) rfl

/-- Column 16: the node's aggregated message. -/
theorem nfeat_a (x : Vec Ideal S100000x8 .f32) (a : Vec Ideal S100000x1 .f32) (g : Vec Ideal S1x8 .f32)
    (n : Fin 100000) (k : Fin 1) :
    (concatenate (α := Ideal .f32) S100000x17 1
      [⟨S100000x8, broadcastInDim S100000x8 ![0, 1] bcast_S1x8_S100000x8_0_1 g⟩, ⟨S100000x8, x⟩,
        ⟨S100000x1, a⟩]
      concatenates_S100000x8_S100000x8_S100000x1_S100000x17_d1) (ix2 n (⟨16 + k.val, by omega⟩ : Fin 17)) = a (ix2 n k) :=
  concatenate_apply_piece (α := Ideal .f32) (t := S100000x17) (1 : Fin 2)
    [⟨S100000x8, broadcastInDim S100000x8 ![0, 1] bcast_S1x8_S100000x8_0_1 g⟩, ⟨S100000x8, x⟩,
      ⟨S100000x1, a⟩]
    concatenates_S100000x8_S100000x8_S100000x1_S100000x17_d1 (ix2 n (⟨16 + k.val, by omega⟩ : Fin 17)) 2 (by show (2 : ℕ) < 3; omega) S100000x1 a rfl rfl 16 rfl (ix2 n k)
    (fun b hb => by
      match b with
      | ⟨0, _⟩ => rfl
      | ⟨1, _⟩ => exact absurd rfl hb) rfl

/-- The rectifier at an index: the maximum with the zero constant broadcast to the array. -/
theorem relu_node_apply (X : Vec Ideal S100000x32 .f32) (j : S100000x32.Idx) :
    maximumf (F := Ideal) (φ := .f32) X
      (broadcastInDim S100000x32 ![] bcast_S_S100000x32 (constant (F := Ideal) S_ .f32 0x00000000#32)) j = max (X j) 0 := by
  show max (X j) (broadcastInDim S100000x32 ![] bcast_S_S100000x32 (constant (F := Ideal) S_ .f32 0x00000000#32) j) = _
  rw [broadcastInDim_scalar_apply, constant_apply, Ideal.ofBits_zero_f32]

/-- The output layer at node `n`, column `q`: the hidden row against column `q` of the output weights, plus the
    output bias there. -/
theorem out_node_apply (H : Vec Ideal S100000x32 .f32) (W2 : Vec Ideal S32x8 .f32) (b2 : Vec Ideal S8 .f32)
    (n : Fin 100000) (q : Fin 8) :
    addf (F := Ideal) (φ := .f32)
      (Host.dotGeneral (F := Ideal) (φ₁ := .f32) (φ₂ := .f32) dot_S100000x32_S32x8_S100000x8_1_0_0_1_n_n none H W2)
      (broadcastInDim S100000x8 ![0, 1] bcast_S1x8_S100000x8_0_1 (broadcastInDim S1x8 ![1] bcast_S8_S1x8_1 b2)) (ix2 n q)
      = (∑ h : Fin 32, H (ix2 n h) * W2 (ix2 h q)) + b2 (ix1 q) := by
  show FloatOps.dotGeneral (F := Ideal) (φ₁ := .f32) (φ₂ := .f32) (plainDims dot_S100000x32_S32x8_S100000x8_1_0_0_1_n_n_wf) none .single
      H W2 (ix2 n q)
    + broadcastInDim S100000x8 ![0, 1] bcast_S1x8_S100000x8_0_1 (broadcastInDim S1x8 ![1] bcast_S8_S1x8_1 b2) (ix2 n q) = _
  rw [dotGeneral_plain_apply,
    broadcastInDim_apply _ bcast_S1x8_S100000x8_0_1 _ (ix2 n q) (ix2 0 q) (fun a' => by
      match a' with
      | ⟨0, _⟩ => rfl
      | ⟨1, _⟩ => rfl),
    broadcastInDim_apply _ bcast_S8_S1x8_1 _ (ix2 0 q) (ix1 q) (fun a' => by
      match a' with
      | ⟨0, _⟩ => rfl)]

theorem nodeR_apply (x : Vec Ideal S100000x8 .f32) (a : Vec Ideal S100000x1 .f32)
    (g : Vec Ideal S1x8 .f32) (W1 : Vec Ideal S17x32 .f32) (b1 : Vec Ideal S32 .f32)
    (W2 : Vec Ideal S32x8 .f32) (b2 : Vec Ideal S8 .f32) (n : Fin 100000) (q : Fin 8) :
    nodeR x a g W1 b1 W2 b2 (ix2 n q) = nodeRow x a g W1 b1 W2 b2 n q := by
  unfold nodeR nodeRow
  -- the hidden layer before the rectifier, unit h
  have hhid : ∀ h : Fin 32,
      addf (F := Ideal) (φ := .f32)
        (Host.dotGeneral (F := Ideal) (φ₁ := .f32) (φ₂ := .f32) dot_S100000x17_S17x32_S100000x32_1_0_0_1_n_n none
          (concatenate (α := Ideal .f32) S100000x17 1
          [⟨S100000x8, broadcastInDim S100000x8 ![0, 1] bcast_S1x8_S100000x8_0_1 g⟩, ⟨S100000x8, x⟩,
            ⟨S100000x1, a⟩]
          concatenates_S100000x8_S100000x8_S100000x1_S100000x17_d1) W1)
        (broadcastInDim S100000x32 ![0, 1] bcast_S1x32_S100000x32_0_1 (broadcastInDim S1x32 ![1] bcast_S32_S1x32_1 b1))
        (ix2 n h)
      = ((∑ k : Fin 8, x (ix2 n k) * W1 (ix2 ⟨8 + k.val, by omega⟩ h))
          + (∑ k : Fin 1, a (ix2 n k) * W1 (ix2 ⟨16 + k.val, by omega⟩ h)))
          + (b1 (ix1 h) + ∑ k : Fin 8, g (ix2 0 k) * W1 (ix2 ⟨k.val, by omega⟩ h)) := fun h => by
    show FloatOps.dotGeneral (F := Ideal) (φ₁ := .f32) (φ₂ := .f32) (plainDims dot_S100000x17_S17x32_S100000x32_1_0_0_1_n_n_wf) none .single
        (concatenate (α := Ideal .f32) S100000x17 1
          [⟨S100000x8, broadcastInDim S100000x8 ![0, 1] bcast_S1x8_S100000x8_0_1 g⟩, ⟨S100000x8, x⟩,
            ⟨S100000x1, a⟩]
          concatenates_S100000x8_S100000x8_S100000x1_S100000x17_d1) W1 (ix2 n h)
      + broadcastInDim S100000x32 ![0, 1] bcast_S1x32_S100000x32_0_1 (broadcastInDim S1x32 ![1] bcast_S32_S1x32_1 b1) (ix2 n h) = _
    rw [dotGeneral_plain_apply, sum_fin17_split,
      broadcastInDim_apply _ bcast_S1x32_S100000x32_0_1 _ (ix2 n h) (ix2 0 h) (fun a' => by
        match a' with
        | ⟨0, _⟩ => rfl
        | ⟨1, _⟩ => rfl),
      broadcastInDim_apply _ bcast_S32_S1x32_1 _ (ix2 0 h) (ix1 h) (fun a' => by
        match a' with
        | ⟨0, _⟩ => rfl)]
    have s0 : (∑ k : Fin 8, (concatenate (α := Ideal .f32) S100000x17 1
          [⟨S100000x8, broadcastInDim S100000x8 ![0, 1] bcast_S1x8_S100000x8_0_1 g⟩, ⟨S100000x8, x⟩,
            ⟨S100000x1, a⟩]
          concatenates_S100000x8_S100000x8_S100000x1_S100000x17_d1) (ix2 n (⟨k.val, by omega⟩ : Fin 17)) * W1 (ix2 (⟨k.val, by omega⟩ : Fin 17) h))
        = ∑ k : Fin 8, g (ix2 0 k) * W1 (ix2 ⟨k.val, by omega⟩ h) :=
      Finset.sum_congr rfl fun k _ => by rw [nfeat_g]
    have s1 : (∑ k : Fin 8, (concatenate (α := Ideal .f32) S100000x17 1
          [⟨S100000x8, broadcastInDim S100000x8 ![0, 1] bcast_S1x8_S100000x8_0_1 g⟩, ⟨S100000x8, x⟩,
            ⟨S100000x1, a⟩]
          concatenates_S100000x8_S100000x8_S100000x1_S100000x17_d1) (ix2 n (⟨8 + k.val, by omega⟩ : Fin 17)) * W1 (ix2 (⟨8 + k.val, by omega⟩ : Fin 17) h))
        = ∑ k : Fin 8, x (ix2 n k) * W1 (ix2 ⟨8 + k.val, by omega⟩ h) :=
      Finset.sum_congr rfl fun k _ => by rw [nfeat_x]
    have s2 : (∑ k : Fin 1, (concatenate (α := Ideal .f32) S100000x17 1
          [⟨S100000x8, broadcastInDim S100000x8 ![0, 1] bcast_S1x8_S100000x8_0_1 g⟩, ⟨S100000x8, x⟩,
            ⟨S100000x1, a⟩]
          concatenates_S100000x8_S100000x8_S100000x1_S100000x17_d1) (ix2 n (⟨16 + k.val, by omega⟩ : Fin 17)) * W1 (ix2 (⟨16 + k.val, by omega⟩ : Fin 17) h))
        = ∑ k : Fin 1, a (ix2 n k) * W1 (ix2 ⟨16 + k.val, by omega⟩ h) :=
      Finset.sum_congr rfl fun k _ => by rw [nfeat_a]
    rw [s0, s1, s2]
    exact regroup3_first_to_bias (M := EReal) _ _ _ _
  rw [out_node_apply]
  refine congrArg (· + b2 (ix1 q)) (Finset.sum_congr rfl fun h _ => ?_)
  rw [relu_node_apply, hhid h]

end Reference

section Step
variable [Cert.KernelIdeal.Facts] [Cert.ReferenceIdeal.Facts]
open Cert.KernelIdeal in
/-- THE NODE STEP. Given the node pipeline's whole-array function by its entry formula, the node embedding the
    pipelined program composes is the reference's: at every node and column the reference's 17-term hidden sums split
    into the global vector's, the node row's and the aggregated message's shares, and commutativity and associativity
    of the sum move the global vector's share behind the bias. The aggregated messages are one array of extended
    reals, read in the short format on one side and in the long one on the other. -/
theorem node_step (N : NodeFn) (hN : NodeRow N) (x : Vec Ideal S100000x8 .f32) (a : Vec Ideal S100000x1 .bf16)
    (g : Vec Ideal S1x8 .f32) (W1 : Vec Ideal S17x32 .f32) (b1 : Vec Ideal S32 .f32)
    (W2 : Vec Ideal S32x8 .f32) (b2 : Vec Ideal S8 .f32) :
    nodeK N x a g W1 b1 W2 b2 = nodeR x a g W1 b1 W2 b2 := by
  funext j
  obtain ⟨n, q, rfl⟩ : ∃ (n : Fin 100000) (q : Fin 8), j = ix2 n q := ⟨j 0, j 1, eq_ix2 j⟩
  exact (nodeK_apply N hN x a g W1 b1 W2 b2 n q).trans (nodeR_apply x a g W1 b1 W2 b2 n q).symm

end Step

end Cert.Val

end
-- ==== Proof.Val.DagEq.lean ====
import proofs.«426760_j80470507258346_3_alg».proof.Proof.Val.DagK
import proofs.«426760_j80470507258346_3_alg».proof.Proof.Val.DagR
import proofs.«426760_j80470507258346_3_alg».proof.Proof.Val.DagToR
import proofs.«426760_j80470507258346_3_alg».proof.Proof.Val.EdgeStep
import proofs.«426760_j80470507258346_3_alg».proof.Proof.Val.NodeStep
import proofs.«426760_j80470507258346_3_alg».proof.Proof.Val.AggStep
import proofs.«426760_j80470507258346_3_alg».proof.Proof.Val.GlobStep
import proofs.«426760_j80470507258346_3_alg».proof.Proof.Val.FinalStep
import proofs.«426760_j80470507258346_3_alg».proof.Proof.Val.PreIdx

noncomputable section

namespace Cert.Val.DagEq

open Idealize.ShloMosaic Cert.PreIdx Cert.Val

variable [Cert.KernelIdeal.Facts] [Cert.ReferenceIdeal.Facts]

/-! # The two programs' stages are equal, stage by stage

One lemma per named stage, in the order of the definitions: each unfolds the stage's two definitions once and rewrites
with the step equation of its operation and the lemmas of the earlier stages it cites. -/

/-- The edge and node pipelines' functions have the row formulas the step equations ask for. -/
theorem edgeFn_row : EdgeRow K.edgeFn := fun A0 A1 A2 A3 A4 A5 A6 A7 A8 r => K.edgeFn_apply A0 A1 A2 A3 A4 A5 A6 A7 A8 r
theorem nodeFn_row : NodeRow K.nodeFn := fun A0 A1 A2 A3 A4 A5 A6 r q => K.nodeFn_apply A0 A1 A2 A3 A4 A5 A6 r q

variable (A : K.Args)

/-! ## The index rows, and their ranges -/

theorem lr_eq : K.lr A = R.lr (K.toR A) := rfl
theorem lc_eq : K.lc A = R.lc (K.toR A) := rfl
theorem ur_eq : K.ur A = R.ur (K.toR A) := rfl
theorem uc_eq : K.uc A = R.uc (K.toR A) := rfl

theorem lr_range (h1 : InRange A.a1) : InRange (K.lr A) := row0_range A.a1 h1
theorem lc_range (h1 : InRange A.a1) : InRange (K.lc A) := row1_range A.a1 h1
theorem ur_range (h2 : InRange A.a2) : InRange (K.ur A) := row0_range A.a2 h2
theorem uc_range (h2 : InRange A.a2) : InRange (K.uc A) := row1_range A.a2 h2

/-! ## The parameter slices and the constants: the same terms up to the two programs' records -/

theorem P00_eW1_eq : K.P00_eW1 A = R.P00_eW1 (K.toR A) := rfl
theorem P00_eb1_eq : K.P00_eb1 A = R.P00_eb1 (K.toR A) := rfl
theorem P00_eW2_eq : K.P00_eW2 A = R.P00_eW2 (K.toR A) := rfl
theorem P00_eb2_eq : K.P00_eb2 A = R.P00_eb2 (K.toR A) := rfl
theorem P00_nW1_eq : K.P00_nW1 A = R.P00_nW1 (K.toR A) := rfl
theorem P00_nb1_eq : K.P00_nb1 A = R.P00_nb1 (K.toR A) := rfl
theorem P00_nW2_eq : K.P00_nW2 A = R.P00_nW2 (K.toR A) := rfl
theorem P00_nb2_eq : K.P00_nb2 A = R.P00_nb2 (K.toR A) := rfl
theorem P00_gW1_eq : K.P00_gW1 A = R.P00_gW1 (K.toR A) := rfl
theorem P00_gb1_eq : K.P00_gb1 A = R.P00_gb1 (K.toR A) := rfl
theorem P00_gW2_eq : K.P00_gW2 A = R.P00_gW2 (K.toR A) := rfl
theorem P00_gb2_eq : K.P00_gb2 A = R.P00_gb2 (K.toR A) := rfl
theorem P10_eW1_eq : K.P10_eW1 A = R.P10_eW1 (K.toR A) := rfl
theorem P10_eb1_eq : K.P10_eb1 A = R.P10_eb1 (K.toR A) := rfl
theorem P10_eW2_eq : K.P10_eW2 A = R.P10_eW2 (K.toR A) := rfl
theorem P10_eb2_eq : K.P10_eb2 A = R.P10_eb2 (K.toR A) := rfl
theorem P10_nW1_eq : K.P10_nW1 A = R.P10_nW1 (K.toR A) := rfl
theorem P10_nb1_eq : K.P10_nb1 A = R.P10_nb1 (K.toR A) := rfl
theorem P10_nW2_eq : K.P10_nW2 A = R.P10_nW2 (K.toR A) := rfl
theorem P10_nb2_eq : K.P10_nb2 A = R.P10_nb2 (K.toR A) := rfl
theorem P10_gW1_eq : K.P10_gW1 A = R.P10_gW1 (K.toR A) := rfl
theorem P10_gb1_eq : K.P10_gb1 A = R.P10_gb1 (K.toR A) := rfl
theorem P10_gW2_eq : K.P10_gW2 A = R.P10_gW2 (K.toR A) := rfl
theorem P10_gb2_eq : K.P10_gb2 A = R.P10_gb2 (K.toR A) := rfl
theorem P01_eW1_eq : K.P01_eW1 A = R.P01_eW1 (K.toR A) := rfl
theorem P01_eb1_eq : K.P01_eb1 A = R.P01_eb1 (K.toR A) := rfl
theorem P01_eW2_eq : K.P01_eW2 A = R.P01_eW2 (K.toR A) := rfl
theorem P01_eb2_eq : K.P01_eb2 A = R.P01_eb2 (K.toR A) := rfl
theorem P01_nW1_eq : K.P01_nW1 A = R.P01_nW1 (K.toR A) := rfl
theorem P01_nb1_eq : K.P01_nb1 A = R.P01_nb1 (K.toR A) := rfl
theorem P01_nW2_eq : K.P01_nW2 A = R.P01_nW2 (K.toR A) := rfl
theorem P01_nb2_eq : K.P01_nb2 A = R.P01_nb2 (K.toR A) := rfl
theorem P01_gW1_eq : K.P01_gW1 A = R.P01_gW1 (K.toR A) := rfl
theorem P01_gb1_eq : K.P01_gb1 A = R.P01_gb1 (K.toR A) := rfl
theorem P01_gW2_eq : K.P01_gW2 A = R.P01_gW2 (K.toR A) := rfl
theorem P01_gb2_eq : K.P01_gb2 A = R.P01_gb2 (K.toR A) := rfl
theorem P11_eW1_eq : K.P11_eW1 A = R.P11_eW1 (K.toR A) := rfl
theorem P11_eb1_eq : K.P11_eb1 A = R.P11_eb1 (K.toR A) := rfl
theorem P11_eW2_eq : K.P11_eW2 A = R.P11_eW2 (K.toR A) := rfl
theorem P11_eb2_eq : K.P11_eb2 A = R.P11_eb2 (K.toR A) := rfl
theorem P11_nW1_eq : K.P11_nW1 A = R.P11_nW1 (K.toR A) := rfl
theorem P11_nb1_eq : K.P11_nb1 A = R.P11_nb1 (K.toR A) := rfl
theorem P11_nW2_eq : K.P11_nW2 A = R.P11_nW2 (K.toR A) := rfl
theorem P11_nb2_eq : K.P11_nb2 A = R.P11_nb2 (K.toR A) := rfl
theorem P11_gW1_eq : K.P11_gW1 A = R.P11_gW1 (K.toR A) := rfl
theorem P11_gb1_eq : K.P11_gb1 A = R.P11_gb1 (K.toR A) := rfl
theorem P11_gW2_eq : K.P11_gW2 A = R.P11_gW2 (K.toR A) := rfl
theorem P11_gb2_eq : K.P11_gb2 A = R.P11_gb2 (K.toR A) := rfl
theorem P02_eW1_eq : K.P02_eW1 A = R.P02_eW1 (K.toR A) := rfl
theorem P02_eb1_eq : K.P02_eb1 A = R.P02_eb1 (K.toR A) := rfl
theorem P02_eW2_eq : K.P02_eW2 A = R.P02_eW2 (K.toR A) := rfl
theorem P02_eb2_eq : K.P02_eb2 A = R.P02_eb2 (K.toR A) := rfl
theorem P02_nW1_eq : K.P02_nW1 A = R.P02_nW1 (K.toR A) := rfl
theorem P02_nb1_eq : K.P02_nb1 A = R.P02_nb1 (K.toR A) := rfl
theorem P02_nW2_eq : K.P02_nW2 A = R.P02_nW2 (K.toR A) := rfl
theorem P02_nb2_eq : K.P02_nb2 A = R.P02_nb2 (K.toR A) := rfl
theorem P02_gW1_eq : K.P02_gW1 A = R.P02_gW1 (K.toR A) := rfl
theorem P02_gb1_eq : K.P02_gb1 A = R.P02_gb1 (K.toR A) := rfl
theorem P02_gW2_eq : K.P02_gW2 A = R.P02_gW2 (K.toR A) := rfl
theorem P02_gb2_eq : K.P02_gb2 A = R.P02_gb2 (K.toR A) := rfl
theorem P12_eW1_eq : K.P12_eW1 A = R.P12_eW1 (K.toR A) := rfl
theorem P12_eb1_eq : K.P12_eb1 A = R.P12_eb1 (K.toR A) := rfl
theorem P12_eW2_eq : K.P12_eW2 A = R.P12_eW2 (K.toR A) := rfl
theorem P12_eb2_eq : K.P12_eb2 A = R.P12_eb2 (K.toR A) := rfl
theorem P12_nW1_eq : K.P12_nW1 A = R.P12_nW1 (K.toR A) := rfl
theorem P12_nb1_eq : K.P12_nb1 A = R.P12_nb1 (K.toR A) := rfl
theorem P12_nW2_eq : K.P12_nW2 A = R.P12_nW2 (K.toR A) := rfl
theorem P12_nb2_eq : K.P12_nb2 A = R.P12_nb2 (K.toR A) := rfl
theorem P12_gW1_eq : K.P12_gW1 A = R.P12_gW1 (K.toR A) := rfl
theorem P12_gb1_eq : K.P12_gb1 A = R.P12_gb1 (K.toR A) := rfl
theorem P12_gW2_eq : K.P12_gW2 A = R.P12_gW2 (K.toR A) := rfl
theorem P12_gb2_eq : K.P12_gb2 A = R.P12_gb2 (K.toR A) := rfl

theorem g0_eq : K.g0 = R.g0 := rfl
theorem zcol_eq : K.zcol = R.zcol := rfl

/-! ### Layer 0 -/

theorem lin0_eq (h1 : InRange A.a1) (h2 : InRange A.a2) : K.lin0 A = R.lin0 (K.toR A) := by
  unfold K.lin0 R.lin0
  rw [zcol_eq] <;> rfl

theorem le1_eq (h1 : InRange A.a1) (h2 : InRange A.a2) : K.le1 A = R.le1 (K.toR A) := by
  unfold K.le1 R.le1
  rw [edge_step K.edgeFn edgeFn_row, take_eq_refGather _ _ (lr_range A h1), take_eq_refGather _ _ (lc_range A h1),
    lr_eq A, lc_eq A, lin0_eq A h1 h2, g0_eq, P00_eW1_eq A, P00_eb1_eq A, P00_eW2_eq A, P00_eb2_eq A] <;> rfl

theorem la1_eq (h1 : InRange A.a1) (h2 : InRange A.a2) : K.la1 A = R.la1 (K.toR A) := by
  unfold K.la1 R.la1
  rw [agg_step, le1_eq A h1 h2, lr_eq A] <;> rfl

theorem ln1_eq (h1 : InRange A.a1) (h2 : InRange A.a2) : K.ln1 A = R.ln1 (K.toR A) := by
  unfold K.ln1 R.ln1
  rw [node_step K.nodeFn nodeFn_row, la1_eq A h1 h2, g0_eq, P00_nW1_eq A, P00_nb1_eq A, P00_nW2_eq A, P00_nb2_eq A] <;> rfl

theorem g1_eq (h1 : InRange A.a1) (h2 : InRange A.a2) : K.g1 A = R.g1 (K.toR A) := by
  unfold K.g1 R.g1
  rw [glob_step, ln1_eq A h1 h2, le1_eq A h1 h2, g0_eq, P00_gW1_eq A, P00_gb1_eq A, P00_gW2_eq A, P00_gb2_eq A] <;> rfl

theorem uin0_eq (h1 : InRange A.a1) (h2 : InRange A.a2) : K.uin0 A = R.uin0 (K.toR A) := by
  unfold K.uin0 R.uin0
  rw [zcol_eq] <;> rfl

theorem ue1_eq (h1 : InRange A.a1) (h2 : InRange A.a2) : K.ue1 A = R.ue1 (K.toR A) := by
  unfold K.ue1 R.ue1
  rw [edge_step K.edgeFn edgeFn_row, take_eq_refGather _ _ (ur_range A h2), take_eq_refGather _ _ (uc_range A h2),
    ln1_eq A h1 h2, ur_eq A, uc_eq A, uin0_eq A h1 h2, g1_eq A h1 h2, P10_eW1_eq A, P10_eb1_eq A, P10_eW2_eq A, P10_eb2_eq A] <;> rfl

theorem ua1_eq (h1 : InRange A.a1) (h2 : InRange A.a2) : K.ua1 A = R.ua1 (K.toR A) := by
  unfold K.ua1 R.ua1
  rw [agg_step, ue1_eq A h1 h2, ur_eq A] <;> rfl

theorem un1_eq (h1 : InRange A.a1) (h2 : InRange A.a2) : K.un1 A = R.un1 (K.toR A) := by
  unfold K.un1 R.un1
  rw [node_step K.nodeFn nodeFn_row, ln1_eq A h1 h2, ua1_eq A h1 h2, g1_eq A h1 h2, P10_nW1_eq A, P10_nb1_eq A, P10_nW2_eq A, P10_nb2_eq A] <;> rfl

theorem g2_eq (h1 : InRange A.a1) (h2 : InRange A.a2) : K.g2 A = R.g2 (K.toR A) := by
  unfold K.g2 R.g2
  rw [glob_step, un1_eq A h1 h2, ue1_eq A h1 h2, g1_eq A h1 h2, P10_gW1_eq A, P10_gb1_eq A, P10_gW2_eq A, P10_gb2_eq A] <;> rfl

/-! ### Layer 1 -/

theorem lin1_eq (h1 : InRange A.a1) (h2 : InRange A.a2) : K.lin1 A = R.lin1 (K.toR A) := by
  unfold K.lin1 R.lin1
  rw [le1_eq A h1 h2] <;> rfl

theorem le2_eq (h1 : InRange A.a1) (h2 : InRange A.a2) : K.le2 A = R.le2 (K.toR A) := by
  unfold K.le2 R.le2
  rw [edge_step K.edgeFn edgeFn_row, take_eq_refGather _ _ (lr_range A h1), take_eq_refGather _ _ (lc_range A h1),
    lr_eq A, lc_eq A, lin1_eq A h1 h2, g2_eq A h1 h2, P01_eW1_eq A, P01_eb1_eq A, P01_eW2_eq A, P01_eb2_eq A] <;> rfl

theorem la2_eq (h1 : InRange A.a1) (h2 : InRange A.a2) : K.la2 A = R.la2 (K.toR A) := by
  unfold K.la2 R.la2
  rw [agg_step, le2_eq A h1 h2, lr_eq A] <;> rfl

theorem ln2_eq (h1 : InRange A.a1) (h2 : InRange A.a2) : K.ln2 A = R.ln2 (K.toR A) := by
  unfold K.ln2 R.ln2
  rw [node_step K.nodeFn nodeFn_row, la2_eq A h1 h2, g2_eq A h1 h2, P01_nW1_eq A, P01_nb1_eq A, P01_nW2_eq A, P01_nb2_eq A] <;> rfl

theorem g3_eq (h1 : InRange A.a1) (h2 : InRange A.a2) : K.g3 A = R.g3 (K.toR A) := by
  unfold K.g3 R.g3
  rw [glob_step, ln2_eq A h1 h2, le2_eq A h1 h2, g2_eq A h1 h2, P01_gW1_eq A, P01_gb1_eq A, P01_gW2_eq A, P01_gb2_eq A] <;> rfl

theorem uin1_eq (h1 : InRange A.a1) (h2 : InRange A.a2) : K.uin1 A = R.uin1 (K.toR A) := by
  unfold K.uin1 R.uin1
  rw [ue1_eq A h1 h2, zcol_eq] <;> rfl

theorem ue2_eq (h1 : InRange A.a1) (h2 : InRange A.a2) : K.ue2 A = R.ue2 (K.toR A) := by
  unfold K.ue2 R.ue2
  rw [edge_step K.edgeFn edgeFn_row, take_eq_refGather _ _ (ur_range A h2), take_eq_refGather _ _ (uc_range A h2),
    ln2_eq A h1 h2, ur_eq A, uc_eq A, uin1_eq A h1 h2, g3_eq A h1 h2, P11_eW1_eq A, P11_eb1_eq A, P11_eW2_eq A, P11_eb2_eq A] <;> rfl

theorem ua2_eq (h1 : InRange A.a1) (h2 : InRange A.a2) : K.ua2 A = R.ua2 (K.toR A) := by
  unfold K.ua2 R.ua2
  rw [agg_step, ue2_eq A h1 h2, ur_eq A] <;> rfl

theorem un2_eq (h1 : InRange A.a1) (h2 : InRange A.a2) : K.un2 A = R.un2 (K.toR A) := by
  unfold K.un2 R.un2
  rw [node_step K.nodeFn nodeFn_row, ln2_eq A h1 h2, ua2_eq A h1 h2, g3_eq A h1 h2, P11_nW1_eq A, P11_nb1_eq A, P11_nW2_eq A, P11_nb2_eq A] <;> rfl

theorem g4_eq (h1 : InRange A.a1) (h2 : InRange A.a2) : K.g4 A = R.g4 (K.toR A) := by
  unfold K.g4 R.g4
  rw [glob_step, un2_eq A h1 h2, ue2_eq A h1 h2, g3_eq A h1 h2, P11_gW1_eq A, P11_gb1_eq A, P11_gW2_eq A, P11_gb2_eq A] <;> rfl

/-! ### Layer 2 -/

theorem lin2_eq (h1 : InRange A.a1) (h2 : InRange A.a2) : K.lin2 A = R.lin2 (K.toR A) := by
  unfold K.lin2 R.lin2
  rw [le2_eq A h1 h2] <;> rfl

theorem le3_eq (h1 : InRange A.a1) (h2 : InRange A.a2) : K.le3 A = R.le3 (K.toR A) := by
  unfold K.le3 R.le3
  rw [edge_step K.edgeFn edgeFn_row, take_eq_refGather _ _ (lr_range A h1), take_eq_refGather _ _ (lc_range A h1),
    lr_eq A, lc_eq A, lin2_eq A h1 h2, g4_eq A h1 h2, P02_eW1_eq A, P02_eb1_eq A, P02_eW2_eq A, P02_eb2_eq A] <;> rfl

theorem la3_eq (h1 : InRange A.a1) (h2 : InRange A.a2) : K.la3 A = R.la3 (K.toR A) := by
  unfold K.la3 R.la3
  rw [agg_step, le3_eq A h1 h2, lr_eq A] <;> rfl

theorem ln3_eq (h1 : InRange A.a1) (h2 : InRange A.a2) : K.ln3 A = R.ln3 (K.toR A) := by
  unfold K.ln3 R.ln3
  rw [node_step K.nodeFn nodeFn_row, la3_eq A h1 h2, g4_eq A h1 h2, P02_nW1_eq A, P02_nb1_eq A, P02_nW2_eq A, P02_nb2_eq A] <;> rfl

theorem g5_eq (h1 : InRange A.a1) (h2 : InRange A.a2) : K.g5 A = R.g5 (K.toR A) := by
  unfold K.g5 R.g5
  rw [glob_step, ln3_eq A h1 h2, le3_eq A h1 h2, g4_eq A h1 h2, P02_gW1_eq A, P02_gb1_eq A, P02_gW2_eq A, P02_gb2_eq A] <;> rfl

theorem uin2_eq (h1 : InRange A.a1) (h2 : InRange A.a2) : K.uin2 A = R.uin2 (K.toR A) := by
  unfold K.uin2 R.uin2
  rw [ue2_eq A h1 h2, zcol_eq] <;> rfl

theorem ue3_eq (h1 : InRange A.a1) (h2 : InRange A.a2) : K.ue3 A = R.ue3 (K.toR A) := by
  unfold K.ue3 R.ue3
  rw [edge_step K.edgeFn edgeFn_row, take_eq_refGather _ _ (ur_range A h2), take_eq_refGather _ _ (uc_range A h2),
    ln3_eq A h1 h2, ur_eq A, uc_eq A, uin2_eq A h1 h2, g5_eq A h1 h2, P12_eW1_eq A, P12_eb1_eq A, P12_eW2_eq A, P12_eb2_eq A] <;> rfl

theorem ua3_eq (h1 : InRange A.a1) (h2 : InRange A.a2) : K.ua3 A = R.ua3 (K.toR A) := by
  unfold K.ua3 R.ua3
  rw [agg_step, ue3_eq A h1 h2, ur_eq A] <;> rfl

theorem un3_eq (h1 : InRange A.a1) (h2 : InRange A.a2) : K.un3 A = R.un3 (K.toR A) := by
  unfold K.un3 R.un3
  rw [node_step K.nodeFn nodeFn_row, ln3_eq A h1 h2, ua3_eq A h1 h2, g5_eq A h1 h2, P12_nW1_eq A, P12_nb1_eq A, P12_nW2_eq A, P12_nb2_eq A] <;> rfl

theorem g6_eq (h1 : InRange A.a1) (h2 : InRange A.a2) : K.g6 A = R.g6 (K.toR A) := by
  unfold K.g6 R.g6
  rw [glob_step, un3_eq A h1 h2, ue3_eq A h1 h2, g5_eq A h1 h2, P12_gW1_eq A, P12_gb1_eq A, P12_gW2_eq A, P12_gb2_eq A] <;> rfl

/-! ## The result -/

theorem result_eq (h1 : InRange A.a1) (h2 : InRange A.a2) : K.result A = R.result (K.toR A) := by
  unfold K.result R.result
  rw [final_step, lr_eq A, lc_eq A, ur_eq A, uc_eq A, le3_eq A h1 h2, ue3_eq A h1 h2] <;> rfl

/-- THE TWO VALUES ARE EQUAL where the two index arrays are in range. -/
theorem dag_eq (h1 : InRange A.a1) (h2 : InRange A.a2) : K.result A = R.result (K.toR A) := result_eq A h1 h2

end Cert.Val.DagEq

end
-- ==== Proof.Val.KReadLib.lean ====
import proofs.«426760_j80470507258346_3_alg».proof.Proof.Gen.KernelIdeal.Launch
import proofs.«426760_j80470507258346_3_alg».proof.Proof.Val.DagK
import Idealize.ShloMosaic.Lib.StableHlo.Run

set_option maxRecDepth 16384

noncomputable section

namespace Cert.Val.KRead

open Idealize.ShloMosaic Idealize.ShloMosaic.TcCoe Idealize.SL.Sem Idealize.ShloMosaic.StableHlo

/-! # Reading the kernel program's buffers: the common tools

A literal family of references read at a literal position, and the computation of what a buffer holds after a straight
line of operations: one rewriting pass, then the same rules applied one at a time where the pass does not reach (the
arrays listed inside a concatenation). -/

section Tools
variable {sig : RefSig}

/-- A literal family of references at a literal position. -/
theorem vec3_0 (a b c : Ref sig .tc) : (![a, b, c] : Fin 3 → Ref sig .tc) 0 = a := rfl
theorem vec3_1 (a b c : Ref sig .tc) : (![a, b, c] : Fin 3 → Ref sig .tc) 1 = b := rfl
theorem vec3_2 (a b c : Ref sig .tc) : (![a, b, c] : Fin 3 → Ref sig .tc) 2 = c := rfl
theorem vec4_0 (a b c d : Ref sig .tc) : (![a, b, c, d] : Fin 4 → Ref sig .tc) 0 = a := rfl
theorem vec4_1 (a b c d : Ref sig .tc) : (![a, b, c, d] : Fin 4 → Ref sig .tc) 1 = b := rfl
theorem vec4_2 (a b c d : Ref sig .tc) : (![a, b, c, d] : Fin 4 → Ref sig .tc) 2 = c := rfl
theorem vec4_3 (a b c d : Ref sig .tc) : (![a, b, c, d] : Fin 4 → Ref sig .tc) 3 = d := rfl

end Tools

/-- What one buffer holds after a literal line of operations: each operation's result at its own buffer is its
    function's value, at any other buffer what was there. One rewriting pass; then, for what sits where the pass does
    not rewrite, the same facts one at a time. -/
macro "kr_results" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', vec3_0, vec3_1, vec3_2, vec4_0, vec4_1, vec4_2, vec4_3]
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Cert.Val.KRead

end
-- ==== Proof.Val.KReadC.lean ====
import proofs.«426760_j80470507258346_3_alg».proof.Proof.Gen.KernelIdeal

noncomputable section

namespace Cert.Val.KRead

open Cert.KernelIdeal Cert.KernelIdeal.Gen Idealize.ShloMosaic

/-! # The kernel program's intermediate buffers as functions of what their item reads

A stage of the program spans several items of @main (the host operations between two calls, a called function's
operations, a pipeline). For each buffer a host item hands to a later item that is not itself a named value — a
gathered row array, its rounding, its padding, a weight group, a bias row, a partial mean — the composition of the
item's operations that computes it, over the buffers the item reads; generic in the float instance. -/

variable {F : FTy → Type} [FloatOps F]

/-- The contents of `main_v1` as a function of the buffers its item reads (arg1). -/
def C_v1 (x0 : IVec S2x1100000 32) : IVec S1100000 32 :=
  (shapeCast S1100000 (((extractStridedSlice S1x1100000 ![0, 0] · slices_S2x1100000_S1x1100000_0_0) : (⟨S2x1100000, .i32⟩ : BufTy).Contents (Elt F) → (⟨S1x1100000, .i32⟩ : BufTy).Contents (Elt F)) x0) shapeCasts_S1x1100000_S1100000)

/-- The contents of `main_v3` as a function of the buffers its item reads (arg1). -/
def C_v3 (x0 : IVec S2x1100000 32) : IVec S1100000 32 :=
  (shapeCast S1100000 (((extractStridedSlice S1x1100000 ![1, 0] · slices_S2x1100000_S1x1100000_1_0) : (⟨S2x1100000, .i32⟩ : BufTy).Contents (Elt F) → (⟨S1x1100000, .i32⟩ : BufTy).Contents (Elt F)) x0) shapeCasts_S1x1100000_S1100000)

/-- The contents of `main_v16` as a function of the buffers its item reads (arg1). -/
def C_v16 (x0 : IVec S2x1100000 32) : FVec F S100000x1 .f32 :=
  ((Host.divf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x3F800000#32)) ((maximumf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) (shapeCast S1100000 (((extractStridedSlice S1x1100000 ![0, 0] · slices_S2x1100000_S1x1100000_0_0) : (⟨S2x1100000, .i32⟩ : BufTy).Contents (Elt F) → (⟨S1x1100000, .i32⟩ : BufTy).Contents (Elt F)) x0) shapeCasts_S1x1100000_S1100000)) ((broadcastInDim S1100000x1 ![] bcast_S_S1100000x1 : (⟨S_, .f32⟩ : BufTy).Contents (Elt F) → (⟨S1100000x1, .f32⟩ : BufTy).Contents (Elt F)) (constant (F := F) S_ .f32 0x3F800000#32))) ((broadcastInDim S100000x1 ![] bcast_S_S100000x1 : (⟨S_, .f32⟩ : BufTy).Contents (Elt F) → (⟨S100000x1, .f32⟩ : BufTy).Contents (Elt F)) (constant (F := F) S_ .f32 0x3F800000#32))))

/-- The contents of `main_v24` as a function of the buffers its item reads (arg0). -/
def C_v24 (x0 : FVec F S100000x8 .f32) : FVec F S100000x8 .bf16 :=
  (((truncf .bf16 · bitsLt_bf16_f32) : (⟨S100000x8, .f32⟩ : BufTy).Contents (Elt F) → (⟨S100000x8, .bf16⟩ : BufTy).Contents (Elt F)) x0)

/-- The contents of `main_v5` as a function of the buffers its item reads (arg2). -/
def C_v5 (x0 : IVec S2x1100000 32) : IVec S1100000 32 :=
  (shapeCast S1100000 (((extractStridedSlice S1x1100000 ![0, 0] · slices_S2x1100000_S1x1100000_0_0) : (⟨S2x1100000, .i32⟩ : BufTy).Contents (Elt F) → (⟨S1x1100000, .i32⟩ : BufTy).Contents (Elt F)) x0) shapeCasts_S1x1100000_S1100000)

/-- The contents of `main_v7` as a function of the buffers its item reads (arg2). -/
def C_v7 (x0 : IVec S2x1100000 32) : IVec S1100000 32 :=
  (shapeCast S1100000 (((extractStridedSlice S1x1100000 ![1, 0] · slices_S2x1100000_S1x1100000_1_0) : (⟨S2x1100000, .i32⟩ : BufTy).Contents (Elt F) → (⟨S1x1100000, .i32⟩ : BufTy).Contents (Elt F)) x0) shapeCasts_S1x1100000_S1100000)

/-- The contents of `main_v23` as a function of the buffers its item reads (arg2). -/
def C_v23 (x0 : IVec S2x1100000 32) : FVec F S100000x1 .f32 :=
  ((Host.divf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x3F800000#32)) ((maximumf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) (shapeCast S1100000 (((extractStridedSlice S1x1100000 ![0, 0] · slices_S2x1100000_S1x1100000_0_0) : (⟨S2x1100000, .i32⟩ : BufTy).Contents (Elt F) → (⟨S1x1100000, .i32⟩ : BufTy).Contents (Elt F)) x0) shapeCasts_S1x1100000_S1100000)) ((broadcastInDim S1100000x1 ![] bcast_S_S1100000x1 : (⟨S_, .f32⟩ : BufTy).Contents (Elt F) → (⟨S1100000x1, .f32⟩ : BufTy).Contents (Elt F)) (constant (F := F) S_ .f32 0x3F800000#32))) ((broadcastInDim S100000x1 ![] bcast_S_S100000x1 : (⟨S_, .f32⟩ : BufTy).Contents (Elt F) → (⟨S100000x1, .f32⟩ : BufTy).Contents (Elt F)) (constant (F := F) S_ .f32 0x3F800000#32))))

/-- The contents of `main_v25` as a function of the buffers its item reads (v1, arg0). -/
def C_v25 (x0 : IVec S1100000 32) (x1 : FVec F S100000x8 .f32) : FVec F S1100000x8 .f32 :=
  ((select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) (((broadcastInDim S1100000x8 ![0] bcast_S1100000_S1100000x8_0) : (⟨S1100000, .i1⟩ : BufTy).Contents (Elt F) → (⟨S1100000x8, .i1⟩ : BufTy).Contents (Elt F)) (((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)) ((andi : (⟨S1100000x1, .i1⟩ : BufTy).Contents (Elt F) → (⟨S1100000x1, .i1⟩ : BufTy).Contents (Elt F) → (⟨S1100000x1, .i1⟩ : BufTy).Contents (Elt F)) (((cmpi .sge) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![] bcast_S_S1100000x1) : (⟨S_, .i32⟩ : BufTy).Contents (Elt F) → (⟨S1100000x1, .i32⟩ : BufTy).Contents (Elt F)) ((constantI S_ 32 0#32) : (⟨S_, .i32⟩ : BufTy).Contents (Elt F)))) (((cmpi .sle) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![0, 1] bcast_S1x1_S1100000x1_0_1) : (⟨S1x1, .i32⟩ : BufTy).Contents (Elt F) → (⟨S1100000x1, .i32⟩ : BufTy).Contents (Elt F)) (((broadcastInDim S1x1 ![1] bcast_S1_S1x1_1) : (⟨S1, .i32⟩ : BufTy).Contents (Elt F) → (⟨S1x1, .i32⟩ : BufTy).Contents (Elt F)) ((constantI S1 32 99999#32) : (⟨S1, .i32⟩ : BufTy).Contents (Elt F)))))) ((constantI S_ 1 1#1) : (⟨S_, .i1⟩ : BufTy).Contents (Elt F)))) (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x1 (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0))) (((broadcastInDim S1100000x8 ![] bcast_S_S1100000x8) : (⟨S_, .f32⟩ : BufTy).Contents (Elt F) → (⟨S1100000x8, .f32⟩ : BufTy).Contents (Elt F)) ((constant S_ .f32 0x7FC00000#32) : (⟨S_, .f32⟩ : BufTy).Contents (Elt F))))

/-- The contents of `main_v26` as a function of the buffers its item reads (v25). -/
def C_v26 (x0 : FVec F S1100000x8 .f32) : FVec F S1100000x8 .bf16 :=
  (((truncf .bf16 · bitsLt_bf16_f32) : (⟨S1100000x8, .f32⟩ : BufTy).Contents (Elt F) → (⟨S1100000x8, .bf16⟩ : BufTy).Contents (Elt F)) x0)

/-- The contents of `main_v27` as a function of the buffers its item reads (v3, arg0). -/
def C_v27 (x0 : IVec S1100000 32) (x1 : FVec F S100000x8 .f32) : FVec F S1100000x8 .f32 :=
  ((select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) (((broadcastInDim S1100000x8 ![0] bcast_S1100000_S1100000x8_0) : (⟨S1100000, .i1⟩ : BufTy).Contents (Elt F) → (⟨S1100000x8, .i1⟩ : BufTy).Contents (Elt F)) (((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)) ((andi : (⟨S1100000x1, .i1⟩ : BufTy).Contents (Elt F) → (⟨S1100000x1, .i1⟩ : BufTy).Contents (Elt F) → (⟨S1100000x1, .i1⟩ : BufTy).Contents (Elt F)) (((cmpi .sge) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![] bcast_S_S1100000x1) : (⟨S_, .i32⟩ : BufTy).Contents (Elt F) → (⟨S1100000x1, .i32⟩ : BufTy).Contents (Elt F)) ((constantI S_ 32 0#32) : (⟨S_, .i32⟩ : BufTy).Contents (Elt F)))) (((cmpi .sle) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![0, 1] bcast_S1x1_S1100000x1_0_1) : (⟨S1x1, .i32⟩ : BufTy).Contents (Elt F) → (⟨S1100000x1, .i32⟩ : BufTy).Contents (Elt F)) (((broadcastInDim S1x1 ![1] bcast_S1_S1x1_1) : (⟨S1, .i32⟩ : BufTy).Contents (Elt F) → (⟨S1x1, .i32⟩ : BufTy).Contents (Elt F)) ((constantI S1 32 99999#32) : (⟨S1, .i32⟩ : BufTy).Contents (Elt F)))))) ((constantI S_ 1 1#1) : (⟨S_, .i1⟩ : BufTy).Contents (Elt F)))) (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x1 (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0))) (((broadcastInDim S1100000x8 ![] bcast_S_S1100000x8) : (⟨S_, .f32⟩ : BufTy).Contents (Elt F) → (⟨S1100000x8, .f32⟩ : BufTy).Contents (Elt F)) ((constant S_ .f32 0x7FC00000#32) : (⟨S_, .f32⟩ : BufTy).Contents (Elt F))))

/-- The contents of `main_c` as a function of the buffers its item reads (none). -/
def C_c  : IVec S_ 32 :=
  (constantI S_ 32 0#32)

/-- The contents of `main_v28` as a function of the buffers its item reads (v27). -/
def C_v28 (x0 : FVec F S1100000x8 .f32) : FVec F S1100000x8 .bf16 :=
  (((truncf .bf16 · bitsLt_bf16_f32) : (⟨S1100000x8, .f32⟩ : BufTy).Contents (Elt F) → (⟨S1100000x8, .bf16⟩ : BufTy).Contents (Elt F)) x0)

/-- The contents of `main_v81` as a function of the buffers its item reads (arg3). -/
def C_v81 (x0 : FVec F S1100000x1 .f32) : FVec F S1100000x2 .bf16 :=
  (((truncf .bf16 · bitsLt_bf16_f32) : (⟨S1100000x2, .f32⟩ : BufTy).Contents (Elt F) → (⟨S1100000x2, .bf16⟩ : BufTy).Contents (Elt F)) (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 ((broadcastInDim S1100000x1 ![] bcast_S_S1100000x1 : (⟨S_, .f32⟩ : BufTy).Contents (Elt F) → (⟨S1100000x1, .f32⟩ : BufTy).Contents (Elt F)) (constant (F := F) S_ .f32 0x00000000#32))))

/-- The contents of `main_v83` as a function of the buffers its item reads (arg5). -/
def C_v83 (x0 : FVec F S2x3x26x32 .f32) : FVec F S8x32 .f32 :=
  (((extractStridedSlice S8x32 ![8, 0] · slices_S26x32_S8x32_8_0) : (⟨S26x32, .f32⟩ : BufTy).Contents (Elt F) → (⟨S8x32, .f32⟩ : BufTy).Contents (Elt F)) (shapeCast S26x32 (((extractStridedSlice S1x1x26x32 ![0, 0, 0, 0] · slices_S2x3x26x32_S1x1x26x32_0_0_0_0) : (⟨S2x3x26x32, .f32⟩ : BufTy).Contents (Elt F) → (⟨S1x1x26x32, .f32⟩ : BufTy).Contents (Elt F)) x0) shapeCasts_S1x1x26x32_S26x32))

/-- The contents of `main_v84` as a function of the buffers its item reads (arg5). -/
def C_v84 (x0 : FVec F S2x3x26x32 .f32) : FVec F S8x32 .f32 :=
  (((extractStridedSlice S8x32 ![16, 0] · slices_S26x32_S8x32_16_0) : (⟨S26x32, .f32⟩ : BufTy).Contents (Elt F) → (⟨S8x32, .f32⟩ : BufTy).Contents (Elt F)) (shapeCast S26x32 (((extractStridedSlice S1x1x26x32 ![0, 0, 0, 0] · slices_S2x3x26x32_S1x1x26x32_0_0_0_0) : (⟨S2x3x26x32, .f32⟩ : BufTy).Contents (Elt F) → (⟨S1x1x26x32, .f32⟩ : BufTy).Contents (Elt F)) x0) shapeCasts_S1x1x26x32_S26x32))

/-- The contents of `main_v85` as a function of the buffers its item reads (arg5). -/
def C_v85 (x0 : FVec F S2x3x26x32 .f32) : FVec F S2x32 .f32 :=
  (((extractStridedSlice S2x32 ![24, 0] · slices_S26x32_S2x32_24_0) : (⟨S26x32, .f32⟩ : BufTy).Contents (Elt F) → (⟨S2x32, .f32⟩ : BufTy).Contents (Elt F)) (shapeCast S26x32 (((extractStridedSlice S1x1x26x32 ![0, 0, 0, 0] · slices_S2x3x26x32_S1x1x26x32_0_0_0_0) : (⟨S2x3x26x32, .f32⟩ : BufTy).Contents (Elt F) → (⟨S1x1x26x32, .f32⟩ : BufTy).Contents (Elt F)) x0) shapeCasts_S1x1x26x32_S26x32))

/-- The contents of `main_v88` as a function of the buffers its item reads (arg6, arg5). -/
def C_v88 (x0 : FVec F S2x3x32 .f32) (x1 : FVec F S2x3x26x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 (shapeCast S32 (((extractStridedSlice S1x1x32 ![0, 0, 0] · slices_S2x3x32_S1x1x32_0_0_0) : (⟨S2x3x32, .f32⟩ : BufTy).Contents (Elt F) → (⟨S1x1x32, .f32⟩ : BufTy).Contents (Elt F)) x0) shapeCasts_S1x1x32_S32) shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) ((broadcastInDim S1x8 ![] bcast_S_S1x8 : (⟨S_, .f32⟩ : BufTy).Contents (Elt F) → (⟨S1x8, .f32⟩ : BufTy).Contents (Elt F)) (constant (F := F) S_ .f32 0x00000000#32)) (((extractStridedSlice S8x32 ![0, 0] · slices_S26x32_S8x32_0_0) : (⟨S26x32, .f32⟩ : BufTy).Contents (Elt F) → (⟨S8x32, .f32⟩ : BufTy).Contents (Elt F)) (shapeCast S26x32 (((extractStridedSlice S1x1x26x32 ![0, 0, 0, 0] · slices_S2x3x26x32_S1x1x26x32_0_0_0_0) : (⟨S2x3x26x32, .f32⟩ : BufTy).Contents (Elt F) → (⟨S1x1x26x32, .f32⟩ : BufTy).Contents (Elt F)) x1) shapeCasts_S1x1x26x32_S26x32))))

/-- The contents of `main_v37` as a function of the buffers its item reads (arg7). -/
def C_v37 (x0 : FVec F S2x3x32x1 .f32) : FVec F S32x1 .f32 :=
  (shapeCast S32x1 (((extractStridedSlice S1x1x32x1 ![0, 0, 0, 0] · slices_S2x3x32x1_S1x1x32x1_0_0_0_0) : (⟨S2x3x32x1, .f32⟩ : BufTy).Contents (Elt F) → (⟨S1x1x32x1, .f32⟩ : BufTy).Contents (Elt F)) x0) shapeCasts_S1x1x32x1_S32x1)

/-- The contents of `main_v89` as a function of the buffers its item reads (arg8). -/
def C_v89 (x0 : FVec F S2x3x1 .f32) : FVec F S1x1 .f32 :=
  (shapeCast S1x1 (shapeCast S1 (((extractStridedSlice S1x1x1 ![0, 0, 0] · slices_S2x3x1_S1x1x1_0_0_0) : (⟨S2x3x1, .f32⟩ : BufTy).Contents (Elt F) → (⟨S1x1x1, .f32⟩ : BufTy).Contents (Elt F)) x0) shapeCasts_S1x1x1_S1) shapeCasts_S1_S1x1)

/-- The contents of `main_v41` as a function of the buffers its item reads (arg9). -/
def C_v41 (x0 : FVec F S2x3x17x32 .f32) : FVec F S17x32 .f32 :=
  (shapeCast S17x32 (((extractStridedSlice S1x1x17x32 ![0, 0, 0, 0] · slices_S2x3x17x32_S1x1x17x32_0_0_0_0) : (⟨S2x3x17x32, .f32⟩ : BufTy).Contents (Elt F) → (⟨S1x1x17x32, .f32⟩ : BufTy).Contents (Elt F)) x0) shapeCasts_S1x1x17x32_S17x32)

/-- The contents of `main_v43` as a function of the buffers its item reads (arg10). -/
def C_v43 (x0 : FVec F S2x3x32 .f32) : FVec F S32 .f32 :=
  (shapeCast S32 (((extractStridedSlice S1x1x32 ![0, 0, 0] · slices_S2x3x32_S1x1x32_0_0_0) : (⟨S2x3x32, .f32⟩ : BufTy).Contents (Elt F) → (⟨S1x1x32, .f32⟩ : BufTy).Contents (Elt F)) x0) shapeCasts_S1x1x32_S32)

/-- The contents of `main_v29` as a function of the buffers its item reads (none). -/
def C_v29  : FVec F S1x8 .f32 :=
  ((broadcastInDim S1x8 ![] bcast_S_S1x8 : (⟨S_, .f32⟩ : BufTy).Contents (Elt F) → (⟨S1x8, .f32⟩ : BufTy).Contents (Elt F)) (constant (F := F) S_ .f32 0x00000000#32))

/-- The contents of `main_v47` as a function of the buffers its item reads (arg12). -/
def C_v47 (x0 : FVec F S2x3x8 .f32) : FVec F S8 .f32 :=
  (shapeCast S8 (((extractStridedSlice S1x1x8 ![0, 0, 0] · slices_S2x3x8_S1x1x8_0_0_0) : (⟨S2x3x8, .f32⟩ : BufTy).Contents (Elt F) → (⟨S1x1x8, .f32⟩ : BufTy).Contents (Elt F)) x0) shapeCasts_S1x1x8_S8)

/-- The contents of `main_v45` as a function of the buffers its item reads (arg11). -/
def C_v45 (x0 : FVec F S2x3x32x8 .f32) : FVec F S32x8 .f32 :=
  (shapeCast S32x8 (((extractStridedSlice S1x1x32x8 ![0, 0, 0, 0] · slices_S2x3x32x8_S1x1x32x8_0_0_0_0) : (⟨S2x3x32x8, .f32⟩ : BufTy).Contents (Elt F) → (⟨S1x1x32x8, .f32⟩ : BufTy).Contents (Elt F)) x0) shapeCasts_S1x1x32x8_S32x8)

/-- The contents of `main_v51` as a function of the buffers its item reads (arg14). -/
def C_v51 (x0 : FVec F S2x3x32 .f32) : FVec F S32 .f32 :=
  (shapeCast S32 (((extractStridedSlice S1x1x32 ![0, 0, 0] · slices_S2x3x32_S1x1x32_0_0_0) : (⟨S2x3x32, .f32⟩ : BufTy).Contents (Elt F) → (⟨S1x1x32, .f32⟩ : BufTy).Contents (Elt F)) x0) shapeCasts_S1x1x32_S32)

/-- The contents of `main_v55` as a function of the buffers its item reads (arg16). -/
def C_v55 (x0 : FVec F S2x3x8 .f32) : FVec F S8 .f32 :=
  (shapeCast S8 (((extractStridedSlice S1x1x8 ![0, 0, 0] · slices_S2x3x8_S1x1x8_0_0_0) : (⟨S2x3x8, .f32⟩ : BufTy).Contents (Elt F) → (⟨S1x1x8, .f32⟩ : BufTy).Contents (Elt F)) x0) shapeCasts_S1x1x8_S8)

/-- The contents of `main_v49` as a function of the buffers its item reads (arg13). -/
def C_v49 (x0 : FVec F S2x3x17x32 .f32) : FVec F S17x32 .f32 :=
  (shapeCast S17x32 (((extractStridedSlice S1x1x17x32 ![0, 0, 0, 0] · slices_S2x3x17x32_S1x1x17x32_0_0_0_0) : (⟨S2x3x17x32, .f32⟩ : BufTy).Contents (Elt F) → (⟨S1x1x17x32, .f32⟩ : BufTy).Contents (Elt F)) x0) shapeCasts_S1x1x17x32_S17x32)

/-- The contents of `main_v53` as a function of the buffers its item reads (arg15). -/
def C_v53 (x0 : FVec F S2x3x32x8 .f32) : FVec F S32x8 .f32 :=
  (shapeCast S32x8 (((extractStridedSlice S1x1x32x8 ![0, 0, 0, 0] · slices_S2x3x32x8_S1x1x32x8_0_0_0_0) : (⟨S2x3x32x8, .f32⟩ : BufTy).Contents (Elt F) → (⟨S1x1x32x8, .f32⟩ : BufTy).Contents (Elt F)) x0) shapeCasts_S1x1x32x8_S32x8)

/-- The contents of `main_v31` as a function of the buffers its item reads (none). -/
def C_v31  : FVec F S1100000x1 .f32 :=
  ((broadcastInDim S1100000x1 ![] bcast_S_S1100000x1 : (⟨S_, .f32⟩ : BufTy).Contents (Elt F) → (⟨S1100000x1, .f32⟩ : BufTy).Contents (Elt F)) (constant (F := F) S_ .f32 0x00000000#32))

/-- The contents of `main_v57` as a function of the buffers its item reads (arg5). -/
def C_v57 (x0 : FVec F S2x3x26x32 .f32) : FVec F S26x32 .f32 :=
  (shapeCast S26x32 (((extractStridedSlice S1x1x26x32 ![1, 0, 0, 0] · slices_S2x3x26x32_S1x1x26x32_1_0_0_0) : (⟨S2x3x26x32, .f32⟩ : BufTy).Contents (Elt F) → (⟨S1x1x26x32, .f32⟩ : BufTy).Contents (Elt F)) x0) shapeCasts_S1x1x26x32_S26x32)

/-- The contents of `main_v59` as a function of the buffers its item reads (arg6). -/
def C_v59 (x0 : FVec F S2x3x32 .f32) : FVec F S32 .f32 :=
  (shapeCast S32 (((extractStridedSlice S1x1x32 ![1, 0, 0] · slices_S2x3x32_S1x1x32_1_0_0) : (⟨S2x3x32, .f32⟩ : BufTy).Contents (Elt F) → (⟨S1x1x32, .f32⟩ : BufTy).Contents (Elt F)) x0) shapeCasts_S1x1x32_S32)

/-- The contents of `main_v63` as a function of the buffers its item reads (arg8). -/
def C_v63 (x0 : FVec F S2x3x1 .f32) : FVec F S1 .f32 :=
  (shapeCast S1 (((extractStridedSlice S1x1x1 ![1, 0, 0] · slices_S2x3x1_S1x1x1_1_0_0) : (⟨S2x3x1, .f32⟩ : BufTy).Contents (Elt F) → (⟨S1x1x1, .f32⟩ : BufTy).Contents (Elt F)) x0) shapeCasts_S1x1x1_S1)

/-- The contents of `main_v61` as a function of the buffers its item reads (arg7). -/
def C_v61 (x0 : FVec F S2x3x32x1 .f32) : FVec F S32x1 .f32 :=
  (shapeCast S32x1 (((extractStridedSlice S1x1x32x1 ![1, 0, 0, 0] · slices_S2x3x32x1_S1x1x32x1_1_0_0_0) : (⟨S2x3x32x1, .f32⟩ : BufTy).Contents (Elt F) → (⟨S1x1x32x1, .f32⟩ : BufTy).Contents (Elt F)) x0) shapeCasts_S1x1x32x1_S32x1)

/-- The contents of `main_v65` as a function of the buffers its item reads (arg9). -/
def C_v65 (x0 : FVec F S2x3x17x32 .f32) : FVec F S17x32 .f32 :=
  (shapeCast S17x32 (((extractStridedSlice S1x1x17x32 ![1, 0, 0, 0] · slices_S2x3x17x32_S1x1x17x32_1_0_0_0) : (⟨S2x3x17x32, .f32⟩ : BufTy).Contents (Elt F) → (⟨S1x1x17x32, .f32⟩ : BufTy).Contents (Elt F)) x0) shapeCasts_S1x1x17x32_S17x32)

/-- The contents of `main_v67` as a function of the buffers its item reads (arg10). -/
def C_v67 (x0 : FVec F S2x3x32 .f32) : FVec F S32 .f32 :=
  (shapeCast S32 (((extractStridedSlice S1x1x32 ![1, 0, 0] · slices_S2x3x32_S1x1x32_1_0_0) : (⟨S2x3x32, .f32⟩ : BufTy).Contents (Elt F) → (⟨S1x1x32, .f32⟩ : BufTy).Contents (Elt F)) x0) shapeCasts_S1x1x32_S32)

/-- The contents of `main_v71` as a function of the buffers its item reads (arg12). -/
def C_v71 (x0 : FVec F S2x3x8 .f32) : FVec F S8 .f32 :=
  (shapeCast S8 (((extractStridedSlice S1x1x8 ![1, 0, 0] · slices_S2x3x8_S1x1x8_1_0_0) : (⟨S2x3x8, .f32⟩ : BufTy).Contents (Elt F) → (⟨S1x1x8, .f32⟩ : BufTy).Contents (Elt F)) x0) shapeCasts_S1x1x8_S8)

/-- The contents of `main_v69` as a function of the buffers its item reads (arg11). -/
def C_v69 (x0 : FVec F S2x3x32x8 .f32) : FVec F S32x8 .f32 :=
  (shapeCast S32x8 (((extractStridedSlice S1x1x32x8 ![1, 0, 0, 0] · slices_S2x3x32x8_S1x1x32x8_1_0_0_0) : (⟨S2x3x32x8, .f32⟩ : BufTy).Contents (Elt F) → (⟨S1x1x32x8, .f32⟩ : BufTy).Contents (Elt F)) x0) shapeCasts_S1x1x32x8_S32x8)

/-- The contents of `main_v75` as a function of the buffers its item reads (arg14). -/
def C_v75 (x0 : FVec F S2x3x32 .f32) : FVec F S32 .f32 :=
  (shapeCast S32 (((extractStridedSlice S1x1x32 ![1, 0, 0] · slices_S2x3x32_S1x1x32_1_0_0) : (⟨S2x3x32, .f32⟩ : BufTy).Contents (Elt F) → (⟨S1x1x32, .f32⟩ : BufTy).Contents (Elt F)) x0) shapeCasts_S1x1x32_S32)

/-- The contents of `main_v79` as a function of the buffers its item reads (arg16). -/
def C_v79 (x0 : FVec F S2x3x8 .f32) : FVec F S8 .f32 :=
  (shapeCast S8 (((extractStridedSlice S1x1x8 ![1, 0, 0] · slices_S2x3x8_S1x1x8_1_0_0) : (⟨S2x3x8, .f32⟩ : BufTy).Contents (Elt F) → (⟨S1x1x8, .f32⟩ : BufTy).Contents (Elt F)) x0) shapeCasts_S1x1x8_S8)

/-- The contents of `main_v73` as a function of the buffers its item reads (arg13). -/
def C_v73 (x0 : FVec F S2x3x17x32 .f32) : FVec F S17x32 .f32 :=
  (shapeCast S17x32 (((extractStridedSlice S1x1x17x32 ![1, 0, 0, 0] · slices_S2x3x17x32_S1x1x17x32_1_0_0_0) : (⟨S2x3x17x32, .f32⟩ : BufTy).Contents (Elt F) → (⟨S1x1x17x32, .f32⟩ : BufTy).Contents (Elt F)) x0) shapeCasts_S1x1x17x32_S17x32)

/-- The contents of `main_v77` as a function of the buffers its item reads (arg15). -/
def C_v77 (x0 : FVec F S2x3x32x8 .f32) : FVec F S32x8 .f32 :=
  (shapeCast S32x8 (((extractStridedSlice S1x1x32x8 ![1, 0, 0, 0] · slices_S2x3x32x8_S1x1x32x8_1_0_0_0) : (⟨S2x3x32x8, .f32⟩ : BufTy).Contents (Elt F) → (⟨S1x1x32x8, .f32⟩ : BufTy).Contents (Elt F)) x0) shapeCasts_S1x1x32x8_S32x8)

/-- The contents of `main_v80` as a function of the buffers its item reads (arg3). -/
def C_v80 (x0 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 ((broadcastInDim S1100000x1 ![] bcast_S_S1100000x1 : (⟨S_, .f32⟩ : BufTy).Contents (Elt F) → (⟨S1100000x1, .f32⟩ : BufTy).Contents (Elt F)) (constant (F := F) S_ .f32 0x00000000#32)))

/-- The contents of `main_v90` as a function of the buffers its item reads (v26, c). -/
def C_v90 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_10` as a function of the buffers its item reads (none). -/
def C_c_10  : IVec S_ 32 :=
  (constantI S_ 32 0#32)

/-- The contents of `main_v91` as a function of the buffers its item reads (v28, c_10). -/
def C_v91 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_11` as a function of the buffers its item reads (none). -/
def C_c_11  : IVec S_ 32 :=
  (constantI S_ 32 0#32)

/-- The contents of `main_v92` as a function of the buffers its item reads (v81, c_11). -/
def C_v92 (x0 : FVec F S1100000x2 .bf16) (x1 : IVec S_ 32) : FVec F S1105920x2 .bf16 :=
  (((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) x0 (((sitofp .bf16) : (⟨S_, .i32⟩ : BufTy).Contents (Elt F) → (⟨S_, .bf16⟩ : BufTy).Contents (Elt F)) x1))

/-- The contents of `main_c_13` as a function of the buffers its item reads (none). -/
def C_c_13  : IVec S_ 32 :=
  (constantI S_ 32 0#32)

/-- The contents of `main_v99` as a function of the buffers its item reads (v1, v93, v16). -/
def C_v99 (x0 : IVec S1100000 32) (x1 : FVec F S1105920x1 .f32) (x2 : FVec F S100000x1 .f32) : FVec F S100000x1 .bf16 :=
  (((truncf .bf16 · bitsLt_bf16_f32) : (⟨S100000x1, .f32⟩ : BufTy).Contents (Elt F) → (⟨S100000x1, .bf16⟩ : BufTy).Contents (Elt F)) ((mulf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) (((extractStridedSlice S1100000x1 ![0, 0] · slices_S1105920x1_S1100000x1_0_0) : (⟨S1105920x1, .f32⟩ : BufTy).Contents (Elt F) → (⟨S1100000x1, .f32⟩ : BufTy).Contents (Elt F)) x1)) x2))

/-- The contents of `main_v101` as a function of the buffers its item reads (v41). -/
def C_v101 (x0 : FVec F S17x32 .f32) : FVec F S8x32 .f32 :=
  (((extractStridedSlice S8x32 ![8, 0] · slices_S17x32_S8x32_8_0) : (⟨S17x32, .f32⟩ : BufTy).Contents (Elt F) → (⟨S8x32, .f32⟩ : BufTy).Contents (Elt F)) x0)

/-- The contents of `main_v102` as a function of the buffers its item reads (v41). -/
def C_v102 (x0 : FVec F S17x32 .f32) : FVec F S1x32 .f32 :=
  (((extractStridedSlice S1x32 ![16, 0] · slices_S17x32_S1x32_16_0) : (⟨S17x32, .f32⟩ : BufTy).Contents (Elt F) → (⟨S1x32, .f32⟩ : BufTy).Contents (Elt F)) x0)

/-- The contents of `main_v105` as a function of the buffers its item reads (v43, v29, v41). -/
def C_v105 (x0 : FVec F S32 .f32) (x1 : FVec F S1x8 .f32) (x2 : FVec F S17x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 x0 shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) x1 (((extractStridedSlice S8x32 ![0, 0] · slices_S17x32_S8x32_0_0) : (⟨S17x32, .f32⟩ : BufTy).Contents (Elt F) → (⟨S8x32, .f32⟩ : BufTy).Contents (Elt F)) x2)))

/-- The contents of `main_v106` as a function of the buffers its item reads (v47). -/
def C_v106 (x0 : FVec F S8 .f32) : FVec F S1x8 .f32 :=
  (shapeCast S1x8 x0 shapeCasts_S8_S1x8)

/-- The contents of `main_v94` as a function of the buffers its item reads (v93). -/
def C_v94 (x0 : FVec F S1105920x1 .f32) : FVec F S1100000x1 .f32 :=
  (((extractStridedSlice S1100000x1 ![0, 0] · slices_S1105920x1_S1100000x1_0_0) : (⟨S1105920x1, .f32⟩ : BufTy).Contents (Elt F) → (⟨S1100000x1, .f32⟩ : BufTy).Contents (Elt F)) x0)

/-- The contents of `main_v107` as a function of the buffers its item reads (v24, c_13). -/
def C_v107 (x0 : FVec F S100000x8 .bf16) (x1 : IVec S_ 32) : FVec F S106496x8 .bf16 :=
  (((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) x0 (((sitofp .bf16) : (⟨S_, .i32⟩ : BufTy).Contents (Elt F) → (⟨S_, .bf16⟩ : BufTy).Contents (Elt F)) x1))

/-- The contents of `main_c_14` as a function of the buffers its item reads (none). -/
def C_c_14  : IVec S_ 32 :=
  (constantI S_ 32 0#32)

/-- The contents of `main_v108` as a function of the buffers its item reads (v99, c_14). -/
def C_v108 (x0 : FVec F S100000x1 .bf16) (x1 : IVec S_ 32) : FVec F S106496x1 .bf16 :=
  (((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) x0 (((sitofp .bf16) : (⟨S_, .i32⟩ : BufTy).Contents (Elt F) → (⟨S_, .bf16⟩ : BufTy).Contents (Elt F)) x1))

/-- The contents of `main_v123` as a function of the buffers its item reads (v109, v94, v29, v49, v51). -/
def C_v123 (x0 : FVec F S106496x8 .f32) (x1 : FVec F S1100000x1 .f32) (x2 : FVec F S1x8 .f32) (x3 : FVec F S17x32 .f32) (x4 : FVec F S32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)) (concatenate S1x17 1 [⟨S1x8, ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) (((extractStridedSlice S100000x8 ![0, 0] · slices_S106496x8_S100000x8_0_0) : (⟨S106496x8, .f32⟩ : BufTy).Contents (Elt F) → (⟨S100000x8, .f32⟩ : BufTy).Contents (Elt F)) x0) (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))⟩, ⟨S1x1, ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x1 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))⟩, ⟨S1x8, x2⟩] concatenates_S1x8_S1x1_S1x8_S1x17_d1) x3) (shapeCast S1x32 x4 shapeCasts_S32_S1x32))

/-- The contents of `main_v121` as a function of the buffers its item reads (v55). -/
def C_v121 (x0 : FVec F S8 .f32) : FVec F S1x8 .f32 :=
  (shapeCast S1x8 x0 shapeCasts_S8_S1x8)

/-- The contents of `main_v110` as a function of the buffers its item reads (v109). -/
def C_v110 (x0 : FVec F S106496x8 .f32) : FVec F S100000x8 .f32 :=
  (((extractStridedSlice S100000x8 ![0, 0] · slices_S106496x8_S100000x8_0_0) : (⟨S106496x8, .f32⟩ : BufTy).Contents (Elt F) → (⟨S100000x8, .f32⟩ : BufTy).Contents (Elt F)) x0)

/-- The contents of `main_v124` as a function of the buffers its item reads (v123). -/
def C_v124 (x0 : FVec F S1x32 .f32) : FVec F S1x32 .f32 :=
  ((maximumf : (⟨S1x32, .f32⟩ : BufTy).Contents (Elt F) → (⟨S1x32, .f32⟩ : BufTy).Contents (Elt F) → (⟨S1x32, .f32⟩ : BufTy).Contents (Elt F)) x0 (((broadcastInDim S1x32 ![] bcast_S_S1x32) : (⟨S_, .f32⟩ : BufTy).Contents (Elt F) → (⟨S1x32, .f32⟩ : BufTy).Contents (Elt F)) ((constant S_ .f32 0x00000000#32) : (⟨S_, .f32⟩ : BufTy).Contents (Elt F))))

/-- The contents of `main_v127` as a function of the buffers its item reads (arg4, v31). -/
def C_v127 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v126` as a function of the buffers its item reads (v124, v53, v121). -/
def C_v126 (x0 : FVec F S1x32 .f32) (x1 : FVec F S32x8 .f32) (x2 : FVec F S1x8 .f32) : FVec F S1x8 .f32 :=
  ((addf : (⟨S1x8, .f32⟩ : BufTy).Contents (Elt F) → (⟨S1x8, .f32⟩ : BufTy).Contents (Elt F) → (⟨S1x8, .f32⟩ : BufTy).Contents (Elt F)) (((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) x0 x1) x2)

/-- The contents of `main_v128` as a function of the buffers its item reads (v110). -/
def C_v128 (x0 : FVec F S100000x8 .f32) : FVec F S100000x8 .bf16 :=
  (((truncf .bf16 · bitsLt_bf16_f32) : (⟨S100000x8, .f32⟩ : BufTy).Contents (Elt F) → (⟨S100000x8, .bf16⟩ : BufTy).Contents (Elt F)) x0)

/-- The contents of `main_v129` as a function of the buffers its item reads (v5, v110). -/
def C_v129 (x0 : IVec S1100000 32) (x1 : FVec F S100000x8 .f32) : FVec F S1100000x8 .f32 :=
  ((select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) (((broadcastInDim S1100000x8 ![0] bcast_S1100000_S1100000x8_0) : (⟨S1100000, .i1⟩ : BufTy).Contents (Elt F) → (⟨S1100000x8, .i1⟩ : BufTy).Contents (Elt F)) (((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)) ((andi : (⟨S1100000x1, .i1⟩ : BufTy).Contents (Elt F) → (⟨S1100000x1, .i1⟩ : BufTy).Contents (Elt F) → (⟨S1100000x1, .i1⟩ : BufTy).Contents (Elt F)) (((cmpi .sge) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![] bcast_S_S1100000x1) : (⟨S_, .i32⟩ : BufTy).Contents (Elt F) → (⟨S1100000x1, .i32⟩ : BufTy).Contents (Elt F)) ((constantI S_ 32 0#32) : (⟨S_, .i32⟩ : BufTy).Contents (Elt F)))) (((cmpi .sle) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![0, 1] bcast_S1x1_S1100000x1_0_1) : (⟨S1x1, .i32⟩ : BufTy).Contents (Elt F) → (⟨S1100000x1, .i32⟩ : BufTy).Contents (Elt F)) (((broadcastInDim S1x1 ![1] bcast_S1_S1x1_1) : (⟨S1, .i32⟩ : BufTy).Contents (Elt F) → (⟨S1x1, .i32⟩ : BufTy).Contents (Elt F)) ((constantI S1 32 99999#32) : (⟨S1, .i32⟩ : BufTy).Contents (Elt F)))))) ((constantI S_ 1 1#1) : (⟨S_, .i1⟩ : BufTy).Contents (Elt F)))) (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x1 (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0))) (((broadcastInDim S1100000x8 ![] bcast_S_S1100000x8) : (⟨S_, .f32⟩ : BufTy).Contents (Elt F) → (⟨S1100000x8, .f32⟩ : BufTy).Contents (Elt F)) ((constant S_ .f32 0x7FC00000#32) : (⟨S_, .f32⟩ : BufTy).Contents (Elt F))))

/-- The contents of `main_v130` as a function of the buffers its item reads (v129). -/
def C_v130 (x0 : FVec F S1100000x8 .f32) : FVec F S1100000x8 .bf16 :=
  (((truncf .bf16 · bitsLt_bf16_f32) : (⟨S1100000x8, .f32⟩ : BufTy).Contents (Elt F) → (⟨S1100000x8, .bf16⟩ : BufTy).Contents (Elt F)) x0)

/-- The contents of `main_v131` as a function of the buffers its item reads (v7, v110). -/
def C_v131 (x0 : IVec S1100000 32) (x1 : FVec F S100000x8 .f32) : FVec F S1100000x8 .f32 :=
  ((select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) (((broadcastInDim S1100000x8 ![0] bcast_S1100000_S1100000x8_0) : (⟨S1100000, .i1⟩ : BufTy).Contents (Elt F) → (⟨S1100000x8, .i1⟩ : BufTy).Contents (Elt F)) (((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)) ((andi : (⟨S1100000x1, .i1⟩ : BufTy).Contents (Elt F) → (⟨S1100000x1, .i1⟩ : BufTy).Contents (Elt F) → (⟨S1100000x1, .i1⟩ : BufTy).Contents (Elt F)) (((cmpi .sge) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![] bcast_S_S1100000x1) : (⟨S_, .i32⟩ : BufTy).Contents (Elt F) → (⟨S1100000x1, .i32⟩ : BufTy).Contents (Elt F)) ((constantI S_ 32 0#32) : (⟨S_, .i32⟩ : BufTy).Contents (Elt F)))) (((cmpi .sle) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![0, 1] bcast_S1x1_S1100000x1_0_1) : (⟨S1x1, .i32⟩ : BufTy).Contents (Elt F) → (⟨S1100000x1, .i32⟩ : BufTy).Contents (Elt F)) (((broadcastInDim S1x1 ![1] bcast_S1_S1x1_1) : (⟨S1, .i32⟩ : BufTy).Contents (Elt F) → (⟨S1x1, .i32⟩ : BufTy).Contents (Elt F)) ((constantI S1 32 99999#32) : (⟨S1, .i32⟩ : BufTy).Contents (Elt F)))))) ((constantI S_ 1 1#1) : (⟨S_, .i1⟩ : BufTy).Contents (Elt F)))) (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x1 (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0))) (((broadcastInDim S1100000x8 ![] bcast_S_S1100000x8) : (⟨S_, .f32⟩ : BufTy).Contents (Elt F) → (⟨S1100000x8, .f32⟩ : BufTy).Contents (Elt F)) ((constant S_ .f32 0x7FC00000#32) : (⟨S_, .f32⟩ : BufTy).Contents (Elt F))))

/-- The contents of `main_c_19` as a function of the buffers its item reads (none). -/
def C_c_19  : IVec S_ 32 :=
  (constantI S_ 32 0#32)

/-- The contents of `main_v132` as a function of the buffers its item reads (v131). -/
def C_v132 (x0 : FVec F S1100000x8 .f32) : FVec F S1100000x8 .bf16 :=
  (((truncf .bf16 · bitsLt_bf16_f32) : (⟨S1100000x8, .f32⟩ : BufTy).Contents (Elt F) → (⟨S1100000x8, .bf16⟩ : BufTy).Contents (Elt F)) x0)

/-- The contents of `main_v133` as a function of the buffers its item reads (v127). -/
def C_v133 (x0 : FVec F S1100000x2 .f32) : FVec F S1100000x2 .bf16 :=
  (((truncf .bf16 · bitsLt_bf16_f32) : (⟨S1100000x2, .f32⟩ : BufTy).Contents (Elt F) → (⟨S1100000x2, .bf16⟩ : BufTy).Contents (Elt F)) x0)

/-- The contents of `main_v135` as a function of the buffers its item reads (v57). -/
def C_v135 (x0 : FVec F S26x32 .f32) : FVec F S8x32 .f32 :=
  (((extractStridedSlice S8x32 ![8, 0] · slices_S26x32_S8x32_8_0) : (⟨S26x32, .f32⟩ : BufTy).Contents (Elt F) → (⟨S8x32, .f32⟩ : BufTy).Contents (Elt F)) x0)

/-- The contents of `main_v136` as a function of the buffers its item reads (v57). -/
def C_v136 (x0 : FVec F S26x32 .f32) : FVec F S8x32 .f32 :=
  (((extractStridedSlice S8x32 ![16, 0] · slices_S26x32_S8x32_16_0) : (⟨S26x32, .f32⟩ : BufTy).Contents (Elt F) → (⟨S8x32, .f32⟩ : BufTy).Contents (Elt F)) x0)

/-- The contents of `main_v137` as a function of the buffers its item reads (v57). -/
def C_v137 (x0 : FVec F S26x32 .f32) : FVec F S2x32 .f32 :=
  (((extractStridedSlice S2x32 ![24, 0] · slices_S26x32_S2x32_24_0) : (⟨S26x32, .f32⟩ : BufTy).Contents (Elt F) → (⟨S2x32, .f32⟩ : BufTy).Contents (Elt F)) x0)

/-- The contents of `main_v140` as a function of the buffers its item reads (v59, v126, v57). -/
def C_v140 (x0 : FVec F S32 .f32) (x1 : FVec F S1x8 .f32) (x2 : FVec F S26x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 x0 shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) x1 (((extractStridedSlice S8x32 ![0, 0] · slices_S26x32_S8x32_0_0) : (⟨S26x32, .f32⟩ : BufTy).Contents (Elt F) → (⟨S8x32, .f32⟩ : BufTy).Contents (Elt F)) x2)))

/-- The contents of `main_v141` as a function of the buffers its item reads (v63). -/
def C_v141 (x0 : FVec F S1 .f32) : FVec F S1x1 .f32 :=
  (shapeCast S1x1 x0 shapeCasts_S1_S1x1)

/-- The contents of `main_v142` as a function of the buffers its item reads (v130, c_19). -/
def C_v142 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_20` as a function of the buffers its item reads (none). -/
def C_c_20  : IVec S_ 32 :=
  (constantI S_ 32 0#32)

/-- The contents of `main_v143` as a function of the buffers its item reads (v132, c_20). -/
def C_v143 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_21` as a function of the buffers its item reads (none). -/
def C_c_21  : IVec S_ 32 :=
  (constantI S_ 32 0#32)

/-- The contents of `main_v144` as a function of the buffers its item reads (v133, c_21). -/
def C_v144 (x0 : FVec F S1100000x2 .bf16) (x1 : IVec S_ 32) : FVec F S1105920x2 .bf16 :=
  (((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) x0 (((sitofp .bf16) : (⟨S_, .i32⟩ : BufTy).Contents (Elt F) → (⟨S_, .bf16⟩ : BufTy).Contents (Elt F)) x1))

/-- The contents of `main_c_23` as a function of the buffers its item reads (none). -/
def C_c_23  : IVec S_ 32 :=
  (constantI S_ 32 0#32)

/-- The contents of `main_v151` as a function of the buffers its item reads (v5, v145, v23). -/
def C_v151 (x0 : IVec S1100000 32) (x1 : FVec F S1105920x1 .f32) (x2 : FVec F S100000x1 .f32) : FVec F S100000x1 .bf16 :=
  (((truncf .bf16 · bitsLt_bf16_f32) : (⟨S100000x1, .f32⟩ : BufTy).Contents (Elt F) → (⟨S100000x1, .bf16⟩ : BufTy).Contents (Elt F)) ((mulf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) (((extractStridedSlice S1100000x1 ![0, 0] · slices_S1105920x1_S1100000x1_0_0) : (⟨S1105920x1, .f32⟩ : BufTy).Contents (Elt F) → (⟨S1100000x1, .f32⟩ : BufTy).Contents (Elt F)) x1)) x2))

/-- The contents of `main_v153` as a function of the buffers its item reads (v65). -/
def C_v153 (x0 : FVec F S17x32 .f32) : FVec F S8x32 .f32 :=
  (((extractStridedSlice S8x32 ![8, 0] · slices_S17x32_S8x32_8_0) : (⟨S17x32, .f32⟩ : BufTy).Contents (Elt F) → (⟨S8x32, .f32⟩ : BufTy).Contents (Elt F)) x0)

/-- The contents of `main_v154` as a function of the buffers its item reads (v65). -/
def C_v154 (x0 : FVec F S17x32 .f32) : FVec F S1x32 .f32 :=
  (((extractStridedSlice S1x32 ![16, 0] · slices_S17x32_S1x32_16_0) : (⟨S17x32, .f32⟩ : BufTy).Contents (Elt F) → (⟨S1x32, .f32⟩ : BufTy).Contents (Elt F)) x0)

/-- The contents of `main_v157` as a function of the buffers its item reads (v67, v126, v65). -/
def C_v157 (x0 : FVec F S32 .f32) (x1 : FVec F S1x8 .f32) (x2 : FVec F S17x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 x0 shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) x1 (((extractStridedSlice S8x32 ![0, 0] · slices_S17x32_S8x32_0_0) : (⟨S17x32, .f32⟩ : BufTy).Contents (Elt F) → (⟨S8x32, .f32⟩ : BufTy).Contents (Elt F)) x2)))

/-- The contents of `main_v158` as a function of the buffers its item reads (v71). -/
def C_v158 (x0 : FVec F S8 .f32) : FVec F S1x8 .f32 :=
  (shapeCast S1x8 x0 shapeCasts_S8_S1x8)

/-- The contents of `main_v146` as a function of the buffers its item reads (v145). -/
def C_v146 (x0 : FVec F S1105920x1 .f32) : FVec F S1100000x1 .f32 :=
  (((extractStridedSlice S1100000x1 ![0, 0] · slices_S1105920x1_S1100000x1_0_0) : (⟨S1105920x1, .f32⟩ : BufTy).Contents (Elt F) → (⟨S1100000x1, .f32⟩ : BufTy).Contents (Elt F)) x0)

/-- The contents of `main_v159` as a function of the buffers its item reads (v128, c_23). -/
def C_v159 (x0 : FVec F S100000x8 .bf16) (x1 : IVec S_ 32) : FVec F S106496x8 .bf16 :=
  (((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) x0 (((sitofp .bf16) : (⟨S_, .i32⟩ : BufTy).Contents (Elt F) → (⟨S_, .bf16⟩ : BufTy).Contents (Elt F)) x1))

/-- The contents of `main_c_24` as a function of the buffers its item reads (none). -/
def C_c_24  : IVec S_ 32 :=
  (constantI S_ 32 0#32)

/-- The contents of `main_v160` as a function of the buffers its item reads (v151, c_24). -/
def C_v160 (x0 : FVec F S100000x1 .bf16) (x1 : IVec S_ 32) : FVec F S106496x1 .bf16 :=
  (((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) x0 (((sitofp .bf16) : (⟨S_, .i32⟩ : BufTy).Contents (Elt F) → (⟨S_, .bf16⟩ : BufTy).Contents (Elt F)) x1))

/-- The contents of `main_v175` as a function of the buffers its item reads (v161, v146, v126, v73, v75). -/
def C_v175 (x0 : FVec F S106496x8 .f32) (x1 : FVec F S1100000x1 .f32) (x2 : FVec F S1x8 .f32) (x3 : FVec F S17x32 .f32) (x4 : FVec F S32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)) (concatenate S1x17 1 [⟨S1x8, ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) (((extractStridedSlice S100000x8 ![0, 0] · slices_S106496x8_S100000x8_0_0) : (⟨S106496x8, .f32⟩ : BufTy).Contents (Elt F) → (⟨S100000x8, .f32⟩ : BufTy).Contents (Elt F)) x0) (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))⟩, ⟨S1x1, ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x1 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))⟩, ⟨S1x8, x2⟩] concatenates_S1x8_S1x1_S1x8_S1x17_d1) x3) (shapeCast S1x32 x4 shapeCasts_S32_S1x32))

/-- The contents of `main_v173` as a function of the buffers its item reads (v79). -/
def C_v173 (x0 : FVec F S8 .f32) : FVec F S1x8 .f32 :=
  (shapeCast S1x8 x0 shapeCasts_S8_S1x8)

/-- The contents of `main_v162` as a function of the buffers its item reads (v161). -/
def C_v162 (x0 : FVec F S106496x8 .f32) : FVec F S100000x8 .f32 :=
  (((extractStridedSlice S100000x8 ![0, 0] · slices_S106496x8_S100000x8_0_0) : (⟨S106496x8, .f32⟩ : BufTy).Contents (Elt F) → (⟨S100000x8, .f32⟩ : BufTy).Contents (Elt F)) x0)

/-- The contents of `main_v176` as a function of the buffers its item reads (v175). -/
def C_v176 (x0 : FVec F S1x32 .f32) : FVec F S1x32 .f32 :=
  ((maximumf : (⟨S1x32, .f32⟩ : BufTy).Contents (Elt F) → (⟨S1x32, .f32⟩ : BufTy).Contents (Elt F) → (⟨S1x32, .f32⟩ : BufTy).Contents (Elt F)) x0 (((broadcastInDim S1x32 ![] bcast_S_S1x32) : (⟨S_, .f32⟩ : BufTy).Contents (Elt F) → (⟨S1x32, .f32⟩ : BufTy).Contents (Elt F)) ((constant S_ .f32 0x00000000#32) : (⟨S_, .f32⟩ : BufTy).Contents (Elt F))))

/-- The contents of `main_c_29` as a function of the buffers its item reads (none). -/
def C_c_29  : IVec S_ 32 :=
  (constantI S_ 32 0#32)

/-- The contents of `main_v228` as a function of the buffers its item reads (v94, arg3). -/
def C_v228 (x0 : FVec F S1100000x1 .f32) (x1 : FVec F S1100000x1 .f32) : FVec F S1100000x2 .bf16 :=
  (((truncf .bf16 · bitsLt_bf16_f32) : (⟨S1100000x2, .f32⟩ : BufTy).Contents (Elt F) → (⟨S1100000x2, .bf16⟩ : BufTy).Contents (Elt F)) (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1))

/-- The contents of `main_v230` as a function of the buffers its item reads (arg5). -/
def C_v230 (x0 : FVec F S2x3x26x32 .f32) : FVec F S8x32 .f32 :=
  (((extractStridedSlice S8x32 ![8, 0] · slices_S26x32_S8x32_8_0) : (⟨S26x32, .f32⟩ : BufTy).Contents (Elt F) → (⟨S8x32, .f32⟩ : BufTy).Contents (Elt F)) (shapeCast S26x32 (((extractStridedSlice S1x1x26x32 ![0, 1, 0, 0] · slices_S2x3x26x32_S1x1x26x32_0_1_0_0) : (⟨S2x3x26x32, .f32⟩ : BufTy).Contents (Elt F) → (⟨S1x1x26x32, .f32⟩ : BufTy).Contents (Elt F)) x0) shapeCasts_S1x1x26x32_S26x32))

/-- The contents of `main_v231` as a function of the buffers its item reads (arg5). -/
def C_v231 (x0 : FVec F S2x3x26x32 .f32) : FVec F S8x32 .f32 :=
  (((extractStridedSlice S8x32 ![16, 0] · slices_S26x32_S8x32_16_0) : (⟨S26x32, .f32⟩ : BufTy).Contents (Elt F) → (⟨S8x32, .f32⟩ : BufTy).Contents (Elt F)) (shapeCast S26x32 (((extractStridedSlice S1x1x26x32 ![0, 1, 0, 0] · slices_S2x3x26x32_S1x1x26x32_0_1_0_0) : (⟨S2x3x26x32, .f32⟩ : BufTy).Contents (Elt F) → (⟨S1x1x26x32, .f32⟩ : BufTy).Contents (Elt F)) x0) shapeCasts_S1x1x26x32_S26x32))

/-- The contents of `main_v232` as a function of the buffers its item reads (arg5). -/
def C_v232 (x0 : FVec F S2x3x26x32 .f32) : FVec F S2x32 .f32 :=
  (((extractStridedSlice S2x32 ![24, 0] · slices_S26x32_S2x32_24_0) : (⟨S26x32, .f32⟩ : BufTy).Contents (Elt F) → (⟨S2x32, .f32⟩ : BufTy).Contents (Elt F)) (shapeCast S26x32 (((extractStridedSlice S1x1x26x32 ![0, 1, 0, 0] · slices_S2x3x26x32_S1x1x26x32_0_1_0_0) : (⟨S2x3x26x32, .f32⟩ : BufTy).Contents (Elt F) → (⟨S1x1x26x32, .f32⟩ : BufTy).Contents (Elt F)) x0) shapeCasts_S1x1x26x32_S26x32))

/-- The contents of `main_v235` as a function of the buffers its item reads (arg6, v176, v77, v173, arg5). -/
def C_v235 (x0 : FVec F S2x3x32 .f32) (x1 : FVec F S1x32 .f32) (x2 : FVec F S32x8 .f32) (x3 : FVec F S1x8 .f32) (x4 : FVec F S2x3x26x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 (shapeCast S32 (((extractStridedSlice S1x1x32 ![0, 1, 0] · slices_S2x3x32_S1x1x32_0_1_0) : (⟨S2x3x32, .f32⟩ : BufTy).Contents (Elt F) → (⟨S1x1x32, .f32⟩ : BufTy).Contents (Elt F)) x0) shapeCasts_S1x1x32_S32) shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) ((addf : (⟨S1x8, .f32⟩ : BufTy).Contents (Elt F) → (⟨S1x8, .f32⟩ : BufTy).Contents (Elt F) → (⟨S1x8, .f32⟩ : BufTy).Contents (Elt F)) (((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) x1 x2) x3) (((extractStridedSlice S8x32 ![0, 0] · slices_S26x32_S8x32_0_0) : (⟨S26x32, .f32⟩ : BufTy).Contents (Elt F) → (⟨S8x32, .f32⟩ : BufTy).Contents (Elt F)) (shapeCast S26x32 (((extractStridedSlice S1x1x26x32 ![0, 1, 0, 0] · slices_S2x3x26x32_S1x1x26x32_0_1_0_0) : (⟨S2x3x26x32, .f32⟩ : BufTy).Contents (Elt F) → (⟨S1x1x26x32, .f32⟩ : BufTy).Contents (Elt F)) x4) shapeCasts_S1x1x26x32_S26x32))))

/-- The contents of `main_v184` as a function of the buffers its item reads (arg7). -/
def C_v184 (x0 : FVec F S2x3x32x1 .f32) : FVec F S32x1 .f32 :=
  (shapeCast S32x1 (((extractStridedSlice S1x1x32x1 ![0, 1, 0, 0] · slices_S2x3x32x1_S1x1x32x1_0_1_0_0) : (⟨S2x3x32x1, .f32⟩ : BufTy).Contents (Elt F) → (⟨S1x1x32x1, .f32⟩ : BufTy).Contents (Elt F)) x0) shapeCasts_S1x1x32x1_S32x1)

/-- The contents of `main_v236` as a function of the buffers its item reads (arg8). -/
def C_v236 (x0 : FVec F S2x3x1 .f32) : FVec F S1x1 .f32 :=
  (shapeCast S1x1 (shapeCast S1 (((extractStridedSlice S1x1x1 ![0, 1, 0] · slices_S2x3x1_S1x1x1_0_1_0) : (⟨S2x3x1, .f32⟩ : BufTy).Contents (Elt F) → (⟨S1x1x1, .f32⟩ : BufTy).Contents (Elt F)) x0) shapeCasts_S1x1x1_S1) shapeCasts_S1_S1x1)

/-- The contents of `main_v188` as a function of the buffers its item reads (arg9). -/
def C_v188 (x0 : FVec F S2x3x17x32 .f32) : FVec F S17x32 .f32 :=
  (shapeCast S17x32 (((extractStridedSlice S1x1x17x32 ![0, 1, 0, 0] · slices_S2x3x17x32_S1x1x17x32_0_1_0_0) : (⟨S2x3x17x32, .f32⟩ : BufTy).Contents (Elt F) → (⟨S1x1x17x32, .f32⟩ : BufTy).Contents (Elt F)) x0) shapeCasts_S1x1x17x32_S17x32)

/-- The contents of `main_v190` as a function of the buffers its item reads (arg10). -/
def C_v190 (x0 : FVec F S2x3x32 .f32) : FVec F S32 .f32 :=
  (shapeCast S32 (((extractStridedSlice S1x1x32 ![0, 1, 0] · slices_S2x3x32_S1x1x32_0_1_0) : (⟨S2x3x32, .f32⟩ : BufTy).Contents (Elt F) → (⟨S1x1x32, .f32⟩ : BufTy).Contents (Elt F)) x0) shapeCasts_S1x1x32_S32)

/-- The contents of `main_v178` as a function of the buffers its item reads (v176, v77, v173). -/
def C_v178 (x0 : FVec F S1x32 .f32) (x1 : FVec F S32x8 .f32) (x2 : FVec F S1x8 .f32) : FVec F S1x8 .f32 :=
  ((addf : (⟨S1x8, .f32⟩ : BufTy).Contents (Elt F) → (⟨S1x8, .f32⟩ : BufTy).Contents (Elt F) → (⟨S1x8, .f32⟩ : BufTy).Contents (Elt F)) (((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) x0 x1) x2)

/-- The contents of `main_v194` as a function of the buffers its item reads (arg12). -/
def C_v194 (x0 : FVec F S2x3x8 .f32) : FVec F S8 .f32 :=
  (shapeCast S8 (((extractStridedSlice S1x1x8 ![0, 1, 0] · slices_S2x3x8_S1x1x8_0_1_0) : (⟨S2x3x8, .f32⟩ : BufTy).Contents (Elt F) → (⟨S1x1x8, .f32⟩ : BufTy).Contents (Elt F)) x0) shapeCasts_S1x1x8_S8)

/-- The contents of `main_v192` as a function of the buffers its item reads (arg11). -/
def C_v192 (x0 : FVec F S2x3x32x8 .f32) : FVec F S32x8 .f32 :=
  (shapeCast S32x8 (((extractStridedSlice S1x1x32x8 ![0, 1, 0, 0] · slices_S2x3x32x8_S1x1x32x8_0_1_0_0) : (⟨S2x3x32x8, .f32⟩ : BufTy).Contents (Elt F) → (⟨S1x1x32x8, .f32⟩ : BufTy).Contents (Elt F)) x0) shapeCasts_S1x1x32x8_S32x8)

/-- The contents of `main_v198` as a function of the buffers its item reads (arg14). -/
def C_v198 (x0 : FVec F S2x3x32 .f32) : FVec F S32 .f32 :=
  (shapeCast S32 (((extractStridedSlice S1x1x32 ![0, 1, 0] · slices_S2x3x32_S1x1x32_0_1_0) : (⟨S2x3x32, .f32⟩ : BufTy).Contents (Elt F) → (⟨S1x1x32, .f32⟩ : BufTy).Contents (Elt F)) x0) shapeCasts_S1x1x32_S32)

/-- The contents of `main_v202` as a function of the buffers its item reads (arg16). -/
def C_v202 (x0 : FVec F S2x3x8 .f32) : FVec F S8 .f32 :=
  (shapeCast S8 (((extractStridedSlice S1x1x8 ![0, 1, 0] · slices_S2x3x8_S1x1x8_0_1_0) : (⟨S2x3x8, .f32⟩ : BufTy).Contents (Elt F) → (⟨S1x1x8, .f32⟩ : BufTy).Contents (Elt F)) x0) shapeCasts_S1x1x8_S8)

/-- The contents of `main_v196` as a function of the buffers its item reads (arg13). -/
def C_v196 (x0 : FVec F S2x3x17x32 .f32) : FVec F S17x32 .f32 :=
  (shapeCast S17x32 (((extractStridedSlice S1x1x17x32 ![0, 1, 0, 0] · slices_S2x3x17x32_S1x1x17x32_0_1_0_0) : (⟨S2x3x17x32, .f32⟩ : BufTy).Contents (Elt F) → (⟨S1x1x17x32, .f32⟩ : BufTy).Contents (Elt F)) x0) shapeCasts_S1x1x17x32_S17x32)

/-- The contents of `main_v200` as a function of the buffers its item reads (arg15). -/
def C_v200 (x0 : FVec F S2x3x32x8 .f32) : FVec F S32x8 .f32 :=
  (shapeCast S32x8 (((extractStridedSlice S1x1x32x8 ![0, 1, 0, 0] · slices_S2x3x32x8_S1x1x32x8_0_1_0_0) : (⟨S2x3x32x8, .f32⟩ : BufTy).Contents (Elt F) → (⟨S1x1x32x8, .f32⟩ : BufTy).Contents (Elt F)) x0) shapeCasts_S1x1x32x8_S32x8)

/-- The contents of `main_v204` as a function of the buffers its item reads (arg5). -/
def C_v204 (x0 : FVec F S2x3x26x32 .f32) : FVec F S26x32 .f32 :=
  (shapeCast S26x32 (((extractStridedSlice S1x1x26x32 ![1, 1, 0, 0] · slices_S2x3x26x32_S1x1x26x32_1_1_0_0) : (⟨S2x3x26x32, .f32⟩ : BufTy).Contents (Elt F) → (⟨S1x1x26x32, .f32⟩ : BufTy).Contents (Elt F)) x0) shapeCasts_S1x1x26x32_S26x32)

/-- The contents of `main_v206` as a function of the buffers its item reads (arg6). -/
def C_v206 (x0 : FVec F S2x3x32 .f32) : FVec F S32 .f32 :=
  (shapeCast S32 (((extractStridedSlice S1x1x32 ![1, 1, 0] · slices_S2x3x32_S1x1x32_1_1_0) : (⟨S2x3x32, .f32⟩ : BufTy).Contents (Elt F) → (⟨S1x1x32, .f32⟩ : BufTy).Contents (Elt F)) x0) shapeCasts_S1x1x32_S32)

/-- The contents of `main_v210` as a function of the buffers its item reads (arg8). -/
def C_v210 (x0 : FVec F S2x3x1 .f32) : FVec F S1 .f32 :=
  (shapeCast S1 (((extractStridedSlice S1x1x1 ![1, 1, 0] · slices_S2x3x1_S1x1x1_1_1_0) : (⟨S2x3x1, .f32⟩ : BufTy).Contents (Elt F) → (⟨S1x1x1, .f32⟩ : BufTy).Contents (Elt F)) x0) shapeCasts_S1x1x1_S1)

/-- The contents of `main_v208` as a function of the buffers its item reads (arg7). -/
def C_v208 (x0 : FVec F S2x3x32x1 .f32) : FVec F S32x1 .f32 :=
  (shapeCast S32x1 (((extractStridedSlice S1x1x32x1 ![1, 1, 0, 0] · slices_S2x3x32x1_S1x1x32x1_1_1_0_0) : (⟨S2x3x32x1, .f32⟩ : BufTy).Contents (Elt F) → (⟨S1x1x32x1, .f32⟩ : BufTy).Contents (Elt F)) x0) shapeCasts_S1x1x32x1_S32x1)

/-- The contents of `main_v212` as a function of the buffers its item reads (arg9). -/
def C_v212 (x0 : FVec F S2x3x17x32 .f32) : FVec F S17x32 .f32 :=
  (shapeCast S17x32 (((extractStridedSlice S1x1x17x32 ![1, 1, 0, 0] · slices_S2x3x17x32_S1x1x17x32_1_1_0_0) : (⟨S2x3x17x32, .f32⟩ : BufTy).Contents (Elt F) → (⟨S1x1x17x32, .f32⟩ : BufTy).Contents (Elt F)) x0) shapeCasts_S1x1x17x32_S17x32)

/-- The contents of `main_v214` as a function of the buffers its item reads (arg10). -/
def C_v214 (x0 : FVec F S2x3x32 .f32) : FVec F S32 .f32 :=
  (shapeCast S32 (((extractStridedSlice S1x1x32 ![1, 1, 0] · slices_S2x3x32_S1x1x32_1_1_0) : (⟨S2x3x32, .f32⟩ : BufTy).Contents (Elt F) → (⟨S1x1x32, .f32⟩ : BufTy).Contents (Elt F)) x0) shapeCasts_S1x1x32_S32)

/-- The contents of `main_v218` as a function of the buffers its item reads (arg12). -/
def C_v218 (x0 : FVec F S2x3x8 .f32) : FVec F S8 .f32 :=
  (shapeCast S8 (((extractStridedSlice S1x1x8 ![1, 1, 0] · slices_S2x3x8_S1x1x8_1_1_0) : (⟨S2x3x8, .f32⟩ : BufTy).Contents (Elt F) → (⟨S1x1x8, .f32⟩ : BufTy).Contents (Elt F)) x0) shapeCasts_S1x1x8_S8)

/-- The contents of `main_v216` as a function of the buffers its item reads (arg11). -/
def C_v216 (x0 : FVec F S2x3x32x8 .f32) : FVec F S32x8 .f32 :=
  (shapeCast S32x8 (((extractStridedSlice S1x1x32x8 ![1, 1, 0, 0] · slices_S2x3x32x8_S1x1x32x8_1_1_0_0) : (⟨S2x3x32x8, .f32⟩ : BufTy).Contents (Elt F) → (⟨S1x1x32x8, .f32⟩ : BufTy).Contents (Elt F)) x0) shapeCasts_S1x1x32x8_S32x8)

/-- The contents of `main_v222` as a function of the buffers its item reads (arg14). -/
def C_v222 (x0 : FVec F S2x3x32 .f32) : FVec F S32 .f32 :=
  (shapeCast S32 (((extractStridedSlice S1x1x32 ![1, 1, 0] · slices_S2x3x32_S1x1x32_1_1_0) : (⟨S2x3x32, .f32⟩ : BufTy).Contents (Elt F) → (⟨S1x1x32, .f32⟩ : BufTy).Contents (Elt F)) x0) shapeCasts_S1x1x32_S32)

/-- The contents of `main_v226` as a function of the buffers its item reads (arg16). -/
def C_v226 (x0 : FVec F S2x3x8 .f32) : FVec F S8 .f32 :=
  (shapeCast S8 (((extractStridedSlice S1x1x8 ![1, 1, 0] · slices_S2x3x8_S1x1x8_1_1_0) : (⟨S2x3x8, .f32⟩ : BufTy).Contents (Elt F) → (⟨S1x1x8, .f32⟩ : BufTy).Contents (Elt F)) x0) shapeCasts_S1x1x8_S8)

/-- The contents of `main_v220` as a function of the buffers its item reads (arg13). -/
def C_v220 (x0 : FVec F S2x3x17x32 .f32) : FVec F S17x32 .f32 :=
  (shapeCast S17x32 (((extractStridedSlice S1x1x17x32 ![1, 1, 0, 0] · slices_S2x3x17x32_S1x1x17x32_1_1_0_0) : (⟨S2x3x17x32, .f32⟩ : BufTy).Contents (Elt F) → (⟨S1x1x17x32, .f32⟩ : BufTy).Contents (Elt F)) x0) shapeCasts_S1x1x17x32_S17x32)

/-- The contents of `main_v224` as a function of the buffers its item reads (arg15). -/
def C_v224 (x0 : FVec F S2x3x32x8 .f32) : FVec F S32x8 .f32 :=
  (shapeCast S32x8 (((extractStridedSlice S1x1x32x8 ![1, 1, 0, 0] · slices_S2x3x32x8_S1x1x32x8_1_1_0_0) : (⟨S2x3x32x8, .f32⟩ : BufTy).Contents (Elt F) → (⟨S1x1x32x8, .f32⟩ : BufTy).Contents (Elt F)) x0) shapeCasts_S1x1x32x8_S32x8)

/-- The contents of `main_v227` as a function of the buffers its item reads (v94, arg3). -/
def C_v227 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v237` as a function of the buffers its item reads (v26, c_29). -/
def C_v237 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_30` as a function of the buffers its item reads (none). -/
def C_c_30  : IVec S_ 32 :=
  (constantI S_ 32 0#32)

/-- The contents of `main_v238` as a function of the buffers its item reads (v28, c_30). -/
def C_v238 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_31` as a function of the buffers its item reads (none). -/
def C_c_31  : IVec S_ 32 :=
  (constantI S_ 32 0#32)

/-- The contents of `main_v239` as a function of the buffers its item reads (v228, c_31). -/
def C_v239 (x0 : FVec F S1100000x2 .bf16) (x1 : IVec S_ 32) : FVec F S1105920x2 .bf16 :=
  (((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) x0 (((sitofp .bf16) : (⟨S_, .i32⟩ : BufTy).Contents (Elt F) → (⟨S_, .bf16⟩ : BufTy).Contents (Elt F)) x1))

/-- The contents of `main_c_33` as a function of the buffers its item reads (none). -/
def C_c_33  : IVec S_ 32 :=
  (constantI S_ 32 0#32)

/-- The contents of `main_v246` as a function of the buffers its item reads (v1, v240, v16). -/
def C_v246 (x0 : IVec S1100000 32) (x1 : FVec F S1105920x1 .f32) (x2 : FVec F S100000x1 .f32) : FVec F S100000x1 .bf16 :=
  (((truncf .bf16 · bitsLt_bf16_f32) : (⟨S100000x1, .f32⟩ : BufTy).Contents (Elt F) → (⟨S100000x1, .bf16⟩ : BufTy).Contents (Elt F)) ((mulf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) (((extractStridedSlice S1100000x1 ![0, 0] · slices_S1105920x1_S1100000x1_0_0) : (⟨S1105920x1, .f32⟩ : BufTy).Contents (Elt F) → (⟨S1100000x1, .f32⟩ : BufTy).Contents (Elt F)) x1)) x2))

/-- The contents of `main_v248` as a function of the buffers its item reads (v188). -/
def C_v248 (x0 : FVec F S17x32 .f32) : FVec F S8x32 .f32 :=
  (((extractStridedSlice S8x32 ![8, 0] · slices_S17x32_S8x32_8_0) : (⟨S17x32, .f32⟩ : BufTy).Contents (Elt F) → (⟨S8x32, .f32⟩ : BufTy).Contents (Elt F)) x0)

/-- The contents of `main_v249` as a function of the buffers its item reads (v188). -/
def C_v249 (x0 : FVec F S17x32 .f32) : FVec F S1x32 .f32 :=
  (((extractStridedSlice S1x32 ![16, 0] · slices_S17x32_S1x32_16_0) : (⟨S17x32, .f32⟩ : BufTy).Contents (Elt F) → (⟨S1x32, .f32⟩ : BufTy).Contents (Elt F)) x0)

/-- The contents of `main_v252` as a function of the buffers its item reads (v190, v178, v188). -/
def C_v252 (x0 : FVec F S32 .f32) (x1 : FVec F S1x8 .f32) (x2 : FVec F S17x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 x0 shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) x1 (((extractStridedSlice S8x32 ![0, 0] · slices_S17x32_S8x32_0_0) : (⟨S17x32, .f32⟩ : BufTy).Contents (Elt F) → (⟨S8x32, .f32⟩ : BufTy).Contents (Elt F)) x2)))

/-- The contents of `main_v253` as a function of the buffers its item reads (v194). -/
def C_v253 (x0 : FVec F S8 .f32) : FVec F S1x8 .f32 :=
  (shapeCast S1x8 x0 shapeCasts_S8_S1x8)

/-- The contents of `main_v241` as a function of the buffers its item reads (v240). -/
def C_v241 (x0 : FVec F S1105920x1 .f32) : FVec F S1100000x1 .f32 :=
  (((extractStridedSlice S1100000x1 ![0, 0] · slices_S1105920x1_S1100000x1_0_0) : (⟨S1105920x1, .f32⟩ : BufTy).Contents (Elt F) → (⟨S1100000x1, .f32⟩ : BufTy).Contents (Elt F)) x0)

/-- The contents of `main_v254` as a function of the buffers its item reads (v24, c_33). -/
def C_v254 (x0 : FVec F S100000x8 .bf16) (x1 : IVec S_ 32) : FVec F S106496x8 .bf16 :=
  (((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) x0 (((sitofp .bf16) : (⟨S_, .i32⟩ : BufTy).Contents (Elt F) → (⟨S_, .bf16⟩ : BufTy).Contents (Elt F)) x1))

/-- The contents of `main_c_34` as a function of the buffers its item reads (none). -/
def C_c_34  : IVec S_ 32 :=
  (constantI S_ 32 0#32)

/-- The contents of `main_v255` as a function of the buffers its item reads (v246, c_34). -/
def C_v255 (x0 : FVec F S100000x1 .bf16) (x1 : IVec S_ 32) : FVec F S106496x1 .bf16 :=
  (((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) x0 (((sitofp .bf16) : (⟨S_, .i32⟩ : BufTy).Contents (Elt F) → (⟨S_, .bf16⟩ : BufTy).Contents (Elt F)) x1))

/-- The contents of `main_v270` as a function of the buffers its item reads (v256, v241, v178, v196, v198). -/
def C_v270 (x0 : FVec F S106496x8 .f32) (x1 : FVec F S1100000x1 .f32) (x2 : FVec F S1x8 .f32) (x3 : FVec F S17x32 .f32) (x4 : FVec F S32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)) (concatenate S1x17 1 [⟨S1x8, ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) (((extractStridedSlice S100000x8 ![0, 0] · slices_S106496x8_S100000x8_0_0) : (⟨S106496x8, .f32⟩ : BufTy).Contents (Elt F) → (⟨S100000x8, .f32⟩ : BufTy).Contents (Elt F)) x0) (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))⟩, ⟨S1x1, ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x1 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))⟩, ⟨S1x8, x2⟩] concatenates_S1x8_S1x1_S1x8_S1x17_d1) x3) (shapeCast S1x32 x4 shapeCasts_S32_S1x32))

/-- The contents of `main_v268` as a function of the buffers its item reads (v202). -/
def C_v268 (x0 : FVec F S8 .f32) : FVec F S1x8 .f32 :=
  (shapeCast S1x8 x0 shapeCasts_S8_S1x8)

/-- The contents of `main_v257` as a function of the buffers its item reads (v256). -/
def C_v257 (x0 : FVec F S106496x8 .f32) : FVec F S100000x8 .f32 :=
  (((extractStridedSlice S100000x8 ![0, 0] · slices_S106496x8_S100000x8_0_0) : (⟨S106496x8, .f32⟩ : BufTy).Contents (Elt F) → (⟨S100000x8, .f32⟩ : BufTy).Contents (Elt F)) x0)

/-- The contents of `main_v271` as a function of the buffers its item reads (v270). -/
def C_v271 (x0 : FVec F S1x32 .f32) : FVec F S1x32 .f32 :=
  ((maximumf : (⟨S1x32, .f32⟩ : BufTy).Contents (Elt F) → (⟨S1x32, .f32⟩ : BufTy).Contents (Elt F) → (⟨S1x32, .f32⟩ : BufTy).Contents (Elt F)) x0 (((broadcastInDim S1x32 ![] bcast_S_S1x32) : (⟨S_, .f32⟩ : BufTy).Contents (Elt F) → (⟨S1x32, .f32⟩ : BufTy).Contents (Elt F)) ((constant S_ .f32 0x00000000#32) : (⟨S_, .f32⟩ : BufTy).Contents (Elt F))))

/-- The contents of `main_v274` as a function of the buffers its item reads (v146, v31). -/
def C_v274 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v273` as a function of the buffers its item reads (v271, v200, v268). -/
def C_v273 (x0 : FVec F S1x32 .f32) (x1 : FVec F S32x8 .f32) (x2 : FVec F S1x8 .f32) : FVec F S1x8 .f32 :=
  ((addf : (⟨S1x8, .f32⟩ : BufTy).Contents (Elt F) → (⟨S1x8, .f32⟩ : BufTy).Contents (Elt F) → (⟨S1x8, .f32⟩ : BufTy).Contents (Elt F)) (((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) x0 x1) x2)

/-- The contents of `main_v275` as a function of the buffers its item reads (v257). -/
def C_v275 (x0 : FVec F S100000x8 .f32) : FVec F S100000x8 .bf16 :=
  (((truncf .bf16 · bitsLt_bf16_f32) : (⟨S100000x8, .f32⟩ : BufTy).Contents (Elt F) → (⟨S100000x8, .bf16⟩ : BufTy).Contents (Elt F)) x0)

/-- The contents of `main_v276` as a function of the buffers its item reads (v5, v257). -/
def C_v276 (x0 : IVec S1100000 32) (x1 : FVec F S100000x8 .f32) : FVec F S1100000x8 .f32 :=
  ((select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) (((broadcastInDim S1100000x8 ![0] bcast_S1100000_S1100000x8_0) : (⟨S1100000, .i1⟩ : BufTy).Contents (Elt F) → (⟨S1100000x8, .i1⟩ : BufTy).Contents (Elt F)) (((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)) ((andi : (⟨S1100000x1, .i1⟩ : BufTy).Contents (Elt F) → (⟨S1100000x1, .i1⟩ : BufTy).Contents (Elt F) → (⟨S1100000x1, .i1⟩ : BufTy).Contents (Elt F)) (((cmpi .sge) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![] bcast_S_S1100000x1) : (⟨S_, .i32⟩ : BufTy).Contents (Elt F) → (⟨S1100000x1, .i32⟩ : BufTy).Contents (Elt F)) ((constantI S_ 32 0#32) : (⟨S_, .i32⟩ : BufTy).Contents (Elt F)))) (((cmpi .sle) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![0, 1] bcast_S1x1_S1100000x1_0_1) : (⟨S1x1, .i32⟩ : BufTy).Contents (Elt F) → (⟨S1100000x1, .i32⟩ : BufTy).Contents (Elt F)) (((broadcastInDim S1x1 ![1] bcast_S1_S1x1_1) : (⟨S1, .i32⟩ : BufTy).Contents (Elt F) → (⟨S1x1, .i32⟩ : BufTy).Contents (Elt F)) ((constantI S1 32 99999#32) : (⟨S1, .i32⟩ : BufTy).Contents (Elt F)))))) ((constantI S_ 1 1#1) : (⟨S_, .i1⟩ : BufTy).Contents (Elt F)))) (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x1 (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0))) (((broadcastInDim S1100000x8 ![] bcast_S_S1100000x8) : (⟨S_, .f32⟩ : BufTy).Contents (Elt F) → (⟨S1100000x8, .f32⟩ : BufTy).Contents (Elt F)) ((constant S_ .f32 0x7FC00000#32) : (⟨S_, .f32⟩ : BufTy).Contents (Elt F))))

/-- The contents of `main_v277` as a function of the buffers its item reads (v276). -/
def C_v277 (x0 : FVec F S1100000x8 .f32) : FVec F S1100000x8 .bf16 :=
  (((truncf .bf16 · bitsLt_bf16_f32) : (⟨S1100000x8, .f32⟩ : BufTy).Contents (Elt F) → (⟨S1100000x8, .bf16⟩ : BufTy).Contents (Elt F)) x0)

/-- The contents of `main_v278` as a function of the buffers its item reads (v7, v257). -/
def C_v278 (x0 : IVec S1100000 32) (x1 : FVec F S100000x8 .f32) : FVec F S1100000x8 .f32 :=
  ((select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) (((broadcastInDim S1100000x8 ![0] bcast_S1100000_S1100000x8_0) : (⟨S1100000, .i1⟩ : BufTy).Contents (Elt F) → (⟨S1100000x8, .i1⟩ : BufTy).Contents (Elt F)) (((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)) ((andi : (⟨S1100000x1, .i1⟩ : BufTy).Contents (Elt F) → (⟨S1100000x1, .i1⟩ : BufTy).Contents (Elt F) → (⟨S1100000x1, .i1⟩ : BufTy).Contents (Elt F)) (((cmpi .sge) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![] bcast_S_S1100000x1) : (⟨S_, .i32⟩ : BufTy).Contents (Elt F) → (⟨S1100000x1, .i32⟩ : BufTy).Contents (Elt F)) ((constantI S_ 32 0#32) : (⟨S_, .i32⟩ : BufTy).Contents (Elt F)))) (((cmpi .sle) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![0, 1] bcast_S1x1_S1100000x1_0_1) : (⟨S1x1, .i32⟩ : BufTy).Contents (Elt F) → (⟨S1100000x1, .i32⟩ : BufTy).Contents (Elt F)) (((broadcastInDim S1x1 ![1] bcast_S1_S1x1_1) : (⟨S1, .i32⟩ : BufTy).Contents (Elt F) → (⟨S1x1, .i32⟩ : BufTy).Contents (Elt F)) ((constantI S1 32 99999#32) : (⟨S1, .i32⟩ : BufTy).Contents (Elt F)))))) ((constantI S_ 1 1#1) : (⟨S_, .i1⟩ : BufTy).Contents (Elt F)))) (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x1 (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0))) (((broadcastInDim S1100000x8 ![] bcast_S_S1100000x8) : (⟨S_, .f32⟩ : BufTy).Contents (Elt F) → (⟨S1100000x8, .f32⟩ : BufTy).Contents (Elt F)) ((constant S_ .f32 0x7FC00000#32) : (⟨S_, .f32⟩ : BufTy).Contents (Elt F))))

/-- The contents of `main_c_39` as a function of the buffers its item reads (none). -/
def C_c_39  : IVec S_ 32 :=
  (constantI S_ 32 0#32)

/-- The contents of `main_v279` as a function of the buffers its item reads (v278). -/
def C_v279 (x0 : FVec F S1100000x8 .f32) : FVec F S1100000x8 .bf16 :=
  (((truncf .bf16 · bitsLt_bf16_f32) : (⟨S1100000x8, .f32⟩ : BufTy).Contents (Elt F) → (⟨S1100000x8, .bf16⟩ : BufTy).Contents (Elt F)) x0)

/-- The contents of `main_v280` as a function of the buffers its item reads (v274). -/
def C_v280 (x0 : FVec F S1100000x2 .f32) : FVec F S1100000x2 .bf16 :=
  (((truncf .bf16 · bitsLt_bf16_f32) : (⟨S1100000x2, .f32⟩ : BufTy).Contents (Elt F) → (⟨S1100000x2, .bf16⟩ : BufTy).Contents (Elt F)) x0)

/-- The contents of `main_v282` as a function of the buffers its item reads (v204). -/
def C_v282 (x0 : FVec F S26x32 .f32) : FVec F S8x32 .f32 :=
  (((extractStridedSlice S8x32 ![8, 0] · slices_S26x32_S8x32_8_0) : (⟨S26x32, .f32⟩ : BufTy).Contents (Elt F) → (⟨S8x32, .f32⟩ : BufTy).Contents (Elt F)) x0)

/-- The contents of `main_v283` as a function of the buffers its item reads (v204). -/
def C_v283 (x0 : FVec F S26x32 .f32) : FVec F S8x32 .f32 :=
  (((extractStridedSlice S8x32 ![16, 0] · slices_S26x32_S8x32_16_0) : (⟨S26x32, .f32⟩ : BufTy).Contents (Elt F) → (⟨S8x32, .f32⟩ : BufTy).Contents (Elt F)) x0)

/-- The contents of `main_v284` as a function of the buffers its item reads (v204). -/
def C_v284 (x0 : FVec F S26x32 .f32) : FVec F S2x32 .f32 :=
  (((extractStridedSlice S2x32 ![24, 0] · slices_S26x32_S2x32_24_0) : (⟨S26x32, .f32⟩ : BufTy).Contents (Elt F) → (⟨S2x32, .f32⟩ : BufTy).Contents (Elt F)) x0)

/-- The contents of `main_v287` as a function of the buffers its item reads (v206, v273, v204). -/
def C_v287 (x0 : FVec F S32 .f32) (x1 : FVec F S1x8 .f32) (x2 : FVec F S26x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 x0 shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) x1 (((extractStridedSlice S8x32 ![0, 0] · slices_S26x32_S8x32_0_0) : (⟨S26x32, .f32⟩ : BufTy).Contents (Elt F) → (⟨S8x32, .f32⟩ : BufTy).Contents (Elt F)) x2)))

/-- The contents of `main_v288` as a function of the buffers its item reads (v210). -/
def C_v288 (x0 : FVec F S1 .f32) : FVec F S1x1 .f32 :=
  (shapeCast S1x1 x0 shapeCasts_S1_S1x1)

/-- The contents of `main_v289` as a function of the buffers its item reads (v277, c_39). -/
def C_v289 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_40` as a function of the buffers its item reads (none). -/
def C_c_40  : IVec S_ 32 :=
  (constantI S_ 32 0#32)

/-- The contents of `main_v290` as a function of the buffers its item reads (v279, c_40). -/
def C_v290 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_41` as a function of the buffers its item reads (none). -/
def C_c_41  : IVec S_ 32 :=
  (constantI S_ 32 0#32)

/-- The contents of `main_v291` as a function of the buffers its item reads (v280, c_41). -/
def C_v291 (x0 : FVec F S1100000x2 .bf16) (x1 : IVec S_ 32) : FVec F S1105920x2 .bf16 :=
  (((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) x0 (((sitofp .bf16) : (⟨S_, .i32⟩ : BufTy).Contents (Elt F) → (⟨S_, .bf16⟩ : BufTy).Contents (Elt F)) x1))

/-- The contents of `main_c_43` as a function of the buffers its item reads (none). -/
def C_c_43  : IVec S_ 32 :=
  (constantI S_ 32 0#32)

/-- The contents of `main_v298` as a function of the buffers its item reads (v5, v292, v23). -/
def C_v298 (x0 : IVec S1100000 32) (x1 : FVec F S1105920x1 .f32) (x2 : FVec F S100000x1 .f32) : FVec F S100000x1 .bf16 :=
  (((truncf .bf16 · bitsLt_bf16_f32) : (⟨S100000x1, .f32⟩ : BufTy).Contents (Elt F) → (⟨S100000x1, .bf16⟩ : BufTy).Contents (Elt F)) ((mulf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) (((extractStridedSlice S1100000x1 ![0, 0] · slices_S1105920x1_S1100000x1_0_0) : (⟨S1105920x1, .f32⟩ : BufTy).Contents (Elt F) → (⟨S1100000x1, .f32⟩ : BufTy).Contents (Elt F)) x1)) x2))

/-- The contents of `main_v300` as a function of the buffers its item reads (v212). -/
def C_v300 (x0 : FVec F S17x32 .f32) : FVec F S8x32 .f32 :=
  (((extractStridedSlice S8x32 ![8, 0] · slices_S17x32_S8x32_8_0) : (⟨S17x32, .f32⟩ : BufTy).Contents (Elt F) → (⟨S8x32, .f32⟩ : BufTy).Contents (Elt F)) x0)

/-- The contents of `main_v301` as a function of the buffers its item reads (v212). -/
def C_v301 (x0 : FVec F S17x32 .f32) : FVec F S1x32 .f32 :=
  (((extractStridedSlice S1x32 ![16, 0] · slices_S17x32_S1x32_16_0) : (⟨S17x32, .f32⟩ : BufTy).Contents (Elt F) → (⟨S1x32, .f32⟩ : BufTy).Contents (Elt F)) x0)

/-- The contents of `main_v304` as a function of the buffers its item reads (v214, v273, v212). -/
def C_v304 (x0 : FVec F S32 .f32) (x1 : FVec F S1x8 .f32) (x2 : FVec F S17x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 x0 shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) x1 (((extractStridedSlice S8x32 ![0, 0] · slices_S17x32_S8x32_0_0) : (⟨S17x32, .f32⟩ : BufTy).Contents (Elt F) → (⟨S8x32, .f32⟩ : BufTy).Contents (Elt F)) x2)))

/-- The contents of `main_v305` as a function of the buffers its item reads (v218). -/
def C_v305 (x0 : FVec F S8 .f32) : FVec F S1x8 .f32 :=
  (shapeCast S1x8 x0 shapeCasts_S8_S1x8)

/-- The contents of `main_v293` as a function of the buffers its item reads (v292). -/
def C_v293 (x0 : FVec F S1105920x1 .f32) : FVec F S1100000x1 .f32 :=
  (((extractStridedSlice S1100000x1 ![0, 0] · slices_S1105920x1_S1100000x1_0_0) : (⟨S1105920x1, .f32⟩ : BufTy).Contents (Elt F) → (⟨S1100000x1, .f32⟩ : BufTy).Contents (Elt F)) x0)

/-- The contents of `main_v306` as a function of the buffers its item reads (v275, c_43). -/
def C_v306 (x0 : FVec F S100000x8 .bf16) (x1 : IVec S_ 32) : FVec F S106496x8 .bf16 :=
  (((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) x0 (((sitofp .bf16) : (⟨S_, .i32⟩ : BufTy).Contents (Elt F) → (⟨S_, .bf16⟩ : BufTy).Contents (Elt F)) x1))

/-- The contents of `main_c_44` as a function of the buffers its item reads (none). -/
def C_c_44  : IVec S_ 32 :=
  (constantI S_ 32 0#32)

/-- The contents of `main_v307` as a function of the buffers its item reads (v298, c_44). -/
def C_v307 (x0 : FVec F S100000x1 .bf16) (x1 : IVec S_ 32) : FVec F S106496x1 .bf16 :=
  (((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) x0 (((sitofp .bf16) : (⟨S_, .i32⟩ : BufTy).Contents (Elt F) → (⟨S_, .bf16⟩ : BufTy).Contents (Elt F)) x1))

/-- The contents of `main_v322` as a function of the buffers its item reads (v308, v293, v273, v220, v222). -/
def C_v322 (x0 : FVec F S106496x8 .f32) (x1 : FVec F S1100000x1 .f32) (x2 : FVec F S1x8 .f32) (x3 : FVec F S17x32 .f32) (x4 : FVec F S32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)) (concatenate S1x17 1 [⟨S1x8, ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) (((extractStridedSlice S100000x8 ![0, 0] · slices_S106496x8_S100000x8_0_0) : (⟨S106496x8, .f32⟩ : BufTy).Contents (Elt F) → (⟨S100000x8, .f32⟩ : BufTy).Contents (Elt F)) x0) (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))⟩, ⟨S1x1, ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x1 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))⟩, ⟨S1x8, x2⟩] concatenates_S1x8_S1x1_S1x8_S1x17_d1) x3) (shapeCast S1x32 x4 shapeCasts_S32_S1x32))

/-- The contents of `main_v320` as a function of the buffers its item reads (v226). -/
def C_v320 (x0 : FVec F S8 .f32) : FVec F S1x8 .f32 :=
  (shapeCast S1x8 x0 shapeCasts_S8_S1x8)

/-- The contents of `main_v309` as a function of the buffers its item reads (v308). -/
def C_v309 (x0 : FVec F S106496x8 .f32) : FVec F S100000x8 .f32 :=
  (((extractStridedSlice S100000x8 ![0, 0] · slices_S106496x8_S100000x8_0_0) : (⟨S106496x8, .f32⟩ : BufTy).Contents (Elt F) → (⟨S100000x8, .f32⟩ : BufTy).Contents (Elt F)) x0)

/-- The contents of `main_v323` as a function of the buffers its item reads (v322). -/
def C_v323 (x0 : FVec F S1x32 .f32) : FVec F S1x32 .f32 :=
  ((maximumf : (⟨S1x32, .f32⟩ : BufTy).Contents (Elt F) → (⟨S1x32, .f32⟩ : BufTy).Contents (Elt F) → (⟨S1x32, .f32⟩ : BufTy).Contents (Elt F)) x0 (((broadcastInDim S1x32 ![] bcast_S_S1x32) : (⟨S_, .f32⟩ : BufTy).Contents (Elt F) → (⟨S1x32, .f32⟩ : BufTy).Contents (Elt F)) ((constant S_ .f32 0x00000000#32) : (⟨S_, .f32⟩ : BufTy).Contents (Elt F))))

/-- The contents of `main_c_49` as a function of the buffers its item reads (none). -/
def C_c_49  : IVec S_ 32 :=
  (constantI S_ 32 0#32)

/-- The contents of `main_v375` as a function of the buffers its item reads (v241, arg3). -/
def C_v375 (x0 : FVec F S1100000x1 .f32) (x1 : FVec F S1100000x1 .f32) : FVec F S1100000x2 .bf16 :=
  (((truncf .bf16 · bitsLt_bf16_f32) : (⟨S1100000x2, .f32⟩ : BufTy).Contents (Elt F) → (⟨S1100000x2, .bf16⟩ : BufTy).Contents (Elt F)) (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1))

/-- The contents of `main_v377` as a function of the buffers its item reads (arg5). -/
def C_v377 (x0 : FVec F S2x3x26x32 .f32) : FVec F S8x32 .f32 :=
  (((extractStridedSlice S8x32 ![8, 0] · slices_S26x32_S8x32_8_0) : (⟨S26x32, .f32⟩ : BufTy).Contents (Elt F) → (⟨S8x32, .f32⟩ : BufTy).Contents (Elt F)) (shapeCast S26x32 (((extractStridedSlice S1x1x26x32 ![0, 2, 0, 0] · slices_S2x3x26x32_S1x1x26x32_0_2_0_0) : (⟨S2x3x26x32, .f32⟩ : BufTy).Contents (Elt F) → (⟨S1x1x26x32, .f32⟩ : BufTy).Contents (Elt F)) x0) shapeCasts_S1x1x26x32_S26x32))

/-- The contents of `main_v378` as a function of the buffers its item reads (arg5). -/
def C_v378 (x0 : FVec F S2x3x26x32 .f32) : FVec F S8x32 .f32 :=
  (((extractStridedSlice S8x32 ![16, 0] · slices_S26x32_S8x32_16_0) : (⟨S26x32, .f32⟩ : BufTy).Contents (Elt F) → (⟨S8x32, .f32⟩ : BufTy).Contents (Elt F)) (shapeCast S26x32 (((extractStridedSlice S1x1x26x32 ![0, 2, 0, 0] · slices_S2x3x26x32_S1x1x26x32_0_2_0_0) : (⟨S2x3x26x32, .f32⟩ : BufTy).Contents (Elt F) → (⟨S1x1x26x32, .f32⟩ : BufTy).Contents (Elt F)) x0) shapeCasts_S1x1x26x32_S26x32))

/-- The contents of `main_v379` as a function of the buffers its item reads (arg5). -/
def C_v379 (x0 : FVec F S2x3x26x32 .f32) : FVec F S2x32 .f32 :=
  (((extractStridedSlice S2x32 ![24, 0] · slices_S26x32_S2x32_24_0) : (⟨S26x32, .f32⟩ : BufTy).Contents (Elt F) → (⟨S2x32, .f32⟩ : BufTy).Contents (Elt F)) (shapeCast S26x32 (((extractStridedSlice S1x1x26x32 ![0, 2, 0, 0] · slices_S2x3x26x32_S1x1x26x32_0_2_0_0) : (⟨S2x3x26x32, .f32⟩ : BufTy).Contents (Elt F) → (⟨S1x1x26x32, .f32⟩ : BufTy).Contents (Elt F)) x0) shapeCasts_S1x1x26x32_S26x32))

/-- The contents of `main_v382` as a function of the buffers its item reads (arg6, v323, v224, v320, arg5). -/
def C_v382 (x0 : FVec F S2x3x32 .f32) (x1 : FVec F S1x32 .f32) (x2 : FVec F S32x8 .f32) (x3 : FVec F S1x8 .f32) (x4 : FVec F S2x3x26x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 (shapeCast S32 (((extractStridedSlice S1x1x32 ![0, 2, 0] · slices_S2x3x32_S1x1x32_0_2_0) : (⟨S2x3x32, .f32⟩ : BufTy).Contents (Elt F) → (⟨S1x1x32, .f32⟩ : BufTy).Contents (Elt F)) x0) shapeCasts_S1x1x32_S32) shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) ((addf : (⟨S1x8, .f32⟩ : BufTy).Contents (Elt F) → (⟨S1x8, .f32⟩ : BufTy).Contents (Elt F) → (⟨S1x8, .f32⟩ : BufTy).Contents (Elt F)) (((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) x1 x2) x3) (((extractStridedSlice S8x32 ![0, 0] · slices_S26x32_S8x32_0_0) : (⟨S26x32, .f32⟩ : BufTy).Contents (Elt F) → (⟨S8x32, .f32⟩ : BufTy).Contents (Elt F)) (shapeCast S26x32 (((extractStridedSlice S1x1x26x32 ![0, 2, 0, 0] · slices_S2x3x26x32_S1x1x26x32_0_2_0_0) : (⟨S2x3x26x32, .f32⟩ : BufTy).Contents (Elt F) → (⟨S1x1x26x32, .f32⟩ : BufTy).Contents (Elt F)) x4) shapeCasts_S1x1x26x32_S26x32))))

/-- The contents of `main_v331` as a function of the buffers its item reads (arg7). -/
def C_v331 (x0 : FVec F S2x3x32x1 .f32) : FVec F S32x1 .f32 :=
  (shapeCast S32x1 (((extractStridedSlice S1x1x32x1 ![0, 2, 0, 0] · slices_S2x3x32x1_S1x1x32x1_0_2_0_0) : (⟨S2x3x32x1, .f32⟩ : BufTy).Contents (Elt F) → (⟨S1x1x32x1, .f32⟩ : BufTy).Contents (Elt F)) x0) shapeCasts_S1x1x32x1_S32x1)

/-- The contents of `main_v383` as a function of the buffers its item reads (arg8). -/
def C_v383 (x0 : FVec F S2x3x1 .f32) : FVec F S1x1 .f32 :=
  (shapeCast S1x1 (shapeCast S1 (((extractStridedSlice S1x1x1 ![0, 2, 0] · slices_S2x3x1_S1x1x1_0_2_0) : (⟨S2x3x1, .f32⟩ : BufTy).Contents (Elt F) → (⟨S1x1x1, .f32⟩ : BufTy).Contents (Elt F)) x0) shapeCasts_S1x1x1_S1) shapeCasts_S1_S1x1)

/-- The contents of `main_v335` as a function of the buffers its item reads (arg9). -/
def C_v335 (x0 : FVec F S2x3x17x32 .f32) : FVec F S17x32 .f32 :=
  (shapeCast S17x32 (((extractStridedSlice S1x1x17x32 ![0, 2, 0, 0] · slices_S2x3x17x32_S1x1x17x32_0_2_0_0) : (⟨S2x3x17x32, .f32⟩ : BufTy).Contents (Elt F) → (⟨S1x1x17x32, .f32⟩ : BufTy).Contents (Elt F)) x0) shapeCasts_S1x1x17x32_S17x32)

/-- The contents of `main_v337` as a function of the buffers its item reads (arg10). -/
def C_v337 (x0 : FVec F S2x3x32 .f32) : FVec F S32 .f32 :=
  (shapeCast S32 (((extractStridedSlice S1x1x32 ![0, 2, 0] · slices_S2x3x32_S1x1x32_0_2_0) : (⟨S2x3x32, .f32⟩ : BufTy).Contents (Elt F) → (⟨S1x1x32, .f32⟩ : BufTy).Contents (Elt F)) x0) shapeCasts_S1x1x32_S32)

/-- The contents of `main_v325` as a function of the buffers its item reads (v323, v224, v320). -/
def C_v325 (x0 : FVec F S1x32 .f32) (x1 : FVec F S32x8 .f32) (x2 : FVec F S1x8 .f32) : FVec F S1x8 .f32 :=
  ((addf : (⟨S1x8, .f32⟩ : BufTy).Contents (Elt F) → (⟨S1x8, .f32⟩ : BufTy).Contents (Elt F) → (⟨S1x8, .f32⟩ : BufTy).Contents (Elt F)) (((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) x0 x1) x2)

/-- The contents of `main_v341` as a function of the buffers its item reads (arg12). -/
def C_v341 (x0 : FVec F S2x3x8 .f32) : FVec F S8 .f32 :=
  (shapeCast S8 (((extractStridedSlice S1x1x8 ![0, 2, 0] · slices_S2x3x8_S1x1x8_0_2_0) : (⟨S2x3x8, .f32⟩ : BufTy).Contents (Elt F) → (⟨S1x1x8, .f32⟩ : BufTy).Contents (Elt F)) x0) shapeCasts_S1x1x8_S8)

/-- The contents of `main_v339` as a function of the buffers its item reads (arg11). -/
def C_v339 (x0 : FVec F S2x3x32x8 .f32) : FVec F S32x8 .f32 :=
  (shapeCast S32x8 (((extractStridedSlice S1x1x32x8 ![0, 2, 0, 0] · slices_S2x3x32x8_S1x1x32x8_0_2_0_0) : (⟨S2x3x32x8, .f32⟩ : BufTy).Contents (Elt F) → (⟨S1x1x32x8, .f32⟩ : BufTy).Contents (Elt F)) x0) shapeCasts_S1x1x32x8_S32x8)

/-- The contents of `main_v345` as a function of the buffers its item reads (arg14). -/
def C_v345 (x0 : FVec F S2x3x32 .f32) : FVec F S32 .f32 :=
  (shapeCast S32 (((extractStridedSlice S1x1x32 ![0, 2, 0] · slices_S2x3x32_S1x1x32_0_2_0) : (⟨S2x3x32, .f32⟩ : BufTy).Contents (Elt F) → (⟨S1x1x32, .f32⟩ : BufTy).Contents (Elt F)) x0) shapeCasts_S1x1x32_S32)

/-- The contents of `main_v349` as a function of the buffers its item reads (arg16). -/
def C_v349 (x0 : FVec F S2x3x8 .f32) : FVec F S8 .f32 :=
  (shapeCast S8 (((extractStridedSlice S1x1x8 ![0, 2, 0] · slices_S2x3x8_S1x1x8_0_2_0) : (⟨S2x3x8, .f32⟩ : BufTy).Contents (Elt F) → (⟨S1x1x8, .f32⟩ : BufTy).Contents (Elt F)) x0) shapeCasts_S1x1x8_S8)

/-- The contents of `main_v343` as a function of the buffers its item reads (arg13). -/
def C_v343 (x0 : FVec F S2x3x17x32 .f32) : FVec F S17x32 .f32 :=
  (shapeCast S17x32 (((extractStridedSlice S1x1x17x32 ![0, 2, 0, 0] · slices_S2x3x17x32_S1x1x17x32_0_2_0_0) : (⟨S2x3x17x32, .f32⟩ : BufTy).Contents (Elt F) → (⟨S1x1x17x32, .f32⟩ : BufTy).Contents (Elt F)) x0) shapeCasts_S1x1x17x32_S17x32)

/-- The contents of `main_v347` as a function of the buffers its item reads (arg15). -/
def C_v347 (x0 : FVec F S2x3x32x8 .f32) : FVec F S32x8 .f32 :=
  (shapeCast S32x8 (((extractStridedSlice S1x1x32x8 ![0, 2, 0, 0] · slices_S2x3x32x8_S1x1x32x8_0_2_0_0) : (⟨S2x3x32x8, .f32⟩ : BufTy).Contents (Elt F) → (⟨S1x1x32x8, .f32⟩ : BufTy).Contents (Elt F)) x0) shapeCasts_S1x1x32x8_S32x8)

/-- The contents of `main_v351` as a function of the buffers its item reads (arg5). -/
def C_v351 (x0 : FVec F S2x3x26x32 .f32) : FVec F S26x32 .f32 :=
  (shapeCast S26x32 (((extractStridedSlice S1x1x26x32 ![1, 2, 0, 0] · slices_S2x3x26x32_S1x1x26x32_1_2_0_0) : (⟨S2x3x26x32, .f32⟩ : BufTy).Contents (Elt F) → (⟨S1x1x26x32, .f32⟩ : BufTy).Contents (Elt F)) x0) shapeCasts_S1x1x26x32_S26x32)

/-- The contents of `main_v353` as a function of the buffers its item reads (arg6). -/
def C_v353 (x0 : FVec F S2x3x32 .f32) : FVec F S32 .f32 :=
  (shapeCast S32 (((extractStridedSlice S1x1x32 ![1, 2, 0] · slices_S2x3x32_S1x1x32_1_2_0) : (⟨S2x3x32, .f32⟩ : BufTy).Contents (Elt F) → (⟨S1x1x32, .f32⟩ : BufTy).Contents (Elt F)) x0) shapeCasts_S1x1x32_S32)

/-- The contents of `main_v357` as a function of the buffers its item reads (arg8). -/
def C_v357 (x0 : FVec F S2x3x1 .f32) : FVec F S1 .f32 :=
  (shapeCast S1 (((extractStridedSlice S1x1x1 ![1, 2, 0] · slices_S2x3x1_S1x1x1_1_2_0) : (⟨S2x3x1, .f32⟩ : BufTy).Contents (Elt F) → (⟨S1x1x1, .f32⟩ : BufTy).Contents (Elt F)) x0) shapeCasts_S1x1x1_S1)

/-- The contents of `main_v355` as a function of the buffers its item reads (arg7). -/
def C_v355 (x0 : FVec F S2x3x32x1 .f32) : FVec F S32x1 .f32 :=
  (shapeCast S32x1 (((extractStridedSlice S1x1x32x1 ![1, 2, 0, 0] · slices_S2x3x32x1_S1x1x32x1_1_2_0_0) : (⟨S2x3x32x1, .f32⟩ : BufTy).Contents (Elt F) → (⟨S1x1x32x1, .f32⟩ : BufTy).Contents (Elt F)) x0) shapeCasts_S1x1x32x1_S32x1)

/-- The contents of `main_v359` as a function of the buffers its item reads (arg9). -/
def C_v359 (x0 : FVec F S2x3x17x32 .f32) : FVec F S17x32 .f32 :=
  (shapeCast S17x32 (((extractStridedSlice S1x1x17x32 ![1, 2, 0, 0] · slices_S2x3x17x32_S1x1x17x32_1_2_0_0) : (⟨S2x3x17x32, .f32⟩ : BufTy).Contents (Elt F) → (⟨S1x1x17x32, .f32⟩ : BufTy).Contents (Elt F)) x0) shapeCasts_S1x1x17x32_S17x32)

/-- The contents of `main_v361` as a function of the buffers its item reads (arg10). -/
def C_v361 (x0 : FVec F S2x3x32 .f32) : FVec F S32 .f32 :=
  (shapeCast S32 (((extractStridedSlice S1x1x32 ![1, 2, 0] · slices_S2x3x32_S1x1x32_1_2_0) : (⟨S2x3x32, .f32⟩ : BufTy).Contents (Elt F) → (⟨S1x1x32, .f32⟩ : BufTy).Contents (Elt F)) x0) shapeCasts_S1x1x32_S32)

/-- The contents of `main_v365` as a function of the buffers its item reads (arg12). -/
def C_v365 (x0 : FVec F S2x3x8 .f32) : FVec F S8 .f32 :=
  (shapeCast S8 (((extractStridedSlice S1x1x8 ![1, 2, 0] · slices_S2x3x8_S1x1x8_1_2_0) : (⟨S2x3x8, .f32⟩ : BufTy).Contents (Elt F) → (⟨S1x1x8, .f32⟩ : BufTy).Contents (Elt F)) x0) shapeCasts_S1x1x8_S8)

/-- The contents of `main_v363` as a function of the buffers its item reads (arg11). -/
def C_v363 (x0 : FVec F S2x3x32x8 .f32) : FVec F S32x8 .f32 :=
  (shapeCast S32x8 (((extractStridedSlice S1x1x32x8 ![1, 2, 0, 0] · slices_S2x3x32x8_S1x1x32x8_1_2_0_0) : (⟨S2x3x32x8, .f32⟩ : BufTy).Contents (Elt F) → (⟨S1x1x32x8, .f32⟩ : BufTy).Contents (Elt F)) x0) shapeCasts_S1x1x32x8_S32x8)

/-- The contents of `main_v369` as a function of the buffers its item reads (arg14). -/
def C_v369 (x0 : FVec F S2x3x32 .f32) : FVec F S32 .f32 :=
  (shapeCast S32 (((extractStridedSlice S1x1x32 ![1, 2, 0] · slices_S2x3x32_S1x1x32_1_2_0) : (⟨S2x3x32, .f32⟩ : BufTy).Contents (Elt F) → (⟨S1x1x32, .f32⟩ : BufTy).Contents (Elt F)) x0) shapeCasts_S1x1x32_S32)

/-- The contents of `main_v373` as a function of the buffers its item reads (arg16). -/
def C_v373 (x0 : FVec F S2x3x8 .f32) : FVec F S8 .f32 :=
  (shapeCast S8 (((extractStridedSlice S1x1x8 ![1, 2, 0] · slices_S2x3x8_S1x1x8_1_2_0) : (⟨S2x3x8, .f32⟩ : BufTy).Contents (Elt F) → (⟨S1x1x8, .f32⟩ : BufTy).Contents (Elt F)) x0) shapeCasts_S1x1x8_S8)

/-- The contents of `main_v367` as a function of the buffers its item reads (arg13). -/
def C_v367 (x0 : FVec F S2x3x17x32 .f32) : FVec F S17x32 .f32 :=
  (shapeCast S17x32 (((extractStridedSlice S1x1x17x32 ![1, 2, 0, 0] · slices_S2x3x17x32_S1x1x17x32_1_2_0_0) : (⟨S2x3x17x32, .f32⟩ : BufTy).Contents (Elt F) → (⟨S1x1x17x32, .f32⟩ : BufTy).Contents (Elt F)) x0) shapeCasts_S1x1x17x32_S17x32)

/-- The contents of `main_v371` as a function of the buffers its item reads (arg15). -/
def C_v371 (x0 : FVec F S2x3x32x8 .f32) : FVec F S32x8 .f32 :=
  (shapeCast S32x8 (((extractStridedSlice S1x1x32x8 ![1, 2, 0, 0] · slices_S2x3x32x8_S1x1x32x8_1_2_0_0) : (⟨S2x3x32x8, .f32⟩ : BufTy).Contents (Elt F) → (⟨S1x1x32x8, .f32⟩ : BufTy).Contents (Elt F)) x0) shapeCasts_S1x1x32x8_S32x8)

/-- The contents of `main_v374` as a function of the buffers its item reads (v241, arg3). -/
def C_v374 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v384` as a function of the buffers its item reads (v26, c_49). -/
def C_v384 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_50` as a function of the buffers its item reads (none). -/
def C_c_50  : IVec S_ 32 :=
  (constantI S_ 32 0#32)

/-- The contents of `main_v385` as a function of the buffers its item reads (v28, c_50). -/
def C_v385 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_51` as a function of the buffers its item reads (none). -/
def C_c_51  : IVec S_ 32 :=
  (constantI S_ 32 0#32)

/-- The contents of `main_v386` as a function of the buffers its item reads (v375, c_51). -/
def C_v386 (x0 : FVec F S1100000x2 .bf16) (x1 : IVec S_ 32) : FVec F S1105920x2 .bf16 :=
  (((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) x0 (((sitofp .bf16) : (⟨S_, .i32⟩ : BufTy).Contents (Elt F) → (⟨S_, .bf16⟩ : BufTy).Contents (Elt F)) x1))

/-- The contents of `main_c_53` as a function of the buffers its item reads (none). -/
def C_c_53  : IVec S_ 32 :=
  (constantI S_ 32 0#32)

/-- The contents of `main_v393` as a function of the buffers its item reads (v1, v387, v16). -/
def C_v393 (x0 : IVec S1100000 32) (x1 : FVec F S1105920x1 .f32) (x2 : FVec F S100000x1 .f32) : FVec F S100000x1 .bf16 :=
  (((truncf .bf16 · bitsLt_bf16_f32) : (⟨S100000x1, .f32⟩ : BufTy).Contents (Elt F) → (⟨S100000x1, .bf16⟩ : BufTy).Contents (Elt F)) ((mulf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) (((extractStridedSlice S1100000x1 ![0, 0] · slices_S1105920x1_S1100000x1_0_0) : (⟨S1105920x1, .f32⟩ : BufTy).Contents (Elt F) → (⟨S1100000x1, .f32⟩ : BufTy).Contents (Elt F)) x1)) x2))

/-- The contents of `main_v395` as a function of the buffers its item reads (v335). -/
def C_v395 (x0 : FVec F S17x32 .f32) : FVec F S8x32 .f32 :=
  (((extractStridedSlice S8x32 ![8, 0] · slices_S17x32_S8x32_8_0) : (⟨S17x32, .f32⟩ : BufTy).Contents (Elt F) → (⟨S8x32, .f32⟩ : BufTy).Contents (Elt F)) x0)

/-- The contents of `main_v396` as a function of the buffers its item reads (v335). -/
def C_v396 (x0 : FVec F S17x32 .f32) : FVec F S1x32 .f32 :=
  (((extractStridedSlice S1x32 ![16, 0] · slices_S17x32_S1x32_16_0) : (⟨S17x32, .f32⟩ : BufTy).Contents (Elt F) → (⟨S1x32, .f32⟩ : BufTy).Contents (Elt F)) x0)

/-- The contents of `main_v399` as a function of the buffers its item reads (v337, v325, v335). -/
def C_v399 (x0 : FVec F S32 .f32) (x1 : FVec F S1x8 .f32) (x2 : FVec F S17x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 x0 shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) x1 (((extractStridedSlice S8x32 ![0, 0] · slices_S17x32_S8x32_0_0) : (⟨S17x32, .f32⟩ : BufTy).Contents (Elt F) → (⟨S8x32, .f32⟩ : BufTy).Contents (Elt F)) x2)))

/-- The contents of `main_v400` as a function of the buffers its item reads (v341). -/
def C_v400 (x0 : FVec F S8 .f32) : FVec F S1x8 .f32 :=
  (shapeCast S1x8 x0 shapeCasts_S8_S1x8)

/-- The contents of `main_v388` as a function of the buffers its item reads (v387). -/
def C_v388 (x0 : FVec F S1105920x1 .f32) : FVec F S1100000x1 .f32 :=
  (((extractStridedSlice S1100000x1 ![0, 0] · slices_S1105920x1_S1100000x1_0_0) : (⟨S1105920x1, .f32⟩ : BufTy).Contents (Elt F) → (⟨S1100000x1, .f32⟩ : BufTy).Contents (Elt F)) x0)

/-- The contents of `main_v401` as a function of the buffers its item reads (v24, c_53). -/
def C_v401 (x0 : FVec F S100000x8 .bf16) (x1 : IVec S_ 32) : FVec F S106496x8 .bf16 :=
  (((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) x0 (((sitofp .bf16) : (⟨S_, .i32⟩ : BufTy).Contents (Elt F) → (⟨S_, .bf16⟩ : BufTy).Contents (Elt F)) x1))

/-- The contents of `main_c_54` as a function of the buffers its item reads (none). -/
def C_c_54  : IVec S_ 32 :=
  (constantI S_ 32 0#32)

/-- The contents of `main_v402` as a function of the buffers its item reads (v393, c_54). -/
def C_v402 (x0 : FVec F S100000x1 .bf16) (x1 : IVec S_ 32) : FVec F S106496x1 .bf16 :=
  (((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) x0 (((sitofp .bf16) : (⟨S_, .i32⟩ : BufTy).Contents (Elt F) → (⟨S_, .bf16⟩ : BufTy).Contents (Elt F)) x1))

/-- The contents of `main_v417` as a function of the buffers its item reads (v403, v388, v325, v343, v345). -/
def C_v417 (x0 : FVec F S106496x8 .f32) (x1 : FVec F S1100000x1 .f32) (x2 : FVec F S1x8 .f32) (x3 : FVec F S17x32 .f32) (x4 : FVec F S32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)) (concatenate S1x17 1 [⟨S1x8, ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) (((extractStridedSlice S100000x8 ![0, 0] · slices_S106496x8_S100000x8_0_0) : (⟨S106496x8, .f32⟩ : BufTy).Contents (Elt F) → (⟨S100000x8, .f32⟩ : BufTy).Contents (Elt F)) x0) (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))⟩, ⟨S1x1, ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x1 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))⟩, ⟨S1x8, x2⟩] concatenates_S1x8_S1x1_S1x8_S1x17_d1) x3) (shapeCast S1x32 x4 shapeCasts_S32_S1x32))

/-- The contents of `main_v415` as a function of the buffers its item reads (v349). -/
def C_v415 (x0 : FVec F S8 .f32) : FVec F S1x8 .f32 :=
  (shapeCast S1x8 x0 shapeCasts_S8_S1x8)

/-- The contents of `main_v404` as a function of the buffers its item reads (v403). -/
def C_v404 (x0 : FVec F S106496x8 .f32) : FVec F S100000x8 .f32 :=
  (((extractStridedSlice S100000x8 ![0, 0] · slices_S106496x8_S100000x8_0_0) : (⟨S106496x8, .f32⟩ : BufTy).Contents (Elt F) → (⟨S100000x8, .f32⟩ : BufTy).Contents (Elt F)) x0)

/-- The contents of `main_v418` as a function of the buffers its item reads (v417). -/
def C_v418 (x0 : FVec F S1x32 .f32) : FVec F S1x32 .f32 :=
  ((maximumf : (⟨S1x32, .f32⟩ : BufTy).Contents (Elt F) → (⟨S1x32, .f32⟩ : BufTy).Contents (Elt F) → (⟨S1x32, .f32⟩ : BufTy).Contents (Elt F)) x0 (((broadcastInDim S1x32 ![] bcast_S_S1x32) : (⟨S_, .f32⟩ : BufTy).Contents (Elt F) → (⟨S1x32, .f32⟩ : BufTy).Contents (Elt F)) ((constant S_ .f32 0x00000000#32) : (⟨S_, .f32⟩ : BufTy).Contents (Elt F))))

/-- The contents of `main_v421` as a function of the buffers its item reads (v293, v31). -/
def C_v421 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v420` as a function of the buffers its item reads (v418, v347, v415). -/
def C_v420 (x0 : FVec F S1x32 .f32) (x1 : FVec F S32x8 .f32) (x2 : FVec F S1x8 .f32) : FVec F S1x8 .f32 :=
  ((addf : (⟨S1x8, .f32⟩ : BufTy).Contents (Elt F) → (⟨S1x8, .f32⟩ : BufTy).Contents (Elt F) → (⟨S1x8, .f32⟩ : BufTy).Contents (Elt F)) (((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) x0 x1) x2)

/-- The contents of `main_v422` as a function of the buffers its item reads (v404). -/
def C_v422 (x0 : FVec F S100000x8 .f32) : FVec F S100000x8 .bf16 :=
  (((truncf .bf16 · bitsLt_bf16_f32) : (⟨S100000x8, .f32⟩ : BufTy).Contents (Elt F) → (⟨S100000x8, .bf16⟩ : BufTy).Contents (Elt F)) x0)

/-- The contents of `main_v423` as a function of the buffers its item reads (v5, v404). -/
def C_v423 (x0 : IVec S1100000 32) (x1 : FVec F S100000x8 .f32) : FVec F S1100000x8 .f32 :=
  ((select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) (((broadcastInDim S1100000x8 ![0] bcast_S1100000_S1100000x8_0) : (⟨S1100000, .i1⟩ : BufTy).Contents (Elt F) → (⟨S1100000x8, .i1⟩ : BufTy).Contents (Elt F)) (((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)) ((andi : (⟨S1100000x1, .i1⟩ : BufTy).Contents (Elt F) → (⟨S1100000x1, .i1⟩ : BufTy).Contents (Elt F) → (⟨S1100000x1, .i1⟩ : BufTy).Contents (Elt F)) (((cmpi .sge) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![] bcast_S_S1100000x1) : (⟨S_, .i32⟩ : BufTy).Contents (Elt F) → (⟨S1100000x1, .i32⟩ : BufTy).Contents (Elt F)) ((constantI S_ 32 0#32) : (⟨S_, .i32⟩ : BufTy).Contents (Elt F)))) (((cmpi .sle) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![0, 1] bcast_S1x1_S1100000x1_0_1) : (⟨S1x1, .i32⟩ : BufTy).Contents (Elt F) → (⟨S1100000x1, .i32⟩ : BufTy).Contents (Elt F)) (((broadcastInDim S1x1 ![1] bcast_S1_S1x1_1) : (⟨S1, .i32⟩ : BufTy).Contents (Elt F) → (⟨S1x1, .i32⟩ : BufTy).Contents (Elt F)) ((constantI S1 32 99999#32) : (⟨S1, .i32⟩ : BufTy).Contents (Elt F)))))) ((constantI S_ 1 1#1) : (⟨S_, .i1⟩ : BufTy).Contents (Elt F)))) (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x1 (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0))) (((broadcastInDim S1100000x8 ![] bcast_S_S1100000x8) : (⟨S_, .f32⟩ : BufTy).Contents (Elt F) → (⟨S1100000x8, .f32⟩ : BufTy).Contents (Elt F)) ((constant S_ .f32 0x7FC00000#32) : (⟨S_, .f32⟩ : BufTy).Contents (Elt F))))

/-- The contents of `main_v424` as a function of the buffers its item reads (v423). -/
def C_v424 (x0 : FVec F S1100000x8 .f32) : FVec F S1100000x8 .bf16 :=
  (((truncf .bf16 · bitsLt_bf16_f32) : (⟨S1100000x8, .f32⟩ : BufTy).Contents (Elt F) → (⟨S1100000x8, .bf16⟩ : BufTy).Contents (Elt F)) x0)

/-- The contents of `main_v425` as a function of the buffers its item reads (v7, v404). -/
def C_v425 (x0 : IVec S1100000 32) (x1 : FVec F S100000x8 .f32) : FVec F S1100000x8 .f32 :=
  ((select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) (((broadcastInDim S1100000x8 ![0] bcast_S1100000_S1100000x8_0) : (⟨S1100000, .i1⟩ : BufTy).Contents (Elt F) → (⟨S1100000x8, .i1⟩ : BufTy).Contents (Elt F)) (((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)) ((andi : (⟨S1100000x1, .i1⟩ : BufTy).Contents (Elt F) → (⟨S1100000x1, .i1⟩ : BufTy).Contents (Elt F) → (⟨S1100000x1, .i1⟩ : BufTy).Contents (Elt F)) (((cmpi .sge) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![] bcast_S_S1100000x1) : (⟨S_, .i32⟩ : BufTy).Contents (Elt F) → (⟨S1100000x1, .i32⟩ : BufTy).Contents (Elt F)) ((constantI S_ 32 0#32) : (⟨S_, .i32⟩ : BufTy).Contents (Elt F)))) (((cmpi .sle) : (⟨S1100000x1, .i32⟩ : BufTy).Contents (Elt F) → (⟨S1100000x1, .i32⟩ : BufTy).Contents (Elt F) → (⟨S1100000x1, .i1⟩ : BufTy).Contents (Elt F)) (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0)) (((broadcastInDim S1100000x1 ![0, 1] bcast_S1x1_S1100000x1_0_1) : (⟨S1x1, .i32⟩ : BufTy).Contents (Elt F) → (⟨S1100000x1, .i32⟩ : BufTy).Contents (Elt F)) (((broadcastInDim S1x1 ![1] bcast_S1_S1x1_1) : (⟨S1, .i32⟩ : BufTy).Contents (Elt F) → (⟨S1x1, .i32⟩ : BufTy).Contents (Elt F)) ((constantI S1 32 99999#32) : (⟨S1, .i32⟩ : BufTy).Contents (Elt F)))))) ((constantI S_ 1 1#1) : (⟨S_, .i1⟩ : BufTy).Contents (Elt F)))) (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x1 (((broadcastInDim S1100000x1 ![0] bcast_S1100000_S1100000x1_0) : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) (((cmpi .slt) : (⟨S1100000, .i32⟩ : BufTy).Contents (Elt F) → (⟨S1100000, .i32⟩ : BufTy).Contents (Elt F) → (⟨S1100000, .i1⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 0#32) : (⟨S_, .i32⟩ : BufTy).Contents (Elt F)))) ((addi : (⟨S1100000, .i32⟩ : BufTy).Contents (Elt F) → (⟨S1100000, .i32⟩ : BufTy).Contents (Elt F) → (⟨S1100000, .i32⟩ : BufTy).Contents (Elt F)) x0 (((broadcastInDim S1100000 ![] bcast_S_S1100000) : (⟨S_, .i32⟩ : BufTy).Contents (Elt F) → (⟨S1100000, .i32⟩ : BufTy).Contents (Elt F)) ((constantI S_ 32 100000#32) : (⟨S_, .i32⟩ : BufTy).Contents (Elt F)))) x0))) (((broadcastInDim S1100000x8 ![] bcast_S_S1100000x8) : (⟨S_, .f32⟩ : BufTy).Contents (Elt F) → (⟨S1100000x8, .f32⟩ : BufTy).Contents (Elt F)) ((constant S_ .f32 0x7FC00000#32) : (⟨S_, .f32⟩ : BufTy).Contents (Elt F))))

/-- The contents of `main_c_59` as a function of the buffers its item reads (none). -/
def C_c_59  : IVec S_ 32 :=
  (constantI S_ 32 0#32)

/-- The contents of `main_v426` as a function of the buffers its item reads (v425). -/
def C_v426 (x0 : FVec F S1100000x8 .f32) : FVec F S1100000x8 .bf16 :=
  (((truncf .bf16 · bitsLt_bf16_f32) : (⟨S1100000x8, .f32⟩ : BufTy).Contents (Elt F) → (⟨S1100000x8, .bf16⟩ : BufTy).Contents (Elt F)) x0)

/-- The contents of `main_v427` as a function of the buffers its item reads (v421). -/
def C_v427 (x0 : FVec F S1100000x2 .f32) : FVec F S1100000x2 .bf16 :=
  (((truncf .bf16 · bitsLt_bf16_f32) : (⟨S1100000x2, .f32⟩ : BufTy).Contents (Elt F) → (⟨S1100000x2, .bf16⟩ : BufTy).Contents (Elt F)) x0)

/-- The contents of `main_v429` as a function of the buffers its item reads (v351). -/
def C_v429 (x0 : FVec F S26x32 .f32) : FVec F S8x32 .f32 :=
  (((extractStridedSlice S8x32 ![8, 0] · slices_S26x32_S8x32_8_0) : (⟨S26x32, .f32⟩ : BufTy).Contents (Elt F) → (⟨S8x32, .f32⟩ : BufTy).Contents (Elt F)) x0)

/-- The contents of `main_v430` as a function of the buffers its item reads (v351). -/
def C_v430 (x0 : FVec F S26x32 .f32) : FVec F S8x32 .f32 :=
  (((extractStridedSlice S8x32 ![16, 0] · slices_S26x32_S8x32_16_0) : (⟨S26x32, .f32⟩ : BufTy).Contents (Elt F) → (⟨S8x32, .f32⟩ : BufTy).Contents (Elt F)) x0)

/-- The contents of `main_v431` as a function of the buffers its item reads (v351). -/
def C_v431 (x0 : FVec F S26x32 .f32) : FVec F S2x32 .f32 :=
  (((extractStridedSlice S2x32 ![24, 0] · slices_S26x32_S2x32_24_0) : (⟨S26x32, .f32⟩ : BufTy).Contents (Elt F) → (⟨S2x32, .f32⟩ : BufTy).Contents (Elt F)) x0)

/-- The contents of `main_v434` as a function of the buffers its item reads (v353, v420, v351). -/
def C_v434 (x0 : FVec F S32 .f32) (x1 : FVec F S1x8 .f32) (x2 : FVec F S26x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 x0 shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) x1 (((extractStridedSlice S8x32 ![0, 0] · slices_S26x32_S8x32_0_0) : (⟨S26x32, .f32⟩ : BufTy).Contents (Elt F) → (⟨S8x32, .f32⟩ : BufTy).Contents (Elt F)) x2)))

/-- The contents of `main_v435` as a function of the buffers its item reads (v357). -/
def C_v435 (x0 : FVec F S1 .f32) : FVec F S1x1 .f32 :=
  (shapeCast S1x1 x0 shapeCasts_S1_S1x1)

/-- The contents of `main_v436` as a function of the buffers its item reads (v424, c_59). -/
def C_v436 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_60` as a function of the buffers its item reads (none). -/
def C_c_60  : IVec S_ 32 :=
  (constantI S_ 32 0#32)

/-- The contents of `main_v437` as a function of the buffers its item reads (v426, c_60). -/
def C_v437 (x0 : FVec F S1100000x8 .bf16) (x1 : IVec S_ 32) : FVec F S1105920x8 .bf16 :=
  (((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) x0 (((sitofp .bf16) : (⟨S_, .i32⟩ : BufTy).Contents (Elt F) → (⟨S_, .bf16⟩ : BufTy).Contents (Elt F)) x1))

/-- The contents of `main_c_61` as a function of the buffers its item reads (none). -/
def C_c_61  : IVec S_ 32 :=
  (constantI S_ 32 0#32)

/-- The contents of `main_v438` as a function of the buffers its item reads (v427, c_61). -/
def C_v438 (x0 : FVec F S1100000x2 .bf16) (x1 : IVec S_ 32) : FVec F S1105920x2 .bf16 :=
  (((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) x0 (((sitofp .bf16) : (⟨S_, .i32⟩ : BufTy).Contents (Elt F) → (⟨S_, .bf16⟩ : BufTy).Contents (Elt F)) x1))

/-- The contents of `main_c_63` as a function of the buffers its item reads (none). -/
def C_c_63  : IVec S_ 32 :=
  (constantI S_ 32 0#32)

/-- The contents of `main_v445` as a function of the buffers its item reads (v5, v439, v23). -/
def C_v445 (x0 : IVec S1100000 32) (x1 : FVec F S1105920x1 .f32) (x2 : FVec F S100000x1 .f32) : FVec F S100000x1 .bf16 :=
  (((truncf .bf16 · bitsLt_bf16_f32) : (⟨S100000x1, .f32⟩ : BufTy).Contents (Elt F) → (⟨S100000x1, .bf16⟩ : BufTy).Contents (Elt F)) ((mulf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) (((extractStridedSlice S1100000x1 ![0, 0] · slices_S1105920x1_S1100000x1_0_0) : (⟨S1105920x1, .f32⟩ : BufTy).Contents (Elt F) → (⟨S1100000x1, .f32⟩ : BufTy).Contents (Elt F)) x1)) x2))

/-- The contents of `main_v447` as a function of the buffers its item reads (v359). -/
def C_v447 (x0 : FVec F S17x32 .f32) : FVec F S8x32 .f32 :=
  (((extractStridedSlice S8x32 ![8, 0] · slices_S17x32_S8x32_8_0) : (⟨S17x32, .f32⟩ : BufTy).Contents (Elt F) → (⟨S8x32, .f32⟩ : BufTy).Contents (Elt F)) x0)

/-- The contents of `main_v448` as a function of the buffers its item reads (v359). -/
def C_v448 (x0 : FVec F S17x32 .f32) : FVec F S1x32 .f32 :=
  (((extractStridedSlice S1x32 ![16, 0] · slices_S17x32_S1x32_16_0) : (⟨S17x32, .f32⟩ : BufTy).Contents (Elt F) → (⟨S1x32, .f32⟩ : BufTy).Contents (Elt F)) x0)

/-- The contents of `main_v451` as a function of the buffers its item reads (v361, v420, v359). -/
def C_v451 (x0 : FVec F S32 .f32) (x1 : FVec F S1x8 .f32) (x2 : FVec F S17x32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (shapeCast S1x32 x0 shapeCasts_S32_S1x32) (((fun l r => Host.dotGeneral dot_S1x8_S8x32_S1x32_1_0_0_1_n_n none l r) : (⟨S1x8, .f32⟩ : BufTy).Contents (Elt F) → (⟨S8x32, .f32⟩ : BufTy).Contents (Elt F) → (⟨S1x32, .f32⟩ : BufTy).Contents (Elt F)) x1 (((extractStridedSlice S8x32 ![0, 0] · slices_S17x32_S8x32_0_0) : (⟨S17x32, .f32⟩ : BufTy).Contents (Elt F) → (⟨S8x32, .f32⟩ : BufTy).Contents (Elt F)) x2)))

/-- The contents of `main_v452` as a function of the buffers its item reads (v365). -/
def C_v452 (x0 : FVec F S8 .f32) : FVec F S1x8 .f32 :=
  (shapeCast S1x8 x0 shapeCasts_S8_S1x8)

/-- The contents of `main_v440` as a function of the buffers its item reads (v439). -/
def C_v440 (x0 : FVec F S1105920x1 .f32) : FVec F S1100000x1 .f32 :=
  (((extractStridedSlice S1100000x1 ![0, 0] · slices_S1105920x1_S1100000x1_0_0) : (⟨S1105920x1, .f32⟩ : BufTy).Contents (Elt F) → (⟨S1100000x1, .f32⟩ : BufTy).Contents (Elt F)) x0)

/-- The contents of `main_v453` as a function of the buffers its item reads (v422, c_63). -/
def C_v453 (x0 : FVec F S100000x8 .bf16) (x1 : IVec S_ 32) : FVec F S106496x8 .bf16 :=
  (((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) x0 (((sitofp .bf16) : (⟨S_, .i32⟩ : BufTy).Contents (Elt F) → (⟨S_, .bf16⟩ : BufTy).Contents (Elt F)) x1))

/-- The contents of `main_c_64` as a function of the buffers its item reads (none). -/
def C_c_64  : IVec S_ 32 :=
  (constantI S_ 32 0#32)

/-- The contents of `main_v454` as a function of the buffers its item reads (v445, c_64). -/
def C_v454 (x0 : FVec F S100000x1 .bf16) (x1 : IVec S_ 32) : FVec F S106496x1 .bf16 :=
  (((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) x0 (((sitofp .bf16) : (⟨S_, .i32⟩ : BufTy).Contents (Elt F) → (⟨S_, .bf16⟩ : BufTy).Contents (Elt F)) x1))

/-- The contents of `main_v469` as a function of the buffers its item reads (v455, v440, v420, v367, v369). -/
def C_v469 (x0 : FVec F S106496x8 .f32) (x1 : FVec F S1100000x1 .f32) (x2 : FVec F S1x8 .f32) (x3 : FVec F S17x32 .f32) (x4 : FVec F S32 .f32) : FVec F S1x32 .f32 :=
  ((addf : (⟨S1x32, .f32⟩ : BufTy).Contents (Elt F) → (⟨S1x32, .f32⟩ : BufTy).Contents (Elt F) → (⟨S1x32, .f32⟩ : BufTy).Contents (Elt F)) (((fun l r => Host.dotGeneral dot_S1x17_S17x32_S1x32_1_0_0_1_n_n none l r) : (⟨S1x17, .f32⟩ : BufTy).Contents (Elt F) → (⟨S17x32, .f32⟩ : BufTy).Contents (Elt F) → (⟨S1x32, .f32⟩ : BufTy).Contents (Elt F)) (concatenate S1x17 1 [⟨S1x8, ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) (((extractStridedSlice S100000x8 ![0, 0] · slices_S106496x8_S100000x8_0_0) : (⟨S106496x8, .f32⟩ : BufTy).Contents (Elt F) → (⟨S100000x8, .f32⟩ : BufTy).Contents (Elt F)) x0) (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))⟩, ⟨S1x1, ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x1 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))⟩, ⟨S1x8, x2⟩] concatenates_S1x8_S1x1_S1x8_S1x17_d1) x3) (shapeCast S1x32 x4 shapeCasts_S32_S1x32))

/-- The contents of `main_v467` as a function of the buffers its item reads (v373). -/
def C_v467 (x0 : FVec F S8 .f32) : FVec F S1x8 .f32 :=
  (shapeCast S1x8 x0 shapeCasts_S8_S1x8)

/-- The contents of `main_v456` as a function of the buffers its item reads (v455). -/
def C_v456 (x0 : FVec F S106496x8 .f32) : FVec F S100000x8 .f32 :=
  (((extractStridedSlice S100000x8 ![0, 0] · slices_S106496x8_S100000x8_0_0) : (⟨S106496x8, .f32⟩ : BufTy).Contents (Elt F) → (⟨S100000x8, .f32⟩ : BufTy).Contents (Elt F)) x0)

/-- The contents of `main_v470` as a function of the buffers its item reads (v469). -/
def C_v470 (x0 : FVec F S1x32 .f32) : FVec F S1x32 .f32 :=
  ((maximumf : (⟨S1x32, .f32⟩ : BufTy).Contents (Elt F) → (⟨S1x32, .f32⟩ : BufTy).Contents (Elt F) → (⟨S1x32, .f32⟩ : BufTy).Contents (Elt F)) x0 (((broadcastInDim S1x32 ![] bcast_S_S1x32) : (⟨S_, .f32⟩ : BufTy).Contents (Elt F) → (⟨S1x32, .f32⟩ : BufTy).Contents (Elt F)) ((constant S_ .f32 0x00000000#32) : (⟨S_, .f32⟩ : BufTy).Contents (Elt F))))

/-- The contents of `main_v473` as a function of the buffers its item reads (v1, v3). -/
def C_v473 (x0 : IVec S1100000 32) (x1 : IVec S1100000 32) : IVec S1100000 1 :=
  ((cmpi .eq : (⟨S1100000, .i32⟩ : BufTy).Contents (Elt F) → (⟨S1100000, .i32⟩ : BufTy).Contents (Elt F) → (⟨S1100000, .i1⟩ : BufTy).Contents (Elt F)) x0 x1)

/-- The contents of `main_v475` as a function of the buffers its item reads (v388). -/
def C_v475 (x0 : FVec F S1100000x1 .f32) : FVec F S1100000 .f32 :=
  ((Host.exp : (⟨S1100000, .f32⟩ : BufTy).Contents (Elt F) → (⟨S1100000, .f32⟩ : BufTy).Contents (Elt F)) (shapeCast S1100000 x0 shapeCasts_S1100000x1_S1100000))

/-- The contents of `main_v476` as a function of the buffers its item reads (v388). -/
def C_v476 (x0 : FVec F S1100000x1 .f32) : FVec F S1100000 .f32 :=
  (shapeCast S1100000 x0 shapeCasts_S1100000x1_S1100000)

/-- The contents of `main_v472` as a function of the buffers its item reads (v470, v371, v467). -/
def C_v472 (x0 : FVec F S1x32 .f32) (x1 : FVec F S32x8 .f32) (x2 : FVec F S1x8 .f32) : FVec F S1x8 .f32 :=
  ((addf : (⟨S1x8, .f32⟩ : BufTy).Contents (Elt F) → (⟨S1x8, .f32⟩ : BufTy).Contents (Elt F) → (⟨S1x8, .f32⟩ : BufTy).Contents (Elt F)) (((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) x0 x1) x2)

/-- The contents of `main_v477` as a function of the buffers its item reads (v473, v475, v476). -/
def C_v477 (x0 : IVec S1100000 1) (x1 : FVec F S1100000 .f32) (x2 : FVec F S1100000 .f32) : FVec F S1100000 .f32 :=
  ((select : (⟨S1100000, .i1⟩ : BufTy).Contents (Elt F) → (⟨S1100000, .f32⟩ : BufTy).Contents (Elt F) → (⟨S1100000, .f32⟩ : BufTy).Contents (Elt F) → (⟨S1100000, .f32⟩ : BufTy).Contents (Elt F)) x0 x1 x2)

/-- The contents of `main_v478` as a function of the buffers its item reads (v5, v7). -/
def C_v478 (x0 : IVec S1100000 32) (x1 : IVec S1100000 32) : IVec S1100000 1 :=
  ((cmpi .eq : (⟨S1100000, .i32⟩ : BufTy).Contents (Elt F) → (⟨S1100000, .i32⟩ : BufTy).Contents (Elt F) → (⟨S1100000, .i1⟩ : BufTy).Contents (Elt F)) x0 x1)

/-- The contents of `main_v480` as a function of the buffers its item reads (v440). -/
def C_v480 (x0 : FVec F S1100000x1 .f32) : FVec F S1100000 .f32 :=
  ((Host.exp : (⟨S1100000, .f32⟩ : BufTy).Contents (Elt F) → (⟨S1100000, .f32⟩ : BufTy).Contents (Elt F)) (shapeCast S1100000 x0 shapeCasts_S1100000x1_S1100000))

/-- The contents of `main_v481` as a function of the buffers its item reads (v440). -/
def C_v481 (x0 : FVec F S1100000x1 .f32) : FVec F S1100000 .f32 :=
  (shapeCast S1100000 x0 shapeCasts_S1100000x1_S1100000)

/-- The contents of `main_v482` as a function of the buffers its item reads (v478, v480, v481). -/
def C_v482 (x0 : IVec S1100000 1) (x1 : FVec F S1100000 .f32) (x2 : FVec F S1100000 .f32) : FVec F S1100000 .f32 :=
  ((select : (⟨S1100000, .i1⟩ : BufTy).Contents (Elt F) → (⟨S1100000, .f32⟩ : BufTy).Contents (Elt F) → (⟨S1100000, .f32⟩ : BufTy).Contents (Elt F) → (⟨S1100000, .f32⟩ : BufTy).Contents (Elt F)) x0 x1 x2)

/-- The contents of `main_v483` as a function of the buffers its item reads (v477, v482). -/
def C_v483 (x0 : FVec F S1100000 .f32) (x1 : FVec F S1100000 .f32) : FVec F S2200000 .f32 :=
  (((fun a b => concatenate S2200000 0 [⟨S1100000, a⟩, ⟨S1100000, b⟩] concatenates_S1100000_S1100000_S2200000_d0) : (⟨S1100000, .f32⟩ : BufTy).Contents (Elt F) → (⟨S1100000, .f32⟩ : BufTy).Contents (Elt F) → (⟨S2200000, .f32⟩ : BufTy).Contents (Elt F)) x0 x1)

end Cert.Val.KRead

end
-- ==== Proof.Val.KReadL.lean ====
import proofs.«426760_j80470507258346_3_alg».proof.Proof.Gen.KernelIdeal.Launch

set_option maxRecDepth 16384

noncomputable section

namespace Cert.Val.KRead

open Cert.KernelIdeal Cert.KernelIdeal.Gen Idealize.ShloMosaic Idealize.ShloMosaic.TcCoe Idealize.SL.Sem

/-! # The called functions' operation lists over plain references

A called function's operations are stated over typed references, whose contents are carried to and from the buffer's
own type along an equation that holds by computation: each such operation IS the plain operation over the underlying
references with the same function. The lists below restate the items that contain such operations; every equation
is by `rfl`, operation by operation. -/

variable {F : FTy → Type} [FloatOps F]

-- the vector operations stay closed: an operation over typed references meets the plain one argument by argument,
-- and the transport of contents along a typed reference (the identity) is what unfolds
attribute [local irreducible] Host.scatterAdd Host.reduceAdd Host.reduce Host.gather Host.divf Host.exp
  select cmpi addi andi broadcastInDim constantI constant shapeCast extractStridedSlice truncf pad concatenate
  maximumf addf mulf sitofp

/-- The operations of `hostOps0_1` (a called function's, over typed references) over the plain references. -/
abbrev k_hostOps0_1 : List (HloOp τ sig (Elt F)) :=
  [ StableHlo.nullary main_call0_c ((constantI S_ 32 0#32) : (⟨S_, .i32⟩ : BufTy).Contents (Elt F)),
    StableHlo.unary main_call0_c main_call0_v0 ((broadcastInDim S1100000 ![] bcast_S_S1100000) : (⟨S_, .i32⟩ : BufTy).Contents (Elt F) → (⟨S1100000, .i32⟩ : BufTy).Contents (Elt F)),
    StableHlo.binary main_v1 main_call0_v0 main_call0_v1 ((cmpi .slt) : (⟨S1100000, .i32⟩ : BufTy).Contents (Elt F) → (⟨S1100000, .i32⟩ : BufTy).Contents (Elt F) → (⟨S1100000, .i1⟩ : BufTy).Contents (Elt F)),
    StableHlo.nullary main_call0_c_0 ((constantI S_ 32 100000#32) : (⟨S_, .i32⟩ : BufTy).Contents (Elt F)),
    StableHlo.unary main_call0_c_0 main_call0_v2 ((broadcastInDim S1100000 ![] bcast_S_S1100000) : (⟨S_, .i32⟩ : BufTy).Contents (Elt F) → (⟨S1100000, .i32⟩ : BufTy).Contents (Elt F)),
    StableHlo.binary main_v1 main_call0_v2 main_call0_v3 (addi : (⟨S1100000, .i32⟩ : BufTy).Contents (Elt F) → (⟨S1100000, .i32⟩ : BufTy).Contents (Elt F) → (⟨S1100000, .i32⟩ : BufTy).Contents (Elt F)),
    StableHlo.ternary main_call0_v1 main_call0_v3 main_v1 main_call0_v4 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_call0_v4 main_call0_v5 ((broadcastInDim S1100000x1 ![0] bcast_S1100000_S1100000x1_0) : (⟨S1100000, .i32⟩ : BufTy).Contents (Elt F) → (⟨S1100000x1, .i32⟩ : BufTy).Contents (Elt F)),
    StableHlo.nullary main_call0_c_1 ((constantI S1 32 99999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S1100000x1 ![] bcast_S_S1100000x1) : (⟨S_, .i32⟩ : BufTy).Contents (Elt F) → (⟨S1100000x1, .i32⟩ : BufTy).Contents (Elt F)),
    StableHlo.binary main_call0_v5 main_call0_v6 main_call0_v7 ((cmpi .sge) : (⟨S1100000x1, .i32⟩ : BufTy).Contents (Elt F) → (⟨S1100000x1, .i32⟩ : BufTy).Contents (Elt F) → (⟨S1100000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1100000x1 ![0, 1] bcast_S1x1_S1100000x1_0_1) : (⟨S1x1, .i32⟩ : BufTy).Contents (Elt F) → (⟨S1100000x1, .i32⟩ : BufTy).Contents (Elt F)),
    StableHlo.binary main_call0_v5 main_call0_v9 main_call0_v10 ((cmpi .sle) : (⟨S1100000x1, .i32⟩ : BufTy).Contents (Elt F) → (⟨S1100000x1, .i32⟩ : BufTy).Contents (Elt F) → (⟨S1100000x1, .i1⟩ : BufTy).Contents (Elt F)),
    StableHlo.binary main_call0_v7 main_call0_v10 main_call0_v11 (andi : (⟨S1100000x1, .i1⟩ : BufTy).Contents (Elt F) → (⟨S1100000x1, .i1⟩ : BufTy).Contents (Elt F) → (⟨S1100000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)),
    StableHlo.binary main_arg0 main_call0_v5 main_call0_v13 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    StableHlo.unary main_call0_v12 main_call0_v14 ((broadcastInDim S1100000x8 ![0] bcast_S1100000_S1100000x8_0) : (⟨S1100000, .i1⟩ : BufTy).Contents (Elt F) → (⟨S1100000x8, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S1100000x8 ![] bcast_S_S1100000x8) : (⟨S_, .f32⟩ : BufTy).Contents (Elt F) → (⟨S1100000x8, .f32⟩ : BufTy).Contents (Elt F)),
    StableHlo.ternary main_call0_v14 main_call0_v13 main_call0_v15 main_v25 (select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) ]
theorem hostOps0_1_eq : (hostOps0_1 : List (HloOp τ sig (Elt F))) = k_hostOps0_1 := by
  unfold hostOps0_1 k_hostOps0_1
  iterate 23 (refine congr (congrArg List.cons ?_) ?_; rfl)
  rfl

/-- The operations of `hostOps0_3` (a called function's, over typed references) over the plain references. -/
abbrev k_hostOps0_3 : List (HloOp τ sig (Elt F)) :=
  [ StableHlo.nullary main_call1_c ((constantI S_ 32 0#32) : (⟨S_, .i32⟩ : BufTy).Contents (Elt F)),
    StableHlo.unary main_call1_c main_call1_v0 ((broadcastInDim S1100000 ![] bcast_S_S1100000) : (⟨S_, .i32⟩ : BufTy).Contents (Elt F) → (⟨S1100000, .i32⟩ : BufTy).Contents (Elt F)),
    StableHlo.binary main_v3 main_call1_v0 main_call1_v1 ((cmpi .slt) : (⟨S1100000, .i32⟩ : BufTy).Contents (Elt F) → (⟨S1100000, .i32⟩ : BufTy).Contents (Elt F) → (⟨S1100000, .i1⟩ : BufTy).Contents (Elt F)),
    StableHlo.nullary main_call1_c_0 ((constantI S_ 32 100000#32) : (⟨S_, .i32⟩ : BufTy).Contents (Elt F)),
    StableHlo.unary main_call1_c_0 main_call1_v2 ((broadcastInDim S1100000 ![] bcast_S_S1100000) : (⟨S_, .i32⟩ : BufTy).Contents (Elt F) → (⟨S1100000, .i32⟩ : BufTy).Contents (Elt F)),
    StableHlo.binary main_v3 main_call1_v2 main_call1_v3 (addi : (⟨S1100000, .i32⟩ : BufTy).Contents (Elt F) → (⟨S1100000, .i32⟩ : BufTy).Contents (Elt F) → (⟨S1100000, .i32⟩ : BufTy).Contents (Elt F)),
    StableHlo.ternary main_call1_v1 main_call1_v3 main_v3 main_call1_v4 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_call1_v4 main_call1_v5 ((broadcastInDim S1100000x1 ![0] bcast_S1100000_S1100000x1_0) : (⟨S1100000, .i32⟩ : BufTy).Contents (Elt F) → (⟨S1100000x1, .i32⟩ : BufTy).Contents (Elt F)),
    StableHlo.nullary main_call1_c_1 ((constantI S1 32 99999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S1100000x1 ![] bcast_S_S1100000x1) : (⟨S_, .i32⟩ : BufTy).Contents (Elt F) → (⟨S1100000x1, .i32⟩ : BufTy).Contents (Elt F)),
    StableHlo.binary main_call1_v5 main_call1_v6 main_call1_v7 ((cmpi .sge) : (⟨S1100000x1, .i32⟩ : BufTy).Contents (Elt F) → (⟨S1100000x1, .i32⟩ : BufTy).Contents (Elt F) → (⟨S1100000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S1100000x1 ![0, 1] bcast_S1x1_S1100000x1_0_1) : (⟨S1x1, .i32⟩ : BufTy).Contents (Elt F) → (⟨S1100000x1, .i32⟩ : BufTy).Contents (Elt F)),
    StableHlo.binary main_call1_v5 main_call1_v9 main_call1_v10 ((cmpi .sle) : (⟨S1100000x1, .i32⟩ : BufTy).Contents (Elt F) → (⟨S1100000x1, .i32⟩ : BufTy).Contents (Elt F) → (⟨S1100000x1, .i1⟩ : BufTy).Contents (Elt F)),
    StableHlo.binary main_call1_v7 main_call1_v10 main_call1_v11 (andi : (⟨S1100000x1, .i1⟩ : BufTy).Contents (Elt F) → (⟨S1100000x1, .i1⟩ : BufTy).Contents (Elt F) → (⟨S1100000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)),
    StableHlo.binary main_arg0 main_call1_v5 main_call1_v13 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    StableHlo.unary main_call1_v12 main_call1_v14 ((broadcastInDim S1100000x8 ![0] bcast_S1100000_S1100000x8_0) : (⟨S1100000, .i1⟩ : BufTy).Contents (Elt F) → (⟨S1100000x8, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S1100000x8 ![] bcast_S_S1100000x8) : (⟨S_, .f32⟩ : BufTy).Contents (Elt F) → (⟨S1100000x8, .f32⟩ : BufTy).Contents (Elt F)),
    StableHlo.ternary main_call1_v14 main_call1_v13 main_call1_v15 main_v27 (select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) ]
theorem hostOps0_3_eq : (hostOps0_3 : List (HloOp τ sig (Elt F))) = k_hostOps0_3 := by
  unfold hostOps0_3 k_hostOps0_3
  iterate 23 (refine congr (congrArg List.cons ?_) ?_; rfl)
  rfl

/-- The operations of `hostOps0_5` (a called function's, over typed references) over the plain references. -/
abbrev k_hostOps0_5 : List (HloOp τ sig (Elt F)) :=
  [ StableHlo.unary main_c main_call2_v0 ((sitofp .bf16) : (⟨S_, .i32⟩ : BufTy).Contents (Elt F) → (⟨S_, .bf16⟩ : BufTy).Contents (Elt F)),
    StableHlo.binary main_v26 main_call2_v0 main_v90 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps0_5_eq : (hostOps0_5 : List (HloOp τ sig (Elt F))) = k_hostOps0_5 := by
  unfold hostOps0_5 k_hostOps0_5
  iterate 2 (refine congr (congrArg List.cons ?_) ?_; rfl)
  rfl

/-- The operations of `hostOps0_7` (a called function's, over typed references) over the plain references. -/
abbrev k_hostOps0_7 : List (HloOp τ sig (Elt F)) :=
  [ StableHlo.unary main_c_10 main_call3_v0 ((sitofp .bf16) : (⟨S_, .i32⟩ : BufTy).Contents (Elt F) → (⟨S_, .bf16⟩ : BufTy).Contents (Elt F)),
    StableHlo.binary main_v28 main_call3_v0 main_v91 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps0_7_eq : (hostOps0_7 : List (HloOp τ sig (Elt F))) = k_hostOps0_7 := by
  unfold hostOps0_7 k_hostOps0_7
  iterate 2 (refine congr (congrArg List.cons ?_) ?_; rfl)
  rfl

/-- The operations of `hostOps0_9` (a called function's, over typed references) over the plain references. -/
abbrev k_hostOps0_9 : List (HloOp τ sig (Elt F)) :=
  [ StableHlo.unary main_c_11 main_call4_v0 ((sitofp .bf16) : (⟨S_, .i32⟩ : BufTy).Contents (Elt F) → (⟨S_, .bf16⟩ : BufTy).Contents (Elt F)),
    StableHlo.binary main_v81 main_call4_v0 main_v92 ((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) ]
theorem hostOps0_9_eq : (hostOps0_9 : List (HloOp τ sig (Elt F))) = k_hostOps0_9 := by
  unfold hostOps0_9 k_hostOps0_9
  iterate 2 (refine congr (congrArg List.cons ?_) ?_; rfl)
  rfl

/-- The operations of `hostOps1_1` (a called function's, over typed references) over the plain references. -/
abbrev k_hostOps1_1 : List (HloOp τ sig (Elt F)) :=
  [ StableHlo.unary main_c_13 main_call5_v0 ((sitofp .bf16) : (⟨S_, .i32⟩ : BufTy).Contents (Elt F) → (⟨S_, .bf16⟩ : BufTy).Contents (Elt F)),
    StableHlo.binary main_v24 main_call5_v0 main_v107 ((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) ]
theorem hostOps1_1_eq : (hostOps1_1 : List (HloOp τ sig (Elt F))) = k_hostOps1_1 := by
  unfold hostOps1_1 k_hostOps1_1
  iterate 2 (refine congr (congrArg List.cons ?_) ?_; rfl)
  rfl

/-- The operations of `hostOps1_3` (a called function's, over typed references) over the plain references. -/
abbrev k_hostOps1_3 : List (HloOp τ sig (Elt F)) :=
  [ StableHlo.unary main_c_14 main_call6_v0 ((sitofp .bf16) : (⟨S_, .i32⟩ : BufTy).Contents (Elt F) → (⟨S_, .bf16⟩ : BufTy).Contents (Elt F)),
    StableHlo.binary main_v99 main_call6_v0 main_v108 ((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) ]
theorem hostOps1_3_eq : (hostOps1_3 : List (HloOp τ sig (Elt F))) = k_hostOps1_3 := by
  unfold hostOps1_3 k_hostOps1_3
  iterate 2 (refine congr (congrArg List.cons ?_) ?_; rfl)
  rfl

/-- The operations of `hostOps2_1` (a called function's, over typed references) over the plain references. -/
abbrev k_hostOps2_1 : List (HloOp τ sig (Elt F)) :=
  [ StableHlo.nullary main_call7_cst ((constant S_ .f32 0x00000000#32) : (⟨S_, .f32⟩ : BufTy).Contents (Elt F)),
    StableHlo.unary main_call7_cst main_call7_v0 ((broadcastInDim S1x32 ![] bcast_S_S1x32) : (⟨S_, .f32⟩ : BufTy).Contents (Elt F) → (⟨S1x32, .f32⟩ : BufTy).Contents (Elt F)),
    StableHlo.binary main_v123 main_call7_v0 main_v124 (maximumf : (⟨S1x32, .f32⟩ : BufTy).Contents (Elt F) → (⟨S1x32, .f32⟩ : BufTy).Contents (Elt F) → (⟨S1x32, .f32⟩ : BufTy).Contents (Elt F)) ]
theorem hostOps2_1_eq : (hostOps2_1 : List (HloOp τ sig (Elt F))) = k_hostOps2_1 := by
  unfold hostOps2_1 k_hostOps2_1
  iterate 3 (refine congr (congrArg List.cons ?_) ?_; rfl)
  rfl

/-- The operations of `hostOps2_3` (a called function's, over typed references) over the plain references. -/
abbrev k_hostOps2_3 : List (HloOp τ sig (Elt F)) :=
  [ StableHlo.nullary main_call8_c ((constantI S_ 32 0#32) : (⟨S_, .i32⟩ : BufTy).Contents (Elt F)),
    StableHlo.unary main_call8_c main_call8_v0 ((broadcastInDim S1100000 ![] bcast_S_S1100000) : (⟨S_, .i32⟩ : BufTy).Contents (Elt F) → (⟨S1100000, .i32⟩ : BufTy).Contents (Elt F)),
    StableHlo.binary main_v5 main_call8_v0 main_call8_v1 ((cmpi .slt) : (⟨S1100000, .i32⟩ : BufTy).Contents (Elt F) → (⟨S1100000, .i32⟩ : BufTy).Contents (Elt F) → (⟨S1100000, .i1⟩ : BufTy).Contents (Elt F)),
    StableHlo.nullary main_call8_c_0 ((constantI S_ 32 100000#32) : (⟨S_, .i32⟩ : BufTy).Contents (Elt F)),
    StableHlo.unary main_call8_c_0 main_call8_v2 ((broadcastInDim S1100000 ![] bcast_S_S1100000) : (⟨S_, .i32⟩ : BufTy).Contents (Elt F) → (⟨S1100000, .i32⟩ : BufTy).Contents (Elt F)),
    StableHlo.binary main_v5 main_call8_v2 main_call8_v3 (addi : (⟨S1100000, .i32⟩ : BufTy).Contents (Elt F) → (⟨S1100000, .i32⟩ : BufTy).Contents (Elt F) → (⟨S1100000, .i32⟩ : BufTy).Contents (Elt F)),
    StableHlo.ternary main_call8_v1 main_call8_v3 main_v5 main_call8_v4 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_call8_v4 main_call8_v5 ((broadcastInDim S1100000x1 ![0] bcast_S1100000_S1100000x1_0) : (⟨S1100000, .i32⟩ : BufTy).Contents (Elt F) → (⟨S1100000x1, .i32⟩ : BufTy).Contents (Elt F)),
    StableHlo.nullary main_call8_c_1 ((constantI S1 32 99999#32) : (⟨S1, .i32⟩ : BufTy).Contents (Elt F)),
    StableHlo.nullary main_call8_c_2 ((constantI S_ 32 0#32) : (⟨S_, .i32⟩ : BufTy).Contents (Elt F)),
    StableHlo.unary main_call8_c_2 main_call8_v6 ((broadcastInDim S1100000x1 ![] bcast_S_S1100000x1) : (⟨S_, .i32⟩ : BufTy).Contents (Elt F) → (⟨S1100000x1, .i32⟩ : BufTy).Contents (Elt F)),
    StableHlo.binary main_call8_v5 main_call8_v6 main_call8_v7 ((cmpi .sge) : (⟨S1100000x1, .i32⟩ : BufTy).Contents (Elt F) → (⟨S1100000x1, .i32⟩ : BufTy).Contents (Elt F) → (⟨S1100000x1, .i1⟩ : BufTy).Contents (Elt F)),
    StableHlo.unary main_call8_c_1 main_call8_v8 ((broadcastInDim S1x1 ![1] bcast_S1_S1x1_1) : (⟨S1, .i32⟩ : BufTy).Contents (Elt F) → (⟨S1x1, .i32⟩ : BufTy).Contents (Elt F)),
    StableHlo.unary main_call8_v8 main_call8_v9 ((broadcastInDim S1100000x1 ![0, 1] bcast_S1x1_S1100000x1_0_1) : (⟨S1x1, .i32⟩ : BufTy).Contents (Elt F) → (⟨S1100000x1, .i32⟩ : BufTy).Contents (Elt F)),
    StableHlo.binary main_call8_v5 main_call8_v9 main_call8_v10 ((cmpi .sle) : (⟨S1100000x1, .i32⟩ : BufTy).Contents (Elt F) → (⟨S1100000x1, .i32⟩ : BufTy).Contents (Elt F) → (⟨S1100000x1, .i1⟩ : BufTy).Contents (Elt F)),
    StableHlo.binary main_call8_v7 main_call8_v10 main_call8_v11 (andi : (⟨S1100000x1, .i1⟩ : BufTy).Contents (Elt F) → (⟨S1100000x1, .i1⟩ : BufTy).Contents (Elt F) → (⟨S1100000x1, .i1⟩ : BufTy).Contents (Elt F)),
    StableHlo.nullary main_call8_c_3 ((constantI S_ 1 1#1) : (⟨S_, .i1⟩ : BufTy).Contents (Elt F)),
    StableHlo.binary main_call8_v11 main_call8_c_3 main_call8_v12 ((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)),
    StableHlo.binary main_v110 main_call8_v5 main_call8_v13 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    StableHlo.unary main_call8_v12 main_call8_v14 ((broadcastInDim S1100000x8 ![0] bcast_S1100000_S1100000x8_0) : (⟨S1100000, .i1⟩ : BufTy).Contents (Elt F) → (⟨S1100000x8, .i1⟩ : BufTy).Contents (Elt F)),
    StableHlo.nullary main_call8_cst ((constant S_ .f32 0x7FC00000#32) : (⟨S_, .f32⟩ : BufTy).Contents (Elt F)),
    StableHlo.unary main_call8_cst main_call8_v15 ((broadcastInDim S1100000x8 ![] bcast_S_S1100000x8) : (⟨S_, .f32⟩ : BufTy).Contents (Elt F) → (⟨S1100000x8, .f32⟩ : BufTy).Contents (Elt F)),
    StableHlo.ternary main_call8_v14 main_call8_v13 main_call8_v15 main_v129 (select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) ]
theorem hostOps2_3_eq : (hostOps2_3 : List (HloOp τ sig (Elt F))) = k_hostOps2_3 := by
  unfold hostOps2_3 k_hostOps2_3
  iterate 23 (refine congr (congrArg List.cons ?_) ?_; rfl)
  rfl

/-- The operations of `hostOps2_5` (a called function's, over typed references) over the plain references. -/
abbrev k_hostOps2_5 : List (HloOp τ sig (Elt F)) :=
  [ StableHlo.nullary main_call9_c ((constantI S_ 32 0#32) : (⟨S_, .i32⟩ : BufTy).Contents (Elt F)),
    StableHlo.unary main_call9_c main_call9_v0 ((broadcastInDim S1100000 ![] bcast_S_S1100000) : (⟨S_, .i32⟩ : BufTy).Contents (Elt F) → (⟨S1100000, .i32⟩ : BufTy).Contents (Elt F)),
    StableHlo.binary main_v7 main_call9_v0 main_call9_v1 ((cmpi .slt) : (⟨S1100000, .i32⟩ : BufTy).Contents (Elt F) → (⟨S1100000, .i32⟩ : BufTy).Contents (Elt F) → (⟨S1100000, .i1⟩ : BufTy).Contents (Elt F)),
    StableHlo.nullary main_call9_c_0 ((constantI S_ 32 100000#32) : (⟨S_, .i32⟩ : BufTy).Contents (Elt F)),
    StableHlo.unary main_call9_c_0 main_call9_v2 ((broadcastInDim S1100000 ![] bcast_S_S1100000) : (⟨S_, .i32⟩ : BufTy).Contents (Elt F) → (⟨S1100000, .i32⟩ : BufTy).Contents (Elt F)),
    StableHlo.binary main_v7 main_call9_v2 main_call9_v3 (addi : (⟨S1100000, .i32⟩ : BufTy).Contents (Elt F) → (⟨S1100000, .i32⟩ : BufTy).Contents (Elt F) → (⟨S1100000, .i32⟩ : BufTy).Contents (Elt F)),
    StableHlo.ternary main_call9_v1 main_call9_v3 main_v7 main_call9_v4 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_call9_v4 main_call9_v5 ((broadcastInDim S1100000x1 ![0] bcast_S1100000_S1100000x1_0) : (⟨S1100000, .i32⟩ : BufTy).Contents (Elt F) → (⟨S1100000x1, .i32⟩ : BufTy).Contents (Elt F)),
    StableHlo.nullary main_call9_c_1 ((constantI S1 32 99999#32) : (⟨S1, .i32⟩ : BufTy).Contents (Elt F)),
    StableHlo.nullary main_call9_c_2 ((constantI S_ 32 0#32) : (⟨S_, .i32⟩ : BufTy).Contents (Elt F)),
    StableHlo.unary main_call9_c_2 main_call9_v6 ((broadcastInDim S1100000x1 ![] bcast_S_S1100000x1) : (⟨S_, .i32⟩ : BufTy).Contents (Elt F) → (⟨S1100000x1, .i32⟩ : BufTy).Contents (Elt F)),
    StableHlo.binary main_call9_v5 main_call9_v6 main_call9_v7 ((cmpi .sge) : (⟨S1100000x1, .i32⟩ : BufTy).Contents (Elt F) → (⟨S1100000x1, .i32⟩ : BufTy).Contents (Elt F) → (⟨S1100000x1, .i1⟩ : BufTy).Contents (Elt F)),
    StableHlo.unary main_call9_c_1 main_call9_v8 ((broadcastInDim S1x1 ![1] bcast_S1_S1x1_1) : (⟨S1, .i32⟩ : BufTy).Contents (Elt F) → (⟨S1x1, .i32⟩ : BufTy).Contents (Elt F)),
    StableHlo.unary main_call9_v8 main_call9_v9 ((broadcastInDim S1100000x1 ![0, 1] bcast_S1x1_S1100000x1_0_1) : (⟨S1x1, .i32⟩ : BufTy).Contents (Elt F) → (⟨S1100000x1, .i32⟩ : BufTy).Contents (Elt F)),
    StableHlo.binary main_call9_v5 main_call9_v9 main_call9_v10 ((cmpi .sle) : (⟨S1100000x1, .i32⟩ : BufTy).Contents (Elt F) → (⟨S1100000x1, .i32⟩ : BufTy).Contents (Elt F) → (⟨S1100000x1, .i1⟩ : BufTy).Contents (Elt F)),
    StableHlo.binary main_call9_v7 main_call9_v10 main_call9_v11 (andi : (⟨S1100000x1, .i1⟩ : BufTy).Contents (Elt F) → (⟨S1100000x1, .i1⟩ : BufTy).Contents (Elt F) → (⟨S1100000x1, .i1⟩ : BufTy).Contents (Elt F)),
    StableHlo.nullary main_call9_c_3 ((constantI S_ 1 1#1) : (⟨S_, .i1⟩ : BufTy).Contents (Elt F)),
    StableHlo.binary main_call9_v11 main_call9_c_3 main_call9_v12 ((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)),
    StableHlo.binary main_v110 main_call9_v5 main_call9_v13 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    StableHlo.unary main_call9_v12 main_call9_v14 ((broadcastInDim S1100000x8 ![0] bcast_S1100000_S1100000x8_0) : (⟨S1100000, .i1⟩ : BufTy).Contents (Elt F) → (⟨S1100000x8, .i1⟩ : BufTy).Contents (Elt F)),
    StableHlo.nullary main_call9_cst ((constant S_ .f32 0x7FC00000#32) : (⟨S_, .f32⟩ : BufTy).Contents (Elt F)),
    StableHlo.unary main_call9_cst main_call9_v15 ((broadcastInDim S1100000x8 ![] bcast_S_S1100000x8) : (⟨S_, .f32⟩ : BufTy).Contents (Elt F) → (⟨S1100000x8, .f32⟩ : BufTy).Contents (Elt F)),
    StableHlo.ternary main_call9_v14 main_call9_v13 main_call9_v15 main_v131 (select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) ]
theorem hostOps2_5_eq : (hostOps2_5 : List (HloOp τ sig (Elt F))) = k_hostOps2_5 := by
  unfold hostOps2_5 k_hostOps2_5
  iterate 23 (refine congr (congrArg List.cons ?_) ?_; rfl)
  rfl

/-- The operations of `hostOps2_7` (a called function's, over typed references) over the plain references. -/
abbrev k_hostOps2_7 : List (HloOp τ sig (Elt F)) :=
  [ StableHlo.unary main_c_19 main_call10_v0 ((sitofp .bf16) : (⟨S_, .i32⟩ : BufTy).Contents (Elt F) → (⟨S_, .bf16⟩ : BufTy).Contents (Elt F)),
    StableHlo.binary main_v130 main_call10_v0 main_v142 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps2_7_eq : (hostOps2_7 : List (HloOp τ sig (Elt F))) = k_hostOps2_7 := by
  unfold hostOps2_7 k_hostOps2_7
  iterate 2 (refine congr (congrArg List.cons ?_) ?_; rfl)
  rfl

/-- The operations of `hostOps2_9` (a called function's, over typed references) over the plain references. -/
abbrev k_hostOps2_9 : List (HloOp τ sig (Elt F)) :=
  [ StableHlo.unary main_c_20 main_call11_v0 ((sitofp .bf16) : (⟨S_, .i32⟩ : BufTy).Contents (Elt F) → (⟨S_, .bf16⟩ : BufTy).Contents (Elt F)),
    StableHlo.binary main_v132 main_call11_v0 main_v143 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps2_9_eq : (hostOps2_9 : List (HloOp τ sig (Elt F))) = k_hostOps2_9 := by
  unfold hostOps2_9 k_hostOps2_9
  iterate 2 (refine congr (congrArg List.cons ?_) ?_; rfl)
  rfl

/-- The operations of `hostOps2_11` (a called function's, over typed references) over the plain references. -/
abbrev k_hostOps2_11 : List (HloOp τ sig (Elt F)) :=
  [ StableHlo.unary main_c_21 main_call12_v0 ((sitofp .bf16) : (⟨S_, .i32⟩ : BufTy).Contents (Elt F) → (⟨S_, .bf16⟩ : BufTy).Contents (Elt F)),
    StableHlo.binary main_v133 main_call12_v0 main_v144 ((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) ]
theorem hostOps2_11_eq : (hostOps2_11 : List (HloOp τ sig (Elt F))) = k_hostOps2_11 := by
  unfold hostOps2_11 k_hostOps2_11
  iterate 2 (refine congr (congrArg List.cons ?_) ?_; rfl)
  rfl

/-- The operations of `hostOps3_1` (a called function's, over typed references) over the plain references. -/
abbrev k_hostOps3_1 : List (HloOp τ sig (Elt F)) :=
  [ StableHlo.unary main_c_23 main_call13_v0 ((sitofp .bf16) : (⟨S_, .i32⟩ : BufTy).Contents (Elt F) → (⟨S_, .bf16⟩ : BufTy).Contents (Elt F)),
    StableHlo.binary main_v128 main_call13_v0 main_v159 ((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) ]
theorem hostOps3_1_eq : (hostOps3_1 : List (HloOp τ sig (Elt F))) = k_hostOps3_1 := by
  unfold hostOps3_1 k_hostOps3_1
  iterate 2 (refine congr (congrArg List.cons ?_) ?_; rfl)
  rfl

/-- The operations of `hostOps3_3` (a called function's, over typed references) over the plain references. -/
abbrev k_hostOps3_3 : List (HloOp τ sig (Elt F)) :=
  [ StableHlo.unary main_c_24 main_call14_v0 ((sitofp .bf16) : (⟨S_, .i32⟩ : BufTy).Contents (Elt F) → (⟨S_, .bf16⟩ : BufTy).Contents (Elt F)),
    StableHlo.binary main_v151 main_call14_v0 main_v160 ((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) ]
theorem hostOps3_3_eq : (hostOps3_3 : List (HloOp τ sig (Elt F))) = k_hostOps3_3 := by
  unfold hostOps3_3 k_hostOps3_3
  iterate 2 (refine congr (congrArg List.cons ?_) ?_; rfl)
  rfl

/-- The operations of `hostOps4_1` (a called function's, over typed references) over the plain references. -/
abbrev k_hostOps4_1 : List (HloOp τ sig (Elt F)) :=
  [ StableHlo.nullary main_call15_cst ((constant S_ .f32 0x00000000#32) : (⟨S_, .f32⟩ : BufTy).Contents (Elt F)),
    StableHlo.unary main_call15_cst main_call15_v0 ((broadcastInDim S1x32 ![] bcast_S_S1x32) : (⟨S_, .f32⟩ : BufTy).Contents (Elt F) → (⟨S1x32, .f32⟩ : BufTy).Contents (Elt F)),
    StableHlo.binary main_v175 main_call15_v0 main_v176 (maximumf : (⟨S1x32, .f32⟩ : BufTy).Contents (Elt F) → (⟨S1x32, .f32⟩ : BufTy).Contents (Elt F) → (⟨S1x32, .f32⟩ : BufTy).Contents (Elt F)) ]
theorem hostOps4_1_eq : (hostOps4_1 : List (HloOp τ sig (Elt F))) = k_hostOps4_1 := by
  unfold hostOps4_1 k_hostOps4_1
  iterate 3 (refine congr (congrArg List.cons ?_) ?_; rfl)
  rfl

/-- The operations of `hostOps4_3` (a called function's, over typed references) over the plain references. -/
abbrev k_hostOps4_3 : List (HloOp τ sig (Elt F)) :=
  [ StableHlo.unary main_c_29 main_call16_v0 ((sitofp .bf16) : (⟨S_, .i32⟩ : BufTy).Contents (Elt F) → (⟨S_, .bf16⟩ : BufTy).Contents (Elt F)),
    StableHlo.binary main_v26 main_call16_v0 main_v237 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps4_3_eq : (hostOps4_3 : List (HloOp τ sig (Elt F))) = k_hostOps4_3 := by
  unfold hostOps4_3 k_hostOps4_3
  iterate 2 (refine congr (congrArg List.cons ?_) ?_; rfl)
  rfl

/-- The operations of `hostOps4_5` (a called function's, over typed references) over the plain references. -/
abbrev k_hostOps4_5 : List (HloOp τ sig (Elt F)) :=
  [ StableHlo.unary main_c_30 main_call17_v0 ((sitofp .bf16) : (⟨S_, .i32⟩ : BufTy).Contents (Elt F) → (⟨S_, .bf16⟩ : BufTy).Contents (Elt F)),
    StableHlo.binary main_v28 main_call17_v0 main_v238 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps4_5_eq : (hostOps4_5 : List (HloOp τ sig (Elt F))) = k_hostOps4_5 := by
  unfold hostOps4_5 k_hostOps4_5
  iterate 2 (refine congr (congrArg List.cons ?_) ?_; rfl)
  rfl

/-- The operations of `hostOps4_7` (a called function's, over typed references) over the plain references. -/
abbrev k_hostOps4_7 : List (HloOp τ sig (Elt F)) :=
  [ StableHlo.unary main_c_31 main_call18_v0 ((sitofp .bf16) : (⟨S_, .i32⟩ : BufTy).Contents (Elt F) → (⟨S_, .bf16⟩ : BufTy).Contents (Elt F)),
    StableHlo.binary main_v228 main_call18_v0 main_v239 ((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) ]
theorem hostOps4_7_eq : (hostOps4_7 : List (HloOp τ sig (Elt F))) = k_hostOps4_7 := by
  unfold hostOps4_7 k_hostOps4_7
  iterate 2 (refine congr (congrArg List.cons ?_) ?_; rfl)
  rfl

/-- The operations of `hostOps5_1` (a called function's, over typed references) over the plain references. -/
abbrev k_hostOps5_1 : List (HloOp τ sig (Elt F)) :=
  [ StableHlo.unary main_c_33 main_call19_v0 ((sitofp .bf16) : (⟨S_, .i32⟩ : BufTy).Contents (Elt F) → (⟨S_, .bf16⟩ : BufTy).Contents (Elt F)),
    StableHlo.binary main_v24 main_call19_v0 main_v254 ((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) ]
theorem hostOps5_1_eq : (hostOps5_1 : List (HloOp τ sig (Elt F))) = k_hostOps5_1 := by
  unfold hostOps5_1 k_hostOps5_1
  iterate 2 (refine congr (congrArg List.cons ?_) ?_; rfl)
  rfl

/-- The operations of `hostOps5_3` (a called function's, over typed references) over the plain references. -/
abbrev k_hostOps5_3 : List (HloOp τ sig (Elt F)) :=
  [ StableHlo.unary main_c_34 main_call20_v0 ((sitofp .bf16) : (⟨S_, .i32⟩ : BufTy).Contents (Elt F) → (⟨S_, .bf16⟩ : BufTy).Contents (Elt F)),
    StableHlo.binary main_v246 main_call20_v0 main_v255 ((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) ]
theorem hostOps5_3_eq : (hostOps5_3 : List (HloOp τ sig (Elt F))) = k_hostOps5_3 := by
  unfold hostOps5_3 k_hostOps5_3
  iterate 2 (refine congr (congrArg List.cons ?_) ?_; rfl)
  rfl

/-- The operations of `hostOps6_1` (a called function's, over typed references) over the plain references. -/
abbrev k_hostOps6_1 : List (HloOp τ sig (Elt F)) :=
  [ StableHlo.nullary main_call21_cst ((constant S_ .f32 0x00000000#32) : (⟨S_, .f32⟩ : BufTy).Contents (Elt F)),
    StableHlo.unary main_call21_cst main_call21_v0 ((broadcastInDim S1x32 ![] bcast_S_S1x32) : (⟨S_, .f32⟩ : BufTy).Contents (Elt F) → (⟨S1x32, .f32⟩ : BufTy).Contents (Elt F)),
    StableHlo.binary main_v270 main_call21_v0 main_v271 (maximumf : (⟨S1x32, .f32⟩ : BufTy).Contents (Elt F) → (⟨S1x32, .f32⟩ : BufTy).Contents (Elt F) → (⟨S1x32, .f32⟩ : BufTy).Contents (Elt F)) ]
theorem hostOps6_1_eq : (hostOps6_1 : List (HloOp τ sig (Elt F))) = k_hostOps6_1 := by
  unfold hostOps6_1 k_hostOps6_1
  iterate 3 (refine congr (congrArg List.cons ?_) ?_; rfl)
  rfl

/-- The operations of `hostOps6_3` (a called function's, over typed references) over the plain references. -/
abbrev k_hostOps6_3 : List (HloOp τ sig (Elt F)) :=
  [ StableHlo.nullary main_call22_c ((constantI S_ 32 0#32) : (⟨S_, .i32⟩ : BufTy).Contents (Elt F)),
    StableHlo.unary main_call22_c main_call22_v0 ((broadcastInDim S1100000 ![] bcast_S_S1100000) : (⟨S_, .i32⟩ : BufTy).Contents (Elt F) → (⟨S1100000, .i32⟩ : BufTy).Contents (Elt F)),
    StableHlo.binary main_v5 main_call22_v0 main_call22_v1 ((cmpi .slt) : (⟨S1100000, .i32⟩ : BufTy).Contents (Elt F) → (⟨S1100000, .i32⟩ : BufTy).Contents (Elt F) → (⟨S1100000, .i1⟩ : BufTy).Contents (Elt F)),
    StableHlo.nullary main_call22_c_0 ((constantI S_ 32 100000#32) : (⟨S_, .i32⟩ : BufTy).Contents (Elt F)),
    StableHlo.unary main_call22_c_0 main_call22_v2 ((broadcastInDim S1100000 ![] bcast_S_S1100000) : (⟨S_, .i32⟩ : BufTy).Contents (Elt F) → (⟨S1100000, .i32⟩ : BufTy).Contents (Elt F)),
    StableHlo.binary main_v5 main_call22_v2 main_call22_v3 (addi : (⟨S1100000, .i32⟩ : BufTy).Contents (Elt F) → (⟨S1100000, .i32⟩ : BufTy).Contents (Elt F) → (⟨S1100000, .i32⟩ : BufTy).Contents (Elt F)),
    StableHlo.ternary main_call22_v1 main_call22_v3 main_v5 main_call22_v4 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_call22_v4 main_call22_v5 ((broadcastInDim S1100000x1 ![0] bcast_S1100000_S1100000x1_0) : (⟨S1100000, .i32⟩ : BufTy).Contents (Elt F) → (⟨S1100000x1, .i32⟩ : BufTy).Contents (Elt F)),
    StableHlo.nullary main_call22_c_1 ((constantI S1 32 99999#32) : (⟨S1, .i32⟩ : BufTy).Contents (Elt F)),
    StableHlo.nullary main_call22_c_2 ((constantI S_ 32 0#32) : (⟨S_, .i32⟩ : BufTy).Contents (Elt F)),
    StableHlo.unary main_call22_c_2 main_call22_v6 ((broadcastInDim S1100000x1 ![] bcast_S_S1100000x1) : (⟨S_, .i32⟩ : BufTy).Contents (Elt F) → (⟨S1100000x1, .i32⟩ : BufTy).Contents (Elt F)),
    StableHlo.binary main_call22_v5 main_call22_v6 main_call22_v7 ((cmpi .sge) : (⟨S1100000x1, .i32⟩ : BufTy).Contents (Elt F) → (⟨S1100000x1, .i32⟩ : BufTy).Contents (Elt F) → (⟨S1100000x1, .i1⟩ : BufTy).Contents (Elt F)),
    StableHlo.unary main_call22_c_1 main_call22_v8 ((broadcastInDim S1x1 ![1] bcast_S1_S1x1_1) : (⟨S1, .i32⟩ : BufTy).Contents (Elt F) → (⟨S1x1, .i32⟩ : BufTy).Contents (Elt F)),
    StableHlo.unary main_call22_v8 main_call22_v9 ((broadcastInDim S1100000x1 ![0, 1] bcast_S1x1_S1100000x1_0_1) : (⟨S1x1, .i32⟩ : BufTy).Contents (Elt F) → (⟨S1100000x1, .i32⟩ : BufTy).Contents (Elt F)),
    StableHlo.binary main_call22_v5 main_call22_v9 main_call22_v10 ((cmpi .sle) : (⟨S1100000x1, .i32⟩ : BufTy).Contents (Elt F) → (⟨S1100000x1, .i32⟩ : BufTy).Contents (Elt F) → (⟨S1100000x1, .i1⟩ : BufTy).Contents (Elt F)),
    StableHlo.binary main_call22_v7 main_call22_v10 main_call22_v11 (andi : (⟨S1100000x1, .i1⟩ : BufTy).Contents (Elt F) → (⟨S1100000x1, .i1⟩ : BufTy).Contents (Elt F) → (⟨S1100000x1, .i1⟩ : BufTy).Contents (Elt F)),
    StableHlo.nullary main_call22_c_3 ((constantI S_ 1 1#1) : (⟨S_, .i1⟩ : BufTy).Contents (Elt F)),
    StableHlo.binary main_call22_v11 main_call22_c_3 main_call22_v12 ((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)),
    StableHlo.binary main_v257 main_call22_v5 main_call22_v13 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    StableHlo.unary main_call22_v12 main_call22_v14 ((broadcastInDim S1100000x8 ![0] bcast_S1100000_S1100000x8_0) : (⟨S1100000, .i1⟩ : BufTy).Contents (Elt F) → (⟨S1100000x8, .i1⟩ : BufTy).Contents (Elt F)),
    StableHlo.nullary main_call22_cst ((constant S_ .f32 0x7FC00000#32) : (⟨S_, .f32⟩ : BufTy).Contents (Elt F)),
    StableHlo.unary main_call22_cst main_call22_v15 ((broadcastInDim S1100000x8 ![] bcast_S_S1100000x8) : (⟨S_, .f32⟩ : BufTy).Contents (Elt F) → (⟨S1100000x8, .f32⟩ : BufTy).Contents (Elt F)),
    StableHlo.ternary main_call22_v14 main_call22_v13 main_call22_v15 main_v276 (select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) ]
theorem hostOps6_3_eq : (hostOps6_3 : List (HloOp τ sig (Elt F))) = k_hostOps6_3 := by
  unfold hostOps6_3 k_hostOps6_3
  iterate 23 (refine congr (congrArg List.cons ?_) ?_; rfl)
  rfl

/-- The operations of `hostOps6_5` (a called function's, over typed references) over the plain references. -/
abbrev k_hostOps6_5 : List (HloOp τ sig (Elt F)) :=
  [ StableHlo.nullary main_call23_c ((constantI S_ 32 0#32) : (⟨S_, .i32⟩ : BufTy).Contents (Elt F)),
    StableHlo.unary main_call23_c main_call23_v0 ((broadcastInDim S1100000 ![] bcast_S_S1100000) : (⟨S_, .i32⟩ : BufTy).Contents (Elt F) → (⟨S1100000, .i32⟩ : BufTy).Contents (Elt F)),
    StableHlo.binary main_v7 main_call23_v0 main_call23_v1 ((cmpi .slt) : (⟨S1100000, .i32⟩ : BufTy).Contents (Elt F) → (⟨S1100000, .i32⟩ : BufTy).Contents (Elt F) → (⟨S1100000, .i1⟩ : BufTy).Contents (Elt F)),
    StableHlo.nullary main_call23_c_0 ((constantI S_ 32 100000#32) : (⟨S_, .i32⟩ : BufTy).Contents (Elt F)),
    StableHlo.unary main_call23_c_0 main_call23_v2 ((broadcastInDim S1100000 ![] bcast_S_S1100000) : (⟨S_, .i32⟩ : BufTy).Contents (Elt F) → (⟨S1100000, .i32⟩ : BufTy).Contents (Elt F)),
    StableHlo.binary main_v7 main_call23_v2 main_call23_v3 (addi : (⟨S1100000, .i32⟩ : BufTy).Contents (Elt F) → (⟨S1100000, .i32⟩ : BufTy).Contents (Elt F) → (⟨S1100000, .i32⟩ : BufTy).Contents (Elt F)),
    StableHlo.ternary main_call23_v1 main_call23_v3 main_v7 main_call23_v4 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_call23_v4 main_call23_v5 ((broadcastInDim S1100000x1 ![0] bcast_S1100000_S1100000x1_0) : (⟨S1100000, .i32⟩ : BufTy).Contents (Elt F) → (⟨S1100000x1, .i32⟩ : BufTy).Contents (Elt F)),
    StableHlo.nullary main_call23_c_1 ((constantI S1 32 99999#32) : (⟨S1, .i32⟩ : BufTy).Contents (Elt F)),
    StableHlo.nullary main_call23_c_2 ((constantI S_ 32 0#32) : (⟨S_, .i32⟩ : BufTy).Contents (Elt F)),
    StableHlo.unary main_call23_c_2 main_call23_v6 ((broadcastInDim S1100000x1 ![] bcast_S_S1100000x1) : (⟨S_, .i32⟩ : BufTy).Contents (Elt F) → (⟨S1100000x1, .i32⟩ : BufTy).Contents (Elt F)),
    StableHlo.binary main_call23_v5 main_call23_v6 main_call23_v7 ((cmpi .sge) : (⟨S1100000x1, .i32⟩ : BufTy).Contents (Elt F) → (⟨S1100000x1, .i32⟩ : BufTy).Contents (Elt F) → (⟨S1100000x1, .i1⟩ : BufTy).Contents (Elt F)),
    StableHlo.unary main_call23_c_1 main_call23_v8 ((broadcastInDim S1x1 ![1] bcast_S1_S1x1_1) : (⟨S1, .i32⟩ : BufTy).Contents (Elt F) → (⟨S1x1, .i32⟩ : BufTy).Contents (Elt F)),
    StableHlo.unary main_call23_v8 main_call23_v9 ((broadcastInDim S1100000x1 ![0, 1] bcast_S1x1_S1100000x1_0_1) : (⟨S1x1, .i32⟩ : BufTy).Contents (Elt F) → (⟨S1100000x1, .i32⟩ : BufTy).Contents (Elt F)),
    StableHlo.binary main_call23_v5 main_call23_v9 main_call23_v10 ((cmpi .sle) : (⟨S1100000x1, .i32⟩ : BufTy).Contents (Elt F) → (⟨S1100000x1, .i32⟩ : BufTy).Contents (Elt F) → (⟨S1100000x1, .i1⟩ : BufTy).Contents (Elt F)),
    StableHlo.binary main_call23_v7 main_call23_v10 main_call23_v11 (andi : (⟨S1100000x1, .i1⟩ : BufTy).Contents (Elt F) → (⟨S1100000x1, .i1⟩ : BufTy).Contents (Elt F) → (⟨S1100000x1, .i1⟩ : BufTy).Contents (Elt F)),
    StableHlo.nullary main_call23_c_3 ((constantI S_ 1 1#1) : (⟨S_, .i1⟩ : BufTy).Contents (Elt F)),
    StableHlo.binary main_call23_v11 main_call23_c_3 main_call23_v12 ((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)),
    StableHlo.binary main_v257 main_call23_v5 main_call23_v13 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    StableHlo.unary main_call23_v12 main_call23_v14 ((broadcastInDim S1100000x8 ![0] bcast_S1100000_S1100000x8_0) : (⟨S1100000, .i1⟩ : BufTy).Contents (Elt F) → (⟨S1100000x8, .i1⟩ : BufTy).Contents (Elt F)),
    StableHlo.nullary main_call23_cst ((constant S_ .f32 0x7FC00000#32) : (⟨S_, .f32⟩ : BufTy).Contents (Elt F)),
    StableHlo.unary main_call23_cst main_call23_v15 ((broadcastInDim S1100000x8 ![] bcast_S_S1100000x8) : (⟨S_, .f32⟩ : BufTy).Contents (Elt F) → (⟨S1100000x8, .f32⟩ : BufTy).Contents (Elt F)),
    StableHlo.ternary main_call23_v14 main_call23_v13 main_call23_v15 main_v278 (select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) ]
theorem hostOps6_5_eq : (hostOps6_5 : List (HloOp τ sig (Elt F))) = k_hostOps6_5 := by
  unfold hostOps6_5 k_hostOps6_5
  iterate 23 (refine congr (congrArg List.cons ?_) ?_; rfl)
  rfl

/-- The operations of `hostOps6_7` (a called function's, over typed references) over the plain references. -/
abbrev k_hostOps6_7 : List (HloOp τ sig (Elt F)) :=
  [ StableHlo.unary main_c_39 main_call24_v0 ((sitofp .bf16) : (⟨S_, .i32⟩ : BufTy).Contents (Elt F) → (⟨S_, .bf16⟩ : BufTy).Contents (Elt F)),
    StableHlo.binary main_v277 main_call24_v0 main_v289 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps6_7_eq : (hostOps6_7 : List (HloOp τ sig (Elt F))) = k_hostOps6_7 := by
  unfold hostOps6_7 k_hostOps6_7
  iterate 2 (refine congr (congrArg List.cons ?_) ?_; rfl)
  rfl

/-- The operations of `hostOps6_9` (a called function's, over typed references) over the plain references. -/
abbrev k_hostOps6_9 : List (HloOp τ sig (Elt F)) :=
  [ StableHlo.unary main_c_40 main_call25_v0 ((sitofp .bf16) : (⟨S_, .i32⟩ : BufTy).Contents (Elt F) → (⟨S_, .bf16⟩ : BufTy).Contents (Elt F)),
    StableHlo.binary main_v279 main_call25_v0 main_v290 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps6_9_eq : (hostOps6_9 : List (HloOp τ sig (Elt F))) = k_hostOps6_9 := by
  unfold hostOps6_9 k_hostOps6_9
  iterate 2 (refine congr (congrArg List.cons ?_) ?_; rfl)
  rfl

/-- The operations of `hostOps6_11` (a called function's, over typed references) over the plain references. -/
abbrev k_hostOps6_11 : List (HloOp τ sig (Elt F)) :=
  [ StableHlo.unary main_c_41 main_call26_v0 ((sitofp .bf16) : (⟨S_, .i32⟩ : BufTy).Contents (Elt F) → (⟨S_, .bf16⟩ : BufTy).Contents (Elt F)),
    StableHlo.binary main_v280 main_call26_v0 main_v291 ((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) ]
theorem hostOps6_11_eq : (hostOps6_11 : List (HloOp τ sig (Elt F))) = k_hostOps6_11 := by
  unfold hostOps6_11 k_hostOps6_11
  iterate 2 (refine congr (congrArg List.cons ?_) ?_; rfl)
  rfl

/-- The operations of `hostOps7_1` (a called function's, over typed references) over the plain references. -/
abbrev k_hostOps7_1 : List (HloOp τ sig (Elt F)) :=
  [ StableHlo.unary main_c_43 main_call27_v0 ((sitofp .bf16) : (⟨S_, .i32⟩ : BufTy).Contents (Elt F) → (⟨S_, .bf16⟩ : BufTy).Contents (Elt F)),
    StableHlo.binary main_v275 main_call27_v0 main_v306 ((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) ]
theorem hostOps7_1_eq : (hostOps7_1 : List (HloOp τ sig (Elt F))) = k_hostOps7_1 := by
  unfold hostOps7_1 k_hostOps7_1
  iterate 2 (refine congr (congrArg List.cons ?_) ?_; rfl)
  rfl

/-- The operations of `hostOps7_3` (a called function's, over typed references) over the plain references. -/
abbrev k_hostOps7_3 : List (HloOp τ sig (Elt F)) :=
  [ StableHlo.unary main_c_44 main_call28_v0 ((sitofp .bf16) : (⟨S_, .i32⟩ : BufTy).Contents (Elt F) → (⟨S_, .bf16⟩ : BufTy).Contents (Elt F)),
    StableHlo.binary main_v298 main_call28_v0 main_v307 ((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) ]
theorem hostOps7_3_eq : (hostOps7_3 : List (HloOp τ sig (Elt F))) = k_hostOps7_3 := by
  unfold hostOps7_3 k_hostOps7_3
  iterate 2 (refine congr (congrArg List.cons ?_) ?_; rfl)
  rfl

/-- The operations of `hostOps8_1` (a called function's, over typed references) over the plain references. -/
abbrev k_hostOps8_1 : List (HloOp τ sig (Elt F)) :=
  [ StableHlo.nullary main_call29_cst ((constant S_ .f32 0x00000000#32) : (⟨S_, .f32⟩ : BufTy).Contents (Elt F)),
    StableHlo.unary main_call29_cst main_call29_v0 ((broadcastInDim S1x32 ![] bcast_S_S1x32) : (⟨S_, .f32⟩ : BufTy).Contents (Elt F) → (⟨S1x32, .f32⟩ : BufTy).Contents (Elt F)),
    StableHlo.binary main_v322 main_call29_v0 main_v323 (maximumf : (⟨S1x32, .f32⟩ : BufTy).Contents (Elt F) → (⟨S1x32, .f32⟩ : BufTy).Contents (Elt F) → (⟨S1x32, .f32⟩ : BufTy).Contents (Elt F)) ]
theorem hostOps8_1_eq : (hostOps8_1 : List (HloOp τ sig (Elt F))) = k_hostOps8_1 := by
  unfold hostOps8_1 k_hostOps8_1
  iterate 3 (refine congr (congrArg List.cons ?_) ?_; rfl)
  rfl

/-- The operations of `hostOps8_3` (a called function's, over typed references) over the plain references. -/
abbrev k_hostOps8_3 : List (HloOp τ sig (Elt F)) :=
  [ StableHlo.unary main_c_49 main_call30_v0 ((sitofp .bf16) : (⟨S_, .i32⟩ : BufTy).Contents (Elt F) → (⟨S_, .bf16⟩ : BufTy).Contents (Elt F)),
    StableHlo.binary main_v26 main_call30_v0 main_v384 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps8_3_eq : (hostOps8_3 : List (HloOp τ sig (Elt F))) = k_hostOps8_3 := by
  unfold hostOps8_3 k_hostOps8_3
  iterate 2 (refine congr (congrArg List.cons ?_) ?_; rfl)
  rfl

/-- The operations of `hostOps8_5` (a called function's, over typed references) over the plain references. -/
abbrev k_hostOps8_5 : List (HloOp τ sig (Elt F)) :=
  [ StableHlo.unary main_c_50 main_call31_v0 ((sitofp .bf16) : (⟨S_, .i32⟩ : BufTy).Contents (Elt F) → (⟨S_, .bf16⟩ : BufTy).Contents (Elt F)),
    StableHlo.binary main_v28 main_call31_v0 main_v385 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps8_5_eq : (hostOps8_5 : List (HloOp τ sig (Elt F))) = k_hostOps8_5 := by
  unfold hostOps8_5 k_hostOps8_5
  iterate 2 (refine congr (congrArg List.cons ?_) ?_; rfl)
  rfl

/-- The operations of `hostOps8_7` (a called function's, over typed references) over the plain references. -/
abbrev k_hostOps8_7 : List (HloOp τ sig (Elt F)) :=
  [ StableHlo.unary main_c_51 main_call32_v0 ((sitofp .bf16) : (⟨S_, .i32⟩ : BufTy).Contents (Elt F) → (⟨S_, .bf16⟩ : BufTy).Contents (Elt F)),
    StableHlo.binary main_v375 main_call32_v0 main_v386 ((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) ]
theorem hostOps8_7_eq : (hostOps8_7 : List (HloOp τ sig (Elt F))) = k_hostOps8_7 := by
  unfold hostOps8_7 k_hostOps8_7
  iterate 2 (refine congr (congrArg List.cons ?_) ?_; rfl)
  rfl

/-- The operations of `hostOps9_1` (a called function's, over typed references) over the plain references. -/
abbrev k_hostOps9_1 : List (HloOp τ sig (Elt F)) :=
  [ StableHlo.unary main_c_53 main_call33_v0 ((sitofp .bf16) : (⟨S_, .i32⟩ : BufTy).Contents (Elt F) → (⟨S_, .bf16⟩ : BufTy).Contents (Elt F)),
    StableHlo.binary main_v24 main_call33_v0 main_v401 ((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) ]
theorem hostOps9_1_eq : (hostOps9_1 : List (HloOp τ sig (Elt F))) = k_hostOps9_1 := by
  unfold hostOps9_1 k_hostOps9_1
  iterate 2 (refine congr (congrArg List.cons ?_) ?_; rfl)
  rfl

/-- The operations of `hostOps9_3` (a called function's, over typed references) over the plain references. -/
abbrev k_hostOps9_3 : List (HloOp τ sig (Elt F)) :=
  [ StableHlo.unary main_c_54 main_call34_v0 ((sitofp .bf16) : (⟨S_, .i32⟩ : BufTy).Contents (Elt F) → (⟨S_, .bf16⟩ : BufTy).Contents (Elt F)),
    StableHlo.binary main_v393 main_call34_v0 main_v402 ((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) ]
theorem hostOps9_3_eq : (hostOps9_3 : List (HloOp τ sig (Elt F))) = k_hostOps9_3 := by
  unfold hostOps9_3 k_hostOps9_3
  iterate 2 (refine congr (congrArg List.cons ?_) ?_; rfl)
  rfl

/-- The operations of `hostOps10_1` (a called function's, over typed references) over the plain references. -/
abbrev k_hostOps10_1 : List (HloOp τ sig (Elt F)) :=
  [ StableHlo.nullary main_call35_cst ((constant S_ .f32 0x00000000#32) : (⟨S_, .f32⟩ : BufTy).Contents (Elt F)),
    StableHlo.unary main_call35_cst main_call35_v0 ((broadcastInDim S1x32 ![] bcast_S_S1x32) : (⟨S_, .f32⟩ : BufTy).Contents (Elt F) → (⟨S1x32, .f32⟩ : BufTy).Contents (Elt F)),
    StableHlo.binary main_v417 main_call35_v0 main_v418 (maximumf : (⟨S1x32, .f32⟩ : BufTy).Contents (Elt F) → (⟨S1x32, .f32⟩ : BufTy).Contents (Elt F) → (⟨S1x32, .f32⟩ : BufTy).Contents (Elt F)) ]
theorem hostOps10_1_eq : (hostOps10_1 : List (HloOp τ sig (Elt F))) = k_hostOps10_1 := by
  unfold hostOps10_1 k_hostOps10_1
  iterate 3 (refine congr (congrArg List.cons ?_) ?_; rfl)
  rfl

/-- The operations of `hostOps10_3` (a called function's, over typed references) over the plain references. -/
abbrev k_hostOps10_3 : List (HloOp τ sig (Elt F)) :=
  [ StableHlo.nullary main_call36_c ((constantI S_ 32 0#32) : (⟨S_, .i32⟩ : BufTy).Contents (Elt F)),
    StableHlo.unary main_call36_c main_call36_v0 ((broadcastInDim S1100000 ![] bcast_S_S1100000) : (⟨S_, .i32⟩ : BufTy).Contents (Elt F) → (⟨S1100000, .i32⟩ : BufTy).Contents (Elt F)),
    StableHlo.binary main_v5 main_call36_v0 main_call36_v1 ((cmpi .slt) : (⟨S1100000, .i32⟩ : BufTy).Contents (Elt F) → (⟨S1100000, .i32⟩ : BufTy).Contents (Elt F) → (⟨S1100000, .i1⟩ : BufTy).Contents (Elt F)),
    StableHlo.nullary main_call36_c_0 ((constantI S_ 32 100000#32) : (⟨S_, .i32⟩ : BufTy).Contents (Elt F)),
    StableHlo.unary main_call36_c_0 main_call36_v2 ((broadcastInDim S1100000 ![] bcast_S_S1100000) : (⟨S_, .i32⟩ : BufTy).Contents (Elt F) → (⟨S1100000, .i32⟩ : BufTy).Contents (Elt F)),
    StableHlo.binary main_v5 main_call36_v2 main_call36_v3 (addi : (⟨S1100000, .i32⟩ : BufTy).Contents (Elt F) → (⟨S1100000, .i32⟩ : BufTy).Contents (Elt F) → (⟨S1100000, .i32⟩ : BufTy).Contents (Elt F)),
    StableHlo.ternary main_call36_v1 main_call36_v3 main_v5 main_call36_v4 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_call36_v4 main_call36_v5 ((broadcastInDim S1100000x1 ![0] bcast_S1100000_S1100000x1_0) : (⟨S1100000, .i32⟩ : BufTy).Contents (Elt F) → (⟨S1100000x1, .i32⟩ : BufTy).Contents (Elt F)),
    StableHlo.nullary main_call36_c_1 ((constantI S1 32 99999#32) : (⟨S1, .i32⟩ : BufTy).Contents (Elt F)),
    StableHlo.nullary main_call36_c_2 ((constantI S_ 32 0#32) : (⟨S_, .i32⟩ : BufTy).Contents (Elt F)),
    StableHlo.unary main_call36_c_2 main_call36_v6 ((broadcastInDim S1100000x1 ![] bcast_S_S1100000x1) : (⟨S_, .i32⟩ : BufTy).Contents (Elt F) → (⟨S1100000x1, .i32⟩ : BufTy).Contents (Elt F)),
    StableHlo.binary main_call36_v5 main_call36_v6 main_call36_v7 ((cmpi .sge) : (⟨S1100000x1, .i32⟩ : BufTy).Contents (Elt F) → (⟨S1100000x1, .i32⟩ : BufTy).Contents (Elt F) → (⟨S1100000x1, .i1⟩ : BufTy).Contents (Elt F)),
    StableHlo.unary main_call36_c_1 main_call36_v8 ((broadcastInDim S1x1 ![1] bcast_S1_S1x1_1) : (⟨S1, .i32⟩ : BufTy).Contents (Elt F) → (⟨S1x1, .i32⟩ : BufTy).Contents (Elt F)),
    StableHlo.unary main_call36_v8 main_call36_v9 ((broadcastInDim S1100000x1 ![0, 1] bcast_S1x1_S1100000x1_0_1) : (⟨S1x1, .i32⟩ : BufTy).Contents (Elt F) → (⟨S1100000x1, .i32⟩ : BufTy).Contents (Elt F)),
    StableHlo.binary main_call36_v5 main_call36_v9 main_call36_v10 ((cmpi .sle) : (⟨S1100000x1, .i32⟩ : BufTy).Contents (Elt F) → (⟨S1100000x1, .i32⟩ : BufTy).Contents (Elt F) → (⟨S1100000x1, .i1⟩ : BufTy).Contents (Elt F)),
    StableHlo.binary main_call36_v7 main_call36_v10 main_call36_v11 (andi : (⟨S1100000x1, .i1⟩ : BufTy).Contents (Elt F) → (⟨S1100000x1, .i1⟩ : BufTy).Contents (Elt F) → (⟨S1100000x1, .i1⟩ : BufTy).Contents (Elt F)),
    StableHlo.nullary main_call36_c_3 ((constantI S_ 1 1#1) : (⟨S_, .i1⟩ : BufTy).Contents (Elt F)),
    StableHlo.binary main_call36_v11 main_call36_c_3 main_call36_v12 ((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)),
    StableHlo.binary main_v404 main_call36_v5 main_call36_v13 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    StableHlo.unary main_call36_v12 main_call36_v14 ((broadcastInDim S1100000x8 ![0] bcast_S1100000_S1100000x8_0) : (⟨S1100000, .i1⟩ : BufTy).Contents (Elt F) → (⟨S1100000x8, .i1⟩ : BufTy).Contents (Elt F)),
    StableHlo.nullary main_call36_cst ((constant S_ .f32 0x7FC00000#32) : (⟨S_, .f32⟩ : BufTy).Contents (Elt F)),
    StableHlo.unary main_call36_cst main_call36_v15 ((broadcastInDim S1100000x8 ![] bcast_S_S1100000x8) : (⟨S_, .f32⟩ : BufTy).Contents (Elt F) → (⟨S1100000x8, .f32⟩ : BufTy).Contents (Elt F)),
    StableHlo.ternary main_call36_v14 main_call36_v13 main_call36_v15 main_v423 (select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) ]
theorem hostOps10_3_eq : (hostOps10_3 : List (HloOp τ sig (Elt F))) = k_hostOps10_3 := by
  unfold hostOps10_3 k_hostOps10_3
  iterate 23 (refine congr (congrArg List.cons ?_) ?_; rfl)
  rfl

/-- The operations of `hostOps10_5` (a called function's, over typed references) over the plain references. -/
abbrev k_hostOps10_5 : List (HloOp τ sig (Elt F)) :=
  [ StableHlo.nullary main_call37_c ((constantI S_ 32 0#32) : (⟨S_, .i32⟩ : BufTy).Contents (Elt F)),
    StableHlo.unary main_call37_c main_call37_v0 ((broadcastInDim S1100000 ![] bcast_S_S1100000) : (⟨S_, .i32⟩ : BufTy).Contents (Elt F) → (⟨S1100000, .i32⟩ : BufTy).Contents (Elt F)),
    StableHlo.binary main_v7 main_call37_v0 main_call37_v1 ((cmpi .slt) : (⟨S1100000, .i32⟩ : BufTy).Contents (Elt F) → (⟨S1100000, .i32⟩ : BufTy).Contents (Elt F) → (⟨S1100000, .i1⟩ : BufTy).Contents (Elt F)),
    StableHlo.nullary main_call37_c_0 ((constantI S_ 32 100000#32) : (⟨S_, .i32⟩ : BufTy).Contents (Elt F)),
    StableHlo.unary main_call37_c_0 main_call37_v2 ((broadcastInDim S1100000 ![] bcast_S_S1100000) : (⟨S_, .i32⟩ : BufTy).Contents (Elt F) → (⟨S1100000, .i32⟩ : BufTy).Contents (Elt F)),
    StableHlo.binary main_v7 main_call37_v2 main_call37_v3 (addi : (⟨S1100000, .i32⟩ : BufTy).Contents (Elt F) → (⟨S1100000, .i32⟩ : BufTy).Contents (Elt F) → (⟨S1100000, .i32⟩ : BufTy).Contents (Elt F)),
    StableHlo.ternary main_call37_v1 main_call37_v3 main_v7 main_call37_v4 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_call37_v4 main_call37_v5 ((broadcastInDim S1100000x1 ![0] bcast_S1100000_S1100000x1_0) : (⟨S1100000, .i32⟩ : BufTy).Contents (Elt F) → (⟨S1100000x1, .i32⟩ : BufTy).Contents (Elt F)),
    StableHlo.nullary main_call37_c_1 ((constantI S1 32 99999#32) : (⟨S1, .i32⟩ : BufTy).Contents (Elt F)),
    StableHlo.nullary main_call37_c_2 ((constantI S_ 32 0#32) : (⟨S_, .i32⟩ : BufTy).Contents (Elt F)),
    StableHlo.unary main_call37_c_2 main_call37_v6 ((broadcastInDim S1100000x1 ![] bcast_S_S1100000x1) : (⟨S_, .i32⟩ : BufTy).Contents (Elt F) → (⟨S1100000x1, .i32⟩ : BufTy).Contents (Elt F)),
    StableHlo.binary main_call37_v5 main_call37_v6 main_call37_v7 ((cmpi .sge) : (⟨S1100000x1, .i32⟩ : BufTy).Contents (Elt F) → (⟨S1100000x1, .i32⟩ : BufTy).Contents (Elt F) → (⟨S1100000x1, .i1⟩ : BufTy).Contents (Elt F)),
    StableHlo.unary main_call37_c_1 main_call37_v8 ((broadcastInDim S1x1 ![1] bcast_S1_S1x1_1) : (⟨S1, .i32⟩ : BufTy).Contents (Elt F) → (⟨S1x1, .i32⟩ : BufTy).Contents (Elt F)),
    StableHlo.unary main_call37_v8 main_call37_v9 ((broadcastInDim S1100000x1 ![0, 1] bcast_S1x1_S1100000x1_0_1) : (⟨S1x1, .i32⟩ : BufTy).Contents (Elt F) → (⟨S1100000x1, .i32⟩ : BufTy).Contents (Elt F)),
    StableHlo.binary main_call37_v5 main_call37_v9 main_call37_v10 ((cmpi .sle) : (⟨S1100000x1, .i32⟩ : BufTy).Contents (Elt F) → (⟨S1100000x1, .i32⟩ : BufTy).Contents (Elt F) → (⟨S1100000x1, .i1⟩ : BufTy).Contents (Elt F)),
    StableHlo.binary main_call37_v7 main_call37_v10 main_call37_v11 (andi : (⟨S1100000x1, .i1⟩ : BufTy).Contents (Elt F) → (⟨S1100000x1, .i1⟩ : BufTy).Contents (Elt F) → (⟨S1100000x1, .i1⟩ : BufTy).Contents (Elt F)),
    StableHlo.nullary main_call37_c_3 ((constantI S_ 1 1#1) : (⟨S_, .i1⟩ : BufTy).Contents (Elt F)),
    StableHlo.binary main_call37_v11 main_call37_c_3 main_call37_v12 ((fun x v => Host.reduce IntOp.andi x v reducesTo_S1100000x1_S1100000_d1 h_S_) : (⟨S1100000x1, .i1⟩ : BufTy).Contents (Elt F) → (⟨S_, .i1⟩ : BufTy).Contents (Elt F) → (⟨S1100000, .i1⟩ : BufTy).Contents (Elt F)),
    StableHlo.binary main_v404 main_call37_v5 main_call37_v13 ((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)),
    StableHlo.unary main_call37_v12 main_call37_v14 ((broadcastInDim S1100000x8 ![0] bcast_S1100000_S1100000x8_0) : (⟨S1100000, .i1⟩ : BufTy).Contents (Elt F) → (⟨S1100000x8, .i1⟩ : BufTy).Contents (Elt F)),
    StableHlo.nullary main_call37_cst ((constant S_ .f32 0x7FC00000#32) : (⟨S_, .f32⟩ : BufTy).Contents (Elt F)),
    StableHlo.unary main_call37_cst main_call37_v15 ((broadcastInDim S1100000x8 ![] bcast_S_S1100000x8) : (⟨S_, .f32⟩ : BufTy).Contents (Elt F) → (⟨S1100000x8, .f32⟩ : BufTy).Contents (Elt F)),
    StableHlo.ternary main_call37_v14 main_call37_v13 main_call37_v15 main_v425 (select : (⟨S1100000x8, .i1⟩ : BufTy).Contents (Elt F) → (⟨S1100000x8, .f32⟩ : BufTy).Contents (Elt F) → (⟨S1100000x8, .f32⟩ : BufTy).Contents (Elt F) → (⟨S1100000x8, .f32⟩ : BufTy).Contents (Elt F)) ]
theorem hostOps10_5_eq : (hostOps10_5 : List (HloOp τ sig (Elt F))) = k_hostOps10_5 := by
  unfold hostOps10_5 k_hostOps10_5
  iterate 23 (refine congr (congrArg List.cons ?_) ?_; rfl)
  rfl

/-- The operations of `hostOps10_7` (a called function's, over typed references) over the plain references. -/
abbrev k_hostOps10_7 : List (HloOp τ sig (Elt F)) :=
  [ StableHlo.unary main_c_59 main_call38_v0 ((sitofp .bf16) : (⟨S_, .i32⟩ : BufTy).Contents (Elt F) → (⟨S_, .bf16⟩ : BufTy).Contents (Elt F)),
    StableHlo.binary main_v424 main_call38_v0 main_v436 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps10_7_eq : (hostOps10_7 : List (HloOp τ sig (Elt F))) = k_hostOps10_7 := by
  unfold hostOps10_7 k_hostOps10_7
  iterate 2 (refine congr (congrArg List.cons ?_) ?_; rfl)
  rfl

/-- The operations of `hostOps10_9` (a called function's, over typed references) over the plain references. -/
abbrev k_hostOps10_9 : List (HloOp τ sig (Elt F)) :=
  [ StableHlo.unary main_c_60 main_call39_v0 ((sitofp .bf16) : (⟨S_, .i32⟩ : BufTy).Contents (Elt F) → (⟨S_, .bf16⟩ : BufTy).Contents (Elt F)),
    StableHlo.binary main_v426 main_call39_v0 main_v437 ((fun x v => pad S1105920x8 ![0, 0] ![5920, 0] ![0, 0] x v pads_S1100000x8_S1105920x8_059200_000 h_S_) : (⟨S1100000x8, .bf16⟩ : BufTy).Contents (Elt F) → (⟨S_, .bf16⟩ : BufTy).Contents (Elt F) → (⟨S1105920x8, .bf16⟩ : BufTy).Contents (Elt F)) ]
theorem hostOps10_9_eq : (hostOps10_9 : List (HloOp τ sig (Elt F))) = k_hostOps10_9 := by
  unfold hostOps10_9 k_hostOps10_9
  iterate 2 (refine congr (congrArg List.cons ?_) ?_; rfl)
  rfl

/-- The operations of `hostOps10_11` (a called function's, over typed references) over the plain references. -/
abbrev k_hostOps10_11 : List (HloOp τ sig (Elt F)) :=
  [ StableHlo.unary main_c_61 main_call40_v0 ((sitofp .bf16) : (⟨S_, .i32⟩ : BufTy).Contents (Elt F) → (⟨S_, .bf16⟩ : BufTy).Contents (Elt F)),
    StableHlo.binary main_v427 main_call40_v0 main_v438 ((fun x v => pad S1105920x2 ![0, 0] ![5920, 0] ![0, 0] x v pads_S1100000x2_S1105920x2_059200_000 h_S_) : (⟨S1100000x2, .bf16⟩ : BufTy).Contents (Elt F) → (⟨S_, .bf16⟩ : BufTy).Contents (Elt F) → (⟨S1105920x2, .bf16⟩ : BufTy).Contents (Elt F)) ]
theorem hostOps10_11_eq : (hostOps10_11 : List (HloOp τ sig (Elt F))) = k_hostOps10_11 := by
  unfold hostOps10_11 k_hostOps10_11
  iterate 2 (refine congr (congrArg List.cons ?_) ?_; rfl)
  rfl

/-- The operations of `hostOps11_1` (a called function's, over typed references) over the plain references. -/
abbrev k_hostOps11_1 : List (HloOp τ sig (Elt F)) :=
  [ StableHlo.unary main_c_63 main_call41_v0 ((sitofp .bf16) : (⟨S_, .i32⟩ : BufTy).Contents (Elt F) → (⟨S_, .bf16⟩ : BufTy).Contents (Elt F)),
    StableHlo.binary main_v422 main_call41_v0 main_v453 ((fun x v => pad S106496x8 ![0, 0] ![6496, 0] ![0, 0] x v pads_S100000x8_S106496x8_064960_000 h_S_) : (⟨S100000x8, .bf16⟩ : BufTy).Contents (Elt F) → (⟨S_, .bf16⟩ : BufTy).Contents (Elt F) → (⟨S106496x8, .bf16⟩ : BufTy).Contents (Elt F)) ]
theorem hostOps11_1_eq : (hostOps11_1 : List (HloOp τ sig (Elt F))) = k_hostOps11_1 := by
  unfold hostOps11_1 k_hostOps11_1
  iterate 2 (refine congr (congrArg List.cons ?_) ?_; rfl)
  rfl

/-- The operations of `hostOps11_3` (a called function's, over typed references) over the plain references. -/
abbrev k_hostOps11_3 : List (HloOp τ sig (Elt F)) :=
  [ StableHlo.unary main_c_64 main_call42_v0 ((sitofp .bf16) : (⟨S_, .i32⟩ : BufTy).Contents (Elt F) → (⟨S_, .bf16⟩ : BufTy).Contents (Elt F)),
    StableHlo.binary main_v445 main_call42_v0 main_v454 ((fun x v => pad S106496x1 ![0, 0] ![6496, 0] ![0, 0] x v pads_S100000x1_S106496x1_064960_000 h_S_) : (⟨S100000x1, .bf16⟩ : BufTy).Contents (Elt F) → (⟨S_, .bf16⟩ : BufTy).Contents (Elt F) → (⟨S106496x1, .bf16⟩ : BufTy).Contents (Elt F)) ]
theorem hostOps11_3_eq : (hostOps11_3 : List (HloOp τ sig (Elt F))) = k_hostOps11_3 := by
  unfold hostOps11_3 k_hostOps11_3
  iterate 2 (refine congr (congrArg List.cons ?_) ?_; rfl)
  rfl

/-- The operations of `hostOps12_1` (a called function's, over typed references) over the plain references. -/
abbrev k_hostOps12_1 : List (HloOp τ sig (Elt F)) :=
  [ StableHlo.nullary main_call43_cst ((constant S_ .f32 0x00000000#32) : (⟨S_, .f32⟩ : BufTy).Contents (Elt F)),
    StableHlo.unary main_call43_cst main_call43_v0 ((broadcastInDim S1x32 ![] bcast_S_S1x32) : (⟨S_, .f32⟩ : BufTy).Contents (Elt F) → (⟨S1x32, .f32⟩ : BufTy).Contents (Elt F)),
    StableHlo.binary main_v469 main_call43_v0 main_v470 (maximumf : (⟨S1x32, .f32⟩ : BufTy).Contents (Elt F) → (⟨S1x32, .f32⟩ : BufTy).Contents (Elt F) → (⟨S1x32, .f32⟩ : BufTy).Contents (Elt F)) ]
theorem hostOps12_1_eq : (hostOps12_1 : List (HloOp τ sig (Elt F))) = k_hostOps12_1 := by
  unfold hostOps12_1 k_hostOps12_1
  iterate 3 (refine congr (congrArg List.cons ?_) ?_; rfl)
  rfl

/-- The operations of `hostOps12_3` (a called function's, over typed references) over the plain references. -/
abbrev k_hostOps12_3 : List (HloOp τ sig (Elt F)) :=
  [ StableHlo.ternary main_v473 main_v475 main_v476 main_v477 (select : (⟨S1100000, .i1⟩ : BufTy).Contents (Elt F) → (⟨S1100000, .f32⟩ : BufTy).Contents (Elt F) → (⟨S1100000, .f32⟩ : BufTy).Contents (Elt F) → (⟨S1100000, .f32⟩ : BufTy).Contents (Elt F)) ]
theorem hostOps12_3_eq : (hostOps12_3 : List (HloOp τ sig (Elt F))) = k_hostOps12_3 := by
  unfold hostOps12_3 k_hostOps12_3
  iterate 1 (refine congr (congrArg List.cons ?_) ?_; rfl)
  rfl

/-- The operations of `hostOps12_5` (a called function's, over typed references) over the plain references. -/
abbrev k_hostOps12_5 : List (HloOp τ sig (Elt F)) :=
  [ StableHlo.ternary main_v478 main_v480 main_v481 main_v482 (select : (⟨S1100000, .i1⟩ : BufTy).Contents (Elt F) → (⟨S1100000, .f32⟩ : BufTy).Contents (Elt F) → (⟨S1100000, .f32⟩ : BufTy).Contents (Elt F) → (⟨S1100000, .f32⟩ : BufTy).Contents (Elt F)) ]
theorem hostOps12_5_eq : (hostOps12_5 : List (HloOp τ sig (Elt F))) = k_hostOps12_5 := by
  unfold hostOps12_5 k_hostOps12_5
  iterate 1 (refine congr (congrArg List.cons ?_) ?_; rfl)
  rfl

end Cert.Val.KRead

end
-- ==== Proof.Val.KReadH0.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 0 … 3

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_v1` after item 0, from contents that hold what the item reads: first as the item's function of
    those contents, then with their values put in, which is the named value. -/
theorem st_lr (V : Valuation τ sig (Elt Ideal)) (A : K.Args)
    (h_arg1 : V (Proc.devRef .tc main_arg1) = A.a1) :
    after hostOps0 V (Proc.devRef .tc main_v1) = K.lr A :=
  ((show after hostOps0 V (Proc.devRef .tc main_v1) = C_v1 (V (Proc.devRef .tc main_arg1)) by
    kr_results
    rfl).trans (by rw [h_arg1])).trans
    (show C_v1 (A.a1) = K.lr A from rfl)

set_option maxHeartbeats 4000000 in
/-- The buffer `main_v3` after item 0, from contents that hold what the item reads: first as the item's function of
    those contents, then with their values put in, which is the named value. -/
theorem st_lc (V : Valuation τ sig (Elt Ideal)) (A : K.Args)
    (h_arg1 : V (Proc.devRef .tc main_arg1) = A.a1) :
    after hostOps0 V (Proc.devRef .tc main_v3) = K.lc A :=
  ((show after hostOps0 V (Proc.devRef .tc main_v3) = C_v3 (V (Proc.devRef .tc main_arg1)) by
    kr_results
    rfl).trans (by rw [h_arg1])).trans
    (show C_v3 (A.a1) = K.lc A from rfl)

set_option maxHeartbeats 4000000 in
/-- The buffer `main_v16` after item 0, from contents that hold what the item reads: first as the item's function of
    those contents, then with their values put in. -/
theorem rd_v16 (V : Valuation τ sig (Elt Ideal)) (A : K.Args)
    (h_arg1 : V (Proc.devRef .tc main_arg1) = A.a1) :
    after hostOps0 V (Proc.devRef .tc main_v16) = C_v16 (F := Ideal) (A.a1) :=
  ((show after hostOps0 V (Proc.devRef .tc main_v16) = C_v16 (F := Ideal) (V (Proc.devRef .tc main_arg1)) by
    kr_results
    rfl).trans (by rw [h_arg1]))

set_option maxHeartbeats 4000000 in
/-- The buffer `main_v24` after item 0, from contents that hold what the item reads: first as the item's function of
    those contents, then with their values put in. -/
theorem rd_v24 (V : Valuation τ sig (Elt Ideal)) (A : K.Args)
    (h_arg0 : V (Proc.devRef .tc main_arg0) = A.a0) :
    after hostOps0 V (Proc.devRef .tc main_v24) = C_v24 (F := Ideal) (A.a0) :=
  ((show after hostOps0 V (Proc.devRef .tc main_v24) = C_v24 (F := Ideal) (V (Proc.devRef .tc main_arg0)) by
    kr_results
    rfl).trans (by rw [h_arg0]))

set_option maxHeartbeats 4000000 in
/-- The buffer `main_v5` after item 0, from contents that hold what the item reads: first as the item's function of
    those contents, then with their values put in, which is the named value. -/
theorem st_ur (V : Valuation τ sig (Elt Ideal)) (A : K.Args)
    (h_arg2 : V (Proc.devRef .tc main_arg2) = A.a2) :
    after hostOps0 V (Proc.devRef .tc main_v5) = K.ur A :=
  ((show after hostOps0 V (Proc.devRef .tc main_v5) = C_v5 (V (Proc.devRef .tc main_arg2)) by
    kr_results
    rfl).trans (by rw [h_arg2])).trans
    (show C_v5 (A.a2) = K.ur A from rfl)

set_option maxHeartbeats 4000000 in
/-- The buffer `main_v7` after item 0, from contents that hold what the item reads: first as the item's function of
    those contents, then with their values put in, which is the named value. -/
theorem st_uc (V : Valuation τ sig (Elt Ideal)) (A : K.Args)
    (h_arg2 : V (Proc.devRef .tc main_arg2) = A.a2) :
    after hostOps0 V (Proc.devRef .tc main_v7) = K.uc A :=
  ((show after hostOps0 V (Proc.devRef .tc main_v7) = C_v7 (V (Proc.devRef .tc main_arg2)) by
    kr_results
    rfl).trans (by rw [h_arg2])).trans
    (show C_v7 (A.a2) = K.uc A from rfl)

set_option maxHeartbeats 4000000 in
/-- The buffer `main_v23` after item 0, from contents that hold what the item reads: first as the item's function of
    those contents, then with their values put in. -/
theorem rd_v23 (V : Valuation τ sig (Elt Ideal)) (A : K.Args)
    (h_arg2 : V (Proc.devRef .tc main_arg2) = A.a2) :
    after hostOps0 V (Proc.devRef .tc main_v23) = C_v23 (F := Ideal) (A.a2) :=
  ((show after hostOps0 V (Proc.devRef .tc main_v23) = C_v23 (F := Ideal) (V (Proc.devRef .tc main_arg2)) by
    kr_results
    rfl).trans (by rw [h_arg2]))

set_option maxHeartbeats 4000000 in
/-- The buffer `main_v25` after item 1, from contents that hold what the item reads: first as the item's function of
    those contents, then with their values put in. -/
theorem rd_v25 (V : Valuation τ sig (Elt Ideal)) (A : K.Args)
    (h_v1 : V (Proc.devRef .tc main_v1) = K.lr A)
    (h_arg0 : V (Proc.devRef .tc main_arg0) = A.a0) :
    after k_hostOps0_1 V (Proc.devRef .tc main_v25) = C_v25 (F := Ideal) (K.lr A) (A.a0) :=
  ((show after k_hostOps0_1 V (Proc.devRef .tc main_v25) = C_v25 (F := Ideal) (V (Proc.devRef .tc main_v1)) (V (Proc.devRef .tc main_arg0)) by
    kr_results
    rfl).trans (by rw [h_v1, h_arg0]))

set_option maxHeartbeats 4000000 in
/-- The buffer `main_v26` after item 2, from contents that hold what the item reads: first as the item's function of
    those contents, then with their values put in. -/
theorem rd_v26 (V : Valuation τ sig (Elt Ideal)) (A : K.Args)
    (h_v25 : V (Proc.devRef .tc main_v25) = C_v25 (F := Ideal) (K.lr A) (A.a0)) :
    after hostOps0_2 V (Proc.devRef .tc main_v26) = C_v26 (F := Ideal) (C_v25 (F := Ideal) (K.lr A) (A.a0)) :=
  ((show after hostOps0_2 V (Proc.devRef .tc main_v26) = C_v26 (F := Ideal) (V (Proc.devRef .tc main_v25)) by
    kr_results
    rfl).trans (by rw [h_v25]))

set_option maxHeartbeats 4000000 in
/-- The buffer `main_v27` after item 3, from contents that hold what the item reads: first as the item's function of
    those contents, then with their values put in. -/
theorem rd_v27 (V : Valuation τ sig (Elt Ideal)) (A : K.Args)
    (h_v3 : V (Proc.devRef .tc main_v3) = K.lc A)
    (h_arg0 : V (Proc.devRef .tc main_arg0) = A.a0) :
    after k_hostOps0_3 V (Proc.devRef .tc main_v27) = C_v27 (F := Ideal) (K.lc A) (A.a0) :=
  ((show after k_hostOps0_3 V (Proc.devRef .tc main_v27) = C_v27 (F := Ideal) (V (Proc.devRef .tc main_v3)) (V (Proc.devRef .tc main_arg0)) by
    kr_results
    rfl).trans (by rw [h_v3, h_arg0]))

end Cert.Val.KRead

end
-- ==== Proof.Val.KReadH1.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 4 … 4

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_c` after item 4, from contents that hold what the item reads: first as the item's function of
    those contents, then with their values put in. -/
theorem rd_c (V : Valuation τ sig (Elt Ideal)) (A : K.Args) :
    after hostOps0_4 V (Proc.devRef .tc main_c) = C_c :=
  (show after hostOps0_4 V (Proc.devRef .tc main_c) = C_c by
    kr_results
    rfl)

set_option maxHeartbeats 4000000 in
/-- The buffer `main_v28` after item 4, from contents that hold what the item reads: first as the item's function of
    those contents, then with their values put in. -/
theorem rd_v28 (V : Valuation τ sig (Elt Ideal)) (A : K.Args)
    (h_v27 : V (Proc.devRef .tc main_v27) = C_v27 (F := Ideal) (K.lc A) (A.a0)) :
    after hostOps0_4 V (Proc.devRef .tc main_v28) = C_v28 (F := Ideal) (C_v27 (F := Ideal) (K.lc A) (A.a0)) :=
  ((show after hostOps0_4 V (Proc.devRef .tc main_v28) = C_v28 (F := Ideal) (V (Proc.devRef .tc main_v27)) by
    kr_results
    rfl).trans (by rw [h_v27]))

set_option maxHeartbeats 4000000 in
/-- The buffer `main_v81` after item 4, from contents that hold what the item reads: first as the item's function of
    those contents, then with their values put in. -/
theorem rd_v81 (V : Valuation τ sig (Elt Ideal)) (A : K.Args)
    (h_arg3 : V (Proc.devRef .tc main_arg3) = A.a3) :
    after hostOps0_4 V (Proc.devRef .tc main_v81) = C_v81 (F := Ideal) (A.a3) :=
  ((show after hostOps0_4 V (Proc.devRef .tc main_v81) = C_v81 (F := Ideal) (V (Proc.devRef .tc main_arg3)) by
    kr_results
    rfl).trans (by rw [h_arg3]))

set_option maxHeartbeats 4000000 in
/-- The buffer `main_v83` after item 4, from contents that hold what the item reads: first as the item's function of
    those contents, then with their values put in. -/
theorem rd_v83 (V : Valuation τ sig (Elt Ideal)) (A : K.Args)
    (h_arg5 : V (Proc.devRef .tc main_arg5) = A.a5) :
    after hostOps0_4 V (Proc.devRef .tc main_v83) = C_v83 (F := Ideal) (A.a5) :=
  ((show after hostOps0_4 V (Proc.devRef .tc main_v83) = C_v83 (F := Ideal) (V (Proc.devRef .tc main_arg5)) by
    kr_results
    rfl).trans (by rw [h_arg5]))

set_option maxHeartbeats 4000000 in
/-- The buffer `main_v84` after item 4, from contents that hold what the item reads: first as the item's function of
    those contents, then with their values put in. -/
theorem rd_v84 (V : Valuation τ sig (Elt Ideal)) (A : K.Args)
    (h_arg5 : V (Proc.devRef .tc main_arg5) = A.a5) :
    after hostOps0_4 V (Proc.devRef .tc main_v84) = C_v84 (F := Ideal) (A.a5) :=
  ((show after hostOps0_4 V (Proc.devRef .tc main_v84) = C_v84 (F := Ideal) (V (Proc.devRef .tc main_arg5)) by
    kr_results
    rfl).trans (by rw [h_arg5]))

set_option maxHeartbeats 4000000 in
/-- The buffer `main_v85` after item 4, from contents that hold what the item reads: first as the item's function of
    those contents, then with their values put in. -/
theorem rd_v85 (V : Valuation τ sig (Elt Ideal)) (A : K.Args)
    (h_arg5 : V (Proc.devRef .tc main_arg5) = A.a5) :
    after hostOps0_4 V (Proc.devRef .tc main_v85) = C_v85 (F := Ideal) (A.a5) :=
  ((show after hostOps0_4 V (Proc.devRef .tc main_v85) = C_v85 (F := Ideal) (V (Proc.devRef .tc main_arg5)) by
    kr_results
    rfl).trans (by rw [h_arg5]))

set_option maxHeartbeats 4000000 in
/-- The buffer `main_v88` after item 4, from contents that hold what the item reads: first as the item's function of
    those contents, then with their values put in. -/
theorem rd_v88 (V : Valuation τ sig (Elt Ideal)) (A : K.Args)
    (h_arg6 : V (Proc.devRef .tc main_arg6) = A.a6)
    (h_arg5 : V (Proc.devRef .tc main_arg5) = A.a5) :
    after hostOps0_4 V (Proc.devRef .tc main_v88) = C_v88 (F := Ideal) (A.a6) (A.a5) :=
  ((show after hostOps0_4 V (Proc.devRef .tc main_v88) = C_v88 (F := Ideal) (V (Proc.devRef .tc main_arg6)) (V (Proc.devRef .tc main_arg5)) by
    kr_results
    rfl).trans (by rw [h_arg6, h_arg5]))

set_option maxHeartbeats 4000000 in
/-- The buffer `main_v37` after item 4, from contents that hold what the item reads: first as the item's function of
    those contents, then with their values put in, which is the named value. -/
theorem pr_v37 (V : Valuation τ sig (Elt Ideal)) (A : K.Args)
    (h_arg7 : V (Proc.devRef .tc main_arg7) = A.a7) :
    after hostOps0_4 V (Proc.devRef .tc main_v37) = K.P00_eW2 A :=
  ((show after hostOps0_4 V (Proc.devRef .tc main_v37) = C_v37 (F := Ideal) (V (Proc.devRef .tc main_arg7)) by
    kr_results
    rfl).trans (by rw [h_arg7])).trans
    (show C_v37 (F := Ideal) (A.a7) = K.P00_eW2 A from rfl)

set_option maxHeartbeats 4000000 in
/-- The buffer `main_v89` after item 4, from contents that hold what the item reads: first as the item's function of
    those contents, then with their values put in. -/
theorem rd_v89 (V : Valuation τ sig (Elt Ideal)) (A : K.Args)
    (h_arg8 : V (Proc.devRef .tc main_arg8) = A.a8) :
    after hostOps0_4 V (Proc.devRef .tc main_v89) = C_v89 (F := Ideal) (A.a8) :=
  ((show after hostOps0_4 V (Proc.devRef .tc main_v89) = C_v89 (F := Ideal) (V (Proc.devRef .tc main_arg8)) by
    kr_results
    rfl).trans (by rw [h_arg8]))

set_option maxHeartbeats 4000000 in
/-- The buffer `main_v41` after item 4, from contents that hold what the item reads: first as the item's function of
    those contents, then with their values put in, which is the named value. -/
theorem pr_v41 (V : Valuation τ sig (Elt Ideal)) (A : K.Args)
    (h_arg9 : V (Proc.devRef .tc main_arg9) = A.a9) :
    after hostOps0_4 V (Proc.devRef .tc main_v41) = K.P00_nW1 A :=
  ((show after hostOps0_4 V (Proc.devRef .tc main_v41) = C_v41 (F := Ideal) (V (Proc.devRef .tc main_arg9)) by
    kr_results
    rfl).trans (by rw [h_arg9])).trans
    (show C_v41 (F := Ideal) (A.a9) = K.P00_nW1 A from rfl)

set_option maxHeartbeats 4000000 in
/-- The buffer `main_v43` after item 4, from contents that hold what the item reads: first as the item's function of
    those contents, then with their values put in, which is the named value. -/
theorem pr_v43 (V : Valuation τ sig (Elt Ideal)) (A : K.Args)
    (h_arg10 : V (Proc.devRef .tc main_arg10) = A.a10) :
    after hostOps0_4 V (Proc.devRef .tc main_v43) = K.P00_nb1 A :=
  ((show after hostOps0_4 V (Proc.devRef .tc main_v43) = C_v43 (F := Ideal) (V (Proc.devRef .tc main_arg10)) by
    kr_results
    rfl).trans (by rw [h_arg10])).trans
    (show C_v43 (F := Ideal) (A.a10) = K.P00_nb1 A from rfl)

set_option maxHeartbeats 4000000 in
/-- The buffer `main_v29` after item 4, from contents that hold what the item reads: first as the item's function of
    those contents, then with their values put in, which is the named value. -/
theorem st_g0 (V : Valuation τ sig (Elt Ideal)) (A : K.Args) :
    after hostOps0_4 V (Proc.devRef .tc main_v29) = K.g0 :=
  (show after hostOps0_4 V (Proc.devRef .tc main_v29) = C_v29 (F := Ideal) by
    kr_results
    rfl).trans
    (show C_v29 (F := Ideal) = K.g0 from rfl)

set_option maxHeartbeats 4000000 in
/-- The buffer `main_v47` after item 4, from contents that hold what the item reads: first as the item's function of
    those contents, then with their values put in, which is the named value. -/
theorem pr_v47 (V : Valuation τ sig (Elt Ideal)) (A : K.Args)
    (h_arg12 : V (Proc.devRef .tc main_arg12) = A.a12) :
    after hostOps0_4 V (Proc.devRef .tc main_v47) = K.P00_nb2 A :=
  ((show after hostOps0_4 V (Proc.devRef .tc main_v47) = C_v47 (F := Ideal) (V (Proc.devRef .tc main_arg12)) by
    kr_results
    rfl).trans (by rw [h_arg12])).trans
    (show C_v47 (F := Ideal) (A.a12) = K.P00_nb2 A from rfl)

set_option maxHeartbeats 4000000 in
/-- The buffer `main_v45` after item 4, from contents that hold what the item reads: first as the item's function of
    those contents, then with their values put in, which is the named value. -/
theorem pr_v45 (V : Valuation τ sig (Elt Ideal)) (A : K.Args)
    (h_arg11 : V (Proc.devRef .tc main_arg11) = A.a11) :
    after hostOps0_4 V (Proc.devRef .tc main_v45) = K.P00_nW2 A :=
  ((show after hostOps0_4 V (Proc.devRef .tc main_v45) = C_v45 (F := Ideal) (V (Proc.devRef .tc main_arg11)) by
    kr_results
    rfl).trans (by rw [h_arg11])).trans
    (show C_v45 (F := Ideal) (A.a11) = K.P00_nW2 A from rfl)

set_option maxHeartbeats 4000000 in
/-- The buffer `main_v51` after item 4, from contents that hold what the item reads: first as the item's function of
    those contents, then with their values put in, which is the named value. -/
theorem pr_v51 (V : Valuation τ sig (Elt Ideal)) (A : K.Args)
    (h_arg14 : V (Proc.devRef .tc main_arg14) = A.a14) :
    after hostOps0_4 V (Proc.devRef .tc main_v51) = K.P00_gb1 A :=
  ((show after hostOps0_4 V (Proc.devRef .tc main_v51) = C_v51 (F := Ideal) (V (Proc.devRef .tc main_arg14)) by
    kr_results
    rfl).trans (by rw [h_arg14])).trans
    (show C_v51 (F := Ideal) (A.a14) = K.P00_gb1 A from rfl)

set_option maxHeartbeats 4000000 in
/-- The buffer `main_v55` after item 4, from contents that hold what the item reads: first as the item's function of
    those contents, then with their values put in, which is the named value. -/
theorem pr_v55 (V : Valuation τ sig (Elt Ideal)) (A : K.Args)
    (h_arg16 : V (Proc.devRef .tc main_arg16) = A.a16) :
    after hostOps0_4 V (Proc.devRef .tc main_v55) = K.P00_gb2 A :=
  ((show after hostOps0_4 V (Proc.devRef .tc main_v55) = C_v55 (F := Ideal) (V (Proc.devRef .tc main_arg16)) by
    kr_results
    rfl).trans (by rw [h_arg16])).trans
    (show C_v55 (F := Ideal) (A.a16) = K.P00_gb2 A from rfl)

set_option maxHeartbeats 4000000 in
/-- The buffer `main_v49` after item 4, from contents that hold what the item reads: first as the item's function of
    those contents, then with their values put in, which is the named value. -/
theorem pr_v49 (V : Valuation τ sig (Elt Ideal)) (A : K.Args)
    (h_arg13 : V (Proc.devRef .tc main_arg13) = A.a13) :
    after hostOps0_4 V (Proc.devRef .tc main_v49) = K.P00_gW1 A :=
  ((show after hostOps0_4 V (Proc.devRef .tc main_v49) = C_v49 (F := Ideal) (V (Proc.devRef .tc main_arg13)) by
    kr_results
    rfl).trans (by rw [h_arg13])).trans
    (show C_v49 (F := Ideal) (A.a13) = K.P00_gW1 A from rfl)

set_option maxHeartbeats 4000000 in
/-- The buffer `main_v53` after item 4, from contents that hold what the item reads: first as the item's function of
    those contents, then with their values put in, which is the named value. -/
theorem pr_v53 (V : Valuation τ sig (Elt Ideal)) (A : K.Args)
    (h_arg15 : V (Proc.devRef .tc main_arg15) = A.a15) :
    after hostOps0_4 V (Proc.devRef .tc main_v53) = K.P00_gW2 A :=
  ((show after hostOps0_4 V (Proc.devRef .tc main_v53) = C_v53 (F := Ideal) (V (Proc.devRef .tc main_arg15)) by
    kr_results
    rfl).trans (by rw [h_arg15])).trans
    (show C_v53 (F := Ideal) (A.a15) = K.P00_gW2 A from rfl)

set_option maxHeartbeats 4000000 in
/-- The buffer `main_v31` after item 4, from contents that hold what the item reads: first as the item's function of
    those contents, then with their values put in, which is the named value. -/
theorem st_zcol (V : Valuation τ sig (Elt Ideal)) (A : K.Args) :
    after hostOps0_4 V (Proc.devRef .tc main_v31) = K.zcol :=
  (show after hostOps0_4 V (Proc.devRef .tc main_v31) = C_v31 (F := Ideal) by
    kr_results
    rfl).trans
    (show C_v31 (F := Ideal) = K.zcol from rfl)

set_option maxHeartbeats 4000000 in
/-- The buffer `main_v57` after item 4, from contents that hold what the item reads: first as the item's function of
    those contents, then with their values put in, which is the named value. -/
theorem pr_v57 (V : Valuation τ sig (Elt Ideal)) (A : K.Args)
    (h_arg5 : V (Proc.devRef .tc main_arg5) = A.a5) :
    after hostOps0_4 V (Proc.devRef .tc main_v57) = K.P10_eW1 A :=
  ((show after hostOps0_4 V (Proc.devRef .tc main_v57) = C_v57 (F := Ideal) (V (Proc.devRef .tc main_arg5)) by
    kr_results
    rfl).trans (by rw [h_arg5])).trans
    (show C_v57 (F := Ideal) (A.a5) = K.P10_eW1 A from rfl)

set_option maxHeartbeats 4000000 in
/-- The buffer `main_v59` after item 4, from contents that hold what the item reads: first as the item's function of
    those contents, then with their values put in, which is the named value. -/
theorem pr_v59 (V : Valuation τ sig (Elt Ideal)) (A : K.Args)
    (h_arg6 : V (Proc.devRef .tc main_arg6) = A.a6) :
    after hostOps0_4 V (Proc.devRef .tc main_v59) = K.P10_eb1 A :=
  ((show after hostOps0_4 V (Proc.devRef .tc main_v59) = C_v59 (F := Ideal) (V (Proc.devRef .tc main_arg6)) by
    kr_results
    rfl).trans (by rw [h_arg6])).trans
    (show C_v59 (F := Ideal) (A.a6) = K.P10_eb1 A from rfl)

set_option maxHeartbeats 4000000 in
/-- The buffer `main_v63` after item 4, from contents that hold what the item reads: first as the item's function of
    those contents, then with their values put in, which is the named value. -/
theorem pr_v63 (V : Valuation τ sig (Elt Ideal)) (A : K.Args)
    (h_arg8 : V (Proc.devRef .tc main_arg8) = A.a8) :
    after hostOps0_4 V (Proc.devRef .tc main_v63) = K.P10_eb2 A :=
  ((show after hostOps0_4 V (Proc.devRef .tc main_v63) = C_v63 (F := Ideal) (V (Proc.devRef .tc main_arg8)) by
    kr_results
    rfl).trans (by rw [h_arg8])).trans
    (show C_v63 (F := Ideal) (A.a8) = K.P10_eb2 A from rfl)

set_option maxHeartbeats 4000000 in
/-- The buffer `main_v61` after item 4, from contents that hold what the item reads: first as the item's function of
    those contents, then with their values put in, which is the named value. -/
theorem pr_v61 (V : Valuation τ sig (Elt Ideal)) (A : K.Args)
    (h_arg7 : V (Proc.devRef .tc main_arg7) = A.a7) :
    after hostOps0_4 V (Proc.devRef .tc main_v61) = K.P10_eW2 A :=
  ((show after hostOps0_4 V (Proc.devRef .tc main_v61) = C_v61 (F := Ideal) (V (Proc.devRef .tc main_arg7)) by
    kr_results
    rfl).trans (by rw [h_arg7])).trans
    (show C_v61 (F := Ideal) (A.a7) = K.P10_eW2 A from rfl)

set_option maxHeartbeats 4000000 in
/-- The buffer `main_v65` after item 4, from contents that hold what the item reads: first as the item's function of
    those contents, then with their values put in, which is the named value. -/
theorem pr_v65 (V : Valuation τ sig (Elt Ideal)) (A : K.Args)
    (h_arg9 : V (Proc.devRef .tc main_arg9) = A.a9) :
    after hostOps0_4 V (Proc.devRef .tc main_v65) = K.P10_nW1 A :=
  ((show after hostOps0_4 V (Proc.devRef .tc main_v65) = C_v65 (F := Ideal) (V (Proc.devRef .tc main_arg9)) by
    kr_results
    rfl).trans (by rw [h_arg9])).trans
    (show C_v65 (F := Ideal) (A.a9) = K.P10_nW1 A from rfl)

set_option maxHeartbeats 4000000 in
/-- The buffer `main_v67` after item 4, from contents that hold what the item reads: first as the item's function of
    those contents, then with their values put in, which is the named value. -/
theorem pr_v67 (V : Valuation τ sig (Elt Ideal)) (A : K.Args)
    (h_arg10 : V (Proc.devRef .tc main_arg10) = A.a10) :
    after hostOps0_4 V (Proc.devRef .tc main_v67) = K.P10_nb1 A :=
  ((show after hostOps0_4 V (Proc.devRef .tc main_v67) = C_v67 (F := Ideal) (V (Proc.devRef .tc main_arg10)) by
    kr_results
    rfl).trans (by rw [h_arg10])).trans
    (show C_v67 (F := Ideal) (A.a10) = K.P10_nb1 A from rfl)

set_option maxHeartbeats 4000000 in
/-- The buffer `main_v71` after item 4, from contents that hold what the item reads: first as the item's function of
    those contents, then with their values put in, which is the named value. -/
theorem pr_v71 (V : Valuation τ sig (Elt Ideal)) (A : K.Args)
    (h_arg12 : V (Proc.devRef .tc main_arg12) = A.a12) :
    after hostOps0_4 V (Proc.devRef .tc main_v71) = K.P10_nb2 A :=
  ((show after hostOps0_4 V (Proc.devRef .tc main_v71) = C_v71 (F := Ideal) (V (Proc.devRef .tc main_arg12)) by
    kr_results
    rfl).trans (by rw [h_arg12])).trans
    (show C_v71 (F := Ideal) (A.a12) = K.P10_nb2 A from rfl)

set_option maxHeartbeats 4000000 in
/-- The buffer `main_v69` after item 4, from contents that hold what the item reads: first as the item's function of
    those contents, then with their values put in, which is the named value. -/
theorem pr_v69 (V : Valuation τ sig (Elt Ideal)) (A : K.Args)
    (h_arg11 : V (Proc.devRef .tc main_arg11) = A.a11) :
    after hostOps0_4 V (Proc.devRef .tc main_v69) = K.P10_nW2 A :=
  ((show after hostOps0_4 V (Proc.devRef .tc main_v69) = C_v69 (F := Ideal) (V (Proc.devRef .tc main_arg11)) by
    kr_results
    rfl).trans (by rw [h_arg11])).trans
    (show C_v69 (F := Ideal) (A.a11) = K.P10_nW2 A from rfl)

set_option maxHeartbeats 4000000 in
/-- The buffer `main_v75` after item 4, from contents that hold what the item reads: first as the item's function of
    those contents, then with their values put in, which is the named value. -/
theorem pr_v75 (V : Valuation τ sig (Elt Ideal)) (A : K.Args)
    (h_arg14 : V (Proc.devRef .tc main_arg14) = A.a14) :
    after hostOps0_4 V (Proc.devRef .tc main_v75) = K.P10_gb1 A :=
  ((show after hostOps0_4 V (Proc.devRef .tc main_v75) = C_v75 (F := Ideal) (V (Proc.devRef .tc main_arg14)) by
    kr_results
    rfl).trans (by rw [h_arg14])).trans
    (show C_v75 (F := Ideal) (A.a14) = K.P10_gb1 A from rfl)

set_option maxHeartbeats 4000000 in
/-- The buffer `main_v79` after item 4, from contents that hold what the item reads: first as the item's function of
    those contents, then with their values put in, which is the named value. -/
theorem pr_v79 (V : Valuation τ sig (Elt Ideal)) (A : K.Args)
    (h_arg16 : V (Proc.devRef .tc main_arg16) = A.a16) :
    after hostOps0_4 V (Proc.devRef .tc main_v79) = K.P10_gb2 A :=
  ((show after hostOps0_4 V (Proc.devRef .tc main_v79) = C_v79 (F := Ideal) (V (Proc.devRef .tc main_arg16)) by
    kr_results
    rfl).trans (by rw [h_arg16])).trans
    (show C_v79 (F := Ideal) (A.a16) = K.P10_gb2 A from rfl)

set_option maxHeartbeats 4000000 in
/-- The buffer `main_v73` after item 4, from contents that hold what the item reads: first as the item's function of
    those contents, then with their values put in, which is the named value. -/
theorem pr_v73 (V : Valuation τ sig (Elt Ideal)) (A : K.Args)
    (h_arg13 : V (Proc.devRef .tc main_arg13) = A.a13) :
    after hostOps0_4 V (Proc.devRef .tc main_v73) = K.P10_gW1 A :=
  ((show after hostOps0_4 V (Proc.devRef .tc main_v73) = C_v73 (F := Ideal) (V (Proc.devRef .tc main_arg13)) by
    kr_results
    rfl).trans (by rw [h_arg13])).trans
    (show C_v73 (F := Ideal) (A.a13) = K.P10_gW1 A from rfl)

set_option maxHeartbeats 4000000 in
/-- The buffer `main_v77` after item 4, from contents that hold what the item reads: first as the item's function of
    those contents, then with their values put in, which is the named value. -/
theorem pr_v77 (V : Valuation τ sig (Elt Ideal)) (A : K.Args)
    (h_arg15 : V (Proc.devRef .tc main_arg15) = A.a15) :
    after hostOps0_4 V (Proc.devRef .tc main_v77) = K.P10_gW2 A :=
  ((show after hostOps0_4 V (Proc.devRef .tc main_v77) = C_v77 (F := Ideal) (V (Proc.devRef .tc main_arg15)) by
    kr_results
    rfl).trans (by rw [h_arg15])).trans
    (show C_v77 (F := Ideal) (A.a15) = K.P10_gW2 A from rfl)

set_option maxHeartbeats 4000000 in
/-- The buffer `main_v80` after item 4, from contents that hold what the item reads: first as the item's function of
    those contents, then with their values put in, which is the named value. -/
theorem st_lin0 (V : Valuation τ sig (Elt Ideal)) (A : K.Args)
    (h_arg3 : V (Proc.devRef .tc main_arg3) = A.a3) :
    after hostOps0_4 V (Proc.devRef .tc main_v80) = K.lin0 A :=
  ((show after hostOps0_4 V (Proc.devRef .tc main_v80) = C_v80 (F := Ideal) (V (Proc.devRef .tc main_arg3)) by
    kr_results
    rfl).trans (by rw [h_arg3])).trans
    (show C_v80 (F := Ideal) (A.a3) = K.lin0 A from rfl)

end Cert.Val.KRead

end
-- ==== Proof.Val.KReadH2.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 5 … 21

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_v90` after item 5, from contents that hold what the item reads: first as the item's function of
    those contents, then with their values put in. -/
theorem rd_v90 (V : Valuation τ sig (Elt Ideal)) (A : K.Args)
    (h_v26 : V (Proc.devRef .tc main_v26) = C_v26 (F := Ideal) (C_v25 (F := Ideal) (K.lr A) (A.a0)))
    (h_c : V (Proc.devRef .tc main_c) = C_c) :
    after k_hostOps0_5 V (Proc.devRef .tc main_v90) = C_v90 (F := Ideal) (C_v26 (F := Ideal) (C_v25 (F := Ideal) (K.lr A) (A.a0))) (C_c) :=
  ((show after k_hostOps0_5 V (Proc.devRef .tc main_v90) = C_v90 (F := Ideal) (V (Proc.devRef .tc main_v26)) (V (Proc.devRef .tc main_c)) by
    kr_results
    rfl).trans (by rw [h_v26, h_c]))

set_option maxHeartbeats 4000000 in
/-- The buffer `main_c_10` after item 6, from contents that hold what the item reads: first as the item's function of
    those contents, then with their values put in. -/
theorem rd_c_10 (V : Valuation τ sig (Elt Ideal)) (A : K.Args) :
    after hostOps0_6 V (Proc.devRef .tc main_c_10) = C_c_10 :=
  (show after hostOps0_6 V (Proc.devRef .tc main_c_10) = C_c_10 by
    kr_results
    rfl)

set_option maxHeartbeats 4000000 in
/-- The buffer `main_v91` after item 7, from contents that hold what the item reads: first as the item's function of
    those contents, then with their values put in. -/
theorem rd_v91 (V : Valuation τ sig (Elt Ideal)) (A : K.Args)
    (h_v28 : V (Proc.devRef .tc main_v28) = C_v28 (F := Ideal) (C_v27 (F := Ideal) (K.lc A) (A.a0)))
    (h_c_10 : V (Proc.devRef .tc main_c_10) = C_c_10) :
    after k_hostOps0_7 V (Proc.devRef .tc main_v91) = C_v91 (F := Ideal) (C_v28 (F := Ideal) (C_v27 (F := Ideal) (K.lc A) (A.a0))) (C_c_10) :=
  ((show after k_hostOps0_7 V (Proc.devRef .tc main_v91) = C_v91 (F := Ideal) (V (Proc.devRef .tc main_v28)) (V (Proc.devRef .tc main_c_10)) by
    kr_results
    rfl).trans (by rw [h_v28, h_c_10]))

set_option maxHeartbeats 4000000 in
/-- The buffer `main_c_11` after item 8, from contents that hold what the item reads: first as the item's function of
    those contents, then with their values put in. -/
theorem rd_c_11 (V : Valuation τ sig (Elt Ideal)) (A : K.Args) :
    after hostOps0_8 V (Proc.devRef .tc main_c_11) = C_c_11 :=
  (show after hostOps0_8 V (Proc.devRef .tc main_c_11) = C_c_11 by
    kr_results
    rfl)

set_option maxHeartbeats 4000000 in
/-- The buffer `main_v92` after item 9, from contents that hold what the item reads: first as the item's function of
    those contents, then with their values put in. -/
theorem rd_v92 (V : Valuation τ sig (Elt Ideal)) (A : K.Args)
    (h_v81 : V (Proc.devRef .tc main_v81) = C_v81 (F := Ideal) (A.a3))
    (h_c_11 : V (Proc.devRef .tc main_c_11) = C_c_11) :
    after k_hostOps0_9 V (Proc.devRef .tc main_v92) = C_v92 (F := Ideal) (C_v81 (F := Ideal) (A.a3)) (C_c_11) :=
  ((show after k_hostOps0_9 V (Proc.devRef .tc main_v92) = C_v92 (F := Ideal) (V (Proc.devRef .tc main_v81)) (V (Proc.devRef .tc main_c_11)) by
    kr_results
    rfl).trans (by rw [h_v81, h_c_11]))

set_option maxHeartbeats 4000000 in
/-- The buffer `main_c_13` after item 11, from contents that hold what the item reads: first as the item's function of
    those contents, then with their values put in. -/
theorem rd_c_13 (V : Valuation τ sig (Elt Ideal)) (A : K.Args) :
    after hostOps1 V (Proc.devRef .tc main_c_13) = C_c_13 :=
  (show after hostOps1 V (Proc.devRef .tc main_c_13) = C_c_13 by
    kr_results
    rfl)

set_option maxHeartbeats 4000000 in
/-- The buffer `main_v99` after item 11, from contents that hold what the item reads: first as the item's function of
    those contents, then with their values put in, which is the named value. -/
theorem st_la1 (V : Valuation τ sig (Elt Ideal)) (A : K.Args)
    (h_v1 : V (Proc.devRef .tc main_v1) = K.lr A)
    (h_v93 : V (Proc.devRef .tc main_v93) = K.edgeFn (C_v90 (F := Ideal) (C_v26 (F := Ideal) (C_v25 (F := Ideal) (K.lr A) (A.a0))) (C_c)) (C_v91 (F := Ideal) (C_v28 (F := Ideal) (C_v27 (F := Ideal) (K.lc A) (A.a0))) (C_c_10)) (C_v92 (F := Ideal) (C_v81 (F := Ideal) (A.a3)) (C_c_11)) (C_v83 (F := Ideal) (A.a5)) (C_v84 (F := Ideal) (A.a5)) (C_v85 (F := Ideal) (A.a5)) (C_v88 (F := Ideal) (A.a6) (A.a5)) (K.P00_eW2 A) (C_v89 (F := Ideal) (A.a8)))
    (h_v16 : V (Proc.devRef .tc main_v16) = C_v16 (F := Ideal) (A.a1)) :
    after hostOps1 V (Proc.devRef .tc main_v99) = K.la1 A :=
  ((show after hostOps1 V (Proc.devRef .tc main_v99) = C_v99 (F := Ideal) (V (Proc.devRef .tc main_v1)) (V (Proc.devRef .tc main_v93)) (V (Proc.devRef .tc main_v16)) by
    kr_results
    rfl).trans (by rw [h_v1, h_v93, h_v16])).trans
    (show C_v99 (F := Ideal) (K.lr A) (K.edgeFn (C_v90 (F := Ideal) (C_v26 (F := Ideal) (C_v25 (F := Ideal) (K.lr A) (A.a0))) (C_c)) (C_v91 (F := Ideal) (C_v28 (F := Ideal) (C_v27 (F := Ideal) (K.lc A) (A.a0))) (C_c_10)) (C_v92 (F := Ideal) (C_v81 (F := Ideal) (A.a3)) (C_c_11)) (C_v83 (F := Ideal) (A.a5)) (C_v84 (F := Ideal) (A.a5)) (C_v85 (F := Ideal) (A.a5)) (C_v88 (F := Ideal) (A.a6) (A.a5)) (K.P00_eW2 A) (C_v89 (F := Ideal) (A.a8))) (C_v16 (F := Ideal) (A.a1)) = K.la1 A from rfl)

set_option maxHeartbeats 4000000 in
/-- The buffer `main_v101` after item 11, from contents that hold what the item reads: first as the item's function of
    those contents, then with their values put in. -/
theorem rd_v101 (V : Valuation τ sig (Elt Ideal)) (A : K.Args)
    (h_v41 : V (Proc.devRef .tc main_v41) = K.P00_nW1 A) :
    after hostOps1 V (Proc.devRef .tc main_v101) = C_v101 (F := Ideal) (K.P00_nW1 A) :=
  ((show after hostOps1 V (Proc.devRef .tc main_v101) = C_v101 (F := Ideal) (V (Proc.devRef .tc main_v41)) by
    kr_results
    rfl).trans (by rw [h_v41]))

set_option maxHeartbeats 4000000 in
/-- The buffer `main_v102` after item 11, from contents that hold what the item reads: first as the item's function of
    those contents, then with their values put in. -/
theorem rd_v102 (V : Valuation τ sig (Elt Ideal)) (A : K.Args)
    (h_v41 : V (Proc.devRef .tc main_v41) = K.P00_nW1 A) :
    after hostOps1 V (Proc.devRef .tc main_v102) = C_v102 (F := Ideal) (K.P00_nW1 A) :=
  ((show after hostOps1 V (Proc.devRef .tc main_v102) = C_v102 (F := Ideal) (V (Proc.devRef .tc main_v41)) by
    kr_results
    rfl).trans (by rw [h_v41]))

set_option maxHeartbeats 4000000 in
/-- The buffer `main_v105` after item 11, from contents that hold what the item reads: first as the item's function of
    those contents, then with their values put in. -/
theorem rd_v105 (V : Valuation τ sig (Elt Ideal)) (A : K.Args)
    (h_v43 : V (Proc.devRef .tc main_v43) = K.P00_nb1 A)
    (h_v29 : V (Proc.devRef .tc main_v29) = K.g0)
    (h_v41 : V (Proc.devRef .tc main_v41) = K.P00_nW1 A) :
    after hostOps1 V (Proc.devRef .tc main_v105) = C_v105 (F := Ideal) (K.P00_nb1 A) (K.g0) (K.P00_nW1 A) :=
  ((show after hostOps1 V (Proc.devRef .tc main_v105) = C_v105 (F := Ideal) (V (Proc.devRef .tc main_v43)) (V (Proc.devRef .tc main_v29)) (V (Proc.devRef .tc main_v41)) by
    kr_results
    rfl).trans (by rw [h_v43, h_v29, h_v41]))

set_option maxHeartbeats 4000000 in
/-- The buffer `main_v106` after item 11, from contents that hold what the item reads: first as the item's function of
    those contents, then with their values put in. -/
theorem rd_v106 (V : Valuation τ sig (Elt Ideal)) (A : K.Args)
    (h_v47 : V (Proc.devRef .tc main_v47) = K.P00_nb2 A) :
    after hostOps1 V (Proc.devRef .tc main_v106) = C_v106 (F := Ideal) (K.P00_nb2 A) :=
  ((show after hostOps1 V (Proc.devRef .tc main_v106) = C_v106 (F := Ideal) (V (Proc.devRef .tc main_v47)) by
    kr_results
    rfl).trans (by rw [h_v47]))

set_option maxHeartbeats 4000000 in
/-- The buffer `main_v94` after item 11, from contents that hold what the item reads: first as the item's function of
    those contents, then with their values put in, which is the named value. -/
theorem st_le1 (V : Valuation τ sig (Elt Ideal)) (A : K.Args)
    (h_v93 : V (Proc.devRef .tc main_v93) = K.edgeFn (C_v90 (F := Ideal) (C_v26 (F := Ideal) (C_v25 (F := Ideal) (K.lr A) (A.a0))) (C_c)) (C_v91 (F := Ideal) (C_v28 (F := Ideal) (C_v27 (F := Ideal) (K.lc A) (A.a0))) (C_c_10)) (C_v92 (F := Ideal) (C_v81 (F := Ideal) (A.a3)) (C_c_11)) (C_v83 (F := Ideal) (A.a5)) (C_v84 (F := Ideal) (A.a5)) (C_v85 (F := Ideal) (A.a5)) (C_v88 (F := Ideal) (A.a6) (A.a5)) (K.P00_eW2 A) (C_v89 (F := Ideal) (A.a8))) :
    after hostOps1 V (Proc.devRef .tc main_v94) = K.le1 A :=
  ((show after hostOps1 V (Proc.devRef .tc main_v94) = C_v94 (F := Ideal) (V (Proc.devRef .tc main_v93)) by
    kr_results
    rfl).trans (by rw [h_v93])).trans
    (show C_v94 (F := Ideal) (K.edgeFn (C_v90 (F := Ideal) (C_v26 (F := Ideal) (C_v25 (F := Ideal) (K.lr A) (A.a0))) (C_c)) (C_v91 (F := Ideal) (C_v28 (F := Ideal) (C_v27 (F := Ideal) (K.lc A) (A.a0))) (C_c_10)) (C_v92 (F := Ideal) (C_v81 (F := Ideal) (A.a3)) (C_c_11)) (C_v83 (F := Ideal) (A.a5)) (C_v84 (F := Ideal) (A.a5)) (C_v85 (F := Ideal) (A.a5)) (C_v88 (F := Ideal) (A.a6) (A.a5)) (K.P00_eW2 A) (C_v89 (F := Ideal) (A.a8))) = K.le1 A from rfl)

set_option maxHeartbeats 4000000 in
/-- The buffer `main_v107` after item 12, from contents that hold what the item reads: first as the item's function of
    those contents, then with their values put in. -/
theorem rd_v107 (V : Valuation τ sig (Elt Ideal)) (A : K.Args)
    (h_v24 : V (Proc.devRef .tc main_v24) = C_v24 (F := Ideal) (A.a0))
    (h_c_13 : V (Proc.devRef .tc main_c_13) = C_c_13) :
    after k_hostOps1_1 V (Proc.devRef .tc main_v107) = C_v107 (F := Ideal) (C_v24 (F := Ideal) (A.a0)) (C_c_13) :=
  ((show after k_hostOps1_1 V (Proc.devRef .tc main_v107) = C_v107 (F := Ideal) (V (Proc.devRef .tc main_v24)) (V (Proc.devRef .tc main_c_13)) by
    kr_results
    rfl).trans (by rw [h_v24, h_c_13]))

set_option maxHeartbeats 4000000 in
/-- The buffer `main_c_14` after item 13, from contents that hold what the item reads: first as the item's function of
    those contents, then with their values put in. -/
theorem rd_c_14 (V : Valuation τ sig (Elt Ideal)) (A : K.Args) :
    after hostOps1_2 V (Proc.devRef .tc main_c_14) = C_c_14 :=
  (show after hostOps1_2 V (Proc.devRef .tc main_c_14) = C_c_14 by
    kr_results
    rfl)

set_option maxHeartbeats 4000000 in
/-- The buffer `main_v108` after item 14, from contents that hold what the item reads: first as the item's function of
    those contents, then with their values put in. -/
theorem rd_v108 (V : Valuation τ sig (Elt Ideal)) (A : K.Args)
    (h_v99 : V (Proc.devRef .tc main_v99) = K.la1 A)
    (h_c_14 : V (Proc.devRef .tc main_c_14) = C_c_14) :
    after k_hostOps1_3 V (Proc.devRef .tc main_v108) = C_v108 (F := Ideal) (K.la1 A) (C_c_14) :=
  ((show after k_hostOps1_3 V (Proc.devRef .tc main_v108) = C_v108 (F := Ideal) (V (Proc.devRef .tc main_v99)) (V (Proc.devRef .tc main_c_14)) by
    kr_results
    rfl).trans (by rw [h_v99, h_c_14]))

set_option maxHeartbeats 4000000 in
/-- The buffer `main_v123` after item 16, from contents that hold what the item reads: first as the item's function of
    those contents, then with their values put in. -/
theorem rd_v123 (V : Valuation τ sig (Elt Ideal)) (A : K.Args)
    (h_v109 : V (Proc.devRef .tc main_v109) = K.nodeFn (C_v107 (F := Ideal) (C_v24 (F := Ideal) (A.a0)) (C_c_13)) (C_v108 (F := Ideal) (K.la1 A) (C_c_14)) (C_v101 (F := Ideal) (K.P00_nW1 A)) (C_v102 (F := Ideal) (K.P00_nW1 A)) (C_v105 (F := Ideal) (K.P00_nb1 A) (K.g0) (K.P00_nW1 A)) (K.P00_nW2 A) (C_v106 (F := Ideal) (K.P00_nb2 A)))
    (h_v94 : V (Proc.devRef .tc main_v94) = K.le1 A)
    (h_v29 : V (Proc.devRef .tc main_v29) = K.g0)
    (h_v49 : V (Proc.devRef .tc main_v49) = K.P00_gW1 A)
    (h_v51 : V (Proc.devRef .tc main_v51) = K.P00_gb1 A) :
    after hostOps2 V (Proc.devRef .tc main_v123) = C_v123 (F := Ideal) (K.nodeFn (C_v107 (F := Ideal) (C_v24 (F := Ideal) (A.a0)) (C_c_13)) (C_v108 (F := Ideal) (K.la1 A) (C_c_14)) (C_v101 (F := Ideal) (K.P00_nW1 A)) (C_v102 (F := Ideal) (K.P00_nW1 A)) (C_v105 (F := Ideal) (K.P00_nb1 A) (K.g0) (K.P00_nW1 A)) (K.P00_nW2 A) (C_v106 (F := Ideal) (K.P00_nb2 A))) (K.le1 A) (K.g0) (K.P00_gW1 A) (K.P00_gb1 A) :=
  ((show after hostOps2 V (Proc.devRef .tc main_v123) = C_v123 (F := Ideal) (V (Proc.devRef .tc main_v109)) (V (Proc.devRef .tc main_v94)) (V (Proc.devRef .tc main_v29)) (V (Proc.devRef .tc main_v49)) (V (Proc.devRef .tc main_v51)) by
    kr_results
    rfl).trans (by rw [h_v109, h_v94, h_v29, h_v49, h_v51]))

set_option maxHeartbeats 4000000 in
/-- The buffer `main_v121` after item 16, from contents that hold what the item reads: first as the item's function of
    those contents, then with their values put in. -/
theorem rd_v121 (V : Valuation τ sig (Elt Ideal)) (A : K.Args)
    (h_v55 : V (Proc.devRef .tc main_v55) = K.P00_gb2 A) :
    after hostOps2 V (Proc.devRef .tc main_v121) = C_v121 (F := Ideal) (K.P00_gb2 A) :=
  ((show after hostOps2 V (Proc.devRef .tc main_v121) = C_v121 (F := Ideal) (V (Proc.devRef .tc main_v55)) by
    kr_results
    rfl).trans (by rw [h_v55]))

set_option maxHeartbeats 4000000 in
/-- The buffer `main_v110` after item 16, from contents that hold what the item reads: first as the item's function of
    those contents, then with their values put in, which is the named value. -/
theorem st_ln1 (V : Valuation τ sig (Elt Ideal)) (A : K.Args)
    (h_v109 : V (Proc.devRef .tc main_v109) = K.nodeFn (C_v107 (F := Ideal) (C_v24 (F := Ideal) (A.a0)) (C_c_13)) (C_v108 (F := Ideal) (K.la1 A) (C_c_14)) (C_v101 (F := Ideal) (K.P00_nW1 A)) (C_v102 (F := Ideal) (K.P00_nW1 A)) (C_v105 (F := Ideal) (K.P00_nb1 A) (K.g0) (K.P00_nW1 A)) (K.P00_nW2 A) (C_v106 (F := Ideal) (K.P00_nb2 A))) :
    after hostOps2 V (Proc.devRef .tc main_v110) = K.ln1 A :=
  ((show after hostOps2 V (Proc.devRef .tc main_v110) = C_v110 (F := Ideal) (V (Proc.devRef .tc main_v109)) by
    kr_results
    rfl).trans (by rw [h_v109])).trans
    (show C_v110 (F := Ideal) (K.nodeFn (C_v107 (F := Ideal) (C_v24 (F := Ideal) (A.a0)) (C_c_13)) (C_v108 (F := Ideal) (K.la1 A) (C_c_14)) (C_v101 (F := Ideal) (K.P00_nW1 A)) (C_v102 (F := Ideal) (K.P00_nW1 A)) (C_v105 (F := Ideal) (K.P00_nb1 A) (K.g0) (K.P00_nW1 A)) (K.P00_nW2 A) (C_v106 (F := Ideal) (K.P00_nb2 A))) = K.ln1 A from rfl)

set_option maxHeartbeats 4000000 in
/-- The buffer `main_v124` after item 17, from contents that hold what the item reads: first as the item's function of
    those contents, then with their values put in. -/
theorem rd_v124 (V : Valuation τ sig (Elt Ideal)) (A : K.Args)
    (h_v123 : V (Proc.devRef .tc main_v123) = C_v123 (F := Ideal) (K.nodeFn (C_v107 (F := Ideal) (C_v24 (F := Ideal) (A.a0)) (C_c_13)) (C_v108 (F := Ideal) (K.la1 A) (C_c_14)) (C_v101 (F := Ideal) (K.P00_nW1 A)) (C_v102 (F := Ideal) (K.P00_nW1 A)) (C_v105 (F := Ideal) (K.P00_nb1 A) (K.g0) (K.P00_nW1 A)) (K.P00_nW2 A) (C_v106 (F := Ideal) (K.P00_nb2 A))) (K.le1 A) (K.g0) (K.P00_gW1 A) (K.P00_gb1 A)) :
    after k_hostOps2_1 V (Proc.devRef .tc main_v124) = C_v124 (F := Ideal) (C_v123 (F := Ideal) (K.nodeFn (C_v107 (F := Ideal) (C_v24 (F := Ideal) (A.a0)) (C_c_13)) (C_v108 (F := Ideal) (K.la1 A) (C_c_14)) (C_v101 (F := Ideal) (K.P00_nW1 A)) (C_v102 (F := Ideal) (K.P00_nW1 A)) (C_v105 (F := Ideal) (K.P00_nb1 A) (K.g0) (K.P00_nW1 A)) (K.P00_nW2 A) (C_v106 (F := Ideal) (K.P00_nb2 A))) (K.le1 A) (K.g0) (K.P00_gW1 A) (K.P00_gb1 A)) :=
  ((show after k_hostOps2_1 V (Proc.devRef .tc main_v124) = C_v124 (F := Ideal) (V (Proc.devRef .tc main_v123)) by
    kr_results
    rfl).trans (by rw [h_v123]))

set_option maxHeartbeats 4000000 in
/-- The buffer `main_v127` after item 18, from contents that hold what the item reads: first as the item's function of
    those contents, then with their values put in, which is the named value. -/
theorem st_uin0 (V : Valuation τ sig (Elt Ideal)) (A : K.Args)
    (h_arg4 : V (Proc.devRef .tc main_arg4) = A.a4)
    (h_v31 : V (Proc.devRef .tc main_v31) = K.zcol) :
    after hostOps2_2 V (Proc.devRef .tc main_v127) = K.uin0 A :=
  ((show after hostOps2_2 V (Proc.devRef .tc main_v127) = C_v127 (F := Ideal) (V (Proc.devRef .tc main_arg4)) (V (Proc.devRef .tc main_v31)) by
    kr_results
    rfl).trans (by rw [h_arg4, h_v31])).trans
    (show C_v127 (F := Ideal) (A.a4) (K.zcol) = K.uin0 A from rfl)

set_option maxHeartbeats 4000000 in
/-- The buffer `main_v126` after item 18, from contents that hold what the item reads: first as the item's function of
    those contents, then with their values put in, which is the named value. -/
theorem st_g1 (V : Valuation τ sig (Elt Ideal)) (A : K.Args)
    (h_v124 : V (Proc.devRef .tc main_v124) = C_v124 (F := Ideal) (C_v123 (F := Ideal) (K.nodeFn (C_v107 (F := Ideal) (C_v24 (F := Ideal) (A.a0)) (C_c_13)) (C_v108 (F := Ideal) (K.la1 A) (C_c_14)) (C_v101 (F := Ideal) (K.P00_nW1 A)) (C_v102 (F := Ideal) (K.P00_nW1 A)) (C_v105 (F := Ideal) (K.P00_nb1 A) (K.g0) (K.P00_nW1 A)) (K.P00_nW2 A) (C_v106 (F := Ideal) (K.P00_nb2 A))) (K.le1 A) (K.g0) (K.P00_gW1 A) (K.P00_gb1 A)))
    (h_v53 : V (Proc.devRef .tc main_v53) = K.P00_gW2 A)
    (h_v121 : V (Proc.devRef .tc main_v121) = C_v121 (F := Ideal) (K.P00_gb2 A)) :
    after hostOps2_2 V (Proc.devRef .tc main_v126) = K.g1 A :=
  ((show after hostOps2_2 V (Proc.devRef .tc main_v126) = C_v126 (F := Ideal) (V (Proc.devRef .tc main_v124)) (V (Proc.devRef .tc main_v53)) (V (Proc.devRef .tc main_v121)) by
    kr_results
    rfl).trans (by rw [h_v124, h_v53, h_v121])).trans
    (show C_v126 (F := Ideal) (C_v124 (F := Ideal) (C_v123 (F := Ideal) (K.nodeFn (C_v107 (F := Ideal) (C_v24 (F := Ideal) (A.a0)) (C_c_13)) (C_v108 (F := Ideal) (K.la1 A) (C_c_14)) (C_v101 (F := Ideal) (K.P00_nW1 A)) (C_v102 (F := Ideal) (K.P00_nW1 A)) (C_v105 (F := Ideal) (K.P00_nb1 A) (K.g0) (K.P00_nW1 A)) (K.P00_nW2 A) (C_v106 (F := Ideal) (K.P00_nb2 A))) (K.le1 A) (K.g0) (K.P00_gW1 A) (K.P00_gb1 A))) (K.P00_gW2 A) (C_v121 (F := Ideal) (K.P00_gb2 A)) = K.g1 A from rfl)

set_option maxHeartbeats 4000000 in
/-- The buffer `main_v128` after item 18, from contents that hold what the item reads: first as the item's function of
    those contents, then with their values put in. -/
theorem rd_v128 (V : Valuation τ sig (Elt Ideal)) (A : K.Args)
    (h_v110 : V (Proc.devRef .tc main_v110) = K.ln1 A) :
    after hostOps2_2 V (Proc.devRef .tc main_v128) = C_v128 (F := Ideal) (K.ln1 A) :=
  ((show after hostOps2_2 V (Proc.devRef .tc main_v128) = C_v128 (F := Ideal) (V (Proc.devRef .tc main_v110)) by
    kr_results
    rfl).trans (by rw [h_v110]))

set_option maxHeartbeats 4000000 in
/-- The buffer `main_v129` after item 19, from contents that hold what the item reads: first as the item's function of
    those contents, then with their values put in. -/
theorem rd_v129 (V : Valuation τ sig (Elt Ideal)) (A : K.Args)
    (h_v5 : V (Proc.devRef .tc main_v5) = K.ur A)
    (h_v110 : V (Proc.devRef .tc main_v110) = K.ln1 A) :
    after k_hostOps2_3 V (Proc.devRef .tc main_v129) = C_v129 (F := Ideal) (K.ur A) (K.ln1 A) :=
  ((show after k_hostOps2_3 V (Proc.devRef .tc main_v129) = C_v129 (F := Ideal) (V (Proc.devRef .tc main_v5)) (V (Proc.devRef .tc main_v110)) by
    kr_results
    rfl).trans (by rw [h_v5, h_v110]))

set_option maxHeartbeats 4000000 in
/-- The buffer `main_v130` after item 20, from contents that hold what the item reads: first as the item's function of
    those contents, then with their values put in. -/
theorem rd_v130 (V : Valuation τ sig (Elt Ideal)) (A : K.Args)
    (h_v129 : V (Proc.devRef .tc main_v129) = C_v129 (F := Ideal) (K.ur A) (K.ln1 A)) :
    after hostOps2_4 V (Proc.devRef .tc main_v130) = C_v130 (F := Ideal) (C_v129 (F := Ideal) (K.ur A) (K.ln1 A)) :=
  ((show after hostOps2_4 V (Proc.devRef .tc main_v130) = C_v130 (F := Ideal) (V (Proc.devRef .tc main_v129)) by
    kr_results
    rfl).trans (by rw [h_v129]))

set_option maxHeartbeats 4000000 in
/-- The buffer `main_v131` after item 21, from contents that hold what the item reads: first as the item's function of
    those contents, then with their values put in. -/
theorem rd_v131 (V : Valuation τ sig (Elt Ideal)) (A : K.Args)
    (h_v7 : V (Proc.devRef .tc main_v7) = K.uc A)
    (h_v110 : V (Proc.devRef .tc main_v110) = K.ln1 A) :
    after k_hostOps2_5 V (Proc.devRef .tc main_v131) = C_v131 (F := Ideal) (K.uc A) (K.ln1 A) :=
  ((show after k_hostOps2_5 V (Proc.devRef .tc main_v131) = C_v131 (F := Ideal) (V (Proc.devRef .tc main_v7)) (V (Proc.devRef .tc main_v110)) by
    kr_results
    rfl).trans (by rw [h_v7, h_v110]))

end Cert.Val.KRead

end
-- ==== Proof.Val.KReadH3.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 22 … 32

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_c_19` after item 22, from contents that hold what the item reads: first as the item's function of
    those contents, then with their values put in. -/
theorem rd_c_19 (V : Valuation τ sig (Elt Ideal)) (A : K.Args) :
    after hostOps2_6 V (Proc.devRef .tc main_c_19) = C_c_19 :=
  (show after hostOps2_6 V (Proc.devRef .tc main_c_19) = C_c_19 by
    kr_results
    rfl)

set_option maxHeartbeats 4000000 in
/-- The buffer `main_v132` after item 22, from contents that hold what the item reads: first as the item's function of
    those contents, then with their values put in. -/
theorem rd_v132 (V : Valuation τ sig (Elt Ideal)) (A : K.Args)
    (h_v131 : V (Proc.devRef .tc main_v131) = C_v131 (F := Ideal) (K.uc A) (K.ln1 A)) :
    after hostOps2_6 V (Proc.devRef .tc main_v132) = C_v132 (F := Ideal) (C_v131 (F := Ideal) (K.uc A) (K.ln1 A)) :=
  ((show after hostOps2_6 V (Proc.devRef .tc main_v132) = C_v132 (F := Ideal) (V (Proc.devRef .tc main_v131)) by
    kr_results
    rfl).trans (by rw [h_v131]))

set_option maxHeartbeats 4000000 in
/-- The buffer `main_v133` after item 22, from contents that hold what the item reads: first as the item's function of
    those contents, then with their values put in. -/
theorem rd_v133 (V : Valuation τ sig (Elt Ideal)) (A : K.Args)
    (h_v127 : V (Proc.devRef .tc main_v127) = K.uin0 A) :
    after hostOps2_6 V (Proc.devRef .tc main_v133) = C_v133 (F := Ideal) (K.uin0 A) :=
  ((show after hostOps2_6 V (Proc.devRef .tc main_v133) = C_v133 (F := Ideal) (V (Proc.devRef .tc main_v127)) by
    kr_results
    rfl).trans (by rw [h_v127]))

set_option maxHeartbeats 4000000 in
/-- The buffer `main_v135` after item 22, from contents that hold what the item reads: first as the item's function of
    those contents, then with their values put in. -/
theorem rd_v135 (V : Valuation τ sig (Elt Ideal)) (A : K.Args)
    (h_v57 : V (Proc.devRef .tc main_v57) = K.P10_eW1 A) :
    after hostOps2_6 V (Proc.devRef .tc main_v135) = C_v135 (F := Ideal) (K.P10_eW1 A) :=
  ((show after hostOps2_6 V (Proc.devRef .tc main_v135) = C_v135 (F := Ideal) (V (Proc.devRef .tc main_v57)) by
    kr_results
    rfl).trans (by rw [h_v57]))

set_option maxHeartbeats 4000000 in
/-- The buffer `main_v136` after item 22, from contents that hold what the item reads: first as the item's function of
    those contents, then with their values put in. -/
theorem rd_v136 (V : Valuation τ sig (Elt Ideal)) (A : K.Args)
    (h_v57 : V (Proc.devRef .tc main_v57) = K.P10_eW1 A) :
    after hostOps2_6 V (Proc.devRef .tc main_v136) = C_v136 (F := Ideal) (K.P10_eW1 A) :=
  ((show after hostOps2_6 V (Proc.devRef .tc main_v136) = C_v136 (F := Ideal) (V (Proc.devRef .tc main_v57)) by
    kr_results
    rfl).trans (by rw [h_v57]))

set_option maxHeartbeats 4000000 in
/-- The buffer `main_v137` after item 22, from contents that hold what the item reads: first as the item's function of
    those contents, then with their values put in. -/
theorem rd_v137 (V : Valuation τ sig (Elt Ideal)) (A : K.Args)
    (h_v57 : V (Proc.devRef .tc main_v57) = K.P10_eW1 A) :
    after hostOps2_6 V (Proc.devRef .tc main_v137) = C_v137 (F := Ideal) (K.P10_eW1 A) :=
  ((show after hostOps2_6 V (Proc.devRef .tc main_v137) = C_v137 (F := Ideal) (V (Proc.devRef .tc main_v57)) by
    kr_results
    rfl).trans (by rw [h_v57]))

set_option maxHeartbeats 4000000 in
/-- The buffer `main_v140` after item 22, from contents that hold what the item reads: first as the item's function of
    those contents, then with their values put in. -/
theorem rd_v140 (V : Valuation τ sig (Elt Ideal)) (A : K.Args)
    (h_v59 : V (Proc.devRef .tc main_v59) = K.P10_eb1 A)
    (h_v126 : V (Proc.devRef .tc main_v126) = K.g1 A)
    (h_v57 : V (Proc.devRef .tc main_v57) = K.P10_eW1 A) :
    after hostOps2_6 V (Proc.devRef .tc main_v140) = C_v140 (F := Ideal) (K.P10_eb1 A) (K.g1 A) (K.P10_eW1 A) :=
  ((show after hostOps2_6 V (Proc.devRef .tc main_v140) = C_v140 (F := Ideal) (V (Proc.devRef .tc main_v59)) (V (Proc.devRef .tc main_v126)) (V (Proc.devRef .tc main_v57)) by
    kr_results
    rfl).trans (by rw [h_v59, h_v126, h_v57]))

set_option maxHeartbeats 4000000 in
/-- The buffer `main_v141` after item 22, from contents that hold what the item reads: first as the item's function of
    those contents, then with their values put in. -/
theorem rd_v141 (V : Valuation τ sig (Elt Ideal)) (A : K.Args)
    (h_v63 : V (Proc.devRef .tc main_v63) = K.P10_eb2 A) :
    after hostOps2_6 V (Proc.devRef .tc main_v141) = C_v141 (F := Ideal) (K.P10_eb2 A) :=
  ((show after hostOps2_6 V (Proc.devRef .tc main_v141) = C_v141 (F := Ideal) (V (Proc.devRef .tc main_v63)) by
    kr_results
    rfl).trans (by rw [h_v63]))

set_option maxHeartbeats 4000000 in
/-- The buffer `main_v142` after item 23, from contents that hold what the item reads: first as the item's function of
    those contents, then with their values put in. -/
theorem rd_v142 (V : Valuation τ sig (Elt Ideal)) (A : K.Args)
    (h_v130 : V (Proc.devRef .tc main_v130) = C_v130 (F := Ideal) (C_v129 (F := Ideal) (K.ur A) (K.ln1 A)))
    (h_c_19 : V (Proc.devRef .tc main_c_19) = C_c_19) :
    after k_hostOps2_7 V (Proc.devRef .tc main_v142) = C_v142 (F := Ideal) (C_v130 (F := Ideal) (C_v129 (F := Ideal) (K.ur A) (K.ln1 A))) (C_c_19) :=
  ((show after k_hostOps2_7 V (Proc.devRef .tc main_v142) = C_v142 (F := Ideal) (V (Proc.devRef .tc main_v130)) (V (Proc.devRef .tc main_c_19)) by
    kr_results
    rfl).trans (by rw [h_v130, h_c_19]))

set_option maxHeartbeats 4000000 in
/-- The buffer `main_c_20` after item 24, from contents that hold what the item reads: first as the item's function of
    those contents, then with their values put in. -/
theorem rd_c_20 (V : Valuation τ sig (Elt Ideal)) (A : K.Args) :
    after hostOps2_8 V (Proc.devRef .tc main_c_20) = C_c_20 :=
  (show after hostOps2_8 V (Proc.devRef .tc main_c_20) = C_c_20 by
    kr_results
    rfl)

set_option maxHeartbeats 4000000 in
/-- The buffer `main_v143` after item 25, from contents that hold what the item reads: first as the item's function of
    those contents, then with their values put in. -/
theorem rd_v143 (V : Valuation τ sig (Elt Ideal)) (A : K.Args)
    (h_v132 : V (Proc.devRef .tc main_v132) = C_v132 (F := Ideal) (C_v131 (F := Ideal) (K.uc A) (K.ln1 A)))
    (h_c_20 : V (Proc.devRef .tc main_c_20) = C_c_20) :
    after k_hostOps2_9 V (Proc.devRef .tc main_v143) = C_v143 (F := Ideal) (C_v132 (F := Ideal) (C_v131 (F := Ideal) (K.uc A) (K.ln1 A))) (C_c_20) :=
  ((show after k_hostOps2_9 V (Proc.devRef .tc main_v143) = C_v143 (F := Ideal) (V (Proc.devRef .tc main_v132)) (V (Proc.devRef .tc main_c_20)) by
    kr_results
    rfl).trans (by rw [h_v132, h_c_20]))

set_option maxHeartbeats 4000000 in
/-- The buffer `main_c_21` after item 26, from contents that hold what the item reads: first as the item's function of
    those contents, then with their values put in. -/
theorem rd_c_21 (V : Valuation τ sig (Elt Ideal)) (A : K.Args) :
    after hostOps2_10 V (Proc.devRef .tc main_c_21) = C_c_21 :=
  (show after hostOps2_10 V (Proc.devRef .tc main_c_21) = C_c_21 by
    kr_results
    rfl)

set_option maxHeartbeats 4000000 in
/-- The buffer `main_v144` after item 27, from contents that hold what the item reads: first as the item's function of
    those contents, then with their values put in. -/
theorem rd_v144 (V : Valuation τ sig (Elt Ideal)) (A : K.Args)
    (h_v133 : V (Proc.devRef .tc main_v133) = C_v133 (F := Ideal) (K.uin0 A))
    (h_c_21 : V (Proc.devRef .tc main_c_21) = C_c_21) :
    after k_hostOps2_11 V (Proc.devRef .tc main_v144) = C_v144 (F := Ideal) (C_v133 (F := Ideal) (K.uin0 A)) (C_c_21) :=
  ((show after k_hostOps2_11 V (Proc.devRef .tc main_v144) = C_v144 (F := Ideal) (V (Proc.devRef .tc main_v133)) (V (Proc.devRef .tc main_c_21)) by
    kr_results
    rfl).trans (by rw [h_v133, h_c_21]))

set_option maxHeartbeats 4000000 in
/-- The buffer `main_c_23` after item 29, from contents that hold what the item reads: first as the item's function of
    those contents, then with their values put in. -/
theorem rd_c_23 (V : Valuation τ sig (Elt Ideal)) (A : K.Args) :
    after hostOps3 V (Proc.devRef .tc main_c_23) = C_c_23 :=
  (show after hostOps3 V (Proc.devRef .tc main_c_23) = C_c_23 by
    kr_results
    rfl)

set_option maxHeartbeats 4000000 in
/-- The buffer `main_v151` after item 29, from contents that hold what the item reads: first as the item's function of
    those contents, then with their values put in, which is the named value. -/
theorem st_ua1 (V : Valuation τ sig (Elt Ideal)) (A : K.Args)
    (h_v5 : V (Proc.devRef .tc main_v5) = K.ur A)
    (h_v145 : V (Proc.devRef .tc main_v145) = K.edgeFn (C_v142 (F := Ideal) (C_v130 (F := Ideal) (C_v129 (F := Ideal) (K.ur A) (K.ln1 A))) (C_c_19)) (C_v143 (F := Ideal) (C_v132 (F := Ideal) (C_v131 (F := Ideal) (K.uc A) (K.ln1 A))) (C_c_20)) (C_v144 (F := Ideal) (C_v133 (F := Ideal) (K.uin0 A)) (C_c_21)) (C_v135 (F := Ideal) (K.P10_eW1 A)) (C_v136 (F := Ideal) (K.P10_eW1 A)) (C_v137 (F := Ideal) (K.P10_eW1 A)) (C_v140 (F := Ideal) (K.P10_eb1 A) (K.g1 A) (K.P10_eW1 A)) (K.P10_eW2 A) (C_v141 (F := Ideal) (K.P10_eb2 A)))
    (h_v23 : V (Proc.devRef .tc main_v23) = C_v23 (F := Ideal) (A.a2)) :
    after hostOps3 V (Proc.devRef .tc main_v151) = K.ua1 A :=
  ((show after hostOps3 V (Proc.devRef .tc main_v151) = C_v151 (F := Ideal) (V (Proc.devRef .tc main_v5)) (V (Proc.devRef .tc main_v145)) (V (Proc.devRef .tc main_v23)) by
    kr_results
    rfl).trans (by rw [h_v5, h_v145, h_v23])).trans
    (show C_v151 (F := Ideal) (K.ur A) (K.edgeFn (C_v142 (F := Ideal) (C_v130 (F := Ideal) (C_v129 (F := Ideal) (K.ur A) (K.ln1 A))) (C_c_19)) (C_v143 (F := Ideal) (C_v132 (F := Ideal) (C_v131 (F := Ideal) (K.uc A) (K.ln1 A))) (C_c_20)) (C_v144 (F := Ideal) (C_v133 (F := Ideal) (K.uin0 A)) (C_c_21)) (C_v135 (F := Ideal) (K.P10_eW1 A)) (C_v136 (F := Ideal) (K.P10_eW1 A)) (C_v137 (F := Ideal) (K.P10_eW1 A)) (C_v140 (F := Ideal) (K.P10_eb1 A) (K.g1 A) (K.P10_eW1 A)) (K.P10_eW2 A) (C_v141 (F := Ideal) (K.P10_eb2 A))) (C_v23 (F := Ideal) (A.a2)) = K.ua1 A from rfl)

set_option maxHeartbeats 4000000 in
/-- The buffer `main_v153` after item 29, from contents that hold what the item reads: first as the item's function of
    those contents, then with their values put in. -/
theorem rd_v153 (V : Valuation τ sig (Elt Ideal)) (A : K.Args)
    (h_v65 : V (Proc.devRef .tc main_v65) = K.P10_nW1 A) :
    after hostOps3 V (Proc.devRef .tc main_v153) = C_v153 (F := Ideal) (K.P10_nW1 A) :=
  ((show after hostOps3 V (Proc.devRef .tc main_v153) = C_v153 (F := Ideal) (V (Proc.devRef .tc main_v65)) by
    kr_results
    rfl).trans (by rw [h_v65]))

set_option maxHeartbeats 4000000 in
/-- The buffer `main_v154` after item 29, from contents that hold what the item reads: first as the item's function of
    those contents, then with their values put in. -/
theorem rd_v154 (V : Valuation τ sig (Elt Ideal)) (A : K.Args)
    (h_v65 : V (Proc.devRef .tc main_v65) = K.P10_nW1 A) :
    after hostOps3 V (Proc.devRef .tc main_v154) = C_v154 (F := Ideal) (K.P10_nW1 A) :=
  ((show after hostOps3 V (Proc.devRef .tc main_v154) = C_v154 (F := Ideal) (V (Proc.devRef .tc main_v65)) by
    kr_results
    rfl).trans (by rw [h_v65]))

set_option maxHeartbeats 4000000 in
/-- The buffer `main_v157` after item 29, from contents that hold what the item reads: first as the item's function of
    those contents, then with their values put in. -/
theorem rd_v157 (V : Valuation τ sig (Elt Ideal)) (A : K.Args)
    (h_v67 : V (Proc.devRef .tc main_v67) = K.P10_nb1 A)
    (h_v126 : V (Proc.devRef .tc main_v126) = K.g1 A)
    (h_v65 : V (Proc.devRef .tc main_v65) = K.P10_nW1 A) :
    after hostOps3 V (Proc.devRef .tc main_v157) = C_v157 (F := Ideal) (K.P10_nb1 A) (K.g1 A) (K.P10_nW1 A) :=
  ((show after hostOps3 V (Proc.devRef .tc main_v157) = C_v157 (F := Ideal) (V (Proc.devRef .tc main_v67)) (V (Proc.devRef .tc main_v126)) (V (Proc.devRef .tc main_v65)) by
    kr_results
    rfl).trans (by rw [h_v67, h_v126, h_v65]))

set_option maxHeartbeats 4000000 in
/-- The buffer `main_v158` after item 29, from contents that hold what the item reads: first as the item's function of
    those contents, then with their values put in. -/
theorem rd_v158 (V : Valuation τ sig (Elt Ideal)) (A : K.Args)
    (h_v71 : V (Proc.devRef .tc main_v71) = K.P10_nb2 A) :
    after hostOps3 V (Proc.devRef .tc main_v158) = C_v158 (F := Ideal) (K.P10_nb2 A) :=
  ((show after hostOps3 V (Proc.devRef .tc main_v158) = C_v158 (F := Ideal) (V (Proc.devRef .tc main_v71)) by
    kr_results
    rfl).trans (by rw [h_v71]))

set_option maxHeartbeats 4000000 in
/-- The buffer `main_v146` after item 29, from contents that hold what the item reads: first as the item's function of
    those contents, then with their values put in, which is the named value. -/
theorem st_ue1 (V : Valuation τ sig (Elt Ideal)) (A : K.Args)
    (h_v145 : V (Proc.devRef .tc main_v145) = K.edgeFn (C_v142 (F := Ideal) (C_v130 (F := Ideal) (C_v129 (F := Ideal) (K.ur A) (K.ln1 A))) (C_c_19)) (C_v143 (F := Ideal) (C_v132 (F := Ideal) (C_v131 (F := Ideal) (K.uc A) (K.ln1 A))) (C_c_20)) (C_v144 (F := Ideal) (C_v133 (F := Ideal) (K.uin0 A)) (C_c_21)) (C_v135 (F := Ideal) (K.P10_eW1 A)) (C_v136 (F := Ideal) (K.P10_eW1 A)) (C_v137 (F := Ideal) (K.P10_eW1 A)) (C_v140 (F := Ideal) (K.P10_eb1 A) (K.g1 A) (K.P10_eW1 A)) (K.P10_eW2 A) (C_v141 (F := Ideal) (K.P10_eb2 A))) :
    after hostOps3 V (Proc.devRef .tc main_v146) = K.ue1 A :=
  ((show after hostOps3 V (Proc.devRef .tc main_v146) = C_v146 (F := Ideal) (V (Proc.devRef .tc main_v145)) by
    kr_results
    rfl).trans (by rw [h_v145])).trans
    (show C_v146 (F := Ideal) (K.edgeFn (C_v142 (F := Ideal) (C_v130 (F := Ideal) (C_v129 (F := Ideal) (K.ur A) (K.ln1 A))) (C_c_19)) (C_v143 (F := Ideal) (C_v132 (F := Ideal) (C_v131 (F := Ideal) (K.uc A) (K.ln1 A))) (C_c_20)) (C_v144 (F := Ideal) (C_v133 (F := Ideal) (K.uin0 A)) (C_c_21)) (C_v135 (F := Ideal) (K.P10_eW1 A)) (C_v136 (F := Ideal) (K.P10_eW1 A)) (C_v137 (F := Ideal) (K.P10_eW1 A)) (C_v140 (F := Ideal) (K.P10_eb1 A) (K.g1 A) (K.P10_eW1 A)) (K.P10_eW2 A) (C_v141 (F := Ideal) (K.P10_eb2 A))) = K.ue1 A from rfl)

set_option maxHeartbeats 4000000 in
/-- The buffer `main_v159` after item 30, from contents that hold what the item reads: first as the item's function of
    those contents, then with their values put in. -/
theorem rd_v159 (V : Valuation τ sig (Elt Ideal)) (A : K.Args)
    (h_v128 : V (Proc.devRef .tc main_v128) = C_v128 (F := Ideal) (K.ln1 A))
    (h_c_23 : V (Proc.devRef .tc main_c_23) = C_c_23) :
    after k_hostOps3_1 V (Proc.devRef .tc main_v159) = C_v159 (F := Ideal) (C_v128 (F := Ideal) (K.ln1 A)) (C_c_23) :=
  ((show after k_hostOps3_1 V (Proc.devRef .tc main_v159) = C_v159 (F := Ideal) (V (Proc.devRef .tc main_v128)) (V (Proc.devRef .tc main_c_23)) by
    kr_results
    rfl).trans (by rw [h_v128, h_c_23]))

set_option maxHeartbeats 4000000 in
/-- The buffer `main_c_24` after item 31, from contents that hold what the item reads: first as the item's function of
    those contents, then with their values put in. -/
theorem rd_c_24 (V : Valuation τ sig (Elt Ideal)) (A : K.Args) :
    after hostOps3_2 V (Proc.devRef .tc main_c_24) = C_c_24 :=
  (show after hostOps3_2 V (Proc.devRef .tc main_c_24) = C_c_24 by
    kr_results
    rfl)

set_option maxHeartbeats 4000000 in
/-- The buffer `main_v160` after item 32, from contents that hold what the item reads: first as the item's function of
    those contents, then with their values put in. -/
theorem rd_v160 (V : Valuation τ sig (Elt Ideal)) (A : K.Args)
    (h_v151 : V (Proc.devRef .tc main_v151) = K.ua1 A)
    (h_c_24 : V (Proc.devRef .tc main_c_24) = C_c_24) :
    after k_hostOps3_3 V (Proc.devRef .tc main_v160) = C_v160 (F := Ideal) (K.ua1 A) (C_c_24) :=
  ((show after k_hostOps3_3 V (Proc.devRef .tc main_v160) = C_v160 (F := Ideal) (V (Proc.devRef .tc main_v151)) (V (Proc.devRef .tc main_c_24)) by
    kr_results
    rfl).trans (by rw [h_v151, h_c_24]))

end Cert.Val.KRead

end
-- ==== Proof.Val.KReadH4.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 34 … 35

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_v175` after item 34, from contents that hold what the item reads: first as the item's function of
    those contents, then with their values put in. -/
theorem rd_v175 (V : Valuation τ sig (Elt Ideal)) (A : K.Args)
    (h_v161 : V (Proc.devRef .tc main_v161) = K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A)))
    (h_v146 : V (Proc.devRef .tc main_v146) = K.ue1 A)
    (h_v126 : V (Proc.devRef .tc main_v126) = K.g1 A)
    (h_v73 : V (Proc.devRef .tc main_v73) = K.P10_gW1 A)
    (h_v75 : V (Proc.devRef .tc main_v75) = K.P10_gb1 A) :
    after hostOps4 V (Proc.devRef .tc main_v175) = C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A) :=
  ((show after hostOps4 V (Proc.devRef .tc main_v175) = C_v175 (F := Ideal) (V (Proc.devRef .tc main_v161)) (V (Proc.devRef .tc main_v146)) (V (Proc.devRef .tc main_v126)) (V (Proc.devRef .tc main_v73)) (V (Proc.devRef .tc main_v75)) by
    kr_results
    rfl).trans (by rw [h_v161, h_v146, h_v126, h_v73, h_v75]))

set_option maxHeartbeats 4000000 in
/-- The buffer `main_v173` after item 34, from contents that hold what the item reads: first as the item's function of
    those contents, then with their values put in. -/
theorem rd_v173 (V : Valuation τ sig (Elt Ideal)) (A : K.Args)
    (h_v79 : V (Proc.devRef .tc main_v79) = K.P10_gb2 A) :
    after hostOps4 V (Proc.devRef .tc main_v173) = C_v173 (F := Ideal) (K.P10_gb2 A) :=
  ((show after hostOps4 V (Proc.devRef .tc main_v173) = C_v173 (F := Ideal) (V (Proc.devRef .tc main_v79)) by
    kr_results
    rfl).trans (by rw [h_v79]))

set_option maxHeartbeats 4000000 in
/-- The buffer `main_v162` after item 34, from contents that hold what the item reads: first as the item's function of
    those contents, then with their values put in, which is the named value. -/
theorem st_un1 (V : Valuation τ sig (Elt Ideal)) (A : K.Args)
    (h_v161 : V (Proc.devRef .tc main_v161) = K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) :
    after hostOps4 V (Proc.devRef .tc main_v162) = K.un1 A :=
  ((show after hostOps4 V (Proc.devRef .tc main_v162) = C_v162 (F := Ideal) (V (Proc.devRef .tc main_v161)) by
    kr_results
    rfl).trans (by rw [h_v161])).trans
    (show C_v162 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) = K.un1 A from rfl)

set_option maxHeartbeats 4000000 in
/-- The buffer `main_v176` after item 35, from contents that hold what the item reads: first as the item's function of
    those contents, then with their values put in. -/
theorem rd_v176 (V : Valuation τ sig (Elt Ideal)) (A : K.Args)
    (h_v175 : V (Proc.devRef .tc main_v175) = C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A)) :
    after k_hostOps4_1 V (Proc.devRef .tc main_v176) = C_v176 (F := Ideal) (C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A)) :=
  ((show after k_hostOps4_1 V (Proc.devRef .tc main_v176) = C_v176 (F := Ideal) (V (Proc.devRef .tc main_v175)) by
    kr_results
    rfl).trans (by rw [h_v175]))

end Cert.Val.KRead

end
-- ==== Proof.Val.KReadH5.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 36 … 36

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_c_29` after item 36, from contents that hold what the item reads: first as the item's function of
    those contents, then with their values put in. -/
theorem rd_c_29 (V : Valuation τ sig (Elt Ideal)) (A : K.Args) :
    after hostOps4_2 V (Proc.devRef .tc main_c_29) = C_c_29 :=
  (show after hostOps4_2 V (Proc.devRef .tc main_c_29) = C_c_29 by
    kr_results
    rfl)

set_option maxHeartbeats 4000000 in
/-- The buffer `main_v228` after item 36, from contents that hold what the item reads: first as the item's function of
    those contents, then with their values put in. -/
theorem rd_v228 (V : Valuation τ sig (Elt Ideal)) (A : K.Args)
    (h_v94 : V (Proc.devRef .tc main_v94) = K.le1 A)
    (h_arg3 : V (Proc.devRef .tc main_arg3) = A.a3) :
    after hostOps4_2 V (Proc.devRef .tc main_v228) = C_v228 (F := Ideal) (K.le1 A) (A.a3) :=
  ((show after hostOps4_2 V (Proc.devRef .tc main_v228) = C_v228 (F := Ideal) (V (Proc.devRef .tc main_v94)) (V (Proc.devRef .tc main_arg3)) by
    kr_results
    rfl).trans (by rw [h_v94, h_arg3]))

set_option maxHeartbeats 4000000 in
/-- The buffer `main_v230` after item 36, from contents that hold what the item reads: first as the item's function of
    those contents, then with their values put in. -/
theorem rd_v230 (V : Valuation τ sig (Elt Ideal)) (A : K.Args)
    (h_arg5 : V (Proc.devRef .tc main_arg5) = A.a5) :
    after hostOps4_2 V (Proc.devRef .tc main_v230) = C_v230 (F := Ideal) (A.a5) :=
  ((show after hostOps4_2 V (Proc.devRef .tc main_v230) = C_v230 (F := Ideal) (V (Proc.devRef .tc main_arg5)) by
    kr_results
    rfl).trans (by rw [h_arg5]))

set_option maxHeartbeats 4000000 in
/-- The buffer `main_v231` after item 36, from contents that hold what the item reads: first as the item's function of
    those contents, then with their values put in. -/
theorem rd_v231 (V : Valuation τ sig (Elt Ideal)) (A : K.Args)
    (h_arg5 : V (Proc.devRef .tc main_arg5) = A.a5) :
    after hostOps4_2 V (Proc.devRef .tc main_v231) = C_v231 (F := Ideal) (A.a5) :=
  ((show after hostOps4_2 V (Proc.devRef .tc main_v231) = C_v231 (F := Ideal) (V (Proc.devRef .tc main_arg5)) by
    kr_results
    rfl).trans (by rw [h_arg5]))

set_option maxHeartbeats 4000000 in
/-- The buffer `main_v232` after item 36, from contents that hold what the item reads: first as the item's function of
    those contents, then with their values put in. -/
theorem rd_v232 (V : Valuation τ sig (Elt Ideal)) (A : K.Args)
    (h_arg5 : V (Proc.devRef .tc main_arg5) = A.a5) :
    after hostOps4_2 V (Proc.devRef .tc main_v232) = C_v232 (F := Ideal) (A.a5) :=
  ((show after hostOps4_2 V (Proc.devRef .tc main_v232) = C_v232 (F := Ideal) (V (Proc.devRef .tc main_arg5)) by
    kr_results
    rfl).trans (by rw [h_arg5]))

set_option maxHeartbeats 4000000 in
/-- The buffer `main_v235` after item 36, from contents that hold what the item reads: first as the item's function of
    those contents, then with their values put in. -/
theorem rd_v235 (V : Valuation τ sig (Elt Ideal)) (A : K.Args)
    (h_arg6 : V (Proc.devRef .tc main_arg6) = A.a6)
    (h_v176 : V (Proc.devRef .tc main_v176) = C_v176 (F := Ideal) (C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A)))
    (h_v77 : V (Proc.devRef .tc main_v77) = K.P10_gW2 A)
    (h_v173 : V (Proc.devRef .tc main_v173) = C_v173 (F := Ideal) (K.P10_gb2 A))
    (h_arg5 : V (Proc.devRef .tc main_arg5) = A.a5) :
    after hostOps4_2 V (Proc.devRef .tc main_v235) = C_v235 (F := Ideal) (A.a6) (C_v176 (F := Ideal) (C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A))) (K.P10_gW2 A) (C_v173 (F := Ideal) (K.P10_gb2 A)) (A.a5) :=
  ((show after hostOps4_2 V (Proc.devRef .tc main_v235) = C_v235 (F := Ideal) (V (Proc.devRef .tc main_arg6)) (V (Proc.devRef .tc main_v176)) (V (Proc.devRef .tc main_v77)) (V (Proc.devRef .tc main_v173)) (V (Proc.devRef .tc main_arg5)) by
    kr_results
    rfl).trans (by rw [h_arg6, h_v176, h_v77, h_v173, h_arg5]))

set_option maxHeartbeats 4000000 in
/-- The buffer `main_v184` after item 36, from contents that hold what the item reads: first as the item's function of
    those contents, then with their values put in, which is the named value. -/
theorem pr_v184 (V : Valuation τ sig (Elt Ideal)) (A : K.Args)
    (h_arg7 : V (Proc.devRef .tc main_arg7) = A.a7) :
    after hostOps4_2 V (Proc.devRef .tc main_v184) = K.P01_eW2 A :=
  ((show after hostOps4_2 V (Proc.devRef .tc main_v184) = C_v184 (F := Ideal) (V (Proc.devRef .tc main_arg7)) by
    kr_results
    rfl).trans (by rw [h_arg7])).trans
    (show C_v184 (F := Ideal) (A.a7) = K.P01_eW2 A from rfl)

set_option maxHeartbeats 4000000 in
/-- The buffer `main_v236` after item 36, from contents that hold what the item reads: first as the item's function of
    those contents, then with their values put in. -/
theorem rd_v236 (V : Valuation τ sig (Elt Ideal)) (A : K.Args)
    (h_arg8 : V (Proc.devRef .tc main_arg8) = A.a8) :
    after hostOps4_2 V (Proc.devRef .tc main_v236) = C_v236 (F := Ideal) (A.a8) :=
  ((show after hostOps4_2 V (Proc.devRef .tc main_v236) = C_v236 (F := Ideal) (V (Proc.devRef .tc main_arg8)) by
    kr_results
    rfl).trans (by rw [h_arg8]))

set_option maxHeartbeats 4000000 in
/-- The buffer `main_v188` after item 36, from contents that hold what the item reads: first as the item's function of
    those contents, then with their values put in, which is the named value. -/
theorem pr_v188 (V : Valuation τ sig (Elt Ideal)) (A : K.Args)
    (h_arg9 : V (Proc.devRef .tc main_arg9) = A.a9) :
    after hostOps4_2 V (Proc.devRef .tc main_v188) = K.P01_nW1 A :=
  ((show after hostOps4_2 V (Proc.devRef .tc main_v188) = C_v188 (F := Ideal) (V (Proc.devRef .tc main_arg9)) by
    kr_results
    rfl).trans (by rw [h_arg9])).trans
    (show C_v188 (F := Ideal) (A.a9) = K.P01_nW1 A from rfl)

set_option maxHeartbeats 4000000 in
/-- The buffer `main_v190` after item 36, from contents that hold what the item reads: first as the item's function of
    those contents, then with their values put in, which is the named value. -/
theorem pr_v190 (V : Valuation τ sig (Elt Ideal)) (A : K.Args)
    (h_arg10 : V (Proc.devRef .tc main_arg10) = A.a10) :
    after hostOps4_2 V (Proc.devRef .tc main_v190) = K.P01_nb1 A :=
  ((show after hostOps4_2 V (Proc.devRef .tc main_v190) = C_v190 (F := Ideal) (V (Proc.devRef .tc main_arg10)) by
    kr_results
    rfl).trans (by rw [h_arg10])).trans
    (show C_v190 (F := Ideal) (A.a10) = K.P01_nb1 A from rfl)

set_option maxHeartbeats 4000000 in
/-- The buffer `main_v178` after item 36, from contents that hold what the item reads: first as the item's function of
    those contents, then with their values put in, which is the named value. -/
theorem st_g2 (V : Valuation τ sig (Elt Ideal)) (A : K.Args)
    (h_v176 : V (Proc.devRef .tc main_v176) = C_v176 (F := Ideal) (C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A)))
    (h_v77 : V (Proc.devRef .tc main_v77) = K.P10_gW2 A)
    (h_v173 : V (Proc.devRef .tc main_v173) = C_v173 (F := Ideal) (K.P10_gb2 A)) :
    after hostOps4_2 V (Proc.devRef .tc main_v178) = K.g2 A :=
  ((show after hostOps4_2 V (Proc.devRef .tc main_v178) = C_v178 (F := Ideal) (V (Proc.devRef .tc main_v176)) (V (Proc.devRef .tc main_v77)) (V (Proc.devRef .tc main_v173)) by
    kr_results
    rfl).trans (by rw [h_v176, h_v77, h_v173])).trans
    (show C_v178 (F := Ideal) (C_v176 (F := Ideal) (C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A))) (K.P10_gW2 A) (C_v173 (F := Ideal) (K.P10_gb2 A)) = K.g2 A from rfl)

set_option maxHeartbeats 4000000 in
/-- The buffer `main_v194` after item 36, from contents that hold what the item reads: first as the item's function of
    those contents, then with their values put in, which is the named value. -/
theorem pr_v194 (V : Valuation τ sig (Elt Ideal)) (A : K.Args)
    (h_arg12 : V (Proc.devRef .tc main_arg12) = A.a12) :
    after hostOps4_2 V (Proc.devRef .tc main_v194) = K.P01_nb2 A :=
  ((show after hostOps4_2 V (Proc.devRef .tc main_v194) = C_v194 (F := Ideal) (V (Proc.devRef .tc main_arg12)) by
    kr_results
    rfl).trans (by rw [h_arg12])).trans
    (show C_v194 (F := Ideal) (A.a12) = K.P01_nb2 A from rfl)

set_option maxHeartbeats 4000000 in
/-- The buffer `main_v192` after item 36, from contents that hold what the item reads: first as the item's function of
    those contents, then with their values put in, which is the named value. -/
theorem pr_v192 (V : Valuation τ sig (Elt Ideal)) (A : K.Args)
    (h_arg11 : V (Proc.devRef .tc main_arg11) = A.a11) :
    after hostOps4_2 V (Proc.devRef .tc main_v192) = K.P01_nW2 A :=
  ((show after hostOps4_2 V (Proc.devRef .tc main_v192) = C_v192 (F := Ideal) (V (Proc.devRef .tc main_arg11)) by
    kr_results
    rfl).trans (by rw [h_arg11])).trans
    (show C_v192 (F := Ideal) (A.a11) = K.P01_nW2 A from rfl)

set_option maxHeartbeats 4000000 in
/-- The buffer `main_v198` after item 36, from contents that hold what the item reads: first as the item's function of
    those contents, then with their values put in, which is the named value. -/
theorem pr_v198 (V : Valuation τ sig (Elt Ideal)) (A : K.Args)
    (h_arg14 : V (Proc.devRef .tc main_arg14) = A.a14) :
    after hostOps4_2 V (Proc.devRef .tc main_v198) = K.P01_gb1 A :=
  ((show after hostOps4_2 V (Proc.devRef .tc main_v198) = C_v198 (F := Ideal) (V (Proc.devRef .tc main_arg14)) by
    kr_results
    rfl).trans (by rw [h_arg14])).trans
    (show C_v198 (F := Ideal) (A.a14) = K.P01_gb1 A from rfl)

set_option maxHeartbeats 4000000 in
/-- The buffer `main_v202` after item 36, from contents that hold what the item reads: first as the item's function of
    those contents, then with their values put in, which is the named value. -/
theorem pr_v202 (V : Valuation τ sig (Elt Ideal)) (A : K.Args)
    (h_arg16 : V (Proc.devRef .tc main_arg16) = A.a16) :
    after hostOps4_2 V (Proc.devRef .tc main_v202) = K.P01_gb2 A :=
  ((show after hostOps4_2 V (Proc.devRef .tc main_v202) = C_v202 (F := Ideal) (V (Proc.devRef .tc main_arg16)) by
    kr_results
    rfl).trans (by rw [h_arg16])).trans
    (show C_v202 (F := Ideal) (A.a16) = K.P01_gb2 A from rfl)

set_option maxHeartbeats 4000000 in
/-- The buffer `main_v196` after item 36, from contents that hold what the item reads: first as the item's function of
    those contents, then with their values put in, which is the named value. -/
theorem pr_v196 (V : Valuation τ sig (Elt Ideal)) (A : K.Args)
    (h_arg13 : V (Proc.devRef .tc main_arg13) = A.a13) :
    after hostOps4_2 V (Proc.devRef .tc main_v196) = K.P01_gW1 A :=
  ((show after hostOps4_2 V (Proc.devRef .tc main_v196) = C_v196 (F := Ideal) (V (Proc.devRef .tc main_arg13)) by
    kr_results
    rfl).trans (by rw [h_arg13])).trans
    (show C_v196 (F := Ideal) (A.a13) = K.P01_gW1 A from rfl)

set_option maxHeartbeats 4000000 in
/-- The buffer `main_v200` after item 36, from contents that hold what the item reads: first as the item's function of
    those contents, then with their values put in, which is the named value. -/
theorem pr_v200 (V : Valuation τ sig (Elt Ideal)) (A : K.Args)
    (h_arg15 : V (Proc.devRef .tc main_arg15) = A.a15) :
    after hostOps4_2 V (Proc.devRef .tc main_v200) = K.P01_gW2 A :=
  ((show after hostOps4_2 V (Proc.devRef .tc main_v200) = C_v200 (F := Ideal) (V (Proc.devRef .tc main_arg15)) by
    kr_results
    rfl).trans (by rw [h_arg15])).trans
    (show C_v200 (F := Ideal) (A.a15) = K.P01_gW2 A from rfl)

set_option maxHeartbeats 4000000 in
/-- The buffer `main_v204` after item 36, from contents that hold what the item reads: first as the item's function of
    those contents, then with their values put in, which is the named value. -/
theorem pr_v204 (V : Valuation τ sig (Elt Ideal)) (A : K.Args)
    (h_arg5 : V (Proc.devRef .tc main_arg5) = A.a5) :
    after hostOps4_2 V (Proc.devRef .tc main_v204) = K.P11_eW1 A :=
  ((show after hostOps4_2 V (Proc.devRef .tc main_v204) = C_v204 (F := Ideal) (V (Proc.devRef .tc main_arg5)) by
    kr_results
    rfl).trans (by rw [h_arg5])).trans
    (show C_v204 (F := Ideal) (A.a5) = K.P11_eW1 A from rfl)

set_option maxHeartbeats 4000000 in
/-- The buffer `main_v206` after item 36, from contents that hold what the item reads: first as the item's function of
    those contents, then with their values put in, which is the named value. -/
theorem pr_v206 (V : Valuation τ sig (Elt Ideal)) (A : K.Args)
    (h_arg6 : V (Proc.devRef .tc main_arg6) = A.a6) :
    after hostOps4_2 V (Proc.devRef .tc main_v206) = K.P11_eb1 A :=
  ((show after hostOps4_2 V (Proc.devRef .tc main_v206) = C_v206 (F := Ideal) (V (Proc.devRef .tc main_arg6)) by
    kr_results
    rfl).trans (by rw [h_arg6])).trans
    (show C_v206 (F := Ideal) (A.a6) = K.P11_eb1 A from rfl)

set_option maxHeartbeats 4000000 in
/-- The buffer `main_v210` after item 36, from contents that hold what the item reads: first as the item's function of
    those contents, then with their values put in, which is the named value. -/
theorem pr_v210 (V : Valuation τ sig (Elt Ideal)) (A : K.Args)
    (h_arg8 : V (Proc.devRef .tc main_arg8) = A.a8) :
    after hostOps4_2 V (Proc.devRef .tc main_v210) = K.P11_eb2 A :=
  ((show after hostOps4_2 V (Proc.devRef .tc main_v210) = C_v210 (F := Ideal) (V (Proc.devRef .tc main_arg8)) by
    kr_results
    rfl).trans (by rw [h_arg8])).trans
    (show C_v210 (F := Ideal) (A.a8) = K.P11_eb2 A from rfl)

set_option maxHeartbeats 4000000 in
/-- The buffer `main_v208` after item 36, from contents that hold what the item reads: first as the item's function of
    those contents, then with their values put in, which is the named value. -/
theorem pr_v208 (V : Valuation τ sig (Elt Ideal)) (A : K.Args)
    (h_arg7 : V (Proc.devRef .tc main_arg7) = A.a7) :
    after hostOps4_2 V (Proc.devRef .tc main_v208) = K.P11_eW2 A :=
  ((show after hostOps4_2 V (Proc.devRef .tc main_v208) = C_v208 (F := Ideal) (V (Proc.devRef .tc main_arg7)) by
    kr_results
    rfl).trans (by rw [h_arg7])).trans
    (show C_v208 (F := Ideal) (A.a7) = K.P11_eW2 A from rfl)

set_option maxHeartbeats 4000000 in
/-- The buffer `main_v212` after item 36, from contents that hold what the item reads: first as the item's function of
    those contents, then with their values put in, which is the named value. -/
theorem pr_v212 (V : Valuation τ sig (Elt Ideal)) (A : K.Args)
    (h_arg9 : V (Proc.devRef .tc main_arg9) = A.a9) :
    after hostOps4_2 V (Proc.devRef .tc main_v212) = K.P11_nW1 A :=
  ((show after hostOps4_2 V (Proc.devRef .tc main_v212) = C_v212 (F := Ideal) (V (Proc.devRef .tc main_arg9)) by
    kr_results
    rfl).trans (by rw [h_arg9])).trans
    (show C_v212 (F := Ideal) (A.a9) = K.P11_nW1 A from rfl)

set_option maxHeartbeats 4000000 in
/-- The buffer `main_v214` after item 36, from contents that hold what the item reads: first as the item's function of
    those contents, then with their values put in, which is the named value. -/
theorem pr_v214 (V : Valuation τ sig (Elt Ideal)) (A : K.Args)
    (h_arg10 : V (Proc.devRef .tc main_arg10) = A.a10) :
    after hostOps4_2 V (Proc.devRef .tc main_v214) = K.P11_nb1 A :=
  ((show after hostOps4_2 V (Proc.devRef .tc main_v214) = C_v214 (F := Ideal) (V (Proc.devRef .tc main_arg10)) by
    kr_results
    rfl).trans (by rw [h_arg10])).trans
    (show C_v214 (F := Ideal) (A.a10) = K.P11_nb1 A from rfl)

set_option maxHeartbeats 4000000 in
/-- The buffer `main_v218` after item 36, from contents that hold what the item reads: first as the item's function of
    those contents, then with their values put in, which is the named value. -/
theorem pr_v218 (V : Valuation τ sig (Elt Ideal)) (A : K.Args)
    (h_arg12 : V (Proc.devRef .tc main_arg12) = A.a12) :
    after hostOps4_2 V (Proc.devRef .tc main_v218) = K.P11_nb2 A :=
  ((show after hostOps4_2 V (Proc.devRef .tc main_v218) = C_v218 (F := Ideal) (V (Proc.devRef .tc main_arg12)) by
    kr_results
    rfl).trans (by rw [h_arg12])).trans
    (show C_v218 (F := Ideal) (A.a12) = K.P11_nb2 A from rfl)

set_option maxHeartbeats 4000000 in
/-- The buffer `main_v216` after item 36, from contents that hold what the item reads: first as the item's function of
    those contents, then with their values put in, which is the named value. -/
theorem pr_v216 (V : Valuation τ sig (Elt Ideal)) (A : K.Args)
    (h_arg11 : V (Proc.devRef .tc main_arg11) = A.a11) :
    after hostOps4_2 V (Proc.devRef .tc main_v216) = K.P11_nW2 A :=
  ((show after hostOps4_2 V (Proc.devRef .tc main_v216) = C_v216 (F := Ideal) (V (Proc.devRef .tc main_arg11)) by
    kr_results
    rfl).trans (by rw [h_arg11])).trans
    (show C_v216 (F := Ideal) (A.a11) = K.P11_nW2 A from rfl)

set_option maxHeartbeats 4000000 in
/-- The buffer `main_v222` after item 36, from contents that hold what the item reads: first as the item's function of
    those contents, then with their values put in, which is the named value. -/
theorem pr_v222 (V : Valuation τ sig (Elt Ideal)) (A : K.Args)
    (h_arg14 : V (Proc.devRef .tc main_arg14) = A.a14) :
    after hostOps4_2 V (Proc.devRef .tc main_v222) = K.P11_gb1 A :=
  ((show after hostOps4_2 V (Proc.devRef .tc main_v222) = C_v222 (F := Ideal) (V (Proc.devRef .tc main_arg14)) by
    kr_results
    rfl).trans (by rw [h_arg14])).trans
    (show C_v222 (F := Ideal) (A.a14) = K.P11_gb1 A from rfl)

set_option maxHeartbeats 4000000 in
/-- The buffer `main_v226` after item 36, from contents that hold what the item reads: first as the item's function of
    those contents, then with their values put in, which is the named value. -/
theorem pr_v226 (V : Valuation τ sig (Elt Ideal)) (A : K.Args)
    (h_arg16 : V (Proc.devRef .tc main_arg16) = A.a16) :
    after hostOps4_2 V (Proc.devRef .tc main_v226) = K.P11_gb2 A :=
  ((show after hostOps4_2 V (Proc.devRef .tc main_v226) = C_v226 (F := Ideal) (V (Proc.devRef .tc main_arg16)) by
    kr_results
    rfl).trans (by rw [h_arg16])).trans
    (show C_v226 (F := Ideal) (A.a16) = K.P11_gb2 A from rfl)

set_option maxHeartbeats 4000000 in
/-- The buffer `main_v220` after item 36, from contents that hold what the item reads: first as the item's function of
    those contents, then with their values put in, which is the named value. -/
theorem pr_v220 (V : Valuation τ sig (Elt Ideal)) (A : K.Args)
    (h_arg13 : V (Proc.devRef .tc main_arg13) = A.a13) :
    after hostOps4_2 V (Proc.devRef .tc main_v220) = K.P11_gW1 A :=
  ((show after hostOps4_2 V (Proc.devRef .tc main_v220) = C_v220 (F := Ideal) (V (Proc.devRef .tc main_arg13)) by
    kr_results
    rfl).trans (by rw [h_arg13])).trans
    (show C_v220 (F := Ideal) (A.a13) = K.P11_gW1 A from rfl)

set_option maxHeartbeats 4000000 in
/-- The buffer `main_v224` after item 36, from contents that hold what the item reads: first as the item's function of
    those contents, then with their values put in, which is the named value. -/
theorem pr_v224 (V : Valuation τ sig (Elt Ideal)) (A : K.Args)
    (h_arg15 : V (Proc.devRef .tc main_arg15) = A.a15) :
    after hostOps4_2 V (Proc.devRef .tc main_v224) = K.P11_gW2 A :=
  ((show after hostOps4_2 V (Proc.devRef .tc main_v224) = C_v224 (F := Ideal) (V (Proc.devRef .tc main_arg15)) by
    kr_results
    rfl).trans (by rw [h_arg15])).trans
    (show C_v224 (F := Ideal) (A.a15) = K.P11_gW2 A from rfl)

set_option maxHeartbeats 4000000 in
/-- The buffer `main_v227` after item 36, from contents that hold what the item reads: first as the item's function of
    those contents, then with their values put in, which is the named value. -/
theorem st_lin1 (V : Valuation τ sig (Elt Ideal)) (A : K.Args)
    (h_v94 : V (Proc.devRef .tc main_v94) = K.le1 A)
    (h_arg3 : V (Proc.devRef .tc main_arg3) = A.a3) :
    after hostOps4_2 V (Proc.devRef .tc main_v227) = K.lin1 A :=
  ((show after hostOps4_2 V (Proc.devRef .tc main_v227) = C_v227 (F := Ideal) (V (Proc.devRef .tc main_v94)) (V (Proc.devRef .tc main_arg3)) by
    kr_results
    rfl).trans (by rw [h_v94, h_arg3])).trans
    (show C_v227 (F := Ideal) (K.le1 A) (A.a3) = K.lin1 A from rfl)

end Cert.Val.KRead

end
-- ==== Proof.Val.KReadH6.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 37 … 53

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_v237` after item 37, from contents that hold what the item reads: first as the item's function of
    those contents, then with their values put in. -/
theorem rd_v237 (V : Valuation τ sig (Elt Ideal)) (A : K.Args)
    (h_v26 : V (Proc.devRef .tc main_v26) = C_v26 (F := Ideal) (C_v25 (F := Ideal) (K.lr A) (A.a0)))
    (h_c_29 : V (Proc.devRef .tc main_c_29) = C_c_29) :
    after k_hostOps4_3 V (Proc.devRef .tc main_v237) = C_v237 (F := Ideal) (C_v26 (F := Ideal) (C_v25 (F := Ideal) (K.lr A) (A.a0))) (C_c_29) :=
  ((show after k_hostOps4_3 V (Proc.devRef .tc main_v237) = C_v237 (F := Ideal) (V (Proc.devRef .tc main_v26)) (V (Proc.devRef .tc main_c_29)) by
    kr_results
    rfl).trans (by rw [h_v26, h_c_29]))

set_option maxHeartbeats 4000000 in
/-- The buffer `main_c_30` after item 38, from contents that hold what the item reads: first as the item's function of
    those contents, then with their values put in. -/
theorem rd_c_30 (V : Valuation τ sig (Elt Ideal)) (A : K.Args) :
    after hostOps4_4 V (Proc.devRef .tc main_c_30) = C_c_30 :=
  (show after hostOps4_4 V (Proc.devRef .tc main_c_30) = C_c_30 by
    kr_results
    rfl)

set_option maxHeartbeats 4000000 in
/-- The buffer `main_v238` after item 39, from contents that hold what the item reads: first as the item's function of
    those contents, then with their values put in. -/
theorem rd_v238 (V : Valuation τ sig (Elt Ideal)) (A : K.Args)
    (h_v28 : V (Proc.devRef .tc main_v28) = C_v28 (F := Ideal) (C_v27 (F := Ideal) (K.lc A) (A.a0)))
    (h_c_30 : V (Proc.devRef .tc main_c_30) = C_c_30) :
    after k_hostOps4_5 V (Proc.devRef .tc main_v238) = C_v238 (F := Ideal) (C_v28 (F := Ideal) (C_v27 (F := Ideal) (K.lc A) (A.a0))) (C_c_30) :=
  ((show after k_hostOps4_5 V (Proc.devRef .tc main_v238) = C_v238 (F := Ideal) (V (Proc.devRef .tc main_v28)) (V (Proc.devRef .tc main_c_30)) by
    kr_results
    rfl).trans (by rw [h_v28, h_c_30]))

set_option maxHeartbeats 4000000 in
/-- The buffer `main_c_31` after item 40, from contents that hold what the item reads: first as the item's function of
    those contents, then with their values put in. -/
theorem rd_c_31 (V : Valuation τ sig (Elt Ideal)) (A : K.Args) :
    after hostOps4_6 V (Proc.devRef .tc main_c_31) = C_c_31 :=
  (show after hostOps4_6 V (Proc.devRef .tc main_c_31) = C_c_31 by
    kr_results
    rfl)

set_option maxHeartbeats 4000000 in
/-- The buffer `main_v239` after item 41, from contents that hold what the item reads: first as the item's function of
    those contents, then with their values put in. -/
theorem rd_v239 (V : Valuation τ sig (Elt Ideal)) (A : K.Args)
    (h_v228 : V (Proc.devRef .tc main_v228) = C_v228 (F := Ideal) (K.le1 A) (A.a3))
    (h_c_31 : V (Proc.devRef .tc main_c_31) = C_c_31) :
    after k_hostOps4_7 V (Proc.devRef .tc main_v239) = C_v239 (F := Ideal) (C_v228 (F := Ideal) (K.le1 A) (A.a3)) (C_c_31) :=
  ((show after k_hostOps4_7 V (Proc.devRef .tc main_v239) = C_v239 (F := Ideal) (V (Proc.devRef .tc main_v228)) (V (Proc.devRef .tc main_c_31)) by
    kr_results
    rfl).trans (by rw [h_v228, h_c_31]))

set_option maxHeartbeats 4000000 in
/-- The buffer `main_c_33` after item 43, from contents that hold what the item reads: first as the item's function of
    those contents, then with their values put in. -/
theorem rd_c_33 (V : Valuation τ sig (Elt Ideal)) (A : K.Args) :
    after hostOps5 V (Proc.devRef .tc main_c_33) = C_c_33 :=
  (show after hostOps5 V (Proc.devRef .tc main_c_33) = C_c_33 by
    kr_results
    rfl)

set_option maxHeartbeats 4000000 in
/-- The buffer `main_v246` after item 43, from contents that hold what the item reads: first as the item's function of
    those contents, then with their values put in, which is the named value. -/
theorem st_la2 (V : Valuation τ sig (Elt Ideal)) (A : K.Args)
    (h_v1 : V (Proc.devRef .tc main_v1) = K.lr A)
    (h_v240 : V (Proc.devRef .tc main_v240) = K.edgeFn (C_v237 (F := Ideal) (C_v26 (F := Ideal) (C_v25 (F := Ideal) (K.lr A) (A.a0))) (C_c_29)) (C_v238 (F := Ideal) (C_v28 (F := Ideal) (C_v27 (F := Ideal) (K.lc A) (A.a0))) (C_c_30)) (C_v239 (F := Ideal) (C_v228 (F := Ideal) (K.le1 A) (A.a3)) (C_c_31)) (C_v230 (F := Ideal) (A.a5)) (C_v231 (F := Ideal) (A.a5)) (C_v232 (F := Ideal) (A.a5)) (C_v235 (F := Ideal) (A.a6) (C_v176 (F := Ideal) (C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A))) (K.P10_gW2 A) (C_v173 (F := Ideal) (K.P10_gb2 A)) (A.a5)) (K.P01_eW2 A) (C_v236 (F := Ideal) (A.a8)))
    (h_v16 : V (Proc.devRef .tc main_v16) = C_v16 (F := Ideal) (A.a1)) :
    after hostOps5 V (Proc.devRef .tc main_v246) = K.la2 A :=
  ((show after hostOps5 V (Proc.devRef .tc main_v246) = C_v246 (F := Ideal) (V (Proc.devRef .tc main_v1)) (V (Proc.devRef .tc main_v240)) (V (Proc.devRef .tc main_v16)) by
    kr_results
    rfl).trans (by rw [h_v1, h_v240, h_v16])).trans
    (show C_v246 (F := Ideal) (K.lr A) (K.edgeFn (C_v237 (F := Ideal) (C_v26 (F := Ideal) (C_v25 (F := Ideal) (K.lr A) (A.a0))) (C_c_29)) (C_v238 (F := Ideal) (C_v28 (F := Ideal) (C_v27 (F := Ideal) (K.lc A) (A.a0))) (C_c_30)) (C_v239 (F := Ideal) (C_v228 (F := Ideal) (K.le1 A) (A.a3)) (C_c_31)) (C_v230 (F := Ideal) (A.a5)) (C_v231 (F := Ideal) (A.a5)) (C_v232 (F := Ideal) (A.a5)) (C_v235 (F := Ideal) (A.a6) (C_v176 (F := Ideal) (C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A))) (K.P10_gW2 A) (C_v173 (F := Ideal) (K.P10_gb2 A)) (A.a5)) (K.P01_eW2 A) (C_v236 (F := Ideal) (A.a8))) (C_v16 (F := Ideal) (A.a1)) = K.la2 A from rfl)

set_option maxHeartbeats 4000000 in
/-- The buffer `main_v248` after item 43, from contents that hold what the item reads: first as the item's function of
    those contents, then with their values put in. -/
theorem rd_v248 (V : Valuation τ sig (Elt Ideal)) (A : K.Args)
    (h_v188 : V (Proc.devRef .tc main_v188) = K.P01_nW1 A) :
    after hostOps5 V (Proc.devRef .tc main_v248) = C_v248 (F := Ideal) (K.P01_nW1 A) :=
  ((show after hostOps5 V (Proc.devRef .tc main_v248) = C_v248 (F := Ideal) (V (Proc.devRef .tc main_v188)) by
    kr_results
    rfl).trans (by rw [h_v188]))

set_option maxHeartbeats 4000000 in
/-- The buffer `main_v249` after item 43, from contents that hold what the item reads: first as the item's function of
    those contents, then with their values put in. -/
theorem rd_v249 (V : Valuation τ sig (Elt Ideal)) (A : K.Args)
    (h_v188 : V (Proc.devRef .tc main_v188) = K.P01_nW1 A) :
    after hostOps5 V (Proc.devRef .tc main_v249) = C_v249 (F := Ideal) (K.P01_nW1 A) :=
  ((show after hostOps5 V (Proc.devRef .tc main_v249) = C_v249 (F := Ideal) (V (Proc.devRef .tc main_v188)) by
    kr_results
    rfl).trans (by rw [h_v188]))

set_option maxHeartbeats 4000000 in
/-- The buffer `main_v252` after item 43, from contents that hold what the item reads: first as the item's function of
    those contents, then with their values put in. -/
theorem rd_v252 (V : Valuation τ sig (Elt Ideal)) (A : K.Args)
    (h_v190 : V (Proc.devRef .tc main_v190) = K.P01_nb1 A)
    (h_v178 : V (Proc.devRef .tc main_v178) = K.g2 A)
    (h_v188 : V (Proc.devRef .tc main_v188) = K.P01_nW1 A) :
    after hostOps5 V (Proc.devRef .tc main_v252) = C_v252 (F := Ideal) (K.P01_nb1 A) (K.g2 A) (K.P01_nW1 A) :=
  ((show after hostOps5 V (Proc.devRef .tc main_v252) = C_v252 (F := Ideal) (V (Proc.devRef .tc main_v190)) (V (Proc.devRef .tc main_v178)) (V (Proc.devRef .tc main_v188)) by
    kr_results
    rfl).trans (by rw [h_v190, h_v178, h_v188]))

set_option maxHeartbeats 4000000 in
/-- The buffer `main_v253` after item 43, from contents that hold what the item reads: first as the item's function of
    those contents, then with their values put in. -/
theorem rd_v253 (V : Valuation τ sig (Elt Ideal)) (A : K.Args)
    (h_v194 : V (Proc.devRef .tc main_v194) = K.P01_nb2 A) :
    after hostOps5 V (Proc.devRef .tc main_v253) = C_v253 (F := Ideal) (K.P01_nb2 A) :=
  ((show after hostOps5 V (Proc.devRef .tc main_v253) = C_v253 (F := Ideal) (V (Proc.devRef .tc main_v194)) by
    kr_results
    rfl).trans (by rw [h_v194]))

set_option maxHeartbeats 4000000 in
/-- The buffer `main_v241` after item 43, from contents that hold what the item reads: first as the item's function of
    those contents, then with their values put in, which is the named value. -/
theorem st_le2 (V : Valuation τ sig (Elt Ideal)) (A : K.Args)
    (h_v240 : V (Proc.devRef .tc main_v240) = K.edgeFn (C_v237 (F := Ideal) (C_v26 (F := Ideal) (C_v25 (F := Ideal) (K.lr A) (A.a0))) (C_c_29)) (C_v238 (F := Ideal) (C_v28 (F := Ideal) (C_v27 (F := Ideal) (K.lc A) (A.a0))) (C_c_30)) (C_v239 (F := Ideal) (C_v228 (F := Ideal) (K.le1 A) (A.a3)) (C_c_31)) (C_v230 (F := Ideal) (A.a5)) (C_v231 (F := Ideal) (A.a5)) (C_v232 (F := Ideal) (A.a5)) (C_v235 (F := Ideal) (A.a6) (C_v176 (F := Ideal) (C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A))) (K.P10_gW2 A) (C_v173 (F := Ideal) (K.P10_gb2 A)) (A.a5)) (K.P01_eW2 A) (C_v236 (F := Ideal) (A.a8))) :
    after hostOps5 V (Proc.devRef .tc main_v241) = K.le2 A :=
  ((show after hostOps5 V (Proc.devRef .tc main_v241) = C_v241 (F := Ideal) (V (Proc.devRef .tc main_v240)) by
    kr_results
    rfl).trans (by rw [h_v240])).trans
    (show C_v241 (F := Ideal) (K.edgeFn (C_v237 (F := Ideal) (C_v26 (F := Ideal) (C_v25 (F := Ideal) (K.lr A) (A.a0))) (C_c_29)) (C_v238 (F := Ideal) (C_v28 (F := Ideal) (C_v27 (F := Ideal) (K.lc A) (A.a0))) (C_c_30)) (C_v239 (F := Ideal) (C_v228 (F := Ideal) (K.le1 A) (A.a3)) (C_c_31)) (C_v230 (F := Ideal) (A.a5)) (C_v231 (F := Ideal) (A.a5)) (C_v232 (F := Ideal) (A.a5)) (C_v235 (F := Ideal) (A.a6) (C_v176 (F := Ideal) (C_v175 (F := Ideal) (K.nodeFn (C_v159 (F := Ideal) (C_v128 (F := Ideal) (K.ln1 A)) (C_c_23)) (C_v160 (F := Ideal) (K.ua1 A) (C_c_24)) (C_v153 (F := Ideal) (K.P10_nW1 A)) (C_v154 (F := Ideal) (K.P10_nW1 A)) (C_v157 (F := Ideal) (K.P10_nb1 A) (K.g1 A) (K.P10_nW1 A)) (K.P10_nW2 A) (C_v158 (F := Ideal) (K.P10_nb2 A))) (K.ue1 A) (K.g1 A) (K.P10_gW1 A) (K.P10_gb1 A))) (K.P10_gW2 A) (C_v173 (F := Ideal) (K.P10_gb2 A)) (A.a5)) (K.P01_eW2 A) (C_v236 (F := Ideal) (A.a8))) = K.le2 A from rfl)

set_option maxHeartbeats 4000000 in
/-- The buffer `main_v254` after item 44, from contents that hold what the item reads: first as the item's function of
    those contents, then with their values put in. -/
theorem rd_v254 (V : Valuation τ sig (Elt Ideal)) (A : K.Args)
    (h_v24 : V (Proc.devRef .tc main_v24) = C_v24 (F := Ideal) (A.a0))
    (h_c_33 : V (Proc.devRef .tc main_c_33) = C_c_33) :
    after k_hostOps5_1 V (Proc.devRef .tc main_v254) = C_v254 (F := Ideal) (C_v24 (F := Ideal) (A.a0)) (C_c_33) :=
  ((show after k_hostOps5_1 V (Proc.devRef .tc main_v254) = C_v254 (F := Ideal) (V (Proc.devRef .tc main_v24)) (V (Proc.devRef .tc main_c_33)) by
    kr_results
    rfl).trans (by rw [h_v24, h_c_33]))

set_option maxHeartbeats 4000000 in
/-- The buffer `main_c_34` after item 45, from contents that hold what the item reads: first as the item's function of
    those contents, then with their values put in. -/
theorem rd_c_34 (V : Valuation τ sig (Elt Ideal)) (A : K.Args) :
    after hostOps5_2 V (Proc.devRef .tc main_c_34) = C_c_34 :=
  (show after hostOps5_2 V (Proc.devRef .tc main_c_34) = C_c_34 by
    kr_results
    rfl)

set_option maxHeartbeats 4000000 in
/-- The buffer `main_v255` after item 46, from contents that hold what the item reads: first as the item's function of
    those contents, then with their values put in. -/
theorem rd_v255 (V : Valuation τ sig (Elt Ideal)) (A : K.Args)
    (h_v246 : V (Proc.devRef .tc main_v246) = K.la2 A)
    (h_c_34 : V (Proc.devRef .tc main_c_34) = C_c_34) :
    after k_hostOps5_3 V (Proc.devRef .tc main_v255) = C_v255 (F := Ideal) (K.la2 A) (C_c_34) :=
  ((show after k_hostOps5_3 V (Proc.devRef .tc main_v255) = C_v255 (F := Ideal) (V (Proc.devRef .tc main_v246)) (V (Proc.devRef .tc main_c_34)) by
    kr_results
    rfl).trans (by rw [h_v246, h_c_34]))

set_option maxHeartbeats 4000000 in
/-- The buffer `main_v270` after item 48, from contents that hold what the item reads: first as the item's function of
    those contents, then with their values put in. -/
theorem rd_v270 (V : Valuation τ sig (Elt Ideal)) (A : K.Args)
    (h_v256 : V (Proc.devRef .tc main_v256) = K.nodeFn (C_v254 (F := Ideal) (C_v24 (F := Ideal) (A.a0)) (C_c_33)) (C_v255 (F := Ideal) (K.la2 A) (C_c_34)) (C_v248 (F := Ideal) (K.P01_nW1 A)) (C_v249 (F := Ideal) (K.P01_nW1 A)) (C_v252 (F := Ideal) (K.P01_nb1 A) (K.g2 A) (K.P01_nW1 A)) (K.P01_nW2 A) (C_v253 (F := Ideal) (K.P01_nb2 A)))
    (h_v241 : V (Proc.devRef .tc main_v241) = K.le2 A)
    (h_v178 : V (Proc.devRef .tc main_v178) = K.g2 A)
    (h_v196 : V (Proc.devRef .tc main_v196) = K.P01_gW1 A)
    (h_v198 : V (Proc.devRef .tc main_v198) = K.P01_gb1 A) :
    after hostOps6 V (Proc.devRef .tc main_v270) = C_v270 (F := Ideal) (K.nodeFn (C_v254 (F := Ideal) (C_v24 (F := Ideal) (A.a0)) (C_c_33)) (C_v255 (F := Ideal) (K.la2 A) (C_c_34)) (C_v248 (F := Ideal) (K.P01_nW1 A)) (C_v249 (F := Ideal) (K.P01_nW1 A)) (C_v252 (F := Ideal) (K.P01_nb1 A) (K.g2 A) (K.P01_nW1 A)) (K.P01_nW2 A) (C_v253 (F := Ideal) (K.P01_nb2 A))) (K.le2 A) (K.g2 A) (K.P01_gW1 A) (K.P01_gb1 A) :=
  ((show after hostOps6 V (Proc.devRef .tc main_v270) = C_v270 (F := Ideal) (V (Proc.devRef .tc main_v256)) (V (Proc.devRef .tc main_v241)) (V (Proc.devRef .tc main_v178)) (V (Proc.devRef .tc main_v196)) (V (Proc.devRef .tc main_v198)) by
    kr_results
    rfl).trans (by rw [h_v256, h_v241, h_v178, h_v196, h_v198]))

set_option maxHeartbeats 4000000 in
/-- The buffer `main_v268` after item 48, from contents that hold what the item reads: first as the item's function of
    those contents, then with their values put in. -/
theorem rd_v268 (V : Valuation τ sig (Elt Ideal)) (A : K.Args)
    (h_v202 : V (Proc.devRef .tc main_v202) = K.P01_gb2 A) :
    after hostOps6 V (Proc.devRef .tc main_v268) = C_v268 (F := Ideal) (K.P01_gb2 A) :=
  ((show after hostOps6 V (Proc.devRef .tc main_v268) = C_v268 (F := Ideal) (V (Proc.devRef .tc main_v202)) by
    kr_results
    rfl).trans (by rw [h_v202]))

set_option maxHeartbeats 4000000 in
/-- The buffer `main_v257` after item 48, from contents that hold what the item reads: first as the item's function of
    those contents, then with their values put in, which is the named value. -/
theorem st_ln2 (V : Valuation τ sig (Elt Ideal)) (A : K.Args)
    (h_v256 : V (Proc.devRef .tc main_v256) = K.nodeFn (C_v254 (F := Ideal) (C_v24 (F := Ideal) (A.a0)) (C_c_33)) (C_v255 (F := Ideal) (K.la2 A) (C_c_34)) (C_v248 (F := Ideal) (K.P01_nW1 A)) (C_v249 (F := Ideal) (K.P01_nW1 A)) (C_v252 (F := Ideal) (K.P01_nb1 A) (K.g2 A) (K.P01_nW1 A)) (K.P01_nW2 A) (C_v253 (F := Ideal) (K.P01_nb2 A))) :
    after hostOps6 V (Proc.devRef .tc main_v257) = K.ln2 A :=
  ((show after hostOps6 V (Proc.devRef .tc main_v257) = C_v257 (F := Ideal) (V (Proc.devRef .tc main_v256)) by
    kr_results
    rfl).trans (by rw [h_v256])).trans
    (show C_v257 (F := Ideal) (K.nodeFn (C_v254 (F := Ideal) (C_v24 (F := Ideal) (A.a0)) (C_c_33)) (C_v255 (F := Ideal) (K.la2 A) (C_c_34)) (C_v248 (F := Ideal) (K.P01_nW1 A)) (C_v249 (F := Ideal) (K.P01_nW1 A)) (C_v252 (F := Ideal) (K.P01_nb1 A) (K.g2 A) (K.P01_nW1 A)) (K.P01_nW2 A) (C_v253 (F := Ideal) (K.P01_nb2 A))) = K.ln2 A from rfl)

set_option maxHeartbeats 4000000 in
/-- The buffer `main_v271` after item 49, from contents that hold what the item reads: first as the item's function of
    those contents, then with their values put in. -/
theorem rd_v271 (V : Valuation τ sig (Elt Ideal)) (A : K.Args)
    (h_v270 : V (Proc.devRef .tc main_v270) = C_v270 (F := Ideal) (K.nodeFn (C_v254 (F := Ideal) (C_v24 (F := Ideal) (A.a0)) (C_c_33)) (C_v255 (F := Ideal) (K.la2 A) (C_c_34)) (C_v248 (F := Ideal) (K.P01_nW1 A)) (C_v249 (F := Ideal) (K.P01_nW1 A)) (C_v252 (F := Ideal) (K.P01_nb1 A) (K.g2 A) (K.P01_nW1 A)) (K.P01_nW2 A) (C_v253 (F := Ideal) (K.P01_nb2 A))) (K.le2 A) (K.g2 A) (K.P01_gW1 A) (K.P01_gb1 A)) :
    after k_hostOps6_1 V (Proc.devRef .tc main_v271) = C_v271 (F := Ideal) (C_v270 (F := Ideal) (K.nodeFn (C_v254 (F := Ideal) (C_v24 (F := Ideal) (A.a0)) (C_c_33)) (C_v255 (F := Ideal) (K.la2 A) (C_c_34)) (C_v248 (F := Ideal) (K.P01_nW1 A)) (C_v249 (F := Ideal) (K.P01_nW1 A)) (C_v252 (F := Ideal) (K.P01_nb1 A) (K.g2 A) (K.P01_nW1 A)) (K.P01_nW2 A) (C_v253 (F := Ideal) (K.P01_nb2 A))) (K.le2 A) (K.g2 A) (K.P01_gW1 A) (K.P01_gb1 A)) :=
  ((show after k_hostOps6_1 V (Proc.devRef .tc main_v271) = C_v271 (F := Ideal) (V (Proc.devRef .tc main_v270)) by
    kr_results
    rfl).trans (by rw [h_v270]))

set_option maxHeartbeats 4000000 in
/-- The buffer `main_v274` after item 50, from contents that hold what the item reads: first as the item's function of
    those contents, then with their values put in, which is the named value. -/
theorem st_uin1 (V : Valuation τ sig (Elt Ideal)) (A : K.Args)
    (h_v146 : V (Proc.devRef .tc main_v146) = K.ue1 A)
    (h_v31 : V (Proc.devRef .tc main_v31) = K.zcol) :
    after hostOps6_2 V (Proc.devRef .tc main_v274) = K.uin1 A :=
  ((show after hostOps6_2 V (Proc.devRef .tc main_v274) = C_v274 (F := Ideal) (V (Proc.devRef .tc main_v146)) (V (Proc.devRef .tc main_v31)) by
    kr_results
    rfl).trans (by rw [h_v146, h_v31])).trans
    (show C_v274 (F := Ideal) (K.ue1 A) (K.zcol) = K.uin1 A from rfl)

set_option maxHeartbeats 4000000 in
/-- The buffer `main_v273` after item 50, from contents that hold what the item reads: first as the item's function of
    those contents, then with their values put in, which is the named value. -/
theorem st_g3 (V : Valuation τ sig (Elt Ideal)) (A : K.Args)
    (h_v271 : V (Proc.devRef .tc main_v271) = C_v271 (F := Ideal) (C_v270 (F := Ideal) (K.nodeFn (C_v254 (F := Ideal) (C_v24 (F := Ideal) (A.a0)) (C_c_33)) (C_v255 (F := Ideal) (K.la2 A) (C_c_34)) (C_v248 (F := Ideal) (K.P01_nW1 A)) (C_v249 (F := Ideal) (K.P01_nW1 A)) (C_v252 (F := Ideal) (K.P01_nb1 A) (K.g2 A) (K.P01_nW1 A)) (K.P01_nW2 A) (C_v253 (F := Ideal) (K.P01_nb2 A))) (K.le2 A) (K.g2 A) (K.P01_gW1 A) (K.P01_gb1 A)))
    (h_v200 : V (Proc.devRef .tc main_v200) = K.P01_gW2 A)
    (h_v268 : V (Proc.devRef .tc main_v268) = C_v268 (F := Ideal) (K.P01_gb2 A)) :
    after hostOps6_2 V (Proc.devRef .tc main_v273) = K.g3 A :=
  ((show after hostOps6_2 V (Proc.devRef .tc main_v273) = C_v273 (F := Ideal) (V (Proc.devRef .tc main_v271)) (V (Proc.devRef .tc main_v200)) (V (Proc.devRef .tc main_v268)) by
    kr_results
    rfl).trans (by rw [h_v271, h_v200, h_v268])).trans
    (show C_v273 (F := Ideal) (C_v271 (F := Ideal) (C_v270 (F := Ideal) (K.nodeFn (C_v254 (F := Ideal) (C_v24 (F := Ideal) (A.a0)) (C_c_33)) (C_v255 (F := Ideal) (K.la2 A) (C_c_34)) (C_v248 (F := Ideal) (K.P01_nW1 A)) (C_v249 (F := Ideal) (K.P01_nW1 A)) (C_v252 (F := Ideal) (K.P01_nb1 A) (K.g2 A) (K.P01_nW1 A)) (K.P01_nW2 A) (C_v253 (F := Ideal) (K.P01_nb2 A))) (K.le2 A) (K.g2 A) (K.P01_gW1 A) (K.P01_gb1 A))) (K.P01_gW2 A) (C_v268 (F := Ideal) (K.P01_gb2 A)) = K.g3 A from rfl)

set_option maxHeartbeats 4000000 in
/-- The buffer `main_v275` after item 50, from contents that hold what the item reads: first as the item's function of
    those contents, then with their values put in. -/
theorem rd_v275 (V : Valuation τ sig (Elt Ideal)) (A : K.Args)
    (h_v257 : V (Proc.devRef .tc main_v257) = K.ln2 A) :
    after hostOps6_2 V (Proc.devRef .tc main_v275) = C_v275 (F := Ideal) (K.ln2 A) :=
  ((show after hostOps6_2 V (Proc.devRef .tc main_v275) = C_v275 (F := Ideal) (V (Proc.devRef .tc main_v257)) by
    kr_results
    rfl).trans (by rw [h_v257]))

set_option maxHeartbeats 4000000 in
/-- The buffer `main_v276` after item 51, from contents that hold what the item reads: first as the item's function of
    those contents, then with their values put in. -/
theorem rd_v276 (V : Valuation τ sig (Elt Ideal)) (A : K.Args)
    (h_v5 : V (Proc.devRef .tc main_v5) = K.ur A)
    (h_v257 : V (Proc.devRef .tc main_v257) = K.ln2 A) :
    after k_hostOps6_3 V (Proc.devRef .tc main_v276) = C_v276 (F := Ideal) (K.ur A) (K.ln2 A) :=
  ((show after k_hostOps6_3 V (Proc.devRef .tc main_v276) = C_v276 (F := Ideal) (V (Proc.devRef .tc main_v5)) (V (Proc.devRef .tc main_v257)) by
    kr_results
    rfl).trans (by rw [h_v5, h_v257]))

set_option maxHeartbeats 4000000 in
/-- The buffer `main_v277` after item 52, from contents that hold what the item reads: first as the item's function of
    those contents, then with their values put in. -/
theorem rd_v277 (V : Valuation τ sig (Elt Ideal)) (A : K.Args)
    (h_v276 : V (Proc.devRef .tc main_v276) = C_v276 (F := Ideal) (K.ur A) (K.ln2 A)) :
    after hostOps6_4 V (Proc.devRef .tc main_v277) = C_v277 (F := Ideal) (C_v276 (F := Ideal) (K.ur A) (K.ln2 A)) :=
  ((show after hostOps6_4 V (Proc.devRef .tc main_v277) = C_v277 (F := Ideal) (V (Proc.devRef .tc main_v276)) by
    kr_results
    rfl).trans (by rw [h_v276]))

set_option maxHeartbeats 4000000 in
/-- The buffer `main_v278` after item 53, from contents that hold what the item reads: first as the item's function of
    those contents, then with their values put in. -/
theorem rd_v278 (V : Valuation τ sig (Elt Ideal)) (A : K.Args)
    (h_v7 : V (Proc.devRef .tc main_v7) = K.uc A)
    (h_v257 : V (Proc.devRef .tc main_v257) = K.ln2 A) :
    after k_hostOps6_5 V (Proc.devRef .tc main_v278) = C_v278 (F := Ideal) (K.uc A) (K.ln2 A) :=
  ((show after k_hostOps6_5 V (Proc.devRef .tc main_v278) = C_v278 (F := Ideal) (V (Proc.devRef .tc main_v7)) (V (Proc.devRef .tc main_v257)) by
    kr_results
    rfl).trans (by rw [h_v7, h_v257]))

end Cert.Val.KRead

end
-- ==== Proof.Val.KReadH7.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 54 … 64

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_c_39` after item 54, from contents that hold what the item reads: first as the item's function of
    those contents, then with their values put in. -/
theorem rd_c_39 (V : Valuation τ sig (Elt Ideal)) (A : K.Args) :
    after hostOps6_6 V (Proc.devRef .tc main_c_39) = C_c_39 :=
  (show after hostOps6_6 V (Proc.devRef .tc main_c_39) = C_c_39 by
    kr_results
    rfl)

set_option maxHeartbeats 4000000 in
/-- The buffer `main_v279` after item 54, from contents that hold what the item reads: first as the item's function of
    those contents, then with their values put in. -/
theorem rd_v279 (V : Valuation τ sig (Elt Ideal)) (A : K.Args)
    (h_v278 : V (Proc.devRef .tc main_v278) = C_v278 (F := Ideal) (K.uc A) (K.ln2 A)) :
    after hostOps6_6 V (Proc.devRef .tc main_v279) = C_v279 (F := Ideal) (C_v278 (F := Ideal) (K.uc A) (K.ln2 A)) :=
  ((show after hostOps6_6 V (Proc.devRef .tc main_v279) = C_v279 (F := Ideal) (V (Proc.devRef .tc main_v278)) by
    kr_results
    rfl).trans (by rw [h_v278]))

set_option maxHeartbeats 4000000 in
/-- The buffer `main_v280` after item 54, from contents that hold what the item reads: first as the item's function of
    those contents, then with their values put in. -/
theorem rd_v280 (V : Valuation τ sig (Elt Ideal)) (A : K.Args)
    (h_v274 : V (Proc.devRef .tc main_v274) = K.uin1 A) :
    after hostOps6_6 V (Proc.devRef .tc main_v280) = C_v280 (F := Ideal) (K.uin1 A) :=
  ((show after hostOps6_6 V (Proc.devRef .tc main_v280) = C_v280 (F := Ideal) (V (Proc.devRef .tc main_v274)) by
    kr_results
    rfl).trans (by rw [h_v274]))

set_option maxHeartbeats 4000000 in
/-- The buffer `main_v282` after item 54, from contents that hold what the item reads: first as the item's function of
    those contents, then with their values put in. -/
theorem rd_v282 (V : Valuation τ sig (Elt Ideal)) (A : K.Args)
    (h_v204 : V (Proc.devRef .tc main_v204) = K.P11_eW1 A) :
    after hostOps6_6 V (Proc.devRef .tc main_v282) = C_v282 (F := Ideal) (K.P11_eW1 A) :=
  ((show after hostOps6_6 V (Proc.devRef .tc main_v282) = C_v282 (F := Ideal) (V (Proc.devRef .tc main_v204)) by
    kr_results
    rfl).trans (by rw [h_v204]))

set_option maxHeartbeats 4000000 in
/-- The buffer `main_v283` after item 54, from contents that hold what the item reads: first as the item's function of
    those contents, then with their values put in. -/
theorem rd_v283 (V : Valuation τ sig (Elt Ideal)) (A : K.Args)
    (h_v204 : V (Proc.devRef .tc main_v204) = K.P11_eW1 A) :
    after hostOps6_6 V (Proc.devRef .tc main_v283) = C_v283 (F := Ideal) (K.P11_eW1 A) :=
  ((show after hostOps6_6 V (Proc.devRef .tc main_v283) = C_v283 (F := Ideal) (V (Proc.devRef .tc main_v204)) by
    kr_results
    rfl).trans (by rw [h_v204]))

set_option maxHeartbeats 4000000 in
/-- The buffer `main_v284` after item 54, from contents that hold what the item reads: first as the item's function of
    those contents, then with their values put in. -/
theorem rd_v284 (V : Valuation τ sig (Elt Ideal)) (A : K.Args)
    (h_v204 : V (Proc.devRef .tc main_v204) = K.P11_eW1 A) :
    after hostOps6_6 V (Proc.devRef .tc main_v284) = C_v284 (F := Ideal) (K.P11_eW1 A) :=
  ((show after hostOps6_6 V (Proc.devRef .tc main_v284) = C_v284 (F := Ideal) (V (Proc.devRef .tc main_v204)) by
    kr_results
    rfl).trans (by rw [h_v204]))

set_option maxHeartbeats 4000000 in
/-- The buffer `main_v287` after item 54, from contents that hold what the item reads: first as the item's function of
    those contents, then with their values put in. -/
theorem rd_v287 (V : Valuation τ sig (Elt Ideal)) (A : K.Args)
    (h_v206 : V (Proc.devRef .tc main_v206) = K.P11_eb1 A)
    (h_v273 : V (Proc.devRef .tc main_v273) = K.g3 A)
    (h_v204 : V (Proc.devRef .tc main_v204) = K.P11_eW1 A) :
    after hostOps6_6 V (Proc.devRef .tc main_v287) = C_v287 (F := Ideal) (K.P11_eb1 A) (K.g3 A) (K.P11_eW1 A) :=
  ((show after hostOps6_6 V (Proc.devRef .tc main_v287) = C_v287 (F := Ideal) (V (Proc.devRef .tc main_v206)) (V (Proc.devRef .tc main_v273)) (V (Proc.devRef .tc main_v204)) by
    kr_results
    rfl).trans (by rw [h_v206, h_v273, h_v204]))

set_option maxHeartbeats 4000000 in
/-- The buffer `main_v288` after item 54, from contents that hold what the item reads: first as the item's function of
    those contents, then with their values put in. -/
theorem rd_v288 (V : Valuation τ sig (Elt Ideal)) (A : K.Args)
    (h_v210 : V (Proc.devRef .tc main_v210) = K.P11_eb2 A) :
    after hostOps6_6 V (Proc.devRef .tc main_v288) = C_v288 (F := Ideal) (K.P11_eb2 A) :=
  ((show after hostOps6_6 V (Proc.devRef .tc main_v288) = C_v288 (F := Ideal) (V (Proc.devRef .tc main_v210)) by
    kr_results
    rfl).trans (by rw [h_v210]))

set_option maxHeartbeats 4000000 in
/-- The buffer `main_v289` after item 55, from contents that hold what the item reads: first as the item's function of
    those contents, then with their values put in. -/
theorem rd_v289 (V : Valuation τ sig (Elt Ideal)) (A : K.Args)
    (h_v277 : V (Proc.devRef .tc main_v277) = C_v277 (F := Ideal) (C_v276 (F := Ideal) (K.ur A) (K.ln2 A)))
    (h_c_39 : V (Proc.devRef .tc main_c_39) = C_c_39) :
    after k_hostOps6_7 V (Proc.devRef .tc main_v289) = C_v289 (F := Ideal) (C_v277 (F := Ideal) (C_v276 (F := Ideal) (K.ur A) (K.ln2 A))) (C_c_39) :=
  ((show after k_hostOps6_7 V (Proc.devRef .tc main_v289) = C_v289 (F := Ideal) (V (Proc.devRef .tc main_v277)) (V (Proc.devRef .tc main_c_39)) by
    kr_results
    rfl).trans (by rw [h_v277, h_c_39]))

set_option maxHeartbeats 4000000 in
/-- The buffer `main_c_40` after item 56, from contents that hold what the item reads: first as the item's function of
    those contents, then with their values put in. -/
theorem rd_c_40 (V : Valuation τ sig (Elt Ideal)) (A : K.Args) :
    after hostOps6_8 V (Proc.devRef .tc main_c_40) = C_c_40 :=
  (show after hostOps6_8 V (Proc.devRef .tc main_c_40) = C_c_40 by
    kr_results
    rfl)

set_option maxHeartbeats 4000000 in
/-- The buffer `main_v290` after item 57, from contents that hold what the item reads: first as the item's function of
    those contents, then with their values put in. -/
theorem rd_v290 (V : Valuation τ sig (Elt Ideal)) (A : K.Args)
    (h_v279 : V (Proc.devRef .tc main_v279) = C_v279 (F := Ideal) (C_v278 (F := Ideal) (K.uc A) (K.ln2 A)))
    (h_c_40 : V (Proc.devRef .tc main_c_40) = C_c_40) :
    after k_hostOps6_9 V (Proc.devRef .tc main_v290) = C_v290 (F := Ideal) (C_v279 (F := Ideal) (C_v278 (F := Ideal) (K.uc A) (K.ln2 A))) (C_c_40) :=
  ((show after k_hostOps6_9 V (Proc.devRef .tc main_v290) = C_v290 (F := Ideal) (V (Proc.devRef .tc main_v279)) (V (Proc.devRef .tc main_c_40)) by
    kr_results
    rfl).trans (by rw [h_v279, h_c_40]))

set_option maxHeartbeats 4000000 in
/-- The buffer `main_c_41` after item 58, from contents that hold what the item reads: first as the item's function of
    those contents, then with their values put in. -/
theorem rd_c_41 (V : Valuation τ sig (Elt Ideal)) (A : K.Args) :
    after hostOps6_10 V (Proc.devRef .tc main_c_41) = C_c_41 :=
  (show after hostOps6_10 V (Proc.devRef .tc main_c_41) = C_c_41 by
    kr_results
    rfl)

set_option maxHeartbeats 4000000 in
/-- The buffer `main_v291` after item 59, from contents that hold what the item reads: first as the item's function of
    those contents, then with their values put in. -/
theorem rd_v291 (V : Valuation τ sig (Elt Ideal)) (A : K.Args)
    (h_v280 : V (Proc.devRef .tc main_v280) = C_v280 (F := Ideal) (K.uin1 A))
    (h_c_41 : V (Proc.devRef .tc main_c_41) = C_c_41) :
    after k_hostOps6_11 V (Proc.devRef .tc main_v291) = C_v291 (F := Ideal) (C_v280 (F := Ideal) (K.uin1 A)) (C_c_41) :=
  ((show after k_hostOps6_11 V (Proc.devRef .tc main_v291) = C_v291 (F := Ideal) (V (Proc.devRef .tc main_v280)) (V (Proc.devRef .tc main_c_41)) by
    kr_results
    rfl).trans (by rw [h_v280, h_c_41]))

set_option maxHeartbeats 4000000 in
/-- The buffer `main_c_43` after item 61, from contents that hold what the item reads: first as the item's function of
    those contents, then with their values put in. -/
theorem rd_c_43 (V : Valuation τ sig (Elt Ideal)) (A : K.Args) :
    after hostOps7 V (Proc.devRef .tc main_c_43) = C_c_43 :=
  (show after hostOps7 V (Proc.devRef .tc main_c_43) = C_c_43 by
    kr_results
    rfl)

set_option maxHeartbeats 4000000 in
/-- The buffer `main_v298` after item 61, from contents that hold what the item reads: first as the item's function of
    those contents, then with their values put in, which is the named value. -/
theorem st_ua2 (V : Valuation τ sig (Elt Ideal)) (A : K.Args)
    (h_v5 : V (Proc.devRef .tc main_v5) = K.ur A)
    (h_v292 : V (Proc.devRef .tc main_v292) = K.edgeFn (C_v289 (F := Ideal) (C_v277 (F := Ideal) (C_v276 (F := Ideal) (K.ur A) (K.ln2 A))) (C_c_39)) (C_v290 (F := Ideal) (C_v279 (F := Ideal) (C_v278 (F := Ideal) (K.uc A) (K.ln2 A))) (C_c_40)) (C_v291 (F := Ideal) (C_v280 (F := Ideal) (K.uin1 A)) (C_c_41)) (C_v282 (F := Ideal) (K.P11_eW1 A)) (C_v283 (F := Ideal) (K.P11_eW1 A)) (C_v284 (F := Ideal) (K.P11_eW1 A)) (C_v287 (F := Ideal) (K.P11_eb1 A) (K.g3 A) (K.P11_eW1 A)) (K.P11_eW2 A) (C_v288 (F := Ideal) (K.P11_eb2 A)))
    (h_v23 : V (Proc.devRef .tc main_v23) = C_v23 (F := Ideal) (A.a2)) :
    after hostOps7 V (Proc.devRef .tc main_v298) = K.ua2 A :=
  ((show after hostOps7 V (Proc.devRef .tc main_v298) = C_v298 (F := Ideal) (V (Proc.devRef .tc main_v5)) (V (Proc.devRef .tc main_v292)) (V (Proc.devRef .tc main_v23)) by
    kr_results
    rfl).trans (by rw [h_v5, h_v292, h_v23])).trans
    (show C_v298 (F := Ideal) (K.ur A) (K.edgeFn (C_v289 (F := Ideal) (C_v277 (F := Ideal) (C_v276 (F := Ideal) (K.ur A) (K.ln2 A))) (C_c_39)) (C_v290 (F := Ideal) (C_v279 (F := Ideal) (C_v278 (F := Ideal) (K.uc A) (K.ln2 A))) (C_c_40)) (C_v291 (F := Ideal) (C_v280 (F := Ideal) (K.uin1 A)) (C_c_41)) (C_v282 (F := Ideal) (K.P11_eW1 A)) (C_v283 (F := Ideal) (K.P11_eW1 A)) (C_v284 (F := Ideal) (K.P11_eW1 A)) (C_v287 (F := Ideal) (K.P11_eb1 A) (K.g3 A) (K.P11_eW1 A)) (K.P11_eW2 A) (C_v288 (F := Ideal) (K.P11_eb2 A))) (C_v23 (F := Ideal) (A.a2)) = K.ua2 A from rfl)

set_option maxHeartbeats 4000000 in
/-- The buffer `main_v300` after item 61, from contents that hold what the item reads: first as the item's function of
    those contents, then with their values put in. -/
theorem rd_v300 (V : Valuation τ sig (Elt Ideal)) (A : K.Args)
    (h_v212 : V (Proc.devRef .tc main_v212) = K.P11_nW1 A) :
    after hostOps7 V (Proc.devRef .tc main_v300) = C_v300 (F := Ideal) (K.P11_nW1 A) :=
  ((show after hostOps7 V (Proc.devRef .tc main_v300) = C_v300 (F := Ideal) (V (Proc.devRef .tc main_v212)) by
    kr_results
    rfl).trans (by rw [h_v212]))

set_option maxHeartbeats 4000000 in
/-- The buffer `main_v301` after item 61, from contents that hold what the item reads: first as the item's function of
    those contents, then with their values put in. -/
theorem rd_v301 (V : Valuation τ sig (Elt Ideal)) (A : K.Args)
    (h_v212 : V (Proc.devRef .tc main_v212) = K.P11_nW1 A) :
    after hostOps7 V (Proc.devRef .tc main_v301) = C_v301 (F := Ideal) (K.P11_nW1 A) :=
  ((show after hostOps7 V (Proc.devRef .tc main_v301) = C_v301 (F := Ideal) (V (Proc.devRef .tc main_v212)) by
    kr_results
    rfl).trans (by rw [h_v212]))

set_option maxHeartbeats 4000000 in
/-- The buffer `main_v304` after item 61, from contents that hold what the item reads: first as the item's function of
    those contents, then with their values put in. -/
theorem rd_v304 (V : Valuation τ sig (Elt Ideal)) (A : K.Args)
    (h_v214 : V (Proc.devRef .tc main_v214) = K.P11_nb1 A)
    (h_v273 : V (Proc.devRef .tc main_v273) = K.g3 A)
    (h_v212 : V (Proc.devRef .tc main_v212) = K.P11_nW1 A) :
    after hostOps7 V (Proc.devRef .tc main_v304) = C_v304 (F := Ideal) (K.P11_nb1 A) (K.g3 A) (K.P11_nW1 A) :=
  ((show after hostOps7 V (Proc.devRef .tc main_v304) = C_v304 (F := Ideal) (V (Proc.devRef .tc main_v214)) (V (Proc.devRef .tc main_v273)) (V (Proc.devRef .tc main_v212)) by
    kr_results
    rfl).trans (by rw [h_v214, h_v273, h_v212]))

set_option maxHeartbeats 4000000 in
/-- The buffer `main_v305` after item 61, from contents that hold what the item reads: first as the item's function of
    those contents, then with their values put in. -/
theorem rd_v305 (V : Valuation τ sig (Elt Ideal)) (A : K.Args)
    (h_v218 : V (Proc.devRef .tc main_v218) = K.P11_nb2 A) :
    after hostOps7 V (Proc.devRef .tc main_v305) = C_v305 (F := Ideal) (K.P11_nb2 A) :=
  ((show after hostOps7 V (Proc.devRef .tc main_v305) = C_v305 (F := Ideal) (V (Proc.devRef .tc main_v218)) by
    kr_results
    rfl).trans (by rw [h_v218]))

set_option maxHeartbeats 4000000 in
/-- The buffer `main_v293` after item 61, from contents that hold what the item reads: first as the item's function of
    those contents, then with their values put in, which is the named value. -/
theorem st_ue2 (V : Valuation τ sig (Elt Ideal)) (A : K.Args)
    (h_v292 : V (Proc.devRef .tc main_v292) = K.edgeFn (C_v289 (F := Ideal) (C_v277 (F := Ideal) (C_v276 (F := Ideal) (K.ur A) (K.ln2 A))) (C_c_39)) (C_v290 (F := Ideal) (C_v279 (F := Ideal) (C_v278 (F := Ideal) (K.uc A) (K.ln2 A))) (C_c_40)) (C_v291 (F := Ideal) (C_v280 (F := Ideal) (K.uin1 A)) (C_c_41)) (C_v282 (F := Ideal) (K.P11_eW1 A)) (C_v283 (F := Ideal) (K.P11_eW1 A)) (C_v284 (F := Ideal) (K.P11_eW1 A)) (C_v287 (F := Ideal) (K.P11_eb1 A) (K.g3 A) (K.P11_eW1 A)) (K.P11_eW2 A) (C_v288 (F := Ideal) (K.P11_eb2 A))) :
    after hostOps7 V (Proc.devRef .tc main_v293) = K.ue2 A :=
  ((show after hostOps7 V (Proc.devRef .tc main_v293) = C_v293 (F := Ideal) (V (Proc.devRef .tc main_v292)) by
    kr_results
    rfl).trans (by rw [h_v292])).trans
    (show C_v293 (F := Ideal) (K.edgeFn (C_v289 (F := Ideal) (C_v277 (F := Ideal) (C_v276 (F := Ideal) (K.ur A) (K.ln2 A))) (C_c_39)) (C_v290 (F := Ideal) (C_v279 (F := Ideal) (C_v278 (F := Ideal) (K.uc A) (K.ln2 A))) (C_c_40)) (C_v291 (F := Ideal) (C_v280 (F := Ideal) (K.uin1 A)) (C_c_41)) (C_v282 (F := Ideal) (K.P11_eW1 A)) (C_v283 (F := Ideal) (K.P11_eW1 A)) (C_v284 (F := Ideal) (K.P11_eW1 A)) (C_v287 (F := Ideal) (K.P11_eb1 A) (K.g3 A) (K.P11_eW1 A)) (K.P11_eW2 A) (C_v288 (F := Ideal) (K.P11_eb2 A))) = K.ue2 A from rfl)

set_option maxHeartbeats 4000000 in
/-- The buffer `main_v306` after item 62, from contents that hold what the item reads: first as the item's function of
    those contents, then with their values put in. -/
theorem rd_v306 (V : Valuation τ sig (Elt Ideal)) (A : K.Args)
    (h_v275 : V (Proc.devRef .tc main_v275) = C_v275 (F := Ideal) (K.ln2 A))
    (h_c_43 : V (Proc.devRef .tc main_c_43) = C_c_43) :
    after k_hostOps7_1 V (Proc.devRef .tc main_v306) = C_v306 (F := Ideal) (C_v275 (F := Ideal) (K.ln2 A)) (C_c_43) :=
  ((show after k_hostOps7_1 V (Proc.devRef .tc main_v306) = C_v306 (F := Ideal) (V (Proc.devRef .tc main_v275)) (V (Proc.devRef .tc main_c_43)) by
    kr_results
    rfl).trans (by rw [h_v275, h_c_43]))

set_option maxHeartbeats 4000000 in
/-- The buffer `main_c_44` after item 63, from contents that hold what the item reads: first as the item's function of
    those contents, then with their values put in. -/
theorem rd_c_44 (V : Valuation τ sig (Elt Ideal)) (A : K.Args) :
    after hostOps7_2 V (Proc.devRef .tc main_c_44) = C_c_44 :=
  (show after hostOps7_2 V (Proc.devRef .tc main_c_44) = C_c_44 by
    kr_results
    rfl)

set_option maxHeartbeats 4000000 in
/-- The buffer `main_v307` after item 64, from contents that hold what the item reads: first as the item's function of
    those contents, then with their values put in. -/
theorem rd_v307 (V : Valuation τ sig (Elt Ideal)) (A : K.Args)
    (h_v298 : V (Proc.devRef .tc main_v298) = K.ua2 A)
    (h_c_44 : V (Proc.devRef .tc main_c_44) = C_c_44) :
    after k_hostOps7_3 V (Proc.devRef .tc main_v307) = C_v307 (F := Ideal) (K.ua2 A) (C_c_44) :=
  ((show after k_hostOps7_3 V (Proc.devRef .tc main_v307) = C_v307 (F := Ideal) (V (Proc.devRef .tc main_v298)) (V (Proc.devRef .tc main_c_44)) by
    kr_results
    rfl).trans (by rw [h_v298, h_c_44]))

end Cert.Val.KRead

end
-- ==== Proof.Val.KReadH8.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 66 … 67

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_v322` after item 66, from contents that hold what the item reads: first as the item's function of
    those contents, then with their values put in. -/
theorem rd_v322 (V : Valuation τ sig (Elt Ideal)) (A : K.Args)
    (h_v308 : V (Proc.devRef .tc main_v308) = K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A)))
    (h_v293 : V (Proc.devRef .tc main_v293) = K.ue2 A)
    (h_v273 : V (Proc.devRef .tc main_v273) = K.g3 A)
    (h_v220 : V (Proc.devRef .tc main_v220) = K.P11_gW1 A)
    (h_v222 : V (Proc.devRef .tc main_v222) = K.P11_gb1 A) :
    after hostOps8 V (Proc.devRef .tc main_v322) = C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A) :=
  ((show after hostOps8 V (Proc.devRef .tc main_v322) = C_v322 (F := Ideal) (V (Proc.devRef .tc main_v308)) (V (Proc.devRef .tc main_v293)) (V (Proc.devRef .tc main_v273)) (V (Proc.devRef .tc main_v220)) (V (Proc.devRef .tc main_v222)) by
    kr_results
    rfl).trans (by rw [h_v308, h_v293, h_v273, h_v220, h_v222]))

set_option maxHeartbeats 4000000 in
/-- The buffer `main_v320` after item 66, from contents that hold what the item reads: first as the item's function of
    those contents, then with their values put in. -/
theorem rd_v320 (V : Valuation τ sig (Elt Ideal)) (A : K.Args)
    (h_v226 : V (Proc.devRef .tc main_v226) = K.P11_gb2 A) :
    after hostOps8 V (Proc.devRef .tc main_v320) = C_v320 (F := Ideal) (K.P11_gb2 A) :=
  ((show after hostOps8 V (Proc.devRef .tc main_v320) = C_v320 (F := Ideal) (V (Proc.devRef .tc main_v226)) by
    kr_results
    rfl).trans (by rw [h_v226]))

set_option maxHeartbeats 4000000 in
/-- The buffer `main_v309` after item 66, from contents that hold what the item reads: first as the item's function of
    those contents, then with their values put in, which is the named value. -/
theorem st_un2 (V : Valuation τ sig (Elt Ideal)) (A : K.Args)
    (h_v308 : V (Proc.devRef .tc main_v308) = K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) :
    after hostOps8 V (Proc.devRef .tc main_v309) = K.un2 A :=
  ((show after hostOps8 V (Proc.devRef .tc main_v309) = C_v309 (F := Ideal) (V (Proc.devRef .tc main_v308)) by
    kr_results
    rfl).trans (by rw [h_v308])).trans
    (show C_v309 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) = K.un2 A from rfl)

set_option maxHeartbeats 4000000 in
/-- The buffer `main_v323` after item 67, from contents that hold what the item reads: first as the item's function of
    those contents, then with their values put in. -/
theorem rd_v323 (V : Valuation τ sig (Elt Ideal)) (A : K.Args)
    (h_v322 : V (Proc.devRef .tc main_v322) = C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A)) :
    after k_hostOps8_1 V (Proc.devRef .tc main_v323) = C_v323 (F := Ideal) (C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A)) :=
  ((show after k_hostOps8_1 V (Proc.devRef .tc main_v323) = C_v323 (F := Ideal) (V (Proc.devRef .tc main_v322)) by
    kr_results
    rfl).trans (by rw [h_v322]))

end Cert.Val.KRead

end
-- ==== Proof.Val.KReadH9.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 68 … 68

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_c_49` after item 68, from contents that hold what the item reads: first as the item's function of
    those contents, then with their values put in. -/
theorem rd_c_49 (V : Valuation τ sig (Elt Ideal)) (A : K.Args) :
    after hostOps8_2 V (Proc.devRef .tc main_c_49) = C_c_49 :=
  (show after hostOps8_2 V (Proc.devRef .tc main_c_49) = C_c_49 by
    kr_results
    rfl)

set_option maxHeartbeats 4000000 in
/-- The buffer `main_v375` after item 68, from contents that hold what the item reads: first as the item's function of
    those contents, then with their values put in. -/
theorem rd_v375 (V : Valuation τ sig (Elt Ideal)) (A : K.Args)
    (h_v241 : V (Proc.devRef .tc main_v241) = K.le2 A)
    (h_arg3 : V (Proc.devRef .tc main_arg3) = A.a3) :
    after hostOps8_2 V (Proc.devRef .tc main_v375) = C_v375 (F := Ideal) (K.le2 A) (A.a3) :=
  ((show after hostOps8_2 V (Proc.devRef .tc main_v375) = C_v375 (F := Ideal) (V (Proc.devRef .tc main_v241)) (V (Proc.devRef .tc main_arg3)) by
    kr_results
    rfl).trans (by rw [h_v241, h_arg3]))

set_option maxHeartbeats 4000000 in
/-- The buffer `main_v377` after item 68, from contents that hold what the item reads: first as the item's function of
    those contents, then with their values put in. -/
theorem rd_v377 (V : Valuation τ sig (Elt Ideal)) (A : K.Args)
    (h_arg5 : V (Proc.devRef .tc main_arg5) = A.a5) :
    after hostOps8_2 V (Proc.devRef .tc main_v377) = C_v377 (F := Ideal) (A.a5) :=
  ((show after hostOps8_2 V (Proc.devRef .tc main_v377) = C_v377 (F := Ideal) (V (Proc.devRef .tc main_arg5)) by
    kr_results
    rfl).trans (by rw [h_arg5]))

set_option maxHeartbeats 4000000 in
/-- The buffer `main_v378` after item 68, from contents that hold what the item reads: first as the item's function of
    those contents, then with their values put in. -/
theorem rd_v378 (V : Valuation τ sig (Elt Ideal)) (A : K.Args)
    (h_arg5 : V (Proc.devRef .tc main_arg5) = A.a5) :
    after hostOps8_2 V (Proc.devRef .tc main_v378) = C_v378 (F := Ideal) (A.a5) :=
  ((show after hostOps8_2 V (Proc.devRef .tc main_v378) = C_v378 (F := Ideal) (V (Proc.devRef .tc main_arg5)) by
    kr_results
    rfl).trans (by rw [h_arg5]))

set_option maxHeartbeats 4000000 in
/-- The buffer `main_v379` after item 68, from contents that hold what the item reads: first as the item's function of
    those contents, then with their values put in. -/
theorem rd_v379 (V : Valuation τ sig (Elt Ideal)) (A : K.Args)
    (h_arg5 : V (Proc.devRef .tc main_arg5) = A.a5) :
    after hostOps8_2 V (Proc.devRef .tc main_v379) = C_v379 (F := Ideal) (A.a5) :=
  ((show after hostOps8_2 V (Proc.devRef .tc main_v379) = C_v379 (F := Ideal) (V (Proc.devRef .tc main_arg5)) by
    kr_results
    rfl).trans (by rw [h_arg5]))

set_option maxHeartbeats 4000000 in
/-- The buffer `main_v382` after item 68, from contents that hold what the item reads: first as the item's function of
    those contents, then with their values put in. -/
theorem rd_v382 (V : Valuation τ sig (Elt Ideal)) (A : K.Args)
    (h_arg6 : V (Proc.devRef .tc main_arg6) = A.a6)
    (h_v323 : V (Proc.devRef .tc main_v323) = C_v323 (F := Ideal) (C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A)))
    (h_v224 : V (Proc.devRef .tc main_v224) = K.P11_gW2 A)
    (h_v320 : V (Proc.devRef .tc main_v320) = C_v320 (F := Ideal) (K.P11_gb2 A))
    (h_arg5 : V (Proc.devRef .tc main_arg5) = A.a5) :
    after hostOps8_2 V (Proc.devRef .tc main_v382) = C_v382 (F := Ideal) (A.a6) (C_v323 (F := Ideal) (C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A))) (K.P11_gW2 A) (C_v320 (F := Ideal) (K.P11_gb2 A)) (A.a5) :=
  ((show after hostOps8_2 V (Proc.devRef .tc main_v382) = C_v382 (F := Ideal) (V (Proc.devRef .tc main_arg6)) (V (Proc.devRef .tc main_v323)) (V (Proc.devRef .tc main_v224)) (V (Proc.devRef .tc main_v320)) (V (Proc.devRef .tc main_arg5)) by
    kr_results
    rfl).trans (by rw [h_arg6, h_v323, h_v224, h_v320, h_arg5]))

set_option maxHeartbeats 4000000 in
/-- The buffer `main_v331` after item 68, from contents that hold what the item reads: first as the item's function of
    those contents, then with their values put in, which is the named value. -/
theorem pr_v331 (V : Valuation τ sig (Elt Ideal)) (A : K.Args)
    (h_arg7 : V (Proc.devRef .tc main_arg7) = A.a7) :
    after hostOps8_2 V (Proc.devRef .tc main_v331) = K.P02_eW2 A :=
  ((show after hostOps8_2 V (Proc.devRef .tc main_v331) = C_v331 (F := Ideal) (V (Proc.devRef .tc main_arg7)) by
    kr_results
    rfl).trans (by rw [h_arg7])).trans
    (show C_v331 (F := Ideal) (A.a7) = K.P02_eW2 A from rfl)

set_option maxHeartbeats 4000000 in
/-- The buffer `main_v383` after item 68, from contents that hold what the item reads: first as the item's function of
    those contents, then with their values put in. -/
theorem rd_v383 (V : Valuation τ sig (Elt Ideal)) (A : K.Args)
    (h_arg8 : V (Proc.devRef .tc main_arg8) = A.a8) :
    after hostOps8_2 V (Proc.devRef .tc main_v383) = C_v383 (F := Ideal) (A.a8) :=
  ((show after hostOps8_2 V (Proc.devRef .tc main_v383) = C_v383 (F := Ideal) (V (Proc.devRef .tc main_arg8)) by
    kr_results
    rfl).trans (by rw [h_arg8]))

set_option maxHeartbeats 4000000 in
/-- The buffer `main_v335` after item 68, from contents that hold what the item reads: first as the item's function of
    those contents, then with their values put in, which is the named value. -/
theorem pr_v335 (V : Valuation τ sig (Elt Ideal)) (A : K.Args)
    (h_arg9 : V (Proc.devRef .tc main_arg9) = A.a9) :
    after hostOps8_2 V (Proc.devRef .tc main_v335) = K.P02_nW1 A :=
  ((show after hostOps8_2 V (Proc.devRef .tc main_v335) = C_v335 (F := Ideal) (V (Proc.devRef .tc main_arg9)) by
    kr_results
    rfl).trans (by rw [h_arg9])).trans
    (show C_v335 (F := Ideal) (A.a9) = K.P02_nW1 A from rfl)

set_option maxHeartbeats 4000000 in
/-- The buffer `main_v337` after item 68, from contents that hold what the item reads: first as the item's function of
    those contents, then with their values put in, which is the named value. -/
theorem pr_v337 (V : Valuation τ sig (Elt Ideal)) (A : K.Args)
    (h_arg10 : V (Proc.devRef .tc main_arg10) = A.a10) :
    after hostOps8_2 V (Proc.devRef .tc main_v337) = K.P02_nb1 A :=
  ((show after hostOps8_2 V (Proc.devRef .tc main_v337) = C_v337 (F := Ideal) (V (Proc.devRef .tc main_arg10)) by
    kr_results
    rfl).trans (by rw [h_arg10])).trans
    (show C_v337 (F := Ideal) (A.a10) = K.P02_nb1 A from rfl)

set_option maxHeartbeats 4000000 in
/-- The buffer `main_v325` after item 68, from contents that hold what the item reads: first as the item's function of
    those contents, then with their values put in, which is the named value. -/
theorem st_g4 (V : Valuation τ sig (Elt Ideal)) (A : K.Args)
    (h_v323 : V (Proc.devRef .tc main_v323) = C_v323 (F := Ideal) (C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A)))
    (h_v224 : V (Proc.devRef .tc main_v224) = K.P11_gW2 A)
    (h_v320 : V (Proc.devRef .tc main_v320) = C_v320 (F := Ideal) (K.P11_gb2 A)) :
    after hostOps8_2 V (Proc.devRef .tc main_v325) = K.g4 A :=
  ((show after hostOps8_2 V (Proc.devRef .tc main_v325) = C_v325 (F := Ideal) (V (Proc.devRef .tc main_v323)) (V (Proc.devRef .tc main_v224)) (V (Proc.devRef .tc main_v320)) by
    kr_results
    rfl).trans (by rw [h_v323, h_v224, h_v320])).trans
    (show C_v325 (F := Ideal) (C_v323 (F := Ideal) (C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A))) (K.P11_gW2 A) (C_v320 (F := Ideal) (K.P11_gb2 A)) = K.g4 A from rfl)

set_option maxHeartbeats 4000000 in
/-- The buffer `main_v341` after item 68, from contents that hold what the item reads: first as the item's function of
    those contents, then with their values put in, which is the named value. -/
theorem pr_v341 (V : Valuation τ sig (Elt Ideal)) (A : K.Args)
    (h_arg12 : V (Proc.devRef .tc main_arg12) = A.a12) :
    after hostOps8_2 V (Proc.devRef .tc main_v341) = K.P02_nb2 A :=
  ((show after hostOps8_2 V (Proc.devRef .tc main_v341) = C_v341 (F := Ideal) (V (Proc.devRef .tc main_arg12)) by
    kr_results
    rfl).trans (by rw [h_arg12])).trans
    (show C_v341 (F := Ideal) (A.a12) = K.P02_nb2 A from rfl)

set_option maxHeartbeats 4000000 in
/-- The buffer `main_v339` after item 68, from contents that hold what the item reads: first as the item's function of
    those contents, then with their values put in, which is the named value. -/
theorem pr_v339 (V : Valuation τ sig (Elt Ideal)) (A : K.Args)
    (h_arg11 : V (Proc.devRef .tc main_arg11) = A.a11) :
    after hostOps8_2 V (Proc.devRef .tc main_v339) = K.P02_nW2 A :=
  ((show after hostOps8_2 V (Proc.devRef .tc main_v339) = C_v339 (F := Ideal) (V (Proc.devRef .tc main_arg11)) by
    kr_results
    rfl).trans (by rw [h_arg11])).trans
    (show C_v339 (F := Ideal) (A.a11) = K.P02_nW2 A from rfl)

set_option maxHeartbeats 4000000 in
/-- The buffer `main_v345` after item 68, from contents that hold what the item reads: first as the item's function of
    those contents, then with their values put in, which is the named value. -/
theorem pr_v345 (V : Valuation τ sig (Elt Ideal)) (A : K.Args)
    (h_arg14 : V (Proc.devRef .tc main_arg14) = A.a14) :
    after hostOps8_2 V (Proc.devRef .tc main_v345) = K.P02_gb1 A :=
  ((show after hostOps8_2 V (Proc.devRef .tc main_v345) = C_v345 (F := Ideal) (V (Proc.devRef .tc main_arg14)) by
    kr_results
    rfl).trans (by rw [h_arg14])).trans
    (show C_v345 (F := Ideal) (A.a14) = K.P02_gb1 A from rfl)

set_option maxHeartbeats 4000000 in
/-- The buffer `main_v349` after item 68, from contents that hold what the item reads: first as the item's function of
    those contents, then with their values put in, which is the named value. -/
theorem pr_v349 (V : Valuation τ sig (Elt Ideal)) (A : K.Args)
    (h_arg16 : V (Proc.devRef .tc main_arg16) = A.a16) :
    after hostOps8_2 V (Proc.devRef .tc main_v349) = K.P02_gb2 A :=
  ((show after hostOps8_2 V (Proc.devRef .tc main_v349) = C_v349 (F := Ideal) (V (Proc.devRef .tc main_arg16)) by
    kr_results
    rfl).trans (by rw [h_arg16])).trans
    (show C_v349 (F := Ideal) (A.a16) = K.P02_gb2 A from rfl)

set_option maxHeartbeats 4000000 in
/-- The buffer `main_v343` after item 68, from contents that hold what the item reads: first as the item's function of
    those contents, then with their values put in, which is the named value. -/
theorem pr_v343 (V : Valuation τ sig (Elt Ideal)) (A : K.Args)
    (h_arg13 : V (Proc.devRef .tc main_arg13) = A.a13) :
    after hostOps8_2 V (Proc.devRef .tc main_v343) = K.P02_gW1 A :=
  ((show after hostOps8_2 V (Proc.devRef .tc main_v343) = C_v343 (F := Ideal) (V (Proc.devRef .tc main_arg13)) by
    kr_results
    rfl).trans (by rw [h_arg13])).trans
    (show C_v343 (F := Ideal) (A.a13) = K.P02_gW1 A from rfl)

set_option maxHeartbeats 4000000 in
/-- The buffer `main_v347` after item 68, from contents that hold what the item reads: first as the item's function of
    those contents, then with their values put in, which is the named value. -/
theorem pr_v347 (V : Valuation τ sig (Elt Ideal)) (A : K.Args)
    (h_arg15 : V (Proc.devRef .tc main_arg15) = A.a15) :
    after hostOps8_2 V (Proc.devRef .tc main_v347) = K.P02_gW2 A :=
  ((show after hostOps8_2 V (Proc.devRef .tc main_v347) = C_v347 (F := Ideal) (V (Proc.devRef .tc main_arg15)) by
    kr_results
    rfl).trans (by rw [h_arg15])).trans
    (show C_v347 (F := Ideal) (A.a15) = K.P02_gW2 A from rfl)

set_option maxHeartbeats 4000000 in
/-- The buffer `main_v351` after item 68, from contents that hold what the item reads: first as the item's function of
    those contents, then with their values put in, which is the named value. -/
theorem pr_v351 (V : Valuation τ sig (Elt Ideal)) (A : K.Args)
    (h_arg5 : V (Proc.devRef .tc main_arg5) = A.a5) :
    after hostOps8_2 V (Proc.devRef .tc main_v351) = K.P12_eW1 A :=
  ((show after hostOps8_2 V (Proc.devRef .tc main_v351) = C_v351 (F := Ideal) (V (Proc.devRef .tc main_arg5)) by
    kr_results
    rfl).trans (by rw [h_arg5])).trans
    (show C_v351 (F := Ideal) (A.a5) = K.P12_eW1 A from rfl)

set_option maxHeartbeats 4000000 in
/-- The buffer `main_v353` after item 68, from contents that hold what the item reads: first as the item's function of
    those contents, then with their values put in, which is the named value. -/
theorem pr_v353 (V : Valuation τ sig (Elt Ideal)) (A : K.Args)
    (h_arg6 : V (Proc.devRef .tc main_arg6) = A.a6) :
    after hostOps8_2 V (Proc.devRef .tc main_v353) = K.P12_eb1 A :=
  ((show after hostOps8_2 V (Proc.devRef .tc main_v353) = C_v353 (F := Ideal) (V (Proc.devRef .tc main_arg6)) by
    kr_results
    rfl).trans (by rw [h_arg6])).trans
    (show C_v353 (F := Ideal) (A.a6) = K.P12_eb1 A from rfl)

set_option maxHeartbeats 4000000 in
/-- The buffer `main_v357` after item 68, from contents that hold what the item reads: first as the item's function of
    those contents, then with their values put in, which is the named value. -/
theorem pr_v357 (V : Valuation τ sig (Elt Ideal)) (A : K.Args)
    (h_arg8 : V (Proc.devRef .tc main_arg8) = A.a8) :
    after hostOps8_2 V (Proc.devRef .tc main_v357) = K.P12_eb2 A :=
  ((show after hostOps8_2 V (Proc.devRef .tc main_v357) = C_v357 (F := Ideal) (V (Proc.devRef .tc main_arg8)) by
    kr_results
    rfl).trans (by rw [h_arg8])).trans
    (show C_v357 (F := Ideal) (A.a8) = K.P12_eb2 A from rfl)

set_option maxHeartbeats 4000000 in
/-- The buffer `main_v355` after item 68, from contents that hold what the item reads: first as the item's function of
    those contents, then with their values put in, which is the named value. -/
theorem pr_v355 (V : Valuation τ sig (Elt Ideal)) (A : K.Args)
    (h_arg7 : V (Proc.devRef .tc main_arg7) = A.a7) :
    after hostOps8_2 V (Proc.devRef .tc main_v355) = K.P12_eW2 A :=
  ((show after hostOps8_2 V (Proc.devRef .tc main_v355) = C_v355 (F := Ideal) (V (Proc.devRef .tc main_arg7)) by
    kr_results
    rfl).trans (by rw [h_arg7])).trans
    (show C_v355 (F := Ideal) (A.a7) = K.P12_eW2 A from rfl)

set_option maxHeartbeats 4000000 in
/-- The buffer `main_v359` after item 68, from contents that hold what the item reads: first as the item's function of
    those contents, then with their values put in, which is the named value. -/
theorem pr_v359 (V : Valuation τ sig (Elt Ideal)) (A : K.Args)
    (h_arg9 : V (Proc.devRef .tc main_arg9) = A.a9) :
    after hostOps8_2 V (Proc.devRef .tc main_v359) = K.P12_nW1 A :=
  ((show after hostOps8_2 V (Proc.devRef .tc main_v359) = C_v359 (F := Ideal) (V (Proc.devRef .tc main_arg9)) by
    kr_results
    rfl).trans (by rw [h_arg9])).trans
    (show C_v359 (F := Ideal) (A.a9) = K.P12_nW1 A from rfl)

set_option maxHeartbeats 4000000 in
/-- The buffer `main_v361` after item 68, from contents that hold what the item reads: first as the item's function of
    those contents, then with their values put in, which is the named value. -/
theorem pr_v361 (V : Valuation τ sig (Elt Ideal)) (A : K.Args)
    (h_arg10 : V (Proc.devRef .tc main_arg10) = A.a10) :
    after hostOps8_2 V (Proc.devRef .tc main_v361) = K.P12_nb1 A :=
  ((show after hostOps8_2 V (Proc.devRef .tc main_v361) = C_v361 (F := Ideal) (V (Proc.devRef .tc main_arg10)) by
    kr_results
    rfl).trans (by rw [h_arg10])).trans
    (show C_v361 (F := Ideal) (A.a10) = K.P12_nb1 A from rfl)

set_option maxHeartbeats 4000000 in
/-- The buffer `main_v365` after item 68, from contents that hold what the item reads: first as the item's function of
    those contents, then with their values put in, which is the named value. -/
theorem pr_v365 (V : Valuation τ sig (Elt Ideal)) (A : K.Args)
    (h_arg12 : V (Proc.devRef .tc main_arg12) = A.a12) :
    after hostOps8_2 V (Proc.devRef .tc main_v365) = K.P12_nb2 A :=
  ((show after hostOps8_2 V (Proc.devRef .tc main_v365) = C_v365 (F := Ideal) (V (Proc.devRef .tc main_arg12)) by
    kr_results
    rfl).trans (by rw [h_arg12])).trans
    (show C_v365 (F := Ideal) (A.a12) = K.P12_nb2 A from rfl)

set_option maxHeartbeats 4000000 in
/-- The buffer `main_v363` after item 68, from contents that hold what the item reads: first as the item's function of
    those contents, then with their values put in, which is the named value. -/
theorem pr_v363 (V : Valuation τ sig (Elt Ideal)) (A : K.Args)
    (h_arg11 : V (Proc.devRef .tc main_arg11) = A.a11) :
    after hostOps8_2 V (Proc.devRef .tc main_v363) = K.P12_nW2 A :=
  ((show after hostOps8_2 V (Proc.devRef .tc main_v363) = C_v363 (F := Ideal) (V (Proc.devRef .tc main_arg11)) by
    kr_results
    rfl).trans (by rw [h_arg11])).trans
    (show C_v363 (F := Ideal) (A.a11) = K.P12_nW2 A from rfl)

set_option maxHeartbeats 4000000 in
/-- The buffer `main_v369` after item 68, from contents that hold what the item reads: first as the item's function of
    those contents, then with their values put in, which is the named value. -/
theorem pr_v369 (V : Valuation τ sig (Elt Ideal)) (A : K.Args)
    (h_arg14 : V (Proc.devRef .tc main_arg14) = A.a14) :
    after hostOps8_2 V (Proc.devRef .tc main_v369) = K.P12_gb1 A :=
  ((show after hostOps8_2 V (Proc.devRef .tc main_v369) = C_v369 (F := Ideal) (V (Proc.devRef .tc main_arg14)) by
    kr_results
    rfl).trans (by rw [h_arg14])).trans
    (show C_v369 (F := Ideal) (A.a14) = K.P12_gb1 A from rfl)

set_option maxHeartbeats 4000000 in
/-- The buffer `main_v373` after item 68, from contents that hold what the item reads: first as the item's function of
    those contents, then with their values put in, which is the named value. -/
theorem pr_v373 (V : Valuation τ sig (Elt Ideal)) (A : K.Args)
    (h_arg16 : V (Proc.devRef .tc main_arg16) = A.a16) :
    after hostOps8_2 V (Proc.devRef .tc main_v373) = K.P12_gb2 A :=
  ((show after hostOps8_2 V (Proc.devRef .tc main_v373) = C_v373 (F := Ideal) (V (Proc.devRef .tc main_arg16)) by
    kr_results
    rfl).trans (by rw [h_arg16])).trans
    (show C_v373 (F := Ideal) (A.a16) = K.P12_gb2 A from rfl)

set_option maxHeartbeats 4000000 in
/-- The buffer `main_v367` after item 68, from contents that hold what the item reads: first as the item's function of
    those contents, then with their values put in, which is the named value. -/
theorem pr_v367 (V : Valuation τ sig (Elt Ideal)) (A : K.Args)
    (h_arg13 : V (Proc.devRef .tc main_arg13) = A.a13) :
    after hostOps8_2 V (Proc.devRef .tc main_v367) = K.P12_gW1 A :=
  ((show after hostOps8_2 V (Proc.devRef .tc main_v367) = C_v367 (F := Ideal) (V (Proc.devRef .tc main_arg13)) by
    kr_results
    rfl).trans (by rw [h_arg13])).trans
    (show C_v367 (F := Ideal) (A.a13) = K.P12_gW1 A from rfl)

set_option maxHeartbeats 4000000 in
/-- The buffer `main_v371` after item 68, from contents that hold what the item reads: first as the item's function of
    those contents, then with their values put in, which is the named value. -/
theorem pr_v371 (V : Valuation τ sig (Elt Ideal)) (A : K.Args)
    (h_arg15 : V (Proc.devRef .tc main_arg15) = A.a15) :
    after hostOps8_2 V (Proc.devRef .tc main_v371) = K.P12_gW2 A :=
  ((show after hostOps8_2 V (Proc.devRef .tc main_v371) = C_v371 (F := Ideal) (V (Proc.devRef .tc main_arg15)) by
    kr_results
    rfl).trans (by rw [h_arg15])).trans
    (show C_v371 (F := Ideal) (A.a15) = K.P12_gW2 A from rfl)

set_option maxHeartbeats 4000000 in
/-- The buffer `main_v374` after item 68, from contents that hold what the item reads: first as the item's function of
    those contents, then with their values put in, which is the named value. -/
theorem st_lin2 (V : Valuation τ sig (Elt Ideal)) (A : K.Args)
    (h_v241 : V (Proc.devRef .tc main_v241) = K.le2 A)
    (h_arg3 : V (Proc.devRef .tc main_arg3) = A.a3) :
    after hostOps8_2 V (Proc.devRef .tc main_v374) = K.lin2 A :=
  ((show after hostOps8_2 V (Proc.devRef .tc main_v374) = C_v374 (F := Ideal) (V (Proc.devRef .tc main_v241)) (V (Proc.devRef .tc main_arg3)) by
    kr_results
    rfl).trans (by rw [h_v241, h_arg3])).trans
    (show C_v374 (F := Ideal) (K.le2 A) (A.a3) = K.lin2 A from rfl)

end Cert.Val.KRead

end
-- ==== Proof.Val.KReadH10.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 69 … 85

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_v384` after item 69, from contents that hold what the item reads: first as the item's function of
    those contents, then with their values put in. -/
theorem rd_v384 (V : Valuation τ sig (Elt Ideal)) (A : K.Args)
    (h_v26 : V (Proc.devRef .tc main_v26) = C_v26 (F := Ideal) (C_v25 (F := Ideal) (K.lr A) (A.a0)))
    (h_c_49 : V (Proc.devRef .tc main_c_49) = C_c_49) :
    after k_hostOps8_3 V (Proc.devRef .tc main_v384) = C_v384 (F := Ideal) (C_v26 (F := Ideal) (C_v25 (F := Ideal) (K.lr A) (A.a0))) (C_c_49) :=
  ((show after k_hostOps8_3 V (Proc.devRef .tc main_v384) = C_v384 (F := Ideal) (V (Proc.devRef .tc main_v26)) (V (Proc.devRef .tc main_c_49)) by
    kr_results
    rfl).trans (by rw [h_v26, h_c_49]))

set_option maxHeartbeats 4000000 in
/-- The buffer `main_c_50` after item 70, from contents that hold what the item reads: first as the item's function of
    those contents, then with their values put in. -/
theorem rd_c_50 (V : Valuation τ sig (Elt Ideal)) (A : K.Args) :
    after hostOps8_4 V (Proc.devRef .tc main_c_50) = C_c_50 :=
  (show after hostOps8_4 V (Proc.devRef .tc main_c_50) = C_c_50 by
    kr_results
    rfl)

set_option maxHeartbeats 4000000 in
/-- The buffer `main_v385` after item 71, from contents that hold what the item reads: first as the item's function of
    those contents, then with their values put in. -/
theorem rd_v385 (V : Valuation τ sig (Elt Ideal)) (A : K.Args)
    (h_v28 : V (Proc.devRef .tc main_v28) = C_v28 (F := Ideal) (C_v27 (F := Ideal) (K.lc A) (A.a0)))
    (h_c_50 : V (Proc.devRef .tc main_c_50) = C_c_50) :
    after k_hostOps8_5 V (Proc.devRef .tc main_v385) = C_v385 (F := Ideal) (C_v28 (F := Ideal) (C_v27 (F := Ideal) (K.lc A) (A.a0))) (C_c_50) :=
  ((show after k_hostOps8_5 V (Proc.devRef .tc main_v385) = C_v385 (F := Ideal) (V (Proc.devRef .tc main_v28)) (V (Proc.devRef .tc main_c_50)) by
    kr_results
    rfl).trans (by rw [h_v28, h_c_50]))

set_option maxHeartbeats 4000000 in
/-- The buffer `main_c_51` after item 72, from contents that hold what the item reads: first as the item's function of
    those contents, then with their values put in. -/
theorem rd_c_51 (V : Valuation τ sig (Elt Ideal)) (A : K.Args) :
    after hostOps8_6 V (Proc.devRef .tc main_c_51) = C_c_51 :=
  (show after hostOps8_6 V (Proc.devRef .tc main_c_51) = C_c_51 by
    kr_results
    rfl)

set_option maxHeartbeats 4000000 in
/-- The buffer `main_v386` after item 73, from contents that hold what the item reads: first as the item's function of
    those contents, then with their values put in. -/
theorem rd_v386 (V : Valuation τ sig (Elt Ideal)) (A : K.Args)
    (h_v375 : V (Proc.devRef .tc main_v375) = C_v375 (F := Ideal) (K.le2 A) (A.a3))
    (h_c_51 : V (Proc.devRef .tc main_c_51) = C_c_51) :
    after k_hostOps8_7 V (Proc.devRef .tc main_v386) = C_v386 (F := Ideal) (C_v375 (F := Ideal) (K.le2 A) (A.a3)) (C_c_51) :=
  ((show after k_hostOps8_7 V (Proc.devRef .tc main_v386) = C_v386 (F := Ideal) (V (Proc.devRef .tc main_v375)) (V (Proc.devRef .tc main_c_51)) by
    kr_results
    rfl).trans (by rw [h_v375, h_c_51]))

set_option maxHeartbeats 4000000 in
/-- The buffer `main_c_53` after item 75, from contents that hold what the item reads: first as the item's function of
    those contents, then with their values put in. -/
theorem rd_c_53 (V : Valuation τ sig (Elt Ideal)) (A : K.Args) :
    after hostOps9 V (Proc.devRef .tc main_c_53) = C_c_53 :=
  (show after hostOps9 V (Proc.devRef .tc main_c_53) = C_c_53 by
    kr_results
    rfl)

set_option maxHeartbeats 4000000 in
/-- The buffer `main_v393` after item 75, from contents that hold what the item reads: first as the item's function of
    those contents, then with their values put in, which is the named value. -/
theorem st_la3 (V : Valuation τ sig (Elt Ideal)) (A : K.Args)
    (h_v1 : V (Proc.devRef .tc main_v1) = K.lr A)
    (h_v387 : V (Proc.devRef .tc main_v387) = K.edgeFn (C_v384 (F := Ideal) (C_v26 (F := Ideal) (C_v25 (F := Ideal) (K.lr A) (A.a0))) (C_c_49)) (C_v385 (F := Ideal) (C_v28 (F := Ideal) (C_v27 (F := Ideal) (K.lc A) (A.a0))) (C_c_50)) (C_v386 (F := Ideal) (C_v375 (F := Ideal) (K.le2 A) (A.a3)) (C_c_51)) (C_v377 (F := Ideal) (A.a5)) (C_v378 (F := Ideal) (A.a5)) (C_v379 (F := Ideal) (A.a5)) (C_v382 (F := Ideal) (A.a6) (C_v323 (F := Ideal) (C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A))) (K.P11_gW2 A) (C_v320 (F := Ideal) (K.P11_gb2 A)) (A.a5)) (K.P02_eW2 A) (C_v383 (F := Ideal) (A.a8)))
    (h_v16 : V (Proc.devRef .tc main_v16) = C_v16 (F := Ideal) (A.a1)) :
    after hostOps9 V (Proc.devRef .tc main_v393) = K.la3 A :=
  ((show after hostOps9 V (Proc.devRef .tc main_v393) = C_v393 (F := Ideal) (V (Proc.devRef .tc main_v1)) (V (Proc.devRef .tc main_v387)) (V (Proc.devRef .tc main_v16)) by
    kr_results
    rfl).trans (by rw [h_v1, h_v387, h_v16])).trans
    (show C_v393 (F := Ideal) (K.lr A) (K.edgeFn (C_v384 (F := Ideal) (C_v26 (F := Ideal) (C_v25 (F := Ideal) (K.lr A) (A.a0))) (C_c_49)) (C_v385 (F := Ideal) (C_v28 (F := Ideal) (C_v27 (F := Ideal) (K.lc A) (A.a0))) (C_c_50)) (C_v386 (F := Ideal) (C_v375 (F := Ideal) (K.le2 A) (A.a3)) (C_c_51)) (C_v377 (F := Ideal) (A.a5)) (C_v378 (F := Ideal) (A.a5)) (C_v379 (F := Ideal) (A.a5)) (C_v382 (F := Ideal) (A.a6) (C_v323 (F := Ideal) (C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A))) (K.P11_gW2 A) (C_v320 (F := Ideal) (K.P11_gb2 A)) (A.a5)) (K.P02_eW2 A) (C_v383 (F := Ideal) (A.a8))) (C_v16 (F := Ideal) (A.a1)) = K.la3 A from rfl)

set_option maxHeartbeats 4000000 in
/-- The buffer `main_v395` after item 75, from contents that hold what the item reads: first as the item's function of
    those contents, then with their values put in. -/
theorem rd_v395 (V : Valuation τ sig (Elt Ideal)) (A : K.Args)
    (h_v335 : V (Proc.devRef .tc main_v335) = K.P02_nW1 A) :
    after hostOps9 V (Proc.devRef .tc main_v395) = C_v395 (F := Ideal) (K.P02_nW1 A) :=
  ((show after hostOps9 V (Proc.devRef .tc main_v395) = C_v395 (F := Ideal) (V (Proc.devRef .tc main_v335)) by
    kr_results
    rfl).trans (by rw [h_v335]))

set_option maxHeartbeats 4000000 in
/-- The buffer `main_v396` after item 75, from contents that hold what the item reads: first as the item's function of
    those contents, then with their values put in. -/
theorem rd_v396 (V : Valuation τ sig (Elt Ideal)) (A : K.Args)
    (h_v335 : V (Proc.devRef .tc main_v335) = K.P02_nW1 A) :
    after hostOps9 V (Proc.devRef .tc main_v396) = C_v396 (F := Ideal) (K.P02_nW1 A) :=
  ((show after hostOps9 V (Proc.devRef .tc main_v396) = C_v396 (F := Ideal) (V (Proc.devRef .tc main_v335)) by
    kr_results
    rfl).trans (by rw [h_v335]))

set_option maxHeartbeats 4000000 in
/-- The buffer `main_v399` after item 75, from contents that hold what the item reads: first as the item's function of
    those contents, then with their values put in. -/
theorem rd_v399 (V : Valuation τ sig (Elt Ideal)) (A : K.Args)
    (h_v337 : V (Proc.devRef .tc main_v337) = K.P02_nb1 A)
    (h_v325 : V (Proc.devRef .tc main_v325) = K.g4 A)
    (h_v335 : V (Proc.devRef .tc main_v335) = K.P02_nW1 A) :
    after hostOps9 V (Proc.devRef .tc main_v399) = C_v399 (F := Ideal) (K.P02_nb1 A) (K.g4 A) (K.P02_nW1 A) :=
  ((show after hostOps9 V (Proc.devRef .tc main_v399) = C_v399 (F := Ideal) (V (Proc.devRef .tc main_v337)) (V (Proc.devRef .tc main_v325)) (V (Proc.devRef .tc main_v335)) by
    kr_results
    rfl).trans (by rw [h_v337, h_v325, h_v335]))

set_option maxHeartbeats 4000000 in
/-- The buffer `main_v400` after item 75, from contents that hold what the item reads: first as the item's function of
    those contents, then with their values put in. -/
theorem rd_v400 (V : Valuation τ sig (Elt Ideal)) (A : K.Args)
    (h_v341 : V (Proc.devRef .tc main_v341) = K.P02_nb2 A) :
    after hostOps9 V (Proc.devRef .tc main_v400) = C_v400 (F := Ideal) (K.P02_nb2 A) :=
  ((show after hostOps9 V (Proc.devRef .tc main_v400) = C_v400 (F := Ideal) (V (Proc.devRef .tc main_v341)) by
    kr_results
    rfl).trans (by rw [h_v341]))

set_option maxHeartbeats 4000000 in
/-- The buffer `main_v388` after item 75, from contents that hold what the item reads: first as the item's function of
    those contents, then with their values put in, which is the named value. -/
theorem st_le3 (V : Valuation τ sig (Elt Ideal)) (A : K.Args)
    (h_v387 : V (Proc.devRef .tc main_v387) = K.edgeFn (C_v384 (F := Ideal) (C_v26 (F := Ideal) (C_v25 (F := Ideal) (K.lr A) (A.a0))) (C_c_49)) (C_v385 (F := Ideal) (C_v28 (F := Ideal) (C_v27 (F := Ideal) (K.lc A) (A.a0))) (C_c_50)) (C_v386 (F := Ideal) (C_v375 (F := Ideal) (K.le2 A) (A.a3)) (C_c_51)) (C_v377 (F := Ideal) (A.a5)) (C_v378 (F := Ideal) (A.a5)) (C_v379 (F := Ideal) (A.a5)) (C_v382 (F := Ideal) (A.a6) (C_v323 (F := Ideal) (C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A))) (K.P11_gW2 A) (C_v320 (F := Ideal) (K.P11_gb2 A)) (A.a5)) (K.P02_eW2 A) (C_v383 (F := Ideal) (A.a8))) :
    after hostOps9 V (Proc.devRef .tc main_v388) = K.le3 A :=
  ((show after hostOps9 V (Proc.devRef .tc main_v388) = C_v388 (F := Ideal) (V (Proc.devRef .tc main_v387)) by
    kr_results
    rfl).trans (by rw [h_v387])).trans
    (show C_v388 (F := Ideal) (K.edgeFn (C_v384 (F := Ideal) (C_v26 (F := Ideal) (C_v25 (F := Ideal) (K.lr A) (A.a0))) (C_c_49)) (C_v385 (F := Ideal) (C_v28 (F := Ideal) (C_v27 (F := Ideal) (K.lc A) (A.a0))) (C_c_50)) (C_v386 (F := Ideal) (C_v375 (F := Ideal) (K.le2 A) (A.a3)) (C_c_51)) (C_v377 (F := Ideal) (A.a5)) (C_v378 (F := Ideal) (A.a5)) (C_v379 (F := Ideal) (A.a5)) (C_v382 (F := Ideal) (A.a6) (C_v323 (F := Ideal) (C_v322 (F := Ideal) (K.nodeFn (C_v306 (F := Ideal) (C_v275 (F := Ideal) (K.ln2 A)) (C_c_43)) (C_v307 (F := Ideal) (K.ua2 A) (C_c_44)) (C_v300 (F := Ideal) (K.P11_nW1 A)) (C_v301 (F := Ideal) (K.P11_nW1 A)) (C_v304 (F := Ideal) (K.P11_nb1 A) (K.g3 A) (K.P11_nW1 A)) (K.P11_nW2 A) (C_v305 (F := Ideal) (K.P11_nb2 A))) (K.ue2 A) (K.g3 A) (K.P11_gW1 A) (K.P11_gb1 A))) (K.P11_gW2 A) (C_v320 (F := Ideal) (K.P11_gb2 A)) (A.a5)) (K.P02_eW2 A) (C_v383 (F := Ideal) (A.a8))) = K.le3 A from rfl)

set_option maxHeartbeats 4000000 in
/-- The buffer `main_v401` after item 76, from contents that hold what the item reads: first as the item's function of
    those contents, then with their values put in. -/
theorem rd_v401 (V : Valuation τ sig (Elt Ideal)) (A : K.Args)
    (h_v24 : V (Proc.devRef .tc main_v24) = C_v24 (F := Ideal) (A.a0))
    (h_c_53 : V (Proc.devRef .tc main_c_53) = C_c_53) :
    after k_hostOps9_1 V (Proc.devRef .tc main_v401) = C_v401 (F := Ideal) (C_v24 (F := Ideal) (A.a0)) (C_c_53) :=
  ((show after k_hostOps9_1 V (Proc.devRef .tc main_v401) = C_v401 (F := Ideal) (V (Proc.devRef .tc main_v24)) (V (Proc.devRef .tc main_c_53)) by
    kr_results
    rfl).trans (by rw [h_v24, h_c_53]))

set_option maxHeartbeats 4000000 in
/-- The buffer `main_c_54` after item 77, from contents that hold what the item reads: first as the item's function of
    those contents, then with their values put in. -/
theorem rd_c_54 (V : Valuation τ sig (Elt Ideal)) (A : K.Args) :
    after hostOps9_2 V (Proc.devRef .tc main_c_54) = C_c_54 :=
  (show after hostOps9_2 V (Proc.devRef .tc main_c_54) = C_c_54 by
    kr_results
    rfl)

set_option maxHeartbeats 4000000 in
/-- The buffer `main_v402` after item 78, from contents that hold what the item reads: first as the item's function of
    those contents, then with their values put in. -/
theorem rd_v402 (V : Valuation τ sig (Elt Ideal)) (A : K.Args)
    (h_v393 : V (Proc.devRef .tc main_v393) = K.la3 A)
    (h_c_54 : V (Proc.devRef .tc main_c_54) = C_c_54) :
    after k_hostOps9_3 V (Proc.devRef .tc main_v402) = C_v402 (F := Ideal) (K.la3 A) (C_c_54) :=
  ((show after k_hostOps9_3 V (Proc.devRef .tc main_v402) = C_v402 (F := Ideal) (V (Proc.devRef .tc main_v393)) (V (Proc.devRef .tc main_c_54)) by
    kr_results
    rfl).trans (by rw [h_v393, h_c_54]))

set_option maxHeartbeats 4000000 in
/-- The buffer `main_v417` after item 80, from contents that hold what the item reads: first as the item's function of
    those contents, then with their values put in. -/
theorem rd_v417 (V : Valuation τ sig (Elt Ideal)) (A : K.Args)
    (h_v403 : V (Proc.devRef .tc main_v403) = K.nodeFn (C_v401 (F := Ideal) (C_v24 (F := Ideal) (A.a0)) (C_c_53)) (C_v402 (F := Ideal) (K.la3 A) (C_c_54)) (C_v395 (F := Ideal) (K.P02_nW1 A)) (C_v396 (F := Ideal) (K.P02_nW1 A)) (C_v399 (F := Ideal) (K.P02_nb1 A) (K.g4 A) (K.P02_nW1 A)) (K.P02_nW2 A) (C_v400 (F := Ideal) (K.P02_nb2 A)))
    (h_v388 : V (Proc.devRef .tc main_v388) = K.le3 A)
    (h_v325 : V (Proc.devRef .tc main_v325) = K.g4 A)
    (h_v343 : V (Proc.devRef .tc main_v343) = K.P02_gW1 A)
    (h_v345 : V (Proc.devRef .tc main_v345) = K.P02_gb1 A) :
    after hostOps10 V (Proc.devRef .tc main_v417) = C_v417 (F := Ideal) (K.nodeFn (C_v401 (F := Ideal) (C_v24 (F := Ideal) (A.a0)) (C_c_53)) (C_v402 (F := Ideal) (K.la3 A) (C_c_54)) (C_v395 (F := Ideal) (K.P02_nW1 A)) (C_v396 (F := Ideal) (K.P02_nW1 A)) (C_v399 (F := Ideal) (K.P02_nb1 A) (K.g4 A) (K.P02_nW1 A)) (K.P02_nW2 A) (C_v400 (F := Ideal) (K.P02_nb2 A))) (K.le3 A) (K.g4 A) (K.P02_gW1 A) (K.P02_gb1 A) :=
  ((show after hostOps10 V (Proc.devRef .tc main_v417) = C_v417 (F := Ideal) (V (Proc.devRef .tc main_v403)) (V (Proc.devRef .tc main_v388)) (V (Proc.devRef .tc main_v325)) (V (Proc.devRef .tc main_v343)) (V (Proc.devRef .tc main_v345)) by
    kr_results
    rfl).trans (by rw [h_v403, h_v388, h_v325, h_v343, h_v345]))

set_option maxHeartbeats 4000000 in
/-- The buffer `main_v415` after item 80, from contents that hold what the item reads: first as the item's function of
    those contents, then with their values put in. -/
theorem rd_v415 (V : Valuation τ sig (Elt Ideal)) (A : K.Args)
    (h_v349 : V (Proc.devRef .tc main_v349) = K.P02_gb2 A) :
    after hostOps10 V (Proc.devRef .tc main_v415) = C_v415 (F := Ideal) (K.P02_gb2 A) :=
  ((show after hostOps10 V (Proc.devRef .tc main_v415) = C_v415 (F := Ideal) (V (Proc.devRef .tc main_v349)) by
    kr_results
    rfl).trans (by rw [h_v349]))

set_option maxHeartbeats 4000000 in
/-- The buffer `main_v404` after item 80, from contents that hold what the item reads: first as the item's function of
    those contents, then with their values put in, which is the named value. -/
theorem st_ln3 (V : Valuation τ sig (Elt Ideal)) (A : K.Args)
    (h_v403 : V (Proc.devRef .tc main_v403) = K.nodeFn (C_v401 (F := Ideal) (C_v24 (F := Ideal) (A.a0)) (C_c_53)) (C_v402 (F := Ideal) (K.la3 A) (C_c_54)) (C_v395 (F := Ideal) (K.P02_nW1 A)) (C_v396 (F := Ideal) (K.P02_nW1 A)) (C_v399 (F := Ideal) (K.P02_nb1 A) (K.g4 A) (K.P02_nW1 A)) (K.P02_nW2 A) (C_v400 (F := Ideal) (K.P02_nb2 A))) :
    after hostOps10 V (Proc.devRef .tc main_v404) = K.ln3 A :=
  ((show after hostOps10 V (Proc.devRef .tc main_v404) = C_v404 (F := Ideal) (V (Proc.devRef .tc main_v403)) by
    kr_results
    rfl).trans (by rw [h_v403])).trans
    (show C_v404 (F := Ideal) (K.nodeFn (C_v401 (F := Ideal) (C_v24 (F := Ideal) (A.a0)) (C_c_53)) (C_v402 (F := Ideal) (K.la3 A) (C_c_54)) (C_v395 (F := Ideal) (K.P02_nW1 A)) (C_v396 (F := Ideal) (K.P02_nW1 A)) (C_v399 (F := Ideal) (K.P02_nb1 A) (K.g4 A) (K.P02_nW1 A)) (K.P02_nW2 A) (C_v400 (F := Ideal) (K.P02_nb2 A))) = K.ln3 A from rfl)

set_option maxHeartbeats 4000000 in
/-- The buffer `main_v418` after item 81, from contents that hold what the item reads: first as the item's function of
    those contents, then with their values put in. -/
theorem rd_v418 (V : Valuation τ sig (Elt Ideal)) (A : K.Args)
    (h_v417 : V (Proc.devRef .tc main_v417) = C_v417 (F := Ideal) (K.nodeFn (C_v401 (F := Ideal) (C_v24 (F := Ideal) (A.a0)) (C_c_53)) (C_v402 (F := Ideal) (K.la3 A) (C_c_54)) (C_v395 (F := Ideal) (K.P02_nW1 A)) (C_v396 (F := Ideal) (K.P02_nW1 A)) (C_v399 (F := Ideal) (K.P02_nb1 A) (K.g4 A) (K.P02_nW1 A)) (K.P02_nW2 A) (C_v400 (F := Ideal) (K.P02_nb2 A))) (K.le3 A) (K.g4 A) (K.P02_gW1 A) (K.P02_gb1 A)) :
    after k_hostOps10_1 V (Proc.devRef .tc main_v418) = C_v418 (F := Ideal) (C_v417 (F := Ideal) (K.nodeFn (C_v401 (F := Ideal) (C_v24 (F := Ideal) (A.a0)) (C_c_53)) (C_v402 (F := Ideal) (K.la3 A) (C_c_54)) (C_v395 (F := Ideal) (K.P02_nW1 A)) (C_v396 (F := Ideal) (K.P02_nW1 A)) (C_v399 (F := Ideal) (K.P02_nb1 A) (K.g4 A) (K.P02_nW1 A)) (K.P02_nW2 A) (C_v400 (F := Ideal) (K.P02_nb2 A))) (K.le3 A) (K.g4 A) (K.P02_gW1 A) (K.P02_gb1 A)) :=
  ((show after k_hostOps10_1 V (Proc.devRef .tc main_v418) = C_v418 (F := Ideal) (V (Proc.devRef .tc main_v417)) by
    kr_results
    rfl).trans (by rw [h_v417]))

set_option maxHeartbeats 4000000 in
/-- The buffer `main_v421` after item 82, from contents that hold what the item reads: first as the item's function of
    those contents, then with their values put in, which is the named value. -/
theorem st_uin2 (V : Valuation τ sig (Elt Ideal)) (A : K.Args)
    (h_v293 : V (Proc.devRef .tc main_v293) = K.ue2 A)
    (h_v31 : V (Proc.devRef .tc main_v31) = K.zcol) :
    after hostOps10_2 V (Proc.devRef .tc main_v421) = K.uin2 A :=
  ((show after hostOps10_2 V (Proc.devRef .tc main_v421) = C_v421 (F := Ideal) (V (Proc.devRef .tc main_v293)) (V (Proc.devRef .tc main_v31)) by
    kr_results
    rfl).trans (by rw [h_v293, h_v31])).trans
    (show C_v421 (F := Ideal) (K.ue2 A) (K.zcol) = K.uin2 A from rfl)

set_option maxHeartbeats 4000000 in
/-- The buffer `main_v420` after item 82, from contents that hold what the item reads: first as the item's function of
    those contents, then with their values put in, which is the named value. -/
theorem st_g5 (V : Valuation τ sig (Elt Ideal)) (A : K.Args)
    (h_v418 : V (Proc.devRef .tc main_v418) = C_v418 (F := Ideal) (C_v417 (F := Ideal) (K.nodeFn (C_v401 (F := Ideal) (C_v24 (F := Ideal) (A.a0)) (C_c_53)) (C_v402 (F := Ideal) (K.la3 A) (C_c_54)) (C_v395 (F := Ideal) (K.P02_nW1 A)) (C_v396 (F := Ideal) (K.P02_nW1 A)) (C_v399 (F := Ideal) (K.P02_nb1 A) (K.g4 A) (K.P02_nW1 A)) (K.P02_nW2 A) (C_v400 (F := Ideal) (K.P02_nb2 A))) (K.le3 A) (K.g4 A) (K.P02_gW1 A) (K.P02_gb1 A)))
    (h_v347 : V (Proc.devRef .tc main_v347) = K.P02_gW2 A)
    (h_v415 : V (Proc.devRef .tc main_v415) = C_v415 (F := Ideal) (K.P02_gb2 A)) :
    after hostOps10_2 V (Proc.devRef .tc main_v420) = K.g5 A :=
  ((show after hostOps10_2 V (Proc.devRef .tc main_v420) = C_v420 (F := Ideal) (V (Proc.devRef .tc main_v418)) (V (Proc.devRef .tc main_v347)) (V (Proc.devRef .tc main_v415)) by
    kr_results
    rfl).trans (by rw [h_v418, h_v347, h_v415])).trans
    (show C_v420 (F := Ideal) (C_v418 (F := Ideal) (C_v417 (F := Ideal) (K.nodeFn (C_v401 (F := Ideal) (C_v24 (F := Ideal) (A.a0)) (C_c_53)) (C_v402 (F := Ideal) (K.la3 A) (C_c_54)) (C_v395 (F := Ideal) (K.P02_nW1 A)) (C_v396 (F := Ideal) (K.P02_nW1 A)) (C_v399 (F := Ideal) (K.P02_nb1 A) (K.g4 A) (K.P02_nW1 A)) (K.P02_nW2 A) (C_v400 (F := Ideal) (K.P02_nb2 A))) (K.le3 A) (K.g4 A) (K.P02_gW1 A) (K.P02_gb1 A))) (K.P02_gW2 A) (C_v415 (F := Ideal) (K.P02_gb2 A)) = K.g5 A from rfl)

set_option maxHeartbeats 4000000 in
/-- The buffer `main_v422` after item 82, from contents that hold what the item reads: first as the item's function of
    those contents, then with their values put in. -/
theorem rd_v422 (V : Valuation τ sig (Elt Ideal)) (A : K.Args)
    (h_v404 : V (Proc.devRef .tc main_v404) = K.ln3 A) :
    after hostOps10_2 V (Proc.devRef .tc main_v422) = C_v422 (F := Ideal) (K.ln3 A) :=
  ((show after hostOps10_2 V (Proc.devRef .tc main_v422) = C_v422 (F := Ideal) (V (Proc.devRef .tc main_v404)) by
    kr_results
    rfl).trans (by rw [h_v404]))

set_option maxHeartbeats 4000000 in
/-- The buffer `main_v423` after item 83, from contents that hold what the item reads: first as the item's function of
    those contents, then with their values put in. -/
theorem rd_v423 (V : Valuation τ sig (Elt Ideal)) (A : K.Args)
    (h_v5 : V (Proc.devRef .tc main_v5) = K.ur A)
    (h_v404 : V (Proc.devRef .tc main_v404) = K.ln3 A) :
    after k_hostOps10_3 V (Proc.devRef .tc main_v423) = C_v423 (F := Ideal) (K.ur A) (K.ln3 A) :=
  ((show after k_hostOps10_3 V (Proc.devRef .tc main_v423) = C_v423 (F := Ideal) (V (Proc.devRef .tc main_v5)) (V (Proc.devRef .tc main_v404)) by
    kr_results
    rfl).trans (by rw [h_v5, h_v404]))

set_option maxHeartbeats 4000000 in
/-- The buffer `main_v424` after item 84, from contents that hold what the item reads: first as the item's function of
    those contents, then with their values put in. -/
theorem rd_v424 (V : Valuation τ sig (Elt Ideal)) (A : K.Args)
    (h_v423 : V (Proc.devRef .tc main_v423) = C_v423 (F := Ideal) (K.ur A) (K.ln3 A)) :
    after hostOps10_4 V (Proc.devRef .tc main_v424) = C_v424 (F := Ideal) (C_v423 (F := Ideal) (K.ur A) (K.ln3 A)) :=
  ((show after hostOps10_4 V (Proc.devRef .tc main_v424) = C_v424 (F := Ideal) (V (Proc.devRef .tc main_v423)) by
    kr_results
    rfl).trans (by rw [h_v423]))

set_option maxHeartbeats 4000000 in
/-- The buffer `main_v425` after item 85, from contents that hold what the item reads: first as the item's function of
    those contents, then with their values put in. -/
theorem rd_v425 (V : Valuation τ sig (Elt Ideal)) (A : K.Args)
    (h_v7 : V (Proc.devRef .tc main_v7) = K.uc A)
    (h_v404 : V (Proc.devRef .tc main_v404) = K.ln3 A) :
    after k_hostOps10_5 V (Proc.devRef .tc main_v425) = C_v425 (F := Ideal) (K.uc A) (K.ln3 A) :=
  ((show after k_hostOps10_5 V (Proc.devRef .tc main_v425) = C_v425 (F := Ideal) (V (Proc.devRef .tc main_v7)) (V (Proc.devRef .tc main_v404)) by
    kr_results
    rfl).trans (by rw [h_v7, h_v404]))

end Cert.Val.KRead

end
-- ==== Proof.Val.KReadH11.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 86 … 96

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_c_59` after item 86, from contents that hold what the item reads: first as the item's function of
    those contents, then with their values put in. -/
theorem rd_c_59 (V : Valuation τ sig (Elt Ideal)) (A : K.Args) :
    after hostOps10_6 V (Proc.devRef .tc main_c_59) = C_c_59 :=
  (show after hostOps10_6 V (Proc.devRef .tc main_c_59) = C_c_59 by
    kr_results
    rfl)

set_option maxHeartbeats 4000000 in
/-- The buffer `main_v426` after item 86, from contents that hold what the item reads: first as the item's function of
    those contents, then with their values put in. -/
theorem rd_v426 (V : Valuation τ sig (Elt Ideal)) (A : K.Args)
    (h_v425 : V (Proc.devRef .tc main_v425) = C_v425 (F := Ideal) (K.uc A) (K.ln3 A)) :
    after hostOps10_6 V (Proc.devRef .tc main_v426) = C_v426 (F := Ideal) (C_v425 (F := Ideal) (K.uc A) (K.ln3 A)) :=
  ((show after hostOps10_6 V (Proc.devRef .tc main_v426) = C_v426 (F := Ideal) (V (Proc.devRef .tc main_v425)) by
    kr_results
    rfl).trans (by rw [h_v425]))

set_option maxHeartbeats 4000000 in
/-- The buffer `main_v427` after item 86, from contents that hold what the item reads: first as the item's function of
    those contents, then with their values put in. -/
theorem rd_v427 (V : Valuation τ sig (Elt Ideal)) (A : K.Args)
    (h_v421 : V (Proc.devRef .tc main_v421) = K.uin2 A) :
    after hostOps10_6 V (Proc.devRef .tc main_v427) = C_v427 (F := Ideal) (K.uin2 A) :=
  ((show after hostOps10_6 V (Proc.devRef .tc main_v427) = C_v427 (F := Ideal) (V (Proc.devRef .tc main_v421)) by
    kr_results
    rfl).trans (by rw [h_v421]))

set_option maxHeartbeats 4000000 in
/-- The buffer `main_v429` after item 86, from contents that hold what the item reads: first as the item's function of
    those contents, then with their values put in. -/
theorem rd_v429 (V : Valuation τ sig (Elt Ideal)) (A : K.Args)
    (h_v351 : V (Proc.devRef .tc main_v351) = K.P12_eW1 A) :
    after hostOps10_6 V (Proc.devRef .tc main_v429) = C_v429 (F := Ideal) (K.P12_eW1 A) :=
  ((show after hostOps10_6 V (Proc.devRef .tc main_v429) = C_v429 (F := Ideal) (V (Proc.devRef .tc main_v351)) by
    kr_results
    rfl).trans (by rw [h_v351]))

set_option maxHeartbeats 4000000 in
/-- The buffer `main_v430` after item 86, from contents that hold what the item reads: first as the item's function of
    those contents, then with their values put in. -/
theorem rd_v430 (V : Valuation τ sig (Elt Ideal)) (A : K.Args)
    (h_v351 : V (Proc.devRef .tc main_v351) = K.P12_eW1 A) :
    after hostOps10_6 V (Proc.devRef .tc main_v430) = C_v430 (F := Ideal) (K.P12_eW1 A) :=
  ((show after hostOps10_6 V (Proc.devRef .tc main_v430) = C_v430 (F := Ideal) (V (Proc.devRef .tc main_v351)) by
    kr_results
    rfl).trans (by rw [h_v351]))

set_option maxHeartbeats 4000000 in
/-- The buffer `main_v431` after item 86, from contents that hold what the item reads: first as the item's function of
    those contents, then with their values put in. -/
theorem rd_v431 (V : Valuation τ sig (Elt Ideal)) (A : K.Args)
    (h_v351 : V (Proc.devRef .tc main_v351) = K.P12_eW1 A) :
    after hostOps10_6 V (Proc.devRef .tc main_v431) = C_v431 (F := Ideal) (K.P12_eW1 A) :=
  ((show after hostOps10_6 V (Proc.devRef .tc main_v431) = C_v431 (F := Ideal) (V (Proc.devRef .tc main_v351)) by
    kr_results
    rfl).trans (by rw [h_v351]))

set_option maxHeartbeats 4000000 in
/-- The buffer `main_v434` after item 86, from contents that hold what the item reads: first as the item's function of
    those contents, then with their values put in. -/
theorem rd_v434 (V : Valuation τ sig (Elt Ideal)) (A : K.Args)
    (h_v353 : V (Proc.devRef .tc main_v353) = K.P12_eb1 A)
    (h_v420 : V (Proc.devRef .tc main_v420) = K.g5 A)
    (h_v351 : V (Proc.devRef .tc main_v351) = K.P12_eW1 A) :
    after hostOps10_6 V (Proc.devRef .tc main_v434) = C_v434 (F := Ideal) (K.P12_eb1 A) (K.g5 A) (K.P12_eW1 A) :=
  ((show after hostOps10_6 V (Proc.devRef .tc main_v434) = C_v434 (F := Ideal) (V (Proc.devRef .tc main_v353)) (V (Proc.devRef .tc main_v420)) (V (Proc.devRef .tc main_v351)) by
    kr_results
    rfl).trans (by rw [h_v353, h_v420, h_v351]))

set_option maxHeartbeats 4000000 in
/-- The buffer `main_v435` after item 86, from contents that hold what the item reads: first as the item's function of
    those contents, then with their values put in. -/
theorem rd_v435 (V : Valuation τ sig (Elt Ideal)) (A : K.Args)
    (h_v357 : V (Proc.devRef .tc main_v357) = K.P12_eb2 A) :
    after hostOps10_6 V (Proc.devRef .tc main_v435) = C_v435 (F := Ideal) (K.P12_eb2 A) :=
  ((show after hostOps10_6 V (Proc.devRef .tc main_v435) = C_v435 (F := Ideal) (V (Proc.devRef .tc main_v357)) by
    kr_results
    rfl).trans (by rw [h_v357]))

set_option maxHeartbeats 4000000 in
/-- The buffer `main_v436` after item 87, from contents that hold what the item reads: first as the item's function of
    those contents, then with their values put in. -/
theorem rd_v436 (V : Valuation τ sig (Elt Ideal)) (A : K.Args)
    (h_v424 : V (Proc.devRef .tc main_v424) = C_v424 (F := Ideal) (C_v423 (F := Ideal) (K.ur A) (K.ln3 A)))
    (h_c_59 : V (Proc.devRef .tc main_c_59) = C_c_59) :
    after k_hostOps10_7 V (Proc.devRef .tc main_v436) = C_v436 (F := Ideal) (C_v424 (F := Ideal) (C_v423 (F := Ideal) (K.ur A) (K.ln3 A))) (C_c_59) :=
  ((show after k_hostOps10_7 V (Proc.devRef .tc main_v436) = C_v436 (F := Ideal) (V (Proc.devRef .tc main_v424)) (V (Proc.devRef .tc main_c_59)) by
    kr_results
    rfl).trans (by rw [h_v424, h_c_59]))

set_option maxHeartbeats 4000000 in
/-- The buffer `main_c_60` after item 88, from contents that hold what the item reads: first as the item's function of
    those contents, then with their values put in. -/
theorem rd_c_60 (V : Valuation τ sig (Elt Ideal)) (A : K.Args) :
    after hostOps10_8 V (Proc.devRef .tc main_c_60) = C_c_60 :=
  (show after hostOps10_8 V (Proc.devRef .tc main_c_60) = C_c_60 by
    kr_results
    rfl)

set_option maxHeartbeats 4000000 in
/-- The buffer `main_v437` after item 89, from contents that hold what the item reads: first as the item's function of
    those contents, then with their values put in. -/
theorem rd_v437 (V : Valuation τ sig (Elt Ideal)) (A : K.Args)
    (h_v426 : V (Proc.devRef .tc main_v426) = C_v426 (F := Ideal) (C_v425 (F := Ideal) (K.uc A) (K.ln3 A)))
    (h_c_60 : V (Proc.devRef .tc main_c_60) = C_c_60) :
    after k_hostOps10_9 V (Proc.devRef .tc main_v437) = C_v437 (F := Ideal) (C_v426 (F := Ideal) (C_v425 (F := Ideal) (K.uc A) (K.ln3 A))) (C_c_60) :=
  ((show after k_hostOps10_9 V (Proc.devRef .tc main_v437) = C_v437 (F := Ideal) (V (Proc.devRef .tc main_v426)) (V (Proc.devRef .tc main_c_60)) by
    kr_results
    rfl).trans (by rw [h_v426, h_c_60]))

set_option maxHeartbeats 4000000 in
/-- The buffer `main_c_61` after item 90, from contents that hold what the item reads: first as the item's function of
    those contents, then with their values put in. -/
theorem rd_c_61 (V : Valuation τ sig (Elt Ideal)) (A : K.Args) :
    after hostOps10_10 V (Proc.devRef .tc main_c_61) = C_c_61 :=
  (show after hostOps10_10 V (Proc.devRef .tc main_c_61) = C_c_61 by
    kr_results
    rfl)

set_option maxHeartbeats 4000000 in
/-- The buffer `main_v438` after item 91, from contents that hold what the item reads: first as the item's function of
    those contents, then with their values put in. -/
theorem rd_v438 (V : Valuation τ sig (Elt Ideal)) (A : K.Args)
    (h_v427 : V (Proc.devRef .tc main_v427) = C_v427 (F := Ideal) (K.uin2 A))
    (h_c_61 : V (Proc.devRef .tc main_c_61) = C_c_61) :
    after k_hostOps10_11 V (Proc.devRef .tc main_v438) = C_v438 (F := Ideal) (C_v427 (F := Ideal) (K.uin2 A)) (C_c_61) :=
  ((show after k_hostOps10_11 V (Proc.devRef .tc main_v438) = C_v438 (F := Ideal) (V (Proc.devRef .tc main_v427)) (V (Proc.devRef .tc main_c_61)) by
    kr_results
    rfl).trans (by rw [h_v427, h_c_61]))

set_option maxHeartbeats 4000000 in
/-- The buffer `main_c_63` after item 93, from contents that hold what the item reads: first as the item's function of
    those contents, then with their values put in. -/
theorem rd_c_63 (V : Valuation τ sig (Elt Ideal)) (A : K.Args) :
    after hostOps11 V (Proc.devRef .tc main_c_63) = C_c_63 :=
  (show after hostOps11 V (Proc.devRef .tc main_c_63) = C_c_63 by
    kr_results
    rfl)

set_option maxHeartbeats 4000000 in
/-- The buffer `main_v445` after item 93, from contents that hold what the item reads: first as the item's function of
    those contents, then with their values put in, which is the named value. -/
theorem st_ua3 (V : Valuation τ sig (Elt Ideal)) (A : K.Args)
    (h_v5 : V (Proc.devRef .tc main_v5) = K.ur A)
    (h_v439 : V (Proc.devRef .tc main_v439) = K.edgeFn (C_v436 (F := Ideal) (C_v424 (F := Ideal) (C_v423 (F := Ideal) (K.ur A) (K.ln3 A))) (C_c_59)) (C_v437 (F := Ideal) (C_v426 (F := Ideal) (C_v425 (F := Ideal) (K.uc A) (K.ln3 A))) (C_c_60)) (C_v438 (F := Ideal) (C_v427 (F := Ideal) (K.uin2 A)) (C_c_61)) (C_v429 (F := Ideal) (K.P12_eW1 A)) (C_v430 (F := Ideal) (K.P12_eW1 A)) (C_v431 (F := Ideal) (K.P12_eW1 A)) (C_v434 (F := Ideal) (K.P12_eb1 A) (K.g5 A) (K.P12_eW1 A)) (K.P12_eW2 A) (C_v435 (F := Ideal) (K.P12_eb2 A)))
    (h_v23 : V (Proc.devRef .tc main_v23) = C_v23 (F := Ideal) (A.a2)) :
    after hostOps11 V (Proc.devRef .tc main_v445) = K.ua3 A :=
  ((show after hostOps11 V (Proc.devRef .tc main_v445) = C_v445 (F := Ideal) (V (Proc.devRef .tc main_v5)) (V (Proc.devRef .tc main_v439)) (V (Proc.devRef .tc main_v23)) by
    kr_results
    rfl).trans (by rw [h_v5, h_v439, h_v23])).trans
    (show C_v445 (F := Ideal) (K.ur A) (K.edgeFn (C_v436 (F := Ideal) (C_v424 (F := Ideal) (C_v423 (F := Ideal) (K.ur A) (K.ln3 A))) (C_c_59)) (C_v437 (F := Ideal) (C_v426 (F := Ideal) (C_v425 (F := Ideal) (K.uc A) (K.ln3 A))) (C_c_60)) (C_v438 (F := Ideal) (C_v427 (F := Ideal) (K.uin2 A)) (C_c_61)) (C_v429 (F := Ideal) (K.P12_eW1 A)) (C_v430 (F := Ideal) (K.P12_eW1 A)) (C_v431 (F := Ideal) (K.P12_eW1 A)) (C_v434 (F := Ideal) (K.P12_eb1 A) (K.g5 A) (K.P12_eW1 A)) (K.P12_eW2 A) (C_v435 (F := Ideal) (K.P12_eb2 A))) (C_v23 (F := Ideal) (A.a2)) = K.ua3 A from rfl)

set_option maxHeartbeats 4000000 in
/-- The buffer `main_v447` after item 93, from contents that hold what the item reads: first as the item's function of
    those contents, then with their values put in. -/
theorem rd_v447 (V : Valuation τ sig (Elt Ideal)) (A : K.Args)
    (h_v359 : V (Proc.devRef .tc main_v359) = K.P12_nW1 A) :
    after hostOps11 V (Proc.devRef .tc main_v447) = C_v447 (F := Ideal) (K.P12_nW1 A) :=
  ((show after hostOps11 V (Proc.devRef .tc main_v447) = C_v447 (F := Ideal) (V (Proc.devRef .tc main_v359)) by
    kr_results
    rfl).trans (by rw [h_v359]))

set_option maxHeartbeats 4000000 in
/-- The buffer `main_v448` after item 93, from contents that hold what the item reads: first as the item's function of
    those contents, then with their values put in. -/
theorem rd_v448 (V : Valuation τ sig (Elt Ideal)) (A : K.Args)
    (h_v359 : V (Proc.devRef .tc main_v359) = K.P12_nW1 A) :
    after hostOps11 V (Proc.devRef .tc main_v448) = C_v448 (F := Ideal) (K.P12_nW1 A) :=
  ((show after hostOps11 V (Proc.devRef .tc main_v448) = C_v448 (F := Ideal) (V (Proc.devRef .tc main_v359)) by
    kr_results
    rfl).trans (by rw [h_v359]))

set_option maxHeartbeats 4000000 in
/-- The buffer `main_v451` after item 93, from contents that hold what the item reads: first as the item's function of
    those contents, then with their values put in. -/
theorem rd_v451 (V : Valuation τ sig (Elt Ideal)) (A : K.Args)
    (h_v361 : V (Proc.devRef .tc main_v361) = K.P12_nb1 A)
    (h_v420 : V (Proc.devRef .tc main_v420) = K.g5 A)
    (h_v359 : V (Proc.devRef .tc main_v359) = K.P12_nW1 A) :
    after hostOps11 V (Proc.devRef .tc main_v451) = C_v451 (F := Ideal) (K.P12_nb1 A) (K.g5 A) (K.P12_nW1 A) :=
  ((show after hostOps11 V (Proc.devRef .tc main_v451) = C_v451 (F := Ideal) (V (Proc.devRef .tc main_v361)) (V (Proc.devRef .tc main_v420)) (V (Proc.devRef .tc main_v359)) by
    kr_results
    rfl).trans (by rw [h_v361, h_v420, h_v359]))

set_option maxHeartbeats 4000000 in
/-- The buffer `main_v452` after item 93, from contents that hold what the item reads: first as the item's function of
    those contents, then with their values put in. -/
theorem rd_v452 (V : Valuation τ sig (Elt Ideal)) (A : K.Args)
    (h_v365 : V (Proc.devRef .tc main_v365) = K.P12_nb2 A) :
    after hostOps11 V (Proc.devRef .tc main_v452) = C_v452 (F := Ideal) (K.P12_nb2 A) :=
  ((show after hostOps11 V (Proc.devRef .tc main_v452) = C_v452 (F := Ideal) (V (Proc.devRef .tc main_v365)) by
    kr_results
    rfl).trans (by rw [h_v365]))

set_option maxHeartbeats 4000000 in
/-- The buffer `main_v440` after item 93, from contents that hold what the item reads: first as the item's function of
    those contents, then with their values put in, which is the named value. -/
theorem st_ue3 (V : Valuation τ sig (Elt Ideal)) (A : K.Args)
    (h_v439 : V (Proc.devRef .tc main_v439) = K.edgeFn (C_v436 (F := Ideal) (C_v424 (F := Ideal) (C_v423 (F := Ideal) (K.ur A) (K.ln3 A))) (C_c_59)) (C_v437 (F := Ideal) (C_v426 (F := Ideal) (C_v425 (F := Ideal) (K.uc A) (K.ln3 A))) (C_c_60)) (C_v438 (F := Ideal) (C_v427 (F := Ideal) (K.uin2 A)) (C_c_61)) (C_v429 (F := Ideal) (K.P12_eW1 A)) (C_v430 (F := Ideal) (K.P12_eW1 A)) (C_v431 (F := Ideal) (K.P12_eW1 A)) (C_v434 (F := Ideal) (K.P12_eb1 A) (K.g5 A) (K.P12_eW1 A)) (K.P12_eW2 A) (C_v435 (F := Ideal) (K.P12_eb2 A))) :
    after hostOps11 V (Proc.devRef .tc main_v440) = K.ue3 A :=
  ((show after hostOps11 V (Proc.devRef .tc main_v440) = C_v440 (F := Ideal) (V (Proc.devRef .tc main_v439)) by
    kr_results
    rfl).trans (by rw [h_v439])).trans
    (show C_v440 (F := Ideal) (K.edgeFn (C_v436 (F := Ideal) (C_v424 (F := Ideal) (C_v423 (F := Ideal) (K.ur A) (K.ln3 A))) (C_c_59)) (C_v437 (F := Ideal) (C_v426 (F := Ideal) (C_v425 (F := Ideal) (K.uc A) (K.ln3 A))) (C_c_60)) (C_v438 (F := Ideal) (C_v427 (F := Ideal) (K.uin2 A)) (C_c_61)) (C_v429 (F := Ideal) (K.P12_eW1 A)) (C_v430 (F := Ideal) (K.P12_eW1 A)) (C_v431 (F := Ideal) (K.P12_eW1 A)) (C_v434 (F := Ideal) (K.P12_eb1 A) (K.g5 A) (K.P12_eW1 A)) (K.P12_eW2 A) (C_v435 (F := Ideal) (K.P12_eb2 A))) = K.ue3 A from rfl)

set_option maxHeartbeats 4000000 in
/-- The buffer `main_v453` after item 94, from contents that hold what the item reads: first as the item's function of
    those contents, then with their values put in. -/
theorem rd_v453 (V : Valuation τ sig (Elt Ideal)) (A : K.Args)
    (h_v422 : V (Proc.devRef .tc main_v422) = C_v422 (F := Ideal) (K.ln3 A))
    (h_c_63 : V (Proc.devRef .tc main_c_63) = C_c_63) :
    after k_hostOps11_1 V (Proc.devRef .tc main_v453) = C_v453 (F := Ideal) (C_v422 (F := Ideal) (K.ln3 A)) (C_c_63) :=
  ((show after k_hostOps11_1 V (Proc.devRef .tc main_v453) = C_v453 (F := Ideal) (V (Proc.devRef .tc main_v422)) (V (Proc.devRef .tc main_c_63)) by
    kr_results
    rfl).trans (by rw [h_v422, h_c_63]))

set_option maxHeartbeats 4000000 in
/-- The buffer `main_c_64` after item 95, from contents that hold what the item reads: first as the item's function of
    those contents, then with their values put in. -/
theorem rd_c_64 (V : Valuation τ sig (Elt Ideal)) (A : K.Args) :
    after hostOps11_2 V (Proc.devRef .tc main_c_64) = C_c_64 :=
  (show after hostOps11_2 V (Proc.devRef .tc main_c_64) = C_c_64 by
    kr_results
    rfl)

set_option maxHeartbeats 4000000 in
/-- The buffer `main_v454` after item 96, from contents that hold what the item reads: first as the item's function of
    those contents, then with their values put in. -/
theorem rd_v454 (V : Valuation τ sig (Elt Ideal)) (A : K.Args)
    (h_v445 : V (Proc.devRef .tc main_v445) = K.ua3 A)
    (h_c_64 : V (Proc.devRef .tc main_c_64) = C_c_64) :
    after k_hostOps11_3 V (Proc.devRef .tc main_v454) = C_v454 (F := Ideal) (K.ua3 A) (C_c_64) :=
  ((show after k_hostOps11_3 V (Proc.devRef .tc main_v454) = C_v454 (F := Ideal) (V (Proc.devRef .tc main_v445)) (V (Proc.devRef .tc main_c_64)) by
    kr_results
    rfl).trans (by rw [h_v445, h_c_64]))

end Cert.Val.KRead

end
-- ==== Proof.Val.KReadH12.lean ====
import proofs.«426760_j80470507258346_3_alg».proof.Proof.Val.KReadLib
import proofs.«426760_j80470507258346_3_alg».proof.Proof.Val.KReadC
import proofs.«426760_j80470507258346_3_alg».proof.Proof.Val.KReadL

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the host items 98 … 104

Each theorem reads one buffer after the host item that writes it, from ANY contents `V` that hold what the item
reads: the composed term of the item's operations is the named value's definition, or the intermediate buffer's
function, applied to them. -/

-- the big host operations stay closed: two spellings of one stage meet argument by argument
attribute [local irreducible] Host.scatterAdd Host.reduceAdd Host.reduce Host.gather

set_option maxHeartbeats 4000000 in
/-- The buffer `main_v469` after item 98, from contents that hold what the item reads: first as the item's function of
    those contents, then with their values put in. -/
theorem rd_v469 (V : Valuation τ sig (Elt Ideal)) (A : K.Args)
    (h_v455 : V (Proc.devRef .tc main_v455) = K.nodeFn (C_v453 (F := Ideal) (C_v422 (F := Ideal) (K.ln3 A)) (C_c_63)) (C_v454 (F := Ideal) (K.ua3 A) (C_c_64)) (C_v447 (F := Ideal) (K.P12_nW1 A)) (C_v448 (F := Ideal) (K.P12_nW1 A)) (C_v451 (F := Ideal) (K.P12_nb1 A) (K.g5 A) (K.P12_nW1 A)) (K.P12_nW2 A) (C_v452 (F := Ideal) (K.P12_nb2 A)))
    (h_v440 : V (Proc.devRef .tc main_v440) = K.ue3 A)
    (h_v420 : V (Proc.devRef .tc main_v420) = K.g5 A)
    (h_v367 : V (Proc.devRef .tc main_v367) = K.P12_gW1 A)
    (h_v369 : V (Proc.devRef .tc main_v369) = K.P12_gb1 A) :
    after hostOps12 V (Proc.devRef .tc main_v469) = C_v469 (F := Ideal) (K.nodeFn (C_v453 (F := Ideal) (C_v422 (F := Ideal) (K.ln3 A)) (C_c_63)) (C_v454 (F := Ideal) (K.ua3 A) (C_c_64)) (C_v447 (F := Ideal) (K.P12_nW1 A)) (C_v448 (F := Ideal) (K.P12_nW1 A)) (C_v451 (F := Ideal) (K.P12_nb1 A) (K.g5 A) (K.P12_nW1 A)) (K.P12_nW2 A) (C_v452 (F := Ideal) (K.P12_nb2 A))) (K.ue3 A) (K.g5 A) (K.P12_gW1 A) (K.P12_gb1 A) :=
  ((show after hostOps12 V (Proc.devRef .tc main_v469) = C_v469 (F := Ideal) (V (Proc.devRef .tc main_v455)) (V (Proc.devRef .tc main_v440)) (V (Proc.devRef .tc main_v420)) (V (Proc.devRef .tc main_v367)) (V (Proc.devRef .tc main_v369)) by
    kr_results
    rfl).trans (by rw [h_v455, h_v440, h_v420, h_v367, h_v369]))

set_option maxHeartbeats 4000000 in
/-- The buffer `main_v467` after item 98, from contents that hold what the item reads: first as the item's function of
    those contents, then with their values put in. -/
theorem rd_v467 (V : Valuation τ sig (Elt Ideal)) (A : K.Args)
    (h_v373 : V (Proc.devRef .tc main_v373) = K.P12_gb2 A) :
    after hostOps12 V (Proc.devRef .tc main_v467) = C_v467 (F := Ideal) (K.P12_gb2 A) :=
  ((show after hostOps12 V (Proc.devRef .tc main_v467) = C_v467 (F := Ideal) (V (Proc.devRef .tc main_v373)) by
    kr_results
    rfl).trans (by rw [h_v373]))

set_option maxHeartbeats 4000000 in
/-- The buffer `main_v456` after item 98, from contents that hold what the item reads: first as the item's function of
    those contents, then with their values put in, which is the named value. -/
theorem st_un3 (V : Valuation τ sig (Elt Ideal)) (A : K.Args)
    (h_v455 : V (Proc.devRef .tc main_v455) = K.nodeFn (C_v453 (F := Ideal) (C_v422 (F := Ideal) (K.ln3 A)) (C_c_63)) (C_v454 (F := Ideal) (K.ua3 A) (C_c_64)) (C_v447 (F := Ideal) (K.P12_nW1 A)) (C_v448 (F := Ideal) (K.P12_nW1 A)) (C_v451 (F := Ideal) (K.P12_nb1 A) (K.g5 A) (K.P12_nW1 A)) (K.P12_nW2 A) (C_v452 (F := Ideal) (K.P12_nb2 A))) :
    after hostOps12 V (Proc.devRef .tc main_v456) = K.un3 A :=
  ((show after hostOps12 V (Proc.devRef .tc main_v456) = C_v456 (F := Ideal) (V (Proc.devRef .tc main_v455)) by
    kr_results
    rfl).trans (by rw [h_v455])).trans
    (show C_v456 (F := Ideal) (K.nodeFn (C_v453 (F := Ideal) (C_v422 (F := Ideal) (K.ln3 A)) (C_c_63)) (C_v454 (F := Ideal) (K.ua3 A) (C_c_64)) (C_v447 (F := Ideal) (K.P12_nW1 A)) (C_v448 (F := Ideal) (K.P12_nW1 A)) (C_v451 (F := Ideal) (K.P12_nb1 A) (K.g5 A) (K.P12_nW1 A)) (K.P12_nW2 A) (C_v452 (F := Ideal) (K.P12_nb2 A))) = K.un3 A from rfl)

set_option maxHeartbeats 4000000 in
/-- The buffer `main_v470` after item 99, from contents that hold what the item reads: first as the item's function of
    those contents, then with their values put in. -/
theorem rd_v470 (V : Valuation τ sig (Elt Ideal)) (A : K.Args)
    (h_v469 : V (Proc.devRef .tc main_v469) = C_v469 (F := Ideal) (K.nodeFn (C_v453 (F := Ideal) (C_v422 (F := Ideal) (K.ln3 A)) (C_c_63)) (C_v454 (F := Ideal) (K.ua3 A) (C_c_64)) (C_v447 (F := Ideal) (K.P12_nW1 A)) (C_v448 (F := Ideal) (K.P12_nW1 A)) (C_v451 (F := Ideal) (K.P12_nb1 A) (K.g5 A) (K.P12_nW1 A)) (K.P12_nW2 A) (C_v452 (F := Ideal) (K.P12_nb2 A))) (K.ue3 A) (K.g5 A) (K.P12_gW1 A) (K.P12_gb1 A)) :
    after k_hostOps12_1 V (Proc.devRef .tc main_v470) = C_v470 (F := Ideal) (C_v469 (F := Ideal) (K.nodeFn (C_v453 (F := Ideal) (C_v422 (F := Ideal) (K.ln3 A)) (C_c_63)) (C_v454 (F := Ideal) (K.ua3 A) (C_c_64)) (C_v447 (F := Ideal) (K.P12_nW1 A)) (C_v448 (F := Ideal) (K.P12_nW1 A)) (C_v451 (F := Ideal) (K.P12_nb1 A) (K.g5 A) (K.P12_nW1 A)) (K.P12_nW2 A) (C_v452 (F := Ideal) (K.P12_nb2 A))) (K.ue3 A) (K.g5 A) (K.P12_gW1 A) (K.P12_gb1 A)) :=
  ((show after k_hostOps12_1 V (Proc.devRef .tc main_v470) = C_v470 (F := Ideal) (V (Proc.devRef .tc main_v469)) by
    kr_results
    rfl).trans (by rw [h_v469]))

set_option maxHeartbeats 4000000 in
/-- The buffer `main_v473` after item 100, from contents that hold what the item reads: first as the item's function of
    those contents, then with their values put in. -/
theorem rd_v473 (V : Valuation τ sig (Elt Ideal)) (A : K.Args)
    (h_v1 : V (Proc.devRef .tc main_v1) = K.lr A)
    (h_v3 : V (Proc.devRef .tc main_v3) = K.lc A) :
    after hostOps12_2 V (Proc.devRef .tc main_v473) = C_v473 (K.lr A) (K.lc A) :=
  ((show after hostOps12_2 V (Proc.devRef .tc main_v473) = C_v473 (V (Proc.devRef .tc main_v1)) (V (Proc.devRef .tc main_v3)) by
    kr_results
    rfl).trans (by rw [h_v1, h_v3]))

set_option maxHeartbeats 4000000 in
/-- The buffer `main_v475` after item 100, from contents that hold what the item reads: first as the item's function of
    those contents, then with their values put in. -/
theorem rd_v475 (V : Valuation τ sig (Elt Ideal)) (A : K.Args)
    (h_v388 : V (Proc.devRef .tc main_v388) = K.le3 A) :
    after hostOps12_2 V (Proc.devRef .tc main_v475) = C_v475 (F := Ideal) (K.le3 A) :=
  ((show after hostOps12_2 V (Proc.devRef .tc main_v475) = C_v475 (F := Ideal) (V (Proc.devRef .tc main_v388)) by
    kr_results
    rfl).trans (by rw [h_v388]))

set_option maxHeartbeats 4000000 in
/-- The buffer `main_v476` after item 100, from contents that hold what the item reads: first as the item's function of
    those contents, then with their values put in. -/
theorem rd_v476 (V : Valuation τ sig (Elt Ideal)) (A : K.Args)
    (h_v388 : V (Proc.devRef .tc main_v388) = K.le3 A) :
    after hostOps12_2 V (Proc.devRef .tc main_v476) = C_v476 (F := Ideal) (K.le3 A) :=
  ((show after hostOps12_2 V (Proc.devRef .tc main_v476) = C_v476 (F := Ideal) (V (Proc.devRef .tc main_v388)) by
    kr_results
    rfl).trans (by rw [h_v388]))

set_option maxHeartbeats 4000000 in
/-- The buffer `main_v472` after item 100, from contents that hold what the item reads: first as the item's function of
    those contents, then with their values put in, which is the named value. -/
theorem st_g6 (V : Valuation τ sig (Elt Ideal)) (A : K.Args)
    (h_v470 : V (Proc.devRef .tc main_v470) = C_v470 (F := Ideal) (C_v469 (F := Ideal) (K.nodeFn (C_v453 (F := Ideal) (C_v422 (F := Ideal) (K.ln3 A)) (C_c_63)) (C_v454 (F := Ideal) (K.ua3 A) (C_c_64)) (C_v447 (F := Ideal) (K.P12_nW1 A)) (C_v448 (F := Ideal) (K.P12_nW1 A)) (C_v451 (F := Ideal) (K.P12_nb1 A) (K.g5 A) (K.P12_nW1 A)) (K.P12_nW2 A) (C_v452 (F := Ideal) (K.P12_nb2 A))) (K.ue3 A) (K.g5 A) (K.P12_gW1 A) (K.P12_gb1 A)))
    (h_v371 : V (Proc.devRef .tc main_v371) = K.P12_gW2 A)
    (h_v467 : V (Proc.devRef .tc main_v467) = C_v467 (F := Ideal) (K.P12_gb2 A)) :
    after hostOps12_2 V (Proc.devRef .tc main_v472) = K.g6 A :=
  ((show after hostOps12_2 V (Proc.devRef .tc main_v472) = C_v472 (F := Ideal) (V (Proc.devRef .tc main_v470)) (V (Proc.devRef .tc main_v371)) (V (Proc.devRef .tc main_v467)) by
    kr_results
    rfl).trans (by rw [h_v470, h_v371, h_v467])).trans
    (show C_v472 (F := Ideal) (C_v470 (F := Ideal) (C_v469 (F := Ideal) (K.nodeFn (C_v453 (F := Ideal) (C_v422 (F := Ideal) (K.ln3 A)) (C_c_63)) (C_v454 (F := Ideal) (K.ua3 A) (C_c_64)) (C_v447 (F := Ideal) (K.P12_nW1 A)) (C_v448 (F := Ideal) (K.P12_nW1 A)) (C_v451 (F := Ideal) (K.P12_nb1 A) (K.g5 A) (K.P12_nW1 A)) (K.P12_nW2 A) (C_v452 (F := Ideal) (K.P12_nb2 A))) (K.ue3 A) (K.g5 A) (K.P12_gW1 A) (K.P12_gb1 A))) (K.P12_gW2 A) (C_v467 (F := Ideal) (K.P12_gb2 A)) = K.g6 A from rfl)

set_option maxHeartbeats 4000000 in
/-- The buffer `main_v477` after item 101, from contents that hold what the item reads: first as the item's function of
    those contents, then with their values put in. -/
theorem rd_v477 (V : Valuation τ sig (Elt Ideal)) (A : K.Args)
    (h_v473 : V (Proc.devRef .tc main_v473) = C_v473 (K.lr A) (K.lc A))
    (h_v475 : V (Proc.devRef .tc main_v475) = C_v475 (F := Ideal) (K.le3 A))
    (h_v476 : V (Proc.devRef .tc main_v476) = C_v476 (F := Ideal) (K.le3 A)) :
    after k_hostOps12_3 V (Proc.devRef .tc main_v477) = C_v477 (F := Ideal) (C_v473 (K.lr A) (K.lc A)) (C_v475 (F := Ideal) (K.le3 A)) (C_v476 (F := Ideal) (K.le3 A)) :=
  ((show after k_hostOps12_3 V (Proc.devRef .tc main_v477) = C_v477 (F := Ideal) (V (Proc.devRef .tc main_v473)) (V (Proc.devRef .tc main_v475)) (V (Proc.devRef .tc main_v476)) by
    kr_results
    rfl).trans (by rw [h_v473, h_v475, h_v476]))

set_option maxHeartbeats 4000000 in
/-- The buffer `main_v478` after item 102, from contents that hold what the item reads: first as the item's function of
    those contents, then with their values put in. -/
theorem rd_v478 (V : Valuation τ sig (Elt Ideal)) (A : K.Args)
    (h_v5 : V (Proc.devRef .tc main_v5) = K.ur A)
    (h_v7 : V (Proc.devRef .tc main_v7) = K.uc A) :
    after hostOps12_4 V (Proc.devRef .tc main_v478) = C_v478 (K.ur A) (K.uc A) :=
  ((show after hostOps12_4 V (Proc.devRef .tc main_v478) = C_v478 (V (Proc.devRef .tc main_v5)) (V (Proc.devRef .tc main_v7)) by
    kr_results
    rfl).trans (by rw [h_v5, h_v7]))

set_option maxHeartbeats 4000000 in
/-- The buffer `main_v480` after item 102, from contents that hold what the item reads: first as the item's function of
    those contents, then with their values put in. -/
theorem rd_v480 (V : Valuation τ sig (Elt Ideal)) (A : K.Args)
    (h_v440 : V (Proc.devRef .tc main_v440) = K.ue3 A) :
    after hostOps12_4 V (Proc.devRef .tc main_v480) = C_v480 (F := Ideal) (K.ue3 A) :=
  ((show after hostOps12_4 V (Proc.devRef .tc main_v480) = C_v480 (F := Ideal) (V (Proc.devRef .tc main_v440)) by
    kr_results
    rfl).trans (by rw [h_v440]))

set_option maxHeartbeats 4000000 in
/-- The buffer `main_v481` after item 102, from contents that hold what the item reads: first as the item's function of
    those contents, then with their values put in. -/
theorem rd_v481 (V : Valuation τ sig (Elt Ideal)) (A : K.Args)
    (h_v440 : V (Proc.devRef .tc main_v440) = K.ue3 A) :
    after hostOps12_4 V (Proc.devRef .tc main_v481) = C_v481 (F := Ideal) (K.ue3 A) :=
  ((show after hostOps12_4 V (Proc.devRef .tc main_v481) = C_v481 (F := Ideal) (V (Proc.devRef .tc main_v440)) by
    kr_results
    rfl).trans (by rw [h_v440]))

set_option maxHeartbeats 4000000 in
/-- The buffer `main_v482` after item 103, from contents that hold what the item reads: first as the item's function of
    those contents, then with their values put in. -/
theorem rd_v482 (V : Valuation τ sig (Elt Ideal)) (A : K.Args)
    (h_v478 : V (Proc.devRef .tc main_v478) = C_v478 (K.ur A) (K.uc A))
    (h_v480 : V (Proc.devRef .tc main_v480) = C_v480 (F := Ideal) (K.ue3 A))
    (h_v481 : V (Proc.devRef .tc main_v481) = C_v481 (F := Ideal) (K.ue3 A)) :
    after k_hostOps12_5 V (Proc.devRef .tc main_v482) = C_v482 (F := Ideal) (C_v478 (K.ur A) (K.uc A)) (C_v480 (F := Ideal) (K.ue3 A)) (C_v481 (F := Ideal) (K.ue3 A)) :=
  ((show after k_hostOps12_5 V (Proc.devRef .tc main_v482) = C_v482 (F := Ideal) (V (Proc.devRef .tc main_v478)) (V (Proc.devRef .tc main_v480)) (V (Proc.devRef .tc main_v481)) by
    kr_results
    rfl).trans (by rw [h_v478, h_v480, h_v481]))

set_option maxHeartbeats 4000000 in
/-- The buffer `main_v483` after item 104, from contents that hold what the item reads: first as the item's function of
    those contents, then with their values put in, which is the named value. -/
theorem st_result (V : Valuation τ sig (Elt Ideal)) (A : K.Args)
    (h_v477 : V (Proc.devRef .tc main_v477) = C_v477 (F := Ideal) (C_v473 (K.lr A) (K.lc A)) (C_v475 (F := Ideal) (K.le3 A)) (C_v476 (F := Ideal) (K.le3 A)))
    (h_v482 : V (Proc.devRef .tc main_v482) = C_v482 (F := Ideal) (C_v478 (K.ur A) (K.uc A)) (C_v480 (F := Ideal) (K.ue3 A)) (C_v481 (F := Ideal) (K.ue3 A))) :
    after hostOps12_6 V (Proc.devRef .tc main_v483) = K.result A :=
  ((show after hostOps12_6 V (Proc.devRef .tc main_v483) = C_v483 (F := Ideal) (V (Proc.devRef .tc main_v477)) (V (Proc.devRef .tc main_v482)) by
    kr_results
    rfl).trans (by rw [h_v477, h_v482])).trans
    (show C_v483 (F := Ideal) (C_v477 (F := Ideal) (C_v473 (K.lr A) (K.lc A)) (C_v475 (F := Ideal) (K.le3 A)) (C_v476 (F := Ideal) (K.le3 A))) (C_v482 (F := Ideal) (C_v478 (K.ur A) (K.uc A)) (C_v480 (F := Ideal) (K.ue3 A)) (C_v481 (F := Ideal) (K.ue3 A))) = K.result A from rfl)

end Cert.Val.KRead

end
-- ==== Proof.Val.Payload.lean ====
import proofs.«426760_j80470507258346_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The two bodies' stored values read at an index, over the extended reals (every format change the identity).

    An edge body takes three row blocks `x0, x2 : [8192, 8]`, `x4 : [8192, 2]`, three first-layer matrices
    `w6, w9 : [8, 32]`, `w12 : [2, 32]`, a bias row `b : [1, 32]`, a second-layer column `w : [32, 1]` and a bias
    `c : [1, 1]`; its value at row `p` is
    `∑ h, max (((x0 w6)[p, h] + (x2 w9)[p, h]) + (x4 w12)[p, h] + b[0, h]) 0 * w[h, 0] + c[0, 0]`.
    A node body takes `x0 : [8192, 8]`, `x2 : [8192, 1]`, `w4 : [8, 32]`, `w7 : [1, 32]`, a bias row `b : [1, 32]`,
    a second-layer matrix `w : [32, 8]` and a bias row `c : [1, 8]`; its value at row `p`, column `q` is
    `∑ h, max ((x0 w4)[p, h] + (x2 w7)[p, h] + b[0, h]) 0 * w[h, q] + c[0, q]`.
    Each block product into a zero accumulator is read as the sum over its one contracted axis, re-indexed by that
    axis's coordinate; the additions keep the bodies' own grouping. -/

noncomputable section

namespace Cert.KernelIdeal.PayVal

open Idealize.ShloMosaic Idealize.ShloMosaic.ValueIdx
open Cert.KernelIdeal.Gen
open scoped BigOperators

/-! ## Block products into a zero accumulator, one group of lemmas per pair of operand shapes

    For each dimension record: the left operand's index at output index `i` and contraction position `q` is
    `(i 0, q)`, the right operand's is `(q, i 1)` (four axis lemmas), and from them the product at `(p, h)`. -/

/-! ### The product of a [8192, 8] block and a [8, 32] matrix -/

theorem lhs_8_32_0 (i : S8192x32.Idx) (q : dot_S8192x8_S8x32_S8192x32_1_0_0_1_n_n.contr.Idx) :
    (dot_S8192x8_S8x32_S8192x32_1_0_0_1_n_n.lhsIdx i q 0).val = (i 0).val := by
  unfold DotDims.lhsIdx
  rw [dif_neg (show ¬(0 : Fin S8192x8.rank) ∈ dot_S8192x8_S8x32_S8192x32_1_0_0_1_n_n.lhsBatch by decide), dif_pos (show (0 : Fin S8192x8.rank) ∈ dot_S8192x8_S8x32_S8192x32_1_0_0_1_n_n.lhsNonContracting by decide)]
  rfl

theorem lhs_8_32_1 (i : S8192x32.Idx) (q : dot_S8192x8_S8x32_S8192x32_1_0_0_1_n_n.contr.Idx) :
    (dot_S8192x8_S8x32_S8192x32_1_0_0_1_n_n.lhsIdx i q 1).val = (q ⟨0, by decide⟩).val :=
  dot_S8192x8_S8x32_S8192x32_1_0_0_1_n_n.lhsIdx_val_of_single rfl i q

theorem rhs_8_32_0 (i : S8192x32.Idx) (q : dot_S8192x8_S8x32_S8192x32_1_0_0_1_n_n.contr.Idx) :
    (dot_S8192x8_S8x32_S8192x32_1_0_0_1_n_n.rhsIdx i q 0).val = (q ⟨0, by decide⟩).val :=
  dot_S8192x8_S8x32_S8192x32_1_0_0_1_n_n.rhsIdx_val_of_single rfl i q

theorem rhs_8_32_1 (i : S8192x32.Idx) (q : dot_S8192x8_S8x32_S8192x32_1_0_0_1_n_n.contr.Idx) :
    (dot_S8192x8_S8x32_S8192x32_1_0_0_1_n_n.rhsIdx i q 1).val = (i 1).val := by
  unfold DotDims.rhsIdx
  rw [dif_neg (show ¬(1 : Fin S8x32.rank) ∈ dot_S8192x8_S8x32_S8192x32_1_0_0_1_n_n.rhsBatch by decide), dif_pos (show (1 : Fin S8x32.rank) ∈ dot_S8192x8_S8x32_S8192x32_1_0_0_1_n_n.rhsNonContracting by decide)]
  rfl

/-- Into a zero accumulator the product at row `p`, column `h` is the sum over the 8 contracted positions. -/
theorem matmul_8_32_apply {φ₁ φ₂ : FTy} (x : FVec Ideal S8192x8 φ₁) (y : FVec Ideal S8x32 φ₂) (p : Fin 8192) (h : Fin 32) :
    matmul dot_S8192x8_S8x32_S8192x32_1_0_0_1_n_n none x y (constant (F := Ideal) S8192x32 .f32 0x00000000#32) (ix2 p h) =
      ∑ k : Fin 8, x (ix2 p k) * y (ix2 k h) := by
  simp only [matmul]
  rw [Ideal.matmul_constant_zero_apply, ← Equiv.sum_comp (contrEquiv1 dot_S8192x8_S8x32_S8192x32_1_0_0_1_n_n 8 rfl rfl).symm]
  refine Finset.sum_congr rfl fun k _ => ?_
  have hk := contrEquiv1_symm_val dot_S8192x8_S8x32_S8192x32_1_0_0_1_n_n 8 rfl rfl k
  have el : dot_S8192x8_S8x32_S8192x32_1_0_0_1_n_n.lhsIdx (ix2 p h) ((contrEquiv1 dot_S8192x8_S8x32_S8192x32_1_0_0_1_n_n 8 rfl rfl).symm k) = ix2 p k := funext fun a => Fin.ext (by
    match a with
    | ⟨0, _⟩ => exact lhs_8_32_0 _ _
    | ⟨1, _⟩ => exact (lhs_8_32_1 _ _).trans hk)
  have er : dot_S8192x8_S8x32_S8192x32_1_0_0_1_n_n.rhsIdx (ix2 p h) ((contrEquiv1 dot_S8192x8_S8x32_S8192x32_1_0_0_1_n_n 8 rfl rfl).symm k) = ix2 k h := funext fun a => Fin.ext (by
    match a with
    | ⟨0, _⟩ => exact (rhs_8_32_0 _ _).trans hk
    | ⟨1, _⟩ => exact rhs_8_32_1 _ _)
  rw [el, er]

/-! ### The product of a [8192, 2] block and a [2, 32] matrix -/

theorem lhs_2_32_0 (i : S8192x32.Idx) (q : dot_S8192x2_S2x32_S8192x32_1_0_0_1_n_n.contr.Idx) :
    (dot_S8192x2_S2x32_S8192x32_1_0_0_1_n_n.lhsIdx i q 0).val = (i 0).val := by
  unfold DotDims.lhsIdx
  rw [dif_neg (show ¬(0 : Fin S8192x2.rank) ∈ dot_S8192x2_S2x32_S8192x32_1_0_0_1_n_n.lhsBatch by decide), dif_pos (show (0 : Fin S8192x2.rank) ∈ dot_S8192x2_S2x32_S8192x32_1_0_0_1_n_n.lhsNonContracting by decide)]
  rfl

theorem lhs_2_32_1 (i : S8192x32.Idx) (q : dot_S8192x2_S2x32_S8192x32_1_0_0_1_n_n.contr.Idx) :
    (dot_S8192x2_S2x32_S8192x32_1_0_0_1_n_n.lhsIdx i q 1).val = (q ⟨0, by decide⟩).val :=
  dot_S8192x2_S2x32_S8192x32_1_0_0_1_n_n.lhsIdx_val_of_single rfl i q

theorem rhs_2_32_0 (i : S8192x32.Idx) (q : dot_S8192x2_S2x32_S8192x32_1_0_0_1_n_n.contr.Idx) :
    (dot_S8192x2_S2x32_S8192x32_1_0_0_1_n_n.rhsIdx i q 0).val = (q ⟨0, by decide⟩).val :=
  dot_S8192x2_S2x32_S8192x32_1_0_0_1_n_n.rhsIdx_val_of_single rfl i q

theorem rhs_2_32_1 (i : S8192x32.Idx) (q : dot_S8192x2_S2x32_S8192x32_1_0_0_1_n_n.contr.Idx) :
    (dot_S8192x2_S2x32_S8192x32_1_0_0_1_n_n.rhsIdx i q 1).val = (i 1).val := by
  unfold DotDims.rhsIdx
  rw [dif_neg (show ¬(1 : Fin S2x32.rank) ∈ dot_S8192x2_S2x32_S8192x32_1_0_0_1_n_n.rhsBatch by decide), dif_pos (show (1 : Fin S2x32.rank) ∈ dot_S8192x2_S2x32_S8192x32_1_0_0_1_n_n.rhsNonContracting by decide)]
  rfl

/-- Into a zero accumulator the product at row `p`, column `h` is the sum over the 2 contracted positions. -/
theorem matmul_2_32_apply {φ₁ φ₂ : FTy} (x : FVec Ideal S8192x2 φ₁) (y : FVec Ideal S2x32 φ₂) (p : Fin 8192) (h : Fin 32) :
    matmul dot_S8192x2_S2x32_S8192x32_1_0_0_1_n_n none x y (constant (F := Ideal) S8192x32 .f32 0x00000000#32) (ix2 p h) =
      ∑ k : Fin 2, x (ix2 p k) * y (ix2 k h) := by
  simp only [matmul]
  rw [Ideal.matmul_constant_zero_apply, ← Equiv.sum_comp (contrEquiv1 dot_S8192x2_S2x32_S8192x32_1_0_0_1_n_n 2 rfl rfl).symm]
  refine Finset.sum_congr rfl fun k _ => ?_
  have hk := contrEquiv1_symm_val dot_S8192x2_S2x32_S8192x32_1_0_0_1_n_n 2 rfl rfl k
  have el : dot_S8192x2_S2x32_S8192x32_1_0_0_1_n_n.lhsIdx (ix2 p h) ((contrEquiv1 dot_S8192x2_S2x32_S8192x32_1_0_0_1_n_n 2 rfl rfl).symm k) = ix2 p k := funext fun a => Fin.ext (by
    match a with
    | ⟨0, _⟩ => exact lhs_2_32_0 _ _
    | ⟨1, _⟩ => exact (lhs_2_32_1 _ _).trans hk)
  have er : dot_S8192x2_S2x32_S8192x32_1_0_0_1_n_n.rhsIdx (ix2 p h) ((contrEquiv1 dot_S8192x2_S2x32_S8192x32_1_0_0_1_n_n 2 rfl rfl).symm k) = ix2 k h := funext fun a => Fin.ext (by
    match a with
    | ⟨0, _⟩ => exact (rhs_2_32_0 _ _).trans hk
    | ⟨1, _⟩ => exact rhs_2_32_1 _ _)
  rw [el, er]

/-! ### The product of a [8192, 32] block and a [32, 1] matrix -/

theorem lhs_32_1_0 (i : S8192x1.Idx) (q : dot_S8192x32_S32x1_S8192x1_1_0_0_1_n_n.contr.Idx) :
    (dot_S8192x32_S32x1_S8192x1_1_0_0_1_n_n.lhsIdx i q 0).val = (i 0).val := by
  unfold DotDims.lhsIdx
  rw [dif_neg (show ¬(0 : Fin S8192x32.rank) ∈ dot_S8192x32_S32x1_S8192x1_1_0_0_1_n_n.lhsBatch by decide), dif_pos (show (0 : Fin S8192x32.rank) ∈ dot_S8192x32_S32x1_S8192x1_1_0_0_1_n_n.lhsNonContracting by decide)]
  rfl

theorem lhs_32_1_1 (i : S8192x1.Idx) (q : dot_S8192x32_S32x1_S8192x1_1_0_0_1_n_n.contr.Idx) :
    (dot_S8192x32_S32x1_S8192x1_1_0_0_1_n_n.lhsIdx i q 1).val = (q ⟨0, by decide⟩).val :=
  dot_S8192x32_S32x1_S8192x1_1_0_0_1_n_n.lhsIdx_val_of_single rfl i q

theorem rhs_32_1_0 (i : S8192x1.Idx) (q : dot_S8192x32_S32x1_S8192x1_1_0_0_1_n_n.contr.Idx) :
    (dot_S8192x32_S32x1_S8192x1_1_0_0_1_n_n.rhsIdx i q 0).val = (q ⟨0, by decide⟩).val :=
  dot_S8192x32_S32x1_S8192x1_1_0_0_1_n_n.rhsIdx_val_of_single rfl i q

theorem rhs_32_1_1 (i : S8192x1.Idx) (q : dot_S8192x32_S32x1_S8192x1_1_0_0_1_n_n.contr.Idx) :
    (dot_S8192x32_S32x1_S8192x1_1_0_0_1_n_n.rhsIdx i q 1).val = (i 1).val := by
  unfold DotDims.rhsIdx
  rw [dif_neg (show ¬(1 : Fin S32x1.rank) ∈ dot_S8192x32_S32x1_S8192x1_1_0_0_1_n_n.rhsBatch by decide), dif_pos (show (1 : Fin S32x1.rank) ∈ dot_S8192x32_S32x1_S8192x1_1_0_0_1_n_n.rhsNonContracting by decide)]
  rfl

/-- Into a zero accumulator the product at row `p`, column `h` is the sum over the 32 contracted positions. -/
theorem matmul_32_1_apply {φ₁ φ₂ : FTy} (x : FVec Ideal S8192x32 φ₁) (y : FVec Ideal S32x1 φ₂) (p : Fin 8192) (h : Fin 1) :
    matmul dot_S8192x32_S32x1_S8192x1_1_0_0_1_n_n none x y (constant (F := Ideal) S8192x1 .f32 0x00000000#32) (ix2 p h) =
      ∑ k : Fin 32, x (ix2 p k) * y (ix2 k h) := by
  simp only [matmul]
  rw [Ideal.matmul_constant_zero_apply, ← Equiv.sum_comp (contrEquiv1 dot_S8192x32_S32x1_S8192x1_1_0_0_1_n_n 32 rfl rfl).symm]
  refine Finset.sum_congr rfl fun k _ => ?_
  have hk := contrEquiv1_symm_val dot_S8192x32_S32x1_S8192x1_1_0_0_1_n_n 32 rfl rfl k
  have el : dot_S8192x32_S32x1_S8192x1_1_0_0_1_n_n.lhsIdx (ix2 p h) ((contrEquiv1 dot_S8192x32_S32x1_S8192x1_1_0_0_1_n_n 32 rfl rfl).symm k) = ix2 p k := funext fun a => Fin.ext (by
    match a with
    | ⟨0, _⟩ => exact lhs_32_1_0 _ _
    | ⟨1, _⟩ => exact (lhs_32_1_1 _ _).trans hk)
  have er : dot_S8192x32_S32x1_S8192x1_1_0_0_1_n_n.rhsIdx (ix2 p h) ((contrEquiv1 dot_S8192x32_S32x1_S8192x1_1_0_0_1_n_n 32 rfl rfl).symm k) = ix2 k h := funext fun a => Fin.ext (by
    match a with
    | ⟨0, _⟩ => exact (rhs_32_1_0 _ _).trans hk
    | ⟨1, _⟩ => exact rhs_32_1_1 _ _)
  rw [el, er]

/-! ### The product of a [8192, 1] block and a [1, 32] matrix -/

theorem lhs_1_32_0 (i : S8192x32.Idx) (q : dot_S8192x1_S1x32_S8192x32_1_0_0_1_n_n.contr.Idx) :
    (dot_S8192x1_S1x32_S8192x32_1_0_0_1_n_n.lhsIdx i q 0).val = (i 0).val := by
  unfold DotDims.lhsIdx
  rw [dif_neg (show ¬(0 : Fin S8192x1.rank) ∈ dot_S8192x1_S1x32_S8192x32_1_0_0_1_n_n.lhsBatch by decide), dif_pos (show (0 : Fin S8192x1.rank) ∈ dot_S8192x1_S1x32_S8192x32_1_0_0_1_n_n.lhsNonContracting by decide)]
  rfl

theorem lhs_1_32_1 (i : S8192x32.Idx) (q : dot_S8192x1_S1x32_S8192x32_1_0_0_1_n_n.contr.Idx) :
    (dot_S8192x1_S1x32_S8192x32_1_0_0_1_n_n.lhsIdx i q 1).val = (q ⟨0, by decide⟩).val :=
  dot_S8192x1_S1x32_S8192x32_1_0_0_1_n_n.lhsIdx_val_of_single rfl i q

theorem rhs_1_32_0 (i : S8192x32.Idx) (q : dot_S8192x1_S1x32_S8192x32_1_0_0_1_n_n.contr.Idx) :
    (dot_S8192x1_S1x32_S8192x32_1_0_0_1_n_n.rhsIdx i q 0).val = (q ⟨0, by decide⟩).val :=
  dot_S8192x1_S1x32_S8192x32_1_0_0_1_n_n.rhsIdx_val_of_single rfl i q

theorem rhs_1_32_1 (i : S8192x32.Idx) (q : dot_S8192x1_S1x32_S8192x32_1_0_0_1_n_n.contr.Idx) :
    (dot_S8192x1_S1x32_S8192x32_1_0_0_1_n_n.rhsIdx i q 1).val = (i 1).val := by
  unfold DotDims.rhsIdx
  rw [dif_neg (show ¬(1 : Fin S1x32.rank) ∈ dot_S8192x1_S1x32_S8192x32_1_0_0_1_n_n.rhsBatch by decide), dif_pos (show (1 : Fin S1x32.rank) ∈ dot_S8192x1_S1x32_S8192x32_1_0_0_1_n_n.rhsNonContracting by decide)]
  rfl

/-- Into a zero accumulator the product at row `p`, column `h` is the sum over the 1 contracted positions. -/
theorem matmul_1_32_apply {φ₁ φ₂ : FTy} (x : FVec Ideal S8192x1 φ₁) (y : FVec Ideal S1x32 φ₂) (p : Fin 8192) (h : Fin 32) :
    matmul dot_S8192x1_S1x32_S8192x32_1_0_0_1_n_n none x y (constant (F := Ideal) S8192x32 .f32 0x00000000#32) (ix2 p h) =
      ∑ k : Fin 1, x (ix2 p k) * y (ix2 k h) := by
  simp only [matmul]
  rw [Ideal.matmul_constant_zero_apply, ← Equiv.sum_comp (contrEquiv1 dot_S8192x1_S1x32_S8192x32_1_0_0_1_n_n 1 rfl rfl).symm]
  refine Finset.sum_congr rfl fun k _ => ?_
  have hk := contrEquiv1_symm_val dot_S8192x1_S1x32_S8192x32_1_0_0_1_n_n 1 rfl rfl k
  have el : dot_S8192x1_S1x32_S8192x32_1_0_0_1_n_n.lhsIdx (ix2 p h) ((contrEquiv1 dot_S8192x1_S1x32_S8192x32_1_0_0_1_n_n 1 rfl rfl).symm k) = ix2 p k := funext fun a => Fin.ext (by
    match a with
    | ⟨0, _⟩ => exact lhs_1_32_0 _ _
    | ⟨1, _⟩ => exact (lhs_1_32_1 _ _).trans hk)
  have er : dot_S8192x1_S1x32_S8192x32_1_0_0_1_n_n.rhsIdx (ix2 p h) ((contrEquiv1 dot_S8192x1_S1x32_S8192x32_1_0_0_1_n_n 1 rfl rfl).symm k) = ix2 k h := funext fun a => Fin.ext (by
    match a with
    | ⟨0, _⟩ => exact (rhs_1_32_0 _ _).trans hk
    | ⟨1, _⟩ => exact rhs_1_32_1 _ _)
  rw [el, er]

/-! ### The product of a [8192, 32] block and a [32, 8] matrix -/

theorem lhs_32_8_0 (i : S8192x8.Idx) (q : dot_S8192x32_S32x8_S8192x8_1_0_0_1_n_n.contr.Idx) :
    (dot_S8192x32_S32x8_S8192x8_1_0_0_1_n_n.lhsIdx i q 0).val = (i 0).val := by
  unfold DotDims.lhsIdx
  rw [dif_neg (show ¬(0 : Fin S8192x32.rank) ∈ dot_S8192x32_S32x8_S8192x8_1_0_0_1_n_n.lhsBatch by decide), dif_pos (show (0 : Fin S8192x32.rank) ∈ dot_S8192x32_S32x8_S8192x8_1_0_0_1_n_n.lhsNonContracting by decide)]
  rfl

theorem lhs_32_8_1 (i : S8192x8.Idx) (q : dot_S8192x32_S32x8_S8192x8_1_0_0_1_n_n.contr.Idx) :
    (dot_S8192x32_S32x8_S8192x8_1_0_0_1_n_n.lhsIdx i q 1).val = (q ⟨0, by decide⟩).val :=
  dot_S8192x32_S32x8_S8192x8_1_0_0_1_n_n.lhsIdx_val_of_single rfl i q

theorem rhs_32_8_0 (i : S8192x8.Idx) (q : dot_S8192x32_S32x8_S8192x8_1_0_0_1_n_n.contr.Idx) :
    (dot_S8192x32_S32x8_S8192x8_1_0_0_1_n_n.rhsIdx i q 0).val = (q ⟨0, by decide⟩).val :=
  dot_S8192x32_S32x8_S8192x8_1_0_0_1_n_n.rhsIdx_val_of_single rfl i q

theorem rhs_32_8_1 (i : S8192x8.Idx) (q : dot_S8192x32_S32x8_S8192x8_1_0_0_1_n_n.contr.Idx) :
    (dot_S8192x32_S32x8_S8192x8_1_0_0_1_n_n.rhsIdx i q 1).val = (i 1).val := by
  unfold DotDims.rhsIdx
  rw [dif_neg (show ¬(1 : Fin S32x8.rank) ∈ dot_S8192x32_S32x8_S8192x8_1_0_0_1_n_n.rhsBatch by decide), dif_pos (show (1 : Fin S32x8.rank) ∈ dot_S8192x32_S32x8_S8192x8_1_0_0_1_n_n.rhsNonContracting by decide)]
  rfl

/-- Into a zero accumulator the product at row `p`, column `h` is the sum over the 32 contracted positions. -/
theorem matmul_32_8_apply {φ₁ φ₂ : FTy} (x : FVec Ideal S8192x32 φ₁) (y : FVec Ideal S32x8 φ₂) (p : Fin 8192) (h : Fin 8) :
    matmul dot_S8192x32_S32x8_S8192x8_1_0_0_1_n_n none x y (constant (F := Ideal) S8192x8 .f32 0x00000000#32) (ix2 p h) =
      ∑ k : Fin 32, x (ix2 p k) * y (ix2 k h) := by
  simp only [matmul]
  rw [Ideal.matmul_constant_zero_apply, ← Equiv.sum_comp (contrEquiv1 dot_S8192x32_S32x8_S8192x8_1_0_0_1_n_n 32 rfl rfl).symm]
  refine Finset.sum_congr rfl fun k _ => ?_
  have hk := contrEquiv1_symm_val dot_S8192x32_S32x8_S8192x8_1_0_0_1_n_n 32 rfl rfl k
  have el : dot_S8192x32_S32x8_S8192x8_1_0_0_1_n_n.lhsIdx (ix2 p h) ((contrEquiv1 dot_S8192x32_S32x8_S8192x8_1_0_0_1_n_n 32 rfl rfl).symm k) = ix2 p k := funext fun a => Fin.ext (by
    match a with
    | ⟨0, _⟩ => exact lhs_32_8_0 _ _
    | ⟨1, _⟩ => exact (lhs_32_8_1 _ _).trans hk)
  have er : dot_S8192x32_S32x8_S8192x8_1_0_0_1_n_n.rhsIdx (ix2 p h) ((contrEquiv1 dot_S8192x32_S32x8_S8192x8_1_0_0_1_n_n 32 rfl rfl).symm k) = ix2 k h := funext fun a => Fin.ext (by
    match a with
    | ⟨0, _⟩ => exact (rhs_32_8_0 _ _).trans hk
    | ⟨1, _⟩ => exact rhs_32_8_1 _ _)
  rw [el, er]

/-! ## The edge body's value -/

/-- The hidden layer of the edge body at row `p`, unit `h`: three block products, a bias row, and the maximum with `0`. -/
theorem edge_hidden_apply (x0 x2 : FVec Ideal S8192x8 .bf16) (x4 : FVec Ideal S8192x2 .bf16)
    (w6 w9 : FVec Ideal S8x32 .bf16) (w12 : FVec Ideal S2x32 .bf16) (b : FVec Ideal S1x32 .f32)
    (hb : S1x32.Broadcasts S8192x32) (p : Fin 8192) (h : Fin 32) :
    maximumf
        (addf
          (addf
            (addf (matmul dot_S8192x8_S8x32_S8192x32_1_0_0_1_n_n none x0 w6 (constant (F := Ideal) S8192x32 .f32 0x00000000#32))
              (matmul dot_S8192x8_S8x32_S8192x32_1_0_0_1_n_n none x2 w9 (constant (F := Ideal) S8192x32 .f32 0x00000000#32)))
            (matmul dot_S8192x2_S2x32_S8192x32_1_0_0_1_n_n none x4 w12 (constant (F := Ideal) S8192x32 .f32 0x00000000#32)))
          (broadcastTo S8192x32 b hb))
        (broadcast S8192x32 (Scalar.ofBits (F := Ideal) .f32 0x00000000#32)) (ix2 p h) =
      max ((((∑ k : Fin 8, x0 (ix2 p k) * w6 (ix2 k h)) + (∑ k : Fin 8, x2 (ix2 p k) * w9 (ix2 k h))) +
          (∑ k : Fin 2, x4 (ix2 p k) * w12 (ix2 k h))) + b (ix2 0 h)) 0 := by
  refine (maximumf_apply _ _ _).trans ?_
  refine congrArg₂ max ?_ Ideal.ofBits_zero_f32
  refine (addf_apply _ _ _).trans ?_
  refine congrArg₂ (· + ·) ?_ (broadcastTo_1b_ab_apply b hb p h)
  refine (addf_apply _ _ _).trans ?_
  refine congrArg₂ (· + ·) ?_ (matmul_2_32_apply x4 w12 p h)
  refine (addf_apply _ _ _).trans ?_
  exact congrArg₂ (· + ·) (matmul_8_32_apply x0 w6 p h) (matmul_8_32_apply x2 w9 p h)

/-- The edge body's stored value at row `p` (its one column): the second layer over the 32 hidden units, plus its bias. -/
theorem edge_pay_apply (v0 : Vec Ideal S8192x8 .bf16) (v2 : Vec Ideal S8192x8 .bf16) (v4 : Vec Ideal S8192x2 .bf16)
    (v6 : Vec Ideal S8x32 .f32) (v9 : Vec Ideal S8x32 .f32) (v12 : Vec Ideal S2x32 .f32) (v20 : Vec Ideal S1x32 .f32)
    (v27 : Vec Ideal S32x1 .f32) (v31 : Vec Ideal S1x1 .f32) (p : Fin 8192) :
    Gen.k0_pay1 (F := Ideal) v0 v2 v4 v6 v9 v12 v20 v27 v31 (ix2 p 0) =
      (∑ h : Fin 32, max ((((∑ k : Fin 8, v0 (ix2 p k) * v6 (ix2 k h)) + (∑ k : Fin 8, v2 (ix2 p k) * v9 (ix2 k h))) +
          (∑ k : Fin 2, v4 (ix2 p k) * v12 (ix2 k h))) + v20 (ix2 0 h)) 0 * v27 (ix2 h 0)) + v31 (ix2 0 0) := by
  unfold Gen.k0_pay1
  simp only [shapeCast_self]
  refine (addf_apply _ _ _).trans ?_
  refine congrArg₂ (· + ·) ?_ (broadcastTo_1b_ab_apply v31 _ p 0)
  refine (matmul_32_1_apply _ _ p 0).trans ?_
  refine Finset.sum_congr rfl fun h _ => ?_
  refine congrArg₂ (· * ·) ?_ rfl
  refine (truncf_apply (φ := .f32) (ψ := .bf16) _ bitsLt_bf16_f32 (ix2 p h)).trans ?_
  exact edge_hidden_apply v0 v2 v4 _ _ _ v20 _ p h

/-! ## The node body's value -/

/-- The hidden layer of the node body at row `p`, unit `h`: two block products, a bias row, and the maximum with `0`. -/
theorem node_hidden_apply (x0 : FVec Ideal S8192x8 .bf16) (x2 : FVec Ideal S8192x1 .bf16)
    (w4 : FVec Ideal S8x32 .bf16) (w7 : FVec Ideal S1x32 .bf16) (b : FVec Ideal S1x32 .f32)
    (hb : S1x32.Broadcasts S8192x32) (p : Fin 8192) (h : Fin 32) :
    maximumf
        (addf
          (addf (matmul dot_S8192x8_S8x32_S8192x32_1_0_0_1_n_n none x0 w4 (constant (F := Ideal) S8192x32 .f32 0x00000000#32))
            (matmul dot_S8192x1_S1x32_S8192x32_1_0_0_1_n_n none x2 w7 (constant (F := Ideal) S8192x32 .f32 0x00000000#32)))
          (broadcastTo S8192x32 b hb))
        (broadcast S8192x32 (Scalar.ofBits (F := Ideal) .f32 0x00000000#32)) (ix2 p h) =
      max (((∑ k : Fin 8, x0 (ix2 p k) * w4 (ix2 k h)) + (∑ k : Fin 1, x2 (ix2 p k) * w7 (ix2 k h))) + b (ix2 0 h)) 0 := by
  refine (maximumf_apply _ _ _).trans ?_
  refine congrArg₂ max ?_ Ideal.ofBits_zero_f32
  refine (addf_apply _ _ _).trans ?_
  refine congrArg₂ (· + ·) ?_ (broadcastTo_1b_ab_apply b hb p h)
  refine (addf_apply _ _ _).trans ?_
  exact congrArg₂ (· + ·) (matmul_8_32_apply x0 w4 p h) (matmul_1_32_apply x2 w7 p h)

/-- The node body's stored value at row `p`, column `q`: the second layer over the 32 hidden units, plus its bias. -/
theorem node_pay_apply (v0 : Vec Ideal S8192x8 .bf16) (v2 : Vec Ideal S8192x1 .bf16) (v4 : Vec Ideal S8x32 .f32)
    (v7 : Vec Ideal S1x32 .f32) (v13 : Vec Ideal S1x32 .f32) (v20 : Vec Ideal S32x8 .f32) (v24 : Vec Ideal S1x8 .f32)
    (p : Fin 8192) (q : Fin 8) :
    Gen.k1_pay1 (F := Ideal) v0 v2 v4 v7 v13 v20 v24 (ix2 p q) =
      (∑ h : Fin 32, max (((∑ k : Fin 8, v0 (ix2 p k) * v4 (ix2 k h)) + (∑ k : Fin 1, v2 (ix2 p k) * v7 (ix2 k h))) +
          v13 (ix2 0 h)) 0 * v20 (ix2 h q)) + v24 (ix2 0 q) := by
  unfold Gen.k1_pay1
  simp only [shapeCast_self]
  refine (addf_apply _ _ _).trans ?_
  refine congrArg₂ (· + ·) ?_ (broadcastTo_1b_ab_apply v24 _ p q)
  refine (matmul_32_8_apply _ _ p q).trans ?_
  refine Finset.sum_congr rfl fun h _ => ?_
  refine congrArg₂ (· * ·) ?_ rfl
  refine (truncf_apply (φ := .f32) (ψ := .bf16) _ bitsLt_bf16_f32 (ix2 p h)).trans ?_
  exact node_hidden_apply v0 v2 _ _ v13 _ p h

/-! ## The same two values with every operand typed as a function into the extended reals -/

theorem edge_pay_apply_ereal (v0 v2 : S8192x8.Idx → EReal) (v4 : S8192x2.Idx → EReal) (v6 v9 : S8x32.Idx → EReal)
    (v12 : S2x32.Idx → EReal) (v20 : S1x32.Idx → EReal) (v27 : S32x1.Idx → EReal) (v31 : S1x1.Idx → EReal) (p : Fin 8192) :
    Gen.k0_pay1 (F := Ideal) v0 v2 v4 v6 v9 v12 v20 v27 v31 (ix2 p 0) =
      ((∑ h : Fin 32, max ((((∑ k : Fin 8, v0 (ix2 p k) * v6 (ix2 k h)) + (∑ k : Fin 8, v2 (ix2 p k) * v9 (ix2 k h))) +
          (∑ k : Fin 2, v4 (ix2 p k) * v12 (ix2 k h))) + v20 (ix2 0 h)) 0 * v27 (ix2 h 0)) + v31 (ix2 0 0) : EReal) :=
  edge_pay_apply v0 v2 v4 v6 v9 v12 v20 v27 v31 p

theorem node_pay_apply_ereal (v0 : S8192x8.Idx → EReal) (v2 : S8192x1.Idx → EReal) (v4 : S8x32.Idx → EReal)
    (v7 v13 : S1x32.Idx → EReal) (v20 : S32x8.Idx → EReal) (v24 : S1x8.Idx → EReal) (p : Fin 8192) (q : Fin 8) :
    Gen.k1_pay1 (F := Ideal) v0 v2 v4 v7 v13 v20 v24 (ix2 p q) =
      ((∑ h : Fin 32, max (((∑ k : Fin 8, v0 (ix2 p k) * v4 (ix2 k h)) + (∑ k : Fin 1, v2 (ix2 p k) * v7 (ix2 k h))) +
          v13 (ix2 0 h)) 0 * v20 (ix2 h q)) + v24 (ix2 0 q) : EReal) :=
  node_pay_apply v0 v2 v4 v7 v13 v20 v24 p q

/-! ## The bodies of the other four edge layers and four node layers are the same functions -/

theorem k2_pay1_eq : @Gen.k2_pay1 = @Gen.k0_pay1 := rfl
theorem k4_pay1_eq : @Gen.k4_pay1 = @Gen.k0_pay1 := rfl
theorem k6_pay1_eq : @Gen.k6_pay1 = @Gen.k0_pay1 := rfl
theorem k8_pay1_eq : @Gen.k8_pay1 = @Gen.k0_pay1 := rfl
theorem k10_pay1_eq : @Gen.k10_pay1 = @Gen.k0_pay1 := rfl
theorem k3_pay1_eq : @Gen.k3_pay1 = @Gen.k1_pay1 := rfl
theorem k5_pay1_eq : @Gen.k5_pay1 = @Gen.k1_pay1 := rfl
theorem k7_pay1_eq : @Gen.k7_pay1 = @Gen.k1_pay1 := rfl
theorem k9_pay1_eq : @Gen.k9_pay1 = @Gen.k1_pay1 := rfl
theorem k11_pay1_eq : @Gen.k11_pay1 = @Gen.k1_pay1 := rfl

end Cert.KernelIdeal.PayVal
-- ==== Proof.Val.RegionRow0.lean ====
import proofs.«426760_j80470507258346_3_alg».proof.Proof.KI.Reg0
import proofs.«426760_j80470507258346_3_alg».proof.Proof.Val.Payload
import Idealize.ShloMosaic.Lib.ValueIdx
import Idealize.ShloMosaic.Lib.Pipeline.Value

/-! Pipeline 0's result array, row by row, over the extended reals, at ANY contents `V` of the TensorCore's buffers when
    the pipeline is entered. Point `t` writes back rows `8192 t … 8192 t + 8191`; row `p` of its block is the edge
    body's value of row `p` of the three row operands' blocks (rows `8192 t + p` of their arrays) and of the six small
    operands' blocks (their arrays whole). The 135 blocks tile the 1105920 rows (row `r` lies in the block of point
    `r / 8192`), so after the pipeline row `r` of the result array is
    `∑ h, max (((A0 A3)[r, h] + (A1 A4)[r, h]) + (A2 A5)[r, h] + A6[0, h]) 0 * A7[h, 0] + A8[0, 0]`
    of the nine operand arrays `A0 … A8` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 0 works on, each at its literal type -/

abbrev row0_arr0 (c : Dev nD) : Vec Ideal S1105920x8 .bf16 := V c (Pipeline.arrRef spec0 0)
abbrev row0_arr1 (c : Dev nD) : Vec Ideal S1105920x8 .bf16 := V c (Pipeline.arrRef spec0 1)
abbrev row0_arr2 (c : Dev nD) : Vec Ideal S1105920x2 .bf16 := V c (Pipeline.arrRef spec0 2)
abbrev row0_arr3 (c : Dev nD) : Vec Ideal S8x32 .f32 := V c (Pipeline.arrRef spec0 3)
abbrev row0_arr4 (c : Dev nD) : Vec Ideal S8x32 .f32 := V c (Pipeline.arrRef spec0 4)
abbrev row0_arr5 (c : Dev nD) : Vec Ideal S2x32 .f32 := V c (Pipeline.arrRef spec0 5)
abbrev row0_arr6 (c : Dev nD) : Vec Ideal S1x32 .f32 := V c (Pipeline.arrRef spec0 6)
abbrev row0_arr7 (c : Dev nD) : Vec Ideal S32x1 .f32 := V c (Pipeline.arrRef spec0 7)
abbrev row0_arr8 (c : Dev nD) : Vec Ideal S1x1 .f32 := V c (Pipeline.arrRef spec0 8)

/-! ## Where each block sits in its array -/

theorem row0_hz : (![0, 0] : Fin 2 → Nat) = fun _ => 0 := funext fun a => by fin_cases a <;> rfl

/-- The index maps, decided over the grid: the three row operands' and the result's block index is the point's number on
    the row axis, and every other block index is `0`. -/
theorem row0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of row operand 0's block at point `t` is row `8192 t + p` of its array. -/
theorem row0_blk0_apply (c : Dev nD) (t : Fin cfg0.N) (p : Fin 8192) (k : Fin 8) (r : Fin 1105920)
    (hr : r.val = t.val * 8192 + p.val) :
    (iblk0 V c 0 t : Vec Ideal S8192x8 .bf16) (ix2 p k) = row0_arr0 V c (ix2 r k) := by
  obtain ⟨e0, e1, -⟩ := row0_idx_facts t
  unfold iblk0
  show V c (Pipeline.arrRef spec0 0) (((cfg0.win 0).blk t).view.emb (ix2 p k)) = V c (Pipeline.arrRef spec0 0) (ix2 r k)
  refine congrArg (V c (Pipeline.arrRef spec0 0)) ?_
  funext a; apply Fin.ext
  match a with
  | ⟨0, _⟩ => show win0_0.index t (0 : Fin 2) * 8192 + 1 * p.val = r.val; omega
  | ⟨1, _⟩ => show win0_0.index t (1 : Fin 2) * 8 + 1 * k.val = k.val; omega

/-- The same for row operand 1. -/
theorem row0_blk1_apply (c : Dev nD) (t : Fin cfg0.N) (p : Fin 8192) (k : Fin 8) (r : Fin 1105920)
    (hr : r.val = t.val * 8192 + p.val) :
    (iblk0 V c 1 t : Vec Ideal S8192x8 .bf16) (ix2 p k) = row0_arr1 V c (ix2 r k) := by
  obtain ⟨-, -, e0, e1, -⟩ := row0_idx_facts t
  unfold iblk0
  show V c (Pipeline.arrRef spec0 1) (((cfg0.win 1).blk t).view.emb (ix2 p k)) = V c (Pipeline.arrRef spec0 1) (ix2 r k)
  refine congrArg (V c (Pipeline.arrRef spec0 1)) ?_
  funext a; apply Fin.ext
  match a with
  | ⟨0, _⟩ => show win0_1.index t (0 : Fin 2) * 8192 + 1 * p.val = r.val; omega
  | ⟨1, _⟩ => show win0_1.index t (1 : Fin 2) * 8 + 1 * k.val = k.val; omega

/-- The same for row operand 2. -/
theorem row0_blk2_apply (c : Dev nD) (t : Fin cfg0.N) (p : Fin 8192) (k : Fin 2) (r : Fin 1105920)
    (hr : r.val = t.val * 8192 + p.val) :
    (iblk0 V c 2 t : Vec Ideal S8192x2 .bf16) (ix2 p k) = row0_arr2 V c (ix2 r k) := by
  obtain ⟨-, -, -, -, e0, e1, -⟩ := row0_idx_facts t
  unfold iblk0
  show V c (Pipeline.arrRef spec0 2) (((cfg0.win 2).blk t).view.emb (ix2 p k)) = V c (Pipeline.arrRef spec0 2) (ix2 r k)
  refine congrArg (V c (Pipeline.arrRef spec0 2)) ?_
  funext a; apply Fin.ext
  match a with
  | ⟨0, _⟩ => show win0_2.index t (0 : Fin 2) * 8192 + 1 * p.val = r.val; omega
  | ⟨1, _⟩ => show win0_2.index t (1 : Fin 2) * 2 + 1 * k.val = k.val; omega

/-- Operand 3's one block is its whole array. -/
theorem row0_blk3_eq (c : Dev nD) (t : Fin cfg0.N) : (iblk0 V c 3 t : Vec Ideal S8x32 .f32) = row0_arr3 V c := by
  obtain ⟨-, -, -, -, -, -, e0, e1, -⟩ := row0_idx_facts t
  funext y
  unfold iblk0
  show V c (Pipeline.arrRef spec0 3) (((cfg0.win 3).blk t).view.emb y) = V c (Pipeline.arrRef spec0 3) y
  refine congrArg (V c (Pipeline.arrRef spec0 3)) ?_
  funext a; apply Fin.ext
  match a with
  | ⟨0, _⟩ => show win0_3.index t (0 : Fin 2) * 8 + 1 * (y 0).val = (y 0).val; omega
  | ⟨1, _⟩ => show win0_3.index t (1 : Fin 2) * 32 + 1 * (y 1).val = (y 1).val; omega

/-- Operand 4's one block is its whole array. -/
theorem row0_blk4_eq (c : Dev nD) (t : Fin cfg0.N) : (iblk0 V c 4 t : Vec Ideal S8x32 .f32) = row0_arr4 V c := by
  obtain ⟨-, -, -, -, -, -, -, -, e0, e1, -⟩ := row0_idx_facts t
  funext y
  unfold iblk0
  show V c (Pipeline.arrRef spec0 4) (((cfg0.win 4).blk t).view.emb y) = V c (Pipeline.arrRef spec0 4) y
  refine congrArg (V c (Pipeline.arrRef spec0 4)) ?_
  funext a; apply Fin.ext
  match a with
  | ⟨0, _⟩ => show win0_4.index t (0 : Fin 2) * 8 + 1 * (y 0).val = (y 0).val; omega
  | ⟨1, _⟩ => show win0_4.index t (1 : Fin 2) * 32 + 1 * (y 1).val = (y 1).val; omega

/-- Operand 5's one block is its whole array. -/
theorem row0_blk5_eq (c : Dev nD) (t : Fin cfg0.N) : (iblk0 V c 5 t : Vec Ideal S2x32 .f32) = row0_arr5 V c := by
  obtain ⟨-, -, -, -, -, -, -, -, -, -, e0, e1, -⟩ := row0_idx_facts t
  funext y
  unfold iblk0
  show V c (Pipeline.arrRef spec0 5) (((cfg0.win 5).blk t).view.emb y) = V c (Pipeline.arrRef spec0 5) y
  refine congrArg (V c (Pipeline.arrRef spec0 5)) ?_
  funext a; apply Fin.ext
  match a with
  | ⟨0, _⟩ => show win0_5.index t (0 : Fin 2) * 2 + 1 * (y 0).val = (y 0).val; omega
  | ⟨1, _⟩ => show win0_5.index t (1 : Fin 2) * 32 + 1 * (y 1).val = (y 1).val; omega

/-- Operand 6's one block is its whole array. -/
theorem row0_blk6_eq (c : Dev nD) (t : Fin cfg0.N) : (iblk0 V c 6 t : Vec Ideal S1x32 .f32) = row0_arr6 V c := by
  obtain ⟨-, -, -, -, -, -, -, -, -, -, -, -, e0, e1, -⟩ := row0_idx_facts t
  funext y
  unfold iblk0
  show V c (Pipeline.arrRef spec0 6) (((cfg0.win 6).blk t).view.emb y) = V c (Pipeline.arrRef spec0 6) y
  refine congrArg (V c (Pipeline.arrRef spec0 6)) ?_
  funext a; apply Fin.ext
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- Operand 7's one block is its whole array. -/
theorem row0_blk7_eq (c : Dev nD) (t : Fin cfg0.N) : (iblk0 V c 7 t : Vec Ideal S32x1 .f32) = row0_arr7 V c := by
  obtain ⟨-, -, -, -, -, -, -, -, -, -, -, -, -, -, e0, e1, -⟩ := row0_idx_facts t
  funext y
  unfold iblk0
  show V c (Pipeline.arrRef spec0 7) (((cfg0.win 7).blk t).view.emb y) = V c (Pipeline.arrRef spec0 7) y
  refine congrArg (V c (Pipeline.arrRef spec0 7)) ?_
  funext a; apply Fin.ext
  match a with
  | ⟨0, _⟩ => show win0_7.index t (0 : Fin 2) * 32 + 1 * (y 0).val = (y 0).val; omega
  | ⟨1, _⟩ => show win0_7.index t (1 : Fin 2) * 1 + 1 * (y 1).val = (y 1).val; omega

/-- Operand 8's one block is its whole array. -/
theorem row0_blk8_eq (c : Dev nD) (t : Fin cfg0.N) : (iblk0 V c 8 t : Vec Ideal S1x1 .f32) = row0_arr8 V c := by
  obtain ⟨-, -, -, -, -, -, -, -, -, -, -, -, -, -, -, -, e0, e1, -⟩ := row0_idx_facts t
  funext y
  unfold iblk0
  show V c (Pipeline.arrRef spec0 8) (((cfg0.win 8).blk t).view.emb y) = V c (Pipeline.arrRef spec0 8) y
  refine congrArg (V c (Pipeline.arrRef spec0 8)) ?_
  funext a; apply Fin.ext
  match a with
  | ⟨0, _⟩ => show win0_8.index t (0 : Fin 2) * 1 + 1 * (y 0).val = (y 0).val; omega
  | ⟨1, _⟩ => show win0_8.index t (1 : Fin 2) * 1 + 1 * (y 1).val = (y 1).val; omega

/-! ## A point's result block, row by row, from the arrays -/

/-- Row `p` of the body's value from nine blocks whose row `p` (the three row operands) or whose whole (the six small
    operands) is read off arrays `a0 … a8` at row `r`. -/
theorem row0_of_blocks (x0 x1 : Vec Ideal S8192x8 .bf16) (x2 : Vec Ideal S8192x2 .bf16) (x3 x4 : Vec Ideal S8x32 .f32)
    (x5 : Vec Ideal S2x32 .f32) (x6 : Vec Ideal S1x32 .f32) (x7 : Vec Ideal S32x1 .f32) (x8 : Vec Ideal S1x1 .f32)
    (a0 a1 : Vec Ideal S1105920x8 .bf16) (a2 : Vec Ideal S1105920x2 .bf16) (a3 a4 : Vec Ideal S8x32 .f32)
    (a5 : Vec Ideal S2x32 .f32) (a6 : Vec Ideal S1x32 .f32) (a7 : Vec Ideal S32x1 .f32) (a8 : Vec Ideal S1x1 .f32)
    (p : Fin 8192) (r : Fin 1105920)
    (h0 : ∀ k, x0 (ix2 p k) = a0 (ix2 r k)) (h1 : ∀ k, x1 (ix2 p k) = a1 (ix2 r k)) (h2 : ∀ k, x2 (ix2 p k) = a2 (ix2 r k))
    (h3 : x3 = a3) (h4 : x4 = a4) (h5 : x5 = a5) (h6 : x6 = a6) (h7 : x7 = a7) (h8 : x8 = a8) :
    k0_pay1 (F := Ideal) x0 x1 x2 x3 x4 x5 x6 x7 x8 (ix2 p 0) =
      (∑ h : Fin 32, max ((((∑ k : Fin 8, a0 (ix2 r k) * a3 (ix2 k h)) + (∑ k : Fin 8, a1 (ix2 r k) * a4 (ix2 k h))) +
          (∑ k : Fin 2, a2 (ix2 r k) * a5 (ix2 k h))) + a6 (ix2 0 h)) 0 * a7 (ix2 h 0)) + a8 (ix2 0 0) := by
  subst h3 h4 h5 h6 h7 h8
  refine (PayVal.edge_pay_apply x0 x1 x2 x3 x4 x5 x6 x7 x8 p).trans ?_
  simp only [h0, h1, h2]

/-- Row `r` of what the result array ends holding. -/
def row0_val (c : Dev nD) (r : Fin 1105920) : EReal :=
  (∑ h : Fin 32, max ((((∑ k : Fin 8, row0_arr0 V c (ix2 r k) * row0_arr3 V c (ix2 k h)) + (∑ k : Fin 8, row0_arr1 V c (ix2 r k) * row0_arr4 V c (ix2 k h))) +
          (∑ k : Fin 2, row0_arr2 V c (ix2 r k) * row0_arr5 V c (ix2 k h))) + row0_arr6 V c (ix2 0 h)) 0 * row0_arr7 V c (ix2 h 0)) + row0_arr8 V c (ix2 0 0)

/-- What the result array ends holding. -/
def row0_fn (c : Dev nD) : Vec Ideal S1105920x1 .f32 := fun i => row0_val V c ⟨(i 0).val, idx2_lt0 i⟩

/-- What point `t` writes back is block `t` of `row0_fn`. -/
theorem row0_flushed (c : Dev nD) (t : Fin cfg0.N) :
    (dat0 V c).flushed 9 t = ((cfg0.win 9).blk t).view.read (Elt Ideal) (row0_fn V c) := by
  show (cfg0.win 9).cut (grid0.coords t) ((dat0 V c).after 9 t) = _
  rw [after0_9]
  unfold out0_9
  rw [View.canon_unit_zero row0_hz]
  simp only [View.ld_unit_zero (S := S8192x8) row0_hz, View.ld_unit_zero (S := S8192x2) row0_hz, View.ld_unit_zero (S := S8x32) row0_hz,
    View.ld_unit_zero (S := S2x32) row0_hz, View.ld_unit_zero (S := S1x32) row0_hz, View.ld_unit_zero (S := S32x1) row0_hz,
    View.ld_unit_zero (S := S1x1) row0_hz]
  funext y
  obtain ⟨p, q, rfl⟩ : ∃ (p : Fin 8192) (q : Fin 1), y = ix2 p q := ⟨y 0, y 1, eq_ix2 y⟩
  obtain rfl : q = 0 := Subsingleton.elim _ _
  obtain ⟨-, -, -, -, -, -, -, -, -, -, -, -, -, -, -, -, -, -, e0, e1⟩ := row0_idx_facts t
  have hN : cfg0.N = 135 := N_0
  have ht : t.val < cfg0.N := t.isLt
  have hr : t.val * 8192 + p.val < 1105920 := by omega
  have hemb : ((cfg0.win 9).blk t).view.emb (ix2 p (0 : Fin 1)) = ix2 (⟨t.val * 8192 + p.val, hr⟩ : Fin 1105920) (0 : Fin 1) := by
    funext a; apply Fin.ext
    match a with
    | ⟨0, _⟩ => show win0_9.index t (0 : Fin 2) * 8192 + 1 * p.val = t.val * 8192 + p.val; omega
    | ⟨1, _⟩ => show win0_9.index t (1 : Fin 2) * 1 + 1 * 0 = 0; omega
  show k0_pay1 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 p (0 : Fin 1))
    = row0_fn V c (((cfg0.win 9).blk t).view.emb (ix2 p (0 : Fin 1)))
  rw [hemb]
  exact row0_of_blocks (iblk0 V c 0 t) (iblk0 V c 1 t) (iblk0 V c 2 t) (iblk0 V c 3 t) (iblk0 V c 4 t) (iblk0 V c 5 t) (iblk0 V c 6 t) (iblk0 V c 7 t) (iblk0 V c 8 t)
    (row0_arr0 V c) (row0_arr1 V c) (row0_arr2 V c) (row0_arr3 V c) (row0_arr4 V c) (row0_arr5 V c) (row0_arr6 V c) (row0_arr7 V c) (row0_arr8 V c)
    p ⟨t.val * 8192 + p.val, hr⟩
    (fun k => row0_blk0_apply V c t p k _ rfl) (fun k => row0_blk1_apply V c t p k _ rfl) (fun k => row0_blk2_apply V c t p k _ rfl)
    (row0_blk3_eq V c t) (row0_blk4_eq V c t) (row0_blk5_eq V c t) (row0_blk6_eq V c t) (row0_blk7_eq V c t) (row0_blk8_eq V c t)

/-! ## The blocks cover the array -/

/-- An index of the result array is in point `t`'s block iff each coordinate is in the block's range on its axis. -/
theorem row0_mem_blk (t : Fin cfg0.N) (i : S1105920x1.Idx) :
    i ∈ ((cfg0.win 9).blk t).view.set ↔ ∀ a : Fin 2, win0_9.index t a * S8192x1.size a ≤ (i a).val ∧ (i a).val < win0_9.index t a * S8192x1.size a + S8192x1.size a := by
  show i ∈ ((View.whole (Pipeline.arrRef spec0 9)).slice (win0_9.rect t)).set ↔ _
  rw [View.set_slice_whole, Rect.mem_set_unit]
  exact Iff.rfl

/-- Row `r` is in the block of point `r / 8192`. -/
theorem row0_cover (i : S1105920x1.Idx) : ∃ t : Fin cfg0.N, (cfg0.win 9).flush t = true ∧ i ∈ ((cfg0.win 9).blk t).view.set := by
  have hi0 : (i 0).val < 1105920 := idx2_lt0 i
  have hi1 : (i 1).val < 1 := idx2_lt1 i
  have hN : cfg0.N = 135 := N_0
  have hlt : (i 0).val / 8192 < cfg0.N := by omega
  obtain ⟨-, -, -, -, -, -, -, -, -, -, -, -, -, -, -, -, -, -, e0, e1⟩ := row0_idx_facts ⟨(i 0).val / 8192, hlt⟩
  refine ⟨⟨(i 0).val / 8192, hlt⟩, flush0_9 _, ?_⟩
  rw [row0_mem_blk]
  intro a
  match a with
  | ⟨0, _⟩ => show win0_9.index ⟨(i 0).val / 8192, hlt⟩ (0 : Fin 2) * 8192 ≤ (i 0).val ∧ (i 0).val < win0_9.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win0_9.index ⟨(i 0).val / 8192, hlt⟩ (1 : Fin 2) * 1 ≤ (i 1).val ∧ (i 1).val < win0_9.index ⟨(i 0).val / 8192, hlt⟩ (1 : Fin 2) * 1 + 1; omega

/-! ## The result array after the pipeline -/

theorem row0_final (c : Dev nD) : (dat0 V c).arrAt 9 cfg0.N = row0_fn V c :=
  (dat0 V c).arrAt_eq_of_cover 9 (row0_fn V c) (fun t _ => row0_flushed V c t) row0_cover

/-- The result array after pipeline 0, at row `r`: the edge network of row `r` of the three row arrays. -/
theorem edge_row0 (c : Dev nD) (r : Fin 1105920) :
    (dat0 V c).arrAt 9 cfg0.N (ix2 r 0) =
      (∑ h : Fin 32, max ((((∑ k : Fin 8, row0_arr0 V c (ix2 r k) * row0_arr3 V c (ix2 k h)) + (∑ k : Fin 8, row0_arr1 V c (ix2 r k) * row0_arr4 V c (ix2 k h))) +
          (∑ k : Fin 2, row0_arr2 V c (ix2 r k) * row0_arr5 V c (ix2 k h))) + row0_arr6 V c (ix2 0 h)) 0 * row0_arr7 V c (ix2 h 0)) + row0_arr8 V c (ix2 0 0) :=
  congrFun (row0_final V c) (ix2 r 0)

end Cert.KernelIdeal.Gen

end
-- ==== Proof.Val.RegionFn0.lean ====
import proofs.«426760_j80470507258346_3_alg».proof.Proof.Val.RegionRow0
import proofs.«426760_j80470507258346_3_alg».proof.Proof.Val.DagK

/-! Pipeline 0's result array as ONE function of the nine operand arrays: the edge pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 0 is the edge function of the nine operand arrays as the pipeline finds them. -/
theorem edge_arr0 (c : Dev nD) :
    (dat0 V c).arrAt 9 cfg0.N =
      Cert.Val.K.edgeFn (row0_arr0 V c) (row0_arr1 V c) (row0_arr2 V c) (row0_arr3 V c) (row0_arr4 V c) (row0_arr5 V c)
        (row0_arr6 V c) (row0_arr7 V c) (row0_arr8 V c) := by
  refine (row0_final V c).trans (funext fun i => ?_)
  obtain ⟨r, q, rfl⟩ : ∃ (r : Fin 1105920) (q : Fin 1), i = ix2 r q := ⟨i 0, i 1, eq_ix2 i⟩
  obtain rfl : q = 0 := Subsingleton.elim _ _
  exact (Cert.Val.K.edgeFn_apply (row0_arr0 V c) (row0_arr1 V c) (row0_arr2 V c) (row0_arr3 V c) (row0_arr4 V c) (row0_arr5 V c)
    (row0_arr6 V c) (row0_arr7 V c) (row0_arr8 V c) r).symm

end Cert.KernelIdeal.Gen

end
-- ==== Proof.Val.RegionRow1.lean ====
import proofs.«426760_j80470507258346_3_alg».proof.Proof.KI.Reg1
import proofs.«426760_j80470507258346_3_alg».proof.Proof.Val.Payload
import Idealize.ShloMosaic.Lib.ValueIdx
import Idealize.ShloMosaic.Lib.Pipeline.Value

/-! Pipeline 1's result array, entry by entry, over the extended reals, at ANY contents `V` of the TensorCore's buffers
    when the pipeline is entered. Point `t` writes back rows `8192 t … 8192 t + 8191`; entry `(p, q)` of its block is the
    node body's value of row `p` of the two row operands' blocks (rows `8192 t + p` of their arrays) and of the five small
    operands' blocks (their arrays whole). The 13 blocks tile the 106496 rows (row `r` lies in the block of point
    `r / 8192`), so after the pipeline entry `(r, q)` of the result array is
    `∑ h, max ((A0 A2)[r, h] + (A1 A3)[r, h] + A4[0, h]) 0 * A5[h, q] + A6[0, q]`
    of the seven operand arrays `A0 … A6` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 1 works on, each at its literal type -/

abbrev row1_arr0 (c : Dev nD) : Vec Ideal S106496x8 .bf16 := V c (Pipeline.arrRef spec1 0)
abbrev row1_arr1 (c : Dev nD) : Vec Ideal S106496x1 .bf16 := V c (Pipeline.arrRef spec1 1)
abbrev row1_arr2 (c : Dev nD) : Vec Ideal S8x32 .f32 := V c (Pipeline.arrRef spec1 2)
abbrev row1_arr3 (c : Dev nD) : Vec Ideal S1x32 .f32 := V c (Pipeline.arrRef spec1 3)
abbrev row1_arr4 (c : Dev nD) : Vec Ideal S1x32 .f32 := V c (Pipeline.arrRef spec1 4)
abbrev row1_arr5 (c : Dev nD) : Vec Ideal S32x8 .f32 := V c (Pipeline.arrRef spec1 5)
abbrev row1_arr6 (c : Dev nD) : Vec Ideal S1x8 .f32 := V c (Pipeline.arrRef spec1 6)

/-! ## Where each block sits in its array -/

theorem row1_hz : (![0, 0] : Fin 2 → Nat) = fun _ => 0 := funext fun a => by fin_cases a <;> rfl

/-- The index maps, decided over the grid: the two row operands' and the result's block index is the point's number on
    the row axis, and every other block index is `0`. -/
theorem row1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of row operand 0's block at point `t` is row `8192 t + p` of its array. -/
theorem row1_blk0_apply (c : Dev nD) (t : Fin cfg1.N) (p : Fin 8192) (k : Fin 8) (r : Fin 106496)
    (hr : r.val = t.val * 8192 + p.val) :
    (iblk1 V c 0 t : Vec Ideal S8192x8 .bf16) (ix2 p k) = row1_arr0 V c (ix2 r k) := by
  obtain ⟨e0, e1, -⟩ := row1_idx_facts t
  unfold iblk1
  show V c (Pipeline.arrRef spec1 0) (((cfg1.win 0).blk t).view.emb (ix2 p k)) = V c (Pipeline.arrRef spec1 0) (ix2 r k)
  refine congrArg (V c (Pipeline.arrRef spec1 0)) ?_
  funext a; apply Fin.ext
  match a with
  | ⟨0, _⟩ => show win1_0.index t (0 : Fin 2) * 8192 + 1 * p.val = r.val; omega
  | ⟨1, _⟩ => show win1_0.index t (1 : Fin 2) * 8 + 1 * k.val = k.val; omega

/-- The same for row operand 1. -/
theorem row1_blk1_apply (c : Dev nD) (t : Fin cfg1.N) (p : Fin 8192) (k : Fin 1) (r : Fin 106496)
    (hr : r.val = t.val * 8192 + p.val) :
    (iblk1 V c 1 t : Vec Ideal S8192x1 .bf16) (ix2 p k) = row1_arr1 V c (ix2 r k) := by
  obtain ⟨-, -, e0, e1, -⟩ := row1_idx_facts t
  unfold iblk1
  show V c (Pipeline.arrRef spec1 1) (((cfg1.win 1).blk t).view.emb (ix2 p k)) = V c (Pipeline.arrRef spec1 1) (ix2 r k)
  refine congrArg (V c (Pipeline.arrRef spec1 1)) ?_
  funext a; apply Fin.ext
  match a with
  | ⟨0, _⟩ => show win1_1.index t (0 : Fin 2) * 8192 + 1 * p.val = r.val; omega
  | ⟨1, _⟩ => show win1_1.index t (1 : Fin 2) * 1 + 1 * k.val = k.val; omega

/-- Operand 2's one block is its whole array. -/
theorem row1_blk2_eq (c : Dev nD) (t : Fin cfg1.N) : (iblk1 V c 2 t : Vec Ideal S8x32 .f32) = row1_arr2 V c := by
  obtain ⟨-, -, -, -, e0, e1, -⟩ := row1_idx_facts t
  funext y
  unfold iblk1
  show V c (Pipeline.arrRef spec1 2) (((cfg1.win 2).blk t).view.emb y) = V c (Pipeline.arrRef spec1 2) y
  refine congrArg (V c (Pipeline.arrRef spec1 2)) ?_
  funext a; apply Fin.ext
  match a with
  | ⟨0, _⟩ => show win1_2.index t (0 : Fin 2) * 8 + 1 * (y 0).val = (y 0).val; omega
  | ⟨1, _⟩ => show win1_2.index t (1 : Fin 2) * 32 + 1 * (y 1).val = (y 1).val; omega

/-- Operand 3's one block is its whole array. -/
theorem row1_blk3_eq (c : Dev nD) (t : Fin cfg1.N) : (iblk1 V c 3 t : Vec Ideal S1x32 .f32) = row1_arr3 V c := by
  obtain ⟨-, -, -, -, -, -, e0, e1, -⟩ := row1_idx_facts t
  funext y
  unfold iblk1
  show V c (Pipeline.arrRef spec1 3) (((cfg1.win 3).blk t).view.emb y) = V c (Pipeline.arrRef spec1 3) y
  refine congrArg (V c (Pipeline.arrRef spec1 3)) ?_
  funext a; apply Fin.ext
  match a with
  | ⟨0, _⟩ => show win1_3.index t (0 : Fin 2) * 1 + 1 * (y 0).val = (y 0).val; omega
  | ⟨1, _⟩ => show win1_3.index t (1 : Fin 2) * 32 + 1 * (y 1).val = (y 1).val; omega

/-- Operand 4's one block is its whole array. -/
theorem row1_blk4_eq (c : Dev nD) (t : Fin cfg1.N) : (iblk1 V c 4 t : Vec Ideal S1x32 .f32) = row1_arr4 V c := by
  obtain ⟨-, -, -, -, -, -, -, -, e0, e1, -⟩ := row1_idx_facts t
  funext y
  unfold iblk1
  show V c (Pipeline.arrRef spec1 4) (((cfg1.win 4).blk t).view.emb y) = V c (Pipeline.arrRef spec1 4) y
  refine congrArg (V c (Pipeline.arrRef spec1 4)) ?_
  funext a; apply Fin.ext
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- Operand 5's one block is its whole array. -/
theorem row1_blk5_eq (c : Dev nD) (t : Fin cfg1.N) : (iblk1 V c 5 t : Vec Ideal S32x8 .f32) = row1_arr5 V c := by
  obtain ⟨-, -, -, -, -, -, -, -, -, -, e0, e1, -⟩ := row1_idx_facts t
  funext y
  unfold iblk1
  show V c (Pipeline.arrRef spec1 5) (((cfg1.win 5).blk t).view.emb y) = V c (Pipeline.arrRef spec1 5) y
  refine congrArg (V c (Pipeline.arrRef spec1 5)) ?_
  funext a; apply Fin.ext
  match a with
  | ⟨0, _⟩ => show win1_5.index t (0 : Fin 2) * 32 + 1 * (y 0).val = (y 0).val; omega
  | ⟨1, _⟩ => show win1_5.index t (1 : Fin 2) * 8 + 1 * (y 1).val = (y 1).val; omega

/-- Operand 6's one block is its whole array. -/
theorem row1_blk6_eq (c : Dev nD) (t : Fin cfg1.N) : (iblk1 V c 6 t : Vec Ideal S1x8 .f32) = row1_arr6 V c := by
  obtain ⟨-, -, -, -, -, -, -, -, -, -, -, -, e0, e1, -⟩ := row1_idx_facts t
  funext y
  unfold iblk1
  show V c (Pipeline.arrRef spec1 6) (((cfg1.win 6).blk t).view.emb y) = V c (Pipeline.arrRef spec1 6) y
  refine congrArg (V c (Pipeline.arrRef spec1 6)) ?_
  funext a; apply Fin.ext
  match a with
  | ⟨0, _⟩ => show win1_6.index t (0 : Fin 2) * 1 + 1 * (y 0).val = (y 0).val; omega
  | ⟨1, _⟩ => show win1_6.index t (1 : Fin 2) * 8 + 1 * (y 1).val = (y 1).val; omega

/-! ## A point's result block, entry by entry, from the arrays -/

/-- Entry `(p, q)` of the body's value from seven blocks whose row `p` (the two row operands) or whose whole (the five
    small operands) is read off arrays `a0 … a6` at row `r`. -/
theorem row1_of_blocks (x0 : Vec Ideal S8192x8 .bf16) (x1 : Vec Ideal S8192x1 .bf16) (x2 : Vec Ideal S8x32 .f32)
    (x3 x4 : Vec Ideal S1x32 .f32) (x5 : Vec Ideal S32x8 .f32) (x6 : Vec Ideal S1x8 .f32)
    (a0 : Vec Ideal S106496x8 .bf16) (a1 : Vec Ideal S106496x1 .bf16) (a2 : Vec Ideal S8x32 .f32)
    (a3 a4 : Vec Ideal S1x32 .f32) (a5 : Vec Ideal S32x8 .f32) (a6 : Vec Ideal S1x8 .f32)
    (p : Fin 8192) (q : Fin 8) (r : Fin 106496)
    (h0 : ∀ k, x0 (ix2 p k) = a0 (ix2 r k)) (h1 : ∀ k, x1 (ix2 p k) = a1 (ix2 r k))
    (h2 : x2 = a2) (h3 : x3 = a3) (h4 : x4 = a4) (h5 : x5 = a5) (h6 : x6 = a6) :
    k1_pay1 (F := Ideal) x0 x1 x2 x3 x4 x5 x6 (ix2 p q) =
      (∑ h : Fin 32, max (((∑ k : Fin 8, a0 (ix2 r k) * a2 (ix2 k h)) + (∑ k : Fin 1, a1 (ix2 r k) * a3 (ix2 k h))) +
          a4 (ix2 0 h)) 0 * a5 (ix2 h q)) + a6 (ix2 0 q) := by
  subst h2 h3 h4 h5 h6
  refine (PayVal.node_pay_apply x0 x1 x2 x3 x4 x5 x6 p q).trans ?_
  simp only [h0, h1]

/-- Entry `(r, q)` of what the result array ends holding. -/
def row1_val (c : Dev nD) (r : Fin 106496) (q : Fin 8) : EReal :=
  (∑ h : Fin 32, max (((∑ k : Fin 8, row1_arr0 V c (ix2 r k) * row1_arr2 V c (ix2 k h)) + (∑ k : Fin 1, row1_arr1 V c (ix2 r k) * row1_arr3 V c (ix2 k h))) +
          row1_arr4 V c (ix2 0 h)) 0 * row1_arr5 V c (ix2 h q)) + row1_arr6 V c (ix2 0 q)

/-- What the result array ends holding. -/
def row1_fn (c : Dev nD) : Vec Ideal S106496x8 .f32 := fun i => row1_val V c ⟨(i 0).val, idx2_lt0 i⟩ ⟨(i 1).val, idx2_lt1 i⟩

/-- What point `t` writes back is block `t` of `row1_fn`. -/
theorem row1_flushed (c : Dev nD) (t : Fin cfg1.N) :
    (dat1 V c).flushed 7 t = ((cfg1.win 7).blk t).view.read (Elt Ideal) (row1_fn V c) := by
  show (cfg1.win 7).cut (grid1.coords t) ((dat1 V c).after 7 t) = _
  rw [after1_7]
  unfold out1_7
  rw [View.canon_unit_zero row1_hz]
  simp only [View.ld_unit_zero (S := S8192x8) row1_hz, View.ld_unit_zero (S := S8192x1) row1_hz, View.ld_unit_zero (S := S8x32) row1_hz,
    View.ld_unit_zero (S := S1x32) row1_hz, View.ld_unit_zero (S := S32x8) row1_hz, View.ld_unit_zero (S := S1x8) row1_hz]
  funext y
  obtain ⟨p, q, rfl⟩ : ∃ (p : Fin 8192) (q : Fin 8), y = ix2 p q := ⟨y 0, y 1, eq_ix2 y⟩
  obtain ⟨-, -, -, -, -, -, -, -, -, -, -, -, -, -, e0, e1⟩ := row1_idx_facts t
  have hN : cfg1.N = 13 := N_1
  have ht : t.val < cfg1.N := t.isLt
  have hr : t.val * 8192 + p.val < 106496 := by omega
  have hemb : ((cfg1.win 7).blk t).view.emb (ix2 p q) = ix2 (⟨t.val * 8192 + p.val, hr⟩ : Fin 106496) q := by
    funext a; apply Fin.ext
    match a with
    | ⟨0, _⟩ => show win1_7.index t (0 : Fin 2) * 8192 + 1 * p.val = t.val * 8192 + p.val; omega
    | ⟨1, _⟩ => show win1_7.index t (1 : Fin 2) * 8 + 1 * q.val = q.val; omega
  show k1_pay1 (F := Ideal) (iblk1 V c 0 t) (iblk1 V c 1 t) (iblk1 V c 2 t) (iblk1 V c 3 t) (iblk1 V c 4 t) (iblk1 V c 5 t) (iblk1 V c 6 t) (ix2 p q)
    = row1_fn V c (((cfg1.win 7).blk t).view.emb (ix2 p q))
  rw [hemb]
  exact row1_of_blocks (iblk1 V c 0 t) (iblk1 V c 1 t) (iblk1 V c 2 t) (iblk1 V c 3 t) (iblk1 V c 4 t) (iblk1 V c 5 t) (iblk1 V c 6 t)
    (row1_arr0 V c) (row1_arr1 V c) (row1_arr2 V c) (row1_arr3 V c) (row1_arr4 V c) (row1_arr5 V c) (row1_arr6 V c)
    p q ⟨t.val * 8192 + p.val, hr⟩
    (fun k => row1_blk0_apply V c t p k _ rfl) (fun k => row1_blk1_apply V c t p k _ rfl)
    (row1_blk2_eq V c t) (row1_blk3_eq V c t) (row1_blk4_eq V c t) (row1_blk5_eq V c t) (row1_blk6_eq V c t)

/-! ## The blocks cover the array -/

/-- An index of the result array is in point `t`'s block iff each coordinate is in the block's range on its axis. -/
theorem row1_mem_blk (t : Fin cfg1.N) (i : S106496x8.Idx) :
    i ∈ ((cfg1.win 7).blk t).view.set ↔ ∀ a : Fin 2, win1_7.index t a * S8192x8.size a ≤ (i a).val ∧ (i a).val < win1_7.index t a * S8192x8.size a + S8192x8.size a := by
  show i ∈ ((View.whole (Pipeline.arrRef spec1 7)).slice (win1_7.rect t)).set ↔ _
  rw [View.set_slice_whole, Rect.mem_set_unit]
  exact Iff.rfl

/-- Row `r` is in the block of point `r / 8192`. -/
theorem row1_cover (i : S106496x8.Idx) : ∃ t : Fin cfg1.N, (cfg1.win 7).flush t = true ∧ i ∈ ((cfg1.win 7).blk t).view.set := by
  have hi0 : (i 0).val < 106496 := idx2_lt0 i
  have hi1 : (i 1).val < 8 := idx2_lt1 i
  have hN : cfg1.N = 13 := N_1
  have hlt : (i 0).val / 8192 < cfg1.N := by omega
  obtain ⟨-, -, -, -, -, -, -, -, -, -, -, -, -, -, e0, e1⟩ := row1_idx_facts ⟨(i 0).val / 8192, hlt⟩
  refine ⟨⟨(i 0).val / 8192, hlt⟩, flush1_7 _, ?_⟩
  rw [row1_mem_blk]
  intro a
  match a with
  | ⟨0, _⟩ => show win1_7.index ⟨(i 0).val / 8192, hlt⟩ (0 : Fin 2) * 8192 ≤ (i 0).val ∧ (i 0).val < win1_7.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win1_7.index ⟨(i 0).val / 8192, hlt⟩ (1 : Fin 2) * 8 ≤ (i 1).val ∧ (i 1).val < win1_7.index ⟨(i 0).val / 8192, hlt⟩ (1 : Fin 2) * 8 + 8; omega

/-! ## The result array after the pipeline -/

theorem row1_final (c : Dev nD) : (dat1 V c).arrAt 7 cfg1.N = row1_fn V c :=
  (dat1 V c).arrAt_eq_of_cover 7 (row1_fn V c) (fun t _ => row1_flushed V c t) row1_cover

/-- The result array after pipeline 1, at row `r`, column `q`: the node network of row `r` of the two row arrays. -/
theorem node_row1 (c : Dev nD) (r : Fin 106496) (q : Fin 8) :
    (dat1 V c).arrAt 7 cfg1.N (ix2 r q) =
      (∑ h : Fin 32, max (((∑ k : Fin 8, row1_arr0 V c (ix2 r k) * row1_arr2 V c (ix2 k h)) + (∑ k : Fin 1, row1_arr1 V c (ix2 r k) * row1_arr3 V c (ix2 k h))) +
          row1_arr4 V c (ix2 0 h)) 0 * row1_arr5 V c (ix2 h q)) + row1_arr6 V c (ix2 0 q) :=
  congrFun (row1_final V c) (ix2 r q)

end Cert.KernelIdeal.Gen

end
-- ==== Proof.Val.RegionFn1.lean ====
import proofs.«426760_j80470507258346_3_alg».proof.Proof.Val.RegionRow1
import proofs.«426760_j80470507258346_3_alg».proof.Proof.Val.DagK

/-! Pipeline 1's result array as ONE function of the seven operand arrays: the node pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 1 is the node function of the seven operand arrays as the pipeline finds them. -/
theorem node_arr1 (c : Dev nD) :
    (dat1 V c).arrAt 7 cfg1.N =
      Cert.Val.K.nodeFn (row1_arr0 V c) (row1_arr1 V c) (row1_arr2 V c) (row1_arr3 V c) (row1_arr4 V c) (row1_arr5 V c)
        (row1_arr6 V c) := by
  refine (row1_final V c).trans (funext fun i => ?_)
  obtain ⟨r, q, rfl⟩ : ∃ (r : Fin 106496) (q : Fin 8), i = ix2 r q := ⟨i 0, i 1, eq_ix2 i⟩
  exact (Cert.Val.K.nodeFn_apply (row1_arr0 V c) (row1_arr1 V c) (row1_arr2 V c) (row1_arr3 V c) (row1_arr4 V c) (row1_arr5 V c)
    (row1_arr6 V c) r q).symm

end Cert.KernelIdeal.Gen

end
-- ==== Proof.Val.RegionRow2.lean ====
import proofs.«426760_j80470507258346_3_alg».proof.Proof.KI.Reg2
import proofs.«426760_j80470507258346_3_alg».proof.Proof.Val.Payload
import Idealize.ShloMosaic.Lib.ValueIdx
import Idealize.ShloMosaic.Lib.Pipeline.Value

/-! Pipeline 2's result array, row by row, over the extended reals, at ANY contents `V` of the TensorCore's buffers when
    the pipeline is entered. Point `t` writes back rows `8192 t … 8192 t + 8191`; row `p` of its block is the edge
    body's value of row `p` of the three row operands' blocks (rows `8192 t + p` of their arrays) and of the six small
    operands' blocks (their arrays whole). The 135 blocks tile the 1105920 rows (row `r` lies in the block of point
    `r / 8192`), so after the pipeline row `r` of the result array is
    `∑ h, max (((A0 A3)[r, h] + (A1 A4)[r, h]) + (A2 A5)[r, h] + A6[0, h]) 0 * A7[h, 0] + A8[0, 0]`
    of the nine operand arrays `A0 … A8` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 2 works on, each at its literal type -/

abbrev row2_arr0 (c : Dev nD) : Vec Ideal S1105920x8 .bf16 := V c (Pipeline.arrRef spec2 0)
abbrev row2_arr1 (c : Dev nD) : Vec Ideal S1105920x8 .bf16 := V c (Pipeline.arrRef spec2 1)
abbrev row2_arr2 (c : Dev nD) : Vec Ideal S1105920x2 .bf16 := V c (Pipeline.arrRef spec2 2)
abbrev row2_arr3 (c : Dev nD) : Vec Ideal S8x32 .f32 := V c (Pipeline.arrRef spec2 3)
abbrev row2_arr4 (c : Dev nD) : Vec Ideal S8x32 .f32 := V c (Pipeline.arrRef spec2 4)
abbrev row2_arr5 (c : Dev nD) : Vec Ideal S2x32 .f32 := V c (Pipeline.arrRef spec2 5)
abbrev row2_arr6 (c : Dev nD) : Vec Ideal S1x32 .f32 := V c (Pipeline.arrRef spec2 6)
abbrev row2_arr7 (c : Dev nD) : Vec Ideal S32x1 .f32 := V c (Pipeline.arrRef spec2 7)
abbrev row2_arr8 (c : Dev nD) : Vec Ideal S1x1 .f32 := V c (Pipeline.arrRef spec2 8)

/-! ## Where each block sits in its array -/

theorem row2_hz : (![0, 0] : Fin 2 → Nat) = fun _ => 0 := funext fun a => by fin_cases a <;> rfl

/-- The index maps, decided over the grid: the three row operands' and the result's block index is the point's number on
    the row axis, and every other block index is `0`. -/
theorem row2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row `p` of row operand 0's block at point `t` is row `8192 t + p` of its array. -/
theorem row2_blk0_apply (c : Dev nD) (t : Fin cfg2.N) (p : Fin 8192) (k : Fin 8) (r : Fin 1105920)
    (hr : r.val = t.val * 8192 + p.val) :
    (iblk2 V c 0 t : Vec Ideal S8192x8 .bf16) (ix2 p k) = row2_arr0 V c (ix2 r k) := by
  obtain ⟨e0, e1, -⟩ := row2_idx_facts t
  unfold iblk2
  show V c (Pipeline.arrRef spec2 0) (((cfg2.win 0).blk t).view.emb (ix2 p k)) = V c (Pipeline.arrRef spec2 0) (ix2 r k)
  refine congrArg (V c (Pipeline.arrRef spec2 0)) ?_
  funext a; apply Fin.ext
  match a with
  | ⟨0, _⟩ => show win2_0.index t (0 : Fin 2) * 8192 + 1 * p.val = r.val; omega
  | ⟨1, _⟩ => show win2_0.index t (1 : Fin 2) * 8 + 1 * k.val = k.val; omega

/-- The same for row operand 1. -/
theorem row2_blk1_apply (c : Dev nD) (t : Fin cfg2.N) (p : Fin 8192) (k : Fin 8) (r : Fin 1105920)
    (hr : r.val = t.val * 8192 + p.val) :
    (iblk2 V c 1 t : Vec Ideal S8192x8 .bf16) (ix2 p k) = row2_arr1 V c (ix2 r k) := by
  obtain ⟨-, -, e0, e1, -⟩ := row2_idx_facts t
  unfold iblk2
  show V c (Pipeline.arrRef spec2 1) (((cfg2.win 1).blk t).view.emb (ix2 p k)) = V c (Pipeline.arrRef spec2 1) (ix2 r k)
  refine congrArg (V c (Pipeline.arrRef spec2 1)) ?_
  funext a; apply Fin.ext
  match a with
  | ⟨0, _⟩ => show win2_1.index t (0 : Fin 2) * 8192 + 1 * p.val = r.val; omega
  | ⟨1, _⟩ => show win2_1.index t (1 : Fin 2) * 8 + 1 * k.val = k.val; omega

/-- The same for row operand 2. -/
theorem row2_blk2_apply (c : Dev nD) (t : Fin cfg2.N) (p : Fin 8192) (k : Fin 2) (r : Fin 1105920)
    (hr : r.val = t.val * 8192 + p.val) :
    (iblk2 V c 2 t : Vec Ideal S8192x2 .bf16) (ix2 p k) = row2_arr2 V c (ix2 r k) := by
  obtain ⟨-, -, -, -, e0, e1, -⟩ := row2_idx_facts t
  unfold iblk2
  show V c (Pipeline.arrRef spec2 2) (((cfg2.win 2).blk t).view.emb (ix2 p k)) = V c (Pipeline.arrRef spec2 2) (ix2 r k)
  refine congrArg (V c (Pipeline.arrRef spec2 2)) ?_
  funext a; apply Fin.ext
  match a with
  | ⟨0, _⟩ => show win2_2.index t (0 : Fin 2) * 8192 + 1 * p.val = r.val; omega
  | ⟨1, _⟩ => show win2_2.index t (1 : Fin 2) * 2 + 1 * k.val = k.val; omega

/-- Operand 3's one block is its whole array. -/
theorem row2_blk3_eq (c : Dev nD) (t : Fin cfg2.N) : (iblk2 V c 3 t : Vec Ideal S8x32 .f32) = row2_arr3 V c := by
  obtain ⟨-, -, -, -, -, -, e0, e1, -⟩ := row2_idx_facts t
  funext y
  unfold iblk2
  show V c (Pipeline.arrRef spec2 3) (((cfg2.win 3).blk t).view.emb y) = V c (Pipeline.arrRef spec2 3) y
  refine congrArg (V c (Pipeline.arrRef spec2 3)) ?_
  funext a; apply Fin.ext
  match a with
  | ⟨0, _⟩ => show win2_3.index t (0 : Fin 2) * 8 + 1 * (y 0).val = (y 0).val; omega
  | ⟨1, _⟩ => show win2_3.index t (1 : Fin 2) * 32 + 1 * (y 1).val = (y 1).val; omega

/-- Operand 4's one block is its whole array. -/
theorem row2_blk4_eq (c : Dev nD) (t : Fin cfg2.N) : (iblk2 V c 4 t : Vec Ideal S8x32 .f32) = row2_arr4 V c := by
  obtain ⟨-, -, -, -, -, -, -, -, e0, e1, -⟩ := row2_idx_facts t
  funext y
  unfold iblk2
  show V c (Pipeline.arrRef spec2 4) (((cfg2.win 4).blk t).view.emb y) = V c (Pipeline.arrRef spec2 4) y
  refine congrArg (V c (Pipeline.arrRef spec2 4)) ?_
  funext a; apply Fin.ext
  match a with
  | ⟨0, _⟩ => show win2_4.index t (0 : Fin 2) * 8 + 1 * (y 0).val = (y 0).val; omega
  | ⟨1, _⟩ => show win2_4.index t (1 : Fin 2) * 32 + 1 * (y 1).val = (y 1).val; omega

/-- Operand 5's one block is its whole array. -/
theorem row2_blk5_eq (c : Dev nD) (t : Fin cfg2.N) : (iblk2 V c 5 t : Vec Ideal S2x32 .f32) = row2_arr5 V c := by
  obtain ⟨-, -, -, -, -, -, -, -, -, -, e0, e1, -⟩ := row2_idx_facts t
  funext y
  unfold iblk2
  show V c (Pipeline.arrRef spec2 5) (((cfg2.win 5).blk t).view.emb y) = V c (Pipeline.arrRef spec2 5) y
  refine congrArg (V c (Pipeline.arrRef spec2 5)) ?_
  funext a; apply Fin.ext
  match a with
  | ⟨0, _⟩ => show win2_5.index t (0 : Fin 2) * 2 + 1 * (y 0).val = (y 0).val; omega
  | ⟨1, _⟩ => show win2_5.index t (1 : Fin 2) * 32 + 1 * (y 1).val = (y 1).val; omega

/-- Operand 6's one block is its whole array. -/
theorem row2_blk6_eq (c : Dev nD) (t : Fin cfg2.N) : (iblk2 V c 6 t : Vec Ideal S1x32 .f32) = row2_arr6 V c := by
  obtain ⟨-, -, -, -, -, -, -, -, -, -, -, -, e0, e1, -⟩ := row2_idx_facts t
  funext y
  unfold iblk2
  show V c (Pipeline.arrRef spec2 6) (((cfg2.win 6).blk t).view.emb y) = V c (Pipeline.arrRef spec2 6) y
  refine congrArg (V c (Pipeline.arrRef spec2 6)) ?_
  funext a; apply Fin.ext
  match a with
  | ⟨0, _⟩ => show win2_6.index t (0 : Fin 2) * 1 + 1 * (y 0).val = (y 0).val; omega
  | ⟨1, _⟩ => show win2_6.index t (1 : Fin 2) * 32 + 1 * (y 1).val = (y 1).val; omega

/-- Operand 7's one block is its whole array. -/
theorem row2_blk7_eq (c : Dev nD) (t : Fin cfg2.N) : (iblk2 V c 7 t : Vec Ideal S32x1 .f32) = row2_arr7 V c := by
  obtain ⟨-, -, -, -, -, -, -, -, -, -, -, -, -, -, e0, e1, -⟩ := row2_idx_facts t
  funext y
  unfold iblk2
  show V c (Pipeline.arrRef spec2 7) (((cfg2.win 7).blk t).view.emb y) = V c (Pipeline.arrRef spec2 7) y
  refine congrArg (V c (Pipeline.arrRef spec2 7)) ?_
  funext a; apply Fin.ext
  match a with
  | ⟨0, _⟩ => show win2_7.index t (0 : Fin 2) * 32 + 1 * (y 0).val = (y 0).val; omega
  | ⟨1, _⟩ => show win2_7.index t (1 : Fin 2) * 1 + 1 * (y 1).val = (y 1).val; omega

/-- Operand 8's one block is its whole array. -/
theorem row2_blk8_eq (c : Dev nD) (t : Fin cfg2.N) : (iblk2 V c 8 t : Vec Ideal S1x1 .f32) = row2_arr8 V c := by
  obtain ⟨-, -, -, -, -, -, -, -, -, -, -, -, -, -, -, -, e0, e1, -⟩ := row2_idx_facts t
  funext y
  unfold iblk2
  show V c (Pipeline.arrRef spec2 8) (((cfg2.win 8).blk t).view.emb y) = V c (Pipeline.arrRef spec2 8) y
  refine congrArg (V c (Pipeline.arrRef spec2 8)) ?_
  funext a; apply Fin.ext
  match a with
  | ⟨0, _⟩ => show win2_8.index t (0 : Fin 2) * 1 + 1 * (y 0).val = (y 0).val; omega
  | ⟨1, _⟩ => show win2_8.index t (1 : Fin 2) * 1 + 1 * (y 1).val = (y 1).val; omega

/-! ## A point's result block, row by row, from the arrays -/

/-- Row `p` of the body's value from nine blocks whose row `p` (the three row operands) or whose whole (the six small
    operands) is read off arrays `a0 … a8` at row `r`. -/
theorem row2_of_blocks (x0 x1 : Vec Ideal S8192x8 .bf16) (x2 : Vec Ideal S8192x2 .bf16) (x3 x4 : Vec Ideal S8x32 .f32)
    (x5 : Vec Ideal S2x32 .f32) (x6 : Vec Ideal S1x32 .f32) (x7 : Vec Ideal S32x1 .f32) (x8 : Vec Ideal S1x1 .f32)
    (a0 a1 : Vec Ideal S1105920x8 .bf16) (a2 : Vec Ideal S1105920x2 .bf16) (a3 a4 : Vec Ideal S8x32 .f32)
    (a5 : Vec Ideal S2x32 .f32) (a6 : Vec Ideal S1x32 .f32) (a7 : Vec Ideal S32x1 .f32) (a8 : Vec Ideal S1x1 .f32)
    (p : Fin 8192) (r : Fin 1105920)
    (h0 : ∀ k, x0 (ix2 p k) = a0 (ix2 r k)) (h1 : ∀ k, x1 (ix2 p k) = a1 (ix2 r k)) (h2 : ∀ k, x2 (ix2 p k) = a2 (ix2 r k))
    (h3 : x3 = a3) (h4 : x4 = a4) (h5 : x5 = a5) (h6 : x6 = a6) (h7 : x7 = a7) (h8 : x8 = a8) :
    k2_pay1 (F := Ideal) x0 x1 x2 x3 x4 x5 x6 x7 x8 (ix2 p 0) =
      (∑ h : Fin 32, max ((((∑ k : Fin 8, a0 (ix2 r k) * a3 (ix2 k h)) + (∑ k : Fin 8, a1 (ix2 r k) * a4 (ix2 k h))) +
          (∑ k : Fin 2, a2 (ix2 r k) * a5 (ix2 k h))) + a6 (ix2 0 h)) 0 * a7 (ix2 h 0)) + a8 (ix2 0 0) := by
  subst h3 h4 h5 h6 h7 h8
  refine (PayVal.edge_pay_apply x0 x1 x2 x3 x4 x5 x6 x7 x8 p).trans ?_
  simp only [h0, h1, h2]

/-- Row `r` of what the result array ends holding. -/
def row2_val (c : Dev nD) (r : Fin 1105920) : EReal :=
  (∑ h : Fin 32, max ((((∑ k : Fin 8, row2_arr0 V c (ix2 r k) * row2_arr3 V c (ix2 k h)) + (∑ k : Fin 8, row2_arr1 V c (ix2 r k) * row2_arr4 V c (ix2 k h))) +
          (∑ k : Fin 2, row2_arr2 V c (ix2 r k) * row2_arr5 V c (ix2 k h))) + row2_arr6 V c (ix2 0 h)) 0 * row2_arr7 V c (ix2 h 0)) + row2_arr8 V c (ix2 0 0)

/-- What the result array ends holding. -/
def row2_fn (c : Dev nD) : Vec Ideal S1105920x1 .f32 := fun i => row2_val V c ⟨(i 0).val, idx2_lt0 i⟩

/-- What point `t` writes back is block `t` of `row2_fn`. -/
theorem row2_flushed (c : Dev nD) (t : Fin cfg2.N) :
    (dat2 V c).flushed 9 t = ((cfg2.win 9).blk t).view.read (Elt Ideal) (row2_fn V c) := by
  show (cfg2.win 9).cut (grid2.coords t) ((dat2 V c).after 9 t) = _
  rw [after2_9]
  unfold out2_9
  rw [View.canon_unit_zero row2_hz]
  simp only [View.ld_unit_zero (S := S8192x8) row2_hz, View.ld_unit_zero (S := S8192x2) row2_hz, View.ld_unit_zero (S := S8x32) row2_hz,
    View.ld_unit_zero (S := S2x32) row2_hz, View.ld_unit_zero (S := S1x32) row2_hz, View.ld_unit_zero (S := S32x1) row2_hz,
    View.ld_unit_zero (S := S1x1) row2_hz]
  funext y
  obtain ⟨p, q, rfl⟩ : ∃ (p : Fin 8192) (q : Fin 1), y = ix2 p q := ⟨y 0, y 1, eq_ix2 y⟩
  obtain rfl : q = 0 := Subsingleton.elim _ _
  obtain ⟨-, -, -, -, -, -, -, -, -, -, -, -, -, -, -, -, -, -, e0, e1⟩ := row2_idx_facts t
  have hN : cfg2.N = 135 := N_2
  have ht : t.val < cfg2.N := t.isLt
  have hr : t.val * 8192 + p.val < 1105920 := by omega
  have hemb : ((cfg2.win 9).blk t).view.emb (ix2 p (0 : Fin 1)) = ix2 (⟨t.val * 8192 + p.val, hr⟩ : Fin 1105920) (0 : Fin 1) := by
    funext a; apply Fin.ext
    match a with
    | ⟨0, _⟩ => show win2_9.index t (0 : Fin 2) * 8192 + 1 * p.val = t.val * 8192 + p.val; omega
    | ⟨1, _⟩ => show win2_9.index t (1 : Fin 2) * 1 + 1 * 0 = 0; omega
  show k2_pay1 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (ix2 p (0 : Fin 1))
    = row2_fn V c (((cfg2.win 9).blk t).view.emb (ix2 p (0 : Fin 1)))
  rw [hemb]
  exact row2_of_blocks (iblk2 V c 0 t) (iblk2 V c 1 t) (iblk2 V c 2 t) (iblk2 V c 3 t) (iblk2 V c 4 t) (iblk2 V c 5 t) (iblk2 V c 6 t) (iblk2 V c 7 t) (iblk2 V c 8 t)
    (row2_arr0 V c) (row2_arr1 V c) (row2_arr2 V c) (row2_arr3 V c) (row2_arr4 V c) (row2_arr5 V c) (row2_arr6 V c) (row2_arr7 V c) (row2_arr8 V c)
    p ⟨t.val * 8192 + p.val, hr⟩
    (fun k => row2_blk0_apply V c t p k _ rfl) (fun k => row2_blk1_apply V c t p k _ rfl) (fun k => row2_blk2_apply V c t p k _ rfl)
    (row2_blk3_eq V c t) (row2_blk4_eq V c t) (row2_blk5_eq V c t) (row2_blk6_eq V c t) (row2_blk7_eq V c t) (row2_blk8_eq V c t)

/-! ## The blocks cover the array -/

/-- An index of the result array is in point `t`'s block iff each coordinate is in the block's range on its axis. -/
theorem row2_mem_blk (t : Fin cfg2.N) (i : S1105920x1.Idx) :
    i ∈ ((cfg2.win 9).blk t).view.set ↔ ∀ a : Fin 2, win2_9.index t a * S8192x1.size a ≤ (i a).val ∧ (i a).val < win2_9.index t a * S8192x1.size a + S8192x1.size a := by
  show i ∈ ((View.whole (Pipeline.arrRef spec2 9)).slice (win2_9.rect t)).set ↔ _
  rw [View.set_slice_whole, Rect.mem_set_unit]
  exact Iff.rfl

/-- Row `r` is in the block of point `r / 8192`. -/
theorem row2_cover (i : S1105920x1.Idx) : ∃ t : Fin cfg2.N, (cfg2.win 9).flush t = true ∧ i ∈ ((cfg2.win 9).blk t).view.set := by
  have hi0 : (i 0).val < 1105920 := idx2_lt0 i
  have hi1 : (i 1).val < 1 := idx2_lt1 i
  have hN : cfg2.N = 135 := N_2
  have hlt : (i 0).val / 8192 < cfg2.N := by omega
  obtain ⟨-, -, -, -, -, -, -, -, -, -, -, -, -, -, -, -, -, -, e0, e1⟩ := row2_idx_facts ⟨(i 0).val / 8192, hlt⟩
  refine ⟨⟨(i 0).val / 8192, hlt⟩, flush2_9 _, ?_⟩
  rw [row2_mem_blk]
  intro a
  match a with
  | ⟨0, _⟩ => show win2_9.index ⟨(i 0).val / 8192, hlt⟩ (0 : Fin 2) * 8192 ≤ (i 0).val ∧ (i 0).val < win2_9.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win2_9.index ⟨(i 0).val / 8192, hlt⟩ (1 : Fin 2) * 1 ≤ (i 1).val ∧ (i 1).val < win2_9.index ⟨(i 0).val / 8192, hlt⟩ (1 : Fin 2) * 1 + 1; omega

/-! ## The result array after the pipeline -/

theorem row2_final (c : Dev nD) : (dat2 V c).arrAt 9 cfg2.N = row2_fn V c :=
  (dat2 V c).arrAt_eq_of_cover 9 (row2_fn V c) (fun t _ => row2_flushed V c t) row2_cover

/-- The result array after pipeline 2, at row `r`: the edge network of row `r` of the three row arrays. -/
theorem edge_row2 (c : Dev nD) (r : Fin 1105920) :
    (dat2 V c).arrAt 9 cfg2.N (ix2 r 0) =
      (∑ h : Fin 32, max ((((∑ k : Fin 8, row2_arr0 V c (ix2 r k) * row2_arr3 V c (ix2 k h)) + (∑ k : Fin 8, row2_arr1 V c (ix2 r k) * row2_arr4 V c (ix2 k h))) +
          (∑ k : Fin 2, row2_arr2 V c (ix2 r k) * row2_arr5 V c (ix2 k h))) + row2_arr6 V c (ix2 0 h)) 0 * row2_arr7 V c (ix2 h 0)) + row2_arr8 V c (ix2 0 0) :=
  congrFun (row2_final V c) (ix2 r 0)

end Cert.KernelIdeal.Gen

end
-- ==== Proof.Val.RegionFn2.lean ====
import proofs.«426760_j80470507258346_3_alg».proof.Proof.Val.RegionRow2
import proofs.«426760_j80470507258346_3_alg».proof.Proof.Val.DagK

/-! Pipeline 2's result array as ONE function of the nine operand arrays: the edge pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 2 is the edge function of the nine operand arrays as the pipeline finds them. -/
theorem edge_arr2 (c : Dev nD) :
    (dat2 V c).arrAt 9 cfg2.N =
      Cert.Val.K.edgeFn (row2_arr0 V c) (row2_arr1 V c) (row2_arr2 V c) (row2_arr3 V c) (row2_arr4 V c) (row2_arr5 V c)
        (row2_arr6 V c) (row2_arr7 V c) (row2_arr8 V c) := by
  refine (row2_final V c).trans (funext fun i => ?_)
  obtain ⟨r, q, rfl⟩ : ∃ (r : Fin 1105920) (q : Fin 1), i = ix2 r q := ⟨i 0, i 1, eq_ix2 i⟩
  obtain rfl : q = 0 := Subsingleton.elim _ _
  exact (Cert.Val.K.edgeFn_apply (row2_arr0 V c) (row2_arr1 V c) (row2_arr2 V c) (row2_arr3 V c) (row2_arr4 V c) (row2_arr5 V c)
    (row2_arr6 V c) (row2_arr7 V c) (row2_arr8 V c) r).symm

end Cert.KernelIdeal.Gen

end
-- ==== Proof.Val.RegionRow3.lean ====
import proofs.«426760_j80470507258346_3_alg».proof.Proof.KI.Reg3
import proofs.«426760_j80470507258346_3_alg».proof.Proof.Val.Payload
import Idealize.ShloMosaic.Lib.ValueIdx
import Idealize.ShloMosaic.Lib.Pipeline.Value

/-! Pipeline 3's result array, entry by entry, over the extended reals, at ANY contents `V` of the TensorCore's buffers
    when the pipeline is entered. Point `t` writes back rows `8192 t … 8192 t + 8191`; entry `(p, q)` of its block is the
    node body's value of row `p` of the two row operands' blocks (rows `8192 t + p` of their arrays) and of the five small
    operands' blocks (their arrays whole). The 13 blocks tile the 106496 rows (row `r` lies in the block of point
    `r / 8192`), so after the pipeline entry `(r, q)` of the result array is
    `∑ h, max ((A0 A2)[r, h] + (A1 A3)[r, h] + A4[0, h]) 0 * A5[h, q] + A6[0, q]`
    of the seven operand arrays `A0 … A6` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 3 works on, each at its literal type -/

abbrev row3_arr0 (c : Dev nD) : Vec Ideal S106496x8 .bf16 := V c (Pipeline.arrRef spec3 0)
abbrev row3_arr1 (c : Dev nD) : Vec Ideal S106496x1 .bf16 := V c (Pipeline.arrRef spec3 1)
abbrev row3_arr2 (c : Dev nD) : Vec Ideal S8x32 .f32 := V c (Pipeline.arrRef spec3 2)
abbrev row3_arr3 (c : Dev nD) : Vec Ideal S1x32 .f32 := V c (Pipeline.arrRef spec3 3)
abbrev row3_arr4 (c : Dev nD) : Vec Ideal S1x32 .f32 := V c (Pipeline.arrRef spec3 4)
abbrev row3_arr5 (c : Dev nD) : Vec Ideal S32x8 .f32 := V c (Pipeline.arrRef spec3 5)
abbrev row3_arr6 (c : Dev nD) : Vec Ideal S1x8 .f32 := V c (Pipeline.arrRef spec3 6)

/-! ## Where each block sits in its array -/

theorem row3_hz : (![0, 0] : Fin 2 → Nat) = fun _ => 0 := funext fun a => by fin_cases a <;> rfl

/-- The index maps, decided over the grid: the two row operands' and the result's block index is the point's number on
    the row axis, and every other block index is `0`. -/
theorem row3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row `p` of row operand 0's block at point `t` is row `8192 t + p` of its array. -/
theorem row3_blk0_apply (c : Dev nD) (t : Fin cfg3.N) (p : Fin 8192) (k : Fin 8) (r : Fin 106496)
    (hr : r.val = t.val * 8192 + p.val) :
    (iblk3 V c 0 t : Vec Ideal S8192x8 .bf16) (ix2 p k) = row3_arr0 V c (ix2 r k) := by
  obtain ⟨e0, e1, -⟩ := row3_idx_facts t
  unfold iblk3
  show V c (Pipeline.arrRef spec3 0) (((cfg3.win 0).blk t).view.emb (ix2 p k)) = V c (Pipeline.arrRef spec3 0) (ix2 r k)
  refine congrArg (V c (Pipeline.arrRef spec3 0)) ?_
  funext a; apply Fin.ext
  match a with
  | ⟨0, _⟩ => show win3_0.index t (0 : Fin 2) * 8192 + 1 * p.val = r.val; omega
  | ⟨1, _⟩ => show win3_0.index t (1 : Fin 2) * 8 + 1 * k.val = k.val; omega

/-- The same for row operand 1. -/
theorem row3_blk1_apply (c : Dev nD) (t : Fin cfg3.N) (p : Fin 8192) (k : Fin 1) (r : Fin 106496)
    (hr : r.val = t.val * 8192 + p.val) :
    (iblk3 V c 1 t : Vec Ideal S8192x1 .bf16) (ix2 p k) = row3_arr1 V c (ix2 r k) := by
  obtain ⟨-, -, e0, e1, -⟩ := row3_idx_facts t
  unfold iblk3
  show V c (Pipeline.arrRef spec3 1) (((cfg3.win 1).blk t).view.emb (ix2 p k)) = V c (Pipeline.arrRef spec3 1) (ix2 r k)
  refine congrArg (V c (Pipeline.arrRef spec3 1)) ?_
  funext a; apply Fin.ext
  match a with
  | ⟨0, _⟩ => show win3_1.index t (0 : Fin 2) * 8192 + 1 * p.val = r.val; omega
  | ⟨1, _⟩ => show win3_1.index t (1 : Fin 2) * 1 + 1 * k.val = k.val; omega

/-- Operand 2's one block is its whole array. -/
theorem row3_blk2_eq (c : Dev nD) (t : Fin cfg3.N) : (iblk3 V c 2 t : Vec Ideal S8x32 .f32) = row3_arr2 V c := by
  obtain ⟨-, -, -, -, e0, e1, -⟩ := row3_idx_facts t
  funext y
  unfold iblk3
  show V c (Pipeline.arrRef spec3 2) (((cfg3.win 2).blk t).view.emb y) = V c (Pipeline.arrRef spec3 2) y
  refine congrArg (V c (Pipeline.arrRef spec3 2)) ?_
  funext a; apply Fin.ext
  match a with
  | ⟨0, _⟩ => show win3_2.index t (0 : Fin 2) * 8 + 1 * (y 0).val = (y 0).val; omega
  | ⟨1, _⟩ => show win3_2.index t (1 : Fin 2) * 32 + 1 * (y 1).val = (y 1).val; omega

/-- Operand 3's one block is its whole array. -/
theorem row3_blk3_eq (c : Dev nD) (t : Fin cfg3.N) : (iblk3 V c 3 t : Vec Ideal S1x32 .f32) = row3_arr3 V c := by
  obtain ⟨-, -, -, -, -, -, e0, e1, -⟩ := row3_idx_facts t
  funext y
  unfold iblk3
  show V c (Pipeline.arrRef spec3 3) (((cfg3.win 3).blk t).view.emb y) = V c (Pipeline.arrRef spec3 3) y
  refine congrArg (V c (Pipeline.arrRef spec3 3)) ?_
  funext a; apply Fin.ext
  match a with
  | ⟨0, _⟩ => show win3_3.index t (0 : Fin 2) * 1 + 1 * (y 0).val = (y 0).val; omega
  | ⟨1, _⟩ => show win3_3.index t (1 : Fin 2) * 32 + 1 * (y 1).val = (y 1).val; omega

/-- Operand 4's one block is its whole array. -/
theorem row3_blk4_eq (c : Dev nD) (t : Fin cfg3.N) : (iblk3 V c 4 t : Vec Ideal S1x32 .f32) = row3_arr4 V c := by
  obtain ⟨-, -, -, -, -, -, -, -, e0, e1, -⟩ := row3_idx_facts t
  funext y
  unfold iblk3
  show V c (Pipeline.arrRef spec3 4) (((cfg3.win 4).blk t).view.emb y) = V c (Pipeline.arrRef spec3 4) y
  refine congrArg (V c (Pipeline.arrRef spec3 4)) ?_
  funext a; apply Fin.ext
  match a with
  | ⟨0, _⟩ => show win3_4.index t (0 : Fin 2) * 1 + 1 * (y 0).val = (y 0).val; omega
  | ⟨1, _⟩ => show win3_4.index t (1 : Fin 2) * 32 + 1 * (y 1).val = (y 1).val; omega

/-- Operand 5's one block is its whole array. -/
theorem row3_blk5_eq (c : Dev nD) (t : Fin cfg3.N) : (iblk3 V c 5 t : Vec Ideal S32x8 .f32) = row3_arr5 V c := by
  obtain ⟨-, -, -, -, -, -, -, -, -, -, e0, e1, -⟩ := row3_idx_facts t
  funext y
  unfold iblk3
  show V c (Pipeline.arrRef spec3 5) (((cfg3.win 5).blk t).view.emb y) = V c (Pipeline.arrRef spec3 5) y
  refine congrArg (V c (Pipeline.arrRef spec3 5)) ?_
  funext a; apply Fin.ext
  match a with
  | ⟨0, _⟩ => show win3_5.index t (0 : Fin 2) * 32 + 1 * (y 0).val = (y 0).val; omega
  | ⟨1, _⟩ => show win3_5.index t (1 : Fin 2) * 8 + 1 * (y 1).val = (y 1).val; omega

/-- Operand 6's one block is its whole array. -/
theorem row3_blk6_eq (c : Dev nD) (t : Fin cfg3.N) : (iblk3 V c 6 t : Vec Ideal S1x8 .f32) = row3_arr6 V c := by
  obtain ⟨-, -, -, -, -, -, -, -, -, -, -, -, e0, e1, -⟩ := row3_idx_facts t
  funext y
  unfold iblk3
  show V c (Pipeline.arrRef spec3 6) (((cfg3.win 6).blk t).view.emb y) = V c (Pipeline.arrRef spec3 6) y
  refine congrArg (V c (Pipeline.arrRef spec3 6)) ?_
  funext a; apply Fin.ext
  match a with
  | ⟨0, _⟩ => show win3_6.index t (0 : Fin 2) * 1 + 1 * (y 0).val = (y 0).val; omega
  | ⟨1, _⟩ => show win3_6.index t (1 : Fin 2) * 8 + 1 * (y 1).val = (y 1).val; omega

/-! ## A point's result block, entry by entry, from the arrays -/

/-- Entry `(p, q)` of the body's value from seven blocks whose row `p` (the two row operands) or whose whole (the five
    small operands) is read off arrays `a0 … a6` at row `r`. -/
theorem row3_of_blocks (x0 : Vec Ideal S8192x8 .bf16) (x1 : Vec Ideal S8192x1 .bf16) (x2 : Vec Ideal S8x32 .f32)
    (x3 x4 : Vec Ideal S1x32 .f32) (x5 : Vec Ideal S32x8 .f32) (x6 : Vec Ideal S1x8 .f32)
    (a0 : Vec Ideal S106496x8 .bf16) (a1 : Vec Ideal S106496x1 .bf16) (a2 : Vec Ideal S8x32 .f32)
    (a3 a4 : Vec Ideal S1x32 .f32) (a5 : Vec Ideal S32x8 .f32) (a6 : Vec Ideal S1x8 .f32)
    (p : Fin 8192) (q : Fin 8) (r : Fin 106496)
    (h0 : ∀ k, x0 (ix2 p k) = a0 (ix2 r k)) (h1 : ∀ k, x1 (ix2 p k) = a1 (ix2 r k))
    (h2 : x2 = a2) (h3 : x3 = a3) (h4 : x4 = a4) (h5 : x5 = a5) (h6 : x6 = a6) :
    k3_pay1 (F := Ideal) x0 x1 x2 x3 x4 x5 x6 (ix2 p q) =
      (∑ h : Fin 32, max (((∑ k : Fin 8, a0 (ix2 r k) * a2 (ix2 k h)) + (∑ k : Fin 1, a1 (ix2 r k) * a3 (ix2 k h))) +
          a4 (ix2 0 h)) 0 * a5 (ix2 h q)) + a6 (ix2 0 q) := by
  subst h2 h3 h4 h5 h6
  refine (PayVal.node_pay_apply x0 x1 x2 x3 x4 x5 x6 p q).trans ?_
  simp only [h0, h1]

/-- Entry `(r, q)` of what the result array ends holding. -/
def row3_val (c : Dev nD) (r : Fin 106496) (q : Fin 8) : EReal :=
  (∑ h : Fin 32, max (((∑ k : Fin 8, row3_arr0 V c (ix2 r k) * row3_arr2 V c (ix2 k h)) + (∑ k : Fin 1, row3_arr1 V c (ix2 r k) * row3_arr3 V c (ix2 k h))) +
          row3_arr4 V c (ix2 0 h)) 0 * row3_arr5 V c (ix2 h q)) + row3_arr6 V c (ix2 0 q)

/-- What the result array ends holding. -/
def row3_fn (c : Dev nD) : Vec Ideal S106496x8 .f32 := fun i => row3_val V c ⟨(i 0).val, idx2_lt0 i⟩ ⟨(i 1).val, idx2_lt1 i⟩

/-- What point `t` writes back is block `t` of `row3_fn`. -/
theorem row3_flushed (c : Dev nD) (t : Fin cfg3.N) :
    (dat3 V c).flushed 7 t = ((cfg3.win 7).blk t).view.read (Elt Ideal) (row3_fn V c) := by
  show (cfg3.win 7).cut (grid3.coords t) ((dat3 V c).after 7 t) = _
  rw [after3_7]
  unfold out3_7
  rw [View.canon_unit_zero row3_hz]
  simp only [View.ld_unit_zero (S := S8192x8) row3_hz, View.ld_unit_zero (S := S8192x1) row3_hz, View.ld_unit_zero (S := S8x32) row3_hz,
    View.ld_unit_zero (S := S1x32) row3_hz, View.ld_unit_zero (S := S32x8) row3_hz, View.ld_unit_zero (S := S1x8) row3_hz]
  funext y
  obtain ⟨p, q, rfl⟩ : ∃ (p : Fin 8192) (q : Fin 8), y = ix2 p q := ⟨y 0, y 1, eq_ix2 y⟩
  obtain ⟨-, -, -, -, -, -, -, -, -, -, -, -, -, -, e0, e1⟩ := row3_idx_facts t
  have hN : cfg3.N = 13 := N_3
  have ht : t.val < cfg3.N := t.isLt
  have hr : t.val * 8192 + p.val < 106496 := by omega
  have hemb : ((cfg3.win 7).blk t).view.emb (ix2 p q) = ix2 (⟨t.val * 8192 + p.val, hr⟩ : Fin 106496) q := by
    funext a; apply Fin.ext
    match a with
    | ⟨0, _⟩ => show win3_7.index t (0 : Fin 2) * 8192 + 1 * p.val = t.val * 8192 + p.val; omega
    | ⟨1, _⟩ => show win3_7.index t (1 : Fin 2) * 8 + 1 * q.val = q.val; omega
  show k3_pay1 (F := Ideal) (iblk3 V c 0 t) (iblk3 V c 1 t) (iblk3 V c 2 t) (iblk3 V c 3 t) (iblk3 V c 4 t) (iblk3 V c 5 t) (iblk3 V c 6 t) (ix2 p q)
    = row3_fn V c (((cfg3.win 7).blk t).view.emb (ix2 p q))
  rw [hemb]
  exact row3_of_blocks (iblk3 V c 0 t) (iblk3 V c 1 t) (iblk3 V c 2 t) (iblk3 V c 3 t) (iblk3 V c 4 t) (iblk3 V c 5 t) (iblk3 V c 6 t)
    (row3_arr0 V c) (row3_arr1 V c) (row3_arr2 V c) (row3_arr3 V c) (row3_arr4 V c) (row3_arr5 V c) (row3_arr6 V c)
    p q ⟨t.val * 8192 + p.val, hr⟩
    (fun k => row3_blk0_apply V c t p k _ rfl) (fun k => row3_blk1_apply V c t p k _ rfl)
    (row3_blk2_eq V c t) (row3_blk3_eq V c t) (row3_blk4_eq V c t) (row3_blk5_eq V c t) (row3_blk6_eq V c t)

/-! ## The blocks cover the array -/

/-- An index of the result array is in point `t`'s block iff each coordinate is in the block's range on its axis. -/
theorem row3_mem_blk (t : Fin cfg3.N) (i : S106496x8.Idx) :
    i ∈ ((cfg3.win 7).blk t).view.set ↔ ∀ a : Fin 2, win3_7.index t a * S8192x8.size a ≤ (i a).val ∧ (i a).val < win3_7.index t a * S8192x8.size a + S8192x8.size a := by
  show i ∈ ((View.whole (Pipeline.arrRef spec3 7)).slice (win3_7.rect t)).set ↔ _
  rw [View.set_slice_whole, Rect.mem_set_unit]
  exact Iff.rfl

/-- Row `r` is in the block of point `r / 8192`. -/
theorem row3_cover (i : S106496x8.Idx) : ∃ t : Fin cfg3.N, (cfg3.win 7).flush t = true ∧ i ∈ ((cfg3.win 7).blk t).view.set := by
  have hi0 : (i 0).val < 106496 := idx2_lt0 i
  have hi1 : (i 1).val < 8 := idx2_lt1 i
  have hN : cfg3.N = 13 := N_3
  have hlt : (i 0).val / 8192 < cfg3.N := by omega
  obtain ⟨-, -, -, -, -, -, -, -, -, -, -, -, -, -, e0, e1⟩ := row3_idx_facts ⟨(i 0).val / 8192, hlt⟩
  refine ⟨⟨(i 0).val / 8192, hlt⟩, flush3_7 _, ?_⟩
  rw [row3_mem_blk]
  intro a
  match a with
  | ⟨0, _⟩ => show win3_7.index ⟨(i 0).val / 8192, hlt⟩ (0 : Fin 2) * 8192 ≤ (i 0).val ∧ (i 0).val < win3_7.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win3_7.index ⟨(i 0).val / 8192, hlt⟩ (1 : Fin 2) * 8 ≤ (i 1).val ∧ (i 1).val < win3_7.index ⟨(i 0).val / 8192, hlt⟩ (1 : Fin 2) * 8 + 8; omega

/-! ## The result array after the pipeline -/

theorem row3_final (c : Dev nD) : (dat3 V c).arrAt 7 cfg3.N = row3_fn V c :=
  (dat3 V c).arrAt_eq_of_cover 7 (row3_fn V c) (fun t _ => row3_flushed V c t) row3_cover

/-- The result array after pipeline 3, at row `r`, column `q`: the node network of row `r` of the two row arrays. -/
theorem node_row3 (c : Dev nD) (r : Fin 106496) (q : Fin 8) :
    (dat3 V c).arrAt 7 cfg3.N (ix2 r q) =
      (∑ h : Fin 32, max (((∑ k : Fin 8, row3_arr0 V c (ix2 r k) * row3_arr2 V c (ix2 k h)) + (∑ k : Fin 1, row3_arr1 V c (ix2 r k) * row3_arr3 V c (ix2 k h))) +
          row3_arr4 V c (ix2 0 h)) 0 * row3_arr5 V c (ix2 h q)) + row3_arr6 V c (ix2 0 q) :=
  congrFun (row3_final V c) (ix2 r q)

end Cert.KernelIdeal.Gen

end
-- ==== Proof.Val.RegionFn3.lean ====
import proofs.«426760_j80470507258346_3_alg».proof.Proof.Val.RegionRow3
import proofs.«426760_j80470507258346_3_alg».proof.Proof.Val.DagK

/-! Pipeline 3's result array as ONE function of the seven operand arrays: the node pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 3 is the node function of the seven operand arrays as the pipeline finds them. -/
theorem node_arr3 (c : Dev nD) :
    (dat3 V c).arrAt 7 cfg3.N =
      Cert.Val.K.nodeFn (row3_arr0 V c) (row3_arr1 V c) (row3_arr2 V c) (row3_arr3 V c) (row3_arr4 V c) (row3_arr5 V c)
        (row3_arr6 V c) := by
  refine (row3_final V c).trans (funext fun i => ?_)
  obtain ⟨r, q, rfl⟩ : ∃ (r : Fin 106496) (q : Fin 8), i = ix2 r q := ⟨i 0, i 1, eq_ix2 i⟩
  exact (Cert.Val.K.nodeFn_apply (row3_arr0 V c) (row3_arr1 V c) (row3_arr2 V c) (row3_arr3 V c) (row3_arr4 V c) (row3_arr5 V c)
    (row3_arr6 V c) r q).symm

end Cert.KernelIdeal.Gen

end
-- ==== Proof.Val.RegionRow4.lean ====
import proofs.«426760_j80470507258346_3_alg».proof.Proof.KI.Reg4
import proofs.«426760_j80470507258346_3_alg».proof.Proof.Val.Payload
import Idealize.ShloMosaic.Lib.ValueIdx
import Idealize.ShloMosaic.Lib.Pipeline.Value

/-! Pipeline 4's result array, row by row, over the extended reals, at ANY contents `V` of the TensorCore's buffers when
    the pipeline is entered. Point `t` writes back rows `8192 t … 8192 t + 8191`; row `p` of its block is the edge
    body's value of row `p` of the three row operands' blocks (rows `8192 t + p` of their arrays) and of the six small
    operands' blocks (their arrays whole). The 135 blocks tile the 1105920 rows (row `r` lies in the block of point
    `r / 8192`), so after the pipeline row `r` of the result array is
    `∑ h, max (((A0 A3)[r, h] + (A1 A4)[r, h]) + (A2 A5)[r, h] + A6[0, h]) 0 * A7[h, 0] + A8[0, 0]`
    of the nine operand arrays `A0 … A8` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 4 works on, each at its literal type -/

abbrev row4_arr0 (c : Dev nD) : Vec Ideal S1105920x8 .bf16 := V c (Pipeline.arrRef spec4 0)
abbrev row4_arr1 (c : Dev nD) : Vec Ideal S1105920x8 .bf16 := V c (Pipeline.arrRef spec4 1)
abbrev row4_arr2 (c : Dev nD) : Vec Ideal S1105920x2 .bf16 := V c (Pipeline.arrRef spec4 2)
abbrev row4_arr3 (c : Dev nD) : Vec Ideal S8x32 .f32 := V c (Pipeline.arrRef spec4 3)
abbrev row4_arr4 (c : Dev nD) : Vec Ideal S8x32 .f32 := V c (Pipeline.arrRef spec4 4)
abbrev row4_arr5 (c : Dev nD) : Vec Ideal S2x32 .f32 := V c (Pipeline.arrRef spec4 5)
abbrev row4_arr6 (c : Dev nD) : Vec Ideal S1x32 .f32 := V c (Pipeline.arrRef spec4 6)
abbrev row4_arr7 (c : Dev nD) : Vec Ideal S32x1 .f32 := V c (Pipeline.arrRef spec4 7)
abbrev row4_arr8 (c : Dev nD) : Vec Ideal S1x1 .f32 := V c (Pipeline.arrRef spec4 8)

/-! ## Where each block sits in its array -/

theorem row4_hz : (![0, 0] : Fin 2 → Nat) = fun _ => 0 := funext fun a => by fin_cases a <;> rfl

/-- The index maps, decided over the grid: the three row operands' and the result's block index is the point's number on
    the row axis, and every other block index is `0`. -/
theorem row4_idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0 :=
  (by decide +kernel : ∀ t : Fin grid4.N, _)

/-- Row `p` of row operand 0's block at point `t` is row `8192 t + p` of its array. -/
theorem row4_blk0_apply (c : Dev nD) (t : Fin cfg4.N) (p : Fin 8192) (k : Fin 8) (r : Fin 1105920)
    (hr : r.val = t.val * 8192 + p.val) :
    (iblk4 V c 0 t : Vec Ideal S8192x8 .bf16) (ix2 p k) = row4_arr0 V c (ix2 r k) := by
  obtain ⟨e0, e1, -⟩ := row4_idx_facts t
  unfold iblk4
  show V c (Pipeline.arrRef spec4 0) (((cfg4.win 0).blk t).view.emb (ix2 p k)) = V c (Pipeline.arrRef spec4 0) (ix2 r k)
  refine congrArg (V c (Pipeline.arrRef spec4 0)) ?_
  funext a; apply Fin.ext
  match a with
  | ⟨0, _⟩ => show win4_0.index t (0 : Fin 2) * 8192 + 1 * p.val = r.val; omega
  | ⟨1, _⟩ => show win4_0.index t (1 : Fin 2) * 8 + 1 * k.val = k.val; omega

/-- The same for row operand 1. -/
theorem row4_blk1_apply (c : Dev nD) (t : Fin cfg4.N) (p : Fin 8192) (k : Fin 8) (r : Fin 1105920)
    (hr : r.val = t.val * 8192 + p.val) :
    (iblk4 V c 1 t : Vec Ideal S8192x8 .bf16) (ix2 p k) = row4_arr1 V c (ix2 r k) := by
  obtain ⟨-, -, e0, e1, -⟩ := row4_idx_facts t
  unfold iblk4
  show V c (Pipeline.arrRef spec4 1) (((cfg4.win 1).blk t).view.emb (ix2 p k)) = V c (Pipeline.arrRef spec4 1) (ix2 r k)
  refine congrArg (V c (Pipeline.arrRef spec4 1)) ?_
  funext a; apply Fin.ext
  match a with
  | ⟨0, _⟩ => show win4_1.index t (0 : Fin 2) * 8192 + 1 * p.val = r.val; omega
  | ⟨1, _⟩ => show win4_1.index t (1 : Fin 2) * 8 + 1 * k.val = k.val; omega

/-- The same for row operand 2. -/
theorem row4_blk2_apply (c : Dev nD) (t : Fin cfg4.N) (p : Fin 8192) (k : Fin 2) (r : Fin 1105920)
    (hr : r.val = t.val * 8192 + p.val) :
    (iblk4 V c 2 t : Vec Ideal S8192x2 .bf16) (ix2 p k) = row4_arr2 V c (ix2 r k) := by
  obtain ⟨-, -, -, -, e0, e1, -⟩ := row4_idx_facts t
  unfold iblk4
  show V c (Pipeline.arrRef spec4 2) (((cfg4.win 2).blk t).view.emb (ix2 p k)) = V c (Pipeline.arrRef spec4 2) (ix2 r k)
  refine congrArg (V c (Pipeline.arrRef spec4 2)) ?_
  funext a; apply Fin.ext
  match a with
  | ⟨0, _⟩ => show win4_2.index t (0 : Fin 2) * 8192 + 1 * p.val = r.val; omega
  | ⟨1, _⟩ => show win4_2.index t (1 : Fin 2) * 2 + 1 * k.val = k.val; omega

/-- Operand 3's one block is its whole array. -/
theorem row4_blk3_eq (c : Dev nD) (t : Fin cfg4.N) : (iblk4 V c 3 t : Vec Ideal S8x32 .f32) = row4_arr3 V c := by
  obtain ⟨-, -, -, -, -, -, e0, e1, -⟩ := row4_idx_facts t
  funext y
  unfold iblk4
  show V c (Pipeline.arrRef spec4 3) (((cfg4.win 3).blk t).view.emb y) = V c (Pipeline.arrRef spec4 3) y
  refine congrArg (V c (Pipeline.arrRef spec4 3)) ?_
  funext a; apply Fin.ext
  match a with
  | ⟨0, _⟩ => show win4_3.index t (0 : Fin 2) * 8 + 1 * (y 0).val = (y 0).val; omega
  | ⟨1, _⟩ => show win4_3.index t (1 : Fin 2) * 32 + 1 * (y 1).val = (y 1).val; omega

/-- Operand 4's one block is its whole array. -/
theorem row4_blk4_eq (c : Dev nD) (t : Fin cfg4.N) : (iblk4 V c 4 t : Vec Ideal S8x32 .f32) = row4_arr4 V c := by
  obtain ⟨-, -, -, -, -, -, -, -, e0, e1, -⟩ := row4_idx_facts t
  funext y
  unfold iblk4
  show V c (Pipeline.arrRef spec4 4) (((cfg4.win 4).blk t).view.emb y) = V c (Pipeline.arrRef spec4 4) y
  refine congrArg (V c (Pipeline.arrRef spec4 4)) ?_
  funext a; apply Fin.ext
  match a with
  | ⟨0, _⟩ => show win4_4.index t (0 : Fin 2) * 8 + 1 * (y 0).val = (y 0).val; omega
  | ⟨1, _⟩ => show win4_4.index t (1 : Fin 2) * 32 + 1 * (y 1).val = (y 1).val; omega

/-- Operand 5's one block is its whole array. -/
theorem row4_blk5_eq (c : Dev nD) (t : Fin cfg4.N) : (iblk4 V c 5 t : Vec Ideal S2x32 .f32) = row4_arr5 V c := by
  obtain ⟨-, -, -, -, -, -, -, -, -, -, e0, e1, -⟩ := row4_idx_facts t
  funext y
  unfold iblk4
  show V c (Pipeline.arrRef spec4 5) (((cfg4.win 5).blk t).view.emb y) = V c (Pipeline.arrRef spec4 5) y
  refine congrArg (V c (Pipeline.arrRef spec4 5)) ?_
  funext a; apply Fin.ext
  match a with
  | ⟨0, _⟩ => show win4_5.index t (0 : Fin 2) * 2 + 1 * (y 0).val = (y 0).val; omega
  | ⟨1, _⟩ => show win4_5.index t (1 : Fin 2) * 32 + 1 * (y 1).val = (y 1).val; omega

/-- Operand 6's one block is its whole array. -/
theorem row4_blk6_eq (c : Dev nD) (t : Fin cfg4.N) : (iblk4 V c 6 t : Vec Ideal S1x32 .f32) = row4_arr6 V c := by
  obtain ⟨-, -, -, -, -, -, -, -, -, -, -, -, e0, e1, -⟩ := row4_idx_facts t
  funext y
  unfold iblk4
  show V c (Pipeline.arrRef spec4 6) (((cfg4.win 6).blk t).view.emb y) = V c (Pipeline.arrRef spec4 6) y
  refine congrArg (V c (Pipeline.arrRef spec4 6)) ?_
  funext a; apply Fin.ext
  match a with
  | ⟨0, _⟩ => show win4_6.index t (0 : Fin 2) * 1 + 1 * (y 0).val = (y 0).val; omega
  | ⟨1, _⟩ => show win4_6.index t (1 : Fin 2) * 32 + 1 * (y 1).val = (y 1).val; omega

/-- Operand 7's one block is its whole array. -/
theorem row4_blk7_eq (c : Dev nD) (t : Fin cfg4.N) : (iblk4 V c 7 t : Vec Ideal S32x1 .f32) = row4_arr7 V c := by
  obtain ⟨-, -, -, -, -, -, -, -, -, -, -, -, -, -, e0, e1, -⟩ := row4_idx_facts t
  funext y
  unfold iblk4
  show V c (Pipeline.arrRef spec4 7) (((cfg4.win 7).blk t).view.emb y) = V c (Pipeline.arrRef spec4 7) y
  refine congrArg (V c (Pipeline.arrRef spec4 7)) ?_
  funext a; apply Fin.ext
  match a with
  | ⟨0, _⟩ => show win4_7.index t (0 : Fin 2) * 32 + 1 * (y 0).val = (y 0).val; omega
  | ⟨1, _⟩ => show win4_7.index t (1 : Fin 2) * 1 + 1 * (y 1).val = (y 1).val; omega

/-- Operand 8's one block is its whole array. -/
theorem row4_blk8_eq (c : Dev nD) (t : Fin cfg4.N) : (iblk4 V c 8 t : Vec Ideal S1x1 .f32) = row4_arr8 V c := by
  obtain ⟨-, -, -, -, -, -, -, -, -, -, -, -, -, -, -, -, e0, e1, -⟩ := row4_idx_facts t
  funext y
  unfold iblk4
  show V c (Pipeline.arrRef spec4 8) (((cfg4.win 8).blk t).view.emb y) = V c (Pipeline.arrRef spec4 8) y
  refine congrArg (V c (Pipeline.arrRef spec4 8)) ?_
  funext a; apply Fin.ext
  match a with
  | ⟨0, _⟩ => show win4_8.index t (0 : Fin 2) * 1 + 1 * (y 0).val = (y 0).val; omega
  | ⟨1, _⟩ => show win4_8.index t (1 : Fin 2) * 1 + 1 * (y 1).val = (y 1).val; omega

/-! ## A point's result block, row by row, from the arrays -/

/-- Row `p` of the body's value from nine blocks whose row `p` (the three row operands) or whose whole (the six small
    operands) is read off arrays `a0 … a8` at row `r`. -/
theorem row4_of_blocks (x0 x1 : Vec Ideal S8192x8 .bf16) (x2 : Vec Ideal S8192x2 .bf16) (x3 x4 : Vec Ideal S8x32 .f32)
    (x5 : Vec Ideal S2x32 .f32) (x6 : Vec Ideal S1x32 .f32) (x7 : Vec Ideal S32x1 .f32) (x8 : Vec Ideal S1x1 .f32)
    (a0 a1 : Vec Ideal S1105920x8 .bf16) (a2 : Vec Ideal S1105920x2 .bf16) (a3 a4 : Vec Ideal S8x32 .f32)
    (a5 : Vec Ideal S2x32 .f32) (a6 : Vec Ideal S1x32 .f32) (a7 : Vec Ideal S32x1 .f32) (a8 : Vec Ideal S1x1 .f32)
    (p : Fin 8192) (r : Fin 1105920)
    (h0 : ∀ k, x0 (ix2 p k) = a0 (ix2 r k)) (h1 : ∀ k, x1 (ix2 p k) = a1 (ix2 r k)) (h2 : ∀ k, x2 (ix2 p k) = a2 (ix2 r k))
    (h3 : x3 = a3) (h4 : x4 = a4) (h5 : x5 = a5) (h6 : x6 = a6) (h7 : x7 = a7) (h8 : x8 = a8) :
    k4_pay1 (F := Ideal) x0 x1 x2 x3 x4 x5 x6 x7 x8 (ix2 p 0) =
      (∑ h : Fin 32, max ((((∑ k : Fin 8, a0 (ix2 r k) * a3 (ix2 k h)) + (∑ k : Fin 8, a1 (ix2 r k) * a4 (ix2 k h))) +
          (∑ k : Fin 2, a2 (ix2 r k) * a5 (ix2 k h))) + a6 (ix2 0 h)) 0 * a7 (ix2 h 0)) + a8 (ix2 0 0) := by
  subst h3 h4 h5 h6 h7 h8
  refine (PayVal.edge_pay_apply x0 x1 x2 x3 x4 x5 x6 x7 x8 p).trans ?_
  simp only [h0, h1, h2]

/-- Row `r` of what the result array ends holding. -/
def row4_val (c : Dev nD) (r : Fin 1105920) : EReal :=
  (∑ h : Fin 32, max ((((∑ k : Fin 8, row4_arr0 V c (ix2 r k) * row4_arr3 V c (ix2 k h)) + (∑ k : Fin 8, row4_arr1 V c (ix2 r k) * row4_arr4 V c (ix2 k h))) +
          (∑ k : Fin 2, row4_arr2 V c (ix2 r k) * row4_arr5 V c (ix2 k h))) + row4_arr6 V c (ix2 0 h)) 0 * row4_arr7 V c (ix2 h 0)) + row4_arr8 V c (ix2 0 0)

/-- What the result array ends holding. -/
def row4_fn (c : Dev nD) : Vec Ideal S1105920x1 .f32 := fun i => row4_val V c ⟨(i 0).val, idx2_lt0 i⟩

/-- What point `t` writes back is block `t` of `row4_fn`. -/
theorem row4_flushed (c : Dev nD) (t : Fin cfg4.N) :
    (dat4 V c).flushed 9 t = ((cfg4.win 9).blk t).view.read (Elt Ideal) (row4_fn V c) := by
  show (cfg4.win 9).cut (grid4.coords t) ((dat4 V c).after 9 t) = _
  rw [after4_9]
  unfold out4_9
  rw [View.canon_unit_zero row4_hz]
  simp only [View.ld_unit_zero (S := S8192x8) row4_hz, View.ld_unit_zero (S := S8192x2) row4_hz, View.ld_unit_zero (S := S8x32) row4_hz,
    View.ld_unit_zero (S := S2x32) row4_hz, View.ld_unit_zero (S := S1x32) row4_hz, View.ld_unit_zero (S := S32x1) row4_hz,
    View.ld_unit_zero (S := S1x1) row4_hz]
  funext y
  obtain ⟨p, q, rfl⟩ : ∃ (p : Fin 8192) (q : Fin 1), y = ix2 p q := ⟨y 0, y 1, eq_ix2 y⟩
  obtain rfl : q = 0 := Subsingleton.elim _ _
  obtain ⟨-, -, -, -, -, -, -, -, -, -, -, -, -, -, -, -, -, -, e0, e1⟩ := row4_idx_facts t
  have hN : cfg4.N = 135 := N_4
  have ht : t.val < cfg4.N := t.isLt
  have hr : t.val * 8192 + p.val < 1105920 := by omega
  have hemb : ((cfg4.win 9).blk t).view.emb (ix2 p (0 : Fin 1)) = ix2 (⟨t.val * 8192 + p.val, hr⟩ : Fin 1105920) (0 : Fin 1) := by
    funext a; apply Fin.ext
    match a with
    | ⟨0, _⟩ => show win4_9.index t (0 : Fin 2) * 8192 + 1 * p.val = t.val * 8192 + p.val; omega
    | ⟨1, _⟩ => show win4_9.index t (1 : Fin 2) * 1 + 1 * 0 = 0; omega
  show k4_pay1 (F := Ideal) (iblk4 V c 0 t) (iblk4 V c 1 t) (iblk4 V c 2 t) (iblk4 V c 3 t) (iblk4 V c 4 t) (iblk4 V c 5 t) (iblk4 V c 6 t) (iblk4 V c 7 t) (iblk4 V c 8 t) (ix2 p (0 : Fin 1))
    = row4_fn V c (((cfg4.win 9).blk t).view.emb (ix2 p (0 : Fin 1)))
  rw [hemb]
  exact row4_of_blocks (iblk4 V c 0 t) (iblk4 V c 1 t) (iblk4 V c 2 t) (iblk4 V c 3 t) (iblk4 V c 4 t) (iblk4 V c 5 t) (iblk4 V c 6 t) (iblk4 V c 7 t) (iblk4 V c 8 t)
    (row4_arr0 V c) (row4_arr1 V c) (row4_arr2 V c) (row4_arr3 V c) (row4_arr4 V c) (row4_arr5 V c) (row4_arr6 V c) (row4_arr7 V c) (row4_arr8 V c)
    p ⟨t.val * 8192 + p.val, hr⟩
    (fun k => row4_blk0_apply V c t p k _ rfl) (fun k => row4_blk1_apply V c t p k _ rfl) (fun k => row4_blk2_apply V c t p k _ rfl)
    (row4_blk3_eq V c t) (row4_blk4_eq V c t) (row4_blk5_eq V c t) (row4_blk6_eq V c t) (row4_blk7_eq V c t) (row4_blk8_eq V c t)

/-! ## The blocks cover the array -/

/-- An index of the result array is in point `t`'s block iff each coordinate is in the block's range on its axis. -/
theorem row4_mem_blk (t : Fin cfg4.N) (i : S1105920x1.Idx) :
    i ∈ ((cfg4.win 9).blk t).view.set ↔ ∀ a : Fin 2, win4_9.index t a * S8192x1.size a ≤ (i a).val ∧ (i a).val < win4_9.index t a * S8192x1.size a + S8192x1.size a := by
  show i ∈ ((View.whole (Pipeline.arrRef spec4 9)).slice (win4_9.rect t)).set ↔ _
  rw [View.set_slice_whole, Rect.mem_set_unit]
  exact Iff.rfl

/-- Row `r` is in the block of point `r / 8192`. -/
theorem row4_cover (i : S1105920x1.Idx) : ∃ t : Fin cfg4.N, (cfg4.win 9).flush t = true ∧ i ∈ ((cfg4.win 9).blk t).view.set := by
  have hi0 : (i 0).val < 1105920 := idx2_lt0 i
  have hi1 : (i 1).val < 1 := idx2_lt1 i
  have hN : cfg4.N = 135 := N_4
  have hlt : (i 0).val / 8192 < cfg4.N := by omega
  obtain ⟨-, -, -, -, -, -, -, -, -, -, -, -, -, -, -, -, -, -, e0, e1⟩ := row4_idx_facts ⟨(i 0).val / 8192, hlt⟩
  refine ⟨⟨(i 0).val / 8192, hlt⟩, flush4_9 _, ?_⟩
  rw [row4_mem_blk]
  intro a
  match a with
  | ⟨0, _⟩ => show win4_9.index ⟨(i 0).val / 8192, hlt⟩ (0 : Fin 2) * 8192 ≤ (i 0).val ∧ (i 0).val < win4_9.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win4_9.index ⟨(i 0).val / 8192, hlt⟩ (1 : Fin 2) * 1 ≤ (i 1).val ∧ (i 1).val < win4_9.index ⟨(i 0).val / 8192, hlt⟩ (1 : Fin 2) * 1 + 1; omega

/-! ## The result array after the pipeline -/

theorem row4_final (c : Dev nD) : (dat4 V c).arrAt 9 cfg4.N = row4_fn V c :=
  (dat4 V c).arrAt_eq_of_cover 9 (row4_fn V c) (fun t _ => row4_flushed V c t) row4_cover

/-- The result array after pipeline 4, at row `r`: the edge network of row `r` of the three row arrays. -/
theorem edge_row4 (c : Dev nD) (r : Fin 1105920) :
    (dat4 V c).arrAt 9 cfg4.N (ix2 r 0) =
      (∑ h : Fin 32, max ((((∑ k : Fin 8, row4_arr0 V c (ix2 r k) * row4_arr3 V c (ix2 k h)) + (∑ k : Fin 8, row4_arr1 V c (ix2 r k) * row4_arr4 V c (ix2 k h))) +
          (∑ k : Fin 2, row4_arr2 V c (ix2 r k) * row4_arr5 V c (ix2 k h))) + row4_arr6 V c (ix2 0 h)) 0 * row4_arr7 V c (ix2 h 0)) + row4_arr8 V c (ix2 0 0) :=
  congrFun (row4_final V c) (ix2 r 0)

end Cert.KernelIdeal.Gen

end
-- ==== Proof.Val.RegionFn4.lean ====
import proofs.«426760_j80470507258346_3_alg».proof.Proof.Val.RegionRow4
import proofs.«426760_j80470507258346_3_alg».proof.Proof.Val.DagK

/-! Pipeline 4's result array as ONE function of the nine operand arrays: the edge pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 4 is the edge function of the nine operand arrays as the pipeline finds them. -/
theorem edge_arr4 (c : Dev nD) :
    (dat4 V c).arrAt 9 cfg4.N =
      Cert.Val.K.edgeFn (row4_arr0 V c) (row4_arr1 V c) (row4_arr2 V c) (row4_arr3 V c) (row4_arr4 V c) (row4_arr5 V c)
        (row4_arr6 V c) (row4_arr7 V c) (row4_arr8 V c) := by
  refine (row4_final V c).trans (funext fun i => ?_)
  obtain ⟨r, q, rfl⟩ : ∃ (r : Fin 1105920) (q : Fin 1), i = ix2 r q := ⟨i 0, i 1, eq_ix2 i⟩
  obtain rfl : q = 0 := Subsingleton.elim _ _
  exact (Cert.Val.K.edgeFn_apply (row4_arr0 V c) (row4_arr1 V c) (row4_arr2 V c) (row4_arr3 V c) (row4_arr4 V c) (row4_arr5 V c)
    (row4_arr6 V c) (row4_arr7 V c) (row4_arr8 V c) r).symm

end Cert.KernelIdeal.Gen

end
-- ==== Proof.Val.RegionRow5.lean ====
import proofs.«426760_j80470507258346_3_alg».proof.Proof.KI.Reg5
import proofs.«426760_j80470507258346_3_alg».proof.Proof.Val.Payload
import Idealize.ShloMosaic.Lib.ValueIdx
import Idealize.ShloMosaic.Lib.Pipeline.Value

/-! Pipeline 5's result array, entry by entry, over the extended reals, at ANY contents `V` of the TensorCore's buffers
    when the pipeline is entered. Point `t` writes back rows `8192 t … 8192 t + 8191`; entry `(p, q)` of its block is the
    node body's value of row `p` of the two row operands' blocks (rows `8192 t + p` of their arrays) and of the five small
    operands' blocks (their arrays whole). The 13 blocks tile the 106496 rows (row `r` lies in the block of point
    `r / 8192`), so after the pipeline entry `(r, q)` of the result array is
    `∑ h, max ((A0 A2)[r, h] + (A1 A3)[r, h] + A4[0, h]) 0 * A5[h, q] + A6[0, q]`
    of the seven operand arrays `A0 … A6` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 5 works on, each at its literal type -/

abbrev row5_arr0 (c : Dev nD) : Vec Ideal S106496x8 .bf16 := V c (Pipeline.arrRef spec5 0)
abbrev row5_arr1 (c : Dev nD) : Vec Ideal S106496x1 .bf16 := V c (Pipeline.arrRef spec5 1)
abbrev row5_arr2 (c : Dev nD) : Vec Ideal S8x32 .f32 := V c (Pipeline.arrRef spec5 2)
abbrev row5_arr3 (c : Dev nD) : Vec Ideal S1x32 .f32 := V c (Pipeline.arrRef spec5 3)
abbrev row5_arr4 (c : Dev nD) : Vec Ideal S1x32 .f32 := V c (Pipeline.arrRef spec5 4)
abbrev row5_arr5 (c : Dev nD) : Vec Ideal S32x8 .f32 := V c (Pipeline.arrRef spec5 5)
abbrev row5_arr6 (c : Dev nD) : Vec Ideal S1x8 .f32 := V c (Pipeline.arrRef spec5 6)

/-! ## Where each block sits in its array -/

theorem row5_hz : (![0, 0] : Fin 2 → Nat) = fun _ => 0 := funext fun a => by fin_cases a <;> rfl

/-- The index maps, decided over the grid: the two row operands' and the result's block index is the point's number on
    the row axis, and every other block index is `0`. -/
theorem row5_idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Row `p` of row operand 0's block at point `t` is row `8192 t + p` of its array. -/
theorem row5_blk0_apply (c : Dev nD) (t : Fin cfg5.N) (p : Fin 8192) (k : Fin 8) (r : Fin 106496)
    (hr : r.val = t.val * 8192 + p.val) :
    (iblk5 V c 0 t : Vec Ideal S8192x8 .bf16) (ix2 p k) = row5_arr0 V c (ix2 r k) := by
  obtain ⟨e0, e1, -⟩ := row5_idx_facts t
  unfold iblk5
  show V c (Pipeline.arrRef spec5 0) (((cfg5.win 0).blk t).view.emb (ix2 p k)) = V c (Pipeline.arrRef spec5 0) (ix2 r k)
  refine congrArg (V c (Pipeline.arrRef spec5 0)) ?_
  funext a; apply Fin.ext
  match a with
  | ⟨0, _⟩ => show win5_0.index t (0 : Fin 2) * 8192 + 1 * p.val = r.val; omega
  | ⟨1, _⟩ => show win5_0.index t (1 : Fin 2) * 8 + 1 * k.val = k.val; omega

/-- The same for row operand 1. -/
theorem row5_blk1_apply (c : Dev nD) (t : Fin cfg5.N) (p : Fin 8192) (k : Fin 1) (r : Fin 106496)
    (hr : r.val = t.val * 8192 + p.val) :
    (iblk5 V c 1 t : Vec Ideal S8192x1 .bf16) (ix2 p k) = row5_arr1 V c (ix2 r k) := by
  obtain ⟨-, -, e0, e1, -⟩ := row5_idx_facts t
  unfold iblk5
  show V c (Pipeline.arrRef spec5 1) (((cfg5.win 1).blk t).view.emb (ix2 p k)) = V c (Pipeline.arrRef spec5 1) (ix2 r k)
  refine congrArg (V c (Pipeline.arrRef spec5 1)) ?_
  funext a; apply Fin.ext
  match a with
  | ⟨0, _⟩ => show win5_1.index t (0 : Fin 2) * 8192 + 1 * p.val = r.val; omega
  | ⟨1, _⟩ => show win5_1.index t (1 : Fin 2) * 1 + 1 * k.val = k.val; omega

/-- Operand 2's one block is its whole array. -/
theorem row5_blk2_eq (c : Dev nD) (t : Fin cfg5.N) : (iblk5 V c 2 t : Vec Ideal S8x32 .f32) = row5_arr2 V c := by
  obtain ⟨-, -, -, -, e0, e1, -⟩ := row5_idx_facts t
  funext y
  unfold iblk5
  show V c (Pipeline.arrRef spec5 2) (((cfg5.win 2).blk t).view.emb y) = V c (Pipeline.arrRef spec5 2) y
  refine congrArg (V c (Pipeline.arrRef spec5 2)) ?_
  funext a; apply Fin.ext
  match a with
  | ⟨0, _⟩ => show win5_2.index t (0 : Fin 2) * 8 + 1 * (y 0).val = (y 0).val; omega
  | ⟨1, _⟩ => show win5_2.index t (1 : Fin 2) * 32 + 1 * (y 1).val = (y 1).val; omega

/-- Operand 3's one block is its whole array. -/
theorem row5_blk3_eq (c : Dev nD) (t : Fin cfg5.N) : (iblk5 V c 3 t : Vec Ideal S1x32 .f32) = row5_arr3 V c := by
  obtain ⟨-, -, -, -, -, -, e0, e1, -⟩ := row5_idx_facts t
  funext y
  unfold iblk5
  show V c (Pipeline.arrRef spec5 3) (((cfg5.win 3).blk t).view.emb y) = V c (Pipeline.arrRef spec5 3) y
  refine congrArg (V c (Pipeline.arrRef spec5 3)) ?_
  funext a; apply Fin.ext
  match a with
  | ⟨0, _⟩ => show win5_3.index t (0 : Fin 2) * 1 + 1 * (y 0).val = (y 0).val; omega
  | ⟨1, _⟩ => show win5_3.index t (1 : Fin 2) * 32 + 1 * (y 1).val = (y 1).val; omega

/-- Operand 4's one block is its whole array. -/
theorem row5_blk4_eq (c : Dev nD) (t : Fin cfg5.N) : (iblk5 V c 4 t : Vec Ideal S1x32 .f32) = row5_arr4 V c := by
  obtain ⟨-, -, -, -, -, -, -, -, e0, e1, -⟩ := row5_idx_facts t
  funext y
  unfold iblk5
  show V c (Pipeline.arrRef spec5 4) (((cfg5.win 4).blk t).view.emb y) = V c (Pipeline.arrRef spec5 4) y
  refine congrArg (V c (Pipeline.arrRef spec5 4)) ?_
  funext a; apply Fin.ext
  match a with
  | ⟨0, _⟩ => show win5_4.index t (0 : Fin 2) * 1 + 1 * (y 0).val = (y 0).val; omega
  | ⟨1, _⟩ => show win5_4.index t (1 : Fin 2) * 32 + 1 * (y 1).val = (y 1).val; omega

/-- Operand 5's one block is its whole array. -/
theorem row5_blk5_eq (c : Dev nD) (t : Fin cfg5.N) : (iblk5 V c 5 t : Vec Ideal S32x8 .f32) = row5_arr5 V c := by
  obtain ⟨-, -, -, -, -, -, -, -, -, -, e0, e1, -⟩ := row5_idx_facts t
  funext y
  unfold iblk5
  show V c (Pipeline.arrRef spec5 5) (((cfg5.win 5).blk t).view.emb y) = V c (Pipeline.arrRef spec5 5) y
  refine congrArg (V c (Pipeline.arrRef spec5 5)) ?_
  funext a; apply Fin.ext
  match a with
  | ⟨0, _⟩ => show win5_5.index t (0 : Fin 2) * 32 + 1 * (y 0).val = (y 0).val; omega
  | ⟨1, _⟩ => show win5_5.index t (1 : Fin 2) * 8 + 1 * (y 1).val = (y 1).val; omega

/-- Operand 6's one block is its whole array. -/
theorem row5_blk6_eq (c : Dev nD) (t : Fin cfg5.N) : (iblk5 V c 6 t : Vec Ideal S1x8 .f32) = row5_arr6 V c := by
  obtain ⟨-, -, -, -, -, -, -, -, -, -, -, -, e0, e1, -⟩ := row5_idx_facts t
  funext y
  unfold iblk5
  show V c (Pipeline.arrRef spec5 6) (((cfg5.win 6).blk t).view.emb y) = V c (Pipeline.arrRef spec5 6) y
  refine congrArg (V c (Pipeline.arrRef spec5 6)) ?_
  funext a; apply Fin.ext
  match a with
  | ⟨0, _⟩ => show win5_6.index t (0 : Fin 2) * 1 + 1 * (y 0).val = (y 0).val; omega
  | ⟨1, _⟩ => show win5_6.index t (1 : Fin 2) * 8 + 1 * (y 1).val = (y 1).val; omega

/-! ## A point's result block, entry by entry, from the arrays -/

/-- Entry `(p, q)` of the body's value from seven blocks whose row `p` (the two row operands) or whose whole (the five
    small operands) is read off arrays `a0 … a6` at row `r`. -/
theorem row5_of_blocks (x0 : Vec Ideal S8192x8 .bf16) (x1 : Vec Ideal S8192x1 .bf16) (x2 : Vec Ideal S8x32 .f32)
    (x3 x4 : Vec Ideal S1x32 .f32) (x5 : Vec Ideal S32x8 .f32) (x6 : Vec Ideal S1x8 .f32)
    (a0 : Vec Ideal S106496x8 .bf16) (a1 : Vec Ideal S106496x1 .bf16) (a2 : Vec Ideal S8x32 .f32)
    (a3 a4 : Vec Ideal S1x32 .f32) (a5 : Vec Ideal S32x8 .f32) (a6 : Vec Ideal S1x8 .f32)
    (p : Fin 8192) (q : Fin 8) (r : Fin 106496)
    (h0 : ∀ k, x0 (ix2 p k) = a0 (ix2 r k)) (h1 : ∀ k, x1 (ix2 p k) = a1 (ix2 r k))
    (h2 : x2 = a2) (h3 : x3 = a3) (h4 : x4 = a4) (h5 : x5 = a5) (h6 : x6 = a6) :
    k5_pay1 (F := Ideal) x0 x1 x2 x3 x4 x5 x6 (ix2 p q) =
      (∑ h : Fin 32, max (((∑ k : Fin 8, a0 (ix2 r k) * a2 (ix2 k h)) + (∑ k : Fin 1, a1 (ix2 r k) * a3 (ix2 k h))) +
          a4 (ix2 0 h)) 0 * a5 (ix2 h q)) + a6 (ix2 0 q) := by
  subst h2 h3 h4 h5 h6
  refine (PayVal.node_pay_apply x0 x1 x2 x3 x4 x5 x6 p q).trans ?_
  simp only [h0, h1]

/-- Entry `(r, q)` of what the result array ends holding. -/
def row5_val (c : Dev nD) (r : Fin 106496) (q : Fin 8) : EReal :=
  (∑ h : Fin 32, max (((∑ k : Fin 8, row5_arr0 V c (ix2 r k) * row5_arr2 V c (ix2 k h)) + (∑ k : Fin 1, row5_arr1 V c (ix2 r k) * row5_arr3 V c (ix2 k h))) +
          row5_arr4 V c (ix2 0 h)) 0 * row5_arr5 V c (ix2 h q)) + row5_arr6 V c (ix2 0 q)

/-- What the result array ends holding. -/
def row5_fn (c : Dev nD) : Vec Ideal S106496x8 .f32 := fun i => row5_val V c ⟨(i 0).val, idx2_lt0 i⟩ ⟨(i 1).val, idx2_lt1 i⟩

/-- What point `t` writes back is block `t` of `row5_fn`. -/
theorem row5_flushed (c : Dev nD) (t : Fin cfg5.N) :
    (dat5 V c).flushed 7 t = ((cfg5.win 7).blk t).view.read (Elt Ideal) (row5_fn V c) := by
  show (cfg5.win 7).cut (grid5.coords t) ((dat5 V c).after 7 t) = _
  rw [after5_7]
  unfold out5_7
  rw [View.canon_unit_zero row5_hz]
  simp only [View.ld_unit_zero (S := S8192x8) row5_hz, View.ld_unit_zero (S := S8192x1) row5_hz, View.ld_unit_zero (S := S8x32) row5_hz,
    View.ld_unit_zero (S := S1x32) row5_hz, View.ld_unit_zero (S := S32x8) row5_hz, View.ld_unit_zero (S := S1x8) row5_hz]
  funext y
  obtain ⟨p, q, rfl⟩ : ∃ (p : Fin 8192) (q : Fin 8), y = ix2 p q := ⟨y 0, y 1, eq_ix2 y⟩
  obtain ⟨-, -, -, -, -, -, -, -, -, -, -, -, -, -, e0, e1⟩ := row5_idx_facts t
  have hN : cfg5.N = 13 := N_5
  have ht : t.val < cfg5.N := t.isLt
  have hr : t.val * 8192 + p.val < 106496 := by omega
  have hemb : ((cfg5.win 7).blk t).view.emb (ix2 p q) = ix2 (⟨t.val * 8192 + p.val, hr⟩ : Fin 106496) q := by
    funext a; apply Fin.ext
    match a with
    | ⟨0, _⟩ => show win5_7.index t (0 : Fin 2) * 8192 + 1 * p.val = t.val * 8192 + p.val; omega
    | ⟨1, _⟩ => show win5_7.index t (1 : Fin 2) * 8 + 1 * q.val = q.val; omega
  show k5_pay1 (F := Ideal) (iblk5 V c 0 t) (iblk5 V c 1 t) (iblk5 V c 2 t) (iblk5 V c 3 t) (iblk5 V c 4 t) (iblk5 V c 5 t) (iblk5 V c 6 t) (ix2 p q)
    = row5_fn V c (((cfg5.win 7).blk t).view.emb (ix2 p q))
  rw [hemb]
  exact row5_of_blocks (iblk5 V c 0 t) (iblk5 V c 1 t) (iblk5 V c 2 t) (iblk5 V c 3 t) (iblk5 V c 4 t) (iblk5 V c 5 t) (iblk5 V c 6 t)
    (row5_arr0 V c) (row5_arr1 V c) (row5_arr2 V c) (row5_arr3 V c) (row5_arr4 V c) (row5_arr5 V c) (row5_arr6 V c)
    p q ⟨t.val * 8192 + p.val, hr⟩
    (fun k => row5_blk0_apply V c t p k _ rfl) (fun k => row5_blk1_apply V c t p k _ rfl)
    (row5_blk2_eq V c t) (row5_blk3_eq V c t) (row5_blk4_eq V c t) (row5_blk5_eq V c t) (row5_blk6_eq V c t)

/-! ## The blocks cover the array -/

/-- An index of the result array is in point `t`'s block iff each coordinate is in the block's range on its axis. -/
theorem row5_mem_blk (t : Fin cfg5.N) (i : S106496x8.Idx) :
    i ∈ ((cfg5.win 7).blk t).view.set ↔ ∀ a : Fin 2, win5_7.index t a * S8192x8.size a ≤ (i a).val ∧ (i a).val < win5_7.index t a * S8192x8.size a + S8192x8.size a := by
  show i ∈ ((View.whole (Pipeline.arrRef spec5 7)).slice (win5_7.rect t)).set ↔ _
  rw [View.set_slice_whole, Rect.mem_set_unit]
  exact Iff.rfl

/-- Row `r` is in the block of point `r / 8192`. -/
theorem row5_cover (i : S106496x8.Idx) : ∃ t : Fin cfg5.N, (cfg5.win 7).flush t = true ∧ i ∈ ((cfg5.win 7).blk t).view.set := by
  have hi0 : (i 0).val < 106496 := idx2_lt0 i
  have hi1 : (i 1).val < 8 := idx2_lt1 i
  have hN : cfg5.N = 13 := N_5
  have hlt : (i 0).val / 8192 < cfg5.N := by omega
  obtain ⟨-, -, -, -, -, -, -, -, -, -, -, -, -, -, e0, e1⟩ := row5_idx_facts ⟨(i 0).val / 8192, hlt⟩
  refine ⟨⟨(i 0).val / 8192, hlt⟩, flush5_7 _, ?_⟩
  rw [row5_mem_blk]
  intro a
  match a with
  | ⟨0, _⟩ => show win5_7.index ⟨(i 0).val / 8192, hlt⟩ (0 : Fin 2) * 8192 ≤ (i 0).val ∧ (i 0).val < win5_7.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win5_7.index ⟨(i 0).val / 8192, hlt⟩ (1 : Fin 2) * 8 ≤ (i 1).val ∧ (i 1).val < win5_7.index ⟨(i 0).val / 8192, hlt⟩ (1 : Fin 2) * 8 + 8; omega

/-! ## The result array after the pipeline -/

theorem row5_final (c : Dev nD) : (dat5 V c).arrAt 7 cfg5.N = row5_fn V c :=
  (dat5 V c).arrAt_eq_of_cover 7 (row5_fn V c) (fun t _ => row5_flushed V c t) row5_cover

/-- The result array after pipeline 5, at row `r`, column `q`: the node network of row `r` of the two row arrays. -/
theorem node_row5 (c : Dev nD) (r : Fin 106496) (q : Fin 8) :
    (dat5 V c).arrAt 7 cfg5.N (ix2 r q) =
      (∑ h : Fin 32, max (((∑ k : Fin 8, row5_arr0 V c (ix2 r k) * row5_arr2 V c (ix2 k h)) + (∑ k : Fin 1, row5_arr1 V c (ix2 r k) * row5_arr3 V c (ix2 k h))) +
          row5_arr4 V c (ix2 0 h)) 0 * row5_arr5 V c (ix2 h q)) + row5_arr6 V c (ix2 0 q) :=
  congrFun (row5_final V c) (ix2 r q)

end Cert.KernelIdeal.Gen

end
-- ==== Proof.Val.RegionFn5.lean ====
import proofs.«426760_j80470507258346_3_alg».proof.Proof.Val.RegionRow5
import proofs.«426760_j80470507258346_3_alg».proof.Proof.Val.DagK

/-! Pipeline 5's result array as ONE function of the seven operand arrays: the node pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 5 is the node function of the seven operand arrays as the pipeline finds them. -/
theorem node_arr5 (c : Dev nD) :
    (dat5 V c).arrAt 7 cfg5.N =
      Cert.Val.K.nodeFn (row5_arr0 V c) (row5_arr1 V c) (row5_arr2 V c) (row5_arr3 V c) (row5_arr4 V c) (row5_arr5 V c)
        (row5_arr6 V c) := by
  refine (row5_final V c).trans (funext fun i => ?_)
  obtain ⟨r, q, rfl⟩ : ∃ (r : Fin 106496) (q : Fin 8), i = ix2 r q := ⟨i 0, i 1, eq_ix2 i⟩
  exact (Cert.Val.K.nodeFn_apply (row5_arr0 V c) (row5_arr1 V c) (row5_arr2 V c) (row5_arr3 V c) (row5_arr4 V c) (row5_arr5 V c)
    (row5_arr6 V c) r q).symm

end Cert.KernelIdeal.Gen

end
-- ==== Proof.Val.RegionRow6.lean ====
import proofs.«426760_j80470507258346_3_alg».proof.Proof.KI.Reg6
import proofs.«426760_j80470507258346_3_alg».proof.Proof.Val.Payload
import Idealize.ShloMosaic.Lib.ValueIdx
import Idealize.ShloMosaic.Lib.Pipeline.Value

/-! Pipeline 6's result array, row by row, over the extended reals, at ANY contents `V` of the TensorCore's buffers when
    the pipeline is entered. Point `t` writes back rows `8192 t … 8192 t + 8191`; row `p` of its block is the edge
    body's value of row `p` of the three row operands' blocks (rows `8192 t + p` of their arrays) and of the six small
    operands' blocks (their arrays whole). The 135 blocks tile the 1105920 rows (row `r` lies in the block of point
    `r / 8192`), so after the pipeline row `r` of the result array is
    `∑ h, max (((A0 A3)[r, h] + (A1 A4)[r, h]) + (A2 A5)[r, h] + A6[0, h]) 0 * A7[h, 0] + A8[0, 0]`
    of the nine operand arrays `A0 … A8` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 6 works on, each at its literal type -/

abbrev row6_arr0 (c : Dev nD) : Vec Ideal S1105920x8 .bf16 := V c (Pipeline.arrRef spec6 0)
abbrev row6_arr1 (c : Dev nD) : Vec Ideal S1105920x8 .bf16 := V c (Pipeline.arrRef spec6 1)
abbrev row6_arr2 (c : Dev nD) : Vec Ideal S1105920x2 .bf16 := V c (Pipeline.arrRef spec6 2)
abbrev row6_arr3 (c : Dev nD) : Vec Ideal S8x32 .f32 := V c (Pipeline.arrRef spec6 3)
abbrev row6_arr4 (c : Dev nD) : Vec Ideal S8x32 .f32 := V c (Pipeline.arrRef spec6 4)
abbrev row6_arr5 (c : Dev nD) : Vec Ideal S2x32 .f32 := V c (Pipeline.arrRef spec6 5)
abbrev row6_arr6 (c : Dev nD) : Vec Ideal S1x32 .f32 := V c (Pipeline.arrRef spec6 6)
abbrev row6_arr7 (c : Dev nD) : Vec Ideal S32x1 .f32 := V c (Pipeline.arrRef spec6 7)
abbrev row6_arr8 (c : Dev nD) : Vec Ideal S1x1 .f32 := V c (Pipeline.arrRef spec6 8)

/-! ## Where each block sits in its array -/

theorem row6_hz : (![0, 0] : Fin 2 → Nat) = fun _ => 0 := funext fun a => by fin_cases a <;> rfl

/-- The index maps, decided over the grid: the three row operands' and the result's block index is the point's number on
    the row axis, and every other block index is `0`. -/
theorem row6_idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = t.val ∧ win6_9.index t (1 : Fin 2) = 0 :=
  (by decide +kernel : ∀ t : Fin grid6.N, _)

/-- Row `p` of row operand 0's block at point `t` is row `8192 t + p` of its array. -/
theorem row6_blk0_apply (c : Dev nD) (t : Fin cfg6.N) (p : Fin 8192) (k : Fin 8) (r : Fin 1105920)
    (hr : r.val = t.val * 8192 + p.val) :
    (iblk6 V c 0 t : Vec Ideal S8192x8 .bf16) (ix2 p k) = row6_arr0 V c (ix2 r k) := by
  obtain ⟨e0, e1, -⟩ := row6_idx_facts t
  unfold iblk6
  show V c (Pipeline.arrRef spec6 0) (((cfg6.win 0).blk t).view.emb (ix2 p k)) = V c (Pipeline.arrRef spec6 0) (ix2 r k)
  refine congrArg (V c (Pipeline.arrRef spec6 0)) ?_
  funext a; apply Fin.ext
  match a with
  | ⟨0, _⟩ => show win6_0.index t (0 : Fin 2) * 8192 + 1 * p.val = r.val; omega
  | ⟨1, _⟩ => show win6_0.index t (1 : Fin 2) * 8 + 1 * k.val = k.val; omega

/-- The same for row operand 1. -/
theorem row6_blk1_apply (c : Dev nD) (t : Fin cfg6.N) (p : Fin 8192) (k : Fin 8) (r : Fin 1105920)
    (hr : r.val = t.val * 8192 + p.val) :
    (iblk6 V c 1 t : Vec Ideal S8192x8 .bf16) (ix2 p k) = row6_arr1 V c (ix2 r k) := by
  obtain ⟨-, -, e0, e1, -⟩ := row6_idx_facts t
  unfold iblk6
  show V c (Pipeline.arrRef spec6 1) (((cfg6.win 1).blk t).view.emb (ix2 p k)) = V c (Pipeline.arrRef spec6 1) (ix2 r k)
  refine congrArg (V c (Pipeline.arrRef spec6 1)) ?_
  funext a; apply Fin.ext
  match a with
  | ⟨0, _⟩ => show win6_1.index t (0 : Fin 2) * 8192 + 1 * p.val = r.val; omega
  | ⟨1, _⟩ => show win6_1.index t (1 : Fin 2) * 8 + 1 * k.val = k.val; omega

/-- The same for row operand 2. -/
theorem row6_blk2_apply (c : Dev nD) (t : Fin cfg6.N) (p : Fin 8192) (k : Fin 2) (r : Fin 1105920)
    (hr : r.val = t.val * 8192 + p.val) :
    (iblk6 V c 2 t : Vec Ideal S8192x2 .bf16) (ix2 p k) = row6_arr2 V c (ix2 r k) := by
  obtain ⟨-, -, -, -, e0, e1, -⟩ := row6_idx_facts t
  unfold iblk6
  show V c (Pipeline.arrRef spec6 2) (((cfg6.win 2).blk t).view.emb (ix2 p k)) = V c (Pipeline.arrRef spec6 2) (ix2 r k)
  refine congrArg (V c (Pipeline.arrRef spec6 2)) ?_
  funext a; apply Fin.ext
  match a with
  | ⟨0, _⟩ => show win6_2.index t (0 : Fin 2) * 8192 + 1 * p.val = r.val; omega
  | ⟨1, _⟩ => show win6_2.index t (1 : Fin 2) * 2 + 1 * k.val = k.val; omega

/-- Operand 3's one block is its whole array. -/
theorem row6_blk3_eq (c : Dev nD) (t : Fin cfg6.N) : (iblk6 V c 3 t : Vec Ideal S8x32 .f32) = row6_arr3 V c := by
  obtain ⟨-, -, -, -, -, -, e0, e1, -⟩ := row6_idx_facts t
  funext y
  unfold iblk6
  show V c (Pipeline.arrRef spec6 3) (((cfg6.win 3).blk t).view.emb y) = V c (Pipeline.arrRef spec6 3) y
  refine congrArg (V c (Pipeline.arrRef spec6 3)) ?_
  funext a; apply Fin.ext
  match a with
  | ⟨0, _⟩ => show win6_3.index t (0 : Fin 2) * 8 + 1 * (y 0).val = (y 0).val; omega
  | ⟨1, _⟩ => show win6_3.index t (1 : Fin 2) * 32 + 1 * (y 1).val = (y 1).val; omega

/-- Operand 4's one block is its whole array. -/
theorem row6_blk4_eq (c : Dev nD) (t : Fin cfg6.N) : (iblk6 V c 4 t : Vec Ideal S8x32 .f32) = row6_arr4 V c := by
  obtain ⟨-, -, -, -, -, -, -, -, e0, e1, -⟩ := row6_idx_facts t
  funext y
  unfold iblk6
  show V c (Pipeline.arrRef spec6 4) (((cfg6.win 4).blk t).view.emb y) = V c (Pipeline.arrRef spec6 4) y
  refine congrArg (V c (Pipeline.arrRef spec6 4)) ?_
  funext a; apply Fin.ext
  match a with
  | ⟨0, _⟩ => show win6_4.index t (0 : Fin 2) * 8 + 1 * (y 0).val = (y 0).val; omega
  | ⟨1, _⟩ => show win6_4.index t (1 : Fin 2) * 32 + 1 * (y 1).val = (y 1).val; omega

/-- Operand 5's one block is its whole array. -/
theorem row6_blk5_eq (c : Dev nD) (t : Fin cfg6.N) : (iblk6 V c 5 t : Vec Ideal S2x32 .f32) = row6_arr5 V c := by
  obtain ⟨-, -, -, -, -, -, -, -, -, -, e0, e1, -⟩ := row6_idx_facts t
  funext y
  unfold iblk6
  show V c (Pipeline.arrRef spec6 5) (((cfg6.win 5).blk t).view.emb y) = V c (Pipeline.arrRef spec6 5) y
  refine congrArg (V c (Pipeline.arrRef spec6 5)) ?_
  funext a; apply Fin.ext
  match a with
  | ⟨0, _⟩ => show win6_5.index t (0 : Fin 2) * 2 + 1 * (y 0).val = (y 0).val; omega
  | ⟨1, _⟩ => show win6_5.index t (1 : Fin 2) * 32 + 1 * (y 1).val = (y 1).val; omega

/-- Operand 6's one block is its whole array. -/
theorem row6_blk6_eq (c : Dev nD) (t : Fin cfg6.N) : (iblk6 V c 6 t : Vec Ideal S1x32 .f32) = row6_arr6 V c := by
  obtain ⟨-, -, -, -, -, -, -, -, -, -, -, -, e0, e1, -⟩ := row6_idx_facts t
  funext y
  unfold iblk6
  show V c (Pipeline.arrRef spec6 6) (((cfg6.win 6).blk t).view.emb y) = V c (Pipeline.arrRef spec6 6) y
  refine congrArg (V c (Pipeline.arrRef spec6 6)) ?_
  funext a; apply Fin.ext
  match a with
  | ⟨0, _⟩ => show win6_6.index t (0 : Fin 2) * 1 + 1 * (y 0).val = (y 0).val; omega
  | ⟨1, _⟩ => show win6_6.index t (1 : Fin 2) * 32 + 1 * (y 1).val = (y 1).val; omega

/-- Operand 7's one block is its whole array. -/
theorem row6_blk7_eq (c : Dev nD) (t : Fin cfg6.N) : (iblk6 V c 7 t : Vec Ideal S32x1 .f32) = row6_arr7 V c := by
  obtain ⟨-, -, -, -, -, -, -, -, -, -, -, -, -, -, e0, e1, -⟩ := row6_idx_facts t
  funext y
  unfold iblk6
  show V c (Pipeline.arrRef spec6 7) (((cfg6.win 7).blk t).view.emb y) = V c (Pipeline.arrRef spec6 7) y
  refine congrArg (V c (Pipeline.arrRef spec6 7)) ?_
  funext a; apply Fin.ext
  match a with
  | ⟨0, _⟩ => show win6_7.index t (0 : Fin 2) * 32 + 1 * (y 0).val = (y 0).val; omega
  | ⟨1, _⟩ => show win6_7.index t (1 : Fin 2) * 1 + 1 * (y 1).val = (y 1).val; omega

/-- Operand 8's one block is its whole array. -/
theorem row6_blk8_eq (c : Dev nD) (t : Fin cfg6.N) : (iblk6 V c 8 t : Vec Ideal S1x1 .f32) = row6_arr8 V c := by
  obtain ⟨-, -, -, -, -, -, -, -, -, -, -, -, -, -, -, -, e0, e1, -⟩ := row6_idx_facts t
  funext y
  unfold iblk6
  show V c (Pipeline.arrRef spec6 8) (((cfg6.win 8).blk t).view.emb y) = V c (Pipeline.arrRef spec6 8) y
  refine congrArg (V c (Pipeline.arrRef spec6 8)) ?_
  funext a; apply Fin.ext
  match a with
  | ⟨0, _⟩ => show win6_8.index t (0 : Fin 2) * 1 + 1 * (y 0).val = (y 0).val; omega
  | ⟨1, _⟩ => show win6_8.index t (1 : Fin 2) * 1 + 1 * (y 1).val = (y 1).val; omega

/-! ## A point's result block, row by row, from the arrays -/

/-- Row `p` of the body's value from nine blocks whose row `p` (the three row operands) or whose whole (the six small
    operands) is read off arrays `a0 … a8` at row `r`. -/
theorem row6_of_blocks (x0 x1 : Vec Ideal S8192x8 .bf16) (x2 : Vec Ideal S8192x2 .bf16) (x3 x4 : Vec Ideal S8x32 .f32)
    (x5 : Vec Ideal S2x32 .f32) (x6 : Vec Ideal S1x32 .f32) (x7 : Vec Ideal S32x1 .f32) (x8 : Vec Ideal S1x1 .f32)
    (a0 a1 : Vec Ideal S1105920x8 .bf16) (a2 : Vec Ideal S1105920x2 .bf16) (a3 a4 : Vec Ideal S8x32 .f32)
    (a5 : Vec Ideal S2x32 .f32) (a6 : Vec Ideal S1x32 .f32) (a7 : Vec Ideal S32x1 .f32) (a8 : Vec Ideal S1x1 .f32)
    (p : Fin 8192) (r : Fin 1105920)
    (h0 : ∀ k, x0 (ix2 p k) = a0 (ix2 r k)) (h1 : ∀ k, x1 (ix2 p k) = a1 (ix2 r k)) (h2 : ∀ k, x2 (ix2 p k) = a2 (ix2 r k))
    (h3 : x3 = a3) (h4 : x4 = a4) (h5 : x5 = a5) (h6 : x6 = a6) (h7 : x7 = a7) (h8 : x8 = a8) :
    k6_pay1 (F := Ideal) x0 x1 x2 x3 x4 x5 x6 x7 x8 (ix2 p 0) =
      (∑ h : Fin 32, max ((((∑ k : Fin 8, a0 (ix2 r k) * a3 (ix2 k h)) + (∑ k : Fin 8, a1 (ix2 r k) * a4 (ix2 k h))) +
          (∑ k : Fin 2, a2 (ix2 r k) * a5 (ix2 k h))) + a6 (ix2 0 h)) 0 * a7 (ix2 h 0)) + a8 (ix2 0 0) := by
  subst h3 h4 h5 h6 h7 h8
  refine (PayVal.edge_pay_apply x0 x1 x2 x3 x4 x5 x6 x7 x8 p).trans ?_
  simp only [h0, h1, h2]

/-- Row `r` of what the result array ends holding. -/
def row6_val (c : Dev nD) (r : Fin 1105920) : EReal :=
  (∑ h : Fin 32, max ((((∑ k : Fin 8, row6_arr0 V c (ix2 r k) * row6_arr3 V c (ix2 k h)) + (∑ k : Fin 8, row6_arr1 V c (ix2 r k) * row6_arr4 V c (ix2 k h))) +
          (∑ k : Fin 2, row6_arr2 V c (ix2 r k) * row6_arr5 V c (ix2 k h))) + row6_arr6 V c (ix2 0 h)) 0 * row6_arr7 V c (ix2 h 0)) + row6_arr8 V c (ix2 0 0)

/-- What the result array ends holding. -/
def row6_fn (c : Dev nD) : Vec Ideal S1105920x1 .f32 := fun i => row6_val V c ⟨(i 0).val, idx2_lt0 i⟩

/-- What point `t` writes back is block `t` of `row6_fn`. -/
theorem row6_flushed (c : Dev nD) (t : Fin cfg6.N) :
    (dat6 V c).flushed 9 t = ((cfg6.win 9).blk t).view.read (Elt Ideal) (row6_fn V c) := by
  show (cfg6.win 9).cut (grid6.coords t) ((dat6 V c).after 9 t) = _
  rw [after6_9]
  unfold out6_9
  rw [View.canon_unit_zero row6_hz]
  simp only [View.ld_unit_zero (S := S8192x8) row6_hz, View.ld_unit_zero (S := S8192x2) row6_hz, View.ld_unit_zero (S := S8x32) row6_hz,
    View.ld_unit_zero (S := S2x32) row6_hz, View.ld_unit_zero (S := S1x32) row6_hz, View.ld_unit_zero (S := S32x1) row6_hz,
    View.ld_unit_zero (S := S1x1) row6_hz]
  funext y
  obtain ⟨p, q, rfl⟩ : ∃ (p : Fin 8192) (q : Fin 1), y = ix2 p q := ⟨y 0, y 1, eq_ix2 y⟩
  obtain rfl : q = 0 := Subsingleton.elim _ _
  obtain ⟨-, -, -, -, -, -, -, -, -, -, -, -, -, -, -, -, -, -, e0, e1⟩ := row6_idx_facts t
  have hN : cfg6.N = 135 := N_6
  have ht : t.val < cfg6.N := t.isLt
  have hr : t.val * 8192 + p.val < 1105920 := by omega
  have hemb : ((cfg6.win 9).blk t).view.emb (ix2 p (0 : Fin 1)) = ix2 (⟨t.val * 8192 + p.val, hr⟩ : Fin 1105920) (0 : Fin 1) := by
    funext a; apply Fin.ext
    match a with
    | ⟨0, _⟩ => show win6_9.index t (0 : Fin 2) * 8192 + 1 * p.val = t.val * 8192 + p.val; omega
    | ⟨1, _⟩ => show win6_9.index t (1 : Fin 2) * 1 + 1 * 0 = 0; omega
  show k6_pay1 (F := Ideal) (iblk6 V c 0 t) (iblk6 V c 1 t) (iblk6 V c 2 t) (iblk6 V c 3 t) (iblk6 V c 4 t) (iblk6 V c 5 t) (iblk6 V c 6 t) (iblk6 V c 7 t) (iblk6 V c 8 t) (ix2 p (0 : Fin 1))
    = row6_fn V c (((cfg6.win 9).blk t).view.emb (ix2 p (0 : Fin 1)))
  rw [hemb]
  exact row6_of_blocks (iblk6 V c 0 t) (iblk6 V c 1 t) (iblk6 V c 2 t) (iblk6 V c 3 t) (iblk6 V c 4 t) (iblk6 V c 5 t) (iblk6 V c 6 t) (iblk6 V c 7 t) (iblk6 V c 8 t)
    (row6_arr0 V c) (row6_arr1 V c) (row6_arr2 V c) (row6_arr3 V c) (row6_arr4 V c) (row6_arr5 V c) (row6_arr6 V c) (row6_arr7 V c) (row6_arr8 V c)
    p ⟨t.val * 8192 + p.val, hr⟩
    (fun k => row6_blk0_apply V c t p k _ rfl) (fun k => row6_blk1_apply V c t p k _ rfl) (fun k => row6_blk2_apply V c t p k _ rfl)
    (row6_blk3_eq V c t) (row6_blk4_eq V c t) (row6_blk5_eq V c t) (row6_blk6_eq V c t) (row6_blk7_eq V c t) (row6_blk8_eq V c t)

/-! ## The blocks cover the array -/

/-- An index of the result array is in point `t`'s block iff each coordinate is in the block's range on its axis. -/
theorem row6_mem_blk (t : Fin cfg6.N) (i : S1105920x1.Idx) :
    i ∈ ((cfg6.win 9).blk t).view.set ↔ ∀ a : Fin 2, win6_9.index t a * S8192x1.size a ≤ (i a).val ∧ (i a).val < win6_9.index t a * S8192x1.size a + S8192x1.size a := by
  show i ∈ ((View.whole (Pipeline.arrRef spec6 9)).slice (win6_9.rect t)).set ↔ _
  rw [View.set_slice_whole, Rect.mem_set_unit]
  exact Iff.rfl

/-- Row `r` is in the block of point `r / 8192`. -/
theorem row6_cover (i : S1105920x1.Idx) : ∃ t : Fin cfg6.N, (cfg6.win 9).flush t = true ∧ i ∈ ((cfg6.win 9).blk t).view.set := by
  have hi0 : (i 0).val < 1105920 := idx2_lt0 i
  have hi1 : (i 1).val < 1 := idx2_lt1 i
  have hN : cfg6.N = 135 := N_6
  have hlt : (i 0).val / 8192 < cfg6.N := by omega
  obtain ⟨-, -, -, -, -, -, -, -, -, -, -, -, -, -, -, -, -, -, e0, e1⟩ := row6_idx_facts ⟨(i 0).val / 8192, hlt⟩
  refine ⟨⟨(i 0).val / 8192, hlt⟩, flush6_9 _, ?_⟩
  rw [row6_mem_blk]
  intro a
  match a with
  | ⟨0, _⟩ => show win6_9.index ⟨(i 0).val / 8192, hlt⟩ (0 : Fin 2) * 8192 ≤ (i 0).val ∧ (i 0).val < win6_9.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win6_9.index ⟨(i 0).val / 8192, hlt⟩ (1 : Fin 2) * 1 ≤ (i 1).val ∧ (i 1).val < win6_9.index ⟨(i 0).val / 8192, hlt⟩ (1 : Fin 2) * 1 + 1; omega

/-! ## The result array after the pipeline -/

theorem row6_final (c : Dev nD) : (dat6 V c).arrAt 9 cfg6.N = row6_fn V c :=
  (dat6 V c).arrAt_eq_of_cover 9 (row6_fn V c) (fun t _ => row6_flushed V c t) row6_cover

/-- The result array after pipeline 6, at row `r`: the edge network of row `r` of the three row arrays. -/
theorem edge_row6 (c : Dev nD) (r : Fin 1105920) :
    (dat6 V c).arrAt 9 cfg6.N (ix2 r 0) =
      (∑ h : Fin 32, max ((((∑ k : Fin 8, row6_arr0 V c (ix2 r k) * row6_arr3 V c (ix2 k h)) + (∑ k : Fin 8, row6_arr1 V c (ix2 r k) * row6_arr4 V c (ix2 k h))) +
          (∑ k : Fin 2, row6_arr2 V c (ix2 r k) * row6_arr5 V c (ix2 k h))) + row6_arr6 V c (ix2 0 h)) 0 * row6_arr7 V c (ix2 h 0)) + row6_arr8 V c (ix2 0 0) :=
  congrFun (row6_final V c) (ix2 r 0)

end Cert.KernelIdeal.Gen

end
-- ==== Proof.Val.RegionFn6.lean ====
import proofs.«426760_j80470507258346_3_alg».proof.Proof.Val.RegionRow6
import proofs.«426760_j80470507258346_3_alg».proof.Proof.Val.DagK

/-! Pipeline 6's result array as ONE function of the nine operand arrays: the edge pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 6 is the edge function of the nine operand arrays as the pipeline finds them. -/
theorem edge_arr6 (c : Dev nD) :
    (dat6 V c).arrAt 9 cfg6.N =
      Cert.Val.K.edgeFn (row6_arr0 V c) (row6_arr1 V c) (row6_arr2 V c) (row6_arr3 V c) (row6_arr4 V c) (row6_arr5 V c)
        (row6_arr6 V c) (row6_arr7 V c) (row6_arr8 V c) := by
  refine (row6_final V c).trans (funext fun i => ?_)
  obtain ⟨r, q, rfl⟩ : ∃ (r : Fin 1105920) (q : Fin 1), i = ix2 r q := ⟨i 0, i 1, eq_ix2 i⟩
  obtain rfl : q = 0 := Subsingleton.elim _ _
  exact (Cert.Val.K.edgeFn_apply (row6_arr0 V c) (row6_arr1 V c) (row6_arr2 V c) (row6_arr3 V c) (row6_arr4 V c) (row6_arr5 V c)
    (row6_arr6 V c) (row6_arr7 V c) (row6_arr8 V c) r).symm

end Cert.KernelIdeal.Gen

end
-- ==== Proof.Val.RegionRow7.lean ====
import proofs.«426760_j80470507258346_3_alg».proof.Proof.KI.Reg7
import proofs.«426760_j80470507258346_3_alg».proof.Proof.Val.Payload
import Idealize.ShloMosaic.Lib.ValueIdx
import Idealize.ShloMosaic.Lib.Pipeline.Value

/-! Pipeline 7's result array, entry by entry, over the extended reals, at ANY contents `V` of the TensorCore's buffers
    when the pipeline is entered. Point `t` writes back rows `8192 t … 8192 t + 8191`; entry `(p, q)` of its block is the
    node body's value of row `p` of the two row operands' blocks (rows `8192 t + p` of their arrays) and of the five small
    operands' blocks (their arrays whole). The 13 blocks tile the 106496 rows (row `r` lies in the block of point
    `r / 8192`), so after the pipeline entry `(r, q)` of the result array is
    `∑ h, max ((A0 A2)[r, h] + (A1 A3)[r, h] + A4[0, h]) 0 * A5[h, q] + A6[0, q]`
    of the seven operand arrays `A0 … A6` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 7 works on, each at its literal type -/

abbrev row7_arr0 (c : Dev nD) : Vec Ideal S106496x8 .bf16 := V c (Pipeline.arrRef spec7 0)
abbrev row7_arr1 (c : Dev nD) : Vec Ideal S106496x1 .bf16 := V c (Pipeline.arrRef spec7 1)
abbrev row7_arr2 (c : Dev nD) : Vec Ideal S8x32 .f32 := V c (Pipeline.arrRef spec7 2)
abbrev row7_arr3 (c : Dev nD) : Vec Ideal S1x32 .f32 := V c (Pipeline.arrRef spec7 3)
abbrev row7_arr4 (c : Dev nD) : Vec Ideal S1x32 .f32 := V c (Pipeline.arrRef spec7 4)
abbrev row7_arr5 (c : Dev nD) : Vec Ideal S32x8 .f32 := V c (Pipeline.arrRef spec7 5)
abbrev row7_arr6 (c : Dev nD) : Vec Ideal S1x8 .f32 := V c (Pipeline.arrRef spec7 6)

/-! ## Where each block sits in its array -/

theorem row7_hz : (![0, 0] : Fin 2 → Nat) = fun _ => 0 := funext fun a => by fin_cases a <;> rfl

/-- The index maps, decided over the grid: the two row operands' and the result's block index is the point's number on
    the row axis, and every other block index is `0`. -/
theorem row7_idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Row `p` of row operand 0's block at point `t` is row `8192 t + p` of its array. -/
theorem row7_blk0_apply (c : Dev nD) (t : Fin cfg7.N) (p : Fin 8192) (k : Fin 8) (r : Fin 106496)
    (hr : r.val = t.val * 8192 + p.val) :
    (iblk7 V c 0 t : Vec Ideal S8192x8 .bf16) (ix2 p k) = row7_arr0 V c (ix2 r k) := by
  obtain ⟨e0, e1, -⟩ := row7_idx_facts t
  unfold iblk7
  show V c (Pipeline.arrRef spec7 0) (((cfg7.win 0).blk t).view.emb (ix2 p k)) = V c (Pipeline.arrRef spec7 0) (ix2 r k)
  refine congrArg (V c (Pipeline.arrRef spec7 0)) ?_
  funext a; apply Fin.ext
  match a with
  | ⟨0, _⟩ => show win7_0.index t (0 : Fin 2) * 8192 + 1 * p.val = r.val; omega
  | ⟨1, _⟩ => show win7_0.index t (1 : Fin 2) * 8 + 1 * k.val = k.val; omega

/-- The same for row operand 1. -/
theorem row7_blk1_apply (c : Dev nD) (t : Fin cfg7.N) (p : Fin 8192) (k : Fin 1) (r : Fin 106496)
    (hr : r.val = t.val * 8192 + p.val) :
    (iblk7 V c 1 t : Vec Ideal S8192x1 .bf16) (ix2 p k) = row7_arr1 V c (ix2 r k) := by
  obtain ⟨-, -, e0, e1, -⟩ := row7_idx_facts t
  unfold iblk7
  show V c (Pipeline.arrRef spec7 1) (((cfg7.win 1).blk t).view.emb (ix2 p k)) = V c (Pipeline.arrRef spec7 1) (ix2 r k)
  refine congrArg (V c (Pipeline.arrRef spec7 1)) ?_
  funext a; apply Fin.ext
  match a with
  | ⟨0, _⟩ => show win7_1.index t (0 : Fin 2) * 8192 + 1 * p.val = r.val; omega
  | ⟨1, _⟩ => show win7_1.index t (1 : Fin 2) * 1 + 1 * k.val = k.val; omega

/-- Operand 2's one block is its whole array. -/
theorem row7_blk2_eq (c : Dev nD) (t : Fin cfg7.N) : (iblk7 V c 2 t : Vec Ideal S8x32 .f32) = row7_arr2 V c := by
  obtain ⟨-, -, -, -, e0, e1, -⟩ := row7_idx_facts t
  funext y
  unfold iblk7
  show V c (Pipeline.arrRef spec7 2) (((cfg7.win 2).blk t).view.emb y) = V c (Pipeline.arrRef spec7 2) y
  refine congrArg (V c (Pipeline.arrRef spec7 2)) ?_
  funext a; apply Fin.ext
  match a with
  | ⟨0, _⟩ => show win7_2.index t (0 : Fin 2) * 8 + 1 * (y 0).val = (y 0).val; omega
  | ⟨1, _⟩ => show win7_2.index t (1 : Fin 2) * 32 + 1 * (y 1).val = (y 1).val; omega

/-- Operand 3's one block is its whole array. -/
theorem row7_blk3_eq (c : Dev nD) (t : Fin cfg7.N) : (iblk7 V c 3 t : Vec Ideal S1x32 .f32) = row7_arr3 V c := by
  obtain ⟨-, -, -, -, -, -, e0, e1, -⟩ := row7_idx_facts t
  funext y
  unfold iblk7
  show V c (Pipeline.arrRef spec7 3) (((cfg7.win 3).blk t).view.emb y) = V c (Pipeline.arrRef spec7 3) y
  refine congrArg (V c (Pipeline.arrRef spec7 3)) ?_
  funext a; apply Fin.ext
  match a with
  | ⟨0, _⟩ => show win7_3.index t (0 : Fin 2) * 1 + 1 * (y 0).val = (y 0).val; omega
  | ⟨1, _⟩ => show win7_3.index t (1 : Fin 2) * 32 + 1 * (y 1).val = (y 1).val; omega

/-- Operand 4's one block is its whole array. -/
theorem row7_blk4_eq (c : Dev nD) (t : Fin cfg7.N) : (iblk7 V c 4 t : Vec Ideal S1x32 .f32) = row7_arr4 V c := by
  obtain ⟨-, -, -, -, -, -, -, -, e0, e1, -⟩ := row7_idx_facts t
  funext y
  unfold iblk7
  show V c (Pipeline.arrRef spec7 4) (((cfg7.win 4).blk t).view.emb y) = V c (Pipeline.arrRef spec7 4) y
  refine congrArg (V c (Pipeline.arrRef spec7 4)) ?_
  funext a; apply Fin.ext
  match a with
  | ⟨0, _⟩ => show win7_4.index t (0 : Fin 2) * 1 + 1 * (y 0).val = (y 0).val; omega
  | ⟨1, _⟩ => show win7_4.index t (1 : Fin 2) * 32 + 1 * (y 1).val = (y 1).val; omega

/-- Operand 5's one block is its whole array. -/
theorem row7_blk5_eq (c : Dev nD) (t : Fin cfg7.N) : (iblk7 V c 5 t : Vec Ideal S32x8 .f32) = row7_arr5 V c := by
  obtain ⟨-, -, -, -, -, -, -, -, -, -, e0, e1, -⟩ := row7_idx_facts t
  funext y
  unfold iblk7
  show V c (Pipeline.arrRef spec7 5) (((cfg7.win 5).blk t).view.emb y) = V c (Pipeline.arrRef spec7 5) y
  refine congrArg (V c (Pipeline.arrRef spec7 5)) ?_
  funext a; apply Fin.ext
  match a with
  | ⟨0, _⟩ => show win7_5.index t (0 : Fin 2) * 32 + 1 * (y 0).val = (y 0).val; omega
  | ⟨1, _⟩ => show win7_5.index t (1 : Fin 2) * 8 + 1 * (y 1).val = (y 1).val; omega

/-- Operand 6's one block is its whole array. -/
theorem row7_blk6_eq (c : Dev nD) (t : Fin cfg7.N) : (iblk7 V c 6 t : Vec Ideal S1x8 .f32) = row7_arr6 V c := by
  obtain ⟨-, -, -, -, -, -, -, -, -, -, -, -, e0, e1, -⟩ := row7_idx_facts t
  funext y
  unfold iblk7
  show V c (Pipeline.arrRef spec7 6) (((cfg7.win 6).blk t).view.emb y) = V c (Pipeline.arrRef spec7 6) y
  refine congrArg (V c (Pipeline.arrRef spec7 6)) ?_
  funext a; apply Fin.ext
  match a with
  | ⟨0, _⟩ => show win7_6.index t (0 : Fin 2) * 1 + 1 * (y 0).val = (y 0).val; omega
  | ⟨1, _⟩ => show win7_6.index t (1 : Fin 2) * 8 + 1 * (y 1).val = (y 1).val; omega

/-! ## A point's result block, entry by entry, from the arrays -/

/-- Entry `(p, q)` of the body's value from seven blocks whose row `p` (the two row operands) or whose whole (the five
    small operands) is read off arrays `a0 … a6` at row `r`. -/
theorem row7_of_blocks (x0 : Vec Ideal S8192x8 .bf16) (x1 : Vec Ideal S8192x1 .bf16) (x2 : Vec Ideal S8x32 .f32)
    (x3 x4 : Vec Ideal S1x32 .f32) (x5 : Vec Ideal S32x8 .f32) (x6 : Vec Ideal S1x8 .f32)
    (a0 : Vec Ideal S106496x8 .bf16) (a1 : Vec Ideal S106496x1 .bf16) (a2 : Vec Ideal S8x32 .f32)
    (a3 a4 : Vec Ideal S1x32 .f32) (a5 : Vec Ideal S32x8 .f32) (a6 : Vec Ideal S1x8 .f32)
    (p : Fin 8192) (q : Fin 8) (r : Fin 106496)
    (h0 : ∀ k, x0 (ix2 p k) = a0 (ix2 r k)) (h1 : ∀ k, x1 (ix2 p k) = a1 (ix2 r k))
    (h2 : x2 = a2) (h3 : x3 = a3) (h4 : x4 = a4) (h5 : x5 = a5) (h6 : x6 = a6) :
    k7_pay1 (F := Ideal) x0 x1 x2 x3 x4 x5 x6 (ix2 p q) =
      (∑ h : Fin 32, max (((∑ k : Fin 8, a0 (ix2 r k) * a2 (ix2 k h)) + (∑ k : Fin 1, a1 (ix2 r k) * a3 (ix2 k h))) +
          a4 (ix2 0 h)) 0 * a5 (ix2 h q)) + a6 (ix2 0 q) := by
  subst h2 h3 h4 h5 h6
  refine (PayVal.node_pay_apply x0 x1 x2 x3 x4 x5 x6 p q).trans ?_
  simp only [h0, h1]

/-- Entry `(r, q)` of what the result array ends holding. -/
def row7_val (c : Dev nD) (r : Fin 106496) (q : Fin 8) : EReal :=
  (∑ h : Fin 32, max (((∑ k : Fin 8, row7_arr0 V c (ix2 r k) * row7_arr2 V c (ix2 k h)) + (∑ k : Fin 1, row7_arr1 V c (ix2 r k) * row7_arr3 V c (ix2 k h))) +
          row7_arr4 V c (ix2 0 h)) 0 * row7_arr5 V c (ix2 h q)) + row7_arr6 V c (ix2 0 q)

/-- What the result array ends holding. -/
def row7_fn (c : Dev nD) : Vec Ideal S106496x8 .f32 := fun i => row7_val V c ⟨(i 0).val, idx2_lt0 i⟩ ⟨(i 1).val, idx2_lt1 i⟩

/-- What point `t` writes back is block `t` of `row7_fn`. -/
theorem row7_flushed (c : Dev nD) (t : Fin cfg7.N) :
    (dat7 V c).flushed 7 t = ((cfg7.win 7).blk t).view.read (Elt Ideal) (row7_fn V c) := by
  show (cfg7.win 7).cut (grid7.coords t) ((dat7 V c).after 7 t) = _
  rw [after7_7]
  unfold out7_7
  rw [View.canon_unit_zero row7_hz]
  simp only [View.ld_unit_zero (S := S8192x8) row7_hz, View.ld_unit_zero (S := S8192x1) row7_hz, View.ld_unit_zero (S := S8x32) row7_hz,
    View.ld_unit_zero (S := S1x32) row7_hz, View.ld_unit_zero (S := S32x8) row7_hz, View.ld_unit_zero (S := S1x8) row7_hz]
  funext y
  obtain ⟨p, q, rfl⟩ : ∃ (p : Fin 8192) (q : Fin 8), y = ix2 p q := ⟨y 0, y 1, eq_ix2 y⟩
  obtain ⟨-, -, -, -, -, -, -, -, -, -, -, -, -, -, e0, e1⟩ := row7_idx_facts t
  have hN : cfg7.N = 13 := N_7
  have ht : t.val < cfg7.N := t.isLt
  have hr : t.val * 8192 + p.val < 106496 := by omega
  have hemb : ((cfg7.win 7).blk t).view.emb (ix2 p q) = ix2 (⟨t.val * 8192 + p.val, hr⟩ : Fin 106496) q := by
    funext a; apply Fin.ext
    match a with
    | ⟨0, _⟩ => show win7_7.index t (0 : Fin 2) * 8192 + 1 * p.val = t.val * 8192 + p.val; omega
    | ⟨1, _⟩ => show win7_7.index t (1 : Fin 2) * 8 + 1 * q.val = q.val; omega
  show k7_pay1 (F := Ideal) (iblk7 V c 0 t) (iblk7 V c 1 t) (iblk7 V c 2 t) (iblk7 V c 3 t) (iblk7 V c 4 t) (iblk7 V c 5 t) (iblk7 V c 6 t) (ix2 p q)
    = row7_fn V c (((cfg7.win 7).blk t).view.emb (ix2 p q))
  rw [hemb]
  exact row7_of_blocks (iblk7 V c 0 t) (iblk7 V c 1 t) (iblk7 V c 2 t) (iblk7 V c 3 t) (iblk7 V c 4 t) (iblk7 V c 5 t) (iblk7 V c 6 t)
    (row7_arr0 V c) (row7_arr1 V c) (row7_arr2 V c) (row7_arr3 V c) (row7_arr4 V c) (row7_arr5 V c) (row7_arr6 V c)
    p q ⟨t.val * 8192 + p.val, hr⟩
    (fun k => row7_blk0_apply V c t p k _ rfl) (fun k => row7_blk1_apply V c t p k _ rfl)
    (row7_blk2_eq V c t) (row7_blk3_eq V c t) (row7_blk4_eq V c t) (row7_blk5_eq V c t) (row7_blk6_eq V c t)

/-! ## The blocks cover the array -/

/-- An index of the result array is in point `t`'s block iff each coordinate is in the block's range on its axis. -/
theorem row7_mem_blk (t : Fin cfg7.N) (i : S106496x8.Idx) :
    i ∈ ((cfg7.win 7).blk t).view.set ↔ ∀ a : Fin 2, win7_7.index t a * S8192x8.size a ≤ (i a).val ∧ (i a).val < win7_7.index t a * S8192x8.size a + S8192x8.size a := by
  show i ∈ ((View.whole (Pipeline.arrRef spec7 7)).slice (win7_7.rect t)).set ↔ _
  rw [View.set_slice_whole, Rect.mem_set_unit]
  exact Iff.rfl

/-- Row `r` is in the block of point `r / 8192`. -/
theorem row7_cover (i : S106496x8.Idx) : ∃ t : Fin cfg7.N, (cfg7.win 7).flush t = true ∧ i ∈ ((cfg7.win 7).blk t).view.set := by
  have hi0 : (i 0).val < 106496 := idx2_lt0 i
  have hi1 : (i 1).val < 8 := idx2_lt1 i
  have hN : cfg7.N = 13 := N_7
  have hlt : (i 0).val / 8192 < cfg7.N := by omega
  obtain ⟨-, -, -, -, -, -, -, -, -, -, -, -, -, -, e0, e1⟩ := row7_idx_facts ⟨(i 0).val / 8192, hlt⟩
  refine ⟨⟨(i 0).val / 8192, hlt⟩, flush7_7 _, ?_⟩
  rw [row7_mem_blk]
  intro a
  match a with
  | ⟨0, _⟩ => show win7_7.index ⟨(i 0).val / 8192, hlt⟩ (0 : Fin 2) * 8192 ≤ (i 0).val ∧ (i 0).val < win7_7.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win7_7.index ⟨(i 0).val / 8192, hlt⟩ (1 : Fin 2) * 8 ≤ (i 1).val ∧ (i 1).val < win7_7.index ⟨(i 0).val / 8192, hlt⟩ (1 : Fin 2) * 8 + 8; omega

/-! ## The result array after the pipeline -/

theorem row7_final (c : Dev nD) : (dat7 V c).arrAt 7 cfg7.N = row7_fn V c :=
  (dat7 V c).arrAt_eq_of_cover 7 (row7_fn V c) (fun t _ => row7_flushed V c t) row7_cover

/-- The result array after pipeline 7, at row `r`, column `q`: the node network of row `r` of the two row arrays. -/
theorem node_row7 (c : Dev nD) (r : Fin 106496) (q : Fin 8) :
    (dat7 V c).arrAt 7 cfg7.N (ix2 r q) =
      (∑ h : Fin 32, max (((∑ k : Fin 8, row7_arr0 V c (ix2 r k) * row7_arr2 V c (ix2 k h)) + (∑ k : Fin 1, row7_arr1 V c (ix2 r k) * row7_arr3 V c (ix2 k h))) +
          row7_arr4 V c (ix2 0 h)) 0 * row7_arr5 V c (ix2 h q)) + row7_arr6 V c (ix2 0 q) :=
  congrFun (row7_final V c) (ix2 r q)

end Cert.KernelIdeal.Gen

end
-- ==== Proof.Val.RegionFn7.lean ====
import proofs.«426760_j80470507258346_3_alg».proof.Proof.Val.RegionRow7
import proofs.«426760_j80470507258346_3_alg».proof.Proof.Val.DagK

/-! Pipeline 7's result array as ONE function of the seven operand arrays: the node pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 7 is the node function of the seven operand arrays as the pipeline finds them. -/
theorem node_arr7 (c : Dev nD) :
    (dat7 V c).arrAt 7 cfg7.N =
      Cert.Val.K.nodeFn (row7_arr0 V c) (row7_arr1 V c) (row7_arr2 V c) (row7_arr3 V c) (row7_arr4 V c) (row7_arr5 V c)
        (row7_arr6 V c) := by
  refine (row7_final V c).trans (funext fun i => ?_)
  obtain ⟨r, q, rfl⟩ : ∃ (r : Fin 106496) (q : Fin 8), i = ix2 r q := ⟨i 0, i 1, eq_ix2 i⟩
  exact (Cert.Val.K.nodeFn_apply (row7_arr0 V c) (row7_arr1 V c) (row7_arr2 V c) (row7_arr3 V c) (row7_arr4 V c) (row7_arr5 V c)
    (row7_arr6 V c) r q).symm

end Cert.KernelIdeal.Gen

end
-- ==== Proof.Val.RegionRow8.lean ====
import proofs.«426760_j80470507258346_3_alg».proof.Proof.KI.Reg8
import proofs.«426760_j80470507258346_3_alg».proof.Proof.Val.Payload
import Idealize.ShloMosaic.Lib.ValueIdx
import Idealize.ShloMosaic.Lib.Pipeline.Value

/-! Pipeline 8's result array, row by row, over the extended reals, at ANY contents `V` of the TensorCore's buffers when
    the pipeline is entered. Point `t` writes back rows `8192 t … 8192 t + 8191`; row `p` of its block is the edge
    body's value of row `p` of the three row operands' blocks (rows `8192 t + p` of their arrays) and of the six small
    operands' blocks (their arrays whole). The 135 blocks tile the 1105920 rows (row `r` lies in the block of point
    `r / 8192`), so after the pipeline row `r` of the result array is
    `∑ h, max (((A0 A3)[r, h] + (A1 A4)[r, h]) + (A2 A5)[r, h] + A6[0, h]) 0 * A7[h, 0] + A8[0, 0]`
    of the nine operand arrays `A0 … A8` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 8 works on, each at its literal type -/

abbrev row8_arr0 (c : Dev nD) : Vec Ideal S1105920x8 .bf16 := V c (Pipeline.arrRef spec8 0)
abbrev row8_arr1 (c : Dev nD) : Vec Ideal S1105920x8 .bf16 := V c (Pipeline.arrRef spec8 1)
abbrev row8_arr2 (c : Dev nD) : Vec Ideal S1105920x2 .bf16 := V c (Pipeline.arrRef spec8 2)
abbrev row8_arr3 (c : Dev nD) : Vec Ideal S8x32 .f32 := V c (Pipeline.arrRef spec8 3)
abbrev row8_arr4 (c : Dev nD) : Vec Ideal S8x32 .f32 := V c (Pipeline.arrRef spec8 4)
abbrev row8_arr5 (c : Dev nD) : Vec Ideal S2x32 .f32 := V c (Pipeline.arrRef spec8 5)
abbrev row8_arr6 (c : Dev nD) : Vec Ideal S1x32 .f32 := V c (Pipeline.arrRef spec8 6)
abbrev row8_arr7 (c : Dev nD) : Vec Ideal S32x1 .f32 := V c (Pipeline.arrRef spec8 7)
abbrev row8_arr8 (c : Dev nD) : Vec Ideal S1x1 .f32 := V c (Pipeline.arrRef spec8 8)

/-! ## Where each block sits in its array -/

theorem row8_hz : (![0, 0] : Fin 2 → Nat) = fun _ => 0 := funext fun a => by fin_cases a <;> rfl

/-- The index maps, decided over the grid: the three row operands' and the result's block index is the point's number on
    the row axis, and every other block index is `0`. -/
theorem row8_idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = t.val ∧ win8_9.index t (1 : Fin 2) = 0 :=
  (by decide +kernel : ∀ t : Fin grid8.N, _)

/-- Row `p` of row operand 0's block at point `t` is row `8192 t + p` of its array. -/
theorem row8_blk0_apply (c : Dev nD) (t : Fin cfg8.N) (p : Fin 8192) (k : Fin 8) (r : Fin 1105920)
    (hr : r.val = t.val * 8192 + p.val) :
    (iblk8 V c 0 t : Vec Ideal S8192x8 .bf16) (ix2 p k) = row8_arr0 V c (ix2 r k) := by
  obtain ⟨e0, e1, -⟩ := row8_idx_facts t
  unfold iblk8
  show V c (Pipeline.arrRef spec8 0) (((cfg8.win 0).blk t).view.emb (ix2 p k)) = V c (Pipeline.arrRef spec8 0) (ix2 r k)
  refine congrArg (V c (Pipeline.arrRef spec8 0)) ?_
  funext a; apply Fin.ext
  match a with
  | ⟨0, _⟩ => show win8_0.index t (0 : Fin 2) * 8192 + 1 * p.val = r.val; omega
  | ⟨1, _⟩ => show win8_0.index t (1 : Fin 2) * 8 + 1 * k.val = k.val; omega

/-- The same for row operand 1. -/
theorem row8_blk1_apply (c : Dev nD) (t : Fin cfg8.N) (p : Fin 8192) (k : Fin 8) (r : Fin 1105920)
    (hr : r.val = t.val * 8192 + p.val) :
    (iblk8 V c 1 t : Vec Ideal S8192x8 .bf16) (ix2 p k) = row8_arr1 V c (ix2 r k) := by
  obtain ⟨-, -, e0, e1, -⟩ := row8_idx_facts t
  unfold iblk8
  show V c (Pipeline.arrRef spec8 1) (((cfg8.win 1).blk t).view.emb (ix2 p k)) = V c (Pipeline.arrRef spec8 1) (ix2 r k)
  refine congrArg (V c (Pipeline.arrRef spec8 1)) ?_
  funext a; apply Fin.ext
  match a with
  | ⟨0, _⟩ => show win8_1.index t (0 : Fin 2) * 8192 + 1 * p.val = r.val; omega
  | ⟨1, _⟩ => show win8_1.index t (1 : Fin 2) * 8 + 1 * k.val = k.val; omega

/-- The same for row operand 2. -/
theorem row8_blk2_apply (c : Dev nD) (t : Fin cfg8.N) (p : Fin 8192) (k : Fin 2) (r : Fin 1105920)
    (hr : r.val = t.val * 8192 + p.val) :
    (iblk8 V c 2 t : Vec Ideal S8192x2 .bf16) (ix2 p k) = row8_arr2 V c (ix2 r k) := by
  obtain ⟨-, -, -, -, e0, e1, -⟩ := row8_idx_facts t
  unfold iblk8
  show V c (Pipeline.arrRef spec8 2) (((cfg8.win 2).blk t).view.emb (ix2 p k)) = V c (Pipeline.arrRef spec8 2) (ix2 r k)
  refine congrArg (V c (Pipeline.arrRef spec8 2)) ?_
  funext a; apply Fin.ext
  match a with
  | ⟨0, _⟩ => show win8_2.index t (0 : Fin 2) * 8192 + 1 * p.val = r.val; omega
  | ⟨1, _⟩ => show win8_2.index t (1 : Fin 2) * 2 + 1 * k.val = k.val; omega

/-- Operand 3's one block is its whole array. -/
theorem row8_blk3_eq (c : Dev nD) (t : Fin cfg8.N) : (iblk8 V c 3 t : Vec Ideal S8x32 .f32) = row8_arr3 V c := by
  obtain ⟨-, -, -, -, -, -, e0, e1, -⟩ := row8_idx_facts t
  funext y
  unfold iblk8
  show V c (Pipeline.arrRef spec8 3) (((cfg8.win 3).blk t).view.emb y) = V c (Pipeline.arrRef spec8 3) y
  refine congrArg (V c (Pipeline.arrRef spec8 3)) ?_
  funext a; apply Fin.ext
  match a with
  | ⟨0, _⟩ => show win8_3.index t (0 : Fin 2) * 8 + 1 * (y 0).val = (y 0).val; omega
  | ⟨1, _⟩ => show win8_3.index t (1 : Fin 2) * 32 + 1 * (y 1).val = (y 1).val; omega

/-- Operand 4's one block is its whole array. -/
theorem row8_blk4_eq (c : Dev nD) (t : Fin cfg8.N) : (iblk8 V c 4 t : Vec Ideal S8x32 .f32) = row8_arr4 V c := by
  obtain ⟨-, -, -, -, -, -, -, -, e0, e1, -⟩ := row8_idx_facts t
  funext y
  unfold iblk8
  show V c (Pipeline.arrRef spec8 4) (((cfg8.win 4).blk t).view.emb y) = V c (Pipeline.arrRef spec8 4) y
  refine congrArg (V c (Pipeline.arrRef spec8 4)) ?_
  funext a; apply Fin.ext
  match a with
  | ⟨0, _⟩ => show win8_4.index t (0 : Fin 2) * 8 + 1 * (y 0).val = (y 0).val; omega
  | ⟨1, _⟩ => show win8_4.index t (1 : Fin 2) * 32 + 1 * (y 1).val = (y 1).val; omega

/-- Operand 5's one block is its whole array. -/
theorem row8_blk5_eq (c : Dev nD) (t : Fin cfg8.N) : (iblk8 V c 5 t : Vec Ideal S2x32 .f32) = row8_arr5 V c := by
  obtain ⟨-, -, -, -, -, -, -, -, -, -, e0, e1, -⟩ := row8_idx_facts t
  funext y
  unfold iblk8
  show V c (Pipeline.arrRef spec8 5) (((cfg8.win 5).blk t).view.emb y) = V c (Pipeline.arrRef spec8 5) y
  refine congrArg (V c (Pipeline.arrRef spec8 5)) ?_
  funext a; apply Fin.ext
  match a with
  | ⟨0, _⟩ => show win8_5.index t (0 : Fin 2) * 2 + 1 * (y 0).val = (y 0).val; omega
  | ⟨1, _⟩ => show win8_5.index t (1 : Fin 2) * 32 + 1 * (y 1).val = (y 1).val; omega

/-- Operand 6's one block is its whole array. -/
theorem row8_blk6_eq (c : Dev nD) (t : Fin cfg8.N) : (iblk8 V c 6 t : Vec Ideal S1x32 .f32) = row8_arr6 V c := by
  obtain ⟨-, -, -, -, -, -, -, -, -, -, -, -, e0, e1, -⟩ := row8_idx_facts t
  funext y
  unfold iblk8
  show V c (Pipeline.arrRef spec8 6) (((cfg8.win 6).blk t).view.emb y) = V c (Pipeline.arrRef spec8 6) y
  refine congrArg (V c (Pipeline.arrRef spec8 6)) ?_
  funext a; apply Fin.ext
  match a with
  | ⟨0, _⟩ => show win8_6.index t (0 : Fin 2) * 1 + 1 * (y 0).val = (y 0).val; omega
  | ⟨1, _⟩ => show win8_6.index t (1 : Fin 2) * 32 + 1 * (y 1).val = (y 1).val; omega

/-- Operand 7's one block is its whole array. -/
theorem row8_blk7_eq (c : Dev nD) (t : Fin cfg8.N) : (iblk8 V c 7 t : Vec Ideal S32x1 .f32) = row8_arr7 V c := by
  obtain ⟨-, -, -, -, -, -, -, -, -, -, -, -, -, -, e0, e1, -⟩ := row8_idx_facts t
  funext y
  unfold iblk8
  show V c (Pipeline.arrRef spec8 7) (((cfg8.win 7).blk t).view.emb y) = V c (Pipeline.arrRef spec8 7) y
  refine congrArg (V c (Pipeline.arrRef spec8 7)) ?_
  funext a; apply Fin.ext
  match a with
  | ⟨0, _⟩ => show win8_7.index t (0 : Fin 2) * 32 + 1 * (y 0).val = (y 0).val; omega
  | ⟨1, _⟩ => show win8_7.index t (1 : Fin 2) * 1 + 1 * (y 1).val = (y 1).val; omega

/-- Operand 8's one block is its whole array. -/
theorem row8_blk8_eq (c : Dev nD) (t : Fin cfg8.N) : (iblk8 V c 8 t : Vec Ideal S1x1 .f32) = row8_arr8 V c := by
  obtain ⟨-, -, -, -, -, -, -, -, -, -, -, -, -, -, -, -, e0, e1, -⟩ := row8_idx_facts t
  funext y
  unfold iblk8
  show V c (Pipeline.arrRef spec8 8) (((cfg8.win 8).blk t).view.emb y) = V c (Pipeline.arrRef spec8 8) y
  refine congrArg (V c (Pipeline.arrRef spec8 8)) ?_
  funext a; apply Fin.ext
  match a with
  | ⟨0, _⟩ => show win8_8.index t (0 : Fin 2) * 1 + 1 * (y 0).val = (y 0).val; omega
  | ⟨1, _⟩ => show win8_8.index t (1 : Fin 2) * 1 + 1 * (y 1).val = (y 1).val; omega

/-! ## A point's result block, row by row, from the arrays -/

/-- Row `p` of the body's value from nine blocks whose row `p` (the three row operands) or whose whole (the six small
    operands) is read off arrays `a0 … a8` at row `r`. -/
theorem row8_of_blocks (x0 x1 : Vec Ideal S8192x8 .bf16) (x2 : Vec Ideal S8192x2 .bf16) (x3 x4 : Vec Ideal S8x32 .f32)
    (x5 : Vec Ideal S2x32 .f32) (x6 : Vec Ideal S1x32 .f32) (x7 : Vec Ideal S32x1 .f32) (x8 : Vec Ideal S1x1 .f32)
    (a0 a1 : Vec Ideal S1105920x8 .bf16) (a2 : Vec Ideal S1105920x2 .bf16) (a3 a4 : Vec Ideal S8x32 .f32)
    (a5 : Vec Ideal S2x32 .f32) (a6 : Vec Ideal S1x32 .f32) (a7 : Vec Ideal S32x1 .f32) (a8 : Vec Ideal S1x1 .f32)
    (p : Fin 8192) (r : Fin 1105920)
    (h0 : ∀ k, x0 (ix2 p k) = a0 (ix2 r k)) (h1 : ∀ k, x1 (ix2 p k) = a1 (ix2 r k)) (h2 : ∀ k, x2 (ix2 p k) = a2 (ix2 r k))
    (h3 : x3 = a3) (h4 : x4 = a4) (h5 : x5 = a5) (h6 : x6 = a6) (h7 : x7 = a7) (h8 : x8 = a8) :
    k8_pay1 (F := Ideal) x0 x1 x2 x3 x4 x5 x6 x7 x8 (ix2 p 0) =
      (∑ h : Fin 32, max ((((∑ k : Fin 8, a0 (ix2 r k) * a3 (ix2 k h)) + (∑ k : Fin 8, a1 (ix2 r k) * a4 (ix2 k h))) +
          (∑ k : Fin 2, a2 (ix2 r k) * a5 (ix2 k h))) + a6 (ix2 0 h)) 0 * a7 (ix2 h 0)) + a8 (ix2 0 0) := by
  subst h3 h4 h5 h6 h7 h8
  refine (PayVal.edge_pay_apply x0 x1 x2 x3 x4 x5 x6 x7 x8 p).trans ?_
  simp only [h0, h1, h2]

/-- Row `r` of what the result array ends holding. -/
def row8_val (c : Dev nD) (r : Fin 1105920) : EReal :=
  (∑ h : Fin 32, max ((((∑ k : Fin 8, row8_arr0 V c (ix2 r k) * row8_arr3 V c (ix2 k h)) + (∑ k : Fin 8, row8_arr1 V c (ix2 r k) * row8_arr4 V c (ix2 k h))) +
          (∑ k : Fin 2, row8_arr2 V c (ix2 r k) * row8_arr5 V c (ix2 k h))) + row8_arr6 V c (ix2 0 h)) 0 * row8_arr7 V c (ix2 h 0)) + row8_arr8 V c (ix2 0 0)

/-- What the result array ends holding. -/
def row8_fn (c : Dev nD) : Vec Ideal S1105920x1 .f32 := fun i => row8_val V c ⟨(i 0).val, idx2_lt0 i⟩

/-- What point `t` writes back is block `t` of `row8_fn`. -/
theorem row8_flushed (c : Dev nD) (t : Fin cfg8.N) :
    (dat8 V c).flushed 9 t = ((cfg8.win 9).blk t).view.read (Elt Ideal) (row8_fn V c) := by
  show (cfg8.win 9).cut (grid8.coords t) ((dat8 V c).after 9 t) = _
  rw [after8_9]
  unfold out8_9
  rw [View.canon_unit_zero row8_hz]
  simp only [View.ld_unit_zero (S := S8192x8) row8_hz, View.ld_unit_zero (S := S8192x2) row8_hz, View.ld_unit_zero (S := S8x32) row8_hz,
    View.ld_unit_zero (S := S2x32) row8_hz, View.ld_unit_zero (S := S1x32) row8_hz, View.ld_unit_zero (S := S32x1) row8_hz,
    View.ld_unit_zero (S := S1x1) row8_hz]
  funext y
  obtain ⟨p, q, rfl⟩ : ∃ (p : Fin 8192) (q : Fin 1), y = ix2 p q := ⟨y 0, y 1, eq_ix2 y⟩
  obtain rfl : q = 0 := Subsingleton.elim _ _
  obtain ⟨-, -, -, -, -, -, -, -, -, -, -, -, -, -, -, -, -, -, e0, e1⟩ := row8_idx_facts t
  have hN : cfg8.N = 135 := N_8
  have ht : t.val < cfg8.N := t.isLt
  have hr : t.val * 8192 + p.val < 1105920 := by omega
  have hemb : ((cfg8.win 9).blk t).view.emb (ix2 p (0 : Fin 1)) = ix2 (⟨t.val * 8192 + p.val, hr⟩ : Fin 1105920) (0 : Fin 1) := by
    funext a; apply Fin.ext
    match a with
    | ⟨0, _⟩ => show win8_9.index t (0 : Fin 2) * 8192 + 1 * p.val = t.val * 8192 + p.val; omega
    | ⟨1, _⟩ => show win8_9.index t (1 : Fin 2) * 1 + 1 * 0 = 0; omega
  show k8_pay1 (F := Ideal) (iblk8 V c 0 t) (iblk8 V c 1 t) (iblk8 V c 2 t) (iblk8 V c 3 t) (iblk8 V c 4 t) (iblk8 V c 5 t) (iblk8 V c 6 t) (iblk8 V c 7 t) (iblk8 V c 8 t) (ix2 p (0 : Fin 1))
    = row8_fn V c (((cfg8.win 9).blk t).view.emb (ix2 p (0 : Fin 1)))
  rw [hemb]
  exact row8_of_blocks (iblk8 V c 0 t) (iblk8 V c 1 t) (iblk8 V c 2 t) (iblk8 V c 3 t) (iblk8 V c 4 t) (iblk8 V c 5 t) (iblk8 V c 6 t) (iblk8 V c 7 t) (iblk8 V c 8 t)
    (row8_arr0 V c) (row8_arr1 V c) (row8_arr2 V c) (row8_arr3 V c) (row8_arr4 V c) (row8_arr5 V c) (row8_arr6 V c) (row8_arr7 V c) (row8_arr8 V c)
    p ⟨t.val * 8192 + p.val, hr⟩
    (fun k => row8_blk0_apply V c t p k _ rfl) (fun k => row8_blk1_apply V c t p k _ rfl) (fun k => row8_blk2_apply V c t p k _ rfl)
    (row8_blk3_eq V c t) (row8_blk4_eq V c t) (row8_blk5_eq V c t) (row8_blk6_eq V c t) (row8_blk7_eq V c t) (row8_blk8_eq V c t)

/-! ## The blocks cover the array -/

/-- An index of the result array is in point `t`'s block iff each coordinate is in the block's range on its axis. -/
theorem row8_mem_blk (t : Fin cfg8.N) (i : S1105920x1.Idx) :
    i ∈ ((cfg8.win 9).blk t).view.set ↔ ∀ a : Fin 2, win8_9.index t a * S8192x1.size a ≤ (i a).val ∧ (i a).val < win8_9.index t a * S8192x1.size a + S8192x1.size a := by
  show i ∈ ((View.whole (Pipeline.arrRef spec8 9)).slice (win8_9.rect t)).set ↔ _
  rw [View.set_slice_whole, Rect.mem_set_unit]
  exact Iff.rfl

/-- Row `r` is in the block of point `r / 8192`. -/
theorem row8_cover (i : S1105920x1.Idx) : ∃ t : Fin cfg8.N, (cfg8.win 9).flush t = true ∧ i ∈ ((cfg8.win 9).blk t).view.set := by
  have hi0 : (i 0).val < 1105920 := idx2_lt0 i
  have hi1 : (i 1).val < 1 := idx2_lt1 i
  have hN : cfg8.N = 135 := N_8
  have hlt : (i 0).val / 8192 < cfg8.N := by omega
  obtain ⟨-, -, -, -, -, -, -, -, -, -, -, -, -, -, -, -, -, -, e0, e1⟩ := row8_idx_facts ⟨(i 0).val / 8192, hlt⟩
  refine ⟨⟨(i 0).val / 8192, hlt⟩, flush8_9 _, ?_⟩
  rw [row8_mem_blk]
  intro a
  match a with
  | ⟨0, _⟩ => show win8_9.index ⟨(i 0).val / 8192, hlt⟩ (0 : Fin 2) * 8192 ≤ (i 0).val ∧ (i 0).val < win8_9.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win8_9.index ⟨(i 0).val / 8192, hlt⟩ (1 : Fin 2) * 1 ≤ (i 1).val ∧ (i 1).val < win8_9.index ⟨(i 0).val / 8192, hlt⟩ (1 : Fin 2) * 1 + 1; omega

/-! ## The result array after the pipeline -/

theorem row8_final (c : Dev nD) : (dat8 V c).arrAt 9 cfg8.N = row8_fn V c :=
  (dat8 V c).arrAt_eq_of_cover 9 (row8_fn V c) (fun t _ => row8_flushed V c t) row8_cover

/-- The result array after pipeline 8, at row `r`: the edge network of row `r` of the three row arrays. -/
theorem edge_row8 (c : Dev nD) (r : Fin 1105920) :
    (dat8 V c).arrAt 9 cfg8.N (ix2 r 0) =
      (∑ h : Fin 32, max ((((∑ k : Fin 8, row8_arr0 V c (ix2 r k) * row8_arr3 V c (ix2 k h)) + (∑ k : Fin 8, row8_arr1 V c (ix2 r k) * row8_arr4 V c (ix2 k h))) +
          (∑ k : Fin 2, row8_arr2 V c (ix2 r k) * row8_arr5 V c (ix2 k h))) + row8_arr6 V c (ix2 0 h)) 0 * row8_arr7 V c (ix2 h 0)) + row8_arr8 V c (ix2 0 0) :=
  congrFun (row8_final V c) (ix2 r 0)

end Cert.KernelIdeal.Gen

end
-- ==== Proof.Val.RegionFn8.lean ====
import proofs.«426760_j80470507258346_3_alg».proof.Proof.Val.RegionRow8
import proofs.«426760_j80470507258346_3_alg».proof.Proof.Val.DagK

/-! Pipeline 8's result array as ONE function of the nine operand arrays: the edge pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 8 is the edge function of the nine operand arrays as the pipeline finds them. -/
theorem edge_arr8 (c : Dev nD) :
    (dat8 V c).arrAt 9 cfg8.N =
      Cert.Val.K.edgeFn (row8_arr0 V c) (row8_arr1 V c) (row8_arr2 V c) (row8_arr3 V c) (row8_arr4 V c) (row8_arr5 V c)
        (row8_arr6 V c) (row8_arr7 V c) (row8_arr8 V c) := by
  refine (row8_final V c).trans (funext fun i => ?_)
  obtain ⟨r, q, rfl⟩ : ∃ (r : Fin 1105920) (q : Fin 1), i = ix2 r q := ⟨i 0, i 1, eq_ix2 i⟩
  obtain rfl : q = 0 := Subsingleton.elim _ _
  exact (Cert.Val.K.edgeFn_apply (row8_arr0 V c) (row8_arr1 V c) (row8_arr2 V c) (row8_arr3 V c) (row8_arr4 V c) (row8_arr5 V c)
    (row8_arr6 V c) (row8_arr7 V c) (row8_arr8 V c) r).symm

end Cert.KernelIdeal.Gen

end
-- ==== Proof.Val.RegionRow9.lean ====
import proofs.«426760_j80470507258346_3_alg».proof.Proof.KI.Reg9
import proofs.«426760_j80470507258346_3_alg».proof.Proof.Val.Payload
import Idealize.ShloMosaic.Lib.ValueIdx
import Idealize.ShloMosaic.Lib.Pipeline.Value

/-! Pipeline 9's result array, entry by entry, over the extended reals, at ANY contents `V` of the TensorCore's buffers
    when the pipeline is entered. Point `t` writes back rows `8192 t … 8192 t + 8191`; entry `(p, q)` of its block is the
    node body's value of row `p` of the two row operands' blocks (rows `8192 t + p` of their arrays) and of the five small
    operands' blocks (their arrays whole). The 13 blocks tile the 106496 rows (row `r` lies in the block of point
    `r / 8192`), so after the pipeline entry `(r, q)` of the result array is
    `∑ h, max ((A0 A2)[r, h] + (A1 A3)[r, h] + A4[0, h]) 0 * A5[h, q] + A6[0, q]`
    of the seven operand arrays `A0 … A6` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 9 works on, each at its literal type -/

abbrev row9_arr0 (c : Dev nD) : Vec Ideal S106496x8 .bf16 := V c (Pipeline.arrRef spec9 0)
abbrev row9_arr1 (c : Dev nD) : Vec Ideal S106496x1 .bf16 := V c (Pipeline.arrRef spec9 1)
abbrev row9_arr2 (c : Dev nD) : Vec Ideal S8x32 .f32 := V c (Pipeline.arrRef spec9 2)
abbrev row9_arr3 (c : Dev nD) : Vec Ideal S1x32 .f32 := V c (Pipeline.arrRef spec9 3)
abbrev row9_arr4 (c : Dev nD) : Vec Ideal S1x32 .f32 := V c (Pipeline.arrRef spec9 4)
abbrev row9_arr5 (c : Dev nD) : Vec Ideal S32x8 .f32 := V c (Pipeline.arrRef spec9 5)
abbrev row9_arr6 (c : Dev nD) : Vec Ideal S1x8 .f32 := V c (Pipeline.arrRef spec9 6)

/-! ## Where each block sits in its array -/

theorem row9_hz : (![0, 0] : Fin 2 → Nat) = fun _ => 0 := funext fun a => by fin_cases a <;> rfl

/-- The index maps, decided over the grid: the two row operands' and the result's block index is the point's number on
    the row axis, and every other block index is `0`. -/
theorem row9_idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0 :=
  (by decide +kernel : ∀ t : Fin grid9.N, _)

/-- Row `p` of row operand 0's block at point `t` is row `8192 t + p` of its array. -/
theorem row9_blk0_apply (c : Dev nD) (t : Fin cfg9.N) (p : Fin 8192) (k : Fin 8) (r : Fin 106496)
    (hr : r.val = t.val * 8192 + p.val) :
    (iblk9 V c 0 t : Vec Ideal S8192x8 .bf16) (ix2 p k) = row9_arr0 V c (ix2 r k) := by
  obtain ⟨e0, e1, -⟩ := row9_idx_facts t
  unfold iblk9
  show V c (Pipeline.arrRef spec9 0) (((cfg9.win 0).blk t).view.emb (ix2 p k)) = V c (Pipeline.arrRef spec9 0) (ix2 r k)
  refine congrArg (V c (Pipeline.arrRef spec9 0)) ?_
  funext a; apply Fin.ext
  match a with
  | ⟨0, _⟩ => show win9_0.index t (0 : Fin 2) * 8192 + 1 * p.val = r.val; omega
  | ⟨1, _⟩ => show win9_0.index t (1 : Fin 2) * 8 + 1 * k.val = k.val; omega

/-- The same for row operand 1. -/
theorem row9_blk1_apply (c : Dev nD) (t : Fin cfg9.N) (p : Fin 8192) (k : Fin 1) (r : Fin 106496)
    (hr : r.val = t.val * 8192 + p.val) :
    (iblk9 V c 1 t : Vec Ideal S8192x1 .bf16) (ix2 p k) = row9_arr1 V c (ix2 r k) := by
  obtain ⟨-, -, e0, e1, -⟩ := row9_idx_facts t
  unfold iblk9
  show V c (Pipeline.arrRef spec9 1) (((cfg9.win 1).blk t).view.emb (ix2 p k)) = V c (Pipeline.arrRef spec9 1) (ix2 r k)
  refine congrArg (V c (Pipeline.arrRef spec9 1)) ?_
  funext a; apply Fin.ext
  match a with
  | ⟨0, _⟩ => show win9_1.index t (0 : Fin 2) * 8192 + 1 * p.val = r.val; omega
  | ⟨1, _⟩ => show win9_1.index t (1 : Fin 2) * 1 + 1 * k.val = k.val; omega

/-- Operand 2's one block is its whole array. -/
theorem row9_blk2_eq (c : Dev nD) (t : Fin cfg9.N) : (iblk9 V c 2 t : Vec Ideal S8x32 .f32) = row9_arr2 V c := by
  obtain ⟨-, -, -, -, e0, e1, -⟩ := row9_idx_facts t
  funext y
  unfold iblk9
  show V c (Pipeline.arrRef spec9 2) (((cfg9.win 2).blk t).view.emb y) = V c (Pipeline.arrRef spec9 2) y
  refine congrArg (V c (Pipeline.arrRef spec9 2)) ?_
  funext a; apply Fin.ext
  match a with
  | ⟨0, _⟩ => show win9_2.index t (0 : Fin 2) * 8 + 1 * (y 0).val = (y 0).val; omega
  | ⟨1, _⟩ => show win9_2.index t (1 : Fin 2) * 32 + 1 * (y 1).val = (y 1).val; omega

/-- Operand 3's one block is its whole array. -/
theorem row9_blk3_eq (c : Dev nD) (t : Fin cfg9.N) : (iblk9 V c 3 t : Vec Ideal S1x32 .f32) = row9_arr3 V c := by
  obtain ⟨-, -, -, -, -, -, e0, e1, -⟩ := row9_idx_facts t
  funext y
  unfold iblk9
  show V c (Pipeline.arrRef spec9 3) (((cfg9.win 3).blk t).view.emb y) = V c (Pipeline.arrRef spec9 3) y
  refine congrArg (V c (Pipeline.arrRef spec9 3)) ?_
  funext a; apply Fin.ext
  match a with
  | ⟨0, _⟩ => show win9_3.index t (0 : Fin 2) * 1 + 1 * (y 0).val = (y 0).val; omega
  | ⟨1, _⟩ => show win9_3.index t (1 : Fin 2) * 32 + 1 * (y 1).val = (y 1).val; omega

/-- Operand 4's one block is its whole array. -/
theorem row9_blk4_eq (c : Dev nD) (t : Fin cfg9.N) : (iblk9 V c 4 t : Vec Ideal S1x32 .f32) = row9_arr4 V c := by
  obtain ⟨-, -, -, -, -, -, -, -, e0, e1, -⟩ := row9_idx_facts t
  funext y
  unfold iblk9
  show V c (Pipeline.arrRef spec9 4) (((cfg9.win 4).blk t).view.emb y) = V c (Pipeline.arrRef spec9 4) y
  refine congrArg (V c (Pipeline.arrRef spec9 4)) ?_
  funext a; apply Fin.ext
  match a with
  | ⟨0, _⟩ => show win9_4.index t (0 : Fin 2) * 1 + 1 * (y 0).val = (y 0).val; omega
  | ⟨1, _⟩ => show win9_4.index t (1 : Fin 2) * 32 + 1 * (y 1).val = (y 1).val; omega

/-- Operand 5's one block is its whole array. -/
theorem row9_blk5_eq (c : Dev nD) (t : Fin cfg9.N) : (iblk9 V c 5 t : Vec Ideal S32x8 .f32) = row9_arr5 V c := by
  obtain ⟨-, -, -, -, -, -, -, -, -, -, e0, e1, -⟩ := row9_idx_facts t
  funext y
  unfold iblk9
  show V c (Pipeline.arrRef spec9 5) (((cfg9.win 5).blk t).view.emb y) = V c (Pipeline.arrRef spec9 5) y
  refine congrArg (V c (Pipeline.arrRef spec9 5)) ?_
  funext a; apply Fin.ext
  match a with
  | ⟨0, _⟩ => show win9_5.index t (0 : Fin 2) * 32 + 1 * (y 0).val = (y 0).val; omega
  | ⟨1, _⟩ => show win9_5.index t (1 : Fin 2) * 8 + 1 * (y 1).val = (y 1).val; omega

/-- Operand 6's one block is its whole array. -/
theorem row9_blk6_eq (c : Dev nD) (t : Fin cfg9.N) : (iblk9 V c 6 t : Vec Ideal S1x8 .f32) = row9_arr6 V c := by
  obtain ⟨-, -, -, -, -, -, -, -, -, -, -, -, e0, e1, -⟩ := row9_idx_facts t
  funext y
  unfold iblk9
  show V c (Pipeline.arrRef spec9 6) (((cfg9.win 6).blk t).view.emb y) = V c (Pipeline.arrRef spec9 6) y
  refine congrArg (V c (Pipeline.arrRef spec9 6)) ?_
  funext a; apply Fin.ext
  match a with
  | ⟨0, _⟩ => show win9_6.index t (0 : Fin 2) * 1 + 1 * (y 0).val = (y 0).val; omega
  | ⟨1, _⟩ => show win9_6.index t (1 : Fin 2) * 8 + 1 * (y 1).val = (y 1).val; omega

/-! ## A point's result block, entry by entry, from the arrays -/

/-- Entry `(p, q)` of the body's value from seven blocks whose row `p` (the two row operands) or whose whole (the five
    small operands) is read off arrays `a0 … a6` at row `r`. -/
theorem row9_of_blocks (x0 : Vec Ideal S8192x8 .bf16) (x1 : Vec Ideal S8192x1 .bf16) (x2 : Vec Ideal S8x32 .f32)
    (x3 x4 : Vec Ideal S1x32 .f32) (x5 : Vec Ideal S32x8 .f32) (x6 : Vec Ideal S1x8 .f32)
    (a0 : Vec Ideal S106496x8 .bf16) (a1 : Vec Ideal S106496x1 .bf16) (a2 : Vec Ideal S8x32 .f32)
    (a3 a4 : Vec Ideal S1x32 .f32) (a5 : Vec Ideal S32x8 .f32) (a6 : Vec Ideal S1x8 .f32)
    (p : Fin 8192) (q : Fin 8) (r : Fin 106496)
    (h0 : ∀ k, x0 (ix2 p k) = a0 (ix2 r k)) (h1 : ∀ k, x1 (ix2 p k) = a1 (ix2 r k))
    (h2 : x2 = a2) (h3 : x3 = a3) (h4 : x4 = a4) (h5 : x5 = a5) (h6 : x6 = a6) :
    k9_pay1 (F := Ideal) x0 x1 x2 x3 x4 x5 x6 (ix2 p q) =
      (∑ h : Fin 32, max (((∑ k : Fin 8, a0 (ix2 r k) * a2 (ix2 k h)) + (∑ k : Fin 1, a1 (ix2 r k) * a3 (ix2 k h))) +
          a4 (ix2 0 h)) 0 * a5 (ix2 h q)) + a6 (ix2 0 q) := by
  subst h2 h3 h4 h5 h6
  refine (PayVal.node_pay_apply x0 x1 x2 x3 x4 x5 x6 p q).trans ?_
  simp only [h0, h1]

/-- Entry `(r, q)` of what the result array ends holding. -/
def row9_val (c : Dev nD) (r : Fin 106496) (q : Fin 8) : EReal :=
  (∑ h : Fin 32, max (((∑ k : Fin 8, row9_arr0 V c (ix2 r k) * row9_arr2 V c (ix2 k h)) + (∑ k : Fin 1, row9_arr1 V c (ix2 r k) * row9_arr3 V c (ix2 k h))) +
          row9_arr4 V c (ix2 0 h)) 0 * row9_arr5 V c (ix2 h q)) + row9_arr6 V c (ix2 0 q)

/-- What the result array ends holding. -/
def row9_fn (c : Dev nD) : Vec Ideal S106496x8 .f32 := fun i => row9_val V c ⟨(i 0).val, idx2_lt0 i⟩ ⟨(i 1).val, idx2_lt1 i⟩

/-- What point `t` writes back is block `t` of `row9_fn`. -/
theorem row9_flushed (c : Dev nD) (t : Fin cfg9.N) :
    (dat9 V c).flushed 7 t = ((cfg9.win 7).blk t).view.read (Elt Ideal) (row9_fn V c) := by
  show (cfg9.win 7).cut (grid9.coords t) ((dat9 V c).after 7 t) = _
  rw [after9_7]
  unfold out9_7
  rw [View.canon_unit_zero row9_hz]
  simp only [View.ld_unit_zero (S := S8192x8) row9_hz, View.ld_unit_zero (S := S8192x1) row9_hz, View.ld_unit_zero (S := S8x32) row9_hz,
    View.ld_unit_zero (S := S1x32) row9_hz, View.ld_unit_zero (S := S32x8) row9_hz, View.ld_unit_zero (S := S1x8) row9_hz]
  funext y
  obtain ⟨p, q, rfl⟩ : ∃ (p : Fin 8192) (q : Fin 8), y = ix2 p q := ⟨y 0, y 1, eq_ix2 y⟩
  obtain ⟨-, -, -, -, -, -, -, -, -, -, -, -, -, -, e0, e1⟩ := row9_idx_facts t
  have hN : cfg9.N = 13 := N_9
  have ht : t.val < cfg9.N := t.isLt
  have hr : t.val * 8192 + p.val < 106496 := by omega
  have hemb : ((cfg9.win 7).blk t).view.emb (ix2 p q) = ix2 (⟨t.val * 8192 + p.val, hr⟩ : Fin 106496) q := by
    funext a; apply Fin.ext
    match a with
    | ⟨0, _⟩ => show win9_7.index t (0 : Fin 2) * 8192 + 1 * p.val = t.val * 8192 + p.val; omega
    | ⟨1, _⟩ => show win9_7.index t (1 : Fin 2) * 8 + 1 * q.val = q.val; omega
  show k9_pay1 (F := Ideal) (iblk9 V c 0 t) (iblk9 V c 1 t) (iblk9 V c 2 t) (iblk9 V c 3 t) (iblk9 V c 4 t) (iblk9 V c 5 t) (iblk9 V c 6 t) (ix2 p q)
    = row9_fn V c (((cfg9.win 7).blk t).view.emb (ix2 p q))
  rw [hemb]
  exact row9_of_blocks (iblk9 V c 0 t) (iblk9 V c 1 t) (iblk9 V c 2 t) (iblk9 V c 3 t) (iblk9 V c 4 t) (iblk9 V c 5 t) (iblk9 V c 6 t)
    (row9_arr0 V c) (row9_arr1 V c) (row9_arr2 V c) (row9_arr3 V c) (row9_arr4 V c) (row9_arr5 V c) (row9_arr6 V c)
    p q ⟨t.val * 8192 + p.val, hr⟩
    (fun k => row9_blk0_apply V c t p k _ rfl) (fun k => row9_blk1_apply V c t p k _ rfl)
    (row9_blk2_eq V c t) (row9_blk3_eq V c t) (row9_blk4_eq V c t) (row9_blk5_eq V c t) (row9_blk6_eq V c t)

/-! ## The blocks cover the array -/

/-- An index of the result array is in point `t`'s block iff each coordinate is in the block's range on its axis. -/
theorem row9_mem_blk (t : Fin cfg9.N) (i : S106496x8.Idx) :
    i ∈ ((cfg9.win 7).blk t).view.set ↔ ∀ a : Fin 2, win9_7.index t a * S8192x8.size a ≤ (i a).val ∧ (i a).val < win9_7.index t a * S8192x8.size a + S8192x8.size a := by
  show i ∈ ((View.whole (Pipeline.arrRef spec9 7)).slice (win9_7.rect t)).set ↔ _
  rw [View.set_slice_whole, Rect.mem_set_unit]
  exact Iff.rfl

/-- Row `r` is in the block of point `r / 8192`. -/
theorem row9_cover (i : S106496x8.Idx) : ∃ t : Fin cfg9.N, (cfg9.win 7).flush t = true ∧ i ∈ ((cfg9.win 7).blk t).view.set := by
  have hi0 : (i 0).val < 106496 := idx2_lt0 i
  have hi1 : (i 1).val < 8 := idx2_lt1 i
  have hN : cfg9.N = 13 := N_9
  have hlt : (i 0).val / 8192 < cfg9.N := by omega
  obtain ⟨-, -, -, -, -, -, -, -, -, -, -, -, -, -, e0, e1⟩ := row9_idx_facts ⟨(i 0).val / 8192, hlt⟩
  refine ⟨⟨(i 0).val / 8192, hlt⟩, flush9_7 _, ?_⟩
  rw [row9_mem_blk]
  intro a
  match a with
  | ⟨0, _⟩ => show win9_7.index ⟨(i 0).val / 8192, hlt⟩ (0 : Fin 2) * 8192 ≤ (i 0).val ∧ (i 0).val < win9_7.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win9_7.index ⟨(i 0).val / 8192, hlt⟩ (1 : Fin 2) * 8 ≤ (i 1).val ∧ (i 1).val < win9_7.index ⟨(i 0).val / 8192, hlt⟩ (1 : Fin 2) * 8 + 8; omega

/-! ## The result array after the pipeline -/

theorem row9_final (c : Dev nD) : (dat9 V c).arrAt 7 cfg9.N = row9_fn V c :=
  (dat9 V c).arrAt_eq_of_cover 7 (row9_fn V c) (fun t _ => row9_flushed V c t) row9_cover

/-- The result array after pipeline 9, at row `r`, column `q`: the node network of row `r` of the two row arrays. -/
theorem node_row9 (c : Dev nD) (r : Fin 106496) (q : Fin 8) :
    (dat9 V c).arrAt 7 cfg9.N (ix2 r q) =
      (∑ h : Fin 32, max (((∑ k : Fin 8, row9_arr0 V c (ix2 r k) * row9_arr2 V c (ix2 k h)) + (∑ k : Fin 1, row9_arr1 V c (ix2 r k) * row9_arr3 V c (ix2 k h))) +
          row9_arr4 V c (ix2 0 h)) 0 * row9_arr5 V c (ix2 h q)) + row9_arr6 V c (ix2 0 q) :=
  congrFun (row9_final V c) (ix2 r q)

end Cert.KernelIdeal.Gen

end
-- ==== Proof.Val.RegionFn9.lean ====
import proofs.«426760_j80470507258346_3_alg».proof.Proof.Val.RegionRow9
import proofs.«426760_j80470507258346_3_alg».proof.Proof.Val.DagK

/-! Pipeline 9's result array as ONE function of the seven operand arrays: the node pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 9 is the node function of the seven operand arrays as the pipeline finds them. -/
theorem node_arr9 (c : Dev nD) :
    (dat9 V c).arrAt 7 cfg9.N =
      Cert.Val.K.nodeFn (row9_arr0 V c) (row9_arr1 V c) (row9_arr2 V c) (row9_arr3 V c) (row9_arr4 V c) (row9_arr5 V c)
        (row9_arr6 V c) := by
  refine (row9_final V c).trans (funext fun i => ?_)
  obtain ⟨r, q, rfl⟩ : ∃ (r : Fin 106496) (q : Fin 8), i = ix2 r q := ⟨i 0, i 1, eq_ix2 i⟩
  exact (Cert.Val.K.nodeFn_apply (row9_arr0 V c) (row9_arr1 V c) (row9_arr2 V c) (row9_arr3 V c) (row9_arr4 V c) (row9_arr5 V c)
    (row9_arr6 V c) r q).symm

end Cert.KernelIdeal.Gen

end
-- ==== Proof.Val.RegionRow10.lean ====
import proofs.«426760_j80470507258346_3_alg».proof.Proof.KI.Reg10
import proofs.«426760_j80470507258346_3_alg».proof.Proof.Val.Payload
import Idealize.ShloMosaic.Lib.ValueIdx
import Idealize.ShloMosaic.Lib.Pipeline.Value

/-! Pipeline 10's result array, row by row, over the extended reals, at ANY contents `V` of the TensorCore's buffers when
    the pipeline is entered. Point `t` writes back rows `8192 t … 8192 t + 8191`; row `p` of its block is the edge
    body's value of row `p` of the three row operands' blocks (rows `8192 t + p` of their arrays) and of the six small
    operands' blocks (their arrays whole). The 135 blocks tile the 1105920 rows (row `r` lies in the block of point
    `r / 8192`), so after the pipeline row `r` of the result array is
    `∑ h, max (((A0 A3)[r, h] + (A1 A4)[r, h]) + (A2 A5)[r, h] + A6[0, h]) 0 * A7[h, 0] + A8[0, 0]`
    of the nine operand arrays `A0 … A8` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 10 works on, each at its literal type -/

abbrev row10_arr0 (c : Dev nD) : Vec Ideal S1105920x8 .bf16 := V c (Pipeline.arrRef spec10 0)
abbrev row10_arr1 (c : Dev nD) : Vec Ideal S1105920x8 .bf16 := V c (Pipeline.arrRef spec10 1)
abbrev row10_arr2 (c : Dev nD) : Vec Ideal S1105920x2 .bf16 := V c (Pipeline.arrRef spec10 2)
abbrev row10_arr3 (c : Dev nD) : Vec Ideal S8x32 .f32 := V c (Pipeline.arrRef spec10 3)
abbrev row10_arr4 (c : Dev nD) : Vec Ideal S8x32 .f32 := V c (Pipeline.arrRef spec10 4)
abbrev row10_arr5 (c : Dev nD) : Vec Ideal S2x32 .f32 := V c (Pipeline.arrRef spec10 5)
abbrev row10_arr6 (c : Dev nD) : Vec Ideal S1x32 .f32 := V c (Pipeline.arrRef spec10 6)
abbrev row10_arr7 (c : Dev nD) : Vec Ideal S32x1 .f32 := V c (Pipeline.arrRef spec10 7)
abbrev row10_arr8 (c : Dev nD) : Vec Ideal S1x1 .f32 := V c (Pipeline.arrRef spec10 8)

/-! ## Where each block sits in its array -/

theorem row10_hz : (![0, 0] : Fin 2 → Nat) = fun _ => 0 := funext fun a => by fin_cases a <;> rfl

/-- The index maps, decided over the grid: the three row operands' and the result's block index is the point's number on
    the row axis, and every other block index is `0`. -/
theorem row10_idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = 0 ∧ win10_7.index t (1 : Fin 2) = 0
    ∧ win10_8.index t (0 : Fin 2) = 0 ∧ win10_8.index t (1 : Fin 2) = 0
    ∧ win10_9.index t (0 : Fin 2) = t.val ∧ win10_9.index t (1 : Fin 2) = 0 :=
  (by decide +kernel : ∀ t : Fin grid10.N, _)

/-- Row `p` of row operand 0's block at point `t` is row `8192 t + p` of its array. -/
theorem row10_blk0_apply (c : Dev nD) (t : Fin cfg10.N) (p : Fin 8192) (k : Fin 8) (r : Fin 1105920)
    (hr : r.val = t.val * 8192 + p.val) :
    (iblk10 V c 0 t : Vec Ideal S8192x8 .bf16) (ix2 p k) = row10_arr0 V c (ix2 r k) := by
  obtain ⟨e0, e1, -⟩ := row10_idx_facts t
  unfold iblk10
  show V c (Pipeline.arrRef spec10 0) (((cfg10.win 0).blk t).view.emb (ix2 p k)) = V c (Pipeline.arrRef spec10 0) (ix2 r k)
  refine congrArg (V c (Pipeline.arrRef spec10 0)) ?_
  funext a; apply Fin.ext
  match a with
  | ⟨0, _⟩ => show win10_0.index t (0 : Fin 2) * 8192 + 1 * p.val = r.val; omega
  | ⟨1, _⟩ => show win10_0.index t (1 : Fin 2) * 8 + 1 * k.val = k.val; omega

/-- The same for row operand 1. -/
theorem row10_blk1_apply (c : Dev nD) (t : Fin cfg10.N) (p : Fin 8192) (k : Fin 8) (r : Fin 1105920)
    (hr : r.val = t.val * 8192 + p.val) :
    (iblk10 V c 1 t : Vec Ideal S8192x8 .bf16) (ix2 p k) = row10_arr1 V c (ix2 r k) := by
  obtain ⟨-, -, e0, e1, -⟩ := row10_idx_facts t
  unfold iblk10
  show V c (Pipeline.arrRef spec10 1) (((cfg10.win 1).blk t).view.emb (ix2 p k)) = V c (Pipeline.arrRef spec10 1) (ix2 r k)
  refine congrArg (V c (Pipeline.arrRef spec10 1)) ?_
  funext a; apply Fin.ext
  match a with
  | ⟨0, _⟩ => show win10_1.index t (0 : Fin 2) * 8192 + 1 * p.val = r.val; omega
  | ⟨1, _⟩ => show win10_1.index t (1 : Fin 2) * 8 + 1 * k.val = k.val; omega

/-- The same for row operand 2. -/
theorem row10_blk2_apply (c : Dev nD) (t : Fin cfg10.N) (p : Fin 8192) (k : Fin 2) (r : Fin 1105920)
    (hr : r.val = t.val * 8192 + p.val) :
    (iblk10 V c 2 t : Vec Ideal S8192x2 .bf16) (ix2 p k) = row10_arr2 V c (ix2 r k) := by
  obtain ⟨-, -, -, -, e0, e1, -⟩ := row10_idx_facts t
  unfold iblk10
  show V c (Pipeline.arrRef spec10 2) (((cfg10.win 2).blk t).view.emb (ix2 p k)) = V c (Pipeline.arrRef spec10 2) (ix2 r k)
  refine congrArg (V c (Pipeline.arrRef spec10 2)) ?_
  funext a; apply Fin.ext
  match a with
  | ⟨0, _⟩ => show win10_2.index t (0 : Fin 2) * 8192 + 1 * p.val = r.val; omega
  | ⟨1, _⟩ => show win10_2.index t (1 : Fin 2) * 2 + 1 * k.val = k.val; omega

/-- Operand 3's one block is its whole array. -/
theorem row10_blk3_eq (c : Dev nD) (t : Fin cfg10.N) : (iblk10 V c 3 t : Vec Ideal S8x32 .f32) = row10_arr3 V c := by
  obtain ⟨-, -, -, -, -, -, e0, e1, -⟩ := row10_idx_facts t
  funext y
  unfold iblk10
  show V c (Pipeline.arrRef spec10 3) (((cfg10.win 3).blk t).view.emb y) = V c (Pipeline.arrRef spec10 3) y
  refine congrArg (V c (Pipeline.arrRef spec10 3)) ?_
  funext a; apply Fin.ext
  match a with
  | ⟨0, _⟩ => show win10_3.index t (0 : Fin 2) * 8 + 1 * (y 0).val = (y 0).val; omega
  | ⟨1, _⟩ => show win10_3.index t (1 : Fin 2) * 32 + 1 * (y 1).val = (y 1).val; omega

/-- Operand 4's one block is its whole array. -/
theorem row10_blk4_eq (c : Dev nD) (t : Fin cfg10.N) : (iblk10 V c 4 t : Vec Ideal S8x32 .f32) = row10_arr4 V c := by
  obtain ⟨-, -, -, -, -, -, -, -, e0, e1, -⟩ := row10_idx_facts t
  funext y
  unfold iblk10
  show V c (Pipeline.arrRef spec10 4) (((cfg10.win 4).blk t).view.emb y) = V c (Pipeline.arrRef spec10 4) y
  refine congrArg (V c (Pipeline.arrRef spec10 4)) ?_
  funext a; apply Fin.ext
  match a with
  | ⟨0, _⟩ => show win10_4.index t (0 : Fin 2) * 8 + 1 * (y 0).val = (y 0).val; omega
  | ⟨1, _⟩ => show win10_4.index t (1 : Fin 2) * 32 + 1 * (y 1).val = (y 1).val; omega

/-- Operand 5's one block is its whole array. -/
theorem row10_blk5_eq (c : Dev nD) (t : Fin cfg10.N) : (iblk10 V c 5 t : Vec Ideal S2x32 .f32) = row10_arr5 V c := by
  obtain ⟨-, -, -, -, -, -, -, -, -, -, e0, e1, -⟩ := row10_idx_facts t
  funext y
  unfold iblk10
  show V c (Pipeline.arrRef spec10 5) (((cfg10.win 5).blk t).view.emb y) = V c (Pipeline.arrRef spec10 5) y
  refine congrArg (V c (Pipeline.arrRef spec10 5)) ?_
  funext a; apply Fin.ext
  match a with
  | ⟨0, _⟩ => show win10_5.index t (0 : Fin 2) * 2 + 1 * (y 0).val = (y 0).val; omega
  | ⟨1, _⟩ => show win10_5.index t (1 : Fin 2) * 32 + 1 * (y 1).val = (y 1).val; omega

/-- Operand 6's one block is its whole array. -/
theorem row10_blk6_eq (c : Dev nD) (t : Fin cfg10.N) : (iblk10 V c 6 t : Vec Ideal S1x32 .f32) = row10_arr6 V c := by
  obtain ⟨-, -, -, -, -, -, -, -, -, -, -, -, e0, e1, -⟩ := row10_idx_facts t
  funext y
  unfold iblk10
  show V c (Pipeline.arrRef spec10 6) (((cfg10.win 6).blk t).view.emb y) = V c (Pipeline.arrRef spec10 6) y
  refine congrArg (V c (Pipeline.arrRef spec10 6)) ?_
  funext a; apply Fin.ext
  match a with
  | ⟨0, _⟩ => show win10_6.index t (0 : Fin 2) * 1 + 1 * (y 0).val = (y 0).val; omega
  | ⟨1, _⟩ => show win10_6.index t (1 : Fin 2) * 32 + 1 * (y 1).val = (y 1).val; omega

/-- Operand 7's one block is its whole array. -/
theorem row10_blk7_eq (c : Dev nD) (t : Fin cfg10.N) : (iblk10 V c 7 t : Vec Ideal S32x1 .f32) = row10_arr7 V c := by
  obtain ⟨-, -, -, -, -, -, -, -, -, -, -, -, -, -, e0, e1, -⟩ := row10_idx_facts t
  funext y
  unfold iblk10
  show V c (Pipeline.arrRef spec10 7) (((cfg10.win 7).blk t).view.emb y) = V c (Pipeline.arrRef spec10 7) y
  refine congrArg (V c (Pipeline.arrRef spec10 7)) ?_
  funext a; apply Fin.ext
  match a with
  | ⟨0, _⟩ => show win10_7.index t (0 : Fin 2) * 32 + 1 * (y 0).val = (y 0).val; omega
  | ⟨1, _⟩ => show win10_7.index t (1 : Fin 2) * 1 + 1 * (y 1).val = (y 1).val; omega

/-- Operand 8's one block is its whole array. -/
theorem row10_blk8_eq (c : Dev nD) (t : Fin cfg10.N) : (iblk10 V c 8 t : Vec Ideal S1x1 .f32) = row10_arr8 V c := by
  obtain ⟨-, -, -, -, -, -, -, -, -, -, -, -, -, -, -, -, e0, e1, -⟩ := row10_idx_facts t
  funext y
  unfold iblk10
  show V c (Pipeline.arrRef spec10 8) (((cfg10.win 8).blk t).view.emb y) = V c (Pipeline.arrRef spec10 8) y
  refine congrArg (V c (Pipeline.arrRef spec10 8)) ?_
  funext a; apply Fin.ext
  match a with
  | ⟨0, _⟩ => show win10_8.index t (0 : Fin 2) * 1 + 1 * (y 0).val = (y 0).val; omega
  | ⟨1, _⟩ => show win10_8.index t (1 : Fin 2) * 1 + 1 * (y 1).val = (y 1).val; omega

/-! ## A point's result block, row by row, from the arrays -/

/-- Row `p` of the body's value from nine blocks whose row `p` (the three row operands) or whose whole (the six small
    operands) is read off arrays `a0 … a8` at row `r`. -/
theorem row10_of_blocks (x0 x1 : Vec Ideal S8192x8 .bf16) (x2 : Vec Ideal S8192x2 .bf16) (x3 x4 : Vec Ideal S8x32 .f32)
    (x5 : Vec Ideal S2x32 .f32) (x6 : Vec Ideal S1x32 .f32) (x7 : Vec Ideal S32x1 .f32) (x8 : Vec Ideal S1x1 .f32)
    (a0 a1 : Vec Ideal S1105920x8 .bf16) (a2 : Vec Ideal S1105920x2 .bf16) (a3 a4 : Vec Ideal S8x32 .f32)
    (a5 : Vec Ideal S2x32 .f32) (a6 : Vec Ideal S1x32 .f32) (a7 : Vec Ideal S32x1 .f32) (a8 : Vec Ideal S1x1 .f32)
    (p : Fin 8192) (r : Fin 1105920)
    (h0 : ∀ k, x0 (ix2 p k) = a0 (ix2 r k)) (h1 : ∀ k, x1 (ix2 p k) = a1 (ix2 r k)) (h2 : ∀ k, x2 (ix2 p k) = a2 (ix2 r k))
    (h3 : x3 = a3) (h4 : x4 = a4) (h5 : x5 = a5) (h6 : x6 = a6) (h7 : x7 = a7) (h8 : x8 = a8) :
    k10_pay1 (F := Ideal) x0 x1 x2 x3 x4 x5 x6 x7 x8 (ix2 p 0) =
      (∑ h : Fin 32, max ((((∑ k : Fin 8, a0 (ix2 r k) * a3 (ix2 k h)) + (∑ k : Fin 8, a1 (ix2 r k) * a4 (ix2 k h))) +
          (∑ k : Fin 2, a2 (ix2 r k) * a5 (ix2 k h))) + a6 (ix2 0 h)) 0 * a7 (ix2 h 0)) + a8 (ix2 0 0) := by
  subst h3 h4 h5 h6 h7 h8
  refine (PayVal.edge_pay_apply x0 x1 x2 x3 x4 x5 x6 x7 x8 p).trans ?_
  simp only [h0, h1, h2]

/-- Row `r` of what the result array ends holding. -/
def row10_val (c : Dev nD) (r : Fin 1105920) : EReal :=
  (∑ h : Fin 32, max ((((∑ k : Fin 8, row10_arr0 V c (ix2 r k) * row10_arr3 V c (ix2 k h)) + (∑ k : Fin 8, row10_arr1 V c (ix2 r k) * row10_arr4 V c (ix2 k h))) +
          (∑ k : Fin 2, row10_arr2 V c (ix2 r k) * row10_arr5 V c (ix2 k h))) + row10_arr6 V c (ix2 0 h)) 0 * row10_arr7 V c (ix2 h 0)) + row10_arr8 V c (ix2 0 0)

/-- What the result array ends holding. -/
def row10_fn (c : Dev nD) : Vec Ideal S1105920x1 .f32 := fun i => row10_val V c ⟨(i 0).val, idx2_lt0 i⟩

/-- What point `t` writes back is block `t` of `row10_fn`. -/
theorem row10_flushed (c : Dev nD) (t : Fin cfg10.N) :
    (dat10 V c).flushed 9 t = ((cfg10.win 9).blk t).view.read (Elt Ideal) (row10_fn V c) := by
  show (cfg10.win 9).cut (grid10.coords t) ((dat10 V c).after 9 t) = _
  rw [after10_9]
  unfold out10_9
  rw [View.canon_unit_zero row10_hz]
  simp only [View.ld_unit_zero (S := S8192x8) row10_hz, View.ld_unit_zero (S := S8192x2) row10_hz, View.ld_unit_zero (S := S8x32) row10_hz,
    View.ld_unit_zero (S := S2x32) row10_hz, View.ld_unit_zero (S := S1x32) row10_hz, View.ld_unit_zero (S := S32x1) row10_hz,
    View.ld_unit_zero (S := S1x1) row10_hz]
  funext y
  obtain ⟨p, q, rfl⟩ : ∃ (p : Fin 8192) (q : Fin 1), y = ix2 p q := ⟨y 0, y 1, eq_ix2 y⟩
  obtain rfl : q = 0 := Subsingleton.elim _ _
  obtain ⟨-, -, -, -, -, -, -, -, -, -, -, -, -, -, -, -, -, -, e0, e1⟩ := row10_idx_facts t
  have hN : cfg10.N = 135 := N_10
  have ht : t.val < cfg10.N := t.isLt
  have hr : t.val * 8192 + p.val < 1105920 := by omega
  have hemb : ((cfg10.win 9).blk t).view.emb (ix2 p (0 : Fin 1)) = ix2 (⟨t.val * 8192 + p.val, hr⟩ : Fin 1105920) (0 : Fin 1) := by
    funext a; apply Fin.ext
    match a with
    | ⟨0, _⟩ => show win10_9.index t (0 : Fin 2) * 8192 + 1 * p.val = t.val * 8192 + p.val; omega
    | ⟨1, _⟩ => show win10_9.index t (1 : Fin 2) * 1 + 1 * 0 = 0; omega
  show k10_pay1 (F := Ideal) (iblk10 V c 0 t) (iblk10 V c 1 t) (iblk10 V c 2 t) (iblk10 V c 3 t) (iblk10 V c 4 t) (iblk10 V c 5 t) (iblk10 V c 6 t) (iblk10 V c 7 t) (iblk10 V c 8 t) (ix2 p (0 : Fin 1))
    = row10_fn V c (((cfg10.win 9).blk t).view.emb (ix2 p (0 : Fin 1)))
  rw [hemb]
  exact row10_of_blocks (iblk10 V c 0 t) (iblk10 V c 1 t) (iblk10 V c 2 t) (iblk10 V c 3 t) (iblk10 V c 4 t) (iblk10 V c 5 t) (iblk10 V c 6 t) (iblk10 V c 7 t) (iblk10 V c 8 t)
    (row10_arr0 V c) (row10_arr1 V c) (row10_arr2 V c) (row10_arr3 V c) (row10_arr4 V c) (row10_arr5 V c) (row10_arr6 V c) (row10_arr7 V c) (row10_arr8 V c)
    p ⟨t.val * 8192 + p.val, hr⟩
    (fun k => row10_blk0_apply V c t p k _ rfl) (fun k => row10_blk1_apply V c t p k _ rfl) (fun k => row10_blk2_apply V c t p k _ rfl)
    (row10_blk3_eq V c t) (row10_blk4_eq V c t) (row10_blk5_eq V c t) (row10_blk6_eq V c t) (row10_blk7_eq V c t) (row10_blk8_eq V c t)

/-! ## The blocks cover the array -/

/-- An index of the result array is in point `t`'s block iff each coordinate is in the block's range on its axis. -/
theorem row10_mem_blk (t : Fin cfg10.N) (i : S1105920x1.Idx) :
    i ∈ ((cfg10.win 9).blk t).view.set ↔ ∀ a : Fin 2, win10_9.index t a * S8192x1.size a ≤ (i a).val ∧ (i a).val < win10_9.index t a * S8192x1.size a + S8192x1.size a := by
  show i ∈ ((View.whole (Pipeline.arrRef spec10 9)).slice (win10_9.rect t)).set ↔ _
  rw [View.set_slice_whole, Rect.mem_set_unit]
  exact Iff.rfl

/-- Row `r` is in the block of point `r / 8192`. -/
theorem row10_cover (i : S1105920x1.Idx) : ∃ t : Fin cfg10.N, (cfg10.win 9).flush t = true ∧ i ∈ ((cfg10.win 9).blk t).view.set := by
  have hi0 : (i 0).val < 1105920 := idx2_lt0 i
  have hi1 : (i 1).val < 1 := idx2_lt1 i
  have hN : cfg10.N = 135 := N_10
  have hlt : (i 0).val / 8192 < cfg10.N := by omega
  obtain ⟨-, -, -, -, -, -, -, -, -, -, -, -, -, -, -, -, -, -, e0, e1⟩ := row10_idx_facts ⟨(i 0).val / 8192, hlt⟩
  refine ⟨⟨(i 0).val / 8192, hlt⟩, flush10_9 _, ?_⟩
  rw [row10_mem_blk]
  intro a
  match a with
  | ⟨0, _⟩ => show win10_9.index ⟨(i 0).val / 8192, hlt⟩ (0 : Fin 2) * 8192 ≤ (i 0).val ∧ (i 0).val < win10_9.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win10_9.index ⟨(i 0).val / 8192, hlt⟩ (1 : Fin 2) * 1 ≤ (i 1).val ∧ (i 1).val < win10_9.index ⟨(i 0).val / 8192, hlt⟩ (1 : Fin 2) * 1 + 1; omega

/-! ## The result array after the pipeline -/

theorem row10_final (c : Dev nD) : (dat10 V c).arrAt 9 cfg10.N = row10_fn V c :=
  (dat10 V c).arrAt_eq_of_cover 9 (row10_fn V c) (fun t _ => row10_flushed V c t) row10_cover

/-- The result array after pipeline 10, at row `r`: the edge network of row `r` of the three row arrays. -/
theorem edge_row10 (c : Dev nD) (r : Fin 1105920) :
    (dat10 V c).arrAt 9 cfg10.N (ix2 r 0) =
      (∑ h : Fin 32, max ((((∑ k : Fin 8, row10_arr0 V c (ix2 r k) * row10_arr3 V c (ix2 k h)) + (∑ k : Fin 8, row10_arr1 V c (ix2 r k) * row10_arr4 V c (ix2 k h))) +
          (∑ k : Fin 2, row10_arr2 V c (ix2 r k) * row10_arr5 V c (ix2 k h))) + row10_arr6 V c (ix2 0 h)) 0 * row10_arr7 V c (ix2 h 0)) + row10_arr8 V c (ix2 0 0) :=
  congrFun (row10_final V c) (ix2 r 0)

end Cert.KernelIdeal.Gen

end
-- ==== Proof.Val.RegionFn10.lean ====
import proofs.«426760_j80470507258346_3_alg».proof.Proof.Val.RegionRow10
import proofs.«426760_j80470507258346_3_alg».proof.Proof.Val.DagK

/-! Pipeline 10's result array as ONE function of the nine operand arrays: the edge pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 10 is the edge function of the nine operand arrays as the pipeline finds them. -/
theorem edge_arr10 (c : Dev nD) :
    (dat10 V c).arrAt 9 cfg10.N =
      Cert.Val.K.edgeFn (row10_arr0 V c) (row10_arr1 V c) (row10_arr2 V c) (row10_arr3 V c) (row10_arr4 V c) (row10_arr5 V c)
        (row10_arr6 V c) (row10_arr7 V c) (row10_arr8 V c) := by
  refine (row10_final V c).trans (funext fun i => ?_)
  obtain ⟨r, q, rfl⟩ : ∃ (r : Fin 1105920) (q : Fin 1), i = ix2 r q := ⟨i 0, i 1, eq_ix2 i⟩
  obtain rfl : q = 0 := Subsingleton.elim _ _
  exact (Cert.Val.K.edgeFn_apply (row10_arr0 V c) (row10_arr1 V c) (row10_arr2 V c) (row10_arr3 V c) (row10_arr4 V c) (row10_arr5 V c)
    (row10_arr6 V c) (row10_arr7 V c) (row10_arr8 V c) r).symm

end Cert.KernelIdeal.Gen

end
-- ==== Proof.Val.RegionRow11.lean ====
import proofs.«426760_j80470507258346_3_alg».proof.Proof.KI.Reg11
import proofs.«426760_j80470507258346_3_alg».proof.Proof.Val.Payload
import Idealize.ShloMosaic.Lib.ValueIdx
import Idealize.ShloMosaic.Lib.Pipeline.Value

/-! Pipeline 11's result array, entry by entry, over the extended reals, at ANY contents `V` of the TensorCore's buffers
    when the pipeline is entered. Point `t` writes back rows `8192 t … 8192 t + 8191`; entry `(p, q)` of its block is the
    node body's value of row `p` of the two row operands' blocks (rows `8192 t + p` of their arrays) and of the five small
    operands' blocks (their arrays whole). The 13 blocks tile the 106496 rows (row `r` lies in the block of point
    `r / 8192`), so after the pipeline entry `(r, q)` of the result array is
    `∑ h, max ((A0 A2)[r, h] + (A1 A3)[r, h] + A4[0, h]) 0 * A5[h, q] + A6[0, q]`
    of the seven operand arrays `A0 … A6` as the pipeline finds them. -/

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The arrays pipeline 11 works on, each at its literal type -/

abbrev row11_arr0 (c : Dev nD) : Vec Ideal S106496x8 .bf16 := V c (Pipeline.arrRef spec11 0)
abbrev row11_arr1 (c : Dev nD) : Vec Ideal S106496x1 .bf16 := V c (Pipeline.arrRef spec11 1)
abbrev row11_arr2 (c : Dev nD) : Vec Ideal S8x32 .f32 := V c (Pipeline.arrRef spec11 2)
abbrev row11_arr3 (c : Dev nD) : Vec Ideal S1x32 .f32 := V c (Pipeline.arrRef spec11 3)
abbrev row11_arr4 (c : Dev nD) : Vec Ideal S1x32 .f32 := V c (Pipeline.arrRef spec11 4)
abbrev row11_arr5 (c : Dev nD) : Vec Ideal S32x8 .f32 := V c (Pipeline.arrRef spec11 5)
abbrev row11_arr6 (c : Dev nD) : Vec Ideal S1x8 .f32 := V c (Pipeline.arrRef spec11 6)

/-! ## Where each block sits in its array -/

theorem row11_hz : (![0, 0] : Fin 2 → Nat) = fun _ => 0 := funext fun a => by fin_cases a <;> rfl

/-- The index maps, decided over the grid: the two row operands' and the result's block index is the point's number on
    the row axis, and every other block index is `0`. -/
theorem row11_idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = t.val ∧ win11_7.index t (1 : Fin 2) = 0 :=
  (by decide +kernel : ∀ t : Fin grid11.N, _)

/-- Row `p` of row operand 0's block at point `t` is row `8192 t + p` of its array. -/
theorem row11_blk0_apply (c : Dev nD) (t : Fin cfg11.N) (p : Fin 8192) (k : Fin 8) (r : Fin 106496)
    (hr : r.val = t.val * 8192 + p.val) :
    (iblk11 V c 0 t : Vec Ideal S8192x8 .bf16) (ix2 p k) = row11_arr0 V c (ix2 r k) := by
  obtain ⟨e0, e1, -⟩ := row11_idx_facts t
  unfold iblk11
  show V c (Pipeline.arrRef spec11 0) (((cfg11.win 0).blk t).view.emb (ix2 p k)) = V c (Pipeline.arrRef spec11 0) (ix2 r k)
  refine congrArg (V c (Pipeline.arrRef spec11 0)) ?_
  funext a; apply Fin.ext
  match a with
  | ⟨0, _⟩ => show win11_0.index t (0 : Fin 2) * 8192 + 1 * p.val = r.val; omega
  | ⟨1, _⟩ => show win11_0.index t (1 : Fin 2) * 8 + 1 * k.val = k.val; omega

/-- The same for row operand 1. -/
theorem row11_blk1_apply (c : Dev nD) (t : Fin cfg11.N) (p : Fin 8192) (k : Fin 1) (r : Fin 106496)
    (hr : r.val = t.val * 8192 + p.val) :
    (iblk11 V c 1 t : Vec Ideal S8192x1 .bf16) (ix2 p k) = row11_arr1 V c (ix2 r k) := by
  obtain ⟨-, -, e0, e1, -⟩ := row11_idx_facts t
  unfold iblk11
  show V c (Pipeline.arrRef spec11 1) (((cfg11.win 1).blk t).view.emb (ix2 p k)) = V c (Pipeline.arrRef spec11 1) (ix2 r k)
  refine congrArg (V c (Pipeline.arrRef spec11 1)) ?_
  funext a; apply Fin.ext
  match a with
  | ⟨0, _⟩ => show win11_1.index t (0 : Fin 2) * 8192 + 1 * p.val = r.val; omega
  | ⟨1, _⟩ => show win11_1.index t (1 : Fin 2) * 1 + 1 * k.val = k.val; omega

/-- Operand 2's one block is its whole array. -/
theorem row11_blk2_eq (c : Dev nD) (t : Fin cfg11.N) : (iblk11 V c 2 t : Vec Ideal S8x32 .f32) = row11_arr2 V c := by
  obtain ⟨-, -, -, -, e0, e1, -⟩ := row11_idx_facts t
  funext y
  unfold iblk11
  show V c (Pipeline.arrRef spec11 2) (((cfg11.win 2).blk t).view.emb y) = V c (Pipeline.arrRef spec11 2) y
  refine congrArg (V c (Pipeline.arrRef spec11 2)) ?_
  funext a; apply Fin.ext
  match a with
  | ⟨0, _⟩ => show win11_2.index t (0 : Fin 2) * 8 + 1 * (y 0).val = (y 0).val; omega
  | ⟨1, _⟩ => show win11_2.index t (1 : Fin 2) * 32 + 1 * (y 1).val = (y 1).val; omega

/-- Operand 3's one block is its whole array. -/
theorem row11_blk3_eq (c : Dev nD) (t : Fin cfg11.N) : (iblk11 V c 3 t : Vec Ideal S1x32 .f32) = row11_arr3 V c := by
  obtain ⟨-, -, -, -, -, -, e0, e1, -⟩ := row11_idx_facts t
  funext y
  unfold iblk11
  show V c (Pipeline.arrRef spec11 3) (((cfg11.win 3).blk t).view.emb y) = V c (Pipeline.arrRef spec11 3) y
  refine congrArg (V c (Pipeline.arrRef spec11 3)) ?_
  funext a; apply Fin.ext
  match a with
  | ⟨0, _⟩ => show win11_3.index t (0 : Fin 2) * 1 + 1 * (y 0).val = (y 0).val; omega
  | ⟨1, _⟩ => show win11_3.index t (1 : Fin 2) * 32 + 1 * (y 1).val = (y 1).val; omega

/-- Operand 4's one block is its whole array. -/
theorem row11_blk4_eq (c : Dev nD) (t : Fin cfg11.N) : (iblk11 V c 4 t : Vec Ideal S1x32 .f32) = row11_arr4 V c := by
  obtain ⟨-, -, -, -, -, -, -, -, e0, e1, -⟩ := row11_idx_facts t
  funext y
  unfold iblk11
  show V c (Pipeline.arrRef spec11 4) (((cfg11.win 4).blk t).view.emb y) = V c (Pipeline.arrRef spec11 4) y
  refine congrArg (V c (Pipeline.arrRef spec11 4)) ?_
  funext a; apply Fin.ext
  match a with
  | ⟨0, _⟩ => show win11_4.index t (0 : Fin 2) * 1 + 1 * (y 0).val = (y 0).val; omega
  | ⟨1, _⟩ => show win11_4.index t (1 : Fin 2) * 32 + 1 * (y 1).val = (y 1).val; omega

/-- Operand 5's one block is its whole array. -/
theorem row11_blk5_eq (c : Dev nD) (t : Fin cfg11.N) : (iblk11 V c 5 t : Vec Ideal S32x8 .f32) = row11_arr5 V c := by
  obtain ⟨-, -, -, -, -, -, -, -, -, -, e0, e1, -⟩ := row11_idx_facts t
  funext y
  unfold iblk11
  show V c (Pipeline.arrRef spec11 5) (((cfg11.win 5).blk t).view.emb y) = V c (Pipeline.arrRef spec11 5) y
  refine congrArg (V c (Pipeline.arrRef spec11 5)) ?_
  funext a; apply Fin.ext
  match a with
  | ⟨0, _⟩ => show win11_5.index t (0 : Fin 2) * 32 + 1 * (y 0).val = (y 0).val; omega
  | ⟨1, _⟩ => show win11_5.index t (1 : Fin 2) * 8 + 1 * (y 1).val = (y 1).val; omega

/-- Operand 6's one block is its whole array. -/
theorem row11_blk6_eq (c : Dev nD) (t : Fin cfg11.N) : (iblk11 V c 6 t : Vec Ideal S1x8 .f32) = row11_arr6 V c := by
  obtain ⟨-, -, -, -, -, -, -, -, -, -, -, -, e0, e1, -⟩ := row11_idx_facts t
  funext y
  unfold iblk11
  show V c (Pipeline.arrRef spec11 6) (((cfg11.win 6).blk t).view.emb y) = V c (Pipeline.arrRef spec11 6) y
  refine congrArg (V c (Pipeline.arrRef spec11 6)) ?_
  funext a; apply Fin.ext
  match a with
  | ⟨0, _⟩ => show win11_6.index t (0 : Fin 2) * 1 + 1 * (y 0).val = (y 0).val; omega
  | ⟨1, _⟩ => show win11_6.index t (1 : Fin 2) * 8 + 1 * (y 1).val = (y 1).val; omega

/-! ## A point's result block, entry by entry, from the arrays -/

/-- Entry `(p, q)` of the body's value from seven blocks whose row `p` (the two row operands) or whose whole (the five
    small operands) is read off arrays `a0 … a6` at row `r`. -/
theorem row11_of_blocks (x0 : Vec Ideal S8192x8 .bf16) (x1 : Vec Ideal S8192x1 .bf16) (x2 : Vec Ideal S8x32 .f32)
    (x3 x4 : Vec Ideal S1x32 .f32) (x5 : Vec Ideal S32x8 .f32) (x6 : Vec Ideal S1x8 .f32)
    (a0 : Vec Ideal S106496x8 .bf16) (a1 : Vec Ideal S106496x1 .bf16) (a2 : Vec Ideal S8x32 .f32)
    (a3 a4 : Vec Ideal S1x32 .f32) (a5 : Vec Ideal S32x8 .f32) (a6 : Vec Ideal S1x8 .f32)
    (p : Fin 8192) (q : Fin 8) (r : Fin 106496)
    (h0 : ∀ k, x0 (ix2 p k) = a0 (ix2 r k)) (h1 : ∀ k, x1 (ix2 p k) = a1 (ix2 r k))
    (h2 : x2 = a2) (h3 : x3 = a3) (h4 : x4 = a4) (h5 : x5 = a5) (h6 : x6 = a6) :
    k11_pay1 (F := Ideal) x0 x1 x2 x3 x4 x5 x6 (ix2 p q) =
      (∑ h : Fin 32, max (((∑ k : Fin 8, a0 (ix2 r k) * a2 (ix2 k h)) + (∑ k : Fin 1, a1 (ix2 r k) * a3 (ix2 k h))) +
          a4 (ix2 0 h)) 0 * a5 (ix2 h q)) + a6 (ix2 0 q) := by
  subst h2 h3 h4 h5 h6
  refine (PayVal.node_pay_apply x0 x1 x2 x3 x4 x5 x6 p q).trans ?_
  simp only [h0, h1]

/-- Entry `(r, q)` of what the result array ends holding. -/
def row11_val (c : Dev nD) (r : Fin 106496) (q : Fin 8) : EReal :=
  (∑ h : Fin 32, max (((∑ k : Fin 8, row11_arr0 V c (ix2 r k) * row11_arr2 V c (ix2 k h)) + (∑ k : Fin 1, row11_arr1 V c (ix2 r k) * row11_arr3 V c (ix2 k h))) +
          row11_arr4 V c (ix2 0 h)) 0 * row11_arr5 V c (ix2 h q)) + row11_arr6 V c (ix2 0 q)

/-- What the result array ends holding. -/
def row11_fn (c : Dev nD) : Vec Ideal S106496x8 .f32 := fun i => row11_val V c ⟨(i 0).val, idx2_lt0 i⟩ ⟨(i 1).val, idx2_lt1 i⟩

/-- What point `t` writes back is block `t` of `row11_fn`. -/
theorem row11_flushed (c : Dev nD) (t : Fin cfg11.N) :
    (dat11 V c).flushed 7 t = ((cfg11.win 7).blk t).view.read (Elt Ideal) (row11_fn V c) := by
  show (cfg11.win 7).cut (grid11.coords t) ((dat11 V c).after 7 t) = _
  rw [after11_7]
  unfold out11_7
  rw [View.canon_unit_zero row11_hz]
  simp only [View.ld_unit_zero (S := S8192x8) row11_hz, View.ld_unit_zero (S := S8192x1) row11_hz, View.ld_unit_zero (S := S8x32) row11_hz,
    View.ld_unit_zero (S := S1x32) row11_hz, View.ld_unit_zero (S := S32x8) row11_hz, View.ld_unit_zero (S := S1x8) row11_hz]
  funext y
  obtain ⟨p, q, rfl⟩ : ∃ (p : Fin 8192) (q : Fin 8), y = ix2 p q := ⟨y 0, y 1, eq_ix2 y⟩
  obtain ⟨-, -, -, -, -, -, -, -, -, -, -, -, -, -, e0, e1⟩ := row11_idx_facts t
  have hN : cfg11.N = 13 := N_11
  have ht : t.val < cfg11.N := t.isLt
  have hr : t.val * 8192 + p.val < 106496 := by omega
  have hemb : ((cfg11.win 7).blk t).view.emb (ix2 p q) = ix2 (⟨t.val * 8192 + p.val, hr⟩ : Fin 106496) q := by
    funext a; apply Fin.ext
    match a with
    | ⟨0, _⟩ => show win11_7.index t (0 : Fin 2) * 8192 + 1 * p.val = t.val * 8192 + p.val; omega
    | ⟨1, _⟩ => show win11_7.index t (1 : Fin 2) * 8 + 1 * q.val = q.val; omega
  show k11_pay1 (F := Ideal) (iblk11 V c 0 t) (iblk11 V c 1 t) (iblk11 V c 2 t) (iblk11 V c 3 t) (iblk11 V c 4 t) (iblk11 V c 5 t) (iblk11 V c 6 t) (ix2 p q)
    = row11_fn V c (((cfg11.win 7).blk t).view.emb (ix2 p q))
  rw [hemb]
  exact row11_of_blocks (iblk11 V c 0 t) (iblk11 V c 1 t) (iblk11 V c 2 t) (iblk11 V c 3 t) (iblk11 V c 4 t) (iblk11 V c 5 t) (iblk11 V c 6 t)
    (row11_arr0 V c) (row11_arr1 V c) (row11_arr2 V c) (row11_arr3 V c) (row11_arr4 V c) (row11_arr5 V c) (row11_arr6 V c)
    p q ⟨t.val * 8192 + p.val, hr⟩
    (fun k => row11_blk0_apply V c t p k _ rfl) (fun k => row11_blk1_apply V c t p k _ rfl)
    (row11_blk2_eq V c t) (row11_blk3_eq V c t) (row11_blk4_eq V c t) (row11_blk5_eq V c t) (row11_blk6_eq V c t)

/-! ## The blocks cover the array -/

/-- An index of the result array is in point `t`'s block iff each coordinate is in the block's range on its axis. -/
theorem row11_mem_blk (t : Fin cfg11.N) (i : S106496x8.Idx) :
    i ∈ ((cfg11.win 7).blk t).view.set ↔ ∀ a : Fin 2, win11_7.index t a * S8192x8.size a ≤ (i a).val ∧ (i a).val < win11_7.index t a * S8192x8.size a + S8192x8.size a := by
  show i ∈ ((View.whole (Pipeline.arrRef spec11 7)).slice (win11_7.rect t)).set ↔ _
  rw [View.set_slice_whole, Rect.mem_set_unit]
  exact Iff.rfl

/-- Row `r` is in the block of point `r / 8192`. -/
theorem row11_cover (i : S106496x8.Idx) : ∃ t : Fin cfg11.N, (cfg11.win 7).flush t = true ∧ i ∈ ((cfg11.win 7).blk t).view.set := by
  have hi0 : (i 0).val < 106496 := idx2_lt0 i
  have hi1 : (i 1).val < 8 := idx2_lt1 i
  have hN : cfg11.N = 13 := N_11
  have hlt : (i 0).val / 8192 < cfg11.N := by omega
  obtain ⟨-, -, -, -, -, -, -, -, -, -, -, -, -, -, e0, e1⟩ := row11_idx_facts ⟨(i 0).val / 8192, hlt⟩
  refine ⟨⟨(i 0).val / 8192, hlt⟩, flush11_7 _, ?_⟩
  rw [row11_mem_blk]
  intro a
  match a with
  | ⟨0, _⟩ => show win11_7.index ⟨(i 0).val / 8192, hlt⟩ (0 : Fin 2) * 8192 ≤ (i 0).val ∧ (i 0).val < win11_7.index ⟨(i 0).val / 8192, hlt⟩ (0 : Fin 2) * 8192 + 8192; rw [e0]; show (i 0).val / 8192 * 8192 ≤ (i 0).val ∧ (i 0).val < (i 0).val / 8192 * 8192 + 8192; omega
  | ⟨1, _⟩ => show win11_7.index ⟨(i 0).val / 8192, hlt⟩ (1 : Fin 2) * 8 ≤ (i 1).val ∧ (i 1).val < win11_7.index ⟨(i 0).val / 8192, hlt⟩ (1 : Fin 2) * 8 + 8; omega

/-! ## The result array after the pipeline -/

theorem row11_final (c : Dev nD) : (dat11 V c).arrAt 7 cfg11.N = row11_fn V c :=
  (dat11 V c).arrAt_eq_of_cover 7 (row11_fn V c) (fun t _ => row11_flushed V c t) row11_cover

/-- The result array after pipeline 11, at row `r`, column `q`: the node network of row `r` of the two row arrays. -/
theorem node_row11 (c : Dev nD) (r : Fin 106496) (q : Fin 8) :
    (dat11 V c).arrAt 7 cfg11.N (ix2 r q) =
      (∑ h : Fin 32, max (((∑ k : Fin 8, row11_arr0 V c (ix2 r k) * row11_arr2 V c (ix2 k h)) + (∑ k : Fin 1, row11_arr1 V c (ix2 r k) * row11_arr3 V c (ix2 k h))) +
          row11_arr4 V c (ix2 0 h)) 0 * row11_arr5 V c (ix2 h q)) + row11_arr6 V c (ix2 0 q) :=
  congrFun (row11_final V c) (ix2 r q)

end Cert.KernelIdeal.Gen

end
-- ==== Proof.Val.RegionFn11.lean ====
import proofs.«426760_j80470507258346_3_alg».proof.Proof.Val.RegionRow11
import proofs.«426760_j80470507258346_3_alg».proof.Proof.Val.DagK

/-! Pipeline 11's result array as ONE function of the seven operand arrays: the node pipeline's whole-array function at them. -/

set_option maxRecDepth 16384

noncomputable section

namespace Cert.KernelIdeal.Gen

open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The result array after pipeline 11 is the node function of the seven operand arrays as the pipeline finds them. -/
theorem node_arr11 (c : Dev nD) :
    (dat11 V c).arrAt 7 cfg11.N =
      Cert.Val.K.nodeFn (row11_arr0 V c) (row11_arr1 V c) (row11_arr2 V c) (row11_arr3 V c) (row11_arr4 V c) (row11_arr5 V c)
        (row11_arr6 V c) := by
  refine (row11_final V c).trans (funext fun i => ?_)
  obtain ⟨r, q, rfl⟩ : ∃ (r : Fin 106496) (q : Fin 8), i = ix2 r q := ⟨i 0, i 1, eq_ix2 i⟩
  exact (Cert.Val.K.nodeFn_apply (row11_arr0 V c) (row11_arr1 V c) (row11_arr2 V c) (row11_arr3 V c) (row11_arr4 V c) (row11_arr5 V c)
    (row11_arr6 V c) r q).symm

end Cert.KernelIdeal.Gen

end
-- ==== Proof.Val.RegionFn.lean ====
import proofs.«426760_j80470507258346_3_alg».proof.Proof.Val.RegionFn0
import proofs.«426760_j80470507258346_3_alg».proof.Proof.Val.RegionFn1
import proofs.«426760_j80470507258346_3_alg».proof.Proof.Val.RegionFn2
import proofs.«426760_j80470507258346_3_alg».proof.Proof.Val.RegionFn3
import proofs.«426760_j80470507258346_3_alg».proof.Proof.Val.RegionFn4
import proofs.«426760_j80470507258346_3_alg».proof.Proof.Val.RegionFn5
import proofs.«426760_j80470507258346_3_alg».proof.Proof.Val.RegionFn6
import proofs.«426760_j80470507258346_3_alg».proof.Proof.Val.RegionFn7
import proofs.«426760_j80470507258346_3_alg».proof.Proof.Val.RegionFn8
import proofs.«426760_j80470507258346_3_alg».proof.Proof.Val.RegionFn9
import proofs.«426760_j80470507258346_3_alg».proof.Proof.Val.RegionFn10
import proofs.«426760_j80470507258346_3_alg».proof.Proof.Val.RegionFn11

/-! The twelve pipelines' result arrays, each as the edge or the node function of its operand arrays:
    `edge_arr0`, `node_arr1`, …, `edge_arr10`, `node_arr11`. -/
-- ==== Proof.Val.KReadReg.lean ====
import proofs.«426760_j80470507258346_3_alg».proof.Proof.KI.Fold
import proofs.«426760_j80470507258346_3_alg».proof.Proof.Val.RegionFn
import proofs.«426760_j80470507258346_3_alg».proof.Proof.Val.ArgsOf

/-! Each region's result array after the region, as the pipeline's whole-array function of the operand arrays at its entry. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Val

variable (m : (ℓ : Loc nD τ sig) → Buf (Elt Ideal) ℓ) (ρ : Dev nD → PrngReg)

/-- The result array of region 0 after it: the pipeline's function of its operand arrays as the region is entered. -/
theorem R0_read (c : Dev nD) : W11 m ρ c (Proc.devRef .tc main_v93)
    = K.edgeFn (W10 m ρ c (Proc.devRef .tc main_v90)) (W10 m ρ c (Proc.devRef .tc main_v91)) (W10 m ρ c (Proc.devRef .tc main_v92)) (W10 m ρ c (Proc.devRef .tc main_v83)) (W10 m ρ c (Proc.devRef .tc main_v84)) (W10 m ρ c (Proc.devRef .tc main_v85)) (W10 m ρ c (Proc.devRef .tc main_v88)) (W10 m ρ c (Proc.devRef .tc main_v37)) (W10 m ρ c (Proc.devRef .tc main_v89)) :=
  (W11_arr m ρ c 9).trans (edge_arr0 (V10 m ρ) c)
/-- The same as a rewrite rule tried at any reference. -/
theorem R0_read' (c : Dev nD) : W11 m ρ c (no_index (Proc.devRef .tc main_v93))
    = K.edgeFn (W10 m ρ c (Proc.devRef .tc main_v90)) (W10 m ρ c (Proc.devRef .tc main_v91)) (W10 m ρ c (Proc.devRef .tc main_v92)) (W10 m ρ c (Proc.devRef .tc main_v83)) (W10 m ρ c (Proc.devRef .tc main_v84)) (W10 m ρ c (Proc.devRef .tc main_v85)) (W10 m ρ c (Proc.devRef .tc main_v88)) (W10 m ρ c (Proc.devRef .tc main_v37)) (W10 m ρ c (Proc.devRef .tc main_v89)) := R0_read m ρ c
/-- The result array of region 1 after it: the pipeline's function of its operand arrays as the region is entered. -/
theorem R1_read (c : Dev nD) : W16 m ρ c (Proc.devRef .tc main_v109)
    = K.nodeFn (W15 m ρ c (Proc.devRef .tc main_v107)) (W15 m ρ c (Proc.devRef .tc main_v108)) (W15 m ρ c (Proc.devRef .tc main_v101)) (W15 m ρ c (Proc.devRef .tc main_v102)) (W15 m ρ c (Proc.devRef .tc main_v105)) (W15 m ρ c (Proc.devRef .tc main_v45)) (W15 m ρ c (Proc.devRef .tc main_v106)) :=
  (W16_arr m ρ c 7).trans (node_arr1 (V15 m ρ) c)
/-- The same as a rewrite rule tried at any reference. -/
theorem R1_read' (c : Dev nD) : W16 m ρ c (no_index (Proc.devRef .tc main_v109))
    = K.nodeFn (W15 m ρ c (Proc.devRef .tc main_v107)) (W15 m ρ c (Proc.devRef .tc main_v108)) (W15 m ρ c (Proc.devRef .tc main_v101)) (W15 m ρ c (Proc.devRef .tc main_v102)) (W15 m ρ c (Proc.devRef .tc main_v105)) (W15 m ρ c (Proc.devRef .tc main_v45)) (W15 m ρ c (Proc.devRef .tc main_v106)) := R1_read m ρ c
/-- The result array of region 2 after it: the pipeline's function of its operand arrays as the region is entered. -/
theorem R2_read (c : Dev nD) : W29 m ρ c (Proc.devRef .tc main_v145)
    = K.edgeFn (W28 m ρ c (Proc.devRef .tc main_v142)) (W28 m ρ c (Proc.devRef .tc main_v143)) (W28 m ρ c (Proc.devRef .tc main_v144)) (W28 m ρ c (Proc.devRef .tc main_v135)) (W28 m ρ c (Proc.devRef .tc main_v136)) (W28 m ρ c (Proc.devRef .tc main_v137)) (W28 m ρ c (Proc.devRef .tc main_v140)) (W28 m ρ c (Proc.devRef .tc main_v61)) (W28 m ρ c (Proc.devRef .tc main_v141)) :=
  (W29_arr m ρ c 9).trans (edge_arr2 (V28 m ρ) c)
/-- The same as a rewrite rule tried at any reference. -/
theorem R2_read' (c : Dev nD) : W29 m ρ c (no_index (Proc.devRef .tc main_v145))
    = K.edgeFn (W28 m ρ c (Proc.devRef .tc main_v142)) (W28 m ρ c (Proc.devRef .tc main_v143)) (W28 m ρ c (Proc.devRef .tc main_v144)) (W28 m ρ c (Proc.devRef .tc main_v135)) (W28 m ρ c (Proc.devRef .tc main_v136)) (W28 m ρ c (Proc.devRef .tc main_v137)) (W28 m ρ c (Proc.devRef .tc main_v140)) (W28 m ρ c (Proc.devRef .tc main_v61)) (W28 m ρ c (Proc.devRef .tc main_v141)) := R2_read m ρ c
/-- The result array of region 3 after it: the pipeline's function of its operand arrays as the region is entered. -/
theorem R3_read (c : Dev nD) : W34 m ρ c (Proc.devRef .tc main_v161)
    = K.nodeFn (W33 m ρ c (Proc.devRef .tc main_v159)) (W33 m ρ c (Proc.devRef .tc main_v160)) (W33 m ρ c (Proc.devRef .tc main_v153)) (W33 m ρ c (Proc.devRef .tc main_v154)) (W33 m ρ c (Proc.devRef .tc main_v157)) (W33 m ρ c (Proc.devRef .tc main_v69)) (W33 m ρ c (Proc.devRef .tc main_v158)) :=
  (W34_arr m ρ c 7).trans (node_arr3 (V33 m ρ) c)
/-- The same as a rewrite rule tried at any reference. -/
theorem R3_read' (c : Dev nD) : W34 m ρ c (no_index (Proc.devRef .tc main_v161))
    = K.nodeFn (W33 m ρ c (Proc.devRef .tc main_v159)) (W33 m ρ c (Proc.devRef .tc main_v160)) (W33 m ρ c (Proc.devRef .tc main_v153)) (W33 m ρ c (Proc.devRef .tc main_v154)) (W33 m ρ c (Proc.devRef .tc main_v157)) (W33 m ρ c (Proc.devRef .tc main_v69)) (W33 m ρ c (Proc.devRef .tc main_v158)) := R3_read m ρ c
/-- The result array of region 4 after it: the pipeline's function of its operand arrays as the region is entered. -/
theorem R4_read (c : Dev nD) : W43 m ρ c (Proc.devRef .tc main_v240)
    = K.edgeFn (W42 m ρ c (Proc.devRef .tc main_v237)) (W42 m ρ c (Proc.devRef .tc main_v238)) (W42 m ρ c (Proc.devRef .tc main_v239)) (W42 m ρ c (Proc.devRef .tc main_v230)) (W42 m ρ c (Proc.devRef .tc main_v231)) (W42 m ρ c (Proc.devRef .tc main_v232)) (W42 m ρ c (Proc.devRef .tc main_v235)) (W42 m ρ c (Proc.devRef .tc main_v184)) (W42 m ρ c (Proc.devRef .tc main_v236)) :=
  (W43_arr m ρ c 9).trans (edge_arr4 (V42 m ρ) c)
/-- The same as a rewrite rule tried at any reference. -/
theorem R4_read' (c : Dev nD) : W43 m ρ c (no_index (Proc.devRef .tc main_v240))
    = K.edgeFn (W42 m ρ c (Proc.devRef .tc main_v237)) (W42 m ρ c (Proc.devRef .tc main_v238)) (W42 m ρ c (Proc.devRef .tc main_v239)) (W42 m ρ c (Proc.devRef .tc main_v230)) (W42 m ρ c (Proc.devRef .tc main_v231)) (W42 m ρ c (Proc.devRef .tc main_v232)) (W42 m ρ c (Proc.devRef .tc main_v235)) (W42 m ρ c (Proc.devRef .tc main_v184)) (W42 m ρ c (Proc.devRef .tc main_v236)) := R4_read m ρ c
/-- The result array of region 5 after it: the pipeline's function of its operand arrays as the region is entered. -/
theorem R5_read (c : Dev nD) : W48 m ρ c (Proc.devRef .tc main_v256)
    = K.nodeFn (W47 m ρ c (Proc.devRef .tc main_v254)) (W47 m ρ c (Proc.devRef .tc main_v255)) (W47 m ρ c (Proc.devRef .tc main_v248)) (W47 m ρ c (Proc.devRef .tc main_v249)) (W47 m ρ c (Proc.devRef .tc main_v252)) (W47 m ρ c (Proc.devRef .tc main_v192)) (W47 m ρ c (Proc.devRef .tc main_v253)) :=
  (W48_arr m ρ c 7).trans (node_arr5 (V47 m ρ) c)
/-- The same as a rewrite rule tried at any reference. -/
theorem R5_read' (c : Dev nD) : W48 m ρ c (no_index (Proc.devRef .tc main_v256))
    = K.nodeFn (W47 m ρ c (Proc.devRef .tc main_v254)) (W47 m ρ c (Proc.devRef .tc main_v255)) (W47 m ρ c (Proc.devRef .tc main_v248)) (W47 m ρ c (Proc.devRef .tc main_v249)) (W47 m ρ c (Proc.devRef .tc main_v252)) (W47 m ρ c (Proc.devRef .tc main_v192)) (W47 m ρ c (Proc.devRef .tc main_v253)) := R5_read m ρ c
/-- The result array of region 6 after it: the pipeline's function of its operand arrays as the region is entered. -/
theorem R6_read (c : Dev nD) : W61 m ρ c (Proc.devRef .tc main_v292)
    = K.edgeFn (W60 m ρ c (Proc.devRef .tc main_v289)) (W60 m ρ c (Proc.devRef .tc main_v290)) (W60 m ρ c (Proc.devRef .tc main_v291)) (W60 m ρ c (Proc.devRef .tc main_v282)) (W60 m ρ c (Proc.devRef .tc main_v283)) (W60 m ρ c (Proc.devRef .tc main_v284)) (W60 m ρ c (Proc.devRef .tc main_v287)) (W60 m ρ c (Proc.devRef .tc main_v208)) (W60 m ρ c (Proc.devRef .tc main_v288)) :=
  (W61_arr m ρ c 9).trans (edge_arr6 (V60 m ρ) c)
/-- The same as a rewrite rule tried at any reference. -/
theorem R6_read' (c : Dev nD) : W61 m ρ c (no_index (Proc.devRef .tc main_v292))
    = K.edgeFn (W60 m ρ c (Proc.devRef .tc main_v289)) (W60 m ρ c (Proc.devRef .tc main_v290)) (W60 m ρ c (Proc.devRef .tc main_v291)) (W60 m ρ c (Proc.devRef .tc main_v282)) (W60 m ρ c (Proc.devRef .tc main_v283)) (W60 m ρ c (Proc.devRef .tc main_v284)) (W60 m ρ c (Proc.devRef .tc main_v287)) (W60 m ρ c (Proc.devRef .tc main_v208)) (W60 m ρ c (Proc.devRef .tc main_v288)) := R6_read m ρ c
/-- The result array of region 7 after it: the pipeline's function of its operand arrays as the region is entered. -/
theorem R7_read (c : Dev nD) : W66 m ρ c (Proc.devRef .tc main_v308)
    = K.nodeFn (W65 m ρ c (Proc.devRef .tc main_v306)) (W65 m ρ c (Proc.devRef .tc main_v307)) (W65 m ρ c (Proc.devRef .tc main_v300)) (W65 m ρ c (Proc.devRef .tc main_v301)) (W65 m ρ c (Proc.devRef .tc main_v304)) (W65 m ρ c (Proc.devRef .tc main_v216)) (W65 m ρ c (Proc.devRef .tc main_v305)) :=
  (W66_arr m ρ c 7).trans (node_arr7 (V65 m ρ) c)
/-- The same as a rewrite rule tried at any reference. -/
theorem R7_read' (c : Dev nD) : W66 m ρ c (no_index (Proc.devRef .tc main_v308))
    = K.nodeFn (W65 m ρ c (Proc.devRef .tc main_v306)) (W65 m ρ c (Proc.devRef .tc main_v307)) (W65 m ρ c (Proc.devRef .tc main_v300)) (W65 m ρ c (Proc.devRef .tc main_v301)) (W65 m ρ c (Proc.devRef .tc main_v304)) (W65 m ρ c (Proc.devRef .tc main_v216)) (W65 m ρ c (Proc.devRef .tc main_v305)) := R7_read m ρ c
/-- The result array of region 8 after it: the pipeline's function of its operand arrays as the region is entered. -/
theorem R8_read (c : Dev nD) : W75 m ρ c (Proc.devRef .tc main_v387)
    = K.edgeFn (W74 m ρ c (Proc.devRef .tc main_v384)) (W74 m ρ c (Proc.devRef .tc main_v385)) (W74 m ρ c (Proc.devRef .tc main_v386)) (W74 m ρ c (Proc.devRef .tc main_v377)) (W74 m ρ c (Proc.devRef .tc main_v378)) (W74 m ρ c (Proc.devRef .tc main_v379)) (W74 m ρ c (Proc.devRef .tc main_v382)) (W74 m ρ c (Proc.devRef .tc main_v331)) (W74 m ρ c (Proc.devRef .tc main_v383)) :=
  (W75_arr m ρ c 9).trans (edge_arr8 (V74 m ρ) c)
/-- The same as a rewrite rule tried at any reference. -/
theorem R8_read' (c : Dev nD) : W75 m ρ c (no_index (Proc.devRef .tc main_v387))
    = K.edgeFn (W74 m ρ c (Proc.devRef .tc main_v384)) (W74 m ρ c (Proc.devRef .tc main_v385)) (W74 m ρ c (Proc.devRef .tc main_v386)) (W74 m ρ c (Proc.devRef .tc main_v377)) (W74 m ρ c (Proc.devRef .tc main_v378)) (W74 m ρ c (Proc.devRef .tc main_v379)) (W74 m ρ c (Proc.devRef .tc main_v382)) (W74 m ρ c (Proc.devRef .tc main_v331)) (W74 m ρ c (Proc.devRef .tc main_v383)) := R8_read m ρ c
/-- The result array of region 9 after it: the pipeline's function of its operand arrays as the region is entered. -/
theorem R9_read (c : Dev nD) : W80 m ρ c (Proc.devRef .tc main_v403)
    = K.nodeFn (W79 m ρ c (Proc.devRef .tc main_v401)) (W79 m ρ c (Proc.devRef .tc main_v402)) (W79 m ρ c (Proc.devRef .tc main_v395)) (W79 m ρ c (Proc.devRef .tc main_v396)) (W79 m ρ c (Proc.devRef .tc main_v399)) (W79 m ρ c (Proc.devRef .tc main_v339)) (W79 m ρ c (Proc.devRef .tc main_v400)) :=
  (W80_arr m ρ c 7).trans (node_arr9 (V79 m ρ) c)
/-- The same as a rewrite rule tried at any reference. -/
theorem R9_read' (c : Dev nD) : W80 m ρ c (no_index (Proc.devRef .tc main_v403))
    = K.nodeFn (W79 m ρ c (Proc.devRef .tc main_v401)) (W79 m ρ c (Proc.devRef .tc main_v402)) (W79 m ρ c (Proc.devRef .tc main_v395)) (W79 m ρ c (Proc.devRef .tc main_v396)) (W79 m ρ c (Proc.devRef .tc main_v399)) (W79 m ρ c (Proc.devRef .tc main_v339)) (W79 m ρ c (Proc.devRef .tc main_v400)) := R9_read m ρ c
/-- The result array of region 10 after it: the pipeline's function of its operand arrays as the region is entered. -/
theorem R10_read (c : Dev nD) : W93 m ρ c (Proc.devRef .tc main_v439)
    = K.edgeFn (W92 m ρ c (Proc.devRef .tc main_v436)) (W92 m ρ c (Proc.devRef .tc main_v437)) (W92 m ρ c (Proc.devRef .tc main_v438)) (W92 m ρ c (Proc.devRef .tc main_v429)) (W92 m ρ c (Proc.devRef .tc main_v430)) (W92 m ρ c (Proc.devRef .tc main_v431)) (W92 m ρ c (Proc.devRef .tc main_v434)) (W92 m ρ c (Proc.devRef .tc main_v355)) (W92 m ρ c (Proc.devRef .tc main_v435)) :=
  (W93_arr m ρ c 9).trans (edge_arr10 (V92 m ρ) c)
/-- The same as a rewrite rule tried at any reference. -/
theorem R10_read' (c : Dev nD) : W93 m ρ c (no_index (Proc.devRef .tc main_v439))
    = K.edgeFn (W92 m ρ c (Proc.devRef .tc main_v436)) (W92 m ρ c (Proc.devRef .tc main_v437)) (W92 m ρ c (Proc.devRef .tc main_v438)) (W92 m ρ c (Proc.devRef .tc main_v429)) (W92 m ρ c (Proc.devRef .tc main_v430)) (W92 m ρ c (Proc.devRef .tc main_v431)) (W92 m ρ c (Proc.devRef .tc main_v434)) (W92 m ρ c (Proc.devRef .tc main_v355)) (W92 m ρ c (Proc.devRef .tc main_v435)) := R10_read m ρ c
/-- The result array of region 11 after it: the pipeline's function of its operand arrays as the region is entered. -/
theorem R11_read (c : Dev nD) : W98 m ρ c (Proc.devRef .tc main_v455)
    = K.nodeFn (W97 m ρ c (Proc.devRef .tc main_v453)) (W97 m ρ c (Proc.devRef .tc main_v454)) (W97 m ρ c (Proc.devRef .tc main_v447)) (W97 m ρ c (Proc.devRef .tc main_v448)) (W97 m ρ c (Proc.devRef .tc main_v451)) (W97 m ρ c (Proc.devRef .tc main_v363)) (W97 m ρ c (Proc.devRef .tc main_v452)) :=
  (W98_arr m ρ c 7).trans (node_arr11 (V97 m ρ) c)
/-- The same as a rewrite rule tried at any reference. -/
theorem R11_read' (c : Dev nD) : W98 m ρ c (no_index (Proc.devRef .tc main_v455))
    = K.nodeFn (W97 m ρ c (Proc.devRef .tc main_v453)) (W97 m ρ c (Proc.devRef .tc main_v454)) (W97 m ρ c (Proc.devRef .tc main_v447)) (W97 m ρ c (Proc.devRef .tc main_v448)) (W97 m ρ c (Proc.devRef .tc main_v451)) (W97 m ρ c (Proc.devRef .tc main_v363)) (W97 m ρ c (Proc.devRef .tc main_v452)) := R11_read m ρ c

end Cert.KernelIdeal.Gen

end
-- ==== Proof.Val.KReadAll.lean ====
import proofs.«426760_j80470507258346_3_alg».proof.Proof.Val.KReadH0
import proofs.«426760_j80470507258346_3_alg».proof.Proof.Val.KReadH1
import proofs.«426760_j80470507258346_3_alg».proof.Proof.Val.KReadH2
import proofs.«426760_j80470507258346_3_alg».proof.Proof.Val.KReadH3
import proofs.«426760_j80470507258346_3_alg».proof.Proof.Val.KReadH4
import proofs.«426760_j80470507258346_3_alg».proof.Proof.Val.KReadH5
import proofs.«426760_j80470507258346_3_alg».proof.Proof.Val.KReadH6
import proofs.«426760_j80470507258346_3_alg».proof.Proof.Val.KReadH7
import proofs.«426760_j80470507258346_3_alg».proof.Proof.Val.KReadH8
import proofs.«426760_j80470507258346_3_alg».proof.Proof.Val.KReadH9
import proofs.«426760_j80470507258346_3_alg».proof.Proof.Val.KReadH10
import proofs.«426760_j80470507258346_3_alg».proof.Proof.Val.KReadH11
import proofs.«426760_j80470507258346_3_alg».proof.Proof.Val.KReadH12
import proofs.«426760_j80470507258346_3_alg».proof.Proof.KI.Args
import proofs.«426760_j80470507258346_3_alg».proof.Proof.Val.KReadReg
import proofs.«426760_j80470507258346_3_alg».proof.Proof.Val.ArgsOf

set_option maxRecDepth 16384

noncomputable section

namespace Cert.Val.KRead

open Cert.KernelIdeal Cert.KernelIdeal.Gen Idealize.ShloMosaic Idealize.ShloMosaic.TcCoe
  Idealize.SL.Sem Idealize.ShloMosaic.StableHlo Cert.Val

/-! # Reading the kernel program's buffers: the chain

For the argument arrays read off a launch memory `m` on a core `c`: each buffer a later item reads holds its value — a
named stage, a pipeline's function, or an intermediate buffer's function of them — at the level of the fold that
follows the item writing it, and keeps it at every later level at which it is read (no later item writes it). The
levels are met in program order; the last one is the result's. -/

variable (m : (ℓ : Loc nD τ sig) → Buf (Elt Ideal) ℓ) (ρ : Dev nD → PrngReg) (c : Dev nD)

theorem at_arg1_0 : W0 m ρ c (Proc.devRef .tc main_arg1) = (K.argsOf m c).a1 := rfl
theorem at_v1_1 : W1 m ρ c (Proc.devRef .tc main_v1) = K.lr (K.argsOf m c) :=
  st_lr (W0 m ρ c) (K.argsOf m c) (at_arg1_0 m ρ c)
theorem at_v3_1 : W1 m ρ c (Proc.devRef .tc main_v3) = K.lc (K.argsOf m c) :=
  st_lc (W0 m ρ c) (K.argsOf m c) (at_arg1_0 m ρ c)
theorem at_arg2_0 : W0 m ρ c (Proc.devRef .tc main_arg2) = (K.argsOf m c).a2 := rfl
theorem at_v5_1 : W1 m ρ c (Proc.devRef .tc main_v5) = K.ur (K.argsOf m c) :=
  st_ur (W0 m ρ c) (K.argsOf m c) (at_arg2_0 m ρ c)
theorem at_v7_1 : W1 m ρ c (Proc.devRef .tc main_v7) = K.uc (K.argsOf m c) :=
  st_uc (W0 m ρ c) (K.argsOf m c) (at_arg2_0 m ρ c)
theorem at_arg3_0 : W0 m ρ c (Proc.devRef .tc main_arg3) = (K.argsOf m c).a3 := rfl
theorem at_arg3_1 : W1 m ρ c (Proc.devRef .tc main_arg3) = (K.argsOf m c).a3 := (W1_of m ρ c main_arg3 (by decide)).trans (at_arg3_0 m ρ c)
theorem at_arg3_2 : W2 m ρ c (Proc.devRef .tc main_arg3) = (K.argsOf m c).a3 := (W2_of m ρ c main_arg3 (by decide)).trans (at_arg3_1 m ρ c)
theorem at_arg3_3 : W3 m ρ c (Proc.devRef .tc main_arg3) = (K.argsOf m c).a3 := (W3_of m ρ c main_arg3 (by decide)).trans (at_arg3_2 m ρ c)
theorem at_arg3_4 : W4 m ρ c (Proc.devRef .tc main_arg3) = (K.argsOf m c).a3 := (W4_of m ρ c main_arg3 (by decide)).trans (at_arg3_3 m ρ c)
theorem at_v80_5 : W5 m ρ c (Proc.devRef .tc main_v80) = K.lin0 (K.argsOf m c) :=
  st_lin0 (W4 m ρ c) (K.argsOf m c) (at_arg3_4 m ρ c)
theorem at_arg0_0 : W0 m ρ c (Proc.devRef .tc main_arg0) = (K.argsOf m c).a0 := rfl
theorem at_arg0_1 : W1 m ρ c (Proc.devRef .tc main_arg0) = (K.argsOf m c).a0 := (W1_of m ρ c main_arg0 (by decide)).trans (at_arg0_0 m ρ c)
theorem at_v25_2 : W2 m ρ c (Proc.devRef .tc main_v25) = C_v25 (F := Ideal) (K.lr (K.argsOf m c)) ((K.argsOf m c).a0) :=
  (congrArg (fun l => StableHlo.after l (W1 m ρ c) (Proc.devRef .tc main_v25)) hostOps0_1_eq).trans (rd_v25 (W1 m ρ c) (K.argsOf m c) (at_v1_1 m ρ c) (at_arg0_1 m ρ c))
theorem at_v26_3 : W3 m ρ c (Proc.devRef .tc main_v26) = C_v26 (F := Ideal) (C_v25 (F := Ideal) (K.lr (K.argsOf m c)) ((K.argsOf m c).a0)) :=
  rd_v26 (W2 m ρ c) (K.argsOf m c) (at_v25_2 m ρ c)
theorem at_v26_4 : W4 m ρ c (Proc.devRef .tc main_v26) = C_v26 (F := Ideal) (C_v25 (F := Ideal) (K.lr (K.argsOf m c)) ((K.argsOf m c).a0)) := (W4_of m ρ c main_v26 (by decide)).trans (at_v26_3 m ρ c)
theorem at_v26_5 : W5 m ρ c (Proc.devRef .tc main_v26) = C_v26 (F := Ideal) (C_v25 (F := Ideal) (K.lr (K.argsOf m c)) ((K.argsOf m c).a0)) := (W5_of m ρ c main_v26 (by decide)).trans (at_v26_4 m ρ c)
theorem at_c_5 : W5 m ρ c (Proc.devRef .tc main_c) = C_c :=
  rd_c (W4 m ρ c) (K.argsOf m c)
theorem at_v90_6 : W6 m ρ c (Proc.devRef .tc main_v90) = C_v90 (F := Ideal) (C_v26 (F := Ideal) (C_v25 (F := Ideal) (K.lr (K.argsOf m c)) ((K.argsOf m c).a0))) (C_c) :=
  (congrArg (fun l => StableHlo.after l (W5 m ρ c) (Proc.devRef .tc main_v90)) hostOps0_5_eq).trans (rd_v90 (W5 m ρ c) (K.argsOf m c) (at_v26_5 m ρ c) (at_c_5 m ρ c))
theorem at_v90_7 : W7 m ρ c (Proc.devRef .tc main_v90) = C_v90 (F := Ideal) (C_v26 (F := Ideal) (C_v25 (F := Ideal) (K.lr (K.argsOf m c)) ((K.argsOf m c).a0))) (C_c) := (W7_of m ρ c main_v90 (by decide)).trans (at_v90_6 m ρ c)
theorem at_v90_8 : W8 m ρ c (Proc.devRef .tc main_v90) = C_v90 (F := Ideal) (C_v26 (F := Ideal) (C_v25 (F := Ideal) (K.lr (K.argsOf m c)) ((K.argsOf m c).a0))) (C_c) := (W8_of m ρ c main_v90 (by decide)).trans (at_v90_7 m ρ c)
theorem at_v90_9 : W9 m ρ c (Proc.devRef .tc main_v90) = C_v90 (F := Ideal) (C_v26 (F := Ideal) (C_v25 (F := Ideal) (K.lr (K.argsOf m c)) ((K.argsOf m c).a0))) (C_c) := (W9_of m ρ c main_v90 (by decide)).trans (at_v90_8 m ρ c)
theorem at_v90_10 : W10 m ρ c (Proc.devRef .tc main_v90) = C_v90 (F := Ideal) (C_v26 (F := Ideal) (C_v25 (F := Ideal) (K.lr (K.argsOf m c)) ((K.argsOf m c).a0))) (C_c) := (W10_of m ρ c main_v90 (by decide)).trans (at_v90_9 m ρ c)
theorem at_v3_2 : W2 m ρ c (Proc.devRef .tc main_v3) = K.lc (K.argsOf m c) := (W2_of m ρ c main_v3 (by decide)).trans (at_v3_1 m ρ c)
theorem at_v3_3 : W3 m ρ c (Proc.devRef .tc main_v3) = K.lc (K.argsOf m c) := (W3_of m ρ c main_v3 (by decide)).trans (at_v3_2 m ρ c)
theorem at_arg0_2 : W2 m ρ c (Proc.devRef .tc main_arg0) = (K.argsOf m c).a0 := (W2_of m ρ c main_arg0 (by decide)).trans (at_arg0_1 m ρ c)
theorem at_arg0_3 : W3 m ρ c (Proc.devRef .tc main_arg0) = (K.argsOf m c).a0 := (W3_of m ρ c main_arg0 (by decide)).trans (at_arg0_2 m ρ c)
theorem at_v27_4 : W4 m ρ c (Proc.devRef .tc main_v27) = C_v27 (F := Ideal) (K.lc (K.argsOf m c)) ((K.argsOf m c).a0) :=
  (congrArg (fun l => StableHlo.after l (W3 m ρ c) (Proc.devRef .tc main_v27)) hostOps0_3_eq).trans (rd_v27 (W3 m ρ c) (K.argsOf m c) (at_v3_3 m ρ c) (at_arg0_3 m ρ c))
theorem at_v28_5 : W5 m ρ c (Proc.devRef .tc main_v28) = C_v28 (F := Ideal) (C_v27 (F := Ideal) (K.lc (K.argsOf m c)) ((K.argsOf m c).a0)) :=
  rd_v28 (W4 m ρ c) (K.argsOf m c) (at_v27_4 m ρ c)
theorem at_v28_6 : W6 m ρ c (Proc.devRef .tc main_v28) = C_v28 (F := Ideal) (C_v27 (F := Ideal) (K.lc (K.argsOf m c)) ((K.argsOf m c).a0)) := (W6_of m ρ c main_v28 (by decide)).trans (at_v28_5 m ρ c)
theorem at_v28_7 : W7 m ρ c (Proc.devRef .tc main_v28) = C_v28 (F := Ideal) (C_v27 (F := Ideal) (K.lc (K.argsOf m c)) ((K.argsOf m c).a0)) := (W7_of m ρ c main_v28 (by decide)).trans (at_v28_6 m ρ c)
theorem at_c_10_7 : W7 m ρ c (Proc.devRef .tc main_c_10) = C_c_10 :=
  rd_c_10 (W6 m ρ c) (K.argsOf m c)
theorem at_v91_8 : W8 m ρ c (Proc.devRef .tc main_v91) = C_v91 (F := Ideal) (C_v28 (F := Ideal) (C_v27 (F := Ideal) (K.lc (K.argsOf m c)) ((K.argsOf m c).a0))) (C_c_10) :=
  (congrArg (fun l => StableHlo.after l (W7 m ρ c) (Proc.devRef .tc main_v91)) hostOps0_7_eq).trans (rd_v91 (W7 m ρ c) (K.argsOf m c) (at_v28_7 m ρ c) (at_c_10_7 m ρ c))
theorem at_v91_9 : W9 m ρ c (Proc.devRef .tc main_v91) = C_v91 (F := Ideal) (C_v28 (F := Ideal) (C_v27 (F := Ideal) (K.lc (K.argsOf m c)) ((K.argsOf m c).a0))) (C_c_10) := (W9_of m ρ c main_v91 (by decide)).trans (at_v91_8 m ρ c)
theorem at_v91_10 : W10 m ρ c (Proc.devRef .tc main_v91) = C_v91 (F := Ideal) (C_v28 (F := Ideal) (C_v27 (F := Ideal) (K.lc (K.argsOf m c)) ((K.argsOf m c).a0))) (C_c_10) := (W10_of m ρ c main_v91 (by decide)).trans (at_v91_9 m ρ c)
theorem at_v81_5 : W5 m ρ c (Proc.devRef .tc main_v81) = C_v81 (F := Ideal) ((K.argsOf m c).a3) :=
  rd_v81 (W4 m ρ c) (K.argsOf m c) (at_arg3_4 m ρ c)
theorem at_v81_6 : W6 m ρ c (Proc.devRef .tc main_v81) = C_v81 (F := Ideal) ((K.argsOf m c).a3) := (W6_of m ρ c main_v81 (by decide)).trans (at_v81_5 m ρ c)
theorem at_v81_7 : W7 m ρ c (Proc.devRef .tc main_v81) = C_v81 (F := Ideal) ((K.argsOf m c).a3) := (W7_of m ρ c main_v81 (by decide)).trans (at_v81_6 m ρ c)
theorem at_v81_8 : W8 m ρ c (Proc.devRef .tc main_v81) = C_v81 (F := Ideal) ((K.argsOf m c).a3) := (W8_of m ρ c main_v81 (by decide)).trans (at_v81_7 m ρ c)
theorem at_v81_9 : W9 m ρ c (Proc.devRef .tc main_v81) = C_v81 (F := Ideal) ((K.argsOf m c).a3) := (W9_of m ρ c main_v81 (by decide)).trans (at_v81_8 m ρ c)
theorem at_c_11_9 : W9 m ρ c (Proc.devRef .tc main_c_11) = C_c_11 :=
  rd_c_11 (W8 m ρ c) (K.argsOf m c)
theorem at_v92_10 : W10 m ρ c (Proc.devRef .tc main_v92) = C_v92 (F := Ideal) (C_v81 (F := Ideal) ((K.argsOf m c).a3)) (C_c_11) :=
  (congrArg (fun l => StableHlo.after l (W9 m ρ c) (Proc.devRef .tc main_v92)) hostOps0_9_eq).trans (rd_v92 (W9 m ρ c) (K.argsOf m c) (at_v81_9 m ρ c) (at_c_11_9 m ρ c))
theorem at_arg5_0 : W0 m ρ c (Proc.devRef .tc main_arg5) = (K.argsOf m c).a5 := rfl
theorem at_arg5_1 : W1 m ρ c (Proc.devRef .tc main_arg5) = (K.argsOf m c).a5 := (W1_of m ρ c main_arg5 (by decide)).trans (at_arg5_0 m ρ c)
theorem at_arg5_2 : W2 m ρ c (Proc.devRef .tc main_arg5) = (K.argsOf m c).a5 := (W2_of m ρ c main_arg5 (by decide)).trans (at_arg5_1 m ρ c)
theorem at_arg5_3 : W3 m ρ c (Proc.devRef .tc main_arg5) = (K.argsOf m c).a5 := (W3_of m ρ c main_arg5 (by decide)).trans (at_arg5_2 m ρ c)
theorem at_arg5_4 : W4 m ρ c (Proc.devRef .tc main_arg5) = (K.argsOf m c).a5 := (W4_of m ρ c main_arg5 (by decide)).trans (at_arg5_3 m ρ c)
theorem at_v83_5 : W5 m ρ c (Proc.devRef .tc main_v83) = C_v83 (F := Ideal) ((K.argsOf m c).a5) :=
  rd_v83 (W4 m ρ c) (K.argsOf m c) (at_arg5_4 m ρ c)
theorem at_v83_6 : W6 m ρ c (Proc.devRef .tc main_v83) = C_v83 (F := Ideal) ((K.argsOf m c).a5) := (W6_of m ρ c main_v83 (by decide)).trans (at_v83_5 m ρ c)
theorem at_v83_7 : W7 m ρ c (Proc.devRef .tc main_v83) = C_v83 (F := Ideal) ((K.argsOf m c).a5) := (W7_of m ρ c main_v83 (by decide)).trans (at_v83_6 m ρ c)
theorem at_v83_8 : W8 m ρ c (Proc.devRef .tc main_v83) = C_v83 (F := Ideal) ((K.argsOf m c).a5) := (W8_of m ρ c main_v83 (by decide)).trans (at_v83_7 m ρ c)
theorem at_v83_9 : W9 m ρ c (Proc.devRef .tc main_v83) = C_v83 (F := Ideal) ((K.argsOf m c).a5) := (W9_of m ρ c main_v83 (by decide)).trans (at_v83_8 m ρ c)
theorem at_v83_10 : W10 m ρ c (Proc.devRef .tc main_v83) = C_v83 (F := Ideal) ((K.argsOf m c).a5) := (W10_of m ρ c main_v83 (by decide)).trans (at_v83_9 m ρ c)
theorem at_v84_5 : W5 m ρ c (Proc.devRef .tc main_v84) = C_v84 (F := Ideal) ((K.argsOf m c).a5) :=
  rd_v84 (W4 m ρ c) (K.argsOf m c) (at_arg5_4 m ρ c)
theorem at_v84_6 : W6 m ρ c (Proc.devRef .tc main_v84) = C_v84 (F := Ideal) ((K.argsOf m c).a5) := (W6_of m ρ c main_v84 (by decide)).trans (at_v84_5 m ρ c)
theorem at_v84_7 : W7 m ρ c (Proc.devRef .tc main_v84) = C_v84 (F := Ideal) ((K.argsOf m c).a5) := (W7_of m ρ c main_v84 (by decide)).trans (at_v84_6 m ρ c)
theorem at_v84_8 : W8 m ρ c (Proc.devRef .tc main_v84) = C_v84 (F := Ideal) ((K.argsOf m c).a5) := (W8_of m ρ c main_v84 (by decide)).trans (at_v84_7 m ρ c)
theorem at_v84_9 : W9 m ρ c (Proc.devRef .tc main_v84) = C_v84 (F := Ideal) ((K.argsOf m c).a5) := (W9_of m ρ c main_v84 (by decide)).trans (at_v84_8 m ρ c)
theorem at_v84_10 : W10 m ρ c (Proc.devRef .tc main_v84) = C_v84 (F := Ideal) ((K.argsOf m c).a5) := (W10_of m ρ c main_v84 (by decide)).trans (at_v84_9 m ρ c)
theorem at_v85_5 : W5 m ρ c (Proc.devRef .tc main_v85) = C_v85 (F := Ideal) ((K.argsOf m c).a5) :=
  rd_v85 (W4 m ρ c) (K.argsOf m c) (at_arg5_4 m ρ c)
theorem at_v85_6 : W6 m ρ c (Proc.devRef .tc main_v85) = C_v85 (F := Ideal) ((K.argsOf m c).a5) := (W6_of m ρ c main_v85 (by decide)).trans (at_v85_5 m ρ c)
theorem at_v85_7 : W7 m ρ c (Proc.devRef .tc main_v85) = C_v85 (F := Ideal) ((K.argsOf m c).a5) := (W7_of m ρ c main_v85 (by decide)).trans (at_v85_6 m ρ c)
theorem at_v85_8 : W8 m ρ c (Proc.devRef .tc main_v85) = C_v85 (F := Ideal) ((K.argsOf m c).a5) := (W8_of m ρ c main_v85 (by decide)).trans (at_v85_7 m ρ c)
theorem at_v85_9 : W9 m ρ c (Proc.devRef .tc main_v85) = C_v85 (F := Ideal) ((K.argsOf m c).a5) := (W9_of m ρ c main_v85 (by decide)).trans (at_v85_8 m ρ c)
theorem at_v85_10 : W10 m ρ c (Proc.devRef .tc main_v85) = C_v85 (F := Ideal) ((K.argsOf m c).a5) := (W10_of m ρ c main_v85 (by decide)).trans (at_v85_9 m ρ c)
theorem at_arg6_0 : W0 m ρ c (Proc.devRef .tc main_arg6) = (K.argsOf m c).a6 := rfl
theorem at_arg6_1 : W1 m ρ c (Proc.devRef .tc main_arg6) = (K.argsOf m c).a6 := (W1_of m ρ c main_arg6 (by decide)).trans (at_arg6_0 m ρ c)
theorem at_arg6_2 : W2 m ρ c (Proc.devRef .tc main_arg6) = (K.argsOf m c).a6 := (W2_of m ρ c main_arg6 (by decide)).trans (at_arg6_1 m ρ c)
theorem at_arg6_3 : W3 m ρ c (Proc.devRef .tc main_arg6) = (K.argsOf m c).a6 := (W3_of m ρ c main_arg6 (by decide)).trans (at_arg6_2 m ρ c)
theorem at_arg6_4 : W4 m ρ c (Proc.devRef .tc main_arg6) = (K.argsOf m c).a6 := (W4_of m ρ c main_arg6 (by decide)).trans (at_arg6_3 m ρ c)
theorem at_v88_5 : W5 m ρ c (Proc.devRef .tc main_v88) = C_v88 (F := Ideal) ((K.argsOf m c).a6) ((K.argsOf m c).a5) :=
  rd_v88 (W4 m ρ c) (K.argsOf m c) (at_arg6_4 m ρ c) (at_arg5_4 m ρ c)
theorem at_v88_6 : W6 m ρ c (Proc.devRef .tc main_v88) = C_v88 (F := Ideal) ((K.argsOf m c).a6) ((K.argsOf m c).a5) := (W6_of m ρ c main_v88 (by decide)).trans (at_v88_5 m ρ c)
theorem at_v88_7 : W7 m ρ c (Proc.devRef .tc main_v88) = C_v88 (F := Ideal) ((K.argsOf m c).a6) ((K.argsOf m c).a5) := (W7_of m ρ c main_v88 (by decide)).trans (at_v88_6 m ρ c)
theorem at_v88_8 : W8 m ρ c (Proc.devRef .tc main_v88) = C_v88 (F := Ideal) ((K.argsOf m c).a6) ((K.argsOf m c).a5) := (W8_of m ρ c main_v88 (by decide)).trans (at_v88_7 m ρ c)
theorem at_v88_9 : W9 m ρ c (Proc.devRef .tc main_v88) = C_v88 (F := Ideal) ((K.argsOf m c).a6) ((K.argsOf m c).a5) := (W9_of m ρ c main_v88 (by decide)).trans (at_v88_8 m ρ c)
theorem at_v88_10 : W10 m ρ c (Proc.devRef .tc main_v88) = C_v88 (F := Ideal) ((K.argsOf m c).a6) ((K.argsOf m c).a5) := (W10_of m ρ c main_v88 (by decide)).trans (at_v88_9 m ρ c)
theorem at_arg7_0 : W0 m ρ c (Proc.devRef .tc main_arg7) = (K.argsOf m c).a7 := rfl
theorem at_arg7_1 : W1 m ρ c (Proc.devRef .tc main_arg7) = (K.argsOf m c).a7 := (W1_of m ρ c main_arg7 (by decide)).trans (at_arg7_0 m ρ c)
theorem at_arg7_2 : W2 m ρ c (Proc.devRef .tc main_arg7) = (K.argsOf m c).a7 := (W2_of m ρ c main_arg7 (by decide)).trans (at_arg7_1 m ρ c)
theorem at_arg7_3 : W3 m ρ c (Proc.devRef .tc main_arg7) = (K.argsOf m c).a7 := (W3_of m ρ c main_arg7 (by decide)).trans (at_arg7_2 m ρ c)
theorem at_arg7_4 : W4 m ρ c (Proc.devRef .tc main_arg7) = (K.argsOf m c).a7 := (W4_of m ρ c main_arg7 (by decide)).trans (at_arg7_3 m ρ c)
theorem at_v37_5 : W5 m ρ c (Proc.devRef .tc main_v37) = K.P00_eW2 (K.argsOf m c) :=
  pr_v37 (W4 m ρ c) (K.argsOf m c) (at_arg7_4 m ρ c)
theorem at_v37_6 : W6 m ρ c (Proc.devRef .tc main_v37) = K.P00_eW2 (K.argsOf m c) := (W6_of m ρ c main_v37 (by decide)).trans (at_v37_5 m ρ c)
theorem at_v37_7 : W7 m ρ c (Proc.devRef .tc main_v37) = K.P00_eW2 (K.argsOf m c) := (W7_of m ρ c main_v37 (by decide)).trans (at_v37_6 m ρ c)
theorem at_v37_8 : W8 m ρ c (Proc.devRef .tc main_v37) = K.P00_eW2 (K.argsOf m c) := (W8_of m ρ c main_v37 (by decide)).trans (at_v37_7 m ρ c)
theorem at_v37_9 : W9 m ρ c (Proc.devRef .tc main_v37) = K.P00_eW2 (K.argsOf m c) := (W9_of m ρ c main_v37 (by decide)).trans (at_v37_8 m ρ c)
theorem at_v37_10 : W10 m ρ c (Proc.devRef .tc main_v37) = K.P00_eW2 (K.argsOf m c) := (W10_of m ρ c main_v37 (by decide)).trans (at_v37_9 m ρ c)
theorem at_arg8_0 : W0 m ρ c (Proc.devRef .tc main_arg8) = (K.argsOf m c).a8 := rfl
theorem at_arg8_1 : W1 m ρ c (Proc.devRef .tc main_arg8) = (K.argsOf m c).a8 := (W1_of m ρ c main_arg8 (by decide)).trans (at_arg8_0 m ρ c)
theorem at_arg8_2 : W2 m ρ c (Proc.devRef .tc main_arg8) = (K.argsOf m c).a8 := (W2_of m ρ c main_arg8 (by decide)).trans (at_arg8_1 m ρ c)
theorem at_arg8_3 : W3 m ρ c (Proc.devRef .tc main_arg8) = (K.argsOf m c).a8 := (W3_of m ρ c main_arg8 (by decide)).trans (at_arg8_2 m ρ c)
theorem at_arg8_4 : W4 m ρ c (Proc.devRef .tc main_arg8) = (K.argsOf m c).a8 := (W4_of m ρ c main_arg8 (by decide)).trans (at_arg8_3 m ρ c)
theorem at_v89_5 : W5 m ρ c (Proc.devRef .tc main_v89) = C_v89 (F := Ideal) ((K.argsOf m c).a8) :=
  rd_v89 (W4 m ρ c) (K.argsOf m c) (at_arg8_4 m ρ c)
theorem at_v89_6 : W6 m ρ c (Proc.devRef .tc main_v89) = C_v89 (F := Ideal) ((K.argsOf m c).a8) := (W6_of m ρ c main_v89 (by decide)).trans (at_v89_5 m ρ c)
theorem at_v89_7 : W7 m ρ c (Proc.devRef .tc main_v89) = C_v89 (F := Ideal) ((K.argsOf m c).a8) := (W7_of m ρ c main_v89 (by decide)).trans (at_v89_6 m ρ c)
theorem at_v89_8 : W8 m ρ c (Proc.devRef .tc main_v89) = C_v89 (F := Ideal) ((K.argsOf m c).a8) := (W8_of m ρ c main_v89 (by decide)).trans (at_v89_7 m ρ c)
theorem at_v89_9 : W9 m ρ c (Proc.devRef .tc main_v89) = C_v89 (F := Ideal) ((K.argsOf m c).a8) := (W9_of m ρ c main_v89 (by decide)).trans (at_v89_8 m ρ c)
theorem at_v89_10 : W10 m ρ c (Proc.devRef .tc main_v89) = C_v89 (F := Ideal) ((K.argsOf m c).a8) := (W10_of m ρ c main_v89 (by decide)).trans (at_v89_9 m ρ c)
theorem at_v93_11 : W11 m ρ c (Proc.devRef .tc main_v93) = K.edgeFn (C_v90 (F := Ideal) (C_v26 (F := Ideal) (C_v25 (F := Ideal) (K.lr (K.argsOf m c)) ((K.argsOf m c).a0))) (C_c)) (C_v91 (F := Ideal) (C_v28 (F := Ideal) (C_v27 (F := Ideal) (K.lc (K.argsOf m c)) ((K.argsOf m c).a0))) (C_c_10)) (C_v92 (F := Ideal) (C_v81 (F := Ideal) ((K.argsOf m c).a3)) (C_c_11)) (C_v83 (F := Ideal) ((K.argsOf m c).a5)) (C_v84 (F := Ideal) ((K.argsOf m c).a5)) (C_v85 (F := Ideal) ((K.argsOf m c).a5)) (C_v88 (F := Ideal) ((K.argsOf m c).a6) ((K.argsOf m c).a5)) (K.P00_eW2 (K.argsOf m c)) (C_v89 (F := Ideal) ((K.argsOf m c).a8)) :=
  (R0_read m ρ c).trans (by rw [at_v90_10 m ρ c, at_v91_10 m ρ c, at_v92_10 m ρ c, at_v83_10 m ρ c, at_v84_10 m ρ c, at_v85_10 m ρ c, at_v88_10 m ρ c, at_v37_10 m ρ c, at_v89_10 m ρ c])
theorem at_v94_12 : W12 m ρ c (Proc.devRef .tc main_v94) = K.le1 (K.argsOf m c) :=
  st_le1 (W11 m ρ c) (K.argsOf m c) (at_v93_11 m ρ c)
theorem at_v1_2 : W2 m ρ c (Proc.devRef .tc main_v1) = K.lr (K.argsOf m c) := (W2_of m ρ c main_v1 (by decide)).trans (at_v1_1 m ρ c)
theorem at_v1_3 : W3 m ρ c (Proc.devRef .tc main_v1) = K.lr (K.argsOf m c) := (W3_of m ρ c main_v1 (by decide)).trans (at_v1_2 m ρ c)
theorem at_v1_4 : W4 m ρ c (Proc.devRef .tc main_v1) = K.lr (K.argsOf m c) := (W4_of m ρ c main_v1 (by decide)).trans (at_v1_3 m ρ c)
theorem at_v1_5 : W5 m ρ c (Proc.devRef .tc main_v1) = K.lr (K.argsOf m c) := (W5_of m ρ c main_v1 (by decide)).trans (at_v1_4 m ρ c)
theorem at_v1_6 : W6 m ρ c (Proc.devRef .tc main_v1) = K.lr (K.argsOf m c) := (W6_of m ρ c main_v1 (by decide)).trans (at_v1_5 m ρ c)
theorem at_v1_7 : W7 m ρ c (Proc.devRef .tc main_v1) = K.lr (K.argsOf m c) := (W7_of m ρ c main_v1 (by decide)).trans (at_v1_6 m ρ c)
theorem at_v1_8 : W8 m ρ c (Proc.devRef .tc main_v1) = K.lr (K.argsOf m c) := (W8_of m ρ c main_v1 (by decide)).trans (at_v1_7 m ρ c)
theorem at_v1_9 : W9 m ρ c (Proc.devRef .tc main_v1) = K.lr (K.argsOf m c) := (W9_of m ρ c main_v1 (by decide)).trans (at_v1_8 m ρ c)
theorem at_v1_10 : W10 m ρ c (Proc.devRef .tc main_v1) = K.lr (K.argsOf m c) := (W10_of m ρ c main_v1 (by decide)).trans (at_v1_9 m ρ c)
theorem at_v1_11 : W11 m ρ c (Proc.devRef .tc main_v1) = K.lr (K.argsOf m c) := (W11_of m ρ c main_v1 (by decide)).trans (at_v1_10 m ρ c)
theorem at_v16_1 : W1 m ρ c (Proc.devRef .tc main_v16) = C_v16 (F := Ideal) ((K.argsOf m c).a1) :=
  rd_v16 (W0 m ρ c) (K.argsOf m c) (at_arg1_0 m ρ c)
theorem at_v16_2 : W2 m ρ c (Proc.devRef .tc main_v16) = C_v16 (F := Ideal) ((K.argsOf m c).a1) := (W2_of m ρ c main_v16 (by decide)).trans (at_v16_1 m ρ c)
theorem at_v16_3 : W3 m ρ c (Proc.devRef .tc main_v16) = C_v16 (F := Ideal) ((K.argsOf m c).a1) := (W3_of m ρ c main_v16 (by decide)).trans (at_v16_2 m ρ c)
theorem at_v16_4 : W4 m ρ c (Proc.devRef .tc main_v16) = C_v16 (F := Ideal) ((K.argsOf m c).a1) := (W4_of m ρ c main_v16 (by decide)).trans (at_v16_3 m ρ c)
theorem at_v16_5 : W5 m ρ c (Proc.devRef .tc main_v16) = C_v16 (F := Ideal) ((K.argsOf m c).a1) := (W5_of m ρ c main_v16 (by decide)).trans (at_v16_4 m ρ c)
theorem at_v16_6 : W6 m ρ c (Proc.devRef .tc main_v16) = C_v16 (F := Ideal) ((K.argsOf m c).a1) := (W6_of m ρ c main_v16 (by decide)).trans (at_v16_5 m ρ c)
theorem at_v16_7 : W7 m ρ c (Proc.devRef .tc main_v16) = C_v16 (F := Ideal) ((K.argsOf m c).a1) := (W7_of m ρ c main_v16 (by decide)).trans (at_v16_6 m ρ c)
theorem at_v16_8 : W8 m ρ c (Proc.devRef .tc main_v16) = C_v16 (F := Ideal) ((K.argsOf m c).a1) := (W8_of m ρ c main_v16 (by decide)).trans (at_v16_7 m ρ c)
theorem at_v16_9 : W9 m ρ c (Proc.devRef .tc main_v16) = C_v16 (F := Ideal) ((K.argsOf m c).a1) := (W9_of m ρ c main_v16 (by decide)).trans (at_v16_8 m ρ c)
theorem at_v16_10 : W10 m ρ c (Proc.devRef .tc main_v16) = C_v16 (F := Ideal) ((K.argsOf m c).a1) := (W10_of m ρ c main_v16 (by decide)).trans (at_v16_9 m ρ c)
theorem at_v16_11 : W11 m ρ c (Proc.devRef .tc main_v16) = C_v16 (F := Ideal) ((K.argsOf m c).a1) := (W11_of m ρ c main_v16 (by decide)).trans (at_v16_10 m ρ c)
theorem at_v99_12 : W12 m ρ c (Proc.devRef .tc main_v99) = K.la1 (K.argsOf m c) :=
  st_la1 (W11 m ρ c) (K.argsOf m c) (at_v1_11 m ρ c) (at_v93_11 m ρ c) (at_v16_11 m ρ c)
theorem at_v24_1 : W1 m ρ c (Proc.devRef .tc main_v24) = C_v24 (F := Ideal) ((K.argsOf m c).a0) :=
  rd_v24 (W0 m ρ c) (K.argsOf m c) (at_arg0_0 m ρ c)
theorem at_v24_2 : W2 m ρ c (Proc.devRef .tc main_v24) = C_v24 (F := Ideal) ((K.argsOf m c).a0) := (W2_of m ρ c main_v24 (by decide)).trans (at_v24_1 m ρ c)
theorem at_v24_3 : W3 m ρ c (Proc.devRef .tc main_v24) = C_v24 (F := Ideal) ((K.argsOf m c).a0) := (W3_of m ρ c main_v24 (by decide)).trans (at_v24_2 m ρ c)
theorem at_v24_4 : W4 m ρ c (Proc.devRef .tc main_v24) = C_v24 (F := Ideal) ((K.argsOf m c).a0) := (W4_of m ρ c main_v24 (by decide)).trans (at_v24_3 m ρ c)
theorem at_v24_5 : W5 m ρ c (Proc.devRef .tc main_v24) = C_v24 (F := Ideal) ((K.argsOf m c).a0) := (W5_of m ρ c main_v24 (by decide)).trans (at_v24_4 m ρ c)
theorem at_v24_6 : W6 m ρ c (Proc.devRef .tc main_v24) = C_v24 (F := Ideal) ((K.argsOf m c).a0) := (W6_of m ρ c main_v24 (by decide)).trans (at_v24_5 m ρ c)
theorem at_v24_7 : W7 m ρ c (Proc.devRef .tc main_v24) = C_v24 (F := Ideal) ((K.argsOf m c).a0) := (W7_of m ρ c main_v24 (by decide)).trans (at_v24_6 m ρ c)
theorem at_v24_8 : W8 m ρ c (Proc.devRef .tc main_v24) = C_v24 (F := Ideal) ((K.argsOf m c).a0) := (W8_of m ρ c main_v24 (by decide)).trans (at_v24_7 m ρ c)
theorem at_v24_9 : W9 m ρ c (Proc.devRef .tc main_v24) = C_v24 (F := Ideal) ((K.argsOf m c).a0) := (W9_of m ρ c main_v24 (by decide)).trans (at_v24_8 m ρ c)
theorem at_v24_10 : W10 m ρ c (Proc.devRef .tc main_v24) = C_v24 (F := Ideal) ((K.argsOf m c).a0) := (W10_of m ρ c main_v24 (by decide)).trans (at_v24_9 m ρ c)
theorem at_v24_11 : W11 m ρ c (Proc.devRef .tc main_v24) = C_v24 (F := Ideal) ((K.argsOf m c).a0) := (W11_of m ρ c main_v24 (by decide)).trans (at_v24_10 m ρ c)
theorem at_v24_12 : W12 m ρ c (Proc.devRef .tc main_v24) = C_v24 (F := Ideal) ((K.argsOf m c).a0) := (W12_of m ρ c main_v24 (by decide)).trans (at_v24_11 m ρ c)
theorem at_c_13_12 : W12 m ρ c (Proc.devRef .tc main_c_13) = C_c_13 :=
  rd_c_13 (W11 m ρ c) (K.argsOf m c)
theorem at_v107_13 : W13 m ρ c (Proc.devRef .tc main_v107) = C_v107 (F := Ideal) (C_v24 (F := Ideal) ((K.argsOf m c).a0)) (C_c_13) :=
  (congrArg (fun l => StableHlo.after l (W12 m ρ c) (Proc.devRef .tc main_v107)) hostOps1_1_eq).trans (rd_v107 (W12 m ρ c) (K.argsOf m c) (at_v24_12 m ρ c) (at_c_13_12 m ρ c))
theorem at_v107_14 : W14 m ρ c (Proc.devRef .tc main_v107) = C_v107 (F := Ideal) (C_v24 (F := Ideal) ((K.argsOf m c).a0)) (C_c_13) := (W14_of m ρ c main_v107 (by decide)).trans (at_v107_13 m ρ c)
theorem at_v107_15 : W15 m ρ c (Proc.devRef .tc main_v107) = C_v107 (F := Ideal) (C_v24 (F := Ideal) ((K.argsOf m c).a0)) (C_c_13) := (W15_of m ρ c main_v107 (by decide)).trans (at_v107_14 m ρ c)
theorem at_v99_13 : W13 m ρ c (Proc.devRef .tc main_v99) = K.la1 (K.argsOf m c) := (W13_of m ρ c main_v99 (by decide)).trans (at_v99_12 m ρ c)
theorem at_v99_14 : W14 m ρ c (Proc.devRef .tc main_v99) = K.la1 (K.argsOf m c) := (W14_of m ρ c main_v99 (by decide)).trans (at_v99_13 m ρ c)
theorem at_c_14_14 : W14 m ρ c (Proc.devRef .tc main_c_14) = C_c_14 :=
  rd_c_14 (W13 m ρ c) (K.argsOf m c)
theorem at_v108_15 : W15 m ρ c (Proc.devRef .tc main_v108) = C_v108 (F := Ideal) (K.la1 (K.argsOf m c)) (C_c_14) :=
  (congrArg (fun l => StableHlo.after l (W14 m ρ c) (Proc.devRef .tc main_v108)) hostOps1_3_eq).trans (rd_v108 (W14 m ρ c) (K.argsOf m c) (at_v99_14 m ρ c) (at_c_14_14 m ρ c))
theorem at_arg9_0 : W0 m ρ c (Proc.devRef .tc main_arg9) = (K.argsOf m c).a9 := rfl
theorem at_arg9_1 : W1 m ρ c (Proc.devRef .tc main_arg9) = (K.argsOf m c).a9 := (W1_of m ρ c main_arg9 (by decide)).trans (at_arg9_0 m ρ c)
theorem at_arg9_2 : W2 m ρ c (Proc.devRef .tc main_arg9) = (K.argsOf m c).a9 := (W2_of m ρ c main_arg9 (by decide)).trans (at_arg9_1 m ρ c)
theorem at_arg9_3 : W3 m ρ c (Proc.devRef .tc main_arg9) = (K.argsOf m c).a9 := (W3_of m ρ c main_arg9 (by decide)).trans (at_arg9_2 m ρ c)
theorem at_arg9_4 : W4 m ρ c (Proc.devRef .tc main_arg9) = (K.argsOf m c).a9 := (W4_of m ρ c main_arg9 (by decide)).trans (at_arg9_3 m ρ c)
theorem at_v41_5 : W5 m ρ c (Proc.devRef .tc main_v41) = K.P00_nW1 (K.argsOf m c) :=
  pr_v41 (W4 m ρ c) (K.argsOf m c) (at_arg9_4 m ρ c)
theorem at_v41_6 : W6 m ρ c (Proc.devRef .tc main_v41) = K.P00_nW1 (K.argsOf m c) := (W6_of m ρ c main_v41 (by decide)).trans (at_v41_5 m ρ c)
theorem at_v41_7 : W7 m ρ c (Proc.devRef .tc main_v41) = K.P00_nW1 (K.argsOf m c) := (W7_of m ρ c main_v41 (by decide)).trans (at_v41_6 m ρ c)
theorem at_v41_8 : W8 m ρ c (Proc.devRef .tc main_v41) = K.P00_nW1 (K.argsOf m c) := (W8_of m ρ c main_v41 (by decide)).trans (at_v41_7 m ρ c)
theorem at_v41_9 : W9 m ρ c (Proc.devRef .tc main_v41) = K.P00_nW1 (K.argsOf m c) := (W9_of m ρ c main_v41 (by decide)).trans (at_v41_8 m ρ c)
theorem at_v41_10 : W10 m ρ c (Proc.devRef .tc main_v41) = K.P00_nW1 (K.argsOf m c) := (W10_of m ρ c main_v41 (by decide)).trans (at_v41_9 m ρ c)
theorem at_v41_11 : W11 m ρ c (Proc.devRef .tc main_v41) = K.P00_nW1 (K.argsOf m c) := (W11_of m ρ c main_v41 (by decide)).trans (at_v41_10 m ρ c)
theorem at_v101_12 : W12 m ρ c (Proc.devRef .tc main_v101) = C_v101 (F := Ideal) (K.P00_nW1 (K.argsOf m c)) :=
  rd_v101 (W11 m ρ c) (K.argsOf m c) (at_v41_11 m ρ c)
theorem at_v101_13 : W13 m ρ c (Proc.devRef .tc main_v101) = C_v101 (F := Ideal) (K.P00_nW1 (K.argsOf m c)) := (W13_of m ρ c main_v101 (by decide)).trans (at_v101_12 m ρ c)
theorem at_v101_14 : W14 m ρ c (Proc.devRef .tc main_v101) = C_v101 (F := Ideal) (K.P00_nW1 (K.argsOf m c)) := (W14_of m ρ c main_v101 (by decide)).trans (at_v101_13 m ρ c)
theorem at_v101_15 : W15 m ρ c (Proc.devRef .tc main_v101) = C_v101 (F := Ideal) (K.P00_nW1 (K.argsOf m c)) := (W15_of m ρ c main_v101 (by decide)).trans (at_v101_14 m ρ c)
theorem at_v102_12 : W12 m ρ c (Proc.devRef .tc main_v102) = C_v102 (F := Ideal) (K.P00_nW1 (K.argsOf m c)) :=
  rd_v102 (W11 m ρ c) (K.argsOf m c) (at_v41_11 m ρ c)
theorem at_v102_13 : W13 m ρ c (Proc.devRef .tc main_v102) = C_v102 (F := Ideal) (K.P00_nW1 (K.argsOf m c)) := (W13_of m ρ c main_v102 (by decide)).trans (at_v102_12 m ρ c)
theorem at_v102_14 : W14 m ρ c (Proc.devRef .tc main_v102) = C_v102 (F := Ideal) (K.P00_nW1 (K.argsOf m c)) := (W14_of m ρ c main_v102 (by decide)).trans (at_v102_13 m ρ c)
theorem at_v102_15 : W15 m ρ c (Proc.devRef .tc main_v102) = C_v102 (F := Ideal) (K.P00_nW1 (K.argsOf m c)) := (W15_of m ρ c main_v102 (by decide)).trans (at_v102_14 m ρ c)
theorem at_arg10_0 : W0 m ρ c (Proc.devRef .tc main_arg10) = (K.argsOf m c).a10 := rfl
theorem at_arg10_1 : W1 m ρ c (Proc.devRef .tc main_arg10) = (K.argsOf m c).a10 := (W1_of m ρ c main_arg10 (by decide)).trans (at_arg10_0 m ρ c)
theorem at_arg10_2 : W2 m ρ c (Proc.devRef .tc main_arg10) = (K.argsOf m c).a10 := (W2_of m ρ c main_arg10 (by decide)).trans (at_arg10_1 m ρ c)
theorem at_arg10_3 : W3 m ρ c (Proc.devRef .tc main_arg10) = (K.argsOf m c).a10 := (W3_of m ρ c main_arg10 (by decide)).trans (at_arg10_2 m ρ c)
theorem at_arg10_4 : W4 m ρ c (Proc.devRef .tc main_arg10) = (K.argsOf m c).a10 := (W4_of m ρ c main_arg10 (by decide)).trans (at_arg10_3 m ρ c)
theorem at_v43_5 : W5 m ρ c (Proc.devRef .tc main_v43) = K.P00_nb1 (K.argsOf m c) :=
  pr_v43 (W4 m ρ c) (K.argsOf m c) (at_arg10_4 m ρ c)
theorem at_v43_6 : W6 m ρ c (Proc.devRef .tc main_v43) = K.P00_nb1 (K.argsOf m c) := (W6_of m ρ c main_v43 (by decide)).trans (at_v43_5 m ρ c)
theorem at_v43_7 : W7 m ρ c (Proc.devRef .tc main_v43) = K.P00_nb1 (K.argsOf m c) := (W7_of m ρ c main_v43 (by decide)).trans (at_v43_6 m ρ c)
theorem at_v43_8 : W8 m ρ c (Proc.devRef .tc main_v43) = K.P00_nb1 (K.argsOf m c) := (W8_of m ρ c main_v43 (by decide)).trans (at_v43_7 m ρ c)
theorem at_v43_9 : W9 m ρ c (Proc.devRef .tc main_v43) = K.P00_nb1 (K.argsOf m c) := (W9_of m ρ c main_v43 (by decide)).trans (at_v43_8 m ρ c)
theorem at_v43_10 : W10 m ρ c (Proc.devRef .tc main_v43) = K.P00_nb1 (K.argsOf m c) := (W10_of m ρ c main_v43 (by decide)).trans (at_v43_9 m ρ c)
theorem at_v43_11 : W11 m ρ c (Proc.devRef .tc main_v43) = K.P00_nb1 (K.argsOf m c) := (W11_of m ρ c main_v43 (by decide)).trans (at_v43_10 m ρ c)
theorem at_v29_5 : W5 m ρ c (Proc.devRef .tc main_v29) = K.g0 :=
  st_g0 (W4 m ρ c) (K.argsOf m c)
theorem at_v29_6 : W6 m ρ c (Proc.devRef .tc main_v29) = K.g0 := (W6_of m ρ c main_v29 (by decide)).trans (at_v29_5 m ρ c)
theorem at_v29_7 : W7 m ρ c (Proc.devRef .tc main_v29) = K.g0 := (W7_of m ρ c main_v29 (by decide)).trans (at_v29_6 m ρ c)
theorem at_v29_8 : W8 m ρ c (Proc.devRef .tc main_v29) = K.g0 := (W8_of m ρ c main_v29 (by decide)).trans (at_v29_7 m ρ c)
theorem at_v29_9 : W9 m ρ c (Proc.devRef .tc main_v29) = K.g0 := (W9_of m ρ c main_v29 (by decide)).trans (at_v29_8 m ρ c)
theorem at_v29_10 : W10 m ρ c (Proc.devRef .tc main_v29) = K.g0 := (W10_of m ρ c main_v29 (by decide)).trans (at_v29_9 m ρ c)
theorem at_v29_11 : W11 m ρ c (Proc.devRef .tc main_v29) = K.g0 := (W11_of m ρ c main_v29 (by decide)).trans (at_v29_10 m ρ c)
theorem at_v105_12 : W12 m ρ c (Proc.devRef .tc main_v105) = C_v105 (F := Ideal) (K.P00_nb1 (K.argsOf m c)) (K.g0) (K.P00_nW1 (K.argsOf m c)) :=
  rd_v105 (W11 m ρ c) (K.argsOf m c) (at_v43_11 m ρ c) (at_v29_11 m ρ c) (at_v41_11 m ρ c)
theorem at_v105_13 : W13 m ρ c (Proc.devRef .tc main_v105) = C_v105 (F := Ideal) (K.P00_nb1 (K.argsOf m c)) (K.g0) (K.P00_nW1 (K.argsOf m c)) := (W13_of m ρ c main_v105 (by decide)).trans (at_v105_12 m ρ c)
theorem at_v105_14 : W14 m ρ c (Proc.devRef .tc main_v105) = C_v105 (F := Ideal) (K.P00_nb1 (K.argsOf m c)) (K.g0) (K.P00_nW1 (K.argsOf m c)) := (W14_of m ρ c main_v105 (by decide)).trans (at_v105_13 m ρ c)
theorem at_v105_15 : W15 m ρ c (Proc.devRef .tc main_v105) = C_v105 (F := Ideal) (K.P00_nb1 (K.argsOf m c)) (K.g0) (K.P00_nW1 (K.argsOf m c)) := (W15_of m ρ c main_v105 (by decide)).trans (at_v105_14 m ρ c)
theorem at_arg11_0 : W0 m ρ c (Proc.devRef .tc main_arg11) = (K.argsOf m c).a11 := rfl
theorem at_arg11_1 : W1 m ρ c (Proc.devRef .tc main_arg11) = (K.argsOf m c).a11 := (W1_of m ρ c main_arg11 (by decide)).trans (at_arg11_0 m ρ c)
theorem at_arg11_2 : W2 m ρ c (Proc.devRef .tc main_arg11) = (K.argsOf m c).a11 := (W2_of m ρ c main_arg11 (by decide)).trans (at_arg11_1 m ρ c)
theorem at_arg11_3 : W3 m ρ c (Proc.devRef .tc main_arg11) = (K.argsOf m c).a11 := (W3_of m ρ c main_arg11 (by decide)).trans (at_arg11_2 m ρ c)
theorem at_arg11_4 : W4 m ρ c (Proc.devRef .tc main_arg11) = (K.argsOf m c).a11 := (W4_of m ρ c main_arg11 (by decide)).trans (at_arg11_3 m ρ c)
theorem at_v45_5 : W5 m ρ c (Proc.devRef .tc main_v45) = K.P00_nW2 (K.argsOf m c) :=
  pr_v45 (W4 m ρ c) (K.argsOf m c) (at_arg11_4 m ρ c)
theorem at_v45_6 : W6 m ρ c (Proc.devRef .tc main_v45) = K.P00_nW2 (K.argsOf m c) := (W6_of m ρ c main_v45 (by decide)).trans (at_v45_5 m ρ c)
theorem at_v45_7 : W7 m ρ c (Proc.devRef .tc main_v45) = K.P00_nW2 (K.argsOf m c) := (W7_of m ρ c main_v45 (by decide)).trans (at_v45_6 m ρ c)
theorem at_v45_8 : W8 m ρ c (Proc.devRef .tc main_v45) = K.P00_nW2 (K.argsOf m c) := (W8_of m ρ c main_v45 (by decide)).trans (at_v45_7 m ρ c)
theorem at_v45_9 : W9 m ρ c (Proc.devRef .tc main_v45) = K.P00_nW2 (K.argsOf m c) := (W9_of m ρ c main_v45 (by decide)).trans (at_v45_8 m ρ c)
theorem at_v45_10 : W10 m ρ c (Proc.devRef .tc main_v45) = K.P00_nW2 (K.argsOf m c) := (W10_of m ρ c main_v45 (by decide)).trans (at_v45_9 m ρ c)
theorem at_v45_11 : W11 m ρ c (Proc.devRef .tc main_v45) = K.P00_nW2 (K.argsOf m c) := (W11_of m ρ c main_v45 (by decide)).trans (at_v45_10 m ρ c)
theorem at_v45_12 : W12 m ρ c (Proc.devRef .tc main_v45) = K.P00_nW2 (K.argsOf m c) := (W12_of m ρ c main_v45 (by decide)).trans (at_v45_11 m ρ c)
theorem at_v45_13 : W13 m ρ c (Proc.devRef .tc main_v45) = K.P00_nW2 (K.argsOf m c) := (W13_of m ρ c main_v45 (by decide)).trans (at_v45_12 m ρ c)
theorem at_v45_14 : W14 m ρ c (Proc.devRef .tc main_v45) = K.P00_nW2 (K.argsOf m c) := (W14_of m ρ c main_v45 (by decide)).trans (at_v45_13 m ρ c)
theorem at_v45_15 : W15 m ρ c (Proc.devRef .tc main_v45) = K.P00_nW2 (K.argsOf m c) := (W15_of m ρ c main_v45 (by decide)).trans (at_v45_14 m ρ c)
theorem at_arg12_0 : W0 m ρ c (Proc.devRef .tc main_arg12) = (K.argsOf m c).a12 := rfl
theorem at_arg12_1 : W1 m ρ c (Proc.devRef .tc main_arg12) = (K.argsOf m c).a12 := (W1_of m ρ c main_arg12 (by decide)).trans (at_arg12_0 m ρ c)
theorem at_arg12_2 : W2 m ρ c (Proc.devRef .tc main_arg12) = (K.argsOf m c).a12 := (W2_of m ρ c main_arg12 (by decide)).trans (at_arg12_1 m ρ c)
theorem at_arg12_3 : W3 m ρ c (Proc.devRef .tc main_arg12) = (K.argsOf m c).a12 := (W3_of m ρ c main_arg12 (by decide)).trans (at_arg12_2 m ρ c)
theorem at_arg12_4 : W4 m ρ c (Proc.devRef .tc main_arg12) = (K.argsOf m c).a12 := (W4_of m ρ c main_arg12 (by decide)).trans (at_arg12_3 m ρ c)
theorem at_v47_5 : W5 m ρ c (Proc.devRef .tc main_v47) = K.P00_nb2 (K.argsOf m c) :=
  pr_v47 (W4 m ρ c) (K.argsOf m c) (at_arg12_4 m ρ c)
theorem at_v47_6 : W6 m ρ c (Proc.devRef .tc main_v47) = K.P00_nb2 (K.argsOf m c) := (W6_of m ρ c main_v47 (by decide)).trans (at_v47_5 m ρ c)
theorem at_v47_7 : W7 m ρ c (Proc.devRef .tc main_v47) = K.P00_nb2 (K.argsOf m c) := (W7_of m ρ c main_v47 (by decide)).trans (at_v47_6 m ρ c)
theorem at_v47_8 : W8 m ρ c (Proc.devRef .tc main_v47) = K.P00_nb2 (K.argsOf m c) := (W8_of m ρ c main_v47 (by decide)).trans (at_v47_7 m ρ c)
theorem at_v47_9 : W9 m ρ c (Proc.devRef .tc main_v47) = K.P00_nb2 (K.argsOf m c) := (W9_of m ρ c main_v47 (by decide)).trans (at_v47_8 m ρ c)
theorem at_v47_10 : W10 m ρ c (Proc.devRef .tc main_v47) = K.P00_nb2 (K.argsOf m c) := (W10_of m ρ c main_v47 (by decide)).trans (at_v47_9 m ρ c)
theorem at_v47_11 : W11 m ρ c (Proc.devRef .tc main_v47) = K.P00_nb2 (K.argsOf m c) := (W11_of m ρ c main_v47 (by decide)).trans (at_v47_10 m ρ c)
theorem at_v106_12 : W12 m ρ c (Proc.devRef .tc main_v106) = C_v106 (F := Ideal) (K.P00_nb2 (K.argsOf m c)) :=
  rd_v106 (W11 m ρ c) (K.argsOf m c) (at_v47_11 m ρ c)
theorem at_v106_13 : W13 m ρ c (Proc.devRef .tc main_v106) = C_v106 (F := Ideal) (K.P00_nb2 (K.argsOf m c)) := (W13_of m ρ c main_v106 (by decide)).trans (at_v106_12 m ρ c)
theorem at_v106_14 : W14 m ρ c (Proc.devRef .tc main_v106) = C_v106 (F := Ideal) (K.P00_nb2 (K.argsOf m c)) := (W14_of m ρ c main_v106 (by decide)).trans (at_v106_13 m ρ c)
theorem at_v106_15 : W15 m ρ c (Proc.devRef .tc main_v106) = C_v106 (F := Ideal) (K.P00_nb2 (K.argsOf m c)) := (W15_of m ρ c main_v106 (by decide)).trans (at_v106_14 m ρ c)
theorem at_v109_16 : W16 m ρ c (Proc.devRef .tc main_v109) = K.nodeFn (C_v107 (F := Ideal) (C_v24 (F := Ideal) ((K.argsOf m c).a0)) (C_c_13)) (C_v108 (F := Ideal) (K.la1 (K.argsOf m c)) (C_c_14)) (C_v101 (F := Ideal) (K.P00_nW1 (K.argsOf m c))) (C_v102 (F := Ideal) (K.P00_nW1 (K.argsOf m c))) (C_v105 (F := Ideal) (K.P00_nb1 (K.argsOf m c)) (K.g0) (K.P00_nW1 (K.argsOf m c))) (K.P00_nW2 (K.argsOf m c)) (C_v106 (F := Ideal) (K.P00_nb2 (K.argsOf m c))) :=
  (R1_read m ρ c).trans (by rw [at_v107_15 m ρ c, at_v108_15 m ρ c, at_v101_15 m ρ c, at_v102_15 m ρ c, at_v105_15 m ρ c, at_v45_15 m ρ c, at_v106_15 m ρ c])
theorem at_v110_17 : W17 m ρ c (Proc.devRef .tc main_v110) = K.ln1 (K.argsOf m c) :=
  st_ln1 (W16 m ρ c) (K.argsOf m c) (at_v109_16 m ρ c)
theorem at_v94_13 : W13 m ρ c (Proc.devRef .tc main_v94) = K.le1 (K.argsOf m c) := (W13_of m ρ c main_v94 (by decide)).trans (at_v94_12 m ρ c)
theorem at_v94_14 : W14 m ρ c (Proc.devRef .tc main_v94) = K.le1 (K.argsOf m c) := (W14_of m ρ c main_v94 (by decide)).trans (at_v94_13 m ρ c)
theorem at_v94_15 : W15 m ρ c (Proc.devRef .tc main_v94) = K.le1 (K.argsOf m c) := (W15_of m ρ c main_v94 (by decide)).trans (at_v94_14 m ρ c)
theorem at_v94_16 : W16 m ρ c (Proc.devRef .tc main_v94) = K.le1 (K.argsOf m c) := (W16_of m ρ c main_v94 (by decide)).trans (at_v94_15 m ρ c)
theorem at_v29_12 : W12 m ρ c (Proc.devRef .tc main_v29) = K.g0 := (W12_of m ρ c main_v29 (by decide)).trans (at_v29_11 m ρ c)
theorem at_v29_13 : W13 m ρ c (Proc.devRef .tc main_v29) = K.g0 := (W13_of m ρ c main_v29 (by decide)).trans (at_v29_12 m ρ c)
theorem at_v29_14 : W14 m ρ c (Proc.devRef .tc main_v29) = K.g0 := (W14_of m ρ c main_v29 (by decide)).trans (at_v29_13 m ρ c)
theorem at_v29_15 : W15 m ρ c (Proc.devRef .tc main_v29) = K.g0 := (W15_of m ρ c main_v29 (by decide)).trans (at_v29_14 m ρ c)
theorem at_v29_16 : W16 m ρ c (Proc.devRef .tc main_v29) = K.g0 := (W16_of m ρ c main_v29 (by decide)).trans (at_v29_15 m ρ c)
theorem at_arg13_0 : W0 m ρ c (Proc.devRef .tc main_arg13) = (K.argsOf m c).a13 := rfl
theorem at_arg13_1 : W1 m ρ c (Proc.devRef .tc main_arg13) = (K.argsOf m c).a13 := (W1_of m ρ c main_arg13 (by decide)).trans (at_arg13_0 m ρ c)
theorem at_arg13_2 : W2 m ρ c (Proc.devRef .tc main_arg13) = (K.argsOf m c).a13 := (W2_of m ρ c main_arg13 (by decide)).trans (at_arg13_1 m ρ c)
theorem at_arg13_3 : W3 m ρ c (Proc.devRef .tc main_arg13) = (K.argsOf m c).a13 := (W3_of m ρ c main_arg13 (by decide)).trans (at_arg13_2 m ρ c)
theorem at_arg13_4 : W4 m ρ c (Proc.devRef .tc main_arg13) = (K.argsOf m c).a13 := (W4_of m ρ c main_arg13 (by decide)).trans (at_arg13_3 m ρ c)
theorem at_v49_5 : W5 m ρ c (Proc.devRef .tc main_v49) = K.P00_gW1 (K.argsOf m c) :=
  pr_v49 (W4 m ρ c) (K.argsOf m c) (at_arg13_4 m ρ c)
theorem at_v49_6 : W6 m ρ c (Proc.devRef .tc main_v49) = K.P00_gW1 (K.argsOf m c) := (W6_of m ρ c main_v49 (by decide)).trans (at_v49_5 m ρ c)
theorem at_v49_7 : W7 m ρ c (Proc.devRef .tc main_v49) = K.P00_gW1 (K.argsOf m c) := (W7_of m ρ c main_v49 (by decide)).trans (at_v49_6 m ρ c)
theorem at_v49_8 : W8 m ρ c (Proc.devRef .tc main_v49) = K.P00_gW1 (K.argsOf m c) := (W8_of m ρ c main_v49 (by decide)).trans (at_v49_7 m ρ c)
theorem at_v49_9 : W9 m ρ c (Proc.devRef .tc main_v49) = K.P00_gW1 (K.argsOf m c) := (W9_of m ρ c main_v49 (by decide)).trans (at_v49_8 m ρ c)
theorem at_v49_10 : W10 m ρ c (Proc.devRef .tc main_v49) = K.P00_gW1 (K.argsOf m c) := (W10_of m ρ c main_v49 (by decide)).trans (at_v49_9 m ρ c)
theorem at_v49_11 : W11 m ρ c (Proc.devRef .tc main_v49) = K.P00_gW1 (K.argsOf m c) := (W11_of m ρ c main_v49 (by decide)).trans (at_v49_10 m ρ c)
theorem at_v49_12 : W12 m ρ c (Proc.devRef .tc main_v49) = K.P00_gW1 (K.argsOf m c) := (W12_of m ρ c main_v49 (by decide)).trans (at_v49_11 m ρ c)
theorem at_v49_13 : W13 m ρ c (Proc.devRef .tc main_v49) = K.P00_gW1 (K.argsOf m c) := (W13_of m ρ c main_v49 (by decide)).trans (at_v49_12 m ρ c)
theorem at_v49_14 : W14 m ρ c (Proc.devRef .tc main_v49) = K.P00_gW1 (K.argsOf m c) := (W14_of m ρ c main_v49 (by decide)).trans (at_v49_13 m ρ c)
theorem at_v49_15 : W15 m ρ c (Proc.devRef .tc main_v49) = K.P00_gW1 (K.argsOf m c) := (W15_of m ρ c main_v49 (by decide)).trans (at_v49_14 m ρ c)
theorem at_v49_16 : W16 m ρ c (Proc.devRef .tc main_v49) = K.P00_gW1 (K.argsOf m c) := (W16_of m ρ c main_v49 (by decide)).trans (at_v49_15 m ρ c)
theorem at_arg14_0 : W0 m ρ c (Proc.devRef .tc main_arg14) = (K.argsOf m c).a14 := rfl
theorem at_arg14_1 : W1 m ρ c (Proc.devRef .tc main_arg14) = (K.argsOf m c).a14 := (W1_of m ρ c main_arg14 (by decide)).trans (at_arg14_0 m ρ c)
theorem at_arg14_2 : W2 m ρ c (Proc.devRef .tc main_arg14) = (K.argsOf m c).a14 := (W2_of m ρ c main_arg14 (by decide)).trans (at_arg14_1 m ρ c)
theorem at_arg14_3 : W3 m ρ c (Proc.devRef .tc main_arg14) = (K.argsOf m c).a14 := (W3_of m ρ c main_arg14 (by decide)).trans (at_arg14_2 m ρ c)
theorem at_arg14_4 : W4 m ρ c (Proc.devRef .tc main_arg14) = (K.argsOf m c).a14 := (W4_of m ρ c main_arg14 (by decide)).trans (at_arg14_3 m ρ c)
theorem at_v51_5 : W5 m ρ c (Proc.devRef .tc main_v51) = K.P00_gb1 (K.argsOf m c) :=
  pr_v51 (W4 m ρ c) (K.argsOf m c) (at_arg14_4 m ρ c)
theorem at_v51_6 : W6 m ρ c (Proc.devRef .tc main_v51) = K.P00_gb1 (K.argsOf m c) := (W6_of m ρ c main_v51 (by decide)).trans (at_v51_5 m ρ c)
theorem at_v51_7 : W7 m ρ c (Proc.devRef .tc main_v51) = K.P00_gb1 (K.argsOf m c) := (W7_of m ρ c main_v51 (by decide)).trans (at_v51_6 m ρ c)
theorem at_v51_8 : W8 m ρ c (Proc.devRef .tc main_v51) = K.P00_gb1 (K.argsOf m c) := (W8_of m ρ c main_v51 (by decide)).trans (at_v51_7 m ρ c)
theorem at_v51_9 : W9 m ρ c (Proc.devRef .tc main_v51) = K.P00_gb1 (K.argsOf m c) := (W9_of m ρ c main_v51 (by decide)).trans (at_v51_8 m ρ c)
theorem at_v51_10 : W10 m ρ c (Proc.devRef .tc main_v51) = K.P00_gb1 (K.argsOf m c) := (W10_of m ρ c main_v51 (by decide)).trans (at_v51_9 m ρ c)
theorem at_v51_11 : W11 m ρ c (Proc.devRef .tc main_v51) = K.P00_gb1 (K.argsOf m c) := (W11_of m ρ c main_v51 (by decide)).trans (at_v51_10 m ρ c)
theorem at_v51_12 : W12 m ρ c (Proc.devRef .tc main_v51) = K.P00_gb1 (K.argsOf m c) := (W12_of m ρ c main_v51 (by decide)).trans (at_v51_11 m ρ c)
theorem at_v51_13 : W13 m ρ c (Proc.devRef .tc main_v51) = K.P00_gb1 (K.argsOf m c) := (W13_of m ρ c main_v51 (by decide)).trans (at_v51_12 m ρ c)
theorem at_v51_14 : W14 m ρ c (Proc.devRef .tc main_v51) = K.P00_gb1 (K.argsOf m c) := (W14_of m ρ c main_v51 (by decide)).trans (at_v51_13 m ρ c)
theorem at_v51_15 : W15 m ρ c (Proc.devRef .tc main_v51) = K.P00_gb1 (K.argsOf m c) := (W15_of m ρ c main_v51 (by decide)).trans (at_v51_14 m ρ c)
theorem at_v51_16 : W16 m ρ c (Proc.devRef .tc main_v51) = K.P00_gb1 (K.argsOf m c) := (W16_of m ρ c main_v51 (by decide)).trans (at_v51_15 m ρ c)
theorem at_v123_17 : W17 m ρ c (Proc.devRef .tc main_v123) = C_v123 (F := Ideal) (K.nodeFn (C_v107 (F := Ideal) (C_v24 (F := Ideal) ((K.argsOf m c).a0)) (C_c_13)) (C_v108 (F := Ideal) (K.la1 (K.argsOf m c)) (C_c_14)) (C_v101 (F := Ideal) (K.P00_nW1 (K.argsOf m c))) (C_v102 (F := Ideal) (K.P00_nW1 (K.argsOf m c))) (C_v105 (F := Ideal) (K.P00_nb1 (K.argsOf m c)) (K.g0) (K.P00_nW1 (K.argsOf m c))) (K.P00_nW2 (K.argsOf m c)) (C_v106 (F := Ideal) (K.P00_nb2 (K.argsOf m c)))) (K.le1 (K.argsOf m c)) (K.g0) (K.P00_gW1 (K.argsOf m c)) (K.P00_gb1 (K.argsOf m c)) :=
  rd_v123 (W16 m ρ c) (K.argsOf m c) (at_v109_16 m ρ c) (at_v94_16 m ρ c) (at_v29_16 m ρ c) (at_v49_16 m ρ c) (at_v51_16 m ρ c)
theorem at_v124_18 : W18 m ρ c (Proc.devRef .tc main_v124) = C_v124 (F := Ideal) (C_v123 (F := Ideal) (K.nodeFn (C_v107 (F := Ideal) (C_v24 (F := Ideal) ((K.argsOf m c).a0)) (C_c_13)) (C_v108 (F := Ideal) (K.la1 (K.argsOf m c)) (C_c_14)) (C_v101 (F := Ideal) (K.P00_nW1 (K.argsOf m c))) (C_v102 (F := Ideal) (K.P00_nW1 (K.argsOf m c))) (C_v105 (F := Ideal) (K.P00_nb1 (K.argsOf m c)) (K.g0) (K.P00_nW1 (K.argsOf m c))) (K.P00_nW2 (K.argsOf m c)) (C_v106 (F := Ideal) (K.P00_nb2 (K.argsOf m c)))) (K.le1 (K.argsOf m c)) (K.g0) (K.P00_gW1 (K.argsOf m c)) (K.P00_gb1 (K.argsOf m c))) :=
  (congrArg (fun l => StableHlo.after l (W17 m ρ c) (Proc.devRef .tc main_v124)) hostOps2_1_eq).trans (rd_v124 (W17 m ρ c) (K.argsOf m c) (at_v123_17 m ρ c))
theorem at_arg15_0 : W0 m ρ c (Proc.devRef .tc main_arg15) = (K.argsOf m c).a15 := rfl
theorem at_arg15_1 : W1 m ρ c (Proc.devRef .tc main_arg15) = (K.argsOf m c).a15 := (W1_of m ρ c main_arg15 (by decide)).trans (at_arg15_0 m ρ c)
theorem at_arg15_2 : W2 m ρ c (Proc.devRef .tc main_arg15) = (K.argsOf m c).a15 := (W2_of m ρ c main_arg15 (by decide)).trans (at_arg15_1 m ρ c)
theorem at_arg15_3 : W3 m ρ c (Proc.devRef .tc main_arg15) = (K.argsOf m c).a15 := (W3_of m ρ c main_arg15 (by decide)).trans (at_arg15_2 m ρ c)
theorem at_arg15_4 : W4 m ρ c (Proc.devRef .tc main_arg15) = (K.argsOf m c).a15 := (W4_of m ρ c main_arg15 (by decide)).trans (at_arg15_3 m ρ c)
theorem at_v53_5 : W5 m ρ c (Proc.devRef .tc main_v53) = K.P00_gW2 (K.argsOf m c) :=
  pr_v53 (W4 m ρ c) (K.argsOf m c) (at_arg15_4 m ρ c)
theorem at_v53_6 : W6 m ρ c (Proc.devRef .tc main_v53) = K.P00_gW2 (K.argsOf m c) := (W6_of m ρ c main_v53 (by decide)).trans (at_v53_5 m ρ c)
theorem at_v53_7 : W7 m ρ c (Proc.devRef .tc main_v53) = K.P00_gW2 (K.argsOf m c) := (W7_of m ρ c main_v53 (by decide)).trans (at_v53_6 m ρ c)
theorem at_v53_8 : W8 m ρ c (Proc.devRef .tc main_v53) = K.P00_gW2 (K.argsOf m c) := (W8_of m ρ c main_v53 (by decide)).trans (at_v53_7 m ρ c)
theorem at_v53_9 : W9 m ρ c (Proc.devRef .tc main_v53) = K.P00_gW2 (K.argsOf m c) := (W9_of m ρ c main_v53 (by decide)).trans (at_v53_8 m ρ c)
theorem at_v53_10 : W10 m ρ c (Proc.devRef .tc main_v53) = K.P00_gW2 (K.argsOf m c) := (W10_of m ρ c main_v53 (by decide)).trans (at_v53_9 m ρ c)
theorem at_v53_11 : W11 m ρ c (Proc.devRef .tc main_v53) = K.P00_gW2 (K.argsOf m c) := (W11_of m ρ c main_v53 (by decide)).trans (at_v53_10 m ρ c)
theorem at_v53_12 : W12 m ρ c (Proc.devRef .tc main_v53) = K.P00_gW2 (K.argsOf m c) := (W12_of m ρ c main_v53 (by decide)).trans (at_v53_11 m ρ c)
theorem at_v53_13 : W13 m ρ c (Proc.devRef .tc main_v53) = K.P00_gW2 (K.argsOf m c) := (W13_of m ρ c main_v53 (by decide)).trans (at_v53_12 m ρ c)
theorem at_v53_14 : W14 m ρ c (Proc.devRef .tc main_v53) = K.P00_gW2 (K.argsOf m c) := (W14_of m ρ c main_v53 (by decide)).trans (at_v53_13 m ρ c)
theorem at_v53_15 : W15 m ρ c (Proc.devRef .tc main_v53) = K.P00_gW2 (K.argsOf m c) := (W15_of m ρ c main_v53 (by decide)).trans (at_v53_14 m ρ c)
theorem at_v53_16 : W16 m ρ c (Proc.devRef .tc main_v53) = K.P00_gW2 (K.argsOf m c) := (W16_of m ρ c main_v53 (by decide)).trans (at_v53_15 m ρ c)
theorem at_v53_17 : W17 m ρ c (Proc.devRef .tc main_v53) = K.P00_gW2 (K.argsOf m c) := (W17_of m ρ c main_v53 (by decide)).trans (at_v53_16 m ρ c)
theorem at_v53_18 : W18 m ρ c (Proc.devRef .tc main_v53) = K.P00_gW2 (K.argsOf m c) := (W18_of m ρ c main_v53 (by decide)).trans (at_v53_17 m ρ c)
theorem at_arg16_0 : W0 m ρ c (Proc.devRef .tc main_arg16) = (K.argsOf m c).a16 := rfl
theorem at_arg16_1 : W1 m ρ c (Proc.devRef .tc main_arg16) = (K.argsOf m c).a16 := (W1_of m ρ c main_arg16 (by decide)).trans (at_arg16_0 m ρ c)
theorem at_arg16_2 : W2 m ρ c (Proc.devRef .tc main_arg16) = (K.argsOf m c).a16 := (W2_of m ρ c main_arg16 (by decide)).trans (at_arg16_1 m ρ c)
theorem at_arg16_3 : W3 m ρ c (Proc.devRef .tc main_arg16) = (K.argsOf m c).a16 := (W3_of m ρ c main_arg16 (by decide)).trans (at_arg16_2 m ρ c)
theorem at_arg16_4 : W4 m ρ c (Proc.devRef .tc main_arg16) = (K.argsOf m c).a16 := (W4_of m ρ c main_arg16 (by decide)).trans (at_arg16_3 m ρ c)
theorem at_v55_5 : W5 m ρ c (Proc.devRef .tc main_v55) = K.P00_gb2 (K.argsOf m c) :=
  pr_v55 (W4 m ρ c) (K.argsOf m c) (at_arg16_4 m ρ c)
theorem at_v55_6 : W6 m ρ c (Proc.devRef .tc main_v55) = K.P00_gb2 (K.argsOf m c) := (W6_of m ρ c main_v55 (by decide)).trans (at_v55_5 m ρ c)
theorem at_v55_7 : W7 m ρ c (Proc.devRef .tc main_v55) = K.P00_gb2 (K.argsOf m c) := (W7_of m ρ c main_v55 (by decide)).trans (at_v55_6 m ρ c)
theorem at_v55_8 : W8 m ρ c (Proc.devRef .tc main_v55) = K.P00_gb2 (K.argsOf m c) := (W8_of m ρ c main_v55 (by decide)).trans (at_v55_7 m ρ c)
theorem at_v55_9 : W9 m ρ c (Proc.devRef .tc main_v55) = K.P00_gb2 (K.argsOf m c) := (W9_of m ρ c main_v55 (by decide)).trans (at_v55_8 m ρ c)
theorem at_v55_10 : W10 m ρ c (Proc.devRef .tc main_v55) = K.P00_gb2 (K.argsOf m c) := (W10_of m ρ c main_v55 (by decide)).trans (at_v55_9 m ρ c)
theorem at_v55_11 : W11 m ρ c (Proc.devRef .tc main_v55) = K.P00_gb2 (K.argsOf m c) := (W11_of m ρ c main_v55 (by decide)).trans (at_v55_10 m ρ c)
theorem at_v55_12 : W12 m ρ c (Proc.devRef .tc main_v55) = K.P00_gb2 (K.argsOf m c) := (W12_of m ρ c main_v55 (by decide)).trans (at_v55_11 m ρ c)
theorem at_v55_13 : W13 m ρ c (Proc.devRef .tc main_v55) = K.P00_gb2 (K.argsOf m c) := (W13_of m ρ c main_v55 (by decide)).trans (at_v55_12 m ρ c)
theorem at_v55_14 : W14 m ρ c (Proc.devRef .tc main_v55) = K.P00_gb2 (K.argsOf m c) := (W14_of m ρ c main_v55 (by decide)).trans (at_v55_13 m ρ c)
theorem at_v55_15 : W15 m ρ c (Proc.devRef .tc main_v55) = K.P00_gb2 (K.argsOf m c) := (W15_of m ρ c main_v55 (by decide)).trans (at_v55_14 m ρ c)
theorem at_v55_16 : W16 m ρ c (Proc.devRef .tc main_v55) = K.P00_gb2 (K.argsOf m c) := (W16_of m ρ c main_v55 (by decide)).trans (at_v55_15 m ρ c)
theorem at_v121_17 : W17 m ρ c (Proc.devRef .tc main_v121) = C_v121 (F := Ideal) (K.P00_gb2 (K.argsOf m c)) :=
  rd_v121 (W16 m ρ c) (K.argsOf m c) (at_v55_16 m ρ c)
theorem at_v121_18 : W18 m ρ c (Proc.devRef .tc main_v121) = C_v121 (F := Ideal) (K.P00_gb2 (K.argsOf m c)) := (W18_of m ρ c main_v121 (by decide)).trans (at_v121_17 m ρ c)
theorem at_v126_19 : W19 m ρ c (Proc.devRef .tc main_v126) = K.g1 (K.argsOf m c) :=
  st_g1 (W18 m ρ c) (K.argsOf m c) (at_v124_18 m ρ c) (at_v53_18 m ρ c) (at_v121_18 m ρ c)
theorem at_arg4_0 : W0 m ρ c (Proc.devRef .tc main_arg4) = (K.argsOf m c).a4 := rfl
theorem at_arg4_1 : W1 m ρ c (Proc.devRef .tc main_arg4) = (K.argsOf m c).a4 := (W1_of m ρ c main_arg4 (by decide)).trans (at_arg4_0 m ρ c)
theorem at_arg4_2 : W2 m ρ c (Proc.devRef .tc main_arg4) = (K.argsOf m c).a4 := (W2_of m ρ c main_arg4 (by decide)).trans (at_arg4_1 m ρ c)
theorem at_arg4_3 : W3 m ρ c (Proc.devRef .tc main_arg4) = (K.argsOf m c).a4 := (W3_of m ρ c main_arg4 (by decide)).trans (at_arg4_2 m ρ c)
theorem at_arg4_4 : W4 m ρ c (Proc.devRef .tc main_arg4) = (K.argsOf m c).a4 := (W4_of m ρ c main_arg4 (by decide)).trans (at_arg4_3 m ρ c)
theorem at_arg4_5 : W5 m ρ c (Proc.devRef .tc main_arg4) = (K.argsOf m c).a4 := (W5_of m ρ c main_arg4 (by decide)).trans (at_arg4_4 m ρ c)
theorem at_arg4_6 : W6 m ρ c (Proc.devRef .tc main_arg4) = (K.argsOf m c).a4 := (W6_of m ρ c main_arg4 (by decide)).trans (at_arg4_5 m ρ c)
theorem at_arg4_7 : W7 m ρ c (Proc.devRef .tc main_arg4) = (K.argsOf m c).a4 := (W7_of m ρ c main_arg4 (by decide)).trans (at_arg4_6 m ρ c)
theorem at_arg4_8 : W8 m ρ c (Proc.devRef .tc main_arg4) = (K.argsOf m c).a4 := (W8_of m ρ c main_arg4 (by decide)).trans (at_arg4_7 m ρ c)
theorem at_arg4_9 : W9 m ρ c (Proc.devRef .tc main_arg4) = (K.argsOf m c).a4 := (W9_of m ρ c main_arg4 (by decide)).trans (at_arg4_8 m ρ c)
theorem at_arg4_10 : W10 m ρ c (Proc.devRef .tc main_arg4) = (K.argsOf m c).a4 := (W10_of m ρ c main_arg4 (by decide)).trans (at_arg4_9 m ρ c)
theorem at_arg4_11 : W11 m ρ c (Proc.devRef .tc main_arg4) = (K.argsOf m c).a4 := (W11_of m ρ c main_arg4 (by decide)).trans (at_arg4_10 m ρ c)
theorem at_arg4_12 : W12 m ρ c (Proc.devRef .tc main_arg4) = (K.argsOf m c).a4 := (W12_of m ρ c main_arg4 (by decide)).trans (at_arg4_11 m ρ c)
theorem at_arg4_13 : W13 m ρ c (Proc.devRef .tc main_arg4) = (K.argsOf m c).a4 := (W13_of m ρ c main_arg4 (by decide)).trans (at_arg4_12 m ρ c)
theorem at_arg4_14 : W14 m ρ c (Proc.devRef .tc main_arg4) = (K.argsOf m c).a4 := (W14_of m ρ c main_arg4 (by decide)).trans (at_arg4_13 m ρ c)
theorem at_arg4_15 : W15 m ρ c (Proc.devRef .tc main_arg4) = (K.argsOf m c).a4 := (W15_of m ρ c main_arg4 (by decide)).trans (at_arg4_14 m ρ c)
theorem at_arg4_16 : W16 m ρ c (Proc.devRef .tc main_arg4) = (K.argsOf m c).a4 := (W16_of m ρ c main_arg4 (by decide)).trans (at_arg4_15 m ρ c)
theorem at_arg4_17 : W17 m ρ c (Proc.devRef .tc main_arg4) = (K.argsOf m c).a4 := (W17_of m ρ c main_arg4 (by decide)).trans (at_arg4_16 m ρ c)
theorem at_arg4_18 : W18 m ρ c (Proc.devRef .tc main_arg4) = (K.argsOf m c).a4 := (W18_of m ρ c main_arg4 (by decide)).trans (at_arg4_17 m ρ c)
theorem at_v31_5 : W5 m ρ c (Proc.devRef .tc main_v31) = K.zcol :=
  st_zcol (W4 m ρ c) (K.argsOf m c)
theorem at_v31_6 : W6 m ρ c (Proc.devRef .tc main_v31) = K.zcol := (W6_of m ρ c main_v31 (by decide)).trans (at_v31_5 m ρ c)
theorem at_v31_7 : W7 m ρ c (Proc.devRef .tc main_v31) = K.zcol := (W7_of m ρ c main_v31 (by decide)).trans (at_v31_6 m ρ c)
theorem at_v31_8 : W8 m ρ c (Proc.devRef .tc main_v31) = K.zcol := (W8_of m ρ c main_v31 (by decide)).trans (at_v31_7 m ρ c)
theorem at_v31_9 : W9 m ρ c (Proc.devRef .tc main_v31) = K.zcol := (W9_of m ρ c main_v31 (by decide)).trans (at_v31_8 m ρ c)
theorem at_v31_10 : W10 m ρ c (Proc.devRef .tc main_v31) = K.zcol := (W10_of m ρ c main_v31 (by decide)).trans (at_v31_9 m ρ c)
theorem at_v31_11 : W11 m ρ c (Proc.devRef .tc main_v31) = K.zcol := (W11_of m ρ c main_v31 (by decide)).trans (at_v31_10 m ρ c)
theorem at_v31_12 : W12 m ρ c (Proc.devRef .tc main_v31) = K.zcol := (W12_of m ρ c main_v31 (by decide)).trans (at_v31_11 m ρ c)
theorem at_v31_13 : W13 m ρ c (Proc.devRef .tc main_v31) = K.zcol := (W13_of m ρ c main_v31 (by decide)).trans (at_v31_12 m ρ c)
theorem at_v31_14 : W14 m ρ c (Proc.devRef .tc main_v31) = K.zcol := (W14_of m ρ c main_v31 (by decide)).trans (at_v31_13 m ρ c)
theorem at_v31_15 : W15 m ρ c (Proc.devRef .tc main_v31) = K.zcol := (W15_of m ρ c main_v31 (by decide)).trans (at_v31_14 m ρ c)
theorem at_v31_16 : W16 m ρ c (Proc.devRef .tc main_v31) = K.zcol := (W16_of m ρ c main_v31 (by decide)).trans (at_v31_15 m ρ c)
theorem at_v31_17 : W17 m ρ c (Proc.devRef .tc main_v31) = K.zcol := (W17_of m ρ c main_v31 (by decide)).trans (at_v31_16 m ρ c)
theorem at_v31_18 : W18 m ρ c (Proc.devRef .tc main_v31) = K.zcol := (W18_of m ρ c main_v31 (by decide)).trans (at_v31_17 m ρ c)
theorem at_v127_19 : W19 m ρ c (Proc.devRef .tc main_v127) = K.uin0 (K.argsOf m c) :=
  st_uin0 (W18 m ρ c) (K.argsOf m c) (at_arg4_18 m ρ c) (at_v31_18 m ρ c)
theorem at_v5_2 : W2 m ρ c (Proc.devRef .tc main_v5) = K.ur (K.argsOf m c) := (W2_of m ρ c main_v5 (by decide)).trans (at_v5_1 m ρ c)
theorem at_v5_3 : W3 m ρ c (Proc.devRef .tc main_v5) = K.ur (K.argsOf m c) := (W3_of m ρ c main_v5 (by decide)).trans (at_v5_2 m ρ c)
theorem at_v5_4 : W4 m ρ c (Proc.devRef .tc main_v5) = K.ur (K.argsOf m c) := (W4_of m ρ c main_v5 (by decide)).trans (at_v5_3 m ρ c)
theorem at_v5_5 : W5 m ρ c (Proc.devRef .tc main_v5) = K.ur (K.argsOf m c) := (W5_of m ρ c main_v5 (by decide)).trans (at_v5_4 m ρ c)
theorem at_v5_6 : W6 m ρ c (Proc.devRef .tc main_v5) = K.ur (K.argsOf m c) := (W6_of m ρ c main_v5 (by decide)).trans (at_v5_5 m ρ c)
theorem at_v5_7 : W7 m ρ c (Proc.devRef .tc main_v5) = K.ur (K.argsOf m c) := (W7_of m ρ c main_v5 (by decide)).trans (at_v5_6 m ρ c)
theorem at_v5_8 : W8 m ρ c (Proc.devRef .tc main_v5) = K.ur (K.argsOf m c) := (W8_of m ρ c main_v5 (by decide)).trans (at_v5_7 m ρ c)
theorem at_v5_9 : W9 m ρ c (Proc.devRef .tc main_v5) = K.ur (K.argsOf m c) := (W9_of m ρ c main_v5 (by decide)).trans (at_v5_8 m ρ c)
theorem at_v5_10 : W10 m ρ c (Proc.devRef .tc main_v5) = K.ur (K.argsOf m c) := (W10_of m ρ c main_v5 (by decide)).trans (at_v5_9 m ρ c)
theorem at_v5_11 : W11 m ρ c (Proc.devRef .tc main_v5) = K.ur (K.argsOf m c) := (W11_of m ρ c main_v5 (by decide)).trans (at_v5_10 m ρ c)
theorem at_v5_12 : W12 m ρ c (Proc.devRef .tc main_v5) = K.ur (K.argsOf m c) := (W12_of m ρ c main_v5 (by decide)).trans (at_v5_11 m ρ c)
theorem at_v5_13 : W13 m ρ c (Proc.devRef .tc main_v5) = K.ur (K.argsOf m c) := (W13_of m ρ c main_v5 (by decide)).trans (at_v5_12 m ρ c)
theorem at_v5_14 : W14 m ρ c (Proc.devRef .tc main_v5) = K.ur (K.argsOf m c) := (W14_of m ρ c main_v5 (by decide)).trans (at_v5_13 m ρ c)
theorem at_v5_15 : W15 m ρ c (Proc.devRef .tc main_v5) = K.ur (K.argsOf m c) := (W15_of m ρ c main_v5 (by decide)).trans (at_v5_14 m ρ c)
theorem at_v5_16 : W16 m ρ c (Proc.devRef .tc main_v5) = K.ur (K.argsOf m c) := (W16_of m ρ c main_v5 (by decide)).trans (at_v5_15 m ρ c)
theorem at_v5_17 : W17 m ρ c (Proc.devRef .tc main_v5) = K.ur (K.argsOf m c) := (W17_of m ρ c main_v5 (by decide)).trans (at_v5_16 m ρ c)
theorem at_v5_18 : W18 m ρ c (Proc.devRef .tc main_v5) = K.ur (K.argsOf m c) := (W18_of m ρ c main_v5 (by decide)).trans (at_v5_17 m ρ c)
theorem at_v5_19 : W19 m ρ c (Proc.devRef .tc main_v5) = K.ur (K.argsOf m c) := (W19_of m ρ c main_v5 (by decide)).trans (at_v5_18 m ρ c)
theorem at_v110_18 : W18 m ρ c (Proc.devRef .tc main_v110) = K.ln1 (K.argsOf m c) := (W18_of m ρ c main_v110 (by decide)).trans (at_v110_17 m ρ c)
theorem at_v110_19 : W19 m ρ c (Proc.devRef .tc main_v110) = K.ln1 (K.argsOf m c) := (W19_of m ρ c main_v110 (by decide)).trans (at_v110_18 m ρ c)
theorem at_v129_20 : W20 m ρ c (Proc.devRef .tc main_v129) = C_v129 (F := Ideal) (K.ur (K.argsOf m c)) (K.ln1 (K.argsOf m c)) :=
  (congrArg (fun l => StableHlo.after l (W19 m ρ c) (Proc.devRef .tc main_v129)) hostOps2_3_eq).trans (rd_v129 (W19 m ρ c) (K.argsOf m c) (at_v5_19 m ρ c) (at_v110_19 m ρ c))
theorem at_v130_21 : W21 m ρ c (Proc.devRef .tc main_v130) = C_v130 (F := Ideal) (C_v129 (F := Ideal) (K.ur (K.argsOf m c)) (K.ln1 (K.argsOf m c))) :=
  rd_v130 (W20 m ρ c) (K.argsOf m c) (at_v129_20 m ρ c)
theorem at_v130_22 : W22 m ρ c (Proc.devRef .tc main_v130) = C_v130 (F := Ideal) (C_v129 (F := Ideal) (K.ur (K.argsOf m c)) (K.ln1 (K.argsOf m c))) := (W22_of m ρ c main_v130 (by decide)).trans (at_v130_21 m ρ c)
theorem at_v130_23 : W23 m ρ c (Proc.devRef .tc main_v130) = C_v130 (F := Ideal) (C_v129 (F := Ideal) (K.ur (K.argsOf m c)) (K.ln1 (K.argsOf m c))) := (W23_of m ρ c main_v130 (by decide)).trans (at_v130_22 m ρ c)
theorem at_c_19_23 : W23 m ρ c (Proc.devRef .tc main_c_19) = C_c_19 :=
  rd_c_19 (W22 m ρ c) (K.argsOf m c)
theorem at_v142_24 : W24 m ρ c (Proc.devRef .tc main_v142) = C_v142 (F := Ideal) (C_v130 (F := Ideal) (C_v129 (F := Ideal) (K.ur (K.argsOf m c)) (K.ln1 (K.argsOf m c)))) (C_c_19) :=
  (congrArg (fun l => StableHlo.after l (W23 m ρ c) (Proc.devRef .tc main_v142)) hostOps2_7_eq).trans (rd_v142 (W23 m ρ c) (K.argsOf m c) (at_v130_23 m ρ c) (at_c_19_23 m ρ c))
theorem at_v142_25 : W25 m ρ c (Proc.devRef .tc main_v142) = C_v142 (F := Ideal) (C_v130 (F := Ideal) (C_v129 (F := Ideal) (K.ur (K.argsOf m c)) (K.ln1 (K.argsOf m c)))) (C_c_19) := (W25_of m ρ c main_v142 (by decide)).trans (at_v142_24 m ρ c)
theorem at_v142_26 : W26 m ρ c (Proc.devRef .tc main_v142) = C_v142 (F := Ideal) (C_v130 (F := Ideal) (C_v129 (F := Ideal) (K.ur (K.argsOf m c)) (K.ln1 (K.argsOf m c)))) (C_c_19) := (W26_of m ρ c main_v142 (by decide)).trans (at_v142_25 m ρ c)
theorem at_v142_27 : W27 m ρ c (Proc.devRef .tc main_v142) = C_v142 (F := Ideal) (C_v130 (F := Ideal) (C_v129 (F := Ideal) (K.ur (K.argsOf m c)) (K.ln1 (K.argsOf m c)))) (C_c_19) := (W27_of m ρ c main_v142 (by decide)).trans (at_v142_26 m ρ c)
theorem at_v142_28 : W28 m ρ c (Proc.devRef .tc main_v142) = C_v142 (F := Ideal) (C_v130 (F := Ideal) (C_v129 (F := Ideal) (K.ur (K.argsOf m c)) (K.ln1 (K.argsOf m c)))) (C_c_19) := (W28_of m ρ c main_v142 (by decide)).trans (at_v142_27 m ρ c)
theorem at_v7_2 : W2 m ρ c (Proc.devRef .tc main_v7) = K.uc (K.argsOf m c) := (W2_of m ρ c main_v7 (by decide)).trans (at_v7_1 m ρ c)
theorem at_v7_3 : W3 m ρ c (Proc.devRef .tc main_v7) = K.uc (K.argsOf m c) := (W3_of m ρ c main_v7 (by decide)).trans (at_v7_2 m ρ c)
theorem at_v7_4 : W4 m ρ c (Proc.devRef .tc main_v7) = K.uc (K.argsOf m c) := (W4_of m ρ c main_v7 (by decide)).trans (at_v7_3 m ρ c)
theorem at_v7_5 : W5 m ρ c (Proc.devRef .tc main_v7) = K.uc (K.argsOf m c) := (W5_of m ρ c main_v7 (by decide)).trans (at_v7_4 m ρ c)
theorem at_v7_6 : W6 m ρ c (Proc.devRef .tc main_v7) = K.uc (K.argsOf m c) := (W6_of m ρ c main_v7 (by decide)).trans (at_v7_5 m ρ c)
theorem at_v7_7 : W7 m ρ c (Proc.devRef .tc main_v7) = K.uc (K.argsOf m c) := (W7_of m ρ c main_v7 (by decide)).trans (at_v7_6 m ρ c)
theorem at_v7_8 : W8 m ρ c (Proc.devRef .tc main_v7) = K.uc (K.argsOf m c) := (W8_of m ρ c main_v7 (by decide)).trans (at_v7_7 m ρ c)
theorem at_v7_9 : W9 m ρ c (Proc.devRef .tc main_v7) = K.uc (K.argsOf m c) := (W9_of m ρ c main_v7 (by decide)).trans (at_v7_8 m ρ c)
theorem at_v7_10 : W10 m ρ c (Proc.devRef .tc main_v7) = K.uc (K.argsOf m c) := (W10_of m ρ c main_v7 (by decide)).trans (at_v7_9 m ρ c)
theorem at_v7_11 : W11 m ρ c (Proc.devRef .tc main_v7) = K.uc (K.argsOf m c) := (W11_of m ρ c main_v7 (by decide)).trans (at_v7_10 m ρ c)
theorem at_v7_12 : W12 m ρ c (Proc.devRef .tc main_v7) = K.uc (K.argsOf m c) := (W12_of m ρ c main_v7 (by decide)).trans (at_v7_11 m ρ c)
theorem at_v7_13 : W13 m ρ c (Proc.devRef .tc main_v7) = K.uc (K.argsOf m c) := (W13_of m ρ c main_v7 (by decide)).trans (at_v7_12 m ρ c)
theorem at_v7_14 : W14 m ρ c (Proc.devRef .tc main_v7) = K.uc (K.argsOf m c) := (W14_of m ρ c main_v7 (by decide)).trans (at_v7_13 m ρ c)
theorem at_v7_15 : W15 m ρ c (Proc.devRef .tc main_v7) = K.uc (K.argsOf m c) := (W15_of m ρ c main_v7 (by decide)).trans (at_v7_14 m ρ c)
theorem at_v7_16 : W16 m ρ c (Proc.devRef .tc main_v7) = K.uc (K.argsOf m c) := (W16_of m ρ c main_v7 (by decide)).trans (at_v7_15 m ρ c)
theorem at_v7_17 : W17 m ρ c (Proc.devRef .tc main_v7) = K.uc (K.argsOf m c) := (W17_of m ρ c main_v7 (by decide)).trans (at_v7_16 m ρ c)
theorem at_v7_18 : W18 m ρ c (Proc.devRef .tc main_v7) = K.uc (K.argsOf m c) := (W18_of m ρ c main_v7 (by decide)).trans (at_v7_17 m ρ c)
theorem at_v7_19 : W19 m ρ c (Proc.devRef .tc main_v7) = K.uc (K.argsOf m c) := (W19_of m ρ c main_v7 (by decide)).trans (at_v7_18 m ρ c)
theorem at_v7_20 : W20 m ρ c (Proc.devRef .tc main_v7) = K.uc (K.argsOf m c) := (W20_of m ρ c main_v7 (by decide)).trans (at_v7_19 m ρ c)
theorem at_v7_21 : W21 m ρ c (Proc.devRef .tc main_v7) = K.uc (K.argsOf m c) := (W21_of m ρ c main_v7 (by decide)).trans (at_v7_20 m ρ c)
theorem at_v110_20 : W20 m ρ c (Proc.devRef .tc main_v110) = K.ln1 (K.argsOf m c) := (W20_of m ρ c main_v110 (by decide)).trans (at_v110_19 m ρ c)
theorem at_v110_21 : W21 m ρ c (Proc.devRef .tc main_v110) = K.ln1 (K.argsOf m c) := (W21_of m ρ c main_v110 (by decide)).trans (at_v110_20 m ρ c)
theorem at_v131_22 : W22 m ρ c (Proc.devRef .tc main_v131) = C_v131 (F := Ideal) (K.uc (K.argsOf m c)) (K.ln1 (K.argsOf m c)) :=
  (congrArg (fun l => StableHlo.after l (W21 m ρ c) (Proc.devRef .tc main_v131)) hostOps2_5_eq).trans (rd_v131 (W21 m ρ c) (K.argsOf m c) (at_v7_21 m ρ c) (at_v110_21 m ρ c))
theorem at_v132_23 : W23 m ρ c (Proc.devRef .tc main_v132) = C_v132 (F := Ideal) (C_v131 (F := Ideal) (K.uc (K.argsOf m c)) (K.ln1 (K.argsOf m c))) :=
  rd_v132 (W22 m ρ c) (K.argsOf m c) (at_v131_22 m ρ c)
theorem at_v132_24 : W24 m ρ c (Proc.devRef .tc main_v132) = C_v132 (F := Ideal) (C_v131 (F := Ideal) (K.uc (K.argsOf m c)) (K.ln1 (K.argsOf m c))) := (W24_of m ρ c main_v132 (by decide)).trans (at_v132_23 m ρ c)
theorem at_v132_25 : W25 m ρ c (Proc.devRef .tc main_v132) = C_v132 (F := Ideal) (C_v131 (F := Ideal) (K.uc (K.argsOf m c)) (K.ln1 (K.argsOf m c))) := (W25_of m ρ c main_v132 (by decide)).trans (at_v132_24 m ρ c)
theorem at_c_20_25 : W25 m ρ c (Proc.devRef .tc main_c_20) = C_c_20 :=
  rd_c_20 (W24 m ρ c) (K.argsOf m c)
theorem at_v143_26 : W26 m ρ c (Proc.devRef .tc main_v143) = C_v143 (F := Ideal) (C_v132 (F := Ideal) (C_v131 (F := Ideal) (K.uc (K.argsOf m c)) (K.ln1 (K.argsOf m c)))) (C_c_20) :=
  (congrArg (fun l => StableHlo.after l (W25 m ρ c) (Proc.devRef .tc main_v143)) hostOps2_9_eq).trans (rd_v143 (W25 m ρ c) (K.argsOf m c) (at_v132_25 m ρ c) (at_c_20_25 m ρ c))
theorem at_v143_27 : W27 m ρ c (Proc.devRef .tc main_v143) = C_v143 (F := Ideal) (C_v132 (F := Ideal) (C_v131 (F := Ideal) (K.uc (K.argsOf m c)) (K.ln1 (K.argsOf m c)))) (C_c_20) := (W27_of m ρ c main_v143 (by decide)).trans (at_v143_26 m ρ c)
theorem at_v143_28 : W28 m ρ c (Proc.devRef .tc main_v143) = C_v143 (F := Ideal) (C_v132 (F := Ideal) (C_v131 (F := Ideal) (K.uc (K.argsOf m c)) (K.ln1 (K.argsOf m c)))) (C_c_20) := (W28_of m ρ c main_v143 (by decide)).trans (at_v143_27 m ρ c)
theorem at_v127_20 : W20 m ρ c (Proc.devRef .tc main_v127) = K.uin0 (K.argsOf m c) := (W20_of m ρ c main_v127 (by decide)).trans (at_v127_19 m ρ c)
theorem at_v127_21 : W21 m ρ c (Proc.devRef .tc main_v127) = K.uin0 (K.argsOf m c) := (W21_of m ρ c main_v127 (by decide)).trans (at_v127_20 m ρ c)
theorem at_v127_22 : W22 m ρ c (Proc.devRef .tc main_v127) = K.uin0 (K.argsOf m c) := (W22_of m ρ c main_v127 (by decide)).trans (at_v127_21 m ρ c)
theorem at_v133_23 : W23 m ρ c (Proc.devRef .tc main_v133) = C_v133 (F := Ideal) (K.uin0 (K.argsOf m c)) :=
  rd_v133 (W22 m ρ c) (K.argsOf m c) (at_v127_22 m ρ c)
theorem at_v133_24 : W24 m ρ c (Proc.devRef .tc main_v133) = C_v133 (F := Ideal) (K.uin0 (K.argsOf m c)) := (W24_of m ρ c main_v133 (by decide)).trans (at_v133_23 m ρ c)
theorem at_v133_25 : W25 m ρ c (Proc.devRef .tc main_v133) = C_v133 (F := Ideal) (K.uin0 (K.argsOf m c)) := (W25_of m ρ c main_v133 (by decide)).trans (at_v133_24 m ρ c)
theorem at_v133_26 : W26 m ρ c (Proc.devRef .tc main_v133) = C_v133 (F := Ideal) (K.uin0 (K.argsOf m c)) := (W26_of m ρ c main_v133 (by decide)).trans (at_v133_25 m ρ c)
theorem at_v133_27 : W27 m ρ c (Proc.devRef .tc main_v133) = C_v133 (F := Ideal) (K.uin0 (K.argsOf m c)) := (W27_of m ρ c main_v133 (by decide)).trans (at_v133_26 m ρ c)
theorem at_c_21_27 : W27 m ρ c (Proc.devRef .tc main_c_21) = C_c_21 :=
  rd_c_21 (W26 m ρ c) (K.argsOf m c)
theorem at_v144_28 : W28 m ρ c (Proc.devRef .tc main_v144) = C_v144 (F := Ideal) (C_v133 (F := Ideal) (K.uin0 (K.argsOf m c))) (C_c_21) :=
  (congrArg (fun l => StableHlo.after l (W27 m ρ c) (Proc.devRef .tc main_v144)) hostOps2_11_eq).trans (rd_v144 (W27 m ρ c) (K.argsOf m c) (at_v133_27 m ρ c) (at_c_21_27 m ρ c))
theorem at_v57_5 : W5 m ρ c (Proc.devRef .tc main_v57) = K.P10_eW1 (K.argsOf m c) :=
  pr_v57 (W4 m ρ c) (K.argsOf m c) (at_arg5_4 m ρ c)
theorem at_v57_6 : W6 m ρ c (Proc.devRef .tc main_v57) = K.P10_eW1 (K.argsOf m c) := (W6_of m ρ c main_v57 (by decide)).trans (at_v57_5 m ρ c)
theorem at_v57_7 : W7 m ρ c (Proc.devRef .tc main_v57) = K.P10_eW1 (K.argsOf m c) := (W7_of m ρ c main_v57 (by decide)).trans (at_v57_6 m ρ c)
theorem at_v57_8 : W8 m ρ c (Proc.devRef .tc main_v57) = K.P10_eW1 (K.argsOf m c) := (W8_of m ρ c main_v57 (by decide)).trans (at_v57_7 m ρ c)
theorem at_v57_9 : W9 m ρ c (Proc.devRef .tc main_v57) = K.P10_eW1 (K.argsOf m c) := (W9_of m ρ c main_v57 (by decide)).trans (at_v57_8 m ρ c)
theorem at_v57_10 : W10 m ρ c (Proc.devRef .tc main_v57) = K.P10_eW1 (K.argsOf m c) := (W10_of m ρ c main_v57 (by decide)).trans (at_v57_9 m ρ c)
theorem at_v57_11 : W11 m ρ c (Proc.devRef .tc main_v57) = K.P10_eW1 (K.argsOf m c) := (W11_of m ρ c main_v57 (by decide)).trans (at_v57_10 m ρ c)
theorem at_v57_12 : W12 m ρ c (Proc.devRef .tc main_v57) = K.P10_eW1 (K.argsOf m c) := (W12_of m ρ c main_v57 (by decide)).trans (at_v57_11 m ρ c)
theorem at_v57_13 : W13 m ρ c (Proc.devRef .tc main_v57) = K.P10_eW1 (K.argsOf m c) := (W13_of m ρ c main_v57 (by decide)).trans (at_v57_12 m ρ c)
theorem at_v57_14 : W14 m ρ c (Proc.devRef .tc main_v57) = K.P10_eW1 (K.argsOf m c) := (W14_of m ρ c main_v57 (by decide)).trans (at_v57_13 m ρ c)
theorem at_v57_15 : W15 m ρ c (Proc.devRef .tc main_v57) = K.P10_eW1 (K.argsOf m c) := (W15_of m ρ c main_v57 (by decide)).trans (at_v57_14 m ρ c)
theorem at_v57_16 : W16 m ρ c (Proc.devRef .tc main_v57) = K.P10_eW1 (K.argsOf m c) := (W16_of m ρ c main_v57 (by decide)).trans (at_v57_15 m ρ c)
theorem at_v57_17 : W17 m ρ c (Proc.devRef .tc main_v57) = K.P10_eW1 (K.argsOf m c) := (W17_of m ρ c main_v57 (by decide)).trans (at_v57_16 m ρ c)
theorem at_v57_18 : W18 m ρ c (Proc.devRef .tc main_v57) = K.P10_eW1 (K.argsOf m c) := (W18_of m ρ c main_v57 (by decide)).trans (at_v57_17 m ρ c)
theorem at_v57_19 : W19 m ρ c (Proc.devRef .tc main_v57) = K.P10_eW1 (K.argsOf m c) := (W19_of m ρ c main_v57 (by decide)).trans (at_v57_18 m ρ c)
theorem at_v57_20 : W20 m ρ c (Proc.devRef .tc main_v57) = K.P10_eW1 (K.argsOf m c) := (W20_of m ρ c main_v57 (by decide)).trans (at_v57_19 m ρ c)
theorem at_v57_21 : W21 m ρ c (Proc.devRef .tc main_v57) = K.P10_eW1 (K.argsOf m c) := (W21_of m ρ c main_v57 (by decide)).trans (at_v57_20 m ρ c)
theorem at_v57_22 : W22 m ρ c (Proc.devRef .tc main_v57) = K.P10_eW1 (K.argsOf m c) := (W22_of m ρ c main_v57 (by decide)).trans (at_v57_21 m ρ c)
theorem at_v135_23 : W23 m ρ c (Proc.devRef .tc main_v135) = C_v135 (F := Ideal) (K.P10_eW1 (K.argsOf m c)) :=
  rd_v135 (W22 m ρ c) (K.argsOf m c) (at_v57_22 m ρ c)
theorem at_v135_24 : W24 m ρ c (Proc.devRef .tc main_v135) = C_v135 (F := Ideal) (K.P10_eW1 (K.argsOf m c)) := (W24_of m ρ c main_v135 (by decide)).trans (at_v135_23 m ρ c)
theorem at_v135_25 : W25 m ρ c (Proc.devRef .tc main_v135) = C_v135 (F := Ideal) (K.P10_eW1 (K.argsOf m c)) := (W25_of m ρ c main_v135 (by decide)).trans (at_v135_24 m ρ c)
theorem at_v135_26 : W26 m ρ c (Proc.devRef .tc main_v135) = C_v135 (F := Ideal) (K.P10_eW1 (K.argsOf m c)) := (W26_of m ρ c main_v135 (by decide)).trans (at_v135_25 m ρ c)
theorem at_v135_27 : W27 m ρ c (Proc.devRef .tc main_v135) = C_v135 (F := Ideal) (K.P10_eW1 (K.argsOf m c)) := (W27_of m ρ c main_v135 (by decide)).trans (at_v135_26 m ρ c)
theorem at_v135_28 : W28 m ρ c (Proc.devRef .tc main_v135) = C_v135 (F := Ideal) (K.P10_eW1 (K.argsOf m c)) := (W28_of m ρ c main_v135 (by decide)).trans (at_v135_27 m ρ c)
theorem at_v136_23 : W23 m ρ c (Proc.devRef .tc main_v136) = C_v136 (F := Ideal) (K.P10_eW1 (K.argsOf m c)) :=
  rd_v136 (W22 m ρ c) (K.argsOf m c) (at_v57_22 m ρ c)
theorem at_v136_24 : W24 m ρ c (Proc.devRef .tc main_v136) = C_v136 (F := Ideal) (K.P10_eW1 (K.argsOf m c)) := (W24_of m ρ c main_v136 (by decide)).trans (at_v136_23 m ρ c)
theorem at_v136_25 : W25 m ρ c (Proc.devRef .tc main_v136) = C_v136 (F := Ideal) (K.P10_eW1 (K.argsOf m c)) := (W25_of m ρ c main_v136 (by decide)).trans (at_v136_24 m ρ c)
theorem at_v136_26 : W26 m ρ c (Proc.devRef .tc main_v136) = C_v136 (F := Ideal) (K.P10_eW1 (K.argsOf m c)) := (W26_of m ρ c main_v136 (by decide)).trans (at_v136_25 m ρ c)
theorem at_v136_27 : W27 m ρ c (Proc.devRef .tc main_v136) = C_v136 (F := Ideal) (K.P10_eW1 (K.argsOf m c)) := (W27_of m ρ c main_v136 (by decide)).trans (at_v136_26 m ρ c)
theorem at_v136_28 : W28 m ρ c (Proc.devRef .tc main_v136) = C_v136 (F := Ideal) (K.P10_eW1 (K.argsOf m c)) := (W28_of m ρ c main_v136 (by decide)).trans (at_v136_27 m ρ c)
theorem at_v137_23 : W23 m ρ c (Proc.devRef .tc main_v137) = C_v137 (F := Ideal) (K.P10_eW1 (K.argsOf m c)) :=
  rd_v137 (W22 m ρ c) (K.argsOf m c) (at_v57_22 m ρ c)
theorem at_v137_24 : W24 m ρ c (Proc.devRef .tc main_v137) = C_v137 (F := Ideal) (K.P10_eW1 (K.argsOf m c)) := (W24_of m ρ c main_v137 (by decide)).trans (at_v137_23 m ρ c)
theorem at_v137_25 : W25 m ρ c (Proc.devRef .tc main_v137) = C_v137 (F := Ideal) (K.P10_eW1 (K.argsOf m c)) := (W25_of m ρ c main_v137 (by decide)).trans (at_v137_24 m ρ c)
theorem at_v137_26 : W26 m ρ c (Proc.devRef .tc main_v137) = C_v137 (F := Ideal) (K.P10_eW1 (K.argsOf m c)) := (W26_of m ρ c main_v137 (by decide)).trans (at_v137_25 m ρ c)
theorem at_v137_27 : W27 m ρ c (Proc.devRef .tc main_v137) = C_v137 (F := Ideal) (K.P10_eW1 (K.argsOf m c)) := (W27_of m ρ c main_v137 (by decide)).trans (at_v137_26 m ρ c)
theorem at_v137_28 : W28 m ρ c (Proc.devRef .tc main_v137) = C_v137 (F := Ideal) (K.P10_eW1 (K.argsOf m c)) := (W28_of m ρ c main_v137 (by decide)).trans (at_v137_27 m ρ c)
theorem at_v59_5 : W5 m ρ c (Proc.devRef .tc main_v59) = K.P10_eb1 (K.argsOf m c) :=
  pr_v59 (W4 m ρ c) (K.argsOf m c) (at_arg6_4 m ρ c)
theorem at_v59_6 : W6 m ρ c (Proc.devRef .tc main_v59) = K.P10_eb1 (K.argsOf m c) := (W6_of m ρ c main_v59 (by decide)).trans (at_v59_5 m ρ c)
theorem at_v59_7 : W7 m ρ c (Proc.devRef .tc main_v59) = K.P10_eb1 (K.argsOf m c) := (W7_of m ρ c main_v59 (by decide)).trans (at_v59_6 m ρ c)
theorem at_v59_8 : W8 m ρ c (Proc.devRef .tc main_v59) = K.P10_eb1 (K.argsOf m c) := (W8_of m ρ c main_v59 (by decide)).trans (at_v59_7 m ρ c)
theorem at_v59_9 : W9 m ρ c (Proc.devRef .tc main_v59) = K.P10_eb1 (K.argsOf m c) := (W9_of m ρ c main_v59 (by decide)).trans (at_v59_8 m ρ c)
theorem at_v59_10 : W10 m ρ c (Proc.devRef .tc main_v59) = K.P10_eb1 (K.argsOf m c) := (W10_of m ρ c main_v59 (by decide)).trans (at_v59_9 m ρ c)
theorem at_v59_11 : W11 m ρ c (Proc.devRef .tc main_v59) = K.P10_eb1 (K.argsOf m c) := (W11_of m ρ c main_v59 (by decide)).trans (at_v59_10 m ρ c)
theorem at_v59_12 : W12 m ρ c (Proc.devRef .tc main_v59) = K.P10_eb1 (K.argsOf m c) := (W12_of m ρ c main_v59 (by decide)).trans (at_v59_11 m ρ c)
theorem at_v59_13 : W13 m ρ c (Proc.devRef .tc main_v59) = K.P10_eb1 (K.argsOf m c) := (W13_of m ρ c main_v59 (by decide)).trans (at_v59_12 m ρ c)
theorem at_v59_14 : W14 m ρ c (Proc.devRef .tc main_v59) = K.P10_eb1 (K.argsOf m c) := (W14_of m ρ c main_v59 (by decide)).trans (at_v59_13 m ρ c)
theorem at_v59_15 : W15 m ρ c (Proc.devRef .tc main_v59) = K.P10_eb1 (K.argsOf m c) := (W15_of m ρ c main_v59 (by decide)).trans (at_v59_14 m ρ c)
theorem at_v59_16 : W16 m ρ c (Proc.devRef .tc main_v59) = K.P10_eb1 (K.argsOf m c) := (W16_of m ρ c main_v59 (by decide)).trans (at_v59_15 m ρ c)
theorem at_v59_17 : W17 m ρ c (Proc.devRef .tc main_v59) = K.P10_eb1 (K.argsOf m c) := (W17_of m ρ c main_v59 (by decide)).trans (at_v59_16 m ρ c)
theorem at_v59_18 : W18 m ρ c (Proc.devRef .tc main_v59) = K.P10_eb1 (K.argsOf m c) := (W18_of m ρ c main_v59 (by decide)).trans (at_v59_17 m ρ c)
theorem at_v59_19 : W19 m ρ c (Proc.devRef .tc main_v59) = K.P10_eb1 (K.argsOf m c) := (W19_of m ρ c main_v59 (by decide)).trans (at_v59_18 m ρ c)
theorem at_v59_20 : W20 m ρ c (Proc.devRef .tc main_v59) = K.P10_eb1 (K.argsOf m c) := (W20_of m ρ c main_v59 (by decide)).trans (at_v59_19 m ρ c)
theorem at_v59_21 : W21 m ρ c (Proc.devRef .tc main_v59) = K.P10_eb1 (K.argsOf m c) := (W21_of m ρ c main_v59 (by decide)).trans (at_v59_20 m ρ c)
theorem at_v59_22 : W22 m ρ c (Proc.devRef .tc main_v59) = K.P10_eb1 (K.argsOf m c) := (W22_of m ρ c main_v59 (by decide)).trans (at_v59_21 m ρ c)
theorem at_v126_20 : W20 m ρ c (Proc.devRef .tc main_v126) = K.g1 (K.argsOf m c) := (W20_of m ρ c main_v126 (by decide)).trans (at_v126_19 m ρ c)
theorem at_v126_21 : W21 m ρ c (Proc.devRef .tc main_v126) = K.g1 (K.argsOf m c) := (W21_of m ρ c main_v126 (by decide)).trans (at_v126_20 m ρ c)
theorem at_v126_22 : W22 m ρ c (Proc.devRef .tc main_v126) = K.g1 (K.argsOf m c) := (W22_of m ρ c main_v126 (by decide)).trans (at_v126_21 m ρ c)
theorem at_v140_23 : W23 m ρ c (Proc.devRef .tc main_v140) = C_v140 (F := Ideal) (K.P10_eb1 (K.argsOf m c)) (K.g1 (K.argsOf m c)) (K.P10_eW1 (K.argsOf m c)) :=
  rd_v140 (W22 m ρ c) (K.argsOf m c) (at_v59_22 m ρ c) (at_v126_22 m ρ c) (at_v57_22 m ρ c)
theorem at_v140_24 : W24 m ρ c (Proc.devRef .tc main_v140) = C_v140 (F := Ideal) (K.P10_eb1 (K.argsOf m c)) (K.g1 (K.argsOf m c)) (K.P10_eW1 (K.argsOf m c)) := (W24_of m ρ c main_v140 (by decide)).trans (at_v140_23 m ρ c)
theorem at_v140_25 : W25 m ρ c (Proc.devRef .tc main_v140) = C_v140 (F := Ideal) (K.P10_eb1 (K.argsOf m c)) (K.g1 (K.argsOf m c)) (K.P10_eW1 (K.argsOf m c)) := (W25_of m ρ c main_v140 (by decide)).trans (at_v140_24 m ρ c)
theorem at_v140_26 : W26 m ρ c (Proc.devRef .tc main_v140) = C_v140 (F := Ideal) (K.P10_eb1 (K.argsOf m c)) (K.g1 (K.argsOf m c)) (K.P10_eW1 (K.argsOf m c)) := (W26_of m ρ c main_v140 (by decide)).trans (at_v140_25 m ρ c)
theorem at_v140_27 : W27 m ρ c (Proc.devRef .tc main_v140) = C_v140 (F := Ideal) (K.P10_eb1 (K.argsOf m c)) (K.g1 (K.argsOf m c)) (K.P10_eW1 (K.argsOf m c)) := (W27_of m ρ c main_v140 (by decide)).trans (at_v140_26 m ρ c)
theorem at_v140_28 : W28 m ρ c (Proc.devRef .tc main_v140) = C_v140 (F := Ideal) (K.P10_eb1 (K.argsOf m c)) (K.g1 (K.argsOf m c)) (K.P10_eW1 (K.argsOf m c)) := (W28_of m ρ c main_v140 (by decide)).trans (at_v140_27 m ρ c)
theorem at_v61_5 : W5 m ρ c (Proc.devRef .tc main_v61) = K.P10_eW2 (K.argsOf m c) :=
  pr_v61 (W4 m ρ c) (K.argsOf m c) (at_arg7_4 m ρ c)
theorem at_v61_6 : W6 m ρ c (Proc.devRef .tc main_v61) = K.P10_eW2 (K.argsOf m c) := (W6_of m ρ c main_v61 (by decide)).trans (at_v61_5 m ρ c)
theorem at_v61_7 : W7 m ρ c (Proc.devRef .tc main_v61) = K.P10_eW2 (K.argsOf m c) := (W7_of m ρ c main_v61 (by decide)).trans (at_v61_6 m ρ c)
theorem at_v61_8 : W8 m ρ c (Proc.devRef .tc main_v61) = K.P10_eW2 (K.argsOf m c) := (W8_of m ρ c main_v61 (by decide)).trans (at_v61_7 m ρ c)
theorem at_v61_9 : W9 m ρ c (Proc.devRef .tc main_v61) = K.P10_eW2 (K.argsOf m c) := (W9_of m ρ c main_v61 (by decide)).trans (at_v61_8 m ρ c)
theorem at_v61_10 : W10 m ρ c (Proc.devRef .tc main_v61) = K.P10_eW2 (K.argsOf m c) := (W10_of m ρ c main_v61 (by decide)).trans (at_v61_9 m ρ c)
theorem at_v61_11 : W11 m ρ c (Proc.devRef .tc main_v61) = K.P10_eW2 (K.argsOf m c) := (W11_of m ρ c main_v61 (by decide)).trans (at_v61_10 m ρ c)
theorem at_v61_12 : W12 m ρ c (Proc.devRef .tc main_v61) = K.P10_eW2 (K.argsOf m c) := (W12_of m ρ c main_v61 (by decide)).trans (at_v61_11 m ρ c)
theorem at_v61_13 : W13 m ρ c (Proc.devRef .tc main_v61) = K.P10_eW2 (K.argsOf m c) := (W13_of m ρ c main_v61 (by decide)).trans (at_v61_12 m ρ c)
theorem at_v61_14 : W14 m ρ c (Proc.devRef .tc main_v61) = K.P10_eW2 (K.argsOf m c) := (W14_of m ρ c main_v61 (by decide)).trans (at_v61_13 m ρ c)
theorem at_v61_15 : W15 m ρ c (Proc.devRef .tc main_v61) = K.P10_eW2 (K.argsOf m c) := (W15_of m ρ c main_v61 (by decide)).trans (at_v61_14 m ρ c)
theorem at_v61_16 : W16 m ρ c (Proc.devRef .tc main_v61) = K.P10_eW2 (K.argsOf m c) := (W16_of m ρ c main_v61 (by decide)).trans (at_v61_15 m ρ c)
theorem at_v61_17 : W17 m ρ c (Proc.devRef .tc main_v61) = K.P10_eW2 (K.argsOf m c) := (W17_of m ρ c main_v61 (by decide)).trans (at_v61_16 m ρ c)
theorem at_v61_18 : W18 m ρ c (Proc.devRef .tc main_v61) = K.P10_eW2 (K.argsOf m c) := (W18_of m ρ c main_v61 (by decide)).trans (at_v61_17 m ρ c)
theorem at_v61_19 : W19 m ρ c (Proc.devRef .tc main_v61) = K.P10_eW2 (K.argsOf m c) := (W19_of m ρ c main_v61 (by decide)).trans (at_v61_18 m ρ c)
theorem at_v61_20 : W20 m ρ c (Proc.devRef .tc main_v61) = K.P10_eW2 (K.argsOf m c) := (W20_of m ρ c main_v61 (by decide)).trans (at_v61_19 m ρ c)
theorem at_v61_21 : W21 m ρ c (Proc.devRef .tc main_v61) = K.P10_eW2 (K.argsOf m c) := (W21_of m ρ c main_v61 (by decide)).trans (at_v61_20 m ρ c)
theorem at_v61_22 : W22 m ρ c (Proc.devRef .tc main_v61) = K.P10_eW2 (K.argsOf m c) := (W22_of m ρ c main_v61 (by decide)).trans (at_v61_21 m ρ c)
theorem at_v61_23 : W23 m ρ c (Proc.devRef .tc main_v61) = K.P10_eW2 (K.argsOf m c) := (W23_of m ρ c main_v61 (by decide)).trans (at_v61_22 m ρ c)
theorem at_v61_24 : W24 m ρ c (Proc.devRef .tc main_v61) = K.P10_eW2 (K.argsOf m c) := (W24_of m ρ c main_v61 (by decide)).trans (at_v61_23 m ρ c)
theorem at_v61_25 : W25 m ρ c (Proc.devRef .tc main_v61) = K.P10_eW2 (K.argsOf m c) := (W25_of m ρ c main_v61 (by decide)).trans (at_v61_24 m ρ c)
theorem at_v61_26 : W26 m ρ c (Proc.devRef .tc main_v61) = K.P10_eW2 (K.argsOf m c) := (W26_of m ρ c main_v61 (by decide)).trans (at_v61_25 m ρ c)
theorem at_v61_27 : W27 m ρ c (Proc.devRef .tc main_v61) = K.P10_eW2 (K.argsOf m c) := (W27_of m ρ c main_v61 (by decide)).trans (at_v61_26 m ρ c)
theorem at_v61_28 : W28 m ρ c (Proc.devRef .tc main_v61) = K.P10_eW2 (K.argsOf m c) := (W28_of m ρ c main_v61 (by decide)).trans (at_v61_27 m ρ c)
theorem at_v63_5 : W5 m ρ c (Proc.devRef .tc main_v63) = K.P10_eb2 (K.argsOf m c) :=
  pr_v63 (W4 m ρ c) (K.argsOf m c) (at_arg8_4 m ρ c)
theorem at_v63_6 : W6 m ρ c (Proc.devRef .tc main_v63) = K.P10_eb2 (K.argsOf m c) := (W6_of m ρ c main_v63 (by decide)).trans (at_v63_5 m ρ c)
theorem at_v63_7 : W7 m ρ c (Proc.devRef .tc main_v63) = K.P10_eb2 (K.argsOf m c) := (W7_of m ρ c main_v63 (by decide)).trans (at_v63_6 m ρ c)
theorem at_v63_8 : W8 m ρ c (Proc.devRef .tc main_v63) = K.P10_eb2 (K.argsOf m c) := (W8_of m ρ c main_v63 (by decide)).trans (at_v63_7 m ρ c)
theorem at_v63_9 : W9 m ρ c (Proc.devRef .tc main_v63) = K.P10_eb2 (K.argsOf m c) := (W9_of m ρ c main_v63 (by decide)).trans (at_v63_8 m ρ c)
theorem at_v63_10 : W10 m ρ c (Proc.devRef .tc main_v63) = K.P10_eb2 (K.argsOf m c) := (W10_of m ρ c main_v63 (by decide)).trans (at_v63_9 m ρ c)
theorem at_v63_11 : W11 m ρ c (Proc.devRef .tc main_v63) = K.P10_eb2 (K.argsOf m c) := (W11_of m ρ c main_v63 (by decide)).trans (at_v63_10 m ρ c)
theorem at_v63_12 : W12 m ρ c (Proc.devRef .tc main_v63) = K.P10_eb2 (K.argsOf m c) := (W12_of m ρ c main_v63 (by decide)).trans (at_v63_11 m ρ c)
theorem at_v63_13 : W13 m ρ c (Proc.devRef .tc main_v63) = K.P10_eb2 (K.argsOf m c) := (W13_of m ρ c main_v63 (by decide)).trans (at_v63_12 m ρ c)
theorem at_v63_14 : W14 m ρ c (Proc.devRef .tc main_v63) = K.P10_eb2 (K.argsOf m c) := (W14_of m ρ c main_v63 (by decide)).trans (at_v63_13 m ρ c)
theorem at_v63_15 : W15 m ρ c (Proc.devRef .tc main_v63) = K.P10_eb2 (K.argsOf m c) := (W15_of m ρ c main_v63 (by decide)).trans (at_v63_14 m ρ c)
theorem at_v63_16 : W16 m ρ c (Proc.devRef .tc main_v63) = K.P10_eb2 (K.argsOf m c) := (W16_of m ρ c main_v63 (by decide)).trans (at_v63_15 m ρ c)
theorem at_v63_17 : W17 m ρ c (Proc.devRef .tc main_v63) = K.P10_eb2 (K.argsOf m c) := (W17_of m ρ c main_v63 (by decide)).trans (at_v63_16 m ρ c)
theorem at_v63_18 : W18 m ρ c (Proc.devRef .tc main_v63) = K.P10_eb2 (K.argsOf m c) := (W18_of m ρ c main_v63 (by decide)).trans (at_v63_17 m ρ c)
theorem at_v63_19 : W19 m ρ c (Proc.devRef .tc main_v63) = K.P10_eb2 (K.argsOf m c) := (W19_of m ρ c main_v63 (by decide)).trans (at_v63_18 m ρ c)
theorem at_v63_20 : W20 m ρ c (Proc.devRef .tc main_v63) = K.P10_eb2 (K.argsOf m c) := (W20_of m ρ c main_v63 (by decide)).trans (at_v63_19 m ρ c)
theorem at_v63_21 : W21 m ρ c (Proc.devRef .tc main_v63) = K.P10_eb2 (K.argsOf m c) := (W21_of m ρ c main_v63 (by decide)).trans (at_v63_20 m ρ c)
theorem at_v63_22 : W22 m ρ c (Proc.devRef .tc main_v63) = K.P10_eb2 (K.argsOf m c) := (W22_of m ρ c main_v63 (by decide)).trans (at_v63_21 m ρ c)
theorem at_v141_23 : W23 m ρ c (Proc.devRef .tc main_v141) = C_v141 (F := Ideal) (K.P10_eb2 (K.argsOf m c)) :=
  rd_v141 (W22 m ρ c) (K.argsOf m c) (at_v63_22 m ρ c)
theorem at_v141_24 : W24 m ρ c (Proc.devRef .tc main_v141) = C_v141 (F := Ideal) (K.P10_eb2 (K.argsOf m c)) := (W24_of m ρ c main_v141 (by decide)).trans (at_v141_23 m ρ c)
theorem at_v141_25 : W25 m ρ c (Proc.devRef .tc main_v141) = C_v141 (F := Ideal) (K.P10_eb2 (K.argsOf m c)) := (W25_of m ρ c main_v141 (by decide)).trans (at_v141_24 m ρ c)
theorem at_v141_26 : W26 m ρ c (Proc.devRef .tc main_v141) = C_v141 (F := Ideal) (K.P10_eb2 (K.argsOf m c)) := (W26_of m ρ c main_v141 (by decide)).trans (at_v141_25 m ρ c)
theorem at_v141_27 : W27 m ρ c (Proc.devRef .tc main_v141) = C_v141 (F := Ideal) (K.P10_eb2 (K.argsOf m c)) := (W27_of m ρ c main_v141 (by decide)).trans (at_v141_26 m ρ c)
theorem at_v141_28 : W28 m ρ c (Proc.devRef .tc main_v141) = C_v141 (F := Ideal) (K.P10_eb2 (K.argsOf m c)) := (W28_of m ρ c main_v141 (by decide)).trans (at_v141_27 m ρ c)
theorem at_v145_29 : W29 m ρ c (Proc.devRef .tc main_v145) = K.edgeFn (C_v142 (F := Ideal) (C_v130 (F := Ideal) (C_v129 (F := Ideal) (K.ur (K.argsOf m c)) (K.ln1 (K.argsOf m c)))) (C_c_19)) (C_v143 (F := Ideal) (C_v132 (F := Ideal) (C_v131 (F := Ideal) (K.uc (K.argsOf m c)) (K.ln1 (K.argsOf m c)))) (C_c_20)) (C_v144 (F := Ideal) (C_v133 (F := Ideal) (K.uin0 (K.argsOf m c))) (C_c_21)) (C_v135 (F := Ideal) (K.P10_eW1 (K.argsOf m c))) (C_v136 (F := Ideal) (K.P10_eW1 (K.argsOf m c))) (C_v137 (F := Ideal) (K.P10_eW1 (K.argsOf m c))) (C_v140 (F := Ideal) (K.P10_eb1 (K.argsOf m c)) (K.g1 (K.argsOf m c)) (K.P10_eW1 (K.argsOf m c))) (K.P10_eW2 (K.argsOf m c)) (C_v141 (F := Ideal) (K.P10_eb2 (K.argsOf m c))) :=
  (R2_read m ρ c).trans (by rw [at_v142_28 m ρ c, at_v143_28 m ρ c, at_v144_28 m ρ c, at_v135_28 m ρ c, at_v136_28 m ρ c, at_v137_28 m ρ c, at_v140_28 m ρ c, at_v61_28 m ρ c, at_v141_28 m ρ c])
theorem at_v146_30 : W30 m ρ c (Proc.devRef .tc main_v146) = K.ue1 (K.argsOf m c) :=
  st_ue1 (W29 m ρ c) (K.argsOf m c) (at_v145_29 m ρ c)
theorem at_v5_20 : W20 m ρ c (Proc.devRef .tc main_v5) = K.ur (K.argsOf m c) := (W20_of m ρ c main_v5 (by decide)).trans (at_v5_19 m ρ c)
theorem at_v5_21 : W21 m ρ c (Proc.devRef .tc main_v5) = K.ur (K.argsOf m c) := (W21_of m ρ c main_v5 (by decide)).trans (at_v5_20 m ρ c)
theorem at_v5_22 : W22 m ρ c (Proc.devRef .tc main_v5) = K.ur (K.argsOf m c) := (W22_of m ρ c main_v5 (by decide)).trans (at_v5_21 m ρ c)
theorem at_v5_23 : W23 m ρ c (Proc.devRef .tc main_v5) = K.ur (K.argsOf m c) := (W23_of m ρ c main_v5 (by decide)).trans (at_v5_22 m ρ c)
theorem at_v5_24 : W24 m ρ c (Proc.devRef .tc main_v5) = K.ur (K.argsOf m c) := (W24_of m ρ c main_v5 (by decide)).trans (at_v5_23 m ρ c)
theorem at_v5_25 : W25 m ρ c (Proc.devRef .tc main_v5) = K.ur (K.argsOf m c) := (W25_of m ρ c main_v5 (by decide)).trans (at_v5_24 m ρ c)
theorem at_v5_26 : W26 m ρ c (Proc.devRef .tc main_v5) = K.ur (K.argsOf m c) := (W26_of m ρ c main_v5 (by decide)).trans (at_v5_25 m ρ c)
theorem at_v5_27 : W27 m ρ c (Proc.devRef .tc main_v5) = K.ur (K.argsOf m c) := (W27_of m ρ c main_v5 (by decide)).trans (at_v5_26 m ρ c)
theorem at_v5_28 : W28 m ρ c (Proc.devRef .tc main_v5) = K.ur (K.argsOf m c) := (W28_of m ρ c main_v5 (by decide)).trans (at_v5_27 m ρ c)
theorem at_v5_29 : W29 m ρ c (Proc.devRef .tc main_v5) = K.ur (K.argsOf m c) := (W29_of m ρ c main_v5 (by decide)).trans (at_v5_28 m ρ c)
theorem at_v23_1 : W1 m ρ c (Proc.devRef .tc main_v23) = C_v23 (F := Ideal) ((K.argsOf m c).a2) :=
  rd_v23 (W0 m ρ c) (K.argsOf m c) (at_arg2_0 m ρ c)
theorem at_v23_2 : W2 m ρ c (Proc.devRef .tc main_v23) = C_v23 (F := Ideal) ((K.argsOf m c).a2) := (W2_of m ρ c main_v23 (by decide)).trans (at_v23_1 m ρ c)
theorem at_v23_3 : W3 m ρ c (Proc.devRef .tc main_v23) = C_v23 (F := Ideal) ((K.argsOf m c).a2) := (W3_of m ρ c main_v23 (by decide)).trans (at_v23_2 m ρ c)
theorem at_v23_4 : W4 m ρ c (Proc.devRef .tc main_v23) = C_v23 (F := Ideal) ((K.argsOf m c).a2) := (W4_of m ρ c main_v23 (by decide)).trans (at_v23_3 m ρ c)
theorem at_v23_5 : W5 m ρ c (Proc.devRef .tc main_v23) = C_v23 (F := Ideal) ((K.argsOf m c).a2) := (W5_of m ρ c main_v23 (by decide)).trans (at_v23_4 m ρ c)
theorem at_v23_6 : W6 m ρ c (Proc.devRef .tc main_v23) = C_v23 (F := Ideal) ((K.argsOf m c).a2) := (W6_of m ρ c main_v23 (by decide)).trans (at_v23_5 m ρ c)
theorem at_v23_7 : W7 m ρ c (Proc.devRef .tc main_v23) = C_v23 (F := Ideal) ((K.argsOf m c).a2) := (W7_of m ρ c main_v23 (by decide)).trans (at_v23_6 m ρ c)
theorem at_v23_8 : W8 m ρ c (Proc.devRef .tc main_v23) = C_v23 (F := Ideal) ((K.argsOf m c).a2) := (W8_of m ρ c main_v23 (by decide)).trans (at_v23_7 m ρ c)
theorem at_v23_9 : W9 m ρ c (Proc.devRef .tc main_v23) = C_v23 (F := Ideal) ((K.argsOf m c).a2) := (W9_of m ρ c main_v23 (by decide)).trans (at_v23_8 m ρ c)
theorem at_v23_10 : W10 m ρ c (Proc.devRef .tc main_v23) = C_v23 (F := Ideal) ((K.argsOf m c).a2) := (W10_of m ρ c main_v23 (by decide)).trans (at_v23_9 m ρ c)
theorem at_v23_11 : W11 m ρ c (Proc.devRef .tc main_v23) = C_v23 (F := Ideal) ((K.argsOf m c).a2) := (W11_of m ρ c main_v23 (by decide)).trans (at_v23_10 m ρ c)
theorem at_v23_12 : W12 m ρ c (Proc.devRef .tc main_v23) = C_v23 (F := Ideal) ((K.argsOf m c).a2) := (W12_of m ρ c main_v23 (by decide)).trans (at_v23_11 m ρ c)
theorem at_v23_13 : W13 m ρ c (Proc.devRef .tc main_v23) = C_v23 (F := Ideal) ((K.argsOf m c).a2) := (W13_of m ρ c main_v23 (by decide)).trans (at_v23_12 m ρ c)
theorem at_v23_14 : W14 m ρ c (Proc.devRef .tc main_v23) = C_v23 (F := Ideal) ((K.argsOf m c).a2) := (W14_of m ρ c main_v23 (by decide)).trans (at_v23_13 m ρ c)
theorem at_v23_15 : W15 m ρ c (Proc.devRef .tc main_v23) = C_v23 (F := Ideal) ((K.argsOf m c).a2) := (W15_of m ρ c main_v23 (by decide)).trans (at_v23_14 m ρ c)
theorem at_v23_16 : W16 m ρ c (Proc.devRef .tc main_v23) = C_v23 (F := Ideal) ((K.argsOf m c).a2) := (W16_of m ρ c main_v23 (by decide)).trans (at_v23_15 m ρ c)
theorem at_v23_17 : W17 m ρ c (Proc.devRef .tc main_v23) = C_v23 (F := Ideal) ((K.argsOf m c).a2) := (W17_of m ρ c main_v23 (by decide)).trans (at_v23_16 m ρ c)
theorem at_v23_18 : W18 m ρ c (Proc.devRef .tc main_v23) = C_v23 (F := Ideal) ((K.argsOf m c).a2) := (W18_of m ρ c main_v23 (by decide)).trans (at_v23_17 m ρ c)
theorem at_v23_19 : W19 m ρ c (Proc.devRef .tc main_v23) = C_v23 (F := Ideal) ((K.argsOf m c).a2) := (W19_of m ρ c main_v23 (by decide)).trans (at_v23_18 m ρ c)
theorem at_v23_20 : W20 m ρ c (Proc.devRef .tc main_v23) = C_v23 (F := Ideal) ((K.argsOf m c).a2) := (W20_of m ρ c main_v23 (by decide)).trans (at_v23_19 m ρ c)
theorem at_v23_21 : W21 m ρ c (Proc.devRef .tc main_v23) = C_v23 (F := Ideal) ((K.argsOf m c).a2) := (W21_of m ρ c main_v23 (by decide)).trans (at_v23_20 m ρ c)
theorem at_v23_22 : W22 m ρ c (Proc.devRef .tc main_v23) = C_v23 (F := Ideal) ((K.argsOf m c).a2) := (W22_of m ρ c main_v23 (by decide)).trans (at_v23_21 m ρ c)
theorem at_v23_23 : W23 m ρ c (Proc.devRef .tc main_v23) = C_v23 (F := Ideal) ((K.argsOf m c).a2) := (W23_of m ρ c main_v23 (by decide)).trans (at_v23_22 m ρ c)
theorem at_v23_24 : W24 m ρ c (Proc.devRef .tc main_v23) = C_v23 (F := Ideal) ((K.argsOf m c).a2) := (W24_of m ρ c main_v23 (by decide)).trans (at_v23_23 m ρ c)
theorem at_v23_25 : W25 m ρ c (Proc.devRef .tc main_v23) = C_v23 (F := Ideal) ((K.argsOf m c).a2) := (W25_of m ρ c main_v23 (by decide)).trans (at_v23_24 m ρ c)
theorem at_v23_26 : W26 m ρ c (Proc.devRef .tc main_v23) = C_v23 (F := Ideal) ((K.argsOf m c).a2) := (W26_of m ρ c main_v23 (by decide)).trans (at_v23_25 m ρ c)
theorem at_v23_27 : W27 m ρ c (Proc.devRef .tc main_v23) = C_v23 (F := Ideal) ((K.argsOf m c).a2) := (W27_of m ρ c main_v23 (by decide)).trans (at_v23_26 m ρ c)
theorem at_v23_28 : W28 m ρ c (Proc.devRef .tc main_v23) = C_v23 (F := Ideal) ((K.argsOf m c).a2) := (W28_of m ρ c main_v23 (by decide)).trans (at_v23_27 m ρ c)
theorem at_v23_29 : W29 m ρ c (Proc.devRef .tc main_v23) = C_v23 (F := Ideal) ((K.argsOf m c).a2) := (W29_of m ρ c main_v23 (by decide)).trans (at_v23_28 m ρ c)
theorem at_v151_30 : W30 m ρ c (Proc.devRef .tc main_v151) = K.ua1 (K.argsOf m c) :=
  st_ua1 (W29 m ρ c) (K.argsOf m c) (at_v5_29 m ρ c) (at_v145_29 m ρ c) (at_v23_29 m ρ c)
theorem at_v128_19 : W19 m ρ c (Proc.devRef .tc main_v128) = C_v128 (F := Ideal) (K.ln1 (K.argsOf m c)) :=
  rd_v128 (W18 m ρ c) (K.argsOf m c) (at_v110_18 m ρ c)
theorem at_v128_20 : W20 m ρ c (Proc.devRef .tc main_v128) = C_v128 (F := Ideal) (K.ln1 (K.argsOf m c)) := (W20_of m ρ c main_v128 (by decide)).trans (at_v128_19 m ρ c)
theorem at_v128_21 : W21 m ρ c (Proc.devRef .tc main_v128) = C_v128 (F := Ideal) (K.ln1 (K.argsOf m c)) := (W21_of m ρ c main_v128 (by decide)).trans (at_v128_20 m ρ c)
theorem at_v128_22 : W22 m ρ c (Proc.devRef .tc main_v128) = C_v128 (F := Ideal) (K.ln1 (K.argsOf m c)) := (W22_of m ρ c main_v128 (by decide)).trans (at_v128_21 m ρ c)
theorem at_v128_23 : W23 m ρ c (Proc.devRef .tc main_v128) = C_v128 (F := Ideal) (K.ln1 (K.argsOf m c)) := (W23_of m ρ c main_v128 (by decide)).trans (at_v128_22 m ρ c)
theorem at_v128_24 : W24 m ρ c (Proc.devRef .tc main_v128) = C_v128 (F := Ideal) (K.ln1 (K.argsOf m c)) := (W24_of m ρ c main_v128 (by decide)).trans (at_v128_23 m ρ c)
theorem at_v128_25 : W25 m ρ c (Proc.devRef .tc main_v128) = C_v128 (F := Ideal) (K.ln1 (K.argsOf m c)) := (W25_of m ρ c main_v128 (by decide)).trans (at_v128_24 m ρ c)
theorem at_v128_26 : W26 m ρ c (Proc.devRef .tc main_v128) = C_v128 (F := Ideal) (K.ln1 (K.argsOf m c)) := (W26_of m ρ c main_v128 (by decide)).trans (at_v128_25 m ρ c)
theorem at_v128_27 : W27 m ρ c (Proc.devRef .tc main_v128) = C_v128 (F := Ideal) (K.ln1 (K.argsOf m c)) := (W27_of m ρ c main_v128 (by decide)).trans (at_v128_26 m ρ c)
theorem at_v128_28 : W28 m ρ c (Proc.devRef .tc main_v128) = C_v128 (F := Ideal) (K.ln1 (K.argsOf m c)) := (W28_of m ρ c main_v128 (by decide)).trans (at_v128_27 m ρ c)
theorem at_v128_29 : W29 m ρ c (Proc.devRef .tc main_v128) = C_v128 (F := Ideal) (K.ln1 (K.argsOf m c)) := (W29_of m ρ c main_v128 (by decide)).trans (at_v128_28 m ρ c)
theorem at_v128_30 : W30 m ρ c (Proc.devRef .tc main_v128) = C_v128 (F := Ideal) (K.ln1 (K.argsOf m c)) := (W30_of m ρ c main_v128 (by decide)).trans (at_v128_29 m ρ c)
theorem at_c_23_30 : W30 m ρ c (Proc.devRef .tc main_c_23) = C_c_23 :=
  rd_c_23 (W29 m ρ c) (K.argsOf m c)
theorem at_v159_31 : W31 m ρ c (Proc.devRef .tc main_v159) = C_v159 (F := Ideal) (C_v128 (F := Ideal) (K.ln1 (K.argsOf m c))) (C_c_23) :=
  (congrArg (fun l => StableHlo.after l (W30 m ρ c) (Proc.devRef .tc main_v159)) hostOps3_1_eq).trans (rd_v159 (W30 m ρ c) (K.argsOf m c) (at_v128_30 m ρ c) (at_c_23_30 m ρ c))
theorem at_v159_32 : W32 m ρ c (Proc.devRef .tc main_v159) = C_v159 (F := Ideal) (C_v128 (F := Ideal) (K.ln1 (K.argsOf m c))) (C_c_23) := (W32_of m ρ c main_v159 (by decide)).trans (at_v159_31 m ρ c)
theorem at_v159_33 : W33 m ρ c (Proc.devRef .tc main_v159) = C_v159 (F := Ideal) (C_v128 (F := Ideal) (K.ln1 (K.argsOf m c))) (C_c_23) := (W33_of m ρ c main_v159 (by decide)).trans (at_v159_32 m ρ c)
theorem at_v151_31 : W31 m ρ c (Proc.devRef .tc main_v151) = K.ua1 (K.argsOf m c) := (W31_of m ρ c main_v151 (by decide)).trans (at_v151_30 m ρ c)
theorem at_v151_32 : W32 m ρ c (Proc.devRef .tc main_v151) = K.ua1 (K.argsOf m c) := (W32_of m ρ c main_v151 (by decide)).trans (at_v151_31 m ρ c)
theorem at_c_24_32 : W32 m ρ c (Proc.devRef .tc main_c_24) = C_c_24 :=
  rd_c_24 (W31 m ρ c) (K.argsOf m c)
theorem at_v160_33 : W33 m ρ c (Proc.devRef .tc main_v160) = C_v160 (F := Ideal) (K.ua1 (K.argsOf m c)) (C_c_24) :=
  (congrArg (fun l => StableHlo.after l (W32 m ρ c) (Proc.devRef .tc main_v160)) hostOps3_3_eq).trans (rd_v160 (W32 m ρ c) (K.argsOf m c) (at_v151_32 m ρ c) (at_c_24_32 m ρ c))
theorem at_v65_5 : W5 m ρ c (Proc.devRef .tc main_v65) = K.P10_nW1 (K.argsOf m c) :=
  pr_v65 (W4 m ρ c) (K.argsOf m c) (at_arg9_4 m ρ c)
theorem at_v65_6 : W6 m ρ c (Proc.devRef .tc main_v65) = K.P10_nW1 (K.argsOf m c) := (W6_of m ρ c main_v65 (by decide)).trans (at_v65_5 m ρ c)
theorem at_v65_7 : W7 m ρ c (Proc.devRef .tc main_v65) = K.P10_nW1 (K.argsOf m c) := (W7_of m ρ c main_v65 (by decide)).trans (at_v65_6 m ρ c)
theorem at_v65_8 : W8 m ρ c (Proc.devRef .tc main_v65) = K.P10_nW1 (K.argsOf m c) := (W8_of m ρ c main_v65 (by decide)).trans (at_v65_7 m ρ c)
theorem at_v65_9 : W9 m ρ c (Proc.devRef .tc main_v65) = K.P10_nW1 (K.argsOf m c) := (W9_of m ρ c main_v65 (by decide)).trans (at_v65_8 m ρ c)
theorem at_v65_10 : W10 m ρ c (Proc.devRef .tc main_v65) = K.P10_nW1 (K.argsOf m c) := (W10_of m ρ c main_v65 (by decide)).trans (at_v65_9 m ρ c)
theorem at_v65_11 : W11 m ρ c (Proc.devRef .tc main_v65) = K.P10_nW1 (K.argsOf m c) := (W11_of m ρ c main_v65 (by decide)).trans (at_v65_10 m ρ c)
theorem at_v65_12 : W12 m ρ c (Proc.devRef .tc main_v65) = K.P10_nW1 (K.argsOf m c) := (W12_of m ρ c main_v65 (by decide)).trans (at_v65_11 m ρ c)
theorem at_v65_13 : W13 m ρ c (Proc.devRef .tc main_v65) = K.P10_nW1 (K.argsOf m c) := (W13_of m ρ c main_v65 (by decide)).trans (at_v65_12 m ρ c)
theorem at_v65_14 : W14 m ρ c (Proc.devRef .tc main_v65) = K.P10_nW1 (K.argsOf m c) := (W14_of m ρ c main_v65 (by decide)).trans (at_v65_13 m ρ c)
theorem at_v65_15 : W15 m ρ c (Proc.devRef .tc main_v65) = K.P10_nW1 (K.argsOf m c) := (W15_of m ρ c main_v65 (by decide)).trans (at_v65_14 m ρ c)
theorem at_v65_16 : W16 m ρ c (Proc.devRef .tc main_v65) = K.P10_nW1 (K.argsOf m c) := (W16_of m ρ c main_v65 (by decide)).trans (at_v65_15 m ρ c)
theorem at_v65_17 : W17 m ρ c (Proc.devRef .tc main_v65) = K.P10_nW1 (K.argsOf m c) := (W17_of m ρ c main_v65 (by decide)).trans (at_v65_16 m ρ c)
theorem at_v65_18 : W18 m ρ c (Proc.devRef .tc main_v65) = K.P10_nW1 (K.argsOf m c) := (W18_of m ρ c main_v65 (by decide)).trans (at_v65_17 m ρ c)
theorem at_v65_19 : W19 m ρ c (Proc.devRef .tc main_v65) = K.P10_nW1 (K.argsOf m c) := (W19_of m ρ c main_v65 (by decide)).trans (at_v65_18 m ρ c)
theorem at_v65_20 : W20 m ρ c (Proc.devRef .tc main_v65) = K.P10_nW1 (K.argsOf m c) := (W20_of m ρ c main_v65 (by decide)).trans (at_v65_19 m ρ c)
theorem at_v65_21 : W21 m ρ c (Proc.devRef .tc main_v65) = K.P10_nW1 (K.argsOf m c) := (W21_of m ρ c main_v65 (by decide)).trans (at_v65_20 m ρ c)
theorem at_v65_22 : W22 m ρ c (Proc.devRef .tc main_v65) = K.P10_nW1 (K.argsOf m c) := (W22_of m ρ c main_v65 (by decide)).trans (at_v65_21 m ρ c)
theorem at_v65_23 : W23 m ρ c (Proc.devRef .tc main_v65) = K.P10_nW1 (K.argsOf m c) := (W23_of m ρ c main_v65 (by decide)).trans (at_v65_22 m ρ c)
theorem at_v65_24 : W24 m ρ c (Proc.devRef .tc main_v65) = K.P10_nW1 (K.argsOf m c) := (W24_of m ρ c main_v65 (by decide)).trans (at_v65_23 m ρ c)
theorem at_v65_25 : W25 m ρ c (Proc.devRef .tc main_v65) = K.P10_nW1 (K.argsOf m c) := (W25_of m ρ c main_v65 (by decide)).trans (at_v65_24 m ρ c)
theorem at_v65_26 : W26 m ρ c (Proc.devRef .tc main_v65) = K.P10_nW1 (K.argsOf m c) := (W26_of m ρ c main_v65 (by decide)).trans (at_v65_25 m ρ c)
theorem at_v65_27 : W27 m ρ c (Proc.devRef .tc main_v65) = K.P10_nW1 (K.argsOf m c) := (W27_of m ρ c main_v65 (by decide)).trans (at_v65_26 m ρ c)
theorem at_v65_28 : W28 m ρ c (Proc.devRef .tc main_v65) = K.P10_nW1 (K.argsOf m c) := (W28_of m ρ c main_v65 (by decide)).trans (at_v65_27 m ρ c)
theorem at_v65_29 : W29 m ρ c (Proc.devRef .tc main_v65) = K.P10_nW1 (K.argsOf m c) := (W29_of m ρ c main_v65 (by decide)).trans (at_v65_28 m ρ c)
theorem at_v153_30 : W30 m ρ c (Proc.devRef .tc main_v153) = C_v153 (F := Ideal) (K.P10_nW1 (K.argsOf m c)) :=
  rd_v153 (W29 m ρ c) (K.argsOf m c) (at_v65_29 m ρ c)
theorem at_v153_31 : W31 m ρ c (Proc.devRef .tc main_v153) = C_v153 (F := Ideal) (K.P10_nW1 (K.argsOf m c)) := (W31_of m ρ c main_v153 (by decide)).trans (at_v153_30 m ρ c)
theorem at_v153_32 : W32 m ρ c (Proc.devRef .tc main_v153) = C_v153 (F := Ideal) (K.P10_nW1 (K.argsOf m c)) := (W32_of m ρ c main_v153 (by decide)).trans (at_v153_31 m ρ c)
theorem at_v153_33 : W33 m ρ c (Proc.devRef .tc main_v153) = C_v153 (F := Ideal) (K.P10_nW1 (K.argsOf m c)) := (W33_of m ρ c main_v153 (by decide)).trans (at_v153_32 m ρ c)
theorem at_v154_30 : W30 m ρ c (Proc.devRef .tc main_v154) = C_v154 (F := Ideal) (K.P10_nW1 (K.argsOf m c)) :=
  rd_v154 (W29 m ρ c) (K.argsOf m c) (at_v65_29 m ρ c)
theorem at_v154_31 : W31 m ρ c (Proc.devRef .tc main_v154) = C_v154 (F := Ideal) (K.P10_nW1 (K.argsOf m c)) := (W31_of m ρ c main_v154 (by decide)).trans (at_v154_30 m ρ c)
theorem at_v154_32 : W32 m ρ c (Proc.devRef .tc main_v154) = C_v154 (F := Ideal) (K.P10_nW1 (K.argsOf m c)) := (W32_of m ρ c main_v154 (by decide)).trans (at_v154_31 m ρ c)
theorem at_v154_33 : W33 m ρ c (Proc.devRef .tc main_v154) = C_v154 (F := Ideal) (K.P10_nW1 (K.argsOf m c)) := (W33_of m ρ c main_v154 (by decide)).trans (at_v154_32 m ρ c)
theorem at_v67_5 : W5 m ρ c (Proc.devRef .tc main_v67) = K.P10_nb1 (K.argsOf m c) :=
  pr_v67 (W4 m ρ c) (K.argsOf m c) (at_arg10_4 m ρ c)
theorem at_v67_6 : W6 m ρ c (Proc.devRef .tc main_v67) = K.P10_nb1 (K.argsOf m c) := (W6_of m ρ c main_v67 (by decide)).trans (at_v67_5 m ρ c)
theorem at_v67_7 : W7 m ρ c (Proc.devRef .tc main_v67) = K.P10_nb1 (K.argsOf m c) := (W7_of m ρ c main_v67 (by decide)).trans (at_v67_6 m ρ c)
theorem at_v67_8 : W8 m ρ c (Proc.devRef .tc main_v67) = K.P10_nb1 (K.argsOf m c) := (W8_of m ρ c main_v67 (by decide)).trans (at_v67_7 m ρ c)
theorem at_v67_9 : W9 m ρ c (Proc.devRef .tc main_v67) = K.P10_nb1 (K.argsOf m c) := (W9_of m ρ c main_v67 (by decide)).trans (at_v67_8 m ρ c)
theorem at_v67_10 : W10 m ρ c (Proc.devRef .tc main_v67) = K.P10_nb1 (K.argsOf m c) := (W10_of m ρ c main_v67 (by decide)).trans (at_v67_9 m ρ c)
theorem at_v67_11 : W11 m ρ c (Proc.devRef .tc main_v67) = K.P10_nb1 (K.argsOf m c) := (W11_of m ρ c main_v67 (by decide)).trans (at_v67_10 m ρ c)
theorem at_v67_12 : W12 m ρ c (Proc.devRef .tc main_v67) = K.P10_nb1 (K.argsOf m c) := (W12_of m ρ c main_v67 (by decide)).trans (at_v67_11 m ρ c)
theorem at_v67_13 : W13 m ρ c (Proc.devRef .tc main_v67) = K.P10_nb1 (K.argsOf m c) := (W13_of m ρ c main_v67 (by decide)).trans (at_v67_12 m ρ c)
theorem at_v67_14 : W14 m ρ c (Proc.devRef .tc main_v67) = K.P10_nb1 (K.argsOf m c) := (W14_of m ρ c main_v67 (by decide)).trans (at_v67_13 m ρ c)
theorem at_v67_15 : W15 m ρ c (Proc.devRef .tc main_v67) = K.P10_nb1 (K.argsOf m c) := (W15_of m ρ c main_v67 (by decide)).trans (at_v67_14 m ρ c)
theorem at_v67_16 : W16 m ρ c (Proc.devRef .tc main_v67) = K.P10_nb1 (K.argsOf m c) := (W16_of m ρ c main_v67 (by decide)).trans (at_v67_15 m ρ c)
theorem at_v67_17 : W17 m ρ c (Proc.devRef .tc main_v67) = K.P10_nb1 (K.argsOf m c) := (W17_of m ρ c main_v67 (by decide)).trans (at_v67_16 m ρ c)
theorem at_v67_18 : W18 m ρ c (Proc.devRef .tc main_v67) = K.P10_nb1 (K.argsOf m c) := (W18_of m ρ c main_v67 (by decide)).trans (at_v67_17 m ρ c)
theorem at_v67_19 : W19 m ρ c (Proc.devRef .tc main_v67) = K.P10_nb1 (K.argsOf m c) := (W19_of m ρ c main_v67 (by decide)).trans (at_v67_18 m ρ c)
theorem at_v67_20 : W20 m ρ c (Proc.devRef .tc main_v67) = K.P10_nb1 (K.argsOf m c) := (W20_of m ρ c main_v67 (by decide)).trans (at_v67_19 m ρ c)
theorem at_v67_21 : W21 m ρ c (Proc.devRef .tc main_v67) = K.P10_nb1 (K.argsOf m c) := (W21_of m ρ c main_v67 (by decide)).trans (at_v67_20 m ρ c)
theorem at_v67_22 : W22 m ρ c (Proc.devRef .tc main_v67) = K.P10_nb1 (K.argsOf m c) := (W22_of m ρ c main_v67 (by decide)).trans (at_v67_21 m ρ c)
theorem at_v67_23 : W23 m ρ c (Proc.devRef .tc main_v67) = K.P10_nb1 (K.argsOf m c) := (W23_of m ρ c main_v67 (by decide)).trans (at_v67_22 m ρ c)
theorem at_v67_24 : W24 m ρ c (Proc.devRef .tc main_v67) = K.P10_nb1 (K.argsOf m c) := (W24_of m ρ c main_v67 (by decide)).trans (at_v67_23 m ρ c)
theorem at_v67_25 : W25 m ρ c (Proc.devRef .tc main_v67) = K.P10_nb1 (K.argsOf m c) := (W25_of m ρ c main_v67 (by decide)).trans (at_v67_24 m ρ c)
theorem at_v67_26 : W26 m ρ c (Proc.devRef .tc main_v67) = K.P10_nb1 (K.argsOf m c) := (W26_of m ρ c main_v67 (by decide)).trans (at_v67_25 m ρ c)
theorem at_v67_27 : W27 m ρ c (Proc.devRef .tc main_v67) = K.P10_nb1 (K.argsOf m c) := (W27_of m ρ c main_v67 (by decide)).trans (at_v67_26 m ρ c)
theorem at_v67_28 : W28 m ρ c (Proc.devRef .tc main_v67) = K.P10_nb1 (K.argsOf m c) := (W28_of m ρ c main_v67 (by decide)).trans (at_v67_27 m ρ c)
theorem at_v67_29 : W29 m ρ c (Proc.devRef .tc main_v67) = K.P10_nb1 (K.argsOf m c) := (W29_of m ρ c main_v67 (by decide)).trans (at_v67_28 m ρ c)
theorem at_v126_23 : W23 m ρ c (Proc.devRef .tc main_v126) = K.g1 (K.argsOf m c) := (W23_of m ρ c main_v126 (by decide)).trans (at_v126_22 m ρ c)
theorem at_v126_24 : W24 m ρ c (Proc.devRef .tc main_v126) = K.g1 (K.argsOf m c) := (W24_of m ρ c main_v126 (by decide)).trans (at_v126_23 m ρ c)
theorem at_v126_25 : W25 m ρ c (Proc.devRef .tc main_v126) = K.g1 (K.argsOf m c) := (W25_of m ρ c main_v126 (by decide)).trans (at_v126_24 m ρ c)
theorem at_v126_26 : W26 m ρ c (Proc.devRef .tc main_v126) = K.g1 (K.argsOf m c) := (W26_of m ρ c main_v126 (by decide)).trans (at_v126_25 m ρ c)
theorem at_v126_27 : W27 m ρ c (Proc.devRef .tc main_v126) = K.g1 (K.argsOf m c) := (W27_of m ρ c main_v126 (by decide)).trans (at_v126_26 m ρ c)
theorem at_v126_28 : W28 m ρ c (Proc.devRef .tc main_v126) = K.g1 (K.argsOf m c) := (W28_of m ρ c main_v126 (by decide)).trans (at_v126_27 m ρ c)
theorem at_v126_29 : W29 m ρ c (Proc.devRef .tc main_v126) = K.g1 (K.argsOf m c) := (W29_of m ρ c main_v126 (by decide)).trans (at_v126_28 m ρ c)
theorem at_v157_30 : W30 m ρ c (Proc.devRef .tc main_v157) = C_v157 (F := Ideal) (K.P10_nb1 (K.argsOf m c)) (K.g1 (K.argsOf m c)) (K.P10_nW1 (K.argsOf m c)) :=
  rd_v157 (W29 m ρ c) (K.argsOf m c) (at_v67_29 m ρ c) (at_v126_29 m ρ c) (at_v65_29 m ρ c)
theorem at_v157_31 : W31 m ρ c (Proc.devRef .tc main_v157) = C_v157 (F := Ideal) (K.P10_nb1 (K.argsOf m c)) (K.g1 (K.argsOf m c)) (K.P10_nW1 (K.argsOf m c)) := (W31_of m ρ c main_v157 (by decide)).trans (at_v157_30 m ρ c)
theorem at_v157_32 : W32 m ρ c (Proc.devRef .tc main_v157) = C_v157 (F := Ideal) (K.P10_nb1 (K.argsOf m c)) (K.g1 (K.argsOf m c)) (K.P10_nW1 (K.argsOf m c)) := (W32_of m ρ c main_v157 (by decide)).trans (at_v157_31 m ρ c)
theorem at_v157_33 : W33 m ρ c (Proc.devRef .tc main_v157) = C_v157 (F := Ideal) (K.P10_nb1 (K.argsOf m c)) (K.g1 (K.argsOf m c)) (K.P10_nW1 (K.argsOf m c)) := (W33_of m ρ c main_v157 (by decide)).trans (at_v157_32 m ρ c)
theorem at_v69_5 : W5 m ρ c (Proc.devRef .tc main_v69) = K.P10_nW2 (K.argsOf m c) :=
  pr_v69 (W4 m ρ c) (K.argsOf m c) (at_arg11_4 m ρ c)
theorem at_v69_6 : W6 m ρ c (Proc.devRef .tc main_v69) = K.P10_nW2 (K.argsOf m c) := (W6_of m ρ c main_v69 (by decide)).trans (at_v69_5 m ρ c)
theorem at_v69_7 : W7 m ρ c (Proc.devRef .tc main_v69) = K.P10_nW2 (K.argsOf m c) := (W7_of m ρ c main_v69 (by decide)).trans (at_v69_6 m ρ c)
theorem at_v69_8 : W8 m ρ c (Proc.devRef .tc main_v69) = K.P10_nW2 (K.argsOf m c) := (W8_of m ρ c main_v69 (by decide)).trans (at_v69_7 m ρ c)
theorem at_v69_9 : W9 m ρ c (Proc.devRef .tc main_v69) = K.P10_nW2 (K.argsOf m c) := (W9_of m ρ c main_v69 (by decide)).trans (at_v69_8 m ρ c)
theorem at_v69_10 : W10 m ρ c (Proc.devRef .tc main_v69) = K.P10_nW2 (K.argsOf m c) := (W10_of m ρ c main_v69 (by decide)).trans (at_v69_9 m ρ c)
theorem at_v69_11 : W11 m ρ c (Proc.devRef .tc main_v69) = K.P10_nW2 (K.argsOf m c) := (W11_of m ρ c main_v69 (by decide)).trans (at_v69_10 m ρ c)
theorem at_v69_12 : W12 m ρ c (Proc.devRef .tc main_v69) = K.P10_nW2 (K.argsOf m c) := (W12_of m ρ c main_v69 (by decide)).trans (at_v69_11 m ρ c)
theorem at_v69_13 : W13 m ρ c (Proc.devRef .tc main_v69) = K.P10_nW2 (K.argsOf m c) := (W13_of m ρ c main_v69 (by decide)).trans (at_v69_12 m ρ c)
theorem at_v69_14 : W14 m ρ c (Proc.devRef .tc main_v69) = K.P10_nW2 (K.argsOf m c) := (W14_of m ρ c main_v69 (by decide)).trans (at_v69_13 m ρ c)
theorem at_v69_15 : W15 m ρ c (Proc.devRef .tc main_v69) = K.P10_nW2 (K.argsOf m c) := (W15_of m ρ c main_v69 (by decide)).trans (at_v69_14 m ρ c)
theorem at_v69_16 : W16 m ρ c (Proc.devRef .tc main_v69) = K.P10_nW2 (K.argsOf m c) := (W16_of m ρ c main_v69 (by decide)).trans (at_v69_15 m ρ c)
theorem at_v69_17 : W17 m ρ c (Proc.devRef .tc main_v69) = K.P10_nW2 (K.argsOf m c) := (W17_of m ρ c main_v69 (by decide)).trans (at_v69_16 m ρ c)
theorem at_v69_18 : W18 m ρ c (Proc.devRef .tc main_v69) = K.P10_nW2 (K.argsOf m c) := (W18_of m ρ c main_v69 (by decide)).trans (at_v69_17 m ρ c)
theorem at_v69_19 : W19 m ρ c (Proc.devRef .tc main_v69) = K.P10_nW2 (K.argsOf m c) := (W19_of m ρ c main_v69 (by decide)).trans (at_v69_18 m ρ c)
theorem at_v69_20 : W20 m ρ c (Proc.devRef .tc main_v69) = K.P10_nW2 (K.argsOf m c) := (W20_of m ρ c main_v69 (by decide)).trans (at_v69_19 m ρ c)
theorem at_v69_21 : W21 m ρ c (Proc.devRef .tc main_v69) = K.P10_nW2 (K.argsOf m c) := (W21_of m ρ c main_v69 (by decide)).trans (at_v69_20 m ρ c)
theorem at_v69_22 : W22 m ρ c (Proc.devRef .tc main_v69) = K.P10_nW2 (K.argsOf m c) := (W22_of m ρ c main_v69 (by decide)).trans (at_v69_21 m ρ c)
theorem at_v69_23 : W23 m ρ c (Proc.devRef .tc main_v69) = K.P10_nW2 (K.argsOf m c) := (W23_of m ρ c main_v69 (by decide)).trans (at_v69_22 m ρ c)
theorem at_v69_24 : W24 m ρ c (Proc.devRef .tc main_v69) = K.P10_nW2 (K.argsOf m c) := (W24_of m ρ c main_v69 (by decide)).trans (at_v69_23 m ρ c)
theorem at_v69_25 : W25 m ρ c (Proc.devRef .tc main_v69) = K.P10_nW2 (K.argsOf m c) := (W25_of m ρ c main_v69 (by decide)).trans (at_v69_24 m ρ c)
theorem at_v69_26 : W26 m ρ c (Proc.devRef .tc main_v69) = K.P10_nW2 (K.argsOf m c) := (W26_of m ρ c main_v69 (by decide)).trans (at_v69_25 m ρ c)
theorem at_v69_27 : W27 m ρ c (Proc.devRef .tc main_v69) = K.P10_nW2 (K.argsOf m c) := (W27_of m ρ c main_v69 (by decide)).trans (at_v69_26 m ρ c)
theorem at_v69_28 : W28 m ρ c (Proc.devRef .tc main_v69) = K.P10_nW2 (K.argsOf m c) := (W28_of m ρ c main_v69 (by decide)).trans (at_v69_27 m ρ c)
theorem at_v69_29 : W29 m ρ c (Proc.devRef .tc main_v69) = K.P10_nW2 (K.argsOf m c) := (W29_of m ρ c main_v69 (by decide)).trans (at_v69_28 m ρ c)
theorem at_v69_30 : W30 m ρ c (Proc.devRef .tc main_v69) = K.P10_nW2 (K.argsOf m c) := (W30_of m ρ c main_v69 (by decide)).trans (at_v69_29 m ρ c)
theorem at_v69_31 : W31 m ρ c (Proc.devRef .tc main_v69) = K.P10_nW2 (K.argsOf m c) := (W31_of m ρ c main_v69 (by decide)).trans (at_v69_30 m ρ c)
theorem at_v69_32 : W32 m ρ c (Proc.devRef .tc main_v69) = K.P10_nW2 (K.argsOf m c) := (W32_of m ρ c main_v69 (by decide)).trans (at_v69_31 m ρ c)
theorem at_v69_33 : W33 m ρ c (Proc.devRef .tc main_v69) = K.P10_nW2 (K.argsOf m c) := (W33_of m ρ c main_v69 (by decide)).trans (at_v69_32 m ρ c)
theorem at_v71_5 : W5 m ρ c (Proc.devRef .tc main_v71) = K.P10_nb2 (K.argsOf m c) :=
  pr_v71 (W4 m ρ c) (K.argsOf m c) (at_arg12_4 m ρ c)
theorem at_v71_6 : W6 m ρ c (Proc.devRef .tc main_v71) = K.P10_nb2 (K.argsOf m c) := (W6_of m ρ c main_v71 (by decide)).trans (at_v71_5 m ρ c)
theorem at_v71_7 : W7 m ρ c (Proc.devRef .tc main_v71) = K.P10_nb2 (K.argsOf m c) := (W7_of m ρ c main_v71 (by decide)).trans (at_v71_6 m ρ c)
theorem at_v71_8 : W8 m ρ c (Proc.devRef .tc main_v71) = K.P10_nb2 (K.argsOf m c) := (W8_of m ρ c main_v71 (by decide)).trans (at_v71_7 m ρ c)
theorem at_v71_9 : W9 m ρ c (Proc.devRef .tc main_v71) = K.P10_nb2 (K.argsOf m c) := (W9_of m ρ c main_v71 (by decide)).trans (at_v71_8 m ρ c)
theorem at_v71_10 : W10 m ρ c (Proc.devRef .tc main_v71) = K.P10_nb2 (K.argsOf m c) := (W10_of m ρ c main_v71 (by decide)).trans (at_v71_9 m ρ c)
theorem at_v71_11 : W11 m ρ c (Proc.devRef .tc main_v71) = K.P10_nb2 (K.argsOf m c) := (W11_of m ρ c main_v71 (by decide)).trans (at_v71_10 m ρ c)
theorem at_v71_12 : W12 m ρ c (Proc.devRef .tc main_v71) = K.P10_nb2 (K.argsOf m c) := (W12_of m ρ c main_v71 (by decide)).trans (at_v71_11 m ρ c)
theorem at_v71_13 : W13 m ρ c (Proc.devRef .tc main_v71) = K.P10_nb2 (K.argsOf m c) := (W13_of m ρ c main_v71 (by decide)).trans (at_v71_12 m ρ c)
theorem at_v71_14 : W14 m ρ c (Proc.devRef .tc main_v71) = K.P10_nb2 (K.argsOf m c) := (W14_of m ρ c main_v71 (by decide)).trans (at_v71_13 m ρ c)
theorem at_v71_15 : W15 m ρ c (Proc.devRef .tc main_v71) = K.P10_nb2 (K.argsOf m c) := (W15_of m ρ c main_v71 (by decide)).trans (at_v71_14 m ρ c)
theorem at_v71_16 : W16 m ρ c (Proc.devRef .tc main_v71) = K.P10_nb2 (K.argsOf m c) := (W16_of m ρ c main_v71 (by decide)).trans (at_v71_15 m ρ c)
theorem at_v71_17 : W17 m ρ c (Proc.devRef .tc main_v71) = K.P10_nb2 (K.argsOf m c) := (W17_of m ρ c main_v71 (by decide)).trans (at_v71_16 m ρ c)
theorem at_v71_18 : W18 m ρ c (Proc.devRef .tc main_v71) = K.P10_nb2 (K.argsOf m c) := (W18_of m ρ c main_v71 (by decide)).trans (at_v71_17 m ρ c)
theorem at_v71_19 : W19 m ρ c (Proc.devRef .tc main_v71) = K.P10_nb2 (K.argsOf m c) := (W19_of m ρ c main_v71 (by decide)).trans (at_v71_18 m ρ c)
theorem at_v71_20 : W20 m ρ c (Proc.devRef .tc main_v71) = K.P10_nb2 (K.argsOf m c) := (W20_of m ρ c main_v71 (by decide)).trans (at_v71_19 m ρ c)
theorem at_v71_21 : W21 m ρ c (Proc.devRef .tc main_v71) = K.P10_nb2 (K.argsOf m c) := (W21_of m ρ c main_v71 (by decide)).trans (at_v71_20 m ρ c)
theorem at_v71_22 : W22 m ρ c (Proc.devRef .tc main_v71) = K.P10_nb2 (K.argsOf m c) := (W22_of m ρ c main_v71 (by decide)).trans (at_v71_21 m ρ c)
theorem at_v71_23 : W23 m ρ c (Proc.devRef .tc main_v71) = K.P10_nb2 (K.argsOf m c) := (W23_of m ρ c main_v71 (by decide)).trans (at_v71_22 m ρ c)
theorem at_v71_24 : W24 m ρ c (Proc.devRef .tc main_v71) = K.P10_nb2 (K.argsOf m c) := (W24_of m ρ c main_v71 (by decide)).trans (at_v71_23 m ρ c)
theorem at_v71_25 : W25 m ρ c (Proc.devRef .tc main_v71) = K.P10_nb2 (K.argsOf m c) := (W25_of m ρ c main_v71 (by decide)).trans (at_v71_24 m ρ c)
theorem at_v71_26 : W26 m ρ c (Proc.devRef .tc main_v71) = K.P10_nb2 (K.argsOf m c) := (W26_of m ρ c main_v71 (by decide)).trans (at_v71_25 m ρ c)
theorem at_v71_27 : W27 m ρ c (Proc.devRef .tc main_v71) = K.P10_nb2 (K.argsOf m c) := (W27_of m ρ c main_v71 (by decide)).trans (at_v71_26 m ρ c)
theorem at_v71_28 : W28 m ρ c (Proc.devRef .tc main_v71) = K.P10_nb2 (K.argsOf m c) := (W28_of m ρ c main_v71 (by decide)).trans (at_v71_27 m ρ c)
theorem at_v71_29 : W29 m ρ c (Proc.devRef .tc main_v71) = K.P10_nb2 (K.argsOf m c) := (W29_of m ρ c main_v71 (by decide)).trans (at_v71_28 m ρ c)
theorem at_v158_30 : W30 m ρ c (Proc.devRef .tc main_v158) = C_v158 (F := Ideal) (K.P10_nb2 (K.argsOf m c)) :=
  rd_v158 (W29 m ρ c) (K.argsOf m c) (at_v71_29 m ρ c)
theorem at_v158_31 : W31 m ρ c (Proc.devRef .tc main_v158) = C_v158 (F := Ideal) (K.P10_nb2 (K.argsOf m c)) := (W31_of m ρ c main_v158 (by decide)).trans (at_v158_30 m ρ c)
theorem at_v158_32 : W32 m ρ c (Proc.devRef .tc main_v158) = C_v158 (F := Ideal) (K.P10_nb2 (K.argsOf m c)) := (W32_of m ρ c main_v158 (by decide)).trans (at_v158_31 m ρ c)
theorem at_v158_33 : W33 m ρ c (Proc.devRef .tc main_v158) = C_v158 (F := Ideal) (K.P10_nb2 (K.argsOf m c)) := (W33_of m ρ c main_v158 (by decide)).trans (at_v158_32 m ρ c)
theorem at_v161_34 : W34 m ρ c (Proc.devRef .tc main_v161) = K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c))) :=
  (R3_read m ρ c).trans (by rw [at_v159_33 m ρ c, at_v160_33 m ρ c, at_v153_33 m ρ c, at_v154_33 m ρ c, at_v157_33 m ρ c, at_v69_33 m ρ c, at_v158_33 m ρ c])
theorem at_v162_35 : W35 m ρ c (Proc.devRef .tc main_v162) = K.un1 (K.argsOf m c) :=
  st_un1 (W34 m ρ c) (K.argsOf m c) (at_v161_34 m ρ c)
theorem at_v146_31 : W31 m ρ c (Proc.devRef .tc main_v146) = K.ue1 (K.argsOf m c) := (W31_of m ρ c main_v146 (by decide)).trans (at_v146_30 m ρ c)
theorem at_v146_32 : W32 m ρ c (Proc.devRef .tc main_v146) = K.ue1 (K.argsOf m c) := (W32_of m ρ c main_v146 (by decide)).trans (at_v146_31 m ρ c)
theorem at_v146_33 : W33 m ρ c (Proc.devRef .tc main_v146) = K.ue1 (K.argsOf m c) := (W33_of m ρ c main_v146 (by decide)).trans (at_v146_32 m ρ c)
theorem at_v146_34 : W34 m ρ c (Proc.devRef .tc main_v146) = K.ue1 (K.argsOf m c) := (W34_of m ρ c main_v146 (by decide)).trans (at_v146_33 m ρ c)
theorem at_v126_30 : W30 m ρ c (Proc.devRef .tc main_v126) = K.g1 (K.argsOf m c) := (W30_of m ρ c main_v126 (by decide)).trans (at_v126_29 m ρ c)
theorem at_v126_31 : W31 m ρ c (Proc.devRef .tc main_v126) = K.g1 (K.argsOf m c) := (W31_of m ρ c main_v126 (by decide)).trans (at_v126_30 m ρ c)
theorem at_v126_32 : W32 m ρ c (Proc.devRef .tc main_v126) = K.g1 (K.argsOf m c) := (W32_of m ρ c main_v126 (by decide)).trans (at_v126_31 m ρ c)
theorem at_v126_33 : W33 m ρ c (Proc.devRef .tc main_v126) = K.g1 (K.argsOf m c) := (W33_of m ρ c main_v126 (by decide)).trans (at_v126_32 m ρ c)
theorem at_v126_34 : W34 m ρ c (Proc.devRef .tc main_v126) = K.g1 (K.argsOf m c) := (W34_of m ρ c main_v126 (by decide)).trans (at_v126_33 m ρ c)
theorem at_v73_5 : W5 m ρ c (Proc.devRef .tc main_v73) = K.P10_gW1 (K.argsOf m c) :=
  pr_v73 (W4 m ρ c) (K.argsOf m c) (at_arg13_4 m ρ c)
theorem at_v73_6 : W6 m ρ c (Proc.devRef .tc main_v73) = K.P10_gW1 (K.argsOf m c) := (W6_of m ρ c main_v73 (by decide)).trans (at_v73_5 m ρ c)
theorem at_v73_7 : W7 m ρ c (Proc.devRef .tc main_v73) = K.P10_gW1 (K.argsOf m c) := (W7_of m ρ c main_v73 (by decide)).trans (at_v73_6 m ρ c)
theorem at_v73_8 : W8 m ρ c (Proc.devRef .tc main_v73) = K.P10_gW1 (K.argsOf m c) := (W8_of m ρ c main_v73 (by decide)).trans (at_v73_7 m ρ c)
theorem at_v73_9 : W9 m ρ c (Proc.devRef .tc main_v73) = K.P10_gW1 (K.argsOf m c) := (W9_of m ρ c main_v73 (by decide)).trans (at_v73_8 m ρ c)
theorem at_v73_10 : W10 m ρ c (Proc.devRef .tc main_v73) = K.P10_gW1 (K.argsOf m c) := (W10_of m ρ c main_v73 (by decide)).trans (at_v73_9 m ρ c)
theorem at_v73_11 : W11 m ρ c (Proc.devRef .tc main_v73) = K.P10_gW1 (K.argsOf m c) := (W11_of m ρ c main_v73 (by decide)).trans (at_v73_10 m ρ c)
theorem at_v73_12 : W12 m ρ c (Proc.devRef .tc main_v73) = K.P10_gW1 (K.argsOf m c) := (W12_of m ρ c main_v73 (by decide)).trans (at_v73_11 m ρ c)
theorem at_v73_13 : W13 m ρ c (Proc.devRef .tc main_v73) = K.P10_gW1 (K.argsOf m c) := (W13_of m ρ c main_v73 (by decide)).trans (at_v73_12 m ρ c)
theorem at_v73_14 : W14 m ρ c (Proc.devRef .tc main_v73) = K.P10_gW1 (K.argsOf m c) := (W14_of m ρ c main_v73 (by decide)).trans (at_v73_13 m ρ c)
theorem at_v73_15 : W15 m ρ c (Proc.devRef .tc main_v73) = K.P10_gW1 (K.argsOf m c) := (W15_of m ρ c main_v73 (by decide)).trans (at_v73_14 m ρ c)
theorem at_v73_16 : W16 m ρ c (Proc.devRef .tc main_v73) = K.P10_gW1 (K.argsOf m c) := (W16_of m ρ c main_v73 (by decide)).trans (at_v73_15 m ρ c)
theorem at_v73_17 : W17 m ρ c (Proc.devRef .tc main_v73) = K.P10_gW1 (K.argsOf m c) := (W17_of m ρ c main_v73 (by decide)).trans (at_v73_16 m ρ c)
theorem at_v73_18 : W18 m ρ c (Proc.devRef .tc main_v73) = K.P10_gW1 (K.argsOf m c) := (W18_of m ρ c main_v73 (by decide)).trans (at_v73_17 m ρ c)
theorem at_v73_19 : W19 m ρ c (Proc.devRef .tc main_v73) = K.P10_gW1 (K.argsOf m c) := (W19_of m ρ c main_v73 (by decide)).trans (at_v73_18 m ρ c)
theorem at_v73_20 : W20 m ρ c (Proc.devRef .tc main_v73) = K.P10_gW1 (K.argsOf m c) := (W20_of m ρ c main_v73 (by decide)).trans (at_v73_19 m ρ c)
theorem at_v73_21 : W21 m ρ c (Proc.devRef .tc main_v73) = K.P10_gW1 (K.argsOf m c) := (W21_of m ρ c main_v73 (by decide)).trans (at_v73_20 m ρ c)
theorem at_v73_22 : W22 m ρ c (Proc.devRef .tc main_v73) = K.P10_gW1 (K.argsOf m c) := (W22_of m ρ c main_v73 (by decide)).trans (at_v73_21 m ρ c)
theorem at_v73_23 : W23 m ρ c (Proc.devRef .tc main_v73) = K.P10_gW1 (K.argsOf m c) := (W23_of m ρ c main_v73 (by decide)).trans (at_v73_22 m ρ c)
theorem at_v73_24 : W24 m ρ c (Proc.devRef .tc main_v73) = K.P10_gW1 (K.argsOf m c) := (W24_of m ρ c main_v73 (by decide)).trans (at_v73_23 m ρ c)
theorem at_v73_25 : W25 m ρ c (Proc.devRef .tc main_v73) = K.P10_gW1 (K.argsOf m c) := (W25_of m ρ c main_v73 (by decide)).trans (at_v73_24 m ρ c)
theorem at_v73_26 : W26 m ρ c (Proc.devRef .tc main_v73) = K.P10_gW1 (K.argsOf m c) := (W26_of m ρ c main_v73 (by decide)).trans (at_v73_25 m ρ c)
theorem at_v73_27 : W27 m ρ c (Proc.devRef .tc main_v73) = K.P10_gW1 (K.argsOf m c) := (W27_of m ρ c main_v73 (by decide)).trans (at_v73_26 m ρ c)
theorem at_v73_28 : W28 m ρ c (Proc.devRef .tc main_v73) = K.P10_gW1 (K.argsOf m c) := (W28_of m ρ c main_v73 (by decide)).trans (at_v73_27 m ρ c)
theorem at_v73_29 : W29 m ρ c (Proc.devRef .tc main_v73) = K.P10_gW1 (K.argsOf m c) := (W29_of m ρ c main_v73 (by decide)).trans (at_v73_28 m ρ c)
theorem at_v73_30 : W30 m ρ c (Proc.devRef .tc main_v73) = K.P10_gW1 (K.argsOf m c) := (W30_of m ρ c main_v73 (by decide)).trans (at_v73_29 m ρ c)
theorem at_v73_31 : W31 m ρ c (Proc.devRef .tc main_v73) = K.P10_gW1 (K.argsOf m c) := (W31_of m ρ c main_v73 (by decide)).trans (at_v73_30 m ρ c)
theorem at_v73_32 : W32 m ρ c (Proc.devRef .tc main_v73) = K.P10_gW1 (K.argsOf m c) := (W32_of m ρ c main_v73 (by decide)).trans (at_v73_31 m ρ c)
theorem at_v73_33 : W33 m ρ c (Proc.devRef .tc main_v73) = K.P10_gW1 (K.argsOf m c) := (W33_of m ρ c main_v73 (by decide)).trans (at_v73_32 m ρ c)
theorem at_v73_34 : W34 m ρ c (Proc.devRef .tc main_v73) = K.P10_gW1 (K.argsOf m c) := (W34_of m ρ c main_v73 (by decide)).trans (at_v73_33 m ρ c)
theorem at_v75_5 : W5 m ρ c (Proc.devRef .tc main_v75) = K.P10_gb1 (K.argsOf m c) :=
  pr_v75 (W4 m ρ c) (K.argsOf m c) (at_arg14_4 m ρ c)
theorem at_v75_6 : W6 m ρ c (Proc.devRef .tc main_v75) = K.P10_gb1 (K.argsOf m c) := (W6_of m ρ c main_v75 (by decide)).trans (at_v75_5 m ρ c)
theorem at_v75_7 : W7 m ρ c (Proc.devRef .tc main_v75) = K.P10_gb1 (K.argsOf m c) := (W7_of m ρ c main_v75 (by decide)).trans (at_v75_6 m ρ c)
theorem at_v75_8 : W8 m ρ c (Proc.devRef .tc main_v75) = K.P10_gb1 (K.argsOf m c) := (W8_of m ρ c main_v75 (by decide)).trans (at_v75_7 m ρ c)
theorem at_v75_9 : W9 m ρ c (Proc.devRef .tc main_v75) = K.P10_gb1 (K.argsOf m c) := (W9_of m ρ c main_v75 (by decide)).trans (at_v75_8 m ρ c)
theorem at_v75_10 : W10 m ρ c (Proc.devRef .tc main_v75) = K.P10_gb1 (K.argsOf m c) := (W10_of m ρ c main_v75 (by decide)).trans (at_v75_9 m ρ c)
theorem at_v75_11 : W11 m ρ c (Proc.devRef .tc main_v75) = K.P10_gb1 (K.argsOf m c) := (W11_of m ρ c main_v75 (by decide)).trans (at_v75_10 m ρ c)
theorem at_v75_12 : W12 m ρ c (Proc.devRef .tc main_v75) = K.P10_gb1 (K.argsOf m c) := (W12_of m ρ c main_v75 (by decide)).trans (at_v75_11 m ρ c)
theorem at_v75_13 : W13 m ρ c (Proc.devRef .tc main_v75) = K.P10_gb1 (K.argsOf m c) := (W13_of m ρ c main_v75 (by decide)).trans (at_v75_12 m ρ c)
theorem at_v75_14 : W14 m ρ c (Proc.devRef .tc main_v75) = K.P10_gb1 (K.argsOf m c) := (W14_of m ρ c main_v75 (by decide)).trans (at_v75_13 m ρ c)
theorem at_v75_15 : W15 m ρ c (Proc.devRef .tc main_v75) = K.P10_gb1 (K.argsOf m c) := (W15_of m ρ c main_v75 (by decide)).trans (at_v75_14 m ρ c)
theorem at_v75_16 : W16 m ρ c (Proc.devRef .tc main_v75) = K.P10_gb1 (K.argsOf m c) := (W16_of m ρ c main_v75 (by decide)).trans (at_v75_15 m ρ c)
theorem at_v75_17 : W17 m ρ c (Proc.devRef .tc main_v75) = K.P10_gb1 (K.argsOf m c) := (W17_of m ρ c main_v75 (by decide)).trans (at_v75_16 m ρ c)
theorem at_v75_18 : W18 m ρ c (Proc.devRef .tc main_v75) = K.P10_gb1 (K.argsOf m c) := (W18_of m ρ c main_v75 (by decide)).trans (at_v75_17 m ρ c)
theorem at_v75_19 : W19 m ρ c (Proc.devRef .tc main_v75) = K.P10_gb1 (K.argsOf m c) := (W19_of m ρ c main_v75 (by decide)).trans (at_v75_18 m ρ c)
theorem at_v75_20 : W20 m ρ c (Proc.devRef .tc main_v75) = K.P10_gb1 (K.argsOf m c) := (W20_of m ρ c main_v75 (by decide)).trans (at_v75_19 m ρ c)
theorem at_v75_21 : W21 m ρ c (Proc.devRef .tc main_v75) = K.P10_gb1 (K.argsOf m c) := (W21_of m ρ c main_v75 (by decide)).trans (at_v75_20 m ρ c)
theorem at_v75_22 : W22 m ρ c (Proc.devRef .tc main_v75) = K.P10_gb1 (K.argsOf m c) := (W22_of m ρ c main_v75 (by decide)).trans (at_v75_21 m ρ c)
theorem at_v75_23 : W23 m ρ c (Proc.devRef .tc main_v75) = K.P10_gb1 (K.argsOf m c) := (W23_of m ρ c main_v75 (by decide)).trans (at_v75_22 m ρ c)
theorem at_v75_24 : W24 m ρ c (Proc.devRef .tc main_v75) = K.P10_gb1 (K.argsOf m c) := (W24_of m ρ c main_v75 (by decide)).trans (at_v75_23 m ρ c)
theorem at_v75_25 : W25 m ρ c (Proc.devRef .tc main_v75) = K.P10_gb1 (K.argsOf m c) := (W25_of m ρ c main_v75 (by decide)).trans (at_v75_24 m ρ c)
theorem at_v75_26 : W26 m ρ c (Proc.devRef .tc main_v75) = K.P10_gb1 (K.argsOf m c) := (W26_of m ρ c main_v75 (by decide)).trans (at_v75_25 m ρ c)
theorem at_v75_27 : W27 m ρ c (Proc.devRef .tc main_v75) = K.P10_gb1 (K.argsOf m c) := (W27_of m ρ c main_v75 (by decide)).trans (at_v75_26 m ρ c)
theorem at_v75_28 : W28 m ρ c (Proc.devRef .tc main_v75) = K.P10_gb1 (K.argsOf m c) := (W28_of m ρ c main_v75 (by decide)).trans (at_v75_27 m ρ c)
theorem at_v75_29 : W29 m ρ c (Proc.devRef .tc main_v75) = K.P10_gb1 (K.argsOf m c) := (W29_of m ρ c main_v75 (by decide)).trans (at_v75_28 m ρ c)
theorem at_v75_30 : W30 m ρ c (Proc.devRef .tc main_v75) = K.P10_gb1 (K.argsOf m c) := (W30_of m ρ c main_v75 (by decide)).trans (at_v75_29 m ρ c)
theorem at_v75_31 : W31 m ρ c (Proc.devRef .tc main_v75) = K.P10_gb1 (K.argsOf m c) := (W31_of m ρ c main_v75 (by decide)).trans (at_v75_30 m ρ c)
theorem at_v75_32 : W32 m ρ c (Proc.devRef .tc main_v75) = K.P10_gb1 (K.argsOf m c) := (W32_of m ρ c main_v75 (by decide)).trans (at_v75_31 m ρ c)
theorem at_v75_33 : W33 m ρ c (Proc.devRef .tc main_v75) = K.P10_gb1 (K.argsOf m c) := (W33_of m ρ c main_v75 (by decide)).trans (at_v75_32 m ρ c)
theorem at_v75_34 : W34 m ρ c (Proc.devRef .tc main_v75) = K.P10_gb1 (K.argsOf m c) := (W34_of m ρ c main_v75 (by decide)).trans (at_v75_33 m ρ c)
theorem at_v175_35 : W35 m ρ c (Proc.devRef .tc main_v175) = C_v175 (F := Ideal) (K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c)))) (K.ue1 (K.argsOf m c)) (K.g1 (K.argsOf m c)) (K.P10_gW1 (K.argsOf m c)) (K.P10_gb1 (K.argsOf m c)) :=
  rd_v175 (W34 m ρ c) (K.argsOf m c) (at_v161_34 m ρ c) (at_v146_34 m ρ c) (at_v126_34 m ρ c) (at_v73_34 m ρ c) (at_v75_34 m ρ c)
theorem at_v176_36 : W36 m ρ c (Proc.devRef .tc main_v176) = C_v176 (F := Ideal) (C_v175 (F := Ideal) (K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c)))) (K.ue1 (K.argsOf m c)) (K.g1 (K.argsOf m c)) (K.P10_gW1 (K.argsOf m c)) (K.P10_gb1 (K.argsOf m c))) :=
  (congrArg (fun l => StableHlo.after l (W35 m ρ c) (Proc.devRef .tc main_v176)) hostOps4_1_eq).trans (rd_v176 (W35 m ρ c) (K.argsOf m c) (at_v175_35 m ρ c))
theorem at_v77_5 : W5 m ρ c (Proc.devRef .tc main_v77) = K.P10_gW2 (K.argsOf m c) :=
  pr_v77 (W4 m ρ c) (K.argsOf m c) (at_arg15_4 m ρ c)
theorem at_v77_6 : W6 m ρ c (Proc.devRef .tc main_v77) = K.P10_gW2 (K.argsOf m c) := (W6_of m ρ c main_v77 (by decide)).trans (at_v77_5 m ρ c)
theorem at_v77_7 : W7 m ρ c (Proc.devRef .tc main_v77) = K.P10_gW2 (K.argsOf m c) := (W7_of m ρ c main_v77 (by decide)).trans (at_v77_6 m ρ c)
theorem at_v77_8 : W8 m ρ c (Proc.devRef .tc main_v77) = K.P10_gW2 (K.argsOf m c) := (W8_of m ρ c main_v77 (by decide)).trans (at_v77_7 m ρ c)
theorem at_v77_9 : W9 m ρ c (Proc.devRef .tc main_v77) = K.P10_gW2 (K.argsOf m c) := (W9_of m ρ c main_v77 (by decide)).trans (at_v77_8 m ρ c)
theorem at_v77_10 : W10 m ρ c (Proc.devRef .tc main_v77) = K.P10_gW2 (K.argsOf m c) := (W10_of m ρ c main_v77 (by decide)).trans (at_v77_9 m ρ c)
theorem at_v77_11 : W11 m ρ c (Proc.devRef .tc main_v77) = K.P10_gW2 (K.argsOf m c) := (W11_of m ρ c main_v77 (by decide)).trans (at_v77_10 m ρ c)
theorem at_v77_12 : W12 m ρ c (Proc.devRef .tc main_v77) = K.P10_gW2 (K.argsOf m c) := (W12_of m ρ c main_v77 (by decide)).trans (at_v77_11 m ρ c)
theorem at_v77_13 : W13 m ρ c (Proc.devRef .tc main_v77) = K.P10_gW2 (K.argsOf m c) := (W13_of m ρ c main_v77 (by decide)).trans (at_v77_12 m ρ c)
theorem at_v77_14 : W14 m ρ c (Proc.devRef .tc main_v77) = K.P10_gW2 (K.argsOf m c) := (W14_of m ρ c main_v77 (by decide)).trans (at_v77_13 m ρ c)
theorem at_v77_15 : W15 m ρ c (Proc.devRef .tc main_v77) = K.P10_gW2 (K.argsOf m c) := (W15_of m ρ c main_v77 (by decide)).trans (at_v77_14 m ρ c)
theorem at_v77_16 : W16 m ρ c (Proc.devRef .tc main_v77) = K.P10_gW2 (K.argsOf m c) := (W16_of m ρ c main_v77 (by decide)).trans (at_v77_15 m ρ c)
theorem at_v77_17 : W17 m ρ c (Proc.devRef .tc main_v77) = K.P10_gW2 (K.argsOf m c) := (W17_of m ρ c main_v77 (by decide)).trans (at_v77_16 m ρ c)
theorem at_v77_18 : W18 m ρ c (Proc.devRef .tc main_v77) = K.P10_gW2 (K.argsOf m c) := (W18_of m ρ c main_v77 (by decide)).trans (at_v77_17 m ρ c)
theorem at_v77_19 : W19 m ρ c (Proc.devRef .tc main_v77) = K.P10_gW2 (K.argsOf m c) := (W19_of m ρ c main_v77 (by decide)).trans (at_v77_18 m ρ c)
theorem at_v77_20 : W20 m ρ c (Proc.devRef .tc main_v77) = K.P10_gW2 (K.argsOf m c) := (W20_of m ρ c main_v77 (by decide)).trans (at_v77_19 m ρ c)
theorem at_v77_21 : W21 m ρ c (Proc.devRef .tc main_v77) = K.P10_gW2 (K.argsOf m c) := (W21_of m ρ c main_v77 (by decide)).trans (at_v77_20 m ρ c)
theorem at_v77_22 : W22 m ρ c (Proc.devRef .tc main_v77) = K.P10_gW2 (K.argsOf m c) := (W22_of m ρ c main_v77 (by decide)).trans (at_v77_21 m ρ c)
theorem at_v77_23 : W23 m ρ c (Proc.devRef .tc main_v77) = K.P10_gW2 (K.argsOf m c) := (W23_of m ρ c main_v77 (by decide)).trans (at_v77_22 m ρ c)
theorem at_v77_24 : W24 m ρ c (Proc.devRef .tc main_v77) = K.P10_gW2 (K.argsOf m c) := (W24_of m ρ c main_v77 (by decide)).trans (at_v77_23 m ρ c)
theorem at_v77_25 : W25 m ρ c (Proc.devRef .tc main_v77) = K.P10_gW2 (K.argsOf m c) := (W25_of m ρ c main_v77 (by decide)).trans (at_v77_24 m ρ c)
theorem at_v77_26 : W26 m ρ c (Proc.devRef .tc main_v77) = K.P10_gW2 (K.argsOf m c) := (W26_of m ρ c main_v77 (by decide)).trans (at_v77_25 m ρ c)
theorem at_v77_27 : W27 m ρ c (Proc.devRef .tc main_v77) = K.P10_gW2 (K.argsOf m c) := (W27_of m ρ c main_v77 (by decide)).trans (at_v77_26 m ρ c)
theorem at_v77_28 : W28 m ρ c (Proc.devRef .tc main_v77) = K.P10_gW2 (K.argsOf m c) := (W28_of m ρ c main_v77 (by decide)).trans (at_v77_27 m ρ c)
theorem at_v77_29 : W29 m ρ c (Proc.devRef .tc main_v77) = K.P10_gW2 (K.argsOf m c) := (W29_of m ρ c main_v77 (by decide)).trans (at_v77_28 m ρ c)
theorem at_v77_30 : W30 m ρ c (Proc.devRef .tc main_v77) = K.P10_gW2 (K.argsOf m c) := (W30_of m ρ c main_v77 (by decide)).trans (at_v77_29 m ρ c)
theorem at_v77_31 : W31 m ρ c (Proc.devRef .tc main_v77) = K.P10_gW2 (K.argsOf m c) := (W31_of m ρ c main_v77 (by decide)).trans (at_v77_30 m ρ c)
theorem at_v77_32 : W32 m ρ c (Proc.devRef .tc main_v77) = K.P10_gW2 (K.argsOf m c) := (W32_of m ρ c main_v77 (by decide)).trans (at_v77_31 m ρ c)
theorem at_v77_33 : W33 m ρ c (Proc.devRef .tc main_v77) = K.P10_gW2 (K.argsOf m c) := (W33_of m ρ c main_v77 (by decide)).trans (at_v77_32 m ρ c)
theorem at_v77_34 : W34 m ρ c (Proc.devRef .tc main_v77) = K.P10_gW2 (K.argsOf m c) := (W34_of m ρ c main_v77 (by decide)).trans (at_v77_33 m ρ c)
theorem at_v77_35 : W35 m ρ c (Proc.devRef .tc main_v77) = K.P10_gW2 (K.argsOf m c) := (W35_of m ρ c main_v77 (by decide)).trans (at_v77_34 m ρ c)
theorem at_v77_36 : W36 m ρ c (Proc.devRef .tc main_v77) = K.P10_gW2 (K.argsOf m c) := (W36_of m ρ c main_v77 (by decide)).trans (at_v77_35 m ρ c)
theorem at_v79_5 : W5 m ρ c (Proc.devRef .tc main_v79) = K.P10_gb2 (K.argsOf m c) :=
  pr_v79 (W4 m ρ c) (K.argsOf m c) (at_arg16_4 m ρ c)
theorem at_v79_6 : W6 m ρ c (Proc.devRef .tc main_v79) = K.P10_gb2 (K.argsOf m c) := (W6_of m ρ c main_v79 (by decide)).trans (at_v79_5 m ρ c)
theorem at_v79_7 : W7 m ρ c (Proc.devRef .tc main_v79) = K.P10_gb2 (K.argsOf m c) := (W7_of m ρ c main_v79 (by decide)).trans (at_v79_6 m ρ c)
theorem at_v79_8 : W8 m ρ c (Proc.devRef .tc main_v79) = K.P10_gb2 (K.argsOf m c) := (W8_of m ρ c main_v79 (by decide)).trans (at_v79_7 m ρ c)
theorem at_v79_9 : W9 m ρ c (Proc.devRef .tc main_v79) = K.P10_gb2 (K.argsOf m c) := (W9_of m ρ c main_v79 (by decide)).trans (at_v79_8 m ρ c)
theorem at_v79_10 : W10 m ρ c (Proc.devRef .tc main_v79) = K.P10_gb2 (K.argsOf m c) := (W10_of m ρ c main_v79 (by decide)).trans (at_v79_9 m ρ c)
theorem at_v79_11 : W11 m ρ c (Proc.devRef .tc main_v79) = K.P10_gb2 (K.argsOf m c) := (W11_of m ρ c main_v79 (by decide)).trans (at_v79_10 m ρ c)
theorem at_v79_12 : W12 m ρ c (Proc.devRef .tc main_v79) = K.P10_gb2 (K.argsOf m c) := (W12_of m ρ c main_v79 (by decide)).trans (at_v79_11 m ρ c)
theorem at_v79_13 : W13 m ρ c (Proc.devRef .tc main_v79) = K.P10_gb2 (K.argsOf m c) := (W13_of m ρ c main_v79 (by decide)).trans (at_v79_12 m ρ c)
theorem at_v79_14 : W14 m ρ c (Proc.devRef .tc main_v79) = K.P10_gb2 (K.argsOf m c) := (W14_of m ρ c main_v79 (by decide)).trans (at_v79_13 m ρ c)
theorem at_v79_15 : W15 m ρ c (Proc.devRef .tc main_v79) = K.P10_gb2 (K.argsOf m c) := (W15_of m ρ c main_v79 (by decide)).trans (at_v79_14 m ρ c)
theorem at_v79_16 : W16 m ρ c (Proc.devRef .tc main_v79) = K.P10_gb2 (K.argsOf m c) := (W16_of m ρ c main_v79 (by decide)).trans (at_v79_15 m ρ c)
theorem at_v79_17 : W17 m ρ c (Proc.devRef .tc main_v79) = K.P10_gb2 (K.argsOf m c) := (W17_of m ρ c main_v79 (by decide)).trans (at_v79_16 m ρ c)
theorem at_v79_18 : W18 m ρ c (Proc.devRef .tc main_v79) = K.P10_gb2 (K.argsOf m c) := (W18_of m ρ c main_v79 (by decide)).trans (at_v79_17 m ρ c)
theorem at_v79_19 : W19 m ρ c (Proc.devRef .tc main_v79) = K.P10_gb2 (K.argsOf m c) := (W19_of m ρ c main_v79 (by decide)).trans (at_v79_18 m ρ c)
theorem at_v79_20 : W20 m ρ c (Proc.devRef .tc main_v79) = K.P10_gb2 (K.argsOf m c) := (W20_of m ρ c main_v79 (by decide)).trans (at_v79_19 m ρ c)
theorem at_v79_21 : W21 m ρ c (Proc.devRef .tc main_v79) = K.P10_gb2 (K.argsOf m c) := (W21_of m ρ c main_v79 (by decide)).trans (at_v79_20 m ρ c)
theorem at_v79_22 : W22 m ρ c (Proc.devRef .tc main_v79) = K.P10_gb2 (K.argsOf m c) := (W22_of m ρ c main_v79 (by decide)).trans (at_v79_21 m ρ c)
theorem at_v79_23 : W23 m ρ c (Proc.devRef .tc main_v79) = K.P10_gb2 (K.argsOf m c) := (W23_of m ρ c main_v79 (by decide)).trans (at_v79_22 m ρ c)
theorem at_v79_24 : W24 m ρ c (Proc.devRef .tc main_v79) = K.P10_gb2 (K.argsOf m c) := (W24_of m ρ c main_v79 (by decide)).trans (at_v79_23 m ρ c)
theorem at_v79_25 : W25 m ρ c (Proc.devRef .tc main_v79) = K.P10_gb2 (K.argsOf m c) := (W25_of m ρ c main_v79 (by decide)).trans (at_v79_24 m ρ c)
theorem at_v79_26 : W26 m ρ c (Proc.devRef .tc main_v79) = K.P10_gb2 (K.argsOf m c) := (W26_of m ρ c main_v79 (by decide)).trans (at_v79_25 m ρ c)
theorem at_v79_27 : W27 m ρ c (Proc.devRef .tc main_v79) = K.P10_gb2 (K.argsOf m c) := (W27_of m ρ c main_v79 (by decide)).trans (at_v79_26 m ρ c)
theorem at_v79_28 : W28 m ρ c (Proc.devRef .tc main_v79) = K.P10_gb2 (K.argsOf m c) := (W28_of m ρ c main_v79 (by decide)).trans (at_v79_27 m ρ c)
theorem at_v79_29 : W29 m ρ c (Proc.devRef .tc main_v79) = K.P10_gb2 (K.argsOf m c) := (W29_of m ρ c main_v79 (by decide)).trans (at_v79_28 m ρ c)
theorem at_v79_30 : W30 m ρ c (Proc.devRef .tc main_v79) = K.P10_gb2 (K.argsOf m c) := (W30_of m ρ c main_v79 (by decide)).trans (at_v79_29 m ρ c)
theorem at_v79_31 : W31 m ρ c (Proc.devRef .tc main_v79) = K.P10_gb2 (K.argsOf m c) := (W31_of m ρ c main_v79 (by decide)).trans (at_v79_30 m ρ c)
theorem at_v79_32 : W32 m ρ c (Proc.devRef .tc main_v79) = K.P10_gb2 (K.argsOf m c) := (W32_of m ρ c main_v79 (by decide)).trans (at_v79_31 m ρ c)
theorem at_v79_33 : W33 m ρ c (Proc.devRef .tc main_v79) = K.P10_gb2 (K.argsOf m c) := (W33_of m ρ c main_v79 (by decide)).trans (at_v79_32 m ρ c)
theorem at_v79_34 : W34 m ρ c (Proc.devRef .tc main_v79) = K.P10_gb2 (K.argsOf m c) := (W34_of m ρ c main_v79 (by decide)).trans (at_v79_33 m ρ c)
theorem at_v173_35 : W35 m ρ c (Proc.devRef .tc main_v173) = C_v173 (F := Ideal) (K.P10_gb2 (K.argsOf m c)) :=
  rd_v173 (W34 m ρ c) (K.argsOf m c) (at_v79_34 m ρ c)
theorem at_v173_36 : W36 m ρ c (Proc.devRef .tc main_v173) = C_v173 (F := Ideal) (K.P10_gb2 (K.argsOf m c)) := (W36_of m ρ c main_v173 (by decide)).trans (at_v173_35 m ρ c)
theorem at_v178_37 : W37 m ρ c (Proc.devRef .tc main_v178) = K.g2 (K.argsOf m c) :=
  st_g2 (W36 m ρ c) (K.argsOf m c) (at_v176_36 m ρ c) (at_v77_36 m ρ c) (at_v173_36 m ρ c)
theorem at_v94_17 : W17 m ρ c (Proc.devRef .tc main_v94) = K.le1 (K.argsOf m c) := (W17_of m ρ c main_v94 (by decide)).trans (at_v94_16 m ρ c)
theorem at_v94_18 : W18 m ρ c (Proc.devRef .tc main_v94) = K.le1 (K.argsOf m c) := (W18_of m ρ c main_v94 (by decide)).trans (at_v94_17 m ρ c)
theorem at_v94_19 : W19 m ρ c (Proc.devRef .tc main_v94) = K.le1 (K.argsOf m c) := (W19_of m ρ c main_v94 (by decide)).trans (at_v94_18 m ρ c)
theorem at_v94_20 : W20 m ρ c (Proc.devRef .tc main_v94) = K.le1 (K.argsOf m c) := (W20_of m ρ c main_v94 (by decide)).trans (at_v94_19 m ρ c)
theorem at_v94_21 : W21 m ρ c (Proc.devRef .tc main_v94) = K.le1 (K.argsOf m c) := (W21_of m ρ c main_v94 (by decide)).trans (at_v94_20 m ρ c)
theorem at_v94_22 : W22 m ρ c (Proc.devRef .tc main_v94) = K.le1 (K.argsOf m c) := (W22_of m ρ c main_v94 (by decide)).trans (at_v94_21 m ρ c)
theorem at_v94_23 : W23 m ρ c (Proc.devRef .tc main_v94) = K.le1 (K.argsOf m c) := (W23_of m ρ c main_v94 (by decide)).trans (at_v94_22 m ρ c)
theorem at_v94_24 : W24 m ρ c (Proc.devRef .tc main_v94) = K.le1 (K.argsOf m c) := (W24_of m ρ c main_v94 (by decide)).trans (at_v94_23 m ρ c)
theorem at_v94_25 : W25 m ρ c (Proc.devRef .tc main_v94) = K.le1 (K.argsOf m c) := (W25_of m ρ c main_v94 (by decide)).trans (at_v94_24 m ρ c)
theorem at_v94_26 : W26 m ρ c (Proc.devRef .tc main_v94) = K.le1 (K.argsOf m c) := (W26_of m ρ c main_v94 (by decide)).trans (at_v94_25 m ρ c)
theorem at_v94_27 : W27 m ρ c (Proc.devRef .tc main_v94) = K.le1 (K.argsOf m c) := (W27_of m ρ c main_v94 (by decide)).trans (at_v94_26 m ρ c)
theorem at_v94_28 : W28 m ρ c (Proc.devRef .tc main_v94) = K.le1 (K.argsOf m c) := (W28_of m ρ c main_v94 (by decide)).trans (at_v94_27 m ρ c)
theorem at_v94_29 : W29 m ρ c (Proc.devRef .tc main_v94) = K.le1 (K.argsOf m c) := (W29_of m ρ c main_v94 (by decide)).trans (at_v94_28 m ρ c)
theorem at_v94_30 : W30 m ρ c (Proc.devRef .tc main_v94) = K.le1 (K.argsOf m c) := (W30_of m ρ c main_v94 (by decide)).trans (at_v94_29 m ρ c)
theorem at_v94_31 : W31 m ρ c (Proc.devRef .tc main_v94) = K.le1 (K.argsOf m c) := (W31_of m ρ c main_v94 (by decide)).trans (at_v94_30 m ρ c)
theorem at_v94_32 : W32 m ρ c (Proc.devRef .tc main_v94) = K.le1 (K.argsOf m c) := (W32_of m ρ c main_v94 (by decide)).trans (at_v94_31 m ρ c)
theorem at_v94_33 : W33 m ρ c (Proc.devRef .tc main_v94) = K.le1 (K.argsOf m c) := (W33_of m ρ c main_v94 (by decide)).trans (at_v94_32 m ρ c)
theorem at_v94_34 : W34 m ρ c (Proc.devRef .tc main_v94) = K.le1 (K.argsOf m c) := (W34_of m ρ c main_v94 (by decide)).trans (at_v94_33 m ρ c)
theorem at_v94_35 : W35 m ρ c (Proc.devRef .tc main_v94) = K.le1 (K.argsOf m c) := (W35_of m ρ c main_v94 (by decide)).trans (at_v94_34 m ρ c)
theorem at_v94_36 : W36 m ρ c (Proc.devRef .tc main_v94) = K.le1 (K.argsOf m c) := (W36_of m ρ c main_v94 (by decide)).trans (at_v94_35 m ρ c)
theorem at_arg3_5 : W5 m ρ c (Proc.devRef .tc main_arg3) = (K.argsOf m c).a3 := (W5_of m ρ c main_arg3 (by decide)).trans (at_arg3_4 m ρ c)
theorem at_arg3_6 : W6 m ρ c (Proc.devRef .tc main_arg3) = (K.argsOf m c).a3 := (W6_of m ρ c main_arg3 (by decide)).trans (at_arg3_5 m ρ c)
theorem at_arg3_7 : W7 m ρ c (Proc.devRef .tc main_arg3) = (K.argsOf m c).a3 := (W7_of m ρ c main_arg3 (by decide)).trans (at_arg3_6 m ρ c)
theorem at_arg3_8 : W8 m ρ c (Proc.devRef .tc main_arg3) = (K.argsOf m c).a3 := (W8_of m ρ c main_arg3 (by decide)).trans (at_arg3_7 m ρ c)
theorem at_arg3_9 : W9 m ρ c (Proc.devRef .tc main_arg3) = (K.argsOf m c).a3 := (W9_of m ρ c main_arg3 (by decide)).trans (at_arg3_8 m ρ c)
theorem at_arg3_10 : W10 m ρ c (Proc.devRef .tc main_arg3) = (K.argsOf m c).a3 := (W10_of m ρ c main_arg3 (by decide)).trans (at_arg3_9 m ρ c)
theorem at_arg3_11 : W11 m ρ c (Proc.devRef .tc main_arg3) = (K.argsOf m c).a3 := (W11_of m ρ c main_arg3 (by decide)).trans (at_arg3_10 m ρ c)
theorem at_arg3_12 : W12 m ρ c (Proc.devRef .tc main_arg3) = (K.argsOf m c).a3 := (W12_of m ρ c main_arg3 (by decide)).trans (at_arg3_11 m ρ c)
theorem at_arg3_13 : W13 m ρ c (Proc.devRef .tc main_arg3) = (K.argsOf m c).a3 := (W13_of m ρ c main_arg3 (by decide)).trans (at_arg3_12 m ρ c)
theorem at_arg3_14 : W14 m ρ c (Proc.devRef .tc main_arg3) = (K.argsOf m c).a3 := (W14_of m ρ c main_arg3 (by decide)).trans (at_arg3_13 m ρ c)
theorem at_arg3_15 : W15 m ρ c (Proc.devRef .tc main_arg3) = (K.argsOf m c).a3 := (W15_of m ρ c main_arg3 (by decide)).trans (at_arg3_14 m ρ c)
theorem at_arg3_16 : W16 m ρ c (Proc.devRef .tc main_arg3) = (K.argsOf m c).a3 := (W16_of m ρ c main_arg3 (by decide)).trans (at_arg3_15 m ρ c)
theorem at_arg3_17 : W17 m ρ c (Proc.devRef .tc main_arg3) = (K.argsOf m c).a3 := (W17_of m ρ c main_arg3 (by decide)).trans (at_arg3_16 m ρ c)
theorem at_arg3_18 : W18 m ρ c (Proc.devRef .tc main_arg3) = (K.argsOf m c).a3 := (W18_of m ρ c main_arg3 (by decide)).trans (at_arg3_17 m ρ c)
theorem at_arg3_19 : W19 m ρ c (Proc.devRef .tc main_arg3) = (K.argsOf m c).a3 := (W19_of m ρ c main_arg3 (by decide)).trans (at_arg3_18 m ρ c)
theorem at_arg3_20 : W20 m ρ c (Proc.devRef .tc main_arg3) = (K.argsOf m c).a3 := (W20_of m ρ c main_arg3 (by decide)).trans (at_arg3_19 m ρ c)
theorem at_arg3_21 : W21 m ρ c (Proc.devRef .tc main_arg3) = (K.argsOf m c).a3 := (W21_of m ρ c main_arg3 (by decide)).trans (at_arg3_20 m ρ c)
theorem at_arg3_22 : W22 m ρ c (Proc.devRef .tc main_arg3) = (K.argsOf m c).a3 := (W22_of m ρ c main_arg3 (by decide)).trans (at_arg3_21 m ρ c)
theorem at_arg3_23 : W23 m ρ c (Proc.devRef .tc main_arg3) = (K.argsOf m c).a3 := (W23_of m ρ c main_arg3 (by decide)).trans (at_arg3_22 m ρ c)
theorem at_arg3_24 : W24 m ρ c (Proc.devRef .tc main_arg3) = (K.argsOf m c).a3 := (W24_of m ρ c main_arg3 (by decide)).trans (at_arg3_23 m ρ c)
theorem at_arg3_25 : W25 m ρ c (Proc.devRef .tc main_arg3) = (K.argsOf m c).a3 := (W25_of m ρ c main_arg3 (by decide)).trans (at_arg3_24 m ρ c)
theorem at_arg3_26 : W26 m ρ c (Proc.devRef .tc main_arg3) = (K.argsOf m c).a3 := (W26_of m ρ c main_arg3 (by decide)).trans (at_arg3_25 m ρ c)
theorem at_arg3_27 : W27 m ρ c (Proc.devRef .tc main_arg3) = (K.argsOf m c).a3 := (W27_of m ρ c main_arg3 (by decide)).trans (at_arg3_26 m ρ c)
theorem at_arg3_28 : W28 m ρ c (Proc.devRef .tc main_arg3) = (K.argsOf m c).a3 := (W28_of m ρ c main_arg3 (by decide)).trans (at_arg3_27 m ρ c)
theorem at_arg3_29 : W29 m ρ c (Proc.devRef .tc main_arg3) = (K.argsOf m c).a3 := (W29_of m ρ c main_arg3 (by decide)).trans (at_arg3_28 m ρ c)
theorem at_arg3_30 : W30 m ρ c (Proc.devRef .tc main_arg3) = (K.argsOf m c).a3 := (W30_of m ρ c main_arg3 (by decide)).trans (at_arg3_29 m ρ c)
theorem at_arg3_31 : W31 m ρ c (Proc.devRef .tc main_arg3) = (K.argsOf m c).a3 := (W31_of m ρ c main_arg3 (by decide)).trans (at_arg3_30 m ρ c)
theorem at_arg3_32 : W32 m ρ c (Proc.devRef .tc main_arg3) = (K.argsOf m c).a3 := (W32_of m ρ c main_arg3 (by decide)).trans (at_arg3_31 m ρ c)
theorem at_arg3_33 : W33 m ρ c (Proc.devRef .tc main_arg3) = (K.argsOf m c).a3 := (W33_of m ρ c main_arg3 (by decide)).trans (at_arg3_32 m ρ c)
theorem at_arg3_34 : W34 m ρ c (Proc.devRef .tc main_arg3) = (K.argsOf m c).a3 := (W34_of m ρ c main_arg3 (by decide)).trans (at_arg3_33 m ρ c)
theorem at_arg3_35 : W35 m ρ c (Proc.devRef .tc main_arg3) = (K.argsOf m c).a3 := (W35_of m ρ c main_arg3 (by decide)).trans (at_arg3_34 m ρ c)
theorem at_arg3_36 : W36 m ρ c (Proc.devRef .tc main_arg3) = (K.argsOf m c).a3 := (W36_of m ρ c main_arg3 (by decide)).trans (at_arg3_35 m ρ c)
theorem at_v227_37 : W37 m ρ c (Proc.devRef .tc main_v227) = K.lin1 (K.argsOf m c) :=
  st_lin1 (W36 m ρ c) (K.argsOf m c) (at_v94_36 m ρ c) (at_arg3_36 m ρ c)
theorem at_v26_6 : W6 m ρ c (Proc.devRef .tc main_v26) = C_v26 (F := Ideal) (C_v25 (F := Ideal) (K.lr (K.argsOf m c)) ((K.argsOf m c).a0)) := (W6_of m ρ c main_v26 (by decide)).trans (at_v26_5 m ρ c)
theorem at_v26_7 : W7 m ρ c (Proc.devRef .tc main_v26) = C_v26 (F := Ideal) (C_v25 (F := Ideal) (K.lr (K.argsOf m c)) ((K.argsOf m c).a0)) := (W7_of m ρ c main_v26 (by decide)).trans (at_v26_6 m ρ c)
theorem at_v26_8 : W8 m ρ c (Proc.devRef .tc main_v26) = C_v26 (F := Ideal) (C_v25 (F := Ideal) (K.lr (K.argsOf m c)) ((K.argsOf m c).a0)) := (W8_of m ρ c main_v26 (by decide)).trans (at_v26_7 m ρ c)
theorem at_v26_9 : W9 m ρ c (Proc.devRef .tc main_v26) = C_v26 (F := Ideal) (C_v25 (F := Ideal) (K.lr (K.argsOf m c)) ((K.argsOf m c).a0)) := (W9_of m ρ c main_v26 (by decide)).trans (at_v26_8 m ρ c)
theorem at_v26_10 : W10 m ρ c (Proc.devRef .tc main_v26) = C_v26 (F := Ideal) (C_v25 (F := Ideal) (K.lr (K.argsOf m c)) ((K.argsOf m c).a0)) := (W10_of m ρ c main_v26 (by decide)).trans (at_v26_9 m ρ c)
theorem at_v26_11 : W11 m ρ c (Proc.devRef .tc main_v26) = C_v26 (F := Ideal) (C_v25 (F := Ideal) (K.lr (K.argsOf m c)) ((K.argsOf m c).a0)) := (W11_of m ρ c main_v26 (by decide)).trans (at_v26_10 m ρ c)
theorem at_v26_12 : W12 m ρ c (Proc.devRef .tc main_v26) = C_v26 (F := Ideal) (C_v25 (F := Ideal) (K.lr (K.argsOf m c)) ((K.argsOf m c).a0)) := (W12_of m ρ c main_v26 (by decide)).trans (at_v26_11 m ρ c)
theorem at_v26_13 : W13 m ρ c (Proc.devRef .tc main_v26) = C_v26 (F := Ideal) (C_v25 (F := Ideal) (K.lr (K.argsOf m c)) ((K.argsOf m c).a0)) := (W13_of m ρ c main_v26 (by decide)).trans (at_v26_12 m ρ c)
theorem at_v26_14 : W14 m ρ c (Proc.devRef .tc main_v26) = C_v26 (F := Ideal) (C_v25 (F := Ideal) (K.lr (K.argsOf m c)) ((K.argsOf m c).a0)) := (W14_of m ρ c main_v26 (by decide)).trans (at_v26_13 m ρ c)
theorem at_v26_15 : W15 m ρ c (Proc.devRef .tc main_v26) = C_v26 (F := Ideal) (C_v25 (F := Ideal) (K.lr (K.argsOf m c)) ((K.argsOf m c).a0)) := (W15_of m ρ c main_v26 (by decide)).trans (at_v26_14 m ρ c)
theorem at_v26_16 : W16 m ρ c (Proc.devRef .tc main_v26) = C_v26 (F := Ideal) (C_v25 (F := Ideal) (K.lr (K.argsOf m c)) ((K.argsOf m c).a0)) := (W16_of m ρ c main_v26 (by decide)).trans (at_v26_15 m ρ c)
theorem at_v26_17 : W17 m ρ c (Proc.devRef .tc main_v26) = C_v26 (F := Ideal) (C_v25 (F := Ideal) (K.lr (K.argsOf m c)) ((K.argsOf m c).a0)) := (W17_of m ρ c main_v26 (by decide)).trans (at_v26_16 m ρ c)
theorem at_v26_18 : W18 m ρ c (Proc.devRef .tc main_v26) = C_v26 (F := Ideal) (C_v25 (F := Ideal) (K.lr (K.argsOf m c)) ((K.argsOf m c).a0)) := (W18_of m ρ c main_v26 (by decide)).trans (at_v26_17 m ρ c)
theorem at_v26_19 : W19 m ρ c (Proc.devRef .tc main_v26) = C_v26 (F := Ideal) (C_v25 (F := Ideal) (K.lr (K.argsOf m c)) ((K.argsOf m c).a0)) := (W19_of m ρ c main_v26 (by decide)).trans (at_v26_18 m ρ c)
theorem at_v26_20 : W20 m ρ c (Proc.devRef .tc main_v26) = C_v26 (F := Ideal) (C_v25 (F := Ideal) (K.lr (K.argsOf m c)) ((K.argsOf m c).a0)) := (W20_of m ρ c main_v26 (by decide)).trans (at_v26_19 m ρ c)
theorem at_v26_21 : W21 m ρ c (Proc.devRef .tc main_v26) = C_v26 (F := Ideal) (C_v25 (F := Ideal) (K.lr (K.argsOf m c)) ((K.argsOf m c).a0)) := (W21_of m ρ c main_v26 (by decide)).trans (at_v26_20 m ρ c)
theorem at_v26_22 : W22 m ρ c (Proc.devRef .tc main_v26) = C_v26 (F := Ideal) (C_v25 (F := Ideal) (K.lr (K.argsOf m c)) ((K.argsOf m c).a0)) := (W22_of m ρ c main_v26 (by decide)).trans (at_v26_21 m ρ c)
theorem at_v26_23 : W23 m ρ c (Proc.devRef .tc main_v26) = C_v26 (F := Ideal) (C_v25 (F := Ideal) (K.lr (K.argsOf m c)) ((K.argsOf m c).a0)) := (W23_of m ρ c main_v26 (by decide)).trans (at_v26_22 m ρ c)
theorem at_v26_24 : W24 m ρ c (Proc.devRef .tc main_v26) = C_v26 (F := Ideal) (C_v25 (F := Ideal) (K.lr (K.argsOf m c)) ((K.argsOf m c).a0)) := (W24_of m ρ c main_v26 (by decide)).trans (at_v26_23 m ρ c)
theorem at_v26_25 : W25 m ρ c (Proc.devRef .tc main_v26) = C_v26 (F := Ideal) (C_v25 (F := Ideal) (K.lr (K.argsOf m c)) ((K.argsOf m c).a0)) := (W25_of m ρ c main_v26 (by decide)).trans (at_v26_24 m ρ c)
theorem at_v26_26 : W26 m ρ c (Proc.devRef .tc main_v26) = C_v26 (F := Ideal) (C_v25 (F := Ideal) (K.lr (K.argsOf m c)) ((K.argsOf m c).a0)) := (W26_of m ρ c main_v26 (by decide)).trans (at_v26_25 m ρ c)
theorem at_v26_27 : W27 m ρ c (Proc.devRef .tc main_v26) = C_v26 (F := Ideal) (C_v25 (F := Ideal) (K.lr (K.argsOf m c)) ((K.argsOf m c).a0)) := (W27_of m ρ c main_v26 (by decide)).trans (at_v26_26 m ρ c)
theorem at_v26_28 : W28 m ρ c (Proc.devRef .tc main_v26) = C_v26 (F := Ideal) (C_v25 (F := Ideal) (K.lr (K.argsOf m c)) ((K.argsOf m c).a0)) := (W28_of m ρ c main_v26 (by decide)).trans (at_v26_27 m ρ c)
theorem at_v26_29 : W29 m ρ c (Proc.devRef .tc main_v26) = C_v26 (F := Ideal) (C_v25 (F := Ideal) (K.lr (K.argsOf m c)) ((K.argsOf m c).a0)) := (W29_of m ρ c main_v26 (by decide)).trans (at_v26_28 m ρ c)
theorem at_v26_30 : W30 m ρ c (Proc.devRef .tc main_v26) = C_v26 (F := Ideal) (C_v25 (F := Ideal) (K.lr (K.argsOf m c)) ((K.argsOf m c).a0)) := (W30_of m ρ c main_v26 (by decide)).trans (at_v26_29 m ρ c)
theorem at_v26_31 : W31 m ρ c (Proc.devRef .tc main_v26) = C_v26 (F := Ideal) (C_v25 (F := Ideal) (K.lr (K.argsOf m c)) ((K.argsOf m c).a0)) := (W31_of m ρ c main_v26 (by decide)).trans (at_v26_30 m ρ c)
theorem at_v26_32 : W32 m ρ c (Proc.devRef .tc main_v26) = C_v26 (F := Ideal) (C_v25 (F := Ideal) (K.lr (K.argsOf m c)) ((K.argsOf m c).a0)) := (W32_of m ρ c main_v26 (by decide)).trans (at_v26_31 m ρ c)
theorem at_v26_33 : W33 m ρ c (Proc.devRef .tc main_v26) = C_v26 (F := Ideal) (C_v25 (F := Ideal) (K.lr (K.argsOf m c)) ((K.argsOf m c).a0)) := (W33_of m ρ c main_v26 (by decide)).trans (at_v26_32 m ρ c)
theorem at_v26_34 : W34 m ρ c (Proc.devRef .tc main_v26) = C_v26 (F := Ideal) (C_v25 (F := Ideal) (K.lr (K.argsOf m c)) ((K.argsOf m c).a0)) := (W34_of m ρ c main_v26 (by decide)).trans (at_v26_33 m ρ c)
theorem at_v26_35 : W35 m ρ c (Proc.devRef .tc main_v26) = C_v26 (F := Ideal) (C_v25 (F := Ideal) (K.lr (K.argsOf m c)) ((K.argsOf m c).a0)) := (W35_of m ρ c main_v26 (by decide)).trans (at_v26_34 m ρ c)
theorem at_v26_36 : W36 m ρ c (Proc.devRef .tc main_v26) = C_v26 (F := Ideal) (C_v25 (F := Ideal) (K.lr (K.argsOf m c)) ((K.argsOf m c).a0)) := (W36_of m ρ c main_v26 (by decide)).trans (at_v26_35 m ρ c)
theorem at_v26_37 : W37 m ρ c (Proc.devRef .tc main_v26) = C_v26 (F := Ideal) (C_v25 (F := Ideal) (K.lr (K.argsOf m c)) ((K.argsOf m c).a0)) := (W37_of m ρ c main_v26 (by decide)).trans (at_v26_36 m ρ c)
theorem at_c_29_37 : W37 m ρ c (Proc.devRef .tc main_c_29) = C_c_29 :=
  rd_c_29 (W36 m ρ c) (K.argsOf m c)
theorem at_v237_38 : W38 m ρ c (Proc.devRef .tc main_v237) = C_v237 (F := Ideal) (C_v26 (F := Ideal) (C_v25 (F := Ideal) (K.lr (K.argsOf m c)) ((K.argsOf m c).a0))) (C_c_29) :=
  (congrArg (fun l => StableHlo.after l (W37 m ρ c) (Proc.devRef .tc main_v237)) hostOps4_3_eq).trans (rd_v237 (W37 m ρ c) (K.argsOf m c) (at_v26_37 m ρ c) (at_c_29_37 m ρ c))
theorem at_v237_39 : W39 m ρ c (Proc.devRef .tc main_v237) = C_v237 (F := Ideal) (C_v26 (F := Ideal) (C_v25 (F := Ideal) (K.lr (K.argsOf m c)) ((K.argsOf m c).a0))) (C_c_29) := (W39_of m ρ c main_v237 (by decide)).trans (at_v237_38 m ρ c)
theorem at_v237_40 : W40 m ρ c (Proc.devRef .tc main_v237) = C_v237 (F := Ideal) (C_v26 (F := Ideal) (C_v25 (F := Ideal) (K.lr (K.argsOf m c)) ((K.argsOf m c).a0))) (C_c_29) := (W40_of m ρ c main_v237 (by decide)).trans (at_v237_39 m ρ c)
theorem at_v237_41 : W41 m ρ c (Proc.devRef .tc main_v237) = C_v237 (F := Ideal) (C_v26 (F := Ideal) (C_v25 (F := Ideal) (K.lr (K.argsOf m c)) ((K.argsOf m c).a0))) (C_c_29) := (W41_of m ρ c main_v237 (by decide)).trans (at_v237_40 m ρ c)
theorem at_v237_42 : W42 m ρ c (Proc.devRef .tc main_v237) = C_v237 (F := Ideal) (C_v26 (F := Ideal) (C_v25 (F := Ideal) (K.lr (K.argsOf m c)) ((K.argsOf m c).a0))) (C_c_29) := (W42_of m ρ c main_v237 (by decide)).trans (at_v237_41 m ρ c)
theorem at_v28_8 : W8 m ρ c (Proc.devRef .tc main_v28) = C_v28 (F := Ideal) (C_v27 (F := Ideal) (K.lc (K.argsOf m c)) ((K.argsOf m c).a0)) := (W8_of m ρ c main_v28 (by decide)).trans (at_v28_7 m ρ c)
theorem at_v28_9 : W9 m ρ c (Proc.devRef .tc main_v28) = C_v28 (F := Ideal) (C_v27 (F := Ideal) (K.lc (K.argsOf m c)) ((K.argsOf m c).a0)) := (W9_of m ρ c main_v28 (by decide)).trans (at_v28_8 m ρ c)
theorem at_v28_10 : W10 m ρ c (Proc.devRef .tc main_v28) = C_v28 (F := Ideal) (C_v27 (F := Ideal) (K.lc (K.argsOf m c)) ((K.argsOf m c).a0)) := (W10_of m ρ c main_v28 (by decide)).trans (at_v28_9 m ρ c)
theorem at_v28_11 : W11 m ρ c (Proc.devRef .tc main_v28) = C_v28 (F := Ideal) (C_v27 (F := Ideal) (K.lc (K.argsOf m c)) ((K.argsOf m c).a0)) := (W11_of m ρ c main_v28 (by decide)).trans (at_v28_10 m ρ c)
theorem at_v28_12 : W12 m ρ c (Proc.devRef .tc main_v28) = C_v28 (F := Ideal) (C_v27 (F := Ideal) (K.lc (K.argsOf m c)) ((K.argsOf m c).a0)) := (W12_of m ρ c main_v28 (by decide)).trans (at_v28_11 m ρ c)
theorem at_v28_13 : W13 m ρ c (Proc.devRef .tc main_v28) = C_v28 (F := Ideal) (C_v27 (F := Ideal) (K.lc (K.argsOf m c)) ((K.argsOf m c).a0)) := (W13_of m ρ c main_v28 (by decide)).trans (at_v28_12 m ρ c)
theorem at_v28_14 : W14 m ρ c (Proc.devRef .tc main_v28) = C_v28 (F := Ideal) (C_v27 (F := Ideal) (K.lc (K.argsOf m c)) ((K.argsOf m c).a0)) := (W14_of m ρ c main_v28 (by decide)).trans (at_v28_13 m ρ c)
theorem at_v28_15 : W15 m ρ c (Proc.devRef .tc main_v28) = C_v28 (F := Ideal) (C_v27 (F := Ideal) (K.lc (K.argsOf m c)) ((K.argsOf m c).a0)) := (W15_of m ρ c main_v28 (by decide)).trans (at_v28_14 m ρ c)
theorem at_v28_16 : W16 m ρ c (Proc.devRef .tc main_v28) = C_v28 (F := Ideal) (C_v27 (F := Ideal) (K.lc (K.argsOf m c)) ((K.argsOf m c).a0)) := (W16_of m ρ c main_v28 (by decide)).trans (at_v28_15 m ρ c)
theorem at_v28_17 : W17 m ρ c (Proc.devRef .tc main_v28) = C_v28 (F := Ideal) (C_v27 (F := Ideal) (K.lc (K.argsOf m c)) ((K.argsOf m c).a0)) := (W17_of m ρ c main_v28 (by decide)).trans (at_v28_16 m ρ c)
theorem at_v28_18 : W18 m ρ c (Proc.devRef .tc main_v28) = C_v28 (F := Ideal) (C_v27 (F := Ideal) (K.lc (K.argsOf m c)) ((K.argsOf m c).a0)) := (W18_of m ρ c main_v28 (by decide)).trans (at_v28_17 m ρ c)
theorem at_v28_19 : W19 m ρ c (Proc.devRef .tc main_v28) = C_v28 (F := Ideal) (C_v27 (F := Ideal) (K.lc (K.argsOf m c)) ((K.argsOf m c).a0)) := (W19_of m ρ c main_v28 (by decide)).trans (at_v28_18 m ρ c)
theorem at_v28_20 : W20 m ρ c (Proc.devRef .tc main_v28) = C_v28 (F := Ideal) (C_v27 (F := Ideal) (K.lc (K.argsOf m c)) ((K.argsOf m c).a0)) := (W20_of m ρ c main_v28 (by decide)).trans (at_v28_19 m ρ c)
theorem at_v28_21 : W21 m ρ c (Proc.devRef .tc main_v28) = C_v28 (F := Ideal) (C_v27 (F := Ideal) (K.lc (K.argsOf m c)) ((K.argsOf m c).a0)) := (W21_of m ρ c main_v28 (by decide)).trans (at_v28_20 m ρ c)
theorem at_v28_22 : W22 m ρ c (Proc.devRef .tc main_v28) = C_v28 (F := Ideal) (C_v27 (F := Ideal) (K.lc (K.argsOf m c)) ((K.argsOf m c).a0)) := (W22_of m ρ c main_v28 (by decide)).trans (at_v28_21 m ρ c)
theorem at_v28_23 : W23 m ρ c (Proc.devRef .tc main_v28) = C_v28 (F := Ideal) (C_v27 (F := Ideal) (K.lc (K.argsOf m c)) ((K.argsOf m c).a0)) := (W23_of m ρ c main_v28 (by decide)).trans (at_v28_22 m ρ c)
theorem at_v28_24 : W24 m ρ c (Proc.devRef .tc main_v28) = C_v28 (F := Ideal) (C_v27 (F := Ideal) (K.lc (K.argsOf m c)) ((K.argsOf m c).a0)) := (W24_of m ρ c main_v28 (by decide)).trans (at_v28_23 m ρ c)
theorem at_v28_25 : W25 m ρ c (Proc.devRef .tc main_v28) = C_v28 (F := Ideal) (C_v27 (F := Ideal) (K.lc (K.argsOf m c)) ((K.argsOf m c).a0)) := (W25_of m ρ c main_v28 (by decide)).trans (at_v28_24 m ρ c)
theorem at_v28_26 : W26 m ρ c (Proc.devRef .tc main_v28) = C_v28 (F := Ideal) (C_v27 (F := Ideal) (K.lc (K.argsOf m c)) ((K.argsOf m c).a0)) := (W26_of m ρ c main_v28 (by decide)).trans (at_v28_25 m ρ c)
theorem at_v28_27 : W27 m ρ c (Proc.devRef .tc main_v28) = C_v28 (F := Ideal) (C_v27 (F := Ideal) (K.lc (K.argsOf m c)) ((K.argsOf m c).a0)) := (W27_of m ρ c main_v28 (by decide)).trans (at_v28_26 m ρ c)
theorem at_v28_28 : W28 m ρ c (Proc.devRef .tc main_v28) = C_v28 (F := Ideal) (C_v27 (F := Ideal) (K.lc (K.argsOf m c)) ((K.argsOf m c).a0)) := (W28_of m ρ c main_v28 (by decide)).trans (at_v28_27 m ρ c)
theorem at_v28_29 : W29 m ρ c (Proc.devRef .tc main_v28) = C_v28 (F := Ideal) (C_v27 (F := Ideal) (K.lc (K.argsOf m c)) ((K.argsOf m c).a0)) := (W29_of m ρ c main_v28 (by decide)).trans (at_v28_28 m ρ c)
theorem at_v28_30 : W30 m ρ c (Proc.devRef .tc main_v28) = C_v28 (F := Ideal) (C_v27 (F := Ideal) (K.lc (K.argsOf m c)) ((K.argsOf m c).a0)) := (W30_of m ρ c main_v28 (by decide)).trans (at_v28_29 m ρ c)
theorem at_v28_31 : W31 m ρ c (Proc.devRef .tc main_v28) = C_v28 (F := Ideal) (C_v27 (F := Ideal) (K.lc (K.argsOf m c)) ((K.argsOf m c).a0)) := (W31_of m ρ c main_v28 (by decide)).trans (at_v28_30 m ρ c)
theorem at_v28_32 : W32 m ρ c (Proc.devRef .tc main_v28) = C_v28 (F := Ideal) (C_v27 (F := Ideal) (K.lc (K.argsOf m c)) ((K.argsOf m c).a0)) := (W32_of m ρ c main_v28 (by decide)).trans (at_v28_31 m ρ c)
theorem at_v28_33 : W33 m ρ c (Proc.devRef .tc main_v28) = C_v28 (F := Ideal) (C_v27 (F := Ideal) (K.lc (K.argsOf m c)) ((K.argsOf m c).a0)) := (W33_of m ρ c main_v28 (by decide)).trans (at_v28_32 m ρ c)
theorem at_v28_34 : W34 m ρ c (Proc.devRef .tc main_v28) = C_v28 (F := Ideal) (C_v27 (F := Ideal) (K.lc (K.argsOf m c)) ((K.argsOf m c).a0)) := (W34_of m ρ c main_v28 (by decide)).trans (at_v28_33 m ρ c)
theorem at_v28_35 : W35 m ρ c (Proc.devRef .tc main_v28) = C_v28 (F := Ideal) (C_v27 (F := Ideal) (K.lc (K.argsOf m c)) ((K.argsOf m c).a0)) := (W35_of m ρ c main_v28 (by decide)).trans (at_v28_34 m ρ c)
theorem at_v28_36 : W36 m ρ c (Proc.devRef .tc main_v28) = C_v28 (F := Ideal) (C_v27 (F := Ideal) (K.lc (K.argsOf m c)) ((K.argsOf m c).a0)) := (W36_of m ρ c main_v28 (by decide)).trans (at_v28_35 m ρ c)
theorem at_v28_37 : W37 m ρ c (Proc.devRef .tc main_v28) = C_v28 (F := Ideal) (C_v27 (F := Ideal) (K.lc (K.argsOf m c)) ((K.argsOf m c).a0)) := (W37_of m ρ c main_v28 (by decide)).trans (at_v28_36 m ρ c)
theorem at_v28_38 : W38 m ρ c (Proc.devRef .tc main_v28) = C_v28 (F := Ideal) (C_v27 (F := Ideal) (K.lc (K.argsOf m c)) ((K.argsOf m c).a0)) := (W38_of m ρ c main_v28 (by decide)).trans (at_v28_37 m ρ c)
theorem at_v28_39 : W39 m ρ c (Proc.devRef .tc main_v28) = C_v28 (F := Ideal) (C_v27 (F := Ideal) (K.lc (K.argsOf m c)) ((K.argsOf m c).a0)) := (W39_of m ρ c main_v28 (by decide)).trans (at_v28_38 m ρ c)
theorem at_c_30_39 : W39 m ρ c (Proc.devRef .tc main_c_30) = C_c_30 :=
  rd_c_30 (W38 m ρ c) (K.argsOf m c)
theorem at_v238_40 : W40 m ρ c (Proc.devRef .tc main_v238) = C_v238 (F := Ideal) (C_v28 (F := Ideal) (C_v27 (F := Ideal) (K.lc (K.argsOf m c)) ((K.argsOf m c).a0))) (C_c_30) :=
  (congrArg (fun l => StableHlo.after l (W39 m ρ c) (Proc.devRef .tc main_v238)) hostOps4_5_eq).trans (rd_v238 (W39 m ρ c) (K.argsOf m c) (at_v28_39 m ρ c) (at_c_30_39 m ρ c))
theorem at_v238_41 : W41 m ρ c (Proc.devRef .tc main_v238) = C_v238 (F := Ideal) (C_v28 (F := Ideal) (C_v27 (F := Ideal) (K.lc (K.argsOf m c)) ((K.argsOf m c).a0))) (C_c_30) := (W41_of m ρ c main_v238 (by decide)).trans (at_v238_40 m ρ c)
theorem at_v238_42 : W42 m ρ c (Proc.devRef .tc main_v238) = C_v238 (F := Ideal) (C_v28 (F := Ideal) (C_v27 (F := Ideal) (K.lc (K.argsOf m c)) ((K.argsOf m c).a0))) (C_c_30) := (W42_of m ρ c main_v238 (by decide)).trans (at_v238_41 m ρ c)
theorem at_v228_37 : W37 m ρ c (Proc.devRef .tc main_v228) = C_v228 (F := Ideal) (K.le1 (K.argsOf m c)) ((K.argsOf m c).a3) :=
  rd_v228 (W36 m ρ c) (K.argsOf m c) (at_v94_36 m ρ c) (at_arg3_36 m ρ c)
theorem at_v228_38 : W38 m ρ c (Proc.devRef .tc main_v228) = C_v228 (F := Ideal) (K.le1 (K.argsOf m c)) ((K.argsOf m c).a3) := (W38_of m ρ c main_v228 (by decide)).trans (at_v228_37 m ρ c)
theorem at_v228_39 : W39 m ρ c (Proc.devRef .tc main_v228) = C_v228 (F := Ideal) (K.le1 (K.argsOf m c)) ((K.argsOf m c).a3) := (W39_of m ρ c main_v228 (by decide)).trans (at_v228_38 m ρ c)
theorem at_v228_40 : W40 m ρ c (Proc.devRef .tc main_v228) = C_v228 (F := Ideal) (K.le1 (K.argsOf m c)) ((K.argsOf m c).a3) := (W40_of m ρ c main_v228 (by decide)).trans (at_v228_39 m ρ c)
theorem at_v228_41 : W41 m ρ c (Proc.devRef .tc main_v228) = C_v228 (F := Ideal) (K.le1 (K.argsOf m c)) ((K.argsOf m c).a3) := (W41_of m ρ c main_v228 (by decide)).trans (at_v228_40 m ρ c)
theorem at_c_31_41 : W41 m ρ c (Proc.devRef .tc main_c_31) = C_c_31 :=
  rd_c_31 (W40 m ρ c) (K.argsOf m c)
theorem at_v239_42 : W42 m ρ c (Proc.devRef .tc main_v239) = C_v239 (F := Ideal) (C_v228 (F := Ideal) (K.le1 (K.argsOf m c)) ((K.argsOf m c).a3)) (C_c_31) :=
  (congrArg (fun l => StableHlo.after l (W41 m ρ c) (Proc.devRef .tc main_v239)) hostOps4_7_eq).trans (rd_v239 (W41 m ρ c) (K.argsOf m c) (at_v228_41 m ρ c) (at_c_31_41 m ρ c))
theorem at_arg5_5 : W5 m ρ c (Proc.devRef .tc main_arg5) = (K.argsOf m c).a5 := (W5_of m ρ c main_arg5 (by decide)).trans (at_arg5_4 m ρ c)
theorem at_arg5_6 : W6 m ρ c (Proc.devRef .tc main_arg5) = (K.argsOf m c).a5 := (W6_of m ρ c main_arg5 (by decide)).trans (at_arg5_5 m ρ c)
theorem at_arg5_7 : W7 m ρ c (Proc.devRef .tc main_arg5) = (K.argsOf m c).a5 := (W7_of m ρ c main_arg5 (by decide)).trans (at_arg5_6 m ρ c)
theorem at_arg5_8 : W8 m ρ c (Proc.devRef .tc main_arg5) = (K.argsOf m c).a5 := (W8_of m ρ c main_arg5 (by decide)).trans (at_arg5_7 m ρ c)
theorem at_arg5_9 : W9 m ρ c (Proc.devRef .tc main_arg5) = (K.argsOf m c).a5 := (W9_of m ρ c main_arg5 (by decide)).trans (at_arg5_8 m ρ c)
theorem at_arg5_10 : W10 m ρ c (Proc.devRef .tc main_arg5) = (K.argsOf m c).a5 := (W10_of m ρ c main_arg5 (by decide)).trans (at_arg5_9 m ρ c)
theorem at_arg5_11 : W11 m ρ c (Proc.devRef .tc main_arg5) = (K.argsOf m c).a5 := (W11_of m ρ c main_arg5 (by decide)).trans (at_arg5_10 m ρ c)
theorem at_arg5_12 : W12 m ρ c (Proc.devRef .tc main_arg5) = (K.argsOf m c).a5 := (W12_of m ρ c main_arg5 (by decide)).trans (at_arg5_11 m ρ c)
theorem at_arg5_13 : W13 m ρ c (Proc.devRef .tc main_arg5) = (K.argsOf m c).a5 := (W13_of m ρ c main_arg5 (by decide)).trans (at_arg5_12 m ρ c)
theorem at_arg5_14 : W14 m ρ c (Proc.devRef .tc main_arg5) = (K.argsOf m c).a5 := (W14_of m ρ c main_arg5 (by decide)).trans (at_arg5_13 m ρ c)
theorem at_arg5_15 : W15 m ρ c (Proc.devRef .tc main_arg5) = (K.argsOf m c).a5 := (W15_of m ρ c main_arg5 (by decide)).trans (at_arg5_14 m ρ c)
theorem at_arg5_16 : W16 m ρ c (Proc.devRef .tc main_arg5) = (K.argsOf m c).a5 := (W16_of m ρ c main_arg5 (by decide)).trans (at_arg5_15 m ρ c)
theorem at_arg5_17 : W17 m ρ c (Proc.devRef .tc main_arg5) = (K.argsOf m c).a5 := (W17_of m ρ c main_arg5 (by decide)).trans (at_arg5_16 m ρ c)
theorem at_arg5_18 : W18 m ρ c (Proc.devRef .tc main_arg5) = (K.argsOf m c).a5 := (W18_of m ρ c main_arg5 (by decide)).trans (at_arg5_17 m ρ c)
theorem at_arg5_19 : W19 m ρ c (Proc.devRef .tc main_arg5) = (K.argsOf m c).a5 := (W19_of m ρ c main_arg5 (by decide)).trans (at_arg5_18 m ρ c)
theorem at_arg5_20 : W20 m ρ c (Proc.devRef .tc main_arg5) = (K.argsOf m c).a5 := (W20_of m ρ c main_arg5 (by decide)).trans (at_arg5_19 m ρ c)
theorem at_arg5_21 : W21 m ρ c (Proc.devRef .tc main_arg5) = (K.argsOf m c).a5 := (W21_of m ρ c main_arg5 (by decide)).trans (at_arg5_20 m ρ c)
theorem at_arg5_22 : W22 m ρ c (Proc.devRef .tc main_arg5) = (K.argsOf m c).a5 := (W22_of m ρ c main_arg5 (by decide)).trans (at_arg5_21 m ρ c)
theorem at_arg5_23 : W23 m ρ c (Proc.devRef .tc main_arg5) = (K.argsOf m c).a5 := (W23_of m ρ c main_arg5 (by decide)).trans (at_arg5_22 m ρ c)
theorem at_arg5_24 : W24 m ρ c (Proc.devRef .tc main_arg5) = (K.argsOf m c).a5 := (W24_of m ρ c main_arg5 (by decide)).trans (at_arg5_23 m ρ c)
theorem at_arg5_25 : W25 m ρ c (Proc.devRef .tc main_arg5) = (K.argsOf m c).a5 := (W25_of m ρ c main_arg5 (by decide)).trans (at_arg5_24 m ρ c)
theorem at_arg5_26 : W26 m ρ c (Proc.devRef .tc main_arg5) = (K.argsOf m c).a5 := (W26_of m ρ c main_arg5 (by decide)).trans (at_arg5_25 m ρ c)
theorem at_arg5_27 : W27 m ρ c (Proc.devRef .tc main_arg5) = (K.argsOf m c).a5 := (W27_of m ρ c main_arg5 (by decide)).trans (at_arg5_26 m ρ c)
theorem at_arg5_28 : W28 m ρ c (Proc.devRef .tc main_arg5) = (K.argsOf m c).a5 := (W28_of m ρ c main_arg5 (by decide)).trans (at_arg5_27 m ρ c)
theorem at_arg5_29 : W29 m ρ c (Proc.devRef .tc main_arg5) = (K.argsOf m c).a5 := (W29_of m ρ c main_arg5 (by decide)).trans (at_arg5_28 m ρ c)
theorem at_arg5_30 : W30 m ρ c (Proc.devRef .tc main_arg5) = (K.argsOf m c).a5 := (W30_of m ρ c main_arg5 (by decide)).trans (at_arg5_29 m ρ c)
theorem at_arg5_31 : W31 m ρ c (Proc.devRef .tc main_arg5) = (K.argsOf m c).a5 := (W31_of m ρ c main_arg5 (by decide)).trans (at_arg5_30 m ρ c)
theorem at_arg5_32 : W32 m ρ c (Proc.devRef .tc main_arg5) = (K.argsOf m c).a5 := (W32_of m ρ c main_arg5 (by decide)).trans (at_arg5_31 m ρ c)
theorem at_arg5_33 : W33 m ρ c (Proc.devRef .tc main_arg5) = (K.argsOf m c).a5 := (W33_of m ρ c main_arg5 (by decide)).trans (at_arg5_32 m ρ c)
theorem at_arg5_34 : W34 m ρ c (Proc.devRef .tc main_arg5) = (K.argsOf m c).a5 := (W34_of m ρ c main_arg5 (by decide)).trans (at_arg5_33 m ρ c)
theorem at_arg5_35 : W35 m ρ c (Proc.devRef .tc main_arg5) = (K.argsOf m c).a5 := (W35_of m ρ c main_arg5 (by decide)).trans (at_arg5_34 m ρ c)
theorem at_arg5_36 : W36 m ρ c (Proc.devRef .tc main_arg5) = (K.argsOf m c).a5 := (W36_of m ρ c main_arg5 (by decide)).trans (at_arg5_35 m ρ c)
theorem at_v230_37 : W37 m ρ c (Proc.devRef .tc main_v230) = C_v230 (F := Ideal) ((K.argsOf m c).a5) :=
  rd_v230 (W36 m ρ c) (K.argsOf m c) (at_arg5_36 m ρ c)
theorem at_v230_38 : W38 m ρ c (Proc.devRef .tc main_v230) = C_v230 (F := Ideal) ((K.argsOf m c).a5) := (W38_of m ρ c main_v230 (by decide)).trans (at_v230_37 m ρ c)
theorem at_v230_39 : W39 m ρ c (Proc.devRef .tc main_v230) = C_v230 (F := Ideal) ((K.argsOf m c).a5) := (W39_of m ρ c main_v230 (by decide)).trans (at_v230_38 m ρ c)
theorem at_v230_40 : W40 m ρ c (Proc.devRef .tc main_v230) = C_v230 (F := Ideal) ((K.argsOf m c).a5) := (W40_of m ρ c main_v230 (by decide)).trans (at_v230_39 m ρ c)
theorem at_v230_41 : W41 m ρ c (Proc.devRef .tc main_v230) = C_v230 (F := Ideal) ((K.argsOf m c).a5) := (W41_of m ρ c main_v230 (by decide)).trans (at_v230_40 m ρ c)
theorem at_v230_42 : W42 m ρ c (Proc.devRef .tc main_v230) = C_v230 (F := Ideal) ((K.argsOf m c).a5) := (W42_of m ρ c main_v230 (by decide)).trans (at_v230_41 m ρ c)
theorem at_v231_37 : W37 m ρ c (Proc.devRef .tc main_v231) = C_v231 (F := Ideal) ((K.argsOf m c).a5) :=
  rd_v231 (W36 m ρ c) (K.argsOf m c) (at_arg5_36 m ρ c)
theorem at_v231_38 : W38 m ρ c (Proc.devRef .tc main_v231) = C_v231 (F := Ideal) ((K.argsOf m c).a5) := (W38_of m ρ c main_v231 (by decide)).trans (at_v231_37 m ρ c)
theorem at_v231_39 : W39 m ρ c (Proc.devRef .tc main_v231) = C_v231 (F := Ideal) ((K.argsOf m c).a5) := (W39_of m ρ c main_v231 (by decide)).trans (at_v231_38 m ρ c)
theorem at_v231_40 : W40 m ρ c (Proc.devRef .tc main_v231) = C_v231 (F := Ideal) ((K.argsOf m c).a5) := (W40_of m ρ c main_v231 (by decide)).trans (at_v231_39 m ρ c)
theorem at_v231_41 : W41 m ρ c (Proc.devRef .tc main_v231) = C_v231 (F := Ideal) ((K.argsOf m c).a5) := (W41_of m ρ c main_v231 (by decide)).trans (at_v231_40 m ρ c)
theorem at_v231_42 : W42 m ρ c (Proc.devRef .tc main_v231) = C_v231 (F := Ideal) ((K.argsOf m c).a5) := (W42_of m ρ c main_v231 (by decide)).trans (at_v231_41 m ρ c)
theorem at_v232_37 : W37 m ρ c (Proc.devRef .tc main_v232) = C_v232 (F := Ideal) ((K.argsOf m c).a5) :=
  rd_v232 (W36 m ρ c) (K.argsOf m c) (at_arg5_36 m ρ c)
theorem at_v232_38 : W38 m ρ c (Proc.devRef .tc main_v232) = C_v232 (F := Ideal) ((K.argsOf m c).a5) := (W38_of m ρ c main_v232 (by decide)).trans (at_v232_37 m ρ c)
theorem at_v232_39 : W39 m ρ c (Proc.devRef .tc main_v232) = C_v232 (F := Ideal) ((K.argsOf m c).a5) := (W39_of m ρ c main_v232 (by decide)).trans (at_v232_38 m ρ c)
theorem at_v232_40 : W40 m ρ c (Proc.devRef .tc main_v232) = C_v232 (F := Ideal) ((K.argsOf m c).a5) := (W40_of m ρ c main_v232 (by decide)).trans (at_v232_39 m ρ c)
theorem at_v232_41 : W41 m ρ c (Proc.devRef .tc main_v232) = C_v232 (F := Ideal) ((K.argsOf m c).a5) := (W41_of m ρ c main_v232 (by decide)).trans (at_v232_40 m ρ c)
theorem at_v232_42 : W42 m ρ c (Proc.devRef .tc main_v232) = C_v232 (F := Ideal) ((K.argsOf m c).a5) := (W42_of m ρ c main_v232 (by decide)).trans (at_v232_41 m ρ c)
theorem at_arg6_5 : W5 m ρ c (Proc.devRef .tc main_arg6) = (K.argsOf m c).a6 := (W5_of m ρ c main_arg6 (by decide)).trans (at_arg6_4 m ρ c)
theorem at_arg6_6 : W6 m ρ c (Proc.devRef .tc main_arg6) = (K.argsOf m c).a6 := (W6_of m ρ c main_arg6 (by decide)).trans (at_arg6_5 m ρ c)
theorem at_arg6_7 : W7 m ρ c (Proc.devRef .tc main_arg6) = (K.argsOf m c).a6 := (W7_of m ρ c main_arg6 (by decide)).trans (at_arg6_6 m ρ c)
theorem at_arg6_8 : W8 m ρ c (Proc.devRef .tc main_arg6) = (K.argsOf m c).a6 := (W8_of m ρ c main_arg6 (by decide)).trans (at_arg6_7 m ρ c)
theorem at_arg6_9 : W9 m ρ c (Proc.devRef .tc main_arg6) = (K.argsOf m c).a6 := (W9_of m ρ c main_arg6 (by decide)).trans (at_arg6_8 m ρ c)
theorem at_arg6_10 : W10 m ρ c (Proc.devRef .tc main_arg6) = (K.argsOf m c).a6 := (W10_of m ρ c main_arg6 (by decide)).trans (at_arg6_9 m ρ c)
theorem at_arg6_11 : W11 m ρ c (Proc.devRef .tc main_arg6) = (K.argsOf m c).a6 := (W11_of m ρ c main_arg6 (by decide)).trans (at_arg6_10 m ρ c)
theorem at_arg6_12 : W12 m ρ c (Proc.devRef .tc main_arg6) = (K.argsOf m c).a6 := (W12_of m ρ c main_arg6 (by decide)).trans (at_arg6_11 m ρ c)
theorem at_arg6_13 : W13 m ρ c (Proc.devRef .tc main_arg6) = (K.argsOf m c).a6 := (W13_of m ρ c main_arg6 (by decide)).trans (at_arg6_12 m ρ c)
theorem at_arg6_14 : W14 m ρ c (Proc.devRef .tc main_arg6) = (K.argsOf m c).a6 := (W14_of m ρ c main_arg6 (by decide)).trans (at_arg6_13 m ρ c)
theorem at_arg6_15 : W15 m ρ c (Proc.devRef .tc main_arg6) = (K.argsOf m c).a6 := (W15_of m ρ c main_arg6 (by decide)).trans (at_arg6_14 m ρ c)
theorem at_arg6_16 : W16 m ρ c (Proc.devRef .tc main_arg6) = (K.argsOf m c).a6 := (W16_of m ρ c main_arg6 (by decide)).trans (at_arg6_15 m ρ c)
theorem at_arg6_17 : W17 m ρ c (Proc.devRef .tc main_arg6) = (K.argsOf m c).a6 := (W17_of m ρ c main_arg6 (by decide)).trans (at_arg6_16 m ρ c)
theorem at_arg6_18 : W18 m ρ c (Proc.devRef .tc main_arg6) = (K.argsOf m c).a6 := (W18_of m ρ c main_arg6 (by decide)).trans (at_arg6_17 m ρ c)
theorem at_arg6_19 : W19 m ρ c (Proc.devRef .tc main_arg6) = (K.argsOf m c).a6 := (W19_of m ρ c main_arg6 (by decide)).trans (at_arg6_18 m ρ c)
theorem at_arg6_20 : W20 m ρ c (Proc.devRef .tc main_arg6) = (K.argsOf m c).a6 := (W20_of m ρ c main_arg6 (by decide)).trans (at_arg6_19 m ρ c)
theorem at_arg6_21 : W21 m ρ c (Proc.devRef .tc main_arg6) = (K.argsOf m c).a6 := (W21_of m ρ c main_arg6 (by decide)).trans (at_arg6_20 m ρ c)
theorem at_arg6_22 : W22 m ρ c (Proc.devRef .tc main_arg6) = (K.argsOf m c).a6 := (W22_of m ρ c main_arg6 (by decide)).trans (at_arg6_21 m ρ c)
theorem at_arg6_23 : W23 m ρ c (Proc.devRef .tc main_arg6) = (K.argsOf m c).a6 := (W23_of m ρ c main_arg6 (by decide)).trans (at_arg6_22 m ρ c)
theorem at_arg6_24 : W24 m ρ c (Proc.devRef .tc main_arg6) = (K.argsOf m c).a6 := (W24_of m ρ c main_arg6 (by decide)).trans (at_arg6_23 m ρ c)
theorem at_arg6_25 : W25 m ρ c (Proc.devRef .tc main_arg6) = (K.argsOf m c).a6 := (W25_of m ρ c main_arg6 (by decide)).trans (at_arg6_24 m ρ c)
theorem at_arg6_26 : W26 m ρ c (Proc.devRef .tc main_arg6) = (K.argsOf m c).a6 := (W26_of m ρ c main_arg6 (by decide)).trans (at_arg6_25 m ρ c)
theorem at_arg6_27 : W27 m ρ c (Proc.devRef .tc main_arg6) = (K.argsOf m c).a6 := (W27_of m ρ c main_arg6 (by decide)).trans (at_arg6_26 m ρ c)
theorem at_arg6_28 : W28 m ρ c (Proc.devRef .tc main_arg6) = (K.argsOf m c).a6 := (W28_of m ρ c main_arg6 (by decide)).trans (at_arg6_27 m ρ c)
theorem at_arg6_29 : W29 m ρ c (Proc.devRef .tc main_arg6) = (K.argsOf m c).a6 := (W29_of m ρ c main_arg6 (by decide)).trans (at_arg6_28 m ρ c)
theorem at_arg6_30 : W30 m ρ c (Proc.devRef .tc main_arg6) = (K.argsOf m c).a6 := (W30_of m ρ c main_arg6 (by decide)).trans (at_arg6_29 m ρ c)
theorem at_arg6_31 : W31 m ρ c (Proc.devRef .tc main_arg6) = (K.argsOf m c).a6 := (W31_of m ρ c main_arg6 (by decide)).trans (at_arg6_30 m ρ c)
theorem at_arg6_32 : W32 m ρ c (Proc.devRef .tc main_arg6) = (K.argsOf m c).a6 := (W32_of m ρ c main_arg6 (by decide)).trans (at_arg6_31 m ρ c)
theorem at_arg6_33 : W33 m ρ c (Proc.devRef .tc main_arg6) = (K.argsOf m c).a6 := (W33_of m ρ c main_arg6 (by decide)).trans (at_arg6_32 m ρ c)
theorem at_arg6_34 : W34 m ρ c (Proc.devRef .tc main_arg6) = (K.argsOf m c).a6 := (W34_of m ρ c main_arg6 (by decide)).trans (at_arg6_33 m ρ c)
theorem at_arg6_35 : W35 m ρ c (Proc.devRef .tc main_arg6) = (K.argsOf m c).a6 := (W35_of m ρ c main_arg6 (by decide)).trans (at_arg6_34 m ρ c)
theorem at_arg6_36 : W36 m ρ c (Proc.devRef .tc main_arg6) = (K.argsOf m c).a6 := (W36_of m ρ c main_arg6 (by decide)).trans (at_arg6_35 m ρ c)
theorem at_v235_37 : W37 m ρ c (Proc.devRef .tc main_v235) = C_v235 (F := Ideal) ((K.argsOf m c).a6) (C_v176 (F := Ideal) (C_v175 (F := Ideal) (K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c)))) (K.ue1 (K.argsOf m c)) (K.g1 (K.argsOf m c)) (K.P10_gW1 (K.argsOf m c)) (K.P10_gb1 (K.argsOf m c)))) (K.P10_gW2 (K.argsOf m c)) (C_v173 (F := Ideal) (K.P10_gb2 (K.argsOf m c))) ((K.argsOf m c).a5) :=
  rd_v235 (W36 m ρ c) (K.argsOf m c) (at_arg6_36 m ρ c) (at_v176_36 m ρ c) (at_v77_36 m ρ c) (at_v173_36 m ρ c) (at_arg5_36 m ρ c)
theorem at_v235_38 : W38 m ρ c (Proc.devRef .tc main_v235) = C_v235 (F := Ideal) ((K.argsOf m c).a6) (C_v176 (F := Ideal) (C_v175 (F := Ideal) (K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c)))) (K.ue1 (K.argsOf m c)) (K.g1 (K.argsOf m c)) (K.P10_gW1 (K.argsOf m c)) (K.P10_gb1 (K.argsOf m c)))) (K.P10_gW2 (K.argsOf m c)) (C_v173 (F := Ideal) (K.P10_gb2 (K.argsOf m c))) ((K.argsOf m c).a5) := (W38_of m ρ c main_v235 (by decide)).trans (at_v235_37 m ρ c)
theorem at_v235_39 : W39 m ρ c (Proc.devRef .tc main_v235) = C_v235 (F := Ideal) ((K.argsOf m c).a6) (C_v176 (F := Ideal) (C_v175 (F := Ideal) (K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c)))) (K.ue1 (K.argsOf m c)) (K.g1 (K.argsOf m c)) (K.P10_gW1 (K.argsOf m c)) (K.P10_gb1 (K.argsOf m c)))) (K.P10_gW2 (K.argsOf m c)) (C_v173 (F := Ideal) (K.P10_gb2 (K.argsOf m c))) ((K.argsOf m c).a5) := (W39_of m ρ c main_v235 (by decide)).trans (at_v235_38 m ρ c)
theorem at_v235_40 : W40 m ρ c (Proc.devRef .tc main_v235) = C_v235 (F := Ideal) ((K.argsOf m c).a6) (C_v176 (F := Ideal) (C_v175 (F := Ideal) (K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c)))) (K.ue1 (K.argsOf m c)) (K.g1 (K.argsOf m c)) (K.P10_gW1 (K.argsOf m c)) (K.P10_gb1 (K.argsOf m c)))) (K.P10_gW2 (K.argsOf m c)) (C_v173 (F := Ideal) (K.P10_gb2 (K.argsOf m c))) ((K.argsOf m c).a5) := (W40_of m ρ c main_v235 (by decide)).trans (at_v235_39 m ρ c)
theorem at_v235_41 : W41 m ρ c (Proc.devRef .tc main_v235) = C_v235 (F := Ideal) ((K.argsOf m c).a6) (C_v176 (F := Ideal) (C_v175 (F := Ideal) (K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c)))) (K.ue1 (K.argsOf m c)) (K.g1 (K.argsOf m c)) (K.P10_gW1 (K.argsOf m c)) (K.P10_gb1 (K.argsOf m c)))) (K.P10_gW2 (K.argsOf m c)) (C_v173 (F := Ideal) (K.P10_gb2 (K.argsOf m c))) ((K.argsOf m c).a5) := (W41_of m ρ c main_v235 (by decide)).trans (at_v235_40 m ρ c)
theorem at_v235_42 : W42 m ρ c (Proc.devRef .tc main_v235) = C_v235 (F := Ideal) ((K.argsOf m c).a6) (C_v176 (F := Ideal) (C_v175 (F := Ideal) (K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c)))) (K.ue1 (K.argsOf m c)) (K.g1 (K.argsOf m c)) (K.P10_gW1 (K.argsOf m c)) (K.P10_gb1 (K.argsOf m c)))) (K.P10_gW2 (K.argsOf m c)) (C_v173 (F := Ideal) (K.P10_gb2 (K.argsOf m c))) ((K.argsOf m c).a5) := (W42_of m ρ c main_v235 (by decide)).trans (at_v235_41 m ρ c)
theorem at_arg7_5 : W5 m ρ c (Proc.devRef .tc main_arg7) = (K.argsOf m c).a7 := (W5_of m ρ c main_arg7 (by decide)).trans (at_arg7_4 m ρ c)
theorem at_arg7_6 : W6 m ρ c (Proc.devRef .tc main_arg7) = (K.argsOf m c).a7 := (W6_of m ρ c main_arg7 (by decide)).trans (at_arg7_5 m ρ c)
theorem at_arg7_7 : W7 m ρ c (Proc.devRef .tc main_arg7) = (K.argsOf m c).a7 := (W7_of m ρ c main_arg7 (by decide)).trans (at_arg7_6 m ρ c)
theorem at_arg7_8 : W8 m ρ c (Proc.devRef .tc main_arg7) = (K.argsOf m c).a7 := (W8_of m ρ c main_arg7 (by decide)).trans (at_arg7_7 m ρ c)
theorem at_arg7_9 : W9 m ρ c (Proc.devRef .tc main_arg7) = (K.argsOf m c).a7 := (W9_of m ρ c main_arg7 (by decide)).trans (at_arg7_8 m ρ c)
theorem at_arg7_10 : W10 m ρ c (Proc.devRef .tc main_arg7) = (K.argsOf m c).a7 := (W10_of m ρ c main_arg7 (by decide)).trans (at_arg7_9 m ρ c)
theorem at_arg7_11 : W11 m ρ c (Proc.devRef .tc main_arg7) = (K.argsOf m c).a7 := (W11_of m ρ c main_arg7 (by decide)).trans (at_arg7_10 m ρ c)
theorem at_arg7_12 : W12 m ρ c (Proc.devRef .tc main_arg7) = (K.argsOf m c).a7 := (W12_of m ρ c main_arg7 (by decide)).trans (at_arg7_11 m ρ c)
theorem at_arg7_13 : W13 m ρ c (Proc.devRef .tc main_arg7) = (K.argsOf m c).a7 := (W13_of m ρ c main_arg7 (by decide)).trans (at_arg7_12 m ρ c)
theorem at_arg7_14 : W14 m ρ c (Proc.devRef .tc main_arg7) = (K.argsOf m c).a7 := (W14_of m ρ c main_arg7 (by decide)).trans (at_arg7_13 m ρ c)
theorem at_arg7_15 : W15 m ρ c (Proc.devRef .tc main_arg7) = (K.argsOf m c).a7 := (W15_of m ρ c main_arg7 (by decide)).trans (at_arg7_14 m ρ c)
theorem at_arg7_16 : W16 m ρ c (Proc.devRef .tc main_arg7) = (K.argsOf m c).a7 := (W16_of m ρ c main_arg7 (by decide)).trans (at_arg7_15 m ρ c)
theorem at_arg7_17 : W17 m ρ c (Proc.devRef .tc main_arg7) = (K.argsOf m c).a7 := (W17_of m ρ c main_arg7 (by decide)).trans (at_arg7_16 m ρ c)
theorem at_arg7_18 : W18 m ρ c (Proc.devRef .tc main_arg7) = (K.argsOf m c).a7 := (W18_of m ρ c main_arg7 (by decide)).trans (at_arg7_17 m ρ c)
theorem at_arg7_19 : W19 m ρ c (Proc.devRef .tc main_arg7) = (K.argsOf m c).a7 := (W19_of m ρ c main_arg7 (by decide)).trans (at_arg7_18 m ρ c)
theorem at_arg7_20 : W20 m ρ c (Proc.devRef .tc main_arg7) = (K.argsOf m c).a7 := (W20_of m ρ c main_arg7 (by decide)).trans (at_arg7_19 m ρ c)
theorem at_arg7_21 : W21 m ρ c (Proc.devRef .tc main_arg7) = (K.argsOf m c).a7 := (W21_of m ρ c main_arg7 (by decide)).trans (at_arg7_20 m ρ c)
theorem at_arg7_22 : W22 m ρ c (Proc.devRef .tc main_arg7) = (K.argsOf m c).a7 := (W22_of m ρ c main_arg7 (by decide)).trans (at_arg7_21 m ρ c)
theorem at_arg7_23 : W23 m ρ c (Proc.devRef .tc main_arg7) = (K.argsOf m c).a7 := (W23_of m ρ c main_arg7 (by decide)).trans (at_arg7_22 m ρ c)
theorem at_arg7_24 : W24 m ρ c (Proc.devRef .tc main_arg7) = (K.argsOf m c).a7 := (W24_of m ρ c main_arg7 (by decide)).trans (at_arg7_23 m ρ c)
theorem at_arg7_25 : W25 m ρ c (Proc.devRef .tc main_arg7) = (K.argsOf m c).a7 := (W25_of m ρ c main_arg7 (by decide)).trans (at_arg7_24 m ρ c)
theorem at_arg7_26 : W26 m ρ c (Proc.devRef .tc main_arg7) = (K.argsOf m c).a7 := (W26_of m ρ c main_arg7 (by decide)).trans (at_arg7_25 m ρ c)
theorem at_arg7_27 : W27 m ρ c (Proc.devRef .tc main_arg7) = (K.argsOf m c).a7 := (W27_of m ρ c main_arg7 (by decide)).trans (at_arg7_26 m ρ c)
theorem at_arg7_28 : W28 m ρ c (Proc.devRef .tc main_arg7) = (K.argsOf m c).a7 := (W28_of m ρ c main_arg7 (by decide)).trans (at_arg7_27 m ρ c)
theorem at_arg7_29 : W29 m ρ c (Proc.devRef .tc main_arg7) = (K.argsOf m c).a7 := (W29_of m ρ c main_arg7 (by decide)).trans (at_arg7_28 m ρ c)
theorem at_arg7_30 : W30 m ρ c (Proc.devRef .tc main_arg7) = (K.argsOf m c).a7 := (W30_of m ρ c main_arg7 (by decide)).trans (at_arg7_29 m ρ c)
theorem at_arg7_31 : W31 m ρ c (Proc.devRef .tc main_arg7) = (K.argsOf m c).a7 := (W31_of m ρ c main_arg7 (by decide)).trans (at_arg7_30 m ρ c)
theorem at_arg7_32 : W32 m ρ c (Proc.devRef .tc main_arg7) = (K.argsOf m c).a7 := (W32_of m ρ c main_arg7 (by decide)).trans (at_arg7_31 m ρ c)
theorem at_arg7_33 : W33 m ρ c (Proc.devRef .tc main_arg7) = (K.argsOf m c).a7 := (W33_of m ρ c main_arg7 (by decide)).trans (at_arg7_32 m ρ c)
theorem at_arg7_34 : W34 m ρ c (Proc.devRef .tc main_arg7) = (K.argsOf m c).a7 := (W34_of m ρ c main_arg7 (by decide)).trans (at_arg7_33 m ρ c)
theorem at_arg7_35 : W35 m ρ c (Proc.devRef .tc main_arg7) = (K.argsOf m c).a7 := (W35_of m ρ c main_arg7 (by decide)).trans (at_arg7_34 m ρ c)
theorem at_arg7_36 : W36 m ρ c (Proc.devRef .tc main_arg7) = (K.argsOf m c).a7 := (W36_of m ρ c main_arg7 (by decide)).trans (at_arg7_35 m ρ c)
theorem at_v184_37 : W37 m ρ c (Proc.devRef .tc main_v184) = K.P01_eW2 (K.argsOf m c) :=
  pr_v184 (W36 m ρ c) (K.argsOf m c) (at_arg7_36 m ρ c)
theorem at_v184_38 : W38 m ρ c (Proc.devRef .tc main_v184) = K.P01_eW2 (K.argsOf m c) := (W38_of m ρ c main_v184 (by decide)).trans (at_v184_37 m ρ c)
theorem at_v184_39 : W39 m ρ c (Proc.devRef .tc main_v184) = K.P01_eW2 (K.argsOf m c) := (W39_of m ρ c main_v184 (by decide)).trans (at_v184_38 m ρ c)
theorem at_v184_40 : W40 m ρ c (Proc.devRef .tc main_v184) = K.P01_eW2 (K.argsOf m c) := (W40_of m ρ c main_v184 (by decide)).trans (at_v184_39 m ρ c)
theorem at_v184_41 : W41 m ρ c (Proc.devRef .tc main_v184) = K.P01_eW2 (K.argsOf m c) := (W41_of m ρ c main_v184 (by decide)).trans (at_v184_40 m ρ c)
theorem at_v184_42 : W42 m ρ c (Proc.devRef .tc main_v184) = K.P01_eW2 (K.argsOf m c) := (W42_of m ρ c main_v184 (by decide)).trans (at_v184_41 m ρ c)
theorem at_arg8_5 : W5 m ρ c (Proc.devRef .tc main_arg8) = (K.argsOf m c).a8 := (W5_of m ρ c main_arg8 (by decide)).trans (at_arg8_4 m ρ c)
theorem at_arg8_6 : W6 m ρ c (Proc.devRef .tc main_arg8) = (K.argsOf m c).a8 := (W6_of m ρ c main_arg8 (by decide)).trans (at_arg8_5 m ρ c)
theorem at_arg8_7 : W7 m ρ c (Proc.devRef .tc main_arg8) = (K.argsOf m c).a8 := (W7_of m ρ c main_arg8 (by decide)).trans (at_arg8_6 m ρ c)
theorem at_arg8_8 : W8 m ρ c (Proc.devRef .tc main_arg8) = (K.argsOf m c).a8 := (W8_of m ρ c main_arg8 (by decide)).trans (at_arg8_7 m ρ c)
theorem at_arg8_9 : W9 m ρ c (Proc.devRef .tc main_arg8) = (K.argsOf m c).a8 := (W9_of m ρ c main_arg8 (by decide)).trans (at_arg8_8 m ρ c)
theorem at_arg8_10 : W10 m ρ c (Proc.devRef .tc main_arg8) = (K.argsOf m c).a8 := (W10_of m ρ c main_arg8 (by decide)).trans (at_arg8_9 m ρ c)
theorem at_arg8_11 : W11 m ρ c (Proc.devRef .tc main_arg8) = (K.argsOf m c).a8 := (W11_of m ρ c main_arg8 (by decide)).trans (at_arg8_10 m ρ c)
theorem at_arg8_12 : W12 m ρ c (Proc.devRef .tc main_arg8) = (K.argsOf m c).a8 := (W12_of m ρ c main_arg8 (by decide)).trans (at_arg8_11 m ρ c)
theorem at_arg8_13 : W13 m ρ c (Proc.devRef .tc main_arg8) = (K.argsOf m c).a8 := (W13_of m ρ c main_arg8 (by decide)).trans (at_arg8_12 m ρ c)
theorem at_arg8_14 : W14 m ρ c (Proc.devRef .tc main_arg8) = (K.argsOf m c).a8 := (W14_of m ρ c main_arg8 (by decide)).trans (at_arg8_13 m ρ c)
theorem at_arg8_15 : W15 m ρ c (Proc.devRef .tc main_arg8) = (K.argsOf m c).a8 := (W15_of m ρ c main_arg8 (by decide)).trans (at_arg8_14 m ρ c)
theorem at_arg8_16 : W16 m ρ c (Proc.devRef .tc main_arg8) = (K.argsOf m c).a8 := (W16_of m ρ c main_arg8 (by decide)).trans (at_arg8_15 m ρ c)
theorem at_arg8_17 : W17 m ρ c (Proc.devRef .tc main_arg8) = (K.argsOf m c).a8 := (W17_of m ρ c main_arg8 (by decide)).trans (at_arg8_16 m ρ c)
theorem at_arg8_18 : W18 m ρ c (Proc.devRef .tc main_arg8) = (K.argsOf m c).a8 := (W18_of m ρ c main_arg8 (by decide)).trans (at_arg8_17 m ρ c)
theorem at_arg8_19 : W19 m ρ c (Proc.devRef .tc main_arg8) = (K.argsOf m c).a8 := (W19_of m ρ c main_arg8 (by decide)).trans (at_arg8_18 m ρ c)
theorem at_arg8_20 : W20 m ρ c (Proc.devRef .tc main_arg8) = (K.argsOf m c).a8 := (W20_of m ρ c main_arg8 (by decide)).trans (at_arg8_19 m ρ c)
theorem at_arg8_21 : W21 m ρ c (Proc.devRef .tc main_arg8) = (K.argsOf m c).a8 := (W21_of m ρ c main_arg8 (by decide)).trans (at_arg8_20 m ρ c)
theorem at_arg8_22 : W22 m ρ c (Proc.devRef .tc main_arg8) = (K.argsOf m c).a8 := (W22_of m ρ c main_arg8 (by decide)).trans (at_arg8_21 m ρ c)
theorem at_arg8_23 : W23 m ρ c (Proc.devRef .tc main_arg8) = (K.argsOf m c).a8 := (W23_of m ρ c main_arg8 (by decide)).trans (at_arg8_22 m ρ c)
theorem at_arg8_24 : W24 m ρ c (Proc.devRef .tc main_arg8) = (K.argsOf m c).a8 := (W24_of m ρ c main_arg8 (by decide)).trans (at_arg8_23 m ρ c)
theorem at_arg8_25 : W25 m ρ c (Proc.devRef .tc main_arg8) = (K.argsOf m c).a8 := (W25_of m ρ c main_arg8 (by decide)).trans (at_arg8_24 m ρ c)
theorem at_arg8_26 : W26 m ρ c (Proc.devRef .tc main_arg8) = (K.argsOf m c).a8 := (W26_of m ρ c main_arg8 (by decide)).trans (at_arg8_25 m ρ c)
theorem at_arg8_27 : W27 m ρ c (Proc.devRef .tc main_arg8) = (K.argsOf m c).a8 := (W27_of m ρ c main_arg8 (by decide)).trans (at_arg8_26 m ρ c)
theorem at_arg8_28 : W28 m ρ c (Proc.devRef .tc main_arg8) = (K.argsOf m c).a8 := (W28_of m ρ c main_arg8 (by decide)).trans (at_arg8_27 m ρ c)
theorem at_arg8_29 : W29 m ρ c (Proc.devRef .tc main_arg8) = (K.argsOf m c).a8 := (W29_of m ρ c main_arg8 (by decide)).trans (at_arg8_28 m ρ c)
theorem at_arg8_30 : W30 m ρ c (Proc.devRef .tc main_arg8) = (K.argsOf m c).a8 := (W30_of m ρ c main_arg8 (by decide)).trans (at_arg8_29 m ρ c)
theorem at_arg8_31 : W31 m ρ c (Proc.devRef .tc main_arg8) = (K.argsOf m c).a8 := (W31_of m ρ c main_arg8 (by decide)).trans (at_arg8_30 m ρ c)
theorem at_arg8_32 : W32 m ρ c (Proc.devRef .tc main_arg8) = (K.argsOf m c).a8 := (W32_of m ρ c main_arg8 (by decide)).trans (at_arg8_31 m ρ c)
theorem at_arg8_33 : W33 m ρ c (Proc.devRef .tc main_arg8) = (K.argsOf m c).a8 := (W33_of m ρ c main_arg8 (by decide)).trans (at_arg8_32 m ρ c)
theorem at_arg8_34 : W34 m ρ c (Proc.devRef .tc main_arg8) = (K.argsOf m c).a8 := (W34_of m ρ c main_arg8 (by decide)).trans (at_arg8_33 m ρ c)
theorem at_arg8_35 : W35 m ρ c (Proc.devRef .tc main_arg8) = (K.argsOf m c).a8 := (W35_of m ρ c main_arg8 (by decide)).trans (at_arg8_34 m ρ c)
theorem at_arg8_36 : W36 m ρ c (Proc.devRef .tc main_arg8) = (K.argsOf m c).a8 := (W36_of m ρ c main_arg8 (by decide)).trans (at_arg8_35 m ρ c)
theorem at_v236_37 : W37 m ρ c (Proc.devRef .tc main_v236) = C_v236 (F := Ideal) ((K.argsOf m c).a8) :=
  rd_v236 (W36 m ρ c) (K.argsOf m c) (at_arg8_36 m ρ c)
theorem at_v236_38 : W38 m ρ c (Proc.devRef .tc main_v236) = C_v236 (F := Ideal) ((K.argsOf m c).a8) := (W38_of m ρ c main_v236 (by decide)).trans (at_v236_37 m ρ c)
theorem at_v236_39 : W39 m ρ c (Proc.devRef .tc main_v236) = C_v236 (F := Ideal) ((K.argsOf m c).a8) := (W39_of m ρ c main_v236 (by decide)).trans (at_v236_38 m ρ c)
theorem at_v236_40 : W40 m ρ c (Proc.devRef .tc main_v236) = C_v236 (F := Ideal) ((K.argsOf m c).a8) := (W40_of m ρ c main_v236 (by decide)).trans (at_v236_39 m ρ c)
theorem at_v236_41 : W41 m ρ c (Proc.devRef .tc main_v236) = C_v236 (F := Ideal) ((K.argsOf m c).a8) := (W41_of m ρ c main_v236 (by decide)).trans (at_v236_40 m ρ c)
theorem at_v236_42 : W42 m ρ c (Proc.devRef .tc main_v236) = C_v236 (F := Ideal) ((K.argsOf m c).a8) := (W42_of m ρ c main_v236 (by decide)).trans (at_v236_41 m ρ c)
theorem at_v240_43 : W43 m ρ c (Proc.devRef .tc main_v240) = K.edgeFn (C_v237 (F := Ideal) (C_v26 (F := Ideal) (C_v25 (F := Ideal) (K.lr (K.argsOf m c)) ((K.argsOf m c).a0))) (C_c_29)) (C_v238 (F := Ideal) (C_v28 (F := Ideal) (C_v27 (F := Ideal) (K.lc (K.argsOf m c)) ((K.argsOf m c).a0))) (C_c_30)) (C_v239 (F := Ideal) (C_v228 (F := Ideal) (K.le1 (K.argsOf m c)) ((K.argsOf m c).a3)) (C_c_31)) (C_v230 (F := Ideal) ((K.argsOf m c).a5)) (C_v231 (F := Ideal) ((K.argsOf m c).a5)) (C_v232 (F := Ideal) ((K.argsOf m c).a5)) (C_v235 (F := Ideal) ((K.argsOf m c).a6) (C_v176 (F := Ideal) (C_v175 (F := Ideal) (K.nodeFn (C_v159 (F := Ideal) (C_v128 (F := Ideal) (K.ln1 (K.argsOf m c))) (C_c_23)) (C_v160 (F := Ideal) (K.ua1 (K.argsOf m c)) (C_c_24)) (C_v153 (F := Ideal) (K.P10_nW1 (K.argsOf m c))) (C_v154 (F := Ideal) (K.P10_nW1 (K.argsOf m c))) (C_v157 (F := Ideal) (K.P10_nb1 (K.argsOf m c)) (K.g1 (K.argsOf m c)) (K.P10_nW1 (K.argsOf m c))) (K.P10_nW2 (K.argsOf m c)) (C_v158 (F := Ideal) (K.P10_nb2 (K.argsOf m c)))) (K.ue1 (K.argsOf m c)) (K.g1 (K.argsOf m c)) (K.P10_gW1 (K.argsOf m c)) (K.P10_gb1 (K.argsOf m c)))) (K.P10_gW2 (K.argsOf m c)) (C_v173 (F := Ideal) (K.P10_gb2 (K.argsOf m c))) ((K.argsOf m c).a5)) (K.P01_eW2 (K.argsOf m c)) (C_v236 (F := Ideal) ((K.argsOf m c).a8)) :=
  (R4_read m ρ c).trans (by rw [at_v237_42 m ρ c, at_v238_42 m ρ c, at_v239_42 m ρ c, at_v230_42 m ρ c, at_v231_42 m ρ c, at_v232_42 m ρ c, at_v235_42 m ρ c, at_v184_42 m ρ c, at_v236_42 m ρ c])
theorem at_v241_44 : W44 m ρ c (Proc.devRef .tc main_v241) = K.le2 (K.argsOf m c) :=
  st_le2 (W43 m ρ c) (K.argsOf m c) (at_v240_43 m ρ c)
theorem at_v1_12 : W12 m ρ c (Proc.devRef .tc main_v1) = K.lr (K.argsOf m c) := (W12_of m ρ c main_v1 (by decide)).trans (at_v1_11 m ρ c)
theorem at_v1_13 : W13 m ρ c (Proc.devRef .tc main_v1) = K.lr (K.argsOf m c) := (W13_of m ρ c main_v1 (by decide)).trans (at_v1_12 m ρ c)
theorem at_v1_14 : W14 m ρ c (Proc.devRef .tc main_v1) = K.lr (K.argsOf m c) := (W14_of m ρ c main_v1 (by decide)).trans (at_v1_13 m ρ c)
theorem at_v1_15 : W15 m ρ c (Proc.devRef .tc main_v1) = K.lr (K.argsOf m c) := (W15_of m ρ c main_v1 (by decide)).trans (at_v1_14 m ρ c)
theorem at_v1_16 : W16 m ρ c (Proc.devRef .tc main_v1) = K.lr (K.argsOf m c) := (W16_of m ρ c main_v1 (by decide)).trans (at_v1_15 m ρ c)
theorem at_v1_17 : W17 m ρ c (Proc.devRef .tc main_v1) = K.lr (K.argsOf m c) := (W17_of m ρ c main_v1 (by decide)).trans (at_v1_16 m ρ c)
theorem at_v1_18 : W18 m ρ c (Proc.devRef .tc main_v1) = K.lr (K.argsOf m c) := (W18_of m ρ c main_v1 (by decide)).trans (at_v1_17 m ρ c)
theorem at_v1_19 : W19 m ρ c (Proc.devRef .tc main_v1) = K.lr (K.argsOf m c) := (W19_of m ρ c main_v1 (by decide)).trans (at_v1_18 m ρ c)
theorem at_v1_20 : W20 m ρ c (Proc.devRef .tc main_v1) = K.lr (K.argsOf m c) := (W20_of m ρ c main_v1 (by decide)).trans (at_v1_19 m ρ c)
theorem at_v1_21 : W21 m ρ c (Proc.devRef .tc main_v1) = K.lr (K.argsOf m c) := (W21_of m ρ c main_v1 (by decide)).trans (at_v1_20 m ρ c)
theorem at_v1_22 : W22 m ρ c (Proc.devRef .tc main_v1) = K.lr (K.argsOf m c) := (W22_of m ρ c main_v1 (by decide)).trans (at_v1_21 m ρ c)
theorem at_v1_23 : W23 m ρ c (Proc.devRef .tc main_v1) = K.lr (K.argsOf m c) := (W23_of m ρ c main_v1 (by decide)).trans (at_v1_22 m ρ c)
theorem at_v1_24 : W24 m ρ c (Proc.devRef .tc main_v1) = K.lr (K.argsOf m c) := (W24_of m ρ c main_v1 (by decide)).trans (at_v1_23 m ρ c)
theorem at_v1_25 : W25 m ρ c (Proc.devRef .tc main_v1) = K.lr (K.argsOf m c) := (W25_of m ρ c main_v1 (by decide)).trans (at_v1_24 m ρ c)
theorem at_v1_26 : W26 m ρ c (Proc.devRef .tc main_v1) = K.lr (K.argsOf m c) := (W26_of m ρ c main_v1 (by decide)).trans (at_v1_25 m ρ c)
theorem at_v1_27 : W27 m ρ c (Proc.devRef .tc main_v1) = K.lr (K.argsOf m c) := (W27_of m ρ c main_v1 (by decide)).trans (at_v1_26 m ρ c)
theorem at_v1_28 : W28 m ρ c (Proc.devRef .tc main_v1) = K.lr (K.argsOf m c) := (W28_of m ρ c main_v1 (by decide)).trans (at_v1_27 m ρ c)
theorem at_v1_29 : W29 m ρ c (Proc.devRef .tc main_v1) = K.lr (K.argsOf m c) := (W29_of m ρ c main_v1 (by decide)).trans (at_v1_28 m ρ c)
theorem at_v1_30 : W30 m ρ c (Proc.devRef .tc main_v1) = K.lr (K.argsOf m c) := (W30_of m ρ c main_v1 (by decide)).trans (at_v1_29 m ρ c)
theorem at_v1_31 : W31 m ρ c (Proc.devRef .tc main_v1) = K.lr (K.argsOf m c) := (W31_of m ρ c main_v1 (by decide)).trans (at_v1_30 m ρ c)
theorem at_v1_32 : W32 m ρ c (Proc.devRef .tc main_v1) = K.lr (K.argsOf m c) := (W32_of m ρ c main_v1 (by decide)).trans (at_v1_31 m ρ c)
theorem at_v1_33 : W33 m ρ c (Proc.devRef .tc main_v1) = K.lr (K.argsOf m c) := (W33_of m ρ c main_v1 (by decide)).trans (at_v1_32 m ρ c)
theorem at_v1_34 : W34 m ρ c (Proc.devRef .tc main_v1) = K.lr (K.argsOf m c) := (W34_of m ρ c main_v1 (by decide)).trans (at_v1_33 m ρ c)
theorem at_v1_35 : W35 m ρ c (Proc.devRef .tc main_v1) = K.lr (K.argsOf m c) := (W35_of m ρ c main_v1 (by decide)).trans (at_v1_34 m ρ c)
theorem at_v1_36 : W36 m ρ c (Proc.devRef .tc main_v1) = K.lr (K.argsOf m c) := (W36_of m ρ c main_v1 (by decide)).trans (at_v1_35 m ρ c)
theorem at_v1_37 : W37 m ρ c (Proc.devRef .tc main_v1) = K.lr (K.argsOf m c) := (W37_of m ρ c main_v1 (by decide)).trans (at_v1_36 m ρ c)
theorem at_v1_38 : W38 m ρ c (Proc.devRef .tc main_v1) = K.lr (K.argsOf m c) := (W38_of m ρ c main_v1 (by decide)).trans (at_v1_37 m ρ c)
theorem at_v1_39 : W39 m ρ c (Proc.devRef .tc main_v1) = K.lr (K.argsOf m c) := (W39_of m ρ c main_v1 (by decide)).trans (at_v1_38 m ρ c)
theorem at_v1_40 : W40 m ρ c (Proc.devRef .tc main_v1) = K.lr (K.argsOf m c) := (W40_of m ρ c main_v1 (by decide)).trans (at_v1_39 m ρ c)
theorem at_v1_41 : W41 m ρ c (Proc.devRef .tc main_v1) = K.lr (K.argsOf m c) := (W41_of m ρ c main_v1 (by decide)).trans (at_v1_40 m ρ c)
theorem at_v1_42 : W42 m ρ c (Proc.devRef .tc main_v1) = K.lr (K.argsOf m c) := (W42_of m ρ c main_v1 (by decide)).trans (at_v1_41 m ρ c)
theorem at_v1_43 : W43 m ρ c (Proc.devRef .tc main_v1) = K.lr (K.argsOf m c) := (W43_of m ρ c main_v1 (by decide)).trans (at_v1_42 m ρ c)
theorem at_v16_12 : W12 m ρ c (Proc.devRef .tc main_v16) = C_v16 (F := Ideal) ((K.argsOf m c).a1) := (W12_of m ρ c main_v16 (by decide)).trans (at_v16_11 m ρ c)
theorem at_v16_13 : W13 m ρ c (Proc.devRef .tc main_v16) = C_v16 (F := Ideal) ((K.argsOf m c).a1) := (W13_of m ρ c main_v16 (by decide)).trans (at_v16_12 m ρ c)
theorem at_v16_14 : W14 m ρ c (Proc.devRef .tc main_v16) = C_v16 (F := Ideal) ((K.argsOf m c).a1) := (W14_of m ρ c main_v16 (by decide)).trans (at_v16_13 m ρ c)
theorem at_v16_15 : W15 m ρ c (Proc.devRef .tc main_v16) = C_v16 (F := Ideal) ((K.argsOf m c).a1) := (W15_of m ρ c main_v16 (by decide)).trans (at_v16_14 m ρ c)
theorem at_v16_16 : W16 m ρ c (Proc.devRef .tc main_v16) = C_v16 (F := Ideal) ((K.argsOf m c).a1) := (W16_of m ρ c main_v16 (by decide)).trans (at_v16_15 m ρ c)
theorem at_v16_17 : W17 m ρ c (Proc.devRef .tc main_v16) = C_v16 (F := Ideal) ((K.argsOf m c).a1) := (W17_of m ρ c main_v16 (by decide)).trans (at_v16_16 m ρ c)
theorem at_v16_18 : W18 m ρ c (Proc.devRef .tc main_v16) = C_v16 (F := Ideal) ((K.argsOf m c).a1) := (W18_of m ρ c main_v16 (by decide)).trans (at_v16_17 m ρ c)
theorem at_v16_19 : W19 m ρ c (Proc.devRef .tc main_v16) = C_v16 (F := Ideal) ((K.argsOf m c).a1) := (W19_of m ρ c main_v16 (by decide)).trans (at_v16_18 m ρ c)
theorem at_v16_20 : W20 m ρ c (Proc.devRef .tc main_v16) = C_v16 (F := Ideal) ((K.argsOf m c).a1) := (W20_of m ρ c main_v16 (by decide)).trans (at_v16_19 m ρ c)
theorem at_v16_21 : W21 m ρ c (Proc.devRef .tc main_v16) = C_v16 (F := Ideal) ((K.argsOf m c).a1) := (W21_of m ρ c main_v16 (by decide)).trans (at_v16_20 m ρ c)
theorem at_v16_22 : W22 m ρ c (Proc.devRef .tc main_v16) = C_v16 (F := Ideal) ((K.argsOf m c).a1) := (W22_of m ρ c main_v16 (by decide)).trans (at_v16_21 m ρ c)
theorem at_v16_23 : W23 m ρ c (Proc.devRef .tc main_v16) = C_v16 (F := Ideal) ((K.argsOf m c).a1) := (W23_of m ρ c main_v16 (by decide)).trans (at_v16_22 m ρ c)
theorem at_v16_24 : W24 m ρ c (Proc.devRef .tc main_v16) = C_v16 (F := Ideal) ((K.argsOf m c).a1) := (W24_of m ρ c main_v16 (by decide)).trans (at_v16_23 m ρ c)
theorem at_v16_25 : W25 m ρ c (Proc.devRef .tc main_v16) = C_v16 (F := Ideal) ((K.argsOf m c).a1) := (W25_of m ρ c main_v16 (by decide)).trans (at_v16_24 m ρ c)
theorem at_v16_26 : W26 m ρ c (Proc.devRef .tc main_v16) = C_v16 (F := Ideal) ((K.argsOf m c).a1) := (W26_of m ρ c main_v16 (by decide)).trans (at_v16_25 m ρ c)
theorem at_v16_27 : W27 m ρ c (Proc.devRef .tc main_v16) = C_v16 (F := Ideal) ((K.argsOf m c).a1) := (W27_of m ρ c main_v16 (by decide)).trans (at_v16_26 m ρ c)
theorem at_v16_28 : W28 m ρ c (Proc.devRef .tc main_v16) = C_v16 (F := Ideal) ((K.argsOf m c).a1) := (W28_of m ρ c main_v16 (by decide)).trans (at_v16_27 m ρ c)
theorem at_v16_29 : W29 m ρ c (Proc.devRef .tc main_v16) = C_v16 (F := Ideal) ((K.argsOf m c).a1) := (W29_of m ρ c main_v16 (by decide)).trans (at_v16_28 m ρ c)
theorem at_v16_30 : W30 m ρ c (Proc.devRef .tc main_v16) = C_v16 (F := Ideal) ((K.argsOf m c).a1) := (W30_of m ρ c main_v16 (by decide)).trans (at_v16_29 m ρ c)
theorem at_v16_31 : W31 m ρ c (Proc.devRef .tc main_v16) = C_v16 (F := Ideal) ((K.argsOf m c).a1) := (W31_of m ρ c main_v16 (by decide)).trans (at_v16_30 m ρ c)
theorem at_v16_32 : W32 m ρ c (Proc.devRef .tc main_v16) = C_v16 (F := Ideal) ((K.argsOf m c).a1) := (W32_of m ρ c main_v16 (by decide)).trans (at_v16_31 m ρ c)
theorem at_v16_33 : W33 m ρ c (Proc.devRef .tc main_v16) = C_v16 (F := Ideal) ((K.argsOf m c).a1) := (W33_of m ρ c main_v16 (by decide)).trans (at_v16_32 m ρ c)
theorem at_v16_34 : W34 m ρ c (Proc.devRef .tc main_v16) = C_v16 (F := Ideal) ((K.argsOf m c).a1) := (W34_of m ρ c main_v16 (by decide)).trans (at_v16_33 m ρ c)
theorem at_v16_35 : W35 m ρ c (Proc.devRef .tc main_v16) = C_v16 (F := Ideal) ((K.argsOf m c).a1) := (W35_of m ρ c main_v16 (by decide)).trans (at_v16_34 m ρ c)
theorem at_v16_36 : W36 m ρ c (Proc.devRef .tc main_v16) = C_v16 (F := Ideal) ((K.argsOf m c).a1) := (W36_of m ρ c main_v16 (by decide)).trans (at_v16_35 m ρ c)
theorem at_v16_37 : W37 m ρ c (Proc.devRef .tc main_v16) = C_v16 (F := Ideal) ((K.argsOf m c).a1) := (W37_of m ρ c main_v16 (by decide)).trans (at_v16_36 m ρ c)
theorem at_v16_38 : W38 m ρ c (Proc.devRef .tc main_v16) = C_v16 (F := Ideal) ((K.argsOf m c).a1) := (W38_of m ρ c main_v16 (by decide)).trans (at_v16_37 m ρ c)
theorem at_v16_39 : W39 m ρ c (Proc.devRef .tc main_v16) = C_v16 (F := Ideal) ((K.argsOf m c).a1) := (W39_of m ρ c main_v16 (by decide)).trans (at_v16_38 m ρ c)
theorem at_v16_40 : W40 m ρ c (Proc.devRef .tc main_v16) = C_v16 (F := Ideal) ((K.argsOf m c).a1) := (W40_of m ρ c main_v16 (by decide)).trans (at_v16_39 m ρ c)
theorem at_v16_41 : W41 m ρ c (Proc.devRef .tc main_v16) = C_v16 (F := Ideal) ((K.argsOf m c).a1) := (W41_of m ρ c main_v16 (by decide)).trans (at_v16_40 m ρ c)
theorem at_v16_42 : W42 m ρ c (Proc.devRef .tc main_v16) = C_v16 (F := Ideal) ((K.argsOf m c).a1) := (W42_of m ρ c main_v16 (by decide)).trans (at_v16_41 m ρ c)
theorem at_v16_43 : W43 m ρ c (Proc.devRef .tc main_v16) = C_v16 (F := Ideal) ((K.argsOf m c).a1) := (W43_of m ρ c main_v16 (by decide)).trans (at_v16_42 m ρ c)
theorem at_v246_44 : W44 m ρ c (Proc.devRef .tc main_v246) = K.la2 (K.argsOf m c) :=
  st_la2 (W43 m ρ c) (K.argsOf m c) (at_v1_43 m ρ c) (at_v240_43 m ρ c) (at_v16_43 m ρ c)
theorem at_v24_13 : W13 m ρ c (Proc.devRef .tc main_v24) = C_v24 (F := Ideal) ((K.argsOf m c).a0) := (W13_of m ρ c main_v24 (by decide)).trans (at_v24_12 m ρ c)
theorem at_v24_14 : W14 m ρ c (Proc.devRef .tc main_v24) = C_v24 (F := Ideal) ((K.argsOf m c).a0) := (W14_of m ρ c main_v24 (by decide)).trans (at_v24_13 m ρ c)
theorem at_v24_15 : W15 m ρ c (Proc.devRef .tc main_v24) = C_v24 (F := Ideal) ((K.argsOf m c).a0) := (W15_of m ρ c main_v24 (by decide)).trans (at_v24_14 m ρ c)
theorem at_v24_16 : W16 m ρ c (Proc.devRef .tc main_v24) = C_v24 (F := Ideal) ((K.argsOf m c).a0) := (W16_of m ρ c main_v24 (by decide)).trans (at_v24_15 m ρ c)
theorem at_v24_17 : W17 m ρ c (Proc.devRef .tc main_v24) = C_v24 (F := Ideal) ((K.argsOf m c).a0) := (W17_of m ρ c main_v24 (by decide)).trans (at_v24_16 m ρ c)
theorem at_v24_18 : W18 m ρ c (Proc.devRef .tc main_v24) = C_v24 (F := Ideal) ((K.argsOf m c).a0) := (W18_of m ρ c main_v24 (by decide)).trans (at_v24_17 m ρ c)
theorem at_v24_19 : W19 m ρ c (Proc.devRef .tc main_v24) = C_v24 (F := Ideal) ((K.argsOf m c).a0) := (W19_of m ρ c main_v24 (by decide)).trans (at_v24_18 m ρ c)
theorem at_v24_20 : W20 m ρ c (Proc.devRef .tc main_v24) = C_v24 (F := Ideal) ((K.argsOf m c).a0) := (W20_of m ρ c main_v24 (by decide)).trans (at_v24_19 m ρ c)
theorem at_v24_21 : W21 m ρ c (Proc.devRef .tc main_v24) = C_v24 (F := Ideal) ((K.argsOf m c).a0) := (W21_of m ρ c main_v24 (by decide)).trans (at_v24_20 m ρ c)
theorem at_v24_22 : W22 m ρ c (Proc.devRef .tc main_v24) = C_v24 (F := Ideal) ((K.argsOf m c).a0) := (W22_of m ρ c main_v24 (by decide)).trans (at_v24_21 m ρ c)
theorem at_v24_23 : W23 m ρ c (Proc.devRef .tc main_v24) = C_v24 (F := Ideal) ((K.argsOf m c).a0) := (W23_of m ρ c main_v24 (by decide)).trans (at_v24_22 m ρ c)
theorem at_v24_24 : W24 m ρ c (Proc.devRef .tc main_v24) = C_v24 (F := Ideal) ((K.argsOf m c).a0) := (W24_of m ρ c main_v24 (by decide)).trans (at_v24_23 m ρ c)
theorem at_v24_25 : W25 m ρ c (Proc.devRef .tc main_v24) = C_v24 (F := Ideal) ((K.argsOf m c).a0) := (W25_of m ρ c main_v24 (by decide)).trans (at_v24_24 m ρ c)
theorem at_v24_26 : W26 m ρ c (Proc.devRef .tc main_v24) = C_v24 (F := Ideal) ((K.argsOf m c).a0) := (W26_of m ρ c main_v24 (by decide)).trans (at_v24_25 m ρ c)
theorem at_v24_27 : W27 m ρ c (Proc.devRef .tc main_v24) = C_v24 (F := Ideal) ((K.argsOf m c).a0) := (W27_of m ρ c main_v24 (by decide)).trans (at_v24_26 m ρ c)
theorem at_v24_28 : W28 m ρ c (Proc.devRef .tc main_v24) = C_v24 (F := Ideal) ((K.argsOf m c).a0) := (W28_of m ρ c main_v24 (by decide)).trans (at_v24_27 m ρ c)
theorem at_v24_29 : W29 m ρ c (Proc.devRef .tc main_v24) = C_v24 (F := Ideal) ((K.argsOf m c).a0) := (W29_of m ρ c main_v24 (by decide)).trans (at_v24_28 m ρ c)
theorem at_v24_30 : W30 m ρ c (Proc.devRef .tc main_v24) = C_v24 (F := Ideal) ((K.argsOf m c).a0) := (W30_of m ρ c main_v24 (by decide)).trans (at_v24_29 m ρ c)
theorem at_v24_31 : W31 m ρ c (Proc.devRef .tc main_v24) = C_v24 (F := Ideal) ((K.argsOf m c).a0) := (W31_of m ρ c main_v24 (by decide)).trans (at_v24_30 m ρ c)
theorem at_v24_32 : W32 m ρ c (Proc.devRef .tc main_v24) = C_v24 (F := Ideal) ((K.argsOf m c).a0) := (W32_of m ρ c main_v24 (by decide)).trans (at_v24_31 m ρ c)
theorem at_v24_33 : W33 m ρ c (Proc.devRef .tc main_v24) = C_v24 (F := Ideal) ((K.argsOf m c).a0) := (W33_of m ρ c main_v24 (by decide)).trans (at_v24_32 m ρ c)
theorem at_v24_34 : W34 m ρ c (Proc.devRef .tc main_v24) = C_v24 (F := Ideal) ((K.argsOf m c).a0) := (W34_of m ρ c main_v24 (by decide)).trans (at_v24_33 m ρ c)
theorem at_v24_35 : W35 m ρ c (Proc.devRef .tc main_v24) = C_v24 (F := Ideal) ((K.argsOf m c).a0) := (W35_of m ρ c main_v24 (by decide)).trans (at_v24_34 m ρ c)
theorem at_v24_36 : W36 m ρ c (Proc.devRef .tc main_v24) = C_v24 (F := Ideal) ((K.argsOf m c).a0) := (W36_of m ρ c main_v24 (by decide)).trans (at_v24_35 m ρ c)
theorem at_v24_37 : W37 m ρ c (Proc.devRef .tc main_v24) = C_v24 (F := Ideal) ((K.argsOf m c).a0) := (W37_of m ρ c main_v24 (by decide)).trans (at_v24_36 m ρ c)
theorem at_v24_38 : W38 m ρ c (Proc.devRef .tc main_v24) = C_v24 (F := Ideal) ((K.argsOf m c).a0) := (W38_of m ρ c main_v24 (by decide)).trans (at_v24_37 m ρ c)
theorem at_v24_39 : W39 m ρ c (Proc.devRef .tc main_v24) = C_v24 (F := Ideal) ((K.argsOf m c).a0) := (W39_of m ρ c main_v24 (by decide)).trans (at_v24_38 m ρ c)
theorem at_v24_40 : W40 m ρ c (Proc.devRef .tc main_v24) = C_v24 (F := Ideal) ((K.argsOf m c).a0) := (W40_of m ρ c main_v24 (by decide)).trans (at_v24_39 m ρ c)
theorem at_v24_41 : W41 m ρ c (Proc.devRef .tc main_v24) = C_v24 (F := Ideal) ((K.argsOf m c).a0) := (W41_of m ρ c main_v24 (by decide)).trans (at_v24_40 m ρ c)
theorem at_v24_42 : W42 m ρ c (Proc.devRef .tc main_v24) = C_v24 (F := Ideal) ((K.argsOf m c).a0) := (W42_of m ρ c main_v24 (by decide)).trans (at_v24_41 m ρ c)
theorem at_v24_43 : W43 m ρ c (Proc.devRef .tc main_v24) = C_v24 (F := Ideal) ((K.argsOf m c).a0) := (W43_of m ρ c main_v24 (by decide)).trans (at_v24_42 m ρ c)
theorem at_v24_44 : W44 m ρ c (Proc.devRef .tc main_v24) = C_v24 (F := Ideal) ((K.argsOf m c).a0) := (W44_of m ρ c main_v24 (by decide)).trans (at_v24_43 m ρ c)
theorem at_c_33_44 : W44 m ρ c (Proc.devRef .tc main_c_33) = C_c_33 :=
  rd_c_33 (W43 m ρ c) (K.argsOf m c)
theorem at_v254_45 : W45 m ρ c (Proc.devRef .tc main_v254) = C_v254 (F := Ideal) (C_v24 (F := Ideal) ((K.argsOf m c).a0)) (C_c_33) :=
  (congrArg (fun l => StableHlo.after l (W44 m ρ c) (Proc.devRef .tc main_v254)) hostOps5_1_eq).trans (rd_v254 (W44 m ρ c) (K.argsOf m c) (at_v24_44 m ρ c) (at_c_33_44 m ρ c))
theorem at_v254_46 : W46 m ρ c (Proc.devRef .tc main_v254) = C_v254 (F := Ideal) (C_v24 (F := Ideal) ((K.argsOf m c).a0)) (C_c_33) := (W46_of m ρ c main_v254 (by decide)).trans (at_v254_45 m ρ c)
theorem at_v254_47 : W47 m ρ c (Proc.devRef .tc main_v254) = C_v254 (F := Ideal) (C_v24 (F := Ideal) ((K.argsOf m c).a0)) (C_c_33) := (W47_of m ρ c main_v254 (by decide)).trans (at_v254_46 m ρ c)
theorem at_v246_45 : W45 m ρ c (Proc.devRef .tc main_v246) = K.la2 (K.argsOf m c) := (W45_of m ρ c main_v246 (by decide)).trans (at_v246_44 m ρ c)
theorem at_v246_46 : W46 m ρ c (Proc.devRef .tc main_v246) = K.la2 (K.argsOf m c) := (W46_of m ρ c main_v246 (by decide)).trans (at_v246_45 m ρ c)
theorem at_c_34_46 : W46 m ρ c (Proc.devRef .tc main_c_34) = C_c_34 :=
  rd_c_34 (W45 m ρ c) (K.argsOf m c)
theorem at_v255_47 : W47 m ρ c (Proc.devRef .tc main_v255) = C_v255 (F := Ideal) (K.la2 (K.argsOf m c)) (C_c_34) :=
  (congrArg (fun l => StableHlo.after l (W46 m ρ c) (Proc.devRef .tc main_v255)) hostOps5_3_eq).trans (rd_v255 (W46 m ρ c) (K.argsOf m c) (at_v246_46 m ρ c) (at_c_34_46 m ρ c))
theorem at_arg9_5 : W5 m ρ c (Proc.devRef .tc main_arg9) = (K.argsOf m c).a9 := (W5_of m ρ c main_arg9 (by decide)).trans (at_arg9_4 m ρ c)
theorem at_arg9_6 : W6 m ρ c (Proc.devRef .tc main_arg9) = (K.argsOf m c).a9 := (W6_of m ρ c main_arg9 (by decide)).trans (at_arg9_5 m ρ c)
theorem at_arg9_7 : W7 m ρ c (Proc.devRef .tc main_arg9) = (K.argsOf m c).a9 := (W7_of m ρ c main_arg9 (by decide)).trans (at_arg9_6 m ρ c)
theorem at_arg9_8 : W8 m ρ c (Proc.devRef .tc main_arg9) = (K.argsOf m c).a9 := (W8_of m ρ c main_arg9 (by decide)).trans (at_arg9_7 m ρ c)
theorem at_arg9_9 : W9 m ρ c (Proc.devRef .tc main_arg9) = (K.argsOf m c).a9 := (W9_of m ρ c main_arg9 (by decide)).trans (at_arg9_8 m ρ c)
theorem at_arg9_10 : W10 m ρ c (Proc.devRef .tc main_arg9) = (K.argsOf m c).a9 := (W10_of m ρ c main_arg9 (by decide)).trans (at_arg9_9 m ρ c)
theorem at_arg9_11 : W11 m ρ c (Proc.devRef .tc main_arg9) = (K.argsOf m c).a9 := (W11_of m ρ c main_arg9 (by decide)).trans (at_arg9_10 m ρ c)
theorem at_arg9_12 : W12 m ρ c (Proc.devRef .tc main_arg9) = (K.argsOf m c).a9 := (W12_of m ρ c main_arg9 (by decide)).trans (at_arg9_11 m ρ c)
theorem at_arg9_13 : W13 m ρ c (Proc.devRef .tc main_arg9) = (K.argsOf m c).a9 := (W13_of m ρ c main_arg9 (by decide)).trans (at_arg9_12 m ρ c)
theorem at_arg9_14 : W14 m ρ c (Proc.devRef .tc main_arg9) = (K.argsOf m c).a9 := (W14_of m ρ c main_arg9 (by decide)).trans (at_arg9_13 m ρ c)
theorem at_arg9_15 : W15 m ρ c (Proc.devRef .tc main_arg9) = (K.argsOf m c).a9 := (W15_of m ρ c main_arg9 (by decide)).trans (at_arg9_14 m ρ c)
theorem at_arg9_16 : W16 m ρ c (Proc.devRef .tc main_arg9) = (K.argsOf m c).a9 := (W16_of m ρ c main_arg9 (by decide)).trans (at_arg9_15 m ρ c)
theorem at_arg9_17 : W17 m ρ c (Proc.devRef .tc main_arg9) = (K.argsOf m c).a9 := (W17_of m ρ c main_arg9 (by decide)).trans (at_arg9_16 m ρ c)
theorem at_arg9_18 : W18 m ρ c (Proc.devRef .tc main_arg9) = (K.argsOf m c).a9 := (W18_of m ρ c main_arg9 (by decide)).trans (at_arg9_17 m ρ c)
theorem at_arg9_19 : W19 m ρ c (Proc.devRef .tc main_arg9) = (K.argsOf m c).a9 := (W19_of m ρ c main_arg9 (by decide)).trans (at_arg9_18 m ρ c)
theorem at_arg9_20 : W20 m ρ c (Proc.devRef .tc main_arg9) = (K.argsOf m c).a9 := (W20_of m ρ c main_arg9 (by decide)).trans (at_arg9_19 m ρ c)
theorem at_arg9_21 : W21 m ρ c (Proc.devRef .tc main_arg9) = (K.argsOf m c).a9 := (W21_of m ρ c main_arg9 (by decide)).trans (at_arg9_20 m ρ c)
theorem at_arg9_22 : W22 m ρ c (Proc.devRef .tc main_arg9) = (K.argsOf m c).a9 := (W22_of m ρ c main_arg9 (by decide)).trans (at_arg9_21 m ρ c)
theorem at_arg9_23 : W23 m ρ c (Proc.devRef .tc main_arg9) = (K.argsOf m c).a9 := (W23_of m ρ c main_arg9 (by decide)).trans (at_arg9_22 m ρ c)
theorem at_arg9_24 : W24 m ρ c (Proc.devRef .tc main_arg9) = (K.argsOf m c).a9 := (W24_of m ρ c main_arg9 (by decide)).trans (at_arg9_23 m ρ c)
theorem at_arg9_25 : W25 m ρ c (Proc.devRef .tc main_arg9) = (K.argsOf m c).a9 := (W25_of m ρ c main_arg9 (by decide)).trans (at_arg9_24 m ρ c)
theorem at_arg9_26 : W26 m ρ c (Proc.devRef .tc main_arg9) = (K.argsOf m c).a9 := (W26_of m ρ c main_arg9 (by decide)).trans (at_arg9_25 m ρ c)
theorem at_arg9_27 : W27 m ρ c (Proc.devRef .tc main_arg9) = (K.argsOf m c).a9 := (W27_of m ρ c main_arg9 (by decide)).trans (at_arg9_26 m ρ c)
theorem at_arg9_28 : W28 m ρ c (Proc.devRef .tc main_arg9) = (K.argsOf m c).a9 := (W28_of m ρ c main_arg9 (by decide)).trans (at_arg9_27 m ρ c)
theorem at_arg9_29 : W29 m ρ c (Proc.devRef .tc main_arg9) = (K.argsOf m c).a9 := (W29_of m ρ c main_arg9 (by decide)).trans (at_arg9_28 m ρ c)
theorem at_arg9_30 : W30 m ρ c (Proc.devRef .tc main_arg9) = (K.argsOf m c).a9 := (W30_of m ρ c main_arg9 (by decide)).trans (at_arg9_29 m ρ c)
theorem at_arg9_31 : W31 m ρ c (Proc.devRef .tc main_arg9) = (K.argsOf m c).a9 := (W31_of m ρ c main_arg9 (by decide)).trans (at_arg9_30 m ρ c)
theorem at_arg9_32 : W32 m ρ c (Proc.devRef .tc main_arg9) = (K.argsOf m c).a9 := (W32_of m ρ c main_arg9 (by decide)).trans (at_arg9_31 m ρ c)
theorem at_arg9_33 : W33 m ρ c (Proc.devRef .tc main_arg9) = (K.argsOf m c).a9 := (W33_of m ρ c main_arg9 (by decide)).trans (at_arg9_32 m ρ c)
theorem at_arg9_34 : W34 m ρ c (Proc.devRef .tc main_arg9) = (K.argsOf m c).a9 := (W34_of m ρ c main_arg9 (by decide)).trans (at_arg9_33 m ρ c)
theorem at_arg9_35 : W35 m ρ c (Proc.devRef .tc main_arg9) = (K.argsOf m c).a9 := (W35_of m ρ c main_arg9 (by decide)).trans (at_arg9_34 m ρ c)
theorem at_arg9_36 : W36 m ρ c (Proc.devRef .tc main_arg9) = (K.argsOf m c).a9 := (W36_of m ρ c main_arg9 (by decide)).trans (at_arg9_35 m ρ c)
theorem at_v188_37 : W37 m ρ c (Proc.devRef .tc main_v188) = K.P01_nW1 (K.argsOf m c) :=
  pr_v188 (W36 m ρ c) (K.argsOf m c) (at_arg9_36 m ρ c)
theorem at_v188_38 : W38 m ρ c (Proc.devRef .tc main_v188) = K.P01_nW1 (K.argsOf m c) := (W38_of m ρ c main_v188 (by decide)).trans (at_v188_37 m ρ c)
theorem at_v188_39 : W39 m ρ c (Proc.devRef .tc main_v188) = K.P01_nW1 (K.argsOf m c) := (W39_of m ρ c main_v188 (by decide)).trans (at_v188_38 m ρ c)
theorem at_v188_40 : W40 m ρ c (Proc.devRef .tc main_v188) = K.P01_nW1 (K.argsOf m c) := (W40_of m ρ c main_v188 (by decide)).trans (at_v188_39 m ρ c)
theorem at_v188_41 : W41 m ρ c (Proc.devRef .tc main_v188) = K.P01_nW1 (K.argsOf m c) := (W41_of m ρ c main_v188 (by decide)).trans (at_v188_40 m ρ c)
theorem at_v188_42 : W42 m ρ c (Proc.devRef .tc main_v188) = K.P01_nW1 (K.argsOf m c) := (W42_of m ρ c main_v188 (by decide)).trans (at_v188_41 m ρ c)
theorem at_v188_43 : W43 m ρ c (Proc.devRef .tc main_v188) = K.P01_nW1 (K.argsOf m c) := (W43_of m ρ c main_v188 (by decide)).trans (at_v188_42 m ρ c)
theorem at_v248_44 : W44 m ρ c (Proc.devRef .tc main_v248) = C_v248 (F := Ideal) (K.P01_nW1 (K.argsOf m c)) :=
  rd_v248 (W43 m ρ c) (K.argsOf m c) (at_v188_43 m ρ c)
theorem at_v248_45 : W45 m ρ c (Proc.devRef .tc main_v248) = C_v248 (F := Ideal) (K.P01_nW1 (K.argsOf m c)) := (W45_of m ρ c main_v248 (by decide)).trans (at_v248_44 m ρ c)
theorem at_v248_46 : W46 m ρ c (Proc.devRef .tc main_v248) = C_v248 (F := Ideal) (K.P01_nW1 (K.argsOf m c)) := (W46_of m ρ c main_v248 (by decide)).trans (at_v248_45 m ρ c)
theorem at_v248_47 : W47 m ρ c (Proc.devRef .tc main_v248) = C_v248 (F := Ideal) (K.P01_nW1 (K.argsOf m c)) := (W47_of m ρ c main_v248 (by decide)).trans (at_v248_46 m ρ c)
theorem at_v249_44 : W44 m ρ c (Proc.devRef .tc main_v249) = C_v249 (F := Ideal) (K.P01_nW1 (K.argsOf m c)) :=
  rd_v249 (W43 m ρ c) (K.argsOf m c) (at_v188_43 m ρ c)
theorem at_v249_45 : W45 m ρ c (Proc.devRef .tc main_v249) = C_v249 (F := Ideal) (K.P01_nW1 (K.argsOf m c)) := (W45_of m ρ c main_v249 (by decide)).trans (at_v249_44 m ρ c)
theorem at_v249_46 : W46 m ρ c (Proc.devRef .tc main_v249) = C_v249 (F := Ideal) (K.P01_nW1 (K.argsOf m c)) := (W46_of m ρ c main_v249 (by decide)).trans (at_v249_45 m ρ c)
theorem at_v249_47 : W47 m ρ c (Proc.devRef .tc main_v249) = C_v249 (F := Ideal) (K.P01_nW1 (K.argsOf m c)) := (W47_of m ρ c main_v249 (by decide)).trans (at_v249_46 m ρ c)
theorem at_arg10_5 : W5 m ρ c (Proc.devRef .tc main_arg10) = (K.argsOf m c).a10 := (W5_of m ρ c main_arg10 (by decide)).trans (at_arg10_4 m ρ c)
theorem at_arg10_6 : W6 m ρ c (Proc.devRef .tc main_arg10) = (K.argsOf m c).a10 := (W6_of m ρ c main_arg10 (by decide)).trans (at_arg10_5 m ρ c)
theorem at_arg10_7 : W7 m ρ c (Proc.devRef .tc main_arg10) = (K.argsOf m c).a10 := (W7_of m ρ c main_arg10 (by decide)).trans (at_arg10_6 m ρ c)
theorem at_arg10_8 : W8 m ρ c (Proc.devRef .tc main_arg10) = (K.argsOf m c).a10 := (W8_of m ρ c main_arg10 (by decide)).trans (at_arg10_7 m ρ c)
theorem at_arg10_9 : W9 m ρ c (Proc.devRef .tc main_arg10) = (K.argsOf m c).a10 := (W9_of m ρ c main_arg10 (by decide)).trans (at_arg10_8 m ρ c)
theorem at_arg10_10 : W10 m ρ c (Proc.devRef .tc main_arg10) = (K.argsOf m c).a10 := (W10_of m ρ c main_arg10 (by decide)).trans (at_arg10_9 m ρ c)
theorem at_arg10_11 : W11 m ρ c (Proc.devRef .tc main_arg10) = (K.argsOf m c).a10 := (W11_of m ρ c main_arg10 (by decide)).trans (at_arg10_10 m ρ c)
theorem at_arg10_12 : W12 m ρ c (Proc.devRef .tc main_arg10) = (K.argsOf m c).a10 := (W12_of m ρ c main_arg10 (by decide)).trans (at_arg10_11 m ρ c)
theorem at_arg10_13 : W13 m ρ c (Proc.devRef .tc main_arg10) = (K.argsOf m c).a10 := (W13_of m ρ c main_arg10 (by decide)).trans (at_arg10_12 m ρ c)
theorem at_arg10_14 : W14 m ρ c (Proc.devRef .tc main_arg10) = (K.argsOf m c).a10 := (W14_of m ρ c main_arg10 (by decide)).trans (at_arg10_13 m ρ c)
theorem at_arg10_15 : W15 m ρ c (Proc.devRef .tc main_arg10) = (K.argsOf m c).a10 := (W15_of m ρ c main_arg10 (by decide)).trans (at_arg10_14 m ρ c)
theorem at_arg10_16 : W16 m ρ c (Proc.devRef .tc main_arg10) = (K.argsOf m c).a10 := (W16_of m ρ c main_arg10 (by decide)).trans (at_arg10_15 m ρ c)
theorem at_arg10_17 : W17 m ρ c (Proc.devRef .tc main_arg10) = (K.argsOf m c).a10 := (W17_of m ρ c main_arg10 (by decide)).trans (at_arg10_16 m ρ c)
theorem at_arg10_18 : W18 m ρ c (Proc.devRef .tc main_arg10) = (K.argsOf m c).a10 := (W18_of m ρ c main_arg10 (by decide)).trans (at_arg10_17 m ρ c)
theorem at_arg10_19 : W19 m ρ c (Proc.devRef .tc main_arg10) = (K.argsOf m c).a10 := (W19_of m ρ c main_arg10 (by decide)).trans (at_arg10_18 m ρ c)
theorem at_arg10_20 : W20 m ρ c (Proc.devRef .tc main_arg10) = (K.argsOf m c).a10 := (W20_of m ρ c main_arg10 (by decide)).trans (at_arg10_19 m ρ c)
theorem at_arg10_21 : W21 m ρ c (Proc.devRef .tc main_arg10) = (K.argsOf m c).a10 := (W21_of m ρ c main_arg10 (by decide)).trans (at_arg10_20 m ρ c)
theorem at_arg10_22 : W22 m ρ c (Proc.devRef .tc main_arg10) = (K.argsOf m c).a10 := (W22_of m ρ c main_arg10 (by decide)).trans (at_arg10_21 m ρ c)
theorem at_arg10_23 : W23 m ρ c (Proc.devRef .tc main_arg10) = (K.argsOf m c).a10 := (W23_of m ρ c main_arg10 (by decide)).trans (at_arg10_22 m ρ c)
theorem at_arg10_24 : W24 m ρ c (Proc.devRef .tc main_arg10) = (K.argsOf m c).a10 := (W24_of m ρ c main_arg10 (by decide)).trans (at_arg10_23 m ρ c)
theorem at_arg10_25 : W25 m ρ c (Proc.devRef .tc main_arg10) = (K.argsOf m c).a10 := (W25_of m ρ c main_arg10 (by decide)).trans (at_arg10_24 m ρ c)
theorem at_arg10_26 : W26 m ρ c (Proc.devRef .tc main_arg10) = (K.argsOf m c).a10 := (W26_of m ρ c main_arg10 (by decide)).trans (at_arg10_25 m ρ c)
theorem at_arg10_27 : W27 m ρ c (Proc.devRef .tc main_arg10) = (K.argsOf m c).a10 := (W27_of m ρ c main_arg10 (by decide)).trans (at_arg10_26 m ρ c)
theorem at_arg10_28 : W28 m ρ c (Proc.devRef .tc main_arg10) = (K.argsOf m c).a10 := (W28_of m ρ c main_arg10 (by decide)).trans (at_arg10_27 m ρ c)
theorem at_arg10_29 : W29 m ρ c (Proc.devRef .tc main_arg10) = (K.argsOf m c).a10 := (W29_of m ρ c main_arg10 (by decide)).trans (at_arg10_28 m ρ c)
theorem at_arg10_30 : W30 m ρ c (Proc.devRef .tc main_arg10) = (K.argsOf m c).a10 := (W30_of m ρ c main_arg10 (by decide)).trans (at_arg10_29 m ρ c)
theorem at_arg10_31 : W31 m ρ c (Proc.devRef .tc main_arg10) = (K.argsOf m c).a10 := (W31_of m ρ c main_arg10 (by decide)).trans (at_arg10_30 m ρ c)
theorem at_arg10_32 : W32 m ρ c (Proc.devRef .tc main_arg10) = (K.argsOf m c).a10 := (W32_of m ρ c main_arg10 (by decide)).trans (at_arg10_31 m ρ c)
theorem at_arg10_33 : W33 m ρ c (Proc.devRef .tc main_arg10) = (K.argsOf m c).a10 := (W33_of m ρ c main_arg10 (by decide)).trans (at_arg10_32 m ρ c)
theorem at_arg10_34 : W34 m ρ c (Proc.devRef .tc main_arg10) = (K.argsOf m c).a10 := (W34_of m ρ c main_arg10 (by decide)).trans (at_arg10_33 m ρ c)
theorem at_arg10_35 : W35 m ρ c (Proc.devRef .tc main_arg10) = (K.argsOf m c).a10 := (W35_of m ρ c main_arg10 (by decide)).trans (at_arg10_34 m ρ c)
theorem at_arg10_36 : W36 m ρ c (Proc.devRef .tc main_arg10) = (K.argsOf m c).a10 := (W36_of m ρ c main_arg10 (by decide)).trans (at_arg10_35 m ρ c)
theorem at_v190_37 : W37 m ρ c (Proc.devRef .tc main_v190) = K.P01_nb1 (K.argsOf m c) :=
  pr_v190 (W36 m ρ c) (K.argsOf m c) (at_arg10_36 m ρ c)
theorem at_v190_38 : W38 m ρ c (Proc.devRef .tc main_v190) = K.P01_nb1 (K.argsOf m c) := (W38_of m ρ c main_v190 (by decide)).trans (at_v190_37 m ρ c)
theorem at_v190_39 : W39 m ρ c (Proc.devRef .tc main_v190) = K.P01_nb1 (K.argsOf m c) := (W39_of m ρ c main_v190 (by decide)).trans (at_v190_38 m ρ c)
theorem at_v190_40 : W40 m ρ c (Proc.devRef .tc main_v190) = K.P01_nb1 (K.argsOf m c) := (W40_of m ρ c main_v190 (by decide)).trans (at_v190_39 m ρ c)
theorem at_v190_41 : W41 m ρ c (Proc.devRef .tc main_v190) = K.P01_nb1 (K.argsOf m c) := (W41_of m ρ c main_v190 (by decide)).trans (at_v190_40 m ρ c)
theorem at_v190_42 : W42 m ρ c (Proc.devRef .tc main_v190) = K.P01_nb1 (K.argsOf m c) := (W42_of m ρ c main_v190 (by decide)).trans (at_v190_41 m ρ c)
theorem at_v190_43 : W43 m ρ c (Proc.devRef .tc main_v190) = K.P01_nb1 (K.argsOf m c) := (W43_of m ρ c main_v190 (by decide)).trans (at_v190_42 m ρ c)
theorem at_v178_38 : W38 m ρ c (Proc.devRef .tc main_v178) = K.g2 (K.argsOf m c) := (W38_of m ρ c main_v178 (by decide)).trans (at_v178_37 m ρ c)
theorem at_v178_39 : W39 m ρ c (Proc.devRef .tc main_v178) = K.g2 (K.argsOf m c) := (W39_of m ρ c main_v178 (by decide)).trans (at_v178_38 m ρ c)
theorem at_v178_40 : W40 m ρ c (Proc.devRef .tc main_v178) = K.g2 (K.argsOf m c) := (W40_of m ρ c main_v178 (by decide)).trans (at_v178_39 m ρ c)
theorem at_v178_41 : W41 m ρ c (Proc.devRef .tc main_v178) = K.g2 (K.argsOf m c) := (W41_of m ρ c main_v178 (by decide)).trans (at_v178_40 m ρ c)
theorem at_v178_42 : W42 m ρ c (Proc.devRef .tc main_v178) = K.g2 (K.argsOf m c) := (W42_of m ρ c main_v178 (by decide)).trans (at_v178_41 m ρ c)
theorem at_v178_43 : W43 m ρ c (Proc.devRef .tc main_v178) = K.g2 (K.argsOf m c) := (W43_of m ρ c main_v178 (by decide)).trans (at_v178_42 m ρ c)
theorem at_v252_44 : W44 m ρ c (Proc.devRef .tc main_v252) = C_v252 (F := Ideal) (K.P01_nb1 (K.argsOf m c)) (K.g2 (K.argsOf m c)) (K.P01_nW1 (K.argsOf m c)) :=
  rd_v252 (W43 m ρ c) (K.argsOf m c) (at_v190_43 m ρ c) (at_v178_43 m ρ c) (at_v188_43 m ρ c)
theorem at_v252_45 : W45 m ρ c (Proc.devRef .tc main_v252) = C_v252 (F := Ideal) (K.P01_nb1 (K.argsOf m c)) (K.g2 (K.argsOf m c)) (K.P01_nW1 (K.argsOf m c)) := (W45_of m ρ c main_v252 (by decide)).trans (at_v252_44 m ρ c)
theorem at_v252_46 : W46 m ρ c (Proc.devRef .tc main_v252) = C_v252 (F := Ideal) (K.P01_nb1 (K.argsOf m c)) (K.g2 (K.argsOf m c)) (K.P01_nW1 (K.argsOf m c)) := (W46_of m ρ c main_v252 (by decide)).trans (at_v252_45 m ρ c)
theorem at_v252_47 : W47 m ρ c (Proc.devRef .tc main_v252) = C_v252 (F := Ideal) (K.P01_nb1 (K.argsOf m c)) (K.g2 (K.argsOf m c)) (K.P01_nW1 (K.argsOf m c)) := (W47_of m ρ c main_v252 (by decide)).trans (at_v252_46 m ρ c)
theorem at_arg11_5 : W5 m ρ c (Proc.devRef .tc main_arg11) = (K.argsOf m c).a11 := (W5_of m ρ c main_arg11 (by decide)).trans (at_arg11_4 m ρ c)
theorem at_arg11_6 : W6 m ρ c (Proc.devRef .tc main_arg11) = (K.argsOf m c).a11 := (W6_of m ρ c main_arg11 (by decide)).trans (at_arg11_5 m ρ c)
theorem at_arg11_7 : W7 m ρ c (Proc.devRef .tc main_arg11) = (K.argsOf m c).a11 := (W7_of m ρ c main_arg11 (by decide)).trans (at_arg11_6 m ρ c)
theorem at_arg11_8 : W8 m ρ c (Proc.devRef .tc main_arg11) = (K.argsOf m c).a11 := (W8_of m ρ c main_arg11 (by decide)).trans (at_arg11_7 m ρ c)
theorem at_arg11_9 : W9 m ρ c (Proc.devRef .tc main_arg11) = (K.argsOf m c).a11 := (W9_of m ρ c main_arg11 (by decide)).trans (at_arg11_8 m ρ c)
theorem at_arg11_10 : W10 m ρ c (Proc.devRef .tc main_arg11) = (K.argsOf m c).a11 := (W10_of m ρ c main_arg11 (by decide)).trans (at_arg11_9 m ρ c)
theorem at_arg11_11 : W11 m ρ c (Proc.devRef .tc main_arg11) = (K.argsOf m c).a11 := (W11_of m ρ c main_arg11 (by decide)).trans (at_arg11_10 m ρ c)
theorem at_arg11_12 : W12 m ρ c (Proc.devRef .tc main_arg11) = (K.argsOf m c).a11 := (W12_of m ρ c main_arg11 (by decide)).trans (at_arg11_11 m ρ c)
theorem at_arg11_13 : W13 m ρ c (Proc.devRef .tc main_arg11) = (K.argsOf m c).a11 := (W13_of m ρ c main_arg11 (by decide)).trans (at_arg11_12 m ρ c)
theorem at_arg11_14 : W14 m ρ c (Proc.devRef .tc main_arg11) = (K.argsOf m c).a11 := (W14_of m ρ c main_arg11 (by decide)).trans (at_arg11_13 m ρ c)
theorem at_arg11_15 : W15 m ρ c (Proc.devRef .tc main_arg11) = (K.argsOf m c).a11 := (W15_of m ρ c main_arg11 (by decide)).trans (at_arg11_14 m ρ c)
theorem at_arg11_16 : W16 m ρ c (Proc.devRef .tc main_arg11) = (K.argsOf m c).a11 := (W16_of m ρ c main_arg11 (by decide)).trans (at_arg11_15 m ρ c)
theorem at_arg11_17 : W17 m ρ c (Proc.devRef .tc main_arg11) = (K.argsOf m c).a11 := (W17_of m ρ c main_arg11 (by decide)).trans (at_arg11_16 m ρ c)
theorem at_arg11_18 : W18 m ρ c (Proc.devRef .tc main_arg11) = (K.argsOf m c).a11 := (W18_of m ρ c main_arg11 (by decide)).trans (at_arg11_17 m ρ c)
theorem at_arg11_19 : W19 m ρ c (Proc.devRef .tc main_arg11) = (K.argsOf m c).a11 := (W19_of m ρ c main_arg11 (by decide)).trans (at_arg11_18 m ρ c)
theorem at_arg11_20 : W20 m ρ c (Proc.devRef .tc main_arg11) = (K.argsOf m c).a11 := (W20_of m ρ c main_arg11 (by decide)).trans (at_arg11_19 m ρ c)
theorem at_arg11_21 : W21 m ρ c (Proc.devRef .tc main_arg11) = (K.argsOf m c).a11 := (W21_of m ρ c main_arg11 (by decide)).trans (at_arg11_20 m ρ c)
theorem at_arg11_22 : W22 m ρ c (Proc.devRef .tc main_arg11) = (K.argsOf m c).a11 := (W22_of m ρ c main_arg11 (by decide)).trans (at_arg11_21 m ρ c)
theorem at_arg11_23 : W23 m ρ c (Proc.devRef .tc main_arg11) = (K.argsOf m c).a11 := (W23_of m ρ c main_arg11 (by decide)).trans (at_arg11_22 m ρ c)
theorem at_arg11_24 : W24 m ρ c (Proc.devRef .tc main_arg11) = (K.argsOf m c).a11 := (W24_of m ρ c main_arg11 (by decide)).trans (at_arg11_23 m ρ c)
theorem at_arg11_25 : W25 m ρ c (Proc.devRef .tc main_arg11) = (K.argsOf m c).a11 := (W25_of m ρ c main_arg11 (by decide)).trans (at_arg11_24 m ρ c)
theorem at_arg11_26 : W26 m ρ c (Proc.devRef .tc main_arg11) = (K.argsOf m c).a11 := (W26_of m ρ c main_arg11 (by decide)).trans (at_arg11_25 m ρ c)
theorem at_arg11_27 : W27 m ρ c (Proc.devRef .tc main_arg11) = (K.argsOf m c).a11 := (W27_of m ρ c main_arg11 (by decide)).trans (at_arg11_26 m ρ c)
theorem at_arg11_28 : W28 m ρ c (Proc.devRef .tc main_arg11) = (K.argsOf m c).a11 := (W28_of m ρ c main_arg11 (by decide)).trans (at_arg11_27 m ρ c)
theorem at_arg11_29 : W29 m ρ c (Proc.devRef .tc main_arg11) = (K.argsOf m c).a11 := (W29_of m ρ c main_arg11 (by decide)).trans (at_arg11_28 m ρ c)
theorem at_arg11_30 : W30 m ρ c (Proc.devRef .tc main_arg11) = (K.argsOf m c).a11 := (W30_of m ρ c main_arg11 (by decide)).trans (at_arg11_29 m ρ c)
theorem at_arg11_31 : W31 m ρ c (Proc.devRef .tc main_arg11) = (K.argsOf m c).a11 := (W31_of m ρ c main_arg11 (by decide)).trans (at_arg11_30 m ρ c)
theorem at_arg11_32 : W32 m ρ c (Proc.devRef .tc main_arg11) = (K.argsOf m c).a11 := (W32_of m ρ c main_arg11 (by decide)).trans (at_arg11_31 m ρ c)
theorem at_arg11_33 : W33 m ρ c (Proc.devRef .tc main_arg11) = (K.argsOf m c).a11 := (W33_of m ρ c main_arg11 (by decide)).trans (at_arg11_32 m ρ c)
theorem at_arg11_34 : W34 m ρ c (Proc.devRef .tc main_arg11) = (K.argsOf m c).a11 := (W34_of m ρ c main_arg11 (by decide)).trans (at_arg11_33 m ρ c)
theorem at_arg11_35 : W35 m ρ c (Proc.devRef .tc main_arg11) = (K.argsOf m c).a11 := (W35_of m ρ c main_arg11 (by decide)).trans (at_arg11_34 m ρ c)
theorem at_arg11_36 : W36 m ρ c (Proc.devRef .tc main_arg11) = (K.argsOf m c).a11 := (W36_of m ρ c main_arg11 (by decide)).trans (at_arg11_35 m ρ c)
theorem at_v192_37 : W37 m ρ c (Proc.devRef .tc main_v192) = K.P01_nW2 (K.argsOf m c) :=
  pr_v192 (W36 m ρ c) (K.argsOf m c) (at_arg11_36 m ρ c)
theorem at_v192_38 : W38 m ρ c (Proc.devRef .tc main_v192) = K.P01_nW2 (K.argsOf m c) := (W38_of m ρ c main_v192 (by decide)).trans (at_v192_37 m ρ c)
theorem at_v192_39 : W39 m ρ c (Proc.devRef .tc main_v192) = K.P01_nW2 (K.argsOf m c) := (W39_of m ρ c main_v192 (by decide)).trans (at_v192_38 m ρ c)
theorem at_v192_40 : W40 m ρ c (Proc.devRef .tc main_v192) = K.P01_nW2 (K.argsOf m c) := (W40_of m ρ c main_v192 (by decide)).trans (at_v192_39 m ρ c)
theorem at_v192_41 : W41 m ρ c (Proc.devRef .tc main_v192) = K.P01_nW2 (K.argsOf m c) := (W41_of m ρ c main_v192 (by decide)).trans (at_v192_40 m ρ c)
theorem at_v192_42 : W42 m ρ c (Proc.devRef .tc main_v192) = K.P01_nW2 (K.argsOf m c) := (W42_of m ρ c main_v192 (by decide)).trans (at_v192_41 m ρ c)
theorem at_v192_43 : W43 m ρ c (Proc.devRef .tc main_v192) = K.P01_nW2 (K.argsOf m c) := (W43_of m ρ c main_v192 (by decide)).trans (at_v192_42 m ρ c)
theorem at_v192_44 : W44 m ρ c (Proc.devRef .tc main_v192) = K.P01_nW2 (K.argsOf m c) := (W44_of m ρ c main_v192 (by decide)).trans (at_v192_43 m ρ c)
theorem at_v192_45 : W45 m ρ c (Proc.devRef .tc main_v192) = K.P01_nW2 (K.argsOf m c) := (W45_of m ρ c main_v192 (by decide)).trans (at_v192_44 m ρ c)
theorem at_v192_46 : W46 m ρ c (Proc.devRef .tc main_v192) = K.P01_nW2 (K.argsOf m c) := (W46_of m ρ c main_v192 (by decide)).trans (at_v192_45 m ρ c)
theorem at_v192_47 : W47 m ρ c (Proc.devRef .tc main_v192) = K.P01_nW2 (K.argsOf m c) := (W47_of m ρ c main_v192 (by decide)).trans (at_v192_46 m ρ c)
theorem at_arg12_5 : W5 m ρ c (Proc.devRef .tc main_arg12) = (K.argsOf m c).a12 := (W5_of m ρ c main_arg12 (by decide)).trans (at_arg12_4 m ρ c)
theorem at_arg12_6 : W6 m ρ c (Proc.devRef .tc main_arg12) = (K.argsOf m c).a12 := (W6_of m ρ c main_arg12 (by decide)).trans (at_arg12_5 m ρ c)
theorem at_arg12_7 : W7 m ρ c (Proc.devRef .tc main_arg12) = (K.argsOf m c).a12 := (W7_of m ρ c main_arg12 (by decide)).trans (at_arg12_6 m ρ c)
theorem at_arg12_8 : W8 m ρ c (Proc.devRef .tc main_arg12) = (K.argsOf m c).a12 := (W8_of m ρ c main_arg12 (by decide)).trans (at_arg12_7 m ρ c)
theorem at_arg12_9 : W9 m ρ c (Proc.devRef .tc main_arg12) = (K.argsOf m c).a12 := (W9_of m ρ c main_arg12 (by decide)).trans (at_arg12_8 m ρ c)
theorem at_arg12_10 : W10 m ρ c (Proc.devRef .tc main_arg12) = (K.argsOf m c).a12 := (W10_of m ρ c main_arg12 (by decide)).trans (at_arg12_9 m ρ c)
theorem at_arg12_11 : W11 m ρ c (Proc.devRef .tc main_arg12) = (K.argsOf m c).a12 := (W11_of m ρ c main_arg12 (by decide)).trans (at_arg12_10 m ρ c)
theorem at_arg12_12 : W12 m ρ c (Proc.devRef .tc main_arg12) = (K.argsOf m c).a12 := (W12_of m ρ c main_arg12 (by decide)).trans (at_arg12_11 m ρ c)
theorem at_arg12_13 : W13 m ρ c (Proc.devRef .tc main_arg12) = (K.argsOf m c).a12 := (W13_of m ρ c main_arg12 (by decide)).trans (at_arg12_12 m ρ c)
theorem at_arg12_14 : W14 m ρ c (Proc.devRef .tc main_arg12) = (K.argsOf m c).a12 := (W14_of m ρ c main_arg12 (by decide)).trans (at_arg12_13 m ρ c)
theorem at_arg12_15 : W15 m ρ c (Proc.devRef .tc main_arg12) = (K.argsOf m c).a12 := (W15_of m ρ c main_arg12 (by decide)).trans (at_arg12_14 m ρ c)
theorem at_arg12_16 : W16 m ρ c (Proc.devRef .tc main_arg12) = (K.argsOf m c).a12 := (W16_of m ρ c main_arg12 (by decide)).trans (at_arg12_15 m ρ c)
theorem at_arg12_17 : W17 m ρ c (Proc.devRef .tc main_arg12) = (K.argsOf m c).a12 := (W17_of m ρ c main_arg12 (by decide)).trans (at_arg12_16 m ρ c)
theorem at_arg12_18 : W18 m ρ c (Proc.devRef .tc main_arg12) = (K.argsOf m c).a12 := (W18_of m ρ c main_arg12 (by decide)).trans (at_arg12_17 m ρ c)
theorem at_arg12_19 : W19 m ρ c (Proc.devRef .tc main_arg12) = (K.argsOf m c).a12 := (W19_of m ρ c main_arg12 (by decide)).trans (at_arg12_18 m ρ c)
theorem at_arg12_20 : W20 m ρ c (Proc.devRef .tc main_arg12) = (K.argsOf m c).a12 := (W20_of m ρ c main_arg12 (by decide)).trans (at_arg12_19 m ρ c)
theorem at_arg12_21 : W21 m ρ c (Proc.devRef .tc main_arg12) = (K.argsOf m c).a12 := (W21_of m ρ c main_arg12 (by decide)).trans (at_arg12_20 m ρ c)
theorem at_arg12_22 : W22 m ρ c (Proc.devRef .tc main_arg12) = (K.argsOf m c).a12 := (W22_of m ρ c main_arg12 (by decide)).trans (at_arg12_21 m ρ c)
theorem at_arg12_23 : W23 m ρ c (Proc.devRef .tc main_arg12) = (K.argsOf m c).a12 := (W23_of m ρ c main_arg12 (by decide)).trans (at_arg12_22 m ρ c)
theorem at_arg12_24 : W24 m ρ c (Proc.devRef .tc main_arg12) = (K.argsOf m c).a12 := (W24_of m ρ c main_arg12 (by decide)).trans (at_arg12_23 m ρ c)
theorem at_arg12_25 : W25 m ρ c (Proc.devRef .tc main_arg12) = (K.argsOf m c).a12 := (W25_of m ρ c main_arg12 (by decide)).trans (at_arg12_24 m ρ c)
theorem at_arg12_26 : W26 m ρ c (Proc.devRef .tc main_arg12) = (K.argsOf m c).a12 := (W26_of m ρ c main_arg12 (by decide)).trans (at_arg12_25 m ρ c)
theorem at_arg12_27 : W27 m ρ c (Proc.devRef .tc main_arg12) = (K.argsOf m c).a12 := (W27_of m ρ c main_arg12 (by decide)).trans (at_arg12_26 m ρ c)
theorem at_arg12_28 : W28 m ρ c (Proc.devRef .tc main_arg12) = (K.argsOf m c).a12 := (W28_of m ρ c main_arg12 (by decide)).trans (at_arg12_27 m ρ c)
theorem at_arg12_29 : W29 m ρ c (Proc.devRef .tc main_arg12) = (K.argsOf m c).a12 := (W29_of m ρ c main_arg12 (by decide)).trans (at_arg12_28 m ρ c)
theorem at_arg12_30 : W30 m ρ c (Proc.devRef .tc main_arg12) = (K.argsOf m c).a12 := (W30_of m ρ c main_arg12 (by decide)).trans (at_arg12_29 m ρ c)
theorem at_arg12_31 : W31 m ρ c (Proc.devRef .tc main_arg12) = (K.argsOf m c).a12 := (W31_of m ρ c main_arg12 (by decide)).trans (at_arg12_30 m ρ c)
theorem at_arg12_32 : W32 m ρ c (Proc.devRef .tc main_arg12) = (K.argsOf m c).a12 := (W32_of m ρ c main_arg12 (by decide)).trans (at_arg12_31 m ρ c)
theorem at_arg12_33 : W33 m ρ c (Proc.devRef .tc main_arg12) = (K.argsOf m c).a12 := (W33_of m ρ c main_arg12 (by decide)).trans (at_arg12_32 m ρ c)
theorem at_arg12_34 : W34 m ρ c (Proc.devRef .tc main_arg12) = (K.argsOf m c).a12 := (W34_of m ρ c main_arg12 (by decide)).trans (at_arg12_33 m ρ c)
theorem at_arg12_35 : W35 m ρ c (Proc.devRef .tc main_arg12) = (K.argsOf m c).a12 := (W35_of m ρ c main_arg12 (by decide)).trans (at_arg12_34 m ρ c)
theorem at_arg12_36 : W36 m ρ c (Proc.devRef .tc main_arg12) = (K.argsOf m c).a12 := (W36_of m ρ c main_arg12 (by decide)).trans (at_arg12_35 m ρ c)
theorem at_v194_37 : W37 m ρ c (Proc.devRef .tc main_v194) = K.P01_nb2 (K.argsOf m c) :=
  pr_v194 (W36 m ρ c) (K.argsOf m c) (at_arg12_36 m ρ c)
theorem at_v194_38 : W38 m ρ c (Proc.devRef .tc main_v194) = K.P01_nb2 (K.argsOf m c) := (W38_of m ρ c main_v194 (by decide)).trans (at_v194_37 m ρ c)
theorem at_v194_39 : W39 m ρ c (Proc.devRef .tc main_v194) = K.P01_nb2 (K.argsOf m c) := (W39_of m ρ c main_v194 (by decide)).trans (at_v194_38 m ρ c)
theorem at_v194_40 : W40 m ρ c (Proc.devRef .tc main_v194) = K.P01_nb2 (K.argsOf m c) := (W40_of m ρ c main_v194 (by decide)).trans (at_v194_39 m ρ c)
theorem at_v194_41 : W41 m ρ c (Proc.devRef .tc main_v194) = K.P01_nb2 (K.argsOf m c) := (W41_of m ρ c main_v194 (by decide)).trans (at_v194_40 m ρ c)
theorem at_v194_42 : W42 m ρ c (Proc.devRef .tc main_v194) = K.P01_nb2 (K.argsOf m c) := (W42_of m ρ c main_v194 (by decide)).trans (at_v194_41 m ρ c)
theorem at_v194_43 : W43 m ρ c (Proc.devRef .tc main_v194) = K.P01_nb2 (K.argsOf m c) := (W43_of m ρ c main_v194 (by decide)).trans (at_v194_42 m ρ c)
theorem at_v253_44 : W44 m ρ c (Proc.devRef .tc main_v253) = C_v253 (F := Ideal) (K.P01_nb2 (K.argsOf m c)) :=
  rd_v253 (W43 m ρ c) (K.argsOf m c) (at_v194_43 m ρ c)
theorem at_v253_45 : W45 m ρ c (Proc.devRef .tc main_v253) = C_v253 (F := Ideal) (K.P01_nb2 (K.argsOf m c)) := (W45_of m ρ c main_v253 (by decide)).trans (at_v253_44 m ρ c)
theorem at_v253_46 : W46 m ρ c (Proc.devRef .tc main_v253) = C_v253 (F := Ideal) (K.P01_nb2 (K.argsOf m c)) := (W46_of m ρ c main_v253 (by decide)).trans (at_v253_45 m ρ c)
theorem at_v253_47 : W47 m ρ c (Proc.devRef .tc main_v253) = C_v253 (F := Ideal) (K.P01_nb2 (K.argsOf m c)) := (W47_of m ρ c main_v253 (by decide)).trans (at_v253_46 m ρ c)
theorem at_v256_48 : W48 m ρ c (Proc.devRef .tc main_v256) = K.nodeFn (C_v254 (F := Ideal) (C_v24 (F := Ideal) ((K.argsOf m c).a0)) (C_c_33)) (C_v255 (F := Ideal) (K.la2 (K.argsOf m c)) (C_c_34)) (C_v248 (F := Ideal) (K.P01_nW1 (K.argsOf m c))) (C_v249 (F := Ideal) (K.P01_nW1 (K.argsOf m c))) (C_v252 (F := Ideal) (K.P01_nb1 (K.argsOf m c)) (K.g2 (K.argsOf m c)) (K.P01_nW1 (K.argsOf m c))) (K.P01_nW2 (K.argsOf m c)) (C_v253 (F := Ideal) (K.P01_nb2 (K.argsOf m c))) :=
  (R5_read m ρ c).trans (by rw [at_v254_47 m ρ c, at_v255_47 m ρ c, at_v248_47 m ρ c, at_v249_47 m ρ c, at_v252_47 m ρ c, at_v192_47 m ρ c, at_v253_47 m ρ c])
theorem at_v257_49 : W49 m ρ c (Proc.devRef .tc main_v257) = K.ln2 (K.argsOf m c) :=
  st_ln2 (W48 m ρ c) (K.argsOf m c) (at_v256_48 m ρ c)
theorem at_v241_45 : W45 m ρ c (Proc.devRef .tc main_v241) = K.le2 (K.argsOf m c) := (W45_of m ρ c main_v241 (by decide)).trans (at_v241_44 m ρ c)
theorem at_v241_46 : W46 m ρ c (Proc.devRef .tc main_v241) = K.le2 (K.argsOf m c) := (W46_of m ρ c main_v241 (by decide)).trans (at_v241_45 m ρ c)
theorem at_v241_47 : W47 m ρ c (Proc.devRef .tc main_v241) = K.le2 (K.argsOf m c) := (W47_of m ρ c main_v241 (by decide)).trans (at_v241_46 m ρ c)
theorem at_v241_48 : W48 m ρ c (Proc.devRef .tc main_v241) = K.le2 (K.argsOf m c) := (W48_of m ρ c main_v241 (by decide)).trans (at_v241_47 m ρ c)
theorem at_v178_44 : W44 m ρ c (Proc.devRef .tc main_v178) = K.g2 (K.argsOf m c) := (W44_of m ρ c main_v178 (by decide)).trans (at_v178_43 m ρ c)
theorem at_v178_45 : W45 m ρ c (Proc.devRef .tc main_v178) = K.g2 (K.argsOf m c) := (W45_of m ρ c main_v178 (by decide)).trans (at_v178_44 m ρ c)
theorem at_v178_46 : W46 m ρ c (Proc.devRef .tc main_v178) = K.g2 (K.argsOf m c) := (W46_of m ρ c main_v178 (by decide)).trans (at_v178_45 m ρ c)
theorem at_v178_47 : W47 m ρ c (Proc.devRef .tc main_v178) = K.g2 (K.argsOf m c) := (W47_of m ρ c main_v178 (by decide)).trans (at_v178_46 m ρ c)
theorem at_v178_48 : W48 m ρ c (Proc.devRef .tc main_v178) = K.g2 (K.argsOf m c) := (W48_of m ρ c main_v178 (by decide)).trans (at_v178_47 m ρ c)
theorem at_arg13_5 : W5 m ρ c (Proc.devRef .tc main_arg13) = (K.argsOf m c).a13 := (W5_of m ρ c main_arg13 (by decide)).trans (at_arg13_4 m ρ c)
theorem at_arg13_6 : W6 m ρ c (Proc.devRef .tc main_arg13) = (K.argsOf m c).a13 := (W6_of m ρ c main_arg13 (by decide)).trans (at_arg13_5 m ρ c)
theorem at_arg13_7 : W7 m ρ c (Proc.devRef .tc main_arg13) = (K.argsOf m c).a13 := (W7_of m ρ c main_arg13 (by decide)).trans (at_arg13_6 m ρ c)
theorem at_arg13_8 : W8 m ρ c (Proc.devRef .tc main_arg13) = (K.argsOf m c).a13 := (W8_of m ρ c main_arg13 (by decide)).trans (at_arg13_7 m ρ c)
theorem at_arg13_9 : W9 m ρ c (Proc.devRef .tc main_arg13) = (K.argsOf m c).a13 := (W9_of m ρ c main_arg13 (by decide)).trans (at_arg13_8 m ρ c)
theorem at_arg13_10 : W10 m ρ c (Proc.devRef .tc main_arg13) = (K.argsOf m c).a13 := (W10_of m ρ c main_arg13 (by decide)).trans (at_arg13_9 m ρ c)
theorem at_arg13_11 : W11 m ρ c (Proc.devRef .tc main_arg13) = (K.argsOf m c).a13 := (W11_of m ρ c main_arg13 (by decide)).trans (at_arg13_10 m ρ c)
theorem at_arg13_12 : W12 m ρ c (Proc.devRef .tc main_arg13) = (K.argsOf m c).a13 := (W12_of m ρ c main_arg13 (by decide)).trans (at_arg13_11 m ρ c)
theorem at_arg13_13 : W13 m ρ c (Proc.devRef .tc main_arg13) = (K.argsOf m c).a13 := (W13_of m ρ c main_arg13 (by decide)).trans (at_arg13_12 m ρ c)
theorem at_arg13_14 : W14 m ρ c (Proc.devRef .tc main_arg13) = (K.argsOf m c).a13 := (W14_of m ρ c main_arg13 (by decide)).trans (at_arg13_13 m ρ c)
theorem at_arg13_15 : W15 m ρ c (Proc.devRef .tc main_arg13) = (K.argsOf m c).a13 := (W15_of m ρ c main_arg13 (by decide)).trans (at_arg13_14 m ρ c)
theorem at_arg13_16 : W16 m ρ c (Proc.devRef .tc main_arg13) = (K.argsOf m c).a13 := (W16_of m ρ c main_arg13 (by decide)).trans (at_arg13_15 m ρ c)
theorem at_arg13_17 : W17 m ρ c (Proc.devRef .tc main_arg13) = (K.argsOf m c).a13 := (W17_of m ρ c main_arg13 (by decide)).trans (at_arg13_16 m ρ c)
theorem at_arg13_18 : W18 m ρ c (Proc.devRef .tc main_arg13) = (K.argsOf m c).a13 := (W18_of m ρ c main_arg13 (by decide)).trans (at_arg13_17 m ρ c)
theorem at_arg13_19 : W19 m ρ c (Proc.devRef .tc main_arg13) = (K.argsOf m c).a13 := (W19_of m ρ c main_arg13 (by decide)).trans (at_arg13_18 m ρ c)
theorem at_arg13_20 : W20 m ρ c (Proc.devRef .tc main_arg13) = (K.argsOf m c).a13 := (W20_of m ρ c main_arg13 (by decide)).trans (at_arg13_19 m ρ c)
theorem at_arg13_21 : W21 m ρ c (Proc.devRef .tc main_arg13) = (K.argsOf m c).a13 := (W21_of m ρ c main_arg13 (by decide)).trans (at_arg13_20 m ρ c)
theorem at_arg13_22 : W22 m ρ c (Proc.devRef .tc main_arg13) = (K.argsOf m c).a13 := (W22_of m ρ c main_arg13 (by decide)).trans (at_arg13_21 m ρ c)
theorem at_arg13_23 : W23 m ρ c (Proc.devRef .tc main_arg13) = (K.argsOf m c).a13 := (W23_of m ρ c main_arg13 (by decide)).trans (at_arg13_22 m ρ c)
theorem at_arg13_24 : W24 m ρ c (Proc.devRef .tc main_arg13) = (K.argsOf m c).a13 := (W24_of m ρ c main_arg13 (by decide)).trans (at_arg13_23 m ρ c)
theorem at_arg13_25 : W25 m ρ c (Proc.devRef .tc main_arg13) = (K.argsOf m c).a13 := (W25_of m ρ c main_arg13 (by decide)).trans (at_arg13_24 m ρ c)
theorem at_arg13_26 : W26 m ρ c (Proc.devRef .tc main_arg13) = (K.argsOf m c).a13 := (W26_of m ρ c main_arg13 (by decide)).trans (at_arg13_25 m ρ c)
theorem at_arg13_27 : W27 m ρ c (Proc.devRef .tc main_arg13) = (K.argsOf m c).a13 := (W27_of m ρ c main_arg13 (by decide)).trans (at_arg13_26 m ρ c)
theorem at_arg13_28 : W28 m ρ c (Proc.devRef .tc main_arg13) = (K.argsOf m c).a13 := (W28_of m ρ c main_arg13 (by decide)).trans (at_arg13_27 m ρ c)
theorem at_arg13_29 : W29 m ρ c (Proc.devRef .tc main_arg13) = (K.argsOf m c).a13 := (W29_of m ρ c main_arg13 (by decide)).trans (at_arg13_28 m ρ c)
theorem at_arg13_30 : W30 m ρ c (Proc.devRef .tc main_arg13) = (K.argsOf m c).a13 := (W30_of m ρ c main_arg13 (by decide)).trans (at_arg13_29 m ρ c)
theorem at_arg13_31 : W31 m ρ c (Proc.devRef .tc main_arg13) = (K.argsOf m c).a13 := (W31_of m ρ c main_arg13 (by decide)).trans (at_arg13_30 m ρ c)
theorem at_arg13_32 : W32 m ρ c (Proc.devRef .tc main_arg13) = (K.argsOf m c).a13 := (W32_of m ρ c main_arg13 (by decide)).trans (at_arg13_31 m ρ c)
theorem at_arg13_33 : W33 m ρ c (Proc.devRef .tc main_arg13) = (K.argsOf m c).a13 := (W33_of m ρ c main_arg13 (by decide)).trans (at_arg13_32 m ρ c)
theorem at_arg13_34 : W34 m ρ c (Proc.devRef .tc main_arg13) = (K.argsOf m c).a13 := (W34_of m ρ c main_arg13 (by decide)).trans (at_arg13_33 m ρ c)
theorem at_arg13_35 : W35 m ρ c (Proc.devRef .tc main_arg13) = (K.argsOf m c).a13 := (W35_of m ρ c main_arg13 (by decide)).trans (at_arg13_34 m ρ c)
theorem at_arg13_36 : W36 m ρ c (Proc.devRef .tc main_arg13) = (K.argsOf m c).a13 := (W36_of m ρ c main_arg13 (by decide)).trans (at_arg13_35 m ρ c)
theorem at_v196_37 : W37 m ρ c (Proc.devRef .tc main_v196) = K.P01_gW1 (K.argsOf m c) :=
  pr_v196 (W36 m ρ c) (K.argsOf m c) (at_arg13_36 m ρ c)
theorem at_v196_38 : W38 m ρ c (Proc.devRef .tc main_v196) = K.P01_gW1 (K.argsOf m c) := (W38_of m ρ c main_v196 (by decide)).trans (at_v196_37 m ρ c)
theorem at_v196_39 : W39 m ρ c (Proc.devRef .tc main_v196) = K.P01_gW1 (K.argsOf m c) := (W39_of m ρ c main_v196 (by decide)).trans (at_v196_38 m ρ c)
theorem at_v196_40 : W40 m ρ c (Proc.devRef .tc main_v196) = K.P01_gW1 (K.argsOf m c) := (W40_of m ρ c main_v196 (by decide)).trans (at_v196_39 m ρ c)
theorem at_v196_41 : W41 m ρ c (Proc.devRef .tc main_v196) = K.P01_gW1 (K.argsOf m c) := (W41_of m ρ c main_v196 (by decide)).trans (at_v196_40 m ρ c)
theorem at_v196_42 : W42 m ρ c (Proc.devRef .tc main_v196) = K.P01_gW1 (K.argsOf m c) := (W42_of m ρ c main_v196 (by decide)).trans (at_v196_41 m ρ c)
theorem at_v196_43 : W43 m ρ c (Proc.devRef .tc main_v196) = K.P01_gW1 (K.argsOf m c) := (W43_of m ρ c main_v196 (by decide)).trans (at_v196_42 m ρ c)
theorem at_v196_44 : W44 m ρ c (Proc.devRef .tc main_v196) = K.P01_gW1 (K.argsOf m c) := (W44_of m ρ c main_v196 (by decide)).trans (at_v196_43 m ρ c)
theorem at_v196_45 : W45 m ρ c (Proc.devRef .tc main_v196) = K.P01_gW1 (K.argsOf m c) := (W45_of m ρ c main_v196 (by decide)).trans (at_v196_44 m ρ c)
theorem at_v196_46 : W46 m ρ c (Proc.devRef .tc main_v196) = K.P01_gW1 (K.argsOf m c) := (W46_of m ρ c main_v196 (by decide)).trans (at_v196_45 m ρ c)
theorem at_v196_47 : W47 m ρ c (Proc.devRef .tc main_v196) = K.P01_gW1 (K.argsOf m c) := (W47_of m ρ c main_v196 (by decide)).trans (at_v196_46 m ρ c)
theorem at_v196_48 : W48 m ρ c (Proc.devRef .tc main_v196) = K.P01_gW1 (K.argsOf m c) := (W48_of m ρ c main_v196 (by decide)).trans (at_v196_47 m ρ c)
theorem at_arg14_5 : W5 m ρ c (Proc.devRef .tc main_arg14) = (K.argsOf m c).a14 := (W5_of m ρ c main_arg14 (by decide)).trans (at_arg14_4 m ρ c)
theorem at_arg14_6 : W6 m ρ c (Proc.devRef .tc main_arg14) = (K.argsOf m c).a14 := (W6_of m ρ c main_arg14 (by decide)).trans (at_arg14_5 m ρ c)
theorem at_arg14_7 : W7 m ρ c (Proc.devRef .tc main_arg14) = (K.argsOf m c).a14 := (W7_of m ρ c main_arg14 (by decide)).trans (at_arg14_6 m ρ c)
theorem at_arg14_8 : W8 m ρ c (Proc.devRef .tc main_arg14) = (K.argsOf m c).a14 := (W8_of m ρ c main_arg14 (by decide)).trans (at_arg14_7 m ρ c)
theorem at_arg14_9 : W9 m ρ c (Proc.devRef .tc main_arg14) = (K.argsOf m c).a14 := (W9_of m ρ c main_arg14 (by decide)).trans (at_arg14_8 m ρ c)
theorem at_arg14_10 : W10 m ρ c (Proc.devRef .tc main_arg14) = (K.argsOf m c).a14 := (W10_of m ρ c main_arg14 (by decide)).trans (at_arg14_9 m ρ c)
theorem at_arg14_11 : W11 m ρ c (Proc.devRef .tc main_arg14) = (K.argsOf m c).a14 := (W11_of m ρ c main_arg14 (by decide)).trans (at_arg14_10 m ρ c)
theorem at_arg14_12 : W12 m ρ c (Proc.devRef .tc main_arg14) = (K.argsOf m c).a14 := (W12_of m ρ c main_arg14 (by decide)).trans (at_arg14_11 m ρ c)
theorem at_arg14_13 : W13 m ρ c (Proc.devRef .tc main_arg14) = (K.argsOf m c).a14 := (W13_of m ρ c main_arg14 (by decide)).trans (at_arg14_12 m ρ c)
theorem at_arg14_14 : W14 m ρ c (Proc.devRef .tc main_arg14) = (K.argsOf m c).a14 := (W14_of m ρ c main_arg14 (by decide)).trans (at_arg14_13 m ρ c)
theorem at_arg14_15 : W15 m ρ c (Proc.devRef .tc main_arg14) = (K.argsOf m c).a14 := (W15_of m ρ c main_arg14 (by decide)).trans (at_arg14_14 m ρ c)
theorem at_arg14_16 : W16 m ρ c (Proc.devRef .tc main_arg14) = (K.argsOf m c).a14 := (W16_of m ρ c main_arg14 (by decide)).trans (at_arg14_15 m ρ c)
theorem at_arg14_17 : W17 m ρ c (Proc.devRef .tc main_arg14) = (K.argsOf m c).a14 := (W17_of m ρ c main_arg14 (by decide)).trans (at_arg14_16 m ρ c)
theorem at_arg14_18 : W18 m ρ c (Proc.devRef .tc main_arg14) = (K.argsOf m c).a14 := (W18_of m ρ c main_arg14 (by decide)).trans (at_arg14_17 m ρ c)
theorem at_arg14_19 : W19 m ρ c (Proc.devRef .tc main_arg14) = (K.argsOf m c).a14 := (W19_of m ρ c main_arg14 (by decide)).trans (at_arg14_18 m ρ c)
theorem at_arg14_20 : W20 m ρ c (Proc.devRef .tc main_arg14) = (K.argsOf m c).a14 := (W20_of m ρ c main_arg14 (by decide)).trans (at_arg14_19 m ρ c)
theorem at_arg14_21 : W21 m ρ c (Proc.devRef .tc main_arg14) = (K.argsOf m c).a14 := (W21_of m ρ c main_arg14 (by decide)).trans (at_arg14_20 m ρ c)
theorem at_arg14_22 : W22 m ρ c (Proc.devRef .tc main_arg14) = (K.argsOf m c).a14 := (W22_of m ρ c main_arg14 (by decide)).trans (at_arg14_21 m ρ c)
theorem at_arg14_23 : W23 m ρ c (Proc.devRef .tc main_arg14) = (K.argsOf m c).a14 := (W23_of m ρ c main_arg14 (by decide)).trans (at_arg14_22 m ρ c)
theorem at_arg14_24 : W24 m ρ c (Proc.devRef .tc main_arg14) = (K.argsOf m c).a14 := (W24_of m ρ c main_arg14 (by decide)).trans (at_arg14_23 m ρ c)
theorem at_arg14_25 : W25 m ρ c (Proc.devRef .tc main_arg14) = (K.argsOf m c).a14 := (W25_of m ρ c main_arg14 (by decide)).trans (at_arg14_24 m ρ c)
theorem at_arg14_26 : W26 m ρ c (Proc.devRef .tc main_arg14) = (K.argsOf m c).a14 := (W26_of m ρ c main_arg14 (by decide)).trans (at_arg14_25 m ρ c)
theorem at_arg14_27 : W27 m ρ c (Proc.devRef .tc main_arg14) = (K.argsOf m c).a14 := (W27_of m ρ c main_arg14 (by decide)).trans (at_arg14_26 m ρ c)
theorem at_arg14_28 : W28 m ρ c (Proc.devRef .tc main_arg14) = (K.argsOf m c).a14 := (W28_of m ρ c main_arg14 (by decide)).trans (at_arg14_27 m ρ c)
theorem at_arg14_29 : W29 m ρ c (Proc.devRef .tc main_arg14) = (K.argsOf m c).a14 := (W29_of m ρ c main_arg14 (by decide)).trans (at_arg14_28 m ρ c)
theorem at_arg14_30 : W30 m ρ c (Proc.devRef .tc main_arg14) = (K.argsOf m c).a14 := (W30_of m ρ c main_arg14 (by decide)).trans (at_arg14_29 m ρ c)
theorem at_arg14_31 : W31 m ρ c (Proc.devRef .tc main_arg14) = (K.argsOf m c).a14 := (W31_of m ρ c main_arg14 (by decide)).trans (at_arg14_30 m ρ c)
theorem at_arg14_32 : W32 m ρ c (Proc.devRef .tc main_arg14) = (K.argsOf m c).a14 := (W32_of m ρ c main_arg14 (by decide)).trans (at_arg14_31 m ρ c)
theorem at_arg14_33 : W33 m ρ c (Proc.devRef .tc main_arg14) = (K.argsOf m c).a14 := (W33_of m ρ c main_arg14 (by decide)).trans (at_arg14_32 m ρ c)
theorem at_arg14_34 : W34 m ρ c (Proc.devRef .tc main_arg14) = (K.argsOf m c).a14 := (W34_of m ρ c main_arg14 (by decide)).trans (at_arg14_33 m ρ c)
theorem at_arg14_35 : W35 m ρ c (Proc.devRef .tc main_arg14) = (K.argsOf m c).a14 := (W35_of m ρ c main_arg14 (by decide)).trans (at_arg14_34 m ρ c)
theorem at_arg14_36 : W36 m ρ c (Proc.devRef .tc main_arg14) = (K.argsOf m c).a14 := (W36_of m ρ c main_arg14 (by decide)).trans (at_arg14_35 m ρ c)
theorem at_v198_37 : W37 m ρ c (Proc.devRef .tc main_v198) = K.P01_gb1 (K.argsOf m c) :=
  pr_v198 (W36 m ρ c) (K.argsOf m c) (at_arg14_36 m ρ c)
theorem at_v198_38 : W38 m ρ c (Proc.devRef .tc main_v198) = K.P01_gb1 (K.argsOf m c) := (W38_of m ρ c main_v198 (by decide)).trans (at_v198_37 m ρ c)
theorem at_v198_39 : W39 m ρ c (Proc.devRef .tc main_v198) = K.P01_gb1 (K.argsOf m c) := (W39_of m ρ c main_v198 (by decide)).trans (at_v198_38 m ρ c)
theorem at_v198_40 : W40 m ρ c (Proc.devRef .tc main_v198) = K.P01_gb1 (K.argsOf m c) := (W40_of m ρ c main_v198 (by decide)).trans (at_v198_39 m ρ c)
theorem at_v198_41 : W41 m ρ c (Proc.devRef .tc main_v198) = K.P01_gb1 (K.argsOf m c) := (W41_of m ρ c main_v198 (by decide)).trans (at_v198_40 m ρ c)
theorem at_v198_42 : W42 m ρ c (Proc.devRef .tc main_v198) = K.P01_gb1 (K.argsOf m c) := (W42_of m ρ c main_v198 (by decide)).trans (at_v198_41 m ρ c)
theorem at_v198_43 : W43 m ρ c (Proc.devRef .tc main_v198) = K.P01_gb1 (K.argsOf m c) := (W43_of m ρ c main_v198 (by decide)).trans (at_v198_42 m ρ c)
theorem at_v198_44 : W44 m ρ c (Proc.devRef .tc main_v198) = K.P01_gb1 (K.argsOf m c) := (W44_of m ρ c main_v198 (by decide)).trans (at_v198_43 m ρ c)
theorem at_v198_45 : W45 m ρ c (Proc.devRef .tc main_v198) = K.P01_gb1 (K.argsOf m c) := (W45_of m ρ c main_v198 (by decide)).trans (at_v198_44 m ρ c)
theorem at_v198_46 : W46 m ρ c (Proc.devRef .tc main_v198) = K.P01_gb1 (K.argsOf m c) := (W46_of m ρ c main_v198 (by decide)).trans (at_v198_45 m ρ c)
theorem at_v198_47 : W47 m ρ c (Proc.devRef .tc main_v198) = K.P01_gb1 (K.argsOf m c) := (W47_of m ρ c main_v198 (by decide)).trans (at_v198_46 m ρ c)
theorem at_v198_48 : W48 m ρ c (Proc.devRef .tc main_v198) = K.P01_gb1 (K.argsOf m c) := (W48_of m ρ c main_v198 (by decide)).trans (at_v198_47 m ρ c)
theorem at_v270_49 : W49 m ρ c (Proc.devRef .tc main_v270) = C_v270 (F := Ideal) (K.nodeFn (C_v254 (F := Ideal) (C_v24 (F := Ideal) ((K.argsOf m c).a0)) (C_c_33)) (C_v255 (F := Ideal) (K.la2 (K.argsOf m c)) (C_c_34)) (C_v248 (F := Ideal) (K.P01_nW1 (K.argsOf m c))) (C_v249 (F := Ideal) (K.P01_nW1 (K.argsOf m c))) (C_v252 (F := Ideal) (K.P01_nb1 (K.argsOf m c)) (K.g2 (K.argsOf m c)) (K.P01_nW1 (K.argsOf m c))) (K.P01_nW2 (K.argsOf m c)) (C_v253 (F := Ideal) (K.P01_nb2 (K.argsOf m c)))) (K.le2 (K.argsOf m c)) (K.g2 (K.argsOf m c)) (K.P01_gW1 (K.argsOf m c)) (K.P01_gb1 (K.argsOf m c)) :=
  rd_v270 (W48 m ρ c) (K.argsOf m c) (at_v256_48 m ρ c) (at_v241_48 m ρ c) (at_v178_48 m ρ c) (at_v196_48 m ρ c) (at_v198_48 m ρ c)
theorem at_v271_50 : W50 m ρ c (Proc.devRef .tc main_v271) = C_v271 (F := Ideal) (C_v270 (F := Ideal) (K.nodeFn (C_v254 (F := Ideal) (C_v24 (F := Ideal) ((K.argsOf m c).a0)) (C_c_33)) (C_v255 (F := Ideal) (K.la2 (K.argsOf m c)) (C_c_34)) (C_v248 (F := Ideal) (K.P01_nW1 (K.argsOf m c))) (C_v249 (F := Ideal) (K.P01_nW1 (K.argsOf m c))) (C_v252 (F := Ideal) (K.P01_nb1 (K.argsOf m c)) (K.g2 (K.argsOf m c)) (K.P01_nW1 (K.argsOf m c))) (K.P01_nW2 (K.argsOf m c)) (C_v253 (F := Ideal) (K.P01_nb2 (K.argsOf m c)))) (K.le2 (K.argsOf m c)) (K.g2 (K.argsOf m c)) (K.P01_gW1 (K.argsOf m c)) (K.P01_gb1 (K.argsOf m c))) :=
  (congrArg (fun l => StableHlo.after l (W49 m ρ c) (Proc.devRef .tc main_v271)) hostOps6_1_eq).trans (rd_v271 (W49 m ρ c) (K.argsOf m c) (at_v270_49 m ρ c))
theorem at_arg15_5 : W5 m ρ c (Proc.devRef .tc main_arg15) = (K.argsOf m c).a15 := (W5_of m ρ c main_arg15 (by decide)).trans (at_arg15_4 m ρ c)
theorem at_arg15_6 : W6 m ρ c (Proc.devRef .tc main_arg15) = (K.argsOf m c).a15 := (W6_of m ρ c main_arg15 (by decide)).trans (at_arg15_5 m ρ c)
theorem at_arg15_7 : W7 m ρ c (Proc.devRef .tc main_arg15) = (K.argsOf m c).a15 := (W7_of m ρ c main_arg15 (by decide)).trans (at_arg15_6 m ρ c)
theorem at_arg15_8 : W8 m ρ c (Proc.devRef .tc main_arg15) = (K.argsOf m c).a15 := (W8_of m ρ c main_arg15 (by decide)).trans (at_arg15_7 m ρ c)
theorem at_arg15_9 : W9 m ρ c (Proc.devRef .tc main_arg15) = (K.argsOf m c).a15 := (W9_of m ρ c main_arg15 (by decide)).trans (at_arg15_8 m ρ c)
theorem at_arg15_10 : W10 m ρ c (Proc.devRef .tc main_arg15) = (K.argsOf m c).a15 := (W10_of m ρ c main_arg15 (by decide)).trans (at_arg15_9 m ρ c)
theorem at_arg15_11 : W11 m ρ c (Proc.devRef .tc main_arg15) = (K.argsOf m c).a15 := (W11_of m ρ c main_arg15 (by decide)).trans (at_arg15_10 m ρ c)
theorem at_arg15_12 : W12 m ρ c (Proc.devRef .tc main_arg15) = (K.argsOf m c).a15 := (W12_of m ρ c main_arg15 (by decide)).trans (at_arg15_11 m ρ c)
theorem at_arg15_13 : W13 m ρ c (Proc.devRef .tc main_arg15) = (K.argsOf m c).a15 := (W13_of m ρ c main_arg15 (by decide)).trans (at_arg15_12 m ρ c)
theorem at_arg15_14 : W14 m ρ c (Proc.devRef .tc main_arg15) = (K.argsOf m c).a15 := (W14_of m ρ c main_arg15 (by decide)).trans (at_arg15_13 m ρ c)
theorem at_arg15_15 : W15 m ρ c (Proc.devRef .tc main_arg15) = (K.argsOf m c).a15 := (W15_of m ρ c main_arg15 (by decide)).trans (at_arg15_14 m ρ c)
theorem at_arg15_16 : W16 m ρ c (Proc.devRef .tc main_arg15) = (K.argsOf m c).a15 := (W16_of m ρ c main_arg15 (by decide)).trans (at_arg15_15 m ρ c)
theorem at_arg15_17 : W17 m ρ c (Proc.devRef .tc main_arg15) = (K.argsOf m c).a15 := (W17_of m ρ c main_arg15 (by decide)).trans (at_arg15_16 m ρ c)
theorem at_arg15_18 : W18 m ρ c (Proc.devRef .tc main_arg15) = (K.argsOf m c).a15 := (W18_of m ρ c main_arg15 (by decide)).trans (at_arg15_17 m ρ c)
theorem at_arg15_19 : W19 m ρ c (Proc.devRef .tc main_arg15) = (K.argsOf m c).a15 := (W19_of m ρ c main_arg15 (by decide)).trans (at_arg15_18 m ρ c)
theorem at_arg15_20 : W20 m ρ c (Proc.devRef .tc main_arg15) = (K.argsOf m c).a15 := (W20_of m ρ c main_arg15 (by decide)).trans (at_arg15_19 m ρ c)
theorem at_arg15_21 : W21 m ρ c (Proc.devRef .tc main_arg15) = (K.argsOf m c).a15 := (W21_of m ρ c main_arg15 (by decide)).trans (at_arg15_20 m ρ c)
theorem at_arg15_22 : W22 m ρ c (Proc.devRef .tc main_arg15) = (K.argsOf m c).a15 := (W22_of m ρ c main_arg15 (by decide)).trans (at_arg15_21 m ρ c)
theorem at_arg15_23 : W23 m ρ c (Proc.devRef .tc main_arg15) = (K.argsOf m c).a15 := (W23_of m ρ c main_arg15 (by decide)).trans (at_arg15_22 m ρ c)
theorem at_arg15_24 : W24 m ρ c (Proc.devRef .tc main_arg15) = (K.argsOf m c).a15 := (W24_of m ρ c main_arg15 (by decide)).trans (at_arg15_23 m ρ c)
theorem at_arg15_25 : W25 m ρ c (Proc.devRef .tc main_arg15) = (K.argsOf m c).a15 := (W25_of m ρ c main_arg15 (by decide)).trans (at_arg15_24 m ρ c)
theorem at_arg15_26 : W26 m ρ c (Proc.devRef .tc main_arg15) = (K.argsOf m c).a15 := (W26_of m ρ c main_arg15 (by decide)).trans (at_arg15_25 m ρ c)
theorem at_arg15_27 : W27 m ρ c (Proc.devRef .tc main_arg15) = (K.argsOf m c).a15 := (W27_of m ρ c main_arg15 (by decide)).trans (at_arg15_26 m ρ c)
theorem at_arg15_28 : W28 m ρ c (Proc.devRef .tc main_arg15) = (K.argsOf m c).a15 := (W28_of m ρ c main_arg15 (by decide)).trans (at_arg15_27 m ρ c)
theorem at_arg15_29 : W29 m ρ c (Proc.devRef .tc main_arg15) = (K.argsOf m c).a15 := (W29_of m ρ c main_arg15 (by decide)).trans (at_arg15_28 m ρ c)
theorem at_arg15_30 : W30 m ρ c (Proc.devRef .tc main_arg15) = (K.argsOf m c).a15 := (W30_of m ρ c main_arg15 (by decide)).trans (at_arg15_29 m ρ c)
theorem at_arg15_31 : W31 m ρ c (Proc.devRef .tc main_arg15) = (K.argsOf m c).a15 := (W31_of m ρ c main_arg15 (by decide)).trans (at_arg15_30 m ρ c)
theorem at_arg15_32 : W32 m ρ c (Proc.devRef .tc main_arg15) = (K.argsOf m c).a15 := (W32_of m ρ c main_arg15 (by decide)).trans (at_arg15_31 m ρ c)
theorem at_arg15_33 : W33 m ρ c (Proc.devRef .tc main_arg15) = (K.argsOf m c).a15 := (W33_of m ρ c main_arg15 (by decide)).trans (at_arg15_32 m ρ c)
theorem at_arg15_34 : W34 m ρ c (Proc.devRef .tc main_arg15) = (K.argsOf m c).a15 := (W34_of m ρ c main_arg15 (by decide)).trans (at_arg15_33 m ρ c)
theorem at_arg15_35 : W35 m ρ c (Proc.devRef .tc main_arg15) = (K.argsOf m c).a15 := (W35_of m ρ c main_arg15 (by decide)).trans (at_arg15_34 m ρ c)
theorem at_arg15_36 : W36 m ρ c (Proc.devRef .tc main_arg15) = (K.argsOf m c).a15 := (W36_of m ρ c main_arg15 (by decide)).trans (at_arg15_35 m ρ c)
theorem at_v200_37 : W37 m ρ c (Proc.devRef .tc main_v200) = K.P01_gW2 (K.argsOf m c) :=
  pr_v200 (W36 m ρ c) (K.argsOf m c) (at_arg15_36 m ρ c)
theorem at_v200_38 : W38 m ρ c (Proc.devRef .tc main_v200) = K.P01_gW2 (K.argsOf m c) := (W38_of m ρ c main_v200 (by decide)).trans (at_v200_37 m ρ c)
theorem at_v200_39 : W39 m ρ c (Proc.devRef .tc main_v200) = K.P01_gW2 (K.argsOf m c) := (W39_of m ρ c main_v200 (by decide)).trans (at_v200_38 m ρ c)
theorem at_v200_40 : W40 m ρ c (Proc.devRef .tc main_v200) = K.P01_gW2 (K.argsOf m c) := (W40_of m ρ c main_v200 (by decide)).trans (at_v200_39 m ρ c)
theorem at_v200_41 : W41 m ρ c (Proc.devRef .tc main_v200) = K.P01_gW2 (K.argsOf m c) := (W41_of m ρ c main_v200 (by decide)).trans (at_v200_40 m ρ c)
theorem at_v200_42 : W42 m ρ c (Proc.devRef .tc main_v200) = K.P01_gW2 (K.argsOf m c) := (W42_of m ρ c main_v200 (by decide)).trans (at_v200_41 m ρ c)
theorem at_v200_43 : W43 m ρ c (Proc.devRef .tc main_v200) = K.P01_gW2 (K.argsOf m c) := (W43_of m ρ c main_v200 (by decide)).trans (at_v200_42 m ρ c)
theorem at_v200_44 : W44 m ρ c (Proc.devRef .tc main_v200) = K.P01_gW2 (K.argsOf m c) := (W44_of m ρ c main_v200 (by decide)).trans (at_v200_43 m ρ c)
theorem at_v200_45 : W45 m ρ c (Proc.devRef .tc main_v200) = K.P01_gW2 (K.argsOf m c) := (W45_of m ρ c main_v200 (by decide)).trans (at_v200_44 m ρ c)
theorem at_v200_46 : W46 m ρ c (Proc.devRef .tc main_v200) = K.P01_gW2 (K.argsOf m c) := (W46_of m ρ c main_v200 (by decide)).trans (at_v200_45 m ρ c)
theorem at_v200_47 : W47 m ρ c (Proc.devRef .tc main_v200) = K.P01_gW2 (K.argsOf m c) := (W47_of m ρ c main_v200 (by decide)).trans (at_v200_46 m ρ c)
theorem at_v200_48 : W48 m ρ c (Proc.devRef .tc main_v200) = K.P01_gW2 (K.argsOf m c) := (W48_of m ρ c main_v200 (by decide)).trans (at_v200_47 m ρ c)
theorem at_v200_49 : W49 m ρ c (Proc.devRef .tc main_v200) = K.P01_gW2 (K.argsOf m c) := (W49_of m ρ c main_v200 (by decide)).trans (at_v200_48 m ρ c)
theorem at_v200_50 : W50 m ρ c (Proc.devRef .tc main_v200) = K.P01_gW2 (K.argsOf m c) := (W50_of m ρ c main_v200 (by decide)).trans (at_v200_49 m ρ c)
theorem at_arg16_5 : W5 m ρ c (Proc.devRef .tc main_arg16) = (K.argsOf m c).a16 := (W5_of m ρ c main_arg16 (by decide)).trans (at_arg16_4 m ρ c)
theorem at_arg16_6 : W6 m ρ c (Proc.devRef .tc main_arg16) = (K.argsOf m c).a16 := (W6_of m ρ c main_arg16 (by decide)).trans (at_arg16_5 m ρ c)
theorem at_arg16_7 : W7 m ρ c (Proc.devRef .tc main_arg16) = (K.argsOf m c).a16 := (W7_of m ρ c main_arg16 (by decide)).trans (at_arg16_6 m ρ c)
theorem at_arg16_8 : W8 m ρ c (Proc.devRef .tc main_arg16) = (K.argsOf m c).a16 := (W8_of m ρ c main_arg16 (by decide)).trans (at_arg16_7 m ρ c)
theorem at_arg16_9 : W9 m ρ c (Proc.devRef .tc main_arg16) = (K.argsOf m c).a16 := (W9_of m ρ c main_arg16 (by decide)).trans (at_arg16_8 m ρ c)
theorem at_arg16_10 : W10 m ρ c (Proc.devRef .tc main_arg16) = (K.argsOf m c).a16 := (W10_of m ρ c main_arg16 (by decide)).trans (at_arg16_9 m ρ c)
theorem at_arg16_11 : W11 m ρ c (Proc.devRef .tc main_arg16) = (K.argsOf m c).a16 := (W11_of m ρ c main_arg16 (by decide)).trans (at_arg16_10 m ρ c)
theorem at_arg16_12 : W12 m ρ c (Proc.devRef .tc main_arg16) = (K.argsOf m c).a16 := (W12_of m ρ c main_arg16 (by decide)).trans (at_arg16_11 m ρ c)
theorem at_arg16_13 : W13 m ρ c (Proc.devRef .tc main_arg16) = (K.argsOf m c).a16 := (W13_of m ρ c main_arg16 (by decide)).trans (at_arg16_12 m ρ c)
theorem at_arg16_14 : W14 m ρ c (Proc.devRef .tc main_arg16) = (K.argsOf m c).a16 := (W14_of m ρ c main_arg16 (by decide)).trans (at_arg16_13 m ρ c)
theorem at_arg16_15 : W15 m ρ c (Proc.devRef .tc main_arg16) = (K.argsOf m c).a16 := (W15_of m ρ c main_arg16 (by decide)).trans (at_arg16_14 m ρ c)
theorem at_arg16_16 : W16 m ρ c (Proc.devRef .tc main_arg16) = (K.argsOf m c).a16 := (W16_of m ρ c main_arg16 (by decide)).trans (at_arg16_15 m ρ c)
theorem at_arg16_17 : W17 m ρ c (Proc.devRef .tc main_arg16) = (K.argsOf m c).a16 := (W17_of m ρ c main_arg16 (by decide)).trans (at_arg16_16 m ρ c)
theorem at_arg16_18 : W18 m ρ c (Proc.devRef .tc main_arg16) = (K.argsOf m c).a16 := (W18_of m ρ c main_arg16 (by decide)).trans (at_arg16_17 m ρ c)
theorem at_arg16_19 : W19 m ρ c (Proc.devRef .tc main_arg16) = (K.argsOf m c).a16 := (W19_of m ρ c main_arg16 (by decide)).trans (at_arg16_18 m ρ c)
theorem at_arg16_20 : W20 m ρ c (Proc.devRef .tc main_arg16) = (K.argsOf m c).a16 := (W20_of m ρ c main_arg16 (by decide)).trans (at_arg16_19 m ρ c)
theorem at_arg16_21 : W21 m ρ c (Proc.devRef .tc main_arg16) = (K.argsOf m c).a16 := (W21_of m ρ c main_arg16 (by decide)).trans (at_arg16_20 m ρ c)
theorem at_arg16_22 : W22 m ρ c (Proc.devRef .tc main_arg16) = (K.argsOf m c).a16 := (W22_of m ρ c main_arg16 (by decide)).trans (at_arg16_21 m ρ c)
theorem at_arg16_23 : W23 m ρ c (Proc.devRef .tc main_arg16) = (K.argsOf m c).a16 := (W23_of m ρ c main_arg16 (by decide)).trans (at_arg16_22 m ρ c)
theorem at_arg16_24 : W24 m ρ c (Proc.devRef .tc main_arg16) = (K.argsOf m c).a16 := (W24_of m ρ c main_arg16 (by decide)).trans (at_arg16_23 m ρ c)
theorem at_arg16_25 : W25 m ρ c (Proc.devRef .tc main_arg16) = (K.argsOf m c).a16 := (W25_of m ρ c main_arg16 (by decide)).trans (at_arg16_24 m ρ c)
theorem at_arg16_26 : W26 m ρ c (Proc.devRef .tc main_arg16) = (K.argsOf m c).a16 := (W26_of m ρ c main_arg16 (by decide)).trans (at_arg16_25 m ρ c)
theorem at_arg16_27 : W27 m ρ c (Proc.devRef .tc main_arg16) = (K.argsOf m c).a16 := (W27_of m ρ c main_arg16 (by decide)).trans (at_arg16_26 m ρ c)
theorem at_arg16_28 : W28 m ρ c (Proc.devRef .tc main_arg16) = (K.argsOf m c).a16 := (W28_of m ρ c main_arg16 (by decide)).trans (at_arg16_27 m ρ c)
theorem at_arg16_29 : W29 m ρ c (Proc.devRef .tc main_arg16) = (K.argsOf m c).a16 := (W29_of m ρ c main_arg16 (by decide)).trans (at_arg16_28 m ρ c)
theorem at_arg16_30 : W30 m ρ c (Proc.devRef .tc main_arg16) = (K.argsOf m c).a16 := (W30_of m ρ c main_arg16 (by decide)).trans (at_arg16_29 m ρ c)
theorem at_arg16_31 : W31 m ρ c (Proc.devRef .tc main_arg16) = (K.argsOf m c).a16 := (W31_of m ρ c main_arg16 (by decide)).trans (at_arg16_30 m ρ c)
theorem at_arg16_32 : W32 m ρ c (Proc.devRef .tc main_arg16) = (K.argsOf m c).a16 := (W32_of m ρ c main_arg16 (by decide)).trans (at_arg16_31 m ρ c)
theorem at_arg16_33 : W33 m ρ c (Proc.devRef .tc main_arg16) = (K.argsOf m c).a16 := (W33_of m ρ c main_arg16 (by decide)).trans (at_arg16_32 m ρ c)
theorem at_arg16_34 : W34 m ρ c (Proc.devRef .tc main_arg16) = (K.argsOf m c).a16 := (W34_of m ρ c main_arg16 (by decide)).trans (at_arg16_33 m ρ c)
theorem at_arg16_35 : W35 m ρ c (Proc.devRef .tc main_arg16) = (K.argsOf m c).a16 := (W35_of m ρ c main_arg16 (by decide)).trans (at_arg16_34 m ρ c)
theorem at_arg16_36 : W36 m ρ c (Proc.devRef .tc main_arg16) = (K.argsOf m c).a16 := (W36_of m ρ c main_arg16 (by decide)).trans (at_arg16_35 m ρ c)
theorem at_v202_37 : W37 m ρ c (Proc.devRef .tc main_v202) = K.P01_gb2 (K.argsOf m c) :=
  pr_v202 (W36 m ρ c) (K.argsOf m c) (at_arg16_36 m ρ c)
theorem at_v202_38 : W38 m ρ c (Proc.devRef .tc main_v202) = K.P01_gb2 (K.argsOf m c) := (W38_of m ρ c main_v202 (by decide)).trans (at_v202_37 m ρ c)
theorem at_v202_39 : W39 m ρ c (Proc.devRef .tc main_v202) = K.P01_gb2 (K.argsOf m c) := (W39_of m ρ c main_v202 (by decide)).trans (at_v202_38 m ρ c)
theorem at_v202_40 : W40 m ρ c (Proc.devRef .tc main_v202) = K.P01_gb2 (K.argsOf m c) := (W40_of m ρ c main_v202 (by decide)).trans (at_v202_39 m ρ c)
theorem at_v202_41 : W41 m ρ c (Proc.devRef .tc main_v202) = K.P01_gb2 (K.argsOf m c) := (W41_of m ρ c main_v202 (by decide)).trans (at_v202_40 m ρ c)
theorem at_v202_42 : W42 m ρ c (Proc.devRef .tc main_v202) = K.P01_gb2 (K.argsOf m c) := (W42_of m ρ c main_v202 (by decide)).trans (at_v202_41 m ρ c)
theorem at_v202_43 : W43 m ρ c (Proc.devRef .tc main_v202) = K.P01_gb2 (K.argsOf m c) := (W43_of m ρ c main_v202 (by decide)).trans (at_v202_42 m ρ c)
theorem at_v202_44 : W44 m ρ c (Proc.devRef .tc main_v202) = K.P01_gb2 (K.argsOf m c) := (W44_of m ρ c main_v202 (by decide)).trans (at_v202_43 m ρ c)
theorem at_v202_45 : W45 m ρ c (Proc.devRef .tc main_v202) = K.P01_gb2 (K.argsOf m c) := (W45_of m ρ c main_v202 (by decide)).trans (at_v202_44 m ρ c)
theorem at_v202_46 : W46 m ρ c (Proc.devRef .tc main_v202) = K.P01_gb2 (K.argsOf m c) := (W46_of m ρ c main_v202 (by decide)).trans (at_v202_45 m ρ c)
theorem at_v202_47 : W47 m ρ c (Proc.devRef .tc main_v202) = K.P01_gb2 (K.argsOf m c) := (W47_of m ρ c main_v202 (by decide)).trans (at_v202_46 m ρ c)
theorem at_v202_48 : W48 m ρ c (Proc.devRef .tc main_v202) = K.P01_gb2 (K.argsOf m c) := (W48_of m ρ c main_v202 (by decide)).trans (at_v202_47 m ρ c)
theorem at_v268_49 : W49 m ρ c (Proc.devRef .tc main_v268) = C_v268 (F := Ideal) (K.P01_gb2 (K.argsOf m c)) :=
  rd_v268 (W48 m ρ c) (K.argsOf m c) (at_v202_48 m ρ c)
theorem at_v268_50 : W50 m ρ c (Proc.devRef .tc main_v268) = C_v268 (F := Ideal) (K.P01_gb2 (K.argsOf m c)) := (W50_of m ρ c main_v268 (by decide)).trans (at_v268_49 m ρ c)
theorem at_v273_51 : W51 m ρ c (Proc.devRef .tc main_v273) = K.g3 (K.argsOf m c) :=
  st_g3 (W50 m ρ c) (K.argsOf m c) (at_v271_50 m ρ c) (at_v200_50 m ρ c) (at_v268_50 m ρ c)
theorem at_v146_35 : W35 m ρ c (Proc.devRef .tc main_v146) = K.ue1 (K.argsOf m c) := (W35_of m ρ c main_v146 (by decide)).trans (at_v146_34 m ρ c)
theorem at_v146_36 : W36 m ρ c (Proc.devRef .tc main_v146) = K.ue1 (K.argsOf m c) := (W36_of m ρ c main_v146 (by decide)).trans (at_v146_35 m ρ c)
theorem at_v146_37 : W37 m ρ c (Proc.devRef .tc main_v146) = K.ue1 (K.argsOf m c) := (W37_of m ρ c main_v146 (by decide)).trans (at_v146_36 m ρ c)
theorem at_v146_38 : W38 m ρ c (Proc.devRef .tc main_v146) = K.ue1 (K.argsOf m c) := (W38_of m ρ c main_v146 (by decide)).trans (at_v146_37 m ρ c)
theorem at_v146_39 : W39 m ρ c (Proc.devRef .tc main_v146) = K.ue1 (K.argsOf m c) := (W39_of m ρ c main_v146 (by decide)).trans (at_v146_38 m ρ c)
theorem at_v146_40 : W40 m ρ c (Proc.devRef .tc main_v146) = K.ue1 (K.argsOf m c) := (W40_of m ρ c main_v146 (by decide)).trans (at_v146_39 m ρ c)
theorem at_v146_41 : W41 m ρ c (Proc.devRef .tc main_v146) = K.ue1 (K.argsOf m c) := (W41_of m ρ c main_v146 (by decide)).trans (at_v146_40 m ρ c)
theorem at_v146_42 : W42 m ρ c (Proc.devRef .tc main_v146) = K.ue1 (K.argsOf m c) := (W42_of m ρ c main_v146 (by decide)).trans (at_v146_41 m ρ c)
theorem at_v146_43 : W43 m ρ c (Proc.devRef .tc main_v146) = K.ue1 (K.argsOf m c) := (W43_of m ρ c main_v146 (by decide)).trans (at_v146_42 m ρ c)
theorem at_v146_44 : W44 m ρ c (Proc.devRef .tc main_v146) = K.ue1 (K.argsOf m c) := (W44_of m ρ c main_v146 (by decide)).trans (at_v146_43 m ρ c)
theorem at_v146_45 : W45 m ρ c (Proc.devRef .tc main_v146) = K.ue1 (K.argsOf m c) := (W45_of m ρ c main_v146 (by decide)).trans (at_v146_44 m ρ c)
theorem at_v146_46 : W46 m ρ c (Proc.devRef .tc main_v146) = K.ue1 (K.argsOf m c) := (W46_of m ρ c main_v146 (by decide)).trans (at_v146_45 m ρ c)
theorem at_v146_47 : W47 m ρ c (Proc.devRef .tc main_v146) = K.ue1 (K.argsOf m c) := (W47_of m ρ c main_v146 (by decide)).trans (at_v146_46 m ρ c)
theorem at_v146_48 : W48 m ρ c (Proc.devRef .tc main_v146) = K.ue1 (K.argsOf m c) := (W48_of m ρ c main_v146 (by decide)).trans (at_v146_47 m ρ c)
theorem at_v146_49 : W49 m ρ c (Proc.devRef .tc main_v146) = K.ue1 (K.argsOf m c) := (W49_of m ρ c main_v146 (by decide)).trans (at_v146_48 m ρ c)
theorem at_v146_50 : W50 m ρ c (Proc.devRef .tc main_v146) = K.ue1 (K.argsOf m c) := (W50_of m ρ c main_v146 (by decide)).trans (at_v146_49 m ρ c)
theorem at_v31_19 : W19 m ρ c (Proc.devRef .tc main_v31) = K.zcol := (W19_of m ρ c main_v31 (by decide)).trans (at_v31_18 m ρ c)
theorem at_v31_20 : W20 m ρ c (Proc.devRef .tc main_v31) = K.zcol := (W20_of m ρ c main_v31 (by decide)).trans (at_v31_19 m ρ c)
theorem at_v31_21 : W21 m ρ c (Proc.devRef .tc main_v31) = K.zcol := (W21_of m ρ c main_v31 (by decide)).trans (at_v31_20 m ρ c)
theorem at_v31_22 : W22 m ρ c (Proc.devRef .tc main_v31) = K.zcol := (W22_of m ρ c main_v31 (by decide)).trans (at_v31_21 m ρ c)
theorem at_v31_23 : W23 m ρ c (Proc.devRef .tc main_v31) = K.zcol := (W23_of m ρ c main_v31 (by decide)).trans (at_v31_22 m ρ c)
theorem at_v31_24 : W24 m ρ c (Proc.devRef .tc main_v31) = K.zcol := (W24_of m ρ c main_v31 (by decide)).trans (at_v31_23 m ρ c)
theorem at_v31_25 : W25 m ρ c (Proc.devRef .tc main_v31) = K.zcol := (W25_of m ρ c main_v31 (by decide)).trans (at_v31_24 m ρ c)
theorem at_v31_26 : W26 m ρ c (Proc.devRef .tc main_v31) = K.zcol := (W26_of m ρ c main_v31 (by decide)).trans (at_v31_25 m ρ c)
theorem at_v31_27 : W27 m ρ c (Proc.devRef .tc main_v31) = K.zcol := (W27_of m ρ c main_v31 (by decide)).trans (at_v31_26 m ρ c)
theorem at_v31_28 : W28 m ρ c (Proc.devRef .tc main_v31) = K.zcol := (W28_of m ρ c main_v31 (by decide)).trans (at_v31_27 m ρ c)
theorem at_v31_29 : W29 m ρ c (Proc.devRef .tc main_v31) = K.zcol := (W29_of m ρ c main_v31 (by decide)).trans (at_v31_28 m ρ c)
theorem at_v31_30 : W30 m ρ c (Proc.devRef .tc main_v31) = K.zcol := (W30_of m ρ c main_v31 (by decide)).trans (at_v31_29 m ρ c)
theorem at_v31_31 : W31 m ρ c (Proc.devRef .tc main_v31) = K.zcol := (W31_of m ρ c main_v31 (by decide)).trans (at_v31_30 m ρ c)
theorem at_v31_32 : W32 m ρ c (Proc.devRef .tc main_v31) = K.zcol := (W32_of m ρ c main_v31 (by decide)).trans (at_v31_31 m ρ c)
theorem at_v31_33 : W33 m ρ c (Proc.devRef .tc main_v31) = K.zcol := (W33_of m ρ c main_v31 (by decide)).trans (at_v31_32 m ρ c)
theorem at_v31_34 : W34 m ρ c (Proc.devRef .tc main_v31) = K.zcol := (W34_of m ρ c main_v31 (by decide)).trans (at_v31_33 m ρ c)
theorem at_v31_35 : W35 m ρ c (Proc.devRef .tc main_v31) = K.zcol := (W35_of m ρ c main_v31 (by decide)).trans (at_v31_34 m ρ c)
theorem at_v31_36 : W36 m ρ c (Proc.devRef .tc main_v31) = K.zcol := (W36_of m ρ c main_v31 (by decide)).trans (at_v31_35 m ρ c)
theorem at_v31_37 : W37 m ρ c (Proc.devRef .tc main_v31) = K.zcol := (W37_of m ρ c main_v31 (by decide)).trans (at_v31_36 m ρ c)
theorem at_v31_38 : W38 m ρ c (Proc.devRef .tc main_v31) = K.zcol := (W38_of m ρ c main_v31 (by decide)).trans (at_v31_37 m ρ c)
theorem at_v31_39 : W39 m ρ c (Proc.devRef .tc main_v31) = K.zcol := (W39_of m ρ c main_v31 (by decide)).trans (at_v31_38 m ρ c)
theorem at_v31_40 : W40 m ρ c (Proc.devRef .tc main_v31) = K.zcol := (W40_of m ρ c main_v31 (by decide)).trans (at_v31_39 m ρ c)
theorem at_v31_41 : W41 m ρ c (Proc.devRef .tc main_v31) = K.zcol := (W41_of m ρ c main_v31 (by decide)).trans (at_v31_40 m ρ c)
theorem at_v31_42 : W42 m ρ c (Proc.devRef .tc main_v31) = K.zcol := (W42_of m ρ c main_v31 (by decide)).trans (at_v31_41 m ρ c)
theorem at_v31_43 : W43 m ρ c (Proc.devRef .tc main_v31) = K.zcol := (W43_of m ρ c main_v31 (by decide)).trans (at_v31_42 m ρ c)
theorem at_v31_44 : W44 m ρ c (Proc.devRef .tc main_v31) = K.zcol := (W44_of m ρ c main_v31 (by decide)).trans (at_v31_43 m ρ c)
theorem at_v31_45 : W45 m ρ c (Proc.devRef .tc main_v31) = K.zcol := (W45_of m ρ c main_v31 (by decide)).trans (at_v31_44 m ρ c)
theorem at_v31_46 : W46 m ρ c (Proc.devRef .tc main_v31) = K.zcol := (W46_of m ρ c main_v31 (by decide)).trans (at_v31_45 m ρ c)
theorem at_v31_47 : W47 m ρ c (Proc.devRef .tc main_v31) = K.zcol := (W47_of m ρ c main_v31 (by decide)).trans (at_v31_46 m ρ c)
theorem at_v31_48 : W48 m ρ c (Proc.devRef .tc main_v31) = K.zcol := (W48_of m ρ c main_v31 (by decide)).trans (at_v31_47 m ρ c)
theorem at_v31_49 : W49 m ρ c (Proc.devRef .tc main_v31) = K.zcol := (W49_of m ρ c main_v31 (by decide)).trans (at_v31_48 m ρ c)
theorem at_v31_50 : W50 m ρ c (Proc.devRef .tc main_v31) = K.zcol := (W50_of m ρ c main_v31 (by decide)).trans (at_v31_49 m ρ c)
theorem at_v274_51 : W51 m ρ c (Proc.devRef .tc main_v274) = K.uin1 (K.argsOf m c) :=
  st_uin1 (W50 m ρ c) (K.argsOf m c) (at_v146_50 m ρ c) (at_v31_50 m ρ c)
theorem at_v5_30 : W30 m ρ c (Proc.devRef .tc main_v5) = K.ur (K.argsOf m c) := (W30_of m ρ c main_v5 (by decide)).trans (at_v5_29 m ρ c)
theorem at_v5_31 : W31 m ρ c (Proc.devRef .tc main_v5) = K.ur (K.argsOf m c) := (W31_of m ρ c main_v5 (by decide)).trans (at_v5_30 m ρ c)
theorem at_v5_32 : W32 m ρ c (Proc.devRef .tc main_v5) = K.ur (K.argsOf m c) := (W32_of m ρ c main_v5 (by decide)).trans (at_v5_31 m ρ c)
theorem at_v5_33 : W33 m ρ c (Proc.devRef .tc main_v5) = K.ur (K.argsOf m c) := (W33_of m ρ c main_v5 (by decide)).trans (at_v5_32 m ρ c)
theorem at_v5_34 : W34 m ρ c (Proc.devRef .tc main_v5) = K.ur (K.argsOf m c) := (W34_of m ρ c main_v5 (by decide)).trans (at_v5_33 m ρ c)
theorem at_v5_35 : W35 m ρ c (Proc.devRef .tc main_v5) = K.ur (K.argsOf m c) := (W35_of m ρ c main_v5 (by decide)).trans (at_v5_34 m ρ c)
theorem at_v5_36 : W36 m ρ c (Proc.devRef .tc main_v5) = K.ur (K.argsOf m c) := (W36_of m ρ c main_v5 (by decide)).trans (at_v5_35 m ρ c)
theorem at_v5_37 : W37 m ρ c (Proc.devRef .tc main_v5) = K.ur (K.argsOf m c) := (W37_of m ρ c main_v5 (by decide)).trans (at_v5_36 m ρ c)
theorem at_v5_38 : W38 m ρ c (Proc.devRef .tc main_v5) = K.ur (K.argsOf m c) := (W38_of m ρ c main_v5 (by decide)).trans (at_v5_37 m ρ c)
theorem at_v5_39 : W39 m ρ c (Proc.devRef .tc main_v5) = K.ur (K.argsOf m c) := (W39_of m ρ c main_v5 (by decide)).trans (at_v5_38 m ρ c)
theorem at_v5_40 : W40 m ρ c (Proc.devRef .tc main_v5) = K.ur (K.argsOf m c) := (W40_of m ρ c main_v5 (by decide)).trans (at_v5_39 m ρ c)
theorem at_v5_41 : W41 m ρ c (Proc.devRef .tc main_v5) = K.ur (K.argsOf m c) := (W41_of m ρ c main_v5 (by decide)).trans (at_v5_40 m ρ c)
theorem at_v5_42 : W42 m ρ c (Proc.devRef .tc main_v5) = K.ur (K.argsOf m c) := (W42_of m ρ c main_v5 (by decide)).trans (at_v5_41 m ρ c)
theorem at_v5_43 : W43 m ρ c (Proc.devRef .tc main_v5) = K.ur (K.argsOf m c) := (W43_of m ρ c main_v5 (by decide)).trans (at_v5_42 m ρ c)
theorem at_v5_44 : W44 m ρ c (Proc.devRef .tc main_v5) = K.ur (K.argsOf m c) := (W44_of m ρ c main_v5 (by decide)).trans (at_v5_43 m ρ c)
theorem at_v5_45 : W45 m ρ c (Proc.devRef .tc main_v5) = K.ur (K.argsOf m c) := (W45_of m ρ c main_v5 (by decide)).trans (at_v5_44 m ρ c)
theorem at_v5_46 : W46 m ρ c (Proc.devRef .tc main_v5) = K.ur (K.argsOf m c) := (W46_of m ρ c main_v5 (by decide)).trans (at_v5_45 m ρ c)
theorem at_v5_47 : W47 m ρ c (Proc.devRef .tc main_v5) = K.ur (K.argsOf m c) := (W47_of m ρ c main_v5 (by decide)).trans (at_v5_46 m ρ c)
theorem at_v5_48 : W48 m ρ c (Proc.devRef .tc main_v5) = K.ur (K.argsOf m c) := (W48_of m ρ c main_v5 (by decide)).trans (at_v5_47 m ρ c)
theorem at_v5_49 : W49 m ρ c (Proc.devRef .tc main_v5) = K.ur (K.argsOf m c) := (W49_of m ρ c main_v5 (by decide)).trans (at_v5_48 m ρ c)
theorem at_v5_50 : W50 m ρ c (Proc.devRef .tc main_v5) = K.ur (K.argsOf m c) := (W50_of m ρ c main_v5 (by decide)).trans (at_v5_49 m ρ c)
theorem at_v5_51 : W51 m ρ c (Proc.devRef .tc main_v5) = K.ur (K.argsOf m c) := (W51_of m ρ c main_v5 (by decide)).trans (at_v5_50 m ρ c)
theorem at_v257_50 : W50 m ρ c (Proc.devRef .tc main_v257) = K.ln2 (K.argsOf m c) := (W50_of m ρ c main_v257 (by decide)).trans (at_v257_49 m ρ c)
theorem at_v257_51 : W51 m ρ c (Proc.devRef .tc main_v257) = K.ln2 (K.argsOf m c) := (W51_of m ρ c main_v257 (by decide)).trans (at_v257_50 m ρ c)
theorem at_v276_52 : W52 m ρ c (Proc.devRef .tc main_v276) = C_v276 (F := Ideal) (K.ur (K.argsOf m c)) (K.ln2 (K.argsOf m c)) :=
  (congrArg (fun l => StableHlo.after l (W51 m ρ c) (Proc.devRef .tc main_v276)) hostOps6_3_eq).trans (rd_v276 (W51 m ρ c) (K.argsOf m c) (at_v5_51 m ρ c) (at_v257_51 m ρ c))
theorem at_v277_53 : W53 m ρ c (Proc.devRef .tc main_v277) = C_v277 (F := Ideal) (C_v276 (F := Ideal) (K.ur (K.argsOf m c)) (K.ln2 (K.argsOf m c))) :=
  rd_v277 (W52 m ρ c) (K.argsOf m c) (at_v276_52 m ρ c)
theorem at_v277_54 : W54 m ρ c (Proc.devRef .tc main_v277) = C_v277 (F := Ideal) (C_v276 (F := Ideal) (K.ur (K.argsOf m c)) (K.ln2 (K.argsOf m c))) := (W54_of m ρ c main_v277 (by decide)).trans (at_v277_53 m ρ c)
theorem at_v277_55 : W55 m ρ c (Proc.devRef .tc main_v277) = C_v277 (F := Ideal) (C_v276 (F := Ideal) (K.ur (K.argsOf m c)) (K.ln2 (K.argsOf m c))) := (W55_of m ρ c main_v277 (by decide)).trans (at_v277_54 m ρ c)
theorem at_c_39_55 : W55 m ρ c (Proc.devRef .tc main_c_39) = C_c_39 :=
  rd_c_39 (W54 m ρ c) (K.argsOf m c)
theorem at_v289_56 : W56 m ρ c (Proc.devRef .tc main_v289) = C_v289 (F := Ideal) (C_v277 (F := Ideal) (C_v276 (F := Ideal) (K.ur (K.argsOf m c)) (K.ln2 (K.argsOf m c)))) (C_c_39) :=
  (congrArg (fun l => StableHlo.after l (W55 m ρ c) (Proc.devRef .tc main_v289)) hostOps6_7_eq).trans (rd_v289 (W55 m ρ c) (K.argsOf m c) (at_v277_55 m ρ c) (at_c_39_55 m ρ c))
theorem at_v289_57 : W57 m ρ c (Proc.devRef .tc main_v289) = C_v289 (F := Ideal) (C_v277 (F := Ideal) (C_v276 (F := Ideal) (K.ur (K.argsOf m c)) (K.ln2 (K.argsOf m c)))) (C_c_39) := (W57_of m ρ c main_v289 (by decide)).trans (at_v289_56 m ρ c)
theorem at_v289_58 : W58 m ρ c (Proc.devRef .tc main_v289) = C_v289 (F := Ideal) (C_v277 (F := Ideal) (C_v276 (F := Ideal) (K.ur (K.argsOf m c)) (K.ln2 (K.argsOf m c)))) (C_c_39) := (W58_of m ρ c main_v289 (by decide)).trans (at_v289_57 m ρ c)
theorem at_v289_59 : W59 m ρ c (Proc.devRef .tc main_v289) = C_v289 (F := Ideal) (C_v277 (F := Ideal) (C_v276 (F := Ideal) (K.ur (K.argsOf m c)) (K.ln2 (K.argsOf m c)))) (C_c_39) := (W59_of m ρ c main_v289 (by decide)).trans (at_v289_58 m ρ c)
theorem at_v289_60 : W60 m ρ c (Proc.devRef .tc main_v289) = C_v289 (F := Ideal) (C_v277 (F := Ideal) (C_v276 (F := Ideal) (K.ur (K.argsOf m c)) (K.ln2 (K.argsOf m c)))) (C_c_39) := (W60_of m ρ c main_v289 (by decide)).trans (at_v289_59 m ρ c)
theorem at_v7_22 : W22 m ρ c (Proc.devRef .tc main_v7) = K.uc (K.argsOf m c) := (W22_of m ρ c main_v7 (by decide)).trans (at_v7_21 m ρ c)
theorem at_v7_23 : W23 m ρ c (Proc.devRef .tc main_v7) = K.uc (K.argsOf m c) := (W23_of m ρ c main_v7 (by decide)).trans (at_v7_22 m ρ c)
theorem at_v7_24 : W24 m ρ c (Proc.devRef .tc main_v7) = K.uc (K.argsOf m c) := (W24_of m ρ c main_v7 (by decide)).trans (at_v7_23 m ρ c)
theorem at_v7_25 : W25 m ρ c (Proc.devRef .tc main_v7) = K.uc (K.argsOf m c) := (W25_of m ρ c main_v7 (by decide)).trans (at_v7_24 m ρ c)
theorem at_v7_26 : W26 m ρ c (Proc.devRef .tc main_v7) = K.uc (K.argsOf m c) := (W26_of m ρ c main_v7 (by decide)).trans (at_v7_25 m ρ c)
theorem at_v7_27 : W27 m ρ c (Proc.devRef .tc main_v7) = K.uc (K.argsOf m c) := (W27_of m ρ c main_v7 (by decide)).trans (at_v7_26 m ρ c)
theorem at_v7_28 : W28 m ρ c (Proc.devRef .tc main_v7) = K.uc (K.argsOf m c) := (W28_of m ρ c main_v7 (by decide)).trans (at_v7_27 m ρ c)
theorem at_v7_29 : W29 m ρ c (Proc.devRef .tc main_v7) = K.uc (K.argsOf m c) := (W29_of m ρ c main_v7 (by decide)).trans (at_v7_28 m ρ c)
theorem at_v7_30 : W30 m ρ c (Proc.devRef .tc main_v7) = K.uc (K.argsOf m c) := (W30_of m ρ c main_v7 (by decide)).trans (at_v7_29 m ρ c)
theorem at_v7_31 : W31 m ρ c (Proc.devRef .tc main_v7) = K.uc (K.argsOf m c) := (W31_of m ρ c main_v7 (by decide)).trans (at_v7_30 m ρ c)
theorem at_v7_32 : W32 m ρ c (Proc.devRef .tc main_v7) = K.uc (K.argsOf m c) := (W32_of m ρ c main_v7 (by decide)).trans (at_v7_31 m ρ c)
theorem at_v7_33 : W33 m ρ c (Proc.devRef .tc main_v7) = K.uc (K.argsOf m c) := (W33_of m ρ c main_v7 (by decide)).trans (at_v7_32 m ρ c)
theorem at_v7_34 : W34 m ρ c (Proc.devRef .tc main_v7) = K.uc (K.argsOf m c) := (W34_of m ρ c main_v7 (by decide)).trans (at_v7_33 m ρ c)
theorem at_v7_35 : W35 m ρ c (Proc.devRef .tc main_v7) = K.uc (K.argsOf m c) := (W35_of m ρ c main_v7 (by decide)).trans (at_v7_34 m ρ c)
theorem at_v7_36 : W36 m ρ c (Proc.devRef .tc main_v7) = K.uc (K.argsOf m c) := (W36_of m ρ c main_v7 (by decide)).trans (at_v7_35 m ρ c)
theorem at_v7_37 : W37 m ρ c (Proc.devRef .tc main_v7) = K.uc (K.argsOf m c) := (W37_of m ρ c main_v7 (by decide)).trans (at_v7_36 m ρ c)
theorem at_v7_38 : W38 m ρ c (Proc.devRef .tc main_v7) = K.uc (K.argsOf m c) := (W38_of m ρ c main_v7 (by decide)).trans (at_v7_37 m ρ c)
theorem at_v7_39 : W39 m ρ c (Proc.devRef .tc main_v7) = K.uc (K.argsOf m c) := (W39_of m ρ c main_v7 (by decide)).trans (at_v7_38 m ρ c)
theorem at_v7_40 : W40 m ρ c (Proc.devRef .tc main_v7) = K.uc (K.argsOf m c) := (W40_of m ρ c main_v7 (by decide)).trans (at_v7_39 m ρ c)
theorem at_v7_41 : W41 m ρ c (Proc.devRef .tc main_v7) = K.uc (K.argsOf m c) := (W41_of m ρ c main_v7 (by decide)).trans (at_v7_40 m ρ c)
theorem at_v7_42 : W42 m ρ c (Proc.devRef .tc main_v7) = K.uc (K.argsOf m c) := (W42_of m ρ c main_v7 (by decide)).trans (at_v7_41 m ρ c)
theorem at_v7_43 : W43 m ρ c (Proc.devRef .tc main_v7) = K.uc (K.argsOf m c) := (W43_of m ρ c main_v7 (by decide)).trans (at_v7_42 m ρ c)
theorem at_v7_44 : W44 m ρ c (Proc.devRef .tc main_v7) = K.uc (K.argsOf m c) := (W44_of m ρ c main_v7 (by decide)).trans (at_v7_43 m ρ c)
theorem at_v7_45 : W45 m ρ c (Proc.devRef .tc main_v7) = K.uc (K.argsOf m c) := (W45_of m ρ c main_v7 (by decide)).trans (at_v7_44 m ρ c)
theorem at_v7_46 : W46 m ρ c (Proc.devRef .tc main_v7) = K.uc (K.argsOf m c) := (W46_of m ρ c main_v7 (by decide)).trans (at_v7_45 m ρ c)
theorem at_v7_47 : W47 m ρ c (Proc.devRef .tc main_v7) = K.uc (K.argsOf m c) := (W47_of m ρ c main_v7 (by decide)).trans (at_v7_46 m ρ c)
theorem at_v7_48 : W48 m ρ c (Proc.devRef .tc main_v7) = K.uc (K.argsOf m c) := (W48_of m ρ c main_v7 (by decide)).trans (at_v7_47 m ρ c)
theorem at_v7_49 : W49 m ρ c (Proc.devRef .tc main_v7) = K.uc (K.argsOf m c) := (W49_of m ρ c main_v7 (by decide)).trans (at_v7_48 m ρ c)
theorem at_v7_50 : W50 m ρ c (Proc.devRef .tc main_v7) = K.uc (K.argsOf m c) := (W50_of m ρ c main_v7 (by decide)).trans (at_v7_49 m ρ c)
theorem at_v7_51 : W51 m ρ c (Proc.devRef .tc main_v7) = K.uc (K.argsOf m c) := (W51_of m ρ c main_v7 (by decide)).trans (at_v7_50 m ρ c)
theorem at_v7_52 : W52 m ρ c (Proc.devRef .tc main_v7) = K.uc (K.argsOf m c) := (W52_of m ρ c main_v7 (by decide)).trans (at_v7_51 m ρ c)
theorem at_v7_53 : W53 m ρ c (Proc.devRef .tc main_v7) = K.uc (K.argsOf m c) := (W53_of m ρ c main_v7 (by decide)).trans (at_v7_52 m ρ c)
theorem at_v257_52 : W52 m ρ c (Proc.devRef .tc main_v257) = K.ln2 (K.argsOf m c) := (W52_of m ρ c main_v257 (by decide)).trans (at_v257_51 m ρ c)
theorem at_v257_53 : W53 m ρ c (Proc.devRef .tc main_v257) = K.ln2 (K.argsOf m c) := (W53_of m ρ c main_v257 (by decide)).trans (at_v257_52 m ρ c)
theorem at_v278_54 : W54 m ρ c (Proc.devRef .tc main_v278) = C_v278 (F := Ideal) (K.uc (K.argsOf m c)) (K.ln2 (K.argsOf m c)) :=
  (congrArg (fun l => StableHlo.after l (W53 m ρ c) (Proc.devRef .tc main_v278)) hostOps6_5_eq).trans (rd_v278 (W53 m ρ c) (K.argsOf m c) (at_v7_53 m ρ c) (at_v257_53 m ρ c))
theorem at_v279_55 : W55 m ρ c (Proc.devRef .tc main_v279) = C_v279 (F := Ideal) (C_v278 (F := Ideal) (K.uc (K.argsOf m c)) (K.ln2 (K.argsOf m c))) :=
  rd_v279 (W54 m ρ c) (K.argsOf m c) (at_v278_54 m ρ c)
theorem at_v279_56 : W56 m ρ c (Proc.devRef .tc main_v279) = C_v279 (F := Ideal) (C_v278 (F := Ideal) (K.uc (K.argsOf m c)) (K.ln2 (K.argsOf m c))) := (W56_of m ρ c main_v279 (by decide)).trans (at_v279_55 m ρ c)
theorem at_v279_57 : W57 m ρ c (Proc.devRef .tc main_v279) = C_v279 (F := Ideal) (C_v278 (F := Ideal) (K.uc (K.argsOf m c)) (K.ln2 (K.argsOf m c))) := (W57_of m ρ c main_v279 (by decide)).trans (at_v279_56 m ρ c)
theorem at_c_40_57 : W57 m ρ c (Proc.devRef .tc main_c_40) = C_c_40 :=
  rd_c_40 (W56 m ρ c) (K.argsOf m c)
theorem at_v290_58 : W58 m ρ c (Proc.devRef .tc main_v290) = C_v290 (F := Ideal) (C_v279 (F := Ideal) (C_v278 (F := Ideal) (K.uc (K.argsOf m c)) (K.ln2 (K.argsOf m c)))) (C_c_40) :=
  (congrArg (fun l => StableHlo.after l (W57 m ρ c) (Proc.devRef .tc main_v290)) hostOps6_9_eq).trans (rd_v290 (W57 m ρ c) (K.argsOf m c) (at_v279_57 m ρ c) (at_c_40_57 m ρ c))
theorem at_v290_59 : W59 m ρ c (Proc.devRef .tc main_v290) = C_v290 (F := Ideal) (C_v279 (F := Ideal) (C_v278 (F := Ideal) (K.uc (K.argsOf m c)) (K.ln2 (K.argsOf m c)))) (C_c_40) := (W59_of m ρ c main_v290 (by decide)).trans (at_v290_58 m ρ c)
theorem at_v290_60 : W60 m ρ c (Proc.devRef .tc main_v290) = C_v290 (F := Ideal) (C_v279 (F := Ideal) (C_v278 (F := Ideal) (K.uc (K.argsOf m c)) (K.ln2 (K.argsOf m c)))) (C_c_40) := (W60_of m ρ c main_v290 (by decide)).trans (at_v290_59 m ρ c)
theorem at_v274_52 : W52 m ρ c (Proc.devRef .tc main_v274) = K.uin1 (K.argsOf m c) := (W52_of m ρ c main_v274 (by decide)).trans (at_v274_51 m ρ c)
theorem at_v274_53 : W53 m ρ c (Proc.devRef .tc main_v274) = K.uin1 (K.argsOf m c) := (W53_of m ρ c main_v274 (by decide)).trans (at_v274_52 m ρ c)
theorem at_v274_54 : W54 m ρ c (Proc.devRef .tc main_v274) = K.uin1 (K.argsOf m c) := (W54_of m ρ c main_v274 (by decide)).trans (at_v274_53 m ρ c)
theorem at_v280_55 : W55 m ρ c (Proc.devRef .tc main_v280) = C_v280 (F := Ideal) (K.uin1 (K.argsOf m c)) :=
  rd_v280 (W54 m ρ c) (K.argsOf m c) (at_v274_54 m ρ c)
theorem at_v280_56 : W56 m ρ c (Proc.devRef .tc main_v280) = C_v280 (F := Ideal) (K.uin1 (K.argsOf m c)) := (W56_of m ρ c main_v280 (by decide)).trans (at_v280_55 m ρ c)
theorem at_v280_57 : W57 m ρ c (Proc.devRef .tc main_v280) = C_v280 (F := Ideal) (K.uin1 (K.argsOf m c)) := (W57_of m ρ c main_v280 (by decide)).trans (at_v280_56 m ρ c)
theorem at_v280_58 : W58 m ρ c (Proc.devRef .tc main_v280) = C_v280 (F := Ideal) (K.uin1 (K.argsOf m c)) := (W58_of m ρ c main_v280 (by decide)).trans (at_v280_57 m ρ c)
theorem at_v280_59 : W59 m ρ c (Proc.devRef .tc main_v280) = C_v280 (F := Ideal) (K.uin1 (K.argsOf m c)) := (W59_of m ρ c main_v280 (by decide)).trans (at_v280_58 m ρ c)
theorem at_c_41_59 : W59 m ρ c (Proc.devRef .tc main_c_41) = C_c_41 :=
  rd_c_41 (W58 m ρ c) (K.argsOf m c)
theorem at_v291_60 : W60 m ρ c (Proc.devRef .tc main_v291) = C_v291 (F := Ideal) (C_v280 (F := Ideal) (K.uin1 (K.argsOf m c))) (C_c_41) :=
  (congrArg (fun l => StableHlo.after l (W59 m ρ c) (Proc.devRef .tc main_v291)) hostOps6_11_eq).trans (rd_v291 (W59 m ρ c) (K.argsOf m c) (at_v280_59 m ρ c) (at_c_41_59 m ρ c))
theorem at_v204_37 : W37 m ρ c (Proc.devRef .tc main_v204) = K.P11_eW1 (K.argsOf m c) :=
  pr_v204 (W36 m ρ c) (K.argsOf m c) (at_arg5_36 m ρ c)
theorem at_v204_38 : W38 m ρ c (Proc.devRef .tc main_v204) = K.P11_eW1 (K.argsOf m c) := (W38_of m ρ c main_v204 (by decide)).trans (at_v204_37 m ρ c)
theorem at_v204_39 : W39 m ρ c (Proc.devRef .tc main_v204) = K.P11_eW1 (K.argsOf m c) := (W39_of m ρ c main_v204 (by decide)).trans (at_v204_38 m ρ c)
theorem at_v204_40 : W40 m ρ c (Proc.devRef .tc main_v204) = K.P11_eW1 (K.argsOf m c) := (W40_of m ρ c main_v204 (by decide)).trans (at_v204_39 m ρ c)
theorem at_v204_41 : W41 m ρ c (Proc.devRef .tc main_v204) = K.P11_eW1 (K.argsOf m c) := (W41_of m ρ c main_v204 (by decide)).trans (at_v204_40 m ρ c)
theorem at_v204_42 : W42 m ρ c (Proc.devRef .tc main_v204) = K.P11_eW1 (K.argsOf m c) := (W42_of m ρ c main_v204 (by decide)).trans (at_v204_41 m ρ c)
theorem at_v204_43 : W43 m ρ c (Proc.devRef .tc main_v204) = K.P11_eW1 (K.argsOf m c) := (W43_of m ρ c main_v204 (by decide)).trans (at_v204_42 m ρ c)
theorem at_v204_44 : W44 m ρ c (Proc.devRef .tc main_v204) = K.P11_eW1 (K.argsOf m c) := (W44_of m ρ c main_v204 (by decide)).trans (at_v204_43 m ρ c)
theorem at_v204_45 : W45 m ρ c (Proc.devRef .tc main_v204) = K.P11_eW1 (K.argsOf m c) := (W45_of m ρ c main_v204 (by decide)).trans (at_v204_44 m ρ c)
theorem at_v204_46 : W46 m ρ c (Proc.devRef .tc main_v204) = K.P11_eW1 (K.argsOf m c) := (W46_of m ρ c main_v204 (by decide)).trans (at_v204_45 m ρ c)
theorem at_v204_47 : W47 m ρ c (Proc.devRef .tc main_v204) = K.P11_eW1 (K.argsOf m c) := (W47_of m ρ c main_v204 (by decide)).trans (at_v204_46 m ρ c)
theorem at_v204_48 : W48 m ρ c (Proc.devRef .tc main_v204) = K.P11_eW1 (K.argsOf m c) := (W48_of m ρ c main_v204 (by decide)).trans (at_v204_47 m ρ c)
theorem at_v204_49 : W49 m ρ c (Proc.devRef .tc main_v204) = K.P11_eW1 (K.argsOf m c) := (W49_of m ρ c main_v204 (by decide)).trans (at_v204_48 m ρ c)
theorem at_v204_50 : W50 m ρ c (Proc.devRef .tc main_v204) = K.P11_eW1 (K.argsOf m c) := (W50_of m ρ c main_v204 (by decide)).trans (at_v204_49 m ρ c)
theorem at_v204_51 : W51 m ρ c (Proc.devRef .tc main_v204) = K.P11_eW1 (K.argsOf m c) := (W51_of m ρ c main_v204 (by decide)).trans (at_v204_50 m ρ c)
theorem at_v204_52 : W52 m ρ c (Proc.devRef .tc main_v204) = K.P11_eW1 (K.argsOf m c) := (W52_of m ρ c main_v204 (by decide)).trans (at_v204_51 m ρ c)
theorem at_v204_53 : W53 m ρ c (Proc.devRef .tc main_v204) = K.P11_eW1 (K.argsOf m c) := (W53_of m ρ c main_v204 (by decide)).trans (at_v204_52 m ρ c)
theorem at_v204_54 : W54 m ρ c (Proc.devRef .tc main_v204) = K.P11_eW1 (K.argsOf m c) := (W54_of m ρ c main_v204 (by decide)).trans (at_v204_53 m ρ c)
theorem at_v282_55 : W55 m ρ c (Proc.devRef .tc main_v282) = C_v282 (F := Ideal) (K.P11_eW1 (K.argsOf m c)) :=
  rd_v282 (W54 m ρ c) (K.argsOf m c) (at_v204_54 m ρ c)
theorem at_v282_56 : W56 m ρ c (Proc.devRef .tc main_v282) = C_v282 (F := Ideal) (K.P11_eW1 (K.argsOf m c)) := (W56_of m ρ c main_v282 (by decide)).trans (at_v282_55 m ρ c)
theorem at_v282_57 : W57 m ρ c (Proc.devRef .tc main_v282) = C_v282 (F := Ideal) (K.P11_eW1 (K.argsOf m c)) := (W57_of m ρ c main_v282 (by decide)).trans (at_v282_56 m ρ c)
theorem at_v282_58 : W58 m ρ c (Proc.devRef .tc main_v282) = C_v282 (F := Ideal) (K.P11_eW1 (K.argsOf m c)) := (W58_of m ρ c main_v282 (by decide)).trans (at_v282_57 m ρ c)
theorem at_v282_59 : W59 m ρ c (Proc.devRef .tc main_v282) = C_v282 (F := Ideal) (K.P11_eW1 (K.argsOf m c)) := (W59_of m ρ c main_v282 (by decide)).trans (at_v282_58 m ρ c)
theorem at_v282_60 : W60 m ρ c (Proc.devRef .tc main_v282) = C_v282 (F := Ideal) (K.P11_eW1 (K.argsOf m c)) := (W60_of m ρ c main_v282 (by decide)).trans (at_v282_59 m ρ c)
theorem at_v283_55 : W55 m ρ c (Proc.devRef .tc main_v283) = C_v283 (F := Ideal) (K.P11_eW1 (K.argsOf m c)) :=
  rd_v283 (W54 m ρ c) (K.argsOf m c) (at_v204_54 m ρ c)
theorem at_v283_56 : W56 m ρ c (Proc.devRef .tc main_v283) = C_v283 (F := Ideal) (K.P11_eW1 (K.argsOf m c)) := (W56_of m ρ c main_v283 (by decide)).trans (at_v283_55 m ρ c)
theorem at_v283_57 : W57 m ρ c (Proc.devRef .tc main_v283) = C_v283 (F := Ideal) (K.P11_eW1 (K.argsOf m c)) := (W57_of m ρ c main_v283 (by decide)).trans (at_v283_56 m ρ c)
theorem at_v283_58 : W58 m ρ c (Proc.devRef .tc main_v283) = C_v283 (F := Ideal) (K.P11_eW1 (K.argsOf m c)) := (W58_of m ρ c main_v283 (by decide)).trans (at_v283_57 m ρ c)
theorem at_v283_59 : W59 m ρ c (Proc.devRef .tc main_v283) = C_v283 (F := Ideal) (K.P11_eW1 (K.argsOf m c)) := (W59_of m ρ c main_v283 (by decide)).trans (at_v283_58 m ρ c)
theorem at_v283_60 : W60 m ρ c (Proc.devRef .tc main_v283) = C_v283 (F := Ideal) (K.P11_eW1 (K.argsOf m c)) := (W60_of m ρ c main_v283 (by decide)).trans (at_v283_59 m ρ c)
theorem at_v284_55 : W55 m ρ c (Proc.devRef .tc main_v284) = C_v284 (F := Ideal) (K.P11_eW1 (K.argsOf m c)) :=
  rd_v284 (W54 m ρ c) (K.argsOf m c) (at_v204_54 m ρ c)
theorem at_v284_56 : W56 m ρ c (Proc.devRef .tc main_v284) = C_v284 (F := Ideal) (K.P11_eW1 (K.argsOf m c)) := (W56_of m ρ c main_v284 (by decide)).trans (at_v284_55 m ρ c)
theorem at_v284_57 : W57 m ρ c (Proc.devRef .tc main_v284) = C_v284 (F := Ideal) (K.P11_eW1 (K.argsOf m c)) := (W57_of m ρ c main_v284 (by decide)).trans (at_v284_56 m ρ c)
theorem at_v284_58 : W58 m ρ c (Proc.devRef .tc main_v284) = C_v284 (F := Ideal) (K.P11_eW1 (K.argsOf m c)) := (W58_of m ρ c main_v284 (by decide)).trans (at_v284_57 m ρ c)
theorem at_v284_59 : W59 m ρ c (Proc.devRef .tc main_v284) = C_v284 (F := Ideal) (K.P11_eW1 (K.argsOf m c)) := (W59_of m ρ c main_v284 (by decide)).trans (at_v284_58 m ρ c)
theorem at_v284_60 : W60 m ρ c (Proc.devRef .tc main_v284) = C_v284 (F := Ideal) (K.P11_eW1 (K.argsOf m c)) := (W60_of m ρ c main_v284 (by decide)).trans (at_v284_59 m ρ c)
theorem at_v206_37 : W37 m ρ c (Proc.devRef .tc main_v206) = K.P11_eb1 (K.argsOf m c) :=
  pr_v206 (W36 m ρ c) (K.argsOf m c) (at_arg6_36 m ρ c)
theorem at_v206_38 : W38 m ρ c (Proc.devRef .tc main_v206) = K.P11_eb1 (K.argsOf m c) := (W38_of m ρ c main_v206 (by decide)).trans (at_v206_37 m ρ c)
theorem at_v206_39 : W39 m ρ c (Proc.devRef .tc main_v206) = K.P11_eb1 (K.argsOf m c) := (W39_of m ρ c main_v206 (by decide)).trans (at_v206_38 m ρ c)
theorem at_v206_40 : W40 m ρ c (Proc.devRef .tc main_v206) = K.P11_eb1 (K.argsOf m c) := (W40_of m ρ c main_v206 (by decide)).trans (at_v206_39 m ρ c)
theorem at_v206_41 : W41 m ρ c (Proc.devRef .tc main_v206) = K.P11_eb1 (K.argsOf m c) := (W41_of m ρ c main_v206 (by decide)).trans (at_v206_40 m ρ c)
theorem at_v206_42 : W42 m ρ c (Proc.devRef .tc main_v206) = K.P11_eb1 (K.argsOf m c) := (W42_of m ρ c main_v206 (by decide)).trans (at_v206_41 m ρ c)
theorem at_v206_43 : W43 m ρ c (Proc.devRef .tc main_v206) = K.P11_eb1 (K.argsOf m c) := (W43_of m ρ c main_v206 (by decide)).trans (at_v206_42 m ρ c)
theorem at_v206_44 : W44 m ρ c (Proc.devRef .tc main_v206) = K.P11_eb1 (K.argsOf m c) := (W44_of m ρ c main_v206 (by decide)).trans (at_v206_43 m ρ c)
theorem at_v206_45 : W45 m ρ c (Proc.devRef .tc main_v206) = K.P11_eb1 (K.argsOf m c) := (W45_of m ρ c main_v206 (by decide)).trans (at_v206_44 m ρ c)
theorem at_v206_46 : W46 m ρ c (Proc.devRef .tc main_v206) = K.P11_eb1 (K.argsOf m c) := (W46_of m ρ c main_v206 (by decide)).trans (at_v206_45 m ρ c)
theorem at_v206_47 : W47 m ρ c (Proc.devRef .tc main_v206) = K.P11_eb1 (K.argsOf m c) := (W47_of m ρ c main_v206 (by decide)).trans (at_v206_46 m ρ c)
theorem at_v206_48 : W48 m ρ c (Proc.devRef .tc main_v206) = K.P11_eb1 (K.argsOf m c) := (W48_of m ρ c main_v206 (by decide)).trans (at_v206_47 m ρ c)
theorem at_v206_49 : W49 m ρ c (Proc.devRef .tc main_v206) = K.P11_eb1 (K.argsOf m c) := (W49_of m ρ c main_v206 (by decide)).trans (at_v206_48 m ρ c)
theorem at_v206_50 : W50 m ρ c (Proc.devRef .tc main_v206) = K.P11_eb1 (K.argsOf m c) := (W50_of m ρ c main_v206 (by decide)).trans (at_v206_49 m ρ c)
theorem at_v206_51 : W51 m ρ c (Proc.devRef .tc main_v206) = K.P11_eb1 (K.argsOf m c) := (W51_of m ρ c main_v206 (by decide)).trans (at_v206_50 m ρ c)
theorem at_v206_52 : W52 m ρ c (Proc.devRef .tc main_v206) = K.P11_eb1 (K.argsOf m c) := (W52_of m ρ c main_v206 (by decide)).trans (at_v206_51 m ρ c)
theorem at_v206_53 : W53 m ρ c (Proc.devRef .tc main_v206) = K.P11_eb1 (K.argsOf m c) := (W53_of m ρ c main_v206 (by decide)).trans (at_v206_52 m ρ c)
theorem at_v206_54 : W54 m ρ c (Proc.devRef .tc main_v206) = K.P11_eb1 (K.argsOf m c) := (W54_of m ρ c main_v206 (by decide)).trans (at_v206_53 m ρ c)
theorem at_v273_52 : W52 m ρ c (Proc.devRef .tc main_v273) = K.g3 (K.argsOf m c) := (W52_of m ρ c main_v273 (by decide)).trans (at_v273_51 m ρ c)
theorem at_v273_53 : W53 m ρ c (Proc.devRef .tc main_v273) = K.g3 (K.argsOf m c) := (W53_of m ρ c main_v273 (by decide)).trans (at_v273_52 m ρ c)
theorem at_v273_54 : W54 m ρ c (Proc.devRef .tc main_v273) = K.g3 (K.argsOf m c) := (W54_of m ρ c main_v273 (by decide)).trans (at_v273_53 m ρ c)
theorem at_v287_55 : W55 m ρ c (Proc.devRef .tc main_v287) = C_v287 (F := Ideal) (K.P11_eb1 (K.argsOf m c)) (K.g3 (K.argsOf m c)) (K.P11_eW1 (K.argsOf m c)) :=
  rd_v287 (W54 m ρ c) (K.argsOf m c) (at_v206_54 m ρ c) (at_v273_54 m ρ c) (at_v204_54 m ρ c)
theorem at_v287_56 : W56 m ρ c (Proc.devRef .tc main_v287) = C_v287 (F := Ideal) (K.P11_eb1 (K.argsOf m c)) (K.g3 (K.argsOf m c)) (K.P11_eW1 (K.argsOf m c)) := (W56_of m ρ c main_v287 (by decide)).trans (at_v287_55 m ρ c)
theorem at_v287_57 : W57 m ρ c (Proc.devRef .tc main_v287) = C_v287 (F := Ideal) (K.P11_eb1 (K.argsOf m c)) (K.g3 (K.argsOf m c)) (K.P11_eW1 (K.argsOf m c)) := (W57_of m ρ c main_v287 (by decide)).trans (at_v287_56 m ρ c)
theorem at_v287_58 : W58 m ρ c (Proc.devRef .tc main_v287) = C_v287 (F := Ideal) (K.P11_eb1 (K.argsOf m c)) (K.g3 (K.argsOf m c)) (K.P11_eW1 (K.argsOf m c)) := (W58_of m ρ c main_v287 (by decide)).trans (at_v287_57 m ρ c)
theorem at_v287_59 : W59 m ρ c (Proc.devRef .tc main_v287) = C_v287 (F := Ideal) (K.P11_eb1 (K.argsOf m c)) (K.g3 (K.argsOf m c)) (K.P11_eW1 (K.argsOf m c)) := (W59_of m ρ c main_v287 (by decide)).trans (at_v287_58 m ρ c)
theorem at_v287_60 : W60 m ρ c (Proc.devRef .tc main_v287) = C_v287 (F := Ideal) (K.P11_eb1 (K.argsOf m c)) (K.g3 (K.argsOf m c)) (K.P11_eW1 (K.argsOf m c)) := (W60_of m ρ c main_v287 (by decide)).trans (at_v287_59 m ρ c)
theorem at_v208_37 : W37 m ρ c (Proc.devRef .tc main_v208) = K.P11_eW2 (K.argsOf m c) :=
  pr_v208 (W36 m ρ c) (K.argsOf m c) (at_arg7_36 m ρ c)
theorem at_v208_38 : W38 m ρ c (Proc.devRef .tc main_v208) = K.P11_eW2 (K.argsOf m c) := (W38_of m ρ c main_v208 (by decide)).trans (at_v208_37 m ρ c)
theorem at_v208_39 : W39 m ρ c (Proc.devRef .tc main_v208) = K.P11_eW2 (K.argsOf m c) := (W39_of m ρ c main_v208 (by decide)).trans (at_v208_38 m ρ c)
theorem at_v208_40 : W40 m ρ c (Proc.devRef .tc main_v208) = K.P11_eW2 (K.argsOf m c) := (W40_of m ρ c main_v208 (by decide)).trans (at_v208_39 m ρ c)
theorem at_v208_41 : W41 m ρ c (Proc.devRef .tc main_v208) = K.P11_eW2 (K.argsOf m c) := (W41_of m ρ c main_v208 (by decide)).trans (at_v208_40 m ρ c)
theorem at_v208_42 : W42 m ρ c (Proc.devRef .tc main_v208) = K.P11_eW2 (K.argsOf m c) := (W42_of m ρ c main_v208 (by decide)).trans (at_v208_41 m ρ c)
theorem at_v208_43 : W43 m ρ c (Proc.devRef .tc main_v208) = K.P11_eW2 (K.argsOf m c) := (W43_of m ρ c main_v208 (by decide)).trans (at_v208_42 m ρ c)
theorem at_v208_44 : W44 m ρ c (Proc.devRef .tc main_v208) = K.P11_eW2 (K.argsOf m c) := (W44_of m ρ c main_v208 (by decide)).trans (at_v208_43 m ρ c)
theorem at_v208_45 : W45 m ρ c (Proc.devRef .tc main_v208) = K.P11_eW2 (K.argsOf m c) := (W45_of m ρ c main_v208 (by decide)).trans (at_v208_44 m ρ c)
theorem at_v208_46 : W46 m ρ c (Proc.devRef .tc main_v208) = K.P11_eW2 (K.argsOf m c) := (W46_of m ρ c main_v208 (by decide)).trans (at_v208_45 m ρ c)
theorem at_v208_47 : W47 m ρ c (Proc.devRef .tc main_v208) = K.P11_eW2 (K.argsOf m c) := (W47_of m ρ c main_v208 (by decide)).trans (at_v208_46 m ρ c)
theorem at_v208_48 : W48 m ρ c (Proc.devRef .tc main_v208) = K.P11_eW2 (K.argsOf m c) := (W48_of m ρ c main_v208 (by decide)).trans (at_v208_47 m ρ c)
theorem at_v208_49 : W49 m ρ c (Proc.devRef .tc main_v208) = K.P11_eW2 (K.argsOf m c) := (W49_of m ρ c main_v208 (by decide)).trans (at_v208_48 m ρ c)
theorem at_v208_50 : W50 m ρ c (Proc.devRef .tc main_v208) = K.P11_eW2 (K.argsOf m c) := (W50_of m ρ c main_v208 (by decide)).trans (at_v208_49 m ρ c)
theorem at_v208_51 : W51 m ρ c (Proc.devRef .tc main_v208) = K.P11_eW2 (K.argsOf m c) := (W51_of m ρ c main_v208 (by decide)).trans (at_v208_50 m ρ c)
theorem at_v208_52 : W52 m ρ c (Proc.devRef .tc main_v208) = K.P11_eW2 (K.argsOf m c) := (W52_of m ρ c main_v208 (by decide)).trans (at_v208_51 m ρ c)
theorem at_v208_53 : W53 m ρ c (Proc.devRef .tc main_v208) = K.P11_eW2 (K.argsOf m c) := (W53_of m ρ c main_v208 (by decide)).trans (at_v208_52 m ρ c)
theorem at_v208_54 : W54 m ρ c (Proc.devRef .tc main_v208) = K.P11_eW2 (K.argsOf m c) := (W54_of m ρ c main_v208 (by decide)).trans (at_v208_53 m ρ c)
theorem at_v208_55 : W55 m ρ c (Proc.devRef .tc main_v208) = K.P11_eW2 (K.argsOf m c) := (W55_of m ρ c main_v208 (by decide)).trans (at_v208_54 m ρ c)
theorem at_v208_56 : W56 m ρ c (Proc.devRef .tc main_v208) = K.P11_eW2 (K.argsOf m c) := (W56_of m ρ c main_v208 (by decide)).trans (at_v208_55 m ρ c)
theorem at_v208_57 : W57 m ρ c (Proc.devRef .tc main_v208) = K.P11_eW2 (K.argsOf m c) := (W57_of m ρ c main_v208 (by decide)).trans (at_v208_56 m ρ c)
theorem at_v208_58 : W58 m ρ c (Proc.devRef .tc main_v208) = K.P11_eW2 (K.argsOf m c) := (W58_of m ρ c main_v208 (by decide)).trans (at_v208_57 m ρ c)
theorem at_v208_59 : W59 m ρ c (Proc.devRef .tc main_v208) = K.P11_eW2 (K.argsOf m c) := (W59_of m ρ c main_v208 (by decide)).trans (at_v208_58 m ρ c)
theorem at_v208_60 : W60 m ρ c (Proc.devRef .tc main_v208) = K.P11_eW2 (K.argsOf m c) := (W60_of m ρ c main_v208 (by decide)).trans (at_v208_59 m ρ c)
theorem at_v210_37 : W37 m ρ c (Proc.devRef .tc main_v210) = K.P11_eb2 (K.argsOf m c) :=
  pr_v210 (W36 m ρ c) (K.argsOf m c) (at_arg8_36 m ρ c)
theorem at_v210_38 : W38 m ρ c (Proc.devRef .tc main_v210) = K.P11_eb2 (K.argsOf m c) := (W38_of m ρ c main_v210 (by decide)).trans (at_v210_37 m ρ c)
theorem at_v210_39 : W39 m ρ c (Proc.devRef .tc main_v210) = K.P11_eb2 (K.argsOf m c) := (W39_of m ρ c main_v210 (by decide)).trans (at_v210_38 m ρ c)
theorem at_v210_40 : W40 m ρ c (Proc.devRef .tc main_v210) = K.P11_eb2 (K.argsOf m c) := (W40_of m ρ c main_v210 (by decide)).trans (at_v210_39 m ρ c)
theorem at_v210_41 : W41 m ρ c (Proc.devRef .tc main_v210) = K.P11_eb2 (K.argsOf m c) := (W41_of m ρ c main_v210 (by decide)).trans (at_v210_40 m ρ c)
theorem at_v210_42 : W42 m ρ c (Proc.devRef .tc main_v210) = K.P11_eb2 (K.argsOf m c) := (W42_of m ρ c main_v210 (by decide)).trans (at_v210_41 m ρ c)
theorem at_v210_43 : W43 m ρ c (Proc.devRef .tc main_v210) = K.P11_eb2 (K.argsOf m c) := (W43_of m ρ c main_v210 (by decide)).trans (at_v210_42 m ρ c)
theorem at_v210_44 : W44 m ρ c (Proc.devRef .tc main_v210) = K.P11_eb2 (K.argsOf m c) := (W44_of m ρ c main_v210 (by decide)).trans (at_v210_43 m ρ c)
theorem at_v210_45 : W45 m ρ c (Proc.devRef .tc main_v210) = K.P11_eb2 (K.argsOf m c) := (W45_of m ρ c main_v210 (by decide)).trans (at_v210_44 m ρ c)
theorem at_v210_46 : W46 m ρ c (Proc.devRef .tc main_v210) = K.P11_eb2 (K.argsOf m c) := (W46_of m ρ c main_v210 (by decide)).trans (at_v210_45 m ρ c)
theorem at_v210_47 : W47 m ρ c (Proc.devRef .tc main_v210) = K.P11_eb2 (K.argsOf m c) := (W47_of m ρ c main_v210 (by decide)).trans (at_v210_46 m ρ c)
theorem at_v210_48 : W48 m ρ c (Proc.devRef .tc main_v210) = K.P11_eb2 (K.argsOf m c) := (W48_of m ρ c main_v210 (by decide)).trans (at_v210_47 m ρ c)
theorem at_v210_49 : W49 m ρ c (Proc.devRef .tc main_v210) = K.P11_eb2 (K.argsOf m c) := (W49_of m ρ c main_v210 (by decide)).trans (at_v210_48 m ρ c)
theorem at_v210_50 : W50 m ρ c (Proc.devRef .tc main_v210) = K.P11_eb2 (K.argsOf m c) := (W50_of m ρ c main_v210 (by decide)).trans (at_v210_49 m ρ c)
theorem at_v210_51 : W51 m ρ c (Proc.devRef .tc main_v210) = K.P11_eb2 (K.argsOf m c) := (W51_of m ρ c main_v210 (by decide)).trans (at_v210_50 m ρ c)
theorem at_v210_52 : W52 m ρ c (Proc.devRef .tc main_v210) = K.P11_eb2 (K.argsOf m c) := (W52_of m ρ c main_v210 (by decide)).trans (at_v210_51 m ρ c)
theorem at_v210_53 : W53 m ρ c (Proc.devRef .tc main_v210) = K.P11_eb2 (K.argsOf m c) := (W53_of m ρ c main_v210 (by decide)).trans (at_v210_52 m ρ c)
theorem at_v210_54 : W54 m ρ c (Proc.devRef .tc main_v210) = K.P11_eb2 (K.argsOf m c) := (W54_of m ρ c main_v210 (by decide)).trans (at_v210_53 m ρ c)
theorem at_v288_55 : W55 m ρ c (Proc.devRef .tc main_v288) = C_v288 (F := Ideal) (K.P11_eb2 (K.argsOf m c)) :=
  rd_v288 (W54 m ρ c) (K.argsOf m c) (at_v210_54 m ρ c)
theorem at_v288_56 : W56 m ρ c (Proc.devRef .tc main_v288) = C_v288 (F := Ideal) (K.P11_eb2 (K.argsOf m c)) := (W56_of m ρ c main_v288 (by decide)).trans (at_v288_55 m ρ c)
theorem at_v288_57 : W57 m ρ c (Proc.devRef .tc main_v288) = C_v288 (F := Ideal) (K.P11_eb2 (K.argsOf m c)) := (W57_of m ρ c main_v288 (by decide)).trans (at_v288_56 m ρ c)
theorem at_v288_58 : W58 m ρ c (Proc.devRef .tc main_v288) = C_v288 (F := Ideal) (K.P11_eb2 (K.argsOf m c)) := (W58_of m ρ c main_v288 (by decide)).trans (at_v288_57 m ρ c)
theorem at_v288_59 : W59 m ρ c (Proc.devRef .tc main_v288) = C_v288 (F := Ideal) (K.P11_eb2 (K.argsOf m c)) := (W59_of m ρ c main_v288 (by decide)).trans (at_v288_58 m ρ c)
theorem at_v288_60 : W60 m ρ c (Proc.devRef .tc main_v288) = C_v288 (F := Ideal) (K.P11_eb2 (K.argsOf m c)) := (W60_of m ρ c main_v288 (by decide)).trans (at_v288_59 m ρ c)
theorem at_v292_61 : W61 m ρ c (Proc.devRef .tc main_v292) = K.edgeFn (C_v289 (F := Ideal) (C_v277 (F := Ideal) (C_v276 (F := Ideal) (K.ur (K.argsOf m c)) (K.ln2 (K.argsOf m c)))) (C_c_39)) (C_v290 (F := Ideal) (C_v279 (F := Ideal) (C_v278 (F := Ideal) (K.uc (K.argsOf m c)) (K.ln2 (K.argsOf m c)))) (C_c_40)) (C_v291 (F := Ideal) (C_v280 (F := Ideal) (K.uin1 (K.argsOf m c))) (C_c_41)) (C_v282 (F := Ideal) (K.P11_eW1 (K.argsOf m c))) (C_v283 (F := Ideal) (K.P11_eW1 (K.argsOf m c))) (C_v284 (F := Ideal) (K.P11_eW1 (K.argsOf m c))) (C_v287 (F := Ideal) (K.P11_eb1 (K.argsOf m c)) (K.g3 (K.argsOf m c)) (K.P11_eW1 (K.argsOf m c))) (K.P11_eW2 (K.argsOf m c)) (C_v288 (F := Ideal) (K.P11_eb2 (K.argsOf m c))) :=
  (R6_read m ρ c).trans (by rw [at_v289_60 m ρ c, at_v290_60 m ρ c, at_v291_60 m ρ c, at_v282_60 m ρ c, at_v283_60 m ρ c, at_v284_60 m ρ c, at_v287_60 m ρ c, at_v208_60 m ρ c, at_v288_60 m ρ c])
theorem at_v293_62 : W62 m ρ c (Proc.devRef .tc main_v293) = K.ue2 (K.argsOf m c) :=
  st_ue2 (W61 m ρ c) (K.argsOf m c) (at_v292_61 m ρ c)
theorem at_v5_52 : W52 m ρ c (Proc.devRef .tc main_v5) = K.ur (K.argsOf m c) := (W52_of m ρ c main_v5 (by decide)).trans (at_v5_51 m ρ c)
theorem at_v5_53 : W53 m ρ c (Proc.devRef .tc main_v5) = K.ur (K.argsOf m c) := (W53_of m ρ c main_v5 (by decide)).trans (at_v5_52 m ρ c)
theorem at_v5_54 : W54 m ρ c (Proc.devRef .tc main_v5) = K.ur (K.argsOf m c) := (W54_of m ρ c main_v5 (by decide)).trans (at_v5_53 m ρ c)
theorem at_v5_55 : W55 m ρ c (Proc.devRef .tc main_v5) = K.ur (K.argsOf m c) := (W55_of m ρ c main_v5 (by decide)).trans (at_v5_54 m ρ c)
theorem at_v5_56 : W56 m ρ c (Proc.devRef .tc main_v5) = K.ur (K.argsOf m c) := (W56_of m ρ c main_v5 (by decide)).trans (at_v5_55 m ρ c)
theorem at_v5_57 : W57 m ρ c (Proc.devRef .tc main_v5) = K.ur (K.argsOf m c) := (W57_of m ρ c main_v5 (by decide)).trans (at_v5_56 m ρ c)
theorem at_v5_58 : W58 m ρ c (Proc.devRef .tc main_v5) = K.ur (K.argsOf m c) := (W58_of m ρ c main_v5 (by decide)).trans (at_v5_57 m ρ c)
theorem at_v5_59 : W59 m ρ c (Proc.devRef .tc main_v5) = K.ur (K.argsOf m c) := (W59_of m ρ c main_v5 (by decide)).trans (at_v5_58 m ρ c)
theorem at_v5_60 : W60 m ρ c (Proc.devRef .tc main_v5) = K.ur (K.argsOf m c) := (W60_of m ρ c main_v5 (by decide)).trans (at_v5_59 m ρ c)
theorem at_v5_61 : W61 m ρ c (Proc.devRef .tc main_v5) = K.ur (K.argsOf m c) := (W61_of m ρ c main_v5 (by decide)).trans (at_v5_60 m ρ c)
theorem at_v23_30 : W30 m ρ c (Proc.devRef .tc main_v23) = C_v23 (F := Ideal) ((K.argsOf m c).a2) := (W30_of m ρ c main_v23 (by decide)).trans (at_v23_29 m ρ c)
theorem at_v23_31 : W31 m ρ c (Proc.devRef .tc main_v23) = C_v23 (F := Ideal) ((K.argsOf m c).a2) := (W31_of m ρ c main_v23 (by decide)).trans (at_v23_30 m ρ c)
theorem at_v23_32 : W32 m ρ c (Proc.devRef .tc main_v23) = C_v23 (F := Ideal) ((K.argsOf m c).a2) := (W32_of m ρ c main_v23 (by decide)).trans (at_v23_31 m ρ c)
theorem at_v23_33 : W33 m ρ c (Proc.devRef .tc main_v23) = C_v23 (F := Ideal) ((K.argsOf m c).a2) := (W33_of m ρ c main_v23 (by decide)).trans (at_v23_32 m ρ c)
theorem at_v23_34 : W34 m ρ c (Proc.devRef .tc main_v23) = C_v23 (F := Ideal) ((K.argsOf m c).a2) := (W34_of m ρ c main_v23 (by decide)).trans (at_v23_33 m ρ c)
theorem at_v23_35 : W35 m ρ c (Proc.devRef .tc main_v23) = C_v23 (F := Ideal) ((K.argsOf m c).a2) := (W35_of m ρ c main_v23 (by decide)).trans (at_v23_34 m ρ c)
theorem at_v23_36 : W36 m ρ c (Proc.devRef .tc main_v23) = C_v23 (F := Ideal) ((K.argsOf m c).a2) := (W36_of m ρ c main_v23 (by decide)).trans (at_v23_35 m ρ c)
theorem at_v23_37 : W37 m ρ c (Proc.devRef .tc main_v23) = C_v23 (F := Ideal) ((K.argsOf m c).a2) := (W37_of m ρ c main_v23 (by decide)).trans (at_v23_36 m ρ c)
theorem at_v23_38 : W38 m ρ c (Proc.devRef .tc main_v23) = C_v23 (F := Ideal) ((K.argsOf m c).a2) := (W38_of m ρ c main_v23 (by decide)).trans (at_v23_37 m ρ c)
theorem at_v23_39 : W39 m ρ c (Proc.devRef .tc main_v23) = C_v23 (F := Ideal) ((K.argsOf m c).a2) := (W39_of m ρ c main_v23 (by decide)).trans (at_v23_38 m ρ c)
theorem at_v23_40 : W40 m ρ c (Proc.devRef .tc main_v23) = C_v23 (F := Ideal) ((K.argsOf m c).a2) := (W40_of m ρ c main_v23 (by decide)).trans (at_v23_39 m ρ c)
theorem at_v23_41 : W41 m ρ c (Proc.devRef .tc main_v23) = C_v23 (F := Ideal) ((K.argsOf m c).a2) := (W41_of m ρ c main_v23 (by decide)).trans (at_v23_40 m ρ c)
theorem at_v23_42 : W42 m ρ c (Proc.devRef .tc main_v23) = C_v23 (F := Ideal) ((K.argsOf m c).a2) := (W42_of m ρ c main_v23 (by decide)).trans (at_v23_41 m ρ c)
theorem at_v23_43 : W43 m ρ c (Proc.devRef .tc main_v23) = C_v23 (F := Ideal) ((K.argsOf m c).a2) := (W43_of m ρ c main_v23 (by decide)).trans (at_v23_42 m ρ c)
theorem at_v23_44 : W44 m ρ c (Proc.devRef .tc main_v23) = C_v23 (F := Ideal) ((K.argsOf m c).a2) := (W44_of m ρ c main_v23 (by decide)).trans (at_v23_43 m ρ c)
theorem at_v23_45 : W45 m ρ c (Proc.devRef .tc main_v23) = C_v23 (F := Ideal) ((K.argsOf m c).a2) := (W45_of m ρ c main_v23 (by decide)).trans (at_v23_44 m ρ c)
theorem at_v23_46 : W46 m ρ c (Proc.devRef .tc main_v23) = C_v23 (F := Ideal) ((K.argsOf m c).a2) := (W46_of m ρ c main_v23 (by decide)).trans (at_v23_45 m ρ c)
theorem at_v23_47 : W47 m ρ c (Proc.devRef .tc main_v23) = C_v23 (F := Ideal) ((K.argsOf m c).a2) := (W47_of m ρ c main_v23 (by decide)).trans (at_v23_46 m ρ c)
theorem at_v23_48 : W48 m ρ c (Proc.devRef .tc main_v23) = C_v23 (F := Ideal) ((K.argsOf m c).a2) := (W48_of m ρ c main_v23 (by decide)).trans (at_v23_47 m ρ c)
theorem at_v23_49 : W49 m ρ c (Proc.devRef .tc main_v23) = C_v23 (F := Ideal) ((K.argsOf m c).a2) := (W49_of m ρ c main_v23 (by decide)).trans (at_v23_48 m ρ c)
theorem at_v23_50 : W50 m ρ c (Proc.devRef .tc main_v23) = C_v23 (F := Ideal) ((K.argsOf m c).a2) := (W50_of m ρ c main_v23 (by decide)).trans (at_v23_49 m ρ c)
theorem at_v23_51 : W51 m ρ c (Proc.devRef .tc main_v23) = C_v23 (F := Ideal) ((K.argsOf m c).a2) := (W51_of m ρ c main_v23 (by decide)).trans (at_v23_50 m ρ c)
theorem at_v23_52 : W52 m ρ c (Proc.devRef .tc main_v23) = C_v23 (F := Ideal) ((K.argsOf m c).a2) := (W52_of m ρ c main_v23 (by decide)).trans (at_v23_51 m ρ c)
theorem at_v23_53 : W53 m ρ c (Proc.devRef .tc main_v23) = C_v23 (F := Ideal) ((K.argsOf m c).a2) := (W53_of m ρ c main_v23 (by decide)).trans (at_v23_52 m ρ c)
theorem at_v23_54 : W54 m ρ c (Proc.devRef .tc main_v23) = C_v23 (F := Ideal) ((K.argsOf m c).a2) := (W54_of m ρ c main_v23 (by decide)).trans (at_v23_53 m ρ c)
theorem at_v23_55 : W55 m ρ c (Proc.devRef .tc main_v23) = C_v23 (F := Ideal) ((K.argsOf m c).a2) := (W55_of m ρ c main_v23 (by decide)).trans (at_v23_54 m ρ c)
theorem at_v23_56 : W56 m ρ c (Proc.devRef .tc main_v23) = C_v23 (F := Ideal) ((K.argsOf m c).a2) := (W56_of m ρ c main_v23 (by decide)).trans (at_v23_55 m ρ c)
theorem at_v23_57 : W57 m ρ c (Proc.devRef .tc main_v23) = C_v23 (F := Ideal) ((K.argsOf m c).a2) := (W57_of m ρ c main_v23 (by decide)).trans (at_v23_56 m ρ c)
theorem at_v23_58 : W58 m ρ c (Proc.devRef .tc main_v23) = C_v23 (F := Ideal) ((K.argsOf m c).a2) := (W58_of m ρ c main_v23 (by decide)).trans (at_v23_57 m ρ c)
theorem at_v23_59 : W59 m ρ c (Proc.devRef .tc main_v23) = C_v23 (F := Ideal) ((K.argsOf m c).a2) := (W59_of m ρ c main_v23 (by decide)).trans (at_v23_58 m ρ c)
theorem at_v23_60 : W60 m ρ c (Proc.devRef .tc main_v23) = C_v23 (F := Ideal) ((K.argsOf m c).a2) := (W60_of m ρ c main_v23 (by decide)).trans (at_v23_59 m ρ c)
theorem at_v23_61 : W61 m ρ c (Proc.devRef .tc main_v23) = C_v23 (F := Ideal) ((K.argsOf m c).a2) := (W61_of m ρ c main_v23 (by decide)).trans (at_v23_60 m ρ c)
theorem at_v298_62 : W62 m ρ c (Proc.devRef .tc main_v298) = K.ua2 (K.argsOf m c) :=
  st_ua2 (W61 m ρ c) (K.argsOf m c) (at_v5_61 m ρ c) (at_v292_61 m ρ c) (at_v23_61 m ρ c)
theorem at_v275_51 : W51 m ρ c (Proc.devRef .tc main_v275) = C_v275 (F := Ideal) (K.ln2 (K.argsOf m c)) :=
  rd_v275 (W50 m ρ c) (K.argsOf m c) (at_v257_50 m ρ c)
theorem at_v275_52 : W52 m ρ c (Proc.devRef .tc main_v275) = C_v275 (F := Ideal) (K.ln2 (K.argsOf m c)) := (W52_of m ρ c main_v275 (by decide)).trans (at_v275_51 m ρ c)
theorem at_v275_53 : W53 m ρ c (Proc.devRef .tc main_v275) = C_v275 (F := Ideal) (K.ln2 (K.argsOf m c)) := (W53_of m ρ c main_v275 (by decide)).trans (at_v275_52 m ρ c)
theorem at_v275_54 : W54 m ρ c (Proc.devRef .tc main_v275) = C_v275 (F := Ideal) (K.ln2 (K.argsOf m c)) := (W54_of m ρ c main_v275 (by decide)).trans (at_v275_53 m ρ c)
theorem at_v275_55 : W55 m ρ c (Proc.devRef .tc main_v275) = C_v275 (F := Ideal) (K.ln2 (K.argsOf m c)) := (W55_of m ρ c main_v275 (by decide)).trans (at_v275_54 m ρ c)
theorem at_v275_56 : W56 m ρ c (Proc.devRef .tc main_v275) = C_v275 (F := Ideal) (K.ln2 (K.argsOf m c)) := (W56_of m ρ c main_v275 (by decide)).trans (at_v275_55 m ρ c)
theorem at_v275_57 : W57 m ρ c (Proc.devRef .tc main_v275) = C_v275 (F := Ideal) (K.ln2 (K.argsOf m c)) := (W57_of m ρ c main_v275 (by decide)).trans (at_v275_56 m ρ c)
theorem at_v275_58 : W58 m ρ c (Proc.devRef .tc main_v275) = C_v275 (F := Ideal) (K.ln2 (K.argsOf m c)) := (W58_of m ρ c main_v275 (by decide)).trans (at_v275_57 m ρ c)
theorem at_v275_59 : W59 m ρ c (Proc.devRef .tc main_v275) = C_v275 (F := Ideal) (K.ln2 (K.argsOf m c)) := (W59_of m ρ c main_v275 (by decide)).trans (at_v275_58 m ρ c)
theorem at_v275_60 : W60 m ρ c (Proc.devRef .tc main_v275) = C_v275 (F := Ideal) (K.ln2 (K.argsOf m c)) := (W60_of m ρ c main_v275 (by decide)).trans (at_v275_59 m ρ c)
theorem at_v275_61 : W61 m ρ c (Proc.devRef .tc main_v275) = C_v275 (F := Ideal) (K.ln2 (K.argsOf m c)) := (W61_of m ρ c main_v275 (by decide)).trans (at_v275_60 m ρ c)
theorem at_v275_62 : W62 m ρ c (Proc.devRef .tc main_v275) = C_v275 (F := Ideal) (K.ln2 (K.argsOf m c)) := (W62_of m ρ c main_v275 (by decide)).trans (at_v275_61 m ρ c)
theorem at_c_43_62 : W62 m ρ c (Proc.devRef .tc main_c_43) = C_c_43 :=
  rd_c_43 (W61 m ρ c) (K.argsOf m c)
theorem at_v306_63 : W63 m ρ c (Proc.devRef .tc main_v306) = C_v306 (F := Ideal) (C_v275 (F := Ideal) (K.ln2 (K.argsOf m c))) (C_c_43) :=
  (congrArg (fun l => StableHlo.after l (W62 m ρ c) (Proc.devRef .tc main_v306)) hostOps7_1_eq).trans (rd_v306 (W62 m ρ c) (K.argsOf m c) (at_v275_62 m ρ c) (at_c_43_62 m ρ c))
theorem at_v306_64 : W64 m ρ c (Proc.devRef .tc main_v306) = C_v306 (F := Ideal) (C_v275 (F := Ideal) (K.ln2 (K.argsOf m c))) (C_c_43) := (W64_of m ρ c main_v306 (by decide)).trans (at_v306_63 m ρ c)
theorem at_v306_65 : W65 m ρ c (Proc.devRef .tc main_v306) = C_v306 (F := Ideal) (C_v275 (F := Ideal) (K.ln2 (K.argsOf m c))) (C_c_43) := (W65_of m ρ c main_v306 (by decide)).trans (at_v306_64 m ρ c)
theorem at_v298_63 : W63 m ρ c (Proc.devRef .tc main_v298) = K.ua2 (K.argsOf m c) := (W63_of m ρ c main_v298 (by decide)).trans (at_v298_62 m ρ c)
theorem at_v298_64 : W64 m ρ c (Proc.devRef .tc main_v298) = K.ua2 (K.argsOf m c) := (W64_of m ρ c main_v298 (by decide)).trans (at_v298_63 m ρ c)
theorem at_c_44_64 : W64 m ρ c (Proc.devRef .tc main_c_44) = C_c_44 :=
  rd_c_44 (W63 m ρ c) (K.argsOf m c)
theorem at_v307_65 : W65 m ρ c (Proc.devRef .tc main_v307) = C_v307 (F := Ideal) (K.ua2 (K.argsOf m c)) (C_c_44) :=
  (congrArg (fun l => StableHlo.after l (W64 m ρ c) (Proc.devRef .tc main_v307)) hostOps7_3_eq).trans (rd_v307 (W64 m ρ c) (K.argsOf m c) (at_v298_64 m ρ c) (at_c_44_64 m ρ c))
theorem at_v212_37 : W37 m ρ c (Proc.devRef .tc main_v212) = K.P11_nW1 (K.argsOf m c) :=
  pr_v212 (W36 m ρ c) (K.argsOf m c) (at_arg9_36 m ρ c)
theorem at_v212_38 : W38 m ρ c (Proc.devRef .tc main_v212) = K.P11_nW1 (K.argsOf m c) := (W38_of m ρ c main_v212 (by decide)).trans (at_v212_37 m ρ c)
theorem at_v212_39 : W39 m ρ c (Proc.devRef .tc main_v212) = K.P11_nW1 (K.argsOf m c) := (W39_of m ρ c main_v212 (by decide)).trans (at_v212_38 m ρ c)
theorem at_v212_40 : W40 m ρ c (Proc.devRef .tc main_v212) = K.P11_nW1 (K.argsOf m c) := (W40_of m ρ c main_v212 (by decide)).trans (at_v212_39 m ρ c)
theorem at_v212_41 : W41 m ρ c (Proc.devRef .tc main_v212) = K.P11_nW1 (K.argsOf m c) := (W41_of m ρ c main_v212 (by decide)).trans (at_v212_40 m ρ c)
theorem at_v212_42 : W42 m ρ c (Proc.devRef .tc main_v212) = K.P11_nW1 (K.argsOf m c) := (W42_of m ρ c main_v212 (by decide)).trans (at_v212_41 m ρ c)
theorem at_v212_43 : W43 m ρ c (Proc.devRef .tc main_v212) = K.P11_nW1 (K.argsOf m c) := (W43_of m ρ c main_v212 (by decide)).trans (at_v212_42 m ρ c)
theorem at_v212_44 : W44 m ρ c (Proc.devRef .tc main_v212) = K.P11_nW1 (K.argsOf m c) := (W44_of m ρ c main_v212 (by decide)).trans (at_v212_43 m ρ c)
theorem at_v212_45 : W45 m ρ c (Proc.devRef .tc main_v212) = K.P11_nW1 (K.argsOf m c) := (W45_of m ρ c main_v212 (by decide)).trans (at_v212_44 m ρ c)
theorem at_v212_46 : W46 m ρ c (Proc.devRef .tc main_v212) = K.P11_nW1 (K.argsOf m c) := (W46_of m ρ c main_v212 (by decide)).trans (at_v212_45 m ρ c)
theorem at_v212_47 : W47 m ρ c (Proc.devRef .tc main_v212) = K.P11_nW1 (K.argsOf m c) := (W47_of m ρ c main_v212 (by decide)).trans (at_v212_46 m ρ c)
theorem at_v212_48 : W48 m ρ c (Proc.devRef .tc main_v212) = K.P11_nW1 (K.argsOf m c) := (W48_of m ρ c main_v212 (by decide)).trans (at_v212_47 m ρ c)
theorem at_v212_49 : W49 m ρ c (Proc.devRef .tc main_v212) = K.P11_nW1 (K.argsOf m c) := (W49_of m ρ c main_v212 (by decide)).trans (at_v212_48 m ρ c)
theorem at_v212_50 : W50 m ρ c (Proc.devRef .tc main_v212) = K.P11_nW1 (K.argsOf m c) := (W50_of m ρ c main_v212 (by decide)).trans (at_v212_49 m ρ c)
theorem at_v212_51 : W51 m ρ c (Proc.devRef .tc main_v212) = K.P11_nW1 (K.argsOf m c) := (W51_of m ρ c main_v212 (by decide)).trans (at_v212_50 m ρ c)
theorem at_v212_52 : W52 m ρ c (Proc.devRef .tc main_v212) = K.P11_nW1 (K.argsOf m c) := (W52_of m ρ c main_v212 (by decide)).trans (at_v212_51 m ρ c)
theorem at_v212_53 : W53 m ρ c (Proc.devRef .tc main_v212) = K.P11_nW1 (K.argsOf m c) := (W53_of m ρ c main_v212 (by decide)).trans (at_v212_52 m ρ c)
theorem at_v212_54 : W54 m ρ c (Proc.devRef .tc main_v212) = K.P11_nW1 (K.argsOf m c) := (W54_of m ρ c main_v212 (by decide)).trans (at_v212_53 m ρ c)
theorem at_v212_55 : W55 m ρ c (Proc.devRef .tc main_v212) = K.P11_nW1 (K.argsOf m c) := (W55_of m ρ c main_v212 (by decide)).trans (at_v212_54 m ρ c)
theorem at_v212_56 : W56 m ρ c (Proc.devRef .tc main_v212) = K.P11_nW1 (K.argsOf m c) := (W56_of m ρ c main_v212 (by decide)).trans (at_v212_55 m ρ c)
theorem at_v212_57 : W57 m ρ c (Proc.devRef .tc main_v212) = K.P11_nW1 (K.argsOf m c) := (W57_of m ρ c main_v212 (by decide)).trans (at_v212_56 m ρ c)
theorem at_v212_58 : W58 m ρ c (Proc.devRef .tc main_v212) = K.P11_nW1 (K.argsOf m c) := (W58_of m ρ c main_v212 (by decide)).trans (at_v212_57 m ρ c)
theorem at_v212_59 : W59 m ρ c (Proc.devRef .tc main_v212) = K.P11_nW1 (K.argsOf m c) := (W59_of m ρ c main_v212 (by decide)).trans (at_v212_58 m ρ c)
theorem at_v212_60 : W60 m ρ c (Proc.devRef .tc main_v212) = K.P11_nW1 (K.argsOf m c) := (W60_of m ρ c main_v212 (by decide)).trans (at_v212_59 m ρ c)
theorem at_v212_61 : W61 m ρ c (Proc.devRef .tc main_v212) = K.P11_nW1 (K.argsOf m c) := (W61_of m ρ c main_v212 (by decide)).trans (at_v212_60 m ρ c)
theorem at_v300_62 : W62 m ρ c (Proc.devRef .tc main_v300) = C_v300 (F := Ideal) (K.P11_nW1 (K.argsOf m c)) :=
  rd_v300 (W61 m ρ c) (K.argsOf m c) (at_v212_61 m ρ c)
theorem at_v300_63 : W63 m ρ c (Proc.devRef .tc main_v300) = C_v300 (F := Ideal) (K.P11_nW1 (K.argsOf m c)) := (W63_of m ρ c main_v300 (by decide)).trans (at_v300_62 m ρ c)
theorem at_v300_64 : W64 m ρ c (Proc.devRef .tc main_v300) = C_v300 (F := Ideal) (K.P11_nW1 (K.argsOf m c)) := (W64_of m ρ c main_v300 (by decide)).trans (at_v300_63 m ρ c)
theorem at_v300_65 : W65 m ρ c (Proc.devRef .tc main_v300) = C_v300 (F := Ideal) (K.P11_nW1 (K.argsOf m c)) := (W65_of m ρ c main_v300 (by decide)).trans (at_v300_64 m ρ c)
theorem at_v301_62 : W62 m ρ c (Proc.devRef .tc main_v301) = C_v301 (F := Ideal) (K.P11_nW1 (K.argsOf m c)) :=
  rd_v301 (W61 m ρ c) (K.argsOf m c) (at_v212_61 m ρ c)
theorem at_v301_63 : W63 m ρ c (Proc.devRef .tc main_v301) = C_v301 (F := Ideal) (K.P11_nW1 (K.argsOf m c)) := (W63_of m ρ c main_v301 (by decide)).trans (at_v301_62 m ρ c)
theorem at_v301_64 : W64 m ρ c (Proc.devRef .tc main_v301) = C_v301 (F := Ideal) (K.P11_nW1 (K.argsOf m c)) := (W64_of m ρ c main_v301 (by decide)).trans (at_v301_63 m ρ c)
theorem at_v301_65 : W65 m ρ c (Proc.devRef .tc main_v301) = C_v301 (F := Ideal) (K.P11_nW1 (K.argsOf m c)) := (W65_of m ρ c main_v301 (by decide)).trans (at_v301_64 m ρ c)
theorem at_v214_37 : W37 m ρ c (Proc.devRef .tc main_v214) = K.P11_nb1 (K.argsOf m c) :=
  pr_v214 (W36 m ρ c) (K.argsOf m c) (at_arg10_36 m ρ c)
theorem at_v214_38 : W38 m ρ c (Proc.devRef .tc main_v214) = K.P11_nb1 (K.argsOf m c) := (W38_of m ρ c main_v214 (by decide)).trans (at_v214_37 m ρ c)
theorem at_v214_39 : W39 m ρ c (Proc.devRef .tc main_v214) = K.P11_nb1 (K.argsOf m c) := (W39_of m ρ c main_v214 (by decide)).trans (at_v214_38 m ρ c)
theorem at_v214_40 : W40 m ρ c (Proc.devRef .tc main_v214) = K.P11_nb1 (K.argsOf m c) := (W40_of m ρ c main_v214 (by decide)).trans (at_v214_39 m ρ c)
theorem at_v214_41 : W41 m ρ c (Proc.devRef .tc main_v214) = K.P11_nb1 (K.argsOf m c) := (W41_of m ρ c main_v214 (by decide)).trans (at_v214_40 m ρ c)
theorem at_v214_42 : W42 m ρ c (Proc.devRef .tc main_v214) = K.P11_nb1 (K.argsOf m c) := (W42_of m ρ c main_v214 (by decide)).trans (at_v214_41 m ρ c)
theorem at_v214_43 : W43 m ρ c (Proc.devRef .tc main_v214) = K.P11_nb1 (K.argsOf m c) := (W43_of m ρ c main_v214 (by decide)).trans (at_v214_42 m ρ c)
theorem at_v214_44 : W44 m ρ c (Proc.devRef .tc main_v214) = K.P11_nb1 (K.argsOf m c) := (W44_of m ρ c main_v214 (by decide)).trans (at_v214_43 m ρ c)
theorem at_v214_45 : W45 m ρ c (Proc.devRef .tc main_v214) = K.P11_nb1 (K.argsOf m c) := (W45_of m ρ c main_v214 (by decide)).trans (at_v214_44 m ρ c)
theorem at_v214_46 : W46 m ρ c (Proc.devRef .tc main_v214) = K.P11_nb1 (K.argsOf m c) := (W46_of m ρ c main_v214 (by decide)).trans (at_v214_45 m ρ c)
theorem at_v214_47 : W47 m ρ c (Proc.devRef .tc main_v214) = K.P11_nb1 (K.argsOf m c) := (W47_of m ρ c main_v214 (by decide)).trans (at_v214_46 m ρ c)
theorem at_v214_48 : W48 m ρ c (Proc.devRef .tc main_v214) = K.P11_nb1 (K.argsOf m c) := (W48_of m ρ c main_v214 (by decide)).trans (at_v214_47 m ρ c)
theorem at_v214_49 : W49 m ρ c (Proc.devRef .tc main_v214) = K.P11_nb1 (K.argsOf m c) := (W49_of m ρ c main_v214 (by decide)).trans (at_v214_48 m ρ c)
theorem at_v214_50 : W50 m ρ c (Proc.devRef .tc main_v214) = K.P11_nb1 (K.argsOf m c) := (W50_of m ρ c main_v214 (by decide)).trans (at_v214_49 m ρ c)
theorem at_v214_51 : W51 m ρ c (Proc.devRef .tc main_v214) = K.P11_nb1 (K.argsOf m c) := (W51_of m ρ c main_v214 (by decide)).trans (at_v214_50 m ρ c)
theorem at_v214_52 : W52 m ρ c (Proc.devRef .tc main_v214) = K.P11_nb1 (K.argsOf m c) := (W52_of m ρ c main_v214 (by decide)).trans (at_v214_51 m ρ c)
theorem at_v214_53 : W53 m ρ c (Proc.devRef .tc main_v214) = K.P11_nb1 (K.argsOf m c) := (W53_of m ρ c main_v214 (by decide)).trans (at_v214_52 m ρ c)
theorem at_v214_54 : W54 m ρ c (Proc.devRef .tc main_v214) = K.P11_nb1 (K.argsOf m c) := (W54_of m ρ c main_v214 (by decide)).trans (at_v214_53 m ρ c)
theorem at_v214_55 : W55 m ρ c (Proc.devRef .tc main_v214) = K.P11_nb1 (K.argsOf m c) := (W55_of m ρ c main_v214 (by decide)).trans (at_v214_54 m ρ c)
theorem at_v214_56 : W56 m ρ c (Proc.devRef .tc main_v214) = K.P11_nb1 (K.argsOf m c) := (W56_of m ρ c main_v214 (by decide)).trans (at_v214_55 m ρ c)
theorem at_v214_57 : W57 m ρ c (Proc.devRef .tc main_v214) = K.P11_nb1 (K.argsOf m c) := (W57_of m ρ c main_v214 (by decide)).trans (at_v214_56 m ρ c)
theorem at_v214_58 : W58 m ρ c (Proc.devRef .tc main_v214) = K.P11_nb1 (K.argsOf m c) := (W58_of m ρ c main_v214 (by decide)).trans (at_v214_57 m ρ c)
theorem at_v214_59 : W59 m ρ c (Proc.devRef .tc main_v214) = K.P11_nb1 (K.argsOf m c) := (W59_of m ρ c main_v214 (by decide)).trans (at_v214_58 m ρ c)
theorem at_v214_60 : W60 m ρ c (Proc.devRef .tc main_v214) = K.P11_nb1 (K.argsOf m c) := (W60_of m ρ c main_v214 (by decide)).trans (at_v214_59 m ρ c)
theorem at_v214_61 : W61 m ρ c (Proc.devRef .tc main_v214) = K.P11_nb1 (K.argsOf m c) := (W61_of m ρ c main_v214 (by decide)).trans (at_v214_60 m ρ c)
theorem at_v273_55 : W55 m ρ c (Proc.devRef .tc main_v273) = K.g3 (K.argsOf m c) := (W55_of m ρ c main_v273 (by decide)).trans (at_v273_54 m ρ c)
theorem at_v273_56 : W56 m ρ c (Proc.devRef .tc main_v273) = K.g3 (K.argsOf m c) := (W56_of m ρ c main_v273 (by decide)).trans (at_v273_55 m ρ c)
theorem at_v273_57 : W57 m ρ c (Proc.devRef .tc main_v273) = K.g3 (K.argsOf m c) := (W57_of m ρ c main_v273 (by decide)).trans (at_v273_56 m ρ c)
theorem at_v273_58 : W58 m ρ c (Proc.devRef .tc main_v273) = K.g3 (K.argsOf m c) := (W58_of m ρ c main_v273 (by decide)).trans (at_v273_57 m ρ c)
theorem at_v273_59 : W59 m ρ c (Proc.devRef .tc main_v273) = K.g3 (K.argsOf m c) := (W59_of m ρ c main_v273 (by decide)).trans (at_v273_58 m ρ c)
theorem at_v273_60 : W60 m ρ c (Proc.devRef .tc main_v273) = K.g3 (K.argsOf m c) := (W60_of m ρ c main_v273 (by decide)).trans (at_v273_59 m ρ c)
theorem at_v273_61 : W61 m ρ c (Proc.devRef .tc main_v273) = K.g3 (K.argsOf m c) := (W61_of m ρ c main_v273 (by decide)).trans (at_v273_60 m ρ c)
theorem at_v304_62 : W62 m ρ c (Proc.devRef .tc main_v304) = C_v304 (F := Ideal) (K.P11_nb1 (K.argsOf m c)) (K.g3 (K.argsOf m c)) (K.P11_nW1 (K.argsOf m c)) :=
  rd_v304 (W61 m ρ c) (K.argsOf m c) (at_v214_61 m ρ c) (at_v273_61 m ρ c) (at_v212_61 m ρ c)
theorem at_v304_63 : W63 m ρ c (Proc.devRef .tc main_v304) = C_v304 (F := Ideal) (K.P11_nb1 (K.argsOf m c)) (K.g3 (K.argsOf m c)) (K.P11_nW1 (K.argsOf m c)) := (W63_of m ρ c main_v304 (by decide)).trans (at_v304_62 m ρ c)
theorem at_v304_64 : W64 m ρ c (Proc.devRef .tc main_v304) = C_v304 (F := Ideal) (K.P11_nb1 (K.argsOf m c)) (K.g3 (K.argsOf m c)) (K.P11_nW1 (K.argsOf m c)) := (W64_of m ρ c main_v304 (by decide)).trans (at_v304_63 m ρ c)
theorem at_v304_65 : W65 m ρ c (Proc.devRef .tc main_v304) = C_v304 (F := Ideal) (K.P11_nb1 (K.argsOf m c)) (K.g3 (K.argsOf m c)) (K.P11_nW1 (K.argsOf m c)) := (W65_of m ρ c main_v304 (by decide)).trans (at_v304_64 m ρ c)
theorem at_v216_37 : W37 m ρ c (Proc.devRef .tc main_v216) = K.P11_nW2 (K.argsOf m c) :=
  pr_v216 (W36 m ρ c) (K.argsOf m c) (at_arg11_36 m ρ c)
theorem at_v216_38 : W38 m ρ c (Proc.devRef .tc main_v216) = K.P11_nW2 (K.argsOf m c) := (W38_of m ρ c main_v216 (by decide)).trans (at_v216_37 m ρ c)
theorem at_v216_39 : W39 m ρ c (Proc.devRef .tc main_v216) = K.P11_nW2 (K.argsOf m c) := (W39_of m ρ c main_v216 (by decide)).trans (at_v216_38 m ρ c)
theorem at_v216_40 : W40 m ρ c (Proc.devRef .tc main_v216) = K.P11_nW2 (K.argsOf m c) := (W40_of m ρ c main_v216 (by decide)).trans (at_v216_39 m ρ c)
theorem at_v216_41 : W41 m ρ c (Proc.devRef .tc main_v216) = K.P11_nW2 (K.argsOf m c) := (W41_of m ρ c main_v216 (by decide)).trans (at_v216_40 m ρ c)
theorem at_v216_42 : W42 m ρ c (Proc.devRef .tc main_v216) = K.P11_nW2 (K.argsOf m c) := (W42_of m ρ c main_v216 (by decide)).trans (at_v216_41 m ρ c)
theorem at_v216_43 : W43 m ρ c (Proc.devRef .tc main_v216) = K.P11_nW2 (K.argsOf m c) := (W43_of m ρ c main_v216 (by decide)).trans (at_v216_42 m ρ c)
theorem at_v216_44 : W44 m ρ c (Proc.devRef .tc main_v216) = K.P11_nW2 (K.argsOf m c) := (W44_of m ρ c main_v216 (by decide)).trans (at_v216_43 m ρ c)
theorem at_v216_45 : W45 m ρ c (Proc.devRef .tc main_v216) = K.P11_nW2 (K.argsOf m c) := (W45_of m ρ c main_v216 (by decide)).trans (at_v216_44 m ρ c)
theorem at_v216_46 : W46 m ρ c (Proc.devRef .tc main_v216) = K.P11_nW2 (K.argsOf m c) := (W46_of m ρ c main_v216 (by decide)).trans (at_v216_45 m ρ c)
theorem at_v216_47 : W47 m ρ c (Proc.devRef .tc main_v216) = K.P11_nW2 (K.argsOf m c) := (W47_of m ρ c main_v216 (by decide)).trans (at_v216_46 m ρ c)
theorem at_v216_48 : W48 m ρ c (Proc.devRef .tc main_v216) = K.P11_nW2 (K.argsOf m c) := (W48_of m ρ c main_v216 (by decide)).trans (at_v216_47 m ρ c)
theorem at_v216_49 : W49 m ρ c (Proc.devRef .tc main_v216) = K.P11_nW2 (K.argsOf m c) := (W49_of m ρ c main_v216 (by decide)).trans (at_v216_48 m ρ c)
theorem at_v216_50 : W50 m ρ c (Proc.devRef .tc main_v216) = K.P11_nW2 (K.argsOf m c) := (W50_of m ρ c main_v216 (by decide)).trans (at_v216_49 m ρ c)
theorem at_v216_51 : W51 m ρ c (Proc.devRef .tc main_v216) = K.P11_nW2 (K.argsOf m c) := (W51_of m ρ c main_v216 (by decide)).trans (at_v216_50 m ρ c)
theorem at_v216_52 : W52 m ρ c (Proc.devRef .tc main_v216) = K.P11_nW2 (K.argsOf m c) := (W52_of m ρ c main_v216 (by decide)).trans (at_v216_51 m ρ c)
theorem at_v216_53 : W53 m ρ c (Proc.devRef .tc main_v216) = K.P11_nW2 (K.argsOf m c) := (W53_of m ρ c main_v216 (by decide)).trans (at_v216_52 m ρ c)
theorem at_v216_54 : W54 m ρ c (Proc.devRef .tc main_v216) = K.P11_nW2 (K.argsOf m c) := (W54_of m ρ c main_v216 (by decide)).trans (at_v216_53 m ρ c)
theorem at_v216_55 : W55 m ρ c (Proc.devRef .tc main_v216) = K.P11_nW2 (K.argsOf m c) := (W55_of m ρ c main_v216 (by decide)).trans (at_v216_54 m ρ c)
theorem at_v216_56 : W56 m ρ c (Proc.devRef .tc main_v216) = K.P11_nW2 (K.argsOf m c) := (W56_of m ρ c main_v216 (by decide)).trans (at_v216_55 m ρ c)
theorem at_v216_57 : W57 m ρ c (Proc.devRef .tc main_v216) = K.P11_nW2 (K.argsOf m c) := (W57_of m ρ c main_v216 (by decide)).trans (at_v216_56 m ρ c)
theorem at_v216_58 : W58 m ρ c (Proc.devRef .tc main_v216) = K.P11_nW2 (K.argsOf m c) := (W58_of m ρ c main_v216 (by decide)).trans (at_v216_57 m ρ c)
theorem at_v216_59 : W59 m ρ c (Proc.devRef .tc main_v216) = K.P11_nW2 (K.argsOf m c) := (W59_of m ρ c main_v216 (by decide)).trans (at_v216_58 m ρ c)
theorem at_v216_60 : W60 m ρ c (Proc.devRef .tc main_v216) = K.P11_nW2 (K.argsOf m c) := (W60_of m ρ c main_v216 (by decide)).trans (at_v216_59 m ρ c)
theorem at_v216_61 : W61 m ρ c (Proc.devRef .tc main_v216) = K.P11_nW2 (K.argsOf m c) := (W61_of m ρ c main_v216 (by decide)).trans (at_v216_60 m ρ c)
theorem at_v216_62 : W62 m ρ c (Proc.devRef .tc main_v216) = K.P11_nW2 (K.argsOf m c) := (W62_of m ρ c main_v216 (by decide)).trans (at_v216_61 m ρ c)
theorem at_v216_63 : W63 m ρ c (Proc.devRef .tc main_v216) = K.P11_nW2 (K.argsOf m c) := (W63_of m ρ c main_v216 (by decide)).trans (at_v216_62 m ρ c)
theorem at_v216_64 : W64 m ρ c (Proc.devRef .tc main_v216) = K.P11_nW2 (K.argsOf m c) := (W64_of m ρ c main_v216 (by decide)).trans (at_v216_63 m ρ c)
theorem at_v216_65 : W65 m ρ c (Proc.devRef .tc main_v216) = K.P11_nW2 (K.argsOf m c) := (W65_of m ρ c main_v216 (by decide)).trans (at_v216_64 m ρ c)
theorem at_v218_37 : W37 m ρ c (Proc.devRef .tc main_v218) = K.P11_nb2 (K.argsOf m c) :=
  pr_v218 (W36 m ρ c) (K.argsOf m c) (at_arg12_36 m ρ c)
theorem at_v218_38 : W38 m ρ c (Proc.devRef .tc main_v218) = K.P11_nb2 (K.argsOf m c) := (W38_of m ρ c main_v218 (by decide)).trans (at_v218_37 m ρ c)
theorem at_v218_39 : W39 m ρ c (Proc.devRef .tc main_v218) = K.P11_nb2 (K.argsOf m c) := (W39_of m ρ c main_v218 (by decide)).trans (at_v218_38 m ρ c)
theorem at_v218_40 : W40 m ρ c (Proc.devRef .tc main_v218) = K.P11_nb2 (K.argsOf m c) := (W40_of m ρ c main_v218 (by decide)).trans (at_v218_39 m ρ c)
theorem at_v218_41 : W41 m ρ c (Proc.devRef .tc main_v218) = K.P11_nb2 (K.argsOf m c) := (W41_of m ρ c main_v218 (by decide)).trans (at_v218_40 m ρ c)
theorem at_v218_42 : W42 m ρ c (Proc.devRef .tc main_v218) = K.P11_nb2 (K.argsOf m c) := (W42_of m ρ c main_v218 (by decide)).trans (at_v218_41 m ρ c)
theorem at_v218_43 : W43 m ρ c (Proc.devRef .tc main_v218) = K.P11_nb2 (K.argsOf m c) := (W43_of m ρ c main_v218 (by decide)).trans (at_v218_42 m ρ c)
theorem at_v218_44 : W44 m ρ c (Proc.devRef .tc main_v218) = K.P11_nb2 (K.argsOf m c) := (W44_of m ρ c main_v218 (by decide)).trans (at_v218_43 m ρ c)
theorem at_v218_45 : W45 m ρ c (Proc.devRef .tc main_v218) = K.P11_nb2 (K.argsOf m c) := (W45_of m ρ c main_v218 (by decide)).trans (at_v218_44 m ρ c)
theorem at_v218_46 : W46 m ρ c (Proc.devRef .tc main_v218) = K.P11_nb2 (K.argsOf m c) := (W46_of m ρ c main_v218 (by decide)).trans (at_v218_45 m ρ c)
theorem at_v218_47 : W47 m ρ c (Proc.devRef .tc main_v218) = K.P11_nb2 (K.argsOf m c) := (W47_of m ρ c main_v218 (by decide)).trans (at_v218_46 m ρ c)
theorem at_v218_48 : W48 m ρ c (Proc.devRef .tc main_v218) = K.P11_nb2 (K.argsOf m c) := (W48_of m ρ c main_v218 (by decide)).trans (at_v218_47 m ρ c)
theorem at_v218_49 : W49 m ρ c (Proc.devRef .tc main_v218) = K.P11_nb2 (K.argsOf m c) := (W49_of m ρ c main_v218 (by decide)).trans (at_v218_48 m ρ c)
theorem at_v218_50 : W50 m ρ c (Proc.devRef .tc main_v218) = K.P11_nb2 (K.argsOf m c) := (W50_of m ρ c main_v218 (by decide)).trans (at_v218_49 m ρ c)
theorem at_v218_51 : W51 m ρ c (Proc.devRef .tc main_v218) = K.P11_nb2 (K.argsOf m c) := (W51_of m ρ c main_v218 (by decide)).trans (at_v218_50 m ρ c)
theorem at_v218_52 : W52 m ρ c (Proc.devRef .tc main_v218) = K.P11_nb2 (K.argsOf m c) := (W52_of m ρ c main_v218 (by decide)).trans (at_v218_51 m ρ c)
theorem at_v218_53 : W53 m ρ c (Proc.devRef .tc main_v218) = K.P11_nb2 (K.argsOf m c) := (W53_of m ρ c main_v218 (by decide)).trans (at_v218_52 m ρ c)
theorem at_v218_54 : W54 m ρ c (Proc.devRef .tc main_v218) = K.P11_nb2 (K.argsOf m c) := (W54_of m ρ c main_v218 (by decide)).trans (at_v218_53 m ρ c)
theorem at_v218_55 : W55 m ρ c (Proc.devRef .tc main_v218) = K.P11_nb2 (K.argsOf m c) := (W55_of m ρ c main_v218 (by decide)).trans (at_v218_54 m ρ c)
theorem at_v218_56 : W56 m ρ c (Proc.devRef .tc main_v218) = K.P11_nb2 (K.argsOf m c) := (W56_of m ρ c main_v218 (by decide)).trans (at_v218_55 m ρ c)
theorem at_v218_57 : W57 m ρ c (Proc.devRef .tc main_v218) = K.P11_nb2 (K.argsOf m c) := (W57_of m ρ c main_v218 (by decide)).trans (at_v218_56 m ρ c)
theorem at_v218_58 : W58 m ρ c (Proc.devRef .tc main_v218) = K.P11_nb2 (K.argsOf m c) := (W58_of m ρ c main_v218 (by decide)).trans (at_v218_57 m ρ c)
theorem at_v218_59 : W59 m ρ c (Proc.devRef .tc main_v218) = K.P11_nb2 (K.argsOf m c) := (W59_of m ρ c main_v218 (by decide)).trans (at_v218_58 m ρ c)
theorem at_v218_60 : W60 m ρ c (Proc.devRef .tc main_v218) = K.P11_nb2 (K.argsOf m c) := (W60_of m ρ c main_v218 (by decide)).trans (at_v218_59 m ρ c)
theorem at_v218_61 : W61 m ρ c (Proc.devRef .tc main_v218) = K.P11_nb2 (K.argsOf m c) := (W61_of m ρ c main_v218 (by decide)).trans (at_v218_60 m ρ c)
theorem at_v305_62 : W62 m ρ c (Proc.devRef .tc main_v305) = C_v305 (F := Ideal) (K.P11_nb2 (K.argsOf m c)) :=
  rd_v305 (W61 m ρ c) (K.argsOf m c) (at_v218_61 m ρ c)
theorem at_v305_63 : W63 m ρ c (Proc.devRef .tc main_v305) = C_v305 (F := Ideal) (K.P11_nb2 (K.argsOf m c)) := (W63_of m ρ c main_v305 (by decide)).trans (at_v305_62 m ρ c)
theorem at_v305_64 : W64 m ρ c (Proc.devRef .tc main_v305) = C_v305 (F := Ideal) (K.P11_nb2 (K.argsOf m c)) := (W64_of m ρ c main_v305 (by decide)).trans (at_v305_63 m ρ c)
theorem at_v305_65 : W65 m ρ c (Proc.devRef .tc main_v305) = C_v305 (F := Ideal) (K.P11_nb2 (K.argsOf m c)) := (W65_of m ρ c main_v305 (by decide)).trans (at_v305_64 m ρ c)
theorem at_v308_66 : W66 m ρ c (Proc.devRef .tc main_v308) = K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c))) :=
  (R7_read m ρ c).trans (by rw [at_v306_65 m ρ c, at_v307_65 m ρ c, at_v300_65 m ρ c, at_v301_65 m ρ c, at_v304_65 m ρ c, at_v216_65 m ρ c, at_v305_65 m ρ c])
theorem at_v309_67 : W67 m ρ c (Proc.devRef .tc main_v309) = K.un2 (K.argsOf m c) :=
  st_un2 (W66 m ρ c) (K.argsOf m c) (at_v308_66 m ρ c)
theorem at_v293_63 : W63 m ρ c (Proc.devRef .tc main_v293) = K.ue2 (K.argsOf m c) := (W63_of m ρ c main_v293 (by decide)).trans (at_v293_62 m ρ c)
theorem at_v293_64 : W64 m ρ c (Proc.devRef .tc main_v293) = K.ue2 (K.argsOf m c) := (W64_of m ρ c main_v293 (by decide)).trans (at_v293_63 m ρ c)
theorem at_v293_65 : W65 m ρ c (Proc.devRef .tc main_v293) = K.ue2 (K.argsOf m c) := (W65_of m ρ c main_v293 (by decide)).trans (at_v293_64 m ρ c)
theorem at_v293_66 : W66 m ρ c (Proc.devRef .tc main_v293) = K.ue2 (K.argsOf m c) := (W66_of m ρ c main_v293 (by decide)).trans (at_v293_65 m ρ c)
theorem at_v273_62 : W62 m ρ c (Proc.devRef .tc main_v273) = K.g3 (K.argsOf m c) := (W62_of m ρ c main_v273 (by decide)).trans (at_v273_61 m ρ c)
theorem at_v273_63 : W63 m ρ c (Proc.devRef .tc main_v273) = K.g3 (K.argsOf m c) := (W63_of m ρ c main_v273 (by decide)).trans (at_v273_62 m ρ c)
theorem at_v273_64 : W64 m ρ c (Proc.devRef .tc main_v273) = K.g3 (K.argsOf m c) := (W64_of m ρ c main_v273 (by decide)).trans (at_v273_63 m ρ c)
theorem at_v273_65 : W65 m ρ c (Proc.devRef .tc main_v273) = K.g3 (K.argsOf m c) := (W65_of m ρ c main_v273 (by decide)).trans (at_v273_64 m ρ c)
theorem at_v273_66 : W66 m ρ c (Proc.devRef .tc main_v273) = K.g3 (K.argsOf m c) := (W66_of m ρ c main_v273 (by decide)).trans (at_v273_65 m ρ c)
theorem at_v220_37 : W37 m ρ c (Proc.devRef .tc main_v220) = K.P11_gW1 (K.argsOf m c) :=
  pr_v220 (W36 m ρ c) (K.argsOf m c) (at_arg13_36 m ρ c)
theorem at_v220_38 : W38 m ρ c (Proc.devRef .tc main_v220) = K.P11_gW1 (K.argsOf m c) := (W38_of m ρ c main_v220 (by decide)).trans (at_v220_37 m ρ c)
theorem at_v220_39 : W39 m ρ c (Proc.devRef .tc main_v220) = K.P11_gW1 (K.argsOf m c) := (W39_of m ρ c main_v220 (by decide)).trans (at_v220_38 m ρ c)
theorem at_v220_40 : W40 m ρ c (Proc.devRef .tc main_v220) = K.P11_gW1 (K.argsOf m c) := (W40_of m ρ c main_v220 (by decide)).trans (at_v220_39 m ρ c)
theorem at_v220_41 : W41 m ρ c (Proc.devRef .tc main_v220) = K.P11_gW1 (K.argsOf m c) := (W41_of m ρ c main_v220 (by decide)).trans (at_v220_40 m ρ c)
theorem at_v220_42 : W42 m ρ c (Proc.devRef .tc main_v220) = K.P11_gW1 (K.argsOf m c) := (W42_of m ρ c main_v220 (by decide)).trans (at_v220_41 m ρ c)
theorem at_v220_43 : W43 m ρ c (Proc.devRef .tc main_v220) = K.P11_gW1 (K.argsOf m c) := (W43_of m ρ c main_v220 (by decide)).trans (at_v220_42 m ρ c)
theorem at_v220_44 : W44 m ρ c (Proc.devRef .tc main_v220) = K.P11_gW1 (K.argsOf m c) := (W44_of m ρ c main_v220 (by decide)).trans (at_v220_43 m ρ c)
theorem at_v220_45 : W45 m ρ c (Proc.devRef .tc main_v220) = K.P11_gW1 (K.argsOf m c) := (W45_of m ρ c main_v220 (by decide)).trans (at_v220_44 m ρ c)
theorem at_v220_46 : W46 m ρ c (Proc.devRef .tc main_v220) = K.P11_gW1 (K.argsOf m c) := (W46_of m ρ c main_v220 (by decide)).trans (at_v220_45 m ρ c)
theorem at_v220_47 : W47 m ρ c (Proc.devRef .tc main_v220) = K.P11_gW1 (K.argsOf m c) := (W47_of m ρ c main_v220 (by decide)).trans (at_v220_46 m ρ c)
theorem at_v220_48 : W48 m ρ c (Proc.devRef .tc main_v220) = K.P11_gW1 (K.argsOf m c) := (W48_of m ρ c main_v220 (by decide)).trans (at_v220_47 m ρ c)
theorem at_v220_49 : W49 m ρ c (Proc.devRef .tc main_v220) = K.P11_gW1 (K.argsOf m c) := (W49_of m ρ c main_v220 (by decide)).trans (at_v220_48 m ρ c)
theorem at_v220_50 : W50 m ρ c (Proc.devRef .tc main_v220) = K.P11_gW1 (K.argsOf m c) := (W50_of m ρ c main_v220 (by decide)).trans (at_v220_49 m ρ c)
theorem at_v220_51 : W51 m ρ c (Proc.devRef .tc main_v220) = K.P11_gW1 (K.argsOf m c) := (W51_of m ρ c main_v220 (by decide)).trans (at_v220_50 m ρ c)
theorem at_v220_52 : W52 m ρ c (Proc.devRef .tc main_v220) = K.P11_gW1 (K.argsOf m c) := (W52_of m ρ c main_v220 (by decide)).trans (at_v220_51 m ρ c)
theorem at_v220_53 : W53 m ρ c (Proc.devRef .tc main_v220) = K.P11_gW1 (K.argsOf m c) := (W53_of m ρ c main_v220 (by decide)).trans (at_v220_52 m ρ c)
theorem at_v220_54 : W54 m ρ c (Proc.devRef .tc main_v220) = K.P11_gW1 (K.argsOf m c) := (W54_of m ρ c main_v220 (by decide)).trans (at_v220_53 m ρ c)
theorem at_v220_55 : W55 m ρ c (Proc.devRef .tc main_v220) = K.P11_gW1 (K.argsOf m c) := (W55_of m ρ c main_v220 (by decide)).trans (at_v220_54 m ρ c)
theorem at_v220_56 : W56 m ρ c (Proc.devRef .tc main_v220) = K.P11_gW1 (K.argsOf m c) := (W56_of m ρ c main_v220 (by decide)).trans (at_v220_55 m ρ c)
theorem at_v220_57 : W57 m ρ c (Proc.devRef .tc main_v220) = K.P11_gW1 (K.argsOf m c) := (W57_of m ρ c main_v220 (by decide)).trans (at_v220_56 m ρ c)
theorem at_v220_58 : W58 m ρ c (Proc.devRef .tc main_v220) = K.P11_gW1 (K.argsOf m c) := (W58_of m ρ c main_v220 (by decide)).trans (at_v220_57 m ρ c)
theorem at_v220_59 : W59 m ρ c (Proc.devRef .tc main_v220) = K.P11_gW1 (K.argsOf m c) := (W59_of m ρ c main_v220 (by decide)).trans (at_v220_58 m ρ c)
theorem at_v220_60 : W60 m ρ c (Proc.devRef .tc main_v220) = K.P11_gW1 (K.argsOf m c) := (W60_of m ρ c main_v220 (by decide)).trans (at_v220_59 m ρ c)
theorem at_v220_61 : W61 m ρ c (Proc.devRef .tc main_v220) = K.P11_gW1 (K.argsOf m c) := (W61_of m ρ c main_v220 (by decide)).trans (at_v220_60 m ρ c)
theorem at_v220_62 : W62 m ρ c (Proc.devRef .tc main_v220) = K.P11_gW1 (K.argsOf m c) := (W62_of m ρ c main_v220 (by decide)).trans (at_v220_61 m ρ c)
theorem at_v220_63 : W63 m ρ c (Proc.devRef .tc main_v220) = K.P11_gW1 (K.argsOf m c) := (W63_of m ρ c main_v220 (by decide)).trans (at_v220_62 m ρ c)
theorem at_v220_64 : W64 m ρ c (Proc.devRef .tc main_v220) = K.P11_gW1 (K.argsOf m c) := (W64_of m ρ c main_v220 (by decide)).trans (at_v220_63 m ρ c)
theorem at_v220_65 : W65 m ρ c (Proc.devRef .tc main_v220) = K.P11_gW1 (K.argsOf m c) := (W65_of m ρ c main_v220 (by decide)).trans (at_v220_64 m ρ c)
theorem at_v220_66 : W66 m ρ c (Proc.devRef .tc main_v220) = K.P11_gW1 (K.argsOf m c) := (W66_of m ρ c main_v220 (by decide)).trans (at_v220_65 m ρ c)
theorem at_v222_37 : W37 m ρ c (Proc.devRef .tc main_v222) = K.P11_gb1 (K.argsOf m c) :=
  pr_v222 (W36 m ρ c) (K.argsOf m c) (at_arg14_36 m ρ c)
theorem at_v222_38 : W38 m ρ c (Proc.devRef .tc main_v222) = K.P11_gb1 (K.argsOf m c) := (W38_of m ρ c main_v222 (by decide)).trans (at_v222_37 m ρ c)
theorem at_v222_39 : W39 m ρ c (Proc.devRef .tc main_v222) = K.P11_gb1 (K.argsOf m c) := (W39_of m ρ c main_v222 (by decide)).trans (at_v222_38 m ρ c)
theorem at_v222_40 : W40 m ρ c (Proc.devRef .tc main_v222) = K.P11_gb1 (K.argsOf m c) := (W40_of m ρ c main_v222 (by decide)).trans (at_v222_39 m ρ c)
theorem at_v222_41 : W41 m ρ c (Proc.devRef .tc main_v222) = K.P11_gb1 (K.argsOf m c) := (W41_of m ρ c main_v222 (by decide)).trans (at_v222_40 m ρ c)
theorem at_v222_42 : W42 m ρ c (Proc.devRef .tc main_v222) = K.P11_gb1 (K.argsOf m c) := (W42_of m ρ c main_v222 (by decide)).trans (at_v222_41 m ρ c)
theorem at_v222_43 : W43 m ρ c (Proc.devRef .tc main_v222) = K.P11_gb1 (K.argsOf m c) := (W43_of m ρ c main_v222 (by decide)).trans (at_v222_42 m ρ c)
theorem at_v222_44 : W44 m ρ c (Proc.devRef .tc main_v222) = K.P11_gb1 (K.argsOf m c) := (W44_of m ρ c main_v222 (by decide)).trans (at_v222_43 m ρ c)
theorem at_v222_45 : W45 m ρ c (Proc.devRef .tc main_v222) = K.P11_gb1 (K.argsOf m c) := (W45_of m ρ c main_v222 (by decide)).trans (at_v222_44 m ρ c)
theorem at_v222_46 : W46 m ρ c (Proc.devRef .tc main_v222) = K.P11_gb1 (K.argsOf m c) := (W46_of m ρ c main_v222 (by decide)).trans (at_v222_45 m ρ c)
theorem at_v222_47 : W47 m ρ c (Proc.devRef .tc main_v222) = K.P11_gb1 (K.argsOf m c) := (W47_of m ρ c main_v222 (by decide)).trans (at_v222_46 m ρ c)
theorem at_v222_48 : W48 m ρ c (Proc.devRef .tc main_v222) = K.P11_gb1 (K.argsOf m c) := (W48_of m ρ c main_v222 (by decide)).trans (at_v222_47 m ρ c)
theorem at_v222_49 : W49 m ρ c (Proc.devRef .tc main_v222) = K.P11_gb1 (K.argsOf m c) := (W49_of m ρ c main_v222 (by decide)).trans (at_v222_48 m ρ c)
theorem at_v222_50 : W50 m ρ c (Proc.devRef .tc main_v222) = K.P11_gb1 (K.argsOf m c) := (W50_of m ρ c main_v222 (by decide)).trans (at_v222_49 m ρ c)
theorem at_v222_51 : W51 m ρ c (Proc.devRef .tc main_v222) = K.P11_gb1 (K.argsOf m c) := (W51_of m ρ c main_v222 (by decide)).trans (at_v222_50 m ρ c)
theorem at_v222_52 : W52 m ρ c (Proc.devRef .tc main_v222) = K.P11_gb1 (K.argsOf m c) := (W52_of m ρ c main_v222 (by decide)).trans (at_v222_51 m ρ c)
theorem at_v222_53 : W53 m ρ c (Proc.devRef .tc main_v222) = K.P11_gb1 (K.argsOf m c) := (W53_of m ρ c main_v222 (by decide)).trans (at_v222_52 m ρ c)
theorem at_v222_54 : W54 m ρ c (Proc.devRef .tc main_v222) = K.P11_gb1 (K.argsOf m c) := (W54_of m ρ c main_v222 (by decide)).trans (at_v222_53 m ρ c)
theorem at_v222_55 : W55 m ρ c (Proc.devRef .tc main_v222) = K.P11_gb1 (K.argsOf m c) := (W55_of m ρ c main_v222 (by decide)).trans (at_v222_54 m ρ c)
theorem at_v222_56 : W56 m ρ c (Proc.devRef .tc main_v222) = K.P11_gb1 (K.argsOf m c) := (W56_of m ρ c main_v222 (by decide)).trans (at_v222_55 m ρ c)
theorem at_v222_57 : W57 m ρ c (Proc.devRef .tc main_v222) = K.P11_gb1 (K.argsOf m c) := (W57_of m ρ c main_v222 (by decide)).trans (at_v222_56 m ρ c)
theorem at_v222_58 : W58 m ρ c (Proc.devRef .tc main_v222) = K.P11_gb1 (K.argsOf m c) := (W58_of m ρ c main_v222 (by decide)).trans (at_v222_57 m ρ c)
theorem at_v222_59 : W59 m ρ c (Proc.devRef .tc main_v222) = K.P11_gb1 (K.argsOf m c) := (W59_of m ρ c main_v222 (by decide)).trans (at_v222_58 m ρ c)
theorem at_v222_60 : W60 m ρ c (Proc.devRef .tc main_v222) = K.P11_gb1 (K.argsOf m c) := (W60_of m ρ c main_v222 (by decide)).trans (at_v222_59 m ρ c)
theorem at_v222_61 : W61 m ρ c (Proc.devRef .tc main_v222) = K.P11_gb1 (K.argsOf m c) := (W61_of m ρ c main_v222 (by decide)).trans (at_v222_60 m ρ c)
theorem at_v222_62 : W62 m ρ c (Proc.devRef .tc main_v222) = K.P11_gb1 (K.argsOf m c) := (W62_of m ρ c main_v222 (by decide)).trans (at_v222_61 m ρ c)
theorem at_v222_63 : W63 m ρ c (Proc.devRef .tc main_v222) = K.P11_gb1 (K.argsOf m c) := (W63_of m ρ c main_v222 (by decide)).trans (at_v222_62 m ρ c)
theorem at_v222_64 : W64 m ρ c (Proc.devRef .tc main_v222) = K.P11_gb1 (K.argsOf m c) := (W64_of m ρ c main_v222 (by decide)).trans (at_v222_63 m ρ c)
theorem at_v222_65 : W65 m ρ c (Proc.devRef .tc main_v222) = K.P11_gb1 (K.argsOf m c) := (W65_of m ρ c main_v222 (by decide)).trans (at_v222_64 m ρ c)
theorem at_v222_66 : W66 m ρ c (Proc.devRef .tc main_v222) = K.P11_gb1 (K.argsOf m c) := (W66_of m ρ c main_v222 (by decide)).trans (at_v222_65 m ρ c)
theorem at_v322_67 : W67 m ρ c (Proc.devRef .tc main_v322) = C_v322 (F := Ideal) (K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c)))) (K.ue2 (K.argsOf m c)) (K.g3 (K.argsOf m c)) (K.P11_gW1 (K.argsOf m c)) (K.P11_gb1 (K.argsOf m c)) :=
  rd_v322 (W66 m ρ c) (K.argsOf m c) (at_v308_66 m ρ c) (at_v293_66 m ρ c) (at_v273_66 m ρ c) (at_v220_66 m ρ c) (at_v222_66 m ρ c)
theorem at_v323_68 : W68 m ρ c (Proc.devRef .tc main_v323) = C_v323 (F := Ideal) (C_v322 (F := Ideal) (K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c)))) (K.ue2 (K.argsOf m c)) (K.g3 (K.argsOf m c)) (K.P11_gW1 (K.argsOf m c)) (K.P11_gb1 (K.argsOf m c))) :=
  (congrArg (fun l => StableHlo.after l (W67 m ρ c) (Proc.devRef .tc main_v323)) hostOps8_1_eq).trans (rd_v323 (W67 m ρ c) (K.argsOf m c) (at_v322_67 m ρ c))
theorem at_v224_37 : W37 m ρ c (Proc.devRef .tc main_v224) = K.P11_gW2 (K.argsOf m c) :=
  pr_v224 (W36 m ρ c) (K.argsOf m c) (at_arg15_36 m ρ c)
theorem at_v224_38 : W38 m ρ c (Proc.devRef .tc main_v224) = K.P11_gW2 (K.argsOf m c) := (W38_of m ρ c main_v224 (by decide)).trans (at_v224_37 m ρ c)
theorem at_v224_39 : W39 m ρ c (Proc.devRef .tc main_v224) = K.P11_gW2 (K.argsOf m c) := (W39_of m ρ c main_v224 (by decide)).trans (at_v224_38 m ρ c)
theorem at_v224_40 : W40 m ρ c (Proc.devRef .tc main_v224) = K.P11_gW2 (K.argsOf m c) := (W40_of m ρ c main_v224 (by decide)).trans (at_v224_39 m ρ c)
theorem at_v224_41 : W41 m ρ c (Proc.devRef .tc main_v224) = K.P11_gW2 (K.argsOf m c) := (W41_of m ρ c main_v224 (by decide)).trans (at_v224_40 m ρ c)
theorem at_v224_42 : W42 m ρ c (Proc.devRef .tc main_v224) = K.P11_gW2 (K.argsOf m c) := (W42_of m ρ c main_v224 (by decide)).trans (at_v224_41 m ρ c)
theorem at_v224_43 : W43 m ρ c (Proc.devRef .tc main_v224) = K.P11_gW2 (K.argsOf m c) := (W43_of m ρ c main_v224 (by decide)).trans (at_v224_42 m ρ c)
theorem at_v224_44 : W44 m ρ c (Proc.devRef .tc main_v224) = K.P11_gW2 (K.argsOf m c) := (W44_of m ρ c main_v224 (by decide)).trans (at_v224_43 m ρ c)
theorem at_v224_45 : W45 m ρ c (Proc.devRef .tc main_v224) = K.P11_gW2 (K.argsOf m c) := (W45_of m ρ c main_v224 (by decide)).trans (at_v224_44 m ρ c)
theorem at_v224_46 : W46 m ρ c (Proc.devRef .tc main_v224) = K.P11_gW2 (K.argsOf m c) := (W46_of m ρ c main_v224 (by decide)).trans (at_v224_45 m ρ c)
theorem at_v224_47 : W47 m ρ c (Proc.devRef .tc main_v224) = K.P11_gW2 (K.argsOf m c) := (W47_of m ρ c main_v224 (by decide)).trans (at_v224_46 m ρ c)
theorem at_v224_48 : W48 m ρ c (Proc.devRef .tc main_v224) = K.P11_gW2 (K.argsOf m c) := (W48_of m ρ c main_v224 (by decide)).trans (at_v224_47 m ρ c)
theorem at_v224_49 : W49 m ρ c (Proc.devRef .tc main_v224) = K.P11_gW2 (K.argsOf m c) := (W49_of m ρ c main_v224 (by decide)).trans (at_v224_48 m ρ c)
theorem at_v224_50 : W50 m ρ c (Proc.devRef .tc main_v224) = K.P11_gW2 (K.argsOf m c) := (W50_of m ρ c main_v224 (by decide)).trans (at_v224_49 m ρ c)
theorem at_v224_51 : W51 m ρ c (Proc.devRef .tc main_v224) = K.P11_gW2 (K.argsOf m c) := (W51_of m ρ c main_v224 (by decide)).trans (at_v224_50 m ρ c)
theorem at_v224_52 : W52 m ρ c (Proc.devRef .tc main_v224) = K.P11_gW2 (K.argsOf m c) := (W52_of m ρ c main_v224 (by decide)).trans (at_v224_51 m ρ c)
theorem at_v224_53 : W53 m ρ c (Proc.devRef .tc main_v224) = K.P11_gW2 (K.argsOf m c) := (W53_of m ρ c main_v224 (by decide)).trans (at_v224_52 m ρ c)
theorem at_v224_54 : W54 m ρ c (Proc.devRef .tc main_v224) = K.P11_gW2 (K.argsOf m c) := (W54_of m ρ c main_v224 (by decide)).trans (at_v224_53 m ρ c)
theorem at_v224_55 : W55 m ρ c (Proc.devRef .tc main_v224) = K.P11_gW2 (K.argsOf m c) := (W55_of m ρ c main_v224 (by decide)).trans (at_v224_54 m ρ c)
theorem at_v224_56 : W56 m ρ c (Proc.devRef .tc main_v224) = K.P11_gW2 (K.argsOf m c) := (W56_of m ρ c main_v224 (by decide)).trans (at_v224_55 m ρ c)
theorem at_v224_57 : W57 m ρ c (Proc.devRef .tc main_v224) = K.P11_gW2 (K.argsOf m c) := (W57_of m ρ c main_v224 (by decide)).trans (at_v224_56 m ρ c)
theorem at_v224_58 : W58 m ρ c (Proc.devRef .tc main_v224) = K.P11_gW2 (K.argsOf m c) := (W58_of m ρ c main_v224 (by decide)).trans (at_v224_57 m ρ c)
theorem at_v224_59 : W59 m ρ c (Proc.devRef .tc main_v224) = K.P11_gW2 (K.argsOf m c) := (W59_of m ρ c main_v224 (by decide)).trans (at_v224_58 m ρ c)
theorem at_v224_60 : W60 m ρ c (Proc.devRef .tc main_v224) = K.P11_gW2 (K.argsOf m c) := (W60_of m ρ c main_v224 (by decide)).trans (at_v224_59 m ρ c)
theorem at_v224_61 : W61 m ρ c (Proc.devRef .tc main_v224) = K.P11_gW2 (K.argsOf m c) := (W61_of m ρ c main_v224 (by decide)).trans (at_v224_60 m ρ c)
theorem at_v224_62 : W62 m ρ c (Proc.devRef .tc main_v224) = K.P11_gW2 (K.argsOf m c) := (W62_of m ρ c main_v224 (by decide)).trans (at_v224_61 m ρ c)
theorem at_v224_63 : W63 m ρ c (Proc.devRef .tc main_v224) = K.P11_gW2 (K.argsOf m c) := (W63_of m ρ c main_v224 (by decide)).trans (at_v224_62 m ρ c)
theorem at_v224_64 : W64 m ρ c (Proc.devRef .tc main_v224) = K.P11_gW2 (K.argsOf m c) := (W64_of m ρ c main_v224 (by decide)).trans (at_v224_63 m ρ c)
theorem at_v224_65 : W65 m ρ c (Proc.devRef .tc main_v224) = K.P11_gW2 (K.argsOf m c) := (W65_of m ρ c main_v224 (by decide)).trans (at_v224_64 m ρ c)
theorem at_v224_66 : W66 m ρ c (Proc.devRef .tc main_v224) = K.P11_gW2 (K.argsOf m c) := (W66_of m ρ c main_v224 (by decide)).trans (at_v224_65 m ρ c)
theorem at_v224_67 : W67 m ρ c (Proc.devRef .tc main_v224) = K.P11_gW2 (K.argsOf m c) := (W67_of m ρ c main_v224 (by decide)).trans (at_v224_66 m ρ c)
theorem at_v224_68 : W68 m ρ c (Proc.devRef .tc main_v224) = K.P11_gW2 (K.argsOf m c) := (W68_of m ρ c main_v224 (by decide)).trans (at_v224_67 m ρ c)
theorem at_v226_37 : W37 m ρ c (Proc.devRef .tc main_v226) = K.P11_gb2 (K.argsOf m c) :=
  pr_v226 (W36 m ρ c) (K.argsOf m c) (at_arg16_36 m ρ c)
theorem at_v226_38 : W38 m ρ c (Proc.devRef .tc main_v226) = K.P11_gb2 (K.argsOf m c) := (W38_of m ρ c main_v226 (by decide)).trans (at_v226_37 m ρ c)
theorem at_v226_39 : W39 m ρ c (Proc.devRef .tc main_v226) = K.P11_gb2 (K.argsOf m c) := (W39_of m ρ c main_v226 (by decide)).trans (at_v226_38 m ρ c)
theorem at_v226_40 : W40 m ρ c (Proc.devRef .tc main_v226) = K.P11_gb2 (K.argsOf m c) := (W40_of m ρ c main_v226 (by decide)).trans (at_v226_39 m ρ c)
theorem at_v226_41 : W41 m ρ c (Proc.devRef .tc main_v226) = K.P11_gb2 (K.argsOf m c) := (W41_of m ρ c main_v226 (by decide)).trans (at_v226_40 m ρ c)
theorem at_v226_42 : W42 m ρ c (Proc.devRef .tc main_v226) = K.P11_gb2 (K.argsOf m c) := (W42_of m ρ c main_v226 (by decide)).trans (at_v226_41 m ρ c)
theorem at_v226_43 : W43 m ρ c (Proc.devRef .tc main_v226) = K.P11_gb2 (K.argsOf m c) := (W43_of m ρ c main_v226 (by decide)).trans (at_v226_42 m ρ c)
theorem at_v226_44 : W44 m ρ c (Proc.devRef .tc main_v226) = K.P11_gb2 (K.argsOf m c) := (W44_of m ρ c main_v226 (by decide)).trans (at_v226_43 m ρ c)
theorem at_v226_45 : W45 m ρ c (Proc.devRef .tc main_v226) = K.P11_gb2 (K.argsOf m c) := (W45_of m ρ c main_v226 (by decide)).trans (at_v226_44 m ρ c)
theorem at_v226_46 : W46 m ρ c (Proc.devRef .tc main_v226) = K.P11_gb2 (K.argsOf m c) := (W46_of m ρ c main_v226 (by decide)).trans (at_v226_45 m ρ c)
theorem at_v226_47 : W47 m ρ c (Proc.devRef .tc main_v226) = K.P11_gb2 (K.argsOf m c) := (W47_of m ρ c main_v226 (by decide)).trans (at_v226_46 m ρ c)
theorem at_v226_48 : W48 m ρ c (Proc.devRef .tc main_v226) = K.P11_gb2 (K.argsOf m c) := (W48_of m ρ c main_v226 (by decide)).trans (at_v226_47 m ρ c)
theorem at_v226_49 : W49 m ρ c (Proc.devRef .tc main_v226) = K.P11_gb2 (K.argsOf m c) := (W49_of m ρ c main_v226 (by decide)).trans (at_v226_48 m ρ c)
theorem at_v226_50 : W50 m ρ c (Proc.devRef .tc main_v226) = K.P11_gb2 (K.argsOf m c) := (W50_of m ρ c main_v226 (by decide)).trans (at_v226_49 m ρ c)
theorem at_v226_51 : W51 m ρ c (Proc.devRef .tc main_v226) = K.P11_gb2 (K.argsOf m c) := (W51_of m ρ c main_v226 (by decide)).trans (at_v226_50 m ρ c)
theorem at_v226_52 : W52 m ρ c (Proc.devRef .tc main_v226) = K.P11_gb2 (K.argsOf m c) := (W52_of m ρ c main_v226 (by decide)).trans (at_v226_51 m ρ c)
theorem at_v226_53 : W53 m ρ c (Proc.devRef .tc main_v226) = K.P11_gb2 (K.argsOf m c) := (W53_of m ρ c main_v226 (by decide)).trans (at_v226_52 m ρ c)
theorem at_v226_54 : W54 m ρ c (Proc.devRef .tc main_v226) = K.P11_gb2 (K.argsOf m c) := (W54_of m ρ c main_v226 (by decide)).trans (at_v226_53 m ρ c)
theorem at_v226_55 : W55 m ρ c (Proc.devRef .tc main_v226) = K.P11_gb2 (K.argsOf m c) := (W55_of m ρ c main_v226 (by decide)).trans (at_v226_54 m ρ c)
theorem at_v226_56 : W56 m ρ c (Proc.devRef .tc main_v226) = K.P11_gb2 (K.argsOf m c) := (W56_of m ρ c main_v226 (by decide)).trans (at_v226_55 m ρ c)
theorem at_v226_57 : W57 m ρ c (Proc.devRef .tc main_v226) = K.P11_gb2 (K.argsOf m c) := (W57_of m ρ c main_v226 (by decide)).trans (at_v226_56 m ρ c)
theorem at_v226_58 : W58 m ρ c (Proc.devRef .tc main_v226) = K.P11_gb2 (K.argsOf m c) := (W58_of m ρ c main_v226 (by decide)).trans (at_v226_57 m ρ c)
theorem at_v226_59 : W59 m ρ c (Proc.devRef .tc main_v226) = K.P11_gb2 (K.argsOf m c) := (W59_of m ρ c main_v226 (by decide)).trans (at_v226_58 m ρ c)
theorem at_v226_60 : W60 m ρ c (Proc.devRef .tc main_v226) = K.P11_gb2 (K.argsOf m c) := (W60_of m ρ c main_v226 (by decide)).trans (at_v226_59 m ρ c)
theorem at_v226_61 : W61 m ρ c (Proc.devRef .tc main_v226) = K.P11_gb2 (K.argsOf m c) := (W61_of m ρ c main_v226 (by decide)).trans (at_v226_60 m ρ c)
theorem at_v226_62 : W62 m ρ c (Proc.devRef .tc main_v226) = K.P11_gb2 (K.argsOf m c) := (W62_of m ρ c main_v226 (by decide)).trans (at_v226_61 m ρ c)
theorem at_v226_63 : W63 m ρ c (Proc.devRef .tc main_v226) = K.P11_gb2 (K.argsOf m c) := (W63_of m ρ c main_v226 (by decide)).trans (at_v226_62 m ρ c)
theorem at_v226_64 : W64 m ρ c (Proc.devRef .tc main_v226) = K.P11_gb2 (K.argsOf m c) := (W64_of m ρ c main_v226 (by decide)).trans (at_v226_63 m ρ c)
theorem at_v226_65 : W65 m ρ c (Proc.devRef .tc main_v226) = K.P11_gb2 (K.argsOf m c) := (W65_of m ρ c main_v226 (by decide)).trans (at_v226_64 m ρ c)
theorem at_v226_66 : W66 m ρ c (Proc.devRef .tc main_v226) = K.P11_gb2 (K.argsOf m c) := (W66_of m ρ c main_v226 (by decide)).trans (at_v226_65 m ρ c)
theorem at_v320_67 : W67 m ρ c (Proc.devRef .tc main_v320) = C_v320 (F := Ideal) (K.P11_gb2 (K.argsOf m c)) :=
  rd_v320 (W66 m ρ c) (K.argsOf m c) (at_v226_66 m ρ c)
theorem at_v320_68 : W68 m ρ c (Proc.devRef .tc main_v320) = C_v320 (F := Ideal) (K.P11_gb2 (K.argsOf m c)) := (W68_of m ρ c main_v320 (by decide)).trans (at_v320_67 m ρ c)
theorem at_v325_69 : W69 m ρ c (Proc.devRef .tc main_v325) = K.g4 (K.argsOf m c) :=
  st_g4 (W68 m ρ c) (K.argsOf m c) (at_v323_68 m ρ c) (at_v224_68 m ρ c) (at_v320_68 m ρ c)
theorem at_v241_49 : W49 m ρ c (Proc.devRef .tc main_v241) = K.le2 (K.argsOf m c) := (W49_of m ρ c main_v241 (by decide)).trans (at_v241_48 m ρ c)
theorem at_v241_50 : W50 m ρ c (Proc.devRef .tc main_v241) = K.le2 (K.argsOf m c) := (W50_of m ρ c main_v241 (by decide)).trans (at_v241_49 m ρ c)
theorem at_v241_51 : W51 m ρ c (Proc.devRef .tc main_v241) = K.le2 (K.argsOf m c) := (W51_of m ρ c main_v241 (by decide)).trans (at_v241_50 m ρ c)
theorem at_v241_52 : W52 m ρ c (Proc.devRef .tc main_v241) = K.le2 (K.argsOf m c) := (W52_of m ρ c main_v241 (by decide)).trans (at_v241_51 m ρ c)
theorem at_v241_53 : W53 m ρ c (Proc.devRef .tc main_v241) = K.le2 (K.argsOf m c) := (W53_of m ρ c main_v241 (by decide)).trans (at_v241_52 m ρ c)
theorem at_v241_54 : W54 m ρ c (Proc.devRef .tc main_v241) = K.le2 (K.argsOf m c) := (W54_of m ρ c main_v241 (by decide)).trans (at_v241_53 m ρ c)
theorem at_v241_55 : W55 m ρ c (Proc.devRef .tc main_v241) = K.le2 (K.argsOf m c) := (W55_of m ρ c main_v241 (by decide)).trans (at_v241_54 m ρ c)
theorem at_v241_56 : W56 m ρ c (Proc.devRef .tc main_v241) = K.le2 (K.argsOf m c) := (W56_of m ρ c main_v241 (by decide)).trans (at_v241_55 m ρ c)
theorem at_v241_57 : W57 m ρ c (Proc.devRef .tc main_v241) = K.le2 (K.argsOf m c) := (W57_of m ρ c main_v241 (by decide)).trans (at_v241_56 m ρ c)
theorem at_v241_58 : W58 m ρ c (Proc.devRef .tc main_v241) = K.le2 (K.argsOf m c) := (W58_of m ρ c main_v241 (by decide)).trans (at_v241_57 m ρ c)
theorem at_v241_59 : W59 m ρ c (Proc.devRef .tc main_v241) = K.le2 (K.argsOf m c) := (W59_of m ρ c main_v241 (by decide)).trans (at_v241_58 m ρ c)
theorem at_v241_60 : W60 m ρ c (Proc.devRef .tc main_v241) = K.le2 (K.argsOf m c) := (W60_of m ρ c main_v241 (by decide)).trans (at_v241_59 m ρ c)
theorem at_v241_61 : W61 m ρ c (Proc.devRef .tc main_v241) = K.le2 (K.argsOf m c) := (W61_of m ρ c main_v241 (by decide)).trans (at_v241_60 m ρ c)
theorem at_v241_62 : W62 m ρ c (Proc.devRef .tc main_v241) = K.le2 (K.argsOf m c) := (W62_of m ρ c main_v241 (by decide)).trans (at_v241_61 m ρ c)
theorem at_v241_63 : W63 m ρ c (Proc.devRef .tc main_v241) = K.le2 (K.argsOf m c) := (W63_of m ρ c main_v241 (by decide)).trans (at_v241_62 m ρ c)
theorem at_v241_64 : W64 m ρ c (Proc.devRef .tc main_v241) = K.le2 (K.argsOf m c) := (W64_of m ρ c main_v241 (by decide)).trans (at_v241_63 m ρ c)
theorem at_v241_65 : W65 m ρ c (Proc.devRef .tc main_v241) = K.le2 (K.argsOf m c) := (W65_of m ρ c main_v241 (by decide)).trans (at_v241_64 m ρ c)
theorem at_v241_66 : W66 m ρ c (Proc.devRef .tc main_v241) = K.le2 (K.argsOf m c) := (W66_of m ρ c main_v241 (by decide)).trans (at_v241_65 m ρ c)
theorem at_v241_67 : W67 m ρ c (Proc.devRef .tc main_v241) = K.le2 (K.argsOf m c) := (W67_of m ρ c main_v241 (by decide)).trans (at_v241_66 m ρ c)
theorem at_v241_68 : W68 m ρ c (Proc.devRef .tc main_v241) = K.le2 (K.argsOf m c) := (W68_of m ρ c main_v241 (by decide)).trans (at_v241_67 m ρ c)
theorem at_arg3_37 : W37 m ρ c (Proc.devRef .tc main_arg3) = (K.argsOf m c).a3 := (W37_of m ρ c main_arg3 (by decide)).trans (at_arg3_36 m ρ c)
theorem at_arg3_38 : W38 m ρ c (Proc.devRef .tc main_arg3) = (K.argsOf m c).a3 := (W38_of m ρ c main_arg3 (by decide)).trans (at_arg3_37 m ρ c)
theorem at_arg3_39 : W39 m ρ c (Proc.devRef .tc main_arg3) = (K.argsOf m c).a3 := (W39_of m ρ c main_arg3 (by decide)).trans (at_arg3_38 m ρ c)
theorem at_arg3_40 : W40 m ρ c (Proc.devRef .tc main_arg3) = (K.argsOf m c).a3 := (W40_of m ρ c main_arg3 (by decide)).trans (at_arg3_39 m ρ c)
theorem at_arg3_41 : W41 m ρ c (Proc.devRef .tc main_arg3) = (K.argsOf m c).a3 := (W41_of m ρ c main_arg3 (by decide)).trans (at_arg3_40 m ρ c)
theorem at_arg3_42 : W42 m ρ c (Proc.devRef .tc main_arg3) = (K.argsOf m c).a3 := (W42_of m ρ c main_arg3 (by decide)).trans (at_arg3_41 m ρ c)
theorem at_arg3_43 : W43 m ρ c (Proc.devRef .tc main_arg3) = (K.argsOf m c).a3 := (W43_of m ρ c main_arg3 (by decide)).trans (at_arg3_42 m ρ c)
theorem at_arg3_44 : W44 m ρ c (Proc.devRef .tc main_arg3) = (K.argsOf m c).a3 := (W44_of m ρ c main_arg3 (by decide)).trans (at_arg3_43 m ρ c)
theorem at_arg3_45 : W45 m ρ c (Proc.devRef .tc main_arg3) = (K.argsOf m c).a3 := (W45_of m ρ c main_arg3 (by decide)).trans (at_arg3_44 m ρ c)
theorem at_arg3_46 : W46 m ρ c (Proc.devRef .tc main_arg3) = (K.argsOf m c).a3 := (W46_of m ρ c main_arg3 (by decide)).trans (at_arg3_45 m ρ c)
theorem at_arg3_47 : W47 m ρ c (Proc.devRef .tc main_arg3) = (K.argsOf m c).a3 := (W47_of m ρ c main_arg3 (by decide)).trans (at_arg3_46 m ρ c)
theorem at_arg3_48 : W48 m ρ c (Proc.devRef .tc main_arg3) = (K.argsOf m c).a3 := (W48_of m ρ c main_arg3 (by decide)).trans (at_arg3_47 m ρ c)
theorem at_arg3_49 : W49 m ρ c (Proc.devRef .tc main_arg3) = (K.argsOf m c).a3 := (W49_of m ρ c main_arg3 (by decide)).trans (at_arg3_48 m ρ c)
theorem at_arg3_50 : W50 m ρ c (Proc.devRef .tc main_arg3) = (K.argsOf m c).a3 := (W50_of m ρ c main_arg3 (by decide)).trans (at_arg3_49 m ρ c)
theorem at_arg3_51 : W51 m ρ c (Proc.devRef .tc main_arg3) = (K.argsOf m c).a3 := (W51_of m ρ c main_arg3 (by decide)).trans (at_arg3_50 m ρ c)
theorem at_arg3_52 : W52 m ρ c (Proc.devRef .tc main_arg3) = (K.argsOf m c).a3 := (W52_of m ρ c main_arg3 (by decide)).trans (at_arg3_51 m ρ c)
theorem at_arg3_53 : W53 m ρ c (Proc.devRef .tc main_arg3) = (K.argsOf m c).a3 := (W53_of m ρ c main_arg3 (by decide)).trans (at_arg3_52 m ρ c)
theorem at_arg3_54 : W54 m ρ c (Proc.devRef .tc main_arg3) = (K.argsOf m c).a3 := (W54_of m ρ c main_arg3 (by decide)).trans (at_arg3_53 m ρ c)
theorem at_arg3_55 : W55 m ρ c (Proc.devRef .tc main_arg3) = (K.argsOf m c).a3 := (W55_of m ρ c main_arg3 (by decide)).trans (at_arg3_54 m ρ c)
theorem at_arg3_56 : W56 m ρ c (Proc.devRef .tc main_arg3) = (K.argsOf m c).a3 := (W56_of m ρ c main_arg3 (by decide)).trans (at_arg3_55 m ρ c)
theorem at_arg3_57 : W57 m ρ c (Proc.devRef .tc main_arg3) = (K.argsOf m c).a3 := (W57_of m ρ c main_arg3 (by decide)).trans (at_arg3_56 m ρ c)
theorem at_arg3_58 : W58 m ρ c (Proc.devRef .tc main_arg3) = (K.argsOf m c).a3 := (W58_of m ρ c main_arg3 (by decide)).trans (at_arg3_57 m ρ c)
theorem at_arg3_59 : W59 m ρ c (Proc.devRef .tc main_arg3) = (K.argsOf m c).a3 := (W59_of m ρ c main_arg3 (by decide)).trans (at_arg3_58 m ρ c)
theorem at_arg3_60 : W60 m ρ c (Proc.devRef .tc main_arg3) = (K.argsOf m c).a3 := (W60_of m ρ c main_arg3 (by decide)).trans (at_arg3_59 m ρ c)
theorem at_arg3_61 : W61 m ρ c (Proc.devRef .tc main_arg3) = (K.argsOf m c).a3 := (W61_of m ρ c main_arg3 (by decide)).trans (at_arg3_60 m ρ c)
theorem at_arg3_62 : W62 m ρ c (Proc.devRef .tc main_arg3) = (K.argsOf m c).a3 := (W62_of m ρ c main_arg3 (by decide)).trans (at_arg3_61 m ρ c)
theorem at_arg3_63 : W63 m ρ c (Proc.devRef .tc main_arg3) = (K.argsOf m c).a3 := (W63_of m ρ c main_arg3 (by decide)).trans (at_arg3_62 m ρ c)
theorem at_arg3_64 : W64 m ρ c (Proc.devRef .tc main_arg3) = (K.argsOf m c).a3 := (W64_of m ρ c main_arg3 (by decide)).trans (at_arg3_63 m ρ c)
theorem at_arg3_65 : W65 m ρ c (Proc.devRef .tc main_arg3) = (K.argsOf m c).a3 := (W65_of m ρ c main_arg3 (by decide)).trans (at_arg3_64 m ρ c)
theorem at_arg3_66 : W66 m ρ c (Proc.devRef .tc main_arg3) = (K.argsOf m c).a3 := (W66_of m ρ c main_arg3 (by decide)).trans (at_arg3_65 m ρ c)
theorem at_arg3_67 : W67 m ρ c (Proc.devRef .tc main_arg3) = (K.argsOf m c).a3 := (W67_of m ρ c main_arg3 (by decide)).trans (at_arg3_66 m ρ c)
theorem at_arg3_68 : W68 m ρ c (Proc.devRef .tc main_arg3) = (K.argsOf m c).a3 := (W68_of m ρ c main_arg3 (by decide)).trans (at_arg3_67 m ρ c)
theorem at_v374_69 : W69 m ρ c (Proc.devRef .tc main_v374) = K.lin2 (K.argsOf m c) :=
  st_lin2 (W68 m ρ c) (K.argsOf m c) (at_v241_68 m ρ c) (at_arg3_68 m ρ c)
theorem at_v26_38 : W38 m ρ c (Proc.devRef .tc main_v26) = C_v26 (F := Ideal) (C_v25 (F := Ideal) (K.lr (K.argsOf m c)) ((K.argsOf m c).a0)) := (W38_of m ρ c main_v26 (by decide)).trans (at_v26_37 m ρ c)
theorem at_v26_39 : W39 m ρ c (Proc.devRef .tc main_v26) = C_v26 (F := Ideal) (C_v25 (F := Ideal) (K.lr (K.argsOf m c)) ((K.argsOf m c).a0)) := (W39_of m ρ c main_v26 (by decide)).trans (at_v26_38 m ρ c)
theorem at_v26_40 : W40 m ρ c (Proc.devRef .tc main_v26) = C_v26 (F := Ideal) (C_v25 (F := Ideal) (K.lr (K.argsOf m c)) ((K.argsOf m c).a0)) := (W40_of m ρ c main_v26 (by decide)).trans (at_v26_39 m ρ c)
theorem at_v26_41 : W41 m ρ c (Proc.devRef .tc main_v26) = C_v26 (F := Ideal) (C_v25 (F := Ideal) (K.lr (K.argsOf m c)) ((K.argsOf m c).a0)) := (W41_of m ρ c main_v26 (by decide)).trans (at_v26_40 m ρ c)
theorem at_v26_42 : W42 m ρ c (Proc.devRef .tc main_v26) = C_v26 (F := Ideal) (C_v25 (F := Ideal) (K.lr (K.argsOf m c)) ((K.argsOf m c).a0)) := (W42_of m ρ c main_v26 (by decide)).trans (at_v26_41 m ρ c)
theorem at_v26_43 : W43 m ρ c (Proc.devRef .tc main_v26) = C_v26 (F := Ideal) (C_v25 (F := Ideal) (K.lr (K.argsOf m c)) ((K.argsOf m c).a0)) := (W43_of m ρ c main_v26 (by decide)).trans (at_v26_42 m ρ c)
theorem at_v26_44 : W44 m ρ c (Proc.devRef .tc main_v26) = C_v26 (F := Ideal) (C_v25 (F := Ideal) (K.lr (K.argsOf m c)) ((K.argsOf m c).a0)) := (W44_of m ρ c main_v26 (by decide)).trans (at_v26_43 m ρ c)
theorem at_v26_45 : W45 m ρ c (Proc.devRef .tc main_v26) = C_v26 (F := Ideal) (C_v25 (F := Ideal) (K.lr (K.argsOf m c)) ((K.argsOf m c).a0)) := (W45_of m ρ c main_v26 (by decide)).trans (at_v26_44 m ρ c)
theorem at_v26_46 : W46 m ρ c (Proc.devRef .tc main_v26) = C_v26 (F := Ideal) (C_v25 (F := Ideal) (K.lr (K.argsOf m c)) ((K.argsOf m c).a0)) := (W46_of m ρ c main_v26 (by decide)).trans (at_v26_45 m ρ c)
theorem at_v26_47 : W47 m ρ c (Proc.devRef .tc main_v26) = C_v26 (F := Ideal) (C_v25 (F := Ideal) (K.lr (K.argsOf m c)) ((K.argsOf m c).a0)) := (W47_of m ρ c main_v26 (by decide)).trans (at_v26_46 m ρ c)
theorem at_v26_48 : W48 m ρ c (Proc.devRef .tc main_v26) = C_v26 (F := Ideal) (C_v25 (F := Ideal) (K.lr (K.argsOf m c)) ((K.argsOf m c).a0)) := (W48_of m ρ c main_v26 (by decide)).trans (at_v26_47 m ρ c)
theorem at_v26_49 : W49 m ρ c (Proc.devRef .tc main_v26) = C_v26 (F := Ideal) (C_v25 (F := Ideal) (K.lr (K.argsOf m c)) ((K.argsOf m c).a0)) := (W49_of m ρ c main_v26 (by decide)).trans (at_v26_48 m ρ c)
theorem at_v26_50 : W50 m ρ c (Proc.devRef .tc main_v26) = C_v26 (F := Ideal) (C_v25 (F := Ideal) (K.lr (K.argsOf m c)) ((K.argsOf m c).a0)) := (W50_of m ρ c main_v26 (by decide)).trans (at_v26_49 m ρ c)
theorem at_v26_51 : W51 m ρ c (Proc.devRef .tc main_v26) = C_v26 (F := Ideal) (C_v25 (F := Ideal) (K.lr (K.argsOf m c)) ((K.argsOf m c).a0)) := (W51_of m ρ c main_v26 (by decide)).trans (at_v26_50 m ρ c)
theorem at_v26_52 : W52 m ρ c (Proc.devRef .tc main_v26) = C_v26 (F := Ideal) (C_v25 (F := Ideal) (K.lr (K.argsOf m c)) ((K.argsOf m c).a0)) := (W52_of m ρ c main_v26 (by decide)).trans (at_v26_51 m ρ c)
theorem at_v26_53 : W53 m ρ c (Proc.devRef .tc main_v26) = C_v26 (F := Ideal) (C_v25 (F := Ideal) (K.lr (K.argsOf m c)) ((K.argsOf m c).a0)) := (W53_of m ρ c main_v26 (by decide)).trans (at_v26_52 m ρ c)
theorem at_v26_54 : W54 m ρ c (Proc.devRef .tc main_v26) = C_v26 (F := Ideal) (C_v25 (F := Ideal) (K.lr (K.argsOf m c)) ((K.argsOf m c).a0)) := (W54_of m ρ c main_v26 (by decide)).trans (at_v26_53 m ρ c)
theorem at_v26_55 : W55 m ρ c (Proc.devRef .tc main_v26) = C_v26 (F := Ideal) (C_v25 (F := Ideal) (K.lr (K.argsOf m c)) ((K.argsOf m c).a0)) := (W55_of m ρ c main_v26 (by decide)).trans (at_v26_54 m ρ c)
theorem at_v26_56 : W56 m ρ c (Proc.devRef .tc main_v26) = C_v26 (F := Ideal) (C_v25 (F := Ideal) (K.lr (K.argsOf m c)) ((K.argsOf m c).a0)) := (W56_of m ρ c main_v26 (by decide)).trans (at_v26_55 m ρ c)
theorem at_v26_57 : W57 m ρ c (Proc.devRef .tc main_v26) = C_v26 (F := Ideal) (C_v25 (F := Ideal) (K.lr (K.argsOf m c)) ((K.argsOf m c).a0)) := (W57_of m ρ c main_v26 (by decide)).trans (at_v26_56 m ρ c)
theorem at_v26_58 : W58 m ρ c (Proc.devRef .tc main_v26) = C_v26 (F := Ideal) (C_v25 (F := Ideal) (K.lr (K.argsOf m c)) ((K.argsOf m c).a0)) := (W58_of m ρ c main_v26 (by decide)).trans (at_v26_57 m ρ c)
theorem at_v26_59 : W59 m ρ c (Proc.devRef .tc main_v26) = C_v26 (F := Ideal) (C_v25 (F := Ideal) (K.lr (K.argsOf m c)) ((K.argsOf m c).a0)) := (W59_of m ρ c main_v26 (by decide)).trans (at_v26_58 m ρ c)
theorem at_v26_60 : W60 m ρ c (Proc.devRef .tc main_v26) = C_v26 (F := Ideal) (C_v25 (F := Ideal) (K.lr (K.argsOf m c)) ((K.argsOf m c).a0)) := (W60_of m ρ c main_v26 (by decide)).trans (at_v26_59 m ρ c)
theorem at_v26_61 : W61 m ρ c (Proc.devRef .tc main_v26) = C_v26 (F := Ideal) (C_v25 (F := Ideal) (K.lr (K.argsOf m c)) ((K.argsOf m c).a0)) := (W61_of m ρ c main_v26 (by decide)).trans (at_v26_60 m ρ c)
theorem at_v26_62 : W62 m ρ c (Proc.devRef .tc main_v26) = C_v26 (F := Ideal) (C_v25 (F := Ideal) (K.lr (K.argsOf m c)) ((K.argsOf m c).a0)) := (W62_of m ρ c main_v26 (by decide)).trans (at_v26_61 m ρ c)
theorem at_v26_63 : W63 m ρ c (Proc.devRef .tc main_v26) = C_v26 (F := Ideal) (C_v25 (F := Ideal) (K.lr (K.argsOf m c)) ((K.argsOf m c).a0)) := (W63_of m ρ c main_v26 (by decide)).trans (at_v26_62 m ρ c)
theorem at_v26_64 : W64 m ρ c (Proc.devRef .tc main_v26) = C_v26 (F := Ideal) (C_v25 (F := Ideal) (K.lr (K.argsOf m c)) ((K.argsOf m c).a0)) := (W64_of m ρ c main_v26 (by decide)).trans (at_v26_63 m ρ c)
theorem at_v26_65 : W65 m ρ c (Proc.devRef .tc main_v26) = C_v26 (F := Ideal) (C_v25 (F := Ideal) (K.lr (K.argsOf m c)) ((K.argsOf m c).a0)) := (W65_of m ρ c main_v26 (by decide)).trans (at_v26_64 m ρ c)
theorem at_v26_66 : W66 m ρ c (Proc.devRef .tc main_v26) = C_v26 (F := Ideal) (C_v25 (F := Ideal) (K.lr (K.argsOf m c)) ((K.argsOf m c).a0)) := (W66_of m ρ c main_v26 (by decide)).trans (at_v26_65 m ρ c)
theorem at_v26_67 : W67 m ρ c (Proc.devRef .tc main_v26) = C_v26 (F := Ideal) (C_v25 (F := Ideal) (K.lr (K.argsOf m c)) ((K.argsOf m c).a0)) := (W67_of m ρ c main_v26 (by decide)).trans (at_v26_66 m ρ c)
theorem at_v26_68 : W68 m ρ c (Proc.devRef .tc main_v26) = C_v26 (F := Ideal) (C_v25 (F := Ideal) (K.lr (K.argsOf m c)) ((K.argsOf m c).a0)) := (W68_of m ρ c main_v26 (by decide)).trans (at_v26_67 m ρ c)
theorem at_v26_69 : W69 m ρ c (Proc.devRef .tc main_v26) = C_v26 (F := Ideal) (C_v25 (F := Ideal) (K.lr (K.argsOf m c)) ((K.argsOf m c).a0)) := (W69_of m ρ c main_v26 (by decide)).trans (at_v26_68 m ρ c)
theorem at_c_49_69 : W69 m ρ c (Proc.devRef .tc main_c_49) = C_c_49 :=
  rd_c_49 (W68 m ρ c) (K.argsOf m c)
theorem at_v384_70 : W70 m ρ c (Proc.devRef .tc main_v384) = C_v384 (F := Ideal) (C_v26 (F := Ideal) (C_v25 (F := Ideal) (K.lr (K.argsOf m c)) ((K.argsOf m c).a0))) (C_c_49) :=
  (congrArg (fun l => StableHlo.after l (W69 m ρ c) (Proc.devRef .tc main_v384)) hostOps8_3_eq).trans (rd_v384 (W69 m ρ c) (K.argsOf m c) (at_v26_69 m ρ c) (at_c_49_69 m ρ c))
theorem at_v384_71 : W71 m ρ c (Proc.devRef .tc main_v384) = C_v384 (F := Ideal) (C_v26 (F := Ideal) (C_v25 (F := Ideal) (K.lr (K.argsOf m c)) ((K.argsOf m c).a0))) (C_c_49) := (W71_of m ρ c main_v384 (by decide)).trans (at_v384_70 m ρ c)
theorem at_v384_72 : W72 m ρ c (Proc.devRef .tc main_v384) = C_v384 (F := Ideal) (C_v26 (F := Ideal) (C_v25 (F := Ideal) (K.lr (K.argsOf m c)) ((K.argsOf m c).a0))) (C_c_49) := (W72_of m ρ c main_v384 (by decide)).trans (at_v384_71 m ρ c)
theorem at_v384_73 : W73 m ρ c (Proc.devRef .tc main_v384) = C_v384 (F := Ideal) (C_v26 (F := Ideal) (C_v25 (F := Ideal) (K.lr (K.argsOf m c)) ((K.argsOf m c).a0))) (C_c_49) := (W73_of m ρ c main_v384 (by decide)).trans (at_v384_72 m ρ c)
theorem at_v384_74 : W74 m ρ c (Proc.devRef .tc main_v384) = C_v384 (F := Ideal) (C_v26 (F := Ideal) (C_v25 (F := Ideal) (K.lr (K.argsOf m c)) ((K.argsOf m c).a0))) (C_c_49) := (W74_of m ρ c main_v384 (by decide)).trans (at_v384_73 m ρ c)
theorem at_v28_40 : W40 m ρ c (Proc.devRef .tc main_v28) = C_v28 (F := Ideal) (C_v27 (F := Ideal) (K.lc (K.argsOf m c)) ((K.argsOf m c).a0)) := (W40_of m ρ c main_v28 (by decide)).trans (at_v28_39 m ρ c)
theorem at_v28_41 : W41 m ρ c (Proc.devRef .tc main_v28) = C_v28 (F := Ideal) (C_v27 (F := Ideal) (K.lc (K.argsOf m c)) ((K.argsOf m c).a0)) := (W41_of m ρ c main_v28 (by decide)).trans (at_v28_40 m ρ c)
theorem at_v28_42 : W42 m ρ c (Proc.devRef .tc main_v28) = C_v28 (F := Ideal) (C_v27 (F := Ideal) (K.lc (K.argsOf m c)) ((K.argsOf m c).a0)) := (W42_of m ρ c main_v28 (by decide)).trans (at_v28_41 m ρ c)
theorem at_v28_43 : W43 m ρ c (Proc.devRef .tc main_v28) = C_v28 (F := Ideal) (C_v27 (F := Ideal) (K.lc (K.argsOf m c)) ((K.argsOf m c).a0)) := (W43_of m ρ c main_v28 (by decide)).trans (at_v28_42 m ρ c)
theorem at_v28_44 : W44 m ρ c (Proc.devRef .tc main_v28) = C_v28 (F := Ideal) (C_v27 (F := Ideal) (K.lc (K.argsOf m c)) ((K.argsOf m c).a0)) := (W44_of m ρ c main_v28 (by decide)).trans (at_v28_43 m ρ c)
theorem at_v28_45 : W45 m ρ c (Proc.devRef .tc main_v28) = C_v28 (F := Ideal) (C_v27 (F := Ideal) (K.lc (K.argsOf m c)) ((K.argsOf m c).a0)) := (W45_of m ρ c main_v28 (by decide)).trans (at_v28_44 m ρ c)
theorem at_v28_46 : W46 m ρ c (Proc.devRef .tc main_v28) = C_v28 (F := Ideal) (C_v27 (F := Ideal) (K.lc (K.argsOf m c)) ((K.argsOf m c).a0)) := (W46_of m ρ c main_v28 (by decide)).trans (at_v28_45 m ρ c)
theorem at_v28_47 : W47 m ρ c (Proc.devRef .tc main_v28) = C_v28 (F := Ideal) (C_v27 (F := Ideal) (K.lc (K.argsOf m c)) ((K.argsOf m c).a0)) := (W47_of m ρ c main_v28 (by decide)).trans (at_v28_46 m ρ c)
theorem at_v28_48 : W48 m ρ c (Proc.devRef .tc main_v28) = C_v28 (F := Ideal) (C_v27 (F := Ideal) (K.lc (K.argsOf m c)) ((K.argsOf m c).a0)) := (W48_of m ρ c main_v28 (by decide)).trans (at_v28_47 m ρ c)
theorem at_v28_49 : W49 m ρ c (Proc.devRef .tc main_v28) = C_v28 (F := Ideal) (C_v27 (F := Ideal) (K.lc (K.argsOf m c)) ((K.argsOf m c).a0)) := (W49_of m ρ c main_v28 (by decide)).trans (at_v28_48 m ρ c)
theorem at_v28_50 : W50 m ρ c (Proc.devRef .tc main_v28) = C_v28 (F := Ideal) (C_v27 (F := Ideal) (K.lc (K.argsOf m c)) ((K.argsOf m c).a0)) := (W50_of m ρ c main_v28 (by decide)).trans (at_v28_49 m ρ c)
theorem at_v28_51 : W51 m ρ c (Proc.devRef .tc main_v28) = C_v28 (F := Ideal) (C_v27 (F := Ideal) (K.lc (K.argsOf m c)) ((K.argsOf m c).a0)) := (W51_of m ρ c main_v28 (by decide)).trans (at_v28_50 m ρ c)
theorem at_v28_52 : W52 m ρ c (Proc.devRef .tc main_v28) = C_v28 (F := Ideal) (C_v27 (F := Ideal) (K.lc (K.argsOf m c)) ((K.argsOf m c).a0)) := (W52_of m ρ c main_v28 (by decide)).trans (at_v28_51 m ρ c)
theorem at_v28_53 : W53 m ρ c (Proc.devRef .tc main_v28) = C_v28 (F := Ideal) (C_v27 (F := Ideal) (K.lc (K.argsOf m c)) ((K.argsOf m c).a0)) := (W53_of m ρ c main_v28 (by decide)).trans (at_v28_52 m ρ c)
theorem at_v28_54 : W54 m ρ c (Proc.devRef .tc main_v28) = C_v28 (F := Ideal) (C_v27 (F := Ideal) (K.lc (K.argsOf m c)) ((K.argsOf m c).a0)) := (W54_of m ρ c main_v28 (by decide)).trans (at_v28_53 m ρ c)
theorem at_v28_55 : W55 m ρ c (Proc.devRef .tc main_v28) = C_v28 (F := Ideal) (C_v27 (F := Ideal) (K.lc (K.argsOf m c)) ((K.argsOf m c).a0)) := (W55_of m ρ c main_v28 (by decide)).trans (at_v28_54 m ρ c)
theorem at_v28_56 : W56 m ρ c (Proc.devRef .tc main_v28) = C_v28 (F := Ideal) (C_v27 (F := Ideal) (K.lc (K.argsOf m c)) ((K.argsOf m c).a0)) := (W56_of m ρ c main_v28 (by decide)).trans (at_v28_55 m ρ c)
theorem at_v28_57 : W57 m ρ c (Proc.devRef .tc main_v28) = C_v28 (F := Ideal) (C_v27 (F := Ideal) (K.lc (K.argsOf m c)) ((K.argsOf m c).a0)) := (W57_of m ρ c main_v28 (by decide)).trans (at_v28_56 m ρ c)
theorem at_v28_58 : W58 m ρ c (Proc.devRef .tc main_v28) = C_v28 (F := Ideal) (C_v27 (F := Ideal) (K.lc (K.argsOf m c)) ((K.argsOf m c).a0)) := (W58_of m ρ c main_v28 (by decide)).trans (at_v28_57 m ρ c)
theorem at_v28_59 : W59 m ρ c (Proc.devRef .tc main_v28) = C_v28 (F := Ideal) (C_v27 (F := Ideal) (K.lc (K.argsOf m c)) ((K.argsOf m c).a0)) := (W59_of m ρ c main_v28 (by decide)).trans (at_v28_58 m ρ c)
theorem at_v28_60 : W60 m ρ c (Proc.devRef .tc main_v28) = C_v28 (F := Ideal) (C_v27 (F := Ideal) (K.lc (K.argsOf m c)) ((K.argsOf m c).a0)) := (W60_of m ρ c main_v28 (by decide)).trans (at_v28_59 m ρ c)
theorem at_v28_61 : W61 m ρ c (Proc.devRef .tc main_v28) = C_v28 (F := Ideal) (C_v27 (F := Ideal) (K.lc (K.argsOf m c)) ((K.argsOf m c).a0)) := (W61_of m ρ c main_v28 (by decide)).trans (at_v28_60 m ρ c)
theorem at_v28_62 : W62 m ρ c (Proc.devRef .tc main_v28) = C_v28 (F := Ideal) (C_v27 (F := Ideal) (K.lc (K.argsOf m c)) ((K.argsOf m c).a0)) := (W62_of m ρ c main_v28 (by decide)).trans (at_v28_61 m ρ c)
theorem at_v28_63 : W63 m ρ c (Proc.devRef .tc main_v28) = C_v28 (F := Ideal) (C_v27 (F := Ideal) (K.lc (K.argsOf m c)) ((K.argsOf m c).a0)) := (W63_of m ρ c main_v28 (by decide)).trans (at_v28_62 m ρ c)
theorem at_v28_64 : W64 m ρ c (Proc.devRef .tc main_v28) = C_v28 (F := Ideal) (C_v27 (F := Ideal) (K.lc (K.argsOf m c)) ((K.argsOf m c).a0)) := (W64_of m ρ c main_v28 (by decide)).trans (at_v28_63 m ρ c)
theorem at_v28_65 : W65 m ρ c (Proc.devRef .tc main_v28) = C_v28 (F := Ideal) (C_v27 (F := Ideal) (K.lc (K.argsOf m c)) ((K.argsOf m c).a0)) := (W65_of m ρ c main_v28 (by decide)).trans (at_v28_64 m ρ c)
theorem at_v28_66 : W66 m ρ c (Proc.devRef .tc main_v28) = C_v28 (F := Ideal) (C_v27 (F := Ideal) (K.lc (K.argsOf m c)) ((K.argsOf m c).a0)) := (W66_of m ρ c main_v28 (by decide)).trans (at_v28_65 m ρ c)
theorem at_v28_67 : W67 m ρ c (Proc.devRef .tc main_v28) = C_v28 (F := Ideal) (C_v27 (F := Ideal) (K.lc (K.argsOf m c)) ((K.argsOf m c).a0)) := (W67_of m ρ c main_v28 (by decide)).trans (at_v28_66 m ρ c)
theorem at_v28_68 : W68 m ρ c (Proc.devRef .tc main_v28) = C_v28 (F := Ideal) (C_v27 (F := Ideal) (K.lc (K.argsOf m c)) ((K.argsOf m c).a0)) := (W68_of m ρ c main_v28 (by decide)).trans (at_v28_67 m ρ c)
theorem at_v28_69 : W69 m ρ c (Proc.devRef .tc main_v28) = C_v28 (F := Ideal) (C_v27 (F := Ideal) (K.lc (K.argsOf m c)) ((K.argsOf m c).a0)) := (W69_of m ρ c main_v28 (by decide)).trans (at_v28_68 m ρ c)
theorem at_v28_70 : W70 m ρ c (Proc.devRef .tc main_v28) = C_v28 (F := Ideal) (C_v27 (F := Ideal) (K.lc (K.argsOf m c)) ((K.argsOf m c).a0)) := (W70_of m ρ c main_v28 (by decide)).trans (at_v28_69 m ρ c)
theorem at_v28_71 : W71 m ρ c (Proc.devRef .tc main_v28) = C_v28 (F := Ideal) (C_v27 (F := Ideal) (K.lc (K.argsOf m c)) ((K.argsOf m c).a0)) := (W71_of m ρ c main_v28 (by decide)).trans (at_v28_70 m ρ c)
theorem at_c_50_71 : W71 m ρ c (Proc.devRef .tc main_c_50) = C_c_50 :=
  rd_c_50 (W70 m ρ c) (K.argsOf m c)
theorem at_v385_72 : W72 m ρ c (Proc.devRef .tc main_v385) = C_v385 (F := Ideal) (C_v28 (F := Ideal) (C_v27 (F := Ideal) (K.lc (K.argsOf m c)) ((K.argsOf m c).a0))) (C_c_50) :=
  (congrArg (fun l => StableHlo.after l (W71 m ρ c) (Proc.devRef .tc main_v385)) hostOps8_5_eq).trans (rd_v385 (W71 m ρ c) (K.argsOf m c) (at_v28_71 m ρ c) (at_c_50_71 m ρ c))
theorem at_v385_73 : W73 m ρ c (Proc.devRef .tc main_v385) = C_v385 (F := Ideal) (C_v28 (F := Ideal) (C_v27 (F := Ideal) (K.lc (K.argsOf m c)) ((K.argsOf m c).a0))) (C_c_50) := (W73_of m ρ c main_v385 (by decide)).trans (at_v385_72 m ρ c)
theorem at_v385_74 : W74 m ρ c (Proc.devRef .tc main_v385) = C_v385 (F := Ideal) (C_v28 (F := Ideal) (C_v27 (F := Ideal) (K.lc (K.argsOf m c)) ((K.argsOf m c).a0))) (C_c_50) := (W74_of m ρ c main_v385 (by decide)).trans (at_v385_73 m ρ c)
theorem at_v375_69 : W69 m ρ c (Proc.devRef .tc main_v375) = C_v375 (F := Ideal) (K.le2 (K.argsOf m c)) ((K.argsOf m c).a3) :=
  rd_v375 (W68 m ρ c) (K.argsOf m c) (at_v241_68 m ρ c) (at_arg3_68 m ρ c)
theorem at_v375_70 : W70 m ρ c (Proc.devRef .tc main_v375) = C_v375 (F := Ideal) (K.le2 (K.argsOf m c)) ((K.argsOf m c).a3) := (W70_of m ρ c main_v375 (by decide)).trans (at_v375_69 m ρ c)
theorem at_v375_71 : W71 m ρ c (Proc.devRef .tc main_v375) = C_v375 (F := Ideal) (K.le2 (K.argsOf m c)) ((K.argsOf m c).a3) := (W71_of m ρ c main_v375 (by decide)).trans (at_v375_70 m ρ c)
theorem at_v375_72 : W72 m ρ c (Proc.devRef .tc main_v375) = C_v375 (F := Ideal) (K.le2 (K.argsOf m c)) ((K.argsOf m c).a3) := (W72_of m ρ c main_v375 (by decide)).trans (at_v375_71 m ρ c)
theorem at_v375_73 : W73 m ρ c (Proc.devRef .tc main_v375) = C_v375 (F := Ideal) (K.le2 (K.argsOf m c)) ((K.argsOf m c).a3) := (W73_of m ρ c main_v375 (by decide)).trans (at_v375_72 m ρ c)
theorem at_c_51_73 : W73 m ρ c (Proc.devRef .tc main_c_51) = C_c_51 :=
  rd_c_51 (W72 m ρ c) (K.argsOf m c)
theorem at_v386_74 : W74 m ρ c (Proc.devRef .tc main_v386) = C_v386 (F := Ideal) (C_v375 (F := Ideal) (K.le2 (K.argsOf m c)) ((K.argsOf m c).a3)) (C_c_51) :=
  (congrArg (fun l => StableHlo.after l (W73 m ρ c) (Proc.devRef .tc main_v386)) hostOps8_7_eq).trans (rd_v386 (W73 m ρ c) (K.argsOf m c) (at_v375_73 m ρ c) (at_c_51_73 m ρ c))
theorem at_arg5_37 : W37 m ρ c (Proc.devRef .tc main_arg5) = (K.argsOf m c).a5 := (W37_of m ρ c main_arg5 (by decide)).trans (at_arg5_36 m ρ c)
theorem at_arg5_38 : W38 m ρ c (Proc.devRef .tc main_arg5) = (K.argsOf m c).a5 := (W38_of m ρ c main_arg5 (by decide)).trans (at_arg5_37 m ρ c)
theorem at_arg5_39 : W39 m ρ c (Proc.devRef .tc main_arg5) = (K.argsOf m c).a5 := (W39_of m ρ c main_arg5 (by decide)).trans (at_arg5_38 m ρ c)
theorem at_arg5_40 : W40 m ρ c (Proc.devRef .tc main_arg5) = (K.argsOf m c).a5 := (W40_of m ρ c main_arg5 (by decide)).trans (at_arg5_39 m ρ c)
theorem at_arg5_41 : W41 m ρ c (Proc.devRef .tc main_arg5) = (K.argsOf m c).a5 := (W41_of m ρ c main_arg5 (by decide)).trans (at_arg5_40 m ρ c)
theorem at_arg5_42 : W42 m ρ c (Proc.devRef .tc main_arg5) = (K.argsOf m c).a5 := (W42_of m ρ c main_arg5 (by decide)).trans (at_arg5_41 m ρ c)
theorem at_arg5_43 : W43 m ρ c (Proc.devRef .tc main_arg5) = (K.argsOf m c).a5 := (W43_of m ρ c main_arg5 (by decide)).trans (at_arg5_42 m ρ c)
theorem at_arg5_44 : W44 m ρ c (Proc.devRef .tc main_arg5) = (K.argsOf m c).a5 := (W44_of m ρ c main_arg5 (by decide)).trans (at_arg5_43 m ρ c)
theorem at_arg5_45 : W45 m ρ c (Proc.devRef .tc main_arg5) = (K.argsOf m c).a5 := (W45_of m ρ c main_arg5 (by decide)).trans (at_arg5_44 m ρ c)
theorem at_arg5_46 : W46 m ρ c (Proc.devRef .tc main_arg5) = (K.argsOf m c).a5 := (W46_of m ρ c main_arg5 (by decide)).trans (at_arg5_45 m ρ c)
theorem at_arg5_47 : W47 m ρ c (Proc.devRef .tc main_arg5) = (K.argsOf m c).a5 := (W47_of m ρ c main_arg5 (by decide)).trans (at_arg5_46 m ρ c)
theorem at_arg5_48 : W48 m ρ c (Proc.devRef .tc main_arg5) = (K.argsOf m c).a5 := (W48_of m ρ c main_arg5 (by decide)).trans (at_arg5_47 m ρ c)
theorem at_arg5_49 : W49 m ρ c (Proc.devRef .tc main_arg5) = (K.argsOf m c).a5 := (W49_of m ρ c main_arg5 (by decide)).trans (at_arg5_48 m ρ c)
theorem at_arg5_50 : W50 m ρ c (Proc.devRef .tc main_arg5) = (K.argsOf m c).a5 := (W50_of m ρ c main_arg5 (by decide)).trans (at_arg5_49 m ρ c)
theorem at_arg5_51 : W51 m ρ c (Proc.devRef .tc main_arg5) = (K.argsOf m c).a5 := (W51_of m ρ c main_arg5 (by decide)).trans (at_arg5_50 m ρ c)
theorem at_arg5_52 : W52 m ρ c (Proc.devRef .tc main_arg5) = (K.argsOf m c).a5 := (W52_of m ρ c main_arg5 (by decide)).trans (at_arg5_51 m ρ c)
theorem at_arg5_53 : W53 m ρ c (Proc.devRef .tc main_arg5) = (K.argsOf m c).a5 := (W53_of m ρ c main_arg5 (by decide)).trans (at_arg5_52 m ρ c)
theorem at_arg5_54 : W54 m ρ c (Proc.devRef .tc main_arg5) = (K.argsOf m c).a5 := (W54_of m ρ c main_arg5 (by decide)).trans (at_arg5_53 m ρ c)
theorem at_arg5_55 : W55 m ρ c (Proc.devRef .tc main_arg5) = (K.argsOf m c).a5 := (W55_of m ρ c main_arg5 (by decide)).trans (at_arg5_54 m ρ c)
theorem at_arg5_56 : W56 m ρ c (Proc.devRef .tc main_arg5) = (K.argsOf m c).a5 := (W56_of m ρ c main_arg5 (by decide)).trans (at_arg5_55 m ρ c)
theorem at_arg5_57 : W57 m ρ c (Proc.devRef .tc main_arg5) = (K.argsOf m c).a5 := (W57_of m ρ c main_arg5 (by decide)).trans (at_arg5_56 m ρ c)
theorem at_arg5_58 : W58 m ρ c (Proc.devRef .tc main_arg5) = (K.argsOf m c).a5 := (W58_of m ρ c main_arg5 (by decide)).trans (at_arg5_57 m ρ c)
theorem at_arg5_59 : W59 m ρ c (Proc.devRef .tc main_arg5) = (K.argsOf m c).a5 := (W59_of m ρ c main_arg5 (by decide)).trans (at_arg5_58 m ρ c)
theorem at_arg5_60 : W60 m ρ c (Proc.devRef .tc main_arg5) = (K.argsOf m c).a5 := (W60_of m ρ c main_arg5 (by decide)).trans (at_arg5_59 m ρ c)
theorem at_arg5_61 : W61 m ρ c (Proc.devRef .tc main_arg5) = (K.argsOf m c).a5 := (W61_of m ρ c main_arg5 (by decide)).trans (at_arg5_60 m ρ c)
theorem at_arg5_62 : W62 m ρ c (Proc.devRef .tc main_arg5) = (K.argsOf m c).a5 := (W62_of m ρ c main_arg5 (by decide)).trans (at_arg5_61 m ρ c)
theorem at_arg5_63 : W63 m ρ c (Proc.devRef .tc main_arg5) = (K.argsOf m c).a5 := (W63_of m ρ c main_arg5 (by decide)).trans (at_arg5_62 m ρ c)
theorem at_arg5_64 : W64 m ρ c (Proc.devRef .tc main_arg5) = (K.argsOf m c).a5 := (W64_of m ρ c main_arg5 (by decide)).trans (at_arg5_63 m ρ c)
theorem at_arg5_65 : W65 m ρ c (Proc.devRef .tc main_arg5) = (K.argsOf m c).a5 := (W65_of m ρ c main_arg5 (by decide)).trans (at_arg5_64 m ρ c)
theorem at_arg5_66 : W66 m ρ c (Proc.devRef .tc main_arg5) = (K.argsOf m c).a5 := (W66_of m ρ c main_arg5 (by decide)).trans (at_arg5_65 m ρ c)
theorem at_arg5_67 : W67 m ρ c (Proc.devRef .tc main_arg5) = (K.argsOf m c).a5 := (W67_of m ρ c main_arg5 (by decide)).trans (at_arg5_66 m ρ c)
theorem at_arg5_68 : W68 m ρ c (Proc.devRef .tc main_arg5) = (K.argsOf m c).a5 := (W68_of m ρ c main_arg5 (by decide)).trans (at_arg5_67 m ρ c)
theorem at_v377_69 : W69 m ρ c (Proc.devRef .tc main_v377) = C_v377 (F := Ideal) ((K.argsOf m c).a5) :=
  rd_v377 (W68 m ρ c) (K.argsOf m c) (at_arg5_68 m ρ c)
theorem at_v377_70 : W70 m ρ c (Proc.devRef .tc main_v377) = C_v377 (F := Ideal) ((K.argsOf m c).a5) := (W70_of m ρ c main_v377 (by decide)).trans (at_v377_69 m ρ c)
theorem at_v377_71 : W71 m ρ c (Proc.devRef .tc main_v377) = C_v377 (F := Ideal) ((K.argsOf m c).a5) := (W71_of m ρ c main_v377 (by decide)).trans (at_v377_70 m ρ c)
theorem at_v377_72 : W72 m ρ c (Proc.devRef .tc main_v377) = C_v377 (F := Ideal) ((K.argsOf m c).a5) := (W72_of m ρ c main_v377 (by decide)).trans (at_v377_71 m ρ c)
theorem at_v377_73 : W73 m ρ c (Proc.devRef .tc main_v377) = C_v377 (F := Ideal) ((K.argsOf m c).a5) := (W73_of m ρ c main_v377 (by decide)).trans (at_v377_72 m ρ c)
theorem at_v377_74 : W74 m ρ c (Proc.devRef .tc main_v377) = C_v377 (F := Ideal) ((K.argsOf m c).a5) := (W74_of m ρ c main_v377 (by decide)).trans (at_v377_73 m ρ c)
theorem at_v378_69 : W69 m ρ c (Proc.devRef .tc main_v378) = C_v378 (F := Ideal) ((K.argsOf m c).a5) :=
  rd_v378 (W68 m ρ c) (K.argsOf m c) (at_arg5_68 m ρ c)
theorem at_v378_70 : W70 m ρ c (Proc.devRef .tc main_v378) = C_v378 (F := Ideal) ((K.argsOf m c).a5) := (W70_of m ρ c main_v378 (by decide)).trans (at_v378_69 m ρ c)
theorem at_v378_71 : W71 m ρ c (Proc.devRef .tc main_v378) = C_v378 (F := Ideal) ((K.argsOf m c).a5) := (W71_of m ρ c main_v378 (by decide)).trans (at_v378_70 m ρ c)
theorem at_v378_72 : W72 m ρ c (Proc.devRef .tc main_v378) = C_v378 (F := Ideal) ((K.argsOf m c).a5) := (W72_of m ρ c main_v378 (by decide)).trans (at_v378_71 m ρ c)
theorem at_v378_73 : W73 m ρ c (Proc.devRef .tc main_v378) = C_v378 (F := Ideal) ((K.argsOf m c).a5) := (W73_of m ρ c main_v378 (by decide)).trans (at_v378_72 m ρ c)
theorem at_v378_74 : W74 m ρ c (Proc.devRef .tc main_v378) = C_v378 (F := Ideal) ((K.argsOf m c).a5) := (W74_of m ρ c main_v378 (by decide)).trans (at_v378_73 m ρ c)
theorem at_v379_69 : W69 m ρ c (Proc.devRef .tc main_v379) = C_v379 (F := Ideal) ((K.argsOf m c).a5) :=
  rd_v379 (W68 m ρ c) (K.argsOf m c) (at_arg5_68 m ρ c)
theorem at_v379_70 : W70 m ρ c (Proc.devRef .tc main_v379) = C_v379 (F := Ideal) ((K.argsOf m c).a5) := (W70_of m ρ c main_v379 (by decide)).trans (at_v379_69 m ρ c)
theorem at_v379_71 : W71 m ρ c (Proc.devRef .tc main_v379) = C_v379 (F := Ideal) ((K.argsOf m c).a5) := (W71_of m ρ c main_v379 (by decide)).trans (at_v379_70 m ρ c)
theorem at_v379_72 : W72 m ρ c (Proc.devRef .tc main_v379) = C_v379 (F := Ideal) ((K.argsOf m c).a5) := (W72_of m ρ c main_v379 (by decide)).trans (at_v379_71 m ρ c)
theorem at_v379_73 : W73 m ρ c (Proc.devRef .tc main_v379) = C_v379 (F := Ideal) ((K.argsOf m c).a5) := (W73_of m ρ c main_v379 (by decide)).trans (at_v379_72 m ρ c)
theorem at_v379_74 : W74 m ρ c (Proc.devRef .tc main_v379) = C_v379 (F := Ideal) ((K.argsOf m c).a5) := (W74_of m ρ c main_v379 (by decide)).trans (at_v379_73 m ρ c)
theorem at_arg6_37 : W37 m ρ c (Proc.devRef .tc main_arg6) = (K.argsOf m c).a6 := (W37_of m ρ c main_arg6 (by decide)).trans (at_arg6_36 m ρ c)
theorem at_arg6_38 : W38 m ρ c (Proc.devRef .tc main_arg6) = (K.argsOf m c).a6 := (W38_of m ρ c main_arg6 (by decide)).trans (at_arg6_37 m ρ c)
theorem at_arg6_39 : W39 m ρ c (Proc.devRef .tc main_arg6) = (K.argsOf m c).a6 := (W39_of m ρ c main_arg6 (by decide)).trans (at_arg6_38 m ρ c)
theorem at_arg6_40 : W40 m ρ c (Proc.devRef .tc main_arg6) = (K.argsOf m c).a6 := (W40_of m ρ c main_arg6 (by decide)).trans (at_arg6_39 m ρ c)
theorem at_arg6_41 : W41 m ρ c (Proc.devRef .tc main_arg6) = (K.argsOf m c).a6 := (W41_of m ρ c main_arg6 (by decide)).trans (at_arg6_40 m ρ c)
theorem at_arg6_42 : W42 m ρ c (Proc.devRef .tc main_arg6) = (K.argsOf m c).a6 := (W42_of m ρ c main_arg6 (by decide)).trans (at_arg6_41 m ρ c)
theorem at_arg6_43 : W43 m ρ c (Proc.devRef .tc main_arg6) = (K.argsOf m c).a6 := (W43_of m ρ c main_arg6 (by decide)).trans (at_arg6_42 m ρ c)
theorem at_arg6_44 : W44 m ρ c (Proc.devRef .tc main_arg6) = (K.argsOf m c).a6 := (W44_of m ρ c main_arg6 (by decide)).trans (at_arg6_43 m ρ c)
theorem at_arg6_45 : W45 m ρ c (Proc.devRef .tc main_arg6) = (K.argsOf m c).a6 := (W45_of m ρ c main_arg6 (by decide)).trans (at_arg6_44 m ρ c)
theorem at_arg6_46 : W46 m ρ c (Proc.devRef .tc main_arg6) = (K.argsOf m c).a6 := (W46_of m ρ c main_arg6 (by decide)).trans (at_arg6_45 m ρ c)
theorem at_arg6_47 : W47 m ρ c (Proc.devRef .tc main_arg6) = (K.argsOf m c).a6 := (W47_of m ρ c main_arg6 (by decide)).trans (at_arg6_46 m ρ c)
theorem at_arg6_48 : W48 m ρ c (Proc.devRef .tc main_arg6) = (K.argsOf m c).a6 := (W48_of m ρ c main_arg6 (by decide)).trans (at_arg6_47 m ρ c)
theorem at_arg6_49 : W49 m ρ c (Proc.devRef .tc main_arg6) = (K.argsOf m c).a6 := (W49_of m ρ c main_arg6 (by decide)).trans (at_arg6_48 m ρ c)
theorem at_arg6_50 : W50 m ρ c (Proc.devRef .tc main_arg6) = (K.argsOf m c).a6 := (W50_of m ρ c main_arg6 (by decide)).trans (at_arg6_49 m ρ c)
theorem at_arg6_51 : W51 m ρ c (Proc.devRef .tc main_arg6) = (K.argsOf m c).a6 := (W51_of m ρ c main_arg6 (by decide)).trans (at_arg6_50 m ρ c)
theorem at_arg6_52 : W52 m ρ c (Proc.devRef .tc main_arg6) = (K.argsOf m c).a6 := (W52_of m ρ c main_arg6 (by decide)).trans (at_arg6_51 m ρ c)
theorem at_arg6_53 : W53 m ρ c (Proc.devRef .tc main_arg6) = (K.argsOf m c).a6 := (W53_of m ρ c main_arg6 (by decide)).trans (at_arg6_52 m ρ c)
theorem at_arg6_54 : W54 m ρ c (Proc.devRef .tc main_arg6) = (K.argsOf m c).a6 := (W54_of m ρ c main_arg6 (by decide)).trans (at_arg6_53 m ρ c)
theorem at_arg6_55 : W55 m ρ c (Proc.devRef .tc main_arg6) = (K.argsOf m c).a6 := (W55_of m ρ c main_arg6 (by decide)).trans (at_arg6_54 m ρ c)
theorem at_arg6_56 : W56 m ρ c (Proc.devRef .tc main_arg6) = (K.argsOf m c).a6 := (W56_of m ρ c main_arg6 (by decide)).trans (at_arg6_55 m ρ c)
theorem at_arg6_57 : W57 m ρ c (Proc.devRef .tc main_arg6) = (K.argsOf m c).a6 := (W57_of m ρ c main_arg6 (by decide)).trans (at_arg6_56 m ρ c)
theorem at_arg6_58 : W58 m ρ c (Proc.devRef .tc main_arg6) = (K.argsOf m c).a6 := (W58_of m ρ c main_arg6 (by decide)).trans (at_arg6_57 m ρ c)
theorem at_arg6_59 : W59 m ρ c (Proc.devRef .tc main_arg6) = (K.argsOf m c).a6 := (W59_of m ρ c main_arg6 (by decide)).trans (at_arg6_58 m ρ c)
theorem at_arg6_60 : W60 m ρ c (Proc.devRef .tc main_arg6) = (K.argsOf m c).a6 := (W60_of m ρ c main_arg6 (by decide)).trans (at_arg6_59 m ρ c)
theorem at_arg6_61 : W61 m ρ c (Proc.devRef .tc main_arg6) = (K.argsOf m c).a6 := (W61_of m ρ c main_arg6 (by decide)).trans (at_arg6_60 m ρ c)
theorem at_arg6_62 : W62 m ρ c (Proc.devRef .tc main_arg6) = (K.argsOf m c).a6 := (W62_of m ρ c main_arg6 (by decide)).trans (at_arg6_61 m ρ c)
theorem at_arg6_63 : W63 m ρ c (Proc.devRef .tc main_arg6) = (K.argsOf m c).a6 := (W63_of m ρ c main_arg6 (by decide)).trans (at_arg6_62 m ρ c)
theorem at_arg6_64 : W64 m ρ c (Proc.devRef .tc main_arg6) = (K.argsOf m c).a6 := (W64_of m ρ c main_arg6 (by decide)).trans (at_arg6_63 m ρ c)
theorem at_arg6_65 : W65 m ρ c (Proc.devRef .tc main_arg6) = (K.argsOf m c).a6 := (W65_of m ρ c main_arg6 (by decide)).trans (at_arg6_64 m ρ c)
theorem at_arg6_66 : W66 m ρ c (Proc.devRef .tc main_arg6) = (K.argsOf m c).a6 := (W66_of m ρ c main_arg6 (by decide)).trans (at_arg6_65 m ρ c)
theorem at_arg6_67 : W67 m ρ c (Proc.devRef .tc main_arg6) = (K.argsOf m c).a6 := (W67_of m ρ c main_arg6 (by decide)).trans (at_arg6_66 m ρ c)
theorem at_arg6_68 : W68 m ρ c (Proc.devRef .tc main_arg6) = (K.argsOf m c).a6 := (W68_of m ρ c main_arg6 (by decide)).trans (at_arg6_67 m ρ c)
theorem at_v382_69 : W69 m ρ c (Proc.devRef .tc main_v382) = C_v382 (F := Ideal) ((K.argsOf m c).a6) (C_v323 (F := Ideal) (C_v322 (F := Ideal) (K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c)))) (K.ue2 (K.argsOf m c)) (K.g3 (K.argsOf m c)) (K.P11_gW1 (K.argsOf m c)) (K.P11_gb1 (K.argsOf m c)))) (K.P11_gW2 (K.argsOf m c)) (C_v320 (F := Ideal) (K.P11_gb2 (K.argsOf m c))) ((K.argsOf m c).a5) :=
  rd_v382 (W68 m ρ c) (K.argsOf m c) (at_arg6_68 m ρ c) (at_v323_68 m ρ c) (at_v224_68 m ρ c) (at_v320_68 m ρ c) (at_arg5_68 m ρ c)
theorem at_v382_70 : W70 m ρ c (Proc.devRef .tc main_v382) = C_v382 (F := Ideal) ((K.argsOf m c).a6) (C_v323 (F := Ideal) (C_v322 (F := Ideal) (K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c)))) (K.ue2 (K.argsOf m c)) (K.g3 (K.argsOf m c)) (K.P11_gW1 (K.argsOf m c)) (K.P11_gb1 (K.argsOf m c)))) (K.P11_gW2 (K.argsOf m c)) (C_v320 (F := Ideal) (K.P11_gb2 (K.argsOf m c))) ((K.argsOf m c).a5) := (W70_of m ρ c main_v382 (by decide)).trans (at_v382_69 m ρ c)
theorem at_v382_71 : W71 m ρ c (Proc.devRef .tc main_v382) = C_v382 (F := Ideal) ((K.argsOf m c).a6) (C_v323 (F := Ideal) (C_v322 (F := Ideal) (K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c)))) (K.ue2 (K.argsOf m c)) (K.g3 (K.argsOf m c)) (K.P11_gW1 (K.argsOf m c)) (K.P11_gb1 (K.argsOf m c)))) (K.P11_gW2 (K.argsOf m c)) (C_v320 (F := Ideal) (K.P11_gb2 (K.argsOf m c))) ((K.argsOf m c).a5) := (W71_of m ρ c main_v382 (by decide)).trans (at_v382_70 m ρ c)
theorem at_v382_72 : W72 m ρ c (Proc.devRef .tc main_v382) = C_v382 (F := Ideal) ((K.argsOf m c).a6) (C_v323 (F := Ideal) (C_v322 (F := Ideal) (K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c)))) (K.ue2 (K.argsOf m c)) (K.g3 (K.argsOf m c)) (K.P11_gW1 (K.argsOf m c)) (K.P11_gb1 (K.argsOf m c)))) (K.P11_gW2 (K.argsOf m c)) (C_v320 (F := Ideal) (K.P11_gb2 (K.argsOf m c))) ((K.argsOf m c).a5) := (W72_of m ρ c main_v382 (by decide)).trans (at_v382_71 m ρ c)
theorem at_v382_73 : W73 m ρ c (Proc.devRef .tc main_v382) = C_v382 (F := Ideal) ((K.argsOf m c).a6) (C_v323 (F := Ideal) (C_v322 (F := Ideal) (K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c)))) (K.ue2 (K.argsOf m c)) (K.g3 (K.argsOf m c)) (K.P11_gW1 (K.argsOf m c)) (K.P11_gb1 (K.argsOf m c)))) (K.P11_gW2 (K.argsOf m c)) (C_v320 (F := Ideal) (K.P11_gb2 (K.argsOf m c))) ((K.argsOf m c).a5) := (W73_of m ρ c main_v382 (by decide)).trans (at_v382_72 m ρ c)
theorem at_v382_74 : W74 m ρ c (Proc.devRef .tc main_v382) = C_v382 (F := Ideal) ((K.argsOf m c).a6) (C_v323 (F := Ideal) (C_v322 (F := Ideal) (K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c)))) (K.ue2 (K.argsOf m c)) (K.g3 (K.argsOf m c)) (K.P11_gW1 (K.argsOf m c)) (K.P11_gb1 (K.argsOf m c)))) (K.P11_gW2 (K.argsOf m c)) (C_v320 (F := Ideal) (K.P11_gb2 (K.argsOf m c))) ((K.argsOf m c).a5) := (W74_of m ρ c main_v382 (by decide)).trans (at_v382_73 m ρ c)
theorem at_arg7_37 : W37 m ρ c (Proc.devRef .tc main_arg7) = (K.argsOf m c).a7 := (W37_of m ρ c main_arg7 (by decide)).trans (at_arg7_36 m ρ c)
theorem at_arg7_38 : W38 m ρ c (Proc.devRef .tc main_arg7) = (K.argsOf m c).a7 := (W38_of m ρ c main_arg7 (by decide)).trans (at_arg7_37 m ρ c)
theorem at_arg7_39 : W39 m ρ c (Proc.devRef .tc main_arg7) = (K.argsOf m c).a7 := (W39_of m ρ c main_arg7 (by decide)).trans (at_arg7_38 m ρ c)
theorem at_arg7_40 : W40 m ρ c (Proc.devRef .tc main_arg7) = (K.argsOf m c).a7 := (W40_of m ρ c main_arg7 (by decide)).trans (at_arg7_39 m ρ c)
theorem at_arg7_41 : W41 m ρ c (Proc.devRef .tc main_arg7) = (K.argsOf m c).a7 := (W41_of m ρ c main_arg7 (by decide)).trans (at_arg7_40 m ρ c)
theorem at_arg7_42 : W42 m ρ c (Proc.devRef .tc main_arg7) = (K.argsOf m c).a7 := (W42_of m ρ c main_arg7 (by decide)).trans (at_arg7_41 m ρ c)
theorem at_arg7_43 : W43 m ρ c (Proc.devRef .tc main_arg7) = (K.argsOf m c).a7 := (W43_of m ρ c main_arg7 (by decide)).trans (at_arg7_42 m ρ c)
theorem at_arg7_44 : W44 m ρ c (Proc.devRef .tc main_arg7) = (K.argsOf m c).a7 := (W44_of m ρ c main_arg7 (by decide)).trans (at_arg7_43 m ρ c)
theorem at_arg7_45 : W45 m ρ c (Proc.devRef .tc main_arg7) = (K.argsOf m c).a7 := (W45_of m ρ c main_arg7 (by decide)).trans (at_arg7_44 m ρ c)
theorem at_arg7_46 : W46 m ρ c (Proc.devRef .tc main_arg7) = (K.argsOf m c).a7 := (W46_of m ρ c main_arg7 (by decide)).trans (at_arg7_45 m ρ c)
theorem at_arg7_47 : W47 m ρ c (Proc.devRef .tc main_arg7) = (K.argsOf m c).a7 := (W47_of m ρ c main_arg7 (by decide)).trans (at_arg7_46 m ρ c)
theorem at_arg7_48 : W48 m ρ c (Proc.devRef .tc main_arg7) = (K.argsOf m c).a7 := (W48_of m ρ c main_arg7 (by decide)).trans (at_arg7_47 m ρ c)
theorem at_arg7_49 : W49 m ρ c (Proc.devRef .tc main_arg7) = (K.argsOf m c).a7 := (W49_of m ρ c main_arg7 (by decide)).trans (at_arg7_48 m ρ c)
theorem at_arg7_50 : W50 m ρ c (Proc.devRef .tc main_arg7) = (K.argsOf m c).a7 := (W50_of m ρ c main_arg7 (by decide)).trans (at_arg7_49 m ρ c)
theorem at_arg7_51 : W51 m ρ c (Proc.devRef .tc main_arg7) = (K.argsOf m c).a7 := (W51_of m ρ c main_arg7 (by decide)).trans (at_arg7_50 m ρ c)
theorem at_arg7_52 : W52 m ρ c (Proc.devRef .tc main_arg7) = (K.argsOf m c).a7 := (W52_of m ρ c main_arg7 (by decide)).trans (at_arg7_51 m ρ c)
theorem at_arg7_53 : W53 m ρ c (Proc.devRef .tc main_arg7) = (K.argsOf m c).a7 := (W53_of m ρ c main_arg7 (by decide)).trans (at_arg7_52 m ρ c)
theorem at_arg7_54 : W54 m ρ c (Proc.devRef .tc main_arg7) = (K.argsOf m c).a7 := (W54_of m ρ c main_arg7 (by decide)).trans (at_arg7_53 m ρ c)
theorem at_arg7_55 : W55 m ρ c (Proc.devRef .tc main_arg7) = (K.argsOf m c).a7 := (W55_of m ρ c main_arg7 (by decide)).trans (at_arg7_54 m ρ c)
theorem at_arg7_56 : W56 m ρ c (Proc.devRef .tc main_arg7) = (K.argsOf m c).a7 := (W56_of m ρ c main_arg7 (by decide)).trans (at_arg7_55 m ρ c)
theorem at_arg7_57 : W57 m ρ c (Proc.devRef .tc main_arg7) = (K.argsOf m c).a7 := (W57_of m ρ c main_arg7 (by decide)).trans (at_arg7_56 m ρ c)
theorem at_arg7_58 : W58 m ρ c (Proc.devRef .tc main_arg7) = (K.argsOf m c).a7 := (W58_of m ρ c main_arg7 (by decide)).trans (at_arg7_57 m ρ c)
theorem at_arg7_59 : W59 m ρ c (Proc.devRef .tc main_arg7) = (K.argsOf m c).a7 := (W59_of m ρ c main_arg7 (by decide)).trans (at_arg7_58 m ρ c)
theorem at_arg7_60 : W60 m ρ c (Proc.devRef .tc main_arg7) = (K.argsOf m c).a7 := (W60_of m ρ c main_arg7 (by decide)).trans (at_arg7_59 m ρ c)
theorem at_arg7_61 : W61 m ρ c (Proc.devRef .tc main_arg7) = (K.argsOf m c).a7 := (W61_of m ρ c main_arg7 (by decide)).trans (at_arg7_60 m ρ c)
theorem at_arg7_62 : W62 m ρ c (Proc.devRef .tc main_arg7) = (K.argsOf m c).a7 := (W62_of m ρ c main_arg7 (by decide)).trans (at_arg7_61 m ρ c)
theorem at_arg7_63 : W63 m ρ c (Proc.devRef .tc main_arg7) = (K.argsOf m c).a7 := (W63_of m ρ c main_arg7 (by decide)).trans (at_arg7_62 m ρ c)
theorem at_arg7_64 : W64 m ρ c (Proc.devRef .tc main_arg7) = (K.argsOf m c).a7 := (W64_of m ρ c main_arg7 (by decide)).trans (at_arg7_63 m ρ c)
theorem at_arg7_65 : W65 m ρ c (Proc.devRef .tc main_arg7) = (K.argsOf m c).a7 := (W65_of m ρ c main_arg7 (by decide)).trans (at_arg7_64 m ρ c)
theorem at_arg7_66 : W66 m ρ c (Proc.devRef .tc main_arg7) = (K.argsOf m c).a7 := (W66_of m ρ c main_arg7 (by decide)).trans (at_arg7_65 m ρ c)
theorem at_arg7_67 : W67 m ρ c (Proc.devRef .tc main_arg7) = (K.argsOf m c).a7 := (W67_of m ρ c main_arg7 (by decide)).trans (at_arg7_66 m ρ c)
theorem at_arg7_68 : W68 m ρ c (Proc.devRef .tc main_arg7) = (K.argsOf m c).a7 := (W68_of m ρ c main_arg7 (by decide)).trans (at_arg7_67 m ρ c)
theorem at_v331_69 : W69 m ρ c (Proc.devRef .tc main_v331) = K.P02_eW2 (K.argsOf m c) :=
  pr_v331 (W68 m ρ c) (K.argsOf m c) (at_arg7_68 m ρ c)
theorem at_v331_70 : W70 m ρ c (Proc.devRef .tc main_v331) = K.P02_eW2 (K.argsOf m c) := (W70_of m ρ c main_v331 (by decide)).trans (at_v331_69 m ρ c)
theorem at_v331_71 : W71 m ρ c (Proc.devRef .tc main_v331) = K.P02_eW2 (K.argsOf m c) := (W71_of m ρ c main_v331 (by decide)).trans (at_v331_70 m ρ c)
theorem at_v331_72 : W72 m ρ c (Proc.devRef .tc main_v331) = K.P02_eW2 (K.argsOf m c) := (W72_of m ρ c main_v331 (by decide)).trans (at_v331_71 m ρ c)
theorem at_v331_73 : W73 m ρ c (Proc.devRef .tc main_v331) = K.P02_eW2 (K.argsOf m c) := (W73_of m ρ c main_v331 (by decide)).trans (at_v331_72 m ρ c)
theorem at_v331_74 : W74 m ρ c (Proc.devRef .tc main_v331) = K.P02_eW2 (K.argsOf m c) := (W74_of m ρ c main_v331 (by decide)).trans (at_v331_73 m ρ c)
theorem at_arg8_37 : W37 m ρ c (Proc.devRef .tc main_arg8) = (K.argsOf m c).a8 := (W37_of m ρ c main_arg8 (by decide)).trans (at_arg8_36 m ρ c)
theorem at_arg8_38 : W38 m ρ c (Proc.devRef .tc main_arg8) = (K.argsOf m c).a8 := (W38_of m ρ c main_arg8 (by decide)).trans (at_arg8_37 m ρ c)
theorem at_arg8_39 : W39 m ρ c (Proc.devRef .tc main_arg8) = (K.argsOf m c).a8 := (W39_of m ρ c main_arg8 (by decide)).trans (at_arg8_38 m ρ c)
theorem at_arg8_40 : W40 m ρ c (Proc.devRef .tc main_arg8) = (K.argsOf m c).a8 := (W40_of m ρ c main_arg8 (by decide)).trans (at_arg8_39 m ρ c)
theorem at_arg8_41 : W41 m ρ c (Proc.devRef .tc main_arg8) = (K.argsOf m c).a8 := (W41_of m ρ c main_arg8 (by decide)).trans (at_arg8_40 m ρ c)
theorem at_arg8_42 : W42 m ρ c (Proc.devRef .tc main_arg8) = (K.argsOf m c).a8 := (W42_of m ρ c main_arg8 (by decide)).trans (at_arg8_41 m ρ c)
theorem at_arg8_43 : W43 m ρ c (Proc.devRef .tc main_arg8) = (K.argsOf m c).a8 := (W43_of m ρ c main_arg8 (by decide)).trans (at_arg8_42 m ρ c)
theorem at_arg8_44 : W44 m ρ c (Proc.devRef .tc main_arg8) = (K.argsOf m c).a8 := (W44_of m ρ c main_arg8 (by decide)).trans (at_arg8_43 m ρ c)
theorem at_arg8_45 : W45 m ρ c (Proc.devRef .tc main_arg8) = (K.argsOf m c).a8 := (W45_of m ρ c main_arg8 (by decide)).trans (at_arg8_44 m ρ c)
theorem at_arg8_46 : W46 m ρ c (Proc.devRef .tc main_arg8) = (K.argsOf m c).a8 := (W46_of m ρ c main_arg8 (by decide)).trans (at_arg8_45 m ρ c)
theorem at_arg8_47 : W47 m ρ c (Proc.devRef .tc main_arg8) = (K.argsOf m c).a8 := (W47_of m ρ c main_arg8 (by decide)).trans (at_arg8_46 m ρ c)
theorem at_arg8_48 : W48 m ρ c (Proc.devRef .tc main_arg8) = (K.argsOf m c).a8 := (W48_of m ρ c main_arg8 (by decide)).trans (at_arg8_47 m ρ c)
theorem at_arg8_49 : W49 m ρ c (Proc.devRef .tc main_arg8) = (K.argsOf m c).a8 := (W49_of m ρ c main_arg8 (by decide)).trans (at_arg8_48 m ρ c)
theorem at_arg8_50 : W50 m ρ c (Proc.devRef .tc main_arg8) = (K.argsOf m c).a8 := (W50_of m ρ c main_arg8 (by decide)).trans (at_arg8_49 m ρ c)
theorem at_arg8_51 : W51 m ρ c (Proc.devRef .tc main_arg8) = (K.argsOf m c).a8 := (W51_of m ρ c main_arg8 (by decide)).trans (at_arg8_50 m ρ c)
theorem at_arg8_52 : W52 m ρ c (Proc.devRef .tc main_arg8) = (K.argsOf m c).a8 := (W52_of m ρ c main_arg8 (by decide)).trans (at_arg8_51 m ρ c)
theorem at_arg8_53 : W53 m ρ c (Proc.devRef .tc main_arg8) = (K.argsOf m c).a8 := (W53_of m ρ c main_arg8 (by decide)).trans (at_arg8_52 m ρ c)
theorem at_arg8_54 : W54 m ρ c (Proc.devRef .tc main_arg8) = (K.argsOf m c).a8 := (W54_of m ρ c main_arg8 (by decide)).trans (at_arg8_53 m ρ c)
theorem at_arg8_55 : W55 m ρ c (Proc.devRef .tc main_arg8) = (K.argsOf m c).a8 := (W55_of m ρ c main_arg8 (by decide)).trans (at_arg8_54 m ρ c)
theorem at_arg8_56 : W56 m ρ c (Proc.devRef .tc main_arg8) = (K.argsOf m c).a8 := (W56_of m ρ c main_arg8 (by decide)).trans (at_arg8_55 m ρ c)
theorem at_arg8_57 : W57 m ρ c (Proc.devRef .tc main_arg8) = (K.argsOf m c).a8 := (W57_of m ρ c main_arg8 (by decide)).trans (at_arg8_56 m ρ c)
theorem at_arg8_58 : W58 m ρ c (Proc.devRef .tc main_arg8) = (K.argsOf m c).a8 := (W58_of m ρ c main_arg8 (by decide)).trans (at_arg8_57 m ρ c)
theorem at_arg8_59 : W59 m ρ c (Proc.devRef .tc main_arg8) = (K.argsOf m c).a8 := (W59_of m ρ c main_arg8 (by decide)).trans (at_arg8_58 m ρ c)
theorem at_arg8_60 : W60 m ρ c (Proc.devRef .tc main_arg8) = (K.argsOf m c).a8 := (W60_of m ρ c main_arg8 (by decide)).trans (at_arg8_59 m ρ c)
theorem at_arg8_61 : W61 m ρ c (Proc.devRef .tc main_arg8) = (K.argsOf m c).a8 := (W61_of m ρ c main_arg8 (by decide)).trans (at_arg8_60 m ρ c)
theorem at_arg8_62 : W62 m ρ c (Proc.devRef .tc main_arg8) = (K.argsOf m c).a8 := (W62_of m ρ c main_arg8 (by decide)).trans (at_arg8_61 m ρ c)
theorem at_arg8_63 : W63 m ρ c (Proc.devRef .tc main_arg8) = (K.argsOf m c).a8 := (W63_of m ρ c main_arg8 (by decide)).trans (at_arg8_62 m ρ c)
theorem at_arg8_64 : W64 m ρ c (Proc.devRef .tc main_arg8) = (K.argsOf m c).a8 := (W64_of m ρ c main_arg8 (by decide)).trans (at_arg8_63 m ρ c)
theorem at_arg8_65 : W65 m ρ c (Proc.devRef .tc main_arg8) = (K.argsOf m c).a8 := (W65_of m ρ c main_arg8 (by decide)).trans (at_arg8_64 m ρ c)
theorem at_arg8_66 : W66 m ρ c (Proc.devRef .tc main_arg8) = (K.argsOf m c).a8 := (W66_of m ρ c main_arg8 (by decide)).trans (at_arg8_65 m ρ c)
theorem at_arg8_67 : W67 m ρ c (Proc.devRef .tc main_arg8) = (K.argsOf m c).a8 := (W67_of m ρ c main_arg8 (by decide)).trans (at_arg8_66 m ρ c)
theorem at_arg8_68 : W68 m ρ c (Proc.devRef .tc main_arg8) = (K.argsOf m c).a8 := (W68_of m ρ c main_arg8 (by decide)).trans (at_arg8_67 m ρ c)
theorem at_v383_69 : W69 m ρ c (Proc.devRef .tc main_v383) = C_v383 (F := Ideal) ((K.argsOf m c).a8) :=
  rd_v383 (W68 m ρ c) (K.argsOf m c) (at_arg8_68 m ρ c)
theorem at_v383_70 : W70 m ρ c (Proc.devRef .tc main_v383) = C_v383 (F := Ideal) ((K.argsOf m c).a8) := (W70_of m ρ c main_v383 (by decide)).trans (at_v383_69 m ρ c)
theorem at_v383_71 : W71 m ρ c (Proc.devRef .tc main_v383) = C_v383 (F := Ideal) ((K.argsOf m c).a8) := (W71_of m ρ c main_v383 (by decide)).trans (at_v383_70 m ρ c)
theorem at_v383_72 : W72 m ρ c (Proc.devRef .tc main_v383) = C_v383 (F := Ideal) ((K.argsOf m c).a8) := (W72_of m ρ c main_v383 (by decide)).trans (at_v383_71 m ρ c)
theorem at_v383_73 : W73 m ρ c (Proc.devRef .tc main_v383) = C_v383 (F := Ideal) ((K.argsOf m c).a8) := (W73_of m ρ c main_v383 (by decide)).trans (at_v383_72 m ρ c)
theorem at_v383_74 : W74 m ρ c (Proc.devRef .tc main_v383) = C_v383 (F := Ideal) ((K.argsOf m c).a8) := (W74_of m ρ c main_v383 (by decide)).trans (at_v383_73 m ρ c)
theorem at_v387_75 : W75 m ρ c (Proc.devRef .tc main_v387) = K.edgeFn (C_v384 (F := Ideal) (C_v26 (F := Ideal) (C_v25 (F := Ideal) (K.lr (K.argsOf m c)) ((K.argsOf m c).a0))) (C_c_49)) (C_v385 (F := Ideal) (C_v28 (F := Ideal) (C_v27 (F := Ideal) (K.lc (K.argsOf m c)) ((K.argsOf m c).a0))) (C_c_50)) (C_v386 (F := Ideal) (C_v375 (F := Ideal) (K.le2 (K.argsOf m c)) ((K.argsOf m c).a3)) (C_c_51)) (C_v377 (F := Ideal) ((K.argsOf m c).a5)) (C_v378 (F := Ideal) ((K.argsOf m c).a5)) (C_v379 (F := Ideal) ((K.argsOf m c).a5)) (C_v382 (F := Ideal) ((K.argsOf m c).a6) (C_v323 (F := Ideal) (C_v322 (F := Ideal) (K.nodeFn (C_v306 (F := Ideal) (C_v275 (F := Ideal) (K.ln2 (K.argsOf m c))) (C_c_43)) (C_v307 (F := Ideal) (K.ua2 (K.argsOf m c)) (C_c_44)) (C_v300 (F := Ideal) (K.P11_nW1 (K.argsOf m c))) (C_v301 (F := Ideal) (K.P11_nW1 (K.argsOf m c))) (C_v304 (F := Ideal) (K.P11_nb1 (K.argsOf m c)) (K.g3 (K.argsOf m c)) (K.P11_nW1 (K.argsOf m c))) (K.P11_nW2 (K.argsOf m c)) (C_v305 (F := Ideal) (K.P11_nb2 (K.argsOf m c)))) (K.ue2 (K.argsOf m c)) (K.g3 (K.argsOf m c)) (K.P11_gW1 (K.argsOf m c)) (K.P11_gb1 (K.argsOf m c)))) (K.P11_gW2 (K.argsOf m c)) (C_v320 (F := Ideal) (K.P11_gb2 (K.argsOf m c))) ((K.argsOf m c).a5)) (K.P02_eW2 (K.argsOf m c)) (C_v383 (F := Ideal) ((K.argsOf m c).a8)) :=
  (R8_read m ρ c).trans (by rw [at_v384_74 m ρ c, at_v385_74 m ρ c, at_v386_74 m ρ c, at_v377_74 m ρ c, at_v378_74 m ρ c, at_v379_74 m ρ c, at_v382_74 m ρ c, at_v331_74 m ρ c, at_v383_74 m ρ c])
theorem at_v388_76 : W76 m ρ c (Proc.devRef .tc main_v388) = K.le3 (K.argsOf m c) :=
  st_le3 (W75 m ρ c) (K.argsOf m c) (at_v387_75 m ρ c)
theorem at_v1_44 : W44 m ρ c (Proc.devRef .tc main_v1) = K.lr (K.argsOf m c) := (W44_of m ρ c main_v1 (by decide)).trans (at_v1_43 m ρ c)
theorem at_v1_45 : W45 m ρ c (Proc.devRef .tc main_v1) = K.lr (K.argsOf m c) := (W45_of m ρ c main_v1 (by decide)).trans (at_v1_44 m ρ c)
theorem at_v1_46 : W46 m ρ c (Proc.devRef .tc main_v1) = K.lr (K.argsOf m c) := (W46_of m ρ c main_v1 (by decide)).trans (at_v1_45 m ρ c)
theorem at_v1_47 : W47 m ρ c (Proc.devRef .tc main_v1) = K.lr (K.argsOf m c) := (W47_of m ρ c main_v1 (by decide)).trans (at_v1_46 m ρ c)
theorem at_v1_48 : W48 m ρ c (Proc.devRef .tc main_v1) = K.lr (K.argsOf m c) := (W48_of m ρ c main_v1 (by decide)).trans (at_v1_47 m ρ c)
theorem at_v1_49 : W49 m ρ c (Proc.devRef .tc main_v1) = K.lr (K.argsOf m c) := (W49_of m ρ c main_v1 (by decide)).trans (at_v1_48 m ρ c)
theorem at_v1_50 : W50 m ρ c (Proc.devRef .tc main_v1) = K.lr (K.argsOf m c) := (W50_of m ρ c main_v1 (by decide)).trans (at_v1_49 m ρ c)
theorem at_v1_51 : W51 m ρ c (Proc.devRef .tc main_v1) = K.lr (K.argsOf m c) := (W51_of m ρ c main_v1 (by decide)).trans (at_v1_50 m ρ c)
theorem at_v1_52 : W52 m ρ c (Proc.devRef .tc main_v1) = K.lr (K.argsOf m c) := (W52_of m ρ c main_v1 (by decide)).trans (at_v1_51 m ρ c)
theorem at_v1_53 : W53 m ρ c (Proc.devRef .tc main_v1) = K.lr (K.argsOf m c) := (W53_of m ρ c main_v1 (by decide)).trans (at_v1_52 m ρ c)
theorem at_v1_54 : W54 m ρ c (Proc.devRef .tc main_v1) = K.lr (K.argsOf m c) := (W54_of m ρ c main_v1 (by decide)).trans (at_v1_53 m ρ c)
theorem at_v1_55 : W55 m ρ c (Proc.devRef .tc main_v1) = K.lr (K.argsOf m c) := (W55_of m ρ c main_v1 (by decide)).trans (at_v1_54 m ρ c)
theorem at_v1_56 : W56 m ρ c (Proc.devRef .tc main_v1) = K.lr (K.argsOf m c) := (W56_of m ρ c main_v1 (by decide)).trans (at_v1_55 m ρ c)
theorem at_v1_57 : W57 m ρ c (Proc.devRef .tc main_v1) = K.lr (K.argsOf m c) := (W57_of m ρ c main_v1 (by decide)).trans (at_v1_56 m ρ c)
theorem at_v1_58 : W58 m ρ c (Proc.devRef .tc main_v1) = K.lr (K.argsOf m c) := (W58_of m ρ c main_v1 (by decide)).trans (at_v1_57 m ρ c)
theorem at_v1_59 : W59 m ρ c (Proc.devRef .tc main_v1) = K.lr (K.argsOf m c) := (W59_of m ρ c main_v1 (by decide)).trans (at_v1_58 m ρ c)
theorem at_v1_60 : W60 m ρ c (Proc.devRef .tc main_v1) = K.lr (K.argsOf m c) := (W60_of m ρ c main_v1 (by decide)).trans (at_v1_59 m ρ c)
theorem at_v1_61 : W61 m ρ c (Proc.devRef .tc main_v1) = K.lr (K.argsOf m c) := (W61_of m ρ c main_v1 (by decide)).trans (at_v1_60 m ρ c)
theorem at_v1_62 : W62 m ρ c (Proc.devRef .tc main_v1) = K.lr (K.argsOf m c) := (W62_of m ρ c main_v1 (by decide)).trans (at_v1_61 m ρ c)
theorem at_v1_63 : W63 m ρ c (Proc.devRef .tc main_v1) = K.lr (K.argsOf m c) := (W63_of m ρ c main_v1 (by decide)).trans (at_v1_62 m ρ c)
theorem at_v1_64 : W64 m ρ c (Proc.devRef .tc main_v1) = K.lr (K.argsOf m c) := (W64_of m ρ c main_v1 (by decide)).trans (at_v1_63 m ρ c)
theorem at_v1_65 : W65 m ρ c (Proc.devRef .tc main_v1) = K.lr (K.argsOf m c) := (W65_of m ρ c main_v1 (by decide)).trans (at_v1_64 m ρ c)
theorem at_v1_66 : W66 m ρ c (Proc.devRef .tc main_v1) = K.lr (K.argsOf m c) := (W66_of m ρ c main_v1 (by decide)).trans (at_v1_65 m ρ c)
theorem at_v1_67 : W67 m ρ c (Proc.devRef .tc main_v1) = K.lr (K.argsOf m c) := (W67_of m ρ c main_v1 (by decide)).trans (at_v1_66 m ρ c)
theorem at_v1_68 : W68 m ρ c (Proc.devRef .tc main_v1) = K.lr (K.argsOf m c) := (W68_of m ρ c main_v1 (by decide)).trans (at_v1_67 m ρ c)
theorem at_v1_69 : W69 m ρ c (Proc.devRef .tc main_v1) = K.lr (K.argsOf m c) := (W69_of m ρ c main_v1 (by decide)).trans (at_v1_68 m ρ c)
theorem at_v1_70 : W70 m ρ c (Proc.devRef .tc main_v1) = K.lr (K.argsOf m c) := (W70_of m ρ c main_v1 (by decide)).trans (at_v1_69 m ρ c)
theorem at_v1_71 : W71 m ρ c (Proc.devRef .tc main_v1) = K.lr (K.argsOf m c) := (W71_of m ρ c main_v1 (by decide)).trans (at_v1_70 m ρ c)
theorem at_v1_72 : W72 m ρ c (Proc.devRef .tc main_v1) = K.lr (K.argsOf m c) := (W72_of m ρ c main_v1 (by decide)).trans (at_v1_71 m ρ c)
theorem at_v1_73 : W73 m ρ c (Proc.devRef .tc main_v1) = K.lr (K.argsOf m c) := (W73_of m ρ c main_v1 (by decide)).trans (at_v1_72 m ρ c)
theorem at_v1_74 : W74 m ρ c (Proc.devRef .tc main_v1) = K.lr (K.argsOf m c) := (W74_of m ρ c main_v1 (by decide)).trans (at_v1_73 m ρ c)
theorem at_v1_75 : W75 m ρ c (Proc.devRef .tc main_v1) = K.lr (K.argsOf m c) := (W75_of m ρ c main_v1 (by decide)).trans (at_v1_74 m ρ c)
theorem at_v16_44 : W44 m ρ c (Proc.devRef .tc main_v16) = C_v16 (F := Ideal) ((K.argsOf m c).a1) := (W44_of m ρ c main_v16 (by decide)).trans (at_v16_43 m ρ c)
theorem at_v16_45 : W45 m ρ c (Proc.devRef .tc main_v16) = C_v16 (F := Ideal) ((K.argsOf m c).a1) := (W45_of m ρ c main_v16 (by decide)).trans (at_v16_44 m ρ c)
theorem at_v16_46 : W46 m ρ c (Proc.devRef .tc main_v16) = C_v16 (F := Ideal) ((K.argsOf m c).a1) := (W46_of m ρ c main_v16 (by decide)).trans (at_v16_45 m ρ c)
theorem at_v16_47 : W47 m ρ c (Proc.devRef .tc main_v16) = C_v16 (F := Ideal) ((K.argsOf m c).a1) := (W47_of m ρ c main_v16 (by decide)).trans (at_v16_46 m ρ c)
theorem at_v16_48 : W48 m ρ c (Proc.devRef .tc main_v16) = C_v16 (F := Ideal) ((K.argsOf m c).a1) := (W48_of m ρ c main_v16 (by decide)).trans (at_v16_47 m ρ c)
theorem at_v16_49 : W49 m ρ c (Proc.devRef .tc main_v16) = C_v16 (F := Ideal) ((K.argsOf m c).a1) := (W49_of m ρ c main_v16 (by decide)).trans (at_v16_48 m ρ c)
theorem at_v16_50 : W50 m ρ c (Proc.devRef .tc main_v16) = C_v16 (F := Ideal) ((K.argsOf m c).a1) := (W50_of m ρ c main_v16 (by decide)).trans (at_v16_49 m ρ c)
theorem at_v16_51 : W51 m ρ c (Proc.devRef .tc main_v16) = C_v16 (F := Ideal) ((K.argsOf m c).a1) := (W51_of m ρ c main_v16 (by decide)).trans (at_v16_50 m ρ c)
theorem at_v16_52 : W52 m ρ c (Proc.devRef .tc main_v16) = C_v16 (F := Ideal) ((K.argsOf m c).a1) := (W52_of m ρ c main_v16 (by decide)).trans (at_v16_51 m ρ c)
theorem at_v16_53 : W53 m ρ c (Proc.devRef .tc main_v16) = C_v16 (F := Ideal) ((K.argsOf m c).a1) := (W53_of m ρ c main_v16 (by decide)).trans (at_v16_52 m ρ c)
theorem at_v16_54 : W54 m ρ c (Proc.devRef .tc main_v16) = C_v16 (F := Ideal) ((K.argsOf m c).a1) := (W54_of m ρ c main_v16 (by decide)).trans (at_v16_53 m ρ c)
theorem at_v16_55 : W55 m ρ c (Proc.devRef .tc main_v16) = C_v16 (F := Ideal) ((K.argsOf m c).a1) := (W55_of m ρ c main_v16 (by decide)).trans (at_v16_54 m ρ c)
theorem at_v16_56 : W56 m ρ c (Proc.devRef .tc main_v16) = C_v16 (F := Ideal) ((K.argsOf m c).a1) := (W56_of m ρ c main_v16 (by decide)).trans (at_v16_55 m ρ c)
theorem at_v16_57 : W57 m ρ c (Proc.devRef .tc main_v16) = C_v16 (F := Ideal) ((K.argsOf m c).a1) := (W57_of m ρ c main_v16 (by decide)).trans (at_v16_56 m ρ c)
theorem at_v16_58 : W58 m ρ c (Proc.devRef .tc main_v16) = C_v16 (F := Ideal) ((K.argsOf m c).a1) := (W58_of m ρ c main_v16 (by decide)).trans (at_v16_57 m ρ c)
theorem at_v16_59 : W59 m ρ c (Proc.devRef .tc main_v16) = C_v16 (F := Ideal) ((K.argsOf m c).a1) := (W59_of m ρ c main_v16 (by decide)).trans (at_v16_58 m ρ c)
theorem at_v16_60 : W60 m ρ c (Proc.devRef .tc main_v16) = C_v16 (F := Ideal) ((K.argsOf m c).a1) := (W60_of m ρ c main_v16 (by decide)).trans (at_v16_59 m ρ c)
theorem at_v16_61 : W61 m ρ c (Proc.devRef .tc main_v16) = C_v16 (F := Ideal) ((K.argsOf m c).a1) := (W61_of m ρ c main_v16 (by decide)).trans (at_v16_60 m ρ c)
theorem at_v16_62 : W62 m ρ c (Proc.devRef .tc main_v16) = C_v16 (F := Ideal) ((K.argsOf m c).a1) := (W62_of m ρ c main_v16 (by decide)).trans (at_v16_61 m ρ c)
theorem at_v16_63 : W63 m ρ c (Proc.devRef .tc main_v16) = C_v16 (F := Ideal) ((K.argsOf m c).a1) := (W63_of m ρ c main_v16 (by decide)).trans (at_v16_62 m ρ c)
theorem at_v16_64 : W64 m ρ c (Proc.devRef .tc main_v16) = C_v16 (F := Ideal) ((K.argsOf m c).a1) := (W64_of m ρ c main_v16 (by decide)).trans (at_v16_63 m ρ c)
theorem at_v16_65 : W65 m ρ c (Proc.devRef .tc main_v16) = C_v16 (F := Ideal) ((K.argsOf m c).a1) := (W65_of m ρ c main_v16 (by decide)).trans (at_v16_64 m ρ c)
theorem at_v16_66 : W66 m ρ c (Proc.devRef .tc main_v16) = C_v16 (F := Ideal) ((K.argsOf m c).a1) := (W66_of m ρ c main_v16 (by decide)).trans (at_v16_65 m ρ c)
theorem at_v16_67 : W67 m ρ c (Proc.devRef .tc main_v16) = C_v16 (F := Ideal) ((K.argsOf m c).a1) := (W67_of m ρ c main_v16 (by decide)).trans (at_v16_66 m ρ c)
theorem at_v16_68 : W68 m ρ c (Proc.devRef .tc main_v16) = C_v16 (F := Ideal) ((K.argsOf m c).a1) := (W68_of m ρ c main_v16 (by decide)).trans (at_v16_67 m ρ c)
theorem at_v16_69 : W69 m ρ c (Proc.devRef .tc main_v16) = C_v16 (F := Ideal) ((K.argsOf m c).a1) := (W69_of m ρ c main_v16 (by decide)).trans (at_v16_68 m ρ c)
theorem at_v16_70 : W70 m ρ c (Proc.devRef .tc main_v16) = C_v16 (F := Ideal) ((K.argsOf m c).a1) := (W70_of m ρ c main_v16 (by decide)).trans (at_v16_69 m ρ c)
theorem at_v16_71 : W71 m ρ c (Proc.devRef .tc main_v16) = C_v16 (F := Ideal) ((K.argsOf m c).a1) := (W71_of m ρ c main_v16 (by decide)).trans (at_v16_70 m ρ c)
theorem at_v16_72 : W72 m ρ c (Proc.devRef .tc main_v16) = C_v16 (F := Ideal) ((K.argsOf m c).a1) := (W72_of m ρ c main_v16 (by decide)).trans (at_v16_71 m ρ c)
theorem at_v16_73 : W73 m ρ c (Proc.devRef .tc main_v16) = C_v16 (F := Ideal) ((K.argsOf m c).a1) := (W73_of m ρ c main_v16 (by decide)).trans (at_v16_72 m ρ c)
theorem at_v16_74 : W74 m ρ c (Proc.devRef .tc main_v16) = C_v16 (F := Ideal) ((K.argsOf m c).a1) := (W74_of m ρ c main_v16 (by decide)).trans (at_v16_73 m ρ c)
theorem at_v16_75 : W75 m ρ c (Proc.devRef .tc main_v16) = C_v16 (F := Ideal) ((K.argsOf m c).a1) := (W75_of m ρ c main_v16 (by decide)).trans (at_v16_74 m ρ c)
theorem at_v393_76 : W76 m ρ c (Proc.devRef .tc main_v393) = K.la3 (K.argsOf m c) :=
  st_la3 (W75 m ρ c) (K.argsOf m c) (at_v1_75 m ρ c) (at_v387_75 m ρ c) (at_v16_75 m ρ c)
theorem at_v24_45 : W45 m ρ c (Proc.devRef .tc main_v24) = C_v24 (F := Ideal) ((K.argsOf m c).a0) := (W45_of m ρ c main_v24 (by decide)).trans (at_v24_44 m ρ c)
theorem at_v24_46 : W46 m ρ c (Proc.devRef .tc main_v24) = C_v24 (F := Ideal) ((K.argsOf m c).a0) := (W46_of m ρ c main_v24 (by decide)).trans (at_v24_45 m ρ c)
theorem at_v24_47 : W47 m ρ c (Proc.devRef .tc main_v24) = C_v24 (F := Ideal) ((K.argsOf m c).a0) := (W47_of m ρ c main_v24 (by decide)).trans (at_v24_46 m ρ c)
theorem at_v24_48 : W48 m ρ c (Proc.devRef .tc main_v24) = C_v24 (F := Ideal) ((K.argsOf m c).a0) := (W48_of m ρ c main_v24 (by decide)).trans (at_v24_47 m ρ c)
theorem at_v24_49 : W49 m ρ c (Proc.devRef .tc main_v24) = C_v24 (F := Ideal) ((K.argsOf m c).a0) := (W49_of m ρ c main_v24 (by decide)).trans (at_v24_48 m ρ c)
theorem at_v24_50 : W50 m ρ c (Proc.devRef .tc main_v24) = C_v24 (F := Ideal) ((K.argsOf m c).a0) := (W50_of m ρ c main_v24 (by decide)).trans (at_v24_49 m ρ c)
theorem at_v24_51 : W51 m ρ c (Proc.devRef .tc main_v24) = C_v24 (F := Ideal) ((K.argsOf m c).a0) := (W51_of m ρ c main_v24 (by decide)).trans (at_v24_50 m ρ c)
theorem at_v24_52 : W52 m ρ c (Proc.devRef .tc main_v24) = C_v24 (F := Ideal) ((K.argsOf m c).a0) := (W52_of m ρ c main_v24 (by decide)).trans (at_v24_51 m ρ c)
theorem at_v24_53 : W53 m ρ c (Proc.devRef .tc main_v24) = C_v24 (F := Ideal) ((K.argsOf m c).a0) := (W53_of m ρ c main_v24 (by decide)).trans (at_v24_52 m ρ c)
theorem at_v24_54 : W54 m ρ c (Proc.devRef .tc main_v24) = C_v24 (F := Ideal) ((K.argsOf m c).a0) := (W54_of m ρ c main_v24 (by decide)).trans (at_v24_53 m ρ c)
theorem at_v24_55 : W55 m ρ c (Proc.devRef .tc main_v24) = C_v24 (F := Ideal) ((K.argsOf m c).a0) := (W55_of m ρ c main_v24 (by decide)).trans (at_v24_54 m ρ c)
theorem at_v24_56 : W56 m ρ c (Proc.devRef .tc main_v24) = C_v24 (F := Ideal) ((K.argsOf m c).a0) := (W56_of m ρ c main_v24 (by decide)).trans (at_v24_55 m ρ c)
theorem at_v24_57 : W57 m ρ c (Proc.devRef .tc main_v24) = C_v24 (F := Ideal) ((K.argsOf m c).a0) := (W57_of m ρ c main_v24 (by decide)).trans (at_v24_56 m ρ c)
theorem at_v24_58 : W58 m ρ c (Proc.devRef .tc main_v24) = C_v24 (F := Ideal) ((K.argsOf m c).a0) := (W58_of m ρ c main_v24 (by decide)).trans (at_v24_57 m ρ c)
theorem at_v24_59 : W59 m ρ c (Proc.devRef .tc main_v24) = C_v24 (F := Ideal) ((K.argsOf m c).a0) := (W59_of m ρ c main_v24 (by decide)).trans (at_v24_58 m ρ c)
theorem at_v24_60 : W60 m ρ c (Proc.devRef .tc main_v24) = C_v24 (F := Ideal) ((K.argsOf m c).a0) := (W60_of m ρ c main_v24 (by decide)).trans (at_v24_59 m ρ c)
theorem at_v24_61 : W61 m ρ c (Proc.devRef .tc main_v24) = C_v24 (F := Ideal) ((K.argsOf m c).a0) := (W61_of m ρ c main_v24 (by decide)).trans (at_v24_60 m ρ c)
theorem at_v24_62 : W62 m ρ c (Proc.devRef .tc main_v24) = C_v24 (F := Ideal) ((K.argsOf m c).a0) := (W62_of m ρ c main_v24 (by decide)).trans (at_v24_61 m ρ c)
theorem at_v24_63 : W63 m ρ c (Proc.devRef .tc main_v24) = C_v24 (F := Ideal) ((K.argsOf m c).a0) := (W63_of m ρ c main_v24 (by decide)).trans (at_v24_62 m ρ c)
theorem at_v24_64 : W64 m ρ c (Proc.devRef .tc main_v24) = C_v24 (F := Ideal) ((K.argsOf m c).a0) := (W64_of m ρ c main_v24 (by decide)).trans (at_v24_63 m ρ c)
theorem at_v24_65 : W65 m ρ c (Proc.devRef .tc main_v24) = C_v24 (F := Ideal) ((K.argsOf m c).a0) := (W65_of m ρ c main_v24 (by decide)).trans (at_v24_64 m ρ c)
theorem at_v24_66 : W66 m ρ c (Proc.devRef .tc main_v24) = C_v24 (F := Ideal) ((K.argsOf m c).a0) := (W66_of m ρ c main_v24 (by decide)).trans (at_v24_65 m ρ c)
theorem at_v24_67 : W67 m ρ c (Proc.devRef .tc main_v24) = C_v24 (F := Ideal) ((K.argsOf m c).a0) := (W67_of m ρ c main_v24 (by decide)).trans (at_v24_66 m ρ c)
theorem at_v24_68 : W68 m ρ c (Proc.devRef .tc main_v24) = C_v24 (F := Ideal) ((K.argsOf m c).a0) := (W68_of m ρ c main_v24 (by decide)).trans (at_v24_67 m ρ c)
theorem at_v24_69 : W69 m ρ c (Proc.devRef .tc main_v24) = C_v24 (F := Ideal) ((K.argsOf m c).a0) := (W69_of m ρ c main_v24 (by decide)).trans (at_v24_68 m ρ c)
theorem at_v24_70 : W70 m ρ c (Proc.devRef .tc main_v24) = C_v24 (F := Ideal) ((K.argsOf m c).a0) := (W70_of m ρ c main_v24 (by decide)).trans (at_v24_69 m ρ c)
theorem at_v24_71 : W71 m ρ c (Proc.devRef .tc main_v24) = C_v24 (F := Ideal) ((K.argsOf m c).a0) := (W71_of m ρ c main_v24 (by decide)).trans (at_v24_70 m ρ c)
theorem at_v24_72 : W72 m ρ c (Proc.devRef .tc main_v24) = C_v24 (F := Ideal) ((K.argsOf m c).a0) := (W72_of m ρ c main_v24 (by decide)).trans (at_v24_71 m ρ c)
theorem at_v24_73 : W73 m ρ c (Proc.devRef .tc main_v24) = C_v24 (F := Ideal) ((K.argsOf m c).a0) := (W73_of m ρ c main_v24 (by decide)).trans (at_v24_72 m ρ c)
theorem at_v24_74 : W74 m ρ c (Proc.devRef .tc main_v24) = C_v24 (F := Ideal) ((K.argsOf m c).a0) := (W74_of m ρ c main_v24 (by decide)).trans (at_v24_73 m ρ c)
theorem at_v24_75 : W75 m ρ c (Proc.devRef .tc main_v24) = C_v24 (F := Ideal) ((K.argsOf m c).a0) := (W75_of m ρ c main_v24 (by decide)).trans (at_v24_74 m ρ c)
theorem at_v24_76 : W76 m ρ c (Proc.devRef .tc main_v24) = C_v24 (F := Ideal) ((K.argsOf m c).a0) := (W76_of m ρ c main_v24 (by decide)).trans (at_v24_75 m ρ c)
theorem at_c_53_76 : W76 m ρ c (Proc.devRef .tc main_c_53) = C_c_53 :=
  rd_c_53 (W75 m ρ c) (K.argsOf m c)
theorem at_v401_77 : W77 m ρ c (Proc.devRef .tc main_v401) = C_v401 (F := Ideal) (C_v24 (F := Ideal) ((K.argsOf m c).a0)) (C_c_53) :=
  (congrArg (fun l => StableHlo.after l (W76 m ρ c) (Proc.devRef .tc main_v401)) hostOps9_1_eq).trans (rd_v401 (W76 m ρ c) (K.argsOf m c) (at_v24_76 m ρ c) (at_c_53_76 m ρ c))
theorem at_v401_78 : W78 m ρ c (Proc.devRef .tc main_v401) = C_v401 (F := Ideal) (C_v24 (F := Ideal) ((K.argsOf m c).a0)) (C_c_53) := (W78_of m ρ c main_v401 (by decide)).trans (at_v401_77 m ρ c)
theorem at_v401_79 : W79 m ρ c (Proc.devRef .tc main_v401) = C_v401 (F := Ideal) (C_v24 (F := Ideal) ((K.argsOf m c).a0)) (C_c_53) := (W79_of m ρ c main_v401 (by decide)).trans (at_v401_78 m ρ c)
theorem at_v393_77 : W77 m ρ c (Proc.devRef .tc main_v393) = K.la3 (K.argsOf m c) := (W77_of m ρ c main_v393 (by decide)).trans (at_v393_76 m ρ c)
theorem at_v393_78 : W78 m ρ c (Proc.devRef .tc main_v393) = K.la3 (K.argsOf m c) := (W78_of m ρ c main_v393 (by decide)).trans (at_v393_77 m ρ c)
theorem at_c_54_78 : W78 m ρ c (Proc.devRef .tc main_c_54) = C_c_54 :=
  rd_c_54 (W77 m ρ c) (K.argsOf m c)
theorem at_v402_79 : W79 m ρ c (Proc.devRef .tc main_v402) = C_v402 (F := Ideal) (K.la3 (K.argsOf m c)) (C_c_54) :=
  (congrArg (fun l => StableHlo.after l (W78 m ρ c) (Proc.devRef .tc main_v402)) hostOps9_3_eq).trans (rd_v402 (W78 m ρ c) (K.argsOf m c) (at_v393_78 m ρ c) (at_c_54_78 m ρ c))
theorem at_arg9_37 : W37 m ρ c (Proc.devRef .tc main_arg9) = (K.argsOf m c).a9 := (W37_of m ρ c main_arg9 (by decide)).trans (at_arg9_36 m ρ c)
theorem at_arg9_38 : W38 m ρ c (Proc.devRef .tc main_arg9) = (K.argsOf m c).a9 := (W38_of m ρ c main_arg9 (by decide)).trans (at_arg9_37 m ρ c)
theorem at_arg9_39 : W39 m ρ c (Proc.devRef .tc main_arg9) = (K.argsOf m c).a9 := (W39_of m ρ c main_arg9 (by decide)).trans (at_arg9_38 m ρ c)
theorem at_arg9_40 : W40 m ρ c (Proc.devRef .tc main_arg9) = (K.argsOf m c).a9 := (W40_of m ρ c main_arg9 (by decide)).trans (at_arg9_39 m ρ c)
theorem at_arg9_41 : W41 m ρ c (Proc.devRef .tc main_arg9) = (K.argsOf m c).a9 := (W41_of m ρ c main_arg9 (by decide)).trans (at_arg9_40 m ρ c)
theorem at_arg9_42 : W42 m ρ c (Proc.devRef .tc main_arg9) = (K.argsOf m c).a9 := (W42_of m ρ c main_arg9 (by decide)).trans (at_arg9_41 m ρ c)
theorem at_arg9_43 : W43 m ρ c (Proc.devRef .tc main_arg9) = (K.argsOf m c).a9 := (W43_of m ρ c main_arg9 (by decide)).trans (at_arg9_42 m ρ c)
theorem at_arg9_44 : W44 m ρ c (Proc.devRef .tc main_arg9) = (K.argsOf m c).a9 := (W44_of m ρ c main_arg9 (by decide)).trans (at_arg9_43 m ρ c)
theorem at_arg9_45 : W45 m ρ c (Proc.devRef .tc main_arg9) = (K.argsOf m c).a9 := (W45_of m ρ c main_arg9 (by decide)).trans (at_arg9_44 m ρ c)
theorem at_arg9_46 : W46 m ρ c (Proc.devRef .tc main_arg9) = (K.argsOf m c).a9 := (W46_of m ρ c main_arg9 (by decide)).trans (at_arg9_45 m ρ c)
theorem at_arg9_47 : W47 m ρ c (Proc.devRef .tc main_arg9) = (K.argsOf m c).a9 := (W47_of m ρ c main_arg9 (by decide)).trans (at_arg9_46 m ρ c)
theorem at_arg9_48 : W48 m ρ c (Proc.devRef .tc main_arg9) = (K.argsOf m c).a9 := (W48_of m ρ c main_arg9 (by decide)).trans (at_arg9_47 m ρ c)
theorem at_arg9_49 : W49 m ρ c (Proc.devRef .tc main_arg9) = (K.argsOf m c).a9 := (W49_of m ρ c main_arg9 (by decide)).trans (at_arg9_48 m ρ c)
theorem at_arg9_50 : W50 m ρ c (Proc.devRef .tc main_arg9) = (K.argsOf m c).a9 := (W50_of m ρ c main_arg9 (by decide)).trans (at_arg9_49 m ρ c)
theorem at_arg9_51 : W51 m ρ c (Proc.devRef .tc main_arg9) = (K.argsOf m c).a9 := (W51_of m ρ c main_arg9 (by decide)).trans (at_arg9_50 m ρ c)
theorem at_arg9_52 : W52 m ρ c (Proc.devRef .tc main_arg9) = (K.argsOf m c).a9 := (W52_of m ρ c main_arg9 (by decide)).trans (at_arg9_51 m ρ c)
theorem at_arg9_53 : W53 m ρ c (Proc.devRef .tc main_arg9) = (K.argsOf m c).a9 := (W53_of m ρ c main_arg9 (by decide)).trans (at_arg9_52 m ρ c)
theorem at_arg9_54 : W54 m ρ c (Proc.devRef .tc main_arg9) = (K.argsOf m c).a9 := (W54_of m ρ c main_arg9 (by decide)).trans (at_arg9_53 m ρ c)
theorem at_arg9_55 : W55 m ρ c (Proc.devRef .tc main_arg9) = (K.argsOf m c).a9 := (W55_of m ρ c main_arg9 (by decide)).trans (at_arg9_54 m ρ c)
theorem at_arg9_56 : W56 m ρ c (Proc.devRef .tc main_arg9) = (K.argsOf m c).a9 := (W56_of m ρ c main_arg9 (by decide)).trans (at_arg9_55 m ρ c)
theorem at_arg9_57 : W57 m ρ c (Proc.devRef .tc main_arg9) = (K.argsOf m c).a9 := (W57_of m ρ c main_arg9 (by decide)).trans (at_arg9_56 m ρ c)
theorem at_arg9_58 : W58 m ρ c (Proc.devRef .tc main_arg9) = (K.argsOf m c).a9 := (W58_of m ρ c main_arg9 (by decide)).trans (at_arg9_57 m ρ c)
theorem at_arg9_59 : W59 m ρ c (Proc.devRef .tc main_arg9) = (K.argsOf m c).a9 := (W59_of m ρ c main_arg9 (by decide)).trans (at_arg9_58 m ρ c)
theorem at_arg9_60 : W60 m ρ c (Proc.devRef .tc main_arg9) = (K.argsOf m c).a9 := (W60_of m ρ c main_arg9 (by decide)).trans (at_arg9_59 m ρ c)
theorem at_arg9_61 : W61 m ρ c (Proc.devRef .tc main_arg9) = (K.argsOf m c).a9 := (W61_of m ρ c main_arg9 (by decide)).trans (at_arg9_60 m ρ c)
theorem at_arg9_62 : W62 m ρ c (Proc.devRef .tc main_arg9) = (K.argsOf m c).a9 := (W62_of m ρ c main_arg9 (by decide)).trans (at_arg9_61 m ρ c)
theorem at_arg9_63 : W63 m ρ c (Proc.devRef .tc main_arg9) = (K.argsOf m c).a9 := (W63_of m ρ c main_arg9 (by decide)).trans (at_arg9_62 m ρ c)
theorem at_arg9_64 : W64 m ρ c (Proc.devRef .tc main_arg9) = (K.argsOf m c).a9 := (W64_of m ρ c main_arg9 (by decide)).trans (at_arg9_63 m ρ c)
theorem at_arg9_65 : W65 m ρ c (Proc.devRef .tc main_arg9) = (K.argsOf m c).a9 := (W65_of m ρ c main_arg9 (by decide)).trans (at_arg9_64 m ρ c)
theorem at_arg9_66 : W66 m ρ c (Proc.devRef .tc main_arg9) = (K.argsOf m c).a9 := (W66_of m ρ c main_arg9 (by decide)).trans (at_arg9_65 m ρ c)
theorem at_arg9_67 : W67 m ρ c (Proc.devRef .tc main_arg9) = (K.argsOf m c).a9 := (W67_of m ρ c main_arg9 (by decide)).trans (at_arg9_66 m ρ c)
theorem at_arg9_68 : W68 m ρ c (Proc.devRef .tc main_arg9) = (K.argsOf m c).a9 := (W68_of m ρ c main_arg9 (by decide)).trans (at_arg9_67 m ρ c)
theorem at_v335_69 : W69 m ρ c (Proc.devRef .tc main_v335) = K.P02_nW1 (K.argsOf m c) :=
  pr_v335 (W68 m ρ c) (K.argsOf m c) (at_arg9_68 m ρ c)
theorem at_v335_70 : W70 m ρ c (Proc.devRef .tc main_v335) = K.P02_nW1 (K.argsOf m c) := (W70_of m ρ c main_v335 (by decide)).trans (at_v335_69 m ρ c)
theorem at_v335_71 : W71 m ρ c (Proc.devRef .tc main_v335) = K.P02_nW1 (K.argsOf m c) := (W71_of m ρ c main_v335 (by decide)).trans (at_v335_70 m ρ c)
theorem at_v335_72 : W72 m ρ c (Proc.devRef .tc main_v335) = K.P02_nW1 (K.argsOf m c) := (W72_of m ρ c main_v335 (by decide)).trans (at_v335_71 m ρ c)
theorem at_v335_73 : W73 m ρ c (Proc.devRef .tc main_v335) = K.P02_nW1 (K.argsOf m c) := (W73_of m ρ c main_v335 (by decide)).trans (at_v335_72 m ρ c)
theorem at_v335_74 : W74 m ρ c (Proc.devRef .tc main_v335) = K.P02_nW1 (K.argsOf m c) := (W74_of m ρ c main_v335 (by decide)).trans (at_v335_73 m ρ c)
theorem at_v335_75 : W75 m ρ c (Proc.devRef .tc main_v335) = K.P02_nW1 (K.argsOf m c) := (W75_of m ρ c main_v335 (by decide)).trans (at_v335_74 m ρ c)
theorem at_v395_76 : W76 m ρ c (Proc.devRef .tc main_v395) = C_v395 (F := Ideal) (K.P02_nW1 (K.argsOf m c)) :=
  rd_v395 (W75 m ρ c) (K.argsOf m c) (at_v335_75 m ρ c)
theorem at_v395_77 : W77 m ρ c (Proc.devRef .tc main_v395) = C_v395 (F := Ideal) (K.P02_nW1 (K.argsOf m c)) := (W77_of m ρ c main_v395 (by decide)).trans (at_v395_76 m ρ c)
theorem at_v395_78 : W78 m ρ c (Proc.devRef .tc main_v395) = C_v395 (F := Ideal) (K.P02_nW1 (K.argsOf m c)) := (W78_of m ρ c main_v395 (by decide)).trans (at_v395_77 m ρ c)
theorem at_v395_79 : W79 m ρ c (Proc.devRef .tc main_v395) = C_v395 (F := Ideal) (K.P02_nW1 (K.argsOf m c)) := (W79_of m ρ c main_v395 (by decide)).trans (at_v395_78 m ρ c)
theorem at_v396_76 : W76 m ρ c (Proc.devRef .tc main_v396) = C_v396 (F := Ideal) (K.P02_nW1 (K.argsOf m c)) :=
  rd_v396 (W75 m ρ c) (K.argsOf m c) (at_v335_75 m ρ c)
theorem at_v396_77 : W77 m ρ c (Proc.devRef .tc main_v396) = C_v396 (F := Ideal) (K.P02_nW1 (K.argsOf m c)) := (W77_of m ρ c main_v396 (by decide)).trans (at_v396_76 m ρ c)
theorem at_v396_78 : W78 m ρ c (Proc.devRef .tc main_v396) = C_v396 (F := Ideal) (K.P02_nW1 (K.argsOf m c)) := (W78_of m ρ c main_v396 (by decide)).trans (at_v396_77 m ρ c)
theorem at_v396_79 : W79 m ρ c (Proc.devRef .tc main_v396) = C_v396 (F := Ideal) (K.P02_nW1 (K.argsOf m c)) := (W79_of m ρ c main_v396 (by decide)).trans (at_v396_78 m ρ c)
theorem at_arg10_37 : W37 m ρ c (Proc.devRef .tc main_arg10) = (K.argsOf m c).a10 := (W37_of m ρ c main_arg10 (by decide)).trans (at_arg10_36 m ρ c)
theorem at_arg10_38 : W38 m ρ c (Proc.devRef .tc main_arg10) = (K.argsOf m c).a10 := (W38_of m ρ c main_arg10 (by decide)).trans (at_arg10_37 m ρ c)
theorem at_arg10_39 : W39 m ρ c (Proc.devRef .tc main_arg10) = (K.argsOf m c).a10 := (W39_of m ρ c main_arg10 (by decide)).trans (at_arg10_38 m ρ c)
theorem at_arg10_40 : W40 m ρ c (Proc.devRef .tc main_arg10) = (K.argsOf m c).a10 := (W40_of m ρ c main_arg10 (by decide)).trans (at_arg10_39 m ρ c)
theorem at_arg10_41 : W41 m ρ c (Proc.devRef .tc main_arg10) = (K.argsOf m c).a10 := (W41_of m ρ c main_arg10 (by decide)).trans (at_arg10_40 m ρ c)
theorem at_arg10_42 : W42 m ρ c (Proc.devRef .tc main_arg10) = (K.argsOf m c).a10 := (W42_of m ρ c main_arg10 (by decide)).trans (at_arg10_41 m ρ c)
theorem at_arg10_43 : W43 m ρ c (Proc.devRef .tc main_arg10) = (K.argsOf m c).a10 := (W43_of m ρ c main_arg10 (by decide)).trans (at_arg10_42 m ρ c)
theorem at_arg10_44 : W44 m ρ c (Proc.devRef .tc main_arg10) = (K.argsOf m c).a10 := (W44_of m ρ c main_arg10 (by decide)).trans (at_arg10_43 m ρ c)
theorem at_arg10_45 : W45 m ρ c (Proc.devRef .tc main_arg10) = (K.argsOf m c).a10 := (W45_of m ρ c main_arg10 (by decide)).trans (at_arg10_44 m ρ c)
theorem at_arg10_46 : W46 m ρ c (Proc.devRef .tc main_arg10) = (K.argsOf m c).a10 := (W46_of m ρ c main_arg10 (by decide)).trans (at_arg10_45 m ρ c)
theorem at_arg10_47 : W47 m ρ c (Proc.devRef .tc main_arg10) = (K.argsOf m c).a10 := (W47_of m ρ c main_arg10 (by decide)).trans (at_arg10_46 m ρ c)
theorem at_arg10_48 : W48 m ρ c (Proc.devRef .tc main_arg10) = (K.argsOf m c).a10 := (W48_of m ρ c main_arg10 (by decide)).trans (at_arg10_47 m ρ c)
theorem at_arg10_49 : W49 m ρ c (Proc.devRef .tc main_arg10) = (K.argsOf m c).a10 := (W49_of m ρ c main_arg10 (by decide)).trans (at_arg10_48 m ρ c)
theorem at_arg10_50 : W50 m ρ c (Proc.devRef .tc main_arg10) = (K.argsOf m c).a10 := (W50_of m ρ c main_arg10 (by decide)).trans (at_arg10_49 m ρ c)
theorem at_arg10_51 : W51 m ρ c (Proc.devRef .tc main_arg10) = (K.argsOf m c).a10 := (W51_of m ρ c main_arg10 (by decide)).trans (at_arg10_50 m ρ c)
theorem at_arg10_52 : W52 m ρ c (Proc.devRef .tc main_arg10) = (K.argsOf m c).a10 := (W52_of m ρ c main_arg10 (by decide)).trans (at_arg10_51 m ρ c)
theorem at_arg10_53 : W53 m ρ c (Proc.devRef .tc main_arg10) = (K.argsOf m c).a10 := (W53_of m ρ c main_arg10 (by decide)).trans (at_arg10_52 m ρ c)
theorem at_arg10_54 : W54 m ρ c (Proc.devRef .tc main_arg10) = (K.argsOf m c).a10 := (W54_of m ρ c main_arg10 (by decide)).trans (at_arg10_53 m ρ c)
theorem at_arg10_55 : W55 m ρ c (Proc.devRef .tc main_arg10) = (K.argsOf m c).a10 := (W55_of m ρ c main_arg10 (by decide)).trans (at_arg10_54 m ρ c)
theorem at_arg10_56 : W56 m ρ c (Proc.devRef .tc main_arg10) = (K.argsOf m c).a10 := (W56_of m ρ c main_arg10 (by decide)).trans (at_arg10_55 m ρ c)
theorem at_arg10_57 : W57 m ρ c (Proc.devRef .tc main_arg10) = (K.argsOf m c).a10 := (W57_of m ρ c main_arg10 (by decide)).trans (at_arg10_56 m ρ c)
theorem at_arg10_58 : W58 m ρ c (Proc.devRef .tc main_arg10) = (K.argsOf m c).a10 := (W58_of m ρ c main_arg10 (by decide)).trans (at_arg10_57 m ρ c)
theorem at_arg10_59 : W59 m ρ c (Proc.devRef .tc main_arg10) = (K.argsOf m c).a10 := (W59_of m ρ c main_arg10 (by decide)).trans (at_arg10_58 m ρ c)
theorem at_arg10_60 : W60 m ρ c (Proc.devRef .tc main_arg10) = (K.argsOf m c).a10 := (W60_of m ρ c main_arg10 (by decide)).trans (at_arg10_59 m ρ c)
theorem at_arg10_61 : W61 m ρ c (Proc.devRef .tc main_arg10) = (K.argsOf m c).a10 := (W61_of m ρ c main_arg10 (by decide)).trans (at_arg10_60 m ρ c)
theorem at_arg10_62 : W62 m ρ c (Proc.devRef .tc main_arg10) = (K.argsOf m c).a10 := (W62_of m ρ c main_arg10 (by decide)).trans (at_arg10_61 m ρ c)
theorem at_arg10_63 : W63 m ρ c (Proc.devRef .tc main_arg10) = (K.argsOf m c).a10 := (W63_of m ρ c main_arg10 (by decide)).trans (at_arg10_62 m ρ c)
theorem at_arg10_64 : W64 m ρ c (Proc.devRef .tc main_arg10) = (K.argsOf m c).a10 := (W64_of m ρ c main_arg10 (by decide)).trans (at_arg10_63 m ρ c)
theorem at_arg10_65 : W65 m ρ c (Proc.devRef .tc main_arg10) = (K.argsOf m c).a10 := (W65_of m ρ c main_arg10 (by decide)).trans (at_arg10_64 m ρ c)
theorem at_arg10_66 : W66 m ρ c (Proc.devRef .tc main_arg10) = (K.argsOf m c).a10 := (W66_of m ρ c main_arg10 (by decide)).trans (at_arg10_65 m ρ c)
theorem at_arg10_67 : W67 m ρ c (Proc.devRef .tc main_arg10) = (K.argsOf m c).a10 := (W67_of m ρ c main_arg10 (by decide)).trans (at_arg10_66 m ρ c)
theorem at_arg10_68 : W68 m ρ c (Proc.devRef .tc main_arg10) = (K.argsOf m c).a10 := (W68_of m ρ c main_arg10 (by decide)).trans (at_arg10_67 m ρ c)
theorem at_v337_69 : W69 m ρ c (Proc.devRef .tc main_v337) = K.P02_nb1 (K.argsOf m c) :=
  pr_v337 (W68 m ρ c) (K.argsOf m c) (at_arg10_68 m ρ c)
theorem at_v337_70 : W70 m ρ c (Proc.devRef .tc main_v337) = K.P02_nb1 (K.argsOf m c) := (W70_of m ρ c main_v337 (by decide)).trans (at_v337_69 m ρ c)
theorem at_v337_71 : W71 m ρ c (Proc.devRef .tc main_v337) = K.P02_nb1 (K.argsOf m c) := (W71_of m ρ c main_v337 (by decide)).trans (at_v337_70 m ρ c)
theorem at_v337_72 : W72 m ρ c (Proc.devRef .tc main_v337) = K.P02_nb1 (K.argsOf m c) := (W72_of m ρ c main_v337 (by decide)).trans (at_v337_71 m ρ c)
theorem at_v337_73 : W73 m ρ c (Proc.devRef .tc main_v337) = K.P02_nb1 (K.argsOf m c) := (W73_of m ρ c main_v337 (by decide)).trans (at_v337_72 m ρ c)
theorem at_v337_74 : W74 m ρ c (Proc.devRef .tc main_v337) = K.P02_nb1 (K.argsOf m c) := (W74_of m ρ c main_v337 (by decide)).trans (at_v337_73 m ρ c)
theorem at_v337_75 : W75 m ρ c (Proc.devRef .tc main_v337) = K.P02_nb1 (K.argsOf m c) := (W75_of m ρ c main_v337 (by decide)).trans (at_v337_74 m ρ c)
theorem at_v325_70 : W70 m ρ c (Proc.devRef .tc main_v325) = K.g4 (K.argsOf m c) := (W70_of m ρ c main_v325 (by decide)).trans (at_v325_69 m ρ c)
theorem at_v325_71 : W71 m ρ c (Proc.devRef .tc main_v325) = K.g4 (K.argsOf m c) := (W71_of m ρ c main_v325 (by decide)).trans (at_v325_70 m ρ c)
theorem at_v325_72 : W72 m ρ c (Proc.devRef .tc main_v325) = K.g4 (K.argsOf m c) := (W72_of m ρ c main_v325 (by decide)).trans (at_v325_71 m ρ c)
theorem at_v325_73 : W73 m ρ c (Proc.devRef .tc main_v325) = K.g4 (K.argsOf m c) := (W73_of m ρ c main_v325 (by decide)).trans (at_v325_72 m ρ c)
theorem at_v325_74 : W74 m ρ c (Proc.devRef .tc main_v325) = K.g4 (K.argsOf m c) := (W74_of m ρ c main_v325 (by decide)).trans (at_v325_73 m ρ c)
theorem at_v325_75 : W75 m ρ c (Proc.devRef .tc main_v325) = K.g4 (K.argsOf m c) := (W75_of m ρ c main_v325 (by decide)).trans (at_v325_74 m ρ c)
theorem at_v399_76 : W76 m ρ c (Proc.devRef .tc main_v399) = C_v399 (F := Ideal) (K.P02_nb1 (K.argsOf m c)) (K.g4 (K.argsOf m c)) (K.P02_nW1 (K.argsOf m c)) :=
  rd_v399 (W75 m ρ c) (K.argsOf m c) (at_v337_75 m ρ c) (at_v325_75 m ρ c) (at_v335_75 m ρ c)
theorem at_v399_77 : W77 m ρ c (Proc.devRef .tc main_v399) = C_v399 (F := Ideal) (K.P02_nb1 (K.argsOf m c)) (K.g4 (K.argsOf m c)) (K.P02_nW1 (K.argsOf m c)) := (W77_of m ρ c main_v399 (by decide)).trans (at_v399_76 m ρ c)
theorem at_v399_78 : W78 m ρ c (Proc.devRef .tc main_v399) = C_v399 (F := Ideal) (K.P02_nb1 (K.argsOf m c)) (K.g4 (K.argsOf m c)) (K.P02_nW1 (K.argsOf m c)) := (W78_of m ρ c main_v399 (by decide)).trans (at_v399_77 m ρ c)
theorem at_v399_79 : W79 m ρ c (Proc.devRef .tc main_v399) = C_v399 (F := Ideal) (K.P02_nb1 (K.argsOf m c)) (K.g4 (K.argsOf m c)) (K.P02_nW1 (K.argsOf m c)) := (W79_of m ρ c main_v399 (by decide)).trans (at_v399_78 m ρ c)
theorem at_arg11_37 : W37 m ρ c (Proc.devRef .tc main_arg11) = (K.argsOf m c).a11 := (W37_of m ρ c main_arg11 (by decide)).trans (at_arg11_36 m ρ c)
theorem at_arg11_38 : W38 m ρ c (Proc.devRef .tc main_arg11) = (K.argsOf m c).a11 := (W38_of m ρ c main_arg11 (by decide)).trans (at_arg11_37 m ρ c)
theorem at_arg11_39 : W39 m ρ c (Proc.devRef .tc main_arg11) = (K.argsOf m c).a11 := (W39_of m ρ c main_arg11 (by decide)).trans (at_arg11_38 m ρ c)
theorem at_arg11_40 : W40 m ρ c (Proc.devRef .tc main_arg11) = (K.argsOf m c).a11 := (W40_of m ρ c main_arg11 (by decide)).trans (at_arg11_39 m ρ c)
theorem at_arg11_41 : W41 m ρ c (Proc.devRef .tc main_arg11) = (K.argsOf m c).a11 := (W41_of m ρ c main_arg11 (by decide)).trans (at_arg11_40 m ρ c)
theorem at_arg11_42 : W42 m ρ c (Proc.devRef .tc main_arg11) = (K.argsOf m c).a11 := (W42_of m ρ c main_arg11 (by decide)).trans (at_arg11_41 m ρ c)
theorem at_arg11_43 : W43 m ρ c (Proc.devRef .tc main_arg11) = (K.argsOf m c).a11 := (W43_of m ρ c main_arg11 (by decide)).trans (at_arg11_42 m ρ c)
theorem at_arg11_44 : W44 m ρ c (Proc.devRef .tc main_arg11) = (K.argsOf m c).a11 := (W44_of m ρ c main_arg11 (by decide)).trans (at_arg11_43 m ρ c)
theorem at_arg11_45 : W45 m ρ c (Proc.devRef .tc main_arg11) = (K.argsOf m c).a11 := (W45_of m ρ c main_arg11 (by decide)).trans (at_arg11_44 m ρ c)
theorem at_arg11_46 : W46 m ρ c (Proc.devRef .tc main_arg11) = (K.argsOf m c).a11 := (W46_of m ρ c main_arg11 (by decide)).trans (at_arg11_45 m ρ c)
theorem at_arg11_47 : W47 m ρ c (Proc.devRef .tc main_arg11) = (K.argsOf m c).a11 := (W47_of m ρ c main_arg11 (by decide)).trans (at_arg11_46 m ρ c)
theorem at_arg11_48 : W48 m ρ c (Proc.devRef .tc main_arg11) = (K.argsOf m c).a11 := (W48_of m ρ c main_arg11 (by decide)).trans (at_arg11_47 m ρ c)
theorem at_arg11_49 : W49 m ρ c (Proc.devRef .tc main_arg11) = (K.argsOf m c).a11 := (W49_of m ρ c main_arg11 (by decide)).trans (at_arg11_48 m ρ c)
theorem at_arg11_50 : W50 m ρ c (Proc.devRef .tc main_arg11) = (K.argsOf m c).a11 := (W50_of m ρ c main_arg11 (by decide)).trans (at_arg11_49 m ρ c)
theorem at_arg11_51 : W51 m ρ c (Proc.devRef .tc main_arg11) = (K.argsOf m c).a11 := (W51_of m ρ c main_arg11 (by decide)).trans (at_arg11_50 m ρ c)
theorem at_arg11_52 : W52 m ρ c (Proc.devRef .tc main_arg11) = (K.argsOf m c).a11 := (W52_of m ρ c main_arg11 (by decide)).trans (at_arg11_51 m ρ c)
theorem at_arg11_53 : W53 m ρ c (Proc.devRef .tc main_arg11) = (K.argsOf m c).a11 := (W53_of m ρ c main_arg11 (by decide)).trans (at_arg11_52 m ρ c)
theorem at_arg11_54 : W54 m ρ c (Proc.devRef .tc main_arg11) = (K.argsOf m c).a11 := (W54_of m ρ c main_arg11 (by decide)).trans (at_arg11_53 m ρ c)
theorem at_arg11_55 : W55 m ρ c (Proc.devRef .tc main_arg11) = (K.argsOf m c).a11 := (W55_of m ρ c main_arg11 (by decide)).trans (at_arg11_54 m ρ c)
theorem at_arg11_56 : W56 m ρ c (Proc.devRef .tc main_arg11) = (K.argsOf m c).a11 := (W56_of m ρ c main_arg11 (by decide)).trans (at_arg11_55 m ρ c)
theorem at_arg11_57 : W57 m ρ c (Proc.devRef .tc main_arg11) = (K.argsOf m c).a11 := (W57_of m ρ c main_arg11 (by decide)).trans (at_arg11_56 m ρ c)
theorem at_arg11_58 : W58 m ρ c (Proc.devRef .tc main_arg11) = (K.argsOf m c).a11 := (W58_of m ρ c main_arg11 (by decide)).trans (at_arg11_57 m ρ c)
theorem at_arg11_59 : W59 m ρ c (Proc.devRef .tc main_arg11) = (K.argsOf m c).a11 := (W59_of m ρ c main_arg11 (by decide)).trans (at_arg11_58 m ρ c)
theorem at_arg11_60 : W60 m ρ c (Proc.devRef .tc main_arg11) = (K.argsOf m c).a11 := (W60_of m ρ c main_arg11 (by decide)).trans (at_arg11_59 m ρ c)
theorem at_arg11_61 : W61 m ρ c (Proc.devRef .tc main_arg11) = (K.argsOf m c).a11 := (W61_of m ρ c main_arg11 (by decide)).trans (at_arg11_60 m ρ c)
theorem at_arg11_62 : W62 m ρ c (Proc.devRef .tc main_arg11) = (K.argsOf m c).a11 := (W62_of m ρ c main_arg11 (by decide)).trans (at_arg11_61 m ρ c)
theorem at_arg11_63 : W63 m ρ c (Proc.devRef .tc main_arg11) = (K.argsOf m c).a11 := (W63_of m ρ c main_arg11 (by decide)).trans (at_arg11_62 m ρ c)
theorem at_arg11_64 : W64 m ρ c (Proc.devRef .tc main_arg11) = (K.argsOf m c).a11 := (W64_of m ρ c main_arg11 (by decide)).trans (at_arg11_63 m ρ c)
theorem at_arg11_65 : W65 m ρ c (Proc.devRef .tc main_arg11) = (K.argsOf m c).a11 := (W65_of m ρ c main_arg11 (by decide)).trans (at_arg11_64 m ρ c)
theorem at_arg11_66 : W66 m ρ c (Proc.devRef .tc main_arg11) = (K.argsOf m c).a11 := (W66_of m ρ c main_arg11 (by decide)).trans (at_arg11_65 m ρ c)
theorem at_arg11_67 : W67 m ρ c (Proc.devRef .tc main_arg11) = (K.argsOf m c).a11 := (W67_of m ρ c main_arg11 (by decide)).trans (at_arg11_66 m ρ c)
theorem at_arg11_68 : W68 m ρ c (Proc.devRef .tc main_arg11) = (K.argsOf m c).a11 := (W68_of m ρ c main_arg11 (by decide)).trans (at_arg11_67 m ρ c)
theorem at_v339_69 : W69 m ρ c (Proc.devRef .tc main_v339) = K.P02_nW2 (K.argsOf m c) :=
  pr_v339 (W68 m ρ c) (K.argsOf m c) (at_arg11_68 m ρ c)
theorem at_v339_70 : W70 m ρ c (Proc.devRef .tc main_v339) = K.P02_nW2 (K.argsOf m c) := (W70_of m ρ c main_v339 (by decide)).trans (at_v339_69 m ρ c)
theorem at_v339_71 : W71 m ρ c (Proc.devRef .tc main_v339) = K.P02_nW2 (K.argsOf m c) := (W71_of m ρ c main_v339 (by decide)).trans (at_v339_70 m ρ c)
theorem at_v339_72 : W72 m ρ c (Proc.devRef .tc main_v339) = K.P02_nW2 (K.argsOf m c) := (W72_of m ρ c main_v339 (by decide)).trans (at_v339_71 m ρ c)
theorem at_v339_73 : W73 m ρ c (Proc.devRef .tc main_v339) = K.P02_nW2 (K.argsOf m c) := (W73_of m ρ c main_v339 (by decide)).trans (at_v339_72 m ρ c)
theorem at_v339_74 : W74 m ρ c (Proc.devRef .tc main_v339) = K.P02_nW2 (K.argsOf m c) := (W74_of m ρ c main_v339 (by decide)).trans (at_v339_73 m ρ c)
theorem at_v339_75 : W75 m ρ c (Proc.devRef .tc main_v339) = K.P02_nW2 (K.argsOf m c) := (W75_of m ρ c main_v339 (by decide)).trans (at_v339_74 m ρ c)
theorem at_v339_76 : W76 m ρ c (Proc.devRef .tc main_v339) = K.P02_nW2 (K.argsOf m c) := (W76_of m ρ c main_v339 (by decide)).trans (at_v339_75 m ρ c)
theorem at_v339_77 : W77 m ρ c (Proc.devRef .tc main_v339) = K.P02_nW2 (K.argsOf m c) := (W77_of m ρ c main_v339 (by decide)).trans (at_v339_76 m ρ c)
theorem at_v339_78 : W78 m ρ c (Proc.devRef .tc main_v339) = K.P02_nW2 (K.argsOf m c) := (W78_of m ρ c main_v339 (by decide)).trans (at_v339_77 m ρ c)
theorem at_v339_79 : W79 m ρ c (Proc.devRef .tc main_v339) = K.P02_nW2 (K.argsOf m c) := (W79_of m ρ c main_v339 (by decide)).trans (at_v339_78 m ρ c)
theorem at_arg12_37 : W37 m ρ c (Proc.devRef .tc main_arg12) = (K.argsOf m c).a12 := (W37_of m ρ c main_arg12 (by decide)).trans (at_arg12_36 m ρ c)
theorem at_arg12_38 : W38 m ρ c (Proc.devRef .tc main_arg12) = (K.argsOf m c).a12 := (W38_of m ρ c main_arg12 (by decide)).trans (at_arg12_37 m ρ c)
theorem at_arg12_39 : W39 m ρ c (Proc.devRef .tc main_arg12) = (K.argsOf m c).a12 := (W39_of m ρ c main_arg12 (by decide)).trans (at_arg12_38 m ρ c)
theorem at_arg12_40 : W40 m ρ c (Proc.devRef .tc main_arg12) = (K.argsOf m c).a12 := (W40_of m ρ c main_arg12 (by decide)).trans (at_arg12_39 m ρ c)
theorem at_arg12_41 : W41 m ρ c (Proc.devRef .tc main_arg12) = (K.argsOf m c).a12 := (W41_of m ρ c main_arg12 (by decide)).trans (at_arg12_40 m ρ c)
theorem at_arg12_42 : W42 m ρ c (Proc.devRef .tc main_arg12) = (K.argsOf m c).a12 := (W42_of m ρ c main_arg12 (by decide)).trans (at_arg12_41 m ρ c)
theorem at_arg12_43 : W43 m ρ c (Proc.devRef .tc main_arg12) = (K.argsOf m c).a12 := (W43_of m ρ c main_arg12 (by decide)).trans (at_arg12_42 m ρ c)
theorem at_arg12_44 : W44 m ρ c (Proc.devRef .tc main_arg12) = (K.argsOf m c).a12 := (W44_of m ρ c main_arg12 (by decide)).trans (at_arg12_43 m ρ c)
theorem at_arg12_45 : W45 m ρ c (Proc.devRef .tc main_arg12) = (K.argsOf m c).a12 := (W45_of m ρ c main_arg12 (by decide)).trans (at_arg12_44 m ρ c)
theorem at_arg12_46 : W46 m ρ c (Proc.devRef .tc main_arg12) = (K.argsOf m c).a12 := (W46_of m ρ c main_arg12 (by decide)).trans (at_arg12_45 m ρ c)
theorem at_arg12_47 : W47 m ρ c (Proc.devRef .tc main_arg12) = (K.argsOf m c).a12 := (W47_of m ρ c main_arg12 (by decide)).trans (at_arg12_46 m ρ c)
theorem at_arg12_48 : W48 m ρ c (Proc.devRef .tc main_arg12) = (K.argsOf m c).a12 := (W48_of m ρ c main_arg12 (by decide)).trans (at_arg12_47 m ρ c)
theorem at_arg12_49 : W49 m ρ c (Proc.devRef .tc main_arg12) = (K.argsOf m c).a12 := (W49_of m ρ c main_arg12 (by decide)).trans (at_arg12_48 m ρ c)
theorem at_arg12_50 : W50 m ρ c (Proc.devRef .tc main_arg12) = (K.argsOf m c).a12 := (W50_of m ρ c main_arg12 (by decide)).trans (at_arg12_49 m ρ c)
theorem at_arg12_51 : W51 m ρ c (Proc.devRef .tc main_arg12) = (K.argsOf m c).a12 := (W51_of m ρ c main_arg12 (by decide)).trans (at_arg12_50 m ρ c)
theorem at_arg12_52 : W52 m ρ c (Proc.devRef .tc main_arg12) = (K.argsOf m c).a12 := (W52_of m ρ c main_arg12 (by decide)).trans (at_arg12_51 m ρ c)
theorem at_arg12_53 : W53 m ρ c (Proc.devRef .tc main_arg12) = (K.argsOf m c).a12 := (W53_of m ρ c main_arg12 (by decide)).trans (at_arg12_52 m ρ c)
theorem at_arg12_54 : W54 m ρ c (Proc.devRef .tc main_arg12) = (K.argsOf m c).a12 := (W54_of m ρ c main_arg12 (by decide)).trans (at_arg12_53 m ρ c)
theorem at_arg12_55 : W55 m ρ c (Proc.devRef .tc main_arg12) = (K.argsOf m c).a12 := (W55_of m ρ c main_arg12 (by decide)).trans (at_arg12_54 m ρ c)
theorem at_arg12_56 : W56 m ρ c (Proc.devRef .tc main_arg12) = (K.argsOf m c).a12 := (W56_of m ρ c main_arg12 (by decide)).trans (at_arg12_55 m ρ c)
theorem at_arg12_57 : W57 m ρ c (Proc.devRef .tc main_arg12) = (K.argsOf m c).a12 := (W57_of m ρ c main_arg12 (by decide)).trans (at_arg12_56 m ρ c)
theorem at_arg12_58 : W58 m ρ c (Proc.devRef .tc main_arg12) = (K.argsOf m c).a12 := (W58_of m ρ c main_arg12 (by decide)).trans (at_arg12_57 m ρ c)
theorem at_arg12_59 : W59 m ρ c (Proc.devRef .tc main_arg12) = (K.argsOf m c).a12 := (W59_of m ρ c main_arg12 (by decide)).trans (at_arg12_58 m ρ c)
theorem at_arg12_60 : W60 m ρ c (Proc.devRef .tc main_arg12) = (K.argsOf m c).a12 := (W60_of m ρ c main_arg12 (by decide)).trans (at_arg12_59 m ρ c)
theorem at_arg12_61 : W61 m ρ c (Proc.devRef .tc main_arg12) = (K.argsOf m c).a12 := (W61_of m ρ c main_arg12 (by decide)).trans (at_arg12_60 m ρ c)
theorem at_arg12_62 : W62 m ρ c (Proc.devRef .tc main_arg12) = (K.argsOf m c).a12 := (W62_of m ρ c main_arg12 (by decide)).trans (at_arg12_61 m ρ c)
theorem at_arg12_63 : W63 m ρ c (Proc.devRef .tc main_arg12) = (K.argsOf m c).a12 := (W63_of m ρ c main_arg12 (by decide)).trans (at_arg12_62 m ρ c)
theorem at_arg12_64 : W64 m ρ c (Proc.devRef .tc main_arg12) = (K.argsOf m c).a12 := (W64_of m ρ c main_arg12 (by decide)).trans (at_arg12_63 m ρ c)
theorem at_arg12_65 : W65 m ρ c (Proc.devRef .tc main_arg12) = (K.argsOf m c).a12 := (W65_of m ρ c main_arg12 (by decide)).trans (at_arg12_64 m ρ c)
theorem at_arg12_66 : W66 m ρ c (Proc.devRef .tc main_arg12) = (K.argsOf m c).a12 := (W66_of m ρ c main_arg12 (by decide)).trans (at_arg12_65 m ρ c)
theorem at_arg12_67 : W67 m ρ c (Proc.devRef .tc main_arg12) = (K.argsOf m c).a12 := (W67_of m ρ c main_arg12 (by decide)).trans (at_arg12_66 m ρ c)
theorem at_arg12_68 : W68 m ρ c (Proc.devRef .tc main_arg12) = (K.argsOf m c).a12 := (W68_of m ρ c main_arg12 (by decide)).trans (at_arg12_67 m ρ c)
theorem at_v341_69 : W69 m ρ c (Proc.devRef .tc main_v341) = K.P02_nb2 (K.argsOf m c) :=
  pr_v341 (W68 m ρ c) (K.argsOf m c) (at_arg12_68 m ρ c)
theorem at_v341_70 : W70 m ρ c (Proc.devRef .tc main_v341) = K.P02_nb2 (K.argsOf m c) := (W70_of m ρ c main_v341 (by decide)).trans (at_v341_69 m ρ c)
theorem at_v341_71 : W71 m ρ c (Proc.devRef .tc main_v341) = K.P02_nb2 (K.argsOf m c) := (W71_of m ρ c main_v341 (by decide)).trans (at_v341_70 m ρ c)
theorem at_v341_72 : W72 m ρ c (Proc.devRef .tc main_v341) = K.P02_nb2 (K.argsOf m c) := (W72_of m ρ c main_v341 (by decide)).trans (at_v341_71 m ρ c)
theorem at_v341_73 : W73 m ρ c (Proc.devRef .tc main_v341) = K.P02_nb2 (K.argsOf m c) := (W73_of m ρ c main_v341 (by decide)).trans (at_v341_72 m ρ c)
theorem at_v341_74 : W74 m ρ c (Proc.devRef .tc main_v341) = K.P02_nb2 (K.argsOf m c) := (W74_of m ρ c main_v341 (by decide)).trans (at_v341_73 m ρ c)
theorem at_v341_75 : W75 m ρ c (Proc.devRef .tc main_v341) = K.P02_nb2 (K.argsOf m c) := (W75_of m ρ c main_v341 (by decide)).trans (at_v341_74 m ρ c)
theorem at_v400_76 : W76 m ρ c (Proc.devRef .tc main_v400) = C_v400 (F := Ideal) (K.P02_nb2 (K.argsOf m c)) :=
  rd_v400 (W75 m ρ c) (K.argsOf m c) (at_v341_75 m ρ c)
theorem at_v400_77 : W77 m ρ c (Proc.devRef .tc main_v400) = C_v400 (F := Ideal) (K.P02_nb2 (K.argsOf m c)) := (W77_of m ρ c main_v400 (by decide)).trans (at_v400_76 m ρ c)
theorem at_v400_78 : W78 m ρ c (Proc.devRef .tc main_v400) = C_v400 (F := Ideal) (K.P02_nb2 (K.argsOf m c)) := (W78_of m ρ c main_v400 (by decide)).trans (at_v400_77 m ρ c)
theorem at_v400_79 : W79 m ρ c (Proc.devRef .tc main_v400) = C_v400 (F := Ideal) (K.P02_nb2 (K.argsOf m c)) := (W79_of m ρ c main_v400 (by decide)).trans (at_v400_78 m ρ c)
theorem at_v403_80 : W80 m ρ c (Proc.devRef .tc main_v403) = K.nodeFn (C_v401 (F := Ideal) (C_v24 (F := Ideal) ((K.argsOf m c).a0)) (C_c_53)) (C_v402 (F := Ideal) (K.la3 (K.argsOf m c)) (C_c_54)) (C_v395 (F := Ideal) (K.P02_nW1 (K.argsOf m c))) (C_v396 (F := Ideal) (K.P02_nW1 (K.argsOf m c))) (C_v399 (F := Ideal) (K.P02_nb1 (K.argsOf m c)) (K.g4 (K.argsOf m c)) (K.P02_nW1 (K.argsOf m c))) (K.P02_nW2 (K.argsOf m c)) (C_v400 (F := Ideal) (K.P02_nb2 (K.argsOf m c))) :=
  (R9_read m ρ c).trans (by rw [at_v401_79 m ρ c, at_v402_79 m ρ c, at_v395_79 m ρ c, at_v396_79 m ρ c, at_v399_79 m ρ c, at_v339_79 m ρ c, at_v400_79 m ρ c])
theorem at_v404_81 : W81 m ρ c (Proc.devRef .tc main_v404) = K.ln3 (K.argsOf m c) :=
  st_ln3 (W80 m ρ c) (K.argsOf m c) (at_v403_80 m ρ c)
theorem at_v388_77 : W77 m ρ c (Proc.devRef .tc main_v388) = K.le3 (K.argsOf m c) := (W77_of m ρ c main_v388 (by decide)).trans (at_v388_76 m ρ c)
theorem at_v388_78 : W78 m ρ c (Proc.devRef .tc main_v388) = K.le3 (K.argsOf m c) := (W78_of m ρ c main_v388 (by decide)).trans (at_v388_77 m ρ c)
theorem at_v388_79 : W79 m ρ c (Proc.devRef .tc main_v388) = K.le3 (K.argsOf m c) := (W79_of m ρ c main_v388 (by decide)).trans (at_v388_78 m ρ c)
theorem at_v388_80 : W80 m ρ c (Proc.devRef .tc main_v388) = K.le3 (K.argsOf m c) := (W80_of m ρ c main_v388 (by decide)).trans (at_v388_79 m ρ c)
theorem at_v325_76 : W76 m ρ c (Proc.devRef .tc main_v325) = K.g4 (K.argsOf m c) := (W76_of m ρ c main_v325 (by decide)).trans (at_v325_75 m ρ c)
theorem at_v325_77 : W77 m ρ c (Proc.devRef .tc main_v325) = K.g4 (K.argsOf m c) := (W77_of m ρ c main_v325 (by decide)).trans (at_v325_76 m ρ c)
theorem at_v325_78 : W78 m ρ c (Proc.devRef .tc main_v325) = K.g4 (K.argsOf m c) := (W78_of m ρ c main_v325 (by decide)).trans (at_v325_77 m ρ c)
theorem at_v325_79 : W79 m ρ c (Proc.devRef .tc main_v325) = K.g4 (K.argsOf m c) := (W79_of m ρ c main_v325 (by decide)).trans (at_v325_78 m ρ c)
theorem at_v325_80 : W80 m ρ c (Proc.devRef .tc main_v325) = K.g4 (K.argsOf m c) := (W80_of m ρ c main_v325 (by decide)).trans (at_v325_79 m ρ c)
theorem at_arg13_37 : W37 m ρ c (Proc.devRef .tc main_arg13) = (K.argsOf m c).a13 := (W37_of m ρ c main_arg13 (by decide)).trans (at_arg13_36 m ρ c)
theorem at_arg13_38 : W38 m ρ c (Proc.devRef .tc main_arg13) = (K.argsOf m c).a13 := (W38_of m ρ c main_arg13 (by decide)).trans (at_arg13_37 m ρ c)
theorem at_arg13_39 : W39 m ρ c (Proc.devRef .tc main_arg13) = (K.argsOf m c).a13 := (W39_of m ρ c main_arg13 (by decide)).trans (at_arg13_38 m ρ c)
theorem at_arg13_40 : W40 m ρ c (Proc.devRef .tc main_arg13) = (K.argsOf m c).a13 := (W40_of m ρ c main_arg13 (by decide)).trans (at_arg13_39 m ρ c)
theorem at_arg13_41 : W41 m ρ c (Proc.devRef .tc main_arg13) = (K.argsOf m c).a13 := (W41_of m ρ c main_arg13 (by decide)).trans (at_arg13_40 m ρ c)
theorem at_arg13_42 : W42 m ρ c (Proc.devRef .tc main_arg13) = (K.argsOf m c).a13 := (W42_of m ρ c main_arg13 (by decide)).trans (at_arg13_41 m ρ c)
theorem at_arg13_43 : W43 m ρ c (Proc.devRef .tc main_arg13) = (K.argsOf m c).a13 := (W43_of m ρ c main_arg13 (by decide)).trans (at_arg13_42 m ρ c)
theorem at_arg13_44 : W44 m ρ c (Proc.devRef .tc main_arg13) = (K.argsOf m c).a13 := (W44_of m ρ c main_arg13 (by decide)).trans (at_arg13_43 m ρ c)
theorem at_arg13_45 : W45 m ρ c (Proc.devRef .tc main_arg13) = (K.argsOf m c).a13 := (W45_of m ρ c main_arg13 (by decide)).trans (at_arg13_44 m ρ c)
theorem at_arg13_46 : W46 m ρ c (Proc.devRef .tc main_arg13) = (K.argsOf m c).a13 := (W46_of m ρ c main_arg13 (by decide)).trans (at_arg13_45 m ρ c)
theorem at_arg13_47 : W47 m ρ c (Proc.devRef .tc main_arg13) = (K.argsOf m c).a13 := (W47_of m ρ c main_arg13 (by decide)).trans (at_arg13_46 m ρ c)
theorem at_arg13_48 : W48 m ρ c (Proc.devRef .tc main_arg13) = (K.argsOf m c).a13 := (W48_of m ρ c main_arg13 (by decide)).trans (at_arg13_47 m ρ c)
theorem at_arg13_49 : W49 m ρ c (Proc.devRef .tc main_arg13) = (K.argsOf m c).a13 := (W49_of m ρ c main_arg13 (by decide)).trans (at_arg13_48 m ρ c)
theorem at_arg13_50 : W50 m ρ c (Proc.devRef .tc main_arg13) = (K.argsOf m c).a13 := (W50_of m ρ c main_arg13 (by decide)).trans (at_arg13_49 m ρ c)
theorem at_arg13_51 : W51 m ρ c (Proc.devRef .tc main_arg13) = (K.argsOf m c).a13 := (W51_of m ρ c main_arg13 (by decide)).trans (at_arg13_50 m ρ c)
theorem at_arg13_52 : W52 m ρ c (Proc.devRef .tc main_arg13) = (K.argsOf m c).a13 := (W52_of m ρ c main_arg13 (by decide)).trans (at_arg13_51 m ρ c)
theorem at_arg13_53 : W53 m ρ c (Proc.devRef .tc main_arg13) = (K.argsOf m c).a13 := (W53_of m ρ c main_arg13 (by decide)).trans (at_arg13_52 m ρ c)
theorem at_arg13_54 : W54 m ρ c (Proc.devRef .tc main_arg13) = (K.argsOf m c).a13 := (W54_of m ρ c main_arg13 (by decide)).trans (at_arg13_53 m ρ c)
theorem at_arg13_55 : W55 m ρ c (Proc.devRef .tc main_arg13) = (K.argsOf m c).a13 := (W55_of m ρ c main_arg13 (by decide)).trans (at_arg13_54 m ρ c)
theorem at_arg13_56 : W56 m ρ c (Proc.devRef .tc main_arg13) = (K.argsOf m c).a13 := (W56_of m ρ c main_arg13 (by decide)).trans (at_arg13_55 m ρ c)
theorem at_arg13_57 : W57 m ρ c (Proc.devRef .tc main_arg13) = (K.argsOf m c).a13 := (W57_of m ρ c main_arg13 (by decide)).trans (at_arg13_56 m ρ c)
theorem at_arg13_58 : W58 m ρ c (Proc.devRef .tc main_arg13) = (K.argsOf m c).a13 := (W58_of m ρ c main_arg13 (by decide)).trans (at_arg13_57 m ρ c)
theorem at_arg13_59 : W59 m ρ c (Proc.devRef .tc main_arg13) = (K.argsOf m c).a13 := (W59_of m ρ c main_arg13 (by decide)).trans (at_arg13_58 m ρ c)
theorem at_arg13_60 : W60 m ρ c (Proc.devRef .tc main_arg13) = (K.argsOf m c).a13 := (W60_of m ρ c main_arg13 (by decide)).trans (at_arg13_59 m ρ c)
theorem at_arg13_61 : W61 m ρ c (Proc.devRef .tc main_arg13) = (K.argsOf m c).a13 := (W61_of m ρ c main_arg13 (by decide)).trans (at_arg13_60 m ρ c)
theorem at_arg13_62 : W62 m ρ c (Proc.devRef .tc main_arg13) = (K.argsOf m c).a13 := (W62_of m ρ c main_arg13 (by decide)).trans (at_arg13_61 m ρ c)
theorem at_arg13_63 : W63 m ρ c (Proc.devRef .tc main_arg13) = (K.argsOf m c).a13 := (W63_of m ρ c main_arg13 (by decide)).trans (at_arg13_62 m ρ c)
theorem at_arg13_64 : W64 m ρ c (Proc.devRef .tc main_arg13) = (K.argsOf m c).a13 := (W64_of m ρ c main_arg13 (by decide)).trans (at_arg13_63 m ρ c)
theorem at_arg13_65 : W65 m ρ c (Proc.devRef .tc main_arg13) = (K.argsOf m c).a13 := (W65_of m ρ c main_arg13 (by decide)).trans (at_arg13_64 m ρ c)
theorem at_arg13_66 : W66 m ρ c (Proc.devRef .tc main_arg13) = (K.argsOf m c).a13 := (W66_of m ρ c main_arg13 (by decide)).trans (at_arg13_65 m ρ c)
theorem at_arg13_67 : W67 m ρ c (Proc.devRef .tc main_arg13) = (K.argsOf m c).a13 := (W67_of m ρ c main_arg13 (by decide)).trans (at_arg13_66 m ρ c)
theorem at_arg13_68 : W68 m ρ c (Proc.devRef .tc main_arg13) = (K.argsOf m c).a13 := (W68_of m ρ c main_arg13 (by decide)).trans (at_arg13_67 m ρ c)
theorem at_v343_69 : W69 m ρ c (Proc.devRef .tc main_v343) = K.P02_gW1 (K.argsOf m c) :=
  pr_v343 (W68 m ρ c) (K.argsOf m c) (at_arg13_68 m ρ c)
theorem at_v343_70 : W70 m ρ c (Proc.devRef .tc main_v343) = K.P02_gW1 (K.argsOf m c) := (W70_of m ρ c main_v343 (by decide)).trans (at_v343_69 m ρ c)
theorem at_v343_71 : W71 m ρ c (Proc.devRef .tc main_v343) = K.P02_gW1 (K.argsOf m c) := (W71_of m ρ c main_v343 (by decide)).trans (at_v343_70 m ρ c)
theorem at_v343_72 : W72 m ρ c (Proc.devRef .tc main_v343) = K.P02_gW1 (K.argsOf m c) := (W72_of m ρ c main_v343 (by decide)).trans (at_v343_71 m ρ c)
theorem at_v343_73 : W73 m ρ c (Proc.devRef .tc main_v343) = K.P02_gW1 (K.argsOf m c) := (W73_of m ρ c main_v343 (by decide)).trans (at_v343_72 m ρ c)
theorem at_v343_74 : W74 m ρ c (Proc.devRef .tc main_v343) = K.P02_gW1 (K.argsOf m c) := (W74_of m ρ c main_v343 (by decide)).trans (at_v343_73 m ρ c)
theorem at_v343_75 : W75 m ρ c (Proc.devRef .tc main_v343) = K.P02_gW1 (K.argsOf m c) := (W75_of m ρ c main_v343 (by decide)).trans (at_v343_74 m ρ c)
theorem at_v343_76 : W76 m ρ c (Proc.devRef .tc main_v343) = K.P02_gW1 (K.argsOf m c) := (W76_of m ρ c main_v343 (by decide)).trans (at_v343_75 m ρ c)
theorem at_v343_77 : W77 m ρ c (Proc.devRef .tc main_v343) = K.P02_gW1 (K.argsOf m c) := (W77_of m ρ c main_v343 (by decide)).trans (at_v343_76 m ρ c)
theorem at_v343_78 : W78 m ρ c (Proc.devRef .tc main_v343) = K.P02_gW1 (K.argsOf m c) := (W78_of m ρ c main_v343 (by decide)).trans (at_v343_77 m ρ c)
theorem at_v343_79 : W79 m ρ c (Proc.devRef .tc main_v343) = K.P02_gW1 (K.argsOf m c) := (W79_of m ρ c main_v343 (by decide)).trans (at_v343_78 m ρ c)
theorem at_v343_80 : W80 m ρ c (Proc.devRef .tc main_v343) = K.P02_gW1 (K.argsOf m c) := (W80_of m ρ c main_v343 (by decide)).trans (at_v343_79 m ρ c)
theorem at_arg14_37 : W37 m ρ c (Proc.devRef .tc main_arg14) = (K.argsOf m c).a14 := (W37_of m ρ c main_arg14 (by decide)).trans (at_arg14_36 m ρ c)
theorem at_arg14_38 : W38 m ρ c (Proc.devRef .tc main_arg14) = (K.argsOf m c).a14 := (W38_of m ρ c main_arg14 (by decide)).trans (at_arg14_37 m ρ c)
theorem at_arg14_39 : W39 m ρ c (Proc.devRef .tc main_arg14) = (K.argsOf m c).a14 := (W39_of m ρ c main_arg14 (by decide)).trans (at_arg14_38 m ρ c)
theorem at_arg14_40 : W40 m ρ c (Proc.devRef .tc main_arg14) = (K.argsOf m c).a14 := (W40_of m ρ c main_arg14 (by decide)).trans (at_arg14_39 m ρ c)
theorem at_arg14_41 : W41 m ρ c (Proc.devRef .tc main_arg14) = (K.argsOf m c).a14 := (W41_of m ρ c main_arg14 (by decide)).trans (at_arg14_40 m ρ c)
theorem at_arg14_42 : W42 m ρ c (Proc.devRef .tc main_arg14) = (K.argsOf m c).a14 := (W42_of m ρ c main_arg14 (by decide)).trans (at_arg14_41 m ρ c)
theorem at_arg14_43 : W43 m ρ c (Proc.devRef .tc main_arg14) = (K.argsOf m c).a14 := (W43_of m ρ c main_arg14 (by decide)).trans (at_arg14_42 m ρ c)
theorem at_arg14_44 : W44 m ρ c (Proc.devRef .tc main_arg14) = (K.argsOf m c).a14 := (W44_of m ρ c main_arg14 (by decide)).trans (at_arg14_43 m ρ c)
theorem at_arg14_45 : W45 m ρ c (Proc.devRef .tc main_arg14) = (K.argsOf m c).a14 := (W45_of m ρ c main_arg14 (by decide)).trans (at_arg14_44 m ρ c)
theorem at_arg14_46 : W46 m ρ c (Proc.devRef .tc main_arg14) = (K.argsOf m c).a14 := (W46_of m ρ c main_arg14 (by decide)).trans (at_arg14_45 m ρ c)
theorem at_arg14_47 : W47 m ρ c (Proc.devRef .tc main_arg14) = (K.argsOf m c).a14 := (W47_of m ρ c main_arg14 (by decide)).trans (at_arg14_46 m ρ c)
theorem at_arg14_48 : W48 m ρ c (Proc.devRef .tc main_arg14) = (K.argsOf m c).a14 := (W48_of m ρ c main_arg14 (by decide)).trans (at_arg14_47 m ρ c)
theorem at_arg14_49 : W49 m ρ c (Proc.devRef .tc main_arg14) = (K.argsOf m c).a14 := (W49_of m ρ c main_arg14 (by decide)).trans (at_arg14_48 m ρ c)
theorem at_arg14_50 : W50 m ρ c (Proc.devRef .tc main_arg14) = (K.argsOf m c).a14 := (W50_of m ρ c main_arg14 (by decide)).trans (at_arg14_49 m ρ c)
theorem at_arg14_51 : W51 m ρ c (Proc.devRef .tc main_arg14) = (K.argsOf m c).a14 := (W51_of m ρ c main_arg14 (by decide)).trans (at_arg14_50 m ρ c)
theorem at_arg14_52 : W52 m ρ c (Proc.devRef .tc main_arg14) = (K.argsOf m c).a14 := (W52_of m ρ c main_arg14 (by decide)).trans (at_arg14_51 m ρ c)
theorem at_arg14_53 : W53 m ρ c (Proc.devRef .tc main_arg14) = (K.argsOf m c).a14 := (W53_of m ρ c main_arg14 (by decide)).trans (at_arg14_52 m ρ c)
theorem at_arg14_54 : W54 m ρ c (Proc.devRef .tc main_arg14) = (K.argsOf m c).a14 := (W54_of m ρ c main_arg14 (by decide)).trans (at_arg14_53 m ρ c)
theorem at_arg14_55 : W55 m ρ c (Proc.devRef .tc main_arg14) = (K.argsOf m c).a14 := (W55_of m ρ c main_arg14 (by decide)).trans (at_arg14_54 m ρ c)
theorem at_arg14_56 : W56 m ρ c (Proc.devRef .tc main_arg14) = (K.argsOf m c).a14 := (W56_of m ρ c main_arg14 (by decide)).trans (at_arg14_55 m ρ c)
theorem at_arg14_57 : W57 m ρ c (Proc.devRef .tc main_arg14) = (K.argsOf m c).a14 := (W57_of m ρ c main_arg14 (by decide)).trans (at_arg14_56 m ρ c)
theorem at_arg14_58 : W58 m ρ c (Proc.devRef .tc main_arg14) = (K.argsOf m c).a14 := (W58_of m ρ c main_arg14 (by decide)).trans (at_arg14_57 m ρ c)
theorem at_arg14_59 : W59 m ρ c (Proc.devRef .tc main_arg14) = (K.argsOf m c).a14 := (W59_of m ρ c main_arg14 (by decide)).trans (at_arg14_58 m ρ c)
theorem at_arg14_60 : W60 m ρ c (Proc.devRef .tc main_arg14) = (K.argsOf m c).a14 := (W60_of m ρ c main_arg14 (by decide)).trans (at_arg14_59 m ρ c)
theorem at_arg14_61 : W61 m ρ c (Proc.devRef .tc main_arg14) = (K.argsOf m c).a14 := (W61_of m ρ c main_arg14 (by decide)).trans (at_arg14_60 m ρ c)
theorem at_arg14_62 : W62 m ρ c (Proc.devRef .tc main_arg14) = (K.argsOf m c).a14 := (W62_of m ρ c main_arg14 (by decide)).trans (at_arg14_61 m ρ c)
theorem at_arg14_63 : W63 m ρ c (Proc.devRef .tc main_arg14) = (K.argsOf m c).a14 := (W63_of m ρ c main_arg14 (by decide)).trans (at_arg14_62 m ρ c)
theorem at_arg14_64 : W64 m ρ c (Proc.devRef .tc main_arg14) = (K.argsOf m c).a14 := (W64_of m ρ c main_arg14 (by decide)).trans (at_arg14_63 m ρ c)
theorem at_arg14_65 : W65 m ρ c (Proc.devRef .tc main_arg14) = (K.argsOf m c).a14 := (W65_of m ρ c main_arg14 (by decide)).trans (at_arg14_64 m ρ c)
theorem at_arg14_66 : W66 m ρ c (Proc.devRef .tc main_arg14) = (K.argsOf m c).a14 := (W66_of m ρ c main_arg14 (by decide)).trans (at_arg14_65 m ρ c)
theorem at_arg14_67 : W67 m ρ c (Proc.devRef .tc main_arg14) = (K.argsOf m c).a14 := (W67_of m ρ c main_arg14 (by decide)).trans (at_arg14_66 m ρ c)
theorem at_arg14_68 : W68 m ρ c (Proc.devRef .tc main_arg14) = (K.argsOf m c).a14 := (W68_of m ρ c main_arg14 (by decide)).trans (at_arg14_67 m ρ c)
theorem at_v345_69 : W69 m ρ c (Proc.devRef .tc main_v345) = K.P02_gb1 (K.argsOf m c) :=
  pr_v345 (W68 m ρ c) (K.argsOf m c) (at_arg14_68 m ρ c)
theorem at_v345_70 : W70 m ρ c (Proc.devRef .tc main_v345) = K.P02_gb1 (K.argsOf m c) := (W70_of m ρ c main_v345 (by decide)).trans (at_v345_69 m ρ c)
theorem at_v345_71 : W71 m ρ c (Proc.devRef .tc main_v345) = K.P02_gb1 (K.argsOf m c) := (W71_of m ρ c main_v345 (by decide)).trans (at_v345_70 m ρ c)
theorem at_v345_72 : W72 m ρ c (Proc.devRef .tc main_v345) = K.P02_gb1 (K.argsOf m c) := (W72_of m ρ c main_v345 (by decide)).trans (at_v345_71 m ρ c)
theorem at_v345_73 : W73 m ρ c (Proc.devRef .tc main_v345) = K.P02_gb1 (K.argsOf m c) := (W73_of m ρ c main_v345 (by decide)).trans (at_v345_72 m ρ c)
theorem at_v345_74 : W74 m ρ c (Proc.devRef .tc main_v345) = K.P02_gb1 (K.argsOf m c) := (W74_of m ρ c main_v345 (by decide)).trans (at_v345_73 m ρ c)
theorem at_v345_75 : W75 m ρ c (Proc.devRef .tc main_v345) = K.P02_gb1 (K.argsOf m c) := (W75_of m ρ c main_v345 (by decide)).trans (at_v345_74 m ρ c)
theorem at_v345_76 : W76 m ρ c (Proc.devRef .tc main_v345) = K.P02_gb1 (K.argsOf m c) := (W76_of m ρ c main_v345 (by decide)).trans (at_v345_75 m ρ c)
theorem at_v345_77 : W77 m ρ c (Proc.devRef .tc main_v345) = K.P02_gb1 (K.argsOf m c) := (W77_of m ρ c main_v345 (by decide)).trans (at_v345_76 m ρ c)
theorem at_v345_78 : W78 m ρ c (Proc.devRef .tc main_v345) = K.P02_gb1 (K.argsOf m c) := (W78_of m ρ c main_v345 (by decide)).trans (at_v345_77 m ρ c)
theorem at_v345_79 : W79 m ρ c (Proc.devRef .tc main_v345) = K.P02_gb1 (K.argsOf m c) := (W79_of m ρ c main_v345 (by decide)).trans (at_v345_78 m ρ c)
theorem at_v345_80 : W80 m ρ c (Proc.devRef .tc main_v345) = K.P02_gb1 (K.argsOf m c) := (W80_of m ρ c main_v345 (by decide)).trans (at_v345_79 m ρ c)
theorem at_v417_81 : W81 m ρ c (Proc.devRef .tc main_v417) = C_v417 (F := Ideal) (K.nodeFn (C_v401 (F := Ideal) (C_v24 (F := Ideal) ((K.argsOf m c).a0)) (C_c_53)) (C_v402 (F := Ideal) (K.la3 (K.argsOf m c)) (C_c_54)) (C_v395 (F := Ideal) (K.P02_nW1 (K.argsOf m c))) (C_v396 (F := Ideal) (K.P02_nW1 (K.argsOf m c))) (C_v399 (F := Ideal) (K.P02_nb1 (K.argsOf m c)) (K.g4 (K.argsOf m c)) (K.P02_nW1 (K.argsOf m c))) (K.P02_nW2 (K.argsOf m c)) (C_v400 (F := Ideal) (K.P02_nb2 (K.argsOf m c)))) (K.le3 (K.argsOf m c)) (K.g4 (K.argsOf m c)) (K.P02_gW1 (K.argsOf m c)) (K.P02_gb1 (K.argsOf m c)) :=
  rd_v417 (W80 m ρ c) (K.argsOf m c) (at_v403_80 m ρ c) (at_v388_80 m ρ c) (at_v325_80 m ρ c) (at_v343_80 m ρ c) (at_v345_80 m ρ c)
theorem at_v418_82 : W82 m ρ c (Proc.devRef .tc main_v418) = C_v418 (F := Ideal) (C_v417 (F := Ideal) (K.nodeFn (C_v401 (F := Ideal) (C_v24 (F := Ideal) ((K.argsOf m c).a0)) (C_c_53)) (C_v402 (F := Ideal) (K.la3 (K.argsOf m c)) (C_c_54)) (C_v395 (F := Ideal) (K.P02_nW1 (K.argsOf m c))) (C_v396 (F := Ideal) (K.P02_nW1 (K.argsOf m c))) (C_v399 (F := Ideal) (K.P02_nb1 (K.argsOf m c)) (K.g4 (K.argsOf m c)) (K.P02_nW1 (K.argsOf m c))) (K.P02_nW2 (K.argsOf m c)) (C_v400 (F := Ideal) (K.P02_nb2 (K.argsOf m c)))) (K.le3 (K.argsOf m c)) (K.g4 (K.argsOf m c)) (K.P02_gW1 (K.argsOf m c)) (K.P02_gb1 (K.argsOf m c))) :=
  (congrArg (fun l => StableHlo.after l (W81 m ρ c) (Proc.devRef .tc main_v418)) hostOps10_1_eq).trans (rd_v418 (W81 m ρ c) (K.argsOf m c) (at_v417_81 m ρ c))
theorem at_arg15_37 : W37 m ρ c (Proc.devRef .tc main_arg15) = (K.argsOf m c).a15 := (W37_of m ρ c main_arg15 (by decide)).trans (at_arg15_36 m ρ c)
theorem at_arg15_38 : W38 m ρ c (Proc.devRef .tc main_arg15) = (K.argsOf m c).a15 := (W38_of m ρ c main_arg15 (by decide)).trans (at_arg15_37 m ρ c)
theorem at_arg15_39 : W39 m ρ c (Proc.devRef .tc main_arg15) = (K.argsOf m c).a15 := (W39_of m ρ c main_arg15 (by decide)).trans (at_arg15_38 m ρ c)
theorem at_arg15_40 : W40 m ρ c (Proc.devRef .tc main_arg15) = (K.argsOf m c).a15 := (W40_of m ρ c main_arg15 (by decide)).trans (at_arg15_39 m ρ c)
theorem at_arg15_41 : W41 m ρ c (Proc.devRef .tc main_arg15) = (K.argsOf m c).a15 := (W41_of m ρ c main_arg15 (by decide)).trans (at_arg15_40 m ρ c)
theorem at_arg15_42 : W42 m ρ c (Proc.devRef .tc main_arg15) = (K.argsOf m c).a15 := (W42_of m ρ c main_arg15 (by decide)).trans (at_arg15_41 m ρ c)
theorem at_arg15_43 : W43 m ρ c (Proc.devRef .tc main_arg15) = (K.argsOf m c).a15 := (W43_of m ρ c main_arg15 (by decide)).trans (at_arg15_42 m ρ c)
theorem at_arg15_44 : W44 m ρ c (Proc.devRef .tc main_arg15) = (K.argsOf m c).a15 := (W44_of m ρ c main_arg15 (by decide)).trans (at_arg15_43 m ρ c)
theorem at_arg15_45 : W45 m ρ c (Proc.devRef .tc main_arg15) = (K.argsOf m c).a15 := (W45_of m ρ c main_arg15 (by decide)).trans (at_arg15_44 m ρ c)
theorem at_arg15_46 : W46 m ρ c (Proc.devRef .tc main_arg15) = (K.argsOf m c).a15 := (W46_of m ρ c main_arg15 (by decide)).trans (at_arg15_45 m ρ c)
theorem at_arg15_47 : W47 m ρ c (Proc.devRef .tc main_arg15) = (K.argsOf m c).a15 := (W47_of m ρ c main_arg15 (by decide)).trans (at_arg15_46 m ρ c)
theorem at_arg15_48 : W48 m ρ c (Proc.devRef .tc main_arg15) = (K.argsOf m c).a15 := (W48_of m ρ c main_arg15 (by decide)).trans (at_arg15_47 m ρ c)
theorem at_arg15_49 : W49 m ρ c (Proc.devRef .tc main_arg15) = (K.argsOf m c).a15 := (W49_of m ρ c main_arg15 (by decide)).trans (at_arg15_48 m ρ c)
theorem at_arg15_50 : W50 m ρ c (Proc.devRef .tc main_arg15) = (K.argsOf m c).a15 := (W50_of m ρ c main_arg15 (by decide)).trans (at_arg15_49 m ρ c)
theorem at_arg15_51 : W51 m ρ c (Proc.devRef .tc main_arg15) = (K.argsOf m c).a15 := (W51_of m ρ c main_arg15 (by decide)).trans (at_arg15_50 m ρ c)
theorem at_arg15_52 : W52 m ρ c (Proc.devRef .tc main_arg15) = (K.argsOf m c).a15 := (W52_of m ρ c main_arg15 (by decide)).trans (at_arg15_51 m ρ c)
theorem at_arg15_53 : W53 m ρ c (Proc.devRef .tc main_arg15) = (K.argsOf m c).a15 := (W53_of m ρ c main_arg15 (by decide)).trans (at_arg15_52 m ρ c)
theorem at_arg15_54 : W54 m ρ c (Proc.devRef .tc main_arg15) = (K.argsOf m c).a15 := (W54_of m ρ c main_arg15 (by decide)).trans (at_arg15_53 m ρ c)
theorem at_arg15_55 : W55 m ρ c (Proc.devRef .tc main_arg15) = (K.argsOf m c).a15 := (W55_of m ρ c main_arg15 (by decide)).trans (at_arg15_54 m ρ c)
theorem at_arg15_56 : W56 m ρ c (Proc.devRef .tc main_arg15) = (K.argsOf m c).a15 := (W56_of m ρ c main_arg15 (by decide)).trans (at_arg15_55 m ρ c)
theorem at_arg15_57 : W57 m ρ c (Proc.devRef .tc main_arg15) = (K.argsOf m c).a15 := (W57_of m ρ c main_arg15 (by decide)).trans (at_arg15_56 m ρ c)
theorem at_arg15_58 : W58 m ρ c (Proc.devRef .tc main_arg15) = (K.argsOf m c).a15 := (W58_of m ρ c main_arg15 (by decide)).trans (at_arg15_57 m ρ c)
theorem at_arg15_59 : W59 m ρ c (Proc.devRef .tc main_arg15) = (K.argsOf m c).a15 := (W59_of m ρ c main_arg15 (by decide)).trans (at_arg15_58 m ρ c)
theorem at_arg15_60 : W60 m ρ c (Proc.devRef .tc main_arg15) = (K.argsOf m c).a15 := (W60_of m ρ c main_arg15 (by decide)).trans (at_arg15_59 m ρ c)
theorem at_arg15_61 : W61 m ρ c (Proc.devRef .tc main_arg15) = (K.argsOf m c).a15 := (W61_of m ρ c main_arg15 (by decide)).trans (at_arg15_60 m ρ c)
theorem at_arg15_62 : W62 m ρ c (Proc.devRef .tc main_arg15) = (K.argsOf m c).a15 := (W62_of m ρ c main_arg15 (by decide)).trans (at_arg15_61 m ρ c)
theorem at_arg15_63 : W63 m ρ c (Proc.devRef .tc main_arg15) = (K.argsOf m c).a15 := (W63_of m ρ c main_arg15 (by decide)).trans (at_arg15_62 m ρ c)
theorem at_arg15_64 : W64 m ρ c (Proc.devRef .tc main_arg15) = (K.argsOf m c).a15 := (W64_of m ρ c main_arg15 (by decide)).trans (at_arg15_63 m ρ c)
theorem at_arg15_65 : W65 m ρ c (Proc.devRef .tc main_arg15) = (K.argsOf m c).a15 := (W65_of m ρ c main_arg15 (by decide)).trans (at_arg15_64 m ρ c)
theorem at_arg15_66 : W66 m ρ c (Proc.devRef .tc main_arg15) = (K.argsOf m c).a15 := (W66_of m ρ c main_arg15 (by decide)).trans (at_arg15_65 m ρ c)
theorem at_arg15_67 : W67 m ρ c (Proc.devRef .tc main_arg15) = (K.argsOf m c).a15 := (W67_of m ρ c main_arg15 (by decide)).trans (at_arg15_66 m ρ c)
theorem at_arg15_68 : W68 m ρ c (Proc.devRef .tc main_arg15) = (K.argsOf m c).a15 := (W68_of m ρ c main_arg15 (by decide)).trans (at_arg15_67 m ρ c)
theorem at_v347_69 : W69 m ρ c (Proc.devRef .tc main_v347) = K.P02_gW2 (K.argsOf m c) :=
  pr_v347 (W68 m ρ c) (K.argsOf m c) (at_arg15_68 m ρ c)
theorem at_v347_70 : W70 m ρ c (Proc.devRef .tc main_v347) = K.P02_gW2 (K.argsOf m c) := (W70_of m ρ c main_v347 (by decide)).trans (at_v347_69 m ρ c)
theorem at_v347_71 : W71 m ρ c (Proc.devRef .tc main_v347) = K.P02_gW2 (K.argsOf m c) := (W71_of m ρ c main_v347 (by decide)).trans (at_v347_70 m ρ c)
theorem at_v347_72 : W72 m ρ c (Proc.devRef .tc main_v347) = K.P02_gW2 (K.argsOf m c) := (W72_of m ρ c main_v347 (by decide)).trans (at_v347_71 m ρ c)
theorem at_v347_73 : W73 m ρ c (Proc.devRef .tc main_v347) = K.P02_gW2 (K.argsOf m c) := (W73_of m ρ c main_v347 (by decide)).trans (at_v347_72 m ρ c)
theorem at_v347_74 : W74 m ρ c (Proc.devRef .tc main_v347) = K.P02_gW2 (K.argsOf m c) := (W74_of m ρ c main_v347 (by decide)).trans (at_v347_73 m ρ c)
theorem at_v347_75 : W75 m ρ c (Proc.devRef .tc main_v347) = K.P02_gW2 (K.argsOf m c) := (W75_of m ρ c main_v347 (by decide)).trans (at_v347_74 m ρ c)
theorem at_v347_76 : W76 m ρ c (Proc.devRef .tc main_v347) = K.P02_gW2 (K.argsOf m c) := (W76_of m ρ c main_v347 (by decide)).trans (at_v347_75 m ρ c)
theorem at_v347_77 : W77 m ρ c (Proc.devRef .tc main_v347) = K.P02_gW2 (K.argsOf m c) := (W77_of m ρ c main_v347 (by decide)).trans (at_v347_76 m ρ c)
theorem at_v347_78 : W78 m ρ c (Proc.devRef .tc main_v347) = K.P02_gW2 (K.argsOf m c) := (W78_of m ρ c main_v347 (by decide)).trans (at_v347_77 m ρ c)
theorem at_v347_79 : W79 m ρ c (Proc.devRef .tc main_v347) = K.P02_gW2 (K.argsOf m c) := (W79_of m ρ c main_v347 (by decide)).trans (at_v347_78 m ρ c)
theorem at_v347_80 : W80 m ρ c (Proc.devRef .tc main_v347) = K.P02_gW2 (K.argsOf m c) := (W80_of m ρ c main_v347 (by decide)).trans (at_v347_79 m ρ c)
theorem at_v347_81 : W81 m ρ c (Proc.devRef .tc main_v347) = K.P02_gW2 (K.argsOf m c) := (W81_of m ρ c main_v347 (by decide)).trans (at_v347_80 m ρ c)
theorem at_v347_82 : W82 m ρ c (Proc.devRef .tc main_v347) = K.P02_gW2 (K.argsOf m c) := (W82_of m ρ c main_v347 (by decide)).trans (at_v347_81 m ρ c)
theorem at_arg16_37 : W37 m ρ c (Proc.devRef .tc main_arg16) = (K.argsOf m c).a16 := (W37_of m ρ c main_arg16 (by decide)).trans (at_arg16_36 m ρ c)
theorem at_arg16_38 : W38 m ρ c (Proc.devRef .tc main_arg16) = (K.argsOf m c).a16 := (W38_of m ρ c main_arg16 (by decide)).trans (at_arg16_37 m ρ c)
theorem at_arg16_39 : W39 m ρ c (Proc.devRef .tc main_arg16) = (K.argsOf m c).a16 := (W39_of m ρ c main_arg16 (by decide)).trans (at_arg16_38 m ρ c)
theorem at_arg16_40 : W40 m ρ c (Proc.devRef .tc main_arg16) = (K.argsOf m c).a16 := (W40_of m ρ c main_arg16 (by decide)).trans (at_arg16_39 m ρ c)
theorem at_arg16_41 : W41 m ρ c (Proc.devRef .tc main_arg16) = (K.argsOf m c).a16 := (W41_of m ρ c main_arg16 (by decide)).trans (at_arg16_40 m ρ c)
theorem at_arg16_42 : W42 m ρ c (Proc.devRef .tc main_arg16) = (K.argsOf m c).a16 := (W42_of m ρ c main_arg16 (by decide)).trans (at_arg16_41 m ρ c)
theorem at_arg16_43 : W43 m ρ c (Proc.devRef .tc main_arg16) = (K.argsOf m c).a16 := (W43_of m ρ c main_arg16 (by decide)).trans (at_arg16_42 m ρ c)
theorem at_arg16_44 : W44 m ρ c (Proc.devRef .tc main_arg16) = (K.argsOf m c).a16 := (W44_of m ρ c main_arg16 (by decide)).trans (at_arg16_43 m ρ c)
theorem at_arg16_45 : W45 m ρ c (Proc.devRef .tc main_arg16) = (K.argsOf m c).a16 := (W45_of m ρ c main_arg16 (by decide)).trans (at_arg16_44 m ρ c)
theorem at_arg16_46 : W46 m ρ c (Proc.devRef .tc main_arg16) = (K.argsOf m c).a16 := (W46_of m ρ c main_arg16 (by decide)).trans (at_arg16_45 m ρ c)
theorem at_arg16_47 : W47 m ρ c (Proc.devRef .tc main_arg16) = (K.argsOf m c).a16 := (W47_of m ρ c main_arg16 (by decide)).trans (at_arg16_46 m ρ c)
theorem at_arg16_48 : W48 m ρ c (Proc.devRef .tc main_arg16) = (K.argsOf m c).a16 := (W48_of m ρ c main_arg16 (by decide)).trans (at_arg16_47 m ρ c)
theorem at_arg16_49 : W49 m ρ c (Proc.devRef .tc main_arg16) = (K.argsOf m c).a16 := (W49_of m ρ c main_arg16 (by decide)).trans (at_arg16_48 m ρ c)
theorem at_arg16_50 : W50 m ρ c (Proc.devRef .tc main_arg16) = (K.argsOf m c).a16 := (W50_of m ρ c main_arg16 (by decide)).trans (at_arg16_49 m ρ c)
theorem at_arg16_51 : W51 m ρ c (Proc.devRef .tc main_arg16) = (K.argsOf m c).a16 := (W51_of m ρ c main_arg16 (by decide)).trans (at_arg16_50 m ρ c)
theorem at_arg16_52 : W52 m ρ c (Proc.devRef .tc main_arg16) = (K.argsOf m c).a16 := (W52_of m ρ c main_arg16 (by decide)).trans (at_arg16_51 m ρ c)
theorem at_arg16_53 : W53 m ρ c (Proc.devRef .tc main_arg16) = (K.argsOf m c).a16 := (W53_of m ρ c main_arg16 (by decide)).trans (at_arg16_52 m ρ c)
theorem at_arg16_54 : W54 m ρ c (Proc.devRef .tc main_arg16) = (K.argsOf m c).a16 := (W54_of m ρ c main_arg16 (by decide)).trans (at_arg16_53 m ρ c)
theorem at_arg16_55 : W55 m ρ c (Proc.devRef .tc main_arg16) = (K.argsOf m c).a16 := (W55_of m ρ c main_arg16 (by decide)).trans (at_arg16_54 m ρ c)
theorem at_arg16_56 : W56 m ρ c (Proc.devRef .tc main_arg16) = (K.argsOf m c).a16 := (W56_of m ρ c main_arg16 (by decide)).trans (at_arg16_55 m ρ c)
theorem at_arg16_57 : W57 m ρ c (Proc.devRef .tc main_arg16) = (K.argsOf m c).a16 := (W57_of m ρ c main_arg16 (by decide)).trans (at_arg16_56 m ρ c)
theorem at_arg16_58 : W58 m ρ c (Proc.devRef .tc main_arg16) = (K.argsOf m c).a16 := (W58_of m ρ c main_arg16 (by decide)).trans (at_arg16_57 m ρ c)
theorem at_arg16_59 : W59 m ρ c (Proc.devRef .tc main_arg16) = (K.argsOf m c).a16 := (W59_of m ρ c main_arg16 (by decide)).trans (at_arg16_58 m ρ c)
theorem at_arg16_60 : W60 m ρ c (Proc.devRef .tc main_arg16) = (K.argsOf m c).a16 := (W60_of m ρ c main_arg16 (by decide)).trans (at_arg16_59 m ρ c)
theorem at_arg16_61 : W61 m ρ c (Proc.devRef .tc main_arg16) = (K.argsOf m c).a16 := (W61_of m ρ c main_arg16 (by decide)).trans (at_arg16_60 m ρ c)
theorem at_arg16_62 : W62 m ρ c (Proc.devRef .tc main_arg16) = (K.argsOf m c).a16 := (W62_of m ρ c main_arg16 (by decide)).trans (at_arg16_61 m ρ c)
theorem at_arg16_63 : W63 m ρ c (Proc.devRef .tc main_arg16) = (K.argsOf m c).a16 := (W63_of m ρ c main_arg16 (by decide)).trans (at_arg16_62 m ρ c)
theorem at_arg16_64 : W64 m ρ c (Proc.devRef .tc main_arg16) = (K.argsOf m c).a16 := (W64_of m ρ c main_arg16 (by decide)).trans (at_arg16_63 m ρ c)
theorem at_arg16_65 : W65 m ρ c (Proc.devRef .tc main_arg16) = (K.argsOf m c).a16 := (W65_of m ρ c main_arg16 (by decide)).trans (at_arg16_64 m ρ c)
theorem at_arg16_66 : W66 m ρ c (Proc.devRef .tc main_arg16) = (K.argsOf m c).a16 := (W66_of m ρ c main_arg16 (by decide)).trans (at_arg16_65 m ρ c)
theorem at_arg16_67 : W67 m ρ c (Proc.devRef .tc main_arg16) = (K.argsOf m c).a16 := (W67_of m ρ c main_arg16 (by decide)).trans (at_arg16_66 m ρ c)
theorem at_arg16_68 : W68 m ρ c (Proc.devRef .tc main_arg16) = (K.argsOf m c).a16 := (W68_of m ρ c main_arg16 (by decide)).trans (at_arg16_67 m ρ c)
theorem at_v349_69 : W69 m ρ c (Proc.devRef .tc main_v349) = K.P02_gb2 (K.argsOf m c) :=
  pr_v349 (W68 m ρ c) (K.argsOf m c) (at_arg16_68 m ρ c)
theorem at_v349_70 : W70 m ρ c (Proc.devRef .tc main_v349) = K.P02_gb2 (K.argsOf m c) := (W70_of m ρ c main_v349 (by decide)).trans (at_v349_69 m ρ c)
theorem at_v349_71 : W71 m ρ c (Proc.devRef .tc main_v349) = K.P02_gb2 (K.argsOf m c) := (W71_of m ρ c main_v349 (by decide)).trans (at_v349_70 m ρ c)
theorem at_v349_72 : W72 m ρ c (Proc.devRef .tc main_v349) = K.P02_gb2 (K.argsOf m c) := (W72_of m ρ c main_v349 (by decide)).trans (at_v349_71 m ρ c)
theorem at_v349_73 : W73 m ρ c (Proc.devRef .tc main_v349) = K.P02_gb2 (K.argsOf m c) := (W73_of m ρ c main_v349 (by decide)).trans (at_v349_72 m ρ c)
theorem at_v349_74 : W74 m ρ c (Proc.devRef .tc main_v349) = K.P02_gb2 (K.argsOf m c) := (W74_of m ρ c main_v349 (by decide)).trans (at_v349_73 m ρ c)
theorem at_v349_75 : W75 m ρ c (Proc.devRef .tc main_v349) = K.P02_gb2 (K.argsOf m c) := (W75_of m ρ c main_v349 (by decide)).trans (at_v349_74 m ρ c)
theorem at_v349_76 : W76 m ρ c (Proc.devRef .tc main_v349) = K.P02_gb2 (K.argsOf m c) := (W76_of m ρ c main_v349 (by decide)).trans (at_v349_75 m ρ c)
theorem at_v349_77 : W77 m ρ c (Proc.devRef .tc main_v349) = K.P02_gb2 (K.argsOf m c) := (W77_of m ρ c main_v349 (by decide)).trans (at_v349_76 m ρ c)
theorem at_v349_78 : W78 m ρ c (Proc.devRef .tc main_v349) = K.P02_gb2 (K.argsOf m c) := (W78_of m ρ c main_v349 (by decide)).trans (at_v349_77 m ρ c)
theorem at_v349_79 : W79 m ρ c (Proc.devRef .tc main_v349) = K.P02_gb2 (K.argsOf m c) := (W79_of m ρ c main_v349 (by decide)).trans (at_v349_78 m ρ c)
theorem at_v349_80 : W80 m ρ c (Proc.devRef .tc main_v349) = K.P02_gb2 (K.argsOf m c) := (W80_of m ρ c main_v349 (by decide)).trans (at_v349_79 m ρ c)
theorem at_v415_81 : W81 m ρ c (Proc.devRef .tc main_v415) = C_v415 (F := Ideal) (K.P02_gb2 (K.argsOf m c)) :=
  rd_v415 (W80 m ρ c) (K.argsOf m c) (at_v349_80 m ρ c)
theorem at_v415_82 : W82 m ρ c (Proc.devRef .tc main_v415) = C_v415 (F := Ideal) (K.P02_gb2 (K.argsOf m c)) := (W82_of m ρ c main_v415 (by decide)).trans (at_v415_81 m ρ c)
theorem at_v420_83 : W83 m ρ c (Proc.devRef .tc main_v420) = K.g5 (K.argsOf m c) :=
  st_g5 (W82 m ρ c) (K.argsOf m c) (at_v418_82 m ρ c) (at_v347_82 m ρ c) (at_v415_82 m ρ c)
theorem at_v293_67 : W67 m ρ c (Proc.devRef .tc main_v293) = K.ue2 (K.argsOf m c) := (W67_of m ρ c main_v293 (by decide)).trans (at_v293_66 m ρ c)
theorem at_v293_68 : W68 m ρ c (Proc.devRef .tc main_v293) = K.ue2 (K.argsOf m c) := (W68_of m ρ c main_v293 (by decide)).trans (at_v293_67 m ρ c)
theorem at_v293_69 : W69 m ρ c (Proc.devRef .tc main_v293) = K.ue2 (K.argsOf m c) := (W69_of m ρ c main_v293 (by decide)).trans (at_v293_68 m ρ c)
theorem at_v293_70 : W70 m ρ c (Proc.devRef .tc main_v293) = K.ue2 (K.argsOf m c) := (W70_of m ρ c main_v293 (by decide)).trans (at_v293_69 m ρ c)
theorem at_v293_71 : W71 m ρ c (Proc.devRef .tc main_v293) = K.ue2 (K.argsOf m c) := (W71_of m ρ c main_v293 (by decide)).trans (at_v293_70 m ρ c)
theorem at_v293_72 : W72 m ρ c (Proc.devRef .tc main_v293) = K.ue2 (K.argsOf m c) := (W72_of m ρ c main_v293 (by decide)).trans (at_v293_71 m ρ c)
theorem at_v293_73 : W73 m ρ c (Proc.devRef .tc main_v293) = K.ue2 (K.argsOf m c) := (W73_of m ρ c main_v293 (by decide)).trans (at_v293_72 m ρ c)
theorem at_v293_74 : W74 m ρ c (Proc.devRef .tc main_v293) = K.ue2 (K.argsOf m c) := (W74_of m ρ c main_v293 (by decide)).trans (at_v293_73 m ρ c)
theorem at_v293_75 : W75 m ρ c (Proc.devRef .tc main_v293) = K.ue2 (K.argsOf m c) := (W75_of m ρ c main_v293 (by decide)).trans (at_v293_74 m ρ c)
theorem at_v293_76 : W76 m ρ c (Proc.devRef .tc main_v293) = K.ue2 (K.argsOf m c) := (W76_of m ρ c main_v293 (by decide)).trans (at_v293_75 m ρ c)
theorem at_v293_77 : W77 m ρ c (Proc.devRef .tc main_v293) = K.ue2 (K.argsOf m c) := (W77_of m ρ c main_v293 (by decide)).trans (at_v293_76 m ρ c)
theorem at_v293_78 : W78 m ρ c (Proc.devRef .tc main_v293) = K.ue2 (K.argsOf m c) := (W78_of m ρ c main_v293 (by decide)).trans (at_v293_77 m ρ c)
theorem at_v293_79 : W79 m ρ c (Proc.devRef .tc main_v293) = K.ue2 (K.argsOf m c) := (W79_of m ρ c main_v293 (by decide)).trans (at_v293_78 m ρ c)
theorem at_v293_80 : W80 m ρ c (Proc.devRef .tc main_v293) = K.ue2 (K.argsOf m c) := (W80_of m ρ c main_v293 (by decide)).trans (at_v293_79 m ρ c)
theorem at_v293_81 : W81 m ρ c (Proc.devRef .tc main_v293) = K.ue2 (K.argsOf m c) := (W81_of m ρ c main_v293 (by decide)).trans (at_v293_80 m ρ c)
theorem at_v293_82 : W82 m ρ c (Proc.devRef .tc main_v293) = K.ue2 (K.argsOf m c) := (W82_of m ρ c main_v293 (by decide)).trans (at_v293_81 m ρ c)
theorem at_v31_51 : W51 m ρ c (Proc.devRef .tc main_v31) = K.zcol := (W51_of m ρ c main_v31 (by decide)).trans (at_v31_50 m ρ c)
theorem at_v31_52 : W52 m ρ c (Proc.devRef .tc main_v31) = K.zcol := (W52_of m ρ c main_v31 (by decide)).trans (at_v31_51 m ρ c)
theorem at_v31_53 : W53 m ρ c (Proc.devRef .tc main_v31) = K.zcol := (W53_of m ρ c main_v31 (by decide)).trans (at_v31_52 m ρ c)
theorem at_v31_54 : W54 m ρ c (Proc.devRef .tc main_v31) = K.zcol := (W54_of m ρ c main_v31 (by decide)).trans (at_v31_53 m ρ c)
theorem at_v31_55 : W55 m ρ c (Proc.devRef .tc main_v31) = K.zcol := (W55_of m ρ c main_v31 (by decide)).trans (at_v31_54 m ρ c)
theorem at_v31_56 : W56 m ρ c (Proc.devRef .tc main_v31) = K.zcol := (W56_of m ρ c main_v31 (by decide)).trans (at_v31_55 m ρ c)
theorem at_v31_57 : W57 m ρ c (Proc.devRef .tc main_v31) = K.zcol := (W57_of m ρ c main_v31 (by decide)).trans (at_v31_56 m ρ c)
theorem at_v31_58 : W58 m ρ c (Proc.devRef .tc main_v31) = K.zcol := (W58_of m ρ c main_v31 (by decide)).trans (at_v31_57 m ρ c)
theorem at_v31_59 : W59 m ρ c (Proc.devRef .tc main_v31) = K.zcol := (W59_of m ρ c main_v31 (by decide)).trans (at_v31_58 m ρ c)
theorem at_v31_60 : W60 m ρ c (Proc.devRef .tc main_v31) = K.zcol := (W60_of m ρ c main_v31 (by decide)).trans (at_v31_59 m ρ c)
theorem at_v31_61 : W61 m ρ c (Proc.devRef .tc main_v31) = K.zcol := (W61_of m ρ c main_v31 (by decide)).trans (at_v31_60 m ρ c)
theorem at_v31_62 : W62 m ρ c (Proc.devRef .tc main_v31) = K.zcol := (W62_of m ρ c main_v31 (by decide)).trans (at_v31_61 m ρ c)
theorem at_v31_63 : W63 m ρ c (Proc.devRef .tc main_v31) = K.zcol := (W63_of m ρ c main_v31 (by decide)).trans (at_v31_62 m ρ c)
theorem at_v31_64 : W64 m ρ c (Proc.devRef .tc main_v31) = K.zcol := (W64_of m ρ c main_v31 (by decide)).trans (at_v31_63 m ρ c)
theorem at_v31_65 : W65 m ρ c (Proc.devRef .tc main_v31) = K.zcol := (W65_of m ρ c main_v31 (by decide)).trans (at_v31_64 m ρ c)
theorem at_v31_66 : W66 m ρ c (Proc.devRef .tc main_v31) = K.zcol := (W66_of m ρ c main_v31 (by decide)).trans (at_v31_65 m ρ c)
theorem at_v31_67 : W67 m ρ c (Proc.devRef .tc main_v31) = K.zcol := (W67_of m ρ c main_v31 (by decide)).trans (at_v31_66 m ρ c)
theorem at_v31_68 : W68 m ρ c (Proc.devRef .tc main_v31) = K.zcol := (W68_of m ρ c main_v31 (by decide)).trans (at_v31_67 m ρ c)
theorem at_v31_69 : W69 m ρ c (Proc.devRef .tc main_v31) = K.zcol := (W69_of m ρ c main_v31 (by decide)).trans (at_v31_68 m ρ c)
theorem at_v31_70 : W70 m ρ c (Proc.devRef .tc main_v31) = K.zcol := (W70_of m ρ c main_v31 (by decide)).trans (at_v31_69 m ρ c)
theorem at_v31_71 : W71 m ρ c (Proc.devRef .tc main_v31) = K.zcol := (W71_of m ρ c main_v31 (by decide)).trans (at_v31_70 m ρ c)
theorem at_v31_72 : W72 m ρ c (Proc.devRef .tc main_v31) = K.zcol := (W72_of m ρ c main_v31 (by decide)).trans (at_v31_71 m ρ c)
theorem at_v31_73 : W73 m ρ c (Proc.devRef .tc main_v31) = K.zcol := (W73_of m ρ c main_v31 (by decide)).trans (at_v31_72 m ρ c)
theorem at_v31_74 : W74 m ρ c (Proc.devRef .tc main_v31) = K.zcol := (W74_of m ρ c main_v31 (by decide)).trans (at_v31_73 m ρ c)
theorem at_v31_75 : W75 m ρ c (Proc.devRef .tc main_v31) = K.zcol := (W75_of m ρ c main_v31 (by decide)).trans (at_v31_74 m ρ c)
theorem at_v31_76 : W76 m ρ c (Proc.devRef .tc main_v31) = K.zcol := (W76_of m ρ c main_v31 (by decide)).trans (at_v31_75 m ρ c)
theorem at_v31_77 : W77 m ρ c (Proc.devRef .tc main_v31) = K.zcol := (W77_of m ρ c main_v31 (by decide)).trans (at_v31_76 m ρ c)
theorem at_v31_78 : W78 m ρ c (Proc.devRef .tc main_v31) = K.zcol := (W78_of m ρ c main_v31 (by decide)).trans (at_v31_77 m ρ c)
theorem at_v31_79 : W79 m ρ c (Proc.devRef .tc main_v31) = K.zcol := (W79_of m ρ c main_v31 (by decide)).trans (at_v31_78 m ρ c)
theorem at_v31_80 : W80 m ρ c (Proc.devRef .tc main_v31) = K.zcol := (W80_of m ρ c main_v31 (by decide)).trans (at_v31_79 m ρ c)
theorem at_v31_81 : W81 m ρ c (Proc.devRef .tc main_v31) = K.zcol := (W81_of m ρ c main_v31 (by decide)).trans (at_v31_80 m ρ c)
theorem at_v31_82 : W82 m ρ c (Proc.devRef .tc main_v31) = K.zcol := (W82_of m ρ c main_v31 (by decide)).trans (at_v31_81 m ρ c)
theorem at_v421_83 : W83 m ρ c (Proc.devRef .tc main_v421) = K.uin2 (K.argsOf m c) :=
  st_uin2 (W82 m ρ c) (K.argsOf m c) (at_v293_82 m ρ c) (at_v31_82 m ρ c)
theorem at_v5_62 : W62 m ρ c (Proc.devRef .tc main_v5) = K.ur (K.argsOf m c) := (W62_of m ρ c main_v5 (by decide)).trans (at_v5_61 m ρ c)
theorem at_v5_63 : W63 m ρ c (Proc.devRef .tc main_v5) = K.ur (K.argsOf m c) := (W63_of m ρ c main_v5 (by decide)).trans (at_v5_62 m ρ c)
theorem at_v5_64 : W64 m ρ c (Proc.devRef .tc main_v5) = K.ur (K.argsOf m c) := (W64_of m ρ c main_v5 (by decide)).trans (at_v5_63 m ρ c)
theorem at_v5_65 : W65 m ρ c (Proc.devRef .tc main_v5) = K.ur (K.argsOf m c) := (W65_of m ρ c main_v5 (by decide)).trans (at_v5_64 m ρ c)
theorem at_v5_66 : W66 m ρ c (Proc.devRef .tc main_v5) = K.ur (K.argsOf m c) := (W66_of m ρ c main_v5 (by decide)).trans (at_v5_65 m ρ c)
theorem at_v5_67 : W67 m ρ c (Proc.devRef .tc main_v5) = K.ur (K.argsOf m c) := (W67_of m ρ c main_v5 (by decide)).trans (at_v5_66 m ρ c)
theorem at_v5_68 : W68 m ρ c (Proc.devRef .tc main_v5) = K.ur (K.argsOf m c) := (W68_of m ρ c main_v5 (by decide)).trans (at_v5_67 m ρ c)
theorem at_v5_69 : W69 m ρ c (Proc.devRef .tc main_v5) = K.ur (K.argsOf m c) := (W69_of m ρ c main_v5 (by decide)).trans (at_v5_68 m ρ c)
theorem at_v5_70 : W70 m ρ c (Proc.devRef .tc main_v5) = K.ur (K.argsOf m c) := (W70_of m ρ c main_v5 (by decide)).trans (at_v5_69 m ρ c)
theorem at_v5_71 : W71 m ρ c (Proc.devRef .tc main_v5) = K.ur (K.argsOf m c) := (W71_of m ρ c main_v5 (by decide)).trans (at_v5_70 m ρ c)
theorem at_v5_72 : W72 m ρ c (Proc.devRef .tc main_v5) = K.ur (K.argsOf m c) := (W72_of m ρ c main_v5 (by decide)).trans (at_v5_71 m ρ c)
theorem at_v5_73 : W73 m ρ c (Proc.devRef .tc main_v5) = K.ur (K.argsOf m c) := (W73_of m ρ c main_v5 (by decide)).trans (at_v5_72 m ρ c)
theorem at_v5_74 : W74 m ρ c (Proc.devRef .tc main_v5) = K.ur (K.argsOf m c) := (W74_of m ρ c main_v5 (by decide)).trans (at_v5_73 m ρ c)
theorem at_v5_75 : W75 m ρ c (Proc.devRef .tc main_v5) = K.ur (K.argsOf m c) := (W75_of m ρ c main_v5 (by decide)).trans (at_v5_74 m ρ c)
theorem at_v5_76 : W76 m ρ c (Proc.devRef .tc main_v5) = K.ur (K.argsOf m c) := (W76_of m ρ c main_v5 (by decide)).trans (at_v5_75 m ρ c)
theorem at_v5_77 : W77 m ρ c (Proc.devRef .tc main_v5) = K.ur (K.argsOf m c) := (W77_of m ρ c main_v5 (by decide)).trans (at_v5_76 m ρ c)
theorem at_v5_78 : W78 m ρ c (Proc.devRef .tc main_v5) = K.ur (K.argsOf m c) := (W78_of m ρ c main_v5 (by decide)).trans (at_v5_77 m ρ c)
theorem at_v5_79 : W79 m ρ c (Proc.devRef .tc main_v5) = K.ur (K.argsOf m c) := (W79_of m ρ c main_v5 (by decide)).trans (at_v5_78 m ρ c)
theorem at_v5_80 : W80 m ρ c (Proc.devRef .tc main_v5) = K.ur (K.argsOf m c) := (W80_of m ρ c main_v5 (by decide)).trans (at_v5_79 m ρ c)
theorem at_v5_81 : W81 m ρ c (Proc.devRef .tc main_v5) = K.ur (K.argsOf m c) := (W81_of m ρ c main_v5 (by decide)).trans (at_v5_80 m ρ c)
theorem at_v5_82 : W82 m ρ c (Proc.devRef .tc main_v5) = K.ur (K.argsOf m c) := (W82_of m ρ c main_v5 (by decide)).trans (at_v5_81 m ρ c)
theorem at_v5_83 : W83 m ρ c (Proc.devRef .tc main_v5) = K.ur (K.argsOf m c) := (W83_of m ρ c main_v5 (by decide)).trans (at_v5_82 m ρ c)
theorem at_v404_82 : W82 m ρ c (Proc.devRef .tc main_v404) = K.ln3 (K.argsOf m c) := (W82_of m ρ c main_v404 (by decide)).trans (at_v404_81 m ρ c)
theorem at_v404_83 : W83 m ρ c (Proc.devRef .tc main_v404) = K.ln3 (K.argsOf m c) := (W83_of m ρ c main_v404 (by decide)).trans (at_v404_82 m ρ c)
theorem at_v423_84 : W84 m ρ c (Proc.devRef .tc main_v423) = C_v423 (F := Ideal) (K.ur (K.argsOf m c)) (K.ln3 (K.argsOf m c)) :=
  (congrArg (fun l => StableHlo.after l (W83 m ρ c) (Proc.devRef .tc main_v423)) hostOps10_3_eq).trans (rd_v423 (W83 m ρ c) (K.argsOf m c) (at_v5_83 m ρ c) (at_v404_83 m ρ c))
theorem at_v424_85 : W85 m ρ c (Proc.devRef .tc main_v424) = C_v424 (F := Ideal) (C_v423 (F := Ideal) (K.ur (K.argsOf m c)) (K.ln3 (K.argsOf m c))) :=
  rd_v424 (W84 m ρ c) (K.argsOf m c) (at_v423_84 m ρ c)
theorem at_v424_86 : W86 m ρ c (Proc.devRef .tc main_v424) = C_v424 (F := Ideal) (C_v423 (F := Ideal) (K.ur (K.argsOf m c)) (K.ln3 (K.argsOf m c))) := (W86_of m ρ c main_v424 (by decide)).trans (at_v424_85 m ρ c)
theorem at_v424_87 : W87 m ρ c (Proc.devRef .tc main_v424) = C_v424 (F := Ideal) (C_v423 (F := Ideal) (K.ur (K.argsOf m c)) (K.ln3 (K.argsOf m c))) := (W87_of m ρ c main_v424 (by decide)).trans (at_v424_86 m ρ c)
theorem at_c_59_87 : W87 m ρ c (Proc.devRef .tc main_c_59) = C_c_59 :=
  rd_c_59 (W86 m ρ c) (K.argsOf m c)
theorem at_v436_88 : W88 m ρ c (Proc.devRef .tc main_v436) = C_v436 (F := Ideal) (C_v424 (F := Ideal) (C_v423 (F := Ideal) (K.ur (K.argsOf m c)) (K.ln3 (K.argsOf m c)))) (C_c_59) :=
  (congrArg (fun l => StableHlo.after l (W87 m ρ c) (Proc.devRef .tc main_v436)) hostOps10_7_eq).trans (rd_v436 (W87 m ρ c) (K.argsOf m c) (at_v424_87 m ρ c) (at_c_59_87 m ρ c))
theorem at_v436_89 : W89 m ρ c (Proc.devRef .tc main_v436) = C_v436 (F := Ideal) (C_v424 (F := Ideal) (C_v423 (F := Ideal) (K.ur (K.argsOf m c)) (K.ln3 (K.argsOf m c)))) (C_c_59) := (W89_of m ρ c main_v436 (by decide)).trans (at_v436_88 m ρ c)
theorem at_v436_90 : W90 m ρ c (Proc.devRef .tc main_v436) = C_v436 (F := Ideal) (C_v424 (F := Ideal) (C_v423 (F := Ideal) (K.ur (K.argsOf m c)) (K.ln3 (K.argsOf m c)))) (C_c_59) := (W90_of m ρ c main_v436 (by decide)).trans (at_v436_89 m ρ c)
theorem at_v436_91 : W91 m ρ c (Proc.devRef .tc main_v436) = C_v436 (F := Ideal) (C_v424 (F := Ideal) (C_v423 (F := Ideal) (K.ur (K.argsOf m c)) (K.ln3 (K.argsOf m c)))) (C_c_59) := (W91_of m ρ c main_v436 (by decide)).trans (at_v436_90 m ρ c)
theorem at_v436_92 : W92 m ρ c (Proc.devRef .tc main_v436) = C_v436 (F := Ideal) (C_v424 (F := Ideal) (C_v423 (F := Ideal) (K.ur (K.argsOf m c)) (K.ln3 (K.argsOf m c)))) (C_c_59) := (W92_of m ρ c main_v436 (by decide)).trans (at_v436_91 m ρ c)
theorem at_v7_54 : W54 m ρ c (Proc.devRef .tc main_v7) = K.uc (K.argsOf m c) := (W54_of m ρ c main_v7 (by decide)).trans (at_v7_53 m ρ c)
theorem at_v7_55 : W55 m ρ c (Proc.devRef .tc main_v7) = K.uc (K.argsOf m c) := (W55_of m ρ c main_v7 (by decide)).trans (at_v7_54 m ρ c)
theorem at_v7_56 : W56 m ρ c (Proc.devRef .tc main_v7) = K.uc (K.argsOf m c) := (W56_of m ρ c main_v7 (by decide)).trans (at_v7_55 m ρ c)
theorem at_v7_57 : W57 m ρ c (Proc.devRef .tc main_v7) = K.uc (K.argsOf m c) := (W57_of m ρ c main_v7 (by decide)).trans (at_v7_56 m ρ c)
theorem at_v7_58 : W58 m ρ c (Proc.devRef .tc main_v7) = K.uc (K.argsOf m c) := (W58_of m ρ c main_v7 (by decide)).trans (at_v7_57 m ρ c)
theorem at_v7_59 : W59 m ρ c (Proc.devRef .tc main_v7) = K.uc (K.argsOf m c) := (W59_of m ρ c main_v7 (by decide)).trans (at_v7_58 m ρ c)
theorem at_v7_60 : W60 m ρ c (Proc.devRef .tc main_v7) = K.uc (K.argsOf m c) := (W60_of m ρ c main_v7 (by decide)).trans (at_v7_59 m ρ c)
theorem at_v7_61 : W61 m ρ c (Proc.devRef .tc main_v7) = K.uc (K.argsOf m c) := (W61_of m ρ c main_v7 (by decide)).trans (at_v7_60 m ρ c)
theorem at_v7_62 : W62 m ρ c (Proc.devRef .tc main_v7) = K.uc (K.argsOf m c) := (W62_of m ρ c main_v7 (by decide)).trans (at_v7_61 m ρ c)
theorem at_v7_63 : W63 m ρ c (Proc.devRef .tc main_v7) = K.uc (K.argsOf m c) := (W63_of m ρ c main_v7 (by decide)).trans (at_v7_62 m ρ c)
theorem at_v7_64 : W64 m ρ c (Proc.devRef .tc main_v7) = K.uc (K.argsOf m c) := (W64_of m ρ c main_v7 (by decide)).trans (at_v7_63 m ρ c)
theorem at_v7_65 : W65 m ρ c (Proc.devRef .tc main_v7) = K.uc (K.argsOf m c) := (W65_of m ρ c main_v7 (by decide)).trans (at_v7_64 m ρ c)
theorem at_v7_66 : W66 m ρ c (Proc.devRef .tc main_v7) = K.uc (K.argsOf m c) := (W66_of m ρ c main_v7 (by decide)).trans (at_v7_65 m ρ c)
theorem at_v7_67 : W67 m ρ c (Proc.devRef .tc main_v7) = K.uc (K.argsOf m c) := (W67_of m ρ c main_v7 (by decide)).trans (at_v7_66 m ρ c)
theorem at_v7_68 : W68 m ρ c (Proc.devRef .tc main_v7) = K.uc (K.argsOf m c) := (W68_of m ρ c main_v7 (by decide)).trans (at_v7_67 m ρ c)
theorem at_v7_69 : W69 m ρ c (Proc.devRef .tc main_v7) = K.uc (K.argsOf m c) := (W69_of m ρ c main_v7 (by decide)).trans (at_v7_68 m ρ c)
theorem at_v7_70 : W70 m ρ c (Proc.devRef .tc main_v7) = K.uc (K.argsOf m c) := (W70_of m ρ c main_v7 (by decide)).trans (at_v7_69 m ρ c)
theorem at_v7_71 : W71 m ρ c (Proc.devRef .tc main_v7) = K.uc (K.argsOf m c) := (W71_of m ρ c main_v7 (by decide)).trans (at_v7_70 m ρ c)
theorem at_v7_72 : W72 m ρ c (Proc.devRef .tc main_v7) = K.uc (K.argsOf m c) := (W72_of m ρ c main_v7 (by decide)).trans (at_v7_71 m ρ c)
theorem at_v7_73 : W73 m ρ c (Proc.devRef .tc main_v7) = K.uc (K.argsOf m c) := (W73_of m ρ c main_v7 (by decide)).trans (at_v7_72 m ρ c)
theorem at_v7_74 : W74 m ρ c (Proc.devRef .tc main_v7) = K.uc (K.argsOf m c) := (W74_of m ρ c main_v7 (by decide)).trans (at_v7_73 m ρ c)
theorem at_v7_75 : W75 m ρ c (Proc.devRef .tc main_v7) = K.uc (K.argsOf m c) := (W75_of m ρ c main_v7 (by decide)).trans (at_v7_74 m ρ c)
theorem at_v7_76 : W76 m ρ c (Proc.devRef .tc main_v7) = K.uc (K.argsOf m c) := (W76_of m ρ c main_v7 (by decide)).trans (at_v7_75 m ρ c)
theorem at_v7_77 : W77 m ρ c (Proc.devRef .tc main_v7) = K.uc (K.argsOf m c) := (W77_of m ρ c main_v7 (by decide)).trans (at_v7_76 m ρ c)
theorem at_v7_78 : W78 m ρ c (Proc.devRef .tc main_v7) = K.uc (K.argsOf m c) := (W78_of m ρ c main_v7 (by decide)).trans (at_v7_77 m ρ c)
theorem at_v7_79 : W79 m ρ c (Proc.devRef .tc main_v7) = K.uc (K.argsOf m c) := (W79_of m ρ c main_v7 (by decide)).trans (at_v7_78 m ρ c)
theorem at_v7_80 : W80 m ρ c (Proc.devRef .tc main_v7) = K.uc (K.argsOf m c) := (W80_of m ρ c main_v7 (by decide)).trans (at_v7_79 m ρ c)
theorem at_v7_81 : W81 m ρ c (Proc.devRef .tc main_v7) = K.uc (K.argsOf m c) := (W81_of m ρ c main_v7 (by decide)).trans (at_v7_80 m ρ c)
theorem at_v7_82 : W82 m ρ c (Proc.devRef .tc main_v7) = K.uc (K.argsOf m c) := (W82_of m ρ c main_v7 (by decide)).trans (at_v7_81 m ρ c)
theorem at_v7_83 : W83 m ρ c (Proc.devRef .tc main_v7) = K.uc (K.argsOf m c) := (W83_of m ρ c main_v7 (by decide)).trans (at_v7_82 m ρ c)
theorem at_v7_84 : W84 m ρ c (Proc.devRef .tc main_v7) = K.uc (K.argsOf m c) := (W84_of m ρ c main_v7 (by decide)).trans (at_v7_83 m ρ c)
theorem at_v7_85 : W85 m ρ c (Proc.devRef .tc main_v7) = K.uc (K.argsOf m c) := (W85_of m ρ c main_v7 (by decide)).trans (at_v7_84 m ρ c)
theorem at_v404_84 : W84 m ρ c (Proc.devRef .tc main_v404) = K.ln3 (K.argsOf m c) := (W84_of m ρ c main_v404 (by decide)).trans (at_v404_83 m ρ c)
theorem at_v404_85 : W85 m ρ c (Proc.devRef .tc main_v404) = K.ln3 (K.argsOf m c) := (W85_of m ρ c main_v404 (by decide)).trans (at_v404_84 m ρ c)
theorem at_v425_86 : W86 m ρ c (Proc.devRef .tc main_v425) = C_v425 (F := Ideal) (K.uc (K.argsOf m c)) (K.ln3 (K.argsOf m c)) :=
  (congrArg (fun l => StableHlo.after l (W85 m ρ c) (Proc.devRef .tc main_v425)) hostOps10_5_eq).trans (rd_v425 (W85 m ρ c) (K.argsOf m c) (at_v7_85 m ρ c) (at_v404_85 m ρ c))
theorem at_v426_87 : W87 m ρ c (Proc.devRef .tc main_v426) = C_v426 (F := Ideal) (C_v425 (F := Ideal) (K.uc (K.argsOf m c)) (K.ln3 (K.argsOf m c))) :=
  rd_v426 (W86 m ρ c) (K.argsOf m c) (at_v425_86 m ρ c)
theorem at_v426_88 : W88 m ρ c (Proc.devRef .tc main_v426) = C_v426 (F := Ideal) (C_v425 (F := Ideal) (K.uc (K.argsOf m c)) (K.ln3 (K.argsOf m c))) := (W88_of m ρ c main_v426 (by decide)).trans (at_v426_87 m ρ c)
theorem at_v426_89 : W89 m ρ c (Proc.devRef .tc main_v426) = C_v426 (F := Ideal) (C_v425 (F := Ideal) (K.uc (K.argsOf m c)) (K.ln3 (K.argsOf m c))) := (W89_of m ρ c main_v426 (by decide)).trans (at_v426_88 m ρ c)
theorem at_c_60_89 : W89 m ρ c (Proc.devRef .tc main_c_60) = C_c_60 :=
  rd_c_60 (W88 m ρ c) (K.argsOf m c)
theorem at_v437_90 : W90 m ρ c (Proc.devRef .tc main_v437) = C_v437 (F := Ideal) (C_v426 (F := Ideal) (C_v425 (F := Ideal) (K.uc (K.argsOf m c)) (K.ln3 (K.argsOf m c)))) (C_c_60) :=
  (congrArg (fun l => StableHlo.after l (W89 m ρ c) (Proc.devRef .tc main_v437)) hostOps10_9_eq).trans (rd_v437 (W89 m ρ c) (K.argsOf m c) (at_v426_89 m ρ c) (at_c_60_89 m ρ c))
theorem at_v437_91 : W91 m ρ c (Proc.devRef .tc main_v437) = C_v437 (F := Ideal) (C_v426 (F := Ideal) (C_v425 (F := Ideal) (K.uc (K.argsOf m c)) (K.ln3 (K.argsOf m c)))) (C_c_60) := (W91_of m ρ c main_v437 (by decide)).trans (at_v437_90 m ρ c)
theorem at_v437_92 : W92 m ρ c (Proc.devRef .tc main_v437) = C_v437 (F := Ideal) (C_v426 (F := Ideal) (C_v425 (F := Ideal) (K.uc (K.argsOf m c)) (K.ln3 (K.argsOf m c)))) (C_c_60) := (W92_of m ρ c main_v437 (by decide)).trans (at_v437_91 m ρ c)
theorem at_v421_84 : W84 m ρ c (Proc.devRef .tc main_v421) = K.uin2 (K.argsOf m c) := (W84_of m ρ c main_v421 (by decide)).trans (at_v421_83 m ρ c)
theorem at_v421_85 : W85 m ρ c (Proc.devRef .tc main_v421) = K.uin2 (K.argsOf m c) := (W85_of m ρ c main_v421 (by decide)).trans (at_v421_84 m ρ c)
theorem at_v421_86 : W86 m ρ c (Proc.devRef .tc main_v421) = K.uin2 (K.argsOf m c) := (W86_of m ρ c main_v421 (by decide)).trans (at_v421_85 m ρ c)
theorem at_v427_87 : W87 m ρ c (Proc.devRef .tc main_v427) = C_v427 (F := Ideal) (K.uin2 (K.argsOf m c)) :=
  rd_v427 (W86 m ρ c) (K.argsOf m c) (at_v421_86 m ρ c)
theorem at_v427_88 : W88 m ρ c (Proc.devRef .tc main_v427) = C_v427 (F := Ideal) (K.uin2 (K.argsOf m c)) := (W88_of m ρ c main_v427 (by decide)).trans (at_v427_87 m ρ c)
theorem at_v427_89 : W89 m ρ c (Proc.devRef .tc main_v427) = C_v427 (F := Ideal) (K.uin2 (K.argsOf m c)) := (W89_of m ρ c main_v427 (by decide)).trans (at_v427_88 m ρ c)
theorem at_v427_90 : W90 m ρ c (Proc.devRef .tc main_v427) = C_v427 (F := Ideal) (K.uin2 (K.argsOf m c)) := (W90_of m ρ c main_v427 (by decide)).trans (at_v427_89 m ρ c)
theorem at_v427_91 : W91 m ρ c (Proc.devRef .tc main_v427) = C_v427 (F := Ideal) (K.uin2 (K.argsOf m c)) := (W91_of m ρ c main_v427 (by decide)).trans (at_v427_90 m ρ c)
theorem at_c_61_91 : W91 m ρ c (Proc.devRef .tc main_c_61) = C_c_61 :=
  rd_c_61 (W90 m ρ c) (K.argsOf m c)
theorem at_v438_92 : W92 m ρ c (Proc.devRef .tc main_v438) = C_v438 (F := Ideal) (C_v427 (F := Ideal) (K.uin2 (K.argsOf m c))) (C_c_61) :=
  (congrArg (fun l => StableHlo.after l (W91 m ρ c) (Proc.devRef .tc main_v438)) hostOps10_11_eq).trans (rd_v438 (W91 m ρ c) (K.argsOf m c) (at_v427_91 m ρ c) (at_c_61_91 m ρ c))
theorem at_v351_69 : W69 m ρ c (Proc.devRef .tc main_v351) = K.P12_eW1 (K.argsOf m c) :=
  pr_v351 (W68 m ρ c) (K.argsOf m c) (at_arg5_68 m ρ c)
theorem at_v351_70 : W70 m ρ c (Proc.devRef .tc main_v351) = K.P12_eW1 (K.argsOf m c) := (W70_of m ρ c main_v351 (by decide)).trans (at_v351_69 m ρ c)
theorem at_v351_71 : W71 m ρ c (Proc.devRef .tc main_v351) = K.P12_eW1 (K.argsOf m c) := (W71_of m ρ c main_v351 (by decide)).trans (at_v351_70 m ρ c)
theorem at_v351_72 : W72 m ρ c (Proc.devRef .tc main_v351) = K.P12_eW1 (K.argsOf m c) := (W72_of m ρ c main_v351 (by decide)).trans (at_v351_71 m ρ c)
theorem at_v351_73 : W73 m ρ c (Proc.devRef .tc main_v351) = K.P12_eW1 (K.argsOf m c) := (W73_of m ρ c main_v351 (by decide)).trans (at_v351_72 m ρ c)
theorem at_v351_74 : W74 m ρ c (Proc.devRef .tc main_v351) = K.P12_eW1 (K.argsOf m c) := (W74_of m ρ c main_v351 (by decide)).trans (at_v351_73 m ρ c)
theorem at_v351_75 : W75 m ρ c (Proc.devRef .tc main_v351) = K.P12_eW1 (K.argsOf m c) := (W75_of m ρ c main_v351 (by decide)).trans (at_v351_74 m ρ c)
theorem at_v351_76 : W76 m ρ c (Proc.devRef .tc main_v351) = K.P12_eW1 (K.argsOf m c) := (W76_of m ρ c main_v351 (by decide)).trans (at_v351_75 m ρ c)
theorem at_v351_77 : W77 m ρ c (Proc.devRef .tc main_v351) = K.P12_eW1 (K.argsOf m c) := (W77_of m ρ c main_v351 (by decide)).trans (at_v351_76 m ρ c)
theorem at_v351_78 : W78 m ρ c (Proc.devRef .tc main_v351) = K.P12_eW1 (K.argsOf m c) := (W78_of m ρ c main_v351 (by decide)).trans (at_v351_77 m ρ c)
theorem at_v351_79 : W79 m ρ c (Proc.devRef .tc main_v351) = K.P12_eW1 (K.argsOf m c) := (W79_of m ρ c main_v351 (by decide)).trans (at_v351_78 m ρ c)
theorem at_v351_80 : W80 m ρ c (Proc.devRef .tc main_v351) = K.P12_eW1 (K.argsOf m c) := (W80_of m ρ c main_v351 (by decide)).trans (at_v351_79 m ρ c)
theorem at_v351_81 : W81 m ρ c (Proc.devRef .tc main_v351) = K.P12_eW1 (K.argsOf m c) := (W81_of m ρ c main_v351 (by decide)).trans (at_v351_80 m ρ c)
theorem at_v351_82 : W82 m ρ c (Proc.devRef .tc main_v351) = K.P12_eW1 (K.argsOf m c) := (W82_of m ρ c main_v351 (by decide)).trans (at_v351_81 m ρ c)
theorem at_v351_83 : W83 m ρ c (Proc.devRef .tc main_v351) = K.P12_eW1 (K.argsOf m c) := (W83_of m ρ c main_v351 (by decide)).trans (at_v351_82 m ρ c)
theorem at_v351_84 : W84 m ρ c (Proc.devRef .tc main_v351) = K.P12_eW1 (K.argsOf m c) := (W84_of m ρ c main_v351 (by decide)).trans (at_v351_83 m ρ c)
theorem at_v351_85 : W85 m ρ c (Proc.devRef .tc main_v351) = K.P12_eW1 (K.argsOf m c) := (W85_of m ρ c main_v351 (by decide)).trans (at_v351_84 m ρ c)
theorem at_v351_86 : W86 m ρ c (Proc.devRef .tc main_v351) = K.P12_eW1 (K.argsOf m c) := (W86_of m ρ c main_v351 (by decide)).trans (at_v351_85 m ρ c)
theorem at_v429_87 : W87 m ρ c (Proc.devRef .tc main_v429) = C_v429 (F := Ideal) (K.P12_eW1 (K.argsOf m c)) :=
  rd_v429 (W86 m ρ c) (K.argsOf m c) (at_v351_86 m ρ c)
theorem at_v429_88 : W88 m ρ c (Proc.devRef .tc main_v429) = C_v429 (F := Ideal) (K.P12_eW1 (K.argsOf m c)) := (W88_of m ρ c main_v429 (by decide)).trans (at_v429_87 m ρ c)
theorem at_v429_89 : W89 m ρ c (Proc.devRef .tc main_v429) = C_v429 (F := Ideal) (K.P12_eW1 (K.argsOf m c)) := (W89_of m ρ c main_v429 (by decide)).trans (at_v429_88 m ρ c)
theorem at_v429_90 : W90 m ρ c (Proc.devRef .tc main_v429) = C_v429 (F := Ideal) (K.P12_eW1 (K.argsOf m c)) := (W90_of m ρ c main_v429 (by decide)).trans (at_v429_89 m ρ c)
theorem at_v429_91 : W91 m ρ c (Proc.devRef .tc main_v429) = C_v429 (F := Ideal) (K.P12_eW1 (K.argsOf m c)) := (W91_of m ρ c main_v429 (by decide)).trans (at_v429_90 m ρ c)
theorem at_v429_92 : W92 m ρ c (Proc.devRef .tc main_v429) = C_v429 (F := Ideal) (K.P12_eW1 (K.argsOf m c)) := (W92_of m ρ c main_v429 (by decide)).trans (at_v429_91 m ρ c)
theorem at_v430_87 : W87 m ρ c (Proc.devRef .tc main_v430) = C_v430 (F := Ideal) (K.P12_eW1 (K.argsOf m c)) :=
  rd_v430 (W86 m ρ c) (K.argsOf m c) (at_v351_86 m ρ c)
theorem at_v430_88 : W88 m ρ c (Proc.devRef .tc main_v430) = C_v430 (F := Ideal) (K.P12_eW1 (K.argsOf m c)) := (W88_of m ρ c main_v430 (by decide)).trans (at_v430_87 m ρ c)
theorem at_v430_89 : W89 m ρ c (Proc.devRef .tc main_v430) = C_v430 (F := Ideal) (K.P12_eW1 (K.argsOf m c)) := (W89_of m ρ c main_v430 (by decide)).trans (at_v430_88 m ρ c)
theorem at_v430_90 : W90 m ρ c (Proc.devRef .tc main_v430) = C_v430 (F := Ideal) (K.P12_eW1 (K.argsOf m c)) := (W90_of m ρ c main_v430 (by decide)).trans (at_v430_89 m ρ c)
theorem at_v430_91 : W91 m ρ c (Proc.devRef .tc main_v430) = C_v430 (F := Ideal) (K.P12_eW1 (K.argsOf m c)) := (W91_of m ρ c main_v430 (by decide)).trans (at_v430_90 m ρ c)
theorem at_v430_92 : W92 m ρ c (Proc.devRef .tc main_v430) = C_v430 (F := Ideal) (K.P12_eW1 (K.argsOf m c)) := (W92_of m ρ c main_v430 (by decide)).trans (at_v430_91 m ρ c)
theorem at_v431_87 : W87 m ρ c (Proc.devRef .tc main_v431) = C_v431 (F := Ideal) (K.P12_eW1 (K.argsOf m c)) :=
  rd_v431 (W86 m ρ c) (K.argsOf m c) (at_v351_86 m ρ c)
theorem at_v431_88 : W88 m ρ c (Proc.devRef .tc main_v431) = C_v431 (F := Ideal) (K.P12_eW1 (K.argsOf m c)) := (W88_of m ρ c main_v431 (by decide)).trans (at_v431_87 m ρ c)
theorem at_v431_89 : W89 m ρ c (Proc.devRef .tc main_v431) = C_v431 (F := Ideal) (K.P12_eW1 (K.argsOf m c)) := (W89_of m ρ c main_v431 (by decide)).trans (at_v431_88 m ρ c)
theorem at_v431_90 : W90 m ρ c (Proc.devRef .tc main_v431) = C_v431 (F := Ideal) (K.P12_eW1 (K.argsOf m c)) := (W90_of m ρ c main_v431 (by decide)).trans (at_v431_89 m ρ c)
theorem at_v431_91 : W91 m ρ c (Proc.devRef .tc main_v431) = C_v431 (F := Ideal) (K.P12_eW1 (K.argsOf m c)) := (W91_of m ρ c main_v431 (by decide)).trans (at_v431_90 m ρ c)
theorem at_v431_92 : W92 m ρ c (Proc.devRef .tc main_v431) = C_v431 (F := Ideal) (K.P12_eW1 (K.argsOf m c)) := (W92_of m ρ c main_v431 (by decide)).trans (at_v431_91 m ρ c)
theorem at_v353_69 : W69 m ρ c (Proc.devRef .tc main_v353) = K.P12_eb1 (K.argsOf m c) :=
  pr_v353 (W68 m ρ c) (K.argsOf m c) (at_arg6_68 m ρ c)
theorem at_v353_70 : W70 m ρ c (Proc.devRef .tc main_v353) = K.P12_eb1 (K.argsOf m c) := (W70_of m ρ c main_v353 (by decide)).trans (at_v353_69 m ρ c)
theorem at_v353_71 : W71 m ρ c (Proc.devRef .tc main_v353) = K.P12_eb1 (K.argsOf m c) := (W71_of m ρ c main_v353 (by decide)).trans (at_v353_70 m ρ c)
theorem at_v353_72 : W72 m ρ c (Proc.devRef .tc main_v353) = K.P12_eb1 (K.argsOf m c) := (W72_of m ρ c main_v353 (by decide)).trans (at_v353_71 m ρ c)
theorem at_v353_73 : W73 m ρ c (Proc.devRef .tc main_v353) = K.P12_eb1 (K.argsOf m c) := (W73_of m ρ c main_v353 (by decide)).trans (at_v353_72 m ρ c)
theorem at_v353_74 : W74 m ρ c (Proc.devRef .tc main_v353) = K.P12_eb1 (K.argsOf m c) := (W74_of m ρ c main_v353 (by decide)).trans (at_v353_73 m ρ c)
theorem at_v353_75 : W75 m ρ c (Proc.devRef .tc main_v353) = K.P12_eb1 (K.argsOf m c) := (W75_of m ρ c main_v353 (by decide)).trans (at_v353_74 m ρ c)
theorem at_v353_76 : W76 m ρ c (Proc.devRef .tc main_v353) = K.P12_eb1 (K.argsOf m c) := (W76_of m ρ c main_v353 (by decide)).trans (at_v353_75 m ρ c)
theorem at_v353_77 : W77 m ρ c (Proc.devRef .tc main_v353) = K.P12_eb1 (K.argsOf m c) := (W77_of m ρ c main_v353 (by decide)).trans (at_v353_76 m ρ c)
theorem at_v353_78 : W78 m ρ c (Proc.devRef .tc main_v353) = K.P12_eb1 (K.argsOf m c) := (W78_of m ρ c main_v353 (by decide)).trans (at_v353_77 m ρ c)
theorem at_v353_79 : W79 m ρ c (Proc.devRef .tc main_v353) = K.P12_eb1 (K.argsOf m c) := (W79_of m ρ c main_v353 (by decide)).trans (at_v353_78 m ρ c)
theorem at_v353_80 : W80 m ρ c (Proc.devRef .tc main_v353) = K.P12_eb1 (K.argsOf m c) := (W80_of m ρ c main_v353 (by decide)).trans (at_v353_79 m ρ c)
theorem at_v353_81 : W81 m ρ c (Proc.devRef .tc main_v353) = K.P12_eb1 (K.argsOf m c) := (W81_of m ρ c main_v353 (by decide)).trans (at_v353_80 m ρ c)
theorem at_v353_82 : W82 m ρ c (Proc.devRef .tc main_v353) = K.P12_eb1 (K.argsOf m c) := (W82_of m ρ c main_v353 (by decide)).trans (at_v353_81 m ρ c)
theorem at_v353_83 : W83 m ρ c (Proc.devRef .tc main_v353) = K.P12_eb1 (K.argsOf m c) := (W83_of m ρ c main_v353 (by decide)).trans (at_v353_82 m ρ c)
theorem at_v353_84 : W84 m ρ c (Proc.devRef .tc main_v353) = K.P12_eb1 (K.argsOf m c) := (W84_of m ρ c main_v353 (by decide)).trans (at_v353_83 m ρ c)
theorem at_v353_85 : W85 m ρ c (Proc.devRef .tc main_v353) = K.P12_eb1 (K.argsOf m c) := (W85_of m ρ c main_v353 (by decide)).trans (at_v353_84 m ρ c)
theorem at_v353_86 : W86 m ρ c (Proc.devRef .tc main_v353) = K.P12_eb1 (K.argsOf m c) := (W86_of m ρ c main_v353 (by decide)).trans (at_v353_85 m ρ c)
theorem at_v420_84 : W84 m ρ c (Proc.devRef .tc main_v420) = K.g5 (K.argsOf m c) := (W84_of m ρ c main_v420 (by decide)).trans (at_v420_83 m ρ c)
theorem at_v420_85 : W85 m ρ c (Proc.devRef .tc main_v420) = K.g5 (K.argsOf m c) := (W85_of m ρ c main_v420 (by decide)).trans (at_v420_84 m ρ c)
theorem at_v420_86 : W86 m ρ c (Proc.devRef .tc main_v420) = K.g5 (K.argsOf m c) := (W86_of m ρ c main_v420 (by decide)).trans (at_v420_85 m ρ c)
theorem at_v434_87 : W87 m ρ c (Proc.devRef .tc main_v434) = C_v434 (F := Ideal) (K.P12_eb1 (K.argsOf m c)) (K.g5 (K.argsOf m c)) (K.P12_eW1 (K.argsOf m c)) :=
  rd_v434 (W86 m ρ c) (K.argsOf m c) (at_v353_86 m ρ c) (at_v420_86 m ρ c) (at_v351_86 m ρ c)
theorem at_v434_88 : W88 m ρ c (Proc.devRef .tc main_v434) = C_v434 (F := Ideal) (K.P12_eb1 (K.argsOf m c)) (K.g5 (K.argsOf m c)) (K.P12_eW1 (K.argsOf m c)) := (W88_of m ρ c main_v434 (by decide)).trans (at_v434_87 m ρ c)
theorem at_v434_89 : W89 m ρ c (Proc.devRef .tc main_v434) = C_v434 (F := Ideal) (K.P12_eb1 (K.argsOf m c)) (K.g5 (K.argsOf m c)) (K.P12_eW1 (K.argsOf m c)) := (W89_of m ρ c main_v434 (by decide)).trans (at_v434_88 m ρ c)
theorem at_v434_90 : W90 m ρ c (Proc.devRef .tc main_v434) = C_v434 (F := Ideal) (K.P12_eb1 (K.argsOf m c)) (K.g5 (K.argsOf m c)) (K.P12_eW1 (K.argsOf m c)) := (W90_of m ρ c main_v434 (by decide)).trans (at_v434_89 m ρ c)
theorem at_v434_91 : W91 m ρ c (Proc.devRef .tc main_v434) = C_v434 (F := Ideal) (K.P12_eb1 (K.argsOf m c)) (K.g5 (K.argsOf m c)) (K.P12_eW1 (K.argsOf m c)) := (W91_of m ρ c main_v434 (by decide)).trans (at_v434_90 m ρ c)
theorem at_v434_92 : W92 m ρ c (Proc.devRef .tc main_v434) = C_v434 (F := Ideal) (K.P12_eb1 (K.argsOf m c)) (K.g5 (K.argsOf m c)) (K.P12_eW1 (K.argsOf m c)) := (W92_of m ρ c main_v434 (by decide)).trans (at_v434_91 m ρ c)
theorem at_v355_69 : W69 m ρ c (Proc.devRef .tc main_v355) = K.P12_eW2 (K.argsOf m c) :=
  pr_v355 (W68 m ρ c) (K.argsOf m c) (at_arg7_68 m ρ c)
theorem at_v355_70 : W70 m ρ c (Proc.devRef .tc main_v355) = K.P12_eW2 (K.argsOf m c) := (W70_of m ρ c main_v355 (by decide)).trans (at_v355_69 m ρ c)
theorem at_v355_71 : W71 m ρ c (Proc.devRef .tc main_v355) = K.P12_eW2 (K.argsOf m c) := (W71_of m ρ c main_v355 (by decide)).trans (at_v355_70 m ρ c)
theorem at_v355_72 : W72 m ρ c (Proc.devRef .tc main_v355) = K.P12_eW2 (K.argsOf m c) := (W72_of m ρ c main_v355 (by decide)).trans (at_v355_71 m ρ c)
theorem at_v355_73 : W73 m ρ c (Proc.devRef .tc main_v355) = K.P12_eW2 (K.argsOf m c) := (W73_of m ρ c main_v355 (by decide)).trans (at_v355_72 m ρ c)
theorem at_v355_74 : W74 m ρ c (Proc.devRef .tc main_v355) = K.P12_eW2 (K.argsOf m c) := (W74_of m ρ c main_v355 (by decide)).trans (at_v355_73 m ρ c)
theorem at_v355_75 : W75 m ρ c (Proc.devRef .tc main_v355) = K.P12_eW2 (K.argsOf m c) := (W75_of m ρ c main_v355 (by decide)).trans (at_v355_74 m ρ c)
theorem at_v355_76 : W76 m ρ c (Proc.devRef .tc main_v355) = K.P12_eW2 (K.argsOf m c) := (W76_of m ρ c main_v355 (by decide)).trans (at_v355_75 m ρ c)
theorem at_v355_77 : W77 m ρ c (Proc.devRef .tc main_v355) = K.P12_eW2 (K.argsOf m c) := (W77_of m ρ c main_v355 (by decide)).trans (at_v355_76 m ρ c)
theorem at_v355_78 : W78 m ρ c (Proc.devRef .tc main_v355) = K.P12_eW2 (K.argsOf m c) := (W78_of m ρ c main_v355 (by decide)).trans (at_v355_77 m ρ c)
theorem at_v355_79 : W79 m ρ c (Proc.devRef .tc main_v355) = K.P12_eW2 (K.argsOf m c) := (W79_of m ρ c main_v355 (by decide)).trans (at_v355_78 m ρ c)
theorem at_v355_80 : W80 m ρ c (Proc.devRef .tc main_v355) = K.P12_eW2 (K.argsOf m c) := (W80_of m ρ c main_v355 (by decide)).trans (at_v355_79 m ρ c)
theorem at_v355_81 : W81 m ρ c (Proc.devRef .tc main_v355) = K.P12_eW2 (K.argsOf m c) := (W81_of m ρ c main_v355 (by decide)).trans (at_v355_80 m ρ c)
theorem at_v355_82 : W82 m ρ c (Proc.devRef .tc main_v355) = K.P12_eW2 (K.argsOf m c) := (W82_of m ρ c main_v355 (by decide)).trans (at_v355_81 m ρ c)
theorem at_v355_83 : W83 m ρ c (Proc.devRef .tc main_v355) = K.P12_eW2 (K.argsOf m c) := (W83_of m ρ c main_v355 (by decide)).trans (at_v355_82 m ρ c)
theorem at_v355_84 : W84 m ρ c (Proc.devRef .tc main_v355) = K.P12_eW2 (K.argsOf m c) := (W84_of m ρ c main_v355 (by decide)).trans (at_v355_83 m ρ c)
theorem at_v355_85 : W85 m ρ c (Proc.devRef .tc main_v355) = K.P12_eW2 (K.argsOf m c) := (W85_of m ρ c main_v355 (by decide)).trans (at_v355_84 m ρ c)
theorem at_v355_86 : W86 m ρ c (Proc.devRef .tc main_v355) = K.P12_eW2 (K.argsOf m c) := (W86_of m ρ c main_v355 (by decide)).trans (at_v355_85 m ρ c)
theorem at_v355_87 : W87 m ρ c (Proc.devRef .tc main_v355) = K.P12_eW2 (K.argsOf m c) := (W87_of m ρ c main_v355 (by decide)).trans (at_v355_86 m ρ c)
theorem at_v355_88 : W88 m ρ c (Proc.devRef .tc main_v355) = K.P12_eW2 (K.argsOf m c) := (W88_of m ρ c main_v355 (by decide)).trans (at_v355_87 m ρ c)
theorem at_v355_89 : W89 m ρ c (Proc.devRef .tc main_v355) = K.P12_eW2 (K.argsOf m c) := (W89_of m ρ c main_v355 (by decide)).trans (at_v355_88 m ρ c)
theorem at_v355_90 : W90 m ρ c (Proc.devRef .tc main_v355) = K.P12_eW2 (K.argsOf m c) := (W90_of m ρ c main_v355 (by decide)).trans (at_v355_89 m ρ c)
theorem at_v355_91 : W91 m ρ c (Proc.devRef .tc main_v355) = K.P12_eW2 (K.argsOf m c) := (W91_of m ρ c main_v355 (by decide)).trans (at_v355_90 m ρ c)
theorem at_v355_92 : W92 m ρ c (Proc.devRef .tc main_v355) = K.P12_eW2 (K.argsOf m c) := (W92_of m ρ c main_v355 (by decide)).trans (at_v355_91 m ρ c)
theorem at_v357_69 : W69 m ρ c (Proc.devRef .tc main_v357) = K.P12_eb2 (K.argsOf m c) :=
  pr_v357 (W68 m ρ c) (K.argsOf m c) (at_arg8_68 m ρ c)
theorem at_v357_70 : W70 m ρ c (Proc.devRef .tc main_v357) = K.P12_eb2 (K.argsOf m c) := (W70_of m ρ c main_v357 (by decide)).trans (at_v357_69 m ρ c)
theorem at_v357_71 : W71 m ρ c (Proc.devRef .tc main_v357) = K.P12_eb2 (K.argsOf m c) := (W71_of m ρ c main_v357 (by decide)).trans (at_v357_70 m ρ c)
theorem at_v357_72 : W72 m ρ c (Proc.devRef .tc main_v357) = K.P12_eb2 (K.argsOf m c) := (W72_of m ρ c main_v357 (by decide)).trans (at_v357_71 m ρ c)
theorem at_v357_73 : W73 m ρ c (Proc.devRef .tc main_v357) = K.P12_eb2 (K.argsOf m c) := (W73_of m ρ c main_v357 (by decide)).trans (at_v357_72 m ρ c)
theorem at_v357_74 : W74 m ρ c (Proc.devRef .tc main_v357) = K.P12_eb2 (K.argsOf m c) := (W74_of m ρ c main_v357 (by decide)).trans (at_v357_73 m ρ c)
theorem at_v357_75 : W75 m ρ c (Proc.devRef .tc main_v357) = K.P12_eb2 (K.argsOf m c) := (W75_of m ρ c main_v357 (by decide)).trans (at_v357_74 m ρ c)
theorem at_v357_76 : W76 m ρ c (Proc.devRef .tc main_v357) = K.P12_eb2 (K.argsOf m c) := (W76_of m ρ c main_v357 (by decide)).trans (at_v357_75 m ρ c)
theorem at_v357_77 : W77 m ρ c (Proc.devRef .tc main_v357) = K.P12_eb2 (K.argsOf m c) := (W77_of m ρ c main_v357 (by decide)).trans (at_v357_76 m ρ c)
theorem at_v357_78 : W78 m ρ c (Proc.devRef .tc main_v357) = K.P12_eb2 (K.argsOf m c) := (W78_of m ρ c main_v357 (by decide)).trans (at_v357_77 m ρ c)
theorem at_v357_79 : W79 m ρ c (Proc.devRef .tc main_v357) = K.P12_eb2 (K.argsOf m c) := (W79_of m ρ c main_v357 (by decide)).trans (at_v357_78 m ρ c)
theorem at_v357_80 : W80 m ρ c (Proc.devRef .tc main_v357) = K.P12_eb2 (K.argsOf m c) := (W80_of m ρ c main_v357 (by decide)).trans (at_v357_79 m ρ c)
theorem at_v357_81 : W81 m ρ c (Proc.devRef .tc main_v357) = K.P12_eb2 (K.argsOf m c) := (W81_of m ρ c main_v357 (by decide)).trans (at_v357_80 m ρ c)
theorem at_v357_82 : W82 m ρ c (Proc.devRef .tc main_v357) = K.P12_eb2 (K.argsOf m c) := (W82_of m ρ c main_v357 (by decide)).trans (at_v357_81 m ρ c)
theorem at_v357_83 : W83 m ρ c (Proc.devRef .tc main_v357) = K.P12_eb2 (K.argsOf m c) := (W83_of m ρ c main_v357 (by decide)).trans (at_v357_82 m ρ c)
theorem at_v357_84 : W84 m ρ c (Proc.devRef .tc main_v357) = K.P12_eb2 (K.argsOf m c) := (W84_of m ρ c main_v357 (by decide)).trans (at_v357_83 m ρ c)
theorem at_v357_85 : W85 m ρ c (Proc.devRef .tc main_v357) = K.P12_eb2 (K.argsOf m c) := (W85_of m ρ c main_v357 (by decide)).trans (at_v357_84 m ρ c)
theorem at_v357_86 : W86 m ρ c (Proc.devRef .tc main_v357) = K.P12_eb2 (K.argsOf m c) := (W86_of m ρ c main_v357 (by decide)).trans (at_v357_85 m ρ c)
theorem at_v435_87 : W87 m ρ c (Proc.devRef .tc main_v435) = C_v435 (F := Ideal) (K.P12_eb2 (K.argsOf m c)) :=
  rd_v435 (W86 m ρ c) (K.argsOf m c) (at_v357_86 m ρ c)
theorem at_v435_88 : W88 m ρ c (Proc.devRef .tc main_v435) = C_v435 (F := Ideal) (K.P12_eb2 (K.argsOf m c)) := (W88_of m ρ c main_v435 (by decide)).trans (at_v435_87 m ρ c)
theorem at_v435_89 : W89 m ρ c (Proc.devRef .tc main_v435) = C_v435 (F := Ideal) (K.P12_eb2 (K.argsOf m c)) := (W89_of m ρ c main_v435 (by decide)).trans (at_v435_88 m ρ c)
theorem at_v435_90 : W90 m ρ c (Proc.devRef .tc main_v435) = C_v435 (F := Ideal) (K.P12_eb2 (K.argsOf m c)) := (W90_of m ρ c main_v435 (by decide)).trans (at_v435_89 m ρ c)
theorem at_v435_91 : W91 m ρ c (Proc.devRef .tc main_v435) = C_v435 (F := Ideal) (K.P12_eb2 (K.argsOf m c)) := (W91_of m ρ c main_v435 (by decide)).trans (at_v435_90 m ρ c)
theorem at_v435_92 : W92 m ρ c (Proc.devRef .tc main_v435) = C_v435 (F := Ideal) (K.P12_eb2 (K.argsOf m c)) := (W92_of m ρ c main_v435 (by decide)).trans (at_v435_91 m ρ c)
theorem at_v439_93 : W93 m ρ c (Proc.devRef .tc main_v439) = K.edgeFn (C_v436 (F := Ideal) (C_v424 (F := Ideal) (C_v423 (F := Ideal) (K.ur (K.argsOf m c)) (K.ln3 (K.argsOf m c)))) (C_c_59)) (C_v437 (F := Ideal) (C_v426 (F := Ideal) (C_v425 (F := Ideal) (K.uc (K.argsOf m c)) (K.ln3 (K.argsOf m c)))) (C_c_60)) (C_v438 (F := Ideal) (C_v427 (F := Ideal) (K.uin2 (K.argsOf m c))) (C_c_61)) (C_v429 (F := Ideal) (K.P12_eW1 (K.argsOf m c))) (C_v430 (F := Ideal) (K.P12_eW1 (K.argsOf m c))) (C_v431 (F := Ideal) (K.P12_eW1 (K.argsOf m c))) (C_v434 (F := Ideal) (K.P12_eb1 (K.argsOf m c)) (K.g5 (K.argsOf m c)) (K.P12_eW1 (K.argsOf m c))) (K.P12_eW2 (K.argsOf m c)) (C_v435 (F := Ideal) (K.P12_eb2 (K.argsOf m c))) :=
  (R10_read m ρ c).trans (by rw [at_v436_92 m ρ c, at_v437_92 m ρ c, at_v438_92 m ρ c, at_v429_92 m ρ c, at_v430_92 m ρ c, at_v431_92 m ρ c, at_v434_92 m ρ c, at_v355_92 m ρ c, at_v435_92 m ρ c])
theorem at_v440_94 : W94 m ρ c (Proc.devRef .tc main_v440) = K.ue3 (K.argsOf m c) :=
  st_ue3 (W93 m ρ c) (K.argsOf m c) (at_v439_93 m ρ c)
theorem at_v5_84 : W84 m ρ c (Proc.devRef .tc main_v5) = K.ur (K.argsOf m c) := (W84_of m ρ c main_v5 (by decide)).trans (at_v5_83 m ρ c)
theorem at_v5_85 : W85 m ρ c (Proc.devRef .tc main_v5) = K.ur (K.argsOf m c) := (W85_of m ρ c main_v5 (by decide)).trans (at_v5_84 m ρ c)
theorem at_v5_86 : W86 m ρ c (Proc.devRef .tc main_v5) = K.ur (K.argsOf m c) := (W86_of m ρ c main_v5 (by decide)).trans (at_v5_85 m ρ c)
theorem at_v5_87 : W87 m ρ c (Proc.devRef .tc main_v5) = K.ur (K.argsOf m c) := (W87_of m ρ c main_v5 (by decide)).trans (at_v5_86 m ρ c)
theorem at_v5_88 : W88 m ρ c (Proc.devRef .tc main_v5) = K.ur (K.argsOf m c) := (W88_of m ρ c main_v5 (by decide)).trans (at_v5_87 m ρ c)
theorem at_v5_89 : W89 m ρ c (Proc.devRef .tc main_v5) = K.ur (K.argsOf m c) := (W89_of m ρ c main_v5 (by decide)).trans (at_v5_88 m ρ c)
theorem at_v5_90 : W90 m ρ c (Proc.devRef .tc main_v5) = K.ur (K.argsOf m c) := (W90_of m ρ c main_v5 (by decide)).trans (at_v5_89 m ρ c)
theorem at_v5_91 : W91 m ρ c (Proc.devRef .tc main_v5) = K.ur (K.argsOf m c) := (W91_of m ρ c main_v5 (by decide)).trans (at_v5_90 m ρ c)
theorem at_v5_92 : W92 m ρ c (Proc.devRef .tc main_v5) = K.ur (K.argsOf m c) := (W92_of m ρ c main_v5 (by decide)).trans (at_v5_91 m ρ c)
theorem at_v5_93 : W93 m ρ c (Proc.devRef .tc main_v5) = K.ur (K.argsOf m c) := (W93_of m ρ c main_v5 (by decide)).trans (at_v5_92 m ρ c)
theorem at_v23_62 : W62 m ρ c (Proc.devRef .tc main_v23) = C_v23 (F := Ideal) ((K.argsOf m c).a2) := (W62_of m ρ c main_v23 (by decide)).trans (at_v23_61 m ρ c)
theorem at_v23_63 : W63 m ρ c (Proc.devRef .tc main_v23) = C_v23 (F := Ideal) ((K.argsOf m c).a2) := (W63_of m ρ c main_v23 (by decide)).trans (at_v23_62 m ρ c)
theorem at_v23_64 : W64 m ρ c (Proc.devRef .tc main_v23) = C_v23 (F := Ideal) ((K.argsOf m c).a2) := (W64_of m ρ c main_v23 (by decide)).trans (at_v23_63 m ρ c)
theorem at_v23_65 : W65 m ρ c (Proc.devRef .tc main_v23) = C_v23 (F := Ideal) ((K.argsOf m c).a2) := (W65_of m ρ c main_v23 (by decide)).trans (at_v23_64 m ρ c)
theorem at_v23_66 : W66 m ρ c (Proc.devRef .tc main_v23) = C_v23 (F := Ideal) ((K.argsOf m c).a2) := (W66_of m ρ c main_v23 (by decide)).trans (at_v23_65 m ρ c)
theorem at_v23_67 : W67 m ρ c (Proc.devRef .tc main_v23) = C_v23 (F := Ideal) ((K.argsOf m c).a2) := (W67_of m ρ c main_v23 (by decide)).trans (at_v23_66 m ρ c)
theorem at_v23_68 : W68 m ρ c (Proc.devRef .tc main_v23) = C_v23 (F := Ideal) ((K.argsOf m c).a2) := (W68_of m ρ c main_v23 (by decide)).trans (at_v23_67 m ρ c)
theorem at_v23_69 : W69 m ρ c (Proc.devRef .tc main_v23) = C_v23 (F := Ideal) ((K.argsOf m c).a2) := (W69_of m ρ c main_v23 (by decide)).trans (at_v23_68 m ρ c)
theorem at_v23_70 : W70 m ρ c (Proc.devRef .tc main_v23) = C_v23 (F := Ideal) ((K.argsOf m c).a2) := (W70_of m ρ c main_v23 (by decide)).trans (at_v23_69 m ρ c)
theorem at_v23_71 : W71 m ρ c (Proc.devRef .tc main_v23) = C_v23 (F := Ideal) ((K.argsOf m c).a2) := (W71_of m ρ c main_v23 (by decide)).trans (at_v23_70 m ρ c)
theorem at_v23_72 : W72 m ρ c (Proc.devRef .tc main_v23) = C_v23 (F := Ideal) ((K.argsOf m c).a2) := (W72_of m ρ c main_v23 (by decide)).trans (at_v23_71 m ρ c)
theorem at_v23_73 : W73 m ρ c (Proc.devRef .tc main_v23) = C_v23 (F := Ideal) ((K.argsOf m c).a2) := (W73_of m ρ c main_v23 (by decide)).trans (at_v23_72 m ρ c)
theorem at_v23_74 : W74 m ρ c (Proc.devRef .tc main_v23) = C_v23 (F := Ideal) ((K.argsOf m c).a2) := (W74_of m ρ c main_v23 (by decide)).trans (at_v23_73 m ρ c)
theorem at_v23_75 : W75 m ρ c (Proc.devRef .tc main_v23) = C_v23 (F := Ideal) ((K.argsOf m c).a2) := (W75_of m ρ c main_v23 (by decide)).trans (at_v23_74 m ρ c)
theorem at_v23_76 : W76 m ρ c (Proc.devRef .tc main_v23) = C_v23 (F := Ideal) ((K.argsOf m c).a2) := (W76_of m ρ c main_v23 (by decide)).trans (at_v23_75 m ρ c)
theorem at_v23_77 : W77 m ρ c (Proc.devRef .tc main_v23) = C_v23 (F := Ideal) ((K.argsOf m c).a2) := (W77_of m ρ c main_v23 (by decide)).trans (at_v23_76 m ρ c)
theorem at_v23_78 : W78 m ρ c (Proc.devRef .tc main_v23) = C_v23 (F := Ideal) ((K.argsOf m c).a2) := (W78_of m ρ c main_v23 (by decide)).trans (at_v23_77 m ρ c)
theorem at_v23_79 : W79 m ρ c (Proc.devRef .tc main_v23) = C_v23 (F := Ideal) ((K.argsOf m c).a2) := (W79_of m ρ c main_v23 (by decide)).trans (at_v23_78 m ρ c)
theorem at_v23_80 : W80 m ρ c (Proc.devRef .tc main_v23) = C_v23 (F := Ideal) ((K.argsOf m c).a2) := (W80_of m ρ c main_v23 (by decide)).trans (at_v23_79 m ρ c)
theorem at_v23_81 : W81 m ρ c (Proc.devRef .tc main_v23) = C_v23 (F := Ideal) ((K.argsOf m c).a2) := (W81_of m ρ c main_v23 (by decide)).trans (at_v23_80 m ρ c)
theorem at_v23_82 : W82 m ρ c (Proc.devRef .tc main_v23) = C_v23 (F := Ideal) ((K.argsOf m c).a2) := (W82_of m ρ c main_v23 (by decide)).trans (at_v23_81 m ρ c)
theorem at_v23_83 : W83 m ρ c (Proc.devRef .tc main_v23) = C_v23 (F := Ideal) ((K.argsOf m c).a2) := (W83_of m ρ c main_v23 (by decide)).trans (at_v23_82 m ρ c)
theorem at_v23_84 : W84 m ρ c (Proc.devRef .tc main_v23) = C_v23 (F := Ideal) ((K.argsOf m c).a2) := (W84_of m ρ c main_v23 (by decide)).trans (at_v23_83 m ρ c)
theorem at_v23_85 : W85 m ρ c (Proc.devRef .tc main_v23) = C_v23 (F := Ideal) ((K.argsOf m c).a2) := (W85_of m ρ c main_v23 (by decide)).trans (at_v23_84 m ρ c)
theorem at_v23_86 : W86 m ρ c (Proc.devRef .tc main_v23) = C_v23 (F := Ideal) ((K.argsOf m c).a2) := (W86_of m ρ c main_v23 (by decide)).trans (at_v23_85 m ρ c)
theorem at_v23_87 : W87 m ρ c (Proc.devRef .tc main_v23) = C_v23 (F := Ideal) ((K.argsOf m c).a2) := (W87_of m ρ c main_v23 (by decide)).trans (at_v23_86 m ρ c)
theorem at_v23_88 : W88 m ρ c (Proc.devRef .tc main_v23) = C_v23 (F := Ideal) ((K.argsOf m c).a2) := (W88_of m ρ c main_v23 (by decide)).trans (at_v23_87 m ρ c)
theorem at_v23_89 : W89 m ρ c (Proc.devRef .tc main_v23) = C_v23 (F := Ideal) ((K.argsOf m c).a2) := (W89_of m ρ c main_v23 (by decide)).trans (at_v23_88 m ρ c)
theorem at_v23_90 : W90 m ρ c (Proc.devRef .tc main_v23) = C_v23 (F := Ideal) ((K.argsOf m c).a2) := (W90_of m ρ c main_v23 (by decide)).trans (at_v23_89 m ρ c)
theorem at_v23_91 : W91 m ρ c (Proc.devRef .tc main_v23) = C_v23 (F := Ideal) ((K.argsOf m c).a2) := (W91_of m ρ c main_v23 (by decide)).trans (at_v23_90 m ρ c)
theorem at_v23_92 : W92 m ρ c (Proc.devRef .tc main_v23) = C_v23 (F := Ideal) ((K.argsOf m c).a2) := (W92_of m ρ c main_v23 (by decide)).trans (at_v23_91 m ρ c)
theorem at_v23_93 : W93 m ρ c (Proc.devRef .tc main_v23) = C_v23 (F := Ideal) ((K.argsOf m c).a2) := (W93_of m ρ c main_v23 (by decide)).trans (at_v23_92 m ρ c)
theorem at_v445_94 : W94 m ρ c (Proc.devRef .tc main_v445) = K.ua3 (K.argsOf m c) :=
  st_ua3 (W93 m ρ c) (K.argsOf m c) (at_v5_93 m ρ c) (at_v439_93 m ρ c) (at_v23_93 m ρ c)
theorem at_v422_83 : W83 m ρ c (Proc.devRef .tc main_v422) = C_v422 (F := Ideal) (K.ln3 (K.argsOf m c)) :=
  rd_v422 (W82 m ρ c) (K.argsOf m c) (at_v404_82 m ρ c)
theorem at_v422_84 : W84 m ρ c (Proc.devRef .tc main_v422) = C_v422 (F := Ideal) (K.ln3 (K.argsOf m c)) := (W84_of m ρ c main_v422 (by decide)).trans (at_v422_83 m ρ c)
theorem at_v422_85 : W85 m ρ c (Proc.devRef .tc main_v422) = C_v422 (F := Ideal) (K.ln3 (K.argsOf m c)) := (W85_of m ρ c main_v422 (by decide)).trans (at_v422_84 m ρ c)
theorem at_v422_86 : W86 m ρ c (Proc.devRef .tc main_v422) = C_v422 (F := Ideal) (K.ln3 (K.argsOf m c)) := (W86_of m ρ c main_v422 (by decide)).trans (at_v422_85 m ρ c)
theorem at_v422_87 : W87 m ρ c (Proc.devRef .tc main_v422) = C_v422 (F := Ideal) (K.ln3 (K.argsOf m c)) := (W87_of m ρ c main_v422 (by decide)).trans (at_v422_86 m ρ c)
theorem at_v422_88 : W88 m ρ c (Proc.devRef .tc main_v422) = C_v422 (F := Ideal) (K.ln3 (K.argsOf m c)) := (W88_of m ρ c main_v422 (by decide)).trans (at_v422_87 m ρ c)
theorem at_v422_89 : W89 m ρ c (Proc.devRef .tc main_v422) = C_v422 (F := Ideal) (K.ln3 (K.argsOf m c)) := (W89_of m ρ c main_v422 (by decide)).trans (at_v422_88 m ρ c)
theorem at_v422_90 : W90 m ρ c (Proc.devRef .tc main_v422) = C_v422 (F := Ideal) (K.ln3 (K.argsOf m c)) := (W90_of m ρ c main_v422 (by decide)).trans (at_v422_89 m ρ c)
theorem at_v422_91 : W91 m ρ c (Proc.devRef .tc main_v422) = C_v422 (F := Ideal) (K.ln3 (K.argsOf m c)) := (W91_of m ρ c main_v422 (by decide)).trans (at_v422_90 m ρ c)
theorem at_v422_92 : W92 m ρ c (Proc.devRef .tc main_v422) = C_v422 (F := Ideal) (K.ln3 (K.argsOf m c)) := (W92_of m ρ c main_v422 (by decide)).trans (at_v422_91 m ρ c)
theorem at_v422_93 : W93 m ρ c (Proc.devRef .tc main_v422) = C_v422 (F := Ideal) (K.ln3 (K.argsOf m c)) := (W93_of m ρ c main_v422 (by decide)).trans (at_v422_92 m ρ c)
theorem at_v422_94 : W94 m ρ c (Proc.devRef .tc main_v422) = C_v422 (F := Ideal) (K.ln3 (K.argsOf m c)) := (W94_of m ρ c main_v422 (by decide)).trans (at_v422_93 m ρ c)
theorem at_c_63_94 : W94 m ρ c (Proc.devRef .tc main_c_63) = C_c_63 :=
  rd_c_63 (W93 m ρ c) (K.argsOf m c)
theorem at_v453_95 : W95 m ρ c (Proc.devRef .tc main_v453) = C_v453 (F := Ideal) (C_v422 (F := Ideal) (K.ln3 (K.argsOf m c))) (C_c_63) :=
  (congrArg (fun l => StableHlo.after l (W94 m ρ c) (Proc.devRef .tc main_v453)) hostOps11_1_eq).trans (rd_v453 (W94 m ρ c) (K.argsOf m c) (at_v422_94 m ρ c) (at_c_63_94 m ρ c))
theorem at_v453_96 : W96 m ρ c (Proc.devRef .tc main_v453) = C_v453 (F := Ideal) (C_v422 (F := Ideal) (K.ln3 (K.argsOf m c))) (C_c_63) := (W96_of m ρ c main_v453 (by decide)).trans (at_v453_95 m ρ c)
theorem at_v453_97 : W97 m ρ c (Proc.devRef .tc main_v453) = C_v453 (F := Ideal) (C_v422 (F := Ideal) (K.ln3 (K.argsOf m c))) (C_c_63) := (W97_of m ρ c main_v453 (by decide)).trans (at_v453_96 m ρ c)
theorem at_v445_95 : W95 m ρ c (Proc.devRef .tc main_v445) = K.ua3 (K.argsOf m c) := (W95_of m ρ c main_v445 (by decide)).trans (at_v445_94 m ρ c)
theorem at_v445_96 : W96 m ρ c (Proc.devRef .tc main_v445) = K.ua3 (K.argsOf m c) := (W96_of m ρ c main_v445 (by decide)).trans (at_v445_95 m ρ c)
theorem at_c_64_96 : W96 m ρ c (Proc.devRef .tc main_c_64) = C_c_64 :=
  rd_c_64 (W95 m ρ c) (K.argsOf m c)
theorem at_v454_97 : W97 m ρ c (Proc.devRef .tc main_v454) = C_v454 (F := Ideal) (K.ua3 (K.argsOf m c)) (C_c_64) :=
  (congrArg (fun l => StableHlo.after l (W96 m ρ c) (Proc.devRef .tc main_v454)) hostOps11_3_eq).trans (rd_v454 (W96 m ρ c) (K.argsOf m c) (at_v445_96 m ρ c) (at_c_64_96 m ρ c))
theorem at_v359_69 : W69 m ρ c (Proc.devRef .tc main_v359) = K.P12_nW1 (K.argsOf m c) :=
  pr_v359 (W68 m ρ c) (K.argsOf m c) (at_arg9_68 m ρ c)
theorem at_v359_70 : W70 m ρ c (Proc.devRef .tc main_v359) = K.P12_nW1 (K.argsOf m c) := (W70_of m ρ c main_v359 (by decide)).trans (at_v359_69 m ρ c)
theorem at_v359_71 : W71 m ρ c (Proc.devRef .tc main_v359) = K.P12_nW1 (K.argsOf m c) := (W71_of m ρ c main_v359 (by decide)).trans (at_v359_70 m ρ c)
theorem at_v359_72 : W72 m ρ c (Proc.devRef .tc main_v359) = K.P12_nW1 (K.argsOf m c) := (W72_of m ρ c main_v359 (by decide)).trans (at_v359_71 m ρ c)
theorem at_v359_73 : W73 m ρ c (Proc.devRef .tc main_v359) = K.P12_nW1 (K.argsOf m c) := (W73_of m ρ c main_v359 (by decide)).trans (at_v359_72 m ρ c)
theorem at_v359_74 : W74 m ρ c (Proc.devRef .tc main_v359) = K.P12_nW1 (K.argsOf m c) := (W74_of m ρ c main_v359 (by decide)).trans (at_v359_73 m ρ c)
theorem at_v359_75 : W75 m ρ c (Proc.devRef .tc main_v359) = K.P12_nW1 (K.argsOf m c) := (W75_of m ρ c main_v359 (by decide)).trans (at_v359_74 m ρ c)
theorem at_v359_76 : W76 m ρ c (Proc.devRef .tc main_v359) = K.P12_nW1 (K.argsOf m c) := (W76_of m ρ c main_v359 (by decide)).trans (at_v359_75 m ρ c)
theorem at_v359_77 : W77 m ρ c (Proc.devRef .tc main_v359) = K.P12_nW1 (K.argsOf m c) := (W77_of m ρ c main_v359 (by decide)).trans (at_v359_76 m ρ c)
theorem at_v359_78 : W78 m ρ c (Proc.devRef .tc main_v359) = K.P12_nW1 (K.argsOf m c) := (W78_of m ρ c main_v359 (by decide)).trans (at_v359_77 m ρ c)
theorem at_v359_79 : W79 m ρ c (Proc.devRef .tc main_v359) = K.P12_nW1 (K.argsOf m c) := (W79_of m ρ c main_v359 (by decide)).trans (at_v359_78 m ρ c)
theorem at_v359_80 : W80 m ρ c (Proc.devRef .tc main_v359) = K.P12_nW1 (K.argsOf m c) := (W80_of m ρ c main_v359 (by decide)).trans (at_v359_79 m ρ c)
theorem at_v359_81 : W81 m ρ c (Proc.devRef .tc main_v359) = K.P12_nW1 (K.argsOf m c) := (W81_of m ρ c main_v359 (by decide)).trans (at_v359_80 m ρ c)
theorem at_v359_82 : W82 m ρ c (Proc.devRef .tc main_v359) = K.P12_nW1 (K.argsOf m c) := (W82_of m ρ c main_v359 (by decide)).trans (at_v359_81 m ρ c)
theorem at_v359_83 : W83 m ρ c (Proc.devRef .tc main_v359) = K.P12_nW1 (K.argsOf m c) := (W83_of m ρ c main_v359 (by decide)).trans (at_v359_82 m ρ c)
theorem at_v359_84 : W84 m ρ c (Proc.devRef .tc main_v359) = K.P12_nW1 (K.argsOf m c) := (W84_of m ρ c main_v359 (by decide)).trans (at_v359_83 m ρ c)
theorem at_v359_85 : W85 m ρ c (Proc.devRef .tc main_v359) = K.P12_nW1 (K.argsOf m c) := (W85_of m ρ c main_v359 (by decide)).trans (at_v359_84 m ρ c)
theorem at_v359_86 : W86 m ρ c (Proc.devRef .tc main_v359) = K.P12_nW1 (K.argsOf m c) := (W86_of m ρ c main_v359 (by decide)).trans (at_v359_85 m ρ c)
theorem at_v359_87 : W87 m ρ c (Proc.devRef .tc main_v359) = K.P12_nW1 (K.argsOf m c) := (W87_of m ρ c main_v359 (by decide)).trans (at_v359_86 m ρ c)
theorem at_v359_88 : W88 m ρ c (Proc.devRef .tc main_v359) = K.P12_nW1 (K.argsOf m c) := (W88_of m ρ c main_v359 (by decide)).trans (at_v359_87 m ρ c)
theorem at_v359_89 : W89 m ρ c (Proc.devRef .tc main_v359) = K.P12_nW1 (K.argsOf m c) := (W89_of m ρ c main_v359 (by decide)).trans (at_v359_88 m ρ c)
theorem at_v359_90 : W90 m ρ c (Proc.devRef .tc main_v359) = K.P12_nW1 (K.argsOf m c) := (W90_of m ρ c main_v359 (by decide)).trans (at_v359_89 m ρ c)
theorem at_v359_91 : W91 m ρ c (Proc.devRef .tc main_v359) = K.P12_nW1 (K.argsOf m c) := (W91_of m ρ c main_v359 (by decide)).trans (at_v359_90 m ρ c)
theorem at_v359_92 : W92 m ρ c (Proc.devRef .tc main_v359) = K.P12_nW1 (K.argsOf m c) := (W92_of m ρ c main_v359 (by decide)).trans (at_v359_91 m ρ c)
theorem at_v359_93 : W93 m ρ c (Proc.devRef .tc main_v359) = K.P12_nW1 (K.argsOf m c) := (W93_of m ρ c main_v359 (by decide)).trans (at_v359_92 m ρ c)
theorem at_v447_94 : W94 m ρ c (Proc.devRef .tc main_v447) = C_v447 (F := Ideal) (K.P12_nW1 (K.argsOf m c)) :=
  rd_v447 (W93 m ρ c) (K.argsOf m c) (at_v359_93 m ρ c)
theorem at_v447_95 : W95 m ρ c (Proc.devRef .tc main_v447) = C_v447 (F := Ideal) (K.P12_nW1 (K.argsOf m c)) := (W95_of m ρ c main_v447 (by decide)).trans (at_v447_94 m ρ c)
theorem at_v447_96 : W96 m ρ c (Proc.devRef .tc main_v447) = C_v447 (F := Ideal) (K.P12_nW1 (K.argsOf m c)) := (W96_of m ρ c main_v447 (by decide)).trans (at_v447_95 m ρ c)
theorem at_v447_97 : W97 m ρ c (Proc.devRef .tc main_v447) = C_v447 (F := Ideal) (K.P12_nW1 (K.argsOf m c)) := (W97_of m ρ c main_v447 (by decide)).trans (at_v447_96 m ρ c)
theorem at_v448_94 : W94 m ρ c (Proc.devRef .tc main_v448) = C_v448 (F := Ideal) (K.P12_nW1 (K.argsOf m c)) :=
  rd_v448 (W93 m ρ c) (K.argsOf m c) (at_v359_93 m ρ c)
theorem at_v448_95 : W95 m ρ c (Proc.devRef .tc main_v448) = C_v448 (F := Ideal) (K.P12_nW1 (K.argsOf m c)) := (W95_of m ρ c main_v448 (by decide)).trans (at_v448_94 m ρ c)
theorem at_v448_96 : W96 m ρ c (Proc.devRef .tc main_v448) = C_v448 (F := Ideal) (K.P12_nW1 (K.argsOf m c)) := (W96_of m ρ c main_v448 (by decide)).trans (at_v448_95 m ρ c)
theorem at_v448_97 : W97 m ρ c (Proc.devRef .tc main_v448) = C_v448 (F := Ideal) (K.P12_nW1 (K.argsOf m c)) := (W97_of m ρ c main_v448 (by decide)).trans (at_v448_96 m ρ c)
theorem at_v361_69 : W69 m ρ c (Proc.devRef .tc main_v361) = K.P12_nb1 (K.argsOf m c) :=
  pr_v361 (W68 m ρ c) (K.argsOf m c) (at_arg10_68 m ρ c)
theorem at_v361_70 : W70 m ρ c (Proc.devRef .tc main_v361) = K.P12_nb1 (K.argsOf m c) := (W70_of m ρ c main_v361 (by decide)).trans (at_v361_69 m ρ c)
theorem at_v361_71 : W71 m ρ c (Proc.devRef .tc main_v361) = K.P12_nb1 (K.argsOf m c) := (W71_of m ρ c main_v361 (by decide)).trans (at_v361_70 m ρ c)
theorem at_v361_72 : W72 m ρ c (Proc.devRef .tc main_v361) = K.P12_nb1 (K.argsOf m c) := (W72_of m ρ c main_v361 (by decide)).trans (at_v361_71 m ρ c)
theorem at_v361_73 : W73 m ρ c (Proc.devRef .tc main_v361) = K.P12_nb1 (K.argsOf m c) := (W73_of m ρ c main_v361 (by decide)).trans (at_v361_72 m ρ c)
theorem at_v361_74 : W74 m ρ c (Proc.devRef .tc main_v361) = K.P12_nb1 (K.argsOf m c) := (W74_of m ρ c main_v361 (by decide)).trans (at_v361_73 m ρ c)
theorem at_v361_75 : W75 m ρ c (Proc.devRef .tc main_v361) = K.P12_nb1 (K.argsOf m c) := (W75_of m ρ c main_v361 (by decide)).trans (at_v361_74 m ρ c)
theorem at_v361_76 : W76 m ρ c (Proc.devRef .tc main_v361) = K.P12_nb1 (K.argsOf m c) := (W76_of m ρ c main_v361 (by decide)).trans (at_v361_75 m ρ c)
theorem at_v361_77 : W77 m ρ c (Proc.devRef .tc main_v361) = K.P12_nb1 (K.argsOf m c) := (W77_of m ρ c main_v361 (by decide)).trans (at_v361_76 m ρ c)
theorem at_v361_78 : W78 m ρ c (Proc.devRef .tc main_v361) = K.P12_nb1 (K.argsOf m c) := (W78_of m ρ c main_v361 (by decide)).trans (at_v361_77 m ρ c)
theorem at_v361_79 : W79 m ρ c (Proc.devRef .tc main_v361) = K.P12_nb1 (K.argsOf m c) := (W79_of m ρ c main_v361 (by decide)).trans (at_v361_78 m ρ c)
theorem at_v361_80 : W80 m ρ c (Proc.devRef .tc main_v361) = K.P12_nb1 (K.argsOf m c) := (W80_of m ρ c main_v361 (by decide)).trans (at_v361_79 m ρ c)
theorem at_v361_81 : W81 m ρ c (Proc.devRef .tc main_v361) = K.P12_nb1 (K.argsOf m c) := (W81_of m ρ c main_v361 (by decide)).trans (at_v361_80 m ρ c)
theorem at_v361_82 : W82 m ρ c (Proc.devRef .tc main_v361) = K.P12_nb1 (K.argsOf m c) := (W82_of m ρ c main_v361 (by decide)).trans (at_v361_81 m ρ c)
theorem at_v361_83 : W83 m ρ c (Proc.devRef .tc main_v361) = K.P12_nb1 (K.argsOf m c) := (W83_of m ρ c main_v361 (by decide)).trans (at_v361_82 m ρ c)
theorem at_v361_84 : W84 m ρ c (Proc.devRef .tc main_v361) = K.P12_nb1 (K.argsOf m c) := (W84_of m ρ c main_v361 (by decide)).trans (at_v361_83 m ρ c)
theorem at_v361_85 : W85 m ρ c (Proc.devRef .tc main_v361) = K.P12_nb1 (K.argsOf m c) := (W85_of m ρ c main_v361 (by decide)).trans (at_v361_84 m ρ c)
theorem at_v361_86 : W86 m ρ c (Proc.devRef .tc main_v361) = K.P12_nb1 (K.argsOf m c) := (W86_of m ρ c main_v361 (by decide)).trans (at_v361_85 m ρ c)
theorem at_v361_87 : W87 m ρ c (Proc.devRef .tc main_v361) = K.P12_nb1 (K.argsOf m c) := (W87_of m ρ c main_v361 (by decide)).trans (at_v361_86 m ρ c)
theorem at_v361_88 : W88 m ρ c (Proc.devRef .tc main_v361) = K.P12_nb1 (K.argsOf m c) := (W88_of m ρ c main_v361 (by decide)).trans (at_v361_87 m ρ c)
theorem at_v361_89 : W89 m ρ c (Proc.devRef .tc main_v361) = K.P12_nb1 (K.argsOf m c) := (W89_of m ρ c main_v361 (by decide)).trans (at_v361_88 m ρ c)
theorem at_v361_90 : W90 m ρ c (Proc.devRef .tc main_v361) = K.P12_nb1 (K.argsOf m c) := (W90_of m ρ c main_v361 (by decide)).trans (at_v361_89 m ρ c)
theorem at_v361_91 : W91 m ρ c (Proc.devRef .tc main_v361) = K.P12_nb1 (K.argsOf m c) := (W91_of m ρ c main_v361 (by decide)).trans (at_v361_90 m ρ c)
theorem at_v361_92 : W92 m ρ c (Proc.devRef .tc main_v361) = K.P12_nb1 (K.argsOf m c) := (W92_of m ρ c main_v361 (by decide)).trans (at_v361_91 m ρ c)
theorem at_v361_93 : W93 m ρ c (Proc.devRef .tc main_v361) = K.P12_nb1 (K.argsOf m c) := (W93_of m ρ c main_v361 (by decide)).trans (at_v361_92 m ρ c)
theorem at_v420_87 : W87 m ρ c (Proc.devRef .tc main_v420) = K.g5 (K.argsOf m c) := (W87_of m ρ c main_v420 (by decide)).trans (at_v420_86 m ρ c)
theorem at_v420_88 : W88 m ρ c (Proc.devRef .tc main_v420) = K.g5 (K.argsOf m c) := (W88_of m ρ c main_v420 (by decide)).trans (at_v420_87 m ρ c)
theorem at_v420_89 : W89 m ρ c (Proc.devRef .tc main_v420) = K.g5 (K.argsOf m c) := (W89_of m ρ c main_v420 (by decide)).trans (at_v420_88 m ρ c)
theorem at_v420_90 : W90 m ρ c (Proc.devRef .tc main_v420) = K.g5 (K.argsOf m c) := (W90_of m ρ c main_v420 (by decide)).trans (at_v420_89 m ρ c)
theorem at_v420_91 : W91 m ρ c (Proc.devRef .tc main_v420) = K.g5 (K.argsOf m c) := (W91_of m ρ c main_v420 (by decide)).trans (at_v420_90 m ρ c)
theorem at_v420_92 : W92 m ρ c (Proc.devRef .tc main_v420) = K.g5 (K.argsOf m c) := (W92_of m ρ c main_v420 (by decide)).trans (at_v420_91 m ρ c)
theorem at_v420_93 : W93 m ρ c (Proc.devRef .tc main_v420) = K.g5 (K.argsOf m c) := (W93_of m ρ c main_v420 (by decide)).trans (at_v420_92 m ρ c)
theorem at_v451_94 : W94 m ρ c (Proc.devRef .tc main_v451) = C_v451 (F := Ideal) (K.P12_nb1 (K.argsOf m c)) (K.g5 (K.argsOf m c)) (K.P12_nW1 (K.argsOf m c)) :=
  rd_v451 (W93 m ρ c) (K.argsOf m c) (at_v361_93 m ρ c) (at_v420_93 m ρ c) (at_v359_93 m ρ c)
theorem at_v451_95 : W95 m ρ c (Proc.devRef .tc main_v451) = C_v451 (F := Ideal) (K.P12_nb1 (K.argsOf m c)) (K.g5 (K.argsOf m c)) (K.P12_nW1 (K.argsOf m c)) := (W95_of m ρ c main_v451 (by decide)).trans (at_v451_94 m ρ c)
theorem at_v451_96 : W96 m ρ c (Proc.devRef .tc main_v451) = C_v451 (F := Ideal) (K.P12_nb1 (K.argsOf m c)) (K.g5 (K.argsOf m c)) (K.P12_nW1 (K.argsOf m c)) := (W96_of m ρ c main_v451 (by decide)).trans (at_v451_95 m ρ c)
theorem at_v451_97 : W97 m ρ c (Proc.devRef .tc main_v451) = C_v451 (F := Ideal) (K.P12_nb1 (K.argsOf m c)) (K.g5 (K.argsOf m c)) (K.P12_nW1 (K.argsOf m c)) := (W97_of m ρ c main_v451 (by decide)).trans (at_v451_96 m ρ c)
theorem at_v363_69 : W69 m ρ c (Proc.devRef .tc main_v363) = K.P12_nW2 (K.argsOf m c) :=
  pr_v363 (W68 m ρ c) (K.argsOf m c) (at_arg11_68 m ρ c)
theorem at_v363_70 : W70 m ρ c (Proc.devRef .tc main_v363) = K.P12_nW2 (K.argsOf m c) := (W70_of m ρ c main_v363 (by decide)).trans (at_v363_69 m ρ c)
theorem at_v363_71 : W71 m ρ c (Proc.devRef .tc main_v363) = K.P12_nW2 (K.argsOf m c) := (W71_of m ρ c main_v363 (by decide)).trans (at_v363_70 m ρ c)
theorem at_v363_72 : W72 m ρ c (Proc.devRef .tc main_v363) = K.P12_nW2 (K.argsOf m c) := (W72_of m ρ c main_v363 (by decide)).trans (at_v363_71 m ρ c)
theorem at_v363_73 : W73 m ρ c (Proc.devRef .tc main_v363) = K.P12_nW2 (K.argsOf m c) := (W73_of m ρ c main_v363 (by decide)).trans (at_v363_72 m ρ c)
theorem at_v363_74 : W74 m ρ c (Proc.devRef .tc main_v363) = K.P12_nW2 (K.argsOf m c) := (W74_of m ρ c main_v363 (by decide)).trans (at_v363_73 m ρ c)
theorem at_v363_75 : W75 m ρ c (Proc.devRef .tc main_v363) = K.P12_nW2 (K.argsOf m c) := (W75_of m ρ c main_v363 (by decide)).trans (at_v363_74 m ρ c)
theorem at_v363_76 : W76 m ρ c (Proc.devRef .tc main_v363) = K.P12_nW2 (K.argsOf m c) := (W76_of m ρ c main_v363 (by decide)).trans (at_v363_75 m ρ c)
theorem at_v363_77 : W77 m ρ c (Proc.devRef .tc main_v363) = K.P12_nW2 (K.argsOf m c) := (W77_of m ρ c main_v363 (by decide)).trans (at_v363_76 m ρ c)
theorem at_v363_78 : W78 m ρ c (Proc.devRef .tc main_v363) = K.P12_nW2 (K.argsOf m c) := (W78_of m ρ c main_v363 (by decide)).trans (at_v363_77 m ρ c)
theorem at_v363_79 : W79 m ρ c (Proc.devRef .tc main_v363) = K.P12_nW2 (K.argsOf m c) := (W79_of m ρ c main_v363 (by decide)).trans (at_v363_78 m ρ c)
theorem at_v363_80 : W80 m ρ c (Proc.devRef .tc main_v363) = K.P12_nW2 (K.argsOf m c) := (W80_of m ρ c main_v363 (by decide)).trans (at_v363_79 m ρ c)
theorem at_v363_81 : W81 m ρ c (Proc.devRef .tc main_v363) = K.P12_nW2 (K.argsOf m c) := (W81_of m ρ c main_v363 (by decide)).trans (at_v363_80 m ρ c)
theorem at_v363_82 : W82 m ρ c (Proc.devRef .tc main_v363) = K.P12_nW2 (K.argsOf m c) := (W82_of m ρ c main_v363 (by decide)).trans (at_v363_81 m ρ c)
theorem at_v363_83 : W83 m ρ c (Proc.devRef .tc main_v363) = K.P12_nW2 (K.argsOf m c) := (W83_of m ρ c main_v363 (by decide)).trans (at_v363_82 m ρ c)
theorem at_v363_84 : W84 m ρ c (Proc.devRef .tc main_v363) = K.P12_nW2 (K.argsOf m c) := (W84_of m ρ c main_v363 (by decide)).trans (at_v363_83 m ρ c)
theorem at_v363_85 : W85 m ρ c (Proc.devRef .tc main_v363) = K.P12_nW2 (K.argsOf m c) := (W85_of m ρ c main_v363 (by decide)).trans (at_v363_84 m ρ c)
theorem at_v363_86 : W86 m ρ c (Proc.devRef .tc main_v363) = K.P12_nW2 (K.argsOf m c) := (W86_of m ρ c main_v363 (by decide)).trans (at_v363_85 m ρ c)
theorem at_v363_87 : W87 m ρ c (Proc.devRef .tc main_v363) = K.P12_nW2 (K.argsOf m c) := (W87_of m ρ c main_v363 (by decide)).trans (at_v363_86 m ρ c)
theorem at_v363_88 : W88 m ρ c (Proc.devRef .tc main_v363) = K.P12_nW2 (K.argsOf m c) := (W88_of m ρ c main_v363 (by decide)).trans (at_v363_87 m ρ c)
theorem at_v363_89 : W89 m ρ c (Proc.devRef .tc main_v363) = K.P12_nW2 (K.argsOf m c) := (W89_of m ρ c main_v363 (by decide)).trans (at_v363_88 m ρ c)
theorem at_v363_90 : W90 m ρ c (Proc.devRef .tc main_v363) = K.P12_nW2 (K.argsOf m c) := (W90_of m ρ c main_v363 (by decide)).trans (at_v363_89 m ρ c)
theorem at_v363_91 : W91 m ρ c (Proc.devRef .tc main_v363) = K.P12_nW2 (K.argsOf m c) := (W91_of m ρ c main_v363 (by decide)).trans (at_v363_90 m ρ c)
theorem at_v363_92 : W92 m ρ c (Proc.devRef .tc main_v363) = K.P12_nW2 (K.argsOf m c) := (W92_of m ρ c main_v363 (by decide)).trans (at_v363_91 m ρ c)
theorem at_v363_93 : W93 m ρ c (Proc.devRef .tc main_v363) = K.P12_nW2 (K.argsOf m c) := (W93_of m ρ c main_v363 (by decide)).trans (at_v363_92 m ρ c)
theorem at_v363_94 : W94 m ρ c (Proc.devRef .tc main_v363) = K.P12_nW2 (K.argsOf m c) := (W94_of m ρ c main_v363 (by decide)).trans (at_v363_93 m ρ c)
theorem at_v363_95 : W95 m ρ c (Proc.devRef .tc main_v363) = K.P12_nW2 (K.argsOf m c) := (W95_of m ρ c main_v363 (by decide)).trans (at_v363_94 m ρ c)
theorem at_v363_96 : W96 m ρ c (Proc.devRef .tc main_v363) = K.P12_nW2 (K.argsOf m c) := (W96_of m ρ c main_v363 (by decide)).trans (at_v363_95 m ρ c)
theorem at_v363_97 : W97 m ρ c (Proc.devRef .tc main_v363) = K.P12_nW2 (K.argsOf m c) := (W97_of m ρ c main_v363 (by decide)).trans (at_v363_96 m ρ c)
theorem at_v365_69 : W69 m ρ c (Proc.devRef .tc main_v365) = K.P12_nb2 (K.argsOf m c) :=
  pr_v365 (W68 m ρ c) (K.argsOf m c) (at_arg12_68 m ρ c)
theorem at_v365_70 : W70 m ρ c (Proc.devRef .tc main_v365) = K.P12_nb2 (K.argsOf m c) := (W70_of m ρ c main_v365 (by decide)).trans (at_v365_69 m ρ c)
theorem at_v365_71 : W71 m ρ c (Proc.devRef .tc main_v365) = K.P12_nb2 (K.argsOf m c) := (W71_of m ρ c main_v365 (by decide)).trans (at_v365_70 m ρ c)
theorem at_v365_72 : W72 m ρ c (Proc.devRef .tc main_v365) = K.P12_nb2 (K.argsOf m c) := (W72_of m ρ c main_v365 (by decide)).trans (at_v365_71 m ρ c)
theorem at_v365_73 : W73 m ρ c (Proc.devRef .tc main_v365) = K.P12_nb2 (K.argsOf m c) := (W73_of m ρ c main_v365 (by decide)).trans (at_v365_72 m ρ c)
theorem at_v365_74 : W74 m ρ c (Proc.devRef .tc main_v365) = K.P12_nb2 (K.argsOf m c) := (W74_of m ρ c main_v365 (by decide)).trans (at_v365_73 m ρ c)
theorem at_v365_75 : W75 m ρ c (Proc.devRef .tc main_v365) = K.P12_nb2 (K.argsOf m c) := (W75_of m ρ c main_v365 (by decide)).trans (at_v365_74 m ρ c)
theorem at_v365_76 : W76 m ρ c (Proc.devRef .tc main_v365) = K.P12_nb2 (K.argsOf m c) := (W76_of m ρ c main_v365 (by decide)).trans (at_v365_75 m ρ c)
theorem at_v365_77 : W77 m ρ c (Proc.devRef .tc main_v365) = K.P12_nb2 (K.argsOf m c) := (W77_of m ρ c main_v365 (by decide)).trans (at_v365_76 m ρ c)
theorem at_v365_78 : W78 m ρ c (Proc.devRef .tc main_v365) = K.P12_nb2 (K.argsOf m c) := (W78_of m ρ c main_v365 (by decide)).trans (at_v365_77 m ρ c)
theorem at_v365_79 : W79 m ρ c (Proc.devRef .tc main_v365) = K.P12_nb2 (K.argsOf m c) := (W79_of m ρ c main_v365 (by decide)).trans (at_v365_78 m ρ c)
theorem at_v365_80 : W80 m ρ c (Proc.devRef .tc main_v365) = K.P12_nb2 (K.argsOf m c) := (W80_of m ρ c main_v365 (by decide)).trans (at_v365_79 m ρ c)
theorem at_v365_81 : W81 m ρ c (Proc.devRef .tc main_v365) = K.P12_nb2 (K.argsOf m c) := (W81_of m ρ c main_v365 (by decide)).trans (at_v365_80 m ρ c)
theorem at_v365_82 : W82 m ρ c (Proc.devRef .tc main_v365) = K.P12_nb2 (K.argsOf m c) := (W82_of m ρ c main_v365 (by decide)).trans (at_v365_81 m ρ c)
theorem at_v365_83 : W83 m ρ c (Proc.devRef .tc main_v365) = K.P12_nb2 (K.argsOf m c) := (W83_of m ρ c main_v365 (by decide)).trans (at_v365_82 m ρ c)
theorem at_v365_84 : W84 m ρ c (Proc.devRef .tc main_v365) = K.P12_nb2 (K.argsOf m c) := (W84_of m ρ c main_v365 (by decide)).trans (at_v365_83 m ρ c)
theorem at_v365_85 : W85 m ρ c (Proc.devRef .tc main_v365) = K.P12_nb2 (K.argsOf m c) := (W85_of m ρ c main_v365 (by decide)).trans (at_v365_84 m ρ c)
theorem at_v365_86 : W86 m ρ c (Proc.devRef .tc main_v365) = K.P12_nb2 (K.argsOf m c) := (W86_of m ρ c main_v365 (by decide)).trans (at_v365_85 m ρ c)
theorem at_v365_87 : W87 m ρ c (Proc.devRef .tc main_v365) = K.P12_nb2 (K.argsOf m c) := (W87_of m ρ c main_v365 (by decide)).trans (at_v365_86 m ρ c)
theorem at_v365_88 : W88 m ρ c (Proc.devRef .tc main_v365) = K.P12_nb2 (K.argsOf m c) := (W88_of m ρ c main_v365 (by decide)).trans (at_v365_87 m ρ c)
theorem at_v365_89 : W89 m ρ c (Proc.devRef .tc main_v365) = K.P12_nb2 (K.argsOf m c) := (W89_of m ρ c main_v365 (by decide)).trans (at_v365_88 m ρ c)
theorem at_v365_90 : W90 m ρ c (Proc.devRef .tc main_v365) = K.P12_nb2 (K.argsOf m c) := (W90_of m ρ c main_v365 (by decide)).trans (at_v365_89 m ρ c)
theorem at_v365_91 : W91 m ρ c (Proc.devRef .tc main_v365) = K.P12_nb2 (K.argsOf m c) := (W91_of m ρ c main_v365 (by decide)).trans (at_v365_90 m ρ c)
theorem at_v365_92 : W92 m ρ c (Proc.devRef .tc main_v365) = K.P12_nb2 (K.argsOf m c) := (W92_of m ρ c main_v365 (by decide)).trans (at_v365_91 m ρ c)
theorem at_v365_93 : W93 m ρ c (Proc.devRef .tc main_v365) = K.P12_nb2 (K.argsOf m c) := (W93_of m ρ c main_v365 (by decide)).trans (at_v365_92 m ρ c)
theorem at_v452_94 : W94 m ρ c (Proc.devRef .tc main_v452) = C_v452 (F := Ideal) (K.P12_nb2 (K.argsOf m c)) :=
  rd_v452 (W93 m ρ c) (K.argsOf m c) (at_v365_93 m ρ c)
theorem at_v452_95 : W95 m ρ c (Proc.devRef .tc main_v452) = C_v452 (F := Ideal) (K.P12_nb2 (K.argsOf m c)) := (W95_of m ρ c main_v452 (by decide)).trans (at_v452_94 m ρ c)
theorem at_v452_96 : W96 m ρ c (Proc.devRef .tc main_v452) = C_v452 (F := Ideal) (K.P12_nb2 (K.argsOf m c)) := (W96_of m ρ c main_v452 (by decide)).trans (at_v452_95 m ρ c)
theorem at_v452_97 : W97 m ρ c (Proc.devRef .tc main_v452) = C_v452 (F := Ideal) (K.P12_nb2 (K.argsOf m c)) := (W97_of m ρ c main_v452 (by decide)).trans (at_v452_96 m ρ c)
theorem at_v455_98 : W98 m ρ c (Proc.devRef .tc main_v455) = K.nodeFn (C_v453 (F := Ideal) (C_v422 (F := Ideal) (K.ln3 (K.argsOf m c))) (C_c_63)) (C_v454 (F := Ideal) (K.ua3 (K.argsOf m c)) (C_c_64)) (C_v447 (F := Ideal) (K.P12_nW1 (K.argsOf m c))) (C_v448 (F := Ideal) (K.P12_nW1 (K.argsOf m c))) (C_v451 (F := Ideal) (K.P12_nb1 (K.argsOf m c)) (K.g5 (K.argsOf m c)) (K.P12_nW1 (K.argsOf m c))) (K.P12_nW2 (K.argsOf m c)) (C_v452 (F := Ideal) (K.P12_nb2 (K.argsOf m c))) :=
  (R11_read m ρ c).trans (by rw [at_v453_97 m ρ c, at_v454_97 m ρ c, at_v447_97 m ρ c, at_v448_97 m ρ c, at_v451_97 m ρ c, at_v363_97 m ρ c, at_v452_97 m ρ c])
theorem at_v456_99 : W99 m ρ c (Proc.devRef .tc main_v456) = K.un3 (K.argsOf m c) :=
  st_un3 (W98 m ρ c) (K.argsOf m c) (at_v455_98 m ρ c)
theorem at_v440_95 : W95 m ρ c (Proc.devRef .tc main_v440) = K.ue3 (K.argsOf m c) := (W95_of m ρ c main_v440 (by decide)).trans (at_v440_94 m ρ c)
theorem at_v440_96 : W96 m ρ c (Proc.devRef .tc main_v440) = K.ue3 (K.argsOf m c) := (W96_of m ρ c main_v440 (by decide)).trans (at_v440_95 m ρ c)
theorem at_v440_97 : W97 m ρ c (Proc.devRef .tc main_v440) = K.ue3 (K.argsOf m c) := (W97_of m ρ c main_v440 (by decide)).trans (at_v440_96 m ρ c)
theorem at_v440_98 : W98 m ρ c (Proc.devRef .tc main_v440) = K.ue3 (K.argsOf m c) := (W98_of m ρ c main_v440 (by decide)).trans (at_v440_97 m ρ c)
theorem at_v420_94 : W94 m ρ c (Proc.devRef .tc main_v420) = K.g5 (K.argsOf m c) := (W94_of m ρ c main_v420 (by decide)).trans (at_v420_93 m ρ c)
theorem at_v420_95 : W95 m ρ c (Proc.devRef .tc main_v420) = K.g5 (K.argsOf m c) := (W95_of m ρ c main_v420 (by decide)).trans (at_v420_94 m ρ c)
theorem at_v420_96 : W96 m ρ c (Proc.devRef .tc main_v420) = K.g5 (K.argsOf m c) := (W96_of m ρ c main_v420 (by decide)).trans (at_v420_95 m ρ c)
theorem at_v420_97 : W97 m ρ c (Proc.devRef .tc main_v420) = K.g5 (K.argsOf m c) := (W97_of m ρ c main_v420 (by decide)).trans (at_v420_96 m ρ c)
theorem at_v420_98 : W98 m ρ c (Proc.devRef .tc main_v420) = K.g5 (K.argsOf m c) := (W98_of m ρ c main_v420 (by decide)).trans (at_v420_97 m ρ c)
theorem at_v367_69 : W69 m ρ c (Proc.devRef .tc main_v367) = K.P12_gW1 (K.argsOf m c) :=
  pr_v367 (W68 m ρ c) (K.argsOf m c) (at_arg13_68 m ρ c)
theorem at_v367_70 : W70 m ρ c (Proc.devRef .tc main_v367) = K.P12_gW1 (K.argsOf m c) := (W70_of m ρ c main_v367 (by decide)).trans (at_v367_69 m ρ c)
theorem at_v367_71 : W71 m ρ c (Proc.devRef .tc main_v367) = K.P12_gW1 (K.argsOf m c) := (W71_of m ρ c main_v367 (by decide)).trans (at_v367_70 m ρ c)
theorem at_v367_72 : W72 m ρ c (Proc.devRef .tc main_v367) = K.P12_gW1 (K.argsOf m c) := (W72_of m ρ c main_v367 (by decide)).trans (at_v367_71 m ρ c)
theorem at_v367_73 : W73 m ρ c (Proc.devRef .tc main_v367) = K.P12_gW1 (K.argsOf m c) := (W73_of m ρ c main_v367 (by decide)).trans (at_v367_72 m ρ c)
theorem at_v367_74 : W74 m ρ c (Proc.devRef .tc main_v367) = K.P12_gW1 (K.argsOf m c) := (W74_of m ρ c main_v367 (by decide)).trans (at_v367_73 m ρ c)
theorem at_v367_75 : W75 m ρ c (Proc.devRef .tc main_v367) = K.P12_gW1 (K.argsOf m c) := (W75_of m ρ c main_v367 (by decide)).trans (at_v367_74 m ρ c)
theorem at_v367_76 : W76 m ρ c (Proc.devRef .tc main_v367) = K.P12_gW1 (K.argsOf m c) := (W76_of m ρ c main_v367 (by decide)).trans (at_v367_75 m ρ c)
theorem at_v367_77 : W77 m ρ c (Proc.devRef .tc main_v367) = K.P12_gW1 (K.argsOf m c) := (W77_of m ρ c main_v367 (by decide)).trans (at_v367_76 m ρ c)
theorem at_v367_78 : W78 m ρ c (Proc.devRef .tc main_v367) = K.P12_gW1 (K.argsOf m c) := (W78_of m ρ c main_v367 (by decide)).trans (at_v367_77 m ρ c)
theorem at_v367_79 : W79 m ρ c (Proc.devRef .tc main_v367) = K.P12_gW1 (K.argsOf m c) := (W79_of m ρ c main_v367 (by decide)).trans (at_v367_78 m ρ c)
theorem at_v367_80 : W80 m ρ c (Proc.devRef .tc main_v367) = K.P12_gW1 (K.argsOf m c) := (W80_of m ρ c main_v367 (by decide)).trans (at_v367_79 m ρ c)
theorem at_v367_81 : W81 m ρ c (Proc.devRef .tc main_v367) = K.P12_gW1 (K.argsOf m c) := (W81_of m ρ c main_v367 (by decide)).trans (at_v367_80 m ρ c)
theorem at_v367_82 : W82 m ρ c (Proc.devRef .tc main_v367) = K.P12_gW1 (K.argsOf m c) := (W82_of m ρ c main_v367 (by decide)).trans (at_v367_81 m ρ c)
theorem at_v367_83 : W83 m ρ c (Proc.devRef .tc main_v367) = K.P12_gW1 (K.argsOf m c) := (W83_of m ρ c main_v367 (by decide)).trans (at_v367_82 m ρ c)
theorem at_v367_84 : W84 m ρ c (Proc.devRef .tc main_v367) = K.P12_gW1 (K.argsOf m c) := (W84_of m ρ c main_v367 (by decide)).trans (at_v367_83 m ρ c)
theorem at_v367_85 : W85 m ρ c (Proc.devRef .tc main_v367) = K.P12_gW1 (K.argsOf m c) := (W85_of m ρ c main_v367 (by decide)).trans (at_v367_84 m ρ c)
theorem at_v367_86 : W86 m ρ c (Proc.devRef .tc main_v367) = K.P12_gW1 (K.argsOf m c) := (W86_of m ρ c main_v367 (by decide)).trans (at_v367_85 m ρ c)
theorem at_v367_87 : W87 m ρ c (Proc.devRef .tc main_v367) = K.P12_gW1 (K.argsOf m c) := (W87_of m ρ c main_v367 (by decide)).trans (at_v367_86 m ρ c)
theorem at_v367_88 : W88 m ρ c (Proc.devRef .tc main_v367) = K.P12_gW1 (K.argsOf m c) := (W88_of m ρ c main_v367 (by decide)).trans (at_v367_87 m ρ c)
theorem at_v367_89 : W89 m ρ c (Proc.devRef .tc main_v367) = K.P12_gW1 (K.argsOf m c) := (W89_of m ρ c main_v367 (by decide)).trans (at_v367_88 m ρ c)
theorem at_v367_90 : W90 m ρ c (Proc.devRef .tc main_v367) = K.P12_gW1 (K.argsOf m c) := (W90_of m ρ c main_v367 (by decide)).trans (at_v367_89 m ρ c)
theorem at_v367_91 : W91 m ρ c (Proc.devRef .tc main_v367) = K.P12_gW1 (K.argsOf m c) := (W91_of m ρ c main_v367 (by decide)).trans (at_v367_90 m ρ c)
theorem at_v367_92 : W92 m ρ c (Proc.devRef .tc main_v367) = K.P12_gW1 (K.argsOf m c) := (W92_of m ρ c main_v367 (by decide)).trans (at_v367_91 m ρ c)
theorem at_v367_93 : W93 m ρ c (Proc.devRef .tc main_v367) = K.P12_gW1 (K.argsOf m c) := (W93_of m ρ c main_v367 (by decide)).trans (at_v367_92 m ρ c)
theorem at_v367_94 : W94 m ρ c (Proc.devRef .tc main_v367) = K.P12_gW1 (K.argsOf m c) := (W94_of m ρ c main_v367 (by decide)).trans (at_v367_93 m ρ c)
theorem at_v367_95 : W95 m ρ c (Proc.devRef .tc main_v367) = K.P12_gW1 (K.argsOf m c) := (W95_of m ρ c main_v367 (by decide)).trans (at_v367_94 m ρ c)
theorem at_v367_96 : W96 m ρ c (Proc.devRef .tc main_v367) = K.P12_gW1 (K.argsOf m c) := (W96_of m ρ c main_v367 (by decide)).trans (at_v367_95 m ρ c)
theorem at_v367_97 : W97 m ρ c (Proc.devRef .tc main_v367) = K.P12_gW1 (K.argsOf m c) := (W97_of m ρ c main_v367 (by decide)).trans (at_v367_96 m ρ c)
theorem at_v367_98 : W98 m ρ c (Proc.devRef .tc main_v367) = K.P12_gW1 (K.argsOf m c) := (W98_of m ρ c main_v367 (by decide)).trans (at_v367_97 m ρ c)
theorem at_v369_69 : W69 m ρ c (Proc.devRef .tc main_v369) = K.P12_gb1 (K.argsOf m c) :=
  pr_v369 (W68 m ρ c) (K.argsOf m c) (at_arg14_68 m ρ c)
theorem at_v369_70 : W70 m ρ c (Proc.devRef .tc main_v369) = K.P12_gb1 (K.argsOf m c) := (W70_of m ρ c main_v369 (by decide)).trans (at_v369_69 m ρ c)
theorem at_v369_71 : W71 m ρ c (Proc.devRef .tc main_v369) = K.P12_gb1 (K.argsOf m c) := (W71_of m ρ c main_v369 (by decide)).trans (at_v369_70 m ρ c)
theorem at_v369_72 : W72 m ρ c (Proc.devRef .tc main_v369) = K.P12_gb1 (K.argsOf m c) := (W72_of m ρ c main_v369 (by decide)).trans (at_v369_71 m ρ c)
theorem at_v369_73 : W73 m ρ c (Proc.devRef .tc main_v369) = K.P12_gb1 (K.argsOf m c) := (W73_of m ρ c main_v369 (by decide)).trans (at_v369_72 m ρ c)
theorem at_v369_74 : W74 m ρ c (Proc.devRef .tc main_v369) = K.P12_gb1 (K.argsOf m c) := (W74_of m ρ c main_v369 (by decide)).trans (at_v369_73 m ρ c)
theorem at_v369_75 : W75 m ρ c (Proc.devRef .tc main_v369) = K.P12_gb1 (K.argsOf m c) := (W75_of m ρ c main_v369 (by decide)).trans (at_v369_74 m ρ c)
theorem at_v369_76 : W76 m ρ c (Proc.devRef .tc main_v369) = K.P12_gb1 (K.argsOf m c) := (W76_of m ρ c main_v369 (by decide)).trans (at_v369_75 m ρ c)
theorem at_v369_77 : W77 m ρ c (Proc.devRef .tc main_v369) = K.P12_gb1 (K.argsOf m c) := (W77_of m ρ c main_v369 (by decide)).trans (at_v369_76 m ρ c)
theorem at_v369_78 : W78 m ρ c (Proc.devRef .tc main_v369) = K.P12_gb1 (K.argsOf m c) := (W78_of m ρ c main_v369 (by decide)).trans (at_v369_77 m ρ c)
theorem at_v369_79 : W79 m ρ c (Proc.devRef .tc main_v369) = K.P12_gb1 (K.argsOf m c) := (W79_of m ρ c main_v369 (by decide)).trans (at_v369_78 m ρ c)
theorem at_v369_80 : W80 m ρ c (Proc.devRef .tc main_v369) = K.P12_gb1 (K.argsOf m c) := (W80_of m ρ c main_v369 (by decide)).trans (at_v369_79 m ρ c)
theorem at_v369_81 : W81 m ρ c (Proc.devRef .tc main_v369) = K.P12_gb1 (K.argsOf m c) := (W81_of m ρ c main_v369 (by decide)).trans (at_v369_80 m ρ c)
theorem at_v369_82 : W82 m ρ c (Proc.devRef .tc main_v369) = K.P12_gb1 (K.argsOf m c) := (W82_of m ρ c main_v369 (by decide)).trans (at_v369_81 m ρ c)
theorem at_v369_83 : W83 m ρ c (Proc.devRef .tc main_v369) = K.P12_gb1 (K.argsOf m c) := (W83_of m ρ c main_v369 (by decide)).trans (at_v369_82 m ρ c)
theorem at_v369_84 : W84 m ρ c (Proc.devRef .tc main_v369) = K.P12_gb1 (K.argsOf m c) := (W84_of m ρ c main_v369 (by decide)).trans (at_v369_83 m ρ c)
theorem at_v369_85 : W85 m ρ c (Proc.devRef .tc main_v369) = K.P12_gb1 (K.argsOf m c) := (W85_of m ρ c main_v369 (by decide)).trans (at_v369_84 m ρ c)
theorem at_v369_86 : W86 m ρ c (Proc.devRef .tc main_v369) = K.P12_gb1 (K.argsOf m c) := (W86_of m ρ c main_v369 (by decide)).trans (at_v369_85 m ρ c)
theorem at_v369_87 : W87 m ρ c (Proc.devRef .tc main_v369) = K.P12_gb1 (K.argsOf m c) := (W87_of m ρ c main_v369 (by decide)).trans (at_v369_86 m ρ c)
theorem at_v369_88 : W88 m ρ c (Proc.devRef .tc main_v369) = K.P12_gb1 (K.argsOf m c) := (W88_of m ρ c main_v369 (by decide)).trans (at_v369_87 m ρ c)
theorem at_v369_89 : W89 m ρ c (Proc.devRef .tc main_v369) = K.P12_gb1 (K.argsOf m c) := (W89_of m ρ c main_v369 (by decide)).trans (at_v369_88 m ρ c)
theorem at_v369_90 : W90 m ρ c (Proc.devRef .tc main_v369) = K.P12_gb1 (K.argsOf m c) := (W90_of m ρ c main_v369 (by decide)).trans (at_v369_89 m ρ c)
theorem at_v369_91 : W91 m ρ c (Proc.devRef .tc main_v369) = K.P12_gb1 (K.argsOf m c) := (W91_of m ρ c main_v369 (by decide)).trans (at_v369_90 m ρ c)
theorem at_v369_92 : W92 m ρ c (Proc.devRef .tc main_v369) = K.P12_gb1 (K.argsOf m c) := (W92_of m ρ c main_v369 (by decide)).trans (at_v369_91 m ρ c)
theorem at_v369_93 : W93 m ρ c (Proc.devRef .tc main_v369) = K.P12_gb1 (K.argsOf m c) := (W93_of m ρ c main_v369 (by decide)).trans (at_v369_92 m ρ c)
theorem at_v369_94 : W94 m ρ c (Proc.devRef .tc main_v369) = K.P12_gb1 (K.argsOf m c) := (W94_of m ρ c main_v369 (by decide)).trans (at_v369_93 m ρ c)
theorem at_v369_95 : W95 m ρ c (Proc.devRef .tc main_v369) = K.P12_gb1 (K.argsOf m c) := (W95_of m ρ c main_v369 (by decide)).trans (at_v369_94 m ρ c)
theorem at_v369_96 : W96 m ρ c (Proc.devRef .tc main_v369) = K.P12_gb1 (K.argsOf m c) := (W96_of m ρ c main_v369 (by decide)).trans (at_v369_95 m ρ c)
theorem at_v369_97 : W97 m ρ c (Proc.devRef .tc main_v369) = K.P12_gb1 (K.argsOf m c) := (W97_of m ρ c main_v369 (by decide)).trans (at_v369_96 m ρ c)
theorem at_v369_98 : W98 m ρ c (Proc.devRef .tc main_v369) = K.P12_gb1 (K.argsOf m c) := (W98_of m ρ c main_v369 (by decide)).trans (at_v369_97 m ρ c)
theorem at_v469_99 : W99 m ρ c (Proc.devRef .tc main_v469) = C_v469 (F := Ideal) (K.nodeFn (C_v453 (F := Ideal) (C_v422 (F := Ideal) (K.ln3 (K.argsOf m c))) (C_c_63)) (C_v454 (F := Ideal) (K.ua3 (K.argsOf m c)) (C_c_64)) (C_v447 (F := Ideal) (K.P12_nW1 (K.argsOf m c))) (C_v448 (F := Ideal) (K.P12_nW1 (K.argsOf m c))) (C_v451 (F := Ideal) (K.P12_nb1 (K.argsOf m c)) (K.g5 (K.argsOf m c)) (K.P12_nW1 (K.argsOf m c))) (K.P12_nW2 (K.argsOf m c)) (C_v452 (F := Ideal) (K.P12_nb2 (K.argsOf m c)))) (K.ue3 (K.argsOf m c)) (K.g5 (K.argsOf m c)) (K.P12_gW1 (K.argsOf m c)) (K.P12_gb1 (K.argsOf m c)) :=
  rd_v469 (W98 m ρ c) (K.argsOf m c) (at_v455_98 m ρ c) (at_v440_98 m ρ c) (at_v420_98 m ρ c) (at_v367_98 m ρ c) (at_v369_98 m ρ c)
theorem at_v470_100 : W100 m ρ c (Proc.devRef .tc main_v470) = C_v470 (F := Ideal) (C_v469 (F := Ideal) (K.nodeFn (C_v453 (F := Ideal) (C_v422 (F := Ideal) (K.ln3 (K.argsOf m c))) (C_c_63)) (C_v454 (F := Ideal) (K.ua3 (K.argsOf m c)) (C_c_64)) (C_v447 (F := Ideal) (K.P12_nW1 (K.argsOf m c))) (C_v448 (F := Ideal) (K.P12_nW1 (K.argsOf m c))) (C_v451 (F := Ideal) (K.P12_nb1 (K.argsOf m c)) (K.g5 (K.argsOf m c)) (K.P12_nW1 (K.argsOf m c))) (K.P12_nW2 (K.argsOf m c)) (C_v452 (F := Ideal) (K.P12_nb2 (K.argsOf m c)))) (K.ue3 (K.argsOf m c)) (K.g5 (K.argsOf m c)) (K.P12_gW1 (K.argsOf m c)) (K.P12_gb1 (K.argsOf m c))) :=
  (congrArg (fun l => StableHlo.after l (W99 m ρ c) (Proc.devRef .tc main_v470)) hostOps12_1_eq).trans (rd_v470 (W99 m ρ c) (K.argsOf m c) (at_v469_99 m ρ c))
theorem at_v371_69 : W69 m ρ c (Proc.devRef .tc main_v371) = K.P12_gW2 (K.argsOf m c) :=
  pr_v371 (W68 m ρ c) (K.argsOf m c) (at_arg15_68 m ρ c)
theorem at_v371_70 : W70 m ρ c (Proc.devRef .tc main_v371) = K.P12_gW2 (K.argsOf m c) := (W70_of m ρ c main_v371 (by decide)).trans (at_v371_69 m ρ c)
theorem at_v371_71 : W71 m ρ c (Proc.devRef .tc main_v371) = K.P12_gW2 (K.argsOf m c) := (W71_of m ρ c main_v371 (by decide)).trans (at_v371_70 m ρ c)
theorem at_v371_72 : W72 m ρ c (Proc.devRef .tc main_v371) = K.P12_gW2 (K.argsOf m c) := (W72_of m ρ c main_v371 (by decide)).trans (at_v371_71 m ρ c)
theorem at_v371_73 : W73 m ρ c (Proc.devRef .tc main_v371) = K.P12_gW2 (K.argsOf m c) := (W73_of m ρ c main_v371 (by decide)).trans (at_v371_72 m ρ c)
theorem at_v371_74 : W74 m ρ c (Proc.devRef .tc main_v371) = K.P12_gW2 (K.argsOf m c) := (W74_of m ρ c main_v371 (by decide)).trans (at_v371_73 m ρ c)
theorem at_v371_75 : W75 m ρ c (Proc.devRef .tc main_v371) = K.P12_gW2 (K.argsOf m c) := (W75_of m ρ c main_v371 (by decide)).trans (at_v371_74 m ρ c)
theorem at_v371_76 : W76 m ρ c (Proc.devRef .tc main_v371) = K.P12_gW2 (K.argsOf m c) := (W76_of m ρ c main_v371 (by decide)).trans (at_v371_75 m ρ c)
theorem at_v371_77 : W77 m ρ c (Proc.devRef .tc main_v371) = K.P12_gW2 (K.argsOf m c) := (W77_of m ρ c main_v371 (by decide)).trans (at_v371_76 m ρ c)
theorem at_v371_78 : W78 m ρ c (Proc.devRef .tc main_v371) = K.P12_gW2 (K.argsOf m c) := (W78_of m ρ c main_v371 (by decide)).trans (at_v371_77 m ρ c)
theorem at_v371_79 : W79 m ρ c (Proc.devRef .tc main_v371) = K.P12_gW2 (K.argsOf m c) := (W79_of m ρ c main_v371 (by decide)).trans (at_v371_78 m ρ c)
theorem at_v371_80 : W80 m ρ c (Proc.devRef .tc main_v371) = K.P12_gW2 (K.argsOf m c) := (W80_of m ρ c main_v371 (by decide)).trans (at_v371_79 m ρ c)
theorem at_v371_81 : W81 m ρ c (Proc.devRef .tc main_v371) = K.P12_gW2 (K.argsOf m c) := (W81_of m ρ c main_v371 (by decide)).trans (at_v371_80 m ρ c)
theorem at_v371_82 : W82 m ρ c (Proc.devRef .tc main_v371) = K.P12_gW2 (K.argsOf m c) := (W82_of m ρ c main_v371 (by decide)).trans (at_v371_81 m ρ c)
theorem at_v371_83 : W83 m ρ c (Proc.devRef .tc main_v371) = K.P12_gW2 (K.argsOf m c) := (W83_of m ρ c main_v371 (by decide)).trans (at_v371_82 m ρ c)
theorem at_v371_84 : W84 m ρ c (Proc.devRef .tc main_v371) = K.P12_gW2 (K.argsOf m c) := (W84_of m ρ c main_v371 (by decide)).trans (at_v371_83 m ρ c)
theorem at_v371_85 : W85 m ρ c (Proc.devRef .tc main_v371) = K.P12_gW2 (K.argsOf m c) := (W85_of m ρ c main_v371 (by decide)).trans (at_v371_84 m ρ c)
theorem at_v371_86 : W86 m ρ c (Proc.devRef .tc main_v371) = K.P12_gW2 (K.argsOf m c) := (W86_of m ρ c main_v371 (by decide)).trans (at_v371_85 m ρ c)
theorem at_v371_87 : W87 m ρ c (Proc.devRef .tc main_v371) = K.P12_gW2 (K.argsOf m c) := (W87_of m ρ c main_v371 (by decide)).trans (at_v371_86 m ρ c)
theorem at_v371_88 : W88 m ρ c (Proc.devRef .tc main_v371) = K.P12_gW2 (K.argsOf m c) := (W88_of m ρ c main_v371 (by decide)).trans (at_v371_87 m ρ c)
theorem at_v371_89 : W89 m ρ c (Proc.devRef .tc main_v371) = K.P12_gW2 (K.argsOf m c) := (W89_of m ρ c main_v371 (by decide)).trans (at_v371_88 m ρ c)
theorem at_v371_90 : W90 m ρ c (Proc.devRef .tc main_v371) = K.P12_gW2 (K.argsOf m c) := (W90_of m ρ c main_v371 (by decide)).trans (at_v371_89 m ρ c)
theorem at_v371_91 : W91 m ρ c (Proc.devRef .tc main_v371) = K.P12_gW2 (K.argsOf m c) := (W91_of m ρ c main_v371 (by decide)).trans (at_v371_90 m ρ c)
theorem at_v371_92 : W92 m ρ c (Proc.devRef .tc main_v371) = K.P12_gW2 (K.argsOf m c) := (W92_of m ρ c main_v371 (by decide)).trans (at_v371_91 m ρ c)
theorem at_v371_93 : W93 m ρ c (Proc.devRef .tc main_v371) = K.P12_gW2 (K.argsOf m c) := (W93_of m ρ c main_v371 (by decide)).trans (at_v371_92 m ρ c)
theorem at_v371_94 : W94 m ρ c (Proc.devRef .tc main_v371) = K.P12_gW2 (K.argsOf m c) := (W94_of m ρ c main_v371 (by decide)).trans (at_v371_93 m ρ c)
theorem at_v371_95 : W95 m ρ c (Proc.devRef .tc main_v371) = K.P12_gW2 (K.argsOf m c) := (W95_of m ρ c main_v371 (by decide)).trans (at_v371_94 m ρ c)
theorem at_v371_96 : W96 m ρ c (Proc.devRef .tc main_v371) = K.P12_gW2 (K.argsOf m c) := (W96_of m ρ c main_v371 (by decide)).trans (at_v371_95 m ρ c)
theorem at_v371_97 : W97 m ρ c (Proc.devRef .tc main_v371) = K.P12_gW2 (K.argsOf m c) := (W97_of m ρ c main_v371 (by decide)).trans (at_v371_96 m ρ c)
theorem at_v371_98 : W98 m ρ c (Proc.devRef .tc main_v371) = K.P12_gW2 (K.argsOf m c) := (W98_of m ρ c main_v371 (by decide)).trans (at_v371_97 m ρ c)
theorem at_v371_99 : W99 m ρ c (Proc.devRef .tc main_v371) = K.P12_gW2 (K.argsOf m c) := (W99_of m ρ c main_v371 (by decide)).trans (at_v371_98 m ρ c)
theorem at_v371_100 : W100 m ρ c (Proc.devRef .tc main_v371) = K.P12_gW2 (K.argsOf m c) := (W100_of m ρ c main_v371 (by decide)).trans (at_v371_99 m ρ c)
theorem at_v373_69 : W69 m ρ c (Proc.devRef .tc main_v373) = K.P12_gb2 (K.argsOf m c) :=
  pr_v373 (W68 m ρ c) (K.argsOf m c) (at_arg16_68 m ρ c)
theorem at_v373_70 : W70 m ρ c (Proc.devRef .tc main_v373) = K.P12_gb2 (K.argsOf m c) := (W70_of m ρ c main_v373 (by decide)).trans (at_v373_69 m ρ c)
theorem at_v373_71 : W71 m ρ c (Proc.devRef .tc main_v373) = K.P12_gb2 (K.argsOf m c) := (W71_of m ρ c main_v373 (by decide)).trans (at_v373_70 m ρ c)
theorem at_v373_72 : W72 m ρ c (Proc.devRef .tc main_v373) = K.P12_gb2 (K.argsOf m c) := (W72_of m ρ c main_v373 (by decide)).trans (at_v373_71 m ρ c)
theorem at_v373_73 : W73 m ρ c (Proc.devRef .tc main_v373) = K.P12_gb2 (K.argsOf m c) := (W73_of m ρ c main_v373 (by decide)).trans (at_v373_72 m ρ c)
theorem at_v373_74 : W74 m ρ c (Proc.devRef .tc main_v373) = K.P12_gb2 (K.argsOf m c) := (W74_of m ρ c main_v373 (by decide)).trans (at_v373_73 m ρ c)
theorem at_v373_75 : W75 m ρ c (Proc.devRef .tc main_v373) = K.P12_gb2 (K.argsOf m c) := (W75_of m ρ c main_v373 (by decide)).trans (at_v373_74 m ρ c)
theorem at_v373_76 : W76 m ρ c (Proc.devRef .tc main_v373) = K.P12_gb2 (K.argsOf m c) := (W76_of m ρ c main_v373 (by decide)).trans (at_v373_75 m ρ c)
theorem at_v373_77 : W77 m ρ c (Proc.devRef .tc main_v373) = K.P12_gb2 (K.argsOf m c) := (W77_of m ρ c main_v373 (by decide)).trans (at_v373_76 m ρ c)
theorem at_v373_78 : W78 m ρ c (Proc.devRef .tc main_v373) = K.P12_gb2 (K.argsOf m c) := (W78_of m ρ c main_v373 (by decide)).trans (at_v373_77 m ρ c)
theorem at_v373_79 : W79 m ρ c (Proc.devRef .tc main_v373) = K.P12_gb2 (K.argsOf m c) := (W79_of m ρ c main_v373 (by decide)).trans (at_v373_78 m ρ c)
theorem at_v373_80 : W80 m ρ c (Proc.devRef .tc main_v373) = K.P12_gb2 (K.argsOf m c) := (W80_of m ρ c main_v373 (by decide)).trans (at_v373_79 m ρ c)
theorem at_v373_81 : W81 m ρ c (Proc.devRef .tc main_v373) = K.P12_gb2 (K.argsOf m c) := (W81_of m ρ c main_v373 (by decide)).trans (at_v373_80 m ρ c)
theorem at_v373_82 : W82 m ρ c (Proc.devRef .tc main_v373) = K.P12_gb2 (K.argsOf m c) := (W82_of m ρ c main_v373 (by decide)).trans (at_v373_81 m ρ c)
theorem at_v373_83 : W83 m ρ c (Proc.devRef .tc main_v373) = K.P12_gb2 (K.argsOf m c) := (W83_of m ρ c main_v373 (by decide)).trans (at_v373_82 m ρ c)
theorem at_v373_84 : W84 m ρ c (Proc.devRef .tc main_v373) = K.P12_gb2 (K.argsOf m c) := (W84_of m ρ c main_v373 (by decide)).trans (at_v373_83 m ρ c)
theorem at_v373_85 : W85 m ρ c (Proc.devRef .tc main_v373) = K.P12_gb2 (K.argsOf m c) := (W85_of m ρ c main_v373 (by decide)).trans (at_v373_84 m ρ c)
theorem at_v373_86 : W86 m ρ c (Proc.devRef .tc main_v373) = K.P12_gb2 (K.argsOf m c) := (W86_of m ρ c main_v373 (by decide)).trans (at_v373_85 m ρ c)
theorem at_v373_87 : W87 m ρ c (Proc.devRef .tc main_v373) = K.P12_gb2 (K.argsOf m c) := (W87_of m ρ c main_v373 (by decide)).trans (at_v373_86 m ρ c)
theorem at_v373_88 : W88 m ρ c (Proc.devRef .tc main_v373) = K.P12_gb2 (K.argsOf m c) := (W88_of m ρ c main_v373 (by decide)).trans (at_v373_87 m ρ c)
theorem at_v373_89 : W89 m ρ c (Proc.devRef .tc main_v373) = K.P12_gb2 (K.argsOf m c) := (W89_of m ρ c main_v373 (by decide)).trans (at_v373_88 m ρ c)
theorem at_v373_90 : W90 m ρ c (Proc.devRef .tc main_v373) = K.P12_gb2 (K.argsOf m c) := (W90_of m ρ c main_v373 (by decide)).trans (at_v373_89 m ρ c)
theorem at_v373_91 : W91 m ρ c (Proc.devRef .tc main_v373) = K.P12_gb2 (K.argsOf m c) := (W91_of m ρ c main_v373 (by decide)).trans (at_v373_90 m ρ c)
theorem at_v373_92 : W92 m ρ c (Proc.devRef .tc main_v373) = K.P12_gb2 (K.argsOf m c) := (W92_of m ρ c main_v373 (by decide)).trans (at_v373_91 m ρ c)
theorem at_v373_93 : W93 m ρ c (Proc.devRef .tc main_v373) = K.P12_gb2 (K.argsOf m c) := (W93_of m ρ c main_v373 (by decide)).trans (at_v373_92 m ρ c)
theorem at_v373_94 : W94 m ρ c (Proc.devRef .tc main_v373) = K.P12_gb2 (K.argsOf m c) := (W94_of m ρ c main_v373 (by decide)).trans (at_v373_93 m ρ c)
theorem at_v373_95 : W95 m ρ c (Proc.devRef .tc main_v373) = K.P12_gb2 (K.argsOf m c) := (W95_of m ρ c main_v373 (by decide)).trans (at_v373_94 m ρ c)
theorem at_v373_96 : W96 m ρ c (Proc.devRef .tc main_v373) = K.P12_gb2 (K.argsOf m c) := (W96_of m ρ c main_v373 (by decide)).trans (at_v373_95 m ρ c)
theorem at_v373_97 : W97 m ρ c (Proc.devRef .tc main_v373) = K.P12_gb2 (K.argsOf m c) := (W97_of m ρ c main_v373 (by decide)).trans (at_v373_96 m ρ c)
theorem at_v373_98 : W98 m ρ c (Proc.devRef .tc main_v373) = K.P12_gb2 (K.argsOf m c) := (W98_of m ρ c main_v373 (by decide)).trans (at_v373_97 m ρ c)
theorem at_v467_99 : W99 m ρ c (Proc.devRef .tc main_v467) = C_v467 (F := Ideal) (K.P12_gb2 (K.argsOf m c)) :=
  rd_v467 (W98 m ρ c) (K.argsOf m c) (at_v373_98 m ρ c)
theorem at_v467_100 : W100 m ρ c (Proc.devRef .tc main_v467) = C_v467 (F := Ideal) (K.P12_gb2 (K.argsOf m c)) := (W100_of m ρ c main_v467 (by decide)).trans (at_v467_99 m ρ c)
theorem at_v472_101 : W101 m ρ c (Proc.devRef .tc main_v472) = K.g6 (K.argsOf m c) :=
  st_g6 (W100 m ρ c) (K.argsOf m c) (at_v470_100 m ρ c) (at_v371_100 m ρ c) (at_v467_100 m ρ c)
theorem at_v1_76 : W76 m ρ c (Proc.devRef .tc main_v1) = K.lr (K.argsOf m c) := (W76_of m ρ c main_v1 (by decide)).trans (at_v1_75 m ρ c)
theorem at_v1_77 : W77 m ρ c (Proc.devRef .tc main_v1) = K.lr (K.argsOf m c) := (W77_of m ρ c main_v1 (by decide)).trans (at_v1_76 m ρ c)
theorem at_v1_78 : W78 m ρ c (Proc.devRef .tc main_v1) = K.lr (K.argsOf m c) := (W78_of m ρ c main_v1 (by decide)).trans (at_v1_77 m ρ c)
theorem at_v1_79 : W79 m ρ c (Proc.devRef .tc main_v1) = K.lr (K.argsOf m c) := (W79_of m ρ c main_v1 (by decide)).trans (at_v1_78 m ρ c)
theorem at_v1_80 : W80 m ρ c (Proc.devRef .tc main_v1) = K.lr (K.argsOf m c) := (W80_of m ρ c main_v1 (by decide)).trans (at_v1_79 m ρ c)
theorem at_v1_81 : W81 m ρ c (Proc.devRef .tc main_v1) = K.lr (K.argsOf m c) := (W81_of m ρ c main_v1 (by decide)).trans (at_v1_80 m ρ c)
theorem at_v1_82 : W82 m ρ c (Proc.devRef .tc main_v1) = K.lr (K.argsOf m c) := (W82_of m ρ c main_v1 (by decide)).trans (at_v1_81 m ρ c)
theorem at_v1_83 : W83 m ρ c (Proc.devRef .tc main_v1) = K.lr (K.argsOf m c) := (W83_of m ρ c main_v1 (by decide)).trans (at_v1_82 m ρ c)
theorem at_v1_84 : W84 m ρ c (Proc.devRef .tc main_v1) = K.lr (K.argsOf m c) := (W84_of m ρ c main_v1 (by decide)).trans (at_v1_83 m ρ c)
theorem at_v1_85 : W85 m ρ c (Proc.devRef .tc main_v1) = K.lr (K.argsOf m c) := (W85_of m ρ c main_v1 (by decide)).trans (at_v1_84 m ρ c)
theorem at_v1_86 : W86 m ρ c (Proc.devRef .tc main_v1) = K.lr (K.argsOf m c) := (W86_of m ρ c main_v1 (by decide)).trans (at_v1_85 m ρ c)
theorem at_v1_87 : W87 m ρ c (Proc.devRef .tc main_v1) = K.lr (K.argsOf m c) := (W87_of m ρ c main_v1 (by decide)).trans (at_v1_86 m ρ c)
theorem at_v1_88 : W88 m ρ c (Proc.devRef .tc main_v1) = K.lr (K.argsOf m c) := (W88_of m ρ c main_v1 (by decide)).trans (at_v1_87 m ρ c)
theorem at_v1_89 : W89 m ρ c (Proc.devRef .tc main_v1) = K.lr (K.argsOf m c) := (W89_of m ρ c main_v1 (by decide)).trans (at_v1_88 m ρ c)
theorem at_v1_90 : W90 m ρ c (Proc.devRef .tc main_v1) = K.lr (K.argsOf m c) := (W90_of m ρ c main_v1 (by decide)).trans (at_v1_89 m ρ c)
theorem at_v1_91 : W91 m ρ c (Proc.devRef .tc main_v1) = K.lr (K.argsOf m c) := (W91_of m ρ c main_v1 (by decide)).trans (at_v1_90 m ρ c)
theorem at_v1_92 : W92 m ρ c (Proc.devRef .tc main_v1) = K.lr (K.argsOf m c) := (W92_of m ρ c main_v1 (by decide)).trans (at_v1_91 m ρ c)
theorem at_v1_93 : W93 m ρ c (Proc.devRef .tc main_v1) = K.lr (K.argsOf m c) := (W93_of m ρ c main_v1 (by decide)).trans (at_v1_92 m ρ c)
theorem at_v1_94 : W94 m ρ c (Proc.devRef .tc main_v1) = K.lr (K.argsOf m c) := (W94_of m ρ c main_v1 (by decide)).trans (at_v1_93 m ρ c)
theorem at_v1_95 : W95 m ρ c (Proc.devRef .tc main_v1) = K.lr (K.argsOf m c) := (W95_of m ρ c main_v1 (by decide)).trans (at_v1_94 m ρ c)
theorem at_v1_96 : W96 m ρ c (Proc.devRef .tc main_v1) = K.lr (K.argsOf m c) := (W96_of m ρ c main_v1 (by decide)).trans (at_v1_95 m ρ c)
theorem at_v1_97 : W97 m ρ c (Proc.devRef .tc main_v1) = K.lr (K.argsOf m c) := (W97_of m ρ c main_v1 (by decide)).trans (at_v1_96 m ρ c)
theorem at_v1_98 : W98 m ρ c (Proc.devRef .tc main_v1) = K.lr (K.argsOf m c) := (W98_of m ρ c main_v1 (by decide)).trans (at_v1_97 m ρ c)
theorem at_v1_99 : W99 m ρ c (Proc.devRef .tc main_v1) = K.lr (K.argsOf m c) := (W99_of m ρ c main_v1 (by decide)).trans (at_v1_98 m ρ c)
theorem at_v1_100 : W100 m ρ c (Proc.devRef .tc main_v1) = K.lr (K.argsOf m c) := (W100_of m ρ c main_v1 (by decide)).trans (at_v1_99 m ρ c)
theorem at_v3_4 : W4 m ρ c (Proc.devRef .tc main_v3) = K.lc (K.argsOf m c) := (W4_of m ρ c main_v3 (by decide)).trans (at_v3_3 m ρ c)
theorem at_v3_5 : W5 m ρ c (Proc.devRef .tc main_v3) = K.lc (K.argsOf m c) := (W5_of m ρ c main_v3 (by decide)).trans (at_v3_4 m ρ c)
theorem at_v3_6 : W6 m ρ c (Proc.devRef .tc main_v3) = K.lc (K.argsOf m c) := (W6_of m ρ c main_v3 (by decide)).trans (at_v3_5 m ρ c)
theorem at_v3_7 : W7 m ρ c (Proc.devRef .tc main_v3) = K.lc (K.argsOf m c) := (W7_of m ρ c main_v3 (by decide)).trans (at_v3_6 m ρ c)
theorem at_v3_8 : W8 m ρ c (Proc.devRef .tc main_v3) = K.lc (K.argsOf m c) := (W8_of m ρ c main_v3 (by decide)).trans (at_v3_7 m ρ c)
theorem at_v3_9 : W9 m ρ c (Proc.devRef .tc main_v3) = K.lc (K.argsOf m c) := (W9_of m ρ c main_v3 (by decide)).trans (at_v3_8 m ρ c)
theorem at_v3_10 : W10 m ρ c (Proc.devRef .tc main_v3) = K.lc (K.argsOf m c) := (W10_of m ρ c main_v3 (by decide)).trans (at_v3_9 m ρ c)
theorem at_v3_11 : W11 m ρ c (Proc.devRef .tc main_v3) = K.lc (K.argsOf m c) := (W11_of m ρ c main_v3 (by decide)).trans (at_v3_10 m ρ c)
theorem at_v3_12 : W12 m ρ c (Proc.devRef .tc main_v3) = K.lc (K.argsOf m c) := (W12_of m ρ c main_v3 (by decide)).trans (at_v3_11 m ρ c)
theorem at_v3_13 : W13 m ρ c (Proc.devRef .tc main_v3) = K.lc (K.argsOf m c) := (W13_of m ρ c main_v3 (by decide)).trans (at_v3_12 m ρ c)
theorem at_v3_14 : W14 m ρ c (Proc.devRef .tc main_v3) = K.lc (K.argsOf m c) := (W14_of m ρ c main_v3 (by decide)).trans (at_v3_13 m ρ c)
theorem at_v3_15 : W15 m ρ c (Proc.devRef .tc main_v3) = K.lc (K.argsOf m c) := (W15_of m ρ c main_v3 (by decide)).trans (at_v3_14 m ρ c)
theorem at_v3_16 : W16 m ρ c (Proc.devRef .tc main_v3) = K.lc (K.argsOf m c) := (W16_of m ρ c main_v3 (by decide)).trans (at_v3_15 m ρ c)
theorem at_v3_17 : W17 m ρ c (Proc.devRef .tc main_v3) = K.lc (K.argsOf m c) := (W17_of m ρ c main_v3 (by decide)).trans (at_v3_16 m ρ c)
theorem at_v3_18 : W18 m ρ c (Proc.devRef .tc main_v3) = K.lc (K.argsOf m c) := (W18_of m ρ c main_v3 (by decide)).trans (at_v3_17 m ρ c)
theorem at_v3_19 : W19 m ρ c (Proc.devRef .tc main_v3) = K.lc (K.argsOf m c) := (W19_of m ρ c main_v3 (by decide)).trans (at_v3_18 m ρ c)
theorem at_v3_20 : W20 m ρ c (Proc.devRef .tc main_v3) = K.lc (K.argsOf m c) := (W20_of m ρ c main_v3 (by decide)).trans (at_v3_19 m ρ c)
theorem at_v3_21 : W21 m ρ c (Proc.devRef .tc main_v3) = K.lc (K.argsOf m c) := (W21_of m ρ c main_v3 (by decide)).trans (at_v3_20 m ρ c)
theorem at_v3_22 : W22 m ρ c (Proc.devRef .tc main_v3) = K.lc (K.argsOf m c) := (W22_of m ρ c main_v3 (by decide)).trans (at_v3_21 m ρ c)
theorem at_v3_23 : W23 m ρ c (Proc.devRef .tc main_v3) = K.lc (K.argsOf m c) := (W23_of m ρ c main_v3 (by decide)).trans (at_v3_22 m ρ c)
theorem at_v3_24 : W24 m ρ c (Proc.devRef .tc main_v3) = K.lc (K.argsOf m c) := (W24_of m ρ c main_v3 (by decide)).trans (at_v3_23 m ρ c)
theorem at_v3_25 : W25 m ρ c (Proc.devRef .tc main_v3) = K.lc (K.argsOf m c) := (W25_of m ρ c main_v3 (by decide)).trans (at_v3_24 m ρ c)
theorem at_v3_26 : W26 m ρ c (Proc.devRef .tc main_v3) = K.lc (K.argsOf m c) := (W26_of m ρ c main_v3 (by decide)).trans (at_v3_25 m ρ c)
theorem at_v3_27 : W27 m ρ c (Proc.devRef .tc main_v3) = K.lc (K.argsOf m c) := (W27_of m ρ c main_v3 (by decide)).trans (at_v3_26 m ρ c)
theorem at_v3_28 : W28 m ρ c (Proc.devRef .tc main_v3) = K.lc (K.argsOf m c) := (W28_of m ρ c main_v3 (by decide)).trans (at_v3_27 m ρ c)
theorem at_v3_29 : W29 m ρ c (Proc.devRef .tc main_v3) = K.lc (K.argsOf m c) := (W29_of m ρ c main_v3 (by decide)).trans (at_v3_28 m ρ c)
theorem at_v3_30 : W30 m ρ c (Proc.devRef .tc main_v3) = K.lc (K.argsOf m c) := (W30_of m ρ c main_v3 (by decide)).trans (at_v3_29 m ρ c)
theorem at_v3_31 : W31 m ρ c (Proc.devRef .tc main_v3) = K.lc (K.argsOf m c) := (W31_of m ρ c main_v3 (by decide)).trans (at_v3_30 m ρ c)
theorem at_v3_32 : W32 m ρ c (Proc.devRef .tc main_v3) = K.lc (K.argsOf m c) := (W32_of m ρ c main_v3 (by decide)).trans (at_v3_31 m ρ c)
theorem at_v3_33 : W33 m ρ c (Proc.devRef .tc main_v3) = K.lc (K.argsOf m c) := (W33_of m ρ c main_v3 (by decide)).trans (at_v3_32 m ρ c)
theorem at_v3_34 : W34 m ρ c (Proc.devRef .tc main_v3) = K.lc (K.argsOf m c) := (W34_of m ρ c main_v3 (by decide)).trans (at_v3_33 m ρ c)
theorem at_v3_35 : W35 m ρ c (Proc.devRef .tc main_v3) = K.lc (K.argsOf m c) := (W35_of m ρ c main_v3 (by decide)).trans (at_v3_34 m ρ c)
theorem at_v3_36 : W36 m ρ c (Proc.devRef .tc main_v3) = K.lc (K.argsOf m c) := (W36_of m ρ c main_v3 (by decide)).trans (at_v3_35 m ρ c)
theorem at_v3_37 : W37 m ρ c (Proc.devRef .tc main_v3) = K.lc (K.argsOf m c) := (W37_of m ρ c main_v3 (by decide)).trans (at_v3_36 m ρ c)
theorem at_v3_38 : W38 m ρ c (Proc.devRef .tc main_v3) = K.lc (K.argsOf m c) := (W38_of m ρ c main_v3 (by decide)).trans (at_v3_37 m ρ c)
theorem at_v3_39 : W39 m ρ c (Proc.devRef .tc main_v3) = K.lc (K.argsOf m c) := (W39_of m ρ c main_v3 (by decide)).trans (at_v3_38 m ρ c)
theorem at_v3_40 : W40 m ρ c (Proc.devRef .tc main_v3) = K.lc (K.argsOf m c) := (W40_of m ρ c main_v3 (by decide)).trans (at_v3_39 m ρ c)
theorem at_v3_41 : W41 m ρ c (Proc.devRef .tc main_v3) = K.lc (K.argsOf m c) := (W41_of m ρ c main_v3 (by decide)).trans (at_v3_40 m ρ c)
theorem at_v3_42 : W42 m ρ c (Proc.devRef .tc main_v3) = K.lc (K.argsOf m c) := (W42_of m ρ c main_v3 (by decide)).trans (at_v3_41 m ρ c)
theorem at_v3_43 : W43 m ρ c (Proc.devRef .tc main_v3) = K.lc (K.argsOf m c) := (W43_of m ρ c main_v3 (by decide)).trans (at_v3_42 m ρ c)
theorem at_v3_44 : W44 m ρ c (Proc.devRef .tc main_v3) = K.lc (K.argsOf m c) := (W44_of m ρ c main_v3 (by decide)).trans (at_v3_43 m ρ c)
theorem at_v3_45 : W45 m ρ c (Proc.devRef .tc main_v3) = K.lc (K.argsOf m c) := (W45_of m ρ c main_v3 (by decide)).trans (at_v3_44 m ρ c)
theorem at_v3_46 : W46 m ρ c (Proc.devRef .tc main_v3) = K.lc (K.argsOf m c) := (W46_of m ρ c main_v3 (by decide)).trans (at_v3_45 m ρ c)
theorem at_v3_47 : W47 m ρ c (Proc.devRef .tc main_v3) = K.lc (K.argsOf m c) := (W47_of m ρ c main_v3 (by decide)).trans (at_v3_46 m ρ c)
theorem at_v3_48 : W48 m ρ c (Proc.devRef .tc main_v3) = K.lc (K.argsOf m c) := (W48_of m ρ c main_v3 (by decide)).trans (at_v3_47 m ρ c)
theorem at_v3_49 : W49 m ρ c (Proc.devRef .tc main_v3) = K.lc (K.argsOf m c) := (W49_of m ρ c main_v3 (by decide)).trans (at_v3_48 m ρ c)
theorem at_v3_50 : W50 m ρ c (Proc.devRef .tc main_v3) = K.lc (K.argsOf m c) := (W50_of m ρ c main_v3 (by decide)).trans (at_v3_49 m ρ c)
theorem at_v3_51 : W51 m ρ c (Proc.devRef .tc main_v3) = K.lc (K.argsOf m c) := (W51_of m ρ c main_v3 (by decide)).trans (at_v3_50 m ρ c)
theorem at_v3_52 : W52 m ρ c (Proc.devRef .tc main_v3) = K.lc (K.argsOf m c) := (W52_of m ρ c main_v3 (by decide)).trans (at_v3_51 m ρ c)
theorem at_v3_53 : W53 m ρ c (Proc.devRef .tc main_v3) = K.lc (K.argsOf m c) := (W53_of m ρ c main_v3 (by decide)).trans (at_v3_52 m ρ c)
theorem at_v3_54 : W54 m ρ c (Proc.devRef .tc main_v3) = K.lc (K.argsOf m c) := (W54_of m ρ c main_v3 (by decide)).trans (at_v3_53 m ρ c)
theorem at_v3_55 : W55 m ρ c (Proc.devRef .tc main_v3) = K.lc (K.argsOf m c) := (W55_of m ρ c main_v3 (by decide)).trans (at_v3_54 m ρ c)
theorem at_v3_56 : W56 m ρ c (Proc.devRef .tc main_v3) = K.lc (K.argsOf m c) := (W56_of m ρ c main_v3 (by decide)).trans (at_v3_55 m ρ c)
theorem at_v3_57 : W57 m ρ c (Proc.devRef .tc main_v3) = K.lc (K.argsOf m c) := (W57_of m ρ c main_v3 (by decide)).trans (at_v3_56 m ρ c)
theorem at_v3_58 : W58 m ρ c (Proc.devRef .tc main_v3) = K.lc (K.argsOf m c) := (W58_of m ρ c main_v3 (by decide)).trans (at_v3_57 m ρ c)
theorem at_v3_59 : W59 m ρ c (Proc.devRef .tc main_v3) = K.lc (K.argsOf m c) := (W59_of m ρ c main_v3 (by decide)).trans (at_v3_58 m ρ c)
theorem at_v3_60 : W60 m ρ c (Proc.devRef .tc main_v3) = K.lc (K.argsOf m c) := (W60_of m ρ c main_v3 (by decide)).trans (at_v3_59 m ρ c)
theorem at_v3_61 : W61 m ρ c (Proc.devRef .tc main_v3) = K.lc (K.argsOf m c) := (W61_of m ρ c main_v3 (by decide)).trans (at_v3_60 m ρ c)
theorem at_v3_62 : W62 m ρ c (Proc.devRef .tc main_v3) = K.lc (K.argsOf m c) := (W62_of m ρ c main_v3 (by decide)).trans (at_v3_61 m ρ c)
theorem at_v3_63 : W63 m ρ c (Proc.devRef .tc main_v3) = K.lc (K.argsOf m c) := (W63_of m ρ c main_v3 (by decide)).trans (at_v3_62 m ρ c)
theorem at_v3_64 : W64 m ρ c (Proc.devRef .tc main_v3) = K.lc (K.argsOf m c) := (W64_of m ρ c main_v3 (by decide)).trans (at_v3_63 m ρ c)
theorem at_v3_65 : W65 m ρ c (Proc.devRef .tc main_v3) = K.lc (K.argsOf m c) := (W65_of m ρ c main_v3 (by decide)).trans (at_v3_64 m ρ c)
theorem at_v3_66 : W66 m ρ c (Proc.devRef .tc main_v3) = K.lc (K.argsOf m c) := (W66_of m ρ c main_v3 (by decide)).trans (at_v3_65 m ρ c)
theorem at_v3_67 : W67 m ρ c (Proc.devRef .tc main_v3) = K.lc (K.argsOf m c) := (W67_of m ρ c main_v3 (by decide)).trans (at_v3_66 m ρ c)
theorem at_v3_68 : W68 m ρ c (Proc.devRef .tc main_v3) = K.lc (K.argsOf m c) := (W68_of m ρ c main_v3 (by decide)).trans (at_v3_67 m ρ c)
theorem at_v3_69 : W69 m ρ c (Proc.devRef .tc main_v3) = K.lc (K.argsOf m c) := (W69_of m ρ c main_v3 (by decide)).trans (at_v3_68 m ρ c)
theorem at_v3_70 : W70 m ρ c (Proc.devRef .tc main_v3) = K.lc (K.argsOf m c) := (W70_of m ρ c main_v3 (by decide)).trans (at_v3_69 m ρ c)
theorem at_v3_71 : W71 m ρ c (Proc.devRef .tc main_v3) = K.lc (K.argsOf m c) := (W71_of m ρ c main_v3 (by decide)).trans (at_v3_70 m ρ c)
theorem at_v3_72 : W72 m ρ c (Proc.devRef .tc main_v3) = K.lc (K.argsOf m c) := (W72_of m ρ c main_v3 (by decide)).trans (at_v3_71 m ρ c)
theorem at_v3_73 : W73 m ρ c (Proc.devRef .tc main_v3) = K.lc (K.argsOf m c) := (W73_of m ρ c main_v3 (by decide)).trans (at_v3_72 m ρ c)
theorem at_v3_74 : W74 m ρ c (Proc.devRef .tc main_v3) = K.lc (K.argsOf m c) := (W74_of m ρ c main_v3 (by decide)).trans (at_v3_73 m ρ c)
theorem at_v3_75 : W75 m ρ c (Proc.devRef .tc main_v3) = K.lc (K.argsOf m c) := (W75_of m ρ c main_v3 (by decide)).trans (at_v3_74 m ρ c)
theorem at_v3_76 : W76 m ρ c (Proc.devRef .tc main_v3) = K.lc (K.argsOf m c) := (W76_of m ρ c main_v3 (by decide)).trans (at_v3_75 m ρ c)
theorem at_v3_77 : W77 m ρ c (Proc.devRef .tc main_v3) = K.lc (K.argsOf m c) := (W77_of m ρ c main_v3 (by decide)).trans (at_v3_76 m ρ c)
theorem at_v3_78 : W78 m ρ c (Proc.devRef .tc main_v3) = K.lc (K.argsOf m c) := (W78_of m ρ c main_v3 (by decide)).trans (at_v3_77 m ρ c)
theorem at_v3_79 : W79 m ρ c (Proc.devRef .tc main_v3) = K.lc (K.argsOf m c) := (W79_of m ρ c main_v3 (by decide)).trans (at_v3_78 m ρ c)
theorem at_v3_80 : W80 m ρ c (Proc.devRef .tc main_v3) = K.lc (K.argsOf m c) := (W80_of m ρ c main_v3 (by decide)).trans (at_v3_79 m ρ c)
theorem at_v3_81 : W81 m ρ c (Proc.devRef .tc main_v3) = K.lc (K.argsOf m c) := (W81_of m ρ c main_v3 (by decide)).trans (at_v3_80 m ρ c)
theorem at_v3_82 : W82 m ρ c (Proc.devRef .tc main_v3) = K.lc (K.argsOf m c) := (W82_of m ρ c main_v3 (by decide)).trans (at_v3_81 m ρ c)
theorem at_v3_83 : W83 m ρ c (Proc.devRef .tc main_v3) = K.lc (K.argsOf m c) := (W83_of m ρ c main_v3 (by decide)).trans (at_v3_82 m ρ c)
theorem at_v3_84 : W84 m ρ c (Proc.devRef .tc main_v3) = K.lc (K.argsOf m c) := (W84_of m ρ c main_v3 (by decide)).trans (at_v3_83 m ρ c)
theorem at_v3_85 : W85 m ρ c (Proc.devRef .tc main_v3) = K.lc (K.argsOf m c) := (W85_of m ρ c main_v3 (by decide)).trans (at_v3_84 m ρ c)
theorem at_v3_86 : W86 m ρ c (Proc.devRef .tc main_v3) = K.lc (K.argsOf m c) := (W86_of m ρ c main_v3 (by decide)).trans (at_v3_85 m ρ c)
theorem at_v3_87 : W87 m ρ c (Proc.devRef .tc main_v3) = K.lc (K.argsOf m c) := (W87_of m ρ c main_v3 (by decide)).trans (at_v3_86 m ρ c)
theorem at_v3_88 : W88 m ρ c (Proc.devRef .tc main_v3) = K.lc (K.argsOf m c) := (W88_of m ρ c main_v3 (by decide)).trans (at_v3_87 m ρ c)
theorem at_v3_89 : W89 m ρ c (Proc.devRef .tc main_v3) = K.lc (K.argsOf m c) := (W89_of m ρ c main_v3 (by decide)).trans (at_v3_88 m ρ c)
theorem at_v3_90 : W90 m ρ c (Proc.devRef .tc main_v3) = K.lc (K.argsOf m c) := (W90_of m ρ c main_v3 (by decide)).trans (at_v3_89 m ρ c)
theorem at_v3_91 : W91 m ρ c (Proc.devRef .tc main_v3) = K.lc (K.argsOf m c) := (W91_of m ρ c main_v3 (by decide)).trans (at_v3_90 m ρ c)
theorem at_v3_92 : W92 m ρ c (Proc.devRef .tc main_v3) = K.lc (K.argsOf m c) := (W92_of m ρ c main_v3 (by decide)).trans (at_v3_91 m ρ c)
theorem at_v3_93 : W93 m ρ c (Proc.devRef .tc main_v3) = K.lc (K.argsOf m c) := (W93_of m ρ c main_v3 (by decide)).trans (at_v3_92 m ρ c)
theorem at_v3_94 : W94 m ρ c (Proc.devRef .tc main_v3) = K.lc (K.argsOf m c) := (W94_of m ρ c main_v3 (by decide)).trans (at_v3_93 m ρ c)
theorem at_v3_95 : W95 m ρ c (Proc.devRef .tc main_v3) = K.lc (K.argsOf m c) := (W95_of m ρ c main_v3 (by decide)).trans (at_v3_94 m ρ c)
theorem at_v3_96 : W96 m ρ c (Proc.devRef .tc main_v3) = K.lc (K.argsOf m c) := (W96_of m ρ c main_v3 (by decide)).trans (at_v3_95 m ρ c)
theorem at_v3_97 : W97 m ρ c (Proc.devRef .tc main_v3) = K.lc (K.argsOf m c) := (W97_of m ρ c main_v3 (by decide)).trans (at_v3_96 m ρ c)
theorem at_v3_98 : W98 m ρ c (Proc.devRef .tc main_v3) = K.lc (K.argsOf m c) := (W98_of m ρ c main_v3 (by decide)).trans (at_v3_97 m ρ c)
theorem at_v3_99 : W99 m ρ c (Proc.devRef .tc main_v3) = K.lc (K.argsOf m c) := (W99_of m ρ c main_v3 (by decide)).trans (at_v3_98 m ρ c)
theorem at_v3_100 : W100 m ρ c (Proc.devRef .tc main_v3) = K.lc (K.argsOf m c) := (W100_of m ρ c main_v3 (by decide)).trans (at_v3_99 m ρ c)
theorem at_v473_101 : W101 m ρ c (Proc.devRef .tc main_v473) = C_v473 (K.lr (K.argsOf m c)) (K.lc (K.argsOf m c)) :=
  rd_v473 (W100 m ρ c) (K.argsOf m c) (at_v1_100 m ρ c) (at_v3_100 m ρ c)
theorem at_v388_81 : W81 m ρ c (Proc.devRef .tc main_v388) = K.le3 (K.argsOf m c) := (W81_of m ρ c main_v388 (by decide)).trans (at_v388_80 m ρ c)
theorem at_v388_82 : W82 m ρ c (Proc.devRef .tc main_v388) = K.le3 (K.argsOf m c) := (W82_of m ρ c main_v388 (by decide)).trans (at_v388_81 m ρ c)
theorem at_v388_83 : W83 m ρ c (Proc.devRef .tc main_v388) = K.le3 (K.argsOf m c) := (W83_of m ρ c main_v388 (by decide)).trans (at_v388_82 m ρ c)
theorem at_v388_84 : W84 m ρ c (Proc.devRef .tc main_v388) = K.le3 (K.argsOf m c) := (W84_of m ρ c main_v388 (by decide)).trans (at_v388_83 m ρ c)
theorem at_v388_85 : W85 m ρ c (Proc.devRef .tc main_v388) = K.le3 (K.argsOf m c) := (W85_of m ρ c main_v388 (by decide)).trans (at_v388_84 m ρ c)
theorem at_v388_86 : W86 m ρ c (Proc.devRef .tc main_v388) = K.le3 (K.argsOf m c) := (W86_of m ρ c main_v388 (by decide)).trans (at_v388_85 m ρ c)
theorem at_v388_87 : W87 m ρ c (Proc.devRef .tc main_v388) = K.le3 (K.argsOf m c) := (W87_of m ρ c main_v388 (by decide)).trans (at_v388_86 m ρ c)
theorem at_v388_88 : W88 m ρ c (Proc.devRef .tc main_v388) = K.le3 (K.argsOf m c) := (W88_of m ρ c main_v388 (by decide)).trans (at_v388_87 m ρ c)
theorem at_v388_89 : W89 m ρ c (Proc.devRef .tc main_v388) = K.le3 (K.argsOf m c) := (W89_of m ρ c main_v388 (by decide)).trans (at_v388_88 m ρ c)
theorem at_v388_90 : W90 m ρ c (Proc.devRef .tc main_v388) = K.le3 (K.argsOf m c) := (W90_of m ρ c main_v388 (by decide)).trans (at_v388_89 m ρ c)
theorem at_v388_91 : W91 m ρ c (Proc.devRef .tc main_v388) = K.le3 (K.argsOf m c) := (W91_of m ρ c main_v388 (by decide)).trans (at_v388_90 m ρ c)
theorem at_v388_92 : W92 m ρ c (Proc.devRef .tc main_v388) = K.le3 (K.argsOf m c) := (W92_of m ρ c main_v388 (by decide)).trans (at_v388_91 m ρ c)
theorem at_v388_93 : W93 m ρ c (Proc.devRef .tc main_v388) = K.le3 (K.argsOf m c) := (W93_of m ρ c main_v388 (by decide)).trans (at_v388_92 m ρ c)
theorem at_v388_94 : W94 m ρ c (Proc.devRef .tc main_v388) = K.le3 (K.argsOf m c) := (W94_of m ρ c main_v388 (by decide)).trans (at_v388_93 m ρ c)
theorem at_v388_95 : W95 m ρ c (Proc.devRef .tc main_v388) = K.le3 (K.argsOf m c) := (W95_of m ρ c main_v388 (by decide)).trans (at_v388_94 m ρ c)
theorem at_v388_96 : W96 m ρ c (Proc.devRef .tc main_v388) = K.le3 (K.argsOf m c) := (W96_of m ρ c main_v388 (by decide)).trans (at_v388_95 m ρ c)
theorem at_v388_97 : W97 m ρ c (Proc.devRef .tc main_v388) = K.le3 (K.argsOf m c) := (W97_of m ρ c main_v388 (by decide)).trans (at_v388_96 m ρ c)
theorem at_v388_98 : W98 m ρ c (Proc.devRef .tc main_v388) = K.le3 (K.argsOf m c) := (W98_of m ρ c main_v388 (by decide)).trans (at_v388_97 m ρ c)
theorem at_v388_99 : W99 m ρ c (Proc.devRef .tc main_v388) = K.le3 (K.argsOf m c) := (W99_of m ρ c main_v388 (by decide)).trans (at_v388_98 m ρ c)
theorem at_v388_100 : W100 m ρ c (Proc.devRef .tc main_v388) = K.le3 (K.argsOf m c) := (W100_of m ρ c main_v388 (by decide)).trans (at_v388_99 m ρ c)
theorem at_v475_101 : W101 m ρ c (Proc.devRef .tc main_v475) = C_v475 (F := Ideal) (K.le3 (K.argsOf m c)) :=
  rd_v475 (W100 m ρ c) (K.argsOf m c) (at_v388_100 m ρ c)
theorem at_v476_101 : W101 m ρ c (Proc.devRef .tc main_v476) = C_v476 (F := Ideal) (K.le3 (K.argsOf m c)) :=
  rd_v476 (W100 m ρ c) (K.argsOf m c) (at_v388_100 m ρ c)
theorem at_v477_102 : W102 m ρ c (Proc.devRef .tc main_v477) = C_v477 (F := Ideal) (C_v473 (K.lr (K.argsOf m c)) (K.lc (K.argsOf m c))) (C_v475 (F := Ideal) (K.le3 (K.argsOf m c))) (C_v476 (F := Ideal) (K.le3 (K.argsOf m c))) :=
  (congrArg (fun l => StableHlo.after l (W101 m ρ c) (Proc.devRef .tc main_v477)) hostOps12_3_eq).trans (rd_v477 (W101 m ρ c) (K.argsOf m c) (at_v473_101 m ρ c) (at_v475_101 m ρ c) (at_v476_101 m ρ c))
theorem at_v477_103 : W103 m ρ c (Proc.devRef .tc main_v477) = C_v477 (F := Ideal) (C_v473 (K.lr (K.argsOf m c)) (K.lc (K.argsOf m c))) (C_v475 (F := Ideal) (K.le3 (K.argsOf m c))) (C_v476 (F := Ideal) (K.le3 (K.argsOf m c))) := (W103_of m ρ c main_v477 (by decide)).trans (at_v477_102 m ρ c)
theorem at_v477_104 : W104 m ρ c (Proc.devRef .tc main_v477) = C_v477 (F := Ideal) (C_v473 (K.lr (K.argsOf m c)) (K.lc (K.argsOf m c))) (C_v475 (F := Ideal) (K.le3 (K.argsOf m c))) (C_v476 (F := Ideal) (K.le3 (K.argsOf m c))) := (W104_of m ρ c main_v477 (by decide)).trans (at_v477_103 m ρ c)
theorem at_v5_94 : W94 m ρ c (Proc.devRef .tc main_v5) = K.ur (K.argsOf m c) := (W94_of m ρ c main_v5 (by decide)).trans (at_v5_93 m ρ c)
theorem at_v5_95 : W95 m ρ c (Proc.devRef .tc main_v5) = K.ur (K.argsOf m c) := (W95_of m ρ c main_v5 (by decide)).trans (at_v5_94 m ρ c)
theorem at_v5_96 : W96 m ρ c (Proc.devRef .tc main_v5) = K.ur (K.argsOf m c) := (W96_of m ρ c main_v5 (by decide)).trans (at_v5_95 m ρ c)
theorem at_v5_97 : W97 m ρ c (Proc.devRef .tc main_v5) = K.ur (K.argsOf m c) := (W97_of m ρ c main_v5 (by decide)).trans (at_v5_96 m ρ c)
theorem at_v5_98 : W98 m ρ c (Proc.devRef .tc main_v5) = K.ur (K.argsOf m c) := (W98_of m ρ c main_v5 (by decide)).trans (at_v5_97 m ρ c)
theorem at_v5_99 : W99 m ρ c (Proc.devRef .tc main_v5) = K.ur (K.argsOf m c) := (W99_of m ρ c main_v5 (by decide)).trans (at_v5_98 m ρ c)
theorem at_v5_100 : W100 m ρ c (Proc.devRef .tc main_v5) = K.ur (K.argsOf m c) := (W100_of m ρ c main_v5 (by decide)).trans (at_v5_99 m ρ c)
theorem at_v5_101 : W101 m ρ c (Proc.devRef .tc main_v5) = K.ur (K.argsOf m c) := (W101_of m ρ c main_v5 (by decide)).trans (at_v5_100 m ρ c)
theorem at_v5_102 : W102 m ρ c (Proc.devRef .tc main_v5) = K.ur (K.argsOf m c) := (W102_of m ρ c main_v5 (by decide)).trans (at_v5_101 m ρ c)
theorem at_v7_86 : W86 m ρ c (Proc.devRef .tc main_v7) = K.uc (K.argsOf m c) := (W86_of m ρ c main_v7 (by decide)).trans (at_v7_85 m ρ c)
theorem at_v7_87 : W87 m ρ c (Proc.devRef .tc main_v7) = K.uc (K.argsOf m c) := (W87_of m ρ c main_v7 (by decide)).trans (at_v7_86 m ρ c)
theorem at_v7_88 : W88 m ρ c (Proc.devRef .tc main_v7) = K.uc (K.argsOf m c) := (W88_of m ρ c main_v7 (by decide)).trans (at_v7_87 m ρ c)
theorem at_v7_89 : W89 m ρ c (Proc.devRef .tc main_v7) = K.uc (K.argsOf m c) := (W89_of m ρ c main_v7 (by decide)).trans (at_v7_88 m ρ c)
theorem at_v7_90 : W90 m ρ c (Proc.devRef .tc main_v7) = K.uc (K.argsOf m c) := (W90_of m ρ c main_v7 (by decide)).trans (at_v7_89 m ρ c)
theorem at_v7_91 : W91 m ρ c (Proc.devRef .tc main_v7) = K.uc (K.argsOf m c) := (W91_of m ρ c main_v7 (by decide)).trans (at_v7_90 m ρ c)
theorem at_v7_92 : W92 m ρ c (Proc.devRef .tc main_v7) = K.uc (K.argsOf m c) := (W92_of m ρ c main_v7 (by decide)).trans (at_v7_91 m ρ c)
theorem at_v7_93 : W93 m ρ c (Proc.devRef .tc main_v7) = K.uc (K.argsOf m c) := (W93_of m ρ c main_v7 (by decide)).trans (at_v7_92 m ρ c)
theorem at_v7_94 : W94 m ρ c (Proc.devRef .tc main_v7) = K.uc (K.argsOf m c) := (W94_of m ρ c main_v7 (by decide)).trans (at_v7_93 m ρ c)
theorem at_v7_95 : W95 m ρ c (Proc.devRef .tc main_v7) = K.uc (K.argsOf m c) := (W95_of m ρ c main_v7 (by decide)).trans (at_v7_94 m ρ c)
theorem at_v7_96 : W96 m ρ c (Proc.devRef .tc main_v7) = K.uc (K.argsOf m c) := (W96_of m ρ c main_v7 (by decide)).trans (at_v7_95 m ρ c)
theorem at_v7_97 : W97 m ρ c (Proc.devRef .tc main_v7) = K.uc (K.argsOf m c) := (W97_of m ρ c main_v7 (by decide)).trans (at_v7_96 m ρ c)
theorem at_v7_98 : W98 m ρ c (Proc.devRef .tc main_v7) = K.uc (K.argsOf m c) := (W98_of m ρ c main_v7 (by decide)).trans (at_v7_97 m ρ c)
theorem at_v7_99 : W99 m ρ c (Proc.devRef .tc main_v7) = K.uc (K.argsOf m c) := (W99_of m ρ c main_v7 (by decide)).trans (at_v7_98 m ρ c)
theorem at_v7_100 : W100 m ρ c (Proc.devRef .tc main_v7) = K.uc (K.argsOf m c) := (W100_of m ρ c main_v7 (by decide)).trans (at_v7_99 m ρ c)
theorem at_v7_101 : W101 m ρ c (Proc.devRef .tc main_v7) = K.uc (K.argsOf m c) := (W101_of m ρ c main_v7 (by decide)).trans (at_v7_100 m ρ c)
theorem at_v7_102 : W102 m ρ c (Proc.devRef .tc main_v7) = K.uc (K.argsOf m c) := (W102_of m ρ c main_v7 (by decide)).trans (at_v7_101 m ρ c)
theorem at_v478_103 : W103 m ρ c (Proc.devRef .tc main_v478) = C_v478 (K.ur (K.argsOf m c)) (K.uc (K.argsOf m c)) :=
  rd_v478 (W102 m ρ c) (K.argsOf m c) (at_v5_102 m ρ c) (at_v7_102 m ρ c)
theorem at_v440_99 : W99 m ρ c (Proc.devRef .tc main_v440) = K.ue3 (K.argsOf m c) := (W99_of m ρ c main_v440 (by decide)).trans (at_v440_98 m ρ c)
theorem at_v440_100 : W100 m ρ c (Proc.devRef .tc main_v440) = K.ue3 (K.argsOf m c) := (W100_of m ρ c main_v440 (by decide)).trans (at_v440_99 m ρ c)
theorem at_v440_101 : W101 m ρ c (Proc.devRef .tc main_v440) = K.ue3 (K.argsOf m c) := (W101_of m ρ c main_v440 (by decide)).trans (at_v440_100 m ρ c)
theorem at_v440_102 : W102 m ρ c (Proc.devRef .tc main_v440) = K.ue3 (K.argsOf m c) := (W102_of m ρ c main_v440 (by decide)).trans (at_v440_101 m ρ c)
theorem at_v480_103 : W103 m ρ c (Proc.devRef .tc main_v480) = C_v480 (F := Ideal) (K.ue3 (K.argsOf m c)) :=
  rd_v480 (W102 m ρ c) (K.argsOf m c) (at_v440_102 m ρ c)
theorem at_v481_103 : W103 m ρ c (Proc.devRef .tc main_v481) = C_v481 (F := Ideal) (K.ue3 (K.argsOf m c)) :=
  rd_v481 (W102 m ρ c) (K.argsOf m c) (at_v440_102 m ρ c)
theorem at_v482_104 : W104 m ρ c (Proc.devRef .tc main_v482) = C_v482 (F := Ideal) (C_v478 (K.ur (K.argsOf m c)) (K.uc (K.argsOf m c))) (C_v480 (F := Ideal) (K.ue3 (K.argsOf m c))) (C_v481 (F := Ideal) (K.ue3 (K.argsOf m c))) :=
  (congrArg (fun l => StableHlo.after l (W103 m ρ c) (Proc.devRef .tc main_v482)) hostOps12_5_eq).trans (rd_v482 (W103 m ρ c) (K.argsOf m c) (at_v478_103 m ρ c) (at_v480_103 m ρ c) (at_v481_103 m ρ c))
theorem at_v483_105 : W105 m ρ c (Proc.devRef .tc main_v483) = K.result (K.argsOf m c) :=
  st_result (W104 m ρ c) (K.argsOf m c) (at_v477_104 m ρ c) (at_v482_104 m ρ c)

/-- The buffer of `K.lr` after the item that writes it. -/
theorem K_lr : W1 m ρ c (Proc.devRef .tc main_v1) = K.lr (K.argsOf m c) := at_v1_1 m ρ c
/-- The buffer of `K.lc` after the item that writes it. -/
theorem K_lc : W1 m ρ c (Proc.devRef .tc main_v3) = K.lc (K.argsOf m c) := at_v3_1 m ρ c
/-- The buffer of `K.ur` after the item that writes it. -/
theorem K_ur : W1 m ρ c (Proc.devRef .tc main_v5) = K.ur (K.argsOf m c) := at_v5_1 m ρ c
/-- The buffer of `K.uc` after the item that writes it. -/
theorem K_uc : W1 m ρ c (Proc.devRef .tc main_v7) = K.uc (K.argsOf m c) := at_v7_1 m ρ c
/-- The buffer of `K.lin0` after the item that writes it. -/
theorem K_lin0 : W5 m ρ c (Proc.devRef .tc main_v80) = K.lin0 (K.argsOf m c) := at_v80_5 m ρ c
/-- The buffer of `K.le1` after the item that writes it. -/
theorem K_le1 : W12 m ρ c (Proc.devRef .tc main_v94) = K.le1 (K.argsOf m c) := at_v94_12 m ρ c
/-- The buffer of `K.la1` after the item that writes it. -/
theorem K_la1 : W12 m ρ c (Proc.devRef .tc main_v99) = K.la1 (K.argsOf m c) := at_v99_12 m ρ c
/-- The buffer of `K.ln1` after the item that writes it. -/
theorem K_ln1 : W17 m ρ c (Proc.devRef .tc main_v110) = K.ln1 (K.argsOf m c) := at_v110_17 m ρ c
/-- The buffer of `K.g1` after the item that writes it. -/
theorem K_g1 : W19 m ρ c (Proc.devRef .tc main_v126) = K.g1 (K.argsOf m c) := at_v126_19 m ρ c
/-- The buffer of `K.uin0` after the item that writes it. -/
theorem K_uin0 : W19 m ρ c (Proc.devRef .tc main_v127) = K.uin0 (K.argsOf m c) := at_v127_19 m ρ c
/-- The buffer of `K.ue1` after the item that writes it. -/
theorem K_ue1 : W30 m ρ c (Proc.devRef .tc main_v146) = K.ue1 (K.argsOf m c) := at_v146_30 m ρ c
/-- The buffer of `K.ua1` after the item that writes it. -/
theorem K_ua1 : W30 m ρ c (Proc.devRef .tc main_v151) = K.ua1 (K.argsOf m c) := at_v151_30 m ρ c
/-- The buffer of `K.un1` after the item that writes it. -/
theorem K_un1 : W35 m ρ c (Proc.devRef .tc main_v162) = K.un1 (K.argsOf m c) := at_v162_35 m ρ c
/-- The buffer of `K.g2` after the item that writes it. -/
theorem K_g2 : W37 m ρ c (Proc.devRef .tc main_v178) = K.g2 (K.argsOf m c) := at_v178_37 m ρ c
/-- The buffer of `K.lin1` after the item that writes it. -/
theorem K_lin1 : W37 m ρ c (Proc.devRef .tc main_v227) = K.lin1 (K.argsOf m c) := at_v227_37 m ρ c
/-- The buffer of `K.le2` after the item that writes it. -/
theorem K_le2 : W44 m ρ c (Proc.devRef .tc main_v241) = K.le2 (K.argsOf m c) := at_v241_44 m ρ c
/-- The buffer of `K.la2` after the item that writes it. -/
theorem K_la2 : W44 m ρ c (Proc.devRef .tc main_v246) = K.la2 (K.argsOf m c) := at_v246_44 m ρ c
/-- The buffer of `K.ln2` after the item that writes it. -/
theorem K_ln2 : W49 m ρ c (Proc.devRef .tc main_v257) = K.ln2 (K.argsOf m c) := at_v257_49 m ρ c
/-- The buffer of `K.g3` after the item that writes it. -/
theorem K_g3 : W51 m ρ c (Proc.devRef .tc main_v273) = K.g3 (K.argsOf m c) := at_v273_51 m ρ c
/-- The buffer of `K.uin1` after the item that writes it. -/
theorem K_uin1 : W51 m ρ c (Proc.devRef .tc main_v274) = K.uin1 (K.argsOf m c) := at_v274_51 m ρ c
/-- The buffer of `K.ue2` after the item that writes it. -/
theorem K_ue2 : W62 m ρ c (Proc.devRef .tc main_v293) = K.ue2 (K.argsOf m c) := at_v293_62 m ρ c
/-- The buffer of `K.ua2` after the item that writes it. -/
theorem K_ua2 : W62 m ρ c (Proc.devRef .tc main_v298) = K.ua2 (K.argsOf m c) := at_v298_62 m ρ c
/-- The buffer of `K.un2` after the item that writes it. -/
theorem K_un2 : W67 m ρ c (Proc.devRef .tc main_v309) = K.un2 (K.argsOf m c) := at_v309_67 m ρ c
/-- The buffer of `K.g4` after the item that writes it. -/
theorem K_g4 : W69 m ρ c (Proc.devRef .tc main_v325) = K.g4 (K.argsOf m c) := at_v325_69 m ρ c
/-- The buffer of `K.lin2` after the item that writes it. -/
theorem K_lin2 : W69 m ρ c (Proc.devRef .tc main_v374) = K.lin2 (K.argsOf m c) := at_v374_69 m ρ c
/-- The buffer of `K.le3` after the item that writes it. -/
theorem K_le3 : W76 m ρ c (Proc.devRef .tc main_v388) = K.le3 (K.argsOf m c) := at_v388_76 m ρ c
/-- The buffer of `K.la3` after the item that writes it. -/
theorem K_la3 : W76 m ρ c (Proc.devRef .tc main_v393) = K.la3 (K.argsOf m c) := at_v393_76 m ρ c
/-- The buffer of `K.ln3` after the item that writes it. -/
theorem K_ln3 : W81 m ρ c (Proc.devRef .tc main_v404) = K.ln3 (K.argsOf m c) := at_v404_81 m ρ c
/-- The buffer of `K.g5` after the item that writes it. -/
theorem K_g5 : W83 m ρ c (Proc.devRef .tc main_v420) = K.g5 (K.argsOf m c) := at_v420_83 m ρ c
/-- The buffer of `K.uin2` after the item that writes it. -/
theorem K_uin2 : W83 m ρ c (Proc.devRef .tc main_v421) = K.uin2 (K.argsOf m c) := at_v421_83 m ρ c
/-- The buffer of `K.ue3` after the item that writes it. -/
theorem K_ue3 : W94 m ρ c (Proc.devRef .tc main_v440) = K.ue3 (K.argsOf m c) := at_v440_94 m ρ c
/-- The buffer of `K.ua3` after the item that writes it. -/
theorem K_ua3 : W94 m ρ c (Proc.devRef .tc main_v445) = K.ua3 (K.argsOf m c) := at_v445_94 m ρ c
/-- The buffer of `K.un3` after the item that writes it. -/
theorem K_un3 : W99 m ρ c (Proc.devRef .tc main_v456) = K.un3 (K.argsOf m c) := at_v456_99 m ρ c
/-- The buffer of `K.g6` after the item that writes it. -/
theorem K_g6 : W101 m ρ c (Proc.devRef .tc main_v472) = K.g6 (K.argsOf m c) := at_v472_101 m ρ c
/-- The buffer of `K.result` after the item that writes it. -/
theorem K_result : W105 m ρ c (Proc.devRef .tc main_v483) = K.result (K.argsOf m c) := at_v483_105 m ρ c

/-- THE KERNEL PROGRAM'S RESULT is the named value of the argument arrays. -/
theorem K_result' : W105 m ρ c (Proc.devRef .tc main_v483) = K.result (K.argsOf m c) := at_v483_105 m ρ c

end Cert.Val.KRead

end
-- ==== Proof.Val.RReadLib.lean ====
import proofs.«426760_j80470507258346_3_alg».proof.Proof.Ref.Run
import proofs.«426760_j80470507258346_3_alg».proof.Proof.Val.DagR

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: the common tools

A literal family of references read at a literal position, and the one-pass computation of what a buffer holds after a
straight line of operations. -/

section Tools

/-- A literal family of references at a literal position. -/
theorem vec3_0 (a b c : Ref sig .tc) : (![a, b, c] : Fin 3 → Ref sig .tc) 0 = a := rfl
theorem vec3_1 (a b c : Ref sig .tc) : (![a, b, c] : Fin 3 → Ref sig .tc) 1 = b := rfl
theorem vec3_2 (a b c : Ref sig .tc) : (![a, b, c] : Fin 3 → Ref sig .tc) 2 = c := rfl
theorem vec4_0 (a b c d : Ref sig .tc) : (![a, b, c, d] : Fin 4 → Ref sig .tc) 0 = a := rfl
theorem vec4_1 (a b c d : Ref sig .tc) : (![a, b, c, d] : Fin 4 → Ref sig .tc) 1 = b := rfl
theorem vec4_2 (a b c d : Ref sig .tc) : (![a, b, c, d] : Fin 4 → Ref sig .tc) 2 = c := rfl
theorem vec4_3 (a b c d : Ref sig .tc) : (![a, b, c, d] : Fin 4 → Ref sig .tc) 3 = d := rfl

end Tools

/-- What one buffer holds after a literal line of operations, as ONE rewriting pass: each operation's result at its own
    buffer is its function's value, at any other buffer what was there. -/
macro "rr_results" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', vec3_0, vec3_1, vec3_2, vec4_0, vec4_1, vec4_2, vec4_3]))

end Cert.Val.RRead

end
-- ==== Proof.Val.RReadC.lean ====
import proofs.«426760_j80470507258346_3_alg».proof.Proof.Gen.ReferenceIdeal

noncomputable section

namespace Cert.Val.RRead

open Cert.ReferenceIdeal Cert.ReferenceIdeal.Gen Idealize.ShloMosaic

/-! # The reference's intermediate buffers as functions of what their chunk reads

A stage of the reference spans one to three chunks of its operations. For each buffer a chunk hands to a later one
that is not itself a named value — a broadcast global vector, a gathered row array, an edge input, a partial mean —
the composition of the chunk's operations that computes it, over the buffers the chunk reads; generic in the float
instance. -/

variable {F : FTy → Type} [FloatOps F]

/-- The contents of `main_v60` as a function of the buffers its chunk reads (v8). -/
def C_v60 (x0 : FVec F S1x8 .f32) : FVec F S1100000x8 .f32 :=
  ((broadcastInDim S1100000x8 ![0, 1] bcast_S1x8_S1100000x8_0_1 : (⟨S1x8, .f32⟩ : BufTy).Contents (Elt F) → (⟨S1100000x8, .f32⟩ : BufTy).Contents (Elt F)) x0)

/-- The contents of `main_v67` as a function of the buffers its chunk reads (arg0, v1). -/
def C_v67 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v74` as a function of the buffers its chunk reads (arg0, v3). -/
def C_v74 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v59` as a function of the buffers its chunk reads (arg3, v9). -/
def C_v59 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v95` as a function of the buffers its chunk reads (v8). -/
def C_v95 (x0 : FVec F S1x8 .f32) : FVec F S100000x8 .f32 :=
  ((broadcastInDim S100000x8 ![0, 1] bcast_S1x8_S100000x8_0_1 : (⟨S1x8, .f32⟩ : BufTy).Contents (Elt F) → (⟨S100000x8, .f32⟩ : BufTy).Contents (Elt F)) x0)

/-- The contents of `main_v107` as a function of the buffers its chunk reads (v105). -/
def C_v107 (x0 : FVec F S100000x8 .f32) : FVec F S1x8 .f32 :=
  ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) x0 (constant (F := F) S_ .f32 0x00000000#32)))

/-- The contents of `main_v109` as a function of the buffers its chunk reads (v107). -/
def C_v109 (x0 : FVec F S1x8 .f32) : FVec F S1x8 .f32 :=
  ((Host.divf : (⟨S1x8, .f32⟩ : BufTy).Contents (Elt F) → (⟨S1x8, .f32⟩ : BufTy).Contents (Elt F) → (⟨S1x8, .f32⟩ : BufTy).Contents (Elt F)) x0 ((broadcastInDim S1x8 ![] bcast_S_S1x8 : (⟨S_, .f32⟩ : BufTy).Contents (Elt F) → (⟨S1x8, .f32⟩ : BufTy).Contents (Elt F)) (constant (F := F) S_ .f32 0x47C35000#32)))

/-- The contents of `main_v113` as a function of the buffers its chunk reads (v84). -/
def C_v113 (x0 : FVec F S1100000x1 .f32) : FVec F S1x1 .f32 :=
  ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x0 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))

/-- The contents of `main_v123` as a function of the buffers its chunk reads (v121). -/
def C_v123 (x0 : FVec F S1x8 .f32) : FVec F S1100000x8 .f32 :=
  ((broadcastInDim S1100000x8 ![0, 1] bcast_S1x8_S1100000x8_0_1 : (⟨S1x8, .f32⟩ : BufTy).Contents (Elt F) → (⟨S1100000x8, .f32⟩ : BufTy).Contents (Elt F)) x0)

/-- The contents of `main_v130` as a function of the buffers its chunk reads (v105, v5). -/
def C_v130 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v137` as a function of the buffers its chunk reads (v105, v7). -/
def C_v137 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v122` as a function of the buffers its chunk reads (arg4, v10). -/
def C_v122 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v150` as a function of the buffers its chunk reads (v5, v147). -/
def C_v150 (x0 : IVec S1100000 32) (x1 : FVec F S1100000x1 .f32) : FVec F S100000x1 .f32 :=
  (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) x1)

/-- The contents of `main_v156` as a function of the buffers its chunk reads (v5). -/
def C_v156 (x0 : IVec S1100000 32) : FVec F S100000x1 .f32 :=
  ((maximumf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) ((broadcastInDim S1100000x1 ![] bcast_S_S1100000x1 : (⟨S_, .f32⟩ : BufTy).Contents (Elt F) → (⟨S1100000x1, .f32⟩ : BufTy).Contents (Elt F)) (constant (F := F) S_ .f32 0x3F800000#32))) ((broadcastInDim S100000x1 ![] bcast_S_S100000x1 : (⟨S_, .f32⟩ : BufTy).Contents (Elt F) → (⟨S100000x1, .f32⟩ : BufTy).Contents (Elt F)) (constant (F := F) S_ .f32 0x3F800000#32)))

/-- The contents of `main_v158` as a function of the buffers its chunk reads (v121). -/
def C_v158 (x0 : FVec F S1x8 .f32) : FVec F S100000x8 .f32 :=
  ((broadcastInDim S100000x8 ![0, 1] bcast_S1x8_S100000x8_0_1 : (⟨S1x8, .f32⟩ : BufTy).Contents (Elt F) → (⟨S100000x8, .f32⟩ : BufTy).Contents (Elt F)) x0)

/-- The contents of `main_v172` as a function of the buffers its chunk reads (v168). -/
def C_v172 (x0 : FVec F S100000x8 .f32) : FVec F S1x8 .f32 :=
  ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) x0 (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))

/-- The contents of `main_v176` as a function of the buffers its chunk reads (v147). -/
def C_v176 (x0 : FVec F S1100000x1 .f32) : FVec F S1x1 .f32 :=
  ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x0 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))

/-- The contents of `main_v234` as a function of the buffers its chunk reads (v184). -/
def C_v234 (x0 : FVec F S1x8 .f32) : FVec F S1100000x8 .f32 :=
  ((broadcastInDim S1100000x8 ![0, 1] bcast_S1x8_S1100000x8_0_1 : (⟨S1x8, .f32⟩ : BufTy).Contents (Elt F) → (⟨S1100000x8, .f32⟩ : BufTy).Contents (Elt F)) x0)

/-- The contents of `main_v241` as a function of the buffers its chunk reads (arg0, v1). -/
def C_v241 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v248` as a function of the buffers its chunk reads (arg0, v3). -/
def C_v248 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v233` as a function of the buffers its chunk reads (v84, arg3). -/
def C_v233 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v265` as a function of the buffers its chunk reads (v1). -/
def C_v265 (x0 : IVec S1100000 32) : FVec F S100000x1 .f32 :=
  (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) ((broadcastInDim S1100000x1 ![] bcast_S_S1100000x1 : (⟨S_, .f32⟩ : BufTy).Contents (Elt F) → (⟨S1100000x1, .f32⟩ : BufTy).Contents (Elt F)) (constant (F := F) S_ .f32 0x3F800000#32)))

/-- The contents of `main_v261` as a function of the buffers its chunk reads (v1, v258). -/
def C_v261 (x0 : IVec S1100000 32) (x1 : FVec F S1100000x1 .f32) : FVec F S100000x1 .f32 :=
  (((fun x i u => Host.scatterAdd scatter_S100000x1_S1100000x1_S1100000x1_1_0_0_1 x i u) : (⟨S100000x1, .f32⟩ : BufTy).Contents (Elt F) → (⟨S1100000x1, .i32⟩ : BufTy).Contents (Elt F) → (⟨S1100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant (F := F) S_ .f32 0x00000000#32)) ((broadcastInDim S1100000x1 ![0] bcast_S1100000_S1100000x1_0 : (⟨S1100000, .i32⟩ : BufTy).Contents (Elt F) → (⟨S1100000x1, .i32⟩ : BufTy).Contents (Elt F)) x0) x1)

/-- The contents of `main_v269` as a function of the buffers its chunk reads (v184). -/
def C_v269 (x0 : FVec F S1x8 .f32) : FVec F S100000x8 .f32 :=
  ((broadcastInDim S100000x8 ![0, 1] bcast_S1x8_S100000x8_0_1 : (⟨S1x8, .f32⟩ : BufTy).Contents (Elt F) → (⟨S100000x8, .f32⟩ : BufTy).Contents (Elt F)) x0)

/-- The contents of `main_v283` as a function of the buffers its chunk reads (v279). -/
def C_v283 (x0 : FVec F S100000x8 .f32) : FVec F S1x8 .f32 :=
  ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) x0 (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))

/-- The contents of `main_v287` as a function of the buffers its chunk reads (v258). -/
def C_v287 (x0 : FVec F S1100000x1 .f32) : FVec F S1x1 .f32 :=
  ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x0 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))

/-- The contents of `main_v297` as a function of the buffers its chunk reads (v295). -/
def C_v297 (x0 : FVec F S1x8 .f32) : FVec F S1100000x8 .f32 :=
  ((broadcastInDim S1100000x8 ![0, 1] bcast_S1x8_S1100000x8_0_1 : (⟨S1x8, .f32⟩ : BufTy).Contents (Elt F) → (⟨S1100000x8, .f32⟩ : BufTy).Contents (Elt F)) x0)

/-- The contents of `main_v304` as a function of the buffers its chunk reads (v279, v5). -/
def C_v304 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v311` as a function of the buffers its chunk reads (v279, v7). -/
def C_v311 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v296` as a function of the buffers its chunk reads (v147, v10). -/
def C_v296 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v316` as a function of the buffers its chunk reads (v297, v304, v311, v296, v210, v212). -/
def C_v316 (x0 : FVec F S1100000x8 .f32) (x1 : FVec F S1100000x8 .f32) (x2 : FVec F S1100000x8 .f32) (x3 : FVec F S1100000x2 .f32) (x4 : FVec F S26x32 .f32) (x5 : FVec F S32 .f32) : FVec F S1100000x32 .f32 :=
  ((addf : (⟨S1100000x32, .f32⟩ : BufTy).Contents (Elt F) → (⟨S1100000x32, .f32⟩ : BufTy).Contents (Elt F) → (⟨S1100000x32, .f32⟩ : BufTy).Contents (Elt F)) (((fun l r => Host.dotGeneral dot_S1100000x26_S26x32_S1100000x32_1_0_0_1_n_n none l r) : (⟨S1100000x26, .f32⟩ : BufTy).Contents (Elt F) → (⟨S26x32, .f32⟩ : BufTy).Contents (Elt F) → (⟨S1100000x32, .f32⟩ : BufTy).Contents (Elt F)) (concatenate S1100000x26 1 [⟨S1100000x8, x0⟩, ⟨S1100000x8, x1⟩, ⟨S1100000x8, x2⟩, ⟨S1100000x2, x3⟩] concatenates_S1100000x8_S1100000x8_S1100000x8_S1100000x2_S1100000x26_d1) x4) ((broadcastInDim S1100000x32 ![0, 1] bcast_S1x32_S1100000x32_0_1 : (⟨S1x32, .f32⟩ : BufTy).Contents (Elt F) → (⟨S1100000x32, .f32⟩ : BufTy).Contents (Elt F)) ((broadcastInDim S1x32 ![1] bcast_S32_S1x32_1 : (⟨S32, .f32⟩ : BufTy).Contents (Elt F) → (⟨S1x32, .f32⟩ : BufTy).Contents (Elt F)) x5)))

/-- The contents of `main_v332` as a function of the buffers its chunk reads (v295). -/
def C_v332 (x0 : FVec F S1x8 .f32) : FVec F S100000x8 .f32 :=
  ((broadcastInDim S100000x8 ![0, 1] bcast_S1x8_S100000x8_0_1 : (⟨S1x8, .f32⟩ : BufTy).Contents (Elt F) → (⟨S100000x8, .f32⟩ : BufTy).Contents (Elt F)) x0)

/-- The contents of `main_v346` as a function of the buffers its chunk reads (v342). -/
def C_v346 (x0 : FVec F S100000x8 .f32) : FVec F S1x8 .f32 :=
  ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) x0 (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))

/-- The contents of `main_v350` as a function of the buffers its chunk reads (v321). -/
def C_v350 (x0 : FVec F S1100000x1 .f32) : FVec F S1x1 .f32 :=
  ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x0 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))

/-- The contents of `main_v408` as a function of the buffers its chunk reads (v358). -/
def C_v408 (x0 : FVec F S1x8 .f32) : FVec F S1100000x8 .f32 :=
  ((broadcastInDim S1100000x8 ![0, 1] bcast_S1x8_S1100000x8_0_1 : (⟨S1x8, .f32⟩ : BufTy).Contents (Elt F) → (⟨S1100000x8, .f32⟩ : BufTy).Contents (Elt F)) x0)

/-- The contents of `main_v415` as a function of the buffers its chunk reads (arg0, v1). -/
def C_v415 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v422` as a function of the buffers its chunk reads (arg0, v3). -/
def C_v422 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v407` as a function of the buffers its chunk reads (v258, arg3). -/
def C_v407 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v424` as a function of the buffers its chunk reads (v408, v415, v422, v407, v360). -/
def C_v424 (x0 : FVec F S1100000x8 .f32) (x1 : FVec F S1100000x8 .f32) (x2 : FVec F S1100000x8 .f32) (x3 : FVec F S1100000x2 .f32) (x4 : FVec F S26x32 .f32) : FVec F S1100000x32 .f32 :=
  (((fun l r => Host.dotGeneral dot_S1100000x26_S26x32_S1100000x32_1_0_0_1_n_n none l r) : (⟨S1100000x26, .f32⟩ : BufTy).Contents (Elt F) → (⟨S26x32, .f32⟩ : BufTy).Contents (Elt F) → (⟨S1100000x32, .f32⟩ : BufTy).Contents (Elt F)) (concatenate S1100000x26 1 [⟨S1100000x8, x0⟩, ⟨S1100000x8, x1⟩, ⟨S1100000x8, x2⟩, ⟨S1100000x2, x3⟩] concatenates_S1100000x8_S1100000x8_S1100000x8_S1100000x2_S1100000x26_d1) x4)

/-- The contents of `main_v443` as a function of the buffers its chunk reads (v358). -/
def C_v443 (x0 : FVec F S1x8 .f32) : FVec F S100000x8 .f32 :=
  ((broadcastInDim S100000x8 ![0, 1] bcast_S1x8_S100000x8_0_1 : (⟨S1x8, .f32⟩ : BufTy).Contents (Elt F) → (⟨S100000x8, .f32⟩ : BufTy).Contents (Elt F)) x0)

/-- The contents of `main_v457` as a function of the buffers its chunk reads (v453). -/
def C_v457 (x0 : FVec F S100000x8 .f32) : FVec F S1x8 .f32 :=
  ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) x0 (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))

/-- The contents of `main_v461` as a function of the buffers its chunk reads (v432). -/
def C_v461 (x0 : FVec F S1100000x1 .f32) : FVec F S1x1 .f32 :=
  ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x0 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))

/-- The contents of `main_v474` as a function of the buffers its chunk reads (none). -/
def C_v474  : IVec S1100000 32 :=
  ((broadcastInDim S1100000 ![] bcast_S_S1100000 : (⟨S_, .i32⟩ : BufTy).Contents (Elt F) → (⟨S1100000, .i32⟩ : BufTy).Contents (Elt F)) (constantI S_ 32 100000#32))

/-- The contents of `main_v473` as a function of the buffers its chunk reads (v5). -/
def C_v473 (x0 : IVec S1100000 32) : IVec S1100000 1 :=
  ((cmpi .slt : (⟨S1100000, .i32⟩ : BufTy).Contents (Elt F) → (⟨S1100000, .i32⟩ : BufTy).Contents (Elt F) → (⟨S1100000, .i1⟩ : BufTy).Contents (Elt F)) x0 ((broadcastInDim S1100000 ![] bcast_S_S1100000 : (⟨S_, .i32⟩ : BufTy).Contents (Elt F) → (⟨S1100000, .i32⟩ : BufTy).Contents (Elt F)) (constantI S_ 32 0#32)))

/-- The contents of `main_v471` as a function of the buffers its chunk reads (v469). -/
def C_v471 (x0 : FVec F S1x8 .f32) : FVec F S1100000x8 .f32 :=
  ((broadcastInDim S1100000x8 ![0, 1] bcast_S1x8_S1100000x8_0_1 : (⟨S1x8, .f32⟩ : BufTy).Contents (Elt F) → (⟨S1100000x8, .f32⟩ : BufTy).Contents (Elt F)) x0)

/-- The contents of `main_v470` as a function of the buffers its chunk reads (v321, v10). -/
def C_v470 (x0 : FVec F S1100000x1 .f32) (x1 : FVec F S1100000x1 .f32) : FVec F S1100000x2 .f32 :=
  (((fun a b => concatenate S1100000x2 1 [⟨S1100000x1, a⟩, ⟨S1100000x1, b⟩] concatenates_S1100000x1_S1100000x1_S1100000x2_d1) : (⟨S1100000x1, .f32⟩ : BufTy).Contents (Elt F) → (⟨S1100000x1, .f32⟩ : BufTy).Contents (Elt F) → (⟨S1100000x2, .f32⟩ : BufTy).Contents (Elt F)) x0 x1)

/-- The contents of `main_v478` as a function of the buffers its chunk reads (v453, v473, v5, v474). -/
def C_v478 (x0 : FVec F S100000x8 .f32) (x1 : IVec S1100000 1) (x2 : IVec S1100000 32) (x3 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) x1 ((addi : (⟨S1100000, .i32⟩ : BufTy).Contents (Elt F) → (⟨S1100000, .i32⟩ : BufTy).Contents (Elt F) → (⟨S1100000, .i32⟩ : BufTy).Contents (Elt F)) x2 x3) x2)))

/-- The contents of `main_v485` as a function of the buffers its chunk reads (v453, v7). -/
def C_v485 (x0 : FVec F S100000x8 .f32) (x1 : IVec S1100000 32) : FVec F S1100000x8 .f32 :=
  (((fun x i => Host.gather gather_S100000x8_S1100000x1_S1100000x8_1_0_n_n_0_1_18 x i) : (⟨S100000x8, .f32⟩ : BufTy).Contents (Elt F) → (⟨S1100000x1, .i32⟩ : BufTy).Contents (Elt F) → (⟨S1100000x8, .f32⟩ : BufTy).Contents (Elt F)) x0 ((broadcastInDim S1100000x1 ![0] bcast_S1100000_S1100000x1_0 : (⟨S1100000, .i32⟩ : BufTy).Contents (Elt F) → (⟨S1100000x1, .i32⟩ : BufTy).Contents (Elt F)) ((select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ((cmpi .slt : (⟨S1100000, .i32⟩ : BufTy).Contents (Elt F) → (⟨S1100000, .i32⟩ : BufTy).Contents (Elt F) → (⟨S1100000, .i1⟩ : BufTy).Contents (Elt F)) x1 ((broadcastInDim S1100000 ![] bcast_S_S1100000 : (⟨S_, .i32⟩ : BufTy).Contents (Elt F) → (⟨S1100000, .i32⟩ : BufTy).Contents (Elt F)) (constantI S_ 32 0#32))) ((addi : (⟨S1100000, .i32⟩ : BufTy).Contents (Elt F) → (⟨S1100000, .i32⟩ : BufTy).Contents (Elt F) → (⟨S1100000, .i32⟩ : BufTy).Contents (Elt F)) x1 ((broadcastInDim S1100000 ![] bcast_S_S1100000 : (⟨S_, .i32⟩ : BufTy).Contents (Elt F) → (⟨S1100000, .i32⟩ : BufTy).Contents (Elt F)) (constantI S_ 32 100000#32))) x1)))

/-- The contents of `main_v506` as a function of the buffers its chunk reads (v469). -/
def C_v506 (x0 : FVec F S1x8 .f32) : FVec F S100000x8 .f32 :=
  ((broadcastInDim S100000x8 ![0, 1] bcast_S1x8_S100000x8_0_1 : (⟨S1x8, .f32⟩ : BufTy).Contents (Elt F) → (⟨S100000x8, .f32⟩ : BufTy).Contents (Elt F)) x0)

/-- The contents of `main_v520` as a function of the buffers its chunk reads (v516). -/
def C_v520 (x0 : FVec F S100000x8 .f32) : FVec F S1x8 .f32 :=
  ((Host.divf : (⟨S1x8, .f32⟩ : BufTy).Contents (Elt F) → (⟨S1x8, .f32⟩ : BufTy).Contents (Elt F) → (⟨S1x8, .f32⟩ : BufTy).Contents (Elt F)) ((broadcastInDim S1x8 ![1] bcast_S8_S1x8_1 : (⟨S8, .f32⟩ : BufTy).Contents (Elt F) → (⟨S1x8, .f32⟩ : BufTy).Contents (Elt F)) (((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)) x0 (constant (F := F) S_ .f32 0x00000000#32))) ((broadcastInDim S1x8 ![] bcast_S_S1x8 : (⟨S_, .f32⟩ : BufTy).Contents (Elt F) → (⟨S1x8, .f32⟩ : BufTy).Contents (Elt F)) (constant (F := F) S_ .f32 0x47C35000#32)))

/-- The contents of `main_v524` as a function of the buffers its chunk reads (v495). -/
def C_v524 (x0 : FVec F S1100000x1 .f32) : FVec F S1x1 .f32 :=
  ((Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S1100000x1_S1_d0 h_S_) : (⟨S1100000x1, .f32⟩ : BufTy).Contents (Elt F) → (⟨S_, .f32⟩ : BufTy).Contents (Elt F) → (⟨S1, .f32⟩ : BufTy).Contents (Elt F)) x0 (constant (F := F) S_ .f32 0x00000000#32))) ((broadcastInDim S1x1 ![] bcast_S_S1x1 : (⟨S_, .f32⟩ : BufTy).Contents (Elt F) → (⟨S1x1, .f32⟩ : BufTy).Contents (Elt F)) (constant (F := F) S_ .f32 0x49864700#32)))

/-- The contents of `main_v537` as a function of the buffers its chunk reads (v1, v3, v432). -/
def C_v537 (x0 : IVec S1100000 32) (x1 : IVec S1100000 32) (x2 : FVec F S1100000x1 .f32) : FVec F S1100000 .f32 :=
  (select ((cmpi .eq : (⟨S1100000, .i32⟩ : BufTy).Contents (Elt F) → (⟨S1100000, .i32⟩ : BufTy).Contents (Elt F) → (⟨S1100000, .i1⟩ : BufTy).Contents (Elt F)) x0 x1) ((Host.exp : (⟨S1100000, .f32⟩ : BufTy).Contents (Elt F) → (⟨S1100000, .f32⟩ : BufTy).Contents (Elt F)) (shapeCast S1100000 x2 shapeCasts_S1100000x1_S1100000)) (shapeCast S1100000 x2 shapeCasts_S1100000x1_S1100000))

/-- The contents of `main_v542` as a function of the buffers its chunk reads (v5, v7, v495). -/
def C_v542 (x0 : IVec S1100000 32) (x1 : IVec S1100000 32) (x2 : FVec F S1100000x1 .f32) : FVec F S1100000 .f32 :=
  (select ((cmpi .eq : (⟨S1100000, .i32⟩ : BufTy).Contents (Elt F) → (⟨S1100000, .i32⟩ : BufTy).Contents (Elt F) → (⟨S1100000, .i1⟩ : BufTy).Contents (Elt F)) x0 x1) ((Host.exp : (⟨S1100000, .f32⟩ : BufTy).Contents (Elt F) → (⟨S1100000, .f32⟩ : BufTy).Contents (Elt F)) (shapeCast S1100000 x2 shapeCasts_S1100000x1_S1100000)) (shapeCast S1100000 x2 shapeCasts_S1100000x1_S1100000))

end Cert.Val.RRead

end
-- ==== Proof.Val.RReadP0.lean ====
import proofs.«426760_j80470507258346_3_alg».proof.Proof.Val.RReadLib
import proofs.«426760_j80470507258346_3_alg».proof.Proof.Val.RReadC

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: the index rows, the two constants and the parameters of layer 0

Each theorem reads one buffer after the chunk of operations that writes it, from ANY contents `V` that hold what the
chunk reads: the composed term of the chunk is the named value's definition, or the intermediate buffer's function,
applied to them. -/

-- the big host operations stay closed: two spellings of one stage meet argument by argument
attribute [local irreducible] Host.scatterAdd Host.reduceAdd Host.reduce Host.gather

/-- The buffer `main_v9` after chunk 0, from contents that hold what the chunk reads. -/
theorem pr_v9 (V : Valuation τ sig (Elt Ideal)) (A : R.Args) :
    after ops0 V (Proc.devRef .tc main_v9) = R.zcol := by
  rr_results
  rfl

/-- The buffer `main_v8` after chunk 0, from contents that hold what the chunk reads. -/
theorem pr_v8 (V : Valuation τ sig (Elt Ideal)) (A : R.Args) :
    after ops0 V (Proc.devRef .tc main_v8) = R.g0 := by
  rr_results
  rfl

/-- The buffer `main_v1` after chunk 0, from contents that hold what the chunk reads. -/
theorem pr_v1 (V : Valuation τ sig (Elt Ideal)) (A : R.Args)
    (h_arg1 : V (Proc.devRef .tc main_arg1) = A.a1) :
    after ops0 V (Proc.devRef .tc main_v1) = R.lr A := by
  rr_results
  rw [h_arg1]
  rfl

/-- The buffer `main_v3` after chunk 0, from contents that hold what the chunk reads. -/
theorem pr_v3 (V : Valuation τ sig (Elt Ideal)) (A : R.Args)
    (h_arg1 : V (Proc.devRef .tc main_arg1) = A.a1) :
    after ops0 V (Proc.devRef .tc main_v3) = R.lc A := by
  rr_results
  rw [h_arg1]
  rfl

/-- The buffer `main_v12` after chunk 0, from contents that hold what the chunk reads. -/
theorem pr_v12 (V : Valuation τ sig (Elt Ideal)) (A : R.Args)
    (h_arg5 : V (Proc.devRef .tc main_arg5) = A.a5) :
    after ops0 V (Proc.devRef .tc main_v12) = R.P00_eW1 A := by
  rr_results
  rw [h_arg5]
  rfl

/-- The buffer `main_v14` after chunk 0, from contents that hold what the chunk reads. -/
theorem pr_v14 (V : Valuation τ sig (Elt Ideal)) (A : R.Args)
    (h_arg6 : V (Proc.devRef .tc main_arg6) = A.a6) :
    after ops0 V (Proc.devRef .tc main_v14) = R.P00_eb1 A := by
  rr_results
  rw [h_arg6]
  rfl

/-- The buffer `main_v16` after chunk 0, from contents that hold what the chunk reads. -/
theorem pr_v16 (V : Valuation τ sig (Elt Ideal)) (A : R.Args)
    (h_arg7 : V (Proc.devRef .tc main_arg7) = A.a7) :
    after ops0 V (Proc.devRef .tc main_v16) = R.P00_eW2 A := by
  rr_results
  rw [h_arg7]
  rfl

/-- The buffer `main_v18` after chunk 0, from contents that hold what the chunk reads. -/
theorem pr_v18 (V : Valuation τ sig (Elt Ideal)) (A : R.Args)
    (h_arg8 : V (Proc.devRef .tc main_arg8) = A.a8) :
    after ops0 V (Proc.devRef .tc main_v18) = R.P00_eb2 A := by
  rr_results
  rw [h_arg8]
  rfl

/-- The buffer `main_v20` after chunk 0, from contents that hold what the chunk reads. -/
theorem pr_v20 (V : Valuation τ sig (Elt Ideal)) (A : R.Args)
    (h_arg9 : V (Proc.devRef .tc main_arg9) = A.a9) :
    after ops0 V (Proc.devRef .tc main_v20) = R.P00_nW1 A := by
  rr_results
  rw [h_arg9]
  rfl

/-- The buffer `main_v22` after chunk 0, from contents that hold what the chunk reads. -/
theorem pr_v22 (V : Valuation τ sig (Elt Ideal)) (A : R.Args)
    (h_arg10 : V (Proc.devRef .tc main_arg10) = A.a10) :
    after ops0 V (Proc.devRef .tc main_v22) = R.P00_nb1 A := by
  rr_results
  rw [h_arg10]
  rfl

/-- The buffer `main_v24` after chunk 0, from contents that hold what the chunk reads. -/
theorem pr_v24 (V : Valuation τ sig (Elt Ideal)) (A : R.Args)
    (h_arg11 : V (Proc.devRef .tc main_arg11) = A.a11) :
    after ops0 V (Proc.devRef .tc main_v24) = R.P00_nW2 A := by
  rr_results
  rw [h_arg11]
  rfl

/-- The buffer `main_v26` after chunk 0, from contents that hold what the chunk reads. -/
theorem pr_v26 (V : Valuation τ sig (Elt Ideal)) (A : R.Args)
    (h_arg12 : V (Proc.devRef .tc main_arg12) = A.a12) :
    after ops0 V (Proc.devRef .tc main_v26) = R.P00_nb2 A := by
  rr_results
  rw [h_arg12]
  rfl

/-- The buffer `main_v28` after chunk 0, from contents that hold what the chunk reads. -/
theorem pr_v28 (V : Valuation τ sig (Elt Ideal)) (A : R.Args)
    (h_arg13 : V (Proc.devRef .tc main_arg13) = A.a13) :
    after ops0 V (Proc.devRef .tc main_v28) = R.P00_gW1 A := by
  rr_results
  rw [h_arg13]
  rfl

/-- The buffer `main_v30` after chunk 0, from contents that hold what the chunk reads. -/
theorem pr_v30 (V : Valuation τ sig (Elt Ideal)) (A : R.Args)
    (h_arg14 : V (Proc.devRef .tc main_arg14) = A.a14) :
    after ops0 V (Proc.devRef .tc main_v30) = R.P00_gb1 A := by
  rr_results
  rw [h_arg14]
  rfl

/-- The buffer `main_v32` after chunk 0, from contents that hold what the chunk reads. -/
theorem pr_v32 (V : Valuation τ sig (Elt Ideal)) (A : R.Args)
    (h_arg15 : V (Proc.devRef .tc main_arg15) = A.a15) :
    after ops0 V (Proc.devRef .tc main_v32) = R.P00_gW2 A := by
  rr_results
  rw [h_arg15]
  rfl

/-- The buffer `main_v34` after chunk 0, from contents that hold what the chunk reads. -/
theorem pr_v34 (V : Valuation τ sig (Elt Ideal)) (A : R.Args)
    (h_arg16 : V (Proc.devRef .tc main_arg16) = A.a16) :
    after ops0 V (Proc.devRef .tc main_v34) = R.P00_gb2 A := by
  rr_results
  rw [h_arg16]
  rfl

/-- The buffer `main_v10` after chunk 0, from contents that hold what the chunk reads. -/
theorem pr_v10 (V : Valuation τ sig (Elt Ideal)) (A : R.Args) :
    after ops0 V (Proc.devRef .tc main_v10) = R.zcol := by
  rr_results
  rfl

/-- The buffer `main_v5` after chunk 0, from contents that hold what the chunk reads. -/
theorem pr_v5 (V : Valuation τ sig (Elt Ideal)) (A : R.Args)
    (h_arg2 : V (Proc.devRef .tc main_arg2) = A.a2) :
    after ops0 V (Proc.devRef .tc main_v5) = R.ur A := by
  rr_results
  rw [h_arg2]
  rfl

/-- The buffer `main_v7` after chunk 0, from contents that hold what the chunk reads. -/
theorem pr_v7 (V : Valuation τ sig (Elt Ideal)) (A : R.Args)
    (h_arg2 : V (Proc.devRef .tc main_arg2) = A.a2) :
    after ops0 V (Proc.devRef .tc main_v7) = R.uc A := by
  rr_results
  rw [h_arg2]
  rfl

/-- The buffer `main_v36` after chunk 0, from contents that hold what the chunk reads. -/
theorem pr_v36 (V : Valuation τ sig (Elt Ideal)) (A : R.Args)
    (h_arg5 : V (Proc.devRef .tc main_arg5) = A.a5) :
    after ops0 V (Proc.devRef .tc main_v36) = R.P10_eW1 A := by
  rr_results
  rw [h_arg5]
  rfl

/-- The buffer `main_v38` after chunk 0, from contents that hold what the chunk reads. -/
theorem pr_v38 (V : Valuation τ sig (Elt Ideal)) (A : R.Args)
    (h_arg6 : V (Proc.devRef .tc main_arg6) = A.a6) :
    after ops0 V (Proc.devRef .tc main_v38) = R.P10_eb1 A := by
  rr_results
  rw [h_arg6]
  rfl

/-- The buffer `main_v40` after chunk 0, from contents that hold what the chunk reads. -/
theorem pr_v40 (V : Valuation τ sig (Elt Ideal)) (A : R.Args)
    (h_arg7 : V (Proc.devRef .tc main_arg7) = A.a7) :
    after ops0 V (Proc.devRef .tc main_v40) = R.P10_eW2 A := by
  rr_results
  rw [h_arg7]
  rfl

/-- The buffer `main_v42` after chunk 0, from contents that hold what the chunk reads. -/
theorem pr_v42 (V : Valuation τ sig (Elt Ideal)) (A : R.Args)
    (h_arg8 : V (Proc.devRef .tc main_arg8) = A.a8) :
    after ops0 V (Proc.devRef .tc main_v42) = R.P10_eb2 A := by
  rr_results
  rw [h_arg8]
  rfl

/-- The buffer `main_v44` after chunk 0, from contents that hold what the chunk reads. -/
theorem pr_v44 (V : Valuation τ sig (Elt Ideal)) (A : R.Args)
    (h_arg9 : V (Proc.devRef .tc main_arg9) = A.a9) :
    after ops0 V (Proc.devRef .tc main_v44) = R.P10_nW1 A := by
  rr_results
  rw [h_arg9]
  rfl

/-- The buffer `main_v46` after chunk 0, from contents that hold what the chunk reads. -/
theorem pr_v46 (V : Valuation τ sig (Elt Ideal)) (A : R.Args)
    (h_arg10 : V (Proc.devRef .tc main_arg10) = A.a10) :
    after ops0 V (Proc.devRef .tc main_v46) = R.P10_nb1 A := by
  rr_results
  rw [h_arg10]
  rfl

/-- The buffer `main_v48` after chunk 0, from contents that hold what the chunk reads. -/
theorem pr_v48 (V : Valuation τ sig (Elt Ideal)) (A : R.Args)
    (h_arg11 : V (Proc.devRef .tc main_arg11) = A.a11) :
    after ops0 V (Proc.devRef .tc main_v48) = R.P10_nW2 A := by
  rr_results
  rw [h_arg11]
  rfl

/-- The buffer `main_v50` after chunk 0, from contents that hold what the chunk reads. -/
theorem pr_v50 (V : Valuation τ sig (Elt Ideal)) (A : R.Args)
    (h_arg12 : V (Proc.devRef .tc main_arg12) = A.a12) :
    after ops0 V (Proc.devRef .tc main_v50) = R.P10_nb2 A := by
  rr_results
  rw [h_arg12]
  rfl

/-- The buffer `main_v52` after chunk 0, from contents that hold what the chunk reads. -/
theorem pr_v52 (V : Valuation τ sig (Elt Ideal)) (A : R.Args)
    (h_arg13 : V (Proc.devRef .tc main_arg13) = A.a13) :
    after ops0 V (Proc.devRef .tc main_v52) = R.P10_gW1 A := by
  rr_results
  rw [h_arg13]
  rfl

/-- The buffer `main_v54` after chunk 0, from contents that hold what the chunk reads. -/
theorem pr_v54 (V : Valuation τ sig (Elt Ideal)) (A : R.Args)
    (h_arg14 : V (Proc.devRef .tc main_arg14) = A.a14) :
    after ops0 V (Proc.devRef .tc main_v54) = R.P10_gb1 A := by
  rr_results
  rw [h_arg14]
  rfl

/-- The buffer `main_v56` after chunk 0, from contents that hold what the chunk reads. -/
theorem pr_v56 (V : Valuation τ sig (Elt Ideal)) (A : R.Args)
    (h_arg15 : V (Proc.devRef .tc main_arg15) = A.a15) :
    after ops0 V (Proc.devRef .tc main_v56) = R.P10_gW2 A := by
  rr_results
  rw [h_arg15]
  rfl

/-- The buffer `main_v58` after chunk 1, from contents that hold what the chunk reads. -/
theorem pr_v58 (V : Valuation τ sig (Elt Ideal)) (A : R.Args)
    (h_arg16 : V (Proc.devRef .tc main_arg16) = A.a16) :
    after ops1 V (Proc.devRef .tc main_v58) = R.P10_gb2 A := by
  rr_results
  rw [h_arg16]
  rfl

end Cert.Val.RRead

end
-- ==== Proof.Val.RReadP1.lean ====
import proofs.«426760_j80470507258346_3_alg».proof.Proof.Val.RReadLib
import proofs.«426760_j80470507258346_3_alg».proof.Proof.Val.RReadC

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: the parameters of layer 1

Each theorem reads one buffer after the chunk of operations that writes it, from ANY contents `V` that hold what the
chunk reads: the composed term of the chunk is the named value's definition, or the intermediate buffer's function,
applied to them. -/

-- the big host operations stay closed: two spellings of one stage meet argument by argument
attribute [local irreducible] Host.scatterAdd Host.reduceAdd Host.reduce Host.gather

/-- The buffer `main_v186` after chunk 18, from contents that hold what the chunk reads. -/
theorem pr_v186 (V : Valuation τ sig (Elt Ideal)) (A : R.Args)
    (h_arg5 : V (Proc.devRef .tc main_arg5) = A.a5) :
    after ops18 V (Proc.devRef .tc main_v186) = R.P01_eW1 A := by
  rr_results
  rw [h_arg5]
  rfl

/-- The buffer `main_v188` after chunk 18, from contents that hold what the chunk reads. -/
theorem pr_v188 (V : Valuation τ sig (Elt Ideal)) (A : R.Args)
    (h_arg6 : V (Proc.devRef .tc main_arg6) = A.a6) :
    after ops18 V (Proc.devRef .tc main_v188) = R.P01_eb1 A := by
  rr_results
  rw [h_arg6]
  rfl

/-- The buffer `main_v190` after chunk 18, from contents that hold what the chunk reads. -/
theorem pr_v190 (V : Valuation τ sig (Elt Ideal)) (A : R.Args)
    (h_arg7 : V (Proc.devRef .tc main_arg7) = A.a7) :
    after ops18 V (Proc.devRef .tc main_v190) = R.P01_eW2 A := by
  rr_results
  rw [h_arg7]
  rfl

/-- The buffer `main_v192` after chunk 18, from contents that hold what the chunk reads. -/
theorem pr_v192 (V : Valuation τ sig (Elt Ideal)) (A : R.Args)
    (h_arg8 : V (Proc.devRef .tc main_arg8) = A.a8) :
    after ops18 V (Proc.devRef .tc main_v192) = R.P01_eb2 A := by
  rr_results
  rw [h_arg8]
  rfl

/-- The buffer `main_v194` after chunk 18, from contents that hold what the chunk reads. -/
theorem pr_v194 (V : Valuation τ sig (Elt Ideal)) (A : R.Args)
    (h_arg9 : V (Proc.devRef .tc main_arg9) = A.a9) :
    after ops18 V (Proc.devRef .tc main_v194) = R.P01_nW1 A := by
  rr_results
  rw [h_arg9]
  rfl

/-- The buffer `main_v196` after chunk 18, from contents that hold what the chunk reads. -/
theorem pr_v196 (V : Valuation τ sig (Elt Ideal)) (A : R.Args)
    (h_arg10 : V (Proc.devRef .tc main_arg10) = A.a10) :
    after ops18 V (Proc.devRef .tc main_v196) = R.P01_nb1 A := by
  rr_results
  rw [h_arg10]
  rfl

/-- The buffer `main_v198` after chunk 18, from contents that hold what the chunk reads. -/
theorem pr_v198 (V : Valuation τ sig (Elt Ideal)) (A : R.Args)
    (h_arg11 : V (Proc.devRef .tc main_arg11) = A.a11) :
    after ops18 V (Proc.devRef .tc main_v198) = R.P01_nW2 A := by
  rr_results
  rw [h_arg11]
  rfl

/-- The buffer `main_v200` after chunk 18, from contents that hold what the chunk reads. -/
theorem pr_v200 (V : Valuation τ sig (Elt Ideal)) (A : R.Args)
    (h_arg12 : V (Proc.devRef .tc main_arg12) = A.a12) :
    after ops18 V (Proc.devRef .tc main_v200) = R.P01_nb2 A := by
  rr_results
  rw [h_arg12]
  rfl

/-- The buffer `main_v202` after chunk 18, from contents that hold what the chunk reads. -/
theorem pr_v202 (V : Valuation τ sig (Elt Ideal)) (A : R.Args)
    (h_arg13 : V (Proc.devRef .tc main_arg13) = A.a13) :
    after ops18 V (Proc.devRef .tc main_v202) = R.P01_gW1 A := by
  rr_results
  rw [h_arg13]
  rfl

/-- The buffer `main_v204` after chunk 18, from contents that hold what the chunk reads. -/
theorem pr_v204 (V : Valuation τ sig (Elt Ideal)) (A : R.Args)
    (h_arg14 : V (Proc.devRef .tc main_arg14) = A.a14) :
    after ops18 V (Proc.devRef .tc main_v204) = R.P01_gb1 A := by
  rr_results
  rw [h_arg14]
  rfl

/-- The buffer `main_v206` after chunk 18, from contents that hold what the chunk reads. -/
theorem pr_v206 (V : Valuation τ sig (Elt Ideal)) (A : R.Args)
    (h_arg15 : V (Proc.devRef .tc main_arg15) = A.a15) :
    after ops18 V (Proc.devRef .tc main_v206) = R.P01_gW2 A := by
  rr_results
  rw [h_arg15]
  rfl

/-- The buffer `main_v208` after chunk 18, from contents that hold what the chunk reads. -/
theorem pr_v208 (V : Valuation τ sig (Elt Ideal)) (A : R.Args)
    (h_arg16 : V (Proc.devRef .tc main_arg16) = A.a16) :
    after ops18 V (Proc.devRef .tc main_v208) = R.P01_gb2 A := by
  rr_results
  rw [h_arg16]
  rfl

/-- The buffer `main_v210` after chunk 18, from contents that hold what the chunk reads. -/
theorem pr_v210 (V : Valuation τ sig (Elt Ideal)) (A : R.Args)
    (h_arg5 : V (Proc.devRef .tc main_arg5) = A.a5) :
    after ops18 V (Proc.devRef .tc main_v210) = R.P11_eW1 A := by
  rr_results
  rw [h_arg5]
  rfl

/-- The buffer `main_v212` after chunk 18, from contents that hold what the chunk reads. -/
theorem pr_v212 (V : Valuation τ sig (Elt Ideal)) (A : R.Args)
    (h_arg6 : V (Proc.devRef .tc main_arg6) = A.a6) :
    after ops18 V (Proc.devRef .tc main_v212) = R.P11_eb1 A := by
  rr_results
  rw [h_arg6]
  rfl

/-- The buffer `main_v214` after chunk 19, from contents that hold what the chunk reads. -/
theorem pr_v214 (V : Valuation τ sig (Elt Ideal)) (A : R.Args)
    (h_arg7 : V (Proc.devRef .tc main_arg7) = A.a7) :
    after ops19 V (Proc.devRef .tc main_v214) = R.P11_eW2 A := by
  rr_results
  rw [h_arg7]
  rfl

/-- The buffer `main_v216` after chunk 19, from contents that hold what the chunk reads. -/
theorem pr_v216 (V : Valuation τ sig (Elt Ideal)) (A : R.Args)
    (h_arg8 : V (Proc.devRef .tc main_arg8) = A.a8) :
    after ops19 V (Proc.devRef .tc main_v216) = R.P11_eb2 A := by
  rr_results
  rw [h_arg8]
  rfl

/-- The buffer `main_v218` after chunk 19, from contents that hold what the chunk reads. -/
theorem pr_v218 (V : Valuation τ sig (Elt Ideal)) (A : R.Args)
    (h_arg9 : V (Proc.devRef .tc main_arg9) = A.a9) :
    after ops19 V (Proc.devRef .tc main_v218) = R.P11_nW1 A := by
  rr_results
  rw [h_arg9]
  rfl

/-- The buffer `main_v220` after chunk 19, from contents that hold what the chunk reads. -/
theorem pr_v220 (V : Valuation τ sig (Elt Ideal)) (A : R.Args)
    (h_arg10 : V (Proc.devRef .tc main_arg10) = A.a10) :
    after ops19 V (Proc.devRef .tc main_v220) = R.P11_nb1 A := by
  rr_results
  rw [h_arg10]
  rfl

/-- The buffer `main_v222` after chunk 19, from contents that hold what the chunk reads. -/
theorem pr_v222 (V : Valuation τ sig (Elt Ideal)) (A : R.Args)
    (h_arg11 : V (Proc.devRef .tc main_arg11) = A.a11) :
    after ops19 V (Proc.devRef .tc main_v222) = R.P11_nW2 A := by
  rr_results
  rw [h_arg11]
  rfl

/-- The buffer `main_v224` after chunk 19, from contents that hold what the chunk reads. -/
theorem pr_v224 (V : Valuation τ sig (Elt Ideal)) (A : R.Args)
    (h_arg12 : V (Proc.devRef .tc main_arg12) = A.a12) :
    after ops19 V (Proc.devRef .tc main_v224) = R.P11_nb2 A := by
  rr_results
  rw [h_arg12]
  rfl

/-- The buffer `main_v226` after chunk 19, from contents that hold what the chunk reads. -/
theorem pr_v226 (V : Valuation τ sig (Elt Ideal)) (A : R.Args)
    (h_arg13 : V (Proc.devRef .tc main_arg13) = A.a13) :
    after ops19 V (Proc.devRef .tc main_v226) = R.P11_gW1 A := by
  rr_results
  rw [h_arg13]
  rfl

/-- The buffer `main_v228` after chunk 19, from contents that hold what the chunk reads. -/
theorem pr_v228 (V : Valuation τ sig (Elt Ideal)) (A : R.Args)
    (h_arg14 : V (Proc.devRef .tc main_arg14) = A.a14) :
    after ops19 V (Proc.devRef .tc main_v228) = R.P11_gb1 A := by
  rr_results
  rw [h_arg14]
  rfl

/-- The buffer `main_v230` after chunk 19, from contents that hold what the chunk reads. -/
theorem pr_v230 (V : Valuation τ sig (Elt Ideal)) (A : R.Args)
    (h_arg15 : V (Proc.devRef .tc main_arg15) = A.a15) :
    after ops19 V (Proc.devRef .tc main_v230) = R.P11_gW2 A := by
  rr_results
  rw [h_arg15]
  rfl

/-- The buffer `main_v232` after chunk 19, from contents that hold what the chunk reads. -/
theorem pr_v232 (V : Valuation τ sig (Elt Ideal)) (A : R.Args)
    (h_arg16 : V (Proc.devRef .tc main_arg16) = A.a16) :
    after ops19 V (Proc.devRef .tc main_v232) = R.P11_gb2 A := by
  rr_results
  rw [h_arg16]
  rfl

end Cert.Val.RRead

end
-- ==== Proof.Val.RReadP2.lean ====
import proofs.«426760_j80470507258346_3_alg».proof.Proof.Val.RReadLib
import proofs.«426760_j80470507258346_3_alg».proof.Proof.Val.RReadC

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: the parameters of layer 2

Each theorem reads one buffer after the chunk of operations that writes it, from ANY contents `V` that hold what the
chunk reads: the composed term of the chunk is the named value's definition, or the intermediate buffer's function,
applied to them. -/

-- the big host operations stay closed: two spellings of one stage meet argument by argument
attribute [local irreducible] Host.scatterAdd Host.reduceAdd Host.reduce Host.gather

/-- The buffer `main_v360` after chunk 36, from contents that hold what the chunk reads. -/
theorem pr_v360 (V : Valuation τ sig (Elt Ideal)) (A : R.Args)
    (h_arg5 : V (Proc.devRef .tc main_arg5) = A.a5) :
    after ops36 V (Proc.devRef .tc main_v360) = R.P02_eW1 A := by
  rr_results
  rw [h_arg5]
  rfl

/-- The buffer `main_v362` after chunk 36, from contents that hold what the chunk reads. -/
theorem pr_v362 (V : Valuation τ sig (Elt Ideal)) (A : R.Args)
    (h_arg6 : V (Proc.devRef .tc main_arg6) = A.a6) :
    after ops36 V (Proc.devRef .tc main_v362) = R.P02_eb1 A := by
  rr_results
  rw [h_arg6]
  rfl

/-- The buffer `main_v364` after chunk 36, from contents that hold what the chunk reads. -/
theorem pr_v364 (V : Valuation τ sig (Elt Ideal)) (A : R.Args)
    (h_arg7 : V (Proc.devRef .tc main_arg7) = A.a7) :
    after ops36 V (Proc.devRef .tc main_v364) = R.P02_eW2 A := by
  rr_results
  rw [h_arg7]
  rfl

/-- The buffer `main_v366` after chunk 36, from contents that hold what the chunk reads. -/
theorem pr_v366 (V : Valuation τ sig (Elt Ideal)) (A : R.Args)
    (h_arg8 : V (Proc.devRef .tc main_arg8) = A.a8) :
    after ops36 V (Proc.devRef .tc main_v366) = R.P02_eb2 A := by
  rr_results
  rw [h_arg8]
  rfl

/-- The buffer `main_v368` after chunk 36, from contents that hold what the chunk reads. -/
theorem pr_v368 (V : Valuation τ sig (Elt Ideal)) (A : R.Args)
    (h_arg9 : V (Proc.devRef .tc main_arg9) = A.a9) :
    after ops36 V (Proc.devRef .tc main_v368) = R.P02_nW1 A := by
  rr_results
  rw [h_arg9]
  rfl

/-- The buffer `main_v370` after chunk 37, from contents that hold what the chunk reads. -/
theorem pr_v370 (V : Valuation τ sig (Elt Ideal)) (A : R.Args)
    (h_arg10 : V (Proc.devRef .tc main_arg10) = A.a10) :
    after ops37 V (Proc.devRef .tc main_v370) = R.P02_nb1 A := by
  rr_results
  rw [h_arg10]
  rfl

/-- The buffer `main_v372` after chunk 37, from contents that hold what the chunk reads. -/
theorem pr_v372 (V : Valuation τ sig (Elt Ideal)) (A : R.Args)
    (h_arg11 : V (Proc.devRef .tc main_arg11) = A.a11) :
    after ops37 V (Proc.devRef .tc main_v372) = R.P02_nW2 A := by
  rr_results
  rw [h_arg11]
  rfl

/-- The buffer `main_v374` after chunk 37, from contents that hold what the chunk reads. -/
theorem pr_v374 (V : Valuation τ sig (Elt Ideal)) (A : R.Args)
    (h_arg12 : V (Proc.devRef .tc main_arg12) = A.a12) :
    after ops37 V (Proc.devRef .tc main_v374) = R.P02_nb2 A := by
  rr_results
  rw [h_arg12]
  rfl

/-- The buffer `main_v376` after chunk 37, from contents that hold what the chunk reads. -/
theorem pr_v376 (V : Valuation τ sig (Elt Ideal)) (A : R.Args)
    (h_arg13 : V (Proc.devRef .tc main_arg13) = A.a13) :
    after ops37 V (Proc.devRef .tc main_v376) = R.P02_gW1 A := by
  rr_results
  rw [h_arg13]
  rfl

/-- The buffer `main_v378` after chunk 37, from contents that hold what the chunk reads. -/
theorem pr_v378 (V : Valuation τ sig (Elt Ideal)) (A : R.Args)
    (h_arg14 : V (Proc.devRef .tc main_arg14) = A.a14) :
    after ops37 V (Proc.devRef .tc main_v378) = R.P02_gb1 A := by
  rr_results
  rw [h_arg14]
  rfl

/-- The buffer `main_v380` after chunk 37, from contents that hold what the chunk reads. -/
theorem pr_v380 (V : Valuation τ sig (Elt Ideal)) (A : R.Args)
    (h_arg15 : V (Proc.devRef .tc main_arg15) = A.a15) :
    after ops37 V (Proc.devRef .tc main_v380) = R.P02_gW2 A := by
  rr_results
  rw [h_arg15]
  rfl

/-- The buffer `main_v382` after chunk 37, from contents that hold what the chunk reads. -/
theorem pr_v382 (V : Valuation τ sig (Elt Ideal)) (A : R.Args)
    (h_arg16 : V (Proc.devRef .tc main_arg16) = A.a16) :
    after ops37 V (Proc.devRef .tc main_v382) = R.P02_gb2 A := by
  rr_results
  rw [h_arg16]
  rfl

/-- The buffer `main_v384` after chunk 37, from contents that hold what the chunk reads. -/
theorem pr_v384 (V : Valuation τ sig (Elt Ideal)) (A : R.Args)
    (h_arg5 : V (Proc.devRef .tc main_arg5) = A.a5) :
    after ops37 V (Proc.devRef .tc main_v384) = R.P12_eW1 A := by
  rr_results
  rw [h_arg5]
  rfl

/-- The buffer `main_v386` after chunk 37, from contents that hold what the chunk reads. -/
theorem pr_v386 (V : Valuation τ sig (Elt Ideal)) (A : R.Args)
    (h_arg6 : V (Proc.devRef .tc main_arg6) = A.a6) :
    after ops37 V (Proc.devRef .tc main_v386) = R.P12_eb1 A := by
  rr_results
  rw [h_arg6]
  rfl

/-- The buffer `main_v388` after chunk 37, from contents that hold what the chunk reads. -/
theorem pr_v388 (V : Valuation τ sig (Elt Ideal)) (A : R.Args)
    (h_arg7 : V (Proc.devRef .tc main_arg7) = A.a7) :
    after ops37 V (Proc.devRef .tc main_v388) = R.P12_eW2 A := by
  rr_results
  rw [h_arg7]
  rfl

/-- The buffer `main_v390` after chunk 37, from contents that hold what the chunk reads. -/
theorem pr_v390 (V : Valuation τ sig (Elt Ideal)) (A : R.Args)
    (h_arg8 : V (Proc.devRef .tc main_arg8) = A.a8) :
    after ops37 V (Proc.devRef .tc main_v390) = R.P12_eb2 A := by
  rr_results
  rw [h_arg8]
  rfl

/-- The buffer `main_v392` after chunk 37, from contents that hold what the chunk reads. -/
theorem pr_v392 (V : Valuation τ sig (Elt Ideal)) (A : R.Args)
    (h_arg9 : V (Proc.devRef .tc main_arg9) = A.a9) :
    after ops37 V (Proc.devRef .tc main_v392) = R.P12_nW1 A := by
  rr_results
  rw [h_arg9]
  rfl

/-- The buffer `main_v394` after chunk 37, from contents that hold what the chunk reads. -/
theorem pr_v394 (V : Valuation τ sig (Elt Ideal)) (A : R.Args)
    (h_arg10 : V (Proc.devRef .tc main_arg10) = A.a10) :
    after ops37 V (Proc.devRef .tc main_v394) = R.P12_nb1 A := by
  rr_results
  rw [h_arg10]
  rfl

/-- The buffer `main_v396` after chunk 37, from contents that hold what the chunk reads. -/
theorem pr_v396 (V : Valuation τ sig (Elt Ideal)) (A : R.Args)
    (h_arg11 : V (Proc.devRef .tc main_arg11) = A.a11) :
    after ops37 V (Proc.devRef .tc main_v396) = R.P12_nW2 A := by
  rr_results
  rw [h_arg11]
  rfl

/-- The buffer `main_v398` after chunk 37, from contents that hold what the chunk reads. -/
theorem pr_v398 (V : Valuation τ sig (Elt Ideal)) (A : R.Args)
    (h_arg12 : V (Proc.devRef .tc main_arg12) = A.a12) :
    after ops37 V (Proc.devRef .tc main_v398) = R.P12_nb2 A := by
  rr_results
  rw [h_arg12]
  rfl

/-- The buffer `main_v400` after chunk 37, from contents that hold what the chunk reads. -/
theorem pr_v400 (V : Valuation τ sig (Elt Ideal)) (A : R.Args)
    (h_arg13 : V (Proc.devRef .tc main_arg13) = A.a13) :
    after ops37 V (Proc.devRef .tc main_v400) = R.P12_gW1 A := by
  rr_results
  rw [h_arg13]
  rfl

/-- The buffer `main_v402` after chunk 37, from contents that hold what the chunk reads. -/
theorem pr_v402 (V : Valuation τ sig (Elt Ideal)) (A : R.Args)
    (h_arg14 : V (Proc.devRef .tc main_arg14) = A.a14) :
    after ops37 V (Proc.devRef .tc main_v402) = R.P12_gb1 A := by
  rr_results
  rw [h_arg14]
  rfl

/-- The buffer `main_v404` after chunk 37, from contents that hold what the chunk reads. -/
theorem pr_v404 (V : Valuation τ sig (Elt Ideal)) (A : R.Args)
    (h_arg15 : V (Proc.devRef .tc main_arg15) = A.a15) :
    after ops37 V (Proc.devRef .tc main_v404) = R.P12_gW2 A := by
  rr_results
  rw [h_arg15]
  rfl

/-- The buffer `main_v406` after chunk 37, from contents that hold what the chunk reads. -/
theorem pr_v406 (V : Valuation τ sig (Elt Ideal)) (A : R.Args)
    (h_arg16 : V (Proc.devRef .tc main_arg16) = A.a16) :
    after ops37 V (Proc.devRef .tc main_v406) = R.P12_gb2 A := by
  rr_results
  rw [h_arg16]
  rfl

end Cert.Val.RRead

end
-- ==== Proof.Val.RReadS0.lean ====
import proofs.«426760_j80470507258346_3_alg».proof.Proof.Val.RReadLib
import proofs.«426760_j80470507258346_3_alg».proof.Proof.Val.RReadC

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: layer 0, lower block

Each theorem reads one buffer after the chunk of operations that writes it, from ANY contents `V` that hold what the
chunk reads: the composed term of the chunk is the named value's definition, or the intermediate buffer's function,
applied to them. -/

-- the big host operations stay closed: two spellings of one stage meet argument by argument
attribute [local irreducible] Host.scatterAdd Host.reduceAdd Host.reduce Host.gather

/-- The buffer `main_v60` after chunk 2, from contents that hold what the chunk reads. -/
theorem rd_v60 (V : Valuation τ sig (Elt Ideal)) (A : R.Args)
    (h_v8 : V (Proc.devRef .tc main_v8) = R.g0) :
    after ops2 V (Proc.devRef .tc main_v60) = C_v60 (F := Ideal) (R.g0) := by
  rr_results
  rw [h_v8]
  rfl

/-- The buffer `main_v67` after chunk 2, from contents that hold what the chunk reads. -/
theorem rd_v67 (V : Valuation τ sig (Elt Ideal)) (A : R.Args)
    (h_arg0 : V (Proc.devRef .tc main_arg0) = A.a0)
    (h_v1 : V (Proc.devRef .tc main_v1) = R.lr A) :
    after ops2 V (Proc.devRef .tc main_v67) = C_v67 (F := Ideal) (A.a0) (R.lr A) := by
  rr_results
  rw [h_arg0, h_v1]
  rfl

/-- The buffer `main_v74` after chunk 2, from contents that hold what the chunk reads. -/
theorem rd_v74 (V : Valuation τ sig (Elt Ideal)) (A : R.Args)
    (h_arg0 : V (Proc.devRef .tc main_arg0) = A.a0)
    (h_v3 : V (Proc.devRef .tc main_v3) = R.lc A) :
    after ops2 V (Proc.devRef .tc main_v74) = C_v74 (F := Ideal) (A.a0) (R.lc A) := by
  rr_results
  rw [h_arg0, h_v3]
  rfl

/-- The buffer `main_v59` after chunk 2, from contents that hold what the chunk reads. -/
theorem rd_v59 (V : Valuation τ sig (Elt Ideal)) (A : R.Args)
    (h_arg3 : V (Proc.devRef .tc main_arg3) = A.a3)
    (h_v9 : V (Proc.devRef .tc main_v9) = R.zcol) :
    after ops2 V (Proc.devRef .tc main_v59) = C_v59 (F := Ideal) (A.a3) (R.zcol) := by
  rr_results
  rw [h_arg3, h_v9]
  rfl

/-- The buffer `main_v84` after chunk 3, from contents that hold what the chunk reads. -/
theorem st_le1 (V : Valuation τ sig (Elt Ideal)) (A : R.Args)
    (h_v60 : V (Proc.devRef .tc main_v60) = C_v60 (F := Ideal) (R.g0))
    (h_v67 : V (Proc.devRef .tc main_v67) = C_v67 (F := Ideal) (A.a0) (R.lr A))
    (h_v74 : V (Proc.devRef .tc main_v74) = C_v74 (F := Ideal) (A.a0) (R.lc A))
    (h_v59 : V (Proc.devRef .tc main_v59) = C_v59 (F := Ideal) (A.a3) (R.zcol))
    (h_v12 : V (Proc.devRef .tc main_v12) = R.P00_eW1 A)
    (h_v14 : V (Proc.devRef .tc main_v14) = R.P00_eb1 A)
    (h_v16 : V (Proc.devRef .tc main_v16) = R.P00_eW2 A)
    (h_v18 : V (Proc.devRef .tc main_v18) = R.P00_eb2 A) :
    after ops3 V (Proc.devRef .tc main_v84) = R.le1 A := by
  rr_results
  rw [h_v60, h_v67, h_v74, h_v59, h_v12, h_v14, h_v16, h_v18]
  rfl

/-- The buffer `main_v94` after chunk 4, from contents that hold what the chunk reads. -/
theorem st_la1 (V : Valuation τ sig (Elt Ideal)) (A : R.Args)
    (h_v1 : V (Proc.devRef .tc main_v1) = R.lr A)
    (h_v84 : V (Proc.devRef .tc main_v84) = R.le1 A) :
    after ops4 V (Proc.devRef .tc main_v94) = R.la1 A := by
  rr_results
  rw [h_v1, h_v84]
  rfl

/-- The buffer `main_v95` after chunk 5, from contents that hold what the chunk reads. -/
theorem rd_v95 (V : Valuation τ sig (Elt Ideal)) (A : R.Args)
    (h_v8 : V (Proc.devRef .tc main_v8) = R.g0) :
    after ops5 V (Proc.devRef .tc main_v95) = C_v95 (F := Ideal) (R.g0) := by
  rr_results
  rw [h_v8]
  rfl

/-- The buffer `main_v105` after chunk 6, from contents that hold what the chunk reads. -/
theorem st_ln1 (V : Valuation τ sig (Elt Ideal)) (A : R.Args)
    (h_v95 : V (Proc.devRef .tc main_v95) = C_v95 (F := Ideal) (R.g0))
    (h_arg0 : V (Proc.devRef .tc main_arg0) = A.a0)
    (h_v94 : V (Proc.devRef .tc main_v94) = R.la1 A)
    (h_v20 : V (Proc.devRef .tc main_v20) = R.P00_nW1 A)
    (h_v22 : V (Proc.devRef .tc main_v22) = R.P00_nb1 A)
    (h_v24 : V (Proc.devRef .tc main_v24) = R.P00_nW2 A)
    (h_v26 : V (Proc.devRef .tc main_v26) = R.P00_nb2 A) :
    after ops6 V (Proc.devRef .tc main_v105) = R.ln1 A := by
  rr_results
  rw [h_v95, h_arg0, h_v94, h_v20, h_v22, h_v24, h_v26]
  rfl

/-- The buffer `main_v107` after chunk 7, from contents that hold what the chunk reads. -/
theorem rd_v107 (V : Valuation τ sig (Elt Ideal)) (A : R.Args)
    (h_v105 : V (Proc.devRef .tc main_v105) = R.ln1 A) :
    after ops7 V (Proc.devRef .tc main_v107) = C_v107 (F := Ideal) (R.ln1 A) := by
  rr_results
  rw [h_v105]
  rfl

/-- The buffer `main_v109` after chunk 8, from contents that hold what the chunk reads. -/
theorem rd_v109 (V : Valuation τ sig (Elt Ideal)) (A : R.Args)
    (h_v107 : V (Proc.devRef .tc main_v107) = C_v107 (F := Ideal) (R.ln1 A)) :
    after ops8 V (Proc.devRef .tc main_v109) = C_v109 (F := Ideal) (C_v107 (F := Ideal) (R.ln1 A)) := by
  rr_results
  rw [h_v107]
  rfl

/-- The buffer `main_v113` after chunk 8, from contents that hold what the chunk reads. -/
theorem rd_v113 (V : Valuation τ sig (Elt Ideal)) (A : R.Args)
    (h_v84 : V (Proc.devRef .tc main_v84) = R.le1 A) :
    after ops8 V (Proc.devRef .tc main_v113) = C_v113 (F := Ideal) (R.le1 A) := by
  rr_results
  rw [h_v84]
  rfl

/-- The buffer `main_v121` after chunk 9, from contents that hold what the chunk reads. -/
theorem st_g1 (V : Valuation τ sig (Elt Ideal)) (A : R.Args)
    (h_v109 : V (Proc.devRef .tc main_v109) = C_v109 (F := Ideal) (C_v107 (F := Ideal) (R.ln1 A)))
    (h_v113 : V (Proc.devRef .tc main_v113) = C_v113 (F := Ideal) (R.le1 A))
    (h_v8 : V (Proc.devRef .tc main_v8) = R.g0)
    (h_v28 : V (Proc.devRef .tc main_v28) = R.P00_gW1 A)
    (h_v30 : V (Proc.devRef .tc main_v30) = R.P00_gb1 A)
    (h_v32 : V (Proc.devRef .tc main_v32) = R.P00_gW2 A)
    (h_v34 : V (Proc.devRef .tc main_v34) = R.P00_gb2 A) :
    after ops9 V (Proc.devRef .tc main_v121) = R.g1 A := by
  rr_results
  rw [h_v109, h_v113, h_v8, h_v28, h_v30, h_v32, h_v34]
  rfl

end Cert.Val.RRead

end
-- ==== Proof.Val.RReadS1.lean ====
import proofs.«426760_j80470507258346_3_alg».proof.Proof.Val.RReadLib
import proofs.«426760_j80470507258346_3_alg».proof.Proof.Val.RReadC

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: layer 0, upper block

Each theorem reads one buffer after the chunk of operations that writes it, from ANY contents `V` that hold what the
chunk reads: the composed term of the chunk is the named value's definition, or the intermediate buffer's function,
applied to them. -/

-- the big host operations stay closed: two spellings of one stage meet argument by argument
attribute [local irreducible] Host.scatterAdd Host.reduceAdd Host.reduce Host.gather

/-- The buffer `main_v123` after chunk 10, from contents that hold what the chunk reads. -/
theorem rd_v123 (V : Valuation τ sig (Elt Ideal)) (A : R.Args)
    (h_v121 : V (Proc.devRef .tc main_v121) = R.g1 A) :
    after ops10 V (Proc.devRef .tc main_v123) = C_v123 (F := Ideal) (R.g1 A) := by
  rr_results
  rw [h_v121]
  rfl

/-- The buffer `main_v130` after chunk 10, from contents that hold what the chunk reads. -/
theorem rd_v130 (V : Valuation τ sig (Elt Ideal)) (A : R.Args)
    (h_v105 : V (Proc.devRef .tc main_v105) = R.ln1 A)
    (h_v5 : V (Proc.devRef .tc main_v5) = R.ur A) :
    after ops10 V (Proc.devRef .tc main_v130) = C_v130 (F := Ideal) (R.ln1 A) (R.ur A) := by
  rr_results
  rw [h_v105, h_v5]
  rfl

/-- The buffer `main_v137` after chunk 10, from contents that hold what the chunk reads. -/
theorem rd_v137 (V : Valuation τ sig (Elt Ideal)) (A : R.Args)
    (h_v105 : V (Proc.devRef .tc main_v105) = R.ln1 A)
    (h_v7 : V (Proc.devRef .tc main_v7) = R.uc A) :
    after ops10 V (Proc.devRef .tc main_v137) = C_v137 (F := Ideal) (R.ln1 A) (R.uc A) := by
  rr_results
  rw [h_v105, h_v7]
  rfl

/-- The buffer `main_v122` after chunk 10, from contents that hold what the chunk reads. -/
theorem rd_v122 (V : Valuation τ sig (Elt Ideal)) (A : R.Args)
    (h_arg4 : V (Proc.devRef .tc main_arg4) = A.a4)
    (h_v10 : V (Proc.devRef .tc main_v10) = R.zcol) :
    after ops10 V (Proc.devRef .tc main_v122) = C_v122 (F := Ideal) (A.a4) (R.zcol) := by
  rr_results
  rw [h_arg4, h_v10]
  rfl

/-- The buffer `main_v147` after chunk 11, from contents that hold what the chunk reads. -/
theorem st_ue1 (V : Valuation τ sig (Elt Ideal)) (A : R.Args)
    (h_v123 : V (Proc.devRef .tc main_v123) = C_v123 (F := Ideal) (R.g1 A))
    (h_v130 : V (Proc.devRef .tc main_v130) = C_v130 (F := Ideal) (R.ln1 A) (R.ur A))
    (h_v137 : V (Proc.devRef .tc main_v137) = C_v137 (F := Ideal) (R.ln1 A) (R.uc A))
    (h_v122 : V (Proc.devRef .tc main_v122) = C_v122 (F := Ideal) (A.a4) (R.zcol))
    (h_v36 : V (Proc.devRef .tc main_v36) = R.P10_eW1 A)
    (h_v38 : V (Proc.devRef .tc main_v38) = R.P10_eb1 A)
    (h_v40 : V (Proc.devRef .tc main_v40) = R.P10_eW2 A)
    (h_v42 : V (Proc.devRef .tc main_v42) = R.P10_eb2 A) :
    after ops11 V (Proc.devRef .tc main_v147) = R.ue1 A := by
  rr_results
  rw [h_v123, h_v130, h_v137, h_v122, h_v36, h_v38, h_v40, h_v42]
  rfl

/-- The buffer `main_v150` after chunk 12, from contents that hold what the chunk reads. -/
theorem rd_v150 (V : Valuation τ sig (Elt Ideal)) (A : R.Args)
    (h_v5 : V (Proc.devRef .tc main_v5) = R.ur A)
    (h_v147 : V (Proc.devRef .tc main_v147) = R.ue1 A) :
    after ops12 V (Proc.devRef .tc main_v150) = C_v150 (F := Ideal) (R.ur A) (R.ue1 A) := by
  rr_results
  rw [h_v5, h_v147]
  rfl

/-- The buffer `main_v156` after chunk 12, from contents that hold what the chunk reads. -/
theorem rd_v156 (V : Valuation τ sig (Elt Ideal)) (A : R.Args)
    (h_v5 : V (Proc.devRef .tc main_v5) = R.ur A) :
    after ops12 V (Proc.devRef .tc main_v156) = C_v156 (F := Ideal) (R.ur A) := by
  rr_results
  rw [h_v5]
  rfl

/-- The buffer `main_v157` after chunk 13, from contents that hold what the chunk reads. -/
theorem st_ua1 (V : Valuation τ sig (Elt Ideal)) (A : R.Args)
    (h_v150 : V (Proc.devRef .tc main_v150) = C_v150 (F := Ideal) (R.ur A) (R.ue1 A))
    (h_v156 : V (Proc.devRef .tc main_v156) = C_v156 (F := Ideal) (R.ur A)) :
    after ops13 V (Proc.devRef .tc main_v157) = R.ua1 A := by
  rr_results
  rw [h_v150, h_v156]
  rfl

/-- The buffer `main_v158` after chunk 14, from contents that hold what the chunk reads. -/
theorem rd_v158 (V : Valuation τ sig (Elt Ideal)) (A : R.Args)
    (h_v121 : V (Proc.devRef .tc main_v121) = R.g1 A) :
    after ops14 V (Proc.devRef .tc main_v158) = C_v158 (F := Ideal) (R.g1 A) := by
  rr_results
  rw [h_v121]
  rfl

/-- The buffer `main_v168` after chunk 15, from contents that hold what the chunk reads. -/
theorem st_un1 (V : Valuation τ sig (Elt Ideal)) (A : R.Args)
    (h_v158 : V (Proc.devRef .tc main_v158) = C_v158 (F := Ideal) (R.g1 A))
    (h_v105 : V (Proc.devRef .tc main_v105) = R.ln1 A)
    (h_v157 : V (Proc.devRef .tc main_v157) = R.ua1 A)
    (h_v44 : V (Proc.devRef .tc main_v44) = R.P10_nW1 A)
    (h_v46 : V (Proc.devRef .tc main_v46) = R.P10_nb1 A)
    (h_v48 : V (Proc.devRef .tc main_v48) = R.P10_nW2 A)
    (h_v50 : V (Proc.devRef .tc main_v50) = R.P10_nb2 A) :
    after ops15 V (Proc.devRef .tc main_v168) = R.un1 A := by
  rr_results
  rw [h_v158, h_v105, h_v157, h_v44, h_v46, h_v48, h_v50]
  rfl

/-- The buffer `main_v172` after chunk 16, from contents that hold what the chunk reads. -/
theorem rd_v172 (V : Valuation τ sig (Elt Ideal)) (A : R.Args)
    (h_v168 : V (Proc.devRef .tc main_v168) = R.un1 A) :
    after ops16 V (Proc.devRef .tc main_v172) = C_v172 (F := Ideal) (R.un1 A) := by
  rr_results
  rw [h_v168]
  rfl

/-- The buffer `main_v176` after chunk 16, from contents that hold what the chunk reads. -/
theorem rd_v176 (V : Valuation τ sig (Elt Ideal)) (A : R.Args)
    (h_v147 : V (Proc.devRef .tc main_v147) = R.ue1 A) :
    after ops16 V (Proc.devRef .tc main_v176) = C_v176 (F := Ideal) (R.ue1 A) := by
  rr_results
  rw [h_v147]
  rfl

/-- The buffer `main_v184` after chunk 17, from contents that hold what the chunk reads. -/
theorem st_g2 (V : Valuation τ sig (Elt Ideal)) (A : R.Args)
    (h_v172 : V (Proc.devRef .tc main_v172) = C_v172 (F := Ideal) (R.un1 A))
    (h_v176 : V (Proc.devRef .tc main_v176) = C_v176 (F := Ideal) (R.ue1 A))
    (h_v121 : V (Proc.devRef .tc main_v121) = R.g1 A)
    (h_v52 : V (Proc.devRef .tc main_v52) = R.P10_gW1 A)
    (h_v54 : V (Proc.devRef .tc main_v54) = R.P10_gb1 A)
    (h_v56 : V (Proc.devRef .tc main_v56) = R.P10_gW2 A)
    (h_v58 : V (Proc.devRef .tc main_v58) = R.P10_gb2 A) :
    after ops17 V (Proc.devRef .tc main_v184) = R.g2 A := by
  rr_results
  rw [h_v172, h_v176, h_v121, h_v52, h_v54, h_v56, h_v58]
  rfl

end Cert.Val.RRead

end
-- ==== Proof.Val.RReadS2.lean ====
import proofs.«426760_j80470507258346_3_alg».proof.Proof.Val.RReadLib
import proofs.«426760_j80470507258346_3_alg».proof.Proof.Val.RReadC

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: layer 1, lower block

Each theorem reads one buffer after the chunk of operations that writes it, from ANY contents `V` that hold what the
chunk reads: the composed term of the chunk is the named value's definition, or the intermediate buffer's function,
applied to them. -/

-- the big host operations stay closed: two spellings of one stage meet argument by argument
attribute [local irreducible] Host.scatterAdd Host.reduceAdd Host.reduce Host.gather

/-- The buffer `main_v234` after chunk 20, from contents that hold what the chunk reads. -/
theorem rd_v234 (V : Valuation τ sig (Elt Ideal)) (A : R.Args)
    (h_v184 : V (Proc.devRef .tc main_v184) = R.g2 A) :
    after ops20 V (Proc.devRef .tc main_v234) = C_v234 (F := Ideal) (R.g2 A) := by
  rr_results
  rw [h_v184]
  rfl

/-- The buffer `main_v241` after chunk 20, from contents that hold what the chunk reads. -/
theorem rd_v241 (V : Valuation τ sig (Elt Ideal)) (A : R.Args)
    (h_arg0 : V (Proc.devRef .tc main_arg0) = A.a0)
    (h_v1 : V (Proc.devRef .tc main_v1) = R.lr A) :
    after ops20 V (Proc.devRef .tc main_v241) = C_v241 (F := Ideal) (A.a0) (R.lr A) := by
  rr_results
  rw [h_arg0, h_v1]
  rfl

/-- The buffer `main_v248` after chunk 20, from contents that hold what the chunk reads. -/
theorem rd_v248 (V : Valuation τ sig (Elt Ideal)) (A : R.Args)
    (h_arg0 : V (Proc.devRef .tc main_arg0) = A.a0)
    (h_v3 : V (Proc.devRef .tc main_v3) = R.lc A) :
    after ops20 V (Proc.devRef .tc main_v248) = C_v248 (F := Ideal) (A.a0) (R.lc A) := by
  rr_results
  rw [h_arg0, h_v3]
  rfl

/-- The buffer `main_v233` after chunk 20, from contents that hold what the chunk reads. -/
theorem rd_v233 (V : Valuation τ sig (Elt Ideal)) (A : R.Args)
    (h_v84 : V (Proc.devRef .tc main_v84) = R.le1 A)
    (h_arg3 : V (Proc.devRef .tc main_arg3) = A.a3) :
    after ops20 V (Proc.devRef .tc main_v233) = C_v233 (F := Ideal) (R.le1 A) (A.a3) := by
  rr_results
  rw [h_v84, h_arg3]
  rfl

/-- The buffer `main_v258` after chunk 21, from contents that hold what the chunk reads. -/
theorem st_le2 (V : Valuation τ sig (Elt Ideal)) (A : R.Args)
    (h_v234 : V (Proc.devRef .tc main_v234) = C_v234 (F := Ideal) (R.g2 A))
    (h_v241 : V (Proc.devRef .tc main_v241) = C_v241 (F := Ideal) (A.a0) (R.lr A))
    (h_v248 : V (Proc.devRef .tc main_v248) = C_v248 (F := Ideal) (A.a0) (R.lc A))
    (h_v233 : V (Proc.devRef .tc main_v233) = C_v233 (F := Ideal) (R.le1 A) (A.a3))
    (h_v186 : V (Proc.devRef .tc main_v186) = R.P01_eW1 A)
    (h_v188 : V (Proc.devRef .tc main_v188) = R.P01_eb1 A)
    (h_v190 : V (Proc.devRef .tc main_v190) = R.P01_eW2 A)
    (h_v192 : V (Proc.devRef .tc main_v192) = R.P01_eb2 A) :
    after ops21 V (Proc.devRef .tc main_v258) = R.le2 A := by
  rr_results
  rw [h_v234, h_v241, h_v248, h_v233, h_v186, h_v188, h_v190, h_v192]
  rfl

/-- The buffer `main_v265` after chunk 22, from contents that hold what the chunk reads. -/
theorem rd_v265 (V : Valuation τ sig (Elt Ideal)) (A : R.Args)
    (h_v1 : V (Proc.devRef .tc main_v1) = R.lr A) :
    after ops22 V (Proc.devRef .tc main_v265) = C_v265 (F := Ideal) (R.lr A) := by
  rr_results
  rw [h_v1]
  rfl

/-- The buffer `main_v261` after chunk 22, from contents that hold what the chunk reads. -/
theorem rd_v261 (V : Valuation τ sig (Elt Ideal)) (A : R.Args)
    (h_v1 : V (Proc.devRef .tc main_v1) = R.lr A)
    (h_v258 : V (Proc.devRef .tc main_v258) = R.le2 A) :
    after ops22 V (Proc.devRef .tc main_v261) = C_v261 (F := Ideal) (R.lr A) (R.le2 A) := by
  rr_results
  rw [h_v1, h_v258]
  rfl

/-- The buffer `main_v268` after chunk 23, from contents that hold what the chunk reads. -/
theorem st_la2 (V : Valuation τ sig (Elt Ideal)) (A : R.Args)
    (h_v261 : V (Proc.devRef .tc main_v261) = C_v261 (F := Ideal) (R.lr A) (R.le2 A))
    (h_v265 : V (Proc.devRef .tc main_v265) = C_v265 (F := Ideal) (R.lr A)) :
    after ops23 V (Proc.devRef .tc main_v268) = R.la2 A := by
  rr_results
  rw [h_v261, h_v265]
  rfl

/-- The buffer `main_v269` after chunk 24, from contents that hold what the chunk reads. -/
theorem rd_v269 (V : Valuation τ sig (Elt Ideal)) (A : R.Args)
    (h_v184 : V (Proc.devRef .tc main_v184) = R.g2 A) :
    after ops24 V (Proc.devRef .tc main_v269) = C_v269 (F := Ideal) (R.g2 A) := by
  rr_results
  rw [h_v184]
  rfl

/-- The buffer `main_v279` after chunk 25, from contents that hold what the chunk reads. -/
theorem st_ln2 (V : Valuation τ sig (Elt Ideal)) (A : R.Args)
    (h_v269 : V (Proc.devRef .tc main_v269) = C_v269 (F := Ideal) (R.g2 A))
    (h_arg0 : V (Proc.devRef .tc main_arg0) = A.a0)
    (h_v268 : V (Proc.devRef .tc main_v268) = R.la2 A)
    (h_v194 : V (Proc.devRef .tc main_v194) = R.P01_nW1 A)
    (h_v196 : V (Proc.devRef .tc main_v196) = R.P01_nb1 A)
    (h_v198 : V (Proc.devRef .tc main_v198) = R.P01_nW2 A)
    (h_v200 : V (Proc.devRef .tc main_v200) = R.P01_nb2 A) :
    after ops25 V (Proc.devRef .tc main_v279) = R.ln2 A := by
  rr_results
  rw [h_v269, h_arg0, h_v268, h_v194, h_v196, h_v198, h_v200]
  rfl

/-- The buffer `main_v283` after chunk 26, from contents that hold what the chunk reads. -/
theorem rd_v283 (V : Valuation τ sig (Elt Ideal)) (A : R.Args)
    (h_v279 : V (Proc.devRef .tc main_v279) = R.ln2 A) :
    after ops26 V (Proc.devRef .tc main_v283) = C_v283 (F := Ideal) (R.ln2 A) := by
  rr_results
  rw [h_v279]
  rfl

/-- The buffer `main_v287` after chunk 26, from contents that hold what the chunk reads. -/
theorem rd_v287 (V : Valuation τ sig (Elt Ideal)) (A : R.Args)
    (h_v258 : V (Proc.devRef .tc main_v258) = R.le2 A) :
    after ops26 V (Proc.devRef .tc main_v287) = C_v287 (F := Ideal) (R.le2 A) := by
  rr_results
  rw [h_v258]
  rfl

/-- The buffer `main_v295` after chunk 27, from contents that hold what the chunk reads. -/
theorem st_g3 (V : Valuation τ sig (Elt Ideal)) (A : R.Args)
    (h_v283 : V (Proc.devRef .tc main_v283) = C_v283 (F := Ideal) (R.ln2 A))
    (h_v287 : V (Proc.devRef .tc main_v287) = C_v287 (F := Ideal) (R.le2 A))
    (h_v184 : V (Proc.devRef .tc main_v184) = R.g2 A)
    (h_v202 : V (Proc.devRef .tc main_v202) = R.P01_gW1 A)
    (h_v204 : V (Proc.devRef .tc main_v204) = R.P01_gb1 A)
    (h_v206 : V (Proc.devRef .tc main_v206) = R.P01_gW2 A)
    (h_v208 : V (Proc.devRef .tc main_v208) = R.P01_gb2 A) :
    after ops27 V (Proc.devRef .tc main_v295) = R.g3 A := by
  rr_results
  rw [h_v283, h_v287, h_v184, h_v202, h_v204, h_v206, h_v208]
  rfl

end Cert.Val.RRead

end
-- ==== Proof.Val.RReadS3.lean ====
import proofs.«426760_j80470507258346_3_alg».proof.Proof.Val.RReadLib
import proofs.«426760_j80470507258346_3_alg».proof.Proof.Val.RReadC

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: layer 1, upper block

Each theorem reads one buffer after the chunk of operations that writes it, from ANY contents `V` that hold what the
chunk reads: the composed term of the chunk is the named value's definition, or the intermediate buffer's function,
applied to them. -/

-- the big host operations stay closed: two spellings of one stage meet argument by argument
attribute [local irreducible] Host.scatterAdd Host.reduceAdd Host.reduce Host.gather

/-- The buffer `main_v297` after chunk 28, from contents that hold what the chunk reads. -/
theorem rd_v297 (V : Valuation τ sig (Elt Ideal)) (A : R.Args)
    (h_v295 : V (Proc.devRef .tc main_v295) = R.g3 A) :
    after ops28 V (Proc.devRef .tc main_v297) = C_v297 (F := Ideal) (R.g3 A) := by
  rr_results
  rw [h_v295]
  rfl

/-- The buffer `main_v304` after chunk 28, from contents that hold what the chunk reads. -/
theorem rd_v304 (V : Valuation τ sig (Elt Ideal)) (A : R.Args)
    (h_v279 : V (Proc.devRef .tc main_v279) = R.ln2 A)
    (h_v5 : V (Proc.devRef .tc main_v5) = R.ur A) :
    after ops28 V (Proc.devRef .tc main_v304) = C_v304 (F := Ideal) (R.ln2 A) (R.ur A) := by
  rr_results
  rw [h_v279, h_v5]
  rfl

/-- The buffer `main_v311` after chunk 28, from contents that hold what the chunk reads. -/
theorem rd_v311 (V : Valuation τ sig (Elt Ideal)) (A : R.Args)
    (h_v279 : V (Proc.devRef .tc main_v279) = R.ln2 A)
    (h_v7 : V (Proc.devRef .tc main_v7) = R.uc A) :
    after ops28 V (Proc.devRef .tc main_v311) = C_v311 (F := Ideal) (R.ln2 A) (R.uc A) := by
  rr_results
  rw [h_v279, h_v7]
  rfl

/-- The buffer `main_v296` after chunk 28, from contents that hold what the chunk reads. -/
theorem rd_v296 (V : Valuation τ sig (Elt Ideal)) (A : R.Args)
    (h_v147 : V (Proc.devRef .tc main_v147) = R.ue1 A)
    (h_v10 : V (Proc.devRef .tc main_v10) = R.zcol) :
    after ops28 V (Proc.devRef .tc main_v296) = C_v296 (F := Ideal) (R.ue1 A) (R.zcol) := by
  rr_results
  rw [h_v147, h_v10]
  rfl

/-- The buffer `main_v316` after chunk 29, from contents that hold what the chunk reads. -/
theorem rd_v316 (V : Valuation τ sig (Elt Ideal)) (A : R.Args)
    (h_v297 : V (Proc.devRef .tc main_v297) = C_v297 (F := Ideal) (R.g3 A))
    (h_v304 : V (Proc.devRef .tc main_v304) = C_v304 (F := Ideal) (R.ln2 A) (R.ur A))
    (h_v311 : V (Proc.devRef .tc main_v311) = C_v311 (F := Ideal) (R.ln2 A) (R.uc A))
    (h_v296 : V (Proc.devRef .tc main_v296) = C_v296 (F := Ideal) (R.ue1 A) (R.zcol))
    (h_v210 : V (Proc.devRef .tc main_v210) = R.P11_eW1 A)
    (h_v212 : V (Proc.devRef .tc main_v212) = R.P11_eb1 A) :
    after ops29 V (Proc.devRef .tc main_v316) = C_v316 (F := Ideal) (C_v297 (F := Ideal) (R.g3 A)) (C_v304 (F := Ideal) (R.ln2 A) (R.ur A)) (C_v311 (F := Ideal) (R.ln2 A) (R.uc A)) (C_v296 (F := Ideal) (R.ue1 A) (R.zcol)) (R.P11_eW1 A) (R.P11_eb1 A) := by
  rr_results
  rw [h_v297, h_v304, h_v311, h_v296, h_v210, h_v212]
  rfl

/-- The buffer `main_v321` after chunk 30, from contents that hold what the chunk reads. -/
theorem st_ue2 (V : Valuation τ sig (Elt Ideal)) (A : R.Args)
    (h_v316 : V (Proc.devRef .tc main_v316) = C_v316 (F := Ideal) (C_v297 (F := Ideal) (R.g3 A)) (C_v304 (F := Ideal) (R.ln2 A) (R.ur A)) (C_v311 (F := Ideal) (R.ln2 A) (R.uc A)) (C_v296 (F := Ideal) (R.ue1 A) (R.zcol)) (R.P11_eW1 A) (R.P11_eb1 A))
    (h_v214 : V (Proc.devRef .tc main_v214) = R.P11_eW2 A)
    (h_v216 : V (Proc.devRef .tc main_v216) = R.P11_eb2 A) :
    after ops30 V (Proc.devRef .tc main_v321) = R.ue2 A := by
  rr_results
  rw [h_v316, h_v214, h_v216]
  rfl

/-- The buffer `main_v331` after chunk 31, from contents that hold what the chunk reads. -/
theorem st_ua2 (V : Valuation τ sig (Elt Ideal)) (A : R.Args)
    (h_v5 : V (Proc.devRef .tc main_v5) = R.ur A)
    (h_v321 : V (Proc.devRef .tc main_v321) = R.ue2 A) :
    after ops31 V (Proc.devRef .tc main_v331) = R.ua2 A := by
  rr_results
  rw [h_v5, h_v321]
  rfl

/-- The buffer `main_v332` after chunk 32, from contents that hold what the chunk reads. -/
theorem rd_v332 (V : Valuation τ sig (Elt Ideal)) (A : R.Args)
    (h_v295 : V (Proc.devRef .tc main_v295) = R.g3 A) :
    after ops32 V (Proc.devRef .tc main_v332) = C_v332 (F := Ideal) (R.g3 A) := by
  rr_results
  rw [h_v295]
  rfl

/-- The buffer `main_v342` after chunk 33, from contents that hold what the chunk reads. -/
theorem st_un2 (V : Valuation τ sig (Elt Ideal)) (A : R.Args)
    (h_v332 : V (Proc.devRef .tc main_v332) = C_v332 (F := Ideal) (R.g3 A))
    (h_v279 : V (Proc.devRef .tc main_v279) = R.ln2 A)
    (h_v331 : V (Proc.devRef .tc main_v331) = R.ua2 A)
    (h_v218 : V (Proc.devRef .tc main_v218) = R.P11_nW1 A)
    (h_v220 : V (Proc.devRef .tc main_v220) = R.P11_nb1 A)
    (h_v222 : V (Proc.devRef .tc main_v222) = R.P11_nW2 A)
    (h_v224 : V (Proc.devRef .tc main_v224) = R.P11_nb2 A) :
    after ops33 V (Proc.devRef .tc main_v342) = R.un2 A := by
  rr_results
  rw [h_v332, h_v279, h_v331, h_v218, h_v220, h_v222, h_v224]
  rfl

/-- The buffer `main_v346` after chunk 34, from contents that hold what the chunk reads. -/
theorem rd_v346 (V : Valuation τ sig (Elt Ideal)) (A : R.Args)
    (h_v342 : V (Proc.devRef .tc main_v342) = R.un2 A) :
    after ops34 V (Proc.devRef .tc main_v346) = C_v346 (F := Ideal) (R.un2 A) := by
  rr_results
  rw [h_v342]
  rfl

/-- The buffer `main_v350` after chunk 34, from contents that hold what the chunk reads. -/
theorem rd_v350 (V : Valuation τ sig (Elt Ideal)) (A : R.Args)
    (h_v321 : V (Proc.devRef .tc main_v321) = R.ue2 A) :
    after ops34 V (Proc.devRef .tc main_v350) = C_v350 (F := Ideal) (R.ue2 A) := by
  rr_results
  rw [h_v321]
  rfl

/-- The buffer `main_v358` after chunk 35, from contents that hold what the chunk reads. -/
theorem st_g4 (V : Valuation τ sig (Elt Ideal)) (A : R.Args)
    (h_v346 : V (Proc.devRef .tc main_v346) = C_v346 (F := Ideal) (R.un2 A))
    (h_v350 : V (Proc.devRef .tc main_v350) = C_v350 (F := Ideal) (R.ue2 A))
    (h_v295 : V (Proc.devRef .tc main_v295) = R.g3 A)
    (h_v226 : V (Proc.devRef .tc main_v226) = R.P11_gW1 A)
    (h_v228 : V (Proc.devRef .tc main_v228) = R.P11_gb1 A)
    (h_v230 : V (Proc.devRef .tc main_v230) = R.P11_gW2 A)
    (h_v232 : V (Proc.devRef .tc main_v232) = R.P11_gb2 A) :
    after ops35 V (Proc.devRef .tc main_v358) = R.g4 A := by
  rr_results
  rw [h_v346, h_v350, h_v295, h_v226, h_v228, h_v230, h_v232]
  rfl

end Cert.Val.RRead

end
-- ==== Proof.Val.RReadS4.lean ====
import proofs.«426760_j80470507258346_3_alg».proof.Proof.Val.RReadLib
import proofs.«426760_j80470507258346_3_alg».proof.Proof.Val.RReadC

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: layer 2, lower block

Each theorem reads one buffer after the chunk of operations that writes it, from ANY contents `V` that hold what the
chunk reads: the composed term of the chunk is the named value's definition, or the intermediate buffer's function,
applied to them. -/

-- the big host operations stay closed: two spellings of one stage meet argument by argument
attribute [local irreducible] Host.scatterAdd Host.reduceAdd Host.reduce Host.gather

/-- The buffer `main_v408` after chunk 38, from contents that hold what the chunk reads. -/
theorem rd_v408 (V : Valuation τ sig (Elt Ideal)) (A : R.Args)
    (h_v358 : V (Proc.devRef .tc main_v358) = R.g4 A) :
    after ops38 V (Proc.devRef .tc main_v408) = C_v408 (F := Ideal) (R.g4 A) := by
  rr_results
  rw [h_v358]
  rfl

/-- The buffer `main_v415` after chunk 38, from contents that hold what the chunk reads. -/
theorem rd_v415 (V : Valuation τ sig (Elt Ideal)) (A : R.Args)
    (h_arg0 : V (Proc.devRef .tc main_arg0) = A.a0)
    (h_v1 : V (Proc.devRef .tc main_v1) = R.lr A) :
    after ops38 V (Proc.devRef .tc main_v415) = C_v415 (F := Ideal) (A.a0) (R.lr A) := by
  rr_results
  rw [h_arg0, h_v1]
  rfl

/-- The buffer `main_v422` after chunk 38, from contents that hold what the chunk reads. -/
theorem rd_v422 (V : Valuation τ sig (Elt Ideal)) (A : R.Args)
    (h_arg0 : V (Proc.devRef .tc main_arg0) = A.a0)
    (h_v3 : V (Proc.devRef .tc main_v3) = R.lc A) :
    after ops38 V (Proc.devRef .tc main_v422) = C_v422 (F := Ideal) (A.a0) (R.lc A) := by
  rr_results
  rw [h_arg0, h_v3]
  rfl

/-- The buffer `main_v407` after chunk 38, from contents that hold what the chunk reads. -/
theorem rd_v407 (V : Valuation τ sig (Elt Ideal)) (A : R.Args)
    (h_v258 : V (Proc.devRef .tc main_v258) = R.le2 A)
    (h_arg3 : V (Proc.devRef .tc main_arg3) = A.a3) :
    after ops38 V (Proc.devRef .tc main_v407) = C_v407 (F := Ideal) (R.le2 A) (A.a3) := by
  rr_results
  rw [h_v258, h_arg3]
  rfl

/-- The buffer `main_v424` after chunk 39, from contents that hold what the chunk reads. -/
theorem rd_v424 (V : Valuation τ sig (Elt Ideal)) (A : R.Args)
    (h_v408 : V (Proc.devRef .tc main_v408) = C_v408 (F := Ideal) (R.g4 A))
    (h_v415 : V (Proc.devRef .tc main_v415) = C_v415 (F := Ideal) (A.a0) (R.lr A))
    (h_v422 : V (Proc.devRef .tc main_v422) = C_v422 (F := Ideal) (A.a0) (R.lc A))
    (h_v407 : V (Proc.devRef .tc main_v407) = C_v407 (F := Ideal) (R.le2 A) (A.a3))
    (h_v360 : V (Proc.devRef .tc main_v360) = R.P02_eW1 A) :
    after ops39 V (Proc.devRef .tc main_v424) = C_v424 (F := Ideal) (C_v408 (F := Ideal) (R.g4 A)) (C_v415 (F := Ideal) (A.a0) (R.lr A)) (C_v422 (F := Ideal) (A.a0) (R.lc A)) (C_v407 (F := Ideal) (R.le2 A) (A.a3)) (R.P02_eW1 A) := by
  rr_results
  rw [h_v408, h_v415, h_v422, h_v407, h_v360]
  rfl

/-- The buffer `main_v432` after chunk 40, from contents that hold what the chunk reads. -/
theorem st_le3 (V : Valuation τ sig (Elt Ideal)) (A : R.Args)
    (h_v424 : V (Proc.devRef .tc main_v424) = C_v424 (F := Ideal) (C_v408 (F := Ideal) (R.g4 A)) (C_v415 (F := Ideal) (A.a0) (R.lr A)) (C_v422 (F := Ideal) (A.a0) (R.lc A)) (C_v407 (F := Ideal) (R.le2 A) (A.a3)) (R.P02_eW1 A))
    (h_v362 : V (Proc.devRef .tc main_v362) = R.P02_eb1 A)
    (h_v364 : V (Proc.devRef .tc main_v364) = R.P02_eW2 A)
    (h_v366 : V (Proc.devRef .tc main_v366) = R.P02_eb2 A) :
    after ops40 V (Proc.devRef .tc main_v432) = R.le3 A := by
  rr_results
  rw [h_v424, h_v362, h_v364, h_v366]
  rfl

/-- The buffer `main_v442` after chunk 41, from contents that hold what the chunk reads. -/
theorem st_la3 (V : Valuation τ sig (Elt Ideal)) (A : R.Args)
    (h_v1 : V (Proc.devRef .tc main_v1) = R.lr A)
    (h_v432 : V (Proc.devRef .tc main_v432) = R.le3 A) :
    after ops41 V (Proc.devRef .tc main_v442) = R.la3 A := by
  rr_results
  rw [h_v1, h_v432]
  rfl

/-- The buffer `main_v443` after chunk 42, from contents that hold what the chunk reads. -/
theorem rd_v443 (V : Valuation τ sig (Elt Ideal)) (A : R.Args)
    (h_v358 : V (Proc.devRef .tc main_v358) = R.g4 A) :
    after ops42 V (Proc.devRef .tc main_v443) = C_v443 (F := Ideal) (R.g4 A) := by
  rr_results
  rw [h_v358]
  rfl

/-- The buffer `main_v453` after chunk 43, from contents that hold what the chunk reads. -/
theorem st_ln3 (V : Valuation τ sig (Elt Ideal)) (A : R.Args)
    (h_v443 : V (Proc.devRef .tc main_v443) = C_v443 (F := Ideal) (R.g4 A))
    (h_arg0 : V (Proc.devRef .tc main_arg0) = A.a0)
    (h_v442 : V (Proc.devRef .tc main_v442) = R.la3 A)
    (h_v368 : V (Proc.devRef .tc main_v368) = R.P02_nW1 A)
    (h_v370 : V (Proc.devRef .tc main_v370) = R.P02_nb1 A)
    (h_v372 : V (Proc.devRef .tc main_v372) = R.P02_nW2 A)
    (h_v374 : V (Proc.devRef .tc main_v374) = R.P02_nb2 A) :
    after ops43 V (Proc.devRef .tc main_v453) = R.ln3 A := by
  rr_results
  rw [h_v443, h_arg0, h_v442, h_v368, h_v370, h_v372, h_v374]
  rfl

/-- The buffer `main_v457` after chunk 44, from contents that hold what the chunk reads. -/
theorem rd_v457 (V : Valuation τ sig (Elt Ideal)) (A : R.Args)
    (h_v453 : V (Proc.devRef .tc main_v453) = R.ln3 A) :
    after ops44 V (Proc.devRef .tc main_v457) = C_v457 (F := Ideal) (R.ln3 A) := by
  rr_results
  rw [h_v453]
  rfl

/-- The buffer `main_v461` after chunk 44, from contents that hold what the chunk reads. -/
theorem rd_v461 (V : Valuation τ sig (Elt Ideal)) (A : R.Args)
    (h_v432 : V (Proc.devRef .tc main_v432) = R.le3 A) :
    after ops44 V (Proc.devRef .tc main_v461) = C_v461 (F := Ideal) (R.le3 A) := by
  rr_results
  rw [h_v432]
  rfl

/-- The buffer `main_v469` after chunk 45, from contents that hold what the chunk reads. -/
theorem st_g5 (V : Valuation τ sig (Elt Ideal)) (A : R.Args)
    (h_v457 : V (Proc.devRef .tc main_v457) = C_v457 (F := Ideal) (R.ln3 A))
    (h_v461 : V (Proc.devRef .tc main_v461) = C_v461 (F := Ideal) (R.le3 A))
    (h_v358 : V (Proc.devRef .tc main_v358) = R.g4 A)
    (h_v376 : V (Proc.devRef .tc main_v376) = R.P02_gW1 A)
    (h_v378 : V (Proc.devRef .tc main_v378) = R.P02_gb1 A)
    (h_v380 : V (Proc.devRef .tc main_v380) = R.P02_gW2 A)
    (h_v382 : V (Proc.devRef .tc main_v382) = R.P02_gb2 A) :
    after ops45 V (Proc.devRef .tc main_v469) = R.g5 A := by
  rr_results
  rw [h_v457, h_v461, h_v358, h_v376, h_v378, h_v380, h_v382]
  rfl

end Cert.Val.RRead

end
-- ==== Proof.Val.RReadS5.lean ====
import proofs.«426760_j80470507258346_3_alg».proof.Proof.Val.RReadLib
import proofs.«426760_j80470507258346_3_alg».proof.Proof.Val.RReadC

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: layer 2, upper block, and the result

Each theorem reads one buffer after the chunk of operations that writes it, from ANY contents `V` that hold what the
chunk reads: the composed term of the chunk is the named value's definition, or the intermediate buffer's function,
applied to them. -/

-- the big host operations stay closed: two spellings of one stage meet argument by argument
attribute [local irreducible] Host.scatterAdd Host.reduceAdd Host.reduce Host.gather

/-- The buffer `main_v474` after chunk 46, from contents that hold what the chunk reads. -/
theorem rd_v474 (V : Valuation τ sig (Elt Ideal)) (A : R.Args) :
    after ops46 V (Proc.devRef .tc main_v474) = C_v474 (F := Ideal) := by
  rr_results
  rfl

/-- The buffer `main_v473` after chunk 46, from contents that hold what the chunk reads. -/
theorem rd_v473 (V : Valuation τ sig (Elt Ideal)) (A : R.Args)
    (h_v5 : V (Proc.devRef .tc main_v5) = R.ur A) :
    after ops46 V (Proc.devRef .tc main_v473) = C_v473 (F := Ideal) (R.ur A) := by
  rr_results
  rw [h_v5]
  rfl

/-- The buffer `main_v471` after chunk 46, from contents that hold what the chunk reads. -/
theorem rd_v471 (V : Valuation τ sig (Elt Ideal)) (A : R.Args)
    (h_v469 : V (Proc.devRef .tc main_v469) = R.g5 A) :
    after ops46 V (Proc.devRef .tc main_v471) = C_v471 (F := Ideal) (R.g5 A) := by
  rr_results
  rw [h_v469]
  rfl

/-- The buffer `main_v470` after chunk 46, from contents that hold what the chunk reads. -/
theorem rd_v470 (V : Valuation τ sig (Elt Ideal)) (A : R.Args)
    (h_v321 : V (Proc.devRef .tc main_v321) = R.ue2 A)
    (h_v10 : V (Proc.devRef .tc main_v10) = R.zcol) :
    after ops46 V (Proc.devRef .tc main_v470) = C_v470 (F := Ideal) (R.ue2 A) (R.zcol) := by
  rr_results
  rw [h_v321, h_v10]
  rfl

/-- The buffer `main_v478` after chunk 47, from contents that hold what the chunk reads. -/
theorem rd_v478 (V : Valuation τ sig (Elt Ideal)) (A : R.Args)
    (h_v453 : V (Proc.devRef .tc main_v453) = R.ln3 A)
    (h_v473 : V (Proc.devRef .tc main_v473) = C_v473 (F := Ideal) (R.ur A))
    (h_v5 : V (Proc.devRef .tc main_v5) = R.ur A)
    (h_v474 : V (Proc.devRef .tc main_v474) = C_v474 (F := Ideal)) :
    after ops47 V (Proc.devRef .tc main_v478) = C_v478 (F := Ideal) (R.ln3 A) (C_v473 (F := Ideal) (R.ur A)) (R.ur A) (C_v474 (F := Ideal)) := by
  rr_results
  rw [h_v453, h_v473, h_v5, h_v474]
  rfl

/-- The buffer `main_v485` after chunk 47, from contents that hold what the chunk reads. -/
theorem rd_v485 (V : Valuation τ sig (Elt Ideal)) (A : R.Args)
    (h_v453 : V (Proc.devRef .tc main_v453) = R.ln3 A)
    (h_v7 : V (Proc.devRef .tc main_v7) = R.uc A) :
    after ops47 V (Proc.devRef .tc main_v485) = C_v485 (F := Ideal) (R.ln3 A) (R.uc A) := by
  rr_results
  rw [h_v453, h_v7]
  rfl

/-- The buffer `main_v495` after chunk 48, from contents that hold what the chunk reads. -/
theorem st_ue3 (V : Valuation τ sig (Elt Ideal)) (A : R.Args)
    (h_v471 : V (Proc.devRef .tc main_v471) = C_v471 (F := Ideal) (R.g5 A))
    (h_v478 : V (Proc.devRef .tc main_v478) = C_v478 (F := Ideal) (R.ln3 A) (C_v473 (F := Ideal) (R.ur A)) (R.ur A) (C_v474 (F := Ideal)))
    (h_v485 : V (Proc.devRef .tc main_v485) = C_v485 (F := Ideal) (R.ln3 A) (R.uc A))
    (h_v470 : V (Proc.devRef .tc main_v470) = C_v470 (F := Ideal) (R.ue2 A) (R.zcol))
    (h_v384 : V (Proc.devRef .tc main_v384) = R.P12_eW1 A)
    (h_v386 : V (Proc.devRef .tc main_v386) = R.P12_eb1 A)
    (h_v388 : V (Proc.devRef .tc main_v388) = R.P12_eW2 A)
    (h_v390 : V (Proc.devRef .tc main_v390) = R.P12_eb2 A) :
    after ops48 V (Proc.devRef .tc main_v495) = R.ue3 A := by
  rr_results
  rw [h_v471, h_v478, h_v485, h_v470, h_v384, h_v386, h_v388, h_v390]
  rfl

/-- The buffer `main_v505` after chunk 49, from contents that hold what the chunk reads. -/
theorem st_ua3 (V : Valuation τ sig (Elt Ideal)) (A : R.Args)
    (h_v5 : V (Proc.devRef .tc main_v5) = R.ur A)
    (h_v495 : V (Proc.devRef .tc main_v495) = R.ue3 A) :
    after ops49 V (Proc.devRef .tc main_v505) = R.ua3 A := by
  rr_results
  rw [h_v5, h_v495]
  rfl

/-- The buffer `main_v506` after chunk 50, from contents that hold what the chunk reads. -/
theorem rd_v506 (V : Valuation τ sig (Elt Ideal)) (A : R.Args)
    (h_v469 : V (Proc.devRef .tc main_v469) = R.g5 A) :
    after ops50 V (Proc.devRef .tc main_v506) = C_v506 (F := Ideal) (R.g5 A) := by
  rr_results
  rw [h_v469]
  rfl

/-- The buffer `main_v516` after chunk 51, from contents that hold what the chunk reads. -/
theorem st_un3 (V : Valuation τ sig (Elt Ideal)) (A : R.Args)
    (h_v506 : V (Proc.devRef .tc main_v506) = C_v506 (F := Ideal) (R.g5 A))
    (h_v453 : V (Proc.devRef .tc main_v453) = R.ln3 A)
    (h_v505 : V (Proc.devRef .tc main_v505) = R.ua3 A)
    (h_v392 : V (Proc.devRef .tc main_v392) = R.P12_nW1 A)
    (h_v394 : V (Proc.devRef .tc main_v394) = R.P12_nb1 A)
    (h_v396 : V (Proc.devRef .tc main_v396) = R.P12_nW2 A)
    (h_v398 : V (Proc.devRef .tc main_v398) = R.P12_nb2 A) :
    after ops51 V (Proc.devRef .tc main_v516) = R.un3 A := by
  rr_results
  rw [h_v506, h_v453, h_v505, h_v392, h_v394, h_v396, h_v398]
  rfl

/-- The buffer `main_v520` after chunk 52, from contents that hold what the chunk reads. -/
theorem rd_v520 (V : Valuation τ sig (Elt Ideal)) (A : R.Args)
    (h_v516 : V (Proc.devRef .tc main_v516) = R.un3 A) :
    after ops52 V (Proc.devRef .tc main_v520) = C_v520 (F := Ideal) (R.un3 A) := by
  rr_results
  rw [h_v516]
  rfl

/-- The buffer `main_v524` after chunk 52, from contents that hold what the chunk reads. -/
theorem rd_v524 (V : Valuation τ sig (Elt Ideal)) (A : R.Args)
    (h_v495 : V (Proc.devRef .tc main_v495) = R.ue3 A) :
    after ops52 V (Proc.devRef .tc main_v524) = C_v524 (F := Ideal) (R.ue3 A) := by
  rr_results
  rw [h_v495]
  rfl

/-- The buffer `main_v532` after chunk 53, from contents that hold what the chunk reads. -/
theorem st_g6 (V : Valuation τ sig (Elt Ideal)) (A : R.Args)
    (h_v520 : V (Proc.devRef .tc main_v520) = C_v520 (F := Ideal) (R.un3 A))
    (h_v524 : V (Proc.devRef .tc main_v524) = C_v524 (F := Ideal) (R.ue3 A))
    (h_v469 : V (Proc.devRef .tc main_v469) = R.g5 A)
    (h_v400 : V (Proc.devRef .tc main_v400) = R.P12_gW1 A)
    (h_v402 : V (Proc.devRef .tc main_v402) = R.P12_gb1 A)
    (h_v404 : V (Proc.devRef .tc main_v404) = R.P12_gW2 A)
    (h_v406 : V (Proc.devRef .tc main_v406) = R.P12_gb2 A) :
    after ops53 V (Proc.devRef .tc main_v532) = R.g6 A := by
  rr_results
  rw [h_v520, h_v524, h_v469, h_v400, h_v402, h_v404, h_v406]
  rfl

/-- The buffer `main_v537` after chunk 54, from contents that hold what the chunk reads. -/
theorem rd_v537 (V : Valuation τ sig (Elt Ideal)) (A : R.Args)
    (h_v1 : V (Proc.devRef .tc main_v1) = R.lr A)
    (h_v3 : V (Proc.devRef .tc main_v3) = R.lc A)
    (h_v432 : V (Proc.devRef .tc main_v432) = R.le3 A) :
    after ops54 V (Proc.devRef .tc main_v537) = C_v537 (F := Ideal) (R.lr A) (R.lc A) (R.le3 A) := by
  rr_results
  rw [h_v1, h_v3, h_v432]
  rfl

/-- The buffer `main_v542` after chunk 54, from contents that hold what the chunk reads. -/
theorem rd_v542 (V : Valuation τ sig (Elt Ideal)) (A : R.Args)
    (h_v5 : V (Proc.devRef .tc main_v5) = R.ur A)
    (h_v7 : V (Proc.devRef .tc main_v7) = R.uc A)
    (h_v495 : V (Proc.devRef .tc main_v495) = R.ue3 A) :
    after ops54 V (Proc.devRef .tc main_v542) = C_v542 (F := Ideal) (R.ur A) (R.uc A) (R.ue3 A) := by
  rr_results
  rw [h_v5, h_v7, h_v495]
  rfl

/-- The buffer `main_v543` after chunk 55, from contents that hold what the chunk reads. -/
theorem st_result (V : Valuation τ sig (Elt Ideal)) (A : R.Args)
    (h_v537 : V (Proc.devRef .tc main_v537) = C_v537 (F := Ideal) (R.lr A) (R.lc A) (R.le3 A))
    (h_v542 : V (Proc.devRef .tc main_v542) = C_v542 (F := Ideal) (R.ur A) (R.uc A) (R.ue3 A)) :
    after ops55 V (Proc.devRef .tc main_v543) = R.result A := by
  rr_results
  rw [h_v537, h_v542]
  rfl

end Cert.Val.RRead

end
-- ==== Proof.Val.RReadAll.lean ====
import proofs.«426760_j80470507258346_3_alg».proof.Proof.Val.RReadP0
import proofs.«426760_j80470507258346_3_alg».proof.Proof.Val.RReadP1
import proofs.«426760_j80470507258346_3_alg».proof.Proof.Val.RReadP2
import proofs.«426760_j80470507258346_3_alg».proof.Proof.Val.RReadS0
import proofs.«426760_j80470507258346_3_alg».proof.Proof.Val.RReadS1
import proofs.«426760_j80470507258346_3_alg».proof.Proof.Val.RReadS2
import proofs.«426760_j80470507258346_3_alg».proof.Proof.Val.RReadS3
import proofs.«426760_j80470507258346_3_alg».proof.Proof.Val.RReadS4
import proofs.«426760_j80470507258346_3_alg».proof.Proof.Val.RReadS5
import proofs.«426760_j80470507258346_3_alg».proof.Proof.Val.ArgsOf

set_option maxRecDepth 8192

noncomputable section

namespace Cert.Val.RRead

open Cert.ReferenceIdeal Cert.ReferenceIdeal.Gen Cert.ReferenceIdeal.RunFold Idealize.ShloMosaic Idealize.ShloMosaic.TcCoe
  Idealize.SL.Sem Idealize.ShloMosaic.StableHlo Cert.Val

/-! # Reading the reference's buffers: the chain

For the argument arrays read off a launch memory `m` on a core `c`: each buffer a later chunk reads holds its value —
a named stage, or an intermediate buffer's function of named stages — at the level of the chunked run that follows the
chunk writing it, and keeps it at every later level at which it is read (no later chunk writes it). The levels are met
in program order; the last one is the result's. -/

variable (m : (ℓ : Loc nD τ sig) → Buf (Elt Ideal) ℓ) (c : Dev nD)

theorem at_v8_1 : RW1 m c (Proc.devRef .tc main_v8) = R.g0 :=
  pr_v8 (RW0 m c) (R.argsOf m c)
theorem at_v8_2 : RW2 m c (Proc.devRef .tc main_v8) = R.g0 := (RW2_keep m c (by decide)).trans (at_v8_1 m c)
theorem at_v60_3 : RW3 m c (Proc.devRef .tc main_v60) = C_v60 (F := Ideal) (R.g0) :=
  rd_v60 (RW2 m c) (R.argsOf m c) (at_v8_2 m c)
theorem at_arg0_2 : RW2 m c (Proc.devRef .tc main_arg0) = (R.argsOf m c).a0 := (RW2_arg m c (by decide)).trans rfl
theorem at_arg1_0 : RW0 m c (Proc.devRef .tc main_arg1) = (R.argsOf m c).a1 := rfl
theorem at_v1_1 : RW1 m c (Proc.devRef .tc main_v1) = R.lr (R.argsOf m c) :=
  pr_v1 (RW0 m c) (R.argsOf m c) (at_arg1_0 m c)
theorem at_v1_2 : RW2 m c (Proc.devRef .tc main_v1) = R.lr (R.argsOf m c) := (RW2_keep m c (by decide)).trans (at_v1_1 m c)
theorem at_v67_3 : RW3 m c (Proc.devRef .tc main_v67) = C_v67 (F := Ideal) ((R.argsOf m c).a0) (R.lr (R.argsOf m c)) :=
  rd_v67 (RW2 m c) (R.argsOf m c) (at_arg0_2 m c) (at_v1_2 m c)
theorem at_v3_1 : RW1 m c (Proc.devRef .tc main_v3) = R.lc (R.argsOf m c) :=
  pr_v3 (RW0 m c) (R.argsOf m c) (at_arg1_0 m c)
theorem at_v3_2 : RW2 m c (Proc.devRef .tc main_v3) = R.lc (R.argsOf m c) := (RW2_keep m c (by decide)).trans (at_v3_1 m c)
theorem at_v74_3 : RW3 m c (Proc.devRef .tc main_v74) = C_v74 (F := Ideal) ((R.argsOf m c).a0) (R.lc (R.argsOf m c)) :=
  rd_v74 (RW2 m c) (R.argsOf m c) (at_arg0_2 m c) (at_v3_2 m c)
theorem at_arg3_2 : RW2 m c (Proc.devRef .tc main_arg3) = (R.argsOf m c).a3 := (RW2_arg m c (by decide)).trans rfl
theorem at_v9_1 : RW1 m c (Proc.devRef .tc main_v9) = R.zcol :=
  pr_v9 (RW0 m c) (R.argsOf m c)
theorem at_v9_2 : RW2 m c (Proc.devRef .tc main_v9) = R.zcol := (RW2_keep m c (by decide)).trans (at_v9_1 m c)
theorem at_v59_3 : RW3 m c (Proc.devRef .tc main_v59) = C_v59 (F := Ideal) ((R.argsOf m c).a3) (R.zcol) :=
  rd_v59 (RW2 m c) (R.argsOf m c) (at_arg3_2 m c) (at_v9_2 m c)
theorem at_arg5_0 : RW0 m c (Proc.devRef .tc main_arg5) = (R.argsOf m c).a5 := rfl
theorem at_v12_1 : RW1 m c (Proc.devRef .tc main_v12) = R.P00_eW1 (R.argsOf m c) :=
  pr_v12 (RW0 m c) (R.argsOf m c) (at_arg5_0 m c)
theorem at_v12_2 : RW2 m c (Proc.devRef .tc main_v12) = R.P00_eW1 (R.argsOf m c) := (RW2_keep m c (by decide)).trans (at_v12_1 m c)
theorem at_v12_3 : RW3 m c (Proc.devRef .tc main_v12) = R.P00_eW1 (R.argsOf m c) := (RW3_keep m c (by decide)).trans (at_v12_2 m c)
theorem at_arg6_0 : RW0 m c (Proc.devRef .tc main_arg6) = (R.argsOf m c).a6 := rfl
theorem at_v14_1 : RW1 m c (Proc.devRef .tc main_v14) = R.P00_eb1 (R.argsOf m c) :=
  pr_v14 (RW0 m c) (R.argsOf m c) (at_arg6_0 m c)
theorem at_v14_2 : RW2 m c (Proc.devRef .tc main_v14) = R.P00_eb1 (R.argsOf m c) := (RW2_keep m c (by decide)).trans (at_v14_1 m c)
theorem at_v14_3 : RW3 m c (Proc.devRef .tc main_v14) = R.P00_eb1 (R.argsOf m c) := (RW3_keep m c (by decide)).trans (at_v14_2 m c)
theorem at_arg7_0 : RW0 m c (Proc.devRef .tc main_arg7) = (R.argsOf m c).a7 := rfl
theorem at_v16_1 : RW1 m c (Proc.devRef .tc main_v16) = R.P00_eW2 (R.argsOf m c) :=
  pr_v16 (RW0 m c) (R.argsOf m c) (at_arg7_0 m c)
theorem at_v16_2 : RW2 m c (Proc.devRef .tc main_v16) = R.P00_eW2 (R.argsOf m c) := (RW2_keep m c (by decide)).trans (at_v16_1 m c)
theorem at_v16_3 : RW3 m c (Proc.devRef .tc main_v16) = R.P00_eW2 (R.argsOf m c) := (RW3_keep m c (by decide)).trans (at_v16_2 m c)
theorem at_arg8_0 : RW0 m c (Proc.devRef .tc main_arg8) = (R.argsOf m c).a8 := rfl
theorem at_v18_1 : RW1 m c (Proc.devRef .tc main_v18) = R.P00_eb2 (R.argsOf m c) :=
  pr_v18 (RW0 m c) (R.argsOf m c) (at_arg8_0 m c)
theorem at_v18_2 : RW2 m c (Proc.devRef .tc main_v18) = R.P00_eb2 (R.argsOf m c) := (RW2_keep m c (by decide)).trans (at_v18_1 m c)
theorem at_v18_3 : RW3 m c (Proc.devRef .tc main_v18) = R.P00_eb2 (R.argsOf m c) := (RW3_keep m c (by decide)).trans (at_v18_2 m c)
theorem at_v84_4 : RW4 m c (Proc.devRef .tc main_v84) = R.le1 (R.argsOf m c) :=
  st_le1 (RW3 m c) (R.argsOf m c) (at_v60_3 m c) (at_v67_3 m c) (at_v74_3 m c) (at_v59_3 m c) (at_v12_3 m c) (at_v14_3 m c) (at_v16_3 m c) (at_v18_3 m c)
theorem at_v1_3 : RW3 m c (Proc.devRef .tc main_v1) = R.lr (R.argsOf m c) := (RW3_keep m c (by decide)).trans (at_v1_2 m c)
theorem at_v1_4 : RW4 m c (Proc.devRef .tc main_v1) = R.lr (R.argsOf m c) := (RW4_keep m c (by decide)).trans (at_v1_3 m c)
theorem at_v94_5 : RW5 m c (Proc.devRef .tc main_v94) = R.la1 (R.argsOf m c) :=
  st_la1 (RW4 m c) (R.argsOf m c) (at_v1_4 m c) (at_v84_4 m c)
theorem at_v8_3 : RW3 m c (Proc.devRef .tc main_v8) = R.g0 := (RW3_keep m c (by decide)).trans (at_v8_2 m c)
theorem at_v8_4 : RW4 m c (Proc.devRef .tc main_v8) = R.g0 := (RW4_keep m c (by decide)).trans (at_v8_3 m c)
theorem at_v8_5 : RW5 m c (Proc.devRef .tc main_v8) = R.g0 := (RW5_keep m c (by decide)).trans (at_v8_4 m c)
theorem at_v95_6 : RW6 m c (Proc.devRef .tc main_v95) = C_v95 (F := Ideal) (R.g0) :=
  rd_v95 (RW5 m c) (R.argsOf m c) (at_v8_5 m c)
theorem at_arg0_6 : RW6 m c (Proc.devRef .tc main_arg0) = (R.argsOf m c).a0 := (RW6_arg m c (by decide)).trans rfl
theorem at_v94_6 : RW6 m c (Proc.devRef .tc main_v94) = R.la1 (R.argsOf m c) := (RW6_keep m c (by decide)).trans (at_v94_5 m c)
theorem at_arg9_0 : RW0 m c (Proc.devRef .tc main_arg9) = (R.argsOf m c).a9 := rfl
theorem at_v20_1 : RW1 m c (Proc.devRef .tc main_v20) = R.P00_nW1 (R.argsOf m c) :=
  pr_v20 (RW0 m c) (R.argsOf m c) (at_arg9_0 m c)
theorem at_v20_2 : RW2 m c (Proc.devRef .tc main_v20) = R.P00_nW1 (R.argsOf m c) := (RW2_keep m c (by decide)).trans (at_v20_1 m c)
theorem at_v20_3 : RW3 m c (Proc.devRef .tc main_v20) = R.P00_nW1 (R.argsOf m c) := (RW3_keep m c (by decide)).trans (at_v20_2 m c)
theorem at_v20_4 : RW4 m c (Proc.devRef .tc main_v20) = R.P00_nW1 (R.argsOf m c) := (RW4_keep m c (by decide)).trans (at_v20_3 m c)
theorem at_v20_5 : RW5 m c (Proc.devRef .tc main_v20) = R.P00_nW1 (R.argsOf m c) := (RW5_keep m c (by decide)).trans (at_v20_4 m c)
theorem at_v20_6 : RW6 m c (Proc.devRef .tc main_v20) = R.P00_nW1 (R.argsOf m c) := (RW6_keep m c (by decide)).trans (at_v20_5 m c)
theorem at_arg10_0 : RW0 m c (Proc.devRef .tc main_arg10) = (R.argsOf m c).a10 := rfl
theorem at_v22_1 : RW1 m c (Proc.devRef .tc main_v22) = R.P00_nb1 (R.argsOf m c) :=
  pr_v22 (RW0 m c) (R.argsOf m c) (at_arg10_0 m c)
theorem at_v22_2 : RW2 m c (Proc.devRef .tc main_v22) = R.P00_nb1 (R.argsOf m c) := (RW2_keep m c (by decide)).trans (at_v22_1 m c)
theorem at_v22_3 : RW3 m c (Proc.devRef .tc main_v22) = R.P00_nb1 (R.argsOf m c) := (RW3_keep m c (by decide)).trans (at_v22_2 m c)
theorem at_v22_4 : RW4 m c (Proc.devRef .tc main_v22) = R.P00_nb1 (R.argsOf m c) := (RW4_keep m c (by decide)).trans (at_v22_3 m c)
theorem at_v22_5 : RW5 m c (Proc.devRef .tc main_v22) = R.P00_nb1 (R.argsOf m c) := (RW5_keep m c (by decide)).trans (at_v22_4 m c)
theorem at_v22_6 : RW6 m c (Proc.devRef .tc main_v22) = R.P00_nb1 (R.argsOf m c) := (RW6_keep m c (by decide)).trans (at_v22_5 m c)
theorem at_arg11_0 : RW0 m c (Proc.devRef .tc main_arg11) = (R.argsOf m c).a11 := rfl
theorem at_v24_1 : RW1 m c (Proc.devRef .tc main_v24) = R.P00_nW2 (R.argsOf m c) :=
  pr_v24 (RW0 m c) (R.argsOf m c) (at_arg11_0 m c)
theorem at_v24_2 : RW2 m c (Proc.devRef .tc main_v24) = R.P00_nW2 (R.argsOf m c) := (RW2_keep m c (by decide)).trans (at_v24_1 m c)
theorem at_v24_3 : RW3 m c (Proc.devRef .tc main_v24) = R.P00_nW2 (R.argsOf m c) := (RW3_keep m c (by decide)).trans (at_v24_2 m c)
theorem at_v24_4 : RW4 m c (Proc.devRef .tc main_v24) = R.P00_nW2 (R.argsOf m c) := (RW4_keep m c (by decide)).trans (at_v24_3 m c)
theorem at_v24_5 : RW5 m c (Proc.devRef .tc main_v24) = R.P00_nW2 (R.argsOf m c) := (RW5_keep m c (by decide)).trans (at_v24_4 m c)
theorem at_v24_6 : RW6 m c (Proc.devRef .tc main_v24) = R.P00_nW2 (R.argsOf m c) := (RW6_keep m c (by decide)).trans (at_v24_5 m c)
theorem at_arg12_0 : RW0 m c (Proc.devRef .tc main_arg12) = (R.argsOf m c).a12 := rfl
theorem at_v26_1 : RW1 m c (Proc.devRef .tc main_v26) = R.P00_nb2 (R.argsOf m c) :=
  pr_v26 (RW0 m c) (R.argsOf m c) (at_arg12_0 m c)
theorem at_v26_2 : RW2 m c (Proc.devRef .tc main_v26) = R.P00_nb2 (R.argsOf m c) := (RW2_keep m c (by decide)).trans (at_v26_1 m c)
theorem at_v26_3 : RW3 m c (Proc.devRef .tc main_v26) = R.P00_nb2 (R.argsOf m c) := (RW3_keep m c (by decide)).trans (at_v26_2 m c)
theorem at_v26_4 : RW4 m c (Proc.devRef .tc main_v26) = R.P00_nb2 (R.argsOf m c) := (RW4_keep m c (by decide)).trans (at_v26_3 m c)
theorem at_v26_5 : RW5 m c (Proc.devRef .tc main_v26) = R.P00_nb2 (R.argsOf m c) := (RW5_keep m c (by decide)).trans (at_v26_4 m c)
theorem at_v26_6 : RW6 m c (Proc.devRef .tc main_v26) = R.P00_nb2 (R.argsOf m c) := (RW6_keep m c (by decide)).trans (at_v26_5 m c)
theorem at_v105_7 : RW7 m c (Proc.devRef .tc main_v105) = R.ln1 (R.argsOf m c) :=
  st_ln1 (RW6 m c) (R.argsOf m c) (at_v95_6 m c) (at_arg0_6 m c) (at_v94_6 m c) (at_v20_6 m c) (at_v22_6 m c) (at_v24_6 m c) (at_v26_6 m c)
theorem at_v107_8 : RW8 m c (Proc.devRef .tc main_v107) = C_v107 (F := Ideal) (R.ln1 (R.argsOf m c)) :=
  rd_v107 (RW7 m c) (R.argsOf m c) (at_v105_7 m c)
theorem at_v109_9 : RW9 m c (Proc.devRef .tc main_v109) = C_v109 (F := Ideal) (C_v107 (F := Ideal) (R.ln1 (R.argsOf m c))) :=
  rd_v109 (RW8 m c) (R.argsOf m c) (at_v107_8 m c)
theorem at_v84_5 : RW5 m c (Proc.devRef .tc main_v84) = R.le1 (R.argsOf m c) := (RW5_keep m c (by decide)).trans (at_v84_4 m c)
theorem at_v84_6 : RW6 m c (Proc.devRef .tc main_v84) = R.le1 (R.argsOf m c) := (RW6_keep m c (by decide)).trans (at_v84_5 m c)
theorem at_v84_7 : RW7 m c (Proc.devRef .tc main_v84) = R.le1 (R.argsOf m c) := (RW7_keep m c (by decide)).trans (at_v84_6 m c)
theorem at_v84_8 : RW8 m c (Proc.devRef .tc main_v84) = R.le1 (R.argsOf m c) := (RW8_keep m c (by decide)).trans (at_v84_7 m c)
theorem at_v113_9 : RW9 m c (Proc.devRef .tc main_v113) = C_v113 (F := Ideal) (R.le1 (R.argsOf m c)) :=
  rd_v113 (RW8 m c) (R.argsOf m c) (at_v84_8 m c)
theorem at_v8_6 : RW6 m c (Proc.devRef .tc main_v8) = R.g0 := (RW6_keep m c (by decide)).trans (at_v8_5 m c)
theorem at_v8_7 : RW7 m c (Proc.devRef .tc main_v8) = R.g0 := (RW7_keep m c (by decide)).trans (at_v8_6 m c)
theorem at_v8_8 : RW8 m c (Proc.devRef .tc main_v8) = R.g0 := (RW8_keep m c (by decide)).trans (at_v8_7 m c)
theorem at_v8_9 : RW9 m c (Proc.devRef .tc main_v8) = R.g0 := (RW9_keep m c (by decide)).trans (at_v8_8 m c)
theorem at_arg13_0 : RW0 m c (Proc.devRef .tc main_arg13) = (R.argsOf m c).a13 := rfl
theorem at_v28_1 : RW1 m c (Proc.devRef .tc main_v28) = R.P00_gW1 (R.argsOf m c) :=
  pr_v28 (RW0 m c) (R.argsOf m c) (at_arg13_0 m c)
theorem at_v28_2 : RW2 m c (Proc.devRef .tc main_v28) = R.P00_gW1 (R.argsOf m c) := (RW2_keep m c (by decide)).trans (at_v28_1 m c)
theorem at_v28_3 : RW3 m c (Proc.devRef .tc main_v28) = R.P00_gW1 (R.argsOf m c) := (RW3_keep m c (by decide)).trans (at_v28_2 m c)
theorem at_v28_4 : RW4 m c (Proc.devRef .tc main_v28) = R.P00_gW1 (R.argsOf m c) := (RW4_keep m c (by decide)).trans (at_v28_3 m c)
theorem at_v28_5 : RW5 m c (Proc.devRef .tc main_v28) = R.P00_gW1 (R.argsOf m c) := (RW5_keep m c (by decide)).trans (at_v28_4 m c)
theorem at_v28_6 : RW6 m c (Proc.devRef .tc main_v28) = R.P00_gW1 (R.argsOf m c) := (RW6_keep m c (by decide)).trans (at_v28_5 m c)
theorem at_v28_7 : RW7 m c (Proc.devRef .tc main_v28) = R.P00_gW1 (R.argsOf m c) := (RW7_keep m c (by decide)).trans (at_v28_6 m c)
theorem at_v28_8 : RW8 m c (Proc.devRef .tc main_v28) = R.P00_gW1 (R.argsOf m c) := (RW8_keep m c (by decide)).trans (at_v28_7 m c)
theorem at_v28_9 : RW9 m c (Proc.devRef .tc main_v28) = R.P00_gW1 (R.argsOf m c) := (RW9_keep m c (by decide)).trans (at_v28_8 m c)
theorem at_arg14_0 : RW0 m c (Proc.devRef .tc main_arg14) = (R.argsOf m c).a14 := rfl
theorem at_v30_1 : RW1 m c (Proc.devRef .tc main_v30) = R.P00_gb1 (R.argsOf m c) :=
  pr_v30 (RW0 m c) (R.argsOf m c) (at_arg14_0 m c)
theorem at_v30_2 : RW2 m c (Proc.devRef .tc main_v30) = R.P00_gb1 (R.argsOf m c) := (RW2_keep m c (by decide)).trans (at_v30_1 m c)
theorem at_v30_3 : RW3 m c (Proc.devRef .tc main_v30) = R.P00_gb1 (R.argsOf m c) := (RW3_keep m c (by decide)).trans (at_v30_2 m c)
theorem at_v30_4 : RW4 m c (Proc.devRef .tc main_v30) = R.P00_gb1 (R.argsOf m c) := (RW4_keep m c (by decide)).trans (at_v30_3 m c)
theorem at_v30_5 : RW5 m c (Proc.devRef .tc main_v30) = R.P00_gb1 (R.argsOf m c) := (RW5_keep m c (by decide)).trans (at_v30_4 m c)
theorem at_v30_6 : RW6 m c (Proc.devRef .tc main_v30) = R.P00_gb1 (R.argsOf m c) := (RW6_keep m c (by decide)).trans (at_v30_5 m c)
theorem at_v30_7 : RW7 m c (Proc.devRef .tc main_v30) = R.P00_gb1 (R.argsOf m c) := (RW7_keep m c (by decide)).trans (at_v30_6 m c)
theorem at_v30_8 : RW8 m c (Proc.devRef .tc main_v30) = R.P00_gb1 (R.argsOf m c) := (RW8_keep m c (by decide)).trans (at_v30_7 m c)
theorem at_v30_9 : RW9 m c (Proc.devRef .tc main_v30) = R.P00_gb1 (R.argsOf m c) := (RW9_keep m c (by decide)).trans (at_v30_8 m c)
theorem at_arg15_0 : RW0 m c (Proc.devRef .tc main_arg15) = (R.argsOf m c).a15 := rfl
theorem at_v32_1 : RW1 m c (Proc.devRef .tc main_v32) = R.P00_gW2 (R.argsOf m c) :=
  pr_v32 (RW0 m c) (R.argsOf m c) (at_arg15_0 m c)
theorem at_v32_2 : RW2 m c (Proc.devRef .tc main_v32) = R.P00_gW2 (R.argsOf m c) := (RW2_keep m c (by decide)).trans (at_v32_1 m c)
theorem at_v32_3 : RW3 m c (Proc.devRef .tc main_v32) = R.P00_gW2 (R.argsOf m c) := (RW3_keep m c (by decide)).trans (at_v32_2 m c)
theorem at_v32_4 : RW4 m c (Proc.devRef .tc main_v32) = R.P00_gW2 (R.argsOf m c) := (RW4_keep m c (by decide)).trans (at_v32_3 m c)
theorem at_v32_5 : RW5 m c (Proc.devRef .tc main_v32) = R.P00_gW2 (R.argsOf m c) := (RW5_keep m c (by decide)).trans (at_v32_4 m c)
theorem at_v32_6 : RW6 m c (Proc.devRef .tc main_v32) = R.P00_gW2 (R.argsOf m c) := (RW6_keep m c (by decide)).trans (at_v32_5 m c)
theorem at_v32_7 : RW7 m c (Proc.devRef .tc main_v32) = R.P00_gW2 (R.argsOf m c) := (RW7_keep m c (by decide)).trans (at_v32_6 m c)
theorem at_v32_8 : RW8 m c (Proc.devRef .tc main_v32) = R.P00_gW2 (R.argsOf m c) := (RW8_keep m c (by decide)).trans (at_v32_7 m c)
theorem at_v32_9 : RW9 m c (Proc.devRef .tc main_v32) = R.P00_gW2 (R.argsOf m c) := (RW9_keep m c (by decide)).trans (at_v32_8 m c)
theorem at_arg16_0 : RW0 m c (Proc.devRef .tc main_arg16) = (R.argsOf m c).a16 := rfl
theorem at_v34_1 : RW1 m c (Proc.devRef .tc main_v34) = R.P00_gb2 (R.argsOf m c) :=
  pr_v34 (RW0 m c) (R.argsOf m c) (at_arg16_0 m c)
theorem at_v34_2 : RW2 m c (Proc.devRef .tc main_v34) = R.P00_gb2 (R.argsOf m c) := (RW2_keep m c (by decide)).trans (at_v34_1 m c)
theorem at_v34_3 : RW3 m c (Proc.devRef .tc main_v34) = R.P00_gb2 (R.argsOf m c) := (RW3_keep m c (by decide)).trans (at_v34_2 m c)
theorem at_v34_4 : RW4 m c (Proc.devRef .tc main_v34) = R.P00_gb2 (R.argsOf m c) := (RW4_keep m c (by decide)).trans (at_v34_3 m c)
theorem at_v34_5 : RW5 m c (Proc.devRef .tc main_v34) = R.P00_gb2 (R.argsOf m c) := (RW5_keep m c (by decide)).trans (at_v34_4 m c)
theorem at_v34_6 : RW6 m c (Proc.devRef .tc main_v34) = R.P00_gb2 (R.argsOf m c) := (RW6_keep m c (by decide)).trans (at_v34_5 m c)
theorem at_v34_7 : RW7 m c (Proc.devRef .tc main_v34) = R.P00_gb2 (R.argsOf m c) := (RW7_keep m c (by decide)).trans (at_v34_6 m c)
theorem at_v34_8 : RW8 m c (Proc.devRef .tc main_v34) = R.P00_gb2 (R.argsOf m c) := (RW8_keep m c (by decide)).trans (at_v34_7 m c)
theorem at_v34_9 : RW9 m c (Proc.devRef .tc main_v34) = R.P00_gb2 (R.argsOf m c) := (RW9_keep m c (by decide)).trans (at_v34_8 m c)
theorem at_v121_10 : RW10 m c (Proc.devRef .tc main_v121) = R.g1 (R.argsOf m c) :=
  st_g1 (RW9 m c) (R.argsOf m c) (at_v109_9 m c) (at_v113_9 m c) (at_v8_9 m c) (at_v28_9 m c) (at_v30_9 m c) (at_v32_9 m c) (at_v34_9 m c)
theorem at_v123_11 : RW11 m c (Proc.devRef .tc main_v123) = C_v123 (F := Ideal) (R.g1 (R.argsOf m c)) :=
  rd_v123 (RW10 m c) (R.argsOf m c) (at_v121_10 m c)
theorem at_v105_8 : RW8 m c (Proc.devRef .tc main_v105) = R.ln1 (R.argsOf m c) := (RW8_keep m c (by decide)).trans (at_v105_7 m c)
theorem at_v105_9 : RW9 m c (Proc.devRef .tc main_v105) = R.ln1 (R.argsOf m c) := (RW9_keep m c (by decide)).trans (at_v105_8 m c)
theorem at_v105_10 : RW10 m c (Proc.devRef .tc main_v105) = R.ln1 (R.argsOf m c) := (RW10_keep m c (by decide)).trans (at_v105_9 m c)
theorem at_arg2_0 : RW0 m c (Proc.devRef .tc main_arg2) = (R.argsOf m c).a2 := rfl
theorem at_v5_1 : RW1 m c (Proc.devRef .tc main_v5) = R.ur (R.argsOf m c) :=
  pr_v5 (RW0 m c) (R.argsOf m c) (at_arg2_0 m c)
theorem at_v5_2 : RW2 m c (Proc.devRef .tc main_v5) = R.ur (R.argsOf m c) := (RW2_keep m c (by decide)).trans (at_v5_1 m c)
theorem at_v5_3 : RW3 m c (Proc.devRef .tc main_v5) = R.ur (R.argsOf m c) := (RW3_keep m c (by decide)).trans (at_v5_2 m c)
theorem at_v5_4 : RW4 m c (Proc.devRef .tc main_v5) = R.ur (R.argsOf m c) := (RW4_keep m c (by decide)).trans (at_v5_3 m c)
theorem at_v5_5 : RW5 m c (Proc.devRef .tc main_v5) = R.ur (R.argsOf m c) := (RW5_keep m c (by decide)).trans (at_v5_4 m c)
theorem at_v5_6 : RW6 m c (Proc.devRef .tc main_v5) = R.ur (R.argsOf m c) := (RW6_keep m c (by decide)).trans (at_v5_5 m c)
theorem at_v5_7 : RW7 m c (Proc.devRef .tc main_v5) = R.ur (R.argsOf m c) := (RW7_keep m c (by decide)).trans (at_v5_6 m c)
theorem at_v5_8 : RW8 m c (Proc.devRef .tc main_v5) = R.ur (R.argsOf m c) := (RW8_keep m c (by decide)).trans (at_v5_7 m c)
theorem at_v5_9 : RW9 m c (Proc.devRef .tc main_v5) = R.ur (R.argsOf m c) := (RW9_keep m c (by decide)).trans (at_v5_8 m c)
theorem at_v5_10 : RW10 m c (Proc.devRef .tc main_v5) = R.ur (R.argsOf m c) := (RW10_keep m c (by decide)).trans (at_v5_9 m c)
theorem at_v130_11 : RW11 m c (Proc.devRef .tc main_v130) = C_v130 (F := Ideal) (R.ln1 (R.argsOf m c)) (R.ur (R.argsOf m c)) :=
  rd_v130 (RW10 m c) (R.argsOf m c) (at_v105_10 m c) (at_v5_10 m c)
theorem at_v7_1 : RW1 m c (Proc.devRef .tc main_v7) = R.uc (R.argsOf m c) :=
  pr_v7 (RW0 m c) (R.argsOf m c) (at_arg2_0 m c)
theorem at_v7_2 : RW2 m c (Proc.devRef .tc main_v7) = R.uc (R.argsOf m c) := (RW2_keep m c (by decide)).trans (at_v7_1 m c)
theorem at_v7_3 : RW3 m c (Proc.devRef .tc main_v7) = R.uc (R.argsOf m c) := (RW3_keep m c (by decide)).trans (at_v7_2 m c)
theorem at_v7_4 : RW4 m c (Proc.devRef .tc main_v7) = R.uc (R.argsOf m c) := (RW4_keep m c (by decide)).trans (at_v7_3 m c)
theorem at_v7_5 : RW5 m c (Proc.devRef .tc main_v7) = R.uc (R.argsOf m c) := (RW5_keep m c (by decide)).trans (at_v7_4 m c)
theorem at_v7_6 : RW6 m c (Proc.devRef .tc main_v7) = R.uc (R.argsOf m c) := (RW6_keep m c (by decide)).trans (at_v7_5 m c)
theorem at_v7_7 : RW7 m c (Proc.devRef .tc main_v7) = R.uc (R.argsOf m c) := (RW7_keep m c (by decide)).trans (at_v7_6 m c)
theorem at_v7_8 : RW8 m c (Proc.devRef .tc main_v7) = R.uc (R.argsOf m c) := (RW8_keep m c (by decide)).trans (at_v7_7 m c)
theorem at_v7_9 : RW9 m c (Proc.devRef .tc main_v7) = R.uc (R.argsOf m c) := (RW9_keep m c (by decide)).trans (at_v7_8 m c)
theorem at_v7_10 : RW10 m c (Proc.devRef .tc main_v7) = R.uc (R.argsOf m c) := (RW10_keep m c (by decide)).trans (at_v7_9 m c)
theorem at_v137_11 : RW11 m c (Proc.devRef .tc main_v137) = C_v137 (F := Ideal) (R.ln1 (R.argsOf m c)) (R.uc (R.argsOf m c)) :=
  rd_v137 (RW10 m c) (R.argsOf m c) (at_v105_10 m c) (at_v7_10 m c)
theorem at_arg4_10 : RW10 m c (Proc.devRef .tc main_arg4) = (R.argsOf m c).a4 := (RW10_arg m c (by decide)).trans rfl
theorem at_v10_1 : RW1 m c (Proc.devRef .tc main_v10) = R.zcol :=
  pr_v10 (RW0 m c) (R.argsOf m c)
theorem at_v10_2 : RW2 m c (Proc.devRef .tc main_v10) = R.zcol := (RW2_keep m c (by decide)).trans (at_v10_1 m c)
theorem at_v10_3 : RW3 m c (Proc.devRef .tc main_v10) = R.zcol := (RW3_keep m c (by decide)).trans (at_v10_2 m c)
theorem at_v10_4 : RW4 m c (Proc.devRef .tc main_v10) = R.zcol := (RW4_keep m c (by decide)).trans (at_v10_3 m c)
theorem at_v10_5 : RW5 m c (Proc.devRef .tc main_v10) = R.zcol := (RW5_keep m c (by decide)).trans (at_v10_4 m c)
theorem at_v10_6 : RW6 m c (Proc.devRef .tc main_v10) = R.zcol := (RW6_keep m c (by decide)).trans (at_v10_5 m c)
theorem at_v10_7 : RW7 m c (Proc.devRef .tc main_v10) = R.zcol := (RW7_keep m c (by decide)).trans (at_v10_6 m c)
theorem at_v10_8 : RW8 m c (Proc.devRef .tc main_v10) = R.zcol := (RW8_keep m c (by decide)).trans (at_v10_7 m c)
theorem at_v10_9 : RW9 m c (Proc.devRef .tc main_v10) = R.zcol := (RW9_keep m c (by decide)).trans (at_v10_8 m c)
theorem at_v10_10 : RW10 m c (Proc.devRef .tc main_v10) = R.zcol := (RW10_keep m c (by decide)).trans (at_v10_9 m c)
theorem at_v122_11 : RW11 m c (Proc.devRef .tc main_v122) = C_v122 (F := Ideal) ((R.argsOf m c).a4) (R.zcol) :=
  rd_v122 (RW10 m c) (R.argsOf m c) (at_arg4_10 m c) (at_v10_10 m c)
theorem at_v36_1 : RW1 m c (Proc.devRef .tc main_v36) = R.P10_eW1 (R.argsOf m c) :=
  pr_v36 (RW0 m c) (R.argsOf m c) (at_arg5_0 m c)
theorem at_v36_2 : RW2 m c (Proc.devRef .tc main_v36) = R.P10_eW1 (R.argsOf m c) := (RW2_keep m c (by decide)).trans (at_v36_1 m c)
theorem at_v36_3 : RW3 m c (Proc.devRef .tc main_v36) = R.P10_eW1 (R.argsOf m c) := (RW3_keep m c (by decide)).trans (at_v36_2 m c)
theorem at_v36_4 : RW4 m c (Proc.devRef .tc main_v36) = R.P10_eW1 (R.argsOf m c) := (RW4_keep m c (by decide)).trans (at_v36_3 m c)
theorem at_v36_5 : RW5 m c (Proc.devRef .tc main_v36) = R.P10_eW1 (R.argsOf m c) := (RW5_keep m c (by decide)).trans (at_v36_4 m c)
theorem at_v36_6 : RW6 m c (Proc.devRef .tc main_v36) = R.P10_eW1 (R.argsOf m c) := (RW6_keep m c (by decide)).trans (at_v36_5 m c)
theorem at_v36_7 : RW7 m c (Proc.devRef .tc main_v36) = R.P10_eW1 (R.argsOf m c) := (RW7_keep m c (by decide)).trans (at_v36_6 m c)
theorem at_v36_8 : RW8 m c (Proc.devRef .tc main_v36) = R.P10_eW1 (R.argsOf m c) := (RW8_keep m c (by decide)).trans (at_v36_7 m c)
theorem at_v36_9 : RW9 m c (Proc.devRef .tc main_v36) = R.P10_eW1 (R.argsOf m c) := (RW9_keep m c (by decide)).trans (at_v36_8 m c)
theorem at_v36_10 : RW10 m c (Proc.devRef .tc main_v36) = R.P10_eW1 (R.argsOf m c) := (RW10_keep m c (by decide)).trans (at_v36_9 m c)
theorem at_v36_11 : RW11 m c (Proc.devRef .tc main_v36) = R.P10_eW1 (R.argsOf m c) := (RW11_keep m c (by decide)).trans (at_v36_10 m c)
theorem at_v38_1 : RW1 m c (Proc.devRef .tc main_v38) = R.P10_eb1 (R.argsOf m c) :=
  pr_v38 (RW0 m c) (R.argsOf m c) (at_arg6_0 m c)
theorem at_v38_2 : RW2 m c (Proc.devRef .tc main_v38) = R.P10_eb1 (R.argsOf m c) := (RW2_keep m c (by decide)).trans (at_v38_1 m c)
theorem at_v38_3 : RW3 m c (Proc.devRef .tc main_v38) = R.P10_eb1 (R.argsOf m c) := (RW3_keep m c (by decide)).trans (at_v38_2 m c)
theorem at_v38_4 : RW4 m c (Proc.devRef .tc main_v38) = R.P10_eb1 (R.argsOf m c) := (RW4_keep m c (by decide)).trans (at_v38_3 m c)
theorem at_v38_5 : RW5 m c (Proc.devRef .tc main_v38) = R.P10_eb1 (R.argsOf m c) := (RW5_keep m c (by decide)).trans (at_v38_4 m c)
theorem at_v38_6 : RW6 m c (Proc.devRef .tc main_v38) = R.P10_eb1 (R.argsOf m c) := (RW6_keep m c (by decide)).trans (at_v38_5 m c)
theorem at_v38_7 : RW7 m c (Proc.devRef .tc main_v38) = R.P10_eb1 (R.argsOf m c) := (RW7_keep m c (by decide)).trans (at_v38_6 m c)
theorem at_v38_8 : RW8 m c (Proc.devRef .tc main_v38) = R.P10_eb1 (R.argsOf m c) := (RW8_keep m c (by decide)).trans (at_v38_7 m c)
theorem at_v38_9 : RW9 m c (Proc.devRef .tc main_v38) = R.P10_eb1 (R.argsOf m c) := (RW9_keep m c (by decide)).trans (at_v38_8 m c)
theorem at_v38_10 : RW10 m c (Proc.devRef .tc main_v38) = R.P10_eb1 (R.argsOf m c) := (RW10_keep m c (by decide)).trans (at_v38_9 m c)
theorem at_v38_11 : RW11 m c (Proc.devRef .tc main_v38) = R.P10_eb1 (R.argsOf m c) := (RW11_keep m c (by decide)).trans (at_v38_10 m c)
theorem at_v40_1 : RW1 m c (Proc.devRef .tc main_v40) = R.P10_eW2 (R.argsOf m c) :=
  pr_v40 (RW0 m c) (R.argsOf m c) (at_arg7_0 m c)
theorem at_v40_2 : RW2 m c (Proc.devRef .tc main_v40) = R.P10_eW2 (R.argsOf m c) := (RW2_keep m c (by decide)).trans (at_v40_1 m c)
theorem at_v40_3 : RW3 m c (Proc.devRef .tc main_v40) = R.P10_eW2 (R.argsOf m c) := (RW3_keep m c (by decide)).trans (at_v40_2 m c)
theorem at_v40_4 : RW4 m c (Proc.devRef .tc main_v40) = R.P10_eW2 (R.argsOf m c) := (RW4_keep m c (by decide)).trans (at_v40_3 m c)
theorem at_v40_5 : RW5 m c (Proc.devRef .tc main_v40) = R.P10_eW2 (R.argsOf m c) := (RW5_keep m c (by decide)).trans (at_v40_4 m c)
theorem at_v40_6 : RW6 m c (Proc.devRef .tc main_v40) = R.P10_eW2 (R.argsOf m c) := (RW6_keep m c (by decide)).trans (at_v40_5 m c)
theorem at_v40_7 : RW7 m c (Proc.devRef .tc main_v40) = R.P10_eW2 (R.argsOf m c) := (RW7_keep m c (by decide)).trans (at_v40_6 m c)
theorem at_v40_8 : RW8 m c (Proc.devRef .tc main_v40) = R.P10_eW2 (R.argsOf m c) := (RW8_keep m c (by decide)).trans (at_v40_7 m c)
theorem at_v40_9 : RW9 m c (Proc.devRef .tc main_v40) = R.P10_eW2 (R.argsOf m c) := (RW9_keep m c (by decide)).trans (at_v40_8 m c)
theorem at_v40_10 : RW10 m c (Proc.devRef .tc main_v40) = R.P10_eW2 (R.argsOf m c) := (RW10_keep m c (by decide)).trans (at_v40_9 m c)
theorem at_v40_11 : RW11 m c (Proc.devRef .tc main_v40) = R.P10_eW2 (R.argsOf m c) := (RW11_keep m c (by decide)).trans (at_v40_10 m c)
theorem at_v42_1 : RW1 m c (Proc.devRef .tc main_v42) = R.P10_eb2 (R.argsOf m c) :=
  pr_v42 (RW0 m c) (R.argsOf m c) (at_arg8_0 m c)
theorem at_v42_2 : RW2 m c (Proc.devRef .tc main_v42) = R.P10_eb2 (R.argsOf m c) := (RW2_keep m c (by decide)).trans (at_v42_1 m c)
theorem at_v42_3 : RW3 m c (Proc.devRef .tc main_v42) = R.P10_eb2 (R.argsOf m c) := (RW3_keep m c (by decide)).trans (at_v42_2 m c)
theorem at_v42_4 : RW4 m c (Proc.devRef .tc main_v42) = R.P10_eb2 (R.argsOf m c) := (RW4_keep m c (by decide)).trans (at_v42_3 m c)
theorem at_v42_5 : RW5 m c (Proc.devRef .tc main_v42) = R.P10_eb2 (R.argsOf m c) := (RW5_keep m c (by decide)).trans (at_v42_4 m c)
theorem at_v42_6 : RW6 m c (Proc.devRef .tc main_v42) = R.P10_eb2 (R.argsOf m c) := (RW6_keep m c (by decide)).trans (at_v42_5 m c)
theorem at_v42_7 : RW7 m c (Proc.devRef .tc main_v42) = R.P10_eb2 (R.argsOf m c) := (RW7_keep m c (by decide)).trans (at_v42_6 m c)
theorem at_v42_8 : RW8 m c (Proc.devRef .tc main_v42) = R.P10_eb2 (R.argsOf m c) := (RW8_keep m c (by decide)).trans (at_v42_7 m c)
theorem at_v42_9 : RW9 m c (Proc.devRef .tc main_v42) = R.P10_eb2 (R.argsOf m c) := (RW9_keep m c (by decide)).trans (at_v42_8 m c)
theorem at_v42_10 : RW10 m c (Proc.devRef .tc main_v42) = R.P10_eb2 (R.argsOf m c) := (RW10_keep m c (by decide)).trans (at_v42_9 m c)
theorem at_v42_11 : RW11 m c (Proc.devRef .tc main_v42) = R.P10_eb2 (R.argsOf m c) := (RW11_keep m c (by decide)).trans (at_v42_10 m c)
theorem at_v147_12 : RW12 m c (Proc.devRef .tc main_v147) = R.ue1 (R.argsOf m c) :=
  st_ue1 (RW11 m c) (R.argsOf m c) (at_v123_11 m c) (at_v130_11 m c) (at_v137_11 m c) (at_v122_11 m c) (at_v36_11 m c) (at_v38_11 m c) (at_v40_11 m c) (at_v42_11 m c)
theorem at_v5_11 : RW11 m c (Proc.devRef .tc main_v5) = R.ur (R.argsOf m c) := (RW11_keep m c (by decide)).trans (at_v5_10 m c)
theorem at_v5_12 : RW12 m c (Proc.devRef .tc main_v5) = R.ur (R.argsOf m c) := (RW12_keep m c (by decide)).trans (at_v5_11 m c)
theorem at_v150_13 : RW13 m c (Proc.devRef .tc main_v150) = C_v150 (F := Ideal) (R.ur (R.argsOf m c)) (R.ue1 (R.argsOf m c)) :=
  rd_v150 (RW12 m c) (R.argsOf m c) (at_v5_12 m c) (at_v147_12 m c)
theorem at_v156_13 : RW13 m c (Proc.devRef .tc main_v156) = C_v156 (F := Ideal) (R.ur (R.argsOf m c)) :=
  rd_v156 (RW12 m c) (R.argsOf m c) (at_v5_12 m c)
theorem at_v157_14 : RW14 m c (Proc.devRef .tc main_v157) = R.ua1 (R.argsOf m c) :=
  st_ua1 (RW13 m c) (R.argsOf m c) (at_v150_13 m c) (at_v156_13 m c)
theorem at_v121_11 : RW11 m c (Proc.devRef .tc main_v121) = R.g1 (R.argsOf m c) := (RW11_keep m c (by decide)).trans (at_v121_10 m c)
theorem at_v121_12 : RW12 m c (Proc.devRef .tc main_v121) = R.g1 (R.argsOf m c) := (RW12_keep m c (by decide)).trans (at_v121_11 m c)
theorem at_v121_13 : RW13 m c (Proc.devRef .tc main_v121) = R.g1 (R.argsOf m c) := (RW13_keep m c (by decide)).trans (at_v121_12 m c)
theorem at_v121_14 : RW14 m c (Proc.devRef .tc main_v121) = R.g1 (R.argsOf m c) := (RW14_keep m c (by decide)).trans (at_v121_13 m c)
theorem at_v158_15 : RW15 m c (Proc.devRef .tc main_v158) = C_v158 (F := Ideal) (R.g1 (R.argsOf m c)) :=
  rd_v158 (RW14 m c) (R.argsOf m c) (at_v121_14 m c)
theorem at_v105_11 : RW11 m c (Proc.devRef .tc main_v105) = R.ln1 (R.argsOf m c) := (RW11_keep m c (by decide)).trans (at_v105_10 m c)
theorem at_v105_12 : RW12 m c (Proc.devRef .tc main_v105) = R.ln1 (R.argsOf m c) := (RW12_keep m c (by decide)).trans (at_v105_11 m c)
theorem at_v105_13 : RW13 m c (Proc.devRef .tc main_v105) = R.ln1 (R.argsOf m c) := (RW13_keep m c (by decide)).trans (at_v105_12 m c)
theorem at_v105_14 : RW14 m c (Proc.devRef .tc main_v105) = R.ln1 (R.argsOf m c) := (RW14_keep m c (by decide)).trans (at_v105_13 m c)
theorem at_v105_15 : RW15 m c (Proc.devRef .tc main_v105) = R.ln1 (R.argsOf m c) := (RW15_keep m c (by decide)).trans (at_v105_14 m c)
theorem at_v157_15 : RW15 m c (Proc.devRef .tc main_v157) = R.ua1 (R.argsOf m c) := (RW15_keep m c (by decide)).trans (at_v157_14 m c)
theorem at_v44_1 : RW1 m c (Proc.devRef .tc main_v44) = R.P10_nW1 (R.argsOf m c) :=
  pr_v44 (RW0 m c) (R.argsOf m c) (at_arg9_0 m c)
theorem at_v44_2 : RW2 m c (Proc.devRef .tc main_v44) = R.P10_nW1 (R.argsOf m c) := (RW2_keep m c (by decide)).trans (at_v44_1 m c)
theorem at_v44_3 : RW3 m c (Proc.devRef .tc main_v44) = R.P10_nW1 (R.argsOf m c) := (RW3_keep m c (by decide)).trans (at_v44_2 m c)
theorem at_v44_4 : RW4 m c (Proc.devRef .tc main_v44) = R.P10_nW1 (R.argsOf m c) := (RW4_keep m c (by decide)).trans (at_v44_3 m c)
theorem at_v44_5 : RW5 m c (Proc.devRef .tc main_v44) = R.P10_nW1 (R.argsOf m c) := (RW5_keep m c (by decide)).trans (at_v44_4 m c)
theorem at_v44_6 : RW6 m c (Proc.devRef .tc main_v44) = R.P10_nW1 (R.argsOf m c) := (RW6_keep m c (by decide)).trans (at_v44_5 m c)
theorem at_v44_7 : RW7 m c (Proc.devRef .tc main_v44) = R.P10_nW1 (R.argsOf m c) := (RW7_keep m c (by decide)).trans (at_v44_6 m c)
theorem at_v44_8 : RW8 m c (Proc.devRef .tc main_v44) = R.P10_nW1 (R.argsOf m c) := (RW8_keep m c (by decide)).trans (at_v44_7 m c)
theorem at_v44_9 : RW9 m c (Proc.devRef .tc main_v44) = R.P10_nW1 (R.argsOf m c) := (RW9_keep m c (by decide)).trans (at_v44_8 m c)
theorem at_v44_10 : RW10 m c (Proc.devRef .tc main_v44) = R.P10_nW1 (R.argsOf m c) := (RW10_keep m c (by decide)).trans (at_v44_9 m c)
theorem at_v44_11 : RW11 m c (Proc.devRef .tc main_v44) = R.P10_nW1 (R.argsOf m c) := (RW11_keep m c (by decide)).trans (at_v44_10 m c)
theorem at_v44_12 : RW12 m c (Proc.devRef .tc main_v44) = R.P10_nW1 (R.argsOf m c) := (RW12_keep m c (by decide)).trans (at_v44_11 m c)
theorem at_v44_13 : RW13 m c (Proc.devRef .tc main_v44) = R.P10_nW1 (R.argsOf m c) := (RW13_keep m c (by decide)).trans (at_v44_12 m c)
theorem at_v44_14 : RW14 m c (Proc.devRef .tc main_v44) = R.P10_nW1 (R.argsOf m c) := (RW14_keep m c (by decide)).trans (at_v44_13 m c)
theorem at_v44_15 : RW15 m c (Proc.devRef .tc main_v44) = R.P10_nW1 (R.argsOf m c) := (RW15_keep m c (by decide)).trans (at_v44_14 m c)
theorem at_v46_1 : RW1 m c (Proc.devRef .tc main_v46) = R.P10_nb1 (R.argsOf m c) :=
  pr_v46 (RW0 m c) (R.argsOf m c) (at_arg10_0 m c)
theorem at_v46_2 : RW2 m c (Proc.devRef .tc main_v46) = R.P10_nb1 (R.argsOf m c) := (RW2_keep m c (by decide)).trans (at_v46_1 m c)
theorem at_v46_3 : RW3 m c (Proc.devRef .tc main_v46) = R.P10_nb1 (R.argsOf m c) := (RW3_keep m c (by decide)).trans (at_v46_2 m c)
theorem at_v46_4 : RW4 m c (Proc.devRef .tc main_v46) = R.P10_nb1 (R.argsOf m c) := (RW4_keep m c (by decide)).trans (at_v46_3 m c)
theorem at_v46_5 : RW5 m c (Proc.devRef .tc main_v46) = R.P10_nb1 (R.argsOf m c) := (RW5_keep m c (by decide)).trans (at_v46_4 m c)
theorem at_v46_6 : RW6 m c (Proc.devRef .tc main_v46) = R.P10_nb1 (R.argsOf m c) := (RW6_keep m c (by decide)).trans (at_v46_5 m c)
theorem at_v46_7 : RW7 m c (Proc.devRef .tc main_v46) = R.P10_nb1 (R.argsOf m c) := (RW7_keep m c (by decide)).trans (at_v46_6 m c)
theorem at_v46_8 : RW8 m c (Proc.devRef .tc main_v46) = R.P10_nb1 (R.argsOf m c) := (RW8_keep m c (by decide)).trans (at_v46_7 m c)
theorem at_v46_9 : RW9 m c (Proc.devRef .tc main_v46) = R.P10_nb1 (R.argsOf m c) := (RW9_keep m c (by decide)).trans (at_v46_8 m c)
theorem at_v46_10 : RW10 m c (Proc.devRef .tc main_v46) = R.P10_nb1 (R.argsOf m c) := (RW10_keep m c (by decide)).trans (at_v46_9 m c)
theorem at_v46_11 : RW11 m c (Proc.devRef .tc main_v46) = R.P10_nb1 (R.argsOf m c) := (RW11_keep m c (by decide)).trans (at_v46_10 m c)
theorem at_v46_12 : RW12 m c (Proc.devRef .tc main_v46) = R.P10_nb1 (R.argsOf m c) := (RW12_keep m c (by decide)).trans (at_v46_11 m c)
theorem at_v46_13 : RW13 m c (Proc.devRef .tc main_v46) = R.P10_nb1 (R.argsOf m c) := (RW13_keep m c (by decide)).trans (at_v46_12 m c)
theorem at_v46_14 : RW14 m c (Proc.devRef .tc main_v46) = R.P10_nb1 (R.argsOf m c) := (RW14_keep m c (by decide)).trans (at_v46_13 m c)
theorem at_v46_15 : RW15 m c (Proc.devRef .tc main_v46) = R.P10_nb1 (R.argsOf m c) := (RW15_keep m c (by decide)).trans (at_v46_14 m c)
theorem at_v48_1 : RW1 m c (Proc.devRef .tc main_v48) = R.P10_nW2 (R.argsOf m c) :=
  pr_v48 (RW0 m c) (R.argsOf m c) (at_arg11_0 m c)
theorem at_v48_2 : RW2 m c (Proc.devRef .tc main_v48) = R.P10_nW2 (R.argsOf m c) := (RW2_keep m c (by decide)).trans (at_v48_1 m c)
theorem at_v48_3 : RW3 m c (Proc.devRef .tc main_v48) = R.P10_nW2 (R.argsOf m c) := (RW3_keep m c (by decide)).trans (at_v48_2 m c)
theorem at_v48_4 : RW4 m c (Proc.devRef .tc main_v48) = R.P10_nW2 (R.argsOf m c) := (RW4_keep m c (by decide)).trans (at_v48_3 m c)
theorem at_v48_5 : RW5 m c (Proc.devRef .tc main_v48) = R.P10_nW2 (R.argsOf m c) := (RW5_keep m c (by decide)).trans (at_v48_4 m c)
theorem at_v48_6 : RW6 m c (Proc.devRef .tc main_v48) = R.P10_nW2 (R.argsOf m c) := (RW6_keep m c (by decide)).trans (at_v48_5 m c)
theorem at_v48_7 : RW7 m c (Proc.devRef .tc main_v48) = R.P10_nW2 (R.argsOf m c) := (RW7_keep m c (by decide)).trans (at_v48_6 m c)
theorem at_v48_8 : RW8 m c (Proc.devRef .tc main_v48) = R.P10_nW2 (R.argsOf m c) := (RW8_keep m c (by decide)).trans (at_v48_7 m c)
theorem at_v48_9 : RW9 m c (Proc.devRef .tc main_v48) = R.P10_nW2 (R.argsOf m c) := (RW9_keep m c (by decide)).trans (at_v48_8 m c)
theorem at_v48_10 : RW10 m c (Proc.devRef .tc main_v48) = R.P10_nW2 (R.argsOf m c) := (RW10_keep m c (by decide)).trans (at_v48_9 m c)
theorem at_v48_11 : RW11 m c (Proc.devRef .tc main_v48) = R.P10_nW2 (R.argsOf m c) := (RW11_keep m c (by decide)).trans (at_v48_10 m c)
theorem at_v48_12 : RW12 m c (Proc.devRef .tc main_v48) = R.P10_nW2 (R.argsOf m c) := (RW12_keep m c (by decide)).trans (at_v48_11 m c)
theorem at_v48_13 : RW13 m c (Proc.devRef .tc main_v48) = R.P10_nW2 (R.argsOf m c) := (RW13_keep m c (by decide)).trans (at_v48_12 m c)
theorem at_v48_14 : RW14 m c (Proc.devRef .tc main_v48) = R.P10_nW2 (R.argsOf m c) := (RW14_keep m c (by decide)).trans (at_v48_13 m c)
theorem at_v48_15 : RW15 m c (Proc.devRef .tc main_v48) = R.P10_nW2 (R.argsOf m c) := (RW15_keep m c (by decide)).trans (at_v48_14 m c)
theorem at_v50_1 : RW1 m c (Proc.devRef .tc main_v50) = R.P10_nb2 (R.argsOf m c) :=
  pr_v50 (RW0 m c) (R.argsOf m c) (at_arg12_0 m c)
theorem at_v50_2 : RW2 m c (Proc.devRef .tc main_v50) = R.P10_nb2 (R.argsOf m c) := (RW2_keep m c (by decide)).trans (at_v50_1 m c)
theorem at_v50_3 : RW3 m c (Proc.devRef .tc main_v50) = R.P10_nb2 (R.argsOf m c) := (RW3_keep m c (by decide)).trans (at_v50_2 m c)
theorem at_v50_4 : RW4 m c (Proc.devRef .tc main_v50) = R.P10_nb2 (R.argsOf m c) := (RW4_keep m c (by decide)).trans (at_v50_3 m c)
theorem at_v50_5 : RW5 m c (Proc.devRef .tc main_v50) = R.P10_nb2 (R.argsOf m c) := (RW5_keep m c (by decide)).trans (at_v50_4 m c)
theorem at_v50_6 : RW6 m c (Proc.devRef .tc main_v50) = R.P10_nb2 (R.argsOf m c) := (RW6_keep m c (by decide)).trans (at_v50_5 m c)
theorem at_v50_7 : RW7 m c (Proc.devRef .tc main_v50) = R.P10_nb2 (R.argsOf m c) := (RW7_keep m c (by decide)).trans (at_v50_6 m c)
theorem at_v50_8 : RW8 m c (Proc.devRef .tc main_v50) = R.P10_nb2 (R.argsOf m c) := (RW8_keep m c (by decide)).trans (at_v50_7 m c)
theorem at_v50_9 : RW9 m c (Proc.devRef .tc main_v50) = R.P10_nb2 (R.argsOf m c) := (RW9_keep m c (by decide)).trans (at_v50_8 m c)
theorem at_v50_10 : RW10 m c (Proc.devRef .tc main_v50) = R.P10_nb2 (R.argsOf m c) := (RW10_keep m c (by decide)).trans (at_v50_9 m c)
theorem at_v50_11 : RW11 m c (Proc.devRef .tc main_v50) = R.P10_nb2 (R.argsOf m c) := (RW11_keep m c (by decide)).trans (at_v50_10 m c)
theorem at_v50_12 : RW12 m c (Proc.devRef .tc main_v50) = R.P10_nb2 (R.argsOf m c) := (RW12_keep m c (by decide)).trans (at_v50_11 m c)
theorem at_v50_13 : RW13 m c (Proc.devRef .tc main_v50) = R.P10_nb2 (R.argsOf m c) := (RW13_keep m c (by decide)).trans (at_v50_12 m c)
theorem at_v50_14 : RW14 m c (Proc.devRef .tc main_v50) = R.P10_nb2 (R.argsOf m c) := (RW14_keep m c (by decide)).trans (at_v50_13 m c)
theorem at_v50_15 : RW15 m c (Proc.devRef .tc main_v50) = R.P10_nb2 (R.argsOf m c) := (RW15_keep m c (by decide)).trans (at_v50_14 m c)
theorem at_v168_16 : RW16 m c (Proc.devRef .tc main_v168) = R.un1 (R.argsOf m c) :=
  st_un1 (RW15 m c) (R.argsOf m c) (at_v158_15 m c) (at_v105_15 m c) (at_v157_15 m c) (at_v44_15 m c) (at_v46_15 m c) (at_v48_15 m c) (at_v50_15 m c)
theorem at_v172_17 : RW17 m c (Proc.devRef .tc main_v172) = C_v172 (F := Ideal) (R.un1 (R.argsOf m c)) :=
  rd_v172 (RW16 m c) (R.argsOf m c) (at_v168_16 m c)
theorem at_v147_13 : RW13 m c (Proc.devRef .tc main_v147) = R.ue1 (R.argsOf m c) := (RW13_keep m c (by decide)).trans (at_v147_12 m c)
theorem at_v147_14 : RW14 m c (Proc.devRef .tc main_v147) = R.ue1 (R.argsOf m c) := (RW14_keep m c (by decide)).trans (at_v147_13 m c)
theorem at_v147_15 : RW15 m c (Proc.devRef .tc main_v147) = R.ue1 (R.argsOf m c) := (RW15_keep m c (by decide)).trans (at_v147_14 m c)
theorem at_v147_16 : RW16 m c (Proc.devRef .tc main_v147) = R.ue1 (R.argsOf m c) := (RW16_keep m c (by decide)).trans (at_v147_15 m c)
theorem at_v176_17 : RW17 m c (Proc.devRef .tc main_v176) = C_v176 (F := Ideal) (R.ue1 (R.argsOf m c)) :=
  rd_v176 (RW16 m c) (R.argsOf m c) (at_v147_16 m c)
theorem at_v121_15 : RW15 m c (Proc.devRef .tc main_v121) = R.g1 (R.argsOf m c) := (RW15_keep m c (by decide)).trans (at_v121_14 m c)
theorem at_v121_16 : RW16 m c (Proc.devRef .tc main_v121) = R.g1 (R.argsOf m c) := (RW16_keep m c (by decide)).trans (at_v121_15 m c)
theorem at_v121_17 : RW17 m c (Proc.devRef .tc main_v121) = R.g1 (R.argsOf m c) := (RW17_keep m c (by decide)).trans (at_v121_16 m c)
theorem at_v52_1 : RW1 m c (Proc.devRef .tc main_v52) = R.P10_gW1 (R.argsOf m c) :=
  pr_v52 (RW0 m c) (R.argsOf m c) (at_arg13_0 m c)
theorem at_v52_2 : RW2 m c (Proc.devRef .tc main_v52) = R.P10_gW1 (R.argsOf m c) := (RW2_keep m c (by decide)).trans (at_v52_1 m c)
theorem at_v52_3 : RW3 m c (Proc.devRef .tc main_v52) = R.P10_gW1 (R.argsOf m c) := (RW3_keep m c (by decide)).trans (at_v52_2 m c)
theorem at_v52_4 : RW4 m c (Proc.devRef .tc main_v52) = R.P10_gW1 (R.argsOf m c) := (RW4_keep m c (by decide)).trans (at_v52_3 m c)
theorem at_v52_5 : RW5 m c (Proc.devRef .tc main_v52) = R.P10_gW1 (R.argsOf m c) := (RW5_keep m c (by decide)).trans (at_v52_4 m c)
theorem at_v52_6 : RW6 m c (Proc.devRef .tc main_v52) = R.P10_gW1 (R.argsOf m c) := (RW6_keep m c (by decide)).trans (at_v52_5 m c)
theorem at_v52_7 : RW7 m c (Proc.devRef .tc main_v52) = R.P10_gW1 (R.argsOf m c) := (RW7_keep m c (by decide)).trans (at_v52_6 m c)
theorem at_v52_8 : RW8 m c (Proc.devRef .tc main_v52) = R.P10_gW1 (R.argsOf m c) := (RW8_keep m c (by decide)).trans (at_v52_7 m c)
theorem at_v52_9 : RW9 m c (Proc.devRef .tc main_v52) = R.P10_gW1 (R.argsOf m c) := (RW9_keep m c (by decide)).trans (at_v52_8 m c)
theorem at_v52_10 : RW10 m c (Proc.devRef .tc main_v52) = R.P10_gW1 (R.argsOf m c) := (RW10_keep m c (by decide)).trans (at_v52_9 m c)
theorem at_v52_11 : RW11 m c (Proc.devRef .tc main_v52) = R.P10_gW1 (R.argsOf m c) := (RW11_keep m c (by decide)).trans (at_v52_10 m c)
theorem at_v52_12 : RW12 m c (Proc.devRef .tc main_v52) = R.P10_gW1 (R.argsOf m c) := (RW12_keep m c (by decide)).trans (at_v52_11 m c)
theorem at_v52_13 : RW13 m c (Proc.devRef .tc main_v52) = R.P10_gW1 (R.argsOf m c) := (RW13_keep m c (by decide)).trans (at_v52_12 m c)
theorem at_v52_14 : RW14 m c (Proc.devRef .tc main_v52) = R.P10_gW1 (R.argsOf m c) := (RW14_keep m c (by decide)).trans (at_v52_13 m c)
theorem at_v52_15 : RW15 m c (Proc.devRef .tc main_v52) = R.P10_gW1 (R.argsOf m c) := (RW15_keep m c (by decide)).trans (at_v52_14 m c)
theorem at_v52_16 : RW16 m c (Proc.devRef .tc main_v52) = R.P10_gW1 (R.argsOf m c) := (RW16_keep m c (by decide)).trans (at_v52_15 m c)
theorem at_v52_17 : RW17 m c (Proc.devRef .tc main_v52) = R.P10_gW1 (R.argsOf m c) := (RW17_keep m c (by decide)).trans (at_v52_16 m c)
theorem at_v54_1 : RW1 m c (Proc.devRef .tc main_v54) = R.P10_gb1 (R.argsOf m c) :=
  pr_v54 (RW0 m c) (R.argsOf m c) (at_arg14_0 m c)
theorem at_v54_2 : RW2 m c (Proc.devRef .tc main_v54) = R.P10_gb1 (R.argsOf m c) := (RW2_keep m c (by decide)).trans (at_v54_1 m c)
theorem at_v54_3 : RW3 m c (Proc.devRef .tc main_v54) = R.P10_gb1 (R.argsOf m c) := (RW3_keep m c (by decide)).trans (at_v54_2 m c)
theorem at_v54_4 : RW4 m c (Proc.devRef .tc main_v54) = R.P10_gb1 (R.argsOf m c) := (RW4_keep m c (by decide)).trans (at_v54_3 m c)
theorem at_v54_5 : RW5 m c (Proc.devRef .tc main_v54) = R.P10_gb1 (R.argsOf m c) := (RW5_keep m c (by decide)).trans (at_v54_4 m c)
theorem at_v54_6 : RW6 m c (Proc.devRef .tc main_v54) = R.P10_gb1 (R.argsOf m c) := (RW6_keep m c (by decide)).trans (at_v54_5 m c)
theorem at_v54_7 : RW7 m c (Proc.devRef .tc main_v54) = R.P10_gb1 (R.argsOf m c) := (RW7_keep m c (by decide)).trans (at_v54_6 m c)
theorem at_v54_8 : RW8 m c (Proc.devRef .tc main_v54) = R.P10_gb1 (R.argsOf m c) := (RW8_keep m c (by decide)).trans (at_v54_7 m c)
theorem at_v54_9 : RW9 m c (Proc.devRef .tc main_v54) = R.P10_gb1 (R.argsOf m c) := (RW9_keep m c (by decide)).trans (at_v54_8 m c)
theorem at_v54_10 : RW10 m c (Proc.devRef .tc main_v54) = R.P10_gb1 (R.argsOf m c) := (RW10_keep m c (by decide)).trans (at_v54_9 m c)
theorem at_v54_11 : RW11 m c (Proc.devRef .tc main_v54) = R.P10_gb1 (R.argsOf m c) := (RW11_keep m c (by decide)).trans (at_v54_10 m c)
theorem at_v54_12 : RW12 m c (Proc.devRef .tc main_v54) = R.P10_gb1 (R.argsOf m c) := (RW12_keep m c (by decide)).trans (at_v54_11 m c)
theorem at_v54_13 : RW13 m c (Proc.devRef .tc main_v54) = R.P10_gb1 (R.argsOf m c) := (RW13_keep m c (by decide)).trans (at_v54_12 m c)
theorem at_v54_14 : RW14 m c (Proc.devRef .tc main_v54) = R.P10_gb1 (R.argsOf m c) := (RW14_keep m c (by decide)).trans (at_v54_13 m c)
theorem at_v54_15 : RW15 m c (Proc.devRef .tc main_v54) = R.P10_gb1 (R.argsOf m c) := (RW15_keep m c (by decide)).trans (at_v54_14 m c)
theorem at_v54_16 : RW16 m c (Proc.devRef .tc main_v54) = R.P10_gb1 (R.argsOf m c) := (RW16_keep m c (by decide)).trans (at_v54_15 m c)
theorem at_v54_17 : RW17 m c (Proc.devRef .tc main_v54) = R.P10_gb1 (R.argsOf m c) := (RW17_keep m c (by decide)).trans (at_v54_16 m c)
theorem at_v56_1 : RW1 m c (Proc.devRef .tc main_v56) = R.P10_gW2 (R.argsOf m c) :=
  pr_v56 (RW0 m c) (R.argsOf m c) (at_arg15_0 m c)
theorem at_v56_2 : RW2 m c (Proc.devRef .tc main_v56) = R.P10_gW2 (R.argsOf m c) := (RW2_keep m c (by decide)).trans (at_v56_1 m c)
theorem at_v56_3 : RW3 m c (Proc.devRef .tc main_v56) = R.P10_gW2 (R.argsOf m c) := (RW3_keep m c (by decide)).trans (at_v56_2 m c)
theorem at_v56_4 : RW4 m c (Proc.devRef .tc main_v56) = R.P10_gW2 (R.argsOf m c) := (RW4_keep m c (by decide)).trans (at_v56_3 m c)
theorem at_v56_5 : RW5 m c (Proc.devRef .tc main_v56) = R.P10_gW2 (R.argsOf m c) := (RW5_keep m c (by decide)).trans (at_v56_4 m c)
theorem at_v56_6 : RW6 m c (Proc.devRef .tc main_v56) = R.P10_gW2 (R.argsOf m c) := (RW6_keep m c (by decide)).trans (at_v56_5 m c)
theorem at_v56_7 : RW7 m c (Proc.devRef .tc main_v56) = R.P10_gW2 (R.argsOf m c) := (RW7_keep m c (by decide)).trans (at_v56_6 m c)
theorem at_v56_8 : RW8 m c (Proc.devRef .tc main_v56) = R.P10_gW2 (R.argsOf m c) := (RW8_keep m c (by decide)).trans (at_v56_7 m c)
theorem at_v56_9 : RW9 m c (Proc.devRef .tc main_v56) = R.P10_gW2 (R.argsOf m c) := (RW9_keep m c (by decide)).trans (at_v56_8 m c)
theorem at_v56_10 : RW10 m c (Proc.devRef .tc main_v56) = R.P10_gW2 (R.argsOf m c) := (RW10_keep m c (by decide)).trans (at_v56_9 m c)
theorem at_v56_11 : RW11 m c (Proc.devRef .tc main_v56) = R.P10_gW2 (R.argsOf m c) := (RW11_keep m c (by decide)).trans (at_v56_10 m c)
theorem at_v56_12 : RW12 m c (Proc.devRef .tc main_v56) = R.P10_gW2 (R.argsOf m c) := (RW12_keep m c (by decide)).trans (at_v56_11 m c)
theorem at_v56_13 : RW13 m c (Proc.devRef .tc main_v56) = R.P10_gW2 (R.argsOf m c) := (RW13_keep m c (by decide)).trans (at_v56_12 m c)
theorem at_v56_14 : RW14 m c (Proc.devRef .tc main_v56) = R.P10_gW2 (R.argsOf m c) := (RW14_keep m c (by decide)).trans (at_v56_13 m c)
theorem at_v56_15 : RW15 m c (Proc.devRef .tc main_v56) = R.P10_gW2 (R.argsOf m c) := (RW15_keep m c (by decide)).trans (at_v56_14 m c)
theorem at_v56_16 : RW16 m c (Proc.devRef .tc main_v56) = R.P10_gW2 (R.argsOf m c) := (RW16_keep m c (by decide)).trans (at_v56_15 m c)
theorem at_v56_17 : RW17 m c (Proc.devRef .tc main_v56) = R.P10_gW2 (R.argsOf m c) := (RW17_keep m c (by decide)).trans (at_v56_16 m c)
theorem at_arg16_1 : RW1 m c (Proc.devRef .tc main_arg16) = (R.argsOf m c).a16 := (RW1_arg m c (by decide)).trans rfl
theorem at_v58_2 : RW2 m c (Proc.devRef .tc main_v58) = R.P10_gb2 (R.argsOf m c) :=
  pr_v58 (RW1 m c) (R.argsOf m c) (at_arg16_1 m c)
theorem at_v58_3 : RW3 m c (Proc.devRef .tc main_v58) = R.P10_gb2 (R.argsOf m c) := (RW3_keep m c (by decide)).trans (at_v58_2 m c)
theorem at_v58_4 : RW4 m c (Proc.devRef .tc main_v58) = R.P10_gb2 (R.argsOf m c) := (RW4_keep m c (by decide)).trans (at_v58_3 m c)
theorem at_v58_5 : RW5 m c (Proc.devRef .tc main_v58) = R.P10_gb2 (R.argsOf m c) := (RW5_keep m c (by decide)).trans (at_v58_4 m c)
theorem at_v58_6 : RW6 m c (Proc.devRef .tc main_v58) = R.P10_gb2 (R.argsOf m c) := (RW6_keep m c (by decide)).trans (at_v58_5 m c)
theorem at_v58_7 : RW7 m c (Proc.devRef .tc main_v58) = R.P10_gb2 (R.argsOf m c) := (RW7_keep m c (by decide)).trans (at_v58_6 m c)
theorem at_v58_8 : RW8 m c (Proc.devRef .tc main_v58) = R.P10_gb2 (R.argsOf m c) := (RW8_keep m c (by decide)).trans (at_v58_7 m c)
theorem at_v58_9 : RW9 m c (Proc.devRef .tc main_v58) = R.P10_gb2 (R.argsOf m c) := (RW9_keep m c (by decide)).trans (at_v58_8 m c)
theorem at_v58_10 : RW10 m c (Proc.devRef .tc main_v58) = R.P10_gb2 (R.argsOf m c) := (RW10_keep m c (by decide)).trans (at_v58_9 m c)
theorem at_v58_11 : RW11 m c (Proc.devRef .tc main_v58) = R.P10_gb2 (R.argsOf m c) := (RW11_keep m c (by decide)).trans (at_v58_10 m c)
theorem at_v58_12 : RW12 m c (Proc.devRef .tc main_v58) = R.P10_gb2 (R.argsOf m c) := (RW12_keep m c (by decide)).trans (at_v58_11 m c)
theorem at_v58_13 : RW13 m c (Proc.devRef .tc main_v58) = R.P10_gb2 (R.argsOf m c) := (RW13_keep m c (by decide)).trans (at_v58_12 m c)
theorem at_v58_14 : RW14 m c (Proc.devRef .tc main_v58) = R.P10_gb2 (R.argsOf m c) := (RW14_keep m c (by decide)).trans (at_v58_13 m c)
theorem at_v58_15 : RW15 m c (Proc.devRef .tc main_v58) = R.P10_gb2 (R.argsOf m c) := (RW15_keep m c (by decide)).trans (at_v58_14 m c)
theorem at_v58_16 : RW16 m c (Proc.devRef .tc main_v58) = R.P10_gb2 (R.argsOf m c) := (RW16_keep m c (by decide)).trans (at_v58_15 m c)
theorem at_v58_17 : RW17 m c (Proc.devRef .tc main_v58) = R.P10_gb2 (R.argsOf m c) := (RW17_keep m c (by decide)).trans (at_v58_16 m c)
theorem at_v184_18 : RW18 m c (Proc.devRef .tc main_v184) = R.g2 (R.argsOf m c) :=
  st_g2 (RW17 m c) (R.argsOf m c) (at_v172_17 m c) (at_v176_17 m c) (at_v121_17 m c) (at_v52_17 m c) (at_v54_17 m c) (at_v56_17 m c) (at_v58_17 m c)
theorem at_v184_19 : RW19 m c (Proc.devRef .tc main_v184) = R.g2 (R.argsOf m c) := (RW19_keep m c (by decide)).trans (at_v184_18 m c)
theorem at_v184_20 : RW20 m c (Proc.devRef .tc main_v184) = R.g2 (R.argsOf m c) := (RW20_keep m c (by decide)).trans (at_v184_19 m c)
theorem at_v234_21 : RW21 m c (Proc.devRef .tc main_v234) = C_v234 (F := Ideal) (R.g2 (R.argsOf m c)) :=
  rd_v234 (RW20 m c) (R.argsOf m c) (at_v184_20 m c)
theorem at_arg0_20 : RW20 m c (Proc.devRef .tc main_arg0) = (R.argsOf m c).a0 := (RW20_arg m c (by decide)).trans rfl
theorem at_v1_5 : RW5 m c (Proc.devRef .tc main_v1) = R.lr (R.argsOf m c) := (RW5_keep m c (by decide)).trans (at_v1_4 m c)
theorem at_v1_6 : RW6 m c (Proc.devRef .tc main_v1) = R.lr (R.argsOf m c) := (RW6_keep m c (by decide)).trans (at_v1_5 m c)
theorem at_v1_7 : RW7 m c (Proc.devRef .tc main_v1) = R.lr (R.argsOf m c) := (RW7_keep m c (by decide)).trans (at_v1_6 m c)
theorem at_v1_8 : RW8 m c (Proc.devRef .tc main_v1) = R.lr (R.argsOf m c) := (RW8_keep m c (by decide)).trans (at_v1_7 m c)
theorem at_v1_9 : RW9 m c (Proc.devRef .tc main_v1) = R.lr (R.argsOf m c) := (RW9_keep m c (by decide)).trans (at_v1_8 m c)
theorem at_v1_10 : RW10 m c (Proc.devRef .tc main_v1) = R.lr (R.argsOf m c) := (RW10_keep m c (by decide)).trans (at_v1_9 m c)
theorem at_v1_11 : RW11 m c (Proc.devRef .tc main_v1) = R.lr (R.argsOf m c) := (RW11_keep m c (by decide)).trans (at_v1_10 m c)
theorem at_v1_12 : RW12 m c (Proc.devRef .tc main_v1) = R.lr (R.argsOf m c) := (RW12_keep m c (by decide)).trans (at_v1_11 m c)
theorem at_v1_13 : RW13 m c (Proc.devRef .tc main_v1) = R.lr (R.argsOf m c) := (RW13_keep m c (by decide)).trans (at_v1_12 m c)
theorem at_v1_14 : RW14 m c (Proc.devRef .tc main_v1) = R.lr (R.argsOf m c) := (RW14_keep m c (by decide)).trans (at_v1_13 m c)
theorem at_v1_15 : RW15 m c (Proc.devRef .tc main_v1) = R.lr (R.argsOf m c) := (RW15_keep m c (by decide)).trans (at_v1_14 m c)
theorem at_v1_16 : RW16 m c (Proc.devRef .tc main_v1) = R.lr (R.argsOf m c) := (RW16_keep m c (by decide)).trans (at_v1_15 m c)
theorem at_v1_17 : RW17 m c (Proc.devRef .tc main_v1) = R.lr (R.argsOf m c) := (RW17_keep m c (by decide)).trans (at_v1_16 m c)
theorem at_v1_18 : RW18 m c (Proc.devRef .tc main_v1) = R.lr (R.argsOf m c) := (RW18_keep m c (by decide)).trans (at_v1_17 m c)
theorem at_v1_19 : RW19 m c (Proc.devRef .tc main_v1) = R.lr (R.argsOf m c) := (RW19_keep m c (by decide)).trans (at_v1_18 m c)
theorem at_v1_20 : RW20 m c (Proc.devRef .tc main_v1) = R.lr (R.argsOf m c) := (RW20_keep m c (by decide)).trans (at_v1_19 m c)
theorem at_v241_21 : RW21 m c (Proc.devRef .tc main_v241) = C_v241 (F := Ideal) ((R.argsOf m c).a0) (R.lr (R.argsOf m c)) :=
  rd_v241 (RW20 m c) (R.argsOf m c) (at_arg0_20 m c) (at_v1_20 m c)
theorem at_v3_3 : RW3 m c (Proc.devRef .tc main_v3) = R.lc (R.argsOf m c) := (RW3_keep m c (by decide)).trans (at_v3_2 m c)
theorem at_v3_4 : RW4 m c (Proc.devRef .tc main_v3) = R.lc (R.argsOf m c) := (RW4_keep m c (by decide)).trans (at_v3_3 m c)
theorem at_v3_5 : RW5 m c (Proc.devRef .tc main_v3) = R.lc (R.argsOf m c) := (RW5_keep m c (by decide)).trans (at_v3_4 m c)
theorem at_v3_6 : RW6 m c (Proc.devRef .tc main_v3) = R.lc (R.argsOf m c) := (RW6_keep m c (by decide)).trans (at_v3_5 m c)
theorem at_v3_7 : RW7 m c (Proc.devRef .tc main_v3) = R.lc (R.argsOf m c) := (RW7_keep m c (by decide)).trans (at_v3_6 m c)
theorem at_v3_8 : RW8 m c (Proc.devRef .tc main_v3) = R.lc (R.argsOf m c) := (RW8_keep m c (by decide)).trans (at_v3_7 m c)
theorem at_v3_9 : RW9 m c (Proc.devRef .tc main_v3) = R.lc (R.argsOf m c) := (RW9_keep m c (by decide)).trans (at_v3_8 m c)
theorem at_v3_10 : RW10 m c (Proc.devRef .tc main_v3) = R.lc (R.argsOf m c) := (RW10_keep m c (by decide)).trans (at_v3_9 m c)
theorem at_v3_11 : RW11 m c (Proc.devRef .tc main_v3) = R.lc (R.argsOf m c) := (RW11_keep m c (by decide)).trans (at_v3_10 m c)
theorem at_v3_12 : RW12 m c (Proc.devRef .tc main_v3) = R.lc (R.argsOf m c) := (RW12_keep m c (by decide)).trans (at_v3_11 m c)
theorem at_v3_13 : RW13 m c (Proc.devRef .tc main_v3) = R.lc (R.argsOf m c) := (RW13_keep m c (by decide)).trans (at_v3_12 m c)
theorem at_v3_14 : RW14 m c (Proc.devRef .tc main_v3) = R.lc (R.argsOf m c) := (RW14_keep m c (by decide)).trans (at_v3_13 m c)
theorem at_v3_15 : RW15 m c (Proc.devRef .tc main_v3) = R.lc (R.argsOf m c) := (RW15_keep m c (by decide)).trans (at_v3_14 m c)
theorem at_v3_16 : RW16 m c (Proc.devRef .tc main_v3) = R.lc (R.argsOf m c) := (RW16_keep m c (by decide)).trans (at_v3_15 m c)
theorem at_v3_17 : RW17 m c (Proc.devRef .tc main_v3) = R.lc (R.argsOf m c) := (RW17_keep m c (by decide)).trans (at_v3_16 m c)
theorem at_v3_18 : RW18 m c (Proc.devRef .tc main_v3) = R.lc (R.argsOf m c) := (RW18_keep m c (by decide)).trans (at_v3_17 m c)
theorem at_v3_19 : RW19 m c (Proc.devRef .tc main_v3) = R.lc (R.argsOf m c) := (RW19_keep m c (by decide)).trans (at_v3_18 m c)
theorem at_v3_20 : RW20 m c (Proc.devRef .tc main_v3) = R.lc (R.argsOf m c) := (RW20_keep m c (by decide)).trans (at_v3_19 m c)
theorem at_v248_21 : RW21 m c (Proc.devRef .tc main_v248) = C_v248 (F := Ideal) ((R.argsOf m c).a0) (R.lc (R.argsOf m c)) :=
  rd_v248 (RW20 m c) (R.argsOf m c) (at_arg0_20 m c) (at_v3_20 m c)
theorem at_v84_9 : RW9 m c (Proc.devRef .tc main_v84) = R.le1 (R.argsOf m c) := (RW9_keep m c (by decide)).trans (at_v84_8 m c)
theorem at_v84_10 : RW10 m c (Proc.devRef .tc main_v84) = R.le1 (R.argsOf m c) := (RW10_keep m c (by decide)).trans (at_v84_9 m c)
theorem at_v84_11 : RW11 m c (Proc.devRef .tc main_v84) = R.le1 (R.argsOf m c) := (RW11_keep m c (by decide)).trans (at_v84_10 m c)
theorem at_v84_12 : RW12 m c (Proc.devRef .tc main_v84) = R.le1 (R.argsOf m c) := (RW12_keep m c (by decide)).trans (at_v84_11 m c)
theorem at_v84_13 : RW13 m c (Proc.devRef .tc main_v84) = R.le1 (R.argsOf m c) := (RW13_keep m c (by decide)).trans (at_v84_12 m c)
theorem at_v84_14 : RW14 m c (Proc.devRef .tc main_v84) = R.le1 (R.argsOf m c) := (RW14_keep m c (by decide)).trans (at_v84_13 m c)
theorem at_v84_15 : RW15 m c (Proc.devRef .tc main_v84) = R.le1 (R.argsOf m c) := (RW15_keep m c (by decide)).trans (at_v84_14 m c)
theorem at_v84_16 : RW16 m c (Proc.devRef .tc main_v84) = R.le1 (R.argsOf m c) := (RW16_keep m c (by decide)).trans (at_v84_15 m c)
theorem at_v84_17 : RW17 m c (Proc.devRef .tc main_v84) = R.le1 (R.argsOf m c) := (RW17_keep m c (by decide)).trans (at_v84_16 m c)
theorem at_v84_18 : RW18 m c (Proc.devRef .tc main_v84) = R.le1 (R.argsOf m c) := (RW18_keep m c (by decide)).trans (at_v84_17 m c)
theorem at_v84_19 : RW19 m c (Proc.devRef .tc main_v84) = R.le1 (R.argsOf m c) := (RW19_keep m c (by decide)).trans (at_v84_18 m c)
theorem at_v84_20 : RW20 m c (Proc.devRef .tc main_v84) = R.le1 (R.argsOf m c) := (RW20_keep m c (by decide)).trans (at_v84_19 m c)
theorem at_arg3_20 : RW20 m c (Proc.devRef .tc main_arg3) = (R.argsOf m c).a3 := (RW20_arg m c (by decide)).trans rfl
theorem at_v233_21 : RW21 m c (Proc.devRef .tc main_v233) = C_v233 (F := Ideal) (R.le1 (R.argsOf m c)) ((R.argsOf m c).a3) :=
  rd_v233 (RW20 m c) (R.argsOf m c) (at_v84_20 m c) (at_arg3_20 m c)
theorem at_arg5_18 : RW18 m c (Proc.devRef .tc main_arg5) = (R.argsOf m c).a5 := (RW18_arg m c (by decide)).trans rfl
theorem at_v186_19 : RW19 m c (Proc.devRef .tc main_v186) = R.P01_eW1 (R.argsOf m c) :=
  pr_v186 (RW18 m c) (R.argsOf m c) (at_arg5_18 m c)
theorem at_v186_20 : RW20 m c (Proc.devRef .tc main_v186) = R.P01_eW1 (R.argsOf m c) := (RW20_keep m c (by decide)).trans (at_v186_19 m c)
theorem at_v186_21 : RW21 m c (Proc.devRef .tc main_v186) = R.P01_eW1 (R.argsOf m c) := (RW21_keep m c (by decide)).trans (at_v186_20 m c)
theorem at_arg6_18 : RW18 m c (Proc.devRef .tc main_arg6) = (R.argsOf m c).a6 := (RW18_arg m c (by decide)).trans rfl
theorem at_v188_19 : RW19 m c (Proc.devRef .tc main_v188) = R.P01_eb1 (R.argsOf m c) :=
  pr_v188 (RW18 m c) (R.argsOf m c) (at_arg6_18 m c)
theorem at_v188_20 : RW20 m c (Proc.devRef .tc main_v188) = R.P01_eb1 (R.argsOf m c) := (RW20_keep m c (by decide)).trans (at_v188_19 m c)
theorem at_v188_21 : RW21 m c (Proc.devRef .tc main_v188) = R.P01_eb1 (R.argsOf m c) := (RW21_keep m c (by decide)).trans (at_v188_20 m c)
theorem at_arg7_18 : RW18 m c (Proc.devRef .tc main_arg7) = (R.argsOf m c).a7 := (RW18_arg m c (by decide)).trans rfl
theorem at_v190_19 : RW19 m c (Proc.devRef .tc main_v190) = R.P01_eW2 (R.argsOf m c) :=
  pr_v190 (RW18 m c) (R.argsOf m c) (at_arg7_18 m c)
theorem at_v190_20 : RW20 m c (Proc.devRef .tc main_v190) = R.P01_eW2 (R.argsOf m c) := (RW20_keep m c (by decide)).trans (at_v190_19 m c)
theorem at_v190_21 : RW21 m c (Proc.devRef .tc main_v190) = R.P01_eW2 (R.argsOf m c) := (RW21_keep m c (by decide)).trans (at_v190_20 m c)
theorem at_arg8_18 : RW18 m c (Proc.devRef .tc main_arg8) = (R.argsOf m c).a8 := (RW18_arg m c (by decide)).trans rfl
theorem at_v192_19 : RW19 m c (Proc.devRef .tc main_v192) = R.P01_eb2 (R.argsOf m c) :=
  pr_v192 (RW18 m c) (R.argsOf m c) (at_arg8_18 m c)
theorem at_v192_20 : RW20 m c (Proc.devRef .tc main_v192) = R.P01_eb2 (R.argsOf m c) := (RW20_keep m c (by decide)).trans (at_v192_19 m c)
theorem at_v192_21 : RW21 m c (Proc.devRef .tc main_v192) = R.P01_eb2 (R.argsOf m c) := (RW21_keep m c (by decide)).trans (at_v192_20 m c)
theorem at_v258_22 : RW22 m c (Proc.devRef .tc main_v258) = R.le2 (R.argsOf m c) :=
  st_le2 (RW21 m c) (R.argsOf m c) (at_v234_21 m c) (at_v241_21 m c) (at_v248_21 m c) (at_v233_21 m c) (at_v186_21 m c) (at_v188_21 m c) (at_v190_21 m c) (at_v192_21 m c)
theorem at_v1_21 : RW21 m c (Proc.devRef .tc main_v1) = R.lr (R.argsOf m c) := (RW21_keep m c (by decide)).trans (at_v1_20 m c)
theorem at_v1_22 : RW22 m c (Proc.devRef .tc main_v1) = R.lr (R.argsOf m c) := (RW22_keep m c (by decide)).trans (at_v1_21 m c)
theorem at_v261_23 : RW23 m c (Proc.devRef .tc main_v261) = C_v261 (F := Ideal) (R.lr (R.argsOf m c)) (R.le2 (R.argsOf m c)) :=
  rd_v261 (RW22 m c) (R.argsOf m c) (at_v1_22 m c) (at_v258_22 m c)
theorem at_v265_23 : RW23 m c (Proc.devRef .tc main_v265) = C_v265 (F := Ideal) (R.lr (R.argsOf m c)) :=
  rd_v265 (RW22 m c) (R.argsOf m c) (at_v1_22 m c)
theorem at_v268_24 : RW24 m c (Proc.devRef .tc main_v268) = R.la2 (R.argsOf m c) :=
  st_la2 (RW23 m c) (R.argsOf m c) (at_v261_23 m c) (at_v265_23 m c)
theorem at_v184_21 : RW21 m c (Proc.devRef .tc main_v184) = R.g2 (R.argsOf m c) := (RW21_keep m c (by decide)).trans (at_v184_20 m c)
theorem at_v184_22 : RW22 m c (Proc.devRef .tc main_v184) = R.g2 (R.argsOf m c) := (RW22_keep m c (by decide)).trans (at_v184_21 m c)
theorem at_v184_23 : RW23 m c (Proc.devRef .tc main_v184) = R.g2 (R.argsOf m c) := (RW23_keep m c (by decide)).trans (at_v184_22 m c)
theorem at_v184_24 : RW24 m c (Proc.devRef .tc main_v184) = R.g2 (R.argsOf m c) := (RW24_keep m c (by decide)).trans (at_v184_23 m c)
theorem at_v269_25 : RW25 m c (Proc.devRef .tc main_v269) = C_v269 (F := Ideal) (R.g2 (R.argsOf m c)) :=
  rd_v269 (RW24 m c) (R.argsOf m c) (at_v184_24 m c)
theorem at_arg0_25 : RW25 m c (Proc.devRef .tc main_arg0) = (R.argsOf m c).a0 := (RW25_arg m c (by decide)).trans rfl
theorem at_v268_25 : RW25 m c (Proc.devRef .tc main_v268) = R.la2 (R.argsOf m c) := (RW25_keep m c (by decide)).trans (at_v268_24 m c)
theorem at_arg9_18 : RW18 m c (Proc.devRef .tc main_arg9) = (R.argsOf m c).a9 := (RW18_arg m c (by decide)).trans rfl
theorem at_v194_19 : RW19 m c (Proc.devRef .tc main_v194) = R.P01_nW1 (R.argsOf m c) :=
  pr_v194 (RW18 m c) (R.argsOf m c) (at_arg9_18 m c)
theorem at_v194_20 : RW20 m c (Proc.devRef .tc main_v194) = R.P01_nW1 (R.argsOf m c) := (RW20_keep m c (by decide)).trans (at_v194_19 m c)
theorem at_v194_21 : RW21 m c (Proc.devRef .tc main_v194) = R.P01_nW1 (R.argsOf m c) := (RW21_keep m c (by decide)).trans (at_v194_20 m c)
theorem at_v194_22 : RW22 m c (Proc.devRef .tc main_v194) = R.P01_nW1 (R.argsOf m c) := (RW22_keep m c (by decide)).trans (at_v194_21 m c)
theorem at_v194_23 : RW23 m c (Proc.devRef .tc main_v194) = R.P01_nW1 (R.argsOf m c) := (RW23_keep m c (by decide)).trans (at_v194_22 m c)
theorem at_v194_24 : RW24 m c (Proc.devRef .tc main_v194) = R.P01_nW1 (R.argsOf m c) := (RW24_keep m c (by decide)).trans (at_v194_23 m c)
theorem at_v194_25 : RW25 m c (Proc.devRef .tc main_v194) = R.P01_nW1 (R.argsOf m c) := (RW25_keep m c (by decide)).trans (at_v194_24 m c)
theorem at_arg10_18 : RW18 m c (Proc.devRef .tc main_arg10) = (R.argsOf m c).a10 := (RW18_arg m c (by decide)).trans rfl
theorem at_v196_19 : RW19 m c (Proc.devRef .tc main_v196) = R.P01_nb1 (R.argsOf m c) :=
  pr_v196 (RW18 m c) (R.argsOf m c) (at_arg10_18 m c)
theorem at_v196_20 : RW20 m c (Proc.devRef .tc main_v196) = R.P01_nb1 (R.argsOf m c) := (RW20_keep m c (by decide)).trans (at_v196_19 m c)
theorem at_v196_21 : RW21 m c (Proc.devRef .tc main_v196) = R.P01_nb1 (R.argsOf m c) := (RW21_keep m c (by decide)).trans (at_v196_20 m c)
theorem at_v196_22 : RW22 m c (Proc.devRef .tc main_v196) = R.P01_nb1 (R.argsOf m c) := (RW22_keep m c (by decide)).trans (at_v196_21 m c)
theorem at_v196_23 : RW23 m c (Proc.devRef .tc main_v196) = R.P01_nb1 (R.argsOf m c) := (RW23_keep m c (by decide)).trans (at_v196_22 m c)
theorem at_v196_24 : RW24 m c (Proc.devRef .tc main_v196) = R.P01_nb1 (R.argsOf m c) := (RW24_keep m c (by decide)).trans (at_v196_23 m c)
theorem at_v196_25 : RW25 m c (Proc.devRef .tc main_v196) = R.P01_nb1 (R.argsOf m c) := (RW25_keep m c (by decide)).trans (at_v196_24 m c)
theorem at_arg11_18 : RW18 m c (Proc.devRef .tc main_arg11) = (R.argsOf m c).a11 := (RW18_arg m c (by decide)).trans rfl
theorem at_v198_19 : RW19 m c (Proc.devRef .tc main_v198) = R.P01_nW2 (R.argsOf m c) :=
  pr_v198 (RW18 m c) (R.argsOf m c) (at_arg11_18 m c)
theorem at_v198_20 : RW20 m c (Proc.devRef .tc main_v198) = R.P01_nW2 (R.argsOf m c) := (RW20_keep m c (by decide)).trans (at_v198_19 m c)
theorem at_v198_21 : RW21 m c (Proc.devRef .tc main_v198) = R.P01_nW2 (R.argsOf m c) := (RW21_keep m c (by decide)).trans (at_v198_20 m c)
theorem at_v198_22 : RW22 m c (Proc.devRef .tc main_v198) = R.P01_nW2 (R.argsOf m c) := (RW22_keep m c (by decide)).trans (at_v198_21 m c)
theorem at_v198_23 : RW23 m c (Proc.devRef .tc main_v198) = R.P01_nW2 (R.argsOf m c) := (RW23_keep m c (by decide)).trans (at_v198_22 m c)
theorem at_v198_24 : RW24 m c (Proc.devRef .tc main_v198) = R.P01_nW2 (R.argsOf m c) := (RW24_keep m c (by decide)).trans (at_v198_23 m c)
theorem at_v198_25 : RW25 m c (Proc.devRef .tc main_v198) = R.P01_nW2 (R.argsOf m c) := (RW25_keep m c (by decide)).trans (at_v198_24 m c)
theorem at_arg12_18 : RW18 m c (Proc.devRef .tc main_arg12) = (R.argsOf m c).a12 := (RW18_arg m c (by decide)).trans rfl
theorem at_v200_19 : RW19 m c (Proc.devRef .tc main_v200) = R.P01_nb2 (R.argsOf m c) :=
  pr_v200 (RW18 m c) (R.argsOf m c) (at_arg12_18 m c)
theorem at_v200_20 : RW20 m c (Proc.devRef .tc main_v200) = R.P01_nb2 (R.argsOf m c) := (RW20_keep m c (by decide)).trans (at_v200_19 m c)
theorem at_v200_21 : RW21 m c (Proc.devRef .tc main_v200) = R.P01_nb2 (R.argsOf m c) := (RW21_keep m c (by decide)).trans (at_v200_20 m c)
theorem at_v200_22 : RW22 m c (Proc.devRef .tc main_v200) = R.P01_nb2 (R.argsOf m c) := (RW22_keep m c (by decide)).trans (at_v200_21 m c)
theorem at_v200_23 : RW23 m c (Proc.devRef .tc main_v200) = R.P01_nb2 (R.argsOf m c) := (RW23_keep m c (by decide)).trans (at_v200_22 m c)
theorem at_v200_24 : RW24 m c (Proc.devRef .tc main_v200) = R.P01_nb2 (R.argsOf m c) := (RW24_keep m c (by decide)).trans (at_v200_23 m c)
theorem at_v200_25 : RW25 m c (Proc.devRef .tc main_v200) = R.P01_nb2 (R.argsOf m c) := (RW25_keep m c (by decide)).trans (at_v200_24 m c)
theorem at_v279_26 : RW26 m c (Proc.devRef .tc main_v279) = R.ln2 (R.argsOf m c) :=
  st_ln2 (RW25 m c) (R.argsOf m c) (at_v269_25 m c) (at_arg0_25 m c) (at_v268_25 m c) (at_v194_25 m c) (at_v196_25 m c) (at_v198_25 m c) (at_v200_25 m c)
theorem at_v283_27 : RW27 m c (Proc.devRef .tc main_v283) = C_v283 (F := Ideal) (R.ln2 (R.argsOf m c)) :=
  rd_v283 (RW26 m c) (R.argsOf m c) (at_v279_26 m c)
theorem at_v258_23 : RW23 m c (Proc.devRef .tc main_v258) = R.le2 (R.argsOf m c) := (RW23_keep m c (by decide)).trans (at_v258_22 m c)
theorem at_v258_24 : RW24 m c (Proc.devRef .tc main_v258) = R.le2 (R.argsOf m c) := (RW24_keep m c (by decide)).trans (at_v258_23 m c)
theorem at_v258_25 : RW25 m c (Proc.devRef .tc main_v258) = R.le2 (R.argsOf m c) := (RW25_keep m c (by decide)).trans (at_v258_24 m c)
theorem at_v258_26 : RW26 m c (Proc.devRef .tc main_v258) = R.le2 (R.argsOf m c) := (RW26_keep m c (by decide)).trans (at_v258_25 m c)
theorem at_v287_27 : RW27 m c (Proc.devRef .tc main_v287) = C_v287 (F := Ideal) (R.le2 (R.argsOf m c)) :=
  rd_v287 (RW26 m c) (R.argsOf m c) (at_v258_26 m c)
theorem at_v184_25 : RW25 m c (Proc.devRef .tc main_v184) = R.g2 (R.argsOf m c) := (RW25_keep m c (by decide)).trans (at_v184_24 m c)
theorem at_v184_26 : RW26 m c (Proc.devRef .tc main_v184) = R.g2 (R.argsOf m c) := (RW26_keep m c (by decide)).trans (at_v184_25 m c)
theorem at_v184_27 : RW27 m c (Proc.devRef .tc main_v184) = R.g2 (R.argsOf m c) := (RW27_keep m c (by decide)).trans (at_v184_26 m c)
theorem at_arg13_18 : RW18 m c (Proc.devRef .tc main_arg13) = (R.argsOf m c).a13 := (RW18_arg m c (by decide)).trans rfl
theorem at_v202_19 : RW19 m c (Proc.devRef .tc main_v202) = R.P01_gW1 (R.argsOf m c) :=
  pr_v202 (RW18 m c) (R.argsOf m c) (at_arg13_18 m c)
theorem at_v202_20 : RW20 m c (Proc.devRef .tc main_v202) = R.P01_gW1 (R.argsOf m c) := (RW20_keep m c (by decide)).trans (at_v202_19 m c)
theorem at_v202_21 : RW21 m c (Proc.devRef .tc main_v202) = R.P01_gW1 (R.argsOf m c) := (RW21_keep m c (by decide)).trans (at_v202_20 m c)
theorem at_v202_22 : RW22 m c (Proc.devRef .tc main_v202) = R.P01_gW1 (R.argsOf m c) := (RW22_keep m c (by decide)).trans (at_v202_21 m c)
theorem at_v202_23 : RW23 m c (Proc.devRef .tc main_v202) = R.P01_gW1 (R.argsOf m c) := (RW23_keep m c (by decide)).trans (at_v202_22 m c)
theorem at_v202_24 : RW24 m c (Proc.devRef .tc main_v202) = R.P01_gW1 (R.argsOf m c) := (RW24_keep m c (by decide)).trans (at_v202_23 m c)
theorem at_v202_25 : RW25 m c (Proc.devRef .tc main_v202) = R.P01_gW1 (R.argsOf m c) := (RW25_keep m c (by decide)).trans (at_v202_24 m c)
theorem at_v202_26 : RW26 m c (Proc.devRef .tc main_v202) = R.P01_gW1 (R.argsOf m c) := (RW26_keep m c (by decide)).trans (at_v202_25 m c)
theorem at_v202_27 : RW27 m c (Proc.devRef .tc main_v202) = R.P01_gW1 (R.argsOf m c) := (RW27_keep m c (by decide)).trans (at_v202_26 m c)
theorem at_arg14_18 : RW18 m c (Proc.devRef .tc main_arg14) = (R.argsOf m c).a14 := (RW18_arg m c (by decide)).trans rfl
theorem at_v204_19 : RW19 m c (Proc.devRef .tc main_v204) = R.P01_gb1 (R.argsOf m c) :=
  pr_v204 (RW18 m c) (R.argsOf m c) (at_arg14_18 m c)
theorem at_v204_20 : RW20 m c (Proc.devRef .tc main_v204) = R.P01_gb1 (R.argsOf m c) := (RW20_keep m c (by decide)).trans (at_v204_19 m c)
theorem at_v204_21 : RW21 m c (Proc.devRef .tc main_v204) = R.P01_gb1 (R.argsOf m c) := (RW21_keep m c (by decide)).trans (at_v204_20 m c)
theorem at_v204_22 : RW22 m c (Proc.devRef .tc main_v204) = R.P01_gb1 (R.argsOf m c) := (RW22_keep m c (by decide)).trans (at_v204_21 m c)
theorem at_v204_23 : RW23 m c (Proc.devRef .tc main_v204) = R.P01_gb1 (R.argsOf m c) := (RW23_keep m c (by decide)).trans (at_v204_22 m c)
theorem at_v204_24 : RW24 m c (Proc.devRef .tc main_v204) = R.P01_gb1 (R.argsOf m c) := (RW24_keep m c (by decide)).trans (at_v204_23 m c)
theorem at_v204_25 : RW25 m c (Proc.devRef .tc main_v204) = R.P01_gb1 (R.argsOf m c) := (RW25_keep m c (by decide)).trans (at_v204_24 m c)
theorem at_v204_26 : RW26 m c (Proc.devRef .tc main_v204) = R.P01_gb1 (R.argsOf m c) := (RW26_keep m c (by decide)).trans (at_v204_25 m c)
theorem at_v204_27 : RW27 m c (Proc.devRef .tc main_v204) = R.P01_gb1 (R.argsOf m c) := (RW27_keep m c (by decide)).trans (at_v204_26 m c)
theorem at_arg15_18 : RW18 m c (Proc.devRef .tc main_arg15) = (R.argsOf m c).a15 := (RW18_arg m c (by decide)).trans rfl
theorem at_v206_19 : RW19 m c (Proc.devRef .tc main_v206) = R.P01_gW2 (R.argsOf m c) :=
  pr_v206 (RW18 m c) (R.argsOf m c) (at_arg15_18 m c)
theorem at_v206_20 : RW20 m c (Proc.devRef .tc main_v206) = R.P01_gW2 (R.argsOf m c) := (RW20_keep m c (by decide)).trans (at_v206_19 m c)
theorem at_v206_21 : RW21 m c (Proc.devRef .tc main_v206) = R.P01_gW2 (R.argsOf m c) := (RW21_keep m c (by decide)).trans (at_v206_20 m c)
theorem at_v206_22 : RW22 m c (Proc.devRef .tc main_v206) = R.P01_gW2 (R.argsOf m c) := (RW22_keep m c (by decide)).trans (at_v206_21 m c)
theorem at_v206_23 : RW23 m c (Proc.devRef .tc main_v206) = R.P01_gW2 (R.argsOf m c) := (RW23_keep m c (by decide)).trans (at_v206_22 m c)
theorem at_v206_24 : RW24 m c (Proc.devRef .tc main_v206) = R.P01_gW2 (R.argsOf m c) := (RW24_keep m c (by decide)).trans (at_v206_23 m c)
theorem at_v206_25 : RW25 m c (Proc.devRef .tc main_v206) = R.P01_gW2 (R.argsOf m c) := (RW25_keep m c (by decide)).trans (at_v206_24 m c)
theorem at_v206_26 : RW26 m c (Proc.devRef .tc main_v206) = R.P01_gW2 (R.argsOf m c) := (RW26_keep m c (by decide)).trans (at_v206_25 m c)
theorem at_v206_27 : RW27 m c (Proc.devRef .tc main_v206) = R.P01_gW2 (R.argsOf m c) := (RW27_keep m c (by decide)).trans (at_v206_26 m c)
theorem at_arg16_18 : RW18 m c (Proc.devRef .tc main_arg16) = (R.argsOf m c).a16 := (RW18_arg m c (by decide)).trans rfl
theorem at_v208_19 : RW19 m c (Proc.devRef .tc main_v208) = R.P01_gb2 (R.argsOf m c) :=
  pr_v208 (RW18 m c) (R.argsOf m c) (at_arg16_18 m c)
theorem at_v208_20 : RW20 m c (Proc.devRef .tc main_v208) = R.P01_gb2 (R.argsOf m c) := (RW20_keep m c (by decide)).trans (at_v208_19 m c)
theorem at_v208_21 : RW21 m c (Proc.devRef .tc main_v208) = R.P01_gb2 (R.argsOf m c) := (RW21_keep m c (by decide)).trans (at_v208_20 m c)
theorem at_v208_22 : RW22 m c (Proc.devRef .tc main_v208) = R.P01_gb2 (R.argsOf m c) := (RW22_keep m c (by decide)).trans (at_v208_21 m c)
theorem at_v208_23 : RW23 m c (Proc.devRef .tc main_v208) = R.P01_gb2 (R.argsOf m c) := (RW23_keep m c (by decide)).trans (at_v208_22 m c)
theorem at_v208_24 : RW24 m c (Proc.devRef .tc main_v208) = R.P01_gb2 (R.argsOf m c) := (RW24_keep m c (by decide)).trans (at_v208_23 m c)
theorem at_v208_25 : RW25 m c (Proc.devRef .tc main_v208) = R.P01_gb2 (R.argsOf m c) := (RW25_keep m c (by decide)).trans (at_v208_24 m c)
theorem at_v208_26 : RW26 m c (Proc.devRef .tc main_v208) = R.P01_gb2 (R.argsOf m c) := (RW26_keep m c (by decide)).trans (at_v208_25 m c)
theorem at_v208_27 : RW27 m c (Proc.devRef .tc main_v208) = R.P01_gb2 (R.argsOf m c) := (RW27_keep m c (by decide)).trans (at_v208_26 m c)
theorem at_v295_28 : RW28 m c (Proc.devRef .tc main_v295) = R.g3 (R.argsOf m c) :=
  st_g3 (RW27 m c) (R.argsOf m c) (at_v283_27 m c) (at_v287_27 m c) (at_v184_27 m c) (at_v202_27 m c) (at_v204_27 m c) (at_v206_27 m c) (at_v208_27 m c)
theorem at_v297_29 : RW29 m c (Proc.devRef .tc main_v297) = C_v297 (F := Ideal) (R.g3 (R.argsOf m c)) :=
  rd_v297 (RW28 m c) (R.argsOf m c) (at_v295_28 m c)
theorem at_v279_27 : RW27 m c (Proc.devRef .tc main_v279) = R.ln2 (R.argsOf m c) := (RW27_keep m c (by decide)).trans (at_v279_26 m c)
theorem at_v279_28 : RW28 m c (Proc.devRef .tc main_v279) = R.ln2 (R.argsOf m c) := (RW28_keep m c (by decide)).trans (at_v279_27 m c)
theorem at_v5_13 : RW13 m c (Proc.devRef .tc main_v5) = R.ur (R.argsOf m c) := (RW13_keep m c (by decide)).trans (at_v5_12 m c)
theorem at_v5_14 : RW14 m c (Proc.devRef .tc main_v5) = R.ur (R.argsOf m c) := (RW14_keep m c (by decide)).trans (at_v5_13 m c)
theorem at_v5_15 : RW15 m c (Proc.devRef .tc main_v5) = R.ur (R.argsOf m c) := (RW15_keep m c (by decide)).trans (at_v5_14 m c)
theorem at_v5_16 : RW16 m c (Proc.devRef .tc main_v5) = R.ur (R.argsOf m c) := (RW16_keep m c (by decide)).trans (at_v5_15 m c)
theorem at_v5_17 : RW17 m c (Proc.devRef .tc main_v5) = R.ur (R.argsOf m c) := (RW17_keep m c (by decide)).trans (at_v5_16 m c)
theorem at_v5_18 : RW18 m c (Proc.devRef .tc main_v5) = R.ur (R.argsOf m c) := (RW18_keep m c (by decide)).trans (at_v5_17 m c)
theorem at_v5_19 : RW19 m c (Proc.devRef .tc main_v5) = R.ur (R.argsOf m c) := (RW19_keep m c (by decide)).trans (at_v5_18 m c)
theorem at_v5_20 : RW20 m c (Proc.devRef .tc main_v5) = R.ur (R.argsOf m c) := (RW20_keep m c (by decide)).trans (at_v5_19 m c)
theorem at_v5_21 : RW21 m c (Proc.devRef .tc main_v5) = R.ur (R.argsOf m c) := (RW21_keep m c (by decide)).trans (at_v5_20 m c)
theorem at_v5_22 : RW22 m c (Proc.devRef .tc main_v5) = R.ur (R.argsOf m c) := (RW22_keep m c (by decide)).trans (at_v5_21 m c)
theorem at_v5_23 : RW23 m c (Proc.devRef .tc main_v5) = R.ur (R.argsOf m c) := (RW23_keep m c (by decide)).trans (at_v5_22 m c)
theorem at_v5_24 : RW24 m c (Proc.devRef .tc main_v5) = R.ur (R.argsOf m c) := (RW24_keep m c (by decide)).trans (at_v5_23 m c)
theorem at_v5_25 : RW25 m c (Proc.devRef .tc main_v5) = R.ur (R.argsOf m c) := (RW25_keep m c (by decide)).trans (at_v5_24 m c)
theorem at_v5_26 : RW26 m c (Proc.devRef .tc main_v5) = R.ur (R.argsOf m c) := (RW26_keep m c (by decide)).trans (at_v5_25 m c)
theorem at_v5_27 : RW27 m c (Proc.devRef .tc main_v5) = R.ur (R.argsOf m c) := (RW27_keep m c (by decide)).trans (at_v5_26 m c)
theorem at_v5_28 : RW28 m c (Proc.devRef .tc main_v5) = R.ur (R.argsOf m c) := (RW28_keep m c (by decide)).trans (at_v5_27 m c)
theorem at_v304_29 : RW29 m c (Proc.devRef .tc main_v304) = C_v304 (F := Ideal) (R.ln2 (R.argsOf m c)) (R.ur (R.argsOf m c)) :=
  rd_v304 (RW28 m c) (R.argsOf m c) (at_v279_28 m c) (at_v5_28 m c)
theorem at_v7_11 : RW11 m c (Proc.devRef .tc main_v7) = R.uc (R.argsOf m c) := (RW11_keep m c (by decide)).trans (at_v7_10 m c)
theorem at_v7_12 : RW12 m c (Proc.devRef .tc main_v7) = R.uc (R.argsOf m c) := (RW12_keep m c (by decide)).trans (at_v7_11 m c)
theorem at_v7_13 : RW13 m c (Proc.devRef .tc main_v7) = R.uc (R.argsOf m c) := (RW13_keep m c (by decide)).trans (at_v7_12 m c)
theorem at_v7_14 : RW14 m c (Proc.devRef .tc main_v7) = R.uc (R.argsOf m c) := (RW14_keep m c (by decide)).trans (at_v7_13 m c)
theorem at_v7_15 : RW15 m c (Proc.devRef .tc main_v7) = R.uc (R.argsOf m c) := (RW15_keep m c (by decide)).trans (at_v7_14 m c)
theorem at_v7_16 : RW16 m c (Proc.devRef .tc main_v7) = R.uc (R.argsOf m c) := (RW16_keep m c (by decide)).trans (at_v7_15 m c)
theorem at_v7_17 : RW17 m c (Proc.devRef .tc main_v7) = R.uc (R.argsOf m c) := (RW17_keep m c (by decide)).trans (at_v7_16 m c)
theorem at_v7_18 : RW18 m c (Proc.devRef .tc main_v7) = R.uc (R.argsOf m c) := (RW18_keep m c (by decide)).trans (at_v7_17 m c)
theorem at_v7_19 : RW19 m c (Proc.devRef .tc main_v7) = R.uc (R.argsOf m c) := (RW19_keep m c (by decide)).trans (at_v7_18 m c)
theorem at_v7_20 : RW20 m c (Proc.devRef .tc main_v7) = R.uc (R.argsOf m c) := (RW20_keep m c (by decide)).trans (at_v7_19 m c)
theorem at_v7_21 : RW21 m c (Proc.devRef .tc main_v7) = R.uc (R.argsOf m c) := (RW21_keep m c (by decide)).trans (at_v7_20 m c)
theorem at_v7_22 : RW22 m c (Proc.devRef .tc main_v7) = R.uc (R.argsOf m c) := (RW22_keep m c (by decide)).trans (at_v7_21 m c)
theorem at_v7_23 : RW23 m c (Proc.devRef .tc main_v7) = R.uc (R.argsOf m c) := (RW23_keep m c (by decide)).trans (at_v7_22 m c)
theorem at_v7_24 : RW24 m c (Proc.devRef .tc main_v7) = R.uc (R.argsOf m c) := (RW24_keep m c (by decide)).trans (at_v7_23 m c)
theorem at_v7_25 : RW25 m c (Proc.devRef .tc main_v7) = R.uc (R.argsOf m c) := (RW25_keep m c (by decide)).trans (at_v7_24 m c)
theorem at_v7_26 : RW26 m c (Proc.devRef .tc main_v7) = R.uc (R.argsOf m c) := (RW26_keep m c (by decide)).trans (at_v7_25 m c)
theorem at_v7_27 : RW27 m c (Proc.devRef .tc main_v7) = R.uc (R.argsOf m c) := (RW27_keep m c (by decide)).trans (at_v7_26 m c)
theorem at_v7_28 : RW28 m c (Proc.devRef .tc main_v7) = R.uc (R.argsOf m c) := (RW28_keep m c (by decide)).trans (at_v7_27 m c)
theorem at_v311_29 : RW29 m c (Proc.devRef .tc main_v311) = C_v311 (F := Ideal) (R.ln2 (R.argsOf m c)) (R.uc (R.argsOf m c)) :=
  rd_v311 (RW28 m c) (R.argsOf m c) (at_v279_28 m c) (at_v7_28 m c)
theorem at_v147_17 : RW17 m c (Proc.devRef .tc main_v147) = R.ue1 (R.argsOf m c) := (RW17_keep m c (by decide)).trans (at_v147_16 m c)
theorem at_v147_18 : RW18 m c (Proc.devRef .tc main_v147) = R.ue1 (R.argsOf m c) := (RW18_keep m c (by decide)).trans (at_v147_17 m c)
theorem at_v147_19 : RW19 m c (Proc.devRef .tc main_v147) = R.ue1 (R.argsOf m c) := (RW19_keep m c (by decide)).trans (at_v147_18 m c)
theorem at_v147_20 : RW20 m c (Proc.devRef .tc main_v147) = R.ue1 (R.argsOf m c) := (RW20_keep m c (by decide)).trans (at_v147_19 m c)
theorem at_v147_21 : RW21 m c (Proc.devRef .tc main_v147) = R.ue1 (R.argsOf m c) := (RW21_keep m c (by decide)).trans (at_v147_20 m c)
theorem at_v147_22 : RW22 m c (Proc.devRef .tc main_v147) = R.ue1 (R.argsOf m c) := (RW22_keep m c (by decide)).trans (at_v147_21 m c)
theorem at_v147_23 : RW23 m c (Proc.devRef .tc main_v147) = R.ue1 (R.argsOf m c) := (RW23_keep m c (by decide)).trans (at_v147_22 m c)
theorem at_v147_24 : RW24 m c (Proc.devRef .tc main_v147) = R.ue1 (R.argsOf m c) := (RW24_keep m c (by decide)).trans (at_v147_23 m c)
theorem at_v147_25 : RW25 m c (Proc.devRef .tc main_v147) = R.ue1 (R.argsOf m c) := (RW25_keep m c (by decide)).trans (at_v147_24 m c)
theorem at_v147_26 : RW26 m c (Proc.devRef .tc main_v147) = R.ue1 (R.argsOf m c) := (RW26_keep m c (by decide)).trans (at_v147_25 m c)
theorem at_v147_27 : RW27 m c (Proc.devRef .tc main_v147) = R.ue1 (R.argsOf m c) := (RW27_keep m c (by decide)).trans (at_v147_26 m c)
theorem at_v147_28 : RW28 m c (Proc.devRef .tc main_v147) = R.ue1 (R.argsOf m c) := (RW28_keep m c (by decide)).trans (at_v147_27 m c)
theorem at_v10_11 : RW11 m c (Proc.devRef .tc main_v10) = R.zcol := (RW11_keep m c (by decide)).trans (at_v10_10 m c)
theorem at_v10_12 : RW12 m c (Proc.devRef .tc main_v10) = R.zcol := (RW12_keep m c (by decide)).trans (at_v10_11 m c)
theorem at_v10_13 : RW13 m c (Proc.devRef .tc main_v10) = R.zcol := (RW13_keep m c (by decide)).trans (at_v10_12 m c)
theorem at_v10_14 : RW14 m c (Proc.devRef .tc main_v10) = R.zcol := (RW14_keep m c (by decide)).trans (at_v10_13 m c)
theorem at_v10_15 : RW15 m c (Proc.devRef .tc main_v10) = R.zcol := (RW15_keep m c (by decide)).trans (at_v10_14 m c)
theorem at_v10_16 : RW16 m c (Proc.devRef .tc main_v10) = R.zcol := (RW16_keep m c (by decide)).trans (at_v10_15 m c)
theorem at_v10_17 : RW17 m c (Proc.devRef .tc main_v10) = R.zcol := (RW17_keep m c (by decide)).trans (at_v10_16 m c)
theorem at_v10_18 : RW18 m c (Proc.devRef .tc main_v10) = R.zcol := (RW18_keep m c (by decide)).trans (at_v10_17 m c)
theorem at_v10_19 : RW19 m c (Proc.devRef .tc main_v10) = R.zcol := (RW19_keep m c (by decide)).trans (at_v10_18 m c)
theorem at_v10_20 : RW20 m c (Proc.devRef .tc main_v10) = R.zcol := (RW20_keep m c (by decide)).trans (at_v10_19 m c)
theorem at_v10_21 : RW21 m c (Proc.devRef .tc main_v10) = R.zcol := (RW21_keep m c (by decide)).trans (at_v10_20 m c)
theorem at_v10_22 : RW22 m c (Proc.devRef .tc main_v10) = R.zcol := (RW22_keep m c (by decide)).trans (at_v10_21 m c)
theorem at_v10_23 : RW23 m c (Proc.devRef .tc main_v10) = R.zcol := (RW23_keep m c (by decide)).trans (at_v10_22 m c)
theorem at_v10_24 : RW24 m c (Proc.devRef .tc main_v10) = R.zcol := (RW24_keep m c (by decide)).trans (at_v10_23 m c)
theorem at_v10_25 : RW25 m c (Proc.devRef .tc main_v10) = R.zcol := (RW25_keep m c (by decide)).trans (at_v10_24 m c)
theorem at_v10_26 : RW26 m c (Proc.devRef .tc main_v10) = R.zcol := (RW26_keep m c (by decide)).trans (at_v10_25 m c)
theorem at_v10_27 : RW27 m c (Proc.devRef .tc main_v10) = R.zcol := (RW27_keep m c (by decide)).trans (at_v10_26 m c)
theorem at_v10_28 : RW28 m c (Proc.devRef .tc main_v10) = R.zcol := (RW28_keep m c (by decide)).trans (at_v10_27 m c)
theorem at_v296_29 : RW29 m c (Proc.devRef .tc main_v296) = C_v296 (F := Ideal) (R.ue1 (R.argsOf m c)) (R.zcol) :=
  rd_v296 (RW28 m c) (R.argsOf m c) (at_v147_28 m c) (at_v10_28 m c)
theorem at_v210_19 : RW19 m c (Proc.devRef .tc main_v210) = R.P11_eW1 (R.argsOf m c) :=
  pr_v210 (RW18 m c) (R.argsOf m c) (at_arg5_18 m c)
theorem at_v210_20 : RW20 m c (Proc.devRef .tc main_v210) = R.P11_eW1 (R.argsOf m c) := (RW20_keep m c (by decide)).trans (at_v210_19 m c)
theorem at_v210_21 : RW21 m c (Proc.devRef .tc main_v210) = R.P11_eW1 (R.argsOf m c) := (RW21_keep m c (by decide)).trans (at_v210_20 m c)
theorem at_v210_22 : RW22 m c (Proc.devRef .tc main_v210) = R.P11_eW1 (R.argsOf m c) := (RW22_keep m c (by decide)).trans (at_v210_21 m c)
theorem at_v210_23 : RW23 m c (Proc.devRef .tc main_v210) = R.P11_eW1 (R.argsOf m c) := (RW23_keep m c (by decide)).trans (at_v210_22 m c)
theorem at_v210_24 : RW24 m c (Proc.devRef .tc main_v210) = R.P11_eW1 (R.argsOf m c) := (RW24_keep m c (by decide)).trans (at_v210_23 m c)
theorem at_v210_25 : RW25 m c (Proc.devRef .tc main_v210) = R.P11_eW1 (R.argsOf m c) := (RW25_keep m c (by decide)).trans (at_v210_24 m c)
theorem at_v210_26 : RW26 m c (Proc.devRef .tc main_v210) = R.P11_eW1 (R.argsOf m c) := (RW26_keep m c (by decide)).trans (at_v210_25 m c)
theorem at_v210_27 : RW27 m c (Proc.devRef .tc main_v210) = R.P11_eW1 (R.argsOf m c) := (RW27_keep m c (by decide)).trans (at_v210_26 m c)
theorem at_v210_28 : RW28 m c (Proc.devRef .tc main_v210) = R.P11_eW1 (R.argsOf m c) := (RW28_keep m c (by decide)).trans (at_v210_27 m c)
theorem at_v210_29 : RW29 m c (Proc.devRef .tc main_v210) = R.P11_eW1 (R.argsOf m c) := (RW29_keep m c (by decide)).trans (at_v210_28 m c)
theorem at_v212_19 : RW19 m c (Proc.devRef .tc main_v212) = R.P11_eb1 (R.argsOf m c) :=
  pr_v212 (RW18 m c) (R.argsOf m c) (at_arg6_18 m c)
theorem at_v212_20 : RW20 m c (Proc.devRef .tc main_v212) = R.P11_eb1 (R.argsOf m c) := (RW20_keep m c (by decide)).trans (at_v212_19 m c)
theorem at_v212_21 : RW21 m c (Proc.devRef .tc main_v212) = R.P11_eb1 (R.argsOf m c) := (RW21_keep m c (by decide)).trans (at_v212_20 m c)
theorem at_v212_22 : RW22 m c (Proc.devRef .tc main_v212) = R.P11_eb1 (R.argsOf m c) := (RW22_keep m c (by decide)).trans (at_v212_21 m c)
theorem at_v212_23 : RW23 m c (Proc.devRef .tc main_v212) = R.P11_eb1 (R.argsOf m c) := (RW23_keep m c (by decide)).trans (at_v212_22 m c)
theorem at_v212_24 : RW24 m c (Proc.devRef .tc main_v212) = R.P11_eb1 (R.argsOf m c) := (RW24_keep m c (by decide)).trans (at_v212_23 m c)
theorem at_v212_25 : RW25 m c (Proc.devRef .tc main_v212) = R.P11_eb1 (R.argsOf m c) := (RW25_keep m c (by decide)).trans (at_v212_24 m c)
theorem at_v212_26 : RW26 m c (Proc.devRef .tc main_v212) = R.P11_eb1 (R.argsOf m c) := (RW26_keep m c (by decide)).trans (at_v212_25 m c)
theorem at_v212_27 : RW27 m c (Proc.devRef .tc main_v212) = R.P11_eb1 (R.argsOf m c) := (RW27_keep m c (by decide)).trans (at_v212_26 m c)
theorem at_v212_28 : RW28 m c (Proc.devRef .tc main_v212) = R.P11_eb1 (R.argsOf m c) := (RW28_keep m c (by decide)).trans (at_v212_27 m c)
theorem at_v212_29 : RW29 m c (Proc.devRef .tc main_v212) = R.P11_eb1 (R.argsOf m c) := (RW29_keep m c (by decide)).trans (at_v212_28 m c)
theorem at_v316_30 : RW30 m c (Proc.devRef .tc main_v316) = C_v316 (F := Ideal) (C_v297 (F := Ideal) (R.g3 (R.argsOf m c))) (C_v304 (F := Ideal) (R.ln2 (R.argsOf m c)) (R.ur (R.argsOf m c))) (C_v311 (F := Ideal) (R.ln2 (R.argsOf m c)) (R.uc (R.argsOf m c))) (C_v296 (F := Ideal) (R.ue1 (R.argsOf m c)) (R.zcol)) (R.P11_eW1 (R.argsOf m c)) (R.P11_eb1 (R.argsOf m c)) :=
  rd_v316 (RW29 m c) (R.argsOf m c) (at_v297_29 m c) (at_v304_29 m c) (at_v311_29 m c) (at_v296_29 m c) (at_v210_29 m c) (at_v212_29 m c)
theorem at_arg7_19 : RW19 m c (Proc.devRef .tc main_arg7) = (R.argsOf m c).a7 := (RW19_arg m c (by decide)).trans rfl
theorem at_v214_20 : RW20 m c (Proc.devRef .tc main_v214) = R.P11_eW2 (R.argsOf m c) :=
  pr_v214 (RW19 m c) (R.argsOf m c) (at_arg7_19 m c)
theorem at_v214_21 : RW21 m c (Proc.devRef .tc main_v214) = R.P11_eW2 (R.argsOf m c) := (RW21_keep m c (by decide)).trans (at_v214_20 m c)
theorem at_v214_22 : RW22 m c (Proc.devRef .tc main_v214) = R.P11_eW2 (R.argsOf m c) := (RW22_keep m c (by decide)).trans (at_v214_21 m c)
theorem at_v214_23 : RW23 m c (Proc.devRef .tc main_v214) = R.P11_eW2 (R.argsOf m c) := (RW23_keep m c (by decide)).trans (at_v214_22 m c)
theorem at_v214_24 : RW24 m c (Proc.devRef .tc main_v214) = R.P11_eW2 (R.argsOf m c) := (RW24_keep m c (by decide)).trans (at_v214_23 m c)
theorem at_v214_25 : RW25 m c (Proc.devRef .tc main_v214) = R.P11_eW2 (R.argsOf m c) := (RW25_keep m c (by decide)).trans (at_v214_24 m c)
theorem at_v214_26 : RW26 m c (Proc.devRef .tc main_v214) = R.P11_eW2 (R.argsOf m c) := (RW26_keep m c (by decide)).trans (at_v214_25 m c)
theorem at_v214_27 : RW27 m c (Proc.devRef .tc main_v214) = R.P11_eW2 (R.argsOf m c) := (RW27_keep m c (by decide)).trans (at_v214_26 m c)
theorem at_v214_28 : RW28 m c (Proc.devRef .tc main_v214) = R.P11_eW2 (R.argsOf m c) := (RW28_keep m c (by decide)).trans (at_v214_27 m c)
theorem at_v214_29 : RW29 m c (Proc.devRef .tc main_v214) = R.P11_eW2 (R.argsOf m c) := (RW29_keep m c (by decide)).trans (at_v214_28 m c)
theorem at_v214_30 : RW30 m c (Proc.devRef .tc main_v214) = R.P11_eW2 (R.argsOf m c) := (RW30_keep m c (by decide)).trans (at_v214_29 m c)
theorem at_arg8_19 : RW19 m c (Proc.devRef .tc main_arg8) = (R.argsOf m c).a8 := (RW19_arg m c (by decide)).trans rfl
theorem at_v216_20 : RW20 m c (Proc.devRef .tc main_v216) = R.P11_eb2 (R.argsOf m c) :=
  pr_v216 (RW19 m c) (R.argsOf m c) (at_arg8_19 m c)
theorem at_v216_21 : RW21 m c (Proc.devRef .tc main_v216) = R.P11_eb2 (R.argsOf m c) := (RW21_keep m c (by decide)).trans (at_v216_20 m c)
theorem at_v216_22 : RW22 m c (Proc.devRef .tc main_v216) = R.P11_eb2 (R.argsOf m c) := (RW22_keep m c (by decide)).trans (at_v216_21 m c)
theorem at_v216_23 : RW23 m c (Proc.devRef .tc main_v216) = R.P11_eb2 (R.argsOf m c) := (RW23_keep m c (by decide)).trans (at_v216_22 m c)
theorem at_v216_24 : RW24 m c (Proc.devRef .tc main_v216) = R.P11_eb2 (R.argsOf m c) := (RW24_keep m c (by decide)).trans (at_v216_23 m c)
theorem at_v216_25 : RW25 m c (Proc.devRef .tc main_v216) = R.P11_eb2 (R.argsOf m c) := (RW25_keep m c (by decide)).trans (at_v216_24 m c)
theorem at_v216_26 : RW26 m c (Proc.devRef .tc main_v216) = R.P11_eb2 (R.argsOf m c) := (RW26_keep m c (by decide)).trans (at_v216_25 m c)
theorem at_v216_27 : RW27 m c (Proc.devRef .tc main_v216) = R.P11_eb2 (R.argsOf m c) := (RW27_keep m c (by decide)).trans (at_v216_26 m c)
theorem at_v216_28 : RW28 m c (Proc.devRef .tc main_v216) = R.P11_eb2 (R.argsOf m c) := (RW28_keep m c (by decide)).trans (at_v216_27 m c)
theorem at_v216_29 : RW29 m c (Proc.devRef .tc main_v216) = R.P11_eb2 (R.argsOf m c) := (RW29_keep m c (by decide)).trans (at_v216_28 m c)
theorem at_v216_30 : RW30 m c (Proc.devRef .tc main_v216) = R.P11_eb2 (R.argsOf m c) := (RW30_keep m c (by decide)).trans (at_v216_29 m c)
theorem at_v321_31 : RW31 m c (Proc.devRef .tc main_v321) = R.ue2 (R.argsOf m c) :=
  st_ue2 (RW30 m c) (R.argsOf m c) (at_v316_30 m c) (at_v214_30 m c) (at_v216_30 m c)
theorem at_v5_29 : RW29 m c (Proc.devRef .tc main_v5) = R.ur (R.argsOf m c) := (RW29_keep m c (by decide)).trans (at_v5_28 m c)
theorem at_v5_30 : RW30 m c (Proc.devRef .tc main_v5) = R.ur (R.argsOf m c) := (RW30_keep m c (by decide)).trans (at_v5_29 m c)
theorem at_v5_31 : RW31 m c (Proc.devRef .tc main_v5) = R.ur (R.argsOf m c) := (RW31_keep m c (by decide)).trans (at_v5_30 m c)
theorem at_v331_32 : RW32 m c (Proc.devRef .tc main_v331) = R.ua2 (R.argsOf m c) :=
  st_ua2 (RW31 m c) (R.argsOf m c) (at_v5_31 m c) (at_v321_31 m c)
theorem at_v295_29 : RW29 m c (Proc.devRef .tc main_v295) = R.g3 (R.argsOf m c) := (RW29_keep m c (by decide)).trans (at_v295_28 m c)
theorem at_v295_30 : RW30 m c (Proc.devRef .tc main_v295) = R.g3 (R.argsOf m c) := (RW30_keep m c (by decide)).trans (at_v295_29 m c)
theorem at_v295_31 : RW31 m c (Proc.devRef .tc main_v295) = R.g3 (R.argsOf m c) := (RW31_keep m c (by decide)).trans (at_v295_30 m c)
theorem at_v295_32 : RW32 m c (Proc.devRef .tc main_v295) = R.g3 (R.argsOf m c) := (RW32_keep m c (by decide)).trans (at_v295_31 m c)
theorem at_v332_33 : RW33 m c (Proc.devRef .tc main_v332) = C_v332 (F := Ideal) (R.g3 (R.argsOf m c)) :=
  rd_v332 (RW32 m c) (R.argsOf m c) (at_v295_32 m c)
theorem at_v279_29 : RW29 m c (Proc.devRef .tc main_v279) = R.ln2 (R.argsOf m c) := (RW29_keep m c (by decide)).trans (at_v279_28 m c)
theorem at_v279_30 : RW30 m c (Proc.devRef .tc main_v279) = R.ln2 (R.argsOf m c) := (RW30_keep m c (by decide)).trans (at_v279_29 m c)
theorem at_v279_31 : RW31 m c (Proc.devRef .tc main_v279) = R.ln2 (R.argsOf m c) := (RW31_keep m c (by decide)).trans (at_v279_30 m c)
theorem at_v279_32 : RW32 m c (Proc.devRef .tc main_v279) = R.ln2 (R.argsOf m c) := (RW32_keep m c (by decide)).trans (at_v279_31 m c)
theorem at_v279_33 : RW33 m c (Proc.devRef .tc main_v279) = R.ln2 (R.argsOf m c) := (RW33_keep m c (by decide)).trans (at_v279_32 m c)
theorem at_v331_33 : RW33 m c (Proc.devRef .tc main_v331) = R.ua2 (R.argsOf m c) := (RW33_keep m c (by decide)).trans (at_v331_32 m c)
theorem at_arg9_19 : RW19 m c (Proc.devRef .tc main_arg9) = (R.argsOf m c).a9 := (RW19_arg m c (by decide)).trans rfl
theorem at_v218_20 : RW20 m c (Proc.devRef .tc main_v218) = R.P11_nW1 (R.argsOf m c) :=
  pr_v218 (RW19 m c) (R.argsOf m c) (at_arg9_19 m c)
theorem at_v218_21 : RW21 m c (Proc.devRef .tc main_v218) = R.P11_nW1 (R.argsOf m c) := (RW21_keep m c (by decide)).trans (at_v218_20 m c)
theorem at_v218_22 : RW22 m c (Proc.devRef .tc main_v218) = R.P11_nW1 (R.argsOf m c) := (RW22_keep m c (by decide)).trans (at_v218_21 m c)
theorem at_v218_23 : RW23 m c (Proc.devRef .tc main_v218) = R.P11_nW1 (R.argsOf m c) := (RW23_keep m c (by decide)).trans (at_v218_22 m c)
theorem at_v218_24 : RW24 m c (Proc.devRef .tc main_v218) = R.P11_nW1 (R.argsOf m c) := (RW24_keep m c (by decide)).trans (at_v218_23 m c)
theorem at_v218_25 : RW25 m c (Proc.devRef .tc main_v218) = R.P11_nW1 (R.argsOf m c) := (RW25_keep m c (by decide)).trans (at_v218_24 m c)
theorem at_v218_26 : RW26 m c (Proc.devRef .tc main_v218) = R.P11_nW1 (R.argsOf m c) := (RW26_keep m c (by decide)).trans (at_v218_25 m c)
theorem at_v218_27 : RW27 m c (Proc.devRef .tc main_v218) = R.P11_nW1 (R.argsOf m c) := (RW27_keep m c (by decide)).trans (at_v218_26 m c)
theorem at_v218_28 : RW28 m c (Proc.devRef .tc main_v218) = R.P11_nW1 (R.argsOf m c) := (RW28_keep m c (by decide)).trans (at_v218_27 m c)
theorem at_v218_29 : RW29 m c (Proc.devRef .tc main_v218) = R.P11_nW1 (R.argsOf m c) := (RW29_keep m c (by decide)).trans (at_v218_28 m c)
theorem at_v218_30 : RW30 m c (Proc.devRef .tc main_v218) = R.P11_nW1 (R.argsOf m c) := (RW30_keep m c (by decide)).trans (at_v218_29 m c)
theorem at_v218_31 : RW31 m c (Proc.devRef .tc main_v218) = R.P11_nW1 (R.argsOf m c) := (RW31_keep m c (by decide)).trans (at_v218_30 m c)
theorem at_v218_32 : RW32 m c (Proc.devRef .tc main_v218) = R.P11_nW1 (R.argsOf m c) := (RW32_keep m c (by decide)).trans (at_v218_31 m c)
theorem at_v218_33 : RW33 m c (Proc.devRef .tc main_v218) = R.P11_nW1 (R.argsOf m c) := (RW33_keep m c (by decide)).trans (at_v218_32 m c)
theorem at_arg10_19 : RW19 m c (Proc.devRef .tc main_arg10) = (R.argsOf m c).a10 := (RW19_arg m c (by decide)).trans rfl
theorem at_v220_20 : RW20 m c (Proc.devRef .tc main_v220) = R.P11_nb1 (R.argsOf m c) :=
  pr_v220 (RW19 m c) (R.argsOf m c) (at_arg10_19 m c)
theorem at_v220_21 : RW21 m c (Proc.devRef .tc main_v220) = R.P11_nb1 (R.argsOf m c) := (RW21_keep m c (by decide)).trans (at_v220_20 m c)
theorem at_v220_22 : RW22 m c (Proc.devRef .tc main_v220) = R.P11_nb1 (R.argsOf m c) := (RW22_keep m c (by decide)).trans (at_v220_21 m c)
theorem at_v220_23 : RW23 m c (Proc.devRef .tc main_v220) = R.P11_nb1 (R.argsOf m c) := (RW23_keep m c (by decide)).trans (at_v220_22 m c)
theorem at_v220_24 : RW24 m c (Proc.devRef .tc main_v220) = R.P11_nb1 (R.argsOf m c) := (RW24_keep m c (by decide)).trans (at_v220_23 m c)
theorem at_v220_25 : RW25 m c (Proc.devRef .tc main_v220) = R.P11_nb1 (R.argsOf m c) := (RW25_keep m c (by decide)).trans (at_v220_24 m c)
theorem at_v220_26 : RW26 m c (Proc.devRef .tc main_v220) = R.P11_nb1 (R.argsOf m c) := (RW26_keep m c (by decide)).trans (at_v220_25 m c)
theorem at_v220_27 : RW27 m c (Proc.devRef .tc main_v220) = R.P11_nb1 (R.argsOf m c) := (RW27_keep m c (by decide)).trans (at_v220_26 m c)
theorem at_v220_28 : RW28 m c (Proc.devRef .tc main_v220) = R.P11_nb1 (R.argsOf m c) := (RW28_keep m c (by decide)).trans (at_v220_27 m c)
theorem at_v220_29 : RW29 m c (Proc.devRef .tc main_v220) = R.P11_nb1 (R.argsOf m c) := (RW29_keep m c (by decide)).trans (at_v220_28 m c)
theorem at_v220_30 : RW30 m c (Proc.devRef .tc main_v220) = R.P11_nb1 (R.argsOf m c) := (RW30_keep m c (by decide)).trans (at_v220_29 m c)
theorem at_v220_31 : RW31 m c (Proc.devRef .tc main_v220) = R.P11_nb1 (R.argsOf m c) := (RW31_keep m c (by decide)).trans (at_v220_30 m c)
theorem at_v220_32 : RW32 m c (Proc.devRef .tc main_v220) = R.P11_nb1 (R.argsOf m c) := (RW32_keep m c (by decide)).trans (at_v220_31 m c)
theorem at_v220_33 : RW33 m c (Proc.devRef .tc main_v220) = R.P11_nb1 (R.argsOf m c) := (RW33_keep m c (by decide)).trans (at_v220_32 m c)
theorem at_arg11_19 : RW19 m c (Proc.devRef .tc main_arg11) = (R.argsOf m c).a11 := (RW19_arg m c (by decide)).trans rfl
theorem at_v222_20 : RW20 m c (Proc.devRef .tc main_v222) = R.P11_nW2 (R.argsOf m c) :=
  pr_v222 (RW19 m c) (R.argsOf m c) (at_arg11_19 m c)
theorem at_v222_21 : RW21 m c (Proc.devRef .tc main_v222) = R.P11_nW2 (R.argsOf m c) := (RW21_keep m c (by decide)).trans (at_v222_20 m c)
theorem at_v222_22 : RW22 m c (Proc.devRef .tc main_v222) = R.P11_nW2 (R.argsOf m c) := (RW22_keep m c (by decide)).trans (at_v222_21 m c)
theorem at_v222_23 : RW23 m c (Proc.devRef .tc main_v222) = R.P11_nW2 (R.argsOf m c) := (RW23_keep m c (by decide)).trans (at_v222_22 m c)
theorem at_v222_24 : RW24 m c (Proc.devRef .tc main_v222) = R.P11_nW2 (R.argsOf m c) := (RW24_keep m c (by decide)).trans (at_v222_23 m c)
theorem at_v222_25 : RW25 m c (Proc.devRef .tc main_v222) = R.P11_nW2 (R.argsOf m c) := (RW25_keep m c (by decide)).trans (at_v222_24 m c)
theorem at_v222_26 : RW26 m c (Proc.devRef .tc main_v222) = R.P11_nW2 (R.argsOf m c) := (RW26_keep m c (by decide)).trans (at_v222_25 m c)
theorem at_v222_27 : RW27 m c (Proc.devRef .tc main_v222) = R.P11_nW2 (R.argsOf m c) := (RW27_keep m c (by decide)).trans (at_v222_26 m c)
theorem at_v222_28 : RW28 m c (Proc.devRef .tc main_v222) = R.P11_nW2 (R.argsOf m c) := (RW28_keep m c (by decide)).trans (at_v222_27 m c)
theorem at_v222_29 : RW29 m c (Proc.devRef .tc main_v222) = R.P11_nW2 (R.argsOf m c) := (RW29_keep m c (by decide)).trans (at_v222_28 m c)
theorem at_v222_30 : RW30 m c (Proc.devRef .tc main_v222) = R.P11_nW2 (R.argsOf m c) := (RW30_keep m c (by decide)).trans (at_v222_29 m c)
theorem at_v222_31 : RW31 m c (Proc.devRef .tc main_v222) = R.P11_nW2 (R.argsOf m c) := (RW31_keep m c (by decide)).trans (at_v222_30 m c)
theorem at_v222_32 : RW32 m c (Proc.devRef .tc main_v222) = R.P11_nW2 (R.argsOf m c) := (RW32_keep m c (by decide)).trans (at_v222_31 m c)
theorem at_v222_33 : RW33 m c (Proc.devRef .tc main_v222) = R.P11_nW2 (R.argsOf m c) := (RW33_keep m c (by decide)).trans (at_v222_32 m c)
theorem at_arg12_19 : RW19 m c (Proc.devRef .tc main_arg12) = (R.argsOf m c).a12 := (RW19_arg m c (by decide)).trans rfl
theorem at_v224_20 : RW20 m c (Proc.devRef .tc main_v224) = R.P11_nb2 (R.argsOf m c) :=
  pr_v224 (RW19 m c) (R.argsOf m c) (at_arg12_19 m c)
theorem at_v224_21 : RW21 m c (Proc.devRef .tc main_v224) = R.P11_nb2 (R.argsOf m c) := (RW21_keep m c (by decide)).trans (at_v224_20 m c)
theorem at_v224_22 : RW22 m c (Proc.devRef .tc main_v224) = R.P11_nb2 (R.argsOf m c) := (RW22_keep m c (by decide)).trans (at_v224_21 m c)
theorem at_v224_23 : RW23 m c (Proc.devRef .tc main_v224) = R.P11_nb2 (R.argsOf m c) := (RW23_keep m c (by decide)).trans (at_v224_22 m c)
theorem at_v224_24 : RW24 m c (Proc.devRef .tc main_v224) = R.P11_nb2 (R.argsOf m c) := (RW24_keep m c (by decide)).trans (at_v224_23 m c)
theorem at_v224_25 : RW25 m c (Proc.devRef .tc main_v224) = R.P11_nb2 (R.argsOf m c) := (RW25_keep m c (by decide)).trans (at_v224_24 m c)
theorem at_v224_26 : RW26 m c (Proc.devRef .tc main_v224) = R.P11_nb2 (R.argsOf m c) := (RW26_keep m c (by decide)).trans (at_v224_25 m c)
theorem at_v224_27 : RW27 m c (Proc.devRef .tc main_v224) = R.P11_nb2 (R.argsOf m c) := (RW27_keep m c (by decide)).trans (at_v224_26 m c)
theorem at_v224_28 : RW28 m c (Proc.devRef .tc main_v224) = R.P11_nb2 (R.argsOf m c) := (RW28_keep m c (by decide)).trans (at_v224_27 m c)
theorem at_v224_29 : RW29 m c (Proc.devRef .tc main_v224) = R.P11_nb2 (R.argsOf m c) := (RW29_keep m c (by decide)).trans (at_v224_28 m c)
theorem at_v224_30 : RW30 m c (Proc.devRef .tc main_v224) = R.P11_nb2 (R.argsOf m c) := (RW30_keep m c (by decide)).trans (at_v224_29 m c)
theorem at_v224_31 : RW31 m c (Proc.devRef .tc main_v224) = R.P11_nb2 (R.argsOf m c) := (RW31_keep m c (by decide)).trans (at_v224_30 m c)
theorem at_v224_32 : RW32 m c (Proc.devRef .tc main_v224) = R.P11_nb2 (R.argsOf m c) := (RW32_keep m c (by decide)).trans (at_v224_31 m c)
theorem at_v224_33 : RW33 m c (Proc.devRef .tc main_v224) = R.P11_nb2 (R.argsOf m c) := (RW33_keep m c (by decide)).trans (at_v224_32 m c)
theorem at_v342_34 : RW34 m c (Proc.devRef .tc main_v342) = R.un2 (R.argsOf m c) :=
  st_un2 (RW33 m c) (R.argsOf m c) (at_v332_33 m c) (at_v279_33 m c) (at_v331_33 m c) (at_v218_33 m c) (at_v220_33 m c) (at_v222_33 m c) (at_v224_33 m c)
theorem at_v346_35 : RW35 m c (Proc.devRef .tc main_v346) = C_v346 (F := Ideal) (R.un2 (R.argsOf m c)) :=
  rd_v346 (RW34 m c) (R.argsOf m c) (at_v342_34 m c)
theorem at_v321_32 : RW32 m c (Proc.devRef .tc main_v321) = R.ue2 (R.argsOf m c) := (RW32_keep m c (by decide)).trans (at_v321_31 m c)
theorem at_v321_33 : RW33 m c (Proc.devRef .tc main_v321) = R.ue2 (R.argsOf m c) := (RW33_keep m c (by decide)).trans (at_v321_32 m c)
theorem at_v321_34 : RW34 m c (Proc.devRef .tc main_v321) = R.ue2 (R.argsOf m c) := (RW34_keep m c (by decide)).trans (at_v321_33 m c)
theorem at_v350_35 : RW35 m c (Proc.devRef .tc main_v350) = C_v350 (F := Ideal) (R.ue2 (R.argsOf m c)) :=
  rd_v350 (RW34 m c) (R.argsOf m c) (at_v321_34 m c)
theorem at_v295_33 : RW33 m c (Proc.devRef .tc main_v295) = R.g3 (R.argsOf m c) := (RW33_keep m c (by decide)).trans (at_v295_32 m c)
theorem at_v295_34 : RW34 m c (Proc.devRef .tc main_v295) = R.g3 (R.argsOf m c) := (RW34_keep m c (by decide)).trans (at_v295_33 m c)
theorem at_v295_35 : RW35 m c (Proc.devRef .tc main_v295) = R.g3 (R.argsOf m c) := (RW35_keep m c (by decide)).trans (at_v295_34 m c)
theorem at_arg13_19 : RW19 m c (Proc.devRef .tc main_arg13) = (R.argsOf m c).a13 := (RW19_arg m c (by decide)).trans rfl
theorem at_v226_20 : RW20 m c (Proc.devRef .tc main_v226) = R.P11_gW1 (R.argsOf m c) :=
  pr_v226 (RW19 m c) (R.argsOf m c) (at_arg13_19 m c)
theorem at_v226_21 : RW21 m c (Proc.devRef .tc main_v226) = R.P11_gW1 (R.argsOf m c) := (RW21_keep m c (by decide)).trans (at_v226_20 m c)
theorem at_v226_22 : RW22 m c (Proc.devRef .tc main_v226) = R.P11_gW1 (R.argsOf m c) := (RW22_keep m c (by decide)).trans (at_v226_21 m c)
theorem at_v226_23 : RW23 m c (Proc.devRef .tc main_v226) = R.P11_gW1 (R.argsOf m c) := (RW23_keep m c (by decide)).trans (at_v226_22 m c)
theorem at_v226_24 : RW24 m c (Proc.devRef .tc main_v226) = R.P11_gW1 (R.argsOf m c) := (RW24_keep m c (by decide)).trans (at_v226_23 m c)
theorem at_v226_25 : RW25 m c (Proc.devRef .tc main_v226) = R.P11_gW1 (R.argsOf m c) := (RW25_keep m c (by decide)).trans (at_v226_24 m c)
theorem at_v226_26 : RW26 m c (Proc.devRef .tc main_v226) = R.P11_gW1 (R.argsOf m c) := (RW26_keep m c (by decide)).trans (at_v226_25 m c)
theorem at_v226_27 : RW27 m c (Proc.devRef .tc main_v226) = R.P11_gW1 (R.argsOf m c) := (RW27_keep m c (by decide)).trans (at_v226_26 m c)
theorem at_v226_28 : RW28 m c (Proc.devRef .tc main_v226) = R.P11_gW1 (R.argsOf m c) := (RW28_keep m c (by decide)).trans (at_v226_27 m c)
theorem at_v226_29 : RW29 m c (Proc.devRef .tc main_v226) = R.P11_gW1 (R.argsOf m c) := (RW29_keep m c (by decide)).trans (at_v226_28 m c)
theorem at_v226_30 : RW30 m c (Proc.devRef .tc main_v226) = R.P11_gW1 (R.argsOf m c) := (RW30_keep m c (by decide)).trans (at_v226_29 m c)
theorem at_v226_31 : RW31 m c (Proc.devRef .tc main_v226) = R.P11_gW1 (R.argsOf m c) := (RW31_keep m c (by decide)).trans (at_v226_30 m c)
theorem at_v226_32 : RW32 m c (Proc.devRef .tc main_v226) = R.P11_gW1 (R.argsOf m c) := (RW32_keep m c (by decide)).trans (at_v226_31 m c)
theorem at_v226_33 : RW33 m c (Proc.devRef .tc main_v226) = R.P11_gW1 (R.argsOf m c) := (RW33_keep m c (by decide)).trans (at_v226_32 m c)
theorem at_v226_34 : RW34 m c (Proc.devRef .tc main_v226) = R.P11_gW1 (R.argsOf m c) := (RW34_keep m c (by decide)).trans (at_v226_33 m c)
theorem at_v226_35 : RW35 m c (Proc.devRef .tc main_v226) = R.P11_gW1 (R.argsOf m c) := (RW35_keep m c (by decide)).trans (at_v226_34 m c)
theorem at_arg14_19 : RW19 m c (Proc.devRef .tc main_arg14) = (R.argsOf m c).a14 := (RW19_arg m c (by decide)).trans rfl
theorem at_v228_20 : RW20 m c (Proc.devRef .tc main_v228) = R.P11_gb1 (R.argsOf m c) :=
  pr_v228 (RW19 m c) (R.argsOf m c) (at_arg14_19 m c)
theorem at_v228_21 : RW21 m c (Proc.devRef .tc main_v228) = R.P11_gb1 (R.argsOf m c) := (RW21_keep m c (by decide)).trans (at_v228_20 m c)
theorem at_v228_22 : RW22 m c (Proc.devRef .tc main_v228) = R.P11_gb1 (R.argsOf m c) := (RW22_keep m c (by decide)).trans (at_v228_21 m c)
theorem at_v228_23 : RW23 m c (Proc.devRef .tc main_v228) = R.P11_gb1 (R.argsOf m c) := (RW23_keep m c (by decide)).trans (at_v228_22 m c)
theorem at_v228_24 : RW24 m c (Proc.devRef .tc main_v228) = R.P11_gb1 (R.argsOf m c) := (RW24_keep m c (by decide)).trans (at_v228_23 m c)
theorem at_v228_25 : RW25 m c (Proc.devRef .tc main_v228) = R.P11_gb1 (R.argsOf m c) := (RW25_keep m c (by decide)).trans (at_v228_24 m c)
theorem at_v228_26 : RW26 m c (Proc.devRef .tc main_v228) = R.P11_gb1 (R.argsOf m c) := (RW26_keep m c (by decide)).trans (at_v228_25 m c)
theorem at_v228_27 : RW27 m c (Proc.devRef .tc main_v228) = R.P11_gb1 (R.argsOf m c) := (RW27_keep m c (by decide)).trans (at_v228_26 m c)
theorem at_v228_28 : RW28 m c (Proc.devRef .tc main_v228) = R.P11_gb1 (R.argsOf m c) := (RW28_keep m c (by decide)).trans (at_v228_27 m c)
theorem at_v228_29 : RW29 m c (Proc.devRef .tc main_v228) = R.P11_gb1 (R.argsOf m c) := (RW29_keep m c (by decide)).trans (at_v228_28 m c)
theorem at_v228_30 : RW30 m c (Proc.devRef .tc main_v228) = R.P11_gb1 (R.argsOf m c) := (RW30_keep m c (by decide)).trans (at_v228_29 m c)
theorem at_v228_31 : RW31 m c (Proc.devRef .tc main_v228) = R.P11_gb1 (R.argsOf m c) := (RW31_keep m c (by decide)).trans (at_v228_30 m c)
theorem at_v228_32 : RW32 m c (Proc.devRef .tc main_v228) = R.P11_gb1 (R.argsOf m c) := (RW32_keep m c (by decide)).trans (at_v228_31 m c)
theorem at_v228_33 : RW33 m c (Proc.devRef .tc main_v228) = R.P11_gb1 (R.argsOf m c) := (RW33_keep m c (by decide)).trans (at_v228_32 m c)
theorem at_v228_34 : RW34 m c (Proc.devRef .tc main_v228) = R.P11_gb1 (R.argsOf m c) := (RW34_keep m c (by decide)).trans (at_v228_33 m c)
theorem at_v228_35 : RW35 m c (Proc.devRef .tc main_v228) = R.P11_gb1 (R.argsOf m c) := (RW35_keep m c (by decide)).trans (at_v228_34 m c)
theorem at_arg15_19 : RW19 m c (Proc.devRef .tc main_arg15) = (R.argsOf m c).a15 := (RW19_arg m c (by decide)).trans rfl
theorem at_v230_20 : RW20 m c (Proc.devRef .tc main_v230) = R.P11_gW2 (R.argsOf m c) :=
  pr_v230 (RW19 m c) (R.argsOf m c) (at_arg15_19 m c)
theorem at_v230_21 : RW21 m c (Proc.devRef .tc main_v230) = R.P11_gW2 (R.argsOf m c) := (RW21_keep m c (by decide)).trans (at_v230_20 m c)
theorem at_v230_22 : RW22 m c (Proc.devRef .tc main_v230) = R.P11_gW2 (R.argsOf m c) := (RW22_keep m c (by decide)).trans (at_v230_21 m c)
theorem at_v230_23 : RW23 m c (Proc.devRef .tc main_v230) = R.P11_gW2 (R.argsOf m c) := (RW23_keep m c (by decide)).trans (at_v230_22 m c)
theorem at_v230_24 : RW24 m c (Proc.devRef .tc main_v230) = R.P11_gW2 (R.argsOf m c) := (RW24_keep m c (by decide)).trans (at_v230_23 m c)
theorem at_v230_25 : RW25 m c (Proc.devRef .tc main_v230) = R.P11_gW2 (R.argsOf m c) := (RW25_keep m c (by decide)).trans (at_v230_24 m c)
theorem at_v230_26 : RW26 m c (Proc.devRef .tc main_v230) = R.P11_gW2 (R.argsOf m c) := (RW26_keep m c (by decide)).trans (at_v230_25 m c)
theorem at_v230_27 : RW27 m c (Proc.devRef .tc main_v230) = R.P11_gW2 (R.argsOf m c) := (RW27_keep m c (by decide)).trans (at_v230_26 m c)
theorem at_v230_28 : RW28 m c (Proc.devRef .tc main_v230) = R.P11_gW2 (R.argsOf m c) := (RW28_keep m c (by decide)).trans (at_v230_27 m c)
theorem at_v230_29 : RW29 m c (Proc.devRef .tc main_v230) = R.P11_gW2 (R.argsOf m c) := (RW29_keep m c (by decide)).trans (at_v230_28 m c)
theorem at_v230_30 : RW30 m c (Proc.devRef .tc main_v230) = R.P11_gW2 (R.argsOf m c) := (RW30_keep m c (by decide)).trans (at_v230_29 m c)
theorem at_v230_31 : RW31 m c (Proc.devRef .tc main_v230) = R.P11_gW2 (R.argsOf m c) := (RW31_keep m c (by decide)).trans (at_v230_30 m c)
theorem at_v230_32 : RW32 m c (Proc.devRef .tc main_v230) = R.P11_gW2 (R.argsOf m c) := (RW32_keep m c (by decide)).trans (at_v230_31 m c)
theorem at_v230_33 : RW33 m c (Proc.devRef .tc main_v230) = R.P11_gW2 (R.argsOf m c) := (RW33_keep m c (by decide)).trans (at_v230_32 m c)
theorem at_v230_34 : RW34 m c (Proc.devRef .tc main_v230) = R.P11_gW2 (R.argsOf m c) := (RW34_keep m c (by decide)).trans (at_v230_33 m c)
theorem at_v230_35 : RW35 m c (Proc.devRef .tc main_v230) = R.P11_gW2 (R.argsOf m c) := (RW35_keep m c (by decide)).trans (at_v230_34 m c)
theorem at_arg16_19 : RW19 m c (Proc.devRef .tc main_arg16) = (R.argsOf m c).a16 := (RW19_arg m c (by decide)).trans rfl
theorem at_v232_20 : RW20 m c (Proc.devRef .tc main_v232) = R.P11_gb2 (R.argsOf m c) :=
  pr_v232 (RW19 m c) (R.argsOf m c) (at_arg16_19 m c)
theorem at_v232_21 : RW21 m c (Proc.devRef .tc main_v232) = R.P11_gb2 (R.argsOf m c) := (RW21_keep m c (by decide)).trans (at_v232_20 m c)
theorem at_v232_22 : RW22 m c (Proc.devRef .tc main_v232) = R.P11_gb2 (R.argsOf m c) := (RW22_keep m c (by decide)).trans (at_v232_21 m c)
theorem at_v232_23 : RW23 m c (Proc.devRef .tc main_v232) = R.P11_gb2 (R.argsOf m c) := (RW23_keep m c (by decide)).trans (at_v232_22 m c)
theorem at_v232_24 : RW24 m c (Proc.devRef .tc main_v232) = R.P11_gb2 (R.argsOf m c) := (RW24_keep m c (by decide)).trans (at_v232_23 m c)
theorem at_v232_25 : RW25 m c (Proc.devRef .tc main_v232) = R.P11_gb2 (R.argsOf m c) := (RW25_keep m c (by decide)).trans (at_v232_24 m c)
theorem at_v232_26 : RW26 m c (Proc.devRef .tc main_v232) = R.P11_gb2 (R.argsOf m c) := (RW26_keep m c (by decide)).trans (at_v232_25 m c)
theorem at_v232_27 : RW27 m c (Proc.devRef .tc main_v232) = R.P11_gb2 (R.argsOf m c) := (RW27_keep m c (by decide)).trans (at_v232_26 m c)
theorem at_v232_28 : RW28 m c (Proc.devRef .tc main_v232) = R.P11_gb2 (R.argsOf m c) := (RW28_keep m c (by decide)).trans (at_v232_27 m c)
theorem at_v232_29 : RW29 m c (Proc.devRef .tc main_v232) = R.P11_gb2 (R.argsOf m c) := (RW29_keep m c (by decide)).trans (at_v232_28 m c)
theorem at_v232_30 : RW30 m c (Proc.devRef .tc main_v232) = R.P11_gb2 (R.argsOf m c) := (RW30_keep m c (by decide)).trans (at_v232_29 m c)
theorem at_v232_31 : RW31 m c (Proc.devRef .tc main_v232) = R.P11_gb2 (R.argsOf m c) := (RW31_keep m c (by decide)).trans (at_v232_30 m c)
theorem at_v232_32 : RW32 m c (Proc.devRef .tc main_v232) = R.P11_gb2 (R.argsOf m c) := (RW32_keep m c (by decide)).trans (at_v232_31 m c)
theorem at_v232_33 : RW33 m c (Proc.devRef .tc main_v232) = R.P11_gb2 (R.argsOf m c) := (RW33_keep m c (by decide)).trans (at_v232_32 m c)
theorem at_v232_34 : RW34 m c (Proc.devRef .tc main_v232) = R.P11_gb2 (R.argsOf m c) := (RW34_keep m c (by decide)).trans (at_v232_33 m c)
theorem at_v232_35 : RW35 m c (Proc.devRef .tc main_v232) = R.P11_gb2 (R.argsOf m c) := (RW35_keep m c (by decide)).trans (at_v232_34 m c)
theorem at_v358_36 : RW36 m c (Proc.devRef .tc main_v358) = R.g4 (R.argsOf m c) :=
  st_g4 (RW35 m c) (R.argsOf m c) (at_v346_35 m c) (at_v350_35 m c) (at_v295_35 m c) (at_v226_35 m c) (at_v228_35 m c) (at_v230_35 m c) (at_v232_35 m c)
theorem at_v358_37 : RW37 m c (Proc.devRef .tc main_v358) = R.g4 (R.argsOf m c) := (RW37_keep m c (by decide)).trans (at_v358_36 m c)
theorem at_v358_38 : RW38 m c (Proc.devRef .tc main_v358) = R.g4 (R.argsOf m c) := (RW38_keep m c (by decide)).trans (at_v358_37 m c)
theorem at_v408_39 : RW39 m c (Proc.devRef .tc main_v408) = C_v408 (F := Ideal) (R.g4 (R.argsOf m c)) :=
  rd_v408 (RW38 m c) (R.argsOf m c) (at_v358_38 m c)
theorem at_arg0_38 : RW38 m c (Proc.devRef .tc main_arg0) = (R.argsOf m c).a0 := (RW38_arg m c (by decide)).trans rfl
theorem at_v1_23 : RW23 m c (Proc.devRef .tc main_v1) = R.lr (R.argsOf m c) := (RW23_keep m c (by decide)).trans (at_v1_22 m c)
theorem at_v1_24 : RW24 m c (Proc.devRef .tc main_v1) = R.lr (R.argsOf m c) := (RW24_keep m c (by decide)).trans (at_v1_23 m c)
theorem at_v1_25 : RW25 m c (Proc.devRef .tc main_v1) = R.lr (R.argsOf m c) := (RW25_keep m c (by decide)).trans (at_v1_24 m c)
theorem at_v1_26 : RW26 m c (Proc.devRef .tc main_v1) = R.lr (R.argsOf m c) := (RW26_keep m c (by decide)).trans (at_v1_25 m c)
theorem at_v1_27 : RW27 m c (Proc.devRef .tc main_v1) = R.lr (R.argsOf m c) := (RW27_keep m c (by decide)).trans (at_v1_26 m c)
theorem at_v1_28 : RW28 m c (Proc.devRef .tc main_v1) = R.lr (R.argsOf m c) := (RW28_keep m c (by decide)).trans (at_v1_27 m c)
theorem at_v1_29 : RW29 m c (Proc.devRef .tc main_v1) = R.lr (R.argsOf m c) := (RW29_keep m c (by decide)).trans (at_v1_28 m c)
theorem at_v1_30 : RW30 m c (Proc.devRef .tc main_v1) = R.lr (R.argsOf m c) := (RW30_keep m c (by decide)).trans (at_v1_29 m c)
theorem at_v1_31 : RW31 m c (Proc.devRef .tc main_v1) = R.lr (R.argsOf m c) := (RW31_keep m c (by decide)).trans (at_v1_30 m c)
theorem at_v1_32 : RW32 m c (Proc.devRef .tc main_v1) = R.lr (R.argsOf m c) := (RW32_keep m c (by decide)).trans (at_v1_31 m c)
theorem at_v1_33 : RW33 m c (Proc.devRef .tc main_v1) = R.lr (R.argsOf m c) := (RW33_keep m c (by decide)).trans (at_v1_32 m c)
theorem at_v1_34 : RW34 m c (Proc.devRef .tc main_v1) = R.lr (R.argsOf m c) := (RW34_keep m c (by decide)).trans (at_v1_33 m c)
theorem at_v1_35 : RW35 m c (Proc.devRef .tc main_v1) = R.lr (R.argsOf m c) := (RW35_keep m c (by decide)).trans (at_v1_34 m c)
theorem at_v1_36 : RW36 m c (Proc.devRef .tc main_v1) = R.lr (R.argsOf m c) := (RW36_keep m c (by decide)).trans (at_v1_35 m c)
theorem at_v1_37 : RW37 m c (Proc.devRef .tc main_v1) = R.lr (R.argsOf m c) := (RW37_keep m c (by decide)).trans (at_v1_36 m c)
theorem at_v1_38 : RW38 m c (Proc.devRef .tc main_v1) = R.lr (R.argsOf m c) := (RW38_keep m c (by decide)).trans (at_v1_37 m c)
theorem at_v415_39 : RW39 m c (Proc.devRef .tc main_v415) = C_v415 (F := Ideal) ((R.argsOf m c).a0) (R.lr (R.argsOf m c)) :=
  rd_v415 (RW38 m c) (R.argsOf m c) (at_arg0_38 m c) (at_v1_38 m c)
theorem at_v3_21 : RW21 m c (Proc.devRef .tc main_v3) = R.lc (R.argsOf m c) := (RW21_keep m c (by decide)).trans (at_v3_20 m c)
theorem at_v3_22 : RW22 m c (Proc.devRef .tc main_v3) = R.lc (R.argsOf m c) := (RW22_keep m c (by decide)).trans (at_v3_21 m c)
theorem at_v3_23 : RW23 m c (Proc.devRef .tc main_v3) = R.lc (R.argsOf m c) := (RW23_keep m c (by decide)).trans (at_v3_22 m c)
theorem at_v3_24 : RW24 m c (Proc.devRef .tc main_v3) = R.lc (R.argsOf m c) := (RW24_keep m c (by decide)).trans (at_v3_23 m c)
theorem at_v3_25 : RW25 m c (Proc.devRef .tc main_v3) = R.lc (R.argsOf m c) := (RW25_keep m c (by decide)).trans (at_v3_24 m c)
theorem at_v3_26 : RW26 m c (Proc.devRef .tc main_v3) = R.lc (R.argsOf m c) := (RW26_keep m c (by decide)).trans (at_v3_25 m c)
theorem at_v3_27 : RW27 m c (Proc.devRef .tc main_v3) = R.lc (R.argsOf m c) := (RW27_keep m c (by decide)).trans (at_v3_26 m c)
theorem at_v3_28 : RW28 m c (Proc.devRef .tc main_v3) = R.lc (R.argsOf m c) := (RW28_keep m c (by decide)).trans (at_v3_27 m c)
theorem at_v3_29 : RW29 m c (Proc.devRef .tc main_v3) = R.lc (R.argsOf m c) := (RW29_keep m c (by decide)).trans (at_v3_28 m c)
theorem at_v3_30 : RW30 m c (Proc.devRef .tc main_v3) = R.lc (R.argsOf m c) := (RW30_keep m c (by decide)).trans (at_v3_29 m c)
theorem at_v3_31 : RW31 m c (Proc.devRef .tc main_v3) = R.lc (R.argsOf m c) := (RW31_keep m c (by decide)).trans (at_v3_30 m c)
theorem at_v3_32 : RW32 m c (Proc.devRef .tc main_v3) = R.lc (R.argsOf m c) := (RW32_keep m c (by decide)).trans (at_v3_31 m c)
theorem at_v3_33 : RW33 m c (Proc.devRef .tc main_v3) = R.lc (R.argsOf m c) := (RW33_keep m c (by decide)).trans (at_v3_32 m c)
theorem at_v3_34 : RW34 m c (Proc.devRef .tc main_v3) = R.lc (R.argsOf m c) := (RW34_keep m c (by decide)).trans (at_v3_33 m c)
theorem at_v3_35 : RW35 m c (Proc.devRef .tc main_v3) = R.lc (R.argsOf m c) := (RW35_keep m c (by decide)).trans (at_v3_34 m c)
theorem at_v3_36 : RW36 m c (Proc.devRef .tc main_v3) = R.lc (R.argsOf m c) := (RW36_keep m c (by decide)).trans (at_v3_35 m c)
theorem at_v3_37 : RW37 m c (Proc.devRef .tc main_v3) = R.lc (R.argsOf m c) := (RW37_keep m c (by decide)).trans (at_v3_36 m c)
theorem at_v3_38 : RW38 m c (Proc.devRef .tc main_v3) = R.lc (R.argsOf m c) := (RW38_keep m c (by decide)).trans (at_v3_37 m c)
theorem at_v422_39 : RW39 m c (Proc.devRef .tc main_v422) = C_v422 (F := Ideal) ((R.argsOf m c).a0) (R.lc (R.argsOf m c)) :=
  rd_v422 (RW38 m c) (R.argsOf m c) (at_arg0_38 m c) (at_v3_38 m c)
theorem at_v258_27 : RW27 m c (Proc.devRef .tc main_v258) = R.le2 (R.argsOf m c) := (RW27_keep m c (by decide)).trans (at_v258_26 m c)
theorem at_v258_28 : RW28 m c (Proc.devRef .tc main_v258) = R.le2 (R.argsOf m c) := (RW28_keep m c (by decide)).trans (at_v258_27 m c)
theorem at_v258_29 : RW29 m c (Proc.devRef .tc main_v258) = R.le2 (R.argsOf m c) := (RW29_keep m c (by decide)).trans (at_v258_28 m c)
theorem at_v258_30 : RW30 m c (Proc.devRef .tc main_v258) = R.le2 (R.argsOf m c) := (RW30_keep m c (by decide)).trans (at_v258_29 m c)
theorem at_v258_31 : RW31 m c (Proc.devRef .tc main_v258) = R.le2 (R.argsOf m c) := (RW31_keep m c (by decide)).trans (at_v258_30 m c)
theorem at_v258_32 : RW32 m c (Proc.devRef .tc main_v258) = R.le2 (R.argsOf m c) := (RW32_keep m c (by decide)).trans (at_v258_31 m c)
theorem at_v258_33 : RW33 m c (Proc.devRef .tc main_v258) = R.le2 (R.argsOf m c) := (RW33_keep m c (by decide)).trans (at_v258_32 m c)
theorem at_v258_34 : RW34 m c (Proc.devRef .tc main_v258) = R.le2 (R.argsOf m c) := (RW34_keep m c (by decide)).trans (at_v258_33 m c)
theorem at_v258_35 : RW35 m c (Proc.devRef .tc main_v258) = R.le2 (R.argsOf m c) := (RW35_keep m c (by decide)).trans (at_v258_34 m c)
theorem at_v258_36 : RW36 m c (Proc.devRef .tc main_v258) = R.le2 (R.argsOf m c) := (RW36_keep m c (by decide)).trans (at_v258_35 m c)
theorem at_v258_37 : RW37 m c (Proc.devRef .tc main_v258) = R.le2 (R.argsOf m c) := (RW37_keep m c (by decide)).trans (at_v258_36 m c)
theorem at_v258_38 : RW38 m c (Proc.devRef .tc main_v258) = R.le2 (R.argsOf m c) := (RW38_keep m c (by decide)).trans (at_v258_37 m c)
theorem at_arg3_38 : RW38 m c (Proc.devRef .tc main_arg3) = (R.argsOf m c).a3 := (RW38_arg m c (by decide)).trans rfl
theorem at_v407_39 : RW39 m c (Proc.devRef .tc main_v407) = C_v407 (F := Ideal) (R.le2 (R.argsOf m c)) ((R.argsOf m c).a3) :=
  rd_v407 (RW38 m c) (R.argsOf m c) (at_v258_38 m c) (at_arg3_38 m c)
theorem at_arg5_36 : RW36 m c (Proc.devRef .tc main_arg5) = (R.argsOf m c).a5 := (RW36_arg m c (by decide)).trans rfl
theorem at_v360_37 : RW37 m c (Proc.devRef .tc main_v360) = R.P02_eW1 (R.argsOf m c) :=
  pr_v360 (RW36 m c) (R.argsOf m c) (at_arg5_36 m c)
theorem at_v360_38 : RW38 m c (Proc.devRef .tc main_v360) = R.P02_eW1 (R.argsOf m c) := (RW38_keep m c (by decide)).trans (at_v360_37 m c)
theorem at_v360_39 : RW39 m c (Proc.devRef .tc main_v360) = R.P02_eW1 (R.argsOf m c) := (RW39_keep m c (by decide)).trans (at_v360_38 m c)
theorem at_v424_40 : RW40 m c (Proc.devRef .tc main_v424) = C_v424 (F := Ideal) (C_v408 (F := Ideal) (R.g4 (R.argsOf m c))) (C_v415 (F := Ideal) ((R.argsOf m c).a0) (R.lr (R.argsOf m c))) (C_v422 (F := Ideal) ((R.argsOf m c).a0) (R.lc (R.argsOf m c))) (C_v407 (F := Ideal) (R.le2 (R.argsOf m c)) ((R.argsOf m c).a3)) (R.P02_eW1 (R.argsOf m c)) :=
  rd_v424 (RW39 m c) (R.argsOf m c) (at_v408_39 m c) (at_v415_39 m c) (at_v422_39 m c) (at_v407_39 m c) (at_v360_39 m c)
theorem at_arg6_36 : RW36 m c (Proc.devRef .tc main_arg6) = (R.argsOf m c).a6 := (RW36_arg m c (by decide)).trans rfl
theorem at_v362_37 : RW37 m c (Proc.devRef .tc main_v362) = R.P02_eb1 (R.argsOf m c) :=
  pr_v362 (RW36 m c) (R.argsOf m c) (at_arg6_36 m c)
theorem at_v362_38 : RW38 m c (Proc.devRef .tc main_v362) = R.P02_eb1 (R.argsOf m c) := (RW38_keep m c (by decide)).trans (at_v362_37 m c)
theorem at_v362_39 : RW39 m c (Proc.devRef .tc main_v362) = R.P02_eb1 (R.argsOf m c) := (RW39_keep m c (by decide)).trans (at_v362_38 m c)
theorem at_v362_40 : RW40 m c (Proc.devRef .tc main_v362) = R.P02_eb1 (R.argsOf m c) := (RW40_keep m c (by decide)).trans (at_v362_39 m c)
theorem at_arg7_36 : RW36 m c (Proc.devRef .tc main_arg7) = (R.argsOf m c).a7 := (RW36_arg m c (by decide)).trans rfl
theorem at_v364_37 : RW37 m c (Proc.devRef .tc main_v364) = R.P02_eW2 (R.argsOf m c) :=
  pr_v364 (RW36 m c) (R.argsOf m c) (at_arg7_36 m c)
theorem at_v364_38 : RW38 m c (Proc.devRef .tc main_v364) = R.P02_eW2 (R.argsOf m c) := (RW38_keep m c (by decide)).trans (at_v364_37 m c)
theorem at_v364_39 : RW39 m c (Proc.devRef .tc main_v364) = R.P02_eW2 (R.argsOf m c) := (RW39_keep m c (by decide)).trans (at_v364_38 m c)
theorem at_v364_40 : RW40 m c (Proc.devRef .tc main_v364) = R.P02_eW2 (R.argsOf m c) := (RW40_keep m c (by decide)).trans (at_v364_39 m c)
theorem at_arg8_36 : RW36 m c (Proc.devRef .tc main_arg8) = (R.argsOf m c).a8 := (RW36_arg m c (by decide)).trans rfl
theorem at_v366_37 : RW37 m c (Proc.devRef .tc main_v366) = R.P02_eb2 (R.argsOf m c) :=
  pr_v366 (RW36 m c) (R.argsOf m c) (at_arg8_36 m c)
theorem at_v366_38 : RW38 m c (Proc.devRef .tc main_v366) = R.P02_eb2 (R.argsOf m c) := (RW38_keep m c (by decide)).trans (at_v366_37 m c)
theorem at_v366_39 : RW39 m c (Proc.devRef .tc main_v366) = R.P02_eb2 (R.argsOf m c) := (RW39_keep m c (by decide)).trans (at_v366_38 m c)
theorem at_v366_40 : RW40 m c (Proc.devRef .tc main_v366) = R.P02_eb2 (R.argsOf m c) := (RW40_keep m c (by decide)).trans (at_v366_39 m c)
theorem at_v432_41 : RW41 m c (Proc.devRef .tc main_v432) = R.le3 (R.argsOf m c) :=
  st_le3 (RW40 m c) (R.argsOf m c) (at_v424_40 m c) (at_v362_40 m c) (at_v364_40 m c) (at_v366_40 m c)
theorem at_v1_39 : RW39 m c (Proc.devRef .tc main_v1) = R.lr (R.argsOf m c) := (RW39_keep m c (by decide)).trans (at_v1_38 m c)
theorem at_v1_40 : RW40 m c (Proc.devRef .tc main_v1) = R.lr (R.argsOf m c) := (RW40_keep m c (by decide)).trans (at_v1_39 m c)
theorem at_v1_41 : RW41 m c (Proc.devRef .tc main_v1) = R.lr (R.argsOf m c) := (RW41_keep m c (by decide)).trans (at_v1_40 m c)
theorem at_v442_42 : RW42 m c (Proc.devRef .tc main_v442) = R.la3 (R.argsOf m c) :=
  st_la3 (RW41 m c) (R.argsOf m c) (at_v1_41 m c) (at_v432_41 m c)
theorem at_v358_39 : RW39 m c (Proc.devRef .tc main_v358) = R.g4 (R.argsOf m c) := (RW39_keep m c (by decide)).trans (at_v358_38 m c)
theorem at_v358_40 : RW40 m c (Proc.devRef .tc main_v358) = R.g4 (R.argsOf m c) := (RW40_keep m c (by decide)).trans (at_v358_39 m c)
theorem at_v358_41 : RW41 m c (Proc.devRef .tc main_v358) = R.g4 (R.argsOf m c) := (RW41_keep m c (by decide)).trans (at_v358_40 m c)
theorem at_v358_42 : RW42 m c (Proc.devRef .tc main_v358) = R.g4 (R.argsOf m c) := (RW42_keep m c (by decide)).trans (at_v358_41 m c)
theorem at_v443_43 : RW43 m c (Proc.devRef .tc main_v443) = C_v443 (F := Ideal) (R.g4 (R.argsOf m c)) :=
  rd_v443 (RW42 m c) (R.argsOf m c) (at_v358_42 m c)
theorem at_arg0_43 : RW43 m c (Proc.devRef .tc main_arg0) = (R.argsOf m c).a0 := (RW43_arg m c (by decide)).trans rfl
theorem at_v442_43 : RW43 m c (Proc.devRef .tc main_v442) = R.la3 (R.argsOf m c) := (RW43_keep m c (by decide)).trans (at_v442_42 m c)
theorem at_arg9_36 : RW36 m c (Proc.devRef .tc main_arg9) = (R.argsOf m c).a9 := (RW36_arg m c (by decide)).trans rfl
theorem at_v368_37 : RW37 m c (Proc.devRef .tc main_v368) = R.P02_nW1 (R.argsOf m c) :=
  pr_v368 (RW36 m c) (R.argsOf m c) (at_arg9_36 m c)
theorem at_v368_38 : RW38 m c (Proc.devRef .tc main_v368) = R.P02_nW1 (R.argsOf m c) := (RW38_keep m c (by decide)).trans (at_v368_37 m c)
theorem at_v368_39 : RW39 m c (Proc.devRef .tc main_v368) = R.P02_nW1 (R.argsOf m c) := (RW39_keep m c (by decide)).trans (at_v368_38 m c)
theorem at_v368_40 : RW40 m c (Proc.devRef .tc main_v368) = R.P02_nW1 (R.argsOf m c) := (RW40_keep m c (by decide)).trans (at_v368_39 m c)
theorem at_v368_41 : RW41 m c (Proc.devRef .tc main_v368) = R.P02_nW1 (R.argsOf m c) := (RW41_keep m c (by decide)).trans (at_v368_40 m c)
theorem at_v368_42 : RW42 m c (Proc.devRef .tc main_v368) = R.P02_nW1 (R.argsOf m c) := (RW42_keep m c (by decide)).trans (at_v368_41 m c)
theorem at_v368_43 : RW43 m c (Proc.devRef .tc main_v368) = R.P02_nW1 (R.argsOf m c) := (RW43_keep m c (by decide)).trans (at_v368_42 m c)
theorem at_arg10_37 : RW37 m c (Proc.devRef .tc main_arg10) = (R.argsOf m c).a10 := (RW37_arg m c (by decide)).trans rfl
theorem at_v370_38 : RW38 m c (Proc.devRef .tc main_v370) = R.P02_nb1 (R.argsOf m c) :=
  pr_v370 (RW37 m c) (R.argsOf m c) (at_arg10_37 m c)
theorem at_v370_39 : RW39 m c (Proc.devRef .tc main_v370) = R.P02_nb1 (R.argsOf m c) := (RW39_keep m c (by decide)).trans (at_v370_38 m c)
theorem at_v370_40 : RW40 m c (Proc.devRef .tc main_v370) = R.P02_nb1 (R.argsOf m c) := (RW40_keep m c (by decide)).trans (at_v370_39 m c)
theorem at_v370_41 : RW41 m c (Proc.devRef .tc main_v370) = R.P02_nb1 (R.argsOf m c) := (RW41_keep m c (by decide)).trans (at_v370_40 m c)
theorem at_v370_42 : RW42 m c (Proc.devRef .tc main_v370) = R.P02_nb1 (R.argsOf m c) := (RW42_keep m c (by decide)).trans (at_v370_41 m c)
theorem at_v370_43 : RW43 m c (Proc.devRef .tc main_v370) = R.P02_nb1 (R.argsOf m c) := (RW43_keep m c (by decide)).trans (at_v370_42 m c)
theorem at_arg11_37 : RW37 m c (Proc.devRef .tc main_arg11) = (R.argsOf m c).a11 := (RW37_arg m c (by decide)).trans rfl
theorem at_v372_38 : RW38 m c (Proc.devRef .tc main_v372) = R.P02_nW2 (R.argsOf m c) :=
  pr_v372 (RW37 m c) (R.argsOf m c) (at_arg11_37 m c)
theorem at_v372_39 : RW39 m c (Proc.devRef .tc main_v372) = R.P02_nW2 (R.argsOf m c) := (RW39_keep m c (by decide)).trans (at_v372_38 m c)
theorem at_v372_40 : RW40 m c (Proc.devRef .tc main_v372) = R.P02_nW2 (R.argsOf m c) := (RW40_keep m c (by decide)).trans (at_v372_39 m c)
theorem at_v372_41 : RW41 m c (Proc.devRef .tc main_v372) = R.P02_nW2 (R.argsOf m c) := (RW41_keep m c (by decide)).trans (at_v372_40 m c)
theorem at_v372_42 : RW42 m c (Proc.devRef .tc main_v372) = R.P02_nW2 (R.argsOf m c) := (RW42_keep m c (by decide)).trans (at_v372_41 m c)
theorem at_v372_43 : RW43 m c (Proc.devRef .tc main_v372) = R.P02_nW2 (R.argsOf m c) := (RW43_keep m c (by decide)).trans (at_v372_42 m c)
theorem at_arg12_37 : RW37 m c (Proc.devRef .tc main_arg12) = (R.argsOf m c).a12 := (RW37_arg m c (by decide)).trans rfl
theorem at_v374_38 : RW38 m c (Proc.devRef .tc main_v374) = R.P02_nb2 (R.argsOf m c) :=
  pr_v374 (RW37 m c) (R.argsOf m c) (at_arg12_37 m c)
theorem at_v374_39 : RW39 m c (Proc.devRef .tc main_v374) = R.P02_nb2 (R.argsOf m c) := (RW39_keep m c (by decide)).trans (at_v374_38 m c)
theorem at_v374_40 : RW40 m c (Proc.devRef .tc main_v374) = R.P02_nb2 (R.argsOf m c) := (RW40_keep m c (by decide)).trans (at_v374_39 m c)
theorem at_v374_41 : RW41 m c (Proc.devRef .tc main_v374) = R.P02_nb2 (R.argsOf m c) := (RW41_keep m c (by decide)).trans (at_v374_40 m c)
theorem at_v374_42 : RW42 m c (Proc.devRef .tc main_v374) = R.P02_nb2 (R.argsOf m c) := (RW42_keep m c (by decide)).trans (at_v374_41 m c)
theorem at_v374_43 : RW43 m c (Proc.devRef .tc main_v374) = R.P02_nb2 (R.argsOf m c) := (RW43_keep m c (by decide)).trans (at_v374_42 m c)
theorem at_v453_44 : RW44 m c (Proc.devRef .tc main_v453) = R.ln3 (R.argsOf m c) :=
  st_ln3 (RW43 m c) (R.argsOf m c) (at_v443_43 m c) (at_arg0_43 m c) (at_v442_43 m c) (at_v368_43 m c) (at_v370_43 m c) (at_v372_43 m c) (at_v374_43 m c)
theorem at_v457_45 : RW45 m c (Proc.devRef .tc main_v457) = C_v457 (F := Ideal) (R.ln3 (R.argsOf m c)) :=
  rd_v457 (RW44 m c) (R.argsOf m c) (at_v453_44 m c)
theorem at_v432_42 : RW42 m c (Proc.devRef .tc main_v432) = R.le3 (R.argsOf m c) := (RW42_keep m c (by decide)).trans (at_v432_41 m c)
theorem at_v432_43 : RW43 m c (Proc.devRef .tc main_v432) = R.le3 (R.argsOf m c) := (RW43_keep m c (by decide)).trans (at_v432_42 m c)
theorem at_v432_44 : RW44 m c (Proc.devRef .tc main_v432) = R.le3 (R.argsOf m c) := (RW44_keep m c (by decide)).trans (at_v432_43 m c)
theorem at_v461_45 : RW45 m c (Proc.devRef .tc main_v461) = C_v461 (F := Ideal) (R.le3 (R.argsOf m c)) :=
  rd_v461 (RW44 m c) (R.argsOf m c) (at_v432_44 m c)
theorem at_v358_43 : RW43 m c (Proc.devRef .tc main_v358) = R.g4 (R.argsOf m c) := (RW43_keep m c (by decide)).trans (at_v358_42 m c)
theorem at_v358_44 : RW44 m c (Proc.devRef .tc main_v358) = R.g4 (R.argsOf m c) := (RW44_keep m c (by decide)).trans (at_v358_43 m c)
theorem at_v358_45 : RW45 m c (Proc.devRef .tc main_v358) = R.g4 (R.argsOf m c) := (RW45_keep m c (by decide)).trans (at_v358_44 m c)
theorem at_arg13_37 : RW37 m c (Proc.devRef .tc main_arg13) = (R.argsOf m c).a13 := (RW37_arg m c (by decide)).trans rfl
theorem at_v376_38 : RW38 m c (Proc.devRef .tc main_v376) = R.P02_gW1 (R.argsOf m c) :=
  pr_v376 (RW37 m c) (R.argsOf m c) (at_arg13_37 m c)
theorem at_v376_39 : RW39 m c (Proc.devRef .tc main_v376) = R.P02_gW1 (R.argsOf m c) := (RW39_keep m c (by decide)).trans (at_v376_38 m c)
theorem at_v376_40 : RW40 m c (Proc.devRef .tc main_v376) = R.P02_gW1 (R.argsOf m c) := (RW40_keep m c (by decide)).trans (at_v376_39 m c)
theorem at_v376_41 : RW41 m c (Proc.devRef .tc main_v376) = R.P02_gW1 (R.argsOf m c) := (RW41_keep m c (by decide)).trans (at_v376_40 m c)
theorem at_v376_42 : RW42 m c (Proc.devRef .tc main_v376) = R.P02_gW1 (R.argsOf m c) := (RW42_keep m c (by decide)).trans (at_v376_41 m c)
theorem at_v376_43 : RW43 m c (Proc.devRef .tc main_v376) = R.P02_gW1 (R.argsOf m c) := (RW43_keep m c (by decide)).trans (at_v376_42 m c)
theorem at_v376_44 : RW44 m c (Proc.devRef .tc main_v376) = R.P02_gW1 (R.argsOf m c) := (RW44_keep m c (by decide)).trans (at_v376_43 m c)
theorem at_v376_45 : RW45 m c (Proc.devRef .tc main_v376) = R.P02_gW1 (R.argsOf m c) := (RW45_keep m c (by decide)).trans (at_v376_44 m c)
theorem at_arg14_37 : RW37 m c (Proc.devRef .tc main_arg14) = (R.argsOf m c).a14 := (RW37_arg m c (by decide)).trans rfl
theorem at_v378_38 : RW38 m c (Proc.devRef .tc main_v378) = R.P02_gb1 (R.argsOf m c) :=
  pr_v378 (RW37 m c) (R.argsOf m c) (at_arg14_37 m c)
theorem at_v378_39 : RW39 m c (Proc.devRef .tc main_v378) = R.P02_gb1 (R.argsOf m c) := (RW39_keep m c (by decide)).trans (at_v378_38 m c)
theorem at_v378_40 : RW40 m c (Proc.devRef .tc main_v378) = R.P02_gb1 (R.argsOf m c) := (RW40_keep m c (by decide)).trans (at_v378_39 m c)
theorem at_v378_41 : RW41 m c (Proc.devRef .tc main_v378) = R.P02_gb1 (R.argsOf m c) := (RW41_keep m c (by decide)).trans (at_v378_40 m c)
theorem at_v378_42 : RW42 m c (Proc.devRef .tc main_v378) = R.P02_gb1 (R.argsOf m c) := (RW42_keep m c (by decide)).trans (at_v378_41 m c)
theorem at_v378_43 : RW43 m c (Proc.devRef .tc main_v378) = R.P02_gb1 (R.argsOf m c) := (RW43_keep m c (by decide)).trans (at_v378_42 m c)
theorem at_v378_44 : RW44 m c (Proc.devRef .tc main_v378) = R.P02_gb1 (R.argsOf m c) := (RW44_keep m c (by decide)).trans (at_v378_43 m c)
theorem at_v378_45 : RW45 m c (Proc.devRef .tc main_v378) = R.P02_gb1 (R.argsOf m c) := (RW45_keep m c (by decide)).trans (at_v378_44 m c)
theorem at_arg15_37 : RW37 m c (Proc.devRef .tc main_arg15) = (R.argsOf m c).a15 := (RW37_arg m c (by decide)).trans rfl
theorem at_v380_38 : RW38 m c (Proc.devRef .tc main_v380) = R.P02_gW2 (R.argsOf m c) :=
  pr_v380 (RW37 m c) (R.argsOf m c) (at_arg15_37 m c)
theorem at_v380_39 : RW39 m c (Proc.devRef .tc main_v380) = R.P02_gW2 (R.argsOf m c) := (RW39_keep m c (by decide)).trans (at_v380_38 m c)
theorem at_v380_40 : RW40 m c (Proc.devRef .tc main_v380) = R.P02_gW2 (R.argsOf m c) := (RW40_keep m c (by decide)).trans (at_v380_39 m c)
theorem at_v380_41 : RW41 m c (Proc.devRef .tc main_v380) = R.P02_gW2 (R.argsOf m c) := (RW41_keep m c (by decide)).trans (at_v380_40 m c)
theorem at_v380_42 : RW42 m c (Proc.devRef .tc main_v380) = R.P02_gW2 (R.argsOf m c) := (RW42_keep m c (by decide)).trans (at_v380_41 m c)
theorem at_v380_43 : RW43 m c (Proc.devRef .tc main_v380) = R.P02_gW2 (R.argsOf m c) := (RW43_keep m c (by decide)).trans (at_v380_42 m c)
theorem at_v380_44 : RW44 m c (Proc.devRef .tc main_v380) = R.P02_gW2 (R.argsOf m c) := (RW44_keep m c (by decide)).trans (at_v380_43 m c)
theorem at_v380_45 : RW45 m c (Proc.devRef .tc main_v380) = R.P02_gW2 (R.argsOf m c) := (RW45_keep m c (by decide)).trans (at_v380_44 m c)
theorem at_arg16_37 : RW37 m c (Proc.devRef .tc main_arg16) = (R.argsOf m c).a16 := (RW37_arg m c (by decide)).trans rfl
theorem at_v382_38 : RW38 m c (Proc.devRef .tc main_v382) = R.P02_gb2 (R.argsOf m c) :=
  pr_v382 (RW37 m c) (R.argsOf m c) (at_arg16_37 m c)
theorem at_v382_39 : RW39 m c (Proc.devRef .tc main_v382) = R.P02_gb2 (R.argsOf m c) := (RW39_keep m c (by decide)).trans (at_v382_38 m c)
theorem at_v382_40 : RW40 m c (Proc.devRef .tc main_v382) = R.P02_gb2 (R.argsOf m c) := (RW40_keep m c (by decide)).trans (at_v382_39 m c)
theorem at_v382_41 : RW41 m c (Proc.devRef .tc main_v382) = R.P02_gb2 (R.argsOf m c) := (RW41_keep m c (by decide)).trans (at_v382_40 m c)
theorem at_v382_42 : RW42 m c (Proc.devRef .tc main_v382) = R.P02_gb2 (R.argsOf m c) := (RW42_keep m c (by decide)).trans (at_v382_41 m c)
theorem at_v382_43 : RW43 m c (Proc.devRef .tc main_v382) = R.P02_gb2 (R.argsOf m c) := (RW43_keep m c (by decide)).trans (at_v382_42 m c)
theorem at_v382_44 : RW44 m c (Proc.devRef .tc main_v382) = R.P02_gb2 (R.argsOf m c) := (RW44_keep m c (by decide)).trans (at_v382_43 m c)
theorem at_v382_45 : RW45 m c (Proc.devRef .tc main_v382) = R.P02_gb2 (R.argsOf m c) := (RW45_keep m c (by decide)).trans (at_v382_44 m c)
theorem at_v469_46 : RW46 m c (Proc.devRef .tc main_v469) = R.g5 (R.argsOf m c) :=
  st_g5 (RW45 m c) (R.argsOf m c) (at_v457_45 m c) (at_v461_45 m c) (at_v358_45 m c) (at_v376_45 m c) (at_v378_45 m c) (at_v380_45 m c) (at_v382_45 m c)
theorem at_v471_47 : RW47 m c (Proc.devRef .tc main_v471) = C_v471 (F := Ideal) (R.g5 (R.argsOf m c)) :=
  rd_v471 (RW46 m c) (R.argsOf m c) (at_v469_46 m c)
theorem at_v471_48 : RW48 m c (Proc.devRef .tc main_v471) = C_v471 (F := Ideal) (R.g5 (R.argsOf m c)) := (RW48_keep m c (by decide)).trans (at_v471_47 m c)
theorem at_v453_45 : RW45 m c (Proc.devRef .tc main_v453) = R.ln3 (R.argsOf m c) := (RW45_keep m c (by decide)).trans (at_v453_44 m c)
theorem at_v453_46 : RW46 m c (Proc.devRef .tc main_v453) = R.ln3 (R.argsOf m c) := (RW46_keep m c (by decide)).trans (at_v453_45 m c)
theorem at_v453_47 : RW47 m c (Proc.devRef .tc main_v453) = R.ln3 (R.argsOf m c) := (RW47_keep m c (by decide)).trans (at_v453_46 m c)
theorem at_v5_32 : RW32 m c (Proc.devRef .tc main_v5) = R.ur (R.argsOf m c) := (RW32_keep m c (by decide)).trans (at_v5_31 m c)
theorem at_v5_33 : RW33 m c (Proc.devRef .tc main_v5) = R.ur (R.argsOf m c) := (RW33_keep m c (by decide)).trans (at_v5_32 m c)
theorem at_v5_34 : RW34 m c (Proc.devRef .tc main_v5) = R.ur (R.argsOf m c) := (RW34_keep m c (by decide)).trans (at_v5_33 m c)
theorem at_v5_35 : RW35 m c (Proc.devRef .tc main_v5) = R.ur (R.argsOf m c) := (RW35_keep m c (by decide)).trans (at_v5_34 m c)
theorem at_v5_36 : RW36 m c (Proc.devRef .tc main_v5) = R.ur (R.argsOf m c) := (RW36_keep m c (by decide)).trans (at_v5_35 m c)
theorem at_v5_37 : RW37 m c (Proc.devRef .tc main_v5) = R.ur (R.argsOf m c) := (RW37_keep m c (by decide)).trans (at_v5_36 m c)
theorem at_v5_38 : RW38 m c (Proc.devRef .tc main_v5) = R.ur (R.argsOf m c) := (RW38_keep m c (by decide)).trans (at_v5_37 m c)
theorem at_v5_39 : RW39 m c (Proc.devRef .tc main_v5) = R.ur (R.argsOf m c) := (RW39_keep m c (by decide)).trans (at_v5_38 m c)
theorem at_v5_40 : RW40 m c (Proc.devRef .tc main_v5) = R.ur (R.argsOf m c) := (RW40_keep m c (by decide)).trans (at_v5_39 m c)
theorem at_v5_41 : RW41 m c (Proc.devRef .tc main_v5) = R.ur (R.argsOf m c) := (RW41_keep m c (by decide)).trans (at_v5_40 m c)
theorem at_v5_42 : RW42 m c (Proc.devRef .tc main_v5) = R.ur (R.argsOf m c) := (RW42_keep m c (by decide)).trans (at_v5_41 m c)
theorem at_v5_43 : RW43 m c (Proc.devRef .tc main_v5) = R.ur (R.argsOf m c) := (RW43_keep m c (by decide)).trans (at_v5_42 m c)
theorem at_v5_44 : RW44 m c (Proc.devRef .tc main_v5) = R.ur (R.argsOf m c) := (RW44_keep m c (by decide)).trans (at_v5_43 m c)
theorem at_v5_45 : RW45 m c (Proc.devRef .tc main_v5) = R.ur (R.argsOf m c) := (RW45_keep m c (by decide)).trans (at_v5_44 m c)
theorem at_v5_46 : RW46 m c (Proc.devRef .tc main_v5) = R.ur (R.argsOf m c) := (RW46_keep m c (by decide)).trans (at_v5_45 m c)
theorem at_v473_47 : RW47 m c (Proc.devRef .tc main_v473) = C_v473 (F := Ideal) (R.ur (R.argsOf m c)) :=
  rd_v473 (RW46 m c) (R.argsOf m c) (at_v5_46 m c)
theorem at_v5_47 : RW47 m c (Proc.devRef .tc main_v5) = R.ur (R.argsOf m c) := (RW47_keep m c (by decide)).trans (at_v5_46 m c)
theorem at_v474_47 : RW47 m c (Proc.devRef .tc main_v474) = C_v474 (F := Ideal) :=
  rd_v474 (RW46 m c) (R.argsOf m c)
theorem at_v478_48 : RW48 m c (Proc.devRef .tc main_v478) = C_v478 (F := Ideal) (R.ln3 (R.argsOf m c)) (C_v473 (F := Ideal) (R.ur (R.argsOf m c))) (R.ur (R.argsOf m c)) (C_v474 (F := Ideal)) :=
  rd_v478 (RW47 m c) (R.argsOf m c) (at_v453_47 m c) (at_v473_47 m c) (at_v5_47 m c) (at_v474_47 m c)
theorem at_v7_29 : RW29 m c (Proc.devRef .tc main_v7) = R.uc (R.argsOf m c) := (RW29_keep m c (by decide)).trans (at_v7_28 m c)
theorem at_v7_30 : RW30 m c (Proc.devRef .tc main_v7) = R.uc (R.argsOf m c) := (RW30_keep m c (by decide)).trans (at_v7_29 m c)
theorem at_v7_31 : RW31 m c (Proc.devRef .tc main_v7) = R.uc (R.argsOf m c) := (RW31_keep m c (by decide)).trans (at_v7_30 m c)
theorem at_v7_32 : RW32 m c (Proc.devRef .tc main_v7) = R.uc (R.argsOf m c) := (RW32_keep m c (by decide)).trans (at_v7_31 m c)
theorem at_v7_33 : RW33 m c (Proc.devRef .tc main_v7) = R.uc (R.argsOf m c) := (RW33_keep m c (by decide)).trans (at_v7_32 m c)
theorem at_v7_34 : RW34 m c (Proc.devRef .tc main_v7) = R.uc (R.argsOf m c) := (RW34_keep m c (by decide)).trans (at_v7_33 m c)
theorem at_v7_35 : RW35 m c (Proc.devRef .tc main_v7) = R.uc (R.argsOf m c) := (RW35_keep m c (by decide)).trans (at_v7_34 m c)
theorem at_v7_36 : RW36 m c (Proc.devRef .tc main_v7) = R.uc (R.argsOf m c) := (RW36_keep m c (by decide)).trans (at_v7_35 m c)
theorem at_v7_37 : RW37 m c (Proc.devRef .tc main_v7) = R.uc (R.argsOf m c) := (RW37_keep m c (by decide)).trans (at_v7_36 m c)
theorem at_v7_38 : RW38 m c (Proc.devRef .tc main_v7) = R.uc (R.argsOf m c) := (RW38_keep m c (by decide)).trans (at_v7_37 m c)
theorem at_v7_39 : RW39 m c (Proc.devRef .tc main_v7) = R.uc (R.argsOf m c) := (RW39_keep m c (by decide)).trans (at_v7_38 m c)
theorem at_v7_40 : RW40 m c (Proc.devRef .tc main_v7) = R.uc (R.argsOf m c) := (RW40_keep m c (by decide)).trans (at_v7_39 m c)
theorem at_v7_41 : RW41 m c (Proc.devRef .tc main_v7) = R.uc (R.argsOf m c) := (RW41_keep m c (by decide)).trans (at_v7_40 m c)
theorem at_v7_42 : RW42 m c (Proc.devRef .tc main_v7) = R.uc (R.argsOf m c) := (RW42_keep m c (by decide)).trans (at_v7_41 m c)
theorem at_v7_43 : RW43 m c (Proc.devRef .tc main_v7) = R.uc (R.argsOf m c) := (RW43_keep m c (by decide)).trans (at_v7_42 m c)
theorem at_v7_44 : RW44 m c (Proc.devRef .tc main_v7) = R.uc (R.argsOf m c) := (RW44_keep m c (by decide)).trans (at_v7_43 m c)
theorem at_v7_45 : RW45 m c (Proc.devRef .tc main_v7) = R.uc (R.argsOf m c) := (RW45_keep m c (by decide)).trans (at_v7_44 m c)
theorem at_v7_46 : RW46 m c (Proc.devRef .tc main_v7) = R.uc (R.argsOf m c) := (RW46_keep m c (by decide)).trans (at_v7_45 m c)
theorem at_v7_47 : RW47 m c (Proc.devRef .tc main_v7) = R.uc (R.argsOf m c) := (RW47_keep m c (by decide)).trans (at_v7_46 m c)
theorem at_v485_48 : RW48 m c (Proc.devRef .tc main_v485) = C_v485 (F := Ideal) (R.ln3 (R.argsOf m c)) (R.uc (R.argsOf m c)) :=
  rd_v485 (RW47 m c) (R.argsOf m c) (at_v453_47 m c) (at_v7_47 m c)
theorem at_v321_35 : RW35 m c (Proc.devRef .tc main_v321) = R.ue2 (R.argsOf m c) := (RW35_keep m c (by decide)).trans (at_v321_34 m c)
theorem at_v321_36 : RW36 m c (Proc.devRef .tc main_v321) = R.ue2 (R.argsOf m c) := (RW36_keep m c (by decide)).trans (at_v321_35 m c)
theorem at_v321_37 : RW37 m c (Proc.devRef .tc main_v321) = R.ue2 (R.argsOf m c) := (RW37_keep m c (by decide)).trans (at_v321_36 m c)
theorem at_v321_38 : RW38 m c (Proc.devRef .tc main_v321) = R.ue2 (R.argsOf m c) := (RW38_keep m c (by decide)).trans (at_v321_37 m c)
theorem at_v321_39 : RW39 m c (Proc.devRef .tc main_v321) = R.ue2 (R.argsOf m c) := (RW39_keep m c (by decide)).trans (at_v321_38 m c)
theorem at_v321_40 : RW40 m c (Proc.devRef .tc main_v321) = R.ue2 (R.argsOf m c) := (RW40_keep m c (by decide)).trans (at_v321_39 m c)
theorem at_v321_41 : RW41 m c (Proc.devRef .tc main_v321) = R.ue2 (R.argsOf m c) := (RW41_keep m c (by decide)).trans (at_v321_40 m c)
theorem at_v321_42 : RW42 m c (Proc.devRef .tc main_v321) = R.ue2 (R.argsOf m c) := (RW42_keep m c (by decide)).trans (at_v321_41 m c)
theorem at_v321_43 : RW43 m c (Proc.devRef .tc main_v321) = R.ue2 (R.argsOf m c) := (RW43_keep m c (by decide)).trans (at_v321_42 m c)
theorem at_v321_44 : RW44 m c (Proc.devRef .tc main_v321) = R.ue2 (R.argsOf m c) := (RW44_keep m c (by decide)).trans (at_v321_43 m c)
theorem at_v321_45 : RW45 m c (Proc.devRef .tc main_v321) = R.ue2 (R.argsOf m c) := (RW45_keep m c (by decide)).trans (at_v321_44 m c)
theorem at_v321_46 : RW46 m c (Proc.devRef .tc main_v321) = R.ue2 (R.argsOf m c) := (RW46_keep m c (by decide)).trans (at_v321_45 m c)
theorem at_v10_29 : RW29 m c (Proc.devRef .tc main_v10) = R.zcol := (RW29_keep m c (by decide)).trans (at_v10_28 m c)
theorem at_v10_30 : RW30 m c (Proc.devRef .tc main_v10) = R.zcol := (RW30_keep m c (by decide)).trans (at_v10_29 m c)
theorem at_v10_31 : RW31 m c (Proc.devRef .tc main_v10) = R.zcol := (RW31_keep m c (by decide)).trans (at_v10_30 m c)
theorem at_v10_32 : RW32 m c (Proc.devRef .tc main_v10) = R.zcol := (RW32_keep m c (by decide)).trans (at_v10_31 m c)
theorem at_v10_33 : RW33 m c (Proc.devRef .tc main_v10) = R.zcol := (RW33_keep m c (by decide)).trans (at_v10_32 m c)
theorem at_v10_34 : RW34 m c (Proc.devRef .tc main_v10) = R.zcol := (RW34_keep m c (by decide)).trans (at_v10_33 m c)
theorem at_v10_35 : RW35 m c (Proc.devRef .tc main_v10) = R.zcol := (RW35_keep m c (by decide)).trans (at_v10_34 m c)
theorem at_v10_36 : RW36 m c (Proc.devRef .tc main_v10) = R.zcol := (RW36_keep m c (by decide)).trans (at_v10_35 m c)
theorem at_v10_37 : RW37 m c (Proc.devRef .tc main_v10) = R.zcol := (RW37_keep m c (by decide)).trans (at_v10_36 m c)
theorem at_v10_38 : RW38 m c (Proc.devRef .tc main_v10) = R.zcol := (RW38_keep m c (by decide)).trans (at_v10_37 m c)
theorem at_v10_39 : RW39 m c (Proc.devRef .tc main_v10) = R.zcol := (RW39_keep m c (by decide)).trans (at_v10_38 m c)
theorem at_v10_40 : RW40 m c (Proc.devRef .tc main_v10) = R.zcol := (RW40_keep m c (by decide)).trans (at_v10_39 m c)
theorem at_v10_41 : RW41 m c (Proc.devRef .tc main_v10) = R.zcol := (RW41_keep m c (by decide)).trans (at_v10_40 m c)
theorem at_v10_42 : RW42 m c (Proc.devRef .tc main_v10) = R.zcol := (RW42_keep m c (by decide)).trans (at_v10_41 m c)
theorem at_v10_43 : RW43 m c (Proc.devRef .tc main_v10) = R.zcol := (RW43_keep m c (by decide)).trans (at_v10_42 m c)
theorem at_v10_44 : RW44 m c (Proc.devRef .tc main_v10) = R.zcol := (RW44_keep m c (by decide)).trans (at_v10_43 m c)
theorem at_v10_45 : RW45 m c (Proc.devRef .tc main_v10) = R.zcol := (RW45_keep m c (by decide)).trans (at_v10_44 m c)
theorem at_v10_46 : RW46 m c (Proc.devRef .tc main_v10) = R.zcol := (RW46_keep m c (by decide)).trans (at_v10_45 m c)
theorem at_v470_47 : RW47 m c (Proc.devRef .tc main_v470) = C_v470 (F := Ideal) (R.ue2 (R.argsOf m c)) (R.zcol) :=
  rd_v470 (RW46 m c) (R.argsOf m c) (at_v321_46 m c) (at_v10_46 m c)
theorem at_v470_48 : RW48 m c (Proc.devRef .tc main_v470) = C_v470 (F := Ideal) (R.ue2 (R.argsOf m c)) (R.zcol) := (RW48_keep m c (by decide)).trans (at_v470_47 m c)
theorem at_arg5_37 : RW37 m c (Proc.devRef .tc main_arg5) = (R.argsOf m c).a5 := (RW37_arg m c (by decide)).trans rfl
theorem at_v384_38 : RW38 m c (Proc.devRef .tc main_v384) = R.P12_eW1 (R.argsOf m c) :=
  pr_v384 (RW37 m c) (R.argsOf m c) (at_arg5_37 m c)
theorem at_v384_39 : RW39 m c (Proc.devRef .tc main_v384) = R.P12_eW1 (R.argsOf m c) := (RW39_keep m c (by decide)).trans (at_v384_38 m c)
theorem at_v384_40 : RW40 m c (Proc.devRef .tc main_v384) = R.P12_eW1 (R.argsOf m c) := (RW40_keep m c (by decide)).trans (at_v384_39 m c)
theorem at_v384_41 : RW41 m c (Proc.devRef .tc main_v384) = R.P12_eW1 (R.argsOf m c) := (RW41_keep m c (by decide)).trans (at_v384_40 m c)
theorem at_v384_42 : RW42 m c (Proc.devRef .tc main_v384) = R.P12_eW1 (R.argsOf m c) := (RW42_keep m c (by decide)).trans (at_v384_41 m c)
theorem at_v384_43 : RW43 m c (Proc.devRef .tc main_v384) = R.P12_eW1 (R.argsOf m c) := (RW43_keep m c (by decide)).trans (at_v384_42 m c)
theorem at_v384_44 : RW44 m c (Proc.devRef .tc main_v384) = R.P12_eW1 (R.argsOf m c) := (RW44_keep m c (by decide)).trans (at_v384_43 m c)
theorem at_v384_45 : RW45 m c (Proc.devRef .tc main_v384) = R.P12_eW1 (R.argsOf m c) := (RW45_keep m c (by decide)).trans (at_v384_44 m c)
theorem at_v384_46 : RW46 m c (Proc.devRef .tc main_v384) = R.P12_eW1 (R.argsOf m c) := (RW46_keep m c (by decide)).trans (at_v384_45 m c)
theorem at_v384_47 : RW47 m c (Proc.devRef .tc main_v384) = R.P12_eW1 (R.argsOf m c) := (RW47_keep m c (by decide)).trans (at_v384_46 m c)
theorem at_v384_48 : RW48 m c (Proc.devRef .tc main_v384) = R.P12_eW1 (R.argsOf m c) := (RW48_keep m c (by decide)).trans (at_v384_47 m c)
theorem at_arg6_37 : RW37 m c (Proc.devRef .tc main_arg6) = (R.argsOf m c).a6 := (RW37_arg m c (by decide)).trans rfl
theorem at_v386_38 : RW38 m c (Proc.devRef .tc main_v386) = R.P12_eb1 (R.argsOf m c) :=
  pr_v386 (RW37 m c) (R.argsOf m c) (at_arg6_37 m c)
theorem at_v386_39 : RW39 m c (Proc.devRef .tc main_v386) = R.P12_eb1 (R.argsOf m c) := (RW39_keep m c (by decide)).trans (at_v386_38 m c)
theorem at_v386_40 : RW40 m c (Proc.devRef .tc main_v386) = R.P12_eb1 (R.argsOf m c) := (RW40_keep m c (by decide)).trans (at_v386_39 m c)
theorem at_v386_41 : RW41 m c (Proc.devRef .tc main_v386) = R.P12_eb1 (R.argsOf m c) := (RW41_keep m c (by decide)).trans (at_v386_40 m c)
theorem at_v386_42 : RW42 m c (Proc.devRef .tc main_v386) = R.P12_eb1 (R.argsOf m c) := (RW42_keep m c (by decide)).trans (at_v386_41 m c)
theorem at_v386_43 : RW43 m c (Proc.devRef .tc main_v386) = R.P12_eb1 (R.argsOf m c) := (RW43_keep m c (by decide)).trans (at_v386_42 m c)
theorem at_v386_44 : RW44 m c (Proc.devRef .tc main_v386) = R.P12_eb1 (R.argsOf m c) := (RW44_keep m c (by decide)).trans (at_v386_43 m c)
theorem at_v386_45 : RW45 m c (Proc.devRef .tc main_v386) = R.P12_eb1 (R.argsOf m c) := (RW45_keep m c (by decide)).trans (at_v386_44 m c)
theorem at_v386_46 : RW46 m c (Proc.devRef .tc main_v386) = R.P12_eb1 (R.argsOf m c) := (RW46_keep m c (by decide)).trans (at_v386_45 m c)
theorem at_v386_47 : RW47 m c (Proc.devRef .tc main_v386) = R.P12_eb1 (R.argsOf m c) := (RW47_keep m c (by decide)).trans (at_v386_46 m c)
theorem at_v386_48 : RW48 m c (Proc.devRef .tc main_v386) = R.P12_eb1 (R.argsOf m c) := (RW48_keep m c (by decide)).trans (at_v386_47 m c)
theorem at_arg7_37 : RW37 m c (Proc.devRef .tc main_arg7) = (R.argsOf m c).a7 := (RW37_arg m c (by decide)).trans rfl
theorem at_v388_38 : RW38 m c (Proc.devRef .tc main_v388) = R.P12_eW2 (R.argsOf m c) :=
  pr_v388 (RW37 m c) (R.argsOf m c) (at_arg7_37 m c)
theorem at_v388_39 : RW39 m c (Proc.devRef .tc main_v388) = R.P12_eW2 (R.argsOf m c) := (RW39_keep m c (by decide)).trans (at_v388_38 m c)
theorem at_v388_40 : RW40 m c (Proc.devRef .tc main_v388) = R.P12_eW2 (R.argsOf m c) := (RW40_keep m c (by decide)).trans (at_v388_39 m c)
theorem at_v388_41 : RW41 m c (Proc.devRef .tc main_v388) = R.P12_eW2 (R.argsOf m c) := (RW41_keep m c (by decide)).trans (at_v388_40 m c)
theorem at_v388_42 : RW42 m c (Proc.devRef .tc main_v388) = R.P12_eW2 (R.argsOf m c) := (RW42_keep m c (by decide)).trans (at_v388_41 m c)
theorem at_v388_43 : RW43 m c (Proc.devRef .tc main_v388) = R.P12_eW2 (R.argsOf m c) := (RW43_keep m c (by decide)).trans (at_v388_42 m c)
theorem at_v388_44 : RW44 m c (Proc.devRef .tc main_v388) = R.P12_eW2 (R.argsOf m c) := (RW44_keep m c (by decide)).trans (at_v388_43 m c)
theorem at_v388_45 : RW45 m c (Proc.devRef .tc main_v388) = R.P12_eW2 (R.argsOf m c) := (RW45_keep m c (by decide)).trans (at_v388_44 m c)
theorem at_v388_46 : RW46 m c (Proc.devRef .tc main_v388) = R.P12_eW2 (R.argsOf m c) := (RW46_keep m c (by decide)).trans (at_v388_45 m c)
theorem at_v388_47 : RW47 m c (Proc.devRef .tc main_v388) = R.P12_eW2 (R.argsOf m c) := (RW47_keep m c (by decide)).trans (at_v388_46 m c)
theorem at_v388_48 : RW48 m c (Proc.devRef .tc main_v388) = R.P12_eW2 (R.argsOf m c) := (RW48_keep m c (by decide)).trans (at_v388_47 m c)
theorem at_arg8_37 : RW37 m c (Proc.devRef .tc main_arg8) = (R.argsOf m c).a8 := (RW37_arg m c (by decide)).trans rfl
theorem at_v390_38 : RW38 m c (Proc.devRef .tc main_v390) = R.P12_eb2 (R.argsOf m c) :=
  pr_v390 (RW37 m c) (R.argsOf m c) (at_arg8_37 m c)
theorem at_v390_39 : RW39 m c (Proc.devRef .tc main_v390) = R.P12_eb2 (R.argsOf m c) := (RW39_keep m c (by decide)).trans (at_v390_38 m c)
theorem at_v390_40 : RW40 m c (Proc.devRef .tc main_v390) = R.P12_eb2 (R.argsOf m c) := (RW40_keep m c (by decide)).trans (at_v390_39 m c)
theorem at_v390_41 : RW41 m c (Proc.devRef .tc main_v390) = R.P12_eb2 (R.argsOf m c) := (RW41_keep m c (by decide)).trans (at_v390_40 m c)
theorem at_v390_42 : RW42 m c (Proc.devRef .tc main_v390) = R.P12_eb2 (R.argsOf m c) := (RW42_keep m c (by decide)).trans (at_v390_41 m c)
theorem at_v390_43 : RW43 m c (Proc.devRef .tc main_v390) = R.P12_eb2 (R.argsOf m c) := (RW43_keep m c (by decide)).trans (at_v390_42 m c)
theorem at_v390_44 : RW44 m c (Proc.devRef .tc main_v390) = R.P12_eb2 (R.argsOf m c) := (RW44_keep m c (by decide)).trans (at_v390_43 m c)
theorem at_v390_45 : RW45 m c (Proc.devRef .tc main_v390) = R.P12_eb2 (R.argsOf m c) := (RW45_keep m c (by decide)).trans (at_v390_44 m c)
theorem at_v390_46 : RW46 m c (Proc.devRef .tc main_v390) = R.P12_eb2 (R.argsOf m c) := (RW46_keep m c (by decide)).trans (at_v390_45 m c)
theorem at_v390_47 : RW47 m c (Proc.devRef .tc main_v390) = R.P12_eb2 (R.argsOf m c) := (RW47_keep m c (by decide)).trans (at_v390_46 m c)
theorem at_v390_48 : RW48 m c (Proc.devRef .tc main_v390) = R.P12_eb2 (R.argsOf m c) := (RW48_keep m c (by decide)).trans (at_v390_47 m c)
theorem at_v495_49 : RW49 m c (Proc.devRef .tc main_v495) = R.ue3 (R.argsOf m c) :=
  st_ue3 (RW48 m c) (R.argsOf m c) (at_v471_48 m c) (at_v478_48 m c) (at_v485_48 m c) (at_v470_48 m c) (at_v384_48 m c) (at_v386_48 m c) (at_v388_48 m c) (at_v390_48 m c)
theorem at_v5_48 : RW48 m c (Proc.devRef .tc main_v5) = R.ur (R.argsOf m c) := (RW48_keep m c (by decide)).trans (at_v5_47 m c)
theorem at_v5_49 : RW49 m c (Proc.devRef .tc main_v5) = R.ur (R.argsOf m c) := (RW49_keep m c (by decide)).trans (at_v5_48 m c)
theorem at_v505_50 : RW50 m c (Proc.devRef .tc main_v505) = R.ua3 (R.argsOf m c) :=
  st_ua3 (RW49 m c) (R.argsOf m c) (at_v5_49 m c) (at_v495_49 m c)
theorem at_v469_47 : RW47 m c (Proc.devRef .tc main_v469) = R.g5 (R.argsOf m c) := (RW47_keep m c (by decide)).trans (at_v469_46 m c)
theorem at_v469_48 : RW48 m c (Proc.devRef .tc main_v469) = R.g5 (R.argsOf m c) := (RW48_keep m c (by decide)).trans (at_v469_47 m c)
theorem at_v469_49 : RW49 m c (Proc.devRef .tc main_v469) = R.g5 (R.argsOf m c) := (RW49_keep m c (by decide)).trans (at_v469_48 m c)
theorem at_v469_50 : RW50 m c (Proc.devRef .tc main_v469) = R.g5 (R.argsOf m c) := (RW50_keep m c (by decide)).trans (at_v469_49 m c)
theorem at_v506_51 : RW51 m c (Proc.devRef .tc main_v506) = C_v506 (F := Ideal) (R.g5 (R.argsOf m c)) :=
  rd_v506 (RW50 m c) (R.argsOf m c) (at_v469_50 m c)
theorem at_v453_48 : RW48 m c (Proc.devRef .tc main_v453) = R.ln3 (R.argsOf m c) := (RW48_keep m c (by decide)).trans (at_v453_47 m c)
theorem at_v453_49 : RW49 m c (Proc.devRef .tc main_v453) = R.ln3 (R.argsOf m c) := (RW49_keep m c (by decide)).trans (at_v453_48 m c)
theorem at_v453_50 : RW50 m c (Proc.devRef .tc main_v453) = R.ln3 (R.argsOf m c) := (RW50_keep m c (by decide)).trans (at_v453_49 m c)
theorem at_v453_51 : RW51 m c (Proc.devRef .tc main_v453) = R.ln3 (R.argsOf m c) := (RW51_keep m c (by decide)).trans (at_v453_50 m c)
theorem at_v505_51 : RW51 m c (Proc.devRef .tc main_v505) = R.ua3 (R.argsOf m c) := (RW51_keep m c (by decide)).trans (at_v505_50 m c)
theorem at_arg9_37 : RW37 m c (Proc.devRef .tc main_arg9) = (R.argsOf m c).a9 := (RW37_arg m c (by decide)).trans rfl
theorem at_v392_38 : RW38 m c (Proc.devRef .tc main_v392) = R.P12_nW1 (R.argsOf m c) :=
  pr_v392 (RW37 m c) (R.argsOf m c) (at_arg9_37 m c)
theorem at_v392_39 : RW39 m c (Proc.devRef .tc main_v392) = R.P12_nW1 (R.argsOf m c) := (RW39_keep m c (by decide)).trans (at_v392_38 m c)
theorem at_v392_40 : RW40 m c (Proc.devRef .tc main_v392) = R.P12_nW1 (R.argsOf m c) := (RW40_keep m c (by decide)).trans (at_v392_39 m c)
theorem at_v392_41 : RW41 m c (Proc.devRef .tc main_v392) = R.P12_nW1 (R.argsOf m c) := (RW41_keep m c (by decide)).trans (at_v392_40 m c)
theorem at_v392_42 : RW42 m c (Proc.devRef .tc main_v392) = R.P12_nW1 (R.argsOf m c) := (RW42_keep m c (by decide)).trans (at_v392_41 m c)
theorem at_v392_43 : RW43 m c (Proc.devRef .tc main_v392) = R.P12_nW1 (R.argsOf m c) := (RW43_keep m c (by decide)).trans (at_v392_42 m c)
theorem at_v392_44 : RW44 m c (Proc.devRef .tc main_v392) = R.P12_nW1 (R.argsOf m c) := (RW44_keep m c (by decide)).trans (at_v392_43 m c)
theorem at_v392_45 : RW45 m c (Proc.devRef .tc main_v392) = R.P12_nW1 (R.argsOf m c) := (RW45_keep m c (by decide)).trans (at_v392_44 m c)
theorem at_v392_46 : RW46 m c (Proc.devRef .tc main_v392) = R.P12_nW1 (R.argsOf m c) := (RW46_keep m c (by decide)).trans (at_v392_45 m c)
theorem at_v392_47 : RW47 m c (Proc.devRef .tc main_v392) = R.P12_nW1 (R.argsOf m c) := (RW47_keep m c (by decide)).trans (at_v392_46 m c)
theorem at_v392_48 : RW48 m c (Proc.devRef .tc main_v392) = R.P12_nW1 (R.argsOf m c) := (RW48_keep m c (by decide)).trans (at_v392_47 m c)
theorem at_v392_49 : RW49 m c (Proc.devRef .tc main_v392) = R.P12_nW1 (R.argsOf m c) := (RW49_keep m c (by decide)).trans (at_v392_48 m c)
theorem at_v392_50 : RW50 m c (Proc.devRef .tc main_v392) = R.P12_nW1 (R.argsOf m c) := (RW50_keep m c (by decide)).trans (at_v392_49 m c)
theorem at_v392_51 : RW51 m c (Proc.devRef .tc main_v392) = R.P12_nW1 (R.argsOf m c) := (RW51_keep m c (by decide)).trans (at_v392_50 m c)
theorem at_v394_38 : RW38 m c (Proc.devRef .tc main_v394) = R.P12_nb1 (R.argsOf m c) :=
  pr_v394 (RW37 m c) (R.argsOf m c) (at_arg10_37 m c)
theorem at_v394_39 : RW39 m c (Proc.devRef .tc main_v394) = R.P12_nb1 (R.argsOf m c) := (RW39_keep m c (by decide)).trans (at_v394_38 m c)
theorem at_v394_40 : RW40 m c (Proc.devRef .tc main_v394) = R.P12_nb1 (R.argsOf m c) := (RW40_keep m c (by decide)).trans (at_v394_39 m c)
theorem at_v394_41 : RW41 m c (Proc.devRef .tc main_v394) = R.P12_nb1 (R.argsOf m c) := (RW41_keep m c (by decide)).trans (at_v394_40 m c)
theorem at_v394_42 : RW42 m c (Proc.devRef .tc main_v394) = R.P12_nb1 (R.argsOf m c) := (RW42_keep m c (by decide)).trans (at_v394_41 m c)
theorem at_v394_43 : RW43 m c (Proc.devRef .tc main_v394) = R.P12_nb1 (R.argsOf m c) := (RW43_keep m c (by decide)).trans (at_v394_42 m c)
theorem at_v394_44 : RW44 m c (Proc.devRef .tc main_v394) = R.P12_nb1 (R.argsOf m c) := (RW44_keep m c (by decide)).trans (at_v394_43 m c)
theorem at_v394_45 : RW45 m c (Proc.devRef .tc main_v394) = R.P12_nb1 (R.argsOf m c) := (RW45_keep m c (by decide)).trans (at_v394_44 m c)
theorem at_v394_46 : RW46 m c (Proc.devRef .tc main_v394) = R.P12_nb1 (R.argsOf m c) := (RW46_keep m c (by decide)).trans (at_v394_45 m c)
theorem at_v394_47 : RW47 m c (Proc.devRef .tc main_v394) = R.P12_nb1 (R.argsOf m c) := (RW47_keep m c (by decide)).trans (at_v394_46 m c)
theorem at_v394_48 : RW48 m c (Proc.devRef .tc main_v394) = R.P12_nb1 (R.argsOf m c) := (RW48_keep m c (by decide)).trans (at_v394_47 m c)
theorem at_v394_49 : RW49 m c (Proc.devRef .tc main_v394) = R.P12_nb1 (R.argsOf m c) := (RW49_keep m c (by decide)).trans (at_v394_48 m c)
theorem at_v394_50 : RW50 m c (Proc.devRef .tc main_v394) = R.P12_nb1 (R.argsOf m c) := (RW50_keep m c (by decide)).trans (at_v394_49 m c)
theorem at_v394_51 : RW51 m c (Proc.devRef .tc main_v394) = R.P12_nb1 (R.argsOf m c) := (RW51_keep m c (by decide)).trans (at_v394_50 m c)
theorem at_v396_38 : RW38 m c (Proc.devRef .tc main_v396) = R.P12_nW2 (R.argsOf m c) :=
  pr_v396 (RW37 m c) (R.argsOf m c) (at_arg11_37 m c)
theorem at_v396_39 : RW39 m c (Proc.devRef .tc main_v396) = R.P12_nW2 (R.argsOf m c) := (RW39_keep m c (by decide)).trans (at_v396_38 m c)
theorem at_v396_40 : RW40 m c (Proc.devRef .tc main_v396) = R.P12_nW2 (R.argsOf m c) := (RW40_keep m c (by decide)).trans (at_v396_39 m c)
theorem at_v396_41 : RW41 m c (Proc.devRef .tc main_v396) = R.P12_nW2 (R.argsOf m c) := (RW41_keep m c (by decide)).trans (at_v396_40 m c)
theorem at_v396_42 : RW42 m c (Proc.devRef .tc main_v396) = R.P12_nW2 (R.argsOf m c) := (RW42_keep m c (by decide)).trans (at_v396_41 m c)
theorem at_v396_43 : RW43 m c (Proc.devRef .tc main_v396) = R.P12_nW2 (R.argsOf m c) := (RW43_keep m c (by decide)).trans (at_v396_42 m c)
theorem at_v396_44 : RW44 m c (Proc.devRef .tc main_v396) = R.P12_nW2 (R.argsOf m c) := (RW44_keep m c (by decide)).trans (at_v396_43 m c)
theorem at_v396_45 : RW45 m c (Proc.devRef .tc main_v396) = R.P12_nW2 (R.argsOf m c) := (RW45_keep m c (by decide)).trans (at_v396_44 m c)
theorem at_v396_46 : RW46 m c (Proc.devRef .tc main_v396) = R.P12_nW2 (R.argsOf m c) := (RW46_keep m c (by decide)).trans (at_v396_45 m c)
theorem at_v396_47 : RW47 m c (Proc.devRef .tc main_v396) = R.P12_nW2 (R.argsOf m c) := (RW47_keep m c (by decide)).trans (at_v396_46 m c)
theorem at_v396_48 : RW48 m c (Proc.devRef .tc main_v396) = R.P12_nW2 (R.argsOf m c) := (RW48_keep m c (by decide)).trans (at_v396_47 m c)
theorem at_v396_49 : RW49 m c (Proc.devRef .tc main_v396) = R.P12_nW2 (R.argsOf m c) := (RW49_keep m c (by decide)).trans (at_v396_48 m c)
theorem at_v396_50 : RW50 m c (Proc.devRef .tc main_v396) = R.P12_nW2 (R.argsOf m c) := (RW50_keep m c (by decide)).trans (at_v396_49 m c)
theorem at_v396_51 : RW51 m c (Proc.devRef .tc main_v396) = R.P12_nW2 (R.argsOf m c) := (RW51_keep m c (by decide)).trans (at_v396_50 m c)
theorem at_v398_38 : RW38 m c (Proc.devRef .tc main_v398) = R.P12_nb2 (R.argsOf m c) :=
  pr_v398 (RW37 m c) (R.argsOf m c) (at_arg12_37 m c)
theorem at_v398_39 : RW39 m c (Proc.devRef .tc main_v398) = R.P12_nb2 (R.argsOf m c) := (RW39_keep m c (by decide)).trans (at_v398_38 m c)
theorem at_v398_40 : RW40 m c (Proc.devRef .tc main_v398) = R.P12_nb2 (R.argsOf m c) := (RW40_keep m c (by decide)).trans (at_v398_39 m c)
theorem at_v398_41 : RW41 m c (Proc.devRef .tc main_v398) = R.P12_nb2 (R.argsOf m c) := (RW41_keep m c (by decide)).trans (at_v398_40 m c)
theorem at_v398_42 : RW42 m c (Proc.devRef .tc main_v398) = R.P12_nb2 (R.argsOf m c) := (RW42_keep m c (by decide)).trans (at_v398_41 m c)
theorem at_v398_43 : RW43 m c (Proc.devRef .tc main_v398) = R.P12_nb2 (R.argsOf m c) := (RW43_keep m c (by decide)).trans (at_v398_42 m c)
theorem at_v398_44 : RW44 m c (Proc.devRef .tc main_v398) = R.P12_nb2 (R.argsOf m c) := (RW44_keep m c (by decide)).trans (at_v398_43 m c)
theorem at_v398_45 : RW45 m c (Proc.devRef .tc main_v398) = R.P12_nb2 (R.argsOf m c) := (RW45_keep m c (by decide)).trans (at_v398_44 m c)
theorem at_v398_46 : RW46 m c (Proc.devRef .tc main_v398) = R.P12_nb2 (R.argsOf m c) := (RW46_keep m c (by decide)).trans (at_v398_45 m c)
theorem at_v398_47 : RW47 m c (Proc.devRef .tc main_v398) = R.P12_nb2 (R.argsOf m c) := (RW47_keep m c (by decide)).trans (at_v398_46 m c)
theorem at_v398_48 : RW48 m c (Proc.devRef .tc main_v398) = R.P12_nb2 (R.argsOf m c) := (RW48_keep m c (by decide)).trans (at_v398_47 m c)
theorem at_v398_49 : RW49 m c (Proc.devRef .tc main_v398) = R.P12_nb2 (R.argsOf m c) := (RW49_keep m c (by decide)).trans (at_v398_48 m c)
theorem at_v398_50 : RW50 m c (Proc.devRef .tc main_v398) = R.P12_nb2 (R.argsOf m c) := (RW50_keep m c (by decide)).trans (at_v398_49 m c)
theorem at_v398_51 : RW51 m c (Proc.devRef .tc main_v398) = R.P12_nb2 (R.argsOf m c) := (RW51_keep m c (by decide)).trans (at_v398_50 m c)
theorem at_v516_52 : RW52 m c (Proc.devRef .tc main_v516) = R.un3 (R.argsOf m c) :=
  st_un3 (RW51 m c) (R.argsOf m c) (at_v506_51 m c) (at_v453_51 m c) (at_v505_51 m c) (at_v392_51 m c) (at_v394_51 m c) (at_v396_51 m c) (at_v398_51 m c)
theorem at_v520_53 : RW53 m c (Proc.devRef .tc main_v520) = C_v520 (F := Ideal) (R.un3 (R.argsOf m c)) :=
  rd_v520 (RW52 m c) (R.argsOf m c) (at_v516_52 m c)
theorem at_v495_50 : RW50 m c (Proc.devRef .tc main_v495) = R.ue3 (R.argsOf m c) := (RW50_keep m c (by decide)).trans (at_v495_49 m c)
theorem at_v495_51 : RW51 m c (Proc.devRef .tc main_v495) = R.ue3 (R.argsOf m c) := (RW51_keep m c (by decide)).trans (at_v495_50 m c)
theorem at_v495_52 : RW52 m c (Proc.devRef .tc main_v495) = R.ue3 (R.argsOf m c) := (RW52_keep m c (by decide)).trans (at_v495_51 m c)
theorem at_v524_53 : RW53 m c (Proc.devRef .tc main_v524) = C_v524 (F := Ideal) (R.ue3 (R.argsOf m c)) :=
  rd_v524 (RW52 m c) (R.argsOf m c) (at_v495_52 m c)
theorem at_v469_51 : RW51 m c (Proc.devRef .tc main_v469) = R.g5 (R.argsOf m c) := (RW51_keep m c (by decide)).trans (at_v469_50 m c)
theorem at_v469_52 : RW52 m c (Proc.devRef .tc main_v469) = R.g5 (R.argsOf m c) := (RW52_keep m c (by decide)).trans (at_v469_51 m c)
theorem at_v469_53 : RW53 m c (Proc.devRef .tc main_v469) = R.g5 (R.argsOf m c) := (RW53_keep m c (by decide)).trans (at_v469_52 m c)
theorem at_v400_38 : RW38 m c (Proc.devRef .tc main_v400) = R.P12_gW1 (R.argsOf m c) :=
  pr_v400 (RW37 m c) (R.argsOf m c) (at_arg13_37 m c)
theorem at_v400_39 : RW39 m c (Proc.devRef .tc main_v400) = R.P12_gW1 (R.argsOf m c) := (RW39_keep m c (by decide)).trans (at_v400_38 m c)
theorem at_v400_40 : RW40 m c (Proc.devRef .tc main_v400) = R.P12_gW1 (R.argsOf m c) := (RW40_keep m c (by decide)).trans (at_v400_39 m c)
theorem at_v400_41 : RW41 m c (Proc.devRef .tc main_v400) = R.P12_gW1 (R.argsOf m c) := (RW41_keep m c (by decide)).trans (at_v400_40 m c)
theorem at_v400_42 : RW42 m c (Proc.devRef .tc main_v400) = R.P12_gW1 (R.argsOf m c) := (RW42_keep m c (by decide)).trans (at_v400_41 m c)
theorem at_v400_43 : RW43 m c (Proc.devRef .tc main_v400) = R.P12_gW1 (R.argsOf m c) := (RW43_keep m c (by decide)).trans (at_v400_42 m c)
theorem at_v400_44 : RW44 m c (Proc.devRef .tc main_v400) = R.P12_gW1 (R.argsOf m c) := (RW44_keep m c (by decide)).trans (at_v400_43 m c)
theorem at_v400_45 : RW45 m c (Proc.devRef .tc main_v400) = R.P12_gW1 (R.argsOf m c) := (RW45_keep m c (by decide)).trans (at_v400_44 m c)
theorem at_v400_46 : RW46 m c (Proc.devRef .tc main_v400) = R.P12_gW1 (R.argsOf m c) := (RW46_keep m c (by decide)).trans (at_v400_45 m c)
theorem at_v400_47 : RW47 m c (Proc.devRef .tc main_v400) = R.P12_gW1 (R.argsOf m c) := (RW47_keep m c (by decide)).trans (at_v400_46 m c)
theorem at_v400_48 : RW48 m c (Proc.devRef .tc main_v400) = R.P12_gW1 (R.argsOf m c) := (RW48_keep m c (by decide)).trans (at_v400_47 m c)
theorem at_v400_49 : RW49 m c (Proc.devRef .tc main_v400) = R.P12_gW1 (R.argsOf m c) := (RW49_keep m c (by decide)).trans (at_v400_48 m c)
theorem at_v400_50 : RW50 m c (Proc.devRef .tc main_v400) = R.P12_gW1 (R.argsOf m c) := (RW50_keep m c (by decide)).trans (at_v400_49 m c)
theorem at_v400_51 : RW51 m c (Proc.devRef .tc main_v400) = R.P12_gW1 (R.argsOf m c) := (RW51_keep m c (by decide)).trans (at_v400_50 m c)
theorem at_v400_52 : RW52 m c (Proc.devRef .tc main_v400) = R.P12_gW1 (R.argsOf m c) := (RW52_keep m c (by decide)).trans (at_v400_51 m c)
theorem at_v400_53 : RW53 m c (Proc.devRef .tc main_v400) = R.P12_gW1 (R.argsOf m c) := (RW53_keep m c (by decide)).trans (at_v400_52 m c)
theorem at_v402_38 : RW38 m c (Proc.devRef .tc main_v402) = R.P12_gb1 (R.argsOf m c) :=
  pr_v402 (RW37 m c) (R.argsOf m c) (at_arg14_37 m c)
theorem at_v402_39 : RW39 m c (Proc.devRef .tc main_v402) = R.P12_gb1 (R.argsOf m c) := (RW39_keep m c (by decide)).trans (at_v402_38 m c)
theorem at_v402_40 : RW40 m c (Proc.devRef .tc main_v402) = R.P12_gb1 (R.argsOf m c) := (RW40_keep m c (by decide)).trans (at_v402_39 m c)
theorem at_v402_41 : RW41 m c (Proc.devRef .tc main_v402) = R.P12_gb1 (R.argsOf m c) := (RW41_keep m c (by decide)).trans (at_v402_40 m c)
theorem at_v402_42 : RW42 m c (Proc.devRef .tc main_v402) = R.P12_gb1 (R.argsOf m c) := (RW42_keep m c (by decide)).trans (at_v402_41 m c)
theorem at_v402_43 : RW43 m c (Proc.devRef .tc main_v402) = R.P12_gb1 (R.argsOf m c) := (RW43_keep m c (by decide)).trans (at_v402_42 m c)
theorem at_v402_44 : RW44 m c (Proc.devRef .tc main_v402) = R.P12_gb1 (R.argsOf m c) := (RW44_keep m c (by decide)).trans (at_v402_43 m c)
theorem at_v402_45 : RW45 m c (Proc.devRef .tc main_v402) = R.P12_gb1 (R.argsOf m c) := (RW45_keep m c (by decide)).trans (at_v402_44 m c)
theorem at_v402_46 : RW46 m c (Proc.devRef .tc main_v402) = R.P12_gb1 (R.argsOf m c) := (RW46_keep m c (by decide)).trans (at_v402_45 m c)
theorem at_v402_47 : RW47 m c (Proc.devRef .tc main_v402) = R.P12_gb1 (R.argsOf m c) := (RW47_keep m c (by decide)).trans (at_v402_46 m c)
theorem at_v402_48 : RW48 m c (Proc.devRef .tc main_v402) = R.P12_gb1 (R.argsOf m c) := (RW48_keep m c (by decide)).trans (at_v402_47 m c)
theorem at_v402_49 : RW49 m c (Proc.devRef .tc main_v402) = R.P12_gb1 (R.argsOf m c) := (RW49_keep m c (by decide)).trans (at_v402_48 m c)
theorem at_v402_50 : RW50 m c (Proc.devRef .tc main_v402) = R.P12_gb1 (R.argsOf m c) := (RW50_keep m c (by decide)).trans (at_v402_49 m c)
theorem at_v402_51 : RW51 m c (Proc.devRef .tc main_v402) = R.P12_gb1 (R.argsOf m c) := (RW51_keep m c (by decide)).trans (at_v402_50 m c)
theorem at_v402_52 : RW52 m c (Proc.devRef .tc main_v402) = R.P12_gb1 (R.argsOf m c) := (RW52_keep m c (by decide)).trans (at_v402_51 m c)
theorem at_v402_53 : RW53 m c (Proc.devRef .tc main_v402) = R.P12_gb1 (R.argsOf m c) := (RW53_keep m c (by decide)).trans (at_v402_52 m c)
theorem at_v404_38 : RW38 m c (Proc.devRef .tc main_v404) = R.P12_gW2 (R.argsOf m c) :=
  pr_v404 (RW37 m c) (R.argsOf m c) (at_arg15_37 m c)
theorem at_v404_39 : RW39 m c (Proc.devRef .tc main_v404) = R.P12_gW2 (R.argsOf m c) := (RW39_keep m c (by decide)).trans (at_v404_38 m c)
theorem at_v404_40 : RW40 m c (Proc.devRef .tc main_v404) = R.P12_gW2 (R.argsOf m c) := (RW40_keep m c (by decide)).trans (at_v404_39 m c)
theorem at_v404_41 : RW41 m c (Proc.devRef .tc main_v404) = R.P12_gW2 (R.argsOf m c) := (RW41_keep m c (by decide)).trans (at_v404_40 m c)
theorem at_v404_42 : RW42 m c (Proc.devRef .tc main_v404) = R.P12_gW2 (R.argsOf m c) := (RW42_keep m c (by decide)).trans (at_v404_41 m c)
theorem at_v404_43 : RW43 m c (Proc.devRef .tc main_v404) = R.P12_gW2 (R.argsOf m c) := (RW43_keep m c (by decide)).trans (at_v404_42 m c)
theorem at_v404_44 : RW44 m c (Proc.devRef .tc main_v404) = R.P12_gW2 (R.argsOf m c) := (RW44_keep m c (by decide)).trans (at_v404_43 m c)
theorem at_v404_45 : RW45 m c (Proc.devRef .tc main_v404) = R.P12_gW2 (R.argsOf m c) := (RW45_keep m c (by decide)).trans (at_v404_44 m c)
theorem at_v404_46 : RW46 m c (Proc.devRef .tc main_v404) = R.P12_gW2 (R.argsOf m c) := (RW46_keep m c (by decide)).trans (at_v404_45 m c)
theorem at_v404_47 : RW47 m c (Proc.devRef .tc main_v404) = R.P12_gW2 (R.argsOf m c) := (RW47_keep m c (by decide)).trans (at_v404_46 m c)
theorem at_v404_48 : RW48 m c (Proc.devRef .tc main_v404) = R.P12_gW2 (R.argsOf m c) := (RW48_keep m c (by decide)).trans (at_v404_47 m c)
theorem at_v404_49 : RW49 m c (Proc.devRef .tc main_v404) = R.P12_gW2 (R.argsOf m c) := (RW49_keep m c (by decide)).trans (at_v404_48 m c)
theorem at_v404_50 : RW50 m c (Proc.devRef .tc main_v404) = R.P12_gW2 (R.argsOf m c) := (RW50_keep m c (by decide)).trans (at_v404_49 m c)
theorem at_v404_51 : RW51 m c (Proc.devRef .tc main_v404) = R.P12_gW2 (R.argsOf m c) := (RW51_keep m c (by decide)).trans (at_v404_50 m c)
theorem at_v404_52 : RW52 m c (Proc.devRef .tc main_v404) = R.P12_gW2 (R.argsOf m c) := (RW52_keep m c (by decide)).trans (at_v404_51 m c)
theorem at_v404_53 : RW53 m c (Proc.devRef .tc main_v404) = R.P12_gW2 (R.argsOf m c) := (RW53_keep m c (by decide)).trans (at_v404_52 m c)
theorem at_v406_38 : RW38 m c (Proc.devRef .tc main_v406) = R.P12_gb2 (R.argsOf m c) :=
  pr_v406 (RW37 m c) (R.argsOf m c) (at_arg16_37 m c)
theorem at_v406_39 : RW39 m c (Proc.devRef .tc main_v406) = R.P12_gb2 (R.argsOf m c) := (RW39_keep m c (by decide)).trans (at_v406_38 m c)
theorem at_v406_40 : RW40 m c (Proc.devRef .tc main_v406) = R.P12_gb2 (R.argsOf m c) := (RW40_keep m c (by decide)).trans (at_v406_39 m c)
theorem at_v406_41 : RW41 m c (Proc.devRef .tc main_v406) = R.P12_gb2 (R.argsOf m c) := (RW41_keep m c (by decide)).trans (at_v406_40 m c)
theorem at_v406_42 : RW42 m c (Proc.devRef .tc main_v406) = R.P12_gb2 (R.argsOf m c) := (RW42_keep m c (by decide)).trans (at_v406_41 m c)
theorem at_v406_43 : RW43 m c (Proc.devRef .tc main_v406) = R.P12_gb2 (R.argsOf m c) := (RW43_keep m c (by decide)).trans (at_v406_42 m c)
theorem at_v406_44 : RW44 m c (Proc.devRef .tc main_v406) = R.P12_gb2 (R.argsOf m c) := (RW44_keep m c (by decide)).trans (at_v406_43 m c)
theorem at_v406_45 : RW45 m c (Proc.devRef .tc main_v406) = R.P12_gb2 (R.argsOf m c) := (RW45_keep m c (by decide)).trans (at_v406_44 m c)
theorem at_v406_46 : RW46 m c (Proc.devRef .tc main_v406) = R.P12_gb2 (R.argsOf m c) := (RW46_keep m c (by decide)).trans (at_v406_45 m c)
theorem at_v406_47 : RW47 m c (Proc.devRef .tc main_v406) = R.P12_gb2 (R.argsOf m c) := (RW47_keep m c (by decide)).trans (at_v406_46 m c)
theorem at_v406_48 : RW48 m c (Proc.devRef .tc main_v406) = R.P12_gb2 (R.argsOf m c) := (RW48_keep m c (by decide)).trans (at_v406_47 m c)
theorem at_v406_49 : RW49 m c (Proc.devRef .tc main_v406) = R.P12_gb2 (R.argsOf m c) := (RW49_keep m c (by decide)).trans (at_v406_48 m c)
theorem at_v406_50 : RW50 m c (Proc.devRef .tc main_v406) = R.P12_gb2 (R.argsOf m c) := (RW50_keep m c (by decide)).trans (at_v406_49 m c)
theorem at_v406_51 : RW51 m c (Proc.devRef .tc main_v406) = R.P12_gb2 (R.argsOf m c) := (RW51_keep m c (by decide)).trans (at_v406_50 m c)
theorem at_v406_52 : RW52 m c (Proc.devRef .tc main_v406) = R.P12_gb2 (R.argsOf m c) := (RW52_keep m c (by decide)).trans (at_v406_51 m c)
theorem at_v406_53 : RW53 m c (Proc.devRef .tc main_v406) = R.P12_gb2 (R.argsOf m c) := (RW53_keep m c (by decide)).trans (at_v406_52 m c)
theorem at_v532_54 : RW54 m c (Proc.devRef .tc main_v532) = R.g6 (R.argsOf m c) :=
  st_g6 (RW53 m c) (R.argsOf m c) (at_v520_53 m c) (at_v524_53 m c) (at_v469_53 m c) (at_v400_53 m c) (at_v402_53 m c) (at_v404_53 m c) (at_v406_53 m c)
theorem at_v1_42 : RW42 m c (Proc.devRef .tc main_v1) = R.lr (R.argsOf m c) := (RW42_keep m c (by decide)).trans (at_v1_41 m c)
theorem at_v1_43 : RW43 m c (Proc.devRef .tc main_v1) = R.lr (R.argsOf m c) := (RW43_keep m c (by decide)).trans (at_v1_42 m c)
theorem at_v1_44 : RW44 m c (Proc.devRef .tc main_v1) = R.lr (R.argsOf m c) := (RW44_keep m c (by decide)).trans (at_v1_43 m c)
theorem at_v1_45 : RW45 m c (Proc.devRef .tc main_v1) = R.lr (R.argsOf m c) := (RW45_keep m c (by decide)).trans (at_v1_44 m c)
theorem at_v1_46 : RW46 m c (Proc.devRef .tc main_v1) = R.lr (R.argsOf m c) := (RW46_keep m c (by decide)).trans (at_v1_45 m c)
theorem at_v1_47 : RW47 m c (Proc.devRef .tc main_v1) = R.lr (R.argsOf m c) := (RW47_keep m c (by decide)).trans (at_v1_46 m c)
theorem at_v1_48 : RW48 m c (Proc.devRef .tc main_v1) = R.lr (R.argsOf m c) := (RW48_keep m c (by decide)).trans (at_v1_47 m c)
theorem at_v1_49 : RW49 m c (Proc.devRef .tc main_v1) = R.lr (R.argsOf m c) := (RW49_keep m c (by decide)).trans (at_v1_48 m c)
theorem at_v1_50 : RW50 m c (Proc.devRef .tc main_v1) = R.lr (R.argsOf m c) := (RW50_keep m c (by decide)).trans (at_v1_49 m c)
theorem at_v1_51 : RW51 m c (Proc.devRef .tc main_v1) = R.lr (R.argsOf m c) := (RW51_keep m c (by decide)).trans (at_v1_50 m c)
theorem at_v1_52 : RW52 m c (Proc.devRef .tc main_v1) = R.lr (R.argsOf m c) := (RW52_keep m c (by decide)).trans (at_v1_51 m c)
theorem at_v1_53 : RW53 m c (Proc.devRef .tc main_v1) = R.lr (R.argsOf m c) := (RW53_keep m c (by decide)).trans (at_v1_52 m c)
theorem at_v1_54 : RW54 m c (Proc.devRef .tc main_v1) = R.lr (R.argsOf m c) := (RW54_keep m c (by decide)).trans (at_v1_53 m c)
theorem at_v3_39 : RW39 m c (Proc.devRef .tc main_v3) = R.lc (R.argsOf m c) := (RW39_keep m c (by decide)).trans (at_v3_38 m c)
theorem at_v3_40 : RW40 m c (Proc.devRef .tc main_v3) = R.lc (R.argsOf m c) := (RW40_keep m c (by decide)).trans (at_v3_39 m c)
theorem at_v3_41 : RW41 m c (Proc.devRef .tc main_v3) = R.lc (R.argsOf m c) := (RW41_keep m c (by decide)).trans (at_v3_40 m c)
theorem at_v3_42 : RW42 m c (Proc.devRef .tc main_v3) = R.lc (R.argsOf m c) := (RW42_keep m c (by decide)).trans (at_v3_41 m c)
theorem at_v3_43 : RW43 m c (Proc.devRef .tc main_v3) = R.lc (R.argsOf m c) := (RW43_keep m c (by decide)).trans (at_v3_42 m c)
theorem at_v3_44 : RW44 m c (Proc.devRef .tc main_v3) = R.lc (R.argsOf m c) := (RW44_keep m c (by decide)).trans (at_v3_43 m c)
theorem at_v3_45 : RW45 m c (Proc.devRef .tc main_v3) = R.lc (R.argsOf m c) := (RW45_keep m c (by decide)).trans (at_v3_44 m c)
theorem at_v3_46 : RW46 m c (Proc.devRef .tc main_v3) = R.lc (R.argsOf m c) := (RW46_keep m c (by decide)).trans (at_v3_45 m c)
theorem at_v3_47 : RW47 m c (Proc.devRef .tc main_v3) = R.lc (R.argsOf m c) := (RW47_keep m c (by decide)).trans (at_v3_46 m c)
theorem at_v3_48 : RW48 m c (Proc.devRef .tc main_v3) = R.lc (R.argsOf m c) := (RW48_keep m c (by decide)).trans (at_v3_47 m c)
theorem at_v3_49 : RW49 m c (Proc.devRef .tc main_v3) = R.lc (R.argsOf m c) := (RW49_keep m c (by decide)).trans (at_v3_48 m c)
theorem at_v3_50 : RW50 m c (Proc.devRef .tc main_v3) = R.lc (R.argsOf m c) := (RW50_keep m c (by decide)).trans (at_v3_49 m c)
theorem at_v3_51 : RW51 m c (Proc.devRef .tc main_v3) = R.lc (R.argsOf m c) := (RW51_keep m c (by decide)).trans (at_v3_50 m c)
theorem at_v3_52 : RW52 m c (Proc.devRef .tc main_v3) = R.lc (R.argsOf m c) := (RW52_keep m c (by decide)).trans (at_v3_51 m c)
theorem at_v3_53 : RW53 m c (Proc.devRef .tc main_v3) = R.lc (R.argsOf m c) := (RW53_keep m c (by decide)).trans (at_v3_52 m c)
theorem at_v3_54 : RW54 m c (Proc.devRef .tc main_v3) = R.lc (R.argsOf m c) := (RW54_keep m c (by decide)).trans (at_v3_53 m c)
theorem at_v432_45 : RW45 m c (Proc.devRef .tc main_v432) = R.le3 (R.argsOf m c) := (RW45_keep m c (by decide)).trans (at_v432_44 m c)
theorem at_v432_46 : RW46 m c (Proc.devRef .tc main_v432) = R.le3 (R.argsOf m c) := (RW46_keep m c (by decide)).trans (at_v432_45 m c)
theorem at_v432_47 : RW47 m c (Proc.devRef .tc main_v432) = R.le3 (R.argsOf m c) := (RW47_keep m c (by decide)).trans (at_v432_46 m c)
theorem at_v432_48 : RW48 m c (Proc.devRef .tc main_v432) = R.le3 (R.argsOf m c) := (RW48_keep m c (by decide)).trans (at_v432_47 m c)
theorem at_v432_49 : RW49 m c (Proc.devRef .tc main_v432) = R.le3 (R.argsOf m c) := (RW49_keep m c (by decide)).trans (at_v432_48 m c)
theorem at_v432_50 : RW50 m c (Proc.devRef .tc main_v432) = R.le3 (R.argsOf m c) := (RW50_keep m c (by decide)).trans (at_v432_49 m c)
theorem at_v432_51 : RW51 m c (Proc.devRef .tc main_v432) = R.le3 (R.argsOf m c) := (RW51_keep m c (by decide)).trans (at_v432_50 m c)
theorem at_v432_52 : RW52 m c (Proc.devRef .tc main_v432) = R.le3 (R.argsOf m c) := (RW52_keep m c (by decide)).trans (at_v432_51 m c)
theorem at_v432_53 : RW53 m c (Proc.devRef .tc main_v432) = R.le3 (R.argsOf m c) := (RW53_keep m c (by decide)).trans (at_v432_52 m c)
theorem at_v432_54 : RW54 m c (Proc.devRef .tc main_v432) = R.le3 (R.argsOf m c) := (RW54_keep m c (by decide)).trans (at_v432_53 m c)
theorem at_v537_55 : RW55 m c (Proc.devRef .tc main_v537) = C_v537 (F := Ideal) (R.lr (R.argsOf m c)) (R.lc (R.argsOf m c)) (R.le3 (R.argsOf m c)) :=
  rd_v537 (RW54 m c) (R.argsOf m c) (at_v1_54 m c) (at_v3_54 m c) (at_v432_54 m c)
theorem at_v5_50 : RW50 m c (Proc.devRef .tc main_v5) = R.ur (R.argsOf m c) := (RW50_keep m c (by decide)).trans (at_v5_49 m c)
theorem at_v5_51 : RW51 m c (Proc.devRef .tc main_v5) = R.ur (R.argsOf m c) := (RW51_keep m c (by decide)).trans (at_v5_50 m c)
theorem at_v5_52 : RW52 m c (Proc.devRef .tc main_v5) = R.ur (R.argsOf m c) := (RW52_keep m c (by decide)).trans (at_v5_51 m c)
theorem at_v5_53 : RW53 m c (Proc.devRef .tc main_v5) = R.ur (R.argsOf m c) := (RW53_keep m c (by decide)).trans (at_v5_52 m c)
theorem at_v5_54 : RW54 m c (Proc.devRef .tc main_v5) = R.ur (R.argsOf m c) := (RW54_keep m c (by decide)).trans (at_v5_53 m c)
theorem at_v7_48 : RW48 m c (Proc.devRef .tc main_v7) = R.uc (R.argsOf m c) := (RW48_keep m c (by decide)).trans (at_v7_47 m c)
theorem at_v7_49 : RW49 m c (Proc.devRef .tc main_v7) = R.uc (R.argsOf m c) := (RW49_keep m c (by decide)).trans (at_v7_48 m c)
theorem at_v7_50 : RW50 m c (Proc.devRef .tc main_v7) = R.uc (R.argsOf m c) := (RW50_keep m c (by decide)).trans (at_v7_49 m c)
theorem at_v7_51 : RW51 m c (Proc.devRef .tc main_v7) = R.uc (R.argsOf m c) := (RW51_keep m c (by decide)).trans (at_v7_50 m c)
theorem at_v7_52 : RW52 m c (Proc.devRef .tc main_v7) = R.uc (R.argsOf m c) := (RW52_keep m c (by decide)).trans (at_v7_51 m c)
theorem at_v7_53 : RW53 m c (Proc.devRef .tc main_v7) = R.uc (R.argsOf m c) := (RW53_keep m c (by decide)).trans (at_v7_52 m c)
theorem at_v7_54 : RW54 m c (Proc.devRef .tc main_v7) = R.uc (R.argsOf m c) := (RW54_keep m c (by decide)).trans (at_v7_53 m c)
theorem at_v495_53 : RW53 m c (Proc.devRef .tc main_v495) = R.ue3 (R.argsOf m c) := (RW53_keep m c (by decide)).trans (at_v495_52 m c)
theorem at_v495_54 : RW54 m c (Proc.devRef .tc main_v495) = R.ue3 (R.argsOf m c) := (RW54_keep m c (by decide)).trans (at_v495_53 m c)
theorem at_v542_55 : RW55 m c (Proc.devRef .tc main_v542) = C_v542 (F := Ideal) (R.ur (R.argsOf m c)) (R.uc (R.argsOf m c)) (R.ue3 (R.argsOf m c)) :=
  rd_v542 (RW54 m c) (R.argsOf m c) (at_v5_54 m c) (at_v7_54 m c) (at_v495_54 m c)
theorem at_v543_56 : RW56 m c (Proc.devRef .tc main_v543) = R.result (R.argsOf m c) :=
  st_result (RW55 m c) (R.argsOf m c) (at_v537_55 m c) (at_v542_55 m c)

/-- The buffer of `R.le1` after the chunk that writes it. -/
theorem R_le1 : RW4 m c (Proc.devRef .tc main_v84) = R.le1 (R.argsOf m c) := at_v84_4 m c
/-- The buffer of `R.la1` after the chunk that writes it. -/
theorem R_la1 : RW5 m c (Proc.devRef .tc main_v94) = R.la1 (R.argsOf m c) := at_v94_5 m c
/-- The buffer of `R.ln1` after the chunk that writes it. -/
theorem R_ln1 : RW7 m c (Proc.devRef .tc main_v105) = R.ln1 (R.argsOf m c) := at_v105_7 m c
/-- The buffer of `R.g1` after the chunk that writes it. -/
theorem R_g1 : RW10 m c (Proc.devRef .tc main_v121) = R.g1 (R.argsOf m c) := at_v121_10 m c
/-- The buffer of `R.ue1` after the chunk that writes it. -/
theorem R_ue1 : RW12 m c (Proc.devRef .tc main_v147) = R.ue1 (R.argsOf m c) := at_v147_12 m c
/-- The buffer of `R.ua1` after the chunk that writes it. -/
theorem R_ua1 : RW14 m c (Proc.devRef .tc main_v157) = R.ua1 (R.argsOf m c) := at_v157_14 m c
/-- The buffer of `R.un1` after the chunk that writes it. -/
theorem R_un1 : RW16 m c (Proc.devRef .tc main_v168) = R.un1 (R.argsOf m c) := at_v168_16 m c
/-- The buffer of `R.g2` after the chunk that writes it. -/
theorem R_g2 : RW18 m c (Proc.devRef .tc main_v184) = R.g2 (R.argsOf m c) := at_v184_18 m c
/-- The buffer of `R.le2` after the chunk that writes it. -/
theorem R_le2 : RW22 m c (Proc.devRef .tc main_v258) = R.le2 (R.argsOf m c) := at_v258_22 m c
/-- The buffer of `R.la2` after the chunk that writes it. -/
theorem R_la2 : RW24 m c (Proc.devRef .tc main_v268) = R.la2 (R.argsOf m c) := at_v268_24 m c
/-- The buffer of `R.ln2` after the chunk that writes it. -/
theorem R_ln2 : RW26 m c (Proc.devRef .tc main_v279) = R.ln2 (R.argsOf m c) := at_v279_26 m c
/-- The buffer of `R.g3` after the chunk that writes it. -/
theorem R_g3 : RW28 m c (Proc.devRef .tc main_v295) = R.g3 (R.argsOf m c) := at_v295_28 m c
/-- The buffer of `R.ue2` after the chunk that writes it. -/
theorem R_ue2 : RW31 m c (Proc.devRef .tc main_v321) = R.ue2 (R.argsOf m c) := at_v321_31 m c
/-- The buffer of `R.ua2` after the chunk that writes it. -/
theorem R_ua2 : RW32 m c (Proc.devRef .tc main_v331) = R.ua2 (R.argsOf m c) := at_v331_32 m c
/-- The buffer of `R.un2` after the chunk that writes it. -/
theorem R_un2 : RW34 m c (Proc.devRef .tc main_v342) = R.un2 (R.argsOf m c) := at_v342_34 m c
/-- The buffer of `R.g4` after the chunk that writes it. -/
theorem R_g4 : RW36 m c (Proc.devRef .tc main_v358) = R.g4 (R.argsOf m c) := at_v358_36 m c
/-- The buffer of `R.le3` after the chunk that writes it. -/
theorem R_le3 : RW41 m c (Proc.devRef .tc main_v432) = R.le3 (R.argsOf m c) := at_v432_41 m c
/-- The buffer of `R.la3` after the chunk that writes it. -/
theorem R_la3 : RW42 m c (Proc.devRef .tc main_v442) = R.la3 (R.argsOf m c) := at_v442_42 m c
/-- The buffer of `R.ln3` after the chunk that writes it. -/
theorem R_ln3 : RW44 m c (Proc.devRef .tc main_v453) = R.ln3 (R.argsOf m c) := at_v453_44 m c
/-- The buffer of `R.g5` after the chunk that writes it. -/
theorem R_g5 : RW46 m c (Proc.devRef .tc main_v469) = R.g5 (R.argsOf m c) := at_v469_46 m c
/-- The buffer of `R.ue3` after the chunk that writes it. -/
theorem R_ue3 : RW49 m c (Proc.devRef .tc main_v495) = R.ue3 (R.argsOf m c) := at_v495_49 m c
/-- The buffer of `R.ua3` after the chunk that writes it. -/
theorem R_ua3 : RW50 m c (Proc.devRef .tc main_v505) = R.ua3 (R.argsOf m c) := at_v505_50 m c
/-- The buffer of `R.un3` after the chunk that writes it. -/
theorem R_un3 : RW52 m c (Proc.devRef .tc main_v516) = R.un3 (R.argsOf m c) := at_v516_52 m c
/-- The buffer of `R.g6` after the chunk that writes it. -/
theorem R_g6 : RW54 m c (Proc.devRef .tc main_v532) = R.g6 (R.argsOf m c) := at_v532_54 m c
/-- The buffer of `R.result` after the chunk that writes it. -/
theorem R_result : RW56 m c (Proc.devRef .tc main_v543) = R.result (R.argsOf m c) := at_v543_56 m c
end Cert.Val.RRead

end
-- ==== Proof.lean ====
/- The certificate's claim assembled from its parts.

   The three frames: each program's run (the kernel programs' as a fold of buffer contents through @main's 105 items,
   twelve pipelines among host operations; the reference's as a fold through its 655 host operations) ends with every
   argument array as launched.
   The equivalence: on memories agreeing on the arguments, with every edge index in [0, 100000), the result buffer of
   the kernel program's run is the value of a DAG of named stages (per layer and per triangle: the edge embedding, its
   mean over incident edges, the node embedding, the global vector), and so is the reference's; stage by stage the two
   DAGs agree: a row gather under the index range, a 26-term sum split 8 + 8 + 8 + 2 and regrouped, s · (1 / m) = s / m
   for m ≥ 1, and two spellings of a bias row. -/
import proofs.«426760_j80470507258346_3_alg».proof.Defs
import proofs.«426760_j80470507258346_3_alg».proof.Proof.Gen.Kernel
import proofs.«426760_j80470507258346_3_alg».proof.Proof.Gen.KernelIdeal
import proofs.«426760_j80470507258346_3_alg».proof.Proof.Gen.ReferenceIdeal
import proofs.«426760_j80470507258346_3_alg».proof.Proof.Gen.Pre_finite_inputs
import proofs.«426760_j80470507258346_3_alg».proof.Proof.KI.Run
import proofs.«426760_j80470507258346_3_alg».proof.Proof.KB.Run
import proofs.«426760_j80470507258346_3_alg».proof.Proof.Ref.Run
import proofs.«426760_j80470507258346_3_alg».proof.Proof.Val.ArgsOf
import proofs.«426760_j80470507258346_3_alg».proof.Proof.Val.DagEq
import proofs.«426760_j80470507258346_3_alg».proof.Proof.Val.KReadAll
import proofs.«426760_j80470507258346_3_alg».proof.Proof.Val.RReadAll

noncomputable section

namespace Cert.Proof

open Idealize.ShloMosaic Idealize.SL.Sem

/-- On memories agreeing on the arguments, under the precondition, the reference's result buffer after its run holds
    what the kernel program's result buffer holds after its own. -/
theorem value_eq
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hA : Cert.Val.R.argsOf m' c = Cert.Val.K.toR (Cert.Val.K.argsOf m c)) :
    Cert.ReferenceIdeal.RunFold.RW56 m' c (Proc.devRef .tc Cert.ReferenceIdeal.main_v543)
      = Cert.KernelIdeal.Gen.W105 m g c (Proc.devRef .tc Cert.KernelIdeal.main_v483) := by
  rw [Cert.Val.RRead.R_result, Cert.Val.KRead.K_result, hA]
  exact (Cert.Val.DagEq.dag_eq _ (Cert.PreIdx.idx_range_mem m hpre c).1 (Cert.PreIdx.idx_range_mem m hpre c).2).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.RunFold.frame m ρ,
  trivial,
  fun m ρ m' ρ' hpre hagree =>
    ⟨fun c => Cert.KernelIdeal.Gen.W105 m ρ c (Proc.devRef .tc Cert.KernelIdeal.main_v483),
     Cert.KernelIdeal.Gen.run_val m ρ,
     (θ_run (Cert.ReferenceIdeal.defs (F := Ideal)) _ _).mono
       (fun _ h c => ⟨(h c).1.trans (value_eq m ρ m' hpre c (by
          obtain ⟨h0, h1, h2, h3, h4, h5, h6, h7, h8, h9, h10, h11, h12, h13, h14, h15, h16⟩ := hagree c
          unfold Cert.Val.R.argsOf Cert.Val.K.argsOf Cert.Val.K.toR
          simp only [h0, h1, h2, h3, h4, h5, h6, h7, h8, h9, h10, h11, h12, h13, h14, h15, h16])), (h c).2⟩)
       (Cert.ReferenceIdeal.RunFold.run_val m' ρ')⟩⟩

end Cert.Proof

end
